-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v330)) (v1 : (c : Dev Cert.KernelIdeal.nD) → Buf (Elt Ideal) ((c.tc : Thread Cert.KernelIdeal.nD Cert.KernelIdeal.τ).loc Cert.KernelIdeal.main_v333)) (v2 : (c : Dev Cert.KernelIdeal.nD) → Buf (Elt Ideal) ((c.tc : Thread Cert.KernelIdeal.nD Cert.KernelIdeal.τ).loc Cert.KernelIdeal.main_v336)) (v3 : (c : Dev Cert.KernelIdeal.nD) → Buf (Elt Ideal) ((c.tc : Thread Cert.KernelIdeal.nD Cert.KernelIdeal.τ).loc Cert.KernelIdeal.main_v339)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v330) = v0 c
          ∧ r.2.mem ((c.tc : Thread Cert.KernelIdeal.nD Cert.KernelIdeal.τ).loc Cert.KernelIdeal.main_v333) = v1 c
          ∧ r.2.mem ((c.tc : Thread Cert.KernelIdeal.nD Cert.KernelIdeal.τ).loc Cert.KernelIdeal.main_v336) = v2 c
          ∧ r.2.mem ((c.tc : Thread Cert.KernelIdeal.nD Cert.KernelIdeal.τ).loc Cert.KernelIdeal.main_v339) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v525) = v0 c
          ∧ r.2.mem ((c.tc : Thread Cert.ReferenceIdeal.nD Cert.ReferenceIdeal.τ).loc Cert.ReferenceIdeal.main_v545) = v1 c
          ∧ r.2.mem ((c.tc : Thread Cert.ReferenceIdeal.nD Cert.ReferenceIdeal.τ).loc Cert.ReferenceIdeal.main_v565) = v2 c
          ∧ r.2.mem ((c.tc : Thread Cert.ReferenceIdeal.nD Cert.ReferenceIdeal.τ).loc Cert.ReferenceIdeal.main_v585) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S50000x128 : Shape := ⟨2, ![50000, 128]⟩
abbrev S10000x128 : Shape := ⟨2, ![10000, 128]⟩
abbrev S3000x128 : Shape := ⟨2, ![3000, 128]⟩
abbrev S7x128x256 : Shape := ⟨3, ![7, 128, 256]⟩
abbrev S7x256 : Shape := ⟨2, ![7, 256]⟩
abbrev S7x256x256 : Shape := ⟨3, ![7, 256, 256]⟩
abbrev S256 : Shape := ⟨1, ![256]⟩
abbrev S500000 : Shape := ⟨1, ![500000]⟩
abbrev S400000 : Shape := ⟨1, ![400000]⟩
abbrev S150000 : Shape := ⟨1, ![150000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S3000x128 : S_.BroadcastsInDim S3000x128 (![] : Fin 0 → Fin S3000x128.rank)
  reducesTo_S3000x128_S_d0_1 : S3000x128.ReducesTo [0, 1] S_
  bcast_S_S7x128x256 : S_.BroadcastsInDim S7x128x256 (![] : Fin 0 → Fin S7x128x256.rank)
  reducesTo_S7x128x256_S_d0_1_2 : S7x128x256.ReducesTo [0, 1, 2] S_
  bcast_S_S7x256 : S_.BroadcastsInDim S7x256 (![] : Fin 0 → Fin S7x256.rank)
  reducesTo_S7x256_S_d0_1 : S7x256.ReducesTo [0, 1] S_
  bcast_S_S7x256x256 : S_.BroadcastsInDim S7x256x256 (![] : Fin 0 → Fin S7x256x256.rank)
  reducesTo_S7x256x256_S_d0_1_2 : S7x256x256.ReducesTo [0, 1, 2] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S7x256x256 .f32) (main_arg8 : FVec F S7x256x256 .f32) (main_arg9 : FVec F S7x256 .f32) (main_arg10 : FVec F S256 .f32) (main_arg11 : FVec F S256 .f32) (main_arg12 : FVec F S256 .f32) (main_arg13 : FVec F S256 .f32) (main_v33 : IVec S_ 1) : IVec S_ 1 :=
  let main_v34 : FVec F S7x256x256 .f32 := Host.absf main_arg7
  let main_cst_12 : FVec F S_ .f32 := constant S_ .f32 0x7F800000#32
  let main_v35 : FVec F S7x256x256 .f32 := broadcastInDim S7x256x256 ![] bcast_S_S7x256x256 main_cst_12
  let main_v36 : IVec S7x256x256 1 := cmpf .olt main_v34 main_v35
  let main_c_13 : IVec S_ 1 := constantI S_ 1 1#1
  let main_v37 : IVec S_ 1 := (fun x v => Host.reduce IntOp.andi x v reducesTo_S7x256x256_S_d0_1_2 h_S_) main_v36 main_c_13
  let main_v38 : IVec S_ 1 := andi main_v33 main_v37
  let main_v39 : FVec F S7x256x256 .f32 := Host.absf main_arg8
  let main_cst_14 : FVec F S_ .f32 := constant S_ .f32 0x7F800000#32
  let main_v40 : FVec F S7x256x256 .f32 := broadcastInDim S7x256x256 ![] bcast_S_S7x256x256 main_cst_14
  let main_v41 : IVec S7x256x256 1 := cmpf .olt main_v39 main_v40
  let main_c_15 : IVec S_ 1 := constantI S_ 1 1#1
  let main_v42 : IVec S_ 1 := (fun x v => Host.reduce IntOp.andi x v reducesTo_S7x256x256_S_d0_1_2 h_S_) main_v41 main_c_15
  let main_v43 : IVec S_ 1 := andi main_v38 main_v42
  let main_v44 : FVec F S7x256 .f32 := Host.absf main_arg9
  let main_cst_16 : FVec F S_ .f32 := constant S_ .f32 0x7F800000#32
  let main_v45 : FVec F S7x256 .f32 := broadcastInDim S7x256 ![] bcast_S_S7x256 main_cst_16
  let main_v46 : IVec S7x256 1 := cmpf .olt main_v44 main_v45
  let main_c_17 : IVec S_ 1 := constantI S_ 1 1#1
  let main_v47 : IVec S_ 1 := (fun x v => Host.reduce IntOp.andi x v reducesTo_S7x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S7x128x256 .f32) (main_arg5 : FVec F S7x128x256 .f32) (main_arg6 : FVec F S7x256 .f32) (main_arg7 : FVec F S7x256x256 .f32) (main_arg8 : FVec F S7x256x256 .f32) (main_arg9 : FVec F S7x256 .f32) (main_arg10 : FVec F S256 .f32) (main_arg11 : FVec F S256 .f32) (main_arg12 : FVec F S256 .f32) (main_arg13 : FVec F S256 .f32) (main_v13 : IVec S_ 1) (main_v16 : IVec S3000x128 1) : IVec S_ 1 :=
  let main_c_5 : IVec S_ 1 := constantI S_ 1 1#1
  let main_v17 : IVec S_ 1 := (fun x v => Host.reduce IntOp.andi x v reducesTo_S3000x128_S_d0_1 h_S_) main_v16 main_c_5
  let main_v18 : IVec S_ 1 := andi main_v13 main_v17
  let main_v19 : FVec F S7x128x256 .f32 := Host.absf main_arg4
  let main_cst_6 : FVec F S_ .f32 := constant S_ .f32 0x7F800000#32
  let main_v20 : FVec F S7x128x256 .f32 := broadcastInDim S7x128x256 ![] bcast_S_S7x128x256 main_cst_6
  let main_v21 : IVec S7x128x256 1 := cmpf .olt main_v19 main_v20
  let main_c_7 : IVec S_ 1 := constantI S_ 1 1#1
  let main_v22 : IVec S_ 1 := (fun x v => Host.reduce IntOp.andi x v reducesTo_S7x128x256_S_d0_1_2 h_S_) main_v21 main_c_7
  let main_v23 : IVec S_ 1 := andi main_v18 main_v22
  let main_v24 : FVec F S7x128x256 .f32 := Host.absf main_arg5
  let main_cst_8 : FVec F S_ .f32 := constant S_ .f32 0x7F800000#32
  let main_v25 : FVec F S7x128x256 .f32 := broadcastInDim S7x128x256 ![] bcast_S_S7x128x256 main_cst_8
  let main_v26 : IVec S7x128x256 1 := cmpf .olt main_v24 main_v25
  let main_c_9 : IVec S_ 1 := constantI S_ 1 1#1
  let main_v27 : IVec S_ 1 := (fun x v => Host.reduce IntOp.andi x v reducesTo_S7x128x256_S_d0_1_2 h_S_) main_v26 main_c_9
  let main_v28 : IVec S_ 1 := andi main_v23 main_v27
  let main_v29 : FVec F S7x256 .f32 := Host.absf main_arg6
  let main_cst_10 : FVec F S_ .f32 := constant S_ .f32 0x7F800000#32
  let main_v30 : FVec F S7x256 .f32 := broadcastInDim S7x256 ![] bcast_S_S7x256 main_cst_10
  let main_v31 : IVec S7x256 1 := cmpf .olt main_v29 main_v30
  let main_c_11 : IVec S_ 1 := constantI S_ 1 1#1
  let main_v32 : IVec S_ 1 := (fun x v => Host.reduce IntOp.andi x v reducesTo_S7x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S20000x128 .f32) (main_arg1 : FVec F S50000x128 .f32) (main_arg2 : FVec F S10000x128 .f32) (main_arg3 : FVec F S3000x128 .f32) (main_arg4 : FVec F S7x128x256 .f32) (main_arg5 : FVec F S7x128x256 .f32) (main_arg6 : FVec F S7x256 .f32) (main_arg7 : FVec F S7x256x256 .f32) (main_arg8 : FVec F S7x256x256 .f32) (main_arg9 : FVec F S7x256 .f32) (main_arg10 : FVec F S256 .f32) (main_arg11 : FVec F S256 .f32) (main_arg12 : FVec F S256 .f32) (main_arg13 : FVec F S256 .f32) (main_arg14 : IVec S500000 32) (main_arg15 : IVec S500000 32) (main_arg16 : IVec S400000 32) (main_arg17 : IVec S400000 32) (main_arg18 : IVec S150000 32) (main_arg19 : IVec S150000 32) (main_arg20 : IVec S400000 32) (main_arg21 : IVec S400000 32) (main_arg22 : IVec S500000 32) (main_arg23 : IVec S500000 32) (main_arg24 : IVec S400000 32) (main_arg25 : IVec S400000 32) (main_arg26 : IVec S150000 32) (main_arg27 : IVec S150000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S3000x128 .f32 := Host.absf main_arg3
  let main_cst_4 : FVec F S_ .f32 := constant S_ .f32 0x7F800000#32
  let main_v15 : FVec F S3000x128 .f32 := broadcastInDim S3000x128 ![] bcast_S_S3000x128 main_cst_4
  let main_v16 : IVec S3000x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S20000x128 : Shape := ⟨2, ![20000, 128]⟩
abbrev S50000x128 : Shape := ⟨2, ![50000, 128]⟩
abbrev S10000x128 : Shape := ⟨2, ![10000, 128]⟩
abbrev S3000x128 : Shape := ⟨2, ![3000, 128]⟩
abbrev S7x128x256 : Shape := ⟨3, ![7, 128, 256]⟩
abbrev S7x256 : Shape := ⟨2, ![7, 256]⟩
abbrev S7x256x256 : Shape := ⟨3, ![7, 256, 256]⟩
abbrev S256 : Shape := ⟨1, ![256]⟩
abbrev S500000 : Shape := ⟨1, ![500000]⟩
abbrev S400000 : Shape := ⟨1, ![400000]⟩
abbrev S150000 : Shape := ⟨1, ![150000]⟩
abbrev S_ : Shape := ⟨0, ![]⟩
abbrev S500000x1 : Shape := ⟨2, ![500000, 1]⟩
abbrev S10000x1 : Shape := ⟨2, ![10000, 1]⟩
abbrev S400000x1 : Shape := ⟨2, ![400000, 1]⟩
abbrev S50000x1 : Shape := ⟨2, ![50000, 1]⟩
abbrev S150000x1 : Shape := ⟨2, ![150000, 1]⟩
abbrev S3000x1 : Shape := ⟨2, ![3000, 1]⟩
abbrev S20000x1 : Shape := ⟨2, ![20000, 1]⟩
abbrev S500000x128 : Shape := ⟨2, ![500000, 128]⟩
abbrev S400000x128 : Shape := ⟨2, ![400000, 128]⟩
abbrev S150000x128 : Shape := ⟨2, ![150000, 128]⟩
abbrev S1x128x256 : Shape := ⟨3, ![1, 128, 256]⟩
abbrev S128x256 : Shape := ⟨2, ![128, 256]⟩
abbrev S1x256 : Shape := ⟨2, ![1, 256]⟩
abbrev S20000x256 : Shape := ⟨2, ![20000, 256]⟩
abbrev S1000x128 : Shape := ⟨2, ![1000, 128]⟩
abbrev S1000x256 : Shape := ⟨2, ![1000, 256]⟩
abbrev S50000x256 : Shape := ⟨2, ![50000, 256]⟩
abbrev S10000x256 : Shape := ⟨2, ![10000, 256]⟩
abbrev S3000x256 : Shape := ⟨2, ![3000, 256]⟩
abbrev S500000x256 : Shape := ⟨2, ![500000, 256]⟩
abbrev S400000x256 : Shape := ⟨2, ![400000, 256]⟩
abbrev S150000x256 : Shape := ⟨2, ![150000, 256]⟩
abbrev S1x256x256 : Shape := ⟨3, ![1, 256, 256]⟩
abbrev S256x256 : Shape := ⟨2, ![256, 256]⟩

abbrev nBuf : Space → Nat
  | .hbm => 447
  | .vmem => 198
  | .smem => 0
  | _ => 0

abbrev hbmTy0_0 (i : Nat) : BufTy := match i % 128 with
  | 0 => ⟨S20000x128, .f32⟩
  | 1 => ⟨S50000x128, .f32⟩
  | 2 => ⟨S10000x128, .f32⟩
  | 3 => ⟨S3000x128, .f32⟩
  | 4 => ⟨S7x128x256, .f32⟩
  | 5 => ⟨S7x128x256, .f32⟩
  | 6 => ⟨S7x256, .f32⟩
  | 7 => ⟨S7x256x256, .f32⟩
  | 8 => ⟨S7x256x256, .f32⟩
  | 9 => ⟨S7x256, .f32⟩
  | 10 => ⟨S256, .f32⟩
  | 11 => ⟨S256, .f32⟩
  | 12 => ⟨S256, .f32⟩
  | 13 => ⟨S256, .f32⟩
  | 14 => ⟨S500000, .i32⟩
  | 15 => ⟨S500000, .i32⟩
  | 16 => ⟨S400000, .i32⟩
  | 17 => ⟨S400000, .i32⟩
  | 18 => ⟨S150000, .i32⟩
  | 19 => ⟨S150000, .i32⟩
  | 20 => ⟨S400000, .i32⟩
  | 21 => ⟨S400000, .i32⟩
  | 22 => ⟨S500000, .i32⟩
  | 23 => ⟨S500000, .i32⟩
  | 24 => ⟨S400000, .i32⟩
  | 25 => ⟨S400000, .i32⟩
  | 26 => ⟨S150000, .i32⟩
  | 27 => ⟨S150000, .i32⟩
  | 28 => ⟨S_, .f32⟩
  | 29 => ⟨S500000x1, .f32⟩
  | 30 => ⟨S_, .f32⟩
  | 31 => ⟨S10000x1, .f32⟩
  | 32 => ⟨S500000x1, .i32⟩
  | 33 => ⟨S10000x1, .f32⟩
  | 34 => ⟨S_, .f32⟩
  | 35 => ⟨S10000x1, .f32⟩
  | 36 => ⟨S10000x1, .f32⟩
  | 37 => ⟨S_, .f32⟩
  | 38 => ⟨S400000x1, .f32⟩
  | 39 => ⟨S_, .f32⟩
  | 40 => ⟨S50000x1, .f32⟩
  | 41 => ⟨S400000x1, .i32⟩
  | 42 => ⟨S50000x1, .f32⟩
  | 43 => ⟨S_, .f32⟩
  | 44 => ⟨S50000x1, .f32⟩
  | 45 => ⟨S50000x1, .f32⟩
  | 46 => ⟨S_, .f32⟩
  | 47 => ⟨S150000x1, .f32⟩
  | 48 => ⟨S_, .f32⟩
  | 49 => ⟨S3000x1, .f32⟩
  | 50 => ⟨S150000x1, .i32⟩
  | 51 => ⟨S3000x1, .f32⟩
  | 52 => ⟨S_, .f32⟩
  | 53 => ⟨S3000x1, .f32⟩
  | 54 => ⟨S3000x1, .f32⟩
  | 55 => ⟨S_, .f32⟩
  | 56 => ⟨S400000x1, .f32⟩
  | 57 => ⟨S_, .f32⟩
  | 58 => ⟨S10000x1, .f32⟩
  | 59 => ⟨S400000x1, .i32⟩
  | 60 => ⟨S10000x1, .f32⟩
  | 61 => ⟨S_, .f32⟩
  | 62 => ⟨S10000x1, .f32⟩
  | 63 => ⟨S10000x1, .f32⟩
  | 64 => ⟨S_, .f32⟩
  | 65 => ⟨S500000x1, .f32⟩
  | 66 => ⟨S_, .f32⟩
  | 67 => ⟨S20000x1, .f32⟩
  | 68 => ⟨S500000x1, .i32⟩
  | 69 => ⟨S20000x1, .f32⟩
  | 70 => ⟨S_, .f32⟩
  | 71 => ⟨S20000x1, .f32⟩
  | 72 => ⟨S20000x1, .f32⟩
  | 73 => ⟨S_, .f32⟩
  | 74 => ⟨S400000x1, .f32⟩
  | 75 => ⟨S_, .f32⟩
  | 76 => ⟨S20000x1, .f32⟩
  | 77 => ⟨S400000x1, .i32⟩
  | 78 => ⟨S20000x1, .f32⟩
  | 79 => ⟨S_, .f32⟩
  | 80 => ⟨S20000x1, .f32⟩
  | 81 => ⟨S20000x1, .f32⟩
  | 82 => ⟨S_, .f32⟩
  | 83 => ⟨S150000x1, .f32⟩
  | 84 => ⟨S_, .f32⟩
  | 85 => ⟨S50000x1, .f32⟩
  | 86 => ⟨S150000x1, .i32⟩
  | 87 => ⟨S50000x1, .f32⟩
  | 88 => ⟨S_, .f32⟩
  | 89 => ⟨S50000x1, .f32⟩
  | 90 => ⟨S50000x1, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S_, .f32⟩
  | 101 => ⟨S10000x128, .f32⟩
  | 102 => ⟨S500000x1, .i32⟩
  | 103 => ⟨S10000x128, .f32⟩
  | 104 => ⟨S10000x128, .f32⟩
  | 105 => ⟨S10000x128, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x128, .f32⟩
  | 115 => ⟨S_, .f32⟩
  | 116 => ⟨S50000x128, .f32⟩
  | 117 => ⟨S400000x1, .i32⟩
  | 118 => ⟨S50000x128, .f32⟩
  | 119 => ⟨S50000x128, .f32⟩
  | 120 => ⟨S50000x128, .f32⟩
  | 121 => ⟨S_, .i32⟩
  | 122 => ⟨S150000, .i32⟩
  | 123 => ⟨S150000, .i1⟩
  | 124 => ⟨S_, .i32⟩
  | 125 => ⟨S150000, .i32⟩
  | 126 => ⟨S150000, .i32⟩
  | 127 => ⟨S150000, .i32⟩
  | _ => ⟨S20000x128, .f32⟩

abbrev hbmTy0_1 (i : Nat) : BufTy := match i % 128 with
  | 0 => ⟨S150000x1, .i32⟩
  | 1 => ⟨S150000x128, .f32⟩
  | 2 => ⟨S_, .f32⟩
  | 3 => ⟨S3000x128, .f32⟩
  | 4 => ⟨S150000x1, .i32⟩
  | 5 => ⟨S3000x128, .f32⟩
  | 6 => ⟨S3000x128, .f32⟩
  | 7 => ⟨S3000x128, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000x128, .f32⟩
  | 17 => ⟨S_, .f32⟩
  | 18 => ⟨S10000x128, .f32⟩
  | 19 => ⟨S400000x1, .i32⟩
  | 20 => ⟨S10000x128, .f32⟩
  | 21 => ⟨S10000x128, .f32⟩
  | 22 => ⟨S10000x128, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S_, .f32⟩
  | 33 => ⟨S20000x128, .f32⟩
  | 34 => ⟨S500000x1, .i32⟩
  | 35 => ⟨S20000x128, .f32⟩
  | 36 => ⟨S20000x128, .f32⟩
  | 37 => ⟨S20000x128, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S_, .f32⟩
  | 48 => ⟨S20000x128, .f32⟩
  | 49 => ⟨S400000x1, .i32⟩
  | 50 => ⟨S20000x128, .f32⟩
  | 51 => ⟨S20000x128, .f32⟩
  | 52 => ⟨S20000x128, .f32⟩
  | 53 => ⟨S_, .i32⟩
  | 54 => ⟨S150000, .i32⟩
  | 55 => ⟨S150000, .i1⟩
  | 56 => ⟨S_, .i32⟩
  | 57 => ⟨S150000, .i32⟩
  | 58 => ⟨S150000, .i32⟩
  | 59 => ⟨S150000, .i32⟩
  | 60 => ⟨S150000x1, .i32⟩
  | 61 => ⟨S150000x128, .f32⟩
  | 62 => ⟨S_, .f32⟩
  | 63 => ⟨S50000x128, .f32⟩
  | 64 => ⟨S150000x1, .i32⟩
  | 65 => ⟨S50000x128, .f32⟩
  | 66 => ⟨S50000x128, .f32⟩
  | 67 => ⟨S50000x128, .f32⟩
  | 68 => ⟨S1x128x256, .f32⟩
  | 69 => ⟨S128x256, .f32⟩
  | 70 => ⟨S1x128x256, .f32⟩
  | 71 => ⟨S128x256, .f32⟩
  | 72 => ⟨S1x128x256, .f32⟩
  | 73 => ⟨S128x256, .f32⟩
  | 74 => ⟨S1x128x256, .f32⟩
  | 75 => ⟨S128x256, .f32⟩
  | 76 => ⟨S1x256, .f32⟩
  | 77 => ⟨S256, .f32⟩
  | 78 => ⟨S1x256, .f32⟩
  | 79 => ⟨S256, .f32⟩
  | 80 => ⟨S1x256, .f32⟩
  | 81 => ⟨S1x256, .f32⟩
  | 82 => ⟨S20000x256, .f32⟩
  | 83 => ⟨S1x256, .f32⟩
  | 84 => ⟨S1x256, .f32⟩
  | 85 => ⟨S1x128x256, .f32⟩
  | 86 => ⟨S128x256, .f32⟩
  | 87 => ⟨S1x128x256, .f32⟩
  | 88 => ⟨S128x256, .f32⟩
  | 89 => ⟨S1x128x256, .f32⟩
  | 90 => ⟨S128x256, .f32⟩
  | 91 => ⟨S1x128x256, .f32⟩
  | 92 => ⟨S128x256, .f32⟩
  | 93 => ⟨S1x256, .f32⟩
  | 94 => ⟨S256, .f32⟩
  | 95 => ⟨S1x256, .f32⟩
  | 96 => ⟨S256, .f32⟩
  | 97 => ⟨S1x256, .f32⟩
  | 98 => ⟨S1x256, .f32⟩
  | 99 => ⟨S50000x256, .f32⟩
  | 100 => ⟨S1x256, .f32⟩
  | 101 => ⟨S1x256, .f32⟩
  | 102 => ⟨S1x128x256, .f32⟩
  | 103 => ⟨S128x256, .f32⟩
  | 104 => ⟨S1x128x256, .f32⟩
  | 105 => ⟨S128x256, .f32⟩
  | 106 => ⟨S1x128x256, .f32⟩
  | 107 => ⟨S128x256, .f32⟩
  | 108 => ⟨S1x128x256, .f32⟩
  | 109 => ⟨S128x256, .f32⟩
  | 110 => ⟨S1x256, .f32⟩
  | 111 => ⟨S256, .f32⟩
  | 112 => ⟨S1x256, .f32⟩
  | 113 => ⟨S256, .f32⟩
  | 114 => ⟨S1x256, .f32⟩
  | 115 => ⟨S1x256, .f32⟩
  | 116 => ⟨S10000x256, .f32⟩
  | 117 => ⟨S1x256, .f32⟩
  | 118 => ⟨S1x256, .f32⟩
  | 119 => ⟨S1x128x256, .f32⟩
  | 120 => ⟨S128x256, .f32⟩
  | 121 => ⟨S1x128x256, .f32⟩
  | 122 => ⟨S128x256, .f32⟩
  | 123 => ⟨S1x256, .f32⟩
  | 124 => ⟨S256, .f32⟩
  | 125 => ⟨S1x256, .f32⟩
  | 126 => ⟨S3000x256, .f32⟩
  | 127 => ⟨S1x256, .f32⟩
  | _ => ⟨S20000x128, .f32⟩

abbrev hbmTy0_2 (i : Nat) : BufTy := match i % 128 with
  | 0 => ⟨S1x256, .f32⟩
  | 1 => ⟨S1x256, .f32⟩
  | 2 => ⟨S1x256, .f32⟩
  | 3 => ⟨S20000x256, .f32⟩
  | 4 => ⟨S1x256, .f32⟩
  | 5 => ⟨S1x256, .f32⟩
  | 6 => ⟨S50000x256, .f32⟩
  | 7 => ⟨S1x256, .f32⟩
  | 8 => ⟨S1x256, .f32⟩
  | 9 => ⟨S10000x256, .f32⟩
  | 10 => ⟨S1x256, .f32⟩
  | 11 => ⟨S1x256, .f32⟩
  | 12 => ⟨S3000x256, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x256, .f32⟩
  | 22 => ⟨S_, .f32⟩
  | 23 => ⟨S10000x256, .f32⟩
  | 24 => ⟨S500000x1, .i32⟩
  | 25 => ⟨S10000x256, .f32⟩
  | 26 => ⟨S10000x256, .f32⟩
  | 27 => ⟨S10000x256, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x256, .f32⟩
  | 37 => ⟨S_, .f32⟩
  | 38 => ⟨S50000x256, .f32⟩
  | 39 => ⟨S400000x1, .i32⟩
  | 40 => ⟨S50000x256, .f32⟩
  | 41 => ⟨S50000x256, .f32⟩
  | 42 => ⟨S50000x256, .f32⟩
  | 43 => ⟨S_, .i32⟩
  | 44 => ⟨S150000, .i32⟩
  | 45 => ⟨S150000, .i1⟩
  | 46 => ⟨S_, .i32⟩
  | 47 => ⟨S150000, .i32⟩
  | 48 => ⟨S150000, .i32⟩
  | 49 => ⟨S150000, .i32⟩
  | 50 => ⟨S150000x1, .i32⟩
  | 51 => ⟨S150000x256, .f32⟩
  | 52 => ⟨S_, .f32⟩
  | 53 => ⟨S3000x256, .f32⟩
  | 54 => ⟨S150000x1, .i32⟩
  | 55 => ⟨S3000x256, .f32⟩
  | 56 => ⟨S3000x256, .f32⟩
  | 57 => ⟨S3000x256, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x256, .f32⟩
  | 67 => ⟨S_, .f32⟩
  | 68 => ⟨S10000x256, .f32⟩
  | 69 => ⟨S400000x1, .i32⟩
  | 70 => ⟨S10000x256, .f32⟩
  | 71 => ⟨S10000x256, .f32⟩
  | 72 => ⟨S10000x256, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x256, .f32⟩
  | 82 => ⟨S_, .f32⟩
  | 83 => ⟨S20000x256, .f32⟩
  | 84 => ⟨S500000x1, .i32⟩
  | 85 => ⟨S20000x256, .f32⟩
  | 86 => ⟨S20000x256, .f32⟩
  | 87 => ⟨S20000x256, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000x256, .f32⟩
  | 97 => ⟨S_, .f32⟩
  | 98 => ⟨S20000x256, .f32⟩
  | 99 => ⟨S400000x1, .i32⟩
  | 100 => ⟨S20000x256, .f32⟩
  | 101 => ⟨S20000x256, .f32⟩
  | 102 => ⟨S20000x256, .f32⟩
  | 103 => ⟨S_, .i32⟩
  | 104 => ⟨S150000, .i32⟩
  | 105 => ⟨S150000, .i1⟩
  | 106 => ⟨S_, .i32⟩
  | 107 => ⟨S150000, .i32⟩
  | 108 => ⟨S150000, .i32⟩
  | 109 => ⟨S150000, .i32⟩
  | 110 => ⟨S150000x1, .i32⟩
  | 111 => ⟨S150000x256, .f32⟩
  | 112 => ⟨S_, .f32⟩
  | 113 => ⟨S50000x256, .f32⟩
  | 114 => ⟨S150000x1, .i32⟩
  | 115 => ⟨S50000x256, .f32⟩
  | 116 => ⟨S50000x256, .f32⟩
  | 117 => ⟨S50000x256, .f32⟩
  | 118 => ⟨S1x256x256, .f32⟩
  | 119 => ⟨S256x256, .f32⟩
  | 120 => ⟨S1x256x256, .f32⟩
  | 121 => ⟨S256x256, .f32⟩
  | 122 => ⟨S1x256x256, .f32⟩
  | 123 => ⟨S256x256, .f32⟩
  | 124 => ⟨S1x256x256, .f32⟩
  | 125 => ⟨S256x256, .f32⟩
  | 126 => ⟨S1x256, .f32⟩
  | 127 => ⟨S256, .f32⟩
  | _ => ⟨S20000x128, .f32⟩

abbrev hbmTy0_3 (i : Nat) : BufTy := match i % 128 with
  | 0 => ⟨S1x256, .f32⟩
  | 1 => ⟨S256, .f32⟩
  | 2 => ⟨S1x256, .f32⟩
  | 3 => ⟨S1x256, .f32⟩
  | 4 => ⟨S20000x256, .f32⟩
  | 5 => ⟨S1x256, .f32⟩
  | 6 => ⟨S1x256, .f32⟩
  | 7 => ⟨S1x256x256, .f32⟩
  | 8 => ⟨S256x256, .f32⟩
  | 9 => ⟨S1x256x256, .f32⟩
  | 10 => ⟨S256x256, .f32⟩
  | 11 => ⟨S1x256x256, .f32⟩
  | 12 => ⟨S256x256, .f32⟩
  | 13 => ⟨S1x256x256, .f32⟩
  | 14 => ⟨S256x256, .f32⟩
  | 15 => ⟨S1x256, .f32⟩
  | 16 => ⟨S256, .f32⟩
  | 17 => ⟨S1x256, .f32⟩
  | 18 => ⟨S256, .f32⟩
  | 19 => ⟨S1x256, .f32⟩
  | 20 => ⟨S1x256, .f32⟩
  | 21 => ⟨S50000x256, .f32⟩
  | 22 => ⟨S1x256, .f32⟩
  | 23 => ⟨S1x256, .f32⟩
  | 24 => ⟨S1x256x256, .f32⟩
  | 25 => ⟨S256x256, .f32⟩
  | 26 => ⟨S1x256x256, .f32⟩
  | 27 => ⟨S256x256, .f32⟩
  | 28 => ⟨S1x256x256, .f32⟩
  | 29 => ⟨S256x256, .f32⟩
  | 30 => ⟨S1x256x256, .f32⟩
  | 31 => ⟨S256x256, .f32⟩
  | 32 => ⟨S1x256, .f32⟩
  | 33 => ⟨S256, .f32⟩
  | 34 => ⟨S1x256, .f32⟩
  | 35 => ⟨S256, .f32⟩
  | 36 => ⟨S1x256, .f32⟩
  | 37 => ⟨S1x256, .f32⟩
  | 38 => ⟨S10000x256, .f32⟩
  | 39 => ⟨S1x256, .f32⟩
  | 40 => ⟨S1x256, .f32⟩
  | 41 => ⟨S1x256x256, .f32⟩
  | 42 => ⟨S256x256, .f32⟩
  | 43 => ⟨S1x256x256, .f32⟩
  | 44 => ⟨S256x256, .f32⟩
  | 45 => ⟨S1x256, .f32⟩
  | 46 => ⟨S256, .f32⟩
  | 47 => ⟨S1x256, .f32⟩
  | 48 => ⟨S3000x256, .f32⟩
  | 49 => ⟨S1x256, .f32⟩
  | 50 => ⟨S1x256, .f32⟩
  | 51 => ⟨S1x256, .f32⟩
  | 52 => ⟨S1x256, .f32⟩
  | 53 => ⟨S20000x256, .f32⟩
  | 54 => ⟨S1x256, .f32⟩
  | 55 => ⟨S1x256, .f32⟩
  | 56 => ⟨S50000x256, .f32⟩
  | 57 => ⟨S1x256, .f32⟩
  | 58 => ⟨S1x256, .f32⟩
  | 59 => ⟨S10000x256, .f32⟩
  | 60 => ⟨S1x256, .f32⟩
  | 61 => ⟨S1x256, .f32⟩
  | 62 => ⟨S3000x256, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev vmemTy0_0 (i : Nat) : BufTy := match i % 128 with
  | 0 => ⟨S1000x128, .f32⟩
  | 1 => ⟨S1000x128, .f32⟩
  | 2 => ⟨S1000x128, .f32⟩
  | 3 => ⟨S1000x128, .f32⟩
  | 4 => ⟨S1000x128, .f32⟩
  | 5 => ⟨S1000x128, .f32⟩
  | 6 => ⟨S128x256, .f32⟩
  | 7 => ⟨S128x256, .f32⟩
  | 8 => ⟨S128x256, .f32⟩
  | 9 => ⟨S128x256, .f32⟩
  | 10 => ⟨S1x256, .f32⟩
  | 11 => ⟨S1x256, .f32⟩
  | 12 => ⟨S1000x256, .f32⟩
  | 13 => ⟨S1000x256, .f32⟩
  | 14 => ⟨S1x256, .f32⟩
  | 15 => ⟨S1x256, .f32⟩
  | 16 => ⟨S1x256, .f32⟩
  | 17 => ⟨S1x256, .f32⟩
  | 18 => ⟨S1000x128, .f32⟩
  | 19 => ⟨S1000x128, .f32⟩
  | 20 => ⟨S1000x128, .f32⟩
  | 21 => ⟨S1000x128, .f32⟩
  | 22 => ⟨S1000x128, .f32⟩
  | 23 => ⟨S1000x128, .f32⟩
  | 24 => ⟨S128x256, .f32⟩
  | 25 => ⟨S128x256, .f32⟩
  | 26 => ⟨S128x256, .f32⟩
  | 27 => ⟨S128x256, .f32⟩
  | 28 => ⟨S1x256, .f32⟩
  | 29 => ⟨S1x256, .f32⟩
  | 30 => ⟨S1000x256, .f32⟩
  | 31 => ⟨S1000x256, .f32⟩
  | 32 => ⟨S1x256, .f32⟩
  | 33 => ⟨S1x256, .f32⟩
  | 34 => ⟨S1x256, .f32⟩
  | 35 => ⟨S1x256, .f32⟩
  | 36 => ⟨S1000x128, .f32⟩
  | 37 => ⟨S1000x128, .f32⟩
  | 38 => ⟨S1000x128, .f32⟩
  | 39 => ⟨S1000x128, .f32⟩
  | 40 => ⟨S1000x128, .f32⟩
  | 41 => ⟨S1000x128, .f32⟩
  | 42 => ⟨S128x256, .f32⟩
  | 43 => ⟨S128x256, .f32⟩
  | 44 => ⟨S128x256, .f32⟩
  | 45 => ⟨S128x256, .f32⟩
  | 46 => ⟨S1x256, .f32⟩
  | 47 => ⟨S1x256, .f32⟩
  | 48 => ⟨S1000x256, .f32⟩
  | 49 => ⟨S1000x256, .f32⟩
  | 50 => ⟨S1x256, .f32⟩
  | 51 => ⟨S1x256, .f32⟩
  | 52 => ⟨S1x256, .f32⟩
  | 53 => ⟨S1x256, .f32⟩
  | 54 => ⟨S1000x128, .f32⟩
  | 55 => ⟨S1000x128, .f32⟩
  | 56 => ⟨S1000x128, .f32⟩
  | 57 => ⟨S1000x128, .f32⟩
  | 58 => ⟨S128x256, .f32⟩
  | 59 => ⟨S128x256, .f32⟩
  | 60 => ⟨S1x256, .f32⟩
  | 61 => ⟨S1000x256, .f32⟩
  | 62 => ⟨S1000x256, .f32⟩
  | 63 => ⟨S1x256, .f32⟩
  | 64 => ⟨S1x256, .f32⟩
  | 65 => ⟨S1x256, .f32⟩
  | 66 => ⟨S1x256, .f32⟩
  | 67 => ⟨S1000x256, .f32⟩
  | 68 => ⟨S1000x256, .f32⟩
  | 69 => ⟨S1x256, .f32⟩
  | 70 => ⟨S1x256, .f32⟩
  | 71 => ⟨S1x256, .f32⟩
  | 72 => ⟨S1x256, .f32⟩
  | 73 => ⟨S1000x256, .f32⟩
  | 74 => ⟨S1000x256, .f32⟩
  | 75 => ⟨S1000x256, .f32⟩
  | 76 => ⟨S1000x256, .f32⟩
  | 77 => ⟨S1x256, .f32⟩
  | 78 => ⟨S1x256, .f32⟩
  | 79 => ⟨S1x256, .f32⟩
  | 80 => ⟨S1x256, .f32⟩
  | 81 => ⟨S1000x256, .f32⟩
  | 82 => ⟨S1000x256, .f32⟩
  | 83 => ⟨S1000x256, .f32⟩
  | 84 => ⟨S1000x256, .f32⟩
  | 85 => ⟨S1x256, .f32⟩
  | 86 => ⟨S1x256, .f32⟩
  | 87 => ⟨S1x256, .f32⟩
  | 88 => ⟨S1x256, .f32⟩
  | 89 => ⟨S1000x256, .f32⟩
  | 90 => ⟨S1000x256, .f32⟩
  | 91 => ⟨S1000x256, .f32⟩
  | 92 => ⟨S1000x256, .f32⟩
  | 93 => ⟨S1x256, .f32⟩
  | 94 => ⟨S1x256, .f32⟩
  | 95 => ⟨S1x256, .f32⟩
  | 96 => ⟨S1x256, .f32⟩
  | 97 => ⟨S1000x256, .f32⟩
  | 98 => ⟨S1000x256, .f32⟩
  | 99 => ⟨S1000x256, .f32⟩
  | 100 => ⟨S1000x256, .f32⟩
  | 101 => ⟨S1000x256, .f32⟩
  | 102 => ⟨S1000x256, .f32⟩
  | 103 => ⟨S1000x256, .f32⟩
  | 104 => ⟨S1000x256, .f32⟩
  | 105 => ⟨S256x256, .f32⟩
  | 106 => ⟨S256x256, .f32⟩
  | 107 => ⟨S256x256, .f32⟩
  | 108 => ⟨S256x256, .f32⟩
  | 109 => ⟨S1x256, .f32⟩
  | 110 => ⟨S1x256, .f32⟩
  | 111 => ⟨S1000x256, .f32⟩
  | 112 => ⟨S1000x256, .f32⟩
  | 113 => ⟨S1x256, .f32⟩
  | 114 => ⟨S1x256, .f32⟩
  | 115 => ⟨S1x256, .f32⟩
  | 116 => ⟨S1x256, .f32⟩
  | 117 => ⟨S1000x256, .f32⟩
  | 118 => ⟨S1000x256, .f32⟩
  | 119 => ⟨S1000x256, .f32⟩
  | 120 => ⟨S1000x256, .f32⟩
  | 121 => ⟨S1000x256, .f32⟩
  | 122 => ⟨S1000x256, .f32⟩
  | 123 => ⟨S256x256, .f32⟩
  | 124 => ⟨S256x256, .f32⟩
  | 125 => ⟨S256x256, .f32⟩
  | 126 => ⟨S256x256, .f32⟩
  | 127 => ⟨S1x256, .f32⟩
  | _ => ⟨S20000x128, .f32⟩

abbrev vmemTy0_1 (i : Nat) : BufTy := match i % 128 with
  | 0 => ⟨S1x256, .f32⟩
  | 1 => ⟨S1000x256, .f32⟩
  | 2 => ⟨S1000x256, .f32⟩
  | 3 => ⟨S1x256, .f32⟩
  | 4 => ⟨S1x256, .f32⟩
  | 5 => ⟨S1x256, .f32⟩
  | 6 => ⟨S1x256, .f32⟩
  | 7 => ⟨S1000x256, .f32⟩
  | 8 => ⟨S1000x256, .f32⟩
  | 9 => ⟨S1000x256, .f32⟩
  | 10 => ⟨S1000x256, .f32⟩
  | 11 => ⟨S1000x256, .f32⟩
  | 12 => ⟨S1000x256, .f32⟩
  | 13 => ⟨S256x256, .f32⟩
  | 14 => ⟨S256x256, .f32⟩
  | 15 => ⟨S256x256, .f32⟩
  | 16 => ⟨S256x256, .f32⟩
  | 17 => ⟨S1x256, .f32⟩
  | 18 => ⟨S1x256, .f32⟩
  | 19 => ⟨S1000x256, .f32⟩
  | 20 => ⟨S1000x256, .f32⟩
  | 21 => ⟨S1x256, .f32⟩
  | 22 => ⟨S1x256, .f32⟩
  | 23 => ⟨S1x256, .f32⟩
  | 24 => ⟨S1x256, .f32⟩
  | 25 => ⟨S1000x256, .f32⟩
  | 26 => ⟨S1000x256, .f32⟩
  | 27 => ⟨S1000x256, .f32⟩
  | 28 => ⟨S1000x256, .f32⟩
  | 29 => ⟨S256x256, .f32⟩
  | 30 => ⟨S256x256, .f32⟩
  | 31 => ⟨S1x256, .f32⟩
  | 32 => ⟨S1000x256, .f32⟩
  | 33 => ⟨S1000x256, .f32⟩
  | 34 => ⟨S1x256, .f32⟩
  | 35 => ⟨S1x256, .f32⟩
  | 36 => ⟨S1x256, .f32⟩
  | 37 => ⟨S1x256, .f32⟩
  | 38 => ⟨S1000x256, .f32⟩
  | 39 => ⟨S1000x256, .f32⟩
  | 40 => ⟨S1x256, .f32⟩
  | 41 => ⟨S1x256, .f32⟩
  | 42 => ⟨S1x256, .f32⟩
  | 43 => ⟨S1x256, .f32⟩
  | 44 => ⟨S1000x256, .f32⟩
  | 45 => ⟨S1000x256, .f32⟩
  | 46 => ⟨S1000x256, .f32⟩
  | 47 => ⟨S1000x256, .f32⟩
  | 48 => ⟨S1x256, .f32⟩
  | 49 => ⟨S1x256, .f32⟩
  | 50 => ⟨S1x256, .f32⟩
  | 51 => ⟨S1x256, .f32⟩
  | 52 => ⟨S1000x256, .f32⟩
  | 53 => ⟨S1000x256, .f32⟩
  | 54 => ⟨S1000x256, .f32⟩
  | 55 => ⟨S1000x256, .f32⟩
  | 56 => ⟨S1x256, .f32⟩
  | 57 => ⟨S1x256, .f32⟩
  | 58 => ⟨S1x256, .f32⟩
  | 59 => ⟨S1x256, .f32⟩
  | 60 => ⟨S1000x256, .f32⟩
  | 61 => ⟨S1000x256, .f32⟩
  | 62 => ⟨S1000x256, .f32⟩
  | 63 => ⟨S1000x256, .f32⟩
  | 64 => ⟨S1x256, .f32⟩
  | 65 => ⟨S1x256, .f32⟩
  | 66 => ⟨S1x256, .f32⟩
  | 67 => ⟨S1x256, .f32⟩
  | 68 => ⟨S1000x256, .f32⟩
  | 69 => ⟨S1000x256, .f32⟩
  | _ => ⟨S20000x128, .f32⟩

abbrev vmemTy (i : Nat) : BufTy := match i / 128 with
  | 0 => vmemTy0_0 i
  | 1 => vmemTy0_1 i
  | _ => ⟨S20000x128, .f32⟩

abbrev bufTy : (tb : Table) → Fin (tcTables nBuf tb) → BufTy
  | .hbm, ⟨i, _⟩ => hbmTy i
  | .local _ .vmem, ⟨i, _⟩ => vmemTy i
  | _, _ => ⟨S20000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 182 → Bool
  | ⟨i, _⟩ => dmaSemScopedAt i

abbrev sig : RefSig :=
  ofTc nBuf bufTy 0 182 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_cst_3 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_4 : Ref sig .tc := ⟨.hbm, 43, rfl⟩
abbrev main_v10 : Ref sig .tc := ⟨.hbm, 44, rfl⟩
abbrev main_v11 : Ref sig .tc := ⟨.hbm, 45, rfl⟩
abbrev main_cst_5 : Ref sig .tc := ⟨.hbm, 46, rfl⟩
abbrev main_v12 : Ref sig .tc := ⟨.hbm, 47, rfl⟩
abbrev main_cst_6 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_7 : Ref sig .tc := ⟨.hbm, 52, rfl⟩
abbrev main_v16 : Ref sig .tc := ⟨.hbm, 53, rfl⟩
abbrev main_v17 : Ref sig .tc := ⟨.hbm, 54, rfl⟩
abbrev main_cst_8 : Ref sig .tc := ⟨.hbm, 55, rfl⟩
abbrev main_v18 : Ref sig .tc := ⟨.hbm, 56, rfl⟩
abbrev main_cst_9 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_10 : Ref sig .tc := ⟨.hbm, 61, rfl⟩
abbrev main_v22 : Ref sig .tc := ⟨.hbm, 62, rfl⟩
abbrev main_v23 : Ref sig .tc := ⟨.hbm, 63, rfl⟩
abbrev main_cst_11 : Ref sig .tc := ⟨.hbm, 64, rfl⟩
abbrev main_v24 : Ref sig .tc := ⟨.hbm, 65, rfl⟩
abbrev main_cst_12 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_13 : Ref sig .tc := ⟨.hbm, 70, rfl⟩
abbrev main_v28 : Ref sig .tc := ⟨.hbm, 71, rfl⟩
abbrev main_v29 : Ref sig .tc := ⟨.hbm, 72, rfl⟩
abbrev main_cst_14 : Ref sig .tc := ⟨.hbm, 73, rfl⟩
abbrev main_v30 : Ref sig .tc := ⟨.hbm, 74, rfl⟩
abbrev main_cst_15 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_16 : Ref sig .tc := ⟨.hbm, 79, rfl⟩
abbrev main_v34 : Ref sig .tc := ⟨.hbm, 80, rfl⟩
abbrev main_v35 : Ref sig .tc := ⟨.hbm, 81, rfl⟩
abbrev main_cst_17 : Ref sig .tc := ⟨.hbm, 82, rfl⟩
abbrev main_v36 : Ref sig .tc := ⟨.hbm, 83, rfl⟩
abbrev main_cst_18 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_19 : Ref sig .tc := ⟨.hbm, 88, rfl⟩
abbrev main_v40 : Ref sig .tc := ⟨.hbm, 89, rfl⟩
abbrev main_v41 : Ref sig .tc := ⟨.hbm, 90, rfl⟩
abbrev main_c : Ref sig .tc := ⟨.hbm, 91, rfl⟩
abbrev main_v42 : Ref sig .tc := ⟨.hbm, 92, rfl⟩
abbrev main_v43 : Ref sig .tc := ⟨.hbm, 93, rfl⟩
abbrev main_c_20 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_21 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_c_22 : Ref sig .tc := ⟨.hbm, 106, rfl⟩
abbrev main_v54 : Ref sig .tc := ⟨.hbm, 107, rfl⟩
abbrev main_v55 : Ref sig .tc := ⟨.hbm, 108, rfl⟩
abbrev main_c_23 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_24 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_25 : Ref sig .tc := ⟨.hbm, 121, rfl⟩
abbrev main_v66 : Ref sig .tc := ⟨.hbm, 122, rfl⟩
abbrev main_v67 : Ref sig .tc := ⟨.hbm, 123, rfl⟩
abbrev main_c_26 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_27 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_28 : Ref sig .tc := ⟨.hbm, 136, rfl⟩
abbrev main_v78 : Ref sig .tc := ⟨.hbm, 137, rfl⟩
abbrev main_v79 : Ref sig .tc := ⟨.hbm, 138, rfl⟩
abbrev main_c_29 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_30 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_c_31 : Ref sig .tc := ⟨.hbm, 151, rfl⟩
abbrev main_v90 : Ref sig .tc := ⟨.hbm, 152, rfl⟩
abbrev main_v91 : Ref sig .tc := ⟨.hbm, 153, rfl⟩
abbrev main_c_32 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_cst_33 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_34 : Ref sig .tc := ⟨.hbm, 166, rfl⟩
abbrev main_v102 : Ref sig .tc := ⟨.hbm, 167, rfl⟩
abbrev main_v103 : Ref sig .tc := ⟨.hbm, 168, rfl⟩
abbrev main_c_35 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_36 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_c_37 : Ref sig .tc := ⟨.hbm, 181, rfl⟩
abbrev main_v114 : Ref sig .tc := ⟨.hbm, 182, rfl⟩
abbrev main_v115 : Ref sig .tc := ⟨.hbm, 183, rfl⟩
abbrev main_c_38 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_39 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140_0 : Ref sig .tc := ⟨.hbm, 210, rfl⟩
abbrev main_v140_1 : Ref sig .tc := ⟨.hbm, 211, rfl⟩
abbrev main_v140_2 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155_0 : Ref sig .tc := ⟨.hbm, 227, rfl⟩
abbrev main_v155_1 : Ref sig .tc := ⟨.hbm, 228, rfl⟩
abbrev main_v155_2 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170_0 : Ref sig .tc := ⟨.hbm, 244, rfl⟩
abbrev main_v170_1 : Ref sig .tc := ⟨.hbm, 245, rfl⟩
abbrev main_v170_2 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178_0 : Ref sig .tc := ⟨.hbm, 254, rfl⟩
abbrev main_v178_1 : Ref sig .tc := ⟨.hbm, 255, rfl⟩
abbrev main_v178_2 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_40 : Ref sig .tc := ⟨.hbm, 269, rfl⟩
abbrev main_v191 : Ref sig .tc := ⟨.hbm, 270, rfl⟩
abbrev main_v192 : Ref sig .tc := ⟨.hbm, 271, rfl⟩
abbrev main_c_41 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_cst_42 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_c_43 : Ref sig .tc := ⟨.hbm, 284, rfl⟩
abbrev main_v203 : Ref sig .tc := ⟨.hbm, 285, rfl⟩
abbrev main_v204 : Ref sig .tc := ⟨.hbm, 286, rfl⟩
abbrev main_c_44 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_cst_45 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_c_46 : Ref sig .tc := ⟨.hbm, 299, rfl⟩
abbrev main_v215 : Ref sig .tc := ⟨.hbm, 300, rfl⟩
abbrev main_v216 : Ref sig .tc := ⟨.hbm, 301, rfl⟩
abbrev main_c_47 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_cst_48 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_c_49 : Ref sig .tc := ⟨.hbm, 314, rfl⟩
abbrev main_v227 : Ref sig .tc := ⟨.hbm, 315, rfl⟩
abbrev main_v228 : Ref sig .tc := ⟨.hbm, 316, rfl⟩
abbrev main_c_50 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_cst_51 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_c_52 : Ref sig .tc := ⟨.hbm, 329, rfl⟩
abbrev main_v239 : Ref sig .tc := ⟨.hbm, 330, rfl⟩
abbrev main_v240 : Ref sig .tc := ⟨.hbm, 331, rfl⟩
abbrev main_c_53 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_cst_54 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_c_55 : Ref sig .tc := ⟨.hbm, 344, rfl⟩
abbrev main_v251 : Ref sig .tc := ⟨.hbm, 345, rfl⟩
abbrev main_v252 : Ref sig .tc := ⟨.hbm, 346, rfl⟩
abbrev main_c_56 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_cst_57 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_c_58 : Ref sig .tc := ⟨.hbm, 359, rfl⟩
abbrev main_v263 : Ref sig .tc := ⟨.hbm, 360, rfl⟩
abbrev main_v264 : Ref sig .tc := ⟨.hbm, 361, rfl⟩
abbrev main_c_59 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_cst_60 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_v287 : Ref sig .tc := ⟨.hbm, 386, rfl⟩
abbrev main_v288 : Ref sig .tc := ⟨.hbm, 387, rfl⟩
abbrev main_v289_0 : Ref sig .tc := ⟨.hbm, 388, rfl⟩
abbrev main_v289_1 : Ref sig .tc := ⟨.hbm, 389, rfl⟩
abbrev main_v289_2 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_v304_0 : Ref sig .tc := ⟨.hbm, 405, rfl⟩
abbrev main_v304_1 : Ref sig .tc := ⟨.hbm, 406, rfl⟩
abbrev main_v304_2 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_v310 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318 : Ref sig .tc := ⟨.hbm, 421, rfl⟩
abbrev main_v319_0 : Ref sig .tc := ⟨.hbm, 422, rfl⟩
abbrev main_v319_1 : Ref sig .tc := ⟨.hbm, 423, rfl⟩
abbrev main_v319_2 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_v327_0 : Ref sig .tc := ⟨.hbm, 432, rfl⟩
abbrev main_v327_1 : Ref sig .tc := ⟨.hbm, 433, rfl⟩
abbrev main_v327_2 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg11_0 : Ref sig .tc := ⟨.vmem, 33, rfl⟩
abbrev cc1_scratch0 : Ref sig .tc := ⟨.vmem, 34, rfl⟩
abbrev cc1_scratch1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg9_1 : Ref sig .tc := ⟨.vmem, 49, rfl⟩
abbrev cc2_stg10_0 : Ref sig .tc := ⟨.vmem, 50, rfl⟩
abbrev cc2_stg11_0 : Ref sig .tc := ⟨.vmem, 51, rfl⟩
abbrev cc2_scratch0 : Ref sig .tc := ⟨.vmem, 52, rfl⟩
abbrev cc2_scratch1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg3_0 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg5_1 : Ref sig .tc := ⟨.vmem, 62, rfl⟩
abbrev cc3_stg6_0 : Ref sig .tc := ⟨.vmem, 63, rfl⟩
abbrev cc3_stg7_0 : Ref sig .tc := ⟨.vmem, 64, rfl⟩
abbrev cc3_scratch0 : Ref sig .tc := ⟨.vmem, 65, rfl⟩
abbrev cc3_scratch1 : Ref sig .tc := ⟨.vmem, 66, rfl⟩
abbrev cc4_stg0_0 : Ref sig .tc := ⟨.vmem, 67, rfl⟩
abbrev cc4_stg0_1 : Ref sig .tc := ⟨.vmem, 68, rfl⟩
abbrev cc4_stg1_0 : Ref sig .tc := ⟨.vmem, 69, rfl⟩
abbrev cc4_stg2_0 : Ref sig .tc := ⟨.vmem, 70, rfl⟩
abbrev cc4_stg3_0 : Ref sig .tc := ⟨.vmem, 71, rfl⟩
abbrev cc4_stg4_0 : Ref sig .tc := ⟨.vmem, 72, rfl⟩
abbrev cc4_stg5_0 : Ref sig .tc := ⟨.vmem, 73, rfl⟩
abbrev cc4_stg5_1 : Ref sig .tc := ⟨.vmem, 74, rfl⟩
abbrev cc5_stg0_0 : Ref sig .tc := ⟨.vmem, 75, rfl⟩
abbrev cc5_stg0_1 : Ref sig .tc := ⟨.vmem, 76, rfl⟩
abbrev cc5_stg1_0 : Ref sig .tc := ⟨.vmem, 77, rfl⟩
abbrev cc5_stg2_0 : Ref sig .tc := ⟨.vmem, 78, rfl⟩
abbrev cc5_stg3_0 : Ref sig .tc := ⟨.vmem, 79, rfl⟩
abbrev cc5_stg4_0 : Ref sig .tc := ⟨.vmem, 80, rfl⟩
abbrev cc5_stg5_0 : Ref sig .tc := ⟨.vmem, 81, rfl⟩
abbrev cc5_stg5_1 : Ref sig .tc := ⟨.vmem, 82, rfl⟩
abbrev cc6_stg0_0 : Ref sig .tc := ⟨.vmem, 83, rfl⟩
abbrev cc6_stg0_1 : Ref sig .tc := ⟨.vmem, 84, rfl⟩
abbrev cc6_stg1_0 : Ref sig .tc := ⟨.vmem, 85, rfl⟩
abbrev cc6_stg2_0 : Ref sig .tc := ⟨.vmem, 86, rfl⟩
abbrev cc6_stg3_0 : Ref sig .tc := ⟨.vmem, 87, rfl⟩
abbrev cc6_stg4_0 : Ref sig .tc := ⟨.vmem, 88, rfl⟩
abbrev cc6_stg5_0 : Ref sig .tc := ⟨.vmem, 89, rfl⟩
abbrev cc6_stg5_1 : Ref sig .tc := ⟨.vmem, 90, rfl⟩
abbrev cc7_stg0_0 : Ref sig .tc := ⟨.vmem, 91, rfl⟩
abbrev cc7_stg0_1 : Ref sig .tc := ⟨.vmem, 92, rfl⟩
abbrev cc7_stg1_0 : Ref sig .tc := ⟨.vmem, 93, rfl⟩
abbrev cc7_stg2_0 : Ref sig .tc := ⟨.vmem, 94, rfl⟩
abbrev cc7_stg3_0 : Ref sig .tc := ⟨.vmem, 95, rfl⟩
abbrev cc7_stg4_0 : Ref sig .tc := ⟨.vmem, 96, rfl⟩
abbrev cc7_stg5_0 : Ref sig .tc := ⟨.vmem, 97, rfl⟩
abbrev cc7_stg5_1 : Ref sig .tc := ⟨.vmem, 98, rfl⟩
abbrev cc8_stg0_0 : Ref sig .tc := ⟨.vmem, 99, rfl⟩
abbrev cc8_stg0_1 : Ref sig .tc := ⟨.vmem, 100, rfl⟩
abbrev cc8_stg1_0 : Ref sig .tc := ⟨.vmem, 101, rfl⟩
abbrev cc8_stg1_1 : Ref sig .tc := ⟨.vmem, 102, rfl⟩
abbrev cc8_stg2_0 : Ref sig .tc := ⟨.vmem, 103, rfl⟩
abbrev cc8_stg2_1 : Ref sig .tc := ⟨.vmem, 104, rfl⟩
abbrev cc8_stg3_0 : Ref sig .tc := ⟨.vmem, 105, rfl⟩
abbrev cc8_stg4_0 : Ref sig .tc := ⟨.vmem, 106, rfl⟩
abbrev cc8_stg5_0 : Ref sig .tc := ⟨.vmem, 107, rfl⟩
abbrev cc8_stg6_0 : Ref sig .tc := ⟨.vmem, 108, rfl⟩
abbrev cc8_stg7_0 : Ref sig .tc := ⟨.vmem, 109, rfl⟩
abbrev cc8_stg8_0 : Ref sig .tc := ⟨.vmem, 110, rfl⟩
abbrev cc8_stg9_0 : Ref sig .tc := ⟨.vmem, 111, rfl⟩
abbrev cc8_stg9_1 : Ref sig .tc := ⟨.vmem, 112, rfl⟩
abbrev cc8_stg10_0 : Ref sig .tc := ⟨.vmem, 113, rfl⟩
abbrev cc8_stg11_0 : Ref sig .tc := ⟨.vmem, 114, rfl⟩
abbrev cc8_scratch0 : Ref sig .tc := ⟨.vmem, 115, rfl⟩
abbrev cc8_scratch1 : Ref sig .tc := ⟨.vmem, 116, rfl⟩
abbrev cc9_stg0_0 : Ref sig .tc := ⟨.vmem, 117, rfl⟩
abbrev cc9_stg0_1 : Ref sig .tc := ⟨.vmem, 118, rfl⟩
abbrev cc9_stg1_0 : Ref sig .tc := ⟨.vmem, 119, rfl⟩
abbrev cc9_stg1_1 : Ref sig .tc := ⟨.vmem, 120, rfl⟩
abbrev cc9_stg2_0 : Ref sig .tc := ⟨.vmem, 121, rfl⟩
abbrev cc9_stg2_1 : Ref sig .tc := ⟨.vmem, 122, rfl⟩
abbrev cc9_stg3_0 : Ref sig .tc := ⟨.vmem, 123, rfl⟩
abbrev cc9_stg4_0 : Ref sig .tc := ⟨.vmem, 124, rfl⟩
abbrev cc9_stg5_0 : Ref sig .tc := ⟨.vmem, 125, rfl⟩
abbrev cc9_stg6_0 : Ref sig .tc := ⟨.vmem, 126, rfl⟩
abbrev cc9_stg7_0 : Ref sig .tc := ⟨.vmem, 127, rfl⟩
abbrev cc9_stg8_0 : Ref sig .tc := ⟨.vmem, 128, rfl⟩
abbrev cc9_stg9_0 : Ref sig .tc := ⟨.vmem, 129, rfl⟩
abbrev cc9_stg9_1 : Ref sig .tc := ⟨.vmem, 130, rfl⟩
abbrev cc9_stg10_0 : Ref sig .tc := ⟨.vmem, 131, rfl⟩
abbrev cc9_stg11_0 : Ref sig .tc := ⟨.vmem, 132, rfl⟩
abbrev cc9_scratch0 : Ref sig .tc := ⟨.vmem, 133, rfl⟩
abbrev cc9_scratch1 : Ref sig .tc := ⟨.vmem, 134, rfl⟩
abbrev cc10_stg0_0 : Ref sig .tc := ⟨.vmem, 135, rfl⟩
abbrev cc10_stg0_1 : Ref sig .tc := ⟨.vmem, 136, rfl⟩
abbrev cc10_stg1_0 : Ref sig .tc := ⟨.vmem, 137, rfl⟩
abbrev cc10_stg1_1 : Ref sig .tc := ⟨.vmem, 138, rfl⟩
abbrev cc10_stg2_0 : Ref sig .tc := ⟨.vmem, 139, rfl⟩
abbrev cc10_stg2_1 : Ref sig .tc := ⟨.vmem, 140, rfl⟩
abbrev cc10_stg3_0 : Ref sig .tc := ⟨.vmem, 141, rfl⟩
abbrev cc10_stg4_0 : Ref sig .tc := ⟨.vmem, 142, rfl⟩
abbrev cc10_stg5_0 : Ref sig .tc := ⟨.vmem, 143, rfl⟩
abbrev cc10_stg6_0 : Ref sig .tc := ⟨.vmem, 144, rfl⟩
abbrev cc10_stg7_0 : Ref sig .tc := ⟨.vmem, 145, rfl⟩
abbrev cc10_stg8_0 : Ref sig .tc := ⟨.vmem, 146, rfl⟩
abbrev cc10_stg9_0 : Ref sig .tc := ⟨.vmem, 147, rfl⟩
abbrev cc10_stg9_1 : Ref sig .tc := ⟨.vmem, 148, rfl⟩
abbrev cc10_stg10_0 : Ref sig .tc := ⟨.vmem, 149, rfl⟩
abbrev cc10_stg11_0 : Ref sig .tc := ⟨.vmem, 150, rfl⟩
abbrev cc10_scratch0 : Ref sig .tc := ⟨.vmem, 151, rfl⟩
abbrev cc10_scratch1 : Ref sig .tc := ⟨.vmem, 152, rfl⟩
abbrev cc11_stg0_0 : Ref sig .tc := ⟨.vmem, 153, rfl⟩
abbrev cc11_stg0_1 : Ref sig .tc := ⟨.vmem, 154, rfl⟩
abbrev cc11_stg1_0 : Ref sig .tc := ⟨.vmem, 155, rfl⟩
abbrev cc11_stg1_1 : Ref sig .tc := ⟨.vmem, 156, rfl⟩
abbrev cc11_stg2_0 : Ref sig .tc := ⟨.vmem, 157, rfl⟩
abbrev cc11_stg3_0 : Ref sig .tc := ⟨.vmem, 158, rfl⟩
abbrev cc11_stg4_0 : Ref sig .tc := ⟨.vmem, 159, rfl⟩
abbrev cc11_stg5_0 : Ref sig .tc := ⟨.vmem, 160, rfl⟩
abbrev cc11_stg5_1 : Ref sig .tc := ⟨.vmem, 161, rfl⟩
abbrev cc11_stg6_0 : Ref sig .tc := ⟨.vmem, 162, rfl⟩
abbrev cc11_stg7_0 : Ref sig .tc := ⟨.vmem, 163, rfl⟩
abbrev cc11_scratch0 : Ref sig .tc := ⟨.vmem, 164, rfl⟩
abbrev cc11_scratch1 : Ref sig .tc := ⟨.vmem, 165, rfl⟩
abbrev cc12_stg0_0 : Ref sig .tc := ⟨.vmem, 166, rfl⟩
abbrev cc12_stg0_1 : Ref sig .tc := ⟨.vmem, 167, rfl⟩
abbrev cc12_stg1_0 : Ref sig .tc := ⟨.vmem, 168, rfl⟩
abbrev cc12_stg2_0 : Ref sig .tc := ⟨.vmem, 169, rfl⟩
abbrev cc12_stg3_0 : Ref sig .tc := ⟨.vmem, 170, rfl⟩
abbrev cc12_stg4_0 : Ref sig .tc := ⟨.vmem, 171, rfl⟩
abbrev cc12_stg5_0 : Ref sig .tc := ⟨.vmem, 172, rfl⟩
abbrev cc12_stg5_1 : Ref sig .tc := ⟨.vmem, 173, rfl⟩
abbrev cc13_stg0_0 : Ref sig .tc := ⟨.vmem, 174, rfl⟩
abbrev cc13_stg0_1 : Ref sig .tc := ⟨.vmem, 175, rfl⟩
abbrev cc13_stg1_0 : Ref sig .tc := ⟨.vmem, 176, rfl⟩
abbrev cc13_stg2_0 : Ref sig .tc := ⟨.vmem, 177, rfl⟩
abbrev cc13_stg3_0 : Ref sig .tc := ⟨.vmem, 178, rfl⟩
abbrev cc13_stg4_0 : Ref sig .tc := ⟨.vmem, 179, rfl⟩
abbrev cc13_stg5_0 : Ref sig .tc := ⟨.vmem, 180, rfl⟩
abbrev cc13_stg5_1 : Ref sig .tc := ⟨.vmem, 181, rfl⟩
abbrev cc14_stg0_0 : Ref sig .tc := ⟨.vmem, 182, rfl⟩
abbrev cc14_stg0_1 : Ref sig .tc := ⟨.vmem, 183, rfl⟩
abbrev cc14_stg1_0 : Ref sig .tc := ⟨.vmem, 184, rfl⟩
abbrev cc14_stg2_0 : Ref sig .tc := ⟨.vmem, 185, rfl⟩
abbrev cc14_stg3_0 : Ref sig .tc := ⟨.vmem, 186, rfl⟩
abbrev cc14_stg4_0 : Ref sig .tc := ⟨.vmem, 187, rfl⟩
abbrev cc14_stg5_0 : Ref sig .tc := ⟨.vmem, 188, rfl⟩
abbrev cc14_stg5_1 : Ref sig .tc := ⟨.vmem, 189, rfl⟩
abbrev cc15_stg0_0 : Ref sig .tc := ⟨.vmem, 190, rfl⟩
abbrev cc15_stg0_1 : Ref sig .tc := ⟨.vmem, 191, rfl⟩
abbrev cc15_stg1_0 : Ref sig .tc := ⟨.vmem, 192, rfl⟩
abbrev cc15_stg2_0 : Ref sig .tc := ⟨.vmem, 193, rfl⟩
abbrev cc15_stg3_0 : Ref sig .tc := ⟨.vmem, 194, rfl⟩
abbrev cc15_stg4_0 : Ref sig .tc := ⟨.vmem, 195, rfl⟩
abbrev cc15_stg5_0 : Ref sig .tc := ⟨.vmem, 196, rfl⟩
abbrev cc15_stg5_1 : Ref sig .tc := ⟨.vmem, 197, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem11_0 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem9_1 : DmaSem sig := 45
abbrev cc2_sem10_0 : DmaSem sig := 46
abbrev cc2_sem11_0 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem3_0 : DmaSem sig := 53
abbrev cc3_sem4_0 : DmaSem sig := 54
abbrev cc3_sem5_0 : DmaSem sig := 55
abbrev cc3_sem5_1 : DmaSem sig := 56
abbrev cc3_sem6_0 : DmaSem sig := 57
abbrev cc3_sem7_0 : DmaSem sig := 58
abbrev cc4_sem0_0 : DmaSem sig := 59
abbrev cc4_sem0_1 : DmaSem sig := 60
abbrev cc4_sem1_0 : DmaSem sig := 61
abbrev cc4_sem2_0 : DmaSem sig := 62
abbrev cc4_sem3_0 : DmaSem sig := 63
abbrev cc4_sem4_0 : DmaSem sig := 64
abbrev cc4_sem5_0 : DmaSem sig := 65
abbrev cc4_sem5_1 : DmaSem sig := 66
abbrev cc5_sem0_0 : DmaSem sig := 67
abbrev cc5_sem0_1 : DmaSem sig := 68
abbrev cc5_sem1_0 : DmaSem sig := 69
abbrev cc5_sem2_0 : DmaSem sig := 70
abbrev cc5_sem3_0 : DmaSem sig := 71
abbrev cc5_sem4_0 : DmaSem sig := 72
abbrev cc5_sem5_0 : DmaSem sig := 73
abbrev cc5_sem5_1 : DmaSem sig := 74
abbrev cc6_sem0_0 : DmaSem sig := 75
abbrev cc6_sem0_1 : DmaSem sig := 76
abbrev cc6_sem1_0 : DmaSem sig := 77
abbrev cc6_sem2_0 : DmaSem sig := 78
abbrev cc6_sem3_0 : DmaSem sig := 79
abbrev cc6_sem4_0 : DmaSem sig := 80
abbrev cc6_sem5_0 : DmaSem sig := 81
abbrev cc6_sem5_1 : DmaSem sig := 82
abbrev cc7_sem0_0 : DmaSem sig := 83
abbrev cc7_sem0_1 : DmaSem sig := 84
abbrev cc7_sem1_0 : DmaSem sig := 85
abbrev cc7_sem2_0 : DmaSem sig := 86
abbrev cc7_sem3_0 : DmaSem sig := 87
abbrev cc7_sem4_0 : DmaSem sig := 88
abbrev cc7_sem5_0 : DmaSem sig := 89
abbrev cc7_sem5_1 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem4_0 : DmaSem sig := 98
abbrev cc8_sem5_0 : DmaSem sig := 99
abbrev cc8_sem6_0 : DmaSem sig := 100
abbrev cc8_sem7_0 : DmaSem sig := 101
abbrev cc8_sem8_0 : DmaSem sig := 102
abbrev cc8_sem9_0 : DmaSem sig := 103
abbrev cc8_sem9_1 : DmaSem sig := 104
abbrev cc8_sem10_0 : DmaSem sig := 105
abbrev cc8_sem11_0 : DmaSem sig := 106
abbrev cc9_sem0_0 : DmaSem sig := 107
abbrev cc9_sem0_1 : DmaSem sig := 108
abbrev cc9_sem1_0 : DmaSem sig := 109
abbrev cc9_sem1_1 : DmaSem sig := 110
abbrev cc9_sem2_0 : DmaSem sig := 111
abbrev cc9_sem2_1 : DmaSem sig := 112
abbrev cc9_sem3_0 : DmaSem sig := 113
abbrev cc9_sem4_0 : DmaSem sig := 114
abbrev cc9_sem5_0 : DmaSem sig := 115
abbrev cc9_sem6_0 : DmaSem sig := 116
abbrev cc9_sem7_0 : DmaSem sig := 117
abbrev cc9_sem8_0 : DmaSem sig := 118
abbrev cc9_sem9_0 : DmaSem sig := 119
abbrev cc9_sem9_1 : DmaSem sig := 120
abbrev cc9_sem10_0 : DmaSem sig := 121
abbrev cc9_sem11_0 : DmaSem sig := 122
abbrev cc10_sem0_0 : DmaSem sig := 123
abbrev cc10_sem0_1 : DmaSem sig := 124
abbrev cc10_sem1_0 : DmaSem sig := 125
abbrev cc10_sem1_1 : DmaSem sig := 126
abbrev cc10_sem2_0 : DmaSem sig := 127
abbrev cc10_sem2_1 : DmaSem sig := 128
abbrev cc10_sem3_0 : DmaSem sig := 129
abbrev cc10_sem4_0 : DmaSem sig := 130
abbrev cc10_sem5_0 : DmaSem sig := 131
abbrev cc10_sem6_0 : DmaSem sig := 132
abbrev cc10_sem7_0 : DmaSem sig := 133
abbrev cc10_sem8_0 : DmaSem sig := 134
abbrev cc10_sem9_0 : DmaSem sig := 135
abbrev cc10_sem9_1 : DmaSem sig := 136
abbrev cc10_sem10_0 : DmaSem sig := 137
abbrev cc10_sem11_0 : DmaSem sig := 138
abbrev cc11_sem0_0 : DmaSem sig := 139
abbrev cc11_sem0_1 : DmaSem sig := 140
abbrev cc11_sem1_0 : DmaSem sig := 141
abbrev cc11_sem1_1 : DmaSem sig := 142
abbrev cc11_sem2_0 : DmaSem sig := 143
abbrev cc11_sem3_0 : DmaSem sig := 144
abbrev cc11_sem4_0 : DmaSem sig := 145
abbrev cc11_sem5_0 : DmaSem sig := 146
abbrev cc11_sem5_1 : DmaSem sig := 147
abbrev cc11_sem6_0 : DmaSem sig := 148
abbrev cc11_sem7_0 : DmaSem sig := 149
abbrev cc12_sem0_0 : DmaSem sig := 150
abbrev cc12_sem0_1 : DmaSem sig := 151
abbrev cc12_sem1_0 : DmaSem sig := 152
abbrev cc12_sem2_0 : DmaSem sig := 153
abbrev cc12_sem3_0 : DmaSem sig := 154
abbrev cc12_sem4_0 : DmaSem sig := 155
abbrev cc12_sem5_0 : DmaSem sig := 156
abbrev cc12_sem5_1 : DmaSem sig := 157
abbrev cc13_sem0_0 : DmaSem sig := 158
abbrev cc13_sem0_1 : DmaSem sig := 159
abbrev cc13_sem1_0 : DmaSem sig := 160
abbrev cc13_sem2_0 : DmaSem sig := 161
abbrev cc13_sem3_0 : DmaSem sig := 162
abbrev cc13_sem4_0 : DmaSem sig := 163
abbrev cc13_sem5_0 : DmaSem sig := 164
abbrev cc13_sem5_1 : DmaSem sig := 165
abbrev cc14_sem0_0 : DmaSem sig := 166
abbrev cc14_sem0_1 : DmaSem sig := 167
abbrev cc14_sem1_0 : DmaSem sig := 168
abbrev cc14_sem2_0 : DmaSem sig := 169
abbrev cc14_sem3_0 : DmaSem sig := 170
abbrev cc14_sem4_0 : DmaSem sig := 171
abbrev cc14_sem5_0 : DmaSem sig := 172
abbrev cc14_sem5_1 : DmaSem sig := 173
abbrev cc15_sem0_0 : DmaSem sig := 174
abbrev cc15_sem0_1 : DmaSem sig := 175
abbrev cc15_sem1_0 : DmaSem sig := 176
abbrev cc15_sem2_0 : DmaSem sig := 177
abbrev cc15_sem3_0 : DmaSem sig := 178
abbrev cc15_sem4_0 : DmaSem sig := 179
abbrev cc15_sem5_0 : DmaSem sig := 180
abbrev cc15_sem5_1 : DmaSem sig := 181

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_35 : BitVec 32 := 0#32
  let v50 : BitVec 1 := Scalar.cmpi .ne v49 c0_i32_35
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v48 : BitVec 1 := Scalar.cmpi .eq arg0 c49_i32
  let v49 : BitVec 32 := Scalar.extui v48
  let c0_i32_35 : BitVec 32 := 0#32
  let v50 : BitVec 1 := Scalar.cmpi .ne v49 c0_i32_35
  v50

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_35 : BitVec 32 := 0#32
  let v50 : BitVec 1 := Scalar.cmpi .ne v49 c0_i32_35
  v50

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨1, ![3], ![false]⟩

def k3_cond2 (i : grid3.Coords) : BitVec 1 :=
  let arg0 : BitVec 32 := BitVec.ofNat 32 (i 0).val
  let c2_i32 : BitVec 32 := 2#32
  let v33 : BitVec 1 := Scalar.cmpi .eq arg0 c2_i32
  let v34 : BitVec 32 := Scalar.extui v33
  let c0_i32_23 : BitVec 32 := 0#32
  let v35 : BitVec 1 := Scalar.cmpi .ne v34 c0_i32_23
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![3], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def k8_cond2 (i : grid8.Coords) : BitVec 1 :=
  let arg0 : BitVec 32 := BitVec.ofNat 32 (i 0).val
  let c19_i32 : BitVec 32 := 19#32
  let v50 : BitVec 1 := Scalar.cmpi .eq arg0 c19_i32
  let v51 : BitVec 32 := Scalar.extui v50
  let c0_i32_35 : BitVec 32 := 0#32
  let v52 : BitVec 1 := Scalar.cmpi .ne v51 c0_i32_35
  v52

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S256x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S256x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x256 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x256 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S1000x256 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 1 → Memref sig .tc .vmem S1x256 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x256 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev grid9 : Pipeline.Grid := ⟨1, ![50], ![false]⟩

def k9_cond2 (i : grid9.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_35 : BitVec 32 := 0#32
  let v52 : BitVec 1 := Scalar.cmpi .ne v51 c0_i32_35
  v52

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x256 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x256 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S1000x256 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev stage9_10 : Fin 1 → Memref sig .tc .vmem S1x256 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S1x256 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v50 : BitVec 1 := Scalar.cmpi .eq arg0 c9_i32
  let v51 : BitVec 32 := Scalar.extui v50
  let c0_i32_35 : BitVec 32 := 0#32
  let v52 : BitVec 1 := Scalar.cmpi .ne v51 c0_i32_35
  v52

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1000x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1000x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S256x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S256x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S256x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x256 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x256 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S1000x256 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev stage10_10 : Fin 1 → Memref sig .tc .vmem S1x256 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S1x256 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

abbrev grid11 : Pipeline.Grid := ⟨1, ![3], ![false]⟩

def k11_cond2 (i : grid11.Coords) : BitVec 1 :=
  let arg0 : BitVec 32 := BitVec.ofNat 32 (i 0).val
  let c2_i32 : BitVec 32 := 2#32
  let v34 : BitVec 1 := Scalar.cmpi .eq arg0 c2_i32
  let v35 : BitVec 32 := Scalar.extui v34
  let c0_i32_23 : BitVec 32 := 0#32
  let v36 : BitVec 1 := Scalar.cmpi .ne v35 c0_i32_23
  v36

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1000x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S256x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S256x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x256 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x256 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S1000x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S1000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S1000x256 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S1000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![3], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1000x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x256 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S1000x256 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

class Facts₀ : Prop where
  bcast_S_S500000x1 : S_.BroadcastsInDim S500000x1 (![] : Fin 0 → Fin S500000x1.rank)
  bcast_S_S10000x1 : S_.BroadcastsInDim S10000x1 (![] : Fin 0 → Fin S10000x1.rank)
  bcast_S500000_S500000x1_0 : S500000.BroadcastsInDim S500000x1 (![0] : Fin 1 → Fin S500000x1.rank)
  bcast_S_S400000x1 : S_.BroadcastsInDim S400000x1 (![] : Fin 0 → Fin S400000x1.rank)
  bcast_S_S50000x1 : S_.BroadcastsInDim S50000x1 (![] : Fin 0 → Fin S50000x1.rank)
  bcast_S400000_S400000x1_0 : S400000.BroadcastsInDim S400000x1 (![0] : Fin 1 → Fin S400000x1.rank)
  bcast_S_S150000x1 : S_.BroadcastsInDim S150000x1 (![] : Fin 0 → Fin S150000x1.rank)
  bcast_S_S3000x1 : S_.BroadcastsInDim S3000x1 (![] : Fin 0 → Fin S3000x1.rank)
  bcast_S150000_S150000x1_0 : S150000.BroadcastsInDim S150000x1 (![0] : Fin 1 → Fin S150000x1.rank)
  bcast_S_S20000x1 : S_.BroadcastsInDim S20000x1 (![] : Fin 0 → Fin S20000x1.rank)
  bcast_S_S500000 : S_.BroadcastsInDim S500000 (![] : Fin 0 → Fin S500000.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S_S400000 : S_.BroadcastsInDim S400000 (![] : Fin 0 → Fin S400000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S150000 : S_.BroadcastsInDim S150000 (![] : Fin 0 → Fin S150000.rank)
  bcast_S_S3000x128 : S_.BroadcastsInDim S3000x128 (![] : Fin 0 → Fin S3000x128.rank)
  bcast_S3000x1_S3000x128_0_1 : S3000x1.BroadcastsInDim S3000x128 (![0, 1] : Fin 2 → Fin S3000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  slices_S7x128x256_S1x128x256_4_0_0 : S7x128x256.Slices ![4, 0, 0] S1x128x256
  shapeCasts_S1x128x256_S128x256 : S1x128x256.ShapeCasts S128x256
  slices_S7x128x256_S1x128x256_5_0_0 : S7x128x256.Slices ![5, 0, 0] S1x128x256
  slices_S7x256_S1x256_4_0 : S7x256.Slices ![4, 0] S1x256
  shapeCasts_S1x256_S256 : S1x256.ShapeCasts S256
  slices_S7x256_S1x256_5_0 : S7x256.Slices ![5, 0] S1x256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  reduces_S1000x256_S256 : S1000x256.Reduces [0] S256
  slices_S7x128x256_S1x128x256_1_0_0 : S7x128x256.Slices ![1, 0, 0] S1x128x256
  slices_S7x128x256_S1x128x256_6_0_0 : S7x128x256.Slices ![6, 0, 0] S1x128x256
  slices_S7x256_S1x256_1_0 : S7x256.Slices ![1, 0] S1x256
  slices_S7x256_S1x256_6_0 : S7x256.Slices ![6, 0] S1x256
  slices_S7x128x256_S1x128x256_0_0_0 : S7x128x256.Slices ![0, 0, 0] S1x128x256
  slices_S7x128x256_S1x128x256_3_0_0 : S7x128x256.Slices ![3, 0, 0] S1x128x256
  slices_S7x256_S1x256_0_0 : S7x256.Slices ![0, 0] S1x256
  slices_S7x256_S1x256_3_0 : S7x256.Slices ![3, 0] S1x256
  slices_S7x128x256_S1x128x256_2_0_0 : S7x128x256.Slices ![2, 0, 0] S1x128x256
  slices_S7x256_S1x256_2_0 : S7x256.Slices ![2, 0] S1x256
  shapeCasts_S1000x256_S1000x256 : S1000x256.ShapeCasts S1000x256
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S3000x256 : S_.BroadcastsInDim S3000x256 (![] : Fin 0 → Fin S3000x256.rank)
  bcast_S3000x1_S3000x256_0_1 : S3000x1.BroadcastsInDim S3000x256 (![0, 1] : Fin 2 → Fin S3000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  slices_S7x256x256_S1x256x256_4_0_0 : S7x256x256.Slices ![4, 0, 0] S1x256x256
  shapeCasts_S1x256x256_S256x256 : S1x256x256.ShapeCasts S256x256
  slices_S7x256x256_S1x256x256_5_0_0 : S7x256x256.Slices ![5, 0, 0] S1x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S7x256x256_S1x256x256_1_0_0 : S7x256x256.Slices ![1, 0, 0] S1x256x256
  slices_S7x256x256_S1x256x256_6_0_0 : S7x256x256.Slices ![6, 0, 0] S1x256x256
  slices_S7x256x256_S1x256x256_0_0_0 : S7x256x256.Slices ![0, 0, 0] S1x256x256
  slices_S7x256x256_S1x256x256_3_0_0 : S7x256x256.Slices ![3, 0, 0] S1x256x256
  slices_S7x256x256_S1x256x256_2_0_0 : S7x256x256.Slices ![2, 0, 0] S1x256x256
  scatter_S10000x1_S500000x1_S500000x1_1_0_0_1_wf : ScatterDims.WF S10000x1 S500000x1 S500000x1 [1] [0] [0] 1
  scatter_S50000x1_S400000x1_S400000x1_1_0_0_1_wf : ScatterDims.WF S50000x1 S400000x1 S400000x1 [1] [0] [0] 1
  scatter_S3000x1_S150000x1_S150000x1_1_0_0_1_wf : ScatterDims.WF S3000x1 S150000x1 S150000x1 [1] [0] [0] 1
  scatter_S10000x1_S400000x1_S400000x1_1_0_0_1_wf : ScatterDims.WF S10000x1 S400000x1 S400000x1 [1] [0] [0] 1
  scatter_S20000x1_S500000x1_S500000x1_1_0_0_1_wf : ScatterDims.WF S20000x1 S500000x1 S500000x1 [1] [0] [0] 1
  scatter_S20000x1_S400000x1_S400000x1_1_0_0_1_wf : ScatterDims.WF S20000x1 S400000x1 S400000x1 [1] [0] [0] 1
  scatter_S50000x1_S150000x1_S150000x1_1_0_0_1_wf : ScatterDims.WF S50000x1 S150000x1 S150000x1 [1] [0] [0] 1
  gather_S20000x128_S500000x1_S500000x128_1_0_n_n_0_1_1128_wf : GatherDims.WF S20000x128 S500000x1 S500000x128 [1] [0] [] [0] [] 1 ![1, 128]
  scatter_S10000x128_S500000x1_S500000x128_1_0_0_1_wf : ScatterDims.WF S10000x128 S500000x1 S500000x128 [1] [0] [0] 1
  gather_S20000x128_S400000x1_S400000x128_1_0_n_n_0_1_1128_wf : GatherDims.WF S20000x128 S400000x1 S400000x128 [1] [0] [] [0] [] 1 ![1, 128]
  scatter_S50000x128_S400000x1_S400000x128_1_0_0_1_wf : ScatterDims.WF S50000x128 S400000x1 S400000x128 [1] [0] [0] 1
  gather_S50000x128_S150000x1_S150000x128_1_0_n_n_0_1_1128_wf : GatherDims.WF S50000x128 S150000x1 S150000x128 [1] [0] [] [0] [] 1 ![1, 128]
  scatter_S3000x128_S150000x1_S150000x128_1_0_0_1_wf : ScatterDims.WF S3000x128 S150000x1 S150000x128 [1] [0] [0] 1
  gather_S50000x128_S400000x1_S400000x128_1_0_n_n_0_1_1128_wf : GatherDims.WF S50000x128 S400000x1 S400000x128 [1] [0] [] [0] [] 1 ![1, 128]
  scatter_S10000x128_S400000x1_S400000x128_1_0_0_1_wf : ScatterDims.WF S10000x128 S400000x1 S400000x128 [1] [0] [0] 1
  gather_S10000x128_S500000x1_S500000x128_1_0_n_n_0_1_1128_wf : GatherDims.WF S10000x128 S500000x1 S500000x128 [1] [0] [] [0] [] 1 ![1, 128]
  scatter_S20000x128_S500000x1_S500000x128_1_0_0_1_wf : ScatterDims.WF S20000x128 S500000x1 S500000x128 [1] [0] [0] 1
  scatter_S20000x128_S400000x1_S400000x128_1_0_0_1_wf : ScatterDims.WF S20000x128 S400000x1 S400000x128 [1] [0] [0] 1
  gather_S3000x128_S150000x1_S150000x128_1_0_n_n_0_1_1128_wf : GatherDims.WF S3000x128 S150000x1 S150000x128 [1] [0] [] [0] [] 1 ![1, 128]
  scatter_S50000x128_S150000x1_S150000x128_1_0_0_1_wf : ScatterDims.WF S50000x128 S150000x1 S150000x128 [1] [0] [0] 1
  dot_S1000x128_S128x256_S1000x256_1_0_0_1_n_n_wf : DotDims.WF S1000x128 S128x256 S1000x256 [1] [0] [0] [1] [] []
  gather_S20000x256_S500000x1_S500000x256_1_0_n_n_0_1_1256_wf : GatherDims.WF S20000x256 S500000x1 S500000x256 [1] [0] [] [0] [] 1 ![1, 256]
  scatter_S10000x256_S500000x1_S500000x256_1_0_0_1_wf : ScatterDims.WF S10000x256 S500000x1 S500000x256 [1] [0] [0] 1
  gather_S20000x256_S400000x1_S400000x256_1_0_n_n_0_1_1256_wf : GatherDims.WF S20000x256 S400000x1 S400000x256 [1] [0] [] [0] [] 1 ![1, 256]
  scatter_S50000x256_S400000x1_S400000x256_1_0_0_1_wf : ScatterDims.WF S50000x256 S400000x1 S400000x256 [1] [0] [0] 1
  gather_S50000x256_S150000x1_S150000x256_1_0_n_n_0_1_1256_wf : GatherDims.WF S50000x256 S150000x1 S150000x256 [1] [0] [] [0] [] 1 ![1, 256]
  scatter_S3000x256_S150000x1_S150000x256_1_0_0_1_wf : ScatterDims.WF S3000x256 S150000x1 S150000x256 [1] [0] [0] 1
  gather_S50000x256_S400000x1_S400000x256_1_0_n_n_0_1_1256_wf : GatherDims.WF S50000x256 S400000x1 S400000x256 [1] [0] [] [0] [] 1 ![1, 256]
  scatter_S10000x256_S400000x1_S400000x256_1_0_0_1_wf : ScatterDims.WF S10000x256 S400000x1 S400000x256 [1] [0] [0] 1
  gather_S10000x256_S500000x1_S500000x256_1_0_n_n_0_1_1256_wf : GatherDims.WF S10000x256 S500000x1 S500000x256 [1] [0] [] [0] [] 1 ![1, 256]
  scatter_S20000x256_S500000x1_S500000x256_1_0_0_1_wf : ScatterDims.WF S20000x256 S500000x1 S500000x256 [1] [0] [0] 1
  scatter_S20000x256_S400000x1_S400000x256_1_0_0_1_wf : ScatterDims.WF S20000x256 S400000x1 S400000x256 [1] [0] [0] 1
  gather_S3000x256_S150000x1_S150000x256_1_0_n_n_0_1_1256_wf : GatherDims.WF S3000x256 S150000x1 S150000x256 [1] [0] [] [0] [] 1 ![1, 256]
  scatter_S50000x256_S150000x1_S150000x256_1_0_0_1_wf : ScatterDims.WF S50000x256 S150000x1 S150000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S20000x128.size a
  hwx0_0 : ∀ i : grid0.Coords, EltTy.bits .f32 = 32 ∨ (Rect.block (s := S20000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S20000x128.size a
  hwx0_1 : ∀ i : grid0.Coords, EltTy.bits .f32 = 32 ∨ (Rect.block (s := S20000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S20000x128.size a
  hwx0_2 : ∀ i : grid0.Coords, EltTy.bits .f32 = 32 ∨ (Rect.block (s := S20000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S20000x256.size a
  hwx0_9 : ∀ i : grid0.Coords, EltTy.bits .f32 = 32 ∨ (Rect.block (s := S20000x256) S1000x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x256.size a ≤ S50000x256.size a
  hwx1_9 : ∀ i : grid1.Coords, EltTy.bits .f32 = 32 ∨ (Rect.block (s := S50000x256) S1000x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x256.size a ≤ S10000x256.size a
  hwx2_9 : ∀ i : grid2.Coords, EltTy.bits .f32 = 32 ∨ (Rect.block (s := S10000x256) S1000x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S3000x128.size a
  hwx3_0 : ∀ i : grid3.Coords, EltTy.bits .f32 = 32 ∨ (Rect.block (s := S3000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S3000x128.size a
  hwx3_1 : ∀ i : grid3.Coords, EltTy.bits .f32 = 32 ∨ (Rect.block (s := S3000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S3000x256.size a
  hwx3_5 : ∀ i : grid3.Coords, EltTy.bits .f32 = 32 ∨ (Rect.block (s := S3000x256) S1000x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S20000x256.size a
  hwx4_0 : ∀ i : grid4.Coords, EltTy.bits .f32 = 32 ∨ (Rect.block (s := S20000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x256.size a ≤ S20000x256.size a
  hwx4_5 : ∀ i : grid4.Coords, EltTy.bits .f32 = 32 ∨ (Rect.block (s := S20000x256) S1000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S50000x256.size a
  hwx5_0 : ∀ i : grid5.Coords, EltTy.bits .f32 = 32 ∨ (Rect.block (s := S50000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x256.size a ≤ S50000x256.size a
  hwx5_5 : ∀ i : grid5.Coords, EltTy.bits .f32 = 32 ∨ (Rect.block (s := S50000x256) S1000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x256.size a ≤ S10000x256.size a
  hwx6_0 : ∀ i : grid6.Coords, EltTy.bits .f32 = 32 ∨ (Rect.block (s := S10000x256) S1000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x256.size a ≤ S10000x256.size a
  hwx6_5 : ∀ i : grid6.Coords, EltTy.bits .f32 = 32 ∨ (Rect.block (s := S10000x256) S1000x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S3000x256.size a
  hwx7_0 : ∀ i : grid7.Coords, EltTy.bits .f32 = 32 ∨ (Rect.block (s := S3000x256) S1000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x256.size a ≤ S3000x256.size a
  hwx7_5 : ∀ i : grid7.Coords, EltTy.bits .f32 = 32 ∨ (Rect.block (s := S3000x256) S1000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S20000x256.size a
  hwx8_0 : ∀ i : grid8.Coords, EltTy.bits .f32 = 32 ∨ (Rect.block (s := S20000x256) S1000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x256.size a ≤ S20000x256.size a
  hwx8_1 : ∀ i : grid8.Coords, EltTy.bits .f32 = 32 ∨ (Rect.block (s := S20000x256) S1000x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x256.size a ≤ S20000x256.size a
  hwx8_2 : ∀ i : grid8.Coords, EltTy.bits .f32 = 32 ∨ (Rect.block (s := S20000x256) S1000x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x256.size a ≤ S256x256.size a
  hwx8_4 : ∀ i : grid8.Coords, EltTy.bits .f32 = 32 ∨ (Rect.block (s := S256x256) S256x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x256.size a ≤ S256x256.size a
  hwx8_5 : ∀ i : grid8.Coords, EltTy.bits .f32 = 32 ∨ (Rect.block (s := S256x256) S256x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S256x256.size a ≤ S256x256.size a
  hwx8_6 : ∀ i : grid8.Coords, EltTy.bits .f32 = 32 ∨ (Rect.block (s := S256x256) S256x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x256.size a ≤ S1x256.size a
  hwx8_7 : ∀ i : grid8.Coords, EltTy.bits .f32 = 32 ∨ (Rect.block (s := S1x256) S1x256.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x256.size a ≤ S1x256.size a
  hwx8_8 : ∀ i : grid8.Coords, EltTy.bits .f32 = 32 ∨ (Rect.block (s := S1x256) S1x256.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S1000x256.size a ≤ S20000x256.size a
  hwx8_9 : ∀ i : grid8.Coords, EltTy.bits .f32 = 32 ∨ (Rect.block (s := S20000x256) S1000x256.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x256.size a ≤ S1x256.size a
  hwx8_10 : ∀ i : grid8.Coords, EltTy.bits .f32 = 32 ∨ (Rect.block (s := S1x256) S1x256.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x256.size a ≤ S1x256.size a
  hwx8_11 : ∀ i : grid8.Coords, EltTy.bits .f32 = 32 ∨ (Rect.block (s := S1x256) S1x256.size (cc8_transform_11 i) (hinb8_11 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x256.size a ≤ S50000x256.size a
  hwx9_0 : ∀ i : grid9.Coords, EltTy.bits .f32 = 32 ∨ (Rect.block (s := S50000x256) S1000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x256.size a ≤ S50000x256.size a
  hwx9_1 : ∀ i : grid9.Coords, EltTy.bits .f32 = 32 ∨ (Rect.block (s := S50000x256) S1000x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1000x256.size a ≤ S50000x256.size a
  hwx9_2 : ∀ i : grid9.Coords, EltTy.bits .f32 = 32 ∨ (Rect.block (s := S50000x256) S1000x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256x256.size a ≤ S256x256.size a
  hwx9_4 : ∀ i : grid9.Coords, EltTy.bits .f32 = 32 ∨ (Rect.block (s := S256x256) S256x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x256.size a ≤ S256x256.size a
  hwx9_5 : ∀ i : grid9.Coords, EltTy.bits .f32 = 32 ∨ (Rect.block (s := S256x256) S256x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S256x256.size a ≤ S256x256.size a
  hwx9_6 : ∀ i : grid9.Coords, EltTy.bits .f32 = 32 ∨ (Rect.block (s := S256x256) S256x256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x256.size a ≤ S1x256.size a
  hwx9_7 : ∀ i : grid9.Coords, EltTy.bits .f32 = 32 ∨ (Rect.block (s := S1x256) S1x256.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x256.size a ≤ S1x256.size a
  hwx9_8 : ∀ i : grid9.Coords, EltTy.bits .f32 = 32 ∨ (Rect.block (s := S1x256) S1x256.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S1000x256.size a ≤ S50000x256.size a
  hwx9_9 : ∀ i : grid9.Coords, EltTy.bits .f32 = 32 ∨ (Rect.block (s := S50000x256) S1000x256.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x256.size a ≤ S1x256.size a
  hwx9_10 : ∀ i : grid9.Coords, EltTy.bits .f32 = 32 ∨ (Rect.block (s := S1x256) S1x256.size (cc9_transform_10 i) (hinb9_10 i)).WholeWords (EltTy.packing .f32)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S1x256.size a ≤ S1x256.size a
  hwx9_11 : ∀ i : grid9.Coords, EltTy.bits .f32 = 32 ∨ (Rect.block (s := S1x256) S1x256.size (cc9_transform_11 i) (hinb9_11 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x256.size a ≤ S10000x256.size a
  hwx10_0 : ∀ i : grid10.Coords, EltTy.bits .f32 = 32 ∨ (Rect.block (s := S10000x256) S1000x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1000x256.size a ≤ S10000x256.size a
  hwx10_1 : ∀ i : grid10.Coords, EltTy.bits .f32 = 32 ∨ (Rect.block (s := S10000x256) S1000x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x256.size a ≤ S10000x256.size a
  hwx10_2 : ∀ i : grid10.Coords, EltTy.bits .f32 = 32 ∨ (Rect.block (s := S10000x256) S1000x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256x256.size a ≤ S256x256.size a
  hwx10_3 : ∀ i : grid10.Coords, EltTy.bits .f32 = 32 ∨ (Rect.block (s := S256x256) S256x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S256x256.size a ≤ S256x256.size a
  hwx10_4 : ∀ i : grid10.Coords, EltTy.bits .f32 = 32 ∨ (Rect.block (s := S256x256) S256x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .f32 = 32 ∨ (Rect.block (s := S256x256) S256x256.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S256x256.size a ≤ S256x256.size a
  hwx10_6 : ∀ i : grid10.Coords, EltTy.bits .f32 = 32 ∨ (Rect.block (s := S256x256) S256x256.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x256.size a ≤ S1x256.size a
  hwx10_7 : ∀ i : grid10.Coords, EltTy.bits .f32 = 32 ∨ (Rect.block (s := S1x256) S1x256.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x256.size a ≤ S1x256.size a
  hwx10_8 : ∀ i : grid10.Coords, EltTy.bits .f32 = 32 ∨ (Rect.block (s := S1x256) S1x256.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S1000x256.size a ≤ S10000x256.size a
  hwx10_9 : ∀ i : grid10.Coords, EltTy.bits .f32 = 32 ∨ (Rect.block (s := S10000x256) S1000x256.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x256.size a ≤ S1x256.size a
  hwx10_10 : ∀ i : grid10.Coords, EltTy.bits .f32 = 32 ∨ (Rect.block (s := S1x256) S1x256.size (cc10_transform_10 i) (hinb10_10 i)).WholeWords (EltTy.packing .f32)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S1x256.size a ≤ S1x256.size a
  hwx10_11 : ∀ i : grid10.Coords, EltTy.bits .f32 = 32 ∨ (Rect.block (s := S1x256) S1x256.size (cc10_transform_11 i) (hinb10_11 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x256.size a ≤ S3000x256.size a
  hwx11_0 : ∀ i : grid11.Coords, EltTy.bits .f32 = 32 ∨ (Rect.block (s := S3000x256) S1000x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1000x256.size a ≤ S3000x256.size a
  hwx11_1 : ∀ i : grid11.Coords, EltTy.bits .f32 = 32 ∨ (Rect.block (s := S3000x256) S1000x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x256.size a ≤ S256x256.size a
  hwx11_2 : ∀ i : grid11.Coords, EltTy.bits .f32 = 32 ∨ (Rect.block (s := S256x256) S256x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S256x256.size a ≤ S256x256.size a
  hwx11_3 : ∀ i : grid11.Coords, EltTy.bits .f32 = 32 ∨ (Rect.block (s := S256x256) S256x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1000x256.size a ≤ S3000x256.size a
  hwx11_5 : ∀ i : grid11.Coords, EltTy.bits .f32 = 32 ∨ (Rect.block (s := S3000x256) S1000x256.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x256.size a ≤ S1x256.size a
  hwx11_6 : ∀ i : grid11.Coords, EltTy.bits .f32 = 32 ∨ (Rect.block (s := S1x256) S1x256.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x256.size a ≤ S1x256.size a
  hwx11_7 : ∀ i : grid11.Coords, EltTy.bits .f32 = 32 ∨ (Rect.block (s := S1x256) S1x256.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x256.size a ≤ S20000x256.size a
  hwx12_0 : ∀ i : grid12.Coords, EltTy.bits .f32 = 32 ∨ (Rect.block (s := S20000x256) S1000x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x256.size a ≤ S1x256.size a
  hwx12_1 : ∀ i : grid12.Coords, EltTy.bits .f32 = 32 ∨ (Rect.block (s := S1x256) S1x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1000x256.size a ≤ S20000x256.size a
  hwx12_5 : ∀ i : grid12.Coords, EltTy.bits .f32 = 32 ∨ (Rect.block (s := S20000x256) S1000x256.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1000x256.size a ≤ S50000x256.size a
  hwx13_0 : ∀ i : grid13.Coords, EltTy.bits .f32 = 32 ∨ (Rect.block (s := S50000x256) S1000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S1000x256.size a ≤ S50000x256.size a
  hwx13_5 : ∀ i : grid13.Coords, EltTy.bits .f32 = 32 ∨ (Rect.block (s := S50000x256) S1000x256.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1000x256.size a ≤ S10000x256.size a
  hwx14_0 : ∀ i : grid14.Coords, EltTy.bits .f32 = 32 ∨ (Rect.block (s := S10000x256) S1000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S1000x256.size a ≤ S10000x256.size a
  hwx14_5 : ∀ i : grid14.Coords, EltTy.bits .f32 = 32 ∨ (Rect.block (s := S10000x256) S1000x256.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1000x256.size a ≤ S3000x256.size a
  hwx15_0 : ∀ i : grid15.Coords, EltTy.bits .f32 = 32 ∨ (Rect.block (s := S3000x256) S1000x256.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x256.size a ≤ S1x256.size a
  hwx15_1 : ∀ i : grid15.Coords, EltTy.bits .f32 = 32 ∨ (Rect.block (s := S1x256) S1x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x256.size a ≤ S1x256.size a
  hwx15_3 : ∀ i : grid15.Coords, EltTy.bits .f32 = 32 ∨ (Rect.block (s := S1x256) S1x256.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x256.size a ≤ S1x256.size a
  hwx15_4 : ∀ i : grid15.Coords, EltTy.bits .f32 = 32 ∨ (Rect.block (s := S1x256) S1x256.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S1000x256.size a ≤ S3000x256.size a
  hwx15_5 : ∀ i : grid15.Coords, EltTy.bits .f32 = 32 ∨ (Rect.block (s := S3000x256) S1000x256.size (cc15_transform_5 i) (hinb15_5 i)).WholeWords (EltTy.packing .f32)

variable [Facts₀]

def scatter_S10000x1_S500000x1_S500000x1_1_0_0_1 : ScatterDims S10000x1 S500000x1 S500000x1 where
  updateWindowDims := [1]
  insertedWindowDims := [0]
  scatterDimsToOperandDims := [0]
  indexVectorDim := 1
  wf := scatter_S10000x1_S500000x1_S500000x1_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def scatter_S3000x1_S150000x1_S150000x1_1_0_0_1 : ScatterDims S3000x1 S150000x1 S150000x1 where
  updateWindowDims := [1]
  insertedWindowDims := [0]
  scatterDimsToOperandDims := [0]
  indexVectorDim := 1
  wf := scatter_S3000x1_S150000x1_S150000x1_1_0_0_1_wf
def scatter_S10000x1_S400000x1_S400000x1_1_0_0_1 : ScatterDims S10000x1 S400000x1 S400000x1 where
  updateWindowDims := [1]
  insertedWindowDims := [0]
  scatterDimsToOperandDims := [0]
  indexVectorDim := 1
  wf := scatter_S10000x1_S400000x1_S400000x1_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S3000x128_S150000x1_S150000x128_1_0_0_1 : ScatterDims S3000x128 S150000x1 S150000x128 where
  updateWindowDims := [1]
  insertedWindowDims := [0]
  scatterDimsToOperandDims := [0]
  indexVectorDim := 1
  wf := scatter_S3000x128_S150000x1_S150000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S10000x128_S400000x1_S400000x128_1_0_0_1 : ScatterDims S10000x128 S400000x1 S400000x128 where
  updateWindowDims := [1]
  insertedWindowDims := [0]
  scatterDimsToOperandDims := [0]
  indexVectorDim := 1
  wf := scatter_S10000x128_S400000x1_S400000x128_1_0_0_1_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def gather_S3000x128_S150000x1_S150000x128_1_0_n_n_0_1_1128 : GatherDims S3000x128 S150000x1 S150000x128 where
  offsetDims := [1]
  collapsedSliceDims := [0]
  operandBatchingDims := []
  startIndicesBatchingDims := []
  startIndexMap := [0]
  indexVectorDim := 1
  sliceSizes := ![1, 128]
  wf := gather_S3000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S20000x256_S500000x1_S500000x256_1_0_n_n_0_1_1256 : GatherDims S20000x256 S500000x1 S500000x256 where
  offsetDims := [1]
  collapsedSliceDims := [0]
  operandBatchingDims := []
  startIndicesBatchingDims := []
  startIndexMap := [0]
  indexVectorDim := 1
  sliceSizes := ![1, 256]
  wf := gather_S20000x256_S500000x1_S500000x256_1_0_n_n_0_1_1256_wf
def scatter_S10000x256_S500000x1_S500000x256_1_0_0_1 : ScatterDims S10000x256 S500000x1 S500000x256 where
  updateWindowDims := [1]
  insertedWindowDims := [0]
  scatterDimsToOperandDims := [0]
  indexVectorDim := 1
  wf := scatter_S10000x256_S500000x1_S500000x256_1_0_0_1_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def scatter_S3000x256_S150000x1_S150000x256_1_0_0_1 : ScatterDims S3000x256 S150000x1 S150000x256 where
  updateWindowDims := [1]
  insertedWindowDims := [0]
  scatterDimsToOperandDims := [0]
  indexVectorDim := 1
  wf := scatter_S3000x256_S150000x1_S150000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def gather_S10000x256_S500000x1_S500000x256_1_0_n_n_0_1_1256 : GatherDims S10000x256 S500000x1 S500000x256 where
  offsetDims := [1]
  collapsedSliceDims := [0]
  operandBatchingDims := []
  startIndicesBatchingDims := []
  startIndexMap := [0]
  indexVectorDim := 1
  sliceSizes := ![1, 256]
  wf := gather_S10000x256_S500000x1_S500000x256_1_0_n_n_0_1_1256_wf
def scatter_S20000x256_S500000x1_S500000x256_1_0_0_1 : ScatterDims S20000x256 S500000x1 S500000x256 where
  updateWindowDims := [1]
  insertedWindowDims := [0]
  scatterDimsToOperandDims := [0]
  indexVectorDim := 1
  wf := scatter_S20000x256_S500000x1_S500000x256_1_0_0_1_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def gather_S3000x256_S150000x1_S150000x256_1_0_n_n_0_1_1256 : GatherDims S3000x256 S150000x1 S150000x256 where
  offsetDims := [1]
  collapsedSliceDims := [0]
  operandBatchingDims := []
  startIndicesBatchingDims := []
  startIndexMap := [0]
  indexVectorDim := 1
  sliceSizes := ![1, 256]
  wf := gather_S3000x256_S150000x1_S150000x256_1_0_n_n_0_1_1256_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v101) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v113) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v127) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v129) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v131) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v133) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v138) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v139) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v140_0) S1000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v140_1) S1x256.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v140_2) S1x256.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_v65) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v125) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v142) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v144) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v146) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v148) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v153) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v154) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v155_0) S1000x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v155_1) S1x256.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v155_2) S1x256.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v53) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v157) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v159) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v161) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v163) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v168) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v169) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v170_0) S1000x256.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v170_1) S1x256.size cc2_transform_10 reads2_10 true true 1 stage2_10 sem2_10
    hrank2 hreads2_10 hinb2_10 nbuf2_10 (Memref.isWhole_whole _) hwx2_10 hstage2_10

abbrev win2_11 : Pipeline.Window sig grid2 :=
  Pipeline.Window.ofSpec (Memref.whole main_v170_2) S1x256.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | 11 => fun i => !(k2_cond2 i == 1#1) | ⟨_ + 12, h⟩ => absurd h (Nat.not_lt.2 (Nat.le_add_left _ _))

abbrev win3_0 : Pipeline.Window sig grid3 :=
  Pipeline.Window.ofSpec (Memref.whole main_v77) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v172) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v174) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v177) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v178_0) S1000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v178_1) S1x256.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v178_2) S1x256.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun i => !(k3_cond2 i == 1#1) | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v140_0) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v140_1) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v140_2) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v179) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v180) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v181) S1000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v155_0) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v155_1) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v155_2) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v182) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v183) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v184) S1000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v170_0) S1000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v170_1) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v170_2) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v185) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v186) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v187) S1000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v178_0) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v178_1) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v178_2) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v188) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v189) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v190) S1000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v250) S1000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v262) S1000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v181) S1000x256.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v276) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v278) S256x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v280) S256x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v282) S256x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v287) S1x256.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v288) S1x256.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v289_0) S1000x256.size cc8_transform_9 reads8_9 true false 2 stage8_9 sem8_9
    hrank8 hreads8_9 hinb8_9 nbuf8_9 (Memref.isWhole_whole _) hwx8_9 hstage8_9

abbrev win8_10 : Pipeline.Window sig grid8 :=
  Pipeline.Window.ofSpec (Memref.whole main_v289_1) S1x256.size cc8_transform_10 reads8_10 true true 1 stage8_10 sem8_10
    hrank8 hreads8_10 hinb8_10 nbuf8_10 (Memref.isWhole_whole _) hwx8_10 hstage8_10

abbrev win8_11 : Pipeline.Window sig grid8 :=
  Pipeline.Window.ofSpec (Memref.whole main_v289_2) S1x256.size cc8_transform_11 reads8_11 true true 1 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

abbrev idle8 : Fin 12 → grid8.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k8_cond2 i == 1#1) | 11 => fun i => !(k8_cond2 i == 1#1) | ⟨_ + 12, h⟩ => absurd h (Nat.not_lt.2 (Nat.le_add_left _ _))

abbrev win9_0 : Pipeline.Window sig grid9 :=
  Pipeline.Window.ofSpec (Memref.whole main_v214) S1000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v274) S1000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v184) S1000x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v291) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v293) S256x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v295) S256x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v297) S256x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v302) S1x256.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v303) S1x256.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v304_0) S1000x256.size cc9_transform_9 reads9_9 true false 2 stage9_9 sem9_9
    hrank9 hreads9_9 hinb9_9 nbuf9_9 (Memref.isWhole_whole _) hwx9_9 hstage9_9

abbrev win9_10 : Pipeline.Window sig grid9 :=
  Pipeline.Window.ofSpec (Memref.whole main_v304_1) S1x256.size cc9_transform_10 reads9_10 true true 1 stage9_10 sem9_10
    hrank9 hreads9_10 hinb9_10 nbuf9_10 (Memref.isWhole_whole _) hwx9_10 hstage9_10

abbrev win9_11 : Pipeline.Window sig grid9 :=
  Pipeline.Window.ofSpec (Memref.whole main_v304_2) S1x256.size cc9_transform_11 reads9_11 true true 1 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

abbrev idle9 : Fin 12 → grid9.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k9_cond2 i == 1#1) | 11 => fun i => !(k9_cond2 i == 1#1) | ⟨_ + 12, h⟩ => absurd h (Nat.not_lt.2 (Nat.le_add_left _ _))

abbrev win10_0 : Pipeline.Window sig grid10 :=
  Pipeline.Window.ofSpec (Memref.whole main_v202) S1000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v238) S1000x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v187) S1000x256.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v306) S256x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v308) S256x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v310) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v312) S256x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v317) S1x256.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v318) S1x256.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v319_0) S1000x256.size cc10_transform_9 reads10_9 true false 2 stage10_9 sem10_9
    hrank10 hreads10_9 hinb10_9 nbuf10_9 (Memref.isWhole_whole _) hwx10_9 hstage10_9

abbrev win10_10 : Pipeline.Window sig grid10 :=
  Pipeline.Window.ofSpec (Memref.whole main_v319_1) S1x256.size cc10_transform_10 reads10_10 true true 1 stage10_10 sem10_10
    hrank10 hreads10_10 hinb10_10 nbuf10_10 (Memref.isWhole_whole _) hwx10_10 hstage10_10

abbrev win10_11 : Pipeline.Window sig grid10 :=
  Pipeline.Window.ofSpec (Memref.whole main_v319_2) S1x256.size cc10_transform_11 reads10_11 true true 1 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

abbrev idle10 : Fin 12 → grid10.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k10_cond2 i == 1#1) | 11 => fun i => !(k10_cond2 i == 1#1) | ⟨_ + 12, h⟩ => absurd h (Nat.not_lt.2 (Nat.le_add_left _ _))

abbrev win11_0 : Pipeline.Window sig grid11 :=
  Pipeline.Window.ofSpec (Memref.whole main_v226) S1000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v190) S1000x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v321) S256x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v323) S256x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v326) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v327_0) S1000x256.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v327_1) S1x256.size cc11_transform_6 reads11_6 true true 1 stage11_6 sem11_6
    hrank11 hreads11_6 hinb11_6 nbuf11_6 (Memref.isWhole_whole _) hwx11_6 hstage11_6

abbrev win11_7 : Pipeline.Window sig grid11 :=
  Pipeline.Window.ofSpec (Memref.whole main_v327_2) S1x256.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev idle11 : Fin 8 → grid11.Coords → Bool := fun | 0 => fun _ => false | 1 => fun _ => false | 2 => fun _ => false | 3 => fun _ => false | 4 => fun _ => false | 5 => fun _ => false | 6 => fun i => !(k11_cond2 i == 1#1) | 7 => fun i => !(k11_cond2 i == 1#1) | ⟨_ + 8, h⟩ => absurd h (Nat.not_lt.2 (Nat.le_add_left _ _))

abbrev win12_0 : Pipeline.Window sig grid12 :=
  Pipeline.Window.ofSpec (Memref.whole main_v289_0) S1000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v289_1) S1x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v289_2) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v328) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v329) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v330) S1000x256.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v304_0) S1000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v304_1) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v304_2) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v331) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v332) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v333) S1000x256.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v319_0) S1000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v319_1) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v319_2) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v334) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v335) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v336) S1000x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v327_0) S1000x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v327_1) S1x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v327_2) S1x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v337) S1x256.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v338) S1x256.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v339) S1000x256.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S20000x128 : Shape := ⟨2, ![20000, 128]⟩
abbrev S50000x128 : Shape := ⟨2, ![50000, 128]⟩
abbrev S10000x128 : Shape := ⟨2, ![10000, 128]⟩
abbrev S3000x128 : Shape := ⟨2, ![3000, 128]⟩
abbrev S7x128x256 : Shape := ⟨3, ![7, 128, 256]⟩
abbrev S7x256 : Shape := ⟨2, ![7, 256]⟩
abbrev S7x256x256 : Shape := ⟨3, ![7, 256, 256]⟩
abbrev S256 : Shape := ⟨1, ![256]⟩
abbrev S500000 : Shape := ⟨1, ![500000]⟩
abbrev S400000 : Shape := ⟨1, ![400000]⟩
abbrev S150000 : Shape := ⟨1, ![150000]⟩
abbrev S_ : Shape := ⟨0, ![]⟩
abbrev S500000x1 : Shape := ⟨2, ![500000, 1]⟩
abbrev S500000x128 : Shape := ⟨2, ![500000, 128]⟩
abbrev S10000x1 : Shape := ⟨2, ![10000, 1]⟩
abbrev S1x128x256 : Shape := ⟨3, ![1, 128, 256]⟩
abbrev S128x256 : Shape := ⟨2, ![128, 256]⟩
abbrev S10000x256 : Shape := ⟨2, ![10000, 256]⟩
abbrev S1x256 : Shape := ⟨2, ![1, 256]⟩
abbrev S400000x1 : Shape := ⟨2, ![400000, 1]⟩
abbrev S400000x128 : Shape := ⟨2, ![400000, 128]⟩
abbrev S50000x1 : Shape := ⟨2, ![50000, 1]⟩
abbrev S50000x256 : Shape := ⟨2, ![50000, 256]⟩
abbrev S150000x1 : Shape := ⟨2, ![150000, 1]⟩
abbrev S150000x128 : Shape := ⟨2, ![150000, 128]⟩
abbrev S3000x1 : Shape := ⟨2, ![3000, 1]⟩
abbrev S3000x256 : Shape := ⟨2, ![3000, 256]⟩
abbrev S20000x1 : Shape := ⟨2, ![20000, 1]⟩
abbrev S20000x256 : Shape := ⟨2, ![20000, 256]⟩
abbrev S500000x256 : Shape := ⟨2, ![500000, 256]⟩
abbrev S1x256x256 : Shape := ⟨3, ![1, 256, 256]⟩
abbrev S256x256 : Shape := ⟨2, ![256, 256]⟩
abbrev S400000x256 : Shape := ⟨2, ![400000, 256]⟩
abbrev S150000x256 : Shape := ⟨2, ![150000, 256]⟩

abbrev nBuf : Space → Nat
  | .hbm => 914
  | .vmem => 0
  | .smem => 0
  | _ => 0

abbrev hbmTy0_0 (i : Nat) : BufTy := match i % 128 with
  | 0 => ⟨S20000x128, .f32⟩
  | 1 => ⟨S50000x128, .f32⟩
  | 2 => ⟨S10000x128, .f32⟩
  | 3 => ⟨S3000x128, .f32⟩
  | 4 => ⟨S7x128x256, .f32⟩
  | 5 => ⟨S7x128x256, .f32⟩
  | 6 => ⟨S7x256, .f32⟩
  | 7 => ⟨S7x256x256, .f32⟩
  | 8 => ⟨S7x256x256, .f32⟩
  | 9 => ⟨S7x256, .f32⟩
  | 10 => ⟨S256, .f32⟩
  | 11 => ⟨S256, .f32⟩
  | 12 => ⟨S256, .f32⟩
  | 13 => ⟨S256, .f32⟩
  | 14 => ⟨S500000, .i32⟩
  | 15 => ⟨S500000, .i32⟩
  | 16 => ⟨S400000, .i32⟩
  | 17 => ⟨S400000, .i32⟩
  | 18 => ⟨S150000, .i32⟩
  | 19 => ⟨S150000, .i32⟩
  | 20 => ⟨S400000, .i32⟩
  | 21 => ⟨S400000, .i32⟩
  | 22 => ⟨S500000, .i32⟩
  | 23 => ⟨S500000, .i32⟩
  | 24 => ⟨S400000, .i32⟩
  | 25 => ⟨S400000, .i32⟩
  | 26 => ⟨S150000, .i32⟩
  | 27 => ⟨S150000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S_, .f32⟩
  | 38 => ⟨S10000x128, .f32⟩
  | 39 => ⟨S500000x1, .i32⟩
  | 40 => ⟨S10000x128, .f32⟩
  | 41 => ⟨S_, .f32⟩
  | 42 => ⟨S500000x1, .f32⟩
  | 43 => ⟨S_, .f32⟩
  | 44 => ⟨S10000x1, .f32⟩
  | 45 => ⟨S500000x1, .i32⟩
  | 46 => ⟨S10000x1, .f32⟩
  | 47 => ⟨S_, .f32⟩
  | 48 => ⟨S10000x1, .f32⟩
  | 49 => ⟨S10000x1, .f32⟩
  | 50 => ⟨S10000x128, .f32⟩
  | 51 => ⟨S10000x128, .f32⟩
  | 52 => ⟨S1x128x256, .f32⟩
  | 53 => ⟨S128x256, .f32⟩
  | 54 => ⟨S10000x256, .f32⟩
  | 55 => ⟨S1x256, .f32⟩
  | 56 => ⟨S256, .f32⟩
  | 57 => ⟨S1x256, .f32⟩
  | 58 => ⟨S10000x256, .f32⟩
  | 59 => ⟨S10000x256, .f32⟩
  | 60 => ⟨S1x128x256, .f32⟩
  | 61 => ⟨S128x256, .f32⟩
  | 62 => ⟨S10000x256, .f32⟩
  | 63 => ⟨S10000x256, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S_, .f32⟩
  | 74 => ⟨S50000x128, .f32⟩
  | 75 => ⟨S400000x1, .i32⟩
  | 76 => ⟨S50000x128, .f32⟩
  | 77 => ⟨S_, .f32⟩
  | 78 => ⟨S400000x1, .f32⟩
  | 79 => ⟨S_, .f32⟩
  | 80 => ⟨S50000x1, .f32⟩
  | 81 => ⟨S400000x1, .i32⟩
  | 82 => ⟨S50000x1, .f32⟩
  | 83 => ⟨S_, .f32⟩
  | 84 => ⟨S50000x1, .f32⟩
  | 85 => ⟨S50000x1, .f32⟩
  | 86 => ⟨S50000x128, .f32⟩
  | 87 => ⟨S50000x128, .f32⟩
  | 88 => ⟨S1x128x256, .f32⟩
  | 89 => ⟨S128x256, .f32⟩
  | 90 => ⟨S50000x256, .f32⟩
  | 91 => ⟨S1x256, .f32⟩
  | 92 => ⟨S256, .f32⟩
  | 93 => ⟨S1x256, .f32⟩
  | 94 => ⟨S50000x256, .f32⟩
  | 95 => ⟨S50000x256, .f32⟩
  | 96 => ⟨S1x128x256, .f32⟩
  | 97 => ⟨S128x256, .f32⟩
  | 98 => ⟨S50000x256, .f32⟩
  | 99 => ⟨S50000x256, .f32⟩
  | 100 => ⟨S_, .i32⟩
  | 101 => ⟨S150000, .i32⟩
  | 102 => ⟨S150000, .i1⟩
  | 103 => ⟨S_, .i32⟩
  | 104 => ⟨S150000, .i32⟩
  | 105 => ⟨S150000, .i32⟩
  | 106 => ⟨S150000, .i32⟩
  | 107 => ⟨S150000x1, .i32⟩
  | 108 => ⟨S150000x128, .f32⟩
  | 109 => ⟨S_, .f32⟩
  | 110 => ⟨S3000x128, .f32⟩
  | 111 => ⟨S150000x1, .i32⟩
  | 112 => ⟨S3000x128, .f32⟩
  | 113 => ⟨S_, .f32⟩
  | 114 => ⟨S150000x1, .f32⟩
  | 115 => ⟨S_, .f32⟩
  | 116 => ⟨S3000x1, .f32⟩
  | 117 => ⟨S150000x1, .i32⟩
  | 118 => ⟨S3000x1, .f32⟩
  | 119 => ⟨S_, .f32⟩
  | 120 => ⟨S3000x1, .f32⟩
  | 121 => ⟨S3000x1, .f32⟩
  | 122 => ⟨S3000x128, .f32⟩
  | 123 => ⟨S3000x128, .f32⟩
  | 124 => ⟨S1x128x256, .f32⟩
  | 125 => ⟨S128x256, .f32⟩
  | 126 => ⟨S3000x256, .f32⟩
  | 127 => ⟨S1x256, .f32⟩
  | _ => ⟨S20000x128, .f32⟩

abbrev hbmTy0_1 (i : Nat) : BufTy := match i % 128 with
  | 0 => ⟨S256, .f32⟩
  | 1 => ⟨S1x256, .f32⟩
  | 2 => ⟨S3000x256, .f32⟩
  | 3 => ⟨S3000x256, .f32⟩
  | 4 => ⟨S1x128x256, .f32⟩
  | 5 => ⟨S128x256, .f32⟩
  | 6 => ⟨S3000x256, .f32⟩
  | 7 => ⟨S3000x256, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000x128, .f32⟩
  | 17 => ⟨S_, .f32⟩
  | 18 => ⟨S10000x128, .f32⟩
  | 19 => ⟨S400000x1, .i32⟩
  | 20 => ⟨S10000x128, .f32⟩
  | 21 => ⟨S_, .f32⟩
  | 22 => ⟨S400000x1, .f32⟩
  | 23 => ⟨S_, .f32⟩
  | 24 => ⟨S10000x1, .f32⟩
  | 25 => ⟨S400000x1, .i32⟩
  | 26 => ⟨S10000x1, .f32⟩
  | 27 => ⟨S_, .f32⟩
  | 28 => ⟨S10000x1, .f32⟩
  | 29 => ⟨S10000x1, .f32⟩
  | 30 => ⟨S10000x128, .f32⟩
  | 31 => ⟨S10000x128, .f32⟩
  | 32 => ⟨S1x128x256, .f32⟩
  | 33 => ⟨S128x256, .f32⟩
  | 34 => ⟨S10000x256, .f32⟩
  | 35 => ⟨S1x256, .f32⟩
  | 36 => ⟨S256, .f32⟩
  | 37 => ⟨S1x256, .f32⟩
  | 38 => ⟨S10000x256, .f32⟩
  | 39 => ⟨S10000x256, .f32⟩
  | 40 => ⟨S1x128x256, .f32⟩
  | 41 => ⟨S128x256, .f32⟩
  | 42 => ⟨S10000x256, .f32⟩
  | 43 => ⟨S10000x256, .f32⟩
  | 44 => ⟨S10000x256, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S_, .f32⟩
  | 55 => ⟨S20000x128, .f32⟩
  | 56 => ⟨S500000x1, .i32⟩
  | 57 => ⟨S20000x128, .f32⟩
  | 58 => ⟨S_, .f32⟩
  | 59 => ⟨S500000x1, .f32⟩
  | 60 => ⟨S_, .f32⟩
  | 61 => ⟨S20000x1, .f32⟩
  | 62 => ⟨S500000x1, .i32⟩
  | 63 => ⟨S20000x1, .f32⟩
  | 64 => ⟨S_, .f32⟩
  | 65 => ⟨S20000x1, .f32⟩
  | 66 => ⟨S20000x1, .f32⟩
  | 67 => ⟨S20000x128, .f32⟩
  | 68 => ⟨S20000x128, .f32⟩
  | 69 => ⟨S1x128x256, .f32⟩
  | 70 => ⟨S128x256, .f32⟩
  | 71 => ⟨S20000x256, .f32⟩
  | 72 => ⟨S1x256, .f32⟩
  | 73 => ⟨S256, .f32⟩
  | 74 => ⟨S1x256, .f32⟩
  | 75 => ⟨S20000x256, .f32⟩
  | 76 => ⟨S20000x256, .f32⟩
  | 77 => ⟨S1x128x256, .f32⟩
  | 78 => ⟨S128x256, .f32⟩
  | 79 => ⟨S20000x256, .f32⟩
  | 80 => ⟨S20000x256, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x128, .f32⟩
  | 90 => ⟨S_, .f32⟩
  | 91 => ⟨S20000x128, .f32⟩
  | 92 => ⟨S400000x1, .i32⟩
  | 93 => ⟨S20000x128, .f32⟩
  | 94 => ⟨S_, .f32⟩
  | 95 => ⟨S400000x1, .f32⟩
  | 96 => ⟨S_, .f32⟩
  | 97 => ⟨S20000x1, .f32⟩
  | 98 => ⟨S400000x1, .i32⟩
  | 99 => ⟨S20000x1, .f32⟩
  | 100 => ⟨S_, .f32⟩
  | 101 => ⟨S20000x1, .f32⟩
  | 102 => ⟨S20000x1, .f32⟩
  | 103 => ⟨S20000x128, .f32⟩
  | 104 => ⟨S20000x128, .f32⟩
  | 105 => ⟨S1x128x256, .f32⟩
  | 106 => ⟨S128x256, .f32⟩
  | 107 => ⟨S20000x256, .f32⟩
  | 108 => ⟨S1x256, .f32⟩
  | 109 => ⟨S256, .f32⟩
  | 110 => ⟨S1x256, .f32⟩
  | 111 => ⟨S20000x256, .f32⟩
  | 112 => ⟨S20000x256, .f32⟩
  | 113 => ⟨S1x128x256, .f32⟩
  | 114 => ⟨S128x256, .f32⟩
  | 115 => ⟨S20000x256, .f32⟩
  | 116 => ⟨S20000x256, .f32⟩
  | 117 => ⟨S20000x256, .f32⟩
  | 118 => ⟨S_, .i32⟩
  | 119 => ⟨S150000, .i32⟩
  | 120 => ⟨S150000, .i1⟩
  | 121 => ⟨S_, .i32⟩
  | 122 => ⟨S150000, .i32⟩
  | 123 => ⟨S150000, .i32⟩
  | 124 => ⟨S150000, .i32⟩
  | 125 => ⟨S150000x1, .i32⟩
  | 126 => ⟨S150000x128, .f32⟩
  | 127 => ⟨S_, .f32⟩
  | _ => ⟨S20000x128, .f32⟩

abbrev hbmTy0_2 (i : Nat) : BufTy := match i % 128 with
  | 0 => ⟨S50000x128, .f32⟩
  | 1 => ⟨S150000x1, .i32⟩
  | 2 => ⟨S50000x128, .f32⟩
  | 3 => ⟨S_, .f32⟩
  | 4 => ⟨S150000x1, .f32⟩
  | 5 => ⟨S_, .f32⟩
  | 6 => ⟨S50000x1, .f32⟩
  | 7 => ⟨S150000x1, .i32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S1x128x256, .f32⟩
  | 15 => ⟨S128x256, .f32⟩
  | 16 => ⟨S50000x256, .f32⟩
  | 17 => ⟨S1x256, .f32⟩
  | 18 => ⟨S256, .f32⟩
  | 19 => ⟨S1x256, .f32⟩
  | 20 => ⟨S50000x256, .f32⟩
  | 21 => ⟨S50000x256, .f32⟩
  | 22 => ⟨S1x128x256, .f32⟩
  | 23 => ⟨S128x256, .f32⟩
  | 24 => ⟨S50000x256, .f32⟩
  | 25 => ⟨S50000x256, .f32⟩
  | 26 => ⟨S50000x256, .f32⟩
  | 27 => ⟨S_, .f32⟩
  | 28 => ⟨S256, .f32⟩
  | 29 => ⟨S_, .f32⟩
  | 30 => ⟨S256, .f32⟩
  | 31 => ⟨S256, .f32⟩
  | 32 => ⟨S_, .i32⟩
  | 33 => ⟨S_, .f32⟩
  | 34 => ⟨S256, .f32⟩
  | 35 => ⟨S1x256, .f32⟩
  | 36 => ⟨S_, .f32⟩
  | 37 => ⟨S1x256, .f32⟩
  | 38 => ⟨S1x256, .f32⟩
  | 39 => ⟨S20000x256, .f32⟩
  | 40 => ⟨S20000x256, .f32⟩
  | 41 => ⟨S20000x256, .f32⟩
  | 42 => ⟨S_, .f32⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S_, .f32⟩
  | 50 => ⟨S_, .i1⟩
  | 51 => ⟨S_, .f32⟩
  | 52 => ⟨S_, .f32⟩
  | 53 => ⟨S256, .f32⟩
  | 54 => ⟨S256, .f32⟩
  | 55 => ⟨S1x256, .f32⟩
  | 56 => ⟨S20000x256, .f32⟩
  | 57 => ⟨S20000x256, .f32⟩
  | 58 => ⟨S_, .f32⟩
  | 59 => ⟨S256, .f32⟩
  | 60 => ⟨S256, .f32⟩
  | 61 => ⟨S256, .f32⟩
  | 62 => ⟨S1x256, .f32⟩
  | 63 => ⟨S20000x256, .f32⟩
  | 64 => ⟨S20000x256, .f32⟩
  | 65 => ⟨S1x256, .f32⟩
  | 66 => ⟨S20000x256, .f32⟩
  | 67 => ⟨S20000x256, .f32⟩
  | 68 => ⟨S1x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S_, .f32⟩
  | 75 => ⟨S256, .f32⟩
  | 76 => ⟨S_, .f32⟩
  | 77 => ⟨S256, .f32⟩
  | 78 => ⟨S256, .f32⟩
  | 79 => ⟨S_, .i32⟩
  | 80 => ⟨S_, .f32⟩
  | 81 => ⟨S256, .f32⟩
  | 82 => ⟨S1x256, .f32⟩
  | 83 => ⟨S_, .f32⟩
  | 84 => ⟨S1x256, .f32⟩
  | 85 => ⟨S1x256, .f32⟩
  | 86 => ⟨S50000x256, .f32⟩
  | 87 => ⟨S50000x256, .f32⟩
  | 88 => ⟨S50000x256, .f32⟩
  | 89 => ⟨S_, .f32⟩
  | 90 => ⟨S_, .f32⟩
  | 91 => ⟨S_, .f32⟩
  | 92 => ⟨S_, .f32⟩
  | 93 => ⟨S256, .f32⟩
  | 94 => ⟨S256, .f32⟩
  | 95 => ⟨S256, .f32⟩
  | 96 => ⟨S_, .f32⟩
  | 97 => ⟨S_, .i1⟩
  | 98 => ⟨S_, .f32⟩
  | 99 => ⟨S_, .f32⟩
  | 100 => ⟨S256, .f32⟩
  | 101 => ⟨S256, .f32⟩
  | 102 => ⟨S1x256, .f32⟩
  | 103 => ⟨S50000x256, .f32⟩
  | 104 => ⟨S50000x256, .f32⟩
  | 105 => ⟨S_, .f32⟩
  | 106 => ⟨S256, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S_, .f32⟩
  | 122 => ⟨S256, .f32⟩
  | 123 => ⟨S_, .f32⟩
  | 124 => ⟨S256, .f32⟩
  | 125 => ⟨S256, .f32⟩
  | 126 => ⟨S_, .i32⟩
  | 127 => ⟨S_, .f32⟩
  | _ => ⟨S20000x128, .f32⟩

abbrev hbmTy0_3 (i : Nat) : BufTy := match i % 128 with
  | 0 => ⟨S256, .f32⟩
  | 1 => ⟨S1x256, .f32⟩
  | 2 => ⟨S_, .f32⟩
  | 3 => ⟨S1x256, .f32⟩
  | 4 => ⟨S1x256, .f32⟩
  | 5 => ⟨S10000x256, .f32⟩
  | 6 => ⟨S10000x256, .f32⟩
  | 7 => ⟨S10000x256, .f32⟩
  | 8 => ⟨S_, .f32⟩
  | 9 => ⟨S_, .f32⟩
  | 10 => ⟨S_, .f32⟩
  | 11 => ⟨S_, .f32⟩
  | 12 => ⟨S256, .f32⟩
  | 13 => ⟨S256, .f32⟩
  | 14 => ⟨S256, .f32⟩
  | 15 => ⟨S_, .f32⟩
  | 16 => ⟨S_, .i1⟩
  | 17 => ⟨S_, .f32⟩
  | 18 => ⟨S_, .f32⟩
  | 19 => ⟨S256, .f32⟩
  | 20 => ⟨S256, .f32⟩
  | 21 => ⟨S1x256, .f32⟩
  | 22 => ⟨S10000x256, .f32⟩
  | 23 => ⟨S10000x256, .f32⟩
  | 24 => ⟨S_, .f32⟩
  | 25 => ⟨S256, .f32⟩
  | 26 => ⟨S256, .f32⟩
  | 27 => ⟨S256, .f32⟩
  | 28 => ⟨S1x256, .f32⟩
  | 29 => ⟨S10000x256, .f32⟩
  | 30 => ⟨S10000x256, .f32⟩
  | 31 => ⟨S1x256, .f32⟩
  | 32 => ⟨S10000x256, .f32⟩
  | 33 => ⟨S10000x256, .f32⟩
  | 34 => ⟨S1x256, .f32⟩
  | 35 => ⟨S10000x256, .f32⟩
  | 36 => ⟨S10000x256, .f32⟩
  | 37 => ⟨S_, .f32⟩
  | 38 => ⟨S10000x256, .f32⟩
  | 39 => ⟨S10000x256, .f32⟩
  | 40 => ⟨S_, .f32⟩
  | 41 => ⟨S256, .f32⟩
  | 42 => ⟨S_, .f32⟩
  | 43 => ⟨S256, .f32⟩
  | 44 => ⟨S256, .f32⟩
  | 45 => ⟨S_, .i32⟩
  | 46 => ⟨S_, .f32⟩
  | 47 => ⟨S256, .f32⟩
  | 48 => ⟨S1x256, .f32⟩
  | 49 => ⟨S_, .f32⟩
  | 50 => ⟨S1x256, .f32⟩
  | 51 => ⟨S1x256, .f32⟩
  | 52 => ⟨S3000x256, .f32⟩
  | 53 => ⟨S3000x256, .f32⟩
  | 54 => ⟨S3000x256, .f32⟩
  | 55 => ⟨S_, .f32⟩
  | 56 => ⟨S_, .f32⟩
  | 57 => ⟨S_, .f32⟩
  | 58 => ⟨S_, .f32⟩
  | 59 => ⟨S256, .f32⟩
  | 60 => ⟨S256, .f32⟩
  | 61 => ⟨S256, .f32⟩
  | 62 => ⟨S_, .f32⟩
  | 63 => ⟨S_, .i1⟩
  | 64 => ⟨S_, .f32⟩
  | 65 => ⟨S_, .f32⟩
  | 66 => ⟨S256, .f32⟩
  | 67 => ⟨S256, .f32⟩
  | 68 => ⟨S1x256, .f32⟩
  | 69 => ⟨S3000x256, .f32⟩
  | 70 => ⟨S3000x256, .f32⟩
  | 71 => ⟨S_, .f32⟩
  | 72 => ⟨S256, .f32⟩
  | 73 => ⟨S256, .f32⟩
  | 74 => ⟨S256, .f32⟩
  | 75 => ⟨S1x256, .f32⟩
  | 76 => ⟨S3000x256, .f32⟩
  | 77 => ⟨S3000x256, .f32⟩
  | 78 => ⟨S1x256, .f32⟩
  | 79 => ⟨S3000x256, .f32⟩
  | 80 => ⟨S3000x256, .f32⟩
  | 81 => ⟨S1x256, .f32⟩
  | 82 => ⟨S3000x256, .f32⟩
  | 83 => ⟨S3000x256, .f32⟩
  | 84 => ⟨S_, .f32⟩
  | 85 => ⟨S3000x256, .f32⟩
  | 86 => ⟨S3000x256, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x256, .f32⟩
  | 96 => ⟨S_, .f32⟩
  | 97 => ⟨S10000x256, .f32⟩
  | 98 => ⟨S500000x1, .i32⟩
  | 99 => ⟨S10000x256, .f32⟩
  | 100 => ⟨S_, .f32⟩
  | 101 => ⟨S500000x1, .f32⟩
  | 102 => ⟨S_, .f32⟩
  | 103 => ⟨S10000x1, .f32⟩
  | 104 => ⟨S500000x1, .i32⟩
  | 105 => ⟨S10000x1, .f32⟩
  | 106 => ⟨S_, .f32⟩
  | 107 => ⟨S10000x1, .f32⟩
  | 108 => ⟨S10000x1, .f32⟩
  | 109 => ⟨S10000x256, .f32⟩
  | 110 => ⟨S10000x256, .f32⟩
  | 111 => ⟨S1x256x256, .f32⟩
  | 112 => ⟨S256x256, .f32⟩
  | 113 => ⟨S10000x256, .f32⟩
  | 114 => ⟨S1x256, .f32⟩
  | 115 => ⟨S256, .f32⟩
  | 116 => ⟨S1x256, .f32⟩
  | 117 => ⟨S10000x256, .f32⟩
  | 118 => ⟨S10000x256, .f32⟩
  | 119 => ⟨S1x256x256, .f32⟩
  | 120 => ⟨S256x256, .f32⟩
  | 121 => ⟨S10000x256, .f32⟩
  | 122 => ⟨S10000x256, .f32⟩
  | 123 => ⟨S_, .i32⟩
  | 124 => ⟨S400000, .i32⟩
  | 125 => ⟨S400000, .i1⟩
  | 126 => ⟨S_, .i32⟩
  | 127 => ⟨S400000, .i32⟩
  | _ => ⟨S20000x128, .f32⟩

abbrev hbmTy0_4 (i : Nat) : BufTy := match i % 128 with
  | 0 => ⟨S400000, .i32⟩
  | 1 => ⟨S400000, .i32⟩
  | 2 => ⟨S400000x1, .i32⟩
  | 3 => ⟨S400000x256, .f32⟩
  | 4 => ⟨S_, .f32⟩
  | 5 => ⟨S50000x256, .f32⟩
  | 6 => ⟨S400000x1, .i32⟩
  | 7 => ⟨S50000x256, .f32⟩
  | 8 => ⟨S_, .f32⟩
  | 9 => ⟨S400000x1, .f32⟩
  | 10 => ⟨S_, .f32⟩
  | 11 => ⟨S50000x1, .f32⟩
  | 12 => ⟨S400000x1, .i32⟩
  | 13 => ⟨S50000x1, .f32⟩
  | 14 => ⟨S_, .f32⟩
  | 15 => ⟨S50000x1, .f32⟩
  | 16 => ⟨S50000x1, .f32⟩
  | 17 => ⟨S50000x256, .f32⟩
  | 18 => ⟨S50000x256, .f32⟩
  | 19 => ⟨S1x256x256, .f32⟩
  | 20 => ⟨S256x256, .f32⟩
  | 21 => ⟨S50000x256, .f32⟩
  | 22 => ⟨S1x256, .f32⟩
  | 23 => ⟨S256, .f32⟩
  | 24 => ⟨S1x256, .f32⟩
  | 25 => ⟨S50000x256, .f32⟩
  | 26 => ⟨S50000x256, .f32⟩
  | 27 => ⟨S1x256x256, .f32⟩
  | 28 => ⟨S256x256, .f32⟩
  | 29 => ⟨S50000x256, .f32⟩
  | 30 => ⟨S50000x256, .f32⟩
  | 31 => ⟨S_, .i32⟩
  | 32 => ⟨S150000, .i32⟩
  | 33 => ⟨S150000, .i1⟩
  | 34 => ⟨S_, .i32⟩
  | 35 => ⟨S150000, .i32⟩
  | 36 => ⟨S150000, .i32⟩
  | 37 => ⟨S150000, .i32⟩
  | 38 => ⟨S150000x1, .i32⟩
  | 39 => ⟨S150000x256, .f32⟩
  | 40 => ⟨S_, .f32⟩
  | 41 => ⟨S3000x256, .f32⟩
  | 42 => ⟨S150000x1, .i32⟩
  | 43 => ⟨S3000x256, .f32⟩
  | 44 => ⟨S_, .f32⟩
  | 45 => ⟨S150000x1, .f32⟩
  | 46 => ⟨S_, .f32⟩
  | 47 => ⟨S3000x1, .f32⟩
  | 48 => ⟨S150000x1, .i32⟩
  | 49 => ⟨S3000x1, .f32⟩
  | 50 => ⟨S_, .f32⟩
  | 51 => ⟨S3000x1, .f32⟩
  | 52 => ⟨S3000x1, .f32⟩
  | 53 => ⟨S3000x256, .f32⟩
  | 54 => ⟨S3000x256, .f32⟩
  | 55 => ⟨S1x256x256, .f32⟩
  | 56 => ⟨S256x256, .f32⟩
  | 57 => ⟨S3000x256, .f32⟩
  | 58 => ⟨S1x256, .f32⟩
  | 59 => ⟨S256, .f32⟩
  | 60 => ⟨S1x256, .f32⟩
  | 61 => ⟨S3000x256, .f32⟩
  | 62 => ⟨S3000x256, .f32⟩
  | 63 => ⟨S1x256x256, .f32⟩
  | 64 => ⟨S256x256, .f32⟩
  | 65 => ⟨S3000x256, .f32⟩
  | 66 => ⟨S3000x256, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x256, .f32⟩
  | 76 => ⟨S_, .f32⟩
  | 77 => ⟨S10000x256, .f32⟩
  | 78 => ⟨S400000x1, .i32⟩
  | 79 => ⟨S10000x256, .f32⟩
  | 80 => ⟨S_, .f32⟩
  | 81 => ⟨S400000x1, .f32⟩
  | 82 => ⟨S_, .f32⟩
  | 83 => ⟨S10000x1, .f32⟩
  | 84 => ⟨S400000x1, .i32⟩
  | 85 => ⟨S10000x1, .f32⟩
  | 86 => ⟨S_, .f32⟩
  | 87 => ⟨S10000x1, .f32⟩
  | 88 => ⟨S10000x1, .f32⟩
  | 89 => ⟨S10000x256, .f32⟩
  | 90 => ⟨S10000x256, .f32⟩
  | 91 => ⟨S1x256x256, .f32⟩
  | 92 => ⟨S256x256, .f32⟩
  | 93 => ⟨S10000x256, .f32⟩
  | 94 => ⟨S1x256, .f32⟩
  | 95 => ⟨S256, .f32⟩
  | 96 => ⟨S1x256, .f32⟩
  | 97 => ⟨S10000x256, .f32⟩
  | 98 => ⟨S10000x256, .f32⟩
  | 99 => ⟨S1x256x256, .f32⟩
  | 100 => ⟨S256x256, .f32⟩
  | 101 => ⟨S10000x256, .f32⟩
  | 102 => ⟨S10000x256, .f32⟩
  | 103 => ⟨S10000x256, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x256, .f32⟩
  | 113 => ⟨S_, .f32⟩
  | 114 => ⟨S20000x256, .f32⟩
  | 115 => ⟨S500000x1, .i32⟩
  | 116 => ⟨S20000x256, .f32⟩
  | 117 => ⟨S_, .f32⟩
  | 118 => ⟨S500000x1, .f32⟩
  | 119 => ⟨S_, .f32⟩
  | 120 => ⟨S20000x1, .f32⟩
  | 121 => ⟨S500000x1, .i32⟩
  | 122 => ⟨S20000x1, .f32⟩
  | 123 => ⟨S_, .f32⟩
  | 124 => ⟨S20000x1, .f32⟩
  | 125 => ⟨S20000x1, .f32⟩
  | 126 => ⟨S20000x256, .f32⟩
  | 127 => ⟨S20000x256, .f32⟩
  | _ => ⟨S20000x128, .f32⟩

abbrev hbmTy0_5 (i : Nat) : BufTy := match i % 128 with
  | 0 => ⟨S1x256x256, .f32⟩
  | 1 => ⟨S256x256, .f32⟩
  | 2 => ⟨S20000x256, .f32⟩
  | 3 => ⟨S1x256, .f32⟩
  | 4 => ⟨S256, .f32⟩
  | 5 => ⟨S1x256, .f32⟩
  | 6 => ⟨S20000x256, .f32⟩
  | 7 => ⟨S20000x256, .f32⟩
  | 8 => ⟨S1x256x256, .f32⟩
  | 9 => ⟨S256x256, .f32⟩
  | 10 => ⟨S20000x256, .f32⟩
  | 11 => ⟨S20000x256, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x256, .f32⟩
  | 21 => ⟨S_, .f32⟩
  | 22 => ⟨S20000x256, .f32⟩
  | 23 => ⟨S400000x1, .i32⟩
  | 24 => ⟨S20000x256, .f32⟩
  | 25 => ⟨S_, .f32⟩
  | 26 => ⟨S400000x1, .f32⟩
  | 27 => ⟨S_, .f32⟩
  | 28 => ⟨S20000x1, .f32⟩
  | 29 => ⟨S400000x1, .i32⟩
  | 30 => ⟨S20000x1, .f32⟩
  | 31 => ⟨S_, .f32⟩
  | 32 => ⟨S20000x1, .f32⟩
  | 33 => ⟨S20000x1, .f32⟩
  | 34 => ⟨S20000x256, .f32⟩
  | 35 => ⟨S20000x256, .f32⟩
  | 36 => ⟨S1x256x256, .f32⟩
  | 37 => ⟨S256x256, .f32⟩
  | 38 => ⟨S20000x256, .f32⟩
  | 39 => ⟨S1x256, .f32⟩
  | 40 => ⟨S256, .f32⟩
  | 41 => ⟨S1x256, .f32⟩
  | 42 => ⟨S20000x256, .f32⟩
  | 43 => ⟨S20000x256, .f32⟩
  | 44 => ⟨S1x256x256, .f32⟩
  | 45 => ⟨S256x256, .f32⟩
  | 46 => ⟨S20000x256, .f32⟩
  | 47 => ⟨S20000x256, .f32⟩
  | 48 => ⟨S20000x256, .f32⟩
  | 49 => ⟨S_, .i32⟩
  | 50 => ⟨S150000, .i32⟩
  | 51 => ⟨S150000, .i1⟩
  | 52 => ⟨S_, .i32⟩
  | 53 => ⟨S150000, .i32⟩
  | 54 => ⟨S150000, .i32⟩
  | 55 => ⟨S150000, .i32⟩
  | 56 => ⟨S150000x1, .i32⟩
  | 57 => ⟨S150000x256, .f32⟩
  | 58 => ⟨S_, .f32⟩
  | 59 => ⟨S50000x256, .f32⟩
  | 60 => ⟨S150000x1, .i32⟩
  | 61 => ⟨S50000x256, .f32⟩
  | 62 => ⟨S_, .f32⟩
  | 63 => ⟨S150000x1, .f32⟩
  | 64 => ⟨S_, .f32⟩
  | 65 => ⟨S50000x1, .f32⟩
  | 66 => ⟨S150000x1, .i32⟩
  | 67 => ⟨S50000x1, .f32⟩
  | 68 => ⟨S_, .f32⟩
  | 69 => ⟨S50000x1, .f32⟩
  | 70 => ⟨S50000x1, .f32⟩
  | 71 => ⟨S50000x256, .f32⟩
  | 72 => ⟨S50000x256, .f32⟩
  | 73 => ⟨S1x256x256, .f32⟩
  | 74 => ⟨S256x256, .f32⟩
  | 75 => ⟨S50000x256, .f32⟩
  | 76 => ⟨S1x256, .f32⟩
  | 77 => ⟨S256, .f32⟩
  | 78 => ⟨S1x256, .f32⟩
  | 79 => ⟨S50000x256, .f32⟩
  | 80 => ⟨S50000x256, .f32⟩
  | 81 => ⟨S1x256x256, .f32⟩
  | 82 => ⟨S256x256, .f32⟩
  | 83 => ⟨S50000x256, .f32⟩
  | 84 => ⟨S50000x256, .f32⟩
  | 85 => ⟨S50000x256, .f32⟩
  | 86 => ⟨S_, .f32⟩
  | 87 => ⟨S256, .f32⟩
  | 88 => ⟨S_, .f32⟩
  | 89 => ⟨S256, .f32⟩
  | 90 => ⟨S256, .f32⟩
  | 91 => ⟨S_, .i32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S20000x256, .f32⟩
  | 99 => ⟨S20000x256, .f32⟩
  | 100 => ⟨S20000x256, .f32⟩
  | 101 => ⟨S_, .f32⟩
  | 102 => ⟨S_, .f32⟩
  | 103 => ⟨S_, .f32⟩
  | 104 => ⟨S_, .f32⟩
  | 105 => ⟨S256, .f32⟩
  | 106 => ⟨S256, .f32⟩
  | 107 => ⟨S256, .f32⟩
  | 108 => ⟨S_, .f32⟩
  | 109 => ⟨S_, .i1⟩
  | 110 => ⟨S_, .f32⟩
  | 111 => ⟨S_, .f32⟩
  | 112 => ⟨S256, .f32⟩
  | 113 => ⟨S256, .f32⟩
  | 114 => ⟨S1x256, .f32⟩
  | 115 => ⟨S20000x256, .f32⟩
  | 116 => ⟨S20000x256, .f32⟩
  | 117 => ⟨S_, .f32⟩
  | 118 => ⟨S256, .f32⟩
  | 119 => ⟨S256, .f32⟩
  | 120 => ⟨S256, .f32⟩
  | 121 => ⟨S1x256, .f32⟩
  | 122 => ⟨S20000x256, .f32⟩
  | 123 => ⟨S20000x256, .f32⟩
  | 124 => ⟨S1x256, .f32⟩
  | 125 => ⟨S20000x256, .f32⟩
  | 126 => ⟨S20000x256, .f32⟩
  | 127 => ⟨S1x256, .f32⟩
  | _ => ⟨S20000x128, .f32⟩

abbrev hbmTy0_6 (i : Nat) : BufTy := match i % 128 with
  | 0 => ⟨S20000x256, .f32⟩
  | 1 => ⟨S20000x256, .f32⟩
  | 2 => ⟨S_, .f32⟩
  | 3 => ⟨S20000x256, .f32⟩
  | 4 => ⟨S20000x256, .f32⟩
  | 5 => ⟨S_, .f32⟩
  | 6 => ⟨S256, .f32⟩
  | 7 => ⟨S_, .f32⟩
  | 8 => ⟨S256, .f32⟩
  | 9 => ⟨S256, .f32⟩
  | 10 => ⟨S_, .i32⟩
  | 11 => ⟨S_, .f32⟩
  | 12 => ⟨S256, .f32⟩
  | 13 => ⟨S1x256, .f32⟩
  | 14 => ⟨S_, .f32⟩
  | 15 => ⟨S1x256, .f32⟩
  | 16 => ⟨S1x256, .f32⟩
  | 17 => ⟨S50000x256, .f32⟩
  | 18 => ⟨S50000x256, .f32⟩
  | 19 => ⟨S50000x256, .f32⟩
  | 20 => ⟨S_, .f32⟩
  | 21 => ⟨S_, .f32⟩
  | 22 => ⟨S_, .f32⟩
  | 23 => ⟨S_, .f32⟩
  | 24 => ⟨S256, .f32⟩
  | 25 => ⟨S256, .f32⟩
  | 26 => ⟨S256, .f32⟩
  | 27 => ⟨S_, .f32⟩
  | 28 => ⟨S_, .i1⟩
  | 29 => ⟨S_, .f32⟩
  | 30 => ⟨S_, .f32⟩
  | 31 => ⟨S256, .f32⟩
  | 32 => ⟨S256, .f32⟩
  | 33 => ⟨S1x256, .f32⟩
  | 34 => ⟨S50000x256, .f32⟩
  | 35 => ⟨S50000x256, .f32⟩
  | 36 => ⟨S_, .f32⟩
  | 37 => ⟨S256, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S50000x256, .f32⟩
  | 51 => ⟨S50000x256, .f32⟩
  | 52 => ⟨S_, .f32⟩
  | 53 => ⟨S256, .f32⟩
  | 54 => ⟨S_, .f32⟩
  | 55 => ⟨S256, .f32⟩
  | 56 => ⟨S256, .f32⟩
  | 57 => ⟨S_, .i32⟩
  | 58 => ⟨S_, .f32⟩
  | 59 => ⟨S256, .f32⟩
  | 60 => ⟨S1x256, .f32⟩
  | 61 => ⟨S_, .f32⟩
  | 62 => ⟨S1x256, .f32⟩
  | 63 => ⟨S1x256, .f32⟩
  | 64 => ⟨S10000x256, .f32⟩
  | 65 => ⟨S10000x256, .f32⟩
  | 66 => ⟨S10000x256, .f32⟩
  | 67 => ⟨S_, .f32⟩
  | 68 => ⟨S_, .f32⟩
  | 69 => ⟨S_, .f32⟩
  | 70 => ⟨S_, .f32⟩
  | 71 => ⟨S256, .f32⟩
  | 72 => ⟨S256, .f32⟩
  | 73 => ⟨S256, .f32⟩
  | 74 => ⟨S_, .f32⟩
  | 75 => ⟨S_, .i1⟩
  | 76 => ⟨S_, .f32⟩
  | 77 => ⟨S_, .f32⟩
  | 78 => ⟨S256, .f32⟩
  | 79 => ⟨S256, .f32⟩
  | 80 => ⟨S1x256, .f32⟩
  | 81 => ⟨S10000x256, .f32⟩
  | 82 => ⟨S10000x256, .f32⟩
  | 83 => ⟨S_, .f32⟩
  | 84 => ⟨S256, .f32⟩
  | 85 => ⟨S256, .f32⟩
  | 86 => ⟨S256, .f32⟩
  | 87 => ⟨S1x256, .f32⟩
  | 88 => ⟨S10000x256, .f32⟩
  | 89 => ⟨S10000x256, .f32⟩
  | 90 => ⟨S1x256, .f32⟩
  | 91 => ⟨S10000x256, .f32⟩
  | 92 => ⟨S10000x256, .f32⟩
  | 93 => ⟨S1x256, .f32⟩
  | 94 => ⟨S10000x256, .f32⟩
  | 95 => ⟨S10000x256, .f32⟩
  | 96 => ⟨S_, .f32⟩
  | 97 => ⟨S10000x256, .f32⟩
  | 98 => ⟨S10000x256, .f32⟩
  | 99 => ⟨S_, .f32⟩
  | 100 => ⟨S256, .f32⟩
  | 101 => ⟨S_, .f32⟩
  | 102 => ⟨S256, .f32⟩
  | 103 => ⟨S256, .f32⟩
  | 104 => ⟨S_, .i32⟩
  | 105 => ⟨S_, .f32⟩
  | 106 => ⟨S256, .f32⟩
  | 107 => ⟨S1x256, .f32⟩
  | 108 => ⟨S_, .f32⟩
  | 109 => ⟨S1x256, .f32⟩
  | 110 => ⟨S1x256, .f32⟩
  | 111 => ⟨S3000x256, .f32⟩
  | 112 => ⟨S3000x256, .f32⟩
  | 113 => ⟨S3000x256, .f32⟩
  | 114 => ⟨S_, .f32⟩
  | 115 => ⟨S_, .f32⟩
  | 116 => ⟨S_, .f32⟩
  | 117 => ⟨S_, .f32⟩
  | 118 => ⟨S256, .f32⟩
  | 119 => ⟨S256, .f32⟩
  | 120 => ⟨S256, .f32⟩
  | 121 => ⟨S_, .f32⟩
  | 122 => ⟨S_, .i1⟩
  | 123 => ⟨S_, .f32⟩
  | 124 => ⟨S_, .f32⟩
  | 125 => ⟨S256, .f32⟩
  | 126 => ⟨S256, .f32⟩
  | 127 => ⟨S1x256, .f32⟩
  | _ => ⟨S20000x128, .f32⟩

abbrev hbmTy0_7 (i : Nat) : BufTy := match i % 128 with
  | 0 => ⟨S3000x256, .f32⟩
  | 1 => ⟨S3000x256, .f32⟩
  | 2 => ⟨S_, .f32⟩
  | 3 => ⟨S256, .f32⟩
  | 4 => ⟨S256, .f32⟩
  | 5 => ⟨S256, .f32⟩
  | 6 => ⟨S1x256, .f32⟩
  | 7 => ⟨S3000x256, .f32⟩
  | 8 => ⟨S3000x256, .f32⟩
  | 9 => ⟨S1x256, .f32⟩
  | 10 => ⟨S3000x256, .f32⟩
  | 11 => ⟨S3000x256, .f32⟩
  | 12 => ⟨S1x256, .f32⟩
  | 13 => ⟨S3000x256, .f32⟩
  | 14 => ⟨S3000x256, .f32⟩
  | 15 => ⟨S_, .f32⟩
  | 16 => ⟨S3000x256, .f32⟩
  | 17 => ⟨S3000x256, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_c_5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_6 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_cst_8 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_10 : Ref sig .tc := ⟨.hbm, 100, rfl⟩
abbrev main_v60 : Ref sig .tc := ⟨.hbm, 101, rfl⟩
abbrev main_v61 : Ref sig .tc := ⟨.hbm, 102, rfl⟩
abbrev main_c_11 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_cst_14 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_16 : Ref sig .tc := ⟨.hbm, 136, rfl⟩
abbrev main_v90 : Ref sig .tc := ⟨.hbm, 137, rfl⟩
abbrev main_v91 : Ref sig .tc := ⟨.hbm, 138, rfl⟩
abbrev main_c_17 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_18 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_19 : Ref sig .tc := ⟨.hbm, 149, rfl⟩
abbrev main_v100 : Ref sig .tc := ⟨.hbm, 150, rfl⟩
abbrev main_cst_20 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_21 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_22 : Ref sig .tc := ⟨.hbm, 173, rfl⟩
abbrev main_v121 : Ref sig .tc := ⟨.hbm, 174, rfl⟩
abbrev main_v122 : Ref sig .tc := ⟨.hbm, 175, rfl⟩
abbrev main_c_23 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_24 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_25 : Ref sig .tc := ⟨.hbm, 186, rfl⟩
abbrev main_v131 : Ref sig .tc := ⟨.hbm, 187, rfl⟩
abbrev main_cst_26 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_27 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_c_28 : Ref sig .tc := ⟨.hbm, 209, rfl⟩
abbrev main_v151 : Ref sig .tc := ⟨.hbm, 210, rfl⟩
abbrev main_v152 : Ref sig .tc := ⟨.hbm, 211, rfl⟩
abbrev main_c_29 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_30 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_31 : Ref sig .tc := ⟨.hbm, 222, rfl⟩
abbrev main_v161 : Ref sig .tc := ⟨.hbm, 223, rfl⟩
abbrev main_cst_32 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_33 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_c_34 : Ref sig .tc := ⟨.hbm, 246, rfl⟩
abbrev main_v182 : Ref sig .tc := ⟨.hbm, 247, rfl⟩
abbrev main_v183 : Ref sig .tc := ⟨.hbm, 248, rfl⟩
abbrev main_c_35 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_36 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_37 : Ref sig .tc := ⟨.hbm, 259, rfl⟩
abbrev main_v192 : Ref sig .tc := ⟨.hbm, 260, rfl⟩
abbrev main_cst_38 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_cst_39 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_40 : Ref sig .tc := ⟨.hbm, 283, rfl⟩
abbrev main_v213 : Ref sig .tc := ⟨.hbm, 284, rfl⟩
abbrev main_cst_41 : Ref sig .tc := ⟨.hbm, 285, rfl⟩
abbrev main_v214 : Ref sig .tc := ⟨.hbm, 286, rfl⟩
abbrev main_v215 : Ref sig .tc := ⟨.hbm, 287, rfl⟩
abbrev main_c_42 : Ref sig .tc := ⟨.hbm, 288, rfl⟩
abbrev main_call0_cst : Ref sig .tc := ⟨.hbm, 289, rfl⟩
abbrev main_call0_v0 : Ref sig .tc := ⟨.hbm, 290, rfl⟩
abbrev main_call0_v1 : Ref sig .tc := ⟨.hbm, 291, rfl⟩
abbrev main_call0_cst_0 : Ref sig .tc := ⟨.hbm, 292, rfl⟩
abbrev main_call0_v2 : Ref sig .tc := ⟨.hbm, 293, rfl⟩
abbrev main_call0_v3 : Ref sig .tc := ⟨.hbm, 294, rfl⟩
abbrev main_call0_v4 : Ref sig .tc := ⟨.hbm, 295, rfl⟩
abbrev main_call0_v5 : Ref sig .tc := ⟨.hbm, 296, rfl⟩
abbrev main_call0_v6 : Ref sig .tc := ⟨.hbm, 297, rfl⟩
abbrev main_call0_v7 : Ref sig .tc := ⟨.hbm, 298, rfl⟩
abbrev main_call0_cst_1 : Ref sig .tc := ⟨.hbm, 299, rfl⟩
abbrev main_call0_v8 : Ref sig .tc := ⟨.hbm, 300, rfl⟩
abbrev main_call0_cst_2 : Ref sig .tc := ⟨.hbm, 301, rfl⟩
abbrev main_call0_v9 : Ref sig .tc := ⟨.hbm, 302, rfl⟩
abbrev main_call0_v10 : Ref sig .tc := ⟨.hbm, 303, rfl⟩
abbrev main_call0_v11 : Ref sig .tc := ⟨.hbm, 304, rfl⟩
abbrev main_call0_cst_3 : Ref sig .tc := ⟨.hbm, 305, rfl⟩
abbrev main_call0_v12 : Ref sig .tc := ⟨.hbm, 306, rfl⟩
abbrev main_call0_cst_4 : Ref sig .tc := ⟨.hbm, 307, rfl⟩
abbrev main_call0_call0_v0 : Ref sig .tc := ⟨.hbm, 308, rfl⟩
abbrev main_call0_call0_v1 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_cst_43 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_call1_cst : Ref sig .tc := ⟨.hbm, 327, rfl⟩
abbrev main_call1_v0 : Ref sig .tc := ⟨.hbm, 328, rfl⟩
abbrev main_v232 : Ref sig .tc := ⟨.hbm, 329, rfl⟩
abbrev main_cst_44 : Ref sig .tc := ⟨.hbm, 330, rfl⟩
abbrev main_v233 : Ref sig .tc := ⟨.hbm, 331, rfl⟩
abbrev main_cst_45 : Ref sig .tc := ⟨.hbm, 332, rfl⟩
abbrev main_v234 : Ref sig .tc := ⟨.hbm, 333, rfl⟩
abbrev main_v235 : Ref sig .tc := ⟨.hbm, 334, rfl⟩
abbrev main_c_46 : Ref sig .tc := ⟨.hbm, 335, rfl⟩
abbrev main_call2_cst : Ref sig .tc := ⟨.hbm, 336, rfl⟩
abbrev main_call2_v0 : Ref sig .tc := ⟨.hbm, 337, rfl⟩
abbrev main_call2_v1 : Ref sig .tc := ⟨.hbm, 338, rfl⟩
abbrev main_call2_cst_0 : Ref sig .tc := ⟨.hbm, 339, rfl⟩
abbrev main_call2_v2 : Ref sig .tc := ⟨.hbm, 340, rfl⟩
abbrev main_call2_v3 : Ref sig .tc := ⟨.hbm, 341, rfl⟩
abbrev main_call2_v4 : Ref sig .tc := ⟨.hbm, 342, rfl⟩
abbrev main_call2_v5 : Ref sig .tc := ⟨.hbm, 343, rfl⟩
abbrev main_call2_v6 : Ref sig .tc := ⟨.hbm, 344, rfl⟩
abbrev main_call2_v7 : Ref sig .tc := ⟨.hbm, 345, rfl⟩
abbrev main_call2_cst_1 : Ref sig .tc := ⟨.hbm, 346, rfl⟩
abbrev main_call2_v8 : Ref sig .tc := ⟨.hbm, 347, rfl⟩
abbrev main_call2_cst_2 : Ref sig .tc := ⟨.hbm, 348, rfl⟩
abbrev main_call2_v9 : Ref sig .tc := ⟨.hbm, 349, rfl⟩
abbrev main_call2_v10 : Ref sig .tc := ⟨.hbm, 350, rfl⟩
abbrev main_call2_v11 : Ref sig .tc := ⟨.hbm, 351, rfl⟩
abbrev main_call2_cst_3 : Ref sig .tc := ⟨.hbm, 352, rfl⟩
abbrev main_call2_v12 : Ref sig .tc := ⟨.hbm, 353, rfl⟩
abbrev main_call2_cst_4 : Ref sig .tc := ⟨.hbm, 354, rfl⟩
abbrev main_call2_call0_v0 : Ref sig .tc := ⟨.hbm, 355, rfl⟩
abbrev main_call2_call0_v1 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_cst_47 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_call3_cst : Ref sig .tc := ⟨.hbm, 374, rfl⟩
abbrev main_call3_v0 : Ref sig .tc := ⟨.hbm, 375, rfl⟩
abbrev main_v252 : Ref sig .tc := ⟨.hbm, 376, rfl⟩
abbrev main_cst_48 : Ref sig .tc := ⟨.hbm, 377, rfl⟩
abbrev main_v253 : Ref sig .tc := ⟨.hbm, 378, rfl⟩
abbrev main_cst_49 : Ref sig .tc := ⟨.hbm, 379, rfl⟩
abbrev main_v254 : Ref sig .tc := ⟨.hbm, 380, rfl⟩
abbrev main_v255 : Ref sig .tc := ⟨.hbm, 381, rfl⟩
abbrev main_c_50 : Ref sig .tc := ⟨.hbm, 382, rfl⟩
abbrev main_call4_cst : Ref sig .tc := ⟨.hbm, 383, rfl⟩
abbrev main_call4_v0 : Ref sig .tc := ⟨.hbm, 384, rfl⟩
abbrev main_call4_v1 : Ref sig .tc := ⟨.hbm, 385, rfl⟩
abbrev main_call4_cst_0 : Ref sig .tc := ⟨.hbm, 386, rfl⟩
abbrev main_call4_v2 : Ref sig .tc := ⟨.hbm, 387, rfl⟩
abbrev main_call4_v3 : Ref sig .tc := ⟨.hbm, 388, rfl⟩
abbrev main_call4_v4 : Ref sig .tc := ⟨.hbm, 389, rfl⟩
abbrev main_call4_v5 : Ref sig .tc := ⟨.hbm, 390, rfl⟩
abbrev main_call4_v6 : Ref sig .tc := ⟨.hbm, 391, rfl⟩
abbrev main_call4_v7 : Ref sig .tc := ⟨.hbm, 392, rfl⟩
abbrev main_call4_cst_1 : Ref sig .tc := ⟨.hbm, 393, rfl⟩
abbrev main_call4_v8 : Ref sig .tc := ⟨.hbm, 394, rfl⟩
abbrev main_call4_cst_2 : Ref sig .tc := ⟨.hbm, 395, rfl⟩
abbrev main_call4_v9 : Ref sig .tc := ⟨.hbm, 396, rfl⟩
abbrev main_call4_v10 : Ref sig .tc := ⟨.hbm, 397, rfl⟩
abbrev main_call4_v11 : Ref sig .tc := ⟨.hbm, 398, rfl⟩
abbrev main_call4_cst_3 : Ref sig .tc := ⟨.hbm, 399, rfl⟩
abbrev main_call4_v12 : Ref sig .tc := ⟨.hbm, 400, rfl⟩
abbrev main_call4_cst_4 : Ref sig .tc := ⟨.hbm, 401, rfl⟩
abbrev main_call4_call0_v0 : Ref sig .tc := ⟨.hbm, 402, rfl⟩
abbrev main_call4_call0_v1 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_v259 : Ref sig .tc := ⟨.hbm, 407, rfl⟩
abbrev main_cst_51 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_call5_cst : Ref sig .tc := ⟨.hbm, 421, rfl⟩
abbrev main_call5_v0 : Ref sig .tc := ⟨.hbm, 422, rfl⟩
abbrev main_v272 : Ref sig .tc := ⟨.hbm, 423, rfl⟩
abbrev main_cst_52 : Ref sig .tc := ⟨.hbm, 424, rfl⟩
abbrev main_v273 : Ref sig .tc := ⟨.hbm, 425, rfl⟩
abbrev main_cst_53 : Ref sig .tc := ⟨.hbm, 426, rfl⟩
abbrev main_v274 : Ref sig .tc := ⟨.hbm, 427, rfl⟩
abbrev main_v275 : Ref sig .tc := ⟨.hbm, 428, rfl⟩
abbrev main_c_54 : Ref sig .tc := ⟨.hbm, 429, rfl⟩
abbrev main_call6_cst : Ref sig .tc := ⟨.hbm, 430, rfl⟩
abbrev main_call6_v0 : Ref sig .tc := ⟨.hbm, 431, rfl⟩
abbrev main_call6_v1 : Ref sig .tc := ⟨.hbm, 432, rfl⟩
abbrev main_call6_cst_0 : Ref sig .tc := ⟨.hbm, 433, rfl⟩
abbrev main_call6_v2 : Ref sig .tc := ⟨.hbm, 434, rfl⟩
abbrev main_call6_v3 : Ref sig .tc := ⟨.hbm, 435, rfl⟩
abbrev main_call6_v4 : Ref sig .tc := ⟨.hbm, 436, rfl⟩
abbrev main_call6_v5 : Ref sig .tc := ⟨.hbm, 437, rfl⟩
abbrev main_call6_v6 : Ref sig .tc := ⟨.hbm, 438, rfl⟩
abbrev main_call6_v7 : Ref sig .tc := ⟨.hbm, 439, rfl⟩
abbrev main_call6_cst_1 : Ref sig .tc := ⟨.hbm, 440, rfl⟩
abbrev main_call6_v8 : Ref sig .tc := ⟨.hbm, 441, rfl⟩
abbrev main_call6_cst_2 : Ref sig .tc := ⟨.hbm, 442, rfl⟩
abbrev main_call6_v9 : Ref sig .tc := ⟨.hbm, 443, rfl⟩
abbrev main_call6_v10 : Ref sig .tc := ⟨.hbm, 444, rfl⟩
abbrev main_call6_v11 : Ref sig .tc := ⟨.hbm, 445, rfl⟩
abbrev main_call6_cst_3 : Ref sig .tc := ⟨.hbm, 446, rfl⟩
abbrev main_call6_v12 : Ref sig .tc := ⟨.hbm, 447, rfl⟩
abbrev main_call6_cst_4 : Ref sig .tc := ⟨.hbm, 448, rfl⟩
abbrev main_call6_call0_v0 : Ref sig .tc := ⟨.hbm, 449, rfl⟩
abbrev main_call6_call0_v1 : Ref sig .tc := ⟨.hbm, 450, rfl⟩
abbrev main_v276 : Ref sig .tc := ⟨.hbm, 451, rfl⟩
abbrev main_v277 : Ref sig .tc := ⟨.hbm, 452, rfl⟩
abbrev main_v278 : Ref sig .tc := ⟨.hbm, 453, rfl⟩
abbrev main_v279 : Ref sig .tc := ⟨.hbm, 454, rfl⟩
abbrev main_cst_55 : Ref sig .tc := ⟨.hbm, 455, rfl⟩
abbrev main_v280 : Ref sig .tc := ⟨.hbm, 456, rfl⟩
abbrev main_v281 : Ref sig .tc := ⟨.hbm, 457, rfl⟩
abbrev main_v282 : Ref sig .tc := ⟨.hbm, 458, rfl⟩
abbrev main_v283 : Ref sig .tc := ⟨.hbm, 459, rfl⟩
abbrev main_v284 : Ref sig .tc := ⟨.hbm, 460, rfl⟩
abbrev main_v285 : Ref sig .tc := ⟨.hbm, 461, rfl⟩
abbrev main_v286 : Ref sig .tc := ⟨.hbm, 462, rfl⟩
abbrev main_v287 : Ref sig .tc := ⟨.hbm, 463, rfl⟩
abbrev main_v288 : Ref sig .tc := ⟨.hbm, 464, rfl⟩
abbrev main_v289 : Ref sig .tc := ⟨.hbm, 465, rfl⟩
abbrev main_v290 : Ref sig .tc := ⟨.hbm, 466, rfl⟩
abbrev main_v291 : Ref sig .tc := ⟨.hbm, 467, rfl⟩
abbrev main_call7_cst : Ref sig .tc := ⟨.hbm, 468, rfl⟩
abbrev main_call7_v0 : Ref sig .tc := ⟨.hbm, 469, rfl⟩
abbrev main_v292 : Ref sig .tc := ⟨.hbm, 470, rfl⟩
abbrev main_c_56 : Ref sig .tc := ⟨.hbm, 471, rfl⟩
abbrev main_v293 : Ref sig .tc := ⟨.hbm, 472, rfl⟩
abbrev main_v294 : Ref sig .tc := ⟨.hbm, 473, rfl⟩
abbrev main_c_57 : Ref sig .tc := ⟨.hbm, 474, rfl⟩
abbrev main_v295 : Ref sig .tc := ⟨.hbm, 475, rfl⟩
abbrev main_v296 : Ref sig .tc := ⟨.hbm, 476, rfl⟩
abbrev main_v297 : Ref sig .tc := ⟨.hbm, 477, rfl⟩
abbrev main_v298 : Ref sig .tc := ⟨.hbm, 478, rfl⟩
abbrev main_v299 : Ref sig .tc := ⟨.hbm, 479, rfl⟩
abbrev main_cst_58 : Ref sig .tc := ⟨.hbm, 480, rfl⟩
abbrev main_v300 : Ref sig .tc := ⟨.hbm, 481, rfl⟩
abbrev main_v301 : Ref sig .tc := ⟨.hbm, 482, rfl⟩
abbrev main_v302 : Ref sig .tc := ⟨.hbm, 483, rfl⟩
abbrev main_cst_59 : Ref sig .tc := ⟨.hbm, 484, rfl⟩
abbrev main_v303 : Ref sig .tc := ⟨.hbm, 485, rfl⟩
abbrev main_cst_60 : Ref sig .tc := ⟨.hbm, 486, rfl⟩
abbrev main_v304 : Ref sig .tc := ⟨.hbm, 487, rfl⟩
abbrev main_v305 : Ref sig .tc := ⟨.hbm, 488, rfl⟩
abbrev main_v306 : Ref sig .tc := ⟨.hbm, 489, rfl⟩
abbrev main_cst_61 : Ref sig .tc := ⟨.hbm, 490, rfl⟩
abbrev main_v307 : Ref sig .tc := ⟨.hbm, 491, rfl⟩
abbrev main_v308 : Ref sig .tc := ⟨.hbm, 492, rfl⟩
abbrev main_v309 : Ref sig .tc := ⟨.hbm, 493, rfl⟩
abbrev main_v310 : Ref sig .tc := ⟨.hbm, 494, rfl⟩
abbrev main_v311 : Ref sig .tc := ⟨.hbm, 495, rfl⟩
abbrev main_v312 : Ref sig .tc := ⟨.hbm, 496, rfl⟩
abbrev main_v313 : Ref sig .tc := ⟨.hbm, 497, rfl⟩
abbrev main_v314 : Ref sig .tc := ⟨.hbm, 498, rfl⟩
abbrev main_v315 : Ref sig .tc := ⟨.hbm, 499, rfl⟩
abbrev main_v316 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_v320 : Ref sig .tc := ⟨.hbm, 504, rfl⟩
abbrev main_v321 : Ref sig .tc := ⟨.hbm, 505, rfl⟩
abbrev main_v322 : Ref sig .tc := ⟨.hbm, 506, rfl⟩
abbrev main_c_62 : Ref sig .tc := ⟨.hbm, 507, rfl⟩
abbrev main_v323 : Ref sig .tc := ⟨.hbm, 508, rfl⟩
abbrev main_v324 : Ref sig .tc := ⟨.hbm, 509, rfl⟩
abbrev main_c_63 : Ref sig .tc := ⟨.hbm, 510, rfl⟩
abbrev main_v325 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_cst_64 : Ref sig .tc := ⟨.hbm, 516, rfl⟩
abbrev main_v330 : Ref sig .tc := ⟨.hbm, 517, rfl⟩
abbrev main_v331 : Ref sig .tc := ⟨.hbm, 518, rfl⟩
abbrev main_v332 : Ref sig .tc := ⟨.hbm, 519, rfl⟩
abbrev main_cst_65 : Ref sig .tc := ⟨.hbm, 520, rfl⟩
abbrev main_v333 : Ref sig .tc := ⟨.hbm, 521, rfl⟩
abbrev main_cst_66 : Ref sig .tc := ⟨.hbm, 522, rfl⟩
abbrev main_v334 : Ref sig .tc := ⟨.hbm, 523, rfl⟩
abbrev main_v335 : Ref sig .tc := ⟨.hbm, 524, rfl⟩
abbrev main_v336 : Ref sig .tc := ⟨.hbm, 525, rfl⟩
abbrev main_cst_67 : Ref sig .tc := ⟨.hbm, 526, rfl⟩
abbrev main_v337 : Ref sig .tc := ⟨.hbm, 527, rfl⟩
abbrev main_v338 : Ref sig .tc := ⟨.hbm, 528, rfl⟩
abbrev main_v339 : Ref sig .tc := ⟨.hbm, 529, rfl⟩
abbrev main_v340 : Ref sig .tc := ⟨.hbm, 530, rfl⟩
abbrev main_v341 : Ref sig .tc := ⟨.hbm, 531, rfl⟩
abbrev main_v342 : Ref sig .tc := ⟨.hbm, 532, rfl⟩
abbrev main_v343 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_v347 : Ref sig .tc := ⟨.hbm, 537, rfl⟩
abbrev main_v348 : Ref sig .tc := ⟨.hbm, 538, rfl⟩
abbrev main_v349 : Ref sig .tc := ⟨.hbm, 539, rfl⟩
abbrev main_v350 : Ref sig .tc := ⟨.hbm, 540, rfl⟩
abbrev main_v351 : Ref sig .tc := ⟨.hbm, 541, rfl⟩
abbrev main_v352 : Ref sig .tc := ⟨.hbm, 542, rfl⟩
abbrev main_c_68 : Ref sig .tc := ⟨.hbm, 543, rfl⟩
abbrev main_v353 : Ref sig .tc := ⟨.hbm, 544, rfl⟩
abbrev main_v354 : Ref sig .tc := ⟨.hbm, 545, rfl⟩
abbrev main_c_69 : Ref sig .tc := ⟨.hbm, 546, rfl⟩
abbrev main_v355 : Ref sig .tc := ⟨.hbm, 547, rfl⟩
abbrev main_v356 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_cst_70 : Ref sig .tc := ⟨.hbm, 552, rfl⟩
abbrev main_v360 : Ref sig .tc := ⟨.hbm, 553, rfl⟩
abbrev main_v361 : Ref sig .tc := ⟨.hbm, 554, rfl⟩
abbrev main_v362 : Ref sig .tc := ⟨.hbm, 555, rfl⟩
abbrev main_cst_71 : Ref sig .tc := ⟨.hbm, 556, rfl⟩
abbrev main_v363 : Ref sig .tc := ⟨.hbm, 557, rfl⟩
abbrev main_cst_72 : Ref sig .tc := ⟨.hbm, 558, rfl⟩
abbrev main_v364 : Ref sig .tc := ⟨.hbm, 559, rfl⟩
abbrev main_v365 : Ref sig .tc := ⟨.hbm, 560, rfl⟩
abbrev main_v366 : Ref sig .tc := ⟨.hbm, 561, rfl⟩
abbrev main_cst_73 : Ref sig .tc := ⟨.hbm, 562, rfl⟩
abbrev main_v367 : Ref sig .tc := ⟨.hbm, 563, rfl⟩
abbrev main_v368 : Ref sig .tc := ⟨.hbm, 564, rfl⟩
abbrev main_v369 : Ref sig .tc := ⟨.hbm, 565, rfl⟩
abbrev main_v370 : Ref sig .tc := ⟨.hbm, 566, rfl⟩
abbrev main_v371 : Ref sig .tc := ⟨.hbm, 567, rfl⟩
abbrev main_v372 : Ref sig .tc := ⟨.hbm, 568, rfl⟩
abbrev main_v373 : Ref sig .tc := ⟨.hbm, 569, rfl⟩
abbrev main_v374 : Ref sig .tc := ⟨.hbm, 570, rfl⟩
abbrev main_v375 : Ref sig .tc := ⟨.hbm, 571, rfl⟩
abbrev main_v376 : Ref sig .tc := ⟨.hbm, 572, rfl⟩
abbrev main_v377 : Ref sig .tc := ⟨.hbm, 573, rfl⟩
abbrev main_v378 : Ref sig .tc := ⟨.hbm, 574, rfl⟩
abbrev main_v379 : Ref sig .tc := ⟨.hbm, 575, rfl⟩
abbrev main_v380 : Ref sig .tc := ⟨.hbm, 576, rfl⟩
abbrev main_v381 : Ref sig .tc := ⟨.hbm, 577, rfl⟩
abbrev main_v382 : Ref sig .tc := ⟨.hbm, 578, rfl⟩
abbrev main_c_74 : Ref sig .tc := ⟨.hbm, 579, rfl⟩
abbrev main_v383 : Ref sig .tc := ⟨.hbm, 580, rfl⟩
abbrev main_v384 : Ref sig .tc := ⟨.hbm, 581, rfl⟩
abbrev main_c_75 : Ref sig .tc := ⟨.hbm, 582, rfl⟩
abbrev main_v385 : Ref sig .tc := ⟨.hbm, 583, rfl⟩
abbrev main_v386 : Ref sig .tc := ⟨.hbm, 584, rfl⟩
abbrev main_v387 : Ref sig .tc := ⟨.hbm, 585, rfl⟩
abbrev main_v388 : Ref sig .tc := ⟨.hbm, 586, rfl⟩
abbrev main_v389 : Ref sig .tc := ⟨.hbm, 587, rfl⟩
abbrev main_cst_76 : Ref sig .tc := ⟨.hbm, 588, rfl⟩
abbrev main_v390 : Ref sig .tc := ⟨.hbm, 589, rfl⟩
abbrev main_v391 : Ref sig .tc := ⟨.hbm, 590, rfl⟩
abbrev main_v392 : Ref sig .tc := ⟨.hbm, 591, rfl⟩
abbrev main_cst_77 : Ref sig .tc := ⟨.hbm, 592, rfl⟩
abbrev main_v393 : Ref sig .tc := ⟨.hbm, 593, rfl⟩
abbrev main_cst_78 : Ref sig .tc := ⟨.hbm, 594, rfl⟩
abbrev main_v394 : Ref sig .tc := ⟨.hbm, 595, rfl⟩
abbrev main_v395 : Ref sig .tc := ⟨.hbm, 596, rfl⟩
abbrev main_v396 : Ref sig .tc := ⟨.hbm, 597, rfl⟩
abbrev main_cst_79 : Ref sig .tc := ⟨.hbm, 598, rfl⟩
abbrev main_v397 : Ref sig .tc := ⟨.hbm, 599, rfl⟩
abbrev main_v398 : Ref sig .tc := ⟨.hbm, 600, rfl⟩
abbrev main_v399 : Ref sig .tc := ⟨.hbm, 601, rfl⟩
abbrev main_v400 : Ref sig .tc := ⟨.hbm, 602, rfl⟩
abbrev main_v401 : Ref sig .tc := ⟨.hbm, 603, rfl⟩
abbrev main_v402 : Ref sig .tc := ⟨.hbm, 604, rfl⟩
abbrev main_v403 : Ref sig .tc := ⟨.hbm, 605, rfl⟩
abbrev main_v404 : Ref sig .tc := ⟨.hbm, 606, rfl⟩
abbrev main_v405 : Ref sig .tc := ⟨.hbm, 607, rfl⟩
abbrev main_v406 : Ref sig .tc := ⟨.hbm, 608, rfl⟩
abbrev main_v407 : Ref sig .tc := ⟨.hbm, 609, rfl⟩
abbrev main_v408 : Ref sig .tc := ⟨.hbm, 610, rfl⟩
abbrev main_v409 : Ref sig .tc := ⟨.hbm, 611, rfl⟩
abbrev main_v410 : Ref sig .tc := ⟨.hbm, 612, rfl⟩
abbrev main_v411 : Ref sig .tc := ⟨.hbm, 613, rfl⟩
abbrev main_v412 : Ref sig .tc := ⟨.hbm, 614, rfl⟩
abbrev main_v413 : Ref sig .tc := ⟨.hbm, 615, rfl⟩
abbrev main_c_80 : Ref sig .tc := ⟨.hbm, 616, rfl⟩
abbrev main_v414 : Ref sig .tc := ⟨.hbm, 617, rfl⟩
abbrev main_v415 : Ref sig .tc := ⟨.hbm, 618, rfl⟩
abbrev main_c_81 : Ref sig .tc := ⟨.hbm, 619, rfl⟩
abbrev main_v416 : Ref sig .tc := ⟨.hbm, 620, rfl⟩
abbrev main_v417 : Ref sig .tc := ⟨.hbm, 621, rfl⟩
abbrev main_v418 : Ref sig .tc := ⟨.hbm, 622, rfl⟩
abbrev main_v419 : Ref sig .tc := ⟨.hbm, 623, rfl⟩
abbrev main_v420 : Ref sig .tc := ⟨.hbm, 624, rfl⟩
abbrev main_cst_82 : Ref sig .tc := ⟨.hbm, 625, rfl⟩
abbrev main_v421 : Ref sig .tc := ⟨.hbm, 626, rfl⟩
abbrev main_v422 : Ref sig .tc := ⟨.hbm, 627, rfl⟩
abbrev main_v423 : Ref sig .tc := ⟨.hbm, 628, rfl⟩
abbrev main_cst_83 : Ref sig .tc := ⟨.hbm, 629, rfl⟩
abbrev main_v424 : Ref sig .tc := ⟨.hbm, 630, rfl⟩
abbrev main_cst_84 : Ref sig .tc := ⟨.hbm, 631, rfl⟩
abbrev main_v425 : Ref sig .tc := ⟨.hbm, 632, rfl⟩
abbrev main_v426 : Ref sig .tc := ⟨.hbm, 633, rfl⟩
abbrev main_v427 : Ref sig .tc := ⟨.hbm, 634, rfl⟩
abbrev main_cst_85 : Ref sig .tc := ⟨.hbm, 635, rfl⟩
abbrev main_v428 : Ref sig .tc := ⟨.hbm, 636, rfl⟩
abbrev main_v429 : Ref sig .tc := ⟨.hbm, 637, rfl⟩
abbrev main_v430 : Ref sig .tc := ⟨.hbm, 638, rfl⟩
abbrev main_v431 : Ref sig .tc := ⟨.hbm, 639, rfl⟩
abbrev main_v432 : Ref sig .tc := ⟨.hbm, 640, rfl⟩
abbrev main_v433 : Ref sig .tc := ⟨.hbm, 641, rfl⟩
abbrev main_v434 : Ref sig .tc := ⟨.hbm, 642, rfl⟩
abbrev main_v435 : Ref sig .tc := ⟨.hbm, 643, rfl⟩
abbrev main_v436 : Ref sig .tc := ⟨.hbm, 644, rfl⟩
abbrev main_v437 : Ref sig .tc := ⟨.hbm, 645, rfl⟩
abbrev main_v438 : Ref sig .tc := ⟨.hbm, 646, rfl⟩
abbrev main_v439 : Ref sig .tc := ⟨.hbm, 647, rfl⟩
abbrev main_v440 : Ref sig .tc := ⟨.hbm, 648, rfl⟩
abbrev main_v441 : Ref sig .tc := ⟨.hbm, 649, rfl⟩
abbrev main_v442 : Ref sig .tc := ⟨.hbm, 650, rfl⟩
abbrev main_v443 : Ref sig .tc := ⟨.hbm, 651, rfl⟩
abbrev main_c_86 : Ref sig .tc := ⟨.hbm, 652, rfl⟩
abbrev main_v444 : Ref sig .tc := ⟨.hbm, 653, rfl⟩
abbrev main_v445 : Ref sig .tc := ⟨.hbm, 654, rfl⟩
abbrev main_c_87 : Ref sig .tc := ⟨.hbm, 655, rfl⟩
abbrev main_v446 : Ref sig .tc := ⟨.hbm, 656, rfl⟩
abbrev main_v447 : Ref sig .tc := ⟨.hbm, 657, rfl⟩
abbrev main_v448 : Ref sig .tc := ⟨.hbm, 658, rfl⟩
abbrev main_v449 : Ref sig .tc := ⟨.hbm, 659, rfl⟩
abbrev main_v450 : Ref sig .tc := ⟨.hbm, 660, rfl⟩
abbrev main_cst_88 : Ref sig .tc := ⟨.hbm, 661, rfl⟩
abbrev main_v451 : Ref sig .tc := ⟨.hbm, 662, rfl⟩
abbrev main_v452 : Ref sig .tc := ⟨.hbm, 663, rfl⟩
abbrev main_v453 : Ref sig .tc := ⟨.hbm, 664, rfl⟩
abbrev main_cst_89 : Ref sig .tc := ⟨.hbm, 665, rfl⟩
abbrev main_v454 : Ref sig .tc := ⟨.hbm, 666, rfl⟩
abbrev main_cst_90 : Ref sig .tc := ⟨.hbm, 667, rfl⟩
abbrev main_v455 : Ref sig .tc := ⟨.hbm, 668, rfl⟩
abbrev main_v456 : Ref sig .tc := ⟨.hbm, 669, rfl⟩
abbrev main_v457 : Ref sig .tc := ⟨.hbm, 670, rfl⟩
abbrev main_cst_91 : Ref sig .tc := ⟨.hbm, 671, rfl⟩
abbrev main_v458 : Ref sig .tc := ⟨.hbm, 672, rfl⟩
abbrev main_v459 : Ref sig .tc := ⟨.hbm, 673, rfl⟩
abbrev main_v460 : Ref sig .tc := ⟨.hbm, 674, rfl⟩
abbrev main_v461 : Ref sig .tc := ⟨.hbm, 675, rfl⟩
abbrev main_v462 : Ref sig .tc := ⟨.hbm, 676, rfl⟩
abbrev main_v463 : Ref sig .tc := ⟨.hbm, 677, rfl⟩
abbrev main_v464 : Ref sig .tc := ⟨.hbm, 678, rfl⟩
abbrev main_v465 : Ref sig .tc := ⟨.hbm, 679, rfl⟩
abbrev main_v466 : Ref sig .tc := ⟨.hbm, 680, rfl⟩
abbrev main_v467 : Ref sig .tc := ⟨.hbm, 681, rfl⟩
abbrev main_v468 : Ref sig .tc := ⟨.hbm, 682, rfl⟩
abbrev main_v469 : Ref sig .tc := ⟨.hbm, 683, rfl⟩
abbrev main_v470 : Ref sig .tc := ⟨.hbm, 684, rfl⟩
abbrev main_v471 : Ref sig .tc := ⟨.hbm, 685, rfl⟩
abbrev main_v472 : Ref sig .tc := ⟨.hbm, 686, rfl⟩
abbrev main_v473 : Ref sig .tc := ⟨.hbm, 687, rfl⟩
abbrev main_v474 : Ref sig .tc := ⟨.hbm, 688, rfl⟩
abbrev main_c_92 : Ref sig .tc := ⟨.hbm, 689, rfl⟩
abbrev main_v475 : Ref sig .tc := ⟨.hbm, 690, rfl⟩
abbrev main_v476 : Ref sig .tc := ⟨.hbm, 691, rfl⟩
abbrev main_c_93 : Ref sig .tc := ⟨.hbm, 692, rfl⟩
abbrev main_v477 : Ref sig .tc := ⟨.hbm, 693, rfl⟩
abbrev main_v478 : Ref sig .tc := ⟨.hbm, 694, rfl⟩
abbrev main_v479 : Ref sig .tc := ⟨.hbm, 695, rfl⟩
abbrev main_v480 : Ref sig .tc := ⟨.hbm, 696, rfl⟩
abbrev main_v481 : Ref sig .tc := ⟨.hbm, 697, rfl⟩
abbrev main_cst_94 : Ref sig .tc := ⟨.hbm, 698, rfl⟩
abbrev main_v482 : Ref sig .tc := ⟨.hbm, 699, rfl⟩
abbrev main_v483 : Ref sig .tc := ⟨.hbm, 700, rfl⟩
abbrev main_v484 : Ref sig .tc := ⟨.hbm, 701, rfl⟩
abbrev main_cst_95 : Ref sig .tc := ⟨.hbm, 702, rfl⟩
abbrev main_v485 : Ref sig .tc := ⟨.hbm, 703, rfl⟩
abbrev main_cst_96 : Ref sig .tc := ⟨.hbm, 704, rfl⟩
abbrev main_v486 : Ref sig .tc := ⟨.hbm, 705, rfl⟩
abbrev main_v487 : Ref sig .tc := ⟨.hbm, 706, rfl⟩
abbrev main_v488 : Ref sig .tc := ⟨.hbm, 707, rfl⟩
abbrev main_cst_97 : Ref sig .tc := ⟨.hbm, 708, rfl⟩
abbrev main_v489 : Ref sig .tc := ⟨.hbm, 709, rfl⟩
abbrev main_v490 : Ref sig .tc := ⟨.hbm, 710, rfl⟩
abbrev main_v491 : Ref sig .tc := ⟨.hbm, 711, rfl⟩
abbrev main_v492 : Ref sig .tc := ⟨.hbm, 712, rfl⟩
abbrev main_v493 : Ref sig .tc := ⟨.hbm, 713, rfl⟩
abbrev main_v494 : Ref sig .tc := ⟨.hbm, 714, rfl⟩
abbrev main_v495 : Ref sig .tc := ⟨.hbm, 715, rfl⟩
abbrev main_v496 : Ref sig .tc := ⟨.hbm, 716, rfl⟩
abbrev main_v497 : Ref sig .tc := ⟨.hbm, 717, rfl⟩
abbrev main_v498 : Ref sig .tc := ⟨.hbm, 718, rfl⟩
abbrev main_v499 : Ref sig .tc := ⟨.hbm, 719, rfl⟩
abbrev main_v500 : Ref sig .tc := ⟨.hbm, 720, rfl⟩
abbrev main_v501 : Ref sig .tc := ⟨.hbm, 721, rfl⟩
abbrev main_v502 : Ref sig .tc := ⟨.hbm, 722, rfl⟩
abbrev main_v503 : Ref sig .tc := ⟨.hbm, 723, rfl⟩
abbrev main_v504 : Ref sig .tc := ⟨.hbm, 724, rfl⟩
abbrev main_v505 : Ref sig .tc := ⟨.hbm, 725, rfl⟩
abbrev main_cst_98 : Ref sig .tc := ⟨.hbm, 726, rfl⟩
abbrev main_v506 : Ref sig .tc := ⟨.hbm, 727, rfl⟩
abbrev main_cst_99 : Ref sig .tc := ⟨.hbm, 728, rfl⟩
abbrev main_v507 : Ref sig .tc := ⟨.hbm, 729, rfl⟩
abbrev main_v508 : Ref sig .tc := ⟨.hbm, 730, rfl⟩
abbrev main_c_100 : Ref sig .tc := ⟨.hbm, 731, rfl⟩
abbrev main_call8_cst : Ref sig .tc := ⟨.hbm, 732, rfl⟩
abbrev main_call8_v0 : Ref sig .tc := ⟨.hbm, 733, rfl⟩
abbrev main_call8_v1 : Ref sig .tc := ⟨.hbm, 734, rfl⟩
abbrev main_call8_cst_0 : Ref sig .tc := ⟨.hbm, 735, rfl⟩
abbrev main_call8_v2 : Ref sig .tc := ⟨.hbm, 736, rfl⟩
abbrev main_call8_v3 : Ref sig .tc := ⟨.hbm, 737, rfl⟩
abbrev main_call8_v4 : Ref sig .tc := ⟨.hbm, 738, rfl⟩
abbrev main_call8_v5 : Ref sig .tc := ⟨.hbm, 739, rfl⟩
abbrev main_call8_v6 : Ref sig .tc := ⟨.hbm, 740, rfl⟩
abbrev main_call8_v7 : Ref sig .tc := ⟨.hbm, 741, rfl⟩
abbrev main_call8_cst_1 : Ref sig .tc := ⟨.hbm, 742, rfl⟩
abbrev main_call8_v8 : Ref sig .tc := ⟨.hbm, 743, rfl⟩
abbrev main_call8_cst_2 : Ref sig .tc := ⟨.hbm, 744, rfl⟩
abbrev main_call8_v9 : Ref sig .tc := ⟨.hbm, 745, rfl⟩
abbrev main_call8_v10 : Ref sig .tc := ⟨.hbm, 746, rfl⟩
abbrev main_call8_v11 : Ref sig .tc := ⟨.hbm, 747, rfl⟩
abbrev main_call8_cst_3 : Ref sig .tc := ⟨.hbm, 748, rfl⟩
abbrev main_call8_v12 : Ref sig .tc := ⟨.hbm, 749, rfl⟩
abbrev main_call8_cst_4 : Ref sig .tc := ⟨.hbm, 750, rfl⟩
abbrev main_call8_call0_v0 : Ref sig .tc := ⟨.hbm, 751, rfl⟩
abbrev main_call8_call0_v1 : Ref sig .tc := ⟨.hbm, 752, rfl⟩
abbrev main_v509 : Ref sig .tc := ⟨.hbm, 753, rfl⟩
abbrev main_v510 : Ref sig .tc := ⟨.hbm, 754, rfl⟩
abbrev main_v511 : Ref sig .tc := ⟨.hbm, 755, rfl⟩
abbrev main_v512 : Ref sig .tc := ⟨.hbm, 756, rfl⟩
abbrev main_cst_101 : Ref sig .tc := ⟨.hbm, 757, rfl⟩
abbrev main_v513 : Ref sig .tc := ⟨.hbm, 758, rfl⟩
abbrev main_v514 : Ref sig .tc := ⟨.hbm, 759, rfl⟩
abbrev main_v515 : Ref sig .tc := ⟨.hbm, 760, rfl⟩
abbrev main_v516 : Ref sig .tc := ⟨.hbm, 761, rfl⟩
abbrev main_v517 : Ref sig .tc := ⟨.hbm, 762, rfl⟩
abbrev main_v518 : Ref sig .tc := ⟨.hbm, 763, rfl⟩
abbrev main_v519 : Ref sig .tc := ⟨.hbm, 764, rfl⟩
abbrev main_v520 : Ref sig .tc := ⟨.hbm, 765, rfl⟩
abbrev main_v521 : Ref sig .tc := ⟨.hbm, 766, rfl⟩
abbrev main_v522 : Ref sig .tc := ⟨.hbm, 767, rfl⟩
abbrev main_v523 : Ref sig .tc := ⟨.hbm, 768, rfl⟩
abbrev main_v524 : Ref sig .tc := ⟨.hbm, 769, rfl⟩
abbrev main_call9_cst : Ref sig .tc := ⟨.hbm, 770, rfl⟩
abbrev main_call9_v0 : Ref sig .tc := ⟨.hbm, 771, rfl⟩
abbrev main_v525 : Ref sig .tc := ⟨.hbm, 772, rfl⟩
abbrev main_cst_102 : Ref sig .tc := ⟨.hbm, 773, rfl⟩
abbrev main_v526 : Ref sig .tc := ⟨.hbm, 774, rfl⟩
abbrev main_cst_103 : Ref sig .tc := ⟨.hbm, 775, rfl⟩
abbrev main_v527 : Ref sig .tc := ⟨.hbm, 776, rfl⟩
abbrev main_v528 : Ref sig .tc := ⟨.hbm, 777, rfl⟩
abbrev main_c_104 : Ref sig .tc := ⟨.hbm, 778, rfl⟩
abbrev main_call10_cst : Ref sig .tc := ⟨.hbm, 779, rfl⟩
abbrev main_call10_v0 : Ref sig .tc := ⟨.hbm, 780, rfl⟩
abbrev main_call10_v1 : Ref sig .tc := ⟨.hbm, 781, rfl⟩
abbrev main_call10_cst_0 : Ref sig .tc := ⟨.hbm, 782, rfl⟩
abbrev main_call10_v2 : Ref sig .tc := ⟨.hbm, 783, rfl⟩
abbrev main_call10_v3 : Ref sig .tc := ⟨.hbm, 784, rfl⟩
abbrev main_call10_v4 : Ref sig .tc := ⟨.hbm, 785, rfl⟩
abbrev main_call10_v5 : Ref sig .tc := ⟨.hbm, 786, rfl⟩
abbrev main_call10_v6 : Ref sig .tc := ⟨.hbm, 787, rfl⟩
abbrev main_call10_v7 : Ref sig .tc := ⟨.hbm, 788, rfl⟩
abbrev main_call10_cst_1 : Ref sig .tc := ⟨.hbm, 789, rfl⟩
abbrev main_call10_v8 : Ref sig .tc := ⟨.hbm, 790, rfl⟩
abbrev main_call10_cst_2 : Ref sig .tc := ⟨.hbm, 791, rfl⟩
abbrev main_call10_v9 : Ref sig .tc := ⟨.hbm, 792, rfl⟩
abbrev main_call10_v10 : Ref sig .tc := ⟨.hbm, 793, rfl⟩
abbrev main_call10_v11 : Ref sig .tc := ⟨.hbm, 794, rfl⟩
abbrev main_call10_cst_3 : Ref sig .tc := ⟨.hbm, 795, rfl⟩
abbrev main_call10_v12 : Ref sig .tc := ⟨.hbm, 796, rfl⟩
abbrev main_call10_cst_4 : Ref sig .tc := ⟨.hbm, 797, rfl⟩
abbrev main_call10_call0_v0 : Ref sig .tc := ⟨.hbm, 798, rfl⟩
abbrev main_call10_call0_v1 : Ref sig .tc := ⟨.hbm, 799, rfl⟩
abbrev main_v529 : Ref sig .tc := ⟨.hbm, 800, rfl⟩
abbrev main_v530 : Ref sig .tc := ⟨.hbm, 801, rfl⟩
abbrev main_v531 : Ref sig .tc := ⟨.hbm, 802, rfl⟩
abbrev main_v532 : Ref sig .tc := ⟨.hbm, 803, rfl⟩
abbrev main_cst_105 : Ref sig .tc := ⟨.hbm, 804, rfl⟩
abbrev main_v533 : Ref sig .tc := ⟨.hbm, 805, rfl⟩
abbrev main_v534 : Ref sig .tc := ⟨.hbm, 806, rfl⟩
abbrev main_v535 : Ref sig .tc := ⟨.hbm, 807, rfl⟩
abbrev main_v536 : Ref sig .tc := ⟨.hbm, 808, rfl⟩
abbrev main_v537 : Ref sig .tc := ⟨.hbm, 809, rfl⟩
abbrev main_v538 : Ref sig .tc := ⟨.hbm, 810, rfl⟩
abbrev main_v539 : Ref sig .tc := ⟨.hbm, 811, rfl⟩
abbrev main_v540 : Ref sig .tc := ⟨.hbm, 812, rfl⟩
abbrev main_v541 : Ref sig .tc := ⟨.hbm, 813, rfl⟩
abbrev main_v542 : Ref sig .tc := ⟨.hbm, 814, rfl⟩
abbrev main_v543 : Ref sig .tc := ⟨.hbm, 815, rfl⟩
abbrev main_v544 : Ref sig .tc := ⟨.hbm, 816, rfl⟩
abbrev main_call11_cst : Ref sig .tc := ⟨.hbm, 817, rfl⟩
abbrev main_call11_v0 : Ref sig .tc := ⟨.hbm, 818, rfl⟩
abbrev main_v545 : Ref sig .tc := ⟨.hbm, 819, rfl⟩
abbrev main_cst_106 : Ref sig .tc := ⟨.hbm, 820, rfl⟩
abbrev main_v546 : Ref sig .tc := ⟨.hbm, 821, rfl⟩
abbrev main_cst_107 : Ref sig .tc := ⟨.hbm, 822, rfl⟩
abbrev main_v547 : Ref sig .tc := ⟨.hbm, 823, rfl⟩
abbrev main_v548 : Ref sig .tc := ⟨.hbm, 824, rfl⟩
abbrev main_c_108 : Ref sig .tc := ⟨.hbm, 825, rfl⟩
abbrev main_call12_cst : Ref sig .tc := ⟨.hbm, 826, rfl⟩
abbrev main_call12_v0 : Ref sig .tc := ⟨.hbm, 827, rfl⟩
abbrev main_call12_v1 : Ref sig .tc := ⟨.hbm, 828, rfl⟩
abbrev main_call12_cst_0 : Ref sig .tc := ⟨.hbm, 829, rfl⟩
abbrev main_call12_v2 : Ref sig .tc := ⟨.hbm, 830, rfl⟩
abbrev main_call12_v3 : Ref sig .tc := ⟨.hbm, 831, rfl⟩
abbrev main_call12_v4 : Ref sig .tc := ⟨.hbm, 832, rfl⟩
abbrev main_call12_v5 : Ref sig .tc := ⟨.hbm, 833, rfl⟩
abbrev main_call12_v6 : Ref sig .tc := ⟨.hbm, 834, rfl⟩
abbrev main_call12_v7 : Ref sig .tc := ⟨.hbm, 835, rfl⟩
abbrev main_call12_cst_1 : Ref sig .tc := ⟨.hbm, 836, rfl⟩
abbrev main_call12_v8 : Ref sig .tc := ⟨.hbm, 837, rfl⟩
abbrev main_call12_cst_2 : Ref sig .tc := ⟨.hbm, 838, rfl⟩
abbrev main_call12_v9 : Ref sig .tc := ⟨.hbm, 839, rfl⟩
abbrev main_call12_v10 : Ref sig .tc := ⟨.hbm, 840, rfl⟩
abbrev main_call12_v11 : Ref sig .tc := ⟨.hbm, 841, rfl⟩
abbrev main_call12_cst_3 : Ref sig .tc := ⟨.hbm, 842, rfl⟩
abbrev main_call12_v12 : Ref sig .tc := ⟨.hbm, 843, rfl⟩
abbrev main_call12_cst_4 : Ref sig .tc := ⟨.hbm, 844, rfl⟩
abbrev main_call12_call0_v0 : Ref sig .tc := ⟨.hbm, 845, rfl⟩
abbrev main_call12_call0_v1 : Ref sig .tc := ⟨.hbm, 846, rfl⟩
abbrev main_v549 : Ref sig .tc := ⟨.hbm, 847, rfl⟩
abbrev main_v550 : Ref sig .tc := ⟨.hbm, 848, rfl⟩
abbrev main_v551 : Ref sig .tc := ⟨.hbm, 849, rfl⟩
abbrev main_v552 : Ref sig .tc := ⟨.hbm, 850, rfl⟩
abbrev main_cst_109 : Ref sig .tc := ⟨.hbm, 851, rfl⟩
abbrev main_v553 : Ref sig .tc := ⟨.hbm, 852, rfl⟩
abbrev main_v554 : Ref sig .tc := ⟨.hbm, 853, rfl⟩
abbrev main_v555 : Ref sig .tc := ⟨.hbm, 854, rfl⟩
abbrev main_v556 : Ref sig .tc := ⟨.hbm, 855, rfl⟩
abbrev main_v557 : Ref sig .tc := ⟨.hbm, 856, rfl⟩
abbrev main_v558 : Ref sig .tc := ⟨.hbm, 857, rfl⟩
abbrev main_v559 : Ref sig .tc := ⟨.hbm, 858, rfl⟩
abbrev main_v560 : Ref sig .tc := ⟨.hbm, 859, rfl⟩
abbrev main_v561 : Ref sig .tc := ⟨.hbm, 860, rfl⟩
abbrev main_v562 : Ref sig .tc := ⟨.hbm, 861, rfl⟩
abbrev main_v563 : Ref sig .tc := ⟨.hbm, 862, rfl⟩
abbrev main_v564 : Ref sig .tc := ⟨.hbm, 863, rfl⟩
abbrev main_call13_cst : Ref sig .tc := ⟨.hbm, 864, rfl⟩
abbrev main_call13_v0 : Ref sig .tc := ⟨.hbm, 865, rfl⟩
abbrev main_v565 : Ref sig .tc := ⟨.hbm, 866, rfl⟩
abbrev main_cst_110 : Ref sig .tc := ⟨.hbm, 867, rfl⟩
abbrev main_v566 : Ref sig .tc := ⟨.hbm, 868, rfl⟩
abbrev main_cst_111 : Ref sig .tc := ⟨.hbm, 869, rfl⟩
abbrev main_v567 : Ref sig .tc := ⟨.hbm, 870, rfl⟩
abbrev main_v568 : Ref sig .tc := ⟨.hbm, 871, rfl⟩
abbrev main_c_112 : Ref sig .tc := ⟨.hbm, 872, rfl⟩
abbrev main_call14_cst : Ref sig .tc := ⟨.hbm, 873, rfl⟩
abbrev main_call14_v0 : Ref sig .tc := ⟨.hbm, 874, rfl⟩
abbrev main_call14_v1 : Ref sig .tc := ⟨.hbm, 875, rfl⟩
abbrev main_call14_cst_0 : Ref sig .tc := ⟨.hbm, 876, rfl⟩
abbrev main_call14_v2 : Ref sig .tc := ⟨.hbm, 877, rfl⟩
abbrev main_call14_v3 : Ref sig .tc := ⟨.hbm, 878, rfl⟩
abbrev main_call14_v4 : Ref sig .tc := ⟨.hbm, 879, rfl⟩
abbrev main_call14_v5 : Ref sig .tc := ⟨.hbm, 880, rfl⟩
abbrev main_call14_v6 : Ref sig .tc := ⟨.hbm, 881, rfl⟩
abbrev main_call14_v7 : Ref sig .tc := ⟨.hbm, 882, rfl⟩
abbrev main_call14_cst_1 : Ref sig .tc := ⟨.hbm, 883, rfl⟩
abbrev main_call14_v8 : Ref sig .tc := ⟨.hbm, 884, rfl⟩
abbrev main_call14_cst_2 : Ref sig .tc := ⟨.hbm, 885, rfl⟩
abbrev main_call14_v9 : Ref sig .tc := ⟨.hbm, 886, rfl⟩
abbrev main_call14_v10 : Ref sig .tc := ⟨.hbm, 887, rfl⟩
abbrev main_call14_v11 : Ref sig .tc := ⟨.hbm, 888, rfl⟩
abbrev main_call14_cst_3 : Ref sig .tc := ⟨.hbm, 889, rfl⟩
abbrev main_call14_v12 : Ref sig .tc := ⟨.hbm, 890, rfl⟩
abbrev main_call14_cst_4 : Ref sig .tc := ⟨.hbm, 891, rfl⟩
abbrev main_call14_call0_v0 : Ref sig .tc := ⟨.hbm, 892, rfl⟩
abbrev main_call14_call0_v1 : Ref sig .tc := ⟨.hbm, 893, rfl⟩
abbrev main_v569 : Ref sig .tc := ⟨.hbm, 894, rfl⟩
abbrev main_v570 : Ref sig .tc := ⟨.hbm, 895, rfl⟩
abbrev main_v571 : Ref sig .tc := ⟨.hbm, 896, rfl⟩
abbrev main_v572 : Ref sig .tc := ⟨.hbm, 897, rfl⟩
abbrev main_cst_113 : Ref sig .tc := ⟨.hbm, 898, rfl⟩
abbrev main_v573 : Ref sig .tc := ⟨.hbm, 899, rfl⟩
abbrev main_v574 : Ref sig .tc := ⟨.hbm, 900, rfl⟩
abbrev main_v575 : Ref sig .tc := ⟨.hbm, 901, rfl⟩
abbrev main_v576 : Ref sig .tc := ⟨.hbm, 902, rfl⟩
abbrev main_v577 : Ref sig .tc := ⟨.hbm, 903, rfl⟩
abbrev main_v578 : Ref sig .tc := ⟨.hbm, 904, rfl⟩
abbrev main_v579 : Ref sig .tc := ⟨.hbm, 905, rfl⟩
abbrev main_v580 : Ref sig .tc := ⟨.hbm, 906, rfl⟩
abbrev main_v581 : Ref sig .tc := ⟨.hbm, 907, rfl⟩
abbrev main_v582 : Ref sig .tc := ⟨.hbm, 908, rfl⟩
abbrev main_v583 : Ref sig .tc := ⟨.hbm, 909, rfl⟩
abbrev main_v584 : Ref sig .tc := ⟨.hbm, 910, rfl⟩
abbrev main_call15_cst : Ref sig .tc := ⟨.hbm, 911, rfl⟩
abbrev main_call15_v0 : Ref sig .tc := ⟨.hbm, 912, rfl⟩
abbrev main_v585 : Ref sig .tc := ⟨.hbm, 913, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S10000x128 : S_.BroadcastsInDim S10000x128 (![] : Fin 0 → Fin S10000x128.rank)
  bcast_S_S500000x1 : S_.BroadcastsInDim S500000x1 (![] : Fin 0 → Fin S500000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  slices_S7x128x256_S1x128x256_0_0_0 : S7x128x256.Slices ![0, 0, 0] S1x128x256
  shapeCasts_S1x128x256_S128x256 : S1x128x256.ShapeCasts S128x256
  slices_S7x256_S1x256_0_0 : S7x256.Slices ![0, 0] S1x256
  shapeCasts_S1x256_S256 : S1x256.ShapeCasts S256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S7x128x256_S1x128x256_1_0_0 : S7x128x256.Slices ![1, 0, 0] S1x128x256
  slices_S7x256_S1x256_1_0 : S7x256.Slices ![1, 0] S1x256
  bcast_S1x256_S50000x256_0_1 : S1x256.BroadcastsInDim S50000x256 (![0, 1] : Fin 2 → Fin S50000x256.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S3000x128 : S_.BroadcastsInDim S3000x128 (![] : Fin 0 → Fin S3000x128.rank)
  bcast_S_S150000x1 : S_.BroadcastsInDim S150000x1 (![] : Fin 0 → Fin S150000x1.rank)
  bcast_S_S3000x1 : S_.BroadcastsInDim S3000x1 (![] : Fin 0 → Fin S3000x1.rank)
  bcast_S3000x1_S3000x128_0_1 : S3000x1.BroadcastsInDim S3000x128 (![0, 1] : Fin 2 → Fin S3000x128.rank)
  slices_S7x128x256_S1x128x256_2_0_0 : S7x128x256.Slices ![2, 0, 0] S1x128x256
  slices_S7x256_S1x256_2_0 : S7x256.Slices ![2, 0] S1x256
  bcast_S1x256_S3000x256_0_1 : S1x256.BroadcastsInDim S3000x256 (![0, 1] : Fin 2 → Fin S3000x256.rank)
  slices_S7x128x256_S1x128x256_3_0_0 : S7x128x256.Slices ![3, 0, 0] S1x128x256
  slices_S7x256_S1x256_3_0 : S7x256.Slices ![3, 0] S1x256
  bcast_S_S20000x128 : S_.BroadcastsInDim S20000x128 (![] : Fin 0 → Fin S20000x128.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  slices_S7x128x256_S1x128x256_4_0_0 : S7x128x256.Slices ![4, 0, 0] S1x128x256
  slices_S7x256_S1x256_4_0 : S7x256.Slices ![4, 0] S1x256
  bcast_S1x256_S20000x256_0_1 : S1x256.BroadcastsInDim S20000x256 (![0, 1] : Fin 2 → Fin S20000x256.rank)
  slices_S7x128x256_S1x128x256_5_0_0 : S7x128x256.Slices ![5, 0, 0] S1x128x256
  slices_S7x256_S1x256_5_0 : S7x256.Slices ![5, 0] S1x256
  slices_S7x128x256_S1x128x256_6_0_0 : S7x128x256.Slices ![6, 0, 0] S1x128x256
  slices_S7x256_S1x256_6_0 : S7x256.Slices ![6, 0] S1x256
  reducesTo_S20000x256_S256_d0 : S20000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S20000x256 : S_.BroadcastsInDim S20000x256 (![] : Fin 0 → Fin S20000x256.rank)
  reducesTo_S50000x256_S256_d0 : S50000x256.ReducesTo [0] S256
  bcast_S_S50000x256 : S_.BroadcastsInDim S50000x256 (![] : Fin 0 → Fin S50000x256.rank)
  reducesTo_S10000x256_S256_d0 : S10000x256.ReducesTo [0] S256
  bcast_S_S10000x256 : S_.BroadcastsInDim S10000x256 (![] : Fin 0 → Fin S10000x256.rank)
  reducesTo_S3000x256_S256_d0 : S3000x256.ReducesTo [0] S256
  bcast_S_S3000x256 : S_.BroadcastsInDim S3000x256 (![] : Fin 0 → Fin S3000x256.rank)
  bcast_S10000x1_S10000x256_0_1 : S10000x1.BroadcastsInDim S10000x256 (![0, 1] : Fin 2 → Fin S10000x256.rank)
  slices_S7x256x256_S1x256x256_0_0_0 : S7x256x256.Slices ![0, 0, 0] S1x256x256
  shapeCasts_S1x256x256_S256x256 : S1x256x256.ShapeCasts S256x256
  bcast_S50000x1_S50000x256_0_1 : S50000x1.BroadcastsInDim S50000x256 (![0, 1] : Fin 2 → Fin S50000x256.rank)
  slices_S7x256x256_S1x256x256_1_0_0 : S7x256x256.Slices ![1, 0, 0] S1x256x256
  bcast_S3000x1_S3000x256_0_1 : S3000x1.BroadcastsInDim S3000x256 (![0, 1] : Fin 2 → Fin S3000x256.rank)
  slices_S7x256x256_S1x256x256_2_0_0 : S7x256x256.Slices ![2, 0, 0] S1x256x256
  slices_S7x256x256_S1x256x256_3_0_0 : S7x256x256.Slices ![3, 0, 0] S1x256x256
  bcast_S20000x1_S20000x256_0_1 : S20000x1.BroadcastsInDim S20000x256 (![0, 1] : Fin 2 → Fin S20000x256.rank)
  slices_S7x256x256_S1x256x256_4_0_0 : S7x256x256.Slices ![4, 0, 0] S1x256x256
  slices_S7x256x256_S1x256x256_5_0_0 : S7x256x256.Slices ![5, 0, 0] S1x256x256
  slices_S7x256x256_S1x256x256_6_0_0 : S7x256x256.Slices ![6, 0, 0] S1x256x256
  gather_S20000x128_S500000x1_S500000x128_1_0_n_n_0_1_1128_wf : GatherDims.WF S20000x128 S500000x1 S500000x128 [1] [0] [] [0] [] 1 ![1, 128]
  scatter_S10000x128_S500000x1_S500000x128_1_0_0_1_wf : ScatterDims.WF S10000x128 S500000x1 S500000x128 [1] [0] [0] 1
  scatter_S10000x1_S500000x1_S500000x1_1_0_0_1_wf : ScatterDims.WF S10000x1 S500000x1 S500000x1 [1] [0] [0] 1
  dot_S10000x128_S128x256_S10000x256_1_0_0_1_n_n_wf : DotDims.WF S10000x128 S128x256 S10000x256 [1] [0] [0] [1] [] []
  gather_S20000x128_S400000x1_S400000x128_1_0_n_n_0_1_1128_wf : GatherDims.WF S20000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x128_S128x256_S50000x256_1_0_0_1_n_n_wf : DotDims.WF S50000x128 S128x256 S50000x256 [1] [0] [0] [1] [] []
  gather_S50000x128_S150000x1_S150000x128_1_0_n_n_0_1_1128_wf : GatherDims.WF S50000x128 S150000x1 S150000x128 [1] [0] [] [0] [] 1 ![1, 128]
  scatter_S3000x128_S150000x1_S150000x128_1_0_0_1_wf : ScatterDims.WF S3000x128 S150000x1 S150000x128 [1] [0] [0] 1
  scatter_S3000x1_S150000x1_S150000x1_1_0_0_1_wf : ScatterDims.WF S3000x1 S150000x1 S150000x1 [1] [0] [0] 1
  dot_S3000x128_S128x256_S3000x256_1_0_0_1_n_n_wf : DotDims.WF S3000x128 S128x256 S3000x256 [1] [0] [0] [1] [] []
  gather_S50000x128_S400000x1_S400000x128_1_0_n_n_0_1_1128_wf : GatherDims.WF S50000x128 S400000x1 S400000x128 [1] [0] [] [0] [] 1 ![1, 128]
  scatter_S10000x128_S400000x1_S400000x128_1_0_0_1_wf : ScatterDims.WF S10000x128 S400000x1 S400000x128 [1] [0] [0] 1
  scatter_S10000x1_S400000x1_S400000x1_1_0_0_1_wf : ScatterDims.WF S10000x1 S400000x1 S400000x1 [1] [0] [0] 1
  gather_S10000x128_S500000x1_S500000x128_1_0_n_n_0_1_1128_wf : GatherDims.WF S10000x128 S500000x1 S500000x128 [1] [0] [] [0] [] 1 ![1, 128]
  scatter_S20000x128_S500000x1_S500000x128_1_0_0_1_wf : ScatterDims.WF S20000x128 S500000x1 S500000x128 [1] [0] [0] 1
  scatter_S20000x1_S500000x1_S500000x1_1_0_0_1_wf : ScatterDims.WF S20000x1 S500000x1 S500000x1 [1] [0] [0] 1
  dot_S20000x128_S128x256_S20000x256_1_0_0_1_n_n_wf : DotDims.WF S20000x128 S128x256 S20000x256 [1] [0] [0] [1] [] []
  scatter_S20000x128_S400000x1_S400000x128_1_0_0_1_wf : ScatterDims.WF S20000x128 S400000x1 S400000x128 [1] [0] [0] 1
  scatter_S20000x1_S400000x1_S400000x1_1_0_0_1_wf : ScatterDims.WF S20000x1 S400000x1 S400000x1 [1] [0] [0] 1
  gather_S3000x128_S150000x1_S150000x128_1_0_n_n_0_1_1128_wf : GatherDims.WF S3000x128 S150000x1 S150000x128 [1] [0] [] [0] [] 1 ![1, 128]
  scatter_S50000x128_S150000x1_S150000x128_1_0_0_1_wf : ScatterDims.WF S50000x128 S150000x1 S150000x128 [1] [0] [0] 1
  scatter_S50000x1_S150000x1_S150000x1_1_0_0_1_wf : ScatterDims.WF S50000x1 S150000x1 S150000x1 [1] [0] [0] 1
  gather_S20000x256_S500000x1_S500000x256_1_0_n_n_0_1_1256_wf : GatherDims.WF S20000x256 S500000x1 S500000x256 [1] [0] [] [0] [] 1 ![1, 256]
  scatter_S10000x256_S500000x1_S500000x256_1_0_0_1_wf : ScatterDims.WF S10000x256 S500000x1 S500000x256 [1] [0] [0] 1
  dot_S10000x256_S256x256_S10000x256_1_0_0_1_n_n_wf : DotDims.WF S10000x256 S256x256 S10000x256 [1] [0] [0] [1] [] []
  gather_S20000x256_S400000x1_S400000x256_1_0_n_n_0_1_1256_wf : GatherDims.WF S20000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  gather_S50000x256_S150000x1_S150000x256_1_0_n_n_0_1_1256_wf : GatherDims.WF S50000x256 S150000x1 S150000x256 [1] [0] [] [0] [] 1 ![1, 256]
  scatter_S3000x256_S150000x1_S150000x256_1_0_0_1_wf : ScatterDims.WF S3000x256 S150000x1 S150000x256 [1] [0] [0] 1
  dot_S3000x256_S256x256_S3000x256_1_0_0_1_n_n_wf : DotDims.WF S3000x256 S256x256 S3000x256 [1] [0] [0] [1] [] []
  gather_S50000x256_S400000x1_S400000x256_1_0_n_n_0_1_1256_wf : GatherDims.WF S50000x256 S400000x1 S400000x256 [1] [0] [] [0] [] 1 ![1, 256]
  scatter_S10000x256_S400000x1_S400000x256_1_0_0_1_wf : ScatterDims.WF S10000x256 S400000x1 S400000x256 [1] [0] [0] 1
  gather_S10000x256_S500000x1_S500000x256_1_0_n_n_0_1_1256_wf : GatherDims.WF S10000x256 S500000x1 S500000x256 [1] [0] [] [0] [] 1 ![1, 256]
  scatter_S20000x256_S500000x1_S500000x256_1_0_0_1_wf : ScatterDims.WF S20000x256 S500000x1 S500000x256 [1] [0] [0] 1
  dot_S20000x256_S256x256_S20000x256_1_0_0_1_n_n_wf : DotDims.WF S20000x256 S256x256 S20000x256 [1] [0] [0] [1] [] []
  scatter_S20000x256_S400000x1_S400000x256_1_0_0_1_wf : ScatterDims.WF S20000x256 S400000x1 S400000x256 [1] [0] [0] 1
  gather_S3000x256_S150000x1_S150000x256_1_0_n_n_0_1_1256_wf : GatherDims.WF S3000x256 S150000x1 S150000x256 [1] [0] [] [0] [] 1 ![1, 256]
  scatter_S50000x256_S150000x1_S150000x256_1_0_0_1_wf : ScatterDims.WF S50000x256 S150000x1 S150000x256 [1] [0] [0] 1

variable [Facts₀]

def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def scatter_S10000x1_S500000x1_S500000x1_1_0_0_1 : ScatterDims S10000x1 S500000x1 S500000x1 where
  updateWindowDims := [1]
  insertedWindowDims := [0]
  scatterDimsToOperandDims := [0]
  indexVectorDim := 1
  wf := scatter_S10000x1_S500000x1_S500000x1_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S3000x128_S150000x1_S150000x128_1_0_0_1 : ScatterDims S3000x128 S150000x1 S150000x128 where
  updateWindowDims := [1]
  insertedWindowDims := [0]
  scatterDimsToOperandDims := [0]
  indexVectorDim := 1
  wf := scatter_S3000x128_S150000x1_S150000x128_1_0_0_1_wf
def scatter_S3000x1_S150000x1_S150000x1_1_0_0_1 : ScatterDims S3000x1 S150000x1 S150000x1 where
  updateWindowDims := [1]
  insertedWindowDims := [0]
  scatterDimsToOperandDims := [0]
  indexVectorDim := 1
  wf := scatter_S3000x1_S150000x1_S150000x1_1_0_0_1_wf
def dot_S3000x128_S128x256_S3000x256_1_0_0_1_n_n : DotDims S3000x128 S128x256 S3000x256 where
  lhsContracting := [1]
  rhsContracting := [0]
  lhsNonContracting := [0]
  rhsNonContracting := [1]
  lhsBatch := []
  rhsBatch := []
  wf := dot_S3000x128_S128x256_S3000x256_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S10000x128_S400000x1_S400000x128_1_0_0_1 : ScatterDims S10000x128 S400000x1 S400000x128 where
  updateWindowDims := [1]
  insertedWindowDims := [0]
  scatterDimsToOperandDims := [0]
  indexVectorDim := 1
  wf := scatter_S10000x128_S400000x1_S400000x128_1_0_0_1_wf
def scatter_S10000x1_S400000x1_S400000x1_1_0_0_1 : ScatterDims S10000x1 S400000x1 S400000x1 where
  updateWindowDims := [1]
  insertedWindowDims := [0]
  scatterDimsToOperandDims := [0]
  indexVectorDim := 1
  wf := scatter_S10000x1_S400000x1_S400000x1_1_0_0_1_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def gather_S3000x128_S150000x1_S150000x128_1_0_n_n_0_1_1128 : GatherDims S3000x128 S150000x1 S150000x128 where
  offsetDims := [1]
  collapsedSliceDims := [0]
  operandBatchingDims := []
  startIndicesBatchingDims := []
  startIndexMap := [0]
  indexVectorDim := 1
  sliceSizes := ![1, 128]
  wf := gather_S3000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S20000x256_S500000x1_S500000x256_1_0_n_n_0_1_1256 : GatherDims S20000x256 S500000x1 S500000x256 where
  offsetDims := [1]
  collapsedSliceDims := [0]
  operandBatchingDims := []
  startIndicesBatchingDims := []
  startIndexMap := [0]
  indexVectorDim := 1
  sliceSizes := ![1, 256]
  wf := gather_S20000x256_S500000x1_S500000x256_1_0_n_n_0_1_1256_wf
def scatter_S10000x256_S500000x1_S500000x256_1_0_0_1 : ScatterDims S10000x256 S500000x1 S500000x256 where
  updateWindowDims := [1]
  insertedWindowDims := [0]
  scatterDimsToOperandDims := [0]
  indexVectorDim := 1
  wf := scatter_S10000x256_S500000x1_S500000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def scatter_S3000x256_S150000x1_S150000x256_1_0_0_1 : ScatterDims S3000x256 S150000x1 S150000x256 where
  updateWindowDims := [1]
  insertedWindowDims := [0]
  scatterDimsToOperandDims := [0]
  indexVectorDim := 1
  wf := scatter_S3000x256_S150000x1_S150000x256_1_0_0_1_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def gather_S10000x256_S500000x1_S500000x256_1_0_n_n_0_1_1256 : GatherDims S10000x256 S500000x1 S500000x256 where
  offsetDims := [1]
  collapsedSliceDims := [0]
  operandBatchingDims := []
  startIndicesBatchingDims := []
  startIndexMap := [0]
  indexVectorDim := 1
  sliceSizes := ![1, 256]
  wf := gather_S10000x256_S500000x1_S500000x256_1_0_n_n_0_1_1256_wf
def scatter_S20000x256_S500000x1_S500000x256_1_0_0_1 : ScatterDims S20000x256 S500000x1 S500000x256 where
  updateWindowDims := [1]
  insertedWindowDims := [0]
  scatterDimsToOperandDims := [0]
  indexVectorDim := 1
  wf := scatter_S20000x256_S500000x1_S500000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def gather_S3000x256_S150000x1_S150000x256_1_0_n_n_0_1_1256 : GatherDims S3000x256 S150000x1 S150000x256 where
  offsetDims := [1]
  collapsedSliceDims := [0]
  operandBatchingDims := []
  startIndicesBatchingDims := []
  startIndexMap := [0]
  indexVectorDim := 1
  sliceSizes := ![1, 256]
  wf := gather_S3000x256_S150000x1_S150000x256_1_0_n_n_0_1_1256_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf

class Facts : Prop extends Facts₀ where

variable [Facts]
-- ==== Proof.K.Reg0Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: custom call 0, the layer-1 combine of one node type, at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    block index does not move is fetched at the first point only and keeps its block), for any proof data whose
    array is `V`'s and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the first `scf.if` (the accumulators' reset), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the second `scf.if` (the statistics' write-out). -/
abbrev cond0_1 (i : grid0.Coords) : Prop := k0_cond2 i = 1#1
/-- It holds at the last point only. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- Output 9 is stored at every point. -/
theorem liveAt0_9 : ∀ t : Fin cfg0.N, cfg0.idle 9 (grid0.coords t) = false := by decide +kernel
/-- Outputs 10 and 11 are stored at the last point only: elsewhere idle and not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The staging and scratch memrefs -/

/-- One staging buffer of each output window, through which its contents are stated (the choice does not matter). -/
noncomputable abbrev VO0_9 : View sig .tc .vmem S1000x256 .f32 := (Memref.whole cc0_stg9_0 : Memref sig .tc .vmem S1000x256 .f32).view
noncomputable abbrev VO0_10 : View sig .tc .vmem S1x256 .f32 := (Memref.whole cc0_stg10_0 : Memref sig .tc .vmem S1x256 .f32).view
noncomputable abbrev VO0_11 : View sig .tc .vmem S1x256 .f32 := (Memref.whole cc0_stg11_0 : Memref sig .tc .vmem S1x256 .f32).view
/-- Each window's current staging memref at point `t`, spelled as the pipeline passes it, and its wholeness. -/
noncomputable abbrev ms0_0 (t : Fin cfg0.N) : Memref sig .tc .vmem S1000x128 .f32 := win0_0.stage (cfg0.slots t 0)
noncomputable abbrev hs0_0 (t : Fin cfg0.N) : (ms0_0 t).IsWhole := hstage0_0 ((cfg0.slots t 0).cast nbuf0_0)
noncomputable abbrev ms0_1 (t : Fin cfg0.N) : Memref sig .tc .vmem S1000x128 .f32 := win0_1.stage (cfg0.slots t 1)
noncomputable abbrev hs0_1 (t : Fin cfg0.N) : (ms0_1 t).IsWhole := hstage0_1 ((cfg0.slots t 1).cast nbuf0_1)
noncomputable abbrev ms0_2 (t : Fin cfg0.N) : Memref sig .tc .vmem S1000x128 .f32 := win0_2.stage (cfg0.slots t 2)
noncomputable abbrev hs0_2 (t : Fin cfg0.N) : (ms0_2 t).IsWhole := hstage0_2 ((cfg0.slots t 2).cast nbuf0_2)
noncomputable abbrev ms0_3 (t : Fin cfg0.N) : Memref sig .tc .vmem S128x256 .f32 := win0_3.stage (cfg0.slots t 3)
noncomputable abbrev hs0_3 (t : Fin cfg0.N) : (ms0_3 t).IsWhole := hstage0_3 ((cfg0.slots t 3).cast nbuf0_3)
noncomputable abbrev ms0_4 (t : Fin cfg0.N) : Memref sig .tc .vmem S128x256 .f32 := win0_4.stage (cfg0.slots t 4)
noncomputable abbrev hs0_4 (t : Fin cfg0.N) : (ms0_4 t).IsWhole := hstage0_4 ((cfg0.slots t 4).cast nbuf0_4)
noncomputable abbrev ms0_5 (t : Fin cfg0.N) : Memref sig .tc .vmem S128x256 .f32 := win0_5.stage (cfg0.slots t 5)
noncomputable abbrev hs0_5 (t : Fin cfg0.N) : (ms0_5 t).IsWhole := hstage0_5 ((cfg0.slots t 5).cast nbuf0_5)
noncomputable abbrev ms0_6 (t : Fin cfg0.N) : Memref sig .tc .vmem S128x256 .f32 := win0_6.stage (cfg0.slots t 6)
noncomputable abbrev hs0_6 (t : Fin cfg0.N) : (ms0_6 t).IsWhole := hstage0_6 ((cfg0.slots t 6).cast nbuf0_6)
noncomputable abbrev ms0_7 (t : Fin cfg0.N) : Memref sig .tc .vmem S1x256 .f32 := win0_7.stage (cfg0.slots t 7)
noncomputable abbrev hs0_7 (t : Fin cfg0.N) : (ms0_7 t).IsWhole := hstage0_7 ((cfg0.slots t 7).cast nbuf0_7)
noncomputable abbrev ms0_8 (t : Fin cfg0.N) : Memref sig .tc .vmem S1x256 .f32 := win0_8.stage (cfg0.slots t 8)
noncomputable abbrev hs0_8 (t : Fin cfg0.N) : (ms0_8 t).IsWhole := hstage0_8 ((cfg0.slots t 8).cast nbuf0_8)
noncomputable abbrev ms0_9 (t : Fin cfg0.N) : Memref sig .tc .vmem S1000x256 .f32 := win0_9.stage (cfg0.slots t 9)
noncomputable abbrev hs0_9 (t : Fin cfg0.N) : (ms0_9 t).IsWhole := hstage0_9 ((cfg0.slots t 9).cast nbuf0_9)
noncomputable abbrev ms0_10 (t : Fin cfg0.N) : Memref sig .tc .vmem S1x256 .f32 := win0_10.stage (cfg0.slots t 10)
noncomputable abbrev hs0_10 (t : Fin cfg0.N) : (ms0_10 t).IsWhole := hstage0_10 ((cfg0.slots t 10).cast nbuf0_10)
noncomputable abbrev ms0_11 (t : Fin cfg0.N) : Memref sig .tc .vmem S1x256 .f32 := win0_11.stage (cfg0.slots t 11)
noncomputable abbrev hs0_11 (t : Fin cfg0.N) : (ms0_11 t).IsWhole := hstage0_11 ((cfg0.slots t 11).cast nbuf0_11)
/-- The two scratch operands: whole scoped buffers of the kernel's own, passed beside the windows. -/
noncomputable abbrev scM0_0 : Memref sig .tc .vmem S1x256 .f32 := Memref.whole cc0_scratch0
noncomputable abbrev scM0_1 : Memref sig .tc .vmem S1x256 .f32 := Memref.whole cc0_scratch1
/-- The scratch accumulators the kernel carries between points, as views: what they hold is stated through them. -/
noncomputable abbrev VS0_0 : View sig .tc .vmem S1x256 .f32 := scM0_0.view
noncomputable abbrev VS0_1 : View sig .tc .vmem S1x256 .f32 := scM0_1.view

/-- The class invariant with the two scratch operands as memrefs owned at some contents, the other scoped buffers
    unopened: what the body obligation hands the run and takes back. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Reg0A.lean ====
import proofs.«126569_j1468878815453_1_alg».proof.Proof.K.Reg0Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun0_A (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond0_0 i) (hc1 : ¬cond0_1 i)
    (x0 x1 x2 : Vec F S1000x128 .f32) (x3 x4 x5 x6 : Vec F S128x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg0B.lean ====
import proofs.«126569_j1468878815453_1_alg».proof.Proof.K.Reg0A

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun0_B (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (hc1 : ¬cond0_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg0C.lean ====
import proofs.«126569_j1468878815453_1_alg».proof.Proof.K.Reg0B

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun0_C (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (hc1 : cond0_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Reg0.lean ====
import proofs.«126569_j1468878815453_1_alg».proof.Proof.K.Reg0C

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: what the kernel leaves point by point, the proof data, the body obligation -/

/-! ## What the first point leaves -/

/-- The body's run at point `t`, on the memrefs the pipeline passes there. -/
noncomputable abbrev runAt0_A (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 x0 x1 x2 x3 x4 x5 x6 x7 x8

/-- The pieces stored into the block output at the first point tile the buffer, so they cover it. -/
theorem cover0_A_9 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) (y : S1000x256.Idx) :
    ∃ pc ∈ (runAt0_A c t hc0 hc1 x0 x1 x2 x3 x4 x5 x6 x7 x8).1, y ∈ pc.1.set :=
  View.cover_of_tiledL (runAt0_A c t hc0 hc1 x0 x1 x2 x3 x4 x5 x6 x7 x8).1 S1000x256.size (by sl_kernel_rfl) y

/-- What the first point leaves in the block output: its pieces read back over junk. -/
noncomputable def out0_A_9 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) : Vec F S1000x256 .f32 :=
  VO0_9.read (Elt F) (VO0_9.writes (Elt F) VO0_9.junk (runAt0_A c t hc0 hc1 x0 x1 x2 x3 x4 x5 x6 x7 x8).1)

/-- The pieces stored into the first accumulator at the first point tile the buffer, so they cover it. -/
theorem scover0_A_0 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) (y : S1x256.Idx) :
    ∃ pc ∈ (runAt0_A c t hc0 hc1 x0 x1 x2 x3 x4 x5 x6 x7 x8).2.1, y ∈ pc.1.set :=
  View.cover_of_tiledL (runAt0_A c t hc0 hc1 x0 x1 x2 x3 x4 x5 x6 x7 x8).2.1 S1x256.size (by sl_kernel_rfl) y

/-- What the first point leaves in the first accumulator: its pieces read back over junk. -/
noncomputable def sout0_A_0 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) : Vec F S1x256 .f32 :=
  VS0_0.read (Elt F) (VS0_0.writes (Elt F) VS0_0.junk (runAt0_A c t hc0 hc1 x0 x1 x2 x3 x4 x5 x6 x7 x8).2.1)

/-- The pieces stored into the second accumulator at the first point tile the buffer, so they cover it. -/
theorem scover0_A_1 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) (y : S1x256.Idx) :
    ∃ pc ∈ (runAt0_A c t hc0 hc1 x0 x1 x2 x3 x4 x5 x6 x7 x8).2.2.1, y ∈ pc.1.set :=
  View.cover_of_tiledL (runAt0_A c t hc0 hc1 x0 x1 x2 x3 x4 x5 x6 x7 x8).2.2.1 S1x256.size (by sl_kernel_rfl) y

/-- What the first point leaves in the second accumulator: its pieces read back over junk. -/
noncomputable def sout0_A_1 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) : Vec F S1x256 .f32 :=
  VS0_1.read (Elt F) (VS0_1.writes (Elt F) VS0_1.junk (runAt0_A c t hc0 hc1 x0 x1 x2 x3 x4 x5 x6 x7 x8).2.2.1)

/-! ## What a middle point leaves -/

/-- The body's run at point `t`, on the memrefs the pipeline passes there. -/
noncomputable abbrev runAt0_B (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 x0 x1 x2 x3 x4 x5 x6 x7 x8 xs0 xs1

/-- The pieces stored into the block output at a middle point tile the buffer, so they cover it. -/
theorem cover0_B_9 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt0_B c t hc0 hc1 x0 x1 x2 x3 x4 x5 x6 x7 x8 xs0 xs1).1, y ∈ pc.1.set :=
  View.cover_of_tiledL (runAt0_B c t hc0 hc1 x0 x1 x2 x3 x4 x5 x6 x7 x8 xs0 xs1).1 S1000x256.size (by sl_kernel_rfl) y

/-- What a middle point leaves in the block output: its pieces read back over junk. -/
noncomputable def out0_B_9 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) : Vec F S1000x256 .f32 :=
  VO0_9.read (Elt F) (VO0_9.writes (Elt F) VO0_9.junk (runAt0_B c t hc0 hc1 x0 x1 x2 x3 x4 x5 x6 x7 x8 xs0 xs1).1)

/-- The pieces stored into the first accumulator at a middle point tile the buffer, so they cover it. -/
theorem scover0_B_0 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_B c t hc0 hc1 x0 x1 x2 x3 x4 x5 x6 x7 x8 xs0 xs1).2.1, y ∈ pc.1.set :=
  View.cover_of_tiledL (runAt0_B c t hc0 hc1 x0 x1 x2 x3 x4 x5 x6 x7 x8 xs0 xs1).2.1 S1x256.size (by sl_kernel_rfl) y

/-- What a middle point leaves in the first accumulator: its pieces read back over junk. -/
noncomputable def sout0_B_0 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_0.read (Elt F) (VS0_0.writes (Elt F) VS0_0.junk (runAt0_B c t hc0 hc1 x0 x1 x2 x3 x4 x5 x6 x7 x8 xs0 xs1).2.1)

/-- The pieces stored into the second accumulator at a middle point tile the buffer, so they cover it. -/
theorem scover0_B_1 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_B c t hc0 hc1 x0 x1 x2 x3 x4 x5 x6 x7 x8 xs0 xs1).2.2.1, y ∈ pc.1.set :=
  View.cover_of_tiledL (runAt0_B c t hc0 hc1 x0 x1 x2 x3 x4 x5 x6 x7 x8 xs0 xs1).2.2.1 S1x256.size (by sl_kernel_rfl) y

/-- What a middle point leaves in the second accumulator: its pieces read back over junk. -/
noncomputable def sout0_B_1 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_1.read (Elt F) (VS0_1.writes (Elt F) VS0_1.junk (runAt0_B c t hc0 hc1 x0 x1 x2 x3 x4 x5 x6 x7 x8 xs0 xs1).2.2.1)

/-! ## What the last point leaves -/

/-- The body's run at point `t`, on the memrefs the pipeline passes there. -/
noncomputable abbrev runAt0_C (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 x0 x1 x2 x3 x4 x5 x6 x7 x8 xs0 xs1

/-- The pieces stored into the block output at the last point tile the buffer, so they cover it. -/
theorem cover0_C_9 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt0_C c t hc0 hc1 x0 x1 x2 x3 x4 x5 x6 x7 x8 xs0 xs1).1, y ∈ pc.1.set :=
  View.cover_of_tiledL (runAt0_C c t hc0 hc1 x0 x1 x2 x3 x4 x5 x6 x7 x8 xs0 xs1).1 S1000x256.size (by sl_kernel_rfl) y

/-- What the last point leaves in the block output: its pieces read back over junk. -/
noncomputable def out0_C_9 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1000x256 .f32 :=
  VO0_9.read (Elt F) (VO0_9.writes (Elt F) VO0_9.junk (runAt0_C c t hc0 hc1 x0 x1 x2 x3 x4 x5 x6 x7 x8 xs0 xs1).1)

/-- The pieces stored into the mean output at the last point tile the buffer, so they cover it. -/
theorem cover0_C_10 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.1, y ∈ pc.1.set :=
  View.cover_of_tiledL (runAt0_C c t hc0 hc1 x0 x1 x2 x3 x4 x5 x6 x7 x8 xs0 xs1).2.1 S1x256.size (by sl_kernel_rfl) y

/-- What the last point leaves in the mean output: its pieces read back over junk. -/
noncomputable def out0_C_10 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VO0_10.read (Elt F) (VO0_10.writes (Elt F) VO0_10.junk (runAt0_C c t hc0 hc1 x0 x1 x2 x3 x4 x5 x6 x7 x8 xs0 xs1).2.1)

/-- The pieces stored into the variance output at the last point tile the buffer, so they cover it. -/
theorem cover0_C_11 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.2.1, y ∈ pc.1.set :=
  View.cover_of_tiledL (runAt0_C c t hc0 hc1 x0 x1 x2 x3 x4 x5 x6 x7 x8 xs0 xs1).2.2.1 S1x256.size (by sl_kernel_rfl) y

/-- What the last point leaves in the variance output: its pieces read back over junk. -/
noncomputable def out0_C_11 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VO0_11.read (Elt F) (VO0_11.writes (Elt F) VO0_11.junk (runAt0_C c t hc0 hc1 x0 x1 x2 x3 x4 x5 x6 x7 x8 xs0 xs1).2.2.1)

/-- The pieces stored into the first accumulator at the last point tile the buffer, so they cover it. -/
theorem scover0_C_0 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.2.2.1, y ∈ pc.1.set :=
  View.cover_of_tiledL (runAt0_C c t hc0 hc1 x0 x1 x2 x3 x4 x5 x6 x7 x8 xs0 xs1).2.2.2.1 S1x256.size (by sl_kernel_rfl) y

/-- What the last point leaves in the first accumulator: its pieces read back over junk. -/
noncomputable def sout0_C_0 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_0.read (Elt F) (VS0_0.writes (Elt F) VS0_0.junk (runAt0_C c t hc0 hc1 x0 x1 x2 x3 x4 x5 x6 x7 x8 xs0 xs1).2.2.2.1)

/-- The pieces stored into the second accumulator at the last point tile the buffer, so they cover it. -/
theorem scover0_C_1 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.2.2.2.1, y ∈ pc.1.set :=
  View.cover_of_tiledL (runAt0_C c t hc0 hc1 x0 x1 x2 x3 x4 x5 x6 x7 x8 xs0 xs1).2.2.2.2.1 S1x256.size (by sl_kernel_rfl) y

/-- What the last point leaves in the second accumulator: its pieces read back over junk. -/
noncomputable def sout0_C_1 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_1.read (Elt F) (VS0_1.writes (Elt F) VS0_1.junk (runAt0_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle0_10 : Vec F S1x256 .f32 := VO0_10.read (Elt F) VO0_10.junk
noncomputable def idle0_11 : Vec F S1x256 .f32 := VO0_11.read (Elt F) VO0_11.junk

/-- The conditions at the grid's points, from their closed forms. -/
theorem first0_c0 (hn : 0 < cfg0.N) : cond0_0 (grid0.coords ⟨0, hn⟩) := (hcond0_0 ⟨0, hn⟩).mpr (Nat.zero_mod _)
theorem first0_c1 (hn : 0 < cfg0.N) : ¬cond0_1 (grid0.coords ⟨0, hn⟩) := fun h => by
  have h' := (hcond0_1 ⟨0, hn⟩).mp h; (try dsimp only at h'); omega
theorem later0_c0 (t : Fin cfg0.N) (ht : t.val ≠ 0) : ¬cond0_0 (grid0.coords t) := fun h => by
  have h' := (hcond0_0 t).mp h
  have hN : t.val < 20 := lt_of_lt_of_eq t.isLt (show cfg0.N = 20 from N_0)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt0 (c : Dev nD) : (n : ℕ) → n < cfg0.N → Vec F S1000x256 .f32 × Vec F S1x256 .f32 × Vec F S1x256 .f32 × Vec F S1x256 .f32 × Vec F S1x256 .f32
  | 0, hn => (out0_A_9 c ⟨0, hn⟩ (first0_c0 hn) (first0_c1 hn) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), idle0_10, idle0_11, sout0_A_0 c ⟨0, hn⟩ (first0_c0 hn) (first0_c1 hn) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_1 c ⟨0, hn⟩ (first0_c0 hn) (first0_c1 hn) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h1 : (n + 1) % 20 = 19 then
      (out0_C_9 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, out0_C_10 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, out0_C_11 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, sout0_C_0 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, sout0_C_1 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2)
    else
      (out0_B_9 c ⟨n + 1, hn⟩ (later0_c0 ⟨n + 1, hn⟩ (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, idle0_10, idle0_11, sout0_B_0 c ⟨n + 1, hn⟩ (later0_c0 ⟨n + 1, hn⟩ (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, sout0_B_1 c ⟨n + 1, hn⟩ (later0_c0 ⟨n + 1, hn⟩ (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2)

/-- `outsAt0` at the first point: the reset case's contents. -/
theorem outsAt0_A (c : Dev nD) (t : Fin cfg0.N) (h0 : t.val = 0) (hc0 : cond0_0 (grid0.coords t)) (hc1 : ¬cond0_1 (grid0.coords t)) :
    outsAt0 V c t.val t.isLt = (out0_A_9 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t), idle0_10, idle0_11, sout0_A_0 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => rfl
  | succ n => exact absurd h0 (Nat.succ_ne_zero n)

/-- `outsAt0` at a middle point: that case's contents, over what the point before left in the accumulators. -/
theorem outsAt0_B (c : Dev nD) (t : Fin cfg0.N) (h0 : t.val ≠ 0) (h1 : ¬t.val % 20 = 19) (hc0 : ¬cond0_0 (grid0.coords t)) (hc1 : ¬cond0_1 (grid0.coords t)) :
    outsAt0 V c t.val t.isLt = (out0_B_9 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_10, idle0_11, sout0_B_0 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: that case's contents, over what the point before left in the accumulators. -/
theorem outsAt0_C (c : Dev nD) (t : Fin cfg0.N) (h0 : t.val ≠ 0) (h1 : t.val % 20 = 19) (hc0 : ¬cond0_0 (grid0.coords t)) (hc1 : cond0_1 (grid0.coords t)) :
    outsAt0 V c t.val t.isLt = (out0_C_9 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_10 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_11 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position `n`: before the first point the class's (every scratch at anything);
    afterwards the two accumulators at what the point before left in them (`outsAt0`'s last two components), the
    other scoped buffers unopened, and the generator register at some state. -/
noncomputable def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the outputs' at `outsAt0`; the invariant `PhiS0`; nothing owed; full
    shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the library's body obligation's precondition, the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases hz : t.val = 0
  · -- the first point: the reset
    have hc0 : cond0_0 (grid0.coords t) := (hcond0_0 t).mpr (by rw [hz])
    have hc1 : ¬cond0_1 (grid0.coords t) := fun h => by have h' := (hcond0_1 t).mp h; omega
    rw [show (dat0 V c).leavesExact 0 t = owns (c : Thread nD τ) (ms0_0 t) fullShare ((dat0 V c).after 0 t) from rfl, after0_0]
    rw [show (dat0 V c).leavesExact 1 t = owns (c : Thread nD τ) (ms0_1 t) fullShare ((dat0 V c).after 1 t) from rfl, after0_1]
    rw [show (dat0 V c).leavesExact 2 t = owns (c : Thread nD τ) (ms0_2 t) fullShare ((dat0 V c).after 2 t) from rfl, after0_2]
    rw [show (dat0 V c).leavesExact 3 t = owns (c : Thread nD τ) (ms0_3 t) fullShare ((dat0 V c).after 3 t) from rfl, after0_3]
    rw [show (dat0 V c).leavesExact 4 t = owns (c : Thread nD τ) (ms0_4 t) fullShare ((dat0 V c).after 4 t) from rfl, after0_4]
    rw [show (dat0 V c).leavesExact 5 t = owns (c : Thread nD τ) (ms0_5 t) fullShare ((dat0 V c).after 5 t) from rfl, after0_5]
    rw [show (dat0 V c).leavesExact 6 t = owns (c : Thread nD τ) (ms0_6 t) fullShare ((dat0 V c).after 6 t) from rfl, after0_6]
    rw [show (dat0 V c).leavesExact 7 t = owns (c : Thread nD τ) (ms0_7 t) fullShare ((dat0 V c).after 7 t) from rfl, after0_7]
    rw [show (dat0 V c).leavesExact 8 t = owns (c : Thread nD τ) (ms0_8 t) fullShare ((dat0 V c).after 8 t) from rfl, after0_8]
    rw [show (dat0 V c).leavesExact 9 t = owns (c : Thread nD τ) (ms0_9 t) fullShare ((dat0 V c).after 9 t) from rfl, after0_9]
    rw [Dat.leavesExact_idle (dat0 V c) 10 t (idleAt0_10 t hc1) (noFlush0_10 t hc1)]
    rw [Dat.leavesExact_idle (dat0 V c) 11 t (idleAt0_11 t hc1) (noFlush0_11 t hc1)]
    rw [outsAt0_A V c t hz hc0 hc1]
    unfold out0_A_9 sout0_A_0 sout0_A_1; (try dsimp only)
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt0_A c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c t _ _ _ _ _ _ _ _ _ _ _)
          unfold owns; iexists _; isplitr
          swap; · iexact HS1
          ipureintro; exact View.read_writes_of_cover _ _ _ _ _ (scover0_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c t _ _ _ _ _ _ _ _ _ _ _)
    isplitl [H10]; · iexists _; iexact H10
    iexists _; iexact H11
  · have hc0 : ¬cond0_0 (grid0.coords t) := later0_c0 t hz
    by_cases h1 : t.val % 20 = 19
    · -- the last point: the write-out
      have hc1 : cond0_1 (grid0.coords t) := (hcond0_1 t).mpr h1
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [show (dat0 V c).leavesExact 3 t = owns (c : Thread nD τ) (ms0_3 t) fullShare ((dat0 V c).after 3 t) from rfl, after0_3]
      rw [show (dat0 V c).leavesExact 4 t = owns (c : Thread nD τ) (ms0_4 t) fullShare ((dat0 V c).after 4 t) from rfl, after0_4]
      rw [show (dat0 V c).leavesExact 5 t = owns (c : Thread nD τ) (ms0_5 t) fullShare ((dat0 V c).after 5 t) from rfl, after0_5]
      rw [show (dat0 V c).leavesExact 6 t = owns (c : Thread nD τ) (ms0_6 t) fullShare ((dat0 V c).after 6 t) from rfl, after0_6]
      rw [show (dat0 V c).leavesExact 7 t = owns (c : Thread nD τ) (ms0_7 t) fullShare ((dat0 V c).after 7 t) from rfl, after0_7]
      rw [show (dat0 V c).leavesExact 8 t = owns (c : Thread nD τ) (ms0_8 t) fullShare ((dat0 V c).after 8 t) from rfl, after0_8]
      rw [show (dat0 V c).leavesExact 9 t = owns (c : Thread nD τ) (ms0_9 t) fullShare ((dat0 V c).after 9 t) from rfl, after0_9]
      rw [show (dat0 V c).leavesExact 10 t = owns (c : Thread nD τ) (ms0_10 t) fullShare ((dat0 V c).after 10 t) from by
        unfold Dat.leavesExact; rw [liveAt0_10 t hc1], after0_10]
      rw [show (dat0 V c).leavesExact 11 t = owns (c : Thread nD τ) (ms0_11 t) fullShare ((dat0 V c).after 11 t) from by
        unfold Dat.leavesExact; rw [liveAt0_11 t hc1], after0_11]
      rw [outsAt0_C V c t hz h1 hc0 hc1]
      unfold out0_C_9 out0_C_10 out0_C_11 sout0_C_0 sout0_C_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt0_C c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c t _ _ _ _ _ _ _ _ _ _ _ _ _)
            unfold owns; iexists _; isplitr
            swap; · iexact HS1
            ipureintro; exact View.read_writes_of_cover _ _ _ _ _ (scover0_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_C_9 c t _ _ _ _ _ _ _ _ _ _ _ _ _)
      isplitl [H10]
      · unfold owns; iexists _; isplitr
        swap; · iexact H10
        ipureintro; exact View.read_writes_of_cover _ _ _ _ _ (cover0_C_10 c t _ _ _ _ _ _ _ _ _ _ _ _ _)
      unfold owns; iexists _; isplitr
      swap; · iexact H11
      ipureintro; exact View.read_writes_of_cover _ _ _ _ _ (cover0_C_11 c t _ _ _ _ _ _ _ _ _ _ _ _ _)
    · -- a middle point
      have hc1 : ¬cond0_1 (grid0.coords t) := fun h => h1 ((hcond0_1 t).mp h)
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [show (dat0 V c).leavesExact 3 t = owns (c : Thread nD τ) (ms0_3 t) fullShare ((dat0 V c).after 3 t) from rfl, after0_3]
      rw [show (dat0 V c).leavesExact 4 t = owns (c : Thread nD τ) (ms0_4 t) fullShare ((dat0 V c).after 4 t) from rfl, after0_4]
      rw [show (dat0 V c).leavesExact 5 t = owns (c : Thread nD τ) (ms0_5 t) fullShare ((dat0 V c).after 5 t) from rfl, after0_5]
      rw [show (dat0 V c).leavesExact 6 t = owns (c : Thread nD τ) (ms0_6 t) fullShare ((dat0 V c).after 6 t) from rfl, after0_6]
      rw [show (dat0 V c).leavesExact 7 t = owns (c : Thread nD τ) (ms0_7 t) fullShare ((dat0 V c).after 7 t) from rfl, after0_7]
      rw [show (dat0 V c).leavesExact 8 t = owns (c : Thread nD τ) (ms0_8 t) fullShare ((dat0 V c).after 8 t) from rfl, after0_8]
      rw [show (dat0 V c).leavesExact 9 t = owns (c : Thread nD τ) (ms0_9 t) fullShare ((dat0 V c).after 9 t) from rfl, after0_9]
      rw [Dat.leavesExact_idle (dat0 V c) 10 t (idleAt0_10 t hc1) (noFlush0_10 t hc1)]
      rw [Dat.leavesExact_idle (dat0 V c) 11 t (idleAt0_11 t hc1) (noFlush0_11 t hc1)]
      rw [outsAt0_B V c t hz h1 hc0 hc1]
      unfold out0_B_9 sout0_B_0 sout0_B_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt0_B c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c t _ _ _ _ _ _ _ _ _ _ _ _ _)
            unfold owns; iexists _; isplitr
            swap; · iexact HS1
            ipureintro; exact View.read_writes_of_cover _ _ _ _ _ (scover0_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c t _ _ _ _ _ _ _ _ _ _ _ _ _)
      isplitl [H10]; · iexists _; iexact H10
      iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Cert.Kernel.Hand

end
-- ==== Proof.K.Reg1Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: custom call 1, the layer-1 combine of one node type, at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move is fetched at the first point only and keeps its block), for any proof data whose
    array is `V`'s and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the first `scf.if` (the accumulators' reset), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the second `scf.if` (the statistics' write-out). -/
abbrev cond1_1 (i : grid1.Coords) : Prop := k1_cond2 i = 1#1
/-- It holds at the last point only. -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- Output 9 is stored at every point. -/
theorem liveAt1_9 : ∀ t : Fin cfg1.N, cfg1.idle 9 (grid1.coords t) = false := by decide +kernel
/-- Outputs 10 and 11 are stored at the last point only: elsewhere idle and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
theorem liveAt1_11 : ∀ t : Fin cfg1.N, cond1_1 (grid1.coords t) → cfg1.idle 11 (grid1.coords t) = false := by decide +kernel

/-! ## The staging and scratch memrefs -/

/-- One staging buffer of each output window, through which its contents are stated (the choice does not matter). -/
noncomputable abbrev VO1_9 : View sig .tc .vmem S1000x256 .f32 := (Memref.whole cc1_stg9_0 : Memref sig .tc .vmem S1000x256 .f32).view
noncomputable abbrev VO1_10 : View sig .tc .vmem S1x256 .f32 := (Memref.whole cc1_stg10_0 : Memref sig .tc .vmem S1x256 .f32).view
noncomputable abbrev VO1_11 : View sig .tc .vmem S1x256 .f32 := (Memref.whole cc1_stg11_0 : Memref sig .tc .vmem S1x256 .f32).view
/-- Each window's current staging memref at point `t`, spelled as the pipeline passes it, and its wholeness. -/
noncomputable abbrev ms1_0 (t : Fin cfg1.N) : Memref sig .tc .vmem S1000x128 .f32 := win1_0.stage (cfg1.slots t 0)
noncomputable abbrev hs1_0 (t : Fin cfg1.N) : (ms1_0 t).IsWhole := hstage1_0 ((cfg1.slots t 0).cast nbuf1_0)
noncomputable abbrev ms1_1 (t : Fin cfg1.N) : Memref sig .tc .vmem S1000x128 .f32 := win1_1.stage (cfg1.slots t 1)
noncomputable abbrev hs1_1 (t : Fin cfg1.N) : (ms1_1 t).IsWhole := hstage1_1 ((cfg1.slots t 1).cast nbuf1_1)
noncomputable abbrev ms1_2 (t : Fin cfg1.N) : Memref sig .tc .vmem S1000x128 .f32 := win1_2.stage (cfg1.slots t 2)
noncomputable abbrev hs1_2 (t : Fin cfg1.N) : (ms1_2 t).IsWhole := hstage1_2 ((cfg1.slots t 2).cast nbuf1_2)
noncomputable abbrev ms1_3 (t : Fin cfg1.N) : Memref sig .tc .vmem S128x256 .f32 := win1_3.stage (cfg1.slots t 3)
noncomputable abbrev hs1_3 (t : Fin cfg1.N) : (ms1_3 t).IsWhole := hstage1_3 ((cfg1.slots t 3).cast nbuf1_3)
noncomputable abbrev ms1_4 (t : Fin cfg1.N) : Memref sig .tc .vmem S128x256 .f32 := win1_4.stage (cfg1.slots t 4)
noncomputable abbrev hs1_4 (t : Fin cfg1.N) : (ms1_4 t).IsWhole := hstage1_4 ((cfg1.slots t 4).cast nbuf1_4)
noncomputable abbrev ms1_5 (t : Fin cfg1.N) : Memref sig .tc .vmem S128x256 .f32 := win1_5.stage (cfg1.slots t 5)
noncomputable abbrev hs1_5 (t : Fin cfg1.N) : (ms1_5 t).IsWhole := hstage1_5 ((cfg1.slots t 5).cast nbuf1_5)
noncomputable abbrev ms1_6 (t : Fin cfg1.N) : Memref sig .tc .vmem S128x256 .f32 := win1_6.stage (cfg1.slots t 6)
noncomputable abbrev hs1_6 (t : Fin cfg1.N) : (ms1_6 t).IsWhole := hstage1_6 ((cfg1.slots t 6).cast nbuf1_6)
noncomputable abbrev ms1_7 (t : Fin cfg1.N) : Memref sig .tc .vmem S1x256 .f32 := win1_7.stage (cfg1.slots t 7)
noncomputable abbrev hs1_7 (t : Fin cfg1.N) : (ms1_7 t).IsWhole := hstage1_7 ((cfg1.slots t 7).cast nbuf1_7)
noncomputable abbrev ms1_8 (t : Fin cfg1.N) : Memref sig .tc .vmem S1x256 .f32 := win1_8.stage (cfg1.slots t 8)
noncomputable abbrev hs1_8 (t : Fin cfg1.N) : (ms1_8 t).IsWhole := hstage1_8 ((cfg1.slots t 8).cast nbuf1_8)
noncomputable abbrev ms1_9 (t : Fin cfg1.N) : Memref sig .tc .vmem S1000x256 .f32 := win1_9.stage (cfg1.slots t 9)
noncomputable abbrev hs1_9 (t : Fin cfg1.N) : (ms1_9 t).IsWhole := hstage1_9 ((cfg1.slots t 9).cast nbuf1_9)
noncomputable abbrev ms1_10 (t : Fin cfg1.N) : Memref sig .tc .vmem S1x256 .f32 := win1_10.stage (cfg1.slots t 10)
noncomputable abbrev hs1_10 (t : Fin cfg1.N) : (ms1_10 t).IsWhole := hstage1_10 ((cfg1.slots t 10).cast nbuf1_10)
noncomputable abbrev ms1_11 (t : Fin cfg1.N) : Memref sig .tc .vmem S1x256 .f32 := win1_11.stage (cfg1.slots t 11)
noncomputable abbrev hs1_11 (t : Fin cfg1.N) : (ms1_11 t).IsWhole := hstage1_11 ((cfg1.slots t 11).cast nbuf1_11)
/-- The two scratch operands: whole scoped buffers of the kernel's own, passed beside the windows. -/
noncomputable abbrev scM1_0 : Memref sig .tc .vmem S1x256 .f32 := Memref.whole cc1_scratch0
noncomputable abbrev scM1_1 : Memref sig .tc .vmem S1x256 .f32 := Memref.whole cc1_scratch1
/-- The scratch accumulators the kernel carries between points, as views: what they hold is stated through them. -/
noncomputable abbrev VS1_0 : View sig .tc .vmem S1x256 .f32 := scM1_0.view
noncomputable abbrev VS1_1 : View sig .tc .vmem S1x256 .f32 := scM1_1.view

/-- The class invariant with the two scratch operands as memrefs owned at some contents, the other scoped buffers
    unopened: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.K.Reg1A.lean ====
import proofs.«126569_j1468878815453_1_alg».proof.Proof.K.Reg1Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun1_A (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_0 i) (hc1 : ¬cond1_1 i)
    (x0 x1 x2 : Vec F S1000x128 .f32) (x3 x4 x5 x6 : Vec F S128x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg1B.lean ====
import proofs.«126569_j1468878815453_1_alg».proof.Proof.K.Reg1A

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun1_B (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_0 i) (hc1 : ¬cond1_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg1C.lean ====
import proofs.«126569_j1468878815453_1_alg».proof.Proof.K.Reg1B

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun1_C (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_0 i) (hc1 : cond1_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Reg1.lean ====
import proofs.«126569_j1468878815453_1_alg».proof.Proof.K.Reg1C

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: what the kernel leaves point by point, the proof data, the body obligation -/

/-! ## What the first point leaves -/

/-- The body's run at point `t`, on the memrefs the pipeline passes there. -/
noncomputable abbrev runAt1_A (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) hc0 hc1 x0 x1 x2 x3 x4 x5 x6 x7 x8

/-- The pieces stored into the block output at the first point tile the buffer, so they cover it. -/
theorem cover1_A_9 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) (y : S1000x256.Idx) :
    ∃ pc ∈ (runAt1_A c t hc0 hc1 x0 x1 x2 x3 x4 x5 x6 x7 x8).1, y ∈ pc.1.set :=
  View.cover_of_tiledL (runAt1_A c t hc0 hc1 x0 x1 x2 x3 x4 x5 x6 x7 x8).1 S1000x256.size (by sl_kernel_rfl) y

/-- What the first point leaves in the block output: its pieces read back over junk. -/
noncomputable def out1_A_9 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) : Vec F S1000x256 .f32 :=
  VO1_9.read (Elt F) (VO1_9.writes (Elt F) VO1_9.junk (runAt1_A c t hc0 hc1 x0 x1 x2 x3 x4 x5 x6 x7 x8).1)

/-- The pieces stored into the first accumulator at the first point tile the buffer, so they cover it. -/
theorem scover1_A_0 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) (y : S1x256.Idx) :
    ∃ pc ∈ (runAt1_A c t hc0 hc1 x0 x1 x2 x3 x4 x5 x6 x7 x8).2.1, y ∈ pc.1.set :=
  View.cover_of_tiledL (runAt1_A c t hc0 hc1 x0 x1 x2 x3 x4 x5 x6 x7 x8).2.1 S1x256.size (by sl_kernel_rfl) y

/-- What the first point leaves in the first accumulator: its pieces read back over junk. -/
noncomputable def sout1_A_0 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) : Vec F S1x256 .f32 :=
  VS1_0.read (Elt F) (VS1_0.writes (Elt F) VS1_0.junk (runAt1_A c t hc0 hc1 x0 x1 x2 x3 x4 x5 x6 x7 x8).2.1)

/-- The pieces stored into the second accumulator at the first point tile the buffer, so they cover it. -/
theorem scover1_A_1 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) (y : S1x256.Idx) :
    ∃ pc ∈ (runAt1_A c t hc0 hc1 x0 x1 x2 x3 x4 x5 x6 x7 x8).2.2.1, y ∈ pc.1.set :=
  View.cover_of_tiledL (runAt1_A c t hc0 hc1 x0 x1 x2 x3 x4 x5 x6 x7 x8).2.2.1 S1x256.size (by sl_kernel_rfl) y

/-- What the first point leaves in the second accumulator: its pieces read back over junk. -/
noncomputable def sout1_A_1 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) : Vec F S1x256 .f32 :=
  VS1_1.read (Elt F) (VS1_1.writes (Elt F) VS1_1.junk (runAt1_A c t hc0 hc1 x0 x1 x2 x3 x4 x5 x6 x7 x8).2.2.1)

/-! ## What a middle point leaves -/

/-- The body's run at point `t`, on the memrefs the pipeline passes there. -/
noncomputable abbrev runAt1_B (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) hc0 hc1 x0 x1 x2 x3 x4 x5 x6 x7 x8 xs0 xs1

/-- The pieces stored into the block output at a middle point tile the buffer, so they cover it. -/
theorem cover1_B_9 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt1_B c t hc0 hc1 x0 x1 x2 x3 x4 x5 x6 x7 x8 xs0 xs1).1, y ∈ pc.1.set :=
  View.cover_of_tiledL (runAt1_B c t hc0 hc1 x0 x1 x2 x3 x4 x5 x6 x7 x8 xs0 xs1).1 S1000x256.size (by sl_kernel_rfl) y

/-- What a middle point leaves in the block output: its pieces read back over junk. -/
noncomputable def out1_B_9 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) : Vec F S1000x256 .f32 :=
  VO1_9.read (Elt F) (VO1_9.writes (Elt F) VO1_9.junk (runAt1_B c t hc0 hc1 x0 x1 x2 x3 x4 x5 x6 x7 x8 xs0 xs1).1)

/-- The pieces stored into the first accumulator at a middle point tile the buffer, so they cover it. -/
theorem scover1_B_0 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_B c t hc0 hc1 x0 x1 x2 x3 x4 x5 x6 x7 x8 xs0 xs1).2.1, y ∈ pc.1.set :=
  View.cover_of_tiledL (runAt1_B c t hc0 hc1 x0 x1 x2 x3 x4 x5 x6 x7 x8 xs0 xs1).2.1 S1x256.size (by sl_kernel_rfl) y

/-- What a middle point leaves in the first accumulator: its pieces read back over junk. -/
noncomputable def sout1_B_0 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_0.read (Elt F) (VS1_0.writes (Elt F) VS1_0.junk (runAt1_B c t hc0 hc1 x0 x1 x2 x3 x4 x5 x6 x7 x8 xs0 xs1).2.1)

/-- The pieces stored into the second accumulator at a middle point tile the buffer, so they cover it. -/
theorem scover1_B_1 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_B c t hc0 hc1 x0 x1 x2 x3 x4 x5 x6 x7 x8 xs0 xs1).2.2.1, y ∈ pc.1.set :=
  View.cover_of_tiledL (runAt1_B c t hc0 hc1 x0 x1 x2 x3 x4 x5 x6 x7 x8 xs0 xs1).2.2.1 S1x256.size (by sl_kernel_rfl) y

/-- What a middle point leaves in the second accumulator: its pieces read back over junk. -/
noncomputable def sout1_B_1 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_1.read (Elt F) (VS1_1.writes (Elt F) VS1_1.junk (runAt1_B c t hc0 hc1 x0 x1 x2 x3 x4 x5 x6 x7 x8 xs0 xs1).2.2.1)

/-! ## What the last point leaves -/

/-- The body's run at point `t`, on the memrefs the pipeline passes there. -/
noncomputable abbrev runAt1_C (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) hc0 hc1 x0 x1 x2 x3 x4 x5 x6 x7 x8 xs0 xs1

/-- The pieces stored into the block output at the last point tile the buffer, so they cover it. -/
theorem cover1_C_9 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt1_C c t hc0 hc1 x0 x1 x2 x3 x4 x5 x6 x7 x8 xs0 xs1).1, y ∈ pc.1.set :=
  View.cover_of_tiledL (runAt1_C c t hc0 hc1 x0 x1 x2 x3 x4 x5 x6 x7 x8 xs0 xs1).1 S1000x256.size (by sl_kernel_rfl) y

/-- What the last point leaves in the block output: its pieces read back over junk. -/
noncomputable def out1_C_9 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1000x256 .f32 :=
  VO1_9.read (Elt F) (VO1_9.writes (Elt F) VO1_9.junk (runAt1_C c t hc0 hc1 x0 x1 x2 x3 x4 x5 x6 x7 x8 xs0 xs1).1)

/-- The pieces stored into the mean output at the last point tile the buffer, so they cover it. -/
theorem cover1_C_10 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.1, y ∈ pc.1.set :=
  View.cover_of_tiledL (runAt1_C c t hc0 hc1 x0 x1 x2 x3 x4 x5 x6 x7 x8 xs0 xs1).2.1 S1x256.size (by sl_kernel_rfl) y

/-- What the last point leaves in the mean output: its pieces read back over junk. -/
noncomputable def out1_C_10 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VO1_10.read (Elt F) (VO1_10.writes (Elt F) VO1_10.junk (runAt1_C c t hc0 hc1 x0 x1 x2 x3 x4 x5 x6 x7 x8 xs0 xs1).2.1)

/-- The pieces stored into the variance output at the last point tile the buffer, so they cover it. -/
theorem cover1_C_11 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.2.1, y ∈ pc.1.set :=
  View.cover_of_tiledL (runAt1_C c t hc0 hc1 x0 x1 x2 x3 x4 x5 x6 x7 x8 xs0 xs1).2.2.1 S1x256.size (by sl_kernel_rfl) y

/-- What the last point leaves in the variance output: its pieces read back over junk. -/
noncomputable def out1_C_11 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VO1_11.read (Elt F) (VO1_11.writes (Elt F) VO1_11.junk (runAt1_C c t hc0 hc1 x0 x1 x2 x3 x4 x5 x6 x7 x8 xs0 xs1).2.2.1)

/-- The pieces stored into the first accumulator at the last point tile the buffer, so they cover it. -/
theorem scover1_C_0 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.2.2.1, y ∈ pc.1.set :=
  View.cover_of_tiledL (runAt1_C c t hc0 hc1 x0 x1 x2 x3 x4 x5 x6 x7 x8 xs0 xs1).2.2.2.1 S1x256.size (by sl_kernel_rfl) y

/-- What the last point leaves in the first accumulator: its pieces read back over junk. -/
noncomputable def sout1_C_0 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_0.read (Elt F) (VS1_0.writes (Elt F) VS1_0.junk (runAt1_C c t hc0 hc1 x0 x1 x2 x3 x4 x5 x6 x7 x8 xs0 xs1).2.2.2.1)

/-- The pieces stored into the second accumulator at the last point tile the buffer, so they cover it. -/
theorem scover1_C_1 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.2.2.2.1, y ∈ pc.1.set :=
  View.cover_of_tiledL (runAt1_C c t hc0 hc1 x0 x1 x2 x3 x4 x5 x6 x7 x8 xs0 xs1).2.2.2.2.1 S1x256.size (by sl_kernel_rfl) y

/-- What the last point leaves in the second accumulator: its pieces read back over junk. -/
noncomputable def sout1_C_1 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_1.read (Elt F) (VS1_1.writes (Elt F) VS1_1.junk (runAt1_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle1_10 : Vec F S1x256 .f32 := VO1_10.read (Elt F) VO1_10.junk
noncomputable def idle1_11 : Vec F S1x256 .f32 := VO1_11.read (Elt F) VO1_11.junk

/-- The conditions at the grid's points, from their closed forms. -/
theorem first1_c0 (hn : 0 < cfg1.N) : cond1_0 (grid1.coords ⟨0, hn⟩) := (hcond1_0 ⟨0, hn⟩).mpr (Nat.zero_mod _)
theorem first1_c1 (hn : 0 < cfg1.N) : ¬cond1_1 (grid1.coords ⟨0, hn⟩) := fun h => by
  have h' := (hcond1_1 ⟨0, hn⟩).mp h; (try dsimp only at h'); omega
theorem later1_c0 (t : Fin cfg1.N) (ht : t.val ≠ 0) : ¬cond1_0 (grid1.coords t) := fun h => by
  have h' := (hcond1_0 t).mp h
  have hN : t.val < 50 := lt_of_lt_of_eq t.isLt (show cfg1.N = 50 from N_1)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt1 (c : Dev nD) : (n : ℕ) → n < cfg1.N → Vec F S1000x256 .f32 × Vec F S1x256 .f32 × Vec F S1x256 .f32 × Vec F S1x256 .f32 × Vec F S1x256 .f32
  | 0, hn => (out1_A_9 c ⟨0, hn⟩ (first1_c0 hn) (first1_c1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), idle1_10, idle1_11, sout1_A_0 c ⟨0, hn⟩ (first1_c0 hn) (first1_c1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_1 c ⟨0, hn⟩ (first1_c0 hn) (first1_c1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h1 : (n + 1) % 50 = 49 then
      (out1_C_9 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_10 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_11 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_0 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_1 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)
    else
      (out1_B_9 c ⟨n + 1, hn⟩ (later1_c0 ⟨n + 1, hn⟩ (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, idle1_10, idle1_11, sout1_B_0 c ⟨n + 1, hn⟩ (later1_c0 ⟨n + 1, hn⟩ (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_B_1 c ⟨n + 1, hn⟩ (later1_c0 ⟨n + 1, hn⟩ (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)

/-- `outsAt1` at the first point: the reset case's contents. -/
theorem outsAt1_A (c : Dev nD) (t : Fin cfg1.N) (h0 : t.val = 0) (hc0 : cond1_0 (grid1.coords t)) (hc1 : ¬cond1_1 (grid1.coords t)) :
    outsAt1 V c t.val t.isLt = (out1_A_9 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t), idle1_10, idle1_11, sout1_A_0 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t), sout1_A_1 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => rfl
  | succ n => exact absurd h0 (Nat.succ_ne_zero n)

/-- `outsAt1` at a middle point: that case's contents, over what the point before left in the accumulators. -/
theorem outsAt1_B (c : Dev nD) (t : Fin cfg1.N) (h0 : t.val ≠ 0) (h1 : ¬t.val % 50 = 49) (hc0 : ¬cond1_0 (grid1.coords t)) (hc1 : ¬cond1_1 (grid1.coords t)) :
    outsAt1 V c t.val t.isLt = (out1_B_9 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idle1_10, idle1_11, sout1_B_0 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: that case's contents, over what the point before left in the accumulators. -/
theorem outsAt1_C (c : Dev nD) (t : Fin cfg1.N) (h0 : t.val ≠ 0) (h1 : t.val % 50 = 49) (hc0 : ¬cond1_0 (grid1.coords t)) (hc1 : cond1_1 (grid1.coords t)) :
    outsAt1 V c t.val t.isLt = (out1_C_9 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_10 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_11 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut1 (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point the class's (every scratch at anything);
    afterwards the two accumulators at what the point before left in them (`outsAt1`'s last two components), the
    other scoped buffers unopened, and the generator register at some state. -/
noncomputable def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the outputs' at `outsAt1`; the invariant `PhiS1`; nothing owed; full
    shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the library's body obligation's precondition, the windows one by one), -/
noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases hz : t.val = 0
  · -- the first point: the reset
    have hc0 : cond1_0 (grid1.coords t) := (hcond1_0 t).mpr (by rw [hz])
    have hc1 : ¬cond1_1 (grid1.coords t) := fun h => by have h' := (hcond1_1 t).mp h; omega
    rw [show (dat1 V c).leavesExact 0 t = owns (c : Thread nD τ) (ms1_0 t) fullShare ((dat1 V c).after 0 t) from rfl, after1_0]
    rw [show (dat1 V c).leavesExact 1 t = owns (c : Thread nD τ) (ms1_1 t) fullShare ((dat1 V c).after 1 t) from rfl, after1_1]
    rw [show (dat1 V c).leavesExact 2 t = owns (c : Thread nD τ) (ms1_2 t) fullShare ((dat1 V c).after 2 t) from rfl, after1_2]
    rw [show (dat1 V c).leavesExact 3 t = owns (c : Thread nD τ) (ms1_3 t) fullShare ((dat1 V c).after 3 t) from rfl, after1_3]
    rw [show (dat1 V c).leavesExact 4 t = owns (c : Thread nD τ) (ms1_4 t) fullShare ((dat1 V c).after 4 t) from rfl, after1_4]
    rw [show (dat1 V c).leavesExact 5 t = owns (c : Thread nD τ) (ms1_5 t) fullShare ((dat1 V c).after 5 t) from rfl, after1_5]
    rw [show (dat1 V c).leavesExact 6 t = owns (c : Thread nD τ) (ms1_6 t) fullShare ((dat1 V c).after 6 t) from rfl, after1_6]
    rw [show (dat1 V c).leavesExact 7 t = owns (c : Thread nD τ) (ms1_7 t) fullShare ((dat1 V c).after 7 t) from rfl, after1_7]
    rw [show (dat1 V c).leavesExact 8 t = owns (c : Thread nD τ) (ms1_8 t) fullShare ((dat1 V c).after 8 t) from rfl, after1_8]
    rw [show (dat1 V c).leavesExact 9 t = owns (c : Thread nD τ) (ms1_9 t) fullShare ((dat1 V c).after 9 t) from rfl, after1_9]
    rw [Dat.leavesExact_idle (dat1 V c) 10 t (idleAt1_10 t hc1) (noFlush1_10 t hc1)]
    rw [Dat.leavesExact_idle (dat1 V c) 11 t (idleAt1_11 t hc1) (noFlush1_11 t hc1)]
    rw [outsAt1_A V c t hz hc0 hc1]
    unfold out1_A_9 sout1_A_0 sout1_A_1; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt1_A c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c t _ _ _ _ _ _ _ _ _ _ _)
          unfold owns; iexists _; isplitr
          swap; · iexact HS1
          ipureintro; exact View.read_writes_of_cover _ _ _ _ _ (scover1_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c t _ _ _ _ _ _ _ _ _ _ _)
    isplitl [H10]; · iexists _; iexact H10
    iexists _; iexact H11
  · have hc0 : ¬cond1_0 (grid1.coords t) := later1_c0 t hz
    by_cases h1 : t.val % 50 = 49
    · -- the last point: the write-out
      have hc1 : cond1_1 (grid1.coords t) := (hcond1_1 t).mpr h1
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [show (dat1 V c).leavesExact 6 t = owns (c : Thread nD τ) (ms1_6 t) fullShare ((dat1 V c).after 6 t) from rfl, after1_6]
      rw [show (dat1 V c).leavesExact 7 t = owns (c : Thread nD τ) (ms1_7 t) fullShare ((dat1 V c).after 7 t) from rfl, after1_7]
      rw [show (dat1 V c).leavesExact 8 t = owns (c : Thread nD τ) (ms1_8 t) fullShare ((dat1 V c).after 8 t) from rfl, after1_8]
      rw [show (dat1 V c).leavesExact 9 t = owns (c : Thread nD τ) (ms1_9 t) fullShare ((dat1 V c).after 9 t) from rfl, after1_9]
      rw [show (dat1 V c).leavesExact 10 t = owns (c : Thread nD τ) (ms1_10 t) fullShare ((dat1 V c).after 10 t) from by
        unfold Dat.leavesExact; rw [liveAt1_10 t hc1], after1_10]
      rw [show (dat1 V c).leavesExact 11 t = owns (c : Thread nD τ) (ms1_11 t) fullShare ((dat1 V c).after 11 t) from by
        unfold Dat.leavesExact; rw [liveAt1_11 t hc1], after1_11]
      rw [outsAt1_C V c t hz h1 hc0 hc1]
      unfold out1_C_9 out1_C_10 out1_C_11 sout1_C_0 sout1_C_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt1_C c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c t _ _ _ _ _ _ _ _ _ _ _ _ _)
            unfold owns; iexists _; isplitr
            swap; · iexact HS1
            ipureintro; exact View.read_writes_of_cover _ _ _ _ _ (scover1_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c t _ _ _ _ _ _ _ _ _ _ _ _ _)
      isplitl [H10]
      · unfold owns; iexists _; isplitr
        swap; · iexact H10
        ipureintro; exact View.read_writes_of_cover _ _ _ _ _ (cover1_C_10 c t _ _ _ _ _ _ _ _ _ _ _ _ _)
      unfold owns; iexists _; isplitr
      swap; · iexact H11
      ipureintro; exact View.read_writes_of_cover _ _ _ _ _ (cover1_C_11 c t _ _ _ _ _ _ _ _ _ _ _ _ _)
    · -- a middle point
      have hc1 : ¬cond1_1 (grid1.coords t) := fun h => h1 ((hcond1_1 t).mp h)
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [show (dat1 V c).leavesExact 6 t = owns (c : Thread nD τ) (ms1_6 t) fullShare ((dat1 V c).after 6 t) from rfl, after1_6]
      rw [show (dat1 V c).leavesExact 7 t = owns (c : Thread nD τ) (ms1_7 t) fullShare ((dat1 V c).after 7 t) from rfl, after1_7]
      rw [show (dat1 V c).leavesExact 8 t = owns (c : Thread nD τ) (ms1_8 t) fullShare ((dat1 V c).after 8 t) from rfl, after1_8]
      rw [show (dat1 V c).leavesExact 9 t = owns (c : Thread nD τ) (ms1_9 t) fullShare ((dat1 V c).after 9 t) from rfl, after1_9]
      rw [Dat.leavesExact_idle (dat1 V c) 10 t (idleAt1_10 t hc1) (noFlush1_10 t hc1)]
      rw [Dat.leavesExact_idle (dat1 V c) 11 t (idleAt1_11 t hc1) (noFlush1_11 t hc1)]
      rw [outsAt1_B V c t hz h1 hc0 hc1]
      unfold out1_B_9 sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt1_B c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c t _ _ _ _ _ _ _ _ _ _ _ _ _)
            unfold owns; iexists _; isplitr
            swap; · iexact HS1
            ipureintro; exact View.read_writes_of_cover _ _ _ _ _ (scover1_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c t _ _ _ _ _ _ _ _ _ _ _ _ _)
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.K.Reg2Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: custom call 2, the layer-1 combine of one node type, at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose
    block index does not move is fetched at the first point only and keeps its block), for any proof data whose
    array is `V`'s and whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the first `scf.if` (the accumulators' reset), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the second `scf.if` (the statistics' write-out). -/
abbrev cond2_1 (i : grid2.Coords) : Prop := k2_cond2 i = 1#1
/-- It holds at the last point only. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Output 9 is stored at every point. -/
theorem liveAt2_9 : ∀ t : Fin cfg2.N, cfg2.idle 9 (grid2.coords t) = false := by decide +kernel
/-- Outputs 10 and 11 are stored at the last point only: elsewhere idle and not written back. -/
theorem idleAt2_10 : ∀ t : Fin cfg2.N, ¬cond2_1 (grid2.coords t) → cfg2.idle 10 (grid2.coords t) = true := by decide +kernel
theorem noFlush2_10 : ∀ t : Fin cfg2.N, ¬cond2_1 (grid2.coords t) → (cfg2.win 10).flush t = false := by decide +kernel
theorem liveAt2_10 : ∀ t : Fin cfg2.N, cond2_1 (grid2.coords t) → cfg2.idle 10 (grid2.coords t) = false := by decide +kernel
theorem idleAt2_11 : ∀ t : Fin cfg2.N, ¬cond2_1 (grid2.coords t) → cfg2.idle 11 (grid2.coords t) = true := by decide +kernel
theorem noFlush2_11 : ∀ t : Fin cfg2.N, ¬cond2_1 (grid2.coords t) → (cfg2.win 11).flush t = false := by decide +kernel
theorem liveAt2_11 : ∀ t : Fin cfg2.N, cond2_1 (grid2.coords t) → cfg2.idle 11 (grid2.coords t) = false := by decide +kernel

/-! ## The staging and scratch memrefs -/

/-- One staging buffer of each output window, through which its contents are stated (the choice does not matter). -/
noncomputable abbrev VO2_9 : View sig .tc .vmem S1000x256 .f32 := (Memref.whole cc2_stg9_0 : Memref sig .tc .vmem S1000x256 .f32).view
noncomputable abbrev VO2_10 : View sig .tc .vmem S1x256 .f32 := (Memref.whole cc2_stg10_0 : Memref sig .tc .vmem S1x256 .f32).view
noncomputable abbrev VO2_11 : View sig .tc .vmem S1x256 .f32 := (Memref.whole cc2_stg11_0 : Memref sig .tc .vmem S1x256 .f32).view
/-- Each window's current staging memref at point `t`, spelled as the pipeline passes it, and its wholeness. -/
noncomputable abbrev ms2_0 (t : Fin cfg2.N) : Memref sig .tc .vmem S1000x128 .f32 := win2_0.stage (cfg2.slots t 0)
noncomputable abbrev hs2_0 (t : Fin cfg2.N) : (ms2_0 t).IsWhole := hstage2_0 ((cfg2.slots t 0).cast nbuf2_0)
noncomputable abbrev ms2_1 (t : Fin cfg2.N) : Memref sig .tc .vmem S1000x128 .f32 := win2_1.stage (cfg2.slots t 1)
noncomputable abbrev hs2_1 (t : Fin cfg2.N) : (ms2_1 t).IsWhole := hstage2_1 ((cfg2.slots t 1).cast nbuf2_1)
noncomputable abbrev ms2_2 (t : Fin cfg2.N) : Memref sig .tc .vmem S1000x128 .f32 := win2_2.stage (cfg2.slots t 2)
noncomputable abbrev hs2_2 (t : Fin cfg2.N) : (ms2_2 t).IsWhole := hstage2_2 ((cfg2.slots t 2).cast nbuf2_2)
noncomputable abbrev ms2_3 (t : Fin cfg2.N) : Memref sig .tc .vmem S128x256 .f32 := win2_3.stage (cfg2.slots t 3)
noncomputable abbrev hs2_3 (t : Fin cfg2.N) : (ms2_3 t).IsWhole := hstage2_3 ((cfg2.slots t 3).cast nbuf2_3)
noncomputable abbrev ms2_4 (t : Fin cfg2.N) : Memref sig .tc .vmem S128x256 .f32 := win2_4.stage (cfg2.slots t 4)
noncomputable abbrev hs2_4 (t : Fin cfg2.N) : (ms2_4 t).IsWhole := hstage2_4 ((cfg2.slots t 4).cast nbuf2_4)
noncomputable abbrev ms2_5 (t : Fin cfg2.N) : Memref sig .tc .vmem S128x256 .f32 := win2_5.stage (cfg2.slots t 5)
noncomputable abbrev hs2_5 (t : Fin cfg2.N) : (ms2_5 t).IsWhole := hstage2_5 ((cfg2.slots t 5).cast nbuf2_5)
noncomputable abbrev ms2_6 (t : Fin cfg2.N) : Memref sig .tc .vmem S128x256 .f32 := win2_6.stage (cfg2.slots t 6)
noncomputable abbrev hs2_6 (t : Fin cfg2.N) : (ms2_6 t).IsWhole := hstage2_6 ((cfg2.slots t 6).cast nbuf2_6)
noncomputable abbrev ms2_7 (t : Fin cfg2.N) : Memref sig .tc .vmem S1x256 .f32 := win2_7.stage (cfg2.slots t 7)
noncomputable abbrev hs2_7 (t : Fin cfg2.N) : (ms2_7 t).IsWhole := hstage2_7 ((cfg2.slots t 7).cast nbuf2_7)
noncomputable abbrev ms2_8 (t : Fin cfg2.N) : Memref sig .tc .vmem S1x256 .f32 := win2_8.stage (cfg2.slots t 8)
noncomputable abbrev hs2_8 (t : Fin cfg2.N) : (ms2_8 t).IsWhole := hstage2_8 ((cfg2.slots t 8).cast nbuf2_8)
noncomputable abbrev ms2_9 (t : Fin cfg2.N) : Memref sig .tc .vmem S1000x256 .f32 := win2_9.stage (cfg2.slots t 9)
noncomputable abbrev hs2_9 (t : Fin cfg2.N) : (ms2_9 t).IsWhole := hstage2_9 ((cfg2.slots t 9).cast nbuf2_9)
noncomputable abbrev ms2_10 (t : Fin cfg2.N) : Memref sig .tc .vmem S1x256 .f32 := win2_10.stage (cfg2.slots t 10)
noncomputable abbrev hs2_10 (t : Fin cfg2.N) : (ms2_10 t).IsWhole := hstage2_10 ((cfg2.slots t 10).cast nbuf2_10)
noncomputable abbrev ms2_11 (t : Fin cfg2.N) : Memref sig .tc .vmem S1x256 .f32 := win2_11.stage (cfg2.slots t 11)
noncomputable abbrev hs2_11 (t : Fin cfg2.N) : (ms2_11 t).IsWhole := hstage2_11 ((cfg2.slots t 11).cast nbuf2_11)
/-- The two scratch operands: whole scoped buffers of the kernel's own, passed beside the windows. -/
noncomputable abbrev scM2_0 : Memref sig .tc .vmem S1x256 .f32 := Memref.whole cc2_scratch0
noncomputable abbrev scM2_1 : Memref sig .tc .vmem S1x256 .f32 := Memref.whole cc2_scratch1
/-- The scratch accumulators the kernel carries between points, as views: what they hold is stated through them. -/
noncomputable abbrev VS2_0 : View sig .tc .vmem S1x256 .f32 := scM2_0.view
noncomputable abbrev VS2_1 : View sig .tc .vmem S1x256 .f32 := scM2_1.view

/-- The class invariant with the two scratch operands as memrefs owned at some contents, the other scoped buffers
    unopened: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.Reg2A.lean ====
import proofs.«126569_j1468878815453_1_alg».proof.Proof.K.Reg2Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun2_A (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond2_0 i) (hc1 : ¬cond2_1 i)
    (x0 x1 x2 : Vec F S1000x128 .f32) (x3 x4 x5 x6 : Vec F S128x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg2B.lean ====
import proofs.«126569_j1468878815453_1_alg».proof.Proof.K.Reg2A

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun2_B (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond2_0 i) (hc1 : ¬cond2_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg2C.lean ====
import proofs.«126569_j1468878815453_1_alg».proof.Proof.K.Reg2B

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun2_C (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond2_0 i) (hc1 : cond2_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Reg2.lean ====
import proofs.«126569_j1468878815453_1_alg».proof.Proof.K.Reg2C

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: what the kernel leaves point by point, the proof data, the body obligation -/

/-! ## What the first point leaves -/

/-- The body's run at point `t`, on the memrefs the pipeline passes there. -/
noncomputable abbrev runAt2_A (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) hc0 hc1 x0 x1 x2 x3 x4 x5 x6 x7 x8

/-- The pieces stored into the block output at the first point tile the buffer, so they cover it. -/
theorem cover2_A_9 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) (y : S1000x256.Idx) :
    ∃ pc ∈ (runAt2_A c t hc0 hc1 x0 x1 x2 x3 x4 x5 x6 x7 x8).1, y ∈ pc.1.set :=
  View.cover_of_tiledL (runAt2_A c t hc0 hc1 x0 x1 x2 x3 x4 x5 x6 x7 x8).1 S1000x256.size (by sl_kernel_rfl) y

/-- What the first point leaves in the block output: its pieces read back over junk. -/
noncomputable def out2_A_9 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) : Vec F S1000x256 .f32 :=
  VO2_9.read (Elt F) (VO2_9.writes (Elt F) VO2_9.junk (runAt2_A c t hc0 hc1 x0 x1 x2 x3 x4 x5 x6 x7 x8).1)

/-- The pieces stored into the first accumulator at the first point tile the buffer, so they cover it. -/
theorem scover2_A_0 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) (y : S1x256.Idx) :
    ∃ pc ∈ (runAt2_A c t hc0 hc1 x0 x1 x2 x3 x4 x5 x6 x7 x8).2.1, y ∈ pc.1.set :=
  View.cover_of_tiledL (runAt2_A c t hc0 hc1 x0 x1 x2 x3 x4 x5 x6 x7 x8).2.1 S1x256.size (by sl_kernel_rfl) y

/-- What the first point leaves in the first accumulator: its pieces read back over junk. -/
noncomputable def sout2_A_0 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) : Vec F S1x256 .f32 :=
  VS2_0.read (Elt F) (VS2_0.writes (Elt F) VS2_0.junk (runAt2_A c t hc0 hc1 x0 x1 x2 x3 x4 x5 x6 x7 x8).2.1)

/-- The pieces stored into the second accumulator at the first point tile the buffer, so they cover it. -/
theorem scover2_A_1 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) (y : S1x256.Idx) :
    ∃ pc ∈ (runAt2_A c t hc0 hc1 x0 x1 x2 x3 x4 x5 x6 x7 x8).2.2.1, y ∈ pc.1.set :=
  View.cover_of_tiledL (runAt2_A c t hc0 hc1 x0 x1 x2 x3 x4 x5 x6 x7 x8).2.2.1 S1x256.size (by sl_kernel_rfl) y

/-- What the first point leaves in the second accumulator: its pieces read back over junk. -/
noncomputable def sout2_A_1 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) : Vec F S1x256 .f32 :=
  VS2_1.read (Elt F) (VS2_1.writes (Elt F) VS2_1.junk (runAt2_A c t hc0 hc1 x0 x1 x2 x3 x4 x5 x6 x7 x8).2.2.1)

/-! ## What a middle point leaves -/

/-- The body's run at point `t`, on the memrefs the pipeline passes there. -/
noncomputable abbrev runAt2_B (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) hc0 hc1 x0 x1 x2 x3 x4 x5 x6 x7 x8 xs0 xs1

/-- The pieces stored into the block output at a middle point tile the buffer, so they cover it. -/
theorem cover2_B_9 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt2_B c t hc0 hc1 x0 x1 x2 x3 x4 x5 x6 x7 x8 xs0 xs1).1, y ∈ pc.1.set :=
  View.cover_of_tiledL (runAt2_B c t hc0 hc1 x0 x1 x2 x3 x4 x5 x6 x7 x8 xs0 xs1).1 S1000x256.size (by sl_kernel_rfl) y

/-- What a middle point leaves in the block output: its pieces read back over junk. -/
noncomputable def out2_B_9 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) : Vec F S1000x256 .f32 :=
  VO2_9.read (Elt F) (VO2_9.writes (Elt F) VO2_9.junk (runAt2_B c t hc0 hc1 x0 x1 x2 x3 x4 x5 x6 x7 x8 xs0 xs1).1)

/-- The pieces stored into the first accumulator at a middle point tile the buffer, so they cover it. -/
theorem scover2_B_0 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_B c t hc0 hc1 x0 x1 x2 x3 x4 x5 x6 x7 x8 xs0 xs1).2.1, y ∈ pc.1.set :=
  View.cover_of_tiledL (runAt2_B c t hc0 hc1 x0 x1 x2 x3 x4 x5 x6 x7 x8 xs0 xs1).2.1 S1x256.size (by sl_kernel_rfl) y

/-- What a middle point leaves in the first accumulator: its pieces read back over junk. -/
noncomputable def sout2_B_0 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_0.read (Elt F) (VS2_0.writes (Elt F) VS2_0.junk (runAt2_B c t hc0 hc1 x0 x1 x2 x3 x4 x5 x6 x7 x8 xs0 xs1).2.1)

/-- The pieces stored into the second accumulator at a middle point tile the buffer, so they cover it. -/
theorem scover2_B_1 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_B c t hc0 hc1 x0 x1 x2 x3 x4 x5 x6 x7 x8 xs0 xs1).2.2.1, y ∈ pc.1.set :=
  View.cover_of_tiledL (runAt2_B c t hc0 hc1 x0 x1 x2 x3 x4 x5 x6 x7 x8 xs0 xs1).2.2.1 S1x256.size (by sl_kernel_rfl) y

/-- What a middle point leaves in the second accumulator: its pieces read back over junk. -/
noncomputable def sout2_B_1 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_1.read (Elt F) (VS2_1.writes (Elt F) VS2_1.junk (runAt2_B c t hc0 hc1 x0 x1 x2 x3 x4 x5 x6 x7 x8 xs0 xs1).2.2.1)

/-! ## What the last point leaves -/

/-- The body's run at point `t`, on the memrefs the pipeline passes there. -/
noncomputable abbrev runAt2_C (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) hc0 hc1 x0 x1 x2 x3 x4 x5 x6 x7 x8 xs0 xs1

/-- The pieces stored into the block output at the last point tile the buffer, so they cover it. -/
theorem cover2_C_9 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt2_C c t hc0 hc1 x0 x1 x2 x3 x4 x5 x6 x7 x8 xs0 xs1).1, y ∈ pc.1.set :=
  View.cover_of_tiledL (runAt2_C c t hc0 hc1 x0 x1 x2 x3 x4 x5 x6 x7 x8 xs0 xs1).1 S1000x256.size (by sl_kernel_rfl) y

/-- What the last point leaves in the block output: its pieces read back over junk. -/
noncomputable def out2_C_9 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1000x256 .f32 :=
  VO2_9.read (Elt F) (VO2_9.writes (Elt F) VO2_9.junk (runAt2_C c t hc0 hc1 x0 x1 x2 x3 x4 x5 x6 x7 x8 xs0 xs1).1)

/-- The pieces stored into the mean output at the last point tile the buffer, so they cover it. -/
theorem cover2_C_10 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.1, y ∈ pc.1.set :=
  View.cover_of_tiledL (runAt2_C c t hc0 hc1 x0 x1 x2 x3 x4 x5 x6 x7 x8 xs0 xs1).2.1 S1x256.size (by sl_kernel_rfl) y

/-- What the last point leaves in the mean output: its pieces read back over junk. -/
noncomputable def out2_C_10 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VO2_10.read (Elt F) (VO2_10.writes (Elt F) VO2_10.junk (runAt2_C c t hc0 hc1 x0 x1 x2 x3 x4 x5 x6 x7 x8 xs0 xs1).2.1)

/-- The pieces stored into the variance output at the last point tile the buffer, so they cover it. -/
theorem cover2_C_11 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.2.1, y ∈ pc.1.set :=
  View.cover_of_tiledL (runAt2_C c t hc0 hc1 x0 x1 x2 x3 x4 x5 x6 x7 x8 xs0 xs1).2.2.1 S1x256.size (by sl_kernel_rfl) y

/-- What the last point leaves in the variance output: its pieces read back over junk. -/
noncomputable def out2_C_11 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VO2_11.read (Elt F) (VO2_11.writes (Elt F) VO2_11.junk (runAt2_C c t hc0 hc1 x0 x1 x2 x3 x4 x5 x6 x7 x8 xs0 xs1).2.2.1)

/-- The pieces stored into the first accumulator at the last point tile the buffer, so they cover it. -/
theorem scover2_C_0 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.2.2.1, y ∈ pc.1.set :=
  View.cover_of_tiledL (runAt2_C c t hc0 hc1 x0 x1 x2 x3 x4 x5 x6 x7 x8 xs0 xs1).2.2.2.1 S1x256.size (by sl_kernel_rfl) y

/-- What the last point leaves in the first accumulator: its pieces read back over junk. -/
noncomputable def sout2_C_0 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_0.read (Elt F) (VS2_0.writes (Elt F) VS2_0.junk (runAt2_C c t hc0 hc1 x0 x1 x2 x3 x4 x5 x6 x7 x8 xs0 xs1).2.2.2.1)

/-- The pieces stored into the second accumulator at the last point tile the buffer, so they cover it. -/
theorem scover2_C_1 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.2.2.2.1, y ∈ pc.1.set :=
  View.cover_of_tiledL (runAt2_C c t hc0 hc1 x0 x1 x2 x3 x4 x5 x6 x7 x8 xs0 xs1).2.2.2.2.1 S1x256.size (by sl_kernel_rfl) y

/-- What the last point leaves in the second accumulator: its pieces read back over junk. -/
noncomputable def sout2_C_1 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_1.read (Elt F) (VS2_1.writes (Elt F) VS2_1.junk (runAt2_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle2_10 : Vec F S1x256 .f32 := VO2_10.read (Elt F) VO2_10.junk
noncomputable def idle2_11 : Vec F S1x256 .f32 := VO2_11.read (Elt F) VO2_11.junk

/-- The conditions at the grid's points, from their closed forms. -/
theorem first2_c0 (hn : 0 < cfg2.N) : cond2_0 (grid2.coords ⟨0, hn⟩) := (hcond2_0 ⟨0, hn⟩).mpr (Nat.zero_mod _)
theorem first2_c1 (hn : 0 < cfg2.N) : ¬cond2_1 (grid2.coords ⟨0, hn⟩) := fun h => by
  have h' := (hcond2_1 ⟨0, hn⟩).mp h; (try dsimp only at h'); omega
theorem later2_c0 (t : Fin cfg2.N) (ht : t.val ≠ 0) : ¬cond2_0 (grid2.coords t) := fun h => by
  have h' := (hcond2_0 t).mp h
  have hN : t.val < 10 := lt_of_lt_of_eq t.isLt (show cfg2.N = 10 from N_2)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt2 (c : Dev nD) : (n : ℕ) → n < cfg2.N → Vec F S1000x256 .f32 × Vec F S1x256 .f32 × Vec F S1x256 .f32 × Vec F S1x256 .f32 × Vec F S1x256 .f32
  | 0, hn => (out2_A_9 c ⟨0, hn⟩ (first2_c0 hn) (first2_c1 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), idle2_10, idle2_11, sout2_A_0 c ⟨0, hn⟩ (first2_c0 hn) (first2_c1 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_1 c ⟨0, hn⟩ (first2_c0 hn) (first2_c1 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h1 : (n + 1) % 10 = 9 then
      (out2_C_9 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, out2_C_10 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, out2_C_11 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, sout2_C_0 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, sout2_C_1 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2)
    else
      (out2_B_9 c ⟨n + 1, hn⟩ (later2_c0 ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, idle2_10, idle2_11, sout2_B_0 c ⟨n + 1, hn⟩ (later2_c0 ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, sout2_B_1 c ⟨n + 1, hn⟩ (later2_c0 ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2)

/-- `outsAt2` at the first point: the reset case's contents. -/
theorem outsAt2_A (c : Dev nD) (t : Fin cfg2.N) (h0 : t.val = 0) (hc0 : cond2_0 (grid2.coords t)) (hc1 : ¬cond2_1 (grid2.coords t)) :
    outsAt2 V c t.val t.isLt = (out2_A_9 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t), idle2_10, idle2_11, sout2_A_0 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t), sout2_A_1 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => rfl
  | succ n => exact absurd h0 (Nat.succ_ne_zero n)

/-- `outsAt2` at a middle point: that case's contents, over what the point before left in the accumulators. -/
theorem outsAt2_B (c : Dev nD) (t : Fin cfg2.N) (h0 : t.val ≠ 0) (h1 : ¬t.val % 10 = 9) (hc0 : ¬cond2_0 (grid2.coords t)) (hc1 : ¬cond2_1 (grid2.coords t)) :
    outsAt2 V c t.val t.isLt = (out2_B_9 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_10, idle2_11, sout2_B_0 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: that case's contents, over what the point before left in the accumulators. -/
theorem outsAt2_C (c : Dev nD) (t : Fin cfg2.N) (h0 : t.val ≠ 0) (h1 : t.val % 10 = 9) (hc0 : ¬cond2_0 (grid2.coords t)) (hc1 : cond2_1 (grid2.coords t)) :
    outsAt2 V c t.val t.isLt = (out2_C_9 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_10 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_11 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut2 (c : Dev nD) : sProp 𝕄 :=
  Pipeline.scopedRestBut (Ix := Unit) (Name := ℕ) (U := UR sig nD τ) (Lvl := ℕ) (Val := Elt F) spec2 c [cc2_scratch0, cc2_scratch1]

/-- The region invariant before position `n`: before the first point the class's (every scratch at anything);
    afterwards the two accumulators at what the point before left in them (`outsAt2`'s last two components), the
    other scoped buffers unopened, and the generator register at some state. -/
noncomputable def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the outputs' at `outsAt2`; the invariant `PhiS2`; nothing owed; full
    shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
    | ⟨11, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]
theorem after2_11 (c : Dev nD) (t : Fin cfg2.N) : (dat2 V c).after 11 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (the library's body obligation's precondition, the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases hz : t.val = 0
  · -- the first point: the reset
    have hc0 : cond2_0 (grid2.coords t) := (hcond2_0 t).mpr (by rw [hz])
    have hc1 : ¬cond2_1 (grid2.coords t) := fun h => by have h' := (hcond2_1 t).mp h; omega
    rw [show (dat2 V c).leavesExact 0 t = owns (c : Thread nD τ) (ms2_0 t) fullShare ((dat2 V c).after 0 t) from rfl, after2_0]
    rw [show (dat2 V c).leavesExact 1 t = owns (c : Thread nD τ) (ms2_1 t) fullShare ((dat2 V c).after 1 t) from rfl, after2_1]
    rw [show (dat2 V c).leavesExact 2 t = owns (c : Thread nD τ) (ms2_2 t) fullShare ((dat2 V c).after 2 t) from rfl, after2_2]
    rw [show (dat2 V c).leavesExact 3 t = owns (c : Thread nD τ) (ms2_3 t) fullShare ((dat2 V c).after 3 t) from rfl, after2_3]
    rw [show (dat2 V c).leavesExact 4 t = owns (c : Thread nD τ) (ms2_4 t) fullShare ((dat2 V c).after 4 t) from rfl, after2_4]
    rw [show (dat2 V c).leavesExact 5 t = owns (c : Thread nD τ) (ms2_5 t) fullShare ((dat2 V c).after 5 t) from rfl, after2_5]
    rw [show (dat2 V c).leavesExact 6 t = owns (c : Thread nD τ) (ms2_6 t) fullShare ((dat2 V c).after 6 t) from rfl, after2_6]
    rw [show (dat2 V c).leavesExact 7 t = owns (c : Thread nD τ) (ms2_7 t) fullShare ((dat2 V c).after 7 t) from rfl, after2_7]
    rw [show (dat2 V c).leavesExact 8 t = owns (c : Thread nD τ) (ms2_8 t) fullShare ((dat2 V c).after 8 t) from rfl, after2_8]
    rw [show (dat2 V c).leavesExact 9 t = owns (c : Thread nD τ) (ms2_9 t) fullShare ((dat2 V c).after 9 t) from rfl, after2_9]
    rw [Dat.leavesExact_idle (dat2 V c) 10 t (idleAt2_10 t hc1) (noFlush2_10 t hc1)]
    rw [Dat.leavesExact_idle (dat2 V c) 11 t (idleAt2_11 t hc1) (noFlush2_11 t hc1)]
    rw [outsAt2_A V c t hz hc0 hc1]
    unfold out2_A_9 sout2_A_0 sout2_A_1; (try dsimp only)
    rw [PhiS2_castSucc V c t, PhiS2_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt2_A c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c t _ _ _ _ _ _ _ _ _ _ _)
          unfold owns; iexists _; isplitr
          swap; · iexact HS1
          ipureintro; exact View.read_writes_of_cover _ _ _ _ _ (scover2_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover2_A_9 c t _ _ _ _ _ _ _ _ _ _ _)
    isplitl [H10]; · iexists _; iexact H10
    iexists _; iexact H11
  · have hc0 : ¬cond2_0 (grid2.coords t) := later2_c0 t hz
    by_cases h1 : t.val % 10 = 9
    · -- the last point: the write-out
      have hc1 : cond2_1 (grid2.coords t) := (hcond2_1 t).mpr h1
      rw [show (dat2 V c).leavesExact 0 t = owns (c : Thread nD τ) (ms2_0 t) fullShare ((dat2 V c).after 0 t) from rfl, after2_0]
      rw [show (dat2 V c).leavesExact 1 t = owns (c : Thread nD τ) (ms2_1 t) fullShare ((dat2 V c).after 1 t) from rfl, after2_1]
      rw [show (dat2 V c).leavesExact 2 t = owns (c : Thread nD τ) (ms2_2 t) fullShare ((dat2 V c).after 2 t) from rfl, after2_2]
      rw [show (dat2 V c).leavesExact 3 t = owns (c : Thread nD τ) (ms2_3 t) fullShare ((dat2 V c).after 3 t) from rfl, after2_3]
      rw [show (dat2 V c).leavesExact 4 t = owns (c : Thread nD τ) (ms2_4 t) fullShare ((dat2 V c).after 4 t) from rfl, after2_4]
      rw [show (dat2 V c).leavesExact 5 t = owns (c : Thread nD τ) (ms2_5 t) fullShare ((dat2 V c).after 5 t) from rfl, after2_5]
      rw [show (dat2 V c).leavesExact 6 t = owns (c : Thread nD τ) (ms2_6 t) fullShare ((dat2 V c).after 6 t) from rfl, after2_6]
      rw [show (dat2 V c).leavesExact 7 t = owns (c : Thread nD τ) (ms2_7 t) fullShare ((dat2 V c).after 7 t) from rfl, after2_7]
      rw [show (dat2 V c).leavesExact 8 t = owns (c : Thread nD τ) (ms2_8 t) fullShare ((dat2 V c).after 8 t) from rfl, after2_8]
      rw [show (dat2 V c).leavesExact 9 t = owns (c : Thread nD τ) (ms2_9 t) fullShare ((dat2 V c).after 9 t) from rfl, after2_9]
      rw [show (dat2 V c).leavesExact 10 t = owns (c : Thread nD τ) (ms2_10 t) fullShare ((dat2 V c).after 10 t) from by
        unfold Dat.leavesExact; rw [liveAt2_10 t hc1], after2_10]
      rw [show (dat2 V c).leavesExact 11 t = owns (c : Thread nD τ) (ms2_11 t) fullShare ((dat2 V c).after 11 t) from by
        unfold Dat.leavesExact; rw [liveAt2_11 t hc1], after2_11]
      rw [outsAt2_C V c t hz h1 hc0 hc1]
      unfold out2_C_9 out2_C_10 out2_C_11 sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt2_C c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c t _ _ _ _ _ _ _ _ _ _ _ _ _)
            unfold owns; iexists _; isplitr
            swap; · iexact HS1
            ipureintro; exact View.read_writes_of_cover _ _ _ _ _ (scover2_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover2_C_9 c t _ _ _ _ _ _ _ _ _ _ _ _ _)
      isplitl [H10]
      · unfold owns; iexists _; isplitr
        swap; · iexact H10
        ipureintro; exact View.read_writes_of_cover _ _ _ _ _ (cover2_C_10 c t _ _ _ _ _ _ _ _ _ _ _ _ _)
      unfold owns; iexists _; isplitr
      swap; · iexact H11
      ipureintro; exact View.read_writes_of_cover _ _ _ _ _ (cover2_C_11 c t _ _ _ _ _ _ _ _ _ _ _ _ _)
    · -- a middle point
      have hc1 : ¬cond2_1 (grid2.coords t) := fun h => h1 ((hcond2_1 t).mp h)
      rw [show (dat2 V c).leavesExact 0 t = owns (c : Thread nD τ) (ms2_0 t) fullShare ((dat2 V c).after 0 t) from rfl, after2_0]
      rw [show (dat2 V c).leavesExact 1 t = owns (c : Thread nD τ) (ms2_1 t) fullShare ((dat2 V c).after 1 t) from rfl, after2_1]
      rw [show (dat2 V c).leavesExact 2 t = owns (c : Thread nD τ) (ms2_2 t) fullShare ((dat2 V c).after 2 t) from rfl, after2_2]
      rw [show (dat2 V c).leavesExact 3 t = owns (c : Thread nD τ) (ms2_3 t) fullShare ((dat2 V c).after 3 t) from rfl, after2_3]
      rw [show (dat2 V c).leavesExact 4 t = owns (c : Thread nD τ) (ms2_4 t) fullShare ((dat2 V c).after 4 t) from rfl, after2_4]
      rw [show (dat2 V c).leavesExact 5 t = owns (c : Thread nD τ) (ms2_5 t) fullShare ((dat2 V c).after 5 t) from rfl, after2_5]
      rw [show (dat2 V c).leavesExact 6 t = owns (c : Thread nD τ) (ms2_6 t) fullShare ((dat2 V c).after 6 t) from rfl, after2_6]
      rw [show (dat2 V c).leavesExact 7 t = owns (c : Thread nD τ) (ms2_7 t) fullShare ((dat2 V c).after 7 t) from rfl, after2_7]
      rw [show (dat2 V c).leavesExact 8 t = owns (c : Thread nD τ) (ms2_8 t) fullShare ((dat2 V c).after 8 t) from rfl, after2_8]
      rw [show (dat2 V c).leavesExact 9 t = owns (c : Thread nD τ) (ms2_9 t) fullShare ((dat2 V c).after 9 t) from rfl, after2_9]
      rw [Dat.leavesExact_idle (dat2 V c) 10 t (idleAt2_10 t hc1) (noFlush2_10 t hc1)]
      rw [Dat.leavesExact_idle (dat2 V c) 11 t (idleAt2_11 t hc1) (noFlush2_11 t hc1)]
      rw [outsAt2_B V c t hz h1 hc0 hc1]
      unfold out2_B_9 sout2_B_0 sout2_B_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt2_B c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c t _ _ _ _ _ _ _ _ _ _ _ _ _)
            unfold owns; iexists _; isplitr
            swap; · iexact HS1
            ipureintro; exact View.read_writes_of_cover _ _ _ _ _ (scover2_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover2_B_9 c t _ _ _ _ _ _ _ _ _ _ _ _ _)
      isplitl [H10]; · iexists _; iexact H10
      iexists _; iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Cert.Kernel.Hand

end
-- ==== Proof.K.Reg3Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # Custom call 3 (the one-relation combine kernel with its running column sums), what its three cases share

The windows' blocks at the region's entry contents `V`, the two branch conditions decided over the three grid points,
where the two statistics windows are idle, and the staging and scratch memrefs the body is called with. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the neighbours' mean rows) holds its block at every point, fetched there or not, for any proof data whose array is
    `V`'s and whose body leaves the block in place: an unfetched input's block index has not moved; the window is
    uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the node's own rows) holds its block at every point, fetched there or not, for any proof data whose array is
    `V`'s and whose body leaves the block in place: an unfetched input's block index has not moved; the window is
    uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the neighbour weight matrix) holds its block at every point, fetched there or not, for any proof data whose array is
    `V`'s and whose body leaves the block in place: an unfetched input's block index has not moved; the window is
    uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 (the root weight matrix) holds its block at every point, fetched there or not, for any proof data whose array is
    `V`'s and whose body leaves the block in place: an unfetched input's block index has not moved; the window is
    uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 (the bias row) holds its block at every point, fetched there or not, for any proof data whose array is
    `V`'s and whose body leaves the block in place: an unfetched input's block index has not moved; the window is
    uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the first `scf.if` (the running sums' reset), from the grid coordinate. -/
noncomputable abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 3 = 0 :=
  (by decide +kernel : ∀ t : Fin grid3.N, cond3_0 (grid3.coords t) ↔ t.val % 3 = 0)

/-- The condition of the second `scf.if` (the statistics' write-out). -/
noncomputable abbrev cond3_1 (i : grid3.Coords) : Prop := k3_cond2 i = 1#1
/-- It holds at the last point only. -/
theorem hcond3_1 : ∀ t : Fin cfg3.N, cond3_1 (grid3.coords t) ↔ t.val % 3 = 2 :=
  (by decide +kernel : ∀ t : Fin grid3.N, cond3_1 (grid3.coords t) ↔ t.val % 3 = 2)

/-! ## Where the windows are idle -/

/-- The row-block output is never idle. -/
theorem liveAt3_5 : ∀ t : Fin cfg3.N, cfg3.idle 5 (grid3.coords t) = false := by decide +kernel
/-- Away from the last point the mean window is idle (nothing is stored into it) and not written back; -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- at the last point it is live. -/
theorem liveAt3_6 : ∀ t : Fin cfg3.N, cond3_1 (grid3.coords t) → cfg3.idle 6 (grid3.coords t) = false := by decide +kernel
/-- The variance window likewise. -/
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

/-! ## The memrefs the body is called with -/

/-- One staging buffer of each output window, through which its contents are stated (the choice does not matter). -/
noncomputable abbrev VO3_5 : View sig .tc .vmem S1000x256 .f32 := (Memref.whole cc3_stg5_0 : Memref sig .tc .vmem S1000x256 .f32).view
noncomputable abbrev VO3_6 : View sig .tc .vmem S1x256 .f32 := (Memref.whole cc3_stg6_0 : Memref sig .tc .vmem S1x256 .f32).view
noncomputable abbrev VO3_7 : View sig .tc .vmem S1x256 .f32 := (Memref.whole cc3_stg7_0 : Memref sig .tc .vmem S1x256 .f32).view
/-- Each window's current staging memref at point `t`, spelled as the pipeline passes it, and its wholeness. -/
noncomputable abbrev ms3_0 (t : Fin cfg3.N) : Memref sig .tc .vmem S1000x128 .f32 := win3_0.stage (cfg3.slots t 0)
noncomputable abbrev hs3_0 (t : Fin cfg3.N) : (ms3_0 t).IsWhole := hstage3_0 ((cfg3.slots t 0).cast nbuf3_0)
noncomputable abbrev ms3_1 (t : Fin cfg3.N) : Memref sig .tc .vmem S1000x128 .f32 := win3_1.stage (cfg3.slots t 1)
noncomputable abbrev hs3_1 (t : Fin cfg3.N) : (ms3_1 t).IsWhole := hstage3_1 ((cfg3.slots t 1).cast nbuf3_1)
noncomputable abbrev ms3_2 (t : Fin cfg3.N) : Memref sig .tc .vmem S128x256 .f32 := win3_2.stage (cfg3.slots t 2)
noncomputable abbrev hs3_2 (t : Fin cfg3.N) : (ms3_2 t).IsWhole := hstage3_2 ((cfg3.slots t 2).cast nbuf3_2)
noncomputable abbrev ms3_3 (t : Fin cfg3.N) : Memref sig .tc .vmem S128x256 .f32 := win3_3.stage (cfg3.slots t 3)
noncomputable abbrev hs3_3 (t : Fin cfg3.N) : (ms3_3 t).IsWhole := hstage3_3 ((cfg3.slots t 3).cast nbuf3_3)
noncomputable abbrev ms3_4 (t : Fin cfg3.N) : Memref sig .tc .vmem S1x256 .f32 := win3_4.stage (cfg3.slots t 4)
noncomputable abbrev hs3_4 (t : Fin cfg3.N) : (ms3_4 t).IsWhole := hstage3_4 ((cfg3.slots t 4).cast nbuf3_4)
noncomputable abbrev ms3_5 (t : Fin cfg3.N) : Memref sig .tc .vmem S1000x256 .f32 := win3_5.stage (cfg3.slots t 5)
noncomputable abbrev hs3_5 (t : Fin cfg3.N) : (ms3_5 t).IsWhole := hstage3_5 ((cfg3.slots t 5).cast nbuf3_5)
noncomputable abbrev ms3_6 (t : Fin cfg3.N) : Memref sig .tc .vmem S1x256 .f32 := win3_6.stage (cfg3.slots t 6)
noncomputable abbrev hs3_6 (t : Fin cfg3.N) : (ms3_6 t).IsWhole := hstage3_6 ((cfg3.slots t 6).cast nbuf3_6)
noncomputable abbrev ms3_7 (t : Fin cfg3.N) : Memref sig .tc .vmem S1x256 .f32 := win3_7.stage (cfg3.slots t 7)
noncomputable abbrev hs3_7 (t : Fin cfg3.N) : (ms3_7 t).IsWhole := hstage3_7 ((cfg3.slots t 7).cast nbuf3_7)
/-- The two scratch operands (the running column sums of the block and of its square): whole scoped buffers of the
    kernel's own, passed beside the windows, -/
noncomputable abbrev scM3_0 : Memref sig .tc .vmem S1x256 .f32 := Memref.whole cc3_scratch0
noncomputable abbrev scM3_1 : Memref sig .tc .vmem S1x256 .f32 := Memref.whole cc3_scratch1
/-- and as views: what they hold between points is stated through them. -/
noncomputable abbrev VS3_0 : View sig .tc .vmem S1x256 .f32 := scM3_0.view
noncomputable abbrev VS3_1 : View sig .tc .vmem S1x256 .f32 := scM3_1.view

/-- The class invariant with the two scratch operands as memrefs owned at some contents, the other scoped buffers
    unopened: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.K.Reg3RunA.lean ====
import proofs.«126569_j1468878815453_1_alg».proof.Proof.K.Reg3Runs

/-! # Custom call 3, the body's run at the first grid point (the running sums reset, no statistics written) -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the first point's case — the reset taken, the write-out not:
    `L5` in the row-block output's staging memref, `LS0` and `LS1` in the two scratch accumulators —, with the proof that
    on whole memrefs — the five inputs' at their contents, the two statistics outputs' (idle here) at contents `xi·`
    handed back untouched, the row-block output's and both scratches' at anything — the body runs to the continuation
    holding the inputs' and the idle outputs' as they were and the stored buffers with their pieces written: the
    printed functions are their skeletons, run operation by operation, each `scf.if` decided by the case's
    hypotheses; the pieces are the witness the run finds. -/
noncomputable def kernelRun3_A (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The first point's pieces for the row-block output tile its block (one store of the whole block), so they cover it. -/
theorem cover3_A_5 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) (y : S1000x256.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4).1 S1000x256.size (by sl_kernel_rfl) y

/-- The first point's pieces for the first scratch accumulator (the reset, then the sum) cover it. -/
theorem scover3_A_0 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) (y : S1x256.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The first point's pieces for the second scratch accumulator cover it. -/
theorem scover3_A_1 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) (y : S1x256.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

end Cert.Kernel.Hand

end
-- ==== Proof.K.Reg3RunB.lean ====
import proofs.«126569_j1468878815453_1_alg».proof.Proof.K.Reg3Runs

/-! # Custom call 3, the body's run at the middle grid point (no reset, no statistics written) -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the middle point's case — neither branch taken: `L5` in
    the row-block output's staging memref, `LS0` and `LS1` in the two scratch accumulators —, with the proof that on
    whole memrefs — the five inputs' at their contents, the two statistics outputs' (idle here) at contents `xi·`
    handed back untouched, the row-block output's at anything, the two scratches' at what the point before left
    (`xs·`) — the body runs to the continuation holding the inputs' and the idle outputs' as they were and the stored
    buffers with their pieces written. -/
noncomputable def kernelRun3_B (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The middle point's pieces for the row-block output tile its block, so they cover it. -/
theorem cover3_B_5 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1000x256.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The middle point's pieces for the first scratch accumulator cover it. -/
theorem scover3_B_0 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The middle point's pieces for the second scratch accumulator cover it. -/
theorem scover3_B_1 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

end Cert.Kernel.Hand

end
-- ==== Proof.K.Reg3RunC.lean ====
import proofs.«126569_j1468878815453_1_alg».proof.Proof.K.Reg3Runs

/-! # Custom call 3, the body's run at the last grid point (no reset; the mean and the variance written out) -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the last point's case — the reset not taken, the write-out
    taken: `L5`, `L6`, `L7` in the three outputs' staging memrefs (the row block, the mean, the variance), `LS0` and
    `LS1` in the two scratch accumulators —, with the proof that on whole memrefs — the five inputs' at their contents,
    the outputs' at anything, the two scratches' at what the point before left (`xs·`) — the body runs to the
    continuation holding the inputs' as they were and the stored buffers with their pieces written. -/
noncomputable def kernelRun3_C (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S1000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

/-- The last point's pieces for the row-block output tile its block, so they cover it. -/
theorem cover3_C_5 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1000x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The last point's pieces for the mean output cover it. -/
theorem cover3_C_6 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The last point's pieces for the variance output cover it. -/
theorem cover3_C_7 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The last point's pieces for the first scratch accumulator cover it. -/
theorem scover3_C_0 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

/-- The last point's pieces for the second scratch accumulator cover it. -/
theorem scover3_C_1 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

end Cert.Kernel.Hand

end
-- ==== Proof.K.Reg3.lean ====
import proofs.«126569_j1468878815453_1_alg».proof.Proof.K.Reg3RunA
import proofs.«126569_j1468878815453_1_alg».proof.Proof.K.Reg3RunB
import proofs.«126569_j1468878815453_1_alg».proof.Proof.K.Reg3RunC

/-! # Custom call 3 (the one-relation combine kernel with its running column sums), region half

At a parameter `V` (the TensorCore's buffer contents when the region is entered): what the three outputs' staging
buffers and the two scratch accumulators hold after each of the three grid points, the region invariant that carries
the accumulators between points, the pipeline's proof data, its body obligation, and the invariant's two ends. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three cases' runs at a grid point -/

/-- The first point's run on point `t`'s memrefs and input blocks. -/
noncomputable abbrev runA3 (c : Dev nD) (t : Fin cfg3.N) (h0 : t.val % 3 = 0) (h1 : ¬t.val % 3 = 2) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t)
/-- The middle point's, over what the point before left in the accumulators. -/
noncomputable abbrev runB3 (c : Dev nD) (t : Fin cfg3.N) (h0 : ¬t.val % 3 = 0) (h1 : ¬t.val % 3 = 2) (xs0 : Vec F S1x256 .f32) (xs1 : Vec F S1x256 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1
/-- The last point's, likewise. -/
noncomputable abbrev runC3 (c : Dev nD) (t : Fin cfg3.N) (h0 : ¬t.val % 3 = 0) (h1 : t.val % 3 = 2) (xs0 : Vec F S1x256 .f32) (xs1 : Vec F S1x256 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1

/-! ## What each case leaves -/

/-- What the first point leaves: the row-block output's buffer, the two statistics outputs' (nothing stored: a
    placeholder nothing consults, the windows idle and not written back there), and the two accumulators — each its
    pieces read back over junk. -/
noncomputable def outA3 (c : Dev nD) (t : Fin cfg3.N) (h0 : t.val % 3 = 0) (h1 : ¬t.val % 3 = 2) : Vec F S1000x256 .f32 × Vec F S1x256 .f32 × Vec F S1x256 .f32 × Vec F S1x256 .f32 × Vec F S1x256 .f32 :=
  (VO3_5.read (Elt F) (VO3_5.writes (Elt F) VO3_5.junk (runA3 V c t h0 h1).1), VO3_6.read (Elt F) (VO3_6.writes (Elt F) VO3_6.junk []), VO3_7.read (Elt F) (VO3_7.writes (Elt F) VO3_7.junk []),
   VS3_0.read (Elt F) (VS3_0.writes (Elt F) VS3_0.junk (runA3 V c t h0 h1).2.1), VS3_1.read (Elt F) (VS3_1.writes (Elt F) VS3_1.junk (runA3 V c t h0 h1).2.2.1))
/-- What the middle point leaves, likewise. -/
noncomputable def outB3 (c : Dev nD) (t : Fin cfg3.N) (h0 : ¬t.val % 3 = 0) (h1 : ¬t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO3_5.read (Elt F) (VO3_5.writes (Elt F) VO3_5.junk (runB3 V c t h0 h1 xs0 xs1).1), VO3_6.read (Elt F) (VO3_6.writes (Elt F) VO3_6.junk []), VO3_7.read (Elt F) (VO3_7.writes (Elt F) VO3_7.junk []),
   VS3_0.read (Elt F) (VS3_0.writes (Elt F) VS3_0.junk (runB3 V c t h0 h1 xs0 xs1).2.1), VS3_1.read (Elt F) (VS3_1.writes (Elt F) VS3_1.junk (runB3 V c t h0 h1 xs0 xs1).2.2.1))
/-- What the last point leaves: all three outputs stored. -/
noncomputable def outC3 (c : Dev nD) (t : Fin cfg3.N) (h0 : ¬t.val % 3 = 0) (h1 : t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO3_5.read (Elt F) (VO3_5.writes (Elt F) VO3_5.junk (runC3 V c t h0 h1 xs0 xs1).1), VO3_6.read (Elt F) (VO3_6.writes (Elt F) VO3_6.junk (runC3 V c t h0 h1 xs0 xs1).2.1), VO3_7.read (Elt F) (VO3_7.writes (Elt F) VO3_7.junk (runC3 V c t h0 h1 xs0 xs1).2.2.1),
   VS3_0.read (Elt F) (VS3_0.writes (Elt F) VS3_0.junk (runC3 V c t h0 h1 xs0 xs1).2.2.2.1), VS3_1.read (Elt F) (VS3_1.writes (Elt F) VS3_1.junk (runC3 V c t h0 h1 xs0 xs1).2.2.2.2.1))

/-! ## What the outputs and the accumulators hold after each point -/

/-- THE ACCUMULATION. What the three outputs' staging buffers and the two accumulators hold after the body at position
    `n` (a tuple: the outputs in window order, then the accumulators): the case the closed forms select at `n`, run at
    the point's memrefs and input blocks, the accumulators at what the point before left. -/
noncomputable def outsAt3 (c : Dev nD) : (n : ℕ) → n < cfg3.N → Vec F S1000x256 .f32 × Vec F S1x256 .f32 × Vec F S1x256 .f32 × Vec F S1x256 .f32 × Vec F S1x256 .f32
  | 0, hn => outA3 V c ⟨0, hn⟩ (Nat.zero_mod _) (fun h => by (try dsimp only at h); omega)
  | n + 1, hn =>
    if h0 : (n + 1) % 3 = 0 then
      if h1 : (n + 1) % 3 = 2 then
        False.elim (by omega)
      else
        outA3 V c ⟨n + 1, hn⟩ h0 h1
    else
      if h1 : (n + 1) % 3 = 2 then
        outC3 V c ⟨n + 1, hn⟩ h0 h1 (outsAt3 c n (Nat.lt_of_succ_lt hn)).2.2.2.1 (outsAt3 c n (Nat.lt_of_succ_lt hn)).2.2.2.2
      else
        outB3 V c ⟨n + 1, hn⟩ h0 h1 (outsAt3 c n (Nat.lt_of_succ_lt hn)).2.2.2.1 (outsAt3 c n (Nat.lt_of_succ_lt hn)).2.2.2.2

/-- `outsAt3` at the first point. -/
theorem outsAt3_A (c : Dev nD) (t : Fin cfg3.N) (h0 : t.val % 3 = 0) (h1 : ¬t.val % 3 = 2) :
    outsAt3 V c t.val t.isLt = outA3 V c t h0 h1 := by
  obtain ⟨n, hn⟩ := t
  cases n with
  | zero => exact rfl
  | succ n => exact (dif_pos h0).trans ((dif_neg h1).trans rfl)

/-- `outsAt3` at the middle point: over what the point before left. -/
theorem outsAt3_B (c : Dev nD) (t : Fin cfg3.N) (h0 : ¬t.val % 3 = 0) (h1 : ¬t.val % 3 = 2) :
    outsAt3 V c t.val t.isLt = outB3 V c t h0 h1 (outsAt3 V c (t.val - 1) (Nat.lt_of_le_of_lt (Nat.sub_le _ _) t.isLt)).2.2.2.1 (outsAt3 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt3` at the last point: over what the point before left. -/
theorem outsAt3_C (c : Dev nD) (t : Fin cfg3.N) (h0 : ¬t.val % 3 = 0) (h1 : t.val % 3 = 2) :
    outsAt3 V c t.val t.isLt = outC3 V c t h0 h1 (outsAt3 V c (t.val - 1) (Nat.lt_of_le_of_lt (Nat.sub_le _ _) t.isLt)).2.2.2.1 (outsAt3 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the invariant of a body touching only its
    windows (every scratch at anything); afterwards the scoped rest with the two accumulators at what the point before
    left in them, the other scoped buffers unopened, and the generator register at some state. -/
noncomputable def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulators at that point's contents. -/
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the accumulators at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the outputs' at `outsAt3`'s components; the invariant `PhiS3`; nothing owed;
    full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2.1
  Φ t := PhiS3 V c t.val (Nat.le_of_lt_succ t.isLt)
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

/-! ## The body obligation, at a generic point -/

/-- What the body is called with at point `t` (the windows one by one), -/
noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point: the inputs' memrefs hold their blocks; the closed forms say which of the three cases the point
    is in; so that case's run applies. The invariant hands the body the two accumulators at what the point before left
    (at anything at the first point) and takes them back at this point's contents; the statistics windows, idle away
    from the last point, are handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 3 := lt_of_lt_of_eq t.isLt (show cfg3.N = 3 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  by_cases h0 : t.val % 3 = 0
  · have h1 : ¬t.val % 3 = 2 := by omega
    have hz : t.val = 0 := by omega
    rw [Dat.leavesExact_idle (dat3 V c) 6 t (idleAt3_6 t (fun h => h1 ((hcond3_1 t).mp h))) (noFlush3_6 t (fun h => h1 ((hcond3_1 t).mp h)))]
    rw [Dat.leavesExact_idle (dat3 V c) 7 t (idleAt3_7 t (fun h => h1 ((hcond3_1 t).mp h))) (noFlush3_7 t (fun h => h1 ((hcond3_1 t).mp h)))]
    rw [outsAt3_A V c t h0 h1]
    unfold outA3; (try dsimp only)
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA3 V c t h0 h1).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t))
          · unfold owns; iexists _; isplitr
            swap; · iexact HS1
            ipureintro; exact View.read_writes_of_cover _ _ _ _ _ (scover3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t))
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t))
    isplitl [H6]; · iexists _; iexact H6
    iexists _; iexact H7
  · have hz : t.val ≠ 0 := by omega
    by_cases h1 : t.val % 3 = 2
    · rw [show (dat3 V c).leavesExact 6 t = owns (c : Thread nD τ) (ms3_6 t) fullShare ((dat3 V c).after 6 t) from by
      unfold Dat.leavesExact; rw [liveAt3_6 t ((hcond3_1 t).mpr h1)], after3_6]
      rw [show (dat3 V c).leavesExact 7 t = owns (c : Thread nD τ) (ms3_7 t) fullShare ((dat3 V c).after 7 t) from by
      unfold Dat.leavesExact; rw [liveAt3_7 t ((hcond3_1 t).mpr h1)], after3_7]
      rw [outsAt3_C V c t h0 h1]
      unfold outC3; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC3 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
            · unfold owns; iexists _; isplitr
              swap; · iexact HS1
              ipureintro; exact View.read_writes_of_cover _ _ _ _ _ (scover3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
      isplitl [H6]
      · unfold owns; iexists _; isplitr
        swap; · iexact H6
        ipureintro; exact View.read_writes_of_cover _ _ _ _ _ (cover3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
      unfold owns; iexists _; isplitr
      swap; · iexact H7
      ipureintro; exact View.read_writes_of_cover _ _ _ _ _ (cover3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
    · rw [Dat.leavesExact_idle (dat3 V c) 6 t (idleAt3_6 t (fun h => h1 ((hcond3_1 t).mp h))) (noFlush3_6 t (fun h => h1 ((hcond3_1 t).mp h)))]
      rw [Dat.leavesExact_idle (dat3 V c) 7 t (idleAt3_7 t (fun h => h1 ((hcond3_1 t).mp h))) (noFlush3_7 t (fun h => h1 ((hcond3_1 t).mp h)))]
      rw [outsAt3_B V c t h0 h1]
      unfold outB3; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB3 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _)
            · unfold owns; iexists _; isplitr
              swap; · iexact HS1
              ipureintro; exact View.read_writes_of_cover _ _ _ _ _ (scover3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _)
      isplitl [H6]; · iexists _; iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulators' named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 3 := N_3; omega)

end Cert.Kernel.Hand

end
-- ==== Proof.K.Reg4.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 4 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the activations' row block) holds its block at every point, fetched there or not, for any proof
    data whose array is `V`'s and whose body leaves the block in place: an unfetched input's block index has not
    moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the mean row), likewise: fetched at the first point only, its one block stays. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the variance row), likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the scale row), likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 (the shift row), likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 1000x256 block, -/
abbrev r4_0 : Rect S1000x256 := Rect.unit (s := S1000x256) ![0, 0] S1000x256.size inb_S1000x256_S1000x256_0_0
/-- and the whole 1x256 row. -/
abbrev r4_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out4_5 (x0 : Vec F S1000x256 .f32) (x1 : Vec F S1x256 .f32) (x2 : Vec F S1x256 .f32) (x3 : Vec F S1x256 .f32) (x4 : Vec F S1x256 .f32) : Vec F S1000x256 .f32 :=
  View.canon [⟨r4_0, k4_pay1 (View.ld x1 r4_1) (View.ld x2 r4_1) (View.ld x0 r4_0) (View.ld x3 r4_1) (View.ld x4 r4_1)⟩]

/-- The one store is of the whole block, so it covers it. -/
theorem cover4_5 (p0 : Vec F S1000x256 .f32) (y : S1000x256.Idx) :
    ∃ pc ∈ ([⟨r4_0, p0⟩] : List (View.Piece (Elt F) S1000x256 .f32)), y ∈ pc.1.set :=
  View.cover_of_tiled [⟨r4_0, p0⟩] S1000x256.size (by rfl) y

/-! ## The body's triple -/

set_option maxHeartbeats 1000000 in
/-- The kernel body on whole staging memrefs, the five inputs' at read contents `xW` and the output's at anything, runs
    to the continuation holding the inputs' as they were and the output's at `out4_5` of the inputs': the printed
    function is its skeleton, five loads of the inputs, a load of the output's prior contents (unused), and the store. -/
theorem sound_kernel4 (c : Dev nD) (E : Set ℕ) (i : grid4.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point `t`
    each input's buffer at its block and the output's at `out4_5` of the input blocks; the invariant that of a body
    touching only its windows (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Reg5.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 5 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the activations' row block) holds its block at every point, fetched there or not, for any proof
    data whose array is `V`'s and whose body leaves the block in place: an unfetched input's block index has not
    moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the mean row), likewise: fetched at the first point only, its one block stays. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the variance row), likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the scale row), likewise. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the shift row), likewise. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 1000x256 block, -/
abbrev r5_0 : Rect S1000x256 := Rect.unit (s := S1000x256) ![0, 0] S1000x256.size inb_S1000x256_S1000x256_0_0
/-- and the whole 1x256 row. -/
abbrev r5_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out5_5 (x0 : Vec F S1000x256 .f32) (x1 : Vec F S1x256 .f32) (x2 : Vec F S1x256 .f32) (x3 : Vec F S1x256 .f32) (x4 : Vec F S1x256 .f32) : Vec F S1000x256 .f32 :=
  View.canon [⟨r5_0, k5_pay1 (View.ld x1 r5_1) (View.ld x2 r5_1) (View.ld x0 r5_0) (View.ld x3 r5_1) (View.ld x4 r5_1)⟩]

/-- The one store is of the whole block, so it covers it. -/
theorem cover5_5 (p0 : Vec F S1000x256 .f32) (y : S1000x256.Idx) :
    ∃ pc ∈ ([⟨r5_0, p0⟩] : List (View.Piece (Elt F) S1000x256 .f32)), y ∈ pc.1.set :=
  View.cover_of_tiled [⟨r5_0, p0⟩] S1000x256.size (by rfl) y

/-! ## The body's triple -/

set_option maxHeartbeats 1000000 in
/-- The kernel body on whole staging memrefs, the five inputs' at read contents `xW` and the output's at anything, runs
    to the continuation holding the inputs' as they were and the output's at `out5_5` of the inputs': the printed
    function is its skeleton, five loads of the inputs, a load of the output's prior contents (unused), and the store. -/
theorem sound_kernel5 (c : Dev nD) (E : Set ℕ) (i : grid5.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point `t`
    each input's buffer at its block and the output's at `out5_5` of the input blocks; the invariant that of a body
    touching only its windows (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Reg6.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 6 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the activations' row block) holds its block at every point, fetched there or not, for any proof
    data whose array is `V`'s and whose body leaves the block in place: an unfetched input's block index has not
    moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the mean row), likewise: fetched at the first point only, its one block stays. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 (the variance row), likewise. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3 (the scale row), likewise. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4 (the shift row), likewise. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 1000x256 block, -/
abbrev r6_0 : Rect S1000x256 := Rect.unit (s := S1000x256) ![0, 0] S1000x256.size inb_S1000x256_S1000x256_0_0
/-- and the whole 1x256 row. -/
abbrev r6_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out6_5 (x0 : Vec F S1000x256 .f32) (x1 : Vec F S1x256 .f32) (x2 : Vec F S1x256 .f32) (x3 : Vec F S1x256 .f32) (x4 : Vec F S1x256 .f32) : Vec F S1000x256 .f32 :=
  View.canon [⟨r6_0, k6_pay1 (View.ld x1 r6_1) (View.ld x2 r6_1) (View.ld x0 r6_0) (View.ld x3 r6_1) (View.ld x4 r6_1)⟩]

/-- The one store is of the whole block, so it covers it. -/
theorem cover6_5 (p0 : Vec F S1000x256 .f32) (y : S1000x256.Idx) :
    ∃ pc ∈ ([⟨r6_0, p0⟩] : List (View.Piece (Elt F) S1000x256 .f32)), y ∈ pc.1.set :=
  View.cover_of_tiled [⟨r6_0, p0⟩] S1000x256.size (by rfl) y

/-! ## The body's triple -/

set_option maxHeartbeats 1000000 in
/-- The kernel body on whole staging memrefs, the five inputs' at read contents `xW` and the output's at anything, runs
    to the continuation holding the inputs' as they were and the output's at `out6_5` of the inputs': the printed
    function is its skeleton, five loads of the inputs, a load of the output's prior contents (unused), and the store. -/
theorem sound_kernel6 (c : Dev nD) (E : Set ℕ) (i : grid6.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the input blocks; the invariant that of a body
    touching only its windows (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Reg7.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 7 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the activations' row block) holds its block at every point, fetched there or not, for any proof
    data whose array is `V`'s and whose body leaves the block in place: an unfetched input's block index has not
    moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the mean row), likewise: fetched at the first point only, its one block stays. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the variance row), likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 (the scale row), likewise. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 (the shift row), likewise. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 1000x256 block, -/
abbrev r7_0 : Rect S1000x256 := Rect.unit (s := S1000x256) ![0, 0] S1000x256.size inb_S1000x256_S1000x256_0_0
/-- and the whole 1x256 row. -/
abbrev r7_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out7_5 (x0 : Vec F S1000x256 .f32) (x1 : Vec F S1x256 .f32) (x2 : Vec F S1x256 .f32) (x3 : Vec F S1x256 .f32) (x4 : Vec F S1x256 .f32) : Vec F S1000x256 .f32 :=
  View.canon [⟨r7_0, k7_pay1 (View.ld x1 r7_1) (View.ld x2 r7_1) (View.ld x0 r7_0) (View.ld x3 r7_1) (View.ld x4 r7_1)⟩]

/-- The one store is of the whole block, so it covers it. -/
theorem cover7_5 (p0 : Vec F S1000x256 .f32) (y : S1000x256.Idx) :
    ∃ pc ∈ ([⟨r7_0, p0⟩] : List (View.Piece (Elt F) S1000x256 .f32)), y ∈ pc.1.set :=
  View.cover_of_tiled [⟨r7_0, p0⟩] S1000x256.size (by rfl) y

/-! ## The body's triple -/

set_option maxHeartbeats 1000000 in
/-- The kernel body on whole staging memrefs, the five inputs' at read contents `xW` and the output's at anything, runs
    to the continuation holding the inputs' as they were and the output's at `out7_5` of the inputs': the printed
    function is its skeleton, five loads of the inputs, a load of the output's prior contents (unused), and the store. -/
theorem sound_kernel7 (c : Dev nD) (E : Set ℕ) (i : grid7.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core `c`: the arrays as the region finds them (`V`); after the body at point `t`
    each input's buffer at its block and the output's at `out7_5` of the input blocks; the invariant that of a body
    touching only its windows (the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Reg8Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8 of @main: custom call 8, the layer-2 combine of one node type, at the entry contents `V` -/

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (a window whose
    block index does not move is fetched at the first point only and keeps its block), for any proof data whose
    array is `V`'s and whose body leaves the block in place. One statement per input window. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- The condition of the first `scf.if` (the accumulators' reset), from the grid coordinates. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val % 20 = 0 :=
  (by decide +kernel : ∀ t : Fin grid8.N, cond8_0 (grid8.coords t) ↔ t.val % 20 = 0)

/-- The condition of the second `scf.if` (the statistics' write-out). -/
abbrev cond8_1 (i : grid8.Coords) : Prop := k8_cond2 i = 1#1
/-- It holds at the last point only. -/
theorem hcond8_1 : ∀ t : Fin cfg8.N, cond8_1 (grid8.coords t) ↔ t.val % 20 = 19 :=
  (by decide +kernel : ∀ t : Fin grid8.N, cond8_1 (grid8.coords t) ↔ t.val % 20 = 19)

/-! ## Where the windows are idle -/

/-- Output 9 is stored at every point. -/
theorem liveAt8_9 : ∀ t : Fin cfg8.N, cfg8.idle 9 (grid8.coords t) = false := by decide +kernel
/-- Outputs 10 and 11 are stored at the last point only: elsewhere idle and not written back. -/
theorem idleAt8_10 : ∀ t : Fin cfg8.N, ¬cond8_1 (grid8.coords t) → cfg8.idle 10 (grid8.coords t) = true := by decide +kernel
theorem noFlush8_10 : ∀ t : Fin cfg8.N, ¬cond8_1 (grid8.coords t) → (cfg8.win 10).flush t = false := by decide +kernel
theorem liveAt8_10 : ∀ t : Fin cfg8.N, cond8_1 (grid8.coords t) → cfg8.idle 10 (grid8.coords t) = false := by decide +kernel
theorem idleAt8_11 : ∀ t : Fin cfg8.N, ¬cond8_1 (grid8.coords t) → cfg8.idle 11 (grid8.coords t) = true := by decide +kernel
theorem noFlush8_11 : ∀ t : Fin cfg8.N, ¬cond8_1 (grid8.coords t) → (cfg8.win 11).flush t = false := by decide +kernel
theorem liveAt8_11 : ∀ t : Fin cfg8.N, cond8_1 (grid8.coords t) → cfg8.idle 11 (grid8.coords t) = false := by decide +kernel

/-! ## The staging and scratch memrefs -/

/-- One staging buffer of each output window, through which its contents are stated (the choice does not matter). -/
noncomputable abbrev VO8_9 : View sig .tc .vmem S1000x256 .f32 := (Memref.whole cc8_stg9_0 : Memref sig .tc .vmem S1000x256 .f32).view
noncomputable abbrev VO8_10 : View sig .tc .vmem S1x256 .f32 := (Memref.whole cc8_stg10_0 : Memref sig .tc .vmem S1x256 .f32).view
noncomputable abbrev VO8_11 : View sig .tc .vmem S1x256 .f32 := (Memref.whole cc8_stg11_0 : Memref sig .tc .vmem S1x256 .f32).view
/-- Each window's current staging memref at point `t`, spelled as the pipeline passes it, and its wholeness. -/
noncomputable abbrev ms8_0 (t : Fin cfg8.N) : Memref sig .tc .vmem S1000x256 .f32 := win8_0.stage (cfg8.slots t 0)
noncomputable abbrev hs8_0 (t : Fin cfg8.N) : (ms8_0 t).IsWhole := hstage8_0 ((cfg8.slots t 0).cast nbuf8_0)
noncomputable abbrev ms8_1 (t : Fin cfg8.N) : Memref sig .tc .vmem S1000x256 .f32 := win8_1.stage (cfg8.slots t 1)
noncomputable abbrev hs8_1 (t : Fin cfg8.N) : (ms8_1 t).IsWhole := hstage8_1 ((cfg8.slots t 1).cast nbuf8_1)
noncomputable abbrev ms8_2 (t : Fin cfg8.N) : Memref sig .tc .vmem S1000x256 .f32 := win8_2.stage (cfg8.slots t 2)
noncomputable abbrev hs8_2 (t : Fin cfg8.N) : (ms8_2 t).IsWhole := hstage8_2 ((cfg8.slots t 2).cast nbuf8_2)
noncomputable abbrev ms8_3 (t : Fin cfg8.N) : Memref sig .tc .vmem S256x256 .f32 := win8_3.stage (cfg8.slots t 3)
noncomputable abbrev hs8_3 (t : Fin cfg8.N) : (ms8_3 t).IsWhole := hstage8_3 ((cfg8.slots t 3).cast nbuf8_3)
noncomputable abbrev ms8_4 (t : Fin cfg8.N) : Memref sig .tc .vmem S256x256 .f32 := win8_4.stage (cfg8.slots t 4)
noncomputable abbrev hs8_4 (t : Fin cfg8.N) : (ms8_4 t).IsWhole := hstage8_4 ((cfg8.slots t 4).cast nbuf8_4)
noncomputable abbrev ms8_5 (t : Fin cfg8.N) : Memref sig .tc .vmem S256x256 .f32 := win8_5.stage (cfg8.slots t 5)
noncomputable abbrev hs8_5 (t : Fin cfg8.N) : (ms8_5 t).IsWhole := hstage8_5 ((cfg8.slots t 5).cast nbuf8_5)
noncomputable abbrev ms8_6 (t : Fin cfg8.N) : Memref sig .tc .vmem S256x256 .f32 := win8_6.stage (cfg8.slots t 6)
noncomputable abbrev hs8_6 (t : Fin cfg8.N) : (ms8_6 t).IsWhole := hstage8_6 ((cfg8.slots t 6).cast nbuf8_6)
noncomputable abbrev ms8_7 (t : Fin cfg8.N) : Memref sig .tc .vmem S1x256 .f32 := win8_7.stage (cfg8.slots t 7)
noncomputable abbrev hs8_7 (t : Fin cfg8.N) : (ms8_7 t).IsWhole := hstage8_7 ((cfg8.slots t 7).cast nbuf8_7)
noncomputable abbrev ms8_8 (t : Fin cfg8.N) : Memref sig .tc .vmem S1x256 .f32 := win8_8.stage (cfg8.slots t 8)
noncomputable abbrev hs8_8 (t : Fin cfg8.N) : (ms8_8 t).IsWhole := hstage8_8 ((cfg8.slots t 8).cast nbuf8_8)
noncomputable abbrev ms8_9 (t : Fin cfg8.N) : Memref sig .tc .vmem S1000x256 .f32 := win8_9.stage (cfg8.slots t 9)
noncomputable abbrev hs8_9 (t : Fin cfg8.N) : (ms8_9 t).IsWhole := hstage8_9 ((cfg8.slots t 9).cast nbuf8_9)
noncomputable abbrev ms8_10 (t : Fin cfg8.N) : Memref sig .tc .vmem S1x256 .f32 := win8_10.stage (cfg8.slots t 10)
noncomputable abbrev hs8_10 (t : Fin cfg8.N) : (ms8_10 t).IsWhole := hstage8_10 ((cfg8.slots t 10).cast nbuf8_10)
noncomputable abbrev ms8_11 (t : Fin cfg8.N) : Memref sig .tc .vmem S1x256 .f32 := win8_11.stage (cfg8.slots t 11)
noncomputable abbrev hs8_11 (t : Fin cfg8.N) : (ms8_11 t).IsWhole := hstage8_11 ((cfg8.slots t 11).cast nbuf8_11)
/-- The two scratch operands: whole scoped buffers of the kernel's own, passed beside the windows. -/
noncomputable abbrev scM8_0 : Memref sig .tc .vmem S1x256 .f32 := Memref.whole cc8_scratch0
noncomputable abbrev scM8_1 : Memref sig .tc .vmem S1x256 .f32 := Memref.whole cc8_scratch1
/-- The scratch accumulators the kernel carries between points, as views: what they hold is stated through them. -/
noncomputable abbrev VS8_0 : View sig .tc .vmem S1x256 .f32 := scM8_0.view
noncomputable abbrev VS8_1 : View sig .tc .vmem S1x256 .f32 := scM8_1.view

/-- The class invariant with the two scratch operands as memrefs owned at some contents, the other scoped buffers
    unopened: what the body obligation hands the run and takes back. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

end Cert.Kernel.Hand

end
-- ==== Proof.K.Reg8A.lean ====
import proofs.«126569_j1468878815453_1_alg».proof.Proof.K.Reg8Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun8_A (c : Dev nD) (i : grid8.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond8_0 i) (hc1 : ¬cond8_1 i)
    (x0 x1 x2 : Vec F S1000x256 .f32) (x3 x4 x5 x6 : Vec F S256x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc8_kernel_eq_skeleton]; unfold cc8_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg8B.lean ====
import proofs.«126569_j1468878815453_1_alg».proof.Proof.K.Reg8A

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun8_B (c : Dev nD) (i : grid8.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond8_0 i) (hc1 : ¬cond8_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc8_kernel_eq_skeleton]; unfold cc8_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg8C.lean ====
import proofs.«126569_j1468878815453_1_alg».proof.Proof.K.Reg8B

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun8_C (c : Dev nD) (i : grid8.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond8_0 i) (hc1 : cond8_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc8_kernel_eq_skeleton]; unfold cc8_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Reg8.lean ====
import proofs.«126569_j1468878815453_1_alg».proof.Proof.K.Reg8C

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8 of @main: what the kernel leaves point by point, the proof data, the body obligation -/

/-! ## What the first point leaves -/

/-- The body's run at point `t`, on the memrefs the pipeline passes there. -/
noncomputable abbrev runAt8_A (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) :=
  kernelRun8_A c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) scM8_0 (Memref.isWhole_whole _) scM8_1 (Memref.isWhole_whole _) hc0 hc1 x0 x1 x2 x3 x4 x5 x6 x7 x8

/-- The pieces stored into the block output at the first point tile the buffer, so they cover it. -/
theorem cover8_A_9 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) (y : S1000x256.Idx) :
    ∃ pc ∈ (runAt8_A c t hc0 hc1 x0 x1 x2 x3 x4 x5 x6 x7 x8).1, y ∈ pc.1.set :=
  View.cover_of_tiledL (runAt8_A c t hc0 hc1 x0 x1 x2 x3 x4 x5 x6 x7 x8).1 S1000x256.size (by sl_kernel_rfl) y

/-- What the first point leaves in the block output: its pieces read back over junk. -/
noncomputable def out8_A_9 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) : Vec F S1000x256 .f32 :=
  VO8_9.read (Elt F) (VO8_9.writes (Elt F) VO8_9.junk (runAt8_A c t hc0 hc1 x0 x1 x2 x3 x4 x5 x6 x7 x8).1)

/-- The pieces stored into the first accumulator at the first point tile the buffer, so they cover it. -/
theorem scover8_A_0 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) (y : S1x256.Idx) :
    ∃ pc ∈ (runAt8_A c t hc0 hc1 x0 x1 x2 x3 x4 x5 x6 x7 x8).2.1, y ∈ pc.1.set :=
  View.cover_of_tiledL (runAt8_A c t hc0 hc1 x0 x1 x2 x3 x4 x5 x6 x7 x8).2.1 S1x256.size (by sl_kernel_rfl) y

/-- What the first point leaves in the first accumulator: its pieces read back over junk. -/
noncomputable def sout8_A_0 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) : Vec F S1x256 .f32 :=
  VS8_0.read (Elt F) (VS8_0.writes (Elt F) VS8_0.junk (runAt8_A c t hc0 hc1 x0 x1 x2 x3 x4 x5 x6 x7 x8).2.1)

/-- The pieces stored into the second accumulator at the first point tile the buffer, so they cover it. -/
theorem scover8_A_1 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) (y : S1x256.Idx) :
    ∃ pc ∈ (runAt8_A c t hc0 hc1 x0 x1 x2 x3 x4 x5 x6 x7 x8).2.2.1, y ∈ pc.1.set :=
  View.cover_of_tiledL (runAt8_A c t hc0 hc1 x0 x1 x2 x3 x4 x5 x6 x7 x8).2.2.1 S1x256.size (by sl_kernel_rfl) y

/-- What the first point leaves in the second accumulator: its pieces read back over junk. -/
noncomputable def sout8_A_1 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) : Vec F S1x256 .f32 :=
  VS8_1.read (Elt F) (VS8_1.writes (Elt F) VS8_1.junk (runAt8_A c t hc0 hc1 x0 x1 x2 x3 x4 x5 x6 x7 x8).2.2.1)

/-! ## What a middle point leaves -/

/-- The body's run at point `t`, on the memrefs the pipeline passes there. -/
noncomputable abbrev runAt8_B (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) :=
  kernelRun8_B c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) scM8_0 (Memref.isWhole_whole _) scM8_1 (Memref.isWhole_whole _) hc0 hc1 x0 x1 x2 x3 x4 x5 x6 x7 x8 xs0 xs1

/-- The pieces stored into the block output at a middle point tile the buffer, so they cover it. -/
theorem cover8_B_9 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt8_B c t hc0 hc1 x0 x1 x2 x3 x4 x5 x6 x7 x8 xs0 xs1).1, y ∈ pc.1.set :=
  View.cover_of_tiledL (runAt8_B c t hc0 hc1 x0 x1 x2 x3 x4 x5 x6 x7 x8 xs0 xs1).1 S1000x256.size (by sl_kernel_rfl) y

/-- What a middle point leaves in the block output: its pieces read back over junk. -/
noncomputable def out8_B_9 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) : Vec F S1000x256 .f32 :=
  VO8_9.read (Elt F) (VO8_9.writes (Elt F) VO8_9.junk (runAt8_B c t hc0 hc1 x0 x1 x2 x3 x4 x5 x6 x7 x8 xs0 xs1).1)

/-- The pieces stored into the first accumulator at a middle point tile the buffer, so they cover it. -/
theorem scover8_B_0 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_B c t hc0 hc1 x0 x1 x2 x3 x4 x5 x6 x7 x8 xs0 xs1).2.1, y ∈ pc.1.set :=
  View.cover_of_tiledL (runAt8_B c t hc0 hc1 x0 x1 x2 x3 x4 x5 x6 x7 x8 xs0 xs1).2.1 S1x256.size (by sl_kernel_rfl) y

/-- What a middle point leaves in the first accumulator: its pieces read back over junk. -/
noncomputable def sout8_B_0 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_0.read (Elt F) (VS8_0.writes (Elt F) VS8_0.junk (runAt8_B c t hc0 hc1 x0 x1 x2 x3 x4 x5 x6 x7 x8 xs0 xs1).2.1)

/-- The pieces stored into the second accumulator at a middle point tile the buffer, so they cover it. -/
theorem scover8_B_1 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_B c t hc0 hc1 x0 x1 x2 x3 x4 x5 x6 x7 x8 xs0 xs1).2.2.1, y ∈ pc.1.set :=
  View.cover_of_tiledL (runAt8_B c t hc0 hc1 x0 x1 x2 x3 x4 x5 x6 x7 x8 xs0 xs1).2.2.1 S1x256.size (by sl_kernel_rfl) y

/-- What a middle point leaves in the second accumulator: its pieces read back over junk. -/
noncomputable def sout8_B_1 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_1.read (Elt F) (VS8_1.writes (Elt F) VS8_1.junk (runAt8_B c t hc0 hc1 x0 x1 x2 x3 x4 x5 x6 x7 x8 xs0 xs1).2.2.1)

/-! ## What the last point leaves -/

/-- The body's run at point `t`, on the memrefs the pipeline passes there. -/
noncomputable abbrev runAt8_C (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) :=
  kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) scM8_0 (Memref.isWhole_whole _) scM8_1 (Memref.isWhole_whole _) hc0 hc1 x0 x1 x2 x3 x4 x5 x6 x7 x8 xs0 xs1

/-- The pieces stored into the block output at the last point tile the buffer, so they cover it. -/
theorem cover8_C_9 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt8_C c t hc0 hc1 x0 x1 x2 x3 x4 x5 x6 x7 x8 xs0 xs1).1, y ∈ pc.1.set :=
  View.cover_of_tiledL (runAt8_C c t hc0 hc1 x0 x1 x2 x3 x4 x5 x6 x7 x8 xs0 xs1).1 S1000x256.size (by sl_kernel_rfl) y

/-- What the last point leaves in the block output: its pieces read back over junk. -/
noncomputable def out8_C_9 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1000x256 .f32 :=
  VO8_9.read (Elt F) (VO8_9.writes (Elt F) VO8_9.junk (runAt8_C c t hc0 hc1 x0 x1 x2 x3 x4 x5 x6 x7 x8 xs0 xs1).1)

/-- The pieces stored into the mean output at the last point tile the buffer, so they cover it. -/
theorem cover8_C_10 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.1, y ∈ pc.1.set :=
  View.cover_of_tiledL (runAt8_C c t hc0 hc1 x0 x1 x2 x3 x4 x5 x6 x7 x8 xs0 xs1).2.1 S1x256.size (by sl_kernel_rfl) y

/-- What the last point leaves in the mean output: its pieces read back over junk. -/
noncomputable def out8_C_10 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VO8_10.read (Elt F) (VO8_10.writes (Elt F) VO8_10.junk (runAt8_C c t hc0 hc1 x0 x1 x2 x3 x4 x5 x6 x7 x8 xs0 xs1).2.1)

/-- The pieces stored into the variance output at the last point tile the buffer, so they cover it. -/
theorem cover8_C_11 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.2.1, y ∈ pc.1.set :=
  View.cover_of_tiledL (runAt8_C c t hc0 hc1 x0 x1 x2 x3 x4 x5 x6 x7 x8 xs0 xs1).2.2.1 S1x256.size (by sl_kernel_rfl) y

/-- What the last point leaves in the variance output: its pieces read back over junk. -/
noncomputable def out8_C_11 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VO8_11.read (Elt F) (VO8_11.writes (Elt F) VO8_11.junk (runAt8_C c t hc0 hc1 x0 x1 x2 x3 x4 x5 x6 x7 x8 xs0 xs1).2.2.1)

/-- The pieces stored into the first accumulator at the last point tile the buffer, so they cover it. -/
theorem scover8_C_0 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.2.2.1, y ∈ pc.1.set :=
  View.cover_of_tiledL (runAt8_C c t hc0 hc1 x0 x1 x2 x3 x4 x5 x6 x7 x8 xs0 xs1).2.2.2.1 S1x256.size (by sl_kernel_rfl) y

/-- What the last point leaves in the first accumulator: its pieces read back over junk. -/
noncomputable def sout8_C_0 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_0.read (Elt F) (VS8_0.writes (Elt F) VS8_0.junk (runAt8_C c t hc0 hc1 x0 x1 x2 x3 x4 x5 x6 x7 x8 xs0 xs1).2.2.2.1)

/-- The pieces stored into the second accumulator at the last point tile the buffer, so they cover it. -/
theorem scover8_C_1 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.2.2.2.1, y ∈ pc.1.set :=
  View.cover_of_tiledL (runAt8_C c t hc0 hc1 x0 x1 x2 x3 x4 x5 x6 x7 x8 xs0 xs1).2.2.2.2.1 S1x256.size (by sl_kernel_rfl) y

/-- What the last point leaves in the second accumulator: its pieces read back over junk. -/
noncomputable def sout8_C_1 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_1.read (Elt F) (VS8_1.writes (Elt F) VS8_1.junk (runAt8_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle8_10 : Vec F S1x256 .f32 := VO8_10.read (Elt F) VO8_10.junk
noncomputable def idle8_11 : Vec F S1x256 .f32 := VO8_11.read (Elt F) VO8_11.junk

/-- The conditions at the grid's points, from their closed forms. -/
theorem first8_c0 (hn : 0 < cfg8.N) : cond8_0 (grid8.coords ⟨0, hn⟩) := (hcond8_0 ⟨0, hn⟩).mpr (Nat.zero_mod _)
theorem first8_c1 (hn : 0 < cfg8.N) : ¬cond8_1 (grid8.coords ⟨0, hn⟩) := fun h => by
  have h' := (hcond8_1 ⟨0, hn⟩).mp h; (try dsimp only at h'); omega
theorem later8_c0 (t : Fin cfg8.N) (ht : t.val ≠ 0) : ¬cond8_0 (grid8.coords t) := fun h => by
  have h' := (hcond8_0 t).mp h
  have hN : t.val < 20 := lt_of_lt_of_eq t.isLt (show cfg8.N = 20 from N_8)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt8 (c : Dev nD) : (n : ℕ) → n < cfg8.N → Vec F S1000x256 .f32 × Vec F S1x256 .f32 × Vec F S1x256 .f32 × Vec F S1x256 .f32 × Vec F S1x256 .f32
  | 0, hn => (out8_A_9 c ⟨0, hn⟩ (first8_c0 hn) (first8_c1 hn) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩), idle8_10, idle8_11, sout8_A_0 c ⟨0, hn⟩ (first8_c0 hn) (first8_c1 hn) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩), sout8_A_1 c ⟨0, hn⟩ (first8_c0 hn) (first8_c1 hn) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩))
  | n + 1, hn =>
    if h1 : (n + 1) % 20 = 19 then
      (out8_C_9 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, out8_C_10 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, out8_C_11 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, sout8_C_0 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, sout8_C_1 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2)
    else
      (out8_B_9 c ⟨n + 1, hn⟩ (later8_c0 ⟨n + 1, hn⟩ (Nat.succ_ne_zero n)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, idle8_10, idle8_11, sout8_B_0 c ⟨n + 1, hn⟩ (later8_c0 ⟨n + 1, hn⟩ (Nat.succ_ne_zero n)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, sout8_B_1 c ⟨n + 1, hn⟩ (later8_c0 ⟨n + 1, hn⟩ (Nat.succ_ne_zero n)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2)

/-- `outsAt8` at the first point: the reset case's contents. -/
theorem outsAt8_A (c : Dev nD) (t : Fin cfg8.N) (h0 : t.val = 0) (hc0 : cond8_0 (grid8.coords t)) (hc1 : ¬cond8_1 (grid8.coords t)) :
    outsAt8 V c t.val t.isLt = (out8_A_9 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t), idle8_10, idle8_11, sout8_A_0 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t), sout8_A_1 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t)) := by
  obtain ⟨n, hn⟩ := t
  cases n with
  | zero => rfl
  | succ n => exact absurd h0 (Nat.succ_ne_zero n)

/-- `outsAt8` at a middle point: that case's contents, over what the point before left in the accumulators. -/
theorem outsAt8_B (c : Dev nD) (t : Fin cfg8.N) (h0 : t.val ≠ 0) (h1 : ¬t.val % 20 = 19) (hc0 : ¬cond8_0 (grid8.coords t)) (hc1 : ¬cond8_1 (grid8.coords t)) :
    outsAt8 V c t.val t.isLt = (out8_B_9 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, idle8_10, idle8_11, sout8_B_0 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, sout8_B_1 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt8` at the last point: that case's contents, over what the point before left in the accumulators. -/
theorem outsAt8_C (c : Dev nD) (t : Fin cfg8.N) (h0 : t.val ≠ 0) (h1 : t.val % 20 = 19) (hc0 : ¬cond8_0 (grid8.coords t)) (hc1 : cond8_1 (grid8.coords t)) :
    outsAt8 V c t.val t.isLt = (out8_C_9 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, out8_C_10 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, out8_C_11 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, sout8_C_0 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, sout8_C_1 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut8 (c : Dev nD) : sProp 𝕄 :=
  Pipeline.scopedRestBut (Ix := Unit) (Name := ℕ) (U := UR sig nD τ) (Lvl := ℕ) (Val := Elt F) spec8 c [cc8_scratch0, cc8_scratch1]

/-- The region invariant before position `n`: before the first point the class's (every scratch at anything);
    afterwards the two accumulators at what the point before left in them (`outsAt8`'s last two components), the
    other scoped buffers unopened, and the generator register at some state. -/
noncomputable def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.2.1) ∗ owns (c : Thread nD τ) scM8_1 fullShare ((outsAt8 V c n hn).2.2.2.2)) ∗ restBut8 c) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulators at that point's contents. -/
theorem PhiS8_succ (c : Dev nD) (n : ℕ) (hn : n < cfg8.N) :
    PhiS8 V c (n + 1) hn = iprop(iprop(iprop(owns (c : Thread nD τ) scM8_0 fullShare ((outsAt8 V c n hn).2.2.2.1) ∗ owns (c : Thread nD τ) scM8_1 fullShare ((outsAt8 V c n hn).2.2.2.2)) ∗ restBut8 c) ∗ (∃ r, prngReg c r)) := rfl

/-- Before a point that is not the first: the accumulators at what the point before left. -/
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.2.1) ∗ owns (c : Thread nD τ) scM8_1 fullShare ((outsAt8 V c (n - 1) (by omega)).2.2.2.2)) ∗ restBut8 c) ∗ (∃ r, prngReg c r)) := by
  cases n with
  | zero => exact absurd rfl hz
  | succ n => rfl

/-! ## The pipeline's proof data -/

/-- The proof data of pipeline 8 on core `c`: the arrays as the region finds them (`V`); after the body at point
    `t` each input's buffer at its block and the outputs' at `outsAt8`; the invariant `PhiS8`; nothing owed; full
    shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => (outsAt8 V c t.val t.isLt).1
    | ⟨10, _⟩ => (outsAt8 V c t.val t.isLt).2.1
    | ⟨11, _⟩ => (outsAt8 V c t.val t.isLt).2.2.1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = (outsAt8 V c t.val t.isLt).1 := by dsimp only [dat8]
theorem after8_10 (c : Dev nD) (t : Fin cfg8.N) : (dat8 V c).after 10 t = (outsAt8 V c t.val t.isLt).2.1 := by dsimp only [dat8]
theorem after8_11 (c : Dev nD) (t : Fin cfg8.N) : (dat8 V c).after 11 t = (outsAt8 V c t.val t.isLt).2.2.1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body obligation, at a generic point -/

/-- What the body is called with at point `t` (the library's body obligation's precondition, the windows one by one), -/
noncomputable def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d))
    ∗ (∃ d, owns (c : Thread nD τ) (ms8_10 t) fullShare ((dat8 V c).before 10 t d))
    ∗ (∃ d, owns (c : Thread nD τ) (ms8_11 t) fullShare ((dat8 V c).before 11 t d)))

/-- and what it returns. -/
noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t
    ∗ (dat8 V c).leavesExact 10 t
    ∗ (dat8 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).owesAt () t.succ = (dat8 V c).owesAt () t.castSucc from rfl]
  rw [show (dat8 V c).Φ t.succ = PhiS8 V c (t.val + 1) t.isLt from rfl, PhiS8_succ]
  have hN : t.val < 20 := lt_of_lt_of_eq t.isLt (show cfg8.N = 20 from N_8)
  by_cases hz : t.val = 0
  · -- the first point: the reset
    have hc0 : cond8_0 (grid8.coords t) := (hcond8_0 t).mpr (by rw [hz])
    have hc1 : ¬cond8_1 (grid8.coords t) := fun h => by have h' := (hcond8_1 t).mp h; omega
    rw [show (dat8 V c).leavesExact 0 t = owns (c : Thread nD τ) (ms8_0 t) fullShare ((dat8 V c).after 0 t) from rfl, after8_0]
    rw [show (dat8 V c).leavesExact 1 t = owns (c : Thread nD τ) (ms8_1 t) fullShare ((dat8 V c).after 1 t) from rfl, after8_1]
    rw [show (dat8 V c).leavesExact 2 t = owns (c : Thread nD τ) (ms8_2 t) fullShare ((dat8 V c).after 2 t) from rfl, after8_2]
    rw [show (dat8 V c).leavesExact 3 t = owns (c : Thread nD τ) (ms8_3 t) fullShare ((dat8 V c).after 3 t) from rfl, after8_3]
    rw [show (dat8 V c).leavesExact 4 t = owns (c : Thread nD τ) (ms8_4 t) fullShare ((dat8 V c).after 4 t) from rfl, after8_4]
    rw [show (dat8 V c).leavesExact 5 t = owns (c : Thread nD τ) (ms8_5 t) fullShare ((dat8 V c).after 5 t) from rfl, after8_5]
    rw [show (dat8 V c).leavesExact 6 t = owns (c : Thread nD τ) (ms8_6 t) fullShare ((dat8 V c).after 6 t) from rfl, after8_6]
    rw [show (dat8 V c).leavesExact 7 t = owns (c : Thread nD τ) (ms8_7 t) fullShare ((dat8 V c).after 7 t) from rfl, after8_7]
    rw [show (dat8 V c).leavesExact 8 t = owns (c : Thread nD τ) (ms8_8 t) fullShare ((dat8 V c).after 8 t) from rfl, after8_8]
    rw [show (dat8 V c).leavesExact 9 t = owns (c : Thread nD τ) (ms8_9 t) fullShare ((dat8 V c).after 9 t) from rfl, after8_9]
    rw [Dat.leavesExact_idle (dat8 V c) 10 t (idleAt8_10 t hc1) (noFlush8_10 t hc1)]
    rw [Dat.leavesExact_idle (dat8 V c) 11 t (idleAt8_11 t hc1) (noFlush8_11 t hc1)]
    rw [outsAt8_A V c t hz hc0 hc1]
    unfold out8_A_9 sout8_A_0 sout8_A_1; (try dsimp only)
    rw [PhiS8_castSucc V c t, PhiS8_zero V c _ _ hz, PhiA8_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt8_A c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover8_A_0 c t _ _ _ _ _ _ _ _ _ _ _)
          unfold owns; iexists _; isplitr
          swap; · iexact HS1
          ipureintro; exact View.read_writes_of_cover _ _ _ _ _ (scover8_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover8_A_9 c t _ _ _ _ _ _ _ _ _ _ _)
    isplitl [H10]; · iexists _; iexact H10
    iexists _; iexact H11
  · have hc0 : ¬cond8_0 (grid8.coords t) := later8_c0 t hz
    by_cases h1 : t.val % 20 = 19
    · -- the last point: the write-out
      have hc1 : cond8_1 (grid8.coords t) := (hcond8_1 t).mpr h1
      rw [show (dat8 V c).leavesExact 0 t = owns (c : Thread nD τ) (ms8_0 t) fullShare ((dat8 V c).after 0 t) from rfl, after8_0]
      rw [show (dat8 V c).leavesExact 1 t = owns (c : Thread nD τ) (ms8_1 t) fullShare ((dat8 V c).after 1 t) from rfl, after8_1]
      rw [show (dat8 V c).leavesExact 2 t = owns (c : Thread nD τ) (ms8_2 t) fullShare ((dat8 V c).after 2 t) from rfl, after8_2]
      rw [show (dat8 V c).leavesExact 3 t = owns (c : Thread nD τ) (ms8_3 t) fullShare ((dat8 V c).after 3 t) from rfl, after8_3]
      rw [show (dat8 V c).leavesExact 4 t = owns (c : Thread nD τ) (ms8_4 t) fullShare ((dat8 V c).after 4 t) from rfl, after8_4]
      rw [show (dat8 V c).leavesExact 5 t = owns (c : Thread nD τ) (ms8_5 t) fullShare ((dat8 V c).after 5 t) from rfl, after8_5]
      rw [show (dat8 V c).leavesExact 6 t = owns (c : Thread nD τ) (ms8_6 t) fullShare ((dat8 V c).after 6 t) from rfl, after8_6]
      rw [show (dat8 V c).leavesExact 7 t = owns (c : Thread nD τ) (ms8_7 t) fullShare ((dat8 V c).after 7 t) from rfl, after8_7]
      rw [show (dat8 V c).leavesExact 8 t = owns (c : Thread nD τ) (ms8_8 t) fullShare ((dat8 V c).after 8 t) from rfl, after8_8]
      rw [show (dat8 V c).leavesExact 9 t = owns (c : Thread nD τ) (ms8_9 t) fullShare ((dat8 V c).after 9 t) from rfl, after8_9]
      rw [show (dat8 V c).leavesExact 10 t = owns (c : Thread nD τ) (ms8_10 t) fullShare ((dat8 V c).after 10 t) from by
        unfold Dat.leavesExact; rw [liveAt8_10 t hc1], after8_10]
      rw [show (dat8 V c).leavesExact 11 t = owns (c : Thread nD τ) (ms8_11 t) fullShare ((dat8 V c).after 11 t) from by
        unfold Dat.leavesExact; rw [liveAt8_11 t hc1], after8_11]
      rw [outsAt8_C V c t hz h1 hc0 hc1]
      unfold out8_C_9 out8_C_10 out8_C_11 sout8_C_0 sout8_C_1; (try dsimp only)
      rw [PhiS8_castSucc V c t, PhiS8_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt8_C c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_C_0 c t _ _ _ _ _ _ _ _ _ _ _ _ _)
            unfold owns; iexists _; isplitr
            swap; · iexact HS1
            ipureintro; exact View.read_writes_of_cover _ _ _ _ _ (scover8_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover8_C_9 c t _ _ _ _ _ _ _ _ _ _ _ _ _)
      isplitl [H10]
      · unfold owns; iexists _; isplitr
        swap; · iexact H10
        ipureintro; exact View.read_writes_of_cover _ _ _ _ _ (cover8_C_10 c t _ _ _ _ _ _ _ _ _ _ _ _ _)
      unfold owns; iexists _; isplitr
      swap; · iexact H11
      ipureintro; exact View.read_writes_of_cover _ _ _ _ _ (cover8_C_11 c t _ _ _ _ _ _ _ _ _ _ _ _ _)
    · -- a middle point
      have hc1 : ¬cond8_1 (grid8.coords t) := fun h => h1 ((hcond8_1 t).mp h)
      rw [show (dat8 V c).leavesExact 0 t = owns (c : Thread nD τ) (ms8_0 t) fullShare ((dat8 V c).after 0 t) from rfl, after8_0]
      rw [show (dat8 V c).leavesExact 1 t = owns (c : Thread nD τ) (ms8_1 t) fullShare ((dat8 V c).after 1 t) from rfl, after8_1]
      rw [show (dat8 V c).leavesExact 2 t = owns (c : Thread nD τ) (ms8_2 t) fullShare ((dat8 V c).after 2 t) from rfl, after8_2]
      rw [show (dat8 V c).leavesExact 3 t = owns (c : Thread nD τ) (ms8_3 t) fullShare ((dat8 V c).after 3 t) from rfl, after8_3]
      rw [show (dat8 V c).leavesExact 4 t = owns (c : Thread nD τ) (ms8_4 t) fullShare ((dat8 V c).after 4 t) from rfl, after8_4]
      rw [show (dat8 V c).leavesExact 5 t = owns (c : Thread nD τ) (ms8_5 t) fullShare ((dat8 V c).after 5 t) from rfl, after8_5]
      rw [show (dat8 V c).leavesExact 6 t = owns (c : Thread nD τ) (ms8_6 t) fullShare ((dat8 V c).after 6 t) from rfl, after8_6]
      rw [show (dat8 V c).leavesExact 7 t = owns (c : Thread nD τ) (ms8_7 t) fullShare ((dat8 V c).after 7 t) from rfl, after8_7]
      rw [show (dat8 V c).leavesExact 8 t = owns (c : Thread nD τ) (ms8_8 t) fullShare ((dat8 V c).after 8 t) from rfl, after8_8]
      rw [show (dat8 V c).leavesExact 9 t = owns (c : Thread nD τ) (ms8_9 t) fullShare ((dat8 V c).after 9 t) from rfl, after8_9]
      rw [Dat.leavesExact_idle (dat8 V c) 10 t (idleAt8_10 t hc1) (noFlush8_10 t hc1)]
      rw [Dat.leavesExact_idle (dat8 V c) 11 t (idleAt8_11 t hc1) (noFlush8_11 t hc1)]
      rw [outsAt8_B V c t hz h1 hc0 hc1]
      unfold out8_B_9 sout8_B_0 sout8_B_1; (try dsimp only)
      rw [PhiS8_castSucc V c t, PhiS8_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt8_B c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_B_0 c t _ _ _ _ _ _ _ _ _ _ _ _ _)
            unfold owns; iexists _; isplitr
            swap; · iexact HS1
            ipureintro; exact View.read_writes_of_cover _ _ _ _ _ (scover8_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover8_B_9 c t _ _ _ _ _ _ _ _ _ _ _ _ _)
      isplitl [H10]; · iexists _; iexact H10
      iexists _; iexact H11

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulators' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 20 := N_8; omega)

end Cert.Kernel.Hand

end
-- ==== Proof.K.Reg9Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: custom call 9, the layer-2 combine of one node type, at the entry contents `V` -/

/-! ## The windows' blocks -/

/-- Window `w`'s block at point `t`, read off its array as the region finds it (`V`). -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (a window whose
    block index does not move is fetched at the first point only and keeps its block), for any proof data whose
    array is `V`'s and whose body leaves the block in place. One statement per input window. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions -/

/-- The condition of the first `scf.if` (the accumulators' reset), from the grid coordinates. -/
abbrev cond9_0 (i : grid9.Coords) : Prop := (Scalar.cmpi .ne (Scalar.extui (Scalar.cmpi .eq (BitVec.ofNat 32 (i 0).val) 0#32)) 0#32) = 1#1
/-- It holds at the first point only. -/
theorem hcond9_0 : ∀ t : Fin cfg9.N, cond9_0 (grid9.coords t) ↔ t.val % 50 = 0 :=
  (by decide +kernel : ∀ t : Fin grid9.N, cond9_0 (grid9.coords t) ↔ t.val % 50 = 0)

/-- The condition of the second `scf.if` (the statistics' write-out). -/
abbrev cond9_1 (i : grid9.Coords) : Prop := k9_cond2 i = 1#1
/-- It holds at the last point only. -/
theorem hcond9_1 : ∀ t : Fin cfg9.N, cond9_1 (grid9.coords t) ↔ t.val % 50 = 49 :=
  (by decide +kernel : ∀ t : Fin grid9.N, cond9_1 (grid9.coords t) ↔ t.val % 50 = 49)

/-! ## Where the windows are idle -/

/-- Output 9 is stored at every point. -/
theorem liveAt9_9 : ∀ t : Fin cfg9.N, cfg9.idle 9 (grid9.coords t) = false := by decide +kernel
/-- Outputs 10 and 11 are stored at the last point only: elsewhere idle and not written back. -/
theorem idleAt9_10 : ∀ t : Fin cfg9.N, ¬cond9_1 (grid9.coords t) → cfg9.idle 10 (grid9.coords t) = true := by decide +kernel
theorem noFlush9_10 : ∀ t : Fin cfg9.N, ¬cond9_1 (grid9.coords t) → (cfg9.win 10).flush t = false := by decide +kernel
theorem liveAt9_10 : ∀ t : Fin cfg9.N, cond9_1 (grid9.coords t) → cfg9.idle 10 (grid9.coords t) = false := by decide +kernel
theorem idleAt9_11 : ∀ t : Fin cfg9.N, ¬cond9_1 (grid9.coords t) → cfg9.idle 11 (grid9.coords t) = true := by decide +kernel
theorem noFlush9_11 : ∀ t : Fin cfg9.N, ¬cond9_1 (grid9.coords t) → (cfg9.win 11).flush t = false := by decide +kernel
theorem liveAt9_11 : ∀ t : Fin cfg9.N, cond9_1 (grid9.coords t) → cfg9.idle 11 (grid9.coords t) = false := by decide +kernel

/-! ## The staging and scratch memrefs -/

/-- One staging buffer of each output window, through which its contents are stated (the choice does not matter). -/
noncomputable abbrev VO9_9 : View sig .tc .vmem S1000x256 .f32 := (Memref.whole cc9_stg9_0 : Memref sig .tc .vmem S1000x256 .f32).view
noncomputable abbrev VO9_10 : View sig .tc .vmem S1x256 .f32 := (Memref.whole cc9_stg10_0 : Memref sig .tc .vmem S1x256 .f32).view
noncomputable abbrev VO9_11 : View sig .tc .vmem S1x256 .f32 := (Memref.whole cc9_stg11_0 : Memref sig .tc .vmem S1x256 .f32).view
/-- Each window's current staging memref at point `t`, spelled as the pipeline passes it, and its wholeness. -/
noncomputable abbrev ms9_0 (t : Fin cfg9.N) : Memref sig .tc .vmem S1000x256 .f32 := win9_0.stage (cfg9.slots t 0)
noncomputable abbrev hs9_0 (t : Fin cfg9.N) : (ms9_0 t).IsWhole := hstage9_0 ((cfg9.slots t 0).cast nbuf9_0)
noncomputable abbrev ms9_1 (t : Fin cfg9.N) : Memref sig .tc .vmem S1000x256 .f32 := win9_1.stage (cfg9.slots t 1)
noncomputable abbrev hs9_1 (t : Fin cfg9.N) : (ms9_1 t).IsWhole := hstage9_1 ((cfg9.slots t 1).cast nbuf9_1)
noncomputable abbrev ms9_2 (t : Fin cfg9.N) : Memref sig .tc .vmem S1000x256 .f32 := win9_2.stage (cfg9.slots t 2)
noncomputable abbrev hs9_2 (t : Fin cfg9.N) : (ms9_2 t).IsWhole := hstage9_2 ((cfg9.slots t 2).cast nbuf9_2)
noncomputable abbrev ms9_3 (t : Fin cfg9.N) : Memref sig .tc .vmem S256x256 .f32 := win9_3.stage (cfg9.slots t 3)
noncomputable abbrev hs9_3 (t : Fin cfg9.N) : (ms9_3 t).IsWhole := hstage9_3 ((cfg9.slots t 3).cast nbuf9_3)
noncomputable abbrev ms9_4 (t : Fin cfg9.N) : Memref sig .tc .vmem S256x256 .f32 := win9_4.stage (cfg9.slots t 4)
noncomputable abbrev hs9_4 (t : Fin cfg9.N) : (ms9_4 t).IsWhole := hstage9_4 ((cfg9.slots t 4).cast nbuf9_4)
noncomputable abbrev ms9_5 (t : Fin cfg9.N) : Memref sig .tc .vmem S256x256 .f32 := win9_5.stage (cfg9.slots t 5)
noncomputable abbrev hs9_5 (t : Fin cfg9.N) : (ms9_5 t).IsWhole := hstage9_5 ((cfg9.slots t 5).cast nbuf9_5)
noncomputable abbrev ms9_6 (t : Fin cfg9.N) : Memref sig .tc .vmem S256x256 .f32 := win9_6.stage (cfg9.slots t 6)
noncomputable abbrev hs9_6 (t : Fin cfg9.N) : (ms9_6 t).IsWhole := hstage9_6 ((cfg9.slots t 6).cast nbuf9_6)
noncomputable abbrev ms9_7 (t : Fin cfg9.N) : Memref sig .tc .vmem S1x256 .f32 := win9_7.stage (cfg9.slots t 7)
noncomputable abbrev hs9_7 (t : Fin cfg9.N) : (ms9_7 t).IsWhole := hstage9_7 ((cfg9.slots t 7).cast nbuf9_7)
noncomputable abbrev ms9_8 (t : Fin cfg9.N) : Memref sig .tc .vmem S1x256 .f32 := win9_8.stage (cfg9.slots t 8)
noncomputable abbrev hs9_8 (t : Fin cfg9.N) : (ms9_8 t).IsWhole := hstage9_8 ((cfg9.slots t 8).cast nbuf9_8)
noncomputable abbrev ms9_9 (t : Fin cfg9.N) : Memref sig .tc .vmem S1000x256 .f32 := win9_9.stage (cfg9.slots t 9)
noncomputable abbrev hs9_9 (t : Fin cfg9.N) : (ms9_9 t).IsWhole := hstage9_9 ((cfg9.slots t 9).cast nbuf9_9)
noncomputable abbrev ms9_10 (t : Fin cfg9.N) : Memref sig .tc .vmem S1x256 .f32 := win9_10.stage (cfg9.slots t 10)
noncomputable abbrev hs9_10 (t : Fin cfg9.N) : (ms9_10 t).IsWhole := hstage9_10 ((cfg9.slots t 10).cast nbuf9_10)
noncomputable abbrev ms9_11 (t : Fin cfg9.N) : Memref sig .tc .vmem S1x256 .f32 := win9_11.stage (cfg9.slots t 11)
noncomputable abbrev hs9_11 (t : Fin cfg9.N) : (ms9_11 t).IsWhole := hstage9_11 ((cfg9.slots t 11).cast nbuf9_11)
/-- The two scratch operands: whole scoped buffers of the kernel's own, passed beside the windows. -/
noncomputable abbrev scM9_0 : Memref sig .tc .vmem S1x256 .f32 := Memref.whole cc9_scratch0
noncomputable abbrev scM9_1 : Memref sig .tc .vmem S1x256 .f32 := Memref.whole cc9_scratch1
/-- The scratch accumulators the kernel carries between points, as views: what they hold is stated through them. -/
noncomputable abbrev VS9_0 : View sig .tc .vmem S1x256 .f32 := scM9_0.view
noncomputable abbrev VS9_1 : View sig .tc .vmem S1x256 .f32 := scM9_1.view

/-- The class invariant with the two scratch operands as memrefs owned at some contents, the other scoped buffers
    unopened: what the body obligation hands the run and takes back. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

end Cert.Kernel.Hand

end
-- ==== Proof.K.Reg9A.lean ====
import proofs.«126569_j1468878815453_1_alg».proof.Proof.K.Reg9Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun9_A (c : Dev nD) (i : grid9.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond9_0 i) (hc1 : ¬cond9_1 i)
    (x0 x1 x2 : Vec F S1000x256 .f32) (x3 x4 x5 x6 : Vec F S256x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc9_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg9B.lean ====
import proofs.«126569_j1468878815453_1_alg».proof.Proof.K.Reg9A

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun9_B (c : Dev nD) (i : grid9.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond9_0 i) (hc1 : ¬cond9_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc9_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg9C.lean ====
import proofs.«126569_j1468878815453_1_alg».proof.Proof.K.Reg9B

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun9_C (c : Dev nD) (i : grid9.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond9_0 i) (hc1 : cond9_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc9_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Reg9.lean ====
import proofs.«126569_j1468878815453_1_alg».proof.Proof.K.Reg9C

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: what the kernel leaves point by point, the proof data, the body obligation -/

/-! ## What the first point leaves -/

/-- The body's run at point `t`, on the memrefs the pipeline passes there. -/
noncomputable abbrev runAt9_A (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) :=
  kernelRun9_A c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) scM9_0 (Memref.isWhole_whole _) scM9_1 (Memref.isWhole_whole _) hc0 hc1 x0 x1 x2 x3 x4 x5 x6 x7 x8

/-- The pieces stored into the block output at the first point tile the buffer, so they cover it. -/
theorem cover9_A_9 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) (y : S1000x256.Idx) :
    ∃ pc ∈ (runAt9_A c t hc0 hc1 x0 x1 x2 x3 x4 x5 x6 x7 x8).1, y ∈ pc.1.set :=
  View.cover_of_tiledL (runAt9_A c t hc0 hc1 x0 x1 x2 x3 x4 x5 x6 x7 x8).1 S1000x256.size (by sl_kernel_rfl) y

/-- What the first point leaves in the block output: its pieces read back over junk. -/
noncomputable def out9_A_9 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) : Vec F S1000x256 .f32 :=
  VO9_9.read (Elt F) (VO9_9.writes (Elt F) VO9_9.junk (runAt9_A c t hc0 hc1 x0 x1 x2 x3 x4 x5 x6 x7 x8).1)

/-- The pieces stored into the first accumulator at the first point tile the buffer, so they cover it. -/
theorem scover9_A_0 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) (y : S1x256.Idx) :
    ∃ pc ∈ (runAt9_A c t hc0 hc1 x0 x1 x2 x3 x4 x5 x6 x7 x8).2.1, y ∈ pc.1.set :=
  View.cover_of_tiledL (runAt9_A c t hc0 hc1 x0 x1 x2 x3 x4 x5 x6 x7 x8).2.1 S1x256.size (by sl_kernel_rfl) y

/-- What the first point leaves in the first accumulator: its pieces read back over junk. -/
noncomputable def sout9_A_0 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) : Vec F S1x256 .f32 :=
  VS9_0.read (Elt F) (VS9_0.writes (Elt F) VS9_0.junk (runAt9_A c t hc0 hc1 x0 x1 x2 x3 x4 x5 x6 x7 x8).2.1)

/-- The pieces stored into the second accumulator at the first point tile the buffer, so they cover it. -/
theorem scover9_A_1 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) (y : S1x256.Idx) :
    ∃ pc ∈ (runAt9_A c t hc0 hc1 x0 x1 x2 x3 x4 x5 x6 x7 x8).2.2.1, y ∈ pc.1.set :=
  View.cover_of_tiledL (runAt9_A c t hc0 hc1 x0 x1 x2 x3 x4 x5 x6 x7 x8).2.2.1 S1x256.size (by sl_kernel_rfl) y

/-- What the first point leaves in the second accumulator: its pieces read back over junk. -/
noncomputable def sout9_A_1 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) : Vec F S1x256 .f32 :=
  VS9_1.read (Elt F) (VS9_1.writes (Elt F) VS9_1.junk (runAt9_A c t hc0 hc1 x0 x1 x2 x3 x4 x5 x6 x7 x8).2.2.1)

/-! ## What a middle point leaves -/

/-- The body's run at point `t`, on the memrefs the pipeline passes there. -/
noncomputable abbrev runAt9_B (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) :=
  kernelRun9_B c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) scM9_0 (Memref.isWhole_whole _) scM9_1 (Memref.isWhole_whole _) hc0 hc1 x0 x1 x2 x3 x4 x5 x6 x7 x8 xs0 xs1

/-- The pieces stored into the block output at a middle point tile the buffer, so they cover it. -/
theorem cover9_B_9 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt9_B c t hc0 hc1 x0 x1 x2 x3 x4 x5 x6 x7 x8 xs0 xs1).1, y ∈ pc.1.set :=
  View.cover_of_tiledL (runAt9_B c t hc0 hc1 x0 x1 x2 x3 x4 x5 x6 x7 x8 xs0 xs1).1 S1000x256.size (by sl_kernel_rfl) y

/-- What a middle point leaves in the block output: its pieces read back over junk. -/
noncomputable def out9_B_9 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) : Vec F S1000x256 .f32 :=
  VO9_9.read (Elt F) (VO9_9.writes (Elt F) VO9_9.junk (runAt9_B c t hc0 hc1 x0 x1 x2 x3 x4 x5 x6 x7 x8 xs0 xs1).1)

/-- The pieces stored into the first accumulator at a middle point tile the buffer, so they cover it. -/
theorem scover9_B_0 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_B c t hc0 hc1 x0 x1 x2 x3 x4 x5 x6 x7 x8 xs0 xs1).2.1, y ∈ pc.1.set :=
  View.cover_of_tiledL (runAt9_B c t hc0 hc1 x0 x1 x2 x3 x4 x5 x6 x7 x8 xs0 xs1).2.1 S1x256.size (by sl_kernel_rfl) y

/-- What a middle point leaves in the first accumulator: its pieces read back over junk. -/
noncomputable def sout9_B_0 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_0.read (Elt F) (VS9_0.writes (Elt F) VS9_0.junk (runAt9_B c t hc0 hc1 x0 x1 x2 x3 x4 x5 x6 x7 x8 xs0 xs1).2.1)

/-- The pieces stored into the second accumulator at a middle point tile the buffer, so they cover it. -/
theorem scover9_B_1 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_B c t hc0 hc1 x0 x1 x2 x3 x4 x5 x6 x7 x8 xs0 xs1).2.2.1, y ∈ pc.1.set :=
  View.cover_of_tiledL (runAt9_B c t hc0 hc1 x0 x1 x2 x3 x4 x5 x6 x7 x8 xs0 xs1).2.2.1 S1x256.size (by sl_kernel_rfl) y

/-- What a middle point leaves in the second accumulator: its pieces read back over junk. -/
noncomputable def sout9_B_1 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_1.read (Elt F) (VS9_1.writes (Elt F) VS9_1.junk (runAt9_B c t hc0 hc1 x0 x1 x2 x3 x4 x5 x6 x7 x8 xs0 xs1).2.2.1)

/-! ## What the last point leaves -/

/-- The body's run at point `t`, on the memrefs the pipeline passes there. -/
noncomputable abbrev runAt9_C (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) :=
  kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) scM9_0 (Memref.isWhole_whole _) scM9_1 (Memref.isWhole_whole _) hc0 hc1 x0 x1 x2 x3 x4 x5 x6 x7 x8 xs0 xs1

/-- The pieces stored into the block output at the last point tile the buffer, so they cover it. -/
theorem cover9_C_9 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt9_C c t hc0 hc1 x0 x1 x2 x3 x4 x5 x6 x7 x8 xs0 xs1).1, y ∈ pc.1.set :=
  View.cover_of_tiledL (runAt9_C c t hc0 hc1 x0 x1 x2 x3 x4 x5 x6 x7 x8 xs0 xs1).1 S1000x256.size (by sl_kernel_rfl) y

/-- What the last point leaves in the block output: its pieces read back over junk. -/
noncomputable def out9_C_9 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1000x256 .f32 :=
  VO9_9.read (Elt F) (VO9_9.writes (Elt F) VO9_9.junk (runAt9_C c t hc0 hc1 x0 x1 x2 x3 x4 x5 x6 x7 x8 xs0 xs1).1)

/-- The pieces stored into the mean output at the last point tile the buffer, so they cover it. -/
theorem cover9_C_10 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.1, y ∈ pc.1.set :=
  View.cover_of_tiledL (runAt9_C c t hc0 hc1 x0 x1 x2 x3 x4 x5 x6 x7 x8 xs0 xs1).2.1 S1x256.size (by sl_kernel_rfl) y

/-- What the last point leaves in the mean output: its pieces read back over junk. -/
noncomputable def out9_C_10 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VO9_10.read (Elt F) (VO9_10.writes (Elt F) VO9_10.junk (runAt9_C c t hc0 hc1 x0 x1 x2 x3 x4 x5 x6 x7 x8 xs0 xs1).2.1)

/-- The pieces stored into the variance output at the last point tile the buffer, so they cover it. -/
theorem cover9_C_11 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.2.1, y ∈ pc.1.set :=
  View.cover_of_tiledL (runAt9_C c t hc0 hc1 x0 x1 x2 x3 x4 x5 x6 x7 x8 xs0 xs1).2.2.1 S1x256.size (by sl_kernel_rfl) y

/-- What the last point leaves in the variance output: its pieces read back over junk. -/
noncomputable def out9_C_11 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VO9_11.read (Elt F) (VO9_11.writes (Elt F) VO9_11.junk (runAt9_C c t hc0 hc1 x0 x1 x2 x3 x4 x5 x6 x7 x8 xs0 xs1).2.2.1)

/-- The pieces stored into the first accumulator at the last point tile the buffer, so they cover it. -/
theorem scover9_C_0 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.2.2.1, y ∈ pc.1.set :=
  View.cover_of_tiledL (runAt9_C c t hc0 hc1 x0 x1 x2 x3 x4 x5 x6 x7 x8 xs0 xs1).2.2.2.1 S1x256.size (by sl_kernel_rfl) y

/-- What the last point leaves in the first accumulator: its pieces read back over junk. -/
noncomputable def sout9_C_0 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_0.read (Elt F) (VS9_0.writes (Elt F) VS9_0.junk (runAt9_C c t hc0 hc1 x0 x1 x2 x3 x4 x5 x6 x7 x8 xs0 xs1).2.2.2.1)

/-- The pieces stored into the second accumulator at the last point tile the buffer, so they cover it. -/
theorem scover9_C_1 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.2.2.2.1, y ∈ pc.1.set :=
  View.cover_of_tiledL (runAt9_C c t hc0 hc1 x0 x1 x2 x3 x4 x5 x6 x7 x8 xs0 xs1).2.2.2.2.1 S1x256.size (by sl_kernel_rfl) y

/-- What the last point leaves in the second accumulator: its pieces read back over junk. -/
noncomputable def sout9_C_1 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_1.read (Elt F) (VS9_1.writes (Elt F) VS9_1.junk (runAt9_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle9_10 : Vec F S1x256 .f32 := VO9_10.read (Elt F) VO9_10.junk
noncomputable def idle9_11 : Vec F S1x256 .f32 := VO9_11.read (Elt F) VO9_11.junk

/-- The conditions at the grid's points, from their closed forms. -/
theorem first9_c0 (hn : 0 < cfg9.N) : cond9_0 (grid9.coords ⟨0, hn⟩) := (hcond9_0 ⟨0, hn⟩).mpr (Nat.zero_mod _)
theorem first9_c1 (hn : 0 < cfg9.N) : ¬cond9_1 (grid9.coords ⟨0, hn⟩) := fun h => by
  have h' := (hcond9_1 ⟨0, hn⟩).mp h; (try dsimp only at h'); omega
theorem later9_c0 (t : Fin cfg9.N) (ht : t.val ≠ 0) : ¬cond9_0 (grid9.coords t) := fun h => by
  have h' := (hcond9_0 t).mp h
  have hN : t.val < 50 := lt_of_lt_of_eq t.isLt (show cfg9.N = 50 from N_9)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt9 (c : Dev nD) : (n : ℕ) → n < cfg9.N → Vec F S1000x256 .f32 × Vec F S1x256 .f32 × Vec F S1x256 .f32 × Vec F S1x256 .f32 × Vec F S1x256 .f32
  | 0, hn => (out9_A_9 c ⟨0, hn⟩ (first9_c0 hn) (first9_c1 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩) (iblk9 V c 7 ⟨0, hn⟩) (iblk9 V c 8 ⟨0, hn⟩), idle9_10, idle9_11, sout9_A_0 c ⟨0, hn⟩ (first9_c0 hn) (first9_c1 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩) (iblk9 V c 7 ⟨0, hn⟩) (iblk9 V c 8 ⟨0, hn⟩), sout9_A_1 c ⟨0, hn⟩ (first9_c0 hn) (first9_c1 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩) (iblk9 V c 7 ⟨0, hn⟩) (iblk9 V c 8 ⟨0, hn⟩))
  | n + 1, hn =>
    if h1 : (n + 1) % 50 = 49 then
      (out9_C_9 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, out9_C_10 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, out9_C_11 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, sout9_C_0 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, sout9_C_1 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2)
    else
      (out9_B_9 c ⟨n + 1, hn⟩ (later9_c0 ⟨n + 1, hn⟩ (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, idle9_10, idle9_11, sout9_B_0 c ⟨n + 1, hn⟩ (later9_c0 ⟨n + 1, hn⟩ (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, sout9_B_1 c ⟨n + 1, hn⟩ (later9_c0 ⟨n + 1, hn⟩ (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2)

/-- `outsAt9` at the first point: the reset case's contents. -/
theorem outsAt9_A (c : Dev nD) (t : Fin cfg9.N) (h0 : t.val = 0) (hc0 : cond9_0 (grid9.coords t)) (hc1 : ¬cond9_1 (grid9.coords t)) :
    outsAt9 V c t.val t.isLt = (out9_A_9 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t), idle9_10, idle9_11, sout9_A_0 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t), sout9_A_1 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t)) := by
  obtain ⟨n, hn⟩ := t
  cases n with
  | zero => rfl
  | succ n => exact absurd h0 (Nat.succ_ne_zero n)

/-- `outsAt9` at a middle point: that case's contents, over what the point before left in the accumulators. -/
theorem outsAt9_B (c : Dev nD) (t : Fin cfg9.N) (h0 : t.val ≠ 0) (h1 : ¬t.val % 50 = 49) (hc0 : ¬cond9_0 (grid9.coords t)) (hc1 : ¬cond9_1 (grid9.coords t)) :
    outsAt9 V c t.val t.isLt = (out9_B_9 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, idle9_10, idle9_11, sout9_B_0 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, sout9_B_1 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt9` at the last point: that case's contents, over what the point before left in the accumulators. -/
theorem outsAt9_C (c : Dev nD) (t : Fin cfg9.N) (h0 : t.val ≠ 0) (h1 : t.val % 50 = 49) (hc0 : ¬cond9_0 (grid9.coords t)) (hc1 : cond9_1 (grid9.coords t)) :
    outsAt9 V c t.val t.isLt = (out9_C_9 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, out9_C_10 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, out9_C_11 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, sout9_C_0 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, sout9_C_1 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut9 (c : Dev nD) : sProp 𝕄 :=
  Pipeline.scopedRestBut (Ix := Unit) (Name := ℕ) (U := UR sig nD τ) (Lvl := ℕ) (Val := Elt F) spec9 c [cc9_scratch0, cc9_scratch1]

/-- The region invariant before position `n`: before the first point the class's (every scratch at anything);
    afterwards the two accumulators at what the point before left in them (`outsAt9`'s last two components), the
    other scoped buffers unopened, and the generator register at some state. -/
noncomputable def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.2.2.1) ∗ owns (c : Thread nD τ) scM9_1 fullShare ((outsAt9 V c n hn).2.2.2.2)) ∗ restBut9 c) ∗ (∃ r, prngReg c r))

theorem PhiS9_zero (c : Dev nD) (n : ℕ) (h : n ≤ cfg9.N) (hz : n = 0) : PhiS9 V c n h = Pipeline.ΦA spec9 c := by
  subst hz; rfl

/-- After point `n` (before point `n + 1`): the accumulators at that point's contents. -/
theorem PhiS9_succ (c : Dev nD) (n : ℕ) (hn : n < cfg9.N) :
    PhiS9 V c (n + 1) hn = iprop(iprop(iprop(owns (c : Thread nD τ) scM9_0 fullShare ((outsAt9 V c n hn).2.2.2.1) ∗ owns (c : Thread nD τ) scM9_1 fullShare ((outsAt9 V c n hn).2.2.2.2)) ∗ restBut9 c) ∗ (∃ r, prngReg c r)) := rfl

/-- Before a point that is not the first: the accumulators at what the point before left. -/
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.2.2.1) ∗ owns (c : Thread nD τ) scM9_1 fullShare ((outsAt9 V c (n - 1) (by omega)).2.2.2.2)) ∗ restBut9 c) ∗ (∃ r, prngReg c r)) := by
  cases n with
  | zero => exact absurd rfl hz
  | succ n => rfl

/-! ## The pipeline's proof data -/

/-- The proof data of pipeline 9 on core `c`: the arrays as the region finds them (`V`); after the body at point
    `t` each input's buffer at its block and the outputs' at `outsAt9`; the invariant `PhiS9`; nothing owed; full
    shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => (outsAt9 V c t.val t.isLt).1
    | ⟨10, _⟩ => (outsAt9 V c t.val t.isLt).2.1
    | ⟨11, _⟩ => (outsAt9 V c t.val t.isLt).2.2.1
  Φ t := PhiS9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = (outsAt9 V c t.val t.isLt).1 := by dsimp only [dat9]
theorem after9_10 (c : Dev nD) (t : Fin cfg9.N) : (dat9 V c).after 10 t = (outsAt9 V c t.val t.isLt).2.1 := by dsimp only [dat9]
theorem after9_11 (c : Dev nD) (t : Fin cfg9.N) : (dat9 V c).after 11 t = (outsAt9 V c t.val t.isLt).2.2.1 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d

/-! ## The body obligation, at a generic point -/

/-- What the body is called with at point `t` (the library's body obligation's precondition, the windows one by one), -/
noncomputable def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d))
    ∗ (∃ d, owns (c : Thread nD τ) (ms9_8 t) fullShare ((dat9 V c).before 8 t d))
    ∗ (∃ d, owns (c : Thread nD τ) (ms9_9 t) fullShare ((dat9 V c).before 9 t d))
    ∗ (∃ d, owns (c : Thread nD τ) (ms9_10 t) fullShare ((dat9 V c).before 10 t d))
    ∗ (∃ d, owns (c : Thread nD τ) (ms9_11 t) fullShare ((dat9 V c).before 11 t d)))

/-- and what it returns. -/
noncomputable def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t
    ∗ (dat9 V c).leavesExact 7 t
    ∗ (dat9 V c).leavesExact 8 t
    ∗ (dat9 V c).leavesExact 9 t
    ∗ (dat9 V c).leavesExact 10 t
    ∗ (dat9 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8]
  rw [show (dat9 V c).owesAt () t.succ = (dat9 V c).owesAt () t.castSucc from rfl]
  rw [show (dat9 V c).Φ t.succ = PhiS9 V c (t.val + 1) t.isLt from rfl, PhiS9_succ]
  have hN : t.val < 50 := lt_of_lt_of_eq t.isLt (show cfg9.N = 50 from N_9)
  by_cases hz : t.val = 0
  · -- the first point: the reset
    have hc0 : cond9_0 (grid9.coords t) := (hcond9_0 t).mpr (by rw [hz])
    have hc1 : ¬cond9_1 (grid9.coords t) := fun h => by have h' := (hcond9_1 t).mp h; omega
    rw [show (dat9 V c).leavesExact 0 t = owns (c : Thread nD τ) (ms9_0 t) fullShare ((dat9 V c).after 0 t) from rfl, after9_0]
    rw [show (dat9 V c).leavesExact 1 t = owns (c : Thread nD τ) (ms9_1 t) fullShare ((dat9 V c).after 1 t) from rfl, after9_1]
    rw [show (dat9 V c).leavesExact 2 t = owns (c : Thread nD τ) (ms9_2 t) fullShare ((dat9 V c).after 2 t) from rfl, after9_2]
    rw [show (dat9 V c).leavesExact 3 t = owns (c : Thread nD τ) (ms9_3 t) fullShare ((dat9 V c).after 3 t) from rfl, after9_3]
    rw [show (dat9 V c).leavesExact 4 t = owns (c : Thread nD τ) (ms9_4 t) fullShare ((dat9 V c).after 4 t) from rfl, after9_4]
    rw [show (dat9 V c).leavesExact 5 t = owns (c : Thread nD τ) (ms9_5 t) fullShare ((dat9 V c).after 5 t) from rfl, after9_5]
    rw [show (dat9 V c).leavesExact 6 t = owns (c : Thread nD τ) (ms9_6 t) fullShare ((dat9 V c).after 6 t) from rfl, after9_6]
    rw [show (dat9 V c).leavesExact 7 t = owns (c : Thread nD τ) (ms9_7 t) fullShare ((dat9 V c).after 7 t) from rfl, after9_7]
    rw [show (dat9 V c).leavesExact 8 t = owns (c : Thread nD τ) (ms9_8 t) fullShare ((dat9 V c).after 8 t) from rfl, after9_8]
    rw [show (dat9 V c).leavesExact 9 t = owns (c : Thread nD τ) (ms9_9 t) fullShare ((dat9 V c).after 9 t) from rfl, after9_9]
    rw [Dat.leavesExact_idle (dat9 V c) 10 t (idleAt9_10 t hc1) (noFlush9_10 t hc1)]
    rw [Dat.leavesExact_idle (dat9 V c) 11 t (idleAt9_11 t hc1) (noFlush9_11 t hc1)]
    rw [outsAt9_A V c t hz hc0 hc1]
    unfold out9_A_9 sout9_A_0 sout9_A_1; (try dsimp only)
    rw [PhiS9_castSucc V c t, PhiS9_zero V c _ _ hz, PhiA9_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt9_A c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover9_A_0 c t _ _ _ _ _ _ _ _ _ _ _)
          unfold owns; iexists _; isplitr
          swap; · iexact HS1
          ipureintro; exact View.read_writes_of_cover _ _ _ _ _ (scover9_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover9_A_9 c t _ _ _ _ _ _ _ _ _ _ _)
    isplitl [H10]; · iexists _; iexact H10
    iexists _; iexact H11
  · have hc0 : ¬cond9_0 (grid9.coords t) := later9_c0 t hz
    by_cases h1 : t.val % 50 = 49
    · -- the last point: the write-out
      have hc1 : cond9_1 (grid9.coords t) := (hcond9_1 t).mpr h1
      rw [show (dat9 V c).leavesExact 0 t = owns (c : Thread nD τ) (ms9_0 t) fullShare ((dat9 V c).after 0 t) from rfl, after9_0]
      rw [show (dat9 V c).leavesExact 1 t = owns (c : Thread nD τ) (ms9_1 t) fullShare ((dat9 V c).after 1 t) from rfl, after9_1]
      rw [show (dat9 V c).leavesExact 2 t = owns (c : Thread nD τ) (ms9_2 t) fullShare ((dat9 V c).after 2 t) from rfl, after9_2]
      rw [show (dat9 V c).leavesExact 3 t = owns (c : Thread nD τ) (ms9_3 t) fullShare ((dat9 V c).after 3 t) from rfl, after9_3]
      rw [show (dat9 V c).leavesExact 4 t = owns (c : Thread nD τ) (ms9_4 t) fullShare ((dat9 V c).after 4 t) from rfl, after9_4]
      rw [show (dat9 V c).leavesExact 5 t = owns (c : Thread nD τ) (ms9_5 t) fullShare ((dat9 V c).after 5 t) from rfl, after9_5]
      rw [show (dat9 V c).leavesExact 6 t = owns (c : Thread nD τ) (ms9_6 t) fullShare ((dat9 V c).after 6 t) from rfl, after9_6]
      rw [show (dat9 V c).leavesExact 7 t = owns (c : Thread nD τ) (ms9_7 t) fullShare ((dat9 V c).after 7 t) from rfl, after9_7]
      rw [show (dat9 V c).leavesExact 8 t = owns (c : Thread nD τ) (ms9_8 t) fullShare ((dat9 V c).after 8 t) from rfl, after9_8]
      rw [show (dat9 V c).leavesExact 9 t = owns (c : Thread nD τ) (ms9_9 t) fullShare ((dat9 V c).after 9 t) from rfl, after9_9]
      rw [show (dat9 V c).leavesExact 10 t = owns (c : Thread nD τ) (ms9_10 t) fullShare ((dat9 V c).after 10 t) from by
        unfold Dat.leavesExact; rw [liveAt9_10 t hc1], after9_10]
      rw [show (dat9 V c).leavesExact 11 t = owns (c : Thread nD τ) (ms9_11 t) fullShare ((dat9 V c).after 11 t) from by
        unfold Dat.leavesExact; rw [liveAt9_11 t hc1], after9_11]
      rw [outsAt9_C V c t hz h1 hc0 hc1]
      unfold out9_C_9 out9_C_10 out9_C_11 sout9_C_0 sout9_C_1; (try dsimp only)
      rw [PhiS9_castSucc V c t, PhiS9_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt9_C c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover9_C_0 c t _ _ _ _ _ _ _ _ _ _ _ _ _)
            unfold owns; iexists _; isplitr
            swap; · iexact HS1
            ipureintro; exact View.read_writes_of_cover _ _ _ _ _ (scover9_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover9_C_9 c t _ _ _ _ _ _ _ _ _ _ _ _ _)
      isplitl [H10]
      · unfold owns; iexists _; isplitr
        swap; · iexact H10
        ipureintro; exact View.read_writes_of_cover _ _ _ _ _ (cover9_C_10 c t _ _ _ _ _ _ _ _ _ _ _ _ _)
      unfold owns; iexists _; isplitr
      swap; · iexact H11
      ipureintro; exact View.read_writes_of_cover _ _ _ _ _ (cover9_C_11 c t _ _ _ _ _ _ _ _ _ _ _ _ _)
    · -- a middle point
      have hc1 : ¬cond9_1 (grid9.coords t) := fun h => h1 ((hcond9_1 t).mp h)
      rw [show (dat9 V c).leavesExact 0 t = owns (c : Thread nD τ) (ms9_0 t) fullShare ((dat9 V c).after 0 t) from rfl, after9_0]
      rw [show (dat9 V c).leavesExact 1 t = owns (c : Thread nD τ) (ms9_1 t) fullShare ((dat9 V c).after 1 t) from rfl, after9_1]
      rw [show (dat9 V c).leavesExact 2 t = owns (c : Thread nD τ) (ms9_2 t) fullShare ((dat9 V c).after 2 t) from rfl, after9_2]
      rw [show (dat9 V c).leavesExact 3 t = owns (c : Thread nD τ) (ms9_3 t) fullShare ((dat9 V c).after 3 t) from rfl, after9_3]
      rw [show (dat9 V c).leavesExact 4 t = owns (c : Thread nD τ) (ms9_4 t) fullShare ((dat9 V c).after 4 t) from rfl, after9_4]
      rw [show (dat9 V c).leavesExact 5 t = owns (c : Thread nD τ) (ms9_5 t) fullShare ((dat9 V c).after 5 t) from rfl, after9_5]
      rw [show (dat9 V c).leavesExact 6 t = owns (c : Thread nD τ) (ms9_6 t) fullShare ((dat9 V c).after 6 t) from rfl, after9_6]
      rw [show (dat9 V c).leavesExact 7 t = owns (c : Thread nD τ) (ms9_7 t) fullShare ((dat9 V c).after 7 t) from rfl, after9_7]
      rw [show (dat9 V c).leavesExact 8 t = owns (c : Thread nD τ) (ms9_8 t) fullShare ((dat9 V c).after 8 t) from rfl, after9_8]
      rw [show (dat9 V c).leavesExact 9 t = owns (c : Thread nD τ) (ms9_9 t) fullShare ((dat9 V c).after 9 t) from rfl, after9_9]
      rw [Dat.leavesExact_idle (dat9 V c) 10 t (idleAt9_10 t hc1) (noFlush9_10 t hc1)]
      rw [Dat.leavesExact_idle (dat9 V c) 11 t (idleAt9_11 t hc1) (noFlush9_11 t hc1)]
      rw [outsAt9_B V c t hz h1 hc0 hc1]
      unfold out9_B_9 sout9_B_0 sout9_B_1; (try dsimp only)
      rw [PhiS9_castSucc V c t, PhiS9_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt9_B c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover9_B_0 c t _ _ _ _ _ _ _ _ _ _ _ _ _)
            unfold owns; iexists _; isplitr
            swap; · iexact HS1
            ipureintro; exact View.read_writes_of_cover _ _ _ _ _ (scover9_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover9_B_9 c t _ _ _ _ _ _ _ _ _ _ _ _ _)
      isplitl [H10]; · iexists _; iexact H10
      iexists _; iexact H11

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the class's back: the accumulators' named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout9 (c : Dev nD) : (dat9 V c).Φ (Fin.last cfg9.N) ⊢ Pipeline.ΦA spec9 c :=
  Phi_out9 V c _ (by rw [Fin.val_last]; have : cfg9.N = 50 := N_9; omega)

end Cert.Kernel.Hand

end
-- ==== Proof.K.Reg10Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: custom call 10, the layer-2 combine of one node type, at the entry contents `V` -/

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not (a window whose
    block index does not move is fetched at the first point only and keeps its block), for any proof data whose
    array is `V`'s and whose body leaves the block in place. One statement per input window. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch conditions -/

/-- The condition of the first `scf.if` (the accumulators' reset), from the grid coordinates. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 10 = 0 :=
  (by decide +kernel : ∀ t : Fin grid10.N, cond10_0 (grid10.coords t) ↔ t.val % 10 = 0)

/-- The condition of the second `scf.if` (the statistics' write-out). -/
abbrev cond10_1 (i : grid10.Coords) : Prop := k10_cond2 i = 1#1
/-- It holds at the last point only. -/
theorem hcond10_1 : ∀ t : Fin cfg10.N, cond10_1 (grid10.coords t) ↔ t.val % 10 = 9 :=
  (by decide +kernel : ∀ t : Fin grid10.N, cond10_1 (grid10.coords t) ↔ t.val % 10 = 9)

/-! ## Where the windows are idle -/

/-- Output 9 is stored at every point. -/
theorem liveAt10_9 : ∀ t : Fin cfg10.N, cfg10.idle 9 (grid10.coords t) = false := by decide +kernel
/-- Outputs 10 and 11 are stored at the last point only: elsewhere idle and not written back. -/
theorem idleAt10_10 : ∀ t : Fin cfg10.N, ¬cond10_1 (grid10.coords t) → cfg10.idle 10 (grid10.coords t) = true := by decide +kernel
theorem noFlush10_10 : ∀ t : Fin cfg10.N, ¬cond10_1 (grid10.coords t) → (cfg10.win 10).flush t = false := by decide +kernel
theorem liveAt10_10 : ∀ t : Fin cfg10.N, cond10_1 (grid10.coords t) → cfg10.idle 10 (grid10.coords t) = false := by decide +kernel
theorem idleAt10_11 : ∀ t : Fin cfg10.N, ¬cond10_1 (grid10.coords t) → cfg10.idle 11 (grid10.coords t) = true := by decide +kernel
theorem noFlush10_11 : ∀ t : Fin cfg10.N, ¬cond10_1 (grid10.coords t) → (cfg10.win 11).flush t = false := by decide +kernel
theorem liveAt10_11 : ∀ t : Fin cfg10.N, cond10_1 (grid10.coords t) → cfg10.idle 11 (grid10.coords t) = false := by decide +kernel

/-! ## The staging and scratch memrefs -/

/-- One staging buffer of each output window, through which its contents are stated (the choice does not matter). -/
noncomputable abbrev VO10_9 : View sig .tc .vmem S1000x256 .f32 := (Memref.whole cc10_stg9_0 : Memref sig .tc .vmem S1000x256 .f32).view
noncomputable abbrev VO10_10 : View sig .tc .vmem S1x256 .f32 := (Memref.whole cc10_stg10_0 : Memref sig .tc .vmem S1x256 .f32).view
noncomputable abbrev VO10_11 : View sig .tc .vmem S1x256 .f32 := (Memref.whole cc10_stg11_0 : Memref sig .tc .vmem S1x256 .f32).view
/-- Each window's current staging memref at point `t`, spelled as the pipeline passes it, and its wholeness. -/
noncomputable abbrev ms10_0 (t : Fin cfg10.N) : Memref sig .tc .vmem S1000x256 .f32 := win10_0.stage (cfg10.slots t 0)
noncomputable abbrev hs10_0 (t : Fin cfg10.N) : (ms10_0 t).IsWhole := hstage10_0 ((cfg10.slots t 0).cast nbuf10_0)
noncomputable abbrev ms10_1 (t : Fin cfg10.N) : Memref sig .tc .vmem S1000x256 .f32 := win10_1.stage (cfg10.slots t 1)
noncomputable abbrev hs10_1 (t : Fin cfg10.N) : (ms10_1 t).IsWhole := hstage10_1 ((cfg10.slots t 1).cast nbuf10_1)
noncomputable abbrev ms10_2 (t : Fin cfg10.N) : Memref sig .tc .vmem S1000x256 .f32 := win10_2.stage (cfg10.slots t 2)
noncomputable abbrev hs10_2 (t : Fin cfg10.N) : (ms10_2 t).IsWhole := hstage10_2 ((cfg10.slots t 2).cast nbuf10_2)
noncomputable abbrev ms10_3 (t : Fin cfg10.N) : Memref sig .tc .vmem S256x256 .f32 := win10_3.stage (cfg10.slots t 3)
noncomputable abbrev hs10_3 (t : Fin cfg10.N) : (ms10_3 t).IsWhole := hstage10_3 ((cfg10.slots t 3).cast nbuf10_3)
noncomputable abbrev ms10_4 (t : Fin cfg10.N) : Memref sig .tc .vmem S256x256 .f32 := win10_4.stage (cfg10.slots t 4)
noncomputable abbrev hs10_4 (t : Fin cfg10.N) : (ms10_4 t).IsWhole := hstage10_4 ((cfg10.slots t 4).cast nbuf10_4)
noncomputable abbrev ms10_5 (t : Fin cfg10.N) : Memref sig .tc .vmem S256x256 .f32 := win10_5.stage (cfg10.slots t 5)
noncomputable abbrev hs10_5 (t : Fin cfg10.N) : (ms10_5 t).IsWhole := hstage10_5 ((cfg10.slots t 5).cast nbuf10_5)
noncomputable abbrev ms10_6 (t : Fin cfg10.N) : Memref sig .tc .vmem S256x256 .f32 := win10_6.stage (cfg10.slots t 6)
noncomputable abbrev hs10_6 (t : Fin cfg10.N) : (ms10_6 t).IsWhole := hstage10_6 ((cfg10.slots t 6).cast nbuf10_6)
noncomputable abbrev ms10_7 (t : Fin cfg10.N) : Memref sig .tc .vmem S1x256 .f32 := win10_7.stage (cfg10.slots t 7)
noncomputable abbrev hs10_7 (t : Fin cfg10.N) : (ms10_7 t).IsWhole := hstage10_7 ((cfg10.slots t 7).cast nbuf10_7)
noncomputable abbrev ms10_8 (t : Fin cfg10.N) : Memref sig .tc .vmem S1x256 .f32 := win10_8.stage (cfg10.slots t 8)
noncomputable abbrev hs10_8 (t : Fin cfg10.N) : (ms10_8 t).IsWhole := hstage10_8 ((cfg10.slots t 8).cast nbuf10_8)
noncomputable abbrev ms10_9 (t : Fin cfg10.N) : Memref sig .tc .vmem S1000x256 .f32 := win10_9.stage (cfg10.slots t 9)
noncomputable abbrev hs10_9 (t : Fin cfg10.N) : (ms10_9 t).IsWhole := hstage10_9 ((cfg10.slots t 9).cast nbuf10_9)
noncomputable abbrev ms10_10 (t : Fin cfg10.N) : Memref sig .tc .vmem S1x256 .f32 := win10_10.stage (cfg10.slots t 10)
noncomputable abbrev hs10_10 (t : Fin cfg10.N) : (ms10_10 t).IsWhole := hstage10_10 ((cfg10.slots t 10).cast nbuf10_10)
noncomputable abbrev ms10_11 (t : Fin cfg10.N) : Memref sig .tc .vmem S1x256 .f32 := win10_11.stage (cfg10.slots t 11)
noncomputable abbrev hs10_11 (t : Fin cfg10.N) : (ms10_11 t).IsWhole := hstage10_11 ((cfg10.slots t 11).cast nbuf10_11)
/-- The two scratch operands: whole scoped buffers of the kernel's own, passed beside the windows. -/
noncomputable abbrev scM10_0 : Memref sig .tc .vmem S1x256 .f32 := Memref.whole cc10_scratch0
noncomputable abbrev scM10_1 : Memref sig .tc .vmem S1x256 .f32 := Memref.whole cc10_scratch1
/-- The scratch accumulators the kernel carries between points, as views: what they hold is stated through them. -/
noncomputable abbrev VS10_0 : View sig .tc .vmem S1x256 .f32 := scM10_0.view
noncomputable abbrev VS10_1 : View sig .tc .vmem S1x256 .f32 := scM10_1.view

/-- The class invariant with the two scratch operands as memrefs owned at some contents, the other scoped buffers
    unopened: what the body obligation hands the run and takes back. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

end Cert.Kernel.Hand

end
-- ==== Proof.K.Reg10A.lean ====
import proofs.«126569_j1468878815453_1_alg».proof.Proof.K.Reg10Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun10_A (c : Dev nD) (i : grid10.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond10_0 i) (hc1 : ¬cond10_1 i)
    (x0 x1 x2 : Vec F S1000x256 .f32) (x3 x4 x5 x6 : Vec F S256x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc10_kernel_eq_skeleton]; unfold cc10_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg10B.lean ====
import proofs.«126569_j1468878815453_1_alg».proof.Proof.K.Reg10A

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun10_B (c : Dev nD) (i : grid10.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond10_0 i) (hc1 : ¬cond10_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc10_kernel_eq_skeleton]; unfold cc10_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Reg10C.lean ====
import proofs.«126569_j1468878815453_1_alg».proof.Proof.K.Reg10B

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun10_C (c : Dev nD) (i : grid10.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond10_0 i) (hc1 : cond10_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc10_kernel_eq_skeleton]; unfold cc10_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Reg10.lean ====
import proofs.«126569_j1468878815453_1_alg».proof.Proof.K.Reg10C

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: what the kernel leaves point by point, the proof data, the body obligation -/

/-! ## What the first point leaves -/

/-- The body's run at point `t`, on the memrefs the pipeline passes there. -/
noncomputable abbrev runAt10_A (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) :=
  kernelRun10_A c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t) scM10_0 (Memref.isWhole_whole _) scM10_1 (Memref.isWhole_whole _) hc0 hc1 x0 x1 x2 x3 x4 x5 x6 x7 x8

/-- The pieces stored into the block output at the first point tile the buffer, so they cover it. -/
theorem cover10_A_9 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) (y : S1000x256.Idx) :
    ∃ pc ∈ (runAt10_A c t hc0 hc1 x0 x1 x2 x3 x4 x5 x6 x7 x8).1, y ∈ pc.1.set :=
  View.cover_of_tiledL (runAt10_A c t hc0 hc1 x0 x1 x2 x3 x4 x5 x6 x7 x8).1 S1000x256.size (by sl_kernel_rfl) y

/-- What the first point leaves in the block output: its pieces read back over junk. -/
noncomputable def out10_A_9 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) : Vec F S1000x256 .f32 :=
  VO10_9.read (Elt F) (VO10_9.writes (Elt F) VO10_9.junk (runAt10_A c t hc0 hc1 x0 x1 x2 x3 x4 x5 x6 x7 x8).1)

/-- The pieces stored into the first accumulator at the first point tile the buffer, so they cover it. -/
theorem scover10_A_0 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) (y : S1x256.Idx) :
    ∃ pc ∈ (runAt10_A c t hc0 hc1 x0 x1 x2 x3 x4 x5 x6 x7 x8).2.1, y ∈ pc.1.set :=
  View.cover_of_tiledL (runAt10_A c t hc0 hc1 x0 x1 x2 x3 x4 x5 x6 x7 x8).2.1 S1x256.size (by sl_kernel_rfl) y

/-- What the first point leaves in the first accumulator: its pieces read back over junk. -/
noncomputable def sout10_A_0 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) : Vec F S1x256 .f32 :=
  VS10_0.read (Elt F) (VS10_0.writes (Elt F) VS10_0.junk (runAt10_A c t hc0 hc1 x0 x1 x2 x3 x4 x5 x6 x7 x8).2.1)

/-- The pieces stored into the second accumulator at the first point tile the buffer, so they cover it. -/
theorem scover10_A_1 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) (y : S1x256.Idx) :
    ∃ pc ∈ (runAt10_A c t hc0 hc1 x0 x1 x2 x3 x4 x5 x6 x7 x8).2.2.1, y ∈ pc.1.set :=
  View.cover_of_tiledL (runAt10_A c t hc0 hc1 x0 x1 x2 x3 x4 x5 x6 x7 x8).2.2.1 S1x256.size (by sl_kernel_rfl) y

/-- What the first point leaves in the second accumulator: its pieces read back over junk. -/
noncomputable def sout10_A_1 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) : Vec F S1x256 .f32 :=
  VS10_1.read (Elt F) (VS10_1.writes (Elt F) VS10_1.junk (runAt10_A c t hc0 hc1 x0 x1 x2 x3 x4 x5 x6 x7 x8).2.2.1)

/-! ## What a middle point leaves -/

/-- The body's run at point `t`, on the memrefs the pipeline passes there. -/
noncomputable abbrev runAt10_B (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) :=
  kernelRun10_B c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t) scM10_0 (Memref.isWhole_whole _) scM10_1 (Memref.isWhole_whole _) hc0 hc1 x0 x1 x2 x3 x4 x5 x6 x7 x8 xs0 xs1

/-- The pieces stored into the block output at a middle point tile the buffer, so they cover it. -/
theorem cover10_B_9 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt10_B c t hc0 hc1 x0 x1 x2 x3 x4 x5 x6 x7 x8 xs0 xs1).1, y ∈ pc.1.set :=
  View.cover_of_tiledL (runAt10_B c t hc0 hc1 x0 x1 x2 x3 x4 x5 x6 x7 x8 xs0 xs1).1 S1000x256.size (by sl_kernel_rfl) y

/-- What a middle point leaves in the block output: its pieces read back over junk. -/
noncomputable def out10_B_9 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) : Vec F S1000x256 .f32 :=
  VO10_9.read (Elt F) (VO10_9.writes (Elt F) VO10_9.junk (runAt10_B c t hc0 hc1 x0 x1 x2 x3 x4 x5 x6 x7 x8 xs0 xs1).1)

/-- The pieces stored into the first accumulator at a middle point tile the buffer, so they cover it. -/
theorem scover10_B_0 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_B c t hc0 hc1 x0 x1 x2 x3 x4 x5 x6 x7 x8 xs0 xs1).2.1, y ∈ pc.1.set :=
  View.cover_of_tiledL (runAt10_B c t hc0 hc1 x0 x1 x2 x3 x4 x5 x6 x7 x8 xs0 xs1).2.1 S1x256.size (by sl_kernel_rfl) y

/-- What a middle point leaves in the first accumulator: its pieces read back over junk. -/
noncomputable def sout10_B_0 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_0.read (Elt F) (VS10_0.writes (Elt F) VS10_0.junk (runAt10_B c t hc0 hc1 x0 x1 x2 x3 x4 x5 x6 x7 x8 xs0 xs1).2.1)

/-- The pieces stored into the second accumulator at a middle point tile the buffer, so they cover it. -/
theorem scover10_B_1 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_B c t hc0 hc1 x0 x1 x2 x3 x4 x5 x6 x7 x8 xs0 xs1).2.2.1, y ∈ pc.1.set :=
  View.cover_of_tiledL (runAt10_B c t hc0 hc1 x0 x1 x2 x3 x4 x5 x6 x7 x8 xs0 xs1).2.2.1 S1x256.size (by sl_kernel_rfl) y

/-- What a middle point leaves in the second accumulator: its pieces read back over junk. -/
noncomputable def sout10_B_1 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_1.read (Elt F) (VS10_1.writes (Elt F) VS10_1.junk (runAt10_B c t hc0 hc1 x0 x1 x2 x3 x4 x5 x6 x7 x8 xs0 xs1).2.2.1)

/-! ## What the last point leaves -/

/-- The body's run at point `t`, on the memrefs the pipeline passes there. -/
noncomputable abbrev runAt10_C (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) :=
  kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t) scM10_0 (Memref.isWhole_whole _) scM10_1 (Memref.isWhole_whole _) hc0 hc1 x0 x1 x2 x3 x4 x5 x6 x7 x8 xs0 xs1

/-- The pieces stored into the block output at the last point tile the buffer, so they cover it. -/
theorem cover10_C_9 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt10_C c t hc0 hc1 x0 x1 x2 x3 x4 x5 x6 x7 x8 xs0 xs1).1, y ∈ pc.1.set :=
  View.cover_of_tiledL (runAt10_C c t hc0 hc1 x0 x1 x2 x3 x4 x5 x6 x7 x8 xs0 xs1).1 S1000x256.size (by sl_kernel_rfl) y

/-- What the last point leaves in the block output: its pieces read back over junk. -/
noncomputable def out10_C_9 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1000x256 .f32 :=
  VO10_9.read (Elt F) (VO10_9.writes (Elt F) VO10_9.junk (runAt10_C c t hc0 hc1 x0 x1 x2 x3 x4 x5 x6 x7 x8 xs0 xs1).1)

/-- The pieces stored into the mean output at the last point tile the buffer, so they cover it. -/
theorem cover10_C_10 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.1, y ∈ pc.1.set :=
  View.cover_of_tiledL (runAt10_C c t hc0 hc1 x0 x1 x2 x3 x4 x5 x6 x7 x8 xs0 xs1).2.1 S1x256.size (by sl_kernel_rfl) y

/-- What the last point leaves in the mean output: its pieces read back over junk. -/
noncomputable def out10_C_10 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VO10_10.read (Elt F) (VO10_10.writes (Elt F) VO10_10.junk (runAt10_C c t hc0 hc1 x0 x1 x2 x3 x4 x5 x6 x7 x8 xs0 xs1).2.1)

/-- The pieces stored into the variance output at the last point tile the buffer, so they cover it. -/
theorem cover10_C_11 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.2.1, y ∈ pc.1.set :=
  View.cover_of_tiledL (runAt10_C c t hc0 hc1 x0 x1 x2 x3 x4 x5 x6 x7 x8 xs0 xs1).2.2.1 S1x256.size (by sl_kernel_rfl) y

/-- What the last point leaves in the variance output: its pieces read back over junk. -/
noncomputable def out10_C_11 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VO10_11.read (Elt F) (VO10_11.writes (Elt F) VO10_11.junk (runAt10_C c t hc0 hc1 x0 x1 x2 x3 x4 x5 x6 x7 x8 xs0 xs1).2.2.1)

/-- The pieces stored into the first accumulator at the last point tile the buffer, so they cover it. -/
theorem scover10_C_0 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.2.2.1, y ∈ pc.1.set :=
  View.cover_of_tiledL (runAt10_C c t hc0 hc1 x0 x1 x2 x3 x4 x5 x6 x7 x8 xs0 xs1).2.2.2.1 S1x256.size (by sl_kernel_rfl) y

/-- What the last point leaves in the first accumulator: its pieces read back over junk. -/
noncomputable def sout10_C_0 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_0.read (Elt F) (VS10_0.writes (Elt F) VS10_0.junk (runAt10_C c t hc0 hc1 x0 x1 x2 x3 x4 x5 x6 x7 x8 xs0 xs1).2.2.2.1)

/-- The pieces stored into the second accumulator at the last point tile the buffer, so they cover it. -/
theorem scover10_C_1 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.2.2.2.1, y ∈ pc.1.set :=
  View.cover_of_tiledL (runAt10_C c t hc0 hc1 x0 x1 x2 x3 x4 x5 x6 x7 x8 xs0 xs1).2.2.2.2.1 S1x256.size (by sl_kernel_rfl) y

/-- What the last point leaves in the second accumulator: its pieces read back over junk. -/
noncomputable def sout10_C_1 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_1.read (Elt F) (VS10_1.writes (Elt F) VS10_1.junk (runAt10_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle10_10 : Vec F S1x256 .f32 := VO10_10.read (Elt F) VO10_10.junk
noncomputable def idle10_11 : Vec F S1x256 .f32 := VO10_11.read (Elt F) VO10_11.junk

/-- The conditions at the grid's points, from their closed forms. -/
theorem first10_c0 (hn : 0 < cfg10.N) : cond10_0 (grid10.coords ⟨0, hn⟩) := (hcond10_0 ⟨0, hn⟩).mpr (Nat.zero_mod _)
theorem first10_c1 (hn : 0 < cfg10.N) : ¬cond10_1 (grid10.coords ⟨0, hn⟩) := fun h => by
  have h' := (hcond10_1 ⟨0, hn⟩).mp h; (try dsimp only at h'); omega
theorem later10_c0 (t : Fin cfg10.N) (ht : t.val ≠ 0) : ¬cond10_0 (grid10.coords t) := fun h => by
  have h' := (hcond10_0 t).mp h
  have hN : t.val < 10 := lt_of_lt_of_eq t.isLt (show cfg10.N = 10 from N_10)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt10 (c : Dev nD) : (n : ℕ) → n < cfg10.N → Vec F S1000x256 .f32 × Vec F S1x256 .f32 × Vec F S1x256 .f32 × Vec F S1x256 .f32 × Vec F S1x256 .f32
  | 0, hn => (out10_A_9 c ⟨0, hn⟩ (first10_c0 hn) (first10_c1 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩), idle10_10, idle10_11, sout10_A_0 c ⟨0, hn⟩ (first10_c0 hn) (first10_c1 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩), sout10_A_1 c ⟨0, hn⟩ (first10_c0 hn) (first10_c1 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩))
  | n + 1, hn =>
    if h1 : (n + 1) % 10 = 9 then
      (out10_C_9 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, out10_C_10 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, out10_C_11 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, sout10_C_0 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, sout10_C_1 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2)
    else
      (out10_B_9 c ⟨n + 1, hn⟩ (later10_c0 ⟨n + 1, hn⟩ (Nat.succ_ne_zero n)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, idle10_10, idle10_11, sout10_B_0 c ⟨n + 1, hn⟩ (later10_c0 ⟨n + 1, hn⟩ (Nat.succ_ne_zero n)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, sout10_B_1 c ⟨n + 1, hn⟩ (later10_c0 ⟨n + 1, hn⟩ (Nat.succ_ne_zero n)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2)

/-- `outsAt10` at the first point: the reset case's contents. -/
theorem outsAt10_A (c : Dev nD) (t : Fin cfg10.N) (h0 : t.val = 0) (hc0 : cond10_0 (grid10.coords t)) (hc1 : ¬cond10_1 (grid10.coords t)) :
    outsAt10 V c t.val t.isLt = (out10_A_9 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t), idle10_10, idle10_11, sout10_A_0 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t), sout10_A_1 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)) := by
  obtain ⟨n, hn⟩ := t
  cases n with
  | zero => rfl
  | succ n => exact absurd h0 (Nat.succ_ne_zero n)

/-- `outsAt10` at a middle point: that case's contents, over what the point before left in the accumulators. -/
theorem outsAt10_B (c : Dev nD) (t : Fin cfg10.N) (h0 : t.val ≠ 0) (h1 : ¬t.val % 10 = 9) (hc0 : ¬cond10_0 (grid10.coords t)) (hc1 : ¬cond10_1 (grid10.coords t)) :
    outsAt10 V c t.val t.isLt = (out10_B_9 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, idle10_10, idle10_11, sout10_B_0 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_B_1 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt10` at the last point: that case's contents, over what the point before left in the accumulators. -/
theorem outsAt10_C (c : Dev nD) (t : Fin cfg10.N) (h0 : t.val ≠ 0) (h1 : t.val % 10 = 9) (hc0 : ¬cond10_0 (grid10.coords t)) (hc1 : cond10_1 (grid10.coords t)) :
    outsAt10 V c t.val t.isLt = (out10_C_9 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_10 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_11 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_0 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_1 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut10 (c : Dev nD) : sProp 𝕄 :=
  Pipeline.scopedRestBut (Ix := Unit) (Name := ℕ) (U := UR sig nD τ) (Lvl := ℕ) (Val := Elt F) spec10 c [cc10_scratch0, cc10_scratch1]

/-- The region invariant before position `n`: before the first point the class's (every scratch at anything);
    afterwards the two accumulators at what the point before left in them (`outsAt10`'s last two components), the
    other scoped buffers unopened, and the generator register at some state. -/
noncomputable def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.2.2.1) ∗ owns (c : Thread nD τ) scM10_1 fullShare ((outsAt10 V c n hn).2.2.2.2)) ∗ restBut10 c) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the accumulators at that point's contents. -/
theorem PhiS10_succ (c : Dev nD) (n : ℕ) (hn : n < cfg10.N) :
    PhiS10 V c (n + 1) hn = iprop(iprop(iprop(owns (c : Thread nD τ) scM10_0 fullShare ((outsAt10 V c n hn).2.2.2.1) ∗ owns (c : Thread nD τ) scM10_1 fullShare ((outsAt10 V c n hn).2.2.2.2)) ∗ restBut10 c) ∗ (∃ r, prngReg c r)) := rfl

/-- Before a point that is not the first: the accumulators at what the point before left. -/
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.2.2.1) ∗ owns (c : Thread nD τ) scM10_1 fullShare ((outsAt10 V c (n - 1) (by omega)).2.2.2.2)) ∗ restBut10 c) ∗ (∃ r, prngReg c r)) := by
  cases n with
  | zero => exact absurd rfl hz
  | succ n => rfl

/-! ## The pipeline's proof data -/

/-- The proof data of pipeline 10 on core `c`: the arrays as the region finds them (`V`); after the body at point
    `t` each input's buffer at its block and the outputs' at `outsAt10`; the invariant `PhiS10`; nothing owed; full
    shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => (outsAt10 V c t.val t.isLt).1
    | ⟨10, _⟩ => (outsAt10 V c t.val t.isLt).2.1
    | ⟨11, _⟩ => (outsAt10 V c t.val t.isLt).2.2.1
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = (outsAt10 V c t.val t.isLt).1 := by dsimp only [dat10]
theorem after10_10 (c : Dev nD) (t : Fin cfg10.N) : (dat10 V c).after 10 t = (outsAt10 V c t.val t.isLt).2.1 := by dsimp only [dat10]
theorem after10_11 (c : Dev nD) (t : Fin cfg10.N) : (dat10 V c).after 11 t = (outsAt10 V c t.val t.isLt).2.2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-! ## The body obligation, at a generic point -/

/-- What the body is called with at point `t` (the library's body obligation's precondition, the windows one by one), -/
noncomputable def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d))
    ∗ (∃ d, owns (c : Thread nD τ) (ms10_8 t) fullShare ((dat10 V c).before 8 t d))
    ∗ (∃ d, owns (c : Thread nD τ) (ms10_9 t) fullShare ((dat10 V c).before 9 t d))
    ∗ (∃ d, owns (c : Thread nD τ) (ms10_10 t) fullShare ((dat10 V c).before 10 t d))
    ∗ (∃ d, owns (c : Thread nD τ) (ms10_11 t) fullShare ((dat10 V c).before 11 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t
    ∗ (dat10 V c).leavesExact 8 t
    ∗ (dat10 V c).leavesExact 9 t
    ∗ (dat10 V c).leavesExact 10 t
    ∗ (dat10 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).owesAt () t.succ = (dat10 V c).owesAt () t.castSucc from rfl]
  rw [show (dat10 V c).Φ t.succ = PhiS10 V c (t.val + 1) t.isLt from rfl, PhiS10_succ]
  have hN : t.val < 10 := lt_of_lt_of_eq t.isLt (show cfg10.N = 10 from N_10)
  by_cases hz : t.val = 0
  · -- the first point: the reset
    have hc0 : cond10_0 (grid10.coords t) := (hcond10_0 t).mpr (by rw [hz])
    have hc1 : ¬cond10_1 (grid10.coords t) := fun h => by have h' := (hcond10_1 t).mp h; omega
    rw [show (dat10 V c).leavesExact 0 t = owns (c : Thread nD τ) (ms10_0 t) fullShare ((dat10 V c).after 0 t) from rfl, after10_0]
    rw [show (dat10 V c).leavesExact 1 t = owns (c : Thread nD τ) (ms10_1 t) fullShare ((dat10 V c).after 1 t) from rfl, after10_1]
    rw [show (dat10 V c).leavesExact 2 t = owns (c : Thread nD τ) (ms10_2 t) fullShare ((dat10 V c).after 2 t) from rfl, after10_2]
    rw [show (dat10 V c).leavesExact 3 t = owns (c : Thread nD τ) (ms10_3 t) fullShare ((dat10 V c).after 3 t) from rfl, after10_3]
    rw [show (dat10 V c).leavesExact 4 t = owns (c : Thread nD τ) (ms10_4 t) fullShare ((dat10 V c).after 4 t) from rfl, after10_4]
    rw [show (dat10 V c).leavesExact 5 t = owns (c : Thread nD τ) (ms10_5 t) fullShare ((dat10 V c).after 5 t) from rfl, after10_5]
    rw [show (dat10 V c).leavesExact 6 t = owns (c : Thread nD τ) (ms10_6 t) fullShare ((dat10 V c).after 6 t) from rfl, after10_6]
    rw [show (dat10 V c).leavesExact 7 t = owns (c : Thread nD τ) (ms10_7 t) fullShare ((dat10 V c).after 7 t) from rfl, after10_7]
    rw [show (dat10 V c).leavesExact 8 t = owns (c : Thread nD τ) (ms10_8 t) fullShare ((dat10 V c).after 8 t) from rfl, after10_8]
    rw [show (dat10 V c).leavesExact 9 t = owns (c : Thread nD τ) (ms10_9 t) fullShare ((dat10 V c).after 9 t) from rfl, after10_9]
    rw [Dat.leavesExact_idle (dat10 V c) 10 t (idleAt10_10 t hc1) (noFlush10_10 t hc1)]
    rw [Dat.leavesExact_idle (dat10 V c) 11 t (idleAt10_11 t hc1) (noFlush10_11 t hc1)]
    rw [outsAt10_A V c t hz hc0 hc1]
    unfold out10_A_9 sout10_A_0 sout10_A_1; (try dsimp only)
    rw [PhiS10_castSucc V c t, PhiS10_zero V c _ _ hz, PhiA10_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt10_A c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover10_A_0 c t _ _ _ _ _ _ _ _ _ _ _)
          unfold owns; iexists _; isplitr
          swap; · iexact HS1
          ipureintro; exact View.read_writes_of_cover _ _ _ _ _ (scover10_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover10_A_9 c t _ _ _ _ _ _ _ _ _ _ _)
    isplitl [H10]; · iexists _; iexact H10
    iexists _; iexact H11
  · have hc0 : ¬cond10_0 (grid10.coords t) := later10_c0 t hz
    by_cases h1 : t.val % 10 = 9
    · -- the last point: the write-out
      have hc1 : cond10_1 (grid10.coords t) := (hcond10_1 t).mpr h1
      rw [show (dat10 V c).leavesExact 0 t = owns (c : Thread nD τ) (ms10_0 t) fullShare ((dat10 V c).after 0 t) from rfl, after10_0]
      rw [show (dat10 V c).leavesExact 1 t = owns (c : Thread nD τ) (ms10_1 t) fullShare ((dat10 V c).after 1 t) from rfl, after10_1]
      rw [show (dat10 V c).leavesExact 2 t = owns (c : Thread nD τ) (ms10_2 t) fullShare ((dat10 V c).after 2 t) from rfl, after10_2]
      rw [show (dat10 V c).leavesExact 3 t = owns (c : Thread nD τ) (ms10_3 t) fullShare ((dat10 V c).after 3 t) from rfl, after10_3]
      rw [show (dat10 V c).leavesExact 4 t = owns (c : Thread nD τ) (ms10_4 t) fullShare ((dat10 V c).after 4 t) from rfl, after10_4]
      rw [show (dat10 V c).leavesExact 5 t = owns (c : Thread nD τ) (ms10_5 t) fullShare ((dat10 V c).after 5 t) from rfl, after10_5]
      rw [show (dat10 V c).leavesExact 6 t = owns (c : Thread nD τ) (ms10_6 t) fullShare ((dat10 V c).after 6 t) from rfl, after10_6]
      rw [show (dat10 V c).leavesExact 7 t = owns (c : Thread nD τ) (ms10_7 t) fullShare ((dat10 V c).after 7 t) from rfl, after10_7]
      rw [show (dat10 V c).leavesExact 8 t = owns (c : Thread nD τ) (ms10_8 t) fullShare ((dat10 V c).after 8 t) from rfl, after10_8]
      rw [show (dat10 V c).leavesExact 9 t = owns (c : Thread nD τ) (ms10_9 t) fullShare ((dat10 V c).after 9 t) from rfl, after10_9]
      rw [show (dat10 V c).leavesExact 10 t = owns (c : Thread nD τ) (ms10_10 t) fullShare ((dat10 V c).after 10 t) from by
        unfold Dat.leavesExact; rw [liveAt10_10 t hc1], after10_10]
      rw [show (dat10 V c).leavesExact 11 t = owns (c : Thread nD τ) (ms10_11 t) fullShare ((dat10 V c).after 11 t) from by
        unfold Dat.leavesExact; rw [liveAt10_11 t hc1], after10_11]
      rw [outsAt10_C V c t hz h1 hc0 hc1]
      unfold out10_C_9 out10_C_10 out10_C_11 sout10_C_0 sout10_C_1; (try dsimp only)
      rw [PhiS10_castSucc V c t, PhiS10_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt10_C c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_C_0 c t _ _ _ _ _ _ _ _ _ _ _ _ _)
            unfold owns; iexists _; isplitr
            swap; · iexact HS1
            ipureintro; exact View.read_writes_of_cover _ _ _ _ _ (scover10_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover10_C_9 c t _ _ _ _ _ _ _ _ _ _ _ _ _)
      isplitl [H10]
      · unfold owns; iexists _; isplitr
        swap; · iexact H10
        ipureintro; exact View.read_writes_of_cover _ _ _ _ _ (cover10_C_10 c t _ _ _ _ _ _ _ _ _ _ _ _ _)
      unfold owns; iexists _; isplitr
      swap; · iexact H11
      ipureintro; exact View.read_writes_of_cover _ _ _ _ _ (cover10_C_11 c t _ _ _ _ _ _ _ _ _ _ _ _ _)
    · -- a middle point
      have hc1 : ¬cond10_1 (grid10.coords t) := fun h => h1 ((hcond10_1 t).mp h)
      rw [show (dat10 V c).leavesExact 0 t = owns (c : Thread nD τ) (ms10_0 t) fullShare ((dat10 V c).after 0 t) from rfl, after10_0]
      rw [show (dat10 V c).leavesExact 1 t = owns (c : Thread nD τ) (ms10_1 t) fullShare ((dat10 V c).after 1 t) from rfl, after10_1]
      rw [show (dat10 V c).leavesExact 2 t = owns (c : Thread nD τ) (ms10_2 t) fullShare ((dat10 V c).after 2 t) from rfl, after10_2]
      rw [show (dat10 V c).leavesExact 3 t = owns (c : Thread nD τ) (ms10_3 t) fullShare ((dat10 V c).after 3 t) from rfl, after10_3]
      rw [show (dat10 V c).leavesExact 4 t = owns (c : Thread nD τ) (ms10_4 t) fullShare ((dat10 V c).after 4 t) from rfl, after10_4]
      rw [show (dat10 V c).leavesExact 5 t = owns (c : Thread nD τ) (ms10_5 t) fullShare ((dat10 V c).after 5 t) from rfl, after10_5]
      rw [show (dat10 V c).leavesExact 6 t = owns (c : Thread nD τ) (ms10_6 t) fullShare ((dat10 V c).after 6 t) from rfl, after10_6]
      rw [show (dat10 V c).leavesExact 7 t = owns (c : Thread nD τ) (ms10_7 t) fullShare ((dat10 V c).after 7 t) from rfl, after10_7]
      rw [show (dat10 V c).leavesExact 8 t = owns (c : Thread nD τ) (ms10_8 t) fullShare ((dat10 V c).after 8 t) from rfl, after10_8]
      rw [show (dat10 V c).leavesExact 9 t = owns (c : Thread nD τ) (ms10_9 t) fullShare ((dat10 V c).after 9 t) from rfl, after10_9]
      rw [Dat.leavesExact_idle (dat10 V c) 10 t (idleAt10_10 t hc1) (noFlush10_10 t hc1)]
      rw [Dat.leavesExact_idle (dat10 V c) 11 t (idleAt10_11 t hc1) (noFlush10_11 t hc1)]
      rw [outsAt10_B V c t hz h1 hc0 hc1]
      unfold out10_B_9 sout10_B_0 sout10_B_1; (try dsimp only)
      rw [PhiS10_castSucc V c t, PhiS10_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt10_B c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_B_0 c t _ _ _ _ _ _ _ _ _ _ _ _ _)
            unfold owns; iexists _; isplitr
            swap; · iexact HS1
            ipureintro; exact View.read_writes_of_cover _ _ _ _ _ (scover10_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover10_B_9 c t _ _ _ _ _ _ _ _ _ _ _ _ _)
      isplitl [H10]; · iexists _; iexact H10
      iexists _; iexact H11

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the class's back: the accumulators' named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 10 := N_10; omega)

end Cert.Kernel.Hand

end
-- ==== Proof.K.Reg11Runs.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # Custom call 11 (the one-relation combine kernel with its running column sums), what its three cases share

The windows' blocks at the region's entry contents `V`, the two branch conditions decided over the three grid points,
where the two statistics windows are idle, and the staging and scratch memrefs the body is called with. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 (the neighbours' mean rows) holds its block at every point, fetched there or not, for any proof data whose array is
    `V`'s and whose body leaves the block in place: an unfetched input's block index has not moved; the window is
    uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 (the node's own rows) holds its block at every point, fetched there or not, for any proof data whose array is
    `V`'s and whose body leaves the block in place: an unfetched input's block index has not moved; the window is
    uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2 (the neighbour weight matrix) holds its block at every point, fetched there or not, for any proof data whose array is
    `V`'s and whose body leaves the block in place: an unfetched input's block index has not moved; the window is
    uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3 (the root weight matrix) holds its block at every point, fetched there or not, for any proof data whose array is
    `V`'s and whose body leaves the block in place: an unfetched input's block index has not moved; the window is
    uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4 (the bias row) holds its block at every point, fetched there or not, for any proof data whose array is
    `V`'s and whose body leaves the block in place: an unfetched input's block index has not moved; the window is
    uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch conditions -/

/-- The condition of the first `scf.if` (the running sums' reset), from the grid coordinate. -/
noncomputable abbrev cond11_0 (i : grid11.Coords) : Prop := (Scalar.cmpi .ne (Scalar.extui (Scalar.cmpi .eq (BitVec.ofNat 32 (i 0).val) 0#32)) 0#32) = 1#1
/-- It holds at the first point only. -/
theorem hcond11_0 : ∀ t : Fin cfg11.N, cond11_0 (grid11.coords t) ↔ t.val % 3 = 0 :=
  (by decide +kernel : ∀ t : Fin grid11.N, cond11_0 (grid11.coords t) ↔ t.val % 3 = 0)

/-- The condition of the second `scf.if` (the statistics' write-out). -/
noncomputable abbrev cond11_1 (i : grid11.Coords) : Prop := k11_cond2 i = 1#1
/-- It holds at the last point only. -/
theorem hcond11_1 : ∀ t : Fin cfg11.N, cond11_1 (grid11.coords t) ↔ t.val % 3 = 2 :=
  (by decide +kernel : ∀ t : Fin grid11.N, cond11_1 (grid11.coords t) ↔ t.val % 3 = 2)

/-! ## Where the windows are idle -/

/-- The row-block output is never idle. -/
theorem liveAt11_5 : ∀ t : Fin cfg11.N, cfg11.idle 5 (grid11.coords t) = false := by decide +kernel
/-- Away from the last point the mean window is idle (nothing is stored into it) and not written back; -/
theorem idleAt11_6 : ∀ t : Fin cfg11.N, ¬cond11_1 (grid11.coords t) → cfg11.idle 6 (grid11.coords t) = true := by decide +kernel
theorem noFlush11_6 : ∀ t : Fin cfg11.N, ¬cond11_1 (grid11.coords t) → (cfg11.win 6).flush t = false := by decide +kernel
/-- at the last point it is live. -/
theorem liveAt11_6 : ∀ t : Fin cfg11.N, cond11_1 (grid11.coords t) → cfg11.idle 6 (grid11.coords t) = false := by decide +kernel
/-- The variance window likewise. -/
theorem idleAt11_7 : ∀ t : Fin cfg11.N, ¬cond11_1 (grid11.coords t) → cfg11.idle 7 (grid11.coords t) = true := by decide +kernel
theorem noFlush11_7 : ∀ t : Fin cfg11.N, ¬cond11_1 (grid11.coords t) → (cfg11.win 7).flush t = false := by decide +kernel
theorem liveAt11_7 : ∀ t : Fin cfg11.N, cond11_1 (grid11.coords t) → cfg11.idle 7 (grid11.coords t) = false := by decide +kernel

/-! ## The memrefs the body is called with -/

/-- One staging buffer of each output window, through which its contents are stated (the choice does not matter). -/
noncomputable abbrev VO11_5 : View sig .tc .vmem S1000x256 .f32 := (Memref.whole cc11_stg5_0 : Memref sig .tc .vmem S1000x256 .f32).view
noncomputable abbrev VO11_6 : View sig .tc .vmem S1x256 .f32 := (Memref.whole cc11_stg6_0 : Memref sig .tc .vmem S1x256 .f32).view
noncomputable abbrev VO11_7 : View sig .tc .vmem S1x256 .f32 := (Memref.whole cc11_stg7_0 : Memref sig .tc .vmem S1x256 .f32).view
/-- Each window's current staging memref at point `t`, spelled as the pipeline passes it, and its wholeness. -/
noncomputable abbrev ms11_0 (t : Fin cfg11.N) : Memref sig .tc .vmem S1000x256 .f32 := win11_0.stage (cfg11.slots t 0)
noncomputable abbrev hs11_0 (t : Fin cfg11.N) : (ms11_0 t).IsWhole := hstage11_0 ((cfg11.slots t 0).cast nbuf11_0)
noncomputable abbrev ms11_1 (t : Fin cfg11.N) : Memref sig .tc .vmem S1000x256 .f32 := win11_1.stage (cfg11.slots t 1)
noncomputable abbrev hs11_1 (t : Fin cfg11.N) : (ms11_1 t).IsWhole := hstage11_1 ((cfg11.slots t 1).cast nbuf11_1)
noncomputable abbrev ms11_2 (t : Fin cfg11.N) : Memref sig .tc .vmem S256x256 .f32 := win11_2.stage (cfg11.slots t 2)
noncomputable abbrev hs11_2 (t : Fin cfg11.N) : (ms11_2 t).IsWhole := hstage11_2 ((cfg11.slots t 2).cast nbuf11_2)
noncomputable abbrev ms11_3 (t : Fin cfg11.N) : Memref sig .tc .vmem S256x256 .f32 := win11_3.stage (cfg11.slots t 3)
noncomputable abbrev hs11_3 (t : Fin cfg11.N) : (ms11_3 t).IsWhole := hstage11_3 ((cfg11.slots t 3).cast nbuf11_3)
noncomputable abbrev ms11_4 (t : Fin cfg11.N) : Memref sig .tc .vmem S1x256 .f32 := win11_4.stage (cfg11.slots t 4)
noncomputable abbrev hs11_4 (t : Fin cfg11.N) : (ms11_4 t).IsWhole := hstage11_4 ((cfg11.slots t 4).cast nbuf11_4)
noncomputable abbrev ms11_5 (t : Fin cfg11.N) : Memref sig .tc .vmem S1000x256 .f32 := win11_5.stage (cfg11.slots t 5)
noncomputable abbrev hs11_5 (t : Fin cfg11.N) : (ms11_5 t).IsWhole := hstage11_5 ((cfg11.slots t 5).cast nbuf11_5)
noncomputable abbrev ms11_6 (t : Fin cfg11.N) : Memref sig .tc .vmem S1x256 .f32 := win11_6.stage (cfg11.slots t 6)
noncomputable abbrev hs11_6 (t : Fin cfg11.N) : (ms11_6 t).IsWhole := hstage11_6 ((cfg11.slots t 6).cast nbuf11_6)
noncomputable abbrev ms11_7 (t : Fin cfg11.N) : Memref sig .tc .vmem S1x256 .f32 := win11_7.stage (cfg11.slots t 7)
noncomputable abbrev hs11_7 (t : Fin cfg11.N) : (ms11_7 t).IsWhole := hstage11_7 ((cfg11.slots t 7).cast nbuf11_7)
/-- The two scratch operands (the running column sums of the block and of its square): whole scoped buffers of the
    kernel's own, passed beside the windows, -/
noncomputable abbrev scM11_0 : Memref sig .tc .vmem S1x256 .f32 := Memref.whole cc11_scratch0
noncomputable abbrev scM11_1 : Memref sig .tc .vmem S1x256 .f32 := Memref.whole cc11_scratch1
/-- and as views: what they hold between points is stated through them. -/
noncomputable abbrev VS11_0 : View sig .tc .vmem S1x256 .f32 := scM11_0.view
noncomputable abbrev VS11_1 : View sig .tc .vmem S1x256 .f32 := scM11_1.view

/-- The class invariant with the two scratch operands as memrefs owned at some contents, the other scoped buffers
    unopened: what the body obligation hands the run and takes back. -/
theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1]) ∗ (∃ r, prngReg c r)) := by
  unfold Pipeline.ΦA; rw [scopedRest11_split]; simp only [scM11_0, scM11_1, owns_whole]; try rfl

end Cert.Kernel.Hand

end
-- ==== Proof.K.Reg11RunA.lean ====
import proofs.«126569_j1468878815453_1_alg».proof.Proof.K.Reg11Runs

/-! # Custom call 11, the body's run at the first grid point (the running sums reset, no statistics written) -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the first point's case — the reset taken, the write-out not:
    `L5` in the row-block output's staging memref, `LS0` and `LS1` in the two scratch accumulators —, with the proof that
    on whole memrefs — the five inputs' at their contents, the two statistics outputs' (idle here) at contents `xi·`
    handed back untouched, the row-block output's and both scratches' at anything — the body runs to the continuation
    holding the inputs' and the idle outputs' as they were and the stored buffers with their pieces written: the
    printed functions are their skeletons, run operation by operation, each `scf.if` decided by the case's
    hypotheses; the pieces are the witness the run finds. -/
noncomputable def kernelRun11_A (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc11_kernel_eq_skeleton]; unfold cc11_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The first point's pieces for the row-block output tile its block (one store of the whole block), so they cover it. -/
theorem cover11_A_5 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) (y : S1000x256.Idx) :
    ∃ pc ∈ (kernelRun11_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun11_A c i arg1 harg1 arg2 harg2 arg3 harg3 arg4 harg4 arg5 harg5 arg6 harg6 arg7 harg7 arg8 harg8 arg9 harg9 arg10 harg10 hc0 hc1 x0 x1 x2 x3 x4).1 S1000x256.size (by sl_kernel_rfl) y

/-- The first point's pieces for the first scratch accumulator (the reset, then the sum) cover it. -/
theorem scover11_A_0 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) (y : S1x256.Idx) :
    ∃ pc ∈ (kernelRun11_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun11_A c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The first point's pieces for the second scratch accumulator cover it. -/
theorem scover11_A_1 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) (y : S1x256.Idx) :
    ∃ pc ∈ (kernelRun11_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun11_A c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

end Cert.Kernel.Hand

end
-- ==== Proof.K.Reg11RunB.lean ====
import proofs.«126569_j1468878815453_1_alg».proof.Proof.K.Reg11Runs

/-! # Custom call 11, the body's run at the middle grid point (no reset, no statistics written) -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the middle point's case — neither branch taken: `L5` in
    the row-block output's staging memref, `LS0` and `LS1` in the two scratch accumulators —, with the proof that on
    whole memrefs — the five inputs' at their contents, the two statistics outputs' (idle here) at contents `xi·`
    handed back untouched, the row-block output's at anything, the two scratches' at what the point before left
    (`xs·`) — the body runs to the continuation holding the inputs' and the idle outputs' as they were and the stored
    buffers with their pieces written. -/
noncomputable def kernelRun11_B (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc11_kernel_eq_skeleton]; unfold cc11_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The middle point's pieces for the row-block output tile its block, so they cover it. -/
theorem cover11_B_5 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1000x256.Idx) :
    ∃ pc ∈ (kernelRun11_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun11_B c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The middle point's pieces for the first scratch accumulator cover it. -/
theorem scover11_B_0 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun11_B c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The middle point's pieces for the second scratch accumulator cover it. -/
theorem scover11_B_1 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun11_B c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

end Cert.Kernel.Hand

end
-- ==== Proof.K.Reg11RunC.lean ====
import proofs.«126569_j1468878815453_1_alg».proof.Proof.K.Reg11Runs

/-! # Custom call 11, the body's run at the last grid point (no reset; the mean and the variance written out) -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the last point's case — the reset not taken, the write-out
    taken: `L5`, `L6`, `L7` in the three outputs' staging memrefs (the row block, the mean, the variance), `LS0` and
    `LS1` in the two scratch accumulators —, with the proof that on whole memrefs — the five inputs' at their contents,
    the outputs' at anything, the two scratches' at what the point before left (`xs·`) — the body runs to the
    continuation holding the inputs' as they were and the stored buffers with their pieces written. -/
noncomputable def kernelRun11_C (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) :
    Σ' (L5 : List (View.Piece (Elt F) S1000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc11_kernel_eq_skeleton]; unfold cc11_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

/-- The last point's pieces for the row-block output tile its block, so they cover it. -/
theorem cover11_C_5 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1000x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The last point's pieces for the mean output cover it. -/
theorem cover11_C_6 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The last point's pieces for the variance output cover it. -/
theorem cover11_C_7 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The last point's pieces for the first scratch accumulator cover it. -/
theorem scover11_C_0 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

/-- The last point's pieces for the second scratch accumulator cover it. -/
theorem scover11_C_1 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

end Cert.Kernel.Hand

end
-- ==== Proof.K.Reg11.lean ====
import proofs.«126569_j1468878815453_1_alg».proof.Proof.K.Reg11RunA
import proofs.«126569_j1468878815453_1_alg».proof.Proof.K.Reg11RunB
import proofs.«126569_j1468878815453_1_alg».proof.Proof.K.Reg11RunC

/-! # Custom call 11 (the one-relation combine kernel with its running column sums), region half

At a parameter `V` (the TensorCore's buffer contents when the region is entered): what the three outputs' staging
buffers and the two scratch accumulators hold after each of the three grid points, the region invariant that carries
the accumulators between points, the pipeline's proof data, its body obligation, and the invariant's two ends. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three cases' runs at a grid point -/

/-- The first point's run on point `t`'s memrefs and input blocks. -/
noncomputable abbrev runA11 (c : Dev nD) (t : Fin cfg11.N) (h0 : t.val % 3 = 0) (h1 : ¬t.val % 3 = 2) :=
  kernelRun11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t)
/-- The middle point's, over what the point before left in the accumulators. -/
noncomputable abbrev runB11 (c : Dev nD) (t : Fin cfg11.N) (h0 : ¬t.val % 3 = 0) (h1 : ¬t.val % 3 = 2) (xs0 : Vec F S1x256 .f32) (xs1 : Vec F S1x256 .f32) :=
  kernelRun11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) xs0 xs1
/-- The last point's, likewise. -/
noncomputable abbrev runC11 (c : Dev nD) (t : Fin cfg11.N) (h0 : ¬t.val % 3 = 0) (h1 : t.val % 3 = 2) (xs0 : Vec F S1x256 .f32) (xs1 : Vec F S1x256 .f32) :=
  kernelRun11_C c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) xs0 xs1

/-! ## What each case leaves -/

/-- What the first point leaves: the row-block output's buffer, the two statistics outputs' (nothing stored: a
    placeholder nothing consults, the windows idle and not written back there), and the two accumulators — each its
    pieces read back over junk. -/
noncomputable def outA11 (c : Dev nD) (t : Fin cfg11.N) (h0 : t.val % 3 = 0) (h1 : ¬t.val % 3 = 2) : Vec F S1000x256 .f32 × Vec F S1x256 .f32 × Vec F S1x256 .f32 × Vec F S1x256 .f32 × Vec F S1x256 .f32 :=
  (VO11_5.read (Elt F) (VO11_5.writes (Elt F) VO11_5.junk (runA11 V c t h0 h1).1), VO11_6.read (Elt F) (VO11_6.writes (Elt F) VO11_6.junk []), VO11_7.read (Elt F) (VO11_7.writes (Elt F) VO11_7.junk []),
   VS11_0.read (Elt F) (VS11_0.writes (Elt F) VS11_0.junk (runA11 V c t h0 h1).2.1), VS11_1.read (Elt F) (VS11_1.writes (Elt F) VS11_1.junk (runA11 V c t h0 h1).2.2.1))
/-- What the middle point leaves, likewise. -/
noncomputable def outB11 (c : Dev nD) (t : Fin cfg11.N) (h0 : ¬t.val % 3 = 0) (h1 : ¬t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO11_5.read (Elt F) (VO11_5.writes (Elt F) VO11_5.junk (runB11 V c t h0 h1 xs0 xs1).1), VO11_6.read (Elt F) (VO11_6.writes (Elt F) VO11_6.junk []), VO11_7.read (Elt F) (VO11_7.writes (Elt F) VO11_7.junk []),
   VS11_0.read (Elt F) (VS11_0.writes (Elt F) VS11_0.junk (runB11 V c t h0 h1 xs0 xs1).2.1), VS11_1.read (Elt F) (VS11_1.writes (Elt F) VS11_1.junk (runB11 V c t h0 h1 xs0 xs1).2.2.1))
/-- What the last point leaves: all three outputs stored. -/
noncomputable def outC11 (c : Dev nD) (t : Fin cfg11.N) (h0 : ¬t.val % 3 = 0) (h1 : t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO11_5.read (Elt F) (VO11_5.writes (Elt F) VO11_5.junk (runC11 V c t h0 h1 xs0 xs1).1), VO11_6.read (Elt F) (VO11_6.writes (Elt F) VO11_6.junk (runC11 V c t h0 h1 xs0 xs1).2.1), VO11_7.read (Elt F) (VO11_7.writes (Elt F) VO11_7.junk (runC11 V c t h0 h1 xs0 xs1).2.2.1),
   VS11_0.read (Elt F) (VS11_0.writes (Elt F) VS11_0.junk (runC11 V c t h0 h1 xs0 xs1).2.2.2.1), VS11_1.read (Elt F) (VS11_1.writes (Elt F) VS11_1.junk (runC11 V c t h0 h1 xs0 xs1).2.2.2.2.1))

/-! ## What the outputs and the accumulators hold after each point -/

/-- THE ACCUMULATION. What the three outputs' staging buffers and the two accumulators hold after the body at position
    `n` (a tuple: the outputs in window order, then the accumulators): the case the closed forms select at `n`, run at
    the point's memrefs and input blocks, the accumulators at what the point before left. -/
noncomputable def outsAt11 (c : Dev nD) : (n : ℕ) → n < cfg11.N → Vec F S1000x256 .f32 × Vec F S1x256 .f32 × Vec F S1x256 .f32 × Vec F S1x256 .f32 × Vec F S1x256 .f32
  | 0, hn => outA11 V c ⟨0, hn⟩ (Nat.zero_mod _) (fun h => by (try dsimp only at h); omega)
  | n + 1, hn =>
    if h0 : (n + 1) % 3 = 0 then
      if h1 : (n + 1) % 3 = 2 then
        False.elim (by omega)
      else
        outA11 V c ⟨n + 1, hn⟩ h0 h1
    else
      if h1 : (n + 1) % 3 = 2 then
        outC11 V c ⟨n + 1, hn⟩ h0 h1 (outsAt11 c n (Nat.lt_of_succ_lt hn)).2.2.2.1 (outsAt11 c n (Nat.lt_of_succ_lt hn)).2.2.2.2
      else
        outB11 V c ⟨n + 1, hn⟩ h0 h1 (outsAt11 c n (Nat.lt_of_succ_lt hn)).2.2.2.1 (outsAt11 c n (Nat.lt_of_succ_lt hn)).2.2.2.2

/-- `outsAt11` at the first point. -/
theorem outsAt11_A (c : Dev nD) (t : Fin cfg11.N) (h0 : t.val % 3 = 0) (h1 : ¬t.val % 3 = 2) :
    outsAt11 V c t.val t.isLt = outA11 V c t h0 h1 := by
  obtain ⟨n, hn⟩ := t
  cases n with
  | zero => exact rfl
  | succ n => exact (dif_pos h0).trans ((dif_neg h1).trans rfl)

/-- `outsAt11` at the middle point: over what the point before left. -/
theorem outsAt11_B (c : Dev nD) (t : Fin cfg11.N) (h0 : ¬t.val % 3 = 0) (h1 : ¬t.val % 3 = 2) :
    outsAt11 V c t.val t.isLt = outB11 V c t h0 h1 (outsAt11 V c (t.val - 1) (Nat.lt_of_le_of_lt (Nat.sub_le _ _) t.isLt)).2.2.2.1 (outsAt11 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt11` at the last point: over what the point before left. -/
theorem outsAt11_C (c : Dev nD) (t : Fin cfg11.N) (h0 : ¬t.val % 3 = 0) (h1 : t.val % 3 = 2) :
    outsAt11 V c t.val t.isLt = outC11 V c t h0 h1 (outsAt11 V c (t.val - 1) (Nat.lt_of_le_of_lt (Nat.sub_le _ _) t.isLt)).2.2.2.1 (outsAt11 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the invariant of a body touching only its
    windows (every scratch at anything); afterwards the scoped rest with the two accumulators at what the point before
    left in them, the other scoped buffers unopened, and the generator register at some state. -/
noncomputable def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2.2.2.1) ∗ owns (c : Thread nD τ) scM11_1 fullShare ((outsAt11 V c n hn).2.2.2.2))
      ∗ Pipeline.scopedRestBut (Ix := Unit) (Name := ℕ) (U := UR sig nD τ) (Lvl := ℕ) (Val := Elt F) spec11 c [cc11_scratch0, cc11_scratch1]) ∗ (∃ r, prngReg c r))

theorem PhiS11_zero (c : Dev nD) (n : ℕ) (h : n ≤ cfg11.N) (hz : n = 0) : PhiS11 V c n h = Pipeline.ΦA spec11 c := by
  subst hz; rfl

/-- After point `n` (before point `n + 1`): the accumulators at that point's contents. -/
theorem PhiS11_succ (c : Dev nD) (n : ℕ) (hn : n < cfg11.N) :
    PhiS11 V c (n + 1) hn = iprop(iprop(iprop(owns (c : Thread nD τ) scM11_0 fullShare ((outsAt11 V c n hn).2.2.2.1) ∗ owns (c : Thread nD τ) scM11_1 fullShare ((outsAt11 V c n hn).2.2.2.2))
      ∗ Pipeline.scopedRestBut (Ix := Unit) (Name := ℕ) (U := UR sig nD τ) (Lvl := ℕ) (Val := Elt F) spec11 c [cc11_scratch0, cc11_scratch1]) ∗ (∃ r, prngReg c r)) := rfl

/-- Before a point that is not the first: the accumulators at what the point before left. -/
theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2.2.2.1) ∗ owns (c : Thread nD τ) scM11_1 fullShare ((outsAt11 V c (n - 1) (by omega)).2.2.2.2))
      ∗ Pipeline.scopedRestBut (Ix := Unit) (Name := ℕ) (U := UR sig nD τ) (Lvl := ℕ) (Val := Elt F) spec11 c [cc11_scratch0, cc11_scratch1]) ∗ (∃ r, prngReg c r)) := by
  cases n with
  | zero => exact absurd rfl hz
  | succ n => rfl

/-! ## The pipeline's proof data -/

/-- The proof data of pipeline 11 on core `c`: the arrays as the region finds them (`V`); after the body at point `t`
    each input's buffer at its block and the outputs' at `outsAt11`'s components; the invariant `PhiS11`; nothing owed;
    full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => (outsAt11 V c t.val t.isLt).1
    | ⟨6, _⟩ => (outsAt11 V c t.val t.isLt).2.1
    | ⟨7, _⟩ => (outsAt11 V c t.val t.isLt).2.2.1
  Φ t := PhiS11 V c t.val (Nat.le_of_lt_succ t.isLt)
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = (outsAt11 V c t.val t.isLt).1 := by dsimp only [dat11]
theorem after11_6 (c : Dev nD) (t : Fin cfg11.N) : (dat11 V c).after 6 t = (outsAt11 V c t.val t.isLt).2.1 := by dsimp only [dat11]
theorem after11_7 (c : Dev nD) (t : Fin cfg11.N) : (dat11 V c).after 7 t = (outsAt11 V c t.val t.isLt).2.2.1 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- The inputs are never idle. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem liveAt11_3 : ∀ t : Fin cfg11.N, cfg11.idle 3 (grid11.coords t) = false := by decide +kernel
theorem liveAt11_4 : ∀ t : Fin cfg11.N, cfg11.idle 4 (grid11.coords t) = false := by decide +kernel

/-! ## The body obligation, at a generic point -/

/-- What the body is called with at point `t` (the windows one by one), -/
noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d)))

/-- and what it returns. -/
noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t
    ∗ (dat11 V c).leavesExact 5 t
    ∗ (dat11 V c).leavesExact 6 t
    ∗ (dat11 V c).leavesExact 7 t)

set_option maxHeartbeats 4800000 in
/-- The body at any point: the inputs' memrefs hold their blocks; the closed forms say which of the three cases the point
    is in; so that case's run applies. The invariant hands the body the two accumulators at what the point before left
    (at anything at the first point) and takes them back at this point's contents; the statistics windows, idle away
    from the last point, are handed back as found; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).owesAt () t.succ = (dat11 V c).owesAt () t.castSucc from rfl]
  rw [show (dat11 V c).Φ t.succ = PhiS11 V c (t.val + 1) t.isLt from rfl, PhiS11_succ]
  have hN : t.val < 3 := lt_of_lt_of_eq t.isLt (show cfg11.N = 3 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  rw [show (dat11 V c).leavesExact 3 t = owns (c : Thread nD τ) (ms11_3 t) fullShare ((dat11 V c).after 3 t) from by
    unfold Dat.leavesExact; rw [liveAt11_3 t], after11_3]
  rw [show (dat11 V c).leavesExact 4 t = owns (c : Thread nD τ) (ms11_4 t) fullShare ((dat11 V c).after 4 t) from by
    unfold Dat.leavesExact; rw [liveAt11_4 t], after11_4]
  rw [show (dat11 V c).leavesExact 5 t = owns (c : Thread nD τ) (ms11_5 t) fullShare ((dat11 V c).after 5 t) from by
    unfold Dat.leavesExact; rw [liveAt11_5 t], after11_5]
  by_cases h0 : t.val % 3 = 0
  · have h1 : ¬t.val % 3 = 2 := by omega
    have hz : t.val = 0 := by omega
    rw [Dat.leavesExact_idle (dat11 V c) 6 t (idleAt11_6 t (fun h => h1 ((hcond11_1 t).mp h))) (noFlush11_6 t (fun h => h1 ((hcond11_1 t).mp h)))]
    rw [Dat.leavesExact_idle (dat11 V c) 7 t (idleAt11_7 t (fun h => h1 ((hcond11_1 t).mp h))) (noFlush11_7 t (fun h => h1 ((hcond11_1 t).mp h)))]
    rw [outsAt11_A V c t h0 h1]
    unfold outA11; (try dsimp only)
    rw [PhiS11_castSucc V c t, PhiS11_zero V c _ _ hz, PhiA11_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA11 V c t h0 h1).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover11_A_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t))
          · unfold owns; iexists _; isplitr
            swap; · iexact HS1
            ipureintro; exact View.read_writes_of_cover _ _ _ _ _ (scover11_A_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t))
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover11_A_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t))
    isplitl [H6]; · iexists _; iexact H6
    iexists _; iexact H7
  · have hz : t.val ≠ 0 := by omega
    by_cases h1 : t.val % 3 = 2
    · rw [show (dat11 V c).leavesExact 6 t = owns (c : Thread nD τ) (ms11_6 t) fullShare ((dat11 V c).after 6 t) from by
      unfold Dat.leavesExact; rw [liveAt11_6 t ((hcond11_1 t).mpr h1)], after11_6]
      rw [show (dat11 V c).leavesExact 7 t = owns (c : Thread nD τ) (ms11_7 t) fullShare ((dat11 V c).after 7 t) from by
      unfold Dat.leavesExact; rw [liveAt11_7 t ((hcond11_1 t).mpr h1)], after11_7]
      rw [outsAt11_C V c t h0 h1]
      unfold outC11; (try dsimp only)
      rw [PhiS11_castSucc V c t, PhiS11_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC11 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover11_C_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
            · unfold owns; iexists _; isplitr
              swap; · iexact HS1
              ipureintro; exact View.read_writes_of_cover _ _ _ _ _ (scover11_C_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover11_C_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
      isplitl [H6]
      · unfold owns; iexists _; isplitr
        swap; · iexact H6
        ipureintro; exact View.read_writes_of_cover _ _ _ _ _ (cover11_C_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
      unfold owns; iexists _; isplitr
      swap; · iexact H7
      ipureintro; exact View.read_writes_of_cover _ _ _ _ _ (cover11_C_7 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
    · rw [Dat.leavesExact_idle (dat11 V c) 6 t (idleAt11_6 t (fun h => h1 ((hcond11_1 t).mp h))) (noFlush11_6 t (fun h => h1 ((hcond11_1 t).mp h)))]
      rw [Dat.leavesExact_idle (dat11 V c) 7 t (idleAt11_7 t (fun h => h1 ((hcond11_1 t).mp h))) (noFlush11_7 t (fun h => h1 ((hcond11_1 t).mp h)))]
      rw [outsAt11_B V c t h0 h1]
      unfold outB11; (try dsimp only)
      rw [PhiS11_castSucc V c t, PhiS11_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB11 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover11_B_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) _ _)
            · unfold owns; iexists _; isplitr
              swap; · iexact HS1
              ipureintro; exact View.read_writes_of_cover _ _ _ _ _ (scover11_B_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) _ _)
      isplitl [H6]; · iexists _; iexact H6
      iexists _; iexact H7

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant's two ends -/

/-- What the launch hands the region is the invariant before the first point. -/
theorem hin11 (c : Dev nD) : (Pipeline.ΦA spec11 c : sProp 𝕄) ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives the launch's back: the accumulators' named contents are forgotten. -/
theorem Phi_out11 (c : Dev nD) (t : Fin (cfg11.N + 1)) (ht : t.val ≠ 0) : (dat11 V c).Φ t ⊢ (Pipeline.ΦA spec11 c : sProp 𝕄) := by
  rw [show (dat11 V c).Φ t = PhiS11 V c t.val (Nat.le_of_lt_succ t.isLt) from rfl, PhiS11_pos V c _ _ ht, PhiA11_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout11 (c : Dev nD) : (dat11 V c).Φ (Fin.last cfg11.N) ⊢ (Pipeline.ΦA spec11 c : sProp 𝕄) :=
  Phi_out11 V c _ (by rw [Fin.val_last]; have : cfg11.N = 3 := N_11; omega)

end Cert.Kernel.Hand

end
-- ==== Proof.K.Reg12.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 12 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the activations' row block) holds its block at every point, fetched there or not, for any proof
    data whose array is `V`'s and whose body leaves the block in place: an unfetched input's block index has not
    moved; the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1 (the mean row), likewise: fetched at the first point only, its one block stays. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2 (the variance row), likewise. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
/-- Input window 3 (the scale row), likewise. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
/-- Input window 4 (the shift row), likewise. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole 1000x256 block, -/
abbrev r12_0 : Rect S1000x256 := Rect.unit (s := S1000x256) ![0, 0] S1000x256.size inb_S1000x256_S1000x256_0_0
/-- and the whole 1x256 row. -/
abbrev r12_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out12_5 (x0 : Vec F S1000x256 .f32) (x1 : Vec F S1x256 .f32) (x2 : Vec F S1x256 .f32) (x3 : Vec F S1x256 .f32) (x4 : Vec F S1x256 .f32) : Vec F S1000x256 .f32 :=
  View.canon [⟨r12_0, k12_pay1 (View.ld x1 r12_1) (View.ld x2 r12_1) (View.ld x0 r12_0) (View.ld x3 r12_1) (View.ld x4 r12_1)⟩]

/-- The one store is of the whole block, so it covers it. -/
theorem cover12_5 (p0 : Vec F S1000x256 .f32) (y : S1000x256.Idx) :
    ∃ pc ∈ ([⟨r12_0, p0⟩] : List (View.Piece (Elt F) S1000x256 .f32)), y ∈ pc.1.set :=
  View.cover_of_tiled [⟨r12_0, p0⟩] S1000x256.size (by rfl) y

/-! ## The body's triple -/

set_option maxHeartbeats 1000000 in
/-- The kernel body on whole staging memrefs, the five inputs' at read contents `xW` and the output's at anything, runs
    to the continuation holding the inputs' as they were and the output's at `out12_5` of the inputs': the printed
    function is its skeleton, five loads of the inputs, a load of the output's prior contents (unused), and the store. -/
theorem sound_kernel12 (c : Dev nD) (E : Set ℕ) (i : grid12.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12_5 x0 x1 x2 x3 x4)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of pipeline 12 on core `c`: the arrays as the region finds them (`V`); after the body at point `t`
    each input's buffer at its block and the output's at `out12_5` of the input blocks; the invariant that of a body
    touching only its windows (the scoped rest and the generator register, untouched); nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's `match` reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t` (the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks (`before12_W`), so `sound_kernel12` applies; the
    invariant and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K.Reg13.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 13 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0 (the activations' row block) holds its block at every point, fetched there or not, for any proof
    data whose array is `V`'s and whose body leaves the block in place: an unfetched input's block index has not
    moved; the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1 (the mean row), likewise: fetched at the first point only, its one block stays. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2 (the variance row), likewise. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- Input window 3 (the scale row), likewise. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
/-- Input window 4 (the shift row), likewise. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The whole 1000x256 block, -/
abbrev r13_0 : Rect S1000x256 := Rect.unit (s := S1000x256) ![0, 0] S1000x256.size inb_S1000x256_S1000x256_0_0
/-- and the whole 1x256 row. -/
abbrev r13_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out13_5 (x0 : Vec F S1000x256 .f32) (x1 : Vec F S1x256 .f32) (x2 : Vec F S1x256 .f32) (x3 : Vec F S1x256 .f32) (x4 : Vec F S1x256 .f32) : Vec F S1000x256 .f32 :=
  View.canon [⟨r13_0, k13_pay1 (View.ld x1 r13_1) (View.ld x2 r13_1) (View.ld x0 r13_0) (View.ld x3 r13_1) (View.ld x4 r13_1)⟩]

/-- The one store is of the whole block, so it covers it. -/
theorem cover13_5 (p0 : Vec F S1000x256 .f32) (y : S1000x256.Idx) :
    ∃ pc ∈ ([⟨r13_0, p0⟩] : List (View.Piece (Elt F) S1000x256 .f32)), y ∈ pc.1.set :=
  View.cover_of_tiled [⟨r13_0, p0⟩] S1000x256.size (by rfl) y

/-! ## The body's triple -/

set_option maxHeartbeats 1000000 in
/-- The kernel body on whole staging memrefs, the five inputs' at read contents `xW` and the output's at anything, runs
    to the continuation holding the inputs' as they were and the output's at `out13_5` of the inputs': the printed
    function is its skeleton, five loads of the inputs, a load of the output's prior contents (unused), and the store. -/
theorem sound_kernel13 (c : Dev nD) (E : Set ℕ) (i : grid13.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out13_5 x0 x1 x2 x3 x4)) -∗ K ⟨⟩))
      ⊢ wp frame (wpE (defs₀ (F := F)) Variants.none c none) E (cc13_kernel i arg1 harg1 arg2 harg2 arg3 harg3 arg4 harg4 arg5 harg5 arg6 harg6) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover13_5 _)

/-! ## The pipeline's proof data -/

/-- The proof data of pipeline 13 on core `c`: the arrays as the region finds them (`V`); after the body at point `t`
    each input's buffer at its block and the output's at `out13_5` of the input blocks; the invariant that of a body
    touching only its windows (the scoped rest and the generator register, untouched); nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13_5 (iblk13 V c 0 t) (iblk13 V c 1 t) (iblk13 V c 2 t) (iblk13 V c 3 t) (iblk13 V c 4 t)
  Φ _ := Pipeline.ΦA spec13 c
  q _ := fullShare
  owed _ := 0

/-- The proof data's arrays are the region-entry contents (the definition projected). -/
theorem A_eq13 (c : Dev nD) (w : Fin cfg13.W) : (dat13 V c).A w = V c (Pipeline.arrRef spec13 w) := by
  dsimp only [dat13]

/-- What the body leaves, window by window (the proof data's `match` reduced). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = out13_5 (iblk13 V c 0 t) (iblk13 V c 1 t) (iblk13 V c 2 t) (iblk13 V c 3 t) (iblk13 V c 4 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-! ## The body obligation, at a generic point -/

/-- What the body is called with at point `t` (the windows one by one), -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- The body at any point: the inputs' memrefs hold their blocks (`before13_W`), so `sound_kernel13` applies; the
    invariant and the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ (grid13.coords t) _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand
-- ==== Proof.K.Reg14.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 14 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0 (the activations' row block) holds its block at every point, fetched there or not, for any proof
    data whose array is `V`'s and whose body leaves the block in place: an unfetched input's block index has not
    moved; the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1 (the mean row), likewise: fetched at the first point only, its one block stays. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2 (the variance row), likewise. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3 (the scale row), likewise. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4 (the shift row), likewise. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole 1000x256 block, -/
abbrev r14_0 : Rect S1000x256 := Rect.unit (s := S1000x256) ![0, 0] S1000x256.size inb_S1000x256_S1000x256_0_0
/-- and the whole 1x256 row. -/
abbrev r14_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out14_5 (x0 : Vec F S1000x256 .f32) (x1 : Vec F S1x256 .f32) (x2 : Vec F S1x256 .f32) (x3 : Vec F S1x256 .f32) (x4 : Vec F S1x256 .f32) : Vec F S1000x256 .f32 :=
  View.canon [⟨r14_0, k14_pay1 (View.ld x1 r14_1) (View.ld x2 r14_1) (View.ld x0 r14_0) (View.ld x3 r14_1) (View.ld x4 r14_1)⟩]

/-- The one store is of the whole block, so it covers it. -/
theorem cover14_5 (p0 : Vec F S1000x256 .f32) (y : S1000x256.Idx) :
    ∃ pc ∈ ([⟨r14_0, p0⟩] : List (View.Piece (Elt F) S1000x256 .f32)), y ∈ pc.1.set :=
  View.cover_of_tiled [⟨r14_0, p0⟩] S1000x256.size (by rfl) y

/-! ## The body's triple -/

set_option maxHeartbeats 1000000 in
/-- The kernel body on whole staging memrefs, the five inputs' at read contents `xW` and the output's at anything, runs
    to the continuation holding the inputs' as they were and the output's at `out14_5` of the inputs': the printed
    function is its skeleton, five loads of the inputs, a load of the output's prior contents (unused), and the store. -/
theorem sound_kernel14 (c : Dev nD) (E : Set ℕ) (i : grid14.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14_kernel i arg1 harg1 arg2 harg2 arg3 harg3 arg4 harg4 arg5 harg5 arg6 harg6) K := by
  simp only [cc14_kernel_eq_skeleton]; unfold cc14_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at point `t`
    each input's buffer at its block and the output's at `out14_5` of the input blocks; the invariant that of a body
    touching only its windows (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents (the definition projected). -/
theorem A_eq14 (c : Dev nD) (w : Fin cfg14.W) : (dat14 V c).A w = V c (Pipeline.arrRef spec14 w) := by
  dsimp only [dat14]

/-- What the body leaves, window by window (the proof data's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t` (the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ (grid14.coords t) _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand
-- ==== Proof.K.Reg15.lean ====
import proofs.«126569_j1468878815453_1_alg».proof.Proof.Gen.Kernel.Launch
import proofs.«126569_j1468878815453_1_alg».proof.Proof.Gen.Kernel.Skeleton
import proofs.«126569_j1468878815453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 15 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 (the activations' row block) holds its block at every point, fetched there or not, for any proof
    data whose array is `V`'s and whose body leaves the block in place: an unfetched input's block index has not
    moved; the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1 (the mean row), likewise: fetched at the first point only, its one block stays. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- Input window 2 (the variance row), likewise. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
/-- Input window 3 (the scale row), likewise. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
/-- Input window 4 (the shift row), likewise. -/
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The whole 1000x256 block, -/
abbrev r15_0 : Rect S1000x256 := Rect.unit (s := S1000x256) ![0, 0] S1000x256.size inb_S1000x256_S1000x256_0_0
/-- and the whole 1x256 row. -/
abbrev r15_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out15_5 (x0 : Vec F S1000x256 .f32) (x1 : Vec F S1x256 .f32) (x2 : Vec F S1x256 .f32) (x3 : Vec F S1x256 .f32) (x4 : Vec F S1x256 .f32) : Vec F S1000x256 .f32 :=
  View.canon [⟨r15_0, k15_pay1 (View.ld x1 r15_1) (View.ld x2 r15_1) (View.ld x0 r15_0) (View.ld x3 r15_1) (View.ld x4 r15_1)⟩]

/-- The one store is of the whole block, so it covers it. -/
theorem cover15_5 (p0 : Vec F S1000x256 .f32) (y : S1000x256.Idx) :
    ∃ pc ∈ ([⟨r15_0, p0⟩] : List (View.Piece (Elt F) S1000x256 .f32)), y ∈ pc.1.set :=
  View.cover_of_tiled [⟨r15_0, p0⟩] S1000x256.size (by rfl) y

/-! ## The body's triple -/

set_option maxHeartbeats 1000000 in
/-- The kernel body on whole staging memrefs, the five inputs' at read contents `xW` and the output's at anything, runs
    to the continuation holding the inputs' as they were and the output's at `out15_5` of the inputs': the printed
    function is its skeleton, five loads of the inputs, a load of the output's prior contents (unused), and the store. -/
theorem sound_kernel15 (c : Dev nD) (E : Set ℕ) (i : grid15.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out15_5 x0 x1 x2 x3 x4)) -∗ K ⟨⟩))
      ⊢ wp frame (wpE (defs₀ (F := F)) Variants.none c none) E (cc15_kernel i arg1 harg1 arg2 harg2 arg3 harg3 arg4 harg4 arg5 harg5 arg6 harg6) K := by
  simp only [cc15_kernel_eq_skeleton]; unfold cc15_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover15_5 _)

/-! ## The pipeline's proof data -/

/-- The proof data of pipeline 15 on core `c`: the arrays as the region finds them (`V`); after the body at point `t`
    each input's buffer at its block and the output's at `out15_5` of the input blocks; the invariant that of a body
    touching only its windows (the scoped rest and the generator register, untouched); nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out15_5 (iblk15 V c 0 t) (iblk15 V c 1 t) (iblk15 V c 2 t) (iblk15 V c 3 t) (iblk15 V c 4 t)
  Φ _ := Pipeline.ΦA spec15 c
  q _ := fullShare
  owed _ := 0

/-- The proof data's arrays are the region-entry contents (the definition projected). -/
theorem A_eq15 (c : Dev nD) (w : Fin cfg15.W) : (dat15 V c).A w = V c (Pipeline.arrRef spec15 w) := by
  dsimp only [dat15]

/-- What the body leaves, window by window (the proof data's `match` reduced). -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = out15_5 (iblk15 V c 0 t) (iblk15 V c 1 t) (iblk15 V c 2 t) (iblk15 V c 3 t) (iblk15 V c 4 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d

/-! ## The body obligation, at a generic point -/

/-- What the body is called with at point `t` (the windows one by one), -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t))

/-- The body at any point: the inputs' memrefs hold their blocks (`before15_W`), so `sound_kernel15` applies; the
    invariant and the core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4]
  rw [show (dat15 V c).Φ t.succ = (dat15 V c).Φ t.castSucc from rfl,
    show (dat15 V c).owesAt () t.succ = (dat15 V c).owesAt () t.castSucc from rfl,
    after15_0, after15_1, after15_2, after15_3, after15_4, after15_5]
  iintro ⟨HΦ, Ho, ⟨%d0, H0⟩, ⟨%d1, H1⟩, ⟨%d2, H2⟩, ⟨%d3, H3⟩, ⟨%d4, H4⟩, ⟨%d5, H5⟩⟩
  iapply (sound_kernel15 c Set.univ (grid15.coords t) _ _ _ _ _ _ _ _ _ _ _ _ (iblk15 V c 0 t) (iblk15 V c 1 t) (iblk15 V c 2 t) (iblk15 V c 3 t) (iblk15 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Hand
-- ==== Proof.K.Fold.lean ====
import proofs.«126569_j1468878815453_1_alg».proof.Proof.K.Reg0
import proofs.«126569_j1468878815453_1_alg».proof.Proof.K.Reg1
import proofs.«126569_j1468878815453_1_alg».proof.Proof.K.Reg2
import proofs.«126569_j1468878815453_1_alg».proof.Proof.K.Reg3
import proofs.«126569_j1468878815453_1_alg».proof.Proof.K.Reg4
import proofs.«126569_j1468878815453_1_alg».proof.Proof.K.Reg5
import proofs.«126569_j1468878815453_1_alg».proof.Proof.K.Reg6
import proofs.«126569_j1468878815453_1_alg».proof.Proof.K.Reg7
import proofs.«126569_j1468878815453_1_alg».proof.Proof.K.Reg8
import proofs.«126569_j1468878815453_1_alg».proof.Proof.K.Reg9
import proofs.«126569_j1468878815453_1_alg».proof.Proof.K.Reg10
import proofs.«126569_j1468878815453_1_alg».proof.Proof.K.Reg11
import proofs.«126569_j1468878815453_1_alg».proof.Proof.K.Reg12
import proofs.«126569_j1468878815453_1_alg».proof.Proof.K.Reg13
import proofs.«126569_j1468878815453_1_alg».proof.Proof.K.Reg14
import proofs.«126569_j1468878815453_1_alg».proof.Proof.K.Reg15

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 4's invariant is the class's at every point. -/
theorem hin4 (V : (c : Dev nD) → (b : Ref sig .tc) → Buf (Elt F) ((c : Thread nD τ).loc b)) (c : Dev nD) : (Pipeline.ΦA spec4 c : sProp 𝕄) ⊢ (dat4 V c).Φ 0 := .rfl
theorem hout4 (V : (c : Dev nD) → (b : Ref sig .tc) → Buf (Elt F) ((c : Thread nD τ).loc b)) (c : Dev nD) : (dat4 V c).Φ (Fin.last cfg4.N) ⊢ (Pipeline.ΦA spec4 c : sProp 𝕄) := .rfl
/-- Region 5's invariant is the class's at every point. -/
theorem hin5 (V : (c : Dev nD) → (b : Ref sig .tc) → Buf (Elt F) ((c : Thread nD τ).loc b)) (c : Dev nD) : (Pipeline.ΦA spec5 c : sProp 𝕄) ⊢ (dat5 V c).Φ 0 := .rfl
theorem hout5 (V : (c : Dev nD) → (b : Ref sig .tc) → Buf (Elt F) ((c : Thread nD τ).loc b)) (c : Dev nD) : (dat5 V c).Φ (Fin.last cfg5.N) ⊢ (Pipeline.ΦA spec5 c : sProp 𝕄) := .rfl
/-- Region 6's invariant is the class's at every point. -/
theorem hin6 (V : (c : Dev nD) → (b : Ref sig .tc) → Buf (Elt F) ((c : Thread nD τ).loc b)) (c : Dev nD) : (Pipeline.ΦA spec6 c : sProp 𝕄) ⊢ (dat6 V c).Φ 0 := .rfl
theorem hout6 (V : (c : Dev nD) → (b : Ref sig .tc) → Buf (Elt F) ((c : Thread nD τ).loc b)) (c : Dev nD) : (dat6 V c).Φ (Fin.last cfg6.N) ⊢ (Pipeline.ΦA spec6 c : sProp 𝕄) := .rfl
/-- Region 7's invariant is the class's at every point. -/
theorem hin7 (V : (c : Dev nD) → (b : Ref sig .tc) → Buf (Elt F) ((c : Thread nD τ).loc b)) (c : Dev nD) : (Pipeline.ΦA spec7 c : sProp 𝕄) ⊢ (dat7 V c).Φ 0 := .rfl
theorem hout7 (V : (c : Dev nD) → (b : Ref sig .tc) → Buf (Elt F) ((c : Thread nD τ).loc b)) (c : Dev nD) : (dat7 V c).Φ (Fin.last cfg7.N) ⊢ (Pipeline.ΦA spec7 c : sProp 𝕄) := .rfl
/-- Region 12's invariant is the class's at every point. -/
theorem hin12 (V : (c : Dev nD) → (b : Ref sig .tc) → Buf (Elt F) ((c : Thread nD τ).loc b)) (c : Dev nD) : (Pipeline.ΦA spec12 c : sProp 𝕄) ⊢ (dat12 V c).Φ 0 := .rfl
theorem hout12 (V : (c : Dev nD) → (b : Ref sig .tc) → Buf (Elt F) ((c : Thread nD τ).loc b)) (c : Dev nD) : (dat12 V c).Φ (Fin.last cfg12.N) ⊢ (Pipeline.ΦA spec12 c : sProp 𝕄) := .rfl
/-- Region 13's invariant is the class's at every point. -/
theorem hin13 (V : (c : Dev nD) → (b : Ref sig .tc) → Buf (Elt F) ((c : Thread nD τ).loc b)) (c : Dev nD) : (Pipeline.ΦA spec13 c : sProp 𝕄) ⊢ (dat13 V c).Φ 0 := .rfl
theorem hout13 (V : (c : Dev nD) → (b : Ref sig .tc) → Buf (Elt F) ((c : Thread nD τ).loc b)) (c : Dev nD) : (dat13 V c).Φ (Fin.last cfg13.N) ⊢ (Pipeline.ΦA spec13 c : sProp 𝕄) := .rfl
/-- Region 14's invariant is the class's at every point. -/
theorem hin14 (V : (c : Dev nD) → (b : Ref sig .tc) → Buf (Elt F) ((c : Thread nD τ).loc b)) (c : Dev nD) : (Pipeline.ΦA spec14 c : sProp 𝕄) ⊢ (dat14 V c).Φ 0 := .rfl
theorem hout14 (V : (c : Dev nD) → (b : Ref sig .tc) → Buf (Elt F) ((c : Thread nD τ).loc b)) (c : Dev nD) : (dat14 V c).Φ (Fin.last cfg14.N) ⊢ (Pipeline.ΦA spec14 c : sProp 𝕄) := .rfl
/-- Region 15's invariant is the class's at every point. -/
theorem hin15 (V : (c : Dev nD) → (b : Ref sig .tc) → Buf (Elt F) ((c : Thread nD τ).loc b)) (c : Dev nD) : (Pipeline.ΦA spec15 c : sProp 𝕄) ⊢ (dat15 V c).Φ 0 := .rfl
theorem hout15 (V : (c : Dev nD) → (b : Ref sig .tc) → Buf (Elt F) ((c : Thread nD τ).loc b)) (c : Dev nD) : (dat15 V c).Φ (Fin.last cfg15.N) ⊢ (Pipeline.ΦA spec15 c : sProp 𝕄) := .rfl

/-- The core's buffers at launch. -/
noncomputable abbrev W0 : Dev nD → Valuation τ sig (Elt F) := fun c b => (s₀ m ρ).mem ((c : Dev nD), b)

/-- After host stretch 0: what region 0 is entered from. -/
noncomputable abbrev W1 : Dev nD → Valuation τ sig (Elt F) := fun c => StableHlo.after hostOps0 (W0 m ρ c)
noncomputable abbrev V1 : (c : Dev nD) → (b : Ref sig .tc) → Buf (Elt F) ((c : Thread nD τ).loc b) := fun c b => W1 m ρ c b
/-- At region 0's exit: its arrays at what the write-backs leave, every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
noncomputable abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what region 1 is entered from. -/
noncomputable abbrev W3 : Dev nD → Valuation τ sig (Elt F) := fun c => StableHlo.after hostOps1 (W2 m ρ c)
noncomputable abbrev V3 : (c : Dev nD) → (b : Ref sig .tc) → Buf (Elt F) ((c : Thread nD τ).loc b) := fun c b => W3 m ρ c b
/-- At region 1's exit: its arrays at what the write-backs leave, every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
noncomputable abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what region 2 is entered from. -/
noncomputable abbrev W5 : Dev nD → Valuation τ sig (Elt F) := fun c => StableHlo.after hostOps2 (W4 m ρ c)
noncomputable abbrev V5 : (c : Dev nD) → (b : Ref sig .tc) → Buf (Elt F) ((c : Thread nD τ).loc b) := fun c b => W5 m ρ c b
/-- At region 2's exit: its arrays at what the write-backs leave, every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
noncomputable abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what region 3 is entered from. -/
noncomputable abbrev W7 : Dev nD → Valuation τ sig (Elt F) := fun c => StableHlo.after hostOps3 (W6 m ρ c)
noncomputable abbrev V7 : (c : Dev nD) → (b : Ref sig .tc) → Buf (Elt F) ((c : Thread nD τ).loc b) := fun c b => W7 m ρ c b
/-- At region 3's exit: its arrays at what the write-backs leave, every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
noncomputable abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4: what region 4 is entered from. -/
noncomputable abbrev W9 : Dev nD → Valuation τ sig (Elt F) := fun c => StableHlo.after hostOps4 (W8 m ρ c)
noncomputable abbrev V9 : (c : Dev nD) → (b : Ref sig .tc) → Buf (Elt F) ((c : Thread nD τ).loc b) := fun c b => W9 m ρ c b
/-- At region 4's exit: its arrays at what the write-backs leave, every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
noncomputable abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5: what region 5 is entered from. -/
noncomputable abbrev W11 : Dev nD → Valuation τ sig (Elt F) := fun c => StableHlo.after hostOps5 (W10 m ρ c)
noncomputable abbrev V11 : (c : Dev nD) → (b : Ref sig .tc) → Buf (Elt F) ((c : Thread nD τ).loc b) := fun c b => W11 m ρ c b
/-- At region 5's exit: its arrays at what the write-backs leave, every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
noncomputable abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6: what region 6 is entered from. -/
noncomputable abbrev W13 : Dev nD → Valuation τ sig (Elt F) := fun c => StableHlo.after hostOps6 (W12 m ρ c)
noncomputable abbrev V13 : (c : Dev nD) → (b : Ref sig .tc) → Buf (Elt F) ((c : Thread nD τ).loc b) := fun c b => W13 m ρ c b
/-- At region 6's exit: its arrays at what the write-backs leave, every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
noncomputable abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7: what region 7 is entered from. -/
noncomputable abbrev W15 : Dev nD → Valuation τ sig (Elt F) := fun c => StableHlo.after hostOps7 (W14 m ρ c)
noncomputable abbrev V15 : (c : Dev nD) → (b : Ref sig .tc) → Buf (Elt F) ((c : Thread nD τ).loc b) := fun c b => W15 m ρ c b
/-- At region 7's exit: its arrays at what the write-backs leave, every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
noncomputable abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8: what region 8 is entered from. -/
noncomputable abbrev W17 : Dev nD → Valuation τ sig (Elt F) := fun c => StableHlo.after hostOps8 (W16 m ρ c)
noncomputable abbrev V17 : (c : Dev nD) → (b : Ref sig .tc) → Buf (Elt F) ((c : Thread nD τ).loc b) := fun c b => W17 m ρ c b
/-- At region 8's exit: its arrays at what the write-backs leave, every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
noncomputable abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9: what region 9 is entered from. -/
noncomputable abbrev W19 : Dev nD → Valuation τ sig (Elt F) := fun c => StableHlo.after hostOps9 (W18 m ρ c)
noncomputable abbrev V19 : (c : Dev nD) → (b : Ref sig .tc) → Buf (Elt F) ((c : Thread nD τ).loc b) := fun c b => W19 m ρ c b
/-- At region 9's exit: its arrays at what the write-backs leave, every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
noncomputable abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10: what region 10 is entered from. -/
noncomputable abbrev W21 : Dev nD → Valuation τ sig (Elt F) := fun c => StableHlo.after hostOps10 (W20 m ρ c)
noncomputable abbrev V21 : (c : Dev nD) → (b : Ref sig .tc) → Buf (Elt F) ((c : Thread nD τ).loc b) := fun c b => W21 m ρ c b
/-- At region 10's exit: its arrays at what the write-backs leave, every other buffer as entered. -/
noncomputable def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
noncomputable abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After host stretch 11: what region 11 is entered from. -/
noncomputable abbrev W23 : Dev nD → Valuation τ sig (Elt F) := fun c => StableHlo.after hostOps11 (W22 m ρ c)
noncomputable abbrev V23 : (c : Dev nD) → (b : Ref sig .tc) → Buf (Elt F) ((c : Thread nD τ).loc b) := fun c b => W23 m ρ c b
/-- At region 11's exit: its arrays at what the write-backs leave, every other buffer as entered. -/
noncomputable def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
noncomputable abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After host stretch 12: what region 12 is entered from. -/
noncomputable abbrev W25 : Dev nD → Valuation τ sig (Elt F) := fun c => StableHlo.after hostOps12 (W24 m ρ c)
noncomputable abbrev V25 : (c : Dev nD) → (b : Ref sig .tc) → Buf (Elt F) ((c : Thread nD τ).loc b) := fun c b => W25 m ρ c b
/-- At region 12's exit: its arrays at what the write-backs leave, every other buffer as entered. -/
noncomputable def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
noncomputable abbrev V26 : (c : Dev nD) → (b : Ref sig .tc) → Buf (Elt F) ((c : Thread nD τ).loc b) := fun c b => W26 m ρ c b
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After host stretch 13: what region 13 is entered from. -/
noncomputable abbrev W27 : Dev nD → Valuation τ sig (Elt F) := fun c => StableHlo.after hostOps13 (W26 m ρ c)
noncomputable abbrev V27 : (c : Dev nD) → (b : Ref sig .tc) → Buf (Elt F) ((c : Thread nD τ).loc b) := fun c b => W27 m ρ c b
/-- At region 13's exit: its arrays at what the write-backs leave, every other buffer as entered. -/
noncomputable def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
noncomputable abbrev V28 : (c : Dev nD) → (b : Ref sig .tc) → Buf (Elt F) ((c : Thread nD τ).loc b) := fun c b => W28 m ρ c b
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After host stretch 14: what region 14 is entered from. -/
noncomputable abbrev W29 : Dev nD → Valuation τ sig (Elt F) := fun c => StableHlo.after hostOps14 (W28 m ρ c)
noncomputable abbrev V29 : (c : Dev nD) → (b : Ref sig .tc) → Buf (Elt F) ((c : Thread nD τ).loc b) := fun c b => W29 m ρ c b
/-- At region 14's exit: its arrays at what the write-backs leave, every other buffer as entered. -/
noncomputable def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
noncomputable abbrev V30 : (c : Dev nD) → (b : Ref sig .tc) → Buf (Elt F) ((c : Thread nD τ).loc b) := fun c b => W30 m ρ c b
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After host stretch 15: what region 15 is entered from. -/
noncomputable abbrev W31 : Dev nD → Valuation τ sig (Elt F) := fun c => StableHlo.after hostOps15 (W30 m ρ c)
noncomputable abbrev V31 : (c : Dev nD) → (b : Ref sig .tc) → Buf (Elt F) ((c : Thread nD τ).loc b) := fun c b => W31 m ρ c b
/-- At region 15's exit: its arrays at what the write-backs leave, every other buffer as entered. -/
noncomputable def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
noncomputable abbrev V32 : (c : Dev nD) → (b : Ref sig .tc) → Buf (Elt F) ((c : Thread nD τ).loc b) := fun c b => W32 m ρ c b
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- No pipeline has a prefetched table. -/
noncomputable abbrev adm : (p : Fin 16) → (pcfgs (F := F) p).Adm := fun p => (cfgs p).toPCfg_adm
/-- Every pipeline's proof data, each at its region's entry contents: a literal match on the pipeline index. -/
noncomputable def pdats : (p : Fin 16) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨_ + 16, h⟩ => absurd h (Nat.not_lt.2 (Nat.le_add_left _ _))

end Cert.Kernel.Hand

end
-- ==== Proof.K.Segs.lean ====
import proofs.«126569_j1468878815453_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What rides beside the buffers through every segment: the generator register at some state and the core owing nothing. -/
noncomputable abbrev R (c : Dev nD) : sProp 𝕄 := iprop((∃ r, prngReg c r) ∗ ∃ W, owes (c : Thread nD τ) (0 : CellTallies nD τ sig Unit) W)
/-- A host stretch as a segment over the unscoped references from given contents. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor

/-- The last thread state without the owed tallies: every unscoped buffer at the last boundary's contents, the generator register. -/
noncomputable abbrev Tₙ (c : Dev nD) : sProp 𝕄 := iprop(StableHlo.held (c : Thread nD τ) (Pipeline.ucRefs τ sig) (W32 m ρ c) ∗ ∃ r, prngReg c r)

set_option backward.isDefEq.respectTransparency.types false in
/-- Region 0 over the thread state: entered from every unscoped buffer at the contents after host stretch 0, left at
    the contents with its arrays at what the write-backs leave. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after host stretch 1, left at
    the contents with its arrays at what the write-backs leave. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents after host stretch 2, left at
    the contents with its arrays at what the write-backs leave. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents after host stretch 3, left at
    the contents with its arrays at what the write-backs leave. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    refine BIBase.Entails.trans ?_ (hin3 (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V7 m ρ) c).Φ (Fin.last cfg3.N) from rfl]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents after host stretch 4, left at
    the contents with its arrays at what the write-backs leave. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    refine BIBase.Entails.trans ?_ (hin4 (V9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V9 m ρ) c).Φ (Fin.last cfg4.N) from rfl]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents after host stretch 5, left at
    the contents with its arrays at what the write-backs leave. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    refine BIBase.Entails.trans ?_ (hin5 (V11 m ρ) c)
    unfold Pipeline.ΦA
    iintro ⟨Hp, -, Hr⟩
    isplitl [Hr]; · iexact Hr
    iexact Hp
  hout c := by
    rw [Pipeline.ownSems0_none, show (pdats m ρ 5 c).Φ (Fin.last _) = (dat5 (V11 m ρ) c).Φ (Fin.last cfg5.N) from rfl]
    refine BIBase.Entails.trans (hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents after host stretch 6, left at
    the contents with its arrays at what the write-backs leave. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    refine BIBase.Entails.trans ?_ (hin6 (V13 m ρ) c)
    unfold Pipeline.ΦA
    iintro ⟨Hp, -, Hr⟩
    isplitl [Hr]; · iexact Hr
    iexact Hp
  hout c := by
    rw [Pipeline.ownSems0_none, show (pdats m ρ 6 c).Φ (Fin.last _) = (dat6 (V13 m ρ) c).Φ (Fin.last cfg6.N) from rfl]
    refine BIBase.Entails.trans (hout6 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents after host stretch 7, left at
    the contents with its arrays at what the write-backs leave. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    refine BIBase.Entails.trans ?_ (hin7 (V15 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V15 m ρ) c).Φ (Fin.last cfg7.N) from rfl]
    refine BIBase.Entails.trans (hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the contents after host stretch 8, left at
    the contents with its arrays at what the write-backs leave. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    refine BIBase.Entails.trans ?_ (hin8 (V17 m ρ) c)
    unfold Pipeline.ΦA
    iintro ⟨Hp, -, Hr⟩
    isplitl [Hr]; · iexact Hr
    iexact Hp
  hout c := by
    rw [Pipeline.ownSems0_none, show (pdats m ρ 8 c).Φ (Fin.last _) = (dat8 (V17 m ρ) c).Φ (Fin.last cfg8.N) from rfl]
    refine BIBase.Entails.trans (hout8 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents after host stretch 9, left at
    the contents with its arrays at what the write-backs leave. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    refine BIBase.Entails.trans ?_ (hin9 (V19 m ρ) c)
    unfold Pipeline.ΦA
    iintro ⟨Hp, -, Hr⟩
    isplitl [Hr]; · iexact Hr
    iexact Hp
  hout c := by
    rw [Pipeline.ownSems0_none, show (pdats m ρ 9 c).Φ (Fin.last _) = (dat9 (V19 m ρ) c).Φ (Fin.last cfg9.N) from rfl]
    refine BIBase.Entails.trans (hout9 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at the contents after host stretch 10, left at
    the contents with its arrays at what the write-backs leave. -/
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V21 m ρ) c).Φ 0 from rfl]
    refine BIBase.Entails.trans ?_ (hin10 (V21 m ρ) c)
    unfold Pipeline.ΦA
    iintro ⟨Hp, -, Hr⟩
    isplitl [Hr]; · iexact Hr
    iexact Hp
  hout c := by
    rw [Pipeline.ownSems0_none, show (pdats m ρ 10 c).Φ (Fin.last _) = (dat10 (V21 m ρ) c).Φ (Fin.last cfg10.N) from rfl]
    refine BIBase.Entails.trans (hout10 (V21 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at the contents after host stretch 11, left at
    the contents with its arrays at what the write-backs leave. -/
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dat11 (V23 m ρ) c).Φ 0 from rfl]
    refine BIBase.Entails.trans ?_ (hin11 (V23 m ρ) c)
    unfold Pipeline.ΦA
    iintro ⟨Hp, -, Hr⟩
    isplitl [Hr]; · iexact Hr
    iexact Hp
  hout c := by
    rw [Pipeline.ownSems0_none, show (pdats m ρ 11 c).Φ (Fin.last _) = (dat11 (V23 m ρ) c).Φ (Fin.last cfg11.N) from rfl]
    refine BIBase.Entails.trans (hout11 (V23 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at the contents after host stretch 12, left at
    the contents with its arrays at what the write-backs leave. -/
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = (dat12 (V25 m ρ) c).Φ 0 from rfl]
    refine BIBase.Entails.trans ?_ (hin12 (V25 m ρ) c)
    unfold Pipeline.ΦA
    iintro ⟨Hp, -, Hr⟩
    isplitl [Hr]; · iexact Hr
    iexact Hp
  hout c := by
    rw [Pipeline.ownSems0_none, show (pdats m ρ 12 c).Φ (Fin.last _) = (dat12 (V25 m ρ) c).Φ (Fin.last cfg12.N) from rfl]
    refine BIBase.Entails.trans (hout12 (V25 m ρ) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at the contents after host stretch 13, left at
    the contents with its arrays at what the write-backs leave. -/
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = (dat13 (V27 m ρ) c).Φ 0 from rfl]
    refine BIBase.Entails.trans ?_ (hin13 (V27 m ρ) c)
    unfold Pipeline.ΦA
    iintro ⟨Hp, -, Hr⟩
    isplitl [Hr]; · iexact Hr
    iexact Hp
  hout c := by
    rw [Pipeline.ownSems0_none, show (pdats m ρ 13 c).Φ (Fin.last _) = (dat13 (V27 m ρ) c).Φ (Fin.last cfg13.N) from rfl]
    refine BIBase.Entails.trans (hout13 (V27 m ρ) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at the contents after host stretch 14, left at
    the contents with its arrays at what the write-backs leave. -/
noncomputable def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = (dat14 (V29 m ρ) c).Φ 0 from rfl]
    refine BIBase.Entails.trans ?_ (hin14 (V29 m ρ) c)
    unfold Pipeline.ΦA
    iintro ⟨Hp, -, Hr⟩
    isplitl [Hr]; · iexact Hr
    iexact Hp
  hout c := by
    rw [Pipeline.ownSems0_none, show (pdats m ρ 14 c).Φ (Fin.last _) = (dat14 (V29 m ρ) c).Φ (Fin.last cfg14.N) from rfl]
    refine BIBase.Entails.trans (hout14 (V29 m ρ) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 over the thread state: entered from every unscoped buffer at the contents after host stretch 15, left at
    the contents with its arrays at what the write-backs leave. -/
noncomputable def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = (dat15 (V31 m ρ) c).Φ 0 from rfl]
    refine BIBase.Entails.trans ?_ (hin15 (V31 m ρ) c)
    unfold Pipeline.ΦA
    iintro ⟨Hp, -, Hr⟩
    isplitl [Hr]; · iexact Hr
    iexact Hp
  hout c := by
    rw [Pipeline.ownSems0_none, show (pdats m ρ 15 c).Φ (Fin.last _) = (dat15 (V31 m ρ) c).Φ (Fin.last cfg15.N) from rfl]
    refine BIBase.Entails.trans (hout15 (V31 m ρ) c) ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«126569_j1468878815453_1_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order: a host segment per stretch from its boundary's contents, a region per pallas_call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)),
    .region (reg15 m ρ) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c => h c)

end Cert.Kernel.Hand

end
-- ==== Proof.K.Kept.lean ====
import proofs.«126569_j1468878815453_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An operation that writes exactly one reference of a list writes inside the list. -/
theorem writes_sub_of {op : HloOp τ sig (Elt F)} {Wl : List (Ref sig .tc)} {y : Ref sig .tc}
    (hw : op.writes = {Proc.devRef .tc y}) (hy : y ∈ Wl) : op.writes ⊆ (Wl.map (Proc.devRef (τ := τ) .tc)).toFinset := by
  rw [hw, Finset.singleton_subset_iff]; exact List.mem_toFinset.mpr (List.mem_map_of_mem hy)

/-- The references host stretch 0 writes, in order. -/
noncomputable abbrev wl0 : List (Ref sig .tc) := [main_cst, main_v0, main_cst_0, main_v1, main_v2, main_v3, main_cst_1, main_v4, main_v5, main_cst_2, main_v6, main_cst_3, main_v7, main_v8, main_v9, main_cst_4, main_v10, main_v11, main_cst_5, main_v12, main_cst_6, main_v13, main_v14, main_v15, main_cst_7, main_v16, main_v17, main_cst_8, main_v18, main_cst_9, main_v19, main_v20, main_v21, main_cst_10, main_v22, main_v23, main_cst_11, main_v24, main_cst_12, main_v25, main_v26, main_v27, main_cst_13, main_v28, main_v29, main_cst_14, main_v30, main_cst_15, main_v31, main_v32, main_v33, main_cst_16, main_v34, main_v35, main_cst_17, main_v36, main_cst_18, main_v37, main_v38, main_v39, main_cst_19, main_v40, main_v41, main_c, main_v42, main_v43, main_c_20, main_v44, main_v45, main_v46, main_v47, main_v48, main_cst_21, main_v49, main_v50, main_v51, main_v52, main_v53, main_c_22, main_v54, main_v55, main_c_23, main_v56, main_v57, main_v58, main_v59, main_v60, main_cst_24, main_v61, main_v62, main_v63, main_v64, main_v65, main_c_25, main_v66, main_v67, main_c_26, main_v68, main_v69, main_v70, main_v71, main_v72, main_cst_27, main_v73, main_v74, main_v75, main_v76, main_v77, main_c_28, main_v78, main_v79, main_c_29, main_v80, main_v81, main_v82, main_v83, main_v84, main_cst_30, main_v85, main_v86, main_v87, main_v88, main_v89, main_c_31, main_v90, main_v91, main_c_32, main_v92, main_v93, main_v94, main_v95, main_v96, main_cst_33, main_v97, main_v98, main_v99, main_v100, main_v101, main_c_34, main_v102, main_v103, main_c_35, main_v104, main_v105, main_v106, main_v107, main_v108, main_cst_36, main_v109, main_v110, main_v111, main_v112, main_v113, main_c_37, main_v114, main_v115, main_c_38, main_v116, main_v117, main_v118, main_v119, main_v120, main_cst_39, main_v121, main_v122, main_v123, main_v124, main_v125, main_v126, main_v127, main_v128, main_v129, main_v130, main_v131, main_v132, main_v133, main_v134, main_v135, main_v136, main_v137, main_v138, main_v139]
set_option maxHeartbeats 40000000 in
theorem hostOps0_wsub : (hostOps0 : List (HloOp τ sig (Elt F))).Forall fun op => op.writes ⊆ ((wl0).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 1 writes, in order. -/
noncomputable abbrev wl1 : List (Ref sig .tc) := [main_v141, main_v142, main_v143, main_v144, main_v145, main_v146, main_v147, main_v148, main_v149, main_v150, main_v151, main_v152, main_v153, main_v154]
set_option maxHeartbeats 40000000 in
theorem hostOps1_wsub : (hostOps1 : List (HloOp τ sig (Elt F))).Forall fun op => op.writes ⊆ ((wl1).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 2 writes, in order. -/
noncomputable abbrev wl2 : List (Ref sig .tc) := [main_v156, main_v157, main_v158, main_v159, main_v160, main_v161, main_v162, main_v163, main_v164, main_v165, main_v166, main_v167, main_v168, main_v169]
set_option maxHeartbeats 40000000 in
theorem hostOps2_wsub : (hostOps2 : List (HloOp τ sig (Elt F))).Forall fun op => op.writes ⊆ ((wl2).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 3 writes, in order. -/
noncomputable abbrev wl3 : List (Ref sig .tc) := [main_v171, main_v172, main_v173, main_v174, main_v175, main_v176, main_v177]
set_option maxHeartbeats 40000000 in
theorem hostOps3_wsub : (hostOps3 : List (HloOp τ sig (Elt F))).Forall fun op => op.writes ⊆ ((wl3).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩

/-- The references host stretch 4 writes, in order. -/
noncomputable abbrev wl4 : List (Ref sig .tc) := [main_v179, main_v180]
set_option maxHeartbeats 40000000 in
theorem hostOps4_wsub : (hostOps4 : List (HloOp τ sig (Elt F))).Forall fun op => op.writes ⊆ ((wl4).map (Proc.devRef (τ := τ) .tc)).toFinset :=
  ⟨writes_sub_of rfl (by decide), writes_sub_of rfl (by decide)⟩

/-- The references host stretch 5 writes, in order. -/
noncomputable abbrev wl5 : List (Ref sig .tc) := [main_v182, main_v183]
set_option maxHeartbeats 40000000 in
theorem hostOps5_wsub : (hostOps5 : List (HloOp τ sig (Elt F))).Forall fun op => op.writes ⊆ ((wl5).map (Proc.devRef (τ := τ) .tc)).toFinset :=
  ⟨writes_sub_of rfl (by decide), writes_sub_of rfl (by decide)⟩

/-- The references host stretch 6 writes, in order. -/
noncomputable abbrev wl6 : List (Ref sig .tc) := [main_v185, main_v186]
set_option maxHeartbeats 40000000 in
theorem hostOps6_wsub : (hostOps6 : List (HloOp τ sig (Elt F))).Forall fun op => op.writes ⊆ ((wl6).map (Proc.devRef (τ := τ) .tc)).toFinset :=
  ⟨writes_sub_of rfl (by decide), writes_sub_of rfl (by decide)⟩

/-- The references host stretch 7 writes, in order. -/
noncomputable abbrev wl7 : List (Ref sig .tc) := [main_v188, main_v189]
set_option maxHeartbeats 40000000 in
theorem hostOps7_wsub : (hostOps7 : List (HloOp τ sig (Elt F))).Forall fun op => op.writes ⊆ ((wl7).map (Proc.devRef (τ := τ) .tc)).toFinset :=
  ⟨writes_sub_of rfl (by decide), writes_sub_of rfl (by decide)⟩

/-- The references host stretch 8 writes, in order. -/
noncomputable abbrev wl8 : List (Ref sig .tc) := [main_c_40, main_v191, main_v192, main_c_41, main_v193, main_v194, main_v195, main_v196, main_v197, main_cst_42, main_v198, main_v199, main_v200, main_v201, main_v202, main_c_43, main_v203, main_v204, main_c_44, main_v205, main_v206, main_v207, main_v208, main_v209, main_cst_45, main_v210, main_v211, main_v212, main_v213, main_v214, main_c_46, main_v215, main_v216, main_c_47, main_v217, main_v218, main_v219, main_v220, main_v221, main_cst_48, main_v222, main_v223, main_v224, main_v225, main_v226, main_c_49, main_v227, main_v228, main_c_50, main_v229, main_v230, main_v231, main_v232, main_v233, main_cst_51, main_v234, main_v235, main_v236, main_v237, main_v238, main_c_52, main_v239, main_v240, main_c_53, main_v241, main_v242, main_v243, main_v244, main_v245, main_cst_54, main_v246, main_v247, main_v248, main_v249, main_v250, main_c_55, main_v251, main_v252, main_c_56, main_v253, main_v254, main_v255, main_v256, main_v257, main_cst_57, main_v258, main_v259, main_v260, main_v261, main_v262, main_c_58, main_v263, main_v264, main_c_59, main_v265, main_v266, main_v267, main_v268, main_v269, main_cst_60, main_v270, main_v271, main_v272, main_v273, main_v274, main_v275, main_v276, main_v277, main_v278, main_v279, main_v280, main_v281, main_v282, main_v283, main_v284, main_v285, main_v286, main_v287, main_v288]
set_option maxHeartbeats 40000000 in
theorem hostOps8_wsub : (hostOps8 : List (HloOp τ sig (Elt F))).Forall fun op => op.writes ⊆ ((wl8).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 9 writes, in order. -/
noncomputable abbrev wl9 : List (Ref sig .tc) := [main_v290, main_v291, main_v292, main_v293, main_v294, main_v295, main_v296, main_v297, main_v298, main_v299, main_v300, main_v301, main_v302, main_v303]
set_option maxHeartbeats 40000000 in
theorem hostOps9_wsub : (hostOps9 : List (HloOp τ sig (Elt F))).Forall fun op => op.writes ⊆ ((wl9).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 10 writes, in order. -/
noncomputable abbrev wl10 : List (Ref sig .tc) := [main_v305, main_v306, main_v307, main_v308, main_v309, main_v310, main_v311, main_v312, main_v313, main_v314, main_v315, main_v316, main_v317, main_v318]
set_option maxHeartbeats 40000000 in
theorem hostOps10_wsub : (hostOps10 : List (HloOp τ sig (Elt F))).Forall fun op => op.writes ⊆ ((wl10).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 11 writes, in order. -/
noncomputable abbrev wl11 : List (Ref sig .tc) := [main_v320, main_v321, main_v322, main_v323, main_v324, main_v325, main_v326]
set_option maxHeartbeats 40000000 in
theorem hostOps11_wsub : (hostOps11 : List (HloOp τ sig (Elt F))).Forall fun op => op.writes ⊆ ((wl11).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩

/-- The references host stretch 12 writes, in order. -/
noncomputable abbrev wl12 : List (Ref sig .tc) := [main_v328, main_v329]
set_option maxHeartbeats 40000000 in
theorem hostOps12_wsub : (hostOps12 : List (HloOp τ sig (Elt F))).Forall fun op => op.writes ⊆ ((wl12).map (Proc.devRef (τ := τ) .tc)).toFinset :=
  ⟨writes_sub_of rfl (by decide), writes_sub_of rfl (by decide)⟩

/-- The references host stretch 13 writes, in order. -/
noncomputable abbrev wl13 : List (Ref sig .tc) := [main_v331, main_v332]
set_option maxHeartbeats 40000000 in
theorem hostOps13_wsub : (hostOps13 : List (HloOp τ sig (Elt F))).Forall fun op => op.writes ⊆ ((wl13).map (Proc.devRef (τ := τ) .tc)).toFinset :=
  ⟨writes_sub_of rfl (by decide), writes_sub_of rfl (by decide)⟩

/-- The references host stretch 14 writes, in order. -/
noncomputable abbrev wl14 : List (Ref sig .tc) := [main_v334, main_v335]
set_option maxHeartbeats 40000000 in
theorem hostOps14_wsub : (hostOps14 : List (HloOp τ sig (Elt F))).Forall fun op => op.writes ⊆ ((wl14).map (Proc.devRef (τ := τ) .tc)).toFinset :=
  ⟨writes_sub_of rfl (by decide), writes_sub_of rfl (by decide)⟩

/-- The references host stretch 15 writes, in order. -/
noncomputable abbrev wl15 : List (Ref sig .tc) := [main_v337, main_v338]
set_option maxHeartbeats 40000000 in
theorem hostOps15_wsub : (hostOps15 : List (HloOp τ sig (Elt F))).Forall fun op => op.writes ⊆ ((wl15).map (Proc.devRef (τ := τ) .tc)).toFinset :=
  ⟨writes_sub_of rfl (by decide), writes_sub_of rfl (by decide)⟩

/-! No host operation and no region writes an argument: the fold at an argument's buffer walks back to the launch memory. -/

theorem kept0 (c : Dev nD) : W32 m ρ c (Proc.devRef .tc main_arg0) = m ((c : Thread nD τ).loc main_arg0) :=
  Eq.trans (W32_of_ne m ρ c main_arg0 (by decide))
    (Eq.trans (StableHlo.after_of_writes_sub (r := main_arg0) hostOps15 (W30 m ρ c) hostOps15_wsub (by decide))
    (Eq.trans (W30_of_ne m ρ c main_arg0 (by decide))
    (Eq.trans (StableHlo.after_of_writes_sub (r := main_arg0) hostOps14 (W28 m ρ c) hostOps14_wsub (by decide))
    (Eq.trans (W28_of_ne m ρ c main_arg0 (by decide))
    (Eq.trans (StableHlo.after_of_writes_sub (r := main_arg0) hostOps13 (W26 m ρ c) hostOps13_wsub (by decide))
    (Eq.trans (W26_of_ne m ρ c main_arg0 (by decide))
    (Eq.trans (StableHlo.after_of_writes_sub (r := main_arg0) hostOps12 (W24 m ρ c) hostOps12_wsub (by decide))
    (Eq.trans (W24_of_ne m ρ c main_arg0 (by decide))
    (Eq.trans (StableHlo.after_of_writes_sub (r := main_arg0) hostOps11 (W22 m ρ c) hostOps11_wsub (by decide))
    (Eq.trans (W22_of_ne m ρ c main_arg0 (by decide))
    (Eq.trans (StableHlo.after_of_writes_sub (r := main_arg0) hostOps10 (W20 m ρ c) hostOps10_wsub (by decide))
    (Eq.trans (W20_of_ne m ρ c main_arg0 (by decide))
    (Eq.trans (StableHlo.after_of_writes_sub (r := main_arg0) hostOps9 (W18 m ρ c) hostOps9_wsub (by decide))
    (Eq.trans (W18_of_ne m ρ c main_arg0 (by decide))
    (Eq.trans (StableHlo.after_of_writes_sub (r := main_arg0) hostOps8 (W16 m ρ c) hostOps8_wsub (by decide))
    (Eq.trans (W16_of_ne m ρ c main_arg0 (by decide))
    (Eq.trans (StableHlo.after_of_writes_sub (r := main_arg0) hostOps7 (W14 m ρ c) hostOps7_wsub (by decide))
    (Eq.trans (W14_of_ne m ρ c main_arg0 (by decide))
    (Eq.trans (StableHlo.after_of_writes_sub (r := main_arg0) hostOps6 (W12 m ρ c) hostOps6_wsub (by decide))
    (Eq.trans (W12_of_ne m ρ c main_arg0 (by decide))
    (Eq.trans (StableHlo.after_of_writes_sub (r := main_arg0) hostOps5 (W10 m ρ c) hostOps5_wsub (by decide))
    (Eq.trans (W10_of_ne m ρ c main_arg0 (by decide))
    (Eq.trans (StableHlo.after_of_writes_sub (r := main_arg0) hostOps4 (W8 m ρ c) hostOps4_wsub (by decide))
    (Eq.trans (W8_of_ne m ρ c main_arg0 (by decide))
    (Eq.trans (StableHlo.after_of_writes_sub (r := main_arg0) hostOps3 (W6 m ρ c) hostOps3_wsub (by decide))
    (Eq.trans (W6_of_ne m ρ c main_arg0 (by decide))
    (Eq.trans (StableHlo.after_of_writes_sub (r := main_arg0) hostOps2 (W4 m ρ c) hostOps2_wsub (by decide))
    (Eq.trans (W4_of_ne m ρ c main_arg0 (by decide))
    (Eq.trans (StableHlo.after_of_writes_sub (r := main_arg0) hostOps1 (W2 m ρ c) hostOps1_wsub (by decide))
    (Eq.trans ((W2_arr m ρ c 2).trans (((dat0 (V1 m ρ) c).arrAt_in 2 rfl _).trans (A_eq0 (V1 m ρ) c 2)))
    (Eq.trans (StableHlo.after_of_writes_sub (r := main_arg0) hostOps0 (W0 m ρ c) hostOps0_wsub (by decide))
    (rfl))))))))))))))))))))))))))))))))

theorem kept1 (c : Dev nD) : W32 m ρ c (Proc.devRef .tc main_arg1) = m ((c : Thread nD τ).loc main_arg1) :=
  Eq.trans (W32_of_ne m ρ c main_arg1 (by decide))
    (Eq.trans (StableHlo.after_of_writes_sub (r := main_arg1) hostOps15 (W30 m ρ c) hostOps15_wsub (by decide))
    (Eq.trans (W30_of_ne m ρ c main_arg1 (by decide))
    (Eq.trans (StableHlo.after_of_writes_sub (r := main_arg1) hostOps14 (W28 m ρ c) hostOps14_wsub (by decide))
    (Eq.trans (W28_of_ne m ρ c main_arg1 (by decide))
    (Eq.trans (StableHlo.after_of_writes_sub (r := main_arg1) hostOps13 (W26 m ρ c) hostOps13_wsub (by decide))
    (Eq.trans (W26_of_ne m ρ c main_arg1 (by decide))
    (Eq.trans (StableHlo.after_of_writes_sub (r := main_arg1) hostOps12 (W24 m ρ c) hostOps12_wsub (by decide))
    (Eq.trans (W24_of_ne m ρ c main_arg1 (by decide))
    (Eq.trans (StableHlo.after_of_writes_sub (r := main_arg1) hostOps11 (W22 m ρ c) hostOps11_wsub (by decide))
    (Eq.trans (W22_of_ne m ρ c main_arg1 (by decide))
    (Eq.trans (StableHlo.after_of_writes_sub (r := main_arg1) hostOps10 (W20 m ρ c) hostOps10_wsub (by decide))
    (Eq.trans (W20_of_ne m ρ c main_arg1 (by decide))
    (Eq.trans (StableHlo.after_of_writes_sub (r := main_arg1) hostOps9 (W18 m ρ c) hostOps9_wsub (by decide))
    (Eq.trans (W18_of_ne m ρ c main_arg1 (by decide))
    (Eq.trans (StableHlo.after_of_writes_sub (r := main_arg1) hostOps8 (W16 m ρ c) hostOps8_wsub (by decide))
    (Eq.trans (W16_of_ne m ρ c main_arg1 (by decide))
    (Eq.trans (StableHlo.after_of_writes_sub (r := main_arg1) hostOps7 (W14 m ρ c) hostOps7_wsub (by decide))
    (Eq.trans (W14_of_ne m ρ c main_arg1 (by decide))
    (Eq.trans (StableHlo.after_of_writes_sub (r := main_arg1) hostOps6 (W12 m ρ c) hostOps6_wsub (by decide))
    (Eq.trans (W12_of_ne m ρ c main_arg1 (by decide))
    (Eq.trans (StableHlo.after_of_writes_sub (r := main_arg1) hostOps5 (W10 m ρ c) hostOps5_wsub (by decide))
    (Eq.trans (W10_of_ne m ρ c main_arg1 (by decide))
    (Eq.trans (StableHlo.after_of_writes_sub (r := main_arg1) hostOps4 (W8 m ρ c) hostOps4_wsub (by decide))
    (Eq.trans (W8_of_ne m ρ c main_arg1 (by decide))
    (Eq.trans (StableHlo.after_of_writes_sub (r := main_arg1) hostOps3 (W6 m ρ c) hostOps3_wsub (by decide))
    (Eq.trans (W6_of_ne m ρ c main_arg1 (by decide))
    (Eq.trans (StableHlo.after_of_writes_sub (r := main_arg1) hostOps2 (W4 m ρ c) hostOps2_wsub (by decide))
    (Eq.trans ((W4_arr m ρ c 2).trans (((dat1 (V3 m ρ) c).arrAt_in 2 rfl _).trans (A_eq1 (V3 m ρ) c 2)))
    (Eq.trans (StableHlo.after_of_writes_sub (r := main_arg1) hostOps1 (W2 m ρ c) hostOps1_wsub (by decide))
    (Eq.trans (W2_of_ne m ρ c main_arg1 (by decide))
    (Eq.trans (StableHlo.after_of_writes_sub (r := main_arg1) hostOps0 (W0 m ρ c) hostOps0_wsub (by decide))
    (rfl))))))))))))))))))))))))))))))))

theorem kept2 (c : Dev nD) : W32 m ρ c (Proc.devRef .tc main_arg2) = m ((c : Thread nD τ).loc main_arg2) :=
  Eq.trans (W32_of_ne m ρ c main_arg2 (by decide))
    (Eq.trans (StableHlo.after_of_writes_sub (r := main_arg2) hostOps15 (W30 m ρ c) hostOps15_wsub (by decide))
    (Eq.trans (W30_of_ne m ρ c main_arg2 (by decide))
    (Eq.trans (StableHlo.after_of_writes_sub (r := main_arg2) hostOps14 (W28 m ρ c) hostOps14_wsub (by decide))
    (Eq.trans (W28_of_ne m ρ c main_arg2 (by decide))
    (Eq.trans (StableHlo.after_of_writes_sub (r := main_arg2) hostOps13 (W26 m ρ c) hostOps13_wsub (by decide))
    (Eq.trans (W26_of_ne m ρ c main_arg2 (by decide))
    (Eq.trans (StableHlo.after_of_writes_sub (r := main_arg2) hostOps12 (W24 m ρ c) hostOps12_wsub (by decide))
    (Eq.trans (W24_of_ne m ρ c main_arg2 (by decide))
    (Eq.trans (StableHlo.after_of_writes_sub (r := main_arg2) hostOps11 (W22 m ρ c) hostOps11_wsub (by decide))
    (Eq.trans (W22_of_ne m ρ c main_arg2 (by decide))
    (Eq.trans (StableHlo.after_of_writes_sub (r := main_arg2) hostOps10 (W20 m ρ c) hostOps10_wsub (by decide))
    (Eq.trans (W20_of_ne m ρ c main_arg2 (by decide))
    (Eq.trans (StableHlo.after_of_writes_sub (r := main_arg2) hostOps9 (W18 m ρ c) hostOps9_wsub (by decide))
    (Eq.trans (W18_of_ne m ρ c main_arg2 (by decide))
    (Eq.trans (StableHlo.after_of_writes_sub (r := main_arg2) hostOps8 (W16 m ρ c) hostOps8_wsub (by decide))
    (Eq.trans (W16_of_ne m ρ c main_arg2 (by decide))
    (Eq.trans (StableHlo.after_of_writes_sub (r := main_arg2) hostOps7 (W14 m ρ c) hostOps7_wsub (by decide))
    (Eq.trans (W14_of_ne m ρ c main_arg2 (by decide))
    (Eq.trans (StableHlo.after_of_writes_sub (r := main_arg2) hostOps6 (W12 m ρ c) hostOps6_wsub (by decide))
    (Eq.trans (W12_of_ne m ρ c main_arg2 (by decide))
    (Eq.trans (StableHlo.after_of_writes_sub (r := main_arg2) hostOps5 (W10 m ρ c) hostOps5_wsub (by decide))
    (Eq.trans (W10_of_ne m ρ c main_arg2 (by decide))
    (Eq.trans (StableHlo.after_of_writes_sub (r := main_arg2) hostOps4 (W8 m ρ c) hostOps4_wsub (by decide))
    (Eq.trans (W8_of_ne m ρ c main_arg2 (by decide))
    (Eq.trans (StableHlo.after_of_writes_sub (r := main_arg2) hostOps3 (W6 m ρ c) hostOps3_wsub (by decide))
    (Eq.trans ((W6_arr m ρ c 2).trans (((dat2 (V5 m ρ) c).arrAt_in 2 rfl _).trans (A_eq2 (V5 m ρ) c 2)))
    (Eq.trans (StableHlo.after_of_writes_sub (r := main_arg2) hostOps2 (W4 m ρ c) hostOps2_wsub (by decide))
    (Eq.trans (W4_of_ne m ρ c main_arg2 (by decide))
    (Eq.trans (StableHlo.after_of_writes_sub (r := main_arg2) hostOps1 (W2 m ρ c) hostOps1_wsub (by decide))
    (Eq.trans (W2_of_ne m ρ c main_arg2 (by decide))
    (Eq.trans (StableHlo.after_of_writes_sub (r := main_arg2) hostOps0 (W0 m ρ c) hostOps0_wsub (by decide))
    (rfl))))))))))))))))))))))))))))))))

theorem kept3 (c : Dev nD) : W32 m ρ c (Proc.devRef .tc main_arg3) = m ((c : Thread nD τ).loc main_arg3) :=
  Eq.trans (W32_of_ne m ρ c main_arg3 (by decide))
    (Eq.trans (StableHlo.after_of_writes_sub (r := main_arg3) hostOps15 (W30 m ρ c) hostOps15_wsub (by decide))
    (Eq.trans (W30_of_ne m ρ c main_arg3 (by decide))
    (Eq.trans (StableHlo.after_of_writes_sub (r := main_arg3) hostOps14 (W28 m ρ c) hostOps14_wsub (by decide))
    (Eq.trans (W28_of_ne m ρ c main_arg3 (by decide))
    (Eq.trans (StableHlo.after_of_writes_sub (r := main_arg3) hostOps13 (W26 m ρ c) hostOps13_wsub (by decide))
    (Eq.trans (W26_of_ne m ρ c main_arg3 (by decide))
    (Eq.trans (StableHlo.after_of_writes_sub (r := main_arg3) hostOps12 (W24 m ρ c) hostOps12_wsub (by decide))
    (Eq.trans (W24_of_ne m ρ c main_arg3 (by decide))
    (Eq.trans (StableHlo.after_of_writes_sub (r := main_arg3) hostOps11 (W22 m ρ c) hostOps11_wsub (by decide))
    (Eq.trans (W22_of_ne m ρ c main_arg3 (by decide))
    (Eq.trans (StableHlo.after_of_writes_sub (r := main_arg3) hostOps10 (W20 m ρ c) hostOps10_wsub (by decide))
    (Eq.trans (W20_of_ne m ρ c main_arg3 (by decide))
    (Eq.trans (StableHlo.after_of_writes_sub (r := main_arg3) hostOps9 (W18 m ρ c) hostOps9_wsub (by decide))
    (Eq.trans (W18_of_ne m ρ c main_arg3 (by decide))
    (Eq.trans (StableHlo.after_of_writes_sub (r := main_arg3) hostOps8 (W16 m ρ c) hostOps8_wsub (by decide))
    (Eq.trans (W16_of_ne m ρ c main_arg3 (by decide))
    (Eq.trans (StableHlo.after_of_writes_sub (r := main_arg3) hostOps7 (W14 m ρ c) hostOps7_wsub (by decide))
    (Eq.trans (W14_of_ne m ρ c main_arg3 (by decide))
    (Eq.trans (StableHlo.after_of_writes_sub (r := main_arg3) hostOps6 (W12 m ρ c) hostOps6_wsub (by decide))
    (Eq.trans (W12_of_ne m ρ c main_arg3 (by decide))
    (Eq.trans (StableHlo.after_of_writes_sub (r := main_arg3) hostOps5 (W10 m ρ c) hostOps5_wsub (by decide))
    (Eq.trans (W10_of_ne m ρ c main_arg3 (by decide))
    (Eq.trans (StableHlo.after_of_writes_sub (r := main_arg3) hostOps4 (W8 m ρ c) hostOps4_wsub (by decide))
    (Eq.trans ((W8_arr m ρ c 1).trans (((dat3 (V7 m ρ) c).arrAt_in 1 rfl _).trans (A_eq3 (V7 m ρ) c 1)))
    (Eq.trans (StableHlo.after_of_writes_sub (r := main_arg3) hostOps3 (W6 m ρ c) hostOps3_wsub (by decide))
    (Eq.trans (W6_of_ne m ρ c main_arg3 (by decide))
    (Eq.trans (StableHlo.after_of_writes_sub (r := main_arg3) hostOps2 (W4 m ρ c) hostOps2_wsub (by decide))
    (Eq.trans (W4_of_ne m ρ c main_arg3 (by decide))
    (Eq.trans (StableHlo.after_of_writes_sub (r := main_arg3) hostOps1 (W2 m ρ c) hostOps1_wsub (by decide))
    (Eq.trans (W2_of_ne m ρ c main_arg3 (by decide))
    (Eq.trans (StableHlo.after_of_writes_sub (r := main_arg3) hostOps0 (W0 m ρ c) hostOps0_wsub (by decide))
    (rfl))))))))))))))))))))))))))))))))

theorem kept4 (c : Dev nD) : W32 m ρ c (Proc.devRef .tc main_arg4) = m ((c : Thread nD τ).loc main_arg4) :=
  Eq.trans (W32_of_ne m ρ c main_arg4 (by decide))
    (Eq.trans (StableHlo.after_of_writes_sub (r := main_arg4) hostOps15 (W30 m ρ c) hostOps15_wsub (by decide))
    (Eq.trans (W30_of_ne m ρ c main_arg4 (by decide))
    (Eq.trans (StableHlo.after_of_writes_sub (r := main_arg4) hostOps14 (W28 m ρ c) hostOps14_wsub (by decide))
    (Eq.trans (W28_of_ne m ρ c main_arg4 (by decide))
    (Eq.trans (StableHlo.after_of_writes_sub (r := main_arg4) hostOps13 (W26 m ρ c) hostOps13_wsub (by decide))
    (Eq.trans (W26_of_ne m ρ c main_arg4 (by decide))
    (Eq.trans (StableHlo.after_of_writes_sub (r := main_arg4) hostOps12 (W24 m ρ c) hostOps12_wsub (by decide))
    (Eq.trans (W24_of_ne m ρ c main_arg4 (by decide))
    (Eq.trans (StableHlo.after_of_writes_sub (r := main_arg4) hostOps11 (W22 m ρ c) hostOps11_wsub (by decide))
    (Eq.trans (W22_of_ne m ρ c main_arg4 (by decide))
    (Eq.trans (StableHlo.after_of_writes_sub (r := main_arg4) hostOps10 (W20 m ρ c) hostOps10_wsub (by decide))
    (Eq.trans (W20_of_ne m ρ c main_arg4 (by decide))
    (Eq.trans (StableHlo.after_of_writes_sub (r := main_arg4) hostOps9 (W18 m ρ c) hostOps9_wsub (by decide))
    (Eq.trans (W18_of_ne m ρ c main_arg4 (by decide))
    (Eq.trans (StableHlo.after_of_writes_sub (r := main_arg4) hostOps8 (W16 m ρ c) hostOps8_wsub (by decide))
    (Eq.trans (W16_of_ne m ρ c main_arg4 (by decide))
    (Eq.trans (StableHlo.after_of_writes_sub (r := main_arg4) hostOps7 (W14 m ρ c) hostOps7_wsub (by decide))
    (Eq.trans (W14_of_ne m ρ c main_arg4 (by decide))
    (Eq.trans (StableHlo.after_of_writes_sub (r := main_arg4) hostOps6 (W12 m ρ c) hostOps6_wsub (by decide))
    (Eq.trans (W12_of_ne m ρ c main_arg4 (by decide))
    (Eq.trans (StableHlo.after_of_writes_sub (r := main_arg4) hostOps5 (W10 m ρ c) hostOps5_wsub (by decide))
    (Eq.trans (W10_of_ne m ρ c main_arg4 (by decide))
    (Eq.trans (StableHlo.after_of_writes_sub (r := main_arg4) hostOps4 (W8 m ρ c) hostOps4_wsub (by decide))
    (Eq.trans (W8_of_ne m ρ c main_arg4 (by decide))
    (Eq.trans (StableHlo.after_of_writes_sub (r := main_arg4) hostOps3 (W6 m ρ c) hostOps3_wsub (by decide))
    (Eq.trans (W6_of_ne m ρ c main_arg4 (by decide))
    (Eq.trans (StableHlo.after_of_writes_sub (r := main_arg4) hostOps2 (W4 m ρ c) hostOps2_wsub (by decide))
    (Eq.trans (W4_of_ne m ρ c main_arg4 (by decide))
    (Eq.trans (StableHlo.after_of_writes_sub (r := main_arg4) hostOps1 (W2 m ρ c) hostOps1_wsub (by decide))
    (Eq.trans (W2_of_ne m ρ c main_arg4 (by decide))
    (Eq.trans (StableHlo.after_of_writes_sub (r := main_arg4) hostOps0 (W0 m ρ c) hostOps0_wsub (by decide))
    (rfl))))))))))))))))))))))))))))))))

theorem kept5 (c : Dev nD) : W32 m ρ c (Proc.devRef .tc main_arg5) = m ((c : Thread nD τ).loc main_arg5) :=
  Eq.trans (W32_of_ne m ρ c main_arg5 (by decide))
    (Eq.trans (StableHlo.after_of_writes_sub (r := main_arg5) hostOps15 (W30 m ρ c) hostOps15_wsub (by decide))
    (Eq.trans (W30_of_ne m ρ c main_arg5 (by decide))
    (Eq.trans (StableHlo.after_of_writes_sub (r := main_arg5) hostOps14 (W28 m ρ c) hostOps14_wsub (by decide))
    (Eq.trans (W28_of_ne m ρ c main_arg5 (by decide))
    (Eq.trans (StableHlo.after_of_writes_sub (r := main_arg5) hostOps13 (W26 m ρ c) hostOps13_wsub (by decide))
    (Eq.trans (W26_of_ne m ρ c main_arg5 (by decide))
    (Eq.trans (StableHlo.after_of_writes_sub (r := main_arg5) hostOps12 (W24 m ρ c) hostOps12_wsub (by decide))
    (Eq.trans (W24_of_ne m ρ c main_arg5 (by decide))
    (Eq.trans (StableHlo.after_of_writes_sub (r := main_arg5) hostOps11 (W22 m ρ c) hostOps11_wsub (by decide))
    (Eq.trans (W22_of_ne m ρ c main_arg5 (by decide))
    (Eq.trans (StableHlo.after_of_writes_sub (r := main_arg5) hostOps10 (W20 m ρ c) hostOps10_wsub (by decide))
    (Eq.trans (W20_of_ne m ρ c main_arg5 (by decide))
    (Eq.trans (StableHlo.after_of_writes_sub (r := main_arg5) hostOps9 (W18 m ρ c) hostOps9_wsub (by decide))
    (Eq.trans (W18_of_ne m ρ c main_arg5 (by decide))
    (Eq.trans (StableHlo.after_of_writes_sub (r := main_arg5) hostOps8 (W16 m ρ c) hostOps8_wsub (by decide))
    (Eq.trans (W16_of_ne m ρ c main_arg5 (by decide))
    (Eq.trans (StableHlo.after_of_writes_sub (r := main_arg5) hostOps7 (W14 m ρ c) hostOps7_wsub (by decide))
    (Eq.trans (W14_of_ne m ρ c main_arg5 (by decide))
    (Eq.trans (StableHlo.after_of_writes_sub (r := main_arg5) hostOps6 (W12 m ρ c) hostOps6_wsub (by decide))
    (Eq.trans (W12_of_ne m ρ c main_arg5 (by decide))
    (Eq.trans (StableHlo.after_of_writes_sub (r := main_arg5) hostOps5 (W10 m ρ c) hostOps5_wsub (by decide))
    (Eq.trans (W10_of_ne m ρ c main_arg5 (by decide))
    (Eq.trans (StableHlo.after_of_writes_sub (r := main_arg5) hostOps4 (W8 m ρ c) hostOps4_wsub (by decide))
    (Eq.trans (W8_of_ne m ρ c main_arg5 (by decide))
    (Eq.trans (StableHlo.after_of_writes_sub (r := main_arg5) hostOps3 (W6 m ρ c) hostOps3_wsub (by decide))
    (Eq.trans (W6_of_ne m ρ c main_arg5 (by decide))
    (Eq.trans (StableHlo.after_of_writes_sub (r := main_arg5) hostOps2 (W4 m ρ c) hostOps2_wsub (by decide))
    (Eq.trans (W4_of_ne m ρ c main_arg5 (by decide))
    (Eq.trans (StableHlo.after_of_writes_sub (r := main_arg5) hostOps1 (W2 m ρ c) hostOps1_wsub (by decide))
    (Eq.trans (W2_of_ne m ρ c main_arg5 (by decide))
    (Eq.trans (StableHlo.after_of_writes_sub (r := main_arg5) hostOps0 (W0 m ρ c) hostOps0_wsub (by decide))
    (rfl))))))))))))))))))))))))))))))))

theorem kept6 (c : Dev nD) : W32 m ρ c (Proc.devRef .tc main_arg6) = m ((c : Thread nD τ).loc main_arg6) :=
  Eq.trans (W32_of_ne m ρ c main_arg6 (by decide))
    (Eq.trans (StableHlo.after_of_writes_sub (r := main_arg6) hostOps15 (W30 m ρ c) hostOps15_wsub (by decide))
    (Eq.trans (W30_of_ne m ρ c main_arg6 (by decide))
    (Eq.trans (StableHlo.after_of_writes_sub (r := main_arg6) hostOps14 (W28 m ρ c) hostOps14_wsub (by decide))
    (Eq.trans (W28_of_ne m ρ c main_arg6 (by decide))
    (Eq.trans (StableHlo.after_of_writes_sub (r := main_arg6) hostOps13 (W26 m ρ c) hostOps13_wsub (by decide))
    (Eq.trans (W26_of_ne m ρ c main_arg6 (by decide))
    (Eq.trans (StableHlo.after_of_writes_sub (r := main_arg6) hostOps12 (W24 m ρ c) hostOps12_wsub (by decide))
    (Eq.trans (W24_of_ne m ρ c main_arg6 (by decide))
    (Eq.trans (StableHlo.after_of_writes_sub (r := main_arg6) hostOps11 (W22 m ρ c) hostOps11_wsub (by decide))
    (Eq.trans (W22_of_ne m ρ c main_arg6 (by decide))
    (Eq.trans (StableHlo.after_of_writes_sub (r := main_arg6) hostOps10 (W20 m ρ c) hostOps10_wsub (by decide))
    (Eq.trans (W20_of_ne m ρ c main_arg6 (by decide))
    (Eq.trans (StableHlo.after_of_writes_sub (r := main_arg6) hostOps9 (W18 m ρ c) hostOps9_wsub (by decide))
    (Eq.trans (W18_of_ne m ρ c main_arg6 (by decide))
    (Eq.trans (StableHlo.after_of_writes_sub (r := main_arg6) hostOps8 (W16 m ρ c) hostOps8_wsub (by decide))
    (Eq.trans (W16_of_ne m ρ c main_arg6 (by decide))
    (Eq.trans (StableHlo.after_of_writes_sub (r := main_arg6) hostOps7 (W14 m ρ c) hostOps7_wsub (by decide))
    (Eq.trans (W14_of_ne m ρ c main_arg6 (by decide))
    (Eq.trans (StableHlo.after_of_writes_sub (r := main_arg6) hostOps6 (W12 m ρ c) hostOps6_wsub (by decide))
    (Eq.trans (W12_of_ne m ρ c main_arg6 (by decide))
    (Eq.trans (StableHlo.after_of_writes_sub (r := main_arg6) hostOps5 (W10 m ρ c) hostOps5_wsub (by decide))
    (Eq.trans (W10_of_ne m ρ c main_arg6 (by decide))
    (Eq.trans (StableHlo.after_of_writes_sub (r := main_arg6) hostOps4 (W8 m ρ c) hostOps4_wsub (by decide))
    (Eq.trans (W8_of_ne m ρ c main_arg6 (by decide))
    (Eq.trans (StableHlo.after_of_writes_sub (r := main_arg6) hostOps3 (W6 m ρ c) hostOps3_wsub (by decide))
    (Eq.trans (W6_of_ne m ρ c main_arg6 (by decide))
    (Eq.trans (StableHlo.after_of_writes_sub (r := main_arg6) hostOps2 (W4 m ρ c) hostOps2_wsub (by decide))
    (Eq.trans (W4_of_ne m ρ c main_arg6 (by decide))
    (Eq.trans (StableHlo.after_of_writes_sub (r := main_arg6) hostOps1 (W2 m ρ c) hostOps1_wsub (by decide))
    (Eq.trans (W2_of_ne m ρ c main_arg6 (by decide))
    (Eq.trans (StableHlo.after_of_writes_sub (r := main_arg6) hostOps0 (W0 m ρ c) hostOps0_wsub (by decide))
    (rfl))))))))))))))))))))))))))))))))

theorem kept7 (c : Dev nD) : W32 m ρ c (Proc.devRef .tc main_arg7) = m ((c : Thread nD τ).loc main_arg7) :=
  Eq.trans (W32_of_ne m ρ c main_arg7 (by decide))
    (Eq.trans (StableHlo.after_of_writes_sub (r := main_arg7) hostOps15 (W30 m ρ c) hostOps15_wsub (by decide))
    (Eq.trans (W30_of_ne m ρ c main_arg7 (by decide))
    (Eq.trans (StableHlo.after_of_writes_sub (r := main_arg7) hostOps14 (W28 m ρ c) hostOps14_wsub (by decide))
    (Eq.trans (W28_of_ne m ρ c main_arg7 (by decide))
    (Eq.trans (StableHlo.after_of_writes_sub (r := main_arg7) hostOps13 (W26 m ρ c) hostOps13_wsub (by decide))
    (Eq.trans (W26_of_ne m ρ c main_arg7 (by decide))
    (Eq.trans (StableHlo.after_of_writes_sub (r := main_arg7) hostOps12 (W24 m ρ c) hostOps12_wsub (by decide))
    (Eq.trans (W24_of_ne m ρ c main_arg7 (by decide))
    (Eq.trans (StableHlo.after_of_writes_sub (r := main_arg7) hostOps11 (W22 m ρ c) hostOps11_wsub (by decide))
    (Eq.trans (W22_of_ne m ρ c main_arg7 (by decide))
    (Eq.trans (StableHlo.after_of_writes_sub (r := main_arg7) hostOps10 (W20 m ρ c) hostOps10_wsub (by decide))
    (Eq.trans (W20_of_ne m ρ c main_arg7 (by decide))
    (Eq.trans (StableHlo.after_of_writes_sub (r := main_arg7) hostOps9 (W18 m ρ c) hostOps9_wsub (by decide))
    (Eq.trans (W18_of_ne m ρ c main_arg7 (by decide))
    (Eq.trans (StableHlo.after_of_writes_sub (r := main_arg7) hostOps8 (W16 m ρ c) hostOps8_wsub (by decide))
    (Eq.trans (W16_of_ne m ρ c main_arg7 (by decide))
    (Eq.trans (StableHlo.after_of_writes_sub (r := main_arg7) hostOps7 (W14 m ρ c) hostOps7_wsub (by decide))
    (Eq.trans (W14_of_ne m ρ c main_arg7 (by decide))
    (Eq.trans (StableHlo.after_of_writes_sub (r := main_arg7) hostOps6 (W12 m ρ c) hostOps6_wsub (by decide))
    (Eq.trans (W12_of_ne m ρ c main_arg7 (by decide))
    (Eq.trans (StableHlo.after_of_writes_sub (r := main_arg7) hostOps5 (W10 m ρ c) hostOps5_wsub (by decide))
    (Eq.trans (W10_of_ne m ρ c main_arg7 (by decide))
    (Eq.trans (StableHlo.after_of_writes_sub (r := main_arg7) hostOps4 (W8 m ρ c) hostOps4_wsub (by decide))
    (Eq.trans (W8_of_ne m ρ c main_arg7 (by decide))
    (Eq.trans (StableHlo.after_of_writes_sub (r := main_arg7) hostOps3 (W6 m ρ c) hostOps3_wsub (by decide))
    (Eq.trans (W6_of_ne m ρ c main_arg7 (by decide))
    (Eq.trans (StableHlo.after_of_writes_sub (r := main_arg7) hostOps2 (W4 m ρ c) hostOps2_wsub (by decide))
    (Eq.trans (W4_of_ne m ρ c main_arg7 (by decide))
    (Eq.trans (StableHlo.after_of_writes_sub (r := main_arg7) hostOps1 (W2 m ρ c) hostOps1_wsub (by decide))
    (Eq.trans (W2_of_ne m ρ c main_arg7 (by decide))
    (Eq.trans (StableHlo.after_of_writes_sub (r := main_arg7) hostOps0 (W0 m ρ c) hostOps0_wsub (by decide))
    (rfl))))))))))))))))))))))))))))))))

theorem kept8 (c : Dev nD) : W32 m ρ c (Proc.devRef .tc main_arg8) = m ((c : Thread nD τ).loc main_arg8) :=
  Eq.trans (W32_of_ne m ρ c main_arg8 (by decide))
    (Eq.trans (StableHlo.after_of_writes_sub (r := main_arg8) hostOps15 (W30 m ρ c) hostOps15_wsub (by decide))
    (Eq.trans (W30_of_ne m ρ c main_arg8 (by decide))
    (Eq.trans (StableHlo.after_of_writes_sub (r := main_arg8) hostOps14 (W28 m ρ c) hostOps14_wsub (by decide))
    (Eq.trans (W28_of_ne m ρ c main_arg8 (by decide))
    (Eq.trans (StableHlo.after_of_writes_sub (r := main_arg8) hostOps13 (W26 m ρ c) hostOps13_wsub (by decide))
    (Eq.trans (W26_of_ne m ρ c main_arg8 (by decide))
    (Eq.trans (StableHlo.after_of_writes_sub (r := main_arg8) hostOps12 (W24 m ρ c) hostOps12_wsub (by decide))
    (Eq.trans (W24_of_ne m ρ c main_arg8 (by decide))
    (Eq.trans (StableHlo.after_of_writes_sub (r := main_arg8) hostOps11 (W22 m ρ c) hostOps11_wsub (by decide))
    (Eq.trans (W22_of_ne m ρ c main_arg8 (by decide))
    (Eq.trans (StableHlo.after_of_writes_sub (r := main_arg8) hostOps10 (W20 m ρ c) hostOps10_wsub (by decide))
    (Eq.trans (W20_of_ne m ρ c main_arg8 (by decide))
    (Eq.trans (StableHlo.after_of_writes_sub (r := main_arg8) hostOps9 (W18 m ρ c) hostOps9_wsub (by decide))
    (Eq.trans (W18_of_ne m ρ c main_arg8 (by decide))
    (Eq.trans (StableHlo.after_of_writes_sub (r := main_arg8) hostOps8 (W16 m ρ c) hostOps8_wsub (by decide))
    (Eq.trans (W16_of_ne m ρ c main_arg8 (by decide))
    (Eq.trans (StableHlo.after_of_writes_sub (r := main_arg8) hostOps7 (W14 m ρ c) hostOps7_wsub (by decide))
    (Eq.trans (W14_of_ne m ρ c main_arg8 (by decide))
    (Eq.trans (StableHlo.after_of_writes_sub (r := main_arg8) hostOps6 (W12 m ρ c) hostOps6_wsub (by decide))
    (Eq.trans (W12_of_ne m ρ c main_arg8 (by decide))
    (Eq.trans (StableHlo.after_of_writes_sub (r := main_arg8) hostOps5 (W10 m ρ c) hostOps5_wsub (by decide))
    (Eq.trans (W10_of_ne m ρ c main_arg8 (by decide))
    (Eq.trans (StableHlo.after_of_writes_sub (r := main_arg8) hostOps4 (W8 m ρ c) hostOps4_wsub (by decide))
    (Eq.trans (W8_of_ne m ρ c main_arg8 (by decide))
    (Eq.trans (StableHlo.after_of_writes_sub (r := main_arg8) hostOps3 (W6 m ρ c) hostOps3_wsub (by decide))
    (Eq.trans (W6_of_ne m ρ c main_arg8 (by decide))
    (Eq.trans (StableHlo.after_of_writes_sub (r := main_arg8) hostOps2 (W4 m ρ c) hostOps2_wsub (by decide))
    (Eq.trans (W4_of_ne m ρ c main_arg8 (by decide))
    (Eq.trans (StableHlo.after_of_writes_sub (r := main_arg8) hostOps1 (W2 m ρ c) hostOps1_wsub (by decide))
    (Eq.trans (W2_of_ne m ρ c main_arg8 (by decide))
    (Eq.trans (StableHlo.after_of_writes_sub (r := main_arg8) hostOps0 (W0 m ρ c) hostOps0_wsub (by decide))
    (rfl))))))))))))))))))))))))))))))))

theorem kept9 (c : Dev nD) : W32 m ρ c (Proc.devRef .tc main_arg9) = m ((c : Thread nD τ).loc main_arg9) :=
  Eq.trans (W32_of_ne m ρ c main_arg9 (by decide))
    (Eq.trans (StableHlo.after_of_writes_sub (r := main_arg9) hostOps15 (W30 m ρ c) hostOps15_wsub (by decide))
    (Eq.trans (W30_of_ne m ρ c main_arg9 (by decide))
    (Eq.trans (StableHlo.after_of_writes_sub (r := main_arg9) hostOps14 (W28 m ρ c) hostOps14_wsub (by decide))
    (Eq.trans (W28_of_ne m ρ c main_arg9 (by decide))
    (Eq.trans (StableHlo.after_of_writes_sub (r := main_arg9) hostOps13 (W26 m ρ c) hostOps13_wsub (by decide))
    (Eq.trans (W26_of_ne m ρ c main_arg9 (by decide))
    (Eq.trans (StableHlo.after_of_writes_sub (r := main_arg9) hostOps12 (W24 m ρ c) hostOps12_wsub (by decide))
    (Eq.trans (W24_of_ne m ρ c main_arg9 (by decide))
    (Eq.trans (StableHlo.after_of_writes_sub (r := main_arg9) hostOps11 (W22 m ρ c) hostOps11_wsub (by decide))
    (Eq.trans (W22_of_ne m ρ c main_arg9 (by decide))
    (Eq.trans (StableHlo.after_of_writes_sub (r := main_arg9) hostOps10 (W20 m ρ c) hostOps10_wsub (by decide))
    (Eq.trans (W20_of_ne m ρ c main_arg9 (by decide))
    (Eq.trans (StableHlo.after_of_writes_sub (r := main_arg9) hostOps9 (W18 m ρ c) hostOps9_wsub (by decide))
    (Eq.trans (W18_of_ne m ρ c main_arg9 (by decide))
    (Eq.trans (StableHlo.after_of_writes_sub (r := main_arg9) hostOps8 (W16 m ρ c) hostOps8_wsub (by decide))
    (Eq.trans (W16_of_ne m ρ c main_arg9 (by decide))
    (Eq.trans (StableHlo.after_of_writes_sub (r := main_arg9) hostOps7 (W14 m ρ c) hostOps7_wsub (by decide))
    (Eq.trans (W14_of_ne m ρ c main_arg9 (by decide))
    (Eq.trans (StableHlo.after_of_writes_sub (r := main_arg9) hostOps6 (W12 m ρ c) hostOps6_wsub (by decide))
    (Eq.trans (W12_of_ne m ρ c main_arg9 (by decide))
    (Eq.trans (StableHlo.after_of_writes_sub (r := main_arg9) hostOps5 (W10 m ρ c) hostOps5_wsub (by decide))
    (Eq.trans (W10_of_ne m ρ c main_arg9 (by decide))
    (Eq.trans (StableHlo.after_of_writes_sub (r := main_arg9) hostOps4 (W8 m ρ c) hostOps4_wsub (by decide))
    (Eq.trans (W8_of_ne m ρ c main_arg9 (by decide))
    (Eq.trans (StableHlo.after_of_writes_sub (r := main_arg9) hostOps3 (W6 m ρ c) hostOps3_wsub (by decide))
    (Eq.trans (W6_of_ne m ρ c main_arg9 (by decide))
    (Eq.trans (StableHlo.after_of_writes_sub (r := main_arg9) hostOps2 (W4 m ρ c) hostOps2_wsub (by decide))
    (Eq.trans (W4_of_ne m ρ c main_arg9 (by decide))
    (Eq.trans (StableHlo.after_of_writes_sub (r := main_arg9) hostOps1 (W2 m ρ c) hostOps1_wsub (by decide))
    (Eq.trans (W2_of_ne m ρ c main_arg9 (by decide))
    (Eq.trans (StableHlo.after_of_writes_sub (r := main_arg9) hostOps0 (W0 m ρ c) hostOps0_wsub (by decide))
    (rfl))))))))))))))))))))))))))))))))

theorem kept10 (c : Dev nD) : W32 m ρ c (Proc.devRef .tc main_arg10) = m ((c : Thread nD τ).loc main_arg10) :=
  Eq.trans (W32_of_ne m ρ c main_arg10 (by decide))
    (Eq.trans (StableHlo.after_of_writes_sub (r := main_arg10) hostOps15 (W30 m ρ c) hostOps15_wsub (by decide))
    (Eq.trans (W30_of_ne m ρ c main_arg10 (by decide))
    (Eq.trans (StableHlo.after_of_writes_sub (r := main_arg10) hostOps14 (W28 m ρ c) hostOps14_wsub (by decide))
    (Eq.trans (W28_of_ne m ρ c main_arg10 (by decide))
    (Eq.trans (StableHlo.after_of_writes_sub (r := main_arg10) hostOps13 (W26 m ρ c) hostOps13_wsub (by decide))
    (Eq.trans (W26_of_ne m ρ c main_arg10 (by decide))
    (Eq.trans (StableHlo.after_of_writes_sub (r := main_arg10) hostOps12 (W24 m ρ c) hostOps12_wsub (by decide))
    (Eq.trans (W24_of_ne m ρ c main_arg10 (by decide))
    (Eq.trans (StableHlo.after_of_writes_sub (r := main_arg10) hostOps11 (W22 m ρ c) hostOps11_wsub (by decide))
    (Eq.trans (W22_of_ne m ρ c main_arg10 (by decide))
    (Eq.trans (StableHlo.after_of_writes_sub (r := main_arg10) hostOps10 (W20 m ρ c) hostOps10_wsub (by decide))
    (Eq.trans (W20_of_ne m ρ c main_arg10 (by decide))
    (Eq.trans (StableHlo.after_of_writes_sub (r := main_arg10) hostOps9 (W18 m ρ c) hostOps9_wsub (by decide))
    (Eq.trans (W18_of_ne m ρ c main_arg10 (by decide))
    (Eq.trans (StableHlo.after_of_writes_sub (r := main_arg10) hostOps8 (W16 m ρ c) hostOps8_wsub (by decide))
    (Eq.trans (W16_of_ne m ρ c main_arg10 (by decide))
    (Eq.trans (StableHlo.after_of_writes_sub (r := main_arg10) hostOps7 (W14 m ρ c) hostOps7_wsub (by decide))
    (Eq.trans (W14_of_ne m ρ c main_arg10 (by decide))
    (Eq.trans (StableHlo.after_of_writes_sub (r := main_arg10) hostOps6 (W12 m ρ c) hostOps6_wsub (by decide))
    (Eq.trans (W12_of_ne m ρ c main_arg10 (by decide))
    (Eq.trans (StableHlo.after_of_writes_sub (r := main_arg10) hostOps5 (W10 m ρ c) hostOps5_wsub (by decide))
    (Eq.trans (W10_of_ne m ρ c main_arg10 (by decide))
    (Eq.trans (StableHlo.after_of_writes_sub (r := main_arg10) hostOps4 (W8 m ρ c) hostOps4_wsub (by decide))
    (Eq.trans (W8_of_ne m ρ c main_arg10 (by decide))
    (Eq.trans (StableHlo.after_of_writes_sub (r := main_arg10) hostOps3 (W6 m ρ c) hostOps3_wsub (by decide))
    (Eq.trans (W6_of_ne m ρ c main_arg10 (by decide))
    (Eq.trans (StableHlo.after_of_writes_sub (r := main_arg10) hostOps2 (W4 m ρ c) hostOps2_wsub (by decide))
    (Eq.trans (W4_of_ne m ρ c main_arg10 (by decide))
    (Eq.trans (StableHlo.after_of_writes_sub (r := main_arg10) hostOps1 (W2 m ρ c) hostOps1_wsub (by decide))
    (Eq.trans (W2_of_ne m ρ c main_arg10 (by decide))
    (Eq.trans (StableHlo.after_of_writes_sub (r := main_arg10) hostOps0 (W0 m ρ c) hostOps0_wsub (by decide))
    (rfl))))))))))))))))))))))))))))))))

theorem kept11 (c : Dev nD) : W32 m ρ c (Proc.devRef .tc main_arg11) = m ((c : Thread nD τ).loc main_arg11) :=
  Eq.trans (W32_of_ne m ρ c main_arg11 (by decide))
    (Eq.trans (StableHlo.after_of_writes_sub (r := main_arg11) hostOps15 (W30 m ρ c) hostOps15_wsub (by decide))
    (Eq.trans (W30_of_ne m ρ c main_arg11 (by decide))
    (Eq.trans (StableHlo.after_of_writes_sub (r := main_arg11) hostOps14 (W28 m ρ c) hostOps14_wsub (by decide))
    (Eq.trans (W28_of_ne m ρ c main_arg11 (by decide))
    (Eq.trans (StableHlo.after_of_writes_sub (r := main_arg11) hostOps13 (W26 m ρ c) hostOps13_wsub (by decide))
    (Eq.trans (W26_of_ne m ρ c main_arg11 (by decide))
    (Eq.trans (StableHlo.after_of_writes_sub (r := main_arg11) hostOps12 (W24 m ρ c) hostOps12_wsub (by decide))
    (Eq.trans (W24_of_ne m ρ c main_arg11 (by decide))
    (Eq.trans (StableHlo.after_of_writes_sub (r := main_arg11) hostOps11 (W22 m ρ c) hostOps11_wsub (by decide))
    (Eq.trans (W22_of_ne m ρ c main_arg11 (by decide))
    (Eq.trans (StableHlo.after_of_writes_sub (r := main_arg11) hostOps10 (W20 m ρ c) hostOps10_wsub (by decide))
    (Eq.trans (W20_of_ne m ρ c main_arg11 (by decide))
    (Eq.trans (StableHlo.after_of_writes_sub (r := main_arg11) hostOps9 (W18 m ρ c) hostOps9_wsub (by decide))
    (Eq.trans (W18_of_ne m ρ c main_arg11 (by decide))
    (Eq.trans (StableHlo.after_of_writes_sub (r := main_arg11) hostOps8 (W16 m ρ c) hostOps8_wsub (by decide))
    (Eq.trans (W16_of_ne m ρ c main_arg11 (by decide))
    (Eq.trans (StableHlo.after_of_writes_sub (r := main_arg11) hostOps7 (W14 m ρ c) hostOps7_wsub (by decide))
    (Eq.trans (W14_of_ne m ρ c main_arg11 (by decide))
    (Eq.trans (StableHlo.after_of_writes_sub (r := main_arg11) hostOps6 (W12 m ρ c) hostOps6_wsub (by decide))
    (Eq.trans (W12_of_ne m ρ c main_arg11 (by decide))
    (Eq.trans (StableHlo.after_of_writes_sub (r := main_arg11) hostOps5 (W10 m ρ c) hostOps5_wsub (by decide))
    (Eq.trans (W10_of_ne m ρ c main_arg11 (by decide))
    (Eq.trans (StableHlo.after_of_writes_sub (r := main_arg11) hostOps4 (W8 m ρ c) hostOps4_wsub (by decide))
    (Eq.trans (W8_of_ne m ρ c main_arg11 (by decide))
    (Eq.trans (StableHlo.after_of_writes_sub (r := main_arg11) hostOps3 (W6 m ρ c) hostOps3_wsub (by decide))
    (Eq.trans (W6_of_ne m ρ c main_arg11 (by decide))
    (Eq.trans (StableHlo.after_of_writes_sub (r := main_arg11) hostOps2 (W4 m ρ c) hostOps2_wsub (by decide))
    (Eq.trans (W4_of_ne m ρ c main_arg11 (by decide))
    (Eq.trans (StableHlo.after_of_writes_sub (r := main_arg11) hostOps1 (W2 m ρ c) hostOps1_wsub (by decide))
    (Eq.trans (W2_of_ne m ρ c main_arg11 (by decide))
    (Eq.trans (StableHlo.after_of_writes_sub (r := main_arg11) hostOps0 (W0 m ρ c) hostOps0_wsub (by decide))
    (rfl))))))))))))))))))))))))))))))))

theorem kept12 (c : Dev nD) : W32 m ρ c (Proc.devRef .tc main_arg12) = m ((c : Thread nD τ).loc main_arg12) :=
  Eq.trans (W32_of_ne m ρ c main_arg12 (by decide))
    (Eq.trans (StableHlo.after_of_writes_sub (r := main_arg12) hostOps15 (W30 m ρ c) hostOps15_wsub (by decide))
    (Eq.trans (W30_of_ne m ρ c main_arg12 (by decide))
    (Eq.trans (StableHlo.after_of_writes_sub (r := main_arg12) hostOps14 (W28 m ρ c) hostOps14_wsub (by decide))
    (Eq.trans (W28_of_ne m ρ c main_arg12 (by decide))
    (Eq.trans (StableHlo.after_of_writes_sub (r := main_arg12) hostOps13 (W26 m ρ c) hostOps13_wsub (by decide))
    (Eq.trans (W26_of_ne m ρ c main_arg12 (by decide))
    (Eq.trans (StableHlo.after_of_writes_sub (r := main_arg12) hostOps12 (W24 m ρ c) hostOps12_wsub (by decide))
    (Eq.trans (W24_of_ne m ρ c main_arg12 (by decide))
    (Eq.trans (StableHlo.after_of_writes_sub (r := main_arg12) hostOps11 (W22 m ρ c) hostOps11_wsub (by decide))
    (Eq.trans (W22_of_ne m ρ c main_arg12 (by decide))
    (Eq.trans (StableHlo.after_of_writes_sub (r := main_arg12) hostOps10 (W20 m ρ c) hostOps10_wsub (by decide))
    (Eq.trans (W20_of_ne m ρ c main_arg12 (by decide))
    (Eq.trans (StableHlo.after_of_writes_sub (r := main_arg12) hostOps9 (W18 m ρ c) hostOps9_wsub (by decide))
    (Eq.trans (W18_of_ne m ρ c main_arg12 (by decide))
    (Eq.trans (StableHlo.after_of_writes_sub (r := main_arg12) hostOps8 (W16 m ρ c) hostOps8_wsub (by decide))
    (Eq.trans (W16_of_ne m ρ c main_arg12 (by decide))
    (Eq.trans (StableHlo.after_of_writes_sub (r := main_arg12) hostOps7 (W14 m ρ c) hostOps7_wsub (by decide))
    (Eq.trans (W14_of_ne m ρ c main_arg12 (by decide))
    (Eq.trans (StableHlo.after_of_writes_sub (r := main_arg12) hostOps6 (W12 m ρ c) hostOps6_wsub (by decide))
    (Eq.trans (W12_of_ne m ρ c main_arg12 (by decide))
    (Eq.trans (StableHlo.after_of_writes_sub (r := main_arg12) hostOps5 (W10 m ρ c) hostOps5_wsub (by decide))
    (Eq.trans (W10_of_ne m ρ c main_arg12 (by decide))
    (Eq.trans (StableHlo.after_of_writes_sub (r := main_arg12) hostOps4 (W8 m ρ c) hostOps4_wsub (by decide))
    (Eq.trans (W8_of_ne m ρ c main_arg12 (by decide))
    (Eq.trans (StableHlo.after_of_writes_sub (r := main_arg12) hostOps3 (W6 m ρ c) hostOps3_wsub (by decide))
    (Eq.trans (W6_of_ne m ρ c main_arg12 (by decide))
    (Eq.trans (StableHlo.after_of_writes_sub (r := main_arg12) hostOps2 (W4 m ρ c) hostOps2_wsub (by decide))
    (Eq.trans (W4_of_ne m ρ c main_arg12 (by decide))
    (Eq.trans (StableHlo.after_of_writes_sub (r := main_arg12) hostOps1 (W2 m ρ c) hostOps1_wsub (by decide))
    (Eq.trans (W2_of_ne m ρ c main_arg12 (by decide))
    (Eq.trans (StableHlo.after_of_writes_sub (r := main_arg12) hostOps0 (W0 m ρ c) hostOps0_wsub (by decide))
    (rfl))))))))))))))))))))))))))))))))

theorem kept13 (c : Dev nD) : W32 m ρ c (Proc.devRef .tc main_arg13) = m ((c : Thread nD τ).loc main_arg13) :=
  Eq.trans (W32_of_ne m ρ c main_arg13 (by decide))
    (Eq.trans (StableHlo.after_of_writes_sub (r := main_arg13) hostOps15 (W30 m ρ c) hostOps15_wsub (by decide))
    (Eq.trans (W30_of_ne m ρ c main_arg13 (by decide))
    (Eq.trans (StableHlo.after_of_writes_sub (r := main_arg13) hostOps14 (W28 m ρ c) hostOps14_wsub (by decide))
    (Eq.trans (W28_of_ne m ρ c main_arg13 (by decide))
    (Eq.trans (StableHlo.after_of_writes_sub (r := main_arg13) hostOps13 (W26 m ρ c) hostOps13_wsub (by decide))
    (Eq.trans (W26_of_ne m ρ c main_arg13 (by decide))
    (Eq.trans (StableHlo.after_of_writes_sub (r := main_arg13) hostOps12 (W24 m ρ c) hostOps12_wsub (by decide))
    (Eq.trans (W24_of_ne m ρ c main_arg13 (by decide))
    (Eq.trans (StableHlo.after_of_writes_sub (r := main_arg13) hostOps11 (W22 m ρ c) hostOps11_wsub (by decide))
    (Eq.trans (W22_of_ne m ρ c main_arg13 (by decide))
    (Eq.trans (StableHlo.after_of_writes_sub (r := main_arg13) hostOps10 (W20 m ρ c) hostOps10_wsub (by decide))
    (Eq.trans (W20_of_ne m ρ c main_arg13 (by decide))
    (Eq.trans (StableHlo.after_of_writes_sub (r := main_arg13) hostOps9 (W18 m ρ c) hostOps9_wsub (by decide))
    (Eq.trans (W18_of_ne m ρ c main_arg13 (by decide))
    (Eq.trans (StableHlo.after_of_writes_sub (r := main_arg13) hostOps8 (W16 m ρ c) hostOps8_wsub (by decide))
    (Eq.trans (W16_of_ne m ρ c main_arg13 (by decide))
    (Eq.trans (StableHlo.after_of_writes_sub (r := main_arg13) hostOps7 (W14 m ρ c) hostOps7_wsub (by decide))
    (Eq.trans (W14_of_ne m ρ c main_arg13 (by decide))
    (Eq.trans (StableHlo.after_of_writes_sub (r := main_arg13) hostOps6 (W12 m ρ c) hostOps6_wsub (by decide))
    (Eq.trans (W12_of_ne m ρ c main_arg13 (by decide))
    (Eq.trans (StableHlo.after_of_writes_sub (r := main_arg13) hostOps5 (W10 m ρ c) hostOps5_wsub (by decide))
    (Eq.trans (W10_of_ne m ρ c main_arg13 (by decide))
    (Eq.trans (StableHlo.after_of_writes_sub (r := main_arg13) hostOps4 (W8 m ρ c) hostOps4_wsub (by decide))
    (Eq.trans (W8_of_ne m ρ c main_arg13 (by decide))
    (Eq.trans (StableHlo.after_of_writes_sub (r := main_arg13) hostOps3 (W6 m ρ c) hostOps3_wsub (by decide))
    (Eq.trans (W6_of_ne m ρ c main_arg13 (by decide))
    (Eq.trans (StableHlo.after_of_writes_sub (r := main_arg13) hostOps2 (W4 m ρ c) hostOps2_wsub (by decide))
    (Eq.trans (W4_of_ne m ρ c main_arg13 (by decide))
    (Eq.trans (StableHlo.after_of_writes_sub (r := main_arg13) hostOps1 (W2 m ρ c) hostOps1_wsub (by decide))
    (Eq.trans (W2_of_ne m ρ c main_arg13 (by decide))
    (Eq.trans (StableHlo.after_of_writes_sub (r := main_arg13) hostOps0 (W0 m ρ c) hostOps0_wsub (by decide))
    (rfl))))))))))))))))))))))))))))))))

theorem kept14 (c : Dev nD) : W32 m ρ c (Proc.devRef .tc main_arg14) = m ((c : Thread nD τ).loc main_arg14) :=
  Eq.trans (W32_of_ne m ρ c main_arg14 (by decide))
    (Eq.trans (StableHlo.after_of_writes_sub (r := main_arg14) hostOps15 (W30 m ρ c) hostOps15_wsub (by decide))
    (Eq.trans (W30_of_ne m ρ c main_arg14 (by decide))
    (Eq.trans (StableHlo.after_of_writes_sub (r := main_arg14) hostOps14 (W28 m ρ c) hostOps14_wsub (by decide))
    (Eq.trans (W28_of_ne m ρ c main_arg14 (by decide))
    (Eq.trans (StableHlo.after_of_writes_sub (r := main_arg14) hostOps13 (W26 m ρ c) hostOps13_wsub (by decide))
    (Eq.trans (W26_of_ne m ρ c main_arg14 (by decide))
    (Eq.trans (StableHlo.after_of_writes_sub (r := main_arg14) hostOps12 (W24 m ρ c) hostOps12_wsub (by decide))
    (Eq.trans (W24_of_ne m ρ c main_arg14 (by decide))
    (Eq.trans (StableHlo.after_of_writes_sub (r := main_arg14) hostOps11 (W22 m ρ c) hostOps11_wsub (by decide))
    (Eq.trans (W22_of_ne m ρ c main_arg14 (by decide))
    (Eq.trans (StableHlo.after_of_writes_sub (r := main_arg14) hostOps10 (W20 m ρ c) hostOps10_wsub (by decide))
    (Eq.trans (W20_of_ne m ρ c main_arg14 (by decide))
    (Eq.trans (StableHlo.after_of_writes_sub (r := main_arg14) hostOps9 (W18 m ρ c) hostOps9_wsub (by decide))
    (Eq.trans (W18_of_ne m ρ c main_arg14 (by decide))
    (Eq.trans (StableHlo.after_of_writes_sub (r := main_arg14) hostOps8 (W16 m ρ c) hostOps8_wsub (by decide))
    (Eq.trans (W16_of_ne m ρ c main_arg14 (by decide))
    (Eq.trans (StableHlo.after_of_writes_sub (r := main_arg14) hostOps7 (W14 m ρ c) hostOps7_wsub (by decide))
    (Eq.trans (W14_of_ne m ρ c main_arg14 (by decide))
    (Eq.trans (StableHlo.after_of_writes_sub (r := main_arg14) hostOps6 (W12 m ρ c) hostOps6_wsub (by decide))
    (Eq.trans (W12_of_ne m ρ c main_arg14 (by decide))
    (Eq.trans (StableHlo.after_of_writes_sub (r := main_arg14) hostOps5 (W10 m ρ c) hostOps5_wsub (by decide))
    (Eq.trans (W10_of_ne m ρ c main_arg14 (by decide))
    (Eq.trans (StableHlo.after_of_writes_sub (r := main_arg14) hostOps4 (W8 m ρ c) hostOps4_wsub (by decide))
    (Eq.trans (W8_of_ne m ρ c main_arg14 (by decide))
    (Eq.trans (StableHlo.after_of_writes_sub (r := main_arg14) hostOps3 (W6 m ρ c) hostOps3_wsub (by decide))
    (Eq.trans (W6_of_ne m ρ c main_arg14 (by decide))
    (Eq.trans (StableHlo.after_of_writes_sub (r := main_arg14) hostOps2 (W4 m ρ c) hostOps2_wsub (by decide))
    (Eq.trans (W4_of_ne m ρ c main_arg14 (by decide))
    (Eq.trans (StableHlo.after_of_writes_sub (r := main_arg14) hostOps1 (W2 m ρ c) hostOps1_wsub (by decide))
    (Eq.trans (W2_of_ne m ρ c main_arg14 (by decide))
    (Eq.trans (StableHlo.after_of_writes_sub (r := main_arg14) hostOps0 (W0 m ρ c) hostOps0_wsub (by decide))
    (rfl))))))))))))))))))))))))))))))))

theorem kept15 (c : Dev nD) : W32 m ρ c (Proc.devRef .tc main_arg15) = m ((c : Thread nD τ).loc main_arg15) :=
  Eq.trans (W32_of_ne m ρ c main_arg15 (by decide))
    (Eq.trans (StableHlo.after_of_writes_sub (r := main_arg15) hostOps15 (W30 m ρ c) hostOps15_wsub (by decide))
    (Eq.trans (W30_of_ne m ρ c main_arg15 (by decide))
    (Eq.trans (StableHlo.after_of_writes_sub (r := main_arg15) hostOps14 (W28 m ρ c) hostOps14_wsub (by decide))
    (Eq.trans (W28_of_ne m ρ c main_arg15 (by decide))
    (Eq.trans (StableHlo.after_of_writes_sub (r := main_arg15) hostOps13 (W26 m ρ c) hostOps13_wsub (by decide))
    (Eq.trans (W26_of_ne m ρ c main_arg15 (by decide))
    (Eq.trans (StableHlo.after_of_writes_sub (r := main_arg15) hostOps12 (W24 m ρ c) hostOps12_wsub (by decide))
    (Eq.trans (W24_of_ne m ρ c main_arg15 (by decide))
    (Eq.trans (StableHlo.after_of_writes_sub (r := main_arg15) hostOps11 (W22 m ρ c) hostOps11_wsub (by decide))
    (Eq.trans (W22_of_ne m ρ c main_arg15 (by decide))
    (Eq.trans (StableHlo.after_of_writes_sub (r := main_arg15) hostOps10 (W20 m ρ c) hostOps10_wsub (by decide))
    (Eq.trans (W20_of_ne m ρ c main_arg15 (by decide))
    (Eq.trans (StableHlo.after_of_writes_sub (r := main_arg15) hostOps9 (W18 m ρ c) hostOps9_wsub (by decide))
    (Eq.trans (W18_of_ne m ρ c main_arg15 (by decide))
    (Eq.trans (StableHlo.after_of_writes_sub (r := main_arg15) hostOps8 (W16 m ρ c) hostOps8_wsub (by decide))
    (Eq.trans (W16_of_ne m ρ c main_arg15 (by decide))
    (Eq.trans (StableHlo.after_of_writes_sub (r := main_arg15) hostOps7 (W14 m ρ c) hostOps7_wsub (by decide))
    (Eq.trans (W14_of_ne m ρ c main_arg15 (by decide))
    (Eq.trans (StableHlo.after_of_writes_sub (r := main_arg15) hostOps6 (W12 m ρ c) hostOps6_wsub (by decide))
    (Eq.trans (W12_of_ne m ρ c main_arg15 (by decide))
    (Eq.trans (StableHlo.after_of_writes_sub (r := main_arg15) hostOps5 (W10 m ρ c) hostOps5_wsub (by decide))
    (Eq.trans (W10_of_ne m ρ c main_arg15 (by decide))
    (Eq.trans (StableHlo.after_of_writes_sub (r := main_arg15) hostOps4 (W8 m ρ c) hostOps4_wsub (by decide))
    (Eq.trans (W8_of_ne m ρ c main_arg15 (by decide))
    (Eq.trans (StableHlo.after_of_writes_sub (r := main_arg15) hostOps3 (W6 m ρ c) hostOps3_wsub (by decide))
    (Eq.trans (W6_of_ne m ρ c main_arg15 (by decide))
    (Eq.trans (StableHlo.after_of_writes_sub (r := main_arg15) hostOps2 (W4 m ρ c) hostOps2_wsub (by decide))
    (Eq.trans (W4_of_ne m ρ c main_arg15 (by decide))
    (Eq.trans (StableHlo.after_of_writes_sub (r := main_arg15) hostOps1 (W2 m ρ c) hostOps1_wsub (by decide))
    (Eq.trans (W2_of_ne m ρ c main_arg15 (by decide))
    (Eq.trans (StableHlo.after_of_writes_sub (r := main_arg15) hostOps0 (W0 m ρ c) hostOps0_wsub (by decide))
    (rfl))))))))))))))))))))))))))))))))

theorem kept16 (c : Dev nD) : W32 m ρ c (Proc.devRef .tc main_arg16) = m ((c : Thread nD τ).loc main_arg16) :=
  Eq.trans (W32_of_ne m ρ c main_arg16 (by decide))
    (Eq.trans (StableHlo.after_of_writes_sub (r := main_arg16) hostOps15 (W30 m ρ c) hostOps15_wsub (by decide))
    (Eq.trans (W30_of_ne m ρ c main_arg16 (by decide))
    (Eq.trans (StableHlo.after_of_writes_sub (r := main_arg16) hostOps14 (W28 m ρ c) hostOps14_wsub (by decide))
    (Eq.trans (W28_of_ne m ρ c main_arg16 (by decide))
    (Eq.trans (StableHlo.after_of_writes_sub (r := main_arg16) hostOps13 (W26 m ρ c) hostOps13_wsub (by decide))
    (Eq.trans (W26_of_ne m ρ c main_arg16 (by decide))
    (Eq.trans (StableHlo.after_of_writes_sub (r := main_arg16) hostOps12 (W24 m ρ c) hostOps12_wsub (by decide))
    (Eq.trans (W24_of_ne m ρ c main_arg16 (by decide))
    (Eq.trans (StableHlo.after_of_writes_sub (r := main_arg16) hostOps11 (W22 m ρ c) hostOps11_wsub (by decide))
    (Eq.trans (W22_of_ne m ρ c main_arg16 (by decide))
    (Eq.trans (StableHlo.after_of_writes_sub (r := main_arg16) hostOps10 (W20 m ρ c) hostOps10_wsub (by decide))
    (Eq.trans (W20_of_ne m ρ c main_arg16 (by decide))
    (Eq.trans (StableHlo.after_of_writes_sub (r := main_arg16) hostOps9 (W18 m ρ c) hostOps9_wsub (by decide))
    (Eq.trans (W18_of_ne m ρ c main_arg16 (by decide))
    (Eq.trans (StableHlo.after_of_writes_sub (r := main_arg16) hostOps8 (W16 m ρ c) hostOps8_wsub (by decide))
    (Eq.trans (W16_of_ne m ρ c main_arg16 (by decide))
    (Eq.trans (StableHlo.after_of_writes_sub (r := main_arg16) hostOps7 (W14 m ρ c) hostOps7_wsub (by decide))
    (Eq.trans (W14_of_ne m ρ c main_arg16 (by decide))
    (Eq.trans (StableHlo.after_of_writes_sub (r := main_arg16) hostOps6 (W12 m ρ c) hostOps6_wsub (by decide))
    (Eq.trans (W12_of_ne m ρ c main_arg16 (by decide))
    (Eq.trans (StableHlo.after_of_writes_sub (r := main_arg16) hostOps5 (W10 m ρ c) hostOps5_wsub (by decide))
    (Eq.trans (W10_of_ne m ρ c main_arg16 (by decide))
    (Eq.trans (StableHlo.after_of_writes_sub (r := main_arg16) hostOps4 (W8 m ρ c) hostOps4_wsub (by decide))
    (Eq.trans (W8_of_ne m ρ c main_arg16 (by decide))
    (Eq.trans (StableHlo.after_of_writes_sub (r := main_arg16) hostOps3 (W6 m ρ c) hostOps3_wsub (by decide))
    (Eq.trans (W6_of_ne m ρ c main_arg16 (by decide))
    (Eq.trans (StableHlo.after_of_writes_sub (r := main_arg16) hostOps2 (W4 m ρ c) hostOps2_wsub (by decide))
    (Eq.trans (W4_of_ne m ρ c main_arg16 (by decide))
    (Eq.trans (StableHlo.after_of_writes_sub (r := main_arg16) hostOps1 (W2 m ρ c) hostOps1_wsub (by decide))
    (Eq.trans (W2_of_ne m ρ c main_arg16 (by decide))
    (Eq.trans (StableHlo.after_of_writes_sub (r := main_arg16) hostOps0 (W0 m ρ c) hostOps0_wsub (by decide))
    (rfl))))))))))))))))))))))))))))))))

theorem kept17 (c : Dev nD) : W32 m ρ c (Proc.devRef .tc main_arg17) = m ((c : Thread nD τ).loc main_arg17) :=
  Eq.trans (W32_of_ne m ρ c main_arg17 (by decide))
    (Eq.trans (StableHlo.after_of_writes_sub (r := main_arg17) hostOps15 (W30 m ρ c) hostOps15_wsub (by decide))
    (Eq.trans (W30_of_ne m ρ c main_arg17 (by decide))
    (Eq.trans (StableHlo.after_of_writes_sub (r := main_arg17) hostOps14 (W28 m ρ c) hostOps14_wsub (by decide))
    (Eq.trans (W28_of_ne m ρ c main_arg17 (by decide))
    (Eq.trans (StableHlo.after_of_writes_sub (r := main_arg17) hostOps13 (W26 m ρ c) hostOps13_wsub (by decide))
    (Eq.trans (W26_of_ne m ρ c main_arg17 (by decide))
    (Eq.trans (StableHlo.after_of_writes_sub (r := main_arg17) hostOps12 (W24 m ρ c) hostOps12_wsub (by decide))
    (Eq.trans (W24_of_ne m ρ c main_arg17 (by decide))
    (Eq.trans (StableHlo.after_of_writes_sub (r := main_arg17) hostOps11 (W22 m ρ c) hostOps11_wsub (by decide))
    (Eq.trans (W22_of_ne m ρ c main_arg17 (by decide))
    (Eq.trans (StableHlo.after_of_writes_sub (r := main_arg17) hostOps10 (W20 m ρ c) hostOps10_wsub (by decide))
    (Eq.trans (W20_of_ne m ρ c main_arg17 (by decide))
    (Eq.trans (StableHlo.after_of_writes_sub (r := main_arg17) hostOps9 (W18 m ρ c) hostOps9_wsub (by decide))
    (Eq.trans (W18_of_ne m ρ c main_arg17 (by decide))
    (Eq.trans (StableHlo.after_of_writes_sub (r := main_arg17) hostOps8 (W16 m ρ c) hostOps8_wsub (by decide))
    (Eq.trans (W16_of_ne m ρ c main_arg17 (by decide))
    (Eq.trans (StableHlo.after_of_writes_sub (r := main_arg17) hostOps7 (W14 m ρ c) hostOps7_wsub (by decide))
    (Eq.trans (W14_of_ne m ρ c main_arg17 (by decide))
    (Eq.trans (StableHlo.after_of_writes_sub (r := main_arg17) hostOps6 (W12 m ρ c) hostOps6_wsub (by decide))
    (Eq.trans (W12_of_ne m ρ c main_arg17 (by decide))
    (Eq.trans (StableHlo.after_of_writes_sub (r := main_arg17) hostOps5 (W10 m ρ c) hostOps5_wsub (by decide))
    (Eq.trans (W10_of_ne m ρ c main_arg17 (by decide))
    (Eq.trans (StableHlo.after_of_writes_sub (r := main_arg17) hostOps4 (W8 m ρ c) hostOps4_wsub (by decide))
    (Eq.trans (W8_of_ne m ρ c main_arg17 (by decide))
    (Eq.trans (StableHlo.after_of_writes_sub (r := main_arg17) hostOps3 (W6 m ρ c) hostOps3_wsub (by decide))
    (Eq.trans (W6_of_ne m ρ c main_arg17 (by decide))
    (Eq.trans (StableHlo.after_of_writes_sub (r := main_arg17) hostOps2 (W4 m ρ c) hostOps2_wsub (by decide))
    (Eq.trans (W4_of_ne m ρ c main_arg17 (by decide))
    (Eq.trans (StableHlo.after_of_writes_sub (r := main_arg17) hostOps1 (W2 m ρ c) hostOps1_wsub (by decide))
    (Eq.trans (W2_of_ne m ρ c main_arg17 (by decide))
    (Eq.trans (StableHlo.after_of_writes_sub (r := main_arg17) hostOps0 (W0 m ρ c) hostOps0_wsub (by decide))
    (rfl))))))))))))))))))))))))))))))))

theorem kept18 (c : Dev nD) : W32 m ρ c (Proc.devRef .tc main_arg18) = m ((c : Thread nD τ).loc main_arg18) :=
  Eq.trans (W32_of_ne m ρ c main_arg18 (by decide))
    (Eq.trans (StableHlo.after_of_writes_sub (r := main_arg18) hostOps15 (W30 m ρ c) hostOps15_wsub (by decide))
    (Eq.trans (W30_of_ne m ρ c main_arg18 (by decide))
    (Eq.trans (StableHlo.after_of_writes_sub (r := main_arg18) hostOps14 (W28 m ρ c) hostOps14_wsub (by decide))
    (Eq.trans (W28_of_ne m ρ c main_arg18 (by decide))
    (Eq.trans (StableHlo.after_of_writes_sub (r := main_arg18) hostOps13 (W26 m ρ c) hostOps13_wsub (by decide))
    (Eq.trans (W26_of_ne m ρ c main_arg18 (by decide))
    (Eq.trans (StableHlo.after_of_writes_sub (r := main_arg18) hostOps12 (W24 m ρ c) hostOps12_wsub (by decide))
    (Eq.trans (W24_of_ne m ρ c main_arg18 (by decide))
    (Eq.trans (StableHlo.after_of_writes_sub (r := main_arg18) hostOps11 (W22 m ρ c) hostOps11_wsub (by decide))
    (Eq.trans (W22_of_ne m ρ c main_arg18 (by decide))
    (Eq.trans (StableHlo.after_of_writes_sub (r := main_arg18) hostOps10 (W20 m ρ c) hostOps10_wsub (by decide))
    (Eq.trans (W20_of_ne m ρ c main_arg18 (by decide))
    (Eq.trans (StableHlo.after_of_writes_sub (r := main_arg18) hostOps9 (W18 m ρ c) hostOps9_wsub (by decide))
    (Eq.trans (W18_of_ne m ρ c main_arg18 (by decide))
    (Eq.trans (StableHlo.after_of_writes_sub (r := main_arg18) hostOps8 (W16 m ρ c) hostOps8_wsub (by decide))
    (Eq.trans (W16_of_ne m ρ c main_arg18 (by decide))
    (Eq.trans (StableHlo.after_of_writes_sub (r := main_arg18) hostOps7 (W14 m ρ c) hostOps7_wsub (by decide))
    (Eq.trans (W14_of_ne m ρ c main_arg18 (by decide))
    (Eq.trans (StableHlo.after_of_writes_sub (r := main_arg18) hostOps6 (W12 m ρ c) hostOps6_wsub (by decide))
    (Eq.trans (W12_of_ne m ρ c main_arg18 (by decide))
    (Eq.trans (StableHlo.after_of_writes_sub (r := main_arg18) hostOps5 (W10 m ρ c) hostOps5_wsub (by decide))
    (Eq.trans (W10_of_ne m ρ c main_arg18 (by decide))
    (Eq.trans (StableHlo.after_of_writes_sub (r := main_arg18) hostOps4 (W8 m ρ c) hostOps4_wsub (by decide))
    (Eq.trans (W8_of_ne m ρ c main_arg18 (by decide))
    (Eq.trans (StableHlo.after_of_writes_sub (r := main_arg18) hostOps3 (W6 m ρ c) hostOps3_wsub (by decide))
    (Eq.trans (W6_of_ne m ρ c main_arg18 (by decide))
    (Eq.trans (StableHlo.after_of_writes_sub (r := main_arg18) hostOps2 (W4 m ρ c) hostOps2_wsub (by decide))
    (Eq.trans (W4_of_ne m ρ c main_arg18 (by decide))
    (Eq.trans (StableHlo.after_of_writes_sub (r := main_arg18) hostOps1 (W2 m ρ c) hostOps1_wsub (by decide))
    (Eq.trans (W2_of_ne m ρ c main_arg18 (by decide))
    (Eq.trans (StableHlo.after_of_writes_sub (r := main_arg18) hostOps0 (W0 m ρ c) hostOps0_wsub (by decide))
    (rfl))))))))))))))))))))))))))))))))

theorem kept19 (c : Dev nD) : W32 m ρ c (Proc.devRef .tc main_arg19) = m ((c : Thread nD τ).loc main_arg19) :=
  Eq.trans (W32_of_ne m ρ c main_arg19 (by decide))
    (Eq.trans (StableHlo.after_of_writes_sub (r := main_arg19) hostOps15 (W30 m ρ c) hostOps15_wsub (by decide))
    (Eq.trans (W30_of_ne m ρ c main_arg19 (by decide))
    (Eq.trans (StableHlo.after_of_writes_sub (r := main_arg19) hostOps14 (W28 m ρ c) hostOps14_wsub (by decide))
    (Eq.trans (W28_of_ne m ρ c main_arg19 (by decide))
    (Eq.trans (StableHlo.after_of_writes_sub (r := main_arg19) hostOps13 (W26 m ρ c) hostOps13_wsub (by decide))
    (Eq.trans (W26_of_ne m ρ c main_arg19 (by decide))
    (Eq.trans (StableHlo.after_of_writes_sub (r := main_arg19) hostOps12 (W24 m ρ c) hostOps12_wsub (by decide))
    (Eq.trans (W24_of_ne m ρ c main_arg19 (by decide))
    (Eq.trans (StableHlo.after_of_writes_sub (r := main_arg19) hostOps11 (W22 m ρ c) hostOps11_wsub (by decide))
    (Eq.trans (W22_of_ne m ρ c main_arg19 (by decide))
    (Eq.trans (StableHlo.after_of_writes_sub (r := main_arg19) hostOps10 (W20 m ρ c) hostOps10_wsub (by decide))
    (Eq.trans (W20_of_ne m ρ c main_arg19 (by decide))
    (Eq.trans (StableHlo.after_of_writes_sub (r := main_arg19) hostOps9 (W18 m ρ c) hostOps9_wsub (by decide))
    (Eq.trans (W18_of_ne m ρ c main_arg19 (by decide))
    (Eq.trans (StableHlo.after_of_writes_sub (r := main_arg19) hostOps8 (W16 m ρ c) hostOps8_wsub (by decide))
    (Eq.trans (W16_of_ne m ρ c main_arg19 (by decide))
    (Eq.trans (StableHlo.after_of_writes_sub (r := main_arg19) hostOps7 (W14 m ρ c) hostOps7_wsub (by decide))
    (Eq.trans (W14_of_ne m ρ c main_arg19 (by decide))
    (Eq.trans (StableHlo.after_of_writes_sub (r := main_arg19) hostOps6 (W12 m ρ c) hostOps6_wsub (by decide))
    (Eq.trans (W12_of_ne m ρ c main_arg19 (by decide))
    (Eq.trans (StableHlo.after_of_writes_sub (r := main_arg19) hostOps5 (W10 m ρ c) hostOps5_wsub (by decide))
    (Eq.trans (W10_of_ne m ρ c main_arg19 (by decide))
    (Eq.trans (StableHlo.after_of_writes_sub (r := main_arg19) hostOps4 (W8 m ρ c) hostOps4_wsub (by decide))
    (Eq.trans (W8_of_ne m ρ c main_arg19 (by decide))
    (Eq.trans (StableHlo.after_of_writes_sub (r := main_arg19) hostOps3 (W6 m ρ c) hostOps3_wsub (by decide))
    (Eq.trans (W6_of_ne m ρ c main_arg19 (by decide))
    (Eq.trans (StableHlo.after_of_writes_sub (r := main_arg19) hostOps2 (W4 m ρ c) hostOps2_wsub (by decide))
    (Eq.trans (W4_of_ne m ρ c main_arg19 (by decide))
    (Eq.trans (StableHlo.after_of_writes_sub (r := main_arg19) hostOps1 (W2 m ρ c) hostOps1_wsub (by decide))
    (Eq.trans (W2_of_ne m ρ c main_arg19 (by decide))
    (Eq.trans (StableHlo.after_of_writes_sub (r := main_arg19) hostOps0 (W0 m ρ c) hostOps0_wsub (by decide))
    (rfl))))))))))))))))))))))))))))))))

theorem kept20 (c : Dev nD) : W32 m ρ c (Proc.devRef .tc main_arg20) = m ((c : Thread nD τ).loc main_arg20) :=
  Eq.trans (W32_of_ne m ρ c main_arg20 (by decide))
    (Eq.trans (StableHlo.after_of_writes_sub (r := main_arg20) hostOps15 (W30 m ρ c) hostOps15_wsub (by decide))
    (Eq.trans (W30_of_ne m ρ c main_arg20 (by decide))
    (Eq.trans (StableHlo.after_of_writes_sub (r := main_arg20) hostOps14 (W28 m ρ c) hostOps14_wsub (by decide))
    (Eq.trans (W28_of_ne m ρ c main_arg20 (by decide))
    (Eq.trans (StableHlo.after_of_writes_sub (r := main_arg20) hostOps13 (W26 m ρ c) hostOps13_wsub (by decide))
    (Eq.trans (W26_of_ne m ρ c main_arg20 (by decide))
    (Eq.trans (StableHlo.after_of_writes_sub (r := main_arg20) hostOps12 (W24 m ρ c) hostOps12_wsub (by decide))
    (Eq.trans (W24_of_ne m ρ c main_arg20 (by decide))
    (Eq.trans (StableHlo.after_of_writes_sub (r := main_arg20) hostOps11 (W22 m ρ c) hostOps11_wsub (by decide))
    (Eq.trans (W22_of_ne m ρ c main_arg20 (by decide))
    (Eq.trans (StableHlo.after_of_writes_sub (r := main_arg20) hostOps10 (W20 m ρ c) hostOps10_wsub (by decide))
    (Eq.trans (W20_of_ne m ρ c main_arg20 (by decide))
    (Eq.trans (StableHlo.after_of_writes_sub (r := main_arg20) hostOps9 (W18 m ρ c) hostOps9_wsub (by decide))
    (Eq.trans (W18_of_ne m ρ c main_arg20 (by decide))
    (Eq.trans (StableHlo.after_of_writes_sub (r := main_arg20) hostOps8 (W16 m ρ c) hostOps8_wsub (by decide))
    (Eq.trans (W16_of_ne m ρ c main_arg20 (by decide))
    (Eq.trans (StableHlo.after_of_writes_sub (r := main_arg20) hostOps7 (W14 m ρ c) hostOps7_wsub (by decide))
    (Eq.trans (W14_of_ne m ρ c main_arg20 (by decide))
    (Eq.trans (StableHlo.after_of_writes_sub (r := main_arg20) hostOps6 (W12 m ρ c) hostOps6_wsub (by decide))
    (Eq.trans (W12_of_ne m ρ c main_arg20 (by decide))
    (Eq.trans (StableHlo.after_of_writes_sub (r := main_arg20) hostOps5 (W10 m ρ c) hostOps5_wsub (by decide))
    (Eq.trans (W10_of_ne m ρ c main_arg20 (by decide))
    (Eq.trans (StableHlo.after_of_writes_sub (r := main_arg20) hostOps4 (W8 m ρ c) hostOps4_wsub (by decide))
    (Eq.trans (W8_of_ne m ρ c main_arg20 (by decide))
    (Eq.trans (StableHlo.after_of_writes_sub (r := main_arg20) hostOps3 (W6 m ρ c) hostOps3_wsub (by decide))
    (Eq.trans (W6_of_ne m ρ c main_arg20 (by decide))
    (Eq.trans (StableHlo.after_of_writes_sub (r := main_arg20) hostOps2 (W4 m ρ c) hostOps2_wsub (by decide))
    (Eq.trans (W4_of_ne m ρ c main_arg20 (by decide))
    (Eq.trans (StableHlo.after_of_writes_sub (r := main_arg20) hostOps1 (W2 m ρ c) hostOps1_wsub (by decide))
    (Eq.trans (W2_of_ne m ρ c main_arg20 (by decide))
    (Eq.trans (StableHlo.after_of_writes_sub (r := main_arg20) hostOps0 (W0 m ρ c) hostOps0_wsub (by decide))
    (rfl))))))))))))))))))))))))))))))))

theorem kept21 (c : Dev nD) : W32 m ρ c (Proc.devRef .tc main_arg21) = m ((c : Thread nD τ).loc main_arg21) :=
  Eq.trans (W32_of_ne m ρ c main_arg21 (by decide))
    (Eq.trans (StableHlo.after_of_writes_sub (r := main_arg21) hostOps15 (W30 m ρ c) hostOps15_wsub (by decide))
    (Eq.trans (W30_of_ne m ρ c main_arg21 (by decide))
    (Eq.trans (StableHlo.after_of_writes_sub (r := main_arg21) hostOps14 (W28 m ρ c) hostOps14_wsub (by decide))
    (Eq.trans (W28_of_ne m ρ c main_arg21 (by decide))
    (Eq.trans (StableHlo.after_of_writes_sub (r := main_arg21) hostOps13 (W26 m ρ c) hostOps13_wsub (by decide))
    (Eq.trans (W26_of_ne m ρ c main_arg21 (by decide))
    (Eq.trans (StableHlo.after_of_writes_sub (r := main_arg21) hostOps12 (W24 m ρ c) hostOps12_wsub (by decide))
    (Eq.trans (W24_of_ne m ρ c main_arg21 (by decide))
    (Eq.trans (StableHlo.after_of_writes_sub (r := main_arg21) hostOps11 (W22 m ρ c) hostOps11_wsub (by decide))
    (Eq.trans (W22_of_ne m ρ c main_arg21 (by decide))
    (Eq.trans (StableHlo.after_of_writes_sub (r := main_arg21) hostOps10 (W20 m ρ c) hostOps10_wsub (by decide))
    (Eq.trans (W20_of_ne m ρ c main_arg21 (by decide))
    (Eq.trans (StableHlo.after_of_writes_sub (r := main_arg21) hostOps9 (W18 m ρ c) hostOps9_wsub (by decide))
    (Eq.trans (W18_of_ne m ρ c main_arg21 (by decide))
    (Eq.trans (StableHlo.after_of_writes_sub (r := main_arg21) hostOps8 (W16 m ρ c) hostOps8_wsub (by decide))
    (Eq.trans (W16_of_ne m ρ c main_arg21 (by decide))
    (Eq.trans (StableHlo.after_of_writes_sub (r := main_arg21) hostOps7 (W14 m ρ c) hostOps7_wsub (by decide))
    (Eq.trans (W14_of_ne m ρ c main_arg21 (by decide))
    (Eq.trans (StableHlo.after_of_writes_sub (r := main_arg21) hostOps6 (W12 m ρ c) hostOps6_wsub (by decide))
    (Eq.trans (W12_of_ne m ρ c main_arg21 (by decide))
    (Eq.trans (StableHlo.after_of_writes_sub (r := main_arg21) hostOps5 (W10 m ρ c) hostOps5_wsub (by decide))
    (Eq.trans (W10_of_ne m ρ c main_arg21 (by decide))
    (Eq.trans (StableHlo.after_of_writes_sub (r := main_arg21) hostOps4 (W8 m ρ c) hostOps4_wsub (by decide))
    (Eq.trans (W8_of_ne m ρ c main_arg21 (by decide))
    (Eq.trans (StableHlo.after_of_writes_sub (r := main_arg21) hostOps3 (W6 m ρ c) hostOps3_wsub (by decide))
    (Eq.trans (W6_of_ne m ρ c main_arg21 (by decide))
    (Eq.trans (StableHlo.after_of_writes_sub (r := main_arg21) hostOps2 (W4 m ρ c) hostOps2_wsub (by decide))
    (Eq.trans (W4_of_ne m ρ c main_arg21 (by decide))
    (Eq.trans (StableHlo.after_of_writes_sub (r := main_arg21) hostOps1 (W2 m ρ c) hostOps1_wsub (by decide))
    (Eq.trans (W2_of_ne m ρ c main_arg21 (by decide))
    (Eq.trans (StableHlo.after_of_writes_sub (r := main_arg21) hostOps0 (W0 m ρ c) hostOps0_wsub (by decide))
    (rfl))))))))))))))))))))))))))))))))

theorem kept22 (c : Dev nD) : W32 m ρ c (Proc.devRef .tc main_arg22) = m ((c : Thread nD τ).loc main_arg22) :=
  Eq.trans (W32_of_ne m ρ c main_arg22 (by decide))
    (Eq.trans (StableHlo.after_of_writes_sub (r := main_arg22) hostOps15 (W30 m ρ c) hostOps15_wsub (by decide))
    (Eq.trans (W30_of_ne m ρ c main_arg22 (by decide))
    (Eq.trans (StableHlo.after_of_writes_sub (r := main_arg22) hostOps14 (W28 m ρ c) hostOps14_wsub (by decide))
    (Eq.trans (W28_of_ne m ρ c main_arg22 (by decide))
    (Eq.trans (StableHlo.after_of_writes_sub (r := main_arg22) hostOps13 (W26 m ρ c) hostOps13_wsub (by decide))
    (Eq.trans (W26_of_ne m ρ c main_arg22 (by decide))
    (Eq.trans (StableHlo.after_of_writes_sub (r := main_arg22) hostOps12 (W24 m ρ c) hostOps12_wsub (by decide))
    (Eq.trans (W24_of_ne m ρ c main_arg22 (by decide))
    (Eq.trans (StableHlo.after_of_writes_sub (r := main_arg22) hostOps11 (W22 m ρ c) hostOps11_wsub (by decide))
    (Eq.trans (W22_of_ne m ρ c main_arg22 (by decide))
    (Eq.trans (StableHlo.after_of_writes_sub (r := main_arg22) hostOps10 (W20 m ρ c) hostOps10_wsub (by decide))
    (Eq.trans (W20_of_ne m ρ c main_arg22 (by decide))
    (Eq.trans (StableHlo.after_of_writes_sub (r := main_arg22) hostOps9 (W18 m ρ c) hostOps9_wsub (by decide))
    (Eq.trans (W18_of_ne m ρ c main_arg22 (by decide))
    (Eq.trans (StableHlo.after_of_writes_sub (r := main_arg22) hostOps8 (W16 m ρ c) hostOps8_wsub (by decide))
    (Eq.trans (W16_of_ne m ρ c main_arg22 (by decide))
    (Eq.trans (StableHlo.after_of_writes_sub (r := main_arg22) hostOps7 (W14 m ρ c) hostOps7_wsub (by decide))
    (Eq.trans (W14_of_ne m ρ c main_arg22 (by decide))
    (Eq.trans (StableHlo.after_of_writes_sub (r := main_arg22) hostOps6 (W12 m ρ c) hostOps6_wsub (by decide))
    (Eq.trans (W12_of_ne m ρ c main_arg22 (by decide))
    (Eq.trans (StableHlo.after_of_writes_sub (r := main_arg22) hostOps5 (W10 m ρ c) hostOps5_wsub (by decide))
    (Eq.trans (W10_of_ne m ρ c main_arg22 (by decide))
    (Eq.trans (StableHlo.after_of_writes_sub (r := main_arg22) hostOps4 (W8 m ρ c) hostOps4_wsub (by decide))
    (Eq.trans (W8_of_ne m ρ c main_arg22 (by decide))
    (Eq.trans (StableHlo.after_of_writes_sub (r := main_arg22) hostOps3 (W6 m ρ c) hostOps3_wsub (by decide))
    (Eq.trans (W6_of_ne m ρ c main_arg22 (by decide))
    (Eq.trans (StableHlo.after_of_writes_sub (r := main_arg22) hostOps2 (W4 m ρ c) hostOps2_wsub (by decide))
    (Eq.trans (W4_of_ne m ρ c main_arg22 (by decide))
    (Eq.trans (StableHlo.after_of_writes_sub (r := main_arg22) hostOps1 (W2 m ρ c) hostOps1_wsub (by decide))
    (Eq.trans (W2_of_ne m ρ c main_arg22 (by decide))
    (Eq.trans (StableHlo.after_of_writes_sub (r := main_arg22) hostOps0 (W0 m ρ c) hostOps0_wsub (by decide))
    (rfl))))))))))))))))))))))))))))))))

theorem kept23 (c : Dev nD) : W32 m ρ c (Proc.devRef .tc main_arg23) = m ((c : Thread nD τ).loc main_arg23) :=
  Eq.trans (W32_of_ne m ρ c main_arg23 (by decide))
    (Eq.trans (StableHlo.after_of_writes_sub (r := main_arg23) hostOps15 (W30 m ρ c) hostOps15_wsub (by decide))
    (Eq.trans (W30_of_ne m ρ c main_arg23 (by decide))
    (Eq.trans (StableHlo.after_of_writes_sub (r := main_arg23) hostOps14 (W28 m ρ c) hostOps14_wsub (by decide))
    (Eq.trans (W28_of_ne m ρ c main_arg23 (by decide))
    (Eq.trans (StableHlo.after_of_writes_sub (r := main_arg23) hostOps13 (W26 m ρ c) hostOps13_wsub (by decide))
    (Eq.trans (W26_of_ne m ρ c main_arg23 (by decide))
    (Eq.trans (StableHlo.after_of_writes_sub (r := main_arg23) hostOps12 (W24 m ρ c) hostOps12_wsub (by decide))
    (Eq.trans (W24_of_ne m ρ c main_arg23 (by decide))
    (Eq.trans (StableHlo.after_of_writes_sub (r := main_arg23) hostOps11 (W22 m ρ c) hostOps11_wsub (by decide))
    (Eq.trans (W22_of_ne m ρ c main_arg23 (by decide))
    (Eq.trans (StableHlo.after_of_writes_sub (r := main_arg23) hostOps10 (W20 m ρ c) hostOps10_wsub (by decide))
    (Eq.trans (W20_of_ne m ρ c main_arg23 (by decide))
    (Eq.trans (StableHlo.after_of_writes_sub (r := main_arg23) hostOps9 (W18 m ρ c) hostOps9_wsub (by decide))
    (Eq.trans (W18_of_ne m ρ c main_arg23 (by decide))
    (Eq.trans (StableHlo.after_of_writes_sub (r := main_arg23) hostOps8 (W16 m ρ c) hostOps8_wsub (by decide))
    (Eq.trans (W16_of_ne m ρ c main_arg23 (by decide))
    (Eq.trans (StableHlo.after_of_writes_sub (r := main_arg23) hostOps7 (W14 m ρ c) hostOps7_wsub (by decide))
    (Eq.trans (W14_of_ne m ρ c main_arg23 (by decide))
    (Eq.trans (StableHlo.after_of_writes_sub (r := main_arg23) hostOps6 (W12 m ρ c) hostOps6_wsub (by decide))
    (Eq.trans (W12_of_ne m ρ c main_arg23 (by decide))
    (Eq.trans (StableHlo.after_of_writes_sub (r := main_arg23) hostOps5 (W10 m ρ c) hostOps5_wsub (by decide))
    (Eq.trans (W10_of_ne m ρ c main_arg23 (by decide))
    (Eq.trans (StableHlo.after_of_writes_sub (r := main_arg23) hostOps4 (W8 m ρ c) hostOps4_wsub (by decide))
    (Eq.trans (W8_of_ne m ρ c main_arg23 (by decide))
    (Eq.trans (StableHlo.after_of_writes_sub (r := main_arg23) hostOps3 (W6 m ρ c) hostOps3_wsub (by decide))
    (Eq.trans (W6_of_ne m ρ c main_arg23 (by decide))
    (Eq.trans (StableHlo.after_of_writes_sub (r := main_arg23) hostOps2 (W4 m ρ c) hostOps2_wsub (by decide))
    (Eq.trans (W4_of_ne m ρ c main_arg23 (by decide))
    (Eq.trans (StableHlo.after_of_writes_sub (r := main_arg23) hostOps1 (W2 m ρ c) hostOps1_wsub (by decide))
    (Eq.trans (W2_of_ne m ρ c main_arg23 (by decide))
    (Eq.trans (StableHlo.after_of_writes_sub (r := main_arg23) hostOps0 (W0 m ρ c) hostOps0_wsub (by decide))
    (rfl))))))))))))))))))))))))))))))))

theorem kept24 (c : Dev nD) : W32 m ρ c (Proc.devRef .tc main_arg24) = m ((c : Thread nD τ).loc main_arg24) :=
  Eq.trans (W32_of_ne m ρ c main_arg24 (by decide))
    (Eq.trans (StableHlo.after_of_writes_sub (r := main_arg24) hostOps15 (W30 m ρ c) hostOps15_wsub (by decide))
    (Eq.trans (W30_of_ne m ρ c main_arg24 (by decide))
    (Eq.trans (StableHlo.after_of_writes_sub (r := main_arg24) hostOps14 (W28 m ρ c) hostOps14_wsub (by decide))
    (Eq.trans (W28_of_ne m ρ c main_arg24 (by decide))
    (Eq.trans (StableHlo.after_of_writes_sub (r := main_arg24) hostOps13 (W26 m ρ c) hostOps13_wsub (by decide))
    (Eq.trans (W26_of_ne m ρ c main_arg24 (by decide))
    (Eq.trans (StableHlo.after_of_writes_sub (r := main_arg24) hostOps12 (W24 m ρ c) hostOps12_wsub (by decide))
    (Eq.trans (W24_of_ne m ρ c main_arg24 (by decide))
    (Eq.trans (StableHlo.after_of_writes_sub (r := main_arg24) hostOps11 (W22 m ρ c) hostOps11_wsub (by decide))
    (Eq.trans (W22_of_ne m ρ c main_arg24 (by decide))
    (Eq.trans (StableHlo.after_of_writes_sub (r := main_arg24) hostOps10 (W20 m ρ c) hostOps10_wsub (by decide))
    (Eq.trans (W20_of_ne m ρ c main_arg24 (by decide))
    (Eq.trans (StableHlo.after_of_writes_sub (r := main_arg24) hostOps9 (W18 m ρ c) hostOps9_wsub (by decide))
    (Eq.trans (W18_of_ne m ρ c main_arg24 (by decide))
    (Eq.trans (StableHlo.after_of_writes_sub (r := main_arg24) hostOps8 (W16 m ρ c) hostOps8_wsub (by decide))
    (Eq.trans (W16_of_ne m ρ c main_arg24 (by decide))
    (Eq.trans (StableHlo.after_of_writes_sub (r := main_arg24) hostOps7 (W14 m ρ c) hostOps7_wsub (by decide))
    (Eq.trans (W14_of_ne m ρ c main_arg24 (by decide))
    (Eq.trans (StableHlo.after_of_writes_sub (r := main_arg24) hostOps6 (W12 m ρ c) hostOps6_wsub (by decide))
    (Eq.trans (W12_of_ne m ρ c main_arg24 (by decide))
    (Eq.trans (StableHlo.after_of_writes_sub (r := main_arg24) hostOps5 (W10 m ρ c) hostOps5_wsub (by decide))
    (Eq.trans (W10_of_ne m ρ c main_arg24 (by decide))
    (Eq.trans (StableHlo.after_of_writes_sub (r := main_arg24) hostOps4 (W8 m ρ c) hostOps4_wsub (by decide))
    (Eq.trans (W8_of_ne m ρ c main_arg24 (by decide))
    (Eq.trans (StableHlo.after_of_writes_sub (r := main_arg24) hostOps3 (W6 m ρ c) hostOps3_wsub (by decide))
    (Eq.trans (W6_of_ne m ρ c main_arg24 (by decide))
    (Eq.trans (StableHlo.after_of_writes_sub (r := main_arg24) hostOps2 (W4 m ρ c) hostOps2_wsub (by decide))
    (Eq.trans (W4_of_ne m ρ c main_arg24 (by decide))
    (Eq.trans (StableHlo.after_of_writes_sub (r := main_arg24) hostOps1 (W2 m ρ c) hostOps1_wsub (by decide))
    (Eq.trans (W2_of_ne m ρ c main_arg24 (by decide))
    (Eq.trans (StableHlo.after_of_writes_sub (r := main_arg24) hostOps0 (W0 m ρ c) hostOps0_wsub (by decide))
    (rfl))))))))))))))))))))))))))))))))

theorem kept25 (c : Dev nD) : W32 m ρ c (Proc.devRef .tc main_arg25) = m ((c : Thread nD τ).loc main_arg25) :=
  Eq.trans (W32_of_ne m ρ c main_arg25 (by decide))
    (Eq.trans (StableHlo.after_of_writes_sub (r := main_arg25) hostOps15 (W30 m ρ c) hostOps15_wsub (by decide))
    (Eq.trans (W30_of_ne m ρ c main_arg25 (by decide))
    (Eq.trans (StableHlo.after_of_writes_sub (r := main_arg25) hostOps14 (W28 m ρ c) hostOps14_wsub (by decide))
    (Eq.trans (W28_of_ne m ρ c main_arg25 (by decide))
    (Eq.trans (StableHlo.after_of_writes_sub (r := main_arg25) hostOps13 (W26 m ρ c) hostOps13_wsub (by decide))
    (Eq.trans (W26_of_ne m ρ c main_arg25 (by decide))
    (Eq.trans (StableHlo.after_of_writes_sub (r := main_arg25) hostOps12 (W24 m ρ c) hostOps12_wsub (by decide))
    (Eq.trans (W24_of_ne m ρ c main_arg25 (by decide))
    (Eq.trans (StableHlo.after_of_writes_sub (r := main_arg25) hostOps11 (W22 m ρ c) hostOps11_wsub (by decide))
    (Eq.trans (W22_of_ne m ρ c main_arg25 (by decide))
    (Eq.trans (StableHlo.after_of_writes_sub (r := main_arg25) hostOps10 (W20 m ρ c) hostOps10_wsub (by decide))
    (Eq.trans (W20_of_ne m ρ c main_arg25 (by decide))
    (Eq.trans (StableHlo.after_of_writes_sub (r := main_arg25) hostOps9 (W18 m ρ c) hostOps9_wsub (by decide))
    (Eq.trans (W18_of_ne m ρ c main_arg25 (by decide))
    (Eq.trans (StableHlo.after_of_writes_sub (r := main_arg25) hostOps8 (W16 m ρ c) hostOps8_wsub (by decide))
    (Eq.trans (W16_of_ne m ρ c main_arg25 (by decide))
    (Eq.trans (StableHlo.after_of_writes_sub (r := main_arg25) hostOps7 (W14 m ρ c) hostOps7_wsub (by decide))
    (Eq.trans (W14_of_ne m ρ c main_arg25 (by decide))
    (Eq.trans (StableHlo.after_of_writes_sub (r := main_arg25) hostOps6 (W12 m ρ c) hostOps6_wsub (by decide))
    (Eq.trans (W12_of_ne m ρ c main_arg25 (by decide))
    (Eq.trans (StableHlo.after_of_writes_sub (r := main_arg25) hostOps5 (W10 m ρ c) hostOps5_wsub (by decide))
    (Eq.trans (W10_of_ne m ρ c main_arg25 (by decide))
    (Eq.trans (StableHlo.after_of_writes_sub (r := main_arg25) hostOps4 (W8 m ρ c) hostOps4_wsub (by decide))
    (Eq.trans (W8_of_ne m ρ c main_arg25 (by decide))
    (Eq.trans (StableHlo.after_of_writes_sub (r := main_arg25) hostOps3 (W6 m ρ c) hostOps3_wsub (by decide))
    (Eq.trans (W6_of_ne m ρ c main_arg25 (by decide))
    (Eq.trans (StableHlo.after_of_writes_sub (r := main_arg25) hostOps2 (W4 m ρ c) hostOps2_wsub (by decide))
    (Eq.trans (W4_of_ne m ρ c main_arg25 (by decide))
    (Eq.trans (StableHlo.after_of_writes_sub (r := main_arg25) hostOps1 (W2 m ρ c) hostOps1_wsub (by decide))
    (Eq.trans (W2_of_ne m ρ c main_arg25 (by decide))
    (Eq.trans (StableHlo.after_of_writes_sub (r := main_arg25) hostOps0 (W0 m ρ c) hostOps0_wsub (by decide))
    (rfl))))))))))))))))))))))))))))))))

theorem kept26 (c : Dev nD) : W32 m ρ c (Proc.devRef .tc main_arg26) = m ((c : Thread nD τ).loc main_arg26) :=
  Eq.trans (W32_of_ne m ρ c main_arg26 (by decide))
    (Eq.trans (StableHlo.after_of_writes_sub (r := main_arg26) hostOps15 (W30 m ρ c) hostOps15_wsub (by decide))
    (Eq.trans (W30_of_ne m ρ c main_arg26 (by decide))
    (Eq.trans (StableHlo.after_of_writes_sub (r := main_arg26) hostOps14 (W28 m ρ c) hostOps14_wsub (by decide))
    (Eq.trans (W28_of_ne m ρ c main_arg26 (by decide))
    (Eq.trans (StableHlo.after_of_writes_sub (r := main_arg26) hostOps13 (W26 m ρ c) hostOps13_wsub (by decide))
    (Eq.trans (W26_of_ne m ρ c main_arg26 (by decide))
    (Eq.trans (StableHlo.after_of_writes_sub (r := main_arg26) hostOps12 (W24 m ρ c) hostOps12_wsub (by decide))
    (Eq.trans (W24_of_ne m ρ c main_arg26 (by decide))
    (Eq.trans (StableHlo.after_of_writes_sub (r := main_arg26) hostOps11 (W22 m ρ c) hostOps11_wsub (by decide))
    (Eq.trans (W22_of_ne m ρ c main_arg26 (by decide))
    (Eq.trans (StableHlo.after_of_writes_sub (r := main_arg26) hostOps10 (W20 m ρ c) hostOps10_wsub (by decide))
    (Eq.trans (W20_of_ne m ρ c main_arg26 (by decide))
    (Eq.trans (StableHlo.after_of_writes_sub (r := main_arg26) hostOps9 (W18 m ρ c) hostOps9_wsub (by decide))
    (Eq.trans (W18_of_ne m ρ c main_arg26 (by decide))
    (Eq.trans (StableHlo.after_of_writes_sub (r := main_arg26) hostOps8 (W16 m ρ c) hostOps8_wsub (by decide))
    (Eq.trans (W16_of_ne m ρ c main_arg26 (by decide))
    (Eq.trans (StableHlo.after_of_writes_sub (r := main_arg26) hostOps7 (W14 m ρ c) hostOps7_wsub (by decide))
    (Eq.trans (W14_of_ne m ρ c main_arg26 (by decide))
    (Eq.trans (StableHlo.after_of_writes_sub (r := main_arg26) hostOps6 (W12 m ρ c) hostOps6_wsub (by decide))
    (Eq.trans (W12_of_ne m ρ c main_arg26 (by decide))
    (Eq.trans (StableHlo.after_of_writes_sub (r := main_arg26) hostOps5 (W10 m ρ c) hostOps5_wsub (by decide))
    (Eq.trans (W10_of_ne m ρ c main_arg26 (by decide))
    (Eq.trans (StableHlo.after_of_writes_sub (r := main_arg26) hostOps4 (W8 m ρ c) hostOps4_wsub (by decide))
    (Eq.trans (W8_of_ne m ρ c main_arg26 (by decide))
    (Eq.trans (StableHlo.after_of_writes_sub (r := main_arg26) hostOps3 (W6 m ρ c) hostOps3_wsub (by decide))
    (Eq.trans (W6_of_ne m ρ c main_arg26 (by decide))
    (Eq.trans (StableHlo.after_of_writes_sub (r := main_arg26) hostOps2 (W4 m ρ c) hostOps2_wsub (by decide))
    (Eq.trans (W4_of_ne m ρ c main_arg26 (by decide))
    (Eq.trans (StableHlo.after_of_writes_sub (r := main_arg26) hostOps1 (W2 m ρ c) hostOps1_wsub (by decide))
    (Eq.trans (W2_of_ne m ρ c main_arg26 (by decide))
    (Eq.trans (StableHlo.after_of_writes_sub (r := main_arg26) hostOps0 (W0 m ρ c) hostOps0_wsub (by decide))
    (rfl))))))))))))))))))))))))))))))))

theorem kept27 (c : Dev nD) : W32 m ρ c (Proc.devRef .tc main_arg27) = m ((c : Thread nD τ).loc main_arg27) :=
  Eq.trans (W32_of_ne m ρ c main_arg27 (by decide))
    (Eq.trans (StableHlo.after_of_writes_sub (r := main_arg27) hostOps15 (W30 m ρ c) hostOps15_wsub (by decide))
    (Eq.trans (W30_of_ne m ρ c main_arg27 (by decide))
    (Eq.trans (StableHlo.after_of_writes_sub (r := main_arg27) hostOps14 (W28 m ρ c) hostOps14_wsub (by decide))
    (Eq.trans (W28_of_ne m ρ c main_arg27 (by decide))
    (Eq.trans (StableHlo.after_of_writes_sub (r := main_arg27) hostOps13 (W26 m ρ c) hostOps13_wsub (by decide))
    (Eq.trans (W26_of_ne m ρ c main_arg27 (by decide))
    (Eq.trans (StableHlo.after_of_writes_sub (r := main_arg27) hostOps12 (W24 m ρ c) hostOps12_wsub (by decide))
    (Eq.trans (W24_of_ne m ρ c main_arg27 (by decide))
    (Eq.trans (StableHlo.after_of_writes_sub (r := main_arg27) hostOps11 (W22 m ρ c) hostOps11_wsub (by decide))
    (Eq.trans (W22_of_ne m ρ c main_arg27 (by decide))
    (Eq.trans (StableHlo.after_of_writes_sub (r := main_arg27) hostOps10 (W20 m ρ c) hostOps10_wsub (by decide))
    (Eq.trans (W20_of_ne m ρ c main_arg27 (by decide))
    (Eq.trans (StableHlo.after_of_writes_sub (r := main_arg27) hostOps9 (W18 m ρ c) hostOps9_wsub (by decide))
    (Eq.trans (W18_of_ne m ρ c main_arg27 (by decide))
    (Eq.trans (StableHlo.after_of_writes_sub (r := main_arg27) hostOps8 (W16 m ρ c) hostOps8_wsub (by decide))
    (Eq.trans (W16_of_ne m ρ c main_arg27 (by decide))
    (Eq.trans (StableHlo.after_of_writes_sub (r := main_arg27) hostOps7 (W14 m ρ c) hostOps7_wsub (by decide))
    (Eq.trans (W14_of_ne m ρ c main_arg27 (by decide))
    (Eq.trans (StableHlo.after_of_writes_sub (r := main_arg27) hostOps6 (W12 m ρ c) hostOps6_wsub (by decide))
    (Eq.trans (W12_of_ne m ρ c main_arg27 (by decide))
    (Eq.trans (StableHlo.after_of_writes_sub (r := main_arg27) hostOps5 (W10 m ρ c) hostOps5_wsub (by decide))
    (Eq.trans (W10_of_ne m ρ c main_arg27 (by decide))
    (Eq.trans (StableHlo.after_of_writes_sub (r := main_arg27) hostOps4 (W8 m ρ c) hostOps4_wsub (by decide))
    (Eq.trans (W8_of_ne m ρ c main_arg27 (by decide))
    (Eq.trans (StableHlo.after_of_writes_sub (r := main_arg27) hostOps3 (W6 m ρ c) hostOps3_wsub (by decide))
    (Eq.trans (W6_of_ne m ρ c main_arg27 (by decide))
    (Eq.trans (StableHlo.after_of_writes_sub (r := main_arg27) hostOps2 (W4 m ρ c) hostOps2_wsub (by decide))
    (Eq.trans (W4_of_ne m ρ c main_arg27 (by decide))
    (Eq.trans (StableHlo.after_of_writes_sub (r := main_arg27) hostOps1 (W2 m ρ c) hostOps1_wsub (by decide))
    (Eq.trans (W2_of_ne m ρ c main_arg27 (by decide))
    (Eq.trans (StableHlo.after_of_writes_sub (r := main_arg27) hostOps0 (W0 m ρ c) hostOps0_wsub (by decide))
    (rfl))))))))))))))))))))))))))))))))

end Cert.Kernel.Hand

end
-- ==== Proof.K.Frame.lean ====
import proofs.«126569_j1468878815453_1_alg».proof.Proof.K.Run
import proofs.«126569_j1468878815453_1_alg».proof.Proof.K.Kept

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters every weakly fair execution of @main terminates, nothing faulting, and the argument
    arrays end as launched: the run's last boundary contents read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c =>
    ⟨(h c _ (mem_uc main_arg0 (by decide))).trans (kept0 m ρ c),
      (h c _ (mem_uc main_arg1 (by decide))).trans (kept1 m ρ c),
      (h c _ (mem_uc main_arg2 (by decide))).trans (kept2 m ρ c),
      (h c _ (mem_uc main_arg3 (by decide))).trans (kept3 m ρ c),
      (h c _ (mem_uc main_arg4 (by decide))).trans (kept4 m ρ c),
      (h c _ (mem_uc main_arg5 (by decide))).trans (kept5 m ρ c),
      (h c _ (mem_uc main_arg6 (by decide))).trans (kept6 m ρ c),
      (h c _ (mem_uc main_arg7 (by decide))).trans (kept7 m ρ c),
      (h c _ (mem_uc main_arg8 (by decide))).trans (kept8 m ρ c),
      (h c _ (mem_uc main_arg9 (by decide))).trans (kept9 m ρ c),
      (h c _ (mem_uc main_arg10 (by decide))).trans (kept10 m ρ c),
      (h c _ (mem_uc main_arg11 (by decide))).trans (kept11 m ρ c),
      (h c _ (mem_uc main_arg12 (by decide))).trans (kept12 m ρ c),
      (h c _ (mem_uc main_arg13 (by decide))).trans (kept13 m ρ c),
      (h c _ (mem_uc main_arg14 (by decide))).trans (kept14 m ρ c),
      (h c _ (mem_uc main_arg15 (by decide))).trans (kept15 m ρ c),
      (h c _ (mem_uc main_arg16 (by decide))).trans (kept16 m ρ c),
      (h c _ (mem_uc main_arg17 (by decide))).trans (kept17 m ρ c),
      (h c _ (mem_uc main_arg18 (by decide))).trans (kept18 m ρ c),
      (h c _ (mem_uc main_arg19 (by decide))).trans (kept19 m ρ c),
      (h c _ (mem_uc main_arg20 (by decide))).trans (kept20 m ρ c),
      (h c _ (mem_uc main_arg21 (by decide))).trans (kept21 m ρ c),
      (h c _ (mem_uc main_arg22 (by decide))).trans (kept22 m ρ c),
      (h c _ (mem_uc main_arg23 (by decide))).trans (kept23 m ρ c),
      (h c _ (mem_uc main_arg24 (by decide))).trans (kept24 m ρ c),
      (h c _ (mem_uc main_arg25 (by decide))).trans (kept25 m ρ c),
      (h c _ (mem_uc main_arg26 (by decide))).trans (kept26 m ρ c),
      (h c _ (mem_uc main_arg27 (by decide))).trans (kept27 m ρ c)⟩) (run_all m ρ)

end Cert.Kernel.Hand

end
-- ==== Proof.KI.Reg0Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: custom call 0, the layer-1 combine of one node type, at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    block index does not move is fetched at the first point only and keeps its block), for any proof data whose
    array is `V`'s and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the first `scf.if` (the accumulators' reset), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the second `scf.if` (the statistics' write-out). -/
abbrev cond0_1 (i : grid0.Coords) : Prop := k0_cond2 i = 1#1
/-- It holds at the last point only. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- Output 9 is stored at every point. -/
theorem liveAt0_9 : ∀ t : Fin cfg0.N, cfg0.idle 9 (grid0.coords t) = false := by decide +kernel
/-- Outputs 10 and 11 are stored at the last point only: elsewhere idle and not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The staging and scratch memrefs -/

/-- One staging buffer of each output window, through which its contents are stated (the choice does not matter). -/
noncomputable abbrev VO0_9 : View sig .tc .vmem S1000x256 .f32 := (Memref.whole cc0_stg9_0 : Memref sig .tc .vmem S1000x256 .f32).view
noncomputable abbrev VO0_10 : View sig .tc .vmem S1x256 .f32 := (Memref.whole cc0_stg10_0 : Memref sig .tc .vmem S1x256 .f32).view
noncomputable abbrev VO0_11 : View sig .tc .vmem S1x256 .f32 := (Memref.whole cc0_stg11_0 : Memref sig .tc .vmem S1x256 .f32).view
/-- Each window's current staging memref at point `t`, spelled as the pipeline passes it, and its wholeness. -/
noncomputable abbrev ms0_0 (t : Fin cfg0.N) : Memref sig .tc .vmem S1000x128 .f32 := win0_0.stage (cfg0.slots t 0)
noncomputable abbrev hs0_0 (t : Fin cfg0.N) : (ms0_0 t).IsWhole := hstage0_0 ((cfg0.slots t 0).cast nbuf0_0)
noncomputable abbrev ms0_1 (t : Fin cfg0.N) : Memref sig .tc .vmem S1000x128 .f32 := win0_1.stage (cfg0.slots t 1)
noncomputable abbrev hs0_1 (t : Fin cfg0.N) : (ms0_1 t).IsWhole := hstage0_1 ((cfg0.slots t 1).cast nbuf0_1)
noncomputable abbrev ms0_2 (t : Fin cfg0.N) : Memref sig .tc .vmem S1000x128 .f32 := win0_2.stage (cfg0.slots t 2)
noncomputable abbrev hs0_2 (t : Fin cfg0.N) : (ms0_2 t).IsWhole := hstage0_2 ((cfg0.slots t 2).cast nbuf0_2)
noncomputable abbrev ms0_3 (t : Fin cfg0.N) : Memref sig .tc .vmem S128x256 .f32 := win0_3.stage (cfg0.slots t 3)
noncomputable abbrev hs0_3 (t : Fin cfg0.N) : (ms0_3 t).IsWhole := hstage0_3 ((cfg0.slots t 3).cast nbuf0_3)
noncomputable abbrev ms0_4 (t : Fin cfg0.N) : Memref sig .tc .vmem S128x256 .f32 := win0_4.stage (cfg0.slots t 4)
noncomputable abbrev hs0_4 (t : Fin cfg0.N) : (ms0_4 t).IsWhole := hstage0_4 ((cfg0.slots t 4).cast nbuf0_4)
noncomputable abbrev ms0_5 (t : Fin cfg0.N) : Memref sig .tc .vmem S128x256 .f32 := win0_5.stage (cfg0.slots t 5)
noncomputable abbrev hs0_5 (t : Fin cfg0.N) : (ms0_5 t).IsWhole := hstage0_5 ((cfg0.slots t 5).cast nbuf0_5)
noncomputable abbrev ms0_6 (t : Fin cfg0.N) : Memref sig .tc .vmem S128x256 .f32 := win0_6.stage (cfg0.slots t 6)
noncomputable abbrev hs0_6 (t : Fin cfg0.N) : (ms0_6 t).IsWhole := hstage0_6 ((cfg0.slots t 6).cast nbuf0_6)
noncomputable abbrev ms0_7 (t : Fin cfg0.N) : Memref sig .tc .vmem S1x256 .f32 := win0_7.stage (cfg0.slots t 7)
noncomputable abbrev hs0_7 (t : Fin cfg0.N) : (ms0_7 t).IsWhole := hstage0_7 ((cfg0.slots t 7).cast nbuf0_7)
noncomputable abbrev ms0_8 (t : Fin cfg0.N) : Memref sig .tc .vmem S1x256 .f32 := win0_8.stage (cfg0.slots t 8)
noncomputable abbrev hs0_8 (t : Fin cfg0.N) : (ms0_8 t).IsWhole := hstage0_8 ((cfg0.slots t 8).cast nbuf0_8)
noncomputable abbrev ms0_9 (t : Fin cfg0.N) : Memref sig .tc .vmem S1000x256 .f32 := win0_9.stage (cfg0.slots t 9)
noncomputable abbrev hs0_9 (t : Fin cfg0.N) : (ms0_9 t).IsWhole := hstage0_9 ((cfg0.slots t 9).cast nbuf0_9)
noncomputable abbrev ms0_10 (t : Fin cfg0.N) : Memref sig .tc .vmem S1x256 .f32 := win0_10.stage (cfg0.slots t 10)
noncomputable abbrev hs0_10 (t : Fin cfg0.N) : (ms0_10 t).IsWhole := hstage0_10 ((cfg0.slots t 10).cast nbuf0_10)
noncomputable abbrev ms0_11 (t : Fin cfg0.N) : Memref sig .tc .vmem S1x256 .f32 := win0_11.stage (cfg0.slots t 11)
noncomputable abbrev hs0_11 (t : Fin cfg0.N) : (ms0_11 t).IsWhole := hstage0_11 ((cfg0.slots t 11).cast nbuf0_11)
/-- The two scratch operands: whole scoped buffers of the kernel's own, passed beside the windows. -/
noncomputable abbrev scM0_0 : Memref sig .tc .vmem S1x256 .f32 := Memref.whole cc0_scratch0
noncomputable abbrev scM0_1 : Memref sig .tc .vmem S1x256 .f32 := Memref.whole cc0_scratch1
/-- The scratch accumulators the kernel carries between points, as views: what they hold is stated through them. -/
noncomputable abbrev VS0_0 : View sig .tc .vmem S1x256 .f32 := scM0_0.view
noncomputable abbrev VS0_1 : View sig .tc .vmem S1x256 .f32 := scM0_1.view

/-- The class invariant with the two scratch operands as memrefs owned at some contents, the other scoped buffers
    unopened: what the body obligation hands the run and takes back. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Reg0A.lean ====
import proofs.«126569_j1468878815453_1_alg».proof.Proof.KI.Reg0Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun0_A (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond0_0 i) (hc1 : ¬cond0_1 i)
    (x0 x1 x2 : Vec F S1000x128 .f32) (x3 x4 x5 x6 : Vec F S128x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg0B.lean ====
import proofs.«126569_j1468878815453_1_alg».proof.Proof.KI.Reg0A

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun0_B (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (hc1 : ¬cond0_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg0C.lean ====
import proofs.«126569_j1468878815453_1_alg».proof.Proof.KI.Reg0B

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun0_C (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (hc1 : cond0_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Reg0.lean ====
import proofs.«126569_j1468878815453_1_alg».proof.Proof.KI.Reg0C

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0 of @main: what the kernel leaves point by point, the proof data, the body obligation -/

/-! ## What the first point leaves -/

/-- The body's run at point `t`, on the memrefs the pipeline passes there. -/
noncomputable abbrev runAt0_A (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 x0 x1 x2 x3 x4 x5 x6 x7 x8

/-- The pieces stored into the block output at the first point tile the buffer, so they cover it. -/
theorem cover0_A_9 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) (y : S1000x256.Idx) :
    ∃ pc ∈ (runAt0_A c t hc0 hc1 x0 x1 x2 x3 x4 x5 x6 x7 x8).1, y ∈ pc.1.set :=
  View.cover_of_tiledL (runAt0_A c t hc0 hc1 x0 x1 x2 x3 x4 x5 x6 x7 x8).1 S1000x256.size (by sl_kernel_rfl) y

/-- What the first point leaves in the block output: its pieces read back over junk. -/
noncomputable def out0_A_9 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) : Vec F S1000x256 .f32 :=
  VO0_9.read (Elt F) (VO0_9.writes (Elt F) VO0_9.junk (runAt0_A c t hc0 hc1 x0 x1 x2 x3 x4 x5 x6 x7 x8).1)

/-- The pieces stored into the first accumulator at the first point tile the buffer, so they cover it. -/
theorem scover0_A_0 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) (y : S1x256.Idx) :
    ∃ pc ∈ (runAt0_A c t hc0 hc1 x0 x1 x2 x3 x4 x5 x6 x7 x8).2.1, y ∈ pc.1.set :=
  View.cover_of_tiledL (runAt0_A c t hc0 hc1 x0 x1 x2 x3 x4 x5 x6 x7 x8).2.1 S1x256.size (by sl_kernel_rfl) y

/-- What the first point leaves in the first accumulator: its pieces read back over junk. -/
noncomputable def sout0_A_0 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) : Vec F S1x256 .f32 :=
  VS0_0.read (Elt F) (VS0_0.writes (Elt F) VS0_0.junk (runAt0_A c t hc0 hc1 x0 x1 x2 x3 x4 x5 x6 x7 x8).2.1)

/-- The pieces stored into the second accumulator at the first point tile the buffer, so they cover it. -/
theorem scover0_A_1 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) (y : S1x256.Idx) :
    ∃ pc ∈ (runAt0_A c t hc0 hc1 x0 x1 x2 x3 x4 x5 x6 x7 x8).2.2.1, y ∈ pc.1.set :=
  View.cover_of_tiledL (runAt0_A c t hc0 hc1 x0 x1 x2 x3 x4 x5 x6 x7 x8).2.2.1 S1x256.size (by sl_kernel_rfl) y

/-- What the first point leaves in the second accumulator: its pieces read back over junk. -/
noncomputable def sout0_A_1 (c : Dev nD) (t : Fin cfg0.N) (hc0 : cond0_0 (grid0.coords t)) (hc1 : ¬cond0_1 (grid0.coords t))
    (x0 x1 x2 : Vec F S1000x128 .f32) (x3 x4 x5 x6 : Vec F S128x256 .f32) (x7 x8 : Vec F S1x256 .f32) : Vec F S1x256 .f32 :=
  VS0_1.read (Elt F) (VS0_1.writes (Elt F) VS0_1.junk (runAt0_A c t hc0 hc1 x0 x1 x2 x3 x4 x5 x6 x7 x8).2.2.1)

/-! ## What a middle point leaves -/

/-- The body's run at point `t`, on the memrefs the pipeline passes there. -/
noncomputable abbrev runAt0_B (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 x0 x1 x2 x3 x4 x5 x6 x7 x8 xs0 xs1

/-- The pieces stored into the block output at a middle point tile the buffer, so they cover it. -/
theorem cover0_B_9 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt0_B c t hc0 hc1 x0 x1 x2 x3 x4 x5 x6 x7 x8 xs0 xs1).1, y ∈ pc.1.set :=
  View.cover_of_tiledL (runAt0_B c t hc0 hc1 x0 x1 x2 x3 x4 x5 x6 x7 x8 xs0 xs1).1 S1000x256.size (by sl_kernel_rfl) y

/-- What a middle point leaves in the block output: its pieces read back over junk. -/
noncomputable def out0_B_9 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) : Vec F S1000x256 .f32 :=
  VO0_9.read (Elt F) (VO0_9.writes (Elt F) VO0_9.junk (runAt0_B c t hc0 hc1 x0 x1 x2 x3 x4 x5 x6 x7 x8 xs0 xs1).1)

/-- The pieces stored into the first accumulator at a middle point tile the buffer, so they cover it. -/
theorem scover0_B_0 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_B c t hc0 hc1 x0 x1 x2 x3 x4 x5 x6 x7 x8 xs0 xs1).2.1, y ∈ pc.1.set :=
  View.cover_of_tiledL (runAt0_B c t hc0 hc1 x0 x1 x2 x3 x4 x5 x6 x7 x8 xs0 xs1).2.1 S1x256.size (by sl_kernel_rfl) y

/-- What a middle point leaves in the first accumulator: its pieces read back over junk. -/
noncomputable def sout0_B_0 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_0.read (Elt F) (VS0_0.writes (Elt F) VS0_0.junk (runAt0_B c t hc0 hc1 x0 x1 x2 x3 x4 x5 x6 x7 x8 xs0 xs1).2.1)

/-- The pieces stored into the second accumulator at a middle point tile the buffer, so they cover it. -/
theorem scover0_B_1 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_B c t hc0 hc1 x0 x1 x2 x3 x4 x5 x6 x7 x8 xs0 xs1).2.2.1, y ∈ pc.1.set :=
  View.cover_of_tiledL (runAt0_B c t hc0 hc1 x0 x1 x2 x3 x4 x5 x6 x7 x8 xs0 xs1).2.2.1 S1x256.size (by sl_kernel_rfl) y

/-- What a middle point leaves in the second accumulator: its pieces read back over junk. -/
noncomputable def sout0_B_1 (c : Dev nD) (t : Fin cfg0.N) (hc0 : ¬cond0_0 (grid0.coords t)) (hc1 : ¬cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_1.read (Elt F) (VS0_1.writes (Elt F) VS0_1.junk (runAt0_B c t hc0 hc1 x0 x1 x2 x3 x4 x5 x6 x7 x8 xs0 xs1).2.2.1)

/-! ## What the last point leaves -/

/-- The body's run at point `t`, on the memrefs the pipeline passes there. -/
noncomputable abbrev runAt0_C (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 hc1 x0 x1 x2 x3 x4 x5 x6 x7 x8 xs0 xs1

/-- The pieces stored into the block output at the last point tile the buffer, so they cover it. -/
theorem cover0_C_9 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt0_C c t hc0 hc1 x0 x1 x2 x3 x4 x5 x6 x7 x8 xs0 xs1).1, y ∈ pc.1.set :=
  View.cover_of_tiledL (runAt0_C c t hc0 hc1 x0 x1 x2 x3 x4 x5 x6 x7 x8 xs0 xs1).1 S1000x256.size (by sl_kernel_rfl) y

/-- What the last point leaves in the block output: its pieces read back over junk. -/
noncomputable def out0_C_9 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1000x256 .f32 :=
  VO0_9.read (Elt F) (VO0_9.writes (Elt F) VO0_9.junk (runAt0_C c t hc0 hc1 x0 x1 x2 x3 x4 x5 x6 x7 x8 xs0 xs1).1)

/-- The pieces stored into the mean output at the last point tile the buffer, so they cover it. -/
theorem cover0_C_10 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.1, y ∈ pc.1.set :=
  View.cover_of_tiledL (runAt0_C c t hc0 hc1 x0 x1 x2 x3 x4 x5 x6 x7 x8 xs0 xs1).2.1 S1x256.size (by sl_kernel_rfl) y

/-- What the last point leaves in the mean output: its pieces read back over junk. -/
noncomputable def out0_C_10 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VO0_10.read (Elt F) (VO0_10.writes (Elt F) VO0_10.junk (runAt0_C c t hc0 hc1 x0 x1 x2 x3 x4 x5 x6 x7 x8 xs0 xs1).2.1)

/-- The pieces stored into the variance output at the last point tile the buffer, so they cover it. -/
theorem cover0_C_11 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.2.1, y ∈ pc.1.set :=
  View.cover_of_tiledL (runAt0_C c t hc0 hc1 x0 x1 x2 x3 x4 x5 x6 x7 x8 xs0 xs1).2.2.1 S1x256.size (by sl_kernel_rfl) y

/-- What the last point leaves in the variance output: its pieces read back over junk. -/
noncomputable def out0_C_11 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VO0_11.read (Elt F) (VO0_11.writes (Elt F) VO0_11.junk (runAt0_C c t hc0 hc1 x0 x1 x2 x3 x4 x5 x6 x7 x8 xs0 xs1).2.2.1)

/-- The pieces stored into the first accumulator at the last point tile the buffer, so they cover it. -/
theorem scover0_C_0 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.2.2.1, y ∈ pc.1.set :=
  View.cover_of_tiledL (runAt0_C c t hc0 hc1 x0 x1 x2 x3 x4 x5 x6 x7 x8 xs0 xs1).2.2.2.1 S1x256.size (by sl_kernel_rfl) y

/-- What the last point leaves in the first accumulator: its pieces read back over junk. -/
noncomputable def sout0_C_0 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_0.read (Elt F) (VS0_0.writes (Elt F) VS0_0.junk (runAt0_C c t hc0 hc1 x0 x1 x2 x3 x4 x5 x6 x7 x8 xs0 xs1).2.2.2.1)

/-- The pieces stored into the second accumulator at the last point tile the buffer, so they cover it. -/
theorem scover0_C_1 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt0_C c t hc0 hc1 x0 x1 x2 x3 x4 x5 x6 x7 x8 xs0 xs1).2.2.2.2.1, y ∈ pc.1.set :=
  View.cover_of_tiledL (runAt0_C c t hc0 hc1 x0 x1 x2 x3 x4 x5 x6 x7 x8 xs0 xs1).2.2.2.2.1 S1x256.size (by sl_kernel_rfl) y

/-- What the last point leaves in the second accumulator: its pieces read back over junk. -/
noncomputable def sout0_C_1 (c : Dev nD) (t : Fin cfg0.N) (hc0 : ¬cond0_0 (grid0.coords t)) (hc1 : cond0_1 (grid0.coords t))
    (x0 x1 x2 : Vec F S1000x128 .f32) (x3 x4 x5 x6 : Vec F S128x256 .f32) (x7 x8 : Vec F S1x256 .f32) (xs0 xs1 : Vec F S1x256 .f32) : Vec F S1x256 .f32 :=
  VS0_1.read (Elt F) (VS0_1.writes (Elt F) VS0_1.junk (runAt0_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle0_10 : Vec F S1x256 .f32 := VO0_10.read (Elt F) VO0_10.junk
noncomputable def idle0_11 : Vec F S1x256 .f32 := VO0_11.read (Elt F) VO0_11.junk

/-- The conditions at the grid's points, from their closed forms. -/
theorem first0_c0 (hn : 0 < cfg0.N) : cond0_0 (grid0.coords ⟨0, hn⟩) := (hcond0_0 ⟨0, hn⟩).mpr (Nat.zero_mod _)
theorem first0_c1 (hn : 0 < cfg0.N) : ¬cond0_1 (grid0.coords ⟨0, hn⟩) := fun h => by
  have h' := (hcond0_1 ⟨0, hn⟩).mp h; (try dsimp only at h'); omega
theorem later0_c0 (t : Fin cfg0.N) (ht : t.val ≠ 0) : ¬cond0_0 (grid0.coords t) := fun h => by
  have h' := (hcond0_0 t).mp h
  have hN : t.val < 20 := lt_of_lt_of_eq t.isLt (show cfg0.N = 20 from N_0)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt0 (c : Dev nD) : (n : ℕ) → n < cfg0.N → Vec F S1000x256 .f32 × Vec F S1x256 .f32 × Vec F S1x256 .f32 × Vec F S1x256 .f32 × Vec F S1x256 .f32
  | 0, hn => (out0_A_9 c ⟨0, hn⟩ (first0_c0 hn) (first0_c1 hn) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), idle0_10, idle0_11, sout0_A_0 c ⟨0, hn⟩ (first0_c0 hn) (first0_c1 hn) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_1 c ⟨0, hn⟩ (first0_c0 hn) (first0_c1 hn) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h1 : (n + 1) % 20 = 19 then
      (out0_C_9 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, out0_C_10 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, out0_C_11 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, sout0_C_0 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, sout0_C_1 c ⟨n + 1, hn⟩ (later0_c0 ⟨n + 1, hn⟩ (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2)
    else
      (out0_B_9 c ⟨n + 1, hn⟩ (later0_c0 ⟨n + 1, hn⟩ (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, idle0_10, idle0_11, sout0_B_0 c ⟨n + 1, hn⟩ (later0_c0 ⟨n + 1, hn⟩ (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2, sout0_B_1 c ⟨n + 1, hn⟩ (later0_c0 ⟨n + 1, hn⟩ (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.2.1 (outsAt0 c n (Nat.lt_of_succ_lt hn)).2.2.2.2)

/-- `outsAt0` at the first point: the reset case's contents. -/
theorem outsAt0_A (c : Dev nD) (t : Fin cfg0.N) (h0 : t.val = 0) (hc0 : cond0_0 (grid0.coords t)) (hc1 : ¬cond0_1 (grid0.coords t)) :
    outsAt0 V c t.val t.isLt = (out0_A_9 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t), idle0_10, idle0_11, sout0_A_0 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => rfl
  | succ n => exact absurd h0 (Nat.succ_ne_zero n)

/-- `outsAt0` at a middle point: that case's contents, over what the point before left in the accumulators. -/
theorem outsAt0_B (c : Dev nD) (t : Fin cfg0.N) (h0 : t.val ≠ 0) (h1 : ¬t.val % 20 = 19) (hc0 : ¬cond0_0 (grid0.coords t)) (hc1 : ¬cond0_1 (grid0.coords t)) :
    outsAt0 V c t.val t.isLt = (out0_B_9 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_10, idle0_11, sout0_B_0 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: that case's contents, over what the point before left in the accumulators. -/
theorem outsAt0_C (c : Dev nD) (t : Fin cfg0.N) (h0 : t.val ≠ 0) (h1 : t.val % 20 = 19) (hc0 : ¬cond0_0 (grid0.coords t)) (hc1 : cond0_1 (grid0.coords t)) :
    outsAt0 V c t.val t.isLt = (out0_C_9 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_10 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_11 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region invariant before position `n`: before the first point the class's (every scratch at anything);
    afterwards the two accumulators at what the point before left in them (`outsAt0`'s last two components), the
    other scoped buffers unopened, and the generator register at some state. -/
noncomputable def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the outputs' at `outsAt0`; the invariant `PhiS0`; nothing owed; full
    shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the library's body obligation's precondition, the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases hz : t.val = 0
  · -- the first point: the reset
    have hc0 : cond0_0 (grid0.coords t) := (hcond0_0 t).mpr (by rw [hz])
    have hc1 : ¬cond0_1 (grid0.coords t) := fun h => by have h' := (hcond0_1 t).mp h; omega
    rw [show (dat0 V c).leavesExact 0 t = owns (c : Thread nD τ) (ms0_0 t) fullShare ((dat0 V c).after 0 t) from rfl, after0_0]
    rw [show (dat0 V c).leavesExact 1 t = owns (c : Thread nD τ) (ms0_1 t) fullShare ((dat0 V c).after 1 t) from rfl, after0_1]
    rw [show (dat0 V c).leavesExact 2 t = owns (c : Thread nD τ) (ms0_2 t) fullShare ((dat0 V c).after 2 t) from rfl, after0_2]
    rw [show (dat0 V c).leavesExact 3 t = owns (c : Thread nD τ) (ms0_3 t) fullShare ((dat0 V c).after 3 t) from rfl, after0_3]
    rw [show (dat0 V c).leavesExact 4 t = owns (c : Thread nD τ) (ms0_4 t) fullShare ((dat0 V c).after 4 t) from rfl, after0_4]
    rw [show (dat0 V c).leavesExact 5 t = owns (c : Thread nD τ) (ms0_5 t) fullShare ((dat0 V c).after 5 t) from rfl, after0_5]
    rw [show (dat0 V c).leavesExact 6 t = owns (c : Thread nD τ) (ms0_6 t) fullShare ((dat0 V c).after 6 t) from rfl, after0_6]
    rw [show (dat0 V c).leavesExact 7 t = owns (c : Thread nD τ) (ms0_7 t) fullShare ((dat0 V c).after 7 t) from rfl, after0_7]
    rw [show (dat0 V c).leavesExact 8 t = owns (c : Thread nD τ) (ms0_8 t) fullShare ((dat0 V c).after 8 t) from rfl, after0_8]
    rw [show (dat0 V c).leavesExact 9 t = owns (c : Thread nD τ) (ms0_9 t) fullShare ((dat0 V c).after 9 t) from rfl, after0_9]
    rw [Dat.leavesExact_idle (dat0 V c) 10 t (idleAt0_10 t hc1) (noFlush0_10 t hc1)]
    rw [Dat.leavesExact_idle (dat0 V c) 11 t (idleAt0_11 t hc1) (noFlush0_11 t hc1)]
    rw [outsAt0_A V c t hz hc0 hc1]
    unfold out0_A_9 sout0_A_0 sout0_A_1; (try dsimp only)
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt0_A c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c t _ _ _ _ _ _ _ _ _ _ _)
          unfold owns; iexists _; isplitr
          swap; · iexact HS1
          ipureintro; exact View.read_writes_of_cover _ _ _ _ _ (scover0_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_A_9 c t _ _ _ _ _ _ _ _ _ _ _)
    isplitl [H10]; · iexists _; iexact H10
    iexists _; iexact H11
  · have hc0 : ¬cond0_0 (grid0.coords t) := later0_c0 t hz
    by_cases h1 : t.val % 20 = 19
    · -- the last point: the write-out
      have hc1 : cond0_1 (grid0.coords t) := (hcond0_1 t).mpr h1
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [show (dat0 V c).leavesExact 3 t = owns (c : Thread nD τ) (ms0_3 t) fullShare ((dat0 V c).after 3 t) from rfl, after0_3]
      rw [show (dat0 V c).leavesExact 4 t = owns (c : Thread nD τ) (ms0_4 t) fullShare ((dat0 V c).after 4 t) from rfl, after0_4]
      rw [show (dat0 V c).leavesExact 5 t = owns (c : Thread nD τ) (ms0_5 t) fullShare ((dat0 V c).after 5 t) from rfl, after0_5]
      rw [show (dat0 V c).leavesExact 6 t = owns (c : Thread nD τ) (ms0_6 t) fullShare ((dat0 V c).after 6 t) from rfl, after0_6]
      rw [show (dat0 V c).leavesExact 7 t = owns (c : Thread nD τ) (ms0_7 t) fullShare ((dat0 V c).after 7 t) from rfl, after0_7]
      rw [show (dat0 V c).leavesExact 8 t = owns (c : Thread nD τ) (ms0_8 t) fullShare ((dat0 V c).after 8 t) from rfl, after0_8]
      rw [show (dat0 V c).leavesExact 9 t = owns (c : Thread nD τ) (ms0_9 t) fullShare ((dat0 V c).after 9 t) from rfl, after0_9]
      rw [show (dat0 V c).leavesExact 10 t = owns (c : Thread nD τ) (ms0_10 t) fullShare ((dat0 V c).after 10 t) from by
        unfold Dat.leavesExact; rw [liveAt0_10 t hc1], after0_10]
      rw [show (dat0 V c).leavesExact 11 t = owns (c : Thread nD τ) (ms0_11 t) fullShare ((dat0 V c).after 11 t) from by
        unfold Dat.leavesExact; rw [liveAt0_11 t hc1], after0_11]
      rw [outsAt0_C V c t hz h1 hc0 hc1]
      unfold out0_C_9 out0_C_10 out0_C_11 sout0_C_0 sout0_C_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt0_C c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c t _ _ _ _ _ _ _ _ _ _ _ _ _)
            unfold owns; iexists _; isplitr
            swap; · iexact HS1
            ipureintro; exact View.read_writes_of_cover _ _ _ _ _ (scover0_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_C_9 c t _ _ _ _ _ _ _ _ _ _ _ _ _)
      isplitl [H10]
      · unfold owns; iexists _; isplitr
        swap; · iexact H10
        ipureintro; exact View.read_writes_of_cover _ _ _ _ _ (cover0_C_10 c t _ _ _ _ _ _ _ _ _ _ _ _ _)
      unfold owns; iexists _; isplitr
      swap; · iexact H11
      ipureintro; exact View.read_writes_of_cover _ _ _ _ _ (cover0_C_11 c t _ _ _ _ _ _ _ _ _ _ _ _ _)
    · -- a middle point
      have hc1 : ¬cond0_1 (grid0.coords t) := fun h => h1 ((hcond0_1 t).mp h)
      rw [show (dat0 V c).leavesExact 0 t = owns (c : Thread nD τ) (ms0_0 t) fullShare ((dat0 V c).after 0 t) from rfl, after0_0]
      rw [show (dat0 V c).leavesExact 1 t = owns (c : Thread nD τ) (ms0_1 t) fullShare ((dat0 V c).after 1 t) from rfl, after0_1]
      rw [show (dat0 V c).leavesExact 2 t = owns (c : Thread nD τ) (ms0_2 t) fullShare ((dat0 V c).after 2 t) from rfl, after0_2]
      rw [show (dat0 V c).leavesExact 3 t = owns (c : Thread nD τ) (ms0_3 t) fullShare ((dat0 V c).after 3 t) from rfl, after0_3]
      rw [show (dat0 V c).leavesExact 4 t = owns (c : Thread nD τ) (ms0_4 t) fullShare ((dat0 V c).after 4 t) from rfl, after0_4]
      rw [show (dat0 V c).leavesExact 5 t = owns (c : Thread nD τ) (ms0_5 t) fullShare ((dat0 V c).after 5 t) from rfl, after0_5]
      rw [show (dat0 V c).leavesExact 6 t = owns (c : Thread nD τ) (ms0_6 t) fullShare ((dat0 V c).after 6 t) from rfl, after0_6]
      rw [show (dat0 V c).leavesExact 7 t = owns (c : Thread nD τ) (ms0_7 t) fullShare ((dat0 V c).after 7 t) from rfl, after0_7]
      rw [show (dat0 V c).leavesExact 8 t = owns (c : Thread nD τ) (ms0_8 t) fullShare ((dat0 V c).after 8 t) from rfl, after0_8]
      rw [show (dat0 V c).leavesExact 9 t = owns (c : Thread nD τ) (ms0_9 t) fullShare ((dat0 V c).after 9 t) from rfl, after0_9]
      rw [Dat.leavesExact_idle (dat0 V c) 10 t (idleAt0_10 t hc1) (noFlush0_10 t hc1)]
      rw [Dat.leavesExact_idle (dat0 V c) 11 t (idleAt0_11 t hc1) (noFlush0_11 t hc1)]
      rw [outsAt0_B V c t hz h1 hc0 hc1]
      unfold out0_B_9 sout0_B_0 sout0_B_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt0_B c t hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c t _ _ _ _ _ _ _ _ _ _ _ _ _)
            unfold owns; iexists _; isplitr
            swap; · iexact HS1
            ipureintro; exact View.read_writes_of_cover _ _ _ _ _ (scover0_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c t _ _ _ _ _ _ _ _ _ _ _ _ _)
      isplitl [H10]; · iexists _; iexact H10
      iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Hand

end
-- ==== Proof.KI.Reg1Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: custom call 1, the layer-1 combine of one node type, at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move is fetched at the first point only and keeps its block), for any proof data whose
    array is `V`'s and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the first `scf.if` (the accumulators' reset), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the second `scf.if` (the statistics' write-out). -/
abbrev cond1_1 (i : grid1.Coords) : Prop := k1_cond2 i = 1#1
/-- It holds at the last point only. -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- Output 9 is stored at every point. -/
theorem liveAt1_9 : ∀ t : Fin cfg1.N, cfg1.idle 9 (grid1.coords t) = false := by decide +kernel
/-- Outputs 10 and 11 are stored at the last point only: elsewhere idle and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
theorem liveAt1_10 : ∀ t : Fin cfg1.N, cond1_1 (grid1.coords t) → cfg1.idle 10 (grid1.coords t) = false := by decide +kernel
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
theorem liveAt1_11 : ∀ t : Fin cfg1.N, cond1_1 (grid1.coords t) → cfg1.idle 11 (grid1.coords t) = false := by decide +kernel

/-! ## The staging and scratch memrefs -/

/-- One staging buffer of each output window, through which its contents are stated (the choice does not matter). -/
noncomputable abbrev VO1_9 : View sig .tc .vmem S1000x256 .f32 := (Memref.whole cc1_stg9_0 : Memref sig .tc .vmem S1000x256 .f32).view
noncomputable abbrev VO1_10 : View sig .tc .vmem S1x256 .f32 := (Memref.whole cc1_stg10_0 : Memref sig .tc .vmem S1x256 .f32).view
noncomputable abbrev VO1_11 : View sig .tc .vmem S1x256 .f32 := (Memref.whole cc1_stg11_0 : Memref sig .tc .vmem S1x256 .f32).view
/-- Each window's current staging memref at point `t`, spelled as the pipeline passes it, and its wholeness. -/
noncomputable abbrev ms1_0 (t : Fin cfg1.N) : Memref sig .tc .vmem S1000x128 .f32 := win1_0.stage (cfg1.slots t 0)
noncomputable abbrev hs1_0 (t : Fin cfg1.N) : (ms1_0 t).IsWhole := hstage1_0 ((cfg1.slots t 0).cast nbuf1_0)
noncomputable abbrev ms1_1 (t : Fin cfg1.N) : Memref sig .tc .vmem S1000x128 .f32 := win1_1.stage (cfg1.slots t 1)
noncomputable abbrev hs1_1 (t : Fin cfg1.N) : (ms1_1 t).IsWhole := hstage1_1 ((cfg1.slots t 1).cast nbuf1_1)
noncomputable abbrev ms1_2 (t : Fin cfg1.N) : Memref sig .tc .vmem S1000x128 .f32 := win1_2.stage (cfg1.slots t 2)
noncomputable abbrev hs1_2 (t : Fin cfg1.N) : (ms1_2 t).IsWhole := hstage1_2 ((cfg1.slots t 2).cast nbuf1_2)
noncomputable abbrev ms1_3 (t : Fin cfg1.N) : Memref sig .tc .vmem S128x256 .f32 := win1_3.stage (cfg1.slots t 3)
noncomputable abbrev hs1_3 (t : Fin cfg1.N) : (ms1_3 t).IsWhole := hstage1_3 ((cfg1.slots t 3).cast nbuf1_3)
noncomputable abbrev ms1_4 (t : Fin cfg1.N) : Memref sig .tc .vmem S128x256 .f32 := win1_4.stage (cfg1.slots t 4)
noncomputable abbrev hs1_4 (t : Fin cfg1.N) : (ms1_4 t).IsWhole := hstage1_4 ((cfg1.slots t 4).cast nbuf1_4)
noncomputable abbrev ms1_5 (t : Fin cfg1.N) : Memref sig .tc .vmem S128x256 .f32 := win1_5.stage (cfg1.slots t 5)
noncomputable abbrev hs1_5 (t : Fin cfg1.N) : (ms1_5 t).IsWhole := hstage1_5 ((cfg1.slots t 5).cast nbuf1_5)
noncomputable abbrev ms1_6 (t : Fin cfg1.N) : Memref sig .tc .vmem S128x256 .f32 := win1_6.stage (cfg1.slots t 6)
noncomputable abbrev hs1_6 (t : Fin cfg1.N) : (ms1_6 t).IsWhole := hstage1_6 ((cfg1.slots t 6).cast nbuf1_6)
noncomputable abbrev ms1_7 (t : Fin cfg1.N) : Memref sig .tc .vmem S1x256 .f32 := win1_7.stage (cfg1.slots t 7)
noncomputable abbrev hs1_7 (t : Fin cfg1.N) : (ms1_7 t).IsWhole := hstage1_7 ((cfg1.slots t 7).cast nbuf1_7)
noncomputable abbrev ms1_8 (t : Fin cfg1.N) : Memref sig .tc .vmem S1x256 .f32 := win1_8.stage (cfg1.slots t 8)
noncomputable abbrev hs1_8 (t : Fin cfg1.N) : (ms1_8 t).IsWhole := hstage1_8 ((cfg1.slots t 8).cast nbuf1_8)
noncomputable abbrev ms1_9 (t : Fin cfg1.N) : Memref sig .tc .vmem S1000x256 .f32 := win1_9.stage (cfg1.slots t 9)
noncomputable abbrev hs1_9 (t : Fin cfg1.N) : (ms1_9 t).IsWhole := hstage1_9 ((cfg1.slots t 9).cast nbuf1_9)
noncomputable abbrev ms1_10 (t : Fin cfg1.N) : Memref sig .tc .vmem S1x256 .f32 := win1_10.stage (cfg1.slots t 10)
noncomputable abbrev hs1_10 (t : Fin cfg1.N) : (ms1_10 t).IsWhole := hstage1_10 ((cfg1.slots t 10).cast nbuf1_10)
noncomputable abbrev ms1_11 (t : Fin cfg1.N) : Memref sig .tc .vmem S1x256 .f32 := win1_11.stage (cfg1.slots t 11)
noncomputable abbrev hs1_11 (t : Fin cfg1.N) : (ms1_11 t).IsWhole := hstage1_11 ((cfg1.slots t 11).cast nbuf1_11)
/-- The two scratch operands: whole scoped buffers of the kernel's own, passed beside the windows. -/
noncomputable abbrev scM1_0 : Memref sig .tc .vmem S1x256 .f32 := Memref.whole cc1_scratch0
noncomputable abbrev scM1_1 : Memref sig .tc .vmem S1x256 .f32 := Memref.whole cc1_scratch1
/-- The scratch accumulators the kernel carries between points, as views: what they hold is stated through them. -/
noncomputable abbrev VS1_0 : View sig .tc .vmem S1x256 .f32 := scM1_0.view
noncomputable abbrev VS1_1 : View sig .tc .vmem S1x256 .f32 := scM1_1.view

/-- The class invariant with the two scratch operands as memrefs owned at some contents, the other scoped buffers
    unopened: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.KI.Reg1A.lean ====
import proofs.«126569_j1468878815453_1_alg».proof.Proof.KI.Reg1Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun1_A (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond1_0 i) (hc1 : ¬cond1_1 i)
    (x0 x1 x2 : Vec F S1000x128 .f32) (x3 x4 x5 x6 : Vec F S128x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg1B.lean ====
import proofs.«126569_j1468878815453_1_alg».proof.Proof.KI.Reg1A

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun1_B (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_0 i) (hc1 : ¬cond1_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg1C.lean ====
import proofs.«126569_j1468878815453_1_alg».proof.Proof.KI.Reg1B

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun1_C (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond1_0 i) (hc1 : cond1_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Reg1.lean ====
import proofs.«126569_j1468878815453_1_alg».proof.Proof.KI.Reg1C

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: what the kernel leaves point by point, the proof data, the body obligation -/

/-! ## What the first point leaves -/

/-- The body's run at point `t`, on the memrefs the pipeline passes there. -/
noncomputable abbrev runAt1_A (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) hc0 hc1 x0 x1 x2 x3 x4 x5 x6 x7 x8

/-- The pieces stored into the block output at the first point tile the buffer, so they cover it. -/
theorem cover1_A_9 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) (y : S1000x256.Idx) :
    ∃ pc ∈ (runAt1_A c t hc0 hc1 x0 x1 x2 x3 x4 x5 x6 x7 x8).1, y ∈ pc.1.set :=
  View.cover_of_tiledL (runAt1_A c t hc0 hc1 x0 x1 x2 x3 x4 x5 x6 x7 x8).1 S1000x256.size (by sl_kernel_rfl) y

/-- What the first point leaves in the block output: its pieces read back over junk. -/
noncomputable def out1_A_9 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) : Vec F S1000x256 .f32 :=
  VO1_9.read (Elt F) (VO1_9.writes (Elt F) VO1_9.junk (runAt1_A c t hc0 hc1 x0 x1 x2 x3 x4 x5 x6 x7 x8).1)

/-- The pieces stored into the first accumulator at the first point tile the buffer, so they cover it. -/
theorem scover1_A_0 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) (y : S1x256.Idx) :
    ∃ pc ∈ (runAt1_A c t hc0 hc1 x0 x1 x2 x3 x4 x5 x6 x7 x8).2.1, y ∈ pc.1.set :=
  View.cover_of_tiledL (runAt1_A c t hc0 hc1 x0 x1 x2 x3 x4 x5 x6 x7 x8).2.1 S1x256.size (by sl_kernel_rfl) y

/-- What the first point leaves in the first accumulator: its pieces read back over junk. -/
noncomputable def sout1_A_0 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) : Vec F S1x256 .f32 :=
  VS1_0.read (Elt F) (VS1_0.writes (Elt F) VS1_0.junk (runAt1_A c t hc0 hc1 x0 x1 x2 x3 x4 x5 x6 x7 x8).2.1)

/-- The pieces stored into the second accumulator at the first point tile the buffer, so they cover it. -/
theorem scover1_A_1 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) (y : S1x256.Idx) :
    ∃ pc ∈ (runAt1_A c t hc0 hc1 x0 x1 x2 x3 x4 x5 x6 x7 x8).2.2.1, y ∈ pc.1.set :=
  View.cover_of_tiledL (runAt1_A c t hc0 hc1 x0 x1 x2 x3 x4 x5 x6 x7 x8).2.2.1 S1x256.size (by sl_kernel_rfl) y

/-- What the first point leaves in the second accumulator: its pieces read back over junk. -/
noncomputable def sout1_A_1 (c : Dev nD) (t : Fin cfg1.N) (hc0 : cond1_0 (grid1.coords t)) (hc1 : ¬cond1_1 (grid1.coords t))
    (x0 x1 x2 : Vec F S1000x128 .f32) (x3 x4 x5 x6 : Vec F S128x256 .f32) (x7 x8 : Vec F S1x256 .f32) : Vec F S1x256 .f32 :=
  VS1_1.read (Elt F) (VS1_1.writes (Elt F) VS1_1.junk (runAt1_A c t hc0 hc1 x0 x1 x2 x3 x4 x5 x6 x7 x8).2.2.1)

/-! ## What a middle point leaves -/

/-- The body's run at point `t`, on the memrefs the pipeline passes there. -/
noncomputable abbrev runAt1_B (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) hc0 hc1 x0 x1 x2 x3 x4 x5 x6 x7 x8 xs0 xs1

/-- The pieces stored into the block output at a middle point tile the buffer, so they cover it. -/
theorem cover1_B_9 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt1_B c t hc0 hc1 x0 x1 x2 x3 x4 x5 x6 x7 x8 xs0 xs1).1, y ∈ pc.1.set :=
  View.cover_of_tiledL (runAt1_B c t hc0 hc1 x0 x1 x2 x3 x4 x5 x6 x7 x8 xs0 xs1).1 S1000x256.size (by sl_kernel_rfl) y

/-- What a middle point leaves in the block output: its pieces read back over junk. -/
noncomputable def out1_B_9 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) : Vec F S1000x256 .f32 :=
  VO1_9.read (Elt F) (VO1_9.writes (Elt F) VO1_9.junk (runAt1_B c t hc0 hc1 x0 x1 x2 x3 x4 x5 x6 x7 x8 xs0 xs1).1)

/-- The pieces stored into the first accumulator at a middle point tile the buffer, so they cover it. -/
theorem scover1_B_0 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_B c t hc0 hc1 x0 x1 x2 x3 x4 x5 x6 x7 x8 xs0 xs1).2.1, y ∈ pc.1.set :=
  View.cover_of_tiledL (runAt1_B c t hc0 hc1 x0 x1 x2 x3 x4 x5 x6 x7 x8 xs0 xs1).2.1 S1x256.size (by sl_kernel_rfl) y

/-- What a middle point leaves in the first accumulator: its pieces read back over junk. -/
noncomputable def sout1_B_0 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_0.read (Elt F) (VS1_0.writes (Elt F) VS1_0.junk (runAt1_B c t hc0 hc1 x0 x1 x2 x3 x4 x5 x6 x7 x8 xs0 xs1).2.1)

/-- The pieces stored into the second accumulator at a middle point tile the buffer, so they cover it. -/
theorem scover1_B_1 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_B c t hc0 hc1 x0 x1 x2 x3 x4 x5 x6 x7 x8 xs0 xs1).2.2.1, y ∈ pc.1.set :=
  View.cover_of_tiledL (runAt1_B c t hc0 hc1 x0 x1 x2 x3 x4 x5 x6 x7 x8 xs0 xs1).2.2.1 S1x256.size (by sl_kernel_rfl) y

/-- What a middle point leaves in the second accumulator: its pieces read back over junk. -/
noncomputable def sout1_B_1 (c : Dev nD) (t : Fin cfg1.N) (hc0 : ¬cond1_0 (grid1.coords t)) (hc1 : ¬cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_1.read (Elt F) (VS1_1.writes (Elt F) VS1_1.junk (runAt1_B c t hc0 hc1 x0 x1 x2 x3 x4 x5 x6 x7 x8 xs0 xs1).2.2.1)

/-! ## What the last point leaves -/

/-- The body's run at point `t`, on the memrefs the pipeline passes there. -/
noncomputable abbrev runAt1_C (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) hc0 hc1 x0 x1 x2 x3 x4 x5 x6 x7 x8 xs0 xs1

/-- The pieces stored into the block output at the last point tile the buffer, so they cover it. -/
theorem cover1_C_9 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt1_C c t hc0 hc1 x0 x1 x2 x3 x4 x5 x6 x7 x8 xs0 xs1).1, y ∈ pc.1.set :=
  View.cover_of_tiledL (runAt1_C c t hc0 hc1 x0 x1 x2 x3 x4 x5 x6 x7 x8 xs0 xs1).1 S1000x256.size (by sl_kernel_rfl) y

/-- What the last point leaves in the block output: its pieces read back over junk. -/
noncomputable def out1_C_9 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1000x256 .f32 :=
  VO1_9.read (Elt F) (VO1_9.writes (Elt F) VO1_9.junk (runAt1_C c t hc0 hc1 x0 x1 x2 x3 x4 x5 x6 x7 x8 xs0 xs1).1)

/-- The pieces stored into the mean output at the last point tile the buffer, so they cover it. -/
theorem cover1_C_10 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.1, y ∈ pc.1.set :=
  View.cover_of_tiledL (runAt1_C c t hc0 hc1 x0 x1 x2 x3 x4 x5 x6 x7 x8 xs0 xs1).2.1 S1x256.size (by sl_kernel_rfl) y

/-- What the last point leaves in the mean output: its pieces read back over junk. -/
noncomputable def out1_C_10 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VO1_10.read (Elt F) (VO1_10.writes (Elt F) VO1_10.junk (runAt1_C c t hc0 hc1 x0 x1 x2 x3 x4 x5 x6 x7 x8 xs0 xs1).2.1)

/-- The pieces stored into the variance output at the last point tile the buffer, so they cover it. -/
theorem cover1_C_11 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.2.1, y ∈ pc.1.set :=
  View.cover_of_tiledL (runAt1_C c t hc0 hc1 x0 x1 x2 x3 x4 x5 x6 x7 x8 xs0 xs1).2.2.1 S1x256.size (by sl_kernel_rfl) y

/-- What the last point leaves in the variance output: its pieces read back over junk. -/
noncomputable def out1_C_11 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VO1_11.read (Elt F) (VO1_11.writes (Elt F) VO1_11.junk (runAt1_C c t hc0 hc1 x0 x1 x2 x3 x4 x5 x6 x7 x8 xs0 xs1).2.2.1)

/-- The pieces stored into the first accumulator at the last point tile the buffer, so they cover it. -/
theorem scover1_C_0 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.2.2.1, y ∈ pc.1.set :=
  View.cover_of_tiledL (runAt1_C c t hc0 hc1 x0 x1 x2 x3 x4 x5 x6 x7 x8 xs0 xs1).2.2.2.1 S1x256.size (by sl_kernel_rfl) y

/-- What the last point leaves in the first accumulator: its pieces read back over junk. -/
noncomputable def sout1_C_0 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_0.read (Elt F) (VS1_0.writes (Elt F) VS1_0.junk (runAt1_C c t hc0 hc1 x0 x1 x2 x3 x4 x5 x6 x7 x8 xs0 xs1).2.2.2.1)

/-- The pieces stored into the second accumulator at the last point tile the buffer, so they cover it. -/
theorem scover1_C_1 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt1_C c t hc0 hc1 x0 x1 x2 x3 x4 x5 x6 x7 x8 xs0 xs1).2.2.2.2.1, y ∈ pc.1.set :=
  View.cover_of_tiledL (runAt1_C c t hc0 hc1 x0 x1 x2 x3 x4 x5 x6 x7 x8 xs0 xs1).2.2.2.2.1 S1x256.size (by sl_kernel_rfl) y

/-- What the last point leaves in the second accumulator: its pieces read back over junk. -/
noncomputable def sout1_C_1 (c : Dev nD) (t : Fin cfg1.N) (hc0 : ¬cond1_0 (grid1.coords t)) (hc1 : cond1_1 (grid1.coords t))
    (x0 x1 x2 : Vec F S1000x128 .f32) (x3 x4 x5 x6 : Vec F S128x256 .f32) (x7 x8 : Vec F S1x256 .f32) (xs0 xs1 : Vec F S1x256 .f32) : Vec F S1x256 .f32 :=
  VS1_1.read (Elt F) (VS1_1.writes (Elt F) VS1_1.junk (runAt1_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle1_10 : Vec F S1x256 .f32 := VO1_10.read (Elt F) VO1_10.junk
noncomputable def idle1_11 : Vec F S1x256 .f32 := VO1_11.read (Elt F) VO1_11.junk

/-- The conditions at the grid's points, from their closed forms. -/
theorem first1_c0 (hn : 0 < cfg1.N) : cond1_0 (grid1.coords ⟨0, hn⟩) := (hcond1_0 ⟨0, hn⟩).mpr (Nat.zero_mod _)
theorem first1_c1 (hn : 0 < cfg1.N) : ¬cond1_1 (grid1.coords ⟨0, hn⟩) := fun h => by
  have h' := (hcond1_1 ⟨0, hn⟩).mp h; (try dsimp only at h'); omega
theorem later1_c0 (t : Fin cfg1.N) (ht : t.val ≠ 0) : ¬cond1_0 (grid1.coords t) := fun h => by
  have h' := (hcond1_0 t).mp h
  have hN : t.val < 50 := lt_of_lt_of_eq t.isLt (show cfg1.N = 50 from N_1)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt1 (c : Dev nD) : (n : ℕ) → n < cfg1.N → Vec F S1000x256 .f32 × Vec F S1x256 .f32 × Vec F S1x256 .f32 × Vec F S1x256 .f32 × Vec F S1x256 .f32
  | 0, hn => (out1_A_9 c ⟨0, hn⟩ (first1_c0 hn) (first1_c1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), idle1_10, idle1_11, sout1_A_0 c ⟨0, hn⟩ (first1_c0 hn) (first1_c1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_1 c ⟨0, hn⟩ (first1_c0 hn) (first1_c1 hn) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h1 : (n + 1) % 50 = 49 then
      (out1_C_9 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_10 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_11 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_0 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_1 c ⟨n + 1, hn⟩ (later1_c0 ⟨n + 1, hn⟩ (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)
    else
      (out1_B_9 c ⟨n + 1, hn⟩ (later1_c0 ⟨n + 1, hn⟩ (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, idle1_10, idle1_11, sout1_B_0 c ⟨n + 1, hn⟩ (later1_c0 ⟨n + 1, hn⟩ (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_B_1 c ⟨n + 1, hn⟩ (later1_c0 ⟨n + 1, hn⟩ (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)

/-- `outsAt1` at the first point: the reset case's contents. -/
theorem outsAt1_A (c : Dev nD) (t : Fin cfg1.N) (h0 : t.val = 0) (hc0 : cond1_0 (grid1.coords t)) (hc1 : ¬cond1_1 (grid1.coords t)) :
    outsAt1 V c t.val t.isLt = (out1_A_9 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t), idle1_10, idle1_11, sout1_A_0 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t), sout1_A_1 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => rfl
  | succ n => exact absurd h0 (Nat.succ_ne_zero n)

/-- `outsAt1` at a middle point: that case's contents, over what the point before left in the accumulators. -/
theorem outsAt1_B (c : Dev nD) (t : Fin cfg1.N) (h0 : t.val ≠ 0) (h1 : ¬t.val % 50 = 49) (hc0 : ¬cond1_0 (grid1.coords t)) (hc1 : ¬cond1_1 (grid1.coords t)) :
    outsAt1 V c t.val t.isLt = (out1_B_9 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idle1_10, idle1_11, sout1_B_0 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: that case's contents, over what the point before left in the accumulators. -/
theorem outsAt1_C (c : Dev nD) (t : Fin cfg1.N) (h0 : t.val ≠ 0) (h1 : t.val % 50 = 49) (hc0 : ¬cond1_0 (grid1.coords t)) (hc1 : cond1_1 (grid1.coords t)) :
    outsAt1 V c t.val t.isLt = (out1_C_9 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_10 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_11 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut1 (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point the class's (every scratch at anything);
    afterwards the two accumulators at what the point before left in them (`outsAt1`'s last two components), the
    other scoped buffers unopened, and the generator register at some state. -/
noncomputable def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut1 c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the outputs' at `outsAt1`; the invariant `PhiS1`; nothing owed; full
    shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the library's body obligation's precondition, the windows one by one), -/
noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases hz : t.val = 0
  · -- the first point: the reset
    have hc0 : cond1_0 (grid1.coords t) := (hcond1_0 t).mpr (by rw [hz])
    have hc1 : ¬cond1_1 (grid1.coords t) := fun h => by have h' := (hcond1_1 t).mp h; omega
    rw [show (dat1 V c).leavesExact 0 t = owns (c : Thread nD τ) (ms1_0 t) fullShare ((dat1 V c).after 0 t) from rfl, after1_0]
    rw [show (dat1 V c).leavesExact 1 t = owns (c : Thread nD τ) (ms1_1 t) fullShare ((dat1 V c).after 1 t) from rfl, after1_1]
    rw [show (dat1 V c).leavesExact 2 t = owns (c : Thread nD τ) (ms1_2 t) fullShare ((dat1 V c).after 2 t) from rfl, after1_2]
    rw [show (dat1 V c).leavesExact 3 t = owns (c : Thread nD τ) (ms1_3 t) fullShare ((dat1 V c).after 3 t) from rfl, after1_3]
    rw [show (dat1 V c).leavesExact 4 t = owns (c : Thread nD τ) (ms1_4 t) fullShare ((dat1 V c).after 4 t) from rfl, after1_4]
    rw [show (dat1 V c).leavesExact 5 t = owns (c : Thread nD τ) (ms1_5 t) fullShare ((dat1 V c).after 5 t) from rfl, after1_5]
    rw [show (dat1 V c).leavesExact 6 t = owns (c : Thread nD τ) (ms1_6 t) fullShare ((dat1 V c).after 6 t) from rfl, after1_6]
    rw [show (dat1 V c).leavesExact 7 t = owns (c : Thread nD τ) (ms1_7 t) fullShare ((dat1 V c).after 7 t) from rfl, after1_7]
    rw [show (dat1 V c).leavesExact 8 t = owns (c : Thread nD τ) (ms1_8 t) fullShare ((dat1 V c).after 8 t) from rfl, after1_8]
    rw [show (dat1 V c).leavesExact 9 t = owns (c : Thread nD τ) (ms1_9 t) fullShare ((dat1 V c).after 9 t) from rfl, after1_9]
    rw [Dat.leavesExact_idle (dat1 V c) 10 t (idleAt1_10 t hc1) (noFlush1_10 t hc1)]
    rw [Dat.leavesExact_idle (dat1 V c) 11 t (idleAt1_11 t hc1) (noFlush1_11 t hc1)]
    rw [outsAt1_A V c t hz hc0 hc1]
    unfold out1_A_9 sout1_A_0 sout1_A_1; (try dsimp only)
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt1_A c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c t _ _ _ _ _ _ _ _ _ _ _)
          unfold owns; iexists _; isplitr
          swap; · iexact HS1
          ipureintro; exact View.read_writes_of_cover _ _ _ _ _ (scover1_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c t _ _ _ _ _ _ _ _ _ _ _)
    isplitl [H10]; · iexists _; iexact H10
    iexists _; iexact H11
  · have hc0 : ¬cond1_0 (grid1.coords t) := later1_c0 t hz
    by_cases h1 : t.val % 50 = 49
    · -- the last point: the write-out
      have hc1 : cond1_1 (grid1.coords t) := (hcond1_1 t).mpr h1
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [show (dat1 V c).leavesExact 6 t = owns (c : Thread nD τ) (ms1_6 t) fullShare ((dat1 V c).after 6 t) from rfl, after1_6]
      rw [show (dat1 V c).leavesExact 7 t = owns (c : Thread nD τ) (ms1_7 t) fullShare ((dat1 V c).after 7 t) from rfl, after1_7]
      rw [show (dat1 V c).leavesExact 8 t = owns (c : Thread nD τ) (ms1_8 t) fullShare ((dat1 V c).after 8 t) from rfl, after1_8]
      rw [show (dat1 V c).leavesExact 9 t = owns (c : Thread nD τ) (ms1_9 t) fullShare ((dat1 V c).after 9 t) from rfl, after1_9]
      rw [show (dat1 V c).leavesExact 10 t = owns (c : Thread nD τ) (ms1_10 t) fullShare ((dat1 V c).after 10 t) from by
        unfold Dat.leavesExact; rw [liveAt1_10 t hc1], after1_10]
      rw [show (dat1 V c).leavesExact 11 t = owns (c : Thread nD τ) (ms1_11 t) fullShare ((dat1 V c).after 11 t) from by
        unfold Dat.leavesExact; rw [liveAt1_11 t hc1], after1_11]
      rw [outsAt1_C V c t hz h1 hc0 hc1]
      unfold out1_C_9 out1_C_10 out1_C_11 sout1_C_0 sout1_C_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt1_C c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c t _ _ _ _ _ _ _ _ _ _ _ _ _)
            unfold owns; iexists _; isplitr
            swap; · iexact HS1
            ipureintro; exact View.read_writes_of_cover _ _ _ _ _ (scover1_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c t _ _ _ _ _ _ _ _ _ _ _ _ _)
      isplitl [H10]
      · unfold owns; iexists _; isplitr
        swap; · iexact H10
        ipureintro; exact View.read_writes_of_cover _ _ _ _ _ (cover1_C_10 c t _ _ _ _ _ _ _ _ _ _ _ _ _)
      unfold owns; iexists _; isplitr
      swap; · iexact H11
      ipureintro; exact View.read_writes_of_cover _ _ _ _ _ (cover1_C_11 c t _ _ _ _ _ _ _ _ _ _ _ _ _)
    · -- a middle point
      have hc1 : ¬cond1_1 (grid1.coords t) := fun h => h1 ((hcond1_1 t).mp h)
      rw [show (dat1 V c).leavesExact 0 t = owns (c : Thread nD τ) (ms1_0 t) fullShare ((dat1 V c).after 0 t) from rfl, after1_0]
      rw [show (dat1 V c).leavesExact 1 t = owns (c : Thread nD τ) (ms1_1 t) fullShare ((dat1 V c).after 1 t) from rfl, after1_1]
      rw [show (dat1 V c).leavesExact 2 t = owns (c : Thread nD τ) (ms1_2 t) fullShare ((dat1 V c).after 2 t) from rfl, after1_2]
      rw [show (dat1 V c).leavesExact 3 t = owns (c : Thread nD τ) (ms1_3 t) fullShare ((dat1 V c).after 3 t) from rfl, after1_3]
      rw [show (dat1 V c).leavesExact 4 t = owns (c : Thread nD τ) (ms1_4 t) fullShare ((dat1 V c).after 4 t) from rfl, after1_4]
      rw [show (dat1 V c).leavesExact 5 t = owns (c : Thread nD τ) (ms1_5 t) fullShare ((dat1 V c).after 5 t) from rfl, after1_5]
      rw [show (dat1 V c).leavesExact 6 t = owns (c : Thread nD τ) (ms1_6 t) fullShare ((dat1 V c).after 6 t) from rfl, after1_6]
      rw [show (dat1 V c).leavesExact 7 t = owns (c : Thread nD τ) (ms1_7 t) fullShare ((dat1 V c).after 7 t) from rfl, after1_7]
      rw [show (dat1 V c).leavesExact 8 t = owns (c : Thread nD τ) (ms1_8 t) fullShare ((dat1 V c).after 8 t) from rfl, after1_8]
      rw [show (dat1 V c).leavesExact 9 t = owns (c : Thread nD τ) (ms1_9 t) fullShare ((dat1 V c).after 9 t) from rfl, after1_9]
      rw [Dat.leavesExact_idle (dat1 V c) 10 t (idleAt1_10 t hc1) (noFlush1_10 t hc1)]
      rw [Dat.leavesExact_idle (dat1 V c) 11 t (idleAt1_11 t hc1) (noFlush1_11 t hc1)]
      rw [outsAt1_B V c t hz h1 hc0 hc1]
      unfold out1_B_9 sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt1_B c t hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c t _ _ _ _ _ _ _ _ _ _ _ _ _)
            unfold owns; iexists _; isplitr
            swap; · iexact HS1
            ipureintro; exact View.read_writes_of_cover _ _ _ _ _ (scover1_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c t _ _ _ _ _ _ _ _ _ _ _ _ _)
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.Reg2Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: custom call 2, the layer-1 combine of one node type, at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose
    block index does not move is fetched at the first point only and keeps its block), for any proof data whose
    array is `V`'s and whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the first `scf.if` (the accumulators' reset), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the second `scf.if` (the statistics' write-out). -/
abbrev cond2_1 (i : grid2.Coords) : Prop := k2_cond2 i = 1#1
/-- It holds at the last point only. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Output 9 is stored at every point. -/
theorem liveAt2_9 : ∀ t : Fin cfg2.N, cfg2.idle 9 (grid2.coords t) = false := by decide +kernel
/-- Outputs 10 and 11 are stored at the last point only: elsewhere idle and not written back. -/
theorem idleAt2_10 : ∀ t : Fin cfg2.N, ¬cond2_1 (grid2.coords t) → cfg2.idle 10 (grid2.coords t) = true := by decide +kernel
theorem noFlush2_10 : ∀ t : Fin cfg2.N, ¬cond2_1 (grid2.coords t) → (cfg2.win 10).flush t = false := by decide +kernel
theorem liveAt2_10 : ∀ t : Fin cfg2.N, cond2_1 (grid2.coords t) → cfg2.idle 10 (grid2.coords t) = false := by decide +kernel
theorem idleAt2_11 : ∀ t : Fin cfg2.N, ¬cond2_1 (grid2.coords t) → cfg2.idle 11 (grid2.coords t) = true := by decide +kernel
theorem noFlush2_11 : ∀ t : Fin cfg2.N, ¬cond2_1 (grid2.coords t) → (cfg2.win 11).flush t = false := by decide +kernel
theorem liveAt2_11 : ∀ t : Fin cfg2.N, cond2_1 (grid2.coords t) → cfg2.idle 11 (grid2.coords t) = false := by decide +kernel

/-! ## The staging and scratch memrefs -/

/-- One staging buffer of each output window, through which its contents are stated (the choice does not matter). -/
noncomputable abbrev VO2_9 : View sig .tc .vmem S1000x256 .f32 := (Memref.whole cc2_stg9_0 : Memref sig .tc .vmem S1000x256 .f32).view
noncomputable abbrev VO2_10 : View sig .tc .vmem S1x256 .f32 := (Memref.whole cc2_stg10_0 : Memref sig .tc .vmem S1x256 .f32).view
noncomputable abbrev VO2_11 : View sig .tc .vmem S1x256 .f32 := (Memref.whole cc2_stg11_0 : Memref sig .tc .vmem S1x256 .f32).view
/-- Each window's current staging memref at point `t`, spelled as the pipeline passes it, and its wholeness. -/
noncomputable abbrev ms2_0 (t : Fin cfg2.N) : Memref sig .tc .vmem S1000x128 .f32 := win2_0.stage (cfg2.slots t 0)
noncomputable abbrev hs2_0 (t : Fin cfg2.N) : (ms2_0 t).IsWhole := hstage2_0 ((cfg2.slots t 0).cast nbuf2_0)
noncomputable abbrev ms2_1 (t : Fin cfg2.N) : Memref sig .tc .vmem S1000x128 .f32 := win2_1.stage (cfg2.slots t 1)
noncomputable abbrev hs2_1 (t : Fin cfg2.N) : (ms2_1 t).IsWhole := hstage2_1 ((cfg2.slots t 1).cast nbuf2_1)
noncomputable abbrev ms2_2 (t : Fin cfg2.N) : Memref sig .tc .vmem S1000x128 .f32 := win2_2.stage (cfg2.slots t 2)
noncomputable abbrev hs2_2 (t : Fin cfg2.N) : (ms2_2 t).IsWhole := hstage2_2 ((cfg2.slots t 2).cast nbuf2_2)
noncomputable abbrev ms2_3 (t : Fin cfg2.N) : Memref sig .tc .vmem S128x256 .f32 := win2_3.stage (cfg2.slots t 3)
noncomputable abbrev hs2_3 (t : Fin cfg2.N) : (ms2_3 t).IsWhole := hstage2_3 ((cfg2.slots t 3).cast nbuf2_3)
noncomputable abbrev ms2_4 (t : Fin cfg2.N) : Memref sig .tc .vmem S128x256 .f32 := win2_4.stage (cfg2.slots t 4)
noncomputable abbrev hs2_4 (t : Fin cfg2.N) : (ms2_4 t).IsWhole := hstage2_4 ((cfg2.slots t 4).cast nbuf2_4)
noncomputable abbrev ms2_5 (t : Fin cfg2.N) : Memref sig .tc .vmem S128x256 .f32 := win2_5.stage (cfg2.slots t 5)
noncomputable abbrev hs2_5 (t : Fin cfg2.N) : (ms2_5 t).IsWhole := hstage2_5 ((cfg2.slots t 5).cast nbuf2_5)
noncomputable abbrev ms2_6 (t : Fin cfg2.N) : Memref sig .tc .vmem S128x256 .f32 := win2_6.stage (cfg2.slots t 6)
noncomputable abbrev hs2_6 (t : Fin cfg2.N) : (ms2_6 t).IsWhole := hstage2_6 ((cfg2.slots t 6).cast nbuf2_6)
noncomputable abbrev ms2_7 (t : Fin cfg2.N) : Memref sig .tc .vmem S1x256 .f32 := win2_7.stage (cfg2.slots t 7)
noncomputable abbrev hs2_7 (t : Fin cfg2.N) : (ms2_7 t).IsWhole := hstage2_7 ((cfg2.slots t 7).cast nbuf2_7)
noncomputable abbrev ms2_8 (t : Fin cfg2.N) : Memref sig .tc .vmem S1x256 .f32 := win2_8.stage (cfg2.slots t 8)
noncomputable abbrev hs2_8 (t : Fin cfg2.N) : (ms2_8 t).IsWhole := hstage2_8 ((cfg2.slots t 8).cast nbuf2_8)
noncomputable abbrev ms2_9 (t : Fin cfg2.N) : Memref sig .tc .vmem S1000x256 .f32 := win2_9.stage (cfg2.slots t 9)
noncomputable abbrev hs2_9 (t : Fin cfg2.N) : (ms2_9 t).IsWhole := hstage2_9 ((cfg2.slots t 9).cast nbuf2_9)
noncomputable abbrev ms2_10 (t : Fin cfg2.N) : Memref sig .tc .vmem S1x256 .f32 := win2_10.stage (cfg2.slots t 10)
noncomputable abbrev hs2_10 (t : Fin cfg2.N) : (ms2_10 t).IsWhole := hstage2_10 ((cfg2.slots t 10).cast nbuf2_10)
noncomputable abbrev ms2_11 (t : Fin cfg2.N) : Memref sig .tc .vmem S1x256 .f32 := win2_11.stage (cfg2.slots t 11)
noncomputable abbrev hs2_11 (t : Fin cfg2.N) : (ms2_11 t).IsWhole := hstage2_11 ((cfg2.slots t 11).cast nbuf2_11)
/-- The two scratch operands: whole scoped buffers of the kernel's own, passed beside the windows. -/
noncomputable abbrev scM2_0 : Memref sig .tc .vmem S1x256 .f32 := Memref.whole cc2_scratch0
noncomputable abbrev scM2_1 : Memref sig .tc .vmem S1x256 .f32 := Memref.whole cc2_scratch1
/-- The scratch accumulators the kernel carries between points, as views: what they hold is stated through them. -/
noncomputable abbrev VS2_0 : View sig .tc .vmem S1x256 .f32 := scM2_0.view
noncomputable abbrev VS2_1 : View sig .tc .vmem S1x256 .f32 := scM2_1.view

/-- The class invariant with the two scratch operands as memrefs owned at some contents, the other scoped buffers
    unopened: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Reg2A.lean ====
import proofs.«126569_j1468878815453_1_alg».proof.Proof.KI.Reg2Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun2_A (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond2_0 i) (hc1 : ¬cond2_1 i)
    (x0 x1 x2 : Vec F S1000x128 .f32) (x3 x4 x5 x6 : Vec F S128x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg2B.lean ====
import proofs.«126569_j1468878815453_1_alg».proof.Proof.KI.Reg2A

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun2_B (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond2_0 i) (hc1 : ¬cond2_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg2C.lean ====
import proofs.«126569_j1468878815453_1_alg».proof.Proof.KI.Reg2B

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun2_C (c : Dev nD) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond2_0 i) (hc1 : cond2_1 i)
    (x0 x1 x2 : Vec F S1000x128 .f32) (x3 x4 x5 x6 : Vec F S128x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Reg2.lean ====
import proofs.«126569_j1468878815453_1_alg».proof.Proof.KI.Reg2C

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2 of @main: what the kernel leaves point by point, the proof data, the body obligation -/

/-! ## What the first point leaves -/

/-- The body's run at point `t`, on the memrefs the pipeline passes there. -/
noncomputable abbrev runAt2_A (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) hc0 hc1 x0 x1 x2 x3 x4 x5 x6 x7 x8

/-- The pieces stored into the block output at the first point tile the buffer, so they cover it. -/
theorem cover2_A_9 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) (y : S1000x256.Idx) :
    ∃ pc ∈ (runAt2_A c t hc0 hc1 x0 x1 x2 x3 x4 x5 x6 x7 x8).1, y ∈ pc.1.set :=
  View.cover_of_tiledL (runAt2_A c t hc0 hc1 x0 x1 x2 x3 x4 x5 x6 x7 x8).1 S1000x256.size (by sl_kernel_rfl) y

/-- What the first point leaves in the block output: its pieces read back over junk. -/
noncomputable def out2_A_9 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) : Vec F S1000x256 .f32 :=
  VO2_9.read (Elt F) (VO2_9.writes (Elt F) VO2_9.junk (runAt2_A c t hc0 hc1 x0 x1 x2 x3 x4 x5 x6 x7 x8).1)

/-- The pieces stored into the first accumulator at the first point tile the buffer, so they cover it. -/
theorem scover2_A_0 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) (y : S1x256.Idx) :
    ∃ pc ∈ (runAt2_A c t hc0 hc1 x0 x1 x2 x3 x4 x5 x6 x7 x8).2.1, y ∈ pc.1.set :=
  View.cover_of_tiledL (runAt2_A c t hc0 hc1 x0 x1 x2 x3 x4 x5 x6 x7 x8).2.1 S1x256.size (by sl_kernel_rfl) y

/-- What the first point leaves in the first accumulator: its pieces read back over junk. -/
noncomputable def sout2_A_0 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) : Vec F S1x256 .f32 :=
  VS2_0.read (Elt F) (VS2_0.writes (Elt F) VS2_0.junk (runAt2_A c t hc0 hc1 x0 x1 x2 x3 x4 x5 x6 x7 x8).2.1)

/-- The pieces stored into the second accumulator at the first point tile the buffer, so they cover it. -/
theorem scover2_A_1 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) (y : S1x256.Idx) :
    ∃ pc ∈ (runAt2_A c t hc0 hc1 x0 x1 x2 x3 x4 x5 x6 x7 x8).2.2.1, y ∈ pc.1.set :=
  View.cover_of_tiledL (runAt2_A c t hc0 hc1 x0 x1 x2 x3 x4 x5 x6 x7 x8).2.2.1 S1x256.size (by sl_kernel_rfl) y

/-- What the first point leaves in the second accumulator: its pieces read back over junk. -/
noncomputable def sout2_A_1 (c : Dev nD) (t : Fin cfg2.N) (hc0 : cond2_0 (grid2.coords t)) (hc1 : ¬cond2_1 (grid2.coords t))
    (x0 x1 x2 : Vec F S1000x128 .f32) (x3 x4 x5 x6 : Vec F S128x256 .f32) (x7 x8 : Vec F S1x256 .f32) : Vec F S1x256 .f32 :=
  VS2_1.read (Elt F) (VS2_1.writes (Elt F) VS2_1.junk (runAt2_A c t hc0 hc1 x0 x1 x2 x3 x4 x5 x6 x7 x8).2.2.1)

/-! ## What a middle point leaves -/

/-- The body's run at point `t`, on the memrefs the pipeline passes there. -/
noncomputable abbrev runAt2_B (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) hc0 hc1 x0 x1 x2 x3 x4 x5 x6 x7 x8 xs0 xs1

/-- The pieces stored into the block output at a middle point tile the buffer, so they cover it. -/
theorem cover2_B_9 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt2_B c t hc0 hc1 x0 x1 x2 x3 x4 x5 x6 x7 x8 xs0 xs1).1, y ∈ pc.1.set :=
  View.cover_of_tiledL (runAt2_B c t hc0 hc1 x0 x1 x2 x3 x4 x5 x6 x7 x8 xs0 xs1).1 S1000x256.size (by sl_kernel_rfl) y

/-- What a middle point leaves in the block output: its pieces read back over junk. -/
noncomputable def out2_B_9 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) : Vec F S1000x256 .f32 :=
  VO2_9.read (Elt F) (VO2_9.writes (Elt F) VO2_9.junk (runAt2_B c t hc0 hc1 x0 x1 x2 x3 x4 x5 x6 x7 x8 xs0 xs1).1)

/-- The pieces stored into the first accumulator at a middle point tile the buffer, so they cover it. -/
theorem scover2_B_0 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_B c t hc0 hc1 x0 x1 x2 x3 x4 x5 x6 x7 x8 xs0 xs1).2.1, y ∈ pc.1.set :=
  View.cover_of_tiledL (runAt2_B c t hc0 hc1 x0 x1 x2 x3 x4 x5 x6 x7 x8 xs0 xs1).2.1 S1x256.size (by sl_kernel_rfl) y

/-- What a middle point leaves in the first accumulator: its pieces read back over junk. -/
noncomputable def sout2_B_0 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_0.read (Elt F) (VS2_0.writes (Elt F) VS2_0.junk (runAt2_B c t hc0 hc1 x0 x1 x2 x3 x4 x5 x6 x7 x8 xs0 xs1).2.1)

/-- The pieces stored into the second accumulator at a middle point tile the buffer, so they cover it. -/
theorem scover2_B_1 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_B c t hc0 hc1 x0 x1 x2 x3 x4 x5 x6 x7 x8 xs0 xs1).2.2.1, y ∈ pc.1.set :=
  View.cover_of_tiledL (runAt2_B c t hc0 hc1 x0 x1 x2 x3 x4 x5 x6 x7 x8 xs0 xs1).2.2.1 S1x256.size (by sl_kernel_rfl) y

/-- What a middle point leaves in the second accumulator: its pieces read back over junk. -/
noncomputable def sout2_B_1 (c : Dev nD) (t : Fin cfg2.N) (hc0 : ¬cond2_0 (grid2.coords t)) (hc1 : ¬cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_1.read (Elt F) (VS2_1.writes (Elt F) VS2_1.junk (runAt2_B c t hc0 hc1 x0 x1 x2 x3 x4 x5 x6 x7 x8 xs0 xs1).2.2.1)

/-! ## What the last point leaves -/

/-- The body's run at point `t`, on the memrefs the pipeline passes there. -/
noncomputable abbrev runAt2_C (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) hc0 hc1 x0 x1 x2 x3 x4 x5 x6 x7 x8 xs0 xs1

/-- The pieces stored into the block output at the last point tile the buffer, so they cover it. -/
theorem cover2_C_9 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1000x256.Idx) :
    ∃ pc ∈ (runAt2_C c t hc0 hc1 x0 x1 x2 x3 x4 x5 x6 x7 x8 xs0 xs1).1, y ∈ pc.1.set :=
  View.cover_of_tiledL (runAt2_C c t hc0 hc1 x0 x1 x2 x3 x4 x5 x6 x7 x8 xs0 xs1).1 S1000x256.size (by sl_kernel_rfl) y

/-- What the last point leaves in the block output: its pieces read back over junk. -/
noncomputable def out2_C_9 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1000x256 .f32 :=
  VO2_9.read (Elt F) (VO2_9.writes (Elt F) VO2_9.junk (runAt2_C c t hc0 hc1 x0 x1 x2 x3 x4 x5 x6 x7 x8 xs0 xs1).1)

/-- The pieces stored into the mean output at the last point tile the buffer, so they cover it. -/
theorem cover2_C_10 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.1, y ∈ pc.1.set :=
  View.cover_of_tiledL (runAt2_C c t hc0 hc1 x0 x1 x2 x3 x4 x5 x6 x7 x8 xs0 xs1).2.1 S1x256.size (by sl_kernel_rfl) y

/-- What the last point leaves in the mean output: its pieces read back over junk. -/
noncomputable def out2_C_10 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VO2_10.read (Elt F) (VO2_10.writes (Elt F) VO2_10.junk (runAt2_C c t hc0 hc1 x0 x1 x2 x3 x4 x5 x6 x7 x8 xs0 xs1).2.1)

/-- The pieces stored into the variance output at the last point tile the buffer, so they cover it. -/
theorem cover2_C_11 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.2.1, y ∈ pc.1.set :=
  View.cover_of_tiledL (runAt2_C c t hc0 hc1 x0 x1 x2 x3 x4 x5 x6 x7 x8 xs0 xs1).2.2.1 S1x256.size (by sl_kernel_rfl) y

/-- What the last point leaves in the variance output: its pieces read back over junk. -/
noncomputable def out2_C_11 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VO2_11.read (Elt F) (VO2_11.writes (Elt F) VO2_11.junk (runAt2_C c t hc0 hc1 x0 x1 x2 x3 x4 x5 x6 x7 x8 xs0 xs1).2.2.1)

/-- The pieces stored into the first accumulator at the last point tile the buffer, so they cover it. -/
theorem scover2_C_0 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.2.2.1, y ∈ pc.1.set :=
  View.cover_of_tiledL (runAt2_C c t hc0 hc1 x0 x1 x2 x3 x4 x5 x6 x7 x8 xs0 xs1).2.2.2.1 S1x256.size (by sl_kernel_rfl) y

/-- What the last point leaves in the first accumulator: its pieces read back over junk. -/
noncomputable def sout2_C_0 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_0.read (Elt F) (VS2_0.writes (Elt F) VS2_0.junk (runAt2_C c t hc0 hc1 x0 x1 x2 x3 x4 x5 x6 x7 x8 xs0 xs1).2.2.2.1)

/-- The pieces stored into the second accumulator at the last point tile the buffer, so they cover it. -/
theorem scover2_C_1 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) (y : S1x256.Idx) :
    ∃ pc ∈ (runAt2_C c t hc0 hc1 x0 x1 x2 x3 x4 x5 x6 x7 x8 xs0 xs1).2.2.2.2.1, y ∈ pc.1.set :=
  View.cover_of_tiledL (runAt2_C c t hc0 hc1 x0 x1 x2 x3 x4 x5 x6 x7 x8 xs0 xs1).2.2.2.2.1 S1x256.size (by sl_kernel_rfl) y

/-- What the last point leaves in the second accumulator: its pieces read back over junk. -/
noncomputable def sout2_C_1 (c : Dev nD) (t : Fin cfg2.N) (hc0 : ¬cond2_0 (grid2.coords t)) (hc1 : cond2_1 (grid2.coords t))
    (x0 x1 x2 : Vec F S1000x128 .f32) (x3 x4 x5 x6 : Vec F S128x256 .f32) (x7 x8 : Vec F S1x256 .f32) (xs0 xs1 : Vec F S1x256 .f32) : Vec F S1x256 .f32 :=
  VS2_1.read (Elt F) (VS2_1.writes (Elt F) VS2_1.junk (runAt2_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle2_10 : Vec F S1x256 .f32 := VO2_10.read (Elt F) VO2_10.junk
noncomputable def idle2_11 : Vec F S1x256 .f32 := VO2_11.read (Elt F) VO2_11.junk

/-- The conditions at the grid's points, from their closed forms. -/
theorem first2_c0 (hn : 0 < cfg2.N) : cond2_0 (grid2.coords ⟨0, hn⟩) := (hcond2_0 ⟨0, hn⟩).mpr (Nat.zero_mod _)
theorem first2_c1 (hn : 0 < cfg2.N) : ¬cond2_1 (grid2.coords ⟨0, hn⟩) := fun h => by
  have h' := (hcond2_1 ⟨0, hn⟩).mp h; (try dsimp only at h'); omega
theorem later2_c0 (t : Fin cfg2.N) (ht : t.val ≠ 0) : ¬cond2_0 (grid2.coords t) := fun h => by
  have h' := (hcond2_0 t).mp h
  have hN : t.val < 10 := lt_of_lt_of_eq t.isLt (show cfg2.N = 10 from N_2)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt2 (c : Dev nD) : (n : ℕ) → n < cfg2.N → Vec F S1000x256 .f32 × Vec F S1x256 .f32 × Vec F S1x256 .f32 × Vec F S1x256 .f32 × Vec F S1x256 .f32
  | 0, hn => (out2_A_9 c ⟨0, hn⟩ (first2_c0 hn) (first2_c1 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), idle2_10, idle2_11, sout2_A_0 c ⟨0, hn⟩ (first2_c0 hn) (first2_c1 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩), sout2_A_1 c ⟨0, hn⟩ (first2_c0 hn) (first2_c1 hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h1 : (n + 1) % 10 = 9 then
      (out2_C_9 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, out2_C_10 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, out2_C_11 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, sout2_C_0 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, sout2_C_1 c ⟨n + 1, hn⟩ (later2_c0 ⟨n + 1, hn⟩ (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2)
    else
      (out2_B_9 c ⟨n + 1, hn⟩ (later2_c0 ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, idle2_10, idle2_11, sout2_B_0 c ⟨n + 1, hn⟩ (later2_c0 ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2, sout2_B_1 c ⟨n + 1, hn⟩ (later2_c0 ⟨n + 1, hn⟩ (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2.2.2.1 (outsAt2 c n (Nat.lt_of_succ_lt hn)).2.2.2.2)

/-- `outsAt2` at the first point: the reset case's contents. -/
theorem outsAt2_A (c : Dev nD) (t : Fin cfg2.N) (h0 : t.val = 0) (hc0 : cond2_0 (grid2.coords t)) (hc1 : ¬cond2_1 (grid2.coords t)) :
    outsAt2 V c t.val t.isLt = (out2_A_9 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t), idle2_10, idle2_11, sout2_A_0 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t), sout2_A_1 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => rfl
  | succ n => exact absurd h0 (Nat.succ_ne_zero n)

/-- `outsAt2` at a middle point: that case's contents, over what the point before left in the accumulators. -/
theorem outsAt2_B (c : Dev nD) (t : Fin cfg2.N) (h0 : t.val ≠ 0) (h1 : ¬t.val % 10 = 9) (hc0 : ¬cond2_0 (grid2.coords t)) (hc1 : ¬cond2_1 (grid2.coords t)) :
    outsAt2 V c t.val t.isLt = (out2_B_9 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_10, idle2_11, sout2_B_0 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: that case's contents, over what the point before left in the accumulators. -/
theorem outsAt2_C (c : Dev nD) (t : Fin cfg2.N) (h0 : t.val ≠ 0) (h1 : t.val % 10 = 9) (hc0 : ¬cond2_0 (grid2.coords t)) (hc1 : cond2_1 (grid2.coords t)) :
    outsAt2 V c t.val t.isLt = (out2_C_9 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_10 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_11 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut2 (c : Dev nD) : sProp 𝕄 :=
  Pipeline.scopedRestBut (Ix := Unit) (Name := ℕ) (U := UR sig nD τ) (Lvl := ℕ) (Val := Elt F) spec2 c [cc2_scratch0, cc2_scratch1]

/-- The region invariant before position `n`: before the first point the class's (every scratch at anything);
    afterwards the two accumulators at what the point before left in them (`outsAt2`'s last two components), the
    other scoped buffers unopened, and the generator register at some state. -/
noncomputable def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the outputs' at `outsAt2`; the invariant `PhiS2`; nothing owed; full
    shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
    | ⟨10, _⟩ => (outsAt2 V c t.val t.isLt).2.1
    | ⟨11, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]
theorem after2_10 (c : Dev nD) (t : Fin cfg2.N) : (dat2 V c).after 10 t = (outsAt2 V c t.val t.isLt).2.1 := by dsimp only [dat2]
theorem after2_11 (c : Dev nD) (t : Fin cfg2.N) : (dat2 V c).after 11 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (the library's body obligation's precondition, the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases hz : t.val = 0
  · -- the first point: the reset
    have hc0 : cond2_0 (grid2.coords t) := (hcond2_0 t).mpr (by rw [hz])
    have hc1 : ¬cond2_1 (grid2.coords t) := fun h => by have h' := (hcond2_1 t).mp h; omega
    rw [show (dat2 V c).leavesExact 0 t = owns (c : Thread nD τ) (ms2_0 t) fullShare ((dat2 V c).after 0 t) from rfl, after2_0]
    rw [show (dat2 V c).leavesExact 1 t = owns (c : Thread nD τ) (ms2_1 t) fullShare ((dat2 V c).after 1 t) from rfl, after2_1]
    rw [show (dat2 V c).leavesExact 2 t = owns (c : Thread nD τ) (ms2_2 t) fullShare ((dat2 V c).after 2 t) from rfl, after2_2]
    rw [show (dat2 V c).leavesExact 3 t = owns (c : Thread nD τ) (ms2_3 t) fullShare ((dat2 V c).after 3 t) from rfl, after2_3]
    rw [show (dat2 V c).leavesExact 4 t = owns (c : Thread nD τ) (ms2_4 t) fullShare ((dat2 V c).after 4 t) from rfl, after2_4]
    rw [show (dat2 V c).leavesExact 5 t = owns (c : Thread nD τ) (ms2_5 t) fullShare ((dat2 V c).after 5 t) from rfl, after2_5]
    rw [show (dat2 V c).leavesExact 6 t = owns (c : Thread nD τ) (ms2_6 t) fullShare ((dat2 V c).after 6 t) from rfl, after2_6]
    rw [show (dat2 V c).leavesExact 7 t = owns (c : Thread nD τ) (ms2_7 t) fullShare ((dat2 V c).after 7 t) from rfl, after2_7]
    rw [show (dat2 V c).leavesExact 8 t = owns (c : Thread nD τ) (ms2_8 t) fullShare ((dat2 V c).after 8 t) from rfl, after2_8]
    rw [show (dat2 V c).leavesExact 9 t = owns (c : Thread nD τ) (ms2_9 t) fullShare ((dat2 V c).after 9 t) from rfl, after2_9]
    rw [Dat.leavesExact_idle (dat2 V c) 10 t (idleAt2_10 t hc1) (noFlush2_10 t hc1)]
    rw [Dat.leavesExact_idle (dat2 V c) 11 t (idleAt2_11 t hc1) (noFlush2_11 t hc1)]
    rw [outsAt2_A V c t hz hc0 hc1]
    unfold out2_A_9 sout2_A_0 sout2_A_1; (try dsimp only)
    rw [PhiS2_castSucc V c t, PhiS2_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt2_A c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c t _ _ _ _ _ _ _ _ _ _ _)
          unfold owns; iexists _; isplitr
          swap; · iexact HS1
          ipureintro; exact View.read_writes_of_cover _ _ _ _ _ (scover2_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover2_A_9 c t _ _ _ _ _ _ _ _ _ _ _)
    isplitl [H10]; · iexists _; iexact H10
    iexists _; iexact H11
  · have hc0 : ¬cond2_0 (grid2.coords t) := later2_c0 t hz
    by_cases h1 : t.val % 10 = 9
    · -- the last point: the write-out
      have hc1 : cond2_1 (grid2.coords t) := (hcond2_1 t).mpr h1
      rw [show (dat2 V c).leavesExact 0 t = owns (c : Thread nD τ) (ms2_0 t) fullShare ((dat2 V c).after 0 t) from rfl, after2_0]
      rw [show (dat2 V c).leavesExact 1 t = owns (c : Thread nD τ) (ms2_1 t) fullShare ((dat2 V c).after 1 t) from rfl, after2_1]
      rw [show (dat2 V c).leavesExact 2 t = owns (c : Thread nD τ) (ms2_2 t) fullShare ((dat2 V c).after 2 t) from rfl, after2_2]
      rw [show (dat2 V c).leavesExact 3 t = owns (c : Thread nD τ) (ms2_3 t) fullShare ((dat2 V c).after 3 t) from rfl, after2_3]
      rw [show (dat2 V c).leavesExact 4 t = owns (c : Thread nD τ) (ms2_4 t) fullShare ((dat2 V c).after 4 t) from rfl, after2_4]
      rw [show (dat2 V c).leavesExact 5 t = owns (c : Thread nD τ) (ms2_5 t) fullShare ((dat2 V c).after 5 t) from rfl, after2_5]
      rw [show (dat2 V c).leavesExact 6 t = owns (c : Thread nD τ) (ms2_6 t) fullShare ((dat2 V c).after 6 t) from rfl, after2_6]
      rw [show (dat2 V c).leavesExact 7 t = owns (c : Thread nD τ) (ms2_7 t) fullShare ((dat2 V c).after 7 t) from rfl, after2_7]
      rw [show (dat2 V c).leavesExact 8 t = owns (c : Thread nD τ) (ms2_8 t) fullShare ((dat2 V c).after 8 t) from rfl, after2_8]
      rw [show (dat2 V c).leavesExact 9 t = owns (c : Thread nD τ) (ms2_9 t) fullShare ((dat2 V c).after 9 t) from rfl, after2_9]
      rw [show (dat2 V c).leavesExact 10 t = owns (c : Thread nD τ) (ms2_10 t) fullShare ((dat2 V c).after 10 t) from by
        unfold Dat.leavesExact; rw [liveAt2_10 t hc1], after2_10]
      rw [show (dat2 V c).leavesExact 11 t = owns (c : Thread nD τ) (ms2_11 t) fullShare ((dat2 V c).after 11 t) from by
        unfold Dat.leavesExact; rw [liveAt2_11 t hc1], after2_11]
      rw [outsAt2_C V c t hz h1 hc0 hc1]
      unfold out2_C_9 out2_C_10 out2_C_11 sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt2_C c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c t _ _ _ _ _ _ _ _ _ _ _ _ _)
            unfold owns; iexists _; isplitr
            swap; · iexact HS1
            ipureintro; exact View.read_writes_of_cover _ _ _ _ _ (scover2_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover2_C_9 c t _ _ _ _ _ _ _ _ _ _ _ _ _)
      isplitl [H10]
      · unfold owns; iexists _; isplitr
        swap; · iexact H10
        ipureintro; exact View.read_writes_of_cover _ _ _ _ _ (cover2_C_10 c t _ _ _ _ _ _ _ _ _ _ _ _ _)
      unfold owns; iexists _; isplitr
      swap; · iexact H11
      ipureintro; exact View.read_writes_of_cover _ _ _ _ _ (cover2_C_11 c t _ _ _ _ _ _ _ _ _ _ _ _ _)
    · -- a middle point
      have hc1 : ¬cond2_1 (grid2.coords t) := fun h => h1 ((hcond2_1 t).mp h)
      rw [show (dat2 V c).leavesExact 0 t = owns (c : Thread nD τ) (ms2_0 t) fullShare ((dat2 V c).after 0 t) from rfl, after2_0]
      rw [show (dat2 V c).leavesExact 1 t = owns (c : Thread nD τ) (ms2_1 t) fullShare ((dat2 V c).after 1 t) from rfl, after2_1]
      rw [show (dat2 V c).leavesExact 2 t = owns (c : Thread nD τ) (ms2_2 t) fullShare ((dat2 V c).after 2 t) from rfl, after2_2]
      rw [show (dat2 V c).leavesExact 3 t = owns (c : Thread nD τ) (ms2_3 t) fullShare ((dat2 V c).after 3 t) from rfl, after2_3]
      rw [show (dat2 V c).leavesExact 4 t = owns (c : Thread nD τ) (ms2_4 t) fullShare ((dat2 V c).after 4 t) from rfl, after2_4]
      rw [show (dat2 V c).leavesExact 5 t = owns (c : Thread nD τ) (ms2_5 t) fullShare ((dat2 V c).after 5 t) from rfl, after2_5]
      rw [show (dat2 V c).leavesExact 6 t = owns (c : Thread nD τ) (ms2_6 t) fullShare ((dat2 V c).after 6 t) from rfl, after2_6]
      rw [show (dat2 V c).leavesExact 7 t = owns (c : Thread nD τ) (ms2_7 t) fullShare ((dat2 V c).after 7 t) from rfl, after2_7]
      rw [show (dat2 V c).leavesExact 8 t = owns (c : Thread nD τ) (ms2_8 t) fullShare ((dat2 V c).after 8 t) from rfl, after2_8]
      rw [show (dat2 V c).leavesExact 9 t = owns (c : Thread nD τ) (ms2_9 t) fullShare ((dat2 V c).after 9 t) from rfl, after2_9]
      rw [Dat.leavesExact_idle (dat2 V c) 10 t (idleAt2_10 t hc1) (noFlush2_10 t hc1)]
      rw [Dat.leavesExact_idle (dat2 V c) 11 t (idleAt2_11 t hc1) (noFlush2_11 t hc1)]
      rw [outsAt2_B V c t hz h1 hc0 hc1]
      unfold out2_B_9 sout2_B_0 sout2_B_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt2_B c t hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c t _ _ _ _ _ _ _ _ _ _ _ _ _)
            unfold owns; iexists _; isplitr
            swap; · iexact HS1
            ipureintro; exact View.read_writes_of_cover _ _ _ _ _ (scover2_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover2_B_9 c t _ _ _ _ _ _ _ _ _ _ _ _ _)
      isplitl [H10]; · iexists _; iexact H10
      iexists _; iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KI.Reg3Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # Custom call 3 (the one-relation combine kernel with its running column sums), what its three cases share

The windows' blocks at the region's entry contents `V`, the two branch conditions decided over the three grid points,
where the two statistics windows are idle, and the staging and scratch memrefs the body is called with. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the neighbours' mean rows) holds its block at every point, fetched there or not, for any proof data whose array is
    `V`'s and whose body leaves the block in place: an unfetched input's block index has not moved; the window is
    uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the node's own rows) holds its block at every point, fetched there or not, for any proof data whose array is
    `V`'s and whose body leaves the block in place: an unfetched input's block index has not moved; the window is
    uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the neighbour weight matrix) holds its block at every point, fetched there or not, for any proof data whose array is
    `V`'s and whose body leaves the block in place: an unfetched input's block index has not moved; the window is
    uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 (the root weight matrix) holds its block at every point, fetched there or not, for any proof data whose array is
    `V`'s and whose body leaves the block in place: an unfetched input's block index has not moved; the window is
    uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 (the bias row) holds its block at every point, fetched there or not, for any proof data whose array is
    `V`'s and whose body leaves the block in place: an unfetched input's block index has not moved; the window is
    uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the first `scf.if` (the running sums' reset), from the grid coordinate. -/
noncomputable abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 3 = 0 :=
  (by decide +kernel : ∀ t : Fin grid3.N, cond3_0 (grid3.coords t) ↔ t.val % 3 = 0)

/-- The condition of the second `scf.if` (the statistics' write-out). -/
noncomputable abbrev cond3_1 (i : grid3.Coords) : Prop := k3_cond2 i = 1#1
/-- It holds at the last point only. -/
theorem hcond3_1 : ∀ t : Fin cfg3.N, cond3_1 (grid3.coords t) ↔ t.val % 3 = 2 :=
  (by decide +kernel : ∀ t : Fin grid3.N, cond3_1 (grid3.coords t) ↔ t.val % 3 = 2)

/-! ## Where the windows are idle -/

/-- The row-block output is never idle. -/
theorem liveAt3_5 : ∀ t : Fin cfg3.N, cfg3.idle 5 (grid3.coords t) = false := by decide +kernel
/-- Away from the last point the mean window is idle (nothing is stored into it) and not written back; -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- at the last point it is live. -/
theorem liveAt3_6 : ∀ t : Fin cfg3.N, cond3_1 (grid3.coords t) → cfg3.idle 6 (grid3.coords t) = false := by decide +kernel
/-- The variance window likewise. -/
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

/-! ## The memrefs the body is called with -/

/-- One staging buffer of each output window, through which its contents are stated (the choice does not matter). -/
noncomputable abbrev VO3_5 : View sig .tc .vmem S1000x256 .f32 := (Memref.whole cc3_stg5_0 : Memref sig .tc .vmem S1000x256 .f32).view
noncomputable abbrev VO3_6 : View sig .tc .vmem S1x256 .f32 := (Memref.whole cc3_stg6_0 : Memref sig .tc .vmem S1x256 .f32).view
noncomputable abbrev VO3_7 : View sig .tc .vmem S1x256 .f32 := (Memref.whole cc3_stg7_0 : Memref sig .tc .vmem S1x256 .f32).view
/-- Each window's current staging memref at point `t`, spelled as the pipeline passes it, and its wholeness. -/
noncomputable abbrev ms3_0 (t : Fin cfg3.N) : Memref sig .tc .vmem S1000x128 .f32 := win3_0.stage (cfg3.slots t 0)
noncomputable abbrev hs3_0 (t : Fin cfg3.N) : (ms3_0 t).IsWhole := hstage3_0 ((cfg3.slots t 0).cast nbuf3_0)
noncomputable abbrev ms3_1 (t : Fin cfg3.N) : Memref sig .tc .vmem S1000x128 .f32 := win3_1.stage (cfg3.slots t 1)
noncomputable abbrev hs3_1 (t : Fin cfg3.N) : (ms3_1 t).IsWhole := hstage3_1 ((cfg3.slots t 1).cast nbuf3_1)
noncomputable abbrev ms3_2 (t : Fin cfg3.N) : Memref sig .tc .vmem S128x256 .f32 := win3_2.stage (cfg3.slots t 2)
noncomputable abbrev hs3_2 (t : Fin cfg3.N) : (ms3_2 t).IsWhole := hstage3_2 ((cfg3.slots t 2).cast nbuf3_2)
noncomputable abbrev ms3_3 (t : Fin cfg3.N) : Memref sig .tc .vmem S128x256 .f32 := win3_3.stage (cfg3.slots t 3)
noncomputable abbrev hs3_3 (t : Fin cfg3.N) : (ms3_3 t).IsWhole := hstage3_3 ((cfg3.slots t 3).cast nbuf3_3)
noncomputable abbrev ms3_4 (t : Fin cfg3.N) : Memref sig .tc .vmem S1x256 .f32 := win3_4.stage (cfg3.slots t 4)
noncomputable abbrev hs3_4 (t : Fin cfg3.N) : (ms3_4 t).IsWhole := hstage3_4 ((cfg3.slots t 4).cast nbuf3_4)
noncomputable abbrev ms3_5 (t : Fin cfg3.N) : Memref sig .tc .vmem S1000x256 .f32 := win3_5.stage (cfg3.slots t 5)
noncomputable abbrev hs3_5 (t : Fin cfg3.N) : (ms3_5 t).IsWhole := hstage3_5 ((cfg3.slots t 5).cast nbuf3_5)
noncomputable abbrev ms3_6 (t : Fin cfg3.N) : Memref sig .tc .vmem S1x256 .f32 := win3_6.stage (cfg3.slots t 6)
noncomputable abbrev hs3_6 (t : Fin cfg3.N) : (ms3_6 t).IsWhole := hstage3_6 ((cfg3.slots t 6).cast nbuf3_6)
noncomputable abbrev ms3_7 (t : Fin cfg3.N) : Memref sig .tc .vmem S1x256 .f32 := win3_7.stage (cfg3.slots t 7)
noncomputable abbrev hs3_7 (t : Fin cfg3.N) : (ms3_7 t).IsWhole := hstage3_7 ((cfg3.slots t 7).cast nbuf3_7)
/-- The two scratch operands (the running column sums of the block and of its square): whole scoped buffers of the
    kernel's own, passed beside the windows, -/
noncomputable abbrev scM3_0 : Memref sig .tc .vmem S1x256 .f32 := Memref.whole cc3_scratch0
noncomputable abbrev scM3_1 : Memref sig .tc .vmem S1x256 .f32 := Memref.whole cc3_scratch1
/-- and as views: what they hold between points is stated through them. -/
noncomputable abbrev VS3_0 : View sig .tc .vmem S1x256 .f32 := scM3_0.view
noncomputable abbrev VS3_1 : View sig .tc .vmem S1x256 .f32 := scM3_1.view

/-- The class invariant with the two scratch operands as memrefs owned at some contents, the other scoped buffers
    unopened: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.KI.Reg3RunA.lean ====
import proofs.«126569_j1468878815453_1_alg».proof.Proof.KI.Reg3Runs

/-! # Custom call 3, the body's run at the first grid point (the running sums reset, no statistics written) -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the first point's case — the reset taken, the write-out not:
    `L5` in the row-block output's staging memref, `LS0` and `LS1` in the two scratch accumulators —, with the proof that
    on whole memrefs — the five inputs' at their contents, the two statistics outputs' (idle here) at contents `xi·`
    handed back untouched, the row-block output's and both scratches' at anything — the body runs to the continuation
    holding the inputs' and the idle outputs' as they were and the stored buffers with their pieces written: the
    printed functions are their skeletons, run operation by operation, each `scf.if` decided by the case's
    hypotheses; the pieces are the witness the run finds. -/
noncomputable def kernelRun3_A (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The first point's pieces for the row-block output tile its block (one store of the whole block), so they cover it. -/
theorem cover3_A_5 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) (y : S1000x256.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4).1 S1000x256.size (by sl_kernel_rfl) y

/-- The first point's pieces for the first scratch accumulator (the reset, then the sum) cover it. -/
theorem scover3_A_0 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) (y : S1x256.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The first point's pieces for the second scratch accumulator cover it. -/
theorem scover3_A_1 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) (y : S1x256.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

end Cert.KernelIdeal.Hand

end
-- ==== Proof.KI.Reg3RunB.lean ====
import proofs.«126569_j1468878815453_1_alg».proof.Proof.KI.Reg3Runs

/-! # Custom call 3, the body's run at the middle grid point (no reset, no statistics written) -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the middle point's case — neither branch taken: `L5` in
    the row-block output's staging memref, `LS0` and `LS1` in the two scratch accumulators —, with the proof that on
    whole memrefs — the five inputs' at their contents, the two statistics outputs' (idle here) at contents `xi·`
    handed back untouched, the row-block output's at anything, the two scratches' at what the point before left
    (`xs·`) — the body runs to the continuation holding the inputs' and the idle outputs' as they were and the stored
    buffers with their pieces written. -/
noncomputable def kernelRun3_B (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The middle point's pieces for the row-block output tile its block, so they cover it. -/
theorem cover3_B_5 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1000x256.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The middle point's pieces for the first scratch accumulator cover it. -/
theorem scover3_B_0 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The middle point's pieces for the second scratch accumulator cover it. -/
theorem scover3_B_1 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

end Cert.KernelIdeal.Hand

end
-- ==== Proof.KI.Reg3RunC.lean ====
import proofs.«126569_j1468878815453_1_alg».proof.Proof.KI.Reg3Runs

/-! # Custom call 3, the body's run at the last grid point (no reset; the mean and the variance written out) -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the last point's case — the reset not taken, the write-out
    taken: `L5`, `L6`, `L7` in the three outputs' staging memrefs (the row block, the mean, the variance), `LS0` and
    `LS1` in the two scratch accumulators —, with the proof that on whole memrefs — the five inputs' at their contents,
    the outputs' at anything, the two scratches' at what the point before left (`xs·`) — the body runs to the
    continuation holding the inputs' as they were and the stored buffers with their pieces written. -/
noncomputable def kernelRun3_C (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    Σ' (L5 : List (View.Piece (Elt F) S1000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc3_kernel_eq_skeleton]; unfold cc3_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

/-- The last point's pieces for the row-block output tile its block, so they cover it. -/
theorem cover3_C_5 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1000x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The last point's pieces for the mean output cover it. -/
theorem cover3_C_6 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The last point's pieces for the variance output cover it. -/
theorem cover3_C_7 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The last point's pieces for the first scratch accumulator cover it. -/
theorem scover3_C_0 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

/-- The last point's pieces for the second scratch accumulator cover it. -/
theorem scover3_C_1 (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) (y : S1x256.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

end Cert.KernelIdeal.Hand

end
-- ==== Proof.KI.Reg3.lean ====
import proofs.«126569_j1468878815453_1_alg».proof.Proof.KI.Reg3RunA
import proofs.«126569_j1468878815453_1_alg».proof.Proof.KI.Reg3RunB
import proofs.«126569_j1468878815453_1_alg».proof.Proof.KI.Reg3RunC

/-! # Custom call 3 (the one-relation combine kernel with its running column sums), region half

At a parameter `V` (the TensorCore's buffer contents when the region is entered): what the three outputs' staging
buffers and the two scratch accumulators hold after each of the three grid points, the region invariant that carries
the accumulators between points, the pipeline's proof data, its body obligation, and the invariant's two ends. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three cases' runs at a grid point -/

/-- The first point's run on point `t`'s memrefs and input blocks. -/
noncomputable abbrev runA3 (c : Dev nD) (t : Fin cfg3.N) (h0 : t.val % 3 = 0) (h1 : ¬t.val % 3 = 2) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t)
/-- The middle point's, over what the point before left in the accumulators. -/
noncomputable abbrev runB3 (c : Dev nD) (t : Fin cfg3.N) (h0 : ¬t.val % 3 = 0) (h1 : ¬t.val % 3 = 2) (xs0 : Vec F S1x256 .f32) (xs1 : Vec F S1x256 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1
/-- The last point's, likewise. -/
noncomputable abbrev runC3 (c : Dev nD) (t : Fin cfg3.N) (h0 : ¬t.val % 3 = 0) (h1 : t.val % 3 = 2) (xs0 : Vec F S1x256 .f32) (xs1 : Vec F S1x256 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1

/-! ## What each case leaves -/

/-- What the first point leaves: the row-block output's buffer, the two statistics outputs' (nothing stored: a
    placeholder nothing consults, the windows idle and not written back there), and the two accumulators — each its
    pieces read back over junk. -/
noncomputable def outA3 (c : Dev nD) (t : Fin cfg3.N) (h0 : t.val % 3 = 0) (h1 : ¬t.val % 3 = 2) : Vec F S1000x256 .f32 × Vec F S1x256 .f32 × Vec F S1x256 .f32 × Vec F S1x256 .f32 × Vec F S1x256 .f32 :=
  (VO3_5.read (Elt F) (VO3_5.writes (Elt F) VO3_5.junk (runA3 V c t h0 h1).1), VO3_6.read (Elt F) (VO3_6.writes (Elt F) VO3_6.junk []), VO3_7.read (Elt F) (VO3_7.writes (Elt F) VO3_7.junk []),
   VS3_0.read (Elt F) (VS3_0.writes (Elt F) VS3_0.junk (runA3 V c t h0 h1).2.1), VS3_1.read (Elt F) (VS3_1.writes (Elt F) VS3_1.junk (runA3 V c t h0 h1).2.2.1))
/-- What the middle point leaves, likewise. -/
noncomputable def outB3 (c : Dev nD) (t : Fin cfg3.N) (h0 : ¬t.val % 3 = 0) (h1 : ¬t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO3_5.read (Elt F) (VO3_5.writes (Elt F) VO3_5.junk (runB3 V c t h0 h1 xs0 xs1).1), VO3_6.read (Elt F) (VO3_6.writes (Elt F) VO3_6.junk []), VO3_7.read (Elt F) (VO3_7.writes (Elt F) VO3_7.junk []),
   VS3_0.read (Elt F) (VS3_0.writes (Elt F) VS3_0.junk (runB3 V c t h0 h1 xs0 xs1).2.1), VS3_1.read (Elt F) (VS3_1.writes (Elt F) VS3_1.junk (runB3 V c t h0 h1 xs0 xs1).2.2.1))
/-- What the last point leaves: all three outputs stored. -/
noncomputable def outC3 (c : Dev nD) (t : Fin cfg3.N) (h0 : ¬t.val % 3 = 0) (h1 : t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO3_5.read (Elt F) (VO3_5.writes (Elt F) VO3_5.junk (runC3 V c t h0 h1 xs0 xs1).1), VO3_6.read (Elt F) (VO3_6.writes (Elt F) VO3_6.junk (runC3 V c t h0 h1 xs0 xs1).2.1), VO3_7.read (Elt F) (VO3_7.writes (Elt F) VO3_7.junk (runC3 V c t h0 h1 xs0 xs1).2.2.1),
   VS3_0.read (Elt F) (VS3_0.writes (Elt F) VS3_0.junk (runC3 V c t h0 h1 xs0 xs1).2.2.2.1), VS3_1.read (Elt F) (VS3_1.writes (Elt F) VS3_1.junk (runC3 V c t h0 h1 xs0 xs1).2.2.2.2.1))

/-! ## What the outputs and the accumulators hold after each point -/

/-- THE ACCUMULATION. What the three outputs' staging buffers and the two accumulators hold after the body at position
    `n` (a tuple: the outputs in window order, then the accumulators): the case the closed forms select at `n`, run at
    the point's memrefs and input blocks, the accumulators at what the point before left. -/
noncomputable def outsAt3 (c : Dev nD) : (n : ℕ) → n < cfg3.N → Vec F S1000x256 .f32 × Vec F S1x256 .f32 × Vec F S1x256 .f32 × Vec F S1x256 .f32 × Vec F S1x256 .f32
  | 0, hn => outA3 V c ⟨0, hn⟩ (Nat.zero_mod _) (fun h => by (try dsimp only at h); omega)
  | n + 1, hn =>
    if h0 : (n + 1) % 3 = 0 then
      if h1 : (n + 1) % 3 = 2 then
        False.elim (by omega)
      else
        outA3 V c ⟨n + 1, hn⟩ h0 h1
    else
      if h1 : (n + 1) % 3 = 2 then
        outC3 V c ⟨n + 1, hn⟩ h0 h1 (outsAt3 c n (Nat.lt_of_succ_lt hn)).2.2.2.1 (outsAt3 c n (Nat.lt_of_succ_lt hn)).2.2.2.2
      else
        outB3 V c ⟨n + 1, hn⟩ h0 h1 (outsAt3 c n (Nat.lt_of_succ_lt hn)).2.2.2.1 (outsAt3 c n (Nat.lt_of_succ_lt hn)).2.2.2.2

/-- `outsAt3` at the first point. -/
theorem outsAt3_A (c : Dev nD) (t : Fin cfg3.N) (h0 : t.val % 3 = 0) (h1 : ¬t.val % 3 = 2) :
    outsAt3 V c t.val t.isLt = outA3 V c t h0 h1 := by
  obtain ⟨n, hn⟩ := t
  cases n with
  | zero => exact rfl
  | succ n => exact (dif_pos h0).trans ((dif_neg h1).trans rfl)

/-- `outsAt3` at the middle point: over what the point before left. -/
theorem outsAt3_B (c : Dev nD) (t : Fin cfg3.N) (h0 : ¬t.val % 3 = 0) (h1 : ¬t.val % 3 = 2) :
    outsAt3 V c t.val t.isLt = outB3 V c t h0 h1 (outsAt3 V c (t.val - 1) (Nat.lt_of_le_of_lt (Nat.sub_le _ _) t.isLt)).2.2.2.1 (outsAt3 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt3` at the last point: over what the point before left. -/
theorem outsAt3_C (c : Dev nD) (t : Fin cfg3.N) (h0 : ¬t.val % 3 = 0) (h1 : t.val % 3 = 2) :
    outsAt3 V c t.val t.isLt = outC3 V c t h0 h1 (outsAt3 V c (t.val - 1) (Nat.lt_of_le_of_lt (Nat.sub_le _ _) t.isLt)).2.2.2.1 (outsAt3 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the invariant of a body touching only its
    windows (every scratch at anything); afterwards the scoped rest with the two accumulators at what the point before
    left in them, the other scoped buffers unopened, and the generator register at some state. -/
noncomputable def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulators at that point's contents. -/
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the accumulators at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the outputs' at `outsAt3`'s components; the invariant `PhiS3`; nothing owed;
    full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2.1
  Φ t := PhiS3 V c t.val (Nat.le_of_lt_succ t.isLt)
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

/-! ## The body obligation, at a generic point -/

/-- What the body is called with at point `t` (the windows one by one), -/
noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point: the inputs' memrefs hold their blocks; the closed forms say which of the three cases the point
    is in; so that case's run applies. The invariant hands the body the two accumulators at what the point before left
    (at anything at the first point) and takes them back at this point's contents; the statistics windows, idle away
    from the last point, are handed back as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 3 := lt_of_lt_of_eq t.isLt (show cfg3.N = 3 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  by_cases h0 : t.val % 3 = 0
  · have h1 : ¬t.val % 3 = 2 := by omega
    have hz : t.val = 0 := by omega
    rw [Dat.leavesExact_idle (dat3 V c) 6 t (idleAt3_6 t (fun h => h1 ((hcond3_1 t).mp h))) (noFlush3_6 t (fun h => h1 ((hcond3_1 t).mp h)))]
    rw [Dat.leavesExact_idle (dat3 V c) 7 t (idleAt3_7 t (fun h => h1 ((hcond3_1 t).mp h))) (noFlush3_7 t (fun h => h1 ((hcond3_1 t).mp h)))]
    rw [outsAt3_A V c t h0 h1]
    unfold outA3; (try dsimp only)
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA3 V c t h0 h1).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t))
          · unfold owns; iexists _; isplitr
            swap; · iexact HS1
            ipureintro; exact View.read_writes_of_cover _ _ _ _ _ (scover3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t))
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t))
    isplitl [H6]; · iexists _; iexact H6
    iexists _; iexact H7
  · have hz : t.val ≠ 0 := by omega
    by_cases h1 : t.val % 3 = 2
    · rw [show (dat3 V c).leavesExact 6 t = owns (c : Thread nD τ) (ms3_6 t) fullShare ((dat3 V c).after 6 t) from by
      unfold Dat.leavesExact; rw [liveAt3_6 t ((hcond3_1 t).mpr h1)], after3_6]
      rw [show (dat3 V c).leavesExact 7 t = owns (c : Thread nD τ) (ms3_7 t) fullShare ((dat3 V c).after 7 t) from by
      unfold Dat.leavesExact; rw [liveAt3_7 t ((hcond3_1 t).mpr h1)], after3_7]
      rw [outsAt3_C V c t h0 h1]
      unfold outC3; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC3 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
            · unfold owns; iexists _; isplitr
              swap; · iexact HS1
              ipureintro; exact View.read_writes_of_cover _ _ _ _ _ (scover3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
      isplitl [H6]
      · unfold owns; iexists _; isplitr
        swap; · iexact H6
        ipureintro; exact View.read_writes_of_cover _ _ _ _ _ (cover3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
      unfold owns; iexists _; isplitr
      swap; · iexact H7
      ipureintro; exact View.read_writes_of_cover _ _ _ _ _ (cover3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) _ _)
    · rw [Dat.leavesExact_idle (dat3 V c) 6 t (idleAt3_6 t (fun h => h1 ((hcond3_1 t).mp h))) (noFlush3_6 t (fun h => h1 ((hcond3_1 t).mp h)))]
      rw [Dat.leavesExact_idle (dat3 V c) 7 t (idleAt3_7 t (fun h => h1 ((hcond3_1 t).mp h))) (noFlush3_7 t (fun h => h1 ((hcond3_1 t).mp h)))]
      rw [outsAt3_B V c t h0 h1]
      unfold outB3; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB3 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _)
            · unfold owns; iexists _; isplitr
              swap; · iexact HS1
              ipureintro; exact View.read_writes_of_cover _ _ _ _ _ (scover3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) _ _)
      isplitl [H6]; · iexists _; iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulators' named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 3 := N_3; omega)

end Cert.KernelIdeal.Hand

end
-- ==== Proof.KI.Reg4.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 4 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the activations' row block) holds its block at every point, fetched there or not, for any proof
    data whose array is `V`'s and whose body leaves the block in place: an unfetched input's block index has not
    moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the mean row), likewise: fetched at the first point only, its one block stays. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the variance row), likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the scale row), likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 (the shift row), likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 1000x256 block, -/
abbrev r4_0 : Rect S1000x256 := Rect.unit (s := S1000x256) ![0, 0] S1000x256.size inb_S1000x256_S1000x256_0_0
/-- and the whole 1x256 row. -/
abbrev r4_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out4_5 (x0 : Vec F S1000x256 .f32) (x1 : Vec F S1x256 .f32) (x2 : Vec F S1x256 .f32) (x3 : Vec F S1x256 .f32) (x4 : Vec F S1x256 .f32) : Vec F S1000x256 .f32 :=
  View.canon [⟨r4_0, k4_pay1 (View.ld x1 r4_1) (View.ld x2 r4_1) (View.ld x0 r4_0) (View.ld x3 r4_1) (View.ld x4 r4_1)⟩]

/-- The one store is of the whole block, so it covers it. -/
theorem cover4_5 (p0 : Vec F S1000x256 .f32) (y : S1000x256.Idx) :
    ∃ pc ∈ ([⟨r4_0, p0⟩] : List (View.Piece (Elt F) S1000x256 .f32)), y ∈ pc.1.set :=
  View.cover_of_tiled [⟨r4_0, p0⟩] S1000x256.size (by rfl) y

/-! ## The body's triple -/

set_option maxHeartbeats 1000000 in
/-- The kernel body on whole staging memrefs, the five inputs' at read contents `xW` and the output's at anything, runs
    to the continuation holding the inputs' as they were and the output's at `out4_5` of the inputs': the printed
    function is its skeleton, five loads of the inputs, a load of the output's prior contents (unused), and the store. -/
theorem sound_kernel4 (c : Dev nD) (E : Set ℕ) (i : grid4.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point `t`
    each input's buffer at its block and the output's at `out4_5` of the input blocks; the invariant that of a body
    touching only its windows (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg5.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 5 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the activations' row block) holds its block at every point, fetched there or not, for any proof
    data whose array is `V`'s and whose body leaves the block in place: an unfetched input's block index has not
    moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the mean row), likewise: fetched at the first point only, its one block stays. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the variance row), likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the scale row), likewise. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the shift row), likewise. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 1000x256 block, -/
abbrev r5_0 : Rect S1000x256 := Rect.unit (s := S1000x256) ![0, 0] S1000x256.size inb_S1000x256_S1000x256_0_0
/-- and the whole 1x256 row. -/
abbrev r5_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out5_5 (x0 : Vec F S1000x256 .f32) (x1 : Vec F S1x256 .f32) (x2 : Vec F S1x256 .f32) (x3 : Vec F S1x256 .f32) (x4 : Vec F S1x256 .f32) : Vec F S1000x256 .f32 :=
  View.canon [⟨r5_0, k5_pay1 (View.ld x1 r5_1) (View.ld x2 r5_1) (View.ld x0 r5_0) (View.ld x3 r5_1) (View.ld x4 r5_1)⟩]

/-- The one store is of the whole block, so it covers it. -/
theorem cover5_5 (p0 : Vec F S1000x256 .f32) (y : S1000x256.Idx) :
    ∃ pc ∈ ([⟨r5_0, p0⟩] : List (View.Piece (Elt F) S1000x256 .f32)), y ∈ pc.1.set :=
  View.cover_of_tiled [⟨r5_0, p0⟩] S1000x256.size (by rfl) y

/-! ## The body's triple -/

set_option maxHeartbeats 1000000 in
/-- The kernel body on whole staging memrefs, the five inputs' at read contents `xW` and the output's at anything, runs
    to the continuation holding the inputs' as they were and the output's at `out5_5` of the inputs': the printed
    function is its skeleton, five loads of the inputs, a load of the output's prior contents (unused), and the store. -/
theorem sound_kernel5 (c : Dev nD) (E : Set ℕ) (i : grid5.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point `t`
    each input's buffer at its block and the output's at `out5_5` of the input blocks; the invariant that of a body
    touching only its windows (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Reg6.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 6 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the activations' row block) holds its block at every point, fetched there or not, for any proof
    data whose array is `V`'s and whose body leaves the block in place: an unfetched input's block index has not
    moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the mean row), likewise: fetched at the first point only, its one block stays. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 (the variance row), likewise. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3 (the scale row), likewise. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4 (the shift row), likewise. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 1000x256 block, -/
abbrev r6_0 : Rect S1000x256 := Rect.unit (s := S1000x256) ![0, 0] S1000x256.size inb_S1000x256_S1000x256_0_0
/-- and the whole 1x256 row. -/
abbrev r6_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out6_5 (x0 : Vec F S1000x256 .f32) (x1 : Vec F S1x256 .f32) (x2 : Vec F S1x256 .f32) (x3 : Vec F S1x256 .f32) (x4 : Vec F S1x256 .f32) : Vec F S1000x256 .f32 :=
  View.canon [⟨r6_0, k6_pay1 (View.ld x1 r6_1) (View.ld x2 r6_1) (View.ld x0 r6_0) (View.ld x3 r6_1) (View.ld x4 r6_1)⟩]

/-- The one store is of the whole block, so it covers it. -/
theorem cover6_5 (p0 : Vec F S1000x256 .f32) (y : S1000x256.Idx) :
    ∃ pc ∈ ([⟨r6_0, p0⟩] : List (View.Piece (Elt F) S1000x256 .f32)), y ∈ pc.1.set :=
  View.cover_of_tiled [⟨r6_0, p0⟩] S1000x256.size (by rfl) y

/-! ## The body's triple -/

set_option maxHeartbeats 1000000 in
/-- The kernel body on whole staging memrefs, the five inputs' at read contents `xW` and the output's at anything, runs
    to the continuation holding the inputs' as they were and the output's at `out6_5` of the inputs': the printed
    function is its skeleton, five loads of the inputs, a load of the output's prior contents (unused), and the store. -/
theorem sound_kernel6 (c : Dev nD) (E : Set ℕ) (i : grid6.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the input blocks; the invariant that of a body
    touching only its windows (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg7.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 7 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the activations' row block) holds its block at every point, fetched there or not, for any proof
    data whose array is `V`'s and whose body leaves the block in place: an unfetched input's block index has not
    moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the mean row), likewise: fetched at the first point only, its one block stays. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the variance row), likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 (the scale row), likewise. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 (the shift row), likewise. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 1000x256 block, -/
abbrev r7_0 : Rect S1000x256 := Rect.unit (s := S1000x256) ![0, 0] S1000x256.size inb_S1000x256_S1000x256_0_0
/-- and the whole 1x256 row. -/
abbrev r7_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out7_5 (x0 : Vec F S1000x256 .f32) (x1 : Vec F S1x256 .f32) (x2 : Vec F S1x256 .f32) (x3 : Vec F S1x256 .f32) (x4 : Vec F S1x256 .f32) : Vec F S1000x256 .f32 :=
  View.canon [⟨r7_0, k7_pay1 (View.ld x1 r7_1) (View.ld x2 r7_1) (View.ld x0 r7_0) (View.ld x3 r7_1) (View.ld x4 r7_1)⟩]

/-- The one store is of the whole block, so it covers it. -/
theorem cover7_5 (p0 : Vec F S1000x256 .f32) (y : S1000x256.Idx) :
    ∃ pc ∈ ([⟨r7_0, p0⟩] : List (View.Piece (Elt F) S1000x256 .f32)), y ∈ pc.1.set :=
  View.cover_of_tiled [⟨r7_0, p0⟩] S1000x256.size (by rfl) y

/-! ## The body's triple -/

set_option maxHeartbeats 1000000 in
/-- The kernel body on whole staging memrefs, the five inputs' at read contents `xW` and the output's at anything, runs
    to the continuation holding the inputs' as they were and the output's at `out7_5` of the inputs': the printed
    function is its skeleton, five loads of the inputs, a load of the output's prior contents (unused), and the store. -/
theorem sound_kernel7 (c : Dev nD) (E : Set ℕ) (i : grid7.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core `c`: the arrays as the region finds them (`V`); after the body at point `t`
    each input's buffer at its block and the output's at `out7_5` of the input blocks; the invariant that of a body
    touching only its windows (the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Reg8Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8 of @main: custom call 8, the layer-2 combine of one node type, at the entry contents `V` -/

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (a window whose
    block index does not move is fetched at the first point only and keeps its block), for any proof data whose
    array is `V`'s and whose body leaves the block in place. One statement per input window. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- The condition of the first `scf.if` (the accumulators' reset), from the grid coordinates. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val % 20 = 0 :=
  (by decide +kernel : ∀ t : Fin grid8.N, cond8_0 (grid8.coords t) ↔ t.val % 20 = 0)

/-- The condition of the second `scf.if` (the statistics' write-out). -/
abbrev cond8_1 (i : grid8.Coords) : Prop := k8_cond2 i = 1#1
/-- It holds at the last point only. -/
theorem hcond8_1 : ∀ t : Fin cfg8.N, cond8_1 (grid8.coords t) ↔ t.val % 20 = 19 :=
  (by decide +kernel : ∀ t : Fin grid8.N, cond8_1 (grid8.coords t) ↔ t.val % 20 = 19)

/-! ## Where the windows are idle -/

/-- Output 9 is stored at every point. -/
theorem liveAt8_9 : ∀ t : Fin cfg8.N, cfg8.idle 9 (grid8.coords t) = false := by decide +kernel
/-- Outputs 10 and 11 are stored at the last point only: elsewhere idle and not written back. -/
theorem idleAt8_10 : ∀ t : Fin cfg8.N, ¬cond8_1 (grid8.coords t) → cfg8.idle 10 (grid8.coords t) = true := by decide +kernel
theorem noFlush8_10 : ∀ t : Fin cfg8.N, ¬cond8_1 (grid8.coords t) → (cfg8.win 10).flush t = false := by decide +kernel
theorem liveAt8_10 : ∀ t : Fin cfg8.N, cond8_1 (grid8.coords t) → cfg8.idle 10 (grid8.coords t) = false := by decide +kernel
theorem idleAt8_11 : ∀ t : Fin cfg8.N, ¬cond8_1 (grid8.coords t) → cfg8.idle 11 (grid8.coords t) = true := by decide +kernel
theorem noFlush8_11 : ∀ t : Fin cfg8.N, ¬cond8_1 (grid8.coords t) → (cfg8.win 11).flush t = false := by decide +kernel
theorem liveAt8_11 : ∀ t : Fin cfg8.N, cond8_1 (grid8.coords t) → cfg8.idle 11 (grid8.coords t) = false := by decide +kernel

/-! ## The staging and scratch memrefs -/

/-- One staging buffer of each output window, through which its contents are stated (the choice does not matter). -/
noncomputable abbrev VO8_9 : View sig .tc .vmem S1000x256 .f32 := (Memref.whole cc8_stg9_0 : Memref sig .tc .vmem S1000x256 .f32).view
noncomputable abbrev VO8_10 : View sig .tc .vmem S1x256 .f32 := (Memref.whole cc8_stg10_0 : Memref sig .tc .vmem S1x256 .f32).view
noncomputable abbrev VO8_11 : View sig .tc .vmem S1x256 .f32 := (Memref.whole cc8_stg11_0 : Memref sig .tc .vmem S1x256 .f32).view
/-- Each window's current staging memref at point `t`, spelled as the pipeline passes it, and its wholeness. -/
noncomputable abbrev ms8_0 (t : Fin cfg8.N) : Memref sig .tc .vmem S1000x256 .f32 := win8_0.stage (cfg8.slots t 0)
noncomputable abbrev hs8_0 (t : Fin cfg8.N) : (ms8_0 t).IsWhole := hstage8_0 ((cfg8.slots t 0).cast nbuf8_0)
noncomputable abbrev ms8_1 (t : Fin cfg8.N) : Memref sig .tc .vmem S1000x256 .f32 := win8_1.stage (cfg8.slots t 1)
noncomputable abbrev hs8_1 (t : Fin cfg8.N) : (ms8_1 t).IsWhole := hstage8_1 ((cfg8.slots t 1).cast nbuf8_1)
noncomputable abbrev ms8_2 (t : Fin cfg8.N) : Memref sig .tc .vmem S1000x256 .f32 := win8_2.stage (cfg8.slots t 2)
noncomputable abbrev hs8_2 (t : Fin cfg8.N) : (ms8_2 t).IsWhole := hstage8_2 ((cfg8.slots t 2).cast nbuf8_2)
noncomputable abbrev ms8_3 (t : Fin cfg8.N) : Memref sig .tc .vmem S256x256 .f32 := win8_3.stage (cfg8.slots t 3)
noncomputable abbrev hs8_3 (t : Fin cfg8.N) : (ms8_3 t).IsWhole := hstage8_3 ((cfg8.slots t 3).cast nbuf8_3)
noncomputable abbrev ms8_4 (t : Fin cfg8.N) : Memref sig .tc .vmem S256x256 .f32 := win8_4.stage (cfg8.slots t 4)
noncomputable abbrev hs8_4 (t : Fin cfg8.N) : (ms8_4 t).IsWhole := hstage8_4 ((cfg8.slots t 4).cast nbuf8_4)
noncomputable abbrev ms8_5 (t : Fin cfg8.N) : Memref sig .tc .vmem S256x256 .f32 := win8_5.stage (cfg8.slots t 5)
noncomputable abbrev hs8_5 (t : Fin cfg8.N) : (ms8_5 t).IsWhole := hstage8_5 ((cfg8.slots t 5).cast nbuf8_5)
noncomputable abbrev ms8_6 (t : Fin cfg8.N) : Memref sig .tc .vmem S256x256 .f32 := win8_6.stage (cfg8.slots t 6)
noncomputable abbrev hs8_6 (t : Fin cfg8.N) : (ms8_6 t).IsWhole := hstage8_6 ((cfg8.slots t 6).cast nbuf8_6)
noncomputable abbrev ms8_7 (t : Fin cfg8.N) : Memref sig .tc .vmem S1x256 .f32 := win8_7.stage (cfg8.slots t 7)
noncomputable abbrev hs8_7 (t : Fin cfg8.N) : (ms8_7 t).IsWhole := hstage8_7 ((cfg8.slots t 7).cast nbuf8_7)
noncomputable abbrev ms8_8 (t : Fin cfg8.N) : Memref sig .tc .vmem S1x256 .f32 := win8_8.stage (cfg8.slots t 8)
noncomputable abbrev hs8_8 (t : Fin cfg8.N) : (ms8_8 t).IsWhole := hstage8_8 ((cfg8.slots t 8).cast nbuf8_8)
noncomputable abbrev ms8_9 (t : Fin cfg8.N) : Memref sig .tc .vmem S1000x256 .f32 := win8_9.stage (cfg8.slots t 9)
noncomputable abbrev hs8_9 (t : Fin cfg8.N) : (ms8_9 t).IsWhole := hstage8_9 ((cfg8.slots t 9).cast nbuf8_9)
noncomputable abbrev ms8_10 (t : Fin cfg8.N) : Memref sig .tc .vmem S1x256 .f32 := win8_10.stage (cfg8.slots t 10)
noncomputable abbrev hs8_10 (t : Fin cfg8.N) : (ms8_10 t).IsWhole := hstage8_10 ((cfg8.slots t 10).cast nbuf8_10)
noncomputable abbrev ms8_11 (t : Fin cfg8.N) : Memref sig .tc .vmem S1x256 .f32 := win8_11.stage (cfg8.slots t 11)
noncomputable abbrev hs8_11 (t : Fin cfg8.N) : (ms8_11 t).IsWhole := hstage8_11 ((cfg8.slots t 11).cast nbuf8_11)
/-- The two scratch operands: whole scoped buffers of the kernel's own, passed beside the windows. -/
noncomputable abbrev scM8_0 : Memref sig .tc .vmem S1x256 .f32 := Memref.whole cc8_scratch0
noncomputable abbrev scM8_1 : Memref sig .tc .vmem S1x256 .f32 := Memref.whole cc8_scratch1
/-- The scratch accumulators the kernel carries between points, as views: what they hold is stated through them. -/
noncomputable abbrev VS8_0 : View sig .tc .vmem S1x256 .f32 := scM8_0.view
noncomputable abbrev VS8_1 : View sig .tc .vmem S1x256 .f32 := scM8_1.view

/-- The class invariant with the two scratch operands as memrefs owned at some contents, the other scoped buffers
    unopened: what the body obligation hands the run and takes back. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

end Cert.KernelIdeal.Hand

end
-- ==== Proof.KI.Reg8A.lean ====
import proofs.«126569_j1468878815453_1_alg».proof.Proof.KI.Reg8Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun8_A (c : Dev nD) (i : grid8.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond8_0 i) (hc1 : ¬cond8_1 i)
    (x0 x1 x2 : Vec F S1000x256 .f32) (x3 x4 x5 x6 : Vec F S256x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc8_kernel_eq_skeleton]; unfold cc8_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg8B.lean ====
import proofs.«126569_j1468878815453_1_alg».proof.Proof.KI.Reg8A

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun8_B (c : Dev nD) (i : grid8.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond8_0 i) (hc1 : ¬cond8_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc8_kernel_eq_skeleton]; unfold cc8_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg8C.lean ====
import proofs.«126569_j1468878815453_1_alg».proof.Proof.KI.Reg8B

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun8_C (c : Dev nD) (i : grid8.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond8_0 i) (hc1 : cond8_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc8_kernel_eq_skeleton]; unfold cc8_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Reg8.lean ====
import proofs.«126569_j1468878815453_1_alg».proof.Proof.KI.Reg8C

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8 of @main: what the kernel leaves point by point, the proof data, the body obligation -/

/-! ## What the first point leaves -/

/-- The body's run at point `t`, on the memrefs the pipeline passes there. -/
noncomputable abbrev runAt8_A (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) :=
  kernelRun8_A c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) scM8_0 (Memref.isWhole_whole _) scM8_1 (Memref.isWhole_whole _) hc0 hc1 x0 x1 x2 x3 x4 x5 x6 x7 x8

/-- The pieces stored into the block output at the first point tile the buffer, so they cover it. -/
theorem cover8_A_9 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) (y : S1000x256.Idx) :
    ∃ pc ∈ (runAt8_A c t hc0 hc1 x0 x1 x2 x3 x4 x5 x6 x7 x8).1, y ∈ pc.1.set :=
  View.cover_of_tiledL (runAt8_A c t hc0 hc1 x0 x1 x2 x3 x4 x5 x6 x7 x8).1 S1000x256.size (by sl_kernel_rfl) y

/-- What the first point leaves in the block output: its pieces read back over junk. -/
noncomputable def out8_A_9 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) : Vec F S1000x256 .f32 :=
  VO8_9.read (Elt F) (VO8_9.writes (Elt F) VO8_9.junk (runAt8_A c t hc0 hc1 x0 x1 x2 x3 x4 x5 x6 x7 x8).1)

/-- The pieces stored into the first accumulator at the first point tile the buffer, so they cover it. -/
theorem scover8_A_0 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) (y : S1x256.Idx) :
    ∃ pc ∈ (runAt8_A c t hc0 hc1 x0 x1 x2 x3 x4 x5 x6 x7 x8).2.1, y ∈ pc.1.set :=
  View.cover_of_tiledL (runAt8_A c t hc0 hc1 x0 x1 x2 x3 x4 x5 x6 x7 x8).2.1 S1x256.size (by sl_kernel_rfl) y

/-- What the first point leaves in the first accumulator: its pieces read back over junk. -/
noncomputable def sout8_A_0 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) : Vec F S1x256 .f32 :=
  VS8_0.read (Elt F) (VS8_0.writes (Elt F) VS8_0.junk (runAt8_A c t hc0 hc1 x0 x1 x2 x3 x4 x5 x6 x7 x8).2.1)

/-- The pieces stored into the second accumulator at the first point tile the buffer, so they cover it. -/
theorem scover8_A_1 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) (y : S1x256.Idx) :
    ∃ pc ∈ (runAt8_A c t hc0 hc1 x0 x1 x2 x3 x4 x5 x6 x7 x8).2.2.1, y ∈ pc.1.set :=
  View.cover_of_tiledL (runAt8_A c t hc0 hc1 x0 x1 x2 x3 x4 x5 x6 x7 x8).2.2.1 S1x256.size (by sl_kernel_rfl) y

/-- What the first point leaves in the second accumulator: its pieces read back over junk. -/
noncomputable def sout8_A_1 (c : Dev nD) (t : Fin cfg8.N) (hc0 : cond8_0 (grid8.coords t)) (hc1 : ¬cond8_1 (grid8.coords t))
    (x0 x1 x2 : Vec F S1000x256 .f32) (x3 x4 x5 x6 : Vec F S256x256 .f32) (x7 x8 : Vec F S1x256 .f32) : Vec F S1x256 .f32 :=
  VS8_1.read (Elt F) (VS8_1.writes (Elt F) VS8_1.junk (runAt8_A c t hc0 hc1 x0 x1 x2 x3 x4 x5 x6 x7 x8).2.2.1)

/-! ## What a middle point leaves -/

/-- The body's run at point `t`, on the memrefs the pipeline passes there. -/
noncomputable abbrev runAt8_B (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) :=
  kernelRun8_B c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) scM8_0 (Memref.isWhole_whole _) scM8_1 (Memref.isWhole_whole _) hc0 hc1 x0 x1 x2 x3 x4 x5 x6 x7 x8 xs0 xs1

/-- The pieces stored into the block output at a middle point tile the buffer, so they cover it. -/
theorem cover8_B_9 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt8_B c t hc0 hc1 x0 x1 x2 x3 x4 x5 x6 x7 x8 xs0 xs1).1, y ∈ pc.1.set :=
  View.cover_of_tiledL (runAt8_B c t hc0 hc1 x0 x1 x2 x3 x4 x5 x6 x7 x8 xs0 xs1).1 S1000x256.size (by sl_kernel_rfl) y

/-- What a middle point leaves in the block output: its pieces read back over junk. -/
noncomputable def out8_B_9 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) : Vec F S1000x256 .f32 :=
  VO8_9.read (Elt F) (VO8_9.writes (Elt F) VO8_9.junk (runAt8_B c t hc0 hc1 x0 x1 x2 x3 x4 x5 x6 x7 x8 xs0 xs1).1)

/-- The pieces stored into the first accumulator at a middle point tile the buffer, so they cover it. -/
theorem scover8_B_0 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_B c t hc0 hc1 x0 x1 x2 x3 x4 x5 x6 x7 x8 xs0 xs1).2.1, y ∈ pc.1.set :=
  View.cover_of_tiledL (runAt8_B c t hc0 hc1 x0 x1 x2 x3 x4 x5 x6 x7 x8 xs0 xs1).2.1 S1x256.size (by sl_kernel_rfl) y

/-- What a middle point leaves in the first accumulator: its pieces read back over junk. -/
noncomputable def sout8_B_0 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_0.read (Elt F) (VS8_0.writes (Elt F) VS8_0.junk (runAt8_B c t hc0 hc1 x0 x1 x2 x3 x4 x5 x6 x7 x8 xs0 xs1).2.1)

/-- The pieces stored into the second accumulator at a middle point tile the buffer, so they cover it. -/
theorem scover8_B_1 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_B c t hc0 hc1 x0 x1 x2 x3 x4 x5 x6 x7 x8 xs0 xs1).2.2.1, y ∈ pc.1.set :=
  View.cover_of_tiledL (runAt8_B c t hc0 hc1 x0 x1 x2 x3 x4 x5 x6 x7 x8 xs0 xs1).2.2.1 S1x256.size (by sl_kernel_rfl) y

/-- What a middle point leaves in the second accumulator: its pieces read back over junk. -/
noncomputable def sout8_B_1 (c : Dev nD) (t : Fin cfg8.N) (hc0 : ¬cond8_0 (grid8.coords t)) (hc1 : ¬cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_1.read (Elt F) (VS8_1.writes (Elt F) VS8_1.junk (runAt8_B c t hc0 hc1 x0 x1 x2 x3 x4 x5 x6 x7 x8 xs0 xs1).2.2.1)

/-! ## What the last point leaves -/

/-- The body's run at point `t`, on the memrefs the pipeline passes there. -/
noncomputable abbrev runAt8_C (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) :=
  kernelRun8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) scM8_0 (Memref.isWhole_whole _) scM8_1 (Memref.isWhole_whole _) hc0 hc1 x0 x1 x2 x3 x4 x5 x6 x7 x8 xs0 xs1

/-- The pieces stored into the block output at the last point tile the buffer, so they cover it. -/
theorem cover8_C_9 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt8_C c t hc0 hc1 x0 x1 x2 x3 x4 x5 x6 x7 x8 xs0 xs1).1, y ∈ pc.1.set :=
  View.cover_of_tiledL (runAt8_C c t hc0 hc1 x0 x1 x2 x3 x4 x5 x6 x7 x8 xs0 xs1).1 S1000x256.size (by sl_kernel_rfl) y

/-- What the last point leaves in the block output: its pieces read back over junk. -/
noncomputable def out8_C_9 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1000x256 .f32 :=
  VO8_9.read (Elt F) (VO8_9.writes (Elt F) VO8_9.junk (runAt8_C c t hc0 hc1 x0 x1 x2 x3 x4 x5 x6 x7 x8 xs0 xs1).1)

/-- The pieces stored into the mean output at the last point tile the buffer, so they cover it. -/
theorem cover8_C_10 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.1, y ∈ pc.1.set :=
  View.cover_of_tiledL (runAt8_C c t hc0 hc1 x0 x1 x2 x3 x4 x5 x6 x7 x8 xs0 xs1).2.1 S1x256.size (by sl_kernel_rfl) y

/-- What the last point leaves in the mean output: its pieces read back over junk. -/
noncomputable def out8_C_10 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VO8_10.read (Elt F) (VO8_10.writes (Elt F) VO8_10.junk (runAt8_C c t hc0 hc1 x0 x1 x2 x3 x4 x5 x6 x7 x8 xs0 xs1).2.1)

/-- The pieces stored into the variance output at the last point tile the buffer, so they cover it. -/
theorem cover8_C_11 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.2.1, y ∈ pc.1.set :=
  View.cover_of_tiledL (runAt8_C c t hc0 hc1 x0 x1 x2 x3 x4 x5 x6 x7 x8 xs0 xs1).2.2.1 S1x256.size (by sl_kernel_rfl) y

/-- What the last point leaves in the variance output: its pieces read back over junk. -/
noncomputable def out8_C_11 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VO8_11.read (Elt F) (VO8_11.writes (Elt F) VO8_11.junk (runAt8_C c t hc0 hc1 x0 x1 x2 x3 x4 x5 x6 x7 x8 xs0 xs1).2.2.1)

/-- The pieces stored into the first accumulator at the last point tile the buffer, so they cover it. -/
theorem scover8_C_0 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.2.2.1, y ∈ pc.1.set :=
  View.cover_of_tiledL (runAt8_C c t hc0 hc1 x0 x1 x2 x3 x4 x5 x6 x7 x8 xs0 xs1).2.2.2.1 S1x256.size (by sl_kernel_rfl) y

/-- What the last point leaves in the first accumulator: its pieces read back over junk. -/
noncomputable def sout8_C_0 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_0.read (Elt F) (VS8_0.writes (Elt F) VS8_0.junk (runAt8_C c t hc0 hc1 x0 x1 x2 x3 x4 x5 x6 x7 x8 xs0 xs1).2.2.2.1)

/-- The pieces stored into the second accumulator at the last point tile the buffer, so they cover it. -/
theorem scover8_C_1 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt8_C c t hc0 hc1 x0 x1 x2 x3 x4 x5 x6 x7 x8 xs0 xs1).2.2.2.2.1, y ∈ pc.1.set :=
  View.cover_of_tiledL (runAt8_C c t hc0 hc1 x0 x1 x2 x3 x4 x5 x6 x7 x8 xs0 xs1).2.2.2.2.1 S1x256.size (by sl_kernel_rfl) y

/-- What the last point leaves in the second accumulator: its pieces read back over junk. -/
noncomputable def sout8_C_1 (c : Dev nD) (t : Fin cfg8.N) (hc0 : ¬cond8_0 (grid8.coords t)) (hc1 : cond8_1 (grid8.coords t))
    (x0 x1 x2 : Vec F S1000x256 .f32) (x3 x4 x5 x6 : Vec F S256x256 .f32) (x7 x8 : Vec F S1x256 .f32) (xs0 xs1 : Vec F S1x256 .f32) : Vec F S1x256 .f32 :=
  VS8_1.read (Elt F) (VS8_1.writes (Elt F) VS8_1.junk (runAt8_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle8_10 : Vec F S1x256 .f32 := VO8_10.read (Elt F) VO8_10.junk
noncomputable def idle8_11 : Vec F S1x256 .f32 := VO8_11.read (Elt F) VO8_11.junk

/-- The conditions at the grid's points, from their closed forms. -/
theorem first8_c0 (hn : 0 < cfg8.N) : cond8_0 (grid8.coords ⟨0, hn⟩) := (hcond8_0 ⟨0, hn⟩).mpr (Nat.zero_mod _)
theorem first8_c1 (hn : 0 < cfg8.N) : ¬cond8_1 (grid8.coords ⟨0, hn⟩) := fun h => by
  have h' := (hcond8_1 ⟨0, hn⟩).mp h; (try dsimp only at h'); omega
theorem later8_c0 (t : Fin cfg8.N) (ht : t.val ≠ 0) : ¬cond8_0 (grid8.coords t) := fun h => by
  have h' := (hcond8_0 t).mp h
  have hN : t.val < 20 := lt_of_lt_of_eq t.isLt (show cfg8.N = 20 from N_8)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt8 (c : Dev nD) : (n : ℕ) → n < cfg8.N → Vec F S1000x256 .f32 × Vec F S1x256 .f32 × Vec F S1x256 .f32 × Vec F S1x256 .f32 × Vec F S1x256 .f32
  | 0, hn => (out8_A_9 c ⟨0, hn⟩ (first8_c0 hn) (first8_c1 hn) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩), idle8_10, idle8_11, sout8_A_0 c ⟨0, hn⟩ (first8_c0 hn) (first8_c1 hn) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩), sout8_A_1 c ⟨0, hn⟩ (first8_c0 hn) (first8_c1 hn) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩))
  | n + 1, hn =>
    if h1 : (n + 1) % 20 = 19 then
      (out8_C_9 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, out8_C_10 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, out8_C_11 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, sout8_C_0 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, sout8_C_1 c ⟨n + 1, hn⟩ (later8_c0 ⟨n + 1, hn⟩ (Nat.succ_ne_zero n)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2)
    else
      (out8_B_9 c ⟨n + 1, hn⟩ (later8_c0 ⟨n + 1, hn⟩ (Nat.succ_ne_zero n)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, idle8_10, idle8_11, sout8_B_0 c ⟨n + 1, hn⟩ (later8_c0 ⟨n + 1, hn⟩ (Nat.succ_ne_zero n)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2, sout8_B_1 c ⟨n + 1, hn⟩ (later8_c0 ⟨n + 1, hn⟩ (Nat.succ_ne_zero n)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (outsAt8 c n (Nat.lt_of_succ_lt hn)).2.2.2.1 (outsAt8 c n (Nat.lt_of_succ_lt hn)).2.2.2.2)

/-- `outsAt8` at the first point: the reset case's contents. -/
theorem outsAt8_A (c : Dev nD) (t : Fin cfg8.N) (h0 : t.val = 0) (hc0 : cond8_0 (grid8.coords t)) (hc1 : ¬cond8_1 (grid8.coords t)) :
    outsAt8 V c t.val t.isLt = (out8_A_9 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t), idle8_10, idle8_11, sout8_A_0 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t), sout8_A_1 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t)) := by
  obtain ⟨n, hn⟩ := t
  cases n with
  | zero => rfl
  | succ n => exact absurd h0 (Nat.succ_ne_zero n)

/-- `outsAt8` at a middle point: that case's contents, over what the point before left in the accumulators. -/
theorem outsAt8_B (c : Dev nD) (t : Fin cfg8.N) (h0 : t.val ≠ 0) (h1 : ¬t.val % 20 = 19) (hc0 : ¬cond8_0 (grid8.coords t)) (hc1 : ¬cond8_1 (grid8.coords t)) :
    outsAt8 V c t.val t.isLt = (out8_B_9 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, idle8_10, idle8_11, sout8_B_0 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, sout8_B_1 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt8` at the last point: that case's contents, over what the point before left in the accumulators. -/
theorem outsAt8_C (c : Dev nD) (t : Fin cfg8.N) (h0 : t.val ≠ 0) (h1 : t.val % 20 = 19) (hc0 : ¬cond8_0 (grid8.coords t)) (hc1 : cond8_1 (grid8.coords t)) :
    outsAt8 V c t.val t.isLt = (out8_C_9 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, out8_C_10 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, out8_C_11 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, sout8_C_0 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2, sout8_C_1 c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut8 (c : Dev nD) : sProp 𝕄 :=
  Pipeline.scopedRestBut (Ix := Unit) (Name := ℕ) (U := UR sig nD τ) (Lvl := ℕ) (Val := Elt F) spec8 c [cc8_scratch0, cc8_scratch1]

/-- The region invariant before position `n`: before the first point the class's (every scratch at anything);
    afterwards the two accumulators at what the point before left in them (`outsAt8`'s last two components), the
    other scoped buffers unopened, and the generator register at some state. -/
noncomputable def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.2.1) ∗ owns (c : Thread nD τ) scM8_1 fullShare ((outsAt8 V c n hn).2.2.2.2)) ∗ restBut8 c) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulators at that point's contents. -/
theorem PhiS8_succ (c : Dev nD) (n : ℕ) (hn : n < cfg8.N) :
    PhiS8 V c (n + 1) hn = iprop(iprop(iprop(owns (c : Thread nD τ) scM8_0 fullShare ((outsAt8 V c n hn).2.2.2.1) ∗ owns (c : Thread nD τ) scM8_1 fullShare ((outsAt8 V c n hn).2.2.2.2)) ∗ restBut8 c) ∗ (∃ r, prngReg c r)) := rfl

/-- Before a point that is not the first: the accumulators at what the point before left. -/
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.2.1) ∗ owns (c : Thread nD τ) scM8_1 fullShare ((outsAt8 V c (n - 1) (by omega)).2.2.2.2)) ∗ restBut8 c) ∗ (∃ r, prngReg c r)) := by
  cases n with
  | zero => exact absurd rfl hz
  | succ n => rfl

/-! ## The pipeline's proof data -/

/-- The proof data of pipeline 8 on core `c`: the arrays as the region finds them (`V`); after the body at point
    `t` each input's buffer at its block and the outputs' at `outsAt8`; the invariant `PhiS8`; nothing owed; full
    shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => (outsAt8 V c t.val t.isLt).1
    | ⟨10, _⟩ => (outsAt8 V c t.val t.isLt).2.1
    | ⟨11, _⟩ => (outsAt8 V c t.val t.isLt).2.2.1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = (outsAt8 V c t.val t.isLt).1 := by dsimp only [dat8]
theorem after8_10 (c : Dev nD) (t : Fin cfg8.N) : (dat8 V c).after 10 t = (outsAt8 V c t.val t.isLt).2.1 := by dsimp only [dat8]
theorem after8_11 (c : Dev nD) (t : Fin cfg8.N) : (dat8 V c).after 11 t = (outsAt8 V c t.val t.isLt).2.2.1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body obligation, at a generic point -/

/-- What the body is called with at point `t` (the library's body obligation's precondition, the windows one by one), -/
noncomputable def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d))
    ∗ (∃ d, owns (c : Thread nD τ) (ms8_10 t) fullShare ((dat8 V c).before 10 t d))
    ∗ (∃ d, owns (c : Thread nD τ) (ms8_11 t) fullShare ((dat8 V c).before 11 t d)))

/-- and what it returns. -/
noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t
    ∗ (dat8 V c).leavesExact 10 t
    ∗ (dat8 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).owesAt () t.succ = (dat8 V c).owesAt () t.castSucc from rfl]
  rw [show (dat8 V c).Φ t.succ = PhiS8 V c (t.val + 1) t.isLt from rfl, PhiS8_succ]
  have hN : t.val < 20 := lt_of_lt_of_eq t.isLt (show cfg8.N = 20 from N_8)
  by_cases hz : t.val = 0
  · -- the first point: the reset
    have hc0 : cond8_0 (grid8.coords t) := (hcond8_0 t).mpr (by rw [hz])
    have hc1 : ¬cond8_1 (grid8.coords t) := fun h => by have h' := (hcond8_1 t).mp h; omega
    rw [show (dat8 V c).leavesExact 0 t = owns (c : Thread nD τ) (ms8_0 t) fullShare ((dat8 V c).after 0 t) from rfl, after8_0]
    rw [show (dat8 V c).leavesExact 1 t = owns (c : Thread nD τ) (ms8_1 t) fullShare ((dat8 V c).after 1 t) from rfl, after8_1]
    rw [show (dat8 V c).leavesExact 2 t = owns (c : Thread nD τ) (ms8_2 t) fullShare ((dat8 V c).after 2 t) from rfl, after8_2]
    rw [show (dat8 V c).leavesExact 3 t = owns (c : Thread nD τ) (ms8_3 t) fullShare ((dat8 V c).after 3 t) from rfl, after8_3]
    rw [show (dat8 V c).leavesExact 4 t = owns (c : Thread nD τ) (ms8_4 t) fullShare ((dat8 V c).after 4 t) from rfl, after8_4]
    rw [show (dat8 V c).leavesExact 5 t = owns (c : Thread nD τ) (ms8_5 t) fullShare ((dat8 V c).after 5 t) from rfl, after8_5]
    rw [show (dat8 V c).leavesExact 6 t = owns (c : Thread nD τ) (ms8_6 t) fullShare ((dat8 V c).after 6 t) from rfl, after8_6]
    rw [show (dat8 V c).leavesExact 7 t = owns (c : Thread nD τ) (ms8_7 t) fullShare ((dat8 V c).after 7 t) from rfl, after8_7]
    rw [show (dat8 V c).leavesExact 8 t = owns (c : Thread nD τ) (ms8_8 t) fullShare ((dat8 V c).after 8 t) from rfl, after8_8]
    rw [show (dat8 V c).leavesExact 9 t = owns (c : Thread nD τ) (ms8_9 t) fullShare ((dat8 V c).after 9 t) from rfl, after8_9]
    rw [Dat.leavesExact_idle (dat8 V c) 10 t (idleAt8_10 t hc1) (noFlush8_10 t hc1)]
    rw [Dat.leavesExact_idle (dat8 V c) 11 t (idleAt8_11 t hc1) (noFlush8_11 t hc1)]
    rw [outsAt8_A V c t hz hc0 hc1]
    unfold out8_A_9 sout8_A_0 sout8_A_1; (try dsimp only)
    rw [PhiS8_castSucc V c t, PhiS8_zero V c _ _ hz, PhiA8_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt8_A c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover8_A_0 c t _ _ _ _ _ _ _ _ _ _ _)
          unfold owns; iexists _; isplitr
          swap; · iexact HS1
          ipureintro; exact View.read_writes_of_cover _ _ _ _ _ (scover8_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover8_A_9 c t _ _ _ _ _ _ _ _ _ _ _)
    isplitl [H10]; · iexists _; iexact H10
    iexists _; iexact H11
  · have hc0 : ¬cond8_0 (grid8.coords t) := later8_c0 t hz
    by_cases h1 : t.val % 20 = 19
    · -- the last point: the write-out
      have hc1 : cond8_1 (grid8.coords t) := (hcond8_1 t).mpr h1
      rw [show (dat8 V c).leavesExact 0 t = owns (c : Thread nD τ) (ms8_0 t) fullShare ((dat8 V c).after 0 t) from rfl, after8_0]
      rw [show (dat8 V c).leavesExact 1 t = owns (c : Thread nD τ) (ms8_1 t) fullShare ((dat8 V c).after 1 t) from rfl, after8_1]
      rw [show (dat8 V c).leavesExact 2 t = owns (c : Thread nD τ) (ms8_2 t) fullShare ((dat8 V c).after 2 t) from rfl, after8_2]
      rw [show (dat8 V c).leavesExact 3 t = owns (c : Thread nD τ) (ms8_3 t) fullShare ((dat8 V c).after 3 t) from rfl, after8_3]
      rw [show (dat8 V c).leavesExact 4 t = owns (c : Thread nD τ) (ms8_4 t) fullShare ((dat8 V c).after 4 t) from rfl, after8_4]
      rw [show (dat8 V c).leavesExact 5 t = owns (c : Thread nD τ) (ms8_5 t) fullShare ((dat8 V c).after 5 t) from rfl, after8_5]
      rw [show (dat8 V c).leavesExact 6 t = owns (c : Thread nD τ) (ms8_6 t) fullShare ((dat8 V c).after 6 t) from rfl, after8_6]
      rw [show (dat8 V c).leavesExact 7 t = owns (c : Thread nD τ) (ms8_7 t) fullShare ((dat8 V c).after 7 t) from rfl, after8_7]
      rw [show (dat8 V c).leavesExact 8 t = owns (c : Thread nD τ) (ms8_8 t) fullShare ((dat8 V c).after 8 t) from rfl, after8_8]
      rw [show (dat8 V c).leavesExact 9 t = owns (c : Thread nD τ) (ms8_9 t) fullShare ((dat8 V c).after 9 t) from rfl, after8_9]
      rw [show (dat8 V c).leavesExact 10 t = owns (c : Thread nD τ) (ms8_10 t) fullShare ((dat8 V c).after 10 t) from by
        unfold Dat.leavesExact; rw [liveAt8_10 t hc1], after8_10]
      rw [show (dat8 V c).leavesExact 11 t = owns (c : Thread nD τ) (ms8_11 t) fullShare ((dat8 V c).after 11 t) from by
        unfold Dat.leavesExact; rw [liveAt8_11 t hc1], after8_11]
      rw [outsAt8_C V c t hz h1 hc0 hc1]
      unfold out8_C_9 out8_C_10 out8_C_11 sout8_C_0 sout8_C_1; (try dsimp only)
      rw [PhiS8_castSucc V c t, PhiS8_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt8_C c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_C_0 c t _ _ _ _ _ _ _ _ _ _ _ _ _)
            unfold owns; iexists _; isplitr
            swap; · iexact HS1
            ipureintro; exact View.read_writes_of_cover _ _ _ _ _ (scover8_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover8_C_9 c t _ _ _ _ _ _ _ _ _ _ _ _ _)
      isplitl [H10]
      · unfold owns; iexists _; isplitr
        swap; · iexact H10
        ipureintro; exact View.read_writes_of_cover _ _ _ _ _ (cover8_C_10 c t _ _ _ _ _ _ _ _ _ _ _ _ _)
      unfold owns; iexists _; isplitr
      swap; · iexact H11
      ipureintro; exact View.read_writes_of_cover _ _ _ _ _ (cover8_C_11 c t _ _ _ _ _ _ _ _ _ _ _ _ _)
    · -- a middle point
      have hc1 : ¬cond8_1 (grid8.coords t) := fun h => h1 ((hcond8_1 t).mp h)
      rw [show (dat8 V c).leavesExact 0 t = owns (c : Thread nD τ) (ms8_0 t) fullShare ((dat8 V c).after 0 t) from rfl, after8_0]
      rw [show (dat8 V c).leavesExact 1 t = owns (c : Thread nD τ) (ms8_1 t) fullShare ((dat8 V c).after 1 t) from rfl, after8_1]
      rw [show (dat8 V c).leavesExact 2 t = owns (c : Thread nD τ) (ms8_2 t) fullShare ((dat8 V c).after 2 t) from rfl, after8_2]
      rw [show (dat8 V c).leavesExact 3 t = owns (c : Thread nD τ) (ms8_3 t) fullShare ((dat8 V c).after 3 t) from rfl, after8_3]
      rw [show (dat8 V c).leavesExact 4 t = owns (c : Thread nD τ) (ms8_4 t) fullShare ((dat8 V c).after 4 t) from rfl, after8_4]
      rw [show (dat8 V c).leavesExact 5 t = owns (c : Thread nD τ) (ms8_5 t) fullShare ((dat8 V c).after 5 t) from rfl, after8_5]
      rw [show (dat8 V c).leavesExact 6 t = owns (c : Thread nD τ) (ms8_6 t) fullShare ((dat8 V c).after 6 t) from rfl, after8_6]
      rw [show (dat8 V c).leavesExact 7 t = owns (c : Thread nD τ) (ms8_7 t) fullShare ((dat8 V c).after 7 t) from rfl, after8_7]
      rw [show (dat8 V c).leavesExact 8 t = owns (c : Thread nD τ) (ms8_8 t) fullShare ((dat8 V c).after 8 t) from rfl, after8_8]
      rw [show (dat8 V c).leavesExact 9 t = owns (c : Thread nD τ) (ms8_9 t) fullShare ((dat8 V c).after 9 t) from rfl, after8_9]
      rw [Dat.leavesExact_idle (dat8 V c) 10 t (idleAt8_10 t hc1) (noFlush8_10 t hc1)]
      rw [Dat.leavesExact_idle (dat8 V c) 11 t (idleAt8_11 t hc1) (noFlush8_11 t hc1)]
      rw [outsAt8_B V c t hz h1 hc0 hc1]
      unfold out8_B_9 sout8_B_0 sout8_B_1; (try dsimp only)
      rw [PhiS8_castSucc V c t, PhiS8_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt8_B c t hc0 hc1 (iblk8 V c 0 t) (iblk8 V c 1 t) (iblk8 V c 2 t) (iblk8 V c 3 t) (iblk8 V c 4 t) (iblk8 V c 5 t) (iblk8 V c 6 t) (iblk8 V c 7 t) (iblk8 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover8_B_0 c t _ _ _ _ _ _ _ _ _ _ _ _ _)
            unfold owns; iexists _; isplitr
            swap; · iexact HS1
            ipureintro; exact View.read_writes_of_cover _ _ _ _ _ (scover8_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover8_B_9 c t _ _ _ _ _ _ _ _ _ _ _ _ _)
      isplitl [H10]; · iexists _; iexact H10
      iexists _; iexact H11

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulators' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 20 := N_8; omega)

end Cert.KernelIdeal.Hand

end
-- ==== Proof.KI.Reg9Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: custom call 9, the layer-2 combine of one node type, at the entry contents `V` -/

/-! ## The windows' blocks -/

/-- Window `w`'s block at point `t`, read off its array as the region finds it (`V`). -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (a window whose
    block index does not move is fetched at the first point only and keeps its block), for any proof data whose
    array is `V`'s and whose body leaves the block in place. One statement per input window. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions -/

/-- The condition of the first `scf.if` (the accumulators' reset), from the grid coordinates. -/
abbrev cond9_0 (i : grid9.Coords) : Prop := (Scalar.cmpi .ne (Scalar.extui (Scalar.cmpi .eq (BitVec.ofNat 32 (i 0).val) 0#32)) 0#32) = 1#1
/-- It holds at the first point only. -/
theorem hcond9_0 : ∀ t : Fin cfg9.N, cond9_0 (grid9.coords t) ↔ t.val % 50 = 0 :=
  (by decide +kernel : ∀ t : Fin grid9.N, cond9_0 (grid9.coords t) ↔ t.val % 50 = 0)

/-- The condition of the second `scf.if` (the statistics' write-out). -/
abbrev cond9_1 (i : grid9.Coords) : Prop := k9_cond2 i = 1#1
/-- It holds at the last point only. -/
theorem hcond9_1 : ∀ t : Fin cfg9.N, cond9_1 (grid9.coords t) ↔ t.val % 50 = 49 :=
  (by decide +kernel : ∀ t : Fin grid9.N, cond9_1 (grid9.coords t) ↔ t.val % 50 = 49)

/-! ## Where the windows are idle -/

/-- Output 9 is stored at every point. -/
theorem liveAt9_9 : ∀ t : Fin cfg9.N, cfg9.idle 9 (grid9.coords t) = false := by decide +kernel
/-- Outputs 10 and 11 are stored at the last point only: elsewhere idle and not written back. -/
theorem idleAt9_10 : ∀ t : Fin cfg9.N, ¬cond9_1 (grid9.coords t) → cfg9.idle 10 (grid9.coords t) = true := by decide +kernel
theorem noFlush9_10 : ∀ t : Fin cfg9.N, ¬cond9_1 (grid9.coords t) → (cfg9.win 10).flush t = false := by decide +kernel
theorem liveAt9_10 : ∀ t : Fin cfg9.N, cond9_1 (grid9.coords t) → cfg9.idle 10 (grid9.coords t) = false := by decide +kernel
theorem idleAt9_11 : ∀ t : Fin cfg9.N, ¬cond9_1 (grid9.coords t) → cfg9.idle 11 (grid9.coords t) = true := by decide +kernel
theorem noFlush9_11 : ∀ t : Fin cfg9.N, ¬cond9_1 (grid9.coords t) → (cfg9.win 11).flush t = false := by decide +kernel
theorem liveAt9_11 : ∀ t : Fin cfg9.N, cond9_1 (grid9.coords t) → cfg9.idle 11 (grid9.coords t) = false := by decide +kernel

/-! ## The staging and scratch memrefs -/

/-- One staging buffer of each output window, through which its contents are stated (the choice does not matter). -/
noncomputable abbrev VO9_9 : View sig .tc .vmem S1000x256 .f32 := (Memref.whole cc9_stg9_0 : Memref sig .tc .vmem S1000x256 .f32).view
noncomputable abbrev VO9_10 : View sig .tc .vmem S1x256 .f32 := (Memref.whole cc9_stg10_0 : Memref sig .tc .vmem S1x256 .f32).view
noncomputable abbrev VO9_11 : View sig .tc .vmem S1x256 .f32 := (Memref.whole cc9_stg11_0 : Memref sig .tc .vmem S1x256 .f32).view
/-- Each window's current staging memref at point `t`, spelled as the pipeline passes it, and its wholeness. -/
noncomputable abbrev ms9_0 (t : Fin cfg9.N) : Memref sig .tc .vmem S1000x256 .f32 := win9_0.stage (cfg9.slots t 0)
noncomputable abbrev hs9_0 (t : Fin cfg9.N) : (ms9_0 t).IsWhole := hstage9_0 ((cfg9.slots t 0).cast nbuf9_0)
noncomputable abbrev ms9_1 (t : Fin cfg9.N) : Memref sig .tc .vmem S1000x256 .f32 := win9_1.stage (cfg9.slots t 1)
noncomputable abbrev hs9_1 (t : Fin cfg9.N) : (ms9_1 t).IsWhole := hstage9_1 ((cfg9.slots t 1).cast nbuf9_1)
noncomputable abbrev ms9_2 (t : Fin cfg9.N) : Memref sig .tc .vmem S1000x256 .f32 := win9_2.stage (cfg9.slots t 2)
noncomputable abbrev hs9_2 (t : Fin cfg9.N) : (ms9_2 t).IsWhole := hstage9_2 ((cfg9.slots t 2).cast nbuf9_2)
noncomputable abbrev ms9_3 (t : Fin cfg9.N) : Memref sig .tc .vmem S256x256 .f32 := win9_3.stage (cfg9.slots t 3)
noncomputable abbrev hs9_3 (t : Fin cfg9.N) : (ms9_3 t).IsWhole := hstage9_3 ((cfg9.slots t 3).cast nbuf9_3)
noncomputable abbrev ms9_4 (t : Fin cfg9.N) : Memref sig .tc .vmem S256x256 .f32 := win9_4.stage (cfg9.slots t 4)
noncomputable abbrev hs9_4 (t : Fin cfg9.N) : (ms9_4 t).IsWhole := hstage9_4 ((cfg9.slots t 4).cast nbuf9_4)
noncomputable abbrev ms9_5 (t : Fin cfg9.N) : Memref sig .tc .vmem S256x256 .f32 := win9_5.stage (cfg9.slots t 5)
noncomputable abbrev hs9_5 (t : Fin cfg9.N) : (ms9_5 t).IsWhole := hstage9_5 ((cfg9.slots t 5).cast nbuf9_5)
noncomputable abbrev ms9_6 (t : Fin cfg9.N) : Memref sig .tc .vmem S256x256 .f32 := win9_6.stage (cfg9.slots t 6)
noncomputable abbrev hs9_6 (t : Fin cfg9.N) : (ms9_6 t).IsWhole := hstage9_6 ((cfg9.slots t 6).cast nbuf9_6)
noncomputable abbrev ms9_7 (t : Fin cfg9.N) : Memref sig .tc .vmem S1x256 .f32 := win9_7.stage (cfg9.slots t 7)
noncomputable abbrev hs9_7 (t : Fin cfg9.N) : (ms9_7 t).IsWhole := hstage9_7 ((cfg9.slots t 7).cast nbuf9_7)
noncomputable abbrev ms9_8 (t : Fin cfg9.N) : Memref sig .tc .vmem S1x256 .f32 := win9_8.stage (cfg9.slots t 8)
noncomputable abbrev hs9_8 (t : Fin cfg9.N) : (ms9_8 t).IsWhole := hstage9_8 ((cfg9.slots t 8).cast nbuf9_8)
noncomputable abbrev ms9_9 (t : Fin cfg9.N) : Memref sig .tc .vmem S1000x256 .f32 := win9_9.stage (cfg9.slots t 9)
noncomputable abbrev hs9_9 (t : Fin cfg9.N) : (ms9_9 t).IsWhole := hstage9_9 ((cfg9.slots t 9).cast nbuf9_9)
noncomputable abbrev ms9_10 (t : Fin cfg9.N) : Memref sig .tc .vmem S1x256 .f32 := win9_10.stage (cfg9.slots t 10)
noncomputable abbrev hs9_10 (t : Fin cfg9.N) : (ms9_10 t).IsWhole := hstage9_10 ((cfg9.slots t 10).cast nbuf9_10)
noncomputable abbrev ms9_11 (t : Fin cfg9.N) : Memref sig .tc .vmem S1x256 .f32 := win9_11.stage (cfg9.slots t 11)
noncomputable abbrev hs9_11 (t : Fin cfg9.N) : (ms9_11 t).IsWhole := hstage9_11 ((cfg9.slots t 11).cast nbuf9_11)
/-- The two scratch operands: whole scoped buffers of the kernel's own, passed beside the windows. -/
noncomputable abbrev scM9_0 : Memref sig .tc .vmem S1x256 .f32 := Memref.whole cc9_scratch0
noncomputable abbrev scM9_1 : Memref sig .tc .vmem S1x256 .f32 := Memref.whole cc9_scratch1
/-- The scratch accumulators the kernel carries between points, as views: what they hold is stated through them. -/
noncomputable abbrev VS9_0 : View sig .tc .vmem S1x256 .f32 := scM9_0.view
noncomputable abbrev VS9_1 : View sig .tc .vmem S1x256 .f32 := scM9_1.view

/-- The class invariant with the two scratch operands as memrefs owned at some contents, the other scoped buffers
    unopened: what the body obligation hands the run and takes back. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

end Cert.KernelIdeal.Hand

end
-- ==== Proof.KI.Reg9A.lean ====
import proofs.«126569_j1468878815453_1_alg».proof.Proof.KI.Reg9Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun9_A (c : Dev nD) (i : grid9.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond9_0 i) (hc1 : ¬cond9_1 i)
    (x0 x1 x2 : Vec F S1000x256 .f32) (x3 x4 x5 x6 : Vec F S256x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc9_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg9B.lean ====
import proofs.«126569_j1468878815453_1_alg».proof.Proof.KI.Reg9A

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun9_B (c : Dev nD) (i : grid9.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond9_0 i) (hc1 : ¬cond9_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc9_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg9C.lean ====
import proofs.«126569_j1468878815453_1_alg».proof.Proof.KI.Reg9B

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun9_C (c : Dev nD) (i : grid9.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond9_0 i) (hc1 : cond9_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc9_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Reg9.lean ====
import proofs.«126569_j1468878815453_1_alg».proof.Proof.KI.Reg9C

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9 of @main: what the kernel leaves point by point, the proof data, the body obligation -/

/-! ## What the first point leaves -/

/-- The body's run at point `t`, on the memrefs the pipeline passes there. -/
noncomputable abbrev runAt9_A (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) :=
  kernelRun9_A c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) scM9_0 (Memref.isWhole_whole _) scM9_1 (Memref.isWhole_whole _) hc0 hc1 x0 x1 x2 x3 x4 x5 x6 x7 x8

/-- The pieces stored into the block output at the first point tile the buffer, so they cover it. -/
theorem cover9_A_9 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) (y : S1000x256.Idx) :
    ∃ pc ∈ (runAt9_A c t hc0 hc1 x0 x1 x2 x3 x4 x5 x6 x7 x8).1, y ∈ pc.1.set :=
  View.cover_of_tiledL (runAt9_A c t hc0 hc1 x0 x1 x2 x3 x4 x5 x6 x7 x8).1 S1000x256.size (by sl_kernel_rfl) y

/-- What the first point leaves in the block output: its pieces read back over junk. -/
noncomputable def out9_A_9 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) : Vec F S1000x256 .f32 :=
  VO9_9.read (Elt F) (VO9_9.writes (Elt F) VO9_9.junk (runAt9_A c t hc0 hc1 x0 x1 x2 x3 x4 x5 x6 x7 x8).1)

/-- The pieces stored into the first accumulator at the first point tile the buffer, so they cover it. -/
theorem scover9_A_0 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) (y : S1x256.Idx) :
    ∃ pc ∈ (runAt9_A c t hc0 hc1 x0 x1 x2 x3 x4 x5 x6 x7 x8).2.1, y ∈ pc.1.set :=
  View.cover_of_tiledL (runAt9_A c t hc0 hc1 x0 x1 x2 x3 x4 x5 x6 x7 x8).2.1 S1x256.size (by sl_kernel_rfl) y

/-- What the first point leaves in the first accumulator: its pieces read back over junk. -/
noncomputable def sout9_A_0 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) : Vec F S1x256 .f32 :=
  VS9_0.read (Elt F) (VS9_0.writes (Elt F) VS9_0.junk (runAt9_A c t hc0 hc1 x0 x1 x2 x3 x4 x5 x6 x7 x8).2.1)

/-- The pieces stored into the second accumulator at the first point tile the buffer, so they cover it. -/
theorem scover9_A_1 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) (y : S1x256.Idx) :
    ∃ pc ∈ (runAt9_A c t hc0 hc1 x0 x1 x2 x3 x4 x5 x6 x7 x8).2.2.1, y ∈ pc.1.set :=
  View.cover_of_tiledL (runAt9_A c t hc0 hc1 x0 x1 x2 x3 x4 x5 x6 x7 x8).2.2.1 S1x256.size (by sl_kernel_rfl) y

/-- What the first point leaves in the second accumulator: its pieces read back over junk. -/
noncomputable def sout9_A_1 (c : Dev nD) (t : Fin cfg9.N) (hc0 : cond9_0 (grid9.coords t)) (hc1 : ¬cond9_1 (grid9.coords t))
    (x0 x1 x2 : Vec F S1000x256 .f32) (x3 x4 x5 x6 : Vec F S256x256 .f32) (x7 x8 : Vec F S1x256 .f32) : Vec F S1x256 .f32 :=
  VS9_1.read (Elt F) (VS9_1.writes (Elt F) VS9_1.junk (runAt9_A c t hc0 hc1 x0 x1 x2 x3 x4 x5 x6 x7 x8).2.2.1)

/-! ## What a middle point leaves -/

/-- The body's run at point `t`, on the memrefs the pipeline passes there. -/
noncomputable abbrev runAt9_B (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) :=
  kernelRun9_B c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) scM9_0 (Memref.isWhole_whole _) scM9_1 (Memref.isWhole_whole _) hc0 hc1 x0 x1 x2 x3 x4 x5 x6 x7 x8 xs0 xs1

/-- The pieces stored into the block output at a middle point tile the buffer, so they cover it. -/
theorem cover9_B_9 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt9_B c t hc0 hc1 x0 x1 x2 x3 x4 x5 x6 x7 x8 xs0 xs1).1, y ∈ pc.1.set :=
  View.cover_of_tiledL (runAt9_B c t hc0 hc1 x0 x1 x2 x3 x4 x5 x6 x7 x8 xs0 xs1).1 S1000x256.size (by sl_kernel_rfl) y

/-- What a middle point leaves in the block output: its pieces read back over junk. -/
noncomputable def out9_B_9 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) : Vec F S1000x256 .f32 :=
  VO9_9.read (Elt F) (VO9_9.writes (Elt F) VO9_9.junk (runAt9_B c t hc0 hc1 x0 x1 x2 x3 x4 x5 x6 x7 x8 xs0 xs1).1)

/-- The pieces stored into the first accumulator at a middle point tile the buffer, so they cover it. -/
theorem scover9_B_0 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_B c t hc0 hc1 x0 x1 x2 x3 x4 x5 x6 x7 x8 xs0 xs1).2.1, y ∈ pc.1.set :=
  View.cover_of_tiledL (runAt9_B c t hc0 hc1 x0 x1 x2 x3 x4 x5 x6 x7 x8 xs0 xs1).2.1 S1x256.size (by sl_kernel_rfl) y

/-- What a middle point leaves in the first accumulator: its pieces read back over junk. -/
noncomputable def sout9_B_0 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_0.read (Elt F) (VS9_0.writes (Elt F) VS9_0.junk (runAt9_B c t hc0 hc1 x0 x1 x2 x3 x4 x5 x6 x7 x8 xs0 xs1).2.1)

/-- The pieces stored into the second accumulator at a middle point tile the buffer, so they cover it. -/
theorem scover9_B_1 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_B c t hc0 hc1 x0 x1 x2 x3 x4 x5 x6 x7 x8 xs0 xs1).2.2.1, y ∈ pc.1.set :=
  View.cover_of_tiledL (runAt9_B c t hc0 hc1 x0 x1 x2 x3 x4 x5 x6 x7 x8 xs0 xs1).2.2.1 S1x256.size (by sl_kernel_rfl) y

/-- What a middle point leaves in the second accumulator: its pieces read back over junk. -/
noncomputable def sout9_B_1 (c : Dev nD) (t : Fin cfg9.N) (hc0 : ¬cond9_0 (grid9.coords t)) (hc1 : ¬cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_1.read (Elt F) (VS9_1.writes (Elt F) VS9_1.junk (runAt9_B c t hc0 hc1 x0 x1 x2 x3 x4 x5 x6 x7 x8 xs0 xs1).2.2.1)

/-! ## What the last point leaves -/

/-- The body's run at point `t`, on the memrefs the pipeline passes there. -/
noncomputable abbrev runAt9_C (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) :=
  kernelRun9_C c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) scM9_0 (Memref.isWhole_whole _) scM9_1 (Memref.isWhole_whole _) hc0 hc1 x0 x1 x2 x3 x4 x5 x6 x7 x8 xs0 xs1

/-- The pieces stored into the block output at the last point tile the buffer, so they cover it. -/
theorem cover9_C_9 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt9_C c t hc0 hc1 x0 x1 x2 x3 x4 x5 x6 x7 x8 xs0 xs1).1, y ∈ pc.1.set :=
  View.cover_of_tiledL (runAt9_C c t hc0 hc1 x0 x1 x2 x3 x4 x5 x6 x7 x8 xs0 xs1).1 S1000x256.size (by sl_kernel_rfl) y

/-- What the last point leaves in the block output: its pieces read back over junk. -/
noncomputable def out9_C_9 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1000x256 .f32 :=
  VO9_9.read (Elt F) (VO9_9.writes (Elt F) VO9_9.junk (runAt9_C c t hc0 hc1 x0 x1 x2 x3 x4 x5 x6 x7 x8 xs0 xs1).1)

/-- The pieces stored into the mean output at the last point tile the buffer, so they cover it. -/
theorem cover9_C_10 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.1, y ∈ pc.1.set :=
  View.cover_of_tiledL (runAt9_C c t hc0 hc1 x0 x1 x2 x3 x4 x5 x6 x7 x8 xs0 xs1).2.1 S1x256.size (by sl_kernel_rfl) y

/-- What the last point leaves in the mean output: its pieces read back over junk. -/
noncomputable def out9_C_10 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VO9_10.read (Elt F) (VO9_10.writes (Elt F) VO9_10.junk (runAt9_C c t hc0 hc1 x0 x1 x2 x3 x4 x5 x6 x7 x8 xs0 xs1).2.1)

/-- The pieces stored into the variance output at the last point tile the buffer, so they cover it. -/
theorem cover9_C_11 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.2.1, y ∈ pc.1.set :=
  View.cover_of_tiledL (runAt9_C c t hc0 hc1 x0 x1 x2 x3 x4 x5 x6 x7 x8 xs0 xs1).2.2.1 S1x256.size (by sl_kernel_rfl) y

/-- What the last point leaves in the variance output: its pieces read back over junk. -/
noncomputable def out9_C_11 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VO9_11.read (Elt F) (VO9_11.writes (Elt F) VO9_11.junk (runAt9_C c t hc0 hc1 x0 x1 x2 x3 x4 x5 x6 x7 x8 xs0 xs1).2.2.1)

/-- The pieces stored into the first accumulator at the last point tile the buffer, so they cover it. -/
theorem scover9_C_0 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.2.2.1, y ∈ pc.1.set :=
  View.cover_of_tiledL (runAt9_C c t hc0 hc1 x0 x1 x2 x3 x4 x5 x6 x7 x8 xs0 xs1).2.2.2.1 S1x256.size (by sl_kernel_rfl) y

/-- What the last point leaves in the first accumulator: its pieces read back over junk. -/
noncomputable def sout9_C_0 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_0.read (Elt F) (VS9_0.writes (Elt F) VS9_0.junk (runAt9_C c t hc0 hc1 x0 x1 x2 x3 x4 x5 x6 x7 x8 xs0 xs1).2.2.2.1)

/-- The pieces stored into the second accumulator at the last point tile the buffer, so they cover it. -/
theorem scover9_C_1 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt9_C c t hc0 hc1 x0 x1 x2 x3 x4 x5 x6 x7 x8 xs0 xs1).2.2.2.2.1, y ∈ pc.1.set :=
  View.cover_of_tiledL (runAt9_C c t hc0 hc1 x0 x1 x2 x3 x4 x5 x6 x7 x8 xs0 xs1).2.2.2.2.1 S1x256.size (by sl_kernel_rfl) y

/-- What the last point leaves in the second accumulator: its pieces read back over junk. -/
noncomputable def sout9_C_1 (c : Dev nD) (t : Fin cfg9.N) (hc0 : ¬cond9_0 (grid9.coords t)) (hc1 : cond9_1 (grid9.coords t))
    (x0 x1 x2 : Vec F S1000x256 .f32) (x3 x4 x5 x6 : Vec F S256x256 .f32) (x7 x8 : Vec F S1x256 .f32) (xs0 xs1 : Vec F S1x256 .f32) : Vec F S1x256 .f32 :=
  VS9_1.read (Elt F) (VS9_1.writes (Elt F) VS9_1.junk (runAt9_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle9_10 : Vec F S1x256 .f32 := VO9_10.read (Elt F) VO9_10.junk
noncomputable def idle9_11 : Vec F S1x256 .f32 := VO9_11.read (Elt F) VO9_11.junk

/-- The conditions at the grid's points, from their closed forms. -/
theorem first9_c0 (hn : 0 < cfg9.N) : cond9_0 (grid9.coords ⟨0, hn⟩) := (hcond9_0 ⟨0, hn⟩).mpr (Nat.zero_mod _)
theorem first9_c1 (hn : 0 < cfg9.N) : ¬cond9_1 (grid9.coords ⟨0, hn⟩) := fun h => by
  have h' := (hcond9_1 ⟨0, hn⟩).mp h; (try dsimp only at h'); omega
theorem later9_c0 (t : Fin cfg9.N) (ht : t.val ≠ 0) : ¬cond9_0 (grid9.coords t) := fun h => by
  have h' := (hcond9_0 t).mp h
  have hN : t.val < 50 := lt_of_lt_of_eq t.isLt (show cfg9.N = 50 from N_9)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt9 (c : Dev nD) : (n : ℕ) → n < cfg9.N → Vec F S1000x256 .f32 × Vec F S1x256 .f32 × Vec F S1x256 .f32 × Vec F S1x256 .f32 × Vec F S1x256 .f32
  | 0, hn => (out9_A_9 c ⟨0, hn⟩ (first9_c0 hn) (first9_c1 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩) (iblk9 V c 7 ⟨0, hn⟩) (iblk9 V c 8 ⟨0, hn⟩), idle9_10, idle9_11, sout9_A_0 c ⟨0, hn⟩ (first9_c0 hn) (first9_c1 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩) (iblk9 V c 7 ⟨0, hn⟩) (iblk9 V c 8 ⟨0, hn⟩), sout9_A_1 c ⟨0, hn⟩ (first9_c0 hn) (first9_c1 hn) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩) (iblk9 V c 6 ⟨0, hn⟩) (iblk9 V c 7 ⟨0, hn⟩) (iblk9 V c 8 ⟨0, hn⟩))
  | n + 1, hn =>
    if h1 : (n + 1) % 50 = 49 then
      (out9_C_9 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, out9_C_10 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, out9_C_11 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, sout9_C_0 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, sout9_C_1 c ⟨n + 1, hn⟩ (later9_c0 ⟨n + 1, hn⟩ (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2)
    else
      (out9_B_9 c ⟨n + 1, hn⟩ (later9_c0 ⟨n + 1, hn⟩ (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, idle9_10, idle9_11, sout9_B_0 c ⟨n + 1, hn⟩ (later9_c0 ⟨n + 1, hn⟩ (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2, sout9_B_1 c ⟨n + 1, hn⟩ (later9_c0 ⟨n + 1, hn⟩ (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (iblk9 V c 6 ⟨n + 1, hn⟩) (iblk9 V c 7 ⟨n + 1, hn⟩) (iblk9 V c 8 ⟨n + 1, hn⟩) (outsAt9 c n (Nat.lt_of_succ_lt hn)).2.2.2.1 (outsAt9 c n (Nat.lt_of_succ_lt hn)).2.2.2.2)

/-- `outsAt9` at the first point: the reset case's contents. -/
theorem outsAt9_A (c : Dev nD) (t : Fin cfg9.N) (h0 : t.val = 0) (hc0 : cond9_0 (grid9.coords t)) (hc1 : ¬cond9_1 (grid9.coords t)) :
    outsAt9 V c t.val t.isLt = (out9_A_9 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t), idle9_10, idle9_11, sout9_A_0 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t), sout9_A_1 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t)) := by
  obtain ⟨n, hn⟩ := t
  cases n with
  | zero => rfl
  | succ n => exact absurd h0 (Nat.succ_ne_zero n)

/-- `outsAt9` at a middle point: that case's contents, over what the point before left in the accumulators. -/
theorem outsAt9_B (c : Dev nD) (t : Fin cfg9.N) (h0 : t.val ≠ 0) (h1 : ¬t.val % 50 = 49) (hc0 : ¬cond9_0 (grid9.coords t)) (hc1 : ¬cond9_1 (grid9.coords t)) :
    outsAt9 V c t.val t.isLt = (out9_B_9 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, idle9_10, idle9_11, sout9_B_0 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, sout9_B_1 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt9` at the last point: that case's contents, over what the point before left in the accumulators. -/
theorem outsAt9_C (c : Dev nD) (t : Fin cfg9.N) (h0 : t.val ≠ 0) (h1 : t.val % 50 = 49) (hc0 : ¬cond9_0 (grid9.coords t)) (hc1 : cond9_1 (grid9.coords t)) :
    outsAt9 V c t.val t.isLt = (out9_C_9 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, out9_C_10 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, out9_C_11 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, sout9_C_0 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2, sout9_C_1 c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) (outsAt9 V c (t.val - 1) (Nat.lt_of_le_of_lt (Nat.sub_le _ _) t.isLt)).2.2.2.1 (outsAt9 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut9 (c : Dev nD) : sProp 𝕄 :=
  Pipeline.scopedRestBut (Ix := Unit) (Name := ℕ) (U := UR sig nD τ) (Lvl := ℕ) (Val := Elt F) spec9 c [cc9_scratch0, cc9_scratch1]

/-- The region invariant before position `n`: before the first point the class's (every scratch at anything);
    afterwards the two accumulators at what the point before left in them (`outsAt9`'s last two components), the
    other scoped buffers unopened, and the generator register at some state. -/
noncomputable def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.2.2.1) ∗ owns (c : Thread nD τ) scM9_1 fullShare ((outsAt9 V c n hn).2.2.2.2)) ∗ restBut9 c) ∗ (∃ r, prngReg c r))

theorem PhiS9_zero (c : Dev nD) (n : ℕ) (h : n ≤ cfg9.N) (hz : n = 0) : PhiS9 V c n h = Pipeline.ΦA spec9 c := by
  subst hz; rfl

/-- After point `n` (before point `n + 1`): the accumulators at that point's contents. -/
theorem PhiS9_succ (c : Dev nD) (n : ℕ) (hn : n < cfg9.N) :
    PhiS9 V c (n + 1) hn = iprop(iprop(iprop(owns (c : Thread nD τ) scM9_0 fullShare ((outsAt9 V c n hn).2.2.2.1) ∗ owns (c : Thread nD τ) scM9_1 fullShare ((outsAt9 V c n hn).2.2.2.2)) ∗ restBut9 c) ∗ (∃ r, prngReg c r)) := rfl

/-- Before a point that is not the first: the accumulators at what the point before left. -/
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.2.2.1) ∗ owns (c : Thread nD τ) scM9_1 fullShare ((outsAt9 V c (n - 1) (by omega)).2.2.2.2)) ∗ restBut9 c) ∗ (∃ r, prngReg c r)) := by
  cases n with
  | zero => exact absurd rfl hz
  | succ n => rfl

/-! ## The pipeline's proof data -/

/-- The proof data of pipeline 9 on core `c`: the arrays as the region finds them (`V`); after the body at point
    `t` each input's buffer at its block and the outputs' at `outsAt9`; the invariant `PhiS9`; nothing owed; full
    shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => (outsAt9 V c t.val t.isLt).1
    | ⟨10, _⟩ => (outsAt9 V c t.val t.isLt).2.1
    | ⟨11, _⟩ => (outsAt9 V c t.val t.isLt).2.2.1
  Φ t := PhiS9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = (outsAt9 V c t.val t.isLt).1 := by dsimp only [dat9]
theorem after9_10 (c : Dev nD) (t : Fin cfg9.N) : (dat9 V c).after 10 t = (outsAt9 V c t.val t.isLt).2.1 := by dsimp only [dat9]
theorem after9_11 (c : Dev nD) (t : Fin cfg9.N) : (dat9 V c).after 11 t = (outsAt9 V c t.val t.isLt).2.2.1 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d

/-! ## The body obligation, at a generic point -/

/-- What the body is called with at point `t` (the library's body obligation's precondition, the windows one by one), -/
noncomputable def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d))
    ∗ (∃ d, owns (c : Thread nD τ) (ms9_8 t) fullShare ((dat9 V c).before 8 t d))
    ∗ (∃ d, owns (c : Thread nD τ) (ms9_9 t) fullShare ((dat9 V c).before 9 t d))
    ∗ (∃ d, owns (c : Thread nD τ) (ms9_10 t) fullShare ((dat9 V c).before 10 t d))
    ∗ (∃ d, owns (c : Thread nD τ) (ms9_11 t) fullShare ((dat9 V c).before 11 t d)))

/-- and what it returns. -/
noncomputable def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t
    ∗ (dat9 V c).leavesExact 7 t
    ∗ (dat9 V c).leavesExact 8 t
    ∗ (dat9 V c).leavesExact 9 t
    ∗ (dat9 V c).leavesExact 10 t
    ∗ (dat9 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8]
  rw [show (dat9 V c).owesAt () t.succ = (dat9 V c).owesAt () t.castSucc from rfl]
  rw [show (dat9 V c).Φ t.succ = PhiS9 V c (t.val + 1) t.isLt from rfl, PhiS9_succ]
  have hN : t.val < 50 := lt_of_lt_of_eq t.isLt (show cfg9.N = 50 from N_9)
  by_cases hz : t.val = 0
  · -- the first point: the reset
    have hc0 : cond9_0 (grid9.coords t) := (hcond9_0 t).mpr (by rw [hz])
    have hc1 : ¬cond9_1 (grid9.coords t) := fun h => by have h' := (hcond9_1 t).mp h; omega
    rw [show (dat9 V c).leavesExact 0 t = owns (c : Thread nD τ) (ms9_0 t) fullShare ((dat9 V c).after 0 t) from rfl, after9_0]
    rw [show (dat9 V c).leavesExact 1 t = owns (c : Thread nD τ) (ms9_1 t) fullShare ((dat9 V c).after 1 t) from rfl, after9_1]
    rw [show (dat9 V c).leavesExact 2 t = owns (c : Thread nD τ) (ms9_2 t) fullShare ((dat9 V c).after 2 t) from rfl, after9_2]
    rw [show (dat9 V c).leavesExact 3 t = owns (c : Thread nD τ) (ms9_3 t) fullShare ((dat9 V c).after 3 t) from rfl, after9_3]
    rw [show (dat9 V c).leavesExact 4 t = owns (c : Thread nD τ) (ms9_4 t) fullShare ((dat9 V c).after 4 t) from rfl, after9_4]
    rw [show (dat9 V c).leavesExact 5 t = owns (c : Thread nD τ) (ms9_5 t) fullShare ((dat9 V c).after 5 t) from rfl, after9_5]
    rw [show (dat9 V c).leavesExact 6 t = owns (c : Thread nD τ) (ms9_6 t) fullShare ((dat9 V c).after 6 t) from rfl, after9_6]
    rw [show (dat9 V c).leavesExact 7 t = owns (c : Thread nD τ) (ms9_7 t) fullShare ((dat9 V c).after 7 t) from rfl, after9_7]
    rw [show (dat9 V c).leavesExact 8 t = owns (c : Thread nD τ) (ms9_8 t) fullShare ((dat9 V c).after 8 t) from rfl, after9_8]
    rw [show (dat9 V c).leavesExact 9 t = owns (c : Thread nD τ) (ms9_9 t) fullShare ((dat9 V c).after 9 t) from rfl, after9_9]
    rw [Dat.leavesExact_idle (dat9 V c) 10 t (idleAt9_10 t hc1) (noFlush9_10 t hc1)]
    rw [Dat.leavesExact_idle (dat9 V c) 11 t (idleAt9_11 t hc1) (noFlush9_11 t hc1)]
    rw [outsAt9_A V c t hz hc0 hc1]
    unfold out9_A_9 sout9_A_0 sout9_A_1; (try dsimp only)
    rw [PhiS9_castSucc V c t, PhiS9_zero V c _ _ hz, PhiA9_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt9_A c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover9_A_0 c t _ _ _ _ _ _ _ _ _ _ _)
          unfold owns; iexists _; isplitr
          swap; · iexact HS1
          ipureintro; exact View.read_writes_of_cover _ _ _ _ _ (scover9_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover9_A_9 c t _ _ _ _ _ _ _ _ _ _ _)
    isplitl [H10]; · iexists _; iexact H10
    iexists _; iexact H11
  · have hc0 : ¬cond9_0 (grid9.coords t) := later9_c0 t hz
    by_cases h1 : t.val % 50 = 49
    · -- the last point: the write-out
      have hc1 : cond9_1 (grid9.coords t) := (hcond9_1 t).mpr h1
      rw [show (dat9 V c).leavesExact 0 t = owns (c : Thread nD τ) (ms9_0 t) fullShare ((dat9 V c).after 0 t) from rfl, after9_0]
      rw [show (dat9 V c).leavesExact 1 t = owns (c : Thread nD τ) (ms9_1 t) fullShare ((dat9 V c).after 1 t) from rfl, after9_1]
      rw [show (dat9 V c).leavesExact 2 t = owns (c : Thread nD τ) (ms9_2 t) fullShare ((dat9 V c).after 2 t) from rfl, after9_2]
      rw [show (dat9 V c).leavesExact 3 t = owns (c : Thread nD τ) (ms9_3 t) fullShare ((dat9 V c).after 3 t) from rfl, after9_3]
      rw [show (dat9 V c).leavesExact 4 t = owns (c : Thread nD τ) (ms9_4 t) fullShare ((dat9 V c).after 4 t) from rfl, after9_4]
      rw [show (dat9 V c).leavesExact 5 t = owns (c : Thread nD τ) (ms9_5 t) fullShare ((dat9 V c).after 5 t) from rfl, after9_5]
      rw [show (dat9 V c).leavesExact 6 t = owns (c : Thread nD τ) (ms9_6 t) fullShare ((dat9 V c).after 6 t) from rfl, after9_6]
      rw [show (dat9 V c).leavesExact 7 t = owns (c : Thread nD τ) (ms9_7 t) fullShare ((dat9 V c).after 7 t) from rfl, after9_7]
      rw [show (dat9 V c).leavesExact 8 t = owns (c : Thread nD τ) (ms9_8 t) fullShare ((dat9 V c).after 8 t) from rfl, after9_8]
      rw [show (dat9 V c).leavesExact 9 t = owns (c : Thread nD τ) (ms9_9 t) fullShare ((dat9 V c).after 9 t) from rfl, after9_9]
      rw [show (dat9 V c).leavesExact 10 t = owns (c : Thread nD τ) (ms9_10 t) fullShare ((dat9 V c).after 10 t) from by
        unfold Dat.leavesExact; rw [liveAt9_10 t hc1], after9_10]
      rw [show (dat9 V c).leavesExact 11 t = owns (c : Thread nD τ) (ms9_11 t) fullShare ((dat9 V c).after 11 t) from by
        unfold Dat.leavesExact; rw [liveAt9_11 t hc1], after9_11]
      rw [outsAt9_C V c t hz h1 hc0 hc1]
      unfold out9_C_9 out9_C_10 out9_C_11 sout9_C_0 sout9_C_1; (try dsimp only)
      rw [PhiS9_castSucc V c t, PhiS9_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt9_C c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover9_C_0 c t _ _ _ _ _ _ _ _ _ _ _ _ _)
            unfold owns; iexists _; isplitr
            swap; · iexact HS1
            ipureintro; exact View.read_writes_of_cover _ _ _ _ _ (scover9_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover9_C_9 c t _ _ _ _ _ _ _ _ _ _ _ _ _)
      isplitl [H10]
      · unfold owns; iexists _; isplitr
        swap; · iexact H10
        ipureintro; exact View.read_writes_of_cover _ _ _ _ _ (cover9_C_10 c t _ _ _ _ _ _ _ _ _ _ _ _ _)
      unfold owns; iexists _; isplitr
      swap; · iexact H11
      ipureintro; exact View.read_writes_of_cover _ _ _ _ _ (cover9_C_11 c t _ _ _ _ _ _ _ _ _ _ _ _ _)
    · -- a middle point
      have hc1 : ¬cond9_1 (grid9.coords t) := fun h => h1 ((hcond9_1 t).mp h)
      rw [show (dat9 V c).leavesExact 0 t = owns (c : Thread nD τ) (ms9_0 t) fullShare ((dat9 V c).after 0 t) from rfl, after9_0]
      rw [show (dat9 V c).leavesExact 1 t = owns (c : Thread nD τ) (ms9_1 t) fullShare ((dat9 V c).after 1 t) from rfl, after9_1]
      rw [show (dat9 V c).leavesExact 2 t = owns (c : Thread nD τ) (ms9_2 t) fullShare ((dat9 V c).after 2 t) from rfl, after9_2]
      rw [show (dat9 V c).leavesExact 3 t = owns (c : Thread nD τ) (ms9_3 t) fullShare ((dat9 V c).after 3 t) from rfl, after9_3]
      rw [show (dat9 V c).leavesExact 4 t = owns (c : Thread nD τ) (ms9_4 t) fullShare ((dat9 V c).after 4 t) from rfl, after9_4]
      rw [show (dat9 V c).leavesExact 5 t = owns (c : Thread nD τ) (ms9_5 t) fullShare ((dat9 V c).after 5 t) from rfl, after9_5]
      rw [show (dat9 V c).leavesExact 6 t = owns (c : Thread nD τ) (ms9_6 t) fullShare ((dat9 V c).after 6 t) from rfl, after9_6]
      rw [show (dat9 V c).leavesExact 7 t = owns (c : Thread nD τ) (ms9_7 t) fullShare ((dat9 V c).after 7 t) from rfl, after9_7]
      rw [show (dat9 V c).leavesExact 8 t = owns (c : Thread nD τ) (ms9_8 t) fullShare ((dat9 V c).after 8 t) from rfl, after9_8]
      rw [show (dat9 V c).leavesExact 9 t = owns (c : Thread nD τ) (ms9_9 t) fullShare ((dat9 V c).after 9 t) from rfl, after9_9]
      rw [Dat.leavesExact_idle (dat9 V c) 10 t (idleAt9_10 t hc1) (noFlush9_10 t hc1)]
      rw [Dat.leavesExact_idle (dat9 V c) 11 t (idleAt9_11 t hc1) (noFlush9_11 t hc1)]
      rw [outsAt9_B V c t hz h1 hc0 hc1]
      unfold out9_B_9 sout9_B_0 sout9_B_1; (try dsimp only)
      rw [PhiS9_castSucc V c t, PhiS9_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt9_B c t hc0 hc1 (iblk9 V c 0 t) (iblk9 V c 1 t) (iblk9 V c 2 t) (iblk9 V c 3 t) (iblk9 V c 4 t) (iblk9 V c 5 t) (iblk9 V c 6 t) (iblk9 V c 7 t) (iblk9 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover9_B_0 c t _ _ _ _ _ _ _ _ _ _ _ _ _)
            unfold owns; iexists _; isplitr
            swap; · iexact HS1
            ipureintro; exact View.read_writes_of_cover _ _ _ _ _ (scover9_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover9_B_9 c t _ _ _ _ _ _ _ _ _ _ _ _ _)
      isplitl [H10]; · iexists _; iexact H10
      iexists _; iexact H11

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the class's back: the accumulators' named contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout9 (c : Dev nD) : (dat9 V c).Φ (Fin.last cfg9.N) ⊢ Pipeline.ΦA spec9 c :=
  Phi_out9 V c _ (by rw [Fin.val_last]; have : cfg9.N = 50 := N_9; omega)

end Cert.KernelIdeal.Hand

end
-- ==== Proof.KI.Reg10Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: custom call 10, the layer-2 combine of one node type, at the entry contents `V` -/

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not (a window whose
    block index does not move is fetched at the first point only and keeps its block), for any proof data whose
    array is `V`'s and whose body leaves the block in place. One statement per input window. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch conditions -/

/-- The condition of the first `scf.if` (the accumulators' reset), from the grid coordinates. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 10 = 0 :=
  (by decide +kernel : ∀ t : Fin grid10.N, cond10_0 (grid10.coords t) ↔ t.val % 10 = 0)

/-- The condition of the second `scf.if` (the statistics' write-out). -/
abbrev cond10_1 (i : grid10.Coords) : Prop := k10_cond2 i = 1#1
/-- It holds at the last point only. -/
theorem hcond10_1 : ∀ t : Fin cfg10.N, cond10_1 (grid10.coords t) ↔ t.val % 10 = 9 :=
  (by decide +kernel : ∀ t : Fin grid10.N, cond10_1 (grid10.coords t) ↔ t.val % 10 = 9)

/-! ## Where the windows are idle -/

/-- Output 9 is stored at every point. -/
theorem liveAt10_9 : ∀ t : Fin cfg10.N, cfg10.idle 9 (grid10.coords t) = false := by decide +kernel
/-- Outputs 10 and 11 are stored at the last point only: elsewhere idle and not written back. -/
theorem idleAt10_10 : ∀ t : Fin cfg10.N, ¬cond10_1 (grid10.coords t) → cfg10.idle 10 (grid10.coords t) = true := by decide +kernel
theorem noFlush10_10 : ∀ t : Fin cfg10.N, ¬cond10_1 (grid10.coords t) → (cfg10.win 10).flush t = false := by decide +kernel
theorem liveAt10_10 : ∀ t : Fin cfg10.N, cond10_1 (grid10.coords t) → cfg10.idle 10 (grid10.coords t) = false := by decide +kernel
theorem idleAt10_11 : ∀ t : Fin cfg10.N, ¬cond10_1 (grid10.coords t) → cfg10.idle 11 (grid10.coords t) = true := by decide +kernel
theorem noFlush10_11 : ∀ t : Fin cfg10.N, ¬cond10_1 (grid10.coords t) → (cfg10.win 11).flush t = false := by decide +kernel
theorem liveAt10_11 : ∀ t : Fin cfg10.N, cond10_1 (grid10.coords t) → cfg10.idle 11 (grid10.coords t) = false := by decide +kernel

/-! ## The staging and scratch memrefs -/

/-- One staging buffer of each output window, through which its contents are stated (the choice does not matter). -/
noncomputable abbrev VO10_9 : View sig .tc .vmem S1000x256 .f32 := (Memref.whole cc10_stg9_0 : Memref sig .tc .vmem S1000x256 .f32).view
noncomputable abbrev VO10_10 : View sig .tc .vmem S1x256 .f32 := (Memref.whole cc10_stg10_0 : Memref sig .tc .vmem S1x256 .f32).view
noncomputable abbrev VO10_11 : View sig .tc .vmem S1x256 .f32 := (Memref.whole cc10_stg11_0 : Memref sig .tc .vmem S1x256 .f32).view
/-- Each window's current staging memref at point `t`, spelled as the pipeline passes it, and its wholeness. -/
noncomputable abbrev ms10_0 (t : Fin cfg10.N) : Memref sig .tc .vmem S1000x256 .f32 := win10_0.stage (cfg10.slots t 0)
noncomputable abbrev hs10_0 (t : Fin cfg10.N) : (ms10_0 t).IsWhole := hstage10_0 ((cfg10.slots t 0).cast nbuf10_0)
noncomputable abbrev ms10_1 (t : Fin cfg10.N) : Memref sig .tc .vmem S1000x256 .f32 := win10_1.stage (cfg10.slots t 1)
noncomputable abbrev hs10_1 (t : Fin cfg10.N) : (ms10_1 t).IsWhole := hstage10_1 ((cfg10.slots t 1).cast nbuf10_1)
noncomputable abbrev ms10_2 (t : Fin cfg10.N) : Memref sig .tc .vmem S1000x256 .f32 := win10_2.stage (cfg10.slots t 2)
noncomputable abbrev hs10_2 (t : Fin cfg10.N) : (ms10_2 t).IsWhole := hstage10_2 ((cfg10.slots t 2).cast nbuf10_2)
noncomputable abbrev ms10_3 (t : Fin cfg10.N) : Memref sig .tc .vmem S256x256 .f32 := win10_3.stage (cfg10.slots t 3)
noncomputable abbrev hs10_3 (t : Fin cfg10.N) : (ms10_3 t).IsWhole := hstage10_3 ((cfg10.slots t 3).cast nbuf10_3)
noncomputable abbrev ms10_4 (t : Fin cfg10.N) : Memref sig .tc .vmem S256x256 .f32 := win10_4.stage (cfg10.slots t 4)
noncomputable abbrev hs10_4 (t : Fin cfg10.N) : (ms10_4 t).IsWhole := hstage10_4 ((cfg10.slots t 4).cast nbuf10_4)
noncomputable abbrev ms10_5 (t : Fin cfg10.N) : Memref sig .tc .vmem S256x256 .f32 := win10_5.stage (cfg10.slots t 5)
noncomputable abbrev hs10_5 (t : Fin cfg10.N) : (ms10_5 t).IsWhole := hstage10_5 ((cfg10.slots t 5).cast nbuf10_5)
noncomputable abbrev ms10_6 (t : Fin cfg10.N) : Memref sig .tc .vmem S256x256 .f32 := win10_6.stage (cfg10.slots t 6)
noncomputable abbrev hs10_6 (t : Fin cfg10.N) : (ms10_6 t).IsWhole := hstage10_6 ((cfg10.slots t 6).cast nbuf10_6)
noncomputable abbrev ms10_7 (t : Fin cfg10.N) : Memref sig .tc .vmem S1x256 .f32 := win10_7.stage (cfg10.slots t 7)
noncomputable abbrev hs10_7 (t : Fin cfg10.N) : (ms10_7 t).IsWhole := hstage10_7 ((cfg10.slots t 7).cast nbuf10_7)
noncomputable abbrev ms10_8 (t : Fin cfg10.N) : Memref sig .tc .vmem S1x256 .f32 := win10_8.stage (cfg10.slots t 8)
noncomputable abbrev hs10_8 (t : Fin cfg10.N) : (ms10_8 t).IsWhole := hstage10_8 ((cfg10.slots t 8).cast nbuf10_8)
noncomputable abbrev ms10_9 (t : Fin cfg10.N) : Memref sig .tc .vmem S1000x256 .f32 := win10_9.stage (cfg10.slots t 9)
noncomputable abbrev hs10_9 (t : Fin cfg10.N) : (ms10_9 t).IsWhole := hstage10_9 ((cfg10.slots t 9).cast nbuf10_9)
noncomputable abbrev ms10_10 (t : Fin cfg10.N) : Memref sig .tc .vmem S1x256 .f32 := win10_10.stage (cfg10.slots t 10)
noncomputable abbrev hs10_10 (t : Fin cfg10.N) : (ms10_10 t).IsWhole := hstage10_10 ((cfg10.slots t 10).cast nbuf10_10)
noncomputable abbrev ms10_11 (t : Fin cfg10.N) : Memref sig .tc .vmem S1x256 .f32 := win10_11.stage (cfg10.slots t 11)
noncomputable abbrev hs10_11 (t : Fin cfg10.N) : (ms10_11 t).IsWhole := hstage10_11 ((cfg10.slots t 11).cast nbuf10_11)
/-- The two scratch operands: whole scoped buffers of the kernel's own, passed beside the windows. -/
noncomputable abbrev scM10_0 : Memref sig .tc .vmem S1x256 .f32 := Memref.whole cc10_scratch0
noncomputable abbrev scM10_1 : Memref sig .tc .vmem S1x256 .f32 := Memref.whole cc10_scratch1
/-- The scratch accumulators the kernel carries between points, as views: what they hold is stated through them. -/
noncomputable abbrev VS10_0 : View sig .tc .vmem S1x256 .f32 := scM10_0.view
noncomputable abbrev VS10_1 : View sig .tc .vmem S1x256 .f32 := scM10_1.view

/-- The class invariant with the two scratch operands as memrefs owned at some contents, the other scoped buffers
    unopened: what the body obligation hands the run and takes back. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

end Cert.KernelIdeal.Hand

end
-- ==== Proof.KI.Reg10A.lean ====
import proofs.«126569_j1468878815453_1_alg».proof.Proof.KI.Reg10Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the kernel body's run at the FIRST point (the accumulators are reset; the statistics are not written) -/

-- (the run's proof term is large: the definition's epilogue walks it past the default budget)
set_option maxHeartbeats 1000000 in
/-- What the body's stores leave, as pieces (last first), at a point where the reset is taken and the write-out is
    not: in the block output's staging memref (`L9`) and in the two scratch accumulators (`LS0`, `LS1`); WITH the
    proof that on whole memrefs — the nine inputs' at their contents, the block output's at anything, the two
    statistics outputs' at contents `xi10`, `xi11` handed back untouched, the two accumulators at anything — the
    body runs to the continuation holding the inputs' as they were and each stored buffer with its pieces written.
    The pieces are the witness the run finds. -/
noncomputable def kernelRun10_A (c : Dev nD) (i : grid10.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : cond10_0 i) (hc1 : ¬cond10_1 i)
    (x0 x1 x2 : Vec F S1000x256 .f32) (x3 x4 x5 x6 : Vec F S256x256 .f32) (x7 x8 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc10_kernel_eq_skeleton]; unfold cc10_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg10B.lean ====
import proofs.«126569_j1468878815453_1_alg».proof.Proof.KI.Reg10A

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the kernel body's run at a MIDDLE point (no reset, no write-out) -/

-- (the run's proof term is large: the definition's epilogue walks it past the default budget)
set_option maxHeartbeats 1000000 in
/-- As at the first point, but the two accumulators are handed at the contents `xs0`, `xs1` the point before left
    and nothing resets them. -/
noncomputable def kernelRun10_B (c : Dev nD) (i : grid10.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond10_0 i) (hc1 : ¬cond10_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (LS0 : List (View.Piece (Elt F) S1x256 .f32)), { LS1 : List (View.Piece (Elt F) S1x256 .f32) //
      ∀ (xi10 xi11 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc10_kernel_eq_skeleton]; unfold cc10_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Reg10C.lean ====
import proofs.«126569_j1468878815453_1_alg».proof.Proof.KI.Reg10B

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the kernel body's run at the LAST point (no reset; the statistics are written out) -/

-- (the run's proof term is large: the definition's epilogue walks it past the default budget)
set_option maxHeartbeats 1000000 in
/-- As at a middle point, but the two statistics outputs are handed at anything and stored: their pieces `L10`
    (the mean) and `L11` (the variance) are witnesses too. -/
noncomputable def kernelRun10_C (c : Dev nD) (i : grid10.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1000x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (hc0 : ¬cond10_0 i) (hc1 : cond10_1 i)
    (x0 x1 x2 : Vec F S1000x256 .f32) (x3 x4 x5 x6 : Vec F S256x256 .f32) (x7 x8 : Vec F S1x256 .f32) (xs0 xs1 : Vec F S1x256 .f32) :
    Σ' (L9 : List (View.Piece (Elt F) S1000x256 .f32)) (L10 : List (View.Piece (Elt F) S1x256 .f32)) (L11 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc10_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc10_kernel_eq_skeleton]; unfold cc10_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Reg10.lean ====
import proofs.«126569_j1468878815453_1_alg».proof.Proof.KI.Reg10C

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10 of @main: what the kernel leaves point by point, the proof data, the body obligation -/

/-! ## What the first point leaves -/

/-- The body's run at point `t`, on the memrefs the pipeline passes there. -/
noncomputable abbrev runAt10_A (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) :=
  kernelRun10_A c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t) scM10_0 (Memref.isWhole_whole _) scM10_1 (Memref.isWhole_whole _) hc0 hc1 x0 x1 x2 x3 x4 x5 x6 x7 x8

/-- The pieces stored into the block output at the first point tile the buffer, so they cover it. -/
theorem cover10_A_9 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) (y : S1000x256.Idx) :
    ∃ pc ∈ (runAt10_A c t hc0 hc1 x0 x1 x2 x3 x4 x5 x6 x7 x8).1, y ∈ pc.1.set :=
  View.cover_of_tiledL (runAt10_A c t hc0 hc1 x0 x1 x2 x3 x4 x5 x6 x7 x8).1 S1000x256.size (by sl_kernel_rfl) y

/-- What the first point leaves in the block output: its pieces read back over junk. -/
noncomputable def out10_A_9 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) : Vec F S1000x256 .f32 :=
  VO10_9.read (Elt F) (VO10_9.writes (Elt F) VO10_9.junk (runAt10_A c t hc0 hc1 x0 x1 x2 x3 x4 x5 x6 x7 x8).1)

/-- The pieces stored into the first accumulator at the first point tile the buffer, so they cover it. -/
theorem scover10_A_0 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) (y : S1x256.Idx) :
    ∃ pc ∈ (runAt10_A c t hc0 hc1 x0 x1 x2 x3 x4 x5 x6 x7 x8).2.1, y ∈ pc.1.set :=
  View.cover_of_tiledL (runAt10_A c t hc0 hc1 x0 x1 x2 x3 x4 x5 x6 x7 x8).2.1 S1x256.size (by sl_kernel_rfl) y

/-- What the first point leaves in the first accumulator: its pieces read back over junk. -/
noncomputable def sout10_A_0 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) : Vec F S1x256 .f32 :=
  VS10_0.read (Elt F) (VS10_0.writes (Elt F) VS10_0.junk (runAt10_A c t hc0 hc1 x0 x1 x2 x3 x4 x5 x6 x7 x8).2.1)

/-- The pieces stored into the second accumulator at the first point tile the buffer, so they cover it. -/
theorem scover10_A_1 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) (y : S1x256.Idx) :
    ∃ pc ∈ (runAt10_A c t hc0 hc1 x0 x1 x2 x3 x4 x5 x6 x7 x8).2.2.1, y ∈ pc.1.set :=
  View.cover_of_tiledL (runAt10_A c t hc0 hc1 x0 x1 x2 x3 x4 x5 x6 x7 x8).2.2.1 S1x256.size (by sl_kernel_rfl) y

/-- What the first point leaves in the second accumulator: its pieces read back over junk. -/
noncomputable def sout10_A_1 (c : Dev nD) (t : Fin cfg10.N) (hc0 : cond10_0 (grid10.coords t)) (hc1 : ¬cond10_1 (grid10.coords t))
    (x0 x1 x2 : Vec F S1000x256 .f32) (x3 x4 x5 x6 : Vec F S256x256 .f32) (x7 x8 : Vec F S1x256 .f32) : Vec F S1x256 .f32 :=
  VS10_1.read (Elt F) (VS10_1.writes (Elt F) VS10_1.junk (runAt10_A c t hc0 hc1 x0 x1 x2 x3 x4 x5 x6 x7 x8).2.2.1)

/-! ## What a middle point leaves -/

/-- The body's run at point `t`, on the memrefs the pipeline passes there. -/
noncomputable abbrev runAt10_B (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) :=
  kernelRun10_B c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t) scM10_0 (Memref.isWhole_whole _) scM10_1 (Memref.isWhole_whole _) hc0 hc1 x0 x1 x2 x3 x4 x5 x6 x7 x8 xs0 xs1

/-- The pieces stored into the block output at a middle point tile the buffer, so they cover it. -/
theorem cover10_B_9 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt10_B c t hc0 hc1 x0 x1 x2 x3 x4 x5 x6 x7 x8 xs0 xs1).1, y ∈ pc.1.set :=
  View.cover_of_tiledL (runAt10_B c t hc0 hc1 x0 x1 x2 x3 x4 x5 x6 x7 x8 xs0 xs1).1 S1000x256.size (by sl_kernel_rfl) y

/-- What a middle point leaves in the block output: its pieces read back over junk. -/
noncomputable def out10_B_9 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) : Vec F S1000x256 .f32 :=
  VO10_9.read (Elt F) (VO10_9.writes (Elt F) VO10_9.junk (runAt10_B c t hc0 hc1 x0 x1 x2 x3 x4 x5 x6 x7 x8 xs0 xs1).1)

/-- The pieces stored into the first accumulator at a middle point tile the buffer, so they cover it. -/
theorem scover10_B_0 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_B c t hc0 hc1 x0 x1 x2 x3 x4 x5 x6 x7 x8 xs0 xs1).2.1, y ∈ pc.1.set :=
  View.cover_of_tiledL (runAt10_B c t hc0 hc1 x0 x1 x2 x3 x4 x5 x6 x7 x8 xs0 xs1).2.1 S1x256.size (by sl_kernel_rfl) y

/-- What a middle point leaves in the first accumulator: its pieces read back over junk. -/
noncomputable def sout10_B_0 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_0.read (Elt F) (VS10_0.writes (Elt F) VS10_0.junk (runAt10_B c t hc0 hc1 x0 x1 x2 x3 x4 x5 x6 x7 x8 xs0 xs1).2.1)

/-- The pieces stored into the second accumulator at a middle point tile the buffer, so they cover it. -/
theorem scover10_B_1 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_B c t hc0 hc1 x0 x1 x2 x3 x4 x5 x6 x7 x8 xs0 xs1).2.2.1, y ∈ pc.1.set :=
  View.cover_of_tiledL (runAt10_B c t hc0 hc1 x0 x1 x2 x3 x4 x5 x6 x7 x8 xs0 xs1).2.2.1 S1x256.size (by sl_kernel_rfl) y

/-- What a middle point leaves in the second accumulator: its pieces read back over junk. -/
noncomputable def sout10_B_1 (c : Dev nD) (t : Fin cfg10.N) (hc0 : ¬cond10_0 (grid10.coords t)) (hc1 : ¬cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_1.read (Elt F) (VS10_1.writes (Elt F) VS10_1.junk (runAt10_B c t hc0 hc1 x0 x1 x2 x3 x4 x5 x6 x7 x8 xs0 xs1).2.2.1)

/-! ## What the last point leaves -/

/-- The body's run at point `t`, on the memrefs the pipeline passes there. -/
noncomputable abbrev runAt10_C (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) :=
  kernelRun10_C c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (ms10_10 t) (hs10_10 t) (ms10_11 t) (hs10_11 t) scM10_0 (Memref.isWhole_whole _) scM10_1 (Memref.isWhole_whole _) hc0 hc1 x0 x1 x2 x3 x4 x5 x6 x7 x8 xs0 xs1

/-- The pieces stored into the block output at the last point tile the buffer, so they cover it. -/
theorem cover10_C_9 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1000x256.Idx) :
    ∃ pc ∈ (runAt10_C c t hc0 hc1 x0 x1 x2 x3 x4 x5 x6 x7 x8 xs0 xs1).1, y ∈ pc.1.set :=
  View.cover_of_tiledL (runAt10_C c t hc0 hc1 x0 x1 x2 x3 x4 x5 x6 x7 x8 xs0 xs1).1 S1000x256.size (by sl_kernel_rfl) y

/-- What the last point leaves in the block output: its pieces read back over junk. -/
noncomputable def out10_C_9 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1000x256 .f32 :=
  VO10_9.read (Elt F) (VO10_9.writes (Elt F) VO10_9.junk (runAt10_C c t hc0 hc1 x0 x1 x2 x3 x4 x5 x6 x7 x8 xs0 xs1).1)

/-- The pieces stored into the mean output at the last point tile the buffer, so they cover it. -/
theorem cover10_C_10 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.1, y ∈ pc.1.set :=
  View.cover_of_tiledL (runAt10_C c t hc0 hc1 x0 x1 x2 x3 x4 x5 x6 x7 x8 xs0 xs1).2.1 S1x256.size (by sl_kernel_rfl) y

/-- What the last point leaves in the mean output: its pieces read back over junk. -/
noncomputable def out10_C_10 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VO10_10.read (Elt F) (VO10_10.writes (Elt F) VO10_10.junk (runAt10_C c t hc0 hc1 x0 x1 x2 x3 x4 x5 x6 x7 x8 xs0 xs1).2.1)

/-- The pieces stored into the variance output at the last point tile the buffer, so they cover it. -/
theorem cover10_C_11 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.2.1, y ∈ pc.1.set :=
  View.cover_of_tiledL (runAt10_C c t hc0 hc1 x0 x1 x2 x3 x4 x5 x6 x7 x8 xs0 xs1).2.2.1 S1x256.size (by sl_kernel_rfl) y

/-- What the last point leaves in the variance output: its pieces read back over junk. -/
noncomputable def out10_C_11 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VO10_11.read (Elt F) (VO10_11.writes (Elt F) VO10_11.junk (runAt10_C c t hc0 hc1 x0 x1 x2 x3 x4 x5 x6 x7 x8 xs0 xs1).2.2.1)

/-- The pieces stored into the first accumulator at the last point tile the buffer, so they cover it. -/
theorem scover10_C_0 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.2.2.1, y ∈ pc.1.set :=
  View.cover_of_tiledL (runAt10_C c t hc0 hc1 x0 x1 x2 x3 x4 x5 x6 x7 x8 xs0 xs1).2.2.2.1 S1x256.size (by sl_kernel_rfl) y

/-- What the last point leaves in the first accumulator: its pieces read back over junk. -/
noncomputable def sout10_C_0 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_0.read (Elt F) (VS10_0.writes (Elt F) VS10_0.junk (runAt10_C c t hc0 hc1 x0 x1 x2 x3 x4 x5 x6 x7 x8 xs0 xs1).2.2.2.1)

/-- The pieces stored into the second accumulator at the last point tile the buffer, so they cover it. -/
theorem scover10_C_1 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) (y : S1x256.Idx) :
    ∃ pc ∈ (runAt10_C c t hc0 hc1 x0 x1 x2 x3 x4 x5 x6 x7 x8 xs0 xs1).2.2.2.2.1, y ∈ pc.1.set :=
  View.cover_of_tiledL (runAt10_C c t hc0 hc1 x0 x1 x2 x3 x4 x5 x6 x7 x8 xs0 xs1).2.2.2.2.1 S1x256.size (by sl_kernel_rfl) y

/-- What the last point leaves in the second accumulator: its pieces read back over junk. -/
noncomputable def sout10_C_1 (c : Dev nD) (t : Fin cfg10.N) (hc0 : ¬cond10_0 (grid10.coords t)) (hc1 : cond10_1 (grid10.coords t))
    (x0 x1 x2 : Vec F S1000x256 .f32) (x3 x4 x5 x6 : Vec F S256x256 .f32) (x7 x8 : Vec F S1x256 .f32) (xs0 xs1 : Vec F S1x256 .f32) : Vec F S1x256 .f32 :=
  VS10_1.read (Elt F) (VS10_1.writes (Elt F) VS10_1.junk (runAt10_C c t hc0 hc1 x0 x1 x2 x3 x4 x5 x6 x7 x8 xs0 xs1).2.2.2.2.1)

/-! ## What the outputs and the accumulators hold after each point -/

/-- At a point that does not write the statistics out, the two statistics outputs' staging buffers are idle and
    not written back: a placeholder that nothing consults stands for their contents. -/
noncomputable def idle10_10 : Vec F S1x256 .f32 := VO10_10.read (Elt F) VO10_10.junk
noncomputable def idle10_11 : Vec F S1x256 .f32 := VO10_11.read (Elt F) VO10_11.junk

/-- The conditions at the grid's points, from their closed forms. -/
theorem first10_c0 (hn : 0 < cfg10.N) : cond10_0 (grid10.coords ⟨0, hn⟩) := (hcond10_0 ⟨0, hn⟩).mpr (Nat.zero_mod _)
theorem first10_c1 (hn : 0 < cfg10.N) : ¬cond10_1 (grid10.coords ⟨0, hn⟩) := fun h => by
  have h' := (hcond10_1 ⟨0, hn⟩).mp h; (try dsimp only at h'); omega
theorem later10_c0 (t : Fin cfg10.N) (ht : t.val ≠ 0) : ¬cond10_0 (grid10.coords t) := fun h => by
  have h' := (hcond10_0 t).mp h
  have hN : t.val < 10 := lt_of_lt_of_eq t.isLt (show cfg10.N = 10 from N_10)
  omega

/-- THE ACCUMULATION. What the three outputs' staging buffers and the two scratch accumulators hold after the body at
    position `n` (a tuple: the block output, the mean output, the variance output, the first accumulator — the
    running column sums —, the second accumulator — the running column sums of squares): the case the closed forms
    select at `n`, run at the point's input blocks and, after the first point, at the accumulators the point
    before left. -/
noncomputable def outsAt10 (c : Dev nD) : (n : ℕ) → n < cfg10.N → Vec F S1000x256 .f32 × Vec F S1x256 .f32 × Vec F S1x256 .f32 × Vec F S1x256 .f32 × Vec F S1x256 .f32
  | 0, hn => (out10_A_9 c ⟨0, hn⟩ (first10_c0 hn) (first10_c1 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩), idle10_10, idle10_11, sout10_A_0 c ⟨0, hn⟩ (first10_c0 hn) (first10_c1 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩), sout10_A_1 c ⟨0, hn⟩ (first10_c0 hn) (first10_c1 hn) (iblk10 V c 0 ⟨0, hn⟩) (iblk10 V c 1 ⟨0, hn⟩) (iblk10 V c 2 ⟨0, hn⟩) (iblk10 V c 3 ⟨0, hn⟩) (iblk10 V c 4 ⟨0, hn⟩) (iblk10 V c 5 ⟨0, hn⟩) (iblk10 V c 6 ⟨0, hn⟩) (iblk10 V c 7 ⟨0, hn⟩) (iblk10 V c 8 ⟨0, hn⟩))
  | n + 1, hn =>
    if h1 : (n + 1) % 10 = 9 then
      (out10_C_9 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, out10_C_10 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, out10_C_11 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, sout10_C_0 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, sout10_C_1 c ⟨n + 1, hn⟩ (later10_c0 ⟨n + 1, hn⟩ (Nat.succ_ne_zero n)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2)
    else
      (out10_B_9 c ⟨n + 1, hn⟩ (later10_c0 ⟨n + 1, hn⟩ (Nat.succ_ne_zero n)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, idle10_10, idle10_11, sout10_B_0 c ⟨n + 1, hn⟩ (later10_c0 ⟨n + 1, hn⟩ (Nat.succ_ne_zero n)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2, sout10_B_1 c ⟨n + 1, hn⟩ (later10_c0 ⟨n + 1, hn⟩ (Nat.succ_ne_zero n)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (iblk10 V c 5 ⟨n + 1, hn⟩) (iblk10 V c 6 ⟨n + 1, hn⟩) (iblk10 V c 7 ⟨n + 1, hn⟩) (iblk10 V c 8 ⟨n + 1, hn⟩) (outsAt10 c n (Nat.lt_of_succ_lt hn)).2.2.2.1 (outsAt10 c n (Nat.lt_of_succ_lt hn)).2.2.2.2)

/-- `outsAt10` at the first point: the reset case's contents. -/
theorem outsAt10_A (c : Dev nD) (t : Fin cfg10.N) (h0 : t.val = 0) (hc0 : cond10_0 (grid10.coords t)) (hc1 : ¬cond10_1 (grid10.coords t)) :
    outsAt10 V c t.val t.isLt = (out10_A_9 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t), idle10_10, idle10_11, sout10_A_0 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t), sout10_A_1 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)) := by
  obtain ⟨n, hn⟩ := t
  cases n with
  | zero => rfl
  | succ n => exact absurd h0 (Nat.succ_ne_zero n)

/-- `outsAt10` at a middle point: that case's contents, over what the point before left in the accumulators. -/
theorem outsAt10_B (c : Dev nD) (t : Fin cfg10.N) (h0 : t.val ≠ 0) (h1 : ¬t.val % 10 = 9) (hc0 : ¬cond10_0 (grid10.coords t)) (hc1 : ¬cond10_1 (grid10.coords t)) :
    outsAt10 V c t.val t.isLt = (out10_B_9 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, idle10_10, idle10_11, sout10_B_0 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_B_1 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt10` at the last point: that case's contents, over what the point before left in the accumulators. -/
theorem outsAt10_C (c : Dev nD) (t : Fin cfg10.N) (h0 : t.val ≠ 0) (h1 : t.val % 10 = 9) (hc0 : ¬cond10_0 (grid10.coords t)) (hc1 : cond10_1 (grid10.coords t)) :
    outsAt10 V c t.val t.isLt = (out10_C_9 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_10 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_11 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_0 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_1 c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The scoped buffers other than the two scratch operands, unopened. -/
noncomputable abbrev restBut10 (c : Dev nD) : sProp 𝕄 :=
  Pipeline.scopedRestBut (Ix := Unit) (Name := ℕ) (U := UR sig nD τ) (Lvl := ℕ) (Val := Elt F) spec10 c [cc10_scratch0, cc10_scratch1]

/-- The region invariant before position `n`: before the first point the class's (every scratch at anything);
    afterwards the two accumulators at what the point before left in them (`outsAt10`'s last two components), the
    other scoped buffers unopened, and the generator register at some state. -/
noncomputable def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.2.2.1) ∗ owns (c : Thread nD τ) scM10_1 fullShare ((outsAt10 V c n hn).2.2.2.2)) ∗ restBut10 c) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the accumulators at that point's contents. -/
theorem PhiS10_succ (c : Dev nD) (n : ℕ) (hn : n < cfg10.N) :
    PhiS10 V c (n + 1) hn = iprop(iprop(iprop(owns (c : Thread nD τ) scM10_0 fullShare ((outsAt10 V c n hn).2.2.2.1) ∗ owns (c : Thread nD τ) scM10_1 fullShare ((outsAt10 V c n hn).2.2.2.2)) ∗ restBut10 c) ∗ (∃ r, prngReg c r)) := rfl

/-- Before a point that is not the first: the accumulators at what the point before left. -/
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.2.2.1) ∗ owns (c : Thread nD τ) scM10_1 fullShare ((outsAt10 V c (n - 1) (by omega)).2.2.2.2)) ∗ restBut10 c) ∗ (∃ r, prngReg c r)) := by
  cases n with
  | zero => exact absurd rfl hz
  | succ n => rfl

/-! ## The pipeline's proof data -/

/-- The proof data of pipeline 10 on core `c`: the arrays as the region finds them (`V`); after the body at point
    `t` each input's buffer at its block and the outputs' at `outsAt10`; the invariant `PhiS10`; nothing owed; full
    shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => (outsAt10 V c t.val t.isLt).1
    | ⟨10, _⟩ => (outsAt10 V c t.val t.isLt).2.1
    | ⟨11, _⟩ => (outsAt10 V c t.val t.isLt).2.2.1
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = (outsAt10 V c t.val t.isLt).1 := by dsimp only [dat10]
theorem after10_10 (c : Dev nD) (t : Fin cfg10.N) : (dat10 V c).after 10 t = (outsAt10 V c t.val t.isLt).2.1 := by dsimp only [dat10]
theorem after10_11 (c : Dev nD) (t : Fin cfg10.N) : (dat10 V c).after 11 t = (outsAt10 V c t.val t.isLt).2.2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-! ## The body obligation, at a generic point -/

/-- What the body is called with at point `t` (the library's body obligation's precondition, the windows one by one), -/
noncomputable def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d))
    ∗ (∃ d, owns (c : Thread nD τ) (ms10_8 t) fullShare ((dat10 V c).before 8 t d))
    ∗ (∃ d, owns (c : Thread nD τ) (ms10_9 t) fullShare ((dat10 V c).before 9 t d))
    ∗ (∃ d, owns (c : Thread nD τ) (ms10_10 t) fullShare ((dat10 V c).before 10 t d))
    ∗ (∃ d, owns (c : Thread nD τ) (ms10_11 t) fullShare ((dat10 V c).before 11 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t
    ∗ (dat10 V c).leavesExact 8 t
    ∗ (dat10 V c).leavesExact 9 t
    ∗ (dat10 V c).leavesExact 10 t
    ∗ (dat10 V c).leavesExact 11 t)

set_option maxHeartbeats 4800000 in
/-- The body at any point: the inputs' memrefs hold their blocks; the closed forms say which case the point is in;
    the invariant hands the body the two accumulators (at anything at the first point, afterwards at what the point
    before left) and takes them back at this point's contents; the other scoped buffers, the generator register and
    the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).owesAt () t.succ = (dat10 V c).owesAt () t.castSucc from rfl]
  rw [show (dat10 V c).Φ t.succ = PhiS10 V c (t.val + 1) t.isLt from rfl, PhiS10_succ]
  have hN : t.val < 10 := lt_of_lt_of_eq t.isLt (show cfg10.N = 10 from N_10)
  by_cases hz : t.val = 0
  · -- the first point: the reset
    have hc0 : cond10_0 (grid10.coords t) := (hcond10_0 t).mpr (by rw [hz])
    have hc1 : ¬cond10_1 (grid10.coords t) := fun h => by have h' := (hcond10_1 t).mp h; omega
    rw [show (dat10 V c).leavesExact 0 t = owns (c : Thread nD τ) (ms10_0 t) fullShare ((dat10 V c).after 0 t) from rfl, after10_0]
    rw [show (dat10 V c).leavesExact 1 t = owns (c : Thread nD τ) (ms10_1 t) fullShare ((dat10 V c).after 1 t) from rfl, after10_1]
    rw [show (dat10 V c).leavesExact 2 t = owns (c : Thread nD τ) (ms10_2 t) fullShare ((dat10 V c).after 2 t) from rfl, after10_2]
    rw [show (dat10 V c).leavesExact 3 t = owns (c : Thread nD τ) (ms10_3 t) fullShare ((dat10 V c).after 3 t) from rfl, after10_3]
    rw [show (dat10 V c).leavesExact 4 t = owns (c : Thread nD τ) (ms10_4 t) fullShare ((dat10 V c).after 4 t) from rfl, after10_4]
    rw [show (dat10 V c).leavesExact 5 t = owns (c : Thread nD τ) (ms10_5 t) fullShare ((dat10 V c).after 5 t) from rfl, after10_5]
    rw [show (dat10 V c).leavesExact 6 t = owns (c : Thread nD τ) (ms10_6 t) fullShare ((dat10 V c).after 6 t) from rfl, after10_6]
    rw [show (dat10 V c).leavesExact 7 t = owns (c : Thread nD τ) (ms10_7 t) fullShare ((dat10 V c).after 7 t) from rfl, after10_7]
    rw [show (dat10 V c).leavesExact 8 t = owns (c : Thread nD τ) (ms10_8 t) fullShare ((dat10 V c).after 8 t) from rfl, after10_8]
    rw [show (dat10 V c).leavesExact 9 t = owns (c : Thread nD τ) (ms10_9 t) fullShare ((dat10 V c).after 9 t) from rfl, after10_9]
    rw [Dat.leavesExact_idle (dat10 V c) 10 t (idleAt10_10 t hc1) (noFlush10_10 t hc1)]
    rw [Dat.leavesExact_idle (dat10 V c) 11 t (idleAt10_11 t hc1) (noFlush10_11 t hc1)]
    rw [outsAt10_A V c t hz hc0 hc1]
    unfold out10_A_9 sout10_A_0 sout10_A_1; (try dsimp only)
    rw [PhiS10_castSucc V c t, PhiS10_zero V c _ _ hz, PhiA10_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runAt10_A c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover10_A_0 c t _ _ _ _ _ _ _ _ _ _ _)
          unfold owns; iexists _; isplitr
          swap; · iexact HS1
          ipureintro; exact View.read_writes_of_cover _ _ _ _ _ (scover10_A_1 c t _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover10_A_9 c t _ _ _ _ _ _ _ _ _ _ _)
    isplitl [H10]; · iexists _; iexact H10
    iexists _; iexact H11
  · have hc0 : ¬cond10_0 (grid10.coords t) := later10_c0 t hz
    by_cases h1 : t.val % 10 = 9
    · -- the last point: the write-out
      have hc1 : cond10_1 (grid10.coords t) := (hcond10_1 t).mpr h1
      rw [show (dat10 V c).leavesExact 0 t = owns (c : Thread nD τ) (ms10_0 t) fullShare ((dat10 V c).after 0 t) from rfl, after10_0]
      rw [show (dat10 V c).leavesExact 1 t = owns (c : Thread nD τ) (ms10_1 t) fullShare ((dat10 V c).after 1 t) from rfl, after10_1]
      rw [show (dat10 V c).leavesExact 2 t = owns (c : Thread nD τ) (ms10_2 t) fullShare ((dat10 V c).after 2 t) from rfl, after10_2]
      rw [show (dat10 V c).leavesExact 3 t = owns (c : Thread nD τ) (ms10_3 t) fullShare ((dat10 V c).after 3 t) from rfl, after10_3]
      rw [show (dat10 V c).leavesExact 4 t = owns (c : Thread nD τ) (ms10_4 t) fullShare ((dat10 V c).after 4 t) from rfl, after10_4]
      rw [show (dat10 V c).leavesExact 5 t = owns (c : Thread nD τ) (ms10_5 t) fullShare ((dat10 V c).after 5 t) from rfl, after10_5]
      rw [show (dat10 V c).leavesExact 6 t = owns (c : Thread nD τ) (ms10_6 t) fullShare ((dat10 V c).after 6 t) from rfl, after10_6]
      rw [show (dat10 V c).leavesExact 7 t = owns (c : Thread nD τ) (ms10_7 t) fullShare ((dat10 V c).after 7 t) from rfl, after10_7]
      rw [show (dat10 V c).leavesExact 8 t = owns (c : Thread nD τ) (ms10_8 t) fullShare ((dat10 V c).after 8 t) from rfl, after10_8]
      rw [show (dat10 V c).leavesExact 9 t = owns (c : Thread nD τ) (ms10_9 t) fullShare ((dat10 V c).after 9 t) from rfl, after10_9]
      rw [show (dat10 V c).leavesExact 10 t = owns (c : Thread nD τ) (ms10_10 t) fullShare ((dat10 V c).after 10 t) from by
        unfold Dat.leavesExact; rw [liveAt10_10 t hc1], after10_10]
      rw [show (dat10 V c).leavesExact 11 t = owns (c : Thread nD τ) (ms10_11 t) fullShare ((dat10 V c).after 11 t) from by
        unfold Dat.leavesExact; rw [liveAt10_11 t hc1], after10_11]
      rw [outsAt10_C V c t hz h1 hc0 hc1]
      unfold out10_C_9 out10_C_10 out10_C_11 sout10_C_0 sout10_C_1; (try dsimp only)
      rw [PhiS10_castSucc V c t, PhiS10_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt10_C c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_C_0 c t _ _ _ _ _ _ _ _ _ _ _ _ _)
            unfold owns; iexists _; isplitr
            swap; · iexact HS1
            ipureintro; exact View.read_writes_of_cover _ _ _ _ _ (scover10_C_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover10_C_9 c t _ _ _ _ _ _ _ _ _ _ _ _ _)
      isplitl [H10]
      · unfold owns; iexists _; isplitr
        swap; · iexact H10
        ipureintro; exact View.read_writes_of_cover _ _ _ _ _ (cover10_C_10 c t _ _ _ _ _ _ _ _ _ _ _ _ _)
      unfold owns; iexists _; isplitr
      swap; · iexact H11
      ipureintro; exact View.read_writes_of_cover _ _ _ _ _ (cover10_C_11 c t _ _ _ _ _ _ _ _ _ _ _ _ _)
    · -- a middle point
      have hc1 : ¬cond10_1 (grid10.coords t) := fun h => h1 ((hcond10_1 t).mp h)
      rw [show (dat10 V c).leavesExact 0 t = owns (c : Thread nD τ) (ms10_0 t) fullShare ((dat10 V c).after 0 t) from rfl, after10_0]
      rw [show (dat10 V c).leavesExact 1 t = owns (c : Thread nD τ) (ms10_1 t) fullShare ((dat10 V c).after 1 t) from rfl, after10_1]
      rw [show (dat10 V c).leavesExact 2 t = owns (c : Thread nD τ) (ms10_2 t) fullShare ((dat10 V c).after 2 t) from rfl, after10_2]
      rw [show (dat10 V c).leavesExact 3 t = owns (c : Thread nD τ) (ms10_3 t) fullShare ((dat10 V c).after 3 t) from rfl, after10_3]
      rw [show (dat10 V c).leavesExact 4 t = owns (c : Thread nD τ) (ms10_4 t) fullShare ((dat10 V c).after 4 t) from rfl, after10_4]
      rw [show (dat10 V c).leavesExact 5 t = owns (c : Thread nD τ) (ms10_5 t) fullShare ((dat10 V c).after 5 t) from rfl, after10_5]
      rw [show (dat10 V c).leavesExact 6 t = owns (c : Thread nD τ) (ms10_6 t) fullShare ((dat10 V c).after 6 t) from rfl, after10_6]
      rw [show (dat10 V c).leavesExact 7 t = owns (c : Thread nD τ) (ms10_7 t) fullShare ((dat10 V c).after 7 t) from rfl, after10_7]
      rw [show (dat10 V c).leavesExact 8 t = owns (c : Thread nD τ) (ms10_8 t) fullShare ((dat10 V c).after 8 t) from rfl, after10_8]
      rw [show (dat10 V c).leavesExact 9 t = owns (c : Thread nD τ) (ms10_9 t) fullShare ((dat10 V c).after 9 t) from rfl, after10_9]
      rw [Dat.leavesExact_idle (dat10 V c) 10 t (idleAt10_10 t hc1) (noFlush10_10 t hc1)]
      rw [Dat.leavesExact_idle (dat10 V c) 11 t (idleAt10_11 t hc1) (noFlush10_11 t hc1)]
      rw [outsAt10_B V c t hz h1 hc0 hc1]
      unfold out10_B_9 sout10_B_0 sout10_B_1; (try dsimp only)
      rw [PhiS10_castSucc V c t, PhiS10_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runAt10_B c t hc0 hc1 (iblk10 V c 0 t) (iblk10 V c 1 t) (iblk10 V c 2 t) (iblk10 V c 3 t) (iblk10 V c 4 t) (iblk10 V c 5 t) (iblk10 V c 6 t) (iblk10 V c 7 t) (iblk10 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_B_0 c t _ _ _ _ _ _ _ _ _ _ _ _ _)
            unfold owns; iexists _; isplitr
            swap; · iexact HS1
            ipureintro; exact View.read_writes_of_cover _ _ _ _ _ (scover10_B_1 c t _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover10_B_9 c t _ _ _ _ _ _ _ _ _ _ _ _ _)
      isplitl [H10]; · iexists _; iexact H10
      iexists _; iexact H11

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the class's back: the accumulators' named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 10 := N_10; omega)

end Cert.KernelIdeal.Hand

end
-- ==== Proof.KI.Reg11Runs.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # Custom call 11 (the one-relation combine kernel with its running column sums), what its three cases share

The windows' blocks at the region's entry contents `V`, the two branch conditions decided over the three grid points,
where the two statistics windows are idle, and the staging and scratch memrefs the body is called with. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 (the neighbours' mean rows) holds its block at every point, fetched there or not, for any proof data whose array is
    `V`'s and whose body leaves the block in place: an unfetched input's block index has not moved; the window is
    uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 (the node's own rows) holds its block at every point, fetched there or not, for any proof data whose array is
    `V`'s and whose body leaves the block in place: an unfetched input's block index has not moved; the window is
    uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2 (the neighbour weight matrix) holds its block at every point, fetched there or not, for any proof data whose array is
    `V`'s and whose body leaves the block in place: an unfetched input's block index has not moved; the window is
    uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3 (the root weight matrix) holds its block at every point, fetched there or not, for any proof data whose array is
    `V`'s and whose body leaves the block in place: an unfetched input's block index has not moved; the window is
    uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4 (the bias row) holds its block at every point, fetched there or not, for any proof data whose array is
    `V`'s and whose body leaves the block in place: an unfetched input's block index has not moved; the window is
    uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch conditions -/

/-- The condition of the first `scf.if` (the running sums' reset), from the grid coordinate. -/
noncomputable abbrev cond11_0 (i : grid11.Coords) : Prop := (Scalar.cmpi .ne (Scalar.extui (Scalar.cmpi .eq (BitVec.ofNat 32 (i 0).val) 0#32)) 0#32) = 1#1
/-- It holds at the first point only. -/
theorem hcond11_0 : ∀ t : Fin cfg11.N, cond11_0 (grid11.coords t) ↔ t.val % 3 = 0 :=
  (by decide +kernel : ∀ t : Fin grid11.N, cond11_0 (grid11.coords t) ↔ t.val % 3 = 0)

/-- The condition of the second `scf.if` (the statistics' write-out). -/
noncomputable abbrev cond11_1 (i : grid11.Coords) : Prop := k11_cond2 i = 1#1
/-- It holds at the last point only. -/
theorem hcond11_1 : ∀ t : Fin cfg11.N, cond11_1 (grid11.coords t) ↔ t.val % 3 = 2 :=
  (by decide +kernel : ∀ t : Fin grid11.N, cond11_1 (grid11.coords t) ↔ t.val % 3 = 2)

/-! ## Where the windows are idle -/

/-- The row-block output is never idle. -/
theorem liveAt11_5 : ∀ t : Fin cfg11.N, cfg11.idle 5 (grid11.coords t) = false := by decide +kernel
/-- Away from the last point the mean window is idle (nothing is stored into it) and not written back; -/
theorem idleAt11_6 : ∀ t : Fin cfg11.N, ¬cond11_1 (grid11.coords t) → cfg11.idle 6 (grid11.coords t) = true := by decide +kernel
theorem noFlush11_6 : ∀ t : Fin cfg11.N, ¬cond11_1 (grid11.coords t) → (cfg11.win 6).flush t = false := by decide +kernel
/-- at the last point it is live. -/
theorem liveAt11_6 : ∀ t : Fin cfg11.N, cond11_1 (grid11.coords t) → cfg11.idle 6 (grid11.coords t) = false := by decide +kernel
/-- The variance window likewise. -/
theorem idleAt11_7 : ∀ t : Fin cfg11.N, ¬cond11_1 (grid11.coords t) → cfg11.idle 7 (grid11.coords t) = true := by decide +kernel
theorem noFlush11_7 : ∀ t : Fin cfg11.N, ¬cond11_1 (grid11.coords t) → (cfg11.win 7).flush t = false := by decide +kernel
theorem liveAt11_7 : ∀ t : Fin cfg11.N, cond11_1 (grid11.coords t) → cfg11.idle 7 (grid11.coords t) = false := by decide +kernel

/-! ## The memrefs the body is called with -/

/-- One staging buffer of each output window, through which its contents are stated (the choice does not matter). -/
noncomputable abbrev VO11_5 : View sig .tc .vmem S1000x256 .f32 := (Memref.whole cc11_stg5_0 : Memref sig .tc .vmem S1000x256 .f32).view
noncomputable abbrev VO11_6 : View sig .tc .vmem S1x256 .f32 := (Memref.whole cc11_stg6_0 : Memref sig .tc .vmem S1x256 .f32).view
noncomputable abbrev VO11_7 : View sig .tc .vmem S1x256 .f32 := (Memref.whole cc11_stg7_0 : Memref sig .tc .vmem S1x256 .f32).view
/-- Each window's current staging memref at point `t`, spelled as the pipeline passes it, and its wholeness. -/
noncomputable abbrev ms11_0 (t : Fin cfg11.N) : Memref sig .tc .vmem S1000x256 .f32 := win11_0.stage (cfg11.slots t 0)
noncomputable abbrev hs11_0 (t : Fin cfg11.N) : (ms11_0 t).IsWhole := hstage11_0 ((cfg11.slots t 0).cast nbuf11_0)
noncomputable abbrev ms11_1 (t : Fin cfg11.N) : Memref sig .tc .vmem S1000x256 .f32 := win11_1.stage (cfg11.slots t 1)
noncomputable abbrev hs11_1 (t : Fin cfg11.N) : (ms11_1 t).IsWhole := hstage11_1 ((cfg11.slots t 1).cast nbuf11_1)
noncomputable abbrev ms11_2 (t : Fin cfg11.N) : Memref sig .tc .vmem S256x256 .f32 := win11_2.stage (cfg11.slots t 2)
noncomputable abbrev hs11_2 (t : Fin cfg11.N) : (ms11_2 t).IsWhole := hstage11_2 ((cfg11.slots t 2).cast nbuf11_2)
noncomputable abbrev ms11_3 (t : Fin cfg11.N) : Memref sig .tc .vmem S256x256 .f32 := win11_3.stage (cfg11.slots t 3)
noncomputable abbrev hs11_3 (t : Fin cfg11.N) : (ms11_3 t).IsWhole := hstage11_3 ((cfg11.slots t 3).cast nbuf11_3)
noncomputable abbrev ms11_4 (t : Fin cfg11.N) : Memref sig .tc .vmem S1x256 .f32 := win11_4.stage (cfg11.slots t 4)
noncomputable abbrev hs11_4 (t : Fin cfg11.N) : (ms11_4 t).IsWhole := hstage11_4 ((cfg11.slots t 4).cast nbuf11_4)
noncomputable abbrev ms11_5 (t : Fin cfg11.N) : Memref sig .tc .vmem S1000x256 .f32 := win11_5.stage (cfg11.slots t 5)
noncomputable abbrev hs11_5 (t : Fin cfg11.N) : (ms11_5 t).IsWhole := hstage11_5 ((cfg11.slots t 5).cast nbuf11_5)
noncomputable abbrev ms11_6 (t : Fin cfg11.N) : Memref sig .tc .vmem S1x256 .f32 := win11_6.stage (cfg11.slots t 6)
noncomputable abbrev hs11_6 (t : Fin cfg11.N) : (ms11_6 t).IsWhole := hstage11_6 ((cfg11.slots t 6).cast nbuf11_6)
noncomputable abbrev ms11_7 (t : Fin cfg11.N) : Memref sig .tc .vmem S1x256 .f32 := win11_7.stage (cfg11.slots t 7)
noncomputable abbrev hs11_7 (t : Fin cfg11.N) : (ms11_7 t).IsWhole := hstage11_7 ((cfg11.slots t 7).cast nbuf11_7)
/-- The two scratch operands (the running column sums of the block and of its square): whole scoped buffers of the
    kernel's own, passed beside the windows, -/
noncomputable abbrev scM11_0 : Memref sig .tc .vmem S1x256 .f32 := Memref.whole cc11_scratch0
noncomputable abbrev scM11_1 : Memref sig .tc .vmem S1x256 .f32 := Memref.whole cc11_scratch1
/-- and as views: what they hold between points is stated through them. -/
noncomputable abbrev VS11_0 : View sig .tc .vmem S1x256 .f32 := scM11_0.view
noncomputable abbrev VS11_1 : View sig .tc .vmem S1x256 .f32 := scM11_1.view

/-- The class invariant with the two scratch operands as memrefs owned at some contents, the other scoped buffers
    unopened: what the body obligation hands the run and takes back. -/
theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1]) ∗ (∃ r, prngReg c r)) := by
  unfold Pipeline.ΦA; rw [scopedRest11_split]; simp only [scM11_0, scM11_1, owns_whole]; try rfl

end Cert.KernelIdeal.Hand

end
-- ==== Proof.KI.Reg11RunA.lean ====
import proofs.«126569_j1468878815453_1_alg».proof.Proof.KI.Reg11Runs

/-! # Custom call 11, the body's run at the first grid point (the running sums reset, no statistics written) -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the first point's case — the reset taken, the write-out not:
    `L5` in the row-block output's staging memref, `LS0` and `LS1` in the two scratch accumulators —, with the proof that
    on whole memrefs — the five inputs' at their contents, the two statistics outputs' (idle here) at contents `xi·`
    handed back untouched, the row-block output's and both scratches' at anything — the body runs to the continuation
    holding the inputs' and the idle outputs' as they were and the stored buffers with their pieces written: the
    printed functions are their skeletons, run operation by operation, each `scf.if` decided by the case's
    hypotheses; the pieces are the witness the run finds. -/
noncomputable def kernelRun11_A (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc11_kernel_eq_skeleton]; unfold cc11_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The first point's pieces for the row-block output tile its block (one store of the whole block), so they cover it. -/
theorem cover11_A_5 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) (y : S1000x256.Idx) :
    ∃ pc ∈ (kernelRun11_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun11_A c i arg1 harg1 arg2 harg2 arg3 harg3 arg4 harg4 arg5 harg5 arg6 harg6 arg7 harg7 arg8 harg8 arg9 harg9 arg10 harg10 hc0 hc1 x0 x1 x2 x3 x4).1 S1000x256.size (by sl_kernel_rfl) y

/-- The first point's pieces for the first scratch accumulator (the reset, then the sum) cover it. -/
theorem scover11_A_0 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) (y : S1x256.Idx) :
    ∃ pc ∈ (kernelRun11_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun11_A c i arg1 harg1 arg2 harg2 arg3 harg3 arg4 harg4 arg5 harg5 arg6 harg6 arg7 harg7 arg8 harg8 arg9 harg9 arg10 harg10 hc0 hc1 x0 x1 x2 x3 x4).2.1 S1x256.size (by sl_kernel_rfl) y

/-- The first point's pieces for the second scratch accumulator cover it. -/
theorem scover11_A_1 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x3 : Vec F S256x256 .f32) (x4 : Vec F S1x256 .f32) (y : S1x256.Idx) :
    ∃ pc ∈ (kernelRun11_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun11_A c i arg1 harg1 arg2 harg2 arg3 harg3 arg4 harg4 arg5 harg5 arg6 harg6 arg7 harg7 arg8 harg8 arg9 harg9 arg10 harg10 hc0 hc1 x0 x1 x2 x3 x4).2.2.1 S1x256.size (by sl_kernel_rfl) y

end Cert.KernelIdeal.Hand

end
-- ==== Proof.KI.Reg11RunB.lean ====
import proofs.«126569_j1468878815453_1_alg».proof.Proof.KI.Reg11Runs

/-! # Custom call 11, the body's run at the middle grid point (no reset, no statistics written) -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the middle point's case — neither branch taken: `L5` in
    the row-block output's staging memref, `LS0` and `LS1` in the two scratch accumulators —, with the proof that on
    whole memrefs — the five inputs' at their contents, the two statistics outputs' (idle here) at contents `xi·`
    handed back untouched, the row-block output's at anything, the two scratches' at what the point before left
    (`xs·`) — the body runs to the continuation holding the inputs' and the idle outputs' as they were and the stored
    buffers with their pieces written. -/
noncomputable def kernelRun11_B (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) :
    Σ' (L5 : List (View.Piece (Elt F) S1000x256 .f32)) (LS0 : List (View.Piece (Elt F) S1x256 .f32)), { LS1 : List (View.Piece (Elt F) S1x256 .f32) //
      ∀ (xi6 : Vec F S1x256 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc11_kernel_eq_skeleton]; unfold cc11_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-- The middle point's pieces for the row-block output tile its block, so they cover it. -/
theorem cover11_B_5 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1000x256.Idx) :
    ∃ pc ∈ (kernelRun11_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun11_B c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The middle point's pieces for the first scratch accumulator cover it. -/
theorem scover11_B_0 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun11_B c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The middle point's pieces for the second scratch accumulator cover it. -/
theorem scover11_B_1 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun11_B c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

end Cert.KernelIdeal.Hand

end
-- ==== Proof.KI.Reg11RunC.lean ====
import proofs.«126569_j1468878815453_1_alg».proof.Proof.KI.Reg11Runs

/-! # Custom call 11, the body's run at the last grid point (no reset; the mean and the variance written out) -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the last point's case — the reset not taken, the write-out
    taken: `L5`, `L6`, `L7` in the three outputs' staging memrefs (the row block, the mean, the variance), `LS0` and
    `LS1` in the two scratch accumulators —, with the proof that on whole memrefs — the five inputs' at their contents,
    the outputs' at anything, the two scratches' at what the point before left (`xs·`) — the body runs to the
    continuation holding the inputs' as they were and the stored buffers with their pieces written. -/
noncomputable def kernelRun11_C (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) :
    Σ' (L5 : List (View.Piece (Elt F) S1000x256 .f32)) (L6 : List (View.Piece (Elt F) S1x256 .f32)) (L7 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc11_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc11_kernel_eq_skeleton]; unfold cc11_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

/-- The last point's pieces for the row-block output tile its block, so they cover it. -/
theorem cover11_C_5 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1000x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).1 S1000x256.size (by sl_kernel_rfl) y

/-- The last point's pieces for the mean output cover it. -/
theorem cover11_C_6 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.1 S1x256.size (by sl_kernel_rfl) y

/-- The last point's pieces for the variance output cover it. -/
theorem cover11_C_7 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.1 S1x256.size (by sl_kernel_rfl) y

/-- The last point's pieces for the first scratch accumulator cover it. -/
theorem scover11_C_0 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x256.size (by sl_kernel_rfl) y

/-- The last point's pieces for the second scratch accumulator cover it. -/
theorem scover11_C_1 (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x3 : Vec F S256x256 .f32) (x4 : Vec F S1x256 .f32) (xs0 : Vec F S1x256 .f32) (xs1 : Vec F S1x256 .f32) (y : S1x256.Idx) :
    ∃ pc ∈ (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun11_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x256.size (by sl_kernel_rfl) y

end Cert.KernelIdeal.Hand

end
-- ==== Proof.KI.Reg11.lean ====
import proofs.«126569_j1468878815453_1_alg».proof.Proof.KI.Reg11RunA
import proofs.«126569_j1468878815453_1_alg».proof.Proof.KI.Reg11RunB
import proofs.«126569_j1468878815453_1_alg».proof.Proof.KI.Reg11RunC

/-! # Custom call 11 (the one-relation combine kernel with its running column sums), region half

At a parameter `V` (the TensorCore's buffer contents when the region is entered): what the three outputs' staging
buffers and the two scratch accumulators hold after each of the three grid points, the region invariant that carries
the accumulators between points, the pipeline's proof data, its body obligation, and the invariant's two ends. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three cases' runs at a grid point -/

/-- The first point's run on point `t`'s memrefs and input blocks. -/
noncomputable abbrev runA11 (c : Dev nD) (t : Fin cfg11.N) (h0 : t.val % 3 = 0) (h1 : ¬t.val % 3 = 2) :=
  kernelRun11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t)
/-- The middle point's, over what the point before left in the accumulators. -/
noncomputable abbrev runB11 (c : Dev nD) (t : Fin cfg11.N) (h0 : ¬t.val % 3 = 0) (h1 : ¬t.val % 3 = 2) (xs0 : Vec F S1x256 .f32) (xs1 : Vec F S1x256 .f32) :=
  kernelRun11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) xs0 xs1
/-- The last point's, likewise. -/
noncomputable abbrev runC11 (c : Dev nD) (t : Fin cfg11.N) (h0 : ¬t.val % 3 = 0) (h1 : t.val % 3 = 2) (xs0 : Vec F S1x256 .f32) (xs1 : Vec F S1x256 .f32) :=
  kernelRun11_C c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) xs0 xs1

/-! ## What each case leaves -/

/-- What the first point leaves: the row-block output's buffer, the two statistics outputs' (nothing stored: a
    placeholder nothing consults, the windows idle and not written back there), and the two accumulators — each its
    pieces read back over junk. -/
noncomputable def outA11 (c : Dev nD) (t : Fin cfg11.N) (h0 : t.val % 3 = 0) (h1 : ¬t.val % 3 = 2) : Vec F S1000x256 .f32 × Vec F S1x256 .f32 × Vec F S1x256 .f32 × Vec F S1x256 .f32 × Vec F S1x256 .f32 :=
  (VO11_5.read (Elt F) (VO11_5.writes (Elt F) VO11_5.junk (runA11 V c t h0 h1).1), VO11_6.read (Elt F) (VO11_6.writes (Elt F) VO11_6.junk []), VO11_7.read (Elt F) (VO11_7.writes (Elt F) VO11_7.junk []),
   VS11_0.read (Elt F) (VS11_0.writes (Elt F) VS11_0.junk (runA11 V c t h0 h1).2.1), VS11_1.read (Elt F) (VS11_1.writes (Elt F) VS11_1.junk (runA11 V c t h0 h1).2.2.1))
/-- What the middle point leaves, likewise. -/
noncomputable def outB11 (c : Dev nD) (t : Fin cfg11.N) (h0 : ¬t.val % 3 = 0) (h1 : ¬t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO11_5.read (Elt F) (VO11_5.writes (Elt F) VO11_5.junk (runB11 V c t h0 h1 xs0 xs1).1), VO11_6.read (Elt F) (VO11_6.writes (Elt F) VO11_6.junk []), VO11_7.read (Elt F) (VO11_7.writes (Elt F) VO11_7.junk []),
   VS11_0.read (Elt F) (VS11_0.writes (Elt F) VS11_0.junk (runB11 V c t h0 h1 xs0 xs1).2.1), VS11_1.read (Elt F) (VS11_1.writes (Elt F) VS11_1.junk (runB11 V c t h0 h1 xs0 xs1).2.2.1))
/-- What the last point leaves: all three outputs stored. -/
noncomputable def outC11 (c : Dev nD) (t : Fin cfg11.N) (h0 : ¬t.val % 3 = 0) (h1 : t.val % 3 = 2) (xs0 : Vec F S1x256 .f32) (xs1 : Vec F S1x256 .f32) : Vec F S1000x256 .f32 × Vec F S1x256 .f32 × Vec F S1x256 .f32 × Vec F S1x256 .f32 × Vec F S1x256 .f32 :=
  (VO11_5.read (Elt F) (VO11_5.writes (Elt F) VO11_5.junk (runC11 V c t h0 h1 xs0 xs1).1), VO11_6.read (Elt F) (VO11_6.writes (Elt F) VO11_6.junk (runC11 V c t h0 h1 xs0 xs1).2.1), VO11_7.read (Elt F) (VO11_7.writes (Elt F) VO11_7.junk (runC11 V c t h0 h1 xs0 xs1).2.2.1),
   VS11_0.read (Elt F) (VS11_0.writes (Elt F) VS11_0.junk (runC11 V c t h0 h1 xs0 xs1).2.2.2.1), VS11_1.read (Elt F) (VS11_1.writes (Elt F) VS11_1.junk (runC11 V c t h0 h1 xs0 xs1).2.2.2.2.1))

/-! ## What the outputs and the accumulators hold after each point -/

/-- THE ACCUMULATION. What the three outputs' staging buffers and the two accumulators hold after the body at position
    `n` (a tuple: the outputs in window order, then the accumulators): the case the closed forms select at `n`, run at
    the point's memrefs and input blocks, the accumulators at what the point before left. -/
noncomputable def outsAt11 (c : Dev nD) : (n : ℕ) → n < cfg11.N → Vec F S1000x256 .f32 × Vec F S1x256 .f32 × Vec F S1x256 .f32 × Vec F S1x256 .f32 × Vec F S1x256 .f32
  | 0, hn => outA11 V c ⟨0, hn⟩ (Nat.zero_mod _) (fun h => by (try dsimp only at h); omega)
  | n + 1, hn =>
    if h0 : (n + 1) % 3 = 0 then
      if h1 : (n + 1) % 3 = 2 then
        False.elim (by omega)
      else
        outA11 V c ⟨n + 1, hn⟩ h0 h1
    else
      if h1 : (n + 1) % 3 = 2 then
        outC11 V c ⟨n + 1, hn⟩ h0 h1 (outsAt11 c n (Nat.lt_of_succ_lt hn)).2.2.2.1 (outsAt11 c n (Nat.lt_of_succ_lt hn)).2.2.2.2
      else
        outB11 V c ⟨n + 1, hn⟩ h0 h1 (outsAt11 c n (Nat.lt_of_succ_lt hn)).2.2.2.1 (outsAt11 c n (Nat.lt_of_succ_lt hn)).2.2.2.2

/-- `outsAt11` at the first point. -/
theorem outsAt11_A (c : Dev nD) (t : Fin cfg11.N) (h0 : t.val % 3 = 0) (h1 : ¬t.val % 3 = 2) :
    outsAt11 V c t.val t.isLt = outA11 V c t h0 h1 := by
  obtain ⟨n, hn⟩ := t
  cases n with
  | zero => exact rfl
  | succ n => exact (dif_pos h0).trans ((dif_neg h1).trans rfl)

/-- `outsAt11` at the middle point: over what the point before left. -/
theorem outsAt11_B (c : Dev nD) (t : Fin cfg11.N) (h0 : ¬t.val % 3 = 0) (h1 : ¬t.val % 3 = 2) :
    outsAt11 V c t.val t.isLt = outB11 V c t h0 h1 (outsAt11 V c (t.val - 1) (Nat.lt_of_le_of_lt (Nat.sub_le _ _) t.isLt)).2.2.2.1 (outsAt11 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt11` at the last point: over what the point before left. -/
theorem outsAt11_C (c : Dev nD) (t : Fin cfg11.N) (h0 : ¬t.val % 3 = 0) (h1 : t.val % 3 = 2) :
    outsAt11 V c t.val t.isLt = outC11 V c t h0 h1 (outsAt11 V c (t.val - 1) (Nat.lt_of_le_of_lt (Nat.sub_le _ _) t.isLt)).2.2.2.1 (outsAt11 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the invariant of a body touching only its
    windows (every scratch at anything); afterwards the scoped rest with the two accumulators at what the point before
    left in them, the other scoped buffers unopened, and the generator register at some state. -/
noncomputable def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2.2.2.1) ∗ owns (c : Thread nD τ) scM11_1 fullShare ((outsAt11 V c n hn).2.2.2.2))
      ∗ Pipeline.scopedRestBut (Ix := Unit) (Name := ℕ) (U := UR sig nD τ) (Lvl := ℕ) (Val := Elt F) spec11 c [cc11_scratch0, cc11_scratch1]) ∗ (∃ r, prngReg c r))

theorem PhiS11_zero (c : Dev nD) (n : ℕ) (h : n ≤ cfg11.N) (hz : n = 0) : PhiS11 V c n h = Pipeline.ΦA spec11 c := by
  subst hz; rfl

/-- After point `n` (before point `n + 1`): the accumulators at that point's contents. -/
theorem PhiS11_succ (c : Dev nD) (n : ℕ) (hn : n < cfg11.N) :
    PhiS11 V c (n + 1) hn = iprop(iprop(iprop(owns (c : Thread nD τ) scM11_0 fullShare ((outsAt11 V c n hn).2.2.2.1) ∗ owns (c : Thread nD τ) scM11_1 fullShare ((outsAt11 V c n hn).2.2.2.2))
      ∗ Pipeline.scopedRestBut (Ix := Unit) (Name := ℕ) (U := UR sig nD τ) (Lvl := ℕ) (Val := Elt F) spec11 c [cc11_scratch0, cc11_scratch1]) ∗ (∃ r, prngReg c r)) := rfl

/-- Before a point that is not the first: the accumulators at what the point before left. -/
theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2.2.2.1) ∗ owns (c : Thread nD τ) scM11_1 fullShare ((outsAt11 V c (n - 1) (by omega)).2.2.2.2))
      ∗ Pipeline.scopedRestBut (Ix := Unit) (Name := ℕ) (U := UR sig nD τ) (Lvl := ℕ) (Val := Elt F) spec11 c [cc11_scratch0, cc11_scratch1]) ∗ (∃ r, prngReg c r)) := by
  cases n with
  | zero => exact absurd rfl hz
  | succ n => rfl

/-! ## The pipeline's proof data -/

/-- The proof data of pipeline 11 on core `c`: the arrays as the region finds them (`V`); after the body at point `t`
    each input's buffer at its block and the outputs' at `outsAt11`'s components; the invariant `PhiS11`; nothing owed;
    full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => (outsAt11 V c t.val t.isLt).1
    | ⟨6, _⟩ => (outsAt11 V c t.val t.isLt).2.1
    | ⟨7, _⟩ => (outsAt11 V c t.val t.isLt).2.2.1
  Φ t := PhiS11 V c t.val (Nat.le_of_lt_succ t.isLt)
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = (outsAt11 V c t.val t.isLt).1 := by dsimp only [dat11]
theorem after11_6 (c : Dev nD) (t : Fin cfg11.N) : (dat11 V c).after 6 t = (outsAt11 V c t.val t.isLt).2.1 := by dsimp only [dat11]
theorem after11_7 (c : Dev nD) (t : Fin cfg11.N) : (dat11 V c).after 7 t = (outsAt11 V c t.val t.isLt).2.2.1 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- The inputs are never idle. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem liveAt11_3 : ∀ t : Fin cfg11.N, cfg11.idle 3 (grid11.coords t) = false := by decide +kernel
theorem liveAt11_4 : ∀ t : Fin cfg11.N, cfg11.idle 4 (grid11.coords t) = false := by decide +kernel

/-! ## The body obligation, at a generic point -/

/-- What the body is called with at point `t` (the windows one by one), -/
noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d)))

/-- and what it returns. -/
noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t
    ∗ (dat11 V c).leavesExact 5 t
    ∗ (dat11 V c).leavesExact 6 t
    ∗ (dat11 V c).leavesExact 7 t)

set_option maxHeartbeats 4800000 in
/-- The body at any point: the inputs' memrefs hold their blocks; the closed forms say which of the three cases the point
    is in; so that case's run applies. The invariant hands the body the two accumulators at what the point before left
    (at anything at the first point) and takes them back at this point's contents; the statistics windows, idle away
    from the last point, are handed back as found; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).owesAt () t.succ = (dat11 V c).owesAt () t.castSucc from rfl]
  rw [show (dat11 V c).Φ t.succ = PhiS11 V c (t.val + 1) t.isLt from rfl, PhiS11_succ]
  have hN : t.val < 3 := lt_of_lt_of_eq t.isLt (show cfg11.N = 3 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  rw [show (dat11 V c).leavesExact 3 t = owns (c : Thread nD τ) (ms11_3 t) fullShare ((dat11 V c).after 3 t) from by
    unfold Dat.leavesExact; rw [liveAt11_3 t], after11_3]
  rw [show (dat11 V c).leavesExact 4 t = owns (c : Thread nD τ) (ms11_4 t) fullShare ((dat11 V c).after 4 t) from by
    unfold Dat.leavesExact; rw [liveAt11_4 t], after11_4]
  rw [show (dat11 V c).leavesExact 5 t = owns (c : Thread nD τ) (ms11_5 t) fullShare ((dat11 V c).after 5 t) from by
    unfold Dat.leavesExact; rw [liveAt11_5 t], after11_5]
  by_cases h0 : t.val % 3 = 0
  · have h1 : ¬t.val % 3 = 2 := by omega
    have hz : t.val = 0 := by omega
    rw [Dat.leavesExact_idle (dat11 V c) 6 t (idleAt11_6 t (fun h => h1 ((hcond11_1 t).mp h))) (noFlush11_6 t (fun h => h1 ((hcond11_1 t).mp h)))]
    rw [Dat.leavesExact_idle (dat11 V c) 7 t (idleAt11_7 t (fun h => h1 ((hcond11_1 t).mp h))) (noFlush11_7 t (fun h => h1 ((hcond11_1 t).mp h)))]
    rw [outsAt11_A V c t h0 h1]
    unfold outA11; (try dsimp only)
    rw [PhiS11_castSucc V c t, PhiS11_zero V c _ _ hz, PhiA11_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA11 V c t h0 h1).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover11_A_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t))
          · unfold owns; iexists _; isplitr
            swap; · iexact HS1
            ipureintro; exact View.read_writes_of_cover _ _ _ _ _ (scover11_A_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t))
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover11_A_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t))
    isplitl [H6]; · iexists _; iexact H6
    iexists _; iexact H7
  · have hz : t.val ≠ 0 := by omega
    by_cases h1 : t.val % 3 = 2
    · rw [show (dat11 V c).leavesExact 6 t = owns (c : Thread nD τ) (ms11_6 t) fullShare ((dat11 V c).after 6 t) from by
      unfold Dat.leavesExact; rw [liveAt11_6 t ((hcond11_1 t).mpr h1)], after11_6]
      rw [show (dat11 V c).leavesExact 7 t = owns (c : Thread nD τ) (ms11_7 t) fullShare ((dat11 V c).after 7 t) from by
      unfold Dat.leavesExact; rw [liveAt11_7 t ((hcond11_1 t).mpr h1)], after11_7]
      rw [outsAt11_C V c t h0 h1]
      unfold outC11; (try dsimp only)
      rw [PhiS11_castSucc V c t, PhiS11_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC11 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover11_C_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
            · unfold owns; iexists _; isplitr
              swap; · iexact HS1
              ipureintro; exact View.read_writes_of_cover _ _ _ _ _ (scover11_C_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover11_C_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
      isplitl [H6]
      · unfold owns; iexists _; isplitr
        swap; · iexact H6
        ipureintro; exact View.read_writes_of_cover _ _ _ _ _ (cover11_C_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
      unfold owns; iexists _; isplitr
      swap; · iexact H7
      ipureintro; exact View.read_writes_of_cover _ _ _ _ _ (cover11_C_7 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) _ _)
    · rw [Dat.leavesExact_idle (dat11 V c) 6 t (idleAt11_6 t (fun h => h1 ((hcond11_1 t).mp h))) (noFlush11_6 t (fun h => h1 ((hcond11_1 t).mp h)))]
      rw [Dat.leavesExact_idle (dat11 V c) 7 t (idleAt11_7 t (fun h => h1 ((hcond11_1 t).mp h))) (noFlush11_7 t (fun h => h1 ((hcond11_1 t).mp h)))]
      rw [outsAt11_B V c t h0 h1]
      unfold outB11; (try dsimp only)
      rw [PhiS11_castSucc V c t, PhiS11_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB11 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover11_B_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) _ _)
            · unfold owns; iexists _; isplitr
              swap; · iexact HS1
              ipureintro; exact View.read_writes_of_cover _ _ _ _ _ (scover11_B_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) _ _)
      isplitl [H6]; · iexists _; iexact H6
      iexists _; iexact H7

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant's two ends -/

/-- What the launch hands the region is the invariant before the first point. -/
theorem hin11 (c : Dev nD) : (Pipeline.ΦA spec11 c : sProp 𝕄) ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives the launch's back: the accumulators' named contents are forgotten. -/
theorem Phi_out11 (c : Dev nD) (t : Fin (cfg11.N + 1)) (ht : t.val ≠ 0) : (dat11 V c).Φ t ⊢ (Pipeline.ΦA spec11 c : sProp 𝕄) := by
  rw [show (dat11 V c).Φ t = PhiS11 V c t.val (Nat.le_of_lt_succ t.isLt) from rfl, PhiS11_pos V c _ _ ht, PhiA11_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout11 (c : Dev nD) : (dat11 V c).Φ (Fin.last cfg11.N) ⊢ (Pipeline.ΦA spec11 c : sProp 𝕄) :=
  Phi_out11 V c _ (by rw [Fin.val_last]; have : cfg11.N = 3 := N_11; omega)

end Cert.KernelIdeal.Hand

end
-- ==== Proof.KI.Reg12.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 12 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the activations' row block) holds its block at every point, fetched there or not, for any proof
    data whose array is `V`'s and whose body leaves the block in place: an unfetched input's block index has not
    moved; the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1 (the mean row), likewise: fetched at the first point only, its one block stays. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2 (the variance row), likewise. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
/-- Input window 3 (the scale row), likewise. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
/-- Input window 4 (the shift row), likewise. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole 1000x256 block, -/
abbrev r12_0 : Rect S1000x256 := Rect.unit (s := S1000x256) ![0, 0] S1000x256.size inb_S1000x256_S1000x256_0_0
/-- and the whole 1x256 row. -/
abbrev r12_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out12_5 (x0 : Vec F S1000x256 .f32) (x1 : Vec F S1x256 .f32) (x2 : Vec F S1x256 .f32) (x3 : Vec F S1x256 .f32) (x4 : Vec F S1x256 .f32) : Vec F S1000x256 .f32 :=
  View.canon [⟨r12_0, k12_pay1 (View.ld x1 r12_1) (View.ld x2 r12_1) (View.ld x0 r12_0) (View.ld x3 r12_1) (View.ld x4 r12_1)⟩]

/-- The one store is of the whole block, so it covers it. -/
theorem cover12_5 (p0 : Vec F S1000x256 .f32) (y : S1000x256.Idx) :
    ∃ pc ∈ ([⟨r12_0, p0⟩] : List (View.Piece (Elt F) S1000x256 .f32)), y ∈ pc.1.set :=
  View.cover_of_tiled [⟨r12_0, p0⟩] S1000x256.size (by rfl) y

/-! ## The body's triple -/

set_option maxHeartbeats 1000000 in
/-- The kernel body on whole staging memrefs, the five inputs' at read contents `xW` and the output's at anything, runs
    to the continuation holding the inputs' as they were and the output's at `out12_5` of the inputs': the printed
    function is its skeleton, five loads of the inputs, a load of the output's prior contents (unused), and the store. -/
theorem sound_kernel12 (c : Dev nD) (E : Set ℕ) (i : grid12.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12_5 x0 x1 x2 x3 x4)) -∗ K ⟨⟩))
      ⊢ wp frame (wpE (defs₀ (F := F)) Variants.none c none) E (cc12_kernel i arg1 harg1 arg2 harg2 arg3 harg3 arg4 harg4 arg5 harg5 arg6 harg6) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of pipeline 12 on core `c`: the arrays as the region finds them (`V`); after the body at point `t`
    each input's buffer at its block and the output's at `out12_5` of the input blocks; the invariant that of a body
    touching only its windows (the scoped rest and the generator register, untouched); nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's `match` reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t` (the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks (`before12_W`), so `sound_kernel12` applies; the
    invariant and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Reg13.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 13 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0 (the activations' row block) holds its block at every point, fetched there or not, for any proof
    data whose array is `V`'s and whose body leaves the block in place: an unfetched input's block index has not
    moved; the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1 (the mean row), likewise: fetched at the first point only, its one block stays. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2 (the variance row), likewise. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- Input window 3 (the scale row), likewise. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
/-- Input window 4 (the shift row), likewise. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The whole 1000x256 block, -/
abbrev r13_0 : Rect S1000x256 := Rect.unit (s := S1000x256) ![0, 0] S1000x256.size inb_S1000x256_S1000x256_0_0
/-- and the whole 1x256 row. -/
abbrev r13_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out13_5 (x0 : Vec F S1000x256 .f32) (x1 : Vec F S1x256 .f32) (x2 : Vec F S1x256 .f32) (x3 : Vec F S1x256 .f32) (x4 : Vec F S1x256 .f32) : Vec F S1000x256 .f32 :=
  View.canon [⟨r13_0, k13_pay1 (View.ld x1 r13_1) (View.ld x2 r13_1) (View.ld x0 r13_0) (View.ld x3 r13_1) (View.ld x4 r13_1)⟩]

/-- The one store is of the whole block, so it covers it. -/
theorem cover13_5 (p0 : Vec F S1000x256 .f32) (y : S1000x256.Idx) :
    ∃ pc ∈ ([⟨r13_0, p0⟩] : List (View.Piece (Elt F) S1000x256 .f32)), y ∈ pc.1.set :=
  View.cover_of_tiled [⟨r13_0, p0⟩] S1000x256.size (by rfl) y

/-! ## The body's triple -/

set_option maxHeartbeats 1000000 in
/-- The kernel body on whole staging memrefs, the five inputs' at read contents `xW` and the output's at anything, runs
    to the continuation holding the inputs' as they were and the output's at `out13_5` of the inputs': the printed
    function is its skeleton, five loads of the inputs, a load of the output's prior contents (unused), and the store. -/
theorem sound_kernel13 (c : Dev nD) (E : Set ℕ) (i : grid13.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out13_5 x0 x1 x2 x3 x4)) -∗ K ⟨⟩))
      ⊢ wp frame (wpE (defs₀ (F := F)) Variants.none c none) E (cc13_kernel i arg1 harg1 arg2 harg2 arg3 harg3 arg4 harg4 arg5 harg5 arg6 harg6) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover13_5 _)

/-! ## The pipeline's proof data -/

/-- The proof data of pipeline 13 on core `c`: the arrays as the region finds them (`V`); after the body at point `t`
    each input's buffer at its block and the output's at `out13_5` of the input blocks; the invariant that of a body
    touching only its windows (the scoped rest and the generator register, untouched); nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13_5 (iblk13 V c 0 t) (iblk13 V c 1 t) (iblk13 V c 2 t) (iblk13 V c 3 t) (iblk13 V c 4 t)
  Φ _ := Pipeline.ΦA spec13 c
  q _ := fullShare
  owed _ := 0

/-- The proof data's arrays are the region-entry contents (the definition projected). -/
theorem A_eq13 (c : Dev nD) (w : Fin cfg13.W) : (dat13 V c).A w = V c (Pipeline.arrRef spec13 w) := by
  dsimp only [dat13]

/-- What the body leaves, window by window (the proof data's `match` reduced). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = out13_5 (iblk13 V c 0 t) (iblk13 V c 1 t) (iblk13 V c 2 t) (iblk13 V c 3 t) (iblk13 V c 4 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-! ## The body obligation, at a generic point -/

/-- What the body is called with at point `t` (the windows one by one), -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- The body at any point: the inputs' memrefs hold their blocks (`before13_W`), so `sound_kernel13` applies; the
    invariant and the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ (grid13.coords t) _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand
-- ==== Proof.KI.Reg14.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 14 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0 (the activations' row block) holds its block at every point, fetched there or not, for any proof
    data whose array is `V`'s and whose body leaves the block in place: an unfetched input's block index has not
    moved; the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1 (the mean row), likewise: fetched at the first point only, its one block stays. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2 (the variance row), likewise. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3 (the scale row), likewise. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4 (the shift row), likewise. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole 1000x256 block, -/
abbrev r14_0 : Rect S1000x256 := Rect.unit (s := S1000x256) ![0, 0] S1000x256.size inb_S1000x256_S1000x256_0_0
/-- and the whole 1x256 row. -/
abbrev r14_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out14_5 (x0 : Vec F S1000x256 .f32) (x1 : Vec F S1x256 .f32) (x2 : Vec F S1x256 .f32) (x3 : Vec F S1x256 .f32) (x4 : Vec F S1x256 .f32) : Vec F S1000x256 .f32 :=
  View.canon [⟨r14_0, k14_pay1 (View.ld x1 r14_1) (View.ld x2 r14_1) (View.ld x0 r14_0) (View.ld x3 r14_1) (View.ld x4 r14_1)⟩]

/-- The one store is of the whole block, so it covers it. -/
theorem cover14_5 (p0 : Vec F S1000x256 .f32) (y : S1000x256.Idx) :
    ∃ pc ∈ ([⟨r14_0, p0⟩] : List (View.Piece (Elt F) S1000x256 .f32)), y ∈ pc.1.set :=
  View.cover_of_tiled [⟨r14_0, p0⟩] S1000x256.size (by rfl) y

/-! ## The body's triple -/

set_option maxHeartbeats 1000000 in
/-- The kernel body on whole staging memrefs, the five inputs' at read contents `xW` and the output's at anything, runs
    to the continuation holding the inputs' as they were and the output's at `out14_5` of the inputs': the printed
    function is its skeleton, five loads of the inputs, a load of the output's prior contents (unused), and the store. -/
theorem sound_kernel14 (c : Dev nD) (E : Set ℕ) (i : grid14.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14_kernel i arg1 harg1 arg2 harg2 arg3 harg3 arg4 harg4 arg5 harg5 arg6 harg6) K := by
  simp only [cc14_kernel_eq_skeleton]; unfold cc14_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at point `t`
    each input's buffer at its block and the output's at `out14_5` of the input blocks; the invariant that of a body
    touching only its windows (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents (the definition projected). -/
theorem A_eq14 (c : Dev nD) (w : Fin cfg14.W) : (dat14 V c).A w = V c (Pipeline.arrRef spec14 w) := by
  dsimp only [dat14]

/-- What the body leaves, window by window (the proof data's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t` (the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ (grid14.coords t) _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand
-- ==== Proof.KI.Reg15.lean ====
import proofs.«126569_j1468878815453_1_alg».proof.Proof.Gen.KernelIdeal.Launch
import proofs.«126569_j1468878815453_1_alg».proof.Proof.Gen.KernelIdeal.Skeleton
import proofs.«126569_j1468878815453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Custom call 15 (the batch-norm + ReLU kernel on a 1000x256 row block), region half

At a parameter `V` (the TensorCore's buffer contents when the region is entered): each window's block at a grid
point, what the body leaves in the output window's staging buffer as a function of the five input blocks, the
body's triple, the pipeline's proof data and its body obligation. -/

-- membership in a rectangle of a 1000-row block: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 (the activations' row block) holds its block at every point, fetched there or not, for any proof
    data whose array is `V`'s and whose body leaves the block in place: an unfetched input's block index has not
    moved; the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1 (the mean row), likewise: fetched at the first point only, its one block stays. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- Input window 2 (the variance row), likewise. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
/-- Input window 3 (the scale row), likewise. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
/-- Input window 4 (the shift row), likewise. -/
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The whole 1000x256 block, -/
abbrev r15_0 : Rect S1000x256 := Rect.unit (s := S1000x256) ![0, 0] S1000x256.size inb_S1000x256_S1000x256_0_0
/-- and the whole 1x256 row. -/
abbrev r15_1 : Rect S1x256 := Rect.unit (s := S1x256) ![0, 0] S1x256.size inb_S1x256_S1x256_0_0

/-! ## What the body leaves in the output window's buffer -/

/-- Window 5's staging buffer after the body, from the input windows' blocks (activations `x0`, mean `x1`, variance
    `x2`, scale `x3`, shift `x4`): its one store, of `max(((x0 - x1) * rsqrt(x2 + eps)) * x3 + x4, 0)` as the
    skeleton's payload spells it, over the whole block. -/
def out15_5 (x0 : Vec F S1000x256 .f32) (x1 : Vec F S1x256 .f32) (x2 : Vec F S1x256 .f32) (x3 : Vec F S1x256 .f32) (x4 : Vec F S1x256 .f32) : Vec F S1000x256 .f32 :=
  View.canon [⟨r15_0, k15_pay1 (View.ld x1 r15_1) (View.ld x2 r15_1) (View.ld x0 r15_0) (View.ld x3 r15_1) (View.ld x4 r15_1)⟩]

/-- The one store is of the whole block, so it covers it. -/
theorem cover15_5 (p0 : Vec F S1000x256 .f32) (y : S1000x256.Idx) :
    ∃ pc ∈ ([⟨r15_0, p0⟩] : List (View.Piece (Elt F) S1000x256 .f32)), y ∈ pc.1.set :=
  View.cover_of_tiled [⟨r15_0, p0⟩] S1000x256.size (by rfl) y

/-! ## The body's triple -/

set_option maxHeartbeats 1000000 in
/-- The kernel body on whole staging memrefs, the five inputs' at read contents `xW` and the output's at anything, runs
    to the continuation holding the inputs' as they were and the output's at `out15_5` of the inputs': the printed
    function is its skeleton, five loads of the inputs, a load of the output's prior contents (unused), and the store. -/
theorem sound_kernel15 (c : Dev nD) (E : Set ℕ) (i : grid15.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1000x256 .f32) (harg6 : arg6.IsWhole)
    (x0 : Vec F S1000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out15_5 x0 x1 x2 x3 x4)) -∗ K ⟨⟩))
      ⊢ wp frame (wpE (defs₀ (F := F)) Variants.none c none) E (cc15_kernel i arg1 harg1 arg2 harg2 arg3 harg3 arg4 harg4 arg5 harg5 arg6 harg6) K := by
  simp only [cc15_kernel_eq_skeleton]; unfold cc15_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover15_5 _)

/-! ## The pipeline's proof data -/

/-- The proof data of pipeline 15 on core `c`: the arrays as the region finds them (`V`); after the body at point `t`
    each input's buffer at its block and the output's at `out15_5` of the input blocks; the invariant that of a body
    touching only its windows (the scoped rest and the generator register, untouched); nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out15_5 (iblk15 V c 0 t) (iblk15 V c 1 t) (iblk15 V c 2 t) (iblk15 V c 3 t) (iblk15 V c 4 t)
  Φ _ := Pipeline.ΦA spec15 c
  q _ := fullShare
  owed _ := 0

/-- The proof data's arrays are the region-entry contents (the definition projected). -/
theorem A_eq15 (c : Dev nD) (w : Fin cfg15.W) : (dat15 V c).A w = V c (Pipeline.arrRef spec15 w) := by
  dsimp only [dat15]

/-- What the body leaves, window by window (the proof data's `match` reduced). -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = out15_5 (iblk15 V c 0 t) (iblk15 V c 1 t) (iblk15 V c 2 t) (iblk15 V c 3 t) (iblk15 V c 4 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d

/-! ## The body obligation, at a generic point -/

/-- What the body is called with at point `t` (the windows one by one), -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t))

/-- The body at any point: the inputs' memrefs hold their blocks (`before15_W`), so `sound_kernel15` applies; the
    invariant and the core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4]
  rw [show (dat15 V c).Φ t.succ = (dat15 V c).Φ t.castSucc from rfl,
    show (dat15 V c).owesAt () t.succ = (dat15 V c).owesAt () t.castSucc from rfl,
    after15_0, after15_1, after15_2, after15_3, after15_4, after15_5]
  iintro ⟨HΦ, Ho, ⟨%d0, H0⟩, ⟨%d1, H1⟩, ⟨%d2, H2⟩, ⟨%d3, H3⟩, ⟨%d4, H4⟩, ⟨%d5, H5⟩⟩
  iapply (sound_kernel15 c Set.univ (grid15.coords t) _ _ _ _ _ _ _ _ _ _ _ _ (iblk15 V c 0 t) (iblk15 V c 1 t) (iblk15 V c 2 t) (iblk15 V c 3 t) (iblk15 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand
-- ==== Proof.KI.Fold.lean ====
import proofs.«126569_j1468878815453_1_alg».proof.Proof.KI.Reg0
import proofs.«126569_j1468878815453_1_alg».proof.Proof.KI.Reg1
import proofs.«126569_j1468878815453_1_alg».proof.Proof.KI.Reg2
import proofs.«126569_j1468878815453_1_alg».proof.Proof.KI.Reg3
import proofs.«126569_j1468878815453_1_alg».proof.Proof.KI.Reg4
import proofs.«126569_j1468878815453_1_alg».proof.Proof.KI.Reg5
import proofs.«126569_j1468878815453_1_alg».proof.Proof.KI.Reg6
import proofs.«126569_j1468878815453_1_alg».proof.Proof.KI.Reg7
import proofs.«126569_j1468878815453_1_alg».proof.Proof.KI.Reg8
import proofs.«126569_j1468878815453_1_alg».proof.Proof.KI.Reg9
import proofs.«126569_j1468878815453_1_alg».proof.Proof.KI.Reg10
import proofs.«126569_j1468878815453_1_alg».proof.Proof.KI.Reg11
import proofs.«126569_j1468878815453_1_alg».proof.Proof.KI.Reg12
import proofs.«126569_j1468878815453_1_alg».proof.Proof.KI.Reg13
import proofs.«126569_j1468878815453_1_alg».proof.Proof.KI.Reg14
import proofs.«126569_j1468878815453_1_alg».proof.Proof.KI.Reg15

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 4's invariant is the class's at every point. -/
theorem hin4 (V : (c : Dev nD) → (b : Ref sig .tc) → Buf (Elt F) ((c : Thread nD τ).loc b)) (c : Dev nD) : (Pipeline.ΦA spec4 c : sProp 𝕄) ⊢ (dat4 V c).Φ 0 := .rfl
theorem hout4 (V : (c : Dev nD) → (b : Ref sig .tc) → Buf (Elt F) ((c : Thread nD τ).loc b)) (c : Dev nD) : (dat4 V c).Φ (Fin.last cfg4.N) ⊢ (Pipeline.ΦA spec4 c : sProp 𝕄) := .rfl
/-- Region 5's invariant is the class's at every point. -/
theorem hin5 (V : (c : Dev nD) → (b : Ref sig .tc) → Buf (Elt F) ((c : Thread nD τ).loc b)) (c : Dev nD) : (Pipeline.ΦA spec5 c : sProp 𝕄) ⊢ (dat5 V c).Φ 0 := .rfl
theorem hout5 (V : (c : Dev nD) → (b : Ref sig .tc) → Buf (Elt F) ((c : Thread nD τ).loc b)) (c : Dev nD) : (dat5 V c).Φ (Fin.last cfg5.N) ⊢ (Pipeline.ΦA spec5 c : sProp 𝕄) := .rfl
/-- Region 6's invariant is the class's at every point. -/
theorem hin6 (V : (c : Dev nD) → (b : Ref sig .tc) → Buf (Elt F) ((c : Thread nD τ).loc b)) (c : Dev nD) : (Pipeline.ΦA spec6 c : sProp 𝕄) ⊢ (dat6 V c).Φ 0 := .rfl
theorem hout6 (V : (c : Dev nD) → (b : Ref sig .tc) → Buf (Elt F) ((c : Thread nD τ).loc b)) (c : Dev nD) : (dat6 V c).Φ (Fin.last cfg6.N) ⊢ (Pipeline.ΦA spec6 c : sProp 𝕄) := .rfl
/-- Region 7's invariant is the class's at every point. -/
theorem hin7 (V : (c : Dev nD) → (b : Ref sig .tc) → Buf (Elt F) ((c : Thread nD τ).loc b)) (c : Dev nD) : (Pipeline.ΦA spec7 c : sProp 𝕄) ⊢ (dat7 V c).Φ 0 := .rfl
theorem hout7 (V : (c : Dev nD) → (b : Ref sig .tc) → Buf (Elt F) ((c : Thread nD τ).loc b)) (c : Dev nD) : (dat7 V c).Φ (Fin.last cfg7.N) ⊢ (Pipeline.ΦA spec7 c : sProp 𝕄) := .rfl
/-- Region 12's invariant is the class's at every point. -/
theorem hin12 (V : (c : Dev nD) → (b : Ref sig .tc) → Buf (Elt F) ((c : Thread nD τ).loc b)) (c : Dev nD) : (Pipeline.ΦA spec12 c : sProp 𝕄) ⊢ (dat12 V c).Φ 0 := .rfl
theorem hout12 (V : (c : Dev nD) → (b : Ref sig .tc) → Buf (Elt F) ((c : Thread nD τ).loc b)) (c : Dev nD) : (dat12 V c).Φ (Fin.last cfg12.N) ⊢ (Pipeline.ΦA spec12 c : sProp 𝕄) := .rfl
/-- Region 13's invariant is the class's at every point. -/
theorem hin13 (V : (c : Dev nD) → (b : Ref sig .tc) → Buf (Elt F) ((c : Thread nD τ).loc b)) (c : Dev nD) : (Pipeline.ΦA spec13 c : sProp 𝕄) ⊢ (dat13 V c).Φ 0 := .rfl
theorem hout13 (V : (c : Dev nD) → (b : Ref sig .tc) → Buf (Elt F) ((c : Thread nD τ).loc b)) (c : Dev nD) : (dat13 V c).Φ (Fin.last cfg13.N) ⊢ (Pipeline.ΦA spec13 c : sProp 𝕄) := .rfl
/-- Region 14's invariant is the class's at every point. -/
theorem hin14 (V : (c : Dev nD) → (b : Ref sig .tc) → Buf (Elt F) ((c : Thread nD τ).loc b)) (c : Dev nD) : (Pipeline.ΦA spec14 c : sProp 𝕄) ⊢ (dat14 V c).Φ 0 := .rfl
theorem hout14 (V : (c : Dev nD) → (b : Ref sig .tc) → Buf (Elt F) ((c : Thread nD τ).loc b)) (c : Dev nD) : (dat14 V c).Φ (Fin.last cfg14.N) ⊢ (Pipeline.ΦA spec14 c : sProp 𝕄) := .rfl
/-- Region 15's invariant is the class's at every point. -/
theorem hin15 (V : (c : Dev nD) → (b : Ref sig .tc) → Buf (Elt F) ((c : Thread nD τ).loc b)) (c : Dev nD) : (Pipeline.ΦA spec15 c : sProp 𝕄) ⊢ (dat15 V c).Φ 0 := .rfl
theorem hout15 (V : (c : Dev nD) → (b : Ref sig .tc) → Buf (Elt F) ((c : Thread nD τ).loc b)) (c : Dev nD) : (dat15 V c).Φ (Fin.last cfg15.N) ⊢ (Pipeline.ΦA spec15 c : sProp 𝕄) := .rfl

/-- The core's buffers at launch. -/
noncomputable abbrev W0 : Dev nD → Valuation τ sig (Elt F) := fun c b => (s₀ m ρ).mem ((c : Dev nD), b)

/-- After host stretch 0: what region 0 is entered from. -/
noncomputable abbrev W1 : Dev nD → Valuation τ sig (Elt F) := fun c => StableHlo.after hostOps0 (W0 m ρ c)
noncomputable abbrev V1 : (c : Dev nD) → (b : Ref sig .tc) → Buf (Elt F) ((c : Thread nD τ).loc b) := fun c b => W1 m ρ c b
/-- At region 0's exit: its arrays at what the write-backs leave, every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
noncomputable abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what region 1 is entered from. -/
noncomputable abbrev W3 : Dev nD → Valuation τ sig (Elt F) := fun c => StableHlo.after hostOps1 (W2 m ρ c)
noncomputable abbrev V3 : (c : Dev nD) → (b : Ref sig .tc) → Buf (Elt F) ((c : Thread nD τ).loc b) := fun c b => W3 m ρ c b
/-- At region 1's exit: its arrays at what the write-backs leave, every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
noncomputable abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what region 2 is entered from. -/
noncomputable abbrev W5 : Dev nD → Valuation τ sig (Elt F) := fun c => StableHlo.after hostOps2 (W4 m ρ c)
noncomputable abbrev V5 : (c : Dev nD) → (b : Ref sig .tc) → Buf (Elt F) ((c : Thread nD τ).loc b) := fun c b => W5 m ρ c b
/-- At region 2's exit: its arrays at what the write-backs leave, every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
noncomputable abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what region 3 is entered from. -/
noncomputable abbrev W7 : Dev nD → Valuation τ sig (Elt F) := fun c => StableHlo.after hostOps3 (W6 m ρ c)
noncomputable abbrev V7 : (c : Dev nD) → (b : Ref sig .tc) → Buf (Elt F) ((c : Thread nD τ).loc b) := fun c b => W7 m ρ c b
/-- At region 3's exit: its arrays at what the write-backs leave, every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
noncomputable abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4: what region 4 is entered from. -/
noncomputable abbrev W9 : Dev nD → Valuation τ sig (Elt F) := fun c => StableHlo.after hostOps4 (W8 m ρ c)
noncomputable abbrev V9 : (c : Dev nD) → (b : Ref sig .tc) → Buf (Elt F) ((c : Thread nD τ).loc b) := fun c b => W9 m ρ c b
/-- At region 4's exit: its arrays at what the write-backs leave, every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
noncomputable abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5: what region 5 is entered from. -/
noncomputable abbrev W11 : Dev nD → Valuation τ sig (Elt F) := fun c => StableHlo.after hostOps5 (W10 m ρ c)
noncomputable abbrev V11 : (c : Dev nD) → (b : Ref sig .tc) → Buf (Elt F) ((c : Thread nD τ).loc b) := fun c b => W11 m ρ c b
/-- At region 5's exit: its arrays at what the write-backs leave, every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
noncomputable abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6: what region 6 is entered from. -/
noncomputable abbrev W13 : Dev nD → Valuation τ sig (Elt F) := fun c => StableHlo.after hostOps6 (W12 m ρ c)
noncomputable abbrev V13 : (c : Dev nD) → (b : Ref sig .tc) → Buf (Elt F) ((c : Thread nD τ).loc b) := fun c b => W13 m ρ c b
/-- At region 6's exit: its arrays at what the write-backs leave, every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
noncomputable abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7: what region 7 is entered from. -/
noncomputable abbrev W15 : Dev nD → Valuation τ sig (Elt F) := fun c => StableHlo.after hostOps7 (W14 m ρ c)
noncomputable abbrev V15 : (c : Dev nD) → (b : Ref sig .tc) → Buf (Elt F) ((c : Thread nD τ).loc b) := fun c b => W15 m ρ c b
/-- At region 7's exit: its arrays at what the write-backs leave, every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
noncomputable abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8: what region 8 is entered from. -/
noncomputable abbrev W17 : Dev nD → Valuation τ sig (Elt F) := fun c => StableHlo.after hostOps8 (W16 m ρ c)
noncomputable abbrev V17 : (c : Dev nD) → (b : Ref sig .tc) → Buf (Elt F) ((c : Thread nD τ).loc b) := fun c b => W17 m ρ c b
/-- At region 8's exit: its arrays at what the write-backs leave, every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
noncomputable abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9: what region 9 is entered from. -/
noncomputable abbrev W19 : Dev nD → Valuation τ sig (Elt F) := fun c => StableHlo.after hostOps9 (W18 m ρ c)
noncomputable abbrev V19 : (c : Dev nD) → (b : Ref sig .tc) → Buf (Elt F) ((c : Thread nD τ).loc b) := fun c b => W19 m ρ c b
/-- At region 9's exit: its arrays at what the write-backs leave, every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
noncomputable abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10: what region 10 is entered from. -/
noncomputable abbrev W21 : Dev nD → Valuation τ sig (Elt F) := fun c => StableHlo.after hostOps10 (W20 m ρ c)
noncomputable abbrev V21 : (c : Dev nD) → (b : Ref sig .tc) → Buf (Elt F) ((c : Thread nD τ).loc b) := fun c b => W21 m ρ c b
/-- At region 10's exit: its arrays at what the write-backs leave, every other buffer as entered. -/
noncomputable def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
noncomputable abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After host stretch 11: what region 11 is entered from. -/
noncomputable abbrev W23 : Dev nD → Valuation τ sig (Elt F) := fun c => StableHlo.after hostOps11 (W22 m ρ c)
noncomputable abbrev V23 : (c : Dev nD) → (b : Ref sig .tc) → Buf (Elt F) ((c : Thread nD τ).loc b) := fun c b => W23 m ρ c b
/-- At region 11's exit: its arrays at what the write-backs leave, every other buffer as entered. -/
noncomputable def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
noncomputable abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After host stretch 12: what region 12 is entered from. -/
noncomputable abbrev W25 : Dev nD → Valuation τ sig (Elt F) := fun c => StableHlo.after hostOps12 (W24 m ρ c)
noncomputable abbrev V25 : (c : Dev nD) → (b : Ref sig .tc) → Buf (Elt F) ((c : Thread nD τ).loc b) := fun c b => W25 m ρ c b
/-- At region 12's exit: its arrays at what the write-backs leave, every other buffer as entered. -/
noncomputable def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
noncomputable abbrev V26 : (c : Dev nD) → (b : Ref sig .tc) → Buf (Elt F) ((c : Thread nD τ).loc b) := fun c b => W26 m ρ c b
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After host stretch 13: what region 13 is entered from. -/
noncomputable abbrev W27 : Dev nD → Valuation τ sig (Elt F) := fun c => StableHlo.after hostOps13 (W26 m ρ c)
noncomputable abbrev V27 : (c : Dev nD) → (b : Ref sig .tc) → Buf (Elt F) ((c : Thread nD τ).loc b) := fun c b => W27 m ρ c b
/-- At region 13's exit: its arrays at what the write-backs leave, every other buffer as entered. -/
noncomputable def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
noncomputable abbrev V28 : (c : Dev nD) → (b : Ref sig .tc) → Buf (Elt F) ((c : Thread nD τ).loc b) := fun c b => W28 m ρ c b
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After host stretch 14: what region 14 is entered from. -/
noncomputable abbrev W29 : Dev nD → Valuation τ sig (Elt F) := fun c => StableHlo.after hostOps14 (W28 m ρ c)
noncomputable abbrev V29 : (c : Dev nD) → (b : Ref sig .tc) → Buf (Elt F) ((c : Thread nD τ).loc b) := fun c b => W29 m ρ c b
/-- At region 14's exit: its arrays at what the write-backs leave, every other buffer as entered. -/
noncomputable def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
noncomputable abbrev V30 : (c : Dev nD) → (b : Ref sig .tc) → Buf (Elt F) ((c : Thread nD τ).loc b) := fun c b => W30 m ρ c b
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After host stretch 15: what region 15 is entered from. -/
noncomputable abbrev W31 : Dev nD → Valuation τ sig (Elt F) := fun c => StableHlo.after hostOps15 (W30 m ρ c)
noncomputable abbrev V31 : (c : Dev nD) → (b : Ref sig .tc) → Buf (Elt F) ((c : Thread nD τ).loc b) := fun c b => W31 m ρ c b
/-- At region 15's exit: its arrays at what the write-backs leave, every other buffer as entered. -/
noncomputable def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
noncomputable abbrev V32 : (c : Dev nD) → (b : Ref sig .tc) → Buf (Elt F) ((c : Thread nD τ).loc b) := fun c b => W32 m ρ c b
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- No pipeline has a prefetched table. -/
noncomputable abbrev adm : (p : Fin 16) → (pcfgs (F := F) p).Adm := fun p => (cfgs p).toPCfg_adm
/-- Every pipeline's proof data, each at its region's entry contents: a literal match on the pipeline index. -/
noncomputable def pdats : (p : Fin 16) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨_ + 16, h⟩ => absurd h (Nat.not_lt.2 (Nat.le_add_left _ _))

end Cert.KernelIdeal.Hand

end
-- ==== Proof.KI.Segs.lean ====
import proofs.«126569_j1468878815453_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What rides beside the buffers through every segment: the generator register at some state and the core owing nothing. -/
noncomputable abbrev R (c : Dev nD) : sProp 𝕄 := iprop((∃ r, prngReg c r) ∗ ∃ W, owes (c : Thread nD τ) (0 : CellTallies nD τ sig Unit) W)
/-- A host stretch as a segment over the unscoped references from given contents. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor

/-- The last thread state without the owed tallies: every unscoped buffer at the last boundary's contents, the generator register. -/
noncomputable abbrev Tₙ (c : Dev nD) : sProp 𝕄 := iprop(StableHlo.held (c : Thread nD τ) (Pipeline.ucRefs τ sig) (W32 m ρ c) ∗ ∃ r, prngReg c r)

set_option backward.isDefEq.respectTransparency.types false in
/-- Region 0 over the thread state: entered from every unscoped buffer at the contents after host stretch 0, left at
    the contents with its arrays at what the write-backs leave. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after host stretch 1, left at
    the contents with its arrays at what the write-backs leave. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents after host stretch 2, left at
    the contents with its arrays at what the write-backs leave. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents after host stretch 3, left at
    the contents with its arrays at what the write-backs leave. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    refine BIBase.Entails.trans ?_ (hin3 (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V7 m ρ) c).Φ (Fin.last cfg3.N) from rfl]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents after host stretch 4, left at
    the contents with its arrays at what the write-backs leave. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    refine BIBase.Entails.trans ?_ (hin4 (V9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V9 m ρ) c).Φ (Fin.last cfg4.N) from rfl]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents after host stretch 5, left at
    the contents with its arrays at what the write-backs leave. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    refine BIBase.Entails.trans ?_ (hin5 (V11 m ρ) c)
    unfold Pipeline.ΦA
    iintro ⟨Hp, -, Hr⟩
    isplitl [Hr]; · iexact Hr
    iexact Hp
  hout c := by
    rw [Pipeline.ownSems0_none, show (pdats m ρ 5 c).Φ (Fin.last _) = (dat5 (V11 m ρ) c).Φ (Fin.last cfg5.N) from rfl]
    refine BIBase.Entails.trans (hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents after host stretch 6, left at
    the contents with its arrays at what the write-backs leave. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    refine BIBase.Entails.trans ?_ (hin6 (V13 m ρ) c)
    unfold Pipeline.ΦA
    iintro ⟨Hp, -, Hr⟩
    isplitl [Hr]; · iexact Hr
    iexact Hp
  hout c := by
    rw [Pipeline.ownSems0_none, show (pdats m ρ 6 c).Φ (Fin.last _) = (dat6 (V13 m ρ) c).Φ (Fin.last cfg6.N) from rfl]
    refine BIBase.Entails.trans (hout6 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents after host stretch 7, left at
    the contents with its arrays at what the write-backs leave. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    refine BIBase.Entails.trans ?_ (hin7 (V15 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V15 m ρ) c).Φ (Fin.last cfg7.N) from rfl]
    refine BIBase.Entails.trans (hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the contents after host stretch 8, left at
    the contents with its arrays at what the write-backs leave. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    refine BIBase.Entails.trans ?_ (hin8 (V17 m ρ) c)
    unfold Pipeline.ΦA
    iintro ⟨Hp, -, Hr⟩
    isplitl [Hr]; · iexact Hr
    iexact Hp
  hout c := by
    rw [Pipeline.ownSems0_none, show (pdats m ρ 8 c).Φ (Fin.last _) = (dat8 (V17 m ρ) c).Φ (Fin.last cfg8.N) from rfl]
    refine BIBase.Entails.trans (hout8 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents after host stretch 9, left at
    the contents with its arrays at what the write-backs leave. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    refine BIBase.Entails.trans ?_ (hin9 (V19 m ρ) c)
    unfold Pipeline.ΦA
    iintro ⟨Hp, -, Hr⟩
    isplitl [Hr]; · iexact Hr
    iexact Hp
  hout c := by
    rw [Pipeline.ownSems0_none, show (pdats m ρ 9 c).Φ (Fin.last _) = (dat9 (V19 m ρ) c).Φ (Fin.last cfg9.N) from rfl]
    refine BIBase.Entails.trans (hout9 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at the contents after host stretch 10, left at
    the contents with its arrays at what the write-backs leave. -/
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V21 m ρ) c).Φ 0 from rfl]
    refine BIBase.Entails.trans ?_ (hin10 (V21 m ρ) c)
    unfold Pipeline.ΦA
    iintro ⟨Hp, -, Hr⟩
    isplitl [Hr]; · iexact Hr
    iexact Hp
  hout c := by
    rw [Pipeline.ownSems0_none, show (pdats m ρ 10 c).Φ (Fin.last _) = (dat10 (V21 m ρ) c).Φ (Fin.last cfg10.N) from rfl]
    refine BIBase.Entails.trans (hout10 (V21 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at the contents after host stretch 11, left at
    the contents with its arrays at what the write-backs leave. -/
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dat11 (V23 m ρ) c).Φ 0 from rfl]
    refine BIBase.Entails.trans ?_ (hin11 (V23 m ρ) c)
    unfold Pipeline.ΦA
    iintro ⟨Hp, -, Hr⟩
    isplitl [Hr]; · iexact Hr
    iexact Hp
  hout c := by
    rw [Pipeline.ownSems0_none, show (pdats m ρ 11 c).Φ (Fin.last _) = (dat11 (V23 m ρ) c).Φ (Fin.last cfg11.N) from rfl]
    refine BIBase.Entails.trans (hout11 (V23 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at the contents after host stretch 12, left at
    the contents with its arrays at what the write-backs leave. -/
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = (dat12 (V25 m ρ) c).Φ 0 from rfl]
    refine BIBase.Entails.trans ?_ (hin12 (V25 m ρ) c)
    unfold Pipeline.ΦA
    iintro ⟨Hp, -, Hr⟩
    isplitl [Hr]; · iexact Hr
    iexact Hp
  hout c := by
    rw [Pipeline.ownSems0_none, show (pdats m ρ 12 c).Φ (Fin.last _) = (dat12 (V25 m ρ) c).Φ (Fin.last cfg12.N) from rfl]
    refine BIBase.Entails.trans (hout12 (V25 m ρ) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at the contents after host stretch 13, left at
    the contents with its arrays at what the write-backs leave. -/
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = (dat13 (V27 m ρ) c).Φ 0 from rfl]
    refine BIBase.Entails.trans ?_ (hin13 (V27 m ρ) c)
    unfold Pipeline.ΦA
    iintro ⟨Hp, -, Hr⟩
    isplitl [Hr]; · iexact Hr
    iexact Hp
  hout c := by
    rw [Pipeline.ownSems0_none, show (pdats m ρ 13 c).Φ (Fin.last _) = (dat13 (V27 m ρ) c).Φ (Fin.last cfg13.N) from rfl]
    refine BIBase.Entails.trans (hout13 (V27 m ρ) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at the contents after host stretch 14, left at
    the contents with its arrays at what the write-backs leave. -/
noncomputable def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = (dat14 (V29 m ρ) c).Φ 0 from rfl]
    refine BIBase.Entails.trans ?_ (hin14 (V29 m ρ) c)
    unfold Pipeline.ΦA
    iintro ⟨Hp, -, Hr⟩
    isplitl [Hr]; · iexact Hr
    iexact Hp
  hout c := by
    rw [Pipeline.ownSems0_none, show (pdats m ρ 14 c).Φ (Fin.last _) = (dat14 (V29 m ρ) c).Φ (Fin.last cfg14.N) from rfl]
    refine BIBase.Entails.trans (hout14 (V29 m ρ) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 over the thread state: entered from every unscoped buffer at the contents after host stretch 15, left at
    the contents with its arrays at what the write-backs leave. -/
noncomputable def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = (dat15 (V31 m ρ) c).Φ 0 from rfl]
    refine BIBase.Entails.trans ?_ (hin15 (V31 m ρ) c)
    unfold Pipeline.ΦA
    iintro ⟨Hp, -, Hr⟩
    isplitl [Hr]; · iexact Hr
    iexact Hp
  hout c := by
    rw [Pipeline.ownSems0_none, show (pdats m ρ 15 c).Φ (Fin.last _) = (dat15 (V31 m ρ) c).Φ (Fin.last cfg15.N) from rfl]
    refine BIBase.Entails.trans (hout15 (V31 m ρ) c) ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«126569_j1468878815453_1_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order: a host segment per stretch from its boundary's contents, a region per pallas_call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)),
    .region (reg15 m ρ) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c => h c)

end Cert.KernelIdeal.Hand

end
-- ==== Proof.KI.Kept.lean ====
import proofs.«126569_j1468878815453_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An operation that writes exactly one reference of a list writes inside the list. -/
theorem writes_sub_of {op : HloOp τ sig (Elt F)} {Wl : List (Ref sig .tc)} {y : Ref sig .tc}
    (hw : op.writes = {Proc.devRef .tc y}) (hy : y ∈ Wl) : op.writes ⊆ (Wl.map (Proc.devRef (τ := τ) .tc)).toFinset := by
  rw [hw, Finset.singleton_subset_iff]; exact List.mem_toFinset.mpr (List.mem_map_of_mem hy)

/-- The references host stretch 0 writes, in order. -/
noncomputable abbrev wl0 : List (Ref sig .tc) := [main_cst, main_v0, main_cst_0, main_v1, main_v2, main_v3, main_cst_1, main_v4, main_v5, main_cst_2, main_v6, main_cst_3, main_v7, main_v8, main_v9, main_cst_4, main_v10, main_v11, main_cst_5, main_v12, main_cst_6, main_v13, main_v14, main_v15, main_cst_7, main_v16, main_v17, main_cst_8, main_v18, main_cst_9, main_v19, main_v20, main_v21, main_cst_10, main_v22, main_v23, main_cst_11, main_v24, main_cst_12, main_v25, main_v26, main_v27, main_cst_13, main_v28, main_v29, main_cst_14, main_v30, main_cst_15, main_v31, main_v32, main_v33, main_cst_16, main_v34, main_v35, main_cst_17, main_v36, main_cst_18, main_v37, main_v38, main_v39, main_cst_19, main_v40, main_v41, main_c, main_v42, main_v43, main_c_20, main_v44, main_v45, main_v46, main_v47, main_v48, main_cst_21, main_v49, main_v50, main_v51, main_v52, main_v53, main_c_22, main_v54, main_v55, main_c_23, main_v56, main_v57, main_v58, main_v59, main_v60, main_cst_24, main_v61, main_v62, main_v63, main_v64, main_v65, main_c_25, main_v66, main_v67, main_c_26, main_v68, main_v69, main_v70, main_v71, main_v72, main_cst_27, main_v73, main_v74, main_v75, main_v76, main_v77, main_c_28, main_v78, main_v79, main_c_29, main_v80, main_v81, main_v82, main_v83, main_v84, main_cst_30, main_v85, main_v86, main_v87, main_v88, main_v89, main_c_31, main_v90, main_v91, main_c_32, main_v92, main_v93, main_v94, main_v95, main_v96, main_cst_33, main_v97, main_v98, main_v99, main_v100, main_v101, main_c_34, main_v102, main_v103, main_c_35, main_v104, main_v105, main_v106, main_v107, main_v108, main_cst_36, main_v109, main_v110, main_v111, main_v112, main_v113, main_c_37, main_v114, main_v115, main_c_38, main_v116, main_v117, main_v118, main_v119, main_v120, main_cst_39, main_v121, main_v122, main_v123, main_v124, main_v125, main_v126, main_v127, main_v128, main_v129, main_v130, main_v131, main_v132, main_v133, main_v134, main_v135, main_v136, main_v137, main_v138, main_v139]
set_option maxHeartbeats 40000000 in
theorem hostOps0_wsub : (hostOps0 : List (HloOp τ sig (Elt F))).Forall fun op => op.writes ⊆ ((wl0).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 1 writes, in order. -/
noncomputable abbrev wl1 : List (Ref sig .tc) := [main_v141, main_v142, main_v143, main_v144, main_v145, main_v146, main_v147, main_v148, main_v149, main_v150, main_v151, main_v152, main_v153, main_v154]
set_option maxHeartbeats 40000000 in
theorem hostOps1_wsub : (hostOps1 : List (HloOp τ sig (Elt F))).Forall fun op => op.writes ⊆ ((wl1).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 2 writes, in order. -/
noncomputable abbrev wl2 : List (Ref sig .tc) := [main_v156, main_v157, main_v158, main_v159, main_v160, main_v161, main_v162, main_v163, main_v164, main_v165, main_v166, main_v167, main_v168, main_v169]
set_option maxHeartbeats 40000000 in
theorem hostOps2_wsub : (hostOps2 : List (HloOp τ sig (Elt F))).Forall fun op => op.writes ⊆ ((wl2).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 3 writes, in order. -/
noncomputable abbrev wl3 : List (Ref sig .tc) := [main_v171, main_v172, main_v173, main_v174, main_v175, main_v176, main_v177]
set_option maxHeartbeats 40000000 in
theorem hostOps3_wsub : (hostOps3 : List (HloOp τ sig (Elt F))).Forall fun op => op.writes ⊆ ((wl3).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩

/-- The references host stretch 4 writes, in order. -/
noncomputable abbrev wl4 : List (Ref sig .tc) := [main_v179, main_v180]
set_option maxHeartbeats 40000000 in
theorem hostOps4_wsub : (hostOps4 : List (HloOp τ sig (Elt F))).Forall fun op => op.writes ⊆ ((wl4).map (Proc.devRef (τ := τ) .tc)).toFinset :=
  ⟨writes_sub_of rfl (by decide), writes_sub_of rfl (by decide)⟩

/-- The references host stretch 5 writes, in order. -/
noncomputable abbrev wl5 : List (Ref sig .tc) := [main_v182, main_v183]
set_option maxHeartbeats 40000000 in
theorem hostOps5_wsub : (hostOps5 : List (HloOp τ sig (Elt F))).Forall fun op => op.writes ⊆ ((wl5).map (Proc.devRef (τ := τ) .tc)).toFinset :=
  ⟨writes_sub_of rfl (by decide), writes_sub_of rfl (by decide)⟩

/-- The references host stretch 6 writes, in order. -/
noncomputable abbrev wl6 : List (Ref sig .tc) := [main_v185, main_v186]
set_option maxHeartbeats 40000000 in
theorem hostOps6_wsub : (hostOps6 : List (HloOp τ sig (Elt F))).Forall fun op => op.writes ⊆ ((wl6).map (Proc.devRef (τ := τ) .tc)).toFinset :=
  ⟨writes_sub_of rfl (by decide), writes_sub_of rfl (by decide)⟩

/-- The references host stretch 7 writes, in order. -/
noncomputable abbrev wl7 : List (Ref sig .tc) := [main_v188, main_v189]
set_option maxHeartbeats 40000000 in
theorem hostOps7_wsub : (hostOps7 : List (HloOp τ sig (Elt F))).Forall fun op => op.writes ⊆ ((wl7).map (Proc.devRef (τ := τ) .tc)).toFinset :=
  ⟨writes_sub_of rfl (by decide), writes_sub_of rfl (by decide)⟩

/-- The references host stretch 8 writes, in order. -/
noncomputable abbrev wl8 : List (Ref sig .tc) := [main_c_40, main_v191, main_v192, main_c_41, main_v193, main_v194, main_v195, main_v196, main_v197, main_cst_42, main_v198, main_v199, main_v200, main_v201, main_v202, main_c_43, main_v203, main_v204, main_c_44, main_v205, main_v206, main_v207, main_v208, main_v209, main_cst_45, main_v210, main_v211, main_v212, main_v213, main_v214, main_c_46, main_v215, main_v216, main_c_47, main_v217, main_v218, main_v219, main_v220, main_v221, main_cst_48, main_v222, main_v223, main_v224, main_v225, main_v226, main_c_49, main_v227, main_v228, main_c_50, main_v229, main_v230, main_v231, main_v232, main_v233, main_cst_51, main_v234, main_v235, main_v236, main_v237, main_v238, main_c_52, main_v239, main_v240, main_c_53, main_v241, main_v242, main_v243, main_v244, main_v245, main_cst_54, main_v246, main_v247, main_v248, main_v249, main_v250, main_c_55, main_v251, main_v252, main_c_56, main_v253, main_v254, main_v255, main_v256, main_v257, main_cst_57, main_v258, main_v259, main_v260, main_v261, main_v262, main_c_58, main_v263, main_v264, main_c_59, main_v265, main_v266, main_v267, main_v268, main_v269, main_cst_60, main_v270, main_v271, main_v272, main_v273, main_v274, main_v275, main_v276, main_v277, main_v278, main_v279, main_v280, main_v281, main_v282, main_v283, main_v284, main_v285, main_v286, main_v287, main_v288]
set_option maxHeartbeats 40000000 in
theorem hostOps8_wsub : (hostOps8 : List (HloOp τ sig (Elt F))).Forall fun op => op.writes ⊆ ((wl8).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 9 writes, in order. -/
noncomputable abbrev wl9 : List (Ref sig .tc) := [main_v290, main_v291, main_v292, main_v293, main_v294, main_v295, main_v296, main_v297, main_v298, main_v299, main_v300, main_v301, main_v302, main_v303]
set_option maxHeartbeats 40000000 in
theorem hostOps9_wsub : (hostOps9 : List (HloOp τ sig (Elt F))).Forall fun op => op.writes ⊆ ((wl9).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 10 writes, in order. -/
noncomputable abbrev wl10 : List (Ref sig .tc) := [main_v305, main_v306, main_v307, main_v308, main_v309, main_v310, main_v311, main_v312, main_v313, main_v314, main_v315, main_v316, main_v317, main_v318]
set_option maxHeartbeats 40000000 in
theorem hostOps10_wsub : (hostOps10 : List (HloOp τ sig (Elt F))).Forall fun op => op.writes ⊆ ((wl10).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- The references host stretch 11 writes, in order. -/
noncomputable abbrev wl11 : List (Ref sig .tc) := [main_v320, main_v321, main_v322, main_v323, main_v324, main_v325, main_v326]
set_option maxHeartbeats 40000000 in
theorem hostOps11_wsub : (hostOps11 : List (HloOp τ sig (Elt F))).Forall fun op => op.writes ⊆ ((wl11).map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩

/-- The references host stretch 12 writes, in order. -/
noncomputable abbrev wl12 : List (Ref sig .tc) := [main_v328, main_v329]
set_option maxHeartbeats 40000000 in
theorem hostOps12_wsub : (hostOps12 : List (HloOp τ sig (Elt F))).Forall fun op => op.writes ⊆ ((wl12).map (Proc.devRef (τ := τ) .tc)).toFinset :=
  ⟨writes_sub_of rfl (by decide), writes_sub_of rfl (by decide)⟩

/-- The references host stretch 13 writes, in order. -/
noncomputable abbrev wl13 : List (Ref sig .tc) := [main_v331, main_v332]
set_option maxHeartbeats 40000000 in
theorem hostOps13_wsub : (hostOps13 : List (HloOp τ sig (Elt F))).Forall fun op => op.writes ⊆ ((wl13).map (Proc.devRef (τ := τ) .tc)).toFinset :=
  ⟨writes_sub_of rfl (by decide), writes_sub_of rfl (by decide)⟩

/-- The references host stretch 14 writes, in order. -/
noncomputable abbrev wl14 : List (Ref sig .tc) := [main_v334, main_v335]
set_option maxHeartbeats 40000000 in
theorem hostOps14_wsub : (hostOps14 : List (HloOp τ sig (Elt F))).Forall fun op => op.writes ⊆ ((wl14).map (Proc.devRef (τ := τ) .tc)).toFinset :=
  ⟨writes_sub_of rfl (by decide), writes_sub_of rfl (by decide)⟩

/-- The references host stretch 15 writes, in order. -/
noncomputable abbrev wl15 : List (Ref sig .tc) := [main_v337, main_v338]
set_option maxHeartbeats 40000000 in
theorem hostOps15_wsub : (hostOps15 : List (HloOp τ sig (Elt F))).Forall fun op => op.writes ⊆ ((wl15).map (Proc.devRef (τ := τ) .tc)).toFinset :=
  ⟨writes_sub_of rfl (by decide), writes_sub_of rfl (by decide)⟩

/-! No host operation and no region writes an argument: the fold at an argument's buffer walks back to the launch memory. -/

theorem kept0 (c : Dev nD) : W32 m ρ c (Proc.devRef .tc main_arg0) = m ((c : Thread nD τ).loc main_arg0) :=
  Eq.trans (W32_of_ne m ρ c main_arg0 (by decide))
    (Eq.trans (StableHlo.after_of_writes_sub (r := main_arg0) hostOps15 (W30 m ρ c) hostOps15_wsub (by decide))
    (Eq.trans (W30_of_ne m ρ c main_arg0 (by decide))
    (Eq.trans (StableHlo.after_of_writes_sub (r := main_arg0) hostOps14 (W28 m ρ c) hostOps14_wsub (by decide))
    (Eq.trans (W28_of_ne m ρ c main_arg0 (by decide))
    (Eq.trans (StableHlo.after_of_writes_sub (r := main_arg0) hostOps13 (W26 m ρ c) hostOps13_wsub (by decide))
    (Eq.trans (W26_of_ne m ρ c main_arg0 (by decide))
    (Eq.trans (StableHlo.after_of_writes_sub (r := main_arg0) hostOps12 (W24 m ρ c) hostOps12_wsub (by decide))
    (Eq.trans (W24_of_ne m ρ c main_arg0 (by decide))
    (Eq.trans (StableHlo.after_of_writes_sub (r := main_arg0) hostOps11 (W22 m ρ c) hostOps11_wsub (by decide))
    (Eq.trans (W22_of_ne m ρ c main_arg0 (by decide))
    (Eq.trans (StableHlo.after_of_writes_sub (r := main_arg0) hostOps10 (W20 m ρ c) hostOps10_wsub (by decide))
    (Eq.trans (W20_of_ne m ρ c main_arg0 (by decide))
    (Eq.trans (StableHlo.after_of_writes_sub (r := main_arg0) hostOps9 (W18 m ρ c) hostOps9_wsub (by decide))
    (Eq.trans (W18_of_ne m ρ c main_arg0 (by decide))
    (Eq.trans (StableHlo.after_of_writes_sub (r := main_arg0) hostOps8 (W16 m ρ c) hostOps8_wsub (by decide))
    (Eq.trans (W16_of_ne m ρ c main_arg0 (by decide))
    (Eq.trans (StableHlo.after_of_writes_sub (r := main_arg0) hostOps7 (W14 m ρ c) hostOps7_wsub (by decide))
    (Eq.trans (W14_of_ne m ρ c main_arg0 (by decide))
    (Eq.trans (StableHlo.after_of_writes_sub (r := main_arg0) hostOps6 (W12 m ρ c) hostOps6_wsub (by decide))
    (Eq.trans (W12_of_ne m ρ c main_arg0 (by decide))
    (Eq.trans (StableHlo.after_of_writes_sub (r := main_arg0) hostOps5 (W10 m ρ c) hostOps5_wsub (by decide))
    (Eq.trans (W10_of_ne m ρ c main_arg0 (by decide))
    (Eq.trans (StableHlo.after_of_writes_sub (r := main_arg0) hostOps4 (W8 m ρ c) hostOps4_wsub (by decide))
    (Eq.trans (W8_of_ne m ρ c main_arg0 (by decide))
    (Eq.trans (StableHlo.after_of_writes_sub (r := main_arg0) hostOps3 (W6 m ρ c) hostOps3_wsub (by decide))
    (Eq.trans (W6_of_ne m ρ c main_arg0 (by decide))
    (Eq.trans (StableHlo.after_of_writes_sub (r := main_arg0) hostOps2 (W4 m ρ c) hostOps2_wsub (by decide))
    (Eq.trans (W4_of_ne m ρ c main_arg0 (by decide))
    (Eq.trans (StableHlo.after_of_writes_sub (r := main_arg0) hostOps1 (W2 m ρ c) hostOps1_wsub (by decide))
    (Eq.trans ((W2_arr m ρ c 2).trans (((dat0 (V1 m ρ) c).arrAt_in 2 rfl _).trans (A_eq0 (V1 m ρ) c 2)))
    (Eq.trans (StableHlo.after_of_writes_sub (r := main_arg0) hostOps0 (W0 m ρ c) hostOps0_wsub (by decide))
    (rfl))))))))))))))))))))))))))))))))

theorem kept1 (c : Dev nD) : W32 m ρ c (Proc.devRef .tc main_arg1) = m ((c : Thread nD τ).loc main_arg1) :=
  Eq.trans (W32_of_ne m ρ c main_arg1 (by decide))
    (Eq.trans (StableHlo.after_of_writes_sub (r := main_arg1) hostOps15 (W30 m ρ c) hostOps15_wsub (by decide))
    (Eq.trans (W30_of_ne m ρ c main_arg1 (by decide))
    (Eq.trans (StableHlo.after_of_writes_sub (r := main_arg1) hostOps14 (W28 m ρ c) hostOps14_wsub (by decide))
    (Eq.trans (W28_of_ne m ρ c main_arg1 (by decide))
    (Eq.trans (StableHlo.after_of_writes_sub (r := main_arg1) hostOps13 (W26 m ρ c) hostOps13_wsub (by decide))
    (Eq.trans (W26_of_ne m ρ c main_arg1 (by decide))
    (Eq.trans (StableHlo.after_of_writes_sub (r := main_arg1) hostOps12 (W24 m ρ c) hostOps12_wsub (by decide))
    (Eq.trans (W24_of_ne m ρ c main_arg1 (by decide))
    (Eq.trans (StableHlo.after_of_writes_sub (r := main_arg1) hostOps11 (W22 m ρ c) hostOps11_wsub (by decide))
    (Eq.trans (W22_of_ne m ρ c main_arg1 (by decide))
    (Eq.trans (StableHlo.after_of_writes_sub (r := main_arg1) hostOps10 (W20 m ρ c) hostOps10_wsub (by decide))
    (Eq.trans (W20_of_ne m ρ c main_arg1 (by decide))
    (Eq.trans (StableHlo.after_of_writes_sub (r := main_arg1) hostOps9 (W18 m ρ c) hostOps9_wsub (by decide))
    (Eq.trans (W18_of_ne m ρ c main_arg1 (by decide))
    (Eq.trans (StableHlo.after_of_writes_sub (r := main_arg1) hostOps8 (W16 m ρ c) hostOps8_wsub (by decide))
    (Eq.trans (W16_of_ne m ρ c main_arg1 (by decide))
    (Eq.trans (StableHlo.after_of_writes_sub (r := main_arg1) hostOps7 (W14 m ρ c) hostOps7_wsub (by decide))
    (Eq.trans (W14_of_ne m ρ c main_arg1 (by decide))
    (Eq.trans (StableHlo.after_of_writes_sub (r := main_arg1) hostOps6 (W12 m ρ c) hostOps6_wsub (by decide))
    (Eq.trans (W12_of_ne m ρ c main_arg1 (by decide))
    (Eq.trans (StableHlo.after_of_writes_sub (r := main_arg1) hostOps5 (W10 m ρ c) hostOps5_wsub (by decide))
    (Eq.trans (W10_of_ne m ρ c main_arg1 (by decide))
    (Eq.trans (StableHlo.after_of_writes_sub (r := main_arg1) hostOps4 (W8 m ρ c) hostOps4_wsub (by decide))
    (Eq.trans (W8_of_ne m ρ c main_arg1 (by decide))
    (Eq.trans (StableHlo.after_of_writes_sub (r := main_arg1) hostOps3 (W6 m ρ c) hostOps3_wsub (by decide))
    (Eq.trans (W6_of_ne m ρ c main_arg1 (by decide))
    (Eq.trans (StableHlo.after_of_writes_sub (r := main_arg1) hostOps2 (W4 m ρ c) hostOps2_wsub (by decide))
    (Eq.trans ((W4_arr m ρ c 2).trans (((dat1 (V3 m ρ) c).arrAt_in 2 rfl _).trans (A_eq1 (V3 m ρ) c 2)))
    (Eq.trans (StableHlo.after_of_writes_sub (r := main_arg1) hostOps1 (W2 m ρ c) hostOps1_wsub (by decide))
    (Eq.trans (W2_of_ne m ρ c main_arg1 (by decide))
    (Eq.trans (StableHlo.after_of_writes_sub (r := main_arg1) hostOps0 (W0 m ρ c) hostOps0_wsub (by decide))
    (rfl))))))))))))))))))))))))))))))))

theorem kept2 (c : Dev nD) : W32 m ρ c (Proc.devRef .tc main_arg2) = m ((c : Thread nD τ).loc main_arg2) :=
  Eq.trans (W32_of_ne m ρ c main_arg2 (by decide))
    (Eq.trans (StableHlo.after_of_writes_sub (r := main_arg2) hostOps15 (W30 m ρ c) hostOps15_wsub (by decide))
    (Eq.trans (W30_of_ne m ρ c main_arg2 (by decide))
    (Eq.trans (StableHlo.after_of_writes_sub (r := main_arg2) hostOps14 (W28 m ρ c) hostOps14_wsub (by decide))
    (Eq.trans (W28_of_ne m ρ c main_arg2 (by decide))
    (Eq.trans (StableHlo.after_of_writes_sub (r := main_arg2) hostOps13 (W26 m ρ c) hostOps13_wsub (by decide))
    (Eq.trans (W26_of_ne m ρ c main_arg2 (by decide))
    (Eq.trans (StableHlo.after_of_writes_sub (r := main_arg2) hostOps12 (W24 m ρ c) hostOps12_wsub (by decide))
    (Eq.trans (W24_of_ne m ρ c main_arg2 (by decide))
    (Eq.trans (StableHlo.after_of_writes_sub (r := main_arg2) hostOps11 (W22 m ρ c) hostOps11_wsub (by decide))
    (Eq.trans (W22_of_ne m ρ c main_arg2 (by decide))
    (Eq.trans (StableHlo.after_of_writes_sub (r := main_arg2) hostOps10 (W20 m ρ c) hostOps10_wsub (by decide))
    (Eq.trans (W20_of_ne m ρ c main_arg2 (by decide))
    (Eq.trans (StableHlo.after_of_writes_sub (r := main_arg2) hostOps9 (W18 m ρ c) hostOps9_wsub (by decide))
    (Eq.trans (W18_of_ne m ρ c main_arg2 (by decide))
    (Eq.trans (StableHlo.after_of_writes_sub (r := main_arg2) hostOps8 (W16 m ρ c) hostOps8_wsub (by decide))
    (Eq.trans (W16_of_ne m ρ c main_arg2 (by decide))
    (Eq.trans (StableHlo.after_of_writes_sub (r := main_arg2) hostOps7 (W14 m ρ c) hostOps7_wsub (by decide))
    (Eq.trans (W14_of_ne m ρ c main_arg2 (by decide))
    (Eq.trans (StableHlo.after_of_writes_sub (r := main_arg2) hostOps6 (W12 m ρ c) hostOps6_wsub (by decide))
    (Eq.trans (W12_of_ne m ρ c main_arg2 (by decide))
    (Eq.trans (StableHlo.after_of_writes_sub (r := main_arg2) hostOps5 (W10 m ρ c) hostOps5_wsub (by decide))
    (Eq.trans (W10_of_ne m ρ c main_arg2 (by decide))
    (Eq.trans (StableHlo.after_of_writes_sub (r := main_arg2) hostOps4 (W8 m ρ c) hostOps4_wsub (by decide))
    (Eq.trans (W8_of_ne m ρ c main_arg2 (by decide))
    (Eq.trans (StableHlo.after_of_writes_sub (r := main_arg2) hostOps3 (W6 m ρ c) hostOps3_wsub (by decide))
    (Eq.trans ((W6_arr m ρ c 2).trans (((dat2 (V5 m ρ) c).arrAt_in 2 rfl _).trans (A_eq2 (V5 m ρ) c 2)))
    (Eq.trans (StableHlo.after_of_writes_sub (r := main_arg2) hostOps2 (W4 m ρ c) hostOps2_wsub (by decide))
    (Eq.trans (W4_of_ne m ρ c main_arg2 (by decide))
    (Eq.trans (StableHlo.after_of_writes_sub (r := main_arg2) hostOps1 (W2 m ρ c) hostOps1_wsub (by decide))
    (Eq.trans (W2_of_ne m ρ c main_arg2 (by decide))
    (Eq.trans (StableHlo.after_of_writes_sub (r := main_arg2) hostOps0 (W0 m ρ c) hostOps0_wsub (by decide))
    (rfl))))))))))))))))))))))))))))))))

theorem kept3 (c : Dev nD) : W32 m ρ c (Proc.devRef .tc main_arg3) = m ((c : Thread nD τ).loc main_arg3) :=
  Eq.trans (W32_of_ne m ρ c main_arg3 (by decide))
    (Eq.trans (StableHlo.after_of_writes_sub (r := main_arg3) hostOps15 (W30 m ρ c) hostOps15_wsub (by decide))
    (Eq.trans (W30_of_ne m ρ c main_arg3 (by decide))
    (Eq.trans (StableHlo.after_of_writes_sub (r := main_arg3) hostOps14 (W28 m ρ c) hostOps14_wsub (by decide))
    (Eq.trans (W28_of_ne m ρ c main_arg3 (by decide))
    (Eq.trans (StableHlo.after_of_writes_sub (r := main_arg3) hostOps13 (W26 m ρ c) hostOps13_wsub (by decide))
    (Eq.trans (W26_of_ne m ρ c main_arg3 (by decide))
    (Eq.trans (StableHlo.after_of_writes_sub (r := main_arg3) hostOps12 (W24 m ρ c) hostOps12_wsub (by decide))
    (Eq.trans (W24_of_ne m ρ c main_arg3 (by decide))
    (Eq.trans (StableHlo.after_of_writes_sub (r := main_arg3) hostOps11 (W22 m ρ c) hostOps11_wsub (by decide))
    (Eq.trans (W22_of_ne m ρ c main_arg3 (by decide))
    (Eq.trans (StableHlo.after_of_writes_sub (r := main_arg3) hostOps10 (W20 m ρ c) hostOps10_wsub (by decide))
    (Eq.trans (W20_of_ne m ρ c main_arg3 (by decide))
    (Eq.trans (StableHlo.after_of_writes_sub (r := main_arg3) hostOps9 (W18 m ρ c) hostOps9_wsub (by decide))
    (Eq.trans (W18_of_ne m ρ c main_arg3 (by decide))
    (Eq.trans (StableHlo.after_of_writes_sub (r := main_arg3) hostOps8 (W16 m ρ c) hostOps8_wsub (by decide))
    (Eq.trans (W16_of_ne m ρ c main_arg3 (by decide))
    (Eq.trans (StableHlo.after_of_writes_sub (r := main_arg3) hostOps7 (W14 m ρ c) hostOps7_wsub (by decide))
    (Eq.trans (W14_of_ne m ρ c main_arg3 (by decide))
    (Eq.trans (StableHlo.after_of_writes_sub (r := main_arg3) hostOps6 (W12 m ρ c) hostOps6_wsub (by decide))
    (Eq.trans (W12_of_ne m ρ c main_arg3 (by decide))
    (Eq.trans (StableHlo.after_of_writes_sub (r := main_arg3) hostOps5 (W10 m ρ c) hostOps5_wsub (by decide))
    (Eq.trans (W10_of_ne m ρ c main_arg3 (by decide))
    (Eq.trans (StableHlo.after_of_writes_sub (r := main_arg3) hostOps4 (W8 m ρ c) hostOps4_wsub (by decide))
    (Eq.trans ((W8_arr m ρ c 1).trans (((dat3 (V7 m ρ) c).arrAt_in 1 rfl _).trans (A_eq3 (V7 m ρ) c 1)))
    (Eq.trans (StableHlo.after_of_writes_sub (r := main_arg3) hostOps3 (W6 m ρ c) hostOps3_wsub (by decide))
    (Eq.trans (W6_of_ne m ρ c main_arg3 (by decide))
    (Eq.trans (StableHlo.after_of_writes_sub (r := main_arg3) hostOps2 (W4 m ρ c) hostOps2_wsub (by decide))
    (Eq.trans (W4_of_ne m ρ c main_arg3 (by decide))
    (Eq.trans (StableHlo.after_of_writes_sub (r := main_arg3) hostOps1 (W2 m ρ c) hostOps1_wsub (by decide))
    (Eq.trans (W2_of_ne m ρ c main_arg3 (by decide))
    (Eq.trans (StableHlo.after_of_writes_sub (r := main_arg3) hostOps0 (W0 m ρ c) hostOps0_wsub (by decide))
    (rfl))))))))))))))))))))))))))))))))

theorem kept4 (c : Dev nD) : W32 m ρ c (Proc.devRef .tc main_arg4) = m ((c : Thread nD τ).loc main_arg4) :=
  Eq.trans (W32_of_ne m ρ c main_arg4 (by decide))
    (Eq.trans (StableHlo.after_of_writes_sub (r := main_arg4) hostOps15 (W30 m ρ c) hostOps15_wsub (by decide))
    (Eq.trans (W30_of_ne m ρ c main_arg4 (by decide))
    (Eq.trans (StableHlo.after_of_writes_sub (r := main_arg4) hostOps14 (W28 m ρ c) hostOps14_wsub (by decide))
    (Eq.trans (W28_of_ne m ρ c main_arg4 (by decide))
    (Eq.trans (StableHlo.after_of_writes_sub (r := main_arg4) hostOps13 (W26 m ρ c) hostOps13_wsub (by decide))
    (Eq.trans (W26_of_ne m ρ c main_arg4 (by decide))
    (Eq.trans (StableHlo.after_of_writes_sub (r := main_arg4) hostOps12 (W24 m ρ c) hostOps12_wsub (by decide))
    (Eq.trans (W24_of_ne m ρ c main_arg4 (by decide))
    (Eq.trans (StableHlo.after_of_writes_sub (r := main_arg4) hostOps11 (W22 m ρ c) hostOps11_wsub (by decide))
    (Eq.trans (W22_of_ne m ρ c main_arg4 (by decide))
    (Eq.trans (StableHlo.after_of_writes_sub (r := main_arg4) hostOps10 (W20 m ρ c) hostOps10_wsub (by decide))
    (Eq.trans (W20_of_ne m ρ c main_arg4 (by decide))
    (Eq.trans (StableHlo.after_of_writes_sub (r := main_arg4) hostOps9 (W18 m ρ c) hostOps9_wsub (by decide))
    (Eq.trans (W18_of_ne m ρ c main_arg4 (by decide))
    (Eq.trans (StableHlo.after_of_writes_sub (r := main_arg4) hostOps8 (W16 m ρ c) hostOps8_wsub (by decide))
    (Eq.trans (W16_of_ne m ρ c main_arg4 (by decide))
    (Eq.trans (StableHlo.after_of_writes_sub (r := main_arg4) hostOps7 (W14 m ρ c) hostOps7_wsub (by decide))
    (Eq.trans (W14_of_ne m ρ c main_arg4 (by decide))
    (Eq.trans (StableHlo.after_of_writes_sub (r := main_arg4) hostOps6 (W12 m ρ c) hostOps6_wsub (by decide))
    (Eq.trans (W12_of_ne m ρ c main_arg4 (by decide))
    (Eq.trans (StableHlo.after_of_writes_sub (r := main_arg4) hostOps5 (W10 m ρ c) hostOps5_wsub (by decide))
    (Eq.trans (W10_of_ne m ρ c main_arg4 (by decide))
    (Eq.trans (StableHlo.after_of_writes_sub (r := main_arg4) hostOps4 (W8 m ρ c) hostOps4_wsub (by decide))
    (Eq.trans (W8_of_ne m ρ c main_arg4 (by decide))
    (Eq.trans (StableHlo.after_of_writes_sub (r := main_arg4) hostOps3 (W6 m ρ c) hostOps3_wsub (by decide))
    (Eq.trans (W6_of_ne m ρ c main_arg4 (by decide))
    (Eq.trans (StableHlo.after_of_writes_sub (r := main_arg4) hostOps2 (W4 m ρ c) hostOps2_wsub (by decide))
    (Eq.trans (W4_of_ne m ρ c main_arg4 (by decide))
    (Eq.trans (StableHlo.after_of_writes_sub (r := main_arg4) hostOps1 (W2 m ρ c) hostOps1_wsub (by decide))
    (Eq.trans (W2_of_ne m ρ c main_arg4 (by decide))
    (Eq.trans (StableHlo.after_of_writes_sub (r := main_arg4) hostOps0 (W0 m ρ c) hostOps0_wsub (by decide))
    (rfl))))))))))))))))))))))))))))))))

theorem kept5 (c : Dev nD) : W32 m ρ c (Proc.devRef .tc main_arg5) = m ((c : Thread nD τ).loc main_arg5) :=
  Eq.trans (W32_of_ne m ρ c main_arg5 (by decide))
    (Eq.trans (StableHlo.after_of_writes_sub (r := main_arg5) hostOps15 (W30 m ρ c) hostOps15_wsub (by decide))
    (Eq.trans (W30_of_ne m ρ c main_arg5 (by decide))
    (Eq.trans (StableHlo.after_of_writes_sub (r := main_arg5) hostOps14 (W28 m ρ c) hostOps14_wsub (by decide))
    (Eq.trans (W28_of_ne m ρ c main_arg5 (by decide))
    (Eq.trans (StableHlo.after_of_writes_sub (r := main_arg5) hostOps13 (W26 m ρ c) hostOps13_wsub (by decide))
    (Eq.trans (W26_of_ne m ρ c main_arg5 (by decide))
    (Eq.trans (StableHlo.after_of_writes_sub (r := main_arg5) hostOps12 (W24 m ρ c) hostOps12_wsub (by decide))
    (Eq.trans (W24_of_ne m ρ c main_arg5 (by decide))
    (Eq.trans (StableHlo.after_of_writes_sub (r := main_arg5) hostOps11 (W22 m ρ c) hostOps11_wsub (by decide))
    (Eq.trans (W22_of_ne m ρ c main_arg5 (by decide))
    (Eq.trans (StableHlo.after_of_writes_sub (r := main_arg5) hostOps10 (W20 m ρ c) hostOps10_wsub (by decide))
    (Eq.trans (W20_of_ne m ρ c main_arg5 (by decide))
    (Eq.trans (StableHlo.after_of_writes_sub (r := main_arg5) hostOps9 (W18 m ρ c) hostOps9_wsub (by decide))
    (Eq.trans (W18_of_ne m ρ c main_arg5 (by decide))
    (Eq.trans (StableHlo.after_of_writes_sub (r := main_arg5) hostOps8 (W16 m ρ c) hostOps8_wsub (by decide))
    (Eq.trans (W16_of_ne m ρ c main_arg5 (by decide))
    (Eq.trans (StableHlo.after_of_writes_sub (r := main_arg5) hostOps7 (W14 m ρ c) hostOps7_wsub (by decide))
    (Eq.trans (W14_of_ne m ρ c main_arg5 (by decide))
    (Eq.trans (StableHlo.after_of_writes_sub (r := main_arg5) hostOps6 (W12 m ρ c) hostOps6_wsub (by decide))
    (Eq.trans (W12_of_ne m ρ c main_arg5 (by decide))
    (Eq.trans (StableHlo.after_of_writes_sub (r := main_arg5) hostOps5 (W10 m ρ c) hostOps5_wsub (by decide))
    (Eq.trans (W10_of_ne m ρ c main_arg5 (by decide))
    (Eq.trans (StableHlo.after_of_writes_sub (r := main_arg5) hostOps4 (W8 m ρ c) hostOps4_wsub (by decide))
    (Eq.trans (W8_of_ne m ρ c main_arg5 (by decide))
    (Eq.trans (StableHlo.after_of_writes_sub (r := main_arg5) hostOps3 (W6 m ρ c) hostOps3_wsub (by decide))
    (Eq.trans (W6_of_ne m ρ c main_arg5 (by decide))
    (Eq.trans (StableHlo.after_of_writes_sub (r := main_arg5) hostOps2 (W4 m ρ c) hostOps2_wsub (by decide))
    (Eq.trans (W4_of_ne m ρ c main_arg5 (by decide))
    (Eq.trans (StableHlo.after_of_writes_sub (r := main_arg5) hostOps1 (W2 m ρ c) hostOps1_wsub (by decide))
    (Eq.trans (W2_of_ne m ρ c main_arg5 (by decide))
    (Eq.trans (StableHlo.after_of_writes_sub (r := main_arg5) hostOps0 (W0 m ρ c) hostOps0_wsub (by decide))
    (rfl))))))))))))))))))))))))))))))))

theorem kept6 (c : Dev nD) : W32 m ρ c (Proc.devRef .tc main_arg6) = m ((c : Thread nD τ).loc main_arg6) :=
  Eq.trans (W32_of_ne m ρ c main_arg6 (by decide))
    (Eq.trans (StableHlo.after_of_writes_sub (r := main_arg6) hostOps15 (W30 m ρ c) hostOps15_wsub (by decide))
    (Eq.trans (W30_of_ne m ρ c main_arg6 (by decide))
    (Eq.trans (StableHlo.after_of_writes_sub (r := main_arg6) hostOps14 (W28 m ρ c) hostOps14_wsub (by decide))
    (Eq.trans (W28_of_ne m ρ c main_arg6 (by decide))
    (Eq.trans (StableHlo.after_of_writes_sub (r := main_arg6) hostOps13 (W26 m ρ c) hostOps13_wsub (by decide))
    (Eq.trans (W26_of_ne m ρ c main_arg6 (by decide))
    (Eq.trans (StableHlo.after_of_writes_sub (r := main_arg6) hostOps12 (W24 m ρ c) hostOps12_wsub (by decide))
    (Eq.trans (W24_of_ne m ρ c main_arg6 (by decide))
    (Eq.trans (StableHlo.after_of_writes_sub (r := main_arg6) hostOps11 (W22 m ρ c) hostOps11_wsub (by decide))
    (Eq.trans (W22_of_ne m ρ c main_arg6 (by decide))
    (Eq.trans (StableHlo.after_of_writes_sub (r := main_arg6) hostOps10 (W20 m ρ c) hostOps10_wsub (by decide))
    (Eq.trans (W20_of_ne m ρ c main_arg6 (by decide))
    (Eq.trans (StableHlo.after_of_writes_sub (r := main_arg6) hostOps9 (W18 m ρ c) hostOps9_wsub (by decide))
    (Eq.trans (W18_of_ne m ρ c main_arg6 (by decide))
    (Eq.trans (StableHlo.after_of_writes_sub (r := main_arg6) hostOps8 (W16 m ρ c) hostOps8_wsub (by decide))
    (Eq.trans (W16_of_ne m ρ c main_arg6 (by decide))
    (Eq.trans (StableHlo.after_of_writes_sub (r := main_arg6) hostOps7 (W14 m ρ c) hostOps7_wsub (by decide))
    (Eq.trans (W14_of_ne m ρ c main_arg6 (by decide))
    (Eq.trans (StableHlo.after_of_writes_sub (r := main_arg6) hostOps6 (W12 m ρ c) hostOps6_wsub (by decide))
    (Eq.trans (W12_of_ne m ρ c main_arg6 (by decide))
    (Eq.trans (StableHlo.after_of_writes_sub (r := main_arg6) hostOps5 (W10 m ρ c) hostOps5_wsub (by decide))
    (Eq.trans (W10_of_ne m ρ c main_arg6 (by decide))
    (Eq.trans (StableHlo.after_of_writes_sub (r := main_arg6) hostOps4 (W8 m ρ c) hostOps4_wsub (by decide))
    (Eq.trans (W8_of_ne m ρ c main_arg6 (by decide))
    (Eq.trans (StableHlo.after_of_writes_sub (r := main_arg6) hostOps3 (W6 m ρ c) hostOps3_wsub (by decide))
    (Eq.trans (W6_of_ne m ρ c main_arg6 (by decide))
    (Eq.trans (StableHlo.after_of_writes_sub (r := main_arg6) hostOps2 (W4 m ρ c) hostOps2_wsub (by decide))
    (Eq.trans (W4_of_ne m ρ c main_arg6 (by decide))
    (Eq.trans (StableHlo.after_of_writes_sub (r := main_arg6) hostOps1 (W2 m ρ c) hostOps1_wsub (by decide))
    (Eq.trans (W2_of_ne m ρ c main_arg6 (by decide))
    (Eq.trans (StableHlo.after_of_writes_sub (r := main_arg6) hostOps0 (W0 m ρ c) hostOps0_wsub (by decide))
    (rfl))))))))))))))))))))))))))))))))

theorem kept7 (c : Dev nD) : W32 m ρ c (Proc.devRef .tc main_arg7) = m ((c : Thread nD τ).loc main_arg7) :=
  Eq.trans (W32_of_ne m ρ c main_arg7 (by decide))
    (Eq.trans (StableHlo.after_of_writes_sub (r := main_arg7) hostOps15 (W30 m ρ c) hostOps15_wsub (by decide))
    (Eq.trans (W30_of_ne m ρ c main_arg7 (by decide))
    (Eq.trans (StableHlo.after_of_writes_sub (r := main_arg7) hostOps14 (W28 m ρ c) hostOps14_wsub (by decide))
    (Eq.trans (W28_of_ne m ρ c main_arg7 (by decide))
    (Eq.trans (StableHlo.after_of_writes_sub (r := main_arg7) hostOps13 (W26 m ρ c) hostOps13_wsub (by decide))
    (Eq.trans (W26_of_ne m ρ c main_arg7 (by decide))
    (Eq.trans (StableHlo.after_of_writes_sub (r := main_arg7) hostOps12 (W24 m ρ c) hostOps12_wsub (by decide))
    (Eq.trans (W24_of_ne m ρ c main_arg7 (by decide))
    (Eq.trans (StableHlo.after_of_writes_sub (r := main_arg7) hostOps11 (W22 m ρ c) hostOps11_wsub (by decide))
    (Eq.trans (W22_of_ne m ρ c main_arg7 (by decide))
    (Eq.trans (StableHlo.after_of_writes_sub (r := main_arg7) hostOps10 (W20 m ρ c) hostOps10_wsub (by decide))
    (Eq.trans (W20_of_ne m ρ c main_arg7 (by decide))
    (Eq.trans (StableHlo.after_of_writes_sub (r := main_arg7) hostOps9 (W18 m ρ c) hostOps9_wsub (by decide))
    (Eq.trans (W18_of_ne m ρ c main_arg7 (by decide))
    (Eq.trans (StableHlo.after_of_writes_sub (r := main_arg7) hostOps8 (W16 m ρ c) hostOps8_wsub (by decide))
    (Eq.trans (W16_of_ne m ρ c main_arg7 (by decide))
    (Eq.trans (StableHlo.after_of_writes_sub (r := main_arg7) hostOps7 (W14 m ρ c) hostOps7_wsub (by decide))
    (Eq.trans (W14_of_ne m ρ c main_arg7 (by decide))
    (Eq.trans (StableHlo.after_of_writes_sub (r := main_arg7) hostOps6 (W12 m ρ c) hostOps6_wsub (by decide))
    (Eq.trans (W12_of_ne m ρ c main_arg7 (by decide))
    (Eq.trans (StableHlo.after_of_writes_sub (r := main_arg7) hostOps5 (W10 m ρ c) hostOps5_wsub (by decide))
    (Eq.trans (W10_of_ne m ρ c main_arg7 (by decide))
    (Eq.trans (StableHlo.after_of_writes_sub (r := main_arg7) hostOps4 (W8 m ρ c) hostOps4_wsub (by decide))
    (Eq.trans (W8_of_ne m ρ c main_arg7 (by decide))
    (Eq.trans (StableHlo.after_of_writes_sub (r := main_arg7) hostOps3 (W6 m ρ c) hostOps3_wsub (by decide))
    (Eq.trans (W6_of_ne m ρ c main_arg7 (by decide))
    (Eq.trans (StableHlo.after_of_writes_sub (r := main_arg7) hostOps2 (W4 m ρ c) hostOps2_wsub (by decide))
    (Eq.trans (W4_of_ne m ρ c main_arg7 (by decide))
    (Eq.trans (StableHlo.after_of_writes_sub (r := main_arg7) hostOps1 (W2 m ρ c) hostOps1_wsub (by decide))
    (Eq.trans (W2_of_ne m ρ c main_arg7 (by decide))
    (Eq.trans (StableHlo.after_of_writes_sub (r := main_arg7) hostOps0 (W0 m ρ c) hostOps0_wsub (by decide))
    (rfl))))))))))))))))))))))))))))))))

theorem kept8 (c : Dev nD) : W32 m ρ c (Proc.devRef .tc main_arg8) = m ((c : Thread nD τ).loc main_arg8) :=
  Eq.trans (W32_of_ne m ρ c main_arg8 (by decide))
    (Eq.trans (StableHlo.after_of_writes_sub (r := main_arg8) hostOps15 (W30 m ρ c) hostOps15_wsub (by decide))
    (Eq.trans (W30_of_ne m ρ c main_arg8 (by decide))
    (Eq.trans (StableHlo.after_of_writes_sub (r := main_arg8) hostOps14 (W28 m ρ c) hostOps14_wsub (by decide))
    (Eq.trans (W28_of_ne m ρ c main_arg8 (by decide))
    (Eq.trans (StableHlo.after_of_writes_sub (r := main_arg8) hostOps13 (W26 m ρ c) hostOps13_wsub (by decide))
    (Eq.trans (W26_of_ne m ρ c main_arg8 (by decide))
    (Eq.trans (StableHlo.after_of_writes_sub (r := main_arg8) hostOps12 (W24 m ρ c) hostOps12_wsub (by decide))
    (Eq.trans (W24_of_ne m ρ c main_arg8 (by decide))
    (Eq.trans (StableHlo.after_of_writes_sub (r := main_arg8) hostOps11 (W22 m ρ c) hostOps11_wsub (by decide))
    (Eq.trans (W22_of_ne m ρ c main_arg8 (by decide))
    (Eq.trans (StableHlo.after_of_writes_sub (r := main_arg8) hostOps10 (W20 m ρ c) hostOps10_wsub (by decide))
    (Eq.trans (W20_of_ne m ρ c main_arg8 (by decide))
    (Eq.trans (StableHlo.after_of_writes_sub (r := main_arg8) hostOps9 (W18 m ρ c) hostOps9_wsub (by decide))
    (Eq.trans (W18_of_ne m ρ c main_arg8 (by decide))
    (Eq.trans (StableHlo.after_of_writes_sub (r := main_arg8) hostOps8 (W16 m ρ c) hostOps8_wsub (by decide))
    (Eq.trans (W16_of_ne m ρ c main_arg8 (by decide))
    (Eq.trans (StableHlo.after_of_writes_sub (r := main_arg8) hostOps7 (W14 m ρ c) hostOps7_wsub (by decide))
    (Eq.trans (W14_of_ne m ρ c main_arg8 (by decide))
    (Eq.trans (StableHlo.after_of_writes_sub (r := main_arg8) hostOps6 (W12 m ρ c) hostOps6_wsub (by decide))
    (Eq.trans (W12_of_ne m ρ c main_arg8 (by decide))
    (Eq.trans (StableHlo.after_of_writes_sub (r := main_arg8) hostOps5 (W10 m ρ c) hostOps5_wsub (by decide))
    (Eq.trans (W10_of_ne m ρ c main_arg8 (by decide))
    (Eq.trans (StableHlo.after_of_writes_sub (r := main_arg8) hostOps4 (W8 m ρ c) hostOps4_wsub (by decide))
    (Eq.trans (W8_of_ne m ρ c main_arg8 (by decide))
    (Eq.trans (StableHlo.after_of_writes_sub (r := main_arg8) hostOps3 (W6 m ρ c) hostOps3_wsub (by decide))
    (Eq.trans (W6_of_ne m ρ c main_arg8 (by decide))
    (Eq.trans (StableHlo.after_of_writes_sub (r := main_arg8) hostOps2 (W4 m ρ c) hostOps2_wsub (by decide))
    (Eq.trans (W4_of_ne m ρ c main_arg8 (by decide))
    (Eq.trans (StableHlo.after_of_writes_sub (r := main_arg8) hostOps1 (W2 m ρ c) hostOps1_wsub (by decide))
    (Eq.trans (W2_of_ne m ρ c main_arg8 (by decide))
    (Eq.trans (StableHlo.after_of_writes_sub (r := main_arg8) hostOps0 (W0 m ρ c) hostOps0_wsub (by decide))
    (rfl))))))))))))))))))))))))))))))))

theorem kept9 (c : Dev nD) : W32 m ρ c (Proc.devRef .tc main_arg9) = m ((c : Thread nD τ).loc main_arg9) :=
  Eq.trans (W32_of_ne m ρ c main_arg9 (by decide))
    (Eq.trans (StableHlo.after_of_writes_sub (r := main_arg9) hostOps15 (W30 m ρ c) hostOps15_wsub (by decide))
    (Eq.trans (W30_of_ne m ρ c main_arg9 (by decide))
    (Eq.trans (StableHlo.after_of_writes_sub (r := main_arg9) hostOps14 (W28 m ρ c) hostOps14_wsub (by decide))
    (Eq.trans (W28_of_ne m ρ c main_arg9 (by decide))
    (Eq.trans (StableHlo.after_of_writes_sub (r := main_arg9) hostOps13 (W26 m ρ c) hostOps13_wsub (by decide))
    (Eq.trans (W26_of_ne m ρ c main_arg9 (by decide))
    (Eq.trans (StableHlo.after_of_writes_sub (r := main_arg9) hostOps12 (W24 m ρ c) hostOps12_wsub (by decide))
    (Eq.trans (W24_of_ne m ρ c main_arg9 (by decide))
    (Eq.trans (StableHlo.after_of_writes_sub (r := main_arg9) hostOps11 (W22 m ρ c) hostOps11_wsub (by decide))
    (Eq.trans (W22_of_ne m ρ c main_arg9 (by decide))
    (Eq.trans (StableHlo.after_of_writes_sub (r := main_arg9) hostOps10 (W20 m ρ c) hostOps10_wsub (by decide))
    (Eq.trans (W20_of_ne m ρ c main_arg9 (by decide))
    (Eq.trans (StableHlo.after_of_writes_sub (r := main_arg9) hostOps9 (W18 m ρ c) hostOps9_wsub (by decide))
    (Eq.trans (W18_of_ne m ρ c main_arg9 (by decide))
    (Eq.trans (StableHlo.after_of_writes_sub (r := main_arg9) hostOps8 (W16 m ρ c) hostOps8_wsub (by decide))
    (Eq.trans (W16_of_ne m ρ c main_arg9 (by decide))
    (Eq.trans (StableHlo.after_of_writes_sub (r := main_arg9) hostOps7 (W14 m ρ c) hostOps7_wsub (by decide))
    (Eq.trans (W14_of_ne m ρ c main_arg9 (by decide))
    (Eq.trans (StableHlo.after_of_writes_sub (r := main_arg9) hostOps6 (W12 m ρ c) hostOps6_wsub (by decide))
    (Eq.trans (W12_of_ne m ρ c main_arg9 (by decide))
    (Eq.trans (StableHlo.after_of_writes_sub (r := main_arg9) hostOps5 (W10 m ρ c) hostOps5_wsub (by decide))
    (Eq.trans (W10_of_ne m ρ c main_arg9 (by decide))
    (Eq.trans (StableHlo.after_of_writes_sub (r := main_arg9) hostOps4 (W8 m ρ c) hostOps4_wsub (by decide))
    (Eq.trans (W8_of_ne m ρ c main_arg9 (by decide))
    (Eq.trans (StableHlo.after_of_writes_sub (r := main_arg9) hostOps3 (W6 m ρ c) hostOps3_wsub (by decide))
    (Eq.trans (W6_of_ne m ρ c main_arg9 (by decide))
    (Eq.trans (StableHlo.after_of_writes_sub (r := main_arg9) hostOps2 (W4 m ρ c) hostOps2_wsub (by decide))
    (Eq.trans (W4_of_ne m ρ c main_arg9 (by decide))
    (Eq.trans (StableHlo.after_of_writes_sub (r := main_arg9) hostOps1 (W2 m ρ c) hostOps1_wsub (by decide))
    (Eq.trans (W2_of_ne m ρ c main_arg9 (by decide))
    (Eq.trans (StableHlo.after_of_writes_sub (r := main_arg9) hostOps0 (W0 m ρ c) hostOps0_wsub (by decide))
    (rfl))))))))))))))))))))))))))))))))

theorem kept10 (c : Dev nD) : W32 m ρ c (Proc.devRef .tc main_arg10) = m ((c : Thread nD τ).loc main_arg10) :=
  Eq.trans (W32_of_ne m ρ c main_arg10 (by decide))
    (Eq.trans (StableHlo.after_of_writes_sub (r := main_arg10) hostOps15 (W30 m ρ c) hostOps15_wsub (by decide))
    (Eq.trans (W30_of_ne m ρ c main_arg10 (by decide))
    (Eq.trans (StableHlo.after_of_writes_sub (r := main_arg10) hostOps14 (W28 m ρ c) hostOps14_wsub (by decide))
    (Eq.trans (W28_of_ne m ρ c main_arg10 (by decide))
    (Eq.trans (StableHlo.after_of_writes_sub (r := main_arg10) hostOps13 (W26 m ρ c) hostOps13_wsub (by decide))
    (Eq.trans (W26_of_ne m ρ c main_arg10 (by decide))
    (Eq.trans (StableHlo.after_of_writes_sub (r := main_arg10) hostOps12 (W24 m ρ c) hostOps12_wsub (by decide))
    (Eq.trans (W24_of_ne m ρ c main_arg10 (by decide))
    (Eq.trans (StableHlo.after_of_writes_sub (r := main_arg10) hostOps11 (W22 m ρ c) hostOps11_wsub (by decide))
    (Eq.trans (W22_of_ne m ρ c main_arg10 (by decide))
    (Eq.trans (StableHlo.after_of_writes_sub (r := main_arg10) hostOps10 (W20 m ρ c) hostOps10_wsub (by decide))
    (Eq.trans (W20_of_ne m ρ c main_arg10 (by decide))
    (Eq.trans (StableHlo.after_of_writes_sub (r := main_arg10) hostOps9 (W18 m ρ c) hostOps9_wsub (by decide))
    (Eq.trans (W18_of_ne m ρ c main_arg10 (by decide))
    (Eq.trans (StableHlo.after_of_writes_sub (r := main_arg10) hostOps8 (W16 m ρ c) hostOps8_wsub (by decide))
    (Eq.trans (W16_of_ne m ρ c main_arg10 (by decide))
    (Eq.trans (StableHlo.after_of_writes_sub (r := main_arg10) hostOps7 (W14 m ρ c) hostOps7_wsub (by decide))
    (Eq.trans (W14_of_ne m ρ c main_arg10 (by decide))
    (Eq.trans (StableHlo.after_of_writes_sub (r := main_arg10) hostOps6 (W12 m ρ c) hostOps6_wsub (by decide))
    (Eq.trans (W12_of_ne m ρ c main_arg10 (by decide))
    (Eq.trans (StableHlo.after_of_writes_sub (r := main_arg10) hostOps5 (W10 m ρ c) hostOps5_wsub (by decide))
    (Eq.trans (W10_of_ne m ρ c main_arg10 (by decide))
    (Eq.trans (StableHlo.after_of_writes_sub (r := main_arg10) hostOps4 (W8 m ρ c) hostOps4_wsub (by decide))
    (Eq.trans (W8_of_ne m ρ c main_arg10 (by decide))
    (Eq.trans (StableHlo.after_of_writes_sub (r := main_arg10) hostOps3 (W6 m ρ c) hostOps3_wsub (by decide))
    (Eq.trans (W6_of_ne m ρ c main_arg10 (by decide))
    (Eq.trans (StableHlo.after_of_writes_sub (r := main_arg10) hostOps2 (W4 m ρ c) hostOps2_wsub (by decide))
    (Eq.trans (W4_of_ne m ρ c main_arg10 (by decide))
    (Eq.trans (StableHlo.after_of_writes_sub (r := main_arg10) hostOps1 (W2 m ρ c) hostOps1_wsub (by decide))
    (Eq.trans (W2_of_ne m ρ c main_arg10 (by decide))
    (Eq.trans (StableHlo.after_of_writes_sub (r := main_arg10) hostOps0 (W0 m ρ c) hostOps0_wsub (by decide))
    (rfl))))))))))))))))))))))))))))))))

theorem kept11 (c : Dev nD) : W32 m ρ c (Proc.devRef .tc main_arg11) = m ((c : Thread nD τ).loc main_arg11) :=
  Eq.trans (W32_of_ne m ρ c main_arg11 (by decide))
    (Eq.trans (StableHlo.after_of_writes_sub (r := main_arg11) hostOps15 (W30 m ρ c) hostOps15_wsub (by decide))
    (Eq.trans (W30_of_ne m ρ c main_arg11 (by decide))
    (Eq.trans (StableHlo.after_of_writes_sub (r := main_arg11) hostOps14 (W28 m ρ c) hostOps14_wsub (by decide))
    (Eq.trans (W28_of_ne m ρ c main_arg11 (by decide))
    (Eq.trans (StableHlo.after_of_writes_sub (r := main_arg11) hostOps13 (W26 m ρ c) hostOps13_wsub (by decide))
    (Eq.trans (W26_of_ne m ρ c main_arg11 (by decide))
    (Eq.trans (StableHlo.after_of_writes_sub (r := main_arg11) hostOps12 (W24 m ρ c) hostOps12_wsub (by decide))
    (Eq.trans (W24_of_ne m ρ c main_arg11 (by decide))
    (Eq.trans (StableHlo.after_of_writes_sub (r := main_arg11) hostOps11 (W22 m ρ c) hostOps11_wsub (by decide))
    (Eq.trans (W22_of_ne m ρ c main_arg11 (by decide))
    (Eq.trans (StableHlo.after_of_writes_sub (r := main_arg11) hostOps10 (W20 m ρ c) hostOps10_wsub (by decide))
    (Eq.trans (W20_of_ne m ρ c main_arg11 (by decide))
    (Eq.trans (StableHlo.after_of_writes_sub (r := main_arg11) hostOps9 (W18 m ρ c) hostOps9_wsub (by decide))
    (Eq.trans (W18_of_ne m ρ c main_arg11 (by decide))
    (Eq.trans (StableHlo.after_of_writes_sub (r := main_arg11) hostOps8 (W16 m ρ c) hostOps8_wsub (by decide))
    (Eq.trans (W16_of_ne m ρ c main_arg11 (by decide))
    (Eq.trans (StableHlo.after_of_writes_sub (r := main_arg11) hostOps7 (W14 m ρ c) hostOps7_wsub (by decide))
    (Eq.trans (W14_of_ne m ρ c main_arg11 (by decide))
    (Eq.trans (StableHlo.after_of_writes_sub (r := main_arg11) hostOps6 (W12 m ρ c) hostOps6_wsub (by decide))
    (Eq.trans (W12_of_ne m ρ c main_arg11 (by decide))
    (Eq.trans (StableHlo.after_of_writes_sub (r := main_arg11) hostOps5 (W10 m ρ c) hostOps5_wsub (by decide))
    (Eq.trans (W10_of_ne m ρ c main_arg11 (by decide))
    (Eq.trans (StableHlo.after_of_writes_sub (r := main_arg11) hostOps4 (W8 m ρ c) hostOps4_wsub (by decide))
    (Eq.trans (W8_of_ne m ρ c main_arg11 (by decide))
    (Eq.trans (StableHlo.after_of_writes_sub (r := main_arg11) hostOps3 (W6 m ρ c) hostOps3_wsub (by decide))
    (Eq.trans (W6_of_ne m ρ c main_arg11 (by decide))
    (Eq.trans (StableHlo.after_of_writes_sub (r := main_arg11) hostOps2 (W4 m ρ c) hostOps2_wsub (by decide))
    (Eq.trans (W4_of_ne m ρ c main_arg11 (by decide))
    (Eq.trans (StableHlo.after_of_writes_sub (r := main_arg11) hostOps1 (W2 m ρ c) hostOps1_wsub (by decide))
    (Eq.trans (W2_of_ne m ρ c main_arg11 (by decide))
    (Eq.trans (StableHlo.after_of_writes_sub (r := main_arg11) hostOps0 (W0 m ρ c) hostOps0_wsub (by decide))
    (rfl))))))))))))))))))))))))))))))))

theorem kept12 (c : Dev nD) : W32 m ρ c (Proc.devRef .tc main_arg12) = m ((c : Thread nD τ).loc main_arg12) :=
  Eq.trans (W32_of_ne m ρ c main_arg12 (by decide))
    (Eq.trans (StableHlo.after_of_writes_sub (r := main_arg12) hostOps15 (W30 m ρ c) hostOps15_wsub (by decide))
    (Eq.trans (W30_of_ne m ρ c main_arg12 (by decide))
    (Eq.trans (StableHlo.after_of_writes_sub (r := main_arg12) hostOps14 (W28 m ρ c) hostOps14_wsub (by decide))
    (Eq.trans (W28_of_ne m ρ c main_arg12 (by decide))
    (Eq.trans (StableHlo.after_of_writes_sub (r := main_arg12) hostOps13 (W26 m ρ c) hostOps13_wsub (by decide))
    (Eq.trans (W26_of_ne m ρ c main_arg12 (by decide))
    (Eq.trans (StableHlo.after_of_writes_sub (r := main_arg12) hostOps12 (W24 m ρ c) hostOps12_wsub (by decide))
    (Eq.trans (W24_of_ne m ρ c main_arg12 (by decide))
    (Eq.trans (StableHlo.after_of_writes_sub (r := main_arg12) hostOps11 (W22 m ρ c) hostOps11_wsub (by decide))
    (Eq.trans (W22_of_ne m ρ c main_arg12 (by decide))
    (Eq.trans (StableHlo.after_of_writes_sub (r := main_arg12) hostOps10 (W20 m ρ c) hostOps10_wsub (by decide))
    (Eq.trans (W20_of_ne m ρ c main_arg12 (by decide))
    (Eq.trans (StableHlo.after_of_writes_sub (r := main_arg12) hostOps9 (W18 m ρ c) hostOps9_wsub (by decide))
    (Eq.trans (W18_of_ne m ρ c main_arg12 (by decide))
    (Eq.trans (StableHlo.after_of_writes_sub (r := main_arg12) hostOps8 (W16 m ρ c) hostOps8_wsub (by decide))
    (Eq.trans (W16_of_ne m ρ c main_arg12 (by decide))
    (Eq.trans (StableHlo.after_of_writes_sub (r := main_arg12) hostOps7 (W14 m ρ c) hostOps7_wsub (by decide))
    (Eq.trans (W14_of_ne m ρ c main_arg12 (by decide))
    (Eq.trans (StableHlo.after_of_writes_sub (r := main_arg12) hostOps6 (W12 m ρ c) hostOps6_wsub (by decide))
    (Eq.trans (W12_of_ne m ρ c main_arg12 (by decide))
    (Eq.trans (StableHlo.after_of_writes_sub (r := main_arg12) hostOps5 (W10 m ρ c) hostOps5_wsub (by decide))
    (Eq.trans (W10_of_ne m ρ c main_arg12 (by decide))
    (Eq.trans (StableHlo.after_of_writes_sub (r := main_arg12) hostOps4 (W8 m ρ c) hostOps4_wsub (by decide))
    (Eq.trans (W8_of_ne m ρ c main_arg12 (by decide))
    (Eq.trans (StableHlo.after_of_writes_sub (r := main_arg12) hostOps3 (W6 m ρ c) hostOps3_wsub (by decide))
    (Eq.trans (W6_of_ne m ρ c main_arg12 (by decide))
    (Eq.trans (StableHlo.after_of_writes_sub (r := main_arg12) hostOps2 (W4 m ρ c) hostOps2_wsub (by decide))
    (Eq.trans (W4_of_ne m ρ c main_arg12 (by decide))
    (Eq.trans (StableHlo.after_of_writes_sub (r := main_arg12) hostOps1 (W2 m ρ c) hostOps1_wsub (by decide))
    (Eq.trans (W2_of_ne m ρ c main_arg12 (by decide))
    (Eq.trans (StableHlo.after_of_writes_sub (r := main_arg12) hostOps0 (W0 m ρ c) hostOps0_wsub (by decide))
    (rfl))))))))))))))))))))))))))))))))

theorem kept13 (c : Dev nD) : W32 m ρ c (Proc.devRef .tc main_arg13) = m ((c : Thread nD τ).loc main_arg13) :=
  Eq.trans (W32_of_ne m ρ c main_arg13 (by decide))
    (Eq.trans (StableHlo.after_of_writes_sub (r := main_arg13) hostOps15 (W30 m ρ c) hostOps15_wsub (by decide))
    (Eq.trans (W30_of_ne m ρ c main_arg13 (by decide))
    (Eq.trans (StableHlo.after_of_writes_sub (r := main_arg13) hostOps14 (W28 m ρ c) hostOps14_wsub (by decide))
    (Eq.trans (W28_of_ne m ρ c main_arg13 (by decide))
    (Eq.trans (StableHlo.after_of_writes_sub (r := main_arg13) hostOps13 (W26 m ρ c) hostOps13_wsub (by decide))
    (Eq.trans (W26_of_ne m ρ c main_arg13 (by decide))
    (Eq.trans (StableHlo.after_of_writes_sub (r := main_arg13) hostOps12 (W24 m ρ c) hostOps12_wsub (by decide))
    (Eq.trans (W24_of_ne m ρ c main_arg13 (by decide))
    (Eq.trans (StableHlo.after_of_writes_sub (r := main_arg13) hostOps11 (W22 m ρ c) hostOps11_wsub (by decide))
    (Eq.trans (W22_of_ne m ρ c main_arg13 (by decide))
    (Eq.trans (StableHlo.after_of_writes_sub (r := main_arg13) hostOps10 (W20 m ρ c) hostOps10_wsub (by decide))
    (Eq.trans (W20_of_ne m ρ c main_arg13 (by decide))
    (Eq.trans (StableHlo.after_of_writes_sub (r := main_arg13) hostOps9 (W18 m ρ c) hostOps9_wsub (by decide))
    (Eq.trans (W18_of_ne m ρ c main_arg13 (by decide))
    (Eq.trans (StableHlo.after_of_writes_sub (r := main_arg13) hostOps8 (W16 m ρ c) hostOps8_wsub (by decide))
    (Eq.trans (W16_of_ne m ρ c main_arg13 (by decide))
    (Eq.trans (StableHlo.after_of_writes_sub (r := main_arg13) hostOps7 (W14 m ρ c) hostOps7_wsub (by decide))
    (Eq.trans (W14_of_ne m ρ c main_arg13 (by decide))
    (Eq.trans (StableHlo.after_of_writes_sub (r := main_arg13) hostOps6 (W12 m ρ c) hostOps6_wsub (by decide))
    (Eq.trans (W12_of_ne m ρ c main_arg13 (by decide))
    (Eq.trans (StableHlo.after_of_writes_sub (r := main_arg13) hostOps5 (W10 m ρ c) hostOps5_wsub (by decide))
    (Eq.trans (W10_of_ne m ρ c main_arg13 (by decide))
    (Eq.trans (StableHlo.after_of_writes_sub (r := main_arg13) hostOps4 (W8 m ρ c) hostOps4_wsub (by decide))
    (Eq.trans (W8_of_ne m ρ c main_arg13 (by decide))
    (Eq.trans (StableHlo.after_of_writes_sub (r := main_arg13) hostOps3 (W6 m ρ c) hostOps3_wsub (by decide))
    (Eq.trans (W6_of_ne m ρ c main_arg13 (by decide))
    (Eq.trans (StableHlo.after_of_writes_sub (r := main_arg13) hostOps2 (W4 m ρ c) hostOps2_wsub (by decide))
    (Eq.trans (W4_of_ne m ρ c main_arg13 (by decide))
    (Eq.trans (StableHlo.after_of_writes_sub (r := main_arg13) hostOps1 (W2 m ρ c) hostOps1_wsub (by decide))
    (Eq.trans (W2_of_ne m ρ c main_arg13 (by decide))
    (Eq.trans (StableHlo.after_of_writes_sub (r := main_arg13) hostOps0 (W0 m ρ c) hostOps0_wsub (by decide))
    (rfl))))))))))))))))))))))))))))))))

theorem kept14 (c : Dev nD) : W32 m ρ c (Proc.devRef .tc main_arg14) = m ((c : Thread nD τ).loc main_arg14) :=
  Eq.trans (W32_of_ne m ρ c main_arg14 (by decide))
    (Eq.trans (StableHlo.after_of_writes_sub (r := main_arg14) hostOps15 (W30 m ρ c) hostOps15_wsub (by decide))
    (Eq.trans (W30_of_ne m ρ c main_arg14 (by decide))
    (Eq.trans (StableHlo.after_of_writes_sub (r := main_arg14) hostOps14 (W28 m ρ c) hostOps14_wsub (by decide))
    (Eq.trans (W28_of_ne m ρ c main_arg14 (by decide))
    (Eq.trans (StableHlo.after_of_writes_sub (r := main_arg14) hostOps13 (W26 m ρ c) hostOps13_wsub (by decide))
    (Eq.trans (W26_of_ne m ρ c main_arg14 (by decide))
    (Eq.trans (StableHlo.after_of_writes_sub (r := main_arg14) hostOps12 (W24 m ρ c) hostOps12_wsub (by decide))
    (Eq.trans (W24_of_ne m ρ c main_arg14 (by decide))
    (Eq.trans (StableHlo.after_of_writes_sub (r := main_arg14) hostOps11 (W22 m ρ c) hostOps11_wsub (by decide))
    (Eq.trans (W22_of_ne m ρ c main_arg14 (by decide))
    (Eq.trans (StableHlo.after_of_writes_sub (r := main_arg14) hostOps10 (W20 m ρ c) hostOps10_wsub (by decide))
    (Eq.trans (W20_of_ne m ρ c main_arg14 (by decide))
    (Eq.trans (StableHlo.after_of_writes_sub (r := main_arg14) hostOps9 (W18 m ρ c) hostOps9_wsub (by decide))
    (Eq.trans (W18_of_ne m ρ c main_arg14 (by decide))
    (Eq.trans (StableHlo.after_of_writes_sub (r := main_arg14) hostOps8 (W16 m ρ c) hostOps8_wsub (by decide))
    (Eq.trans (W16_of_ne m ρ c main_arg14 (by decide))
    (Eq.trans (StableHlo.after_of_writes_sub (r := main_arg14) hostOps7 (W14 m ρ c) hostOps7_wsub (by decide))
    (Eq.trans (W14_of_ne m ρ c main_arg14 (by decide))
    (Eq.trans (StableHlo.after_of_writes_sub (r := main_arg14) hostOps6 (W12 m ρ c) hostOps6_wsub (by decide))
    (Eq.trans (W12_of_ne m ρ c main_arg14 (by decide))
    (Eq.trans (StableHlo.after_of_writes_sub (r := main_arg14) hostOps5 (W10 m ρ c) hostOps5_wsub (by decide))
    (Eq.trans (W10_of_ne m ρ c main_arg14 (by decide))
    (Eq.trans (StableHlo.after_of_writes_sub (r := main_arg14) hostOps4 (W8 m ρ c) hostOps4_wsub (by decide))
    (Eq.trans (W8_of_ne m ρ c main_arg14 (by decide))
    (Eq.trans (StableHlo.after_of_writes_sub (r := main_arg14) hostOps3 (W6 m ρ c) hostOps3_wsub (by decide))
    (Eq.trans (W6_of_ne m ρ c main_arg14 (by decide))
    (Eq.trans (StableHlo.after_of_writes_sub (r := main_arg14) hostOps2 (W4 m ρ c) hostOps2_wsub (by decide))
    (Eq.trans (W4_of_ne m ρ c main_arg14 (by decide))
    (Eq.trans (StableHlo.after_of_writes_sub (r := main_arg14) hostOps1 (W2 m ρ c) hostOps1_wsub (by decide))
    (Eq.trans (W2_of_ne m ρ c main_arg14 (by decide))
    (Eq.trans (StableHlo.after_of_writes_sub (r := main_arg14) hostOps0 (W0 m ρ c) hostOps0_wsub (by decide))
    (rfl))))))))))))))))))))))))))))))))

theorem kept15 (c : Dev nD) : W32 m ρ c (Proc.devRef .tc main_arg15) = m ((c : Thread nD τ).loc main_arg15) :=
  Eq.trans (W32_of_ne m ρ c main_arg15 (by decide))
    (Eq.trans (StableHlo.after_of_writes_sub (r := main_arg15) hostOps15 (W30 m ρ c) hostOps15_wsub (by decide))
    (Eq.trans (W30_of_ne m ρ c main_arg15 (by decide))
    (Eq.trans (StableHlo.after_of_writes_sub (r := main_arg15) hostOps14 (W28 m ρ c) hostOps14_wsub (by decide))
    (Eq.trans (W28_of_ne m ρ c main_arg15 (by decide))
    (Eq.trans (StableHlo.after_of_writes_sub (r := main_arg15) hostOps13 (W26 m ρ c) hostOps13_wsub (by decide))
    (Eq.trans (W26_of_ne m ρ c main_arg15 (by decide))
    (Eq.trans (StableHlo.after_of_writes_sub (r := main_arg15) hostOps12 (W24 m ρ c) hostOps12_wsub (by decide))
    (Eq.trans (W24_of_ne m ρ c main_arg15 (by decide))
    (Eq.trans (StableHlo.after_of_writes_sub (r := main_arg15) hostOps11 (W22 m ρ c) hostOps11_wsub (by decide))
    (Eq.trans (W22_of_ne m ρ c main_arg15 (by decide))
    (Eq.trans (StableHlo.after_of_writes_sub (r := main_arg15) hostOps10 (W20 m ρ c) hostOps10_wsub (by decide))
    (Eq.trans (W20_of_ne m ρ c main_arg15 (by decide))
    (Eq.trans (StableHlo.after_of_writes_sub (r := main_arg15) hostOps9 (W18 m ρ c) hostOps9_wsub (by decide))
    (Eq.trans (W18_of_ne m ρ c main_arg15 (by decide))
    (Eq.trans (StableHlo.after_of_writes_sub (r := main_arg15) hostOps8 (W16 m ρ c) hostOps8_wsub (by decide))
    (Eq.trans (W16_of_ne m ρ c main_arg15 (by decide))
    (Eq.trans (StableHlo.after_of_writes_sub (r := main_arg15) hostOps7 (W14 m ρ c) hostOps7_wsub (by decide))
    (Eq.trans (W14_of_ne m ρ c main_arg15 (by decide))
    (Eq.trans (StableHlo.after_of_writes_sub (r := main_arg15) hostOps6 (W12 m ρ c) hostOps6_wsub (by decide))
    (Eq.trans (W12_of_ne m ρ c main_arg15 (by decide))
    (Eq.trans (StableHlo.after_of_writes_sub (r := main_arg15) hostOps5 (W10 m ρ c) hostOps5_wsub (by decide))
    (Eq.trans (W10_of_ne m ρ c main_arg15 (by decide))
    (Eq.trans (StableHlo.after_of_writes_sub (r := main_arg15) hostOps4 (W8 m ρ c) hostOps4_wsub (by decide))
    (Eq.trans (W8_of_ne m ρ c main_arg15 (by decide))
    (Eq.trans (StableHlo.after_of_writes_sub (r := main_arg15) hostOps3 (W6 m ρ c) hostOps3_wsub (by decide))
    (Eq.trans (W6_of_ne m ρ c main_arg15 (by decide))
    (Eq.trans (StableHlo.after_of_writes_sub (r := main_arg15) hostOps2 (W4 m ρ c) hostOps2_wsub (by decide))
    (Eq.trans (W4_of_ne m ρ c main_arg15 (by decide))
    (Eq.trans (StableHlo.after_of_writes_sub (r := main_arg15) hostOps1 (W2 m ρ c) hostOps1_wsub (by decide))
    (Eq.trans (W2_of_ne m ρ c main_arg15 (by decide))
    (Eq.trans (StableHlo.after_of_writes_sub (r := main_arg15) hostOps0 (W0 m ρ c) hostOps0_wsub (by decide))
    (rfl))))))))))))))))))))))))))))))))

theorem kept16 (c : Dev nD) : W32 m ρ c (Proc.devRef .tc main_arg16) = m ((c : Thread nD τ).loc main_arg16) :=
  Eq.trans (W32_of_ne m ρ c main_arg16 (by decide))
    (Eq.trans (StableHlo.after_of_writes_sub (r := main_arg16) hostOps15 (W30 m ρ c) hostOps15_wsub (by decide))
    (Eq.trans (W30_of_ne m ρ c main_arg16 (by decide))
    (Eq.trans (StableHlo.after_of_writes_sub (r := main_arg16) hostOps14 (W28 m ρ c) hostOps14_wsub (by decide))
    (Eq.trans (W28_of_ne m ρ c main_arg16 (by decide))
    (Eq.trans (StableHlo.after_of_writes_sub (r := main_arg16) hostOps13 (W26 m ρ c) hostOps13_wsub (by decide))
    (Eq.trans (W26_of_ne m ρ c main_arg16 (by decide))
    (Eq.trans (StableHlo.after_of_writes_sub (r := main_arg16) hostOps12 (W24 m ρ c) hostOps12_wsub (by decide))
    (Eq.trans (W24_of_ne m ρ c main_arg16 (by decide))
    (Eq.trans (StableHlo.after_of_writes_sub (r := main_arg16) hostOps11 (W22 m ρ c) hostOps11_wsub (by decide))
    (Eq.trans (W22_of_ne m ρ c main_arg16 (by decide))
    (Eq.trans (StableHlo.after_of_writes_sub (r := main_arg16) hostOps10 (W20 m ρ c) hostOps10_wsub (by decide))
    (Eq.trans (W20_of_ne m ρ c main_arg16 (by decide))
    (Eq.trans (StableHlo.after_of_writes_sub (r := main_arg16) hostOps9 (W18 m ρ c) hostOps9_wsub (by decide))
    (Eq.trans (W18_of_ne m ρ c main_arg16 (by decide))
    (Eq.trans (StableHlo.after_of_writes_sub (r := main_arg16) hostOps8 (W16 m ρ c) hostOps8_wsub (by decide))
    (Eq.trans (W16_of_ne m ρ c main_arg16 (by decide))
    (Eq.trans (StableHlo.after_of_writes_sub (r := main_arg16) hostOps7 (W14 m ρ c) hostOps7_wsub (by decide))
    (Eq.trans (W14_of_ne m ρ c main_arg16 (by decide))
    (Eq.trans (StableHlo.after_of_writes_sub (r := main_arg16) hostOps6 (W12 m ρ c) hostOps6_wsub (by decide))
    (Eq.trans (W12_of_ne m ρ c main_arg16 (by decide))
    (Eq.trans (StableHlo.after_of_writes_sub (r := main_arg16) hostOps5 (W10 m ρ c) hostOps5_wsub (by decide))
    (Eq.trans (W10_of_ne m ρ c main_arg16 (by decide))
    (Eq.trans (StableHlo.after_of_writes_sub (r := main_arg16) hostOps4 (W8 m ρ c) hostOps4_wsub (by decide))
    (Eq.trans (W8_of_ne m ρ c main_arg16 (by decide))
    (Eq.trans (StableHlo.after_of_writes_sub (r := main_arg16) hostOps3 (W6 m ρ c) hostOps3_wsub (by decide))
    (Eq.trans (W6_of_ne m ρ c main_arg16 (by decide))
    (Eq.trans (StableHlo.after_of_writes_sub (r := main_arg16) hostOps2 (W4 m ρ c) hostOps2_wsub (by decide))
    (Eq.trans (W4_of_ne m ρ c main_arg16 (by decide))
    (Eq.trans (StableHlo.after_of_writes_sub (r := main_arg16) hostOps1 (W2 m ρ c) hostOps1_wsub (by decide))
    (Eq.trans (W2_of_ne m ρ c main_arg16 (by decide))
    (Eq.trans (StableHlo.after_of_writes_sub (r := main_arg16) hostOps0 (W0 m ρ c) hostOps0_wsub (by decide))
    (rfl))))))))))))))))))))))))))))))))

theorem kept17 (c : Dev nD) : W32 m ρ c (Proc.devRef .tc main_arg17) = m ((c : Thread nD τ).loc main_arg17) :=
  Eq.trans (W32_of_ne m ρ c main_arg17 (by decide))
    (Eq.trans (StableHlo.after_of_writes_sub (r := main_arg17) hostOps15 (W30 m ρ c) hostOps15_wsub (by decide))
    (Eq.trans (W30_of_ne m ρ c main_arg17 (by decide))
    (Eq.trans (StableHlo.after_of_writes_sub (r := main_arg17) hostOps14 (W28 m ρ c) hostOps14_wsub (by decide))
    (Eq.trans (W28_of_ne m ρ c main_arg17 (by decide))
    (Eq.trans (StableHlo.after_of_writes_sub (r := main_arg17) hostOps13 (W26 m ρ c) hostOps13_wsub (by decide))
    (Eq.trans (W26_of_ne m ρ c main_arg17 (by decide))
    (Eq.trans (StableHlo.after_of_writes_sub (r := main_arg17) hostOps12 (W24 m ρ c) hostOps12_wsub (by decide))
    (Eq.trans (W24_of_ne m ρ c main_arg17 (by decide))
    (Eq.trans (StableHlo.after_of_writes_sub (r := main_arg17) hostOps11 (W22 m ρ c) hostOps11_wsub (by decide))
    (Eq.trans (W22_of_ne m ρ c main_arg17 (by decide))
    (Eq.trans (StableHlo.after_of_writes_sub (r := main_arg17) hostOps10 (W20 m ρ c) hostOps10_wsub (by decide))
    (Eq.trans (W20_of_ne m ρ c main_arg17 (by decide))
    (Eq.trans (StableHlo.after_of_writes_sub (r := main_arg17) hostOps9 (W18 m ρ c) hostOps9_wsub (by decide))
    (Eq.trans (W18_of_ne m ρ c main_arg17 (by decide))
    (Eq.trans (StableHlo.after_of_writes_sub (r := main_arg17) hostOps8 (W16 m ρ c) hostOps8_wsub (by decide))
    (Eq.trans (W16_of_ne m ρ c main_arg17 (by decide))
    (Eq.trans (StableHlo.after_of_writes_sub (r := main_arg17) hostOps7 (W14 m ρ c) hostOps7_wsub (by decide))
    (Eq.trans (W14_of_ne m ρ c main_arg17 (by decide))
    (Eq.trans (StableHlo.after_of_writes_sub (r := main_arg17) hostOps6 (W12 m ρ c) hostOps6_wsub (by decide))
    (Eq.trans (W12_of_ne m ρ c main_arg17 (by decide))
    (Eq.trans (StableHlo.after_of_writes_sub (r := main_arg17) hostOps5 (W10 m ρ c) hostOps5_wsub (by decide))
    (Eq.trans (W10_of_ne m ρ c main_arg17 (by decide))
    (Eq.trans (StableHlo.after_of_writes_sub (r := main_arg17) hostOps4 (W8 m ρ c) hostOps4_wsub (by decide))
    (Eq.trans (W8_of_ne m ρ c main_arg17 (by decide))
    (Eq.trans (StableHlo.after_of_writes_sub (r := main_arg17) hostOps3 (W6 m ρ c) hostOps3_wsub (by decide))
    (Eq.trans (W6_of_ne m ρ c main_arg17 (by decide))
    (Eq.trans (StableHlo.after_of_writes_sub (r := main_arg17) hostOps2 (W4 m ρ c) hostOps2_wsub (by decide))
    (Eq.trans (W4_of_ne m ρ c main_arg17 (by decide))
    (Eq.trans (StableHlo.after_of_writes_sub (r := main_arg17) hostOps1 (W2 m ρ c) hostOps1_wsub (by decide))
    (Eq.trans (W2_of_ne m ρ c main_arg17 (by decide))
    (Eq.trans (StableHlo.after_of_writes_sub (r := main_arg17) hostOps0 (W0 m ρ c) hostOps0_wsub (by decide))
    (rfl))))))))))))))))))))))))))))))))

theorem kept18 (c : Dev nD) : W32 m ρ c (Proc.devRef .tc main_arg18) = m ((c : Thread nD τ).loc main_arg18) :=
  Eq.trans (W32_of_ne m ρ c main_arg18 (by decide))
    (Eq.trans (StableHlo.after_of_writes_sub (r := main_arg18) hostOps15 (W30 m ρ c) hostOps15_wsub (by decide))
    (Eq.trans (W30_of_ne m ρ c main_arg18 (by decide))
    (Eq.trans (StableHlo.after_of_writes_sub (r := main_arg18) hostOps14 (W28 m ρ c) hostOps14_wsub (by decide))
    (Eq.trans (W28_of_ne m ρ c main_arg18 (by decide))
    (Eq.trans (StableHlo.after_of_writes_sub (r := main_arg18) hostOps13 (W26 m ρ c) hostOps13_wsub (by decide))
    (Eq.trans (W26_of_ne m ρ c main_arg18 (by decide))
    (Eq.trans (StableHlo.after_of_writes_sub (r := main_arg18) hostOps12 (W24 m ρ c) hostOps12_wsub (by decide))
    (Eq.trans (W24_of_ne m ρ c main_arg18 (by decide))
    (Eq.trans (StableHlo.after_of_writes_sub (r := main_arg18) hostOps11 (W22 m ρ c) hostOps11_wsub (by decide))
    (Eq.trans (W22_of_ne m ρ c main_arg18 (by decide))
    (Eq.trans (StableHlo.after_of_writes_sub (r := main_arg18) hostOps10 (W20 m ρ c) hostOps10_wsub (by decide))
    (Eq.trans (W20_of_ne m ρ c main_arg18 (by decide))
    (Eq.trans (StableHlo.after_of_writes_sub (r := main_arg18) hostOps9 (W18 m ρ c) hostOps9_wsub (by decide))
    (Eq.trans (W18_of_ne m ρ c main_arg18 (by decide))
    (Eq.trans (StableHlo.after_of_writes_sub (r := main_arg18) hostOps8 (W16 m ρ c) hostOps8_wsub (by decide))
    (Eq.trans (W16_of_ne m ρ c main_arg18 (by decide))
    (Eq.trans (StableHlo.after_of_writes_sub (r := main_arg18) hostOps7 (W14 m ρ c) hostOps7_wsub (by decide))
    (Eq.trans (W14_of_ne m ρ c main_arg18 (by decide))
    (Eq.trans (StableHlo.after_of_writes_sub (r := main_arg18) hostOps6 (W12 m ρ c) hostOps6_wsub (by decide))
    (Eq.trans (W12_of_ne m ρ c main_arg18 (by decide))
    (Eq.trans (StableHlo.after_of_writes_sub (r := main_arg18) hostOps5 (W10 m ρ c) hostOps5_wsub (by decide))
    (Eq.trans (W10_of_ne m ρ c main_arg18 (by decide))
    (Eq.trans (StableHlo.after_of_writes_sub (r := main_arg18) hostOps4 (W8 m ρ c) hostOps4_wsub (by decide))
    (Eq.trans (W8_of_ne m ρ c main_arg18 (by decide))
    (Eq.trans (StableHlo.after_of_writes_sub (r := main_arg18) hostOps3 (W6 m ρ c) hostOps3_wsub (by decide))
    (Eq.trans (W6_of_ne m ρ c main_arg18 (by decide))
    (Eq.trans (StableHlo.after_of_writes_sub (r := main_arg18) hostOps2 (W4 m ρ c) hostOps2_wsub (by decide))
    (Eq.trans (W4_of_ne m ρ c main_arg18 (by decide))
    (Eq.trans (StableHlo.after_of_writes_sub (r := main_arg18) hostOps1 (W2 m ρ c) hostOps1_wsub (by decide))
    (Eq.trans (W2_of_ne m ρ c main_arg18 (by decide))
    (Eq.trans (StableHlo.after_of_writes_sub (r := main_arg18) hostOps0 (W0 m ρ c) hostOps0_wsub (by decide))
    (rfl))))))))))))))))))))))))))))))))

theorem kept19 (c : Dev nD) : W32 m ρ c (Proc.devRef .tc main_arg19) = m ((c : Thread nD τ).loc main_arg19) :=
  Eq.trans (W32_of_ne m ρ c main_arg19 (by decide))
    (Eq.trans (StableHlo.after_of_writes_sub (r := main_arg19) hostOps15 (W30 m ρ c) hostOps15_wsub (by decide))
    (Eq.trans (W30_of_ne m ρ c main_arg19 (by decide))
    (Eq.trans (StableHlo.after_of_writes_sub (r := main_arg19) hostOps14 (W28 m ρ c) hostOps14_wsub (by decide))
    (Eq.trans (W28_of_ne m ρ c main_arg19 (by decide))
    (Eq.trans (StableHlo.after_of_writes_sub (r := main_arg19) hostOps13 (W26 m ρ c) hostOps13_wsub (by decide))
    (Eq.trans (W26_of_ne m ρ c main_arg19 (by decide))
    (Eq.trans (StableHlo.after_of_writes_sub (r := main_arg19) hostOps12 (W24 m ρ c) hostOps12_wsub (by decide))
    (Eq.trans (W24_of_ne m ρ c main_arg19 (by decide))
    (Eq.trans (StableHlo.after_of_writes_sub (r := main_arg19) hostOps11 (W22 m ρ c) hostOps11_wsub (by decide))
    (Eq.trans (W22_of_ne m ρ c main_arg19 (by decide))
    (Eq.trans (StableHlo.after_of_writes_sub (r := main_arg19) hostOps10 (W20 m ρ c) hostOps10_wsub (by decide))
    (Eq.trans (W20_of_ne m ρ c main_arg19 (by decide))
    (Eq.trans (StableHlo.after_of_writes_sub (r := main_arg19) hostOps9 (W18 m ρ c) hostOps9_wsub (by decide))
    (Eq.trans (W18_of_ne m ρ c main_arg19 (by decide))
    (Eq.trans (StableHlo.after_of_writes_sub (r := main_arg19) hostOps8 (W16 m ρ c) hostOps8_wsub (by decide))
    (Eq.trans (W16_of_ne m ρ c main_arg19 (by decide))
    (Eq.trans (StableHlo.after_of_writes_sub (r := main_arg19) hostOps7 (W14 m ρ c) hostOps7_wsub (by decide))
    (Eq.trans (W14_of_ne m ρ c main_arg19 (by decide))
    (Eq.trans (StableHlo.after_of_writes_sub (r := main_arg19) hostOps6 (W12 m ρ c) hostOps6_wsub (by decide))
    (Eq.trans (W12_of_ne m ρ c main_arg19 (by decide))
    (Eq.trans (StableHlo.after_of_writes_sub (r := main_arg19) hostOps5 (W10 m ρ c) hostOps5_wsub (by decide))
    (Eq.trans (W10_of_ne m ρ c main_arg19 (by decide))
    (Eq.trans (StableHlo.after_of_writes_sub (r := main_arg19) hostOps4 (W8 m ρ c) hostOps4_wsub (by decide))
    (Eq.trans (W8_of_ne m ρ c main_arg19 (by decide))
    (Eq.trans (StableHlo.after_of_writes_sub (r := main_arg19) hostOps3 (W6 m ρ c) hostOps3_wsub (by decide))
    (Eq.trans (W6_of_ne m ρ c main_arg19 (by decide))
    (Eq.trans (StableHlo.after_of_writes_sub (r := main_arg19) hostOps2 (W4 m ρ c) hostOps2_wsub (by decide))
    (Eq.trans (W4_of_ne m ρ c main_arg19 (by decide))
    (Eq.trans (StableHlo.after_of_writes_sub (r := main_arg19) hostOps1 (W2 m ρ c) hostOps1_wsub (by decide))
    (Eq.trans (W2_of_ne m ρ c main_arg19 (by decide))
    (Eq.trans (StableHlo.after_of_writes_sub (r := main_arg19) hostOps0 (W0 m ρ c) hostOps0_wsub (by decide))
    (rfl))))))))))))))))))))))))))))))))

theorem kept20 (c : Dev nD) : W32 m ρ c (Proc.devRef .tc main_arg20) = m ((c : Thread nD τ).loc main_arg20) :=
  Eq.trans (W32_of_ne m ρ c main_arg20 (by decide))
    (Eq.trans (StableHlo.after_of_writes_sub (r := main_arg20) hostOps15 (W30 m ρ c) hostOps15_wsub (by decide))
    (Eq.trans (W30_of_ne m ρ c main_arg20 (by decide))
    (Eq.trans (StableHlo.after_of_writes_sub (r := main_arg20) hostOps14 (W28 m ρ c) hostOps14_wsub (by decide))
    (Eq.trans (W28_of_ne m ρ c main_arg20 (by decide))
    (Eq.trans (StableHlo.after_of_writes_sub (r := main_arg20) hostOps13 (W26 m ρ c) hostOps13_wsub (by decide))
    (Eq.trans (W26_of_ne m ρ c main_arg20 (by decide))
    (Eq.trans (StableHlo.after_of_writes_sub (r := main_arg20) hostOps12 (W24 m ρ c) hostOps12_wsub (by decide))
    (Eq.trans (W24_of_ne m ρ c main_arg20 (by decide))
    (Eq.trans (StableHlo.after_of_writes_sub (r := main_arg20) hostOps11 (W22 m ρ c) hostOps11_wsub (by decide))
    (Eq.trans (W22_of_ne m ρ c main_arg20 (by decide))
    (Eq.trans (StableHlo.after_of_writes_sub (r := main_arg20) hostOps10 (W20 m ρ c) hostOps10_wsub (by decide))
    (Eq.trans (W20_of_ne m ρ c main_arg20 (by decide))
    (Eq.trans (StableHlo.after_of_writes_sub (r := main_arg20) hostOps9 (W18 m ρ c) hostOps9_wsub (by decide))
    (Eq.trans (W18_of_ne m ρ c main_arg20 (by decide))
    (Eq.trans (StableHlo.after_of_writes_sub (r := main_arg20) hostOps8 (W16 m ρ c) hostOps8_wsub (by decide))
    (Eq.trans (W16_of_ne m ρ c main_arg20 (by decide))
    (Eq.trans (StableHlo.after_of_writes_sub (r := main_arg20) hostOps7 (W14 m ρ c) hostOps7_wsub (by decide))
    (Eq.trans (W14_of_ne m ρ c main_arg20 (by decide))
    (Eq.trans (StableHlo.after_of_writes_sub (r := main_arg20) hostOps6 (W12 m ρ c) hostOps6_wsub (by decide))
    (Eq.trans (W12_of_ne m ρ c main_arg20 (by decide))
    (Eq.trans (StableHlo.after_of_writes_sub (r := main_arg20) hostOps5 (W10 m ρ c) hostOps5_wsub (by decide))
    (Eq.trans (W10_of_ne m ρ c main_arg20 (by decide))
    (Eq.trans (StableHlo.after_of_writes_sub (r := main_arg20) hostOps4 (W8 m ρ c) hostOps4_wsub (by decide))
    (Eq.trans (W8_of_ne m ρ c main_arg20 (by decide))
    (Eq.trans (StableHlo.after_of_writes_sub (r := main_arg20) hostOps3 (W6 m ρ c) hostOps3_wsub (by decide))
    (Eq.trans (W6_of_ne m ρ c main_arg20 (by decide))
    (Eq.trans (StableHlo.after_of_writes_sub (r := main_arg20) hostOps2 (W4 m ρ c) hostOps2_wsub (by decide))
    (Eq.trans (W4_of_ne m ρ c main_arg20 (by decide))
    (Eq.trans (StableHlo.after_of_writes_sub (r := main_arg20) hostOps1 (W2 m ρ c) hostOps1_wsub (by decide))
    (Eq.trans (W2_of_ne m ρ c main_arg20 (by decide))
    (Eq.trans (StableHlo.after_of_writes_sub (r := main_arg20) hostOps0 (W0 m ρ c) hostOps0_wsub (by decide))
    (rfl))))))))))))))))))))))))))))))))

theorem kept21 (c : Dev nD) : W32 m ρ c (Proc.devRef .tc main_arg21) = m ((c : Thread nD τ).loc main_arg21) :=
  Eq.trans (W32_of_ne m ρ c main_arg21 (by decide))
    (Eq.trans (StableHlo.after_of_writes_sub (r := main_arg21) hostOps15 (W30 m ρ c) hostOps15_wsub (by decide))
    (Eq.trans (W30_of_ne m ρ c main_arg21 (by decide))
    (Eq.trans (StableHlo.after_of_writes_sub (r := main_arg21) hostOps14 (W28 m ρ c) hostOps14_wsub (by decide))
    (Eq.trans (W28_of_ne m ρ c main_arg21 (by decide))
    (Eq.trans (StableHlo.after_of_writes_sub (r := main_arg21) hostOps13 (W26 m ρ c) hostOps13_wsub (by decide))
    (Eq.trans (W26_of_ne m ρ c main_arg21 (by decide))
    (Eq.trans (StableHlo.after_of_writes_sub (r := main_arg21) hostOps12 (W24 m ρ c) hostOps12_wsub (by decide))
    (Eq.trans (W24_of_ne m ρ c main_arg21 (by decide))
    (Eq.trans (StableHlo.after_of_writes_sub (r := main_arg21) hostOps11 (W22 m ρ c) hostOps11_wsub (by decide))
    (Eq.trans (W22_of_ne m ρ c main_arg21 (by decide))
    (Eq.trans (StableHlo.after_of_writes_sub (r := main_arg21) hostOps10 (W20 m ρ c) hostOps10_wsub (by decide))
    (Eq.trans (W20_of_ne m ρ c main_arg21 (by decide))
    (Eq.trans (StableHlo.after_of_writes_sub (r := main_arg21) hostOps9 (W18 m ρ c) hostOps9_wsub (by decide))
    (Eq.trans (W18_of_ne m ρ c main_arg21 (by decide))
    (Eq.trans (StableHlo.after_of_writes_sub (r := main_arg21) hostOps8 (W16 m ρ c) hostOps8_wsub (by decide))
    (Eq.trans (W16_of_ne m ρ c main_arg21 (by decide))
    (Eq.trans (StableHlo.after_of_writes_sub (r := main_arg21) hostOps7 (W14 m ρ c) hostOps7_wsub (by decide))
    (Eq.trans (W14_of_ne m ρ c main_arg21 (by decide))
    (Eq.trans (StableHlo.after_of_writes_sub (r := main_arg21) hostOps6 (W12 m ρ c) hostOps6_wsub (by decide))
    (Eq.trans (W12_of_ne m ρ c main_arg21 (by decide))
    (Eq.trans (StableHlo.after_of_writes_sub (r := main_arg21) hostOps5 (W10 m ρ c) hostOps5_wsub (by decide))
    (Eq.trans (W10_of_ne m ρ c main_arg21 (by decide))
    (Eq.trans (StableHlo.after_of_writes_sub (r := main_arg21) hostOps4 (W8 m ρ c) hostOps4_wsub (by decide))
    (Eq.trans (W8_of_ne m ρ c main_arg21 (by decide))
    (Eq.trans (StableHlo.after_of_writes_sub (r := main_arg21) hostOps3 (W6 m ρ c) hostOps3_wsub (by decide))
    (Eq.trans (W6_of_ne m ρ c main_arg21 (by decide))
    (Eq.trans (StableHlo.after_of_writes_sub (r := main_arg21) hostOps2 (W4 m ρ c) hostOps2_wsub (by decide))
    (Eq.trans (W4_of_ne m ρ c main_arg21 (by decide))
    (Eq.trans (StableHlo.after_of_writes_sub (r := main_arg21) hostOps1 (W2 m ρ c) hostOps1_wsub (by decide))
    (Eq.trans (W2_of_ne m ρ c main_arg21 (by decide))
    (Eq.trans (StableHlo.after_of_writes_sub (r := main_arg21) hostOps0 (W0 m ρ c) hostOps0_wsub (by decide))
    (rfl))))))))))))))))))))))))))))))))

theorem kept22 (c : Dev nD) : W32 m ρ c (Proc.devRef .tc main_arg22) = m ((c : Thread nD τ).loc main_arg22) :=
  Eq.trans (W32_of_ne m ρ c main_arg22 (by decide))
    (Eq.trans (StableHlo.after_of_writes_sub (r := main_arg22) hostOps15 (W30 m ρ c) hostOps15_wsub (by decide))
    (Eq.trans (W30_of_ne m ρ c main_arg22 (by decide))
    (Eq.trans (StableHlo.after_of_writes_sub (r := main_arg22) hostOps14 (W28 m ρ c) hostOps14_wsub (by decide))
    (Eq.trans (W28_of_ne m ρ c main_arg22 (by decide))
    (Eq.trans (StableHlo.after_of_writes_sub (r := main_arg22) hostOps13 (W26 m ρ c) hostOps13_wsub (by decide))
    (Eq.trans (W26_of_ne m ρ c main_arg22 (by decide))
    (Eq.trans (StableHlo.after_of_writes_sub (r := main_arg22) hostOps12 (W24 m ρ c) hostOps12_wsub (by decide))
    (Eq.trans (W24_of_ne m ρ c main_arg22 (by decide))
    (Eq.trans (StableHlo.after_of_writes_sub (r := main_arg22) hostOps11 (W22 m ρ c) hostOps11_wsub (by decide))
    (Eq.trans (W22_of_ne m ρ c main_arg22 (by decide))
    (Eq.trans (StableHlo.after_of_writes_sub (r := main_arg22) hostOps10 (W20 m ρ c) hostOps10_wsub (by decide))
    (Eq.trans (W20_of_ne m ρ c main_arg22 (by decide))
    (Eq.trans (StableHlo.after_of_writes_sub (r := main_arg22) hostOps9 (W18 m ρ c) hostOps9_wsub (by decide))
    (Eq.trans (W18_of_ne m ρ c main_arg22 (by decide))
    (Eq.trans (StableHlo.after_of_writes_sub (r := main_arg22) hostOps8 (W16 m ρ c) hostOps8_wsub (by decide))
    (Eq.trans (W16_of_ne m ρ c main_arg22 (by decide))
    (Eq.trans (StableHlo.after_of_writes_sub (r := main_arg22) hostOps7 (W14 m ρ c) hostOps7_wsub (by decide))
    (Eq.trans (W14_of_ne m ρ c main_arg22 (by decide))
    (Eq.trans (StableHlo.after_of_writes_sub (r := main_arg22) hostOps6 (W12 m ρ c) hostOps6_wsub (by decide))
    (Eq.trans (W12_of_ne m ρ c main_arg22 (by decide))
    (Eq.trans (StableHlo.after_of_writes_sub (r := main_arg22) hostOps5 (W10 m ρ c) hostOps5_wsub (by decide))
    (Eq.trans (W10_of_ne m ρ c main_arg22 (by decide))
    (Eq.trans (StableHlo.after_of_writes_sub (r := main_arg22) hostOps4 (W8 m ρ c) hostOps4_wsub (by decide))
    (Eq.trans (W8_of_ne m ρ c main_arg22 (by decide))
    (Eq.trans (StableHlo.after_of_writes_sub (r := main_arg22) hostOps3 (W6 m ρ c) hostOps3_wsub (by decide))
    (Eq.trans (W6_of_ne m ρ c main_arg22 (by decide))
    (Eq.trans (StableHlo.after_of_writes_sub (r := main_arg22) hostOps2 (W4 m ρ c) hostOps2_wsub (by decide))
    (Eq.trans (W4_of_ne m ρ c main_arg22 (by decide))
    (Eq.trans (StableHlo.after_of_writes_sub (r := main_arg22) hostOps1 (W2 m ρ c) hostOps1_wsub (by decide))
    (Eq.trans (W2_of_ne m ρ c main_arg22 (by decide))
    (Eq.trans (StableHlo.after_of_writes_sub (r := main_arg22) hostOps0 (W0 m ρ c) hostOps0_wsub (by decide))
    (rfl))))))))))))))))))))))))))))))))

theorem kept23 (c : Dev nD) : W32 m ρ c (Proc.devRef .tc main_arg23) = m ((c : Thread nD τ).loc main_arg23) :=
  Eq.trans (W32_of_ne m ρ c main_arg23 (by decide))
    (Eq.trans (StableHlo.after_of_writes_sub (r := main_arg23) hostOps15 (W30 m ρ c) hostOps15_wsub (by decide))
    (Eq.trans (W30_of_ne m ρ c main_arg23 (by decide))
    (Eq.trans (StableHlo.after_of_writes_sub (r := main_arg23) hostOps14 (W28 m ρ c) hostOps14_wsub (by decide))
    (Eq.trans (W28_of_ne m ρ c main_arg23 (by decide))
    (Eq.trans (StableHlo.after_of_writes_sub (r := main_arg23) hostOps13 (W26 m ρ c) hostOps13_wsub (by decide))
    (Eq.trans (W26_of_ne m ρ c main_arg23 (by decide))
    (Eq.trans (StableHlo.after_of_writes_sub (r := main_arg23) hostOps12 (W24 m ρ c) hostOps12_wsub (by decide))
    (Eq.trans (W24_of_ne m ρ c main_arg23 (by decide))
    (Eq.trans (StableHlo.after_of_writes_sub (r := main_arg23) hostOps11 (W22 m ρ c) hostOps11_wsub (by decide))
    (Eq.trans (W22_of_ne m ρ c main_arg23 (by decide))
    (Eq.trans (StableHlo.after_of_writes_sub (r := main_arg23) hostOps10 (W20 m ρ c) hostOps10_wsub (by decide))
    (Eq.trans (W20_of_ne m ρ c main_arg23 (by decide))
    (Eq.trans (StableHlo.after_of_writes_sub (r := main_arg23) hostOps9 (W18 m ρ c) hostOps9_wsub (by decide))
    (Eq.trans (W18_of_ne m ρ c main_arg23 (by decide))
    (Eq.trans (StableHlo.after_of_writes_sub (r := main_arg23) hostOps8 (W16 m ρ c) hostOps8_wsub (by decide))
    (Eq.trans (W16_of_ne m ρ c main_arg23 (by decide))
    (Eq.trans (StableHlo.after_of_writes_sub (r := main_arg23) hostOps7 (W14 m ρ c) hostOps7_wsub (by decide))
    (Eq.trans (W14_of_ne m ρ c main_arg23 (by decide))
    (Eq.trans (StableHlo.after_of_writes_sub (r := main_arg23) hostOps6 (W12 m ρ c) hostOps6_wsub (by decide))
    (Eq.trans (W12_of_ne m ρ c main_arg23 (by decide))
    (Eq.trans (StableHlo.after_of_writes_sub (r := main_arg23) hostOps5 (W10 m ρ c) hostOps5_wsub (by decide))
    (Eq.trans (W10_of_ne m ρ c main_arg23 (by decide))
    (Eq.trans (StableHlo.after_of_writes_sub (r := main_arg23) hostOps4 (W8 m ρ c) hostOps4_wsub (by decide))
    (Eq.trans (W8_of_ne m ρ c main_arg23 (by decide))
    (Eq.trans (StableHlo.after_of_writes_sub (r := main_arg23) hostOps3 (W6 m ρ c) hostOps3_wsub (by decide))
    (Eq.trans (W6_of_ne m ρ c main_arg23 (by decide))
    (Eq.trans (StableHlo.after_of_writes_sub (r := main_arg23) hostOps2 (W4 m ρ c) hostOps2_wsub (by decide))
    (Eq.trans (W4_of_ne m ρ c main_arg23 (by decide))
    (Eq.trans (StableHlo.after_of_writes_sub (r := main_arg23) hostOps1 (W2 m ρ c) hostOps1_wsub (by decide))
    (Eq.trans (W2_of_ne m ρ c main_arg23 (by decide))
    (Eq.trans (StableHlo.after_of_writes_sub (r := main_arg23) hostOps0 (W0 m ρ c) hostOps0_wsub (by decide))
    (rfl))))))))))))))))))))))))))))))))

theorem kept24 (c : Dev nD) : W32 m ρ c (Proc.devRef .tc main_arg24) = m ((c : Thread nD τ).loc main_arg24) :=
  Eq.trans (W32_of_ne m ρ c main_arg24 (by decide))
    (Eq.trans (StableHlo.after_of_writes_sub (r := main_arg24) hostOps15 (W30 m ρ c) hostOps15_wsub (by decide))
    (Eq.trans (W30_of_ne m ρ c main_arg24 (by decide))
    (Eq.trans (StableHlo.after_of_writes_sub (r := main_arg24) hostOps14 (W28 m ρ c) hostOps14_wsub (by decide))
    (Eq.trans (W28_of_ne m ρ c main_arg24 (by decide))
    (Eq.trans (StableHlo.after_of_writes_sub (r := main_arg24) hostOps13 (W26 m ρ c) hostOps13_wsub (by decide))
    (Eq.trans (W26_of_ne m ρ c main_arg24 (by decide))
    (Eq.trans (StableHlo.after_of_writes_sub (r := main_arg24) hostOps12 (W24 m ρ c) hostOps12_wsub (by decide))
    (Eq.trans (W24_of_ne m ρ c main_arg24 (by decide))
    (Eq.trans (StableHlo.after_of_writes_sub (r := main_arg24) hostOps11 (W22 m ρ c) hostOps11_wsub (by decide))
    (Eq.trans (W22_of_ne m ρ c main_arg24 (by decide))
    (Eq.trans (StableHlo.after_of_writes_sub (r := main_arg24) hostOps10 (W20 m ρ c) hostOps10_wsub (by decide))
    (Eq.trans (W20_of_ne m ρ c main_arg24 (by decide))
    (Eq.trans (StableHlo.after_of_writes_sub (r := main_arg24) hostOps9 (W18 m ρ c) hostOps9_wsub (by decide))
    (Eq.trans (W18_of_ne m ρ c main_arg24 (by decide))
    (Eq.trans (StableHlo.after_of_writes_sub (r := main_arg24) hostOps8 (W16 m ρ c) hostOps8_wsub (by decide))
    (Eq.trans (W16_of_ne m ρ c main_arg24 (by decide))
    (Eq.trans (StableHlo.after_of_writes_sub (r := main_arg24) hostOps7 (W14 m ρ c) hostOps7_wsub (by decide))
    (Eq.trans (W14_of_ne m ρ c main_arg24 (by decide))
    (Eq.trans (StableHlo.after_of_writes_sub (r := main_arg24) hostOps6 (W12 m ρ c) hostOps6_wsub (by decide))
    (Eq.trans (W12_of_ne m ρ c main_arg24 (by decide))
    (Eq.trans (StableHlo.after_of_writes_sub (r := main_arg24) hostOps5 (W10 m ρ c) hostOps5_wsub (by decide))
    (Eq.trans (W10_of_ne m ρ c main_arg24 (by decide))
    (Eq.trans (StableHlo.after_of_writes_sub (r := main_arg24) hostOps4 (W8 m ρ c) hostOps4_wsub (by decide))
    (Eq.trans (W8_of_ne m ρ c main_arg24 (by decide))
    (Eq.trans (StableHlo.after_of_writes_sub (r := main_arg24) hostOps3 (W6 m ρ c) hostOps3_wsub (by decide))
    (Eq.trans (W6_of_ne m ρ c main_arg24 (by decide))
    (Eq.trans (StableHlo.after_of_writes_sub (r := main_arg24) hostOps2 (W4 m ρ c) hostOps2_wsub (by decide))
    (Eq.trans (W4_of_ne m ρ c main_arg24 (by decide))
    (Eq.trans (StableHlo.after_of_writes_sub (r := main_arg24) hostOps1 (W2 m ρ c) hostOps1_wsub (by decide))
    (Eq.trans (W2_of_ne m ρ c main_arg24 (by decide))
    (Eq.trans (StableHlo.after_of_writes_sub (r := main_arg24) hostOps0 (W0 m ρ c) hostOps0_wsub (by decide))
    (rfl))))))))))))))))))))))))))))))))

theorem kept25 (c : Dev nD) : W32 m ρ c (Proc.devRef .tc main_arg25) = m ((c : Thread nD τ).loc main_arg25) :=
  Eq.trans (W32_of_ne m ρ c main_arg25 (by decide))
    (Eq.trans (StableHlo.after_of_writes_sub (r := main_arg25) hostOps15 (W30 m ρ c) hostOps15_wsub (by decide))
    (Eq.trans (W30_of_ne m ρ c main_arg25 (by decide))
    (Eq.trans (StableHlo.after_of_writes_sub (r := main_arg25) hostOps14 (W28 m ρ c) hostOps14_wsub (by decide))
    (Eq.trans (W28_of_ne m ρ c main_arg25 (by decide))
    (Eq.trans (StableHlo.after_of_writes_sub (r := main_arg25) hostOps13 (W26 m ρ c) hostOps13_wsub (by decide))
    (Eq.trans (W26_of_ne m ρ c main_arg25 (by decide))
    (Eq.trans (StableHlo.after_of_writes_sub (r := main_arg25) hostOps12 (W24 m ρ c) hostOps12_wsub (by decide))
    (Eq.trans (W24_of_ne m ρ c main_arg25 (by decide))
    (Eq.trans (StableHlo.after_of_writes_sub (r := main_arg25) hostOps11 (W22 m ρ c) hostOps11_wsub (by decide))
    (Eq.trans (W22_of_ne m ρ c main_arg25 (by decide))
    (Eq.trans (StableHlo.after_of_writes_sub (r := main_arg25) hostOps10 (W20 m ρ c) hostOps10_wsub (by decide))
    (Eq.trans (W20_of_ne m ρ c main_arg25 (by decide))
    (Eq.trans (StableHlo.after_of_writes_sub (r := main_arg25) hostOps9 (W18 m ρ c) hostOps9_wsub (by decide))
    (Eq.trans (W18_of_ne m ρ c main_arg25 (by decide))
    (Eq.trans (StableHlo.after_of_writes_sub (r := main_arg25) hostOps8 (W16 m ρ c) hostOps8_wsub (by decide))
    (Eq.trans (W16_of_ne m ρ c main_arg25 (by decide))
    (Eq.trans (StableHlo.after_of_writes_sub (r := main_arg25) hostOps7 (W14 m ρ c) hostOps7_wsub (by decide))
    (Eq.trans (W14_of_ne m ρ c main_arg25 (by decide))
    (Eq.trans (StableHlo.after_of_writes_sub (r := main_arg25) hostOps6 (W12 m ρ c) hostOps6_wsub (by decide))
    (Eq.trans (W12_of_ne m ρ c main_arg25 (by decide))
    (Eq.trans (StableHlo.after_of_writes_sub (r := main_arg25) hostOps5 (W10 m ρ c) hostOps5_wsub (by decide))
    (Eq.trans (W10_of_ne m ρ c main_arg25 (by decide))
    (Eq.trans (StableHlo.after_of_writes_sub (r := main_arg25) hostOps4 (W8 m ρ c) hostOps4_wsub (by decide))
    (Eq.trans (W8_of_ne m ρ c main_arg25 (by decide))
    (Eq.trans (StableHlo.after_of_writes_sub (r := main_arg25) hostOps3 (W6 m ρ c) hostOps3_wsub (by decide))
    (Eq.trans (W6_of_ne m ρ c main_arg25 (by decide))
    (Eq.trans (StableHlo.after_of_writes_sub (r := main_arg25) hostOps2 (W4 m ρ c) hostOps2_wsub (by decide))
    (Eq.trans (W4_of_ne m ρ c main_arg25 (by decide))
    (Eq.trans (StableHlo.after_of_writes_sub (r := main_arg25) hostOps1 (W2 m ρ c) hostOps1_wsub (by decide))
    (Eq.trans (W2_of_ne m ρ c main_arg25 (by decide))
    (Eq.trans (StableHlo.after_of_writes_sub (r := main_arg25) hostOps0 (W0 m ρ c) hostOps0_wsub (by decide))
    (rfl))))))))))))))))))))))))))))))))

theorem kept26 (c : Dev nD) : W32 m ρ c (Proc.devRef .tc main_arg26) = m ((c : Thread nD τ).loc main_arg26) :=
  Eq.trans (W32_of_ne m ρ c main_arg26 (by decide))
    (Eq.trans (StableHlo.after_of_writes_sub (r := main_arg26) hostOps15 (W30 m ρ c) hostOps15_wsub (by decide))
    (Eq.trans (W30_of_ne m ρ c main_arg26 (by decide))
    (Eq.trans (StableHlo.after_of_writes_sub (r := main_arg26) hostOps14 (W28 m ρ c) hostOps14_wsub (by decide))
    (Eq.trans (W28_of_ne m ρ c main_arg26 (by decide))
    (Eq.trans (StableHlo.after_of_writes_sub (r := main_arg26) hostOps13 (W26 m ρ c) hostOps13_wsub (by decide))
    (Eq.trans (W26_of_ne m ρ c main_arg26 (by decide))
    (Eq.trans (StableHlo.after_of_writes_sub (r := main_arg26) hostOps12 (W24 m ρ c) hostOps12_wsub (by decide))
    (Eq.trans (W24_of_ne m ρ c main_arg26 (by decide))
    (Eq.trans (StableHlo.after_of_writes_sub (r := main_arg26) hostOps11 (W22 m ρ c) hostOps11_wsub (by decide))
    (Eq.trans (W22_of_ne m ρ c main_arg26 (by decide))
    (Eq.trans (StableHlo.after_of_writes_sub (r := main_arg26) hostOps10 (W20 m ρ c) hostOps10_wsub (by decide))
    (Eq.trans (W20_of_ne m ρ c main_arg26 (by decide))
    (Eq.trans (StableHlo.after_of_writes_sub (r := main_arg26) hostOps9 (W18 m ρ c) hostOps9_wsub (by decide))
    (Eq.trans (W18_of_ne m ρ c main_arg26 (by decide))
    (Eq.trans (StableHlo.after_of_writes_sub (r := main_arg26) hostOps8 (W16 m ρ c) hostOps8_wsub (by decide))
    (Eq.trans (W16_of_ne m ρ c main_arg26 (by decide))
    (Eq.trans (StableHlo.after_of_writes_sub (r := main_arg26) hostOps7 (W14 m ρ c) hostOps7_wsub (by decide))
    (Eq.trans (W14_of_ne m ρ c main_arg26 (by decide))
    (Eq.trans (StableHlo.after_of_writes_sub (r := main_arg26) hostOps6 (W12 m ρ c) hostOps6_wsub (by decide))
    (Eq.trans (W12_of_ne m ρ c main_arg26 (by decide))
    (Eq.trans (StableHlo.after_of_writes_sub (r := main_arg26) hostOps5 (W10 m ρ c) hostOps5_wsub (by decide))
    (Eq.trans (W10_of_ne m ρ c main_arg26 (by decide))
    (Eq.trans (StableHlo.after_of_writes_sub (r := main_arg26) hostOps4 (W8 m ρ c) hostOps4_wsub (by decide))
    (Eq.trans (W8_of_ne m ρ c main_arg26 (by decide))
    (Eq.trans (StableHlo.after_of_writes_sub (r := main_arg26) hostOps3 (W6 m ρ c) hostOps3_wsub (by decide))
    (Eq.trans (W6_of_ne m ρ c main_arg26 (by decide))
    (Eq.trans (StableHlo.after_of_writes_sub (r := main_arg26) hostOps2 (W4 m ρ c) hostOps2_wsub (by decide))
    (Eq.trans (W4_of_ne m ρ c main_arg26 (by decide))
    (Eq.trans (StableHlo.after_of_writes_sub (r := main_arg26) hostOps1 (W2 m ρ c) hostOps1_wsub (by decide))
    (Eq.trans (W2_of_ne m ρ c main_arg26 (by decide))
    (Eq.trans (StableHlo.after_of_writes_sub (r := main_arg26) hostOps0 (W0 m ρ c) hostOps0_wsub (by decide))
    (rfl))))))))))))))))))))))))))))))))

theorem kept27 (c : Dev nD) : W32 m ρ c (Proc.devRef .tc main_arg27) = m ((c : Thread nD τ).loc main_arg27) :=
  Eq.trans (W32_of_ne m ρ c main_arg27 (by decide))
    (Eq.trans (StableHlo.after_of_writes_sub (r := main_arg27) hostOps15 (W30 m ρ c) hostOps15_wsub (by decide))
    (Eq.trans (W30_of_ne m ρ c main_arg27 (by decide))
    (Eq.trans (StableHlo.after_of_writes_sub (r := main_arg27) hostOps14 (W28 m ρ c) hostOps14_wsub (by decide))
    (Eq.trans (W28_of_ne m ρ c main_arg27 (by decide))
    (Eq.trans (StableHlo.after_of_writes_sub (r := main_arg27) hostOps13 (W26 m ρ c) hostOps13_wsub (by decide))
    (Eq.trans (W26_of_ne m ρ c main_arg27 (by decide))
    (Eq.trans (StableHlo.after_of_writes_sub (r := main_arg27) hostOps12 (W24 m ρ c) hostOps12_wsub (by decide))
    (Eq.trans (W24_of_ne m ρ c main_arg27 (by decide))
    (Eq.trans (StableHlo.after_of_writes_sub (r := main_arg27) hostOps11 (W22 m ρ c) hostOps11_wsub (by decide))
    (Eq.trans (W22_of_ne m ρ c main_arg27 (by decide))
    (Eq.trans (StableHlo.after_of_writes_sub (r := main_arg27) hostOps10 (W20 m ρ c) hostOps10_wsub (by decide))
    (Eq.trans (W20_of_ne m ρ c main_arg27 (by decide))
    (Eq.trans (StableHlo.after_of_writes_sub (r := main_arg27) hostOps9 (W18 m ρ c) hostOps9_wsub (by decide))
    (Eq.trans (W18_of_ne m ρ c main_arg27 (by decide))
    (Eq.trans (StableHlo.after_of_writes_sub (r := main_arg27) hostOps8 (W16 m ρ c) hostOps8_wsub (by decide))
    (Eq.trans (W16_of_ne m ρ c main_arg27 (by decide))
    (Eq.trans (StableHlo.after_of_writes_sub (r := main_arg27) hostOps7 (W14 m ρ c) hostOps7_wsub (by decide))
    (Eq.trans (W14_of_ne m ρ c main_arg27 (by decide))
    (Eq.trans (StableHlo.after_of_writes_sub (r := main_arg27) hostOps6 (W12 m ρ c) hostOps6_wsub (by decide))
    (Eq.trans (W12_of_ne m ρ c main_arg27 (by decide))
    (Eq.trans (StableHlo.after_of_writes_sub (r := main_arg27) hostOps5 (W10 m ρ c) hostOps5_wsub (by decide))
    (Eq.trans (W10_of_ne m ρ c main_arg27 (by decide))
    (Eq.trans (StableHlo.after_of_writes_sub (r := main_arg27) hostOps4 (W8 m ρ c) hostOps4_wsub (by decide))
    (Eq.trans (W8_of_ne m ρ c main_arg27 (by decide))
    (Eq.trans (StableHlo.after_of_writes_sub (r := main_arg27) hostOps3 (W6 m ρ c) hostOps3_wsub (by decide))
    (Eq.trans (W6_of_ne m ρ c main_arg27 (by decide))
    (Eq.trans (StableHlo.after_of_writes_sub (r := main_arg27) hostOps2 (W4 m ρ c) hostOps2_wsub (by decide))
    (Eq.trans (W4_of_ne m ρ c main_arg27 (by decide))
    (Eq.trans (StableHlo.after_of_writes_sub (r := main_arg27) hostOps1 (W2 m ρ c) hostOps1_wsub (by decide))
    (Eq.trans (W2_of_ne m ρ c main_arg27 (by decide))
    (Eq.trans (StableHlo.after_of_writes_sub (r := main_arg27) hostOps0 (W0 m ρ c) hostOps0_wsub (by decide))
    (rfl))))))))))))))))))))))))))))))))

end Cert.KernelIdeal.Hand

end
-- ==== Proof.KI.Frame.lean ====
import proofs.«126569_j1468878815453_1_alg».proof.Proof.KI.Run
import proofs.«126569_j1468878815453_1_alg».proof.Proof.KI.Kept

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters every weakly fair execution of @main terminates, nothing faulting, and the argument
    arrays end as launched: the run's last boundary contents read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c =>
    ⟨(h c _ (mem_uc main_arg0 (by decide))).trans (kept0 m ρ c),
      (h c _ (mem_uc main_arg1 (by decide))).trans (kept1 m ρ c),
      (h c _ (mem_uc main_arg2 (by decide))).trans (kept2 m ρ c),
      (h c _ (mem_uc main_arg3 (by decide))).trans (kept3 m ρ c),
      (h c _ (mem_uc main_arg4 (by decide))).trans (kept4 m ρ c),
      (h c _ (mem_uc main_arg5 (by decide))).trans (kept5 m ρ c),
      (h c _ (mem_uc main_arg6 (by decide))).trans (kept6 m ρ c),
      (h c _ (mem_uc main_arg7 (by decide))).trans (kept7 m ρ c),
      (h c _ (mem_uc main_arg8 (by decide))).trans (kept8 m ρ c),
      (h c _ (mem_uc main_arg9 (by decide))).trans (kept9 m ρ c),
      (h c _ (mem_uc main_arg10 (by decide))).trans (kept10 m ρ c),
      (h c _ (mem_uc main_arg11 (by decide))).trans (kept11 m ρ c),
      (h c _ (mem_uc main_arg12 (by decide))).trans (kept12 m ρ c),
      (h c _ (mem_uc main_arg13 (by decide))).trans (kept13 m ρ c),
      (h c _ (mem_uc main_arg14 (by decide))).trans (kept14 m ρ c),
      (h c _ (mem_uc main_arg15 (by decide))).trans (kept15 m ρ c),
      (h c _ (mem_uc main_arg16 (by decide))).trans (kept16 m ρ c),
      (h c _ (mem_uc main_arg17 (by decide))).trans (kept17 m ρ c),
      (h c _ (mem_uc main_arg18 (by decide))).trans (kept18 m ρ c),
      (h c _ (mem_uc main_arg19 (by decide))).trans (kept19 m ρ c),
      (h c _ (mem_uc main_arg20 (by decide))).trans (kept20 m ρ c),
      (h c _ (mem_uc main_arg21 (by decide))).trans (kept21 m ρ c),
      (h c _ (mem_uc main_arg22 (by decide))).trans (kept22 m ρ c),
      (h c _ (mem_uc main_arg23 (by decide))).trans (kept23 m ρ c),
      (h c _ (mem_uc main_arg24 (by decide))).trans (kept24 m ρ c),
      (h c _ (mem_uc main_arg25 (by decide))).trans (kept25 m ρ c),
      (h c _ (mem_uc main_arg26 (by decide))).trans (kept26 m ρ c),
      (h c _ (mem_uc main_arg27 (by decide))).trans (kept27 m ρ c)⟩) (run_all m ρ)

end Cert.KernelIdeal.Hand

end
-- ==== Proof.Ref.Ops.lean ====
import proofs.«126569_j1468878815453_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order (1 … 60 of 886), each call replaced by the callee's operations over the call's buffers. -/
abbrev ops_part0 : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg14 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 20000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg14 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg14 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.binary main_arg0 main_v5 main_v6 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    StableHlo.nullary main_cst (constant S_ .f32 0x00000000#32),
    StableHlo.unary main_cst main_v7 (broadcastInDim S10000x128 ![] bcast_S_S10000x128 : (⟨S_, .f32⟩ : BufTy).Contents (Elt F) → (⟨S10000x128, .f32⟩ : BufTy).Contents (Elt F)),
    StableHlo.unary main_arg15 main_v8 (broadcastInDim S500000x1 ![0] bcast_S500000_S500000x1_0 : (⟨S500000, .i32⟩ : BufTy).Contents (Elt F) → (⟨S500000x1, .i32⟩ : BufTy).Contents (Elt F)),
    StableHlo.ternary main_v7 main_v8 main_v6 main_v9 ((fun x i u => Host.scatterAdd scatter_S10000x128_S500000x1_S500000x128_1_0_0_1 x i u) : (⟨S10000x128, .f32⟩ : BufTy).Contents (Elt F) → (⟨S500000x1, .i32⟩ : BufTy).Contents (Elt F) → (⟨S500000x128, .f32⟩ : BufTy).Contents (Elt F) → (⟨S10000x128, .f32⟩ : BufTy).Contents (Elt F)),
    StableHlo.nullary main_cst_1 (constant S_ .f32 0x3F800000#32),
    StableHlo.unary main_cst_1 main_v10 (broadcastInDim S500000x1 ![] bcast_S_S500000x1 : (⟨S_, .f32⟩ : BufTy).Contents (Elt F) → (⟨S500000x1, .f32⟩ : BufTy).Contents (Elt F)),
    StableHlo.nullary main_cst_2 (constant S_ .f32 0x00000000#32),
    StableHlo.unary main_cst_2 main_v11 (broadcastInDim S10000x1 ![] bcast_S_S10000x1 : (⟨S_, .f32⟩ : BufTy).Contents (Elt F) → (⟨S10000x1, .f32⟩ : BufTy).Contents (Elt F)),
    StableHlo.unary main_arg15 main_v12 (broadcastInDim S500000x1 ![0] bcast_S500000_S500000x1_0 : (⟨S500000, .i32⟩ : BufTy).Contents (Elt F) → (⟨S500000x1, .i32⟩ : BufTy).Contents (Elt F)),
    StableHlo.ternary main_v11 main_v12 main_v10 main_v13 ((fun x i u => Host.scatterAdd scatter_S10000x1_S500000x1_S500000x1_1_0_0_1 x i u) : (⟨S10000x1, .f32⟩ : BufTy).Contents (Elt F) → (⟨S500000x1, .i32⟩ : BufTy).Contents (Elt F) → (⟨S500000x1, .f32⟩ : BufTy).Contents (Elt F) → (⟨S10000x1, .f32⟩ : BufTy).Contents (Elt F)),
    StableHlo.nullary main_cst_3 (constant S_ .f32 0x3F800000#32),
    StableHlo.unary main_cst_3 main_v14 (broadcastInDim S10000x1 ![] bcast_S_S10000x1 : (⟨S_, .f32⟩ : BufTy).Contents (Elt F) → (⟨S10000x1, .f32⟩ : BufTy).Contents (Elt F)),
    StableHlo.binary main_v13 main_v14 main_v15 (maximumf : (⟨S10000x1, .f32⟩ : BufTy).Contents (Elt F) → (⟨S10000x1, .f32⟩ : BufTy).Contents (Elt F) → (⟨S10000x1, .f32⟩ : BufTy).Contents (Elt F)),
    StableHlo.unary main_v15 main_v16 (broadcastInDim S10000x128 ![0, 1] bcast_S10000x1_S10000x128_0_1 : (⟨S10000x1, .f32⟩ : BufTy).Contents (Elt F) → (⟨S10000x128, .f32⟩ : BufTy).Contents (Elt F)),
    StableHlo.binary main_v9 main_v16 main_v17 (Host.divf : (⟨S10000x128, .f32⟩ : BufTy).Contents (Elt F) → (⟨S10000x128, .f32⟩ : BufTy).Contents (Elt F) → (⟨S10000x128, .f32⟩ : BufTy).Contents (Elt F)),
    StableHlo.unary main_arg4 main_v18 ((extractStridedSlice S1x128x256 ![0, 0, 0] · slices_S7x128x256_S1x128x256_0_0_0) : (⟨S7x128x256, .f32⟩ : BufTy).Contents (Elt F) → (⟨S1x128x256, .f32⟩ : BufTy).Contents (Elt F)),
    StableHlo.reshape main_v18 main_v19 rfl shapeCasts_S1x128x256_S128x256,
    StableHlo.binary main_v17 main_v19 main_v20 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.unary main_arg6 main_v21 ((extractStridedSlice S1x256 ![0, 0] · slices_S7x256_S1x256_0_0) : (⟨S7x256, .f32⟩ : BufTy).Contents (Elt F) → (⟨S1x256, .f32⟩ : BufTy).Contents (Elt F)),
    StableHlo.reshape main_v21 main_v22 rfl shapeCasts_S1x256_S256,
    StableHlo.unary main_v22 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S10000x256 ![0, 1] bcast_S1x256_S10000x256_0_1 : (⟨S1x256, .f32⟩ : BufTy).Contents (Elt F) → (⟨S10000x256, .f32⟩ : BufTy).Contents (Elt F)),
    StableHlo.binary main_v20 main_v24 main_v25 (addf : (⟨S10000x256, .f32⟩ : BufTy).Contents (Elt F) → (⟨S10000x256, .f32⟩ : BufTy).Contents (Elt F) → (⟨S10000x256, .f32⟩ : BufTy).Contents (Elt F)),
    StableHlo.unary main_arg5 main_v26 ((extractStridedSlice S1x128x256 ![0, 0, 0] · slices_S7x128x256_S1x128x256_0_0_0) : (⟨S7x128x256, .f32⟩ : BufTy).Contents (Elt F) → (⟨S1x128x256, .f32⟩ : BufTy).Contents (Elt F)),
    StableHlo.reshape main_v26 main_v27 rfl shapeCasts_S1x128x256_S128x256,
    StableHlo.binary main_arg2 main_v27 main_v28 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.binary main_v25 main_v28 main_v29 (addf : (⟨S10000x256, .f32⟩ : BufTy).Contents (Elt F) → (⟨S10000x256, .f32⟩ : BufTy).Contents (Elt F) → (⟨S10000x256, .f32⟩ : BufTy).Contents (Elt F)),
    StableHlo.nullary main_c_4 (constantI S_ 32 0#32),
    StableHlo.unary main_c_4 main_v30 (broadcastInDim S400000 ![] bcast_S_S400000 : (⟨S_, .i32⟩ : BufTy).Contents (Elt F) → (⟨S400000, .i32⟩ : BufTy).Contents (Elt F)),
    StableHlo.binary main_arg16 main_v30 main_v31 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 20000#32),
    StableHlo.unary main_c_5 main_v32 (broadcastInDim S400000 ![] bcast_S_S400000 : (⟨S_, .i32⟩ : BufTy).Contents (Elt F) → (⟨S400000, .i32⟩ : BufTy).Contents (Elt F)),
    StableHlo.binary main_arg16 main_v32 main_v33 (addi : (⟨S400000, .i32⟩ : BufTy).Contents (Elt F) → (⟨S400000, .i32⟩ : BufTy).Contents (Elt F) → (⟨S400000, .i32⟩ : BufTy).Contents (Elt F)),
    StableHlo.ternary main_v31 main_v33 main_arg16 main_v34 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v34 main_v35 (broadcastInDim S400000x1 ![0] bcast_S400000_S400000x1_0 : (⟨S400000, .i32⟩ : BufTy).Contents (Elt F) → (⟨S400000x1, .i32⟩ : BufTy).Contents (Elt F)),
    StableHlo.binary main_arg0 main_v35 main_v36 ((fun x i => Host.gather gather_S20000x128_S400000x1_S400000x128_1_0_n_n_0_1_1128 x i) : (⟨S20000x128, .f32⟩ : BufTy).Contents (Elt F) → (⟨S400000x1, .i32⟩ : BufTy).Contents (Elt F) → (⟨S400000x128, .f32⟩ : BufTy).Contents (Elt F)),
    StableHlo.nullary main_cst_6 (constant S_ .f32 0x00000000#32),
    StableHlo.unary main_cst_6 main_v37 (broadcastInDim S50000x128 ![] bcast_S_S50000x128 : (⟨S_, .f32⟩ : BufTy).Contents (Elt F) → (⟨S50000x128, .f32⟩ : BufTy).Contents (Elt F)),
    StableHlo.unary main_arg17 main_v38 (broadcastInDim S400000x1 ![0] bcast_S400000_S400000x1_0 : (⟨S400000, .i32⟩ : BufTy).Contents (Elt F) → (⟨S400000x1, .i32⟩ : BufTy).Contents (Elt F)),
    StableHlo.ternary main_v37 main_v38 main_v36 main_v39 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.nullary main_cst_7 (constant S_ .f32 0x3F800000#32),
    StableHlo.unary main_cst_7 main_v40 (broadcastInDim S400000x1 ![] bcast_S_S400000x1 : (⟨S_, .f32⟩ : BufTy).Contents (Elt F) → (⟨S400000x1, .f32⟩ : BufTy).Contents (Elt F)),
    StableHlo.nullary main_cst_8 (constant S_ .f32 0x00000000#32),
    StableHlo.unary main_cst_8 main_v41 (broadcastInDim S50000x1 ![] bcast_S_S50000x1 : (⟨S_, .f32⟩ : BufTy).Contents (Elt F) → (⟨S50000x1, .f32⟩ : BufTy).Contents (Elt F)),
    StableHlo.unary main_arg17 main_v42 (broadcastInDim S400000x1 ![0] bcast_S400000_S400000x1_0 : (⟨S400000, .i32⟩ : BufTy).Contents (Elt F) → (⟨S400000x1, .i32⟩ : BufTy).Contents (Elt F)),
    StableHlo.ternary main_v41 main_v42 main_v40 main_v43 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    StableHlo.nullary main_cst_9 (constant S_ .f32 0x3F800000#32),
    StableHlo.unary main_cst_9 main_v44 (broadcastInDim S50000x1 ![] bcast_S_S50000x1 : (⟨S_, .f32⟩ : BufTy).Contents (Elt F) → (⟨S50000x1, .f32⟩ : BufTy).Contents (Elt F)),
    StableHlo.binary main_v43 main_v44 main_v45 (maximumf : (⟨S50000x1, .f32⟩ : BufTy).Contents (Elt F) → (⟨S50000x1, .f32⟩ : BufTy).Contents (Elt F) → (⟨S50000x1, .f32⟩ : BufTy).Contents (Elt F)),
    StableHlo.unary main_v45 main_v46 (broadcastInDim S50000x128 ![0, 1] bcast_S50000x1_S50000x128_0_1 : (⟨S50000x1, .f32⟩ : BufTy).Contents (Elt F) → (⟨S50000x128, .f32⟩ : BufTy).Contents (Elt F)),
    StableHlo.binary main_v39 main_v46 main_v47 (Host.divf : (⟨S50000x128, .f32⟩ : BufTy).Contents (Elt F) → (⟨S50000x128, .f32⟩ : BufTy).Contents (Elt F) → (⟨S50000x128, .f32⟩ : BufTy).Contents (Elt F)) ]

/-- The references window 0's operations write, in order. -/
abbrev ops_part0_W : List (Ref sig .tc) :=
  [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19, main_v20, main_v21, main_v22, main_v23, main_v24, main_v25, main_v26, main_v27, main_v28, main_v29, main_c_4, main_v30, main_v31, main_c_5, main_v32, main_v33, main_v34, main_v35, main_v36, main_cst_6, main_v37, main_v38, main_v39, main_cst_7, main_v40, main_cst_8, main_v41, main_v42, main_v43, main_cst_9, main_v44, main_v45, main_v46, main_v47]

/-- The operations of @main's window 1, in order (61 … 120 of 886), each call replaced by the callee's operations over the call's buffers. -/
abbrev ops_part1 : List (HloOp τ sig (Elt F)) :=
  [ StableHlo.unary main_arg4 main_v48 ((extractStridedSlice S1x128x256 ![1, 0, 0] · slices_S7x128x256_S1x128x256_1_0_0) : (⟨S7x128x256, .f32⟩ : BufTy).Contents (Elt F) → (⟨S1x128x256, .f32⟩ : BufTy).Contents (Elt F)),
    StableHlo.reshape main_v48 main_v49 rfl shapeCasts_S1x128x256_S128x256,
    StableHlo.binary main_v47 main_v49 main_v50 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg6 main_v51 ((extractStridedSlice S1x256 ![1, 0] · slices_S7x256_S1x256_1_0) : (⟨S7x256, .f32⟩ : BufTy).Contents (Elt F) → (⟨S1x256, .f32⟩ : BufTy).Contents (Elt F)),
    StableHlo.reshape main_v51 main_v52 rfl shapeCasts_S1x256_S256,
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v50 main_v54 main_v55 (addf : (⟨S50000x256, .f32⟩ : BufTy).Contents (Elt F) → (⟨S50000x256, .f32⟩ : BufTy).Contents (Elt F) → (⟨S50000x256, .f32⟩ : BufTy).Contents (Elt F)),
    StableHlo.unary main_arg5 main_v56 ((extractStridedSlice S1x128x256 ![1, 0, 0] · slices_S7x128x256_S1x128x256_1_0_0) : (⟨S7x128x256, .f32⟩ : BufTy).Contents (Elt F) → (⟨S1x128x256, .f32⟩ : BufTy).Contents (Elt F)),
    StableHlo.reshape main_v56 main_v57 rfl shapeCasts_S1x128x256_S128x256,
    StableHlo.binary main_arg1 main_v57 main_v58 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v55 main_v58 main_v59 (addf : (⟨S50000x256, .f32⟩ : BufTy).Contents (Elt F) → (⟨S50000x256, .f32⟩ : BufTy).Contents (Elt F) → (⟨S50000x256, .f32⟩ : BufTy).Contents (Elt F)),
    StableHlo.nullary main_c_10 (constantI S_ 32 0#32),
    StableHlo.unary main_c_10 main_v60 (broadcastInDim S150000 ![] bcast_S_S150000 : (⟨S_, .i32⟩ : BufTy).Contents (Elt F) → (⟨S150000, .i32⟩ : BufTy).Contents (Elt F)),
    StableHlo.binary main_arg18 main_v60 main_v61 (cmpi .slt : (⟨S150000, .i32⟩ : BufTy).Contents (Elt F) → (⟨S150000, .i32⟩ : BufTy).Contents (Elt F) → (⟨S150000, .i1⟩ : BufTy).Contents (Elt F)),
    StableHlo.nullary main_c_11 (constantI S_ 32 50000#32),
    StableHlo.unary main_c_11 main_v62 (broadcastInDim S150000 ![] bcast_S_S150000 : (⟨S_, .i32⟩ : BufTy).Contents (Elt F) → (⟨S150000, .i32⟩ : BufTy).Contents (Elt F)),
    StableHlo.binary main_arg18 main_v62 main_v63 (addi : (⟨S150000, .i32⟩ : BufTy).Contents (Elt F) → (⟨S150000, .i32⟩ : BufTy).Contents (Elt F) → (⟨S150000, .i32⟩ : BufTy).Contents (Elt F)),
    StableHlo.ternary main_v61 main_v63 main_arg18 main_v64 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v64 main_v65 (broadcastInDim S150000x1 ![0] bcast_S150000_S150000x1_0 : (⟨S150000, .i32⟩ : BufTy).Contents (Elt F) → (⟨S150000x1, .i32⟩ : BufTy).Contents (Elt F)),
    StableHlo.binary main_arg1 main_v65 main_v66 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    StableHlo.nullary main_cst_12 (constant S_ .f32 0x00000000#32),
    StableHlo.unary main_cst_12 main_v67 (broadcastInDim S3000x128 ![] bcast_S_S3000x128 : (⟨S_, .f32⟩ : BufTy).Contents (Elt F) → (⟨S3000x128, .f32⟩ : BufTy).Contents (Elt F)),
    StableHlo.unary main_arg19 main_v68 (broadcastInDim S150000x1 ![0] bcast_S150000_S150000x1_0 : (⟨S150000, .i32⟩ : BufTy).Contents (Elt F) → (⟨S150000x1, .i32⟩ : BufTy).Contents (Elt F)),
    StableHlo.ternary main_v67 main_v68 main_v66 main_v69 ((fun x i u => Host.scatterAdd scatter_S3000x128_S150000x1_S150000x128_1_0_0_1 x i u) : (⟨S3000x128, .f32⟩ : BufTy).Contents (Elt F) → (⟨S150000x1, .i32⟩ : BufTy).Contents (Elt F) → (⟨S150000x128, .f32⟩ : BufTy).Contents (Elt F) → (⟨S3000x128, .f32⟩ : BufTy).Contents (Elt F)),
    StableHlo.nullary main_cst_13 (constant S_ .f32 0x3F800000#32),
    StableHlo.unary main_cst_13 main_v70 (broadcastInDim S150000x1 ![] bcast_S_S150000x1 : (⟨S_, .f32⟩ : BufTy).Contents (Elt F) → (⟨S150000x1, .f32⟩ : BufTy).Contents (Elt F)),
    StableHlo.nullary main_cst_14 (constant S_ .f32 0x00000000#32),
    StableHlo.unary main_cst_14 main_v71 (broadcastInDim S3000x1 ![] bcast_S_S3000x1 : (⟨S_, .f32⟩ : BufTy).Contents (Elt F) → (⟨S3000x1, .f32⟩ : BufTy).Contents (Elt F)),
    StableHlo.unary main_arg19 main_v72 (broadcastInDim S150000x1 ![0] bcast_S150000_S150000x1_0 : (⟨S150000, .i32⟩ : BufTy).Contents (Elt F) → (⟨S150000x1, .i32⟩ : BufTy).Contents (Elt F)),
    StableHlo.ternary main_v71 main_v72 main_v70 main_v73 ((fun x i u => Host.scatterAdd scatter_S3000x1_S150000x1_S150000x1_1_0_0_1 x i u) : (⟨S3000x1, .f32⟩ : BufTy).Contents (Elt F) → (⟨S150000x1, .i32⟩ : BufTy).Contents (Elt F) → (⟨S150000x1, .f32⟩ : BufTy).Contents (Elt F) → (⟨S3000x1, .f32⟩ : BufTy).Contents (Elt F)),
    StableHlo.nullary main_cst_15 (constant S_ .f32 0x3F800000#32),
    StableHlo.unary main_cst_15 main_v74 (broadcastInDim S3000x1 ![] bcast_S_S3000x1 : (⟨S_, .f32⟩ : BufTy).Contents (Elt F) → (⟨S3000x1, .f32⟩ : BufTy).Contents (Elt F)),
    StableHlo.binary main_v73 main_v74 main_v75 (maximumf : (⟨S3000x1, .f32⟩ : BufTy).Contents (Elt F) → (⟨S3000x1, .f32⟩ : BufTy).Contents (Elt F) → (⟨S3000x1, .f32⟩ : BufTy).Contents (Elt F)),
    StableHlo.unary main_v75 main_v76 (broadcastInDim S3000x128 ![0, 1] bcast_S3000x1_S3000x128_0_1 : (⟨S3000x1, .f32⟩ : BufTy).Contents (Elt F) → (⟨S3000x128, .f32⟩ : BufTy).Contents (Elt F)),
    StableHlo.binary main_v69 main_v76 main_v77 (Host.divf : (⟨S3000x128, .f32⟩ : BufTy).Contents (Elt F) → (⟨S3000x128, .f32⟩ : BufTy).Contents (Elt F) → (⟨S3000x128, .f32⟩ : BufTy).Contents (Elt F)),
    StableHlo.unary main_arg4 main_v78 ((extractStridedSlice S1x128x256 ![2, 0, 0] · slices_S7x128x256_S1x128x256_2_0_0) : (⟨S7x128x256, .f32⟩ : BufTy).Contents (Elt F) → (⟨S1x128x256, .f32⟩ : BufTy).Contents (Elt F)),
    StableHlo.reshape main_v78 main_v79 rfl shapeCasts_S1x128x256_S128x256,
    StableHlo.binary main_v77 main_v79 main_v80 ((fun l r => Host.dotGeneral dot_S3000x128_S128x256_S3000x256_1_0_0_1_n_n none l r) : (⟨S3000x128, .f32⟩ : BufTy).Contents (Elt F) → (⟨S128x256, .f32⟩ : BufTy).Contents (Elt F) → (⟨S3000x256, .f32⟩ : BufTy).Contents (Elt F)),
    StableHlo.unary main_arg6 main_v81 ((extractStridedSlice S1x256 ![2, 0] · slices_S7x256_S1x256_2_0) : (⟨S7x256, .f32⟩ : BufTy).Contents (Elt F) → (⟨S1x256, .f32⟩ : BufTy).Contents (Elt F)),
    StableHlo.reshape main_v81 main_v82 rfl shapeCasts_S1x256_S256,
    StableHlo.unary main_v82 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S3000x256 ![0, 1] bcast_S1x256_S3000x256_0_1 : (⟨S1x256, .f32⟩ : BufTy).Contents (Elt F) → (⟨S3000x256, .f32⟩ : BufTy).Contents (Elt F)),
    StableHlo.binary main_v80 main_v84 main_v85 (addf : (⟨S3000x256, .f32⟩ : BufTy).Contents (Elt F) → (⟨S3000x256, .f32⟩ : BufTy).Contents (Elt F) → (⟨S3000x256, .f32⟩ : BufTy).Contents (Elt F)),
    StableHlo.unary main_arg5 main_v86 ((extractStridedSlice S1x128x256 ![2, 0, 0] · slices_S7x128x256_S1x128x256_2_0_0) : (⟨S7x128x256, .f32⟩ : BufTy).Contents (Elt F) → (⟨S1x128x256, .f32⟩ : BufTy).Contents (Elt F)),
    StableHlo.reshape main_v86 main_v87 rfl shapeCasts_S1x128x256_S128x256,
    StableHlo.binary main_arg3 main_v87 main_v88 ((fun l r => Host.dotGeneral dot_S3000x128_S128x256_S3000x256_1_0_0_1_n_n none l r) : (⟨S3000x128, .f32⟩ : BufTy).Contents (Elt F) → (⟨S128x256, .f32⟩ : BufTy).Contents (Elt F) → (⟨S3000x256, .f32⟩ : BufTy).Contents (Elt F)),
    StableHlo.binary main_v85 main_v88 main_v89 (addf : (⟨S3000x256, .f32⟩ : BufTy).Contents (Elt F) → (⟨S3000x256, .f32⟩ : BufTy).Contents (Elt F) → (⟨S3000x256, .f32⟩ : BufTy).Contents (Elt F)),
    StableHlo.nullary main_c_16 (constantI S_ 32 0#32),
    StableHlo.unary main_c_16 main_v90 (broadcastInDim S400000 ![] bcast_S_S400000 : (⟨S_, .i32⟩ : BufTy).Contents (Elt F) → (⟨S400000, .i32⟩ : BufTy).Contents (Elt F)),
    StableHlo.binary main_arg20 main_v90 main_v91 (cmpi .slt : (⟨S400000, .i32⟩ : BufTy).Contents (Elt F) → (⟨S400000, .i32⟩ : BufTy).Contents (Elt F) → (⟨S400000, .i1⟩ : BufTy).Contents (Elt F)),
    StableHlo.nullary main_c_17 (constantI S_ 32 50000#32),
    StableHlo.unary main_c_17 main_v92 (broadcastInDim S400000 ![] bcast_S_S400000 : (⟨S_, .i32⟩ : BufTy).Contents (Elt F) → (⟨S400000, .i32⟩ : BufTy).Contents (Elt F)),
    StableHlo.binary main_arg20 main_v92 main_v93 (addi : (⟨S400000, .i32⟩ : BufTy).Contents (Elt F) → (⟨S400000, .i32⟩ : BufTy).Contents (Elt F) → (⟨S400000, .i32⟩ : BufTy).Contents (Elt F)),
    StableHlo.ternary main_v91 main_v93 main_arg20 main_v94 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v94 main_v95 (broadcastInDim S400000x1 ![0] bcast_S400000_S400000x1_0 : (⟨S400000, .i32⟩ : BufTy).Contents (Elt F) → (⟨S400000x1, .i32⟩ : BufTy).Contents (Elt F)),
    StableHlo.binary main_arg1 main_v95 main_v96 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_18 (constant S_ .f32 0x00000000#32),
    StableHlo.unary main_cst_18 main_v97 (broadcastInDim S10000x128 ![] bcast_S_S10000x128 : (⟨S_, .f32⟩ : BufTy).Contents (Elt F) → (⟨S10000x128, .f32⟩ : BufTy).Contents (Elt F)),
    StableHlo.unary main_arg21 main_v98 (broadcastInDim S400000x1 ![0] bcast_S400000_S400000x1_0 : (⟨S400000, .i32⟩ : BufTy).Contents (Elt F) → (⟨S400000x1, .i32⟩ : BufTy).Contents (Elt F)) ]

/-- The references window 1's operations write, in order. -/
abbrev ops_part1_W : List (Ref sig .tc) :=
  [main_v48, main_v49, main_v50, main_v51, main_v52, main_v53, main_v54, main_v55, main_v56, main_v57, main_v58, main_v59, main_c_10, main_v60, main_v61, main_c_11, main_v62, main_v63, main_v64, main_v65, main_v66, main_cst_12, main_v67, main_v68, main_v69, main_cst_13, main_v70, main_cst_14, main_v71, main_v72, main_v73, main_cst_15, main_v74, main_v75, main_v76, main_v77, main_v78, main_v79, main_v80, main_v81, main_v82, main_v83, main_v84, main_v85, main_v86, main_v87, main_v88, main_v89, main_c_16, main_v90, main_v91, main_c_17, main_v92, main_v93, main_v94, main_v95, main_v96, main_cst_18, main_v97, main_v98]

/-- The operations of @main's window 2, in order (121 … 180 of 886), each call replaced by the callee's operations over the call's buffers. -/
abbrev ops_part2 : List (HloOp τ sig (Elt F)) :=
  [ StableHlo.ternary main_v97 main_v98 main_v96 main_v99 ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F)),
    StableHlo.nullary main_cst_19 (constant S_ .f32 0x3F800000#32),
    StableHlo.unary main_cst_19 main_v100 (broadcastInDim S400000x1 ![] bcast_S_S400000x1 : (⟨S_, .f32⟩ : BufTy).Contents (Elt F) → (⟨S400000x1, .f32⟩ : BufTy).Contents (Elt F)),
    StableHlo.nullary main_cst_20 (constant S_ .f32 0x00000000#32),
    StableHlo.unary main_cst_20 main_v101 (broadcastInDim S10000x1 ![] bcast_S_S10000x1 : (⟨S_, .f32⟩ : BufTy).Contents (Elt F) → (⟨S10000x1, .f32⟩ : BufTy).Contents (Elt F)),
    StableHlo.unary main_arg21 main_v102 (broadcastInDim S400000x1 ![0] bcast_S400000_S400000x1_0 : (⟨S400000, .i32⟩ : BufTy).Contents (Elt F) → (⟨S400000x1, .i32⟩ : BufTy).Contents (Elt F)),
    StableHlo.ternary main_v101 main_v102 main_v100 main_v103 ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)),
    StableHlo.nullary main_cst_21 (constant S_ .f32 0x3F800000#32),
    StableHlo.unary main_cst_21 main_v104 (broadcastInDim S10000x1 ![] bcast_S_S10000x1 : (⟨S_, .f32⟩ : BufTy).Contents (Elt F) → (⟨S10000x1, .f32⟩ : BufTy).Contents (Elt F)),
    StableHlo.binary main_v103 main_v104 main_v105 (maximumf : (⟨S10000x1, .f32⟩ : BufTy).Contents (Elt F) → (⟨S10000x1, .f32⟩ : BufTy).Contents (Elt F) → (⟨S10000x1, .f32⟩ : BufTy).Contents (Elt F)),
    StableHlo.unary main_v105 main_v106 (broadcastInDim S10000x128 ![0, 1] bcast_S10000x1_S10000x128_0_1 : (⟨S10000x1, .f32⟩ : BufTy).Contents (Elt F) → (⟨S10000x128, .f32⟩ : BufTy).Contents (Elt F)),
    StableHlo.binary main_v99 main_v106 main_v107 (Host.divf : (⟨S10000x128, .f32⟩ : BufTy).Contents (Elt F) → (⟨S10000x128, .f32⟩ : BufTy).Contents (Elt F) → (⟨S10000x128, .f32⟩ : BufTy).Contents (Elt F)),
    StableHlo.unary main_arg4 main_v108 ((extractStridedSlice S1x128x256 ![3, 0, 0] · slices_S7x128x256_S1x128x256_3_0_0) : (⟨S7x128x256, .f32⟩ : BufTy).Contents (Elt F) → (⟨S1x128x256, .f32⟩ : BufTy).Contents (Elt F)),
    StableHlo.reshape main_v108 main_v109 rfl shapeCasts_S1x128x256_S128x256,
    StableHlo.binary main_v107 main_v109 main_v110 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.unary main_arg6 main_v111 ((extractStridedSlice S1x256 ![3, 0] · slices_S7x256_S1x256_3_0) : (⟨S7x256, .f32⟩ : BufTy).Contents (Elt F) → (⟨S1x256, .f32⟩ : BufTy).Contents (Elt F)),
    StableHlo.reshape main_v111 main_v112 rfl shapeCasts_S1x256_S256,
    StableHlo.unary main_v112 main_v113 (broadcastInDim S1x256 ![1] bcast_S256_S1x256_1 : (⟨S256, .f32⟩ : BufTy).Contents (Elt F) → (⟨S1x256, .f32⟩ : BufTy).Contents (Elt F)),
    StableHlo.unary main_v113 main_v114 (broadcastInDim S10000x256 ![0, 1] bcast_S1x256_S10000x256_0_1 : (⟨S1x256, .f32⟩ : BufTy).Contents (Elt F) → (⟨S10000x256, .f32⟩ : BufTy).Contents (Elt F)),
    StableHlo.binary main_v110 main_v114 main_v115 (addf : (⟨S10000x256, .f32⟩ : BufTy).Contents (Elt F) → (⟨S10000x256, .f32⟩ : BufTy).Contents (Elt F) → (⟨S10000x256, .f32⟩ : BufTy).Contents (Elt F)),
    StableHlo.unary main_arg5 main_v116 ((extractStridedSlice S1x128x256 ![3, 0, 0] · slices_S7x128x256_S1x128x256_3_0_0) : (⟨S7x128x256, .f32⟩ : BufTy).Contents (Elt F) → (⟨S1x128x256, .f32⟩ : BufTy).Contents (Elt F)),
    StableHlo.reshape main_v116 main_v117 rfl shapeCasts_S1x128x256_S128x256,
    StableHlo.binary main_arg2 main_v117 main_v118 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.binary main_v115 main_v118 main_v119 (addf : (⟨S10000x256, .f32⟩ : BufTy).Contents (Elt F) → (⟨S10000x256, .f32⟩ : BufTy).Contents (Elt F) → (⟨S10000x256, .f32⟩ : BufTy).Contents (Elt F)),
    StableHlo.binary main_v29 main_v119 main_v120 (addf : (⟨S10000x256, .f32⟩ : BufTy).Contents (Elt F) → (⟨S10000x256, .f32⟩ : BufTy).Contents (Elt F) → (⟨S10000x256, .f32⟩ : BufTy).Contents (Elt F)),
    StableHlo.nullary main_c_22 (constantI S_ 32 0#32),
    StableHlo.unary main_c_22 main_v121 (broadcastInDim S500000 ![] bcast_S_S500000 : (⟨S_, .i32⟩ : BufTy).Contents (Elt F) → (⟨S500000, .i32⟩ : BufTy).Contents (Elt F)),
    StableHlo.binary main_arg22 main_v121 main_v122 (cmpi .slt : (⟨S500000, .i32⟩ : BufTy).Contents (Elt F) → (⟨S500000, .i32⟩ : BufTy).Contents (Elt F) → (⟨S500000, .i1⟩ : BufTy).Contents (Elt F)),
    StableHlo.nullary main_c_23 (constantI S_ 32 10000#32),
    StableHlo.unary main_c_23 main_v123 (broadcastInDim S500000 ![] bcast_S_S500000 : (⟨S_, .i32⟩ : BufTy).Contents (Elt F) → (⟨S500000, .i32⟩ : BufTy).Contents (Elt F)),
    StableHlo.binary main_arg22 main_v123 main_v124 (addi : (⟨S500000, .i32⟩ : BufTy).Contents (Elt F) → (⟨S500000, .i32⟩ : BufTy).Contents (Elt F) → (⟨S500000, .i32⟩ : BufTy).Contents (Elt F)),
    StableHlo.ternary main_v122 main_v124 main_arg22 main_v125 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v125 main_v126 (broadcastInDim S500000x1 ![0] bcast_S500000_S500000x1_0 : (⟨S500000, .i32⟩ : BufTy).Contents (Elt F) → (⟨S500000x1, .i32⟩ : BufTy).Contents (Elt F)),
    StableHlo.binary main_arg2 main_v126 main_v127 ((fun x i => Host.gather gather_S10000x128_S500000x1_S500000x128_1_0_n_n_0_1_1128 x i) : (⟨S10000x128, .f32⟩ : BufTy).Contents (Elt F) → (⟨S500000x1, .i32⟩ : BufTy).Contents (Elt F) → (⟨S500000x128, .f32⟩ : BufTy).Contents (Elt F)),
    StableHlo.nullary main_cst_24 (constant S_ .f32 0x00000000#32),
    StableHlo.unary main_cst_24 main_v128 (broadcastInDim S20000x128 ![] bcast_S_S20000x128 : (⟨S_, .f32⟩ : BufTy).Contents (Elt F) → (⟨S20000x128, .f32⟩ : BufTy).Contents (Elt F)),
    StableHlo.unary main_arg23 main_v129 (broadcastInDim S500000x1 ![0] bcast_S500000_S500000x1_0 : (⟨S500000, .i32⟩ : BufTy).Contents (Elt F) → (⟨S500000x1, .i32⟩ : BufTy).Contents (Elt F)),
    StableHlo.ternary main_v128 main_v129 main_v127 main_v130 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    StableHlo.nullary main_cst_25 (constant S_ .f32 0x3F800000#32),
    StableHlo.unary main_cst_25 main_v131 (broadcastInDim S500000x1 ![] bcast_S_S500000x1 : (⟨S_, .f32⟩ : BufTy).Contents (Elt F) → (⟨S500000x1, .f32⟩ : BufTy).Contents (Elt F)),
    StableHlo.nullary main_cst_26 (constant S_ .f32 0x00000000#32),
    StableHlo.unary main_cst_26 main_v132 (broadcastInDim S20000x1 ![] bcast_S_S20000x1 : (⟨S_, .f32⟩ : BufTy).Contents (Elt F) → (⟨S20000x1, .f32⟩ : BufTy).Contents (Elt F)),
    StableHlo.unary main_arg23 main_v133 (broadcastInDim S500000x1 ![0] bcast_S500000_S500000x1_0 : (⟨S500000, .i32⟩ : BufTy).Contents (Elt F) → (⟨S500000x1, .i32⟩ : BufTy).Contents (Elt F)),
    StableHlo.ternary main_v132 main_v133 main_v131 main_v134 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    StableHlo.nullary main_cst_27 (constant S_ .f32 0x3F800000#32),
    StableHlo.unary main_cst_27 main_v135 (broadcastInDim S20000x1 ![] bcast_S_S20000x1 : (⟨S_, .f32⟩ : BufTy).Contents (Elt F) → (⟨S20000x1, .f32⟩ : BufTy).Contents (Elt F)),
    StableHlo.binary main_v134 main_v135 main_v136 (maximumf : (⟨S20000x1, .f32⟩ : BufTy).Contents (Elt F) → (⟨S20000x1, .f32⟩ : BufTy).Contents (Elt F) → (⟨S20000x1, .f32⟩ : BufTy).Contents (Elt F)),
    StableHlo.unary main_v136 main_v137 (broadcastInDim S20000x128 ![0, 1] bcast_S20000x1_S20000x128_0_1 : (⟨S20000x1, .f32⟩ : BufTy).Contents (Elt F) → (⟨S20000x128, .f32⟩ : BufTy).Contents (Elt F)),
    StableHlo.binary main_v130 main_v137 main_v138 (Host.divf : (⟨S20000x128, .f32⟩ : BufTy).Contents (Elt F) → (⟨S20000x128, .f32⟩ : BufTy).Contents (Elt F) → (⟨S20000x128, .f32⟩ : BufTy).Contents (Elt F)),
    StableHlo.unary main_arg4 main_v139 ((extractStridedSlice S1x128x256 ![4, 0, 0] · slices_S7x128x256_S1x128x256_4_0_0) : (⟨S7x128x256, .f32⟩ : BufTy).Contents (Elt F) → (⟨S1x128x256, .f32⟩ : BufTy).Contents (Elt F)),
    StableHlo.reshape main_v139 main_v140 rfl shapeCasts_S1x128x256_S128x256,
    StableHlo.binary main_v138 main_v140 main_v141 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.unary main_arg6 main_v142 ((extractStridedSlice S1x256 ![4, 0] · slices_S7x256_S1x256_4_0) : (⟨S7x256, .f32⟩ : BufTy).Contents (Elt F) → (⟨S1x256, .f32⟩ : BufTy).Contents (Elt F)),
    StableHlo.reshape main_v142 main_v143 rfl shapeCasts_S1x256_S256,
    StableHlo.unary main_v143 main_v144 (broadcastInDim S1x256 ![1] bcast_S256_S1x256_1 : (⟨S256, .f32⟩ : BufTy).Contents (Elt F) → (⟨S1x256, .f32⟩ : BufTy).Contents (Elt F)),
    StableHlo.unary main_v144 main_v145 (broadcastInDim S20000x256 ![0, 1] bcast_S1x256_S20000x256_0_1 : (⟨S1x256, .f32⟩ : BufTy).Contents (Elt F) → (⟨S20000x256, .f32⟩ : BufTy).Contents (Elt F)),
    StableHlo.binary main_v141 main_v145 main_v146 (addf : (⟨S20000x256, .f32⟩ : BufTy).Contents (Elt F) → (⟨S20000x256, .f32⟩ : BufTy).Contents (Elt F) → (⟨S20000x256, .f32⟩ : BufTy).Contents (Elt F)),
    StableHlo.unary main_arg5 main_v147 ((extractStridedSlice S1x128x256 ![4, 0, 0] · slices_S7x128x256_S1x128x256_4_0_0) : (⟨S7x128x256, .f32⟩ : BufTy).Contents (Elt F) → (⟨S1x128x256, .f32⟩ : BufTy).Contents (Elt F)),
    StableHlo.reshape main_v147 main_v148 rfl shapeCasts_S1x128x256_S128x256,
    StableHlo.binary main_arg0 main_v148 main_v149 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)) ]

/-- The references window 2's operations write, in order. -/
abbrev ops_part2_W : List (Ref sig .tc) :=
  [main_v99, main_cst_19, main_v100, main_cst_20, main_v101, main_v102, main_v103, main_cst_21, main_v104, main_v105, main_v106, main_v107, main_v108, main_v109, main_v110, main_v111, main_v112, main_v113, main_v114, main_v115, main_v116, main_v117, main_v118, main_v119, main_v120, main_c_22, main_v121, main_v122, main_c_23, main_v123, main_v124, main_v125, main_v126, main_v127, main_cst_24, main_v128, main_v129, main_v130, main_cst_25, main_v131, main_cst_26, main_v132, main_v133, main_v134, main_cst_27, main_v135, main_v136, main_v137, main_v138, main_v139, main_v140, main_v141, main_v142, main_v143, main_v144, main_v145, main_v146, main_v147, main_v148, main_v149]

/-- The operations of @main's window 3, in order (181 … 240 of 886), each call replaced by the callee's operations over the call's buffers. -/
abbrev ops_part3 : List (HloOp τ sig (Elt F)) :=
  [ StableHlo.binary main_v146 main_v149 main_v150 (addf : (⟨S20000x256, .f32⟩ : BufTy).Contents (Elt F) → (⟨S20000x256, .f32⟩ : BufTy).Contents (Elt F) → (⟨S20000x256, .f32⟩ : BufTy).Contents (Elt F)),
    StableHlo.nullary main_c_28 (constantI S_ 32 0#32),
    StableHlo.unary main_c_28 main_v151 (broadcastInDim S400000 ![] bcast_S_S400000 : (⟨S_, .i32⟩ : BufTy).Contents (Elt F) → (⟨S400000, .i32⟩ : BufTy).Contents (Elt F)),
    StableHlo.binary main_arg24 main_v151 main_v152 (cmpi .slt : (⟨S400000, .i32⟩ : BufTy).Contents (Elt F) → (⟨S400000, .i32⟩ : BufTy).Contents (Elt F) → (⟨S400000, .i1⟩ : BufTy).Contents (Elt F)),
    StableHlo.nullary main_c_29 (constantI S_ 32 50000#32),
    StableHlo.unary main_c_29 main_v153 (broadcastInDim S400000 ![] bcast_S_S400000 : (⟨S_, .i32⟩ : BufTy).Contents (Elt F) → (⟨S400000, .i32⟩ : BufTy).Contents (Elt F)),
    StableHlo.binary main_arg24 main_v153 main_v154 (addi : (⟨S400000, .i32⟩ : BufTy).Contents (Elt F) → (⟨S400000, .i32⟩ : BufTy).Contents (Elt F) → (⟨S400000, .i32⟩ : BufTy).Contents (Elt F)),
    StableHlo.ternary main_v152 main_v154 main_arg24 main_v155 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v155 main_v156 (broadcastInDim S400000x1 ![0] bcast_S400000_S400000x1_0 : (⟨S400000, .i32⟩ : BufTy).Contents (Elt F) → (⟨S400000x1, .i32⟩ : BufTy).Contents (Elt F)),
    StableHlo.binary main_arg1 main_v156 main_v157 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_30 (constant S_ .f32 0x00000000#32),
    StableHlo.unary main_cst_30 main_v158 (broadcastInDim S20000x128 ![] bcast_S_S20000x128 : (⟨S_, .f32⟩ : BufTy).Contents (Elt F) → (⟨S20000x128, .f32⟩ : BufTy).Contents (Elt F)),
    StableHlo.unary main_arg25 main_v159 (broadcastInDim S400000x1 ![0] bcast_S400000_S400000x1_0 : (⟨S400000, .i32⟩ : BufTy).Contents (Elt F) → (⟨S400000x1, .i32⟩ : BufTy).Contents (Elt F)),
    StableHlo.ternary main_v158 main_v159 main_v157 main_v160 ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)),
    StableHlo.nullary main_cst_31 (constant S_ .f32 0x3F800000#32),
    StableHlo.unary main_cst_31 main_v161 (broadcastInDim S400000x1 ![] bcast_S_S400000x1 : (⟨S_, .f32⟩ : BufTy).Contents (Elt F) → (⟨S400000x1, .f32⟩ : BufTy).Contents (Elt F)),
    StableHlo.nullary main_cst_32 (constant S_ .f32 0x00000000#32),
    StableHlo.unary main_cst_32 main_v162 (broadcastInDim S20000x1 ![] bcast_S_S20000x1 : (⟨S_, .f32⟩ : BufTy).Contents (Elt F) → (⟨S20000x1, .f32⟩ : BufTy).Contents (Elt F)),
    StableHlo.unary main_arg25 main_v163 (broadcastInDim S400000x1 ![0] bcast_S400000_S400000x1_0 : (⟨S400000, .i32⟩ : BufTy).Contents (Elt F) → (⟨S400000x1, .i32⟩ : BufTy).Contents (Elt F)),
    StableHlo.ternary main_v162 main_v163 main_v161 main_v164 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    StableHlo.nullary main_cst_33 (constant S_ .f32 0x3F800000#32),
    StableHlo.unary main_cst_33 main_v165 (broadcastInDim S20000x1 ![] bcast_S_S20000x1 : (⟨S_, .f32⟩ : BufTy).Contents (Elt F) → (⟨S20000x1, .f32⟩ : BufTy).Contents (Elt F)),
    StableHlo.binary main_v164 main_v165 main_v166 (maximumf : (⟨S20000x1, .f32⟩ : BufTy).Contents (Elt F) → (⟨S20000x1, .f32⟩ : BufTy).Contents (Elt F) → (⟨S20000x1, .f32⟩ : BufTy).Contents (Elt F)),
    StableHlo.unary main_v166 main_v167 (broadcastInDim S20000x128 ![0, 1] bcast_S20000x1_S20000x128_0_1 : (⟨S20000x1, .f32⟩ : BufTy).Contents (Elt F) → (⟨S20000x128, .f32⟩ : BufTy).Contents (Elt F)),
    StableHlo.binary main_v160 main_v167 main_v168 (Host.divf : (⟨S20000x128, .f32⟩ : BufTy).Contents (Elt F) → (⟨S20000x128, .f32⟩ : BufTy).Contents (Elt F) → (⟨S20000x128, .f32⟩ : BufTy).Contents (Elt F)),
    StableHlo.unary main_arg4 main_v169 ((extractStridedSlice S1x128x256 ![5, 0, 0] · slices_S7x128x256_S1x128x256_5_0_0) : (⟨S7x128x256, .f32⟩ : BufTy).Contents (Elt F) → (⟨S1x128x256, .f32⟩ : BufTy).Contents (Elt F)),
    StableHlo.reshape main_v169 main_v170 rfl shapeCasts_S1x128x256_S128x256,
    StableHlo.binary main_v168 main_v170 main_v171 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.unary main_arg6 main_v172 ((extractStridedSlice S1x256 ![5, 0] · slices_S7x256_S1x256_5_0) : (⟨S7x256, .f32⟩ : BufTy).Contents (Elt F) → (⟨S1x256, .f32⟩ : BufTy).Contents (Elt F)),
    StableHlo.reshape main_v172 main_v173 rfl shapeCasts_S1x256_S256,
    StableHlo.unary main_v173 main_v174 (broadcastInDim S1x256 ![1] bcast_S256_S1x256_1 : (⟨S256, .f32⟩ : BufTy).Contents (Elt F) → (⟨S1x256, .f32⟩ : BufTy).Contents (Elt F)),
    StableHlo.unary main_v174 main_v175 (broadcastInDim S20000x256 ![0, 1] bcast_S1x256_S20000x256_0_1 : (⟨S1x256, .f32⟩ : BufTy).Contents (Elt F) → (⟨S20000x256, .f32⟩ : BufTy).Contents (Elt F)),
    StableHlo.binary main_v171 main_v175 main_v176 (addf : (⟨S20000x256, .f32⟩ : BufTy).Contents (Elt F) → (⟨S20000x256, .f32⟩ : BufTy).Contents (Elt F) → (⟨S20000x256, .f32⟩ : BufTy).Contents (Elt F)),
    StableHlo.unary main_arg5 main_v177 ((extractStridedSlice S1x128x256 ![5, 0, 0] · slices_S7x128x256_S1x128x256_5_0_0) : (⟨S7x128x256, .f32⟩ : BufTy).Contents (Elt F) → (⟨S1x128x256, .f32⟩ : BufTy).Contents (Elt F)),
    StableHlo.reshape main_v177 main_v178 rfl shapeCasts_S1x128x256_S128x256,
    StableHlo.binary main_arg0 main_v178 main_v179 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.binary main_v176 main_v179 main_v180 (addf : (⟨S20000x256, .f32⟩ : BufTy).Contents (Elt F) → (⟨S20000x256, .f32⟩ : BufTy).Contents (Elt F) → (⟨S20000x256, .f32⟩ : BufTy).Contents (Elt F)),
    StableHlo.binary main_v150 main_v180 main_v181 (addf : (⟨S20000x256, .f32⟩ : BufTy).Contents (Elt F) → (⟨S20000x256, .f32⟩ : BufTy).Contents (Elt F) → (⟨S20000x256, .f32⟩ : BufTy).Contents (Elt F)),
    StableHlo.nullary main_c_34 (constantI S_ 32 0#32),
    StableHlo.unary main_c_34 main_v182 (broadcastInDim S150000 ![] bcast_S_S150000 : (⟨S_, .i32⟩ : BufTy).Contents (Elt F) → (⟨S150000, .i32⟩ : BufTy).Contents (Elt F)),
    StableHlo.binary main_arg26 main_v182 main_v183 (cmpi .slt : (⟨S150000, .i32⟩ : BufTy).Contents (Elt F) → (⟨S150000, .i32⟩ : BufTy).Contents (Elt F) → (⟨S150000, .i1⟩ : BufTy).Contents (Elt F)),
    StableHlo.nullary main_c_35 (constantI S_ 32 3000#32),
    StableHlo.unary main_c_35 main_v184 (broadcastInDim S150000 ![] bcast_S_S150000 : (⟨S_, .i32⟩ : BufTy).Contents (Elt F) → (⟨S150000, .i32⟩ : BufTy).Contents (Elt F)),
    StableHlo.binary main_arg26 main_v184 main_v185 (addi : (⟨S150000, .i32⟩ : BufTy).Contents (Elt F) → (⟨S150000, .i32⟩ : BufTy).Contents (Elt F) → (⟨S150000, .i32⟩ : BufTy).Contents (Elt F)),
    StableHlo.ternary main_v183 main_v185 main_arg26 main_v186 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v186 main_v187 (broadcastInDim S150000x1 ![0] bcast_S150000_S150000x1_0 : (⟨S150000, .i32⟩ : BufTy).Contents (Elt F) → (⟨S150000x1, .i32⟩ : BufTy).Contents (Elt F)),
    StableHlo.binary main_arg3 main_v187 main_v188 ((fun x i => Host.gather gather_S3000x128_S150000x1_S150000x128_1_0_n_n_0_1_1128 x i) : (⟨S3000x128, .f32⟩ : BufTy).Contents (Elt F) → (⟨S150000x1, .i32⟩ : BufTy).Contents (Elt F) → (⟨S150000x128, .f32⟩ : BufTy).Contents (Elt F)),
    StableHlo.nullary main_cst_36 (constant S_ .f32 0x00000000#32),
    StableHlo.unary main_cst_36 main_v189 (broadcastInDim S50000x128 ![] bcast_S_S50000x128 : (⟨S_, .f32⟩ : BufTy).Contents (Elt F) → (⟨S50000x128, .f32⟩ : BufTy).Contents (Elt F)),
    StableHlo.unary main_arg27 main_v190 (broadcastInDim S150000x1 ![0] bcast_S150000_S150000x1_0 : (⟨S150000, .i32⟩ : BufTy).Contents (Elt F) → (⟨S150000x1, .i32⟩ : BufTy).Contents (Elt F)),
    StableHlo.ternary main_v189 main_v190 main_v188 main_v191 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    StableHlo.nullary main_cst_37 (constant S_ .f32 0x3F800000#32),
    StableHlo.unary main_cst_37 main_v192 (broadcastInDim S150000x1 ![] bcast_S_S150000x1 : (⟨S_, .f32⟩ : BufTy).Contents (Elt F) → (⟨S150000x1, .f32⟩ : BufTy).Contents (Elt F)),
    StableHlo.nullary main_cst_38 (constant S_ .f32 0x00000000#32),
    StableHlo.unary main_cst_38 main_v193 (broadcastInDim S50000x1 ![] bcast_S_S50000x1 : (⟨S_, .f32⟩ : BufTy).Contents (Elt F) → (⟨S50000x1, .f32⟩ : BufTy).Contents (Elt F)),
    StableHlo.unary main_arg27 main_v194 (broadcastInDim S150000x1 ![0] bcast_S150000_S150000x1_0 : (⟨S150000, .i32⟩ : BufTy).Contents (Elt F) → (⟨S150000x1, .i32⟩ : BufTy).Contents (Elt F)),
    StableHlo.ternary main_v193 main_v194 main_v192 main_v195 ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)),
    StableHlo.nullary main_cst_39 (constant S_ .f32 0x3F800000#32),
    StableHlo.unary main_cst_39 main_v196 (broadcastInDim S50000x1 ![] bcast_S_S50000x1 : (⟨S_, .f32⟩ : BufTy).Contents (Elt F) → (⟨S50000x1, .f32⟩ : BufTy).Contents (Elt F)),
    StableHlo.binary main_v195 main_v196 main_v197 (maximumf : (⟨S50000x1, .f32⟩ : BufTy).Contents (Elt F) → (⟨S50000x1, .f32⟩ : BufTy).Contents (Elt F) → (⟨S50000x1, .f32⟩ : BufTy).Contents (Elt F)) ]

/-- The references window 3's operations write, in order. -/
abbrev ops_part3_W : List (Ref sig .tc) :=
  [main_v150, main_c_28, main_v151, main_v152, main_c_29, main_v153, main_v154, main_v155, main_v156, main_v157, main_cst_30, main_v158, main_v159, main_v160, main_cst_31, main_v161, main_cst_32, main_v162, main_v163, main_v164, main_cst_33, main_v165, main_v166, main_v167, main_v168, main_v169, main_v170, main_v171, main_v172, main_v173, main_v174, main_v175, main_v176, main_v177, main_v178, main_v179, main_v180, main_v181, main_c_34, main_v182, main_v183, main_c_35, main_v184, main_v185, main_v186, main_v187, main_v188, main_cst_36, main_v189, main_v190, main_v191, main_cst_37, main_v192, main_cst_38, main_v193, main_v194, main_v195, main_cst_39, main_v196, main_v197]

/-- The operations of @main's window 4, in order (241 … 344 of 886), each call replaced by the callee's operations over the call's buffers. -/
abbrev ops_part4 : List (HloOp τ sig (Elt F)) :=
  [ StableHlo.unary main_v197 main_v198 (broadcastInDim S50000x128 ![0, 1] bcast_S50000x1_S50000x128_0_1 : (⟨S50000x1, .f32⟩ : BufTy).Contents (Elt F) → (⟨S50000x128, .f32⟩ : BufTy).Contents (Elt F)),
    StableHlo.binary main_v191 main_v198 main_v199 (Host.divf : (⟨S50000x128, .f32⟩ : BufTy).Contents (Elt F) → (⟨S50000x128, .f32⟩ : BufTy).Contents (Elt F) → (⟨S50000x128, .f32⟩ : BufTy).Contents (Elt F)),
    StableHlo.unary main_arg4 main_v200 ((extractStridedSlice S1x128x256 ![6, 0, 0] · slices_S7x128x256_S1x128x256_6_0_0) : (⟨S7x128x256, .f32⟩ : BufTy).Contents (Elt F) → (⟨S1x128x256, .f32⟩ : BufTy).Contents (Elt F)),
    StableHlo.reshape main_v200 main_v201 rfl shapeCasts_S1x128x256_S128x256,
    StableHlo.binary main_v199 main_v201 main_v202 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg6 main_v203 ((extractStridedSlice S1x256 ![6, 0] · slices_S7x256_S1x256_6_0) : (⟨S7x256, .f32⟩ : BufTy).Contents (Elt F) → (⟨S1x256, .f32⟩ : BufTy).Contents (Elt F)),
    StableHlo.reshape main_v203 main_v204 rfl shapeCasts_S1x256_S256,
    StableHlo.unary main_v204 main_v205 (broadcastInDim S1x256 ![1] bcast_S256_S1x256_1 : (⟨S256, .f32⟩ : BufTy).Contents (Elt F) → (⟨S1x256, .f32⟩ : BufTy).Contents (Elt F)),
    StableHlo.unary main_v205 main_v206 (broadcastInDim S50000x256 ![0, 1] bcast_S1x256_S50000x256_0_1 : (⟨S1x256, .f32⟩ : BufTy).Contents (Elt F) → (⟨S50000x256, .f32⟩ : BufTy).Contents (Elt F)),
    StableHlo.binary main_v202 main_v206 main_v207 (addf : (⟨S50000x256, .f32⟩ : BufTy).Contents (Elt F) → (⟨S50000x256, .f32⟩ : BufTy).Contents (Elt F) → (⟨S50000x256, .f32⟩ : BufTy).Contents (Elt F)),
    StableHlo.unary main_arg5 main_v208 ((extractStridedSlice S1x128x256 ![6, 0, 0] · slices_S7x128x256_S1x128x256_6_0_0) : (⟨S7x128x256, .f32⟩ : BufTy).Contents (Elt F) → (⟨S1x128x256, .f32⟩ : BufTy).Contents (Elt F)),
    StableHlo.reshape main_v208 main_v209 rfl shapeCasts_S1x128x256_S128x256,
    StableHlo.binary main_arg1 main_v209 main_v210 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v207 main_v210 main_v211 (addf : (⟨S50000x256, .f32⟩ : BufTy).Contents (Elt F) → (⟨S50000x256, .f32⟩ : BufTy).Contents (Elt F) → (⟨S50000x256, .f32⟩ : BufTy).Contents (Elt F)),
    StableHlo.binary main_v59 main_v211 main_v212 (addf : (⟨S50000x256, .f32⟩ : BufTy).Contents (Elt F) → (⟨S50000x256, .f32⟩ : BufTy).Contents (Elt F) → (⟨S50000x256, .f32⟩ : BufTy).Contents (Elt F)),
    StableHlo.nullary main_cst_40 (constant S_ .f32 0x00000000#32),
    StableHlo.binary main_v181 main_cst_40 main_v213 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_41 (constant S_ .f32 0x469C4000#32),
    StableHlo.unary main_cst_41 main_v214 (broadcastInDim S256 ![] bcast_S_S256 : (⟨S_, .f32⟩ : BufTy).Contents (Elt F) → (⟨S256, .f32⟩ : BufTy).Contents (Elt F)),
    StableHlo.binary main_v213 main_v214 main_v215 (Host.divf : (⟨S256, .f32⟩ : BufTy).Contents (Elt F) → (⟨S256, .f32⟩ : BufTy).Contents (Elt F) → (⟨S256, .f32⟩ : BufTy).Contents (Elt F)),
    StableHlo.nullary main_c_42 (constantI S_ 32 0#32),
    StableHlo.TRef.nullary main_call0.cst (constant S_ .f32 0x00000000#32),
    StableHlo.TRef.binary (.of main_v181 : StableHlo.TRef sig ⟨S20000x256, .f32⟩) main_call0.cst main_call0.v0 (fun x v => Host.reduceAdd x v reducesTo_S20000x256_S256_d0 h_S_),
    StableHlo.TRef.unary main_call0.v0 main_call0.v1 (broadcastInDim S1x256 ![1] bcast_S256_S1x256_1),
    StableHlo.TRef.nullary main_call0.cst_0 (constant S_ .f32 0x469C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S20000x256 ![0, 1] bcast_S1x256_S20000x256_0_1),
    StableHlo.TRef.binary (.of main_v181 : StableHlo.TRef sig ⟨S20000x256, .f32⟩) main_call0.v4 main_call0.v5 subf,
    StableHlo.TRef.binary main_call0.v5 main_call0.v5 main_call0.v6 mulf,
    StableHlo.TRef.unary (.of main_c_42 : StableHlo.TRef sig ⟨S_, .i32⟩) main_call0.v7 (sitofp .f32),
    StableHlo.TRef.nullary main_call0.cst_1 (constant S_ .f32 0x469C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v215 main_v217 (broadcastInDim S1x256 ![1] bcast_S256_S1x256_1 : (⟨S256, .f32⟩ : BufTy).Contents (Elt F) → (⟨S1x256, .f32⟩ : BufTy).Contents (Elt F)),
    StableHlo.unary main_v217 main_v218 (broadcastInDim S20000x256 ![0, 1] bcast_S1x256_S20000x256_0_1 : (⟨S1x256, .f32⟩ : BufTy).Contents (Elt F) → (⟨S20000x256, .f32⟩ : BufTy).Contents (Elt F)),
    StableHlo.binary main_v181 main_v218 main_v219 (subf : (⟨S20000x256, .f32⟩ : BufTy).Contents (Elt F) → (⟨S20000x256, .f32⟩ : BufTy).Contents (Elt F) → (⟨S20000x256, .f32⟩ : BufTy).Contents (Elt F)),
    StableHlo.nullary main_cst_43 (constant S_ .f32 0x3727C5AC#32),
    StableHlo.unary main_cst_43 main_v220 (broadcastInDim S256 ![] bcast_S_S256 : (⟨S_, .f32⟩ : BufTy).Contents (Elt F) → (⟨S256, .f32⟩ : BufTy).Contents (Elt F)),
    StableHlo.binary main_v216 main_v220 main_v221 (addf : (⟨S256, .f32⟩ : BufTy).Contents (Elt F) → (⟨S256, .f32⟩ : BufTy).Contents (Elt F) → (⟨S256, .f32⟩ : BufTy).Contents (Elt F)),
    StableHlo.unary main_v221 main_v222 (Host.rsqrt : (⟨S256, .f32⟩ : BufTy).Contents (Elt F) → (⟨S256, .f32⟩ : BufTy).Contents (Elt F)),
    StableHlo.unary main_v222 main_v223 (broadcastInDim S1x256 ![1] bcast_S256_S1x256_1 : (⟨S256, .f32⟩ : BufTy).Contents (Elt F) → (⟨S1x256, .f32⟩ : BufTy).Contents (Elt F)),
    StableHlo.unary main_v223 main_v224 (broadcastInDim S20000x256 ![0, 1] bcast_S1x256_S20000x256_0_1 : (⟨S1x256, .f32⟩ : BufTy).Contents (Elt F) → (⟨S20000x256, .f32⟩ : BufTy).Contents (Elt F)),
    StableHlo.binary main_v219 main_v224 main_v225 (mulf : (⟨S20000x256, .f32⟩ : BufTy).Contents (Elt F) → (⟨S20000x256, .f32⟩ : BufTy).Contents (Elt F) → (⟨S20000x256, .f32⟩ : BufTy).Contents (Elt F)),
    StableHlo.unary main_arg10 main_v226 (broadcastInDim S1x256 ![1] bcast_S256_S1x256_1 : (⟨S256, .f32⟩ : BufTy).Contents (Elt F) → (⟨S1x256, .f32⟩ : BufTy).Contents (Elt F)),
    StableHlo.unary main_v226 main_v227 (broadcastInDim S20000x256 ![0, 1] bcast_S1x256_S20000x256_0_1 : (⟨S1x256, .f32⟩ : BufTy).Contents (Elt F) → (⟨S20000x256, .f32⟩ : BufTy).Contents (Elt F)),
    StableHlo.binary main_v225 main_v227 main_v228 (mulf : (⟨S20000x256, .f32⟩ : BufTy).Contents (Elt F) → (⟨S20000x256, .f32⟩ : BufTy).Contents (Elt F) → (⟨S20000x256, .f32⟩ : BufTy).Contents (Elt F)),
    StableHlo.unary main_arg11 main_v229 (broadcastInDim S1x256 ![1] bcast_S256_S1x256_1 : (⟨S256, .f32⟩ : BufTy).Contents (Elt F) → (⟨S1x256, .f32⟩ : BufTy).Contents (Elt F)),
    StableHlo.unary main_v229 main_v230 (broadcastInDim S20000x256 ![0, 1] bcast_S1x256_S20000x256_0_1 : (⟨S1x256, .f32⟩ : BufTy).Contents (Elt F) → (⟨S20000x256, .f32⟩ : BufTy).Contents (Elt F)),
    StableHlo.binary main_v228 main_v230 main_v231 (addf : (⟨S20000x256, .f32⟩ : BufTy).Contents (Elt F) → (⟨S20000x256, .f32⟩ : BufTy).Contents (Elt F) → (⟨S20000x256, .f32⟩ : BufTy).Contents (Elt F)),
    StableHlo.TRef.nullary main_call1.cst (constant S_ .f32 0x00000000#32),
    StableHlo.TRef.unary main_call1.cst main_call1.v0 (broadcastInDim S20000x256 ![] bcast_S_S20000x256),
    StableHlo.TRef.binary (.of main_v231 : StableHlo.TRef sig ⟨S20000x256, .f32⟩) main_call1.v0 main_call1.v1 maximumf,
    StableHlo.nullary main_cst_44 (constant S_ .f32 0x00000000#32),
    StableHlo.binary main_v212 main_cst_44 main_v233 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_45 (constant S_ .f32 0x47435000#32),
    StableHlo.unary main_cst_45 main_v234 (broadcastInDim S256 ![] bcast_S_S256 : (⟨S_, .f32⟩ : BufTy).Contents (Elt F) → (⟨S256, .f32⟩ : BufTy).Contents (Elt F)),
    StableHlo.binary main_v233 main_v234 main_v235 (Host.divf : (⟨S256, .f32⟩ : BufTy).Contents (Elt F) → (⟨S256, .f32⟩ : BufTy).Contents (Elt F) → (⟨S256, .f32⟩ : BufTy).Contents (Elt F)),
    StableHlo.nullary main_c_46 (constantI S_ 32 0#32),
    StableHlo.TRef.nullary main_call2.cst (constant S_ .f32 0x00000000#32),
    StableHlo.TRef.binary (.of main_v212 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v212 : StableHlo.TRef sig ⟨S50000x256, .f32⟩) main_call2.v4 main_call2.v5 subf,
    StableHlo.TRef.binary main_call2.v5 main_call2.v5 main_call2.v6 mulf,
    StableHlo.TRef.unary (.of main_c_46 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v235 main_v237 (broadcastInDim S1x256 ![1] bcast_S256_S1x256_1 : (⟨S256, .f32⟩ : BufTy).Contents (Elt F) → (⟨S1x256, .f32⟩ : BufTy).Contents (Elt F)),
    StableHlo.unary main_v237 main_v238 (broadcastInDim S50000x256 ![0, 1] bcast_S1x256_S50000x256_0_1 : (⟨S1x256, .f32⟩ : BufTy).Contents (Elt F) → (⟨S50000x256, .f32⟩ : BufTy).Contents (Elt F)),
    StableHlo.binary main_v212 main_v238 main_v239 (subf : (⟨S50000x256, .f32⟩ : BufTy).Contents (Elt F) → (⟨S50000x256, .f32⟩ : BufTy).Contents (Elt F) → (⟨S50000x256, .f32⟩ : BufTy).Contents (Elt F)),
    StableHlo.nullary main_cst_47 (constant S_ .f32 0x3727C5AC#32),
    StableHlo.unary main_cst_47 main_v240 (broadcastInDim S256 ![] bcast_S_S256 : (⟨S_, .f32⟩ : BufTy).Contents (Elt F) → (⟨S256, .f32⟩ : BufTy).Contents (Elt F)),
    StableHlo.binary main_v236 main_v240 main_v241 (addf : (⟨S256, .f32⟩ : BufTy).Contents (Elt F) → (⟨S256, .f32⟩ : BufTy).Contents (Elt F) → (⟨S256, .f32⟩ : BufTy).Contents (Elt F)),
    StableHlo.unary main_v241 main_v242 (Host.rsqrt : (⟨S256, .f32⟩ : BufTy).Contents (Elt F) → (⟨S256, .f32⟩ : BufTy).Contents (Elt F)),
    StableHlo.unary main_v242 main_v243 (broadcastInDim S1x256 ![1] bcast_S256_S1x256_1 : (⟨S256, .f32⟩ : BufTy).Contents (Elt F) → (⟨S1x256, .f32⟩ : BufTy).Contents (Elt F)),
    StableHlo.unary main_v243 main_v244 (broadcastInDim S50000x256 ![0, 1] bcast_S1x256_S50000x256_0_1 : (⟨S1x256, .f32⟩ : BufTy).Contents (Elt F) → (⟨S50000x256, .f32⟩ : BufTy).Contents (Elt F)),
    StableHlo.binary main_v239 main_v244 main_v245 (mulf : (⟨S50000x256, .f32⟩ : BufTy).Contents (Elt F) → (⟨S50000x256, .f32⟩ : BufTy).Contents (Elt F) → (⟨S50000x256, .f32⟩ : BufTy).Contents (Elt F)),
    StableHlo.unary main_arg10 main_v246 (broadcastInDim S1x256 ![1] bcast_S256_S1x256_1 : (⟨S256, .f32⟩ : BufTy).Contents (Elt F) → (⟨S1x256, .f32⟩ : BufTy).Contents (Elt F)),
    StableHlo.unary main_v246 main_v247 (broadcastInDim S50000x256 ![0, 1] bcast_S1x256_S50000x256_0_1 : (⟨S1x256, .f32⟩ : BufTy).Contents (Elt F) → (⟨S50000x256, .f32⟩ : BufTy).Contents (Elt F)),
    StableHlo.binary main_v245 main_v247 main_v248 (mulf : (⟨S50000x256, .f32⟩ : BufTy).Contents (Elt F) → (⟨S50000x256, .f32⟩ : BufTy).Contents (Elt F) → (⟨S50000x256, .f32⟩ : BufTy).Contents (Elt F)),
    StableHlo.unary main_arg11 main_v249 (broadcastInDim S1x256 ![1] bcast_S256_S1x256_1 : (⟨S256, .f32⟩ : BufTy).Contents (Elt F) → (⟨S1x256, .f32⟩ : BufTy).Contents (Elt F)) ]

/-- The references window 4's operations write, in order. -/
abbrev ops_part4_W : List (Ref sig .tc) :=
  [main_v198, main_v199, main_v200, main_v201, main_v202, main_v203, main_v204, main_v205, main_v206, main_v207, main_v208, main_v209, main_v210, main_v211, main_v212, main_cst_40, main_v213, main_cst_41, main_v214, main_v215, main_c_42, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v216, main_v217, main_v218, main_v219, main_cst_43, main_v220, main_v221, main_v222, main_v223, main_v224, main_v225, main_v226, main_v227, main_v228, main_v229, main_v230, main_v231, main_call1_cst, main_call1_v0, main_v232, main_cst_44, main_v233, main_cst_45, main_v234, main_v235, main_c_46, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v236, main_v237, main_v238, main_v239, main_cst_47, main_v240, main_v241, main_v242, main_v243, main_v244, main_v245, main_v246, main_v247, main_v248, main_v249]

/-- The operations of @main's window 5, in order (345 … 452 of 886), each call replaced by the callee's operations over the call's buffers. -/
abbrev ops_part5 : List (HloOp τ sig (Elt F)) :=
  [ StableHlo.unary main_v249 main_v250 (broadcastInDim S50000x256 ![0, 1] bcast_S1x256_S50000x256_0_1 : (⟨S1x256, .f32⟩ : BufTy).Contents (Elt F) → (⟨S50000x256, .f32⟩ : BufTy).Contents (Elt F)),
    StableHlo.binary main_v248 main_v250 main_v251 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v251 : StableHlo.TRef sig ⟨S50000x256, .f32⟩) main_call3.v0 main_call3.v1 maximumf,
    StableHlo.nullary main_cst_48 (constant S_ .f32 0x00000000#32),
    StableHlo.binary main_v120 main_cst_48 main_v253 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_49 (constant S_ .f32 0x461C4000#32),
    StableHlo.unary main_cst_49 main_v254 (broadcastInDim S256 ![] bcast_S_S256 : (⟨S_, .f32⟩ : BufTy).Contents (Elt F) → (⟨S256, .f32⟩ : BufTy).Contents (Elt F)),
    StableHlo.binary main_v253 main_v254 main_v255 (Host.divf : (⟨S256, .f32⟩ : BufTy).Contents (Elt F) → (⟨S256, .f32⟩ : BufTy).Contents (Elt F) → (⟨S256, .f32⟩ : BufTy).Contents (Elt F)),
    StableHlo.nullary main_c_50 (constantI S_ 32 0#32),
    StableHlo.TRef.nullary main_call4.cst (constant S_ .f32 0x00000000#32),
    StableHlo.TRef.binary (.of main_v120 : StableHlo.TRef sig ⟨S10000x256, .f32⟩) main_call4.cst main_call4.v0 (fun x v => Host.reduceAdd x v reducesTo_S10000x256_S256_d0 h_S_),
    StableHlo.TRef.unary main_call4.v0 main_call4.v1 (broadcastInDim S1x256 ![1] bcast_S256_S1x256_1),
    StableHlo.TRef.nullary main_call4.cst_0 (constant S_ .f32 0x461C4000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S10000x256 ![0, 1] bcast_S1x256_S10000x256_0_1),
    StableHlo.TRef.binary (.of main_v120 : StableHlo.TRef sig ⟨S10000x256, .f32⟩) main_call4.v4 main_call4.v5 subf,
    StableHlo.TRef.binary main_call4.v5 main_call4.v5 main_call4.v6 mulf,
    StableHlo.TRef.unary (.of main_c_50 : StableHlo.TRef sig ⟨S_, .i32⟩) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v255 main_v257 (broadcastInDim S1x256 ![1] bcast_S256_S1x256_1 : (⟨S256, .f32⟩ : BufTy).Contents (Elt F) → (⟨S1x256, .f32⟩ : BufTy).Contents (Elt F)),
    StableHlo.unary main_v257 main_v258 (broadcastInDim S10000x256 ![0, 1] bcast_S1x256_S10000x256_0_1 : (⟨S1x256, .f32⟩ : BufTy).Contents (Elt F) → (⟨S10000x256, .f32⟩ : BufTy).Contents (Elt F)),
    StableHlo.binary main_v120 main_v258 main_v259 (subf : (⟨S10000x256, .f32⟩ : BufTy).Contents (Elt F) → (⟨S10000x256, .f32⟩ : BufTy).Contents (Elt F) → (⟨S10000x256, .f32⟩ : BufTy).Contents (Elt F)),
    StableHlo.nullary main_cst_51 (constant S_ .f32 0x3727C5AC#32),
    StableHlo.unary main_cst_51 main_v260 (broadcastInDim S256 ![] bcast_S_S256 : (⟨S_, .f32⟩ : BufTy).Contents (Elt F) → (⟨S256, .f32⟩ : BufTy).Contents (Elt F)),
    StableHlo.binary main_v256 main_v260 main_v261 (addf : (⟨S256, .f32⟩ : BufTy).Contents (Elt F) → (⟨S256, .f32⟩ : BufTy).Contents (Elt F) → (⟨S256, .f32⟩ : BufTy).Contents (Elt F)),
    StableHlo.unary main_v261 main_v262 (Host.rsqrt : (⟨S256, .f32⟩ : BufTy).Contents (Elt F) → (⟨S256, .f32⟩ : BufTy).Contents (Elt F)),
    StableHlo.unary main_v262 main_v263 (broadcastInDim S1x256 ![1] bcast_S256_S1x256_1 : (⟨S256, .f32⟩ : BufTy).Contents (Elt F) → (⟨S1x256, .f32⟩ : BufTy).Contents (Elt F)),
    StableHlo.unary main_v263 main_v264 (broadcastInDim S10000x256 ![0, 1] bcast_S1x256_S10000x256_0_1 : (⟨S1x256, .f32⟩ : BufTy).Contents (Elt F) → (⟨S10000x256, .f32⟩ : BufTy).Contents (Elt F)),
    StableHlo.binary main_v259 main_v264 main_v265 (mulf : (⟨S10000x256, .f32⟩ : BufTy).Contents (Elt F) → (⟨S10000x256, .f32⟩ : BufTy).Contents (Elt F) → (⟨S10000x256, .f32⟩ : BufTy).Contents (Elt F)),
    StableHlo.unary main_arg10 main_v266 (broadcastInDim S1x256 ![1] bcast_S256_S1x256_1 : (⟨S256, .f32⟩ : BufTy).Contents (Elt F) → (⟨S1x256, .f32⟩ : BufTy).Contents (Elt F)),
    StableHlo.unary main_v266 main_v267 (broadcastInDim S10000x256 ![0, 1] bcast_S1x256_S10000x256_0_1 : (⟨S1x256, .f32⟩ : BufTy).Contents (Elt F) → (⟨S10000x256, .f32⟩ : BufTy).Contents (Elt F)),
    StableHlo.binary main_v265 main_v267 main_v268 (mulf : (⟨S10000x256, .f32⟩ : BufTy).Contents (Elt F) → (⟨S10000x256, .f32⟩ : BufTy).Contents (Elt F) → (⟨S10000x256, .f32⟩ : BufTy).Contents (Elt F)),
    StableHlo.unary main_arg11 main_v269 (broadcastInDim S1x256 ![1] bcast_S256_S1x256_1 : (⟨S256, .f32⟩ : BufTy).Contents (Elt F) → (⟨S1x256, .f32⟩ : BufTy).Contents (Elt F)),
    StableHlo.unary main_v269 main_v270 (broadcastInDim S10000x256 ![0, 1] bcast_S1x256_S10000x256_0_1 : (⟨S1x256, .f32⟩ : BufTy).Contents (Elt F) → (⟨S10000x256, .f32⟩ : BufTy).Contents (Elt F)),
    StableHlo.binary main_v268 main_v270 main_v271 (addf : (⟨S10000x256, .f32⟩ : BufTy).Contents (Elt F) → (⟨S10000x256, .f32⟩ : BufTy).Contents (Elt F) → (⟨S10000x256, .f32⟩ : BufTy).Contents (Elt F)),
    StableHlo.TRef.nullary main_call5.cst (constant S_ .f32 0x00000000#32),
    StableHlo.TRef.unary main_call5.cst main_call5.v0 (broadcastInDim S10000x256 ![] bcast_S_S10000x256),
    StableHlo.TRef.binary (.of main_v271 : StableHlo.TRef sig ⟨S10000x256, .f32⟩) main_call5.v0 main_call5.v1 maximumf,
    StableHlo.nullary main_cst_52 (constant S_ .f32 0x00000000#32),
    StableHlo.binary main_v89 main_cst_52 main_v273 ((fun x v => Host.reduceAdd x v reducesTo_S3000x256_S256_d0 h_S_) : (⟨S3000x256, .f32⟩ : BufTy).Contents (Elt F) → (⟨S_, .f32⟩ : BufTy).Contents (Elt F) → (⟨S256, .f32⟩ : BufTy).Contents (Elt F)),
    StableHlo.nullary main_cst_53 (constant S_ .f32 0x453B8000#32),
    StableHlo.unary main_cst_53 main_v274 (broadcastInDim S256 ![] bcast_S_S256 : (⟨S_, .f32⟩ : BufTy).Contents (Elt F) → (⟨S256, .f32⟩ : BufTy).Contents (Elt F)),
    StableHlo.binary main_v273 main_v274 main_v275 (Host.divf : (⟨S256, .f32⟩ : BufTy).Contents (Elt F) → (⟨S256, .f32⟩ : BufTy).Contents (Elt F) → (⟨S256, .f32⟩ : BufTy).Contents (Elt F)),
    StableHlo.nullary main_c_54 (constantI S_ 32 0#32),
    StableHlo.TRef.nullary main_call6.cst (constant S_ .f32 0x00000000#32),
    StableHlo.TRef.binary (.of main_v89 : StableHlo.TRef sig ⟨S3000x256, .f32⟩) main_call6.cst main_call6.v0 (fun x v => Host.reduceAdd x v reducesTo_S3000x256_S256_d0 h_S_),
    StableHlo.TRef.unary main_call6.v0 main_call6.v1 (broadcastInDim S1x256 ![1] bcast_S256_S1x256_1),
    StableHlo.TRef.nullary main_call6.cst_0 (constant S_ .f32 0x453B8000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S3000x256 ![0, 1] bcast_S1x256_S3000x256_0_1),
    StableHlo.TRef.binary (.of main_v89 : StableHlo.TRef sig ⟨S3000x256, .f32⟩) main_call6.v4 main_call6.v5 subf,
    StableHlo.TRef.binary main_call6.v5 main_call6.v5 main_call6.v6 mulf,
    StableHlo.TRef.unary (.of main_c_54 : StableHlo.TRef sig ⟨S_, .i32⟩) main_call6.v7 (sitofp .f32),
    StableHlo.TRef.nullary main_call6.cst_1 (constant S_ .f32 0x453B8000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S3000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v275 main_v277 (broadcastInDim S1x256 ![1] bcast_S256_S1x256_1 : (⟨S256, .f32⟩ : BufTy).Contents (Elt F) → (⟨S1x256, .f32⟩ : BufTy).Contents (Elt F)),
    StableHlo.unary main_v277 main_v278 (broadcastInDim S3000x256 ![0, 1] bcast_S1x256_S3000x256_0_1 : (⟨S1x256, .f32⟩ : BufTy).Contents (Elt F) → (⟨S3000x256, .f32⟩ : BufTy).Contents (Elt F)),
    StableHlo.binary main_v89 main_v278 main_v279 (subf : (⟨S3000x256, .f32⟩ : BufTy).Contents (Elt F) → (⟨S3000x256, .f32⟩ : BufTy).Contents (Elt F) → (⟨S3000x256, .f32⟩ : BufTy).Contents (Elt F)),
    StableHlo.nullary main_cst_55 (constant S_ .f32 0x3727C5AC#32),
    StableHlo.unary main_cst_55 main_v280 (broadcastInDim S256 ![] bcast_S_S256 : (⟨S_, .f32⟩ : BufTy).Contents (Elt F) → (⟨S256, .f32⟩ : BufTy).Contents (Elt F)),
    StableHlo.binary main_v276 main_v280 main_v281 (addf : (⟨S256, .f32⟩ : BufTy).Contents (Elt F) → (⟨S256, .f32⟩ : BufTy).Contents (Elt F) → (⟨S256, .f32⟩ : BufTy).Contents (Elt F)),
    StableHlo.unary main_v281 main_v282 (Host.rsqrt : (⟨S256, .f32⟩ : BufTy).Contents (Elt F) → (⟨S256, .f32⟩ : BufTy).Contents (Elt F)),
    StableHlo.unary main_v282 main_v283 (broadcastInDim S1x256 ![1] bcast_S256_S1x256_1 : (⟨S256, .f32⟩ : BufTy).Contents (Elt F) → (⟨S1x256, .f32⟩ : BufTy).Contents (Elt F)),
    StableHlo.unary main_v283 main_v284 (broadcastInDim S3000x256 ![0, 1] bcast_S1x256_S3000x256_0_1 : (⟨S1x256, .f32⟩ : BufTy).Contents (Elt F) → (⟨S3000x256, .f32⟩ : BufTy).Contents (Elt F)),
    StableHlo.binary main_v279 main_v284 main_v285 (mulf : (⟨S3000x256, .f32⟩ : BufTy).Contents (Elt F) → (⟨S3000x256, .f32⟩ : BufTy).Contents (Elt F) → (⟨S3000x256, .f32⟩ : BufTy).Contents (Elt F)),
    StableHlo.unary main_arg10 main_v286 (broadcastInDim S1x256 ![1] bcast_S256_S1x256_1 : (⟨S256, .f32⟩ : BufTy).Contents (Elt F) → (⟨S1x256, .f32⟩ : BufTy).Contents (Elt F)),
    StableHlo.unary main_v286 main_v287 (broadcastInDim S3000x256 ![0, 1] bcast_S1x256_S3000x256_0_1 : (⟨S1x256, .f32⟩ : BufTy).Contents (Elt F) → (⟨S3000x256, .f32⟩ : BufTy).Contents (Elt F)),
    StableHlo.binary main_v285 main_v287 main_v288 (mulf : (⟨S3000x256, .f32⟩ : BufTy).Contents (Elt F) → (⟨S3000x256, .f32⟩ : BufTy).Contents (Elt F) → (⟨S3000x256, .f32⟩ : BufTy).Contents (Elt F)),
    StableHlo.unary main_arg11 main_v289 (broadcastInDim S1x256 ![1] bcast_S256_S1x256_1 : (⟨S256, .f32⟩ : BufTy).Contents (Elt F) → (⟨S1x256, .f32⟩ : BufTy).Contents (Elt F)),
    StableHlo.unary main_v289 main_v290 (broadcastInDim S3000x256 ![0, 1] bcast_S1x256_S3000x256_0_1 : (⟨S1x256, .f32⟩ : BufTy).Contents (Elt F) → (⟨S3000x256, .f32⟩ : BufTy).Contents (Elt F)),
    StableHlo.binary main_v288 main_v290 main_v291 (addf : (⟨S3000x256, .f32⟩ : BufTy).Contents (Elt F) → (⟨S3000x256, .f32⟩ : BufTy).Contents (Elt F) → (⟨S3000x256, .f32⟩ : BufTy).Contents (Elt F)),
    StableHlo.TRef.nullary main_call7.cst (constant S_ .f32 0x00000000#32),
    StableHlo.TRef.unary main_call7.cst main_call7.v0 (broadcastInDim S3000x256 ![] bcast_S_S3000x256),
    StableHlo.TRef.binary (.of main_v291 : StableHlo.TRef sig ⟨S3000x256, .f32⟩) main_call7.v0 main_call7.v1 maximumf,
    StableHlo.nullary main_c_56 (constantI S_ 32 0#32),
    StableHlo.unary main_c_56 main_v293 (broadcastInDim S500000 ![] bcast_S_S500000 : (⟨S_, .i32⟩ : BufTy).Contents (Elt F) → (⟨S500000, .i32⟩ : BufTy).Contents (Elt F)),
    StableHlo.binary main_arg14 main_v293 main_v294 (cmpi .slt : (⟨S500000, .i32⟩ : BufTy).Contents (Elt F) → (⟨S500000, .i32⟩ : BufTy).Contents (Elt F) → (⟨S500000, .i1⟩ : BufTy).Contents (Elt F)),
    StableHlo.nullary main_c_57 (constantI S_ 32 20000#32),
    StableHlo.unary main_c_57 main_v295 (broadcastInDim S500000 ![] bcast_S_S500000 : (⟨S_, .i32⟩ : BufTy).Contents (Elt F) → (⟨S500000, .i32⟩ : BufTy).Contents (Elt F)),
    StableHlo.binary main_arg14 main_v295 main_v296 (addi : (⟨S500000, .i32⟩ : BufTy).Contents (Elt F) → (⟨S500000, .i32⟩ : BufTy).Contents (Elt F) → (⟨S500000, .i32⟩ : BufTy).Contents (Elt F)),
    StableHlo.ternary main_v294 main_v296 main_arg14 main_v297 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v297 main_v298 (broadcastInDim S500000x1 ![0] bcast_S500000_S500000x1_0 : (⟨S500000, .i32⟩ : BufTy).Contents (Elt F) → (⟨S500000x1, .i32⟩ : BufTy).Contents (Elt F)),
    StableHlo.binary main_v232 main_v298 main_v299 ((fun x i => Host.gather gather_S20000x256_S500000x1_S500000x256_1_0_n_n_0_1_1256 x i) : (⟨S20000x256, .f32⟩ : BufTy).Contents (Elt F) → (⟨S500000x1, .i32⟩ : BufTy).Contents (Elt F) → (⟨S500000x256, .f32⟩ : BufTy).Contents (Elt F)) ]

/-- The references window 5's operations write, in order. -/
abbrev ops_part5_W : List (Ref sig .tc) :=
  [main_v250, main_v251, main_call3_cst, main_call3_v0, main_v252, main_cst_48, main_v253, main_cst_49, main_v254, main_v255, main_c_50, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v256, main_v257, main_v258, main_v259, main_cst_51, main_v260, main_v261, main_v262, main_v263, main_v264, main_v265, main_v266, main_v267, main_v268, main_v269, main_v270, main_v271, main_call5_cst, main_call5_v0, main_v272, main_cst_52, main_v273, main_cst_53, main_v274, main_v275, main_c_54, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v276, main_v277, main_v278, main_v279, main_cst_55, main_v280, main_v281, main_v282, main_v283, main_v284, main_v285, main_v286, main_v287, main_v288, main_v289, main_v290, main_v291, main_call7_cst, main_call7_v0, main_v292, main_c_56, main_v293, main_v294, main_c_57, main_v295, main_v296, main_v297, main_v298, main_v299]

/-- The operations of @main's window 6, in order (453 … 512 of 886), each call replaced by the callee's operations over the call's buffers. -/
abbrev ops_part6 : List (HloOp τ sig (Elt F)) :=
  [ StableHlo.nullary main_cst_58 (constant S_ .f32 0x00000000#32),
    StableHlo.unary main_cst_58 main_v300 (broadcastInDim S10000x256 ![] bcast_S_S10000x256 : (⟨S_, .f32⟩ : BufTy).Contents (Elt F) → (⟨S10000x256, .f32⟩ : BufTy).Contents (Elt F)),
    StableHlo.unary main_arg15 main_v301 (broadcastInDim S500000x1 ![0] bcast_S500000_S500000x1_0 : (⟨S500000, .i32⟩ : BufTy).Contents (Elt F) → (⟨S500000x1, .i32⟩ : BufTy).Contents (Elt F)),
    StableHlo.ternary main_v300 main_v301 main_v299 main_v302 ((fun x i u => Host.scatterAdd scatter_S10000x256_S500000x1_S500000x256_1_0_0_1 x i u) : (⟨S10000x256, .f32⟩ : BufTy).Contents (Elt F) → (⟨S500000x1, .i32⟩ : BufTy).Contents (Elt F) → (⟨S500000x256, .f32⟩ : BufTy).Contents (Elt F) → (⟨S10000x256, .f32⟩ : BufTy).Contents (Elt F)),
    StableHlo.nullary main_cst_59 (constant S_ .f32 0x3F800000#32),
    StableHlo.unary main_cst_59 main_v303 (broadcastInDim S500000x1 ![] bcast_S_S500000x1 : (⟨S_, .f32⟩ : BufTy).Contents (Elt F) → (⟨S500000x1, .f32⟩ : BufTy).Contents (Elt F)),
    StableHlo.nullary main_cst_60 (constant S_ .f32 0x00000000#32),
    StableHlo.unary main_cst_60 main_v304 (broadcastInDim S10000x1 ![] bcast_S_S10000x1 : (⟨S_, .f32⟩ : BufTy).Contents (Elt F) → (⟨S10000x1, .f32⟩ : BufTy).Contents (Elt F)),
    StableHlo.unary main_arg15 main_v305 (broadcastInDim S500000x1 ![0] bcast_S500000_S500000x1_0 : (⟨S500000, .i32⟩ : BufTy).Contents (Elt F) → (⟨S500000x1, .i32⟩ : BufTy).Contents (Elt F)),
    StableHlo.ternary main_v304 main_v305 main_v303 main_v306 ((fun x i u => Host.scatterAdd scatter_S10000x1_S500000x1_S500000x1_1_0_0_1 x i u) : (⟨S10000x1, .f32⟩ : BufTy).Contents (Elt F) → (⟨S500000x1, .i32⟩ : BufTy).Contents (Elt F) → (⟨S500000x1, .f32⟩ : BufTy).Contents (Elt F) → (⟨S10000x1, .f32⟩ : BufTy).Contents (Elt F)),
    StableHlo.nullary main_cst_61 (constant S_ .f32 0x3F800000#32),
    StableHlo.unary main_cst_61 main_v307 (broadcastInDim S10000x1 ![] bcast_S_S10000x1 : (⟨S_, .f32⟩ : BufTy).Contents (Elt F) → (⟨S10000x1, .f32⟩ : BufTy).Contents (Elt F)),
    StableHlo.binary main_v306 main_v307 main_v308 (maximumf : (⟨S10000x1, .f32⟩ : BufTy).Contents (Elt F) → (⟨S10000x1, .f32⟩ : BufTy).Contents (Elt F) → (⟨S10000x1, .f32⟩ : BufTy).Contents (Elt F)),
    StableHlo.unary main_v308 main_v309 (broadcastInDim S10000x256 ![0, 1] bcast_S10000x1_S10000x256_0_1 : (⟨S10000x1, .f32⟩ : BufTy).Contents (Elt F) → (⟨S10000x256, .f32⟩ : BufTy).Contents (Elt F)),
    StableHlo.binary main_v302 main_v309 main_v310 (Host.divf : (⟨S10000x256, .f32⟩ : BufTy).Contents (Elt F) → (⟨S10000x256, .f32⟩ : BufTy).Contents (Elt F) → (⟨S10000x256, .f32⟩ : BufTy).Contents (Elt F)),
    StableHlo.unary main_arg7 main_v311 ((extractStridedSlice S1x256x256 ![0, 0, 0] · slices_S7x256x256_S1x256x256_0_0_0) : (⟨S7x256x256, .f32⟩ : BufTy).Contents (Elt F) → (⟨S1x256x256, .f32⟩ : BufTy).Contents (Elt F)),
    StableHlo.reshape main_v311 main_v312 rfl shapeCasts_S1x256x256_S256x256,
    StableHlo.binary main_v310 main_v312 main_v313 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg9 main_v314 ((extractStridedSlice S1x256 ![0, 0] · slices_S7x256_S1x256_0_0) : (⟨S7x256, .f32⟩ : BufTy).Contents (Elt F) → (⟨S1x256, .f32⟩ : BufTy).Contents (Elt F)),
    StableHlo.reshape main_v314 main_v315 rfl shapeCasts_S1x256_S256,
    StableHlo.unary main_v315 main_v316 (broadcastInDim S1x256 ![1] bcast_S256_S1x256_1 : (⟨S256, .f32⟩ : BufTy).Contents (Elt F) → (⟨S1x256, .f32⟩ : BufTy).Contents (Elt F)),
    StableHlo.unary main_v316 main_v317 (broadcastInDim S10000x256 ![0, 1] bcast_S1x256_S10000x256_0_1 : (⟨S1x256, .f32⟩ : BufTy).Contents (Elt F) → (⟨S10000x256, .f32⟩ : BufTy).Contents (Elt F)),
    StableHlo.binary main_v313 main_v317 main_v318 (addf : (⟨S10000x256, .f32⟩ : BufTy).Contents (Elt F) → (⟨S10000x256, .f32⟩ : BufTy).Contents (Elt F) → (⟨S10000x256, .f32⟩ : BufTy).Contents (Elt F)),
    StableHlo.unary main_arg8 main_v319 ((extractStridedSlice S1x256x256 ![0, 0, 0] · slices_S7x256x256_S1x256x256_0_0_0) : (⟨S7x256x256, .f32⟩ : BufTy).Contents (Elt F) → (⟨S1x256x256, .f32⟩ : BufTy).Contents (Elt F)),
    StableHlo.reshape main_v319 main_v320 rfl shapeCasts_S1x256x256_S256x256,
    StableHlo.binary main_v272 main_v320 main_v321 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v318 main_v321 main_v322 (addf : (⟨S10000x256, .f32⟩ : BufTy).Contents (Elt F) → (⟨S10000x256, .f32⟩ : BufTy).Contents (Elt F) → (⟨S10000x256, .f32⟩ : BufTy).Contents (Elt F)),
    StableHlo.nullary main_c_62 (constantI S_ 32 0#32),
    StableHlo.unary main_c_62 main_v323 (broadcastInDim S400000 ![] bcast_S_S400000 : (⟨S_, .i32⟩ : BufTy).Contents (Elt F) → (⟨S400000, .i32⟩ : BufTy).Contents (Elt F)),
    StableHlo.binary main_arg16 main_v323 main_v324 (cmpi .slt : (⟨S400000, .i32⟩ : BufTy).Contents (Elt F) → (⟨S400000, .i32⟩ : BufTy).Contents (Elt F) → (⟨S400000, .i1⟩ : BufTy).Contents (Elt F)),
    StableHlo.nullary main_c_63 (constantI S_ 32 20000#32),
    StableHlo.unary main_c_63 main_v325 (broadcastInDim S400000 ![] bcast_S_S400000 : (⟨S_, .i32⟩ : BufTy).Contents (Elt F) → (⟨S400000, .i32⟩ : BufTy).Contents (Elt F)),
    StableHlo.binary main_arg16 main_v325 main_v326 (addi : (⟨S400000, .i32⟩ : BufTy).Contents (Elt F) → (⟨S400000, .i32⟩ : BufTy).Contents (Elt F) → (⟨S400000, .i32⟩ : BufTy).Contents (Elt F)),
    StableHlo.ternary main_v324 main_v326 main_arg16 main_v327 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v327 main_v328 (broadcastInDim S400000x1 ![0] bcast_S400000_S400000x1_0 : (⟨S400000, .i32⟩ : BufTy).Contents (Elt F) → (⟨S400000x1, .i32⟩ : BufTy).Contents (Elt F)),
    StableHlo.binary main_v232 main_v328 main_v329 ((fun x i => Host.gather gather_S20000x256_S400000x1_S400000x256_1_0_n_n_0_1_1256 x i) : (⟨S20000x256, .f32⟩ : BufTy).Contents (Elt F) → (⟨S400000x1, .i32⟩ : BufTy).Contents (Elt F) → (⟨S400000x256, .f32⟩ : BufTy).Contents (Elt F)),
    StableHlo.nullary main_cst_64 (constant S_ .f32 0x00000000#32),
    StableHlo.unary main_cst_64 main_v330 (broadcastInDim S50000x256 ![] bcast_S_S50000x256 : (⟨S_, .f32⟩ : BufTy).Contents (Elt F) → (⟨S50000x256, .f32⟩ : BufTy).Contents (Elt F)),
    StableHlo.unary main_arg17 main_v331 (broadcastInDim S400000x1 ![0] bcast_S400000_S400000x1_0 : (⟨S400000, .i32⟩ : BufTy).Contents (Elt F) → (⟨S400000x1, .i32⟩ : BufTy).Contents (Elt F)),
    StableHlo.ternary main_v330 main_v331 main_v329 main_v332 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.nullary main_cst_65 (constant S_ .f32 0x3F800000#32),
    StableHlo.unary main_cst_65 main_v333 (broadcastInDim S400000x1 ![] bcast_S_S400000x1 : (⟨S_, .f32⟩ : BufTy).Contents (Elt F) → (⟨S400000x1, .f32⟩ : BufTy).Contents (Elt F)),
    StableHlo.nullary main_cst_66 (constant S_ .f32 0x00000000#32),
    StableHlo.unary main_cst_66 main_v334 (broadcastInDim S50000x1 ![] bcast_S_S50000x1 : (⟨S_, .f32⟩ : BufTy).Contents (Elt F) → (⟨S50000x1, .f32⟩ : BufTy).Contents (Elt F)),
    StableHlo.unary main_arg17 main_v335 (broadcastInDim S400000x1 ![0] bcast_S400000_S400000x1_0 : (⟨S400000, .i32⟩ : BufTy).Contents (Elt F) → (⟨S400000x1, .i32⟩ : BufTy).Contents (Elt F)),
    StableHlo.ternary main_v334 main_v335 main_v333 main_v336 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    StableHlo.nullary main_cst_67 (constant S_ .f32 0x3F800000#32),
    StableHlo.unary main_cst_67 main_v337 (broadcastInDim S50000x1 ![] bcast_S_S50000x1 : (⟨S_, .f32⟩ : BufTy).Contents (Elt F) → (⟨S50000x1, .f32⟩ : BufTy).Contents (Elt F)),
    StableHlo.binary main_v336 main_v337 main_v338 (maximumf : (⟨S50000x1, .f32⟩ : BufTy).Contents (Elt F) → (⟨S50000x1, .f32⟩ : BufTy).Contents (Elt F) → (⟨S50000x1, .f32⟩ : BufTy).Contents (Elt F)),
    StableHlo.unary main_v338 main_v339 (broadcastInDim S50000x256 ![0, 1] bcast_S50000x1_S50000x256_0_1 : (⟨S50000x1, .f32⟩ : BufTy).Contents (Elt F) → (⟨S50000x256, .f32⟩ : BufTy).Contents (Elt F)),
    StableHlo.binary main_v332 main_v339 main_v340 (Host.divf : (⟨S50000x256, .f32⟩ : BufTy).Contents (Elt F) → (⟨S50000x256, .f32⟩ : BufTy).Contents (Elt F) → (⟨S50000x256, .f32⟩ : BufTy).Contents (Elt F)),
    StableHlo.unary main_arg7 main_v341 ((extractStridedSlice S1x256x256 ![1, 0, 0] · slices_S7x256x256_S1x256x256_1_0_0) : (⟨S7x256x256, .f32⟩ : BufTy).Contents (Elt F) → (⟨S1x256x256, .f32⟩ : BufTy).Contents (Elt F)),
    StableHlo.reshape main_v341 main_v342 rfl shapeCasts_S1x256x256_S256x256,
    StableHlo.binary main_v340 main_v342 main_v343 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg9 main_v344 ((extractStridedSlice S1x256 ![1, 0] · slices_S7x256_S1x256_1_0) : (⟨S7x256, .f32⟩ : BufTy).Contents (Elt F) → (⟨S1x256, .f32⟩ : BufTy).Contents (Elt F)),
    StableHlo.reshape main_v344 main_v345 rfl shapeCasts_S1x256_S256,
    StableHlo.unary main_v345 main_v346 (broadcastInDim S1x256 ![1] bcast_S256_S1x256_1 : (⟨S256, .f32⟩ : BufTy).Contents (Elt F) → (⟨S1x256, .f32⟩ : BufTy).Contents (Elt F)),
    StableHlo.unary main_v346 main_v347 (broadcastInDim S50000x256 ![0, 1] bcast_S1x256_S50000x256_0_1 : (⟨S1x256, .f32⟩ : BufTy).Contents (Elt F) → (⟨S50000x256, .f32⟩ : BufTy).Contents (Elt F)),
    StableHlo.binary main_v343 main_v347 main_v348 (addf : (⟨S50000x256, .f32⟩ : BufTy).Contents (Elt F) → (⟨S50000x256, .f32⟩ : BufTy).Contents (Elt F) → (⟨S50000x256, .f32⟩ : BufTy).Contents (Elt F)),
    StableHlo.unary main_arg8 main_v349 ((extractStridedSlice S1x256x256 ![1, 0, 0] · slices_S7x256x256_S1x256x256_1_0_0) : (⟨S7x256x256, .f32⟩ : BufTy).Contents (Elt F) → (⟨S1x256x256, .f32⟩ : BufTy).Contents (Elt F)) ]

/-- The references window 6's operations write, in order. -/
abbrev ops_part6_W : List (Ref sig .tc) :=
  [main_cst_58, main_v300, main_v301, main_v302, main_cst_59, main_v303, main_cst_60, main_v304, main_v305, main_v306, main_cst_61, main_v307, main_v308, main_v309, main_v310, main_v311, main_v312, main_v313, main_v314, main_v315, main_v316, main_v317, main_v318, main_v319, main_v320, main_v321, main_v322, main_c_62, main_v323, main_v324, main_c_63, main_v325, main_v326, main_v327, main_v328, main_v329, main_cst_64, main_v330, main_v331, main_v332, main_cst_65, main_v333, main_cst_66, main_v334, main_v335, main_v336, main_cst_67, main_v337, main_v338, main_v339, main_v340, main_v341, main_v342, main_v343, main_v344, main_v345, main_v346, main_v347, main_v348, main_v349]

/-- The operations of @main's window 7, in order (513 … 572 of 886), each call replaced by the callee's operations over the call's buffers. -/
abbrev ops_part7 : List (HloOp τ sig (Elt F)) :=
  [ StableHlo.reshape main_v349 main_v350 rfl shapeCasts_S1x256x256_S256x256,
    StableHlo.binary main_v252 main_v350 main_v351 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v348 main_v351 main_v352 (addf : (⟨S50000x256, .f32⟩ : BufTy).Contents (Elt F) → (⟨S50000x256, .f32⟩ : BufTy).Contents (Elt F) → (⟨S50000x256, .f32⟩ : BufTy).Contents (Elt F)),
    StableHlo.nullary main_c_68 (constantI S_ 32 0#32),
    StableHlo.unary main_c_68 main_v353 (broadcastInDim S150000 ![] bcast_S_S150000 : (⟨S_, .i32⟩ : BufTy).Contents (Elt F) → (⟨S150000, .i32⟩ : BufTy).Contents (Elt F)),
    StableHlo.binary main_arg18 main_v353 main_v354 (cmpi .slt : (⟨S150000, .i32⟩ : BufTy).Contents (Elt F) → (⟨S150000, .i32⟩ : BufTy).Contents (Elt F) → (⟨S150000, .i1⟩ : BufTy).Contents (Elt F)),
    StableHlo.nullary main_c_69 (constantI S_ 32 50000#32),
    StableHlo.unary main_c_69 main_v355 (broadcastInDim S150000 ![] bcast_S_S150000 : (⟨S_, .i32⟩ : BufTy).Contents (Elt F) → (⟨S150000, .i32⟩ : BufTy).Contents (Elt F)),
    StableHlo.binary main_arg18 main_v355 main_v356 (addi : (⟨S150000, .i32⟩ : BufTy).Contents (Elt F) → (⟨S150000, .i32⟩ : BufTy).Contents (Elt F) → (⟨S150000, .i32⟩ : BufTy).Contents (Elt F)),
    StableHlo.ternary main_v354 main_v356 main_arg18 main_v357 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v357 main_v358 (broadcastInDim S150000x1 ![0] bcast_S150000_S150000x1_0 : (⟨S150000, .i32⟩ : BufTy).Contents (Elt F) → (⟨S150000x1, .i32⟩ : BufTy).Contents (Elt F)),
    StableHlo.binary main_v252 main_v358 main_v359 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)),
    StableHlo.nullary main_cst_70 (constant S_ .f32 0x00000000#32),
    StableHlo.unary main_cst_70 main_v360 (broadcastInDim S3000x256 ![] bcast_S_S3000x256 : (⟨S_, .f32⟩ : BufTy).Contents (Elt F) → (⟨S3000x256, .f32⟩ : BufTy).Contents (Elt F)),
    StableHlo.unary main_arg19 main_v361 (broadcastInDim S150000x1 ![0] bcast_S150000_S150000x1_0 : (⟨S150000, .i32⟩ : BufTy).Contents (Elt F) → (⟨S150000x1, .i32⟩ : BufTy).Contents (Elt F)),
    StableHlo.ternary main_v360 main_v361 main_v359 main_v362 ((fun x i u => Host.scatterAdd scatter_S3000x256_S150000x1_S150000x256_1_0_0_1 x i u) : (⟨S3000x256, .f32⟩ : BufTy).Contents (Elt F) → (⟨S150000x1, .i32⟩ : BufTy).Contents (Elt F) → (⟨S150000x256, .f32⟩ : BufTy).Contents (Elt F) → (⟨S3000x256, .f32⟩ : BufTy).Contents (Elt F)),
    StableHlo.nullary main_cst_71 (constant S_ .f32 0x3F800000#32),
    StableHlo.unary main_cst_71 main_v363 (broadcastInDim S150000x1 ![] bcast_S_S150000x1 : (⟨S_, .f32⟩ : BufTy).Contents (Elt F) → (⟨S150000x1, .f32⟩ : BufTy).Contents (Elt F)),
    StableHlo.nullary main_cst_72 (constant S_ .f32 0x00000000#32),
    StableHlo.unary main_cst_72 main_v364 (broadcastInDim S3000x1 ![] bcast_S_S3000x1 : (⟨S_, .f32⟩ : BufTy).Contents (Elt F) → (⟨S3000x1, .f32⟩ : BufTy).Contents (Elt F)),
    StableHlo.unary main_arg19 main_v365 (broadcastInDim S150000x1 ![0] bcast_S150000_S150000x1_0 : (⟨S150000, .i32⟩ : BufTy).Contents (Elt F) → (⟨S150000x1, .i32⟩ : BufTy).Contents (Elt F)),
    StableHlo.ternary main_v364 main_v365 main_v363 main_v366 ((fun x i u => Host.scatterAdd scatter_S3000x1_S150000x1_S150000x1_1_0_0_1 x i u) : (⟨S3000x1, .f32⟩ : BufTy).Contents (Elt F) → (⟨S150000x1, .i32⟩ : BufTy).Contents (Elt F) → (⟨S150000x1, .f32⟩ : BufTy).Contents (Elt F) → (⟨S3000x1, .f32⟩ : BufTy).Contents (Elt F)),
    StableHlo.nullary main_cst_73 (constant S_ .f32 0x3F800000#32),
    StableHlo.unary main_cst_73 main_v367 (broadcastInDim S3000x1 ![] bcast_S_S3000x1 : (⟨S_, .f32⟩ : BufTy).Contents (Elt F) → (⟨S3000x1, .f32⟩ : BufTy).Contents (Elt F)),
    StableHlo.binary main_v366 main_v367 main_v368 (maximumf : (⟨S3000x1, .f32⟩ : BufTy).Contents (Elt F) → (⟨S3000x1, .f32⟩ : BufTy).Contents (Elt F) → (⟨S3000x1, .f32⟩ : BufTy).Contents (Elt F)),
    StableHlo.unary main_v368 main_v369 (broadcastInDim S3000x256 ![0, 1] bcast_S3000x1_S3000x256_0_1 : (⟨S3000x1, .f32⟩ : BufTy).Contents (Elt F) → (⟨S3000x256, .f32⟩ : BufTy).Contents (Elt F)),
    StableHlo.binary main_v362 main_v369 main_v370 (Host.divf : (⟨S3000x256, .f32⟩ : BufTy).Contents (Elt F) → (⟨S3000x256, .f32⟩ : BufTy).Contents (Elt F) → (⟨S3000x256, .f32⟩ : BufTy).Contents (Elt F)),
    StableHlo.unary main_arg7 main_v371 ((extractStridedSlice S1x256x256 ![2, 0, 0] · slices_S7x256x256_S1x256x256_2_0_0) : (⟨S7x256x256, .f32⟩ : BufTy).Contents (Elt F) → (⟨S1x256x256, .f32⟩ : BufTy).Contents (Elt F)),
    StableHlo.reshape main_v371 main_v372 rfl shapeCasts_S1x256x256_S256x256,
    StableHlo.binary main_v370 main_v372 main_v373 ((fun l r => Host.dotGeneral dot_S3000x256_S256x256_S3000x256_1_0_0_1_n_n none l r) : (⟨S3000x256, .f32⟩ : BufTy).Contents (Elt F) → (⟨S256x256, .f32⟩ : BufTy).Contents (Elt F) → (⟨S3000x256, .f32⟩ : BufTy).Contents (Elt F)),
    StableHlo.unary main_arg9 main_v374 ((extractStridedSlice S1x256 ![2, 0] · slices_S7x256_S1x256_2_0) : (⟨S7x256, .f32⟩ : BufTy).Contents (Elt F) → (⟨S1x256, .f32⟩ : BufTy).Contents (Elt F)),
    StableHlo.reshape main_v374 main_v375 rfl shapeCasts_S1x256_S256,
    StableHlo.unary main_v375 main_v376 (broadcastInDim S1x256 ![1] bcast_S256_S1x256_1 : (⟨S256, .f32⟩ : BufTy).Contents (Elt F) → (⟨S1x256, .f32⟩ : BufTy).Contents (Elt F)),
    StableHlo.unary main_v376 main_v377 (broadcastInDim S3000x256 ![0, 1] bcast_S1x256_S3000x256_0_1 : (⟨S1x256, .f32⟩ : BufTy).Contents (Elt F) → (⟨S3000x256, .f32⟩ : BufTy).Contents (Elt F)),
    StableHlo.binary main_v373 main_v377 main_v378 (addf : (⟨S3000x256, .f32⟩ : BufTy).Contents (Elt F) → (⟨S3000x256, .f32⟩ : BufTy).Contents (Elt F) → (⟨S3000x256, .f32⟩ : BufTy).Contents (Elt F)),
    StableHlo.unary main_arg8 main_v379 ((extractStridedSlice S1x256x256 ![2, 0, 0] · slices_S7x256x256_S1x256x256_2_0_0) : (⟨S7x256x256, .f32⟩ : BufTy).Contents (Elt F) → (⟨S1x256x256, .f32⟩ : BufTy).Contents (Elt F)),
    StableHlo.reshape main_v379 main_v380 rfl shapeCasts_S1x256x256_S256x256,
    StableHlo.binary main_v292 main_v380 main_v381 ((fun l r => Host.dotGeneral dot_S3000x256_S256x256_S3000x256_1_0_0_1_n_n none l r) : (⟨S3000x256, .f32⟩ : BufTy).Contents (Elt F) → (⟨S256x256, .f32⟩ : BufTy).Contents (Elt F) → (⟨S3000x256, .f32⟩ : BufTy).Contents (Elt F)),
    StableHlo.binary main_v378 main_v381 main_v382 (addf : (⟨S3000x256, .f32⟩ : BufTy).Contents (Elt F) → (⟨S3000x256, .f32⟩ : BufTy).Contents (Elt F) → (⟨S3000x256, .f32⟩ : BufTy).Contents (Elt F)),
    StableHlo.nullary main_c_74 (constantI S_ 32 0#32),
    StableHlo.unary main_c_74 main_v383 (broadcastInDim S400000 ![] bcast_S_S400000 : (⟨S_, .i32⟩ : BufTy).Contents (Elt F) → (⟨S400000, .i32⟩ : BufTy).Contents (Elt F)),
    StableHlo.binary main_arg20 main_v383 main_v384 (cmpi .slt : (⟨S400000, .i32⟩ : BufTy).Contents (Elt F) → (⟨S400000, .i32⟩ : BufTy).Contents (Elt F) → (⟨S400000, .i1⟩ : BufTy).Contents (Elt F)),
    StableHlo.nullary main_c_75 (constantI S_ 32 50000#32),
    StableHlo.unary main_c_75 main_v385 (broadcastInDim S400000 ![] bcast_S_S400000 : (⟨S_, .i32⟩ : BufTy).Contents (Elt F) → (⟨S400000, .i32⟩ : BufTy).Contents (Elt F)),
    StableHlo.binary main_arg20 main_v385 main_v386 (addi : (⟨S400000, .i32⟩ : BufTy).Contents (Elt F) → (⟨S400000, .i32⟩ : BufTy).Contents (Elt F) → (⟨S400000, .i32⟩ : BufTy).Contents (Elt F)),
    StableHlo.ternary main_v384 main_v386 main_arg20 main_v387 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v387 main_v388 (broadcastInDim S400000x1 ![0] bcast_S400000_S400000x1_0 : (⟨S400000, .i32⟩ : BufTy).Contents (Elt F) → (⟨S400000x1, .i32⟩ : BufTy).Contents (Elt F)),
    StableHlo.binary main_v252 main_v388 main_v389 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_76 (constant S_ .f32 0x00000000#32),
    StableHlo.unary main_cst_76 main_v390 (broadcastInDim S10000x256 ![] bcast_S_S10000x256 : (⟨S_, .f32⟩ : BufTy).Contents (Elt F) → (⟨S10000x256, .f32⟩ : BufTy).Contents (Elt F)),
    StableHlo.unary main_arg21 main_v391 (broadcastInDim S400000x1 ![0] bcast_S400000_S400000x1_0 : (⟨S400000, .i32⟩ : BufTy).Contents (Elt F) → (⟨S400000x1, .i32⟩ : BufTy).Contents (Elt F)),
    StableHlo.ternary main_v390 main_v391 main_v389 main_v392 ((fun x i u => Host.scatterAdd scatter_S10000x256_S400000x1_S400000x256_1_0_0_1 x i u) : (⟨S10000x256, .f32⟩ : BufTy).Contents (Elt F) → (⟨S400000x1, .i32⟩ : BufTy).Contents (Elt F) → (⟨S400000x256, .f32⟩ : BufTy).Contents (Elt F) → (⟨S10000x256, .f32⟩ : BufTy).Contents (Elt F)),
    StableHlo.nullary main_cst_77 (constant S_ .f32 0x3F800000#32),
    StableHlo.unary main_cst_77 main_v393 (broadcastInDim S400000x1 ![] bcast_S_S400000x1 : (⟨S_, .f32⟩ : BufTy).Contents (Elt F) → (⟨S400000x1, .f32⟩ : BufTy).Contents (Elt F)),
    StableHlo.nullary main_cst_78 (constant S_ .f32 0x00000000#32),
    StableHlo.unary main_cst_78 main_v394 (broadcastInDim S10000x1 ![] bcast_S_S10000x1 : (⟨S_, .f32⟩ : BufTy).Contents (Elt F) → (⟨S10000x1, .f32⟩ : BufTy).Contents (Elt F)),
    StableHlo.unary main_arg21 main_v395 (broadcastInDim S400000x1 ![0] bcast_S400000_S400000x1_0 : (⟨S400000, .i32⟩ : BufTy).Contents (Elt F) → (⟨S400000x1, .i32⟩ : BufTy).Contents (Elt F)),
    StableHlo.ternary main_v394 main_v395 main_v393 main_v396 ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)),
    StableHlo.nullary main_cst_79 (constant S_ .f32 0x3F800000#32),
    StableHlo.unary main_cst_79 main_v397 (broadcastInDim S10000x1 ![] bcast_S_S10000x1 : (⟨S_, .f32⟩ : BufTy).Contents (Elt F) → (⟨S10000x1, .f32⟩ : BufTy).Contents (Elt F)) ]

/-- The references window 7's operations write, in order. -/
abbrev ops_part7_W : List (Ref sig .tc) :=
  [main_v350, main_v351, main_v352, main_c_68, main_v353, main_v354, main_c_69, main_v355, main_v356, main_v357, main_v358, main_v359, main_cst_70, main_v360, main_v361, main_v362, main_cst_71, main_v363, main_cst_72, main_v364, main_v365, main_v366, main_cst_73, main_v367, main_v368, main_v369, main_v370, main_v371, main_v372, main_v373, main_v374, main_v375, main_v376, main_v377, main_v378, main_v379, main_v380, main_v381, main_v382, main_c_74, main_v383, main_v384, main_c_75, main_v385, main_v386, main_v387, main_v388, main_v389, main_cst_76, main_v390, main_v391, main_v392, main_cst_77, main_v393, main_cst_78, main_v394, main_v395, main_v396, main_cst_79, main_v397]

/-- The operations of @main's window 8, in order (573 … 632 of 886), each call replaced by the callee's operations over the call's buffers. -/
abbrev ops_part8 : List (HloOp τ sig (Elt F)) :=
  [ StableHlo.binary main_v396 main_v397 main_v398 (maximumf : (⟨S10000x1, .f32⟩ : BufTy).Contents (Elt F) → (⟨S10000x1, .f32⟩ : BufTy).Contents (Elt F) → (⟨S10000x1, .f32⟩ : BufTy).Contents (Elt F)),
    StableHlo.unary main_v398 main_v399 (broadcastInDim S10000x256 ![0, 1] bcast_S10000x1_S10000x256_0_1 : (⟨S10000x1, .f32⟩ : BufTy).Contents (Elt F) → (⟨S10000x256, .f32⟩ : BufTy).Contents (Elt F)),
    StableHlo.binary main_v392 main_v399 main_v400 (Host.divf : (⟨S10000x256, .f32⟩ : BufTy).Contents (Elt F) → (⟨S10000x256, .f32⟩ : BufTy).Contents (Elt F) → (⟨S10000x256, .f32⟩ : BufTy).Contents (Elt F)),
    StableHlo.unary main_arg7 main_v401 ((extractStridedSlice S1x256x256 ![3, 0, 0] · slices_S7x256x256_S1x256x256_3_0_0) : (⟨S7x256x256, .f32⟩ : BufTy).Contents (Elt F) → (⟨S1x256x256, .f32⟩ : BufTy).Contents (Elt F)),
    StableHlo.reshape main_v401 main_v402 rfl shapeCasts_S1x256x256_S256x256,
    StableHlo.binary main_v400 main_v402 main_v403 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg9 main_v404 ((extractStridedSlice S1x256 ![3, 0] · slices_S7x256_S1x256_3_0) : (⟨S7x256, .f32⟩ : BufTy).Contents (Elt F) → (⟨S1x256, .f32⟩ : BufTy).Contents (Elt F)),
    StableHlo.reshape main_v404 main_v405 rfl shapeCasts_S1x256_S256,
    StableHlo.unary main_v405 main_v406 (broadcastInDim S1x256 ![1] bcast_S256_S1x256_1 : (⟨S256, .f32⟩ : BufTy).Contents (Elt F) → (⟨S1x256, .f32⟩ : BufTy).Contents (Elt F)),
    StableHlo.unary main_v406 main_v407 (broadcastInDim S10000x256 ![0, 1] bcast_S1x256_S10000x256_0_1 : (⟨S1x256, .f32⟩ : BufTy).Contents (Elt F) → (⟨S10000x256, .f32⟩ : BufTy).Contents (Elt F)),
    StableHlo.binary main_v403 main_v407 main_v408 (addf : (⟨S10000x256, .f32⟩ : BufTy).Contents (Elt F) → (⟨S10000x256, .f32⟩ : BufTy).Contents (Elt F) → (⟨S10000x256, .f32⟩ : BufTy).Contents (Elt F)),
    StableHlo.unary main_arg8 main_v409 ((extractStridedSlice S1x256x256 ![3, 0, 0] · slices_S7x256x256_S1x256x256_3_0_0) : (⟨S7x256x256, .f32⟩ : BufTy).Contents (Elt F) → (⟨S1x256x256, .f32⟩ : BufTy).Contents (Elt F)),
    StableHlo.reshape main_v409 main_v410 rfl shapeCasts_S1x256x256_S256x256,
    StableHlo.binary main_v272 main_v410 main_v411 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v408 main_v411 main_v412 (addf : (⟨S10000x256, .f32⟩ : BufTy).Contents (Elt F) → (⟨S10000x256, .f32⟩ : BufTy).Contents (Elt F) → (⟨S10000x256, .f32⟩ : BufTy).Contents (Elt F)),
    StableHlo.binary main_v322 main_v412 main_v413 (addf : (⟨S10000x256, .f32⟩ : BufTy).Contents (Elt F) → (⟨S10000x256, .f32⟩ : BufTy).Contents (Elt F) → (⟨S10000x256, .f32⟩ : BufTy).Contents (Elt F)),
    StableHlo.nullary main_c_80 (constantI S_ 32 0#32),
    StableHlo.unary main_c_80 main_v414 (broadcastInDim S500000 ![] bcast_S_S500000 : (⟨S_, .i32⟩ : BufTy).Contents (Elt F) → (⟨S500000, .i32⟩ : BufTy).Contents (Elt F)),
    StableHlo.binary main_arg22 main_v414 main_v415 (cmpi .slt : (⟨S500000, .i32⟩ : BufTy).Contents (Elt F) → (⟨S500000, .i32⟩ : BufTy).Contents (Elt F) → (⟨S500000, .i1⟩ : BufTy).Contents (Elt F)),
    StableHlo.nullary main_c_81 (constantI S_ 32 10000#32),
    StableHlo.unary main_c_81 main_v416 (broadcastInDim S500000 ![] bcast_S_S500000 : (⟨S_, .i32⟩ : BufTy).Contents (Elt F) → (⟨S500000, .i32⟩ : BufTy).Contents (Elt F)),
    StableHlo.binary main_arg22 main_v416 main_v417 (addi : (⟨S500000, .i32⟩ : BufTy).Contents (Elt F) → (⟨S500000, .i32⟩ : BufTy).Contents (Elt F) → (⟨S500000, .i32⟩ : BufTy).Contents (Elt F)),
    StableHlo.ternary main_v415 main_v417 main_arg22 main_v418 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v418 main_v419 (broadcastInDim S500000x1 ![0] bcast_S500000_S500000x1_0 : (⟨S500000, .i32⟩ : BufTy).Contents (Elt F) → (⟨S500000x1, .i32⟩ : BufTy).Contents (Elt F)),
    StableHlo.binary main_v272 main_v419 main_v420 ((fun x i => Host.gather gather_S10000x256_S500000x1_S500000x256_1_0_n_n_0_1_1256 x i) : (⟨S10000x256, .f32⟩ : BufTy).Contents (Elt F) → (⟨S500000x1, .i32⟩ : BufTy).Contents (Elt F) → (⟨S500000x256, .f32⟩ : BufTy).Contents (Elt F)),
    StableHlo.nullary main_cst_82 (constant S_ .f32 0x00000000#32),
    StableHlo.unary main_cst_82 main_v421 (broadcastInDim S20000x256 ![] bcast_S_S20000x256 : (⟨S_, .f32⟩ : BufTy).Contents (Elt F) → (⟨S20000x256, .f32⟩ : BufTy).Contents (Elt F)),
    StableHlo.unary main_arg23 main_v422 (broadcastInDim S500000x1 ![0] bcast_S500000_S500000x1_0 : (⟨S500000, .i32⟩ : BufTy).Contents (Elt F) → (⟨S500000x1, .i32⟩ : BufTy).Contents (Elt F)),
    StableHlo.ternary main_v421 main_v422 main_v420 main_v423 ((fun x i u => Host.scatterAdd scatter_S20000x256_S500000x1_S500000x256_1_0_0_1 x i u) : (⟨S20000x256, .f32⟩ : BufTy).Contents (Elt F) → (⟨S500000x1, .i32⟩ : BufTy).Contents (Elt F) → (⟨S500000x256, .f32⟩ : BufTy).Contents (Elt F) → (⟨S20000x256, .f32⟩ : BufTy).Contents (Elt F)),
    StableHlo.nullary main_cst_83 (constant S_ .f32 0x3F800000#32),
    StableHlo.unary main_cst_83 main_v424 (broadcastInDim S500000x1 ![] bcast_S_S500000x1 : (⟨S_, .f32⟩ : BufTy).Contents (Elt F) → (⟨S500000x1, .f32⟩ : BufTy).Contents (Elt F)),
    StableHlo.nullary main_cst_84 (constant S_ .f32 0x00000000#32),
    StableHlo.unary main_cst_84 main_v425 (broadcastInDim S20000x1 ![] bcast_S_S20000x1 : (⟨S_, .f32⟩ : BufTy).Contents (Elt F) → (⟨S20000x1, .f32⟩ : BufTy).Contents (Elt F)),
    StableHlo.unary main_arg23 main_v426 (broadcastInDim S500000x1 ![0] bcast_S500000_S500000x1_0 : (⟨S500000, .i32⟩ : BufTy).Contents (Elt F) → (⟨S500000x1, .i32⟩ : BufTy).Contents (Elt F)),
    StableHlo.ternary main_v425 main_v426 main_v424 main_v427 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    StableHlo.nullary main_cst_85 (constant S_ .f32 0x3F800000#32),
    StableHlo.unary main_cst_85 main_v428 (broadcastInDim S20000x1 ![] bcast_S_S20000x1 : (⟨S_, .f32⟩ : BufTy).Contents (Elt F) → (⟨S20000x1, .f32⟩ : BufTy).Contents (Elt F)),
    StableHlo.binary main_v427 main_v428 main_v429 (maximumf : (⟨S20000x1, .f32⟩ : BufTy).Contents (Elt F) → (⟨S20000x1, .f32⟩ : BufTy).Contents (Elt F) → (⟨S20000x1, .f32⟩ : BufTy).Contents (Elt F)),
    StableHlo.unary main_v429 main_v430 (broadcastInDim S20000x256 ![0, 1] bcast_S20000x1_S20000x256_0_1 : (⟨S20000x1, .f32⟩ : BufTy).Contents (Elt F) → (⟨S20000x256, .f32⟩ : BufTy).Contents (Elt F)),
    StableHlo.binary main_v423 main_v430 main_v431 (Host.divf : (⟨S20000x256, .f32⟩ : BufTy).Contents (Elt F) → (⟨S20000x256, .f32⟩ : BufTy).Contents (Elt F) → (⟨S20000x256, .f32⟩ : BufTy).Contents (Elt F)),
    StableHlo.unary main_arg7 main_v432 ((extractStridedSlice S1x256x256 ![4, 0, 0] · slices_S7x256x256_S1x256x256_4_0_0) : (⟨S7x256x256, .f32⟩ : BufTy).Contents (Elt F) → (⟨S1x256x256, .f32⟩ : BufTy).Contents (Elt F)),
    StableHlo.reshape main_v432 main_v433 rfl shapeCasts_S1x256x256_S256x256,
    StableHlo.binary main_v431 main_v433 main_v434 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_arg9 main_v435 ((extractStridedSlice S1x256 ![4, 0] · slices_S7x256_S1x256_4_0) : (⟨S7x256, .f32⟩ : BufTy).Contents (Elt F) → (⟨S1x256, .f32⟩ : BufTy).Contents (Elt F)),
    StableHlo.reshape main_v435 main_v436 rfl shapeCasts_S1x256_S256,
    StableHlo.unary main_v436 main_v437 (broadcastInDim S1x256 ![1] bcast_S256_S1x256_1 : (⟨S256, .f32⟩ : BufTy).Contents (Elt F) → (⟨S1x256, .f32⟩ : BufTy).Contents (Elt F)),
    StableHlo.unary main_v437 main_v438 (broadcastInDim S20000x256 ![0, 1] bcast_S1x256_S20000x256_0_1 : (⟨S1x256, .f32⟩ : BufTy).Contents (Elt F) → (⟨S20000x256, .f32⟩ : BufTy).Contents (Elt F)),
    StableHlo.binary main_v434 main_v438 main_v439 (addf : (⟨S20000x256, .f32⟩ : BufTy).Contents (Elt F) → (⟨S20000x256, .f32⟩ : BufTy).Contents (Elt F) → (⟨S20000x256, .f32⟩ : BufTy).Contents (Elt F)),
    StableHlo.unary main_arg8 main_v440 ((extractStridedSlice S1x256x256 ![4, 0, 0] · slices_S7x256x256_S1x256x256_4_0_0) : (⟨S7x256x256, .f32⟩ : BufTy).Contents (Elt F) → (⟨S1x256x256, .f32⟩ : BufTy).Contents (Elt F)),
    StableHlo.reshape main_v440 main_v441 rfl shapeCasts_S1x256x256_S256x256,
    StableHlo.binary main_v232 main_v441 main_v442 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.binary main_v439 main_v442 main_v443 (addf : (⟨S20000x256, .f32⟩ : BufTy).Contents (Elt F) → (⟨S20000x256, .f32⟩ : BufTy).Contents (Elt F) → (⟨S20000x256, .f32⟩ : BufTy).Contents (Elt F)),
    StableHlo.nullary main_c_86 (constantI S_ 32 0#32),
    StableHlo.unary main_c_86 main_v444 (broadcastInDim S400000 ![] bcast_S_S400000 : (⟨S_, .i32⟩ : BufTy).Contents (Elt F) → (⟨S400000, .i32⟩ : BufTy).Contents (Elt F)),
    StableHlo.binary main_arg24 main_v444 main_v445 (cmpi .slt : (⟨S400000, .i32⟩ : BufTy).Contents (Elt F) → (⟨S400000, .i32⟩ : BufTy).Contents (Elt F) → (⟨S400000, .i1⟩ : BufTy).Contents (Elt F)),
    StableHlo.nullary main_c_87 (constantI S_ 32 50000#32),
    StableHlo.unary main_c_87 main_v446 (broadcastInDim S400000 ![] bcast_S_S400000 : (⟨S_, .i32⟩ : BufTy).Contents (Elt F) → (⟨S400000, .i32⟩ : BufTy).Contents (Elt F)),
    StableHlo.binary main_arg24 main_v446 main_v447 (addi : (⟨S400000, .i32⟩ : BufTy).Contents (Elt F) → (⟨S400000, .i32⟩ : BufTy).Contents (Elt F) → (⟨S400000, .i32⟩ : BufTy).Contents (Elt F)),
    StableHlo.ternary main_v445 main_v447 main_arg24 main_v448 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v448 main_v449 (broadcastInDim S400000x1 ![0] bcast_S400000_S400000x1_0 : (⟨S400000, .i32⟩ : BufTy).Contents (Elt F) → (⟨S400000x1, .i32⟩ : BufTy).Contents (Elt F)) ]

/-- The references window 8's operations write, in order. -/
abbrev ops_part8_W : List (Ref sig .tc) :=
  [main_v398, main_v399, main_v400, main_v401, main_v402, main_v403, main_v404, main_v405, main_v406, main_v407, main_v408, main_v409, main_v410, main_v411, main_v412, main_v413, main_c_80, main_v414, main_v415, main_c_81, main_v416, main_v417, main_v418, main_v419, main_v420, main_cst_82, main_v421, main_v422, main_v423, main_cst_83, main_v424, main_cst_84, main_v425, main_v426, main_v427, main_cst_85, main_v428, main_v429, main_v430, main_v431, main_v432, main_v433, main_v434, main_v435, main_v436, main_v437, main_v438, main_v439, main_v440, main_v441, main_v442, main_v443, main_c_86, main_v444, main_v445, main_c_87, main_v446, main_v447, main_v448, main_v449]

/-- The operations of @main's window 9, in order (633 … 692 of 886), each call replaced by the callee's operations over the call's buffers. -/
abbrev ops_part9 : List (HloOp τ sig (Elt F)) :=
  [ StableHlo.binary main_v252 main_v449 main_v450 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_88 (constant S_ .f32 0x00000000#32),
    StableHlo.unary main_cst_88 main_v451 (broadcastInDim S20000x256 ![] bcast_S_S20000x256 : (⟨S_, .f32⟩ : BufTy).Contents (Elt F) → (⟨S20000x256, .f32⟩ : BufTy).Contents (Elt F)),
    StableHlo.unary main_arg25 main_v452 (broadcastInDim S400000x1 ![0] bcast_S400000_S400000x1_0 : (⟨S400000, .i32⟩ : BufTy).Contents (Elt F) → (⟨S400000x1, .i32⟩ : BufTy).Contents (Elt F)),
    StableHlo.ternary main_v451 main_v452 main_v450 main_v453 ((fun x i u => Host.scatterAdd scatter_S20000x256_S400000x1_S400000x256_1_0_0_1 x i u) : (⟨S20000x256, .f32⟩ : BufTy).Contents (Elt F) → (⟨S400000x1, .i32⟩ : BufTy).Contents (Elt F) → (⟨S400000x256, .f32⟩ : BufTy).Contents (Elt F) → (⟨S20000x256, .f32⟩ : BufTy).Contents (Elt F)),
    StableHlo.nullary main_cst_89 (constant S_ .f32 0x3F800000#32),
    StableHlo.unary main_cst_89 main_v454 (broadcastInDim S400000x1 ![] bcast_S_S400000x1 : (⟨S_, .f32⟩ : BufTy).Contents (Elt F) → (⟨S400000x1, .f32⟩ : BufTy).Contents (Elt F)),
    StableHlo.nullary main_cst_90 (constant S_ .f32 0x00000000#32),
    StableHlo.unary main_cst_90 main_v455 (broadcastInDim S20000x1 ![] bcast_S_S20000x1 : (⟨S_, .f32⟩ : BufTy).Contents (Elt F) → (⟨S20000x1, .f32⟩ : BufTy).Contents (Elt F)),
    StableHlo.unary main_arg25 main_v456 (broadcastInDim S400000x1 ![0] bcast_S400000_S400000x1_0 : (⟨S400000, .i32⟩ : BufTy).Contents (Elt F) → (⟨S400000x1, .i32⟩ : BufTy).Contents (Elt F)),
    StableHlo.ternary main_v455 main_v456 main_v454 main_v457 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    StableHlo.nullary main_cst_91 (constant S_ .f32 0x3F800000#32),
    StableHlo.unary main_cst_91 main_v458 (broadcastInDim S20000x1 ![] bcast_S_S20000x1 : (⟨S_, .f32⟩ : BufTy).Contents (Elt F) → (⟨S20000x1, .f32⟩ : BufTy).Contents (Elt F)),
    StableHlo.binary main_v457 main_v458 main_v459 (maximumf : (⟨S20000x1, .f32⟩ : BufTy).Contents (Elt F) → (⟨S20000x1, .f32⟩ : BufTy).Contents (Elt F) → (⟨S20000x1, .f32⟩ : BufTy).Contents (Elt F)),
    StableHlo.unary main_v459 main_v460 (broadcastInDim S20000x256 ![0, 1] bcast_S20000x1_S20000x256_0_1 : (⟨S20000x1, .f32⟩ : BufTy).Contents (Elt F) → (⟨S20000x256, .f32⟩ : BufTy).Contents (Elt F)),
    StableHlo.binary main_v453 main_v460 main_v461 (Host.divf : (⟨S20000x256, .f32⟩ : BufTy).Contents (Elt F) → (⟨S20000x256, .f32⟩ : BufTy).Contents (Elt F) → (⟨S20000x256, .f32⟩ : BufTy).Contents (Elt F)),
    StableHlo.unary main_arg7 main_v462 ((extractStridedSlice S1x256x256 ![5, 0, 0] · slices_S7x256x256_S1x256x256_5_0_0) : (⟨S7x256x256, .f32⟩ : BufTy).Contents (Elt F) → (⟨S1x256x256, .f32⟩ : BufTy).Contents (Elt F)),
    StableHlo.reshape main_v462 main_v463 rfl shapeCasts_S1x256x256_S256x256,
    StableHlo.binary main_v461 main_v463 main_v464 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_arg9 main_v465 ((extractStridedSlice S1x256 ![5, 0] · slices_S7x256_S1x256_5_0) : (⟨S7x256, .f32⟩ : BufTy).Contents (Elt F) → (⟨S1x256, .f32⟩ : BufTy).Contents (Elt F)),
    StableHlo.reshape main_v465 main_v466 rfl shapeCasts_S1x256_S256,
    StableHlo.unary main_v466 main_v467 (broadcastInDim S1x256 ![1] bcast_S256_S1x256_1 : (⟨S256, .f32⟩ : BufTy).Contents (Elt F) → (⟨S1x256, .f32⟩ : BufTy).Contents (Elt F)),
    StableHlo.unary main_v467 main_v468 (broadcastInDim S20000x256 ![0, 1] bcast_S1x256_S20000x256_0_1 : (⟨S1x256, .f32⟩ : BufTy).Contents (Elt F) → (⟨S20000x256, .f32⟩ : BufTy).Contents (Elt F)),
    StableHlo.binary main_v464 main_v468 main_v469 (addf : (⟨S20000x256, .f32⟩ : BufTy).Contents (Elt F) → (⟨S20000x256, .f32⟩ : BufTy).Contents (Elt F) → (⟨S20000x256, .f32⟩ : BufTy).Contents (Elt F)),
    StableHlo.unary main_arg8 main_v470 ((extractStridedSlice S1x256x256 ![5, 0, 0] · slices_S7x256x256_S1x256x256_5_0_0) : (⟨S7x256x256, .f32⟩ : BufTy).Contents (Elt F) → (⟨S1x256x256, .f32⟩ : BufTy).Contents (Elt F)),
    StableHlo.reshape main_v470 main_v471 rfl shapeCasts_S1x256x256_S256x256,
    StableHlo.binary main_v232 main_v471 main_v472 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.binary main_v469 main_v472 main_v473 (addf : (⟨S20000x256, .f32⟩ : BufTy).Contents (Elt F) → (⟨S20000x256, .f32⟩ : BufTy).Contents (Elt F) → (⟨S20000x256, .f32⟩ : BufTy).Contents (Elt F)),
    StableHlo.binary main_v443 main_v473 main_v474 (addf : (⟨S20000x256, .f32⟩ : BufTy).Contents (Elt F) → (⟨S20000x256, .f32⟩ : BufTy).Contents (Elt F) → (⟨S20000x256, .f32⟩ : BufTy).Contents (Elt F)),
    StableHlo.nullary main_c_92 (constantI S_ 32 0#32),
    StableHlo.unary main_c_92 main_v475 (broadcastInDim S150000 ![] bcast_S_S150000 : (⟨S_, .i32⟩ : BufTy).Contents (Elt F) → (⟨S150000, .i32⟩ : BufTy).Contents (Elt F)),
    StableHlo.binary main_arg26 main_v475 main_v476 (cmpi .slt : (⟨S150000, .i32⟩ : BufTy).Contents (Elt F) → (⟨S150000, .i32⟩ : BufTy).Contents (Elt F) → (⟨S150000, .i1⟩ : BufTy).Contents (Elt F)),
    StableHlo.nullary main_c_93 (constantI S_ 32 3000#32),
    StableHlo.unary main_c_93 main_v477 (broadcastInDim S150000 ![] bcast_S_S150000 : (⟨S_, .i32⟩ : BufTy).Contents (Elt F) → (⟨S150000, .i32⟩ : BufTy).Contents (Elt F)),
    StableHlo.binary main_arg26 main_v477 main_v478 (addi : (⟨S150000, .i32⟩ : BufTy).Contents (Elt F) → (⟨S150000, .i32⟩ : BufTy).Contents (Elt F) → (⟨S150000, .i32⟩ : BufTy).Contents (Elt F)),
    StableHlo.ternary main_v476 main_v478 main_arg26 main_v479 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v479 main_v480 (broadcastInDim S150000x1 ![0] bcast_S150000_S150000x1_0 : (⟨S150000, .i32⟩ : BufTy).Contents (Elt F) → (⟨S150000x1, .i32⟩ : BufTy).Contents (Elt F)),
    StableHlo.binary main_v292 main_v480 main_v481 ((fun x i => Host.gather gather_S3000x256_S150000x1_S150000x256_1_0_n_n_0_1_1256 x i) : (⟨S3000x256, .f32⟩ : BufTy).Contents (Elt F) → (⟨S150000x1, .i32⟩ : BufTy).Contents (Elt F) → (⟨S150000x256, .f32⟩ : BufTy).Contents (Elt F)),
    StableHlo.nullary main_cst_94 (constant S_ .f32 0x00000000#32),
    StableHlo.unary main_cst_94 main_v482 (broadcastInDim S50000x256 ![] bcast_S_S50000x256 : (⟨S_, .f32⟩ : BufTy).Contents (Elt F) → (⟨S50000x256, .f32⟩ : BufTy).Contents (Elt F)),
    StableHlo.unary main_arg27 main_v483 (broadcastInDim S150000x1 ![0] bcast_S150000_S150000x1_0 : (⟨S150000, .i32⟩ : BufTy).Contents (Elt F) → (⟨S150000x1, .i32⟩ : BufTy).Contents (Elt F)),
    StableHlo.ternary main_v482 main_v483 main_v481 main_v484 ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F)),
    StableHlo.nullary main_cst_95 (constant S_ .f32 0x3F800000#32),
    StableHlo.unary main_cst_95 main_v485 (broadcastInDim S150000x1 ![] bcast_S_S150000x1 : (⟨S_, .f32⟩ : BufTy).Contents (Elt F) → (⟨S150000x1, .f32⟩ : BufTy).Contents (Elt F)),
    StableHlo.nullary main_cst_96 (constant S_ .f32 0x00000000#32),
    StableHlo.unary main_cst_96 main_v486 (broadcastInDim S50000x1 ![] bcast_S_S50000x1 : (⟨S_, .f32⟩ : BufTy).Contents (Elt F) → (⟨S50000x1, .f32⟩ : BufTy).Contents (Elt F)),
    StableHlo.unary main_arg27 main_v487 (broadcastInDim S150000x1 ![0] bcast_S150000_S150000x1_0 : (⟨S150000, .i32⟩ : BufTy).Contents (Elt F) → (⟨S150000x1, .i32⟩ : BufTy).Contents (Elt F)),
    StableHlo.ternary main_v486 main_v487 main_v485 main_v488 ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)),
    StableHlo.nullary main_cst_97 (constant S_ .f32 0x3F800000#32),
    StableHlo.unary main_cst_97 main_v489 (broadcastInDim S50000x1 ![] bcast_S_S50000x1 : (⟨S_, .f32⟩ : BufTy).Contents (Elt F) → (⟨S50000x1, .f32⟩ : BufTy).Contents (Elt F)),
    StableHlo.binary main_v488 main_v489 main_v490 (maximumf : (⟨S50000x1, .f32⟩ : BufTy).Contents (Elt F) → (⟨S50000x1, .f32⟩ : BufTy).Contents (Elt F) → (⟨S50000x1, .f32⟩ : BufTy).Contents (Elt F)),
    StableHlo.unary main_v490 main_v491 (broadcastInDim S50000x256 ![0, 1] bcast_S50000x1_S50000x256_0_1 : (⟨S50000x1, .f32⟩ : BufTy).Contents (Elt F) → (⟨S50000x256, .f32⟩ : BufTy).Contents (Elt F)),
    StableHlo.binary main_v484 main_v491 main_v492 (Host.divf : (⟨S50000x256, .f32⟩ : BufTy).Contents (Elt F) → (⟨S50000x256, .f32⟩ : BufTy).Contents (Elt F) → (⟨S50000x256, .f32⟩ : BufTy).Contents (Elt F)),
    StableHlo.unary main_arg7 main_v493 ((extractStridedSlice S1x256x256 ![6, 0, 0] · slices_S7x256x256_S1x256x256_6_0_0) : (⟨S7x256x256, .f32⟩ : BufTy).Contents (Elt F) → (⟨S1x256x256, .f32⟩ : BufTy).Contents (Elt F)),
    StableHlo.reshape main_v493 main_v494 rfl shapeCasts_S1x256x256_S256x256,
    StableHlo.binary main_v492 main_v494 main_v495 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg9 main_v496 ((extractStridedSlice S1x256 ![6, 0] · slices_S7x256_S1x256_6_0) : (⟨S7x256, .f32⟩ : BufTy).Contents (Elt F) → (⟨S1x256, .f32⟩ : BufTy).Contents (Elt F)),
    StableHlo.reshape main_v496 main_v497 rfl shapeCasts_S1x256_S256,
    StableHlo.unary main_v497 main_v498 (broadcastInDim S1x256 ![1] bcast_S256_S1x256_1 : (⟨S256, .f32⟩ : BufTy).Contents (Elt F) → (⟨S1x256, .f32⟩ : BufTy).Contents (Elt F)),
    StableHlo.unary main_v498 main_v499 (broadcastInDim S50000x256 ![0, 1] bcast_S1x256_S50000x256_0_1 : (⟨S1x256, .f32⟩ : BufTy).Contents (Elt F) → (⟨S50000x256, .f32⟩ : BufTy).Contents (Elt F)) ]

/-- The references window 9's operations write, in order. -/
abbrev ops_part9_W : List (Ref sig .tc) :=
  [main_v450, main_cst_88, main_v451, main_v452, main_v453, main_cst_89, main_v454, main_cst_90, main_v455, main_v456, main_v457, main_cst_91, main_v458, main_v459, main_v460, main_v461, main_v462, main_v463, main_v464, main_v465, main_v466, main_v467, main_v468, main_v469, main_v470, main_v471, main_v472, main_v473, main_v474, main_c_92, main_v475, main_v476, main_c_93, main_v477, main_v478, main_v479, main_v480, main_v481, main_cst_94, main_v482, main_v483, main_v484, main_cst_95, main_v485, main_cst_96, main_v486, main_v487, main_v488, main_cst_97, main_v489, main_v490, main_v491, main_v492, main_v493, main_v494, main_v495, main_v496, main_v497, main_v498, main_v499]

/-- The operations of @main's window 10, in order (693 … 798 of 886), each call replaced by the callee's operations over the call's buffers. -/
abbrev ops_part10 : List (HloOp τ sig (Elt F)) :=
  [ StableHlo.binary main_v495 main_v499 main_v500 (addf : (⟨S50000x256, .f32⟩ : BufTy).Contents (Elt F) → (⟨S50000x256, .f32⟩ : BufTy).Contents (Elt F) → (⟨S50000x256, .f32⟩ : BufTy).Contents (Elt F)),
    StableHlo.unary main_arg8 main_v501 ((extractStridedSlice S1x256x256 ![6, 0, 0] · slices_S7x256x256_S1x256x256_6_0_0) : (⟨S7x256x256, .f32⟩ : BufTy).Contents (Elt F) → (⟨S1x256x256, .f32⟩ : BufTy).Contents (Elt F)),
    StableHlo.reshape main_v501 main_v502 rfl shapeCasts_S1x256x256_S256x256,
    StableHlo.binary main_v252 main_v502 main_v503 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v500 main_v503 main_v504 (addf : (⟨S50000x256, .f32⟩ : BufTy).Contents (Elt F) → (⟨S50000x256, .f32⟩ : BufTy).Contents (Elt F) → (⟨S50000x256, .f32⟩ : BufTy).Contents (Elt F)),
    StableHlo.binary main_v352 main_v504 main_v505 (addf : (⟨S50000x256, .f32⟩ : BufTy).Contents (Elt F) → (⟨S50000x256, .f32⟩ : BufTy).Contents (Elt F) → (⟨S50000x256, .f32⟩ : BufTy).Contents (Elt F)),
    StableHlo.nullary main_cst_98 (constant S_ .f32 0x00000000#32),
    StableHlo.binary main_v474 main_cst_98 main_v506 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_99 (constant S_ .f32 0x469C4000#32),
    StableHlo.unary main_cst_99 main_v507 (broadcastInDim S256 ![] bcast_S_S256 : (⟨S_, .f32⟩ : BufTy).Contents (Elt F) → (⟨S256, .f32⟩ : BufTy).Contents (Elt F)),
    StableHlo.binary main_v506 main_v507 main_v508 (Host.divf : (⟨S256, .f32⟩ : BufTy).Contents (Elt F) → (⟨S256, .f32⟩ : BufTy).Contents (Elt F) → (⟨S256, .f32⟩ : BufTy).Contents (Elt F)),
    StableHlo.nullary main_c_100 (constantI S_ 32 0#32),
    StableHlo.TRef.nullary main_call8.cst (constant S_ .f32 0x00000000#32),
    StableHlo.TRef.binary (.of main_v474 : StableHlo.TRef sig ⟨S20000x256, .f32⟩) main_call8.cst main_call8.v0 (fun x v => Host.reduceAdd x v reducesTo_S20000x256_S256_d0 h_S_),
    StableHlo.TRef.unary main_call8.v0 main_call8.v1 (broadcastInDim S1x256 ![1] bcast_S256_S1x256_1),
    StableHlo.TRef.nullary main_call8.cst_0 (constant S_ .f32 0x469C4000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S20000x256 ![0, 1] bcast_S1x256_S20000x256_0_1),
    StableHlo.TRef.binary (.of main_v474 : StableHlo.TRef sig ⟨S20000x256, .f32⟩) main_call8.v4 main_call8.v5 subf,
    StableHlo.TRef.binary main_call8.v5 main_call8.v5 main_call8.v6 mulf,
    StableHlo.TRef.unary (.of main_c_100 : StableHlo.TRef sig ⟨S_, .i32⟩) main_call8.v7 (sitofp .f32),
    StableHlo.TRef.nullary main_call8.cst_1 (constant S_ .f32 0x469C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S20000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v508 main_v510 (broadcastInDim S1x256 ![1] bcast_S256_S1x256_1 : (⟨S256, .f32⟩ : BufTy).Contents (Elt F) → (⟨S1x256, .f32⟩ : BufTy).Contents (Elt F)),
    StableHlo.unary main_v510 main_v511 (broadcastInDim S20000x256 ![0, 1] bcast_S1x256_S20000x256_0_1 : (⟨S1x256, .f32⟩ : BufTy).Contents (Elt F) → (⟨S20000x256, .f32⟩ : BufTy).Contents (Elt F)),
    StableHlo.binary main_v474 main_v511 main_v512 (subf : (⟨S20000x256, .f32⟩ : BufTy).Contents (Elt F) → (⟨S20000x256, .f32⟩ : BufTy).Contents (Elt F) → (⟨S20000x256, .f32⟩ : BufTy).Contents (Elt F)),
    StableHlo.nullary main_cst_101 (constant S_ .f32 0x3727C5AC#32),
    StableHlo.unary main_cst_101 main_v513 (broadcastInDim S256 ![] bcast_S_S256 : (⟨S_, .f32⟩ : BufTy).Contents (Elt F) → (⟨S256, .f32⟩ : BufTy).Contents (Elt F)),
    StableHlo.binary main_v509 main_v513 main_v514 (addf : (⟨S256, .f32⟩ : BufTy).Contents (Elt F) → (⟨S256, .f32⟩ : BufTy).Contents (Elt F) → (⟨S256, .f32⟩ : BufTy).Contents (Elt F)),
    StableHlo.unary main_v514 main_v515 (Host.rsqrt : (⟨S256, .f32⟩ : BufTy).Contents (Elt F) → (⟨S256, .f32⟩ : BufTy).Contents (Elt F)),
    StableHlo.unary main_v515 main_v516 (broadcastInDim S1x256 ![1] bcast_S256_S1x256_1 : (⟨S256, .f32⟩ : BufTy).Contents (Elt F) → (⟨S1x256, .f32⟩ : BufTy).Contents (Elt F)),
    StableHlo.unary main_v516 main_v517 (broadcastInDim S20000x256 ![0, 1] bcast_S1x256_S20000x256_0_1 : (⟨S1x256, .f32⟩ : BufTy).Contents (Elt F) → (⟨S20000x256, .f32⟩ : BufTy).Contents (Elt F)),
    StableHlo.binary main_v512 main_v517 main_v518 (mulf : (⟨S20000x256, .f32⟩ : BufTy).Contents (Elt F) → (⟨S20000x256, .f32⟩ : BufTy).Contents (Elt F) → (⟨S20000x256, .f32⟩ : BufTy).Contents (Elt F)),
    StableHlo.unary main_arg12 main_v519 (broadcastInDim S1x256 ![1] bcast_S256_S1x256_1 : (⟨S256, .f32⟩ : BufTy).Contents (Elt F) → (⟨S1x256, .f32⟩ : BufTy).Contents (Elt F)),
    StableHlo.unary main_v519 main_v520 (broadcastInDim S20000x256 ![0, 1] bcast_S1x256_S20000x256_0_1 : (⟨S1x256, .f32⟩ : BufTy).Contents (Elt F) → (⟨S20000x256, .f32⟩ : BufTy).Contents (Elt F)),
    StableHlo.binary main_v518 main_v520 main_v521 (mulf : (⟨S20000x256, .f32⟩ : BufTy).Contents (Elt F) → (⟨S20000x256, .f32⟩ : BufTy).Contents (Elt F) → (⟨S20000x256, .f32⟩ : BufTy).Contents (Elt F)),
    StableHlo.unary main_arg13 main_v522 (broadcastInDim S1x256 ![1] bcast_S256_S1x256_1 : (⟨S256, .f32⟩ : BufTy).Contents (Elt F) → (⟨S1x256, .f32⟩ : BufTy).Contents (Elt F)),
    StableHlo.unary main_v522 main_v523 (broadcastInDim S20000x256 ![0, 1] bcast_S1x256_S20000x256_0_1 : (⟨S1x256, .f32⟩ : BufTy).Contents (Elt F) → (⟨S20000x256, .f32⟩ : BufTy).Contents (Elt F)),
    StableHlo.binary main_v521 main_v523 main_v524 (addf : (⟨S20000x256, .f32⟩ : BufTy).Contents (Elt F) → (⟨S20000x256, .f32⟩ : BufTy).Contents (Elt F) → (⟨S20000x256, .f32⟩ : BufTy).Contents (Elt F)),
    StableHlo.TRef.nullary main_call9.cst (constant S_ .f32 0x00000000#32),
    StableHlo.TRef.unary main_call9.cst main_call9.v0 (broadcastInDim S20000x256 ![] bcast_S_S20000x256),
    StableHlo.TRef.binary (.of main_v524 : StableHlo.TRef sig ⟨S20000x256, .f32⟩) main_call9.v0 main_call9.v1 maximumf,
    StableHlo.nullary main_cst_102 (constant S_ .f32 0x00000000#32),
    StableHlo.binary main_v505 main_cst_102 main_v526 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_103 (constant S_ .f32 0x47435000#32),
    StableHlo.unary main_cst_103 main_v527 (broadcastInDim S256 ![] bcast_S_S256 : (⟨S_, .f32⟩ : BufTy).Contents (Elt F) → (⟨S256, .f32⟩ : BufTy).Contents (Elt F)),
    StableHlo.binary main_v526 main_v527 main_v528 (Host.divf : (⟨S256, .f32⟩ : BufTy).Contents (Elt F) → (⟨S256, .f32⟩ : BufTy).Contents (Elt F) → (⟨S256, .f32⟩ : BufTy).Contents (Elt F)),
    StableHlo.nullary main_c_104 (constantI S_ 32 0#32),
    StableHlo.TRef.nullary main_call10.cst (constant S_ .f32 0x00000000#32),
    StableHlo.TRef.binary (.of main_v505 : StableHlo.TRef sig ⟨S50000x256, .f32⟩) main_call10.cst main_call10.v0 (fun x v => Host.reduceAdd x v reducesTo_S50000x256_S256_d0 h_S_),
    StableHlo.TRef.unary main_call10.v0 main_call10.v1 (broadcastInDim S1x256 ![1] bcast_S256_S1x256_1),
    StableHlo.TRef.nullary main_call10.cst_0 (constant S_ .f32 0x47435000#32),
    StableHlo.TRef.unary main_call10.cst_0 main_call10.v2 (broadcastInDim S1x256 ![] bcast_S_S1x256),
    StableHlo.TRef.binary main_call10.v1 main_call10.v2 main_call10.v3 Host.divf,
    StableHlo.TRef.unary main_call10.v3 main_call10.v4 (broadcastInDim S50000x256 ![0, 1] bcast_S1x256_S50000x256_0_1),
    StableHlo.TRef.binary (.of main_v505 : StableHlo.TRef sig ⟨S50000x256, .f32⟩) main_call10.v4 main_call10.v5 subf,
    StableHlo.TRef.binary main_call10.v5 main_call10.v5 main_call10.v6 mulf,
    StableHlo.TRef.unary (.of main_c_104 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x256_S256_d0 h_S_),
    StableHlo.TRef.unary main_call10.v8 main_call10.v10 (broadcastInDim S256 ![] bcast_S_S256),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S256 ![] bcast_S_S256),
    StableHlo.TRef.ternary main_call10.v12 main_call10.v11 main_call10.call0.v1 main_call10.call0.v2 (fun p a b => select (broadcastInDim S256 ![] bcast_S_S256 p) a b),
    StableHlo.unary main_v528 main_v530 (broadcastInDim S1x256 ![1] bcast_S256_S1x256_1 : (⟨S256, .f32⟩ : BufTy).Contents (Elt F) → (⟨S1x256, .f32⟩ : BufTy).Contents (Elt F)),
    StableHlo.unary main_v530 main_v531 (broadcastInDim S50000x256 ![0, 1] bcast_S1x256_S50000x256_0_1 : (⟨S1x256, .f32⟩ : BufTy).Contents (Elt F) → (⟨S50000x256, .f32⟩ : BufTy).Contents (Elt F)),
    StableHlo.binary main_v505 main_v531 main_v532 (subf : (⟨S50000x256, .f32⟩ : BufTy).Contents (Elt F) → (⟨S50000x256, .f32⟩ : BufTy).Contents (Elt F) → (⟨S50000x256, .f32⟩ : BufTy).Contents (Elt F)),
    StableHlo.nullary main_cst_105 (constant S_ .f32 0x3727C5AC#32),
    StableHlo.unary main_cst_105 main_v533 (broadcastInDim S256 ![] bcast_S_S256 : (⟨S_, .f32⟩ : BufTy).Contents (Elt F) → (⟨S256, .f32⟩ : BufTy).Contents (Elt F)),
    StableHlo.binary main_v529 main_v533 main_v534 (addf : (⟨S256, .f32⟩ : BufTy).Contents (Elt F) → (⟨S256, .f32⟩ : BufTy).Contents (Elt F) → (⟨S256, .f32⟩ : BufTy).Contents (Elt F)),
    StableHlo.unary main_v534 main_v535 (Host.rsqrt : (⟨S256, .f32⟩ : BufTy).Contents (Elt F) → (⟨S256, .f32⟩ : BufTy).Contents (Elt F)),
    StableHlo.unary main_v535 main_v536 (broadcastInDim S1x256 ![1] bcast_S256_S1x256_1 : (⟨S256, .f32⟩ : BufTy).Contents (Elt F) → (⟨S1x256, .f32⟩ : BufTy).Contents (Elt F)),
    StableHlo.unary main_v536 main_v537 (broadcastInDim S50000x256 ![0, 1] bcast_S1x256_S50000x256_0_1 : (⟨S1x256, .f32⟩ : BufTy).Contents (Elt F) → (⟨S50000x256, .f32⟩ : BufTy).Contents (Elt F)),
    StableHlo.binary main_v532 main_v537 main_v538 (mulf : (⟨S50000x256, .f32⟩ : BufTy).Contents (Elt F) → (⟨S50000x256, .f32⟩ : BufTy).Contents (Elt F) → (⟨S50000x256, .f32⟩ : BufTy).Contents (Elt F)),
    StableHlo.unary main_arg12 main_v539 (broadcastInDim S1x256 ![1] bcast_S256_S1x256_1 : (⟨S256, .f32⟩ : BufTy).Contents (Elt F) → (⟨S1x256, .f32⟩ : BufTy).Contents (Elt F)),
    StableHlo.unary main_v539 main_v540 (broadcastInDim S50000x256 ![0, 1] bcast_S1x256_S50000x256_0_1 : (⟨S1x256, .f32⟩ : BufTy).Contents (Elt F) → (⟨S50000x256, .f32⟩ : BufTy).Contents (Elt F)),
    StableHlo.binary main_v538 main_v540 main_v541 (mulf : (⟨S50000x256, .f32⟩ : BufTy).Contents (Elt F) → (⟨S50000x256, .f32⟩ : BufTy).Contents (Elt F) → (⟨S50000x256, .f32⟩ : BufTy).Contents (Elt F)),
    StableHlo.unary main_arg13 main_v542 (broadcastInDim S1x256 ![1] bcast_S256_S1x256_1 : (⟨S256, .f32⟩ : BufTy).Contents (Elt F) → (⟨S1x256, .f32⟩ : BufTy).Contents (Elt F)),
    StableHlo.unary main_v542 main_v543 (broadcastInDim S50000x256 ![0, 1] bcast_S1x256_S50000x256_0_1 : (⟨S1x256, .f32⟩ : BufTy).Contents (Elt F) → (⟨S50000x256, .f32⟩ : BufTy).Contents (Elt F)),
    StableHlo.binary main_v541 main_v543 main_v544 (addf : (⟨S50000x256, .f32⟩ : BufTy).Contents (Elt F) → (⟨S50000x256, .f32⟩ : BufTy).Contents (Elt F) → (⟨S50000x256, .f32⟩ : BufTy).Contents (Elt F)),
    StableHlo.TRef.nullary main_call11.cst (constant S_ .f32 0x00000000#32),
    StableHlo.TRef.unary main_call11.cst main_call11.v0 (broadcastInDim S50000x256 ![] bcast_S_S50000x256),
    StableHlo.TRef.binary (.of main_v544 : StableHlo.TRef sig ⟨S50000x256, .f32⟩) main_call11.v0 main_call11.v1 maximumf,
    StableHlo.nullary main_cst_106 (constant S_ .f32 0x00000000#32),
    StableHlo.binary main_v413 main_cst_106 main_v546 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_107 (constant S_ .f32 0x461C4000#32),
    StableHlo.unary main_cst_107 main_v547 (broadcastInDim S256 ![] bcast_S_S256 : (⟨S_, .f32⟩ : BufTy).Contents (Elt F) → (⟨S256, .f32⟩ : BufTy).Contents (Elt F)),
    StableHlo.binary main_v546 main_v547 main_v548 (Host.divf : (⟨S256, .f32⟩ : BufTy).Contents (Elt F) → (⟨S256, .f32⟩ : BufTy).Contents (Elt F) → (⟨S256, .f32⟩ : BufTy).Contents (Elt F)),
    StableHlo.nullary main_c_108 (constantI S_ 32 0#32) ]

/-- The references window 10's operations write, in order. -/
abbrev ops_part10_W : List (Ref sig .tc) :=
  [main_v500, main_v501, main_v502, main_v503, main_v504, main_v505, main_cst_98, main_v506, main_cst_99, main_v507, main_v508, main_c_100, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v509, main_v510, main_v511, main_v512, main_cst_101, main_v513, main_v514, main_v515, main_v516, main_v517, main_v518, main_v519, main_v520, main_v521, main_v522, main_v523, main_v524, main_call9_cst, main_call9_v0, main_v525, main_cst_102, main_v526, main_cst_103, main_v527, main_v528, main_c_104, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v529, main_v530, main_v531, main_v532, main_cst_105, main_v533, main_v534, main_v535, main_v536, main_v537, main_v538, main_v539, main_v540, main_v541, main_v542, main_v543, main_v544, main_call11_cst, main_call11_v0, main_v545, main_cst_106, main_v546, main_cst_107, main_v547, main_v548, main_c_108]

/-- The operations of @main's window 11, in order (799 … 886 of 886), each call replaced by the callee's operations over the call's buffers. -/
abbrev ops_part11 : List (HloOp τ sig (Elt F)) :=
  [ StableHlo.TRef.nullary main_call12.cst (constant S_ .f32 0x00000000#32),
    StableHlo.TRef.binary (.of main_v413 : StableHlo.TRef sig ⟨S10000x256, .f32⟩) main_call12.cst main_call12.v0 (fun x v => Host.reduceAdd x v reducesTo_S10000x256_S256_d0 h_S_),
    StableHlo.TRef.unary main_call12.v0 main_call12.v1 (broadcastInDim S1x256 ![1] bcast_S256_S1x256_1),
    StableHlo.TRef.nullary main_call12.cst_0 (constant S_ .f32 0x461C4000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S10000x256 ![0, 1] bcast_S1x256_S10000x256_0_1),
    StableHlo.TRef.binary (.of main_v413 : StableHlo.TRef sig ⟨S10000x256, .f32⟩) main_call12.v4 main_call12.v5 subf,
    StableHlo.TRef.binary main_call12.v5 main_call12.v5 main_call12.v6 mulf,
    StableHlo.TRef.unary (.of main_c_108 : StableHlo.TRef sig ⟨S_, .i32⟩) main_call12.v7 (sitofp .f32),
    StableHlo.TRef.nullary main_call12.cst_1 (constant S_ .f32 0x461C4000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S10000x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_v548 main_v550 (broadcastInDim S1x256 ![1] bcast_S256_S1x256_1 : (⟨S256, .f32⟩ : BufTy).Contents (Elt F) → (⟨S1x256, .f32⟩ : BufTy).Contents (Elt F)),
    StableHlo.unary main_v550 main_v551 (broadcastInDim S10000x256 ![0, 1] bcast_S1x256_S10000x256_0_1 : (⟨S1x256, .f32⟩ : BufTy).Contents (Elt F) → (⟨S10000x256, .f32⟩ : BufTy).Contents (Elt F)),
    StableHlo.binary main_v413 main_v551 main_v552 (subf : (⟨S10000x256, .f32⟩ : BufTy).Contents (Elt F) → (⟨S10000x256, .f32⟩ : BufTy).Contents (Elt F) → (⟨S10000x256, .f32⟩ : BufTy).Contents (Elt F)),
    StableHlo.nullary main_cst_109 (constant S_ .f32 0x3727C5AC#32),
    StableHlo.unary main_cst_109 main_v553 (broadcastInDim S256 ![] bcast_S_S256 : (⟨S_, .f32⟩ : BufTy).Contents (Elt F) → (⟨S256, .f32⟩ : BufTy).Contents (Elt F)),
    StableHlo.binary main_v549 main_v553 main_v554 (addf : (⟨S256, .f32⟩ : BufTy).Contents (Elt F) → (⟨S256, .f32⟩ : BufTy).Contents (Elt F) → (⟨S256, .f32⟩ : BufTy).Contents (Elt F)),
    StableHlo.unary main_v554 main_v555 (Host.rsqrt : (⟨S256, .f32⟩ : BufTy).Contents (Elt F) → (⟨S256, .f32⟩ : BufTy).Contents (Elt F)),
    StableHlo.unary main_v555 main_v556 (broadcastInDim S1x256 ![1] bcast_S256_S1x256_1 : (⟨S256, .f32⟩ : BufTy).Contents (Elt F) → (⟨S1x256, .f32⟩ : BufTy).Contents (Elt F)),
    StableHlo.unary main_v556 main_v557 (broadcastInDim S10000x256 ![0, 1] bcast_S1x256_S10000x256_0_1 : (⟨S1x256, .f32⟩ : BufTy).Contents (Elt F) → (⟨S10000x256, .f32⟩ : BufTy).Contents (Elt F)),
    StableHlo.binary main_v552 main_v557 main_v558 (mulf : (⟨S10000x256, .f32⟩ : BufTy).Contents (Elt F) → (⟨S10000x256, .f32⟩ : BufTy).Contents (Elt F) → (⟨S10000x256, .f32⟩ : BufTy).Contents (Elt F)),
    StableHlo.unary main_arg12 main_v559 (broadcastInDim S1x256 ![1] bcast_S256_S1x256_1 : (⟨S256, .f32⟩ : BufTy).Contents (Elt F) → (⟨S1x256, .f32⟩ : BufTy).Contents (Elt F)),
    StableHlo.unary main_v559 main_v560 (broadcastInDim S10000x256 ![0, 1] bcast_S1x256_S10000x256_0_1 : (⟨S1x256, .f32⟩ : BufTy).Contents (Elt F) → (⟨S10000x256, .f32⟩ : BufTy).Contents (Elt F)),
    StableHlo.binary main_v558 main_v560 main_v561 (mulf : (⟨S10000x256, .f32⟩ : BufTy).Contents (Elt F) → (⟨S10000x256, .f32⟩ : BufTy).Contents (Elt F) → (⟨S10000x256, .f32⟩ : BufTy).Contents (Elt F)),
    StableHlo.unary main_arg13 main_v562 (broadcastInDim S1x256 ![1] bcast_S256_S1x256_1 : (⟨S256, .f32⟩ : BufTy).Contents (Elt F) → (⟨S1x256, .f32⟩ : BufTy).Contents (Elt F)),
    StableHlo.unary main_v562 main_v563 (broadcastInDim S10000x256 ![0, 1] bcast_S1x256_S10000x256_0_1 : (⟨S1x256, .f32⟩ : BufTy).Contents (Elt F) → (⟨S10000x256, .f32⟩ : BufTy).Contents (Elt F)),
    StableHlo.binary main_v561 main_v563 main_v564 (addf : (⟨S10000x256, .f32⟩ : BufTy).Contents (Elt F) → (⟨S10000x256, .f32⟩ : BufTy).Contents (Elt F) → (⟨S10000x256, .f32⟩ : BufTy).Contents (Elt F)),
    StableHlo.TRef.nullary main_call13.cst (constant S_ .f32 0x00000000#32),
    StableHlo.TRef.unary main_call13.cst main_call13.v0 (broadcastInDim S10000x256 ![] bcast_S_S10000x256),
    StableHlo.TRef.binary (.of main_v564 : StableHlo.TRef sig ⟨S10000x256, .f32⟩) main_call13.v0 main_call13.v1 maximumf,
    StableHlo.nullary main_cst_110 (constant S_ .f32 0x00000000#32),
    StableHlo.binary main_v382 main_cst_110 main_v566 ((fun x v => Host.reduceAdd x v reducesTo_S3000x256_S256_d0 h_S_) : (⟨S3000x256, .f32⟩ : BufTy).Contents (Elt F) → (⟨S_, .f32⟩ : BufTy).Contents (Elt F) → (⟨S256, .f32⟩ : BufTy).Contents (Elt F)),
    StableHlo.nullary main_cst_111 (constant S_ .f32 0x453B8000#32),
    StableHlo.unary main_cst_111 main_v567 (broadcastInDim S256 ![] bcast_S_S256 : (⟨S_, .f32⟩ : BufTy).Contents (Elt F) → (⟨S256, .f32⟩ : BufTy).Contents (Elt F)),
    StableHlo.binary main_v566 main_v567 main_v568 (Host.divf : (⟨S256, .f32⟩ : BufTy).Contents (Elt F) → (⟨S256, .f32⟩ : BufTy).Contents (Elt F) → (⟨S256, .f32⟩ : BufTy).Contents (Elt F)),
    StableHlo.nullary main_c_112 (constantI S_ 32 0#32),
    StableHlo.TRef.nullary main_call14.cst (constant S_ .f32 0x00000000#32),
    StableHlo.TRef.binary (.of main_v382 : StableHlo.TRef sig ⟨S3000x256, .f32⟩) main_call14.cst main_call14.v0 (fun x v => Host.reduceAdd x v reducesTo_S3000x256_S256_d0 h_S_),
    StableHlo.TRef.unary main_call14.v0 main_call14.v1 (broadcastInDim S1x256 ![1] bcast_S256_S1x256_1),
    StableHlo.TRef.nullary main_call14.cst_0 (constant S_ .f32 0x453B8000#32),
    StableHlo.TRef.unary main_call14.cst_0 main_call14.v2 (broadcastInDim S1x256 ![] bcast_S_S1x256),
    StableHlo.TRef.binary main_call14.v1 main_call14.v2 main_call14.v3 Host.divf,
    StableHlo.TRef.unary main_call14.v3 main_call14.v4 (broadcastInDim S3000x256 ![0, 1] bcast_S1x256_S3000x256_0_1),
    StableHlo.TRef.binary (.of main_v382 : StableHlo.TRef sig ⟨S3000x256, .f32⟩) main_call14.v4 main_call14.v5 subf,
    StableHlo.TRef.binary main_call14.v5 main_call14.v5 main_call14.v6 mulf,
    StableHlo.TRef.unary (.of main_c_112 : StableHlo.TRef sig ⟨S_, .i32⟩) main_call14.v7 (sitofp .f32),
    StableHlo.TRef.nullary main_call14.cst_1 (constant S_ .f32 0x453B8000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S3000x256_S256_d0 h_S_),
    StableHlo.TRef.unary main_call14.v8 main_call14.v10 (broadcastInDim S256 ![] bcast_S_S256),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S256 ![] bcast_S_S256),
    StableHlo.TRef.ternary main_call14.v12 main_call14.v11 main_call14.call0.v1 main_call14.call0.v2 (fun p a b => select (broadcastInDim S256 ![] bcast_S_S256 p) a b),
    StableHlo.unary main_v568 main_v570 (broadcastInDim S1x256 ![1] bcast_S256_S1x256_1 : (⟨S256, .f32⟩ : BufTy).Contents (Elt F) → (⟨S1x256, .f32⟩ : BufTy).Contents (Elt F)),
    StableHlo.unary main_v570 main_v571 (broadcastInDim S3000x256 ![0, 1] bcast_S1x256_S3000x256_0_1 : (⟨S1x256, .f32⟩ : BufTy).Contents (Elt F) → (⟨S3000x256, .f32⟩ : BufTy).Contents (Elt F)),
    StableHlo.binary main_v382 main_v571 main_v572 (subf : (⟨S3000x256, .f32⟩ : BufTy).Contents (Elt F) → (⟨S3000x256, .f32⟩ : BufTy).Contents (Elt F) → (⟨S3000x256, .f32⟩ : BufTy).Contents (Elt F)),
    StableHlo.nullary main_cst_113 (constant S_ .f32 0x3727C5AC#32),
    StableHlo.unary main_cst_113 main_v573 (broadcastInDim S256 ![] bcast_S_S256 : (⟨S_, .f32⟩ : BufTy).Contents (Elt F) → (⟨S256, .f32⟩ : BufTy).Contents (Elt F)),
    StableHlo.binary main_v569 main_v573 main_v574 (addf : (⟨S256, .f32⟩ : BufTy).Contents (Elt F) → (⟨S256, .f32⟩ : BufTy).Contents (Elt F) → (⟨S256, .f32⟩ : BufTy).Contents (Elt F)),
    StableHlo.unary main_v574 main_v575 (Host.rsqrt : (⟨S256, .f32⟩ : BufTy).Contents (Elt F) → (⟨S256, .f32⟩ : BufTy).Contents (Elt F)),
    StableHlo.unary main_v575 main_v576 (broadcastInDim S1x256 ![1] bcast_S256_S1x256_1 : (⟨S256, .f32⟩ : BufTy).Contents (Elt F) → (⟨S1x256, .f32⟩ : BufTy).Contents (Elt F)),
    StableHlo.unary main_v576 main_v577 (broadcastInDim S3000x256 ![0, 1] bcast_S1x256_S3000x256_0_1 : (⟨S1x256, .f32⟩ : BufTy).Contents (Elt F) → (⟨S3000x256, .f32⟩ : BufTy).Contents (Elt F)),
    StableHlo.binary main_v572 main_v577 main_v578 (mulf : (⟨S3000x256, .f32⟩ : BufTy).Contents (Elt F) → (⟨S3000x256, .f32⟩ : BufTy).Contents (Elt F) → (⟨S3000x256, .f32⟩ : BufTy).Contents (Elt F)),
    StableHlo.unary main_arg12 main_v579 (broadcastInDim S1x256 ![1] bcast_S256_S1x256_1 : (⟨S256, .f32⟩ : BufTy).Contents (Elt F) → (⟨S1x256, .f32⟩ : BufTy).Contents (Elt F)),
    StableHlo.unary main_v579 main_v580 (broadcastInDim S3000x256 ![0, 1] bcast_S1x256_S3000x256_0_1 : (⟨S1x256, .f32⟩ : BufTy).Contents (Elt F) → (⟨S3000x256, .f32⟩ : BufTy).Contents (Elt F)),
    StableHlo.binary main_v578 main_v580 main_v581 (mulf : (⟨S3000x256, .f32⟩ : BufTy).Contents (Elt F) → (⟨S3000x256, .f32⟩ : BufTy).Contents (Elt F) → (⟨S3000x256, .f32⟩ : BufTy).Contents (Elt F)),
    StableHlo.unary main_arg13 main_v582 (broadcastInDim S1x256 ![1] bcast_S256_S1x256_1 : (⟨S256, .f32⟩ : BufTy).Contents (Elt F) → (⟨S1x256, .f32⟩ : BufTy).Contents (Elt F)),
    StableHlo.unary main_v582 main_v583 (broadcastInDim S3000x256 ![0, 1] bcast_S1x256_S3000x256_0_1 : (⟨S1x256, .f32⟩ : BufTy).Contents (Elt F) → (⟨S3000x256, .f32⟩ : BufTy).Contents (Elt F)),
    StableHlo.binary main_v581 main_v583 main_v584 (addf : (⟨S3000x256, .f32⟩ : BufTy).Contents (Elt F) → (⟨S3000x256, .f32⟩ : BufTy).Contents (Elt F) → (⟨S3000x256, .f32⟩ : BufTy).Contents (Elt F)),
    StableHlo.TRef.nullary main_call15.cst (constant S_ .f32 0x00000000#32),
    StableHlo.TRef.unary main_call15.cst main_call15.v0 (broadcastInDim S3000x256 ![] bcast_S_S3000x256),
    StableHlo.TRef.binary (.of main_v584 : StableHlo.TRef sig ⟨S3000x256, .f32⟩) main_call15.v0 main_call15.v1 maximumf ]

/-- The references window 11's operations write, in order. -/
abbrev ops_part11_W : List (Ref sig .tc) :=
  [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v549, main_v550, main_v551, main_v552, main_cst_109, main_v553, main_v554, main_v555, main_v556, main_v557, main_v558, main_v559, main_v560, main_v561, main_v562, main_v563, main_v564, main_call13_cst, main_call13_v0, main_v565, main_cst_110, main_v566, main_cst_111, main_v567, main_v568, main_c_112, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v569, main_v570, main_v571, main_v572, main_cst_113, main_v573, main_v574, main_v575, main_v576, main_v577, main_v578, main_v579, main_v580, main_v581, main_v582, main_v583, main_v584, main_call15_cst, main_call15_v0, main_v585]

/-- @main's 886 operations, in order. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11)))))))))))

end Cert.ReferenceIdeal.Hand

end
-- ==== Proof.Ref.MainEq.lean ====
/-
  The reference program's @main is a straight line of host operations: each window of its text is the
  sequence of that window's operations (a call of a module-local function being the callee's operations
  over the call's buffers, which is what unfolding the callee's definition at the call gives), and @main,
  which runs its windows in order, is the sequence of them all. The signature scopes no TensorCore buffer
  and no semaphore: the program is tensor values only.
-/
import proofs.«126569_j1468878815453_1_alg».proof.Proof.Ref.Ops
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Each window is its list of operations run in order: both sides are one chain of `hlo` steps, the
    callees' bodies and the records' fields unfolding by computation. The chains are 60 to 108 steps deep. -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
theorem main_part7_eq (c : Dev nD) : main_part7 (F := F) c = seq ops_part7 := rfl
set_option maxRecDepth 8192 in
theorem main_part8_eq (c : Dev nD) : main_part8 (F := F) c = seq ops_part8 := rfl
set_option maxRecDepth 8192 in
theorem main_part9_eq (c : Dev nD) : main_part9 (F := F) c = seq ops_part9 := rfl
set_option maxRecDepth 8192 in
theorem main_part10_eq (c : Dev nD) : main_part10 (F := F) c = seq ops_part10 := rfl
set_option maxRecDepth 8192 in
theorem main_part11_eq (c : Dev nD) : main_part11 (F := F) c = seq ops_part11 := rfl

set_option maxRecDepth 8192 in
/-- @main is the sequence of all its operations: a sequence of an append is the sequences one after the other
    (`seq_append`), and each of those is a window. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c]
  rfl

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

end Cert.ReferenceIdeal.Hand

end
-- ==== Proof.Ref.Side.lean ====
/-
  What @main's operations touch and write. Every operation is one of the builders over TensorCore
  references, so it touches TensorCore references only and determines its results; it writes exactly its
  result reference, and window by window those are the listed ones. A reference that is in no window's
  list — every argument of @main is one — therefore holds at the end what it held at the launch.
-/
import proofs.«126569_j1468878815453_1_alg».proof.Proof.Ref.Ops
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Every operation touches TensorCore references only

Each conjunct is a builder's own fact (`nullary_bufs_sub` … `reshape_bufs_sub`). -/

theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub, and_self]
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub, and_self]
theorem ops_part2_sub : (ops_part2 : List (HloOp τ sig (Elt F))).Forall fun op => op.bufs ⊆ tcRefs τ sig := by
  simp only [List.Forall, nullary_bufs_sub, unary_bufs_sub, binary_bufs_sub, ternary_bufs_sub, reshape_bufs_sub, and_self]
theorem ops_part3_sub : (ops_part3 : List (HloOp τ sig (Elt F))).Forall fun op => op.bufs ⊆ tcRefs τ sig := by
  simp only [List.Forall, nullary_bufs_sub, unary_bufs_sub, binary_bufs_sub, ternary_bufs_sub, reshape_bufs_sub, and_self]
theorem ops_part4_sub : (ops_part4 : List (HloOp τ sig (Elt F))).Forall fun op => op.bufs ⊆ tcRefs τ sig := by
  simp only [List.Forall, nullary_bufs_sub, unary_bufs_sub, binary_bufs_sub, ternary_bufs_sub, reshape_bufs_sub, and_self]
theorem ops_part5_sub : (ops_part5 : List (HloOp τ sig (Elt F))).Forall fun op => op.bufs ⊆ tcRefs τ sig := by
  simp only [List.Forall, nullary_bufs_sub, unary_bufs_sub, binary_bufs_sub, ternary_bufs_sub, reshape_bufs_sub, and_self]
theorem ops_part6_sub : (ops_part6 : List (HloOp τ sig (Elt F))).Forall fun op => op.bufs ⊆ tcRefs τ sig := by
  simp only [List.Forall, nullary_bufs_sub, unary_bufs_sub, binary_bufs_sub, ternary_bufs_sub, reshape_bufs_sub, and_self]
theorem ops_part7_sub : (ops_part7 : List (HloOp τ sig (Elt F))).Forall fun op => op.bufs ⊆ tcRefs τ sig := by
  simp only [List.Forall, nullary_bufs_sub, unary_bufs_sub, binary_bufs_sub, ternary_bufs_sub, reshape_bufs_sub, and_self]
theorem ops_part8_sub : (ops_part8 : List (HloOp τ sig (Elt F))).Forall fun op => op.bufs ⊆ tcRefs τ sig := by
  simp only [List.Forall, nullary_bufs_sub, unary_bufs_sub, binary_bufs_sub, ternary_bufs_sub, reshape_bufs_sub, and_self]
theorem ops_part9_sub : (ops_part9 : List (HloOp τ sig (Elt F))).Forall fun op => op.bufs ⊆ tcRefs τ sig := by
  simp only [List.Forall, nullary_bufs_sub, unary_bufs_sub, binary_bufs_sub, ternary_bufs_sub, reshape_bufs_sub, and_self]
theorem ops_part10_sub : (ops_part10 : List (HloOp τ sig (Elt F))).Forall fun op => op.bufs ⊆ tcRefs τ sig := by
  simp only [List.Forall, nullary_bufs_sub, unary_bufs_sub, binary_bufs_sub, ternary_bufs_sub, reshape_bufs_sub, and_self]
theorem ops_part11_sub : (ops_part11 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig := by
  simp only [ops, List.forall_append]
  exact ⟨ops_part0_sub, ops_part1_sub, ops_part2_sub, ops_part3_sub, ops_part4_sub, ops_part5_sub, ops_part6_sub, ops_part7_sub, ops_part8_sub, ops_part9_sub, ops_part10_sub, ops_part11_sub⟩

/-! ## Every operation determines its results

None of the builders marks a buffer as taking contents not chosen: `fresh` is empty by definition. -/

theorem ops_part0_fresh : (ops_part0 : List (HloOp τ sig (Elt F))).Forall fun op => op.fresh = ∅ := by
  simp only [List.Forall]; (repeat' apply And.intro) <;> rfl
theorem ops_part1_fresh : (ops_part1 : List (HloOp τ sig (Elt F))).Forall fun op => op.fresh = ∅ := by
  simp only [List.Forall]; (repeat' apply And.intro) <;> rfl
theorem ops_part2_fresh : (ops_part2 : List (HloOp τ sig (Elt F))).Forall fun op => op.fresh = ∅ := by
  simp only [List.Forall]; (repeat' apply And.intro) <;> rfl
theorem ops_part3_fresh : (ops_part3 : List (HloOp τ sig (Elt F))).Forall fun op => op.fresh = ∅ := by
  simp only [List.Forall]; (repeat' apply And.intro) <;> rfl
theorem ops_part4_fresh : (ops_part4 : List (HloOp τ sig (Elt F))).Forall fun op => op.fresh = ∅ := by
  simp only [List.Forall]; (repeat' apply And.intro) <;> rfl
theorem ops_part5_fresh : (ops_part5 : List (HloOp τ sig (Elt F))).Forall fun op => op.fresh = ∅ := by
  simp only [List.Forall]; (repeat' apply And.intro) <;> rfl
theorem ops_part6_fresh : (ops_part6 : List (HloOp τ sig (Elt F))).Forall fun op => op.fresh = ∅ := by
  simp only [List.Forall]; (repeat' apply And.intro) <;> rfl
theorem ops_part7_fresh : (ops_part7 : List (HloOp τ sig (Elt F))).Forall fun op => op.fresh = ∅ := by
  simp only [List.Forall]; (repeat' apply And.intro) <;> rfl
theorem ops_part8_fresh : (ops_part8 : List (HloOp τ sig (Elt F))).Forall fun op => op.fresh = ∅ := by
  simp only [List.Forall]; (repeat' apply And.intro) <;> rfl
theorem ops_part9_fresh : (ops_part9 : List (HloOp τ sig (Elt F))).Forall fun op => op.fresh = ∅ := by
  simp only [List.Forall]; (repeat' apply And.intro) <;> rfl
theorem ops_part10_fresh : (ops_part10 : List (HloOp τ sig (Elt F))).Forall fun op => op.fresh = ∅ := by
  simp only [List.Forall]; (repeat' apply And.intro) <;> rfl
theorem ops_part11_fresh : (ops_part11 : List (HloOp τ sig (Elt F))).Forall fun op => op.fresh = ∅ := by
  simp only [List.Forall]; (repeat' apply And.intro) <;> rfl

theorem ops_fresh : ∀ op ∈ (ops : List (HloOp τ sig (Elt F))), op.fresh = ∅ :=
  List.forall_iff_forall_mem.mp (by
    simp only [ops, List.forall_append]
    exact ⟨ops_part0_fresh, ops_part1_fresh, ops_part2_fresh, ops_part3_fresh, ops_part4_fresh, ops_part5_fresh, ops_part6_fresh, ops_part7_fresh, ops_part8_fresh, ops_part9_fresh, ops_part10_fresh, ops_part11_fresh⟩)

/-! ## What each window writes

An operation writes its result reference alone (`*_writes`); as device buffers are told apart exactly as
their references are (`Proc.devRef_injective`), "the result buffer is among the listed ones" is membership of
a reference in a literal list, which is decided. -/

theorem ops_part0_writes : (ops_part0 : List (HloOp τ sig (Elt F))).Forall fun op => op.writes ⊆ (ops_part0_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part1_writes : (ops_part1 : List (HloOp τ sig (Elt F))).Forall fun op => op.writes ⊆ (ops_part1_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part2_writes : (ops_part2 : List (HloOp τ sig (Elt F))).Forall fun op => op.writes ⊆ (ops_part2_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part3_writes : (ops_part3 : List (HloOp τ sig (Elt F))).Forall fun op => op.writes ⊆ (ops_part3_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part4_writes : (ops_part4 : List (HloOp τ sig (Elt F))).Forall fun op => op.writes ⊆ (ops_part4_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part5_writes : (ops_part5 : List (HloOp τ sig (Elt F))).Forall fun op => op.writes ⊆ (ops_part5_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part6_writes : (ops_part6 : List (HloOp τ sig (Elt F))).Forall fun op => op.writes ⊆ (ops_part6_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part7_writes : (ops_part7 : List (HloOp τ sig (Elt F))).Forall fun op => op.writes ⊆ (ops_part7_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part8_writes : (ops_part8 : List (HloOp τ sig (Elt F))).Forall fun op => op.writes ⊆ (ops_part8_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part9_writes : (ops_part9 : List (HloOp τ sig (Elt F))).Forall fun op => op.writes ⊆ (ops_part9_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part10_writes : (ops_part10 : List (HloOp τ sig (Elt F))).Forall fun op => op.writes ⊆ (ops_part10_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide
theorem ops_part11_writes : (ops_part11 : List (HloOp τ sig (Elt F))).Forall fun op => op.writes ⊆ (ops_part11_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

/-! ## A reference a window does not write keeps its contents through it -/

theorem keep0 (V : Valuation τ sig (Elt F)) (r : Ref sig .tc) (h : r ∉ ops_part0_W) :
    after ops_part0 V (Proc.devRef .tc r) = V (Proc.devRef .tc r) :=
  after_of_writes_sub ops_part0 V ops_part0_writes h
theorem keep1 (V : Valuation τ sig (Elt F)) (r : Ref sig .tc) (h : r ∉ ops_part1_W) :
    after ops_part1 V (Proc.devRef .tc r) = V (Proc.devRef .tc r) :=
  after_of_writes_sub ops_part1 V ops_part1_writes h
theorem keep2 (V : Valuation τ sig (Elt F)) (r : Ref sig .tc) (h : r ∉ ops_part2_W) :
    after ops_part2 V (Proc.devRef .tc r) = V (Proc.devRef .tc r) :=
  after_of_writes_sub ops_part2 V ops_part2_writes h
theorem keep3 (V : Valuation τ sig (Elt F)) (r : Ref sig .tc) (h : r ∉ ops_part3_W) :
    after ops_part3 V (Proc.devRef .tc r) = V (Proc.devRef .tc r) :=
  after_of_writes_sub ops_part3 V ops_part3_writes h
theorem keep4 (V : Valuation τ sig (Elt F)) (r : Ref sig .tc) (h : r ∉ ops_part4_W) :
    after ops_part4 V (Proc.devRef .tc r) = V (Proc.devRef .tc r) :=
  after_of_writes_sub ops_part4 V ops_part4_writes h
theorem keep5 (V : Valuation τ sig (Elt F)) (r : Ref sig .tc) (h : r ∉ ops_part5_W) :
    after ops_part5 V (Proc.devRef .tc r) = V (Proc.devRef .tc r) :=
  after_of_writes_sub ops_part5 V ops_part5_writes h
theorem keep6 (V : Valuation τ sig (Elt F)) (r : Ref sig .tc) (h : r ∉ ops_part6_W) :
    after ops_part6 V (Proc.devRef .tc r) = V (Proc.devRef .tc r) :=
  after_of_writes_sub ops_part6 V ops_part6_writes h
theorem keep7 (V : Valuation τ sig (Elt F)) (r : Ref sig .tc) (h : r ∉ ops_part7_W) :
    after ops_part7 V (Proc.devRef .tc r) = V (Proc.devRef .tc r) :=
  after_of_writes_sub ops_part7 V ops_part7_writes h
theorem keep8 (V : Valuation τ sig (Elt F)) (r : Ref sig .tc) (h : r ∉ ops_part8_W) :
    after ops_part8 V (Proc.devRef .tc r) = V (Proc.devRef .tc r) :=
  after_of_writes_sub ops_part8 V ops_part8_writes h
theorem keep9 (V : Valuation τ sig (Elt F)) (r : Ref sig .tc) (h : r ∉ ops_part9_W) :
    after ops_part9 V (Proc.devRef .tc r) = V (Proc.devRef .tc r) :=
  after_of_writes_sub ops_part9 V ops_part9_writes h
theorem keep10 (V : Valuation τ sig (Elt F)) (r : Ref sig .tc) (h : r ∉ ops_part10_W) :
    after ops_part10 V (Proc.devRef .tc r) = V (Proc.devRef .tc r) :=
  after_of_writes_sub ops_part10 V ops_part10_writes h
theorem keep11 (V : Valuation τ sig (Elt F)) (r : Ref sig .tc) (h : r ∉ ops_part11_W) :
    after ops_part11 V (Proc.devRef .tc r) = V (Proc.devRef .tc r) :=
  after_of_writes_sub ops_part11 V ops_part11_writes h

/-- The reference `r` is the result of no operation of @main. -/
abbrev Untouched (r : Ref sig .tc) : Prop :=
  r ∉ ops_part0_W ∧ r ∉ ops_part1_W ∧ r ∉ ops_part2_W ∧ r ∉ ops_part3_W ∧ r ∉ ops_part4_W ∧ r ∉ ops_part5_W ∧ r ∉ ops_part6_W ∧ r ∉ ops_part7_W ∧ r ∉ ops_part8_W ∧ r ∉ ops_part9_W ∧ r ∉ ops_part10_W ∧ r ∉ ops_part11_W

/-- The fold over all of @main is the fold over its windows, one after the other. -/
theorem after_ops (V : Valuation τ sig (Elt F)) :
    after ops V = after ops_part11 (after ops_part10 (after ops_part9 (after ops_part8 (after ops_part7 (after ops_part6 (after ops_part5 (after ops_part4 (after ops_part3 (after ops_part2 (after ops_part1 (after ops_part0 (V)))))))))))) := by
  simp only [ops, StableHlo.after_append]

/-- A reference no operation writes holds at the end what it held at the start. -/
theorem ops_keep (V : Valuation τ sig (Elt F)) (r : Ref sig .tc) (h : Untouched r) :
    after ops V (Proc.devRef .tc r) = V (Proc.devRef .tc r) := by
  obtain ⟨h0, h1, h2, h3, h4, h5, h6, h7, h8, h9, h10, h11⟩ := h
  rw [after_ops, keep11 _ r h11, keep10 _ r h10, keep9 _ r h9, keep8 _ r h8, keep7 _ r h7, keep6 _ r h6, keep5 _ r h5, keep4 _ r h4, keep3 _ r h3, keep2 _ r h2, keep1 _ r h1, keep0 _ r h0]

end Cert.ReferenceIdeal.Hand

end
-- ==== Proof.Ref.Run.lean ====
/-
  The reference program's run. @main is a straight line of host operations over a signature that scopes
  nothing, so from any memory with zero counters every weakly fair execution of it on the TensorCores
  terminates, and each TensorCore buffer ends at the fold of the operations over the device's launch
  contents (`run_seq`). The four results are stated as that fold at their references, kept folded; the
  arguments, which no operation writes, end as they were launched.
-/
import proofs.«126569_j1468878815453_1_alg».proof.Proof.Ref.MainEq
import proofs.«126569_j1468878815453_1_alg».proof.Proof.Ref.Side

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What device `c`'s buffers hold once @main has run from launch memory `m`: the fold of @main's
    operations, in order, over the device's launch contents. -/
def final (m : (ℓ : Loc nD τ sig) → Buf (Elt F) ℓ) (c : Dev nD) : Valuation τ sig (Elt F) :=
  after ops (launchContents m c)

theorem final_eq (m : (ℓ : Loc nD τ sig) → Buf (Elt F) ℓ) (c : Dev nD) :
    final m c = after ops (launchContents m c) := rfl

/-- A reference no operation writes holds at the end what the launch gave it. -/
theorem final_keep (m : (ℓ : Loc nD τ sig) → Buf (Elt F) ℓ) (c : Dev nD) (r : Ref sig .tc) (h : Untouched r) :
    final m c (Proc.devRef .tc r) = m ((c.tc : Thread nD τ).loc r) :=
  ops_keep (launchContents m c) r h

/-- @main's first result on device `c` (`%525`). -/
def res525 (m : (ℓ : Loc nD τ sig) → Buf (Elt F) ℓ) (c : Dev nD) :
    (Proc.devRef .tc main_v525 : DevRef τ sig).ty.Contents (Elt F) := final m c (Proc.devRef .tc main_v525)
/-- @main's second result on device `c` (`%545`). -/
def res545 (m : (ℓ : Loc nD τ sig) → Buf (Elt F) ℓ) (c : Dev nD) :
    (Proc.devRef .tc main_v545 : DevRef τ sig).ty.Contents (Elt F) := final m c (Proc.devRef .tc main_v545)
/-- @main's third result on device `c` (`%565`). -/
def res565 (m : (ℓ : Loc nD τ sig) → Buf (Elt F) ℓ) (c : Dev nD) :
    (Proc.devRef .tc main_v565 : DevRef τ sig).ty.Contents (Elt F) := final m c (Proc.devRef .tc main_v565)
/-- @main's fourth result on device `c` (`%585`). -/
def res585 (m : (ℓ : Loc nD τ sig) → Buf (Elt F) ℓ) (c : Dev nD) :
    (Proc.devRef .tc main_v585 : DevRef τ sig).ty.Contents (Elt F) := final m c (Proc.devRef .tc main_v585)

/-- On every device, for any float values, from any memory with zero counters: every weakly fair execution
    of @main terminates, each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = final m c (Proc.devRef .tc b) :=
  run_seq scopedRefs_eq scopedSems_eq defs main (fun _ => ops) main_eq (fun _ => ops_sub) m ρ (fun _ => ops_fresh)

/-- The run with the four results at their folds and the twenty-eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v525) = res525 m c
      ∧ r.2.mem ((c.tc : Thread nD τ).loc main_v545) = res545 m c
      ∧ r.2.mem ((c.tc : Thread nD τ).loc main_v565) = res565 m c
      ∧ r.2.mem ((c.tc : Thread nD τ).loc main_v585) = res585 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨h c main_v525, h c main_v545, h c main_v565, h c main_v585,
      (h c main_arg0).trans (final_keep m c main_arg0 (by decide)),
      (h c main_arg1).trans (final_keep m c main_arg1 (by decide)),
      (h c main_arg2).trans (final_keep m c main_arg2 (by decide)),
      (h c main_arg3).trans (final_keep m c main_arg3 (by decide)),
      (h c main_arg4).trans (final_keep m c main_arg4 (by decide)),
      (h c main_arg5).trans (final_keep m c main_arg5 (by decide)),
      (h c main_arg6).trans (final_keep m c main_arg6 (by decide)),
      (h c main_arg7).trans (final_keep m c main_arg7 (by decide)),
      (h c main_arg8).trans (final_keep m c main_arg8 (by decide)),
      (h c main_arg9).trans (final_keep m c main_arg9 (by decide)),
      (h c main_arg10).trans (final_keep m c main_arg10 (by decide)),
      (h c main_arg11).trans (final_keep m c main_arg11 (by decide)),
      (h c main_arg12).trans (final_keep m c main_arg12 (by decide)),
      (h c main_arg13).trans (final_keep m c main_arg13 (by decide)),
      (h c main_arg14).trans (final_keep m c main_arg14 (by decide)),
      (h c main_arg15).trans (final_keep m c main_arg15 (by decide)),
      (h c main_arg16).trans (final_keep m c main_arg16 (by decide)),
      (h c main_arg17).trans (final_keep m c main_arg17 (by decide)),
      (h c main_arg18).trans (final_keep m c main_arg18 (by decide)),
      (h c main_arg19).trans (final_keep m c main_arg19 (by decide)),
      (h c main_arg20).trans (final_keep m c main_arg20 (by decide)),
      (h c main_arg21).trans (final_keep m c main_arg21 (by decide)),
      (h c main_arg22).trans (final_keep m c main_arg22 (by decide)),
      (h c main_arg23).trans (final_keep m c main_arg23 (by decide)),
      (h c main_arg24).trans (final_keep m c main_arg24 (by decide)),
      (h c main_arg25).trans (final_keep m c main_arg25 (by decide)),
      (h c main_arg26).trans (final_keep m c main_arg26 (by decide)),
      (h c main_arg27).trans (final_keep m c main_arg27 (by decide))⟩)
    (run_all m ρ)

end Cert.ReferenceIdeal.Hand

end
-- ==== Proof.Ref.Frame.lean ====
/-
  The reference program's frame claim: it runs, and its arguments end unchanged. This is the run with the
  four results dropped from the post.
-/
import proofs.«126569_j1468878815453_1_alg».proof.Proof.Ref.Run
import proofs.«126569_j1468878815453_1_alg».proof.Defs
import proofs.«126569_j1468878815453_1_alg».proof.Proof.Gen.Pre_finite_inputs

noncomputable section

namespace Cert.ReferenceIdeal.Hand

open Cert.ReferenceIdeal Cert.ReferenceIdeal.Gen Idealize.ShloMosaic Idealize.SL.Sem

theorem frame_ref [hPre_finite_inputs : Cert.Pre_finite_inputs.Facts] :
    Cert.frame_ReferenceIdeal (hReferenceIdeal := Cert.ReferenceIdeal.Gen.facts) (hPre_finite_inputs := hPre_finite_inputs) :=
  fun m g _ => (θ_run _ _ _).mono (fun _ h c => (h c).2.2.2.2) (run (F := Ideal) m g)

end Cert.ReferenceIdeal.Hand

end
-- ==== Proof.Sage.AfterRead.lean ====
/-
  Reading a straight line of host operations one operation back.

  `StableHlo.after l V` is what a device's buffers hold once the operations `l` have run in order from contents
  `V`. When each operation of the line writes one reference, listed in order as `W`, a buffer's contents at the
  end are found one operation back: the operation at position `i` that writes `y` gives `y` its final contents if
  nothing after position `i` writes `y` again, and an operand `a` of it holds at the end what the operation read if
  nothing from position `i` on writes `a`. So, for the line of a program in which every value has a buffer of its own and
  is computed before it is used,
      after l V ↑y = f (after l V ↑a) (after l V ↑b)
  for the operation `y = f a b` of the line: the two side conditions are memberships of references in the tail of
  a literal list, which are decided.
-/
import Idealize.ShloMosaic.Lib.StableHlo.Run
import Idealize.ShloMosaic.Lib.Pipeline.Frame
import Mathlib.Data.List.Forall2

noncomputable section

namespace Sage

open Idealize.ShloMosaic Idealize.ShloMosaic.StableHlo

variable {τ : Topo} {sig : RefSig} {Val : EltTy → Type}

/-- `W` lists, in order, the reference each operation of the line `l` writes: each writes exactly one. -/
def Writes (l : List (HloOp τ sig Val)) (W : List (Ref sig .tc)) : Prop :=
  List.Forall₂ (fun op w => op.writes = {Proc.devRef (τ := τ) .tc w}) l W

namespace Writes

variable {l l' : List (HloOp τ sig Val)} {W W' : List (Ref sig .tc)}

theorem nil : Writes ([] : List (HloOp τ sig Val)) [] := List.Forall₂.nil

theorem cons {op : HloOp τ sig Val} {w : Ref sig .tc} (hw : op.writes = {Proc.devRef (τ := τ) .tc w}) (h : Writes l W) :
    Writes (op :: l) (w :: W) := List.Forall₂.cons hw h

/-- Two lines one after the other write the two lists one after the other. -/
theorem append (h : Writes l W) (h' : Writes l' W') : Writes (l ++ l') (W ++ W') := List.rel_append h h'

/-- The line from position `i` on writes the list from position `i` on. -/
theorem drop (h : Writes l W) (i : Nat) : Writes (l.drop i) (W.drop i) := List.forall₂_drop i h

/-- Every operation's written buffers are among the listed references'. -/
theorem sub (h : Writes l W) :
    l.Forall fun op => op.writes ⊆ (W.map (Proc.devRef (τ := τ) .tc)).toFinset := by
  induction h with
  | nil => exact trivial
  | @cons op w l W hw _ ih =>
    rw [List.forall_cons]
    refine ⟨?_, ih.imp fun op' hop' => hop'.trans ?_⟩
    · rw [hw, Finset.singleton_subset_iff, List.mem_toFinset]
      exact List.mem_map_of_mem List.mem_cons_self
    · intro b hb
      rw [List.mem_toFinset] at hb ⊢
      rw [List.map_cons]
      exact List.mem_cons_of_mem _ hb

/-- A reference the line does not write keeps its contents through it. -/
theorem keep (h : Writes l W) (V : Valuation τ sig Val) {r : Ref sig .tc} (hr : r ∉ W) :
    after l V (Proc.devRef .tc r) = V (Proc.devRef .tc r) :=
  after_of_writes_sub l V h.sub hr

/-- A reference nothing from position `i` on writes holds at the end what it held just before position `i`. -/
theorem before (h : Writes l W) (i : Nat) (V : Valuation τ sig Val) {x : Ref sig .tc} (hx : x ∉ W.drop i) :
    after l V (Proc.devRef .tc x) = after (l.take i) V (Proc.devRef .tc x) := by
  conv_lhs => rw [← List.take_append_drop i l, StableHlo.after_append]
  exact (h.drop i).keep _ hx

/-- The operation at position `i` gives a reference nothing later writes its final contents. -/
theorem at_pos (h : Writes l W) (i : Nat) {op : HloOp τ sig Val} (hop : l[i]? = some op) (V : Valuation τ sig Val)
    {y : Ref sig .tc} (hy : y ∉ W.drop (i + 1)) :
    after l V (Proc.devRef .tc y) = op.result (after (l.take i) V) (Proc.devRef .tc y) := by
  obtain ⟨hi, rfl⟩ := List.getElem?_eq_some_iff.mp hop
  conv_lhs => rw [← List.take_append_drop i l, StableHlo.after_append, List.drop_eq_getElem_cons hi, after_cons]
  exact (h.drop (i + 1)).keep _ hy

end Writes

/-! ## One operation back, builder by builder

`hop`: the operation at position `i` of the line (by computation on a literal list); `hy`: nothing after it writes its
result again; one hypothesis per operand: nothing from position `i` on writes it. -/

section Builders

variable {l : List (HloOp τ sig Val)} {W : List (Ref sig .tc)} (h : Writes l W) (i : Nat) (V : Valuation τ sig Val)
variable {x a b c e y : Ref sig .tc}
include h

theorem after_nullary {v : y.ty.Contents Val} {hy'} (hop : l[i]? = some (nullary (τ := τ) y v hy'))
    (hy : y ∉ W.drop (i + 1)) :
    after l V (Proc.devRef .tc y) = v := by
  rw [h.at_pos i hop V hy, nullary_result]

theorem after_unary {f : x.ty.Contents Val → y.ty.Contents Val} {hx' hy'} (hop : l[i]? = some (unary (τ := τ) x y f hx' hy'))
    (hy : y ∉ W.drop (i + 1)) (hx : x ∉ W.drop i) :
    after l V (Proc.devRef .tc y) = f (after l V (Proc.devRef .tc x)) := by
  rw [h.at_pos i hop V hy, unary_result, h.before i V hx]

theorem after_binary {f : a.ty.Contents Val → b.ty.Contents Val → y.ty.Contents Val} {ha' hb' hy'}
    (hop : l[i]? = some (binary (τ := τ) a b y f ha' hb' hy'))
    (hy : y ∉ W.drop (i + 1)) (ha : a ∉ W.drop i) (hb : b ∉ W.drop i) :
    after l V (Proc.devRef .tc y) = f (after l V (Proc.devRef .tc a)) (after l V (Proc.devRef .tc b)) := by
  rw [h.at_pos i hop V hy, binary_result, h.before i V ha, h.before i V hb]

theorem after_ternary {f : c.ty.Contents Val → a.ty.Contents Val → b.ty.Contents Val → y.ty.Contents Val} {hc' ha' hb' hy'}
    (hop : l[i]? = some (ternary (τ := τ) c a b y f hc' ha' hb' hy'))
    (hy : y ∉ W.drop (i + 1)) (hc : c ∉ W.drop i) (ha : a ∉ W.drop i) (hb : b ∉ W.drop i) :
    after l V (Proc.devRef .tc y)
      = f (after l V (Proc.devRef .tc c)) (after l V (Proc.devRef .tc a)) (after l V (Proc.devRef .tc b)) := by
  rw [h.at_pos i hop V hy, ternary_result, h.before i V hc, h.before i V ha, h.before i V hb]

theorem after_quaternary
    {f : a.ty.Contents Val → b.ty.Contents Val → c.ty.Contents Val → e.ty.Contents Val → y.ty.Contents Val} {ha' hb' hc' he' hy'}
    (hop : l[i]? = some (quaternary (τ := τ) a b c e y f ha' hb' hc' he' hy'))
    (hy : y ∉ W.drop (i + 1)) (ha : a ∉ W.drop i) (hb : b ∉ W.drop i) (hc : c ∉ W.drop i) (he : e ∉ W.drop i) :
    after l V (Proc.devRef .tc y)
      = f (after l V (Proc.devRef .tc a)) (after l V (Proc.devRef .tc b)) (after l V (Proc.devRef .tc c))
          (after l V (Proc.devRef .tc e)) := by
  rw [h.at_pos i hop V hy, quaternary_result, h.before i V ha, h.before i V hb, h.before i V hc, h.before i V he]

theorem after_reshape {he : x.ty.elt = y.ty.elt} {hn : x.ty.shape.ShapeCasts y.ty.shape} {hx' hy'}
    (hop : l[i]? = some (reshape (τ := τ) (Val := Val) x y he hn hx' hy'))
    (hy : y ∉ W.drop (i + 1)) (hx : x ∉ W.drop i) :
    after l V (Proc.devRef .tc y) = fun j => he ▸ shapeCast y.ty.shape (after l V (Proc.devRef .tc x)) hn j := by
  rw [h.at_pos i hop V hy, reshape_result, h.before i V hx]

end Builders

end Sage

end
-- ==== Proof.KI.ReadS0.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 0 writes, one per operation, in order. -/
noncomputable abbrev wr0 : List (Ref sig .tc) := [main_cst, main_v0, main_cst_0, main_v1, main_v2, main_v3, main_cst_1, main_v4, main_v5, main_cst_2, main_v6, main_cst_3, main_v7, main_v8, main_v9, main_cst_4, main_v10, main_v11, main_cst_5, main_v12, main_cst_6, main_v13, main_v14, main_v15, main_cst_7, main_v16, main_v17, main_cst_8, main_v18, main_cst_9, main_v19, main_v20, main_v21, main_cst_10, main_v22, main_v23, main_cst_11, main_v24, main_cst_12, main_v25, main_v26, main_v27, main_cst_13, main_v28, main_v29, main_cst_14, main_v30, main_cst_15, main_v31, main_v32, main_v33, main_cst_16, main_v34, main_v35, main_cst_17, main_v36, main_cst_18, main_v37, main_v38, main_v39, main_cst_19, main_v40, main_v41, main_c, main_v42, main_v43, main_c_20, main_v44, main_v45, main_v46, main_v47, main_v48, main_cst_21, main_v49, main_v50, main_v51, main_v52, main_v53, main_c_22, main_v54, main_v55, main_c_23, main_v56, main_v57, main_v58, main_v59, main_v60, main_cst_24, main_v61, main_v62, main_v63, main_v64, main_v65, main_c_25, main_v66, main_v67, main_c_26, main_v68, main_v69, main_v70, main_v71, main_v72, main_cst_27, main_v73, main_v74, main_v75, main_v76, main_v77, main_c_28, main_v78, main_v79, main_c_29, main_v80, main_v81, main_v82, main_v83, main_v84, main_cst_30, main_v85, main_v86, main_v87, main_v88, main_v89, main_c_31, main_v90, main_v91, main_c_32, main_v92, main_v93, main_v94, main_v95, main_v96, main_cst_33, main_v97, main_v98, main_v99, main_v100, main_v101, main_c_34, main_v102, main_v103, main_c_35, main_v104, main_v105, main_v106, main_v107, main_v108, main_cst_36, main_v109, main_v110, main_v111, main_v112, main_v113, main_c_37, main_v114, main_v115, main_c_38, main_v116, main_v117, main_v118, main_v119, main_v120, main_cst_39, main_v121, main_v122, main_v123, main_v124, main_v125, main_v126, main_v127, main_v128, main_v129, main_v130, main_v131, main_v132, main_v133, main_v134, main_v135, main_v136, main_v137, main_v138, main_v139]

/-- Each operation of host stretch 0 writes exactly the listed reference. -/
theorem hostOps0_writes : Sage.Writes (hostOps0 : List (HloOp τ sig (Elt F))) wr0 := by
  repeat (first | exact Sage.Writes.nil | refine Sage.Writes.cons rfl ?_)

variable (V : Valuation τ sig (Elt F))

/-- Position 0 of host stretch 0: `cst` from no operand. -/
theorem rd0_cst : (StableHlo.after hostOps0 V (Proc.devRef .tc main_cst)) = ((constant S_ .f32 0x3F800000#32) : (⟨S_, .f32⟩ : BufTy).Contents (Elt F)) :=
  Sage.after_nullary (y := main_cst) hostOps0_writes 0 V rfl (by decide)

/-- Position 1 of host stretch 0: `v0` from `cst`. -/
theorem rd0_v0 : (StableHlo.after hostOps0 V (Proc.devRef .tc main_v0)) = (broadcastInDim S500000x1 ![] bcast_S_S500000x1 : (⟨S_, .f32⟩ : BufTy).Contents (Elt F) → (⟨S500000x1, .f32⟩ : BufTy).Contents (Elt F)) (StableHlo.after hostOps0 V (Proc.devRef .tc main_cst)) :=
  Sage.after_unary (x := main_cst) (y := main_v0) (f := (broadcastInDim S500000x1 ![] bcast_S_S500000x1 : (⟨S_, .f32⟩ : BufTy).Contents (Elt F) → (⟨S500000x1, .f32⟩ : BufTy).Contents (Elt F))) hostOps0_writes 1 V rfl (by decide) (by decide)

/-- Position 2 of host stretch 0: `cst_0` from no operand. -/
theorem rd0_cst_0 : (StableHlo.after hostOps0 V (Proc.devRef .tc main_cst_0)) = ((constant S_ .f32 0x00000000#32) : (⟨S_, .f32⟩ : BufTy).Contents (Elt F)) :=
  Sage.after_nullary (y := main_cst_0) hostOps0_writes 2 V rfl (by decide)

/-- Position 3 of host stretch 0: `v1` from `cst_0`. -/
theorem rd0_v1 : (StableHlo.after hostOps0 V (Proc.devRef .tc main_v1)) = (broadcastInDim S10000x1 ![] bcast_S_S10000x1 : (⟨S_, .f32⟩ : BufTy).Contents (Elt F) → (⟨S10000x1, .f32⟩ : BufTy).Contents (Elt F)) (StableHlo.after hostOps0 V (Proc.devRef .tc main_cst_0)) :=
  Sage.after_unary (x := main_cst_0) (y := main_v1) (f := (broadcastInDim S10000x1 ![] bcast_S_S10000x1 : (⟨S_, .f32⟩ : BufTy).Contents (Elt F) → (⟨S10000x1, .f32⟩ : BufTy).Contents (Elt F))) hostOps0_writes 3 V rfl (by decide) (by decide)

/-- Position 4 of host stretch 0: `v2` from `arg15`. -/
theorem rd0_v2 : (StableHlo.after hostOps0 V (Proc.devRef .tc main_v2)) = (broadcastInDim S500000x1 ![0] bcast_S500000_S500000x1_0 : (⟨S500000, .i32⟩ : BufTy).Contents (Elt F) → (⟨S500000x1, .i32⟩ : BufTy).Contents (Elt F)) (StableHlo.after hostOps0 V (Proc.devRef .tc main_arg15)) :=
  Sage.after_unary (x := main_arg15) (y := main_v2) (f := (broadcastInDim S500000x1 ![0] bcast_S500000_S500000x1_0 : (⟨S500000, .i32⟩ : BufTy).Contents (Elt F) → (⟨S500000x1, .i32⟩ : BufTy).Contents (Elt F))) hostOps0_writes 4 V rfl (by decide) (by decide)

/-- Position 5 of host stretch 0: `v3` from `v1`, `v2`, `v0`. -/
theorem rd0_v3 : (StableHlo.after hostOps0 V (Proc.devRef .tc main_v3)) = ((fun x i u => Host.scatterAdd scatter_S10000x1_S500000x1_S500000x1_1_0_0_1 x i u) : (⟨S10000x1, .f32⟩ : BufTy).Contents (Elt F) → (⟨S500000x1, .i32⟩ : BufTy).Contents (Elt F) → (⟨S500000x1, .f32⟩ : BufTy).Contents (Elt F) → (⟨S10000x1, .f32⟩ : BufTy).Contents (Elt F)) (StableHlo.after hostOps0 V (Proc.devRef .tc main_v1)) (StableHlo.after hostOps0 V (Proc.devRef .tc main_v2)) (StableHlo.after hostOps0 V (Proc.devRef .tc main_v0)) :=
  Sage.after_ternary (c := main_v1) (a := main_v2) (b := main_v0) (y := main_v3) (f := ((fun x i u => Host.scatterAdd scatter_S10000x1_S500000x1_S500000x1_1_0_0_1 x i u) : (⟨S10000x1, .f32⟩ : BufTy).Contents (Elt F) → (⟨S500000x1, .i32⟩ : BufTy).Contents (Elt F) → (⟨S500000x1, .f32⟩ : BufTy).Contents (Elt F) → (⟨S10000x1, .f32⟩ : BufTy).Contents (Elt F))) hostOps0_writes 5 V rfl (by decide) (by decide) (by decide) (by decide)

/-- Position 6 of host stretch 0: `cst_1` from no operand. -/
theorem rd0_cst_1 : (StableHlo.after hostOps0 V (Proc.devRef .tc main_cst_1)) = ((constant S_ .f32 0x3F800000#32) : (⟨S_, .f32⟩ : BufTy).Contents (Elt F)) :=
  Sage.after_nullary (y := main_cst_1) hostOps0_writes 6 V rfl (by decide)

/-- Position 7 of host stretch 0: `v4` from `cst_1`. -/
theorem rd0_v4 : (StableHlo.after hostOps0 V (Proc.devRef .tc main_v4)) = (broadcastInDim S10000x1 ![] bcast_S_S10000x1 : (⟨S_, .f32⟩ : BufTy).Contents (Elt F) → (⟨S10000x1, .f32⟩ : BufTy).Contents (Elt F)) (StableHlo.after hostOps0 V (Proc.devRef .tc main_cst_1)) :=
  Sage.after_unary (x := main_cst_1) (y := main_v4) (f := (broadcastInDim S10000x1 ![] bcast_S_S10000x1 : (⟨S_, .f32⟩ : BufTy).Contents (Elt F) → (⟨S10000x1, .f32⟩ : BufTy).Contents (Elt F))) hostOps0_writes 7 V rfl (by decide) (by decide)

/-- Position 8 of host stretch 0: `v5` from `v3`, `v4`. -/
theorem rd0_v5 : (StableHlo.after hostOps0 V (Proc.devRef .tc main_v5)) = (maximumf : (⟨S10000x1, .f32⟩ : BufTy).Contents (Elt F) → (⟨S10000x1, .f32⟩ : BufTy).Contents (Elt F) → (⟨S10000x1, .f32⟩ : BufTy).Contents (Elt F)) (StableHlo.after hostOps0 V (Proc.devRef .tc main_v3)) (StableHlo.after hostOps0 V (Proc.devRef .tc main_v4)) :=
  Sage.after_binary (a := main_v3) (b := main_v4) (y := main_v5) (f := (maximumf : (⟨S10000x1, .f32⟩ : BufTy).Contents (Elt F) → (⟨S10000x1, .f32⟩ : BufTy).Contents (Elt F) → (⟨S10000x1, .f32⟩ : BufTy).Contents (Elt F))) hostOps0_writes 8 V rfl (by decide) (by decide) (by decide)

/-- Position 9 of host stretch 0: `cst_2` from no operand. -/
theorem rd0_cst_2 : (StableHlo.after hostOps0 V (Proc.devRef .tc main_cst_2)) = ((constant S_ .f32 0x3F800000#32) : (⟨S_, .f32⟩ : BufTy).Contents (Elt F)) :=
  Sage.after_nullary (y := main_cst_2) hostOps0_writes 9 V rfl (by decide)

/-- Position 10 of host stretch 0: `v6` from `cst_2`. -/
theorem rd0_v6 : (StableHlo.after hostOps0 V (Proc.devRef .tc main_v6)) = (broadcastInDim S400000x1 ![] bcast_S_S400000x1 : (⟨S_, .f32⟩ : BufTy).Contents (Elt F) → (⟨S400000x1, .f32⟩ : BufTy).Contents (Elt F)) (StableHlo.after hostOps0 V (Proc.devRef .tc main_cst_2)) :=
  Sage.after_unary (x := main_cst_2) (y := main_v6) (f := (broadcastInDim S400000x1 ![] bcast_S_S400000x1 : (⟨S_, .f32⟩ : BufTy).Contents (Elt F) → (⟨S400000x1, .f32⟩ : BufTy).Contents (Elt F))) hostOps0_writes 10 V rfl (by decide) (by decide)

/-- Position 11 of host stretch 0: `cst_3` from no operand. -/
theorem rd0_cst_3 : (StableHlo.after hostOps0 V (Proc.devRef .tc main_cst_3)) = ((constant S_ .f32 0x00000000#32) : (⟨S_, .f32⟩ : BufTy).Contents (Elt F)) :=
  Sage.after_nullary (y := main_cst_3) hostOps0_writes 11 V rfl (by decide)

/-- Position 12 of host stretch 0: `v7` from `cst_3`. -/
theorem rd0_v7 : (StableHlo.after hostOps0 V (Proc.devRef .tc main_v7)) = (broadcastInDim S50000x1 ![] bcast_S_S50000x1 : (⟨S_, .f32⟩ : BufTy).Contents (Elt F) → (⟨S50000x1, .f32⟩ : BufTy).Contents (Elt F)) (StableHlo.after hostOps0 V (Proc.devRef .tc main_cst_3)) :=
  Sage.after_unary (x := main_cst_3) (y := main_v7) (f := (broadcastInDim S50000x1 ![] bcast_S_S50000x1 : (⟨S_, .f32⟩ : BufTy).Contents (Elt F) → (⟨S50000x1, .f32⟩ : BufTy).Contents (Elt F))) hostOps0_writes 12 V rfl (by decide) (by decide)

/-- Position 13 of host stretch 0: `v8` from `arg17`. -/
theorem rd0_v8 : (StableHlo.after hostOps0 V (Proc.devRef .tc main_v8)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_arg17)) :=
  Sage.after_unary (x := main_arg17) (y := main_v8) (f := (broadcastInDim S400000x1 ![0] bcast_S400000_S400000x1_0 : (⟨S400000, .i32⟩ : BufTy).Contents (Elt F) → (⟨S400000x1, .i32⟩ : BufTy).Contents (Elt F))) hostOps0_writes 13 V rfl (by decide) (by decide)

/-- Position 14 of host stretch 0: `v9` from `v7`, `v8`, `v6`. -/
theorem rd0_v9 : (StableHlo.after hostOps0 V (Proc.devRef .tc main_v9)) = ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)) (StableHlo.after hostOps0 V (Proc.devRef .tc main_v7)) (StableHlo.after hostOps0 V (Proc.devRef .tc main_v8)) (StableHlo.after hostOps0 V (Proc.devRef .tc main_v6)) :=
  Sage.after_ternary (c := main_v7) (a := main_v8) (b := main_v6) (y := main_v9) (f := ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F))) hostOps0_writes 14 V rfl (by decide) (by decide) (by decide) (by decide)

/-- Position 15 of host stretch 0: `cst_4` from no operand. -/
theorem rd0_cst_4 : (StableHlo.after hostOps0 V (Proc.devRef .tc main_cst_4)) = ((constant S_ .f32 0x3F800000#32) : (⟨S_, .f32⟩ : BufTy).Contents (Elt F)) :=
  Sage.after_nullary (y := main_cst_4) hostOps0_writes 15 V rfl (by decide)

/-- Position 16 of host stretch 0: `v10` from `cst_4`. -/
theorem rd0_v10 : (StableHlo.after hostOps0 V (Proc.devRef .tc main_v10)) = (broadcastInDim S50000x1 ![] bcast_S_S50000x1 : (⟨S_, .f32⟩ : BufTy).Contents (Elt F) → (⟨S50000x1, .f32⟩ : BufTy).Contents (Elt F)) (StableHlo.after hostOps0 V (Proc.devRef .tc main_cst_4)) :=
  Sage.after_unary (x := main_cst_4) (y := main_v10) (f := (broadcastInDim S50000x1 ![] bcast_S_S50000x1 : (⟨S_, .f32⟩ : BufTy).Contents (Elt F) → (⟨S50000x1, .f32⟩ : BufTy).Contents (Elt F))) hostOps0_writes 16 V rfl (by decide) (by decide)

/-- Position 17 of host stretch 0: `v11` from `v9`, `v10`. -/
theorem rd0_v11 : (StableHlo.after hostOps0 V (Proc.devRef .tc main_v11)) = (maximumf : (⟨S50000x1, .f32⟩ : BufTy).Contents (Elt F) → (⟨S50000x1, .f32⟩ : BufTy).Contents (Elt F) → (⟨S50000x1, .f32⟩ : BufTy).Contents (Elt F)) (StableHlo.after hostOps0 V (Proc.devRef .tc main_v9)) (StableHlo.after hostOps0 V (Proc.devRef .tc main_v10)) :=
  Sage.after_binary (a := main_v9) (b := main_v10) (y := main_v11) (f := (maximumf : (⟨S50000x1, .f32⟩ : BufTy).Contents (Elt F) → (⟨S50000x1, .f32⟩ : BufTy).Contents (Elt F) → (⟨S50000x1, .f32⟩ : BufTy).Contents (Elt F))) hostOps0_writes 17 V rfl (by decide) (by decide) (by decide)

/-- Position 18 of host stretch 0: `cst_5` from no operand. -/
theorem rd0_cst_5 : (StableHlo.after hostOps0 V (Proc.devRef .tc main_cst_5)) = ((constant S_ .f32 0x3F800000#32) : (⟨S_, .f32⟩ : BufTy).Contents (Elt F)) :=
  Sage.after_nullary (y := main_cst_5) hostOps0_writes 18 V rfl (by decide)

/-- Position 19 of host stretch 0: `v12` from `cst_5`. -/
theorem rd0_v12 : (StableHlo.after hostOps0 V (Proc.devRef .tc main_v12)) = (broadcastInDim S150000x1 ![] bcast_S_S150000x1 : (⟨S_, .f32⟩ : BufTy).Contents (Elt F) → (⟨S150000x1, .f32⟩ : BufTy).Contents (Elt F)) (StableHlo.after hostOps0 V (Proc.devRef .tc main_cst_5)) :=
  Sage.after_unary (x := main_cst_5) (y := main_v12) (f := (broadcastInDim S150000x1 ![] bcast_S_S150000x1 : (⟨S_, .f32⟩ : BufTy).Contents (Elt F) → (⟨S150000x1, .f32⟩ : BufTy).Contents (Elt F))) hostOps0_writes 19 V rfl (by decide) (by decide)

/-- Position 20 of host stretch 0: `cst_6` from no operand. -/
theorem rd0_cst_6 : (StableHlo.after hostOps0 V (Proc.devRef .tc main_cst_6)) = ((constant S_ .f32 0x00000000#32) : (⟨S_, .f32⟩ : BufTy).Contents (Elt F)) :=
  Sage.after_nullary (y := main_cst_6) hostOps0_writes 20 V rfl (by decide)

/-- Position 21 of host stretch 0: `v13` from `cst_6`. -/
theorem rd0_v13 : (StableHlo.after hostOps0 V (Proc.devRef .tc main_v13)) = (broadcastInDim S3000x1 ![] bcast_S_S3000x1 : (⟨S_, .f32⟩ : BufTy).Contents (Elt F) → (⟨S3000x1, .f32⟩ : BufTy).Contents (Elt F)) (StableHlo.after hostOps0 V (Proc.devRef .tc main_cst_6)) :=
  Sage.after_unary (x := main_cst_6) (y := main_v13) (f := (broadcastInDim S3000x1 ![] bcast_S_S3000x1 : (⟨S_, .f32⟩ : BufTy).Contents (Elt F) → (⟨S3000x1, .f32⟩ : BufTy).Contents (Elt F))) hostOps0_writes 21 V rfl (by decide) (by decide)

/-- Position 22 of host stretch 0: `v14` from `arg19`. -/
theorem rd0_v14 : (StableHlo.after hostOps0 V (Proc.devRef .tc main_v14)) = (broadcastInDim S150000x1 ![0] bcast_S150000_S150000x1_0 : (⟨S150000, .i32⟩ : BufTy).Contents (Elt F) → (⟨S150000x1, .i32⟩ : BufTy).Contents (Elt F)) (StableHlo.after hostOps0 V (Proc.devRef .tc main_arg19)) :=
  Sage.after_unary (x := main_arg19) (y := main_v14) (f := (broadcastInDim S150000x1 ![0] bcast_S150000_S150000x1_0 : (⟨S150000, .i32⟩ : BufTy).Contents (Elt F) → (⟨S150000x1, .i32⟩ : BufTy).Contents (Elt F))) hostOps0_writes 22 V rfl (by decide) (by decide)

/-- Position 23 of host stretch 0: `v15` from `v13`, `v14`, `v12`. -/
theorem rd0_v15 : (StableHlo.after hostOps0 V (Proc.devRef .tc main_v15)) = ((fun x i u => Host.scatterAdd scatter_S3000x1_S150000x1_S150000x1_1_0_0_1 x i u) : (⟨S3000x1, .f32⟩ : BufTy).Contents (Elt F) → (⟨S150000x1, .i32⟩ : BufTy).Contents (Elt F) → (⟨S150000x1, .f32⟩ : BufTy).Contents (Elt F) → (⟨S3000x1, .f32⟩ : BufTy).Contents (Elt F)) (StableHlo.after hostOps0 V (Proc.devRef .tc main_v13)) (StableHlo.after hostOps0 V (Proc.devRef .tc main_v14)) (StableHlo.after hostOps0 V (Proc.devRef .tc main_v12)) :=
  Sage.after_ternary (c := main_v13) (a := main_v14) (b := main_v12) (y := main_v15) (f := ((fun x i u => Host.scatterAdd scatter_S3000x1_S150000x1_S150000x1_1_0_0_1 x i u) : (⟨S3000x1, .f32⟩ : BufTy).Contents (Elt F) → (⟨S150000x1, .i32⟩ : BufTy).Contents (Elt F) → (⟨S150000x1, .f32⟩ : BufTy).Contents (Elt F) → (⟨S3000x1, .f32⟩ : BufTy).Contents (Elt F))) hostOps0_writes 23 V rfl (by decide) (by decide) (by decide) (by decide)

/-- Position 24 of host stretch 0: `cst_7` from no operand. -/
theorem rd0_cst_7 : (StableHlo.after hostOps0 V (Proc.devRef .tc main_cst_7)) = ((constant S_ .f32 0x3F800000#32) : (⟨S_, .f32⟩ : BufTy).Contents (Elt F)) :=
  Sage.after_nullary (y := main_cst_7) hostOps0_writes 24 V rfl (by decide)

/-- Position 25 of host stretch 0: `v16` from `cst_7`. -/
theorem rd0_v16 : (StableHlo.after hostOps0 V (Proc.devRef .tc main_v16)) = (broadcastInDim S3000x1 ![] bcast_S_S3000x1 : (⟨S_, .f32⟩ : BufTy).Contents (Elt F) → (⟨S3000x1, .f32⟩ : BufTy).Contents (Elt F)) (StableHlo.after hostOps0 V (Proc.devRef .tc main_cst_7)) :=
  Sage.after_unary (x := main_cst_7) (y := main_v16) (f := (broadcastInDim S3000x1 ![] bcast_S_S3000x1 : (⟨S_, .f32⟩ : BufTy).Contents (Elt F) → (⟨S3000x1, .f32⟩ : BufTy).Contents (Elt F))) hostOps0_writes 25 V rfl (by decide) (by decide)

/-- Position 26 of host stretch 0: `v17` from `v15`, `v16`. -/
theorem rd0_v17 : (StableHlo.after hostOps0 V (Proc.devRef .tc main_v17)) = (maximumf : (⟨S3000x1, .f32⟩ : BufTy).Contents (Elt F) → (⟨S3000x1, .f32⟩ : BufTy).Contents (Elt F) → (⟨S3000x1, .f32⟩ : BufTy).Contents (Elt F)) (StableHlo.after hostOps0 V (Proc.devRef .tc main_v15)) (StableHlo.after hostOps0 V (Proc.devRef .tc main_v16)) :=
  Sage.after_binary (a := main_v15) (b := main_v16) (y := main_v17) (f := (maximumf : (⟨S3000x1, .f32⟩ : BufTy).Contents (Elt F) → (⟨S3000x1, .f32⟩ : BufTy).Contents (Elt F) → (⟨S3000x1, .f32⟩ : BufTy).Contents (Elt F))) hostOps0_writes 26 V rfl (by decide) (by decide) (by decide)

/-- Position 27 of host stretch 0: `cst_8` from no operand. -/
theorem rd0_cst_8 : (StableHlo.after hostOps0 V (Proc.devRef .tc main_cst_8)) = ((constant S_ .f32 0x3F800000#32) : (⟨S_, .f32⟩ : BufTy).Contents (Elt F)) :=
  Sage.after_nullary (y := main_cst_8) hostOps0_writes 27 V rfl (by decide)

/-- Position 28 of host stretch 0: `v18` from `cst_8`. -/
theorem rd0_v18 : (StableHlo.after hostOps0 V (Proc.devRef .tc main_v18)) = (broadcastInDim S400000x1 ![] bcast_S_S400000x1 : (⟨S_, .f32⟩ : BufTy).Contents (Elt F) → (⟨S400000x1, .f32⟩ : BufTy).Contents (Elt F)) (StableHlo.after hostOps0 V (Proc.devRef .tc main_cst_8)) :=
  Sage.after_unary (x := main_cst_8) (y := main_v18) (f := (broadcastInDim S400000x1 ![] bcast_S_S400000x1 : (⟨S_, .f32⟩ : BufTy).Contents (Elt F) → (⟨S400000x1, .f32⟩ : BufTy).Contents (Elt F))) hostOps0_writes 28 V rfl (by decide) (by decide)

/-- Position 29 of host stretch 0: `cst_9` from no operand. -/
theorem rd0_cst_9 : (StableHlo.after hostOps0 V (Proc.devRef .tc main_cst_9)) = ((constant S_ .f32 0x00000000#32) : (⟨S_, .f32⟩ : BufTy).Contents (Elt F)) :=
  Sage.after_nullary (y := main_cst_9) hostOps0_writes 29 V rfl (by decide)

/-- Position 30 of host stretch 0: `v19` from `cst_9`. -/
theorem rd0_v19 : (StableHlo.after hostOps0 V (Proc.devRef .tc main_v19)) = (broadcastInDim S10000x1 ![] bcast_S_S10000x1 : (⟨S_, .f32⟩ : BufTy).Contents (Elt F) → (⟨S10000x1, .f32⟩ : BufTy).Contents (Elt F)) (StableHlo.after hostOps0 V (Proc.devRef .tc main_cst_9)) :=
  Sage.after_unary (x := main_cst_9) (y := main_v19) (f := (broadcastInDim S10000x1 ![] bcast_S_S10000x1 : (⟨S_, .f32⟩ : BufTy).Contents (Elt F) → (⟨S10000x1, .f32⟩ : BufTy).Contents (Elt F))) hostOps0_writes 30 V rfl (by decide) (by decide)

/-- Position 31 of host stretch 0: `v20` from `arg21`. -/
theorem rd0_v20 : (StableHlo.after hostOps0 V (Proc.devRef .tc main_v20)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_arg21)) :=
  Sage.after_unary (x := main_arg21) (y := main_v20) (f := (broadcastInDim S400000x1 ![0] bcast_S400000_S400000x1_0 : (⟨S400000, .i32⟩ : BufTy).Contents (Elt F) → (⟨S400000x1, .i32⟩ : BufTy).Contents (Elt F))) hostOps0_writes 31 V rfl (by decide) (by decide)

/-- Position 32 of host stretch 0: `v21` from `v19`, `v20`, `v18`. -/
theorem rd0_v21 : (StableHlo.after hostOps0 V (Proc.devRef .tc main_v21)) = ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)) (StableHlo.after hostOps0 V (Proc.devRef .tc main_v19)) (StableHlo.after hostOps0 V (Proc.devRef .tc main_v20)) (StableHlo.after hostOps0 V (Proc.devRef .tc main_v18)) :=
  Sage.after_ternary (c := main_v19) (a := main_v20) (b := main_v18) (y := main_v21) (f := ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F))) hostOps0_writes 32 V rfl (by decide) (by decide) (by decide) (by decide)

/-- Position 33 of host stretch 0: `cst_10` from no operand. -/
theorem rd0_cst_10 : (StableHlo.after hostOps0 V (Proc.devRef .tc main_cst_10)) = ((constant S_ .f32 0x3F800000#32) : (⟨S_, .f32⟩ : BufTy).Contents (Elt F)) :=
  Sage.after_nullary (y := main_cst_10) hostOps0_writes 33 V rfl (by decide)

/-- Position 34 of host stretch 0: `v22` from `cst_10`. -/
theorem rd0_v22 : (StableHlo.after hostOps0 V (Proc.devRef .tc main_v22)) = (broadcastInDim S10000x1 ![] bcast_S_S10000x1 : (⟨S_, .f32⟩ : BufTy).Contents (Elt F) → (⟨S10000x1, .f32⟩ : BufTy).Contents (Elt F)) (StableHlo.after hostOps0 V (Proc.devRef .tc main_cst_10)) :=
  Sage.after_unary (x := main_cst_10) (y := main_v22) (f := (broadcastInDim S10000x1 ![] bcast_S_S10000x1 : (⟨S_, .f32⟩ : BufTy).Contents (Elt F) → (⟨S10000x1, .f32⟩ : BufTy).Contents (Elt F))) hostOps0_writes 34 V rfl (by decide) (by decide)

/-- Position 35 of host stretch 0: `v23` from `v21`, `v22`. -/
theorem rd0_v23 : (StableHlo.after hostOps0 V (Proc.devRef .tc main_v23)) = (maximumf : (⟨S10000x1, .f32⟩ : BufTy).Contents (Elt F) → (⟨S10000x1, .f32⟩ : BufTy).Contents (Elt F) → (⟨S10000x1, .f32⟩ : BufTy).Contents (Elt F)) (StableHlo.after hostOps0 V (Proc.devRef .tc main_v21)) (StableHlo.after hostOps0 V (Proc.devRef .tc main_v22)) :=
  Sage.after_binary (a := main_v21) (b := main_v22) (y := main_v23) (f := (maximumf : (⟨S10000x1, .f32⟩ : BufTy).Contents (Elt F) → (⟨S10000x1, .f32⟩ : BufTy).Contents (Elt F) → (⟨S10000x1, .f32⟩ : BufTy).Contents (Elt F))) hostOps0_writes 35 V rfl (by decide) (by decide) (by decide)

/-- Position 36 of host stretch 0: `cst_11` from no operand. -/
theorem rd0_cst_11 : (StableHlo.after hostOps0 V (Proc.devRef .tc main_cst_11)) = ((constant S_ .f32 0x3F800000#32) : (⟨S_, .f32⟩ : BufTy).Contents (Elt F)) :=
  Sage.after_nullary (y := main_cst_11) hostOps0_writes 36 V rfl (by decide)

/-- Position 37 of host stretch 0: `v24` from `cst_11`. -/
theorem rd0_v24 : (StableHlo.after hostOps0 V (Proc.devRef .tc main_v24)) = (broadcastInDim S500000x1 ![] bcast_S_S500000x1 : (⟨S_, .f32⟩ : BufTy).Contents (Elt F) → (⟨S500000x1, .f32⟩ : BufTy).Contents (Elt F)) (StableHlo.after hostOps0 V (Proc.devRef .tc main_cst_11)) :=
  Sage.after_unary (x := main_cst_11) (y := main_v24) (f := (broadcastInDim S500000x1 ![] bcast_S_S500000x1 : (⟨S_, .f32⟩ : BufTy).Contents (Elt F) → (⟨S500000x1, .f32⟩ : BufTy).Contents (Elt F))) hostOps0_writes 37 V rfl (by decide) (by decide)

/-- Position 38 of host stretch 0: `cst_12` from no operand. -/
theorem rd0_cst_12 : (StableHlo.after hostOps0 V (Proc.devRef .tc main_cst_12)) = ((constant S_ .f32 0x00000000#32) : (⟨S_, .f32⟩ : BufTy).Contents (Elt F)) :=
  Sage.after_nullary (y := main_cst_12) hostOps0_writes 38 V rfl (by decide)

/-- Position 39 of host stretch 0: `v25` from `cst_12`. -/
theorem rd0_v25 : (StableHlo.after hostOps0 V (Proc.devRef .tc main_v25)) = (broadcastInDim S20000x1 ![] bcast_S_S20000x1 : (⟨S_, .f32⟩ : BufTy).Contents (Elt F) → (⟨S20000x1, .f32⟩ : BufTy).Contents (Elt F)) (StableHlo.after hostOps0 V (Proc.devRef .tc main_cst_12)) :=
  Sage.after_unary (x := main_cst_12) (y := main_v25) (f := (broadcastInDim S20000x1 ![] bcast_S_S20000x1 : (⟨S_, .f32⟩ : BufTy).Contents (Elt F) → (⟨S20000x1, .f32⟩ : BufTy).Contents (Elt F))) hostOps0_writes 39 V rfl (by decide) (by decide)

/-- Position 40 of host stretch 0: `v26` from `arg23`. -/
theorem rd0_v26 : (StableHlo.after hostOps0 V (Proc.devRef .tc main_v26)) = (broadcastInDim S500000x1 ![0] bcast_S500000_S500000x1_0 : (⟨S500000, .i32⟩ : BufTy).Contents (Elt F) → (⟨S500000x1, .i32⟩ : BufTy).Contents (Elt F)) (StableHlo.after hostOps0 V (Proc.devRef .tc main_arg23)) :=
  Sage.after_unary (x := main_arg23) (y := main_v26) (f := (broadcastInDim S500000x1 ![0] bcast_S500000_S500000x1_0 : (⟨S500000, .i32⟩ : BufTy).Contents (Elt F) → (⟨S500000x1, .i32⟩ : BufTy).Contents (Elt F))) hostOps0_writes 40 V rfl (by decide) (by decide)

/-- Position 41 of host stretch 0: `v27` from `v25`, `v26`, `v24`. -/
theorem rd0_v27 : (StableHlo.after hostOps0 V (Proc.devRef .tc main_v27)) = ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)) (StableHlo.after hostOps0 V (Proc.devRef .tc main_v25)) (StableHlo.after hostOps0 V (Proc.devRef .tc main_v26)) (StableHlo.after hostOps0 V (Proc.devRef .tc main_v24)) :=
  Sage.after_ternary (c := main_v25) (a := main_v26) (b := main_v24) (y := main_v27) (f := ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F))) hostOps0_writes 41 V rfl (by decide) (by decide) (by decide) (by decide)

/-- Position 42 of host stretch 0: `cst_13` from no operand. -/
theorem rd0_cst_13 : (StableHlo.after hostOps0 V (Proc.devRef .tc main_cst_13)) = ((constant S_ .f32 0x3F800000#32) : (⟨S_, .f32⟩ : BufTy).Contents (Elt F)) :=
  Sage.after_nullary (y := main_cst_13) hostOps0_writes 42 V rfl (by decide)

/-- Position 43 of host stretch 0: `v28` from `cst_13`. -/
theorem rd0_v28 : (StableHlo.after hostOps0 V (Proc.devRef .tc main_v28)) = (broadcastInDim S20000x1 ![] bcast_S_S20000x1 : (⟨S_, .f32⟩ : BufTy).Contents (Elt F) → (⟨S20000x1, .f32⟩ : BufTy).Contents (Elt F)) (StableHlo.after hostOps0 V (Proc.devRef .tc main_cst_13)) :=
  Sage.after_unary (x := main_cst_13) (y := main_v28) (f := (broadcastInDim S20000x1 ![] bcast_S_S20000x1 : (⟨S_, .f32⟩ : BufTy).Contents (Elt F) → (⟨S20000x1, .f32⟩ : BufTy).Contents (Elt F))) hostOps0_writes 43 V rfl (by decide) (by decide)

/-- Position 44 of host stretch 0: `v29` from `v27`, `v28`. -/
theorem rd0_v29 : (StableHlo.after hostOps0 V (Proc.devRef .tc main_v29)) = (maximumf : (⟨S20000x1, .f32⟩ : BufTy).Contents (Elt F) → (⟨S20000x1, .f32⟩ : BufTy).Contents (Elt F) → (⟨S20000x1, .f32⟩ : BufTy).Contents (Elt F)) (StableHlo.after hostOps0 V (Proc.devRef .tc main_v27)) (StableHlo.after hostOps0 V (Proc.devRef .tc main_v28)) :=
  Sage.after_binary (a := main_v27) (b := main_v28) (y := main_v29) (f := (maximumf : (⟨S20000x1, .f32⟩ : BufTy).Contents (Elt F) → (⟨S20000x1, .f32⟩ : BufTy).Contents (Elt F) → (⟨S20000x1, .f32⟩ : BufTy).Contents (Elt F))) hostOps0_writes 44 V rfl (by decide) (by decide) (by decide)

/-- Position 45 of host stretch 0: `cst_14` from no operand. -/
theorem rd0_cst_14 : (StableHlo.after hostOps0 V (Proc.devRef .tc main_cst_14)) = ((constant S_ .f32 0x3F800000#32) : (⟨S_, .f32⟩ : BufTy).Contents (Elt F)) :=
  Sage.after_nullary (y := main_cst_14) hostOps0_writes 45 V rfl (by decide)

/-- Position 46 of host stretch 0: `v30` from `cst_14`. -/
theorem rd0_v30 : (StableHlo.after hostOps0 V (Proc.devRef .tc main_v30)) = (broadcastInDim S400000x1 ![] bcast_S_S400000x1 : (⟨S_, .f32⟩ : BufTy).Contents (Elt F) → (⟨S400000x1, .f32⟩ : BufTy).Contents (Elt F)) (StableHlo.after hostOps0 V (Proc.devRef .tc main_cst_14)) :=
  Sage.after_unary (x := main_cst_14) (y := main_v30) (f := (broadcastInDim S400000x1 ![] bcast_S_S400000x1 : (⟨S_, .f32⟩ : BufTy).Contents (Elt F) → (⟨S400000x1, .f32⟩ : BufTy).Contents (Elt F))) hostOps0_writes 46 V rfl (by decide) (by decide)

/-- Position 47 of host stretch 0: `cst_15` from no operand. -/
theorem rd0_cst_15 : (StableHlo.after hostOps0 V (Proc.devRef .tc main_cst_15)) = ((constant S_ .f32 0x00000000#32) : (⟨S_, .f32⟩ : BufTy).Contents (Elt F)) :=
  Sage.after_nullary (y := main_cst_15) hostOps0_writes 47 V rfl (by decide)

/-- Position 48 of host stretch 0: `v31` from `cst_15`. -/
theorem rd0_v31 : (StableHlo.after hostOps0 V (Proc.devRef .tc main_v31)) = (broadcastInDim S20000x1 ![] bcast_S_S20000x1 : (⟨S_, .f32⟩ : BufTy).Contents (Elt F) → (⟨S20000x1, .f32⟩ : BufTy).Contents (Elt F)) (StableHlo.after hostOps0 V (Proc.devRef .tc main_cst_15)) :=
  Sage.after_unary (x := main_cst_15) (y := main_v31) (f := (broadcastInDim S20000x1 ![] bcast_S_S20000x1 : (⟨S_, .f32⟩ : BufTy).Contents (Elt F) → (⟨S20000x1, .f32⟩ : BufTy).Contents (Elt F))) hostOps0_writes 48 V rfl (by decide) (by decide)

/-- Position 49 of host stretch 0: `v32` from `arg25`. -/
theorem rd0_v32 : (StableHlo.after hostOps0 V (Proc.devRef .tc main_v32)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_arg25)) :=
  Sage.after_unary (x := main_arg25) (y := main_v32) (f := (broadcastInDim S400000x1 ![0] bcast_S400000_S400000x1_0 : (⟨S400000, .i32⟩ : BufTy).Contents (Elt F) → (⟨S400000x1, .i32⟩ : BufTy).Contents (Elt F))) hostOps0_writes 49 V rfl (by decide) (by decide)

/-- Position 50 of host stretch 0: `v33` from `v31`, `v32`, `v30`. -/
theorem rd0_v33 : (StableHlo.after hostOps0 V (Proc.devRef .tc main_v33)) = ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)) (StableHlo.after hostOps0 V (Proc.devRef .tc main_v31)) (StableHlo.after hostOps0 V (Proc.devRef .tc main_v32)) (StableHlo.after hostOps0 V (Proc.devRef .tc main_v30)) :=
  Sage.after_ternary (c := main_v31) (a := main_v32) (b := main_v30) (y := main_v33) (f := ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F))) hostOps0_writes 50 V rfl (by decide) (by decide) (by decide) (by decide)

/-- Position 51 of host stretch 0: `cst_16` from no operand. -/
theorem rd0_cst_16 : (StableHlo.after hostOps0 V (Proc.devRef .tc main_cst_16)) = ((constant S_ .f32 0x3F800000#32) : (⟨S_, .f32⟩ : BufTy).Contents (Elt F)) :=
  Sage.after_nullary (y := main_cst_16) hostOps0_writes 51 V rfl (by decide)

/-- Position 52 of host stretch 0: `v34` from `cst_16`. -/
theorem rd0_v34 : (StableHlo.after hostOps0 V (Proc.devRef .tc main_v34)) = (broadcastInDim S20000x1 ![] bcast_S_S20000x1 : (⟨S_, .f32⟩ : BufTy).Contents (Elt F) → (⟨S20000x1, .f32⟩ : BufTy).Contents (Elt F)) (StableHlo.after hostOps0 V (Proc.devRef .tc main_cst_16)) :=
  Sage.after_unary (x := main_cst_16) (y := main_v34) (f := (broadcastInDim S20000x1 ![] bcast_S_S20000x1 : (⟨S_, .f32⟩ : BufTy).Contents (Elt F) → (⟨S20000x1, .f32⟩ : BufTy).Contents (Elt F))) hostOps0_writes 52 V rfl (by decide) (by decide)

/-- Position 53 of host stretch 0: `v35` from `v33`, `v34`. -/
theorem rd0_v35 : (StableHlo.after hostOps0 V (Proc.devRef .tc main_v35)) = (maximumf : (⟨S20000x1, .f32⟩ : BufTy).Contents (Elt F) → (⟨S20000x1, .f32⟩ : BufTy).Contents (Elt F) → (⟨S20000x1, .f32⟩ : BufTy).Contents (Elt F)) (StableHlo.after hostOps0 V (Proc.devRef .tc main_v33)) (StableHlo.after hostOps0 V (Proc.devRef .tc main_v34)) :=
  Sage.after_binary (a := main_v33) (b := main_v34) (y := main_v35) (f := (maximumf : (⟨S20000x1, .f32⟩ : BufTy).Contents (Elt F) → (⟨S20000x1, .f32⟩ : BufTy).Contents (Elt F) → (⟨S20000x1, .f32⟩ : BufTy).Contents (Elt F))) hostOps0_writes 53 V rfl (by decide) (by decide) (by decide)

/-- Position 54 of host stretch 0: `cst_17` from no operand. -/
theorem rd0_cst_17 : (StableHlo.after hostOps0 V (Proc.devRef .tc main_cst_17)) = ((constant S_ .f32 0x3F800000#32) : (⟨S_, .f32⟩ : BufTy).Contents (Elt F)) :=
  Sage.after_nullary (y := main_cst_17) hostOps0_writes 54 V rfl (by decide)

/-- Position 55 of host stretch 0: `v36` from `cst_17`. -/
theorem rd0_v36 : (StableHlo.after hostOps0 V (Proc.devRef .tc main_v36)) = (broadcastInDim S150000x1 ![] bcast_S_S150000x1 : (⟨S_, .f32⟩ : BufTy).Contents (Elt F) → (⟨S150000x1, .f32⟩ : BufTy).Contents (Elt F)) (StableHlo.after hostOps0 V (Proc.devRef .tc main_cst_17)) :=
  Sage.after_unary (x := main_cst_17) (y := main_v36) (f := (broadcastInDim S150000x1 ![] bcast_S_S150000x1 : (⟨S_, .f32⟩ : BufTy).Contents (Elt F) → (⟨S150000x1, .f32⟩ : BufTy).Contents (Elt F))) hostOps0_writes 55 V rfl (by decide) (by decide)

/-- Position 56 of host stretch 0: `cst_18` from no operand. -/
theorem rd0_cst_18 : (StableHlo.after hostOps0 V (Proc.devRef .tc main_cst_18)) = ((constant S_ .f32 0x00000000#32) : (⟨S_, .f32⟩ : BufTy).Contents (Elt F)) :=
  Sage.after_nullary (y := main_cst_18) hostOps0_writes 56 V rfl (by decide)

/-- Position 57 of host stretch 0: `v37` from `cst_18`. -/
theorem rd0_v37 : (StableHlo.after hostOps0 V (Proc.devRef .tc main_v37)) = (broadcastInDim S50000x1 ![] bcast_S_S50000x1 : (⟨S_, .f32⟩ : BufTy).Contents (Elt F) → (⟨S50000x1, .f32⟩ : BufTy).Contents (Elt F)) (StableHlo.after hostOps0 V (Proc.devRef .tc main_cst_18)) :=
  Sage.after_unary (x := main_cst_18) (y := main_v37) (f := (broadcastInDim S50000x1 ![] bcast_S_S50000x1 : (⟨S_, .f32⟩ : BufTy).Contents (Elt F) → (⟨S50000x1, .f32⟩ : BufTy).Contents (Elt F))) hostOps0_writes 57 V rfl (by decide) (by decide)

/-- Position 58 of host stretch 0: `v38` from `arg27`. -/
theorem rd0_v38 : (StableHlo.after hostOps0 V (Proc.devRef .tc main_v38)) = (broadcastInDim S150000x1 ![0] bcast_S150000_S150000x1_0 : (⟨S150000, .i32⟩ : BufTy).Contents (Elt F) → (⟨S150000x1, .i32⟩ : BufTy).Contents (Elt F)) (StableHlo.after hostOps0 V (Proc.devRef .tc main_arg27)) :=
  Sage.after_unary (x := main_arg27) (y := main_v38) (f := (broadcastInDim S150000x1 ![0] bcast_S150000_S150000x1_0 : (⟨S150000, .i32⟩ : BufTy).Contents (Elt F) → (⟨S150000x1, .i32⟩ : BufTy).Contents (Elt F))) hostOps0_writes 58 V rfl (by decide) (by decide)

/-- Position 59 of host stretch 0: `v39` from `v37`, `v38`, `v36`. -/
theorem rd0_v39 : (StableHlo.after hostOps0 V (Proc.devRef .tc main_v39)) = ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)) (StableHlo.after hostOps0 V (Proc.devRef .tc main_v37)) (StableHlo.after hostOps0 V (Proc.devRef .tc main_v38)) (StableHlo.after hostOps0 V (Proc.devRef .tc main_v36)) :=
  Sage.after_ternary (c := main_v37) (a := main_v38) (b := main_v36) (y := main_v39) (f := ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F))) hostOps0_writes 59 V rfl (by decide) (by decide) (by decide) (by decide)

/-- Position 60 of host stretch 0: `cst_19` from no operand. -/
theorem rd0_cst_19 : (StableHlo.after hostOps0 V (Proc.devRef .tc main_cst_19)) = ((constant S_ .f32 0x3F800000#32) : (⟨S_, .f32⟩ : BufTy).Contents (Elt F)) :=
  Sage.after_nullary (y := main_cst_19) hostOps0_writes 60 V rfl (by decide)

/-- Position 61 of host stretch 0: `v40` from `cst_19`. -/
theorem rd0_v40 : (StableHlo.after hostOps0 V (Proc.devRef .tc main_v40)) = (broadcastInDim S50000x1 ![] bcast_S_S50000x1 : (⟨S_, .f32⟩ : BufTy).Contents (Elt F) → (⟨S50000x1, .f32⟩ : BufTy).Contents (Elt F)) (StableHlo.after hostOps0 V (Proc.devRef .tc main_cst_19)) :=
  Sage.after_unary (x := main_cst_19) (y := main_v40) (f := (broadcastInDim S50000x1 ![] bcast_S_S50000x1 : (⟨S_, .f32⟩ : BufTy).Contents (Elt F) → (⟨S50000x1, .f32⟩ : BufTy).Contents (Elt F))) hostOps0_writes 61 V rfl (by decide) (by decide)

/-- Position 62 of host stretch 0: `v41` from `v39`, `v40`. -/
theorem rd0_v41 : (StableHlo.after hostOps0 V (Proc.devRef .tc main_v41)) = (maximumf : (⟨S50000x1, .f32⟩ : BufTy).Contents (Elt F) → (⟨S50000x1, .f32⟩ : BufTy).Contents (Elt F) → (⟨S50000x1, .f32⟩ : BufTy).Contents (Elt F)) (StableHlo.after hostOps0 V (Proc.devRef .tc main_v39)) (StableHlo.after hostOps0 V (Proc.devRef .tc main_v40)) :=
  Sage.after_binary (a := main_v39) (b := main_v40) (y := main_v41) (f := (maximumf : (⟨S50000x1, .f32⟩ : BufTy).Contents (Elt F) → (⟨S50000x1, .f32⟩ : BufTy).Contents (Elt F) → (⟨S50000x1, .f32⟩ : BufTy).Contents (Elt F))) hostOps0_writes 62 V rfl (by decide) (by decide) (by decide)

/-- Position 63 of host stretch 0: `c` from no operand. -/
theorem rd0_c : (StableHlo.after hostOps0 V (Proc.devRef .tc main_c)) = ((constantI S_ 32 0#32) : (⟨S_, .i32⟩ : BufTy).Contents (Elt F)) :=
  Sage.after_nullary (y := main_c) hostOps0_writes 63 V rfl (by decide)

/-- Position 64 of host stretch 0: `v42` from `c`. -/
theorem rd0_v42 : (StableHlo.after hostOps0 V (Proc.devRef .tc main_v42)) = (broadcastInDim S500000 ![] bcast_S_S500000 : (⟨S_, .i32⟩ : BufTy).Contents (Elt F) → (⟨S500000, .i32⟩ : BufTy).Contents (Elt F)) (StableHlo.after hostOps0 V (Proc.devRef .tc main_c)) :=
  Sage.after_unary (x := main_c) (y := main_v42) (f := (broadcastInDim S500000 ![] bcast_S_S500000 : (⟨S_, .i32⟩ : BufTy).Contents (Elt F) → (⟨S500000, .i32⟩ : BufTy).Contents (Elt F))) hostOps0_writes 64 V rfl (by decide) (by decide)

/-- Position 65 of host stretch 0: `v43` from `arg14`, `v42`. -/
theorem rd0_v43 : (StableHlo.after hostOps0 V (Proc.devRef .tc main_v43)) = (cmpi .slt : (⟨S500000, .i32⟩ : BufTy).Contents (Elt F) → (⟨S500000, .i32⟩ : BufTy).Contents (Elt F) → (⟨S500000, .i1⟩ : BufTy).Contents (Elt F)) (StableHlo.after hostOps0 V (Proc.devRef .tc main_arg14)) (StableHlo.after hostOps0 V (Proc.devRef .tc main_v42)) :=
  Sage.after_binary (a := main_arg14) (b := main_v42) (y := main_v43) (f := (cmpi .slt : (⟨S500000, .i32⟩ : BufTy).Contents (Elt F) → (⟨S500000, .i32⟩ : BufTy).Contents (Elt F) → (⟨S500000, .i1⟩ : BufTy).Contents (Elt F))) hostOps0_writes 65 V rfl (by decide) (by decide) (by decide)

/-- Position 66 of host stretch 0: `c_20` from no operand. -/
theorem rd0_c_20 : (StableHlo.after hostOps0 V (Proc.devRef .tc main_c_20)) = ((constantI S_ 32 20000#32) : (⟨S_, .i32⟩ : BufTy).Contents (Elt F)) :=
  Sage.after_nullary (y := main_c_20) hostOps0_writes 66 V rfl (by decide)

/-- Position 67 of host stretch 0: `v44` from `c_20`. -/
theorem rd0_v44 : (StableHlo.after hostOps0 V (Proc.devRef .tc main_v44)) = (broadcastInDim S500000 ![] bcast_S_S500000 : (⟨S_, .i32⟩ : BufTy).Contents (Elt F) → (⟨S500000, .i32⟩ : BufTy).Contents (Elt F)) (StableHlo.after hostOps0 V (Proc.devRef .tc main_c_20)) :=
  Sage.after_unary (x := main_c_20) (y := main_v44) (f := (broadcastInDim S500000 ![] bcast_S_S500000 : (⟨S_, .i32⟩ : BufTy).Contents (Elt F) → (⟨S500000, .i32⟩ : BufTy).Contents (Elt F))) hostOps0_writes 67 V rfl (by decide) (by decide)

/-- Position 68 of host stretch 0: `v45` from `arg14`, `v44`. -/
theorem rd0_v45 : (StableHlo.after hostOps0 V (Proc.devRef .tc main_v45)) = (addi : (⟨S500000, .i32⟩ : BufTy).Contents (Elt F) → (⟨S500000, .i32⟩ : BufTy).Contents (Elt F) → (⟨S500000, .i32⟩ : BufTy).Contents (Elt F)) (StableHlo.after hostOps0 V (Proc.devRef .tc main_arg14)) (StableHlo.after hostOps0 V (Proc.devRef .tc main_v44)) :=
  Sage.after_binary (a := main_arg14) (b := main_v44) (y := main_v45) (f := (addi : (⟨S500000, .i32⟩ : BufTy).Contents (Elt F) → (⟨S500000, .i32⟩ : BufTy).Contents (Elt F) → (⟨S500000, .i32⟩ : BufTy).Contents (Elt F))) hostOps0_writes 68 V rfl (by decide) (by decide) (by decide)

/-- Position 69 of host stretch 0: `v46` from `v43`, `v45`, `arg14`. -/
theorem rd0_v46 : (StableHlo.after hostOps0 V (Proc.devRef .tc main_v46)) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (StableHlo.after hostOps0 V (Proc.devRef .tc main_v43)) (StableHlo.after hostOps0 V (Proc.devRef .tc main_v45)) (StableHlo.after hostOps0 V (Proc.devRef .tc main_arg14)) :=
  Sage.after_ternary (c := main_v43) (a := main_v45) (b := main_arg14) (y := main_v46) (f := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))) hostOps0_writes 69 V rfl (by decide) (by decide) (by decide) (by decide)

/-- Position 70 of host stretch 0: `v47` from `v46`. -/
theorem rd0_v47 : (StableHlo.after hostOps0 V (Proc.devRef .tc main_v47)) = (broadcastInDim S500000x1 ![0] bcast_S500000_S500000x1_0 : (⟨S500000, .i32⟩ : BufTy).Contents (Elt F) → (⟨S500000x1, .i32⟩ : BufTy).Contents (Elt F)) (StableHlo.after hostOps0 V (Proc.devRef .tc main_v46)) :=
  Sage.after_unary (x := main_v46) (y := main_v47) (f := (broadcastInDim S500000x1 ![0] bcast_S500000_S500000x1_0 : (⟨S500000, .i32⟩ : BufTy).Contents (Elt F) → (⟨S500000x1, .i32⟩ : BufTy).Contents (Elt F))) hostOps0_writes 70 V rfl (by decide) (by decide)

/-- Position 71 of host stretch 0: `v48` from `arg0`, `v47`. -/
theorem rd0_v48 : (StableHlo.after hostOps0 V (Proc.devRef .tc main_v48)) = ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)) (StableHlo.after hostOps0 V (Proc.devRef .tc main_arg0)) (StableHlo.after hostOps0 V (Proc.devRef .tc main_v47)) :=
  Sage.after_binary (a := main_arg0) (b := main_v47) (y := main_v48) (f := ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F))) hostOps0_writes 71 V rfl (by decide) (by decide) (by decide)

/-- Position 72 of host stretch 0: `cst_21` from no operand. -/
theorem rd0_cst_21 : (StableHlo.after hostOps0 V (Proc.devRef .tc main_cst_21)) = ((constant S_ .f32 0x00000000#32) : (⟨S_, .f32⟩ : BufTy).Contents (Elt F)) :=
  Sage.after_nullary (y := main_cst_21) hostOps0_writes 72 V rfl (by decide)

/-- Position 73 of host stretch 0: `v49` from `cst_21`. -/
theorem rd0_v49 : (StableHlo.after hostOps0 V (Proc.devRef .tc main_v49)) = (broadcastInDim S10000x128 ![] bcast_S_S10000x128 : (⟨S_, .f32⟩ : BufTy).Contents (Elt F) → (⟨S10000x128, .f32⟩ : BufTy).Contents (Elt F)) (StableHlo.after hostOps0 V (Proc.devRef .tc main_cst_21)) :=
  Sage.after_unary (x := main_cst_21) (y := main_v49) (f := (broadcastInDim S10000x128 ![] bcast_S_S10000x128 : (⟨S_, .f32⟩ : BufTy).Contents (Elt F) → (⟨S10000x128, .f32⟩ : BufTy).Contents (Elt F))) hostOps0_writes 73 V rfl (by decide) (by decide)

/-- Position 74 of host stretch 0: `v50` from `arg15`. -/
theorem rd0_v50 : (StableHlo.after hostOps0 V (Proc.devRef .tc main_v50)) = (broadcastInDim S500000x1 ![0] bcast_S500000_S500000x1_0 : (⟨S500000, .i32⟩ : BufTy).Contents (Elt F) → (⟨S500000x1, .i32⟩ : BufTy).Contents (Elt F)) (StableHlo.after hostOps0 V (Proc.devRef .tc main_arg15)) :=
  Sage.after_unary (x := main_arg15) (y := main_v50) (f := (broadcastInDim S500000x1 ![0] bcast_S500000_S500000x1_0 : (⟨S500000, .i32⟩ : BufTy).Contents (Elt F) → (⟨S500000x1, .i32⟩ : BufTy).Contents (Elt F))) hostOps0_writes 74 V rfl (by decide) (by decide)

/-- Position 75 of host stretch 0: `v51` from `v49`, `v50`, `v48`. -/
theorem rd0_v51 : (StableHlo.after hostOps0 V (Proc.devRef .tc main_v51)) = ((fun x i u => Host.scatterAdd scatter_S10000x128_S500000x1_S500000x128_1_0_0_1 x i u) : (⟨S10000x128, .f32⟩ : BufTy).Contents (Elt F) → (⟨S500000x1, .i32⟩ : BufTy).Contents (Elt F) → (⟨S500000x128, .f32⟩ : BufTy).Contents (Elt F) → (⟨S10000x128, .f32⟩ : BufTy).Contents (Elt F)) (StableHlo.after hostOps0 V (Proc.devRef .tc main_v49)) (StableHlo.after hostOps0 V (Proc.devRef .tc main_v50)) (StableHlo.after hostOps0 V (Proc.devRef .tc main_v48)) :=
  Sage.after_ternary (c := main_v49) (a := main_v50) (b := main_v48) (y := main_v51) (f := ((fun x i u => Host.scatterAdd scatter_S10000x128_S500000x1_S500000x128_1_0_0_1 x i u) : (⟨S10000x128, .f32⟩ : BufTy).Contents (Elt F) → (⟨S500000x1, .i32⟩ : BufTy).Contents (Elt F) → (⟨S500000x128, .f32⟩ : BufTy).Contents (Elt F) → (⟨S10000x128, .f32⟩ : BufTy).Contents (Elt F))) hostOps0_writes 75 V rfl (by decide) (by decide) (by decide) (by decide)

/-- Position 76 of host stretch 0: `v52` from `v5`. -/
theorem rd0_v52 : (StableHlo.after hostOps0 V (Proc.devRef .tc main_v52)) = (broadcastInDim S10000x128 ![0, 1] bcast_S10000x1_S10000x128_0_1 : (⟨S10000x1, .f32⟩ : BufTy).Contents (Elt F) → (⟨S10000x128, .f32⟩ : BufTy).Contents (Elt F)) (StableHlo.after hostOps0 V (Proc.devRef .tc main_v5)) :=
  Sage.after_unary (x := main_v5) (y := main_v52) (f := (broadcastInDim S10000x128 ![0, 1] bcast_S10000x1_S10000x128_0_1 : (⟨S10000x1, .f32⟩ : BufTy).Contents (Elt F) → (⟨S10000x128, .f32⟩ : BufTy).Contents (Elt F))) hostOps0_writes 76 V rfl (by decide) (by decide)

/-- Position 77 of host stretch 0: `v53` from `v51`, `v52`. -/
theorem rd0_v53 : (StableHlo.after hostOps0 V (Proc.devRef .tc main_v53)) = (Host.divf : (⟨S10000x128, .f32⟩ : BufTy).Contents (Elt F) → (⟨S10000x128, .f32⟩ : BufTy).Contents (Elt F) → (⟨S10000x128, .f32⟩ : BufTy).Contents (Elt F)) (StableHlo.after hostOps0 V (Proc.devRef .tc main_v51)) (StableHlo.after hostOps0 V (Proc.devRef .tc main_v52)) :=
  Sage.after_binary (a := main_v51) (b := main_v52) (y := main_v53) (f := (Host.divf : (⟨S10000x128, .f32⟩ : BufTy).Contents (Elt F) → (⟨S10000x128, .f32⟩ : BufTy).Contents (Elt F) → (⟨S10000x128, .f32⟩ : BufTy).Contents (Elt F))) hostOps0_writes 77 V rfl (by decide) (by decide) (by decide)

/-- Position 78 of host stretch 0: `c_22` from no operand. -/
theorem rd0_c_22 : (StableHlo.after hostOps0 V (Proc.devRef .tc main_c_22)) = ((constantI S_ 32 0#32) : (⟨S_, .i32⟩ : BufTy).Contents (Elt F)) :=
  Sage.after_nullary (y := main_c_22) hostOps0_writes 78 V rfl (by decide)

/-- Position 79 of host stretch 0: `v54` from `c_22`. -/
theorem rd0_v54 : (StableHlo.after hostOps0 V (Proc.devRef .tc main_v54)) = (broadcastInDim S400000 ![] bcast_S_S400000 : (⟨S_, .i32⟩ : BufTy).Contents (Elt F) → (⟨S400000, .i32⟩ : BufTy).Contents (Elt F)) (StableHlo.after hostOps0 V (Proc.devRef .tc main_c_22)) :=
  Sage.after_unary (x := main_c_22) (y := main_v54) (f := (broadcastInDim S400000 ![] bcast_S_S400000 : (⟨S_, .i32⟩ : BufTy).Contents (Elt F) → (⟨S400000, .i32⟩ : BufTy).Contents (Elt F))) hostOps0_writes 79 V rfl (by decide) (by decide)

/-- Position 80 of host stretch 0: `v55` from `arg16`, `v54`. -/
theorem rd0_v55 : (StableHlo.after hostOps0 V (Proc.devRef .tc main_v55)) = (cmpi .slt : (⟨S400000, .i32⟩ : BufTy).Contents (Elt F) → (⟨S400000, .i32⟩ : BufTy).Contents (Elt F) → (⟨S400000, .i1⟩ : BufTy).Contents (Elt F)) (StableHlo.after hostOps0 V (Proc.devRef .tc main_arg16)) (StableHlo.after hostOps0 V (Proc.devRef .tc main_v54)) :=
  Sage.after_binary (a := main_arg16) (b := main_v54) (y := main_v55) (f := (cmpi .slt : (⟨S400000, .i32⟩ : BufTy).Contents (Elt F) → (⟨S400000, .i32⟩ : BufTy).Contents (Elt F) → (⟨S400000, .i1⟩ : BufTy).Contents (Elt F))) hostOps0_writes 80 V rfl (by decide) (by decide) (by decide)

/-- Position 81 of host stretch 0: `c_23` from no operand. -/
theorem rd0_c_23 : (StableHlo.after hostOps0 V (Proc.devRef .tc main_c_23)) = ((constantI S_ 32 20000#32) : (⟨S_, .i32⟩ : BufTy).Contents (Elt F)) :=
  Sage.after_nullary (y := main_c_23) hostOps0_writes 81 V rfl (by decide)

/-- Position 82 of host stretch 0: `v56` from `c_23`. -/
theorem rd0_v56 : (StableHlo.after hostOps0 V (Proc.devRef .tc main_v56)) = (broadcastInDim S400000 ![] bcast_S_S400000 : (⟨S_, .i32⟩ : BufTy).Contents (Elt F) → (⟨S400000, .i32⟩ : BufTy).Contents (Elt F)) (StableHlo.after hostOps0 V (Proc.devRef .tc main_c_23)) :=
  Sage.after_unary (x := main_c_23) (y := main_v56) (f := (broadcastInDim S400000 ![] bcast_S_S400000 : (⟨S_, .i32⟩ : BufTy).Contents (Elt F) → (⟨S400000, .i32⟩ : BufTy).Contents (Elt F))) hostOps0_writes 82 V rfl (by decide) (by decide)

/-- Position 83 of host stretch 0: `v57` from `arg16`, `v56`. -/
theorem rd0_v57 : (StableHlo.after hostOps0 V (Proc.devRef .tc main_v57)) = (addi : (⟨S400000, .i32⟩ : BufTy).Contents (Elt F) → (⟨S400000, .i32⟩ : BufTy).Contents (Elt F) → (⟨S400000, .i32⟩ : BufTy).Contents (Elt F)) (StableHlo.after hostOps0 V (Proc.devRef .tc main_arg16)) (StableHlo.after hostOps0 V (Proc.devRef .tc main_v56)) :=
  Sage.after_binary (a := main_arg16) (b := main_v56) (y := main_v57) (f := (addi : (⟨S400000, .i32⟩ : BufTy).Contents (Elt F) → (⟨S400000, .i32⟩ : BufTy).Contents (Elt F) → (⟨S400000, .i32⟩ : BufTy).Contents (Elt F))) hostOps0_writes 83 V rfl (by decide) (by decide) (by decide)

/-- Position 84 of host stretch 0: `v58` from `v55`, `v57`, `arg16`. -/
theorem rd0_v58 : (StableHlo.after hostOps0 V (Proc.devRef .tc main_v58)) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (StableHlo.after hostOps0 V (Proc.devRef .tc main_v55)) (StableHlo.after hostOps0 V (Proc.devRef .tc main_v57)) (StableHlo.after hostOps0 V (Proc.devRef .tc main_arg16)) :=
  Sage.after_ternary (c := main_v55) (a := main_v57) (b := main_arg16) (y := main_v58) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) hostOps0_writes 84 V rfl (by decide) (by decide) (by decide) (by decide)

/-- Position 85 of host stretch 0: `v59` from `v58`. -/
theorem rd0_v59 : (StableHlo.after hostOps0 V (Proc.devRef .tc main_v59)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_v58)) :=
  Sage.after_unary (x := main_v58) (y := main_v59) (f := (broadcastInDim S400000x1 ![0] bcast_S400000_S400000x1_0 : (⟨S400000, .i32⟩ : BufTy).Contents (Elt F) → (⟨S400000x1, .i32⟩ : BufTy).Contents (Elt F))) hostOps0_writes 85 V rfl (by decide) (by decide)

/-- Position 86 of host stretch 0: `v60` from `arg0`, `v59`. -/
theorem rd0_v60 : (StableHlo.after hostOps0 V (Proc.devRef .tc main_v60)) = ((fun x i => Host.gather gather_S20000x128_S400000x1_S400000x128_1_0_n_n_0_1_1128 x i) : (⟨S20000x128, .f32⟩ : BufTy).Contents (Elt F) → (⟨S400000x1, .i32⟩ : BufTy).Contents (Elt F) → (⟨S400000x128, .f32⟩ : BufTy).Contents (Elt F)) (StableHlo.after hostOps0 V (Proc.devRef .tc main_arg0)) (StableHlo.after hostOps0 V (Proc.devRef .tc main_v59)) :=
  Sage.after_binary (a := main_arg0) (b := main_v59) (y := main_v60) (f := ((fun x i => Host.gather gather_S20000x128_S400000x1_S400000x128_1_0_n_n_0_1_1128 x i) : (⟨S20000x128, .f32⟩ : BufTy).Contents (Elt F) → (⟨S400000x1, .i32⟩ : BufTy).Contents (Elt F) → (⟨S400000x128, .f32⟩ : BufTy).Contents (Elt F))) hostOps0_writes 86 V rfl (by decide) (by decide) (by decide)

/-- Position 87 of host stretch 0: `cst_24` from no operand. -/
theorem rd0_cst_24 : (StableHlo.after hostOps0 V (Proc.devRef .tc main_cst_24)) = ((constant S_ .f32 0x00000000#32) : (⟨S_, .f32⟩ : BufTy).Contents (Elt F)) :=
  Sage.after_nullary (y := main_cst_24) hostOps0_writes 87 V rfl (by decide)

/-- Position 88 of host stretch 0: `v61` from `cst_24`. -/
theorem rd0_v61 : (StableHlo.after hostOps0 V (Proc.devRef .tc main_v61)) = (broadcastInDim S50000x128 ![] bcast_S_S50000x128 : (⟨S_, .f32⟩ : BufTy).Contents (Elt F) → (⟨S50000x128, .f32⟩ : BufTy).Contents (Elt F)) (StableHlo.after hostOps0 V (Proc.devRef .tc main_cst_24)) :=
  Sage.after_unary (x := main_cst_24) (y := main_v61) (f := (broadcastInDim S50000x128 ![] bcast_S_S50000x128 : (⟨S_, .f32⟩ : BufTy).Contents (Elt F) → (⟨S50000x128, .f32⟩ : BufTy).Contents (Elt F))) hostOps0_writes 88 V rfl (by decide) (by decide)

/-- Position 89 of host stretch 0: `v62` from `arg17`. -/
theorem rd0_v62 : (StableHlo.after hostOps0 V (Proc.devRef .tc main_v62)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_arg17)) :=
  Sage.after_unary (x := main_arg17) (y := main_v62) (f := (broadcastInDim S400000x1 ![0] bcast_S400000_S400000x1_0 : (⟨S400000, .i32⟩ : BufTy).Contents (Elt F) → (⟨S400000x1, .i32⟩ : BufTy).Contents (Elt F))) hostOps0_writes 89 V rfl (by decide) (by decide)

/-- Position 90 of host stretch 0: `v63` from `v61`, `v62`, `v60`. -/
theorem rd0_v63 : (StableHlo.after hostOps0 V (Proc.devRef .tc main_v63)) = ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) (StableHlo.after hostOps0 V (Proc.devRef .tc main_v61)) (StableHlo.after hostOps0 V (Proc.devRef .tc main_v62)) (StableHlo.after hostOps0 V (Proc.devRef .tc main_v60)) :=
  Sage.after_ternary (c := main_v61) (a := main_v62) (b := main_v60) (y := main_v63) (f := ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F))) hostOps0_writes 90 V rfl (by decide) (by decide) (by decide) (by decide)

/-- Position 91 of host stretch 0: `v64` from `v11`. -/
theorem rd0_v64 : (StableHlo.after hostOps0 V (Proc.devRef .tc main_v64)) = (broadcastInDim S50000x128 ![0, 1] bcast_S50000x1_S50000x128_0_1 : (⟨S50000x1, .f32⟩ : BufTy).Contents (Elt F) → (⟨S50000x128, .f32⟩ : BufTy).Contents (Elt F)) (StableHlo.after hostOps0 V (Proc.devRef .tc main_v11)) :=
  Sage.after_unary (x := main_v11) (y := main_v64) (f := (broadcastInDim S50000x128 ![0, 1] bcast_S50000x1_S50000x128_0_1 : (⟨S50000x1, .f32⟩ : BufTy).Contents (Elt F) → (⟨S50000x128, .f32⟩ : BufTy).Contents (Elt F))) hostOps0_writes 91 V rfl (by decide) (by decide)

/-- Position 92 of host stretch 0: `v65` from `v63`, `v64`. -/
theorem rd0_v65 : (StableHlo.after hostOps0 V (Proc.devRef .tc main_v65)) = (Host.divf : (⟨S50000x128, .f32⟩ : BufTy).Contents (Elt F) → (⟨S50000x128, .f32⟩ : BufTy).Contents (Elt F) → (⟨S50000x128, .f32⟩ : BufTy).Contents (Elt F)) (StableHlo.after hostOps0 V (Proc.devRef .tc main_v63)) (StableHlo.after hostOps0 V (Proc.devRef .tc main_v64)) :=
  Sage.after_binary (a := main_v63) (b := main_v64) (y := main_v65) (f := (Host.divf : (⟨S50000x128, .f32⟩ : BufTy).Contents (Elt F) → (⟨S50000x128, .f32⟩ : BufTy).Contents (Elt F) → (⟨S50000x128, .f32⟩ : BufTy).Contents (Elt F))) hostOps0_writes 92 V rfl (by decide) (by decide) (by decide)

/-- Position 93 of host stretch 0: `c_25` from no operand. -/
theorem rd0_c_25 : (StableHlo.after hostOps0 V (Proc.devRef .tc main_c_25)) = ((constantI S_ 32 0#32) : (⟨S_, .i32⟩ : BufTy).Contents (Elt F)) :=
  Sage.after_nullary (y := main_c_25) hostOps0_writes 93 V rfl (by decide)

/-- Position 94 of host stretch 0: `v66` from `c_25`. -/
theorem rd0_v66 : (StableHlo.after hostOps0 V (Proc.devRef .tc main_v66)) = (broadcastInDim S150000 ![] bcast_S_S150000 : (⟨S_, .i32⟩ : BufTy).Contents (Elt F) → (⟨S150000, .i32⟩ : BufTy).Contents (Elt F)) (StableHlo.after hostOps0 V (Proc.devRef .tc main_c_25)) :=
  Sage.after_unary (x := main_c_25) (y := main_v66) (f := (broadcastInDim S150000 ![] bcast_S_S150000 : (⟨S_, .i32⟩ : BufTy).Contents (Elt F) → (⟨S150000, .i32⟩ : BufTy).Contents (Elt F))) hostOps0_writes 94 V rfl (by decide) (by decide)

/-- Position 95 of host stretch 0: `v67` from `arg18`, `v66`. -/
theorem rd0_v67 : (StableHlo.after hostOps0 V (Proc.devRef .tc main_v67)) = (cmpi .slt : (⟨S150000, .i32⟩ : BufTy).Contents (Elt F) → (⟨S150000, .i32⟩ : BufTy).Contents (Elt F) → (⟨S150000, .i1⟩ : BufTy).Contents (Elt F)) (StableHlo.after hostOps0 V (Proc.devRef .tc main_arg18)) (StableHlo.after hostOps0 V (Proc.devRef .tc main_v66)) :=
  Sage.after_binary (a := main_arg18) (b := main_v66) (y := main_v67) (f := (cmpi .slt : (⟨S150000, .i32⟩ : BufTy).Contents (Elt F) → (⟨S150000, .i32⟩ : BufTy).Contents (Elt F) → (⟨S150000, .i1⟩ : BufTy).Contents (Elt F))) hostOps0_writes 95 V rfl (by decide) (by decide) (by decide)

/-- Position 96 of host stretch 0: `c_26` from no operand. -/
theorem rd0_c_26 : (StableHlo.after hostOps0 V (Proc.devRef .tc main_c_26)) = ((constantI S_ 32 50000#32) : (⟨S_, .i32⟩ : BufTy).Contents (Elt F)) :=
  Sage.after_nullary (y := main_c_26) hostOps0_writes 96 V rfl (by decide)

/-- Position 97 of host stretch 0: `v68` from `c_26`. -/
theorem rd0_v68 : (StableHlo.after hostOps0 V (Proc.devRef .tc main_v68)) = (broadcastInDim S150000 ![] bcast_S_S150000 : (⟨S_, .i32⟩ : BufTy).Contents (Elt F) → (⟨S150000, .i32⟩ : BufTy).Contents (Elt F)) (StableHlo.after hostOps0 V (Proc.devRef .tc main_c_26)) :=
  Sage.after_unary (x := main_c_26) (y := main_v68) (f := (broadcastInDim S150000 ![] bcast_S_S150000 : (⟨S_, .i32⟩ : BufTy).Contents (Elt F) → (⟨S150000, .i32⟩ : BufTy).Contents (Elt F))) hostOps0_writes 97 V rfl (by decide) (by decide)

/-- Position 98 of host stretch 0: `v69` from `arg18`, `v68`. -/
theorem rd0_v69 : (StableHlo.after hostOps0 V (Proc.devRef .tc main_v69)) = (addi : (⟨S150000, .i32⟩ : BufTy).Contents (Elt F) → (⟨S150000, .i32⟩ : BufTy).Contents (Elt F) → (⟨S150000, .i32⟩ : BufTy).Contents (Elt F)) (StableHlo.after hostOps0 V (Proc.devRef .tc main_arg18)) (StableHlo.after hostOps0 V (Proc.devRef .tc main_v68)) :=
  Sage.after_binary (a := main_arg18) (b := main_v68) (y := main_v69) (f := (addi : (⟨S150000, .i32⟩ : BufTy).Contents (Elt F) → (⟨S150000, .i32⟩ : BufTy).Contents (Elt F) → (⟨S150000, .i32⟩ : BufTy).Contents (Elt F))) hostOps0_writes 98 V rfl (by decide) (by decide) (by decide)

/-- Position 99 of host stretch 0: `v70` from `v67`, `v69`, `arg18`. -/
theorem rd0_v70 : (StableHlo.after hostOps0 V (Proc.devRef .tc main_v70)) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (StableHlo.after hostOps0 V (Proc.devRef .tc main_v67)) (StableHlo.after hostOps0 V (Proc.devRef .tc main_v69)) (StableHlo.after hostOps0 V (Proc.devRef .tc main_arg18)) :=
  Sage.after_ternary (c := main_v67) (a := main_v69) (b := main_arg18) (y := main_v70) (f := (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))) hostOps0_writes 99 V rfl (by decide) (by decide) (by decide) (by decide)

/-- Position 100 of host stretch 0: `v71` from `v70`. -/
theorem rd0_v71 : (StableHlo.after hostOps0 V (Proc.devRef .tc main_v71)) = (broadcastInDim S150000x1 ![0] bcast_S150000_S150000x1_0 : (⟨S150000, .i32⟩ : BufTy).Contents (Elt F) → (⟨S150000x1, .i32⟩ : BufTy).Contents (Elt F)) (StableHlo.after hostOps0 V (Proc.devRef .tc main_v70)) :=
  Sage.after_unary (x := main_v70) (y := main_v71) (f := (broadcastInDim S150000x1 ![0] bcast_S150000_S150000x1_0 : (⟨S150000, .i32⟩ : BufTy).Contents (Elt F) → (⟨S150000x1, .i32⟩ : BufTy).Contents (Elt F))) hostOps0_writes 100 V rfl (by decide) (by decide)

/-- Position 101 of host stretch 0: `v72` from `arg1`, `v71`. -/
theorem rd0_v72 : (StableHlo.after hostOps0 V (Proc.devRef .tc main_v72)) = ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)) (StableHlo.after hostOps0 V (Proc.devRef .tc main_arg1)) (StableHlo.after hostOps0 V (Proc.devRef .tc main_v71)) :=
  Sage.after_binary (a := main_arg1) (b := main_v71) (y := main_v72) (f := ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F))) hostOps0_writes 101 V rfl (by decide) (by decide) (by decide)

/-- Position 102 of host stretch 0: `cst_27` from no operand. -/
theorem rd0_cst_27 : (StableHlo.after hostOps0 V (Proc.devRef .tc main_cst_27)) = ((constant S_ .f32 0x00000000#32) : (⟨S_, .f32⟩ : BufTy).Contents (Elt F)) :=
  Sage.after_nullary (y := main_cst_27) hostOps0_writes 102 V rfl (by decide)

/-- Position 103 of host stretch 0: `v73` from `cst_27`. -/
theorem rd0_v73 : (StableHlo.after hostOps0 V (Proc.devRef .tc main_v73)) = (broadcastInDim S3000x128 ![] bcast_S_S3000x128 : (⟨S_, .f32⟩ : BufTy).Contents (Elt F) → (⟨S3000x128, .f32⟩ : BufTy).Contents (Elt F)) (StableHlo.after hostOps0 V (Proc.devRef .tc main_cst_27)) :=
  Sage.after_unary (x := main_cst_27) (y := main_v73) (f := (broadcastInDim S3000x128 ![] bcast_S_S3000x128 : (⟨S_, .f32⟩ : BufTy).Contents (Elt F) → (⟨S3000x128, .f32⟩ : BufTy).Contents (Elt F))) hostOps0_writes 103 V rfl (by decide) (by decide)

/-- Position 104 of host stretch 0: `v74` from `arg19`. -/
theorem rd0_v74 : (StableHlo.after hostOps0 V (Proc.devRef .tc main_v74)) = (broadcastInDim S150000x1 ![0] bcast_S150000_S150000x1_0 : (⟨S150000, .i32⟩ : BufTy).Contents (Elt F) → (⟨S150000x1, .i32⟩ : BufTy).Contents (Elt F)) (StableHlo.after hostOps0 V (Proc.devRef .tc main_arg19)) :=
  Sage.after_unary (x := main_arg19) (y := main_v74) (f := (broadcastInDim S150000x1 ![0] bcast_S150000_S150000x1_0 : (⟨S150000, .i32⟩ : BufTy).Contents (Elt F) → (⟨S150000x1, .i32⟩ : BufTy).Contents (Elt F))) hostOps0_writes 104 V rfl (by decide) (by decide)

/-- Position 105 of host stretch 0: `v75` from `v73`, `v74`, `v72`. -/
theorem rd0_v75 : (StableHlo.after hostOps0 V (Proc.devRef .tc main_v75)) = ((fun x i u => Host.scatterAdd scatter_S3000x128_S150000x1_S150000x128_1_0_0_1 x i u) : (⟨S3000x128, .f32⟩ : BufTy).Contents (Elt F) → (⟨S150000x1, .i32⟩ : BufTy).Contents (Elt F) → (⟨S150000x128, .f32⟩ : BufTy).Contents (Elt F) → (⟨S3000x128, .f32⟩ : BufTy).Contents (Elt F)) (StableHlo.after hostOps0 V (Proc.devRef .tc main_v73)) (StableHlo.after hostOps0 V (Proc.devRef .tc main_v74)) (StableHlo.after hostOps0 V (Proc.devRef .tc main_v72)) :=
  Sage.after_ternary (c := main_v73) (a := main_v74) (b := main_v72) (y := main_v75) (f := ((fun x i u => Host.scatterAdd scatter_S3000x128_S150000x1_S150000x128_1_0_0_1 x i u) : (⟨S3000x128, .f32⟩ : BufTy).Contents (Elt F) → (⟨S150000x1, .i32⟩ : BufTy).Contents (Elt F) → (⟨S150000x128, .f32⟩ : BufTy).Contents (Elt F) → (⟨S3000x128, .f32⟩ : BufTy).Contents (Elt F))) hostOps0_writes 105 V rfl (by decide) (by decide) (by decide) (by decide)

/-- Position 106 of host stretch 0: `v76` from `v17`. -/
theorem rd0_v76 : (StableHlo.after hostOps0 V (Proc.devRef .tc main_v76)) = (broadcastInDim S3000x128 ![0, 1] bcast_S3000x1_S3000x128_0_1 : (⟨S3000x1, .f32⟩ : BufTy).Contents (Elt F) → (⟨S3000x128, .f32⟩ : BufTy).Contents (Elt F)) (StableHlo.after hostOps0 V (Proc.devRef .tc main_v17)) :=
  Sage.after_unary (x := main_v17) (y := main_v76) (f := (broadcastInDim S3000x128 ![0, 1] bcast_S3000x1_S3000x128_0_1 : (⟨S3000x1, .f32⟩ : BufTy).Contents (Elt F) → (⟨S3000x128, .f32⟩ : BufTy).Contents (Elt F))) hostOps0_writes 106 V rfl (by decide) (by decide)

/-- Position 107 of host stretch 0: `v77` from `v75`, `v76`. -/
theorem rd0_v77 : (StableHlo.after hostOps0 V (Proc.devRef .tc main_v77)) = (Host.divf : (⟨S3000x128, .f32⟩ : BufTy).Contents (Elt F) → (⟨S3000x128, .f32⟩ : BufTy).Contents (Elt F) → (⟨S3000x128, .f32⟩ : BufTy).Contents (Elt F)) (StableHlo.after hostOps0 V (Proc.devRef .tc main_v75)) (StableHlo.after hostOps0 V (Proc.devRef .tc main_v76)) :=
  Sage.after_binary (a := main_v75) (b := main_v76) (y := main_v77) (f := (Host.divf : (⟨S3000x128, .f32⟩ : BufTy).Contents (Elt F) → (⟨S3000x128, .f32⟩ : BufTy).Contents (Elt F) → (⟨S3000x128, .f32⟩ : BufTy).Contents (Elt F))) hostOps0_writes 107 V rfl (by decide) (by decide) (by decide)

/-- Position 108 of host stretch 0: `c_28` from no operand. -/
theorem rd0_c_28 : (StableHlo.after hostOps0 V (Proc.devRef .tc main_c_28)) = ((constantI S_ 32 0#32) : (⟨S_, .i32⟩ : BufTy).Contents (Elt F)) :=
  Sage.after_nullary (y := main_c_28) hostOps0_writes 108 V rfl (by decide)

/-- Position 109 of host stretch 0: `v78` from `c_28`. -/
theorem rd0_v78 : (StableHlo.after hostOps0 V (Proc.devRef .tc main_v78)) = (broadcastInDim S400000 ![] bcast_S_S400000 : (⟨S_, .i32⟩ : BufTy).Contents (Elt F) → (⟨S400000, .i32⟩ : BufTy).Contents (Elt F)) (StableHlo.after hostOps0 V (Proc.devRef .tc main_c_28)) :=
  Sage.after_unary (x := main_c_28) (y := main_v78) (f := (broadcastInDim S400000 ![] bcast_S_S400000 : (⟨S_, .i32⟩ : BufTy).Contents (Elt F) → (⟨S400000, .i32⟩ : BufTy).Contents (Elt F))) hostOps0_writes 109 V rfl (by decide) (by decide)

/-- Position 110 of host stretch 0: `v79` from `arg20`, `v78`. -/
theorem rd0_v79 : (StableHlo.after hostOps0 V (Proc.devRef .tc main_v79)) = (cmpi .slt : (⟨S400000, .i32⟩ : BufTy).Contents (Elt F) → (⟨S400000, .i32⟩ : BufTy).Contents (Elt F) → (⟨S400000, .i1⟩ : BufTy).Contents (Elt F)) (StableHlo.after hostOps0 V (Proc.devRef .tc main_arg20)) (StableHlo.after hostOps0 V (Proc.devRef .tc main_v78)) :=
  Sage.after_binary (a := main_arg20) (b := main_v78) (y := main_v79) (f := (cmpi .slt : (⟨S400000, .i32⟩ : BufTy).Contents (Elt F) → (⟨S400000, .i32⟩ : BufTy).Contents (Elt F) → (⟨S400000, .i1⟩ : BufTy).Contents (Elt F))) hostOps0_writes 110 V rfl (by decide) (by decide) (by decide)

/-- Position 111 of host stretch 0: `c_29` from no operand. -/
theorem rd0_c_29 : (StableHlo.after hostOps0 V (Proc.devRef .tc main_c_29)) = ((constantI S_ 32 50000#32) : (⟨S_, .i32⟩ : BufTy).Contents (Elt F)) :=
  Sage.after_nullary (y := main_c_29) hostOps0_writes 111 V rfl (by decide)

/-- Position 112 of host stretch 0: `v80` from `c_29`. -/
theorem rd0_v80 : (StableHlo.after hostOps0 V (Proc.devRef .tc main_v80)) = (broadcastInDim S400000 ![] bcast_S_S400000 : (⟨S_, .i32⟩ : BufTy).Contents (Elt F) → (⟨S400000, .i32⟩ : BufTy).Contents (Elt F)) (StableHlo.after hostOps0 V (Proc.devRef .tc main_c_29)) :=
  Sage.after_unary (x := main_c_29) (y := main_v80) (f := (broadcastInDim S400000 ![] bcast_S_S400000 : (⟨S_, .i32⟩ : BufTy).Contents (Elt F) → (⟨S400000, .i32⟩ : BufTy).Contents (Elt F))) hostOps0_writes 112 V rfl (by decide) (by decide)

/-- Position 113 of host stretch 0: `v81` from `arg20`, `v80`. -/
theorem rd0_v81 : (StableHlo.after hostOps0 V (Proc.devRef .tc main_v81)) = (addi : (⟨S400000, .i32⟩ : BufTy).Contents (Elt F) → (⟨S400000, .i32⟩ : BufTy).Contents (Elt F) → (⟨S400000, .i32⟩ : BufTy).Contents (Elt F)) (StableHlo.after hostOps0 V (Proc.devRef .tc main_arg20)) (StableHlo.after hostOps0 V (Proc.devRef .tc main_v80)) :=
  Sage.after_binary (a := main_arg20) (b := main_v80) (y := main_v81) (f := (addi : (⟨S400000, .i32⟩ : BufTy).Contents (Elt F) → (⟨S400000, .i32⟩ : BufTy).Contents (Elt F) → (⟨S400000, .i32⟩ : BufTy).Contents (Elt F))) hostOps0_writes 113 V rfl (by decide) (by decide) (by decide)

/-- Position 114 of host stretch 0: `v82` from `v79`, `v81`, `arg20`. -/
theorem rd0_v82 : (StableHlo.after hostOps0 V (Proc.devRef .tc main_v82)) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (StableHlo.after hostOps0 V (Proc.devRef .tc main_v79)) (StableHlo.after hostOps0 V (Proc.devRef .tc main_v81)) (StableHlo.after hostOps0 V (Proc.devRef .tc main_arg20)) :=
  Sage.after_ternary (c := main_v79) (a := main_v81) (b := main_arg20) (y := main_v82) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) hostOps0_writes 114 V rfl (by decide) (by decide) (by decide) (by decide)

/-- Position 115 of host stretch 0: `v83` from `v82`. -/
theorem rd0_v83 : (StableHlo.after hostOps0 V (Proc.devRef .tc main_v83)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_v82)) :=
  Sage.after_unary (x := main_v82) (y := main_v83) (f := (broadcastInDim S400000x1 ![0] bcast_S400000_S400000x1_0 : (⟨S400000, .i32⟩ : BufTy).Contents (Elt F) → (⟨S400000x1, .i32⟩ : BufTy).Contents (Elt F))) hostOps0_writes 115 V rfl (by decide) (by decide)

/-- Position 116 of host stretch 0: `v84` from `arg1`, `v83`. -/
theorem rd0_v84 : (StableHlo.after hostOps0 V (Proc.devRef .tc main_v84)) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (StableHlo.after hostOps0 V (Proc.devRef .tc main_arg1)) (StableHlo.after hostOps0 V (Proc.devRef .tc main_v83)) :=
  Sage.after_binary (a := main_arg1) (b := main_v83) (y := main_v84) (f := ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F))) hostOps0_writes 116 V rfl (by decide) (by decide) (by decide)

/-- Position 117 of host stretch 0: `cst_30` from no operand. -/
theorem rd0_cst_30 : (StableHlo.after hostOps0 V (Proc.devRef .tc main_cst_30)) = ((constant S_ .f32 0x00000000#32) : (⟨S_, .f32⟩ : BufTy).Contents (Elt F)) :=
  Sage.after_nullary (y := main_cst_30) hostOps0_writes 117 V rfl (by decide)

/-- Position 118 of host stretch 0: `v85` from `cst_30`. -/
theorem rd0_v85 : (StableHlo.after hostOps0 V (Proc.devRef .tc main_v85)) = (broadcastInDim S10000x128 ![] bcast_S_S10000x128 : (⟨S_, .f32⟩ : BufTy).Contents (Elt F) → (⟨S10000x128, .f32⟩ : BufTy).Contents (Elt F)) (StableHlo.after hostOps0 V (Proc.devRef .tc main_cst_30)) :=
  Sage.after_unary (x := main_cst_30) (y := main_v85) (f := (broadcastInDim S10000x128 ![] bcast_S_S10000x128 : (⟨S_, .f32⟩ : BufTy).Contents (Elt F) → (⟨S10000x128, .f32⟩ : BufTy).Contents (Elt F))) hostOps0_writes 118 V rfl (by decide) (by decide)

/-- Position 119 of host stretch 0: `v86` from `arg21`. -/
theorem rd0_v86 : (StableHlo.after hostOps0 V (Proc.devRef .tc main_v86)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_arg21)) :=
  Sage.after_unary (x := main_arg21) (y := main_v86) (f := (broadcastInDim S400000x1 ![0] bcast_S400000_S400000x1_0 : (⟨S400000, .i32⟩ : BufTy).Contents (Elt F) → (⟨S400000x1, .i32⟩ : BufTy).Contents (Elt F))) hostOps0_writes 119 V rfl (by decide) (by decide)

/-- Position 120 of host stretch 0: `v87` from `v85`, `v86`, `v84`. -/
theorem rd0_v87 : (StableHlo.after hostOps0 V (Proc.devRef .tc main_v87)) = ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F)) (StableHlo.after hostOps0 V (Proc.devRef .tc main_v85)) (StableHlo.after hostOps0 V (Proc.devRef .tc main_v86)) (StableHlo.after hostOps0 V (Proc.devRef .tc main_v84)) :=
  Sage.after_ternary (c := main_v85) (a := main_v86) (b := main_v84) (y := main_v87) (f := ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F))) hostOps0_writes 120 V rfl (by decide) (by decide) (by decide) (by decide)

/-- Position 121 of host stretch 0: `v88` from `v23`. -/
theorem rd0_v88 : (StableHlo.after hostOps0 V (Proc.devRef .tc main_v88)) = (broadcastInDim S10000x128 ![0, 1] bcast_S10000x1_S10000x128_0_1 : (⟨S10000x1, .f32⟩ : BufTy).Contents (Elt F) → (⟨S10000x128, .f32⟩ : BufTy).Contents (Elt F)) (StableHlo.after hostOps0 V (Proc.devRef .tc main_v23)) :=
  Sage.after_unary (x := main_v23) (y := main_v88) (f := (broadcastInDim S10000x128 ![0, 1] bcast_S10000x1_S10000x128_0_1 : (⟨S10000x1, .f32⟩ : BufTy).Contents (Elt F) → (⟨S10000x128, .f32⟩ : BufTy).Contents (Elt F))) hostOps0_writes 121 V rfl (by decide) (by decide)

/-- Position 122 of host stretch 0: `v89` from `v87`, `v88`. -/
theorem rd0_v89 : (StableHlo.after hostOps0 V (Proc.devRef .tc main_v89)) = (Host.divf : (⟨S10000x128, .f32⟩ : BufTy).Contents (Elt F) → (⟨S10000x128, .f32⟩ : BufTy).Contents (Elt F) → (⟨S10000x128, .f32⟩ : BufTy).Contents (Elt F)) (StableHlo.after hostOps0 V (Proc.devRef .tc main_v87)) (StableHlo.after hostOps0 V (Proc.devRef .tc main_v88)) :=
  Sage.after_binary (a := main_v87) (b := main_v88) (y := main_v89) (f := (Host.divf : (⟨S10000x128, .f32⟩ : BufTy).Contents (Elt F) → (⟨S10000x128, .f32⟩ : BufTy).Contents (Elt F) → (⟨S10000x128, .f32⟩ : BufTy).Contents (Elt F))) hostOps0_writes 122 V rfl (by decide) (by decide) (by decide)

/-- Position 123 of host stretch 0: `c_31` from no operand. -/
theorem rd0_c_31 : (StableHlo.after hostOps0 V (Proc.devRef .tc main_c_31)) = ((constantI S_ 32 0#32) : (⟨S_, .i32⟩ : BufTy).Contents (Elt F)) :=
  Sage.after_nullary (y := main_c_31) hostOps0_writes 123 V rfl (by decide)

/-- Position 124 of host stretch 0: `v90` from `c_31`. -/
theorem rd0_v90 : (StableHlo.after hostOps0 V (Proc.devRef .tc main_v90)) = (broadcastInDim S500000 ![] bcast_S_S500000 : (⟨S_, .i32⟩ : BufTy).Contents (Elt F) → (⟨S500000, .i32⟩ : BufTy).Contents (Elt F)) (StableHlo.after hostOps0 V (Proc.devRef .tc main_c_31)) :=
  Sage.after_unary (x := main_c_31) (y := main_v90) (f := (broadcastInDim S500000 ![] bcast_S_S500000 : (⟨S_, .i32⟩ : BufTy).Contents (Elt F) → (⟨S500000, .i32⟩ : BufTy).Contents (Elt F))) hostOps0_writes 124 V rfl (by decide) (by decide)

/-- Position 125 of host stretch 0: `v91` from `arg22`, `v90`. -/
theorem rd0_v91 : (StableHlo.after hostOps0 V (Proc.devRef .tc main_v91)) = (cmpi .slt : (⟨S500000, .i32⟩ : BufTy).Contents (Elt F) → (⟨S500000, .i32⟩ : BufTy).Contents (Elt F) → (⟨S500000, .i1⟩ : BufTy).Contents (Elt F)) (StableHlo.after hostOps0 V (Proc.devRef .tc main_arg22)) (StableHlo.after hostOps0 V (Proc.devRef .tc main_v90)) :=
  Sage.after_binary (a := main_arg22) (b := main_v90) (y := main_v91) (f := (cmpi .slt : (⟨S500000, .i32⟩ : BufTy).Contents (Elt F) → (⟨S500000, .i32⟩ : BufTy).Contents (Elt F) → (⟨S500000, .i1⟩ : BufTy).Contents (Elt F))) hostOps0_writes 125 V rfl (by decide) (by decide) (by decide)

/-- Position 126 of host stretch 0: `c_32` from no operand. -/
theorem rd0_c_32 : (StableHlo.after hostOps0 V (Proc.devRef .tc main_c_32)) = ((constantI S_ 32 10000#32) : (⟨S_, .i32⟩ : BufTy).Contents (Elt F)) :=
  Sage.after_nullary (y := main_c_32) hostOps0_writes 126 V rfl (by decide)

/-- Position 127 of host stretch 0: `v92` from `c_32`. -/
theorem rd0_v92 : (StableHlo.after hostOps0 V (Proc.devRef .tc main_v92)) = (broadcastInDim S500000 ![] bcast_S_S500000 : (⟨S_, .i32⟩ : BufTy).Contents (Elt F) → (⟨S500000, .i32⟩ : BufTy).Contents (Elt F)) (StableHlo.after hostOps0 V (Proc.devRef .tc main_c_32)) :=
  Sage.after_unary (x := main_c_32) (y := main_v92) (f := (broadcastInDim S500000 ![] bcast_S_S500000 : (⟨S_, .i32⟩ : BufTy).Contents (Elt F) → (⟨S500000, .i32⟩ : BufTy).Contents (Elt F))) hostOps0_writes 127 V rfl (by decide) (by decide)

/-- Position 128 of host stretch 0: `v93` from `arg22`, `v92`. -/
theorem rd0_v93 : (StableHlo.after hostOps0 V (Proc.devRef .tc main_v93)) = (addi : (⟨S500000, .i32⟩ : BufTy).Contents (Elt F) → (⟨S500000, .i32⟩ : BufTy).Contents (Elt F) → (⟨S500000, .i32⟩ : BufTy).Contents (Elt F)) (StableHlo.after hostOps0 V (Proc.devRef .tc main_arg22)) (StableHlo.after hostOps0 V (Proc.devRef .tc main_v92)) :=
  Sage.after_binary (a := main_arg22) (b := main_v92) (y := main_v93) (f := (addi : (⟨S500000, .i32⟩ : BufTy).Contents (Elt F) → (⟨S500000, .i32⟩ : BufTy).Contents (Elt F) → (⟨S500000, .i32⟩ : BufTy).Contents (Elt F))) hostOps0_writes 128 V rfl (by decide) (by decide) (by decide)

/-- Position 129 of host stretch 0: `v94` from `v91`, `v93`, `arg22`. -/
theorem rd0_v94 : (StableHlo.after hostOps0 V (Proc.devRef .tc main_v94)) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (StableHlo.after hostOps0 V (Proc.devRef .tc main_v91)) (StableHlo.after hostOps0 V (Proc.devRef .tc main_v93)) (StableHlo.after hostOps0 V (Proc.devRef .tc main_arg22)) :=
  Sage.after_ternary (c := main_v91) (a := main_v93) (b := main_arg22) (y := main_v94) (f := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))) hostOps0_writes 129 V rfl (by decide) (by decide) (by decide) (by decide)

/-- Position 130 of host stretch 0: `v95` from `v94`. -/
theorem rd0_v95 : (StableHlo.after hostOps0 V (Proc.devRef .tc main_v95)) = (broadcastInDim S500000x1 ![0] bcast_S500000_S500000x1_0 : (⟨S500000, .i32⟩ : BufTy).Contents (Elt F) → (⟨S500000x1, .i32⟩ : BufTy).Contents (Elt F)) (StableHlo.after hostOps0 V (Proc.devRef .tc main_v94)) :=
  Sage.after_unary (x := main_v94) (y := main_v95) (f := (broadcastInDim S500000x1 ![0] bcast_S500000_S500000x1_0 : (⟨S500000, .i32⟩ : BufTy).Contents (Elt F) → (⟨S500000x1, .i32⟩ : BufTy).Contents (Elt F))) hostOps0_writes 130 V rfl (by decide) (by decide)

/-- Position 131 of host stretch 0: `v96` from `arg2`, `v95`. -/
theorem rd0_v96 : (StableHlo.after hostOps0 V (Proc.devRef .tc main_v96)) = ((fun x i => Host.gather gather_S10000x128_S500000x1_S500000x128_1_0_n_n_0_1_1128 x i) : (⟨S10000x128, .f32⟩ : BufTy).Contents (Elt F) → (⟨S500000x1, .i32⟩ : BufTy).Contents (Elt F) → (⟨S500000x128, .f32⟩ : BufTy).Contents (Elt F)) (StableHlo.after hostOps0 V (Proc.devRef .tc main_arg2)) (StableHlo.after hostOps0 V (Proc.devRef .tc main_v95)) :=
  Sage.after_binary (a := main_arg2) (b := main_v95) (y := main_v96) (f := ((fun x i => Host.gather gather_S10000x128_S500000x1_S500000x128_1_0_n_n_0_1_1128 x i) : (⟨S10000x128, .f32⟩ : BufTy).Contents (Elt F) → (⟨S500000x1, .i32⟩ : BufTy).Contents (Elt F) → (⟨S500000x128, .f32⟩ : BufTy).Contents (Elt F))) hostOps0_writes 131 V rfl (by decide) (by decide) (by decide)

/-- Position 132 of host stretch 0: `cst_33` from no operand. -/
theorem rd0_cst_33 : (StableHlo.after hostOps0 V (Proc.devRef .tc main_cst_33)) = ((constant S_ .f32 0x00000000#32) : (⟨S_, .f32⟩ : BufTy).Contents (Elt F)) :=
  Sage.after_nullary (y := main_cst_33) hostOps0_writes 132 V rfl (by decide)

/-- Position 133 of host stretch 0: `v97` from `cst_33`. -/
theorem rd0_v97 : (StableHlo.after hostOps0 V (Proc.devRef .tc main_v97)) = (broadcastInDim S20000x128 ![] bcast_S_S20000x128 : (⟨S_, .f32⟩ : BufTy).Contents (Elt F) → (⟨S20000x128, .f32⟩ : BufTy).Contents (Elt F)) (StableHlo.after hostOps0 V (Proc.devRef .tc main_cst_33)) :=
  Sage.after_unary (x := main_cst_33) (y := main_v97) (f := (broadcastInDim S20000x128 ![] bcast_S_S20000x128 : (⟨S_, .f32⟩ : BufTy).Contents (Elt F) → (⟨S20000x128, .f32⟩ : BufTy).Contents (Elt F))) hostOps0_writes 133 V rfl (by decide) (by decide)

/-- Position 134 of host stretch 0: `v98` from `arg23`. -/
theorem rd0_v98 : (StableHlo.after hostOps0 V (Proc.devRef .tc main_v98)) = (broadcastInDim S500000x1 ![0] bcast_S500000_S500000x1_0 : (⟨S500000, .i32⟩ : BufTy).Contents (Elt F) → (⟨S500000x1, .i32⟩ : BufTy).Contents (Elt F)) (StableHlo.after hostOps0 V (Proc.devRef .tc main_arg23)) :=
  Sage.after_unary (x := main_arg23) (y := main_v98) (f := (broadcastInDim S500000x1 ![0] bcast_S500000_S500000x1_0 : (⟨S500000, .i32⟩ : BufTy).Contents (Elt F) → (⟨S500000x1, .i32⟩ : BufTy).Contents (Elt F))) hostOps0_writes 134 V rfl (by decide) (by decide)

/-- Position 135 of host stretch 0: `v99` from `v97`, `v98`, `v96`. -/
theorem rd0_v99 : (StableHlo.after hostOps0 V (Proc.devRef .tc main_v99)) = ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)) (StableHlo.after hostOps0 V (Proc.devRef .tc main_v97)) (StableHlo.after hostOps0 V (Proc.devRef .tc main_v98)) (StableHlo.after hostOps0 V (Proc.devRef .tc main_v96)) :=
  Sage.after_ternary (c := main_v97) (a := main_v98) (b := main_v96) (y := main_v99) (f := ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F))) hostOps0_writes 135 V rfl (by decide) (by decide) (by decide) (by decide)

/-- Position 136 of host stretch 0: `v100` from `v29`. -/
theorem rd0_v100 : (StableHlo.after hostOps0 V (Proc.devRef .tc main_v100)) = (broadcastInDim S20000x128 ![0, 1] bcast_S20000x1_S20000x128_0_1 : (⟨S20000x1, .f32⟩ : BufTy).Contents (Elt F) → (⟨S20000x128, .f32⟩ : BufTy).Contents (Elt F)) (StableHlo.after hostOps0 V (Proc.devRef .tc main_v29)) :=
  Sage.after_unary (x := main_v29) (y := main_v100) (f := (broadcastInDim S20000x128 ![0, 1] bcast_S20000x1_S20000x128_0_1 : (⟨S20000x1, .f32⟩ : BufTy).Contents (Elt F) → (⟨S20000x128, .f32⟩ : BufTy).Contents (Elt F))) hostOps0_writes 136 V rfl (by decide) (by decide)

/-- Position 137 of host stretch 0: `v101` from `v99`, `v100`. -/
theorem rd0_v101 : (StableHlo.after hostOps0 V (Proc.devRef .tc main_v101)) = (Host.divf : (⟨S20000x128, .f32⟩ : BufTy).Contents (Elt F) → (⟨S20000x128, .f32⟩ : BufTy).Contents (Elt F) → (⟨S20000x128, .f32⟩ : BufTy).Contents (Elt F)) (StableHlo.after hostOps0 V (Proc.devRef .tc main_v99)) (StableHlo.after hostOps0 V (Proc.devRef .tc main_v100)) :=
  Sage.after_binary (a := main_v99) (b := main_v100) (y := main_v101) (f := (Host.divf : (⟨S20000x128, .f32⟩ : BufTy).Contents (Elt F) → (⟨S20000x128, .f32⟩ : BufTy).Contents (Elt F) → (⟨S20000x128, .f32⟩ : BufTy).Contents (Elt F))) hostOps0_writes 137 V rfl (by decide) (by decide) (by decide)

/-- Position 138 of host stretch 0: `c_34` from no operand. -/
theorem rd0_c_34 : (StableHlo.after hostOps0 V (Proc.devRef .tc main_c_34)) = ((constantI S_ 32 0#32) : (⟨S_, .i32⟩ : BufTy).Contents (Elt F)) :=
  Sage.after_nullary (y := main_c_34) hostOps0_writes 138 V rfl (by decide)

/-- Position 139 of host stretch 0: `v102` from `c_34`. -/
theorem rd0_v102 : (StableHlo.after hostOps0 V (Proc.devRef .tc main_v102)) = (broadcastInDim S400000 ![] bcast_S_S400000 : (⟨S_, .i32⟩ : BufTy).Contents (Elt F) → (⟨S400000, .i32⟩ : BufTy).Contents (Elt F)) (StableHlo.after hostOps0 V (Proc.devRef .tc main_c_34)) :=
  Sage.after_unary (x := main_c_34) (y := main_v102) (f := (broadcastInDim S400000 ![] bcast_S_S400000 : (⟨S_, .i32⟩ : BufTy).Contents (Elt F) → (⟨S400000, .i32⟩ : BufTy).Contents (Elt F))) hostOps0_writes 139 V rfl (by decide) (by decide)

/-- Position 140 of host stretch 0: `v103` from `arg24`, `v102`. -/
theorem rd0_v103 : (StableHlo.after hostOps0 V (Proc.devRef .tc main_v103)) = (cmpi .slt : (⟨S400000, .i32⟩ : BufTy).Contents (Elt F) → (⟨S400000, .i32⟩ : BufTy).Contents (Elt F) → (⟨S400000, .i1⟩ : BufTy).Contents (Elt F)) (StableHlo.after hostOps0 V (Proc.devRef .tc main_arg24)) (StableHlo.after hostOps0 V (Proc.devRef .tc main_v102)) :=
  Sage.after_binary (a := main_arg24) (b := main_v102) (y := main_v103) (f := (cmpi .slt : (⟨S400000, .i32⟩ : BufTy).Contents (Elt F) → (⟨S400000, .i32⟩ : BufTy).Contents (Elt F) → (⟨S400000, .i1⟩ : BufTy).Contents (Elt F))) hostOps0_writes 140 V rfl (by decide) (by decide) (by decide)

/-- Position 141 of host stretch 0: `c_35` from no operand. -/
theorem rd0_c_35 : (StableHlo.after hostOps0 V (Proc.devRef .tc main_c_35)) = ((constantI S_ 32 50000#32) : (⟨S_, .i32⟩ : BufTy).Contents (Elt F)) :=
  Sage.after_nullary (y := main_c_35) hostOps0_writes 141 V rfl (by decide)

/-- Position 142 of host stretch 0: `v104` from `c_35`. -/
theorem rd0_v104 : (StableHlo.after hostOps0 V (Proc.devRef .tc main_v104)) = (broadcastInDim S400000 ![] bcast_S_S400000 : (⟨S_, .i32⟩ : BufTy).Contents (Elt F) → (⟨S400000, .i32⟩ : BufTy).Contents (Elt F)) (StableHlo.after hostOps0 V (Proc.devRef .tc main_c_35)) :=
  Sage.after_unary (x := main_c_35) (y := main_v104) (f := (broadcastInDim S400000 ![] bcast_S_S400000 : (⟨S_, .i32⟩ : BufTy).Contents (Elt F) → (⟨S400000, .i32⟩ : BufTy).Contents (Elt F))) hostOps0_writes 142 V rfl (by decide) (by decide)

/-- Position 143 of host stretch 0: `v105` from `arg24`, `v104`. -/
theorem rd0_v105 : (StableHlo.after hostOps0 V (Proc.devRef .tc main_v105)) = (addi : (⟨S400000, .i32⟩ : BufTy).Contents (Elt F) → (⟨S400000, .i32⟩ : BufTy).Contents (Elt F) → (⟨S400000, .i32⟩ : BufTy).Contents (Elt F)) (StableHlo.after hostOps0 V (Proc.devRef .tc main_arg24)) (StableHlo.after hostOps0 V (Proc.devRef .tc main_v104)) :=
  Sage.after_binary (a := main_arg24) (b := main_v104) (y := main_v105) (f := (addi : (⟨S400000, .i32⟩ : BufTy).Contents (Elt F) → (⟨S400000, .i32⟩ : BufTy).Contents (Elt F) → (⟨S400000, .i32⟩ : BufTy).Contents (Elt F))) hostOps0_writes 143 V rfl (by decide) (by decide) (by decide)

/-- Position 144 of host stretch 0: `v106` from `v103`, `v105`, `arg24`. -/
theorem rd0_v106 : (StableHlo.after hostOps0 V (Proc.devRef .tc main_v106)) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (StableHlo.after hostOps0 V (Proc.devRef .tc main_v103)) (StableHlo.after hostOps0 V (Proc.devRef .tc main_v105)) (StableHlo.after hostOps0 V (Proc.devRef .tc main_arg24)) :=
  Sage.after_ternary (c := main_v103) (a := main_v105) (b := main_arg24) (y := main_v106) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) hostOps0_writes 144 V rfl (by decide) (by decide) (by decide) (by decide)

/-- Position 145 of host stretch 0: `v107` from `v106`. -/
theorem rd0_v107 : (StableHlo.after hostOps0 V (Proc.devRef .tc main_v107)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_v106)) :=
  Sage.after_unary (x := main_v106) (y := main_v107) (f := (broadcastInDim S400000x1 ![0] bcast_S400000_S400000x1_0 : (⟨S400000, .i32⟩ : BufTy).Contents (Elt F) → (⟨S400000x1, .i32⟩ : BufTy).Contents (Elt F))) hostOps0_writes 145 V rfl (by decide) (by decide)

/-- Position 146 of host stretch 0: `v108` from `arg1`, `v107`. -/
theorem rd0_v108 : (StableHlo.after hostOps0 V (Proc.devRef .tc main_v108)) = ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) (StableHlo.after hostOps0 V (Proc.devRef .tc main_arg1)) (StableHlo.after hostOps0 V (Proc.devRef .tc main_v107)) :=
  Sage.after_binary (a := main_arg1) (b := main_v107) (y := main_v108) (f := ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F))) hostOps0_writes 146 V rfl (by decide) (by decide) (by decide)

/-- Position 147 of host stretch 0: `cst_36` from no operand. -/
theorem rd0_cst_36 : (StableHlo.after hostOps0 V (Proc.devRef .tc main_cst_36)) = ((constant S_ .f32 0x00000000#32) : (⟨S_, .f32⟩ : BufTy).Contents (Elt F)) :=
  Sage.after_nullary (y := main_cst_36) hostOps0_writes 147 V rfl (by decide)

/-- Position 148 of host stretch 0: `v109` from `cst_36`. -/
theorem rd0_v109 : (StableHlo.after hostOps0 V (Proc.devRef .tc main_v109)) = (broadcastInDim S20000x128 ![] bcast_S_S20000x128 : (⟨S_, .f32⟩ : BufTy).Contents (Elt F) → (⟨S20000x128, .f32⟩ : BufTy).Contents (Elt F)) (StableHlo.after hostOps0 V (Proc.devRef .tc main_cst_36)) :=
  Sage.after_unary (x := main_cst_36) (y := main_v109) (f := (broadcastInDim S20000x128 ![] bcast_S_S20000x128 : (⟨S_, .f32⟩ : BufTy).Contents (Elt F) → (⟨S20000x128, .f32⟩ : BufTy).Contents (Elt F))) hostOps0_writes 148 V rfl (by decide) (by decide)

/-- Position 149 of host stretch 0: `v110` from `arg25`. -/
theorem rd0_v110 : (StableHlo.after hostOps0 V (Proc.devRef .tc main_v110)) = (broadcastInDim S400000x1 ![0] bcast_S400000_S400000x1_0 : (⟨S400000, .i32⟩ : BufTy).Contents (Elt F) → (⟨S400000x1, .i32⟩ : BufTy).Contents (Elt F)) (StableHlo.after hostOps0 V (Proc.devRef .tc main_arg25)) :=
  Sage.after_unary (x := main_arg25) (y := main_v110) (f := (broadcastInDim S400000x1 ![0] bcast_S400000_S400000x1_0 : (⟨S400000, .i32⟩ : BufTy).Contents (Elt F) → (⟨S400000x1, .i32⟩ : BufTy).Contents (Elt F))) hostOps0_writes 149 V rfl (by decide) (by decide)

/-- Position 150 of host stretch 0: `v111` from `v109`, `v110`, `v108`. -/
theorem rd0_v111 : (StableHlo.after hostOps0 V (Proc.devRef .tc main_v111)) = ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)) (StableHlo.after hostOps0 V (Proc.devRef .tc main_v109)) (StableHlo.after hostOps0 V (Proc.devRef .tc main_v110)) (StableHlo.after hostOps0 V (Proc.devRef .tc main_v108)) :=
  Sage.after_ternary (c := main_v109) (a := main_v110) (b := main_v108) (y := main_v111) (f := ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F))) hostOps0_writes 150 V rfl (by decide) (by decide) (by decide) (by decide)

/-- Position 151 of host stretch 0: `v112` from `v35`. -/
theorem rd0_v112 : (StableHlo.after hostOps0 V (Proc.devRef .tc main_v112)) = (broadcastInDim S20000x128 ![0, 1] bcast_S20000x1_S20000x128_0_1 : (⟨S20000x1, .f32⟩ : BufTy).Contents (Elt F) → (⟨S20000x128, .f32⟩ : BufTy).Contents (Elt F)) (StableHlo.after hostOps0 V (Proc.devRef .tc main_v35)) :=
  Sage.after_unary (x := main_v35) (y := main_v112) (f := (broadcastInDim S20000x128 ![0, 1] bcast_S20000x1_S20000x128_0_1 : (⟨S20000x1, .f32⟩ : BufTy).Contents (Elt F) → (⟨S20000x128, .f32⟩ : BufTy).Contents (Elt F))) hostOps0_writes 151 V rfl (by decide) (by decide)

/-- Position 152 of host stretch 0: `v113` from `v111`, `v112`. -/
theorem rd0_v113 : (StableHlo.after hostOps0 V (Proc.devRef .tc main_v113)) = (Host.divf : (⟨S20000x128, .f32⟩ : BufTy).Contents (Elt F) → (⟨S20000x128, .f32⟩ : BufTy).Contents (Elt F) → (⟨S20000x128, .f32⟩ : BufTy).Contents (Elt F)) (StableHlo.after hostOps0 V (Proc.devRef .tc main_v111)) (StableHlo.after hostOps0 V (Proc.devRef .tc main_v112)) :=
  Sage.after_binary (a := main_v111) (b := main_v112) (y := main_v113) (f := (Host.divf : (⟨S20000x128, .f32⟩ : BufTy).Contents (Elt F) → (⟨S20000x128, .f32⟩ : BufTy).Contents (Elt F) → (⟨S20000x128, .f32⟩ : BufTy).Contents (Elt F))) hostOps0_writes 152 V rfl (by decide) (by decide) (by decide)

/-- Position 153 of host stretch 0: `c_37` from no operand. -/
theorem rd0_c_37 : (StableHlo.after hostOps0 V (Proc.devRef .tc main_c_37)) = ((constantI S_ 32 0#32) : (⟨S_, .i32⟩ : BufTy).Contents (Elt F)) :=
  Sage.after_nullary (y := main_c_37) hostOps0_writes 153 V rfl (by decide)

/-- Position 154 of host stretch 0: `v114` from `c_37`. -/
theorem rd0_v114 : (StableHlo.after hostOps0 V (Proc.devRef .tc main_v114)) = (broadcastInDim S150000 ![] bcast_S_S150000 : (⟨S_, .i32⟩ : BufTy).Contents (Elt F) → (⟨S150000, .i32⟩ : BufTy).Contents (Elt F)) (StableHlo.after hostOps0 V (Proc.devRef .tc main_c_37)) :=
  Sage.after_unary (x := main_c_37) (y := main_v114) (f := (broadcastInDim S150000 ![] bcast_S_S150000 : (⟨S_, .i32⟩ : BufTy).Contents (Elt F) → (⟨S150000, .i32⟩ : BufTy).Contents (Elt F))) hostOps0_writes 154 V rfl (by decide) (by decide)

/-- Position 155 of host stretch 0: `v115` from `arg26`, `v114`. -/
theorem rd0_v115 : (StableHlo.after hostOps0 V (Proc.devRef .tc main_v115)) = (cmpi .slt : (⟨S150000, .i32⟩ : BufTy).Contents (Elt F) → (⟨S150000, .i32⟩ : BufTy).Contents (Elt F) → (⟨S150000, .i1⟩ : BufTy).Contents (Elt F)) (StableHlo.after hostOps0 V (Proc.devRef .tc main_arg26)) (StableHlo.after hostOps0 V (Proc.devRef .tc main_v114)) :=
  Sage.after_binary (a := main_arg26) (b := main_v114) (y := main_v115) (f := (cmpi .slt : (⟨S150000, .i32⟩ : BufTy).Contents (Elt F) → (⟨S150000, .i32⟩ : BufTy).Contents (Elt F) → (⟨S150000, .i1⟩ : BufTy).Contents (Elt F))) hostOps0_writes 155 V rfl (by decide) (by decide) (by decide)

/-- Position 156 of host stretch 0: `c_38` from no operand. -/
theorem rd0_c_38 : (StableHlo.after hostOps0 V (Proc.devRef .tc main_c_38)) = ((constantI S_ 32 3000#32) : (⟨S_, .i32⟩ : BufTy).Contents (Elt F)) :=
  Sage.after_nullary (y := main_c_38) hostOps0_writes 156 V rfl (by decide)

/-- Position 157 of host stretch 0: `v116` from `c_38`. -/
theorem rd0_v116 : (StableHlo.after hostOps0 V (Proc.devRef .tc main_v116)) = (broadcastInDim S150000 ![] bcast_S_S150000 : (⟨S_, .i32⟩ : BufTy).Contents (Elt F) → (⟨S150000, .i32⟩ : BufTy).Contents (Elt F)) (StableHlo.after hostOps0 V (Proc.devRef .tc main_c_38)) :=
  Sage.after_unary (x := main_c_38) (y := main_v116) (f := (broadcastInDim S150000 ![] bcast_S_S150000 : (⟨S_, .i32⟩ : BufTy).Contents (Elt F) → (⟨S150000, .i32⟩ : BufTy).Contents (Elt F))) hostOps0_writes 157 V rfl (by decide) (by decide)

/-- Position 158 of host stretch 0: `v117` from `arg26`, `v116`. -/
theorem rd0_v117 : (StableHlo.after hostOps0 V (Proc.devRef .tc main_v117)) = (addi : (⟨S150000, .i32⟩ : BufTy).Contents (Elt F) → (⟨S150000, .i32⟩ : BufTy).Contents (Elt F) → (⟨S150000, .i32⟩ : BufTy).Contents (Elt F)) (StableHlo.after hostOps0 V (Proc.devRef .tc main_arg26)) (StableHlo.after hostOps0 V (Proc.devRef .tc main_v116)) :=
  Sage.after_binary (a := main_arg26) (b := main_v116) (y := main_v117) (f := (addi : (⟨S150000, .i32⟩ : BufTy).Contents (Elt F) → (⟨S150000, .i32⟩ : BufTy).Contents (Elt F) → (⟨S150000, .i32⟩ : BufTy).Contents (Elt F))) hostOps0_writes 158 V rfl (by decide) (by decide) (by decide)

/-- Position 159 of host stretch 0: `v118` from `v115`, `v117`, `arg26`. -/
theorem rd0_v118 : (StableHlo.after hostOps0 V (Proc.devRef .tc main_v118)) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (StableHlo.after hostOps0 V (Proc.devRef .tc main_v115)) (StableHlo.after hostOps0 V (Proc.devRef .tc main_v117)) (StableHlo.after hostOps0 V (Proc.devRef .tc main_arg26)) :=
  Sage.after_ternary (c := main_v115) (a := main_v117) (b := main_arg26) (y := main_v118) (f := (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))) hostOps0_writes 159 V rfl (by decide) (by decide) (by decide) (by decide)

/-- Position 160 of host stretch 0: `v119` from `v118`. -/
theorem rd0_v119 : (StableHlo.after hostOps0 V (Proc.devRef .tc main_v119)) = (broadcastInDim S150000x1 ![0] bcast_S150000_S150000x1_0 : (⟨S150000, .i32⟩ : BufTy).Contents (Elt F) → (⟨S150000x1, .i32⟩ : BufTy).Contents (Elt F)) (StableHlo.after hostOps0 V (Proc.devRef .tc main_v118)) :=
  Sage.after_unary (x := main_v118) (y := main_v119) (f := (broadcastInDim S150000x1 ![0] bcast_S150000_S150000x1_0 : (⟨S150000, .i32⟩ : BufTy).Contents (Elt F) → (⟨S150000x1, .i32⟩ : BufTy).Contents (Elt F))) hostOps0_writes 160 V rfl (by decide) (by decide)

/-- Position 161 of host stretch 0: `v120` from `arg3`, `v119`. -/
theorem rd0_v120 : (StableHlo.after hostOps0 V (Proc.devRef .tc main_v120)) = ((fun x i => Host.gather gather_S3000x128_S150000x1_S150000x128_1_0_n_n_0_1_1128 x i) : (⟨S3000x128, .f32⟩ : BufTy).Contents (Elt F) → (⟨S150000x1, .i32⟩ : BufTy).Contents (Elt F) → (⟨S150000x128, .f32⟩ : BufTy).Contents (Elt F)) (StableHlo.after hostOps0 V (Proc.devRef .tc main_arg3)) (StableHlo.after hostOps0 V (Proc.devRef .tc main_v119)) :=
  Sage.after_binary (a := main_arg3) (b := main_v119) (y := main_v120) (f := ((fun x i => Host.gather gather_S3000x128_S150000x1_S150000x128_1_0_n_n_0_1_1128 x i) : (⟨S3000x128, .f32⟩ : BufTy).Contents (Elt F) → (⟨S150000x1, .i32⟩ : BufTy).Contents (Elt F) → (⟨S150000x128, .f32⟩ : BufTy).Contents (Elt F))) hostOps0_writes 161 V rfl (by decide) (by decide) (by decide)

/-- Position 162 of host stretch 0: `cst_39` from no operand. -/
theorem rd0_cst_39 : (StableHlo.after hostOps0 V (Proc.devRef .tc main_cst_39)) = ((constant S_ .f32 0x00000000#32) : (⟨S_, .f32⟩ : BufTy).Contents (Elt F)) :=
  Sage.after_nullary (y := main_cst_39) hostOps0_writes 162 V rfl (by decide)

/-- Position 163 of host stretch 0: `v121` from `cst_39`. -/
theorem rd0_v121 : (StableHlo.after hostOps0 V (Proc.devRef .tc main_v121)) = (broadcastInDim S50000x128 ![] bcast_S_S50000x128 : (⟨S_, .f32⟩ : BufTy).Contents (Elt F) → (⟨S50000x128, .f32⟩ : BufTy).Contents (Elt F)) (StableHlo.after hostOps0 V (Proc.devRef .tc main_cst_39)) :=
  Sage.after_unary (x := main_cst_39) (y := main_v121) (f := (broadcastInDim S50000x128 ![] bcast_S_S50000x128 : (⟨S_, .f32⟩ : BufTy).Contents (Elt F) → (⟨S50000x128, .f32⟩ : BufTy).Contents (Elt F))) hostOps0_writes 163 V rfl (by decide) (by decide)

/-- Position 164 of host stretch 0: `v122` from `arg27`. -/
theorem rd0_v122 : (StableHlo.after hostOps0 V (Proc.devRef .tc main_v122)) = (broadcastInDim S150000x1 ![0] bcast_S150000_S150000x1_0 : (⟨S150000, .i32⟩ : BufTy).Contents (Elt F) → (⟨S150000x1, .i32⟩ : BufTy).Contents (Elt F)) (StableHlo.after hostOps0 V (Proc.devRef .tc main_arg27)) :=
  Sage.after_unary (x := main_arg27) (y := main_v122) (f := (broadcastInDim S150000x1 ![0] bcast_S150000_S150000x1_0 : (⟨S150000, .i32⟩ : BufTy).Contents (Elt F) → (⟨S150000x1, .i32⟩ : BufTy).Contents (Elt F))) hostOps0_writes 164 V rfl (by decide) (by decide)

/-- Position 165 of host stretch 0: `v123` from `v121`, `v122`, `v120`. -/
theorem rd0_v123 : (StableHlo.after hostOps0 V (Proc.devRef .tc main_v123)) = ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)) (StableHlo.after hostOps0 V (Proc.devRef .tc main_v121)) (StableHlo.after hostOps0 V (Proc.devRef .tc main_v122)) (StableHlo.after hostOps0 V (Proc.devRef .tc main_v120)) :=
  Sage.after_ternary (c := main_v121) (a := main_v122) (b := main_v120) (y := main_v123) (f := ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F))) hostOps0_writes 165 V rfl (by decide) (by decide) (by decide) (by decide)

/-- Position 166 of host stretch 0: `v124` from `v41`. -/
theorem rd0_v124 : (StableHlo.after hostOps0 V (Proc.devRef .tc main_v124)) = (broadcastInDim S50000x128 ![0, 1] bcast_S50000x1_S50000x128_0_1 : (⟨S50000x1, .f32⟩ : BufTy).Contents (Elt F) → (⟨S50000x128, .f32⟩ : BufTy).Contents (Elt F)) (StableHlo.after hostOps0 V (Proc.devRef .tc main_v41)) :=
  Sage.after_unary (x := main_v41) (y := main_v124) (f := (broadcastInDim S50000x128 ![0, 1] bcast_S50000x1_S50000x128_0_1 : (⟨S50000x1, .f32⟩ : BufTy).Contents (Elt F) → (⟨S50000x128, .f32⟩ : BufTy).Contents (Elt F))) hostOps0_writes 166 V rfl (by decide) (by decide)

/-- Position 167 of host stretch 0: `v125` from `v123`, `v124`. -/
theorem rd0_v125 : (StableHlo.after hostOps0 V (Proc.devRef .tc main_v125)) = (Host.divf : (⟨S50000x128, .f32⟩ : BufTy).Contents (Elt F) → (⟨S50000x128, .f32⟩ : BufTy).Contents (Elt F) → (⟨S50000x128, .f32⟩ : BufTy).Contents (Elt F)) (StableHlo.after hostOps0 V (Proc.devRef .tc main_v123)) (StableHlo.after hostOps0 V (Proc.devRef .tc main_v124)) :=
  Sage.after_binary (a := main_v123) (b := main_v124) (y := main_v125) (f := (Host.divf : (⟨S50000x128, .f32⟩ : BufTy).Contents (Elt F) → (⟨S50000x128, .f32⟩ : BufTy).Contents (Elt F) → (⟨S50000x128, .f32⟩ : BufTy).Contents (Elt F))) hostOps0_writes 167 V rfl (by decide) (by decide) (by decide)

/-- Position 168 of host stretch 0: `v126` from `arg4`. -/
theorem rd0_v126 : (StableHlo.after hostOps0 V (Proc.devRef .tc main_v126)) = ((extractStridedSlice S1x128x256 ![4, 0, 0] · slices_S7x128x256_S1x128x256_4_0_0) : (⟨S7x128x256, .f32⟩ : BufTy).Contents (Elt F) → (⟨S1x128x256, .f32⟩ : BufTy).Contents (Elt F)) (StableHlo.after hostOps0 V (Proc.devRef .tc main_arg4)) :=
  Sage.after_unary (x := main_arg4) (y := main_v126) (f := ((extractStridedSlice S1x128x256 ![4, 0, 0] · slices_S7x128x256_S1x128x256_4_0_0) : (⟨S7x128x256, .f32⟩ : BufTy).Contents (Elt F) → (⟨S1x128x256, .f32⟩ : BufTy).Contents (Elt F))) hostOps0_writes 168 V rfl (by decide) (by decide)

/-- Position 169 of host stretch 0: `v127` from `v126`. -/
theorem rd0_v127 : (StableHlo.after hostOps0 V (Proc.devRef .tc main_v127)) = (shapeCast S128x256 (StableHlo.after hostOps0 V (Proc.devRef .tc main_v126)) shapeCasts_S1x128x256_S128x256 : (⟨S128x256, .f32⟩ : BufTy).Contents (Elt F)) :=
  (Sage.after_reshape (x := main_v126) (y := main_v127) hostOps0_writes 169 V rfl (by decide) (by decide)).trans rfl

/-- Position 170 of host stretch 0: `v128` from `arg4`. -/
theorem rd0_v128 : (StableHlo.after hostOps0 V (Proc.devRef .tc main_v128)) = ((extractStridedSlice S1x128x256 ![5, 0, 0] · slices_S7x128x256_S1x128x256_5_0_0) : (⟨S7x128x256, .f32⟩ : BufTy).Contents (Elt F) → (⟨S1x128x256, .f32⟩ : BufTy).Contents (Elt F)) (StableHlo.after hostOps0 V (Proc.devRef .tc main_arg4)) :=
  Sage.after_unary (x := main_arg4) (y := main_v128) (f := ((extractStridedSlice S1x128x256 ![5, 0, 0] · slices_S7x128x256_S1x128x256_5_0_0) : (⟨S7x128x256, .f32⟩ : BufTy).Contents (Elt F) → (⟨S1x128x256, .f32⟩ : BufTy).Contents (Elt F))) hostOps0_writes 170 V rfl (by decide) (by decide)

/-- Position 171 of host stretch 0: `v129` from `v128`. -/
theorem rd0_v129 : (StableHlo.after hostOps0 V (Proc.devRef .tc main_v129)) = (shapeCast S128x256 (StableHlo.after hostOps0 V (Proc.devRef .tc main_v128)) shapeCasts_S1x128x256_S128x256 : (⟨S128x256, .f32⟩ : BufTy).Contents (Elt F)) :=
  (Sage.after_reshape (x := main_v128) (y := main_v129) hostOps0_writes 171 V rfl (by decide) (by decide)).trans rfl

/-- Position 172 of host stretch 0: `v130` from `arg5`. -/
theorem rd0_v130 : (StableHlo.after hostOps0 V (Proc.devRef .tc main_v130)) = ((extractStridedSlice S1x128x256 ![4, 0, 0] · slices_S7x128x256_S1x128x256_4_0_0) : (⟨S7x128x256, .f32⟩ : BufTy).Contents (Elt F) → (⟨S1x128x256, .f32⟩ : BufTy).Contents (Elt F)) (StableHlo.after hostOps0 V (Proc.devRef .tc main_arg5)) :=
  Sage.after_unary (x := main_arg5) (y := main_v130) (f := ((extractStridedSlice S1x128x256 ![4, 0, 0] · slices_S7x128x256_S1x128x256_4_0_0) : (⟨S7x128x256, .f32⟩ : BufTy).Contents (Elt F) → (⟨S1x128x256, .f32⟩ : BufTy).Contents (Elt F))) hostOps0_writes 172 V rfl (by decide) (by decide)

/-- Position 173 of host stretch 0: `v131` from `v130`. -/
theorem rd0_v131 : (StableHlo.after hostOps0 V (Proc.devRef .tc main_v131)) = (shapeCast S128x256 (StableHlo.after hostOps0 V (Proc.devRef .tc main_v130)) shapeCasts_S1x128x256_S128x256 : (⟨S128x256, .f32⟩ : BufTy).Contents (Elt F)) :=
  (Sage.after_reshape (x := main_v130) (y := main_v131) hostOps0_writes 173 V rfl (by decide) (by decide)).trans rfl

/-- Position 174 of host stretch 0: `v132` from `arg5`. -/
theorem rd0_v132 : (StableHlo.after hostOps0 V (Proc.devRef .tc main_v132)) = ((extractStridedSlice S1x128x256 ![5, 0, 0] · slices_S7x128x256_S1x128x256_5_0_0) : (⟨S7x128x256, .f32⟩ : BufTy).Contents (Elt F) → (⟨S1x128x256, .f32⟩ : BufTy).Contents (Elt F)) (StableHlo.after hostOps0 V (Proc.devRef .tc main_arg5)) :=
  Sage.after_unary (x := main_arg5) (y := main_v132) (f := ((extractStridedSlice S1x128x256 ![5, 0, 0] · slices_S7x128x256_S1x128x256_5_0_0) : (⟨S7x128x256, .f32⟩ : BufTy).Contents (Elt F) → (⟨S1x128x256, .f32⟩ : BufTy).Contents (Elt F))) hostOps0_writes 174 V rfl (by decide) (by decide)

/-- Position 175 of host stretch 0: `v133` from `v132`. -/
theorem rd0_v133 : (StableHlo.after hostOps0 V (Proc.devRef .tc main_v133)) = (shapeCast S128x256 (StableHlo.after hostOps0 V (Proc.devRef .tc main_v132)) shapeCasts_S1x128x256_S128x256 : (⟨S128x256, .f32⟩ : BufTy).Contents (Elt F)) :=
  (Sage.after_reshape (x := main_v132) (y := main_v133) hostOps0_writes 175 V rfl (by decide) (by decide)).trans rfl

/-- Position 176 of host stretch 0: `v134` from `arg6`. -/
theorem rd0_v134 : (StableHlo.after hostOps0 V (Proc.devRef .tc main_v134)) = ((extractStridedSlice S1x256 ![4, 0] · slices_S7x256_S1x256_4_0) : (⟨S7x256, .f32⟩ : BufTy).Contents (Elt F) → (⟨S1x256, .f32⟩ : BufTy).Contents (Elt F)) (StableHlo.after hostOps0 V (Proc.devRef .tc main_arg6)) :=
  Sage.after_unary (x := main_arg6) (y := main_v134) (f := ((extractStridedSlice S1x256 ![4, 0] · slices_S7x256_S1x256_4_0) : (⟨S7x256, .f32⟩ : BufTy).Contents (Elt F) → (⟨S1x256, .f32⟩ : BufTy).Contents (Elt F))) hostOps0_writes 176 V rfl (by decide) (by decide)

/-- Position 177 of host stretch 0: `v135` from `v134`. -/
theorem rd0_v135 : (StableHlo.after hostOps0 V (Proc.devRef .tc main_v135)) = (shapeCast S256 (StableHlo.after hostOps0 V (Proc.devRef .tc main_v134)) shapeCasts_S1x256_S256 : (⟨S256, .f32⟩ : BufTy).Contents (Elt F)) :=
  (Sage.after_reshape (x := main_v134) (y := main_v135) hostOps0_writes 177 V rfl (by decide) (by decide)).trans rfl

/-- Position 178 of host stretch 0: `v136` from `arg6`. -/
theorem rd0_v136 : (StableHlo.after hostOps0 V (Proc.devRef .tc main_v136)) = ((extractStridedSlice S1x256 ![5, 0] · slices_S7x256_S1x256_5_0) : (⟨S7x256, .f32⟩ : BufTy).Contents (Elt F) → (⟨S1x256, .f32⟩ : BufTy).Contents (Elt F)) (StableHlo.after hostOps0 V (Proc.devRef .tc main_arg6)) :=
  Sage.after_unary (x := main_arg6) (y := main_v136) (f := ((extractStridedSlice S1x256 ![5, 0] · slices_S7x256_S1x256_5_0) : (⟨S7x256, .f32⟩ : BufTy).Contents (Elt F) → (⟨S1x256, .f32⟩ : BufTy).Contents (Elt F))) hostOps0_writes 178 V rfl (by decide) (by decide)

/-- Position 179 of host stretch 0: `v137` from `v136`. -/
theorem rd0_v137 : (StableHlo.after hostOps0 V (Proc.devRef .tc main_v137)) = (shapeCast S256 (StableHlo.after hostOps0 V (Proc.devRef .tc main_v136)) shapeCasts_S1x256_S256 : (⟨S256, .f32⟩ : BufTy).Contents (Elt F)) :=
  (Sage.after_reshape (x := main_v136) (y := main_v137) hostOps0_writes 179 V rfl (by decide) (by decide)).trans rfl

/-- Position 180 of host stretch 0: `v138` from `v135`. -/
theorem rd0_v138 : (StableHlo.after hostOps0 V (Proc.devRef .tc main_v138)) = (shapeCast S1x256 (StableHlo.after hostOps0 V (Proc.devRef .tc main_v135)) shapeCasts_S256_S1x256 : (⟨S1x256, .f32⟩ : BufTy).Contents (Elt F)) :=
  (Sage.after_reshape (x := main_v135) (y := main_v138) hostOps0_writes 180 V rfl (by decide) (by decide)).trans rfl

/-- Position 181 of host stretch 0: `v139` from `v137`. -/
theorem rd0_v139 : (StableHlo.after hostOps0 V (Proc.devRef .tc main_v139)) = (shapeCast S1x256 (StableHlo.after hostOps0 V (Proc.devRef .tc main_v137)) shapeCasts_S256_S1x256 : (⟨S1x256, .f32⟩ : BufTy).Contents (Elt F)) :=
  (Sage.after_reshape (x := main_v137) (y := main_v139) hostOps0_writes 181 V rfl (by decide) (by decide)).trans rfl

end Cert.KernelIdeal.Hand

end
-- ==== Proof.KI.ReadS1.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 1 writes, one per operation, in order. -/
noncomputable abbrev wr1 : List (Ref sig .tc) := [main_v141, main_v142, main_v143, main_v144, main_v145, main_v146, main_v147, main_v148, main_v149, main_v150, main_v151, main_v152, main_v153, main_v154]

/-- Each operation of host stretch 1 writes exactly the listed reference. -/
theorem hostOps1_writes : Sage.Writes (hostOps1 : List (HloOp τ sig (Elt F))) wr1 := by
  repeat (first | exact Sage.Writes.nil | refine Sage.Writes.cons rfl ?_)

variable (V : Valuation τ sig (Elt F))

/-- Position 0 of host stretch 1: `v141` from `arg4`. -/
theorem rd1_v141 : (StableHlo.after hostOps1 V (Proc.devRef .tc main_v141)) = ((extractStridedSlice S1x128x256 ![1, 0, 0] · slices_S7x128x256_S1x128x256_1_0_0) : (⟨S7x128x256, .f32⟩ : BufTy).Contents (Elt F) → (⟨S1x128x256, .f32⟩ : BufTy).Contents (Elt F)) (StableHlo.after hostOps1 V (Proc.devRef .tc main_arg4)) :=
  Sage.after_unary (x := main_arg4) (y := main_v141) (f := ((extractStridedSlice S1x128x256 ![1, 0, 0] · slices_S7x128x256_S1x128x256_1_0_0) : (⟨S7x128x256, .f32⟩ : BufTy).Contents (Elt F) → (⟨S1x128x256, .f32⟩ : BufTy).Contents (Elt F))) hostOps1_writes 0 V rfl (by decide) (by decide)

/-- Position 1 of host stretch 1: `v142` from `v141`. -/
theorem rd1_v142 : (StableHlo.after hostOps1 V (Proc.devRef .tc main_v142)) = (shapeCast S128x256 (StableHlo.after hostOps1 V (Proc.devRef .tc main_v141)) shapeCasts_S1x128x256_S128x256 : (⟨S128x256, .f32⟩ : BufTy).Contents (Elt F)) :=
  (Sage.after_reshape (x := main_v141) (y := main_v142) hostOps1_writes 1 V rfl (by decide) (by decide)).trans rfl

/-- Position 2 of host stretch 1: `v143` from `arg4`. -/
theorem rd1_v143 : (StableHlo.after hostOps1 V (Proc.devRef .tc main_v143)) = ((extractStridedSlice S1x128x256 ![6, 0, 0] · slices_S7x128x256_S1x128x256_6_0_0) : (⟨S7x128x256, .f32⟩ : BufTy).Contents (Elt F) → (⟨S1x128x256, .f32⟩ : BufTy).Contents (Elt F)) (StableHlo.after hostOps1 V (Proc.devRef .tc main_arg4)) :=
  Sage.after_unary (x := main_arg4) (y := main_v143) (f := ((extractStridedSlice S1x128x256 ![6, 0, 0] · slices_S7x128x256_S1x128x256_6_0_0) : (⟨S7x128x256, .f32⟩ : BufTy).Contents (Elt F) → (⟨S1x128x256, .f32⟩ : BufTy).Contents (Elt F))) hostOps1_writes 2 V rfl (by decide) (by decide)

/-- Position 3 of host stretch 1: `v144` from `v143`. -/
theorem rd1_v144 : (StableHlo.after hostOps1 V (Proc.devRef .tc main_v144)) = (shapeCast S128x256 (StableHlo.after hostOps1 V (Proc.devRef .tc main_v143)) shapeCasts_S1x128x256_S128x256 : (⟨S128x256, .f32⟩ : BufTy).Contents (Elt F)) :=
  (Sage.after_reshape (x := main_v143) (y := main_v144) hostOps1_writes 3 V rfl (by decide) (by decide)).trans rfl

/-- Position 4 of host stretch 1: `v145` from `arg5`. -/
theorem rd1_v145 : (StableHlo.after hostOps1 V (Proc.devRef .tc main_v145)) = ((extractStridedSlice S1x128x256 ![1, 0, 0] · slices_S7x128x256_S1x128x256_1_0_0) : (⟨S7x128x256, .f32⟩ : BufTy).Contents (Elt F) → (⟨S1x128x256, .f32⟩ : BufTy).Contents (Elt F)) (StableHlo.after hostOps1 V (Proc.devRef .tc main_arg5)) :=
  Sage.after_unary (x := main_arg5) (y := main_v145) (f := ((extractStridedSlice S1x128x256 ![1, 0, 0] · slices_S7x128x256_S1x128x256_1_0_0) : (⟨S7x128x256, .f32⟩ : BufTy).Contents (Elt F) → (⟨S1x128x256, .f32⟩ : BufTy).Contents (Elt F))) hostOps1_writes 4 V rfl (by decide) (by decide)

/-- Position 5 of host stretch 1: `v146` from `v145`. -/
theorem rd1_v146 : (StableHlo.after hostOps1 V (Proc.devRef .tc main_v146)) = (shapeCast S128x256 (StableHlo.after hostOps1 V (Proc.devRef .tc main_v145)) shapeCasts_S1x128x256_S128x256 : (⟨S128x256, .f32⟩ : BufTy).Contents (Elt F)) :=
  (Sage.after_reshape (x := main_v145) (y := main_v146) hostOps1_writes 5 V rfl (by decide) (by decide)).trans rfl

/-- Position 6 of host stretch 1: `v147` from `arg5`. -/
theorem rd1_v147 : (StableHlo.after hostOps1 V (Proc.devRef .tc main_v147)) = ((extractStridedSlice S1x128x256 ![6, 0, 0] · slices_S7x128x256_S1x128x256_6_0_0) : (⟨S7x128x256, .f32⟩ : BufTy).Contents (Elt F) → (⟨S1x128x256, .f32⟩ : BufTy).Contents (Elt F)) (StableHlo.after hostOps1 V (Proc.devRef .tc main_arg5)) :=
  Sage.after_unary (x := main_arg5) (y := main_v147) (f := ((extractStridedSlice S1x128x256 ![6, 0, 0] · slices_S7x128x256_S1x128x256_6_0_0) : (⟨S7x128x256, .f32⟩ : BufTy).Contents (Elt F) → (⟨S1x128x256, .f32⟩ : BufTy).Contents (Elt F))) hostOps1_writes 6 V rfl (by decide) (by decide)

/-- Position 7 of host stretch 1: `v148` from `v147`. -/
theorem rd1_v148 : (StableHlo.after hostOps1 V (Proc.devRef .tc main_v148)) = (shapeCast S128x256 (StableHlo.after hostOps1 V (Proc.devRef .tc main_v147)) shapeCasts_S1x128x256_S128x256 : (⟨S128x256, .f32⟩ : BufTy).Contents (Elt F)) :=
  (Sage.after_reshape (x := main_v147) (y := main_v148) hostOps1_writes 7 V rfl (by decide) (by decide)).trans rfl

/-- Position 8 of host stretch 1: `v149` from `arg6`. -/
theorem rd1_v149 : (StableHlo.after hostOps1 V (Proc.devRef .tc main_v149)) = ((extractStridedSlice S1x256 ![1, 0] · slices_S7x256_S1x256_1_0) : (⟨S7x256, .f32⟩ : BufTy).Contents (Elt F) → (⟨S1x256, .f32⟩ : BufTy).Contents (Elt F)) (StableHlo.after hostOps1 V (Proc.devRef .tc main_arg6)) :=
  Sage.after_unary (x := main_arg6) (y := main_v149) (f := ((extractStridedSlice S1x256 ![1, 0] · slices_S7x256_S1x256_1_0) : (⟨S7x256, .f32⟩ : BufTy).Contents (Elt F) → (⟨S1x256, .f32⟩ : BufTy).Contents (Elt F))) hostOps1_writes 8 V rfl (by decide) (by decide)

/-- Position 9 of host stretch 1: `v150` from `v149`. -/
theorem rd1_v150 : (StableHlo.after hostOps1 V (Proc.devRef .tc main_v150)) = (shapeCast S256 (StableHlo.after hostOps1 V (Proc.devRef .tc main_v149)) shapeCasts_S1x256_S256 : (⟨S256, .f32⟩ : BufTy).Contents (Elt F)) :=
  (Sage.after_reshape (x := main_v149) (y := main_v150) hostOps1_writes 9 V rfl (by decide) (by decide)).trans rfl

/-- Position 10 of host stretch 1: `v151` from `arg6`. -/
theorem rd1_v151 : (StableHlo.after hostOps1 V (Proc.devRef .tc main_v151)) = ((extractStridedSlice S1x256 ![6, 0] · slices_S7x256_S1x256_6_0) : (⟨S7x256, .f32⟩ : BufTy).Contents (Elt F) → (⟨S1x256, .f32⟩ : BufTy).Contents (Elt F)) (StableHlo.after hostOps1 V (Proc.devRef .tc main_arg6)) :=
  Sage.after_unary (x := main_arg6) (y := main_v151) (f := ((extractStridedSlice S1x256 ![6, 0] · slices_S7x256_S1x256_6_0) : (⟨S7x256, .f32⟩ : BufTy).Contents (Elt F) → (⟨S1x256, .f32⟩ : BufTy).Contents (Elt F))) hostOps1_writes 10 V rfl (by decide) (by decide)

/-- Position 11 of host stretch 1: `v152` from `v151`. -/
theorem rd1_v152 : (StableHlo.after hostOps1 V (Proc.devRef .tc main_v152)) = (shapeCast S256 (StableHlo.after hostOps1 V (Proc.devRef .tc main_v151)) shapeCasts_S1x256_S256 : (⟨S256, .f32⟩ : BufTy).Contents (Elt F)) :=
  (Sage.after_reshape (x := main_v151) (y := main_v152) hostOps1_writes 11 V rfl (by decide) (by decide)).trans rfl

/-- Position 12 of host stretch 1: `v153` from `v150`. -/
theorem rd1_v153 : (StableHlo.after hostOps1 V (Proc.devRef .tc main_v153)) = (shapeCast S1x256 (StableHlo.after hostOps1 V (Proc.devRef .tc main_v150)) shapeCasts_S256_S1x256 : (⟨S1x256, .f32⟩ : BufTy).Contents (Elt F)) :=
  (Sage.after_reshape (x := main_v150) (y := main_v153) hostOps1_writes 12 V rfl (by decide) (by decide)).trans rfl

/-- Position 13 of host stretch 1: `v154` from `v152`. -/
theorem rd1_v154 : (StableHlo.after hostOps1 V (Proc.devRef .tc main_v154)) = (shapeCast S1x256 (StableHlo.after hostOps1 V (Proc.devRef .tc main_v152)) shapeCasts_S256_S1x256 : (⟨S1x256, .f32⟩ : BufTy).Contents (Elt F)) :=
  (Sage.after_reshape (x := main_v152) (y := main_v154) hostOps1_writes 13 V rfl (by decide) (by decide)).trans rfl

end Cert.KernelIdeal.Hand

end
-- ==== Proof.KI.ReadS2.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 2 writes, one per operation, in order. -/
noncomputable abbrev wr2 : List (Ref sig .tc) := [main_v156, main_v157, main_v158, main_v159, main_v160, main_v161, main_v162, main_v163, main_v164, main_v165, main_v166, main_v167, main_v168, main_v169]

/-- Each operation of host stretch 2 writes exactly the listed reference. -/
theorem hostOps2_writes : Sage.Writes (hostOps2 : List (HloOp τ sig (Elt F))) wr2 := by
  repeat (first | exact Sage.Writes.nil | refine Sage.Writes.cons rfl ?_)

variable (V : Valuation τ sig (Elt F))

/-- Position 0 of host stretch 2: `v156` from `arg4`. -/
theorem rd2_v156 : (StableHlo.after hostOps2 V (Proc.devRef .tc main_v156)) = ((extractStridedSlice S1x128x256 ![0, 0, 0] · slices_S7x128x256_S1x128x256_0_0_0) : (⟨S7x128x256, .f32⟩ : BufTy).Contents (Elt F) → (⟨S1x128x256, .f32⟩ : BufTy).Contents (Elt F)) (StableHlo.after hostOps2 V (Proc.devRef .tc main_arg4)) :=
  Sage.after_unary (x := main_arg4) (y := main_v156) (f := ((extractStridedSlice S1x128x256 ![0, 0, 0] · slices_S7x128x256_S1x128x256_0_0_0) : (⟨S7x128x256, .f32⟩ : BufTy).Contents (Elt F) → (⟨S1x128x256, .f32⟩ : BufTy).Contents (Elt F))) hostOps2_writes 0 V rfl (by decide) (by decide)

/-- Position 1 of host stretch 2: `v157` from `v156`. -/
theorem rd2_v157 : (StableHlo.after hostOps2 V (Proc.devRef .tc main_v157)) = (shapeCast S128x256 (StableHlo.after hostOps2 V (Proc.devRef .tc main_v156)) shapeCasts_S1x128x256_S128x256 : (⟨S128x256, .f32⟩ : BufTy).Contents (Elt F)) :=
  (Sage.after_reshape (x := main_v156) (y := main_v157) hostOps2_writes 1 V rfl (by decide) (by decide)).trans rfl

/-- Position 2 of host stretch 2: `v158` from `arg4`. -/
theorem rd2_v158 : (StableHlo.after hostOps2 V (Proc.devRef .tc main_v158)) = ((extractStridedSlice S1x128x256 ![3, 0, 0] · slices_S7x128x256_S1x128x256_3_0_0) : (⟨S7x128x256, .f32⟩ : BufTy).Contents (Elt F) → (⟨S1x128x256, .f32⟩ : BufTy).Contents (Elt F)) (StableHlo.after hostOps2 V (Proc.devRef .tc main_arg4)) :=
  Sage.after_unary (x := main_arg4) (y := main_v158) (f := ((extractStridedSlice S1x128x256 ![3, 0, 0] · slices_S7x128x256_S1x128x256_3_0_0) : (⟨S7x128x256, .f32⟩ : BufTy).Contents (Elt F) → (⟨S1x128x256, .f32⟩ : BufTy).Contents (Elt F))) hostOps2_writes 2 V rfl (by decide) (by decide)

/-- Position 3 of host stretch 2: `v159` from `v158`. -/
theorem rd2_v159 : (StableHlo.after hostOps2 V (Proc.devRef .tc main_v159)) = (shapeCast S128x256 (StableHlo.after hostOps2 V (Proc.devRef .tc main_v158)) shapeCasts_S1x128x256_S128x256 : (⟨S128x256, .f32⟩ : BufTy).Contents (Elt F)) :=
  (Sage.after_reshape (x := main_v158) (y := main_v159) hostOps2_writes 3 V rfl (by decide) (by decide)).trans rfl

/-- Position 4 of host stretch 2: `v160` from `arg5`. -/
theorem rd2_v160 : (StableHlo.after hostOps2 V (Proc.devRef .tc main_v160)) = ((extractStridedSlice S1x128x256 ![0, 0, 0] · slices_S7x128x256_S1x128x256_0_0_0) : (⟨S7x128x256, .f32⟩ : BufTy).Contents (Elt F) → (⟨S1x128x256, .f32⟩ : BufTy).Contents (Elt F)) (StableHlo.after hostOps2 V (Proc.devRef .tc main_arg5)) :=
  Sage.after_unary (x := main_arg5) (y := main_v160) (f := ((extractStridedSlice S1x128x256 ![0, 0, 0] · slices_S7x128x256_S1x128x256_0_0_0) : (⟨S7x128x256, .f32⟩ : BufTy).Contents (Elt F) → (⟨S1x128x256, .f32⟩ : BufTy).Contents (Elt F))) hostOps2_writes 4 V rfl (by decide) (by decide)

/-- Position 5 of host stretch 2: `v161` from `v160`. -/
theorem rd2_v161 : (StableHlo.after hostOps2 V (Proc.devRef .tc main_v161)) = (shapeCast S128x256 (StableHlo.after hostOps2 V (Proc.devRef .tc main_v160)) shapeCasts_S1x128x256_S128x256 : (⟨S128x256, .f32⟩ : BufTy).Contents (Elt F)) :=
  (Sage.after_reshape (x := main_v160) (y := main_v161) hostOps2_writes 5 V rfl (by decide) (by decide)).trans rfl

/-- Position 6 of host stretch 2: `v162` from `arg5`. -/
theorem rd2_v162 : (StableHlo.after hostOps2 V (Proc.devRef .tc main_v162)) = ((extractStridedSlice S1x128x256 ![3, 0, 0] · slices_S7x128x256_S1x128x256_3_0_0) : (⟨S7x128x256, .f32⟩ : BufTy).Contents (Elt F) → (⟨S1x128x256, .f32⟩ : BufTy).Contents (Elt F)) (StableHlo.after hostOps2 V (Proc.devRef .tc main_arg5)) :=
  Sage.after_unary (x := main_arg5) (y := main_v162) (f := ((extractStridedSlice S1x128x256 ![3, 0, 0] · slices_S7x128x256_S1x128x256_3_0_0) : (⟨S7x128x256, .f32⟩ : BufTy).Contents (Elt F) → (⟨S1x128x256, .f32⟩ : BufTy).Contents (Elt F))) hostOps2_writes 6 V rfl (by decide) (by decide)

/-- Position 7 of host stretch 2: `v163` from `v162`. -/
theorem rd2_v163 : (StableHlo.after hostOps2 V (Proc.devRef .tc main_v163)) = (shapeCast S128x256 (StableHlo.after hostOps2 V (Proc.devRef .tc main_v162)) shapeCasts_S1x128x256_S128x256 : (⟨S128x256, .f32⟩ : BufTy).Contents (Elt F)) :=
  (Sage.after_reshape (x := main_v162) (y := main_v163) hostOps2_writes 7 V rfl (by decide) (by decide)).trans rfl

/-- Position 8 of host stretch 2: `v164` from `arg6`. -/
theorem rd2_v164 : (StableHlo.after hostOps2 V (Proc.devRef .tc main_v164)) = ((extractStridedSlice S1x256 ![0, 0] · slices_S7x256_S1x256_0_0) : (⟨S7x256, .f32⟩ : BufTy).Contents (Elt F) → (⟨S1x256, .f32⟩ : BufTy).Contents (Elt F)) (StableHlo.after hostOps2 V (Proc.devRef .tc main_arg6)) :=
  Sage.after_unary (x := main_arg6) (y := main_v164) (f := ((extractStridedSlice S1x256 ![0, 0] · slices_S7x256_S1x256_0_0) : (⟨S7x256, .f32⟩ : BufTy).Contents (Elt F) → (⟨S1x256, .f32⟩ : BufTy).Contents (Elt F))) hostOps2_writes 8 V rfl (by decide) (by decide)

/-- Position 9 of host stretch 2: `v165` from `v164`. -/
theorem rd2_v165 : (StableHlo.after hostOps2 V (Proc.devRef .tc main_v165)) = (shapeCast S256 (StableHlo.after hostOps2 V (Proc.devRef .tc main_v164)) shapeCasts_S1x256_S256 : (⟨S256, .f32⟩ : BufTy).Contents (Elt F)) :=
  (Sage.after_reshape (x := main_v164) (y := main_v165) hostOps2_writes 9 V rfl (by decide) (by decide)).trans rfl

/-- Position 10 of host stretch 2: `v166` from `arg6`. -/
theorem rd2_v166 : (StableHlo.after hostOps2 V (Proc.devRef .tc main_v166)) = ((extractStridedSlice S1x256 ![3, 0] · slices_S7x256_S1x256_3_0) : (⟨S7x256, .f32⟩ : BufTy).Contents (Elt F) → (⟨S1x256, .f32⟩ : BufTy).Contents (Elt F)) (StableHlo.after hostOps2 V (Proc.devRef .tc main_arg6)) :=
  Sage.after_unary (x := main_arg6) (y := main_v166) (f := ((extractStridedSlice S1x256 ![3, 0] · slices_S7x256_S1x256_3_0) : (⟨S7x256, .f32⟩ : BufTy).Contents (Elt F) → (⟨S1x256, .f32⟩ : BufTy).Contents (Elt F))) hostOps2_writes 10 V rfl (by decide) (by decide)

/-- Position 11 of host stretch 2: `v167` from `v166`. -/
theorem rd2_v167 : (StableHlo.after hostOps2 V (Proc.devRef .tc main_v167)) = (shapeCast S256 (StableHlo.after hostOps2 V (Proc.devRef .tc main_v166)) shapeCasts_S1x256_S256 : (⟨S256, .f32⟩ : BufTy).Contents (Elt F)) :=
  (Sage.after_reshape (x := main_v166) (y := main_v167) hostOps2_writes 11 V rfl (by decide) (by decide)).trans rfl

/-- Position 12 of host stretch 2: `v168` from `v165`. -/
theorem rd2_v168 : (StableHlo.after hostOps2 V (Proc.devRef .tc main_v168)) = (shapeCast S1x256 (StableHlo.after hostOps2 V (Proc.devRef .tc main_v165)) shapeCasts_S256_S1x256 : (⟨S1x256, .f32⟩ : BufTy).Contents (Elt F)) :=
  (Sage.after_reshape (x := main_v165) (y := main_v168) hostOps2_writes 12 V rfl (by decide) (by decide)).trans rfl

/-- Position 13 of host stretch 2: `v169` from `v167`. -/
theorem rd2_v169 : (StableHlo.after hostOps2 V (Proc.devRef .tc main_v169)) = (shapeCast S1x256 (StableHlo.after hostOps2 V (Proc.devRef .tc main_v167)) shapeCasts_S256_S1x256 : (⟨S1x256, .f32⟩ : BufTy).Contents (Elt F)) :=
  (Sage.after_reshape (x := main_v167) (y := main_v169) hostOps2_writes 13 V rfl (by decide) (by decide)).trans rfl

end Cert.KernelIdeal.Hand

end
-- ==== Proof.KI.ReadS3.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 3 writes, one per operation, in order. -/
noncomputable abbrev wr3 : List (Ref sig .tc) := [main_v171, main_v172, main_v173, main_v174, main_v175, main_v176, main_v177]

/-- Each operation of host stretch 3 writes exactly the listed reference. -/
theorem hostOps3_writes : Sage.Writes (hostOps3 : List (HloOp τ sig (Elt F))) wr3 := by
  repeat (first | exact Sage.Writes.nil | refine Sage.Writes.cons rfl ?_)

variable (V : Valuation τ sig (Elt F))

/-- Position 0 of host stretch 3: `v171` from `arg4`. -/
theorem rd3_v171 : (StableHlo.after hostOps3 V (Proc.devRef .tc main_v171)) = ((extractStridedSlice S1x128x256 ![2, 0, 0] · slices_S7x128x256_S1x128x256_2_0_0) : (⟨S7x128x256, .f32⟩ : BufTy).Contents (Elt F) → (⟨S1x128x256, .f32⟩ : BufTy).Contents (Elt F)) (StableHlo.after hostOps3 V (Proc.devRef .tc main_arg4)) :=
  Sage.after_unary (x := main_arg4) (y := main_v171) (f := ((extractStridedSlice S1x128x256 ![2, 0, 0] · slices_S7x128x256_S1x128x256_2_0_0) : (⟨S7x128x256, .f32⟩ : BufTy).Contents (Elt F) → (⟨S1x128x256, .f32⟩ : BufTy).Contents (Elt F))) hostOps3_writes 0 V rfl (by decide) (by decide)

/-- Position 1 of host stretch 3: `v172` from `v171`. -/
theorem rd3_v172 : (StableHlo.after hostOps3 V (Proc.devRef .tc main_v172)) = (shapeCast S128x256 (StableHlo.after hostOps3 V (Proc.devRef .tc main_v171)) shapeCasts_S1x128x256_S128x256 : (⟨S128x256, .f32⟩ : BufTy).Contents (Elt F)) :=
  (Sage.after_reshape (x := main_v171) (y := main_v172) hostOps3_writes 1 V rfl (by decide) (by decide)).trans rfl

/-- Position 2 of host stretch 3: `v173` from `arg5`. -/
theorem rd3_v173 : (StableHlo.after hostOps3 V (Proc.devRef .tc main_v173)) = ((extractStridedSlice S1x128x256 ![2, 0, 0] · slices_S7x128x256_S1x128x256_2_0_0) : (⟨S7x128x256, .f32⟩ : BufTy).Contents (Elt F) → (⟨S1x128x256, .f32⟩ : BufTy).Contents (Elt F)) (StableHlo.after hostOps3 V (Proc.devRef .tc main_arg5)) :=
  Sage.after_unary (x := main_arg5) (y := main_v173) (f := ((extractStridedSlice S1x128x256 ![2, 0, 0] · slices_S7x128x256_S1x128x256_2_0_0) : (⟨S7x128x256, .f32⟩ : BufTy).Contents (Elt F) → (⟨S1x128x256, .f32⟩ : BufTy).Contents (Elt F))) hostOps3_writes 2 V rfl (by decide) (by decide)

/-- Position 3 of host stretch 3: `v174` from `v173`. -/
theorem rd3_v174 : (StableHlo.after hostOps3 V (Proc.devRef .tc main_v174)) = (shapeCast S128x256 (StableHlo.after hostOps3 V (Proc.devRef .tc main_v173)) shapeCasts_S1x128x256_S128x256 : (⟨S128x256, .f32⟩ : BufTy).Contents (Elt F)) :=
  (Sage.after_reshape (x := main_v173) (y := main_v174) hostOps3_writes 3 V rfl (by decide) (by decide)).trans rfl

/-- Position 4 of host stretch 3: `v175` from `arg6`. -/
theorem rd3_v175 : (StableHlo.after hostOps3 V (Proc.devRef .tc main_v175)) = ((extractStridedSlice S1x256 ![2, 0] · slices_S7x256_S1x256_2_0) : (⟨S7x256, .f32⟩ : BufTy).Contents (Elt F) → (⟨S1x256, .f32⟩ : BufTy).Contents (Elt F)) (StableHlo.after hostOps3 V (Proc.devRef .tc main_arg6)) :=
  Sage.after_unary (x := main_arg6) (y := main_v175) (f := ((extractStridedSlice S1x256 ![2, 0] · slices_S7x256_S1x256_2_0) : (⟨S7x256, .f32⟩ : BufTy).Contents (Elt F) → (⟨S1x256, .f32⟩ : BufTy).Contents (Elt F))) hostOps3_writes 4 V rfl (by decide) (by decide)

/-- Position 5 of host stretch 3: `v176` from `v175`. -/
theorem rd3_v176 : (StableHlo.after hostOps3 V (Proc.devRef .tc main_v176)) = (shapeCast S256 (StableHlo.after hostOps3 V (Proc.devRef .tc main_v175)) shapeCasts_S1x256_S256 : (⟨S256, .f32⟩ : BufTy).Contents (Elt F)) :=
  (Sage.after_reshape (x := main_v175) (y := main_v176) hostOps3_writes 5 V rfl (by decide) (by decide)).trans rfl

/-- Position 6 of host stretch 3: `v177` from `v176`. -/
theorem rd3_v177 : (StableHlo.after hostOps3 V (Proc.devRef .tc main_v177)) = (shapeCast S1x256 (StableHlo.after hostOps3 V (Proc.devRef .tc main_v176)) shapeCasts_S256_S1x256 : (⟨S1x256, .f32⟩ : BufTy).Contents (Elt F)) :=
  (Sage.after_reshape (x := main_v176) (y := main_v177) hostOps3_writes 6 V rfl (by decide) (by decide)).trans rfl

end Cert.KernelIdeal.Hand

end
-- ==== Proof.KI.ReadS4.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 4 writes, one per operation, in order. -/
noncomputable abbrev wr4 : List (Ref sig .tc) := [main_v179, main_v180]

/-- Each operation of host stretch 4 writes exactly the listed reference. -/
theorem hostOps4_writes : Sage.Writes (hostOps4 : List (HloOp τ sig (Elt F))) wr4 := by
  repeat (first | exact Sage.Writes.nil | refine Sage.Writes.cons rfl ?_)

variable (V : Valuation τ sig (Elt F))

/-- Position 0 of host stretch 4: `v179` from `arg10`. -/
theorem rd4_v179 : (StableHlo.after hostOps4 V (Proc.devRef .tc main_v179)) = (shapeCast S1x256 (StableHlo.after hostOps4 V (Proc.devRef .tc main_arg10)) shapeCasts_S256_S1x256 : (⟨S1x256, .f32⟩ : BufTy).Contents (Elt F)) :=
  (Sage.after_reshape (x := main_arg10) (y := main_v179) hostOps4_writes 0 V rfl (by decide) (by decide)).trans rfl

/-- Position 1 of host stretch 4: `v180` from `arg11`. -/
theorem rd4_v180 : (StableHlo.after hostOps4 V (Proc.devRef .tc main_v180)) = (shapeCast S1x256 (StableHlo.after hostOps4 V (Proc.devRef .tc main_arg11)) shapeCasts_S256_S1x256 : (⟨S1x256, .f32⟩ : BufTy).Contents (Elt F)) :=
  (Sage.after_reshape (x := main_arg11) (y := main_v180) hostOps4_writes 1 V rfl (by decide) (by decide)).trans rfl

end Cert.KernelIdeal.Hand

end
-- ==== Proof.KI.ReadS5.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 5 writes, one per operation, in order. -/
noncomputable abbrev wr5 : List (Ref sig .tc) := [main_v182, main_v183]

/-- Each operation of host stretch 5 writes exactly the listed reference. -/
theorem hostOps5_writes : Sage.Writes (hostOps5 : List (HloOp τ sig (Elt F))) wr5 := by
  repeat (first | exact Sage.Writes.nil | refine Sage.Writes.cons rfl ?_)

variable (V : Valuation τ sig (Elt F))

/-- Position 0 of host stretch 5: `v182` from `arg10`. -/
theorem rd5_v182 : (StableHlo.after hostOps5 V (Proc.devRef .tc main_v182)) = (shapeCast S1x256 (StableHlo.after hostOps5 V (Proc.devRef .tc main_arg10)) shapeCasts_S256_S1x256 : (⟨S1x256, .f32⟩ : BufTy).Contents (Elt F)) :=
  (Sage.after_reshape (x := main_arg10) (y := main_v182) hostOps5_writes 0 V rfl (by decide) (by decide)).trans rfl

/-- Position 1 of host stretch 5: `v183` from `arg11`. -/
theorem rd5_v183 : (StableHlo.after hostOps5 V (Proc.devRef .tc main_v183)) = (shapeCast S1x256 (StableHlo.after hostOps5 V (Proc.devRef .tc main_arg11)) shapeCasts_S256_S1x256 : (⟨S1x256, .f32⟩ : BufTy).Contents (Elt F)) :=
  (Sage.after_reshape (x := main_arg11) (y := main_v183) hostOps5_writes 1 V rfl (by decide) (by decide)).trans rfl

end Cert.KernelIdeal.Hand

end
-- ==== Proof.KI.ReadS6.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 6 writes, one per operation, in order. -/
noncomputable abbrev wr6 : List (Ref sig .tc) := [main_v185, main_v186]

/-- Each operation of host stretch 6 writes exactly the listed reference. -/
theorem hostOps6_writes : Sage.Writes (hostOps6 : List (HloOp τ sig (Elt F))) wr6 := by
  repeat (first | exact Sage.Writes.nil | refine Sage.Writes.cons rfl ?_)

variable (V : Valuation τ sig (Elt F))

/-- Position 0 of host stretch 6: `v185` from `arg10`. -/
theorem rd6_v185 : (StableHlo.after hostOps6 V (Proc.devRef .tc main_v185)) = (shapeCast S1x256 (StableHlo.after hostOps6 V (Proc.devRef .tc main_arg10)) shapeCasts_S256_S1x256 : (⟨S1x256, .f32⟩ : BufTy).Contents (Elt F)) :=
  (Sage.after_reshape (x := main_arg10) (y := main_v185) hostOps6_writes 0 V rfl (by decide) (by decide)).trans rfl

/-- Position 1 of host stretch 6: `v186` from `arg11`. -/
theorem rd6_v186 : (StableHlo.after hostOps6 V (Proc.devRef .tc main_v186)) = (shapeCast S1x256 (StableHlo.after hostOps6 V (Proc.devRef .tc main_arg11)) shapeCasts_S256_S1x256 : (⟨S1x256, .f32⟩ : BufTy).Contents (Elt F)) :=
  (Sage.after_reshape (x := main_arg11) (y := main_v186) hostOps6_writes 1 V rfl (by decide) (by decide)).trans rfl

end Cert.KernelIdeal.Hand

end
-- ==== Proof.KI.ReadS7.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 7 writes, one per operation, in order. -/
noncomputable abbrev wr7 : List (Ref sig .tc) := [main_v188, main_v189]

/-- Each operation of host stretch 7 writes exactly the listed reference. -/
theorem hostOps7_writes : Sage.Writes (hostOps7 : List (HloOp τ sig (Elt F))) wr7 := by
  repeat (first | exact Sage.Writes.nil | refine Sage.Writes.cons rfl ?_)

variable (V : Valuation τ sig (Elt F))

/-- Position 0 of host stretch 7: `v188` from `arg10`. -/
theorem rd7_v188 : (StableHlo.after hostOps7 V (Proc.devRef .tc main_v188)) = (shapeCast S1x256 (StableHlo.after hostOps7 V (Proc.devRef .tc main_arg10)) shapeCasts_S256_S1x256 : (⟨S1x256, .f32⟩ : BufTy).Contents (Elt F)) :=
  (Sage.after_reshape (x := main_arg10) (y := main_v188) hostOps7_writes 0 V rfl (by decide) (by decide)).trans rfl

/-- Position 1 of host stretch 7: `v189` from `arg11`. -/
theorem rd7_v189 : (StableHlo.after hostOps7 V (Proc.devRef .tc main_v189)) = (shapeCast S1x256 (StableHlo.after hostOps7 V (Proc.devRef .tc main_arg11)) shapeCasts_S256_S1x256 : (⟨S1x256, .f32⟩ : BufTy).Contents (Elt F)) :=
  (Sage.after_reshape (x := main_arg11) (y := main_v189) hostOps7_writes 1 V rfl (by decide) (by decide)).trans rfl

end Cert.KernelIdeal.Hand

end
-- ==== Proof.KI.ReadS8.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 8 writes, one per operation, in order. -/
noncomputable abbrev wr8 : List (Ref sig .tc) := [main_c_40, main_v191, main_v192, main_c_41, main_v193, main_v194, main_v195, main_v196, main_v197, main_cst_42, main_v198, main_v199, main_v200, main_v201, main_v202, main_c_43, main_v203, main_v204, main_c_44, main_v205, main_v206, main_v207, main_v208, main_v209, main_cst_45, main_v210, main_v211, main_v212, main_v213, main_v214, main_c_46, main_v215, main_v216, main_c_47, main_v217, main_v218, main_v219, main_v220, main_v221, main_cst_48, main_v222, main_v223, main_v224, main_v225, main_v226, main_c_49, main_v227, main_v228, main_c_50, main_v229, main_v230, main_v231, main_v232, main_v233, main_cst_51, main_v234, main_v235, main_v236, main_v237, main_v238, main_c_52, main_v239, main_v240, main_c_53, main_v241, main_v242, main_v243, main_v244, main_v245, main_cst_54, main_v246, main_v247, main_v248, main_v249, main_v250, main_c_55, main_v251, main_v252, main_c_56, main_v253, main_v254, main_v255, main_v256, main_v257, main_cst_57, main_v258, main_v259, main_v260, main_v261, main_v262, main_c_58, main_v263, main_v264, main_c_59, main_v265, main_v266, main_v267, main_v268, main_v269, main_cst_60, main_v270, main_v271, main_v272, main_v273, main_v274, main_v275, main_v276, main_v277, main_v278, main_v279, main_v280, main_v281, main_v282, main_v283, main_v284, main_v285, main_v286, main_v287, main_v288]

/-- Each operation of host stretch 8 writes exactly the listed reference. -/
theorem hostOps8_writes : Sage.Writes (hostOps8 : List (HloOp τ sig (Elt F))) wr8 := by
  repeat (first | exact Sage.Writes.nil | refine Sage.Writes.cons rfl ?_)

variable (V : Valuation τ sig (Elt F))

/-- Position 0 of host stretch 8: `c_40` from no operand. -/
theorem rd8_c_40 : (StableHlo.after hostOps8 V (Proc.devRef .tc main_c_40)) = ((constantI S_ 32 0#32) : (⟨S_, .i32⟩ : BufTy).Contents (Elt F)) :=
  Sage.after_nullary (y := main_c_40) hostOps8_writes 0 V rfl (by decide)

/-- Position 1 of host stretch 8: `v191` from `c_40`. -/
theorem rd8_v191 : (StableHlo.after hostOps8 V (Proc.devRef .tc main_v191)) = (broadcastInDim S500000 ![] bcast_S_S500000 : (⟨S_, .i32⟩ : BufTy).Contents (Elt F) → (⟨S500000, .i32⟩ : BufTy).Contents (Elt F)) (StableHlo.after hostOps8 V (Proc.devRef .tc main_c_40)) :=
  Sage.after_unary (x := main_c_40) (y := main_v191) (f := (broadcastInDim S500000 ![] bcast_S_S500000 : (⟨S_, .i32⟩ : BufTy).Contents (Elt F) → (⟨S500000, .i32⟩ : BufTy).Contents (Elt F))) hostOps8_writes 1 V rfl (by decide) (by decide)

/-- Position 2 of host stretch 8: `v192` from `arg14`, `v191`. -/
theorem rd8_v192 : (StableHlo.after hostOps8 V (Proc.devRef .tc main_v192)) = (cmpi .slt : (⟨S500000, .i32⟩ : BufTy).Contents (Elt F) → (⟨S500000, .i32⟩ : BufTy).Contents (Elt F) → (⟨S500000, .i1⟩ : BufTy).Contents (Elt F)) (StableHlo.after hostOps8 V (Proc.devRef .tc main_arg14)) (StableHlo.after hostOps8 V (Proc.devRef .tc main_v191)) :=
  Sage.after_binary (a := main_arg14) (b := main_v191) (y := main_v192) (f := (cmpi .slt : (⟨S500000, .i32⟩ : BufTy).Contents (Elt F) → (⟨S500000, .i32⟩ : BufTy).Contents (Elt F) → (⟨S500000, .i1⟩ : BufTy).Contents (Elt F))) hostOps8_writes 2 V rfl (by decide) (by decide) (by decide)

/-- Position 3 of host stretch 8: `c_41` from no operand. -/
theorem rd8_c_41 : (StableHlo.after hostOps8 V (Proc.devRef .tc main_c_41)) = ((constantI S_ 32 20000#32) : (⟨S_, .i32⟩ : BufTy).Contents (Elt F)) :=
  Sage.after_nullary (y := main_c_41) hostOps8_writes 3 V rfl (by decide)

/-- Position 4 of host stretch 8: `v193` from `c_41`. -/
theorem rd8_v193 : (StableHlo.after hostOps8 V (Proc.devRef .tc main_v193)) = (broadcastInDim S500000 ![] bcast_S_S500000 : (⟨S_, .i32⟩ : BufTy).Contents (Elt F) → (⟨S500000, .i32⟩ : BufTy).Contents (Elt F)) (StableHlo.after hostOps8 V (Proc.devRef .tc main_c_41)) :=
  Sage.after_unary (x := main_c_41) (y := main_v193) (f := (broadcastInDim S500000 ![] bcast_S_S500000 : (⟨S_, .i32⟩ : BufTy).Contents (Elt F) → (⟨S500000, .i32⟩ : BufTy).Contents (Elt F))) hostOps8_writes 4 V rfl (by decide) (by decide)

/-- Position 5 of host stretch 8: `v194` from `arg14`, `v193`. -/
theorem rd8_v194 : (StableHlo.after hostOps8 V (Proc.devRef .tc main_v194)) = (addi : (⟨S500000, .i32⟩ : BufTy).Contents (Elt F) → (⟨S500000, .i32⟩ : BufTy).Contents (Elt F) → (⟨S500000, .i32⟩ : BufTy).Contents (Elt F)) (StableHlo.after hostOps8 V (Proc.devRef .tc main_arg14)) (StableHlo.after hostOps8 V (Proc.devRef .tc main_v193)) :=
  Sage.after_binary (a := main_arg14) (b := main_v193) (y := main_v194) (f := (addi : (⟨S500000, .i32⟩ : BufTy).Contents (Elt F) → (⟨S500000, .i32⟩ : BufTy).Contents (Elt F) → (⟨S500000, .i32⟩ : BufTy).Contents (Elt F))) hostOps8_writes 5 V rfl (by decide) (by decide) (by decide)

/-- Position 6 of host stretch 8: `v195` from `v192`, `v194`, `arg14`. -/
theorem rd8_v195 : (StableHlo.after hostOps8 V (Proc.devRef .tc main_v195)) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (StableHlo.after hostOps8 V (Proc.devRef .tc main_v192)) (StableHlo.after hostOps8 V (Proc.devRef .tc main_v194)) (StableHlo.after hostOps8 V (Proc.devRef .tc main_arg14)) :=
  Sage.after_ternary (c := main_v192) (a := main_v194) (b := main_arg14) (y := main_v195) (f := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))) hostOps8_writes 6 V rfl (by decide) (by decide) (by decide) (by decide)

/-- Position 7 of host stretch 8: `v196` from `v195`. -/
theorem rd8_v196 : (StableHlo.after hostOps8 V (Proc.devRef .tc main_v196)) = (broadcastInDim S500000x1 ![0] bcast_S500000_S500000x1_0 : (⟨S500000, .i32⟩ : BufTy).Contents (Elt F) → (⟨S500000x1, .i32⟩ : BufTy).Contents (Elt F)) (StableHlo.after hostOps8 V (Proc.devRef .tc main_v195)) :=
  Sage.after_unary (x := main_v195) (y := main_v196) (f := (broadcastInDim S500000x1 ![0] bcast_S500000_S500000x1_0 : (⟨S500000, .i32⟩ : BufTy).Contents (Elt F) → (⟨S500000x1, .i32⟩ : BufTy).Contents (Elt F))) hostOps8_writes 7 V rfl (by decide) (by decide)

/-- Position 8 of host stretch 8: `v197` from `v181`, `v196`. -/
theorem rd8_v197 : (StableHlo.after hostOps8 V (Proc.devRef .tc main_v197)) = ((fun x i => Host.gather gather_S20000x256_S500000x1_S500000x256_1_0_n_n_0_1_1256 x i) : (⟨S20000x256, .f32⟩ : BufTy).Contents (Elt F) → (⟨S500000x1, .i32⟩ : BufTy).Contents (Elt F) → (⟨S500000x256, .f32⟩ : BufTy).Contents (Elt F)) (StableHlo.after hostOps8 V (Proc.devRef .tc main_v181)) (StableHlo.after hostOps8 V (Proc.devRef .tc main_v196)) :=
  Sage.after_binary (a := main_v181) (b := main_v196) (y := main_v197) (f := ((fun x i => Host.gather gather_S20000x256_S500000x1_S500000x256_1_0_n_n_0_1_1256 x i) : (⟨S20000x256, .f32⟩ : BufTy).Contents (Elt F) → (⟨S500000x1, .i32⟩ : BufTy).Contents (Elt F) → (⟨S500000x256, .f32⟩ : BufTy).Contents (Elt F))) hostOps8_writes 8 V rfl (by decide) (by decide) (by decide)

/-- Position 9 of host stretch 8: `cst_42` from no operand. -/
theorem rd8_cst_42 : (StableHlo.after hostOps8 V (Proc.devRef .tc main_cst_42)) = ((constant S_ .f32 0x00000000#32) : (⟨S_, .f32⟩ : BufTy).Contents (Elt F)) :=
  Sage.after_nullary (y := main_cst_42) hostOps8_writes 9 V rfl (by decide)

/-- Position 10 of host stretch 8: `v198` from `cst_42`. -/
theorem rd8_v198 : (StableHlo.after hostOps8 V (Proc.devRef .tc main_v198)) = (broadcastInDim S10000x256 ![] bcast_S_S10000x256 : (⟨S_, .f32⟩ : BufTy).Contents (Elt F) → (⟨S10000x256, .f32⟩ : BufTy).Contents (Elt F)) (StableHlo.after hostOps8 V (Proc.devRef .tc main_cst_42)) :=
  Sage.after_unary (x := main_cst_42) (y := main_v198) (f := (broadcastInDim S10000x256 ![] bcast_S_S10000x256 : (⟨S_, .f32⟩ : BufTy).Contents (Elt F) → (⟨S10000x256, .f32⟩ : BufTy).Contents (Elt F))) hostOps8_writes 10 V rfl (by decide) (by decide)

/-- Position 11 of host stretch 8: `v199` from `arg15`. -/
theorem rd8_v199 : (StableHlo.after hostOps8 V (Proc.devRef .tc main_v199)) = (broadcastInDim S500000x1 ![0] bcast_S500000_S500000x1_0 : (⟨S500000, .i32⟩ : BufTy).Contents (Elt F) → (⟨S500000x1, .i32⟩ : BufTy).Contents (Elt F)) (StableHlo.after hostOps8 V (Proc.devRef .tc main_arg15)) :=
  Sage.after_unary (x := main_arg15) (y := main_v199) (f := (broadcastInDim S500000x1 ![0] bcast_S500000_S500000x1_0 : (⟨S500000, .i32⟩ : BufTy).Contents (Elt F) → (⟨S500000x1, .i32⟩ : BufTy).Contents (Elt F))) hostOps8_writes 11 V rfl (by decide) (by decide)

/-- Position 12 of host stretch 8: `v200` from `v198`, `v199`, `v197`. -/
theorem rd8_v200 : (StableHlo.after hostOps8 V (Proc.devRef .tc main_v200)) = ((fun x i u => Host.scatterAdd scatter_S10000x256_S500000x1_S500000x256_1_0_0_1 x i u) : (⟨S10000x256, .f32⟩ : BufTy).Contents (Elt F) → (⟨S500000x1, .i32⟩ : BufTy).Contents (Elt F) → (⟨S500000x256, .f32⟩ : BufTy).Contents (Elt F) → (⟨S10000x256, .f32⟩ : BufTy).Contents (Elt F)) (StableHlo.after hostOps8 V (Proc.devRef .tc main_v198)) (StableHlo.after hostOps8 V (Proc.devRef .tc main_v199)) (StableHlo.after hostOps8 V (Proc.devRef .tc main_v197)) :=
  Sage.after_ternary (c := main_v198) (a := main_v199) (b := main_v197) (y := main_v200) (f := ((fun x i u => Host.scatterAdd scatter_S10000x256_S500000x1_S500000x256_1_0_0_1 x i u) : (⟨S10000x256, .f32⟩ : BufTy).Contents (Elt F) → (⟨S500000x1, .i32⟩ : BufTy).Contents (Elt F) → (⟨S500000x256, .f32⟩ : BufTy).Contents (Elt F) → (⟨S10000x256, .f32⟩ : BufTy).Contents (Elt F))) hostOps8_writes 12 V rfl (by decide) (by decide) (by decide) (by decide)

/-- Position 13 of host stretch 8: `v201` from `v5`. -/
theorem rd8_v201 : (StableHlo.after hostOps8 V (Proc.devRef .tc main_v201)) = (broadcastInDim S10000x256 ![0, 1] bcast_S10000x1_S10000x256_0_1 : (⟨S10000x1, .f32⟩ : BufTy).Contents (Elt F) → (⟨S10000x256, .f32⟩ : BufTy).Contents (Elt F)) (StableHlo.after hostOps8 V (Proc.devRef .tc main_v5)) :=
  Sage.after_unary (x := main_v5) (y := main_v201) (f := (broadcastInDim S10000x256 ![0, 1] bcast_S10000x1_S10000x256_0_1 : (⟨S10000x1, .f32⟩ : BufTy).Contents (Elt F) → (⟨S10000x256, .f32⟩ : BufTy).Contents (Elt F))) hostOps8_writes 13 V rfl (by decide) (by decide)

/-- Position 14 of host stretch 8: `v202` from `v200`, `v201`. -/
theorem rd8_v202 : (StableHlo.after hostOps8 V (Proc.devRef .tc main_v202)) = (Host.divf : (⟨S10000x256, .f32⟩ : BufTy).Contents (Elt F) → (⟨S10000x256, .f32⟩ : BufTy).Contents (Elt F) → (⟨S10000x256, .f32⟩ : BufTy).Contents (Elt F)) (StableHlo.after hostOps8 V (Proc.devRef .tc main_v200)) (StableHlo.after hostOps8 V (Proc.devRef .tc main_v201)) :=
  Sage.after_binary (a := main_v200) (b := main_v201) (y := main_v202) (f := (Host.divf : (⟨S10000x256, .f32⟩ : BufTy).Contents (Elt F) → (⟨S10000x256, .f32⟩ : BufTy).Contents (Elt F) → (⟨S10000x256, .f32⟩ : BufTy).Contents (Elt F))) hostOps8_writes 14 V rfl (by decide) (by decide) (by decide)

/-- Position 15 of host stretch 8: `c_43` from no operand. -/
theorem rd8_c_43 : (StableHlo.after hostOps8 V (Proc.devRef .tc main_c_43)) = ((constantI S_ 32 0#32) : (⟨S_, .i32⟩ : BufTy).Contents (Elt F)) :=
  Sage.after_nullary (y := main_c_43) hostOps8_writes 15 V rfl (by decide)

/-- Position 16 of host stretch 8: `v203` from `c_43`. -/
theorem rd8_v203 : (StableHlo.after hostOps8 V (Proc.devRef .tc main_v203)) = (broadcastInDim S400000 ![] bcast_S_S400000 : (⟨S_, .i32⟩ : BufTy).Contents (Elt F) → (⟨S400000, .i32⟩ : BufTy).Contents (Elt F)) (StableHlo.after hostOps8 V (Proc.devRef .tc main_c_43)) :=
  Sage.after_unary (x := main_c_43) (y := main_v203) (f := (broadcastInDim S400000 ![] bcast_S_S400000 : (⟨S_, .i32⟩ : BufTy).Contents (Elt F) → (⟨S400000, .i32⟩ : BufTy).Contents (Elt F))) hostOps8_writes 16 V rfl (by decide) (by decide)

/-- Position 17 of host stretch 8: `v204` from `arg16`, `v203`. -/
theorem rd8_v204 : (StableHlo.after hostOps8 V (Proc.devRef .tc main_v204)) = (cmpi .slt : (⟨S400000, .i32⟩ : BufTy).Contents (Elt F) → (⟨S400000, .i32⟩ : BufTy).Contents (Elt F) → (⟨S400000, .i1⟩ : BufTy).Contents (Elt F)) (StableHlo.after hostOps8 V (Proc.devRef .tc main_arg16)) (StableHlo.after hostOps8 V (Proc.devRef .tc main_v203)) :=
  Sage.after_binary (a := main_arg16) (b := main_v203) (y := main_v204) (f := (cmpi .slt : (⟨S400000, .i32⟩ : BufTy).Contents (Elt F) → (⟨S400000, .i32⟩ : BufTy).Contents (Elt F) → (⟨S400000, .i1⟩ : BufTy).Contents (Elt F))) hostOps8_writes 17 V rfl (by decide) (by decide) (by decide)

/-- Position 18 of host stretch 8: `c_44` from no operand. -/
theorem rd8_c_44 : (StableHlo.after hostOps8 V (Proc.devRef .tc main_c_44)) = ((constantI S_ 32 20000#32) : (⟨S_, .i32⟩ : BufTy).Contents (Elt F)) :=
  Sage.after_nullary (y := main_c_44) hostOps8_writes 18 V rfl (by decide)

/-- Position 19 of host stretch 8: `v205` from `c_44`. -/
theorem rd8_v205 : (StableHlo.after hostOps8 V (Proc.devRef .tc main_v205)) = (broadcastInDim S400000 ![] bcast_S_S400000 : (⟨S_, .i32⟩ : BufTy).Contents (Elt F) → (⟨S400000, .i32⟩ : BufTy).Contents (Elt F)) (StableHlo.after hostOps8 V (Proc.devRef .tc main_c_44)) :=
  Sage.after_unary (x := main_c_44) (y := main_v205) (f := (broadcastInDim S400000 ![] bcast_S_S400000 : (⟨S_, .i32⟩ : BufTy).Contents (Elt F) → (⟨S400000, .i32⟩ : BufTy).Contents (Elt F))) hostOps8_writes 19 V rfl (by decide) (by decide)

/-- Position 20 of host stretch 8: `v206` from `arg16`, `v205`. -/
theorem rd8_v206 : (StableHlo.after hostOps8 V (Proc.devRef .tc main_v206)) = (addi : (⟨S400000, .i32⟩ : BufTy).Contents (Elt F) → (⟨S400000, .i32⟩ : BufTy).Contents (Elt F) → (⟨S400000, .i32⟩ : BufTy).Contents (Elt F)) (StableHlo.after hostOps8 V (Proc.devRef .tc main_arg16)) (StableHlo.after hostOps8 V (Proc.devRef .tc main_v205)) :=
  Sage.after_binary (a := main_arg16) (b := main_v205) (y := main_v206) (f := (addi : (⟨S400000, .i32⟩ : BufTy).Contents (Elt F) → (⟨S400000, .i32⟩ : BufTy).Contents (Elt F) → (⟨S400000, .i32⟩ : BufTy).Contents (Elt F))) hostOps8_writes 20 V rfl (by decide) (by decide) (by decide)

/-- Position 21 of host stretch 8: `v207` from `v204`, `v206`, `arg16`. -/
theorem rd8_v207 : (StableHlo.after hostOps8 V (Proc.devRef .tc main_v207)) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (StableHlo.after hostOps8 V (Proc.devRef .tc main_v204)) (StableHlo.after hostOps8 V (Proc.devRef .tc main_v206)) (StableHlo.after hostOps8 V (Proc.devRef .tc main_arg16)) :=
  Sage.after_ternary (c := main_v204) (a := main_v206) (b := main_arg16) (y := main_v207) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) hostOps8_writes 21 V rfl (by decide) (by decide) (by decide) (by decide)

/-- Position 22 of host stretch 8: `v208` from `v207`. -/
theorem rd8_v208 : (StableHlo.after hostOps8 V (Proc.devRef .tc main_v208)) = (broadcastInDim S400000x1 ![0] bcast_S400000_S400000x1_0 : (⟨S400000, .i32⟩ : BufTy).Contents (Elt F) → (⟨S400000x1, .i32⟩ : BufTy).Contents (Elt F)) (StableHlo.after hostOps8 V (Proc.devRef .tc main_v207)) :=
  Sage.after_unary (x := main_v207) (y := main_v208) (f := (broadcastInDim S400000x1 ![0] bcast_S400000_S400000x1_0 : (⟨S400000, .i32⟩ : BufTy).Contents (Elt F) → (⟨S400000x1, .i32⟩ : BufTy).Contents (Elt F))) hostOps8_writes 22 V rfl (by decide) (by decide)

/-- Position 23 of host stretch 8: `v209` from `v181`, `v208`. -/
theorem rd8_v209 : (StableHlo.after hostOps8 V (Proc.devRef .tc main_v209)) = ((fun x i => Host.gather gather_S20000x256_S400000x1_S400000x256_1_0_n_n_0_1_1256 x i) : (⟨S20000x256, .f32⟩ : BufTy).Contents (Elt F) → (⟨S400000x1, .i32⟩ : BufTy).Contents (Elt F) → (⟨S400000x256, .f32⟩ : BufTy).Contents (Elt F)) (StableHlo.after hostOps8 V (Proc.devRef .tc main_v181)) (StableHlo.after hostOps8 V (Proc.devRef .tc main_v208)) :=
  Sage.after_binary (a := main_v181) (b := main_v208) (y := main_v209) (f := ((fun x i => Host.gather gather_S20000x256_S400000x1_S400000x256_1_0_n_n_0_1_1256 x i) : (⟨S20000x256, .f32⟩ : BufTy).Contents (Elt F) → (⟨S400000x1, .i32⟩ : BufTy).Contents (Elt F) → (⟨S400000x256, .f32⟩ : BufTy).Contents (Elt F))) hostOps8_writes 23 V rfl (by decide) (by decide) (by decide)

/-- Position 24 of host stretch 8: `cst_45` from no operand. -/
theorem rd8_cst_45 : (StableHlo.after hostOps8 V (Proc.devRef .tc main_cst_45)) = ((constant S_ .f32 0x00000000#32) : (⟨S_, .f32⟩ : BufTy).Contents (Elt F)) :=
  Sage.after_nullary (y := main_cst_45) hostOps8_writes 24 V rfl (by decide)

/-- Position 25 of host stretch 8: `v210` from `cst_45`. -/
theorem rd8_v210 : (StableHlo.after hostOps8 V (Proc.devRef .tc main_v210)) = (broadcastInDim S50000x256 ![] bcast_S_S50000x256 : (⟨S_, .f32⟩ : BufTy).Contents (Elt F) → (⟨S50000x256, .f32⟩ : BufTy).Contents (Elt F)) (StableHlo.after hostOps8 V (Proc.devRef .tc main_cst_45)) :=
  Sage.after_unary (x := main_cst_45) (y := main_v210) (f := (broadcastInDim S50000x256 ![] bcast_S_S50000x256 : (⟨S_, .f32⟩ : BufTy).Contents (Elt F) → (⟨S50000x256, .f32⟩ : BufTy).Contents (Elt F))) hostOps8_writes 25 V rfl (by decide) (by decide)

/-- Position 26 of host stretch 8: `v211` from `arg17`. -/
theorem rd8_v211 : (StableHlo.after hostOps8 V (Proc.devRef .tc main_v211)) = (broadcastInDim S400000x1 ![0] bcast_S400000_S400000x1_0 : (⟨S400000, .i32⟩ : BufTy).Contents (Elt F) → (⟨S400000x1, .i32⟩ : BufTy).Contents (Elt F)) (StableHlo.after hostOps8 V (Proc.devRef .tc main_arg17)) :=
  Sage.after_unary (x := main_arg17) (y := main_v211) (f := (broadcastInDim S400000x1 ![0] bcast_S400000_S400000x1_0 : (⟨S400000, .i32⟩ : BufTy).Contents (Elt F) → (⟨S400000x1, .i32⟩ : BufTy).Contents (Elt F))) hostOps8_writes 26 V rfl (by decide) (by decide)

/-- Position 27 of host stretch 8: `v212` from `v210`, `v211`, `v209`. -/
theorem rd8_v212 : (StableHlo.after hostOps8 V (Proc.devRef .tc main_v212)) = ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)) (StableHlo.after hostOps8 V (Proc.devRef .tc main_v210)) (StableHlo.after hostOps8 V (Proc.devRef .tc main_v211)) (StableHlo.after hostOps8 V (Proc.devRef .tc main_v209)) :=
  Sage.after_ternary (c := main_v210) (a := main_v211) (b := main_v209) (y := main_v212) (f := ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F))) hostOps8_writes 27 V rfl (by decide) (by decide) (by decide) (by decide)

/-- Position 28 of host stretch 8: `v213` from `v11`. -/
theorem rd8_v213 : (StableHlo.after hostOps8 V (Proc.devRef .tc main_v213)) = (broadcastInDim S50000x256 ![0, 1] bcast_S50000x1_S50000x256_0_1 : (⟨S50000x1, .f32⟩ : BufTy).Contents (Elt F) → (⟨S50000x256, .f32⟩ : BufTy).Contents (Elt F)) (StableHlo.after hostOps8 V (Proc.devRef .tc main_v11)) :=
  Sage.after_unary (x := main_v11) (y := main_v213) (f := (broadcastInDim S50000x256 ![0, 1] bcast_S50000x1_S50000x256_0_1 : (⟨S50000x1, .f32⟩ : BufTy).Contents (Elt F) → (⟨S50000x256, .f32⟩ : BufTy).Contents (Elt F))) hostOps8_writes 28 V rfl (by decide) (by decide)

/-- Position 29 of host stretch 8: `v214` from `v212`, `v213`. -/
theorem rd8_v214 : (StableHlo.after hostOps8 V (Proc.devRef .tc main_v214)) = (Host.divf : (⟨S50000x256, .f32⟩ : BufTy).Contents (Elt F) → (⟨S50000x256, .f32⟩ : BufTy).Contents (Elt F) → (⟨S50000x256, .f32⟩ : BufTy).Contents (Elt F)) (StableHlo.after hostOps8 V (Proc.devRef .tc main_v212)) (StableHlo.after hostOps8 V (Proc.devRef .tc main_v213)) :=
  Sage.after_binary (a := main_v212) (b := main_v213) (y := main_v214) (f := (Host.divf : (⟨S50000x256, .f32⟩ : BufTy).Contents (Elt F) → (⟨S50000x256, .f32⟩ : BufTy).Contents (Elt F) → (⟨S50000x256, .f32⟩ : BufTy).Contents (Elt F))) hostOps8_writes 29 V rfl (by decide) (by decide) (by decide)

/-- Position 30 of host stretch 8: `c_46` from no operand. -/
theorem rd8_c_46 : (StableHlo.after hostOps8 V (Proc.devRef .tc main_c_46)) = ((constantI S_ 32 0#32) : (⟨S_, .i32⟩ : BufTy).Contents (Elt F)) :=
  Sage.after_nullary (y := main_c_46) hostOps8_writes 30 V rfl (by decide)

/-- Position 31 of host stretch 8: `v215` from `c_46`. -/
theorem rd8_v215 : (StableHlo.after hostOps8 V (Proc.devRef .tc main_v215)) = (broadcastInDim S150000 ![] bcast_S_S150000 : (⟨S_, .i32⟩ : BufTy).Contents (Elt F) → (⟨S150000, .i32⟩ : BufTy).Contents (Elt F)) (StableHlo.after hostOps8 V (Proc.devRef .tc main_c_46)) :=
  Sage.after_unary (x := main_c_46) (y := main_v215) (f := (broadcastInDim S150000 ![] bcast_S_S150000 : (⟨S_, .i32⟩ : BufTy).Contents (Elt F) → (⟨S150000, .i32⟩ : BufTy).Contents (Elt F))) hostOps8_writes 31 V rfl (by decide) (by decide)

/-- Position 32 of host stretch 8: `v216` from `arg18`, `v215`. -/
theorem rd8_v216 : (StableHlo.after hostOps8 V (Proc.devRef .tc main_v216)) = (cmpi .slt : (⟨S150000, .i32⟩ : BufTy).Contents (Elt F) → (⟨S150000, .i32⟩ : BufTy).Contents (Elt F) → (⟨S150000, .i1⟩ : BufTy).Contents (Elt F)) (StableHlo.after hostOps8 V (Proc.devRef .tc main_arg18)) (StableHlo.after hostOps8 V (Proc.devRef .tc main_v215)) :=
  Sage.after_binary (a := main_arg18) (b := main_v215) (y := main_v216) (f := (cmpi .slt : (⟨S150000, .i32⟩ : BufTy).Contents (Elt F) → (⟨S150000, .i32⟩ : BufTy).Contents (Elt F) → (⟨S150000, .i1⟩ : BufTy).Contents (Elt F))) hostOps8_writes 32 V rfl (by decide) (by decide) (by decide)

/-- Position 33 of host stretch 8: `c_47` from no operand. -/
theorem rd8_c_47 : (StableHlo.after hostOps8 V (Proc.devRef .tc main_c_47)) = ((constantI S_ 32 50000#32) : (⟨S_, .i32⟩ : BufTy).Contents (Elt F)) :=
  Sage.after_nullary (y := main_c_47) hostOps8_writes 33 V rfl (by decide)

/-- Position 34 of host stretch 8: `v217` from `c_47`. -/
theorem rd8_v217 : (StableHlo.after hostOps8 V (Proc.devRef .tc main_v217)) = (broadcastInDim S150000 ![] bcast_S_S150000 : (⟨S_, .i32⟩ : BufTy).Contents (Elt F) → (⟨S150000, .i32⟩ : BufTy).Contents (Elt F)) (StableHlo.after hostOps8 V (Proc.devRef .tc main_c_47)) :=
  Sage.after_unary (x := main_c_47) (y := main_v217) (f := (broadcastInDim S150000 ![] bcast_S_S150000 : (⟨S_, .i32⟩ : BufTy).Contents (Elt F) → (⟨S150000, .i32⟩ : BufTy).Contents (Elt F))) hostOps8_writes 34 V rfl (by decide) (by decide)

/-- Position 35 of host stretch 8: `v218` from `arg18`, `v217`. -/
theorem rd8_v218 : (StableHlo.after hostOps8 V (Proc.devRef .tc main_v218)) = (addi : (⟨S150000, .i32⟩ : BufTy).Contents (Elt F) → (⟨S150000, .i32⟩ : BufTy).Contents (Elt F) → (⟨S150000, .i32⟩ : BufTy).Contents (Elt F)) (StableHlo.after hostOps8 V (Proc.devRef .tc main_arg18)) (StableHlo.after hostOps8 V (Proc.devRef .tc main_v217)) :=
  Sage.after_binary (a := main_arg18) (b := main_v217) (y := main_v218) (f := (addi : (⟨S150000, .i32⟩ : BufTy).Contents (Elt F) → (⟨S150000, .i32⟩ : BufTy).Contents (Elt F) → (⟨S150000, .i32⟩ : BufTy).Contents (Elt F))) hostOps8_writes 35 V rfl (by decide) (by decide) (by decide)

/-- Position 36 of host stretch 8: `v219` from `v216`, `v218`, `arg18`. -/
theorem rd8_v219 : (StableHlo.after hostOps8 V (Proc.devRef .tc main_v219)) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (StableHlo.after hostOps8 V (Proc.devRef .tc main_v216)) (StableHlo.after hostOps8 V (Proc.devRef .tc main_v218)) (StableHlo.after hostOps8 V (Proc.devRef .tc main_arg18)) :=
  Sage.after_ternary (c := main_v216) (a := main_v218) (b := main_arg18) (y := main_v219) (f := (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))) hostOps8_writes 36 V rfl (by decide) (by decide) (by decide) (by decide)

/-- Position 37 of host stretch 8: `v220` from `v219`. -/
theorem rd8_v220 : (StableHlo.after hostOps8 V (Proc.devRef .tc main_v220)) = (broadcastInDim S150000x1 ![0] bcast_S150000_S150000x1_0 : (⟨S150000, .i32⟩ : BufTy).Contents (Elt F) → (⟨S150000x1, .i32⟩ : BufTy).Contents (Elt F)) (StableHlo.after hostOps8 V (Proc.devRef .tc main_v219)) :=
  Sage.after_unary (x := main_v219) (y := main_v220) (f := (broadcastInDim S150000x1 ![0] bcast_S150000_S150000x1_0 : (⟨S150000, .i32⟩ : BufTy).Contents (Elt F) → (⟨S150000x1, .i32⟩ : BufTy).Contents (Elt F))) hostOps8_writes 37 V rfl (by decide) (by decide)

/-- Position 38 of host stretch 8: `v221` from `v184`, `v220`. -/
theorem rd8_v221 : (StableHlo.after hostOps8 V (Proc.devRef .tc main_v221)) = ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)) (StableHlo.after hostOps8 V (Proc.devRef .tc main_v184)) (StableHlo.after hostOps8 V (Proc.devRef .tc main_v220)) :=
  Sage.after_binary (a := main_v184) (b := main_v220) (y := main_v221) (f := ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F))) hostOps8_writes 38 V rfl (by decide) (by decide) (by decide)

/-- Position 39 of host stretch 8: `cst_48` from no operand. -/
theorem rd8_cst_48 : (StableHlo.after hostOps8 V (Proc.devRef .tc main_cst_48)) = ((constant S_ .f32 0x00000000#32) : (⟨S_, .f32⟩ : BufTy).Contents (Elt F)) :=
  Sage.after_nullary (y := main_cst_48) hostOps8_writes 39 V rfl (by decide)

/-- Position 40 of host stretch 8: `v222` from `cst_48`. -/
theorem rd8_v222 : (StableHlo.after hostOps8 V (Proc.devRef .tc main_v222)) = (broadcastInDim S3000x256 ![] bcast_S_S3000x256 : (⟨S_, .f32⟩ : BufTy).Contents (Elt F) → (⟨S3000x256, .f32⟩ : BufTy).Contents (Elt F)) (StableHlo.after hostOps8 V (Proc.devRef .tc main_cst_48)) :=
  Sage.after_unary (x := main_cst_48) (y := main_v222) (f := (broadcastInDim S3000x256 ![] bcast_S_S3000x256 : (⟨S_, .f32⟩ : BufTy).Contents (Elt F) → (⟨S3000x256, .f32⟩ : BufTy).Contents (Elt F))) hostOps8_writes 40 V rfl (by decide) (by decide)

/-- Position 41 of host stretch 8: `v223` from `arg19`. -/
theorem rd8_v223 : (StableHlo.after hostOps8 V (Proc.devRef .tc main_v223)) = (broadcastInDim S150000x1 ![0] bcast_S150000_S150000x1_0 : (⟨S150000, .i32⟩ : BufTy).Contents (Elt F) → (⟨S150000x1, .i32⟩ : BufTy).Contents (Elt F)) (StableHlo.after hostOps8 V (Proc.devRef .tc main_arg19)) :=
  Sage.after_unary (x := main_arg19) (y := main_v223) (f := (broadcastInDim S150000x1 ![0] bcast_S150000_S150000x1_0 : (⟨S150000, .i32⟩ : BufTy).Contents (Elt F) → (⟨S150000x1, .i32⟩ : BufTy).Contents (Elt F))) hostOps8_writes 41 V rfl (by decide) (by decide)

/-- Position 42 of host stretch 8: `v224` from `v222`, `v223`, `v221`. -/
theorem rd8_v224 : (StableHlo.after hostOps8 V (Proc.devRef .tc main_v224)) = ((fun x i u => Host.scatterAdd scatter_S3000x256_S150000x1_S150000x256_1_0_0_1 x i u) : (⟨S3000x256, .f32⟩ : BufTy).Contents (Elt F) → (⟨S150000x1, .i32⟩ : BufTy).Contents (Elt F) → (⟨S150000x256, .f32⟩ : BufTy).Contents (Elt F) → (⟨S3000x256, .f32⟩ : BufTy).Contents (Elt F)) (StableHlo.after hostOps8 V (Proc.devRef .tc main_v222)) (StableHlo.after hostOps8 V (Proc.devRef .tc main_v223)) (StableHlo.after hostOps8 V (Proc.devRef .tc main_v221)) :=
  Sage.after_ternary (c := main_v222) (a := main_v223) (b := main_v221) (y := main_v224) (f := ((fun x i u => Host.scatterAdd scatter_S3000x256_S150000x1_S150000x256_1_0_0_1 x i u) : (⟨S3000x256, .f32⟩ : BufTy).Contents (Elt F) → (⟨S150000x1, .i32⟩ : BufTy).Contents (Elt F) → (⟨S150000x256, .f32⟩ : BufTy).Contents (Elt F) → (⟨S3000x256, .f32⟩ : BufTy).Contents (Elt F))) hostOps8_writes 42 V rfl (by decide) (by decide) (by decide) (by decide)

/-- Position 43 of host stretch 8: `v225` from `v17`. -/
theorem rd8_v225 : (StableHlo.after hostOps8 V (Proc.devRef .tc main_v225)) = (broadcastInDim S3000x256 ![0, 1] bcast_S3000x1_S3000x256_0_1 : (⟨S3000x1, .f32⟩ : BufTy).Contents (Elt F) → (⟨S3000x256, .f32⟩ : BufTy).Contents (Elt F)) (StableHlo.after hostOps8 V (Proc.devRef .tc main_v17)) :=
  Sage.after_unary (x := main_v17) (y := main_v225) (f := (broadcastInDim S3000x256 ![0, 1] bcast_S3000x1_S3000x256_0_1 : (⟨S3000x1, .f32⟩ : BufTy).Contents (Elt F) → (⟨S3000x256, .f32⟩ : BufTy).Contents (Elt F))) hostOps8_writes 43 V rfl (by decide) (by decide)

/-- Position 44 of host stretch 8: `v226` from `v224`, `v225`. -/
theorem rd8_v226 : (StableHlo.after hostOps8 V (Proc.devRef .tc main_v226)) = (Host.divf : (⟨S3000x256, .f32⟩ : BufTy).Contents (Elt F) → (⟨S3000x256, .f32⟩ : BufTy).Contents (Elt F) → (⟨S3000x256, .f32⟩ : BufTy).Contents (Elt F)) (StableHlo.after hostOps8 V (Proc.devRef .tc main_v224)) (StableHlo.after hostOps8 V (Proc.devRef .tc main_v225)) :=
  Sage.after_binary (a := main_v224) (b := main_v225) (y := main_v226) (f := (Host.divf : (⟨S3000x256, .f32⟩ : BufTy).Contents (Elt F) → (⟨S3000x256, .f32⟩ : BufTy).Contents (Elt F) → (⟨S3000x256, .f32⟩ : BufTy).Contents (Elt F))) hostOps8_writes 44 V rfl (by decide) (by decide) (by decide)

/-- Position 45 of host stretch 8: `c_49` from no operand. -/
theorem rd8_c_49 : (StableHlo.after hostOps8 V (Proc.devRef .tc main_c_49)) = ((constantI S_ 32 0#32) : (⟨S_, .i32⟩ : BufTy).Contents (Elt F)) :=
  Sage.after_nullary (y := main_c_49) hostOps8_writes 45 V rfl (by decide)

/-- Position 46 of host stretch 8: `v227` from `c_49`. -/
theorem rd8_v227 : (StableHlo.after hostOps8 V (Proc.devRef .tc main_v227)) = (broadcastInDim S400000 ![] bcast_S_S400000 : (⟨S_, .i32⟩ : BufTy).Contents (Elt F) → (⟨S400000, .i32⟩ : BufTy).Contents (Elt F)) (StableHlo.after hostOps8 V (Proc.devRef .tc main_c_49)) :=
  Sage.after_unary (x := main_c_49) (y := main_v227) (f := (broadcastInDim S400000 ![] bcast_S_S400000 : (⟨S_, .i32⟩ : BufTy).Contents (Elt F) → (⟨S400000, .i32⟩ : BufTy).Contents (Elt F))) hostOps8_writes 46 V rfl (by decide) (by decide)

/-- Position 47 of host stretch 8: `v228` from `arg20`, `v227`. -/
theorem rd8_v228 : (StableHlo.after hostOps8 V (Proc.devRef .tc main_v228)) = (cmpi .slt : (⟨S400000, .i32⟩ : BufTy).Contents (Elt F) → (⟨S400000, .i32⟩ : BufTy).Contents (Elt F) → (⟨S400000, .i1⟩ : BufTy).Contents (Elt F)) (StableHlo.after hostOps8 V (Proc.devRef .tc main_arg20)) (StableHlo.after hostOps8 V (Proc.devRef .tc main_v227)) :=
  Sage.after_binary (a := main_arg20) (b := main_v227) (y := main_v228) (f := (cmpi .slt : (⟨S400000, .i32⟩ : BufTy).Contents (Elt F) → (⟨S400000, .i32⟩ : BufTy).Contents (Elt F) → (⟨S400000, .i1⟩ : BufTy).Contents (Elt F))) hostOps8_writes 47 V rfl (by decide) (by decide) (by decide)

/-- Position 48 of host stretch 8: `c_50` from no operand. -/
theorem rd8_c_50 : (StableHlo.after hostOps8 V (Proc.devRef .tc main_c_50)) = ((constantI S_ 32 50000#32) : (⟨S_, .i32⟩ : BufTy).Contents (Elt F)) :=
  Sage.after_nullary (y := main_c_50) hostOps8_writes 48 V rfl (by decide)

/-- Position 49 of host stretch 8: `v229` from `c_50`. -/
theorem rd8_v229 : (StableHlo.after hostOps8 V (Proc.devRef .tc main_v229)) = (broadcastInDim S400000 ![] bcast_S_S400000 : (⟨S_, .i32⟩ : BufTy).Contents (Elt F) → (⟨S400000, .i32⟩ : BufTy).Contents (Elt F)) (StableHlo.after hostOps8 V (Proc.devRef .tc main_c_50)) :=
  Sage.after_unary (x := main_c_50) (y := main_v229) (f := (broadcastInDim S400000 ![] bcast_S_S400000 : (⟨S_, .i32⟩ : BufTy).Contents (Elt F) → (⟨S400000, .i32⟩ : BufTy).Contents (Elt F))) hostOps8_writes 49 V rfl (by decide) (by decide)

/-- Position 50 of host stretch 8: `v230` from `arg20`, `v229`. -/
theorem rd8_v230 : (StableHlo.after hostOps8 V (Proc.devRef .tc main_v230)) = (addi : (⟨S400000, .i32⟩ : BufTy).Contents (Elt F) → (⟨S400000, .i32⟩ : BufTy).Contents (Elt F) → (⟨S400000, .i32⟩ : BufTy).Contents (Elt F)) (StableHlo.after hostOps8 V (Proc.devRef .tc main_arg20)) (StableHlo.after hostOps8 V (Proc.devRef .tc main_v229)) :=
  Sage.after_binary (a := main_arg20) (b := main_v229) (y := main_v230) (f := (addi : (⟨S400000, .i32⟩ : BufTy).Contents (Elt F) → (⟨S400000, .i32⟩ : BufTy).Contents (Elt F) → (⟨S400000, .i32⟩ : BufTy).Contents (Elt F))) hostOps8_writes 50 V rfl (by decide) (by decide) (by decide)

/-- Position 51 of host stretch 8: `v231` from `v228`, `v230`, `arg20`. -/
theorem rd8_v231 : (StableHlo.after hostOps8 V (Proc.devRef .tc main_v231)) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (StableHlo.after hostOps8 V (Proc.devRef .tc main_v228)) (StableHlo.after hostOps8 V (Proc.devRef .tc main_v230)) (StableHlo.after hostOps8 V (Proc.devRef .tc main_arg20)) :=
  Sage.after_ternary (c := main_v228) (a := main_v230) (b := main_arg20) (y := main_v231) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) hostOps8_writes 51 V rfl (by decide) (by decide) (by decide) (by decide)

/-- Position 52 of host stretch 8: `v232` from `v231`. -/
theorem rd8_v232 : (StableHlo.after hostOps8 V (Proc.devRef .tc main_v232)) = (broadcastInDim S400000x1 ![0] bcast_S400000_S400000x1_0 : (⟨S400000, .i32⟩ : BufTy).Contents (Elt F) → (⟨S400000x1, .i32⟩ : BufTy).Contents (Elt F)) (StableHlo.after hostOps8 V (Proc.devRef .tc main_v231)) :=
  Sage.after_unary (x := main_v231) (y := main_v232) (f := (broadcastInDim S400000x1 ![0] bcast_S400000_S400000x1_0 : (⟨S400000, .i32⟩ : BufTy).Contents (Elt F) → (⟨S400000x1, .i32⟩ : BufTy).Contents (Elt F))) hostOps8_writes 52 V rfl (by decide) (by decide)

/-- Position 53 of host stretch 8: `v233` from `v184`, `v232`. -/
theorem rd8_v233 : (StableHlo.after hostOps8 V (Proc.devRef .tc main_v233)) = ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)) (StableHlo.after hostOps8 V (Proc.devRef .tc main_v184)) (StableHlo.after hostOps8 V (Proc.devRef .tc main_v232)) :=
  Sage.after_binary (a := main_v184) (b := main_v232) (y := main_v233) (f := ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F))) hostOps8_writes 53 V rfl (by decide) (by decide) (by decide)

/-- Position 54 of host stretch 8: `cst_51` from no operand. -/
theorem rd8_cst_51 : (StableHlo.after hostOps8 V (Proc.devRef .tc main_cst_51)) = ((constant S_ .f32 0x00000000#32) : (⟨S_, .f32⟩ : BufTy).Contents (Elt F)) :=
  Sage.after_nullary (y := main_cst_51) hostOps8_writes 54 V rfl (by decide)

/-- Position 55 of host stretch 8: `v234` from `cst_51`. -/
theorem rd8_v234 : (StableHlo.after hostOps8 V (Proc.devRef .tc main_v234)) = (broadcastInDim S10000x256 ![] bcast_S_S10000x256 : (⟨S_, .f32⟩ : BufTy).Contents (Elt F) → (⟨S10000x256, .f32⟩ : BufTy).Contents (Elt F)) (StableHlo.after hostOps8 V (Proc.devRef .tc main_cst_51)) :=
  Sage.after_unary (x := main_cst_51) (y := main_v234) (f := (broadcastInDim S10000x256 ![] bcast_S_S10000x256 : (⟨S_, .f32⟩ : BufTy).Contents (Elt F) → (⟨S10000x256, .f32⟩ : BufTy).Contents (Elt F))) hostOps8_writes 55 V rfl (by decide) (by decide)

/-- Position 56 of host stretch 8: `v235` from `arg21`. -/
theorem rd8_v235 : (StableHlo.after hostOps8 V (Proc.devRef .tc main_v235)) = (broadcastInDim S400000x1 ![0] bcast_S400000_S400000x1_0 : (⟨S400000, .i32⟩ : BufTy).Contents (Elt F) → (⟨S400000x1, .i32⟩ : BufTy).Contents (Elt F)) (StableHlo.after hostOps8 V (Proc.devRef .tc main_arg21)) :=
  Sage.after_unary (x := main_arg21) (y := main_v235) (f := (broadcastInDim S400000x1 ![0] bcast_S400000_S400000x1_0 : (⟨S400000, .i32⟩ : BufTy).Contents (Elt F) → (⟨S400000x1, .i32⟩ : BufTy).Contents (Elt F))) hostOps8_writes 56 V rfl (by decide) (by decide)

/-- Position 57 of host stretch 8: `v236` from `v234`, `v235`, `v233`. -/
theorem rd8_v236 : (StableHlo.after hostOps8 V (Proc.devRef .tc main_v236)) = ((fun x i u => Host.scatterAdd scatter_S10000x256_S400000x1_S400000x256_1_0_0_1 x i u) : (⟨S10000x256, .f32⟩ : BufTy).Contents (Elt F) → (⟨S400000x1, .i32⟩ : BufTy).Contents (Elt F) → (⟨S400000x256, .f32⟩ : BufTy).Contents (Elt F) → (⟨S10000x256, .f32⟩ : BufTy).Contents (Elt F)) (StableHlo.after hostOps8 V (Proc.devRef .tc main_v234)) (StableHlo.after hostOps8 V (Proc.devRef .tc main_v235)) (StableHlo.after hostOps8 V (Proc.devRef .tc main_v233)) :=
  Sage.after_ternary (c := main_v234) (a := main_v235) (b := main_v233) (y := main_v236) (f := ((fun x i u => Host.scatterAdd scatter_S10000x256_S400000x1_S400000x256_1_0_0_1 x i u) : (⟨S10000x256, .f32⟩ : BufTy).Contents (Elt F) → (⟨S400000x1, .i32⟩ : BufTy).Contents (Elt F) → (⟨S400000x256, .f32⟩ : BufTy).Contents (Elt F) → (⟨S10000x256, .f32⟩ : BufTy).Contents (Elt F))) hostOps8_writes 57 V rfl (by decide) (by decide) (by decide) (by decide)

/-- Position 58 of host stretch 8: `v237` from `v23`. -/
theorem rd8_v237 : (StableHlo.after hostOps8 V (Proc.devRef .tc main_v237)) = (broadcastInDim S10000x256 ![0, 1] bcast_S10000x1_S10000x256_0_1 : (⟨S10000x1, .f32⟩ : BufTy).Contents (Elt F) → (⟨S10000x256, .f32⟩ : BufTy).Contents (Elt F)) (StableHlo.after hostOps8 V (Proc.devRef .tc main_v23)) :=
  Sage.after_unary (x := main_v23) (y := main_v237) (f := (broadcastInDim S10000x256 ![0, 1] bcast_S10000x1_S10000x256_0_1 : (⟨S10000x1, .f32⟩ : BufTy).Contents (Elt F) → (⟨S10000x256, .f32⟩ : BufTy).Contents (Elt F))) hostOps8_writes 58 V rfl (by decide) (by decide)

/-- Position 59 of host stretch 8: `v238` from `v236`, `v237`. -/
theorem rd8_v238 : (StableHlo.after hostOps8 V (Proc.devRef .tc main_v238)) = (Host.divf : (⟨S10000x256, .f32⟩ : BufTy).Contents (Elt F) → (⟨S10000x256, .f32⟩ : BufTy).Contents (Elt F) → (⟨S10000x256, .f32⟩ : BufTy).Contents (Elt F)) (StableHlo.after hostOps8 V (Proc.devRef .tc main_v236)) (StableHlo.after hostOps8 V (Proc.devRef .tc main_v237)) :=
  Sage.after_binary (a := main_v236) (b := main_v237) (y := main_v238) (f := (Host.divf : (⟨S10000x256, .f32⟩ : BufTy).Contents (Elt F) → (⟨S10000x256, .f32⟩ : BufTy).Contents (Elt F) → (⟨S10000x256, .f32⟩ : BufTy).Contents (Elt F))) hostOps8_writes 59 V rfl (by decide) (by decide) (by decide)

/-- Position 60 of host stretch 8: `c_52` from no operand. -/
theorem rd8_c_52 : (StableHlo.after hostOps8 V (Proc.devRef .tc main_c_52)) = ((constantI S_ 32 0#32) : (⟨S_, .i32⟩ : BufTy).Contents (Elt F)) :=
  Sage.after_nullary (y := main_c_52) hostOps8_writes 60 V rfl (by decide)

/-- Position 61 of host stretch 8: `v239` from `c_52`. -/
theorem rd8_v239 : (StableHlo.after hostOps8 V (Proc.devRef .tc main_v239)) = (broadcastInDim S500000 ![] bcast_S_S500000 : (⟨S_, .i32⟩ : BufTy).Contents (Elt F) → (⟨S500000, .i32⟩ : BufTy).Contents (Elt F)) (StableHlo.after hostOps8 V (Proc.devRef .tc main_c_52)) :=
  Sage.after_unary (x := main_c_52) (y := main_v239) (f := (broadcastInDim S500000 ![] bcast_S_S500000 : (⟨S_, .i32⟩ : BufTy).Contents (Elt F) → (⟨S500000, .i32⟩ : BufTy).Contents (Elt F))) hostOps8_writes 61 V rfl (by decide) (by decide)

/-- Position 62 of host stretch 8: `v240` from `arg22`, `v239`. -/
theorem rd8_v240 : (StableHlo.after hostOps8 V (Proc.devRef .tc main_v240)) = (cmpi .slt : (⟨S500000, .i32⟩ : BufTy).Contents (Elt F) → (⟨S500000, .i32⟩ : BufTy).Contents (Elt F) → (⟨S500000, .i1⟩ : BufTy).Contents (Elt F)) (StableHlo.after hostOps8 V (Proc.devRef .tc main_arg22)) (StableHlo.after hostOps8 V (Proc.devRef .tc main_v239)) :=
  Sage.after_binary (a := main_arg22) (b := main_v239) (y := main_v240) (f := (cmpi .slt : (⟨S500000, .i32⟩ : BufTy).Contents (Elt F) → (⟨S500000, .i32⟩ : BufTy).Contents (Elt F) → (⟨S500000, .i1⟩ : BufTy).Contents (Elt F))) hostOps8_writes 62 V rfl (by decide) (by decide) (by decide)

/-- Position 63 of host stretch 8: `c_53` from no operand. -/
theorem rd8_c_53 : (StableHlo.after hostOps8 V (Proc.devRef .tc main_c_53)) = ((constantI S_ 32 10000#32) : (⟨S_, .i32⟩ : BufTy).Contents (Elt F)) :=
  Sage.after_nullary (y := main_c_53) hostOps8_writes 63 V rfl (by decide)

/-- Position 64 of host stretch 8: `v241` from `c_53`. -/
theorem rd8_v241 : (StableHlo.after hostOps8 V (Proc.devRef .tc main_v241)) = (broadcastInDim S500000 ![] bcast_S_S500000 : (⟨S_, .i32⟩ : BufTy).Contents (Elt F) → (⟨S500000, .i32⟩ : BufTy).Contents (Elt F)) (StableHlo.after hostOps8 V (Proc.devRef .tc main_c_53)) :=
  Sage.after_unary (x := main_c_53) (y := main_v241) (f := (broadcastInDim S500000 ![] bcast_S_S500000 : (⟨S_, .i32⟩ : BufTy).Contents (Elt F) → (⟨S500000, .i32⟩ : BufTy).Contents (Elt F))) hostOps8_writes 64 V rfl (by decide) (by decide)

/-- Position 65 of host stretch 8: `v242` from `arg22`, `v241`. -/
theorem rd8_v242 : (StableHlo.after hostOps8 V (Proc.devRef .tc main_v242)) = (addi : (⟨S500000, .i32⟩ : BufTy).Contents (Elt F) → (⟨S500000, .i32⟩ : BufTy).Contents (Elt F) → (⟨S500000, .i32⟩ : BufTy).Contents (Elt F)) (StableHlo.after hostOps8 V (Proc.devRef .tc main_arg22)) (StableHlo.after hostOps8 V (Proc.devRef .tc main_v241)) :=
  Sage.after_binary (a := main_arg22) (b := main_v241) (y := main_v242) (f := (addi : (⟨S500000, .i32⟩ : BufTy).Contents (Elt F) → (⟨S500000, .i32⟩ : BufTy).Contents (Elt F) → (⟨S500000, .i32⟩ : BufTy).Contents (Elt F))) hostOps8_writes 65 V rfl (by decide) (by decide) (by decide)

/-- Position 66 of host stretch 8: `v243` from `v240`, `v242`, `arg22`. -/
theorem rd8_v243 : (StableHlo.after hostOps8 V (Proc.devRef .tc main_v243)) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (StableHlo.after hostOps8 V (Proc.devRef .tc main_v240)) (StableHlo.after hostOps8 V (Proc.devRef .tc main_v242)) (StableHlo.after hostOps8 V (Proc.devRef .tc main_arg22)) :=
  Sage.after_ternary (c := main_v240) (a := main_v242) (b := main_arg22) (y := main_v243) (f := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))) hostOps8_writes 66 V rfl (by decide) (by decide) (by decide) (by decide)

/-- Position 67 of host stretch 8: `v244` from `v243`. -/
theorem rd8_v244 : (StableHlo.after hostOps8 V (Proc.devRef .tc main_v244)) = (broadcastInDim S500000x1 ![0] bcast_S500000_S500000x1_0 : (⟨S500000, .i32⟩ : BufTy).Contents (Elt F) → (⟨S500000x1, .i32⟩ : BufTy).Contents (Elt F)) (StableHlo.after hostOps8 V (Proc.devRef .tc main_v243)) :=
  Sage.after_unary (x := main_v243) (y := main_v244) (f := (broadcastInDim S500000x1 ![0] bcast_S500000_S500000x1_0 : (⟨S500000, .i32⟩ : BufTy).Contents (Elt F) → (⟨S500000x1, .i32⟩ : BufTy).Contents (Elt F))) hostOps8_writes 67 V rfl (by decide) (by decide)

/-- Position 68 of host stretch 8: `v245` from `v187`, `v244`. -/
theorem rd8_v245 : (StableHlo.after hostOps8 V (Proc.devRef .tc main_v245)) = ((fun x i => Host.gather gather_S10000x256_S500000x1_S500000x256_1_0_n_n_0_1_1256 x i) : (⟨S10000x256, .f32⟩ : BufTy).Contents (Elt F) → (⟨S500000x1, .i32⟩ : BufTy).Contents (Elt F) → (⟨S500000x256, .f32⟩ : BufTy).Contents (Elt F)) (StableHlo.after hostOps8 V (Proc.devRef .tc main_v187)) (StableHlo.after hostOps8 V (Proc.devRef .tc main_v244)) :=
  Sage.after_binary (a := main_v187) (b := main_v244) (y := main_v245) (f := ((fun x i => Host.gather gather_S10000x256_S500000x1_S500000x256_1_0_n_n_0_1_1256 x i) : (⟨S10000x256, .f32⟩ : BufTy).Contents (Elt F) → (⟨S500000x1, .i32⟩ : BufTy).Contents (Elt F) → (⟨S500000x256, .f32⟩ : BufTy).Contents (Elt F))) hostOps8_writes 68 V rfl (by decide) (by decide) (by decide)

/-- Position 69 of host stretch 8: `cst_54` from no operand. -/
theorem rd8_cst_54 : (StableHlo.after hostOps8 V (Proc.devRef .tc main_cst_54)) = ((constant S_ .f32 0x00000000#32) : (⟨S_, .f32⟩ : BufTy).Contents (Elt F)) :=
  Sage.after_nullary (y := main_cst_54) hostOps8_writes 69 V rfl (by decide)

/-- Position 70 of host stretch 8: `v246` from `cst_54`. -/
theorem rd8_v246 : (StableHlo.after hostOps8 V (Proc.devRef .tc main_v246)) = (broadcastInDim S20000x256 ![] bcast_S_S20000x256 : (⟨S_, .f32⟩ : BufTy).Contents (Elt F) → (⟨S20000x256, .f32⟩ : BufTy).Contents (Elt F)) (StableHlo.after hostOps8 V (Proc.devRef .tc main_cst_54)) :=
  Sage.after_unary (x := main_cst_54) (y := main_v246) (f := (broadcastInDim S20000x256 ![] bcast_S_S20000x256 : (⟨S_, .f32⟩ : BufTy).Contents (Elt F) → (⟨S20000x256, .f32⟩ : BufTy).Contents (Elt F))) hostOps8_writes 70 V rfl (by decide) (by decide)

/-- Position 71 of host stretch 8: `v247` from `arg23`. -/
theorem rd8_v247 : (StableHlo.after hostOps8 V (Proc.devRef .tc main_v247)) = (broadcastInDim S500000x1 ![0] bcast_S500000_S500000x1_0 : (⟨S500000, .i32⟩ : BufTy).Contents (Elt F) → (⟨S500000x1, .i32⟩ : BufTy).Contents (Elt F)) (StableHlo.after hostOps8 V (Proc.devRef .tc main_arg23)) :=
  Sage.after_unary (x := main_arg23) (y := main_v247) (f := (broadcastInDim S500000x1 ![0] bcast_S500000_S500000x1_0 : (⟨S500000, .i32⟩ : BufTy).Contents (Elt F) → (⟨S500000x1, .i32⟩ : BufTy).Contents (Elt F))) hostOps8_writes 71 V rfl (by decide) (by decide)

/-- Position 72 of host stretch 8: `v248` from `v246`, `v247`, `v245`. -/
theorem rd8_v248 : (StableHlo.after hostOps8 V (Proc.devRef .tc main_v248)) = ((fun x i u => Host.scatterAdd scatter_S20000x256_S500000x1_S500000x256_1_0_0_1 x i u) : (⟨S20000x256, .f32⟩ : BufTy).Contents (Elt F) → (⟨S500000x1, .i32⟩ : BufTy).Contents (Elt F) → (⟨S500000x256, .f32⟩ : BufTy).Contents (Elt F) → (⟨S20000x256, .f32⟩ : BufTy).Contents (Elt F)) (StableHlo.after hostOps8 V (Proc.devRef .tc main_v246)) (StableHlo.after hostOps8 V (Proc.devRef .tc main_v247)) (StableHlo.after hostOps8 V (Proc.devRef .tc main_v245)) :=
  Sage.after_ternary (c := main_v246) (a := main_v247) (b := main_v245) (y := main_v248) (f := ((fun x i u => Host.scatterAdd scatter_S20000x256_S500000x1_S500000x256_1_0_0_1 x i u) : (⟨S20000x256, .f32⟩ : BufTy).Contents (Elt F) → (⟨S500000x1, .i32⟩ : BufTy).Contents (Elt F) → (⟨S500000x256, .f32⟩ : BufTy).Contents (Elt F) → (⟨S20000x256, .f32⟩ : BufTy).Contents (Elt F))) hostOps8_writes 72 V rfl (by decide) (by decide) (by decide) (by decide)

/-- Position 73 of host stretch 8: `v249` from `v29`. -/
theorem rd8_v249 : (StableHlo.after hostOps8 V (Proc.devRef .tc main_v249)) = (broadcastInDim S20000x256 ![0, 1] bcast_S20000x1_S20000x256_0_1 : (⟨S20000x1, .f32⟩ : BufTy).Contents (Elt F) → (⟨S20000x256, .f32⟩ : BufTy).Contents (Elt F)) (StableHlo.after hostOps8 V (Proc.devRef .tc main_v29)) :=
  Sage.after_unary (x := main_v29) (y := main_v249) (f := (broadcastInDim S20000x256 ![0, 1] bcast_S20000x1_S20000x256_0_1 : (⟨S20000x1, .f32⟩ : BufTy).Contents (Elt F) → (⟨S20000x256, .f32⟩ : BufTy).Contents (Elt F))) hostOps8_writes 73 V rfl (by decide) (by decide)

/-- Position 74 of host stretch 8: `v250` from `v248`, `v249`. -/
theorem rd8_v250 : (StableHlo.after hostOps8 V (Proc.devRef .tc main_v250)) = (Host.divf : (⟨S20000x256, .f32⟩ : BufTy).Contents (Elt F) → (⟨S20000x256, .f32⟩ : BufTy).Contents (Elt F) → (⟨S20000x256, .f32⟩ : BufTy).Contents (Elt F)) (StableHlo.after hostOps8 V (Proc.devRef .tc main_v248)) (StableHlo.after hostOps8 V (Proc.devRef .tc main_v249)) :=
  Sage.after_binary (a := main_v248) (b := main_v249) (y := main_v250) (f := (Host.divf : (⟨S20000x256, .f32⟩ : BufTy).Contents (Elt F) → (⟨S20000x256, .f32⟩ : BufTy).Contents (Elt F) → (⟨S20000x256, .f32⟩ : BufTy).Contents (Elt F))) hostOps8_writes 74 V rfl (by decide) (by decide) (by decide)

/-- Position 75 of host stretch 8: `c_55` from no operand. -/
theorem rd8_c_55 : (StableHlo.after hostOps8 V (Proc.devRef .tc main_c_55)) = ((constantI S_ 32 0#32) : (⟨S_, .i32⟩ : BufTy).Contents (Elt F)) :=
  Sage.after_nullary (y := main_c_55) hostOps8_writes 75 V rfl (by decide)

/-- Position 76 of host stretch 8: `v251` from `c_55`. -/
theorem rd8_v251 : (StableHlo.after hostOps8 V (Proc.devRef .tc main_v251)) = (broadcastInDim S400000 ![] bcast_S_S400000 : (⟨S_, .i32⟩ : BufTy).Contents (Elt F) → (⟨S400000, .i32⟩ : BufTy).Contents (Elt F)) (StableHlo.after hostOps8 V (Proc.devRef .tc main_c_55)) :=
  Sage.after_unary (x := main_c_55) (y := main_v251) (f := (broadcastInDim S400000 ![] bcast_S_S400000 : (⟨S_, .i32⟩ : BufTy).Contents (Elt F) → (⟨S400000, .i32⟩ : BufTy).Contents (Elt F))) hostOps8_writes 76 V rfl (by decide) (by decide)

/-- Position 77 of host stretch 8: `v252` from `arg24`, `v251`. -/
theorem rd8_v252 : (StableHlo.after hostOps8 V (Proc.devRef .tc main_v252)) = (cmpi .slt : (⟨S400000, .i32⟩ : BufTy).Contents (Elt F) → (⟨S400000, .i32⟩ : BufTy).Contents (Elt F) → (⟨S400000, .i1⟩ : BufTy).Contents (Elt F)) (StableHlo.after hostOps8 V (Proc.devRef .tc main_arg24)) (StableHlo.after hostOps8 V (Proc.devRef .tc main_v251)) :=
  Sage.after_binary (a := main_arg24) (b := main_v251) (y := main_v252) (f := (cmpi .slt : (⟨S400000, .i32⟩ : BufTy).Contents (Elt F) → (⟨S400000, .i32⟩ : BufTy).Contents (Elt F) → (⟨S400000, .i1⟩ : BufTy).Contents (Elt F))) hostOps8_writes 77 V rfl (by decide) (by decide) (by decide)

/-- Position 78 of host stretch 8: `c_56` from no operand. -/
theorem rd8_c_56 : (StableHlo.after hostOps8 V (Proc.devRef .tc main_c_56)) = ((constantI S_ 32 50000#32) : (⟨S_, .i32⟩ : BufTy).Contents (Elt F)) :=
  Sage.after_nullary (y := main_c_56) hostOps8_writes 78 V rfl (by decide)

/-- Position 79 of host stretch 8: `v253` from `c_56`. -/
theorem rd8_v253 : (StableHlo.after hostOps8 V (Proc.devRef .tc main_v253)) = (broadcastInDim S400000 ![] bcast_S_S400000 : (⟨S_, .i32⟩ : BufTy).Contents (Elt F) → (⟨S400000, .i32⟩ : BufTy).Contents (Elt F)) (StableHlo.after hostOps8 V (Proc.devRef .tc main_c_56)) :=
  Sage.after_unary (x := main_c_56) (y := main_v253) (f := (broadcastInDim S400000 ![] bcast_S_S400000 : (⟨S_, .i32⟩ : BufTy).Contents (Elt F) → (⟨S400000, .i32⟩ : BufTy).Contents (Elt F))) hostOps8_writes 79 V rfl (by decide) (by decide)

/-- Position 80 of host stretch 8: `v254` from `arg24`, `v253`. -/
theorem rd8_v254 : (StableHlo.after hostOps8 V (Proc.devRef .tc main_v254)) = (addi : (⟨S400000, .i32⟩ : BufTy).Contents (Elt F) → (⟨S400000, .i32⟩ : BufTy).Contents (Elt F) → (⟨S400000, .i32⟩ : BufTy).Contents (Elt F)) (StableHlo.after hostOps8 V (Proc.devRef .tc main_arg24)) (StableHlo.after hostOps8 V (Proc.devRef .tc main_v253)) :=
  Sage.after_binary (a := main_arg24) (b := main_v253) (y := main_v254) (f := (addi : (⟨S400000, .i32⟩ : BufTy).Contents (Elt F) → (⟨S400000, .i32⟩ : BufTy).Contents (Elt F) → (⟨S400000, .i32⟩ : BufTy).Contents (Elt F))) hostOps8_writes 80 V rfl (by decide) (by decide) (by decide)

/-- Position 81 of host stretch 8: `v255` from `v252`, `v254`, `arg24`. -/
theorem rd8_v255 : (StableHlo.after hostOps8 V (Proc.devRef .tc main_v255)) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (StableHlo.after hostOps8 V (Proc.devRef .tc main_v252)) (StableHlo.after hostOps8 V (Proc.devRef .tc main_v254)) (StableHlo.after hostOps8 V (Proc.devRef .tc main_arg24)) :=
  Sage.after_ternary (c := main_v252) (a := main_v254) (b := main_arg24) (y := main_v255) (f := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))) hostOps8_writes 81 V rfl (by decide) (by decide) (by decide) (by decide)

/-- Position 82 of host stretch 8: `v256` from `v255`. -/
theorem rd8_v256 : (StableHlo.after hostOps8 V (Proc.devRef .tc main_v256)) = (broadcastInDim S400000x1 ![0] bcast_S400000_S400000x1_0 : (⟨S400000, .i32⟩ : BufTy).Contents (Elt F) → (⟨S400000x1, .i32⟩ : BufTy).Contents (Elt F)) (StableHlo.after hostOps8 V (Proc.devRef .tc main_v255)) :=
  Sage.after_unary (x := main_v255) (y := main_v256) (f := (broadcastInDim S400000x1 ![0] bcast_S400000_S400000x1_0 : (⟨S400000, .i32⟩ : BufTy).Contents (Elt F) → (⟨S400000x1, .i32⟩ : BufTy).Contents (Elt F))) hostOps8_writes 82 V rfl (by decide) (by decide)

/-- Position 83 of host stretch 8: `v257` from `v184`, `v256`. -/
theorem rd8_v257 : (StableHlo.after hostOps8 V (Proc.devRef .tc main_v257)) = ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)) (StableHlo.after hostOps8 V (Proc.devRef .tc main_v184)) (StableHlo.after hostOps8 V (Proc.devRef .tc main_v256)) :=
  Sage.after_binary (a := main_v184) (b := main_v256) (y := main_v257) (f := ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F))) hostOps8_writes 83 V rfl (by decide) (by decide) (by decide)

/-- Position 84 of host stretch 8: `cst_57` from no operand. -/
theorem rd8_cst_57 : (StableHlo.after hostOps8 V (Proc.devRef .tc main_cst_57)) = ((constant S_ .f32 0x00000000#32) : (⟨S_, .f32⟩ : BufTy).Contents (Elt F)) :=
  Sage.after_nullary (y := main_cst_57) hostOps8_writes 84 V rfl (by decide)

/-- Position 85 of host stretch 8: `v258` from `cst_57`. -/
theorem rd8_v258 : (StableHlo.after hostOps8 V (Proc.devRef .tc main_v258)) = (broadcastInDim S20000x256 ![] bcast_S_S20000x256 : (⟨S_, .f32⟩ : BufTy).Contents (Elt F) → (⟨S20000x256, .f32⟩ : BufTy).Contents (Elt F)) (StableHlo.after hostOps8 V (Proc.devRef .tc main_cst_57)) :=
  Sage.after_unary (x := main_cst_57) (y := main_v258) (f := (broadcastInDim S20000x256 ![] bcast_S_S20000x256 : (⟨S_, .f32⟩ : BufTy).Contents (Elt F) → (⟨S20000x256, .f32⟩ : BufTy).Contents (Elt F))) hostOps8_writes 85 V rfl (by decide) (by decide)

/-- Position 86 of host stretch 8: `v259` from `arg25`. -/
theorem rd8_v259 : (StableHlo.after hostOps8 V (Proc.devRef .tc main_v259)) = (broadcastInDim S400000x1 ![0] bcast_S400000_S400000x1_0 : (⟨S400000, .i32⟩ : BufTy).Contents (Elt F) → (⟨S400000x1, .i32⟩ : BufTy).Contents (Elt F)) (StableHlo.after hostOps8 V (Proc.devRef .tc main_arg25)) :=
  Sage.after_unary (x := main_arg25) (y := main_v259) (f := (broadcastInDim S400000x1 ![0] bcast_S400000_S400000x1_0 : (⟨S400000, .i32⟩ : BufTy).Contents (Elt F) → (⟨S400000x1, .i32⟩ : BufTy).Contents (Elt F))) hostOps8_writes 86 V rfl (by decide) (by decide)

/-- Position 87 of host stretch 8: `v260` from `v258`, `v259`, `v257`. -/
theorem rd8_v260 : (StableHlo.after hostOps8 V (Proc.devRef .tc main_v260)) = ((fun x i u => Host.scatterAdd scatter_S20000x256_S400000x1_S400000x256_1_0_0_1 x i u) : (⟨S20000x256, .f32⟩ : BufTy).Contents (Elt F) → (⟨S400000x1, .i32⟩ : BufTy).Contents (Elt F) → (⟨S400000x256, .f32⟩ : BufTy).Contents (Elt F) → (⟨S20000x256, .f32⟩ : BufTy).Contents (Elt F)) (StableHlo.after hostOps8 V (Proc.devRef .tc main_v258)) (StableHlo.after hostOps8 V (Proc.devRef .tc main_v259)) (StableHlo.after hostOps8 V (Proc.devRef .tc main_v257)) :=
  Sage.after_ternary (c := main_v258) (a := main_v259) (b := main_v257) (y := main_v260) (f := ((fun x i u => Host.scatterAdd scatter_S20000x256_S400000x1_S400000x256_1_0_0_1 x i u) : (⟨S20000x256, .f32⟩ : BufTy).Contents (Elt F) → (⟨S400000x1, .i32⟩ : BufTy).Contents (Elt F) → (⟨S400000x256, .f32⟩ : BufTy).Contents (Elt F) → (⟨S20000x256, .f32⟩ : BufTy).Contents (Elt F))) hostOps8_writes 87 V rfl (by decide) (by decide) (by decide) (by decide)

/-- Position 88 of host stretch 8: `v261` from `v35`. -/
theorem rd8_v261 : (StableHlo.after hostOps8 V (Proc.devRef .tc main_v261)) = (broadcastInDim S20000x256 ![0, 1] bcast_S20000x1_S20000x256_0_1 : (⟨S20000x1, .f32⟩ : BufTy).Contents (Elt F) → (⟨S20000x256, .f32⟩ : BufTy).Contents (Elt F)) (StableHlo.after hostOps8 V (Proc.devRef .tc main_v35)) :=
  Sage.after_unary (x := main_v35) (y := main_v261) (f := (broadcastInDim S20000x256 ![0, 1] bcast_S20000x1_S20000x256_0_1 : (⟨S20000x1, .f32⟩ : BufTy).Contents (Elt F) → (⟨S20000x256, .f32⟩ : BufTy).Contents (Elt F))) hostOps8_writes 88 V rfl (by decide) (by decide)

/-- Position 89 of host stretch 8: `v262` from `v260`, `v261`. -/
theorem rd8_v262 : (StableHlo.after hostOps8 V (Proc.devRef .tc main_v262)) = (Host.divf : (⟨S20000x256, .f32⟩ : BufTy).Contents (Elt F) → (⟨S20000x256, .f32⟩ : BufTy).Contents (Elt F) → (⟨S20000x256, .f32⟩ : BufTy).Contents (Elt F)) (StableHlo.after hostOps8 V (Proc.devRef .tc main_v260)) (StableHlo.after hostOps8 V (Proc.devRef .tc main_v261)) :=
  Sage.after_binary (a := main_v260) (b := main_v261) (y := main_v262) (f := (Host.divf : (⟨S20000x256, .f32⟩ : BufTy).Contents (Elt F) → (⟨S20000x256, .f32⟩ : BufTy).Contents (Elt F) → (⟨S20000x256, .f32⟩ : BufTy).Contents (Elt F))) hostOps8_writes 89 V rfl (by decide) (by decide) (by decide)

/-- Position 90 of host stretch 8: `c_58` from no operand. -/
theorem rd8_c_58 : (StableHlo.after hostOps8 V (Proc.devRef .tc main_c_58)) = ((constantI S_ 32 0#32) : (⟨S_, .i32⟩ : BufTy).Contents (Elt F)) :=
  Sage.after_nullary (y := main_c_58) hostOps8_writes 90 V rfl (by decide)

/-- Position 91 of host stretch 8: `v263` from `c_58`. -/
theorem rd8_v263 : (StableHlo.after hostOps8 V (Proc.devRef .tc main_v263)) = (broadcastInDim S150000 ![] bcast_S_S150000 : (⟨S_, .i32⟩ : BufTy).Contents (Elt F) → (⟨S150000, .i32⟩ : BufTy).Contents (Elt F)) (StableHlo.after hostOps8 V (Proc.devRef .tc main_c_58)) :=
  Sage.after_unary (x := main_c_58) (y := main_v263) (f := (broadcastInDim S150000 ![] bcast_S_S150000 : (⟨S_, .i32⟩ : BufTy).Contents (Elt F) → (⟨S150000, .i32⟩ : BufTy).Contents (Elt F))) hostOps8_writes 91 V rfl (by decide) (by decide)

/-- Position 92 of host stretch 8: `v264` from `arg26`, `v263`. -/
theorem rd8_v264 : (StableHlo.after hostOps8 V (Proc.devRef .tc main_v264)) = (cmpi .slt : (⟨S150000, .i32⟩ : BufTy).Contents (Elt F) → (⟨S150000, .i32⟩ : BufTy).Contents (Elt F) → (⟨S150000, .i1⟩ : BufTy).Contents (Elt F)) (StableHlo.after hostOps8 V (Proc.devRef .tc main_arg26)) (StableHlo.after hostOps8 V (Proc.devRef .tc main_v263)) :=
  Sage.after_binary (a := main_arg26) (b := main_v263) (y := main_v264) (f := (cmpi .slt : (⟨S150000, .i32⟩ : BufTy).Contents (Elt F) → (⟨S150000, .i32⟩ : BufTy).Contents (Elt F) → (⟨S150000, .i1⟩ : BufTy).Contents (Elt F))) hostOps8_writes 92 V rfl (by decide) (by decide) (by decide)

/-- Position 93 of host stretch 8: `c_59` from no operand. -/
theorem rd8_c_59 : (StableHlo.after hostOps8 V (Proc.devRef .tc main_c_59)) = ((constantI S_ 32 3000#32) : (⟨S_, .i32⟩ : BufTy).Contents (Elt F)) :=
  Sage.after_nullary (y := main_c_59) hostOps8_writes 93 V rfl (by decide)

/-- Position 94 of host stretch 8: `v265` from `c_59`. -/
theorem rd8_v265 : (StableHlo.after hostOps8 V (Proc.devRef .tc main_v265)) = (broadcastInDim S150000 ![] bcast_S_S150000 : (⟨S_, .i32⟩ : BufTy).Contents (Elt F) → (⟨S150000, .i32⟩ : BufTy).Contents (Elt F)) (StableHlo.after hostOps8 V (Proc.devRef .tc main_c_59)) :=
  Sage.after_unary (x := main_c_59) (y := main_v265) (f := (broadcastInDim S150000 ![] bcast_S_S150000 : (⟨S_, .i32⟩ : BufTy).Contents (Elt F) → (⟨S150000, .i32⟩ : BufTy).Contents (Elt F))) hostOps8_writes 94 V rfl (by decide) (by decide)

/-- Position 95 of host stretch 8: `v266` from `arg26`, `v265`. -/
theorem rd8_v266 : (StableHlo.after hostOps8 V (Proc.devRef .tc main_v266)) = (addi : (⟨S150000, .i32⟩ : BufTy).Contents (Elt F) → (⟨S150000, .i32⟩ : BufTy).Contents (Elt F) → (⟨S150000, .i32⟩ : BufTy).Contents (Elt F)) (StableHlo.after hostOps8 V (Proc.devRef .tc main_arg26)) (StableHlo.after hostOps8 V (Proc.devRef .tc main_v265)) :=
  Sage.after_binary (a := main_arg26) (b := main_v265) (y := main_v266) (f := (addi : (⟨S150000, .i32⟩ : BufTy).Contents (Elt F) → (⟨S150000, .i32⟩ : BufTy).Contents (Elt F) → (⟨S150000, .i32⟩ : BufTy).Contents (Elt F))) hostOps8_writes 95 V rfl (by decide) (by decide) (by decide)

/-- Position 96 of host stretch 8: `v267` from `v264`, `v266`, `arg26`. -/
theorem rd8_v267 : (StableHlo.after hostOps8 V (Proc.devRef .tc main_v267)) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (StableHlo.after hostOps8 V (Proc.devRef .tc main_v264)) (StableHlo.after hostOps8 V (Proc.devRef .tc main_v266)) (StableHlo.after hostOps8 V (Proc.devRef .tc main_arg26)) :=
  Sage.after_ternary (c := main_v264) (a := main_v266) (b := main_arg26) (y := main_v267) (f := (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F))) hostOps8_writes 96 V rfl (by decide) (by decide) (by decide) (by decide)

/-- Position 97 of host stretch 8: `v268` from `v267`. -/
theorem rd8_v268 : (StableHlo.after hostOps8 V (Proc.devRef .tc main_v268)) = (broadcastInDim S150000x1 ![0] bcast_S150000_S150000x1_0 : (⟨S150000, .i32⟩ : BufTy).Contents (Elt F) → (⟨S150000x1, .i32⟩ : BufTy).Contents (Elt F)) (StableHlo.after hostOps8 V (Proc.devRef .tc main_v267)) :=
  Sage.after_unary (x := main_v267) (y := main_v268) (f := (broadcastInDim S150000x1 ![0] bcast_S150000_S150000x1_0 : (⟨S150000, .i32⟩ : BufTy).Contents (Elt F) → (⟨S150000x1, .i32⟩ : BufTy).Contents (Elt F))) hostOps8_writes 97 V rfl (by decide) (by decide)

/-- Position 98 of host stretch 8: `v269` from `v190`, `v268`. -/
theorem rd8_v269 : (StableHlo.after hostOps8 V (Proc.devRef .tc main_v269)) = ((fun x i => Host.gather gather_S3000x256_S150000x1_S150000x256_1_0_n_n_0_1_1256 x i) : (⟨S3000x256, .f32⟩ : BufTy).Contents (Elt F) → (⟨S150000x1, .i32⟩ : BufTy).Contents (Elt F) → (⟨S150000x256, .f32⟩ : BufTy).Contents (Elt F)) (StableHlo.after hostOps8 V (Proc.devRef .tc main_v190)) (StableHlo.after hostOps8 V (Proc.devRef .tc main_v268)) :=
  Sage.after_binary (a := main_v190) (b := main_v268) (y := main_v269) (f := ((fun x i => Host.gather gather_S3000x256_S150000x1_S150000x256_1_0_n_n_0_1_1256 x i) : (⟨S3000x256, .f32⟩ : BufTy).Contents (Elt F) → (⟨S150000x1, .i32⟩ : BufTy).Contents (Elt F) → (⟨S150000x256, .f32⟩ : BufTy).Contents (Elt F))) hostOps8_writes 98 V rfl (by decide) (by decide) (by decide)

/-- Position 99 of host stretch 8: `cst_60` from no operand. -/
theorem rd8_cst_60 : (StableHlo.after hostOps8 V (Proc.devRef .tc main_cst_60)) = ((constant S_ .f32 0x00000000#32) : (⟨S_, .f32⟩ : BufTy).Contents (Elt F)) :=
  Sage.after_nullary (y := main_cst_60) hostOps8_writes 99 V rfl (by decide)

/-- Position 100 of host stretch 8: `v270` from `cst_60`. -/
theorem rd8_v270 : (StableHlo.after hostOps8 V (Proc.devRef .tc main_v270)) = (broadcastInDim S50000x256 ![] bcast_S_S50000x256 : (⟨S_, .f32⟩ : BufTy).Contents (Elt F) → (⟨S50000x256, .f32⟩ : BufTy).Contents (Elt F)) (StableHlo.after hostOps8 V (Proc.devRef .tc main_cst_60)) :=
  Sage.after_unary (x := main_cst_60) (y := main_v270) (f := (broadcastInDim S50000x256 ![] bcast_S_S50000x256 : (⟨S_, .f32⟩ : BufTy).Contents (Elt F) → (⟨S50000x256, .f32⟩ : BufTy).Contents (Elt F))) hostOps8_writes 100 V rfl (by decide) (by decide)

/-- Position 101 of host stretch 8: `v271` from `arg27`. -/
theorem rd8_v271 : (StableHlo.after hostOps8 V (Proc.devRef .tc main_v271)) = (broadcastInDim S150000x1 ![0] bcast_S150000_S150000x1_0 : (⟨S150000, .i32⟩ : BufTy).Contents (Elt F) → (⟨S150000x1, .i32⟩ : BufTy).Contents (Elt F)) (StableHlo.after hostOps8 V (Proc.devRef .tc main_arg27)) :=
  Sage.after_unary (x := main_arg27) (y := main_v271) (f := (broadcastInDim S150000x1 ![0] bcast_S150000_S150000x1_0 : (⟨S150000, .i32⟩ : BufTy).Contents (Elt F) → (⟨S150000x1, .i32⟩ : BufTy).Contents (Elt F))) hostOps8_writes 101 V rfl (by decide) (by decide)

/-- Position 102 of host stretch 8: `v272` from `v270`, `v271`, `v269`. -/
theorem rd8_v272 : (StableHlo.after hostOps8 V (Proc.devRef .tc main_v272)) = ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F)) (StableHlo.after hostOps8 V (Proc.devRef .tc main_v270)) (StableHlo.after hostOps8 V (Proc.devRef .tc main_v271)) (StableHlo.after hostOps8 V (Proc.devRef .tc main_v269)) :=
  Sage.after_ternary (c := main_v270) (a := main_v271) (b := main_v269) (y := main_v272) (f := ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F))) hostOps8_writes 102 V rfl (by decide) (by decide) (by decide) (by decide)

/-- Position 103 of host stretch 8: `v273` from `v41`. -/
theorem rd8_v273 : (StableHlo.after hostOps8 V (Proc.devRef .tc main_v273)) = (broadcastInDim S50000x256 ![0, 1] bcast_S50000x1_S50000x256_0_1 : (⟨S50000x1, .f32⟩ : BufTy).Contents (Elt F) → (⟨S50000x256, .f32⟩ : BufTy).Contents (Elt F)) (StableHlo.after hostOps8 V (Proc.devRef .tc main_v41)) :=
  Sage.after_unary (x := main_v41) (y := main_v273) (f := (broadcastInDim S50000x256 ![0, 1] bcast_S50000x1_S50000x256_0_1 : (⟨S50000x1, .f32⟩ : BufTy).Contents (Elt F) → (⟨S50000x256, .f32⟩ : BufTy).Contents (Elt F))) hostOps8_writes 103 V rfl (by decide) (by decide)

/-- Position 104 of host stretch 8: `v274` from `v272`, `v273`. -/
theorem rd8_v274 : (StableHlo.after hostOps8 V (Proc.devRef .tc main_v274)) = (Host.divf : (⟨S50000x256, .f32⟩ : BufTy).Contents (Elt F) → (⟨S50000x256, .f32⟩ : BufTy).Contents (Elt F) → (⟨S50000x256, .f32⟩ : BufTy).Contents (Elt F)) (StableHlo.after hostOps8 V (Proc.devRef .tc main_v272)) (StableHlo.after hostOps8 V (Proc.devRef .tc main_v273)) :=
  Sage.after_binary (a := main_v272) (b := main_v273) (y := main_v274) (f := (Host.divf : (⟨S50000x256, .f32⟩ : BufTy).Contents (Elt F) → (⟨S50000x256, .f32⟩ : BufTy).Contents (Elt F) → (⟨S50000x256, .f32⟩ : BufTy).Contents (Elt F))) hostOps8_writes 104 V rfl (by decide) (by decide) (by decide)

/-- Position 105 of host stretch 8: `v275` from `arg7`. -/
theorem rd8_v275 : (StableHlo.after hostOps8 V (Proc.devRef .tc main_v275)) = ((extractStridedSlice S1x256x256 ![4, 0, 0] · slices_S7x256x256_S1x256x256_4_0_0) : (⟨S7x256x256, .f32⟩ : BufTy).Contents (Elt F) → (⟨S1x256x256, .f32⟩ : BufTy).Contents (Elt F)) (StableHlo.after hostOps8 V (Proc.devRef .tc main_arg7)) :=
  Sage.after_unary (x := main_arg7) (y := main_v275) (f := ((extractStridedSlice S1x256x256 ![4, 0, 0] · slices_S7x256x256_S1x256x256_4_0_0) : (⟨S7x256x256, .f32⟩ : BufTy).Contents (Elt F) → (⟨S1x256x256, .f32⟩ : BufTy).Contents (Elt F))) hostOps8_writes 105 V rfl (by decide) (by decide)

/-- Position 106 of host stretch 8: `v276` from `v275`. -/
theorem rd8_v276 : (StableHlo.after hostOps8 V (Proc.devRef .tc main_v276)) = (shapeCast S256x256 (StableHlo.after hostOps8 V (Proc.devRef .tc main_v275)) shapeCasts_S1x256x256_S256x256 : (⟨S256x256, .f32⟩ : BufTy).Contents (Elt F)) :=
  (Sage.after_reshape (x := main_v275) (y := main_v276) hostOps8_writes 106 V rfl (by decide) (by decide)).trans rfl

/-- Position 107 of host stretch 8: `v277` from `arg7`. -/
theorem rd8_v277 : (StableHlo.after hostOps8 V (Proc.devRef .tc main_v277)) = ((extractStridedSlice S1x256x256 ![5, 0, 0] · slices_S7x256x256_S1x256x256_5_0_0) : (⟨S7x256x256, .f32⟩ : BufTy).Contents (Elt F) → (⟨S1x256x256, .f32⟩ : BufTy).Contents (Elt F)) (StableHlo.after hostOps8 V (Proc.devRef .tc main_arg7)) :=
  Sage.after_unary (x := main_arg7) (y := main_v277) (f := ((extractStridedSlice S1x256x256 ![5, 0, 0] · slices_S7x256x256_S1x256x256_5_0_0) : (⟨S7x256x256, .f32⟩ : BufTy).Contents (Elt F) → (⟨S1x256x256, .f32⟩ : BufTy).Contents (Elt F))) hostOps8_writes 107 V rfl (by decide) (by decide)

/-- Position 108 of host stretch 8: `v278` from `v277`. -/
theorem rd8_v278 : (StableHlo.after hostOps8 V (Proc.devRef .tc main_v278)) = (shapeCast S256x256 (StableHlo.after hostOps8 V (Proc.devRef .tc main_v277)) shapeCasts_S1x256x256_S256x256 : (⟨S256x256, .f32⟩ : BufTy).Contents (Elt F)) :=
  (Sage.after_reshape (x := main_v277) (y := main_v278) hostOps8_writes 108 V rfl (by decide) (by decide)).trans rfl

/-- Position 109 of host stretch 8: `v279` from `arg8`. -/
theorem rd8_v279 : (StableHlo.after hostOps8 V (Proc.devRef .tc main_v279)) = ((extractStridedSlice S1x256x256 ![4, 0, 0] · slices_S7x256x256_S1x256x256_4_0_0) : (⟨S7x256x256, .f32⟩ : BufTy).Contents (Elt F) → (⟨S1x256x256, .f32⟩ : BufTy).Contents (Elt F)) (StableHlo.after hostOps8 V (Proc.devRef .tc main_arg8)) :=
  Sage.after_unary (x := main_arg8) (y := main_v279) (f := ((extractStridedSlice S1x256x256 ![4, 0, 0] · slices_S7x256x256_S1x256x256_4_0_0) : (⟨S7x256x256, .f32⟩ : BufTy).Contents (Elt F) → (⟨S1x256x256, .f32⟩ : BufTy).Contents (Elt F))) hostOps8_writes 109 V rfl (by decide) (by decide)

/-- Position 110 of host stretch 8: `v280` from `v279`. -/
theorem rd8_v280 : (StableHlo.after hostOps8 V (Proc.devRef .tc main_v280)) = (shapeCast S256x256 (StableHlo.after hostOps8 V (Proc.devRef .tc main_v279)) shapeCasts_S1x256x256_S256x256 : (⟨S256x256, .f32⟩ : BufTy).Contents (Elt F)) :=
  (Sage.after_reshape (x := main_v279) (y := main_v280) hostOps8_writes 110 V rfl (by decide) (by decide)).trans rfl

/-- Position 111 of host stretch 8: `v281` from `arg8`. -/
theorem rd8_v281 : (StableHlo.after hostOps8 V (Proc.devRef .tc main_v281)) = ((extractStridedSlice S1x256x256 ![5, 0, 0] · slices_S7x256x256_S1x256x256_5_0_0) : (⟨S7x256x256, .f32⟩ : BufTy).Contents (Elt F) → (⟨S1x256x256, .f32⟩ : BufTy).Contents (Elt F)) (StableHlo.after hostOps8 V (Proc.devRef .tc main_arg8)) :=
  Sage.after_unary (x := main_arg8) (y := main_v281) (f := ((extractStridedSlice S1x256x256 ![5, 0, 0] · slices_S7x256x256_S1x256x256_5_0_0) : (⟨S7x256x256, .f32⟩ : BufTy).Contents (Elt F) → (⟨S1x256x256, .f32⟩ : BufTy).Contents (Elt F))) hostOps8_writes 111 V rfl (by decide) (by decide)

/-- Position 112 of host stretch 8: `v282` from `v281`. -/
theorem rd8_v282 : (StableHlo.after hostOps8 V (Proc.devRef .tc main_v282)) = (shapeCast S256x256 (StableHlo.after hostOps8 V (Proc.devRef .tc main_v281)) shapeCasts_S1x256x256_S256x256 : (⟨S256x256, .f32⟩ : BufTy).Contents (Elt F)) :=
  (Sage.after_reshape (x := main_v281) (y := main_v282) hostOps8_writes 112 V rfl (by decide) (by decide)).trans rfl

/-- Position 113 of host stretch 8: `v283` from `arg9`. -/
theorem rd8_v283 : (StableHlo.after hostOps8 V (Proc.devRef .tc main_v283)) = ((extractStridedSlice S1x256 ![4, 0] · slices_S7x256_S1x256_4_0) : (⟨S7x256, .f32⟩ : BufTy).Contents (Elt F) → (⟨S1x256, .f32⟩ : BufTy).Contents (Elt F)) (StableHlo.after hostOps8 V (Proc.devRef .tc main_arg9)) :=
  Sage.after_unary (x := main_arg9) (y := main_v283) (f := ((extractStridedSlice S1x256 ![4, 0] · slices_S7x256_S1x256_4_0) : (⟨S7x256, .f32⟩ : BufTy).Contents (Elt F) → (⟨S1x256, .f32⟩ : BufTy).Contents (Elt F))) hostOps8_writes 113 V rfl (by decide) (by decide)

/-- Position 114 of host stretch 8: `v284` from `v283`. -/
theorem rd8_v284 : (StableHlo.after hostOps8 V (Proc.devRef .tc main_v284)) = (shapeCast S256 (StableHlo.after hostOps8 V (Proc.devRef .tc main_v283)) shapeCasts_S1x256_S256 : (⟨S256, .f32⟩ : BufTy).Contents (Elt F)) :=
  (Sage.after_reshape (x := main_v283) (y := main_v284) hostOps8_writes 114 V rfl (by decide) (by decide)).trans rfl

/-- Position 115 of host stretch 8: `v285` from `arg9`. -/
theorem rd8_v285 : (StableHlo.after hostOps8 V (Proc.devRef .tc main_v285)) = ((extractStridedSlice S1x256 ![5, 0] · slices_S7x256_S1x256_5_0) : (⟨S7x256, .f32⟩ : BufTy).Contents (Elt F) → (⟨S1x256, .f32⟩ : BufTy).Contents (Elt F)) (StableHlo.after hostOps8 V (Proc.devRef .tc main_arg9)) :=
  Sage.after_unary (x := main_arg9) (y := main_v285) (f := ((extractStridedSlice S1x256 ![5, 0] · slices_S7x256_S1x256_5_0) : (⟨S7x256, .f32⟩ : BufTy).Contents (Elt F) → (⟨S1x256, .f32⟩ : BufTy).Contents (Elt F))) hostOps8_writes 115 V rfl (by decide) (by decide)

/-- Position 116 of host stretch 8: `v286` from `v285`. -/
theorem rd8_v286 : (StableHlo.after hostOps8 V (Proc.devRef .tc main_v286)) = (shapeCast S256 (StableHlo.after hostOps8 V (Proc.devRef .tc main_v285)) shapeCasts_S1x256_S256 : (⟨S256, .f32⟩ : BufTy).Contents (Elt F)) :=
  (Sage.after_reshape (x := main_v285) (y := main_v286) hostOps8_writes 116 V rfl (by decide) (by decide)).trans rfl

/-- Position 117 of host stretch 8: `v287` from `v284`. -/
theorem rd8_v287 : (StableHlo.after hostOps8 V (Proc.devRef .tc main_v287)) = (shapeCast S1x256 (StableHlo.after hostOps8 V (Proc.devRef .tc main_v284)) shapeCasts_S256_S1x256 : (⟨S1x256, .f32⟩ : BufTy).Contents (Elt F)) :=
  (Sage.after_reshape (x := main_v284) (y := main_v287) hostOps8_writes 117 V rfl (by decide) (by decide)).trans rfl

/-- Position 118 of host stretch 8: `v288` from `v286`. -/
theorem rd8_v288 : (StableHlo.after hostOps8 V (Proc.devRef .tc main_v288)) = (shapeCast S1x256 (StableHlo.after hostOps8 V (Proc.devRef .tc main_v286)) shapeCasts_S256_S1x256 : (⟨S1x256, .f32⟩ : BufTy).Contents (Elt F)) :=
  (Sage.after_reshape (x := main_v286) (y := main_v288) hostOps8_writes 118 V rfl (by decide) (by decide)).trans rfl

end Cert.KernelIdeal.Hand

end
-- ==== Proof.KI.ReadS9.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 9 writes, one per operation, in order. -/
noncomputable abbrev wr9 : List (Ref sig .tc) := [main_v290, main_v291, main_v292, main_v293, main_v294, main_v295, main_v296, main_v297, main_v298, main_v299, main_v300, main_v301, main_v302, main_v303]

/-- Each operation of host stretch 9 writes exactly the listed reference. -/
theorem hostOps9_writes : Sage.Writes (hostOps9 : List (HloOp τ sig (Elt F))) wr9 := by
  repeat (first | exact Sage.Writes.nil | refine Sage.Writes.cons rfl ?_)

variable (V : Valuation τ sig (Elt F))

/-- Position 0 of host stretch 9: `v290` from `arg7`. -/
theorem rd9_v290 : (StableHlo.after hostOps9 V (Proc.devRef .tc main_v290)) = ((extractStridedSlice S1x256x256 ![1, 0, 0] · slices_S7x256x256_S1x256x256_1_0_0) : (⟨S7x256x256, .f32⟩ : BufTy).Contents (Elt F) → (⟨S1x256x256, .f32⟩ : BufTy).Contents (Elt F)) (StableHlo.after hostOps9 V (Proc.devRef .tc main_arg7)) :=
  Sage.after_unary (x := main_arg7) (y := main_v290) (f := ((extractStridedSlice S1x256x256 ![1, 0, 0] · slices_S7x256x256_S1x256x256_1_0_0) : (⟨S7x256x256, .f32⟩ : BufTy).Contents (Elt F) → (⟨S1x256x256, .f32⟩ : BufTy).Contents (Elt F))) hostOps9_writes 0 V rfl (by decide) (by decide)

/-- Position 1 of host stretch 9: `v291` from `v290`. -/
theorem rd9_v291 : (StableHlo.after hostOps9 V (Proc.devRef .tc main_v291)) = (shapeCast S256x256 (StableHlo.after hostOps9 V (Proc.devRef .tc main_v290)) shapeCasts_S1x256x256_S256x256 : (⟨S256x256, .f32⟩ : BufTy).Contents (Elt F)) :=
  (Sage.after_reshape (x := main_v290) (y := main_v291) hostOps9_writes 1 V rfl (by decide) (by decide)).trans rfl

/-- Position 2 of host stretch 9: `v292` from `arg7`. -/
theorem rd9_v292 : (StableHlo.after hostOps9 V (Proc.devRef .tc main_v292)) = ((extractStridedSlice S1x256x256 ![6, 0, 0] · slices_S7x256x256_S1x256x256_6_0_0) : (⟨S7x256x256, .f32⟩ : BufTy).Contents (Elt F) → (⟨S1x256x256, .f32⟩ : BufTy).Contents (Elt F)) (StableHlo.after hostOps9 V (Proc.devRef .tc main_arg7)) :=
  Sage.after_unary (x := main_arg7) (y := main_v292) (f := ((extractStridedSlice S1x256x256 ![6, 0, 0] · slices_S7x256x256_S1x256x256_6_0_0) : (⟨S7x256x256, .f32⟩ : BufTy).Contents (Elt F) → (⟨S1x256x256, .f32⟩ : BufTy).Contents (Elt F))) hostOps9_writes 2 V rfl (by decide) (by decide)

/-- Position 3 of host stretch 9: `v293` from `v292`. -/
theorem rd9_v293 : (StableHlo.after hostOps9 V (Proc.devRef .tc main_v293)) = (shapeCast S256x256 (StableHlo.after hostOps9 V (Proc.devRef .tc main_v292)) shapeCasts_S1x256x256_S256x256 : (⟨S256x256, .f32⟩ : BufTy).Contents (Elt F)) :=
  (Sage.after_reshape (x := main_v292) (y := main_v293) hostOps9_writes 3 V rfl (by decide) (by decide)).trans rfl

/-- Position 4 of host stretch 9: `v294` from `arg8`. -/
theorem rd9_v294 : (StableHlo.after hostOps9 V (Proc.devRef .tc main_v294)) = ((extractStridedSlice S1x256x256 ![1, 0, 0] · slices_S7x256x256_S1x256x256_1_0_0) : (⟨S7x256x256, .f32⟩ : BufTy).Contents (Elt F) → (⟨S1x256x256, .f32⟩ : BufTy).Contents (Elt F)) (StableHlo.after hostOps9 V (Proc.devRef .tc main_arg8)) :=
  Sage.after_unary (x := main_arg8) (y := main_v294) (f := ((extractStridedSlice S1x256x256 ![1, 0, 0] · slices_S7x256x256_S1x256x256_1_0_0) : (⟨S7x256x256, .f32⟩ : BufTy).Contents (Elt F) → (⟨S1x256x256, .f32⟩ : BufTy).Contents (Elt F))) hostOps9_writes 4 V rfl (by decide) (by decide)

/-- Position 5 of host stretch 9: `v295` from `v294`. -/
theorem rd9_v295 : (StableHlo.after hostOps9 V (Proc.devRef .tc main_v295)) = (shapeCast S256x256 (StableHlo.after hostOps9 V (Proc.devRef .tc main_v294)) shapeCasts_S1x256x256_S256x256 : (⟨S256x256, .f32⟩ : BufTy).Contents (Elt F)) :=
  (Sage.after_reshape (x := main_v294) (y := main_v295) hostOps9_writes 5 V rfl (by decide) (by decide)).trans rfl

/-- Position 6 of host stretch 9: `v296` from `arg8`. -/
theorem rd9_v296 : (StableHlo.after hostOps9 V (Proc.devRef .tc main_v296)) = ((extractStridedSlice S1x256x256 ![6, 0, 0] · slices_S7x256x256_S1x256x256_6_0_0) : (⟨S7x256x256, .f32⟩ : BufTy).Contents (Elt F) → (⟨S1x256x256, .f32⟩ : BufTy).Contents (Elt F)) (StableHlo.after hostOps9 V (Proc.devRef .tc main_arg8)) :=
  Sage.after_unary (x := main_arg8) (y := main_v296) (f := ((extractStridedSlice S1x256x256 ![6, 0, 0] · slices_S7x256x256_S1x256x256_6_0_0) : (⟨S7x256x256, .f32⟩ : BufTy).Contents (Elt F) → (⟨S1x256x256, .f32⟩ : BufTy).Contents (Elt F))) hostOps9_writes 6 V rfl (by decide) (by decide)

/-- Position 7 of host stretch 9: `v297` from `v296`. -/
theorem rd9_v297 : (StableHlo.after hostOps9 V (Proc.devRef .tc main_v297)) = (shapeCast S256x256 (StableHlo.after hostOps9 V (Proc.devRef .tc main_v296)) shapeCasts_S1x256x256_S256x256 : (⟨S256x256, .f32⟩ : BufTy).Contents (Elt F)) :=
  (Sage.after_reshape (x := main_v296) (y := main_v297) hostOps9_writes 7 V rfl (by decide) (by decide)).trans rfl

/-- Position 8 of host stretch 9: `v298` from `arg9`. -/
theorem rd9_v298 : (StableHlo.after hostOps9 V (Proc.devRef .tc main_v298)) = ((extractStridedSlice S1x256 ![1, 0] · slices_S7x256_S1x256_1_0) : (⟨S7x256, .f32⟩ : BufTy).Contents (Elt F) → (⟨S1x256, .f32⟩ : BufTy).Contents (Elt F)) (StableHlo.after hostOps9 V (Proc.devRef .tc main_arg9)) :=
  Sage.after_unary (x := main_arg9) (y := main_v298) (f := ((extractStridedSlice S1x256 ![1, 0] · slices_S7x256_S1x256_1_0) : (⟨S7x256, .f32⟩ : BufTy).Contents (Elt F) → (⟨S1x256, .f32⟩ : BufTy).Contents (Elt F))) hostOps9_writes 8 V rfl (by decide) (by decide)

/-- Position 9 of host stretch 9: `v299` from `v298`. -/
theorem rd9_v299 : (StableHlo.after hostOps9 V (Proc.devRef .tc main_v299)) = (shapeCast S256 (StableHlo.after hostOps9 V (Proc.devRef .tc main_v298)) shapeCasts_S1x256_S256 : (⟨S256, .f32⟩ : BufTy).Contents (Elt F)) :=
  (Sage.after_reshape (x := main_v298) (y := main_v299) hostOps9_writes 9 V rfl (by decide) (by decide)).trans rfl

/-- Position 10 of host stretch 9: `v300` from `arg9`. -/
theorem rd9_v300 : (StableHlo.after hostOps9 V (Proc.devRef .tc main_v300)) = ((extractStridedSlice S1x256 ![6, 0] · slices_S7x256_S1x256_6_0) : (⟨S7x256, .f32⟩ : BufTy).Contents (Elt F) → (⟨S1x256, .f32⟩ : BufTy).Contents (Elt F)) (StableHlo.after hostOps9 V (Proc.devRef .tc main_arg9)) :=
  Sage.after_unary (x := main_arg9) (y := main_v300) (f := ((extractStridedSlice S1x256 ![6, 0] · slices_S7x256_S1x256_6_0) : (⟨S7x256, .f32⟩ : BufTy).Contents (Elt F) → (⟨S1x256, .f32⟩ : BufTy).Contents (Elt F))) hostOps9_writes 10 V rfl (by decide) (by decide)

/-- Position 11 of host stretch 9: `v301` from `v300`. -/
theorem rd9_v301 : (StableHlo.after hostOps9 V (Proc.devRef .tc main_v301)) = (shapeCast S256 (StableHlo.after hostOps9 V (Proc.devRef .tc main_v300)) shapeCasts_S1x256_S256 : (⟨S256, .f32⟩ : BufTy).Contents (Elt F)) :=
  (Sage.after_reshape (x := main_v300) (y := main_v301) hostOps9_writes 11 V rfl (by decide) (by decide)).trans rfl

/-- Position 12 of host stretch 9: `v302` from `v299`. -/
theorem rd9_v302 : (StableHlo.after hostOps9 V (Proc.devRef .tc main_v302)) = (shapeCast S1x256 (StableHlo.after hostOps9 V (Proc.devRef .tc main_v299)) shapeCasts_S256_S1x256 : (⟨S1x256, .f32⟩ : BufTy).Contents (Elt F)) :=
  (Sage.after_reshape (x := main_v299) (y := main_v302) hostOps9_writes 12 V rfl (by decide) (by decide)).trans rfl

/-- Position 13 of host stretch 9: `v303` from `v301`. -/
theorem rd9_v303 : (StableHlo.after hostOps9 V (Proc.devRef .tc main_v303)) = (shapeCast S1x256 (StableHlo.after hostOps9 V (Proc.devRef .tc main_v301)) shapeCasts_S256_S1x256 : (⟨S1x256, .f32⟩ : BufTy).Contents (Elt F)) :=
  (Sage.after_reshape (x := main_v301) (y := main_v303) hostOps9_writes 13 V rfl (by decide) (by decide)).trans rfl

end Cert.KernelIdeal.Hand

end
-- ==== Proof.KI.ReadS10.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 10 writes, one per operation, in order. -/
noncomputable abbrev wr10 : List (Ref sig .tc) := [main_v305, main_v306, main_v307, main_v308, main_v309, main_v310, main_v311, main_v312, main_v313, main_v314, main_v315, main_v316, main_v317, main_v318]

/-- Each operation of host stretch 10 writes exactly the listed reference. -/
theorem hostOps10_writes : Sage.Writes (hostOps10 : List (HloOp τ sig (Elt F))) wr10 := by
  repeat (first | exact Sage.Writes.nil | refine Sage.Writes.cons rfl ?_)

variable (V : Valuation τ sig (Elt F))

/-- Position 0 of host stretch 10: `v305` from `arg7`. -/
theorem rd10_v305 : (StableHlo.after hostOps10 V (Proc.devRef .tc main_v305)) = ((extractStridedSlice S1x256x256 ![0, 0, 0] · slices_S7x256x256_S1x256x256_0_0_0) : (⟨S7x256x256, .f32⟩ : BufTy).Contents (Elt F) → (⟨S1x256x256, .f32⟩ : BufTy).Contents (Elt F)) (StableHlo.after hostOps10 V (Proc.devRef .tc main_arg7)) :=
  Sage.after_unary (x := main_arg7) (y := main_v305) (f := ((extractStridedSlice S1x256x256 ![0, 0, 0] · slices_S7x256x256_S1x256x256_0_0_0) : (⟨S7x256x256, .f32⟩ : BufTy).Contents (Elt F) → (⟨S1x256x256, .f32⟩ : BufTy).Contents (Elt F))) hostOps10_writes 0 V rfl (by decide) (by decide)

/-- Position 1 of host stretch 10: `v306` from `v305`. -/
theorem rd10_v306 : (StableHlo.after hostOps10 V (Proc.devRef .tc main_v306)) = (shapeCast S256x256 (StableHlo.after hostOps10 V (Proc.devRef .tc main_v305)) shapeCasts_S1x256x256_S256x256 : (⟨S256x256, .f32⟩ : BufTy).Contents (Elt F)) :=
  (Sage.after_reshape (x := main_v305) (y := main_v306) hostOps10_writes 1 V rfl (by decide) (by decide)).trans rfl

/-- Position 2 of host stretch 10: `v307` from `arg7`. -/
theorem rd10_v307 : (StableHlo.after hostOps10 V (Proc.devRef .tc main_v307)) = ((extractStridedSlice S1x256x256 ![3, 0, 0] · slices_S7x256x256_S1x256x256_3_0_0) : (⟨S7x256x256, .f32⟩ : BufTy).Contents (Elt F) → (⟨S1x256x256, .f32⟩ : BufTy).Contents (Elt F)) (StableHlo.after hostOps10 V (Proc.devRef .tc main_arg7)) :=
  Sage.after_unary (x := main_arg7) (y := main_v307) (f := ((extractStridedSlice S1x256x256 ![3, 0, 0] · slices_S7x256x256_S1x256x256_3_0_0) : (⟨S7x256x256, .f32⟩ : BufTy).Contents (Elt F) → (⟨S1x256x256, .f32⟩ : BufTy).Contents (Elt F))) hostOps10_writes 2 V rfl (by decide) (by decide)

/-- Position 3 of host stretch 10: `v308` from `v307`. -/
theorem rd10_v308 : (StableHlo.after hostOps10 V (Proc.devRef .tc main_v308)) = (shapeCast S256x256 (StableHlo.after hostOps10 V (Proc.devRef .tc main_v307)) shapeCasts_S1x256x256_S256x256 : (⟨S256x256, .f32⟩ : BufTy).Contents (Elt F)) :=
  (Sage.after_reshape (x := main_v307) (y := main_v308) hostOps10_writes 3 V rfl (by decide) (by decide)).trans rfl

/-- Position 4 of host stretch 10: `v309` from `arg8`. -/
theorem rd10_v309 : (StableHlo.after hostOps10 V (Proc.devRef .tc main_v309)) = ((extractStridedSlice S1x256x256 ![0, 0, 0] · slices_S7x256x256_S1x256x256_0_0_0) : (⟨S7x256x256, .f32⟩ : BufTy).Contents (Elt F) → (⟨S1x256x256, .f32⟩ : BufTy).Contents (Elt F)) (StableHlo.after hostOps10 V (Proc.devRef .tc main_arg8)) :=
  Sage.after_unary (x := main_arg8) (y := main_v309) (f := ((extractStridedSlice S1x256x256 ![0, 0, 0] · slices_S7x256x256_S1x256x256_0_0_0) : (⟨S7x256x256, .f32⟩ : BufTy).Contents (Elt F) → (⟨S1x256x256, .f32⟩ : BufTy).Contents (Elt F))) hostOps10_writes 4 V rfl (by decide) (by decide)

/-- Position 5 of host stretch 10: `v310` from `v309`. -/
theorem rd10_v310 : (StableHlo.after hostOps10 V (Proc.devRef .tc main_v310)) = (shapeCast S256x256 (StableHlo.after hostOps10 V (Proc.devRef .tc main_v309)) shapeCasts_S1x256x256_S256x256 : (⟨S256x256, .f32⟩ : BufTy).Contents (Elt F)) :=
  (Sage.after_reshape (x := main_v309) (y := main_v310) hostOps10_writes 5 V rfl (by decide) (by decide)).trans rfl

/-- Position 6 of host stretch 10: `v311` from `arg8`. -/
theorem rd10_v311 : (StableHlo.after hostOps10 V (Proc.devRef .tc main_v311)) = ((extractStridedSlice S1x256x256 ![3, 0, 0] · slices_S7x256x256_S1x256x256_3_0_0) : (⟨S7x256x256, .f32⟩ : BufTy).Contents (Elt F) → (⟨S1x256x256, .f32⟩ : BufTy).Contents (Elt F)) (StableHlo.after hostOps10 V (Proc.devRef .tc main_arg8)) :=
  Sage.after_unary (x := main_arg8) (y := main_v311) (f := ((extractStridedSlice S1x256x256 ![3, 0, 0] · slices_S7x256x256_S1x256x256_3_0_0) : (⟨S7x256x256, .f32⟩ : BufTy).Contents (Elt F) → (⟨S1x256x256, .f32⟩ : BufTy).Contents (Elt F))) hostOps10_writes 6 V rfl (by decide) (by decide)

/-- Position 7 of host stretch 10: `v312` from `v311`. -/
theorem rd10_v312 : (StableHlo.after hostOps10 V (Proc.devRef .tc main_v312)) = (shapeCast S256x256 (StableHlo.after hostOps10 V (Proc.devRef .tc main_v311)) shapeCasts_S1x256x256_S256x256 : (⟨S256x256, .f32⟩ : BufTy).Contents (Elt F)) :=
  (Sage.after_reshape (x := main_v311) (y := main_v312) hostOps10_writes 7 V rfl (by decide) (by decide)).trans rfl

/-- Position 8 of host stretch 10: `v313` from `arg9`. -/
theorem rd10_v313 : (StableHlo.after hostOps10 V (Proc.devRef .tc main_v313)) = ((extractStridedSlice S1x256 ![0, 0] · slices_S7x256_S1x256_0_0) : (⟨S7x256, .f32⟩ : BufTy).Contents (Elt F) → (⟨S1x256, .f32⟩ : BufTy).Contents (Elt F)) (StableHlo.after hostOps10 V (Proc.devRef .tc main_arg9)) :=
  Sage.after_unary (x := main_arg9) (y := main_v313) (f := ((extractStridedSlice S1x256 ![0, 0] · slices_S7x256_S1x256_0_0) : (⟨S7x256, .f32⟩ : BufTy).Contents (Elt F) → (⟨S1x256, .f32⟩ : BufTy).Contents (Elt F))) hostOps10_writes 8 V rfl (by decide) (by decide)

/-- Position 9 of host stretch 10: `v314` from `v313`. -/
theorem rd10_v314 : (StableHlo.after hostOps10 V (Proc.devRef .tc main_v314)) = (shapeCast S256 (StableHlo.after hostOps10 V (Proc.devRef .tc main_v313)) shapeCasts_S1x256_S256 : (⟨S256, .f32⟩ : BufTy).Contents (Elt F)) :=
  (Sage.after_reshape (x := main_v313) (y := main_v314) hostOps10_writes 9 V rfl (by decide) (by decide)).trans rfl

/-- Position 10 of host stretch 10: `v315` from `arg9`. -/
theorem rd10_v315 : (StableHlo.after hostOps10 V (Proc.devRef .tc main_v315)) = ((extractStridedSlice S1x256 ![3, 0] · slices_S7x256_S1x256_3_0) : (⟨S7x256, .f32⟩ : BufTy).Contents (Elt F) → (⟨S1x256, .f32⟩ : BufTy).Contents (Elt F)) (StableHlo.after hostOps10 V (Proc.devRef .tc main_arg9)) :=
  Sage.after_unary (x := main_arg9) (y := main_v315) (f := ((extractStridedSlice S1x256 ![3, 0] · slices_S7x256_S1x256_3_0) : (⟨S7x256, .f32⟩ : BufTy).Contents (Elt F) → (⟨S1x256, .f32⟩ : BufTy).Contents (Elt F))) hostOps10_writes 10 V rfl (by decide) (by decide)

/-- Position 11 of host stretch 10: `v316` from `v315`. -/
theorem rd10_v316 : (StableHlo.after hostOps10 V (Proc.devRef .tc main_v316)) = (shapeCast S256 (StableHlo.after hostOps10 V (Proc.devRef .tc main_v315)) shapeCasts_S1x256_S256 : (⟨S256, .f32⟩ : BufTy).Contents (Elt F)) :=
  (Sage.after_reshape (x := main_v315) (y := main_v316) hostOps10_writes 11 V rfl (by decide) (by decide)).trans rfl

/-- Position 12 of host stretch 10: `v317` from `v314`. -/
theorem rd10_v317 : (StableHlo.after hostOps10 V (Proc.devRef .tc main_v317)) = (shapeCast S1x256 (StableHlo.after hostOps10 V (Proc.devRef .tc main_v314)) shapeCasts_S256_S1x256 : (⟨S1x256, .f32⟩ : BufTy).Contents (Elt F)) :=
  (Sage.after_reshape (x := main_v314) (y := main_v317) hostOps10_writes 12 V rfl (by decide) (by decide)).trans rfl

/-- Position 13 of host stretch 10: `v318` from `v316`. -/
theorem rd10_v318 : (StableHlo.after hostOps10 V (Proc.devRef .tc main_v318)) = (shapeCast S1x256 (StableHlo.after hostOps10 V (Proc.devRef .tc main_v316)) shapeCasts_S256_S1x256 : (⟨S1x256, .f32⟩ : BufTy).Contents (Elt F)) :=
  (Sage.after_reshape (x := main_v316) (y := main_v318) hostOps10_writes 13 V rfl (by decide) (by decide)).trans rfl

end Cert.KernelIdeal.Hand

end
-- ==== Proof.KI.ReadS11.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 11 writes, one per operation, in order. -/
noncomputable abbrev wr11 : List (Ref sig .tc) := [main_v320, main_v321, main_v322, main_v323, main_v324, main_v325, main_v326]

/-- Each operation of host stretch 11 writes exactly the listed reference. -/
theorem hostOps11_writes : Sage.Writes (hostOps11 : List (HloOp τ sig (Elt F))) wr11 := by
  repeat (first | exact Sage.Writes.nil | refine Sage.Writes.cons rfl ?_)

variable (V : Valuation τ sig (Elt F))

/-- Position 0 of host stretch 11: `v320` from `arg7`. -/
theorem rd11_v320 : (StableHlo.after hostOps11 V (Proc.devRef .tc main_v320)) = ((extractStridedSlice S1x256x256 ![2, 0, 0] · slices_S7x256x256_S1x256x256_2_0_0) : (⟨S7x256x256, .f32⟩ : BufTy).Contents (Elt F) → (⟨S1x256x256, .f32⟩ : BufTy).Contents (Elt F)) (StableHlo.after hostOps11 V (Proc.devRef .tc main_arg7)) :=
  Sage.after_unary (x := main_arg7) (y := main_v320) (f := ((extractStridedSlice S1x256x256 ![2, 0, 0] · slices_S7x256x256_S1x256x256_2_0_0) : (⟨S7x256x256, .f32⟩ : BufTy).Contents (Elt F) → (⟨S1x256x256, .f32⟩ : BufTy).Contents (Elt F))) hostOps11_writes 0 V rfl (by decide) (by decide)

/-- Position 1 of host stretch 11: `v321` from `v320`. -/
theorem rd11_v321 : (StableHlo.after hostOps11 V (Proc.devRef .tc main_v321)) = (shapeCast S256x256 (StableHlo.after hostOps11 V (Proc.devRef .tc main_v320)) shapeCasts_S1x256x256_S256x256 : (⟨S256x256, .f32⟩ : BufTy).Contents (Elt F)) :=
  (Sage.after_reshape (x := main_v320) (y := main_v321) hostOps11_writes 1 V rfl (by decide) (by decide)).trans rfl

/-- Position 2 of host stretch 11: `v322` from `arg8`. -/
theorem rd11_v322 : (StableHlo.after hostOps11 V (Proc.devRef .tc main_v322)) = ((extractStridedSlice S1x256x256 ![2, 0, 0] · slices_S7x256x256_S1x256x256_2_0_0) : (⟨S7x256x256, .f32⟩ : BufTy).Contents (Elt F) → (⟨S1x256x256, .f32⟩ : BufTy).Contents (Elt F)) (StableHlo.after hostOps11 V (Proc.devRef .tc main_arg8)) :=
  Sage.after_unary (x := main_arg8) (y := main_v322) (f := ((extractStridedSlice S1x256x256 ![2, 0, 0] · slices_S7x256x256_S1x256x256_2_0_0) : (⟨S7x256x256, .f32⟩ : BufTy).Contents (Elt F) → (⟨S1x256x256, .f32⟩ : BufTy).Contents (Elt F))) hostOps11_writes 2 V rfl (by decide) (by decide)

/-- Position 3 of host stretch 11: `v323` from `v322`. -/
theorem rd11_v323 : (StableHlo.after hostOps11 V (Proc.devRef .tc main_v323)) = (shapeCast S256x256 (StableHlo.after hostOps11 V (Proc.devRef .tc main_v322)) shapeCasts_S1x256x256_S256x256 : (⟨S256x256, .f32⟩ : BufTy).Contents (Elt F)) :=
  (Sage.after_reshape (x := main_v322) (y := main_v323) hostOps11_writes 3 V rfl (by decide) (by decide)).trans rfl

/-- Position 4 of host stretch 11: `v324` from `arg9`. -/
theorem rd11_v324 : (StableHlo.after hostOps11 V (Proc.devRef .tc main_v324)) = ((extractStridedSlice S1x256 ![2, 0] · slices_S7x256_S1x256_2_0) : (⟨S7x256, .f32⟩ : BufTy).Contents (Elt F) → (⟨S1x256, .f32⟩ : BufTy).Contents (Elt F)) (StableHlo.after hostOps11 V (Proc.devRef .tc main_arg9)) :=
  Sage.after_unary (x := main_arg9) (y := main_v324) (f := ((extractStridedSlice S1x256 ![2, 0] · slices_S7x256_S1x256_2_0) : (⟨S7x256, .f32⟩ : BufTy).Contents (Elt F) → (⟨S1x256, .f32⟩ : BufTy).Contents (Elt F))) hostOps11_writes 4 V rfl (by decide) (by decide)

/-- Position 5 of host stretch 11: `v325` from `v324`. -/
theorem rd11_v325 : (StableHlo.after hostOps11 V (Proc.devRef .tc main_v325)) = (shapeCast S256 (StableHlo.after hostOps11 V (Proc.devRef .tc main_v324)) shapeCasts_S1x256_S256 : (⟨S256, .f32⟩ : BufTy).Contents (Elt F)) :=
  (Sage.after_reshape (x := main_v324) (y := main_v325) hostOps11_writes 5 V rfl (by decide) (by decide)).trans rfl

/-- Position 6 of host stretch 11: `v326` from `v325`. -/
theorem rd11_v326 : (StableHlo.after hostOps11 V (Proc.devRef .tc main_v326)) = (shapeCast S1x256 (StableHlo.after hostOps11 V (Proc.devRef .tc main_v325)) shapeCasts_S256_S1x256 : (⟨S1x256, .f32⟩ : BufTy).Contents (Elt F)) :=
  (Sage.after_reshape (x := main_v325) (y := main_v326) hostOps11_writes 6 V rfl (by decide) (by decide)).trans rfl

end Cert.KernelIdeal.Hand

end
-- ==== Proof.KI.ReadS12.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 12 writes, one per operation, in order. -/
noncomputable abbrev wr12 : List (Ref sig .tc) := [main_v328, main_v329]

/-- Each operation of host stretch 12 writes exactly the listed reference. -/
theorem hostOps12_writes : Sage.Writes (hostOps12 : List (HloOp τ sig (Elt F))) wr12 := by
  repeat (first | exact Sage.Writes.nil | refine Sage.Writes.cons rfl ?_)

variable (V : Valuation τ sig (Elt F))

/-- Position 0 of host stretch 12: `v328` from `arg12`. -/
theorem rd12_v328 : (StableHlo.after hostOps12 V (Proc.devRef .tc main_v328)) = (shapeCast S1x256 (StableHlo.after hostOps12 V (Proc.devRef .tc main_arg12)) shapeCasts_S256_S1x256 : (⟨S1x256, .f32⟩ : BufTy).Contents (Elt F)) :=
  (Sage.after_reshape (x := main_arg12) (y := main_v328) hostOps12_writes 0 V rfl (by decide) (by decide)).trans rfl

/-- Position 1 of host stretch 12: `v329` from `arg13`. -/
theorem rd12_v329 : (StableHlo.after hostOps12 V (Proc.devRef .tc main_v329)) = (shapeCast S1x256 (StableHlo.after hostOps12 V (Proc.devRef .tc main_arg13)) shapeCasts_S256_S1x256 : (⟨S1x256, .f32⟩ : BufTy).Contents (Elt F)) :=
  (Sage.after_reshape (x := main_arg13) (y := main_v329) hostOps12_writes 1 V rfl (by decide) (by decide)).trans rfl

end Cert.KernelIdeal.Hand

end
-- ==== Proof.KI.ReadS13.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 13 writes, one per operation, in order. -/
noncomputable abbrev wr13 : List (Ref sig .tc) := [main_v331, main_v332]

/-- Each operation of host stretch 13 writes exactly the listed reference. -/
theorem hostOps13_writes : Sage.Writes (hostOps13 : List (HloOp τ sig (Elt F))) wr13 := by
  repeat (first | exact Sage.Writes.nil | refine Sage.Writes.cons rfl ?_)

variable (V : Valuation τ sig (Elt F))

/-- Position 0 of host stretch 13: `v331` from `arg12`. -/
theorem rd13_v331 : (StableHlo.after hostOps13 V (Proc.devRef .tc main_v331)) = (shapeCast S1x256 (StableHlo.after hostOps13 V (Proc.devRef .tc main_arg12)) shapeCasts_S256_S1x256 : (⟨S1x256, .f32⟩ : BufTy).Contents (Elt F)) :=
  (Sage.after_reshape (x := main_arg12) (y := main_v331) hostOps13_writes 0 V rfl (by decide) (by decide)).trans rfl

/-- Position 1 of host stretch 13: `v332` from `arg13`. -/
theorem rd13_v332 : (StableHlo.after hostOps13 V (Proc.devRef .tc main_v332)) = (shapeCast S1x256 (StableHlo.after hostOps13 V (Proc.devRef .tc main_arg13)) shapeCasts_S256_S1x256 : (⟨S1x256, .f32⟩ : BufTy).Contents (Elt F)) :=
  (Sage.after_reshape (x := main_arg13) (y := main_v332) hostOps13_writes 1 V rfl (by decide) (by decide)).trans rfl

end Cert.KernelIdeal.Hand

end
-- ==== Proof.KI.ReadS14.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 14 writes, one per operation, in order. -/
noncomputable abbrev wr14 : List (Ref sig .tc) := [main_v334, main_v335]

/-- Each operation of host stretch 14 writes exactly the listed reference. -/
theorem hostOps14_writes : Sage.Writes (hostOps14 : List (HloOp τ sig (Elt F))) wr14 := by
  repeat (first | exact Sage.Writes.nil | refine Sage.Writes.cons rfl ?_)

variable (V : Valuation τ sig (Elt F))

/-- Position 0 of host stretch 14: `v334` from `arg12`. -/
theorem rd14_v334 : (StableHlo.after hostOps14 V (Proc.devRef .tc main_v334)) = (shapeCast S1x256 (StableHlo.after hostOps14 V (Proc.devRef .tc main_arg12)) shapeCasts_S256_S1x256 : (⟨S1x256, .f32⟩ : BufTy).Contents (Elt F)) :=
  (Sage.after_reshape (x := main_arg12) (y := main_v334) hostOps14_writes 0 V rfl (by decide) (by decide)).trans rfl

/-- Position 1 of host stretch 14: `v335` from `arg13`. -/
theorem rd14_v335 : (StableHlo.after hostOps14 V (Proc.devRef .tc main_v335)) = (shapeCast S1x256 (StableHlo.after hostOps14 V (Proc.devRef .tc main_arg13)) shapeCasts_S256_S1x256 : (⟨S1x256, .f32⟩ : BufTy).Contents (Elt F)) :=
  (Sage.after_reshape (x := main_arg13) (y := main_v335) hostOps14_writes 1 V rfl (by decide) (by decide)).trans rfl

end Cert.KernelIdeal.Hand

end
-- ==== Proof.KI.ReadS15.lean ====
import proofs.«126569_j1468878815453_1_alg».proof.Proof.Gen.KernelIdeal.Launch
import proofs.«126569_j1468878815453_1_alg».proof.Proof.Sage.AfterRead

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The references host stretch 15 writes, one per operation, in order. -/
noncomputable abbrev wr15 : List (Ref sig .tc) := [main_v337, main_v338]

/-- Each operation of host stretch 15 writes exactly the listed reference. -/
theorem hostOps15_writes : Sage.Writes (hostOps15 : List (HloOp τ sig (Elt F))) wr15 := by
  repeat (first | exact Sage.Writes.nil | refine Sage.Writes.cons rfl ?_)

variable (V : Valuation τ sig (Elt F))

/-- Position 0 of host stretch 15: `v337` from `arg12`. -/
theorem rd15_v337 : (StableHlo.after hostOps15 V (Proc.devRef .tc main_v337)) = (shapeCast S1x256 (StableHlo.after hostOps15 V (Proc.devRef .tc main_arg12)) shapeCasts_S256_S1x256 : (⟨S1x256, .f32⟩ : BufTy).Contents (Elt F)) :=
  (Sage.after_reshape (x := main_arg12) (y := main_v337) hostOps15_writes 0 V rfl (by decide) (by decide)).trans rfl

/-- Position 1 of host stretch 15: `v338` from `arg13`. -/
theorem rd15_v338 : (StableHlo.after hostOps15 V (Proc.devRef .tc main_v338)) = (shapeCast S1x256 (StableHlo.after hostOps15 V (Proc.devRef .tc main_arg13)) shapeCasts_S256_S1x256 : (⟨S1x256, .f32⟩ : BufTy).Contents (Elt F)) :=
  (Sage.after_reshape (x := main_arg13) (y := main_v338) hostOps15_writes 1 V rfl (by decide) (by decide)).trans rfl

end Cert.KernelIdeal.Hand

end
-- ==== Proof.KI.ReadCarryA.lean ====
import proofs.«126569_j1468878815453_1_alg».proof.Proof.KI.Fold
import proofs.«126569_j1468878815453_1_alg».proof.Proof.KI.ReadS0
import proofs.«126569_j1468878815453_1_alg».proof.Proof.KI.ReadS1
import proofs.«126569_j1468878815453_1_alg».proof.Proof.KI.ReadS2
import proofs.«126569_j1468878815453_1_alg».proof.Proof.KI.ReadS3
import proofs.«126569_j1468878815453_1_alg».proof.Proof.KI.ReadS4
import proofs.«126569_j1468878815453_1_alg».proof.Proof.KI.ReadS5
import proofs.«126569_j1468878815453_1_alg».proof.Proof.KI.ReadS6
import proofs.«126569_j1468878815453_1_alg».proof.Proof.KI.ReadS7
import proofs.«126569_j1468878815453_1_alg».proof.Proof.KI.ReadS8
import proofs.«126569_j1468878815453_1_alg».proof.Proof.KI.ReadS9
import proofs.«126569_j1468878815453_1_alg».proof.Proof.KI.ReadS10
import proofs.«126569_j1468878815453_1_alg».proof.Proof.KI.ReadS11
import proofs.«126569_j1468878815453_1_alg».proof.Proof.KI.ReadS12
import proofs.«126569_j1468878815453_1_alg».proof.Proof.KI.ReadS13
import proofs.«126569_j1468878815453_1_alg».proof.Proof.KI.ReadS14
import proofs.«126569_j1468878815453_1_alg».proof.Proof.KI.ReadS15

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- `arg0`, made at boundary 0, is unchanged where it is read at boundary 1. -/
theorem carry_arg0_0_1 (c : Dev nD) : W1 m ρ c (Proc.devRef .tc main_arg0) = m ((c : Thread nD τ).loc main_arg0) :=
  Eq.trans ((hostOps0_writes (F := F)).keep (W0 m ρ c) (r := main_arg0) (by decide))
    (rfl)

/-- `arg1`, made at boundary 0, is unchanged where it is read at boundary 1. -/
theorem carry_arg1_0_1 (c : Dev nD) : W1 m ρ c (Proc.devRef .tc main_arg1) = m ((c : Thread nD τ).loc main_arg1) :=
  Eq.trans ((hostOps0_writes (F := F)).keep (W0 m ρ c) (r := main_arg1) (by decide))
    (rfl)

/-- `arg2`, made at boundary 0, is unchanged where it is read at boundary 1. -/
theorem carry_arg2_0_1 (c : Dev nD) : W1 m ρ c (Proc.devRef .tc main_arg2) = m ((c : Thread nD τ).loc main_arg2) :=
  Eq.trans ((hostOps0_writes (F := F)).keep (W0 m ρ c) (r := main_arg2) (by decide))
    (rfl)

/-- `arg3`, made at boundary 0, is unchanged where it is read at boundary 1. -/
theorem carry_arg3_0_1 (c : Dev nD) : W1 m ρ c (Proc.devRef .tc main_arg3) = m ((c : Thread nD τ).loc main_arg3) :=
  Eq.trans ((hostOps0_writes (F := F)).keep (W0 m ρ c) (r := main_arg3) (by decide))
    (rfl)

/-- `arg4`, made at boundary 0, is unchanged where it is read at boundary 1. -/
theorem carry_arg4_0_1 (c : Dev nD) : W1 m ρ c (Proc.devRef .tc main_arg4) = m ((c : Thread nD τ).loc main_arg4) :=
  Eq.trans ((hostOps0_writes (F := F)).keep (W0 m ρ c) (r := main_arg4) (by decide))
    (rfl)

/-- `arg5`, made at boundary 0, is unchanged where it is read at boundary 1. -/
theorem carry_arg5_0_1 (c : Dev nD) : W1 m ρ c (Proc.devRef .tc main_arg5) = m ((c : Thread nD τ).loc main_arg5) :=
  Eq.trans ((hostOps0_writes (F := F)).keep (W0 m ρ c) (r := main_arg5) (by decide))
    (rfl)

/-- `arg6`, made at boundary 0, is unchanged where it is read at boundary 1. -/
theorem carry_arg6_0_1 (c : Dev nD) : W1 m ρ c (Proc.devRef .tc main_arg6) = m ((c : Thread nD τ).loc main_arg6) :=
  Eq.trans ((hostOps0_writes (F := F)).keep (W0 m ρ c) (r := main_arg6) (by decide))
    (rfl)

/-- `arg14`, made at boundary 0, is unchanged where it is read at boundary 1. -/
theorem carry_arg14_0_1 (c : Dev nD) : W1 m ρ c (Proc.devRef .tc main_arg14) = m ((c : Thread nD τ).loc main_arg14) :=
  Eq.trans ((hostOps0_writes (F := F)).keep (W0 m ρ c) (r := main_arg14) (by decide))
    (rfl)

/-- `arg15`, made at boundary 0, is unchanged where it is read at boundary 1. -/
theorem carry_arg15_0_1 (c : Dev nD) : W1 m ρ c (Proc.devRef .tc main_arg15) = m ((c : Thread nD τ).loc main_arg15) :=
  Eq.trans ((hostOps0_writes (F := F)).keep (W0 m ρ c) (r := main_arg15) (by decide))
    (rfl)

/-- `arg16`, made at boundary 0, is unchanged where it is read at boundary 1. -/
theorem carry_arg16_0_1 (c : Dev nD) : W1 m ρ c (Proc.devRef .tc main_arg16) = m ((c : Thread nD τ).loc main_arg16) :=
  Eq.trans ((hostOps0_writes (F := F)).keep (W0 m ρ c) (r := main_arg16) (by decide))
    (rfl)

/-- `arg17`, made at boundary 0, is unchanged where it is read at boundary 1. -/
theorem carry_arg17_0_1 (c : Dev nD) : W1 m ρ c (Proc.devRef .tc main_arg17) = m ((c : Thread nD τ).loc main_arg17) :=
  Eq.trans ((hostOps0_writes (F := F)).keep (W0 m ρ c) (r := main_arg17) (by decide))
    (rfl)

/-- `arg18`, made at boundary 0, is unchanged where it is read at boundary 1. -/
theorem carry_arg18_0_1 (c : Dev nD) : W1 m ρ c (Proc.devRef .tc main_arg18) = m ((c : Thread nD τ).loc main_arg18) :=
  Eq.trans ((hostOps0_writes (F := F)).keep (W0 m ρ c) (r := main_arg18) (by decide))
    (rfl)

/-- `arg19`, made at boundary 0, is unchanged where it is read at boundary 1. -/
theorem carry_arg19_0_1 (c : Dev nD) : W1 m ρ c (Proc.devRef .tc main_arg19) = m ((c : Thread nD τ).loc main_arg19) :=
  Eq.trans ((hostOps0_writes (F := F)).keep (W0 m ρ c) (r := main_arg19) (by decide))
    (rfl)

/-- `arg20`, made at boundary 0, is unchanged where it is read at boundary 1. -/
theorem carry_arg20_0_1 (c : Dev nD) : W1 m ρ c (Proc.devRef .tc main_arg20) = m ((c : Thread nD τ).loc main_arg20) :=
  Eq.trans ((hostOps0_writes (F := F)).keep (W0 m ρ c) (r := main_arg20) (by decide))
    (rfl)

/-- `arg21`, made at boundary 0, is unchanged where it is read at boundary 1. -/
theorem carry_arg21_0_1 (c : Dev nD) : W1 m ρ c (Proc.devRef .tc main_arg21) = m ((c : Thread nD τ).loc main_arg21) :=
  Eq.trans ((hostOps0_writes (F := F)).keep (W0 m ρ c) (r := main_arg21) (by decide))
    (rfl)

/-- `arg22`, made at boundary 0, is unchanged where it is read at boundary 1. -/
theorem carry_arg22_0_1 (c : Dev nD) : W1 m ρ c (Proc.devRef .tc main_arg22) = m ((c : Thread nD τ).loc main_arg22) :=
  Eq.trans ((hostOps0_writes (F := F)).keep (W0 m ρ c) (r := main_arg22) (by decide))
    (rfl)

/-- `arg23`, made at boundary 0, is unchanged where it is read at boundary 1. -/
theorem carry_arg23_0_1 (c : Dev nD) : W1 m ρ c (Proc.devRef .tc main_arg23) = m ((c : Thread nD τ).loc main_arg23) :=
  Eq.trans ((hostOps0_writes (F := F)).keep (W0 m ρ c) (r := main_arg23) (by decide))
    (rfl)

/-- `arg24`, made at boundary 0, is unchanged where it is read at boundary 1. -/
theorem carry_arg24_0_1 (c : Dev nD) : W1 m ρ c (Proc.devRef .tc main_arg24) = m ((c : Thread nD τ).loc main_arg24) :=
  Eq.trans ((hostOps0_writes (F := F)).keep (W0 m ρ c) (r := main_arg24) (by decide))
    (rfl)

/-- `arg25`, made at boundary 0, is unchanged where it is read at boundary 1. -/
theorem carry_arg25_0_1 (c : Dev nD) : W1 m ρ c (Proc.devRef .tc main_arg25) = m ((c : Thread nD τ).loc main_arg25) :=
  Eq.trans ((hostOps0_writes (F := F)).keep (W0 m ρ c) (r := main_arg25) (by decide))
    (rfl)

/-- `arg26`, made at boundary 0, is unchanged where it is read at boundary 1. -/
theorem carry_arg26_0_1 (c : Dev nD) : W1 m ρ c (Proc.devRef .tc main_arg26) = m ((c : Thread nD τ).loc main_arg26) :=
  Eq.trans ((hostOps0_writes (F := F)).keep (W0 m ρ c) (r := main_arg26) (by decide))
    (rfl)

/-- `arg27`, made at boundary 0, is unchanged where it is read at boundary 1. -/
theorem carry_arg27_0_1 (c : Dev nD) : W1 m ρ c (Proc.devRef .tc main_arg27) = m ((c : Thread nD τ).loc main_arg27) :=
  Eq.trans ((hostOps0_writes (F := F)).keep (W0 m ρ c) (r := main_arg27) (by decide))
    (rfl)

/-- `arg1`, made at boundary 0, is unchanged where it is read at boundary 3. -/
theorem carry_arg1_0_3 (c : Dev nD) : W3 m ρ c (Proc.devRef .tc main_arg1) = m ((c : Thread nD τ).loc main_arg1) :=
  Eq.trans ((hostOps1_writes (F := F)).keep (W2 m ρ c) (r := main_arg1) (by decide))
    (Eq.trans (W2_of_ne m ρ c main_arg1 (by decide))
    (Eq.trans ((hostOps0_writes (F := F)).keep (W0 m ρ c) (r := main_arg1) (by decide))
    (rfl)))

/-- `arg4`, made at boundary 0, is unchanged where it is read at boundary 3. -/
theorem carry_arg4_0_3 (c : Dev nD) : W3 m ρ c (Proc.devRef .tc main_arg4) = m ((c : Thread nD τ).loc main_arg4) :=
  Eq.trans ((hostOps1_writes (F := F)).keep (W2 m ρ c) (r := main_arg4) (by decide))
    (Eq.trans (W2_of_ne m ρ c main_arg4 (by decide))
    (Eq.trans ((hostOps0_writes (F := F)).keep (W0 m ρ c) (r := main_arg4) (by decide))
    (rfl)))

/-- `arg5`, made at boundary 0, is unchanged where it is read at boundary 3. -/
theorem carry_arg5_0_3 (c : Dev nD) : W3 m ρ c (Proc.devRef .tc main_arg5) = m ((c : Thread nD τ).loc main_arg5) :=
  Eq.trans ((hostOps1_writes (F := F)).keep (W2 m ρ c) (r := main_arg5) (by decide))
    (Eq.trans (W2_of_ne m ρ c main_arg5 (by decide))
    (Eq.trans ((hostOps0_writes (F := F)).keep (W0 m ρ c) (r := main_arg5) (by decide))
    (rfl)))

/-- `arg6`, made at boundary 0, is unchanged where it is read at boundary 3. -/
theorem carry_arg6_0_3 (c : Dev nD) : W3 m ρ c (Proc.devRef .tc main_arg6) = m ((c : Thread nD τ).loc main_arg6) :=
  Eq.trans ((hostOps1_writes (F := F)).keep (W2 m ρ c) (r := main_arg6) (by decide))
    (Eq.trans (W2_of_ne m ρ c main_arg6 (by decide))
    (Eq.trans ((hostOps0_writes (F := F)).keep (W0 m ρ c) (r := main_arg6) (by decide))
    (rfl)))

/-- `v65`, made at boundary 1, is unchanged where it is read at boundary 3. -/
theorem carry_v65_1_3 (c : Dev nD) : W3 m ρ c (Proc.devRef .tc main_v65) = W1 m ρ c (Proc.devRef .tc main_v65) :=
  Eq.trans ((hostOps1_writes (F := F)).keep (W2 m ρ c) (r := main_v65) (by decide))
    (Eq.trans (W2_of_ne m ρ c main_v65 (by decide))
    (rfl))

/-- `v125`, made at boundary 1, is unchanged where it is read at boundary 3. -/
theorem carry_v125_1_3 (c : Dev nD) : W3 m ρ c (Proc.devRef .tc main_v125) = W1 m ρ c (Proc.devRef .tc main_v125) :=
  Eq.trans ((hostOps1_writes (F := F)).keep (W2 m ρ c) (r := main_v125) (by decide))
    (Eq.trans (W2_of_ne m ρ c main_v125 (by decide))
    (rfl))

/-- `arg2`, made at boundary 0, is unchanged where it is read at boundary 5. -/
theorem carry_arg2_0_5 (c : Dev nD) : W5 m ρ c (Proc.devRef .tc main_arg2) = m ((c : Thread nD τ).loc main_arg2) :=
  Eq.trans ((hostOps2_writes (F := F)).keep (W4 m ρ c) (r := main_arg2) (by decide))
    (Eq.trans (W4_of_ne m ρ c main_arg2 (by decide))
    (Eq.trans ((hostOps1_writes (F := F)).keep (W2 m ρ c) (r := main_arg2) (by decide))
    (Eq.trans (W2_of_ne m ρ c main_arg2 (by decide))
    (Eq.trans ((hostOps0_writes (F := F)).keep (W0 m ρ c) (r := main_arg2) (by decide))
    (rfl)))))

/-- `arg4`, made at boundary 0, is unchanged where it is read at boundary 5. -/
theorem carry_arg4_0_5 (c : Dev nD) : W5 m ρ c (Proc.devRef .tc main_arg4) = m ((c : Thread nD τ).loc main_arg4) :=
  Eq.trans ((hostOps2_writes (F := F)).keep (W4 m ρ c) (r := main_arg4) (by decide))
    (Eq.trans (W4_of_ne m ρ c main_arg4 (by decide))
    (Eq.trans ((hostOps1_writes (F := F)).keep (W2 m ρ c) (r := main_arg4) (by decide))
    (Eq.trans (W2_of_ne m ρ c main_arg4 (by decide))
    (Eq.trans ((hostOps0_writes (F := F)).keep (W0 m ρ c) (r := main_arg4) (by decide))
    (rfl)))))

/-- `arg5`, made at boundary 0, is unchanged where it is read at boundary 5. -/
theorem carry_arg5_0_5 (c : Dev nD) : W5 m ρ c (Proc.devRef .tc main_arg5) = m ((c : Thread nD τ).loc main_arg5) :=
  Eq.trans ((hostOps2_writes (F := F)).keep (W4 m ρ c) (r := main_arg5) (by decide))
    (Eq.trans (W4_of_ne m ρ c main_arg5 (by decide))
    (Eq.trans ((hostOps1_writes (F := F)).keep (W2 m ρ c) (r := main_arg5) (by decide))
    (Eq.trans (W2_of_ne m ρ c main_arg5 (by decide))
    (Eq.trans ((hostOps0_writes (F := F)).keep (W0 m ρ c) (r := main_arg5) (by decide))
    (rfl)))))

/-- `arg6`, made at boundary 0, is unchanged where it is read at boundary 5. -/
theorem carry_arg6_0_5 (c : Dev nD) : W5 m ρ c (Proc.devRef .tc main_arg6) = m ((c : Thread nD τ).loc main_arg6) :=
  Eq.trans ((hostOps2_writes (F := F)).keep (W4 m ρ c) (r := main_arg6) (by decide))
    (Eq.trans (W4_of_ne m ρ c main_arg6 (by decide))
    (Eq.trans ((hostOps1_writes (F := F)).keep (W2 m ρ c) (r := main_arg6) (by decide))
    (Eq.trans (W2_of_ne m ρ c main_arg6 (by decide))
    (Eq.trans ((hostOps0_writes (F := F)).keep (W0 m ρ c) (r := main_arg6) (by decide))
    (rfl)))))

/-- `v53`, made at boundary 1, is unchanged where it is read at boundary 5. -/
theorem carry_v53_1_5 (c : Dev nD) : W5 m ρ c (Proc.devRef .tc main_v53) = W1 m ρ c (Proc.devRef .tc main_v53) :=
  Eq.trans ((hostOps2_writes (F := F)).keep (W4 m ρ c) (r := main_v53) (by decide))
    (Eq.trans (W4_of_ne m ρ c main_v53 (by decide))
    (Eq.trans ((hostOps1_writes (F := F)).keep (W2 m ρ c) (r := main_v53) (by decide))
    (Eq.trans (W2_of_ne m ρ c main_v53 (by decide))
    (rfl))))

/-- `v89`, made at boundary 1, is unchanged where it is read at boundary 5. -/
theorem carry_v89_1_5 (c : Dev nD) : W5 m ρ c (Proc.devRef .tc main_v89) = W1 m ρ c (Proc.devRef .tc main_v89) :=
  Eq.trans ((hostOps2_writes (F := F)).keep (W4 m ρ c) (r := main_v89) (by decide))
    (Eq.trans (W4_of_ne m ρ c main_v89 (by decide))
    (Eq.trans ((hostOps1_writes (F := F)).keep (W2 m ρ c) (r := main_v89) (by decide))
    (Eq.trans (W2_of_ne m ρ c main_v89 (by decide))
    (rfl))))

/-- `arg3`, made at boundary 0, is unchanged where it is read at boundary 7. -/
theorem carry_arg3_0_7 (c : Dev nD) : W7 m ρ c (Proc.devRef .tc main_arg3) = m ((c : Thread nD τ).loc main_arg3) :=
  Eq.trans ((hostOps3_writes (F := F)).keep (W6 m ρ c) (r := main_arg3) (by decide))
    (Eq.trans (W6_of_ne m ρ c main_arg3 (by decide))
    (Eq.trans ((hostOps2_writes (F := F)).keep (W4 m ρ c) (r := main_arg3) (by decide))
    (Eq.trans (W4_of_ne m ρ c main_arg3 (by decide))
    (Eq.trans ((hostOps1_writes (F := F)).keep (W2 m ρ c) (r := main_arg3) (by decide))
    (Eq.trans (W2_of_ne m ρ c main_arg3 (by decide))
    (Eq.trans ((hostOps0_writes (F := F)).keep (W0 m ρ c) (r := main_arg3) (by decide))
    (rfl)))))))

/-- `arg4`, made at boundary 0, is unchanged where it is read at boundary 7. -/
theorem carry_arg4_0_7 (c : Dev nD) : W7 m ρ c (Proc.devRef .tc main_arg4) = m ((c : Thread nD τ).loc main_arg4) :=
  Eq.trans ((hostOps3_writes (F := F)).keep (W6 m ρ c) (r := main_arg4) (by decide))
    (Eq.trans (W6_of_ne m ρ c main_arg4 (by decide))
    (Eq.trans ((hostOps2_writes (F := F)).keep (W4 m ρ c) (r := main_arg4) (by decide))
    (Eq.trans (W4_of_ne m ρ c main_arg4 (by decide))
    (Eq.trans ((hostOps1_writes (F := F)).keep (W2 m ρ c) (r := main_arg4) (by decide))
    (Eq.trans (W2_of_ne m ρ c main_arg4 (by decide))
    (Eq.trans ((hostOps0_writes (F := F)).keep (W0 m ρ c) (r := main_arg4) (by decide))
    (rfl)))))))

/-- `arg5`, made at boundary 0, is unchanged where it is read at boundary 7. -/
theorem carry_arg5_0_7 (c : Dev nD) : W7 m ρ c (Proc.devRef .tc main_arg5) = m ((c : Thread nD τ).loc main_arg5) :=
  Eq.trans ((hostOps3_writes (F := F)).keep (W6 m ρ c) (r := main_arg5) (by decide))
    (Eq.trans (W6_of_ne m ρ c main_arg5 (by decide))
    (Eq.trans ((hostOps2_writes (F := F)).keep (W4 m ρ c) (r := main_arg5) (by decide))
    (Eq.trans (W4_of_ne m ρ c main_arg5 (by decide))
    (Eq.trans ((hostOps1_writes (F := F)).keep (W2 m ρ c) (r := main_arg5) (by decide))
    (Eq.trans (W2_of_ne m ρ c main_arg5 (by decide))
    (Eq.trans ((hostOps0_writes (F := F)).keep (W0 m ρ c) (r := main_arg5) (by decide))
    (rfl)))))))

/-- `arg6`, made at boundary 0, is unchanged where it is read at boundary 7. -/
theorem carry_arg6_0_7 (c : Dev nD) : W7 m ρ c (Proc.devRef .tc main_arg6) = m ((c : Thread nD τ).loc main_arg6) :=
  Eq.trans ((hostOps3_writes (F := F)).keep (W6 m ρ c) (r := main_arg6) (by decide))
    (Eq.trans (W6_of_ne m ρ c main_arg6 (by decide))
    (Eq.trans ((hostOps2_writes (F := F)).keep (W4 m ρ c) (r := main_arg6) (by decide))
    (Eq.trans (W4_of_ne m ρ c main_arg6 (by decide))
    (Eq.trans ((hostOps1_writes (F := F)).keep (W2 m ρ c) (r := main_arg6) (by decide))
    (Eq.trans (W2_of_ne m ρ c main_arg6 (by decide))
    (Eq.trans ((hostOps0_writes (F := F)).keep (W0 m ρ c) (r := main_arg6) (by decide))
    (rfl)))))))

/-- `v77`, made at boundary 1, is unchanged where it is read at boundary 7. -/
theorem carry_v77_1_7 (c : Dev nD) : W7 m ρ c (Proc.devRef .tc main_v77) = W1 m ρ c (Proc.devRef .tc main_v77) :=
  Eq.trans ((hostOps3_writes (F := F)).keep (W6 m ρ c) (r := main_v77) (by decide))
    (Eq.trans (W6_of_ne m ρ c main_v77 (by decide))
    (Eq.trans ((hostOps2_writes (F := F)).keep (W4 m ρ c) (r := main_v77) (by decide))
    (Eq.trans (W4_of_ne m ρ c main_v77 (by decide))
    (Eq.trans ((hostOps1_writes (F := F)).keep (W2 m ρ c) (r := main_v77) (by decide))
    (Eq.trans (W2_of_ne m ρ c main_v77 (by decide))
    (rfl))))))

/-- `arg10`, made at boundary 0, is unchanged where it is read at boundary 9. -/
theorem carry_arg10_0_9 (c : Dev nD) : W9 m ρ c (Proc.devRef .tc main_arg10) = m ((c : Thread nD τ).loc main_arg10) :=
  Eq.trans ((hostOps4_writes (F := F)).keep (W8 m ρ c) (r := main_arg10) (by decide))
    (Eq.trans (W8_of_ne m ρ c main_arg10 (by decide))
    (Eq.trans ((hostOps3_writes (F := F)).keep (W6 m ρ c) (r := main_arg10) (by decide))
    (Eq.trans (W6_of_ne m ρ c main_arg10 (by decide))
    (Eq.trans ((hostOps2_writes (F := F)).keep (W4 m ρ c) (r := main_arg10) (by decide))
    (Eq.trans (W4_of_ne m ρ c main_arg10 (by decide))
    (Eq.trans ((hostOps1_writes (F := F)).keep (W2 m ρ c) (r := main_arg10) (by decide))
    (Eq.trans (W2_of_ne m ρ c main_arg10 (by decide))
    (Eq.trans ((hostOps0_writes (F := F)).keep (W0 m ρ c) (r := main_arg10) (by decide))
    (rfl)))))))))

/-- `arg11`, made at boundary 0, is unchanged where it is read at boundary 9. -/
theorem carry_arg11_0_9 (c : Dev nD) : W9 m ρ c (Proc.devRef .tc main_arg11) = m ((c : Thread nD τ).loc main_arg11) :=
  Eq.trans ((hostOps4_writes (F := F)).keep (W8 m ρ c) (r := main_arg11) (by decide))
    (Eq.trans (W8_of_ne m ρ c main_arg11 (by decide))
    (Eq.trans ((hostOps3_writes (F := F)).keep (W6 m ρ c) (r := main_arg11) (by decide))
    (Eq.trans (W6_of_ne m ρ c main_arg11 (by decide))
    (Eq.trans ((hostOps2_writes (F := F)).keep (W4 m ρ c) (r := main_arg11) (by decide))
    (Eq.trans (W4_of_ne m ρ c main_arg11 (by decide))
    (Eq.trans ((hostOps1_writes (F := F)).keep (W2 m ρ c) (r := main_arg11) (by decide))
    (Eq.trans (W2_of_ne m ρ c main_arg11 (by decide))
    (Eq.trans ((hostOps0_writes (F := F)).keep (W0 m ρ c) (r := main_arg11) (by decide))
    (rfl)))))))))

/-- `v140_0`, made at boundary 2, is unchanged where it is read at boundary 9. -/
theorem carry_v140_0_2_9 (c : Dev nD) : W9 m ρ c (Proc.devRef .tc main_v140_0) = W2 m ρ c (Proc.devRef .tc main_v140_0) :=
  Eq.trans ((hostOps4_writes (F := F)).keep (W8 m ρ c) (r := main_v140_0) (by decide))
    (Eq.trans (W8_of_ne m ρ c main_v140_0 (by decide))
    (Eq.trans ((hostOps3_writes (F := F)).keep (W6 m ρ c) (r := main_v140_0) (by decide))
    (Eq.trans (W6_of_ne m ρ c main_v140_0 (by decide))
    (Eq.trans ((hostOps2_writes (F := F)).keep (W4 m ρ c) (r := main_v140_0) (by decide))
    (Eq.trans (W4_of_ne m ρ c main_v140_0 (by decide))
    (Eq.trans ((hostOps1_writes (F := F)).keep (W2 m ρ c) (r := main_v140_0) (by decide))
    (rfl)))))))

/-- `v140_1`, made at boundary 2, is unchanged where it is read at boundary 9. -/
theorem carry_v140_1_2_9 (c : Dev nD) : W9 m ρ c (Proc.devRef .tc main_v140_1) = W2 m ρ c (Proc.devRef .tc main_v140_1) :=
  Eq.trans ((hostOps4_writes (F := F)).keep (W8 m ρ c) (r := main_v140_1) (by decide))
    (Eq.trans (W8_of_ne m ρ c main_v140_1 (by decide))
    (Eq.trans ((hostOps3_writes (F := F)).keep (W6 m ρ c) (r := main_v140_1) (by decide))
    (Eq.trans (W6_of_ne m ρ c main_v140_1 (by decide))
    (Eq.trans ((hostOps2_writes (F := F)).keep (W4 m ρ c) (r := main_v140_1) (by decide))
    (Eq.trans (W4_of_ne m ρ c main_v140_1 (by decide))
    (Eq.trans ((hostOps1_writes (F := F)).keep (W2 m ρ c) (r := main_v140_1) (by decide))
    (rfl)))))))

/-- `v140_2`, made at boundary 2, is unchanged where it is read at boundary 9. -/
theorem carry_v140_2_2_9 (c : Dev nD) : W9 m ρ c (Proc.devRef .tc main_v140_2) = W2 m ρ c (Proc.devRef .tc main_v140_2) :=
  Eq.trans ((hostOps4_writes (F := F)).keep (W8 m ρ c) (r := main_v140_2) (by decide))
    (Eq.trans (W8_of_ne m ρ c main_v140_2 (by decide))
    (Eq.trans ((hostOps3_writes (F := F)).keep (W6 m ρ c) (r := main_v140_2) (by decide))
    (Eq.trans (W6_of_ne m ρ c main_v140_2 (by decide))
    (Eq.trans ((hostOps2_writes (F := F)).keep (W4 m ρ c) (r := main_v140_2) (by decide))
    (Eq.trans (W4_of_ne m ρ c main_v140_2 (by decide))
    (Eq.trans ((hostOps1_writes (F := F)).keep (W2 m ρ c) (r := main_v140_2) (by decide))
    (rfl)))))))

/-- `arg10`, made at boundary 0, is unchanged where it is read at boundary 11. -/
theorem carry_arg10_0_11 (c : Dev nD) : W11 m ρ c (Proc.devRef .tc main_arg10) = m ((c : Thread nD τ).loc main_arg10) :=
  Eq.trans ((hostOps5_writes (F := F)).keep (W10 m ρ c) (r := main_arg10) (by decide))
    (Eq.trans (W10_of_ne m ρ c main_arg10 (by decide))
    (Eq.trans ((hostOps4_writes (F := F)).keep (W8 m ρ c) (r := main_arg10) (by decide))
    (Eq.trans (W8_of_ne m ρ c main_arg10 (by decide))
    (Eq.trans ((hostOps3_writes (F := F)).keep (W6 m ρ c) (r := main_arg10) (by decide))
    (Eq.trans (W6_of_ne m ρ c main_arg10 (by decide))
    (Eq.trans ((hostOps2_writes (F := F)).keep (W4 m ρ c) (r := main_arg10) (by decide))
    (Eq.trans (W4_of_ne m ρ c main_arg10 (by decide))
    (Eq.trans ((hostOps1_writes (F := F)).keep (W2 m ρ c) (r := main_arg10) (by decide))
    (Eq.trans (W2_of_ne m ρ c main_arg10 (by decide))
    (Eq.trans ((hostOps0_writes (F := F)).keep (W0 m ρ c) (r := main_arg10) (by decide))
    (rfl)))))))))))

/-- `arg11`, made at boundary 0, is unchanged where it is read at boundary 11. -/
theorem carry_arg11_0_11 (c : Dev nD) : W11 m ρ c (Proc.devRef .tc main_arg11) = m ((c : Thread nD τ).loc main_arg11) :=
  Eq.trans ((hostOps5_writes (F := F)).keep (W10 m ρ c) (r := main_arg11) (by decide))
    (Eq.trans (W10_of_ne m ρ c main_arg11 (by decide))
    (Eq.trans ((hostOps4_writes (F := F)).keep (W8 m ρ c) (r := main_arg11) (by decide))
    (Eq.trans (W8_of_ne m ρ c main_arg11 (by decide))
    (Eq.trans ((hostOps3_writes (F := F)).keep (W6 m ρ c) (r := main_arg11) (by decide))
    (Eq.trans (W6_of_ne m ρ c main_arg11 (by decide))
    (Eq.trans ((hostOps2_writes (F := F)).keep (W4 m ρ c) (r := main_arg11) (by decide))
    (Eq.trans (W4_of_ne m ρ c main_arg11 (by decide))
    (Eq.trans ((hostOps1_writes (F := F)).keep (W2 m ρ c) (r := main_arg11) (by decide))
    (Eq.trans (W2_of_ne m ρ c main_arg11 (by decide))
    (Eq.trans ((hostOps0_writes (F := F)).keep (W0 m ρ c) (r := main_arg11) (by decide))
    (rfl)))))))))))

/-- `v155_0`, made at boundary 4, is unchanged where it is read at boundary 11. -/
theorem carry_v155_0_4_11 (c : Dev nD) : W11 m ρ c (Proc.devRef .tc main_v155_0) = W4 m ρ c (Proc.devRef .tc main_v155_0) :=
  Eq.trans ((hostOps5_writes (F := F)).keep (W10 m ρ c) (r := main_v155_0) (by decide))
    (Eq.trans (W10_of_ne m ρ c main_v155_0 (by decide))
    (Eq.trans ((hostOps4_writes (F := F)).keep (W8 m ρ c) (r := main_v155_0) (by decide))
    (Eq.trans (W8_of_ne m ρ c main_v155_0 (by decide))
    (Eq.trans ((hostOps3_writes (F := F)).keep (W6 m ρ c) (r := main_v155_0) (by decide))
    (Eq.trans (W6_of_ne m ρ c main_v155_0 (by decide))
    (Eq.trans ((hostOps2_writes (F := F)).keep (W4 m ρ c) (r := main_v155_0) (by decide))
    (rfl)))))))

/-- `v155_1`, made at boundary 4, is unchanged where it is read at boundary 11. -/
theorem carry_v155_1_4_11 (c : Dev nD) : W11 m ρ c (Proc.devRef .tc main_v155_1) = W4 m ρ c (Proc.devRef .tc main_v155_1) :=
  Eq.trans ((hostOps5_writes (F := F)).keep (W10 m ρ c) (r := main_v155_1) (by decide))
    (Eq.trans (W10_of_ne m ρ c main_v155_1 (by decide))
    (Eq.trans ((hostOps4_writes (F := F)).keep (W8 m ρ c) (r := main_v155_1) (by decide))
    (Eq.trans (W8_of_ne m ρ c main_v155_1 (by decide))
    (Eq.trans ((hostOps3_writes (F := F)).keep (W6 m ρ c) (r := main_v155_1) (by decide))
    (Eq.trans (W6_of_ne m ρ c main_v155_1 (by decide))
    (Eq.trans ((hostOps2_writes (F := F)).keep (W4 m ρ c) (r := main_v155_1) (by decide))
    (rfl)))))))

/-- `v155_2`, made at boundary 4, is unchanged where it is read at boundary 11. -/
theorem carry_v155_2_4_11 (c : Dev nD) : W11 m ρ c (Proc.devRef .tc main_v155_2) = W4 m ρ c (Proc.devRef .tc main_v155_2) :=
  Eq.trans ((hostOps5_writes (F := F)).keep (W10 m ρ c) (r := main_v155_2) (by decide))
    (Eq.trans (W10_of_ne m ρ c main_v155_2 (by decide))
    (Eq.trans ((hostOps4_writes (F := F)).keep (W8 m ρ c) (r := main_v155_2) (by decide))
    (Eq.trans (W8_of_ne m ρ c main_v155_2 (by decide))
    (Eq.trans ((hostOps3_writes (F := F)).keep (W6 m ρ c) (r := main_v155_2) (by decide))
    (Eq.trans (W6_of_ne m ρ c main_v155_2 (by decide))
    (Eq.trans ((hostOps2_writes (F := F)).keep (W4 m ρ c) (r := main_v155_2) (by decide))
    (rfl)))))))

/-- `arg10`, made at boundary 0, is unchanged where it is read at boundary 13. -/
theorem carry_arg10_0_13 (c : Dev nD) : W13 m ρ c (Proc.devRef .tc main_arg10) = m ((c : Thread nD τ).loc main_arg10) :=
  Eq.trans ((hostOps6_writes (F := F)).keep (W12 m ρ c) (r := main_arg10) (by decide))
    (Eq.trans (W12_of_ne m ρ c main_arg10 (by decide))
    (Eq.trans ((hostOps5_writes (F := F)).keep (W10 m ρ c) (r := main_arg10) (by decide))
    (Eq.trans (W10_of_ne m ρ c main_arg10 (by decide))
    (Eq.trans ((hostOps4_writes (F := F)).keep (W8 m ρ c) (r := main_arg10) (by decide))
    (Eq.trans (W8_of_ne m ρ c main_arg10 (by decide))
    (Eq.trans ((hostOps3_writes (F := F)).keep (W6 m ρ c) (r := main_arg10) (by decide))
    (Eq.trans (W6_of_ne m ρ c main_arg10 (by decide))
    (Eq.trans ((hostOps2_writes (F := F)).keep (W4 m ρ c) (r := main_arg10) (by decide))
    (Eq.trans (W4_of_ne m ρ c main_arg10 (by decide))
    (Eq.trans ((hostOps1_writes (F := F)).keep (W2 m ρ c) (r := main_arg10) (by decide))
    (Eq.trans (W2_of_ne m ρ c main_arg10 (by decide))
    (Eq.trans ((hostOps0_writes (F := F)).keep (W0 m ρ c) (r := main_arg10) (by decide))
    (rfl)))))))))))))

/-- `arg11`, made at boundary 0, is unchanged where it is read at boundary 13. -/
theorem carry_arg11_0_13 (c : Dev nD) : W13 m ρ c (Proc.devRef .tc main_arg11) = m ((c : Thread nD τ).loc main_arg11) :=
  Eq.trans ((hostOps6_writes (F := F)).keep (W12 m ρ c) (r := main_arg11) (by decide))
    (Eq.trans (W12_of_ne m ρ c main_arg11 (by decide))
    (Eq.trans ((hostOps5_writes (F := F)).keep (W10 m ρ c) (r := main_arg11) (by decide))
    (Eq.trans (W10_of_ne m ρ c main_arg11 (by decide))
    (Eq.trans ((hostOps4_writes (F := F)).keep (W8 m ρ c) (r := main_arg11) (by decide))
    (Eq.trans (W8_of_ne m ρ c main_arg11 (by decide))
    (Eq.trans ((hostOps3_writes (F := F)).keep (W6 m ρ c) (r := main_arg11) (by decide))
    (Eq.trans (W6_of_ne m ρ c main_arg11 (by decide))
    (Eq.trans ((hostOps2_writes (F := F)).keep (W4 m ρ c) (r := main_arg11) (by decide))
    (Eq.trans (W4_of_ne m ρ c main_arg11 (by decide))
    (Eq.trans ((hostOps1_writes (F := F)).keep (W2 m ρ c) (r := main_arg11) (by decide))
    (Eq.trans (W2_of_ne m ρ c main_arg11 (by decide))
    (Eq.trans ((hostOps0_writes (F := F)).keep (W0 m ρ c) (r := main_arg11) (by decide))
    (rfl)))))))))))))

/-- `v170_0`, made at boundary 6, is unchanged where it is read at boundary 13. -/
theorem carry_v170_0_6_13 (c : Dev nD) : W13 m ρ c (Proc.devRef .tc main_v170_0) = W6 m ρ c (Proc.devRef .tc main_v170_0) :=
  Eq.trans ((hostOps6_writes (F := F)).keep (W12 m ρ c) (r := main_v170_0) (by decide))
    (Eq.trans (W12_of_ne m ρ c main_v170_0 (by decide))
    (Eq.trans ((hostOps5_writes (F := F)).keep (W10 m ρ c) (r := main_v170_0) (by decide))
    (Eq.trans (W10_of_ne m ρ c main_v170_0 (by decide))
    (Eq.trans ((hostOps4_writes (F := F)).keep (W8 m ρ c) (r := main_v170_0) (by decide))
    (Eq.trans (W8_of_ne m ρ c main_v170_0 (by decide))
    (Eq.trans ((hostOps3_writes (F := F)).keep (W6 m ρ c) (r := main_v170_0) (by decide))
    (rfl)))))))

/-- `v170_1`, made at boundary 6, is unchanged where it is read at boundary 13. -/
theorem carry_v170_1_6_13 (c : Dev nD) : W13 m ρ c (Proc.devRef .tc main_v170_1) = W6 m ρ c (Proc.devRef .tc main_v170_1) :=
  Eq.trans ((hostOps6_writes (F := F)).keep (W12 m ρ c) (r := main_v170_1) (by decide))
    (Eq.trans (W12_of_ne m ρ c main_v170_1 (by decide))
    (Eq.trans ((hostOps5_writes (F := F)).keep (W10 m ρ c) (r := main_v170_1) (by decide))
    (Eq.trans (W10_of_ne m ρ c main_v170_1 (by decide))
    (Eq.trans ((hostOps4_writes (F := F)).keep (W8 m ρ c) (r := main_v170_1) (by decide))
    (Eq.trans (W8_of_ne m ρ c main_v170_1 (by decide))
    (Eq.trans ((hostOps3_writes (F := F)).keep (W6 m ρ c) (r := main_v170_1) (by decide))
    (rfl)))))))

/-- `v170_2`, made at boundary 6, is unchanged where it is read at boundary 13. -/
theorem carry_v170_2_6_13 (c : Dev nD) : W13 m ρ c (Proc.devRef .tc main_v170_2) = W6 m ρ c (Proc.devRef .tc main_v170_2) :=
  Eq.trans ((hostOps6_writes (F := F)).keep (W12 m ρ c) (r := main_v170_2) (by decide))
    (Eq.trans (W12_of_ne m ρ c main_v170_2 (by decide))
    (Eq.trans ((hostOps5_writes (F := F)).keep (W10 m ρ c) (r := main_v170_2) (by decide))
    (Eq.trans (W10_of_ne m ρ c main_v170_2 (by decide))
    (Eq.trans ((hostOps4_writes (F := F)).keep (W8 m ρ c) (r := main_v170_2) (by decide))
    (Eq.trans (W8_of_ne m ρ c main_v170_2 (by decide))
    (Eq.trans ((hostOps3_writes (F := F)).keep (W6 m ρ c) (r := main_v170_2) (by decide))
    (rfl)))))))

/-- `arg10`, made at boundary 0, is unchanged where it is read at boundary 15. -/
theorem carry_arg10_0_15 (c : Dev nD) : W15 m ρ c (Proc.devRef .tc main_arg10) = m ((c : Thread nD τ).loc main_arg10) :=
  Eq.trans ((hostOps7_writes (F := F)).keep (W14 m ρ c) (r := main_arg10) (by decide))
    (Eq.trans (W14_of_ne m ρ c main_arg10 (by decide))
    (Eq.trans ((hostOps6_writes (F := F)).keep (W12 m ρ c) (r := main_arg10) (by decide))
    (Eq.trans (W12_of_ne m ρ c main_arg10 (by decide))
    (Eq.trans ((hostOps5_writes (F := F)).keep (W10 m ρ c) (r := main_arg10) (by decide))
    (Eq.trans (W10_of_ne m ρ c main_arg10 (by decide))
    (Eq.trans ((hostOps4_writes (F := F)).keep (W8 m ρ c) (r := main_arg10) (by decide))
    (Eq.trans (W8_of_ne m ρ c main_arg10 (by decide))
    (Eq.trans ((hostOps3_writes (F := F)).keep (W6 m ρ c) (r := main_arg10) (by decide))
    (Eq.trans (W6_of_ne m ρ c main_arg10 (by decide))
    (Eq.trans ((hostOps2_writes (F := F)).keep (W4 m ρ c) (r := main_arg10) (by decide))
    (Eq.trans (W4_of_ne m ρ c main_arg10 (by decide))
    (Eq.trans ((hostOps1_writes (F := F)).keep (W2 m ρ c) (r := main_arg10) (by decide))
    (Eq.trans (W2_of_ne m ρ c main_arg10 (by decide))
    (Eq.trans ((hostOps0_writes (F := F)).keep (W0 m ρ c) (r := main_arg10) (by decide))
    (rfl)))))))))))))))

/-- `arg11`, made at boundary 0, is unchanged where it is read at boundary 15. -/
theorem carry_arg11_0_15 (c : Dev nD) : W15 m ρ c (Proc.devRef .tc main_arg11) = m ((c : Thread nD τ).loc main_arg11) :=
  Eq.trans ((hostOps7_writes (F := F)).keep (W14 m ρ c) (r := main_arg11) (by decide))
    (Eq.trans (W14_of_ne m ρ c main_arg11 (by decide))
    (Eq.trans ((hostOps6_writes (F := F)).keep (W12 m ρ c) (r := main_arg11) (by decide))
    (Eq.trans (W12_of_ne m ρ c main_arg11 (by decide))
    (Eq.trans ((hostOps5_writes (F := F)).keep (W10 m ρ c) (r := main_arg11) (by decide))
    (Eq.trans (W10_of_ne m ρ c main_arg11 (by decide))
    (Eq.trans ((hostOps4_writes (F := F)).keep (W8 m ρ c) (r := main_arg11) (by decide))
    (Eq.trans (W8_of_ne m ρ c main_arg11 (by decide))
    (Eq.trans ((hostOps3_writes (F := F)).keep (W6 m ρ c) (r := main_arg11) (by decide))
    (Eq.trans (W6_of_ne m ρ c main_arg11 (by decide))
    (Eq.trans ((hostOps2_writes (F := F)).keep (W4 m ρ c) (r := main_arg11) (by decide))
    (Eq.trans (W4_of_ne m ρ c main_arg11 (by decide))
    (Eq.trans ((hostOps1_writes (F := F)).keep (W2 m ρ c) (r := main_arg11) (by decide))
    (Eq.trans (W2_of_ne m ρ c main_arg11 (by decide))
    (Eq.trans ((hostOps0_writes (F := F)).keep (W0 m ρ c) (r := main_arg11) (by decide))
    (rfl)))))))))))))))

/-- `v178_0`, made at boundary 8, is unchanged where it is read at boundary 15. -/
theorem carry_v178_0_8_15 (c : Dev nD) : W15 m ρ c (Proc.devRef .tc main_v178_0) = W8 m ρ c (Proc.devRef .tc main_v178_0) :=
  Eq.trans ((hostOps7_writes (F := F)).keep (W14 m ρ c) (r := main_v178_0) (by decide))
    (Eq.trans (W14_of_ne m ρ c main_v178_0 (by decide))
    (Eq.trans ((hostOps6_writes (F := F)).keep (W12 m ρ c) (r := main_v178_0) (by decide))
    (Eq.trans (W12_of_ne m ρ c main_v178_0 (by decide))
    (Eq.trans ((hostOps5_writes (F := F)).keep (W10 m ρ c) (r := main_v178_0) (by decide))
    (Eq.trans (W10_of_ne m ρ c main_v178_0 (by decide))
    (Eq.trans ((hostOps4_writes (F := F)).keep (W8 m ρ c) (r := main_v178_0) (by decide))
    (rfl)))))))

/-- `v178_1`, made at boundary 8, is unchanged where it is read at boundary 15. -/
theorem carry_v178_1_8_15 (c : Dev nD) : W15 m ρ c (Proc.devRef .tc main_v178_1) = W8 m ρ c (Proc.devRef .tc main_v178_1) :=
  Eq.trans ((hostOps7_writes (F := F)).keep (W14 m ρ c) (r := main_v178_1) (by decide))
    (Eq.trans (W14_of_ne m ρ c main_v178_1 (by decide))
    (Eq.trans ((hostOps6_writes (F := F)).keep (W12 m ρ c) (r := main_v178_1) (by decide))
    (Eq.trans (W12_of_ne m ρ c main_v178_1 (by decide))
    (Eq.trans ((hostOps5_writes (F := F)).keep (W10 m ρ c) (r := main_v178_1) (by decide))
    (Eq.trans (W10_of_ne m ρ c main_v178_1 (by decide))
    (Eq.trans ((hostOps4_writes (F := F)).keep (W8 m ρ c) (r := main_v178_1) (by decide))
    (rfl)))))))

/-- `v178_2`, made at boundary 8, is unchanged where it is read at boundary 15. -/
theorem carry_v178_2_8_15 (c : Dev nD) : W15 m ρ c (Proc.devRef .tc main_v178_2) = W8 m ρ c (Proc.devRef .tc main_v178_2) :=
  Eq.trans ((hostOps7_writes (F := F)).keep (W14 m ρ c) (r := main_v178_2) (by decide))
    (Eq.trans (W14_of_ne m ρ c main_v178_2 (by decide))
    (Eq.trans ((hostOps6_writes (F := F)).keep (W12 m ρ c) (r := main_v178_2) (by decide))
    (Eq.trans (W12_of_ne m ρ c main_v178_2 (by decide))
    (Eq.trans ((hostOps5_writes (F := F)).keep (W10 m ρ c) (r := main_v178_2) (by decide))
    (Eq.trans (W10_of_ne m ρ c main_v178_2 (by decide))
    (Eq.trans ((hostOps4_writes (F := F)).keep (W8 m ρ c) (r := main_v178_2) (by decide))
    (rfl)))))))

end Cert.KernelIdeal.Hand

end
-- ==== Proof.Sage.Real.lean ====
/-
  Extended reals that are real. At the ideal reading a float is an extended real; every value this
  kernel and its reference compute from finite inputs is a real number, and on real numbers the
  operations of the extended reals are the operations of ℝ. This file says so operation by operation
  (sum, difference, product, maximum, finite sum, quotient by a nonzero real, reciprocal square root
  of a positive real), and reads the float constants of the two programs as the reals they denote.
-/
import Idealize.ShloMosaic.PureOps.Ideal
import Mathlib.Data.EReal.Basic
import Mathlib.Data.EReal.Operations
import Mathlib.Data.EReal.Inv
import Mathlib.Algebra.BigOperators.Group.Finset.Basic

noncomputable section

namespace Sage

open Idealize.ShloMosaic
open scoped BigOperators

/-- An extended real that is (the coercion of) a real number. -/
def IsReal (x : EReal) : Prop := ∃ r : ℝ, x = (r : EReal)

/-! ### Coercion and the operations -/

/-- The coercion of a maximum of two reals is the maximum of the coercions. -/
theorem coe_max (a b : ℝ) : ((max a b : ℝ) : EReal) = max (a : EReal) (b : EReal) :=
  EReal.coe_strictMono.monotone.map_max

/-- The coercion of a finite sum of reals is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The quotient of a real by a nonzero real, read at the extended reals, is the real quotient. -/
theorem div_coe_coe (a : ℝ) {y : ℝ} (hy : y ≠ 0) :
    Ideal.div (a : EReal) (y : EReal) = ((a / y : ℝ) : EReal) := by
  rw [Ideal.div_coe hy, ← EReal.coe_mul, mul_one_div]

/-- The reciprocal square root of a positive real is the real `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.2 hr.le), if_neg hr.ne']

namespace IsReal

theorem coe (r : ℝ) : IsReal (r : EReal) := ⟨r, rfl⟩

theorem zero : IsReal (0 : EReal) := ⟨0, rfl⟩

theorem one : IsReal (1 : EReal) := ⟨1, rfl⟩

theorem add {x y : EReal} (hx : IsReal x) (hy : IsReal y) : IsReal (x + y) := by
  obtain ⟨a, rfl⟩ := hx; obtain ⟨b, rfl⟩ := hy
  exact ⟨a + b, (EReal.coe_add a b).symm⟩

theorem sub {x y : EReal} (hx : IsReal x) (hy : IsReal y) : IsReal (x - y) := by
  obtain ⟨a, rfl⟩ := hx; obtain ⟨b, rfl⟩ := hy
  exact ⟨a - b, (EReal.coe_sub a b).symm⟩

theorem mul {x y : EReal} (hx : IsReal x) (hy : IsReal y) : IsReal (x * y) := by
  obtain ⟨a, rfl⟩ := hx; obtain ⟨b, rfl⟩ := hy
  exact ⟨a * b, (EReal.coe_mul a b).symm⟩

theorem neg {x : EReal} (hx : IsReal x) : IsReal (-x) := by
  obtain ⟨a, rfl⟩ := hx
  exact ⟨-a, (EReal.coe_neg a).symm⟩

theorem max {x y : EReal} (hx : IsReal x) (hy : IsReal y) : IsReal (max x y) := by
  obtain ⟨a, rfl⟩ := hx; obtain ⟨b, rfl⟩ := hy
  exact ⟨Max.max a b, (coe_max a b).symm⟩

/-- The rectifier `max x 0` of a real is real. -/
theorem max_zero {x : EReal} (hx : IsReal x) : IsReal (Max.max x 0) := hx.max zero

/-- A finite sum of reals is real. -/
theorem sum {ι : Type} (s : Finset ι) (f : ι → EReal) (hf : ∀ i ∈ s, IsReal (f i)) :
    IsReal (∑ i ∈ s, f i) := by
  classical
  induction s using Finset.induction_on with
  | empty => simpa using zero
  | insert a s ha ih =>
    rw [Finset.sum_insert ha]
    exact (hf a (Finset.mem_insert_self a s)).add
      (ih fun i hi => hf i (Finset.mem_insert_of_mem hi))

/-- A sum over a finite type of reals is real. -/
theorem sum_univ {ι : Type} [Fintype ι] (f : ι → EReal) (hf : ∀ i, IsReal (f i)) :
    IsReal (∑ i, f i) := sum Finset.univ f fun i _ => hf i

/-- The value of a finite sum of coerced reals: the coercion of the real sum. -/
theorem sum_eq {ι : Type} (s : Finset ι) (g : ι → ℝ) :
    ∑ i ∈ s, (g i : EReal) = ((∑ i ∈ s, g i : ℝ) : EReal) := (coe_sum s g).symm

/-- A real divided by a nonzero real is real. -/
theorem div_coe {x : EReal} (hx : IsReal x) {y : ℝ} (hy : y ≠ 0) :
    IsReal (Ideal.div x (y : EReal)) := by
  obtain ⟨a, rfl⟩ := hx
  exact ⟨a / y, div_coe_coe a hy⟩

/-- The reciprocal square root of a positive real is real. -/
theorem rsqrt_pos {x : EReal} {r : ℝ} (hx : x = (r : EReal)) (hr : 0 < r) :
    IsReal (Ideal.rsqrt x) := by
  subst hx
  exact ⟨(Real.sqrt r)⁻¹, rsqrt_coe_pos hr⟩

/-- A real is neither infinity. -/
theorem ne_top {x : EReal} (hx : IsReal x) : x ≠ ⊤ := by
  obtain ⟨a, rfl⟩ := hx; exact EReal.coe_ne_top a

theorem ne_bot {x : EReal} (hx : IsReal x) : x ≠ ⊥ := by
  obtain ⟨a, rfl⟩ := hx; exact EReal.coe_ne_bot a

end IsReal

/-! ### The float constants of the two programs, as the reals their words denote -/

/-- `2.0e4`, the row count of the first node type. -/
theorem ofBits_20000 : Ideal.ofBits .f32 0x469C4000#32 = ((20000 : ℝ) : EReal) := by
  simp [Ideal.ofBits, Ideal.ieee, -EReal.coe_mul] <;> norm_num

/-- `5.0e4`, the row count of the second node type. -/
theorem ofBits_50000 : Ideal.ofBits .f32 0x47435000#32 = ((50000 : ℝ) : EReal) := by
  simp [Ideal.ofBits, Ideal.ieee, -EReal.coe_mul] <;> norm_num

/-- `1.0e4`, the row count of the third node type. -/
theorem ofBits_10000 : Ideal.ofBits .f32 0x461C4000#32 = ((10000 : ℝ) : EReal) := by
  simp [Ideal.ofBits, Ideal.ieee, -EReal.coe_mul] <;> norm_num

/-- `3.0e3`, the row count of the fourth node type. -/
theorem ofBits_3000 : Ideal.ofBits .f32 0x453B8000#32 = ((3000 : ℝ) : EReal) := by
  simp [Ideal.ofBits, Ideal.ieee, -EReal.coe_mul] <;> norm_num

/-- `1.0`. -/
theorem ofBits_one : Ideal.ofBits .f32 0x3F800000#32 = 1 := by
  simp [Ideal.ofBits, Ideal.ieee, -EReal.coe_mul] <;> norm_num

/-- `+0.0`. -/
theorem ofBits_zero : Ideal.ofBits .f32 0x00000000#32 = 0 := by
  simp [Ideal.ofBits, Ideal.ieee]

/-- The real the batch-norm epsilon's word denotes: `10995116 · 2⁻⁴⁰`, a little under `10⁻⁵`. -/
def epsR : ℝ := 10995116 * (2 : ℝ) ^ (-40 : ℤ)

theorem epsR_pos : 0 < epsR := by
  unfold epsR; positivity

/-- `9.99999974e-6`, the batch-norm epsilon, denotes the positive real `epsR`. -/
theorem ofBits_eps : Ideal.ofBits .f32 0x3727C5AC#32 = ((epsR : ℝ) : EReal) := by
  simp [Ideal.ofBits, Ideal.ieee, epsR, -EReal.coe_mul] <;> norm_num

/-! ### The variance law

For a finite family of reals and a nonzero real `n` equal to the number of its members, the mean of the squares less
the squared mean is the mean of the squared deviations from the mean — first in ℝ, then for the same expressions
read at the extended reals. -/

section Var

variable {ι : Type} [Fintype ι]

/-- In ℝ: the mean of the squares less the squared mean is the mean of the squared deviations. -/
theorem var_real_identity (g : ι → ℝ) (n : ℝ) (hn : n ≠ 0) (hcard : (Fintype.card ι : ℝ) = n) :
    (∑ i, g i * g i) / n - (∑ i, g i) / n * ((∑ i, g i) / n)
      = (∑ i, (g i - (∑ j, g j) / n) * (g i - (∑ j, g j) / n)) / n := by
  have hS : ∑ j, g j = (∑ j, g j) / n * n := by field_simp
  generalize (∑ j, g j) / n = m at hS ⊢
  have key : ∑ i, (g i - m) * (g i - m)
      = (∑ i, g i * g i) - 2 * m * (∑ i, g i) + n * (m * m) := by
    have hsq : ∀ i, (g i - m) * (g i - m) = g i * g i - 2 * m * g i + m * m := fun i => by ring
    simp only [hsq]
    rw [Finset.sum_add_distrib, Finset.sum_sub_distrib, ← Finset.mul_sum, Finset.sum_const,
      Finset.card_univ, nsmul_eq_mul, hcard]
  rw [key, hS]
  field_simp
  ring

/-- A nonzero real that counts a finite type is positive. -/
theorem card_pos_of_ne {n : ℝ} (hn : n ≠ 0) (hcard : (Fintype.card ι : ℝ) = n) : 0 < n :=
  lt_of_le_of_ne (hcard ▸ Nat.cast_nonneg _) hn.symm

/-- The mean of a family of reals, read at the extended reals, is the real mean. -/
theorem mean_coe (g : ι → ℝ) {n : ℝ} (hn : n ≠ 0) :
    Ideal.div (∑ i, (g i : EReal)) (n : EReal) = (((∑ i, g i) / n : ℝ) : EReal) := by
  rw [← coe_sum, div_coe_coe _ hn]

/-- The mean of squared deviations of a family of reals, read at the extended reals, is the real one. -/
theorem varDev_coe (g : ι → ℝ) {n : ℝ} (hn : n ≠ 0) :
    Ideal.div (∑ i, ((g i : EReal) - Ideal.div (∑ j, (g j : EReal)) (n : EReal))
        * ((g i : EReal) - Ideal.div (∑ j, (g j : EReal)) (n : EReal))) (n : EReal)
      = (((∑ i, (g i - (∑ j, g j) / n) * (g i - (∑ j, g j) / n)) / n : ℝ) : EReal) := by
  simp only [mean_coe g hn, ← EReal.coe_sub, ← EReal.coe_mul, ← coe_sum, div_coe_coe _ hn]

/-- The mean of squares less the squared mean of a family of reals, read at the extended reals, is the real one. -/
theorem varSq_coe (g : ι → ℝ) {n : ℝ} (hn : n ≠ 0) :
    Ideal.div (∑ i, (g i : EReal) * (g i : EReal)) (n : EReal)
        - Ideal.div (∑ i, (g i : EReal)) (n : EReal) * Ideal.div (∑ i, (g i : EReal)) (n : EReal)
      = (((∑ i, g i * g i) / n - (∑ i, g i) / n * ((∑ i, g i) / n) : ℝ) : EReal) := by
  simp only [mean_coe g hn, ← EReal.coe_sub, ← EReal.coe_mul, ← coe_sum, div_coe_coe _ hn]

/-- THE VARIANCE LAW at the extended reals, for a finite family of reals. -/
theorem var_law (h : ι → EReal) (hr : ∀ i, IsReal (h i)) (n : ℝ) (hn : n ≠ 0)
    (hcard : (Fintype.card ι : ℝ) = n) :
    Ideal.div (∑ i, h i * h i) (n : EReal)
        - Ideal.div (∑ i, h i) (n : EReal) * Ideal.div (∑ i, h i) (n : EReal)
      = Ideal.div (∑ i, (h i - Ideal.div (∑ j, h j) (n : EReal))
          * (h i - Ideal.div (∑ j, h j) (n : EReal))) (n : EReal) := by
  choose g hg using hr
  obtain rfl : h = fun i => (g i : EReal) := funext hg
  rw [varSq_coe g hn, varDev_coe g hn, var_real_identity g n hn hcard]

/-- The mean of squared deviations is a nonnegative real. -/
theorem varDev_eq_coe (h : ι → EReal) (hr : ∀ i, IsReal (h i)) (n : ℝ) (hn : n ≠ 0)
    (hcard : (Fintype.card ι : ℝ) = n) :
    ∃ v : ℝ, 0 ≤ v ∧
      Ideal.div (∑ i, (h i - Ideal.div (∑ j, h j) (n : EReal))
          * (h i - Ideal.div (∑ j, h j) (n : EReal))) (n : EReal) = (v : EReal) := by
  choose g hg using hr
  obtain rfl : h = fun i => (g i : EReal) := funext hg
  exact ⟨_, div_nonneg (Finset.sum_nonneg fun i _ => mul_self_nonneg _) (card_pos_of_ne hn hcard).le,
    varDev_coe g hn⟩

theorem var_isReal (h : ι → EReal) (hr : ∀ i, IsReal (h i)) (n : ℝ) (hn : n ≠ 0)
    (hcard : (Fintype.card ι : ℝ) = n) :
    IsReal (Ideal.div (∑ i, (h i - Ideal.div (∑ j, h j) (n : EReal))
          * (h i - Ideal.div (∑ j, h j) (n : EReal))) (n : EReal)) := by
  obtain ⟨v, _, hv⟩ := varDev_eq_coe h hr n hn hcard
  exact ⟨v, hv⟩

theorem var_nonneg (h : ι → EReal) (hr : ∀ i, IsReal (h i)) (n : ℝ) (hn : n ≠ 0)
    (hcard : (Fintype.card ι : ℝ) = n) :
    0 ≤ Ideal.div (∑ i, (h i - Ideal.div (∑ j, h j) (n : EReal))
          * (h i - Ideal.div (∑ j, h j) (n : EReal))) (n : EReal) := by
  obtain ⟨v, hv0, hv⟩ := varDev_eq_coe h hr n hn hcard
  rw [hv]; exact EReal.coe_nonneg.2 hv0

/-- The mean of a family of reals is real. -/
theorem mean_isReal (h : ι → EReal) (hr : ∀ i, IsReal (h i)) {n : ℝ} (hn : n ≠ 0) :
    IsReal (Ideal.div (∑ i, h i) (n : EReal)) :=
  (IsReal.sum_univ h hr).div_coe hn

end Var

/-! ### A nonnegative real plus a positive real, and its reciprocal square root -/

/-- A nonnegative real plus a positive real is a positive real. -/
theorem add_eps_eq_coe {x : EReal} (hx : IsReal x) (h0 : 0 ≤ x) {e : ℝ} (he : 0 < e) :
    ∃ v : ℝ, 0 < v ∧ x + (e : EReal) = (v : EReal) := by
  obtain ⟨a, rfl⟩ := hx
  exact ⟨a + e, add_pos_of_nonneg_of_pos (EReal.coe_nonneg.1 h0) he, (EReal.coe_add a e).symm⟩

/-- The reciprocal square root of a nonnegative real plus a positive real is real. -/
theorem IsReal.rsqrt_add_eps {x : EReal} (hx : IsReal x) (h0 : 0 ≤ x) {e : ℝ} (he : 0 < e) :
    IsReal (Ideal.rsqrt (x + (e : EReal))) := by
  obtain ⟨v, hv, hxv⟩ := add_eps_eq_coe hx h0 he
  exact IsReal.rsqrt_pos hxv hv

end Sage

end
-- ==== Proof.Sage.Spec.lean ====
import Idealize.ShloMosaic.PureOps.Ideal
import Mathlib.Algebra.BigOperators.Group.Finset.Basic

/-! # The entries of a heterogeneous SAGE layer with batch normalisation, on the extended reals

One entry of a relation's contribution to a destination row, and one entry of batch normalisation followed by the
rectifier, as functions of extended reals. Both programs' results are stated over these. -/

noncomputable section

namespace Sage

open Idealize.ShloMosaic

/-- One entry of a relation's contribution: the aggregated source row against a column of the left weights, plus the
    bias entry, plus the destination's own row against a column of the right weights. -/
def rel {K : Type} [Fintype K] (agg x : K → EReal) (wl wr : K → EReal) (b : EReal) : EReal :=
  (∑ k, agg k * wl k) + b + ∑ k, x k * wr k

/-- One entry normalised by its column's mean and variance, scaled, shifted, and rectified. -/
def bnrelu (eps h mu var g beta : EReal) : EReal :=
  max ((h - mu) * Ideal.rsqrt (var + eps) * g + beta) 0

/-- A column's mean: the column's sum over the row count. -/
def colMean {R : Type} [Fintype R] (n : EReal) (col : R → EReal) : EReal := Ideal.div (∑ r, col r) n

/-- A column's variance as the mean of squares less the squared mean. -/
def colVarSq {R : Type} [Fintype R] (n : EReal) (col : R → EReal) : EReal :=
  Ideal.div (∑ r, col r * col r) n - colMean n col * colMean n col

/-- A column's variance as the mean of squared deviations from the mean. -/
def colVarDev {R : Type} [Fintype R] (n : EReal) (col : R → EReal) : EReal :=
  Ideal.div (∑ r, (col r - colMean n col) * (col r - colMean n col)) n

end Sage

end
-- ==== Proof.Sage.Finite.lean ====
/-
  Finiteness carried through the operations of the two programs, read at the extended reals. A float buffer or
  vector of shape `S` is a function `S.Idx → EReal`; `AllReal` says every entry is a real number, `AllRealGE c` that
  every entry is a real `≥ c`, `AllRealPos` that every entry is a positive real. Re-indexings (broadcasts, slices,
  reshapes, gathers, selections) return entries of their operands, so they carry any property of entries; sums,
  differences, products, maxima, finite sums of products, quotients by nonzero reals and reciprocal square roots of
  positive reals carry realness.
-/
import proofs.«126569_j1468878815453_1_alg».proof.Proof.Sage.Real
import Idealize.ShloMosaic.PureOps.Ideal
import Idealize.ShloMosaic.PureOps.Ideal.Laws

noncomputable section

namespace Sage

open Idealize.ShloMosaic
open scoped BigOperators

/-! ### The predicates -/

/-- Every entry is a real number. -/
def AllReal {S : Shape} (x : S.Idx → EReal) : Prop := ∀ i, IsReal (x i)

/-- A real number `≥ c`. -/
def IsRealGE (c : ℝ) (a : EReal) : Prop := ∃ r : ℝ, c ≤ r ∧ a = (r : EReal)

/-- A positive real number. -/
def IsRealPos (a : EReal) : Prop := ∃ r : ℝ, 0 < r ∧ a = (r : EReal)

/-- Every entry is a real `≥ c`. -/
def AllRealGE {S : Shape} (c : ℝ) (x : S.Idx → EReal) : Prop := ∀ i, IsRealGE c (x i)

/-- Every entry is a positive real. -/
def AllRealPos {S : Shape} (x : S.Idx → EReal) : Prop := ∀ i, IsRealPos (x i)

theorem IsRealGE.isReal {c : ℝ} {a : EReal} (h : IsRealGE c a) : IsReal a := ⟨h.choose, h.choose_spec.2⟩

theorem IsRealPos.isReal {a : EReal} (h : IsRealPos a) : IsReal a := ⟨h.choose, h.choose_spec.2⟩

theorem IsRealGE.mono {c c' : ℝ} (hc : c' ≤ c) {a : EReal} (h : IsRealGE c a) : IsRealGE c' a := by
  obtain ⟨r, hr, ha⟩ := h; exact ⟨r, hc.trans hr, ha⟩

theorem IsRealGE.isRealPos {c : ℝ} (hc : 0 < c) {a : EReal} (h : IsRealGE c a) : IsRealPos a := by
  obtain ⟨r, hr, ha⟩ := h; exact ⟨r, hc.trans_le hr, ha⟩

theorem IsRealPos.isRealGE {a : EReal} (h : IsRealPos a) : IsRealGE 0 a := by
  obtain ⟨r, hr, ha⟩ := h; exact ⟨r, hr.le, ha⟩

theorem IsRealGE.le {c : ℝ} {a : EReal} (h : IsRealGE c a) : (c : EReal) ≤ a := by
  obtain ⟨r, hr, rfl⟩ := h; exact EReal.coe_le_coe_iff.2 hr

theorem IsRealPos.pos {a : EReal} (h : IsRealPos a) : 0 < a := by
  obtain ⟨r, hr, rfl⟩ := h; exact EReal.coe_pos.2 hr

theorem IsRealPos.ne_zero {a : EReal} (h : IsRealPos a) : a ≠ 0 := h.pos.ne'

/-- A real that is `≥ c` as an extended real is a real `≥ c`. -/
theorem IsReal.isRealGE {c : ℝ} {a : EReal} (h : IsReal a) (hc : (c : EReal) ≤ a) : IsRealGE c a := by
  obtain ⟨r, rfl⟩ := h; exact ⟨r, EReal.coe_le_coe_iff.1 hc, rfl⟩

theorem IsReal.isRealPos {a : EReal} (h : IsReal a) (hc : 0 < a) : IsRealPos a := by
  obtain ⟨r, rfl⟩ := h; exact ⟨r, EReal.coe_pos.1 hc, rfl⟩

theorem AllRealGE.allReal {S : Shape} {c : ℝ} {x : S.Idx → EReal} (h : AllRealGE c x) : AllReal x :=
  fun i => (h i).isReal

theorem AllRealPos.allReal {S : Shape} {x : S.Idx → EReal} (h : AllRealPos x) : AllReal x :=
  fun i => (h i).isReal

theorem AllRealGE.mono {S : Shape} {c c' : ℝ} (hc : c' ≤ c) {x : S.Idx → EReal} (h : AllRealGE c x) :
    AllRealGE c' x := fun i => (h i).mono hc

theorem AllRealGE.allRealPos {S : Shape} {c : ℝ} (hc : 0 < c) {x : S.Idx → EReal} (h : AllRealGE c x) :
    AllRealPos x := fun i => (h i).isRealPos hc

theorem AllRealPos.allRealGE {S : Shape} {x : S.Idx → EReal} (h : AllRealPos x) : AllRealGE 0 x :=
  fun i => (h i).isRealGE

/-- A finite sum of nonnegative reals is a nonnegative real. -/
theorem IsRealGE.sum_nonneg {ι : Type} (s : Finset ι) (f : ι → EReal) (hf : ∀ i ∈ s, IsRealGE 0 (f i)) :
    IsRealGE 0 (∑ i ∈ s, f i) := by
  classical
  induction s using Finset.induction_on with
  | empty => exact ⟨0, le_rfl, by simp⟩
  | insert a s ha ih =>
    obtain ⟨p, hp, hpa⟩ := hf a (Finset.mem_insert_self a s)
    obtain ⟨q, hq, hqs⟩ := ih fun i hi => hf i (Finset.mem_insert_of_mem hi)
    exact ⟨p + q, add_nonneg hp hq, by rw [Finset.sum_insert ha, hpa, hqs, EReal.coe_add]⟩

/-! ### Re-indexings: every entry of the result is an entry of an operand -/

section Reindex

variable {s t : Shape} {P : EReal → Prop}

theorem broadcastInDim_forall (dims : Fin s.rank → Fin t.rank) (h : s.BroadcastsInDim t dims) {x : s.Idx → EReal}
    (hx : ∀ i, P (x i)) : ∀ j, P (broadcastInDim t dims h x j) := fun _ => hx _

theorem broadcastTo_forall (h : s.Broadcasts t) {x : s.Idx → EReal} (hx : ∀ i, P (x i)) :
    ∀ j, P (broadcastTo t x h j) := fun _ => hx _

theorem broadcast_forall {a : EReal} (ha : P a) : ∀ j, P (broadcast t a j) := fun _ => ha

theorem shapeCast_forall (h : s.ShapeCasts t) {x : s.Idx → EReal} (hx : ∀ i, P (x i)) :
    ∀ j, P (shapeCast t x h j) := fun _ => hx _

theorem extractStridedSlice_forall (off : Fin s.rank → Nat) (h : s.Slices off t) {x : s.Idx → EReal}
    (hx : ∀ i, P (x i)) : ∀ j, P (extractStridedSlice t off x h j) := fun _ => hx _

theorem gather_forall {si : Shape} {w : Nat} (d : GatherDims s si t) (idx : IVec si w) {x : s.Idx → EReal}
    (hx : ∀ i, P (x i)) : ∀ j, P (Host.gather d x idx j) := fun _ => hx _

theorem select_forall (c : IVec s 1) {a b : s.Idx → EReal} (ha : ∀ i, P (a i)) (hb : ∀ i, P (b i)) :
    ∀ j, P (select c a b j) := fun j => by
  show P (if c j = 1 then a j else b j)
  split
  · exact ha j
  · exact hb j

end Reindex

section ReindexReal

variable {s t : Shape}

theorem allReal_broadcastInDim (dims : Fin s.rank → Fin t.rank) (h : s.BroadcastsInDim t dims) {x : s.Idx → EReal}
    (hx : AllReal x) : AllReal (broadcastInDim t dims h x) := broadcastInDim_forall dims h hx

theorem allRealGE_broadcastInDim {c : ℝ} (dims : Fin s.rank → Fin t.rank) (h : s.BroadcastsInDim t dims)
    {x : s.Idx → EReal} (hx : AllRealGE c x) : AllRealGE c (broadcastInDim t dims h x) :=
  broadcastInDim_forall dims h hx

theorem allRealPos_broadcastInDim (dims : Fin s.rank → Fin t.rank) (h : s.BroadcastsInDim t dims)
    {x : s.Idx → EReal} (hx : AllRealPos x) : AllRealPos (broadcastInDim t dims h x) :=
  broadcastInDim_forall dims h hx

theorem allReal_broadcastTo (h : s.Broadcasts t) {x : s.Idx → EReal} (hx : AllReal x) :
    AllReal (broadcastTo t x h) := broadcastTo_forall h hx

theorem allRealPos_broadcastTo (h : s.Broadcasts t) {x : s.Idx → EReal} (hx : AllRealPos x) :
    AllRealPos (broadcastTo t x h) := broadcastTo_forall h hx

theorem allReal_broadcast {a : EReal} (ha : IsReal a) : AllReal (broadcast t a) := broadcast_forall ha

theorem allRealGE_broadcast {c : ℝ} {a : EReal} (ha : IsRealGE c a) : AllRealGE c (broadcast t a) :=
  broadcast_forall ha

theorem allRealPos_broadcast {a : EReal} (ha : IsRealPos a) : AllRealPos (broadcast t a) := broadcast_forall ha

theorem allReal_shapeCast (h : s.ShapeCasts t) {x : s.Idx → EReal} (hx : AllReal x) :
    AllReal (shapeCast t x h) := shapeCast_forall h hx

theorem allRealGE_shapeCast {c : ℝ} (h : s.ShapeCasts t) {x : s.Idx → EReal} (hx : AllRealGE c x) :
    AllRealGE c (shapeCast t x h) := shapeCast_forall h hx

theorem allRealPos_shapeCast (h : s.ShapeCasts t) {x : s.Idx → EReal} (hx : AllRealPos x) :
    AllRealPos (shapeCast t x h) := shapeCast_forall h hx

theorem allReal_extractStridedSlice (off : Fin s.rank → Nat) (h : s.Slices off t) {x : s.Idx → EReal}
    (hx : AllReal x) : AllReal (extractStridedSlice t off x h) := extractStridedSlice_forall off h hx

theorem allReal_gather {si : Shape} {w : Nat} (d : GatherDims s si t) (idx : IVec si w) {x : s.Idx → EReal}
    (hx : AllReal x) : AllReal (Host.gather d x idx) := gather_forall d idx hx

theorem allReal_select (c : IVec s 1) {a b : s.Idx → EReal} (ha : AllReal a) (hb : AllReal b) :
    AllReal (select c a b) := select_forall c ha hb

theorem allRealGE_select {k : ℝ} (c : IVec s 1) {a b : s.Idx → EReal} (ha : AllRealGE k a) (hb : AllRealGE k b) :
    AllRealGE k (select c a b) := select_forall c ha hb

end ReindexReal

/-! ### Constants -/

section Constants

variable {S : Shape}

/-- A constant buffer's entry is what its word denotes. -/
theorem constant_apply {w : BitVec 32} {a : EReal} (hw : Ideal.ofBits .f32 w = a) (i : S.Idx) :
    constant (F := Ideal) S .f32 w i = a := hw

theorem allReal_constant {w : BitVec 32} (hw : IsReal (Ideal.ofBits .f32 w)) :
    AllReal (constant (F := Ideal) S .f32 w) := fun _ => hw

theorem allRealGE_constant {c : ℝ} {w : BitVec 32} (hw : IsRealGE c (Ideal.ofBits .f32 w)) :
    AllRealGE c (constant (F := Ideal) S .f32 w) := fun _ => hw

theorem allRealPos_constant {w : BitVec 32} (hw : IsRealPos (Ideal.ofBits .f32 w)) :
    AllRealPos (constant (F := Ideal) S .f32 w) := fun _ => hw

theorem isRealGE_ofBits_zero : IsRealGE 0 (Ideal.ofBits .f32 0x00000000#32) := ⟨0, le_rfl, ofBits_zero⟩

theorem isRealGE_ofBits_one : IsRealGE 1 (Ideal.ofBits .f32 0x3F800000#32) := ⟨1, le_rfl, ofBits_one⟩

theorem isRealPos_ofBits_20000 : IsRealPos (Ideal.ofBits .f32 0x469C4000#32) := ⟨20000, by norm_num, ofBits_20000⟩

theorem isRealPos_ofBits_50000 : IsRealPos (Ideal.ofBits .f32 0x47435000#32) := ⟨50000, by norm_num, ofBits_50000⟩

theorem isRealPos_ofBits_10000 : IsRealPos (Ideal.ofBits .f32 0x461C4000#32) := ⟨10000, by norm_num, ofBits_10000⟩

theorem isRealPos_ofBits_3000 : IsRealPos (Ideal.ofBits .f32 0x453B8000#32) := ⟨3000, by norm_num, ofBits_3000⟩

theorem isRealPos_ofBits_eps : IsRealPos (Ideal.ofBits .f32 0x3727C5AC#32) := ⟨epsR, epsR_pos, ofBits_eps⟩

theorem allReal_constant_zero : AllReal (constant (F := Ideal) S .f32 0x00000000#32) :=
  allReal_constant isRealGE_ofBits_zero.isReal

theorem allRealGE_constant_zero : AllRealGE 0 (constant (F := Ideal) S .f32 0x00000000#32) :=
  allRealGE_constant isRealGE_ofBits_zero

theorem allReal_constant_one : AllReal (constant (F := Ideal) S .f32 0x3F800000#32) :=
  allReal_constant isRealGE_ofBits_one.isReal

theorem allRealGE_constant_one : AllRealGE 1 (constant (F := Ideal) S .f32 0x3F800000#32) :=
  allRealGE_constant isRealGE_ofBits_one

theorem allReal_constant_20000 : AllReal (constant (F := Ideal) S .f32 0x469C4000#32) :=
  allReal_constant isRealPos_ofBits_20000.isReal

theorem allReal_constant_50000 : AllReal (constant (F := Ideal) S .f32 0x47435000#32) :=
  allReal_constant isRealPos_ofBits_50000.isReal

theorem allReal_constant_10000 : AllReal (constant (F := Ideal) S .f32 0x461C4000#32) :=
  allReal_constant isRealPos_ofBits_10000.isReal

theorem allReal_constant_3000 : AllReal (constant (F := Ideal) S .f32 0x453B8000#32) :=
  allReal_constant isRealPos_ofBits_3000.isReal

theorem allReal_constant_eps : AllReal (constant (F := Ideal) S .f32 0x3727C5AC#32) :=
  allReal_constant isRealPos_ofBits_eps.isReal

theorem allRealPos_constant_eps : AllRealPos (constant (F := Ideal) S .f32 0x3727C5AC#32) :=
  allRealPos_constant isRealPos_ofBits_eps

/-- An integer read as a float is real. -/
theorem allReal_sitofp {w : Nat} (x : IVec S w) : AllReal (sitofp (F := Ideal) .f32 x) :=
  fun i => ⟨((x i).toInt : ℝ), rfl⟩

end Constants

/-! ### Entrywise arithmetic (the host's and a kernel's vector operations are the same functions here) -/

section Arith

variable {S : Shape} {x y : S.Idx → EReal}

theorem allReal_addf (hx : AllReal x) (hy : AllReal y) : AllReal (addf (F := Ideal) (φ := .f32) x y) :=
  fun i => (hx i).add (hy i)

theorem allReal_subf (hx : AllReal x) (hy : AllReal y) : AllReal (subf (F := Ideal) (φ := .f32) x y) :=
  fun i => (hx i).sub (hy i)

theorem allReal_mulf (hx : AllReal x) (hy : AllReal y) : AllReal (mulf (F := Ideal) (φ := .f32) x y) :=
  fun i => (hx i).mul (hy i)

theorem allReal_maximumf (hx : AllReal x) (hy : AllReal y) : AllReal (maximumf (F := Ideal) (φ := .f32) x y) :=
  fun i => (hx i).max (hy i)

/-- The maximum with an operand of reals `≥ c` is a real `≥ c`. -/
theorem allRealGE_maximumf_right {c : ℝ} (hx : AllReal x) (hy : AllRealGE c y) :
    AllRealGE c (maximumf (F := Ideal) (φ := .f32) x y) := fun i =>
  ((hx i).max (hy i).isReal).isRealGE ((hy i).le.trans (le_max_right _ _))

/-- A nonnegative real plus a positive real, entrywise, is a positive real. -/
theorem allRealPos_addf (hx : AllRealGE 0 x) (hy : AllRealPos y) :
    AllRealPos (addf (F := Ideal) (φ := .f32) x y) := fun i => by
  obtain ⟨p, hp, hpx⟩ := hx i
  obtain ⟨q, hq, hqy⟩ := hy i
  exact ⟨p + q, add_pos_of_nonneg_of_pos hp hq, by
    show x i + y i = _
    rw [hpx, hqy, EReal.coe_add]⟩

/-- The host's quotient of reals by nonzero reals is real. -/
theorem allReal_hostDivf_of_ne (hx : AllReal x) (hy : ∀ i, ∃ r : ℝ, r ≠ 0 ∧ y i = (r : EReal)) :
    AllReal (Host.divf (F := Ideal) (φ := .f32) x y) := fun i => by
  obtain ⟨r, hr, hyi⟩ := hy i
  show IsReal (Ideal.div (x i) (y i))
  rw [hyi]; exact (hx i).div_coe hr

/-- The host's quotient of reals by reals `≥ 1` is real. -/
theorem allReal_hostDivf (hx : AllReal x) (hy : AllRealGE 1 y) :
    AllReal (Host.divf (F := Ideal) (φ := .f32) x y) :=
  allReal_hostDivf_of_ne hx fun i => by
    obtain ⟨r, hr, hyi⟩ := hy i; exact ⟨r, (zero_lt_one.trans_le hr).ne', hyi⟩

/-- The host's quotient of reals by positive reals is real. -/
theorem allReal_hostDivf_pos (hx : AllReal x) (hy : AllRealPos y) :
    AllReal (Host.divf (F := Ideal) (φ := .f32) x y) :=
  allReal_hostDivf_of_ne hx fun i => by
    obtain ⟨r, hr, hyi⟩ := hy i; exact ⟨r, hr.ne', hyi⟩

/-- A kernel's quotient of reals by positive reals is real. -/
theorem allReal_divf_pos (hx : AllReal x) (hy : AllRealPos y) :
    AllReal (divf (F := Ideal) (φ := .f32) x y) := fun i => by
  obtain ⟨r, hr, hyi⟩ := hy i
  show IsReal (Ideal.div (x i) (y i))
  rw [hyi]; exact (hx i).div_coe hr.ne'

/-- The host's reciprocal square root of positive reals is a positive real. -/
theorem allRealPos_hostRsqrt (hx : AllRealPos x) : AllRealPos (Host.rsqrt (F := Ideal) (φ := .f32) x) :=
  fun i => by
    obtain ⟨r, hr, hxi⟩ := hx i
    refine ⟨(Real.sqrt r)⁻¹, inv_pos.2 (Real.sqrt_pos.2 hr), ?_⟩
    show Ideal.rsqrt (x i) = _
    rw [hxi, rsqrt_coe_pos hr]

theorem allReal_hostRsqrt (hx : AllRealPos x) : AllReal (Host.rsqrt (F := Ideal) (φ := .f32) x) :=
  (allRealPos_hostRsqrt hx).allReal

/-- A kernel's reciprocal square root of positive reals is a positive real. -/
theorem allRealPos_rsqrt (hx : AllRealPos x) : AllRealPos (rsqrt (F := Ideal) (φ := .f32) x) :=
  fun i => by
    obtain ⟨r, hr, hxi⟩ := hx i
    refine ⟨(Real.sqrt r)⁻¹, inv_pos.2 (Real.sqrt_pos.2 hr), ?_⟩
    show Ideal.rsqrt (x i) = _
    rw [hxi, rsqrt_coe_pos hr]

theorem allReal_rsqrt (hx : AllRealPos x) : AllReal (rsqrt (F := Ideal) (φ := .f32) x) :=
  (allRealPos_rsqrt hx).allReal

end Arith

/-! ### Sums: scatter with addition, reductions, products of matrices -/

section Sums

variable {s t : Shape}

/-- The host's accumulating scatter of reals into reals is real, whatever the indices. -/
theorem allReal_scatterAdd {si u : Shape} {w : Nat} (d : ScatterDims s si u) (idx : IVec si w)
    {x : s.Idx → EReal} {upd : u.Idx → EReal} (hx : AllReal x) (hu : AllReal upd) :
    AllReal (Host.scatterAdd (F := Ideal) (φ := .f32) d x idx upd) :=
  fun i => (hx i).add (IsReal.sum _ _ fun j _ => hu j)

/-- The host's accumulating scatter of nonnegative reals into nonnegative reals (a count: ones into zeros) is a
    nonnegative real, whatever the indices. -/
theorem allRealGE_scatterAdd {si u : Shape} {w : Nat} (d : ScatterDims s si u) (idx : IVec si w)
    {x : s.Idx → EReal} {upd : u.Idx → EReal} (hx : AllRealGE 0 x) (hu : AllRealGE 0 upd) :
    AllRealGE 0 (Host.scatterAdd (F := Ideal) (φ := .f32) d x idx upd) := fun i => by
  obtain ⟨p, hp, hpx⟩ := hx i
  obtain ⟨q, hq, hqs⟩ := IsRealGE.sum_nonneg
    (Finset.univ.filter fun j => d.resultIdx? j idx = some i) upd fun j _ => hu j
  exact ⟨p + q, add_nonneg hp hq, by
    show x i + ∑ j ∈ Finset.univ.filter (fun j => d.resultIdx? j idx = some i), upd j = _
    rw [hpx, hqs, EReal.coe_add]⟩

/-- The host's sum along axes of reals, from a real initial value, is real. -/
theorem allReal_hostReduceAdd {axes : List (Fin s.rank)} {u : Shape} {x : s.Idx → EReal} {v : u.Idx → EReal}
    (h : s.ReducesTo axes t) (hu : 0 < u.numel) (hx : AllReal x) (hv : AllReal v) :
    AllReal (Host.reduceAdd (F := Ideal) (φ := .f32) x v h hu) :=
  fun _ => (hv _).add (IsReal.sum _ _ fun i _ => hx i)

/-- A kernel's sum along axes of reals is real. -/
theorem allReal_multiReduction_add {axes : List (Fin s.rank)} {x : s.Idx → EReal} (acc : BitVec 32)
    (h : s.Reduces axes t) (hφ : FKind.Formats .f32) (hacc : acc = FKind.add.neutral .f32 hφ) (hx : AllReal x) :
    AllReal (multiReduction (F := Ideal) (φ := .f32) .add axes t x acc h hφ hacc) :=
  fun j => by
    show IsReal (Ideal.reduceAdd h x j)
    exact IsReal.sum _ _ fun i _ => hx i

/-- The host's product of matrices of reals is real. -/
theorem allReal_dotGeneral {sl sr so : Shape} (d : DotDims sl sr so) (prec : Option ContractPrecision)
    {l : sl.Idx → EReal} {r : sr.Idx → EReal} (hl : AllReal l) (hr : AllReal r) :
    AllReal (Host.dotGeneral (F := Ideal) (φ₁ := .f32) (φ₂ := .f32) d prec l r) := fun j => by
  show IsReal (FloatOps.dotGeneral (F := Ideal) (φ₁ := .f32) (φ₂ := .f32) d prec .single l r j)
  rw [Ideal.dotGeneral_apply]
  exact IsReal.sum_univ _ fun k => (hl _).mul (hr _)

/-- A kernel's product of matrices of reals, added to an accumulator of reals, is real. -/
theorem allReal_matmul {sl sr so : Shape} (d : DotDims sl sr so) (prec : Option ContractPrecision)
    {l : sl.Idx → EReal} {r : sr.Idx → EReal} {acc : so.Idx → EReal} (hl : AllReal l) (hr : AllReal r)
    (hacc : AllReal acc) :
    AllReal (matmul (F := Ideal) (φ₁ := .f32) (φ₂ := .f32) d prec l r acc) := fun j => by
  show IsReal (FloatOps.matmul (F := Ideal) (φ₁ := .f32) (φ₂ := .f32) d prec l r acc j)
  rw [Ideal.matmul_apply]
  exact (hacc j).add (IsReal.sum_univ _ fun k => (hl _).mul (hr _))

end Sums

end Sage

end
-- ==== Proof.Sage.Net.lean ====
/-
  The two host stages of a heterogeneous SAGE layer before its normalisation, as pure functions of their operands.
  The AGGREGATION of one relation: the source rows gathered along the edges (a negative source index counted from the
  end), summed into their destination rows, and each destination row divided by the number of its incoming edges (at
  least one). The RELATION stage: the aggregated rows against the relation's left weights, plus the relation's bias,
  plus the destination's own rows against the relation's right weights; read at an entry it is `Sage.rel`. Both are
  stated for any sizes, with the shape facts they need as arguments, and carry realness.
-/
import proofs.«126569_j1468878815453_1_alg».proof.Proof.Sage.Real
import proofs.«126569_j1468878815453_1_alg».proof.Proof.Sage.Spec
import proofs.«126569_j1468878815453_1_alg».proof.Proof.Sage.Finite
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Sage

open Idealize.ShloMosaic Idealize.ShloMosaic.ValueIdx
open scoped BigOperators

/-! ### The aggregation of one relation -/

section Agg

variable {F : FTy → Type} [FloatOps F]

variable (ns nd e c : ℕ) (wNs : BitVec 32)
  (hbE : (⟨0, ![]⟩ : Shape).BroadcastsInDim ⟨1, ![e]⟩ ![])
  (hbE1 : (⟨1, ![e]⟩ : Shape).BroadcastsInDim ⟨2, ![e, 1]⟩ ![0])
  (gd : GatherDims ⟨2, ![ns, c]⟩ ⟨2, ![e, 1]⟩ ⟨2, ![e, c]⟩)
  (hbDC : (⟨0, ![]⟩ : Shape).BroadcastsInDim ⟨2, ![nd, c]⟩ ![])
  (sd : ScatterDims ⟨2, ![nd, c]⟩ ⟨2, ![e, 1]⟩ ⟨2, ![e, c]⟩)
  (hbE1f : (⟨0, ![]⟩ : Shape).BroadcastsInDim ⟨2, ![e, 1]⟩ ![])
  (hbD1 : (⟨0, ![]⟩ : Shape).BroadcastsInDim ⟨2, ![nd, 1]⟩ ![])
  (sd1 : ScatterDims ⟨2, ![nd, 1]⟩ ⟨2, ![e, 1]⟩ ⟨2, ![e, 1]⟩)
  (hbD1C : (⟨2, ![nd, 1]⟩ : Shape).BroadcastsInDim ⟨2, ![nd, c]⟩ ![0, 1])

/-- The edges' source indices, a negative one with the source row count added, as a column. -/
noncomputable def srcIdx (src : IVec ⟨1, ![e]⟩ 32) : IVec ⟨2, ![e, 1]⟩ 32 :=
  broadcastInDim ⟨2, ![e, 1]⟩ ![0] hbE1
    (select (cmpi .slt src (broadcastInDim ⟨1, ![e]⟩ ![] hbE (constantI ⟨0, ![]⟩ 32 0#32)))
      (addi src (broadcastInDim ⟨1, ![e]⟩ ![] hbE (constantI ⟨0, ![]⟩ 32 wNs))) src)

/-- The number of edges into each destination row, and at least one: ones summed into zeros along the edges'
    destinations, then the maximum with one. -/
noncomputable def cntFn (dst : IVec ⟨1, ![e]⟩ 32) : FVec F ⟨2, ![nd, 1]⟩ .f32 :=
  maximumf
    (Host.scatterAdd sd1 (broadcastInDim ⟨2, ![nd, 1]⟩ ![] hbD1 (constant ⟨0, ![]⟩ .f32 0x00000000#32))
      (broadcastInDim ⟨2, ![e, 1]⟩ ![0] hbE1 dst)
      (broadcastInDim ⟨2, ![e, 1]⟩ ![] hbE1f (constant ⟨0, ![]⟩ .f32 0x3F800000#32)))
    (broadcastInDim ⟨2, ![nd, 1]⟩ ![] hbD1 (constant ⟨0, ![]⟩ .f32 0x3F800000#32))

/-- The source rows summed into their destination rows along the edges. -/
noncomputable def sumFn (x : FVec F ⟨2, ![ns, c]⟩ .f32) (src dst : IVec ⟨1, ![e]⟩ 32) : FVec F ⟨2, ![nd, c]⟩ .f32 :=
  Host.scatterAdd sd (broadcastInDim ⟨2, ![nd, c]⟩ ![] hbDC (constant ⟨0, ![]⟩ .f32 0x00000000#32))
    (broadcastInDim ⟨2, ![e, 1]⟩ ![0] hbE1 dst)
    (Host.gather gd x (srcIdx e wNs hbE hbE1 src))

/-- The mean of the source rows over each destination row's incoming edges. -/
noncomputable def aggFn (x : FVec F ⟨2, ![ns, c]⟩ .f32) (src dst : IVec ⟨1, ![e]⟩ 32) : FVec F ⟨2, ![nd, c]⟩ .f32 :=
  Host.divf (sumFn ns nd e c wNs hbE hbE1 gd hbDC sd x src dst)
    (broadcastInDim ⟨2, ![nd, c]⟩ ![0, 1] hbD1C (cntFn (F := F) nd e hbE1 hbE1f hbD1 sd1 dst))

/-- The counts are reals `≥ 1`, whatever the destinations. -/
theorem cntFn_allRealGE (dst : IVec ⟨1, ![e]⟩ 32) :
    AllRealGE 1 (cntFn (F := Ideal) nd e hbE1 hbE1f hbD1 sd1 dst) :=
  allRealGE_maximumf_right
    (allRealGE_scatterAdd sd1 _ (allRealGE_broadcastInDim _ _ allRealGE_constant_zero)
      (allRealGE_broadcastInDim _ _ (allRealGE_constant_one.mono zero_le_one))).allReal
    (allRealGE_broadcastInDim _ _ allRealGE_constant_one)

/-- The sums are real when the source rows are, whatever the indices. -/
theorem sumFn_allReal (x : FVec Ideal ⟨2, ![ns, c]⟩ .f32) (hx : AllReal x) (src dst : IVec ⟨1, ![e]⟩ 32) :
    AllReal (sumFn (F := Ideal) ns nd e c wNs hbE hbE1 gd hbDC sd x src dst) :=
  allReal_scatterAdd sd _ (allReal_broadcastInDim _ _ allReal_constant_zero) (allReal_gather gd _ hx)

/-- The aggregated rows are real when the source rows are, whatever the indices. -/
theorem aggFn_allReal (x : FVec Ideal ⟨2, ![ns, c]⟩ .f32) (hx : AllReal x) (src dst : IVec ⟨1, ![e]⟩ 32) :
    AllReal (aggFn (F := Ideal) ns nd e c wNs hbE hbE1 gd hbDC sd hbE1f hbD1 sd1 hbD1C x src dst) :=
  allReal_hostDivf (sumFn_allReal ns nd e c wNs hbE hbE1 gd hbDC sd x hx src dst)
    (allRealGE_broadcastInDim _ _ (cntFn_allRealGE nd e hbE1 hbE1f hbD1 sd1 dst))

end Agg

/-! ### Layout operations of the relation stage, read at an entry -/

section Read

variable {n m k R : ℕ} {α : Type}

/-- A vector of length `m` laid along every one of `n` rows reads, at `(p, q)`, the vector at `q`. -/
theorem bcastCols_apply (h₁ : (⟨1, ![m]⟩ : Shape).BroadcastsInDim ⟨2, ![1, m]⟩ ![1])
    (h₂ : (⟨2, ![1, m]⟩ : Shape).BroadcastsInDim ⟨2, ![n, m]⟩ ![0, 1]) (x : (⟨1, ![m]⟩ : Shape).Idx → α) (p : Fin n)
    (q : Fin m) :
    broadcastInDim ⟨2, ![n, m]⟩ ![0, 1] h₂ (broadcastInDim ⟨2, ![1, m]⟩ ![1] h₁ x) (ix2 p q) = x (ix1 q) := by
  refine (broadcastInDim_apply _ h₂ _ _ (ix2 (0 : Fin 1) q) fun a => ?_).trans
    (broadcastInDim_apply _ h₁ x _ (ix1 q) fun a => ?_)
  · match a with
    | ⟨0, _⟩ => show (0 : ℕ) = if (1 : ℕ) = 1 then 0 else p.val; rw [if_pos rfl]
    | ⟨1, _⟩ =>
      show q.val = if m = 1 then 0 else q.val
      have := q.isLt
      split <;> omega
  · match a with
    | ⟨0, _⟩ =>
      show q.val = if m = 1 then 0 else q.val
      have := q.isLt
      split <;> omega

/-- Matrix `i` of a stack of `R` matrices, cut out as a stack of one, reads, at `(0, a, b)`, the stack at `(i, a, b)`. -/
theorem slice3_axis0_apply (i : ℕ) (hi : i < R) (X : (⟨3, ![R, k, m]⟩ : Shape).Idx → α)
    (h : (⟨3, ![R, k, m]⟩ : Shape).Slices ![i, 0, 0] ⟨3, ![1, k, m]⟩) (a : Fin k) (b : Fin m) :
    extractStridedSlice ⟨3, ![1, k, m]⟩ ![i, 0, 0] X h (ix3 (0 : Fin 1) a b) = X (ix3 (⟨i, hi⟩ : Fin R) a b) :=
  extractStridedSlice_apply _ _ _ _ _ fun ax => by
    match ax with
    | ⟨0, _⟩ => exact (Nat.add_zero _).symm
    | ⟨1, _⟩ => exact (Nat.zero_add _).symm
    | ⟨2, _⟩ => exact (Nat.zero_add _).symm

/-- Row `i` of a matrix of `R` rows, cut out as a matrix of one row, reads, at `(0, b)`, the matrix at `(i, b)`. -/
theorem slice2_row_apply (i : ℕ) (hi : i < R) (X : (⟨2, ![R, m]⟩ : Shape).Idx → α)
    (h : (⟨2, ![R, m]⟩ : Shape).Slices ![i, 0] ⟨2, ![1, m]⟩) (b : Fin m) :
    extractStridedSlice ⟨2, ![1, m]⟩ ![i, 0] X h (ix2 (0 : Fin 1) b) = X (ix2 (⟨i, hi⟩ : Fin R) b) :=
  slice2_axis0_apply i X h 0 b ⟨i, hi⟩ (Nat.add_zero _).symm

end Read

/-! ### The relation stage -/

section Rel

variable {F : FTy → Type} [FloatOps F]

variable (n k m R i : ℕ)
  (d : DotDims ⟨2, ![n, k]⟩ ⟨2, ![k, m]⟩ ⟨2, ![n, m]⟩)
  (hsl : (⟨3, ![R, k, m]⟩ : Shape).Slices ![i, 0, 0] ⟨3, ![1, k, m]⟩)
  (hsc : (⟨3, ![1, k, m]⟩ : Shape).ShapeCasts ⟨2, ![k, m]⟩)
  (hslb : (⟨2, ![R, m]⟩ : Shape).Slices ![i, 0] ⟨2, ![1, m]⟩)
  (hscb : (⟨2, ![1, m]⟩ : Shape).ShapeCasts ⟨1, ![m]⟩)
  (hb1 : (⟨1, ![m]⟩ : Shape).BroadcastsInDim ⟨2, ![1, m]⟩ ![1])
  (hb3 : (⟨2, ![1, m]⟩ : Shape).BroadcastsInDim ⟨2, ![n, m]⟩ ![0, 1])

/-- Matrix `i` of a stack of weight matrices. -/
noncomputable def wSlice (W : FVec F ⟨3, ![R, k, m]⟩ .f32) : FVec F ⟨2, ![k, m]⟩ .f32 :=
  shapeCast ⟨2, ![k, m]⟩ (extractStridedSlice ⟨3, ![1, k, m]⟩ ![i, 0, 0] W hsl) hsc

/-- Row `i` of the biases, laid along every one of `n` rows. -/
noncomputable def bSlice (b : FVec F ⟨2, ![R, m]⟩ .f32) : FVec F ⟨2, ![n, m]⟩ .f32 :=
  broadcastInDim ⟨2, ![n, m]⟩ ![0, 1] hb3 (broadcastInDim ⟨2, ![1, m]⟩ ![1] hb1
    (shapeCast ⟨1, ![m]⟩ (extractStridedSlice ⟨2, ![1, m]⟩ ![i, 0] b hslb) hscb))

/-- One relation's contribution: the aggregated rows against the left weights, plus the bias, plus the destination's
    own rows against the right weights. -/
noncomputable def relFn (agg x : FVec F ⟨2, ![n, k]⟩ .f32) (Wl Wr : FVec F ⟨3, ![R, k, m]⟩ .f32)
    (b : FVec F ⟨2, ![R, m]⟩ .f32) : FVec F ⟨2, ![n, m]⟩ .f32 :=
  addf
    (addf (Host.dotGeneral d none agg (wSlice k m R i hsl hsc Wl)) (bSlice n m R i hslb hscb hb1 hb3 b))
    (Host.dotGeneral d none x (wSlice k m R i hsl hsc Wr))

variable {n k m R i}

theorem wSlice_apply (hi : i < R) (W : FVec Ideal ⟨3, ![R, k, m]⟩ .f32) (a : Fin k) (q : Fin m) :
    wSlice (F := Ideal) k m R i hsl hsc W (ix2 a q) = W (ix3 (⟨i, hi⟩ : Fin R) a q) :=
  (shapeCast_1ab_ab_apply _ hsc a q).trans (slice3_axis0_apply i hi W hsl a q)

theorem bSlice_apply (hi : i < R) (b : FVec Ideal ⟨2, ![R, m]⟩ .f32) (r : Fin n) (q : Fin m) :
    bSlice (F := Ideal) n m R i hslb hscb hb1 hb3 b (ix2 r q) = b (ix2 (⟨i, hi⟩ : Fin R) q) :=
  (bcastCols_apply hb1 hb3 _ r q).trans ((shapeCast_1a_a_apply _ hscb q).trans (slice2_row_apply i hi b hslb q))

/-- One relation's contribution read at an entry. -/
theorem relFn_apply (hd : d = DotDims.plain n k m) (hi : i < R) (agg x : FVec Ideal ⟨2, ![n, k]⟩ .f32)
    (Wl Wr : FVec Ideal ⟨3, ![R, k, m]⟩ .f32) (b : FVec Ideal ⟨2, ![R, m]⟩ .f32) (r : Fin n) (q : Fin m) :
    relFn (F := Ideal) n k m R i d hsl hsc hslb hscb hb1 hb3 agg x Wl Wr b (ix2 r q)
      = Sage.rel (fun a : Fin k => agg (ix2 r a)) (fun a : Fin k => x (ix2 r a))
          (fun a : Fin k => Wl (ix3 (⟨i, hi⟩ : Fin R) a q)) (fun a : Fin k => Wr (ix3 (⟨i, hi⟩ : Fin R) a q))
          (b (ix2 (⟨i, hi⟩ : Fin R) q)) := by
  subst hd
  show Host.dotGeneral (F := Ideal) (DotDims.plain n k m) none agg (wSlice k m R i hsl hsc Wl) (ix2 r q)
      + bSlice (F := Ideal) n m R i hslb hscb hb1 hb3 b (ix2 r q)
      + Host.dotGeneral (F := Ideal) (DotDims.plain n k m) none x (wSlice k m R i hsl hsc Wr) (ix2 r q) = _
  rw [StackMember.dotGeneral_plain_apply, StackMember.dotGeneral_plain_apply, bSlice_apply hslb hscb hb1 hb3 hi]
  simp only [wSlice_apply hsl hsc hi]
  rfl

/-- One relation's contribution is real when its operands are. -/
theorem relFn_allReal (agg x : FVec Ideal ⟨2, ![n, k]⟩ .f32) (Wl Wr : FVec Ideal ⟨3, ![R, k, m]⟩ .f32)
    (b : FVec Ideal ⟨2, ![R, m]⟩ .f32) (hagg : AllReal agg) (hx : AllReal x) (hWl : AllReal Wl) (hWr : AllReal Wr)
    (hb : AllReal b) : AllReal (relFn (F := Ideal) n k m R i d hsl hsc hslb hscb hb1 hb3 agg x Wl Wr b) :=
  allReal_addf
    (allReal_addf (allReal_dotGeneral d none hagg (allReal_shapeCast hsc (allReal_extractStridedSlice _ hsl hWl)))
      (allReal_broadcastInDim _ hb3 (allReal_broadcastInDim _ hb1
        (allReal_shapeCast hscb (allReal_extractStridedSlice _ hslb hb)))))
    (allReal_dotGeneral d none hx (allReal_shapeCast hsc (allReal_extractStridedSlice _ hsl hWr)))

end Rel

end Sage

end
-- ==== Proof.KI.ReadL1a.lean ====
import proofs.«126569_j1468878815453_1_alg».proof.Proof.KI.ReadCarryA
import proofs.«126569_j1468878815453_1_alg».proof.Proof.Sage.Net

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-- The launch memory: every buffer's contents, at the ideal reading of floats. -/
abbrev KMem : Type := (ℓ : Loc nD τ sig) → Buf (Elt Ideal) ℓ

/-- A value read one operation back, the operation's two operands replaced by equals. -/
theorem back2 {α β γ : Type} {f : α → β → γ} {y : γ} {a a' : α} {b b' : β}
    (h : y = f a b) (ha : a = a') (hb : b = b') : y = f a' b' := by subst ha hb; exact h

/-- A value read one operation back, the operation's three operands replaced by equals. -/
theorem back3 {α β γ δ : Type} {f : α → β → γ → δ} {y : δ} {a a' : α} {b b' : β} {d d' : γ}
    (h : y = f a b d) (ha : a = a') (hb : b = b') (hd : d = d') : y = f a' b' d' := by subst ha hb hd; exact h

/-- Equal operands, five of them, give equal results. -/
theorem congr5 {α β γ δ ε ζ : Type} (f : α → β → γ → δ → ε → ζ) {a a' : α} {b b' : β} {d d' : γ} {e e' : δ} {g g' : ε}
    (ha : a = a') (hb : b = b') (hd : d = d') (he : e = e') (hg : g = g') : f a b d e g = f a' b' d' e' g' := by
  subst ha hb hd he hg; rfl

/-! ## Host stretch 0 -/

/-- The number of relation 0's edges into each of its destination rows, and at least one. -/
noncomputable def kCnt0 (m : KMem) (ρ : Dev nD → PrngReg) (c : Dev nD) : (⟨S10000x1, .f32⟩ : BufTy).Contents (Elt Ideal) :=
  Sage.cntFn (F := Ideal) _ _ bcast_S500000_S500000x1_0 bcast_S_S500000x1 bcast_S_S10000x1 scatter_S10000x1_S500000x1_S500000x1_1_0_0_1
    (m ((c : Thread nD τ).loc main_arg15))

/-- It is what the count's buffer holds once the host stretch has run: its operations read one back at a time, down to
    the destination indices, which nothing has written since the launch. -/
theorem kCnt0_eq (m : KMem) (ρ : Dev nD → PrngReg) (c : Dev nD) : W1 m ρ c (Proc.devRef .tc main_v5) = kCnt0 m ρ c := by
  have h :=
    (back2 (rd0_v5 (W0 m ρ c))
      (back3 (rd0_v3 (W0 m ρ c))
        ((rd0_v1 (W0 m ρ c)).trans (congrArg (broadcastInDim S10000x1 ![] bcast_S_S10000x1 : (⟨S_, .f32⟩ : BufTy).Contents (Elt Ideal) → (⟨S10000x1, .f32⟩ : BufTy).Contents (Elt Ideal))
          (rd0_cst_0 (W0 m ρ c))))
        ((rd0_v2 (W0 m ρ c)).trans (congrArg (broadcastInDim S500000x1 ![0] bcast_S500000_S500000x1_0 : (⟨S500000, .i32⟩ : BufTy).Contents (Elt Ideal) → (⟨S500000x1, .i32⟩ : BufTy).Contents (Elt Ideal))
          (carry_arg15_0_1 m ρ c)))
        ((rd0_v0 (W0 m ρ c)).trans (congrArg (broadcastInDim S500000x1 ![] bcast_S_S500000x1 : (⟨S_, .f32⟩ : BufTy).Contents (Elt Ideal) → (⟨S500000x1, .f32⟩ : BufTy).Contents (Elt Ideal))
          (rd0_cst (W0 m ρ c)))))
      ((rd0_v4 (W0 m ρ c)).trans (congrArg (broadcastInDim S10000x1 ![] bcast_S_S10000x1 : (⟨S_, .f32⟩ : BufTy).Contents (Elt Ideal) → (⟨S10000x1, .f32⟩ : BufTy).Contents (Elt Ideal))
        (rd0_cst_1 (W0 m ρ c)))))
  exact h

/-- The number of relation 1's edges into each of its destination rows, and at least one. -/
noncomputable def kCnt1 (m : KMem) (ρ : Dev nD → PrngReg) (c : Dev nD) : (⟨S50000x1, .f32⟩ : BufTy).Contents (Elt Ideal) :=
  Sage.cntFn (F := Ideal) _ _ bcast_S400000_S400000x1_0 bcast_S_S400000x1 bcast_S_S50000x1 scatter_S50000x1_S400000x1_S400000x1_1_0_0_1
    (m ((c : Thread nD τ).loc main_arg17))

/-- It is what the count's buffer holds once the host stretch has run: its operations read one back at a time, down to
    the destination indices, which nothing has written since the launch. -/
theorem kCnt1_eq (m : KMem) (ρ : Dev nD → PrngReg) (c : Dev nD) : W1 m ρ c (Proc.devRef .tc main_v11) = kCnt1 m ρ c := by
  have h :=
    (back2 (rd0_v11 (W0 m ρ c))
      (back3 (rd0_v9 (W0 m ρ c))
        ((rd0_v7 (W0 m ρ c)).trans (congrArg (broadcastInDim S50000x1 ![] bcast_S_S50000x1 : (⟨S_, .f32⟩ : BufTy).Contents (Elt Ideal) → (⟨S50000x1, .f32⟩ : BufTy).Contents (Elt Ideal))
          (rd0_cst_3 (W0 m ρ c))))
        ((rd0_v8 (W0 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg17_0_1 m ρ c)))
        ((rd0_v6 (W0 m ρ c)).trans (congrArg (broadcastInDim S400000x1 ![] bcast_S_S400000x1 : (⟨S_, .f32⟩ : BufTy).Contents (Elt Ideal) → (⟨S400000x1, .f32⟩ : BufTy).Contents (Elt Ideal))
          (rd0_cst_2 (W0 m ρ c)))))
      ((rd0_v10 (W0 m ρ c)).trans (congrArg (broadcastInDim S50000x1 ![] bcast_S_S50000x1 : (⟨S_, .f32⟩ : BufTy).Contents (Elt Ideal) → (⟨S50000x1, .f32⟩ : BufTy).Contents (Elt Ideal))
        (rd0_cst_4 (W0 m ρ c)))))
  exact h

/-- The number of relation 2's edges into each of its destination rows, and at least one. -/
noncomputable def kCnt2 (m : KMem) (ρ : Dev nD → PrngReg) (c : Dev nD) : (⟨S3000x1, .f32⟩ : BufTy).Contents (Elt Ideal) :=
  Sage.cntFn (F := Ideal) _ _ bcast_S150000_S150000x1_0 bcast_S_S150000x1 bcast_S_S3000x1 scatter_S3000x1_S150000x1_S150000x1_1_0_0_1
    (m ((c : Thread nD τ).loc main_arg19))

/-- It is what the count's buffer holds once the host stretch has run: its operations read one back at a time, down to
    the destination indices, which nothing has written since the launch. -/
theorem kCnt2_eq (m : KMem) (ρ : Dev nD → PrngReg) (c : Dev nD) : W1 m ρ c (Proc.devRef .tc main_v17) = kCnt2 m ρ c := by
  have h :=
    (back2 (rd0_v17 (W0 m ρ c))
      (back3 (rd0_v15 (W0 m ρ c))
        ((rd0_v13 (W0 m ρ c)).trans (congrArg (broadcastInDim S3000x1 ![] bcast_S_S3000x1 : (⟨S_, .f32⟩ : BufTy).Contents (Elt Ideal) → (⟨S3000x1, .f32⟩ : BufTy).Contents (Elt Ideal))
          (rd0_cst_6 (W0 m ρ c))))
        ((rd0_v14 (W0 m ρ c)).trans (congrArg (broadcastInDim S150000x1 ![0] bcast_S150000_S150000x1_0 : (⟨S150000, .i32⟩ : BufTy).Contents (Elt Ideal) → (⟨S150000x1, .i32⟩ : BufTy).Contents (Elt Ideal))
          (carry_arg19_0_1 m ρ c)))
        ((rd0_v12 (W0 m ρ c)).trans (congrArg (broadcastInDim S150000x1 ![] bcast_S_S150000x1 : (⟨S_, .f32⟩ : BufTy).Contents (Elt Ideal) → (⟨S150000x1, .f32⟩ : BufTy).Contents (Elt Ideal))
          (rd0_cst_5 (W0 m ρ c)))))
      ((rd0_v16 (W0 m ρ c)).trans (congrArg (broadcastInDim S3000x1 ![] bcast_S_S3000x1 : (⟨S_, .f32⟩ : BufTy).Contents (Elt Ideal) → (⟨S3000x1, .f32⟩ : BufTy).Contents (Elt Ideal))
        (rd0_cst_7 (W0 m ρ c)))))
  exact h

/-- The number of relation 3's edges into each of its destination rows, and at least one. -/
noncomputable def kCnt3 (m : KMem) (ρ : Dev nD → PrngReg) (c : Dev nD) : (⟨S10000x1, .f32⟩ : BufTy).Contents (Elt Ideal) :=
  Sage.cntFn (F := Ideal) _ _ bcast_S400000_S400000x1_0 bcast_S_S400000x1 bcast_S_S10000x1 scatter_S10000x1_S400000x1_S400000x1_1_0_0_1
    (m ((c : Thread nD τ).loc main_arg21))

/-- It is what the count's buffer holds once the host stretch has run: its operations read one back at a time, down to
    the destination indices, which nothing has written since the launch. -/
theorem kCnt3_eq (m : KMem) (ρ : Dev nD → PrngReg) (c : Dev nD) : W1 m ρ c (Proc.devRef .tc main_v23) = kCnt3 m ρ c := by
  have h :=
    (back2 (rd0_v23 (W0 m ρ c))
      (back3 (rd0_v21 (W0 m ρ c))
        ((rd0_v19 (W0 m ρ c)).trans (congrArg (broadcastInDim S10000x1 ![] bcast_S_S10000x1 : (⟨S_, .f32⟩ : BufTy).Contents (Elt Ideal) → (⟨S10000x1, .f32⟩ : BufTy).Contents (Elt Ideal))
          (rd0_cst_9 (W0 m ρ c))))
        ((rd0_v20 (W0 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg21_0_1 m ρ c)))
        ((rd0_v18 (W0 m ρ c)).trans (congrArg (broadcastInDim S400000x1 ![] bcast_S_S400000x1 : (⟨S_, .f32⟩ : BufTy).Contents (Elt Ideal) → (⟨S400000x1, .f32⟩ : BufTy).Contents (Elt Ideal))
          (rd0_cst_8 (W0 m ρ c)))))
      ((rd0_v22 (W0 m ρ c)).trans (congrArg (broadcastInDim S10000x1 ![] bcast_S_S10000x1 : (⟨S_, .f32⟩ : BufTy).Contents (Elt Ideal) → (⟨S10000x1, .f32⟩ : BufTy).Contents (Elt Ideal))
        (rd0_cst_10 (W0 m ρ c)))))
  exact h

/-- The number of relation 4's edges into each of its destination rows, and at least one. -/
noncomputable def kCnt4 (m : KMem) (ρ : Dev nD → PrngReg) (c : Dev nD) : (⟨S20000x1, .f32⟩ : BufTy).Contents (Elt Ideal) :=
  Sage.cntFn (F := Ideal) _ _ bcast_S500000_S500000x1_0 bcast_S_S500000x1 bcast_S_S20000x1 scatter_S20000x1_S500000x1_S500000x1_1_0_0_1
    (m ((c : Thread nD τ).loc main_arg23))

/-- It is what the count's buffer holds once the host stretch has run: its operations read one back at a time, down to
    the destination indices, which nothing has written since the launch. -/
theorem kCnt4_eq (m : KMem) (ρ : Dev nD → PrngReg) (c : Dev nD) : W1 m ρ c (Proc.devRef .tc main_v29) = kCnt4 m ρ c := by
  have h :=
    (back2 (rd0_v29 (W0 m ρ c))
      (back3 (rd0_v27 (W0 m ρ c))
        ((rd0_v25 (W0 m ρ c)).trans (congrArg (broadcastInDim S20000x1 ![] bcast_S_S20000x1 : (⟨S_, .f32⟩ : BufTy).Contents (Elt Ideal) → (⟨S20000x1, .f32⟩ : BufTy).Contents (Elt Ideal))
          (rd0_cst_12 (W0 m ρ c))))
        ((rd0_v26 (W0 m ρ c)).trans (congrArg (broadcastInDim S500000x1 ![0] bcast_S500000_S500000x1_0 : (⟨S500000, .i32⟩ : BufTy).Contents (Elt Ideal) → (⟨S500000x1, .i32⟩ : BufTy).Contents (Elt Ideal))
          (carry_arg23_0_1 m ρ c)))
        ((rd0_v24 (W0 m ρ c)).trans (congrArg (broadcastInDim S500000x1 ![] bcast_S_S500000x1 : (⟨S_, .f32⟩ : BufTy).Contents (Elt Ideal) → (⟨S500000x1, .f32⟩ : BufTy).Contents (Elt Ideal))
          (rd0_cst_11 (W0 m ρ c)))))
      ((rd0_v28 (W0 m ρ c)).trans (congrArg (broadcastInDim S20000x1 ![] bcast_S_S20000x1 : (⟨S_, .f32⟩ : BufTy).Contents (Elt Ideal) → (⟨S20000x1, .f32⟩ : BufTy).Contents (Elt Ideal))
        (rd0_cst_13 (W0 m ρ c)))))
  exact h

/-- The number of relation 5's edges into each of its destination rows, and at least one. -/
noncomputable def kCnt5 (m : KMem) (ρ : Dev nD → PrngReg) (c : Dev nD) : (⟨S20000x1, .f32⟩ : BufTy).Contents (Elt Ideal) :=
  Sage.cntFn (F := Ideal) _ _ bcast_S400000_S400000x1_0 bcast_S_S400000x1 bcast_S_S20000x1 scatter_S20000x1_S400000x1_S400000x1_1_0_0_1
    (m ((c : Thread nD τ).loc main_arg25))

/-- It is what the count's buffer holds once the host stretch has run: its operations read one back at a time, down to
    the destination indices, which nothing has written since the launch. -/
theorem kCnt5_eq (m : KMem) (ρ : Dev nD → PrngReg) (c : Dev nD) : W1 m ρ c (Proc.devRef .tc main_v35) = kCnt5 m ρ c := by
  have h :=
    (back2 (rd0_v35 (W0 m ρ c))
      (back3 (rd0_v33 (W0 m ρ c))
        ((rd0_v31 (W0 m ρ c)).trans (congrArg (broadcastInDim S20000x1 ![] bcast_S_S20000x1 : (⟨S_, .f32⟩ : BufTy).Contents (Elt Ideal) → (⟨S20000x1, .f32⟩ : BufTy).Contents (Elt Ideal))
          (rd0_cst_15 (W0 m ρ c))))
        ((rd0_v32 (W0 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg25_0_1 m ρ c)))
        ((rd0_v30 (W0 m ρ c)).trans (congrArg (broadcastInDim S400000x1 ![] bcast_S_S400000x1 : (⟨S_, .f32⟩ : BufTy).Contents (Elt Ideal) → (⟨S400000x1, .f32⟩ : BufTy).Contents (Elt Ideal))
          (rd0_cst_14 (W0 m ρ c)))))
      ((rd0_v34 (W0 m ρ c)).trans (congrArg (broadcastInDim S20000x1 ![] bcast_S_S20000x1 : (⟨S_, .f32⟩ : BufTy).Contents (Elt Ideal) → (⟨S20000x1, .f32⟩ : BufTy).Contents (Elt Ideal))
        (rd0_cst_16 (W0 m ρ c)))))
  exact h

/-- The number of relation 6's edges into each of its destination rows, and at least one. -/
noncomputable def kCnt6 (m : KMem) (ρ : Dev nD → PrngReg) (c : Dev nD) : (⟨S50000x1, .f32⟩ : BufTy).Contents (Elt Ideal) :=
  Sage.cntFn (F := Ideal) _ _ bcast_S150000_S150000x1_0 bcast_S_S150000x1 bcast_S_S50000x1 scatter_S50000x1_S150000x1_S150000x1_1_0_0_1
    (m ((c : Thread nD τ).loc main_arg27))

/-- It is what the count's buffer holds once the host stretch has run: its operations read one back at a time, down to
    the destination indices, which nothing has written since the launch. -/
theorem kCnt6_eq (m : KMem) (ρ : Dev nD → PrngReg) (c : Dev nD) : W1 m ρ c (Proc.devRef .tc main_v41) = kCnt6 m ρ c := by
  have h :=
    (back2 (rd0_v41 (W0 m ρ c))
      (back3 (rd0_v39 (W0 m ρ c))
        ((rd0_v37 (W0 m ρ c)).trans (congrArg (broadcastInDim S50000x1 ![] bcast_S_S50000x1 : (⟨S_, .f32⟩ : BufTy).Contents (Elt Ideal) → (⟨S50000x1, .f32⟩ : BufTy).Contents (Elt Ideal))
          (rd0_cst_18 (W0 m ρ c))))
        ((rd0_v38 (W0 m ρ c)).trans (congrArg (broadcastInDim S150000x1 ![0] bcast_S150000_S150000x1_0 : (⟨S150000, .i32⟩ : BufTy).Contents (Elt Ideal) → (⟨S150000x1, .i32⟩ : BufTy).Contents (Elt Ideal))
          (carry_arg27_0_1 m ρ c)))
        ((rd0_v36 (W0 m ρ c)).trans (congrArg (broadcastInDim S150000x1 ![] bcast_S_S150000x1 : (⟨S_, .f32⟩ : BufTy).Contents (Elt Ideal) → (⟨S150000x1, .f32⟩ : BufTy).Contents (Elt Ideal))
          (rd0_cst_17 (W0 m ρ c)))))
      ((rd0_v40 (W0 m ρ c)).trans (congrArg (broadcastInDim S50000x1 ![] bcast_S_S50000x1 : (⟨S_, .f32⟩ : BufTy).Contents (Elt Ideal) → (⟨S50000x1, .f32⟩ : BufTy).Contents (Elt Ideal))
        (rd0_cst_19 (W0 m ρ c)))))
  exact h

/-- Layer 1's aggregation of relation 0: for each destination row the mean, over the edges into it, of the source
    rows (a negative source index counted from the end). -/
noncomputable def kAgg1_0 (m : KMem) (ρ : Dev nD → PrngReg) (c : Dev nD) : (⟨S10000x128, .f32⟩ : BufTy).Contents (Elt Ideal) :=
  Sage.aggFn (F := Ideal) _ _ _ _ 20000#32 bcast_S_S500000 bcast_S500000_S500000x1_0 gather_S20000x128_S500000x1_S500000x128_1_0_n_n_0_1_1128
    bcast_S_S10000x128 scatter_S10000x128_S500000x1_S500000x128_1_0_0_1 bcast_S_S500000x1 bcast_S_S10000x1 scatter_S10000x1_S500000x1_S500000x1_1_0_0_1 bcast_S10000x1_S10000x128_0_1
    (m ((c : Thread nD τ).loc main_arg0)) (m ((c : Thread nD τ).loc main_arg14)) (m ((c : Thread nD τ).loc main_arg15))

/-- It is what the aggregation's buffer holds once the host stretch has run: its operations read one back at a time,
    down to the source rows and the edge indices as launched and to the relation's count. -/
theorem kAgg1_0_eq (m : KMem) (ρ : Dev nD → PrngReg) (c : Dev nD) : W1 m ρ c (Proc.devRef .tc main_v53) = kAgg1_0 m ρ c := by
  have h :=
    (back2 (rd0_v53 (W0 m ρ c))
      (back3 (rd0_v51 (W0 m ρ c))
        ((rd0_v49 (W0 m ρ c)).trans (congrArg (broadcastInDim S10000x128 ![] bcast_S_S10000x128 : (⟨S_, .f32⟩ : BufTy).Contents (Elt Ideal) → (⟨S10000x128, .f32⟩ : BufTy).Contents (Elt Ideal))
          (rd0_cst_21 (W0 m ρ c))))
        ((rd0_v50 (W0 m ρ c)).trans (congrArg (broadcastInDim S500000x1 ![0] bcast_S500000_S500000x1_0 : (⟨S500000, .i32⟩ : BufTy).Contents (Elt Ideal) → (⟨S500000x1, .i32⟩ : BufTy).Contents (Elt Ideal))
          (carry_arg15_0_1 m ρ c)))
        (back2 (rd0_v48 (W0 m ρ c))
          (carry_arg0_0_1 m ρ c)
          ((rd0_v47 (W0 m ρ c)).trans (congrArg (broadcastInDim S500000x1 ![0] bcast_S500000_S500000x1_0 : (⟨S500000, .i32⟩ : BufTy).Contents (Elt Ideal) → (⟨S500000x1, .i32⟩ : BufTy).Contents (Elt Ideal))
            (back3 (rd0_v46 (W0 m ρ c))
              (back2 (rd0_v43 (W0 m ρ c))
                (carry_arg14_0_1 m ρ c)
                ((rd0_v42 (W0 m ρ c)).trans (congrArg (broadcastInDim S500000 ![] bcast_S_S500000 : (⟨S_, .i32⟩ : BufTy).Contents (Elt Ideal) → (⟨S500000, .i32⟩ : BufTy).Contents (Elt Ideal))
                  (rd0_c (W0 m ρ c)))))
              (back2 (rd0_v45 (W0 m ρ c))
                (carry_arg14_0_1 m ρ c)
                ((rd0_v44 (W0 m ρ c)).trans (congrArg (broadcastInDim S500000 ![] bcast_S_S500000 : (⟨S_, .i32⟩ : BufTy).Contents (Elt Ideal) → (⟨S500000, .i32⟩ : BufTy).Contents (Elt Ideal))
                  (rd0_c_20 (W0 m ρ c)))))
              (carry_arg14_0_1 m ρ c))))))
      ((rd0_v52 (W0 m ρ c)).trans (congrArg (broadcastInDim S10000x128 ![0, 1] bcast_S10000x1_S10000x128_0_1 : (⟨S10000x1, .f32⟩ : BufTy).Contents (Elt Ideal) → (⟨S10000x128, .f32⟩ : BufTy).Contents (Elt Ideal))
        (kCnt0_eq m ρ c))))
  exact h

/-- Layer 1's aggregation of relation 1: for each destination row the mean, over the edges into it, of the source
    rows (a negative source index counted from the end). -/
noncomputable def kAgg1_1 (m : KMem) (ρ : Dev nD → PrngReg) (c : Dev nD) : (⟨S50000x128, .f32⟩ : BufTy).Contents (Elt Ideal) :=
  Sage.aggFn (F := Ideal) _ _ _ _ 20000#32 bcast_S_S400000 bcast_S400000_S400000x1_0 gather_S20000x128_S400000x1_S400000x128_1_0_n_n_0_1_1128
    bcast_S_S50000x128 scatter_S50000x128_S400000x1_S400000x128_1_0_0_1 bcast_S_S400000x1 bcast_S_S50000x1 scatter_S50000x1_S400000x1_S400000x1_1_0_0_1 bcast_S50000x1_S50000x128_0_1
    (m ((c : Thread nD τ).loc main_arg0)) (m ((c : Thread nD τ).loc main_arg16)) (m ((c : Thread nD τ).loc main_arg17))

/-- It is what the aggregation's buffer holds once the host stretch has run: its operations read one back at a time,
    down to the source rows and the edge indices as launched and to the relation's count. -/
theorem kAgg1_1_eq (m : KMem) (ρ : Dev nD → PrngReg) (c : Dev nD) : W1 m ρ c (Proc.devRef .tc main_v65) = kAgg1_1 m ρ c := by
  have h :=
    (back2 (rd0_v65 (W0 m ρ c))
      (back3 (rd0_v63 (W0 m ρ c))
        ((rd0_v61 (W0 m ρ c)).trans (congrArg (broadcastInDim S50000x128 ![] bcast_S_S50000x128 : (⟨S_, .f32⟩ : BufTy).Contents (Elt Ideal) → (⟨S50000x128, .f32⟩ : BufTy).Contents (Elt Ideal))
          (rd0_cst_24 (W0 m ρ c))))
        ((rd0_v62 (W0 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg17_0_1 m ρ c)))
        (back2 (rd0_v60 (W0 m ρ c))
          (carry_arg0_0_1 m ρ c)
          ((rd0_v59 (W0 m ρ c)).trans (congrArg (broadcastInDim S400000x1 ![0] bcast_S400000_S400000x1_0 : (⟨S400000, .i32⟩ : BufTy).Contents (Elt Ideal) → (⟨S400000x1, .i32⟩ : BufTy).Contents (Elt Ideal))
            (back3 (rd0_v58 (W0 m ρ c))
              (back2 (rd0_v55 (W0 m ρ c))
                (carry_arg16_0_1 m ρ c)
                ((rd0_v54 (W0 m ρ c)).trans (congrArg (broadcastInDim S400000 ![] bcast_S_S400000 : (⟨S_, .i32⟩ : BufTy).Contents (Elt Ideal) → (⟨S400000, .i32⟩ : BufTy).Contents (Elt Ideal))
                  (rd0_c_22 (W0 m ρ c)))))
              (back2 (rd0_v57 (W0 m ρ c))
                (carry_arg16_0_1 m ρ c)
                ((rd0_v56 (W0 m ρ c)).trans (congrArg (broadcastInDim S400000 ![] bcast_S_S400000 : (⟨S_, .i32⟩ : BufTy).Contents (Elt Ideal) → (⟨S400000, .i32⟩ : BufTy).Contents (Elt Ideal))
                  (rd0_c_23 (W0 m ρ c)))))
              (carry_arg16_0_1 m ρ c))))))
      ((rd0_v64 (W0 m ρ c)).trans (congrArg (broadcastInDim S50000x128 ![0, 1] bcast_S50000x1_S50000x128_0_1 : (⟨S50000x1, .f32⟩ : BufTy).Contents (Elt Ideal) → (⟨S50000x128, .f32⟩ : BufTy).Contents (Elt Ideal))
        (kCnt1_eq m ρ c))))
  exact h

/-- Layer 1's aggregation of relation 2: for each destination row the mean, over the edges into it, of the source
    rows (a negative source index counted from the end). -/
noncomputable def kAgg1_2 (m : KMem) (ρ : Dev nD → PrngReg) (c : Dev nD) : (⟨S3000x128, .f32⟩ : BufTy).Contents (Elt Ideal) :=
  Sage.aggFn (F := Ideal) _ _ _ _ 50000#32 bcast_S_S150000 bcast_S150000_S150000x1_0 gather_S50000x128_S150000x1_S150000x128_1_0_n_n_0_1_1128
    bcast_S_S3000x128 scatter_S3000x128_S150000x1_S150000x128_1_0_0_1 bcast_S_S150000x1 bcast_S_S3000x1 scatter_S3000x1_S150000x1_S150000x1_1_0_0_1 bcast_S3000x1_S3000x128_0_1
    (m ((c : Thread nD τ).loc main_arg1)) (m ((c : Thread nD τ).loc main_arg18)) (m ((c : Thread nD τ).loc main_arg19))

/-- It is what the aggregation's buffer holds once the host stretch has run: its operations read one back at a time,
    down to the source rows and the edge indices as launched and to the relation's count. -/
theorem kAgg1_2_eq (m : KMem) (ρ : Dev nD → PrngReg) (c : Dev nD) : W1 m ρ c (Proc.devRef .tc main_v77) = kAgg1_2 m ρ c := by
  have h :=
    (back2 (rd0_v77 (W0 m ρ c))
      (back3 (rd0_v75 (W0 m ρ c))
        ((rd0_v73 (W0 m ρ c)).trans (congrArg (broadcastInDim S3000x128 ![] bcast_S_S3000x128 : (⟨S_, .f32⟩ : BufTy).Contents (Elt Ideal) → (⟨S3000x128, .f32⟩ : BufTy).Contents (Elt Ideal))
          (rd0_cst_27 (W0 m ρ c))))
        ((rd0_v74 (W0 m ρ c)).trans (congrArg (broadcastInDim S150000x1 ![0] bcast_S150000_S150000x1_0 : (⟨S150000, .i32⟩ : BufTy).Contents (Elt Ideal) → (⟨S150000x1, .i32⟩ : BufTy).Contents (Elt Ideal))
          (carry_arg19_0_1 m ρ c)))
        (back2 (rd0_v72 (W0 m ρ c))
          (carry_arg1_0_1 m ρ c)
          ((rd0_v71 (W0 m ρ c)).trans (congrArg (broadcastInDim S150000x1 ![0] bcast_S150000_S150000x1_0 : (⟨S150000, .i32⟩ : BufTy).Contents (Elt Ideal) → (⟨S150000x1, .i32⟩ : BufTy).Contents (Elt Ideal))
            (back3 (rd0_v70 (W0 m ρ c))
              (back2 (rd0_v67 (W0 m ρ c))
                (carry_arg18_0_1 m ρ c)
                ((rd0_v66 (W0 m ρ c)).trans (congrArg (broadcastInDim S150000 ![] bcast_S_S150000 : (⟨S_, .i32⟩ : BufTy).Contents (Elt Ideal) → (⟨S150000, .i32⟩ : BufTy).Contents (Elt Ideal))
                  (rd0_c_25 (W0 m ρ c)))))
              (back2 (rd0_v69 (W0 m ρ c))
                (carry_arg18_0_1 m ρ c)
                ((rd0_v68 (W0 m ρ c)).trans (congrArg (broadcastInDim S150000 ![] bcast_S_S150000 : (⟨S_, .i32⟩ : BufTy).Contents (Elt Ideal) → (⟨S150000, .i32⟩ : BufTy).Contents (Elt Ideal))
                  (rd0_c_26 (W0 m ρ c)))))
              (carry_arg18_0_1 m ρ c))))))
      ((rd0_v76 (W0 m ρ c)).trans (congrArg (broadcastInDim S3000x128 ![0, 1] bcast_S3000x1_S3000x128_0_1 : (⟨S3000x1, .f32⟩ : BufTy).Contents (Elt Ideal) → (⟨S3000x128, .f32⟩ : BufTy).Contents (Elt Ideal))
        (kCnt2_eq m ρ c))))
  exact h

/-- Layer 1's aggregation of relation 3: for each destination row the mean, over the edges into it, of the source
    rows (a negative source index counted from the end). -/
noncomputable def kAgg1_3 (m : KMem) (ρ : Dev nD → PrngReg) (c : Dev nD) : (⟨S10000x128, .f32⟩ : BufTy).Contents (Elt Ideal) :=
  Sage.aggFn (F := Ideal) _ _ _ _ 50000#32 bcast_S_S400000 bcast_S400000_S400000x1_0 gather_S50000x128_S400000x1_S400000x128_1_0_n_n_0_1_1128
    bcast_S_S10000x128 scatter_S10000x128_S400000x1_S400000x128_1_0_0_1 bcast_S_S400000x1 bcast_S_S10000x1 scatter_S10000x1_S400000x1_S400000x1_1_0_0_1 bcast_S10000x1_S10000x128_0_1
    (m ((c : Thread nD τ).loc main_arg1)) (m ((c : Thread nD τ).loc main_arg20)) (m ((c : Thread nD τ).loc main_arg21))

/-- It is what the aggregation's buffer holds once the host stretch has run: its operations read one back at a time,
    down to the source rows and the edge indices as launched and to the relation's count. -/
theorem kAgg1_3_eq (m : KMem) (ρ : Dev nD → PrngReg) (c : Dev nD) : W1 m ρ c (Proc.devRef .tc main_v89) = kAgg1_3 m ρ c := by
  have h :=
    (back2 (rd0_v89 (W0 m ρ c))
      (back3 (rd0_v87 (W0 m ρ c))
        ((rd0_v85 (W0 m ρ c)).trans (congrArg (broadcastInDim S10000x128 ![] bcast_S_S10000x128 : (⟨S_, .f32⟩ : BufTy).Contents (Elt Ideal) → (⟨S10000x128, .f32⟩ : BufTy).Contents (Elt Ideal))
          (rd0_cst_30 (W0 m ρ c))))
        ((rd0_v86 (W0 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg21_0_1 m ρ c)))
        (back2 (rd0_v84 (W0 m ρ c))
          (carry_arg1_0_1 m ρ c)
          ((rd0_v83 (W0 m ρ c)).trans (congrArg (broadcastInDim S400000x1 ![0] bcast_S400000_S400000x1_0 : (⟨S400000, .i32⟩ : BufTy).Contents (Elt Ideal) → (⟨S400000x1, .i32⟩ : BufTy).Contents (Elt Ideal))
            (back3 (rd0_v82 (W0 m ρ c))
              (back2 (rd0_v79 (W0 m ρ c))
                (carry_arg20_0_1 m ρ c)
                ((rd0_v78 (W0 m ρ c)).trans (congrArg (broadcastInDim S400000 ![] bcast_S_S400000 : (⟨S_, .i32⟩ : BufTy).Contents (Elt Ideal) → (⟨S400000, .i32⟩ : BufTy).Contents (Elt Ideal))
                  (rd0_c_28 (W0 m ρ c)))))
              (back2 (rd0_v81 (W0 m ρ c))
                (carry_arg20_0_1 m ρ c)
                ((rd0_v80 (W0 m ρ c)).trans (congrArg (broadcastInDim S400000 ![] bcast_S_S400000 : (⟨S_, .i32⟩ : BufTy).Contents (Elt Ideal) → (⟨S400000, .i32⟩ : BufTy).Contents (Elt Ideal))
                  (rd0_c_29 (W0 m ρ c)))))
              (carry_arg20_0_1 m ρ c))))))
      ((rd0_v88 (W0 m ρ c)).trans (congrArg (broadcastInDim S10000x128 ![0, 1] bcast_S10000x1_S10000x128_0_1 : (⟨S10000x1, .f32⟩ : BufTy).Contents (Elt Ideal) → (⟨S10000x128, .f32⟩ : BufTy).Contents (Elt Ideal))
        (kCnt3_eq m ρ c))))
  exact h

/-- Layer 1's aggregation of relation 4: for each destination row the mean, over the edges into it, of the source
    rows (a negative source index counted from the end). -/
noncomputable def kAgg1_4 (m : KMem) (ρ : Dev nD → PrngReg) (c : Dev nD) : (⟨S20000x128, .f32⟩ : BufTy).Contents (Elt Ideal) :=
  Sage.aggFn (F := Ideal) _ _ _ _ 10000#32 bcast_S_S500000 bcast_S500000_S500000x1_0 gather_S10000x128_S500000x1_S500000x128_1_0_n_n_0_1_1128
    bcast_S_S20000x128 scatter_S20000x128_S500000x1_S500000x128_1_0_0_1 bcast_S_S500000x1 bcast_S_S20000x1 scatter_S20000x1_S500000x1_S500000x1_1_0_0_1 bcast_S20000x1_S20000x128_0_1
    (m ((c : Thread nD τ).loc main_arg2)) (m ((c : Thread nD τ).loc main_arg22)) (m ((c : Thread nD τ).loc main_arg23))

/-- It is what the aggregation's buffer holds once the host stretch has run: its operations read one back at a time,
    down to the source rows and the edge indices as launched and to the relation's count. -/
theorem kAgg1_4_eq (m : KMem) (ρ : Dev nD → PrngReg) (c : Dev nD) : W1 m ρ c (Proc.devRef .tc main_v101) = kAgg1_4 m ρ c := by
  have h :=
    (back2 (rd0_v101 (W0 m ρ c))
      (back3 (rd0_v99 (W0 m ρ c))
        ((rd0_v97 (W0 m ρ c)).trans (congrArg (broadcastInDim S20000x128 ![] bcast_S_S20000x128 : (⟨S_, .f32⟩ : BufTy).Contents (Elt Ideal) → (⟨S20000x128, .f32⟩ : BufTy).Contents (Elt Ideal))
          (rd0_cst_33 (W0 m ρ c))))
        ((rd0_v98 (W0 m ρ c)).trans (congrArg (broadcastInDim S500000x1 ![0] bcast_S500000_S500000x1_0 : (⟨S500000, .i32⟩ : BufTy).Contents (Elt Ideal) → (⟨S500000x1, .i32⟩ : BufTy).Contents (Elt Ideal))
          (carry_arg23_0_1 m ρ c)))
        (back2 (rd0_v96 (W0 m ρ c))
          (carry_arg2_0_1 m ρ c)
          ((rd0_v95 (W0 m ρ c)).trans (congrArg (broadcastInDim S500000x1 ![0] bcast_S500000_S500000x1_0 : (⟨S500000, .i32⟩ : BufTy).Contents (Elt Ideal) → (⟨S500000x1, .i32⟩ : BufTy).Contents (Elt Ideal))
            (back3 (rd0_v94 (W0 m ρ c))
              (back2 (rd0_v91 (W0 m ρ c))
                (carry_arg22_0_1 m ρ c)
                ((rd0_v90 (W0 m ρ c)).trans (congrArg (broadcastInDim S500000 ![] bcast_S_S500000 : (⟨S_, .i32⟩ : BufTy).Contents (Elt Ideal) → (⟨S500000, .i32⟩ : BufTy).Contents (Elt Ideal))
                  (rd0_c_31 (W0 m ρ c)))))
              (back2 (rd0_v93 (W0 m ρ c))
                (carry_arg22_0_1 m ρ c)
                ((rd0_v92 (W0 m ρ c)).trans (congrArg (broadcastInDim S500000 ![] bcast_S_S500000 : (⟨S_, .i32⟩ : BufTy).Contents (Elt Ideal) → (⟨S500000, .i32⟩ : BufTy).Contents (Elt Ideal))
                  (rd0_c_32 (W0 m ρ c)))))
              (carry_arg22_0_1 m ρ c))))))
      ((rd0_v100 (W0 m ρ c)).trans (congrArg (broadcastInDim S20000x128 ![0, 1] bcast_S20000x1_S20000x128_0_1 : (⟨S20000x1, .f32⟩ : BufTy).Contents (Elt Ideal) → (⟨S20000x128, .f32⟩ : BufTy).Contents (Elt Ideal))
        (kCnt4_eq m ρ c))))
  exact h

/-- Layer 1's aggregation of relation 5: for each destination row the mean, over the edges into it, of the source
    rows (a negative source index counted from the end). -/
noncomputable def kAgg1_5 (m : KMem) (ρ : Dev nD → PrngReg) (c : Dev nD) : (⟨S20000x128, .f32⟩ : BufTy).Contents (Elt Ideal) :=
  Sage.aggFn (F := Ideal) _ _ _ _ 50000#32 bcast_S_S400000 bcast_S400000_S400000x1_0 gather_S50000x128_S400000x1_S400000x128_1_0_n_n_0_1_1128
    bcast_S_S20000x128 scatter_S20000x128_S400000x1_S400000x128_1_0_0_1 bcast_S_S400000x1 bcast_S_S20000x1 scatter_S20000x1_S400000x1_S400000x1_1_0_0_1 bcast_S20000x1_S20000x128_0_1
    (m ((c : Thread nD τ).loc main_arg1)) (m ((c : Thread nD τ).loc main_arg24)) (m ((c : Thread nD τ).loc main_arg25))

/-- It is what the aggregation's buffer holds once the host stretch has run: its operations read one back at a time,
    down to the source rows and the edge indices as launched and to the relation's count. -/
theorem kAgg1_5_eq (m : KMem) (ρ : Dev nD → PrngReg) (c : Dev nD) : W1 m ρ c (Proc.devRef .tc main_v113) = kAgg1_5 m ρ c := by
  have h :=
    (back2 (rd0_v113 (W0 m ρ c))
      (back3 (rd0_v111 (W0 m ρ c))
        ((rd0_v109 (W0 m ρ c)).trans (congrArg (broadcastInDim S20000x128 ![] bcast_S_S20000x128 : (⟨S_, .f32⟩ : BufTy).Contents (Elt Ideal) → (⟨S20000x128, .f32⟩ : BufTy).Contents (Elt Ideal))
          (rd0_cst_36 (W0 m ρ c))))
        ((rd0_v110 (W0 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg25_0_1 m ρ c)))
        (back2 (rd0_v108 (W0 m ρ c))
          (carry_arg1_0_1 m ρ c)
          ((rd0_v107 (W0 m ρ c)).trans (congrArg (broadcastInDim S400000x1 ![0] bcast_S400000_S400000x1_0 : (⟨S400000, .i32⟩ : BufTy).Contents (Elt Ideal) → (⟨S400000x1, .i32⟩ : BufTy).Contents (Elt Ideal))
            (back3 (rd0_v106 (W0 m ρ c))
              (back2 (rd0_v103 (W0 m ρ c))
                (carry_arg24_0_1 m ρ c)
                ((rd0_v102 (W0 m ρ c)).trans (congrArg (broadcastInDim S400000 ![] bcast_S_S400000 : (⟨S_, .i32⟩ : BufTy).Contents (Elt Ideal) → (⟨S400000, .i32⟩ : BufTy).Contents (Elt Ideal))
                  (rd0_c_34 (W0 m ρ c)))))
              (back2 (rd0_v105 (W0 m ρ c))
                (carry_arg24_0_1 m ρ c)
                ((rd0_v104 (W0 m ρ c)).trans (congrArg (broadcastInDim S400000 ![] bcast_S_S400000 : (⟨S_, .i32⟩ : BufTy).Contents (Elt Ideal) → (⟨S400000, .i32⟩ : BufTy).Contents (Elt Ideal))
                  (rd0_c_35 (W0 m ρ c)))))
              (carry_arg24_0_1 m ρ c))))))
      ((rd0_v112 (W0 m ρ c)).trans (congrArg (broadcastInDim S20000x128 ![0, 1] bcast_S20000x1_S20000x128_0_1 : (⟨S20000x1, .f32⟩ : BufTy).Contents (Elt Ideal) → (⟨S20000x128, .f32⟩ : BufTy).Contents (Elt Ideal))
        (kCnt5_eq m ρ c))))
  exact h

/-- Layer 1's aggregation of relation 6: for each destination row the mean, over the edges into it, of the source
    rows (a negative source index counted from the end). -/
noncomputable def kAgg1_6 (m : KMem) (ρ : Dev nD → PrngReg) (c : Dev nD) : (⟨S50000x128, .f32⟩ : BufTy).Contents (Elt Ideal) :=
  Sage.aggFn (F := Ideal) _ _ _ _ 3000#32 bcast_S_S150000 bcast_S150000_S150000x1_0 gather_S3000x128_S150000x1_S150000x128_1_0_n_n_0_1_1128
    bcast_S_S50000x128 scatter_S50000x128_S150000x1_S150000x128_1_0_0_1 bcast_S_S150000x1 bcast_S_S50000x1 scatter_S50000x1_S150000x1_S150000x1_1_0_0_1 bcast_S50000x1_S50000x128_0_1
    (m ((c : Thread nD τ).loc main_arg3)) (m ((c : Thread nD τ).loc main_arg26)) (m ((c : Thread nD τ).loc main_arg27))

/-- It is what the aggregation's buffer holds once the host stretch has run: its operations read one back at a time,
    down to the source rows and the edge indices as launched and to the relation's count. -/
theorem kAgg1_6_eq (m : KMem) (ρ : Dev nD → PrngReg) (c : Dev nD) : W1 m ρ c (Proc.devRef .tc main_v125) = kAgg1_6 m ρ c := by
  have h :=
    (back2 (rd0_v125 (W0 m ρ c))
      (back3 (rd0_v123 (W0 m ρ c))
        ((rd0_v121 (W0 m ρ c)).trans (congrArg (broadcastInDim S50000x128 ![] bcast_S_S50000x128 : (⟨S_, .f32⟩ : BufTy).Contents (Elt Ideal) → (⟨S50000x128, .f32⟩ : BufTy).Contents (Elt Ideal))
          (rd0_cst_39 (W0 m ρ c))))
        ((rd0_v122 (W0 m ρ c)).trans (congrArg (broadcastInDim S150000x1 ![0] bcast_S150000_S150000x1_0 : (⟨S150000, .i32⟩ : BufTy).Contents (Elt Ideal) → (⟨S150000x1, .i32⟩ : BufTy).Contents (Elt Ideal))
          (carry_arg27_0_1 m ρ c)))
        (back2 (rd0_v120 (W0 m ρ c))
          (carry_arg3_0_1 m ρ c)
          ((rd0_v119 (W0 m ρ c)).trans (congrArg (broadcastInDim S150000x1 ![0] bcast_S150000_S150000x1_0 : (⟨S150000, .i32⟩ : BufTy).Contents (Elt Ideal) → (⟨S150000x1, .i32⟩ : BufTy).Contents (Elt Ideal))
            (back3 (rd0_v118 (W0 m ρ c))
              (back2 (rd0_v115 (W0 m ρ c))
                (carry_arg26_0_1 m ρ c)
                ((rd0_v114 (W0 m ρ c)).trans (congrArg (broadcastInDim S150000 ![] bcast_S_S150000 : (⟨S_, .i32⟩ : BufTy).Contents (Elt Ideal) → (⟨S150000, .i32⟩ : BufTy).Contents (Elt Ideal))
                  (rd0_c_37 (W0 m ρ c)))))
              (back2 (rd0_v117 (W0 m ρ c))
                (carry_arg26_0_1 m ρ c)
                ((rd0_v116 (W0 m ρ c)).trans (congrArg (broadcastInDim S150000 ![] bcast_S_S150000 : (⟨S_, .i32⟩ : BufTy).Contents (Elt Ideal) → (⟨S150000, .i32⟩ : BufTy).Contents (Elt Ideal))
                  (rd0_c_38 (W0 m ρ c)))))
              (carry_arg26_0_1 m ρ c))))))
      ((rd0_v124 (W0 m ρ c)).trans (congrArg (broadcastInDim S50000x128 ![0, 1] bcast_S50000x1_S50000x128_0_1 : (⟨S50000x1, .f32⟩ : BufTy).Contents (Elt Ideal) → (⟨S50000x128, .f32⟩ : BufTy).Contents (Elt Ideal))
        (kCnt6_eq m ρ c))))
  exact h

/-- Layer 1's left (neighbour) weights of relation 4: matrix 4 of the stack of left (neighbour) weights. -/
noncomputable def kWl1_4 (m : KMem) (ρ : Dev nD → PrngReg) (c : Dev nD) : (⟨S128x256, .f32⟩ : BufTy).Contents (Elt Ideal) :=
  Sage.wSlice (F := Ideal) _ _ _ 4 slices_S7x128x256_S1x128x256_4_0_0 shapeCasts_S1x128x256_S128x256 (m ((c : Thread nD τ).loc main_arg4))

/-- It is what the matrix's buffer holds once the host stretch has run. -/
theorem kWl1_4_eq (m : KMem) (ρ : Dev nD → PrngReg) (c : Dev nD) : W1 m ρ c (Proc.devRef .tc main_v127) = kWl1_4 m ρ c := by
  have h :=
    ((rd0_v127 (W0 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd0_v126 (W0 m ρ c)).trans (congrArg ((extractStridedSlice S1x128x256 ![4, 0, 0] · slices_S7x128x256_S1x128x256_4_0_0) : (⟨S7x128x256, .f32⟩ : BufTy).Contents (Elt Ideal) → (⟨S1x128x256, .f32⟩ : BufTy).Contents (Elt Ideal))
      (carry_arg4_0_1 m ρ c)))))
  exact h

/-- Layer 1's left (neighbour) weights of relation 5: matrix 5 of the stack of left (neighbour) weights. -/
noncomputable def kWl1_5 (m : KMem) (ρ : Dev nD → PrngReg) (c : Dev nD) : (⟨S128x256, .f32⟩ : BufTy).Contents (Elt Ideal) :=
  Sage.wSlice (F := Ideal) _ _ _ 5 slices_S7x128x256_S1x128x256_5_0_0 shapeCasts_S1x128x256_S128x256 (m ((c : Thread nD τ).loc main_arg4))

/-- It is what the matrix's buffer holds once the host stretch has run. -/
theorem kWl1_5_eq (m : KMem) (ρ : Dev nD → PrngReg) (c : Dev nD) : W1 m ρ c (Proc.devRef .tc main_v129) = kWl1_5 m ρ c := by
  have h :=
    ((rd0_v129 (W0 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd0_v128 (W0 m ρ c)).trans (congrArg ((extractStridedSlice S1x128x256 ![5, 0, 0] · slices_S7x128x256_S1x128x256_5_0_0) : (⟨S7x128x256, .f32⟩ : BufTy).Contents (Elt Ideal) → (⟨S1x128x256, .f32⟩ : BufTy).Contents (Elt Ideal))
      (carry_arg4_0_1 m ρ c)))))
  exact h

/-- Layer 1's right (self) weights of relation 4: matrix 4 of the stack of right (self) weights. -/
noncomputable def kWr1_4 (m : KMem) (ρ : Dev nD → PrngReg) (c : Dev nD) : (⟨S128x256, .f32⟩ : BufTy).Contents (Elt Ideal) :=
  Sage.wSlice (F := Ideal) _ _ _ 4 slices_S7x128x256_S1x128x256_4_0_0 shapeCasts_S1x128x256_S128x256 (m ((c : Thread nD τ).loc main_arg5))

/-- It is what the matrix's buffer holds once the host stretch has run. -/
theorem kWr1_4_eq (m : KMem) (ρ : Dev nD → PrngReg) (c : Dev nD) : W1 m ρ c (Proc.devRef .tc main_v131) = kWr1_4 m ρ c := by
  have h :=
    ((rd0_v131 (W0 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd0_v130 (W0 m ρ c)).trans (congrArg ((extractStridedSlice S1x128x256 ![4, 0, 0] · slices_S7x128x256_S1x128x256_4_0_0) : (⟨S7x128x256, .f32⟩ : BufTy).Contents (Elt Ideal) → (⟨S1x128x256, .f32⟩ : BufTy).Contents (Elt Ideal))
      (carry_arg5_0_1 m ρ c)))))
  exact h

/-- Layer 1's right (self) weights of relation 5: matrix 5 of the stack of right (self) weights. -/
noncomputable def kWr1_5 (m : KMem) (ρ : Dev nD → PrngReg) (c : Dev nD) : (⟨S128x256, .f32⟩ : BufTy).Contents (Elt Ideal) :=
  Sage.wSlice (F := Ideal) _ _ _ 5 slices_S7x128x256_S1x128x256_5_0_0 shapeCasts_S1x128x256_S128x256 (m ((c : Thread nD τ).loc main_arg5))

/-- It is what the matrix's buffer holds once the host stretch has run. -/
theorem kWr1_5_eq (m : KMem) (ρ : Dev nD → PrngReg) (c : Dev nD) : W1 m ρ c (Proc.devRef .tc main_v133) = kWr1_5 m ρ c := by
  have h :=
    ((rd0_v133 (W0 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd0_v132 (W0 m ρ c)).trans (congrArg ((extractStridedSlice S1x128x256 ![5, 0, 0] · slices_S7x128x256_S1x128x256_5_0_0) : (⟨S7x128x256, .f32⟩ : BufTy).Contents (Elt Ideal) → (⟨S1x128x256, .f32⟩ : BufTy).Contents (Elt Ideal))
      (carry_arg5_0_1 m ρ c)))))
  exact h

/-- Layer 1's bias of relation 4 as a row: row 4 of the biases, flattened and laid out as one row. -/
noncomputable def kB1_4 (m : KMem) (ρ : Dev nD → PrngReg) (c : Dev nD) : (⟨S1x256, .f32⟩ : BufTy).Contents (Elt Ideal) :=
  shapeCast S1x256 (shapeCast S256 (extractStridedSlice S1x256 ![4, 0] (m ((c : Thread nD τ).loc main_arg6)) slices_S7x256_S1x256_4_0) shapeCasts_S1x256_S256) shapeCasts_S256_S1x256

/-- It is what the row's buffer holds once the host stretch has run. -/
theorem kB1_4_eq (m : KMem) (ρ : Dev nD → PrngReg) (c : Dev nD) : W1 m ρ c (Proc.devRef .tc main_v138) = kB1_4 m ρ c := by
  have h :=
    ((rd0_v138 (W0 m ρ c)).trans (congrArg (fun x : (⟨S256, .f32⟩ : BufTy).Contents (Elt Ideal) => (shapeCast S1x256 x shapeCasts_S256_S1x256 : (⟨S1x256, .f32⟩ : BufTy).Contents (Elt Ideal)))
    ((rd0_v135 (W0 m ρ c)).trans (congrArg (fun x : (⟨S1x256, .f32⟩ : BufTy).Contents (Elt Ideal) => (shapeCast S256 x shapeCasts_S1x256_S256 : (⟨S256, .f32⟩ : BufTy).Contents (Elt Ideal)))
      ((rd0_v134 (W0 m ρ c)).trans (congrArg ((extractStridedSlice S1x256 ![4, 0] · slices_S7x256_S1x256_4_0) : (⟨S7x256, .f32⟩ : BufTy).Contents (Elt Ideal) → (⟨S1x256, .f32⟩ : BufTy).Contents (Elt Ideal))
        (carry_arg6_0_1 m ρ c)))))))
  exact h

/-- Layer 1's bias of relation 5 as a row: row 5 of the biases, flattened and laid out as one row. -/
noncomputable def kB1_5 (m : KMem) (ρ : Dev nD → PrngReg) (c : Dev nD) : (⟨S1x256, .f32⟩ : BufTy).Contents (Elt Ideal) :=
  shapeCast S1x256 (shapeCast S256 (extractStridedSlice S1x256 ![5, 0] (m ((c : Thread nD τ).loc main_arg6)) slices_S7x256_S1x256_5_0) shapeCasts_S1x256_S256) shapeCasts_S256_S1x256

/-- It is what the row's buffer holds once the host stretch has run. -/
theorem kB1_5_eq (m : KMem) (ρ : Dev nD → PrngReg) (c : Dev nD) : W1 m ρ c (Proc.devRef .tc main_v139) = kB1_5 m ρ c := by
  have h :=
    ((rd0_v139 (W0 m ρ c)).trans (congrArg (fun x : (⟨S256, .f32⟩ : BufTy).Contents (Elt Ideal) => (shapeCast S1x256 x shapeCasts_S256_S1x256 : (⟨S1x256, .f32⟩ : BufTy).Contents (Elt Ideal)))
    ((rd0_v137 (W0 m ρ c)).trans (congrArg (fun x : (⟨S1x256, .f32⟩ : BufTy).Contents (Elt Ideal) => (shapeCast S256 x shapeCasts_S1x256_S256 : (⟨S256, .f32⟩ : BufTy).Contents (Elt Ideal)))
      ((rd0_v136 (W0 m ρ c)).trans (congrArg ((extractStridedSlice S1x256 ![5, 0] · slices_S7x256_S1x256_5_0) : (⟨S7x256, .f32⟩ : BufTy).Contents (Elt Ideal) → (⟨S1x256, .f32⟩ : BufTy).Contents (Elt Ideal))
        (carry_arg6_0_1 m ρ c)))))))
  exact h

/-! ## Host stretch 1 -/

/-- Layer 1's left (neighbour) weights of relation 1: matrix 1 of the stack of left (neighbour) weights. -/
noncomputable def kWl1_1 (m : KMem) (ρ : Dev nD → PrngReg) (c : Dev nD) : (⟨S128x256, .f32⟩ : BufTy).Contents (Elt Ideal) :=
  Sage.wSlice (F := Ideal) _ _ _ 1 slices_S7x128x256_S1x128x256_1_0_0 shapeCasts_S1x128x256_S128x256 (m ((c : Thread nD τ).loc main_arg4))

/-- It is what the matrix's buffer holds once the host stretch has run. -/
theorem kWl1_1_eq (m : KMem) (ρ : Dev nD → PrngReg) (c : Dev nD) : W3 m ρ c (Proc.devRef .tc main_v142) = kWl1_1 m ρ c := by
  have h :=
    ((rd1_v142 (W2 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd1_v141 (W2 m ρ c)).trans (congrArg ((extractStridedSlice S1x128x256 ![1, 0, 0] · slices_S7x128x256_S1x128x256_1_0_0) : (⟨S7x128x256, .f32⟩ : BufTy).Contents (Elt Ideal) → (⟨S1x128x256, .f32⟩ : BufTy).Contents (Elt Ideal))
      (carry_arg4_0_3 m ρ c)))))
  exact h

/-- Layer 1's left (neighbour) weights of relation 6: matrix 6 of the stack of left (neighbour) weights. -/
noncomputable def kWl1_6 (m : KMem) (ρ : Dev nD → PrngReg) (c : Dev nD) : (⟨S128x256, .f32⟩ : BufTy).Contents (Elt Ideal) :=
  Sage.wSlice (F := Ideal) _ _ _ 6 slices_S7x128x256_S1x128x256_6_0_0 shapeCasts_S1x128x256_S128x256 (m ((c : Thread nD τ).loc main_arg4))

/-- It is what the matrix's buffer holds once the host stretch has run. -/
theorem kWl1_6_eq (m : KMem) (ρ : Dev nD → PrngReg) (c : Dev nD) : W3 m ρ c (Proc.devRef .tc main_v144) = kWl1_6 m ρ c := by
  have h :=
    ((rd1_v144 (W2 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd1_v143 (W2 m ρ c)).trans (congrArg ((extractStridedSlice S1x128x256 ![6, 0, 0] · slices_S7x128x256_S1x128x256_6_0_0) : (⟨S7x128x256, .f32⟩ : BufTy).Contents (Elt Ideal) → (⟨S1x128x256, .f32⟩ : BufTy).Contents (Elt Ideal))
      (carry_arg4_0_3 m ρ c)))))
  exact h

/-- Layer 1's right (self) weights of relation 1: matrix 1 of the stack of right (self) weights. -/
noncomputable def kWr1_1 (m : KMem) (ρ : Dev nD → PrngReg) (c : Dev nD) : (⟨S128x256, .f32⟩ : BufTy).Contents (Elt Ideal) :=
  Sage.wSlice (F := Ideal) _ _ _ 1 slices_S7x128x256_S1x128x256_1_0_0 shapeCasts_S1x128x256_S128x256 (m ((c : Thread nD τ).loc main_arg5))

/-- It is what the matrix's buffer holds once the host stretch has run. -/
theorem kWr1_1_eq (m : KMem) (ρ : Dev nD → PrngReg) (c : Dev nD) : W3 m ρ c (Proc.devRef .tc main_v146) = kWr1_1 m ρ c := by
  have h :=
    ((rd1_v146 (W2 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd1_v145 (W2 m ρ c)).trans (congrArg ((extractStridedSlice S1x128x256 ![1, 0, 0] · slices_S7x128x256_S1x128x256_1_0_0) : (⟨S7x128x256, .f32⟩ : BufTy).Contents (Elt Ideal) → (⟨S1x128x256, .f32⟩ : BufTy).Contents (Elt Ideal))
      (carry_arg5_0_3 m ρ c)))))
  exact h

/-- Layer 1's right (self) weights of relation 6: matrix 6 of the stack of right (self) weights. -/
noncomputable def kWr1_6 (m : KMem) (ρ : Dev nD → PrngReg) (c : Dev nD) : (⟨S128x256, .f32⟩ : BufTy).Contents (Elt Ideal) :=
  Sage.wSlice (F := Ideal) _ _ _ 6 slices_S7x128x256_S1x128x256_6_0_0 shapeCasts_S1x128x256_S128x256 (m ((c : Thread nD τ).loc main_arg5))

/-- It is what the matrix's buffer holds once the host stretch has run. -/
theorem kWr1_6_eq (m : KMem) (ρ : Dev nD → PrngReg) (c : Dev nD) : W3 m ρ c (Proc.devRef .tc main_v148) = kWr1_6 m ρ c := by
  have h :=
    ((rd1_v148 (W2 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd1_v147 (W2 m ρ c)).trans (congrArg ((extractStridedSlice S1x128x256 ![6, 0, 0] · slices_S7x128x256_S1x128x256_6_0_0) : (⟨S7x128x256, .f32⟩ : BufTy).Contents (Elt Ideal) → (⟨S1x128x256, .f32⟩ : BufTy).Contents (Elt Ideal))
      (carry_arg5_0_3 m ρ c)))))
  exact h

/-- Layer 1's bias of relation 1 as a row: row 1 of the biases, flattened and laid out as one row. -/
noncomputable def kB1_1 (m : KMem) (ρ : Dev nD → PrngReg) (c : Dev nD) : (⟨S1x256, .f32⟩ : BufTy).Contents (Elt Ideal) :=
  shapeCast S1x256 (shapeCast S256 (extractStridedSlice S1x256 ![1, 0] (m ((c : Thread nD τ).loc main_arg6)) slices_S7x256_S1x256_1_0) shapeCasts_S1x256_S256) shapeCasts_S256_S1x256

/-- It is what the row's buffer holds once the host stretch has run. -/
theorem kB1_1_eq (m : KMem) (ρ : Dev nD → PrngReg) (c : Dev nD) : W3 m ρ c (Proc.devRef .tc main_v153) = kB1_1 m ρ c := by
  have h :=
    ((rd1_v153 (W2 m ρ c)).trans (congrArg (fun x : (⟨S256, .f32⟩ : BufTy).Contents (Elt Ideal) => (shapeCast S1x256 x shapeCasts_S256_S1x256 : (⟨S1x256, .f32⟩ : BufTy).Contents (Elt Ideal)))
    ((rd1_v150 (W2 m ρ c)).trans (congrArg (fun x : (⟨S1x256, .f32⟩ : BufTy).Contents (Elt Ideal) => (shapeCast S256 x shapeCasts_S1x256_S256 : (⟨S256, .f32⟩ : BufTy).Contents (Elt Ideal)))
      ((rd1_v149 (W2 m ρ c)).trans (congrArg ((extractStridedSlice S1x256 ![1, 0] · slices_S7x256_S1x256_1_0) : (⟨S7x256, .f32⟩ : BufTy).Contents (Elt Ideal) → (⟨S1x256, .f32⟩ : BufTy).Contents (Elt Ideal))
        (carry_arg6_0_3 m ρ c)))))))
  exact h

/-- Layer 1's bias of relation 6 as a row: row 6 of the biases, flattened and laid out as one row. -/
noncomputable def kB1_6 (m : KMem) (ρ : Dev nD → PrngReg) (c : Dev nD) : (⟨S1x256, .f32⟩ : BufTy).Contents (Elt Ideal) :=
  shapeCast S1x256 (shapeCast S256 (extractStridedSlice S1x256 ![6, 0] (m ((c : Thread nD τ).loc main_arg6)) slices_S7x256_S1x256_6_0) shapeCasts_S1x256_S256) shapeCasts_S256_S1x256

/-- It is what the row's buffer holds once the host stretch has run. -/
theorem kB1_6_eq (m : KMem) (ρ : Dev nD → PrngReg) (c : Dev nD) : W3 m ρ c (Proc.devRef .tc main_v154) = kB1_6 m ρ c := by
  have h :=
    ((rd1_v154 (W2 m ρ c)).trans (congrArg (fun x : (⟨S256, .f32⟩ : BufTy).Contents (Elt Ideal) => (shapeCast S1x256 x shapeCasts_S256_S1x256 : (⟨S1x256, .f32⟩ : BufTy).Contents (Elt Ideal)))
    ((rd1_v152 (W2 m ρ c)).trans (congrArg (fun x : (⟨S1x256, .f32⟩ : BufTy).Contents (Elt Ideal) => (shapeCast S256 x shapeCasts_S1x256_S256 : (⟨S256, .f32⟩ : BufTy).Contents (Elt Ideal)))
      ((rd1_v151 (W2 m ρ c)).trans (congrArg ((extractStridedSlice S1x256 ![6, 0] · slices_S7x256_S1x256_6_0) : (⟨S7x256, .f32⟩ : BufTy).Contents (Elt Ideal) → (⟨S1x256, .f32⟩ : BufTy).Contents (Elt Ideal))
        (carry_arg6_0_3 m ρ c)))))))
  exact h

/-! ## Host stretch 2 -/

/-- Layer 1's left (neighbour) weights of relation 0: matrix 0 of the stack of left (neighbour) weights. -/
noncomputable def kWl1_0 (m : KMem) (ρ : Dev nD → PrngReg) (c : Dev nD) : (⟨S128x256, .f32⟩ : BufTy).Contents (Elt Ideal) :=
  Sage.wSlice (F := Ideal) _ _ _ 0 slices_S7x128x256_S1x128x256_0_0_0 shapeCasts_S1x128x256_S128x256 (m ((c : Thread nD τ).loc main_arg4))

/-- It is what the matrix's buffer holds once the host stretch has run. -/
theorem kWl1_0_eq (m : KMem) (ρ : Dev nD → PrngReg) (c : Dev nD) : W5 m ρ c (Proc.devRef .tc main_v157) = kWl1_0 m ρ c := by
  have h :=
    ((rd2_v157 (W4 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd2_v156 (W4 m ρ c)).trans (congrArg ((extractStridedSlice S1x128x256 ![0, 0, 0] · slices_S7x128x256_S1x128x256_0_0_0) : (⟨S7x128x256, .f32⟩ : BufTy).Contents (Elt Ideal) → (⟨S1x128x256, .f32⟩ : BufTy).Contents (Elt Ideal))
      (carry_arg4_0_5 m ρ c)))))
  exact h

/-- Layer 1's left (neighbour) weights of relation 3: matrix 3 of the stack of left (neighbour) weights. -/
noncomputable def kWl1_3 (m : KMem) (ρ : Dev nD → PrngReg) (c : Dev nD) : (⟨S128x256, .f32⟩ : BufTy).Contents (Elt Ideal) :=
  Sage.wSlice (F := Ideal) _ _ _ 3 slices_S7x128x256_S1x128x256_3_0_0 shapeCasts_S1x128x256_S128x256 (m ((c : Thread nD τ).loc main_arg4))

/-- It is what the matrix's buffer holds once the host stretch has run. -/
theorem kWl1_3_eq (m : KMem) (ρ : Dev nD → PrngReg) (c : Dev nD) : W5 m ρ c (Proc.devRef .tc main_v159) = kWl1_3 m ρ c := by
  have h :=
    ((rd2_v159 (W4 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd2_v158 (W4 m ρ c)).trans (congrArg ((extractStridedSlice S1x128x256 ![3, 0, 0] · slices_S7x128x256_S1x128x256_3_0_0) : (⟨S7x128x256, .f32⟩ : BufTy).Contents (Elt Ideal) → (⟨S1x128x256, .f32⟩ : BufTy).Contents (Elt Ideal))
      (carry_arg4_0_5 m ρ c)))))
  exact h

/-- Layer 1's right (self) weights of relation 0: matrix 0 of the stack of right (self) weights. -/
noncomputable def kWr1_0 (m : KMem) (ρ : Dev nD → PrngReg) (c : Dev nD) : (⟨S128x256, .f32⟩ : BufTy).Contents (Elt Ideal) :=
  Sage.wSlice (F := Ideal) _ _ _ 0 slices_S7x128x256_S1x128x256_0_0_0 shapeCasts_S1x128x256_S128x256 (m ((c : Thread nD τ).loc main_arg5))

/-- It is what the matrix's buffer holds once the host stretch has run. -/
theorem kWr1_0_eq (m : KMem) (ρ : Dev nD → PrngReg) (c : Dev nD) : W5 m ρ c (Proc.devRef .tc main_v161) = kWr1_0 m ρ c := by
  have h :=
    ((rd2_v161 (W4 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd2_v160 (W4 m ρ c)).trans (congrArg ((extractStridedSlice S1x128x256 ![0, 0, 0] · slices_S7x128x256_S1x128x256_0_0_0) : (⟨S7x128x256, .f32⟩ : BufTy).Contents (Elt Ideal) → (⟨S1x128x256, .f32⟩ : BufTy).Contents (Elt Ideal))
      (carry_arg5_0_5 m ρ c)))))
  exact h

/-- Layer 1's right (self) weights of relation 3: matrix 3 of the stack of right (self) weights. -/
noncomputable def kWr1_3 (m : KMem) (ρ : Dev nD → PrngReg) (c : Dev nD) : (⟨S128x256, .f32⟩ : BufTy).Contents (Elt Ideal) :=
  Sage.wSlice (F := Ideal) _ _ _ 3 slices_S7x128x256_S1x128x256_3_0_0 shapeCasts_S1x128x256_S128x256 (m ((c : Thread nD τ).loc main_arg5))

/-- It is what the matrix's buffer holds once the host stretch has run. -/
theorem kWr1_3_eq (m : KMem) (ρ : Dev nD → PrngReg) (c : Dev nD) : W5 m ρ c (Proc.devRef .tc main_v163) = kWr1_3 m ρ c := by
  have h :=
    ((rd2_v163 (W4 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd2_v162 (W4 m ρ c)).trans (congrArg ((extractStridedSlice S1x128x256 ![3, 0, 0] · slices_S7x128x256_S1x128x256_3_0_0) : (⟨S7x128x256, .f32⟩ : BufTy).Contents (Elt Ideal) → (⟨S1x128x256, .f32⟩ : BufTy).Contents (Elt Ideal))
      (carry_arg5_0_5 m ρ c)))))
  exact h

/-- Layer 1's bias of relation 0 as a row: row 0 of the biases, flattened and laid out as one row. -/
noncomputable def kB1_0 (m : KMem) (ρ : Dev nD → PrngReg) (c : Dev nD) : (⟨S1x256, .f32⟩ : BufTy).Contents (Elt Ideal) :=
  shapeCast S1x256 (shapeCast S256 (extractStridedSlice S1x256 ![0, 0] (m ((c : Thread nD τ).loc main_arg6)) slices_S7x256_S1x256_0_0) shapeCasts_S1x256_S256) shapeCasts_S256_S1x256

/-- It is what the row's buffer holds once the host stretch has run. -/
theorem kB1_0_eq (m : KMem) (ρ : Dev nD → PrngReg) (c : Dev nD) : W5 m ρ c (Proc.devRef .tc main_v168) = kB1_0 m ρ c := by
  have h :=
    ((rd2_v168 (W4 m ρ c)).trans (congrArg (fun x : (⟨S256, .f32⟩ : BufTy).Contents (Elt Ideal) => (shapeCast S1x256 x shapeCasts_S256_S1x256 : (⟨S1x256, .f32⟩ : BufTy).Contents (Elt Ideal)))
    ((rd2_v165 (W4 m ρ c)).trans (congrArg (fun x : (⟨S1x256, .f32⟩ : BufTy).Contents (Elt Ideal) => (shapeCast S256 x shapeCasts_S1x256_S256 : (⟨S256, .f32⟩ : BufTy).Contents (Elt Ideal)))
      ((rd2_v164 (W4 m ρ c)).trans (congrArg ((extractStridedSlice S1x256 ![0, 0] · slices_S7x256_S1x256_0_0) : (⟨S7x256, .f32⟩ : BufTy).Contents (Elt Ideal) → (⟨S1x256, .f32⟩ : BufTy).Contents (Elt Ideal))
        (carry_arg6_0_5 m ρ c)))))))
  exact h

/-- Layer 1's bias of relation 3 as a row: row 3 of the biases, flattened and laid out as one row. -/
noncomputable def kB1_3 (m : KMem) (ρ : Dev nD → PrngReg) (c : Dev nD) : (⟨S1x256, .f32⟩ : BufTy).Contents (Elt Ideal) :=
  shapeCast S1x256 (shapeCast S256 (extractStridedSlice S1x256 ![3, 0] (m ((c : Thread nD τ).loc main_arg6)) slices_S7x256_S1x256_3_0) shapeCasts_S1x256_S256) shapeCasts_S256_S1x256

/-- It is what the row's buffer holds once the host stretch has run. -/
theorem kB1_3_eq (m : KMem) (ρ : Dev nD → PrngReg) (c : Dev nD) : W5 m ρ c (Proc.devRef .tc main_v169) = kB1_3 m ρ c := by
  have h :=
    ((rd2_v169 (W4 m ρ c)).trans (congrArg (fun x : (⟨S256, .f32⟩ : BufTy).Contents (Elt Ideal) => (shapeCast S1x256 x shapeCasts_S256_S1x256 : (⟨S1x256, .f32⟩ : BufTy).Contents (Elt Ideal)))
    ((rd2_v167 (W4 m ρ c)).trans (congrArg (fun x : (⟨S1x256, .f32⟩ : BufTy).Contents (Elt Ideal) => (shapeCast S256 x shapeCasts_S1x256_S256 : (⟨S256, .f32⟩ : BufTy).Contents (Elt Ideal)))
      ((rd2_v166 (W4 m ρ c)).trans (congrArg ((extractStridedSlice S1x256 ![3, 0] · slices_S7x256_S1x256_3_0) : (⟨S7x256, .f32⟩ : BufTy).Contents (Elt Ideal) → (⟨S1x256, .f32⟩ : BufTy).Contents (Elt Ideal))
        (carry_arg6_0_5 m ρ c)))))))
  exact h

/-! ## Host stretch 3 -/

/-- Layer 1's left (neighbour) weights of relation 2: matrix 2 of the stack of left (neighbour) weights. -/
noncomputable def kWl1_2 (m : KMem) (ρ : Dev nD → PrngReg) (c : Dev nD) : (⟨S128x256, .f32⟩ : BufTy).Contents (Elt Ideal) :=
  Sage.wSlice (F := Ideal) _ _ _ 2 slices_S7x128x256_S1x128x256_2_0_0 shapeCasts_S1x128x256_S128x256 (m ((c : Thread nD τ).loc main_arg4))

/-- It is what the matrix's buffer holds once the host stretch has run. -/
theorem kWl1_2_eq (m : KMem) (ρ : Dev nD → PrngReg) (c : Dev nD) : W7 m ρ c (Proc.devRef .tc main_v172) = kWl1_2 m ρ c := by
  have h :=
    ((rd3_v172 (W6 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd3_v171 (W6 m ρ c)).trans (congrArg ((extractStridedSlice S1x128x256 ![2, 0, 0] · slices_S7x128x256_S1x128x256_2_0_0) : (⟨S7x128x256, .f32⟩ : BufTy).Contents (Elt Ideal) → (⟨S1x128x256, .f32⟩ : BufTy).Contents (Elt Ideal))
      (carry_arg4_0_7 m ρ c)))))
  exact h

/-- Layer 1's right (self) weights of relation 2: matrix 2 of the stack of right (self) weights. -/
noncomputable def kWr1_2 (m : KMem) (ρ : Dev nD → PrngReg) (c : Dev nD) : (⟨S128x256, .f32⟩ : BufTy).Contents (Elt Ideal) :=
  Sage.wSlice (F := Ideal) _ _ _ 2 slices_S7x128x256_S1x128x256_2_0_0 shapeCasts_S1x128x256_S128x256 (m ((c : Thread nD τ).loc main_arg5))

/-- It is what the matrix's buffer holds once the host stretch has run. -/
theorem kWr1_2_eq (m : KMem) (ρ : Dev nD → PrngReg) (c : Dev nD) : W7 m ρ c (Proc.devRef .tc main_v174) = kWr1_2 m ρ c := by
  have h :=
    ((rd3_v174 (W6 m ρ c)).trans (congrArg (fun x : (⟨S1x128x256, .f32⟩ : BufTy).Contents (Elt Ideal) => (shapeCast S128x256 x shapeCasts_S1x128x256_S128x256 : (⟨S128x256, .f32⟩ : BufTy).Contents (Elt Ideal)))
    ((rd3_v173 (W6 m ρ c)).trans (congrArg ((extractStridedSlice S1x128x256 ![2, 0, 0] · slices_S7x128x256_S1x128x256_2_0_0) : (⟨S7x128x256, .f32⟩ : BufTy).Contents (Elt Ideal) → (⟨S1x128x256, .f32⟩ : BufTy).Contents (Elt Ideal))
      (carry_arg5_0_7 m ρ c)))))
  exact h

/-- Layer 1's bias of relation 2 as a row: row 2 of the biases, flattened and laid out as one row. -/
noncomputable def kB1_2 (m : KMem) (ρ : Dev nD → PrngReg) (c : Dev nD) : (⟨S1x256, .f32⟩ : BufTy).Contents (Elt Ideal) :=
  shapeCast S1x256 (shapeCast S256 (extractStridedSlice S1x256 ![2, 0] (m ((c : Thread nD τ).loc main_arg6)) slices_S7x256_S1x256_2_0) shapeCasts_S1x256_S256) shapeCasts_S256_S1x256

/-- It is what the row's buffer holds once the host stretch has run. -/
theorem kB1_2_eq (m : KMem) (ρ : Dev nD → PrngReg) (c : Dev nD) : W7 m ρ c (Proc.devRef .tc main_v177) = kB1_2 m ρ c := by
  have h :=
    ((rd3_v177 (W6 m ρ c)).trans (congrArg (fun x : (⟨S256, .f32⟩ : BufTy).Contents (Elt Ideal) => (shapeCast S1x256 x shapeCasts_S256_S1x256 : (⟨S1x256, .f32⟩ : BufTy).Contents (Elt Ideal)))
    ((rd3_v176 (W6 m ρ c)).trans (congrArg (fun x : (⟨S1x256, .f32⟩ : BufTy).Contents (Elt Ideal) => (shapeCast S256 x shapeCasts_S1x256_S256 : (⟨S256, .f32⟩ : BufTy).Contents (Elt Ideal)))
      ((rd3_v175 (W6 m ρ c)).trans (congrArg ((extractStridedSlice S1x256 ![2, 0] · slices_S7x256_S1x256_2_0) : (⟨S7x256, .f32⟩ : BufTy).Contents (Elt Ideal) → (⟨S1x256, .f32⟩ : BufTy).Contents (Elt Ideal))
        (carry_arg6_0_7 m ρ c)))))))
  exact h

/-! ## Host stretch 4 -/

/-- Layer 1's normalisation scale as a row, as node type 0's normalisation reads it. -/
noncomputable def kG1_0 (m : KMem) (ρ : Dev nD → PrngReg) (c : Dev nD) : (⟨S1x256, .f32⟩ : BufTy).Contents (Elt Ideal) :=
  shapeCast S1x256 (m ((c : Thread nD τ).loc main_arg10)) shapeCasts_S256_S1x256

/-- It is what the row's buffer holds once the host stretch has run. -/
theorem kG1_0_eq (m : KMem) (ρ : Dev nD → PrngReg) (c : Dev nD) : W9 m ρ c (Proc.devRef .tc main_v179) = kG1_0 m ρ c := by
  have h :=
    ((rd4_v179 (W8 m ρ c)).trans (congrArg (fun x : (⟨S256, .f32⟩ : BufTy).Contents (Elt Ideal) => (shapeCast S1x256 x shapeCasts_S256_S1x256 : (⟨S1x256, .f32⟩ : BufTy).Contents (Elt Ideal)))
    (carry_arg10_0_9 m ρ c)))
  exact h

/-- Layer 1's normalisation shift as a row, as node type 0's normalisation reads it. -/
noncomputable def kBeta1_0 (m : KMem) (ρ : Dev nD → PrngReg) (c : Dev nD) : (⟨S1x256, .f32⟩ : BufTy).Contents (Elt Ideal) :=
  shapeCast S1x256 (m ((c : Thread nD τ).loc main_arg11)) shapeCasts_S256_S1x256

/-- It is what the row's buffer holds once the host stretch has run. -/
theorem kBeta1_0_eq (m : KMem) (ρ : Dev nD → PrngReg) (c : Dev nD) : W9 m ρ c (Proc.devRef .tc main_v180) = kBeta1_0 m ρ c := by
  have h :=
    ((rd4_v180 (W8 m ρ c)).trans (congrArg (fun x : (⟨S256, .f32⟩ : BufTy).Contents (Elt Ideal) => (shapeCast S1x256 x shapeCasts_S256_S1x256 : (⟨S1x256, .f32⟩ : BufTy).Contents (Elt Ideal)))
    (carry_arg11_0_9 m ρ c)))
  exact h

/-! ## Host stretch 5 -/

/-- Layer 1's normalisation scale as a row, as node type 1's normalisation reads it. -/
noncomputable def kG1_1 (m : KMem) (ρ : Dev nD → PrngReg) (c : Dev nD) : (⟨S1x256, .f32⟩ : BufTy).Contents (Elt Ideal) :=
  shapeCast S1x256 (m ((c : Thread nD τ).loc main_arg10)) shapeCasts_S256_S1x256

/-- It is what the row's buffer holds once the host stretch has run. -/
theorem kG1_1_eq (m : KMem) (ρ : Dev nD → PrngReg) (c : Dev nD) : W11 m ρ c (Proc.devRef .tc main_v182) = kG1_1 m ρ c := by
  have h :=
    ((rd5_v182 (W10 m ρ c)).trans (congrArg (fun x : (⟨S256, .f32⟩ : BufTy).Contents (Elt Ideal) => (shapeCast S1x256 x shapeCasts_S256_S1x256 : (⟨S1x256, .f32⟩ : BufTy).Contents (Elt Ideal)))
    (carry_arg10_0_11 m ρ c)))
  exact h

/-- Layer 1's normalisation shift as a row, as node type 1's normalisation reads it. -/
noncomputable def kBeta1_1 (m : KMem) (ρ : Dev nD → PrngReg) (c : Dev nD) : (⟨S1x256, .f32⟩ : BufTy).Contents (Elt Ideal) :=
  shapeCast S1x256 (m ((c : Thread nD τ).loc main_arg11)) shapeCasts_S256_S1x256

/-- It is what the row's buffer holds once the host stretch has run. -/
theorem kBeta1_1_eq (m : KMem) (ρ : Dev nD → PrngReg) (c : Dev nD) : W11 m ρ c (Proc.devRef .tc main_v183) = kBeta1_1 m ρ c := by
  have h :=
    ((rd5_v183 (W10 m ρ c)).trans (congrArg (fun x : (⟨S256, .f32⟩ : BufTy).Contents (Elt Ideal) => (shapeCast S1x256 x shapeCasts_S256_S1x256 : (⟨S1x256, .f32⟩ : BufTy).Contents (Elt Ideal)))
    (carry_arg11_0_11 m ρ c)))
  exact h

/-! ## Host stretch 6 -/

/-- Layer 1's normalisation scale as a row, as node type 2's normalisation reads it. -/
noncomputable def kG1_2 (m : KMem) (ρ : Dev nD → PrngReg) (c : Dev nD) : (⟨S1x256, .f32⟩ : BufTy).Contents (Elt Ideal) :=
  shapeCast S1x256 (m ((c : Thread nD τ).loc main_arg10)) shapeCasts_S256_S1x256

/-- It is what the row's buffer holds once the host stretch has run. -/
theorem kG1_2_eq (m : KMem) (ρ : Dev nD → PrngReg) (c : Dev nD) : W13 m ρ c (Proc.devRef .tc main_v185) = kG1_2 m ρ c := by
  have h :=
    ((rd6_v185 (W12 m ρ c)).trans (congrArg (fun x : (⟨S256, .f32⟩ : BufTy).Contents (Elt Ideal) => (shapeCast S1x256 x shapeCasts_S256_S1x256 : (⟨S1x256, .f32⟩ : BufTy).Contents (Elt Ideal)))
    (carry_arg10_0_13 m ρ c)))
  exact h

/-- Layer 1's normalisation shift as a row, as node type 2's normalisation reads it. -/
noncomputable def kBeta1_2 (m : KMem) (ρ : Dev nD → PrngReg) (c : Dev nD) : (⟨S1x256, .f32⟩ : BufTy).Contents (Elt Ideal) :=
  shapeCast S1x256 (m ((c : Thread nD τ).loc main_arg11)) shapeCasts_S256_S1x256

/-- It is what the row's buffer holds once the host stretch has run. -/
theorem kBeta1_2_eq (m : KMem) (ρ : Dev nD → PrngReg) (c : Dev nD) : W13 m ρ c (Proc.devRef .tc main_v186) = kBeta1_2 m ρ c := by
  have h :=
    ((rd6_v186 (W12 m ρ c)).trans (congrArg (fun x : (⟨S256, .f32⟩ : BufTy).Contents (Elt Ideal) => (shapeCast S1x256 x shapeCasts_S256_S1x256 : (⟨S1x256, .f32⟩ : BufTy).Contents (Elt Ideal)))
    (carry_arg11_0_13 m ρ c)))
  exact h

/-! ## Host stretch 7 -/

/-- Layer 1's normalisation scale as a row, as node type 3's normalisation reads it. -/
noncomputable def kG1_3 (m : KMem) (ρ : Dev nD → PrngReg) (c : Dev nD) : (⟨S1x256, .f32⟩ : BufTy).Contents (Elt Ideal) :=
  shapeCast S1x256 (m ((c : Thread nD τ).loc main_arg10)) shapeCasts_S256_S1x256

/-- It is what the row's buffer holds once the host stretch has run. -/
theorem kG1_3_eq (m : KMem) (ρ : Dev nD → PrngReg) (c : Dev nD) : W15 m ρ c (Proc.devRef .tc main_v188) = kG1_3 m ρ c := by
  have h :=
    ((rd7_v188 (W14 m ρ c)).trans (congrArg (fun x : (⟨S256, .f32⟩ : BufTy).Contents (Elt Ideal) => (shapeCast S1x256 x shapeCasts_S256_S1x256 : (⟨S1x256, .f32⟩ : BufTy).Contents (Elt Ideal)))
    (carry_arg10_0_15 m ρ c)))
  exact h

/-- Layer 1's normalisation shift as a row, as node type 3's normalisation reads it. -/
noncomputable def kBeta1_3 (m : KMem) (ρ : Dev nD → PrngReg) (c : Dev nD) : (⟨S1x256, .f32⟩ : BufTy).Contents (Elt Ideal) :=
  shapeCast S1x256 (m ((c : Thread nD τ).loc main_arg11)) shapeCasts_S256_S1x256

/-- It is what the row's buffer holds once the host stretch has run. -/
theorem kBeta1_3_eq (m : KMem) (ρ : Dev nD → PrngReg) (c : Dev nD) : W15 m ρ c (Proc.devRef .tc main_v189) = kBeta1_3 m ρ c := by
  have h :=
    ((rd7_v189 (W14 m ρ c)).trans (congrArg (fun x : (⟨S256, .f32⟩ : BufTy).Contents (Elt Ideal) => (shapeCast S1x256 x shapeCasts_S256_S1x256 : (⟨S1x256, .f32⟩ : BufTy).Contents (Elt Ideal)))
    (carry_arg11_0_15 m ρ c)))
  exact h

end Cert.KernelIdeal.Hand

end
-- ==== Proof.KI.Val4.lean ====
import proofs.«126569_j1468878815453_1_alg».proof.Proof.KI.Reg4
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 4 (batch normalisation and rectifier of a 20000x256 array in 20 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr4 (c : Dev nD) : S20000x256.Idx → EReal := V c (Pipeline.arrRef spec4 0)
/-- the columns' means, -/
noncomputable abbrev mean4 (c : Dev nD) : S1x256.Idx → EReal := V c (Pipeline.arrRef spec4 1)
/-- the columns' variances, -/
noncomputable abbrev var4 (c : Dev nD) : S1x256.Idx → EReal := V c (Pipeline.arrRef spec4 2)
/-- the scale row, -/
noncomputable abbrev gam4 (c : Dev nD) : S1x256.Idx → EReal := V c (Pipeline.arrRef spec4 3)
/-- and the shift row. -/
noncomputable abbrev bet4 (c : Dev nD) : S1x256.Idx → EReal := V c (Pipeline.arrRef spec4 4)

/-! ## The result, index by index -/

/-- The constant the body adds to a variance. -/
noncomputable abbrev eps4 : EReal := Ideal.ofBits .f32 0x3727C5AC#32

/-- Every entry of the activations normalised by its column's mean and variance, scaled and shifted by its column's
    entries of the two rows, and rectified. -/
noncomputable def bnArr4 (h : S20000x256.Idx → EReal) (mu var g beta : S1x256.Idx → EReal) : S20000x256.Idx → EReal :=
  fun i => Sage.bnrelu eps4 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at4 {s : Shape} {φ : FTy} (a : FVec Ideal s φ) (i : s.Idx) : rsqrt a i = Ideal.rsqrt (a i) := rfl

/-- The payload at row `p`, column `q` of the block: the block's entry there against the four rows' entries at `q`. -/
theorem pay4_at (x0 : S1000x256.Idx → EReal) (x1 x2 x3 x4 : S1x256.Idx → EReal) (p : Fin 1000) (q : Fin 256) :
    k4_pay1 (F := Ideal) x1 x2 x0 x3 x4 (ix2 p q)
      = Sage.bnrelu eps4 (x0 (ix2 p q)) (x1 (ix2 (0 : Fin 1) q)) (x2 (ix2 (0 : Fin 1) q)) (x3 (ix2 (0 : Fin 1) q)) (x4 (ix2 (0 : Fin 1) q)) := by
  unfold k4_pay1
  simp only [maximumf_apply, addf_apply, mulf_apply, subf_apply, rsqrt_at4, broadcast_apply, shapeCast_self,
    broadcastTo_1b_ab_apply]
  simp only [Ideal.ofBits_def, Ideal.ofBits_zero_f32]
  rfl

/-! ## The blocks' places in their arrays -/

theorem hz4 : (![0, 0] : Fin 2 → Nat) = fun _ => 0 := funext fun a => by fin_cases a <;> rfl

/-- The printed index maps, decided over the grid: the activations' and the output's block at point `t` is row block
    `t`, and each of the four rows' one block is the row. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `p`, column `q` of the activations' block at point `t` is the array's entry at row `1000 t + p`. -/
theorem iblk4_0_at (c : Dev nD) (t : Fin cfg4.N) (p : Fin 1000) (q : Fin 256) (k : S20000x256.Idx)
    (hk0 : (k 0).val = t.val * 1000 + p.val) (hk1 : (k 1).val = q.val) :
    (iblk4 V c 0 t : S1000x256.Idx → EReal) (ix2 p q) = harr4 V c k := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 1000 + 1 * p.val = (k 0).val; rw [e0, hk0]; omega
  | ⟨1, _⟩ => show win4_0.index t (1 : Fin 2) * 256 + 1 * q.val = (k 1).val; rw [e1, hk1]; omega
/-- Column `q` of the mean row's one block, at any point, is the row's entry at `q`. -/
theorem iblk4_1_at (c : Dev nD) (t : Fin cfg4.N) (q : Fin 256) :
    (iblk4 V c 1 t : S1x256.Idx → EReal) (ix2 (0 : Fin 1) q) = mean4 V c (ix2 (0 : Fin 1) q) := by
  obtain ⟨-, -, e2, e3, e4, e5, e6, e7, e8, e9, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 1 + 1 * 0 = 0; omega
  | ⟨1, _⟩ => show win4_1.index t (1 : Fin 2) * 256 + 1 * q.val = q.val; omega

/-- Column `q` of the variance row's one block, at any point, is the row's entry at `q`. -/
theorem iblk4_2_at (c : Dev nD) (t : Fin cfg4.N) (q : Fin 256) :
    (iblk4 V c 2 t : S1x256.Idx → EReal) (ix2 (0 : Fin 1) q) = var4 V c (ix2 (0 : Fin 1) q) := by
  obtain ⟨-, -, e2, e3, e4, e5, e6, e7, e8, e9, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * 0 = 0; omega
  | ⟨1, _⟩ => show win4_2.index t (1 : Fin 2) * 256 + 1 * q.val = q.val; omega

/-- Column `q` of the scale row's one block, at any point, is the row's entry at `q`. -/
theorem iblk4_3_at (c : Dev nD) (t : Fin cfg4.N) (q : Fin 256) :
    (iblk4 V c 3 t : S1x256.Idx → EReal) (ix2 (0 : Fin 1) q) = gam4 V c (ix2 (0 : Fin 1) q) := by
  obtain ⟨-, -, e2, e3, e4, e5, e6, e7, e8, e9, -⟩ := idx_facts4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * 0 = 0; omega
  | ⟨1, _⟩ => show win4_3.index t (1 : Fin 2) * 256 + 1 * q.val = q.val; omega

/-- Column `q` of the shift row's one block, at any point, is the row's entry at `q`. -/
theorem iblk4_4_at (c : Dev nD) (t : Fin cfg4.N) (q : Fin 256) :
    (iblk4 V c 4 t : S1x256.Idx → EReal) (ix2 (0 : Fin 1) q) = bet4 V c (ix2 (0 : Fin 1) q) := by
  obtain ⟨-, -, e2, e3, e4, e5, e6, e7, e8, e9, -⟩ := idx_facts4 t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * 0 = 0; omega
  | ⟨1, _⟩ => show win4_4.index t (1 : Fin 2) * 256 + 1 * q.val = q.val; omega

/-! ## What a point writes back -/

/-- What point `t` writes back to the output's array is block `t` of `bnArr4` of the arrays as the region finds them. -/
theorem flushed4_eq (c : Dev nD) (t : Fin cfg4.N) :
    (dat4 (F := Ideal) V c).flushed 5 t
      = ((cfg4.win 5).blk t).view.read (Elt Ideal) (bnArr4 (harr4 V c) (mean4 V c) (var4 V c) (gam4 V c) (bet4 V c)) := by
  show (cfg4.win 5).cut (grid4.coords t) ((dat4 V c).after 5 t) = _
  rw [after4_5]
  unfold out4_5
  rw [View.canon_unit_zero hz4]
  simp only [View.ld_unit_zero (S := S1000x256) hz4, View.ld_unit_zero (S := S1x256) hz4]
  obtain ⟨-, -, -, -, -, -, -, -, -, -, e10, e11⟩ := idx_facts4 t
  funext j
  obtain ⟨p, q, rfl⟩ : ∃ (p : Fin 1000) (q : Fin 256), j = ix2 p q := ⟨j 0, j 1, eq_ix2 j⟩
  show k4_pay1 (F := Ideal) (iblk4 V c 1 t) (iblk4 V c 2 t) (iblk4 V c 0 t) (iblk4 V c 3 t) (iblk4 V c 4 t) (ix2 p q)
    = bnArr4 (harr4 V c) (mean4 V c) (var4 V c) (gam4 V c) (bet4 V c) (((cfg4.win 5).blk t).view.emb (ix2 p q))
  have hk0 : ((((cfg4.win 5).blk t).view.emb (ix2 p q) : S20000x256.Idx) 0).val = t.val * 1000 + p.val := by
    show win4_5.index t (0 : Fin 2) * 1000 + 1 * p.val = _; rw [e10]; omega
  have hk1 : ((((cfg4.win 5).blk t).view.emb (ix2 p q) : S20000x256.Idx) 1).val = q.val := by
    show win4_5.index t (1 : Fin 2) * 256 + 1 * q.val = _; rw [e11]; omega
  rw [pay4_at, iblk4_0_at V c t p q _ hk0 hk1, iblk4_1_at, iblk4_2_at, iblk4_3_at, iblk4_4_at]
  unfold bnArr4
  have hq : ((((cfg4.win 5).blk t).view.emb (ix2 p q) : S20000x256.Idx) 1) = q := Fin.ext hk1
  rw [hq]

/-! ## From the blocks to the array -/

/-- An index of the output's array is in point `t`'s block iff each coordinate is in the block's range on its axis. -/
theorem mem_blk4 (t : Fin cfg4.N) (i : S20000x256.Idx) :
    i ∈ ((cfg4.win 5).blk t).view.set ↔ ∀ a : Fin 2, win4_5.index t a * S1000x256.size a ≤ (i a).val ∧ (i a).val < win4_5.index t a * S1000x256.size a + S1000x256.size a := by
  show i ∈ ((View.whole (Pipeline.arrRef spec4 5)).slice (win4_5.rect t)).set ↔ _
  rw [View.set_slice_whole, Rect.mem_set_unit]
  exact Iff.rfl

/-- Row `r` of the output's array is in the block of point `r / 1000`, which writes it back. -/
theorem cover4 (i : S20000x256.Idx) : ∃ t : Fin cfg4.N, (cfg4.win 5).flush t = true ∧ i ∈ ((cfg4.win 5).blk t).view.set := by
  have hi0 : (i 0).val < 20000 := (i 0).isLt
  have hi1 : (i 1).val < 256 := (i 1).isLt
  have hN : cfg4.N = 20 := N_4
  let t : Fin cfg4.N := ⟨(i 0).val / 1000, by rw [hN]; omega⟩
  obtain ⟨-, -, -, -, -, -, -, -, -, -, e10, e11⟩ := idx_facts4 t
  have ht : t.val = (i 0).val / 1000 := rfl
  refine ⟨t, flush4_5 t, ?_⟩
  rw [mem_blk4]
  intro a
  match a with
  | ⟨0, _⟩ => show win4_5.index t (0 : Fin 2) * 1000 ≤ (i 0).val ∧ (i 0).val < win4_5.index t (0 : Fin 2) * 1000 + 1000; omega
  | ⟨1, _⟩ => show win4_5.index t (1 : Fin 2) * 256 ≤ (i 1).val ∧ (i 1).val < win4_5.index t (1 : Fin 2) * 256 + 256; omega

/-- The output's array after the region: every entry of the activations normalised, scaled, shifted and rectified. -/
theorem final4 (c : Dev nD) :
    (dat4 (F := Ideal) V c).arrAt 5 cfg4.N = bnArr4 (harr4 V c) (mean4 V c) (var4 V c) (gam4 V c) (bet4 V c) :=
  (dat4 (F := Ideal) V c).arrAt_eq_of_cover 5 _ (fun t _ => flushed4_eq V c t) cover4

/-- The same, entry by entry. -/
theorem final4_apply (c : Dev nD) (i : S20000x256.Idx) :
    ((dat4 (F := Ideal) V c).arrAt 5 cfg4.N : S20000x256.Idx → EReal) i
      = Sage.bnrelu (Ideal.ofBits .f32 0x3727C5AC#32) (harr4 V c i) (mean4 V c (ix2 (0 : Fin 1) (i 1))) (var4 V c (ix2 (0 : Fin 1) (i 1)))
          (gam4 V c (ix2 (0 : Fin 1) (i 1))) (bet4 V c (ix2 (0 : Fin 1) (i 1))) :=
  congrFun (final4 V c) i

/-! ## The input arrays are kept -/

theorem kept4_0 (c : Dev nD) : (dat4 (F := Ideal) V c).arrAt 0 cfg4.N = V c (Pipeline.arrRef spec4 0) :=
  ((dat4 V c).arrAt_in 0 rfl _).trans (A_eq4 V c 0)
theorem kept4_1 (c : Dev nD) : (dat4 (F := Ideal) V c).arrAt 1 cfg4.N = V c (Pipeline.arrRef spec4 1) :=
  ((dat4 V c).arrAt_in 1 rfl _).trans (A_eq4 V c 1)
theorem kept4_2 (c : Dev nD) : (dat4 (F := Ideal) V c).arrAt 2 cfg4.N = V c (Pipeline.arrRef spec4 2) :=
  ((dat4 V c).arrAt_in 2 rfl _).trans (A_eq4 V c 2)
theorem kept4_3 (c : Dev nD) : (dat4 (F := Ideal) V c).arrAt 3 cfg4.N = V c (Pipeline.arrRef spec4 3) :=
  ((dat4 V c).arrAt_in 3 rfl _).trans (A_eq4 V c 3)
theorem kept4_4 (c : Dev nD) : (dat4 (F := Ideal) V c).arrAt 4 cfg4.N = V c (Pipeline.arrRef spec4 4) :=
  ((dat4 V c).arrAt_in 4 rfl _).trans (A_eq4 V c 4)

end Cert.KernelIdeal.Hand

end
-- ==== Proof.KI.Val5.lean ====
import proofs.«126569_j1468878815453_1_alg».proof.Proof.KI.Reg5
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 5 (batch normalisation and rectifier of a 50000x256 array in 50 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr5 (c : Dev nD) : S50000x256.Idx → EReal := V c (Pipeline.arrRef spec5 0)
/-- the columns' means, -/
noncomputable abbrev mean5 (c : Dev nD) : S1x256.Idx → EReal := V c (Pipeline.arrRef spec5 1)
/-- the columns' variances, -/
noncomputable abbrev var5 (c : Dev nD) : S1x256.Idx → EReal := V c (Pipeline.arrRef spec5 2)
/-- the scale row, -/
noncomputable abbrev gam5 (c : Dev nD) : S1x256.Idx → EReal := V c (Pipeline.arrRef spec5 3)
/-- and the shift row. -/
noncomputable abbrev bet5 (c : Dev nD) : S1x256.Idx → EReal := V c (Pipeline.arrRef spec5 4)

/-! ## The result, index by index -/

/-- The constant the body adds to a variance. -/
noncomputable abbrev eps5 : EReal := Ideal.ofBits .f32 0x3727C5AC#32

/-- Every entry of the activations normalised by its column's mean and variance, scaled and shifted by its column's
    entries of the two rows, and rectified. -/
noncomputable def bnArr5 (h : S50000x256.Idx → EReal) (mu var g beta : S1x256.Idx → EReal) : S50000x256.Idx → EReal :=
  fun i => Sage.bnrelu eps5 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at5 {s : Shape} {φ : FTy} (a : FVec Ideal s φ) (i : s.Idx) : rsqrt a i = Ideal.rsqrt (a i) := rfl

/-- The payload at row `p`, column `q` of the block: the block's entry there against the four rows' entries at `q`. -/
theorem pay5_at (x0 : S1000x256.Idx → EReal) (x1 x2 x3 x4 : S1x256.Idx → EReal) (p : Fin 1000) (q : Fin 256) :
    k5_pay1 (F := Ideal) x1 x2 x0 x3 x4 (ix2 p q)
      = Sage.bnrelu eps5 (x0 (ix2 p q)) (x1 (ix2 (0 : Fin 1) q)) (x2 (ix2 (0 : Fin 1) q)) (x3 (ix2 (0 : Fin 1) q)) (x4 (ix2 (0 : Fin 1) q)) := by
  unfold k5_pay1
  simp only [maximumf_apply, addf_apply, mulf_apply, subf_apply, rsqrt_at5, broadcast_apply, shapeCast_self,
    broadcastTo_1b_ab_apply]
  simp only [Ideal.ofBits_def, Ideal.ofBits_zero_f32]
  rfl

/-! ## The blocks' places in their arrays -/

theorem hz5 : (![0, 0] : Fin 2 → Nat) = fun _ => 0 := funext fun a => by fin_cases a <;> rfl

/-- The printed index maps, decided over the grid: the activations' and the output's block at point `t` is row block
    `t`, and each of the four rows' one block is the row. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p`, column `q` of the activations' block at point `t` is the array's entry at row `1000 t + p`. -/
theorem iblk5_0_at (c : Dev nD) (t : Fin cfg5.N) (p : Fin 1000) (q : Fin 256) (k : S50000x256.Idx)
    (hk0 : (k 0).val = t.val * 1000 + p.val) (hk1 : (k 1).val = q.val) :
    (iblk5 V c 0 t : S1000x256.Idx → EReal) (ix2 p q) = harr5 V c k := by
  obtain ⟨e0, e1, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 1000 + 1 * p.val = (k 0).val; rw [e0, hk0]; omega
  | ⟨1, _⟩ => show win5_0.index t (1 : Fin 2) * 256 + 1 * q.val = (k 1).val; rw [e1, hk1]; omega
/-- Column `q` of the mean row's one block, at any point, is the row's entry at `q`. -/
theorem iblk5_1_at (c : Dev nD) (t : Fin cfg5.N) (q : Fin 256) :
    (iblk5 V c 1 t : S1x256.Idx → EReal) (ix2 (0 : Fin 1) q) = mean5 V c (ix2 (0 : Fin 1) q) := by
  obtain ⟨-, -, e2, e3, e4, e5, e6, e7, e8, e9, -⟩ := idx_facts5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * 0 = 0; omega
  | ⟨1, _⟩ => show win5_1.index t (1 : Fin 2) * 256 + 1 * q.val = q.val; omega

/-- Column `q` of the variance row's one block, at any point, is the row's entry at `q`. -/
theorem iblk5_2_at (c : Dev nD) (t : Fin cfg5.N) (q : Fin 256) :
    (iblk5 V c 2 t : S1x256.Idx → EReal) (ix2 (0 : Fin 1) q) = var5 V c (ix2 (0 : Fin 1) q) := by
  obtain ⟨-, -, e2, e3, e4, e5, e6, e7, e8, e9, -⟩ := idx_facts5 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * 0 = 0; omega
  | ⟨1, _⟩ => show win5_2.index t (1 : Fin 2) * 256 + 1 * q.val = q.val; omega

/-- Column `q` of the scale row's one block, at any point, is the row's entry at `q`. -/
theorem iblk5_3_at (c : Dev nD) (t : Fin cfg5.N) (q : Fin 256) :
    (iblk5 V c 3 t : S1x256.Idx → EReal) (ix2 (0 : Fin 1) q) = gam5 V c (ix2 (0 : Fin 1) q) := by
  obtain ⟨-, -, e2, e3, e4, e5, e6, e7, e8, e9, -⟩ := idx_facts5 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * 0 = 0; omega
  | ⟨1, _⟩ => show win5_3.index t (1 : Fin 2) * 256 + 1 * q.val = q.val; omega

/-- Column `q` of the shift row's one block, at any point, is the row's entry at `q`. -/
theorem iblk5_4_at (c : Dev nD) (t : Fin cfg5.N) (q : Fin 256) :
    (iblk5 V c 4 t : S1x256.Idx → EReal) (ix2 (0 : Fin 1) q) = bet5 V c (ix2 (0 : Fin 1) q) := by
  obtain ⟨-, -, e2, e3, e4, e5, e6, e7, e8, e9, -⟩ := idx_facts5 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * 0 = 0; omega
  | ⟨1, _⟩ => show win5_4.index t (1 : Fin 2) * 256 + 1 * q.val = q.val; omega

/-! ## What a point writes back -/

/-- What point `t` writes back to the output's array is block `t` of `bnArr5` of the arrays as the region finds them. -/
theorem flushed5_eq (c : Dev nD) (t : Fin cfg5.N) :
    (dat5 (F := Ideal) V c).flushed 5 t
      = ((cfg5.win 5).blk t).view.read (Elt Ideal) (bnArr5 (harr5 V c) (mean5 V c) (var5 V c) (gam5 V c) (bet5 V c)) := by
  show (cfg5.win 5).cut (grid5.coords t) ((dat5 V c).after 5 t) = _
  rw [after5_5]
  unfold out5_5
  rw [View.canon_unit_zero hz5]
  simp only [View.ld_unit_zero (S := S1000x256) hz5, View.ld_unit_zero (S := S1x256) hz5]
  obtain ⟨-, -, -, -, -, -, -, -, -, -, e10, e11⟩ := idx_facts5 t
  funext j
  obtain ⟨p, q, rfl⟩ : ∃ (p : Fin 1000) (q : Fin 256), j = ix2 p q := ⟨j 0, j 1, eq_ix2 j⟩
  show k5_pay1 (F := Ideal) (iblk5 V c 1 t) (iblk5 V c 2 t) (iblk5 V c 0 t) (iblk5 V c 3 t) (iblk5 V c 4 t) (ix2 p q)
    = bnArr5 (harr5 V c) (mean5 V c) (var5 V c) (gam5 V c) (bet5 V c) (((cfg5.win 5).blk t).view.emb (ix2 p q))
  have hk0 : ((((cfg5.win 5).blk t).view.emb (ix2 p q) : S50000x256.Idx) 0).val = t.val * 1000 + p.val := by
    show win5_5.index t (0 : Fin 2) * 1000 + 1 * p.val = _; rw [e10]; omega
  have hk1 : ((((cfg5.win 5).blk t).view.emb (ix2 p q) : S50000x256.Idx) 1).val = q.val := by
    show win5_5.index t (1 : Fin 2) * 256 + 1 * q.val = _; rw [e11]; omega
  rw [pay5_at, iblk5_0_at V c t p q _ hk0 hk1, iblk5_1_at, iblk5_2_at, iblk5_3_at, iblk5_4_at]
  unfold bnArr5
  have hq : ((((cfg5.win 5).blk t).view.emb (ix2 p q) : S50000x256.Idx) 1) = q := Fin.ext hk1
  rw [hq]

/-! ## From the blocks to the array -/

/-- An index of the output's array is in point `t`'s block iff each coordinate is in the block's range on its axis. -/
theorem mem_blk5 (t : Fin cfg5.N) (i : S50000x256.Idx) :
    i ∈ ((cfg5.win 5).blk t).view.set ↔ ∀ a : Fin 2, win5_5.index t a * S1000x256.size a ≤ (i a).val ∧ (i a).val < win5_5.index t a * S1000x256.size a + S1000x256.size a := by
  show i ∈ ((View.whole (Pipeline.arrRef spec5 5)).slice (win5_5.rect t)).set ↔ _
  rw [View.set_slice_whole, Rect.mem_set_unit]
  exact Iff.rfl

/-- Row `r` of the output's array is in the block of point `r / 1000`, which writes it back. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  have hN : cfg5.N = 50 := N_5
  let t : Fin cfg5.N := ⟨(i 0).val / 1000, by rw [hN]; omega⟩
  obtain ⟨-, -, -, -, -, -, -, -, -, -, e10, e11⟩ := idx_facts5 t
  have ht : t.val = (i 0).val / 1000 := rfl
  refine ⟨t, flush5_5 t, ?_⟩
  rw [mem_blk5]
  intro a
  match a with
  | ⟨0, _⟩ => show win5_5.index t (0 : Fin 2) * 1000 ≤ (i 0).val ∧ (i 0).val < win5_5.index t (0 : Fin 2) * 1000 + 1000; omega
  | ⟨1, _⟩ => show win5_5.index t (1 : Fin 2) * 256 ≤ (i 1).val ∧ (i 1).val < win5_5.index t (1 : Fin 2) * 256 + 256; omega

/-- The output's array after the region: every entry of the activations normalised, scaled, shifted and rectified. -/
theorem final5 (c : Dev nD) :
    (dat5 (F := Ideal) V c).arrAt 5 cfg5.N = bnArr5 (harr5 V c) (mean5 V c) (var5 V c) (gam5 V c) (bet5 V c) :=
  (dat5 (F := Ideal) V c).arrAt_eq_of_cover 5 _ (fun t _ => flushed5_eq V c t) cover5

/-- The same, entry by entry. -/
theorem final5_apply (c : Dev nD) (i : S50000x256.Idx) :
    ((dat5 (F := Ideal) V c).arrAt 5 cfg5.N : S50000x256.Idx → EReal) i
      = Sage.bnrelu (Ideal.ofBits .f32 0x3727C5AC#32) (harr5 V c i) (mean5 V c (ix2 (0 : Fin 1) (i 1))) (var5 V c (ix2 (0 : Fin 1) (i 1)))
          (gam5 V c (ix2 (0 : Fin 1) (i 1))) (bet5 V c (ix2 (0 : Fin 1) (i 1))) :=
  congrFun (final5 V c) i

/-! ## The input arrays are kept -/

theorem kept5_0 (c : Dev nD) : (dat5 (F := Ideal) V c).arrAt 0 cfg5.N = V c (Pipeline.arrRef spec5 0) :=
  ((dat5 V c).arrAt_in 0 rfl _).trans (A_eq5 V c 0)
theorem kept5_1 (c : Dev nD) : (dat5 (F := Ideal) V c).arrAt 1 cfg5.N = V c (Pipeline.arrRef spec5 1) :=
  ((dat5 V c).arrAt_in 1 rfl _).trans (A_eq5 V c 1)
theorem kept5_2 (c : Dev nD) : (dat5 (F := Ideal) V c).arrAt 2 cfg5.N = V c (Pipeline.arrRef spec5 2) :=
  ((dat5 V c).arrAt_in 2 rfl _).trans (A_eq5 V c 2)
theorem kept5_3 (c : Dev nD) : (dat5 (F := Ideal) V c).arrAt 3 cfg5.N = V c (Pipeline.arrRef spec5 3) :=
  ((dat5 V c).arrAt_in 3 rfl _).trans (A_eq5 V c 3)
theorem kept5_4 (c : Dev nD) : (dat5 (F := Ideal) V c).arrAt 4 cfg5.N = V c (Pipeline.arrRef spec5 4) :=
  ((dat5 V c).arrAt_in 4 rfl _).trans (A_eq5 V c 4)

end Cert.KernelIdeal.Hand

end
-- ==== Proof.KI.Val6.lean ====
import proofs.«126569_j1468878815453_1_alg».proof.Proof.KI.Reg6
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 6 (batch normalisation and rectifier of a 10000x256 array in 10 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr6 (c : Dev nD) : S10000x256.Idx → EReal := V c (Pipeline.arrRef spec6 0)
/-- the columns' means, -/
noncomputable abbrev mean6 (c : Dev nD) : S1x256.Idx → EReal := V c (Pipeline.arrRef spec6 1)
/-- the columns' variances, -/
noncomputable abbrev var6 (c : Dev nD) : S1x256.Idx → EReal := V c (Pipeline.arrRef spec6 2)
/-- the scale row, -/
noncomputable abbrev gam6 (c : Dev nD) : S1x256.Idx → EReal := V c (Pipeline.arrRef spec6 3)
/-- and the shift row. -/
noncomputable abbrev bet6 (c : Dev nD) : S1x256.Idx → EReal := V c (Pipeline.arrRef spec6 4)

/-! ## The result, index by index -/

/-- The constant the body adds to a variance. -/
noncomputable abbrev eps6 : EReal := Ideal.ofBits .f32 0x3727C5AC#32

/-- Every entry of the activations normalised by its column's mean and variance, scaled and shifted by its column's
    entries of the two rows, and rectified. -/
noncomputable def bnArr6 (h : S10000x256.Idx → EReal) (mu var g beta : S1x256.Idx → EReal) : S10000x256.Idx → EReal :=
  fun i => Sage.bnrelu eps6 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at6 {s : Shape} {φ : FTy} (a : FVec Ideal s φ) (i : s.Idx) : rsqrt a i = Ideal.rsqrt (a i) := rfl

/-- The payload at row `p`, column `q` of the block: the block's entry there against the four rows' entries at `q`. -/
theorem pay6_at (x0 : S1000x256.Idx → EReal) (x1 x2 x3 x4 : S1x256.Idx → EReal) (p : Fin 1000) (q : Fin 256) :
    k6_pay1 (F := Ideal) x1 x2 x0 x3 x4 (ix2 p q)
      = Sage.bnrelu eps6 (x0 (ix2 p q)) (x1 (ix2 (0 : Fin 1) q)) (x2 (ix2 (0 : Fin 1) q)) (x3 (ix2 (0 : Fin 1) q)) (x4 (ix2 (0 : Fin 1) q)) := by
  unfold k6_pay1
  simp only [maximumf_apply, addf_apply, mulf_apply, subf_apply, rsqrt_at6, broadcast_apply, shapeCast_self,
    broadcastTo_1b_ab_apply]
  simp only [Ideal.ofBits_def, Ideal.ofBits_zero_f32]
  rfl

/-! ## The blocks' places in their arrays -/

theorem hz6 : (![0, 0] : Fin 2 → Nat) = fun _ => 0 := funext fun a => by fin_cases a <;> rfl

/-- The printed index maps, decided over the grid: the activations' and the output's block at point `t` is row block
    `t`, and each of the four rows' one block is the row. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p`, column `q` of the activations' block at point `t` is the array's entry at row `1000 t + p`. -/
theorem iblk6_0_at (c : Dev nD) (t : Fin cfg6.N) (p : Fin 1000) (q : Fin 256) (k : S10000x256.Idx)
    (hk0 : (k 0).val = t.val * 1000 + p.val) (hk1 : (k 1).val = q.val) :
    (iblk6 V c 0 t : S1000x256.Idx → EReal) (ix2 p q) = harr6 V c k := by
  obtain ⟨e0, e1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 1000 + 1 * p.val = (k 0).val; rw [e0, hk0]; omega
  | ⟨1, _⟩ => show win6_0.index t (1 : Fin 2) * 256 + 1 * q.val = (k 1).val; rw [e1, hk1]; omega
/-- Column `q` of the mean row's one block, at any point, is the row's entry at `q`. -/
theorem iblk6_1_at (c : Dev nD) (t : Fin cfg6.N) (q : Fin 256) :
    (iblk6 V c 1 t : S1x256.Idx → EReal) (ix2 (0 : Fin 1) q) = mean6 V c (ix2 (0 : Fin 1) q) := by
  obtain ⟨-, -, e2, e3, e4, e5, e6, e7, e8, e9, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 1 + 1 * 0 = 0; omega
  | ⟨1, _⟩ => show win6_1.index t (1 : Fin 2) * 256 + 1 * q.val = q.val; omega

/-- Column `q` of the variance row's one block, at any point, is the row's entry at `q`. -/
theorem iblk6_2_at (c : Dev nD) (t : Fin cfg6.N) (q : Fin 256) :
    (iblk6 V c 2 t : S1x256.Idx → EReal) (ix2 (0 : Fin 1) q) = var6 V c (ix2 (0 : Fin 1) q) := by
  obtain ⟨-, -, e2, e3, e4, e5, e6, e7, e8, e9, -⟩ := idx_facts6 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 1 + 1 * 0 = 0; omega
  | ⟨1, _⟩ => show win6_2.index t (1 : Fin 2) * 256 + 1 * q.val = q.val; omega

/-- Column `q` of the scale row's one block, at any point, is the row's entry at `q`. -/
theorem iblk6_3_at (c : Dev nD) (t : Fin cfg6.N) (q : Fin 256) :
    (iblk6 V c 3 t : S1x256.Idx → EReal) (ix2 (0 : Fin 1) q) = gam6 V c (ix2 (0 : Fin 1) q) := by
  obtain ⟨-, -, e2, e3, e4, e5, e6, e7, e8, e9, -⟩ := idx_facts6 t
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * 0 = 0; omega
  | ⟨1, _⟩ => show win6_3.index t (1 : Fin 2) * 256 + 1 * q.val = q.val; omega

/-- Column `q` of the shift row's one block, at any point, is the row's entry at `q`. -/
theorem iblk6_4_at (c : Dev nD) (t : Fin cfg6.N) (q : Fin 256) :
    (iblk6 V c 4 t : S1x256.Idx → EReal) (ix2 (0 : Fin 1) q) = bet6 V c (ix2 (0 : Fin 1) q) := by
  obtain ⟨-, -, e2, e3, e4, e5, e6, e7, e8, e9, -⟩ := idx_facts6 t
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 1 + 1 * 0 = 0; omega
  | ⟨1, _⟩ => show win6_4.index t (1 : Fin 2) * 256 + 1 * q.val = q.val; omega

/-! ## What a point writes back -/

/-- What point `t` writes back to the output's array is block `t` of `bnArr6` of the arrays as the region finds them. -/
theorem flushed6_eq (c : Dev nD) (t : Fin cfg6.N) :
    (dat6 (F := Ideal) V c).flushed 5 t
      = ((cfg6.win 5).blk t).view.read (Elt Ideal) (bnArr6 (harr6 V c) (mean6 V c) (var6 V c) (gam6 V c) (bet6 V c)) := by
  show (cfg6.win 5).cut (grid6.coords t) ((dat6 V c).after 5 t) = _
  rw [after6_5]
  unfold out6_5
  rw [View.canon_unit_zero hz6]
  simp only [View.ld_unit_zero (S := S1000x256) hz6, View.ld_unit_zero (S := S1x256) hz6]
  obtain ⟨-, -, -, -, -, -, -, -, -, -, e10, e11⟩ := idx_facts6 t
  funext j
  obtain ⟨p, q, rfl⟩ : ∃ (p : Fin 1000) (q : Fin 256), j = ix2 p q := ⟨j 0, j 1, eq_ix2 j⟩
  show k6_pay1 (F := Ideal) (iblk6 V c 1 t) (iblk6 V c 2 t) (iblk6 V c 0 t) (iblk6 V c 3 t) (iblk6 V c 4 t) (ix2 p q)
    = bnArr6 (harr6 V c) (mean6 V c) (var6 V c) (gam6 V c) (bet6 V c) (((cfg6.win 5).blk t).view.emb (ix2 p q))
  have hk0 : ((((cfg6.win 5).blk t).view.emb (ix2 p q) : S10000x256.Idx) 0).val = t.val * 1000 + p.val := by
    show win6_5.index t (0 : Fin 2) * 1000 + 1 * p.val = _; rw [e10]; omega
  have hk1 : ((((cfg6.win 5).blk t).view.emb (ix2 p q) : S10000x256.Idx) 1).val = q.val := by
    show win6_5.index t (1 : Fin 2) * 256 + 1 * q.val = _; rw [e11]; omega
  rw [pay6_at, iblk6_0_at V c t p q _ hk0 hk1, iblk6_1_at, iblk6_2_at, iblk6_3_at, iblk6_4_at]
  unfold bnArr6
  have hq : ((((cfg6.win 5).blk t).view.emb (ix2 p q) : S10000x256.Idx) 1) = q := Fin.ext hk1
  rw [hq]

/-! ## From the blocks to the array -/

/-- An index of the output's array is in point `t`'s block iff each coordinate is in the block's range on its axis. -/
theorem mem_blk6 (t : Fin cfg6.N) (i : S10000x256.Idx) :
    i ∈ ((cfg6.win 5).blk t).view.set ↔ ∀ a : Fin 2, win6_5.index t a * S1000x256.size a ≤ (i a).val ∧ (i a).val < win6_5.index t a * S1000x256.size a + S1000x256.size a := by
  show i ∈ ((View.whole (Pipeline.arrRef spec6 5)).slice (win6_5.rect t)).set ↔ _
  rw [View.set_slice_whole, Rect.mem_set_unit]
  exact Iff.rfl

/-- Row `r` of the output's array is in the block of point `r / 1000`, which writes it back. -/
theorem cover6 (i : S10000x256.Idx) : ∃ t : Fin cfg6.N, (cfg6.win 5).flush t = true ∧ i ∈ ((cfg6.win 5).blk t).view.set := by
  have hi0 : (i 0).val < 10000 := (i 0).isLt
  have hi1 : (i 1).val < 256 := (i 1).isLt
  have hN : cfg6.N = 10 := N_6
  let t : Fin cfg6.N := ⟨(i 0).val / 1000, by rw [hN]; omega⟩
  obtain ⟨-, -, -, -, -, -, -, -, -, -, e10, e11⟩ := idx_facts6 t
  have ht : t.val = (i 0).val / 1000 := rfl
  refine ⟨t, flush6_5 t, ?_⟩
  rw [mem_blk6]
  intro a
  match a with
  | ⟨0, _⟩ => show win6_5.index t (0 : Fin 2) * 1000 ≤ (i 0).val ∧ (i 0).val < win6_5.index t (0 : Fin 2) * 1000 + 1000; omega
  | ⟨1, _⟩ => show win6_5.index t (1 : Fin 2) * 256 ≤ (i 1).val ∧ (i 1).val < win6_5.index t (1 : Fin 2) * 256 + 256; omega

/-- The output's array after the region: every entry of the activations normalised, scaled, shifted and rectified. -/
theorem final6 (c : Dev nD) :
    (dat6 (F := Ideal) V c).arrAt 5 cfg6.N = bnArr6 (harr6 V c) (mean6 V c) (var6 V c) (gam6 V c) (bet6 V c) :=
  (dat6 (F := Ideal) V c).arrAt_eq_of_cover 5 _ (fun t _ => flushed6_eq V c t) cover6

/-- The same, entry by entry. -/
theorem final6_apply (c : Dev nD) (i : S10000x256.Idx) :
    ((dat6 (F := Ideal) V c).arrAt 5 cfg6.N : S10000x256.Idx → EReal) i
      = Sage.bnrelu (Ideal.ofBits .f32 0x3727C5AC#32) (harr6 V c i) (mean6 V c (ix2 (0 : Fin 1) (i 1))) (var6 V c (ix2 (0 : Fin 1) (i 1)))
          (gam6 V c (ix2 (0 : Fin 1) (i 1))) (bet6 V c (ix2 (0 : Fin 1) (i 1))) :=
  congrFun (final6 V c) i

/-! ## The input arrays are kept -/

theorem kept6_0 (c : Dev nD) : (dat6 (F := Ideal) V c).arrAt 0 cfg6.N = V c (Pipeline.arrRef spec6 0) :=
  ((dat6 V c).arrAt_in 0 rfl _).trans (A_eq6 V c 0)
theorem kept6_1 (c : Dev nD) : (dat6 (F := Ideal) V c).arrAt 1 cfg6.N = V c (Pipeline.arrRef spec6 1) :=
  ((dat6 V c).arrAt_in 1 rfl _).trans (A_eq6 V c 1)
theorem kept6_2 (c : Dev nD) : (dat6 (F := Ideal) V c).arrAt 2 cfg6.N = V c (Pipeline.arrRef spec6 2) :=
  ((dat6 V c).arrAt_in 2 rfl _).trans (A_eq6 V c 2)
theorem kept6_3 (c : Dev nD) : (dat6 (F := Ideal) V c).arrAt 3 cfg6.N = V c (Pipeline.arrRef spec6 3) :=
  ((dat6 V c).arrAt_in 3 rfl _).trans (A_eq6 V c 3)
theorem kept6_4 (c : Dev nD) : (dat6 (F := Ideal) V c).arrAt 4 cfg6.N = V c (Pipeline.arrRef spec6 4) :=
  ((dat6 V c).arrAt_in 4 rfl _).trans (A_eq6 V c 4)

end Cert.KernelIdeal.Hand

end
-- ==== Proof.KI.Val7.lean ====
import proofs.«126569_j1468878815453_1_alg».proof.Proof.KI.Reg7
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 7 (batch normalisation and rectifier of a 3000x256 array in 3 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr7 (c : Dev nD) : S3000x256.Idx → EReal := V c (Pipeline.arrRef spec7 0)
/-- the columns' means, -/
noncomputable abbrev mean7 (c : Dev nD) : S1x256.Idx → EReal := V c (Pipeline.arrRef spec7 1)
/-- the columns' variances, -/
noncomputable abbrev var7 (c : Dev nD) : S1x256.Idx → EReal := V c (Pipeline.arrRef spec7 2)
/-- the scale row, -/
noncomputable abbrev gam7 (c : Dev nD) : S1x256.Idx → EReal := V c (Pipeline.arrRef spec7 3)
/-- and the shift row. -/
noncomputable abbrev bet7 (c : Dev nD) : S1x256.Idx → EReal := V c (Pipeline.arrRef spec7 4)

/-! ## The result, index by index -/

/-- The constant the body adds to a variance. -/
noncomputable abbrev eps7 : EReal := Ideal.ofBits .f32 0x3727C5AC#32

/-- Every entry of the activations normalised by its column's mean and variance, scaled and shifted by its column's
    entries of the two rows, and rectified. -/
noncomputable def bnArr7 (h : S3000x256.Idx → EReal) (mu var g beta : S1x256.Idx → EReal) : S3000x256.Idx → EReal :=
  fun i => Sage.bnrelu eps7 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at7 {s : Shape} {φ : FTy} (a : FVec Ideal s φ) (i : s.Idx) : rsqrt a i = Ideal.rsqrt (a i) := rfl

/-- The payload at row `p`, column `q` of the block: the block's entry there against the four rows' entries at `q`. -/
theorem pay7_at (x0 : S1000x256.Idx → EReal) (x1 x2 x3 x4 : S1x256.Idx → EReal) (p : Fin 1000) (q : Fin 256) :
    k7_pay1 (F := Ideal) x1 x2 x0 x3 x4 (ix2 p q)
      = Sage.bnrelu eps7 (x0 (ix2 p q)) (x1 (ix2 (0 : Fin 1) q)) (x2 (ix2 (0 : Fin 1) q)) (x3 (ix2 (0 : Fin 1) q)) (x4 (ix2 (0 : Fin 1) q)) := by
  unfold k7_pay1
  simp only [maximumf_apply, addf_apply, mulf_apply, subf_apply, rsqrt_at7, broadcast_apply, shapeCast_self,
    broadcastTo_1b_ab_apply]
  simp only [Ideal.ofBits_def, Ideal.ofBits_zero_f32]
  rfl

/-! ## The blocks' places in their arrays -/

theorem hz7 : (![0, 0] : Fin 2 → Nat) = fun _ => 0 := funext fun a => by fin_cases a <;> rfl

/-- The printed index maps, decided over the grid: the activations' and the output's block at point `t` is row block
    `t`, and each of the four rows' one block is the row. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row `p`, column `q` of the activations' block at point `t` is the array's entry at row `1000 t + p`. -/
theorem iblk7_0_at (c : Dev nD) (t : Fin cfg7.N) (p : Fin 1000) (q : Fin 256) (k : S3000x256.Idx)
    (hk0 : (k 0).val = t.val * 1000 + p.val) (hk1 : (k 1).val = q.val) :
    (iblk7 V c 0 t : S1000x256.Idx → EReal) (ix2 p q) = harr7 V c k := by
  obtain ⟨e0, e1, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 1000 + 1 * p.val = (k 0).val; rw [e0, hk0]; omega
  | ⟨1, _⟩ => show win7_0.index t (1 : Fin 2) * 256 + 1 * q.val = (k 1).val; rw [e1, hk1]; omega
/-- Column `q` of the mean row's one block, at any point, is the row's entry at `q`. -/
theorem iblk7_1_at (c : Dev nD) (t : Fin cfg7.N) (q : Fin 256) :
    (iblk7 V c 1 t : S1x256.Idx → EReal) (ix2 (0 : Fin 1) q) = mean7 V c (ix2 (0 : Fin 1) q) := by
  obtain ⟨-, -, e2, e3, e4, e5, e6, e7, e8, e9, -⟩ := idx_facts7 t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * 0 = 0; omega
  | ⟨1, _⟩ => show win7_1.index t (1 : Fin 2) * 256 + 1 * q.val = q.val; omega

/-- Column `q` of the variance row's one block, at any point, is the row's entry at `q`. -/
theorem iblk7_2_at (c : Dev nD) (t : Fin cfg7.N) (q : Fin 256) :
    (iblk7 V c 2 t : S1x256.Idx → EReal) (ix2 (0 : Fin 1) q) = var7 V c (ix2 (0 : Fin 1) q) := by
  obtain ⟨-, -, e2, e3, e4, e5, e6, e7, e8, e9, -⟩ := idx_facts7 t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * 0 = 0; omega
  | ⟨1, _⟩ => show win7_2.index t (1 : Fin 2) * 256 + 1 * q.val = q.val; omega

/-- Column `q` of the scale row's one block, at any point, is the row's entry at `q`. -/
theorem iblk7_3_at (c : Dev nD) (t : Fin cfg7.N) (q : Fin 256) :
    (iblk7 V c 3 t : S1x256.Idx → EReal) (ix2 (0 : Fin 1) q) = gam7 V c (ix2 (0 : Fin 1) q) := by
  obtain ⟨-, -, e2, e3, e4, e5, e6, e7, e8, e9, -⟩ := idx_facts7 t
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 1 + 1 * 0 = 0; omega
  | ⟨1, _⟩ => show win7_3.index t (1 : Fin 2) * 256 + 1 * q.val = q.val; omega

/-- Column `q` of the shift row's one block, at any point, is the row's entry at `q`. -/
theorem iblk7_4_at (c : Dev nD) (t : Fin cfg7.N) (q : Fin 256) :
    (iblk7 V c 4 t : S1x256.Idx → EReal) (ix2 (0 : Fin 1) q) = bet7 V c (ix2 (0 : Fin 1) q) := by
  obtain ⟨-, -, e2, e3, e4, e5, e6, e7, e8, e9, -⟩ := idx_facts7 t
  unfold iblk7
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * 0 = 0; omega
  | ⟨1, _⟩ => show win7_4.index t (1 : Fin 2) * 256 + 1 * q.val = q.val; omega

/-! ## What a point writes back -/

/-- What point `t` writes back to the output's array is block `t` of `bnArr7` of the arrays as the region finds them. -/
theorem flushed7_eq (c : Dev nD) (t : Fin cfg7.N) :
    (dat7 (F := Ideal) V c).flushed 5 t
      = ((cfg7.win 5).blk t).view.read (Elt Ideal) (bnArr7 (harr7 V c) (mean7 V c) (var7 V c) (gam7 V c) (bet7 V c)) := by
  show (cfg7.win 5).cut (grid7.coords t) ((dat7 V c).after 5 t) = _
  rw [after7_5]
  unfold out7_5
  rw [View.canon_unit_zero hz7]
  simp only [View.ld_unit_zero (S := S1000x256) hz7, View.ld_unit_zero (S := S1x256) hz7]
  obtain ⟨-, -, -, -, -, -, -, -, -, -, e10, e11⟩ := idx_facts7 t
  funext j
  obtain ⟨p, q, rfl⟩ : ∃ (p : Fin 1000) (q : Fin 256), j = ix2 p q := ⟨j 0, j 1, eq_ix2 j⟩
  show k7_pay1 (F := Ideal) (iblk7 V c 1 t) (iblk7 V c 2 t) (iblk7 V c 0 t) (iblk7 V c 3 t) (iblk7 V c 4 t) (ix2 p q)
    = bnArr7 (harr7 V c) (mean7 V c) (var7 V c) (gam7 V c) (bet7 V c) (((cfg7.win 5).blk t).view.emb (ix2 p q))
  have hk0 : ((((cfg7.win 5).blk t).view.emb (ix2 p q) : S3000x256.Idx) 0).val = t.val * 1000 + p.val := by
    show win7_5.index t (0 : Fin 2) * 1000 + 1 * p.val = _; rw [e10]; omega
  have hk1 : ((((cfg7.win 5).blk t).view.emb (ix2 p q) : S3000x256.Idx) 1).val = q.val := by
    show win7_5.index t (1 : Fin 2) * 256 + 1 * q.val = _; rw [e11]; omega
  rw [pay7_at, iblk7_0_at V c t p q _ hk0 hk1, iblk7_1_at, iblk7_2_at, iblk7_3_at, iblk7_4_at]
  unfold bnArr7
  have hq : ((((cfg7.win 5).blk t).view.emb (ix2 p q) : S3000x256.Idx) 1) = q := Fin.ext hk1
  rw [hq]

/-! ## From the blocks to the array -/

/-- An index of the output's array is in point `t`'s block iff each coordinate is in the block's range on its axis. -/
theorem mem_blk7 (t : Fin cfg7.N) (i : S3000x256.Idx) :
    i ∈ ((cfg7.win 5).blk t).view.set ↔ ∀ a : Fin 2, win7_5.index t a * S1000x256.size a ≤ (i a).val ∧ (i a).val < win7_5.index t a * S1000x256.size a + S1000x256.size a := by
  show i ∈ ((View.whole (Pipeline.arrRef spec7 5)).slice (win7_5.rect t)).set ↔ _
  rw [View.set_slice_whole, Rect.mem_set_unit]
  exact Iff.rfl

/-- Row `r` of the output's array is in the block of point `r / 1000`, which writes it back. -/
theorem cover7 (i : S3000x256.Idx) : ∃ t : Fin cfg7.N, (cfg7.win 5).flush t = true ∧ i ∈ ((cfg7.win 5).blk t).view.set := by
  have hi0 : (i 0).val < 3000 := (i 0).isLt
  have hi1 : (i 1).val < 256 := (i 1).isLt
  have hN : cfg7.N = 3 := N_7
  let t : Fin cfg7.N := ⟨(i 0).val / 1000, by rw [hN]; omega⟩
  obtain ⟨-, -, -, -, -, -, -, -, -, -, e10, e11⟩ := idx_facts7 t
  have ht : t.val = (i 0).val / 1000 := rfl
  refine ⟨t, flush7_5 t, ?_⟩
  rw [mem_blk7]
  intro a
  match a with
  | ⟨0, _⟩ => show win7_5.index t (0 : Fin 2) * 1000 ≤ (i 0).val ∧ (i 0).val < win7_5.index t (0 : Fin 2) * 1000 + 1000; omega
  | ⟨1, _⟩ => show win7_5.index t (1 : Fin 2) * 256 ≤ (i 1).val ∧ (i 1).val < win7_5.index t (1 : Fin 2) * 256 + 256; omega

/-- The output's array after the region: every entry of the activations normalised, scaled, shifted and rectified. -/
theorem final7 (c : Dev nD) :
    (dat7 (F := Ideal) V c).arrAt 5 cfg7.N = bnArr7 (harr7 V c) (mean7 V c) (var7 V c) (gam7 V c) (bet7 V c) :=
  (dat7 (F := Ideal) V c).arrAt_eq_of_cover 5 _ (fun t _ => flushed7_eq V c t) cover7

/-- The same, entry by entry. -/
theorem final7_apply (c : Dev nD) (i : S3000x256.Idx) :
    ((dat7 (F := Ideal) V c).arrAt 5 cfg7.N : S3000x256.Idx → EReal) i
      = Sage.bnrelu (Ideal.ofBits .f32 0x3727C5AC#32) (harr7 V c i) (mean7 V c (ix2 (0 : Fin 1) (i 1))) (var7 V c (ix2 (0 : Fin 1) (i 1)))
          (gam7 V c (ix2 (0 : Fin 1) (i 1))) (bet7 V c (ix2 (0 : Fin 1) (i 1))) :=
  congrFun (final7 V c) i

/-! ## The input arrays are kept -/

theorem kept7_0 (c : Dev nD) : (dat7 (F := Ideal) V c).arrAt 0 cfg7.N = V c (Pipeline.arrRef spec7 0) :=
  ((dat7 V c).arrAt_in 0 rfl _).trans (A_eq7 V c 0)
theorem kept7_1 (c : Dev nD) : (dat7 (F := Ideal) V c).arrAt 1 cfg7.N = V c (Pipeline.arrRef spec7 1) :=
  ((dat7 V c).arrAt_in 1 rfl _).trans (A_eq7 V c 1)
theorem kept7_2 (c : Dev nD) : (dat7 (F := Ideal) V c).arrAt 2 cfg7.N = V c (Pipeline.arrRef spec7 2) :=
  ((dat7 V c).arrAt_in 2 rfl _).trans (A_eq7 V c 2)
theorem kept7_3 (c : Dev nD) : (dat7 (F := Ideal) V c).arrAt 3 cfg7.N = V c (Pipeline.arrRef spec7 3) :=
  ((dat7 V c).arrAt_in 3 rfl _).trans (A_eq7 V c 3)
theorem kept7_4 (c : Dev nD) : (dat7 (F := Ideal) V c).arrAt 4 cfg7.N = V c (Pipeline.arrRef spec7 4) :=
  ((dat7 V c).arrAt_in 4 rfl _).trans (A_eq7 V c 4)

end Cert.KernelIdeal.Hand

end
-- ==== Proof.KI.ReadL1b.lean ====
import proofs.«126569_j1468878815453_1_alg».proof.Proof.KI.ReadL1a
import proofs.«126569_j1468878815453_1_alg».proof.Proof.KI.Val4
import proofs.«126569_j1468878815453_1_alg».proof.Proof.KI.Val5
import proofs.«126569_j1468878815453_1_alg».proof.Proof.KI.Val6
import proofs.«126569_j1468878815453_1_alg».proof.Proof.KI.Val7

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-! ## Region 0 -/

/-- Layer 1's relation sums for node type 0, before normalisation: what region 0's write-backs leave in its
    first output array. -/
noncomputable def kH1_0 (m : KMem) (ρ : Dev nD → PrngReg) (c : Dev nD) := (dat0 (F := Ideal) (V1 m ρ) c).arrAt 9 cfg0.N
theorem kH1_0_eq (m : KMem) (ρ : Dev nD → PrngReg) (c : Dev nD) : W2 m ρ c (Proc.devRef .tc main_v140_0) = kH1_0 m ρ c := W2_arr m ρ c 9

/-- Their column means: what region 0's write-backs leave in its second output array. -/
noncomputable def kMean1_0 (m : KMem) (ρ : Dev nD → PrngReg) (c : Dev nD) := (dat0 (F := Ideal) (V1 m ρ) c).arrAt 10 cfg0.N
theorem kMean1_0_eq (m : KMem) (ρ : Dev nD → PrngReg) (c : Dev nD) : W2 m ρ c (Proc.devRef .tc main_v140_1) = kMean1_0 m ρ c := W2_arr m ρ c 10

/-- Their column variances: what region 0's write-backs leave in its third output array. -/
noncomputable def kVar1_0 (m : KMem) (ρ : Dev nD → PrngReg) (c : Dev nD) := (dat0 (F := Ideal) (V1 m ρ) c).arrAt 11 cfg0.N
theorem kVar1_0_eq (m : KMem) (ρ : Dev nD → PrngReg) (c : Dev nD) : W2 m ρ c (Proc.devRef .tc main_v140_2) = kVar1_0 m ρ c := W2_arr m ρ c 11

/-- Region 0's window 0 is `v101`: what it holds at the region's entry. -/
theorem ent0_0 (m : KMem) (ρ : Dev nD → PrngReg) (c : Dev nD) : V1 m ρ c (Pipeline.arrRef spec0 0) = kAgg1_4 m ρ c :=
  kAgg1_4_eq m ρ c

/-- Region 0's window 1 is `v113`: what it holds at the region's entry. -/
theorem ent0_1 (m : KMem) (ρ : Dev nD → PrngReg) (c : Dev nD) : V1 m ρ c (Pipeline.arrRef spec0 1) = kAgg1_5 m ρ c :=
  kAgg1_5_eq m ρ c

/-- Region 0's window 2 is `arg0`: what it holds at the region's entry. -/
theorem ent0_2 (m : KMem) (ρ : Dev nD → PrngReg) (c : Dev nD) : V1 m ρ c (Pipeline.arrRef spec0 2) = m ((c : Thread nD τ).loc main_arg0) :=
  carry_arg0_0_1 m ρ c

/-- Region 0's window 3 is `v127`: what it holds at the region's entry. -/
theorem ent0_3 (m : KMem) (ρ : Dev nD → PrngReg) (c : Dev nD) : V1 m ρ c (Pipeline.arrRef spec0 3) = kWl1_4 m ρ c :=
  kWl1_4_eq m ρ c

/-- Region 0's window 4 is `v129`: what it holds at the region's entry. -/
theorem ent0_4 (m : KMem) (ρ : Dev nD → PrngReg) (c : Dev nD) : V1 m ρ c (Pipeline.arrRef spec0 4) = kWl1_5 m ρ c :=
  kWl1_5_eq m ρ c

/-- Region 0's window 5 is `v131`: what it holds at the region's entry. -/
theorem ent0_5 (m : KMem) (ρ : Dev nD → PrngReg) (c : Dev nD) : V1 m ρ c (Pipeline.arrRef spec0 5) = kWr1_4 m ρ c :=
  kWr1_4_eq m ρ c

/-- Region 0's window 6 is `v133`: what it holds at the region's entry. -/
theorem ent0_6 (m : KMem) (ρ : Dev nD → PrngReg) (c : Dev nD) : V1 m ρ c (Pipeline.arrRef spec0 6) = kWr1_5 m ρ c :=
  kWr1_5_eq m ρ c

/-- Region 0's window 7 is `v138`: what it holds at the region's entry. -/
theorem ent0_7 (m : KMem) (ρ : Dev nD → PrngReg) (c : Dev nD) : V1 m ρ c (Pipeline.arrRef spec0 7) = kB1_4 m ρ c :=
  kB1_4_eq m ρ c

/-- Region 0's window 8 is `v139`: what it holds at the region's entry. -/
theorem ent0_8 (m : KMem) (ρ : Dev nD → PrngReg) (c : Dev nD) : V1 m ρ c (Pipeline.arrRef spec0 8) = kB1_5 m ρ c :=
  kB1_5_eq m ρ c

/-! ## Region 1 -/

/-- Layer 1's relation sums for node type 1, before normalisation: what region 1's write-backs leave in its
    first output array. -/
noncomputable def kH1_1 (m : KMem) (ρ : Dev nD → PrngReg) (c : Dev nD) := (dat1 (F := Ideal) (V3 m ρ) c).arrAt 9 cfg1.N
theorem kH1_1_eq (m : KMem) (ρ : Dev nD → PrngReg) (c : Dev nD) : W4 m ρ c (Proc.devRef .tc main_v155_0) = kH1_1 m ρ c := W4_arr m ρ c 9

/-- Their column means: what region 1's write-backs leave in its second output array. -/
noncomputable def kMean1_1 (m : KMem) (ρ : Dev nD → PrngReg) (c : Dev nD) := (dat1 (F := Ideal) (V3 m ρ) c).arrAt 10 cfg1.N
theorem kMean1_1_eq (m : KMem) (ρ : Dev nD → PrngReg) (c : Dev nD) : W4 m ρ c (Proc.devRef .tc main_v155_1) = kMean1_1 m ρ c := W4_arr m ρ c 10

/-- Their column variances: what region 1's write-backs leave in its third output array. -/
noncomputable def kVar1_1 (m : KMem) (ρ : Dev nD → PrngReg) (c : Dev nD) := (dat1 (F := Ideal) (V3 m ρ) c).arrAt 11 cfg1.N
theorem kVar1_1_eq (m : KMem) (ρ : Dev nD → PrngReg) (c : Dev nD) : W4 m ρ c (Proc.devRef .tc main_v155_2) = kVar1_1 m ρ c := W4_arr m ρ c 11

/-- Region 1's window 0 is `v65`: what it holds at the region's entry. -/
theorem ent1_0 (m : KMem) (ρ : Dev nD → PrngReg) (c : Dev nD) : V3 m ρ c (Pipeline.arrRef spec1 0) = kAgg1_1 m ρ c :=
  (carry_v65_1_3 m ρ c).trans (kAgg1_1_eq m ρ c)

/-- Region 1's window 1 is `v125`: what it holds at the region's entry. -/
theorem ent1_1 (m : KMem) (ρ : Dev nD → PrngReg) (c : Dev nD) : V3 m ρ c (Pipeline.arrRef spec1 1) = kAgg1_6 m ρ c :=
  (carry_v125_1_3 m ρ c).trans (kAgg1_6_eq m ρ c)

/-- Region 1's window 2 is `arg1`: what it holds at the region's entry. -/
theorem ent1_2 (m : KMem) (ρ : Dev nD → PrngReg) (c : Dev nD) : V3 m ρ c (Pipeline.arrRef spec1 2) = m ((c : Thread nD τ).loc main_arg1) :=
  carry_arg1_0_3 m ρ c

/-- Region 1's window 3 is `v142`: what it holds at the region's entry. -/
theorem ent1_3 (m : KMem) (ρ : Dev nD → PrngReg) (c : Dev nD) : V3 m ρ c (Pipeline.arrRef spec1 3) = kWl1_1 m ρ c :=
  kWl1_1_eq m ρ c

/-- Region 1's window 4 is `v144`: what it holds at the region's entry. -/
theorem ent1_4 (m : KMem) (ρ : Dev nD → PrngReg) (c : Dev nD) : V3 m ρ c (Pipeline.arrRef spec1 4) = kWl1_6 m ρ c :=
  kWl1_6_eq m ρ c

/-- Region 1's window 5 is `v146`: what it holds at the region's entry. -/
theorem ent1_5 (m : KMem) (ρ : Dev nD → PrngReg) (c : Dev nD) : V3 m ρ c (Pipeline.arrRef spec1 5) = kWr1_1 m ρ c :=
  kWr1_1_eq m ρ c

/-- Region 1's window 6 is `v148`: what it holds at the region's entry. -/
theorem ent1_6 (m : KMem) (ρ : Dev nD → PrngReg) (c : Dev nD) : V3 m ρ c (Pipeline.arrRef spec1 6) = kWr1_6 m ρ c :=
  kWr1_6_eq m ρ c

/-- Region 1's window 7 is `v153`: what it holds at the region's entry. -/
theorem ent1_7 (m : KMem) (ρ : Dev nD → PrngReg) (c : Dev nD) : V3 m ρ c (Pipeline.arrRef spec1 7) = kB1_1 m ρ c :=
  kB1_1_eq m ρ c

/-- Region 1's window 8 is `v154`: what it holds at the region's entry. -/
theorem ent1_8 (m : KMem) (ρ : Dev nD → PrngReg) (c : Dev nD) : V3 m ρ c (Pipeline.arrRef spec1 8) = kB1_6 m ρ c :=
  kB1_6_eq m ρ c

/-! ## Region 2 -/

/-- Layer 1's relation sums for node type 2, before normalisation: what region 2's write-backs leave in its
    first output array. -/
noncomputable def kH1_2 (m : KMem) (ρ : Dev nD → PrngReg) (c : Dev nD) := (dat2 (F := Ideal) (V5 m ρ) c).arrAt 9 cfg2.N
theorem kH1_2_eq (m : KMem) (ρ : Dev nD → PrngReg) (c : Dev nD) : W6 m ρ c (Proc.devRef .tc main_v170_0) = kH1_2 m ρ c := W6_arr m ρ c 9

/-- Their column means: what region 2's write-backs leave in its second output array. -/
noncomputable def kMean1_2 (m : KMem) (ρ : Dev nD → PrngReg) (c : Dev nD) := (dat2 (F := Ideal) (V5 m ρ) c).arrAt 10 cfg2.N
theorem kMean1_2_eq (m : KMem) (ρ : Dev nD → PrngReg) (c : Dev nD) : W6 m ρ c (Proc.devRef .tc main_v170_1) = kMean1_2 m ρ c := W6_arr m ρ c 10

/-- Their column variances: what region 2's write-backs leave in its third output array. -/
noncomputable def kVar1_2 (m : KMem) (ρ : Dev nD → PrngReg) (c : Dev nD) := (dat2 (F := Ideal) (V5 m ρ) c).arrAt 11 cfg2.N
theorem kVar1_2_eq (m : KMem) (ρ : Dev nD → PrngReg) (c : Dev nD) : W6 m ρ c (Proc.devRef .tc main_v170_2) = kVar1_2 m ρ c := W6_arr m ρ c 11

/-- Region 2's window 0 is `v53`: what it holds at the region's entry. -/
theorem ent2_0 (m : KMem) (ρ : Dev nD → PrngReg) (c : Dev nD) : V5 m ρ c (Pipeline.arrRef spec2 0) = kAgg1_0 m ρ c :=
  (carry_v53_1_5 m ρ c).trans (kAgg1_0_eq m ρ c)

/-- Region 2's window 1 is `v89`: what it holds at the region's entry. -/
theorem ent2_1 (m : KMem) (ρ : Dev nD → PrngReg) (c : Dev nD) : V5 m ρ c (Pipeline.arrRef spec2 1) = kAgg1_3 m ρ c :=
  (carry_v89_1_5 m ρ c).trans (kAgg1_3_eq m ρ c)

/-- Region 2's window 2 is `arg2`: what it holds at the region's entry. -/
theorem ent2_2 (m : KMem) (ρ : Dev nD → PrngReg) (c : Dev nD) : V5 m ρ c (Pipeline.arrRef spec2 2) = m ((c : Thread nD τ).loc main_arg2) :=
  carry_arg2_0_5 m ρ c

/-- Region 2's window 3 is `v157`: what it holds at the region's entry. -/
theorem ent2_3 (m : KMem) (ρ : Dev nD → PrngReg) (c : Dev nD) : V5 m ρ c (Pipeline.arrRef spec2 3) = kWl1_0 m ρ c :=
  kWl1_0_eq m ρ c

/-- Region 2's window 4 is `v159`: what it holds at the region's entry. -/
theorem ent2_4 (m : KMem) (ρ : Dev nD → PrngReg) (c : Dev nD) : V5 m ρ c (Pipeline.arrRef spec2 4) = kWl1_3 m ρ c :=
  kWl1_3_eq m ρ c

/-- Region 2's window 5 is `v161`: what it holds at the region's entry. -/
theorem ent2_5 (m : KMem) (ρ : Dev nD → PrngReg) (c : Dev nD) : V5 m ρ c (Pipeline.arrRef spec2 5) = kWr1_0 m ρ c :=
  kWr1_0_eq m ρ c

/-- Region 2's window 6 is `v163`: what it holds at the region's entry. -/
theorem ent2_6 (m : KMem) (ρ : Dev nD → PrngReg) (c : Dev nD) : V5 m ρ c (Pipeline.arrRef spec2 6) = kWr1_3 m ρ c :=
  kWr1_3_eq m ρ c

/-- Region 2's window 7 is `v168`: what it holds at the region's entry. -/
theorem ent2_7 (m : KMem) (ρ : Dev nD → PrngReg) (c : Dev nD) : V5 m ρ c (Pipeline.arrRef spec2 7) = kB1_0 m ρ c :=
  kB1_0_eq m ρ c

/-- Region 2's window 8 is `v169`: what it holds at the region's entry. -/
theorem ent2_8 (m : KMem) (ρ : Dev nD → PrngReg) (c : Dev nD) : V5 m ρ c (Pipeline.arrRef spec2 8) = kB1_3 m ρ c :=
  kB1_3_eq m ρ c

/-! ## Region 3 -/

/-- Layer 1's relation sums for node type 3, before normalisation: what region 3's write-backs leave in its
    first output array. -/
noncomputable def kH1_3 (m : KMem) (ρ : Dev nD → PrngReg) (c : Dev nD) := (dat3 (F := Ideal) (V7 m ρ) c).arrAt 5 cfg3.N
theorem kH1_3_eq (m : KMem) (ρ : Dev nD → PrngReg) (c : Dev nD) : W8 m ρ c (Proc.devRef .tc main_v178_0) = kH1_3 m ρ c := W8_arr m ρ c 5

/-- Their column means: what region 3's write-backs leave in its second output array. -/
noncomputable def kMean1_3 (m : KMem) (ρ : Dev nD → PrngReg) (c : Dev nD) := (dat3 (F := Ideal) (V7 m ρ) c).arrAt 6 cfg3.N
theorem kMean1_3_eq (m : KMem) (ρ : Dev nD → PrngReg) (c : Dev nD) : W8 m ρ c (Proc.devRef .tc main_v178_1) = kMean1_3 m ρ c := W8_arr m ρ c 6

/-- Their column variances: what region 3's write-backs leave in its third output array. -/
noncomputable def kVar1_3 (m : KMem) (ρ : Dev nD → PrngReg) (c : Dev nD) := (dat3 (F := Ideal) (V7 m ρ) c).arrAt 7 cfg3.N
theorem kVar1_3_eq (m : KMem) (ρ : Dev nD → PrngReg) (c : Dev nD) : W8 m ρ c (Proc.devRef .tc main_v178_2) = kVar1_3 m ρ c := W8_arr m ρ c 7

/-- Region 3's window 0 is `v77`: what it holds at the region's entry. -/
theorem ent3_0 (m : KMem) (ρ : Dev nD → PrngReg) (c : Dev nD) : V7 m ρ c (Pipeline.arrRef spec3 0) = kAgg1_2 m ρ c :=
  (carry_v77_1_7 m ρ c).trans (kAgg1_2_eq m ρ c)

/-- Region 3's window 1 is `arg3`: what it holds at the region's entry. -/
theorem ent3_1 (m : KMem) (ρ : Dev nD → PrngReg) (c : Dev nD) : V7 m ρ c (Pipeline.arrRef spec3 1) = m ((c : Thread nD τ).loc main_arg3) :=
  carry_arg3_0_7 m ρ c

/-- Region 3's window 2 is `v172`: what it holds at the region's entry. -/
theorem ent3_2 (m : KMem) (ρ : Dev nD → PrngReg) (c : Dev nD) : V7 m ρ c (Pipeline.arrRef spec3 2) = kWl1_2 m ρ c :=
  kWl1_2_eq m ρ c

/-- Region 3's window 3 is `v174`: what it holds at the region's entry. -/
theorem ent3_3 (m : KMem) (ρ : Dev nD → PrngReg) (c : Dev nD) : V7 m ρ c (Pipeline.arrRef spec3 3) = kWr1_2 m ρ c :=
  kWr1_2_eq m ρ c

/-- Region 3's window 4 is `v177`: what it holds at the region's entry. -/
theorem ent3_4 (m : KMem) (ρ : Dev nD → PrngReg) (c : Dev nD) : V7 m ρ c (Pipeline.arrRef spec3 4) = kB1_2 m ρ c :=
  kB1_2_eq m ρ c

/-! ## Region 4 -/

/-- Region 4's window 0 is `v140_0`: what it holds at the region's entry. -/
theorem ent4_0 (m : KMem) (ρ : Dev nD → PrngReg) (c : Dev nD) : V9 m ρ c (Pipeline.arrRef spec4 0) = kH1_0 m ρ c :=
  (carry_v140_0_2_9 m ρ c).trans (kH1_0_eq m ρ c)

/-- Region 4's window 1 is `v140_1`: what it holds at the region's entry. -/
theorem ent4_1 (m : KMem) (ρ : Dev nD → PrngReg) (c : Dev nD) : V9 m ρ c (Pipeline.arrRef spec4 1) = kMean1_0 m ρ c :=
  (carry_v140_1_2_9 m ρ c).trans (kMean1_0_eq m ρ c)

/-- Region 4's window 2 is `v140_2`: what it holds at the region's entry. -/
theorem ent4_2 (m : KMem) (ρ : Dev nD → PrngReg) (c : Dev nD) : V9 m ρ c (Pipeline.arrRef spec4 2) = kVar1_0 m ρ c :=
  (carry_v140_2_2_9 m ρ c).trans (kVar1_0_eq m ρ c)

/-- Region 4's window 3 is `v179`: what it holds at the region's entry. -/
theorem ent4_3 (m : KMem) (ρ : Dev nD → PrngReg) (c : Dev nD) : V9 m ρ c (Pipeline.arrRef spec4 3) = kG1_0 m ρ c :=
  kG1_0_eq m ρ c

/-- Region 4's window 4 is `v180`: what it holds at the region's entry. -/
theorem ent4_4 (m : KMem) (ρ : Dev nD → PrngReg) (c : Dev nD) : V9 m ρ c (Pipeline.arrRef spec4 4) = kBeta1_0 m ρ c :=
  kBeta1_0_eq m ρ c

/-- Layer 1's result for node type 0: the relation sums normalised by their column means and variances, scaled,
    shifted and rectified. -/
noncomputable def kOut1_0 (m : KMem) (ρ : Dev nD → PrngReg) (c : Dev nD) : (⟨S20000x256, .f32⟩ : BufTy).Contents (Elt Ideal) :=
  bnArr4 (kH1_0 m ρ c) (kMean1_0 m ρ c) (kVar1_0 m ρ c) (kG1_0 m ρ c) (kBeta1_0 m ρ c)

/-- It is what region 4's write-backs leave in its output array: the region's value at its entry arrays, each of
    which is the named value above. -/
theorem kOut1_0_eq (m : KMem) (ρ : Dev nD → PrngReg) (c : Dev nD) : W10 m ρ c (Proc.devRef .tc main_v181) = kOut1_0 m ρ c :=
  (W10_arr m ρ c 5).trans ((final4 (V9 m ρ) c).trans
    (congr5 bnArr4 (ent4_0 m ρ c) (ent4_1 m ρ c) (ent4_2 m ρ c) (ent4_3 m ρ c) (ent4_4 m ρ c)))

/-! ## Region 5 -/

/-- Region 5's window 0 is `v155_0`: what it holds at the region's entry. -/
theorem ent5_0 (m : KMem) (ρ : Dev nD → PrngReg) (c : Dev nD) : V11 m ρ c (Pipeline.arrRef spec5 0) = kH1_1 m ρ c :=
  (carry_v155_0_4_11 m ρ c).trans (kH1_1_eq m ρ c)

/-- Region 5's window 1 is `v155_1`: what it holds at the region's entry. -/
theorem ent5_1 (m : KMem) (ρ : Dev nD → PrngReg) (c : Dev nD) : V11 m ρ c (Pipeline.arrRef spec5 1) = kMean1_1 m ρ c :=
  (carry_v155_1_4_11 m ρ c).trans (kMean1_1_eq m ρ c)

/-- Region 5's window 2 is `v155_2`: what it holds at the region's entry. -/
theorem ent5_2 (m : KMem) (ρ : Dev nD → PrngReg) (c : Dev nD) : V11 m ρ c (Pipeline.arrRef spec5 2) = kVar1_1 m ρ c :=
  (carry_v155_2_4_11 m ρ c).trans (kVar1_1_eq m ρ c)

/-- Region 5's window 3 is `v182`: what it holds at the region's entry. -/
theorem ent5_3 (m : KMem) (ρ : Dev nD → PrngReg) (c : Dev nD) : V11 m ρ c (Pipeline.arrRef spec5 3) = kG1_1 m ρ c :=
  kG1_1_eq m ρ c

/-- Region 5's window 4 is `v183`: what it holds at the region's entry. -/
theorem ent5_4 (m : KMem) (ρ : Dev nD → PrngReg) (c : Dev nD) : V11 m ρ c (Pipeline.arrRef spec5 4) = kBeta1_1 m ρ c :=
  kBeta1_1_eq m ρ c

/-- Layer 1's result for node type 1: the relation sums normalised by their column means and variances, scaled,
    shifted and rectified. -/
noncomputable def kOut1_1 (m : KMem) (ρ : Dev nD → PrngReg) (c : Dev nD) : (⟨S50000x256, .f32⟩ : BufTy).Contents (Elt Ideal) :=
  bnArr5 (kH1_1 m ρ c) (kMean1_1 m ρ c) (kVar1_1 m ρ c) (kG1_1 m ρ c) (kBeta1_1 m ρ c)

/-- It is what region 5's write-backs leave in its output array: the region's value at its entry arrays, each of
    which is the named value above. -/
theorem kOut1_1_eq (m : KMem) (ρ : Dev nD → PrngReg) (c : Dev nD) : W12 m ρ c (Proc.devRef .tc main_v184) = kOut1_1 m ρ c :=
  (W12_arr m ρ c 5).trans ((final5 (V11 m ρ) c).trans
    (congr5 bnArr5 (ent5_0 m ρ c) (ent5_1 m ρ c) (ent5_2 m ρ c) (ent5_3 m ρ c) (ent5_4 m ρ c)))

/-! ## Region 6 -/

/-- Region 6's window 0 is `v170_0`: what it holds at the region's entry. -/
theorem ent6_0 (m : KMem) (ρ : Dev nD → PrngReg) (c : Dev nD) : V13 m ρ c (Pipeline.arrRef spec6 0) = kH1_2 m ρ c :=
  (carry_v170_0_6_13 m ρ c).trans (kH1_2_eq m ρ c)

/-- Region 6's window 1 is `v170_1`: what it holds at the region's entry. -/
theorem ent6_1 (m : KMem) (ρ : Dev nD → PrngReg) (c : Dev nD) : V13 m ρ c (Pipeline.arrRef spec6 1) = kMean1_2 m ρ c :=
  (carry_v170_1_6_13 m ρ c).trans (kMean1_2_eq m ρ c)

/-- Region 6's window 2 is `v170_2`: what it holds at the region's entry. -/
theorem ent6_2 (m : KMem) (ρ : Dev nD → PrngReg) (c : Dev nD) : V13 m ρ c (Pipeline.arrRef spec6 2) = kVar1_2 m ρ c :=
  (carry_v170_2_6_13 m ρ c).trans (kVar1_2_eq m ρ c)

/-- Region 6's window 3 is `v185`: what it holds at the region's entry. -/
theorem ent6_3 (m : KMem) (ρ : Dev nD → PrngReg) (c : Dev nD) : V13 m ρ c (Pipeline.arrRef spec6 3) = kG1_2 m ρ c :=
  kG1_2_eq m ρ c

/-- Region 6's window 4 is `v186`: what it holds at the region's entry. -/
theorem ent6_4 (m : KMem) (ρ : Dev nD → PrngReg) (c : Dev nD) : V13 m ρ c (Pipeline.arrRef spec6 4) = kBeta1_2 m ρ c :=
  kBeta1_2_eq m ρ c

/-- Layer 1's result for node type 2: the relation sums normalised by their column means and variances, scaled,
    shifted and rectified. -/
noncomputable def kOut1_2 (m : KMem) (ρ : Dev nD → PrngReg) (c : Dev nD) : (⟨S10000x256, .f32⟩ : BufTy).Contents (Elt Ideal) :=
  bnArr6 (kH1_2 m ρ c) (kMean1_2 m ρ c) (kVar1_2 m ρ c) (kG1_2 m ρ c) (kBeta1_2 m ρ c)

/-- It is what region 6's write-backs leave in its output array: the region's value at its entry arrays, each of
    which is the named value above. -/
theorem kOut1_2_eq (m : KMem) (ρ : Dev nD → PrngReg) (c : Dev nD) : W14 m ρ c (Proc.devRef .tc main_v187) = kOut1_2 m ρ c :=
  (W14_arr m ρ c 5).trans ((final6 (V13 m ρ) c).trans
    (congr5 bnArr6 (ent6_0 m ρ c) (ent6_1 m ρ c) (ent6_2 m ρ c) (ent6_3 m ρ c) (ent6_4 m ρ c)))

/-! ## Region 7 -/

/-- Region 7's window 0 is `v178_0`: what it holds at the region's entry. -/
theorem ent7_0 (m : KMem) (ρ : Dev nD → PrngReg) (c : Dev nD) : V15 m ρ c (Pipeline.arrRef spec7 0) = kH1_3 m ρ c :=
  (carry_v178_0_8_15 m ρ c).trans (kH1_3_eq m ρ c)

/-- Region 7's window 1 is `v178_1`: what it holds at the region's entry. -/
theorem ent7_1 (m : KMem) (ρ : Dev nD → PrngReg) (c : Dev nD) : V15 m ρ c (Pipeline.arrRef spec7 1) = kMean1_3 m ρ c :=
  (carry_v178_1_8_15 m ρ c).trans (kMean1_3_eq m ρ c)

/-- Region 7's window 2 is `v178_2`: what it holds at the region's entry. -/
theorem ent7_2 (m : KMem) (ρ : Dev nD → PrngReg) (c : Dev nD) : V15 m ρ c (Pipeline.arrRef spec7 2) = kVar1_3 m ρ c :=
  (carry_v178_2_8_15 m ρ c).trans (kVar1_3_eq m ρ c)

/-- Region 7's window 3 is `v188`: what it holds at the region's entry. -/
theorem ent7_3 (m : KMem) (ρ : Dev nD → PrngReg) (c : Dev nD) : V15 m ρ c (Pipeline.arrRef spec7 3) = kG1_3 m ρ c :=
  kG1_3_eq m ρ c

/-- Region 7's window 4 is `v189`: what it holds at the region's entry. -/
theorem ent7_4 (m : KMem) (ρ : Dev nD → PrngReg) (c : Dev nD) : V15 m ρ c (Pipeline.arrRef spec7 4) = kBeta1_3 m ρ c :=
  kBeta1_3_eq m ρ c

/-- Layer 1's result for node type 3: the relation sums normalised by their column means and variances, scaled,
    shifted and rectified. -/
noncomputable def kOut1_3 (m : KMem) (ρ : Dev nD → PrngReg) (c : Dev nD) : (⟨S3000x256, .f32⟩ : BufTy).Contents (Elt Ideal) :=
  bnArr7 (kH1_3 m ρ c) (kMean1_3 m ρ c) (kVar1_3 m ρ c) (kG1_3 m ρ c) (kBeta1_3 m ρ c)

/-- It is what region 7's write-backs leave in its output array: the region's value at its entry arrays, each of
    which is the named value above. -/
theorem kOut1_3_eq (m : KMem) (ρ : Dev nD → PrngReg) (c : Dev nD) : W16 m ρ c (Proc.devRef .tc main_v190) = kOut1_3 m ρ c :=
  (W16_arr m ρ c 5).trans ((final7 (V15 m ρ) c).trans
    (congr5 bnArr7 (ent7_0 m ρ c) (ent7_1 m ρ c) (ent7_2 m ρ c) (ent7_3 m ρ c) (ent7_4 m ρ c)))

end Cert.KernelIdeal.Hand

end
-- ==== Proof.KI.ReadCarryB.lean ====
import proofs.«126569_j1468878815453_1_alg».proof.Proof.KI.Fold
import proofs.«126569_j1468878815453_1_alg».proof.Proof.KI.ReadS0
import proofs.«126569_j1468878815453_1_alg».proof.Proof.KI.ReadS1
import proofs.«126569_j1468878815453_1_alg».proof.Proof.KI.ReadS2
import proofs.«126569_j1468878815453_1_alg».proof.Proof.KI.ReadS3
import proofs.«126569_j1468878815453_1_alg».proof.Proof.KI.ReadS4
import proofs.«126569_j1468878815453_1_alg».proof.Proof.KI.ReadS5
import proofs.«126569_j1468878815453_1_alg».proof.Proof.KI.ReadS6
import proofs.«126569_j1468878815453_1_alg».proof.Proof.KI.ReadS7
import proofs.«126569_j1468878815453_1_alg».proof.Proof.KI.ReadS8
import proofs.«126569_j1468878815453_1_alg».proof.Proof.KI.ReadS9
import proofs.«126569_j1468878815453_1_alg».proof.Proof.KI.ReadS10
import proofs.«126569_j1468878815453_1_alg».proof.Proof.KI.ReadS11
import proofs.«126569_j1468878815453_1_alg».proof.Proof.KI.ReadS12
import proofs.«126569_j1468878815453_1_alg».proof.Proof.KI.ReadS13
import proofs.«126569_j1468878815453_1_alg».proof.Proof.KI.ReadS14
import proofs.«126569_j1468878815453_1_alg».proof.Proof.KI.ReadS15

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- `arg7`, made at boundary 0, is unchanged where it is read at boundary 17. -/
theorem carry_arg7_0_17 (c : Dev nD) : W17 m ρ c (Proc.devRef .tc main_arg7) = m ((c : Thread nD τ).loc main_arg7) :=
  Eq.trans ((hostOps8_writes (F := F)).keep (W16 m ρ c) (r := main_arg7) (by decide))
    (Eq.trans (W16_of_ne m ρ c main_arg7 (by decide))
    (Eq.trans ((hostOps7_writes (F := F)).keep (W14 m ρ c) (r := main_arg7) (by decide))
    (Eq.trans (W14_of_ne m ρ c main_arg7 (by decide))
    (Eq.trans ((hostOps6_writes (F := F)).keep (W12 m ρ c) (r := main_arg7) (by decide))
    (Eq.trans (W12_of_ne m ρ c main_arg7 (by decide))
    (Eq.trans ((hostOps5_writes (F := F)).keep (W10 m ρ c) (r := main_arg7) (by decide))
    (Eq.trans (W10_of_ne m ρ c main_arg7 (by decide))
    (Eq.trans ((hostOps4_writes (F := F)).keep (W8 m ρ c) (r := main_arg7) (by decide))
    (Eq.trans (W8_of_ne m ρ c main_arg7 (by decide))
    (Eq.trans ((hostOps3_writes (F := F)).keep (W6 m ρ c) (r := main_arg7) (by decide))
    (Eq.trans (W6_of_ne m ρ c main_arg7 (by decide))
    (Eq.trans ((hostOps2_writes (F := F)).keep (W4 m ρ c) (r := main_arg7) (by decide))
    (Eq.trans (W4_of_ne m ρ c main_arg7 (by decide))
    (Eq.trans ((hostOps1_writes (F := F)).keep (W2 m ρ c) (r := main_arg7) (by decide))
    (Eq.trans (W2_of_ne m ρ c main_arg7 (by decide))
    (Eq.trans ((hostOps0_writes (F := F)).keep (W0 m ρ c) (r := main_arg7) (by decide))
    (rfl)))))))))))))))))

/-- `arg8`, made at boundary 0, is unchanged where it is read at boundary 17. -/
theorem carry_arg8_0_17 (c : Dev nD) : W17 m ρ c (Proc.devRef .tc main_arg8) = m ((c : Thread nD τ).loc main_arg8) :=
  Eq.trans ((hostOps8_writes (F := F)).keep (W16 m ρ c) (r := main_arg8) (by decide))
    (Eq.trans (W16_of_ne m ρ c main_arg8 (by decide))
    (Eq.trans ((hostOps7_writes (F := F)).keep (W14 m ρ c) (r := main_arg8) (by decide))
    (Eq.trans (W14_of_ne m ρ c main_arg8 (by decide))
    (Eq.trans ((hostOps6_writes (F := F)).keep (W12 m ρ c) (r := main_arg8) (by decide))
    (Eq.trans (W12_of_ne m ρ c main_arg8 (by decide))
    (Eq.trans ((hostOps5_writes (F := F)).keep (W10 m ρ c) (r := main_arg8) (by decide))
    (Eq.trans (W10_of_ne m ρ c main_arg8 (by decide))
    (Eq.trans ((hostOps4_writes (F := F)).keep (W8 m ρ c) (r := main_arg8) (by decide))
    (Eq.trans (W8_of_ne m ρ c main_arg8 (by decide))
    (Eq.trans ((hostOps3_writes (F := F)).keep (W6 m ρ c) (r := main_arg8) (by decide))
    (Eq.trans (W6_of_ne m ρ c main_arg8 (by decide))
    (Eq.trans ((hostOps2_writes (F := F)).keep (W4 m ρ c) (r := main_arg8) (by decide))
    (Eq.trans (W4_of_ne m ρ c main_arg8 (by decide))
    (Eq.trans ((hostOps1_writes (F := F)).keep (W2 m ρ c) (r := main_arg8) (by decide))
    (Eq.trans (W2_of_ne m ρ c main_arg8 (by decide))
    (Eq.trans ((hostOps0_writes (F := F)).keep (W0 m ρ c) (r := main_arg8) (by decide))
    (rfl)))))))))))))))))

/-- `arg9`, made at boundary 0, is unchanged where it is read at boundary 17. -/
theorem carry_arg9_0_17 (c : Dev nD) : W17 m ρ c (Proc.devRef .tc main_arg9) = m ((c : Thread nD τ).loc main_arg9) :=
  Eq.trans ((hostOps8_writes (F := F)).keep (W16 m ρ c) (r := main_arg9) (by decide))
    (Eq.trans (W16_of_ne m ρ c main_arg9 (by decide))
    (Eq.trans ((hostOps7_writes (F := F)).keep (W14 m ρ c) (r := main_arg9) (by decide))
    (Eq.trans (W14_of_ne m ρ c main_arg9 (by decide))
    (Eq.trans ((hostOps6_writes (F := F)).keep (W12 m ρ c) (r := main_arg9) (by decide))
    (Eq.trans (W12_of_ne m ρ c main_arg9 (by decide))
    (Eq.trans ((hostOps5_writes (F := F)).keep (W10 m ρ c) (r := main_arg9) (by decide))
    (Eq.trans (W10_of_ne m ρ c main_arg9 (by decide))
    (Eq.trans ((hostOps4_writes (F := F)).keep (W8 m ρ c) (r := main_arg9) (by decide))
    (Eq.trans (W8_of_ne m ρ c main_arg9 (by decide))
    (Eq.trans ((hostOps3_writes (F := F)).keep (W6 m ρ c) (r := main_arg9) (by decide))
    (Eq.trans (W6_of_ne m ρ c main_arg9 (by decide))
    (Eq.trans ((hostOps2_writes (F := F)).keep (W4 m ρ c) (r := main_arg9) (by decide))
    (Eq.trans (W4_of_ne m ρ c main_arg9 (by decide))
    (Eq.trans ((hostOps1_writes (F := F)).keep (W2 m ρ c) (r := main_arg9) (by decide))
    (Eq.trans (W2_of_ne m ρ c main_arg9 (by decide))
    (Eq.trans ((hostOps0_writes (F := F)).keep (W0 m ρ c) (r := main_arg9) (by decide))
    (rfl)))))))))))))))))

/-- `arg14`, made at boundary 0, is unchanged where it is read at boundary 17. -/
theorem carry_arg14_0_17 (c : Dev nD) : W17 m ρ c (Proc.devRef .tc main_arg14) = m ((c : Thread nD τ).loc main_arg14) :=
  Eq.trans ((hostOps8_writes (F := F)).keep (W16 m ρ c) (r := main_arg14) (by decide))
    (Eq.trans (W16_of_ne m ρ c main_arg14 (by decide))
    (Eq.trans ((hostOps7_writes (F := F)).keep (W14 m ρ c) (r := main_arg14) (by decide))
    (Eq.trans (W14_of_ne m ρ c main_arg14 (by decide))
    (Eq.trans ((hostOps6_writes (F := F)).keep (W12 m ρ c) (r := main_arg14) (by decide))
    (Eq.trans (W12_of_ne m ρ c main_arg14 (by decide))
    (Eq.trans ((hostOps5_writes (F := F)).keep (W10 m ρ c) (r := main_arg14) (by decide))
    (Eq.trans (W10_of_ne m ρ c main_arg14 (by decide))
    (Eq.trans ((hostOps4_writes (F := F)).keep (W8 m ρ c) (r := main_arg14) (by decide))
    (Eq.trans (W8_of_ne m ρ c main_arg14 (by decide))
    (Eq.trans ((hostOps3_writes (F := F)).keep (W6 m ρ c) (r := main_arg14) (by decide))
    (Eq.trans (W6_of_ne m ρ c main_arg14 (by decide))
    (Eq.trans ((hostOps2_writes (F := F)).keep (W4 m ρ c) (r := main_arg14) (by decide))
    (Eq.trans (W4_of_ne m ρ c main_arg14 (by decide))
    (Eq.trans ((hostOps1_writes (F := F)).keep (W2 m ρ c) (r := main_arg14) (by decide))
    (Eq.trans (W2_of_ne m ρ c main_arg14 (by decide))
    (Eq.trans ((hostOps0_writes (F := F)).keep (W0 m ρ c) (r := main_arg14) (by decide))
    (rfl)))))))))))))))))

/-- `arg15`, made at boundary 0, is unchanged where it is read at boundary 17. -/
theorem carry_arg15_0_17 (c : Dev nD) : W17 m ρ c (Proc.devRef .tc main_arg15) = m ((c : Thread nD τ).loc main_arg15) :=
  Eq.trans ((hostOps8_writes (F := F)).keep (W16 m ρ c) (r := main_arg15) (by decide))
    (Eq.trans (W16_of_ne m ρ c main_arg15 (by decide))
    (Eq.trans ((hostOps7_writes (F := F)).keep (W14 m ρ c) (r := main_arg15) (by decide))
    (Eq.trans (W14_of_ne m ρ c main_arg15 (by decide))
    (Eq.trans ((hostOps6_writes (F := F)).keep (W12 m ρ c) (r := main_arg15) (by decide))
    (Eq.trans (W12_of_ne m ρ c main_arg15 (by decide))
    (Eq.trans ((hostOps5_writes (F := F)).keep (W10 m ρ c) (r := main_arg15) (by decide))
    (Eq.trans (W10_of_ne m ρ c main_arg15 (by decide))
    (Eq.trans ((hostOps4_writes (F := F)).keep (W8 m ρ c) (r := main_arg15) (by decide))
    (Eq.trans (W8_of_ne m ρ c main_arg15 (by decide))
    (Eq.trans ((hostOps3_writes (F := F)).keep (W6 m ρ c) (r := main_arg15) (by decide))
    (Eq.trans (W6_of_ne m ρ c main_arg15 (by decide))
    (Eq.trans ((hostOps2_writes (F := F)).keep (W4 m ρ c) (r := main_arg15) (by decide))
    (Eq.trans (W4_of_ne m ρ c main_arg15 (by decide))
    (Eq.trans ((hostOps1_writes (F := F)).keep (W2 m ρ c) (r := main_arg15) (by decide))
    (Eq.trans (W2_of_ne m ρ c main_arg15 (by decide))
    (Eq.trans ((hostOps0_writes (F := F)).keep (W0 m ρ c) (r := main_arg15) (by decide))
    (rfl)))))))))))))))))

/-- `arg16`, made at boundary 0, is unchanged where it is read at boundary 17. -/
theorem carry_arg16_0_17 (c : Dev nD) : W17 m ρ c (Proc.devRef .tc main_arg16) = m ((c : Thread nD τ).loc main_arg16) :=
  Eq.trans ((hostOps8_writes (F := F)).keep (W16 m ρ c) (r := main_arg16) (by decide))
    (Eq.trans (W16_of_ne m ρ c main_arg16 (by decide))
    (Eq.trans ((hostOps7_writes (F := F)).keep (W14 m ρ c) (r := main_arg16) (by decide))
    (Eq.trans (W14_of_ne m ρ c main_arg16 (by decide))
    (Eq.trans ((hostOps6_writes (F := F)).keep (W12 m ρ c) (r := main_arg16) (by decide))
    (Eq.trans (W12_of_ne m ρ c main_arg16 (by decide))
    (Eq.trans ((hostOps5_writes (F := F)).keep (W10 m ρ c) (r := main_arg16) (by decide))
    (Eq.trans (W10_of_ne m ρ c main_arg16 (by decide))
    (Eq.trans ((hostOps4_writes (F := F)).keep (W8 m ρ c) (r := main_arg16) (by decide))
    (Eq.trans (W8_of_ne m ρ c main_arg16 (by decide))
    (Eq.trans ((hostOps3_writes (F := F)).keep (W6 m ρ c) (r := main_arg16) (by decide))
    (Eq.trans (W6_of_ne m ρ c main_arg16 (by decide))
    (Eq.trans ((hostOps2_writes (F := F)).keep (W4 m ρ c) (r := main_arg16) (by decide))
    (Eq.trans (W4_of_ne m ρ c main_arg16 (by decide))
    (Eq.trans ((hostOps1_writes (F := F)).keep (W2 m ρ c) (r := main_arg16) (by decide))
    (Eq.trans (W2_of_ne m ρ c main_arg16 (by decide))
    (Eq.trans ((hostOps0_writes (F := F)).keep (W0 m ρ c) (r := main_arg16) (by decide))
    (rfl)))))))))))))))))

/-- `arg17`, made at boundary 0, is unchanged where it is read at boundary 17. -/
theorem carry_arg17_0_17 (c : Dev nD) : W17 m ρ c (Proc.devRef .tc main_arg17) = m ((c : Thread nD τ).loc main_arg17) :=
  Eq.trans ((hostOps8_writes (F := F)).keep (W16 m ρ c) (r := main_arg17) (by decide))
    (Eq.trans (W16_of_ne m ρ c main_arg17 (by decide))
    (Eq.trans ((hostOps7_writes (F := F)).keep (W14 m ρ c) (r := main_arg17) (by decide))
    (Eq.trans (W14_of_ne m ρ c main_arg17 (by decide))
    (Eq.trans ((hostOps6_writes (F := F)).keep (W12 m ρ c) (r := main_arg17) (by decide))
    (Eq.trans (W12_of_ne m ρ c main_arg17 (by decide))
    (Eq.trans ((hostOps5_writes (F := F)).keep (W10 m ρ c) (r := main_arg17) (by decide))
    (Eq.trans (W10_of_ne m ρ c main_arg17 (by decide))
    (Eq.trans ((hostOps4_writes (F := F)).keep (W8 m ρ c) (r := main_arg17) (by decide))
    (Eq.trans (W8_of_ne m ρ c main_arg17 (by decide))
    (Eq.trans ((hostOps3_writes (F := F)).keep (W6 m ρ c) (r := main_arg17) (by decide))
    (Eq.trans (W6_of_ne m ρ c main_arg17 (by decide))
    (Eq.trans ((hostOps2_writes (F := F)).keep (W4 m ρ c) (r := main_arg17) (by decide))
    (Eq.trans (W4_of_ne m ρ c main_arg17 (by decide))
    (Eq.trans ((hostOps1_writes (F := F)).keep (W2 m ρ c) (r := main_arg17) (by decide))
    (Eq.trans (W2_of_ne m ρ c main_arg17 (by decide))
    (Eq.trans ((hostOps0_writes (F := F)).keep (W0 m ρ c) (r := main_arg17) (by decide))
    (rfl)))))))))))))))))

/-- `arg18`, made at boundary 0, is unchanged where it is read at boundary 17. -/
theorem carry_arg18_0_17 (c : Dev nD) : W17 m ρ c (Proc.devRef .tc main_arg18) = m ((c : Thread nD τ).loc main_arg18) :=
  Eq.trans ((hostOps8_writes (F := F)).keep (W16 m ρ c) (r := main_arg18) (by decide))
    (Eq.trans (W16_of_ne m ρ c main_arg18 (by decide))
    (Eq.trans ((hostOps7_writes (F := F)).keep (W14 m ρ c) (r := main_arg18) (by decide))
    (Eq.trans (W14_of_ne m ρ c main_arg18 (by decide))
    (Eq.trans ((hostOps6_writes (F := F)).keep (W12 m ρ c) (r := main_arg18) (by decide))
    (Eq.trans (W12_of_ne m ρ c main_arg18 (by decide))
    (Eq.trans ((hostOps5_writes (F := F)).keep (W10 m ρ c) (r := main_arg18) (by decide))
    (Eq.trans (W10_of_ne m ρ c main_arg18 (by decide))
    (Eq.trans ((hostOps4_writes (F := F)).keep (W8 m ρ c) (r := main_arg18) (by decide))
    (Eq.trans (W8_of_ne m ρ c main_arg18 (by decide))
    (Eq.trans ((hostOps3_writes (F := F)).keep (W6 m ρ c) (r := main_arg18) (by decide))
    (Eq.trans (W6_of_ne m ρ c main_arg18 (by decide))
    (Eq.trans ((hostOps2_writes (F := F)).keep (W4 m ρ c) (r := main_arg18) (by decide))
    (Eq.trans (W4_of_ne m ρ c main_arg18 (by decide))
    (Eq.trans ((hostOps1_writes (F := F)).keep (W2 m ρ c) (r := main_arg18) (by decide))
    (Eq.trans (W2_of_ne m ρ c main_arg18 (by decide))
    (Eq.trans ((hostOps0_writes (F := F)).keep (W0 m ρ c) (r := main_arg18) (by decide))
    (rfl)))))))))))))))))

/-- `arg19`, made at boundary 0, is unchanged where it is read at boundary 17. -/
theorem carry_arg19_0_17 (c : Dev nD) : W17 m ρ c (Proc.devRef .tc main_arg19) = m ((c : Thread nD τ).loc main_arg19) :=
  Eq.trans ((hostOps8_writes (F := F)).keep (W16 m ρ c) (r := main_arg19) (by decide))
    (Eq.trans (W16_of_ne m ρ c main_arg19 (by decide))
    (Eq.trans ((hostOps7_writes (F := F)).keep (W14 m ρ c) (r := main_arg19) (by decide))
    (Eq.trans (W14_of_ne m ρ c main_arg19 (by decide))
    (Eq.trans ((hostOps6_writes (F := F)).keep (W12 m ρ c) (r := main_arg19) (by decide))
    (Eq.trans (W12_of_ne m ρ c main_arg19 (by decide))
    (Eq.trans ((hostOps5_writes (F := F)).keep (W10 m ρ c) (r := main_arg19) (by decide))
    (Eq.trans (W10_of_ne m ρ c main_arg19 (by decide))
    (Eq.trans ((hostOps4_writes (F := F)).keep (W8 m ρ c) (r := main_arg19) (by decide))
    (Eq.trans (W8_of_ne m ρ c main_arg19 (by decide))
    (Eq.trans ((hostOps3_writes (F := F)).keep (W6 m ρ c) (r := main_arg19) (by decide))
    (Eq.trans (W6_of_ne m ρ c main_arg19 (by decide))
    (Eq.trans ((hostOps2_writes (F := F)).keep (W4 m ρ c) (r := main_arg19) (by decide))
    (Eq.trans (W4_of_ne m ρ c main_arg19 (by decide))
    (Eq.trans ((hostOps1_writes (F := F)).keep (W2 m ρ c) (r := main_arg19) (by decide))
    (Eq.trans (W2_of_ne m ρ c main_arg19 (by decide))
    (Eq.trans ((hostOps0_writes (F := F)).keep (W0 m ρ c) (r := main_arg19) (by decide))
    (rfl)))))))))))))))))

/-- `arg20`, made at boundary 0, is unchanged where it is read at boundary 17. -/
theorem carry_arg20_0_17 (c : Dev nD) : W17 m ρ c (Proc.devRef .tc main_arg20) = m ((c : Thread nD τ).loc main_arg20) :=
  Eq.trans ((hostOps8_writes (F := F)).keep (W16 m ρ c) (r := main_arg20) (by decide))
    (Eq.trans (W16_of_ne m ρ c main_arg20 (by decide))
    (Eq.trans ((hostOps7_writes (F := F)).keep (W14 m ρ c) (r := main_arg20) (by decide))
    (Eq.trans (W14_of_ne m ρ c main_arg20 (by decide))
    (Eq.trans ((hostOps6_writes (F := F)).keep (W12 m ρ c) (r := main_arg20) (by decide))
    (Eq.trans (W12_of_ne m ρ c main_arg20 (by decide))
    (Eq.trans ((hostOps5_writes (F := F)).keep (W10 m ρ c) (r := main_arg20) (by decide))
    (Eq.trans (W10_of_ne m ρ c main_arg20 (by decide))
    (Eq.trans ((hostOps4_writes (F := F)).keep (W8 m ρ c) (r := main_arg20) (by decide))
    (Eq.trans (W8_of_ne m ρ c main_arg20 (by decide))
    (Eq.trans ((hostOps3_writes (F := F)).keep (W6 m ρ c) (r := main_arg20) (by decide))
    (Eq.trans (W6_of_ne m ρ c main_arg20 (by decide))
    (Eq.trans ((hostOps2_writes (F := F)).keep (W4 m ρ c) (r := main_arg20) (by decide))
    (Eq.trans (W4_of_ne m ρ c main_arg20 (by decide))
    (Eq.trans ((hostOps1_writes (F := F)).keep (W2 m ρ c) (r := main_arg20) (by decide))
    (Eq.trans (W2_of_ne m ρ c main_arg20 (by decide))
    (Eq.trans ((hostOps0_writes (F := F)).keep (W0 m ρ c) (r := main_arg20) (by decide))
    (rfl)))))))))))))))))

/-- `arg21`, made at boundary 0, is unchanged where it is read at boundary 17. -/
theorem carry_arg21_0_17 (c : Dev nD) : W17 m ρ c (Proc.devRef .tc main_arg21) = m ((c : Thread nD τ).loc main_arg21) :=
  Eq.trans ((hostOps8_writes (F := F)).keep (W16 m ρ c) (r := main_arg21) (by decide))
    (Eq.trans (W16_of_ne m ρ c main_arg21 (by decide))
    (Eq.trans ((hostOps7_writes (F := F)).keep (W14 m ρ c) (r := main_arg21) (by decide))
    (Eq.trans (W14_of_ne m ρ c main_arg21 (by decide))
    (Eq.trans ((hostOps6_writes (F := F)).keep (W12 m ρ c) (r := main_arg21) (by decide))
    (Eq.trans (W12_of_ne m ρ c main_arg21 (by decide))
    (Eq.trans ((hostOps5_writes (F := F)).keep (W10 m ρ c) (r := main_arg21) (by decide))
    (Eq.trans (W10_of_ne m ρ c main_arg21 (by decide))
    (Eq.trans ((hostOps4_writes (F := F)).keep (W8 m ρ c) (r := main_arg21) (by decide))
    (Eq.trans (W8_of_ne m ρ c main_arg21 (by decide))
    (Eq.trans ((hostOps3_writes (F := F)).keep (W6 m ρ c) (r := main_arg21) (by decide))
    (Eq.trans (W6_of_ne m ρ c main_arg21 (by decide))
    (Eq.trans ((hostOps2_writes (F := F)).keep (W4 m ρ c) (r := main_arg21) (by decide))
    (Eq.trans (W4_of_ne m ρ c main_arg21 (by decide))
    (Eq.trans ((hostOps1_writes (F := F)).keep (W2 m ρ c) (r := main_arg21) (by decide))
    (Eq.trans (W2_of_ne m ρ c main_arg21 (by decide))
    (Eq.trans ((hostOps0_writes (F := F)).keep (W0 m ρ c) (r := main_arg21) (by decide))
    (rfl)))))))))))))))))

/-- `arg22`, made at boundary 0, is unchanged where it is read at boundary 17. -/
theorem carry_arg22_0_17 (c : Dev nD) : W17 m ρ c (Proc.devRef .tc main_arg22) = m ((c : Thread nD τ).loc main_arg22) :=
  Eq.trans ((hostOps8_writes (F := F)).keep (W16 m ρ c) (r := main_arg22) (by decide))
    (Eq.trans (W16_of_ne m ρ c main_arg22 (by decide))
    (Eq.trans ((hostOps7_writes (F := F)).keep (W14 m ρ c) (r := main_arg22) (by decide))
    (Eq.trans (W14_of_ne m ρ c main_arg22 (by decide))
    (Eq.trans ((hostOps6_writes (F := F)).keep (W12 m ρ c) (r := main_arg22) (by decide))
    (Eq.trans (W12_of_ne m ρ c main_arg22 (by decide))
    (Eq.trans ((hostOps5_writes (F := F)).keep (W10 m ρ c) (r := main_arg22) (by decide))
    (Eq.trans (W10_of_ne m ρ c main_arg22 (by decide))
    (Eq.trans ((hostOps4_writes (F := F)).keep (W8 m ρ c) (r := main_arg22) (by decide))
    (Eq.trans (W8_of_ne m ρ c main_arg22 (by decide))
    (Eq.trans ((hostOps3_writes (F := F)).keep (W6 m ρ c) (r := main_arg22) (by decide))
    (Eq.trans (W6_of_ne m ρ c main_arg22 (by decide))
    (Eq.trans ((hostOps2_writes (F := F)).keep (W4 m ρ c) (r := main_arg22) (by decide))
    (Eq.trans (W4_of_ne m ρ c main_arg22 (by decide))
    (Eq.trans ((hostOps1_writes (F := F)).keep (W2 m ρ c) (r := main_arg22) (by decide))
    (Eq.trans (W2_of_ne m ρ c main_arg22 (by decide))
    (Eq.trans ((hostOps0_writes (F := F)).keep (W0 m ρ c) (r := main_arg22) (by decide))
    (rfl)))))))))))))))))

/-- `arg23`, made at boundary 0, is unchanged where it is read at boundary 17. -/
theorem carry_arg23_0_17 (c : Dev nD) : W17 m ρ c (Proc.devRef .tc main_arg23) = m ((c : Thread nD τ).loc main_arg23) :=
  Eq.trans ((hostOps8_writes (F := F)).keep (W16 m ρ c) (r := main_arg23) (by decide))
    (Eq.trans (W16_of_ne m ρ c main_arg23 (by decide))
    (Eq.trans ((hostOps7_writes (F := F)).keep (W14 m ρ c) (r := main_arg23) (by decide))
    (Eq.trans (W14_of_ne m ρ c main_arg23 (by decide))
    (Eq.trans ((hostOps6_writes (F := F)).keep (W12 m ρ c) (r := main_arg23) (by decide))
    (Eq.trans (W12_of_ne m ρ c main_arg23 (by decide))
    (Eq.trans ((hostOps5_writes (F := F)).keep (W10 m ρ c) (r := main_arg23) (by decide))
    (Eq.trans (W10_of_ne m ρ c main_arg23 (by decide))
    (Eq.trans ((hostOps4_writes (F := F)).keep (W8 m ρ c) (r := main_arg23) (by decide))
    (Eq.trans (W8_of_ne m ρ c main_arg23 (by decide))
    (Eq.trans ((hostOps3_writes (F := F)).keep (W6 m ρ c) (r := main_arg23) (by decide))
    (Eq.trans (W6_of_ne m ρ c main_arg23 (by decide))
    (Eq.trans ((hostOps2_writes (F := F)).keep (W4 m ρ c) (r := main_arg23) (by decide))
    (Eq.trans (W4_of_ne m ρ c main_arg23 (by decide))
    (Eq.trans ((hostOps1_writes (F := F)).keep (W2 m ρ c) (r := main_arg23) (by decide))
    (Eq.trans (W2_of_ne m ρ c main_arg23 (by decide))
    (Eq.trans ((hostOps0_writes (F := F)).keep (W0 m ρ c) (r := main_arg23) (by decide))
    (rfl)))))))))))))))))

/-- `arg24`, made at boundary 0, is unchanged where it is read at boundary 17. -/
theorem carry_arg24_0_17 (c : Dev nD) : W17 m ρ c (Proc.devRef .tc main_arg24) = m ((c : Thread nD τ).loc main_arg24) :=
  Eq.trans ((hostOps8_writes (F := F)).keep (W16 m ρ c) (r := main_arg24) (by decide))
    (Eq.trans (W16_of_ne m ρ c main_arg24 (by decide))
    (Eq.trans ((hostOps7_writes (F := F)).keep (W14 m ρ c) (r := main_arg24) (by decide))
    (Eq.trans (W14_of_ne m ρ c main_arg24 (by decide))
    (Eq.trans ((hostOps6_writes (F := F)).keep (W12 m ρ c) (r := main_arg24) (by decide))
    (Eq.trans (W12_of_ne m ρ c main_arg24 (by decide))
    (Eq.trans ((hostOps5_writes (F := F)).keep (W10 m ρ c) (r := main_arg24) (by decide))
    (Eq.trans (W10_of_ne m ρ c main_arg24 (by decide))
    (Eq.trans ((hostOps4_writes (F := F)).keep (W8 m ρ c) (r := main_arg24) (by decide))
    (Eq.trans (W8_of_ne m ρ c main_arg24 (by decide))
    (Eq.trans ((hostOps3_writes (F := F)).keep (W6 m ρ c) (r := main_arg24) (by decide))
    (Eq.trans (W6_of_ne m ρ c main_arg24 (by decide))
    (Eq.trans ((hostOps2_writes (F := F)).keep (W4 m ρ c) (r := main_arg24) (by decide))
    (Eq.trans (W4_of_ne m ρ c main_arg24 (by decide))
    (Eq.trans ((hostOps1_writes (F := F)).keep (W2 m ρ c) (r := main_arg24) (by decide))
    (Eq.trans (W2_of_ne m ρ c main_arg24 (by decide))
    (Eq.trans ((hostOps0_writes (F := F)).keep (W0 m ρ c) (r := main_arg24) (by decide))
    (rfl)))))))))))))))))

/-- `arg25`, made at boundary 0, is unchanged where it is read at boundary 17. -/
theorem carry_arg25_0_17 (c : Dev nD) : W17 m ρ c (Proc.devRef .tc main_arg25) = m ((c : Thread nD τ).loc main_arg25) :=
  Eq.trans ((hostOps8_writes (F := F)).keep (W16 m ρ c) (r := main_arg25) (by decide))
    (Eq.trans (W16_of_ne m ρ c main_arg25 (by decide))
    (Eq.trans ((hostOps7_writes (F := F)).keep (W14 m ρ c) (r := main_arg25) (by decide))
    (Eq.trans (W14_of_ne m ρ c main_arg25 (by decide))
    (Eq.trans ((hostOps6_writes (F := F)).keep (W12 m ρ c) (r := main_arg25) (by decide))
    (Eq.trans (W12_of_ne m ρ c main_arg25 (by decide))
    (Eq.trans ((hostOps5_writes (F := F)).keep (W10 m ρ c) (r := main_arg25) (by decide))
    (Eq.trans (W10_of_ne m ρ c main_arg25 (by decide))
    (Eq.trans ((hostOps4_writes (F := F)).keep (W8 m ρ c) (r := main_arg25) (by decide))
    (Eq.trans (W8_of_ne m ρ c main_arg25 (by decide))
    (Eq.trans ((hostOps3_writes (F := F)).keep (W6 m ρ c) (r := main_arg25) (by decide))
    (Eq.trans (W6_of_ne m ρ c main_arg25 (by decide))
    (Eq.trans ((hostOps2_writes (F := F)).keep (W4 m ρ c) (r := main_arg25) (by decide))
    (Eq.trans (W4_of_ne m ρ c main_arg25 (by decide))
    (Eq.trans ((hostOps1_writes (F := F)).keep (W2 m ρ c) (r := main_arg25) (by decide))
    (Eq.trans (W2_of_ne m ρ c main_arg25 (by decide))
    (Eq.trans ((hostOps0_writes (F := F)).keep (W0 m ρ c) (r := main_arg25) (by decide))
    (rfl)))))))))))))))))

/-- `arg26`, made at boundary 0, is unchanged where it is read at boundary 17. -/
theorem carry_arg26_0_17 (c : Dev nD) : W17 m ρ c (Proc.devRef .tc main_arg26) = m ((c : Thread nD τ).loc main_arg26) :=
  Eq.trans ((hostOps8_writes (F := F)).keep (W16 m ρ c) (r := main_arg26) (by decide))
    (Eq.trans (W16_of_ne m ρ c main_arg26 (by decide))
    (Eq.trans ((hostOps7_writes (F := F)).keep (W14 m ρ c) (r := main_arg26) (by decide))
    (Eq.trans (W14_of_ne m ρ c main_arg26 (by decide))
    (Eq.trans ((hostOps6_writes (F := F)).keep (W12 m ρ c) (r := main_arg26) (by decide))
    (Eq.trans (W12_of_ne m ρ c main_arg26 (by decide))
    (Eq.trans ((hostOps5_writes (F := F)).keep (W10 m ρ c) (r := main_arg26) (by decide))
    (Eq.trans (W10_of_ne m ρ c main_arg26 (by decide))
    (Eq.trans ((hostOps4_writes (F := F)).keep (W8 m ρ c) (r := main_arg26) (by decide))
    (Eq.trans (W8_of_ne m ρ c main_arg26 (by decide))
    (Eq.trans ((hostOps3_writes (F := F)).keep (W6 m ρ c) (r := main_arg26) (by decide))
    (Eq.trans (W6_of_ne m ρ c main_arg26 (by decide))
    (Eq.trans ((hostOps2_writes (F := F)).keep (W4 m ρ c) (r := main_arg26) (by decide))
    (Eq.trans (W4_of_ne m ρ c main_arg26 (by decide))
    (Eq.trans ((hostOps1_writes (F := F)).keep (W2 m ρ c) (r := main_arg26) (by decide))
    (Eq.trans (W2_of_ne m ρ c main_arg26 (by decide))
    (Eq.trans ((hostOps0_writes (F := F)).keep (W0 m ρ c) (r := main_arg26) (by decide))
    (rfl)))))))))))))))))

/-- `arg27`, made at boundary 0, is unchanged where it is read at boundary 17. -/
theorem carry_arg27_0_17 (c : Dev nD) : W17 m ρ c (Proc.devRef .tc main_arg27) = m ((c : Thread nD τ).loc main_arg27) :=
  Eq.trans ((hostOps8_writes (F := F)).keep (W16 m ρ c) (r := main_arg27) (by decide))
    (Eq.trans (W16_of_ne m ρ c main_arg27 (by decide))
    (Eq.trans ((hostOps7_writes (F := F)).keep (W14 m ρ c) (r := main_arg27) (by decide))
    (Eq.trans (W14_of_ne m ρ c main_arg27 (by decide))
    (Eq.trans ((hostOps6_writes (F := F)).keep (W12 m ρ c) (r := main_arg27) (by decide))
    (Eq.trans (W12_of_ne m ρ c main_arg27 (by decide))
    (Eq.trans ((hostOps5_writes (F := F)).keep (W10 m ρ c) (r := main_arg27) (by decide))
    (Eq.trans (W10_of_ne m ρ c main_arg27 (by decide))
    (Eq.trans ((hostOps4_writes (F := F)).keep (W8 m ρ c) (r := main_arg27) (by decide))
    (Eq.trans (W8_of_ne m ρ c main_arg27 (by decide))
    (Eq.trans ((hostOps3_writes (F := F)).keep (W6 m ρ c) (r := main_arg27) (by decide))
    (Eq.trans (W6_of_ne m ρ c main_arg27 (by decide))
    (Eq.trans ((hostOps2_writes (F := F)).keep (W4 m ρ c) (r := main_arg27) (by decide))
    (Eq.trans (W4_of_ne m ρ c main_arg27 (by decide))
    (Eq.trans ((hostOps1_writes (F := F)).keep (W2 m ρ c) (r := main_arg27) (by decide))
    (Eq.trans (W2_of_ne m ρ c main_arg27 (by decide))
    (Eq.trans ((hostOps0_writes (F := F)).keep (W0 m ρ c) (r := main_arg27) (by decide))
    (rfl)))))))))))))))))

/-- `v5`, made at boundary 1, is unchanged where it is read at boundary 17. -/
theorem carry_v5_1_17 (c : Dev nD) : W17 m ρ c (Proc.devRef .tc main_v5) = W1 m ρ c (Proc.devRef .tc main_v5) :=
  Eq.trans ((hostOps8_writes (F := F)).keep (W16 m ρ c) (r := main_v5) (by decide))
    (Eq.trans (W16_of_ne m ρ c main_v5 (by decide))
    (Eq.trans ((hostOps7_writes (F := F)).keep (W14 m ρ c) (r := main_v5) (by decide))
    (Eq.trans (W14_of_ne m ρ c main_v5 (by decide))
    (Eq.trans ((hostOps6_writes (F := F)).keep (W12 m ρ c) (r := main_v5) (by decide))
    (Eq.trans (W12_of_ne m ρ c main_v5 (by decide))
    (Eq.trans ((hostOps5_writes (F := F)).keep (W10 m ρ c) (r := main_v5) (by decide))
    (Eq.trans (W10_of_ne m ρ c main_v5 (by decide))
    (Eq.trans ((hostOps4_writes (F := F)).keep (W8 m ρ c) (r := main_v5) (by decide))
    (Eq.trans (W8_of_ne m ρ c main_v5 (by decide))
    (Eq.trans ((hostOps3_writes (F := F)).keep (W6 m ρ c) (r := main_v5) (by decide))
    (Eq.trans (W6_of_ne m ρ c main_v5 (by decide))
    (Eq.trans ((hostOps2_writes (F := F)).keep (W4 m ρ c) (r := main_v5) (by decide))
    (Eq.trans (W4_of_ne m ρ c main_v5 (by decide))
    (Eq.trans ((hostOps1_writes (F := F)).keep (W2 m ρ c) (r := main_v5) (by decide))
    (Eq.trans (W2_of_ne m ρ c main_v5 (by decide))
    (rfl))))))))))))))))

/-- `v11`, made at boundary 1, is unchanged where it is read at boundary 17. -/
theorem carry_v11_1_17 (c : Dev nD) : W17 m ρ c (Proc.devRef .tc main_v11) = W1 m ρ c (Proc.devRef .tc main_v11) :=
  Eq.trans ((hostOps8_writes (F := F)).keep (W16 m ρ c) (r := main_v11) (by decide))
    (Eq.trans (W16_of_ne m ρ c main_v11 (by decide))
    (Eq.trans ((hostOps7_writes (F := F)).keep (W14 m ρ c) (r := main_v11) (by decide))
    (Eq.trans (W14_of_ne m ρ c main_v11 (by decide))
    (Eq.trans ((hostOps6_writes (F := F)).keep (W12 m ρ c) (r := main_v11) (by decide))
    (Eq.trans (W12_of_ne m ρ c main_v11 (by decide))
    (Eq.trans ((hostOps5_writes (F := F)).keep (W10 m ρ c) (r := main_v11) (by decide))
    (Eq.trans (W10_of_ne m ρ c main_v11 (by decide))
    (Eq.trans ((hostOps4_writes (F := F)).keep (W8 m ρ c) (r := main_v11) (by decide))
    (Eq.trans (W8_of_ne m ρ c main_v11 (by decide))
    (Eq.trans ((hostOps3_writes (F := F)).keep (W6 m ρ c) (r := main_v11) (by decide))
    (Eq.trans (W6_of_ne m ρ c main_v11 (by decide))
    (Eq.trans ((hostOps2_writes (F := F)).keep (W4 m ρ c) (r := main_v11) (by decide))
    (Eq.trans (W4_of_ne m ρ c main_v11 (by decide))
    (Eq.trans ((hostOps1_writes (F := F)).keep (W2 m ρ c) (r := main_v11) (by decide))
    (Eq.trans (W2_of_ne m ρ c main_v11 (by decide))
    (rfl))))))))))))))))

/-- `v17`, made at boundary 1, is unchanged where it is read at boundary 17. -/
theorem carry_v17_1_17 (c : Dev nD) : W17 m ρ c (Proc.devRef .tc main_v17) = W1 m ρ c (Proc.devRef .tc main_v17) :=
  Eq.trans ((hostOps8_writes (F := F)).keep (W16 m ρ c) (r := main_v17) (by decide))
    (Eq.trans (W16_of_ne m ρ c main_v17 (by decide))
    (Eq.trans ((hostOps7_writes (F := F)).keep (W14 m ρ c) (r := main_v17) (by decide))
    (Eq.trans (W14_of_ne m ρ c main_v17 (by decide))
    (Eq.trans ((hostOps6_writes (F := F)).keep (W12 m ρ c) (r := main_v17) (by decide))
    (Eq.trans (W12_of_ne m ρ c main_v17 (by decide))
    (Eq.trans ((hostOps5_writes (F := F)).keep (W10 m ρ c) (r := main_v17) (by decide))
    (Eq.trans (W10_of_ne m ρ c main_v17 (by decide))
    (Eq.trans ((hostOps4_writes (F := F)).keep (W8 m ρ c) (r := main_v17) (by decide))
    (Eq.trans (W8_of_ne m ρ c main_v17 (by decide))
    (Eq.trans ((hostOps3_writes (F := F)).keep (W6 m ρ c) (r := main_v17) (by decide))
    (Eq.trans (W6_of_ne m ρ c main_v17 (by decide))
    (Eq.trans ((hostOps2_writes (F := F)).keep (W4 m ρ c) (r := main_v17) (by decide))
    (Eq.trans (W4_of_ne m ρ c main_v17 (by decide))
    (Eq.trans ((hostOps1_writes (F := F)).keep (W2 m ρ c) (r := main_v17) (by decide))
    (Eq.trans (W2_of_ne m ρ c main_v17 (by decide))
    (rfl))))))))))))))))

/-- `v23`, made at boundary 1, is unchanged where it is read at boundary 17. -/
theorem carry_v23_1_17 (c : Dev nD) : W17 m ρ c (Proc.devRef .tc main_v23) = W1 m ρ c (Proc.devRef .tc main_v23) :=
  Eq.trans ((hostOps8_writes (F := F)).keep (W16 m ρ c) (r := main_v23) (by decide))
    (Eq.trans (W16_of_ne m ρ c main_v23 (by decide))
    (Eq.trans ((hostOps7_writes (F := F)).keep (W14 m ρ c) (r := main_v23) (by decide))
    (Eq.trans (W14_of_ne m ρ c main_v23 (by decide))
    (Eq.trans ((hostOps6_writes (F := F)).keep (W12 m ρ c) (r := main_v23) (by decide))
    (Eq.trans (W12_of_ne m ρ c main_v23 (by decide))
    (Eq.trans ((hostOps5_writes (F := F)).keep (W10 m ρ c) (r := main_v23) (by decide))
    (Eq.trans (W10_of_ne m ρ c main_v23 (by decide))
    (Eq.trans ((hostOps4_writes (F := F)).keep (W8 m ρ c) (r := main_v23) (by decide))
    (Eq.trans (W8_of_ne m ρ c main_v23 (by decide))
    (Eq.trans ((hostOps3_writes (F := F)).keep (W6 m ρ c) (r := main_v23) (by decide))
    (Eq.trans (W6_of_ne m ρ c main_v23 (by decide))
    (Eq.trans ((hostOps2_writes (F := F)).keep (W4 m ρ c) (r := main_v23) (by decide))
    (Eq.trans (W4_of_ne m ρ c main_v23 (by decide))
    (Eq.trans ((hostOps1_writes (F := F)).keep (W2 m ρ c) (r := main_v23) (by decide))
    (Eq.trans (W2_of_ne m ρ c main_v23 (by decide))
    (rfl))))))))))))))))

/-- `v29`, made at boundary 1, is unchanged where it is read at boundary 17. -/
theorem carry_v29_1_17 (c : Dev nD) : W17 m ρ c (Proc.devRef .tc main_v29) = W1 m ρ c (Proc.devRef .tc main_v29) :=
  Eq.trans ((hostOps8_writes (F := F)).keep (W16 m ρ c) (r := main_v29) (by decide))
    (Eq.trans (W16_of_ne m ρ c main_v29 (by decide))
    (Eq.trans ((hostOps7_writes (F := F)).keep (W14 m ρ c) (r := main_v29) (by decide))
    (Eq.trans (W14_of_ne m ρ c main_v29 (by decide))
    (Eq.trans ((hostOps6_writes (F := F)).keep (W12 m ρ c) (r := main_v29) (by decide))
    (Eq.trans (W12_of_ne m ρ c main_v29 (by decide))
    (Eq.trans ((hostOps5_writes (F := F)).keep (W10 m ρ c) (r := main_v29) (by decide))
    (Eq.trans (W10_of_ne m ρ c main_v29 (by decide))
    (Eq.trans ((hostOps4_writes (F := F)).keep (W8 m ρ c) (r := main_v29) (by decide))
    (Eq.trans (W8_of_ne m ρ c main_v29 (by decide))
    (Eq.trans ((hostOps3_writes (F := F)).keep (W6 m ρ c) (r := main_v29) (by decide))
    (Eq.trans (W6_of_ne m ρ c main_v29 (by decide))
    (Eq.trans ((hostOps2_writes (F := F)).keep (W4 m ρ c) (r := main_v29) (by decide))
    (Eq.trans (W4_of_ne m ρ c main_v29 (by decide))
    (Eq.trans ((hostOps1_writes (F := F)).keep (W2 m ρ c) (r := main_v29) (by decide))
    (Eq.trans (W2_of_ne m ρ c main_v29 (by decide))
    (rfl))))))))))))))))

/-- `v35`, made at boundary 1, is unchanged where it is read at boundary 17. -/
theorem carry_v35_1_17 (c : Dev nD) : W17 m ρ c (Proc.devRef .tc main_v35) = W1 m ρ c (Proc.devRef .tc main_v35) :=
  Eq.trans ((hostOps8_writes (F := F)).keep (W16 m ρ c) (r := main_v35) (by decide))
    (Eq.trans (W16_of_ne m ρ c main_v35 (by decide))
    (Eq.trans ((hostOps7_writes (F := F)).keep (W14 m ρ c) (r := main_v35) (by decide))
    (Eq.trans (W14_of_ne m ρ c main_v35 (by decide))
    (Eq.trans ((hostOps6_writes (F := F)).keep (W12 m ρ c) (r := main_v35) (by decide))
    (Eq.trans (W12_of_ne m ρ c main_v35 (by decide))
    (Eq.trans ((hostOps5_writes (F := F)).keep (W10 m ρ c) (r := main_v35) (by decide))
    (Eq.trans (W10_of_ne m ρ c main_v35 (by decide))
    (Eq.trans ((hostOps4_writes (F := F)).keep (W8 m ρ c) (r := main_v35) (by decide))
    (Eq.trans (W8_of_ne m ρ c main_v35 (by decide))
    (Eq.trans ((hostOps3_writes (F := F)).keep (W6 m ρ c) (r := main_v35) (by decide))
    (Eq.trans (W6_of_ne m ρ c main_v35 (by decide))
    (Eq.trans ((hostOps2_writes (F := F)).keep (W4 m ρ c) (r := main_v35) (by decide))
    (Eq.trans (W4_of_ne m ρ c main_v35 (by decide))
    (Eq.trans ((hostOps1_writes (F := F)).keep (W2 m ρ c) (r := main_v35) (by decide))
    (Eq.trans (W2_of_ne m ρ c main_v35 (by decide))
    (rfl))))))))))))))))

/-- `v41`, made at boundary 1, is unchanged where it is read at boundary 17. -/
theorem carry_v41_1_17 (c : Dev nD) : W17 m ρ c (Proc.devRef .tc main_v41) = W1 m ρ c (Proc.devRef .tc main_v41) :=
  Eq.trans ((hostOps8_writes (F := F)).keep (W16 m ρ c) (r := main_v41) (by decide))
    (Eq.trans (W16_of_ne m ρ c main_v41 (by decide))
    (Eq.trans ((hostOps7_writes (F := F)).keep (W14 m ρ c) (r := main_v41) (by decide))
    (Eq.trans (W14_of_ne m ρ c main_v41 (by decide))
    (Eq.trans ((hostOps6_writes (F := F)).keep (W12 m ρ c) (r := main_v41) (by decide))
    (Eq.trans (W12_of_ne m ρ c main_v41 (by decide))
    (Eq.trans ((hostOps5_writes (F := F)).keep (W10 m ρ c) (r := main_v41) (by decide))
    (Eq.trans (W10_of_ne m ρ c main_v41 (by decide))
    (Eq.trans ((hostOps4_writes (F := F)).keep (W8 m ρ c) (r := main_v41) (by decide))
    (Eq.trans (W8_of_ne m ρ c main_v41 (by decide))
    (Eq.trans ((hostOps3_writes (F := F)).keep (W6 m ρ c) (r := main_v41) (by decide))
    (Eq.trans (W6_of_ne m ρ c main_v41 (by decide))
    (Eq.trans ((hostOps2_writes (F := F)).keep (W4 m ρ c) (r := main_v41) (by decide))
    (Eq.trans (W4_of_ne m ρ c main_v41 (by decide))
    (Eq.trans ((hostOps1_writes (F := F)).keep (W2 m ρ c) (r := main_v41) (by decide))
    (Eq.trans (W2_of_ne m ρ c main_v41 (by decide))
    (rfl))))))))))))))))

/-- `v181`, made at boundary 10, is unchanged where it is read at boundary 17. -/
theorem carry_v181_10_17 (c : Dev nD) : W17 m ρ c (Proc.devRef .tc main_v181) = W10 m ρ c (Proc.devRef .tc main_v181) :=
  Eq.trans ((hostOps8_writes (F := F)).keep (W16 m ρ c) (r := main_v181) (by decide))
    (Eq.trans (W16_of_ne m ρ c main_v181 (by decide))
    (Eq.trans ((hostOps7_writes (F := F)).keep (W14 m ρ c) (r := main_v181) (by decide))
    (Eq.trans (W14_of_ne m ρ c main_v181 (by decide))
    (Eq.trans ((hostOps6_writes (F := F)).keep (W12 m ρ c) (r := main_v181) (by decide))
    (Eq.trans (W12_of_ne m ρ c main_v181 (by decide))
    (Eq.trans ((hostOps5_writes (F := F)).keep (W10 m ρ c) (r := main_v181) (by decide))
    (rfl)))))))

/-- `v184`, made at boundary 12, is unchanged where it is read at boundary 17. -/
theorem carry_v184_12_17 (c : Dev nD) : W17 m ρ c (Proc.devRef .tc main_v184) = W12 m ρ c (Proc.devRef .tc main_v184) :=
  Eq.trans ((hostOps8_writes (F := F)).keep (W16 m ρ c) (r := main_v184) (by decide))
    (Eq.trans (W16_of_ne m ρ c main_v184 (by decide))
    (Eq.trans ((hostOps7_writes (F := F)).keep (W14 m ρ c) (r := main_v184) (by decide))
    (Eq.trans (W14_of_ne m ρ c main_v184 (by decide))
    (Eq.trans ((hostOps6_writes (F := F)).keep (W12 m ρ c) (r := main_v184) (by decide))
    (rfl)))))

/-- `v187`, made at boundary 14, is unchanged where it is read at boundary 17. -/
theorem carry_v187_14_17 (c : Dev nD) : W17 m ρ c (Proc.devRef .tc main_v187) = W14 m ρ c (Proc.devRef .tc main_v187) :=
  Eq.trans ((hostOps8_writes (F := F)).keep (W16 m ρ c) (r := main_v187) (by decide))
    (Eq.trans (W16_of_ne m ρ c main_v187 (by decide))
    (Eq.trans ((hostOps7_writes (F := F)).keep (W14 m ρ c) (r := main_v187) (by decide))
    (rfl)))

/-- `v190`, made at boundary 16, is unchanged where it is read at boundary 17. -/
theorem carry_v190_16_17 (c : Dev nD) : W17 m ρ c (Proc.devRef .tc main_v190) = W16 m ρ c (Proc.devRef .tc main_v190) :=
  Eq.trans ((hostOps8_writes (F := F)).keep (W16 m ρ c) (r := main_v190) (by decide))
    (rfl)

/-- `arg7`, made at boundary 0, is unchanged where it is read at boundary 19. -/
theorem carry_arg7_0_19 (c : Dev nD) : W19 m ρ c (Proc.devRef .tc main_arg7) = m ((c : Thread nD τ).loc main_arg7) :=
  Eq.trans ((hostOps9_writes (F := F)).keep (W18 m ρ c) (r := main_arg7) (by decide))
    (Eq.trans (W18_of_ne m ρ c main_arg7 (by decide))
    (Eq.trans ((hostOps8_writes (F := F)).keep (W16 m ρ c) (r := main_arg7) (by decide))
    (Eq.trans (W16_of_ne m ρ c main_arg7 (by decide))
    (Eq.trans ((hostOps7_writes (F := F)).keep (W14 m ρ c) (r := main_arg7) (by decide))
    (Eq.trans (W14_of_ne m ρ c main_arg7 (by decide))
    (Eq.trans ((hostOps6_writes (F := F)).keep (W12 m ρ c) (r := main_arg7) (by decide))
    (Eq.trans (W12_of_ne m ρ c main_arg7 (by decide))
    (Eq.trans ((hostOps5_writes (F := F)).keep (W10 m ρ c) (r := main_arg7) (by decide))
    (Eq.trans (W10_of_ne m ρ c main_arg7 (by decide))
    (Eq.trans ((hostOps4_writes (F := F)).keep (W8 m ρ c) (r := main_arg7) (by decide))
    (Eq.trans (W8_of_ne m ρ c main_arg7 (by decide))
    (Eq.trans ((hostOps3_writes (F := F)).keep (W6 m ρ c) (r := main_arg7) (by decide))
    (Eq.trans (W6_of_ne m ρ c main_arg7 (by decide))
    (Eq.trans ((hostOps2_writes (F := F)).keep (W4 m ρ c) (r := main_arg7) (by decide))
    (Eq.trans (W4_of_ne m ρ c main_arg7 (by decide))
    (Eq.trans ((hostOps1_writes (F := F)).keep (W2 m ρ c) (r := main_arg7) (by decide))
    (Eq.trans (W2_of_ne m ρ c main_arg7 (by decide))
    (Eq.trans ((hostOps0_writes (F := F)).keep (W0 m ρ c) (r := main_arg7) (by decide))
    (rfl)))))))))))))))))))

/-- `arg8`, made at boundary 0, is unchanged where it is read at boundary 19. -/
theorem carry_arg8_0_19 (c : Dev nD) : W19 m ρ c (Proc.devRef .tc main_arg8) = m ((c : Thread nD τ).loc main_arg8) :=
  Eq.trans ((hostOps9_writes (F := F)).keep (W18 m ρ c) (r := main_arg8) (by decide))
    (Eq.trans (W18_of_ne m ρ c main_arg8 (by decide))
    (Eq.trans ((hostOps8_writes (F := F)).keep (W16 m ρ c) (r := main_arg8) (by decide))
    (Eq.trans (W16_of_ne m ρ c main_arg8 (by decide))
    (Eq.trans ((hostOps7_writes (F := F)).keep (W14 m ρ c) (r := main_arg8) (by decide))
    (Eq.trans (W14_of_ne m ρ c main_arg8 (by decide))
    (Eq.trans ((hostOps6_writes (F := F)).keep (W12 m ρ c) (r := main_arg8) (by decide))
    (Eq.trans (W12_of_ne m ρ c main_arg8 (by decide))
    (Eq.trans ((hostOps5_writes (F := F)).keep (W10 m ρ c) (r := main_arg8) (by decide))
    (Eq.trans (W10_of_ne m ρ c main_arg8 (by decide))
    (Eq.trans ((hostOps4_writes (F := F)).keep (W8 m ρ c) (r := main_arg8) (by decide))
    (Eq.trans (W8_of_ne m ρ c main_arg8 (by decide))
    (Eq.trans ((hostOps3_writes (F := F)).keep (W6 m ρ c) (r := main_arg8) (by decide))
    (Eq.trans (W6_of_ne m ρ c main_arg8 (by decide))
    (Eq.trans ((hostOps2_writes (F := F)).keep (W4 m ρ c) (r := main_arg8) (by decide))
    (Eq.trans (W4_of_ne m ρ c main_arg8 (by decide))
    (Eq.trans ((hostOps1_writes (F := F)).keep (W2 m ρ c) (r := main_arg8) (by decide))
    (Eq.trans (W2_of_ne m ρ c main_arg8 (by decide))
    (Eq.trans ((hostOps0_writes (F := F)).keep (W0 m ρ c) (r := main_arg8) (by decide))
    (rfl)))))))))))))))))))

/-- `arg9`, made at boundary 0, is unchanged where it is read at boundary 19. -/
theorem carry_arg9_0_19 (c : Dev nD) : W19 m ρ c (Proc.devRef .tc main_arg9) = m ((c : Thread nD τ).loc main_arg9) :=
  Eq.trans ((hostOps9_writes (F := F)).keep (W18 m ρ c) (r := main_arg9) (by decide))
    (Eq.trans (W18_of_ne m ρ c main_arg9 (by decide))
    (Eq.trans ((hostOps8_writes (F := F)).keep (W16 m ρ c) (r := main_arg9) (by decide))
    (Eq.trans (W16_of_ne m ρ c main_arg9 (by decide))
    (Eq.trans ((hostOps7_writes (F := F)).keep (W14 m ρ c) (r := main_arg9) (by decide))
    (Eq.trans (W14_of_ne m ρ c main_arg9 (by decide))
    (Eq.trans ((hostOps6_writes (F := F)).keep (W12 m ρ c) (r := main_arg9) (by decide))
    (Eq.trans (W12_of_ne m ρ c main_arg9 (by decide))
    (Eq.trans ((hostOps5_writes (F := F)).keep (W10 m ρ c) (r := main_arg9) (by decide))
    (Eq.trans (W10_of_ne m ρ c main_arg9 (by decide))
    (Eq.trans ((hostOps4_writes (F := F)).keep (W8 m ρ c) (r := main_arg9) (by decide))
    (Eq.trans (W8_of_ne m ρ c main_arg9 (by decide))
    (Eq.trans ((hostOps3_writes (F := F)).keep (W6 m ρ c) (r := main_arg9) (by decide))
    (Eq.trans (W6_of_ne m ρ c main_arg9 (by decide))
    (Eq.trans ((hostOps2_writes (F := F)).keep (W4 m ρ c) (r := main_arg9) (by decide))
    (Eq.trans (W4_of_ne m ρ c main_arg9 (by decide))
    (Eq.trans ((hostOps1_writes (F := F)).keep (W2 m ρ c) (r := main_arg9) (by decide))
    (Eq.trans (W2_of_ne m ρ c main_arg9 (by decide))
    (Eq.trans ((hostOps0_writes (F := F)).keep (W0 m ρ c) (r := main_arg9) (by decide))
    (rfl)))))))))))))))))))

/-- `v184`, made at boundary 12, is unchanged where it is read at boundary 19. -/
theorem carry_v184_12_19 (c : Dev nD) : W19 m ρ c (Proc.devRef .tc main_v184) = W12 m ρ c (Proc.devRef .tc main_v184) :=
  Eq.trans ((hostOps9_writes (F := F)).keep (W18 m ρ c) (r := main_v184) (by decide))
    (Eq.trans (W18_of_ne m ρ c main_v184 (by decide))
    (Eq.trans ((hostOps8_writes (F := F)).keep (W16 m ρ c) (r := main_v184) (by decide))
    (Eq.trans (W16_of_ne m ρ c main_v184 (by decide))
    (Eq.trans ((hostOps7_writes (F := F)).keep (W14 m ρ c) (r := main_v184) (by decide))
    (Eq.trans (W14_of_ne m ρ c main_v184 (by decide))
    (Eq.trans ((hostOps6_writes (F := F)).keep (W12 m ρ c) (r := main_v184) (by decide))
    (rfl)))))))

/-- `v214`, made at boundary 17, is unchanged where it is read at boundary 19. -/
theorem carry_v214_17_19 (c : Dev nD) : W19 m ρ c (Proc.devRef .tc main_v214) = W17 m ρ c (Proc.devRef .tc main_v214) :=
  Eq.trans ((hostOps9_writes (F := F)).keep (W18 m ρ c) (r := main_v214) (by decide))
    (Eq.trans (W18_of_ne m ρ c main_v214 (by decide))
    (rfl))

/-- `v274`, made at boundary 17, is unchanged where it is read at boundary 19. -/
theorem carry_v274_17_19 (c : Dev nD) : W19 m ρ c (Proc.devRef .tc main_v274) = W17 m ρ c (Proc.devRef .tc main_v274) :=
  Eq.trans ((hostOps9_writes (F := F)).keep (W18 m ρ c) (r := main_v274) (by decide))
    (Eq.trans (W18_of_ne m ρ c main_v274 (by decide))
    (rfl))

/-- `arg7`, made at boundary 0, is unchanged where it is read at boundary 21. -/
theorem carry_arg7_0_21 (c : Dev nD) : W21 m ρ c (Proc.devRef .tc main_arg7) = m ((c : Thread nD τ).loc main_arg7) :=
  Eq.trans ((hostOps10_writes (F := F)).keep (W20 m ρ c) (r := main_arg7) (by decide))
    (Eq.trans (W20_of_ne m ρ c main_arg7 (by decide))
    (Eq.trans ((hostOps9_writes (F := F)).keep (W18 m ρ c) (r := main_arg7) (by decide))
    (Eq.trans (W18_of_ne m ρ c main_arg7 (by decide))
    (Eq.trans ((hostOps8_writes (F := F)).keep (W16 m ρ c) (r := main_arg7) (by decide))
    (Eq.trans (W16_of_ne m ρ c main_arg7 (by decide))
    (Eq.trans ((hostOps7_writes (F := F)).keep (W14 m ρ c) (r := main_arg7) (by decide))
    (Eq.trans (W14_of_ne m ρ c main_arg7 (by decide))
    (Eq.trans ((hostOps6_writes (F := F)).keep (W12 m ρ c) (r := main_arg7) (by decide))
    (Eq.trans (W12_of_ne m ρ c main_arg7 (by decide))
    (Eq.trans ((hostOps5_writes (F := F)).keep (W10 m ρ c) (r := main_arg7) (by decide))
    (Eq.trans (W10_of_ne m ρ c main_arg7 (by decide))
    (Eq.trans ((hostOps4_writes (F := F)).keep (W8 m ρ c) (r := main_arg7) (by decide))
    (Eq.trans (W8_of_ne m ρ c main_arg7 (by decide))
    (Eq.trans ((hostOps3_writes (F := F)).keep (W6 m ρ c) (r := main_arg7) (by decide))
    (Eq.trans (W6_of_ne m ρ c main_arg7 (by decide))
    (Eq.trans ((hostOps2_writes (F := F)).keep (W4 m ρ c) (r := main_arg7) (by decide))
    (Eq.trans (W4_of_ne m ρ c main_arg7 (by decide))
    (Eq.trans ((hostOps1_writes (F := F)).keep (W2 m ρ c) (r := main_arg7) (by decide))
    (Eq.trans (W2_of_ne m ρ c main_arg7 (by decide))
    (Eq.trans ((hostOps0_writes (F := F)).keep (W0 m ρ c) (r := main_arg7) (by decide))
    (rfl)))))))))))))))))))))

/-- `arg8`, made at boundary 0, is unchanged where it is read at boundary 21. -/
theorem carry_arg8_0_21 (c : Dev nD) : W21 m ρ c (Proc.devRef .tc main_arg8) = m ((c : Thread nD τ).loc main_arg8) :=
  Eq.trans ((hostOps10_writes (F := F)).keep (W20 m ρ c) (r := main_arg8) (by decide))
    (Eq.trans (W20_of_ne m ρ c main_arg8 (by decide))
    (Eq.trans ((hostOps9_writes (F := F)).keep (W18 m ρ c) (r := main_arg8) (by decide))
    (Eq.trans (W18_of_ne m ρ c main_arg8 (by decide))
    (Eq.trans ((hostOps8_writes (F := F)).keep (W16 m ρ c) (r := main_arg8) (by decide))
    (Eq.trans (W16_of_ne m ρ c main_arg8 (by decide))
    (Eq.trans ((hostOps7_writes (F := F)).keep (W14 m ρ c) (r := main_arg8) (by decide))
    (Eq.trans (W14_of_ne m ρ c main_arg8 (by decide))
    (Eq.trans ((hostOps6_writes (F := F)).keep (W12 m ρ c) (r := main_arg8) (by decide))
    (Eq.trans (W12_of_ne m ρ c main_arg8 (by decide))
    (Eq.trans ((hostOps5_writes (F := F)).keep (W10 m ρ c) (r := main_arg8) (by decide))
    (Eq.trans (W10_of_ne m ρ c main_arg8 (by decide))
    (Eq.trans ((hostOps4_writes (F := F)).keep (W8 m ρ c) (r := main_arg8) (by decide))
    (Eq.trans (W8_of_ne m ρ c main_arg8 (by decide))
    (Eq.trans ((hostOps3_writes (F := F)).keep (W6 m ρ c) (r := main_arg8) (by decide))
    (Eq.trans (W6_of_ne m ρ c main_arg8 (by decide))
    (Eq.trans ((hostOps2_writes (F := F)).keep (W4 m ρ c) (r := main_arg8) (by decide))
    (Eq.trans (W4_of_ne m ρ c main_arg8 (by decide))
    (Eq.trans ((hostOps1_writes (F := F)).keep (W2 m ρ c) (r := main_arg8) (by decide))
    (Eq.trans (W2_of_ne m ρ c main_arg8 (by decide))
    (Eq.trans ((hostOps0_writes (F := F)).keep (W0 m ρ c) (r := main_arg8) (by decide))
    (rfl)))))))))))))))))))))

/-- `arg9`, made at boundary 0, is unchanged where it is read at boundary 21. -/
theorem carry_arg9_0_21 (c : Dev nD) : W21 m ρ c (Proc.devRef .tc main_arg9) = m ((c : Thread nD τ).loc main_arg9) :=
  Eq.trans ((hostOps10_writes (F := F)).keep (W20 m ρ c) (r := main_arg9) (by decide))
    (Eq.trans (W20_of_ne m ρ c main_arg9 (by decide))
    (Eq.trans ((hostOps9_writes (F := F)).keep (W18 m ρ c) (r := main_arg9) (by decide))
    (Eq.trans (W18_of_ne m ρ c main_arg9 (by decide))
    (Eq.trans ((hostOps8_writes (F := F)).keep (W16 m ρ c) (r := main_arg9) (by decide))
    (Eq.trans (W16_of_ne m ρ c main_arg9 (by decide))
    (Eq.trans ((hostOps7_writes (F := F)).keep (W14 m ρ c) (r := main_arg9) (by decide))
    (Eq.trans (W14_of_ne m ρ c main_arg9 (by decide))
    (Eq.trans ((hostOps6_writes (F := F)).keep (W12 m ρ c) (r := main_arg9) (by decide))
    (Eq.trans (W12_of_ne m ρ c main_arg9 (by decide))
    (Eq.trans ((hostOps5_writes (F := F)).keep (W10 m ρ c) (r := main_arg9) (by decide))
    (Eq.trans (W10_of_ne m ρ c main_arg9 (by decide))
    (Eq.trans ((hostOps4_writes (F := F)).keep (W8 m ρ c) (r := main_arg9) (by decide))
    (Eq.trans (W8_of_ne m ρ c main_arg9 (by decide))
    (Eq.trans ((hostOps3_writes (F := F)).keep (W6 m ρ c) (r := main_arg9) (by decide))
    (Eq.trans (W6_of_ne m ρ c main_arg9 (by decide))
    (Eq.trans ((hostOps2_writes (F := F)).keep (W4 m ρ c) (r := main_arg9) (by decide))
    (Eq.trans (W4_of_ne m ρ c main_arg9 (by decide))
    (Eq.trans ((hostOps1_writes (F := F)).keep (W2 m ρ c) (r := main_arg9) (by decide))
    (Eq.trans (W2_of_ne m ρ c main_arg9 (by decide))
    (Eq.trans ((hostOps0_writes (F := F)).keep (W0 m ρ c) (r := main_arg9) (by decide))
    (rfl)))))))))))))))))))))

/-- `v187`, made at boundary 14, is unchanged where it is read at boundary 21. -/
theorem carry_v187_14_21 (c : Dev nD) : W21 m ρ c (Proc.devRef .tc main_v187) = W14 m ρ c (Proc.devRef .tc main_v187) :=
  Eq.trans ((hostOps10_writes (F := F)).keep (W20 m ρ c) (r := main_v187) (by decide))
    (Eq.trans (W20_of_ne m ρ c main_v187 (by decide))
    (Eq.trans ((hostOps9_writes (F := F)).keep (W18 m ρ c) (r := main_v187) (by decide))
    (Eq.trans (W18_of_ne m ρ c main_v187 (by decide))
    (Eq.trans ((hostOps8_writes (F := F)).keep (W16 m ρ c) (r := main_v187) (by decide))
    (Eq.trans (W16_of_ne m ρ c main_v187 (by decide))
    (Eq.trans ((hostOps7_writes (F := F)).keep (W14 m ρ c) (r := main_v187) (by decide))
    (rfl)))))))

/-- `v202`, made at boundary 17, is unchanged where it is read at boundary 21. -/
theorem carry_v202_17_21 (c : Dev nD) : W21 m ρ c (Proc.devRef .tc main_v202) = W17 m ρ c (Proc.devRef .tc main_v202) :=
  Eq.trans ((hostOps10_writes (F := F)).keep (W20 m ρ c) (r := main_v202) (by decide))
    (Eq.trans (W20_of_ne m ρ c main_v202 (by decide))
    (Eq.trans ((hostOps9_writes (F := F)).keep (W18 m ρ c) (r := main_v202) (by decide))
    (Eq.trans (W18_of_ne m ρ c main_v202 (by decide))
    (rfl))))

/-- `v238`, made at boundary 17, is unchanged where it is read at boundary 21. -/
theorem carry_v238_17_21 (c : Dev nD) : W21 m ρ c (Proc.devRef .tc main_v238) = W17 m ρ c (Proc.devRef .tc main_v238) :=
  Eq.trans ((hostOps10_writes (F := F)).keep (W20 m ρ c) (r := main_v238) (by decide))
    (Eq.trans (W20_of_ne m ρ c main_v238 (by decide))
    (Eq.trans ((hostOps9_writes (F := F)).keep (W18 m ρ c) (r := main_v238) (by decide))
    (Eq.trans (W18_of_ne m ρ c main_v238 (by decide))
    (rfl))))

/-- `arg7`, made at boundary 0, is unchanged where it is read at boundary 23. -/
theorem carry_arg7_0_23 (c : Dev nD) : W23 m ρ c (Proc.devRef .tc main_arg7) = m ((c : Thread nD τ).loc main_arg7) :=
  Eq.trans ((hostOps11_writes (F := F)).keep (W22 m ρ c) (r := main_arg7) (by decide))
    (Eq.trans (W22_of_ne m ρ c main_arg7 (by decide))
    (Eq.trans ((hostOps10_writes (F := F)).keep (W20 m ρ c) (r := main_arg7) (by decide))
    (Eq.trans (W20_of_ne m ρ c main_arg7 (by decide))
    (Eq.trans ((hostOps9_writes (F := F)).keep (W18 m ρ c) (r := main_arg7) (by decide))
    (Eq.trans (W18_of_ne m ρ c main_arg7 (by decide))
    (Eq.trans ((hostOps8_writes (F := F)).keep (W16 m ρ c) (r := main_arg7) (by decide))
    (Eq.trans (W16_of_ne m ρ c main_arg7 (by decide))
    (Eq.trans ((hostOps7_writes (F := F)).keep (W14 m ρ c) (r := main_arg7) (by decide))
    (Eq.trans (W14_of_ne m ρ c main_arg7 (by decide))
    (Eq.trans ((hostOps6_writes (F := F)).keep (W12 m ρ c) (r := main_arg7) (by decide))
    (Eq.trans (W12_of_ne m ρ c main_arg7 (by decide))
    (Eq.trans ((hostOps5_writes (F := F)).keep (W10 m ρ c) (r := main_arg7) (by decide))
    (Eq.trans (W10_of_ne m ρ c main_arg7 (by decide))
    (Eq.trans ((hostOps4_writes (F := F)).keep (W8 m ρ c) (r := main_arg7) (by decide))
    (Eq.trans (W8_of_ne m ρ c main_arg7 (by decide))
    (Eq.trans ((hostOps3_writes (F := F)).keep (W6 m ρ c) (r := main_arg7) (by decide))
    (Eq.trans (W6_of_ne m ρ c main_arg7 (by decide))
    (Eq.trans ((hostOps2_writes (F := F)).keep (W4 m ρ c) (r := main_arg7) (by decide))
    (Eq.trans (W4_of_ne m ρ c main_arg7 (by decide))
    (Eq.trans ((hostOps1_writes (F := F)).keep (W2 m ρ c) (r := main_arg7) (by decide))
    (Eq.trans (W2_of_ne m ρ c main_arg7 (by decide))
    (Eq.trans ((hostOps0_writes (F := F)).keep (W0 m ρ c) (r := main_arg7) (by decide))
    (rfl)))))))))))))))))))))))

/-- `arg8`, made at boundary 0, is unchanged where it is read at boundary 23. -/
theorem carry_arg8_0_23 (c : Dev nD) : W23 m ρ c (Proc.devRef .tc main_arg8) = m ((c : Thread nD τ).loc main_arg8) :=
  Eq.trans ((hostOps11_writes (F := F)).keep (W22 m ρ c) (r := main_arg8) (by decide))
    (Eq.trans (W22_of_ne m ρ c main_arg8 (by decide))
    (Eq.trans ((hostOps10_writes (F := F)).keep (W20 m ρ c) (r := main_arg8) (by decide))
    (Eq.trans (W20_of_ne m ρ c main_arg8 (by decide))
    (Eq.trans ((hostOps9_writes (F := F)).keep (W18 m ρ c) (r := main_arg8) (by decide))
    (Eq.trans (W18_of_ne m ρ c main_arg8 (by decide))
    (Eq.trans ((hostOps8_writes (F := F)).keep (W16 m ρ c) (r := main_arg8) (by decide))
    (Eq.trans (W16_of_ne m ρ c main_arg8 (by decide))
    (Eq.trans ((hostOps7_writes (F := F)).keep (W14 m ρ c) (r := main_arg8) (by decide))
    (Eq.trans (W14_of_ne m ρ c main_arg8 (by decide))
    (Eq.trans ((hostOps6_writes (F := F)).keep (W12 m ρ c) (r := main_arg8) (by decide))
    (Eq.trans (W12_of_ne m ρ c main_arg8 (by decide))
    (Eq.trans ((hostOps5_writes (F := F)).keep (W10 m ρ c) (r := main_arg8) (by decide))
    (Eq.trans (W10_of_ne m ρ c main_arg8 (by decide))
    (Eq.trans ((hostOps4_writes (F := F)).keep (W8 m ρ c) (r := main_arg8) (by decide))
    (Eq.trans (W8_of_ne m ρ c main_arg8 (by decide))
    (Eq.trans ((hostOps3_writes (F := F)).keep (W6 m ρ c) (r := main_arg8) (by decide))
    (Eq.trans (W6_of_ne m ρ c main_arg8 (by decide))
    (Eq.trans ((hostOps2_writes (F := F)).keep (W4 m ρ c) (r := main_arg8) (by decide))
    (Eq.trans (W4_of_ne m ρ c main_arg8 (by decide))
    (Eq.trans ((hostOps1_writes (F := F)).keep (W2 m ρ c) (r := main_arg8) (by decide))
    (Eq.trans (W2_of_ne m ρ c main_arg8 (by decide))
    (Eq.trans ((hostOps0_writes (F := F)).keep (W0 m ρ c) (r := main_arg8) (by decide))
    (rfl)))))))))))))))))))))))

/-- `arg9`, made at boundary 0, is unchanged where it is read at boundary 23. -/
theorem carry_arg9_0_23 (c : Dev nD) : W23 m ρ c (Proc.devRef .tc main_arg9) = m ((c : Thread nD τ).loc main_arg9) :=
  Eq.trans ((hostOps11_writes (F := F)).keep (W22 m ρ c) (r := main_arg9) (by decide))
    (Eq.trans (W22_of_ne m ρ c main_arg9 (by decide))
    (Eq.trans ((hostOps10_writes (F := F)).keep (W20 m ρ c) (r := main_arg9) (by decide))
    (Eq.trans (W20_of_ne m ρ c main_arg9 (by decide))
    (Eq.trans ((hostOps9_writes (F := F)).keep (W18 m ρ c) (r := main_arg9) (by decide))
    (Eq.trans (W18_of_ne m ρ c main_arg9 (by decide))
    (Eq.trans ((hostOps8_writes (F := F)).keep (W16 m ρ c) (r := main_arg9) (by decide))
    (Eq.trans (W16_of_ne m ρ c main_arg9 (by decide))
    (Eq.trans ((hostOps7_writes (F := F)).keep (W14 m ρ c) (r := main_arg9) (by decide))
    (Eq.trans (W14_of_ne m ρ c main_arg9 (by decide))
    (Eq.trans ((hostOps6_writes (F := F)).keep (W12 m ρ c) (r := main_arg9) (by decide))
    (Eq.trans (W12_of_ne m ρ c main_arg9 (by decide))
    (Eq.trans ((hostOps5_writes (F := F)).keep (W10 m ρ c) (r := main_arg9) (by decide))
    (Eq.trans (W10_of_ne m ρ c main_arg9 (by decide))
    (Eq.trans ((hostOps4_writes (F := F)).keep (W8 m ρ c) (r := main_arg9) (by decide))
    (Eq.trans (W8_of_ne m ρ c main_arg9 (by decide))
    (Eq.trans ((hostOps3_writes (F := F)).keep (W6 m ρ c) (r := main_arg9) (by decide))
    (Eq.trans (W6_of_ne m ρ c main_arg9 (by decide))
    (Eq.trans ((hostOps2_writes (F := F)).keep (W4 m ρ c) (r := main_arg9) (by decide))
    (Eq.trans (W4_of_ne m ρ c main_arg9 (by decide))
    (Eq.trans ((hostOps1_writes (F := F)).keep (W2 m ρ c) (r := main_arg9) (by decide))
    (Eq.trans (W2_of_ne m ρ c main_arg9 (by decide))
    (Eq.trans ((hostOps0_writes (F := F)).keep (W0 m ρ c) (r := main_arg9) (by decide))
    (rfl)))))))))))))))))))))))

/-- `v190`, made at boundary 16, is unchanged where it is read at boundary 23. -/
theorem carry_v190_16_23 (c : Dev nD) : W23 m ρ c (Proc.devRef .tc main_v190) = W16 m ρ c (Proc.devRef .tc main_v190) :=
  Eq.trans ((hostOps11_writes (F := F)).keep (W22 m ρ c) (r := main_v190) (by decide))
    (Eq.trans (W22_of_ne m ρ c main_v190 (by decide))
    (Eq.trans ((hostOps10_writes (F := F)).keep (W20 m ρ c) (r := main_v190) (by decide))
    (Eq.trans (W20_of_ne m ρ c main_v190 (by decide))
    (Eq.trans ((hostOps9_writes (F := F)).keep (W18 m ρ c) (r := main_v190) (by decide))
    (Eq.trans (W18_of_ne m ρ c main_v190 (by decide))
    (Eq.trans ((hostOps8_writes (F := F)).keep (W16 m ρ c) (r := main_v190) (by decide))
    (rfl)))))))

/-- `v226`, made at boundary 17, is unchanged where it is read at boundary 23. -/
theorem carry_v226_17_23 (c : Dev nD) : W23 m ρ c (Proc.devRef .tc main_v226) = W17 m ρ c (Proc.devRef .tc main_v226) :=
  Eq.trans ((hostOps11_writes (F := F)).keep (W22 m ρ c) (r := main_v226) (by decide))
    (Eq.trans (W22_of_ne m ρ c main_v226 (by decide))
    (Eq.trans ((hostOps10_writes (F := F)).keep (W20 m ρ c) (r := main_v226) (by decide))
    (Eq.trans (W20_of_ne m ρ c main_v226 (by decide))
    (Eq.trans ((hostOps9_writes (F := F)).keep (W18 m ρ c) (r := main_v226) (by decide))
    (Eq.trans (W18_of_ne m ρ c main_v226 (by decide))
    (rfl))))))

/-- `arg12`, made at boundary 0, is unchanged where it is read at boundary 25. -/
theorem carry_arg12_0_25 (c : Dev nD) : W25 m ρ c (Proc.devRef .tc main_arg12) = m ((c : Thread nD τ).loc main_arg12) :=
  Eq.trans ((hostOps12_writes (F := F)).keep (W24 m ρ c) (r := main_arg12) (by decide))
    (Eq.trans (W24_of_ne m ρ c main_arg12 (by decide))
    (Eq.trans ((hostOps11_writes (F := F)).keep (W22 m ρ c) (r := main_arg12) (by decide))
    (Eq.trans (W22_of_ne m ρ c main_arg12 (by decide))
    (Eq.trans ((hostOps10_writes (F := F)).keep (W20 m ρ c) (r := main_arg12) (by decide))
    (Eq.trans (W20_of_ne m ρ c main_arg12 (by decide))
    (Eq.trans ((hostOps9_writes (F := F)).keep (W18 m ρ c) (r := main_arg12) (by decide))
    (Eq.trans (W18_of_ne m ρ c main_arg12 (by decide))
    (Eq.trans ((hostOps8_writes (F := F)).keep (W16 m ρ c) (r := main_arg12) (by decide))
    (Eq.trans (W16_of_ne m ρ c main_arg12 (by decide))
    (Eq.trans ((hostOps7_writes (F := F)).keep (W14 m ρ c) (r := main_arg12) (by decide))
    (Eq.trans (W14_of_ne m ρ c main_arg12 (by decide))
    (Eq.trans ((hostOps6_writes (F := F)).keep (W12 m ρ c) (r := main_arg12) (by decide))
    (Eq.trans (W12_of_ne m ρ c main_arg12 (by decide))
    (Eq.trans ((hostOps5_writes (F := F)).keep (W10 m ρ c) (r := main_arg12) (by decide))
    (Eq.trans (W10_of_ne m ρ c main_arg12 (by decide))
    (Eq.trans ((hostOps4_writes (F := F)).keep (W8 m ρ c) (r := main_arg12) (by decide))
    (Eq.trans (W8_of_ne m ρ c main_arg12 (by decide))
    (Eq.trans ((hostOps3_writes (F := F)).keep (W6 m ρ c) (r := main_arg12) (by decide))
    (Eq.trans (W6_of_ne m ρ c main_arg12 (by decide))
    (Eq.trans ((hostOps2_writes (F := F)).keep (W4 m ρ c) (r := main_arg12) (by decide))
    (Eq.trans (W4_of_ne m ρ c main_arg12 (by decide))
    (Eq.trans ((hostOps1_writes (F := F)).keep (W2 m ρ c) (r := main_arg12) (by decide))
    (Eq.trans (W2_of_ne m ρ c main_arg12 (by decide))
    (Eq.trans ((hostOps0_writes (F := F)).keep (W0 m ρ c) (r := main_arg12) (by decide))
    (rfl)))))))))))))))))))))))))

/-- `arg13`, made at boundary 0, is unchanged where it is read at boundary 25. -/
theorem carry_arg13_0_25 (c : Dev nD) : W25 m ρ c (Proc.devRef .tc main_arg13) = m ((c : Thread nD τ).loc main_arg13) :=
  Eq.trans ((hostOps12_writes (F := F)).keep (W24 m ρ c) (r := main_arg13) (by decide))
    (Eq.trans (W24_of_ne m ρ c main_arg13 (by decide))
    (Eq.trans ((hostOps11_writes (F := F)).keep (W22 m ρ c) (r := main_arg13) (by decide))
    (Eq.trans (W22_of_ne m ρ c main_arg13 (by decide))
    (Eq.trans ((hostOps10_writes (F := F)).keep (W20 m ρ c) (r := main_arg13) (by decide))
    (Eq.trans (W20_of_ne m ρ c main_arg13 (by decide))
    (Eq.trans ((hostOps9_writes (F := F)).keep (W18 m ρ c) (r := main_arg13) (by decide))
    (Eq.trans (W18_of_ne m ρ c main_arg13 (by decide))
    (Eq.trans ((hostOps8_writes (F := F)).keep (W16 m ρ c) (r := main_arg13) (by decide))
    (Eq.trans (W16_of_ne m ρ c main_arg13 (by decide))
    (Eq.trans ((hostOps7_writes (F := F)).keep (W14 m ρ c) (r := main_arg13) (by decide))
    (Eq.trans (W14_of_ne m ρ c main_arg13 (by decide))
    (Eq.trans ((hostOps6_writes (F := F)).keep (W12 m ρ c) (r := main_arg13) (by decide))
    (Eq.trans (W12_of_ne m ρ c main_arg13 (by decide))
    (Eq.trans ((hostOps5_writes (F := F)).keep (W10 m ρ c) (r := main_arg13) (by decide))
    (Eq.trans (W10_of_ne m ρ c main_arg13 (by decide))
    (Eq.trans ((hostOps4_writes (F := F)).keep (W8 m ρ c) (r := main_arg13) (by decide))
    (Eq.trans (W8_of_ne m ρ c main_arg13 (by decide))
    (Eq.trans ((hostOps3_writes (F := F)).keep (W6 m ρ c) (r := main_arg13) (by decide))
    (Eq.trans (W6_of_ne m ρ c main_arg13 (by decide))
    (Eq.trans ((hostOps2_writes (F := F)).keep (W4 m ρ c) (r := main_arg13) (by decide))
    (Eq.trans (W4_of_ne m ρ c main_arg13 (by decide))
    (Eq.trans ((hostOps1_writes (F := F)).keep (W2 m ρ c) (r := main_arg13) (by decide))
    (Eq.trans (W2_of_ne m ρ c main_arg13 (by decide))
    (Eq.trans ((hostOps0_writes (F := F)).keep (W0 m ρ c) (r := main_arg13) (by decide))
    (rfl)))))))))))))))))))))))))

/-- `v289_0`, made at boundary 18, is unchanged where it is read at boundary 25. -/
theorem carry_v289_0_18_25 (c : Dev nD) : W25 m ρ c (Proc.devRef .tc main_v289_0) = W18 m ρ c (Proc.devRef .tc main_v289_0) :=
  Eq.trans ((hostOps12_writes (F := F)).keep (W24 m ρ c) (r := main_v289_0) (by decide))
    (Eq.trans (W24_of_ne m ρ c main_v289_0 (by decide))
    (Eq.trans ((hostOps11_writes (F := F)).keep (W22 m ρ c) (r := main_v289_0) (by decide))
    (Eq.trans (W22_of_ne m ρ c main_v289_0 (by decide))
    (Eq.trans ((hostOps10_writes (F := F)).keep (W20 m ρ c) (r := main_v289_0) (by decide))
    (Eq.trans (W20_of_ne m ρ c main_v289_0 (by decide))
    (Eq.trans ((hostOps9_writes (F := F)).keep (W18 m ρ c) (r := main_v289_0) (by decide))
    (rfl)))))))

/-- `v289_1`, made at boundary 18, is unchanged where it is read at boundary 25. -/
theorem carry_v289_1_18_25 (c : Dev nD) : W25 m ρ c (Proc.devRef .tc main_v289_1) = W18 m ρ c (Proc.devRef .tc main_v289_1) :=
  Eq.trans ((hostOps12_writes (F := F)).keep (W24 m ρ c) (r := main_v289_1) (by decide))
    (Eq.trans (W24_of_ne m ρ c main_v289_1 (by decide))
    (Eq.trans ((hostOps11_writes (F := F)).keep (W22 m ρ c) (r := main_v289_1) (by decide))
    (Eq.trans (W22_of_ne m ρ c main_v289_1 (by decide))
    (Eq.trans ((hostOps10_writes (F := F)).keep (W20 m ρ c) (r := main_v289_1) (by decide))
    (Eq.trans (W20_of_ne m ρ c main_v289_1 (by decide))
    (Eq.trans ((hostOps9_writes (F := F)).keep (W18 m ρ c) (r := main_v289_1) (by decide))
    (rfl)))))))

/-- `v289_2`, made at boundary 18, is unchanged where it is read at boundary 25. -/
theorem carry_v289_2_18_25 (c : Dev nD) : W25 m ρ c (Proc.devRef .tc main_v289_2) = W18 m ρ c (Proc.devRef .tc main_v289_2) :=
  Eq.trans ((hostOps12_writes (F := F)).keep (W24 m ρ c) (r := main_v289_2) (by decide))
    (Eq.trans (W24_of_ne m ρ c main_v289_2 (by decide))
    (Eq.trans ((hostOps11_writes (F := F)).keep (W22 m ρ c) (r := main_v289_2) (by decide))
    (Eq.trans (W22_of_ne m ρ c main_v289_2 (by decide))
    (Eq.trans ((hostOps10_writes (F := F)).keep (W20 m ρ c) (r := main_v289_2) (by decide))
    (Eq.trans (W20_of_ne m ρ c main_v289_2 (by decide))
    (Eq.trans ((hostOps9_writes (F := F)).keep (W18 m ρ c) (r := main_v289_2) (by decide))
    (rfl)))))))

/-- `arg12`, made at boundary 0, is unchanged where it is read at boundary 27. -/
theorem carry_arg12_0_27 (c : Dev nD) : W27 m ρ c (Proc.devRef .tc main_arg12) = m ((c : Thread nD τ).loc main_arg12) :=
  Eq.trans ((hostOps13_writes (F := F)).keep (W26 m ρ c) (r := main_arg12) (by decide))
    (Eq.trans (W26_of_ne m ρ c main_arg12 (by decide))
    (Eq.trans ((hostOps12_writes (F := F)).keep (W24 m ρ c) (r := main_arg12) (by decide))
    (Eq.trans (W24_of_ne m ρ c main_arg12 (by decide))
    (Eq.trans ((hostOps11_writes (F := F)).keep (W22 m ρ c) (r := main_arg12) (by decide))
    (Eq.trans (W22_of_ne m ρ c main_arg12 (by decide))
    (Eq.trans ((hostOps10_writes (F := F)).keep (W20 m ρ c) (r := main_arg12) (by decide))
    (Eq.trans (W20_of_ne m ρ c main_arg12 (by decide))
    (Eq.trans ((hostOps9_writes (F := F)).keep (W18 m ρ c) (r := main_arg12) (by decide))
    (Eq.trans (W18_of_ne m ρ c main_arg12 (by decide))
    (Eq.trans ((hostOps8_writes (F := F)).keep (W16 m ρ c) (r := main_arg12) (by decide))
    (Eq.trans (W16_of_ne m ρ c main_arg12 (by decide))
    (Eq.trans ((hostOps7_writes (F := F)).keep (W14 m ρ c) (r := main_arg12) (by decide))
    (Eq.trans (W14_of_ne m ρ c main_arg12 (by decide))
    (Eq.trans ((hostOps6_writes (F := F)).keep (W12 m ρ c) (r := main_arg12) (by decide))
    (Eq.trans (W12_of_ne m ρ c main_arg12 (by decide))
    (Eq.trans ((hostOps5_writes (F := F)).keep (W10 m ρ c) (r := main_arg12) (by decide))
    (Eq.trans (W10_of_ne m ρ c main_arg12 (by decide))
    (Eq.trans ((hostOps4_writes (F := F)).keep (W8 m ρ c) (r := main_arg12) (by decide))
    (Eq.trans (W8_of_ne m ρ c main_arg12 (by decide))
    (Eq.trans ((hostOps3_writes (F := F)).keep (W6 m ρ c) (r := main_arg12) (by decide))
    (Eq.trans (W6_of_ne m ρ c main_arg12 (by decide))
    (Eq.trans ((hostOps2_writes (F := F)).keep (W4 m ρ c) (r := main_arg12) (by decide))
    (Eq.trans (W4_of_ne m ρ c main_arg12 (by decide))
    (Eq.trans ((hostOps1_writes (F := F)).keep (W2 m ρ c) (r := main_arg12) (by decide))
    (Eq.trans (W2_of_ne m ρ c main_arg12 (by decide))
    (Eq.trans ((hostOps0_writes (F := F)).keep (W0 m ρ c) (r := main_arg12) (by decide))
    (rfl)))))))))))))))))))))))))))

/-- `arg13`, made at boundary 0, is unchanged where it is read at boundary 27. -/
theorem carry_arg13_0_27 (c : Dev nD) : W27 m ρ c (Proc.devRef .tc main_arg13) = m ((c : Thread nD τ).loc main_arg13) :=
  Eq.trans ((hostOps13_writes (F := F)).keep (W26 m ρ c) (r := main_arg13) (by decide))
    (Eq.trans (W26_of_ne m ρ c main_arg13 (by decide))
    (Eq.trans ((hostOps12_writes (F := F)).keep (W24 m ρ c) (r := main_arg13) (by decide))
    (Eq.trans (W24_of_ne m ρ c main_arg13 (by decide))
    (Eq.trans ((hostOps11_writes (F := F)).keep (W22 m ρ c) (r := main_arg13) (by decide))
    (Eq.trans (W22_of_ne m ρ c main_arg13 (by decide))
    (Eq.trans ((hostOps10_writes (F := F)).keep (W20 m ρ c) (r := main_arg13) (by decide))
    (Eq.trans (W20_of_ne m ρ c main_arg13 (by decide))
    (Eq.trans ((hostOps9_writes (F := F)).keep (W18 m ρ c) (r := main_arg13) (by decide))
    (Eq.trans (W18_of_ne m ρ c main_arg13 (by decide))
    (Eq.trans ((hostOps8_writes (F := F)).keep (W16 m ρ c) (r := main_arg13) (by decide))
    (Eq.trans (W16_of_ne m ρ c main_arg13 (by decide))
    (Eq.trans ((hostOps7_writes (F := F)).keep (W14 m ρ c) (r := main_arg13) (by decide))
    (Eq.trans (W14_of_ne m ρ c main_arg13 (by decide))
    (Eq.trans ((hostOps6_writes (F := F)).keep (W12 m ρ c) (r := main_arg13) (by decide))
    (Eq.trans (W12_of_ne m ρ c main_arg13 (by decide))
    (Eq.trans ((hostOps5_writes (F := F)).keep (W10 m ρ c) (r := main_arg13) (by decide))
    (Eq.trans (W10_of_ne m ρ c main_arg13 (by decide))
    (Eq.trans ((hostOps4_writes (F := F)).keep (W8 m ρ c) (r := main_arg13) (by decide))
    (Eq.trans (W8_of_ne m ρ c main_arg13 (by decide))
    (Eq.trans ((hostOps3_writes (F := F)).keep (W6 m ρ c) (r := main_arg13) (by decide))
    (Eq.trans (W6_of_ne m ρ c main_arg13 (by decide))
    (Eq.trans ((hostOps2_writes (F := F)).keep (W4 m ρ c) (r := main_arg13) (by decide))
    (Eq.trans (W4_of_ne m ρ c main_arg13 (by decide))
    (Eq.trans ((hostOps1_writes (F := F)).keep (W2 m ρ c) (r := main_arg13) (by decide))
    (Eq.trans (W2_of_ne m ρ c main_arg13 (by decide))
    (Eq.trans ((hostOps0_writes (F := F)).keep (W0 m ρ c) (r := main_arg13) (by decide))
    (rfl)))))))))))))))))))))))))))

/-- `v304_0`, made at boundary 20, is unchanged where it is read at boundary 27. -/
theorem carry_v304_0_20_27 (c : Dev nD) : W27 m ρ c (Proc.devRef .tc main_v304_0) = W20 m ρ c (Proc.devRef .tc main_v304_0) :=
  Eq.trans ((hostOps13_writes (F := F)).keep (W26 m ρ c) (r := main_v304_0) (by decide))
    (Eq.trans (W26_of_ne m ρ c main_v304_0 (by decide))
    (Eq.trans ((hostOps12_writes (F := F)).keep (W24 m ρ c) (r := main_v304_0) (by decide))
    (Eq.trans (W24_of_ne m ρ c main_v304_0 (by decide))
    (Eq.trans ((hostOps11_writes (F := F)).keep (W22 m ρ c) (r := main_v304_0) (by decide))
    (Eq.trans (W22_of_ne m ρ c main_v304_0 (by decide))
    (Eq.trans ((hostOps10_writes (F := F)).keep (W20 m ρ c) (r := main_v304_0) (by decide))
    (rfl)))))))

/-- `v304_1`, made at boundary 20, is unchanged where it is read at boundary 27. -/
theorem carry_v304_1_20_27 (c : Dev nD) : W27 m ρ c (Proc.devRef .tc main_v304_1) = W20 m ρ c (Proc.devRef .tc main_v304_1) :=
  Eq.trans ((hostOps13_writes (F := F)).keep (W26 m ρ c) (r := main_v304_1) (by decide))
    (Eq.trans (W26_of_ne m ρ c main_v304_1 (by decide))
    (Eq.trans ((hostOps12_writes (F := F)).keep (W24 m ρ c) (r := main_v304_1) (by decide))
    (Eq.trans (W24_of_ne m ρ c main_v304_1 (by decide))
    (Eq.trans ((hostOps11_writes (F := F)).keep (W22 m ρ c) (r := main_v304_1) (by decide))
    (Eq.trans (W22_of_ne m ρ c main_v304_1 (by decide))
    (Eq.trans ((hostOps10_writes (F := F)).keep (W20 m ρ c) (r := main_v304_1) (by decide))
    (rfl)))))))

/-- `v304_2`, made at boundary 20, is unchanged where it is read at boundary 27. -/
theorem carry_v304_2_20_27 (c : Dev nD) : W27 m ρ c (Proc.devRef .tc main_v304_2) = W20 m ρ c (Proc.devRef .tc main_v304_2) :=
  Eq.trans ((hostOps13_writes (F := F)).keep (W26 m ρ c) (r := main_v304_2) (by decide))
    (Eq.trans (W26_of_ne m ρ c main_v304_2 (by decide))
    (Eq.trans ((hostOps12_writes (F := F)).keep (W24 m ρ c) (r := main_v304_2) (by decide))
    (Eq.trans (W24_of_ne m ρ c main_v304_2 (by decide))
    (Eq.trans ((hostOps11_writes (F := F)).keep (W22 m ρ c) (r := main_v304_2) (by decide))
    (Eq.trans (W22_of_ne m ρ c main_v304_2 (by decide))
    (Eq.trans ((hostOps10_writes (F := F)).keep (W20 m ρ c) (r := main_v304_2) (by decide))
    (rfl)))))))

/-- `arg12`, made at boundary 0, is unchanged where it is read at boundary 29. -/
theorem carry_arg12_0_29 (c : Dev nD) : W29 m ρ c (Proc.devRef .tc main_arg12) = m ((c : Thread nD τ).loc main_arg12) :=
  Eq.trans ((hostOps14_writes (F := F)).keep (W28 m ρ c) (r := main_arg12) (by decide))
    (Eq.trans (W28_of_ne m ρ c main_arg12 (by decide))
    (Eq.trans ((hostOps13_writes (F := F)).keep (W26 m ρ c) (r := main_arg12) (by decide))
    (Eq.trans (W26_of_ne m ρ c main_arg12 (by decide))
    (Eq.trans ((hostOps12_writes (F := F)).keep (W24 m ρ c) (r := main_arg12) (by decide))
    (Eq.trans (W24_of_ne m ρ c main_arg12 (by decide))
    (Eq.trans ((hostOps11_writes (F := F)).keep (W22 m ρ c) (r := main_arg12) (by decide))
    (Eq.trans (W22_of_ne m ρ c main_arg12 (by decide))
    (Eq.trans ((hostOps10_writes (F := F)).keep (W20 m ρ c) (r := main_arg12) (by decide))
    (Eq.trans (W20_of_ne m ρ c main_arg12 (by decide))
    (Eq.trans ((hostOps9_writes (F := F)).keep (W18 m ρ c) (r := main_arg12) (by decide))
    (Eq.trans (W18_of_ne m ρ c main_arg12 (by decide))
    (Eq.trans ((hostOps8_writes (F := F)).keep (W16 m ρ c) (r := main_arg12) (by decide))
    (Eq.trans (W16_of_ne m ρ c main_arg12 (by decide))
    (Eq.trans ((hostOps7_writes (F := F)).keep (W14 m ρ c) (r := main_arg12) (by decide))
    (Eq.trans (W14_of_ne m ρ c main_arg12 (by decide))
    (Eq.trans ((hostOps6_writes (F := F)).keep (W12 m ρ c) (r := main_arg12) (by decide))
    (Eq.trans (W12_of_ne m ρ c main_arg12 (by decide))
    (Eq.trans ((hostOps5_writes (F := F)).keep (W10 m ρ c) (r := main_arg12) (by decide))
    (Eq.trans (W10_of_ne m ρ c main_arg12 (by decide))
    (Eq.trans ((hostOps4_writes (F := F)).keep (W8 m ρ c) (r := main_arg12) (by decide))
    (Eq.trans (W8_of_ne m ρ c main_arg12 (by decide))
    (Eq.trans ((hostOps3_writes (F := F)).keep (W6 m ρ c) (r := main_arg12) (by decide))
    (Eq.trans (W6_of_ne m ρ c main_arg12 (by decide))
    (Eq.trans ((hostOps2_writes (F := F)).keep (W4 m ρ c) (r := main_arg12) (by decide))
    (Eq.trans (W4_of_ne m ρ c main_arg12 (by decide))
    (Eq.trans ((hostOps1_writes (F := F)).keep (W2 m ρ c) (r := main_arg12) (by decide))
    (Eq.trans (W2_of_ne m ρ c main_arg12 (by decide))
    (Eq.trans ((hostOps0_writes (F := F)).keep (W0 m ρ c) (r := main_arg12) (by decide))
    (rfl)))))))))))))))))))))))))))))

/-- `arg13`, made at boundary 0, is unchanged where it is read at boundary 29. -/
theorem carry_arg13_0_29 (c : Dev nD) : W29 m ρ c (Proc.devRef .tc main_arg13) = m ((c : Thread nD τ).loc main_arg13) :=
  Eq.trans ((hostOps14_writes (F := F)).keep (W28 m ρ c) (r := main_arg13) (by decide))
    (Eq.trans (W28_of_ne m ρ c main_arg13 (by decide))
    (Eq.trans ((hostOps13_writes (F := F)).keep (W26 m ρ c) (r := main_arg13) (by decide))
    (Eq.trans (W26_of_ne m ρ c main_arg13 (by decide))
    (Eq.trans ((hostOps12_writes (F := F)).keep (W24 m ρ c) (r := main_arg13) (by decide))
    (Eq.trans (W24_of_ne m ρ c main_arg13 (by decide))
    (Eq.trans ((hostOps11_writes (F := F)).keep (W22 m ρ c) (r := main_arg13) (by decide))
    (Eq.trans (W22_of_ne m ρ c main_arg13 (by decide))
    (Eq.trans ((hostOps10_writes (F := F)).keep (W20 m ρ c) (r := main_arg13) (by decide))
    (Eq.trans (W20_of_ne m ρ c main_arg13 (by decide))
    (Eq.trans ((hostOps9_writes (F := F)).keep (W18 m ρ c) (r := main_arg13) (by decide))
    (Eq.trans (W18_of_ne m ρ c main_arg13 (by decide))
    (Eq.trans ((hostOps8_writes (F := F)).keep (W16 m ρ c) (r := main_arg13) (by decide))
    (Eq.trans (W16_of_ne m ρ c main_arg13 (by decide))
    (Eq.trans ((hostOps7_writes (F := F)).keep (W14 m ρ c) (r := main_arg13) (by decide))
    (Eq.trans (W14_of_ne m ρ c main_arg13 (by decide))
    (Eq.trans ((hostOps6_writes (F := F)).keep (W12 m ρ c) (r := main_arg13) (by decide))
    (Eq.trans (W12_of_ne m ρ c main_arg13 (by decide))
    (Eq.trans ((hostOps5_writes (F := F)).keep (W10 m ρ c) (r := main_arg13) (by decide))
    (Eq.trans (W10_of_ne m ρ c main_arg13 (by decide))
    (Eq.trans ((hostOps4_writes (F := F)).keep (W8 m ρ c) (r := main_arg13) (by decide))
    (Eq.trans (W8_of_ne m ρ c main_arg13 (by decide))
    (Eq.trans ((hostOps3_writes (F := F)).keep (W6 m ρ c) (r := main_arg13) (by decide))
    (Eq.trans (W6_of_ne m ρ c main_arg13 (by decide))
    (Eq.trans ((hostOps2_writes (F := F)).keep (W4 m ρ c) (r := main_arg13) (by decide))
    (Eq.trans (W4_of_ne m ρ c main_arg13 (by decide))
    (Eq.trans ((hostOps1_writes (F := F)).keep (W2 m ρ c) (r := main_arg13) (by decide))
    (Eq.trans (W2_of_ne m ρ c main_arg13 (by decide))
    (Eq.trans ((hostOps0_writes (F := F)).keep (W0 m ρ c) (r := main_arg13) (by decide))
    (rfl)))))))))))))))))))))))))))))

/-- `v319_0`, made at boundary 22, is unchanged where it is read at boundary 29. -/
theorem carry_v319_0_22_29 (c : Dev nD) : W29 m ρ c (Proc.devRef .tc main_v319_0) = W22 m ρ c (Proc.devRef .tc main_v319_0) :=
  Eq.trans ((hostOps14_writes (F := F)).keep (W28 m ρ c) (r := main_v319_0) (by decide))
    (Eq.trans (W28_of_ne m ρ c main_v319_0 (by decide))
    (Eq.trans ((hostOps13_writes (F := F)).keep (W26 m ρ c) (r := main_v319_0) (by decide))
    (Eq.trans (W26_of_ne m ρ c main_v319_0 (by decide))
    (Eq.trans ((hostOps12_writes (F := F)).keep (W24 m ρ c) (r := main_v319_0) (by decide))
    (Eq.trans (W24_of_ne m ρ c main_v319_0 (by decide))
    (Eq.trans ((hostOps11_writes (F := F)).keep (W22 m ρ c) (r := main_v319_0) (by decide))
    (rfl)))))))

/-- `v319_1`, made at boundary 22, is unchanged where it is read at boundary 29. -/
theorem carry_v319_1_22_29 (c : Dev nD) : W29 m ρ c (Proc.devRef .tc main_v319_1) = W22 m ρ c (Proc.devRef .tc main_v319_1) :=
  Eq.trans ((hostOps14_writes (F := F)).keep (W28 m ρ c) (r := main_v319_1) (by decide))
    (Eq.trans (W28_of_ne m ρ c main_v319_1 (by decide))
    (Eq.trans ((hostOps13_writes (F := F)).keep (W26 m ρ c) (r := main_v319_1) (by decide))
    (Eq.trans (W26_of_ne m ρ c main_v319_1 (by decide))
    (Eq.trans ((hostOps12_writes (F := F)).keep (W24 m ρ c) (r := main_v319_1) (by decide))
    (Eq.trans (W24_of_ne m ρ c main_v319_1 (by decide))
    (Eq.trans ((hostOps11_writes (F := F)).keep (W22 m ρ c) (r := main_v319_1) (by decide))
    (rfl)))))))

/-- `v319_2`, made at boundary 22, is unchanged where it is read at boundary 29. -/
theorem carry_v319_2_22_29 (c : Dev nD) : W29 m ρ c (Proc.devRef .tc main_v319_2) = W22 m ρ c (Proc.devRef .tc main_v319_2) :=
  Eq.trans ((hostOps14_writes (F := F)).keep (W28 m ρ c) (r := main_v319_2) (by decide))
    (Eq.trans (W28_of_ne m ρ c main_v319_2 (by decide))
    (Eq.trans ((hostOps13_writes (F := F)).keep (W26 m ρ c) (r := main_v319_2) (by decide))
    (Eq.trans (W26_of_ne m ρ c main_v319_2 (by decide))
    (Eq.trans ((hostOps12_writes (F := F)).keep (W24 m ρ c) (r := main_v319_2) (by decide))
    (Eq.trans (W24_of_ne m ρ c main_v319_2 (by decide))
    (Eq.trans ((hostOps11_writes (F := F)).keep (W22 m ρ c) (r := main_v319_2) (by decide))
    (rfl)))))))

/-- `arg12`, made at boundary 0, is unchanged where it is read at boundary 31. -/
theorem carry_arg12_0_31 (c : Dev nD) : W31 m ρ c (Proc.devRef .tc main_arg12) = m ((c : Thread nD τ).loc main_arg12) :=
  Eq.trans ((hostOps15_writes (F := F)).keep (W30 m ρ c) (r := main_arg12) (by decide))
    (Eq.trans (W30_of_ne m ρ c main_arg12 (by decide))
    (Eq.trans ((hostOps14_writes (F := F)).keep (W28 m ρ c) (r := main_arg12) (by decide))
    (Eq.trans (W28_of_ne m ρ c main_arg12 (by decide))
    (Eq.trans ((hostOps13_writes (F := F)).keep (W26 m ρ c) (r := main_arg12) (by decide))
    (Eq.trans (W26_of_ne m ρ c main_arg12 (by decide))
    (Eq.trans ((hostOps12_writes (F := F)).keep (W24 m ρ c) (r := main_arg12) (by decide))
    (Eq.trans (W24_of_ne m ρ c main_arg12 (by decide))
    (Eq.trans ((hostOps11_writes (F := F)).keep (W22 m ρ c) (r := main_arg12) (by decide))
    (Eq.trans (W22_of_ne m ρ c main_arg12 (by decide))
    (Eq.trans ((hostOps10_writes (F := F)).keep (W20 m ρ c) (r := main_arg12) (by decide))
    (Eq.trans (W20_of_ne m ρ c main_arg12 (by decide))
    (Eq.trans ((hostOps9_writes (F := F)).keep (W18 m ρ c) (r := main_arg12) (by decide))
    (Eq.trans (W18_of_ne m ρ c main_arg12 (by decide))
    (Eq.trans ((hostOps8_writes (F := F)).keep (W16 m ρ c) (r := main_arg12) (by decide))
    (Eq.trans (W16_of_ne m ρ c main_arg12 (by decide))
    (Eq.trans ((hostOps7_writes (F := F)).keep (W14 m ρ c) (r := main_arg12) (by decide))
    (Eq.trans (W14_of_ne m ρ c main_arg12 (by decide))
    (Eq.trans ((hostOps6_writes (F := F)).keep (W12 m ρ c) (r := main_arg12) (by decide))
    (Eq.trans (W12_of_ne m ρ c main_arg12 (by decide))
    (Eq.trans ((hostOps5_writes (F := F)).keep (W10 m ρ c) (r := main_arg12) (by decide))
    (Eq.trans (W10_of_ne m ρ c main_arg12 (by decide))
    (Eq.trans ((hostOps4_writes (F := F)).keep (W8 m ρ c) (r := main_arg12) (by decide))
    (Eq.trans (W8_of_ne m ρ c main_arg12 (by decide))
    (Eq.trans ((hostOps3_writes (F := F)).keep (W6 m ρ c) (r := main_arg12) (by decide))
    (Eq.trans (W6_of_ne m ρ c main_arg12 (by decide))
    (Eq.trans ((hostOps2_writes (F := F)).keep (W4 m ρ c) (r := main_arg12) (by decide))
    (Eq.trans (W4_of_ne m ρ c main_arg12 (by decide))
    (Eq.trans ((hostOps1_writes (F := F)).keep (W2 m ρ c) (r := main_arg12) (by decide))
    (Eq.trans (W2_of_ne m ρ c main_arg12 (by decide))
    (Eq.trans ((hostOps0_writes (F := F)).keep (W0 m ρ c) (r := main_arg12) (by decide))
    (rfl)))))))))))))))))))))))))))))))

/-- `arg13`, made at boundary 0, is unchanged where it is read at boundary 31. -/
theorem carry_arg13_0_31 (c : Dev nD) : W31 m ρ c (Proc.devRef .tc main_arg13) = m ((c : Thread nD τ).loc main_arg13) :=
  Eq.trans ((hostOps15_writes (F := F)).keep (W30 m ρ c) (r := main_arg13) (by decide))
    (Eq.trans (W30_of_ne m ρ c main_arg13 (by decide))
    (Eq.trans ((hostOps14_writes (F := F)).keep (W28 m ρ c) (r := main_arg13) (by decide))
    (Eq.trans (W28_of_ne m ρ c main_arg13 (by decide))
    (Eq.trans ((hostOps13_writes (F := F)).keep (W26 m ρ c) (r := main_arg13) (by decide))
    (Eq.trans (W26_of_ne m ρ c main_arg13 (by decide))
    (Eq.trans ((hostOps12_writes (F := F)).keep (W24 m ρ c) (r := main_arg13) (by decide))
    (Eq.trans (W24_of_ne m ρ c main_arg13 (by decide))
    (Eq.trans ((hostOps11_writes (F := F)).keep (W22 m ρ c) (r := main_arg13) (by decide))
    (Eq.trans (W22_of_ne m ρ c main_arg13 (by decide))
    (Eq.trans ((hostOps10_writes (F := F)).keep (W20 m ρ c) (r := main_arg13) (by decide))
    (Eq.trans (W20_of_ne m ρ c main_arg13 (by decide))
    (Eq.trans ((hostOps9_writes (F := F)).keep (W18 m ρ c) (r := main_arg13) (by decide))
    (Eq.trans (W18_of_ne m ρ c main_arg13 (by decide))
    (Eq.trans ((hostOps8_writes (F := F)).keep (W16 m ρ c) (r := main_arg13) (by decide))
    (Eq.trans (W16_of_ne m ρ c main_arg13 (by decide))
    (Eq.trans ((hostOps7_writes (F := F)).keep (W14 m ρ c) (r := main_arg13) (by decide))
    (Eq.trans (W14_of_ne m ρ c main_arg13 (by decide))
    (Eq.trans ((hostOps6_writes (F := F)).keep (W12 m ρ c) (r := main_arg13) (by decide))
    (Eq.trans (W12_of_ne m ρ c main_arg13 (by decide))
    (Eq.trans ((hostOps5_writes (F := F)).keep (W10 m ρ c) (r := main_arg13) (by decide))
    (Eq.trans (W10_of_ne m ρ c main_arg13 (by decide))
    (Eq.trans ((hostOps4_writes (F := F)).keep (W8 m ρ c) (r := main_arg13) (by decide))
    (Eq.trans (W8_of_ne m ρ c main_arg13 (by decide))
    (Eq.trans ((hostOps3_writes (F := F)).keep (W6 m ρ c) (r := main_arg13) (by decide))
    (Eq.trans (W6_of_ne m ρ c main_arg13 (by decide))
    (Eq.trans ((hostOps2_writes (F := F)).keep (W4 m ρ c) (r := main_arg13) (by decide))
    (Eq.trans (W4_of_ne m ρ c main_arg13 (by decide))
    (Eq.trans ((hostOps1_writes (F := F)).keep (W2 m ρ c) (r := main_arg13) (by decide))
    (Eq.trans (W2_of_ne m ρ c main_arg13 (by decide))
    (Eq.trans ((hostOps0_writes (F := F)).keep (W0 m ρ c) (r := main_arg13) (by decide))
    (rfl)))))))))))))))))))))))))))))))

/-- `v327_0`, made at boundary 24, is unchanged where it is read at boundary 31. -/
theorem carry_v327_0_24_31 (c : Dev nD) : W31 m ρ c (Proc.devRef .tc main_v327_0) = W24 m ρ c (Proc.devRef .tc main_v327_0) :=
  Eq.trans ((hostOps15_writes (F := F)).keep (W30 m ρ c) (r := main_v327_0) (by decide))
    (Eq.trans (W30_of_ne m ρ c main_v327_0 (by decide))
    (Eq.trans ((hostOps14_writes (F := F)).keep (W28 m ρ c) (r := main_v327_0) (by decide))
    (Eq.trans (W28_of_ne m ρ c main_v327_0 (by decide))
    (Eq.trans ((hostOps13_writes (F := F)).keep (W26 m ρ c) (r := main_v327_0) (by decide))
    (Eq.trans (W26_of_ne m ρ c main_v327_0 (by decide))
    (Eq.trans ((hostOps12_writes (F := F)).keep (W24 m ρ c) (r := main_v327_0) (by decide))
    (rfl)))))))

/-- `v327_1`, made at boundary 24, is unchanged where it is read at boundary 31. -/
theorem carry_v327_1_24_31 (c : Dev nD) : W31 m ρ c (Proc.devRef .tc main_v327_1) = W24 m ρ c (Proc.devRef .tc main_v327_1) :=
  Eq.trans ((hostOps15_writes (F := F)).keep (W30 m ρ c) (r := main_v327_1) (by decide))
    (Eq.trans (W30_of_ne m ρ c main_v327_1 (by decide))
    (Eq.trans ((hostOps14_writes (F := F)).keep (W28 m ρ c) (r := main_v327_1) (by decide))
    (Eq.trans (W28_of_ne m ρ c main_v327_1 (by decide))
    (Eq.trans ((hostOps13_writes (F := F)).keep (W26 m ρ c) (r := main_v327_1) (by decide))
    (Eq.trans (W26_of_ne m ρ c main_v327_1 (by decide))
    (Eq.trans ((hostOps12_writes (F := F)).keep (W24 m ρ c) (r := main_v327_1) (by decide))
    (rfl)))))))

/-- `v327_2`, made at boundary 24, is unchanged where it is read at boundary 31. -/
theorem carry_v327_2_24_31 (c : Dev nD) : W31 m ρ c (Proc.devRef .tc main_v327_2) = W24 m ρ c (Proc.devRef .tc main_v327_2) :=
  Eq.trans ((hostOps15_writes (F := F)).keep (W30 m ρ c) (r := main_v327_2) (by decide))
    (Eq.trans (W30_of_ne m ρ c main_v327_2 (by decide))
    (Eq.trans ((hostOps14_writes (F := F)).keep (W28 m ρ c) (r := main_v327_2) (by decide))
    (Eq.trans (W28_of_ne m ρ c main_v327_2 (by decide))
    (Eq.trans ((hostOps13_writes (F := F)).keep (W26 m ρ c) (r := main_v327_2) (by decide))
    (Eq.trans (W26_of_ne m ρ c main_v327_2 (by decide))
    (Eq.trans ((hostOps12_writes (F := F)).keep (W24 m ρ c) (r := main_v327_2) (by decide))
    (rfl)))))))

/-- `v330`, made at boundary 26, is unchanged where it is read at boundary 32. -/
theorem carry_v330_26_32 (c : Dev nD) : W32 m ρ c (Proc.devRef .tc main_v330) = W26 m ρ c (Proc.devRef .tc main_v330) :=
  Eq.trans (W32_of_ne m ρ c main_v330 (by decide))
    (Eq.trans ((hostOps15_writes (F := F)).keep (W30 m ρ c) (r := main_v330) (by decide))
    (Eq.trans (W30_of_ne m ρ c main_v330 (by decide))
    (Eq.trans ((hostOps14_writes (F := F)).keep (W28 m ρ c) (r := main_v330) (by decide))
    (Eq.trans (W28_of_ne m ρ c main_v330 (by decide))
    (Eq.trans ((hostOps13_writes (F := F)).keep (W26 m ρ c) (r := main_v330) (by decide))
    (rfl))))))

/-- `v333`, made at boundary 28, is unchanged where it is read at boundary 32. -/
theorem carry_v333_28_32 (c : Dev nD) : W32 m ρ c (Proc.devRef .tc main_v333) = W28 m ρ c (Proc.devRef .tc main_v333) :=
  Eq.trans (W32_of_ne m ρ c main_v333 (by decide))
    (Eq.trans ((hostOps15_writes (F := F)).keep (W30 m ρ c) (r := main_v333) (by decide))
    (Eq.trans (W30_of_ne m ρ c main_v333 (by decide))
    (Eq.trans ((hostOps14_writes (F := F)).keep (W28 m ρ c) (r := main_v333) (by decide))
    (rfl))))

/-- `v336`, made at boundary 30, is unchanged where it is read at boundary 32. -/
theorem carry_v336_30_32 (c : Dev nD) : W32 m ρ c (Proc.devRef .tc main_v336) = W30 m ρ c (Proc.devRef .tc main_v336) :=
  Eq.trans (W32_of_ne m ρ c main_v336 (by decide))
    (Eq.trans ((hostOps15_writes (F := F)).keep (W30 m ρ c) (r := main_v336) (by decide))
    (rfl))

end Cert.KernelIdeal.Hand

end
-- ==== Proof.KI.ReadL2a.lean ====
import proofs.«126569_j1468878815453_1_alg».proof.Proof.KI.ReadL1b
import proofs.«126569_j1468878815453_1_alg».proof.Proof.KI.ReadCarryB

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-! ## Host stretch 8 -/

/-- Layer 2's aggregation of relation 0: for each destination row the mean, over the edges into it, of the source
    node type's layer-1 results (a negative source index counted from the end). -/
noncomputable def kAgg2_0 (m : KMem) (ρ : Dev nD → PrngReg) (c : Dev nD) : (⟨S10000x256, .f32⟩ : BufTy).Contents (Elt Ideal) :=
  Sage.aggFn (F := Ideal) _ _ _ _ 20000#32 bcast_S_S500000 bcast_S500000_S500000x1_0 gather_S20000x256_S500000x1_S500000x256_1_0_n_n_0_1_1256
    bcast_S_S10000x256 scatter_S10000x256_S500000x1_S500000x256_1_0_0_1 bcast_S_S500000x1 bcast_S_S10000x1 scatter_S10000x1_S500000x1_S500000x1_1_0_0_1 bcast_S10000x1_S10000x256_0_1
    (kOut1_0 m ρ c) (m ((c : Thread nD τ).loc main_arg14)) (m ((c : Thread nD τ).loc main_arg15))

/-- It is what the aggregation's buffer holds once the host stretch has run: its operations read one back at a time,
    down to the source node type's layer-1 results and the relation's count, unchanged since they were made, and to the
    edge indices as launched. -/
theorem kAgg2_0_eq (m : KMem) (ρ : Dev nD → PrngReg) (c : Dev nD) : W17 m ρ c (Proc.devRef .tc main_v202) = kAgg2_0 m ρ c := by
  have h :=
    (back2 (rd8_v202 (W16 m ρ c))
      (back3 (rd8_v200 (W16 m ρ c))
        ((rd8_v198 (W16 m ρ c)).trans (congrArg (broadcastInDim S10000x256 ![] bcast_S_S10000x256 : (⟨S_, .f32⟩ : BufTy).Contents (Elt Ideal) → (⟨S10000x256, .f32⟩ : BufTy).Contents (Elt Ideal))
          (rd8_cst_42 (W16 m ρ c))))
        ((rd8_v199 (W16 m ρ c)).trans (congrArg (broadcastInDim S500000x1 ![0] bcast_S500000_S500000x1_0 : (⟨S500000, .i32⟩ : BufTy).Contents (Elt Ideal) → (⟨S500000x1, .i32⟩ : BufTy).Contents (Elt Ideal))
          (carry_arg15_0_17 m ρ c)))
        (back2 (rd8_v197 (W16 m ρ c))
          ((carry_v181_10_17 m ρ c).trans (kOut1_0_eq m ρ c))
          ((rd8_v196 (W16 m ρ c)).trans (congrArg (broadcastInDim S500000x1 ![0] bcast_S500000_S500000x1_0 : (⟨S500000, .i32⟩ : BufTy).Contents (Elt Ideal) → (⟨S500000x1, .i32⟩ : BufTy).Contents (Elt Ideal))
            (back3 (rd8_v195 (W16 m ρ c))
              (back2 (rd8_v192 (W16 m ρ c))
                (carry_arg14_0_17 m ρ c)
                ((rd8_v191 (W16 m ρ c)).trans (congrArg (broadcastInDim S500000 ![] bcast_S_S500000 : (⟨S_, .i32⟩ : BufTy).Contents (Elt Ideal) → (⟨S500000, .i32⟩ : BufTy).Contents (Elt Ideal))
                  (rd8_c_40 (W16 m ρ c)))))
              (back2 (rd8_v194 (W16 m ρ c))
                (carry_arg14_0_17 m ρ c)
                ((rd8_v193 (W16 m ρ c)).trans (congrArg (broadcastInDim S500000 ![] bcast_S_S500000 : (⟨S_, .i32⟩ : BufTy).Contents (Elt Ideal) → (⟨S500000, .i32⟩ : BufTy).Contents (Elt Ideal))
                  (rd8_c_41 (W16 m ρ c)))))
              (carry_arg14_0_17 m ρ c))))))
      ((rd8_v201 (W16 m ρ c)).trans (congrArg (broadcastInDim S10000x256 ![0, 1] bcast_S10000x1_S10000x256_0_1 : (⟨S10000x1, .f32⟩ : BufTy).Contents (Elt Ideal) → (⟨S10000x256, .f32⟩ : BufTy).Contents (Elt Ideal))
        ((carry_v5_1_17 m ρ c).trans (kCnt0_eq m ρ c)))))
  exact h

/-- Layer 2's aggregation of relation 1: for each destination row the mean, over the edges into it, of the source
    node type's layer-1 results (a negative source index counted from the end). -/
noncomputable def kAgg2_1 (m : KMem) (ρ : Dev nD → PrngReg) (c : Dev nD) : (⟨S50000x256, .f32⟩ : BufTy).Contents (Elt Ideal) :=
  Sage.aggFn (F := Ideal) _ _ _ _ 20000#32 bcast_S_S400000 bcast_S400000_S400000x1_0 gather_S20000x256_S400000x1_S400000x256_1_0_n_n_0_1_1256
    bcast_S_S50000x256 scatter_S50000x256_S400000x1_S400000x256_1_0_0_1 bcast_S_S400000x1 bcast_S_S50000x1 scatter_S50000x1_S400000x1_S400000x1_1_0_0_1 bcast_S50000x1_S50000x256_0_1
    (kOut1_0 m ρ c) (m ((c : Thread nD τ).loc main_arg16)) (m ((c : Thread nD τ).loc main_arg17))

/-- It is what the aggregation's buffer holds once the host stretch has run: its operations read one back at a time,
    down to the source node type's layer-1 results and the relation's count, unchanged since they were made, and to the
    edge indices as launched. -/
theorem kAgg2_1_eq (m : KMem) (ρ : Dev nD → PrngReg) (c : Dev nD) : W17 m ρ c (Proc.devRef .tc main_v214) = kAgg2_1 m ρ c := by
  have h :=
    (back2 (rd8_v214 (W16 m ρ c))
      (back3 (rd8_v212 (W16 m ρ c))
        ((rd8_v210 (W16 m ρ c)).trans (congrArg (broadcastInDim S50000x256 ![] bcast_S_S50000x256 : (⟨S_, .f32⟩ : BufTy).Contents (Elt Ideal) → (⟨S50000x256, .f32⟩ : BufTy).Contents (Elt Ideal))
          (rd8_cst_45 (W16 m ρ c))))
        ((rd8_v211 (W16 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg17_0_17 m ρ c)))
        (back2 (rd8_v209 (W16 m ρ c))
          ((carry_v181_10_17 m ρ c).trans (kOut1_0_eq m ρ c))
          ((rd8_v208 (W16 m ρ c)).trans (congrArg (broadcastInDim S400000x1 ![0] bcast_S400000_S400000x1_0 : (⟨S400000, .i32⟩ : BufTy).Contents (Elt Ideal) → (⟨S400000x1, .i32⟩ : BufTy).Contents (Elt Ideal))
            (back3 (rd8_v207 (W16 m ρ c))
              (back2 (rd8_v204 (W16 m ρ c))
                (carry_arg16_0_17 m ρ c)
                ((rd8_v203 (W16 m ρ c)).trans (congrArg (broadcastInDim S400000 ![] bcast_S_S400000 : (⟨S_, .i32⟩ : BufTy).Contents (Elt Ideal) → (⟨S400000, .i32⟩ : BufTy).Contents (Elt Ideal))
                  (rd8_c_43 (W16 m ρ c)))))
              (back2 (rd8_v206 (W16 m ρ c))
                (carry_arg16_0_17 m ρ c)
                ((rd8_v205 (W16 m ρ c)).trans (congrArg (broadcastInDim S400000 ![] bcast_S_S400000 : (⟨S_, .i32⟩ : BufTy).Contents (Elt Ideal) → (⟨S400000, .i32⟩ : BufTy).Contents (Elt Ideal))
                  (rd8_c_44 (W16 m ρ c)))))
              (carry_arg16_0_17 m ρ c))))))
      ((rd8_v213 (W16 m ρ c)).trans (congrArg (broadcastInDim S50000x256 ![0, 1] bcast_S50000x1_S50000x256_0_1 : (⟨S50000x1, .f32⟩ : BufTy).Contents (Elt Ideal) → (⟨S50000x256, .f32⟩ : BufTy).Contents (Elt Ideal))
        ((carry_v11_1_17 m ρ c).trans (kCnt1_eq m ρ c)))))
  exact h

/-- Layer 2's aggregation of relation 2: for each destination row the mean, over the edges into it, of the source
    node type's layer-1 results (a negative source index counted from the end). -/
noncomputable def kAgg2_2 (m : KMem) (ρ : Dev nD → PrngReg) (c : Dev nD) : (⟨S3000x256, .f32⟩ : BufTy).Contents (Elt Ideal) :=
  Sage.aggFn (F := Ideal) _ _ _ _ 50000#32 bcast_S_S150000 bcast_S150000_S150000x1_0 gather_S50000x256_S150000x1_S150000x256_1_0_n_n_0_1_1256
    bcast_S_S3000x256 scatter_S3000x256_S150000x1_S150000x256_1_0_0_1 bcast_S_S150000x1 bcast_S_S3000x1 scatter_S3000x1_S150000x1_S150000x1_1_0_0_1 bcast_S3000x1_S3000x256_0_1
    (kOut1_1 m ρ c) (m ((c : Thread nD τ).loc main_arg18)) (m ((c : Thread nD τ).loc main_arg19))

/-- It is what the aggregation's buffer holds once the host stretch has run: its operations read one back at a time,
    down to the source node type's layer-1 results and the relation's count, unchanged since they were made, and to the
    edge indices as launched. -/
theorem kAgg2_2_eq (m : KMem) (ρ : Dev nD → PrngReg) (c : Dev nD) : W17 m ρ c (Proc.devRef .tc main_v226) = kAgg2_2 m ρ c := by
  have h :=
    (back2 (rd8_v226 (W16 m ρ c))
      (back3 (rd8_v224 (W16 m ρ c))
        ((rd8_v222 (W16 m ρ c)).trans (congrArg (broadcastInDim S3000x256 ![] bcast_S_S3000x256 : (⟨S_, .f32⟩ : BufTy).Contents (Elt Ideal) → (⟨S3000x256, .f32⟩ : BufTy).Contents (Elt Ideal))
          (rd8_cst_48 (W16 m ρ c))))
        ((rd8_v223 (W16 m ρ c)).trans (congrArg (broadcastInDim S150000x1 ![0] bcast_S150000_S150000x1_0 : (⟨S150000, .i32⟩ : BufTy).Contents (Elt Ideal) → (⟨S150000x1, .i32⟩ : BufTy).Contents (Elt Ideal))
          (carry_arg19_0_17 m ρ c)))
        (back2 (rd8_v221 (W16 m ρ c))
          ((carry_v184_12_17 m ρ c).trans (kOut1_1_eq m ρ c))
          ((rd8_v220 (W16 m ρ c)).trans (congrArg (broadcastInDim S150000x1 ![0] bcast_S150000_S150000x1_0 : (⟨S150000, .i32⟩ : BufTy).Contents (Elt Ideal) → (⟨S150000x1, .i32⟩ : BufTy).Contents (Elt Ideal))
            (back3 (rd8_v219 (W16 m ρ c))
              (back2 (rd8_v216 (W16 m ρ c))
                (carry_arg18_0_17 m ρ c)
                ((rd8_v215 (W16 m ρ c)).trans (congrArg (broadcastInDim S150000 ![] bcast_S_S150000 : (⟨S_, .i32⟩ : BufTy).Contents (Elt Ideal) → (⟨S150000, .i32⟩ : BufTy).Contents (Elt Ideal))
                  (rd8_c_46 (W16 m ρ c)))))
              (back2 (rd8_v218 (W16 m ρ c))
                (carry_arg18_0_17 m ρ c)
                ((rd8_v217 (W16 m ρ c)).trans (congrArg (broadcastInDim S150000 ![] bcast_S_S150000 : (⟨S_, .i32⟩ : BufTy).Contents (Elt Ideal) → (⟨S150000, .i32⟩ : BufTy).Contents (Elt Ideal))
                  (rd8_c_47 (W16 m ρ c)))))
              (carry_arg18_0_17 m ρ c))))))
      ((rd8_v225 (W16 m ρ c)).trans (congrArg (broadcastInDim S3000x256 ![0, 1] bcast_S3000x1_S3000x256_0_1 : (⟨S3000x1, .f32⟩ : BufTy).Contents (Elt Ideal) → (⟨S3000x256, .f32⟩ : BufTy).Contents (Elt Ideal))
        ((carry_v17_1_17 m ρ c).trans (kCnt2_eq m ρ c)))))
  exact h

/-- Layer 2's aggregation of relation 3: for each destination row the mean, over the edges into it, of the source
    node type's layer-1 results (a negative source index counted from the end). -/
noncomputable def kAgg2_3 (m : KMem) (ρ : Dev nD → PrngReg) (c : Dev nD) : (⟨S10000x256, .f32⟩ : BufTy).Contents (Elt Ideal) :=
  Sage.aggFn (F := Ideal) _ _ _ _ 50000#32 bcast_S_S400000 bcast_S400000_S400000x1_0 gather_S50000x256_S400000x1_S400000x256_1_0_n_n_0_1_1256
    bcast_S_S10000x256 scatter_S10000x256_S400000x1_S400000x256_1_0_0_1 bcast_S_S400000x1 bcast_S_S10000x1 scatter_S10000x1_S400000x1_S400000x1_1_0_0_1 bcast_S10000x1_S10000x256_0_1
    (kOut1_1 m ρ c) (m ((c : Thread nD τ).loc main_arg20)) (m ((c : Thread nD τ).loc main_arg21))

/-- It is what the aggregation's buffer holds once the host stretch has run: its operations read one back at a time,
    down to the source node type's layer-1 results and the relation's count, unchanged since they were made, and to the
    edge indices as launched. -/
theorem kAgg2_3_eq (m : KMem) (ρ : Dev nD → PrngReg) (c : Dev nD) : W17 m ρ c (Proc.devRef .tc main_v238) = kAgg2_3 m ρ c := by
  have h :=
    (back2 (rd8_v238 (W16 m ρ c))
      (back3 (rd8_v236 (W16 m ρ c))
        ((rd8_v234 (W16 m ρ c)).trans (congrArg (broadcastInDim S10000x256 ![] bcast_S_S10000x256 : (⟨S_, .f32⟩ : BufTy).Contents (Elt Ideal) → (⟨S10000x256, .f32⟩ : BufTy).Contents (Elt Ideal))
          (rd8_cst_51 (W16 m ρ c))))
        ((rd8_v235 (W16 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg21_0_17 m ρ c)))
        (back2 (rd8_v233 (W16 m ρ c))
          ((carry_v184_12_17 m ρ c).trans (kOut1_1_eq m ρ c))
          ((rd8_v232 (W16 m ρ c)).trans (congrArg (broadcastInDim S400000x1 ![0] bcast_S400000_S400000x1_0 : (⟨S400000, .i32⟩ : BufTy).Contents (Elt Ideal) → (⟨S400000x1, .i32⟩ : BufTy).Contents (Elt Ideal))
            (back3 (rd8_v231 (W16 m ρ c))
              (back2 (rd8_v228 (W16 m ρ c))
                (carry_arg20_0_17 m ρ c)
                ((rd8_v227 (W16 m ρ c)).trans (congrArg (broadcastInDim S400000 ![] bcast_S_S400000 : (⟨S_, .i32⟩ : BufTy).Contents (Elt Ideal) → (⟨S400000, .i32⟩ : BufTy).Contents (Elt Ideal))
                  (rd8_c_49 (W16 m ρ c)))))
              (back2 (rd8_v230 (W16 m ρ c))
                (carry_arg20_0_17 m ρ c)
                ((rd8_v229 (W16 m ρ c)).trans (congrArg (broadcastInDim S400000 ![] bcast_S_S400000 : (⟨S_, .i32⟩ : BufTy).Contents (Elt Ideal) → (⟨S400000, .i32⟩ : BufTy).Contents (Elt Ideal))
                  (rd8_c_50 (W16 m ρ c)))))
              (carry_arg20_0_17 m ρ c))))))
      ((rd8_v237 (W16 m ρ c)).trans (congrArg (broadcastInDim S10000x256 ![0, 1] bcast_S10000x1_S10000x256_0_1 : (⟨S10000x1, .f32⟩ : BufTy).Contents (Elt Ideal) → (⟨S10000x256, .f32⟩ : BufTy).Contents (Elt Ideal))
        ((carry_v23_1_17 m ρ c).trans (kCnt3_eq m ρ c)))))
  exact h

/-- Layer 2's aggregation of relation 4: for each destination row the mean, over the edges into it, of the source
    node type's layer-1 results (a negative source index counted from the end). -/
noncomputable def kAgg2_4 (m : KMem) (ρ : Dev nD → PrngReg) (c : Dev nD) : (⟨S20000x256, .f32⟩ : BufTy).Contents (Elt Ideal) :=
  Sage.aggFn (F := Ideal) _ _ _ _ 10000#32 bcast_S_S500000 bcast_S500000_S500000x1_0 gather_S10000x256_S500000x1_S500000x256_1_0_n_n_0_1_1256
    bcast_S_S20000x256 scatter_S20000x256_S500000x1_S500000x256_1_0_0_1 bcast_S_S500000x1 bcast_S_S20000x1 scatter_S20000x1_S500000x1_S500000x1_1_0_0_1 bcast_S20000x1_S20000x256_0_1
    (kOut1_2 m ρ c) (m ((c : Thread nD τ).loc main_arg22)) (m ((c : Thread nD τ).loc main_arg23))

/-- It is what the aggregation's buffer holds once the host stretch has run: its operations read one back at a time,
    down to the source node type's layer-1 results and the relation's count, unchanged since they were made, and to the
    edge indices as launched. -/
theorem kAgg2_4_eq (m : KMem) (ρ : Dev nD → PrngReg) (c : Dev nD) : W17 m ρ c (Proc.devRef .tc main_v250) = kAgg2_4 m ρ c := by
  have h :=
    (back2 (rd8_v250 (W16 m ρ c))
      (back3 (rd8_v248 (W16 m ρ c))
        ((rd8_v246 (W16 m ρ c)).trans (congrArg (broadcastInDim S20000x256 ![] bcast_S_S20000x256 : (⟨S_, .f32⟩ : BufTy).Contents (Elt Ideal) → (⟨S20000x256, .f32⟩ : BufTy).Contents (Elt Ideal))
          (rd8_cst_54 (W16 m ρ c))))
        ((rd8_v247 (W16 m ρ c)).trans (congrArg (broadcastInDim S500000x1 ![0] bcast_S500000_S500000x1_0 : (⟨S500000, .i32⟩ : BufTy).Contents (Elt Ideal) → (⟨S500000x1, .i32⟩ : BufTy).Contents (Elt Ideal))
          (carry_arg23_0_17 m ρ c)))
        (back2 (rd8_v245 (W16 m ρ c))
          ((carry_v187_14_17 m ρ c).trans (kOut1_2_eq m ρ c))
          ((rd8_v244 (W16 m ρ c)).trans (congrArg (broadcastInDim S500000x1 ![0] bcast_S500000_S500000x1_0 : (⟨S500000, .i32⟩ : BufTy).Contents (Elt Ideal) → (⟨S500000x1, .i32⟩ : BufTy).Contents (Elt Ideal))
            (back3 (rd8_v243 (W16 m ρ c))
              (back2 (rd8_v240 (W16 m ρ c))
                (carry_arg22_0_17 m ρ c)
                ((rd8_v239 (W16 m ρ c)).trans (congrArg (broadcastInDim S500000 ![] bcast_S_S500000 : (⟨S_, .i32⟩ : BufTy).Contents (Elt Ideal) → (⟨S500000, .i32⟩ : BufTy).Contents (Elt Ideal))
                  (rd8_c_52 (W16 m ρ c)))))
              (back2 (rd8_v242 (W16 m ρ c))
                (carry_arg22_0_17 m ρ c)
                ((rd8_v241 (W16 m ρ c)).trans (congrArg (broadcastInDim S500000 ![] bcast_S_S500000 : (⟨S_, .i32⟩ : BufTy).Contents (Elt Ideal) → (⟨S500000, .i32⟩ : BufTy).Contents (Elt Ideal))
                  (rd8_c_53 (W16 m ρ c)))))
              (carry_arg22_0_17 m ρ c))))))
      ((rd8_v249 (W16 m ρ c)).trans (congrArg (broadcastInDim S20000x256 ![0, 1] bcast_S20000x1_S20000x256_0_1 : (⟨S20000x1, .f32⟩ : BufTy).Contents (Elt Ideal) → (⟨S20000x256, .f32⟩ : BufTy).Contents (Elt Ideal))
        ((carry_v29_1_17 m ρ c).trans (kCnt4_eq m ρ c)))))
  exact h

/-- Layer 2's aggregation of relation 5: for each destination row the mean, over the edges into it, of the source
    node type's layer-1 results (a negative source index counted from the end). -/
noncomputable def kAgg2_5 (m : KMem) (ρ : Dev nD → PrngReg) (c : Dev nD) : (⟨S20000x256, .f32⟩ : BufTy).Contents (Elt Ideal) :=
  Sage.aggFn (F := Ideal) _ _ _ _ 50000#32 bcast_S_S400000 bcast_S400000_S400000x1_0 gather_S50000x256_S400000x1_S400000x256_1_0_n_n_0_1_1256
    bcast_S_S20000x256 scatter_S20000x256_S400000x1_S400000x256_1_0_0_1 bcast_S_S400000x1 bcast_S_S20000x1 scatter_S20000x1_S400000x1_S400000x1_1_0_0_1 bcast_S20000x1_S20000x256_0_1
    (kOut1_1 m ρ c) (m ((c : Thread nD τ).loc main_arg24)) (m ((c : Thread nD τ).loc main_arg25))

/-- It is what the aggregation's buffer holds once the host stretch has run: its operations read one back at a time,
    down to the source node type's layer-1 results and the relation's count, unchanged since they were made, and to the
    edge indices as launched. -/
theorem kAgg2_5_eq (m : KMem) (ρ : Dev nD → PrngReg) (c : Dev nD) : W17 m ρ c (Proc.devRef .tc main_v262) = kAgg2_5 m ρ c := by
  have h :=
    (back2 (rd8_v262 (W16 m ρ c))
      (back3 (rd8_v260 (W16 m ρ c))
        ((rd8_v258 (W16 m ρ c)).trans (congrArg (broadcastInDim S20000x256 ![] bcast_S_S20000x256 : (⟨S_, .f32⟩ : BufTy).Contents (Elt Ideal) → (⟨S20000x256, .f32⟩ : BufTy).Contents (Elt Ideal))
          (rd8_cst_57 (W16 m ρ c))))
        ((rd8_v259 (W16 m ρ c)).trans (congrArg (broadcastInDim S400000x1 ![0] bcast_S400000_S400000x1_0 : (⟨S400000, .i32⟩ : BufTy).Contents (Elt Ideal) → (⟨S400000x1, .i32⟩ : BufTy).Contents (Elt Ideal))
          (carry_arg25_0_17 m ρ c)))
        (back2 (rd8_v257 (W16 m ρ c))
          ((carry_v184_12_17 m ρ c).trans (kOut1_1_eq m ρ c))
          ((rd8_v256 (W16 m ρ c)).trans (congrArg (broadcastInDim S400000x1 ![0] bcast_S400000_S400000x1_0 : (⟨S400000, .i32⟩ : BufTy).Contents (Elt Ideal) → (⟨S400000x1, .i32⟩ : BufTy).Contents (Elt Ideal))
            (back3 (rd8_v255 (W16 m ρ c))
              (back2 (rd8_v252 (W16 m ρ c))
                (carry_arg24_0_17 m ρ c)
                ((rd8_v251 (W16 m ρ c)).trans (congrArg (broadcastInDim S400000 ![] bcast_S_S400000 : (⟨S_, .i32⟩ : BufTy).Contents (Elt Ideal) → (⟨S400000, .i32⟩ : BufTy).Contents (Elt Ideal))
                  (rd8_c_55 (W16 m ρ c)))))
              (back2 (rd8_v254 (W16 m ρ c))
                (carry_arg24_0_17 m ρ c)
                ((rd8_v253 (W16 m ρ c)).trans (congrArg (broadcastInDim S400000 ![] bcast_S_S400000 : (⟨S_, .i32⟩ : BufTy).Contents (Elt Ideal) → (⟨S400000, .i32⟩ : BufTy).Contents (Elt Ideal))
                  (rd8_c_56 (W16 m ρ c)))))
              (carry_arg24_0_17 m ρ c))))))
      ((rd8_v261 (W16 m ρ c)).trans (congrArg (broadcastInDim S20000x256 ![0, 1] bcast_S20000x1_S20000x256_0_1 : (⟨S20000x1, .f32⟩ : BufTy).Contents (Elt Ideal) → (⟨S20000x256, .f32⟩ : BufTy).Contents (Elt Ideal))
        ((carry_v35_1_17 m ρ c).trans (kCnt5_eq m ρ c)))))
  exact h

/-- Layer 2's aggregation of relation 6: for each destination row the mean, over the edges into it, of the source
    node type's layer-1 results (a negative source index counted from the end). -/
noncomputable def kAgg2_6 (m : KMem) (ρ : Dev nD → PrngReg) (c : Dev nD) : (⟨S50000x256, .f32⟩ : BufTy).Contents (Elt Ideal) :=
  Sage.aggFn (F := Ideal) _ _ _ _ 3000#32 bcast_S_S150000 bcast_S150000_S150000x1_0 gather_S3000x256_S150000x1_S150000x256_1_0_n_n_0_1_1256
    bcast_S_S50000x256 scatter_S50000x256_S150000x1_S150000x256_1_0_0_1 bcast_S_S150000x1 bcast_S_S50000x1 scatter_S50000x1_S150000x1_S150000x1_1_0_0_1 bcast_S50000x1_S50000x256_0_1
    (kOut1_3 m ρ c) (m ((c : Thread nD τ).loc main_arg26)) (m ((c : Thread nD τ).loc main_arg27))

/-- It is what the aggregation's buffer holds once the host stretch has run: its operations read one back at a time,
    down to the source node type's layer-1 results and the relation's count, unchanged since they were made, and to the
    edge indices as launched. -/
theorem kAgg2_6_eq (m : KMem) (ρ : Dev nD → PrngReg) (c : Dev nD) : W17 m ρ c (Proc.devRef .tc main_v274) = kAgg2_6 m ρ c := by
  have h :=
    (back2 (rd8_v274 (W16 m ρ c))
      (back3 (rd8_v272 (W16 m ρ c))
        ((rd8_v270 (W16 m ρ c)).trans (congrArg (broadcastInDim S50000x256 ![] bcast_S_S50000x256 : (⟨S_, .f32⟩ : BufTy).Contents (Elt Ideal) → (⟨S50000x256, .f32⟩ : BufTy).Contents (Elt Ideal))
          (rd8_cst_60 (W16 m ρ c))))
        ((rd8_v271 (W16 m ρ c)).trans (congrArg (broadcastInDim S150000x1 ![0] bcast_S150000_S150000x1_0 : (⟨S150000, .i32⟩ : BufTy).Contents (Elt Ideal) → (⟨S150000x1, .i32⟩ : BufTy).Contents (Elt Ideal))
          (carry_arg27_0_17 m ρ c)))
        (back2 (rd8_v269 (W16 m ρ c))
          ((carry_v190_16_17 m ρ c).trans (kOut1_3_eq m ρ c))
          ((rd8_v268 (W16 m ρ c)).trans (congrArg (broadcastInDim S150000x1 ![0] bcast_S150000_S150000x1_0 : (⟨S150000, .i32⟩ : BufTy).Contents (Elt Ideal) → (⟨S150000x1, .i32⟩ : BufTy).Contents (Elt Ideal))
            (back3 (rd8_v267 (W16 m ρ c))
              (back2 (rd8_v264 (W16 m ρ c))
                (carry_arg26_0_17 m ρ c)
                ((rd8_v263 (W16 m ρ c)).trans (congrArg (broadcastInDim S150000 ![] bcast_S_S150000 : (⟨S_, .i32⟩ : BufTy).Contents (Elt Ideal) → (⟨S150000, .i32⟩ : BufTy).Contents (Elt Ideal))
                  (rd8_c_58 (W16 m ρ c)))))
              (back2 (rd8_v266 (W16 m ρ c))
                (carry_arg26_0_17 m ρ c)
                ((rd8_v265 (W16 m ρ c)).trans (congrArg (broadcastInDim S150000 ![] bcast_S_S150000 : (⟨S_, .i32⟩ : BufTy).Contents (Elt Ideal) → (⟨S150000, .i32⟩ : BufTy).Contents (Elt Ideal))
                  (rd8_c_59 (W16 m ρ c)))))
              (carry_arg26_0_17 m ρ c))))))
      ((rd8_v273 (W16 m ρ c)).trans (congrArg (broadcastInDim S50000x256 ![0, 1] bcast_S50000x1_S50000x256_0_1 : (⟨S50000x1, .f32⟩ : BufTy).Contents (Elt Ideal) → (⟨S50000x256, .f32⟩ : BufTy).Contents (Elt Ideal))
        ((carry_v41_1_17 m ρ c).trans (kCnt6_eq m ρ c)))))
  exact h

/-- Layer 2's left (neighbour) weights of relation 4: matrix 4 of the stack of left (neighbour) weights. -/
noncomputable def kWl2_4 (m : KMem) (ρ : Dev nD → PrngReg) (c : Dev nD) : (⟨S256x256, .f32⟩ : BufTy).Contents (Elt Ideal) :=
  Sage.wSlice (F := Ideal) _ _ _ 4 slices_S7x256x256_S1x256x256_4_0_0 shapeCasts_S1x256x256_S256x256 (m ((c : Thread nD τ).loc main_arg7))

/-- It is what the matrix's buffer holds once the host stretch has run. -/
theorem kWl2_4_eq (m : KMem) (ρ : Dev nD → PrngReg) (c : Dev nD) : W17 m ρ c (Proc.devRef .tc main_v276) = kWl2_4 m ρ c := by
  have h :=
    ((rd8_v276 (W16 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd8_v275 (W16 m ρ c)).trans (congrArg ((extractStridedSlice S1x256x256 ![4, 0, 0] · slices_S7x256x256_S1x256x256_4_0_0) : (⟨S7x256x256, .f32⟩ : BufTy).Contents (Elt Ideal) → (⟨S1x256x256, .f32⟩ : BufTy).Contents (Elt Ideal))
      (carry_arg7_0_17 m ρ c)))))
  exact h

/-- Layer 2's left (neighbour) weights of relation 5: matrix 5 of the stack of left (neighbour) weights. -/
noncomputable def kWl2_5 (m : KMem) (ρ : Dev nD → PrngReg) (c : Dev nD) : (⟨S256x256, .f32⟩ : BufTy).Contents (Elt Ideal) :=
  Sage.wSlice (F := Ideal) _ _ _ 5 slices_S7x256x256_S1x256x256_5_0_0 shapeCasts_S1x256x256_S256x256 (m ((c : Thread nD τ).loc main_arg7))

/-- It is what the matrix's buffer holds once the host stretch has run. -/
theorem kWl2_5_eq (m : KMem) (ρ : Dev nD → PrngReg) (c : Dev nD) : W17 m ρ c (Proc.devRef .tc main_v278) = kWl2_5 m ρ c := by
  have h :=
    ((rd8_v278 (W16 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd8_v277 (W16 m ρ c)).trans (congrArg ((extractStridedSlice S1x256x256 ![5, 0, 0] · slices_S7x256x256_S1x256x256_5_0_0) : (⟨S7x256x256, .f32⟩ : BufTy).Contents (Elt Ideal) → (⟨S1x256x256, .f32⟩ : BufTy).Contents (Elt Ideal))
      (carry_arg7_0_17 m ρ c)))))
  exact h

/-- Layer 2's right (self) weights of relation 4: matrix 4 of the stack of right (self) weights. -/
noncomputable def kWr2_4 (m : KMem) (ρ : Dev nD → PrngReg) (c : Dev nD) : (⟨S256x256, .f32⟩ : BufTy).Contents (Elt Ideal) :=
  Sage.wSlice (F := Ideal) _ _ _ 4 slices_S7x256x256_S1x256x256_4_0_0 shapeCasts_S1x256x256_S256x256 (m ((c : Thread nD τ).loc main_arg8))

/-- It is what the matrix's buffer holds once the host stretch has run. -/
theorem kWr2_4_eq (m : KMem) (ρ : Dev nD → PrngReg) (c : Dev nD) : W17 m ρ c (Proc.devRef .tc main_v280) = kWr2_4 m ρ c := by
  have h :=
    ((rd8_v280 (W16 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd8_v279 (W16 m ρ c)).trans (congrArg ((extractStridedSlice S1x256x256 ![4, 0, 0] · slices_S7x256x256_S1x256x256_4_0_0) : (⟨S7x256x256, .f32⟩ : BufTy).Contents (Elt Ideal) → (⟨S1x256x256, .f32⟩ : BufTy).Contents (Elt Ideal))
      (carry_arg8_0_17 m ρ c)))))
  exact h

/-- Layer 2's right (self) weights of relation 5: matrix 5 of the stack of right (self) weights. -/
noncomputable def kWr2_5 (m : KMem) (ρ : Dev nD → PrngReg) (c : Dev nD) : (⟨S256x256, .f32⟩ : BufTy).Contents (Elt Ideal) :=
  Sage.wSlice (F := Ideal) _ _ _ 5 slices_S7x256x256_S1x256x256_5_0_0 shapeCasts_S1x256x256_S256x256 (m ((c : Thread nD τ).loc main_arg8))

/-- It is what the matrix's buffer holds once the host stretch has run. -/
theorem kWr2_5_eq (m : KMem) (ρ : Dev nD → PrngReg) (c : Dev nD) : W17 m ρ c (Proc.devRef .tc main_v282) = kWr2_5 m ρ c := by
  have h :=
    ((rd8_v282 (W16 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd8_v281 (W16 m ρ c)).trans (congrArg ((extractStridedSlice S1x256x256 ![5, 0, 0] · slices_S7x256x256_S1x256x256_5_0_0) : (⟨S7x256x256, .f32⟩ : BufTy).Contents (Elt Ideal) → (⟨S1x256x256, .f32⟩ : BufTy).Contents (Elt Ideal))
      (carry_arg8_0_17 m ρ c)))))
  exact h

/-- Layer 2's bias of relation 4 as a row: row 4 of the biases, flattened and laid out as one row. -/
noncomputable def kB2_4 (m : KMem) (ρ : Dev nD → PrngReg) (c : Dev nD) : (⟨S1x256, .f32⟩ : BufTy).Contents (Elt Ideal) :=
  shapeCast S1x256 (shapeCast S256 (extractStridedSlice S1x256 ![4, 0] (m ((c : Thread nD τ).loc main_arg9)) slices_S7x256_S1x256_4_0) shapeCasts_S1x256_S256) shapeCasts_S256_S1x256

/-- It is what the row's buffer holds once the host stretch has run. -/
theorem kB2_4_eq (m : KMem) (ρ : Dev nD → PrngReg) (c : Dev nD) : W17 m ρ c (Proc.devRef .tc main_v287) = kB2_4 m ρ c := by
  have h :=
    ((rd8_v287 (W16 m ρ c)).trans (congrArg (fun x : (⟨S256, .f32⟩ : BufTy).Contents (Elt Ideal) => (shapeCast S1x256 x shapeCasts_S256_S1x256 : (⟨S1x256, .f32⟩ : BufTy).Contents (Elt Ideal)))
    ((rd8_v284 (W16 m ρ c)).trans (congrArg (fun x : (⟨S1x256, .f32⟩ : BufTy).Contents (Elt Ideal) => (shapeCast S256 x shapeCasts_S1x256_S256 : (⟨S256, .f32⟩ : BufTy).Contents (Elt Ideal)))
      ((rd8_v283 (W16 m ρ c)).trans (congrArg ((extractStridedSlice S1x256 ![4, 0] · slices_S7x256_S1x256_4_0) : (⟨S7x256, .f32⟩ : BufTy).Contents (Elt Ideal) → (⟨S1x256, .f32⟩ : BufTy).Contents (Elt Ideal))
        (carry_arg9_0_17 m ρ c)))))))
  exact h

/-- Layer 2's bias of relation 5 as a row: row 5 of the biases, flattened and laid out as one row. -/
noncomputable def kB2_5 (m : KMem) (ρ : Dev nD → PrngReg) (c : Dev nD) : (⟨S1x256, .f32⟩ : BufTy).Contents (Elt Ideal) :=
  shapeCast S1x256 (shapeCast S256 (extractStridedSlice S1x256 ![5, 0] (m ((c : Thread nD τ).loc main_arg9)) slices_S7x256_S1x256_5_0) shapeCasts_S1x256_S256) shapeCasts_S256_S1x256

/-- It is what the row's buffer holds once the host stretch has run. -/
theorem kB2_5_eq (m : KMem) (ρ : Dev nD → PrngReg) (c : Dev nD) : W17 m ρ c (Proc.devRef .tc main_v288) = kB2_5 m ρ c := by
  have h :=
    ((rd8_v288 (W16 m ρ c)).trans (congrArg (fun x : (⟨S256, .f32⟩ : BufTy).Contents (Elt Ideal) => (shapeCast S1x256 x shapeCasts_S256_S1x256 : (⟨S1x256, .f32⟩ : BufTy).Contents (Elt Ideal)))
    ((rd8_v286 (W16 m ρ c)).trans (congrArg (fun x : (⟨S1x256, .f32⟩ : BufTy).Contents (Elt Ideal) => (shapeCast S256 x shapeCasts_S1x256_S256 : (⟨S256, .f32⟩ : BufTy).Contents (Elt Ideal)))
      ((rd8_v285 (W16 m ρ c)).trans (congrArg ((extractStridedSlice S1x256 ![5, 0] · slices_S7x256_S1x256_5_0) : (⟨S7x256, .f32⟩ : BufTy).Contents (Elt Ideal) → (⟨S1x256, .f32⟩ : BufTy).Contents (Elt Ideal))
        (carry_arg9_0_17 m ρ c)))))))
  exact h

/-! ## Host stretch 9 -/

/-- Layer 2's left (neighbour) weights of relation 1: matrix 1 of the stack of left (neighbour) weights. -/
noncomputable def kWl2_1 (m : KMem) (ρ : Dev nD → PrngReg) (c : Dev nD) : (⟨S256x256, .f32⟩ : BufTy).Contents (Elt Ideal) :=
  Sage.wSlice (F := Ideal) _ _ _ 1 slices_S7x256x256_S1x256x256_1_0_0 shapeCasts_S1x256x256_S256x256 (m ((c : Thread nD τ).loc main_arg7))

/-- It is what the matrix's buffer holds once the host stretch has run. -/
theorem kWl2_1_eq (m : KMem) (ρ : Dev nD → PrngReg) (c : Dev nD) : W19 m ρ c (Proc.devRef .tc main_v291) = kWl2_1 m ρ c := by
  have h :=
    ((rd9_v291 (W18 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd9_v290 (W18 m ρ c)).trans (congrArg ((extractStridedSlice S1x256x256 ![1, 0, 0] · slices_S7x256x256_S1x256x256_1_0_0) : (⟨S7x256x256, .f32⟩ : BufTy).Contents (Elt Ideal) → (⟨S1x256x256, .f32⟩ : BufTy).Contents (Elt Ideal))
      (carry_arg7_0_19 m ρ c)))))
  exact h

/-- Layer 2's left (neighbour) weights of relation 6: matrix 6 of the stack of left (neighbour) weights. -/
noncomputable def kWl2_6 (m : KMem) (ρ : Dev nD → PrngReg) (c : Dev nD) : (⟨S256x256, .f32⟩ : BufTy).Contents (Elt Ideal) :=
  Sage.wSlice (F := Ideal) _ _ _ 6 slices_S7x256x256_S1x256x256_6_0_0 shapeCasts_S1x256x256_S256x256 (m ((c : Thread nD τ).loc main_arg7))

/-- It is what the matrix's buffer holds once the host stretch has run. -/
theorem kWl2_6_eq (m : KMem) (ρ : Dev nD → PrngReg) (c : Dev nD) : W19 m ρ c (Proc.devRef .tc main_v293) = kWl2_6 m ρ c := by
  have h :=
    ((rd9_v293 (W18 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd9_v292 (W18 m ρ c)).trans (congrArg ((extractStridedSlice S1x256x256 ![6, 0, 0] · slices_S7x256x256_S1x256x256_6_0_0) : (⟨S7x256x256, .f32⟩ : BufTy).Contents (Elt Ideal) → (⟨S1x256x256, .f32⟩ : BufTy).Contents (Elt Ideal))
      (carry_arg7_0_19 m ρ c)))))
  exact h

/-- Layer 2's right (self) weights of relation 1: matrix 1 of the stack of right (self) weights. -/
noncomputable def kWr2_1 (m : KMem) (ρ : Dev nD → PrngReg) (c : Dev nD) : (⟨S256x256, .f32⟩ : BufTy).Contents (Elt Ideal) :=
  Sage.wSlice (F := Ideal) _ _ _ 1 slices_S7x256x256_S1x256x256_1_0_0 shapeCasts_S1x256x256_S256x256 (m ((c : Thread nD τ).loc main_arg8))

/-- It is what the matrix's buffer holds once the host stretch has run. -/
theorem kWr2_1_eq (m : KMem) (ρ : Dev nD → PrngReg) (c : Dev nD) : W19 m ρ c (Proc.devRef .tc main_v295) = kWr2_1 m ρ c := by
  have h :=
    ((rd9_v295 (W18 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd9_v294 (W18 m ρ c)).trans (congrArg ((extractStridedSlice S1x256x256 ![1, 0, 0] · slices_S7x256x256_S1x256x256_1_0_0) : (⟨S7x256x256, .f32⟩ : BufTy).Contents (Elt Ideal) → (⟨S1x256x256, .f32⟩ : BufTy).Contents (Elt Ideal))
      (carry_arg8_0_19 m ρ c)))))
  exact h

/-- Layer 2's right (self) weights of relation 6: matrix 6 of the stack of right (self) weights. -/
noncomputable def kWr2_6 (m : KMem) (ρ : Dev nD → PrngReg) (c : Dev nD) : (⟨S256x256, .f32⟩ : BufTy).Contents (Elt Ideal) :=
  Sage.wSlice (F := Ideal) _ _ _ 6 slices_S7x256x256_S1x256x256_6_0_0 shapeCasts_S1x256x256_S256x256 (m ((c : Thread nD τ).loc main_arg8))

/-- It is what the matrix's buffer holds once the host stretch has run. -/
theorem kWr2_6_eq (m : KMem) (ρ : Dev nD → PrngReg) (c : Dev nD) : W19 m ρ c (Proc.devRef .tc main_v297) = kWr2_6 m ρ c := by
  have h :=
    ((rd9_v297 (W18 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd9_v296 (W18 m ρ c)).trans (congrArg ((extractStridedSlice S1x256x256 ![6, 0, 0] · slices_S7x256x256_S1x256x256_6_0_0) : (⟨S7x256x256, .f32⟩ : BufTy).Contents (Elt Ideal) → (⟨S1x256x256, .f32⟩ : BufTy).Contents (Elt Ideal))
      (carry_arg8_0_19 m ρ c)))))
  exact h

/-- Layer 2's bias of relation 1 as a row: row 1 of the biases, flattened and laid out as one row. -/
noncomputable def kB2_1 (m : KMem) (ρ : Dev nD → PrngReg) (c : Dev nD) : (⟨S1x256, .f32⟩ : BufTy).Contents (Elt Ideal) :=
  shapeCast S1x256 (shapeCast S256 (extractStridedSlice S1x256 ![1, 0] (m ((c : Thread nD τ).loc main_arg9)) slices_S7x256_S1x256_1_0) shapeCasts_S1x256_S256) shapeCasts_S256_S1x256

/-- It is what the row's buffer holds once the host stretch has run. -/
theorem kB2_1_eq (m : KMem) (ρ : Dev nD → PrngReg) (c : Dev nD) : W19 m ρ c (Proc.devRef .tc main_v302) = kB2_1 m ρ c := by
  have h :=
    ((rd9_v302 (W18 m ρ c)).trans (congrArg (fun x : (⟨S256, .f32⟩ : BufTy).Contents (Elt Ideal) => (shapeCast S1x256 x shapeCasts_S256_S1x256 : (⟨S1x256, .f32⟩ : BufTy).Contents (Elt Ideal)))
    ((rd9_v299 (W18 m ρ c)).trans (congrArg (fun x : (⟨S1x256, .f32⟩ : BufTy).Contents (Elt Ideal) => (shapeCast S256 x shapeCasts_S1x256_S256 : (⟨S256, .f32⟩ : BufTy).Contents (Elt Ideal)))
      ((rd9_v298 (W18 m ρ c)).trans (congrArg ((extractStridedSlice S1x256 ![1, 0] · slices_S7x256_S1x256_1_0) : (⟨S7x256, .f32⟩ : BufTy).Contents (Elt Ideal) → (⟨S1x256, .f32⟩ : BufTy).Contents (Elt Ideal))
        (carry_arg9_0_19 m ρ c)))))))
  exact h

/-- Layer 2's bias of relation 6 as a row: row 6 of the biases, flattened and laid out as one row. -/
noncomputable def kB2_6 (m : KMem) (ρ : Dev nD → PrngReg) (c : Dev nD) : (⟨S1x256, .f32⟩ : BufTy).Contents (Elt Ideal) :=
  shapeCast S1x256 (shapeCast S256 (extractStridedSlice S1x256 ![6, 0] (m ((c : Thread nD τ).loc main_arg9)) slices_S7x256_S1x256_6_0) shapeCasts_S1x256_S256) shapeCasts_S256_S1x256

/-- It is what the row's buffer holds once the host stretch has run. -/
theorem kB2_6_eq (m : KMem) (ρ : Dev nD → PrngReg) (c : Dev nD) : W19 m ρ c (Proc.devRef .tc main_v303) = kB2_6 m ρ c := by
  have h :=
    ((rd9_v303 (W18 m ρ c)).trans (congrArg (fun x : (⟨S256, .f32⟩ : BufTy).Contents (Elt Ideal) => (shapeCast S1x256 x shapeCasts_S256_S1x256 : (⟨S1x256, .f32⟩ : BufTy).Contents (Elt Ideal)))
    ((rd9_v301 (W18 m ρ c)).trans (congrArg (fun x : (⟨S1x256, .f32⟩ : BufTy).Contents (Elt Ideal) => (shapeCast S256 x shapeCasts_S1x256_S256 : (⟨S256, .f32⟩ : BufTy).Contents (Elt Ideal)))
      ((rd9_v300 (W18 m ρ c)).trans (congrArg ((extractStridedSlice S1x256 ![6, 0] · slices_S7x256_S1x256_6_0) : (⟨S7x256, .f32⟩ : BufTy).Contents (Elt Ideal) → (⟨S1x256, .f32⟩ : BufTy).Contents (Elt Ideal))
        (carry_arg9_0_19 m ρ c)))))))
  exact h

/-! ## Host stretch 10 -/

/-- Layer 2's left (neighbour) weights of relation 0: matrix 0 of the stack of left (neighbour) weights. -/
noncomputable def kWl2_0 (m : KMem) (ρ : Dev nD → PrngReg) (c : Dev nD) : (⟨S256x256, .f32⟩ : BufTy).Contents (Elt Ideal) :=
  Sage.wSlice (F := Ideal) _ _ _ 0 slices_S7x256x256_S1x256x256_0_0_0 shapeCasts_S1x256x256_S256x256 (m ((c : Thread nD τ).loc main_arg7))

/-- It is what the matrix's buffer holds once the host stretch has run. -/
theorem kWl2_0_eq (m : KMem) (ρ : Dev nD → PrngReg) (c : Dev nD) : W21 m ρ c (Proc.devRef .tc main_v306) = kWl2_0 m ρ c := by
  have h :=
    ((rd10_v306 (W20 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd10_v305 (W20 m ρ c)).trans (congrArg ((extractStridedSlice S1x256x256 ![0, 0, 0] · slices_S7x256x256_S1x256x256_0_0_0) : (⟨S7x256x256, .f32⟩ : BufTy).Contents (Elt Ideal) → (⟨S1x256x256, .f32⟩ : BufTy).Contents (Elt Ideal))
      (carry_arg7_0_21 m ρ c)))))
  exact h

/-- Layer 2's left (neighbour) weights of relation 3: matrix 3 of the stack of left (neighbour) weights. -/
noncomputable def kWl2_3 (m : KMem) (ρ : Dev nD → PrngReg) (c : Dev nD) : (⟨S256x256, .f32⟩ : BufTy).Contents (Elt Ideal) :=
  Sage.wSlice (F := Ideal) _ _ _ 3 slices_S7x256x256_S1x256x256_3_0_0 shapeCasts_S1x256x256_S256x256 (m ((c : Thread nD τ).loc main_arg7))

/-- It is what the matrix's buffer holds once the host stretch has run. -/
theorem kWl2_3_eq (m : KMem) (ρ : Dev nD → PrngReg) (c : Dev nD) : W21 m ρ c (Proc.devRef .tc main_v308) = kWl2_3 m ρ c := by
  have h :=
    ((rd10_v308 (W20 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd10_v307 (W20 m ρ c)).trans (congrArg ((extractStridedSlice S1x256x256 ![3, 0, 0] · slices_S7x256x256_S1x256x256_3_0_0) : (⟨S7x256x256, .f32⟩ : BufTy).Contents (Elt Ideal) → (⟨S1x256x256, .f32⟩ : BufTy).Contents (Elt Ideal))
      (carry_arg7_0_21 m ρ c)))))
  exact h

/-- Layer 2's right (self) weights of relation 0: matrix 0 of the stack of right (self) weights. -/
noncomputable def kWr2_0 (m : KMem) (ρ : Dev nD → PrngReg) (c : Dev nD) : (⟨S256x256, .f32⟩ : BufTy).Contents (Elt Ideal) :=
  Sage.wSlice (F := Ideal) _ _ _ 0 slices_S7x256x256_S1x256x256_0_0_0 shapeCasts_S1x256x256_S256x256 (m ((c : Thread nD τ).loc main_arg8))

/-- It is what the matrix's buffer holds once the host stretch has run. -/
theorem kWr2_0_eq (m : KMem) (ρ : Dev nD → PrngReg) (c : Dev nD) : W21 m ρ c (Proc.devRef .tc main_v310) = kWr2_0 m ρ c := by
  have h :=
    ((rd10_v310 (W20 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd10_v309 (W20 m ρ c)).trans (congrArg ((extractStridedSlice S1x256x256 ![0, 0, 0] · slices_S7x256x256_S1x256x256_0_0_0) : (⟨S7x256x256, .f32⟩ : BufTy).Contents (Elt Ideal) → (⟨S1x256x256, .f32⟩ : BufTy).Contents (Elt Ideal))
      (carry_arg8_0_21 m ρ c)))))
  exact h

/-- Layer 2's right (self) weights of relation 3: matrix 3 of the stack of right (self) weights. -/
noncomputable def kWr2_3 (m : KMem) (ρ : Dev nD → PrngReg) (c : Dev nD) : (⟨S256x256, .f32⟩ : BufTy).Contents (Elt Ideal) :=
  Sage.wSlice (F := Ideal) _ _ _ 3 slices_S7x256x256_S1x256x256_3_0_0 shapeCasts_S1x256x256_S256x256 (m ((c : Thread nD τ).loc main_arg8))

/-- It is what the matrix's buffer holds once the host stretch has run. -/
theorem kWr2_3_eq (m : KMem) (ρ : Dev nD → PrngReg) (c : Dev nD) : W21 m ρ c (Proc.devRef .tc main_v312) = kWr2_3 m ρ c := by
  have h :=
    ((rd10_v312 (W20 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd10_v311 (W20 m ρ c)).trans (congrArg ((extractStridedSlice S1x256x256 ![3, 0, 0] · slices_S7x256x256_S1x256x256_3_0_0) : (⟨S7x256x256, .f32⟩ : BufTy).Contents (Elt Ideal) → (⟨S1x256x256, .f32⟩ : BufTy).Contents (Elt Ideal))
      (carry_arg8_0_21 m ρ c)))))
  exact h

/-- Layer 2's bias of relation 0 as a row: row 0 of the biases, flattened and laid out as one row. -/
noncomputable def kB2_0 (m : KMem) (ρ : Dev nD → PrngReg) (c : Dev nD) : (⟨S1x256, .f32⟩ : BufTy).Contents (Elt Ideal) :=
  shapeCast S1x256 (shapeCast S256 (extractStridedSlice S1x256 ![0, 0] (m ((c : Thread nD τ).loc main_arg9)) slices_S7x256_S1x256_0_0) shapeCasts_S1x256_S256) shapeCasts_S256_S1x256

/-- It is what the row's buffer holds once the host stretch has run. -/
theorem kB2_0_eq (m : KMem) (ρ : Dev nD → PrngReg) (c : Dev nD) : W21 m ρ c (Proc.devRef .tc main_v317) = kB2_0 m ρ c := by
  have h :=
    ((rd10_v317 (W20 m ρ c)).trans (congrArg (fun x : (⟨S256, .f32⟩ : BufTy).Contents (Elt Ideal) => (shapeCast S1x256 x shapeCasts_S256_S1x256 : (⟨S1x256, .f32⟩ : BufTy).Contents (Elt Ideal)))
    ((rd10_v314 (W20 m ρ c)).trans (congrArg (fun x : (⟨S1x256, .f32⟩ : BufTy).Contents (Elt Ideal) => (shapeCast S256 x shapeCasts_S1x256_S256 : (⟨S256, .f32⟩ : BufTy).Contents (Elt Ideal)))
      ((rd10_v313 (W20 m ρ c)).trans (congrArg ((extractStridedSlice S1x256 ![0, 0] · slices_S7x256_S1x256_0_0) : (⟨S7x256, .f32⟩ : BufTy).Contents (Elt Ideal) → (⟨S1x256, .f32⟩ : BufTy).Contents (Elt Ideal))
        (carry_arg9_0_21 m ρ c)))))))
  exact h

/-- Layer 2's bias of relation 3 as a row: row 3 of the biases, flattened and laid out as one row. -/
noncomputable def kB2_3 (m : KMem) (ρ : Dev nD → PrngReg) (c : Dev nD) : (⟨S1x256, .f32⟩ : BufTy).Contents (Elt Ideal) :=
  shapeCast S1x256 (shapeCast S256 (extractStridedSlice S1x256 ![3, 0] (m ((c : Thread nD τ).loc main_arg9)) slices_S7x256_S1x256_3_0) shapeCasts_S1x256_S256) shapeCasts_S256_S1x256

/-- It is what the row's buffer holds once the host stretch has run. -/
theorem kB2_3_eq (m : KMem) (ρ : Dev nD → PrngReg) (c : Dev nD) : W21 m ρ c (Proc.devRef .tc main_v318) = kB2_3 m ρ c := by
  have h :=
    ((rd10_v318 (W20 m ρ c)).trans (congrArg (fun x : (⟨S256, .f32⟩ : BufTy).Contents (Elt Ideal) => (shapeCast S1x256 x shapeCasts_S256_S1x256 : (⟨S1x256, .f32⟩ : BufTy).Contents (Elt Ideal)))
    ((rd10_v316 (W20 m ρ c)).trans (congrArg (fun x : (⟨S1x256, .f32⟩ : BufTy).Contents (Elt Ideal) => (shapeCast S256 x shapeCasts_S1x256_S256 : (⟨S256, .f32⟩ : BufTy).Contents (Elt Ideal)))
      ((rd10_v315 (W20 m ρ c)).trans (congrArg ((extractStridedSlice S1x256 ![3, 0] · slices_S7x256_S1x256_3_0) : (⟨S7x256, .f32⟩ : BufTy).Contents (Elt Ideal) → (⟨S1x256, .f32⟩ : BufTy).Contents (Elt Ideal))
        (carry_arg9_0_21 m ρ c)))))))
  exact h

/-! ## Host stretch 11 -/

/-- Layer 2's left (neighbour) weights of relation 2: matrix 2 of the stack of left (neighbour) weights. -/
noncomputable def kWl2_2 (m : KMem) (ρ : Dev nD → PrngReg) (c : Dev nD) : (⟨S256x256, .f32⟩ : BufTy).Contents (Elt Ideal) :=
  Sage.wSlice (F := Ideal) _ _ _ 2 slices_S7x256x256_S1x256x256_2_0_0 shapeCasts_S1x256x256_S256x256 (m ((c : Thread nD τ).loc main_arg7))

/-- It is what the matrix's buffer holds once the host stretch has run. -/
theorem kWl2_2_eq (m : KMem) (ρ : Dev nD → PrngReg) (c : Dev nD) : W23 m ρ c (Proc.devRef .tc main_v321) = kWl2_2 m ρ c := by
  have h :=
    ((rd11_v321 (W22 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd11_v320 (W22 m ρ c)).trans (congrArg ((extractStridedSlice S1x256x256 ![2, 0, 0] · slices_S7x256x256_S1x256x256_2_0_0) : (⟨S7x256x256, .f32⟩ : BufTy).Contents (Elt Ideal) → (⟨S1x256x256, .f32⟩ : BufTy).Contents (Elt Ideal))
      (carry_arg7_0_23 m ρ c)))))
  exact h

/-- Layer 2's right (self) weights of relation 2: matrix 2 of the stack of right (self) weights. -/
noncomputable def kWr2_2 (m : KMem) (ρ : Dev nD → PrngReg) (c : Dev nD) : (⟨S256x256, .f32⟩ : BufTy).Contents (Elt Ideal) :=
  Sage.wSlice (F := Ideal) _ _ _ 2 slices_S7x256x256_S1x256x256_2_0_0 shapeCasts_S1x256x256_S256x256 (m ((c : Thread nD τ).loc main_arg8))

/-- It is what the matrix's buffer holds once the host stretch has run. -/
theorem kWr2_2_eq (m : KMem) (ρ : Dev nD → PrngReg) (c : Dev nD) : W23 m ρ c (Proc.devRef .tc main_v323) = kWr2_2 m ρ c := by
  have h :=
    ((rd11_v323 (W22 m ρ c)).trans (congrArg (fun x : (⟨S1x256x256, .f32⟩ : BufTy).Contents (Elt Ideal) => (shapeCast S256x256 x shapeCasts_S1x256x256_S256x256 : (⟨S256x256, .f32⟩ : BufTy).Contents (Elt Ideal)))
    ((rd11_v322 (W22 m ρ c)).trans (congrArg ((extractStridedSlice S1x256x256 ![2, 0, 0] · slices_S7x256x256_S1x256x256_2_0_0) : (⟨S7x256x256, .f32⟩ : BufTy).Contents (Elt Ideal) → (⟨S1x256x256, .f32⟩ : BufTy).Contents (Elt Ideal))
      (carry_arg8_0_23 m ρ c)))))
  exact h

/-- Layer 2's bias of relation 2 as a row: row 2 of the biases, flattened and laid out as one row. -/
noncomputable def kB2_2 (m : KMem) (ρ : Dev nD → PrngReg) (c : Dev nD) : (⟨S1x256, .f32⟩ : BufTy).Contents (Elt Ideal) :=
  shapeCast S1x256 (shapeCast S256 (extractStridedSlice S1x256 ![2, 0] (m ((c : Thread nD τ).loc main_arg9)) slices_S7x256_S1x256_2_0) shapeCasts_S1x256_S256) shapeCasts_S256_S1x256

/-- It is what the row's buffer holds once the host stretch has run. -/
theorem kB2_2_eq (m : KMem) (ρ : Dev nD → PrngReg) (c : Dev nD) : W23 m ρ c (Proc.devRef .tc main_v326) = kB2_2 m ρ c := by
  have h :=
    ((rd11_v326 (W22 m ρ c)).trans (congrArg (fun x : (⟨S256, .f32⟩ : BufTy).Contents (Elt Ideal) => (shapeCast S1x256 x shapeCasts_S256_S1x256 : (⟨S1x256, .f32⟩ : BufTy).Contents (Elt Ideal)))
    ((rd11_v325 (W22 m ρ c)).trans (congrArg (fun x : (⟨S1x256, .f32⟩ : BufTy).Contents (Elt Ideal) => (shapeCast S256 x shapeCasts_S1x256_S256 : (⟨S256, .f32⟩ : BufTy).Contents (Elt Ideal)))
      ((rd11_v324 (W22 m ρ c)).trans (congrArg ((extractStridedSlice S1x256 ![2, 0] · slices_S7x256_S1x256_2_0) : (⟨S7x256, .f32⟩ : BufTy).Contents (Elt Ideal) → (⟨S1x256, .f32⟩ : BufTy).Contents (Elt Ideal))
        (carry_arg9_0_23 m ρ c)))))))
  exact h

/-! ## Host stretch 12 -/

/-- Layer 2's normalisation scale as a row, as node type 0's normalisation reads it. -/
noncomputable def kG2_0 (m : KMem) (ρ : Dev nD → PrngReg) (c : Dev nD) : (⟨S1x256, .f32⟩ : BufTy).Contents (Elt Ideal) :=
  shapeCast S1x256 (m ((c : Thread nD τ).loc main_arg12)) shapeCasts_S256_S1x256

/-- It is what the row's buffer holds once the host stretch has run. -/
theorem kG2_0_eq (m : KMem) (ρ : Dev nD → PrngReg) (c : Dev nD) : W25 m ρ c (Proc.devRef .tc main_v328) = kG2_0 m ρ c := by
  have h :=
    ((rd12_v328 (W24 m ρ c)).trans (congrArg (fun x : (⟨S256, .f32⟩ : BufTy).Contents (Elt Ideal) => (shapeCast S1x256 x shapeCasts_S256_S1x256 : (⟨S1x256, .f32⟩ : BufTy).Contents (Elt Ideal)))
    (carry_arg12_0_25 m ρ c)))
  exact h

/-- Layer 2's normalisation shift as a row, as node type 0's normalisation reads it. -/
noncomputable def kBeta2_0 (m : KMem) (ρ : Dev nD → PrngReg) (c : Dev nD) : (⟨S1x256, .f32⟩ : BufTy).Contents (Elt Ideal) :=
  shapeCast S1x256 (m ((c : Thread nD τ).loc main_arg13)) shapeCasts_S256_S1x256

/-- It is what the row's buffer holds once the host stretch has run. -/
theorem kBeta2_0_eq (m : KMem) (ρ : Dev nD → PrngReg) (c : Dev nD) : W25 m ρ c (Proc.devRef .tc main_v329) = kBeta2_0 m ρ c := by
  have h :=
    ((rd12_v329 (W24 m ρ c)).trans (congrArg (fun x : (⟨S256, .f32⟩ : BufTy).Contents (Elt Ideal) => (shapeCast S1x256 x shapeCasts_S256_S1x256 : (⟨S1x256, .f32⟩ : BufTy).Contents (Elt Ideal)))
    (carry_arg13_0_25 m ρ c)))
  exact h

/-! ## Host stretch 13 -/

/-- Layer 2's normalisation scale as a row, as node type 1's normalisation reads it. -/
noncomputable def kG2_1 (m : KMem) (ρ : Dev nD → PrngReg) (c : Dev nD) : (⟨S1x256, .f32⟩ : BufTy).Contents (Elt Ideal) :=
  shapeCast S1x256 (m ((c : Thread nD τ).loc main_arg12)) shapeCasts_S256_S1x256

/-- It is what the row's buffer holds once the host stretch has run. -/
theorem kG2_1_eq (m : KMem) (ρ : Dev nD → PrngReg) (c : Dev nD) : W27 m ρ c (Proc.devRef .tc main_v331) = kG2_1 m ρ c := by
  have h :=
    ((rd13_v331 (W26 m ρ c)).trans (congrArg (fun x : (⟨S256, .f32⟩ : BufTy).Contents (Elt Ideal) => (shapeCast S1x256 x shapeCasts_S256_S1x256 : (⟨S1x256, .f32⟩ : BufTy).Contents (Elt Ideal)))
    (carry_arg12_0_27 m ρ c)))
  exact h

/-- Layer 2's normalisation shift as a row, as node type 1's normalisation reads it. -/
noncomputable def kBeta2_1 (m : KMem) (ρ : Dev nD → PrngReg) (c : Dev nD) : (⟨S1x256, .f32⟩ : BufTy).Contents (Elt Ideal) :=
  shapeCast S1x256 (m ((c : Thread nD τ).loc main_arg13)) shapeCasts_S256_S1x256

/-- It is what the row's buffer holds once the host stretch has run. -/
theorem kBeta2_1_eq (m : KMem) (ρ : Dev nD → PrngReg) (c : Dev nD) : W27 m ρ c (Proc.devRef .tc main_v332) = kBeta2_1 m ρ c := by
  have h :=
    ((rd13_v332 (W26 m ρ c)).trans (congrArg (fun x : (⟨S256, .f32⟩ : BufTy).Contents (Elt Ideal) => (shapeCast S1x256 x shapeCasts_S256_S1x256 : (⟨S1x256, .f32⟩ : BufTy).Contents (Elt Ideal)))
    (carry_arg13_0_27 m ρ c)))
  exact h

/-! ## Host stretch 14 -/

/-- Layer 2's normalisation scale as a row, as node type 2's normalisation reads it. -/
noncomputable def kG2_2 (m : KMem) (ρ : Dev nD → PrngReg) (c : Dev nD) : (⟨S1x256, .f32⟩ : BufTy).Contents (Elt Ideal) :=
  shapeCast S1x256 (m ((c : Thread nD τ).loc main_arg12)) shapeCasts_S256_S1x256

/-- It is what the row's buffer holds once the host stretch has run. -/
theorem kG2_2_eq (m : KMem) (ρ : Dev nD → PrngReg) (c : Dev nD) : W29 m ρ c (Proc.devRef .tc main_v334) = kG2_2 m ρ c := by
  have h :=
    ((rd14_v334 (W28 m ρ c)).trans (congrArg (fun x : (⟨S256, .f32⟩ : BufTy).Contents (Elt Ideal) => (shapeCast S1x256 x shapeCasts_S256_S1x256 : (⟨S1x256, .f32⟩ : BufTy).Contents (Elt Ideal)))
    (carry_arg12_0_29 m ρ c)))
  exact h

/-- Layer 2's normalisation shift as a row, as node type 2's normalisation reads it. -/
noncomputable def kBeta2_2 (m : KMem) (ρ : Dev nD → PrngReg) (c : Dev nD) : (⟨S1x256, .f32⟩ : BufTy).Contents (Elt Ideal) :=
  shapeCast S1x256 (m ((c : Thread nD τ).loc main_arg13)) shapeCasts_S256_S1x256

/-- It is what the row's buffer holds once the host stretch has run. -/
theorem kBeta2_2_eq (m : KMem) (ρ : Dev nD → PrngReg) (c : Dev nD) : W29 m ρ c (Proc.devRef .tc main_v335) = kBeta2_2 m ρ c := by
  have h :=
    ((rd14_v335 (W28 m ρ c)).trans (congrArg (fun x : (⟨S256, .f32⟩ : BufTy).Contents (Elt Ideal) => (shapeCast S1x256 x shapeCasts_S256_S1x256 : (⟨S1x256, .f32⟩ : BufTy).Contents (Elt Ideal)))
    (carry_arg13_0_29 m ρ c)))
  exact h

/-! ## Host stretch 15 -/

/-- Layer 2's normalisation scale as a row, as node type 3's normalisation reads it. -/
noncomputable def kG2_3 (m : KMem) (ρ : Dev nD → PrngReg) (c : Dev nD) : (⟨S1x256, .f32⟩ : BufTy).Contents (Elt Ideal) :=
  shapeCast S1x256 (m ((c : Thread nD τ).loc main_arg12)) shapeCasts_S256_S1x256

/-- It is what the row's buffer holds once the host stretch has run. -/
theorem kG2_3_eq (m : KMem) (ρ : Dev nD → PrngReg) (c : Dev nD) : W31 m ρ c (Proc.devRef .tc main_v337) = kG2_3 m ρ c := by
  have h :=
    ((rd15_v337 (W30 m ρ c)).trans (congrArg (fun x : (⟨S256, .f32⟩ : BufTy).Contents (Elt Ideal) => (shapeCast S1x256 x shapeCasts_S256_S1x256 : (⟨S1x256, .f32⟩ : BufTy).Contents (Elt Ideal)))
    (carry_arg12_0_31 m ρ c)))
  exact h

/-- Layer 2's normalisation shift as a row, as node type 3's normalisation reads it. -/
noncomputable def kBeta2_3 (m : KMem) (ρ : Dev nD → PrngReg) (c : Dev nD) : (⟨S1x256, .f32⟩ : BufTy).Contents (Elt Ideal) :=
  shapeCast S1x256 (m ((c : Thread nD τ).loc main_arg13)) shapeCasts_S256_S1x256

/-- It is what the row's buffer holds once the host stretch has run. -/
theorem kBeta2_3_eq (m : KMem) (ρ : Dev nD → PrngReg) (c : Dev nD) : W31 m ρ c (Proc.devRef .tc main_v338) = kBeta2_3 m ρ c := by
  have h :=
    ((rd15_v338 (W30 m ρ c)).trans (congrArg (fun x : (⟨S256, .f32⟩ : BufTy).Contents (Elt Ideal) => (shapeCast S1x256 x shapeCasts_S256_S1x256 : (⟨S1x256, .f32⟩ : BufTy).Contents (Elt Ideal)))
    (carry_arg13_0_31 m ρ c)))
  exact h

end Cert.KernelIdeal.Hand

end
-- ==== Proof.KI.Val12.lean ====
import proofs.«126569_j1468878815453_1_alg».proof.Proof.KI.Reg12
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 12 (batch normalisation and rectifier of a 20000x256 array in 20 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr12 (c : Dev nD) : S20000x256.Idx → EReal := V c (Pipeline.arrRef spec12 0)
/-- the columns' means, -/
noncomputable abbrev mean12 (c : Dev nD) : S1x256.Idx → EReal := V c (Pipeline.arrRef spec12 1)
/-- the columns' variances, -/
noncomputable abbrev var12 (c : Dev nD) : S1x256.Idx → EReal := V c (Pipeline.arrRef spec12 2)
/-- the scale row, -/
noncomputable abbrev gam12 (c : Dev nD) : S1x256.Idx → EReal := V c (Pipeline.arrRef spec12 3)
/-- and the shift row. -/
noncomputable abbrev bet12 (c : Dev nD) : S1x256.Idx → EReal := V c (Pipeline.arrRef spec12 4)

/-! ## The result, index by index -/

/-- The constant the body adds to a variance. -/
noncomputable abbrev eps12 : EReal := Ideal.ofBits .f32 0x3727C5AC#32

/-- Every entry of the activations normalised by its column's mean and variance, scaled and shifted by its column's
    entries of the two rows, and rectified. -/
noncomputable def bnArr12 (h : S20000x256.Idx → EReal) (mu var g beta : S1x256.Idx → EReal) : S20000x256.Idx → EReal :=
  fun i => Sage.bnrelu eps12 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at12 {s : Shape} {φ : FTy} (a : FVec Ideal s φ) (i : s.Idx) : rsqrt a i = Ideal.rsqrt (a i) := rfl

/-- The payload at row `p`, column `q` of the block: the block's entry there against the four rows' entries at `q`. -/
theorem pay12_at (x0 : S1000x256.Idx → EReal) (x1 x2 x3 x4 : S1x256.Idx → EReal) (p : Fin 1000) (q : Fin 256) :
    k12_pay1 (F := Ideal) x1 x2 x0 x3 x4 (ix2 p q)
      = Sage.bnrelu eps12 (x0 (ix2 p q)) (x1 (ix2 (0 : Fin 1) q)) (x2 (ix2 (0 : Fin 1) q)) (x3 (ix2 (0 : Fin 1) q)) (x4 (ix2 (0 : Fin 1) q)) := by
  unfold k12_pay1
  simp only [maximumf_apply, addf_apply, mulf_apply, subf_apply, rsqrt_at12, broadcast_apply, shapeCast_self,
    broadcastTo_1b_ab_apply]
  simp only [Ideal.ofBits_def, Ideal.ofBits_zero_f32]
  rfl

/-! ## The blocks' places in their arrays -/

theorem hz12 : (![0, 0] : Fin 2 → Nat) = fun _ => 0 := funext fun a => by fin_cases a <;> rfl

/-- The printed index maps, decided over the grid: the activations' and the output's block at point `t` is row block
    `t`, and each of the four rows' one block is the row. -/
theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Row `p`, column `q` of the activations' block at point `t` is the array's entry at row `1000 t + p`. -/
theorem iblk12_0_at (c : Dev nD) (t : Fin cfg12.N) (p : Fin 1000) (q : Fin 256) (k : S20000x256.Idx)
    (hk0 : (k 0).val = t.val * 1000 + p.val) (hk1 : (k 1).val = q.val) :
    (iblk12 V c 0 t : S1000x256.Idx → EReal) (ix2 p q) = harr12 V c k := by
  obtain ⟨e0, e1, -⟩ := idx_facts12 t
  unfold iblk12
  rw [View.read_apply]
  show V c (Pipeline.arrRef spec12 0) _ = V c (Pipeline.arrRef spec12 0) _
  congr 1
  funext a
  apply Fin.ext
  match a with
  | ⟨0, _⟩ => show win12_0.index t (0 : Fin 2) * 1000 + 1 * p.val = (k 0).val; rw [e0, hk0]; omega
  | ⟨1, _⟩ => show win12_0.index t (1 : Fin 2) * 256 + 1 * q.val = (k 1).val; rw [e1, hk1]; omega
/-- Column `q` of the mean row's one block, at any point, is the row's entry at `q`. -/
theorem iblk12_1_at (c : Dev nD) (t : Fin cfg12.N) (q : Fin 256) :
    (iblk12 V c 1 t : S1x256.Idx → EReal) (ix2 (0 : Fin 1) q) = mean12 V c (ix2 (0 : Fin 1) q) := by
  obtain ⟨-, -, e2, e3, e4, e5, e6, e7, e8, e9, -⟩ := idx_facts12 t
  unfold iblk12
  rw [View.read_apply]
  show V c (Pipeline.arrRef spec12 1) _ = V c (Pipeline.arrRef spec12 1) _
  congr 1
  funext a
  apply Fin.ext
  match a with
  | ⟨0, _⟩ => show win12_1.index t (0 : Fin 2) * 1 + 1 * 0 = 0; omega
  | ⟨1, _⟩ => show win12_1.index t (1 : Fin 2) * 256 + 1 * q.val = q.val; omega

/-- Column `q` of the variance row's one block, at any point, is the row's entry at `q`. -/
theorem iblk12_2_at (c : Dev nD) (t : Fin cfg12.N) (q : Fin 256) :
    (iblk12 V c 2 t : S1x256.Idx → EReal) (ix2 (0 : Fin 1) q) = var12 V c (ix2 (0 : Fin 1) q) := by
  obtain ⟨-, -, e2, e3, e4, e5, e6, e7, e8, e9, -⟩ := idx_facts12 t
  unfold iblk12
  rw [View.read_apply]
  show V c (Pipeline.arrRef spec12 2) _ = V c (Pipeline.arrRef spec12 2) _
  congr 1
  funext a
  apply Fin.ext
  match a with
  | ⟨0, _⟩ => show win12_2.index t (0 : Fin 2) * 1 + 1 * 0 = 0; omega
  | ⟨1, _⟩ => show win12_2.index t (1 : Fin 2) * 256 + 1 * q.val = q.val; omega

/-- Column `q` of the scale row's one block, at any point, is the row's entry at `q`. -/
theorem iblk12_3_at (c : Dev nD) (t : Fin cfg12.N) (q : Fin 256) :
    (iblk12 V c 3 t : S1x256.Idx → EReal) (ix2 (0 : Fin 1) q) = gam12 V c (ix2 (0 : Fin 1) q) := by
  obtain ⟨-, -, e2, e3, e4, e5, e6, e7, e8, e9, -⟩ := idx_facts12 t
  unfold iblk12
  rw [View.read_apply]
  show V c (Pipeline.arrRef spec12 3) _ = V c (Pipeline.arrRef spec12 3) _
  congr 1
  funext a
  apply Fin.ext
  match a with
  | ⟨0, _⟩ => show win12_3.index t (0 : Fin 2) * 1 + 1 * 0 = 0; omega
  | ⟨1, _⟩ => show win12_3.index t (1 : Fin 2) * 256 + 1 * q.val = q.val; omega

/-- Column `q` of the shift row's one block, at any point, is the row's entry at `q`. -/
theorem iblk12_4_at (c : Dev nD) (t : Fin cfg12.N) (q : Fin 256) :
    (iblk12 V c 4 t : S1x256.Idx → EReal) (ix2 (0 : Fin 1) q) = bet12 V c (ix2 (0 : Fin 1) q) := by
  obtain ⟨-, -, e2, e3, e4, e5, e6, e7, e8, e9, -⟩ := idx_facts12 t
  unfold iblk12
  rw [View.read_apply]
  show V c (Pipeline.arrRef spec12 4) _ = V c (Pipeline.arrRef spec12 4) _
  congr 1
  funext a
  apply Fin.ext
  match a with
  | ⟨0, _⟩ => show win12_4.index t (0 : Fin 2) * 1 + 1 * 0 = 0; omega
  | ⟨1, _⟩ => show win12_4.index t (1 : Fin 2) * 256 + 1 * q.val = q.val; omega

/-! ## What a point writes back -/

/-- What point `t` writes back to the output's array is block `t` of `bnArr12` of the arrays as the region finds them. -/
theorem flushed12_eq (c : Dev nD) (t : Fin cfg12.N) :
    (dat12 (F := Ideal) V c).flushed 5 t
      = ((cfg12.win 5).blk t).view.read (Elt Ideal) (bnArr12 (harr12 V c) (mean12 V c) (var12 V c) (gam12 V c) (bet12 V c)) := by
  show (cfg12.win 5).cut (grid12.coords t) ((dat12 V c).after 5 t) = _
  rw [after12_5]
  unfold out12_5
  rw [View.canon_unit_zero hz12]
  simp only [View.ld_unit_zero (S := S1000x256) hz12, View.ld_unit_zero (S := S1x256) hz12]
  obtain ⟨-, -, -, -, -, -, -, -, -, -, e10, e11⟩ := idx_facts12 t
  funext j
  obtain ⟨p, q, rfl⟩ : ∃ (p : Fin 1000) (q : Fin 256), j = ix2 p q := ⟨j 0, j 1, eq_ix2 j⟩
  show k12_pay1 (F := Ideal) (iblk12 V c 1 t) (iblk12 V c 2 t) (iblk12 V c 0 t) (iblk12 V c 3 t) (iblk12 V c 4 t) (ix2 p q)
    = bnArr12 (harr12 V c) (mean12 V c) (var12 V c) (gam12 V c) (bet12 V c) (((cfg12.win 5).blk t).view.emb (ix2 p q))
  have hk0 : ((((cfg12.win 5).blk t).view.emb (ix2 p q) : S20000x256.Idx) 0).val = t.val * 1000 + p.val := by
    show win12_5.index t (0 : Fin 2) * 1000 + 1 * p.val = _; rw [e10]; omega
  have hk1 : ((((cfg12.win 5).blk t).view.emb (ix2 p q) : S20000x256.Idx) 1).val = q.val := by
    show win12_5.index t (1 : Fin 2) * 256 + 1 * q.val = _; rw [e11]; omega
  rw [pay12_at, iblk12_0_at V c t p q _ hk0 hk1, iblk12_1_at, iblk12_2_at, iblk12_3_at, iblk12_4_at]
  unfold bnArr12
  have hq : ((((cfg12.win 5).blk t).view.emb (ix2 p q) : S20000x256.Idx) 1) = q := Fin.ext hk1
  rw [hq]

/-! ## From the blocks to the array -/

/-- An index of the output's array is in point `t`'s block iff each coordinate is in the block's range on its axis. -/
theorem mem_blk12 (t : Fin cfg12.N) (i : S20000x256.Idx) :
    i ∈ ((cfg12.win 5).blk t).view.set ↔ ∀ a : Fin 2, win12_5.index t a * S1000x256.size a ≤ (i a).val ∧ (i a).val < win12_5.index t a * S1000x256.size a + S1000x256.size a := by
  show i ∈ ((View.whole (Pipeline.arrRef spec12 5)).slice (win12_5.rect t)).set ↔ _
  rw [View.set_slice_whole, Rect.mem_set_unit]
  exact Iff.rfl

/-- Row `r` of the output's array is in the block of point `r / 1000`, which writes it back. -/
theorem cover12 (i : S20000x256.Idx) : ∃ t : Fin cfg12.N, (cfg12.win 5).flush t = true ∧ i ∈ ((cfg12.win 5).blk t).view.set := by
  have hi0 : (i 0).val < 20000 := (i 0).isLt
  have hi1 : (i 1).val < 256 := (i 1).isLt
  have hN : cfg12.N = 20 := N_12
  let t : Fin cfg12.N := ⟨(i 0).val / 1000, by rw [hN]; omega⟩
  obtain ⟨-, -, -, -, -, -, -, -, -, -, e10, e11⟩ := idx_facts12 t
  have ht : t.val = (i 0).val / 1000 := rfl
  refine ⟨t, flush12_5 t, ?_⟩
  rw [mem_blk12]
  intro a
  match a with
  | ⟨0, _⟩ => show win12_5.index t (0 : Fin 2) * 1000 ≤ (i 0).val ∧ (i 0).val < win12_5.index t (0 : Fin 2) * 1000 + 1000; omega
  | ⟨1, _⟩ => show win12_5.index t (1 : Fin 2) * 256 ≤ (i 1).val ∧ (i 1).val < win12_5.index t (1 : Fin 2) * 256 + 256; omega

/-- The output's array after the region: every entry of the activations normalised, scaled, shifted and rectified. -/
theorem final12 (c : Dev nD) :
    (dat12 (F := Ideal) V c).arrAt 5 cfg12.N = bnArr12 (harr12 V c) (mean12 V c) (var12 V c) (gam12 V c) (bet12 V c) :=
  (dat12 (F := Ideal) V c).arrAt_eq_of_cover 5 _ (fun t _ => flushed12_eq V c t) cover12

/-- The same, entry by entry. -/
theorem final12_apply (c : Dev nD) (i : S20000x256.Idx) :
    ((dat12 (F := Ideal) V c).arrAt 5 cfg12.N : S20000x256.Idx → EReal) i
      = Sage.bnrelu (Ideal.ofBits .f32 0x3727C5AC#32) (harr12 V c i) (mean12 V c (ix2 (0 : Fin 1) (i 1))) (var12 V c (ix2 (0 : Fin 1) (i 1)))
          (gam12 V c (ix2 (0 : Fin 1) (i 1))) (bet12 V c (ix2 (0 : Fin 1) (i 1))) :=
  congrFun (final12 V c) i

/-! ## The input arrays are kept -/

theorem kept12_0 (c : Dev nD) : (dat12 (F := Ideal) V c).arrAt 0 cfg12.N = V c (Pipeline.arrRef spec12 0) :=
  ((dat12 V c).arrAt_in 0 rfl _).trans (A_eq12 V c 0)
theorem kept12_1 (c : Dev nD) : (dat12 (F := Ideal) V c).arrAt 1 cfg12.N = V c (Pipeline.arrRef spec12 1) :=
  ((dat12 V c).arrAt_in 1 rfl _).trans (A_eq12 V c 1)
theorem kept12_2 (c : Dev nD) : (dat12 (F := Ideal) V c).arrAt 2 cfg12.N = V c (Pipeline.arrRef spec12 2) :=
  ((dat12 V c).arrAt_in 2 rfl _).trans (A_eq12 V c 2)
theorem kept12_3 (c : Dev nD) : (dat12 (F := Ideal) V c).arrAt 3 cfg12.N = V c (Pipeline.arrRef spec12 3) :=
  ((dat12 V c).arrAt_in 3 rfl _).trans (A_eq12 V c 3)
theorem kept12_4 (c : Dev nD) : (dat12 (F := Ideal) V c).arrAt 4 cfg12.N = V c (Pipeline.arrRef spec12 4) :=
  ((dat12 V c).arrAt_in 4 rfl _).trans (A_eq12 V c 4)

end Cert.KernelIdeal.Hand

end
-- ==== Proof.KI.Val13.lean ====
import proofs.«126569_j1468878815453_1_alg».proof.Proof.KI.Reg13
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 13 (batch normalisation and rectifier of a 50000x256 array in 50 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr13 (c : Dev nD) : S50000x256.Idx → EReal := V c (Pipeline.arrRef spec13 0)
/-- the columns' means, -/
noncomputable abbrev mean13 (c : Dev nD) : S1x256.Idx → EReal := V c (Pipeline.arrRef spec13 1)
/-- the columns' variances, -/
noncomputable abbrev var13 (c : Dev nD) : S1x256.Idx → EReal := V c (Pipeline.arrRef spec13 2)
/-- the scale row, -/
noncomputable abbrev gam13 (c : Dev nD) : S1x256.Idx → EReal := V c (Pipeline.arrRef spec13 3)
/-- and the shift row. -/
noncomputable abbrev bet13 (c : Dev nD) : S1x256.Idx → EReal := V c (Pipeline.arrRef spec13 4)

/-! ## The result, index by index -/

/-- The constant the body adds to a variance. -/
noncomputable abbrev eps13 : EReal := Ideal.ofBits .f32 0x3727C5AC#32

/-- Every entry of the activations normalised by its column's mean and variance, scaled and shifted by its column's
    entries of the two rows, and rectified. -/
noncomputable def bnArr13 (h : S50000x256.Idx → EReal) (mu var g beta : S1x256.Idx → EReal) : S50000x256.Idx → EReal :=
  fun i => Sage.bnrelu eps13 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at13 {s : Shape} {φ : FTy} (a : FVec Ideal s φ) (i : s.Idx) : rsqrt a i = Ideal.rsqrt (a i) := rfl

/-- The payload at row `p`, column `q` of the block: the block's entry there against the four rows' entries at `q`. -/
theorem pay13_at (x0 : S1000x256.Idx → EReal) (x1 x2 x3 x4 : S1x256.Idx → EReal) (p : Fin 1000) (q : Fin 256) :
    k13_pay1 (F := Ideal) x1 x2 x0 x3 x4 (ix2 p q)
      = Sage.bnrelu eps13 (x0 (ix2 p q)) (x1 (ix2 (0 : Fin 1) q)) (x2 (ix2 (0 : Fin 1) q)) (x3 (ix2 (0 : Fin 1) q)) (x4 (ix2 (0 : Fin 1) q)) := by
  unfold k13_pay1
  simp only [maximumf_apply, addf_apply, mulf_apply, subf_apply, rsqrt_at13, broadcast_apply, shapeCast_self,
    broadcastTo_1b_ab_apply]
  simp only [Ideal.ofBits_def, Ideal.ofBits_zero_f32]
  rfl

/-! ## The blocks' places in their arrays -/

theorem hz13 : (![0, 0] : Fin 2 → Nat) = fun _ => 0 := funext fun a => by fin_cases a <;> rfl

/-- The printed index maps, decided over the grid: the activations' and the output's block at point `t` is row block
    `t`, and each of the four rows' one block is the row. -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Row `p`, column `q` of the activations' block at point `t` is the array's entry at row `1000 t + p`. -/
theorem iblk13_0_at (c : Dev nD) (t : Fin cfg13.N) (p : Fin 1000) (q : Fin 256) (k : S50000x256.Idx)
    (hk0 : (k 0).val = t.val * 1000 + p.val) (hk1 : (k 1).val = q.val) :
    (iblk13 V c 0 t : S1000x256.Idx → EReal) (ix2 p q) = harr13 V c k := by
  obtain ⟨e0, e1, -⟩ := idx_facts13 t
  unfold iblk13
  rw [View.read_apply]
  show V c (Pipeline.arrRef spec13 0) _ = V c (Pipeline.arrRef spec13 0) _
  congr 1
  funext a
  apply Fin.ext
  match a with
  | ⟨0, _⟩ => show win13_0.index t (0 : Fin 2) * 1000 + 1 * p.val = (k 0).val; rw [e0, hk0]; omega
  | ⟨1, _⟩ => show win13_0.index t (1 : Fin 2) * 256 + 1 * q.val = (k 1).val; rw [e1, hk1]; omega
/-- Column `q` of the mean row's one block, at any point, is the row's entry at `q`. -/
theorem iblk13_1_at (c : Dev nD) (t : Fin cfg13.N) (q : Fin 256) :
    (iblk13 V c 1 t : S1x256.Idx → EReal) (ix2 (0 : Fin 1) q) = mean13 V c (ix2 (0 : Fin 1) q) := by
  obtain ⟨-, -, e2, e3, e4, e5, e6, e7, e8, e9, -⟩ := idx_facts13 t
  unfold iblk13
  rw [View.read_apply]
  show V c (Pipeline.arrRef spec13 1) _ = V c (Pipeline.arrRef spec13 1) _
  congr 1
  funext a
  apply Fin.ext
  match a with
  | ⟨0, _⟩ => show win13_1.index t (0 : Fin 2) * 1 + 1 * 0 = 0; omega
  | ⟨1, _⟩ => show win13_1.index t (1 : Fin 2) * 256 + 1 * q.val = q.val; omega

/-- Column `q` of the variance row's one block, at any point, is the row's entry at `q`. -/
theorem iblk13_2_at (c : Dev nD) (t : Fin cfg13.N) (q : Fin 256) :
    (iblk13 V c 2 t : S1x256.Idx → EReal) (ix2 (0 : Fin 1) q) = var13 V c (ix2 (0 : Fin 1) q) := by
  obtain ⟨-, -, e2, e3, e4, e5, e6, e7, e8, e9, -⟩ := idx_facts13 t
  unfold iblk13
  rw [View.read_apply]
  show V c (Pipeline.arrRef spec13 2) _ = V c (Pipeline.arrRef spec13 2) _
  congr 1
  funext a
  apply Fin.ext
  match a with
  | ⟨0, _⟩ => show win13_2.index t (0 : Fin 2) * 1 + 1 * 0 = 0; omega
  | ⟨1, _⟩ => show win13_2.index t (1 : Fin 2) * 256 + 1 * q.val = q.val; omega

/-- Column `q` of the scale row's one block, at any point, is the row's entry at `q`. -/
theorem iblk13_3_at (c : Dev nD) (t : Fin cfg13.N) (q : Fin 256) :
    (iblk13 V c 3 t : S1x256.Idx → EReal) (ix2 (0 : Fin 1) q) = gam13 V c (ix2 (0 : Fin 1) q) := by
  obtain ⟨-, -, e2, e3, e4, e5, e6, e7, e8, e9, -⟩ := idx_facts13 t
  unfold iblk13
  rw [View.read_apply]
  show V c (Pipeline.arrRef spec13 3) _ = V c (Pipeline.arrRef spec13 3) _
  congr 1
  funext a
  apply Fin.ext
  match a with
  | ⟨0, _⟩ => show win13_3.index t (0 : Fin 2) * 1 + 1 * 0 = 0; omega
  | ⟨1, _⟩ => show win13_3.index t (1 : Fin 2) * 256 + 1 * q.val = q.val; omega

/-- Column `q` of the shift row's one block, at any point, is the row's entry at `q`. -/
theorem iblk13_4_at (c : Dev nD) (t : Fin cfg13.N) (q : Fin 256) :
    (iblk13 V c 4 t : S1x256.Idx → EReal) (ix2 (0 : Fin 1) q) = bet13 V c (ix2 (0 : Fin 1) q) := by
  obtain ⟨-, -, e2, e3, e4, e5, e6, e7, e8, e9, -⟩ := idx_facts13 t
  unfold iblk13
  rw [View.read_apply]
  show V c (Pipeline.arrRef spec13 4) _ = V c (Pipeline.arrRef spec13 4) _
  congr 1
  funext a
  apply Fin.ext
  match a with
  | ⟨0, _⟩ => show win13_4.index t (0 : Fin 2) * 1 + 1 * 0 = 0; omega
  | ⟨1, _⟩ => show win13_4.index t (1 : Fin 2) * 256 + 1 * q.val = q.val; omega

/-! ## What a point writes back -/

/-- What point `t` writes back to the output's array is block `t` of `bnArr13` of the arrays as the region finds them. -/
theorem flushed13_eq (c : Dev nD) (t : Fin cfg13.N) :
    (dat13 (F := Ideal) V c).flushed 5 t
      = ((cfg13.win 5).blk t).view.read (Elt Ideal) (bnArr13 (harr13 V c) (mean13 V c) (var13 V c) (gam13 V c) (bet13 V c)) := by
  show (cfg13.win 5).cut (grid13.coords t) ((dat13 V c).after 5 t) = _
  rw [after13_5]
  unfold out13_5
  rw [View.canon_unit_zero hz13]
  simp only [View.ld_unit_zero (S := S1000x256) hz13, View.ld_unit_zero (S := S1x256) hz13]
  obtain ⟨-, -, -, -, -, -, -, -, -, -, e10, e11⟩ := idx_facts13 t
  funext j
  obtain ⟨p, q, rfl⟩ : ∃ (p : Fin 1000) (q : Fin 256), j = ix2 p q := ⟨j 0, j 1, eq_ix2 j⟩
  show k13_pay1 (F := Ideal) (iblk13 V c 1 t) (iblk13 V c 2 t) (iblk13 V c 0 t) (iblk13 V c 3 t) (iblk13 V c 4 t) (ix2 p q)
    = bnArr13 (harr13 V c) (mean13 V c) (var13 V c) (gam13 V c) (bet13 V c) (((cfg13.win 5).blk t).view.emb (ix2 p q))
  have hk0 : ((((cfg13.win 5).blk t).view.emb (ix2 p q) : S50000x256.Idx) 0).val = t.val * 1000 + p.val := by
    show win13_5.index t (0 : Fin 2) * 1000 + 1 * p.val = _; rw [e10]; omega
  have hk1 : ((((cfg13.win 5).blk t).view.emb (ix2 p q) : S50000x256.Idx) 1).val = q.val := by
    show win13_5.index t (1 : Fin 2) * 256 + 1 * q.val = _; rw [e11]; omega
  rw [pay13_at, iblk13_0_at V c t p q _ hk0 hk1, iblk13_1_at, iblk13_2_at, iblk13_3_at, iblk13_4_at]
  unfold bnArr13
  have hq : ((((cfg13.win 5).blk t).view.emb (ix2 p q) : S50000x256.Idx) 1) = q := Fin.ext hk1
  rw [hq]

/-! ## From the blocks to the array -/

/-- An index of the output's array is in point `t`'s block iff each coordinate is in the block's range on its axis. -/
theorem mem_blk13 (t : Fin cfg13.N) (i : S50000x256.Idx) :
    i ∈ ((cfg13.win 5).blk t).view.set ↔ ∀ a : Fin 2, win13_5.index t a * S1000x256.size a ≤ (i a).val ∧ (i a).val < win13_5.index t a * S1000x256.size a + S1000x256.size a := by
  show i ∈ ((View.whole (Pipeline.arrRef spec13 5)).slice (win13_5.rect t)).set ↔ _
  rw [View.set_slice_whole, Rect.mem_set_unit]
  exact Iff.rfl

/-- Row `r` of the output's array is in the block of point `r / 1000`, which writes it back. -/
theorem cover13 (i : S50000x256.Idx) : ∃ t : Fin cfg13.N, (cfg13.win 5).flush t = true ∧ i ∈ ((cfg13.win 5).blk t).view.set := by
  have hi0 : (i 0).val < 50000 := (i 0).isLt
  have hi1 : (i 1).val < 256 := (i 1).isLt
  have hN : cfg13.N = 50 := N_13
  let t : Fin cfg13.N := ⟨(i 0).val / 1000, by rw [hN]; omega⟩
  obtain ⟨-, -, -, -, -, -, -, -, -, -, e10, e11⟩ := idx_facts13 t
  have ht : t.val = (i 0).val / 1000 := rfl
  refine ⟨t, flush13_5 t, ?_⟩
  rw [mem_blk13]
  intro a
  match a with
  | ⟨0, _⟩ => show win13_5.index t (0 : Fin 2) * 1000 ≤ (i 0).val ∧ (i 0).val < win13_5.index t (0 : Fin 2) * 1000 + 1000; omega
  | ⟨1, _⟩ => show win13_5.index t (1 : Fin 2) * 256 ≤ (i 1).val ∧ (i 1).val < win13_5.index t (1 : Fin 2) * 256 + 256; omega

/-- The output's array after the region: every entry of the activations normalised, scaled, shifted and rectified. -/
theorem final13 (c : Dev nD) :
    (dat13 (F := Ideal) V c).arrAt 5 cfg13.N = bnArr13 (harr13 V c) (mean13 V c) (var13 V c) (gam13 V c) (bet13 V c) :=
  (dat13 (F := Ideal) V c).arrAt_eq_of_cover 5 _ (fun t _ => flushed13_eq V c t) cover13

/-- The same, entry by entry. -/
theorem final13_apply (c : Dev nD) (i : S50000x256.Idx) :
    ((dat13 (F := Ideal) V c).arrAt 5 cfg13.N : S50000x256.Idx → EReal) i
      = Sage.bnrelu (Ideal.ofBits .f32 0x3727C5AC#32) (harr13 V c i) (mean13 V c (ix2 (0 : Fin 1) (i 1))) (var13 V c (ix2 (0 : Fin 1) (i 1)))
          (gam13 V c (ix2 (0 : Fin 1) (i 1))) (bet13 V c (ix2 (0 : Fin 1) (i 1))) :=
  congrFun (final13 V c) i

/-! ## The input arrays are kept -/

theorem kept13_0 (c : Dev nD) : (dat13 (F := Ideal) V c).arrAt 0 cfg13.N = V c (Pipeline.arrRef spec13 0) :=
  ((dat13 V c).arrAt_in 0 rfl _).trans (A_eq13 V c 0)
theorem kept13_1 (c : Dev nD) : (dat13 (F := Ideal) V c).arrAt 1 cfg13.N = V c (Pipeline.arrRef spec13 1) :=
  ((dat13 V c).arrAt_in 1 rfl _).trans (A_eq13 V c 1)
theorem kept13_2 (c : Dev nD) : (dat13 (F := Ideal) V c).arrAt 2 cfg13.N = V c (Pipeline.arrRef spec13 2) :=
  ((dat13 V c).arrAt_in 2 rfl _).trans (A_eq13 V c 2)
theorem kept13_3 (c : Dev nD) : (dat13 (F := Ideal) V c).arrAt 3 cfg13.N = V c (Pipeline.arrRef spec13 3) :=
  ((dat13 V c).arrAt_in 3 rfl _).trans (A_eq13 V c 3)
theorem kept13_4 (c : Dev nD) : (dat13 (F := Ideal) V c).arrAt 4 cfg13.N = V c (Pipeline.arrRef spec13 4) :=
  ((dat13 V c).arrAt_in 4 rfl _).trans (A_eq13 V c 4)

end Cert.KernelIdeal.Hand

end
-- ==== Proof.KI.Val14.lean ====
import proofs.«126569_j1468878815453_1_alg».proof.Proof.KI.Reg14
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 14 (batch normalisation and rectifier of a 10000x256 array in 10 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr14 (c : Dev nD) : S10000x256.Idx → EReal := V c (Pipeline.arrRef spec14 0)
/-- the columns' means, -/
noncomputable abbrev mean14 (c : Dev nD) : S1x256.Idx → EReal := V c (Pipeline.arrRef spec14 1)
/-- the columns' variances, -/
noncomputable abbrev var14 (c : Dev nD) : S1x256.Idx → EReal := V c (Pipeline.arrRef spec14 2)
/-- the scale row, -/
noncomputable abbrev gam14 (c : Dev nD) : S1x256.Idx → EReal := V c (Pipeline.arrRef spec14 3)
/-- and the shift row. -/
noncomputable abbrev bet14 (c : Dev nD) : S1x256.Idx → EReal := V c (Pipeline.arrRef spec14 4)

/-! ## The result, index by index -/

/-- The constant the body adds to a variance. -/
noncomputable abbrev eps14 : EReal := Ideal.ofBits .f32 0x3727C5AC#32

/-- Every entry of the activations normalised by its column's mean and variance, scaled and shifted by its column's
    entries of the two rows, and rectified. -/
noncomputable def bnArr14 (h : S10000x256.Idx → EReal) (mu var g beta : S1x256.Idx → EReal) : S10000x256.Idx → EReal :=
  fun i => Sage.bnrelu eps14 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at14 {s : Shape} {φ : FTy} (a : FVec Ideal s φ) (i : s.Idx) : rsqrt a i = Ideal.rsqrt (a i) := rfl

/-- The payload at row `p`, column `q` of the block: the block's entry there against the four rows' entries at `q`. -/
theorem pay14_at (x0 : S1000x256.Idx → EReal) (x1 x2 x3 x4 : S1x256.Idx → EReal) (p : Fin 1000) (q : Fin 256) :
    k14_pay1 (F := Ideal) x1 x2 x0 x3 x4 (ix2 p q)
      = Sage.bnrelu eps14 (x0 (ix2 p q)) (x1 (ix2 (0 : Fin 1) q)) (x2 (ix2 (0 : Fin 1) q)) (x3 (ix2 (0 : Fin 1) q)) (x4 (ix2 (0 : Fin 1) q)) := by
  unfold k14_pay1
  simp only [maximumf_apply, addf_apply, mulf_apply, subf_apply, rsqrt_at14, broadcast_apply, shapeCast_self,
    broadcastTo_1b_ab_apply]
  simp only [Ideal.ofBits_def, Ideal.ofBits_zero_f32]
  rfl

/-! ## The blocks' places in their arrays -/

theorem hz14 : (![0, 0] : Fin 2 → Nat) = fun _ => 0 := funext fun a => by fin_cases a <;> rfl

/-- The printed index maps, decided over the grid: the activations' and the output's block at point `t` is row block
    `t`, and each of the four rows' one block is the row. -/
theorem idx_facts14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Row `p`, column `q` of the activations' block at point `t` is the array's entry at row `1000 t + p`. -/
theorem iblk14_0_at (c : Dev nD) (t : Fin cfg14.N) (p : Fin 1000) (q : Fin 256) (k : S10000x256.Idx)
    (hk0 : (k 0).val = t.val * 1000 + p.val) (hk1 : (k 1).val = q.val) :
    (iblk14 V c 0 t : S1000x256.Idx → EReal) (ix2 p q) = harr14 V c k := by
  obtain ⟨e0, e1, -⟩ := idx_facts14 t
  unfold iblk14
  rw [View.read_apply]
  show V c (Pipeline.arrRef spec14 0) _ = V c (Pipeline.arrRef spec14 0) _
  congr 1
  funext a
  apply Fin.ext
  match a with
  | ⟨0, _⟩ => show win14_0.index t (0 : Fin 2) * 1000 + 1 * p.val = (k 0).val; rw [e0, hk0]; omega
  | ⟨1, _⟩ => show win14_0.index t (1 : Fin 2) * 256 + 1 * q.val = (k 1).val; rw [e1, hk1]; omega
/-- Column `q` of the mean row's one block, at any point, is the row's entry at `q`. -/
theorem iblk14_1_at (c : Dev nD) (t : Fin cfg14.N) (q : Fin 256) :
    (iblk14 V c 1 t : S1x256.Idx → EReal) (ix2 (0 : Fin 1) q) = mean14 V c (ix2 (0 : Fin 1) q) := by
  obtain ⟨-, -, e2, e3, e4, e5, e6, e7, e8, e9, -⟩ := idx_facts14 t
  unfold iblk14
  rw [View.read_apply]
  show V c (Pipeline.arrRef spec14 1) _ = V c (Pipeline.arrRef spec14 1) _
  congr 1
  funext a
  apply Fin.ext
  match a with
  | ⟨0, _⟩ => show win14_1.index t (0 : Fin 2) * 1 + 1 * 0 = 0; omega
  | ⟨1, _⟩ => show win14_1.index t (1 : Fin 2) * 256 + 1 * q.val = q.val; omega

/-- Column `q` of the variance row's one block, at any point, is the row's entry at `q`. -/
theorem iblk14_2_at (c : Dev nD) (t : Fin cfg14.N) (q : Fin 256) :
    (iblk14 V c 2 t : S1x256.Idx → EReal) (ix2 (0 : Fin 1) q) = var14 V c (ix2 (0 : Fin 1) q) := by
  obtain ⟨-, -, e2, e3, e4, e5, e6, e7, e8, e9, -⟩ := idx_facts14 t
  unfold iblk14
  rw [View.read_apply]
  show V c (Pipeline.arrRef spec14 2) _ = V c (Pipeline.arrRef spec14 2) _
  congr 1
  funext a
  apply Fin.ext
  match a with
  | ⟨0, _⟩ => show win14_2.index t (0 : Fin 2) * 1 + 1 * 0 = 0; omega
  | ⟨1, _⟩ => show win14_2.index t (1 : Fin 2) * 256 + 1 * q.val = q.val; omega

/-- Column `q` of the scale row's one block, at any point, is the row's entry at `q`. -/
theorem iblk14_3_at (c : Dev nD) (t : Fin cfg14.N) (q : Fin 256) :
    (iblk14 V c 3 t : S1x256.Idx → EReal) (ix2 (0 : Fin 1) q) = gam14 V c (ix2 (0 : Fin 1) q) := by
  obtain ⟨-, -, e2, e3, e4, e5, e6, e7, e8, e9, -⟩ := idx_facts14 t
  unfold iblk14
  rw [View.read_apply]
  show V c (Pipeline.arrRef spec14 3) _ = V c (Pipeline.arrRef spec14 3) _
  congr 1
  funext a
  apply Fin.ext
  match a with
  | ⟨0, _⟩ => show win14_3.index t (0 : Fin 2) * 1 + 1 * 0 = 0; omega
  | ⟨1, _⟩ => show win14_3.index t (1 : Fin 2) * 256 + 1 * q.val = q.val; omega

/-- Column `q` of the shift row's one block, at any point, is the row's entry at `q`. -/
theorem iblk14_4_at (c : Dev nD) (t : Fin cfg14.N) (q : Fin 256) :
    (iblk14 V c 4 t : S1x256.Idx → EReal) (ix2 (0 : Fin 1) q) = bet14 V c (ix2 (0 : Fin 1) q) := by
  obtain ⟨-, -, e2, e3, e4, e5, e6, e7, e8, e9, -⟩ := idx_facts14 t
  unfold iblk14
  rw [View.read_apply]
  show V c (Pipeline.arrRef spec14 4) _ = V c (Pipeline.arrRef spec14 4) _
  congr 1
  funext a
  apply Fin.ext
  match a with
  | ⟨0, _⟩ => show win14_4.index t (0 : Fin 2) * 1 + 1 * 0 = 0; omega
  | ⟨1, _⟩ => show win14_4.index t (1 : Fin 2) * 256 + 1 * q.val = q.val; omega

/-! ## What a point writes back -/

/-- What point `t` writes back to the output's array is block `t` of `bnArr14` of the arrays as the region finds them. -/
theorem flushed14_eq (c : Dev nD) (t : Fin cfg14.N) :
    (dat14 (F := Ideal) V c).flushed 5 t
      = ((cfg14.win 5).blk t).view.read (Elt Ideal) (bnArr14 (harr14 V c) (mean14 V c) (var14 V c) (gam14 V c) (bet14 V c)) := by
  show (cfg14.win 5).cut (grid14.coords t) ((dat14 V c).after 5 t) = _
  rw [after14_5]
  unfold out14_5
  rw [View.canon_unit_zero hz14]
  simp only [View.ld_unit_zero (S := S1000x256) hz14, View.ld_unit_zero (S := S1x256) hz14]
  obtain ⟨-, -, -, -, -, -, -, -, -, -, e10, e11⟩ := idx_facts14 t
  funext j
  obtain ⟨p, q, rfl⟩ : ∃ (p : Fin 1000) (q : Fin 256), j = ix2 p q := ⟨j 0, j 1, eq_ix2 j⟩
  show k14_pay1 (F := Ideal) (iblk14 V c 1 t) (iblk14 V c 2 t) (iblk14 V c 0 t) (iblk14 V c 3 t) (iblk14 V c 4 t) (ix2 p q)
    = bnArr14 (harr14 V c) (mean14 V c) (var14 V c) (gam14 V c) (bet14 V c) (((cfg14.win 5).blk t).view.emb (ix2 p q))
  have hk0 : ((((cfg14.win 5).blk t).view.emb (ix2 p q) : S10000x256.Idx) 0).val = t.val * 1000 + p.val := by
    show win14_5.index t (0 : Fin 2) * 1000 + 1 * p.val = _; rw [e10]; omega
  have hk1 : ((((cfg14.win 5).blk t).view.emb (ix2 p q) : S10000x256.Idx) 1).val = q.val := by
    show win14_5.index t (1 : Fin 2) * 256 + 1 * q.val = _; rw [e11]; omega
  rw [pay14_at, iblk14_0_at V c t p q _ hk0 hk1, iblk14_1_at, iblk14_2_at, iblk14_3_at, iblk14_4_at]
  unfold bnArr14
  have hq : ((((cfg14.win 5).blk t).view.emb (ix2 p q) : S10000x256.Idx) 1) = q := Fin.ext hk1
  rw [hq]

/-! ## From the blocks to the array -/

/-- An index of the output's array is in point `t`'s block iff each coordinate is in the block's range on its axis. -/
theorem mem_blk14 (t : Fin cfg14.N) (i : S10000x256.Idx) :
    i ∈ ((cfg14.win 5).blk t).view.set ↔ ∀ a : Fin 2, win14_5.index t a * S1000x256.size a ≤ (i a).val ∧ (i a).val < win14_5.index t a * S1000x256.size a + S1000x256.size a := by
  show i ∈ ((View.whole (Pipeline.arrRef spec14 5)).slice (win14_5.rect t)).set ↔ _
  rw [View.set_slice_whole, Rect.mem_set_unit]
  exact Iff.rfl

/-- Row `r` of the output's array is in the block of point `r / 1000`, which writes it back. -/
theorem cover14 (i : S10000x256.Idx) : ∃ t : Fin cfg14.N, (cfg14.win 5).flush t = true ∧ i ∈ ((cfg14.win 5).blk t).view.set := by
  have hi0 : (i 0).val < 10000 := (i 0).isLt
  have hi1 : (i 1).val < 256 := (i 1).isLt
  have hN : cfg14.N = 10 := N_14
  let t : Fin cfg14.N := ⟨(i 0).val / 1000, by rw [hN]; omega⟩
  obtain ⟨-, -, -, -, -, -, -, -, -, -, e10, e11⟩ := idx_facts14 t
  have ht : t.val = (i 0).val / 1000 := rfl
  refine ⟨t, flush14_5 t, ?_⟩
  rw [mem_blk14]
  intro a
  match a with
  | ⟨0, _⟩ => show win14_5.index t (0 : Fin 2) * 1000 ≤ (i 0).val ∧ (i 0).val < win14_5.index t (0 : Fin 2) * 1000 + 1000; omega
  | ⟨1, _⟩ => show win14_5.index t (1 : Fin 2) * 256 ≤ (i 1).val ∧ (i 1).val < win14_5.index t (1 : Fin 2) * 256 + 256; omega

/-- The output's array after the region: every entry of the activations normalised, scaled, shifted and rectified. -/
theorem final14 (c : Dev nD) :
    (dat14 (F := Ideal) V c).arrAt 5 cfg14.N = bnArr14 (harr14 V c) (mean14 V c) (var14 V c) (gam14 V c) (bet14 V c) :=
  (dat14 (F := Ideal) V c).arrAt_eq_of_cover 5 _ (fun t _ => flushed14_eq V c t) cover14

/-- The same, entry by entry. -/
theorem final14_apply (c : Dev nD) (i : S10000x256.Idx) :
    ((dat14 (F := Ideal) V c).arrAt 5 cfg14.N : S10000x256.Idx → EReal) i
      = Sage.bnrelu (Ideal.ofBits .f32 0x3727C5AC#32) (harr14 V c i) (mean14 V c (ix2 (0 : Fin 1) (i 1))) (var14 V c (ix2 (0 : Fin 1) (i 1)))
          (gam14 V c (ix2 (0 : Fin 1) (i 1))) (bet14 V c (ix2 (0 : Fin 1) (i 1))) :=
  congrFun (final14 V c) i

/-! ## The input arrays are kept -/

theorem kept14_0 (c : Dev nD) : (dat14 (F := Ideal) V c).arrAt 0 cfg14.N = V c (Pipeline.arrRef spec14 0) :=
  ((dat14 V c).arrAt_in 0 rfl _).trans (A_eq14 V c 0)
theorem kept14_1 (c : Dev nD) : (dat14 (F := Ideal) V c).arrAt 1 cfg14.N = V c (Pipeline.arrRef spec14 1) :=
  ((dat14 V c).arrAt_in 1 rfl _).trans (A_eq14 V c 1)
theorem kept14_2 (c : Dev nD) : (dat14 (F := Ideal) V c).arrAt 2 cfg14.N = V c (Pipeline.arrRef spec14 2) :=
  ((dat14 V c).arrAt_in 2 rfl _).trans (A_eq14 V c 2)
theorem kept14_3 (c : Dev nD) : (dat14 (F := Ideal) V c).arrAt 3 cfg14.N = V c (Pipeline.arrRef spec14 3) :=
  ((dat14 V c).arrAt_in 3 rfl _).trans (A_eq14 V c 3)
theorem kept14_4 (c : Dev nD) : (dat14 (F := Ideal) V c).arrAt 4 cfg14.N = V c (Pipeline.arrRef spec14 4) :=
  ((dat14 V c).arrAt_in 4 rfl _).trans (A_eq14 V c 4)

end Cert.KernelIdeal.Hand

end
-- ==== Proof.KI.Val15.lean ====
import proofs.«126569_j1468878815453_1_alg».proof.Proof.KI.Reg15
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 15 (batch normalisation and rectifier of a 3000x256 array in 3 row blocks), the value

At the ideal instance: what the output window's array holds after the region, index by index, as a function of the
five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The arrays as the region finds them -/

/-- The activations, -/
noncomputable abbrev harr15 (c : Dev nD) : S3000x256.Idx → EReal := V c (Pipeline.arrRef spec15 0)
/-- the columns' means, -/
noncomputable abbrev mean15 (c : Dev nD) : S1x256.Idx → EReal := V c (Pipeline.arrRef spec15 1)
/-- the columns' variances, -/
noncomputable abbrev var15 (c : Dev nD) : S1x256.Idx → EReal := V c (Pipeline.arrRef spec15 2)
/-- the scale row, -/
noncomputable abbrev gam15 (c : Dev nD) : S1x256.Idx → EReal := V c (Pipeline.arrRef spec15 3)
/-- and the shift row. -/
noncomputable abbrev bet15 (c : Dev nD) : S1x256.Idx → EReal := V c (Pipeline.arrRef spec15 4)

/-! ## The result, index by index -/

/-- The constant the body adds to a variance. -/
noncomputable abbrev eps15 : EReal := Ideal.ofBits .f32 0x3727C5AC#32

/-- Every entry of the activations normalised by its column's mean and variance, scaled and shifted by its column's
    entries of the two rows, and rectified. -/
noncomputable def bnArr15 (h : S3000x256.Idx → EReal) (mu var g beta : S1x256.Idx → EReal) : S3000x256.Idx → EReal :=
  fun i => Sage.bnrelu eps15 (h i) (mu (ix2 (0 : Fin 1) (i 1))) (var (ix2 (0 : Fin 1) (i 1))) (g (ix2 (0 : Fin 1) (i 1))) (beta (ix2 (0 : Fin 1) (i 1)))

/-! ## The body's payload at an index -/

/-- A reciprocal square root at an index is the element's. -/
theorem rsqrt_at15 {s : Shape} {φ : FTy} (a : FVec Ideal s φ) (i : s.Idx) : rsqrt a i = Ideal.rsqrt (a i) := rfl

/-- The payload at row `p`, column `q` of the block: the block's entry there against the four rows' entries at `q`. -/
theorem pay15_at (x0 : S1000x256.Idx → EReal) (x1 x2 x3 x4 : S1x256.Idx → EReal) (p : Fin 1000) (q : Fin 256) :
    k15_pay1 (F := Ideal) x1 x2 x0 x3 x4 (ix2 p q)
      = Sage.bnrelu eps15 (x0 (ix2 p q)) (x1 (ix2 (0 : Fin 1) q)) (x2 (ix2 (0 : Fin 1) q)) (x3 (ix2 (0 : Fin 1) q)) (x4 (ix2 (0 : Fin 1) q)) := by
  unfold k15_pay1
  simp only [maximumf_apply, addf_apply, mulf_apply, subf_apply, rsqrt_at15, broadcast_apply, shapeCast_self,
    broadcastTo_1b_ab_apply]
  simp only [Ideal.ofBits_def, Ideal.ofBits_zero_f32]
  rfl

/-! ## The blocks' places in their arrays -/

theorem hz15 : (![0, 0] : Fin 2 → Nat) = fun _ => 0 := funext fun a => by fin_cases a <;> rfl

/-- The printed index maps, decided over the grid: the activations' and the output's block at point `t` is row block
    `t`, and each of the four rows' one block is the row. -/
theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

/-- Row `p`, column `q` of the activations' block at point `t` is the array's entry at row `1000 t + p`. -/
theorem iblk15_0_at (c : Dev nD) (t : Fin cfg15.N) (p : Fin 1000) (q : Fin 256) (k : S3000x256.Idx)
    (hk0 : (k 0).val = t.val * 1000 + p.val) (hk1 : (k 1).val = q.val) :
    (iblk15 V c 0 t : S1000x256.Idx → EReal) (ix2 p q) = harr15 V c k := by
  obtain ⟨e0, e1, -⟩ := idx_facts15 t
  unfold iblk15
  rw [View.read_apply]
  show V c (Pipeline.arrRef spec15 0) _ = V c (Pipeline.arrRef spec15 0) _
  congr 1
  funext a
  apply Fin.ext
  match a with
  | ⟨0, _⟩ => show win15_0.index t (0 : Fin 2) * 1000 + 1 * p.val = (k 0).val; rw [e0, hk0]; omega
  | ⟨1, _⟩ => show win15_0.index t (1 : Fin 2) * 256 + 1 * q.val = (k 1).val; rw [e1, hk1]; omega
/-- Column `q` of the mean row's one block, at any point, is the row's entry at `q`. -/
theorem iblk15_1_at (c : Dev nD) (t : Fin cfg15.N) (q : Fin 256) :
    (iblk15 V c 1 t : S1x256.Idx → EReal) (ix2 (0 : Fin 1) q) = mean15 V c (ix2 (0 : Fin 1) q) := by
  obtain ⟨-, -, e2, e3, e4, e5, e6, e7, e8, e9, -⟩ := idx_facts15 t
  unfold iblk15
  rw [View.read_apply]
  show V c (Pipeline.arrRef spec15 1) _ = V c (Pipeline.arrRef spec15 1) _
  congr 1
  funext a
  apply Fin.ext
  match a with
  | ⟨0, _⟩ => show win15_1.index t (0 : Fin 2) * 1 + 1 * 0 = 0; omega
  | ⟨1, _⟩ => show win15_1.index t (1 : Fin 2) * 256 + 1 * q.val = q.val; omega

/-- Column `q` of the variance row's one block, at any point, is the row's entry at `q`. -/
theorem iblk15_2_at (c : Dev nD) (t : Fin cfg15.N) (q : Fin 256) :
    (iblk15 V c 2 t : S1x256.Idx → EReal) (ix2 (0 : Fin 1) q) = var15 V c (ix2 (0 : Fin 1) q) := by
  obtain ⟨-, -, e2, e3, e4, e5, e6, e7, e8, e9, -⟩ := idx_facts15 t
  unfold iblk15
  rw [View.read_apply]
  show V c (Pipeline.arrRef spec15 2) _ = V c (Pipeline.arrRef spec15 2) _
  congr 1
  funext a
  apply Fin.ext
  match a with
  | ⟨0, _⟩ => show win15_2.index t (0 : Fin 2) * 1 + 1 * 0 = 0; omega
  | ⟨1, _⟩ => show win15_2.index t (1 : Fin 2) * 256 + 1 * q.val = q.val; omega

/-- Column `q` of the scale row's one block, at any point, is the row's entry at `q`. -/
theorem iblk15_3_at (c : Dev nD) (t : Fin cfg15.N) (q : Fin 256) :
    (iblk15 V c 3 t : S1x256.Idx → EReal) (ix2 (0 : Fin 1) q) = gam15 V c (ix2 (0 : Fin 1) q) := by
  obtain ⟨-, -, e2, e3, e4, e5, e6, e7, e8, e9, -⟩ := idx_facts15 t
  unfold iblk15
  rw [View.read_apply]
  show V c (Pipeline.arrRef spec15 3) _ = V c (Pipeline.arrRef spec15 3) _
  congr 1
  funext a
  apply Fin.ext
  match a with
  | ⟨0, _⟩ => show win15_3.index t (0 : Fin 2) * 1 + 1 * 0 = 0; omega
  | ⟨1, _⟩ => show win15_3.index t (1 : Fin 2) * 256 + 1 * q.val = q.val; omega

/-- Column `q` of the shift row's one block, at any point, is the row's entry at `q`. -/
theorem iblk15_4_at (c : Dev nD) (t : Fin cfg15.N) (q : Fin 256) :
    (iblk15 V c 4 t : S1x256.Idx → EReal) (ix2 (0 : Fin 1) q) = bet15 V c (ix2 (0 : Fin 1) q) := by
  obtain ⟨-, -, e2, e3, e4, e5, e6, e7, e8, e9, -⟩ := idx_facts15 t
  unfold iblk15
  rw [View.read_apply]
  show V c (Pipeline.arrRef spec15 4) _ = V c (Pipeline.arrRef spec15 4) _
  congr 1
  funext a
  apply Fin.ext
  match a with
  | ⟨0, _⟩ => show win15_4.index t (0 : Fin 2) * 1 + 1 * 0 = 0; omega
  | ⟨1, _⟩ => show win15_4.index t (1 : Fin 2) * 256 + 1 * q.val = q.val; omega

/-! ## What a point writes back -/

/-- What point `t` writes back to the output's array is block `t` of `bnArr15` of the arrays as the region finds them. -/
theorem flushed15_eq (c : Dev nD) (t : Fin cfg15.N) :
    (dat15 (F := Ideal) V c).flushed 5 t
      = ((cfg15.win 5).blk t).view.read (Elt Ideal) (bnArr15 (harr15 V c) (mean15 V c) (var15 V c) (gam15 V c) (bet15 V c)) := by
  show (cfg15.win 5).cut (grid15.coords t) ((dat15 V c).after 5 t) = _
  rw [after15_5]
  unfold out15_5
  rw [View.canon_unit_zero hz15]
  simp only [View.ld_unit_zero (S := S1000x256) hz15, View.ld_unit_zero (S := S1x256) hz15]
  obtain ⟨-, -, -, -, -, -, -, -, -, -, e10, e11⟩ := idx_facts15 t
  funext j
  obtain ⟨p, q, rfl⟩ : ∃ (p : Fin 1000) (q : Fin 256), j = ix2 p q := ⟨j 0, j 1, eq_ix2 j⟩
  show k15_pay1 (F := Ideal) (iblk15 V c 1 t) (iblk15 V c 2 t) (iblk15 V c 0 t) (iblk15 V c 3 t) (iblk15 V c 4 t) (ix2 p q)
    = bnArr15 (harr15 V c) (mean15 V c) (var15 V c) (gam15 V c) (bet15 V c) (((cfg15.win 5).blk t).view.emb (ix2 p q))
  have hk0 : ((((cfg15.win 5).blk t).view.emb (ix2 p q) : S3000x256.Idx) 0).val = t.val * 1000 + p.val := by
    show win15_5.index t (0 : Fin 2) * 1000 + 1 * p.val = _; rw [e10]; omega
  have hk1 : ((((cfg15.win 5).blk t).view.emb (ix2 p q) : S3000x256.Idx) 1).val = q.val := by
    show win15_5.index t (1 : Fin 2) * 256 + 1 * q.val = _; rw [e11]; omega
  rw [pay15_at, iblk15_0_at V c t p q _ hk0 hk1, iblk15_1_at, iblk15_2_at, iblk15_3_at, iblk15_4_at]
  unfold bnArr15
  have hq : ((((cfg15.win 5).blk t).view.emb (ix2 p q) : S3000x256.Idx) 1) = q := Fin.ext hk1
  rw [hq]

/-! ## From the blocks to the array -/

/-- An index of the output's array is in point `t`'s block iff each coordinate is in the block's range on its axis. -/
theorem mem_blk15 (t : Fin cfg15.N) (i : S3000x256.Idx) :
    i ∈ ((cfg15.win 5).blk t).view.set ↔ ∀ a : Fin 2, win15_5.index t a * S1000x256.size a ≤ (i a).val ∧ (i a).val < win15_5.index t a * S1000x256.size a + S1000x256.size a := by
  show i ∈ ((View.whole (Pipeline.arrRef spec15 5)).slice (win15_5.rect t)).set ↔ _
  rw [View.set_slice_whole, Rect.mem_set_unit]
  exact Iff.rfl

/-- Row `r` of the output's array is in the block of point `r / 1000`, which writes it back. -/
theorem cover15 (i : S3000x256.Idx) : ∃ t : Fin cfg15.N, (cfg15.win 5).flush t = true ∧ i ∈ ((cfg15.win 5).blk t).view.set := by
  have hi0 : (i 0).val < 3000 := (i 0).isLt
  have hi1 : (i 1).val < 256 := (i 1).isLt
  have hN : cfg15.N = 3 := N_15
  let t : Fin cfg15.N := ⟨(i 0).val / 1000, by rw [hN]; omega⟩
  obtain ⟨-, -, -, -, -, -, -, -, -, -, e10, e11⟩ := idx_facts15 t
  have ht : t.val = (i 0).val / 1000 := rfl
  refine ⟨t, flush15_5 t, ?_⟩
  rw [mem_blk15]
  intro a
  match a with
  | ⟨0, _⟩ => show win15_5.index t (0 : Fin 2) * 1000 ≤ (i 0).val ∧ (i 0).val < win15_5.index t (0 : Fin 2) * 1000 + 1000; omega
  | ⟨1, _⟩ => show win15_5.index t (1 : Fin 2) * 256 ≤ (i 1).val ∧ (i 1).val < win15_5.index t (1 : Fin 2) * 256 + 256; omega

/-- The output's array after the region: every entry of the activations normalised, scaled, shifted and rectified. -/
theorem final15 (c : Dev nD) :
    (dat15 (F := Ideal) V c).arrAt 5 cfg15.N = bnArr15 (harr15 V c) (mean15 V c) (var15 V c) (gam15 V c) (bet15 V c) :=
  (dat15 (F := Ideal) V c).arrAt_eq_of_cover 5 _ (fun t _ => flushed15_eq V c t) cover15

/-- The same, entry by entry. -/
theorem final15_apply (c : Dev nD) (i : S3000x256.Idx) :
    ((dat15 (F := Ideal) V c).arrAt 5 cfg15.N : S3000x256.Idx → EReal) i
      = Sage.bnrelu (Ideal.ofBits .f32 0x3727C5AC#32) (harr15 V c i) (mean15 V c (ix2 (0 : Fin 1) (i 1))) (var15 V c (ix2 (0 : Fin 1) (i 1)))
          (gam15 V c (ix2 (0 : Fin 1) (i 1))) (bet15 V c (ix2 (0 : Fin 1) (i 1))) :=
  congrFun (final15 V c) i

/-! ## The input arrays are kept -/

theorem kept15_0 (c : Dev nD) : (dat15 (F := Ideal) V c).arrAt 0 cfg15.N = V c (Pipeline.arrRef spec15 0) :=
  ((dat15 V c).arrAt_in 0 rfl _).trans (A_eq15 V c 0)
theorem kept15_1 (c : Dev nD) : (dat15 (F := Ideal) V c).arrAt 1 cfg15.N = V c (Pipeline.arrRef spec15 1) :=
  ((dat15 V c).arrAt_in 1 rfl _).trans (A_eq15 V c 1)
theorem kept15_2 (c : Dev nD) : (dat15 (F := Ideal) V c).arrAt 2 cfg15.N = V c (Pipeline.arrRef spec15 2) :=
  ((dat15 V c).arrAt_in 2 rfl _).trans (A_eq15 V c 2)
theorem kept15_3 (c : Dev nD) : (dat15 (F := Ideal) V c).arrAt 3 cfg15.N = V c (Pipeline.arrRef spec15 3) :=
  ((dat15 V c).arrAt_in 3 rfl _).trans (A_eq15 V c 3)
theorem kept15_4 (c : Dev nD) : (dat15 (F := Ideal) V c).arrAt 4 cfg15.N = V c (Pipeline.arrRef spec15 4) :=
  ((dat15 V c).arrAt_in 4 rfl _).trans (A_eq15 V c 4)

end Cert.KernelIdeal.Hand

end
-- ==== Proof.KI.ReadL2b.lean ====
import proofs.«126569_j1468878815453_1_alg».proof.Proof.KI.ReadL2a
import proofs.«126569_j1468878815453_1_alg».proof.Proof.KI.Val12
import proofs.«126569_j1468878815453_1_alg».proof.Proof.KI.Val13
import proofs.«126569_j1468878815453_1_alg».proof.Proof.KI.Val14
import proofs.«126569_j1468878815453_1_alg».proof.Proof.KI.Val15

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-! ## Region 8 -/

/-- Layer 2's relation sums for node type 0, before normalisation: what region 8's write-backs leave in its
    first output array. -/
noncomputable def kH2_0 (m : KMem) (ρ : Dev nD → PrngReg) (c : Dev nD) := (dat8 (F := Ideal) (V17 m ρ) c).arrAt 9 cfg8.N
theorem kH2_0_eq (m : KMem) (ρ : Dev nD → PrngReg) (c : Dev nD) : W18 m ρ c (Proc.devRef .tc main_v289_0) = kH2_0 m ρ c := W18_arr m ρ c 9

/-- Their column means: what region 8's write-backs leave in its second output array. -/
noncomputable def kMean2_0 (m : KMem) (ρ : Dev nD → PrngReg) (c : Dev nD) := (dat8 (F := Ideal) (V17 m ρ) c).arrAt 10 cfg8.N
theorem kMean2_0_eq (m : KMem) (ρ : Dev nD → PrngReg) (c : Dev nD) : W18 m ρ c (Proc.devRef .tc main_v289_1) = kMean2_0 m ρ c := W18_arr m ρ c 10

/-- Their column variances: what region 8's write-backs leave in its third output array. -/
noncomputable def kVar2_0 (m : KMem) (ρ : Dev nD → PrngReg) (c : Dev nD) := (dat8 (F := Ideal) (V17 m ρ) c).arrAt 11 cfg8.N
theorem kVar2_0_eq (m : KMem) (ρ : Dev nD → PrngReg) (c : Dev nD) : W18 m ρ c (Proc.devRef .tc main_v289_2) = kVar2_0 m ρ c := W18_arr m ρ c 11

/-- Region 8's window 0 is `v250`: what it holds at the region's entry. -/
theorem ent8_0 (m : KMem) (ρ : Dev nD → PrngReg) (c : Dev nD) : V17 m ρ c (Pipeline.arrRef spec8 0) = kAgg2_4 m ρ c :=
  kAgg2_4_eq m ρ c

/-- Region 8's window 1 is `v262`: what it holds at the region's entry. -/
theorem ent8_1 (m : KMem) (ρ : Dev nD → PrngReg) (c : Dev nD) : V17 m ρ c (Pipeline.arrRef spec8 1) = kAgg2_5 m ρ c :=
  kAgg2_5_eq m ρ c

/-- Region 8's window 2 is `v181`: what it holds at the region's entry. -/
theorem ent8_2 (m : KMem) (ρ : Dev nD → PrngReg) (c : Dev nD) : V17 m ρ c (Pipeline.arrRef spec8 2) = kOut1_0 m ρ c :=
  (carry_v181_10_17 m ρ c).trans (kOut1_0_eq m ρ c)

/-- Region 8's window 3 is `v276`: what it holds at the region's entry. -/
theorem ent8_3 (m : KMem) (ρ : Dev nD → PrngReg) (c : Dev nD) : V17 m ρ c (Pipeline.arrRef spec8 3) = kWl2_4 m ρ c :=
  kWl2_4_eq m ρ c

/-- Region 8's window 4 is `v278`: what it holds at the region's entry. -/
theorem ent8_4 (m : KMem) (ρ : Dev nD → PrngReg) (c : Dev nD) : V17 m ρ c (Pipeline.arrRef spec8 4) = kWl2_5 m ρ c :=
  kWl2_5_eq m ρ c

/-- Region 8's window 5 is `v280`: what it holds at the region's entry. -/
theorem ent8_5 (m : KMem) (ρ : Dev nD → PrngReg) (c : Dev nD) : V17 m ρ c (Pipeline.arrRef spec8 5) = kWr2_4 m ρ c :=
  kWr2_4_eq m ρ c

/-- Region 8's window 6 is `v282`: what it holds at the region's entry. -/
theorem ent8_6 (m : KMem) (ρ : Dev nD → PrngReg) (c : Dev nD) : V17 m ρ c (Pipeline.arrRef spec8 6) = kWr2_5 m ρ c :=
  kWr2_5_eq m ρ c

/-- Region 8's window 7 is `v287`: what it holds at the region's entry. -/
theorem ent8_7 (m : KMem) (ρ : Dev nD → PrngReg) (c : Dev nD) : V17 m ρ c (Pipeline.arrRef spec8 7) = kB2_4 m ρ c :=
  kB2_4_eq m ρ c

/-- Region 8's window 8 is `v288`: what it holds at the region's entry. -/
theorem ent8_8 (m : KMem) (ρ : Dev nD → PrngReg) (c : Dev nD) : V17 m ρ c (Pipeline.arrRef spec8 8) = kB2_5 m ρ c :=
  kB2_5_eq m ρ c

/-! ## Region 9 -/

/-- Layer 2's relation sums for node type 1, before normalisation: what region 9's write-backs leave in its
    first output array. -/
noncomputable def kH2_1 (m : KMem) (ρ : Dev nD → PrngReg) (c : Dev nD) := (dat9 (F := Ideal) (V19 m ρ) c).arrAt 9 cfg9.N
theorem kH2_1_eq (m : KMem) (ρ : Dev nD → PrngReg) (c : Dev nD) : W20 m ρ c (Proc.devRef .tc main_v304_0) = kH2_1 m ρ c := W20_arr m ρ c 9

/-- Their column means: what region 9's write-backs leave in its second output array. -/
noncomputable def kMean2_1 (m : KMem) (ρ : Dev nD → PrngReg) (c : Dev nD) := (dat9 (F := Ideal) (V19 m ρ) c).arrAt 10 cfg9.N
theorem kMean2_1_eq (m : KMem) (ρ : Dev nD → PrngReg) (c : Dev nD) : W20 m ρ c (Proc.devRef .tc main_v304_1) = kMean2_1 m ρ c := W20_arr m ρ c 10

/-- Their column variances: what region 9's write-backs leave in its third output array. -/
noncomputable def kVar2_1 (m : KMem) (ρ : Dev nD → PrngReg) (c : Dev nD) := (dat9 (F := Ideal) (V19 m ρ) c).arrAt 11 cfg9.N
theorem kVar2_1_eq (m : KMem) (ρ : Dev nD → PrngReg) (c : Dev nD) : W20 m ρ c (Proc.devRef .tc main_v304_2) = kVar2_1 m ρ c := W20_arr m ρ c 11

/-- Region 9's window 0 is `v214`: what it holds at the region's entry. -/
theorem ent9_0 (m : KMem) (ρ : Dev nD → PrngReg) (c : Dev nD) : V19 m ρ c (Pipeline.arrRef spec9 0) = kAgg2_1 m ρ c :=
  (carry_v214_17_19 m ρ c).trans (kAgg2_1_eq m ρ c)

/-- Region 9's window 1 is `v274`: what it holds at the region's entry. -/
theorem ent9_1 (m : KMem) (ρ : Dev nD → PrngReg) (c : Dev nD) : V19 m ρ c (Pipeline.arrRef spec9 1) = kAgg2_6 m ρ c :=
  (carry_v274_17_19 m ρ c).trans (kAgg2_6_eq m ρ c)

/-- Region 9's window 2 is `v184`: what it holds at the region's entry. -/
theorem ent9_2 (m : KMem) (ρ : Dev nD → PrngReg) (c : Dev nD) : V19 m ρ c (Pipeline.arrRef spec9 2) = kOut1_1 m ρ c :=
  (carry_v184_12_19 m ρ c).trans (kOut1_1_eq m ρ c)

/-- Region 9's window 3 is `v291`: what it holds at the region's entry. -/
theorem ent9_3 (m : KMem) (ρ : Dev nD → PrngReg) (c : Dev nD) : V19 m ρ c (Pipeline.arrRef spec9 3) = kWl2_1 m ρ c :=
  kWl2_1_eq m ρ c

/-- Region 9's window 4 is `v293`: what it holds at the region's entry. -/
theorem ent9_4 (m : KMem) (ρ : Dev nD → PrngReg) (c : Dev nD) : V19 m ρ c (Pipeline.arrRef spec9 4) = kWl2_6 m ρ c :=
  kWl2_6_eq m ρ c

/-- Region 9's window 5 is `v295`: what it holds at the region's entry. -/
theorem ent9_5 (m : KMem) (ρ : Dev nD → PrngReg) (c : Dev nD) : V19 m ρ c (Pipeline.arrRef spec9 5) = kWr2_1 m ρ c :=
  kWr2_1_eq m ρ c

/-- Region 9's window 6 is `v297`: what it holds at the region's entry. -/
theorem ent9_6 (m : KMem) (ρ : Dev nD → PrngReg) (c : Dev nD) : V19 m ρ c (Pipeline.arrRef spec9 6) = kWr2_6 m ρ c :=
  kWr2_6_eq m ρ c

/-- Region 9's window 7 is `v302`: what it holds at the region's entry. -/
theorem ent9_7 (m : KMem) (ρ : Dev nD → PrngReg) (c : Dev nD) : V19 m ρ c (Pipeline.arrRef spec9 7) = kB2_1 m ρ c :=
  kB2_1_eq m ρ c

/-- Region 9's window 8 is `v303`: what it holds at the region's entry. -/
theorem ent9_8 (m : KMem) (ρ : Dev nD → PrngReg) (c : Dev nD) : V19 m ρ c (Pipeline.arrRef spec9 8) = kB2_6 m ρ c :=
  kB2_6_eq m ρ c

/-! ## Region 10 -/

/-- Layer 2's relation sums for node type 2, before normalisation: what region 10's write-backs leave in its
    first output array. -/
noncomputable def kH2_2 (m : KMem) (ρ : Dev nD → PrngReg) (c : Dev nD) := (dat10 (F := Ideal) (V21 m ρ) c).arrAt 9 cfg10.N
theorem kH2_2_eq (m : KMem) (ρ : Dev nD → PrngReg) (c : Dev nD) : W22 m ρ c (Proc.devRef .tc main_v319_0) = kH2_2 m ρ c := W22_arr m ρ c 9

/-- Their column means: what region 10's write-backs leave in its second output array. -/
noncomputable def kMean2_2 (m : KMem) (ρ : Dev nD → PrngReg) (c : Dev nD) := (dat10 (F := Ideal) (V21 m ρ) c).arrAt 10 cfg10.N
theorem kMean2_2_eq (m : KMem) (ρ : Dev nD → PrngReg) (c : Dev nD) : W22 m ρ c (Proc.devRef .tc main_v319_1) = kMean2_2 m ρ c := W22_arr m ρ c 10

/-- Their column variances: what region 10's write-backs leave in its third output array. -/
noncomputable def kVar2_2 (m : KMem) (ρ : Dev nD → PrngReg) (c : Dev nD) := (dat10 (F := Ideal) (V21 m ρ) c).arrAt 11 cfg10.N
theorem kVar2_2_eq (m : KMem) (ρ : Dev nD → PrngReg) (c : Dev nD) : W22 m ρ c (Proc.devRef .tc main_v319_2) = kVar2_2 m ρ c := W22_arr m ρ c 11

/-- Region 10's window 0 is `v202`: what it holds at the region's entry. -/
theorem ent10_0 (m : KMem) (ρ : Dev nD → PrngReg) (c : Dev nD) : V21 m ρ c (Pipeline.arrRef spec10 0) = kAgg2_0 m ρ c :=
  (carry_v202_17_21 m ρ c).trans (kAgg2_0_eq m ρ c)

/-- Region 10's window 1 is `v238`: what it holds at the region's entry. -/
theorem ent10_1 (m : KMem) (ρ : Dev nD → PrngReg) (c : Dev nD) : V21 m ρ c (Pipeline.arrRef spec10 1) = kAgg2_3 m ρ c :=
  (carry_v238_17_21 m ρ c).trans (kAgg2_3_eq m ρ c)

/-- Region 10's window 2 is `v187`: what it holds at the region's entry. -/
theorem ent10_2 (m : KMem) (ρ : Dev nD → PrngReg) (c : Dev nD) : V21 m ρ c (Pipeline.arrRef spec10 2) = kOut1_2 m ρ c :=
  (carry_v187_14_21 m ρ c).trans (kOut1_2_eq m ρ c)

/-- Region 10's window 3 is `v306`: what it holds at the region's entry. -/
theorem ent10_3 (m : KMem) (ρ : Dev nD → PrngReg) (c : Dev nD) : V21 m ρ c (Pipeline.arrRef spec10 3) = kWl2_0 m ρ c :=
  kWl2_0_eq m ρ c

/-- Region 10's window 4 is `v308`: what it holds at the region's entry. -/
theorem ent10_4 (m : KMem) (ρ : Dev nD → PrngReg) (c : Dev nD) : V21 m ρ c (Pipeline.arrRef spec10 4) = kWl2_3 m ρ c :=
  kWl2_3_eq m ρ c

/-- Region 10's window 5 is `v310`: what it holds at the region's entry. -/
theorem ent10_5 (m : KMem) (ρ : Dev nD → PrngReg) (c : Dev nD) : V21 m ρ c (Pipeline.arrRef spec10 5) = kWr2_0 m ρ c :=
  kWr2_0_eq m ρ c

/-- Region 10's window 6 is `v312`: what it holds at the region's entry. -/
theorem ent10_6 (m : KMem) (ρ : Dev nD → PrngReg) (c : Dev nD) : V21 m ρ c (Pipeline.arrRef spec10 6) = kWr2_3 m ρ c :=
  kWr2_3_eq m ρ c

/-- Region 10's window 7 is `v317`: what it holds at the region's entry. -/
theorem ent10_7 (m : KMem) (ρ : Dev nD → PrngReg) (c : Dev nD) : V21 m ρ c (Pipeline.arrRef spec10 7) = kB2_0 m ρ c :=
  kB2_0_eq m ρ c

/-- Region 10's window 8 is `v318`: what it holds at the region's entry. -/
theorem ent10_8 (m : KMem) (ρ : Dev nD → PrngReg) (c : Dev nD) : V21 m ρ c (Pipeline.arrRef spec10 8) = kB2_3 m ρ c :=
  kB2_3_eq m ρ c

/-! ## Region 11 -/

/-- Layer 2's relation sums for node type 3, before normalisation: what region 11's write-backs leave in its
    first output array. -/
noncomputable def kH2_3 (m : KMem) (ρ : Dev nD → PrngReg) (c : Dev nD) := (dat11 (F := Ideal) (V23 m ρ) c).arrAt 5 cfg11.N
theorem kH2_3_eq (m : KMem) (ρ : Dev nD → PrngReg) (c : Dev nD) : W24 m ρ c (Proc.devRef .tc main_v327_0) = kH2_3 m ρ c := W24_arr m ρ c 5

/-- Their column means: what region 11's write-backs leave in its second output array. -/
noncomputable def kMean2_3 (m : KMem) (ρ : Dev nD → PrngReg) (c : Dev nD) := (dat11 (F := Ideal) (V23 m ρ) c).arrAt 6 cfg11.N
theorem kMean2_3_eq (m : KMem) (ρ : Dev nD → PrngReg) (c : Dev nD) : W24 m ρ c (Proc.devRef .tc main_v327_1) = kMean2_3 m ρ c := W24_arr m ρ c 6

/-- Their column variances: what region 11's write-backs leave in its third output array. -/
noncomputable def kVar2_3 (m : KMem) (ρ : Dev nD → PrngReg) (c : Dev nD) := (dat11 (F := Ideal) (V23 m ρ) c).arrAt 7 cfg11.N
theorem kVar2_3_eq (m : KMem) (ρ : Dev nD → PrngReg) (c : Dev nD) : W24 m ρ c (Proc.devRef .tc main_v327_2) = kVar2_3 m ρ c := W24_arr m ρ c 7

/-- Region 11's window 0 is `v226`: what it holds at the region's entry. -/
theorem ent11_0 (m : KMem) (ρ : Dev nD → PrngReg) (c : Dev nD) : V23 m ρ c (Pipeline.arrRef spec11 0) = kAgg2_2 m ρ c :=
  (carry_v226_17_23 m ρ c).trans (kAgg2_2_eq m ρ c)

/-- Region 11's window 1 is `v190`: what it holds at the region's entry. -/
theorem ent11_1 (m : KMem) (ρ : Dev nD → PrngReg) (c : Dev nD) : V23 m ρ c (Pipeline.arrRef spec11 1) = kOut1_3 m ρ c :=
  (carry_v190_16_23 m ρ c).trans (kOut1_3_eq m ρ c)

/-- Region 11's window 2 is `v321`: what it holds at the region's entry. -/
theorem ent11_2 (m : KMem) (ρ : Dev nD → PrngReg) (c : Dev nD) : V23 m ρ c (Pipeline.arrRef spec11 2) = kWl2_2 m ρ c :=
  kWl2_2_eq m ρ c

/-- Region 11's window 3 is `v323`: what it holds at the region's entry. -/
theorem ent11_3 (m : KMem) (ρ : Dev nD → PrngReg) (c : Dev nD) : V23 m ρ c (Pipeline.arrRef spec11 3) = kWr2_2 m ρ c :=
  kWr2_2_eq m ρ c

/-- Region 11's window 4 is `v326`: what it holds at the region's entry. -/
theorem ent11_4 (m : KMem) (ρ : Dev nD → PrngReg) (c : Dev nD) : V23 m ρ c (Pipeline.arrRef spec11 4) = kB2_2 m ρ c :=
  kB2_2_eq m ρ c

/-! ## Region 12 -/

/-- Region 12's window 0 is `v289_0`: what it holds at the region's entry. -/
theorem ent12_0 (m : KMem) (ρ : Dev nD → PrngReg) (c : Dev nD) : V25 m ρ c (Pipeline.arrRef spec12 0) = kH2_0 m ρ c :=
  (carry_v289_0_18_25 m ρ c).trans (kH2_0_eq m ρ c)

/-- Region 12's window 1 is `v289_1`: what it holds at the region's entry. -/
theorem ent12_1 (m : KMem) (ρ : Dev nD → PrngReg) (c : Dev nD) : V25 m ρ c (Pipeline.arrRef spec12 1) = kMean2_0 m ρ c :=
  (carry_v289_1_18_25 m ρ c).trans (kMean2_0_eq m ρ c)

/-- Region 12's window 2 is `v289_2`: what it holds at the region's entry. -/
theorem ent12_2 (m : KMem) (ρ : Dev nD → PrngReg) (c : Dev nD) : V25 m ρ c (Pipeline.arrRef spec12 2) = kVar2_0 m ρ c :=
  (carry_v289_2_18_25 m ρ c).trans (kVar2_0_eq m ρ c)

/-- Region 12's window 3 is `v328`: what it holds at the region's entry. -/
theorem ent12_3 (m : KMem) (ρ : Dev nD → PrngReg) (c : Dev nD) : V25 m ρ c (Pipeline.arrRef spec12 3) = kG2_0 m ρ c :=
  kG2_0_eq m ρ c

/-- Region 12's window 4 is `v329`: what it holds at the region's entry. -/
theorem ent12_4 (m : KMem) (ρ : Dev nD → PrngReg) (c : Dev nD) : V25 m ρ c (Pipeline.arrRef spec12 4) = kBeta2_0 m ρ c :=
  kBeta2_0_eq m ρ c

/-- Layer 2's result for node type 0: the relation sums normalised by their column means and variances, scaled,
    shifted and rectified. -/
noncomputable def kOut2_0 (m : KMem) (ρ : Dev nD → PrngReg) (c : Dev nD) : (⟨S20000x256, .f32⟩ : BufTy).Contents (Elt Ideal) :=
  bnArr12 (kH2_0 m ρ c) (kMean2_0 m ρ c) (kVar2_0 m ρ c) (kG2_0 m ρ c) (kBeta2_0 m ρ c)

/-- It is what region 12's write-backs leave in its output array: the region's value at its entry arrays, each of
    which is the named value above. -/
theorem kOut2_0_eq (m : KMem) (ρ : Dev nD → PrngReg) (c : Dev nD) : W26 m ρ c (Proc.devRef .tc main_v330) = kOut2_0 m ρ c :=
  (W26_arr m ρ c 5).trans ((final12 (V25 m ρ) c).trans
    (congr5 bnArr12 (ent12_0 m ρ c) (ent12_1 m ρ c) (ent12_2 m ρ c) (ent12_3 m ρ c) (ent12_4 m ρ c)))

/-! ## Region 13 -/

/-- Region 13's window 0 is `v304_0`: what it holds at the region's entry. -/
theorem ent13_0 (m : KMem) (ρ : Dev nD → PrngReg) (c : Dev nD) : V27 m ρ c (Pipeline.arrRef spec13 0) = kH2_1 m ρ c :=
  (carry_v304_0_20_27 m ρ c).trans (kH2_1_eq m ρ c)

/-- Region 13's window 1 is `v304_1`: what it holds at the region's entry. -/
theorem ent13_1 (m : KMem) (ρ : Dev nD → PrngReg) (c : Dev nD) : V27 m ρ c (Pipeline.arrRef spec13 1) = kMean2_1 m ρ c :=
  (carry_v304_1_20_27 m ρ c).trans (kMean2_1_eq m ρ c)

/-- Region 13's window 2 is `v304_2`: what it holds at the region's entry. -/
theorem ent13_2 (m : KMem) (ρ : Dev nD → PrngReg) (c : Dev nD) : V27 m ρ c (Pipeline.arrRef spec13 2) = kVar2_1 m ρ c :=
  (carry_v304_2_20_27 m ρ c).trans (kVar2_1_eq m ρ c)

/-- Region 13's window 3 is `v331`: what it holds at the region's entry. -/
theorem ent13_3 (m : KMem) (ρ : Dev nD → PrngReg) (c : Dev nD) : V27 m ρ c (Pipeline.arrRef spec13 3) = kG2_1 m ρ c :=
  kG2_1_eq m ρ c

/-- Region 13's window 4 is `v332`: what it holds at the region's entry. -/
theorem ent13_4 (m : KMem) (ρ : Dev nD → PrngReg) (c : Dev nD) : V27 m ρ c (Pipeline.arrRef spec13 4) = kBeta2_1 m ρ c :=
  kBeta2_1_eq m ρ c

/-- Layer 2's result for node type 1: the relation sums normalised by their column means and variances, scaled,
    shifted and rectified. -/
noncomputable def kOut2_1 (m : KMem) (ρ : Dev nD → PrngReg) (c : Dev nD) : (⟨S50000x256, .f32⟩ : BufTy).Contents (Elt Ideal) :=
  bnArr13 (kH2_1 m ρ c) (kMean2_1 m ρ c) (kVar2_1 m ρ c) (kG2_1 m ρ c) (kBeta2_1 m ρ c)

/-- It is what region 13's write-backs leave in its output array: the region's value at its entry arrays, each of
    which is the named value above. -/
theorem kOut2_1_eq (m : KMem) (ρ : Dev nD → PrngReg) (c : Dev nD) : W28 m ρ c (Proc.devRef .tc main_v333) = kOut2_1 m ρ c :=
  (W28_arr m ρ c 5).trans ((final13 (V27 m ρ) c).trans
    (congr5 bnArr13 (ent13_0 m ρ c) (ent13_1 m ρ c) (ent13_2 m ρ c) (ent13_3 m ρ c) (ent13_4 m ρ c)))

/-! ## Region 14 -/

/-- Region 14's window 0 is `v319_0`: what it holds at the region's entry. -/
theorem ent14_0 (m : KMem) (ρ : Dev nD → PrngReg) (c : Dev nD) : V29 m ρ c (Pipeline.arrRef spec14 0) = kH2_2 m ρ c :=
  (carry_v319_0_22_29 m ρ c).trans (kH2_2_eq m ρ c)

/-- Region 14's window 1 is `v319_1`: what it holds at the region's entry. -/
theorem ent14_1 (m : KMem) (ρ : Dev nD → PrngReg) (c : Dev nD) : V29 m ρ c (Pipeline.arrRef spec14 1) = kMean2_2 m ρ c :=
  (carry_v319_1_22_29 m ρ c).trans (kMean2_2_eq m ρ c)

/-- Region 14's window 2 is `v319_2`: what it holds at the region's entry. -/
theorem ent14_2 (m : KMem) (ρ : Dev nD → PrngReg) (c : Dev nD) : V29 m ρ c (Pipeline.arrRef spec14 2) = kVar2_2 m ρ c :=
  (carry_v319_2_22_29 m ρ c).trans (kVar2_2_eq m ρ c)

/-- Region 14's window 3 is `v334`: what it holds at the region's entry. -/
theorem ent14_3 (m : KMem) (ρ : Dev nD → PrngReg) (c : Dev nD) : V29 m ρ c (Pipeline.arrRef spec14 3) = kG2_2 m ρ c :=
  kG2_2_eq m ρ c

/-- Region 14's window 4 is `v335`: what it holds at the region's entry. -/
theorem ent14_4 (m : KMem) (ρ : Dev nD → PrngReg) (c : Dev nD) : V29 m ρ c (Pipeline.arrRef spec14 4) = kBeta2_2 m ρ c :=
  kBeta2_2_eq m ρ c

/-- Layer 2's result for node type 2: the relation sums normalised by their column means and variances, scaled,
    shifted and rectified. -/
noncomputable def kOut2_2 (m : KMem) (ρ : Dev nD → PrngReg) (c : Dev nD) : (⟨S10000x256, .f32⟩ : BufTy).Contents (Elt Ideal) :=
  bnArr14 (kH2_2 m ρ c) (kMean2_2 m ρ c) (kVar2_2 m ρ c) (kG2_2 m ρ c) (kBeta2_2 m ρ c)

/-- It is what region 14's write-backs leave in its output array: the region's value at its entry arrays, each of
    which is the named value above. -/
theorem kOut2_2_eq (m : KMem) (ρ : Dev nD → PrngReg) (c : Dev nD) : W30 m ρ c (Proc.devRef .tc main_v336) = kOut2_2 m ρ c :=
  (W30_arr m ρ c 5).trans ((final14 (V29 m ρ) c).trans
    (congr5 bnArr14 (ent14_0 m ρ c) (ent14_1 m ρ c) (ent14_2 m ρ c) (ent14_3 m ρ c) (ent14_4 m ρ c)))

/-! ## Region 15 -/

/-- Region 15's window 0 is `v327_0`: what it holds at the region's entry. -/
theorem ent15_0 (m : KMem) (ρ : Dev nD → PrngReg) (c : Dev nD) : V31 m ρ c (Pipeline.arrRef spec15 0) = kH2_3 m ρ c :=
  (carry_v327_0_24_31 m ρ c).trans (kH2_3_eq m ρ c)

/-- Region 15's window 1 is `v327_1`: what it holds at the region's entry. -/
theorem ent15_1 (m : KMem) (ρ : Dev nD → PrngReg) (c : Dev nD) : V31 m ρ c (Pipeline.arrRef spec15 1) = kMean2_3 m ρ c :=
  (carry_v327_1_24_31 m ρ c).trans (kMean2_3_eq m ρ c)

/-- Region 15's window 2 is `v327_2`: what it holds at the region's entry. -/
theorem ent15_2 (m : KMem) (ρ : Dev nD → PrngReg) (c : Dev nD) : V31 m ρ c (Pipeline.arrRef spec15 2) = kVar2_3 m ρ c :=
  (carry_v327_2_24_31 m ρ c).trans (kVar2_3_eq m ρ c)

/-- Region 15's window 3 is `v337`: what it holds at the region's entry. -/
theorem ent15_3 (m : KMem) (ρ : Dev nD → PrngReg) (c : Dev nD) : V31 m ρ c (Pipeline.arrRef spec15 3) = kG2_3 m ρ c :=
  kG2_3_eq m ρ c

/-- Region 15's window 4 is `v338`: what it holds at the region's entry. -/
theorem ent15_4 (m : KMem) (ρ : Dev nD → PrngReg) (c : Dev nD) : V31 m ρ c (Pipeline.arrRef spec15 4) = kBeta2_3 m ρ c :=
  kBeta2_3_eq m ρ c

/-- Layer 2's result for node type 3: the relation sums normalised by their column means and variances, scaled,
    shifted and rectified. -/
noncomputable def kOut2_3 (m : KMem) (ρ : Dev nD → PrngReg) (c : Dev nD) : (⟨S3000x256, .f32⟩ : BufTy).Contents (Elt Ideal) :=
  bnArr15 (kH2_3 m ρ c) (kMean2_3 m ρ c) (kVar2_3 m ρ c) (kG2_3 m ρ c) (kBeta2_3 m ρ c)

/-- It is what region 15's write-backs leave in its output array: the region's value at its entry arrays, each of
    which is the named value above. -/
theorem kOut2_3_eq (m : KMem) (ρ : Dev nD → PrngReg) (c : Dev nD) : W32 m ρ c (Proc.devRef .tc main_v339) = kOut2_3 m ρ c :=
  (W32_arr m ρ c 5).trans ((final15 (V31 m ρ) c).trans
    (congr5 bnArr15 (ent15_0 m ρ c) (ent15_1 m ρ c) (ent15_2 m ρ c) (ent15_3 m ρ c) (ent15_4 m ρ c)))

/-! ## The results -/

/-- Result 0 as the run leaves it: layer 2's result for node type 0, which nothing writes after its region. -/
theorem result_0 (m : KMem) (ρ : Dev nD → PrngReg) (c : Dev nD) : W32 m ρ c (Proc.devRef .tc main_v330) = kOut2_0 m ρ c :=
  (carry_v330_26_32 m ρ c).trans (kOut2_0_eq m ρ c)

/-- Result 1 as the run leaves it: layer 2's result for node type 1, which nothing writes after its region. -/
theorem result_1 (m : KMem) (ρ : Dev nD → PrngReg) (c : Dev nD) : W32 m ρ c (Proc.devRef .tc main_v333) = kOut2_1 m ρ c :=
  (carry_v333_28_32 m ρ c).trans (kOut2_1_eq m ρ c)

/-- Result 2 as the run leaves it: layer 2's result for node type 2, which nothing writes after its region. -/
theorem result_2 (m : KMem) (ρ : Dev nD → PrngReg) (c : Dev nD) : W32 m ρ c (Proc.devRef .tc main_v336) = kOut2_2 m ρ c :=
  (carry_v336_30_32 m ρ c).trans (kOut2_2_eq m ρ c)

/-- Result 3 as the run leaves it: layer 2's result for node type 3, which nothing writes after its region. -/
theorem result_3 (m : KMem) (ρ : Dev nD → PrngReg) (c : Dev nD) : W32 m ρ c (Proc.devRef .tc main_v339) = kOut2_3 m ρ c :=
  kOut2_3_eq m ρ c

end Cert.KernelIdeal.Hand

end
-- ==== Proof.Sage.Var.lean ====
/-
  A column's mean and variance (Proof/Sage/Spec.lean) for a column of reals: the two ways of writing the variance
  agree, both are nonnegative reals, the mean is real, and a normalised, scaled, shifted and rectified entry of
  reals is real.
-/
import proofs.«126569_j1468878815453_1_alg».proof.Proof.Sage.Real
import proofs.«126569_j1468878815453_1_alg».proof.Proof.Sage.Spec

noncomputable section

namespace Sage

open Idealize.ShloMosaic
open scoped BigOperators

section Col

variable {R : Type} [Fintype R]

/-- The mean of a column of reals is real. -/
theorem colMean_isReal (n : ℝ) (hn : n ≠ 0) (col : R → EReal) (hr : ∀ r, IsReal (col r)) :
    IsReal (colMean (n : EReal) col) :=
  mean_isReal col hr hn

/-- The mean of a column of reals is the real mean. -/
theorem colMean_coe (n : ℝ) (hn : n ≠ 0) (g : R → ℝ) :
    colMean (n : EReal) (fun r => (g r : EReal)) = (((∑ r, g r) / n : ℝ) : EReal) :=
  mean_coe g hn

/-- For a column of reals whose row count is `n`, the mean of squares less the squared mean is the mean of squared
    deviations. -/
theorem colVar_eq (n : ℝ) (hn : n ≠ 0) (hcard : (Fintype.card R : ℝ) = n) (col : R → EReal)
    (hr : ∀ r, IsReal (col r)) : colVarSq (n : EReal) col = colVarDev (n : EReal) col :=
  var_law col hr n hn hcard

theorem colVarDev_isReal (n : ℝ) (hn : n ≠ 0) (hcard : (Fintype.card R : ℝ) = n) (col : R → EReal)
    (hr : ∀ r, IsReal (col r)) : IsReal (colVarDev (n : EReal) col) :=
  var_isReal col hr n hn hcard

theorem colVarDev_nonneg (n : ℝ) (hn : n ≠ 0) (hcard : (Fintype.card R : ℝ) = n) (col : R → EReal)
    (hr : ∀ r, IsReal (col r)) : 0 ≤ colVarDev (n : EReal) col :=
  var_nonneg col hr n hn hcard

theorem colVarSq_isReal (n : ℝ) (hn : n ≠ 0) (hcard : (Fintype.card R : ℝ) = n) (col : R → EReal)
    (hr : ∀ r, IsReal (col r)) : IsReal (colVarSq (n : EReal) col) := by
  rw [colVar_eq n hn hcard col hr]; exact colVarDev_isReal n hn hcard col hr

theorem colVarSq_nonneg (n : ℝ) (hn : n ≠ 0) (hcard : (Fintype.card R : ℝ) = n) (col : R → EReal)
    (hr : ∀ r, IsReal (col r)) : 0 ≤ colVarSq (n : EReal) col := by
  rw [colVar_eq n hn hcard col hr]; exact colVarDev_nonneg n hn hcard col hr

end Col

/-- A normalised, scaled, shifted and rectified entry is real when the entry, the mean, the variance, the scale
    and the shift are real, the variance is nonnegative and the epsilon is a positive real. -/
theorem bnrelu_isReal {e : ℝ} (he : 0 < e) {h mu var g beta : EReal} (hh : IsReal h) (hmu : IsReal mu)
    (hvar : IsReal var) (hv0 : 0 ≤ var) (hg : IsReal g) (hbeta : IsReal beta) :
    IsReal (bnrelu (e : EReal) h mu var g beta) :=
  ((((hh.sub hmu).mul (hvar.rsqrt_add_eps hv0 he)).mul hg).add hbeta).max_zero

/-- The same with the epsilon given as an extended real equal to a positive real. -/
theorem bnrelu_isReal' {eps : EReal} {e : ℝ} (heps : eps = (e : EReal)) (he : 0 < e) {h mu var g beta : EReal}
    (hh : IsReal h) (hmu : IsReal mu) (hvar : IsReal var) (hv0 : 0 ≤ var) (hg : IsReal g)
    (hbeta : IsReal beta) : IsReal (bnrelu eps h mu var g beta) := by
  subst heps; exact bnrelu_isReal he hh hmu hvar hv0 hg hbeta

/-- The quiet-NaN word the reference's variance selects when its divisor is not positive denotes `⊥`. -/
theorem ofBits_nan : Ideal.ofBits .f32 0x7FC00000#32 = ⊥ := by
  simp [Ideal.ofBits, Ideal.ieee]

/-- A row count less the integer zero read as a float (the reference's `N - ddof` at `ddof = 0`) is the row count. -/
theorem coe_sub_sitofp_zero (N : ℝ) :
    (N : EReal) - ((((0#32 : BitVec 32).toInt : ℤ) : ℝ) : EReal) = (N : EReal) := by
  simp

/-- A positive real compares greater than zero. -/
theorem cmp_ogt_coe_zero {N : ℝ} (hN : 0 < N) : Ideal.cmp .ogt (N : EReal) 0 = 1#1 := by
  simp [Ideal.cmp, EReal.coe_pos.2 hN]

end Sage

end
-- ==== Proof.Ref.PureBn.lean ====
/-
  The reference's batch normalisation and rectifier of one node type, as one pure function of the layer's
  pre-normalisation array and the scale and shift vectors, read at an entry: the entry normalised by its column's
  mean and variance (the mean of squared deviations), scaled, shifted and rectified. Stated once for an array of
  `n` rows and `m` columns and a row-count word, then at the four row counts of this program.
-/
import proofs.«126569_j1468878815453_1_alg».proof.Proof.Gen.ReferenceIdeal
import proofs.«126569_j1468878815453_1_alg».proof.Proof.Sage.Real
import proofs.«126569_j1468878815453_1_alg».proof.Proof.Sage.Spec
import proofs.«126569_j1468878815453_1_alg».proof.Proof.Sage.Var
import proofs.«126569_j1468878815453_1_alg».proof.Proof.Sage.Finite
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ### Broadcasts and the row sum, read at an entry -/

section Read

variable {n m : ℕ} {α : Type}

/-- A vector of length `m` laid out as a `1 × m` row reads, at `(0, q)`, the vector at `q`. -/
theorem bcastVec_apply (h : (⟨1, ![m]⟩ : Shape).BroadcastsInDim ⟨2, ![1, m]⟩ ![1]) (x : (⟨1, ![m]⟩ : Shape).Idx → α)
    (q : Fin m) : broadcastInDim ⟨2, ![1, m]⟩ ![1] h x (ix2 (0 : Fin 1) q) = x (ix1 q) := by
  refine broadcastInDim_apply _ h x _ (ix1 q) fun a => ?_
  match a with
  | ⟨0, _⟩ =>
    show q.val = if m = 1 then 0 else q.val
    have := q.isLt
    split <;> omega

/-- A `1 × m` row repeated down `n` rows reads, at `(p, q)`, the row at `(0, q)`. -/
theorem bcastRow_apply (h : (⟨2, ![1, m]⟩ : Shape).BroadcastsInDim ⟨2, ![n, m]⟩ ![0, 1])
    (x : (⟨2, ![1, m]⟩ : Shape).Idx → α) (p : Fin n) (q : Fin m) :
    broadcastInDim ⟨2, ![n, m]⟩ ![0, 1] h x (ix2 p q) = x (ix2 (0 : Fin 1) q) := by
  refine broadcastInDim_apply _ h x _ (ix2 (0 : Fin 1) q) fun a => ?_
  match a with
  | ⟨0, _⟩ => show (0 : ℕ) = if (1 : ℕ) = 1 then 0 else p.val; rw [if_pos rfl]
  | ⟨1, _⟩ =>
    show q.val = if m = 1 then 0 else q.val
    have := q.isLt
    split <;> omega

/-- A vector of length `m` laid along every one of `n` rows reads, at `(p, q)`, the vector at `q`. -/
theorem bcastCols_apply (h₁ : (⟨1, ![m]⟩ : Shape).BroadcastsInDim ⟨2, ![1, m]⟩ ![1])
    (h₂ : (⟨2, ![1, m]⟩ : Shape).BroadcastsInDim ⟨2, ![n, m]⟩ ![0, 1]) (x : (⟨1, ![m]⟩ : Shape).Idx → α) (p : Fin n)
    (q : Fin m) :
    broadcastInDim ⟨2, ![n, m]⟩ ![0, 1] h₂ (broadcastInDim ⟨2, ![1, m]⟩ ![1] h₁ x) (ix2 p q) = x (ix1 q) :=
  (bcastRow_apply h₂ _ p q).trans (bcastVec_apply h₁ x q)

/-- The row inserted into a column index is the entry's index. -/
theorem lift_ix (h : (⟨2, ![n, m]⟩ : Shape).Reduces [0] ⟨1, ![m]⟩) (q : Fin m) (r : Fin n) :
    h.lift (ix1 q) r = ix2 r q := by
  funext a
  match a with
  | ⟨0, _⟩ => exact Fin.ext rfl
  | ⟨1, _⟩ => exact Fin.ext rfl

/-- The host's sum down the rows, read at a column: the initial value plus the column's sum. -/
theorem hostReduceAdd_rows (h' : (⟨2, ![n, m]⟩ : Shape).ReducesTo [0] ⟨1, ![m]⟩)
    (h : (⟨2, ![n, m]⟩ : Shape).Reduces [0] ⟨1, ![m]⟩) (hu : 0 < (⟨0, ![]⟩ : Shape).numel)
    (x : FVec Ideal ⟨2, ![n, m]⟩ .f32) (init : (⟨0, ![]⟩ : Shape).Idx → EReal) (q : Fin m) :
    Host.reduceAdd (F := Ideal) (φ := .f32) x init h' hu (ix1 q) = init ix0 + ∑ r : Fin n, x (ix2 r q) := by
  refine (Ideal.hostReduceAdd_single h' h x (init (Shape.Idx.first hu)) (ix1 q)).trans ?_
  refine congrArg₂ (· + ·) (congrArg init (eq_ix0 _)) ?_
  exact Finset.sum_congr rfl fun r _ => congrArg x (lift_ix h q r)

end Read

/-! ### The stages, for `n` rows and `m` columns -/

section Stages

variable (n m : ℕ) (wN : BitVec 32)
  (hred : (⟨2, ![n, m]⟩ : Shape).ReducesTo [0] ⟨1, ![m]⟩)
  (hS : 0 < (⟨0, ![]⟩ : Shape).numel)
  (hb0 : (⟨0, ![]⟩ : Shape).BroadcastsInDim ⟨1, ![m]⟩ ![])
  (hb1 : (⟨1, ![m]⟩ : Shape).BroadcastsInDim ⟨2, ![1, m]⟩ ![1])
  (hb2 : (⟨0, ![]⟩ : Shape).BroadcastsInDim ⟨2, ![1, m]⟩ ![])
  (hb3 : (⟨2, ![1, m]⟩ : Shape).BroadcastsInDim ⟨2, ![n, m]⟩ ![0, 1])
  (hb4 : (⟨0, ![]⟩ : Shape).BroadcastsInDim ⟨2, ![n, m]⟩ ![])

/-- The columns' means: the sum down the rows over the row count. -/
noncomputable def refMean (v : FVec Ideal ⟨2, ![n, m]⟩ .f32) : FVec Ideal ⟨1, ![m]⟩ .f32 :=
  Host.divf (Host.reduceAdd v (constant ⟨0, ![]⟩ .f32 0x00000000#32) hred hS)
    (broadcastInDim ⟨1, ![m]⟩ ![] hb0 (constant ⟨0, ![]⟩ .f32 wN))

/-- The variance's own copy of the means, as a `1 × m` row. -/
noncomputable def refVMean (v : FVec Ideal ⟨2, ![n, m]⟩ .f32) : FVec Ideal ⟨2, ![1, m]⟩ .f32 :=
  Host.divf (broadcastInDim ⟨2, ![1, m]⟩ ![1] hb1 (Host.reduceAdd v (constant ⟨0, ![]⟩ .f32 0x00000000#32) hred hS))
    (broadcastInDim ⟨2, ![1, m]⟩ ![] hb2 (constant ⟨0, ![]⟩ .f32 wN))

/-- The squared deviations from the column means. -/
noncomputable def refVSq (v : FVec Ideal ⟨2, ![n, m]⟩ .f32) : FVec Ideal ⟨2, ![n, m]⟩ .f32 :=
  mulf (subf v (broadcastInDim ⟨2, ![n, m]⟩ ![0, 1] hb3 (refVMean n m wN hred hS hb1 hb2 v)))
    (subf v (broadcastInDim ⟨2, ![n, m]⟩ ![0, 1] hb3 (refVMean n m wN hred hS hb1 hb2 v)))

/-- The variance's divisor: the row count less the integer zero read as a float. -/
noncomputable def refVDen : FVec Ideal ⟨0, ![]⟩ .f32 :=
  subf (constant ⟨0, ![]⟩ .f32 wN) (sitofp .f32 (constantI ⟨0, ![]⟩ 32 0#32))

/-- The columns' variances: the mean of squared deviations where the divisor is positive, else the quiet-NaN word. -/
noncomputable def refVar (v : FVec Ideal ⟨2, ![n, m]⟩ .f32) : FVec Ideal ⟨1, ![m]⟩ .f32 :=
  select (broadcastInDim ⟨1, ![m]⟩ ![] hb0 (cmpf .ogt (refVDen wN) (constant ⟨0, ![]⟩ .f32 0x00000000#32)))
    (Host.divf (Host.reduceAdd (refVSq n m wN hred hS hb1 hb2 hb3 v) (constant ⟨0, ![]⟩ .f32 0x00000000#32) hred hS)
      (broadcastInDim ⟨1, ![m]⟩ ![] hb0 (refVDen wN)))
    (broadcastInDim ⟨1, ![m]⟩ ![] hb0 (id (constant ⟨0, ![]⟩ .f32 0x7FC00000#32)))

/-- Batch normalisation and the rectifier: every entry less its column's mean, times the reciprocal square root of
    the column's variance plus epsilon, times the scale, plus the shift, and the maximum of that with zero. -/
noncomputable def refBn (v : FVec Ideal ⟨2, ![n, m]⟩ .f32) (g beta : FVec Ideal ⟨1, ![m]⟩ .f32) : FVec Ideal ⟨2, ![n, m]⟩ .f32 :=
  maximumf
    (addf
      (mulf
        (mulf
          (subf v (broadcastInDim ⟨2, ![n, m]⟩ ![0, 1] hb3
            (broadcastInDim ⟨2, ![1, m]⟩ ![1] hb1 (refMean n m wN hred hS hb0 v))))
          (broadcastInDim ⟨2, ![n, m]⟩ ![0, 1] hb3 (broadcastInDim ⟨2, ![1, m]⟩ ![1] hb1
            (Host.rsqrt (addf (refVar n m wN hred hS hb0 hb1 hb2 hb3 v)
              (broadcastInDim ⟨1, ![m]⟩ ![] hb0 (constant ⟨0, ![]⟩ .f32 0x3727C5AC#32)))))))
        (broadcastInDim ⟨2, ![n, m]⟩ ![0, 1] hb3 (broadcastInDim ⟨2, ![1, m]⟩ ![1] hb1 g)))
      (broadcastInDim ⟨2, ![n, m]⟩ ![0, 1] hb3 (broadcastInDim ⟨2, ![1, m]⟩ ![1] hb1 beta)))
    (broadcastInDim ⟨2, ![n, m]⟩ ![] hb4 (constant ⟨0, ![]⟩ .f32 0x00000000#32))

variable {n m wN} (N : ℝ) (hN : Ideal.ofBits .f32 wN = (N : EReal))
  (hR : (⟨2, ![n, m]⟩ : Shape).Reduces [0] ⟨1, ![m]⟩)

include hN hR in
theorem refMean_apply (v : FVec Ideal ⟨2, ![n, m]⟩ .f32) (q : Fin m) :
    refMean n m wN hred hS hb0 v (ix1 q) = Sage.colMean (N : EReal) fun r : Fin n => v (ix2 r q) := by
  show Ideal.div (Host.reduceAdd (F := Ideal) (φ := .f32) v (constant ⟨0, ![]⟩ .f32 0x00000000#32) hred hS (ix1 q))
      (broadcastInDim ⟨1, ![m]⟩ ![] hb0 (constant (F := Ideal) ⟨0, ![]⟩ .f32 wN) (ix1 q)) = _
  rw [hostReduceAdd_rows hred hR hS, broadcastInDim_scalar_apply]
  show Ideal.div (Ideal.ofBits .f32 0x00000000#32 + _) (Ideal.ofBits .f32 wN) = _
  rw [Sage.ofBits_zero, zero_add, hN]
  rfl

include hN hR in
theorem refVMean_apply (v : FVec Ideal ⟨2, ![n, m]⟩ .f32) (q : Fin m) :
    refVMean n m wN hred hS hb1 hb2 v (ix2 (0 : Fin 1) q) = Sage.colMean (N : EReal) fun r : Fin n => v (ix2 r q) := by
  show Ideal.div (broadcastInDim ⟨2, ![1, m]⟩ ![1] hb1
        (Host.reduceAdd (F := Ideal) (φ := .f32) v (constant ⟨0, ![]⟩ .f32 0x00000000#32) hred hS) (ix2 (0 : Fin 1) q))
      (broadcastInDim ⟨2, ![1, m]⟩ ![] hb2 (constant (F := Ideal) ⟨0, ![]⟩ .f32 wN) (ix2 (0 : Fin 1) q)) = _
  rw [bcastVec_apply, hostReduceAdd_rows hred hR hS, broadcastInDim_scalar_apply]
  show Ideal.div (Ideal.ofBits .f32 0x00000000#32 + _) (Ideal.ofBits .f32 wN) = _
  rw [Sage.ofBits_zero, zero_add, hN]
  rfl

include hN hR in
theorem refVSq_apply (v : FVec Ideal ⟨2, ![n, m]⟩ .f32) (r : Fin n) (q : Fin m) :
    refVSq n m wN hred hS hb1 hb2 hb3 v (ix2 r q)
      = (v (ix2 r q) - Sage.colMean (N : EReal) fun r : Fin n => v (ix2 r q))
        * (v (ix2 r q) - Sage.colMean (N : EReal) fun r : Fin n => v (ix2 r q)) := by
  show (v (ix2 r q) - broadcastInDim ⟨2, ![n, m]⟩ ![0, 1] hb3 (refVMean n m wN hred hS hb1 hb2 v) (ix2 r q))
      * (v (ix2 r q) - broadcastInDim ⟨2, ![n, m]⟩ ![0, 1] hb3 (refVMean n m wN hred hS hb1 hb2 v) (ix2 r q)) = _
  rw [bcastRow_apply, refVMean_apply hred hS hb1 hb2 N hN hR]

include hN in
theorem refVDen_apply (j : (⟨0, ![]⟩ : Shape).Idx) : refVDen wN j = (N : EReal) := by
  show Ideal.ofBits .f32 wN - ((((0#32 : BitVec 32).toInt : ℤ) : ℝ) : EReal) = _
  rw [hN, Sage.coe_sub_sitofp_zero]

include hN hR in
theorem refVar_apply (hpos : 0 < N) (v : FVec Ideal ⟨2, ![n, m]⟩ .f32) (q : Fin m) :
    refVar n m wN hred hS hb0 hb1 hb2 hb3 v (ix1 q) = Sage.colVarDev (N : EReal) fun r : Fin n => v (ix2 r q) := by
  have hc : broadcastInDim ⟨1, ![m]⟩ ![] hb0
      (cmpf (F := Ideal) .ogt (refVDen wN) (constant ⟨0, ![]⟩ .f32 0x00000000#32)) (ix1 q) = 1#1 := by
    rw [broadcastInDim_scalar_apply]
    show Ideal.cmp .ogt (refVDen wN ix0) (Ideal.ofBits .f32 0x00000000#32) = 1#1
    rw [refVDen_apply N hN, Sage.ofBits_zero, Sage.cmp_ogt_coe_zero hpos]
  show Scalar.select (broadcastInDim ⟨1, ![m]⟩ ![] hb0
      (cmpf (F := Ideal) .ogt (refVDen wN) (constant ⟨0, ![]⟩ .f32 0x00000000#32)) (ix1 q)) _ _ = _
  rw [hc, select_one]
  show Ideal.div (Host.reduceAdd (F := Ideal) (φ := .f32) (refVSq n m wN hred hS hb1 hb2 hb3 v)
        (constant ⟨0, ![]⟩ .f32 0x00000000#32) hred hS (ix1 q))
      (broadcastInDim ⟨1, ![m]⟩ ![] hb0 (refVDen wN) (ix1 q)) = _
  rw [hostReduceAdd_rows hred hR hS, broadcastInDim_scalar_apply, refVDen_apply N hN]
  show Ideal.div (Ideal.ofBits .f32 0x00000000#32 + _) _ = _
  rw [Sage.ofBits_zero, zero_add]
  simp only [refVSq_apply hred hS hb1 hb2 hb3 N hN hR]
  rfl

include hN hR in
/-- The reference's normalised and rectified entry. -/
theorem refBn_apply (hpos : 0 < N) (v : FVec Ideal ⟨2, ![n, m]⟩ .f32) (g beta : FVec Ideal ⟨1, ![m]⟩ .f32)
    (r : Fin n) (q : Fin m) :
    refBn n m wN hred hS hb0 hb1 hb2 hb3 hb4 v g beta (ix2 r q)
      = Sage.bnrelu (Ideal.ofBits .f32 0x3727C5AC#32) (v (ix2 r q))
          (Sage.colMean (N : EReal) fun r : Fin n => v (ix2 r q))
          (Sage.colVarDev (N : EReal) fun r : Fin n => v (ix2 r q)) (g (ix1 q)) (beta (ix1 q)) := by
  show max
      ((v (ix2 r q) - broadcastInDim ⟨2, ![n, m]⟩ ![0, 1] hb3
            (broadcastInDim ⟨2, ![1, m]⟩ ![1] hb1 (refMean n m wN hred hS hb0 v)) (ix2 r q))
          * broadcastInDim ⟨2, ![n, m]⟩ ![0, 1] hb3 (broadcastInDim ⟨2, ![1, m]⟩ ![1] hb1
              (Host.rsqrt (F := Ideal) (φ := .f32) (addf (refVar n m wN hred hS hb0 hb1 hb2 hb3 v)
                (broadcastInDim ⟨1, ![m]⟩ ![] hb0 (constant ⟨0, ![]⟩ .f32 0x3727C5AC#32))))) (ix2 r q)
          * broadcastInDim ⟨2, ![n, m]⟩ ![0, 1] hb3 (broadcastInDim ⟨2, ![1, m]⟩ ![1] hb1 g) (ix2 r q)
        + broadcastInDim ⟨2, ![n, m]⟩ ![0, 1] hb3 (broadcastInDim ⟨2, ![1, m]⟩ ![1] hb1 beta) (ix2 r q))
      (broadcastInDim ⟨2, ![n, m]⟩ ![] hb4 (constant (F := Ideal) ⟨0, ![]⟩ .f32 0x00000000#32) (ix2 r q)) = _
  have e1 := bcastCols_apply hb1 hb3 (refMean n m wN hred hS hb0 v) r q
  have e2 := bcastCols_apply hb1 hb3 (Host.rsqrt (F := Ideal) (φ := .f32) (addf (refVar n m wN hred hS hb0 hb1 hb2 hb3 v)
    (broadcastInDim ⟨1, ![m]⟩ ![] hb0 (constant ⟨0, ![]⟩ .f32 0x3727C5AC#32)))) r q
  have e3 := bcastCols_apply hb1 hb3 g r q
  have e4 := bcastCols_apply hb1 hb3 beta r q
  have e5 : broadcastInDim ⟨2, ![n, m]⟩ ![] hb4 (constant (F := Ideal) ⟨0, ![]⟩ .f32 0x00000000#32) (ix2 r q) = 0 := by
    rw [broadcastInDim_scalar_apply]; exact Sage.ofBits_zero
  have e6 : Host.rsqrt (F := Ideal) (φ := .f32) (addf (refVar n m wN hred hS hb0 hb1 hb2 hb3 v)
      (broadcastInDim ⟨1, ![m]⟩ ![] hb0 (constant ⟨0, ![]⟩ .f32 0x3727C5AC#32))) (ix1 q)
      = Ideal.rsqrt ((Sage.colVarDev (N : EReal) fun r : Fin n => v (ix2 r q)) + Ideal.ofBits .f32 0x3727C5AC#32) := by
    show Ideal.rsqrt (refVar n m wN hred hS hb0 hb1 hb2 hb3 v (ix1 q)
      + broadcastInDim ⟨1, ![m]⟩ ![] hb0 (constant (F := Ideal) ⟨0, ![]⟩ .f32 0x3727C5AC#32) (ix1 q)) = _
    rw [refVar_apply hred hS hb0 hb1 hb2 hb3 N hN hR hpos, broadcastInDim_scalar_apply]
    rfl
  rw [e1, e2, e3, e4, e5, e6, refMean_apply hred hS hb0 N hN hR]
  rfl

include hN hR in
/-- The same entry with the variance written as the mean of squares less the squared mean, for an array of reals
    whose row count is `N`. -/
theorem refBn_apply_sq (hpos : 0 < N) (hcard : (n : ℝ) = N) (v : FVec Ideal ⟨2, ![n, m]⟩ .f32) (hv : Sage.AllReal v)
    (g beta : FVec Ideal ⟨1, ![m]⟩ .f32) (r : Fin n) (q : Fin m) :
    refBn n m wN hred hS hb0 hb1 hb2 hb3 hb4 v g beta (ix2 r q)
      = Sage.bnrelu (Ideal.ofBits .f32 0x3727C5AC#32) (v (ix2 r q))
          (Sage.colMean (N : EReal) fun r : Fin n => v (ix2 r q))
          (Sage.colVarSq (N : EReal) fun r : Fin n => v (ix2 r q)) (g (ix1 q)) (beta (ix1 q)) := by
  rw [refBn_apply hred hS hb0 hb1 hb2 hb3 hb4 N hN hR hpos,
    Sage.colVar_eq N hpos.ne' (by rw [Fintype.card_fin]; exact hcard) (fun r : Fin n => v (ix2 r q)) fun r => hv _]

include hN hR in
/-- Every entry of the result is real when the array, the scale and the shift are. -/
theorem refBn_allReal (hpos : 0 < N) (hcard : (n : ℝ) = N) (v : FVec Ideal ⟨2, ![n, m]⟩ .f32) (hv : Sage.AllReal v)
    (g beta : FVec Ideal ⟨1, ![m]⟩ .f32) (hg : Sage.AllReal g) (hbeta : Sage.AllReal beta) :
    Sage.AllReal (refBn n m wN hred hS hb0 hb1 hb2 hb3 hb4 v g beta) := by
  intro i
  obtain ⟨r, q, rfl⟩ : ∃ (r : Fin n) (q : Fin m), i = ix2 r q := ⟨i 0, i 1, eq_ix2 i⟩
  have hc : (Fintype.card (Fin n) : ℝ) = N := by rw [Fintype.card_fin]; exact hcard
  rw [refBn_apply hred hS hb0 hb1 hb2 hb3 hb4 N hN hR hpos]
  exact Sage.bnrelu_isReal' Sage.ofBits_eps Sage.epsR_pos (hv _)
    (Sage.colMean_isReal N hpos.ne' _ fun r => hv _)
    (Sage.colVarDev_isReal N hpos.ne' hc _ fun r => hv _)
    (Sage.colVarDev_nonneg N hpos.ne' hc _ fun r => hv _) (hg _) (hbeta _)

end Stages

/-! ### The four row counts of this program

Both layers normalise a node type's array by the same operations (the arrays are 256 wide in both), so one function
per row count serves both layers. -/

section Sizes

theorem reduces_20000 : S20000x256.Reduces [0] S256 := by decide

/-- Batch normalisation and the rectifier of the first node type's array (20000 rows), as the reference's host operations compose. -/
noncomputable def refBn20000 (v : FVec Ideal S20000x256 .f32) (g beta : FVec Ideal S256 .f32) : FVec Ideal S20000x256 .f32 :=
  refBn 20000 256 0x469C4000#32 reducesTo_S20000x256_S256_d0 h_S_ bcast_S_S256 bcast_S256_S1x256_1 bcast_S_S1x256
    bcast_S1x256_S20000x256_0_1 bcast_S_S20000x256 v g beta

theorem refBn20000_apply (v : FVec Ideal S20000x256 .f32) (g beta : FVec Ideal S256 .f32) (r : Fin 20000) (q : Fin 256) :
    refBn20000 v g beta (ix2 r q)
      = Sage.bnrelu (Ideal.ofBits .f32 0x3727C5AC#32) (v (ix2 r q))
          (Sage.colMean ((20000 : ℝ) : EReal) fun r : Fin 20000 => v (ix2 r q))
          (Sage.colVarDev ((20000 : ℝ) : EReal) fun r : Fin 20000 => v (ix2 r q)) (g (ix1 q)) (beta (ix1 q)) :=
  refBn_apply _ _ _ _ _ _ _ 20000 Sage.ofBits_20000 reduces_20000 (by norm_num) v g beta r q

theorem refBn20000_eq_sq (v : FVec Ideal S20000x256 .f32) (hv : Sage.AllReal v) (g beta : FVec Ideal S256 .f32)
    (r : Fin 20000) (q : Fin 256) :
    refBn20000 v g beta (ix2 r q)
      = Sage.bnrelu (Ideal.ofBits .f32 0x3727C5AC#32) (v (ix2 r q))
          (Sage.colMean ((20000 : ℝ) : EReal) fun r : Fin 20000 => v (ix2 r q))
          (Sage.colVarSq ((20000 : ℝ) : EReal) fun r : Fin 20000 => v (ix2 r q)) (g (ix1 q)) (beta (ix1 q)) :=
  refBn_apply_sq _ _ _ _ _ _ _ 20000 Sage.ofBits_20000 reduces_20000 (by norm_num) (by norm_num) v hv g beta r q

theorem refBn20000_allReal (v : FVec Ideal S20000x256 .f32) (hv : Sage.AllReal v) (g beta : FVec Ideal S256 .f32)
    (hg : Sage.AllReal g) (hbeta : Sage.AllReal beta) : Sage.AllReal (refBn20000 v g beta) :=
  refBn_allReal _ _ _ _ _ _ _ 20000 Sage.ofBits_20000 reduces_20000 (by norm_num) (by norm_num) v hv g beta hg hbeta

theorem reduces_50000 : S50000x256.Reduces [0] S256 := by decide

/-- Batch normalisation and the rectifier of the second node type's array (50000 rows), as the reference's host operations compose. -/
noncomputable def refBn50000 (v : FVec Ideal S50000x256 .f32) (g beta : FVec Ideal S256 .f32) : FVec Ideal S50000x256 .f32 :=
  refBn 50000 256 0x47435000#32 reducesTo_S50000x256_S256_d0 h_S_ bcast_S_S256 bcast_S256_S1x256_1 bcast_S_S1x256
    bcast_S1x256_S50000x256_0_1 bcast_S_S50000x256 v g beta

theorem refBn50000_apply (v : FVec Ideal S50000x256 .f32) (g beta : FVec Ideal S256 .f32) (r : Fin 50000) (q : Fin 256) :
    refBn50000 v g beta (ix2 r q)
      = Sage.bnrelu (Ideal.ofBits .f32 0x3727C5AC#32) (v (ix2 r q))
          (Sage.colMean ((50000 : ℝ) : EReal) fun r : Fin 50000 => v (ix2 r q))
          (Sage.colVarDev ((50000 : ℝ) : EReal) fun r : Fin 50000 => v (ix2 r q)) (g (ix1 q)) (beta (ix1 q)) :=
  refBn_apply _ _ _ _ _ _ _ 50000 Sage.ofBits_50000 reduces_50000 (by norm_num) v g beta r q

theorem refBn50000_eq_sq (v : FVec Ideal S50000x256 .f32) (hv : Sage.AllReal v) (g beta : FVec Ideal S256 .f32)
    (r : Fin 50000) (q : Fin 256) :
    refBn50000 v g beta (ix2 r q)
      = Sage.bnrelu (Ideal.ofBits .f32 0x3727C5AC#32) (v (ix2 r q))
          (Sage.colMean ((50000 : ℝ) : EReal) fun r : Fin 50000 => v (ix2 r q))
          (Sage.colVarSq ((50000 : ℝ) : EReal) fun r : Fin 50000 => v (ix2 r q)) (g (ix1 q)) (beta (ix1 q)) :=
  refBn_apply_sq _ _ _ _ _ _ _ 50000 Sage.ofBits_50000 reduces_50000 (by norm_num) (by norm_num) v hv g beta r q

theorem refBn50000_allReal (v : FVec Ideal S50000x256 .f32) (hv : Sage.AllReal v) (g beta : FVec Ideal S256 .f32)
    (hg : Sage.AllReal g) (hbeta : Sage.AllReal beta) : Sage.AllReal (refBn50000 v g beta) :=
  refBn_allReal _ _ _ _ _ _ _ 50000 Sage.ofBits_50000 reduces_50000 (by norm_num) (by norm_num) v hv g beta hg hbeta

theorem reduces_10000 : S10000x256.Reduces [0] S256 := by decide

/-- Batch normalisation and the rectifier of the third node type's array (10000 rows), as the reference's host operations compose. -/
noncomputable def refBn10000 (v : FVec Ideal S10000x256 .f32) (g beta : FVec Ideal S256 .f32) : FVec Ideal S10000x256 .f32 :=
  refBn 10000 256 0x461C4000#32 reducesTo_S10000x256_S256_d0 h_S_ bcast_S_S256 bcast_S256_S1x256_1 bcast_S_S1x256
    bcast_S1x256_S10000x256_0_1 bcast_S_S10000x256 v g beta

theorem refBn10000_apply (v : FVec Ideal S10000x256 .f32) (g beta : FVec Ideal S256 .f32) (r : Fin 10000) (q : Fin 256) :
    refBn10000 v g beta (ix2 r q)
      = Sage.bnrelu (Ideal.ofBits .f32 0x3727C5AC#32) (v (ix2 r q))
          (Sage.colMean ((10000 : ℝ) : EReal) fun r : Fin 10000 => v (ix2 r q))
          (Sage.colVarDev ((10000 : ℝ) : EReal) fun r : Fin 10000 => v (ix2 r q)) (g (ix1 q)) (beta (ix1 q)) :=
  refBn_apply _ _ _ _ _ _ _ 10000 Sage.ofBits_10000 reduces_10000 (by norm_num) v g beta r q

theorem refBn10000_eq_sq (v : FVec Ideal S10000x256 .f32) (hv : Sage.AllReal v) (g beta : FVec Ideal S256 .f32)
    (r : Fin 10000) (q : Fin 256) :
    refBn10000 v g beta (ix2 r q)
      = Sage.bnrelu (Ideal.ofBits .f32 0x3727C5AC#32) (v (ix2 r q))
          (Sage.colMean ((10000 : ℝ) : EReal) fun r : Fin 10000 => v (ix2 r q))
          (Sage.colVarSq ((10000 : ℝ) : EReal) fun r : Fin 10000 => v (ix2 r q)) (g (ix1 q)) (beta (ix1 q)) :=
  refBn_apply_sq _ _ _ _ _ _ _ 10000 Sage.ofBits_10000 reduces_10000 (by norm_num) (by norm_num) v hv g beta r q

theorem refBn10000_allReal (v : FVec Ideal S10000x256 .f32) (hv : Sage.AllReal v) (g beta : FVec Ideal S256 .f32)
    (hg : Sage.AllReal g) (hbeta : Sage.AllReal beta) : Sage.AllReal (refBn10000 v g beta) :=
  refBn_allReal _ _ _ _ _ _ _ 10000 Sage.ofBits_10000 reduces_10000 (by norm_num) (by norm_num) v hv g beta hg hbeta

theorem reduces_3000 : S3000x256.Reduces [0] S256 := by decide

/-- Batch normalisation and the rectifier of the fourth node type's array (3000 rows), as the reference's host operations compose. -/
noncomputable def refBn3000 (v : FVec Ideal S3000x256 .f32) (g beta : FVec Ideal S256 .f32) : FVec Ideal S3000x256 .f32 :=
  refBn 3000 256 0x453B8000#32 reducesTo_S3000x256_S256_d0 h_S_ bcast_S_S256 bcast_S256_S1x256_1 bcast_S_S1x256
    bcast_S1x256_S3000x256_0_1 bcast_S_S3000x256 v g beta

theorem refBn3000_apply (v : FVec Ideal S3000x256 .f32) (g beta : FVec Ideal S256 .f32) (r : Fin 3000) (q : Fin 256) :
    refBn3000 v g beta (ix2 r q)
      = Sage.bnrelu (Ideal.ofBits .f32 0x3727C5AC#32) (v (ix2 r q))
          (Sage.colMean ((3000 : ℝ) : EReal) fun r : Fin 3000 => v (ix2 r q))
          (Sage.colVarDev ((3000 : ℝ) : EReal) fun r : Fin 3000 => v (ix2 r q)) (g (ix1 q)) (beta (ix1 q)) :=
  refBn_apply _ _ _ _ _ _ _ 3000 Sage.ofBits_3000 reduces_3000 (by norm_num) v g beta r q

theorem refBn3000_eq_sq (v : FVec Ideal S3000x256 .f32) (hv : Sage.AllReal v) (g beta : FVec Ideal S256 .f32)
    (r : Fin 3000) (q : Fin 256) :
    refBn3000 v g beta (ix2 r q)
      = Sage.bnrelu (Ideal.ofBits .f32 0x3727C5AC#32) (v (ix2 r q))
          (Sage.colMean ((3000 : ℝ) : EReal) fun r : Fin 3000 => v (ix2 r q))
          (Sage.colVarSq ((3000 : ℝ) : EReal) fun r : Fin 3000 => v (ix2 r q)) (g (ix1 q)) (beta (ix1 q)) :=
  refBn_apply_sq _ _ _ _ _ _ _ 3000 Sage.ofBits_3000 reduces_3000 (by norm_num) (by norm_num) v hv g beta r q

theorem refBn3000_allReal (v : FVec Ideal S3000x256 .f32) (hv : Sage.AllReal v) (g beta : FVec Ideal S256 .f32)
    (hg : Sage.AllReal g) (hbeta : Sage.AllReal beta) : Sage.AllReal (refBn3000 v g beta) :=
  refBn_allReal _ _ _ _ _ _ _ 3000 Sage.ofBits_3000 reduces_3000 (by norm_num) (by norm_num) v hv g beta hg hbeta

end Sizes

end Cert.ReferenceIdeal.Hand

end
-- ==== Proof.Ref.PureNet.lean ====
/-
  The reference's aggregation and relation stages, relation by relation and layer by layer, as the pure functions of
  Proof/Sage/Net.lean at this program's shapes: each is the composition of the host operations the reference runs for
  that relation, so what it computes at an entry, and that it is real on real operands, are that file's theorems.
-/
import proofs.«126569_j1468878815453_1_alg».proof.Proof.Gen.ReferenceIdeal
import proofs.«126569_j1468878815453_1_alg».proof.Proof.Sage.Net

noncomputable section

namespace Cert.ReferenceIdeal.Hand

open Cert.ReferenceIdeal Cert.ReferenceIdeal.Gen Idealize.ShloMosaic Idealize.ShloMosaic.ValueIdx

/-! ### Layer 1, relation 0: 20000 source rows, 10000 destination rows, 500000 edges, 128 columns -/

section
variable {F : FTy → Type} [FloatOps F]

/-- The incoming-edge counts of the destination rows (at least one). -/
noncomputable def refCnt1_0 (dst : IVec S500000 32) : FVec F S10000x1 .f32 :=
  Sage.cntFn 10000 500000 bcast_S500000_S500000x1_0 bcast_S_S500000x1 bcast_S_S10000x1 scatter_S10000x1_S500000x1_S500000x1_1_0_0_1 dst

/-- The source rows averaged over each destination row's incoming edges. -/
noncomputable def refAgg1_0 (x : FVec F S20000x128 .f32) (src dst : IVec S500000 32) : FVec F S10000x128 .f32 :=
  Sage.aggFn 20000 10000 500000 128 20000#32 bcast_S_S500000 bcast_S500000_S500000x1_0 gather_S20000x128_S500000x1_S500000x128_1_0_n_n_0_1_1128 bcast_S_S10000x128 scatter_S10000x128_S500000x1_S500000x128_1_0_0_1 bcast_S_S500000x1 bcast_S_S10000x1 scatter_S10000x1_S500000x1_S500000x1_1_0_0_1 bcast_S10000x1_S10000x128_0_1 x src dst

/-- The relation's contribution to the destination rows. -/
noncomputable def refRel1_0 (agg x : FVec F S10000x128 .f32) (Wl Wr : FVec F S7x128x256 .f32) (b : FVec F S7x256 .f32) :
    FVec F S10000x256 .f32 :=
  Sage.relFn 10000 128 256 7 0 dot_S10000x128_S128x256_S10000x256_1_0_0_1_n_n slices_S7x128x256_S1x128x256_0_0_0 shapeCasts_S1x128x256_S128x256 slices_S7x256_S1x256_0_0 shapeCasts_S1x256_S256 bcast_S256_S1x256_1 bcast_S1x256_S10000x256_0_1 agg x Wl Wr b

end

theorem refCnt1_0_allRealGE (dst : IVec S500000 32) : Sage.AllRealGE 1 (refCnt1_0 (F := Ideal) dst) :=
  Sage.cntFn_allRealGE _ _ _ _ _ _ dst

theorem refAgg1_0_allReal (x : FVec Ideal S20000x128 .f32) (hx : Sage.AllReal x) (src dst : IVec S500000 32) :
    Sage.AllReal (refAgg1_0 (F := Ideal) x src dst) :=
  Sage.aggFn_allReal _ _ _ _ _ _ _ _ _ _ _ _ _ _ x hx src dst

theorem refRel1_0_apply (agg x : FVec Ideal S10000x128 .f32) (Wl Wr : FVec Ideal S7x128x256 .f32) (b : FVec Ideal S7x256 .f32)
    (r : Fin 10000) (q : Fin 256) :
    refRel1_0 (F := Ideal) agg x Wl Wr b (ix2 r q)
      = Sage.rel (fun a : Fin 128 => agg (ix2 r a)) (fun a : Fin 128 => x (ix2 r a))
          (fun a : Fin 128 => Wl (ix3 (⟨0, by decide⟩ : Fin 7) a q)) (fun a : Fin 128 => Wr (ix3 (⟨0, by decide⟩ : Fin 7) a q))
          (b (ix2 (⟨0, by decide⟩ : Fin 7) q)) :=
  Sage.relFn_apply _ _ _ _ _ _ _ rfl (by decide) agg x Wl Wr b r q

theorem refRel1_0_allReal (agg x : FVec Ideal S10000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_0 (F := Ideal) agg x Wl Wr b) :=
  Sage.relFn_allReal _ _ _ _ _ _ _ agg x Wl Wr b hagg hx hWl hWr hb

/-! ### Layer 1, relation 1: 20000 source rows, 50000 destination rows, 400000 edges, 128 columns -/

section
variable {F : FTy → Type} [FloatOps F]

/-- The incoming-edge counts of the destination rows (at least one). -/
noncomputable def refCnt1_1 (dst : IVec S400000 32) : FVec F S50000x1 .f32 :=
  Sage.cntFn 50000 400000 bcast_S400000_S400000x1_0 bcast_S_S400000x1 bcast_S_S50000x1 scatter_S50000x1_S400000x1_S400000x1_1_0_0_1 dst

/-- The source rows averaged over each destination row's incoming edges. -/
noncomputable def refAgg1_1 (x : FVec F S20000x128 .f32) (src dst : IVec S400000 32) : FVec F S50000x128 .f32 :=
  Sage.aggFn 20000 50000 400000 128 20000#32 bcast_S_S400000 bcast_S400000_S400000x1_0 gather_S20000x128_S400000x1_S400000x128_1_0_n_n_0_1_1128 bcast_S_S50000x128 scatter_S50000x128_S400000x1_S400000x128_1_0_0_1 bcast_S_S400000x1 bcast_S_S50000x1 scatter_S50000x1_S400000x1_S400000x1_1_0_0_1 bcast_S50000x1_S50000x128_0_1 x src dst

/-- The relation's contribution to the destination rows. -/
noncomputable def refRel1_1 (agg x : FVec F S50000x128 .f32) (Wl Wr : FVec F S7x128x256 .f32) (b : FVec F S7x256 .f32) :
    FVec F S50000x256 .f32 :=
  Sage.relFn 50000 128 256 7 1 dot_S50000x128_S128x256_S50000x256_1_0_0_1_n_n slices_S7x128x256_S1x128x256_1_0_0 shapeCasts_S1x128x256_S128x256 slices_S7x256_S1x256_1_0 shapeCasts_S1x256_S256 bcast_S256_S1x256_1 bcast_S1x256_S50000x256_0_1 agg x Wl Wr b

end

theorem refCnt1_1_allRealGE (dst : IVec S400000 32) : Sage.AllRealGE 1 (refCnt1_1 (F := Ideal) dst) :=
  Sage.cntFn_allRealGE _ _ _ _ _ _ dst

theorem refAgg1_1_allReal (x : FVec Ideal S20000x128 .f32) (hx : Sage.AllReal x) (src dst : IVec S400000 32) :
    Sage.AllReal (refAgg1_1 (F := Ideal) x src dst) :=
  Sage.aggFn_allReal _ _ _ _ _ _ _ _ _ _ _ _ _ _ x hx src dst

theorem refRel1_1_apply (agg x : FVec Ideal S50000x128 .f32) (Wl Wr : FVec Ideal S7x128x256 .f32) (b : FVec Ideal S7x256 .f32)
    (r : Fin 50000) (q : Fin 256) :
    refRel1_1 (F := Ideal) agg x Wl Wr b (ix2 r q)
      = Sage.rel (fun a : Fin 128 => agg (ix2 r a)) (fun a : Fin 128 => x (ix2 r a))
          (fun a : Fin 128 => Wl (ix3 (⟨1, by decide⟩ : Fin 7) a q)) (fun a : Fin 128 => Wr (ix3 (⟨1, by decide⟩ : Fin 7) a q))
          (b (ix2 (⟨1, by decide⟩ : Fin 7) q)) :=
  Sage.relFn_apply _ _ _ _ _ _ _ rfl (by decide) agg x Wl Wr b r q

theorem refRel1_1_allReal (agg x : FVec Ideal S50000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_1 (F := Ideal) agg x Wl Wr b) :=
  Sage.relFn_allReal _ _ _ _ _ _ _ agg x Wl Wr b hagg hx hWl hWr hb

/-! ### Layer 1, relation 2: 50000 source rows, 3000 destination rows, 150000 edges, 128 columns -/

section
variable {F : FTy → Type} [FloatOps F]

/-- The incoming-edge counts of the destination rows (at least one). -/
noncomputable def refCnt1_2 (dst : IVec S150000 32) : FVec F S3000x1 .f32 :=
  Sage.cntFn 3000 150000 bcast_S150000_S150000x1_0 bcast_S_S150000x1 bcast_S_S3000x1 scatter_S3000x1_S150000x1_S150000x1_1_0_0_1 dst

/-- The source rows averaged over each destination row's incoming edges. -/
noncomputable def refAgg1_2 (x : FVec F S50000x128 .f32) (src dst : IVec S150000 32) : FVec F S3000x128 .f32 :=
  Sage.aggFn 50000 3000 150000 128 50000#32 bcast_S_S150000 bcast_S150000_S150000x1_0 gather_S50000x128_S150000x1_S150000x128_1_0_n_n_0_1_1128 bcast_S_S3000x128 scatter_S3000x128_S150000x1_S150000x128_1_0_0_1 bcast_S_S150000x1 bcast_S_S3000x1 scatter_S3000x1_S150000x1_S150000x1_1_0_0_1 bcast_S3000x1_S3000x128_0_1 x src dst

/-- The relation's contribution to the destination rows. -/
noncomputable def refRel1_2 (agg x : FVec F S3000x128 .f32) (Wl Wr : FVec F S7x128x256 .f32) (b : FVec F S7x256 .f32) :
    FVec F S3000x256 .f32 :=
  Sage.relFn 3000 128 256 7 2 dot_S3000x128_S128x256_S3000x256_1_0_0_1_n_n slices_S7x128x256_S1x128x256_2_0_0 shapeCasts_S1x128x256_S128x256 slices_S7x256_S1x256_2_0 shapeCasts_S1x256_S256 bcast_S256_S1x256_1 bcast_S1x256_S3000x256_0_1 agg x Wl Wr b

end

theorem refCnt1_2_allRealGE (dst : IVec S150000 32) : Sage.AllRealGE 1 (refCnt1_2 (F := Ideal) dst) :=
  Sage.cntFn_allRealGE _ _ _ _ _ _ dst

theorem refAgg1_2_allReal (x : FVec Ideal S50000x128 .f32) (hx : Sage.AllReal x) (src dst : IVec S150000 32) :
    Sage.AllReal (refAgg1_2 (F := Ideal) x src dst) :=
  Sage.aggFn_allReal _ _ _ _ _ _ _ _ _ _ _ _ _ _ x hx src dst

theorem refRel1_2_apply (agg x : FVec Ideal S3000x128 .f32) (Wl Wr : FVec Ideal S7x128x256 .f32) (b : FVec Ideal S7x256 .f32)
    (r : Fin 3000) (q : Fin 256) :
    refRel1_2 (F := Ideal) agg x Wl Wr b (ix2 r q)
      = Sage.rel (fun a : Fin 128 => agg (ix2 r a)) (fun a : Fin 128 => x (ix2 r a))
          (fun a : Fin 128 => Wl (ix3 (⟨2, by decide⟩ : Fin 7) a q)) (fun a : Fin 128 => Wr (ix3 (⟨2, by decide⟩ : Fin 7) a q))
          (b (ix2 (⟨2, by decide⟩ : Fin 7) q)) :=
  Sage.relFn_apply _ _ _ _ _ _ _ rfl (by decide) agg x Wl Wr b r q

theorem refRel1_2_allReal (agg x : FVec Ideal S3000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_2 (F := Ideal) agg x Wl Wr b) :=
  Sage.relFn_allReal _ _ _ _ _ _ _ agg x Wl Wr b hagg hx hWl hWr hb

/-! ### Layer 1, relation 3: 50000 source rows, 10000 destination rows, 400000 edges, 128 columns -/

section
variable {F : FTy → Type} [FloatOps F]

/-- The incoming-edge counts of the destination rows (at least one). -/
noncomputable def refCnt1_3 (dst : IVec S400000 32) : FVec F S10000x1 .f32 :=
  Sage.cntFn 10000 400000 bcast_S400000_S400000x1_0 bcast_S_S400000x1 bcast_S_S10000x1 scatter_S10000x1_S400000x1_S400000x1_1_0_0_1 dst

/-- The source rows averaged over each destination row's incoming edges. -/
noncomputable def refAgg1_3 (x : FVec F S50000x128 .f32) (src dst : IVec S400000 32) : FVec F S10000x128 .f32 :=
  Sage.aggFn 50000 10000 400000 128 50000#32 bcast_S_S400000 bcast_S400000_S400000x1_0 gather_S50000x128_S400000x1_S400000x128_1_0_n_n_0_1_1128 bcast_S_S10000x128 scatter_S10000x128_S400000x1_S400000x128_1_0_0_1 bcast_S_S400000x1 bcast_S_S10000x1 scatter_S10000x1_S400000x1_S400000x1_1_0_0_1 bcast_S10000x1_S10000x128_0_1 x src dst

/-- The relation's contribution to the destination rows. -/
noncomputable def refRel1_3 (agg x : FVec F S10000x128 .f32) (Wl Wr : FVec F S7x128x256 .f32) (b : FVec F S7x256 .f32) :
    FVec F S10000x256 .f32 :=
  Sage.relFn 10000 128 256 7 3 dot_S10000x128_S128x256_S10000x256_1_0_0_1_n_n slices_S7x128x256_S1x128x256_3_0_0 shapeCasts_S1x128x256_S128x256 slices_S7x256_S1x256_3_0 shapeCasts_S1x256_S256 bcast_S256_S1x256_1 bcast_S1x256_S10000x256_0_1 agg x Wl Wr b

end

theorem refCnt1_3_allRealGE (dst : IVec S400000 32) : Sage.AllRealGE 1 (refCnt1_3 (F := Ideal) dst) :=
  Sage.cntFn_allRealGE _ _ _ _ _ _ dst

theorem refAgg1_3_allReal (x : FVec Ideal S50000x128 .f32) (hx : Sage.AllReal x) (src dst : IVec S400000 32) :
    Sage.AllReal (refAgg1_3 (F := Ideal) x src dst) :=
  Sage.aggFn_allReal _ _ _ _ _ _ _ _ _ _ _ _ _ _ x hx src dst

theorem refRel1_3_apply (agg x : FVec Ideal S10000x128 .f32) (Wl Wr : FVec Ideal S7x128x256 .f32) (b : FVec Ideal S7x256 .f32)
    (r : Fin 10000) (q : Fin 256) :
    refRel1_3 (F := Ideal) agg x Wl Wr b (ix2 r q)
      = Sage.rel (fun a : Fin 128 => agg (ix2 r a)) (fun a : Fin 128 => x (ix2 r a))
          (fun a : Fin 128 => Wl (ix3 (⟨3, by decide⟩ : Fin 7) a q)) (fun a : Fin 128 => Wr (ix3 (⟨3, by decide⟩ : Fin 7) a q))
          (b (ix2 (⟨3, by decide⟩ : Fin 7) q)) :=
  Sage.relFn_apply _ _ _ _ _ _ _ rfl (by decide) agg x Wl Wr b r q

theorem refRel1_3_allReal (agg x : FVec Ideal S10000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_3 (F := Ideal) agg x Wl Wr b) :=
  Sage.relFn_allReal _ _ _ _ _ _ _ agg x Wl Wr b hagg hx hWl hWr hb

/-! ### Layer 1, relation 4: 10000 source rows, 20000 destination rows, 500000 edges, 128 columns -/

section
variable {F : FTy → Type} [FloatOps F]

/-- The incoming-edge counts of the destination rows (at least one). -/
noncomputable def refCnt1_4 (dst : IVec S500000 32) : FVec F S20000x1 .f32 :=
  Sage.cntFn 20000 500000 bcast_S500000_S500000x1_0 bcast_S_S500000x1 bcast_S_S20000x1 scatter_S20000x1_S500000x1_S500000x1_1_0_0_1 dst

/-- The source rows averaged over each destination row's incoming edges. -/
noncomputable def refAgg1_4 (x : FVec F S10000x128 .f32) (src dst : IVec S500000 32) : FVec F S20000x128 .f32 :=
  Sage.aggFn 10000 20000 500000 128 10000#32 bcast_S_S500000 bcast_S500000_S500000x1_0 gather_S10000x128_S500000x1_S500000x128_1_0_n_n_0_1_1128 bcast_S_S20000x128 scatter_S20000x128_S500000x1_S500000x128_1_0_0_1 bcast_S_S500000x1 bcast_S_S20000x1 scatter_S20000x1_S500000x1_S500000x1_1_0_0_1 bcast_S20000x1_S20000x128_0_1 x src dst

/-- The relation's contribution to the destination rows. -/
noncomputable def refRel1_4 (agg x : FVec F S20000x128 .f32) (Wl Wr : FVec F S7x128x256 .f32) (b : FVec F S7x256 .f32) :
    FVec F S20000x256 .f32 :=
  Sage.relFn 20000 128 256 7 4 dot_S20000x128_S128x256_S20000x256_1_0_0_1_n_n slices_S7x128x256_S1x128x256_4_0_0 shapeCasts_S1x128x256_S128x256 slices_S7x256_S1x256_4_0 shapeCasts_S1x256_S256 bcast_S256_S1x256_1 bcast_S1x256_S20000x256_0_1 agg x Wl Wr b

end

theorem refCnt1_4_allRealGE (dst : IVec S500000 32) : Sage.AllRealGE 1 (refCnt1_4 (F := Ideal) dst) :=
  Sage.cntFn_allRealGE _ _ _ _ _ _ dst

theorem refAgg1_4_allReal (x : FVec Ideal S10000x128 .f32) (hx : Sage.AllReal x) (src dst : IVec S500000 32) :
    Sage.AllReal (refAgg1_4 (F := Ideal) x src dst) :=
  Sage.aggFn_allReal _ _ _ _ _ _ _ _ _ _ _ _ _ _ x hx src dst

theorem refRel1_4_apply (agg x : FVec Ideal S20000x128 .f32) (Wl Wr : FVec Ideal S7x128x256 .f32) (b : FVec Ideal S7x256 .f32)
    (r : Fin 20000) (q : Fin 256) :
    refRel1_4 (F := Ideal) agg x Wl Wr b (ix2 r q)
      = Sage.rel (fun a : Fin 128 => agg (ix2 r a)) (fun a : Fin 128 => x (ix2 r a))
          (fun a : Fin 128 => Wl (ix3 (⟨4, by decide⟩ : Fin 7) a q)) (fun a : Fin 128 => Wr (ix3 (⟨4, by decide⟩ : Fin 7) a q))
          (b (ix2 (⟨4, by decide⟩ : Fin 7) q)) :=
  Sage.relFn_apply _ _ _ _ _ _ _ rfl (by decide) agg x Wl Wr b r q

theorem refRel1_4_allReal (agg x : FVec Ideal S20000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_4 (F := Ideal) agg x Wl Wr b) :=
  Sage.relFn_allReal _ _ _ _ _ _ _ agg x Wl Wr b hagg hx hWl hWr hb

/-! ### Layer 1, relation 5: 50000 source rows, 20000 destination rows, 400000 edges, 128 columns -/

section
variable {F : FTy → Type} [FloatOps F]

/-- The incoming-edge counts of the destination rows (at least one). -/
noncomputable def refCnt1_5 (dst : IVec S400000 32) : FVec F S20000x1 .f32 :=
  Sage.cntFn 20000 400000 bcast_S400000_S400000x1_0 bcast_S_S400000x1 bcast_S_S20000x1 scatter_S20000x1_S400000x1_S400000x1_1_0_0_1 dst

/-- The source rows averaged over each destination row's incoming edges. -/
noncomputable def refAgg1_5 (x : FVec F S50000x128 .f32) (src dst : IVec S400000 32) : FVec F S20000x128 .f32 :=
  Sage.aggFn 50000 20000 400000 128 50000#32 bcast_S_S400000 bcast_S400000_S400000x1_0 gather_S50000x128_S400000x1_S400000x128_1_0_n_n_0_1_1128 bcast_S_S20000x128 scatter_S20000x128_S400000x1_S400000x128_1_0_0_1 bcast_S_S400000x1 bcast_S_S20000x1 scatter_S20000x1_S400000x1_S400000x1_1_0_0_1 bcast_S20000x1_S20000x128_0_1 x src dst

/-- The relation's contribution to the destination rows. -/
noncomputable def refRel1_5 (agg x : FVec F S20000x128 .f32) (Wl Wr : FVec F S7x128x256 .f32) (b : FVec F S7x256 .f32) :
    FVec F S20000x256 .f32 :=
  Sage.relFn 20000 128 256 7 5 dot_S20000x128_S128x256_S20000x256_1_0_0_1_n_n slices_S7x128x256_S1x128x256_5_0_0 shapeCasts_S1x128x256_S128x256 slices_S7x256_S1x256_5_0 shapeCasts_S1x256_S256 bcast_S256_S1x256_1 bcast_S1x256_S20000x256_0_1 agg x Wl Wr b

end

theorem refCnt1_5_allRealGE (dst : IVec S400000 32) : Sage.AllRealGE 1 (refCnt1_5 (F := Ideal) dst) :=
  Sage.cntFn_allRealGE _ _ _ _ _ _ dst

theorem refAgg1_5_allReal (x : FVec Ideal S50000x128 .f32) (hx : Sage.AllReal x) (src dst : IVec S400000 32) :
    Sage.AllReal (refAgg1_5 (F := Ideal) x src dst) :=
  Sage.aggFn_allReal _ _ _ _ _ _ _ _ _ _ _ _ _ _ x hx src dst

theorem refRel1_5_apply (agg x : FVec Ideal S20000x128 .f32) (Wl Wr : FVec Ideal S7x128x256 .f32) (b : FVec Ideal S7x256 .f32)
    (r : Fin 20000) (q : Fin 256) :
    refRel1_5 (F := Ideal) agg x Wl Wr b (ix2 r q)
      = Sage.rel (fun a : Fin 128 => agg (ix2 r a)) (fun a : Fin 128 => x (ix2 r a))
          (fun a : Fin 128 => Wl (ix3 (⟨5, by decide⟩ : Fin 7) a q)) (fun a : Fin 128 => Wr (ix3 (⟨5, by decide⟩ : Fin 7) a q))
          (b (ix2 (⟨5, by decide⟩ : Fin 7) q)) :=
  Sage.relFn_apply _ _ _ _ _ _ _ rfl (by decide) agg x Wl Wr b r q

theorem refRel1_5_allReal (agg x : FVec Ideal S20000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_5 (F := Ideal) agg x Wl Wr b) :=
  Sage.relFn_allReal _ _ _ _ _ _ _ agg x Wl Wr b hagg hx hWl hWr hb

/-! ### Layer 1, relation 6: 3000 source rows, 50000 destination rows, 150000 edges, 128 columns -/

section
variable {F : FTy → Type} [FloatOps F]

/-- The incoming-edge counts of the destination rows (at least one). -/
noncomputable def refCnt1_6 (dst : IVec S150000 32) : FVec F S50000x1 .f32 :=
  Sage.cntFn 50000 150000 bcast_S150000_S150000x1_0 bcast_S_S150000x1 bcast_S_S50000x1 scatter_S50000x1_S150000x1_S150000x1_1_0_0_1 dst

/-- The source rows averaged over each destination row's incoming edges. -/
noncomputable def refAgg1_6 (x : FVec F S3000x128 .f32) (src dst : IVec S150000 32) : FVec F S50000x128 .f32 :=
  Sage.aggFn 3000 50000 150000 128 3000#32 bcast_S_S150000 bcast_S150000_S150000x1_0 gather_S3000x128_S150000x1_S150000x128_1_0_n_n_0_1_1128 bcast_S_S50000x128 scatter_S50000x128_S150000x1_S150000x128_1_0_0_1 bcast_S_S150000x1 bcast_S_S50000x1 scatter_S50000x1_S150000x1_S150000x1_1_0_0_1 bcast_S50000x1_S50000x128_0_1 x src dst

/-- The relation's contribution to the destination rows. -/
noncomputable def refRel1_6 (agg x : FVec F S50000x128 .f32) (Wl Wr : FVec F S7x128x256 .f32) (b : FVec F S7x256 .f32) :
    FVec F S50000x256 .f32 :=
  Sage.relFn 50000 128 256 7 6 dot_S50000x128_S128x256_S50000x256_1_0_0_1_n_n slices_S7x128x256_S1x128x256_6_0_0 shapeCasts_S1x128x256_S128x256 slices_S7x256_S1x256_6_0 shapeCasts_S1x256_S256 bcast_S256_S1x256_1 bcast_S1x256_S50000x256_0_1 agg x Wl Wr b

end

theorem refCnt1_6_allRealGE (dst : IVec S150000 32) : Sage.AllRealGE 1 (refCnt1_6 (F := Ideal) dst) :=
  Sage.cntFn_allRealGE _ _ _ _ _ _ dst

theorem refAgg1_6_allReal (x : FVec Ideal S3000x128 .f32) (hx : Sage.AllReal x) (src dst : IVec S150000 32) :
    Sage.AllReal (refAgg1_6 (F := Ideal) x src dst) :=
  Sage.aggFn_allReal _ _ _ _ _ _ _ _ _ _ _ _ _ _ x hx src dst

theorem refRel1_6_apply (agg x : FVec Ideal S50000x128 .f32) (Wl Wr : FVec Ideal S7x128x256 .f32) (b : FVec Ideal S7x256 .f32)
    (r : Fin 50000) (q : Fin 256) :
    refRel1_6 (F := Ideal) agg x Wl Wr b (ix2 r q)
      = Sage.rel (fun a : Fin 128 => agg (ix2 r a)) (fun a : Fin 128 => x (ix2 r a))
          (fun a : Fin 128 => Wl (ix3 (⟨6, by decide⟩ : Fin 7) a q)) (fun a : Fin 128 => Wr (ix3 (⟨6, by decide⟩ : Fin 7) a q))
          (b (ix2 (⟨6, by decide⟩ : Fin 7) q)) :=
  Sage.relFn_apply _ _ _ _ _ _ _ rfl (by decide) agg x Wl Wr b r q

theorem refRel1_6_allReal (agg x : FVec Ideal S50000x128 .f32) (Wl Wr : FVec Ideal S7x128x256 .f32) (b : FVec Ideal S7x256 .f32)
    (hagg : Sage.AllReal agg) (hx : Sage.AllReal x) (hWl : Sage.AllReal Wl) (hWr : Sage.AllReal Wr) (hb : Sage.AllReal b) :
    Sage.AllReal (refRel1_6 (F := Ideal) agg x Wl Wr b) :=
  Sage.relFn_allReal _ _ _ _ _ _ _ agg x Wl Wr b hagg hx hWl hWr hb

/-! ### Layer 2, relation 0: 20000 source rows, 10000 destination rows, 500000 edges, 256 columns -/

section
variable {F : FTy → Type} [FloatOps F]

/-- The incoming-edge counts of the destination rows (at least one). -/
noncomputable def refCnt2_0 (dst : IVec S500000 32) : FVec F S10000x1 .f32 :=
  Sage.cntFn 10000 500000 bcast_S500000_S500000x1_0 bcast_S_S500000x1 bcast_S_S10000x1 scatter_S10000x1_S500000x1_S500000x1_1_0_0_1 dst

/-- The source rows averaged over each destination row's incoming edges. -/
noncomputable def refAgg2_0 (x : FVec F S20000x256 .f32) (src dst : IVec S500000 32) : FVec F S10000x256 .f32 :=
  Sage.aggFn 20000 10000 500000 256 20000#32 bcast_S_S500000 bcast_S500000_S500000x1_0 gather_S20000x256_S500000x1_S500000x256_1_0_n_n_0_1_1256 bcast_S_S10000x256 scatter_S10000x256_S500000x1_S500000x256_1_0_0_1 bcast_S_S500000x1 bcast_S_S10000x1 scatter_S10000x1_S500000x1_S500000x1_1_0_0_1 bcast_S10000x1_S10000x256_0_1 x src dst

/-- The relation's contribution to the destination rows. -/
noncomputable def refRel2_0 (agg x : FVec F S10000x256 .f32) (Wl Wr : FVec F S7x256x256 .f32) (b : FVec F S7x256 .f32) :
    FVec F S10000x256 .f32 :=
  Sage.relFn 10000 256 256 7 0 dot_S10000x256_S256x256_S10000x256_1_0_0_1_n_n slices_S7x256x256_S1x256x256_0_0_0 shapeCasts_S1x256x256_S256x256 slices_S7x256_S1x256_0_0 shapeCasts_S1x256_S256 bcast_S256_S1x256_1 bcast_S1x256_S10000x256_0_1 agg x Wl Wr b

end

theorem refCnt2_0_allRealGE (dst : IVec S500000 32) : Sage.AllRealGE 1 (refCnt2_0 (F := Ideal) dst) :=
  Sage.cntFn_allRealGE _ _ _ _ _ _ dst

theorem refAgg2_0_allReal (x : FVec Ideal S20000x256 .f32) (hx : Sage.AllReal x) (src dst : IVec S500000 32) :
    Sage.AllReal (refAgg2_0 (F := Ideal) x src dst) :=
  Sage.aggFn_allReal _ _ _ _ _ _ _ _ _ _ _ _ _ _ x hx src dst

theorem refRel2_0_apply (agg x : FVec Ideal S10000x256 .f32) (Wl Wr : FVec Ideal S7x256x256 .f32) (b : FVec Ideal S7x256 .f32)
    (r : Fin 10000) (q : Fin 256) :
    refRel2_0 (F := Ideal) agg x Wl Wr b (ix2 r q)
      = Sage.rel (fun a : Fin 256 => agg (ix2 r a)) (fun a : Fin 256 => x (ix2 r a))
          (fun a : Fin 256 => Wl (ix3 (⟨0, by decide⟩ : Fin 7) a q)) (fun a : Fin 256 => Wr (ix3 (⟨0, by decide⟩ : Fin 7) a q))
          (b (ix2 (⟨0, by decide⟩ : Fin 7) q)) :=
  Sage.relFn_apply _ _ _ _ _ _ _ rfl (by decide) agg x Wl Wr b r q

theorem refRel2_0_allReal (agg x : FVec Ideal S10000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_0 (F := Ideal) agg x Wl Wr b) :=
  Sage.relFn_allReal _ _ _ _ _ _ _ agg x Wl Wr b hagg hx hWl hWr hb

/-! ### Layer 2, relation 1: 20000 source rows, 50000 destination rows, 400000 edges, 256 columns -/

section
variable {F : FTy → Type} [FloatOps F]

/-- The incoming-edge counts of the destination rows (at least one). -/
noncomputable def refCnt2_1 (dst : IVec S400000 32) : FVec F S50000x1 .f32 :=
  Sage.cntFn 50000 400000 bcast_S400000_S400000x1_0 bcast_S_S400000x1 bcast_S_S50000x1 scatter_S50000x1_S400000x1_S400000x1_1_0_0_1 dst

/-- The source rows averaged over each destination row's incoming edges. -/
noncomputable def refAgg2_1 (x : FVec F S20000x256 .f32) (src dst : IVec S400000 32) : FVec F S50000x256 .f32 :=
  Sage.aggFn 20000 50000 400000 256 20000#32 bcast_S_S400000 bcast_S400000_S400000x1_0 gather_S20000x256_S400000x1_S400000x256_1_0_n_n_0_1_1256 bcast_S_S50000x256 scatter_S50000x256_S400000x1_S400000x256_1_0_0_1 bcast_S_S400000x1 bcast_S_S50000x1 scatter_S50000x1_S400000x1_S400000x1_1_0_0_1 bcast_S50000x1_S50000x256_0_1 x src dst

/-- The relation's contribution to the destination rows. -/
noncomputable def refRel2_1 (agg x : FVec F S50000x256 .f32) (Wl Wr : FVec F S7x256x256 .f32) (b : FVec F S7x256 .f32) :
    FVec F S50000x256 .f32 :=
  Sage.relFn 50000 256 256 7 1 dot_S50000x256_S256x256_S50000x256_1_0_0_1_n_n slices_S7x256x256_S1x256x256_1_0_0 shapeCasts_S1x256x256_S256x256 slices_S7x256_S1x256_1_0 shapeCasts_S1x256_S256 bcast_S256_S1x256_1 bcast_S1x256_S50000x256_0_1 agg x Wl Wr b

end

theorem refCnt2_1_allRealGE (dst : IVec S400000 32) : Sage.AllRealGE 1 (refCnt2_1 (F := Ideal) dst) :=
  Sage.cntFn_allRealGE _ _ _ _ _ _ dst

theorem refAgg2_1_allReal (x : FVec Ideal S20000x256 .f32) (hx : Sage.AllReal x) (src dst : IVec S400000 32) :
    Sage.AllReal (refAgg2_1 (F := Ideal) x src dst) :=
  Sage.aggFn_allReal _ _ _ _ _ _ _ _ _ _ _ _ _ _ x hx src dst

theorem refRel2_1_apply (agg x : FVec Ideal S50000x256 .f32) (Wl Wr : FVec Ideal S7x256x256 .f32) (b : FVec Ideal S7x256 .f32)
    (r : Fin 50000) (q : Fin 256) :
    refRel2_1 (F := Ideal) agg x Wl Wr b (ix2 r q)
      = Sage.rel (fun a : Fin 256 => agg (ix2 r a)) (fun a : Fin 256 => x (ix2 r a))
          (fun a : Fin 256 => Wl (ix3 (⟨1, by decide⟩ : Fin 7) a q)) (fun a : Fin 256 => Wr (ix3 (⟨1, by decide⟩ : Fin 7) a q))
          (b (ix2 (⟨1, by decide⟩ : Fin 7) q)) :=
  Sage.relFn_apply _ _ _ _ _ _ _ rfl (by decide) agg x Wl Wr b r q

theorem refRel2_1_allReal (agg x : FVec Ideal S50000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_1 (F := Ideal) agg x Wl Wr b) :=
  Sage.relFn_allReal _ _ _ _ _ _ _ agg x Wl Wr b hagg hx hWl hWr hb

/-! ### Layer 2, relation 2: 50000 source rows, 3000 destination rows, 150000 edges, 256 columns -/

section
variable {F : FTy → Type} [FloatOps F]

/-- The incoming-edge counts of the destination rows (at least one). -/
noncomputable def refCnt2_2 (dst : IVec S150000 32) : FVec F S3000x1 .f32 :=
  Sage.cntFn 3000 150000 bcast_S150000_S150000x1_0 bcast_S_S150000x1 bcast_S_S3000x1 scatter_S3000x1_S150000x1_S150000x1_1_0_0_1 dst

/-- The source rows averaged over each destination row's incoming edges. -/
noncomputable def refAgg2_2 (x : FVec F S50000x256 .f32) (src dst : IVec S150000 32) : FVec F S3000x256 .f32 :=
  Sage.aggFn 50000 3000 150000 256 50000#32 bcast_S_S150000 bcast_S150000_S150000x1_0 gather_S50000x256_S150000x1_S150000x256_1_0_n_n_0_1_1256 bcast_S_S3000x256 scatter_S3000x256_S150000x1_S150000x256_1_0_0_1 bcast_S_S150000x1 bcast_S_S3000x1 scatter_S3000x1_S150000x1_S150000x1_1_0_0_1 bcast_S3000x1_S3000x256_0_1 x src dst

/-- The relation's contribution to the destination rows. -/
noncomputable def refRel2_2 (agg x : FVec F S3000x256 .f32) (Wl Wr : FVec F S7x256x256 .f32) (b : FVec F S7x256 .f32) :
    FVec F S3000x256 .f32 :=
  Sage.relFn 3000 256 256 7 2 dot_S3000x256_S256x256_S3000x256_1_0_0_1_n_n slices_S7x256x256_S1x256x256_2_0_0 shapeCasts_S1x256x256_S256x256 slices_S7x256_S1x256_2_0 shapeCasts_S1x256_S256 bcast_S256_S1x256_1 bcast_S1x256_S3000x256_0_1 agg x Wl Wr b

end

theorem refCnt2_2_allRealGE (dst : IVec S150000 32) : Sage.AllRealGE 1 (refCnt2_2 (F := Ideal) dst) :=
  Sage.cntFn_allRealGE _ _ _ _ _ _ dst

theorem refAgg2_2_allReal (x : FVec Ideal S50000x256 .f32) (hx : Sage.AllReal x) (src dst : IVec S150000 32) :
    Sage.AllReal (refAgg2_2 (F := Ideal) x src dst) :=
  Sage.aggFn_allReal _ _ _ _ _ _ _ _ _ _ _ _ _ _ x hx src dst

theorem refRel2_2_apply (agg x : FVec Ideal S3000x256 .f32) (Wl Wr : FVec Ideal S7x256x256 .f32) (b : FVec Ideal S7x256 .f32)
    (r : Fin 3000) (q : Fin 256) :
    refRel2_2 (F := Ideal) agg x Wl Wr b (ix2 r q)
      = Sage.rel (fun a : Fin 256 => agg (ix2 r a)) (fun a : Fin 256 => x (ix2 r a))
          (fun a : Fin 256 => Wl (ix3 (⟨2, by decide⟩ : Fin 7) a q)) (fun a : Fin 256 => Wr (ix3 (⟨2, by decide⟩ : Fin 7) a q))
          (b (ix2 (⟨2, by decide⟩ : Fin 7) q)) :=
  Sage.relFn_apply _ _ _ _ _ _ _ rfl (by decide) agg x Wl Wr b r q

theorem refRel2_2_allReal (agg x : FVec Ideal S3000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_2 (F := Ideal) agg x Wl Wr b) :=
  Sage.relFn_allReal _ _ _ _ _ _ _ agg x Wl Wr b hagg hx hWl hWr hb

/-! ### Layer 2, relation 3: 50000 source rows, 10000 destination rows, 400000 edges, 256 columns -/

section
variable {F : FTy → Type} [FloatOps F]

/-- The incoming-edge counts of the destination rows (at least one). -/
noncomputable def refCnt2_3 (dst : IVec S400000 32) : FVec F S10000x1 .f32 :=
  Sage.cntFn 10000 400000 bcast_S400000_S400000x1_0 bcast_S_S400000x1 bcast_S_S10000x1 scatter_S10000x1_S400000x1_S400000x1_1_0_0_1 dst

/-- The source rows averaged over each destination row's incoming edges. -/
noncomputable def refAgg2_3 (x : FVec F S50000x256 .f32) (src dst : IVec S400000 32) : FVec F S10000x256 .f32 :=
  Sage.aggFn 50000 10000 400000 256 50000#32 bcast_S_S400000 bcast_S400000_S400000x1_0 gather_S50000x256_S400000x1_S400000x256_1_0_n_n_0_1_1256 bcast_S_S10000x256 scatter_S10000x256_S400000x1_S400000x256_1_0_0_1 bcast_S_S400000x1 bcast_S_S10000x1 scatter_S10000x1_S400000x1_S400000x1_1_0_0_1 bcast_S10000x1_S10000x256_0_1 x src dst

/-- The relation's contribution to the destination rows. -/
noncomputable def refRel2_3 (agg x : FVec F S10000x256 .f32) (Wl Wr : FVec F S7x256x256 .f32) (b : FVec F S7x256 .f32) :
    FVec F S10000x256 .f32 :=
  Sage.relFn 10000 256 256 7 3 dot_S10000x256_S256x256_S10000x256_1_0_0_1_n_n slices_S7x256x256_S1x256x256_3_0_0 shapeCasts_S1x256x256_S256x256 slices_S7x256_S1x256_3_0 shapeCasts_S1x256_S256 bcast_S256_S1x256_1 bcast_S1x256_S10000x256_0_1 agg x Wl Wr b

end

theorem refCnt2_3_allRealGE (dst : IVec S400000 32) : Sage.AllRealGE 1 (refCnt2_3 (F := Ideal) dst) :=
  Sage.cntFn_allRealGE _ _ _ _ _ _ dst

theorem refAgg2_3_allReal (x : FVec Ideal S50000x256 .f32) (hx : Sage.AllReal x) (src dst : IVec S400000 32) :
    Sage.AllReal (refAgg2_3 (F := Ideal) x src dst) :=
  Sage.aggFn_allReal _ _ _ _ _ _ _ _ _ _ _ _ _ _ x hx src dst

theorem refRel2_3_apply (agg x : FVec Ideal S10000x256 .f32) (Wl Wr : FVec Ideal S7x256x256 .f32) (b : FVec Ideal S7x256 .f32)
    (r : Fin 10000) (q : Fin 256) :
    refRel2_3 (F := Ideal) agg x Wl Wr b (ix2 r q)
      = Sage.rel (fun a : Fin 256 => agg (ix2 r a)) (fun a : Fin 256 => x (ix2 r a))
          (fun a : Fin 256 => Wl (ix3 (⟨3, by decide⟩ : Fin 7) a q)) (fun a : Fin 256 => Wr (ix3 (⟨3, by decide⟩ : Fin 7) a q))
          (b (ix2 (⟨3, by decide⟩ : Fin 7) q)) :=
  Sage.relFn_apply _ _ _ _ _ _ _ rfl (by decide) agg x Wl Wr b r q

theorem refRel2_3_allReal (agg x : FVec Ideal S10000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_3 (F := Ideal) agg x Wl Wr b) :=
  Sage.relFn_allReal _ _ _ _ _ _ _ agg x Wl Wr b hagg hx hWl hWr hb

/-! ### Layer 2, relation 4: 10000 source rows, 20000 destination rows, 500000 edges, 256 columns -/

section
variable {F : FTy → Type} [FloatOps F]

/-- The incoming-edge counts of the destination rows (at least one). -/
noncomputable def refCnt2_4 (dst : IVec S500000 32) : FVec F S20000x1 .f32 :=
  Sage.cntFn 20000 500000 bcast_S500000_S500000x1_0 bcast_S_S500000x1 bcast_S_S20000x1 scatter_S20000x1_S500000x1_S500000x1_1_0_0_1 dst

/-- The source rows averaged over each destination row's incoming edges. -/
noncomputable def refAgg2_4 (x : FVec F S10000x256 .f32) (src dst : IVec S500000 32) : FVec F S20000x256 .f32 :=
  Sage.aggFn 10000 20000 500000 256 10000#32 bcast_S_S500000 bcast_S500000_S500000x1_0 gather_S10000x256_S500000x1_S500000x256_1_0_n_n_0_1_1256 bcast_S_S20000x256 scatter_S20000x256_S500000x1_S500000x256_1_0_0_1 bcast_S_S500000x1 bcast_S_S20000x1 scatter_S20000x1_S500000x1_S500000x1_1_0_0_1 bcast_S20000x1_S20000x256_0_1 x src dst

/-- The relation's contribution to the destination rows. -/
noncomputable def refRel2_4 (agg x : FVec F S20000x256 .f32) (Wl Wr : FVec F S7x256x256 .f32) (b : FVec F S7x256 .f32) :
    FVec F S20000x256 .f32 :=
  Sage.relFn 20000 256 256 7 4 dot_S20000x256_S256x256_S20000x256_1_0_0_1_n_n slices_S7x256x256_S1x256x256_4_0_0 shapeCasts_S1x256x256_S256x256 slices_S7x256_S1x256_4_0 shapeCasts_S1x256_S256 bcast_S256_S1x256_1 bcast_S1x256_S20000x256_0_1 agg x Wl Wr b

end

theorem refCnt2_4_allRealGE (dst : IVec S500000 32) : Sage.AllRealGE 1 (refCnt2_4 (F := Ideal) dst) :=
  Sage.cntFn_allRealGE _ _ _ _ _ _ dst

theorem refAgg2_4_allReal (x : FVec Ideal S10000x256 .f32) (hx : Sage.AllReal x) (src dst : IVec S500000 32) :
    Sage.AllReal (refAgg2_4 (F := Ideal) x src dst) :=
  Sage.aggFn_allReal _ _ _ _ _ _ _ _ _ _ _ _ _ _ x hx src dst

theorem refRel2_4_apply (agg x : FVec Ideal S20000x256 .f32) (Wl Wr : FVec Ideal S7x256x256 .f32) (b : FVec Ideal S7x256 .f32)
    (r : Fin 20000) (q : Fin 256) :
    refRel2_4 (F := Ideal) agg x Wl Wr b (ix2 r q)
      = Sage.rel (fun a : Fin 256 => agg (ix2 r a)) (fun a : Fin 256 => x (ix2 r a))
          (fun a : Fin 256 => Wl (ix3 (⟨4, by decide⟩ : Fin 7) a q)) (fun a : Fin 256 => Wr (ix3 (⟨4, by decide⟩ : Fin 7) a q))
          (b (ix2 (⟨4, by decide⟩ : Fin 7) q)) :=
  Sage.relFn_apply _ _ _ _ _ _ _ rfl (by decide) agg x Wl Wr b r q

theorem refRel2_4_allReal (agg x : FVec Ideal S20000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_4 (F := Ideal) agg x Wl Wr b) :=
  Sage.relFn_allReal _ _ _ _ _ _ _ agg x Wl Wr b hagg hx hWl hWr hb

/-! ### Layer 2, relation 5: 50000 source rows, 20000 destination rows, 400000 edges, 256 columns -/

section
variable {F : FTy → Type} [FloatOps F]

/-- The incoming-edge counts of the destination rows (at least one). -/
noncomputable def refCnt2_5 (dst : IVec S400000 32) : FVec F S20000x1 .f32 :=
  Sage.cntFn 20000 400000 bcast_S400000_S400000x1_0 bcast_S_S400000x1 bcast_S_S20000x1 scatter_S20000x1_S400000x1_S400000x1_1_0_0_1 dst

/-- The source rows averaged over each destination row's incoming edges. -/
noncomputable def refAgg2_5 (x : FVec F S50000x256 .f32) (src dst : IVec S400000 32) : FVec F S20000x256 .f32 :=
  Sage.aggFn 50000 20000 400000 256 50000#32 bcast_S_S400000 bcast_S400000_S400000x1_0 gather_S50000x256_S400000x1_S400000x256_1_0_n_n_0_1_1256 bcast_S_S20000x256 scatter_S20000x256_S400000x1_S400000x256_1_0_0_1 bcast_S_S400000x1 bcast_S_S20000x1 scatter_S20000x1_S400000x1_S400000x1_1_0_0_1 bcast_S20000x1_S20000x256_0_1 x src dst

/-- The relation's contribution to the destination rows. -/
noncomputable def refRel2_5 (agg x : FVec F S20000x256 .f32) (Wl Wr : FVec F S7x256x256 .f32) (b : FVec F S7x256 .f32) :
    FVec F S20000x256 .f32 :=
  Sage.relFn 20000 256 256 7 5 dot_S20000x256_S256x256_S20000x256_1_0_0_1_n_n slices_S7x256x256_S1x256x256_5_0_0 shapeCasts_S1x256x256_S256x256 slices_S7x256_S1x256_5_0 shapeCasts_S1x256_S256 bcast_S256_S1x256_1 bcast_S1x256_S20000x256_0_1 agg x Wl Wr b

end

theorem refCnt2_5_allRealGE (dst : IVec S400000 32) : Sage.AllRealGE 1 (refCnt2_5 (F := Ideal) dst) :=
  Sage.cntFn_allRealGE _ _ _ _ _ _ dst

theorem refAgg2_5_allReal (x : FVec Ideal S50000x256 .f32) (hx : Sage.AllReal x) (src dst : IVec S400000 32) :
    Sage.AllReal (refAgg2_5 (F := Ideal) x src dst) :=
  Sage.aggFn_allReal _ _ _ _ _ _ _ _ _ _ _ _ _ _ x hx src dst

theorem refRel2_5_apply (agg x : FVec Ideal S20000x256 .f32) (Wl Wr : FVec Ideal S7x256x256 .f32) (b : FVec Ideal S7x256 .f32)
    (r : Fin 20000) (q : Fin 256) :
    refRel2_5 (F := Ideal) agg x Wl Wr b (ix2 r q)
      = Sage.rel (fun a : Fin 256 => agg (ix2 r a)) (fun a : Fin 256 => x (ix2 r a))
          (fun a : Fin 256 => Wl (ix3 (⟨5, by decide⟩ : Fin 7) a q)) (fun a : Fin 256 => Wr (ix3 (⟨5, by decide⟩ : Fin 7) a q))
          (b (ix2 (⟨5, by decide⟩ : Fin 7) q)) :=
  Sage.relFn_apply _ _ _ _ _ _ _ rfl (by decide) agg x Wl Wr b r q

theorem refRel2_5_allReal (agg x : FVec Ideal S20000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_5 (F := Ideal) agg x Wl Wr b) :=
  Sage.relFn_allReal _ _ _ _ _ _ _ agg x Wl Wr b hagg hx hWl hWr hb

/-! ### Layer 2, relation 6: 3000 source rows, 50000 destination rows, 150000 edges, 256 columns -/

section
variable {F : FTy → Type} [FloatOps F]

/-- The incoming-edge counts of the destination rows (at least one). -/
noncomputable def refCnt2_6 (dst : IVec S150000 32) : FVec F S50000x1 .f32 :=
  Sage.cntFn 50000 150000 bcast_S150000_S150000x1_0 bcast_S_S150000x1 bcast_S_S50000x1 scatter_S50000x1_S150000x1_S150000x1_1_0_0_1 dst

/-- The source rows averaged over each destination row's incoming edges. -/
noncomputable def refAgg2_6 (x : FVec F S3000x256 .f32) (src dst : IVec S150000 32) : FVec F S50000x256 .f32 :=
  Sage.aggFn 3000 50000 150000 256 3000#32 bcast_S_S150000 bcast_S150000_S150000x1_0 gather_S3000x256_S150000x1_S150000x256_1_0_n_n_0_1_1256 bcast_S_S50000x256 scatter_S50000x256_S150000x1_S150000x256_1_0_0_1 bcast_S_S150000x1 bcast_S_S50000x1 scatter_S50000x1_S150000x1_S150000x1_1_0_0_1 bcast_S50000x1_S50000x256_0_1 x src dst

/-- The relation's contribution to the destination rows. -/
noncomputable def refRel2_6 (agg x : FVec F S50000x256 .f32) (Wl Wr : FVec F S7x256x256 .f32) (b : FVec F S7x256 .f32) :
    FVec F S50000x256 .f32 :=
  Sage.relFn 50000 256 256 7 6 dot_S50000x256_S256x256_S50000x256_1_0_0_1_n_n slices_S7x256x256_S1x256x256_6_0_0 shapeCasts_S1x256x256_S256x256 slices_S7x256_S1x256_6_0 shapeCasts_S1x256_S256 bcast_S256_S1x256_1 bcast_S1x256_S50000x256_0_1 agg x Wl Wr b

end

theorem refCnt2_6_allRealGE (dst : IVec S150000 32) : Sage.AllRealGE 1 (refCnt2_6 (F := Ideal) dst) :=
  Sage.cntFn_allRealGE _ _ _ _ _ _ dst

theorem refAgg2_6_allReal (x : FVec Ideal S3000x256 .f32) (hx : Sage.AllReal x) (src dst : IVec S150000 32) :
    Sage.AllReal (refAgg2_6 (F := Ideal) x src dst) :=
  Sage.aggFn_allReal _ _ _ _ _ _ _ _ _ _ _ _ _ _ x hx src dst

theorem refRel2_6_apply (agg x : FVec Ideal S50000x256 .f32) (Wl Wr : FVec Ideal S7x256x256 .f32) (b : FVec Ideal S7x256 .f32)
    (r : Fin 50000) (q : Fin 256) :
    refRel2_6 (F := Ideal) agg x Wl Wr b (ix2 r q)
      = Sage.rel (fun a : Fin 256 => agg (ix2 r a)) (fun a : Fin 256 => x (ix2 r a))
          (fun a : Fin 256 => Wl (ix3 (⟨6, by decide⟩ : Fin 7) a q)) (fun a : Fin 256 => Wr (ix3 (⟨6, by decide⟩ : Fin 7) a q))
          (b (ix2 (⟨6, by decide⟩ : Fin 7) q)) :=
  Sage.relFn_apply _ _ _ _ _ _ _ rfl (by decide) agg x Wl Wr b r q

theorem refRel2_6_allReal (agg x : FVec Ideal S50000x256 .f32) (Wl Wr : FVec Ideal S7x256x256 .f32) (b : FVec Ideal S7x256 .f32)
    (hagg : Sage.AllReal agg) (hx : Sage.AllReal x) (hWl : Sage.AllReal Wl) (hWr : Sage.AllReal Wr) (hb : Sage.AllReal b) :
    Sage.AllReal (refRel2_6 (F := Ideal) agg x Wl Wr b) :=
  Sage.relFn_allReal _ _ _ _ _ _ _ agg x Wl Wr b hagg hx hWl hWr hb

/-! ### Layer 1, the node type of 20000 rows before normalisation: relations 4 and 5, added -/

noncomputable def refPre1_20000 {F : FTy → Type} [FloatOps F] (xs0 : FVec F S10000x128 .f32) (src0 dst0 : IVec S500000 32) (xs1 : FVec F S50000x128 .f32) (src1 dst1 : IVec S400000 32) (xd : FVec F S20000x128 .f32)
    (Wl Wr : FVec F S7x128x256 .f32) (b : FVec F S7x256 .f32) :
    FVec F S20000x256 .f32 :=
  addf (refRel1_4 (F := F) (refAgg1_4 (F := F) xs0 src0 dst0) xd Wl Wr b)
    (refRel1_5 (F := F) (refAgg1_5 (F := F) xs1 src1 dst1) xd Wl Wr b)

theorem refPre1_20000_apply (xs0 : FVec Ideal S10000x128 .f32) (src0 dst0 : IVec S500000 32) (xs1 : FVec Ideal S50000x128 .f32) (src1 dst1 : IVec S400000 32) (xd : FVec Ideal S20000x128 .f32)
    (Wl Wr : FVec Ideal S7x128x256 .f32) (b : FVec Ideal S7x256 .f32)
    (r : Fin 20000) (q : Fin 256) :
    refPre1_20000 (F := Ideal) xs0 src0 dst0 xs1 src1 dst1 xd Wl Wr b (ix2 r q)
      = Sage.rel (fun a : Fin 128 => refAgg1_4 (F := Ideal) xs0 src0 dst0 (ix2 r a)) (fun a : Fin 128 => xd (ix2 r a))
          (fun a : Fin 128 => Wl (ix3 (⟨4, by decide⟩ : Fin 7) a q)) (fun a : Fin 128 => Wr (ix3 (⟨4, by decide⟩ : Fin 7) a q))
          (b (ix2 (⟨4, by decide⟩ : Fin 7) q))
        + Sage.rel (fun a : Fin 128 => refAgg1_5 (F := Ideal) xs1 src1 dst1 (ix2 r a)) (fun a : Fin 128 => xd (ix2 r a))
          (fun a : Fin 128 => Wl (ix3 (⟨5, by decide⟩ : Fin 7) a q)) (fun a : Fin 128 => Wr (ix3 (⟨5, by decide⟩ : Fin 7) a q))
          (b (ix2 (⟨5, by decide⟩ : Fin 7) q)) := by
  show _ + _ = _
  rw [refRel1_4_apply, refRel1_5_apply]

theorem refPre1_20000_allReal (xs0 : FVec Ideal S10000x128 .f32) (src0 dst0 : IVec S500000 32) (xs1 : FVec Ideal S50000x128 .f32) (src1 dst1 : IVec S400000 32) (xd : FVec Ideal S20000x128 .f32)
    (Wl Wr : FVec Ideal S7x128x256 .f32) (b : FVec Ideal S7x256 .f32)
    (hxs0 : Sage.AllReal xs0) (hxs1 : Sage.AllReal xs1) (hxd : Sage.AllReal xd) (hWl : Sage.AllReal Wl) (hWr : Sage.AllReal Wr) (hb : Sage.AllReal b) :
    Sage.AllReal (refPre1_20000 (F := Ideal) xs0 src0 dst0 xs1 src1 dst1 xd Wl Wr b) :=
  Sage.allReal_addf (refRel1_4_allReal _ _ _ _ _ (refAgg1_4_allReal _ hxs0 _ _) hxd hWl hWr hb)
    (refRel1_5_allReal _ _ _ _ _ (refAgg1_5_allReal _ hxs1 _ _) hxd hWl hWr hb)

/-! ### Layer 1, the node type of 50000 rows before normalisation: relations 1 and 6, added -/

noncomputable def refPre1_50000 {F : FTy → Type} [FloatOps F] (xs0 : FVec F S20000x128 .f32) (src0 dst0 : IVec S400000 32) (xs1 : FVec F S3000x128 .f32) (src1 dst1 : IVec S150000 32) (xd : FVec F S50000x128 .f32)
    (Wl Wr : FVec F S7x128x256 .f32) (b : FVec F S7x256 .f32) :
    FVec F S50000x256 .f32 :=
  addf (refRel1_1 (F := F) (refAgg1_1 (F := F) xs0 src0 dst0) xd Wl Wr b)
    (refRel1_6 (F := F) (refAgg1_6 (F := F) xs1 src1 dst1) xd Wl Wr b)

theorem refPre1_50000_apply (xs0 : FVec Ideal S20000x128 .f32) (src0 dst0 : IVec S400000 32) (xs1 : FVec Ideal S3000x128 .f32) (src1 dst1 : IVec S150000 32) (xd : FVec Ideal S50000x128 .f32)
    (Wl Wr : FVec Ideal S7x128x256 .f32) (b : FVec Ideal S7x256 .f32)
    (r : Fin 50000) (q : Fin 256) :
    refPre1_50000 (F := Ideal) xs0 src0 dst0 xs1 src1 dst1 xd Wl Wr b (ix2 r q)
      = Sage.rel (fun a : Fin 128 => refAgg1_1 (F := Ideal) xs0 src0 dst0 (ix2 r a)) (fun a : Fin 128 => xd (ix2 r a))
          (fun a : Fin 128 => Wl (ix3 (⟨1, by decide⟩ : Fin 7) a q)) (fun a : Fin 128 => Wr (ix3 (⟨1, by decide⟩ : Fin 7) a q))
          (b (ix2 (⟨1, by decide⟩ : Fin 7) q))
        + Sage.rel (fun a : Fin 128 => refAgg1_6 (F := Ideal) xs1 src1 dst1 (ix2 r a)) (fun a : Fin 128 => xd (ix2 r a))
          (fun a : Fin 128 => Wl (ix3 (⟨6, by decide⟩ : Fin 7) a q)) (fun a : Fin 128 => Wr (ix3 (⟨6, by decide⟩ : Fin 7) a q))
          (b (ix2 (⟨6, by decide⟩ : Fin 7) q)) := by
  show _ + _ = _
  rw [refRel1_1_apply, refRel1_6_apply]

theorem refPre1_50000_allReal (xs0 : FVec Ideal S20000x128 .f32) (src0 dst0 : IVec S400000 32) (xs1 : FVec Ideal S3000x128 .f32) (src1 dst1 : IVec S150000 32) (xd : FVec Ideal S50000x128 .f32)
    (Wl Wr : FVec Ideal S7x128x256 .f32) (b : FVec Ideal S7x256 .f32)
    (hxs0 : Sage.AllReal xs0) (hxs1 : Sage.AllReal xs1) (hxd : Sage.AllReal xd) (hWl : Sage.AllReal Wl) (hWr : Sage.AllReal Wr) (hb : Sage.AllReal b) :
    Sage.AllReal (refPre1_50000 (F := Ideal) xs0 src0 dst0 xs1 src1 dst1 xd Wl Wr b) :=
  Sage.allReal_addf (refRel1_1_allReal _ _ _ _ _ (refAgg1_1_allReal _ hxs0 _ _) hxd hWl hWr hb)
    (refRel1_6_allReal _ _ _ _ _ (refAgg1_6_allReal _ hxs1 _ _) hxd hWl hWr hb)

/-! ### Layer 1, the node type of 10000 rows before normalisation: relations 0 and 3, added -/

noncomputable def refPre1_10000 {F : FTy → Type} [FloatOps F] (xs0 : FVec F S20000x128 .f32) (src0 dst0 : IVec S500000 32) (xs1 : FVec F S50000x128 .f32) (src1 dst1 : IVec S400000 32) (xd : FVec F S10000x128 .f32)
    (Wl Wr : FVec F S7x128x256 .f32) (b : FVec F S7x256 .f32) :
    FVec F S10000x256 .f32 :=
  addf (refRel1_0 (F := F) (refAgg1_0 (F := F) xs0 src0 dst0) xd Wl Wr b)
    (refRel1_3 (F := F) (refAgg1_3 (F := F) xs1 src1 dst1) xd Wl Wr b)

theorem refPre1_10000_apply (xs0 : FVec Ideal S20000x128 .f32) (src0 dst0 : IVec S500000 32) (xs1 : FVec Ideal S50000x128 .f32) (src1 dst1 : IVec S400000 32) (xd : FVec Ideal S10000x128 .f32)
    (Wl Wr : FVec Ideal S7x128x256 .f32) (b : FVec Ideal S7x256 .f32)
    (r : Fin 10000) (q : Fin 256) :
    refPre1_10000 (F := Ideal) xs0 src0 dst0 xs1 src1 dst1 xd Wl Wr b (ix2 r q)
      = Sage.rel (fun a : Fin 128 => refAgg1_0 (F := Ideal) xs0 src0 dst0 (ix2 r a)) (fun a : Fin 128 => xd (ix2 r a))
          (fun a : Fin 128 => Wl (ix3 (⟨0, by decide⟩ : Fin 7) a q)) (fun a : Fin 128 => Wr (ix3 (⟨0, by decide⟩ : Fin 7) a q))
          (b (ix2 (⟨0, by decide⟩ : Fin 7) q))
        + Sage.rel (fun a : Fin 128 => refAgg1_3 (F := Ideal) xs1 src1 dst1 (ix2 r a)) (fun a : Fin 128 => xd (ix2 r a))
          (fun a : Fin 128 => Wl (ix3 (⟨3, by decide⟩ : Fin 7) a q)) (fun a : Fin 128 => Wr (ix3 (⟨3, by decide⟩ : Fin 7) a q))
          (b (ix2 (⟨3, by decide⟩ : Fin 7) q)) := by
  show _ + _ = _
  rw [refRel1_0_apply, refRel1_3_apply]

theorem refPre1_10000_allReal (xs0 : FVec Ideal S20000x128 .f32) (src0 dst0 : IVec S500000 32) (xs1 : FVec Ideal S50000x128 .f32) (src1 dst1 : IVec S400000 32) (xd : FVec Ideal S10000x128 .f32)
    (Wl Wr : FVec Ideal S7x128x256 .f32) (b : FVec Ideal S7x256 .f32)
    (hxs0 : Sage.AllReal xs0) (hxs1 : Sage.AllReal xs1) (hxd : Sage.AllReal xd) (hWl : Sage.AllReal Wl) (hWr : Sage.AllReal Wr) (hb : Sage.AllReal b) :
    Sage.AllReal (refPre1_10000 (F := Ideal) xs0 src0 dst0 xs1 src1 dst1 xd Wl Wr b) :=
  Sage.allReal_addf (refRel1_0_allReal _ _ _ _ _ (refAgg1_0_allReal _ hxs0 _ _) hxd hWl hWr hb)
    (refRel1_3_allReal _ _ _ _ _ (refAgg1_3_allReal _ hxs1 _ _) hxd hWl hWr hb)

/-! ### Layer 1, the node type of 3000 rows before normalisation: relation 2 -/

noncomputable def refPre1_3000 {F : FTy → Type} [FloatOps F] (xs0 : FVec F S50000x128 .f32) (src0 dst0 : IVec S150000 32) (xd : FVec F S3000x128 .f32)
    (Wl Wr : FVec F S7x128x256 .f32) (b : FVec F S7x256 .f32) :
    FVec F S3000x256 .f32 :=
  refRel1_2 (F := F) (refAgg1_2 (F := F) xs0 src0 dst0) xd Wl Wr b

theorem refPre1_3000_apply (xs0 : FVec Ideal S50000x128 .f32) (src0 dst0 : IVec S150000 32) (xd : FVec Ideal S3000x128 .f32)
    (Wl Wr : FVec Ideal S7x128x256 .f32) (b : FVec Ideal S7x256 .f32)
    (r : Fin 3000) (q : Fin 256) :
    refPre1_3000 (F := Ideal) xs0 src0 dst0 xd Wl Wr b (ix2 r q)
      = Sage.rel (fun a : Fin 128 => refAgg1_2 (F := Ideal) xs0 src0 dst0 (ix2 r a)) (fun a : Fin 128 => xd (ix2 r a))
          (fun a : Fin 128 => Wl (ix3 (⟨2, by decide⟩ : Fin 7) a q)) (fun a : Fin 128 => Wr (ix3 (⟨2, by decide⟩ : Fin 7) a q))
          (b (ix2 (⟨2, by decide⟩ : Fin 7) q)) := by
  exact refRel1_2_apply _ _ _ _ _ r q

theorem refPre1_3000_allReal (xs0 : FVec Ideal S50000x128 .f32) (src0 dst0 : IVec S150000 32) (xd : FVec Ideal S3000x128 .f32)
    (Wl Wr : FVec Ideal S7x128x256 .f32) (b : FVec Ideal S7x256 .f32)
    (hxs0 : Sage.AllReal xs0) (hxd : Sage.AllReal xd) (hWl : Sage.AllReal Wl) (hWr : Sage.AllReal Wr) (hb : Sage.AllReal b) :
    Sage.AllReal (refPre1_3000 (F := Ideal) xs0 src0 dst0 xd Wl Wr b) :=
  refRel1_2_allReal _ _ _ _ _ (refAgg1_2_allReal _ hxs0 _ _) hxd hWl hWr hb

/-! ### Layer 2, the node type of 20000 rows before normalisation: relations 4 and 5, added -/

noncomputable def refPre2_20000 {F : FTy → Type} [FloatOps F] (xs0 : FVec F S10000x256 .f32) (src0 dst0 : IVec S500000 32) (xs1 : FVec F S50000x256 .f32) (src1 dst1 : IVec S400000 32) (xd : FVec F S20000x256 .f32)
    (Wl Wr : FVec F S7x256x256 .f32) (b : FVec F S7x256 .f32) :
    FVec F S20000x256 .f32 :=
  addf (refRel2_4 (F := F) (refAgg2_4 (F := F) xs0 src0 dst0) xd Wl Wr b)
    (refRel2_5 (F := F) (refAgg2_5 (F := F) xs1 src1 dst1) xd Wl Wr b)

theorem refPre2_20000_apply (xs0 : FVec Ideal S10000x256 .f32) (src0 dst0 : IVec S500000 32) (xs1 : FVec Ideal S50000x256 .f32) (src1 dst1 : IVec S400000 32) (xd : FVec Ideal S20000x256 .f32)
    (Wl Wr : FVec Ideal S7x256x256 .f32) (b : FVec Ideal S7x256 .f32)
    (r : Fin 20000) (q : Fin 256) :
    refPre2_20000 (F := Ideal) xs0 src0 dst0 xs1 src1 dst1 xd Wl Wr b (ix2 r q)
      = Sage.rel (fun a : Fin 256 => refAgg2_4 (F := Ideal) xs0 src0 dst0 (ix2 r a)) (fun a : Fin 256 => xd (ix2 r a))
          (fun a : Fin 256 => Wl (ix3 (⟨4, by decide⟩ : Fin 7) a q)) (fun a : Fin 256 => Wr (ix3 (⟨4, by decide⟩ : Fin 7) a q))
          (b (ix2 (⟨4, by decide⟩ : Fin 7) q))
        + Sage.rel (fun a : Fin 256 => refAgg2_5 (F := Ideal) xs1 src1 dst1 (ix2 r a)) (fun a : Fin 256 => xd (ix2 r a))
          (fun a : Fin 256 => Wl (ix3 (⟨5, by decide⟩ : Fin 7) a q)) (fun a : Fin 256 => Wr (ix3 (⟨5, by decide⟩ : Fin 7) a q))
          (b (ix2 (⟨5, by decide⟩ : Fin 7) q)) := by
  show _ + _ = _
  rw [refRel2_4_apply, refRel2_5_apply]

theorem refPre2_20000_allReal (xs0 : FVec Ideal S10000x256 .f32) (src0 dst0 : IVec S500000 32) (xs1 : FVec Ideal S50000x256 .f32) (src1 dst1 : IVec S400000 32) (xd : FVec Ideal S20000x256 .f32)
    (Wl Wr : FVec Ideal S7x256x256 .f32) (b : FVec Ideal S7x256 .f32)
    (hxs0 : Sage.AllReal xs0) (hxs1 : Sage.AllReal xs1) (hxd : Sage.AllReal xd) (hWl : Sage.AllReal Wl) (hWr : Sage.AllReal Wr) (hb : Sage.AllReal b) :
    Sage.AllReal (refPre2_20000 (F := Ideal) xs0 src0 dst0 xs1 src1 dst1 xd Wl Wr b) :=
  Sage.allReal_addf (refRel2_4_allReal _ _ _ _ _ (refAgg2_4_allReal _ hxs0 _ _) hxd hWl hWr hb)
    (refRel2_5_allReal _ _ _ _ _ (refAgg2_5_allReal _ hxs1 _ _) hxd hWl hWr hb)

/-! ### Layer 2, the node type of 50000 rows before normalisation: relations 1 and 6, added -/

noncomputable def refPre2_50000 {F : FTy → Type} [FloatOps F] (xs0 : FVec F S20000x256 .f32) (src0 dst0 : IVec S400000 32) (xs1 : FVec F S3000x256 .f32) (src1 dst1 : IVec S150000 32) (xd : FVec F S50000x256 .f32)
    (Wl Wr : FVec F S7x256x256 .f32) (b : FVec F S7x256 .f32) :
    FVec F S50000x256 .f32 :=
  addf (refRel2_1 (F := F) (refAgg2_1 (F := F) xs0 src0 dst0) xd Wl Wr b)
    (refRel2_6 (F := F) (refAgg2_6 (F := F) xs1 src1 dst1) xd Wl Wr b)

theorem refPre2_50000_apply (xs0 : FVec Ideal S20000x256 .f32) (src0 dst0 : IVec S400000 32) (xs1 : FVec Ideal S3000x256 .f32) (src1 dst1 : IVec S150000 32) (xd : FVec Ideal S50000x256 .f32)
    (Wl Wr : FVec Ideal S7x256x256 .f32) (b : FVec Ideal S7x256 .f32)
    (r : Fin 50000) (q : Fin 256) :
    refPre2_50000 (F := Ideal) xs0 src0 dst0 xs1 src1 dst1 xd Wl Wr b (ix2 r q)
      = Sage.rel (fun a : Fin 256 => refAgg2_1 (F := Ideal) xs0 src0 dst0 (ix2 r a)) (fun a : Fin 256 => xd (ix2 r a))
          (fun a : Fin 256 => Wl (ix3 (⟨1, by decide⟩ : Fin 7) a q)) (fun a : Fin 256 => Wr (ix3 (⟨1, by decide⟩ : Fin 7) a q))
          (b (ix2 (⟨1, by decide⟩ : Fin 7) q))
        + Sage.rel (fun a : Fin 256 => refAgg2_6 (F := Ideal) xs1 src1 dst1 (ix2 r a)) (fun a : Fin 256 => xd (ix2 r a))
          (fun a : Fin 256 => Wl (ix3 (⟨6, by decide⟩ : Fin 7) a q)) (fun a : Fin 256 => Wr (ix3 (⟨6, by decide⟩ : Fin 7) a q))
          (b (ix2 (⟨6, by decide⟩ : Fin 7) q)) := by
  show _ + _ = _
  rw [refRel2_1_apply, refRel2_6_apply]

theorem refPre2_50000_allReal (xs0 : FVec Ideal S20000x256 .f32) (src0 dst0 : IVec S400000 32) (xs1 : FVec Ideal S3000x256 .f32) (src1 dst1 : IVec S150000 32) (xd : FVec Ideal S50000x256 .f32)
    (Wl Wr : FVec Ideal S7x256x256 .f32) (b : FVec Ideal S7x256 .f32)
    (hxs0 : Sage.AllReal xs0) (hxs1 : Sage.AllReal xs1) (hxd : Sage.AllReal xd) (hWl : Sage.AllReal Wl) (hWr : Sage.AllReal Wr) (hb : Sage.AllReal b) :
    Sage.AllReal (refPre2_50000 (F := Ideal) xs0 src0 dst0 xs1 src1 dst1 xd Wl Wr b) :=
  Sage.allReal_addf (refRel2_1_allReal _ _ _ _ _ (refAgg2_1_allReal _ hxs0 _ _) hxd hWl hWr hb)
    (refRel2_6_allReal _ _ _ _ _ (refAgg2_6_allReal _ hxs1 _ _) hxd hWl hWr hb)

/-! ### Layer 2, the node type of 10000 rows before normalisation: relations 0 and 3, added -/

noncomputable def refPre2_10000 {F : FTy → Type} [FloatOps F] (xs0 : FVec F S20000x256 .f32) (src0 dst0 : IVec S500000 32) (xs1 : FVec F S50000x256 .f32) (src1 dst1 : IVec S400000 32) (xd : FVec F S10000x256 .f32)
    (Wl Wr : FVec F S7x256x256 .f32) (b : FVec F S7x256 .f32) :
    FVec F S10000x256 .f32 :=
  addf (refRel2_0 (F := F) (refAgg2_0 (F := F) xs0 src0 dst0) xd Wl Wr b)
    (refRel2_3 (F := F) (refAgg2_3 (F := F) xs1 src1 dst1) xd Wl Wr b)

theorem refPre2_10000_apply (xs0 : FVec Ideal S20000x256 .f32) (src0 dst0 : IVec S500000 32) (xs1 : FVec Ideal S50000x256 .f32) (src1 dst1 : IVec S400000 32) (xd : FVec Ideal S10000x256 .f32)
    (Wl Wr : FVec Ideal S7x256x256 .f32) (b : FVec Ideal S7x256 .f32)
    (r : Fin 10000) (q : Fin 256) :
    refPre2_10000 (F := Ideal) xs0 src0 dst0 xs1 src1 dst1 xd Wl Wr b (ix2 r q)
      = Sage.rel (fun a : Fin 256 => refAgg2_0 (F := Ideal) xs0 src0 dst0 (ix2 r a)) (fun a : Fin 256 => xd (ix2 r a))
          (fun a : Fin 256 => Wl (ix3 (⟨0, by decide⟩ : Fin 7) a q)) (fun a : Fin 256 => Wr (ix3 (⟨0, by decide⟩ : Fin 7) a q))
          (b (ix2 (⟨0, by decide⟩ : Fin 7) q))
        + Sage.rel (fun a : Fin 256 => refAgg2_3 (F := Ideal) xs1 src1 dst1 (ix2 r a)) (fun a : Fin 256 => xd (ix2 r a))
          (fun a : Fin 256 => Wl (ix3 (⟨3, by decide⟩ : Fin 7) a q)) (fun a : Fin 256 => Wr (ix3 (⟨3, by decide⟩ : Fin 7) a q))
          (b (ix2 (⟨3, by decide⟩ : Fin 7) q)) := by
  show _ + _ = _
  rw [refRel2_0_apply, refRel2_3_apply]

theorem refPre2_10000_allReal (xs0 : FVec Ideal S20000x256 .f32) (src0 dst0 : IVec S500000 32) (xs1 : FVec Ideal S50000x256 .f32) (src1 dst1 : IVec S400000 32) (xd : FVec Ideal S10000x256 .f32)
    (Wl Wr : FVec Ideal S7x256x256 .f32) (b : FVec Ideal S7x256 .f32)
    (hxs0 : Sage.AllReal xs0) (hxs1 : Sage.AllReal xs1) (hxd : Sage.AllReal xd) (hWl : Sage.AllReal Wl) (hWr : Sage.AllReal Wr) (hb : Sage.AllReal b) :
    Sage.AllReal (refPre2_10000 (F := Ideal) xs0 src0 dst0 xs1 src1 dst1 xd Wl Wr b) :=
  Sage.allReal_addf (refRel2_0_allReal _ _ _ _ _ (refAgg2_0_allReal _ hxs0 _ _) hxd hWl hWr hb)
    (refRel2_3_allReal _ _ _ _ _ (refAgg2_3_allReal _ hxs1 _ _) hxd hWl hWr hb)

/-! ### Layer 2, the node type of 3000 rows before normalisation: relation 2 -/

noncomputable def refPre2_3000 {F : FTy → Type} [FloatOps F] (xs0 : FVec F S50000x256 .f32) (src0 dst0 : IVec S150000 32) (xd : FVec F S3000x256 .f32)
    (Wl Wr : FVec F S7x256x256 .f32) (b : FVec F S7x256 .f32) :
    FVec F S3000x256 .f32 :=
  refRel2_2 (F := F) (refAgg2_2 (F := F) xs0 src0 dst0) xd Wl Wr b

theorem refPre2_3000_apply (xs0 : FVec Ideal S50000x256 .f32) (src0 dst0 : IVec S150000 32) (xd : FVec Ideal S3000x256 .f32)
    (Wl Wr : FVec Ideal S7x256x256 .f32) (b : FVec Ideal S7x256 .f32)
    (r : Fin 3000) (q : Fin 256) :
    refPre2_3000 (F := Ideal) xs0 src0 dst0 xd Wl Wr b (ix2 r q)
      = Sage.rel (fun a : Fin 256 => refAgg2_2 (F := Ideal) xs0 src0 dst0 (ix2 r a)) (fun a : Fin 256 => xd (ix2 r a))
          (fun a : Fin 256 => Wl (ix3 (⟨2, by decide⟩ : Fin 7) a q)) (fun a : Fin 256 => Wr (ix3 (⟨2, by decide⟩ : Fin 7) a q))
          (b (ix2 (⟨2, by decide⟩ : Fin 7) q)) := by
  exact refRel2_2_apply _ _ _ _ _ r q

theorem refPre2_3000_allReal (xs0 : FVec Ideal S50000x256 .f32) (src0 dst0 : IVec S150000 32) (xd : FVec Ideal S3000x256 .f32)
    (Wl Wr : FVec Ideal S7x256x256 .f32) (b : FVec Ideal S7x256 .f32)
    (hxs0 : Sage.AllReal xs0) (hxd : Sage.AllReal xd) (hWl : Sage.AllReal Wl) (hWr : Sage.AllReal Wr) (hb : Sage.AllReal b) :
    Sage.AllReal (refPre2_3000 (F := Ideal) xs0 src0 dst0 xd Wl Wr b) :=
  refRel2_2_allReal _ _ _ _ _ (refAgg2_2_allReal _ hxs0 _ _) hxd hWl hWr hb

end Cert.ReferenceIdeal.Hand

end
-- ==== Proof.Ref.StageDefs.lean ====
/-
  The reference's results, stage by stage, as pure functions of the launch memory `m` and the device `c`. The
  twenty-eight arguments are the launch's contents of their buffers. Layer by layer: a relation's aggregation is the
  pure aggregation of its source node type's features along its edges; its contribution is the pure relation stage of
  that aggregation, the destination's own features and the layer's weights; a node type's array before normalisation
  is the sum of the contributions of the relations into it, in relation order; and its result is the batch
  normalisation and rectifier of that array. Layer 2 reads layer 1's results where layer 1 reads the arguments.
-/
import proofs.«126569_j1468878815453_1_alg».proof.Proof.Ref.PureBn
import proofs.«126569_j1468878815453_1_alg».proof.Proof.Ref.PureNet

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ### The launch's arguments on device `c` -/

/-- The first node type's features (`%arg0`). -/
noncomputable def inX_drug : FVec Ideal S20000x128 .f32 := m ((c.tc : Thread nD τ).loc main_arg0)

/-- The second node type's features (`%arg1`). -/
noncomputable def inX_protein : FVec Ideal S50000x128 .f32 := m ((c.tc : Thread nD τ).loc main_arg1)

/-- The third node type's features (`%arg2`). -/
noncomputable def inX_side : FVec Ideal S10000x128 .f32 := m ((c.tc : Thread nD τ).loc main_arg2)

/-- The fourth node type's features (`%arg3`). -/
noncomputable def inX_path : FVec Ideal S3000x128 .f32 := m ((c.tc : Thread nD τ).loc main_arg3)

/-- Layer 1's left weights, one matrix per relation (`%arg4`). -/
noncomputable def inW1l : FVec Ideal S7x128x256 .f32 := m ((c.tc : Thread nD τ).loc main_arg4)

/-- Layer 1's right weights, one matrix per relation (`%arg5`). -/
noncomputable def inW1r : FVec Ideal S7x128x256 .f32 := m ((c.tc : Thread nD τ).loc main_arg5)

/-- Layer 1's biases, one row per relation (`%arg6`). -/
noncomputable def inB1 : FVec Ideal S7x256 .f32 := m ((c.tc : Thread nD τ).loc main_arg6)

/-- Layer 2's left weights, one matrix per relation (`%arg7`). -/
noncomputable def inW2l : FVec Ideal S7x256x256 .f32 := m ((c.tc : Thread nD τ).loc main_arg7)

/-- Layer 2's right weights, one matrix per relation (`%arg8`). -/
noncomputable def inW2r : FVec Ideal S7x256x256 .f32 := m ((c.tc : Thread nD τ).loc main_arg8)

/-- Layer 2's biases, one row per relation (`%arg9`). -/
noncomputable def inB2 : FVec Ideal S7x256 .f32 := m ((c.tc : Thread nD τ).loc main_arg9)

/-- Layer 1's normalisation scale (`%arg10`). -/
noncomputable def inG1 : FVec Ideal S256 .f32 := m ((c.tc : Thread nD τ).loc main_arg10)

/-- Layer 1's normalisation shift (`%arg11`). -/
noncomputable def inBeta1 : FVec Ideal S256 .f32 := m ((c.tc : Thread nD τ).loc main_arg11)

/-- Layer 2's normalisation scale (`%arg12`). -/
noncomputable def inG2 : FVec Ideal S256 .f32 := m ((c.tc : Thread nD τ).loc main_arg12)

/-- Layer 2's normalisation shift (`%arg13`). -/
noncomputable def inBeta2 : FVec Ideal S256 .f32 := m ((c.tc : Thread nD τ).loc main_arg13)

/-- Relation 0's edges: their source rows (`%arg14`). -/
noncomputable def inSrc_0 : IVec S500000 32 := m ((c.tc : Thread nD τ).loc main_arg14)

/-- Relation 0's edges: their destination rows (`%arg15`). -/
noncomputable def inDst_0 : IVec S500000 32 := m ((c.tc : Thread nD τ).loc main_arg15)

/-- Relation 1's edges: their source rows (`%arg16`). -/
noncomputable def inSrc_1 : IVec S400000 32 := m ((c.tc : Thread nD τ).loc main_arg16)

/-- Relation 1's edges: their destination rows (`%arg17`). -/
noncomputable def inDst_1 : IVec S400000 32 := m ((c.tc : Thread nD τ).loc main_arg17)

/-- Relation 2's edges: their source rows (`%arg18`). -/
noncomputable def inSrc_2 : IVec S150000 32 := m ((c.tc : Thread nD τ).loc main_arg18)

/-- Relation 2's edges: their destination rows (`%arg19`). -/
noncomputable def inDst_2 : IVec S150000 32 := m ((c.tc : Thread nD τ).loc main_arg19)

/-- Relation 3's edges: their source rows (`%arg20`). -/
noncomputable def inSrc_3 : IVec S400000 32 := m ((c.tc : Thread nD τ).loc main_arg20)

/-- Relation 3's edges: their destination rows (`%arg21`). -/
noncomputable def inDst_3 : IVec S400000 32 := m ((c.tc : Thread nD τ).loc main_arg21)

/-- Relation 4's edges: their source rows (`%arg22`). -/
noncomputable def inSrc_4 : IVec S500000 32 := m ((c.tc : Thread nD τ).loc main_arg22)

/-- Relation 4's edges: their destination rows (`%arg23`). -/
noncomputable def inDst_4 : IVec S500000 32 := m ((c.tc : Thread nD τ).loc main_arg23)

/-- Relation 5's edges: their source rows (`%arg24`). -/
noncomputable def inSrc_5 : IVec S400000 32 := m ((c.tc : Thread nD τ).loc main_arg24)

/-- Relation 5's edges: their destination rows (`%arg25`). -/
noncomputable def inDst_5 : IVec S400000 32 := m ((c.tc : Thread nD τ).loc main_arg25)

/-- Relation 6's edges: their source rows (`%arg26`). -/
noncomputable def inSrc_6 : IVec S150000 32 := m ((c.tc : Thread nD τ).loc main_arg26)

/-- Relation 6's edges: their destination rows (`%arg27`). -/
noncomputable def inDst_6 : IVec S150000 32 := m ((c.tc : Thread nD τ).loc main_arg27)

/-! ### Layer 1 -/

/-- Layer 1, relation 0: the first node type's rows averaged, along the relation's edges, into the third node type's rows. -/
noncomputable def rAgg1_0 : FVec Ideal S10000x128 .f32 :=
  refAgg1_0 (F := Ideal) (inX_drug m c) (inSrc_0 m c) (inDst_0 m c)

/-- Layer 1, relation 0: the aggregated rows against the relation's left weights, plus its bias, plus the third node
    type's own rows against the relation's right weights. -/
noncomputable def rRel1_0 : FVec Ideal S10000x256 .f32 :=
  refRel1_0 (F := Ideal) (rAgg1_0 m c) (inX_side m c) (inW1l m c) (inW1r m c) (inB1 m c)

/-- Layer 1, relation 1: the first node type's rows averaged, along the relation's edges, into the second node type's rows. -/
noncomputable def rAgg1_1 : FVec Ideal S50000x128 .f32 :=
  refAgg1_1 (F := Ideal) (inX_drug m c) (inSrc_1 m c) (inDst_1 m c)

/-- Layer 1, relation 1: the aggregated rows against the relation's left weights, plus its bias, plus the second node
    type's own rows against the relation's right weights. -/
noncomputable def rRel1_1 : FVec Ideal S50000x256 .f32 :=
  refRel1_1 (F := Ideal) (rAgg1_1 m c) (inX_protein m c) (inW1l m c) (inW1r m c) (inB1 m c)

/-- Layer 1, relation 2: the second node type's rows averaged, along the relation's edges, into the fourth node type's rows. -/
noncomputable def rAgg1_2 : FVec Ideal S3000x128 .f32 :=
  refAgg1_2 (F := Ideal) (inX_protein m c) (inSrc_2 m c) (inDst_2 m c)

/-- Layer 1, relation 2: the aggregated rows against the relation's left weights, plus its bias, plus the fourth node
    type's own rows against the relation's right weights. -/
noncomputable def rRel1_2 : FVec Ideal S3000x256 .f32 :=
  refRel1_2 (F := Ideal) (rAgg1_2 m c) (inX_path m c) (inW1l m c) (inW1r m c) (inB1 m c)

/-- Layer 1, relation 3: the second node type's rows averaged, along the relation's edges, into the third node type's rows. -/
noncomputable def rAgg1_3 : FVec Ideal S10000x128 .f32 :=
  refAgg1_3 (F := Ideal) (inX_protein m c) (inSrc_3 m c) (inDst_3 m c)

/-- Layer 1, relation 3: the aggregated rows against the relation's left weights, plus its bias, plus the third node
    type's own rows against the relation's right weights. -/
noncomputable def rRel1_3 : FVec Ideal S10000x256 .f32 :=
  refRel1_3 (F := Ideal) (rAgg1_3 m c) (inX_side m c) (inW1l m c) (inW1r m c) (inB1 m c)

/-- Layer 1, relation 4: the third node type's rows averaged, along the relation's edges, into the first node type's rows. -/
noncomputable def rAgg1_4 : FVec Ideal S20000x128 .f32 :=
  refAgg1_4 (F := Ideal) (inX_side m c) (inSrc_4 m c) (inDst_4 m c)

/-- Layer 1, relation 4: the aggregated rows against the relation's left weights, plus its bias, plus the first node
    type's own rows against the relation's right weights. -/
noncomputable def rRel1_4 : FVec Ideal S20000x256 .f32 :=
  refRel1_4 (F := Ideal) (rAgg1_4 m c) (inX_drug m c) (inW1l m c) (inW1r m c) (inB1 m c)

/-- Layer 1, relation 5: the second node type's rows averaged, along the relation's edges, into the first node type's rows. -/
noncomputable def rAgg1_5 : FVec Ideal S20000x128 .f32 :=
  refAgg1_5 (F := Ideal) (inX_protein m c) (inSrc_5 m c) (inDst_5 m c)

/-- Layer 1, relation 5: the aggregated rows against the relation's left weights, plus its bias, plus the first node
    type's own rows against the relation's right weights. -/
noncomputable def rRel1_5 : FVec Ideal S20000x256 .f32 :=
  refRel1_5 (F := Ideal) (rAgg1_5 m c) (inX_drug m c) (inW1l m c) (inW1r m c) (inB1 m c)

/-- Layer 1, relation 6: the fourth node type's rows averaged, along the relation's edges, into the second node type's rows. -/
noncomputable def rAgg1_6 : FVec Ideal S50000x128 .f32 :=
  refAgg1_6 (F := Ideal) (inX_path m c) (inSrc_6 m c) (inDst_6 m c)

/-- Layer 1, relation 6: the aggregated rows against the relation's left weights, plus its bias, plus the second node
    type's own rows against the relation's right weights. -/
noncomputable def rRel1_6 : FVec Ideal S50000x256 .f32 :=
  refRel1_6 (F := Ideal) (rAgg1_6 m c) (inX_protein m c) (inW1l m c) (inW1r m c) (inB1 m c)

/-- Layer 1, the first node type before normalisation: relations 4 and 5, added. -/
noncomputable def rH1_drug : FVec Ideal S20000x256 .f32 := addf (rRel1_4 m c) (rRel1_5 m c)

/-- Layer 1, the second node type before normalisation: relations 1 and 6, added. -/
noncomputable def rH1_protein : FVec Ideal S50000x256 .f32 := addf (rRel1_1 m c) (rRel1_6 m c)

/-- Layer 1, the third node type before normalisation: relations 0 and 3, added. -/
noncomputable def rH1_side : FVec Ideal S10000x256 .f32 := addf (rRel1_0 m c) (rRel1_3 m c)

/-- Layer 1, the fourth node type before normalisation: relation 2 alone. -/
noncomputable def rH1_path : FVec Ideal S3000x256 .f32 := rRel1_2 m c

/-- Layer 1, the first node type's result: batch normalisation and the rectifier of its summed array. -/
noncomputable def rOut1_drug : FVec Ideal S20000x256 .f32 :=
  refBn20000 (rH1_drug m c) (inG1 m c) (inBeta1 m c)

/-- Layer 1, the second node type's result: batch normalisation and the rectifier of its summed array. -/
noncomputable def rOut1_protein : FVec Ideal S50000x256 .f32 :=
  refBn50000 (rH1_protein m c) (inG1 m c) (inBeta1 m c)

/-- Layer 1, the third node type's result: batch normalisation and the rectifier of its summed array. -/
noncomputable def rOut1_side : FVec Ideal S10000x256 .f32 :=
  refBn10000 (rH1_side m c) (inG1 m c) (inBeta1 m c)

/-- Layer 1, the fourth node type's result: batch normalisation and the rectifier of its summed array. -/
noncomputable def rOut1_path : FVec Ideal S3000x256 .f32 :=
  refBn3000 (rH1_path m c) (inG1 m c) (inBeta1 m c)

/-! Layer 1's arrays before normalisation, each as the one pure function of the features, the edges and the weights. -/

theorem rH1_drug_eq :
    rH1_drug m c = refPre1_20000 (F := Ideal) (inX_side m c) (inSrc_4 m c) (inDst_4 m c) (inX_protein m c) (inSrc_5 m c) (inDst_5 m c) (inX_drug m c) (inW1l m c) (inW1r m c) (inB1 m c) := rfl

theorem rH1_protein_eq :
    rH1_protein m c = refPre1_50000 (F := Ideal) (inX_drug m c) (inSrc_1 m c) (inDst_1 m c) (inX_path m c) (inSrc_6 m c) (inDst_6 m c) (inX_protein m c) (inW1l m c) (inW1r m c) (inB1 m c) := rfl

theorem rH1_side_eq :
    rH1_side m c = refPre1_10000 (F := Ideal) (inX_drug m c) (inSrc_0 m c) (inDst_0 m c) (inX_protein m c) (inSrc_3 m c) (inDst_3 m c) (inX_side m c) (inW1l m c) (inW1r m c) (inB1 m c) := rfl

theorem rH1_path_eq :
    rH1_path m c = refPre1_3000 (F := Ideal) (inX_protein m c) (inSrc_2 m c) (inDst_2 m c) (inX_path m c) (inW1l m c) (inW1r m c) (inB1 m c) := rfl

/-! ### Layer 2 -/

/-- Layer 2, relation 0: the first node type's rows averaged, along the relation's edges, into the third node type's rows. -/
noncomputable def rAgg2_0 : FVec Ideal S10000x256 .f32 :=
  refAgg2_0 (F := Ideal) (rOut1_drug m c) (inSrc_0 m c) (inDst_0 m c)

/-- Layer 2, relation 0: the aggregated rows against the relation's left weights, plus its bias, plus the third node
    type's own rows against the relation's right weights. -/
noncomputable def rRel2_0 : FVec Ideal S10000x256 .f32 :=
  refRel2_0 (F := Ideal) (rAgg2_0 m c) (rOut1_side m c) (inW2l m c) (inW2r m c) (inB2 m c)

/-- Layer 2, relation 1: the first node type's rows averaged, along the relation's edges, into the second node type's rows. -/
noncomputable def rAgg2_1 : FVec Ideal S50000x256 .f32 :=
  refAgg2_1 (F := Ideal) (rOut1_drug m c) (inSrc_1 m c) (inDst_1 m c)

/-- Layer 2, relation 1: the aggregated rows against the relation's left weights, plus its bias, plus the second node
    type's own rows against the relation's right weights. -/
noncomputable def rRel2_1 : FVec Ideal S50000x256 .f32 :=
  refRel2_1 (F := Ideal) (rAgg2_1 m c) (rOut1_protein m c) (inW2l m c) (inW2r m c) (inB2 m c)

/-- Layer 2, relation 2: the second node type's rows averaged, along the relation's edges, into the fourth node type's rows. -/
noncomputable def rAgg2_2 : FVec Ideal S3000x256 .f32 :=
  refAgg2_2 (F := Ideal) (rOut1_protein m c) (inSrc_2 m c) (inDst_2 m c)

/-- Layer 2, relation 2: the aggregated rows against the relation's left weights, plus its bias, plus the fourth node
    type's own rows against the relation's right weights. -/
noncomputable def rRel2_2 : FVec Ideal S3000x256 .f32 :=
  refRel2_2 (F := Ideal) (rAgg2_2 m c) (rOut1_path m c) (inW2l m c) (inW2r m c) (inB2 m c)

/-- Layer 2, relation 3: the second node type's rows averaged, along the relation's edges, into the third node type's rows. -/
noncomputable def rAgg2_3 : FVec Ideal S10000x256 .f32 :=
  refAgg2_3 (F := Ideal) (rOut1_protein m c) (inSrc_3 m c) (inDst_3 m c)

/-- Layer 2, relation 3: the aggregated rows against the relation's left weights, plus its bias, plus the third node
    type's own rows against the relation's right weights. -/
noncomputable def rRel2_3 : FVec Ideal S10000x256 .f32 :=
  refRel2_3 (F := Ideal) (rAgg2_3 m c) (rOut1_side m c) (inW2l m c) (inW2r m c) (inB2 m c)

/-- Layer 2, relation 4: the third node type's rows averaged, along the relation's edges, into the first node type's rows. -/
noncomputable def rAgg2_4 : FVec Ideal S20000x256 .f32 :=
  refAgg2_4 (F := Ideal) (rOut1_side m c) (inSrc_4 m c) (inDst_4 m c)

/-- Layer 2, relation 4: the aggregated rows against the relation's left weights, plus its bias, plus the first node
    type's own rows against the relation's right weights. -/
noncomputable def rRel2_4 : FVec Ideal S20000x256 .f32 :=
  refRel2_4 (F := Ideal) (rAgg2_4 m c) (rOut1_drug m c) (inW2l m c) (inW2r m c) (inB2 m c)

/-- Layer 2, relation 5: the second node type's rows averaged, along the relation's edges, into the first node type's rows. -/
noncomputable def rAgg2_5 : FVec Ideal S20000x256 .f32 :=
  refAgg2_5 (F := Ideal) (rOut1_protein m c) (inSrc_5 m c) (inDst_5 m c)

/-- Layer 2, relation 5: the aggregated rows against the relation's left weights, plus its bias, plus the first node
    type's own rows against the relation's right weights. -/
noncomputable def rRel2_5 : FVec Ideal S20000x256 .f32 :=
  refRel2_5 (F := Ideal) (rAgg2_5 m c) (rOut1_drug m c) (inW2l m c) (inW2r m c) (inB2 m c)

/-- Layer 2, relation 6: the fourth node type's rows averaged, along the relation's edges, into the second node type's rows. -/
noncomputable def rAgg2_6 : FVec Ideal S50000x256 .f32 :=
  refAgg2_6 (F := Ideal) (rOut1_path m c) (inSrc_6 m c) (inDst_6 m c)

/-- Layer 2, relation 6: the aggregated rows against the relation's left weights, plus its bias, plus the second node
    type's own rows against the relation's right weights. -/
noncomputable def rRel2_6 : FVec Ideal S50000x256 .f32 :=
  refRel2_6 (F := Ideal) (rAgg2_6 m c) (rOut1_protein m c) (inW2l m c) (inW2r m c) (inB2 m c)

/-- Layer 2, the first node type before normalisation: relations 4 and 5, added. -/
noncomputable def rH2_drug : FVec Ideal S20000x256 .f32 := addf (rRel2_4 m c) (rRel2_5 m c)

/-- Layer 2, the second node type before normalisation: relations 1 and 6, added. -/
noncomputable def rH2_protein : FVec Ideal S50000x256 .f32 := addf (rRel2_1 m c) (rRel2_6 m c)

/-- Layer 2, the third node type before normalisation: relations 0 and 3, added. -/
noncomputable def rH2_side : FVec Ideal S10000x256 .f32 := addf (rRel2_0 m c) (rRel2_3 m c)

/-- Layer 2, the fourth node type before normalisation: relation 2 alone. -/
noncomputable def rH2_path : FVec Ideal S3000x256 .f32 := rRel2_2 m c

/-- Layer 2, the first node type's result: batch normalisation and the rectifier of its summed array. -/
noncomputable def rOut2_drug : FVec Ideal S20000x256 .f32 :=
  refBn20000 (rH2_drug m c) (inG2 m c) (inBeta2 m c)

/-- Layer 2, the second node type's result: batch normalisation and the rectifier of its summed array. -/
noncomputable def rOut2_protein : FVec Ideal S50000x256 .f32 :=
  refBn50000 (rH2_protein m c) (inG2 m c) (inBeta2 m c)

/-- Layer 2, the third node type's result: batch normalisation and the rectifier of its summed array. -/
noncomputable def rOut2_side : FVec Ideal S10000x256 .f32 :=
  refBn10000 (rH2_side m c) (inG2 m c) (inBeta2 m c)

/-- Layer 2, the fourth node type's result: batch normalisation and the rectifier of its summed array. -/
noncomputable def rOut2_path : FVec Ideal S3000x256 .f32 :=
  refBn3000 (rH2_path m c) (inG2 m c) (inBeta2 m c)

/-! Layer 2's arrays before normalisation, each as the one pure function of the features, the edges and the weights. -/

theorem rH2_drug_eq :
    rH2_drug m c = refPre2_20000 (F := Ideal) (rOut1_side m c) (inSrc_4 m c) (inDst_4 m c) (rOut1_protein m c) (inSrc_5 m c) (inDst_5 m c) (rOut1_drug m c) (inW2l m c) (inW2r m c) (inB2 m c) := rfl

theorem rH2_protein_eq :
    rH2_protein m c = refPre2_50000 (F := Ideal) (rOut1_drug m c) (inSrc_1 m c) (inDst_1 m c) (rOut1_path m c) (inSrc_6 m c) (inDst_6 m c) (rOut1_protein m c) (inW2l m c) (inW2r m c) (inB2 m c) := rfl

theorem rH2_side_eq :
    rH2_side m c = refPre2_10000 (F := Ideal) (rOut1_drug m c) (inSrc_0 m c) (inDst_0 m c) (rOut1_protein m c) (inSrc_3 m c) (inDst_3 m c) (rOut1_side m c) (inW2l m c) (inW2r m c) (inB2 m c) := rfl

theorem rH2_path_eq :
    rH2_path m c = refPre2_3000 (F := Ideal) (rOut1_protein m c) (inSrc_2 m c) (inDst_2 m c) (rOut1_path m c) (inW2l m c) (inW2r m c) (inB2 m c) := rfl

end Cert.ReferenceIdeal.Hand

end
-- ==== Proof.Ref.Writes.lean ====
/-
  @main's operations each write one reference: window by window the listed ones, in order, and so all of
  @main writes the windows' lists one after the other. This is what lets a buffer's final contents be read one
  operation back (`Sage.after_binary` and its siblings).
-/
import proofs.«126569_j1468878815453_1_alg».proof.Proof.Ref.Ops
import proofs.«126569_j1468878815453_1_alg».proof.Proof.Sage.AfterRead

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references @main's operations write, in order. -/
abbrev ops_W : List (Ref sig .tc) :=
  ops_part0_W ++ (ops_part1_W ++ (ops_part2_W ++ (ops_part3_W ++ (ops_part4_W ++ (ops_part5_W ++ (ops_part6_W ++ (ops_part7_W ++ (ops_part8_W ++ (ops_part9_W ++ (ops_part10_W ++ (ops_part11_W)))))))))))

/-! Each builder writes its result reference alone (`*_writes`), so operation by operation the claim is an
    equation between two singletons of the same reference. -/

theorem ops_part0_Writes : Sage.Writes (ops_part0 : List (HloOp τ sig (Elt F))) ops_part0_W := by
  simp only [Sage.Writes, List.forall₂_cons, List.forall₂_nil_left_iff, nullary_writes, unary_writes, binary_writes,
    ternary_writes, reshape_writes, and_self]
theorem ops_part1_Writes : Sage.Writes (ops_part1 : List (HloOp τ sig (Elt F))) ops_part1_W := by
  simp only [Sage.Writes, List.forall₂_cons, List.forall₂_nil_left_iff, nullary_writes, unary_writes, binary_writes,
    ternary_writes, reshape_writes, and_self]
theorem ops_part2_Writes : Sage.Writes (ops_part2 : List (HloOp τ sig (Elt F))) ops_part2_W := by
  simp only [Sage.Writes, List.forall₂_cons, List.forall₂_nil_left_iff, nullary_writes, unary_writes, binary_writes,
    ternary_writes, reshape_writes, and_self]
theorem ops_part3_Writes : Sage.Writes (ops_part3 : List (HloOp τ sig (Elt F))) ops_part3_W := by
  simp only [Sage.Writes, List.forall₂_cons, List.forall₂_nil_left_iff, nullary_writes, unary_writes, binary_writes,
    ternary_writes, reshape_writes, and_self]
theorem ops_part4_Writes : Sage.Writes (ops_part4 : List (HloOp τ sig (Elt F))) ops_part4_W := by
  simp only [Sage.Writes, List.forall₂_cons, List.forall₂_nil_left_iff, nullary_writes, unary_writes, binary_writes,
    ternary_writes, reshape_writes, and_self]
theorem ops_part5_Writes : Sage.Writes (ops_part5 : List (HloOp τ sig (Elt F))) ops_part5_W := by
  simp only [Sage.Writes, List.forall₂_cons, List.forall₂_nil_left_iff, nullary_writes, unary_writes, binary_writes,
    ternary_writes, reshape_writes, and_self]
theorem ops_part6_Writes : Sage.Writes (ops_part6 : List (HloOp τ sig (Elt F))) ops_part6_W := by
  simp only [Sage.Writes, List.forall₂_cons, List.forall₂_nil_left_iff, nullary_writes, unary_writes, binary_writes,
    ternary_writes, reshape_writes, and_self]
theorem ops_part7_Writes : Sage.Writes (ops_part7 : List (HloOp τ sig (Elt F))) ops_part7_W := by
  simp only [Sage.Writes, List.forall₂_cons, List.forall₂_nil_left_iff, nullary_writes, unary_writes, binary_writes,
    ternary_writes, reshape_writes, and_self]
theorem ops_part8_Writes : Sage.Writes (ops_part8 : List (HloOp τ sig (Elt F))) ops_part8_W := by
  simp only [Sage.Writes, List.forall₂_cons, List.forall₂_nil_left_iff, nullary_writes, unary_writes, binary_writes,
    ternary_writes, reshape_writes, and_self]
theorem ops_part9_Writes : Sage.Writes (ops_part9 : List (HloOp τ sig (Elt F))) ops_part9_W := by
  simp only [Sage.Writes, List.forall₂_cons, List.forall₂_nil_left_iff, nullary_writes, unary_writes, binary_writes,
    ternary_writes, reshape_writes, and_self]
theorem ops_part10_Writes : Sage.Writes (ops_part10 : List (HloOp τ sig (Elt F))) ops_part10_W := by
  simp only [Sage.Writes, List.forall₂_cons, List.forall₂_nil_left_iff, nullary_writes, unary_writes, binary_writes,
    ternary_writes, reshape_writes, and_self]
theorem ops_part11_Writes : Sage.Writes (ops_part11 : List (HloOp τ sig (Elt F))) ops_part11_W := by
  simp only [Sage.Writes, List.forall₂_cons, List.forall₂_nil_left_iff, nullary_writes, unary_writes, binary_writes,
    ternary_writes, reshape_writes, and_self]

theorem ops_Writes : Sage.Writes (ops : List (HloOp τ sig (Elt F))) ops_W :=
  ops_part0_Writes.append (ops_part1_Writes.append (ops_part2_Writes.append (ops_part3_Writes.append (ops_part4_Writes.append (ops_part5_Writes.append (ops_part6_Writes.append (ops_part7_Writes.append (ops_part8_Writes.append (ops_part9_Writes.append (ops_part10_Writes.append (ops_part11_Writes)))))))))))

end Cert.ReferenceIdeal.Hand

end
-- ==== Proof.Ref.Final0.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 0 (operations 1 … 60 of 886): what each result buffer holds when @main has run, one operation back. -/

theorem final_main_c (m : (ℓ : Loc nD τ sig) → Buf (Elt F) ℓ) (c : Dev nD) :
    final m c (Proc.devRef .tc main_c) = (constantI S_ 32 0#32) := by
  have h := Sage.after_nullary (y := main_c) (ops_Writes (F := F)) 0 (launchContents m c) (by rfl) (by decide +kernel)
  unfold final
  generalize after ops (launchContents m c) = G at h ⊢
  exact h
theorem final_main_v0 (m : (ℓ : Loc nD τ sig) → Buf (Elt F) ℓ) (c : Dev nD) :
    final m c (Proc.devRef .tc main_v0) = (broadcastInDim S500000 ![] bcast_S_S500000 : (⟨S_, .i32⟩ : BufTy).Contents (Elt F) → (⟨S500000, .i32⟩ : BufTy).Contents (Elt F)) (final m c (Proc.devRef .tc main_c)) := by
  have h := Sage.after_unary (x := main_c) (y := main_v0) (ops_Writes (F := F)) 1 (launchContents m c) (by rfl) (by decide +kernel) (by decide +kernel)
  unfold final
  generalize after ops (launchContents m c) = G at h ⊢
  exact h
theorem final_main_v1 (m : (ℓ : Loc nD τ sig) → Buf (Elt F) ℓ) (c : Dev nD) :
    final m c (Proc.devRef .tc main_v1) = (cmpi .slt : (⟨S500000, .i32⟩ : BufTy).Contents (Elt F) → (⟨S500000, .i32⟩ : BufTy).Contents (Elt F) → (⟨S500000, .i1⟩ : BufTy).Contents (Elt F)) (final m c (Proc.devRef .tc main_arg14)) (final m c (Proc.devRef .tc main_v0)) := by
  have h := Sage.after_binary (a := main_arg14) (b := main_v0) (y := main_v1) (ops_Writes (F := F)) 2 (launchContents m c) (by rfl) (by decide +kernel) (by decide +kernel) (by decide +kernel)
  unfold final
  generalize after ops (launchContents m c) = G at h ⊢
  exact h
theorem final_main_c_0 (m : (ℓ : Loc nD τ sig) → Buf (Elt F) ℓ) (c : Dev nD) :
    final m c (Proc.devRef .tc main_c_0) = (constantI S_ 32 20000#32) := by
  have h := Sage.after_nullary (y := main_c_0) (ops_Writes (F := F)) 3 (launchContents m c) (by rfl) (by decide +kernel)
  unfold final
  generalize after ops (launchContents m c) = G at h ⊢
  exact h
theorem final_main_v2 (m : (ℓ : Loc nD τ sig) → Buf (Elt F) ℓ) (c : Dev nD) :
    final m c (Proc.devRef .tc main_v2) = (broadcastInDim S500000 ![] bcast_S_S500000 : (⟨S_, .i32⟩ : BufTy).Contents (Elt F) → (⟨S500000, .i32⟩ : BufTy).Contents (Elt F)) (final m c (Proc.devRef .tc main_c_0)) := by
  have h := Sage.after_unary (x := main_c_0) (y := main_v2) (ops_Writes (F := F)) 4 (launchContents m c) (by rfl) (by decide +kernel) (by decide +kernel)
  unfold final
  generalize after ops (launchContents m c) = G at h ⊢
  exact h
theorem final_main_v3 (m : (ℓ : Loc nD τ sig) → Buf (Elt F) ℓ) (c : Dev nD) :
    final m c (Proc.devRef .tc main_v3) = (addi : (⟨S500000, .i32⟩ : BufTy).Contents (Elt F) → (⟨S500000, .i32⟩ : BufTy).Contents (Elt F) → (⟨S500000, .i32⟩ : BufTy).Contents (Elt F)) (final m c (Proc.devRef .tc main_arg14)) (final m c (Proc.devRef .tc main_v2)) := by
  have h := Sage.after_binary (a := main_arg14) (b := main_v2) (y := main_v3) (ops_Writes (F := F)) 5 (launchContents m c) (by rfl) (by decide +kernel) (by decide +kernel) (by decide +kernel)
  unfold final
  generalize after ops (launchContents m c) = G at h ⊢
  exact h
theorem final_main_v4 (m : (ℓ : Loc nD τ sig) → Buf (Elt F) ℓ) (c : Dev nD) :
    final m c (Proc.devRef .tc main_v4) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (final m c (Proc.devRef .tc main_v1)) (final m c (Proc.devRef .tc main_v3)) (final m c (Proc.devRef .tc main_arg14)) := by
  have h := Sage.after_ternary (c := main_v1) (a := main_v3) (b := main_arg14) (y := main_v4) (ops_Writes (F := F)) 6 (launchContents m c) (by rfl) (by decide +kernel) (by decide +kernel) (by decide +kernel) (by decide +kernel)
  unfold final
  generalize after ops (launchContents m c) = G at h ⊢
  exact h
theorem final_main_v5 (m : (ℓ : Loc nD τ sig) → Buf (Elt F) ℓ) (c : Dev nD) :
    final m c (Proc.devRef .tc main_v5) = (broadcastInDim S500000x1 ![0] bcast_S500000_S500000x1_0 : (⟨S500000, .i32⟩ : BufTy).Contents (Elt F) → (⟨S500000x1, .i32⟩ : BufTy).Contents (Elt F)) (final m c (Proc.devRef .tc main_v4)) := by
  have h := Sage.after_unary (x := main_v4) (y := main_v5) (ops_Writes (F := F)) 7 (launchContents m c) (by rfl) (by decide +kernel) (by decide +kernel)
  unfold final
  generalize after ops (launchContents m c) = G at h ⊢
  exact h
theorem final_main_v6 (m : (ℓ : Loc nD τ sig) → Buf (Elt F) ℓ) (c : Dev nD) :
    final m c (Proc.devRef .tc main_v6) = (Host.gather gather_S20000x128_S500000x1_S500000x128_1_0_n_n_0_1_1128 (final m c (Proc.devRef .tc main_arg0)) (final m c (Proc.devRef .tc main_v5)) : (⟨S500000x128, .f32⟩ : BufTy).Contents (Elt F)) := by
  have h := Sage.after_binary (a := main_arg0) (b := main_v5) (y := main_v6) (ops_Writes (F := F)) 8 (launchContents m c) (by rfl) (by decide +kernel) (by decide +kernel) (by decide +kernel)
  unfold final
  generalize after ops (launchContents m c) = G at h ⊢
  exact h
theorem final_main_cst (m : (ℓ : Loc nD τ sig) → Buf (Elt F) ℓ) (c : Dev nD) :
    final m c (Proc.devRef .tc main_cst) = (constant S_ .f32 0x00000000#32) := by
  have h := Sage.after_nullary (y := main_cst) (ops_Writes (F := F)) 9 (launchContents m c) (by rfl) (by decide +kernel)
  unfold final
  generalize after ops (launchContents m c) = G at h ⊢
  exact h
theorem final_main_v7 (m : (ℓ : Loc nD τ sig) → Buf (Elt F) ℓ) (c : Dev nD) :
    final m c (Proc.devRef .tc main_v7) = (broadcastInDim S10000x128 ![] bcast_S_S10000x128 : (⟨S_, .f32⟩ : BufTy).Contents (Elt F) → (⟨S10000x128, .f32⟩ : BufTy).Contents (Elt F)) (final m c (Proc.devRef .tc main_cst)) := by
  have h := Sage.after_unary (x := main_cst) (y := main_v7) (ops_Writes (F := F)) 10 (launchContents m c) (by rfl) (by decide +kernel) (by decide +kernel)
  unfold final
  generalize after ops (launchContents m c) = G at h ⊢
  exact h
theorem final_main_v8 (m : (ℓ : Loc nD τ sig) → Buf (Elt F) ℓ) (c : Dev nD) :
    final m c (Proc.devRef .tc main_v8) = (broadcastInDim S500000x1 ![0] bcast_S500000_S500000x1_0 : (⟨S500000, .i32⟩ : BufTy).Contents (Elt F) → (⟨S500000x1, .i32⟩ : BufTy).Contents (Elt F)) (final m c (Proc.devRef .tc main_arg15)) := by
  have h := Sage.after_unary (x := main_arg15) (y := main_v8) (ops_Writes (F := F)) 11 (launchContents m c) (by rfl) (by decide +kernel) (by decide +kernel)
  unfold final
  generalize after ops (launchContents m c) = G at h ⊢
  exact h
theorem final_main_v9 (m : (ℓ : Loc nD τ sig) → Buf (Elt F) ℓ) (c : Dev nD) :
    final m c (Proc.devRef .tc main_v9) = (Host.scatterAdd scatter_S10000x128_S500000x1_S500000x128_1_0_0_1 (final m c (Proc.devRef .tc main_v7)) (final m c (Proc.devRef .tc main_v8)) (final m c (Proc.devRef .tc main_v6)) : (⟨S10000x128, .f32⟩ : BufTy).Contents (Elt F)) := by
  have h := Sage.after_ternary (c := main_v7) (a := main_v8) (b := main_v6) (y := main_v9) (ops_Writes (F := F)) 12 (launchContents m c) (by rfl) (by decide +kernel) (by decide +kernel) (by decide +kernel) (by decide +kernel)
  unfold final
  generalize after ops (launchContents m c) = G at h ⊢
  exact h
theorem final_main_cst_1 (m : (ℓ : Loc nD τ sig) → Buf (Elt F) ℓ) (c : Dev nD) :
    final m c (Proc.devRef .tc main_cst_1) = (constant S_ .f32 0x3F800000#32) := by
  have h := Sage.after_nullary (y := main_cst_1) (ops_Writes (F := F)) 13 (launchContents m c) (by rfl) (by decide +kernel)
  unfold final
  generalize after ops (launchContents m c) = G at h ⊢
  exact h
theorem final_main_v10 (m : (ℓ : Loc nD τ sig) → Buf (Elt F) ℓ) (c : Dev nD) :
    final m c (Proc.devRef .tc main_v10) = (broadcastInDim S500000x1 ![] bcast_S_S500000x1 : (⟨S_, .f32⟩ : BufTy).Contents (Elt F) → (⟨S500000x1, .f32⟩ : BufTy).Contents (Elt F)) (final m c (Proc.devRef .tc main_cst_1)) := by
  have h := Sage.after_unary (x := main_cst_1) (y := main_v10) (ops_Writes (F := F)) 14 (launchContents m c) (by rfl) (by decide +kernel) (by decide +kernel)
  unfold final
  generalize after ops (launchContents m c) = G at h ⊢
  exact h
theorem final_main_cst_2 (m : (ℓ : Loc nD τ sig) → Buf (Elt F) ℓ) (c : Dev nD) :
    final m c (Proc.devRef .tc main_cst_2) = (constant S_ .f32 0x00000000#32) := by
  have h := Sage.after_nullary (y := main_cst_2) (ops_Writes (F := F)) 15 (launchContents m c) (by rfl) (by decide +kernel)
  unfold final
  generalize after ops (launchContents m c) = G at h ⊢
  exact h
theorem final_main_v11 (m : (ℓ : Loc nD τ sig) → Buf (Elt F) ℓ) (c : Dev nD) :
    final m c (Proc.devRef .tc main_v11) = (broadcastInDim S10000x1 ![] bcast_S_S10000x1 : (⟨S_, .f32⟩ : BufTy).Contents (Elt F) → (⟨S10000x1, .f32⟩ : BufTy).Contents (Elt F)) (final m c (Proc.devRef .tc main_cst_2)) := by
  have h := Sage.after_unary (x := main_cst_2) (y := main_v11) (ops_Writes (F := F)) 16 (launchContents m c) (by rfl) (by decide +kernel) (by decide +kernel)
  unfold final
  generalize after ops (launchContents m c) = G at h ⊢
  exact h
theorem final_main_v12 (m : (ℓ : Loc nD τ sig) → Buf (Elt F) ℓ) (c : Dev nD) :
    final m c (Proc.devRef .tc main_v12) = (broadcastInDim S500000x1 ![0] bcast_S500000_S500000x1_0 : (⟨S500000, .i32⟩ : BufTy).Contents (Elt F) → (⟨S500000x1, .i32⟩ : BufTy).Contents (Elt F)) (final m c (Proc.devRef .tc main_arg15)) := by
  have h := Sage.after_unary (x := main_arg15) (y := main_v12) (ops_Writes (F := F)) 17 (launchContents m c) (by rfl) (by decide +kernel) (by decide +kernel)
  unfold final
  generalize after ops (launchContents m c) = G at h ⊢
  exact h
theorem final_main_v13 (m : (ℓ : Loc nD τ sig) → Buf (Elt F) ℓ) (c : Dev nD) :
    final m c (Proc.devRef .tc main_v13) = (Host.scatterAdd scatter_S10000x1_S500000x1_S500000x1_1_0_0_1 (final m c (Proc.devRef .tc main_v11)) (final m c (Proc.devRef .tc main_v12)) (final m c (Proc.devRef .tc main_v10)) : (⟨S10000x1, .f32⟩ : BufTy).Contents (Elt F)) := by
  have h := Sage.after_ternary (c := main_v11) (a := main_v12) (b := main_v10) (y := main_v13) (ops_Writes (F := F)) 18 (launchContents m c) (by rfl) (by decide +kernel) (by decide +kernel) (by decide +kernel) (by decide +kernel)
  unfold final
  generalize after ops (launchContents m c) = G at h ⊢
  exact h
theorem final_main_cst_3 (m : (ℓ : Loc nD τ sig) → Buf (Elt F) ℓ) (c : Dev nD) :
    final m c (Proc.devRef .tc main_cst_3) = (constant S_ .f32 0x3F800000#32) := by
  have h := Sage.after_nullary (y := main_cst_3) (ops_Writes (F := F)) 19 (launchContents m c) (by rfl) (by decide +kernel)
  unfold final
  generalize after ops (launchContents m c) = G at h ⊢
  exact h
theorem final_main_v14 (m : (ℓ : Loc nD τ sig) → Buf (Elt F) ℓ) (c : Dev nD) :
    final m c (Proc.devRef .tc main_v14) = (broadcastInDim S10000x1 ![] bcast_S_S10000x1 : (⟨S_, .f32⟩ : BufTy).Contents (Elt F) → (⟨S10000x1, .f32⟩ : BufTy).Contents (Elt F)) (final m c (Proc.devRef .tc main_cst_3)) := by
  have h := Sage.after_unary (x := main_cst_3) (y := main_v14) (ops_Writes (F := F)) 20 (launchContents m c) (by rfl) (by decide +kernel) (by decide +kernel)
  unfold final
  generalize after ops (launchContents m c) = G at h ⊢
  exact h
theorem final_main_v15 (m : (ℓ : Loc nD τ sig) → Buf (Elt F) ℓ) (c : Dev nD) :
    final m c (Proc.devRef .tc main_v15) = (maximumf : (⟨S10000x1, .f32⟩ : BufTy).Contents (Elt F) → (⟨S10000x1, .f32⟩ : BufTy).Contents (Elt F) → (⟨S10000x1, .f32⟩ : BufTy).Contents (Elt F)) (final m c (Proc.devRef .tc main_v13)) (final m c (Proc.devRef .tc main_v14)) := by
  have h := Sage.after_binary (a := main_v13) (b := main_v14) (y := main_v15) (ops_Writes (F := F)) 21 (launchContents m c) (by rfl) (by decide +kernel) (by decide +kernel) (by decide +kernel)
  unfold final
  generalize after ops (launchContents m c) = G at h ⊢
  exact h
theorem final_main_v16 (m : (ℓ : Loc nD τ sig) → Buf (Elt F) ℓ) (c : Dev nD) :
    final m c (Proc.devRef .tc main_v16) = (broadcastInDim S10000x128 ![0, 1] bcast_S10000x1_S10000x128_0_1 : (⟨S10000x1, .f32⟩ : BufTy).Contents (Elt F) → (⟨S10000x128, .f32⟩ : BufTy).Contents (Elt F)) (final m c (Proc.devRef .tc main_v15)) := by
  have h := Sage.after_unary (x := main_v15) (y := main_v16) (ops_Writes (F := F)) 22 (launchContents m c) (by rfl) (by decide +kernel) (by decide +kernel)
  unfold final
  generalize after ops (launchContents m c) = G at h ⊢
  exact h
theorem final_main_v17 (m : (ℓ : Loc nD τ sig) → Buf (Elt F) ℓ) (c : Dev nD) :
    final m c (Proc.devRef .tc main_v17) = (Host.divf : (⟨S10000x128, .f32⟩ : BufTy).Contents (Elt F) → (⟨S10000x128, .f32⟩ : BufTy).Contents (Elt F) → (⟨S10000x128, .f32⟩ : BufTy).Contents (Elt F)) (final m c (Proc.devRef .tc main_v9)) (final m c (Proc.devRef .tc main_v16)) := by
  have h := Sage.after_binary (a := main_v9) (b := main_v16) (y := main_v17) (ops_Writes (F := F)) 23 (launchContents m c) (by rfl) (by decide +kernel) (by decide +kernel) (by decide +kernel)
  unfold final
  generalize after ops (launchContents m c) = G at h ⊢
  exact h
theorem final_main_v18 (m : (ℓ : Loc nD τ sig) → Buf (Elt F) ℓ) (c : Dev nD) :
    final m c (Proc.devRef .tc main_v18) = (extractStridedSlice S1x128x256 ![0, 0, 0] (final m c (Proc.devRef .tc main_arg4)) slices_S7x128x256_S1x128x256_0_0_0 : (⟨S1x128x256, .f32⟩ : BufTy).Contents (Elt F)) := by
  have h := Sage.after_unary (x := main_arg4) (y := main_v18) (ops_Writes (F := F)) 24 (launchContents m c) (by rfl) (by decide +kernel) (by decide +kernel)
  unfold final
  generalize after ops (launchContents m c) = G at h ⊢
  exact h
theorem final_main_v19 (m : (ℓ : Loc nD τ sig) → Buf (Elt F) ℓ) (c : Dev nD) :
    final m c (Proc.devRef .tc main_v19) = shapeCast S128x256 (final m c (Proc.devRef .tc main_v18)) shapeCasts_S1x128x256_S128x256 := by
  have h := Sage.after_reshape (x := main_v18) (y := main_v19) (ops_Writes (F := F)) 25 (launchContents m c) (by rfl) (by decide +kernel) (by decide +kernel)
  unfold final
  generalize after ops (launchContents m c) = G at h ⊢
  exact h
theorem final_main_v20 (m : (ℓ : Loc nD τ sig) → Buf (Elt F) ℓ) (c : Dev nD) :
    final m c (Proc.devRef .tc main_v20) = (Host.dotGeneral dot_S10000x128_S128x256_S10000x256_1_0_0_1_n_n none (final m c (Proc.devRef .tc main_v17)) (final m c (Proc.devRef .tc main_v19)) : (⟨S10000x256, .f32⟩ : BufTy).Contents (Elt F)) := by
  have h := Sage.after_binary (a := main_v17) (b := main_v19) (y := main_v20) (ops_Writes (F := F)) 26 (launchContents m c) (by rfl) (by decide +kernel) (by decide +kernel) (by decide +kernel)
  unfold final
  generalize after ops (launchContents m c) = G at h ⊢
  exact h
theorem final_main_v21 (m : (ℓ : Loc nD τ sig) → Buf (Elt F) ℓ) (c : Dev nD) :
    final m c (Proc.devRef .tc main_v21) = (extractStridedSlice S1x256 ![0, 0] (final m c (Proc.devRef .tc main_arg6)) slices_S7x256_S1x256_0_0 : (⟨S1x256, .f32⟩ : BufTy).Contents (Elt F)) := by
  have h := Sage.after_unary (x := main_arg6) (y := main_v21) (ops_Writes (F := F)) 27 (launchContents m c) (by rfl) (by decide +kernel) (by decide +kernel)
  unfold final
  generalize after ops (launchContents m c) = G at h ⊢
  exact h
theorem final_main_v22 (m : (ℓ : Loc nD τ sig) → Buf (Elt F) ℓ) (c : Dev nD) :
    final m c (Proc.devRef .tc main_v22) = shapeCast S256 (final m c (Proc.devRef .tc main_v21)) shapeCasts_S1x256_S256 := by
  have h := Sage.after_reshape (x := main_v21) (y := main_v22) (ops_Writes (F := F)) 28 (launchContents m c) (by rfl) (by decide +kernel) (by decide +kernel)
  unfold final
  generalize after ops (launchContents m c) = G at h ⊢
  exact h
theorem final_main_v23 (m : (ℓ : Loc nD τ sig) → Buf (Elt F) ℓ) (c : Dev nD) :
    final m c (Proc.devRef .tc main_v23) = (broadcastInDim S1x256 ![1] bcast_S256_S1x256_1 : (⟨S256, .f32⟩ : BufTy).Contents (Elt F) → (⟨S1x256, .f32⟩ : BufTy).Contents (Elt F)) (final m c (Proc.devRef .tc main_v22)) := by
  have h := Sage.after_unary (x := main_v22) (y := main_v23) (ops_Writes (F := F)) 29 (launchContents m c) (by rfl) (by decide +kernel) (by decide +kernel)
  unfold final
  generalize after ops (launchContents m c) = G at h ⊢
  exact h
theorem final_main_v24 (m : (ℓ : Loc nD τ sig) → Buf (Elt F) ℓ) (c : Dev nD) :
    final m c (Proc.devRef .tc main_v24) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v23)) := by
  have h := Sage.after_unary (x := main_v23) (y := main_v24) (ops_Writes (F := F)) 30 (launchContents m c) (by rfl) (by decide +kernel) (by decide +kernel)
  unfold final
  generalize after ops (launchContents m c) = G at h ⊢
  exact h
theorem final_main_v25 (m : (ℓ : Loc nD τ sig) → Buf (Elt F) ℓ) (c : Dev nD) :
    final m c (Proc.devRef .tc main_v25) = (addf : (⟨S10000x256, .f32⟩ : BufTy).Contents (Elt F) → (⟨S10000x256, .f32⟩ : BufTy).Contents (Elt F) → (⟨S10000x256, .f32⟩ : BufTy).Contents (Elt F)) (final m c (Proc.devRef .tc main_v20)) (final m c (Proc.devRef .tc main_v24)) := by
  have h := Sage.after_binary (a := main_v20) (b := main_v24) (y := main_v25) (ops_Writes (F := F)) 31 (launchContents m c) (by rfl) (by decide +kernel) (by decide +kernel) (by decide +kernel)
  unfold final
  generalize after ops (launchContents m c) = G at h ⊢
  exact h
theorem final_main_v26 (m : (ℓ : Loc nD τ sig) → Buf (Elt F) ℓ) (c : Dev nD) :
    final m c (Proc.devRef .tc main_v26) = (extractStridedSlice S1x128x256 ![0, 0, 0] (final m c (Proc.devRef .tc main_arg5)) slices_S7x128x256_S1x128x256_0_0_0 : (⟨S1x128x256, .f32⟩ : BufTy).Contents (Elt F)) := by
  have h := Sage.after_unary (x := main_arg5) (y := main_v26) (ops_Writes (F := F)) 32 (launchContents m c) (by rfl) (by decide +kernel) (by decide +kernel)
  unfold final
  generalize after ops (launchContents m c) = G at h ⊢
  exact h
theorem final_main_v27 (m : (ℓ : Loc nD τ sig) → Buf (Elt F) ℓ) (c : Dev nD) :
    final m c (Proc.devRef .tc main_v27) = shapeCast S128x256 (final m c (Proc.devRef .tc main_v26)) shapeCasts_S1x128x256_S128x256 := by
  have h := Sage.after_reshape (x := main_v26) (y := main_v27) (ops_Writes (F := F)) 33 (launchContents m c) (by rfl) (by decide +kernel) (by decide +kernel)
  unfold final
  generalize after ops (launchContents m c) = G at h ⊢
  exact h
theorem final_main_v28 (m : (ℓ : Loc nD τ sig) → Buf (Elt F) ℓ) (c : Dev nD) :
    final m c (Proc.devRef .tc main_v28) = (Host.dotGeneral dot_S10000x128_S128x256_S10000x256_1_0_0_1_n_n none (final m c (Proc.devRef .tc main_arg2)) (final m c (Proc.devRef .tc main_v27)) : (⟨S10000x256, .f32⟩ : BufTy).Contents (Elt F)) := by
  have h := Sage.after_binary (a := main_arg2) (b := main_v27) (y := main_v28) (ops_Writes (F := F)) 34 (launchContents m c) (by rfl) (by decide +kernel) (by decide +kernel) (by decide +kernel)
  unfold final
  generalize after ops (launchContents m c) = G at h ⊢
  exact h
theorem final_main_v29 (m : (ℓ : Loc nD τ sig) → Buf (Elt F) ℓ) (c : Dev nD) :
    final m c (Proc.devRef .tc main_v29) = (addf : (⟨S10000x256, .f32⟩ : BufTy).Contents (Elt F) → (⟨S10000x256, .f32⟩ : BufTy).Contents (Elt F) → (⟨S10000x256, .f32⟩ : BufTy).Contents (Elt F)) (final m c (Proc.devRef .tc main_v25)) (final m c (Proc.devRef .tc main_v28)) := by
  have h := Sage.after_binary (a := main_v25) (b := main_v28) (y := main_v29) (ops_Writes (F := F)) 35 (launchContents m c) (by rfl) (by decide +kernel) (by decide +kernel) (by decide +kernel)
  unfold final
  generalize after ops (launchContents m c) = G at h ⊢
  exact h
theorem final_main_c_4 (m : (ℓ : Loc nD τ sig) → Buf (Elt F) ℓ) (c : Dev nD) :
    final m c (Proc.devRef .tc main_c_4) = (constantI S_ 32 0#32) := by
  have h := Sage.after_nullary (y := main_c_4) (ops_Writes (F := F)) 36 (launchContents m c) (by rfl) (by decide +kernel)
  unfold final
  generalize after ops (launchContents m c) = G at h ⊢
  exact h
theorem final_main_v30 (m : (ℓ : Loc nD τ sig) → Buf (Elt F) ℓ) (c : Dev nD) :
    final m c (Proc.devRef .tc main_v30) = (broadcastInDim S400000 ![] bcast_S_S400000 : (⟨S_, .i32⟩ : BufTy).Contents (Elt F) → (⟨S400000, .i32⟩ : BufTy).Contents (Elt F)) (final m c (Proc.devRef .tc main_c_4)) := by
  have h := Sage.after_unary (x := main_c_4) (y := main_v30) (ops_Writes (F := F)) 37 (launchContents m c) (by rfl) (by decide +kernel) (by decide +kernel)
  unfold final
  generalize after ops (launchContents m c) = G at h ⊢
  exact h
theorem final_main_v31 (m : (ℓ : Loc nD τ sig) → Buf (Elt F) ℓ) (c : Dev nD) :
    final m c (Proc.devRef .tc main_v31) = (cmpi .slt : (⟨S400000, .i32⟩ : BufTy).Contents (Elt F) → (⟨S400000, .i32⟩ : BufTy).Contents (Elt F) → (⟨S400000, .i1⟩ : BufTy).Contents (Elt F)) (final m c (Proc.devRef .tc main_arg16)) (final m c (Proc.devRef .tc main_v30)) := by
  have h := Sage.after_binary (a := main_arg16) (b := main_v30) (y := main_v31) (ops_Writes (F := F)) 38 (launchContents m c) (by rfl) (by decide +kernel) (by decide +kernel) (by decide +kernel)
  unfold final
  generalize after ops (launchContents m c) = G at h ⊢
  exact h
theorem final_main_c_5 (m : (ℓ : Loc nD τ sig) → Buf (Elt F) ℓ) (c : Dev nD) :
    final m c (Proc.devRef .tc main_c_5) = (constantI S_ 32 20000#32) := by
  have h := Sage.after_nullary (y := main_c_5) (ops_Writes (F := F)) 39 (launchContents m c) (by rfl) (by decide +kernel)
  unfold final
  generalize after ops (launchContents m c) = G at h ⊢
  exact h
theorem final_main_v32 (m : (ℓ : Loc nD τ sig) → Buf (Elt F) ℓ) (c : Dev nD) :
    final m c (Proc.devRef .tc main_v32) = (broadcastInDim S400000 ![] bcast_S_S400000 : (⟨S_, .i32⟩ : BufTy).Contents (Elt F) → (⟨S400000, .i32⟩ : BufTy).Contents (Elt F)) (final m c (Proc.devRef .tc main_c_5)) := by
  have h := Sage.after_unary (x := main_c_5) (y := main_v32) (ops_Writes (F := F)) 40 (launchContents m c) (by rfl) (by decide +kernel) (by decide +kernel)
  unfold final
  generalize after ops (launchContents m c) = G at h ⊢
  exact h
theorem final_main_v33 (m : (ℓ : Loc nD τ sig) → Buf (Elt F) ℓ) (c : Dev nD) :
    final m c (Proc.devRef .tc main_v33) = (addi : (⟨S400000, .i32⟩ : BufTy).Contents (Elt F) → (⟨S400000, .i32⟩ : BufTy).Contents (Elt F) → (⟨S400000, .i32⟩ : BufTy).Contents (Elt F)) (final m c (Proc.devRef .tc main_arg16)) (final m c (Proc.devRef .tc main_v32)) := by
  have h := Sage.after_binary (a := main_arg16) (b := main_v32) (y := main_v33) (ops_Writes (F := F)) 41 (launchContents m c) (by rfl) (by decide +kernel) (by decide +kernel) (by decide +kernel)
  unfold final
  generalize after ops (launchContents m c) = G at h ⊢
  exact h
theorem final_main_v34 (m : (ℓ : Loc nD τ sig) → Buf (Elt F) ℓ) (c : Dev nD) :
    final m c (Proc.devRef .tc main_v34) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (final m c (Proc.devRef .tc main_v31)) (final m c (Proc.devRef .tc main_v33)) (final m c (Proc.devRef .tc main_arg16)) := by
  have h := Sage.after_ternary (c := main_v31) (a := main_v33) (b := main_arg16) (y := main_v34) (ops_Writes (F := F)) 42 (launchContents m c) (by rfl) (by decide +kernel) (by decide +kernel) (by decide +kernel) (by decide +kernel)
  unfold final
  generalize after ops (launchContents m c) = G at h ⊢
  exact h
theorem final_main_v35 (m : (ℓ : Loc nD τ sig) → Buf (Elt F) ℓ) (c : Dev nD) :
    final m c (Proc.devRef .tc main_v35) = (broadcastInDim S400000x1 ![0] bcast_S400000_S400000x1_0 : (⟨S400000, .i32⟩ : BufTy).Contents (Elt F) → (⟨S400000x1, .i32⟩ : BufTy).Contents (Elt F)) (final m c (Proc.devRef .tc main_v34)) := by
  have h := Sage.after_unary (x := main_v34) (y := main_v35) (ops_Writes (F := F)) 43 (launchContents m c) (by rfl) (by decide +kernel) (by decide +kernel)
  unfold final
  generalize after ops (launchContents m c) = G at h ⊢
  exact h
theorem final_main_v36 (m : (ℓ : Loc nD τ sig) → Buf (Elt F) ℓ) (c : Dev nD) :
    final m c (Proc.devRef .tc main_v36) = (Host.gather gather_S20000x128_S400000x1_S400000x128_1_0_n_n_0_1_1128 (final m c (Proc.devRef .tc main_arg0)) (final m c (Proc.devRef .tc main_v35)) : (⟨S400000x128, .f32⟩ : BufTy).Contents (Elt F)) := by
  have h := Sage.after_binary (a := main_arg0) (b := main_v35) (y := main_v36) (ops_Writes (F := F)) 44 (launchContents m c) (by rfl) (by decide +kernel) (by decide +kernel) (by decide +kernel)
  unfold final
  generalize after ops (launchContents m c) = G at h ⊢
  exact h
theorem final_main_cst_6 (m : (ℓ : Loc nD τ sig) → Buf (Elt F) ℓ) (c : Dev nD) :
    final m c (Proc.devRef .tc main_cst_6) = (constant S_ .f32 0x00000000#32) := by
  have h := Sage.after_nullary (y := main_cst_6) (ops_Writes (F := F)) 45 (launchContents m c) (by rfl) (by decide +kernel)
  unfold final
  generalize after ops (launchContents m c) = G at h ⊢
  exact h
theorem final_main_v37 (m : (ℓ : Loc nD τ sig) → Buf (Elt F) ℓ) (c : Dev nD) :
    final m c (Proc.devRef .tc main_v37) = (broadcastInDim S50000x128 ![] bcast_S_S50000x128 : (⟨S_, .f32⟩ : BufTy).Contents (Elt F) → (⟨S50000x128, .f32⟩ : BufTy).Contents (Elt F)) (final m c (Proc.devRef .tc main_cst_6)) := by
  have h := Sage.after_unary (x := main_cst_6) (y := main_v37) (ops_Writes (F := F)) 46 (launchContents m c) (by rfl) (by decide +kernel) (by decide +kernel)
  unfold final
  generalize after ops (launchContents m c) = G at h ⊢
  exact h
theorem final_main_v38 (m : (ℓ : Loc nD τ sig) → Buf (Elt F) ℓ) (c : Dev nD) :
    final m c (Proc.devRef .tc main_v38) = (broadcastInDim S400000x1 ![0] bcast_S400000_S400000x1_0 : (⟨S400000, .i32⟩ : BufTy).Contents (Elt F) → (⟨S400000x1, .i32⟩ : BufTy).Contents (Elt F)) (final m c (Proc.devRef .tc main_arg17)) := by
  have h := Sage.after_unary (x := main_arg17) (y := main_v38) (ops_Writes (F := F)) 47 (launchContents m c) (by rfl) (by decide +kernel) (by decide +kernel)
  unfold final
  generalize after ops (launchContents m c) = G at h ⊢
  exact h
theorem final_main_v39 (m : (ℓ : Loc nD τ sig) → Buf (Elt F) ℓ) (c : Dev nD) :
    final m c (Proc.devRef .tc main_v39) = (Host.scatterAdd scatter_S50000x128_S400000x1_S400000x128_1_0_0_1 (final m c (Proc.devRef .tc main_v37)) (final m c (Proc.devRef .tc main_v38)) (final m c (Proc.devRef .tc main_v36)) : (⟨S50000x128, .f32⟩ : BufTy).Contents (Elt F)) := by
  have h := Sage.after_ternary (c := main_v37) (a := main_v38) (b := main_v36) (y := main_v39) (ops_Writes (F := F)) 48 (launchContents m c) (by rfl) (by decide +kernel) (by decide +kernel) (by decide +kernel) (by decide +kernel)
  unfold final
  generalize after ops (launchContents m c) = G at h ⊢
  exact h
theorem final_main_cst_7 (m : (ℓ : Loc nD τ sig) → Buf (Elt F) ℓ) (c : Dev nD) :
    final m c (Proc.devRef .tc main_cst_7) = (constant S_ .f32 0x3F800000#32) := by
  have h := Sage.after_nullary (y := main_cst_7) (ops_Writes (F := F)) 49 (launchContents m c) (by rfl) (by decide +kernel)
  unfold final
  generalize after ops (launchContents m c) = G at h ⊢
  exact h
theorem final_main_v40 (m : (ℓ : Loc nD τ sig) → Buf (Elt F) ℓ) (c : Dev nD) :
    final m c (Proc.devRef .tc main_v40) = (broadcastInDim S400000x1 ![] bcast_S_S400000x1 : (⟨S_, .f32⟩ : BufTy).Contents (Elt F) → (⟨S400000x1, .f32⟩ : BufTy).Contents (Elt F)) (final m c (Proc.devRef .tc main_cst_7)) := by
  have h := Sage.after_unary (x := main_cst_7) (y := main_v40) (ops_Writes (F := F)) 50 (launchContents m c) (by rfl) (by decide +kernel) (by decide +kernel)
  unfold final
  generalize after ops (launchContents m c) = G at h ⊢
  exact h
theorem final_main_cst_8 (m : (ℓ : Loc nD τ sig) → Buf (Elt F) ℓ) (c : Dev nD) :
    final m c (Proc.devRef .tc main_cst_8) = (constant S_ .f32 0x00000000#32) := by
  have h := Sage.after_nullary (y := main_cst_8) (ops_Writes (F := F)) 51 (launchContents m c) (by rfl) (by decide +kernel)
  unfold final
  generalize after ops (launchContents m c) = G at h ⊢
  exact h
theorem final_main_v41 (m : (ℓ : Loc nD τ sig) → Buf (Elt F) ℓ) (c : Dev nD) :
    final m c (Proc.devRef .tc main_v41) = (broadcastInDim S50000x1 ![] bcast_S_S50000x1 : (⟨S_, .f32⟩ : BufTy).Contents (Elt F) → (⟨S50000x1, .f32⟩ : BufTy).Contents (Elt F)) (final m c (Proc.devRef .tc main_cst_8)) := by
  have h := Sage.after_unary (x := main_cst_8) (y := main_v41) (ops_Writes (F := F)) 52 (launchContents m c) (by rfl) (by decide +kernel) (by decide +kernel)
  unfold final
  generalize after ops (launchContents m c) = G at h ⊢
  exact h
theorem final_main_v42 (m : (ℓ : Loc nD τ sig) → Buf (Elt F) ℓ) (c : Dev nD) :
    final m c (Proc.devRef .tc main_v42) = (broadcastInDim S400000x1 ![0] bcast_S400000_S400000x1_0 : (⟨S400000, .i32⟩ : BufTy).Contents (Elt F) → (⟨S400000x1, .i32⟩ : BufTy).Contents (Elt F)) (final m c (Proc.devRef .tc main_arg17)) := by
  have h := Sage.after_unary (x := main_arg17) (y := main_v42) (ops_Writes (F := F)) 53 (launchContents m c) (by rfl) (by decide +kernel) (by decide +kernel)
  unfold final
  generalize after ops (launchContents m c) = G at h ⊢
  exact h
theorem final_main_v43 (m : (ℓ : Loc nD τ sig) → Buf (Elt F) ℓ) (c : Dev nD) :
    final m c (Proc.devRef .tc main_v43) = (Host.scatterAdd scatter_S50000x1_S400000x1_S400000x1_1_0_0_1 (final m c (Proc.devRef .tc main_v41)) (final m c (Proc.devRef .tc main_v42)) (final m c (Proc.devRef .tc main_v40)) : (⟨S50000x1, .f32⟩ : BufTy).Contents (Elt F)) := by
  have h := Sage.after_ternary (c := main_v41) (a := main_v42) (b := main_v40) (y := main_v43) (ops_Writes (F := F)) 54 (launchContents m c) (by rfl) (by decide +kernel) (by decide +kernel) (by decide +kernel) (by decide +kernel)
  unfold final
  generalize after ops (launchContents m c) = G at h ⊢
  exact h
theorem final_main_cst_9 (m : (ℓ : Loc nD τ sig) → Buf (Elt F) ℓ) (c : Dev nD) :
    final m c (Proc.devRef .tc main_cst_9) = (constant S_ .f32 0x3F800000#32) := by
  have h := Sage.after_nullary (y := main_cst_9) (ops_Writes (F := F)) 55 (launchContents m c) (by rfl) (by decide +kernel)
  unfold final
  generalize after ops (launchContents m c) = G at h ⊢
  exact h
theorem final_main_v44 (m : (ℓ : Loc nD τ sig) → Buf (Elt F) ℓ) (c : Dev nD) :
    final m c (Proc.devRef .tc main_v44) = (broadcastInDim S50000x1 ![] bcast_S_S50000x1 : (⟨S_, .f32⟩ : BufTy).Contents (Elt F) → (⟨S50000x1, .f32⟩ : BufTy).Contents (Elt F)) (final m c (Proc.devRef .tc main_cst_9)) := by
  have h := Sage.after_unary (x := main_cst_9) (y := main_v44) (ops_Writes (F := F)) 56 (launchContents m c) (by rfl) (by decide +kernel) (by decide +kernel)
  unfold final
  generalize after ops (launchContents m c) = G at h ⊢
  exact h
theorem final_main_v45 (m : (ℓ : Loc nD τ sig) → Buf (Elt F) ℓ) (c : Dev nD) :
    final m c (Proc.devRef .tc main_v45) = (maximumf : (⟨S50000x1, .f32⟩ : BufTy).Contents (Elt F) → (⟨S50000x1, .f32⟩ : BufTy).Contents (Elt F) → (⟨S50000x1, .f32⟩ : BufTy).Contents (Elt F)) (final m c (Proc.devRef .tc main_v43)) (final m c (Proc.devRef .tc main_v44)) := by
  have h := Sage.after_binary (a := main_v43) (b := main_v44) (y := main_v45) (ops_Writes (F := F)) 57 (launchContents m c) (by rfl) (by decide +kernel) (by decide +kernel) (by decide +kernel)
  unfold final
  generalize after ops (launchContents m c) = G at h ⊢
  exact h
theorem final_main_v46 (m : (ℓ : Loc nD τ sig) → Buf (Elt F) ℓ) (c : Dev nD) :
    final m c (Proc.devRef .tc main_v46) = (broadcastInDim S50000x128 ![0, 1] bcast_S50000x1_S50000x128_0_1 : (⟨S50000x1, .f32⟩ : BufTy).Contents (Elt F) → (⟨S50000x128, .f32⟩ : BufTy).Contents (Elt F)) (final m c (Proc.devRef .tc main_v45)) := by
  have h := Sage.after_unary (x := main_v45) (y := main_v46) (ops_Writes (F := F)) 58 (launchContents m c) (by rfl) (by decide +kernel) (by decide +kernel)
  unfold final
  generalize after ops (launchContents m c) = G at h ⊢
  exact h
theorem final_main_v47 (m : (ℓ : Loc nD τ sig) → Buf (Elt F) ℓ) (c : Dev nD) :
    final m c (Proc.devRef .tc main_v47) = (Host.divf : (⟨S50000x128, .f32⟩ : BufTy).Contents (Elt F) → (⟨S50000x128, .f32⟩ : BufTy).Contents (Elt F) → (⟨S50000x128, .f32⟩ : BufTy).Contents (Elt F)) (final m c (Proc.devRef .tc main_v39)) (final m c (Proc.devRef .tc main_v46)) := by
  have h := Sage.after_binary (a := main_v39) (b := main_v46) (y := main_v47) (ops_Writes (F := F)) 59 (launchContents m c) (by rfl) (by decide +kernel) (by decide +kernel) (by decide +kernel)
  unfold final
  generalize after ops (launchContents m c) = G at h ⊢
  exact h

end Cert.ReferenceIdeal.Hand

end
-- ==== Proof.Ref.Final1.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 1 (operations 61 … 120 of 886): what each result buffer holds when @main has run, one operation back. -/

theorem final_main_v48 (m : (ℓ : Loc nD τ sig) → Buf (Elt F) ℓ) (c : Dev nD) :
    final m c (Proc.devRef .tc main_v48) = (extractStridedSlice S1x128x256 ![1, 0, 0] (final m c (Proc.devRef .tc main_arg4)) slices_S7x128x256_S1x128x256_1_0_0 : (⟨S1x128x256, .f32⟩ : BufTy).Contents (Elt F)) := by
  have h := Sage.after_unary (x := main_arg4) (y := main_v48) (ops_Writes (F := F)) 60 (launchContents m c) (by rfl) (by decide +kernel) (by decide +kernel)
  unfold final
  generalize after ops (launchContents m c) = G at h ⊢
  exact h
theorem final_main_v49 (m : (ℓ : Loc nD τ sig) → Buf (Elt F) ℓ) (c : Dev nD) :
    final m c (Proc.devRef .tc main_v49) = shapeCast S128x256 (final m c (Proc.devRef .tc main_v48)) shapeCasts_S1x128x256_S128x256 := by
  have h := Sage.after_reshape (x := main_v48) (y := main_v49) (ops_Writes (F := F)) 61 (launchContents m c) (by rfl) (by decide +kernel) (by decide +kernel)
  unfold final
  generalize after ops (launchContents m c) = G at h ⊢
  exact h
theorem final_main_v50 (m : (ℓ : Loc nD τ sig) → Buf (Elt F) ℓ) (c : Dev nD) :
    final m c (Proc.devRef .tc main_v50) = (Host.dotGeneral dot_S50000x128_S128x256_S50000x256_1_0_0_1_n_n none (final m c (Proc.devRef .tc main_v47)) (final m c (Proc.devRef .tc main_v49)) : (⟨S50000x256, .f32⟩ : BufTy).Contents (Elt F)) := by
  have h := Sage.after_binary (a := main_v47) (b := main_v49) (y := main_v50) (ops_Writes (F := F)) 62 (launchContents m c) (by rfl) (by decide +kernel) (by decide +kernel) (by decide +kernel)
  unfold final
  generalize after ops (launchContents m c) = G at h ⊢
  exact h
theorem final_main_v51 (m : (ℓ : Loc nD τ sig) → Buf (Elt F) ℓ) (c : Dev nD) :
    final m c (Proc.devRef .tc main_v51) = (extractStridedSlice S1x256 ![1, 0] (final m c (Proc.devRef .tc main_arg6)) slices_S7x256_S1x256_1_0 : (⟨S1x256, .f32⟩ : BufTy).Contents (Elt F)) := by
  have h := Sage.after_unary (x := main_arg6) (y := main_v51) (ops_Writes (F := F)) 63 (launchContents m c) (by rfl) (by decide +kernel) (by decide +kernel)
  unfold final
  generalize after ops (launchContents m c) = G at h ⊢
  exact h
theorem final_main_v52 (m : (ℓ : Loc nD τ sig) → Buf (Elt F) ℓ) (c : Dev nD) :
    final m c (Proc.devRef .tc main_v52) = shapeCast S256 (final m c (Proc.devRef .tc main_v51)) shapeCasts_S1x256_S256 := by
  have h := Sage.after_reshape (x := main_v51) (y := main_v52) (ops_Writes (F := F)) 64 (launchContents m c) (by rfl) (by decide +kernel) (by decide +kernel)
  unfold final
  generalize after ops (launchContents m c) = G at h ⊢
  exact h
theorem final_main_v53 (m : (ℓ : Loc nD τ sig) → Buf (Elt F) ℓ) (c : Dev nD) :
    final m c (Proc.devRef .tc main_v53) = (broadcastInDim S1x256 ![1] bcast_S256_S1x256_1 : (⟨S256, .f32⟩ : BufTy).Contents (Elt F) → (⟨S1x256, .f32⟩ : BufTy).Contents (Elt F)) (final m c (Proc.devRef .tc main_v52)) := by
  have h := Sage.after_unary (x := main_v52) (y := main_v53) (ops_Writes (F := F)) 65 (launchContents m c) (by rfl) (by decide +kernel) (by decide +kernel)
  unfold final
  generalize after ops (launchContents m c) = G at h ⊢
  exact h
theorem final_main_v54 (m : (ℓ : Loc nD τ sig) → Buf (Elt F) ℓ) (c : Dev nD) :
    final m c (Proc.devRef .tc main_v54) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v53)) := by
  have h := Sage.after_unary (x := main_v53) (y := main_v54) (ops_Writes (F := F)) 66 (launchContents m c) (by rfl) (by decide +kernel) (by decide +kernel)
  unfold final
  generalize after ops (launchContents m c) = G at h ⊢
  exact h
theorem final_main_v55 (m : (ℓ : Loc nD τ sig) → Buf (Elt F) ℓ) (c : Dev nD) :
    final m c (Proc.devRef .tc main_v55) = (addf : (⟨S50000x256, .f32⟩ : BufTy).Contents (Elt F) → (⟨S50000x256, .f32⟩ : BufTy).Contents (Elt F) → (⟨S50000x256, .f32⟩ : BufTy).Contents (Elt F)) (final m c (Proc.devRef .tc main_v50)) (final m c (Proc.devRef .tc main_v54)) := by
  have h := Sage.after_binary (a := main_v50) (b := main_v54) (y := main_v55) (ops_Writes (F := F)) 67 (launchContents m c) (by rfl) (by decide +kernel) (by decide +kernel) (by decide +kernel)
  unfold final
  generalize after ops (launchContents m c) = G at h ⊢
  exact h
theorem final_main_v56 (m : (ℓ : Loc nD τ sig) → Buf (Elt F) ℓ) (c : Dev nD) :
    final m c (Proc.devRef .tc main_v56) = (extractStridedSlice S1x128x256 ![1, 0, 0] (final m c (Proc.devRef .tc main_arg5)) slices_S7x128x256_S1x128x256_1_0_0 : (⟨S1x128x256, .f32⟩ : BufTy).Contents (Elt F)) := by
  have h := Sage.after_unary (x := main_arg5) (y := main_v56) (ops_Writes (F := F)) 68 (launchContents m c) (by rfl) (by decide +kernel) (by decide +kernel)
  unfold final
  generalize after ops (launchContents m c) = G at h ⊢
  exact h
theorem final_main_v57 (m : (ℓ : Loc nD τ sig) → Buf (Elt F) ℓ) (c : Dev nD) :
    final m c (Proc.devRef .tc main_v57) = shapeCast S128x256 (final m c (Proc.devRef .tc main_v56)) shapeCasts_S1x128x256_S128x256 := by
  have h := Sage.after_reshape (x := main_v56) (y := main_v57) (ops_Writes (F := F)) 69 (launchContents m c) (by rfl) (by decide +kernel) (by decide +kernel)
  unfold final
  generalize after ops (launchContents m c) = G at h ⊢
  exact h
theorem final_main_v58 (m : (ℓ : Loc nD τ sig) → Buf (Elt F) ℓ) (c : Dev nD) :
    final m c (Proc.devRef .tc main_v58) = (Host.dotGeneral dot_S50000x128_S128x256_S50000x256_1_0_0_1_n_n none (final m c (Proc.devRef .tc main_arg1)) (final m c (Proc.devRef .tc main_v57)) : (⟨S50000x256, .f32⟩ : BufTy).Contents (Elt F)) := by
  have h := Sage.after_binary (a := main_arg1) (b := main_v57) (y := main_v58) (ops_Writes (F := F)) 70 (launchContents m c) (by rfl) (by decide +kernel) (by decide +kernel) (by decide +kernel)
  unfold final
  generalize after ops (launchContents m c) = G at h ⊢
  exact h
theorem final_main_v59 (m : (ℓ : Loc nD τ sig) → Buf (Elt F) ℓ) (c : Dev nD) :
    final m c (Proc.devRef .tc main_v59) = (addf : (⟨S50000x256, .f32⟩ : BufTy).Contents (Elt F) → (⟨S50000x256, .f32⟩ : BufTy).Contents (Elt F) → (⟨S50000x256, .f32⟩ : BufTy).Contents (Elt F)) (final m c (Proc.devRef .tc main_v55)) (final m c (Proc.devRef .tc main_v58)) := by
  have h := Sage.after_binary (a := main_v55) (b := main_v58) (y := main_v59) (ops_Writes (F := F)) 71 (launchContents m c) (by rfl) (by decide +kernel) (by decide +kernel) (by decide +kernel)
  unfold final
  generalize after ops (launchContents m c) = G at h ⊢
  exact h
theorem final_main_c_10 (m : (ℓ : Loc nD τ sig) → Buf (Elt F) ℓ) (c : Dev nD) :
    final m c (Proc.devRef .tc main_c_10) = (constantI S_ 32 0#32) := by
  have h := Sage.after_nullary (y := main_c_10) (ops_Writes (F := F)) 72 (launchContents m c) (by rfl) (by decide +kernel)
  unfold final
  generalize after ops (launchContents m c) = G at h ⊢
  exact h
theorem final_main_v60 (m : (ℓ : Loc nD τ sig) → Buf (Elt F) ℓ) (c : Dev nD) :
    final m c (Proc.devRef .tc main_v60) = (broadcastInDim S150000 ![] bcast_S_S150000 : (⟨S_, .i32⟩ : BufTy).Contents (Elt F) → (⟨S150000, .i32⟩ : BufTy).Contents (Elt F)) (final m c (Proc.devRef .tc main_c_10)) := by
  have h := Sage.after_unary (x := main_c_10) (y := main_v60) (ops_Writes (F := F)) 73 (launchContents m c) (by rfl) (by decide +kernel) (by decide +kernel)
  unfold final
  generalize after ops (launchContents m c) = G at h ⊢
  exact h
theorem final_main_v61 (m : (ℓ : Loc nD τ sig) → Buf (Elt F) ℓ) (c : Dev nD) :
    final m c (Proc.devRef .tc main_v61) = (cmpi .slt : (⟨S150000, .i32⟩ : BufTy).Contents (Elt F) → (⟨S150000, .i32⟩ : BufTy).Contents (Elt F) → (⟨S150000, .i1⟩ : BufTy).Contents (Elt F)) (final m c (Proc.devRef .tc main_arg18)) (final m c (Proc.devRef .tc main_v60)) := by
  have h := Sage.after_binary (a := main_arg18) (b := main_v60) (y := main_v61) (ops_Writes (F := F)) 74 (launchContents m c) (by rfl) (by decide +kernel) (by decide +kernel) (by decide +kernel)
  unfold final
  generalize after ops (launchContents m c) = G at h ⊢
  exact h
theorem final_main_c_11 (m : (ℓ : Loc nD τ sig) → Buf (Elt F) ℓ) (c : Dev nD) :
    final m c (Proc.devRef .tc main_c_11) = (constantI S_ 32 50000#32) := by
  have h := Sage.after_nullary (y := main_c_11) (ops_Writes (F := F)) 75 (launchContents m c) (by rfl) (by decide +kernel)
  unfold final
  generalize after ops (launchContents m c) = G at h ⊢
  exact h
theorem final_main_v62 (m : (ℓ : Loc nD τ sig) → Buf (Elt F) ℓ) (c : Dev nD) :
    final m c (Proc.devRef .tc main_v62) = (broadcastInDim S150000 ![] bcast_S_S150000 : (⟨S_, .i32⟩ : BufTy).Contents (Elt F) → (⟨S150000, .i32⟩ : BufTy).Contents (Elt F)) (final m c (Proc.devRef .tc main_c_11)) := by
  have h := Sage.after_unary (x := main_c_11) (y := main_v62) (ops_Writes (F := F)) 76 (launchContents m c) (by rfl) (by decide +kernel) (by decide +kernel)
  unfold final
  generalize after ops (launchContents m c) = G at h ⊢
  exact h
theorem final_main_v63 (m : (ℓ : Loc nD τ sig) → Buf (Elt F) ℓ) (c : Dev nD) :
    final m c (Proc.devRef .tc main_v63) = (addi : (⟨S150000, .i32⟩ : BufTy).Contents (Elt F) → (⟨S150000, .i32⟩ : BufTy).Contents (Elt F) → (⟨S150000, .i32⟩ : BufTy).Contents (Elt F)) (final m c (Proc.devRef .tc main_arg18)) (final m c (Proc.devRef .tc main_v62)) := by
  have h := Sage.after_binary (a := main_arg18) (b := main_v62) (y := main_v63) (ops_Writes (F := F)) 77 (launchContents m c) (by rfl) (by decide +kernel) (by decide +kernel) (by decide +kernel)
  unfold final
  generalize after ops (launchContents m c) = G at h ⊢
  exact h
theorem final_main_v64 (m : (ℓ : Loc nD τ sig) → Buf (Elt F) ℓ) (c : Dev nD) :
    final m c (Proc.devRef .tc main_v64) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (final m c (Proc.devRef .tc main_v61)) (final m c (Proc.devRef .tc main_v63)) (final m c (Proc.devRef .tc main_arg18)) := by
  have h := Sage.after_ternary (c := main_v61) (a := main_v63) (b := main_arg18) (y := main_v64) (ops_Writes (F := F)) 78 (launchContents m c) (by rfl) (by decide +kernel) (by decide +kernel) (by decide +kernel) (by decide +kernel)
  unfold final
  generalize after ops (launchContents m c) = G at h ⊢
  exact h
theorem final_main_v65 (m : (ℓ : Loc nD τ sig) → Buf (Elt F) ℓ) (c : Dev nD) :
    final m c (Proc.devRef .tc main_v65) = (broadcastInDim S150000x1 ![0] bcast_S150000_S150000x1_0 : (⟨S150000, .i32⟩ : BufTy).Contents (Elt F) → (⟨S150000x1, .i32⟩ : BufTy).Contents (Elt F)) (final m c (Proc.devRef .tc main_v64)) := by
  have h := Sage.after_unary (x := main_v64) (y := main_v65) (ops_Writes (F := F)) 79 (launchContents m c) (by rfl) (by decide +kernel) (by decide +kernel)
  unfold final
  generalize after ops (launchContents m c) = G at h ⊢
  exact h
theorem final_main_v66 (m : (ℓ : Loc nD τ sig) → Buf (Elt F) ℓ) (c : Dev nD) :
    final m c (Proc.devRef .tc main_v66) = (Host.gather gather_S50000x128_S150000x1_S150000x128_1_0_n_n_0_1_1128 (final m c (Proc.devRef .tc main_arg1)) (final m c (Proc.devRef .tc main_v65)) : (⟨S150000x128, .f32⟩ : BufTy).Contents (Elt F)) := by
  have h := Sage.after_binary (a := main_arg1) (b := main_v65) (y := main_v66) (ops_Writes (F := F)) 80 (launchContents m c) (by rfl) (by decide +kernel) (by decide +kernel) (by decide +kernel)
  unfold final
  generalize after ops (launchContents m c) = G at h ⊢
  exact h
theorem final_main_cst_12 (m : (ℓ : Loc nD τ sig) → Buf (Elt F) ℓ) (c : Dev nD) :
    final m c (Proc.devRef .tc main_cst_12) = (constant S_ .f32 0x00000000#32) := by
  have h := Sage.after_nullary (y := main_cst_12) (ops_Writes (F := F)) 81 (launchContents m c) (by rfl) (by decide +kernel)
  unfold final
  generalize after ops (launchContents m c) = G at h ⊢
  exact h
theorem final_main_v67 (m : (ℓ : Loc nD τ sig) → Buf (Elt F) ℓ) (c : Dev nD) :
    final m c (Proc.devRef .tc main_v67) = (broadcastInDim S3000x128 ![] bcast_S_S3000x128 : (⟨S_, .f32⟩ : BufTy).Contents (Elt F) → (⟨S3000x128, .f32⟩ : BufTy).Contents (Elt F)) (final m c (Proc.devRef .tc main_cst_12)) := by
  have h := Sage.after_unary (x := main_cst_12) (y := main_v67) (ops_Writes (F := F)) 82 (launchContents m c) (by rfl) (by decide +kernel) (by decide +kernel)
  unfold final
  generalize after ops (launchContents m c) = G at h ⊢
  exact h
theorem final_main_v68 (m : (ℓ : Loc nD τ sig) → Buf (Elt F) ℓ) (c : Dev nD) :
    final m c (Proc.devRef .tc main_v68) = (broadcastInDim S150000x1 ![0] bcast_S150000_S150000x1_0 : (⟨S150000, .i32⟩ : BufTy).Contents (Elt F) → (⟨S150000x1, .i32⟩ : BufTy).Contents (Elt F)) (final m c (Proc.devRef .tc main_arg19)) := by
  have h := Sage.after_unary (x := main_arg19) (y := main_v68) (ops_Writes (F := F)) 83 (launchContents m c) (by rfl) (by decide +kernel) (by decide +kernel)
  unfold final
  generalize after ops (launchContents m c) = G at h ⊢
  exact h
theorem final_main_v69 (m : (ℓ : Loc nD τ sig) → Buf (Elt F) ℓ) (c : Dev nD) :
    final m c (Proc.devRef .tc main_v69) = (Host.scatterAdd scatter_S3000x128_S150000x1_S150000x128_1_0_0_1 (final m c (Proc.devRef .tc main_v67)) (final m c (Proc.devRef .tc main_v68)) (final m c (Proc.devRef .tc main_v66)) : (⟨S3000x128, .f32⟩ : BufTy).Contents (Elt F)) := by
  have h := Sage.after_ternary (c := main_v67) (a := main_v68) (b := main_v66) (y := main_v69) (ops_Writes (F := F)) 84 (launchContents m c) (by rfl) (by decide +kernel) (by decide +kernel) (by decide +kernel) (by decide +kernel)
  unfold final
  generalize after ops (launchContents m c) = G at h ⊢
  exact h
theorem final_main_cst_13 (m : (ℓ : Loc nD τ sig) → Buf (Elt F) ℓ) (c : Dev nD) :
    final m c (Proc.devRef .tc main_cst_13) = (constant S_ .f32 0x3F800000#32) := by
  have h := Sage.after_nullary (y := main_cst_13) (ops_Writes (F := F)) 85 (launchContents m c) (by rfl) (by decide +kernel)
  unfold final
  generalize after ops (launchContents m c) = G at h ⊢
  exact h
theorem final_main_v70 (m : (ℓ : Loc nD τ sig) → Buf (Elt F) ℓ) (c : Dev nD) :
    final m c (Proc.devRef .tc main_v70) = (broadcastInDim S150000x1 ![] bcast_S_S150000x1 : (⟨S_, .f32⟩ : BufTy).Contents (Elt F) → (⟨S150000x1, .f32⟩ : BufTy).Contents (Elt F)) (final m c (Proc.devRef .tc main_cst_13)) := by
  have h := Sage.after_unary (x := main_cst_13) (y := main_v70) (ops_Writes (F := F)) 86 (launchContents m c) (by rfl) (by decide +kernel) (by decide +kernel)
  unfold final
  generalize after ops (launchContents m c) = G at h ⊢
  exact h
theorem final_main_cst_14 (m : (ℓ : Loc nD τ sig) → Buf (Elt F) ℓ) (c : Dev nD) :
    final m c (Proc.devRef .tc main_cst_14) = (constant S_ .f32 0x00000000#32) := by
  have h := Sage.after_nullary (y := main_cst_14) (ops_Writes (F := F)) 87 (launchContents m c) (by rfl) (by decide +kernel)
  unfold final
  generalize after ops (launchContents m c) = G at h ⊢
  exact h
theorem final_main_v71 (m : (ℓ : Loc nD τ sig) → Buf (Elt F) ℓ) (c : Dev nD) :
    final m c (Proc.devRef .tc main_v71) = (broadcastInDim S3000x1 ![] bcast_S_S3000x1 : (⟨S_, .f32⟩ : BufTy).Contents (Elt F) → (⟨S3000x1, .f32⟩ : BufTy).Contents (Elt F)) (final m c (Proc.devRef .tc main_cst_14)) := by
  have h := Sage.after_unary (x := main_cst_14) (y := main_v71) (ops_Writes (F := F)) 88 (launchContents m c) (by rfl) (by decide +kernel) (by decide +kernel)
  unfold final
  generalize after ops (launchContents m c) = G at h ⊢
  exact h
theorem final_main_v72 (m : (ℓ : Loc nD τ sig) → Buf (Elt F) ℓ) (c : Dev nD) :
    final m c (Proc.devRef .tc main_v72) = (broadcastInDim S150000x1 ![0] bcast_S150000_S150000x1_0 : (⟨S150000, .i32⟩ : BufTy).Contents (Elt F) → (⟨S150000x1, .i32⟩ : BufTy).Contents (Elt F)) (final m c (Proc.devRef .tc main_arg19)) := by
  have h := Sage.after_unary (x := main_arg19) (y := main_v72) (ops_Writes (F := F)) 89 (launchContents m c) (by rfl) (by decide +kernel) (by decide +kernel)
  unfold final
  generalize after ops (launchContents m c) = G at h ⊢
  exact h
theorem final_main_v73 (m : (ℓ : Loc nD τ sig) → Buf (Elt F) ℓ) (c : Dev nD) :
    final m c (Proc.devRef .tc main_v73) = (Host.scatterAdd scatter_S3000x1_S150000x1_S150000x1_1_0_0_1 (final m c (Proc.devRef .tc main_v71)) (final m c (Proc.devRef .tc main_v72)) (final m c (Proc.devRef .tc main_v70)) : (⟨S3000x1, .f32⟩ : BufTy).Contents (Elt F)) := by
  have h := Sage.after_ternary (c := main_v71) (a := main_v72) (b := main_v70) (y := main_v73) (ops_Writes (F := F)) 90 (launchContents m c) (by rfl) (by decide +kernel) (by decide +kernel) (by decide +kernel) (by decide +kernel)
  unfold final
  generalize after ops (launchContents m c) = G at h ⊢
  exact h
theorem final_main_cst_15 (m : (ℓ : Loc nD τ sig) → Buf (Elt F) ℓ) (c : Dev nD) :
    final m c (Proc.devRef .tc main_cst_15) = (constant S_ .f32 0x3F800000#32) := by
  have h := Sage.after_nullary (y := main_cst_15) (ops_Writes (F := F)) 91 (launchContents m c) (by rfl) (by decide +kernel)
  unfold final
  generalize after ops (launchContents m c) = G at h ⊢
  exact h
theorem final_main_v74 (m : (ℓ : Loc nD τ sig) → Buf (Elt F) ℓ) (c : Dev nD) :
    final m c (Proc.devRef .tc main_v74) = (broadcastInDim S3000x1 ![] bcast_S_S3000x1 : (⟨S_, .f32⟩ : BufTy).Contents (Elt F) → (⟨S3000x1, .f32⟩ : BufTy).Contents (Elt F)) (final m c (Proc.devRef .tc main_cst_15)) := by
  have h := Sage.after_unary (x := main_cst_15) (y := main_v74) (ops_Writes (F := F)) 92 (launchContents m c) (by rfl) (by decide +kernel) (by decide +kernel)
  unfold final
  generalize after ops (launchContents m c) = G at h ⊢
  exact h
theorem final_main_v75 (m : (ℓ : Loc nD τ sig) → Buf (Elt F) ℓ) (c : Dev nD) :
    final m c (Proc.devRef .tc main_v75) = (maximumf : (⟨S3000x1, .f32⟩ : BufTy).Contents (Elt F) → (⟨S3000x1, .f32⟩ : BufTy).Contents (Elt F) → (⟨S3000x1, .f32⟩ : BufTy).Contents (Elt F)) (final m c (Proc.devRef .tc main_v73)) (final m c (Proc.devRef .tc main_v74)) := by
  have h := Sage.after_binary (a := main_v73) (b := main_v74) (y := main_v75) (ops_Writes (F := F)) 93 (launchContents m c) (by rfl) (by decide +kernel) (by decide +kernel) (by decide +kernel)
  unfold final
  generalize after ops (launchContents m c) = G at h ⊢
  exact h
theorem final_main_v76 (m : (ℓ : Loc nD τ sig) → Buf (Elt F) ℓ) (c : Dev nD) :
    final m c (Proc.devRef .tc main_v76) = (broadcastInDim S3000x128 ![0, 1] bcast_S3000x1_S3000x128_0_1 : (⟨S3000x1, .f32⟩ : BufTy).Contents (Elt F) → (⟨S3000x128, .f32⟩ : BufTy).Contents (Elt F)) (final m c (Proc.devRef .tc main_v75)) := by
  have h := Sage.after_unary (x := main_v75) (y := main_v76) (ops_Writes (F := F)) 94 (launchContents m c) (by rfl) (by decide +kernel) (by decide +kernel)
  unfold final
  generalize after ops (launchContents m c) = G at h ⊢
  exact h
theorem final_main_v77 (m : (ℓ : Loc nD τ sig) → Buf (Elt F) ℓ) (c : Dev nD) :
    final m c (Proc.devRef .tc main_v77) = (Host.divf : (⟨S3000x128, .f32⟩ : BufTy).Contents (Elt F) → (⟨S3000x128, .f32⟩ : BufTy).Contents (Elt F) → (⟨S3000x128, .f32⟩ : BufTy).Contents (Elt F)) (final m c (Proc.devRef .tc main_v69)) (final m c (Proc.devRef .tc main_v76)) := by
  have h := Sage.after_binary (a := main_v69) (b := main_v76) (y := main_v77) (ops_Writes (F := F)) 95 (launchContents m c) (by rfl) (by decide +kernel) (by decide +kernel) (by decide +kernel)
  unfold final
  generalize after ops (launchContents m c) = G at h ⊢
  exact h
theorem final_main_v78 (m : (ℓ : Loc nD τ sig) → Buf (Elt F) ℓ) (c : Dev nD) :
    final m c (Proc.devRef .tc main_v78) = (extractStridedSlice S1x128x256 ![2, 0, 0] (final m c (Proc.devRef .tc main_arg4)) slices_S7x128x256_S1x128x256_2_0_0 : (⟨S1x128x256, .f32⟩ : BufTy).Contents (Elt F)) := by
  have h := Sage.after_unary (x := main_arg4) (y := main_v78) (ops_Writes (F := F)) 96 (launchContents m c) (by rfl) (by decide +kernel) (by decide +kernel)
  unfold final
  generalize after ops (launchContents m c) = G at h ⊢
  exact h
theorem final_main_v79 (m : (ℓ : Loc nD τ sig) → Buf (Elt F) ℓ) (c : Dev nD) :
    final m c (Proc.devRef .tc main_v79) = shapeCast S128x256 (final m c (Proc.devRef .tc main_v78)) shapeCasts_S1x128x256_S128x256 := by
  have h := Sage.after_reshape (x := main_v78) (y := main_v79) (ops_Writes (F := F)) 97 (launchContents m c) (by rfl) (by decide +kernel) (by decide +kernel)
  unfold final
  generalize after ops (launchContents m c) = G at h ⊢
  exact h
theorem final_main_v80 (m : (ℓ : Loc nD τ sig) → Buf (Elt F) ℓ) (c : Dev nD) :
    final m c (Proc.devRef .tc main_v80) = (Host.dotGeneral dot_S3000x128_S128x256_S3000x256_1_0_0_1_n_n none (final m c (Proc.devRef .tc main_v77)) (final m c (Proc.devRef .tc main_v79)) : (⟨S3000x256, .f32⟩ : BufTy).Contents (Elt F)) := by
  have h := Sage.after_binary (a := main_v77) (b := main_v79) (y := main_v80) (ops_Writes (F := F)) 98 (launchContents m c) (by rfl) (by decide +kernel) (by decide +kernel) (by decide +kernel)
  unfold final
  generalize after ops (launchContents m c) = G at h ⊢
  exact h
theorem final_main_v81 (m : (ℓ : Loc nD τ sig) → Buf (Elt F) ℓ) (c : Dev nD) :
    final m c (Proc.devRef .tc main_v81) = (extractStridedSlice S1x256 ![2, 0] (final m c (Proc.devRef .tc main_arg6)) slices_S7x256_S1x256_2_0 : (⟨S1x256, .f32⟩ : BufTy).Contents (Elt F)) := by
  have h := Sage.after_unary (x := main_arg6) (y := main_v81) (ops_Writes (F := F)) 99 (launchContents m c) (by rfl) (by decide +kernel) (by decide +kernel)
  unfold final
  generalize after ops (launchContents m c) = G at h ⊢
  exact h
theorem final_main_v82 (m : (ℓ : Loc nD τ sig) → Buf (Elt F) ℓ) (c : Dev nD) :
    final m c (Proc.devRef .tc main_v82) = shapeCast S256 (final m c (Proc.devRef .tc main_v81)) shapeCasts_S1x256_S256 := by
  have h := Sage.after_reshape (x := main_v81) (y := main_v82) (ops_Writes (F := F)) 100 (launchContents m c) (by rfl) (by decide +kernel) (by decide +kernel)
  unfold final
  generalize after ops (launchContents m c) = G at h ⊢
  exact h
theorem final_main_v83 (m : (ℓ : Loc nD τ sig) → Buf (Elt F) ℓ) (c : Dev nD) :
    final m c (Proc.devRef .tc main_v83) = (broadcastInDim S1x256 ![1] bcast_S256_S1x256_1 : (⟨S256, .f32⟩ : BufTy).Contents (Elt F) → (⟨S1x256, .f32⟩ : BufTy).Contents (Elt F)) (final m c (Proc.devRef .tc main_v82)) := by
  have h := Sage.after_unary (x := main_v82) (y := main_v83) (ops_Writes (F := F)) 101 (launchContents m c) (by rfl) (by decide +kernel) (by decide +kernel)
  unfold final
  generalize after ops (launchContents m c) = G at h ⊢
  exact h
theorem final_main_v84 (m : (ℓ : Loc nD τ sig) → Buf (Elt F) ℓ) (c : Dev nD) :
    final m c (Proc.devRef .tc main_v84) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v83)) := by
  have h := Sage.after_unary (x := main_v83) (y := main_v84) (ops_Writes (F := F)) 102 (launchContents m c) (by rfl) (by decide +kernel) (by decide +kernel)
  unfold final
  generalize after ops (launchContents m c) = G at h ⊢
  exact h
theorem final_main_v85 (m : (ℓ : Loc nD τ sig) → Buf (Elt F) ℓ) (c : Dev nD) :
    final m c (Proc.devRef .tc main_v85) = (addf : (⟨S3000x256, .f32⟩ : BufTy).Contents (Elt F) → (⟨S3000x256, .f32⟩ : BufTy).Contents (Elt F) → (⟨S3000x256, .f32⟩ : BufTy).Contents (Elt F)) (final m c (Proc.devRef .tc main_v80)) (final m c (Proc.devRef .tc main_v84)) := by
  have h := Sage.after_binary (a := main_v80) (b := main_v84) (y := main_v85) (ops_Writes (F := F)) 103 (launchContents m c) (by rfl) (by decide +kernel) (by decide +kernel) (by decide +kernel)
  unfold final
  generalize after ops (launchContents m c) = G at h ⊢
  exact h
theorem final_main_v86 (m : (ℓ : Loc nD τ sig) → Buf (Elt F) ℓ) (c : Dev nD) :
    final m c (Proc.devRef .tc main_v86) = (extractStridedSlice S1x128x256 ![2, 0, 0] (final m c (Proc.devRef .tc main_arg5)) slices_S7x128x256_S1x128x256_2_0_0 : (⟨S1x128x256, .f32⟩ : BufTy).Contents (Elt F)) := by
  have h := Sage.after_unary (x := main_arg5) (y := main_v86) (ops_Writes (F := F)) 104 (launchContents m c) (by rfl) (by decide +kernel) (by decide +kernel)
  unfold final
  generalize after ops (launchContents m c) = G at h ⊢
  exact h
theorem final_main_v87 (m : (ℓ : Loc nD τ sig) → Buf (Elt F) ℓ) (c : Dev nD) :
    final m c (Proc.devRef .tc main_v87) = shapeCast S128x256 (final m c (Proc.devRef .tc main_v86)) shapeCasts_S1x128x256_S128x256 := by
  have h := Sage.after_reshape (x := main_v86) (y := main_v87) (ops_Writes (F := F)) 105 (launchContents m c) (by rfl) (by decide +kernel) (by decide +kernel)
  unfold final
  generalize after ops (launchContents m c) = G at h ⊢
  exact h
theorem final_main_v88 (m : (ℓ : Loc nD τ sig) → Buf (Elt F) ℓ) (c : Dev nD) :
    final m c (Proc.devRef .tc main_v88) = (Host.dotGeneral dot_S3000x128_S128x256_S3000x256_1_0_0_1_n_n none (final m c (Proc.devRef .tc main_arg3)) (final m c (Proc.devRef .tc main_v87)) : (⟨S3000x256, .f32⟩ : BufTy).Contents (Elt F)) := by
  have h := Sage.after_binary (a := main_arg3) (b := main_v87) (y := main_v88) (ops_Writes (F := F)) 106 (launchContents m c) (by rfl) (by decide +kernel) (by decide +kernel) (by decide +kernel)
  unfold final
  generalize after ops (launchContents m c) = G at h ⊢
  exact h
theorem final_main_v89 (m : (ℓ : Loc nD τ sig) → Buf (Elt F) ℓ) (c : Dev nD) :
    final m c (Proc.devRef .tc main_v89) = (addf : (⟨S3000x256, .f32⟩ : BufTy).Contents (Elt F) → (⟨S3000x256, .f32⟩ : BufTy).Contents (Elt F) → (⟨S3000x256, .f32⟩ : BufTy).Contents (Elt F)) (final m c (Proc.devRef .tc main_v85)) (final m c (Proc.devRef .tc main_v88)) := by
  have h := Sage.after_binary (a := main_v85) (b := main_v88) (y := main_v89) (ops_Writes (F := F)) 107 (launchContents m c) (by rfl) (by decide +kernel) (by decide +kernel) (by decide +kernel)
  unfold final
  generalize after ops (launchContents m c) = G at h ⊢
  exact h
theorem final_main_c_16 (m : (ℓ : Loc nD τ sig) → Buf (Elt F) ℓ) (c : Dev nD) :
    final m c (Proc.devRef .tc main_c_16) = (constantI S_ 32 0#32) := by
  have h := Sage.after_nullary (y := main_c_16) (ops_Writes (F := F)) 108 (launchContents m c) (by rfl) (by decide +kernel)
  unfold final
  generalize after ops (launchContents m c) = G at h ⊢
  exact h
theorem final_main_v90 (m : (ℓ : Loc nD τ sig) → Buf (Elt F) ℓ) (c : Dev nD) :
    final m c (Proc.devRef .tc main_v90) = (broadcastInDim S400000 ![] bcast_S_S400000 : (⟨S_, .i32⟩ : BufTy).Contents (Elt F) → (⟨S400000, .i32⟩ : BufTy).Contents (Elt F)) (final m c (Proc.devRef .tc main_c_16)) := by
  have h := Sage.after_unary (x := main_c_16) (y := main_v90) (ops_Writes (F := F)) 109 (launchContents m c) (by rfl) (by decide +kernel) (by decide +kernel)
  unfold final
  generalize after ops (launchContents m c) = G at h ⊢
  exact h
theorem final_main_v91 (m : (ℓ : Loc nD τ sig) → Buf (Elt F) ℓ) (c : Dev nD) :
    final m c (Proc.devRef .tc main_v91) = (cmpi .slt : (⟨S400000, .i32⟩ : BufTy).Contents (Elt F) → (⟨S400000, .i32⟩ : BufTy).Contents (Elt F) → (⟨S400000, .i1⟩ : BufTy).Contents (Elt F)) (final m c (Proc.devRef .tc main_arg20)) (final m c (Proc.devRef .tc main_v90)) := by
  have h := Sage.after_binary (a := main_arg20) (b := main_v90) (y := main_v91) (ops_Writes (F := F)) 110 (launchContents m c) (by rfl) (by decide +kernel) (by decide +kernel) (by decide +kernel)
  unfold final
  generalize after ops (launchContents m c) = G at h ⊢
  exact h
theorem final_main_c_17 (m : (ℓ : Loc nD τ sig) → Buf (Elt F) ℓ) (c : Dev nD) :
    final m c (Proc.devRef .tc main_c_17) = (constantI S_ 32 50000#32) := by
  have h := Sage.after_nullary (y := main_c_17) (ops_Writes (F := F)) 111 (launchContents m c) (by rfl) (by decide +kernel)
  unfold final
  generalize after ops (launchContents m c) = G at h ⊢
  exact h
theorem final_main_v92 (m : (ℓ : Loc nD τ sig) → Buf (Elt F) ℓ) (c : Dev nD) :
    final m c (Proc.devRef .tc main_v92) = (broadcastInDim S400000 ![] bcast_S_S400000 : (⟨S_, .i32⟩ : BufTy).Contents (Elt F) → (⟨S400000, .i32⟩ : BufTy).Contents (Elt F)) (final m c (Proc.devRef .tc main_c_17)) := by
  have h := Sage.after_unary (x := main_c_17) (y := main_v92) (ops_Writes (F := F)) 112 (launchContents m c) (by rfl) (by decide +kernel) (by decide +kernel)
  unfold final
  generalize after ops (launchContents m c) = G at h ⊢
  exact h
theorem final_main_v93 (m : (ℓ : Loc nD τ sig) → Buf (Elt F) ℓ) (c : Dev nD) :
    final m c (Proc.devRef .tc main_v93) = (addi : (⟨S400000, .i32⟩ : BufTy).Contents (Elt F) → (⟨S400000, .i32⟩ : BufTy).Contents (Elt F) → (⟨S400000, .i32⟩ : BufTy).Contents (Elt F)) (final m c (Proc.devRef .tc main_arg20)) (final m c (Proc.devRef .tc main_v92)) := by
  have h := Sage.after_binary (a := main_arg20) (b := main_v92) (y := main_v93) (ops_Writes (F := F)) 113 (launchContents m c) (by rfl) (by decide +kernel) (by decide +kernel) (by decide +kernel)
  unfold final
  generalize after ops (launchContents m c) = G at h ⊢
  exact h
theorem final_main_v94 (m : (ℓ : Loc nD τ sig) → Buf (Elt F) ℓ) (c : Dev nD) :
    final m c (Proc.devRef .tc main_v94) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (final m c (Proc.devRef .tc main_v91)) (final m c (Proc.devRef .tc main_v93)) (final m c (Proc.devRef .tc main_arg20)) := by
  have h := Sage.after_ternary (c := main_v91) (a := main_v93) (b := main_arg20) (y := main_v94) (ops_Writes (F := F)) 114 (launchContents m c) (by rfl) (by decide +kernel) (by decide +kernel) (by decide +kernel) (by decide +kernel)
  unfold final
  generalize after ops (launchContents m c) = G at h ⊢
  exact h
theorem final_main_v95 (m : (ℓ : Loc nD τ sig) → Buf (Elt F) ℓ) (c : Dev nD) :
    final m c (Proc.devRef .tc main_v95) = (broadcastInDim S400000x1 ![0] bcast_S400000_S400000x1_0 : (⟨S400000, .i32⟩ : BufTy).Contents (Elt F) → (⟨S400000x1, .i32⟩ : BufTy).Contents (Elt F)) (final m c (Proc.devRef .tc main_v94)) := by
  have h := Sage.after_unary (x := main_v94) (y := main_v95) (ops_Writes (F := F)) 115 (launchContents m c) (by rfl) (by decide +kernel) (by decide +kernel)
  unfold final
  generalize after ops (launchContents m c) = G at h ⊢
  exact h
theorem final_main_v96 (m : (ℓ : Loc nD τ sig) → Buf (Elt F) ℓ) (c : Dev nD) :
    final m c (Proc.devRef .tc main_v96) = (Host.gather gather_S50000x128_S400000x1_S400000x128_1_0_n_n_0_1_1128 (final m c (Proc.devRef .tc main_arg1)) (final m c (Proc.devRef .tc main_v95)) : (⟨S400000x128, .f32⟩ : BufTy).Contents (Elt F)) := by
  have h := Sage.after_binary (a := main_arg1) (b := main_v95) (y := main_v96) (ops_Writes (F := F)) 116 (launchContents m c) (by rfl) (by decide +kernel) (by decide +kernel) (by decide +kernel)
  unfold final
  generalize after ops (launchContents m c) = G at h ⊢
  exact h
theorem final_main_cst_18 (m : (ℓ : Loc nD τ sig) → Buf (Elt F) ℓ) (c : Dev nD) :
    final m c (Proc.devRef .tc main_cst_18) = (constant S_ .f32 0x00000000#32) := by
  have h := Sage.after_nullary (y := main_cst_18) (ops_Writes (F := F)) 117 (launchContents m c) (by rfl) (by decide +kernel)
  unfold final
  generalize after ops (launchContents m c) = G at h ⊢
  exact h
theorem final_main_v97 (m : (ℓ : Loc nD τ sig) → Buf (Elt F) ℓ) (c : Dev nD) :
    final m c (Proc.devRef .tc main_v97) = (broadcastInDim S10000x128 ![] bcast_S_S10000x128 : (⟨S_, .f32⟩ : BufTy).Contents (Elt F) → (⟨S10000x128, .f32⟩ : BufTy).Contents (Elt F)) (final m c (Proc.devRef .tc main_cst_18)) := by
  have h := Sage.after_unary (x := main_cst_18) (y := main_v97) (ops_Writes (F := F)) 118 (launchContents m c) (by rfl) (by decide +kernel) (by decide +kernel)
  unfold final
  generalize after ops (launchContents m c) = G at h ⊢
  exact h
theorem final_main_v98 (m : (ℓ : Loc nD τ sig) → Buf (Elt F) ℓ) (c : Dev nD) :
    final m c (Proc.devRef .tc main_v98) = (broadcastInDim S400000x1 ![0] bcast_S400000_S400000x1_0 : (⟨S400000, .i32⟩ : BufTy).Contents (Elt F) → (⟨S400000x1, .i32⟩ : BufTy).Contents (Elt F)) (final m c (Proc.devRef .tc main_arg21)) := by
  have h := Sage.after_unary (x := main_arg21) (y := main_v98) (ops_Writes (F := F)) 119 (launchContents m c) (by rfl) (by decide +kernel) (by decide +kernel)
  unfold final
  generalize after ops (launchContents m c) = G at h ⊢
  exact h

end Cert.ReferenceIdeal.Hand

end
-- ==== Proof.Ref.Final2.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 2 (operations 121 … 180 of 886): what each result buffer holds when @main has run, one operation back. -/

theorem final_main_v99 (m : (ℓ : Loc nD τ sig) → Buf (Elt F) ℓ) (c : Dev nD) :
    final m c (Proc.devRef .tc main_v99) = (Host.scatterAdd scatter_S10000x128_S400000x1_S400000x128_1_0_0_1 (final m c (Proc.devRef .tc main_v97)) (final m c (Proc.devRef .tc main_v98)) (final m c (Proc.devRef .tc main_v96)) : (⟨S10000x128, .f32⟩ : BufTy).Contents (Elt F)) := by
  have h := Sage.after_ternary (c := main_v97) (a := main_v98) (b := main_v96) (y := main_v99) (ops_Writes (F := F)) 120 (launchContents m c) (by rfl) (by decide +kernel) (by decide +kernel) (by decide +kernel) (by decide +kernel)
  unfold final
  generalize after ops (launchContents m c) = G at h ⊢
  exact h
theorem final_main_cst_19 (m : (ℓ : Loc nD τ sig) → Buf (Elt F) ℓ) (c : Dev nD) :
    final m c (Proc.devRef .tc main_cst_19) = (constant S_ .f32 0x3F800000#32) := by
  have h := Sage.after_nullary (y := main_cst_19) (ops_Writes (F := F)) 121 (launchContents m c) (by rfl) (by decide +kernel)
  unfold final
  generalize after ops (launchContents m c) = G at h ⊢
  exact h
theorem final_main_v100 (m : (ℓ : Loc nD τ sig) → Buf (Elt F) ℓ) (c : Dev nD) :
    final m c (Proc.devRef .tc main_v100) = (broadcastInDim S400000x1 ![] bcast_S_S400000x1 : (⟨S_, .f32⟩ : BufTy).Contents (Elt F) → (⟨S400000x1, .f32⟩ : BufTy).Contents (Elt F)) (final m c (Proc.devRef .tc main_cst_19)) := by
  have h := Sage.after_unary (x := main_cst_19) (y := main_v100) (ops_Writes (F := F)) 122 (launchContents m c) (by rfl) (by decide +kernel) (by decide +kernel)
  unfold final
  generalize after ops (launchContents m c) = G at h ⊢
  exact h
theorem final_main_cst_20 (m : (ℓ : Loc nD τ sig) → Buf (Elt F) ℓ) (c : Dev nD) :
    final m c (Proc.devRef .tc main_cst_20) = (constant S_ .f32 0x00000000#32) := by
  have h := Sage.after_nullary (y := main_cst_20) (ops_Writes (F := F)) 123 (launchContents m c) (by rfl) (by decide +kernel)
  unfold final
  generalize after ops (launchContents m c) = G at h ⊢
  exact h
theorem final_main_v101 (m : (ℓ : Loc nD τ sig) → Buf (Elt F) ℓ) (c : Dev nD) :
    final m c (Proc.devRef .tc main_v101) = (broadcastInDim S10000x1 ![] bcast_S_S10000x1 : (⟨S_, .f32⟩ : BufTy).Contents (Elt F) → (⟨S10000x1, .f32⟩ : BufTy).Contents (Elt F)) (final m c (Proc.devRef .tc main_cst_20)) := by
  have h := Sage.after_unary (x := main_cst_20) (y := main_v101) (ops_Writes (F := F)) 124 (launchContents m c) (by rfl) (by decide +kernel) (by decide +kernel)
  unfold final
  generalize after ops (launchContents m c) = G at h ⊢
  exact h
theorem final_main_v102 (m : (ℓ : Loc nD τ sig) → Buf (Elt F) ℓ) (c : Dev nD) :
    final m c (Proc.devRef .tc main_v102) = (broadcastInDim S400000x1 ![0] bcast_S400000_S400000x1_0 : (⟨S400000, .i32⟩ : BufTy).Contents (Elt F) → (⟨S400000x1, .i32⟩ : BufTy).Contents (Elt F)) (final m c (Proc.devRef .tc main_arg21)) := by
  have h := Sage.after_unary (x := main_arg21) (y := main_v102) (ops_Writes (F := F)) 125 (launchContents m c) (by rfl) (by decide +kernel) (by decide +kernel)
  unfold final
  generalize after ops (launchContents m c) = G at h ⊢
  exact h
theorem final_main_v103 (m : (ℓ : Loc nD τ sig) → Buf (Elt F) ℓ) (c : Dev nD) :
    final m c (Proc.devRef .tc main_v103) = (Host.scatterAdd scatter_S10000x1_S400000x1_S400000x1_1_0_0_1 (final m c (Proc.devRef .tc main_v101)) (final m c (Proc.devRef .tc main_v102)) (final m c (Proc.devRef .tc main_v100)) : (⟨S10000x1, .f32⟩ : BufTy).Contents (Elt F)) := by
  have h := Sage.after_ternary (c := main_v101) (a := main_v102) (b := main_v100) (y := main_v103) (ops_Writes (F := F)) 126 (launchContents m c) (by rfl) (by decide +kernel) (by decide +kernel) (by decide +kernel) (by decide +kernel)
  unfold final
  generalize after ops (launchContents m c) = G at h ⊢
  exact h
theorem final_main_cst_21 (m : (ℓ : Loc nD τ sig) → Buf (Elt F) ℓ) (c : Dev nD) :
    final m c (Proc.devRef .tc main_cst_21) = (constant S_ .f32 0x3F800000#32) := by
  have h := Sage.after_nullary (y := main_cst_21) (ops_Writes (F := F)) 127 (launchContents m c) (by rfl) (by decide +kernel)
  unfold final
  generalize after ops (launchContents m c) = G at h ⊢
  exact h
theorem final_main_v104 (m : (ℓ : Loc nD τ sig) → Buf (Elt F) ℓ) (c : Dev nD) :
    final m c (Proc.devRef .tc main_v104) = (broadcastInDim S10000x1 ![] bcast_S_S10000x1 : (⟨S_, .f32⟩ : BufTy).Contents (Elt F) → (⟨S10000x1, .f32⟩ : BufTy).Contents (Elt F)) (final m c (Proc.devRef .tc main_cst_21)) := by
  have h := Sage.after_unary (x := main_cst_21) (y := main_v104) (ops_Writes (F := F)) 128 (launchContents m c) (by rfl) (by decide +kernel) (by decide +kernel)
  unfold final
  generalize after ops (launchContents m c) = G at h ⊢
  exact h
theorem final_main_v105 (m : (ℓ : Loc nD τ sig) → Buf (Elt F) ℓ) (c : Dev nD) :
    final m c (Proc.devRef .tc main_v105) = (maximumf : (⟨S10000x1, .f32⟩ : BufTy).Contents (Elt F) → (⟨S10000x1, .f32⟩ : BufTy).Contents (Elt F) → (⟨S10000x1, .f32⟩ : BufTy).Contents (Elt F)) (final m c (Proc.devRef .tc main_v103)) (final m c (Proc.devRef .tc main_v104)) := by
  have h := Sage.after_binary (a := main_v103) (b := main_v104) (y := main_v105) (ops_Writes (F := F)) 129 (launchContents m c) (by rfl) (by decide +kernel) (by decide +kernel) (by decide +kernel)
  unfold final
  generalize after ops (launchContents m c) = G at h ⊢
  exact h
theorem final_main_v106 (m : (ℓ : Loc nD τ sig) → Buf (Elt F) ℓ) (c : Dev nD) :
    final m c (Proc.devRef .tc main_v106) = (broadcastInDim S10000x128 ![0, 1] bcast_S10000x1_S10000x128_0_1 : (⟨S10000x1, .f32⟩ : BufTy).Contents (Elt F) → (⟨S10000x128, .f32⟩ : BufTy).Contents (Elt F)) (final m c (Proc.devRef .tc main_v105)) := by
  have h := Sage.after_unary (x := main_v105) (y := main_v106) (ops_Writes (F := F)) 130 (launchContents m c) (by rfl) (by decide +kernel) (by decide +kernel)
  unfold final
  generalize after ops (launchContents m c) = G at h ⊢
  exact h
theorem final_main_v107 (m : (ℓ : Loc nD τ sig) → Buf (Elt F) ℓ) (c : Dev nD) :
    final m c (Proc.devRef .tc main_v107) = (Host.divf : (⟨S10000x128, .f32⟩ : BufTy).Contents (Elt F) → (⟨S10000x128, .f32⟩ : BufTy).Contents (Elt F) → (⟨S10000x128, .f32⟩ : BufTy).Contents (Elt F)) (final m c (Proc.devRef .tc main_v99)) (final m c (Proc.devRef .tc main_v106)) := by
  have h := Sage.after_binary (a := main_v99) (b := main_v106) (y := main_v107) (ops_Writes (F := F)) 131 (launchContents m c) (by rfl) (by decide +kernel) (by decide +kernel) (by decide +kernel)
  unfold final
  generalize after ops (launchContents m c) = G at h ⊢
  exact h
theorem final_main_v108 (m : (ℓ : Loc nD τ sig) → Buf (Elt F) ℓ) (c : Dev nD) :
    final m c (Proc.devRef .tc main_v108) = (extractStridedSlice S1x128x256 ![3, 0, 0] (final m c (Proc.devRef .tc main_arg4)) slices_S7x128x256_S1x128x256_3_0_0 : (⟨S1x128x256, .f32⟩ : BufTy).Contents (Elt F)) := by
  have h := Sage.after_unary (x := main_arg4) (y := main_v108) (ops_Writes (F := F)) 132 (launchContents m c) (by rfl) (by decide +kernel) (by decide +kernel)
  unfold final
  generalize after ops (launchContents m c) = G at h ⊢
  exact h
theorem final_main_v109 (m : (ℓ : Loc nD τ sig) → Buf (Elt F) ℓ) (c : Dev nD) :
    final m c (Proc.devRef .tc main_v109) = shapeCast S128x256 (final m c (Proc.devRef .tc main_v108)) shapeCasts_S1x128x256_S128x256 := by
  have h := Sage.after_reshape (x := main_v108) (y := main_v109) (ops_Writes (F := F)) 133 (launchContents m c) (by rfl) (by decide +kernel) (by decide +kernel)
  unfold final
  generalize after ops (launchContents m c) = G at h ⊢
  exact h
theorem final_main_v110 (m : (ℓ : Loc nD τ sig) → Buf (Elt F) ℓ) (c : Dev nD) :
    final m c (Proc.devRef .tc main_v110) = (Host.dotGeneral dot_S10000x128_S128x256_S10000x256_1_0_0_1_n_n none (final m c (Proc.devRef .tc main_v107)) (final m c (Proc.devRef .tc main_v109)) : (⟨S10000x256, .f32⟩ : BufTy).Contents (Elt F)) := by
  have h := Sage.after_binary (a := main_v107) (b := main_v109) (y := main_v110) (ops_Writes (F := F)) 134 (launchContents m c) (by rfl) (by decide +kernel) (by decide +kernel) (by decide +kernel)
  unfold final
  generalize after ops (launchContents m c) = G at h ⊢
  exact h
theorem final_main_v111 (m : (ℓ : Loc nD τ sig) → Buf (Elt F) ℓ) (c : Dev nD) :
    final m c (Proc.devRef .tc main_v111) = (extractStridedSlice S1x256 ![3, 0] (final m c (Proc.devRef .tc main_arg6)) slices_S7x256_S1x256_3_0 : (⟨S1x256, .f32⟩ : BufTy).Contents (Elt F)) := by
  have h := Sage.after_unary (x := main_arg6) (y := main_v111) (ops_Writes (F := F)) 135 (launchContents m c) (by rfl) (by decide +kernel) (by decide +kernel)
  unfold final
  generalize after ops (launchContents m c) = G at h ⊢
  exact h
theorem final_main_v112 (m : (ℓ : Loc nD τ sig) → Buf (Elt F) ℓ) (c : Dev nD) :
    final m c (Proc.devRef .tc main_v112) = shapeCast S256 (final m c (Proc.devRef .tc main_v111)) shapeCasts_S1x256_S256 := by
  have h := Sage.after_reshape (x := main_v111) (y := main_v112) (ops_Writes (F := F)) 136 (launchContents m c) (by rfl) (by decide +kernel) (by decide +kernel)
  unfold final
  generalize after ops (launchContents m c) = G at h ⊢
  exact h
theorem final_main_v113 (m : (ℓ : Loc nD τ sig) → Buf (Elt F) ℓ) (c : Dev nD) :
    final m c (Proc.devRef .tc main_v113) = (broadcastInDim S1x256 ![1] bcast_S256_S1x256_1 : (⟨S256, .f32⟩ : BufTy).Contents (Elt F) → (⟨S1x256, .f32⟩ : BufTy).Contents (Elt F)) (final m c (Proc.devRef .tc main_v112)) := by
  have h := Sage.after_unary (x := main_v112) (y := main_v113) (ops_Writes (F := F)) 137 (launchContents m c) (by rfl) (by decide +kernel) (by decide +kernel)
  unfold final
  generalize after ops (launchContents m c) = G at h ⊢
  exact h
theorem final_main_v114 (m : (ℓ : Loc nD τ sig) → Buf (Elt F) ℓ) (c : Dev nD) :
    final m c (Proc.devRef .tc main_v114) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v113)) := by
  have h := Sage.after_unary (x := main_v113) (y := main_v114) (ops_Writes (F := F)) 138 (launchContents m c) (by rfl) (by decide +kernel) (by decide +kernel)
  unfold final
  generalize after ops (launchContents m c) = G at h ⊢
  exact h
theorem final_main_v115 (m : (ℓ : Loc nD τ sig) → Buf (Elt F) ℓ) (c : Dev nD) :
    final m c (Proc.devRef .tc main_v115) = (addf : (⟨S10000x256, .f32⟩ : BufTy).Contents (Elt F) → (⟨S10000x256, .f32⟩ : BufTy).Contents (Elt F) → (⟨S10000x256, .f32⟩ : BufTy).Contents (Elt F)) (final m c (Proc.devRef .tc main_v110)) (final m c (Proc.devRef .tc main_v114)) := by
  have h := Sage.after_binary (a := main_v110) (b := main_v114) (y := main_v115) (ops_Writes (F := F)) 139 (launchContents m c) (by rfl) (by decide +kernel) (by decide +kernel) (by decide +kernel)
  unfold final
  generalize after ops (launchContents m c) = G at h ⊢
  exact h
theorem final_main_v116 (m : (ℓ : Loc nD τ sig) → Buf (Elt F) ℓ) (c : Dev nD) :
    final m c (Proc.devRef .tc main_v116) = (extractStridedSlice S1x128x256 ![3, 0, 0] (final m c (Proc.devRef .tc main_arg5)) slices_S7x128x256_S1x128x256_3_0_0 : (⟨S1x128x256, .f32⟩ : BufTy).Contents (Elt F)) := by
  have h := Sage.after_unary (x := main_arg5) (y := main_v116) (ops_Writes (F := F)) 140 (launchContents m c) (by rfl) (by decide +kernel) (by decide +kernel)
  unfold final
  generalize after ops (launchContents m c) = G at h ⊢
  exact h
theorem final_main_v117 (m : (ℓ : Loc nD τ sig) → Buf (Elt F) ℓ) (c : Dev nD) :
    final m c (Proc.devRef .tc main_v117) = shapeCast S128x256 (final m c (Proc.devRef .tc main_v116)) shapeCasts_S1x128x256_S128x256 := by
  have h := Sage.after_reshape (x := main_v116) (y := main_v117) (ops_Writes (F := F)) 141 (launchContents m c) (by rfl) (by decide +kernel) (by decide +kernel)
  unfold final
  generalize after ops (launchContents m c) = G at h ⊢
  exact h
theorem final_main_v118 (m : (ℓ : Loc nD τ sig) → Buf (Elt F) ℓ) (c : Dev nD) :
    final m c (Proc.devRef .tc main_v118) = (Host.dotGeneral dot_S10000x128_S128x256_S10000x256_1_0_0_1_n_n none (final m c (Proc.devRef .tc main_arg2)) (final m c (Proc.devRef .tc main_v117)) : (⟨S10000x256, .f32⟩ : BufTy).Contents (Elt F)) := by
  have h := Sage.after_binary (a := main_arg2) (b := main_v117) (y := main_v118) (ops_Writes (F := F)) 142 (launchContents m c) (by rfl) (by decide +kernel) (by decide +kernel) (by decide +kernel)
  unfold final
  generalize after ops (launchContents m c) = G at h ⊢
  exact h
theorem final_main_v119 (m : (ℓ : Loc nD τ sig) → Buf (Elt F) ℓ) (c : Dev nD) :
    final m c (Proc.devRef .tc main_v119) = (addf : (⟨S10000x256, .f32⟩ : BufTy).Contents (Elt F) → (⟨S10000x256, .f32⟩ : BufTy).Contents (Elt F) → (⟨S10000x256, .f32⟩ : BufTy).Contents (Elt F)) (final m c (Proc.devRef .tc main_v115)) (final m c (Proc.devRef .tc main_v118)) := by
  have h := Sage.after_binary (a := main_v115) (b := main_v118) (y := main_v119) (ops_Writes (F := F)) 143 (launchContents m c) (by rfl) (by decide +kernel) (by decide +kernel) (by decide +kernel)
  unfold final
  generalize after ops (launchContents m c) = G at h ⊢
  exact h
theorem final_main_v120 (m : (ℓ : Loc nD τ sig) → Buf (Elt F) ℓ) (c : Dev nD) :
    final m c (Proc.devRef .tc main_v120) = (addf : (⟨S10000x256, .f32⟩ : BufTy).Contents (Elt F) → (⟨S10000x256, .f32⟩ : BufTy).Contents (Elt F) → (⟨S10000x256, .f32⟩ : BufTy).Contents (Elt F)) (final m c (Proc.devRef .tc main_v29)) (final m c (Proc.devRef .tc main_v119)) := by
  have h := Sage.after_binary (a := main_v29) (b := main_v119) (y := main_v120) (ops_Writes (F := F)) 144 (launchContents m c) (by rfl) (by decide +kernel) (by decide +kernel) (by decide +kernel)
  unfold final
  generalize after ops (launchContents m c) = G at h ⊢
  exact h
theorem final_main_c_22 (m : (ℓ : Loc nD τ sig) → Buf (Elt F) ℓ) (c : Dev nD) :
    final m c (Proc.devRef .tc main_c_22) = (constantI S_ 32 0#32) := by
  have h := Sage.after_nullary (y := main_c_22) (ops_Writes (F := F)) 145 (launchContents m c) (by rfl) (by decide +kernel)
  unfold final
  generalize after ops (launchContents m c) = G at h ⊢
  exact h
theorem final_main_v121 (m : (ℓ : Loc nD τ sig) → Buf (Elt F) ℓ) (c : Dev nD) :
    final m c (Proc.devRef .tc main_v121) = (broadcastInDim S500000 ![] bcast_S_S500000 : (⟨S_, .i32⟩ : BufTy).Contents (Elt F) → (⟨S500000, .i32⟩ : BufTy).Contents (Elt F)) (final m c (Proc.devRef .tc main_c_22)) := by
  have h := Sage.after_unary (x := main_c_22) (y := main_v121) (ops_Writes (F := F)) 146 (launchContents m c) (by rfl) (by decide +kernel) (by decide +kernel)
  unfold final
  generalize after ops (launchContents m c) = G at h ⊢
  exact h
theorem final_main_v122 (m : (ℓ : Loc nD τ sig) → Buf (Elt F) ℓ) (c : Dev nD) :
    final m c (Proc.devRef .tc main_v122) = (cmpi .slt : (⟨S500000, .i32⟩ : BufTy).Contents (Elt F) → (⟨S500000, .i32⟩ : BufTy).Contents (Elt F) → (⟨S500000, .i1⟩ : BufTy).Contents (Elt F)) (final m c (Proc.devRef .tc main_arg22)) (final m c (Proc.devRef .tc main_v121)) := by
  have h := Sage.after_binary (a := main_arg22) (b := main_v121) (y := main_v122) (ops_Writes (F := F)) 147 (launchContents m c) (by rfl) (by decide +kernel) (by decide +kernel) (by decide +kernel)
  unfold final
  generalize after ops (launchContents m c) = G at h ⊢
  exact h
theorem final_main_c_23 (m : (ℓ : Loc nD τ sig) → Buf (Elt F) ℓ) (c : Dev nD) :
    final m c (Proc.devRef .tc main_c_23) = (constantI S_ 32 10000#32) := by
  have h := Sage.after_nullary (y := main_c_23) (ops_Writes (F := F)) 148 (launchContents m c) (by rfl) (by decide +kernel)
  unfold final
  generalize after ops (launchContents m c) = G at h ⊢
  exact h
theorem final_main_v123 (m : (ℓ : Loc nD τ sig) → Buf (Elt F) ℓ) (c : Dev nD) :
    final m c (Proc.devRef .tc main_v123) = (broadcastInDim S500000 ![] bcast_S_S500000 : (⟨S_, .i32⟩ : BufTy).Contents (Elt F) → (⟨S500000, .i32⟩ : BufTy).Contents (Elt F)) (final m c (Proc.devRef .tc main_c_23)) := by
  have h := Sage.after_unary (x := main_c_23) (y := main_v123) (ops_Writes (F := F)) 149 (launchContents m c) (by rfl) (by decide +kernel) (by decide +kernel)
  unfold final
  generalize after ops (launchContents m c) = G at h ⊢
  exact h
theorem final_main_v124 (m : (ℓ : Loc nD τ sig) → Buf (Elt F) ℓ) (c : Dev nD) :
    final m c (Proc.devRef .tc main_v124) = (addi : (⟨S500000, .i32⟩ : BufTy).Contents (Elt F) → (⟨S500000, .i32⟩ : BufTy).Contents (Elt F) → (⟨S500000, .i32⟩ : BufTy).Contents (Elt F)) (final m c (Proc.devRef .tc main_arg22)) (final m c (Proc.devRef .tc main_v123)) := by
  have h := Sage.after_binary (a := main_arg22) (b := main_v123) (y := main_v124) (ops_Writes (F := F)) 150 (launchContents m c) (by rfl) (by decide +kernel) (by decide +kernel) (by decide +kernel)
  unfold final
  generalize after ops (launchContents m c) = G at h ⊢
  exact h
theorem final_main_v125 (m : (ℓ : Loc nD τ sig) → Buf (Elt F) ℓ) (c : Dev nD) :
    final m c (Proc.devRef .tc main_v125) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (final m c (Proc.devRef .tc main_v122)) (final m c (Proc.devRef .tc main_v124)) (final m c (Proc.devRef .tc main_arg22)) := by
  have h := Sage.after_ternary (c := main_v122) (a := main_v124) (b := main_arg22) (y := main_v125) (ops_Writes (F := F)) 151 (launchContents m c) (by rfl) (by decide +kernel) (by decide +kernel) (by decide +kernel) (by decide +kernel)
  unfold final
  generalize after ops (launchContents m c) = G at h ⊢
  exact h
theorem final_main_v126 (m : (ℓ : Loc nD τ sig) → Buf (Elt F) ℓ) (c : Dev nD) :
    final m c (Proc.devRef .tc main_v126) = (broadcastInDim S500000x1 ![0] bcast_S500000_S500000x1_0 : (⟨S500000, .i32⟩ : BufTy).Contents (Elt F) → (⟨S500000x1, .i32⟩ : BufTy).Contents (Elt F)) (final m c (Proc.devRef .tc main_v125)) := by
  have h := Sage.after_unary (x := main_v125) (y := main_v126) (ops_Writes (F := F)) 152 (launchContents m c) (by rfl) (by decide +kernel) (by decide +kernel)
  unfold final
  generalize after ops (launchContents m c) = G at h ⊢
  exact h
theorem final_main_v127 (m : (ℓ : Loc nD τ sig) → Buf (Elt F) ℓ) (c : Dev nD) :
    final m c (Proc.devRef .tc main_v127) = (Host.gather gather_S10000x128_S500000x1_S500000x128_1_0_n_n_0_1_1128 (final m c (Proc.devRef .tc main_arg2)) (final m c (Proc.devRef .tc main_v126)) : (⟨S500000x128, .f32⟩ : BufTy).Contents (Elt F)) := by
  have h := Sage.after_binary (a := main_arg2) (b := main_v126) (y := main_v127) (ops_Writes (F := F)) 153 (launchContents m c) (by rfl) (by decide +kernel) (by decide +kernel) (by decide +kernel)
  unfold final
  generalize after ops (launchContents m c) = G at h ⊢
  exact h
theorem final_main_cst_24 (m : (ℓ : Loc nD τ sig) → Buf (Elt F) ℓ) (c : Dev nD) :
    final m c (Proc.devRef .tc main_cst_24) = (constant S_ .f32 0x00000000#32) := by
  have h := Sage.after_nullary (y := main_cst_24) (ops_Writes (F := F)) 154 (launchContents m c) (by rfl) (by decide +kernel)
  unfold final
  generalize after ops (launchContents m c) = G at h ⊢
  exact h
theorem final_main_v128 (m : (ℓ : Loc nD τ sig) → Buf (Elt F) ℓ) (c : Dev nD) :
    final m c (Proc.devRef .tc main_v128) = (broadcastInDim S20000x128 ![] bcast_S_S20000x128 : (⟨S_, .f32⟩ : BufTy).Contents (Elt F) → (⟨S20000x128, .f32⟩ : BufTy).Contents (Elt F)) (final m c (Proc.devRef .tc main_cst_24)) := by
  have h := Sage.after_unary (x := main_cst_24) (y := main_v128) (ops_Writes (F := F)) 155 (launchContents m c) (by rfl) (by decide +kernel) (by decide +kernel)
  unfold final
  generalize after ops (launchContents m c) = G at h ⊢
  exact h
theorem final_main_v129 (m : (ℓ : Loc nD τ sig) → Buf (Elt F) ℓ) (c : Dev nD) :
    final m c (Proc.devRef .tc main_v129) = (broadcastInDim S500000x1 ![0] bcast_S500000_S500000x1_0 : (⟨S500000, .i32⟩ : BufTy).Contents (Elt F) → (⟨S500000x1, .i32⟩ : BufTy).Contents (Elt F)) (final m c (Proc.devRef .tc main_arg23)) := by
  have h := Sage.after_unary (x := main_arg23) (y := main_v129) (ops_Writes (F := F)) 156 (launchContents m c) (by rfl) (by decide +kernel) (by decide +kernel)
  unfold final
  generalize after ops (launchContents m c) = G at h ⊢
  exact h
theorem final_main_v130 (m : (ℓ : Loc nD τ sig) → Buf (Elt F) ℓ) (c : Dev nD) :
    final m c (Proc.devRef .tc main_v130) = (Host.scatterAdd scatter_S20000x128_S500000x1_S500000x128_1_0_0_1 (final m c (Proc.devRef .tc main_v128)) (final m c (Proc.devRef .tc main_v129)) (final m c (Proc.devRef .tc main_v127)) : (⟨S20000x128, .f32⟩ : BufTy).Contents (Elt F)) := by
  have h := Sage.after_ternary (c := main_v128) (a := main_v129) (b := main_v127) (y := main_v130) (ops_Writes (F := F)) 157 (launchContents m c) (by rfl) (by decide +kernel) (by decide +kernel) (by decide +kernel) (by decide +kernel)
  unfold final
  generalize after ops (launchContents m c) = G at h ⊢
  exact h
theorem final_main_cst_25 (m : (ℓ : Loc nD τ sig) → Buf (Elt F) ℓ) (c : Dev nD) :
    final m c (Proc.devRef .tc main_cst_25) = (constant S_ .f32 0x3F800000#32) := by
  have h := Sage.after_nullary (y := main_cst_25) (ops_Writes (F := F)) 158 (launchContents m c) (by rfl) (by decide +kernel)
  unfold final
  generalize after ops (launchContents m c) = G at h ⊢
  exact h
theorem final_main_v131 (m : (ℓ : Loc nD τ sig) → Buf (Elt F) ℓ) (c : Dev nD) :
    final m c (Proc.devRef .tc main_v131) = (broadcastInDim S500000x1 ![] bcast_S_S500000x1 : (⟨S_, .f32⟩ : BufTy).Contents (Elt F) → (⟨S500000x1, .f32⟩ : BufTy).Contents (Elt F)) (final m c (Proc.devRef .tc main_cst_25)) := by
  have h := Sage.after_unary (x := main_cst_25) (y := main_v131) (ops_Writes (F := F)) 159 (launchContents m c) (by rfl) (by decide +kernel) (by decide +kernel)
  unfold final
  generalize after ops (launchContents m c) = G at h ⊢
  exact h
theorem final_main_cst_26 (m : (ℓ : Loc nD τ sig) → Buf (Elt F) ℓ) (c : Dev nD) :
    final m c (Proc.devRef .tc main_cst_26) = (constant S_ .f32 0x00000000#32) := by
  have h := Sage.after_nullary (y := main_cst_26) (ops_Writes (F := F)) 160 (launchContents m c) (by rfl) (by decide +kernel)
  unfold final
  generalize after ops (launchContents m c) = G at h ⊢
  exact h
theorem final_main_v132 (m : (ℓ : Loc nD τ sig) → Buf (Elt F) ℓ) (c : Dev nD) :
    final m c (Proc.devRef .tc main_v132) = (broadcastInDim S20000x1 ![] bcast_S_S20000x1 : (⟨S_, .f32⟩ : BufTy).Contents (Elt F) → (⟨S20000x1, .f32⟩ : BufTy).Contents (Elt F)) (final m c (Proc.devRef .tc main_cst_26)) := by
  have h := Sage.after_unary (x := main_cst_26) (y := main_v132) (ops_Writes (F := F)) 161 (launchContents m c) (by rfl) (by decide +kernel) (by decide +kernel)
  unfold final
  generalize after ops (launchContents m c) = G at h ⊢
  exact h
theorem final_main_v133 (m : (ℓ : Loc nD τ sig) → Buf (Elt F) ℓ) (c : Dev nD) :
    final m c (Proc.devRef .tc main_v133) = (broadcastInDim S500000x1 ![0] bcast_S500000_S500000x1_0 : (⟨S500000, .i32⟩ : BufTy).Contents (Elt F) → (⟨S500000x1, .i32⟩ : BufTy).Contents (Elt F)) (final m c (Proc.devRef .tc main_arg23)) := by
  have h := Sage.after_unary (x := main_arg23) (y := main_v133) (ops_Writes (F := F)) 162 (launchContents m c) (by rfl) (by decide +kernel) (by decide +kernel)
  unfold final
  generalize after ops (launchContents m c) = G at h ⊢
  exact h
theorem final_main_v134 (m : (ℓ : Loc nD τ sig) → Buf (Elt F) ℓ) (c : Dev nD) :
    final m c (Proc.devRef .tc main_v134) = (Host.scatterAdd scatter_S20000x1_S500000x1_S500000x1_1_0_0_1 (final m c (Proc.devRef .tc main_v132)) (final m c (Proc.devRef .tc main_v133)) (final m c (Proc.devRef .tc main_v131)) : (⟨S20000x1, .f32⟩ : BufTy).Contents (Elt F)) := by
  have h := Sage.after_ternary (c := main_v132) (a := main_v133) (b := main_v131) (y := main_v134) (ops_Writes (F := F)) 163 (launchContents m c) (by rfl) (by decide +kernel) (by decide +kernel) (by decide +kernel) (by decide +kernel)
  unfold final
  generalize after ops (launchContents m c) = G at h ⊢
  exact h
theorem final_main_cst_27 (m : (ℓ : Loc nD τ sig) → Buf (Elt F) ℓ) (c : Dev nD) :
    final m c (Proc.devRef .tc main_cst_27) = (constant S_ .f32 0x3F800000#32) := by
  have h := Sage.after_nullary (y := main_cst_27) (ops_Writes (F := F)) 164 (launchContents m c) (by rfl) (by decide +kernel)
  unfold final
  generalize after ops (launchContents m c) = G at h ⊢
  exact h
theorem final_main_v135 (m : (ℓ : Loc nD τ sig) → Buf (Elt F) ℓ) (c : Dev nD) :
    final m c (Proc.devRef .tc main_v135) = (broadcastInDim S20000x1 ![] bcast_S_S20000x1 : (⟨S_, .f32⟩ : BufTy).Contents (Elt F) → (⟨S20000x1, .f32⟩ : BufTy).Contents (Elt F)) (final m c (Proc.devRef .tc main_cst_27)) := by
  have h := Sage.after_unary (x := main_cst_27) (y := main_v135) (ops_Writes (F := F)) 165 (launchContents m c) (by rfl) (by decide +kernel) (by decide +kernel)
  unfold final
  generalize after ops (launchContents m c) = G at h ⊢
  exact h
theorem final_main_v136 (m : (ℓ : Loc nD τ sig) → Buf (Elt F) ℓ) (c : Dev nD) :
    final m c (Proc.devRef .tc main_v136) = (maximumf : (⟨S20000x1, .f32⟩ : BufTy).Contents (Elt F) → (⟨S20000x1, .f32⟩ : BufTy).Contents (Elt F) → (⟨S20000x1, .f32⟩ : BufTy).Contents (Elt F)) (final m c (Proc.devRef .tc main_v134)) (final m c (Proc.devRef .tc main_v135)) := by
  have h := Sage.after_binary (a := main_v134) (b := main_v135) (y := main_v136) (ops_Writes (F := F)) 166 (launchContents m c) (by rfl) (by decide +kernel) (by decide +kernel) (by decide +kernel)
  unfold final
  generalize after ops (launchContents m c) = G at h ⊢
  exact h
theorem final_main_v137 (m : (ℓ : Loc nD τ sig) → Buf (Elt F) ℓ) (c : Dev nD) :
    final m c (Proc.devRef .tc main_v137) = (broadcastInDim S20000x128 ![0, 1] bcast_S20000x1_S20000x128_0_1 : (⟨S20000x1, .f32⟩ : BufTy).Contents (Elt F) → (⟨S20000x128, .f32⟩ : BufTy).Contents (Elt F)) (final m c (Proc.devRef .tc main_v136)) := by
  have h := Sage.after_unary (x := main_v136) (y := main_v137) (ops_Writes (F := F)) 167 (launchContents m c) (by rfl) (by decide +kernel) (by decide +kernel)
  unfold final
  generalize after ops (launchContents m c) = G at h ⊢
  exact h
theorem final_main_v138 (m : (ℓ : Loc nD τ sig) → Buf (Elt F) ℓ) (c : Dev nD) :
    final m c (Proc.devRef .tc main_v138) = (Host.divf : (⟨S20000x128, .f32⟩ : BufTy).Contents (Elt F) → (⟨S20000x128, .f32⟩ : BufTy).Contents (Elt F) → (⟨S20000x128, .f32⟩ : BufTy).Contents (Elt F)) (final m c (Proc.devRef .tc main_v130)) (final m c (Proc.devRef .tc main_v137)) := by
  have h := Sage.after_binary (a := main_v130) (b := main_v137) (y := main_v138) (ops_Writes (F := F)) 168 (launchContents m c) (by rfl) (by decide +kernel) (by decide +kernel) (by decide +kernel)
  unfold final
  generalize after ops (launchContents m c) = G at h ⊢
  exact h
theorem final_main_v139 (m : (ℓ : Loc nD τ sig) → Buf (Elt F) ℓ) (c : Dev nD) :
    final m c (Proc.devRef .tc main_v139) = (extractStridedSlice S1x128x256 ![4, 0, 0] (final m c (Proc.devRef .tc main_arg4)) slices_S7x128x256_S1x128x256_4_0_0 : (⟨S1x128x256, .f32⟩ : BufTy).Contents (Elt F)) := by
  have h := Sage.after_unary (x := main_arg4) (y := main_v139) (ops_Writes (F := F)) 169 (launchContents m c) (by rfl) (by decide +kernel) (by decide +kernel)
  unfold final
  generalize after ops (launchContents m c) = G at h ⊢
  exact h
theorem final_main_v140 (m : (ℓ : Loc nD τ sig) → Buf (Elt F) ℓ) (c : Dev nD) :
    final m c (Proc.devRef .tc main_v140) = shapeCast S128x256 (final m c (Proc.devRef .tc main_v139)) shapeCasts_S1x128x256_S128x256 := by
  have h := Sage.after_reshape (x := main_v139) (y := main_v140) (ops_Writes (F := F)) 170 (launchContents m c) (by rfl) (by decide +kernel) (by decide +kernel)
  unfold final
  generalize after ops (launchContents m c) = G at h ⊢
  exact h
theorem final_main_v141 (m : (ℓ : Loc nD τ sig) → Buf (Elt F) ℓ) (c : Dev nD) :
    final m c (Proc.devRef .tc main_v141) = (Host.dotGeneral dot_S20000x128_S128x256_S20000x256_1_0_0_1_n_n none (final m c (Proc.devRef .tc main_v138)) (final m c (Proc.devRef .tc main_v140)) : (⟨S20000x256, .f32⟩ : BufTy).Contents (Elt F)) := by
  have h := Sage.after_binary (a := main_v138) (b := main_v140) (y := main_v141) (ops_Writes (F := F)) 171 (launchContents m c) (by rfl) (by decide +kernel) (by decide +kernel) (by decide +kernel)
  unfold final
  generalize after ops (launchContents m c) = G at h ⊢
  exact h
theorem final_main_v142 (m : (ℓ : Loc nD τ sig) → Buf (Elt F) ℓ) (c : Dev nD) :
    final m c (Proc.devRef .tc main_v142) = (extractStridedSlice S1x256 ![4, 0] (final m c (Proc.devRef .tc main_arg6)) slices_S7x256_S1x256_4_0 : (⟨S1x256, .f32⟩ : BufTy).Contents (Elt F)) := by
  have h := Sage.after_unary (x := main_arg6) (y := main_v142) (ops_Writes (F := F)) 172 (launchContents m c) (by rfl) (by decide +kernel) (by decide +kernel)
  unfold final
  generalize after ops (launchContents m c) = G at h ⊢
  exact h
theorem final_main_v143 (m : (ℓ : Loc nD τ sig) → Buf (Elt F) ℓ) (c : Dev nD) :
    final m c (Proc.devRef .tc main_v143) = shapeCast S256 (final m c (Proc.devRef .tc main_v142)) shapeCasts_S1x256_S256 := by
  have h := Sage.after_reshape (x := main_v142) (y := main_v143) (ops_Writes (F := F)) 173 (launchContents m c) (by rfl) (by decide +kernel) (by decide +kernel)
  unfold final
  generalize after ops (launchContents m c) = G at h ⊢
  exact h
theorem final_main_v144 (m : (ℓ : Loc nD τ sig) → Buf (Elt F) ℓ) (c : Dev nD) :
    final m c (Proc.devRef .tc main_v144) = (broadcastInDim S1x256 ![1] bcast_S256_S1x256_1 : (⟨S256, .f32⟩ : BufTy).Contents (Elt F) → (⟨S1x256, .f32⟩ : BufTy).Contents (Elt F)) (final m c (Proc.devRef .tc main_v143)) := by
  have h := Sage.after_unary (x := main_v143) (y := main_v144) (ops_Writes (F := F)) 174 (launchContents m c) (by rfl) (by decide +kernel) (by decide +kernel)
  unfold final
  generalize after ops (launchContents m c) = G at h ⊢
  exact h
theorem final_main_v145 (m : (ℓ : Loc nD τ sig) → Buf (Elt F) ℓ) (c : Dev nD) :
    final m c (Proc.devRef .tc main_v145) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v144)) := by
  have h := Sage.after_unary (x := main_v144) (y := main_v145) (ops_Writes (F := F)) 175 (launchContents m c) (by rfl) (by decide +kernel) (by decide +kernel)
  unfold final
  generalize after ops (launchContents m c) = G at h ⊢
  exact h
theorem final_main_v146 (m : (ℓ : Loc nD τ sig) → Buf (Elt F) ℓ) (c : Dev nD) :
    final m c (Proc.devRef .tc main_v146) = (addf : (⟨S20000x256, .f32⟩ : BufTy).Contents (Elt F) → (⟨S20000x256, .f32⟩ : BufTy).Contents (Elt F) → (⟨S20000x256, .f32⟩ : BufTy).Contents (Elt F)) (final m c (Proc.devRef .tc main_v141)) (final m c (Proc.devRef .tc main_v145)) := by
  have h := Sage.after_binary (a := main_v141) (b := main_v145) (y := main_v146) (ops_Writes (F := F)) 176 (launchContents m c) (by rfl) (by decide +kernel) (by decide +kernel) (by decide +kernel)
  unfold final
  generalize after ops (launchContents m c) = G at h ⊢
  exact h
theorem final_main_v147 (m : (ℓ : Loc nD τ sig) → Buf (Elt F) ℓ) (c : Dev nD) :
    final m c (Proc.devRef .tc main_v147) = (extractStridedSlice S1x128x256 ![4, 0, 0] (final m c (Proc.devRef .tc main_arg5)) slices_S7x128x256_S1x128x256_4_0_0 : (⟨S1x128x256, .f32⟩ : BufTy).Contents (Elt F)) := by
  have h := Sage.after_unary (x := main_arg5) (y := main_v147) (ops_Writes (F := F)) 177 (launchContents m c) (by rfl) (by decide +kernel) (by decide +kernel)
  unfold final
  generalize after ops (launchContents m c) = G at h ⊢
  exact h
theorem final_main_v148 (m : (ℓ : Loc nD τ sig) → Buf (Elt F) ℓ) (c : Dev nD) :
    final m c (Proc.devRef .tc main_v148) = shapeCast S128x256 (final m c (Proc.devRef .tc main_v147)) shapeCasts_S1x128x256_S128x256 := by
  have h := Sage.after_reshape (x := main_v147) (y := main_v148) (ops_Writes (F := F)) 178 (launchContents m c) (by rfl) (by decide +kernel) (by decide +kernel)
  unfold final
  generalize after ops (launchContents m c) = G at h ⊢
  exact h
theorem final_main_v149 (m : (ℓ : Loc nD τ sig) → Buf (Elt F) ℓ) (c : Dev nD) :
    final m c (Proc.devRef .tc main_v149) = (Host.dotGeneral dot_S20000x128_S128x256_S20000x256_1_0_0_1_n_n none (final m c (Proc.devRef .tc main_arg0)) (final m c (Proc.devRef .tc main_v148)) : (⟨S20000x256, .f32⟩ : BufTy).Contents (Elt F)) := by
  have h := Sage.after_binary (a := main_arg0) (b := main_v148) (y := main_v149) (ops_Writes (F := F)) 179 (launchContents m c) (by rfl) (by decide +kernel) (by decide +kernel) (by decide +kernel)
  unfold final
  generalize after ops (launchContents m c) = G at h ⊢
  exact h

end Cert.ReferenceIdeal.Hand

end
-- ==== Proof.Ref.Final3.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 3 (operations 181 … 240 of 886): what each result buffer holds when @main has run, one operation back. -/

theorem final_main_v150 (m : (ℓ : Loc nD τ sig) → Buf (Elt F) ℓ) (c : Dev nD) :
    final m c (Proc.devRef .tc main_v150) = (addf : (⟨S20000x256, .f32⟩ : BufTy).Contents (Elt F) → (⟨S20000x256, .f32⟩ : BufTy).Contents (Elt F) → (⟨S20000x256, .f32⟩ : BufTy).Contents (Elt F)) (final m c (Proc.devRef .tc main_v146)) (final m c (Proc.devRef .tc main_v149)) := by
  have h := Sage.after_binary (a := main_v146) (b := main_v149) (y := main_v150) (ops_Writes (F := F)) 180 (launchContents m c) (by rfl) (by decide +kernel) (by decide +kernel) (by decide +kernel)
  unfold final
  generalize after ops (launchContents m c) = G at h ⊢
  exact h
theorem final_main_c_28 (m : (ℓ : Loc nD τ sig) → Buf (Elt F) ℓ) (c : Dev nD) :
    final m c (Proc.devRef .tc main_c_28) = (constantI S_ 32 0#32) := by
  have h := Sage.after_nullary (y := main_c_28) (ops_Writes (F := F)) 181 (launchContents m c) (by rfl) (by decide +kernel)
  unfold final
  generalize after ops (launchContents m c) = G at h ⊢
  exact h
theorem final_main_v151 (m : (ℓ : Loc nD τ sig) → Buf (Elt F) ℓ) (c : Dev nD) :
    final m c (Proc.devRef .tc main_v151) = (broadcastInDim S400000 ![] bcast_S_S400000 : (⟨S_, .i32⟩ : BufTy).Contents (Elt F) → (⟨S400000, .i32⟩ : BufTy).Contents (Elt F)) (final m c (Proc.devRef .tc main_c_28)) := by
  have h := Sage.after_unary (x := main_c_28) (y := main_v151) (ops_Writes (F := F)) 182 (launchContents m c) (by rfl) (by decide +kernel) (by decide +kernel)
  unfold final
  generalize after ops (launchContents m c) = G at h ⊢
  exact h
theorem final_main_v152 (m : (ℓ : Loc nD τ sig) → Buf (Elt F) ℓ) (c : Dev nD) :
    final m c (Proc.devRef .tc main_v152) = (cmpi .slt : (⟨S400000, .i32⟩ : BufTy).Contents (Elt F) → (⟨S400000, .i32⟩ : BufTy).Contents (Elt F) → (⟨S400000, .i1⟩ : BufTy).Contents (Elt F)) (final m c (Proc.devRef .tc main_arg24)) (final m c (Proc.devRef .tc main_v151)) := by
  have h := Sage.after_binary (a := main_arg24) (b := main_v151) (y := main_v152) (ops_Writes (F := F)) 183 (launchContents m c) (by rfl) (by decide +kernel) (by decide +kernel) (by decide +kernel)
  unfold final
  generalize after ops (launchContents m c) = G at h ⊢
  exact h
theorem final_main_c_29 (m : (ℓ : Loc nD τ sig) → Buf (Elt F) ℓ) (c : Dev nD) :
    final m c (Proc.devRef .tc main_c_29) = (constantI S_ 32 50000#32) := by
  have h := Sage.after_nullary (y := main_c_29) (ops_Writes (F := F)) 184 (launchContents m c) (by rfl) (by decide +kernel)
  unfold final
  generalize after ops (launchContents m c) = G at h ⊢
  exact h
theorem final_main_v153 (m : (ℓ : Loc nD τ sig) → Buf (Elt F) ℓ) (c : Dev nD) :
    final m c (Proc.devRef .tc main_v153) = (broadcastInDim S400000 ![] bcast_S_S400000 : (⟨S_, .i32⟩ : BufTy).Contents (Elt F) → (⟨S400000, .i32⟩ : BufTy).Contents (Elt F)) (final m c (Proc.devRef .tc main_c_29)) := by
  have h := Sage.after_unary (x := main_c_29) (y := main_v153) (ops_Writes (F := F)) 185 (launchContents m c) (by rfl) (by decide +kernel) (by decide +kernel)
  unfold final
  generalize after ops (launchContents m c) = G at h ⊢
  exact h
theorem final_main_v154 (m : (ℓ : Loc nD τ sig) → Buf (Elt F) ℓ) (c : Dev nD) :
    final m c (Proc.devRef .tc main_v154) = (addi : (⟨S400000, .i32⟩ : BufTy).Contents (Elt F) → (⟨S400000, .i32⟩ : BufTy).Contents (Elt F) → (⟨S400000, .i32⟩ : BufTy).Contents (Elt F)) (final m c (Proc.devRef .tc main_arg24)) (final m c (Proc.devRef .tc main_v153)) := by
  have h := Sage.after_binary (a := main_arg24) (b := main_v153) (y := main_v154) (ops_Writes (F := F)) 186 (launchContents m c) (by rfl) (by decide +kernel) (by decide +kernel) (by decide +kernel)
  unfold final
  generalize after ops (launchContents m c) = G at h ⊢
  exact h
theorem final_main_v155 (m : (ℓ : Loc nD τ sig) → Buf (Elt F) ℓ) (c : Dev nD) :
    final m c (Proc.devRef .tc main_v155) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (final m c (Proc.devRef .tc main_v152)) (final m c (Proc.devRef .tc main_v154)) (final m c (Proc.devRef .tc main_arg24)) := by
  have h := Sage.after_ternary (c := main_v152) (a := main_v154) (b := main_arg24) (y := main_v155) (ops_Writes (F := F)) 187 (launchContents m c) (by rfl) (by decide +kernel) (by decide +kernel) (by decide +kernel) (by decide +kernel)
  unfold final
  generalize after ops (launchContents m c) = G at h ⊢
  exact h
theorem final_main_v156 (m : (ℓ : Loc nD τ sig) → Buf (Elt F) ℓ) (c : Dev nD) :
    final m c (Proc.devRef .tc main_v156) = (broadcastInDim S400000x1 ![0] bcast_S400000_S400000x1_0 : (⟨S400000, .i32⟩ : BufTy).Contents (Elt F) → (⟨S400000x1, .i32⟩ : BufTy).Contents (Elt F)) (final m c (Proc.devRef .tc main_v155)) := by
  have h := Sage.after_unary (x := main_v155) (y := main_v156) (ops_Writes (F := F)) 188 (launchContents m c) (by rfl) (by decide +kernel) (by decide +kernel)
  unfold final
  generalize after ops (launchContents m c) = G at h ⊢
  exact h
theorem final_main_v157 (m : (ℓ : Loc nD τ sig) → Buf (Elt F) ℓ) (c : Dev nD) :
    final m c (Proc.devRef .tc main_v157) = (Host.gather gather_S50000x128_S400000x1_S400000x128_1_0_n_n_0_1_1128 (final m c (Proc.devRef .tc main_arg1)) (final m c (Proc.devRef .tc main_v156)) : (⟨S400000x128, .f32⟩ : BufTy).Contents (Elt F)) := by
  have h := Sage.after_binary (a := main_arg1) (b := main_v156) (y := main_v157) (ops_Writes (F := F)) 189 (launchContents m c) (by rfl) (by decide +kernel) (by decide +kernel) (by decide +kernel)
  unfold final
  generalize after ops (launchContents m c) = G at h ⊢
  exact h
theorem final_main_cst_30 (m : (ℓ : Loc nD τ sig) → Buf (Elt F) ℓ) (c : Dev nD) :
    final m c (Proc.devRef .tc main_cst_30) = (constant S_ .f32 0x00000000#32) := by
  have h := Sage.after_nullary (y := main_cst_30) (ops_Writes (F := F)) 190 (launchContents m c) (by rfl) (by decide +kernel)
  unfold final
  generalize after ops (launchContents m c) = G at h ⊢
  exact h
theorem final_main_v158 (m : (ℓ : Loc nD τ sig) → Buf (Elt F) ℓ) (c : Dev nD) :
    final m c (Proc.devRef .tc main_v158) = (broadcastInDim S20000x128 ![] bcast_S_S20000x128 : (⟨S_, .f32⟩ : BufTy).Contents (Elt F) → (⟨S20000x128, .f32⟩ : BufTy).Contents (Elt F)) (final m c (Proc.devRef .tc main_cst_30)) := by
  have h := Sage.after_unary (x := main_cst_30) (y := main_v158) (ops_Writes (F := F)) 191 (launchContents m c) (by rfl) (by decide +kernel) (by decide +kernel)
  unfold final
  generalize after ops (launchContents m c) = G at h ⊢
  exact h
theorem final_main_v159 (m : (ℓ : Loc nD τ sig) → Buf (Elt F) ℓ) (c : Dev nD) :
    final m c (Proc.devRef .tc main_v159) = (broadcastInDim S400000x1 ![0] bcast_S400000_S400000x1_0 : (⟨S400000, .i32⟩ : BufTy).Contents (Elt F) → (⟨S400000x1, .i32⟩ : BufTy).Contents (Elt F)) (final m c (Proc.devRef .tc main_arg25)) := by
  have h := Sage.after_unary (x := main_arg25) (y := main_v159) (ops_Writes (F := F)) 192 (launchContents m c) (by rfl) (by decide +kernel) (by decide +kernel)
  unfold final
  generalize after ops (launchContents m c) = G at h ⊢
  exact h
theorem final_main_v160 (m : (ℓ : Loc nD τ sig) → Buf (Elt F) ℓ) (c : Dev nD) :
    final m c (Proc.devRef .tc main_v160) = (Host.scatterAdd scatter_S20000x128_S400000x1_S400000x128_1_0_0_1 (final m c (Proc.devRef .tc main_v158)) (final m c (Proc.devRef .tc main_v159)) (final m c (Proc.devRef .tc main_v157)) : (⟨S20000x128, .f32⟩ : BufTy).Contents (Elt F)) := by
  have h := Sage.after_ternary (c := main_v158) (a := main_v159) (b := main_v157) (y := main_v160) (ops_Writes (F := F)) 193 (launchContents m c) (by rfl) (by decide +kernel) (by decide +kernel) (by decide +kernel) (by decide +kernel)
  unfold final
  generalize after ops (launchContents m c) = G at h ⊢
  exact h
theorem final_main_cst_31 (m : (ℓ : Loc nD τ sig) → Buf (Elt F) ℓ) (c : Dev nD) :
    final m c (Proc.devRef .tc main_cst_31) = (constant S_ .f32 0x3F800000#32) := by
  have h := Sage.after_nullary (y := main_cst_31) (ops_Writes (F := F)) 194 (launchContents m c) (by rfl) (by decide +kernel)
  unfold final
  generalize after ops (launchContents m c) = G at h ⊢
  exact h
theorem final_main_v161 (m : (ℓ : Loc nD τ sig) → Buf (Elt F) ℓ) (c : Dev nD) :
    final m c (Proc.devRef .tc main_v161) = (broadcastInDim S400000x1 ![] bcast_S_S400000x1 : (⟨S_, .f32⟩ : BufTy).Contents (Elt F) → (⟨S400000x1, .f32⟩ : BufTy).Contents (Elt F)) (final m c (Proc.devRef .tc main_cst_31)) := by
  have h := Sage.after_unary (x := main_cst_31) (y := main_v161) (ops_Writes (F := F)) 195 (launchContents m c) (by rfl) (by decide +kernel) (by decide +kernel)
  unfold final
  generalize after ops (launchContents m c) = G at h ⊢
  exact h
theorem final_main_cst_32 (m : (ℓ : Loc nD τ sig) → Buf (Elt F) ℓ) (c : Dev nD) :
    final m c (Proc.devRef .tc main_cst_32) = (constant S_ .f32 0x00000000#32) := by
  have h := Sage.after_nullary (y := main_cst_32) (ops_Writes (F := F)) 196 (launchContents m c) (by rfl) (by decide +kernel)
  unfold final
  generalize after ops (launchContents m c) = G at h ⊢
  exact h
theorem final_main_v162 (m : (ℓ : Loc nD τ sig) → Buf (Elt F) ℓ) (c : Dev nD) :
    final m c (Proc.devRef .tc main_v162) = (broadcastInDim S20000x1 ![] bcast_S_S20000x1 : (⟨S_, .f32⟩ : BufTy).Contents (Elt F) → (⟨S20000x1, .f32⟩ : BufTy).Contents (Elt F)) (final m c (Proc.devRef .tc main_cst_32)) := by
  have h := Sage.after_unary (x := main_cst_32) (y := main_v162) (ops_Writes (F := F)) 197 (launchContents m c) (by rfl) (by decide +kernel) (by decide +kernel)
  unfold final
  generalize after ops (launchContents m c) = G at h ⊢
  exact h
theorem final_main_v163 (m : (ℓ : Loc nD τ sig) → Buf (Elt F) ℓ) (c : Dev nD) :
    final m c (Proc.devRef .tc main_v163) = (broadcastInDim S400000x1 ![0] bcast_S400000_S400000x1_0 : (⟨S400000, .i32⟩ : BufTy).Contents (Elt F) → (⟨S400000x1, .i32⟩ : BufTy).Contents (Elt F)) (final m c (Proc.devRef .tc main_arg25)) := by
  have h := Sage.after_unary (x := main_arg25) (y := main_v163) (ops_Writes (F := F)) 198 (launchContents m c) (by rfl) (by decide +kernel) (by decide +kernel)
  unfold final
  generalize after ops (launchContents m c) = G at h ⊢
  exact h
theorem final_main_v164 (m : (ℓ : Loc nD τ sig) → Buf (Elt F) ℓ) (c : Dev nD) :
    final m c (Proc.devRef .tc main_v164) = (Host.scatterAdd scatter_S20000x1_S400000x1_S400000x1_1_0_0_1 (final m c (Proc.devRef .tc main_v162)) (final m c (Proc.devRef .tc main_v163)) (final m c (Proc.devRef .tc main_v161)) : (⟨S20000x1, .f32⟩ : BufTy).Contents (Elt F)) := by
  have h := Sage.after_ternary (c := main_v162) (a := main_v163) (b := main_v161) (y := main_v164) (ops_Writes (F := F)) 199 (launchContents m c) (by rfl) (by decide +kernel) (by decide +kernel) (by decide +kernel) (by decide +kernel)
  unfold final
  generalize after ops (launchContents m c) = G at h ⊢
  exact h
theorem final_main_cst_33 (m : (ℓ : Loc nD τ sig) → Buf (Elt F) ℓ) (c : Dev nD) :
    final m c (Proc.devRef .tc main_cst_33) = (constant S_ .f32 0x3F800000#32) := by
  have h := Sage.after_nullary (y := main_cst_33) (ops_Writes (F := F)) 200 (launchContents m c) (by rfl) (by decide +kernel)
  unfold final
  generalize after ops (launchContents m c) = G at h ⊢
  exact h
theorem final_main_v165 (m : (ℓ : Loc nD τ sig) → Buf (Elt F) ℓ) (c : Dev nD) :
    final m c (Proc.devRef .tc main_v165) = (broadcastInDim S20000x1 ![] bcast_S_S20000x1 : (⟨S_, .f32⟩ : BufTy).Contents (Elt F) → (⟨S20000x1, .f32⟩ : BufTy).Contents (Elt F)) (final m c (Proc.devRef .tc main_cst_33)) := by
  have h := Sage.after_unary (x := main_cst_33) (y := main_v165) (ops_Writes (F := F)) 201 (launchContents m c) (by rfl) (by decide +kernel) (by decide +kernel)
  unfold final
  generalize after ops (launchContents m c) = G at h ⊢
  exact h
theorem final_main_v166 (m : (ℓ : Loc nD τ sig) → Buf (Elt F) ℓ) (c : Dev nD) :
    final m c (Proc.devRef .tc main_v166) = (maximumf : (⟨S20000x1, .f32⟩ : BufTy).Contents (Elt F) → (⟨S20000x1, .f32⟩ : BufTy).Contents (Elt F) → (⟨S20000x1, .f32⟩ : BufTy).Contents (Elt F)) (final m c (Proc.devRef .tc main_v164)) (final m c (Proc.devRef .tc main_v165)) := by
  have h := Sage.after_binary (a := main_v164) (b := main_v165) (y := main_v166) (ops_Writes (F := F)) 202 (launchContents m c) (by rfl) (by decide +kernel) (by decide +kernel) (by decide +kernel)
  unfold final
  generalize after ops (launchContents m c) = G at h ⊢
  exact h
theorem final_main_v167 (m : (ℓ : Loc nD τ sig) → Buf (Elt F) ℓ) (c : Dev nD) :
    final m c (Proc.devRef .tc main_v167) = (broadcastInDim S20000x128 ![0, 1] bcast_S20000x1_S20000x128_0_1 : (⟨S20000x1, .f32⟩ : BufTy).Contents (Elt F) → (⟨S20000x128, .f32⟩ : BufTy).Contents (Elt F)) (final m c (Proc.devRef .tc main_v166)) := by
  have h := Sage.after_unary (x := main_v166) (y := main_v167) (ops_Writes (F := F)) 203 (launchContents m c) (by rfl) (by decide +kernel) (by decide +kernel)
  unfold final
  generalize after ops (launchContents m c) = G at h ⊢
  exact h
theorem final_main_v168 (m : (ℓ : Loc nD τ sig) → Buf (Elt F) ℓ) (c : Dev nD) :
    final m c (Proc.devRef .tc main_v168) = (Host.divf : (⟨S20000x128, .f32⟩ : BufTy).Contents (Elt F) → (⟨S20000x128, .f32⟩ : BufTy).Contents (Elt F) → (⟨S20000x128, .f32⟩ : BufTy).Contents (Elt F)) (final m c (Proc.devRef .tc main_v160)) (final m c (Proc.devRef .tc main_v167)) := by
  have h := Sage.after_binary (a := main_v160) (b := main_v167) (y := main_v168) (ops_Writes (F := F)) 204 (launchContents m c) (by rfl) (by decide +kernel) (by decide +kernel) (by decide +kernel)
  unfold final
  generalize after ops (launchContents m c) = G at h ⊢
  exact h
theorem final_main_v169 (m : (ℓ : Loc nD τ sig) → Buf (Elt F) ℓ) (c : Dev nD) :
    final m c (Proc.devRef .tc main_v169) = (extractStridedSlice S1x128x256 ![5, 0, 0] (final m c (Proc.devRef .tc main_arg4)) slices_S7x128x256_S1x128x256_5_0_0 : (⟨S1x128x256, .f32⟩ : BufTy).Contents (Elt F)) := by
  have h := Sage.after_unary (x := main_arg4) (y := main_v169) (ops_Writes (F := F)) 205 (launchContents m c) (by rfl) (by decide +kernel) (by decide +kernel)
  unfold final
  generalize after ops (launchContents m c) = G at h ⊢
  exact h
theorem final_main_v170 (m : (ℓ : Loc nD τ sig) → Buf (Elt F) ℓ) (c : Dev nD) :
    final m c (Proc.devRef .tc main_v170) = shapeCast S128x256 (final m c (Proc.devRef .tc main_v169)) shapeCasts_S1x128x256_S128x256 := by
  have h := Sage.after_reshape (x := main_v169) (y := main_v170) (ops_Writes (F := F)) 206 (launchContents m c) (by rfl) (by decide +kernel) (by decide +kernel)
  unfold final
  generalize after ops (launchContents m c) = G at h ⊢
  exact h
theorem final_main_v171 (m : (ℓ : Loc nD τ sig) → Buf (Elt F) ℓ) (c : Dev nD) :
    final m c (Proc.devRef .tc main_v171) = (Host.dotGeneral dot_S20000x128_S128x256_S20000x256_1_0_0_1_n_n none (final m c (Proc.devRef .tc main_v168)) (final m c (Proc.devRef .tc main_v170)) : (⟨S20000x256, .f32⟩ : BufTy).Contents (Elt F)) := by
  have h := Sage.after_binary (a := main_v168) (b := main_v170) (y := main_v171) (ops_Writes (F := F)) 207 (launchContents m c) (by rfl) (by decide +kernel) (by decide +kernel) (by decide +kernel)
  unfold final
  generalize after ops (launchContents m c) = G at h ⊢
  exact h
theorem final_main_v172 (m : (ℓ : Loc nD τ sig) → Buf (Elt F) ℓ) (c : Dev nD) :
    final m c (Proc.devRef .tc main_v172) = (extractStridedSlice S1x256 ![5, 0] (final m c (Proc.devRef .tc main_arg6)) slices_S7x256_S1x256_5_0 : (⟨S1x256, .f32⟩ : BufTy).Contents (Elt F)) := by
  have h := Sage.after_unary (x := main_arg6) (y := main_v172) (ops_Writes (F := F)) 208 (launchContents m c) (by rfl) (by decide +kernel) (by decide +kernel)
  unfold final
  generalize after ops (launchContents m c) = G at h ⊢
  exact h
theorem final_main_v173 (m : (ℓ : Loc nD τ sig) → Buf (Elt F) ℓ) (c : Dev nD) :
    final m c (Proc.devRef .tc main_v173) = shapeCast S256 (final m c (Proc.devRef .tc main_v172)) shapeCasts_S1x256_S256 := by
  have h := Sage.after_reshape (x := main_v172) (y := main_v173) (ops_Writes (F := F)) 209 (launchContents m c) (by rfl) (by decide +kernel) (by decide +kernel)
  unfold final
  generalize after ops (launchContents m c) = G at h ⊢
  exact h
theorem final_main_v174 (m : (ℓ : Loc nD τ sig) → Buf (Elt F) ℓ) (c : Dev nD) :
    final m c (Proc.devRef .tc main_v174) = (broadcastInDim S1x256 ![1] bcast_S256_S1x256_1 : (⟨S256, .f32⟩ : BufTy).Contents (Elt F) → (⟨S1x256, .f32⟩ : BufTy).Contents (Elt F)) (final m c (Proc.devRef .tc main_v173)) := by
  have h := Sage.after_unary (x := main_v173) (y := main_v174) (ops_Writes (F := F)) 210 (launchContents m c) (by rfl) (by decide +kernel) (by decide +kernel)
  unfold final
  generalize after ops (launchContents m c) = G at h ⊢
  exact h
theorem final_main_v175 (m : (ℓ : Loc nD τ sig) → Buf (Elt F) ℓ) (c : Dev nD) :
    final m c (Proc.devRef .tc main_v175) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v174)) := by
  have h := Sage.after_unary (x := main_v174) (y := main_v175) (ops_Writes (F := F)) 211 (launchContents m c) (by rfl) (by decide +kernel) (by decide +kernel)
  unfold final
  generalize after ops (launchContents m c) = G at h ⊢
  exact h
theorem final_main_v176 (m : (ℓ : Loc nD τ sig) → Buf (Elt F) ℓ) (c : Dev nD) :
    final m c (Proc.devRef .tc main_v176) = (addf : (⟨S20000x256, .f32⟩ : BufTy).Contents (Elt F) → (⟨S20000x256, .f32⟩ : BufTy).Contents (Elt F) → (⟨S20000x256, .f32⟩ : BufTy).Contents (Elt F)) (final m c (Proc.devRef .tc main_v171)) (final m c (Proc.devRef .tc main_v175)) := by
  have h := Sage.after_binary (a := main_v171) (b := main_v175) (y := main_v176) (ops_Writes (F := F)) 212 (launchContents m c) (by rfl) (by decide +kernel) (by decide +kernel) (by decide +kernel)
  unfold final
  generalize after ops (launchContents m c) = G at h ⊢
  exact h
theorem final_main_v177 (m : (ℓ : Loc nD τ sig) → Buf (Elt F) ℓ) (c : Dev nD) :
    final m c (Proc.devRef .tc main_v177) = (extractStridedSlice S1x128x256 ![5, 0, 0] (final m c (Proc.devRef .tc main_arg5)) slices_S7x128x256_S1x128x256_5_0_0 : (⟨S1x128x256, .f32⟩ : BufTy).Contents (Elt F)) := by
  have h := Sage.after_unary (x := main_arg5) (y := main_v177) (ops_Writes (F := F)) 213 (launchContents m c) (by rfl) (by decide +kernel) (by decide +kernel)
  unfold final
  generalize after ops (launchContents m c) = G at h ⊢
  exact h
theorem final_main_v178 (m : (ℓ : Loc nD τ sig) → Buf (Elt F) ℓ) (c : Dev nD) :
    final m c (Proc.devRef .tc main_v178) = shapeCast S128x256 (final m c (Proc.devRef .tc main_v177)) shapeCasts_S1x128x256_S128x256 := by
  have h := Sage.after_reshape (x := main_v177) (y := main_v178) (ops_Writes (F := F)) 214 (launchContents m c) (by rfl) (by decide +kernel) (by decide +kernel)
  unfold final
  generalize after ops (launchContents m c) = G at h ⊢
  exact h
theorem final_main_v179 (m : (ℓ : Loc nD τ sig) → Buf (Elt F) ℓ) (c : Dev nD) :
    final m c (Proc.devRef .tc main_v179) = (Host.dotGeneral dot_S20000x128_S128x256_S20000x256_1_0_0_1_n_n none (final m c (Proc.devRef .tc main_arg0)) (final m c (Proc.devRef .tc main_v178)) : (⟨S20000x256, .f32⟩ : BufTy).Contents (Elt F)) := by
  have h := Sage.after_binary (a := main_arg0) (b := main_v178) (y := main_v179) (ops_Writes (F := F)) 215 (launchContents m c) (by rfl) (by decide +kernel) (by decide +kernel) (by decide +kernel)
  unfold final
  generalize after ops (launchContents m c) = G at h ⊢
  exact h
theorem final_main_v180 (m : (ℓ : Loc nD τ sig) → Buf (Elt F) ℓ) (c : Dev nD) :
    final m c (Proc.devRef .tc main_v180) = (addf : (⟨S20000x256, .f32⟩ : BufTy).Contents (Elt F) → (⟨S20000x256, .f32⟩ : BufTy).Contents (Elt F) → (⟨S20000x256, .f32⟩ : BufTy).Contents (Elt F)) (final m c (Proc.devRef .tc main_v176)) (final m c (Proc.devRef .tc main_v179)) := by
  have h := Sage.after_binary (a := main_v176) (b := main_v179) (y := main_v180) (ops_Writes (F := F)) 216 (launchContents m c) (by rfl) (by decide +kernel) (by decide +kernel) (by decide +kernel)
  unfold final
  generalize after ops (launchContents m c) = G at h ⊢
  exact h
theorem final_main_v181 (m : (ℓ : Loc nD τ sig) → Buf (Elt F) ℓ) (c : Dev nD) :
    final m c (Proc.devRef .tc main_v181) = (addf : (⟨S20000x256, .f32⟩ : BufTy).Contents (Elt F) → (⟨S20000x256, .f32⟩ : BufTy).Contents (Elt F) → (⟨S20000x256, .f32⟩ : BufTy).Contents (Elt F)) (final m c (Proc.devRef .tc main_v150)) (final m c (Proc.devRef .tc main_v180)) := by
  have h := Sage.after_binary (a := main_v150) (b := main_v180) (y := main_v181) (ops_Writes (F := F)) 217 (launchContents m c) (by rfl) (by decide +kernel) (by decide +kernel) (by decide +kernel)
  unfold final
  generalize after ops (launchContents m c) = G at h ⊢
  exact h
theorem final_main_c_34 (m : (ℓ : Loc nD τ sig) → Buf (Elt F) ℓ) (c : Dev nD) :
    final m c (Proc.devRef .tc main_c_34) = (constantI S_ 32 0#32) := by
  have h := Sage.after_nullary (y := main_c_34) (ops_Writes (F := F)) 218 (launchContents m c) (by rfl) (by decide +kernel)
  unfold final
  generalize after ops (launchContents m c) = G at h ⊢
  exact h
theorem final_main_v182 (m : (ℓ : Loc nD τ sig) → Buf (Elt F) ℓ) (c : Dev nD) :
    final m c (Proc.devRef .tc main_v182) = (broadcastInDim S150000 ![] bcast_S_S150000 : (⟨S_, .i32⟩ : BufTy).Contents (Elt F) → (⟨S150000, .i32⟩ : BufTy).Contents (Elt F)) (final m c (Proc.devRef .tc main_c_34)) := by
  have h := Sage.after_unary (x := main_c_34) (y := main_v182) (ops_Writes (F := F)) 219 (launchContents m c) (by rfl) (by decide +kernel) (by decide +kernel)
  unfold final
  generalize after ops (launchContents m c) = G at h ⊢
  exact h
theorem final_main_v183 (m : (ℓ : Loc nD τ sig) → Buf (Elt F) ℓ) (c : Dev nD) :
    final m c (Proc.devRef .tc main_v183) = (cmpi .slt : (⟨S150000, .i32⟩ : BufTy).Contents (Elt F) → (⟨S150000, .i32⟩ : BufTy).Contents (Elt F) → (⟨S150000, .i1⟩ : BufTy).Contents (Elt F)) (final m c (Proc.devRef .tc main_arg26)) (final m c (Proc.devRef .tc main_v182)) := by
  have h := Sage.after_binary (a := main_arg26) (b := main_v182) (y := main_v183) (ops_Writes (F := F)) 220 (launchContents m c) (by rfl) (by decide +kernel) (by decide +kernel) (by decide +kernel)
  unfold final
  generalize after ops (launchContents m c) = G at h ⊢
  exact h
theorem final_main_c_35 (m : (ℓ : Loc nD τ sig) → Buf (Elt F) ℓ) (c : Dev nD) :
    final m c (Proc.devRef .tc main_c_35) = (constantI S_ 32 3000#32) := by
  have h := Sage.after_nullary (y := main_c_35) (ops_Writes (F := F)) 221 (launchContents m c) (by rfl) (by decide +kernel)
  unfold final
  generalize after ops (launchContents m c) = G at h ⊢
  exact h
theorem final_main_v184 (m : (ℓ : Loc nD τ sig) → Buf (Elt F) ℓ) (c : Dev nD) :
    final m c (Proc.devRef .tc main_v184) = (broadcastInDim S150000 ![] bcast_S_S150000 : (⟨S_, .i32⟩ : BufTy).Contents (Elt F) → (⟨S150000, .i32⟩ : BufTy).Contents (Elt F)) (final m c (Proc.devRef .tc main_c_35)) := by
  have h := Sage.after_unary (x := main_c_35) (y := main_v184) (ops_Writes (F := F)) 222 (launchContents m c) (by rfl) (by decide +kernel) (by decide +kernel)
  unfold final
  generalize after ops (launchContents m c) = G at h ⊢
  exact h
theorem final_main_v185 (m : (ℓ : Loc nD τ sig) → Buf (Elt F) ℓ) (c : Dev nD) :
    final m c (Proc.devRef .tc main_v185) = (addi : (⟨S150000, .i32⟩ : BufTy).Contents (Elt F) → (⟨S150000, .i32⟩ : BufTy).Contents (Elt F) → (⟨S150000, .i32⟩ : BufTy).Contents (Elt F)) (final m c (Proc.devRef .tc main_arg26)) (final m c (Proc.devRef .tc main_v184)) := by
  have h := Sage.after_binary (a := main_arg26) (b := main_v184) (y := main_v185) (ops_Writes (F := F)) 223 (launchContents m c) (by rfl) (by decide +kernel) (by decide +kernel) (by decide +kernel)
  unfold final
  generalize after ops (launchContents m c) = G at h ⊢
  exact h
theorem final_main_v186 (m : (ℓ : Loc nD τ sig) → Buf (Elt F) ℓ) (c : Dev nD) :
    final m c (Proc.devRef .tc main_v186) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (final m c (Proc.devRef .tc main_v183)) (final m c (Proc.devRef .tc main_v185)) (final m c (Proc.devRef .tc main_arg26)) := by
  have h := Sage.after_ternary (c := main_v183) (a := main_v185) (b := main_arg26) (y := main_v186) (ops_Writes (F := F)) 224 (launchContents m c) (by rfl) (by decide +kernel) (by decide +kernel) (by decide +kernel) (by decide +kernel)
  unfold final
  generalize after ops (launchContents m c) = G at h ⊢
  exact h
theorem final_main_v187 (m : (ℓ : Loc nD τ sig) → Buf (Elt F) ℓ) (c : Dev nD) :
    final m c (Proc.devRef .tc main_v187) = (broadcastInDim S150000x1 ![0] bcast_S150000_S150000x1_0 : (⟨S150000, .i32⟩ : BufTy).Contents (Elt F) → (⟨S150000x1, .i32⟩ : BufTy).Contents (Elt F)) (final m c (Proc.devRef .tc main_v186)) := by
  have h := Sage.after_unary (x := main_v186) (y := main_v187) (ops_Writes (F := F)) 225 (launchContents m c) (by rfl) (by decide +kernel) (by decide +kernel)
  unfold final
  generalize after ops (launchContents m c) = G at h ⊢
  exact h
theorem final_main_v188 (m : (ℓ : Loc nD τ sig) → Buf (Elt F) ℓ) (c : Dev nD) :
    final m c (Proc.devRef .tc main_v188) = (Host.gather gather_S3000x128_S150000x1_S150000x128_1_0_n_n_0_1_1128 (final m c (Proc.devRef .tc main_arg3)) (final m c (Proc.devRef .tc main_v187)) : (⟨S150000x128, .f32⟩ : BufTy).Contents (Elt F)) := by
  have h := Sage.after_binary (a := main_arg3) (b := main_v187) (y := main_v188) (ops_Writes (F := F)) 226 (launchContents m c) (by rfl) (by decide +kernel) (by decide +kernel) (by decide +kernel)
  unfold final
  generalize after ops (launchContents m c) = G at h ⊢
  exact h
theorem final_main_cst_36 (m : (ℓ : Loc nD τ sig) → Buf (Elt F) ℓ) (c : Dev nD) :
    final m c (Proc.devRef .tc main_cst_36) = (constant S_ .f32 0x00000000#32) := by
  have h := Sage.after_nullary (y := main_cst_36) (ops_Writes (F := F)) 227 (launchContents m c) (by rfl) (by decide +kernel)
  unfold final
  generalize after ops (launchContents m c) = G at h ⊢
  exact h
theorem final_main_v189 (m : (ℓ : Loc nD τ sig) → Buf (Elt F) ℓ) (c : Dev nD) :
    final m c (Proc.devRef .tc main_v189) = (broadcastInDim S50000x128 ![] bcast_S_S50000x128 : (⟨S_, .f32⟩ : BufTy).Contents (Elt F) → (⟨S50000x128, .f32⟩ : BufTy).Contents (Elt F)) (final m c (Proc.devRef .tc main_cst_36)) := by
  have h := Sage.after_unary (x := main_cst_36) (y := main_v189) (ops_Writes (F := F)) 228 (launchContents m c) (by rfl) (by decide +kernel) (by decide +kernel)
  unfold final
  generalize after ops (launchContents m c) = G at h ⊢
  exact h
theorem final_main_v190 (m : (ℓ : Loc nD τ sig) → Buf (Elt F) ℓ) (c : Dev nD) :
    final m c (Proc.devRef .tc main_v190) = (broadcastInDim S150000x1 ![0] bcast_S150000_S150000x1_0 : (⟨S150000, .i32⟩ : BufTy).Contents (Elt F) → (⟨S150000x1, .i32⟩ : BufTy).Contents (Elt F)) (final m c (Proc.devRef .tc main_arg27)) := by
  have h := Sage.after_unary (x := main_arg27) (y := main_v190) (ops_Writes (F := F)) 229 (launchContents m c) (by rfl) (by decide +kernel) (by decide +kernel)
  unfold final
  generalize after ops (launchContents m c) = G at h ⊢
  exact h
theorem final_main_v191 (m : (ℓ : Loc nD τ sig) → Buf (Elt F) ℓ) (c : Dev nD) :
    final m c (Proc.devRef .tc main_v191) = (Host.scatterAdd scatter_S50000x128_S150000x1_S150000x128_1_0_0_1 (final m c (Proc.devRef .tc main_v189)) (final m c (Proc.devRef .tc main_v190)) (final m c (Proc.devRef .tc main_v188)) : (⟨S50000x128, .f32⟩ : BufTy).Contents (Elt F)) := by
  have h := Sage.after_ternary (c := main_v189) (a := main_v190) (b := main_v188) (y := main_v191) (ops_Writes (F := F)) 230 (launchContents m c) (by rfl) (by decide +kernel) (by decide +kernel) (by decide +kernel) (by decide +kernel)
  unfold final
  generalize after ops (launchContents m c) = G at h ⊢
  exact h
theorem final_main_cst_37 (m : (ℓ : Loc nD τ sig) → Buf (Elt F) ℓ) (c : Dev nD) :
    final m c (Proc.devRef .tc main_cst_37) = (constant S_ .f32 0x3F800000#32) := by
  have h := Sage.after_nullary (y := main_cst_37) (ops_Writes (F := F)) 231 (launchContents m c) (by rfl) (by decide +kernel)
  unfold final
  generalize after ops (launchContents m c) = G at h ⊢
  exact h
theorem final_main_v192 (m : (ℓ : Loc nD τ sig) → Buf (Elt F) ℓ) (c : Dev nD) :
    final m c (Proc.devRef .tc main_v192) = (broadcastInDim S150000x1 ![] bcast_S_S150000x1 : (⟨S_, .f32⟩ : BufTy).Contents (Elt F) → (⟨S150000x1, .f32⟩ : BufTy).Contents (Elt F)) (final m c (Proc.devRef .tc main_cst_37)) := by
  have h := Sage.after_unary (x := main_cst_37) (y := main_v192) (ops_Writes (F := F)) 232 (launchContents m c) (by rfl) (by decide +kernel) (by decide +kernel)
  unfold final
  generalize after ops (launchContents m c) = G at h ⊢
  exact h
theorem final_main_cst_38 (m : (ℓ : Loc nD τ sig) → Buf (Elt F) ℓ) (c : Dev nD) :
    final m c (Proc.devRef .tc main_cst_38) = (constant S_ .f32 0x00000000#32) := by
  have h := Sage.after_nullary (y := main_cst_38) (ops_Writes (F := F)) 233 (launchContents m c) (by rfl) (by decide +kernel)
  unfold final
  generalize after ops (launchContents m c) = G at h ⊢
  exact h
theorem final_main_v193 (m : (ℓ : Loc nD τ sig) → Buf (Elt F) ℓ) (c : Dev nD) :
    final m c (Proc.devRef .tc main_v193) = (broadcastInDim S50000x1 ![] bcast_S_S50000x1 : (⟨S_, .f32⟩ : BufTy).Contents (Elt F) → (⟨S50000x1, .f32⟩ : BufTy).Contents (Elt F)) (final m c (Proc.devRef .tc main_cst_38)) := by
  have h := Sage.after_unary (x := main_cst_38) (y := main_v193) (ops_Writes (F := F)) 234 (launchContents m c) (by rfl) (by decide +kernel) (by decide +kernel)
  unfold final
  generalize after ops (launchContents m c) = G at h ⊢
  exact h
theorem final_main_v194 (m : (ℓ : Loc nD τ sig) → Buf (Elt F) ℓ) (c : Dev nD) :
    final m c (Proc.devRef .tc main_v194) = (broadcastInDim S150000x1 ![0] bcast_S150000_S150000x1_0 : (⟨S150000, .i32⟩ : BufTy).Contents (Elt F) → (⟨S150000x1, .i32⟩ : BufTy).Contents (Elt F)) (final m c (Proc.devRef .tc main_arg27)) := by
  have h := Sage.after_unary (x := main_arg27) (y := main_v194) (ops_Writes (F := F)) 235 (launchContents m c) (by rfl) (by decide +kernel) (by decide +kernel)
  unfold final
  generalize after ops (launchContents m c) = G at h ⊢
  exact h
theorem final_main_v195 (m : (ℓ : Loc nD τ sig) → Buf (Elt F) ℓ) (c : Dev nD) :
    final m c (Proc.devRef .tc main_v195) = (Host.scatterAdd scatter_S50000x1_S150000x1_S150000x1_1_0_0_1 (final m c (Proc.devRef .tc main_v193)) (final m c (Proc.devRef .tc main_v194)) (final m c (Proc.devRef .tc main_v192)) : (⟨S50000x1, .f32⟩ : BufTy).Contents (Elt F)) := by
  have h := Sage.after_ternary (c := main_v193) (a := main_v194) (b := main_v192) (y := main_v195) (ops_Writes (F := F)) 236 (launchContents m c) (by rfl) (by decide +kernel) (by decide +kernel) (by decide +kernel) (by decide +kernel)
  unfold final
  generalize after ops (launchContents m c) = G at h ⊢
  exact h
theorem final_main_cst_39 (m : (ℓ : Loc nD τ sig) → Buf (Elt F) ℓ) (c : Dev nD) :
    final m c (Proc.devRef .tc main_cst_39) = (constant S_ .f32 0x3F800000#32) := by
  have h := Sage.after_nullary (y := main_cst_39) (ops_Writes (F := F)) 237 (launchContents m c) (by rfl) (by decide +kernel)
  unfold final
  generalize after ops (launchContents m c) = G at h ⊢
  exact h
theorem final_main_v196 (m : (ℓ : Loc nD τ sig) → Buf (Elt F) ℓ) (c : Dev nD) :
    final m c (Proc.devRef .tc main_v196) = (broadcastInDim S50000x1 ![] bcast_S_S50000x1 : (⟨S_, .f32⟩ : BufTy).Contents (Elt F) → (⟨S50000x1, .f32⟩ : BufTy).Contents (Elt F)) (final m c (Proc.devRef .tc main_cst_39)) := by
  have h := Sage.after_unary (x := main_cst_39) (y := main_v196) (ops_Writes (F := F)) 238 (launchContents m c) (by rfl) (by decide +kernel) (by decide +kernel)
  unfold final
  generalize after ops (launchContents m c) = G at h ⊢
  exact h
theorem final_main_v197 (m : (ℓ : Loc nD τ sig) → Buf (Elt F) ℓ) (c : Dev nD) :
    final m c (Proc.devRef .tc main_v197) = (maximumf : (⟨S50000x1, .f32⟩ : BufTy).Contents (Elt F) → (⟨S50000x1, .f32⟩ : BufTy).Contents (Elt F) → (⟨S50000x1, .f32⟩ : BufTy).Contents (Elt F)) (final m c (Proc.devRef .tc main_v195)) (final m c (Proc.devRef .tc main_v196)) := by
  have h := Sage.after_binary (a := main_v195) (b := main_v196) (y := main_v197) (ops_Writes (F := F)) 239 (launchContents m c) (by rfl) (by decide +kernel) (by decide +kernel) (by decide +kernel)
  unfold final
  generalize after ops (launchContents m c) = G at h ⊢
  exact h

end Cert.ReferenceIdeal.Hand

end
-- ==== Proof.Ref.Final4.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 4 (operations 241 … 344 of 886): what each result buffer holds when @main has run, one operation back. -/

theorem final_main_v198 (m : (ℓ : Loc nD τ sig) → Buf (Elt F) ℓ) (c : Dev nD) :
    final m c (Proc.devRef .tc main_v198) = (broadcastInDim S50000x128 ![0, 1] bcast_S50000x1_S50000x128_0_1 : (⟨S50000x1, .f32⟩ : BufTy).Contents (Elt F) → (⟨S50000x128, .f32⟩ : BufTy).Contents (Elt F)) (final m c (Proc.devRef .tc main_v197)) := by
  have h := Sage.after_unary (x := main_v197) (y := main_v198) (ops_Writes (F := F)) 240 (launchContents m c) (by rfl) (by decide +kernel) (by decide +kernel)
  unfold final
  generalize after ops (launchContents m c) = G at h ⊢
  exact h
theorem final_main_v199 (m : (ℓ : Loc nD τ sig) → Buf (Elt F) ℓ) (c : Dev nD) :
    final m c (Proc.devRef .tc main_v199) = (Host.divf : (⟨S50000x128, .f32⟩ : BufTy).Contents (Elt F) → (⟨S50000x128, .f32⟩ : BufTy).Contents (Elt F) → (⟨S50000x128, .f32⟩ : BufTy).Contents (Elt F)) (final m c (Proc.devRef .tc main_v191)) (final m c (Proc.devRef .tc main_v198)) := by
  have h := Sage.after_binary (a := main_v191) (b := main_v198) (y := main_v199) (ops_Writes (F := F)) 241 (launchContents m c) (by rfl) (by decide +kernel) (by decide +kernel) (by decide +kernel)
  unfold final
  generalize after ops (launchContents m c) = G at h ⊢
  exact h
theorem final_main_v200 (m : (ℓ : Loc nD τ sig) → Buf (Elt F) ℓ) (c : Dev nD) :
    final m c (Proc.devRef .tc main_v200) = (extractStridedSlice S1x128x256 ![6, 0, 0] (final m c (Proc.devRef .tc main_arg4)) slices_S7x128x256_S1x128x256_6_0_0 : (⟨S1x128x256, .f32⟩ : BufTy).Contents (Elt F)) := by
  have h := Sage.after_unary (x := main_arg4) (y := main_v200) (ops_Writes (F := F)) 242 (launchContents m c) (by rfl) (by decide +kernel) (by decide +kernel)
  unfold final
  generalize after ops (launchContents m c) = G at h ⊢
  exact h
theorem final_main_v201 (m : (ℓ : Loc nD τ sig) → Buf (Elt F) ℓ) (c : Dev nD) :
    final m c (Proc.devRef .tc main_v201) = shapeCast S128x256 (final m c (Proc.devRef .tc main_v200)) shapeCasts_S1x128x256_S128x256 := by
  have h := Sage.after_reshape (x := main_v200) (y := main_v201) (ops_Writes (F := F)) 243 (launchContents m c) (by rfl) (by decide +kernel) (by decide +kernel)
  unfold final
  generalize after ops (launchContents m c) = G at h ⊢
  exact h
theorem final_main_v202 (m : (ℓ : Loc nD τ sig) → Buf (Elt F) ℓ) (c : Dev nD) :
    final m c (Proc.devRef .tc main_v202) = (Host.dotGeneral dot_S50000x128_S128x256_S50000x256_1_0_0_1_n_n none (final m c (Proc.devRef .tc main_v199)) (final m c (Proc.devRef .tc main_v201)) : (⟨S50000x256, .f32⟩ : BufTy).Contents (Elt F)) := by
  have h := Sage.after_binary (a := main_v199) (b := main_v201) (y := main_v202) (ops_Writes (F := F)) 244 (launchContents m c) (by rfl) (by decide +kernel) (by decide +kernel) (by decide +kernel)
  unfold final
  generalize after ops (launchContents m c) = G at h ⊢
  exact h
theorem final_main_v203 (m : (ℓ : Loc nD τ sig) → Buf (Elt F) ℓ) (c : Dev nD) :
    final m c (Proc.devRef .tc main_v203) = (extractStridedSlice S1x256 ![6, 0] (final m c (Proc.devRef .tc main_arg6)) slices_S7x256_S1x256_6_0 : (⟨S1x256, .f32⟩ : BufTy).Contents (Elt F)) := by
  have h := Sage.after_unary (x := main_arg6) (y := main_v203) (ops_Writes (F := F)) 245 (launchContents m c) (by rfl) (by decide +kernel) (by decide +kernel)
  unfold final
  generalize after ops (launchContents m c) = G at h ⊢
  exact h
theorem final_main_v204 (m : (ℓ : Loc nD τ sig) → Buf (Elt F) ℓ) (c : Dev nD) :
    final m c (Proc.devRef .tc main_v204) = shapeCast S256 (final m c (Proc.devRef .tc main_v203)) shapeCasts_S1x256_S256 := by
  have h := Sage.after_reshape (x := main_v203) (y := main_v204) (ops_Writes (F := F)) 246 (launchContents m c) (by rfl) (by decide +kernel) (by decide +kernel)
  unfold final
  generalize after ops (launchContents m c) = G at h ⊢
  exact h
theorem final_main_v205 (m : (ℓ : Loc nD τ sig) → Buf (Elt F) ℓ) (c : Dev nD) :
    final m c (Proc.devRef .tc main_v205) = (broadcastInDim S1x256 ![1] bcast_S256_S1x256_1 : (⟨S256, .f32⟩ : BufTy).Contents (Elt F) → (⟨S1x256, .f32⟩ : BufTy).Contents (Elt F)) (final m c (Proc.devRef .tc main_v204)) := by
  have h := Sage.after_unary (x := main_v204) (y := main_v205) (ops_Writes (F := F)) 247 (launchContents m c) (by rfl) (by decide +kernel) (by decide +kernel)
  unfold final
  generalize after ops (launchContents m c) = G at h ⊢
  exact h
theorem final_main_v206 (m : (ℓ : Loc nD τ sig) → Buf (Elt F) ℓ) (c : Dev nD) :
    final m c (Proc.devRef .tc main_v206) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v205)) := by
  have h := Sage.after_unary (x := main_v205) (y := main_v206) (ops_Writes (F := F)) 248 (launchContents m c) (by rfl) (by decide +kernel) (by decide +kernel)
  unfold final
  generalize after ops (launchContents m c) = G at h ⊢
  exact h
theorem final_main_v207 (m : (ℓ : Loc nD τ sig) → Buf (Elt F) ℓ) (c : Dev nD) :
    final m c (Proc.devRef .tc main_v207) = (addf : (⟨S50000x256, .f32⟩ : BufTy).Contents (Elt F) → (⟨S50000x256, .f32⟩ : BufTy).Contents (Elt F) → (⟨S50000x256, .f32⟩ : BufTy).Contents (Elt F)) (final m c (Proc.devRef .tc main_v202)) (final m c (Proc.devRef .tc main_v206)) := by
  have h := Sage.after_binary (a := main_v202) (b := main_v206) (y := main_v207) (ops_Writes (F := F)) 249 (launchContents m c) (by rfl) (by decide +kernel) (by decide +kernel) (by decide +kernel)
  unfold final
  generalize after ops (launchContents m c) = G at h ⊢
  exact h
theorem final_main_v208 (m : (ℓ : Loc nD τ sig) → Buf (Elt F) ℓ) (c : Dev nD) :
    final m c (Proc.devRef .tc main_v208) = (extractStridedSlice S1x128x256 ![6, 0, 0] (final m c (Proc.devRef .tc main_arg5)) slices_S7x128x256_S1x128x256_6_0_0 : (⟨S1x128x256, .f32⟩ : BufTy).Contents (Elt F)) := by
  have h := Sage.after_unary (x := main_arg5) (y := main_v208) (ops_Writes (F := F)) 250 (launchContents m c) (by rfl) (by decide +kernel) (by decide +kernel)
  unfold final
  generalize after ops (launchContents m c) = G at h ⊢
  exact h
theorem final_main_v209 (m : (ℓ : Loc nD τ sig) → Buf (Elt F) ℓ) (c : Dev nD) :
    final m c (Proc.devRef .tc main_v209) = shapeCast S128x256 (final m c (Proc.devRef .tc main_v208)) shapeCasts_S1x128x256_S128x256 := by
  have h := Sage.after_reshape (x := main_v208) (y := main_v209) (ops_Writes (F := F)) 251 (launchContents m c) (by rfl) (by decide +kernel) (by decide +kernel)
  unfold final
  generalize after ops (launchContents m c) = G at h ⊢
  exact h
theorem final_main_v210 (m : (ℓ : Loc nD τ sig) → Buf (Elt F) ℓ) (c : Dev nD) :
    final m c (Proc.devRef .tc main_v210) = (Host.dotGeneral dot_S50000x128_S128x256_S50000x256_1_0_0_1_n_n none (final m c (Proc.devRef .tc main_arg1)) (final m c (Proc.devRef .tc main_v209)) : (⟨S50000x256, .f32⟩ : BufTy).Contents (Elt F)) := by
  have h := Sage.after_binary (a := main_arg1) (b := main_v209) (y := main_v210) (ops_Writes (F := F)) 252 (launchContents m c) (by rfl) (by decide +kernel) (by decide +kernel) (by decide +kernel)
  unfold final
  generalize after ops (launchContents m c) = G at h ⊢
  exact h
theorem final_main_v211 (m : (ℓ : Loc nD τ sig) → Buf (Elt F) ℓ) (c : Dev nD) :
    final m c (Proc.devRef .tc main_v211) = (addf : (⟨S50000x256, .f32⟩ : BufTy).Contents (Elt F) → (⟨S50000x256, .f32⟩ : BufTy).Contents (Elt F) → (⟨S50000x256, .f32⟩ : BufTy).Contents (Elt F)) (final m c (Proc.devRef .tc main_v207)) (final m c (Proc.devRef .tc main_v210)) := by
  have h := Sage.after_binary (a := main_v207) (b := main_v210) (y := main_v211) (ops_Writes (F := F)) 253 (launchContents m c) (by rfl) (by decide +kernel) (by decide +kernel) (by decide +kernel)
  unfold final
  generalize after ops (launchContents m c) = G at h ⊢
  exact h
theorem final_main_v212 (m : (ℓ : Loc nD τ sig) → Buf (Elt F) ℓ) (c : Dev nD) :
    final m c (Proc.devRef .tc main_v212) = (addf : (⟨S50000x256, .f32⟩ : BufTy).Contents (Elt F) → (⟨S50000x256, .f32⟩ : BufTy).Contents (Elt F) → (⟨S50000x256, .f32⟩ : BufTy).Contents (Elt F)) (final m c (Proc.devRef .tc main_v59)) (final m c (Proc.devRef .tc main_v211)) := by
  have h := Sage.after_binary (a := main_v59) (b := main_v211) (y := main_v212) (ops_Writes (F := F)) 254 (launchContents m c) (by rfl) (by decide +kernel) (by decide +kernel) (by decide +kernel)
  unfold final
  generalize after ops (launchContents m c) = G at h ⊢
  exact h
theorem final_main_cst_40 (m : (ℓ : Loc nD τ sig) → Buf (Elt F) ℓ) (c : Dev nD) :
    final m c (Proc.devRef .tc main_cst_40) = (constant S_ .f32 0x00000000#32) := by
  have h := Sage.after_nullary (y := main_cst_40) (ops_Writes (F := F)) 255 (launchContents m c) (by rfl) (by decide +kernel)
  unfold final
  generalize after ops (launchContents m c) = G at h ⊢
  exact h
theorem final_main_v213 (m : (ℓ : Loc nD τ sig) → Buf (Elt F) ℓ) (c : Dev nD) :
    final m c (Proc.devRef .tc main_v213) = (Host.reduceAdd (final m c (Proc.devRef .tc main_v181)) (final m c (Proc.devRef .tc main_cst_40)) reducesTo_S20000x256_S256_d0 h_S_ : (⟨S256, .f32⟩ : BufTy).Contents (Elt F)) := by
  have h := Sage.after_binary (a := main_v181) (b := main_cst_40) (y := main_v213) (ops_Writes (F := F)) 256 (launchContents m c) (by rfl) (by decide +kernel) (by decide +kernel) (by decide +kernel)
  unfold final
  generalize after ops (launchContents m c) = G at h ⊢
  exact h
theorem final_main_cst_41 (m : (ℓ : Loc nD τ sig) → Buf (Elt F) ℓ) (c : Dev nD) :
    final m c (Proc.devRef .tc main_cst_41) = (constant S_ .f32 0x469C4000#32) := by
  have h := Sage.after_nullary (y := main_cst_41) (ops_Writes (F := F)) 257 (launchContents m c) (by rfl) (by decide +kernel)
  unfold final
  generalize after ops (launchContents m c) = G at h ⊢
  exact h
theorem final_main_v214 (m : (ℓ : Loc nD τ sig) → Buf (Elt F) ℓ) (c : Dev nD) :
    final m c (Proc.devRef .tc main_v214) = (broadcastInDim S256 ![] bcast_S_S256 : (⟨S_, .f32⟩ : BufTy).Contents (Elt F) → (⟨S256, .f32⟩ : BufTy).Contents (Elt F)) (final m c (Proc.devRef .tc main_cst_41)) := by
  have h := Sage.after_unary (x := main_cst_41) (y := main_v214) (ops_Writes (F := F)) 258 (launchContents m c) (by rfl) (by decide +kernel) (by decide +kernel)
  unfold final
  generalize after ops (launchContents m c) = G at h ⊢
  exact h
theorem final_main_v215 (m : (ℓ : Loc nD τ sig) → Buf (Elt F) ℓ) (c : Dev nD) :
    final m c (Proc.devRef .tc main_v215) = (Host.divf : (⟨S256, .f32⟩ : BufTy).Contents (Elt F) → (⟨S256, .f32⟩ : BufTy).Contents (Elt F) → (⟨S256, .f32⟩ : BufTy).Contents (Elt F)) (final m c (Proc.devRef .tc main_v213)) (final m c (Proc.devRef .tc main_v214)) := by
  have h := Sage.after_binary (a := main_v213) (b := main_v214) (y := main_v215) (ops_Writes (F := F)) 259 (launchContents m c) (by rfl) (by decide +kernel) (by decide +kernel) (by decide +kernel)
  unfold final
  generalize after ops (launchContents m c) = G at h ⊢
  exact h
theorem final_main_c_42 (m : (ℓ : Loc nD τ sig) → Buf (Elt F) ℓ) (c : Dev nD) :
    final m c (Proc.devRef .tc main_c_42) = (constantI S_ 32 0#32) := by
  have h := Sage.after_nullary (y := main_c_42) (ops_Writes (F := F)) 260 (launchContents m c) (by rfl) (by decide +kernel)
  unfold final
  generalize after ops (launchContents m c) = G at h ⊢
  exact h
theorem final_main_call0_cst (m : (ℓ : Loc nD τ sig) → Buf (Elt F) ℓ) (c : Dev nD) :
    final m c (Proc.devRef .tc main_call0_cst) = (constant S_ .f32 0x00000000#32 : (⟨S_, .f32⟩ : BufTy).Contents (Elt F)) := by
  have h := Sage.after_nullary (y := main_call0_cst) (ops_Writes (F := F)) 261 (launchContents m c) (by rfl) (by decide +kernel)
  unfold final
  generalize after ops (launchContents m c) = G at h ⊢
  exact h
theorem final_main_call0_v0 (m : (ℓ : Loc nD τ sig) → Buf (Elt F) ℓ) (c : Dev nD) :
    final m c (Proc.devRef .tc main_call0_v0) = (Host.reduceAdd (final m c (Proc.devRef .tc main_v181)) (final m c (Proc.devRef .tc main_call0_cst)) reducesTo_S20000x256_S256_d0 h_S_ : (⟨S256, .f32⟩ : BufTy).Contents (Elt F)) := by
  have h := Sage.after_binary (a := main_v181) (b := main_call0_cst) (y := main_call0_v0) (ops_Writes (F := F)) 262 (launchContents m c) (by rfl) (by decide +kernel) (by decide +kernel) (by decide +kernel)
  unfold final
  generalize after ops (launchContents m c) = G at h ⊢
  exact h
theorem final_main_call0_v1 (m : (ℓ : Loc nD τ sig) → Buf (Elt F) ℓ) (c : Dev nD) :
    final m c (Proc.devRef .tc main_call0_v1) = (broadcastInDim S1x256 ![1] bcast_S256_S1x256_1 : (⟨S256, .f32⟩ : BufTy).Contents (Elt F) → (⟨S1x256, .f32⟩ : BufTy).Contents (Elt F)) (final m c (Proc.devRef .tc main_call0_v0)) := by
  have h := Sage.after_unary (x := main_call0_v0) (y := main_call0_v1) (ops_Writes (F := F)) 263 (launchContents m c) (by rfl) (by decide +kernel) (by decide +kernel)
  unfold final
  generalize after ops (launchContents m c) = G at h ⊢
  exact h
theorem final_main_call0_cst_0 (m : (ℓ : Loc nD τ sig) → Buf (Elt F) ℓ) (c : Dev nD) :
    final m c (Proc.devRef .tc main_call0_cst_0) = (constant S_ .f32 0x469C4000#32 : (⟨S_, .f32⟩ : BufTy).Contents (Elt F)) := by
  have h := Sage.after_nullary (y := main_call0_cst_0) (ops_Writes (F := F)) 264 (launchContents m c) (by rfl) (by decide +kernel)
  unfold final
  generalize after ops (launchContents m c) = G at h ⊢
  exact h
theorem final_main_call0_v2 (m : (ℓ : Loc nD τ sig) → Buf (Elt F) ℓ) (c : Dev nD) :
    final m c (Proc.devRef .tc main_call0_v2) = (broadcastInDim S1x256 ![] bcast_S_S1x256 : (⟨S_, .f32⟩ : BufTy).Contents (Elt F) → (⟨S1x256, .f32⟩ : BufTy).Contents (Elt F)) (final m c (Proc.devRef .tc main_call0_cst_0)) := by
  have h := Sage.after_unary (x := main_call0_cst_0) (y := main_call0_v2) (ops_Writes (F := F)) 265 (launchContents m c) (by rfl) (by decide +kernel) (by decide +kernel)
  unfold final
  generalize after ops (launchContents m c) = G at h ⊢
  exact h
theorem final_main_call0_v3 (m : (ℓ : Loc nD τ sig) → Buf (Elt F) ℓ) (c : Dev nD) :
    final m c (Proc.devRef .tc main_call0_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call0_v1)) (final m c (Proc.devRef .tc main_call0_v2)) := by
  have h := Sage.after_binary (a := main_call0_v1) (b := main_call0_v2) (y := main_call0_v3) (ops_Writes (F := F)) 266 (launchContents m c) (by rfl) (by decide +kernel) (by decide +kernel) (by decide +kernel)
  unfold final
  generalize after ops (launchContents m c) = G at h ⊢
  exact h
theorem final_main_call0_v4 (m : (ℓ : Loc nD τ sig) → Buf (Elt F) ℓ) (c : Dev nD) :
    final m c (Proc.devRef .tc main_call0_v4) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_call0_v3)) := by
  have h := Sage.after_unary (x := main_call0_v3) (y := main_call0_v4) (ops_Writes (F := F)) 267 (launchContents m c) (by rfl) (by decide +kernel) (by decide +kernel)
  unfold final
  generalize after ops (launchContents m c) = G at h ⊢
  exact h
theorem final_main_call0_v5 (m : (ℓ : Loc nD τ sig) → Buf (Elt F) ℓ) (c : Dev nD) :
    final m c (Proc.devRef .tc main_call0_v5) = (subf : (⟨S20000x256, .f32⟩ : BufTy).Contents (Elt F) → (⟨S20000x256, .f32⟩ : BufTy).Contents (Elt F) → (⟨S20000x256, .f32⟩ : BufTy).Contents (Elt F)) (final m c (Proc.devRef .tc main_v181)) (final m c (Proc.devRef .tc main_call0_v4)) := by
  have h := Sage.after_binary (a := main_v181) (b := main_call0_v4) (y := main_call0_v5) (ops_Writes (F := F)) 268 (launchContents m c) (by rfl) (by decide +kernel) (by decide +kernel) (by decide +kernel)
  unfold final
  generalize after ops (launchContents m c) = G at h ⊢
  exact h
theorem final_main_call0_v6 (m : (ℓ : Loc nD τ sig) → Buf (Elt F) ℓ) (c : Dev nD) :
    final m c (Proc.devRef .tc main_call0_v6) = (mulf : (⟨S20000x256, .f32⟩ : BufTy).Contents (Elt F) → (⟨S20000x256, .f32⟩ : BufTy).Contents (Elt F) → (⟨S20000x256, .f32⟩ : BufTy).Contents (Elt F)) (final m c (Proc.devRef .tc main_call0_v5)) (final m c (Proc.devRef .tc main_call0_v5)) := by
  have h := Sage.after_binary (a := main_call0_v5) (b := main_call0_v5) (y := main_call0_v6) (ops_Writes (F := F)) 269 (launchContents m c) (by rfl) (by decide +kernel) (by decide +kernel) (by decide +kernel)
  unfold final
  generalize after ops (launchContents m c) = G at h ⊢
  exact h
theorem final_main_call0_v7 (m : (ℓ : Loc nD τ sig) → Buf (Elt F) ℓ) (c : Dev nD) :
    final m c (Proc.devRef .tc main_call0_v7) = (sitofp .f32 : (⟨S_, .i32⟩ : BufTy).Contents (Elt F) → (⟨S_, .f32⟩ : BufTy).Contents (Elt F)) (final m c (Proc.devRef .tc main_c_42)) := by
  have h := Sage.after_unary (x := main_c_42) (y := main_call0_v7) (ops_Writes (F := F)) 270 (launchContents m c) (by rfl) (by decide +kernel) (by decide +kernel)
  unfold final
  generalize after ops (launchContents m c) = G at h ⊢
  exact h
theorem final_main_call0_cst_1 (m : (ℓ : Loc nD τ sig) → Buf (Elt F) ℓ) (c : Dev nD) :
    final m c (Proc.devRef .tc main_call0_cst_1) = (constant S_ .f32 0x469C4000#32 : (⟨S_, .f32⟩ : BufTy).Contents (Elt F)) := by
  have h := Sage.after_nullary (y := main_call0_cst_1) (ops_Writes (F := F)) 271 (launchContents m c) (by rfl) (by decide +kernel)
  unfold final
  generalize after ops (launchContents m c) = G at h ⊢
  exact h
theorem final_main_call0_v8 (m : (ℓ : Loc nD τ sig) → Buf (Elt F) ℓ) (c : Dev nD) :
    final m c (Proc.devRef .tc main_call0_v8) = (subf : (⟨S_, .f32⟩ : BufTy).Contents (Elt F) → (⟨S_, .f32⟩ : BufTy).Contents (Elt F) → (⟨S_, .f32⟩ : BufTy).Contents (Elt F)) (final m c (Proc.devRef .tc main_call0_cst_1)) (final m c (Proc.devRef .tc main_call0_v7)) := by
  have h := Sage.after_binary (a := main_call0_cst_1) (b := main_call0_v7) (y := main_call0_v8) (ops_Writes (F := F)) 272 (launchContents m c) (by rfl) (by decide +kernel) (by decide +kernel) (by decide +kernel)
  unfold final
  generalize after ops (launchContents m c) = G at h ⊢
  exact h
theorem final_main_call0_cst_2 (m : (ℓ : Loc nD τ sig) → Buf (Elt F) ℓ) (c : Dev nD) :
    final m c (Proc.devRef .tc main_call0_cst_2) = (constant S_ .f32 0x00000000#32 : (⟨S_, .f32⟩ : BufTy).Contents (Elt F)) := by
  have h := Sage.after_nullary (y := main_call0_cst_2) (ops_Writes (F := F)) 273 (launchContents m c) (by rfl) (by decide +kernel)
  unfold final
  generalize after ops (launchContents m c) = G at h ⊢
  exact h
theorem final_main_call0_v9 (m : (ℓ : Loc nD τ sig) → Buf (Elt F) ℓ) (c : Dev nD) :
    final m c (Proc.devRef .tc main_call0_v9) = (Host.reduceAdd (final m c (Proc.devRef .tc main_call0_v6)) (final m c (Proc.devRef .tc main_call0_cst_2)) reducesTo_S20000x256_S256_d0 h_S_ : (⟨S256, .f32⟩ : BufTy).Contents (Elt F)) := by
  have h := Sage.after_binary (a := main_call0_v6) (b := main_call0_cst_2) (y := main_call0_v9) (ops_Writes (F := F)) 274 (launchContents m c) (by rfl) (by decide +kernel) (by decide +kernel) (by decide +kernel)
  unfold final
  generalize after ops (launchContents m c) = G at h ⊢
  exact h
theorem final_main_call0_v10 (m : (ℓ : Loc nD τ sig) → Buf (Elt F) ℓ) (c : Dev nD) :
    final m c (Proc.devRef .tc main_call0_v10) = (broadcastInDim S256 ![] bcast_S_S256 : (⟨S_, .f32⟩ : BufTy).Contents (Elt F) → (⟨S256, .f32⟩ : BufTy).Contents (Elt F)) (final m c (Proc.devRef .tc main_call0_v8)) := by
  have h := Sage.after_unary (x := main_call0_v8) (y := main_call0_v10) (ops_Writes (F := F)) 275 (launchContents m c) (by rfl) (by decide +kernel) (by decide +kernel)
  unfold final
  generalize after ops (launchContents m c) = G at h ⊢
  exact h
theorem final_main_call0_v11 (m : (ℓ : Loc nD τ sig) → Buf (Elt F) ℓ) (c : Dev nD) :
    final m c (Proc.devRef .tc main_call0_v11) = (Host.divf : (⟨S256, .f32⟩ : BufTy).Contents (Elt F) → (⟨S256, .f32⟩ : BufTy).Contents (Elt F) → (⟨S256, .f32⟩ : BufTy).Contents (Elt F)) (final m c (Proc.devRef .tc main_call0_v9)) (final m c (Proc.devRef .tc main_call0_v10)) := by
  have h := Sage.after_binary (a := main_call0_v9) (b := main_call0_v10) (y := main_call0_v11) (ops_Writes (F := F)) 276 (launchContents m c) (by rfl) (by decide +kernel) (by decide +kernel) (by decide +kernel)
  unfold final
  generalize after ops (launchContents m c) = G at h ⊢
  exact h
theorem final_main_call0_cst_3 (m : (ℓ : Loc nD τ sig) → Buf (Elt F) ℓ) (c : Dev nD) :
    final m c (Proc.devRef .tc main_call0_cst_3) = (constant S_ .f32 0x00000000#32 : (⟨S_, .f32⟩ : BufTy).Contents (Elt F)) := by
  have h := Sage.after_nullary (y := main_call0_cst_3) (ops_Writes (F := F)) 277 (launchContents m c) (by rfl) (by decide +kernel)
  unfold final
  generalize after ops (launchContents m c) = G at h ⊢
  exact h
theorem final_main_call0_v12 (m : (ℓ : Loc nD τ sig) → Buf (Elt F) ℓ) (c : Dev nD) :
    final m c (Proc.devRef .tc main_call0_v12) = (cmpf .ogt : (⟨S_, .f32⟩ : BufTy).Contents (Elt F) → (⟨S_, .f32⟩ : BufTy).Contents (Elt F) → (⟨S_, .i1⟩ : BufTy).Contents (Elt F)) (final m c (Proc.devRef .tc main_call0_v8)) (final m c (Proc.devRef .tc main_call0_cst_3)) := by
  have h := Sage.after_binary (a := main_call0_v8) (b := main_call0_cst_3) (y := main_call0_v12) (ops_Writes (F := F)) 278 (launchContents m c) (by rfl) (by decide +kernel) (by decide +kernel) (by decide +kernel)
  unfold final
  generalize after ops (launchContents m c) = G at h ⊢
  exact h
theorem final_main_call0_cst_4 (m : (ℓ : Loc nD τ sig) → Buf (Elt F) ℓ) (c : Dev nD) :
    final m c (Proc.devRef .tc main_call0_cst_4) = (constant S_ .f32 0x7FC00000#32 : (⟨S_, .f32⟩ : BufTy).Contents (Elt F)) := by
  have h := Sage.after_nullary (y := main_call0_cst_4) (ops_Writes (F := F)) 279 (launchContents m c) (by rfl) (by decide +kernel)
  unfold final
  generalize after ops (launchContents m c) = G at h ⊢
  exact h
theorem final_main_call0_call0_v0 (m : (ℓ : Loc nD τ sig) → Buf (Elt F) ℓ) (c : Dev nD) :
    final m c (Proc.devRef .tc main_call0_call0_v0) = (id : (⟨S_, .f32⟩ : BufTy).Contents (Elt F) → (⟨S_, .f32⟩ : BufTy).Contents (Elt F)) (final m c (Proc.devRef .tc main_call0_cst_4)) := by
  have h := Sage.after_unary (x := main_call0_cst_4) (y := main_call0_call0_v0) (ops_Writes (F := F)) 280 (launchContents m c) (by rfl) (by decide +kernel) (by decide +kernel)
  unfold final
  generalize after ops (launchContents m c) = G at h ⊢
  exact h
theorem final_main_call0_call0_v1 (m : (ℓ : Loc nD τ sig) → Buf (Elt F) ℓ) (c : Dev nD) :
    final m c (Proc.devRef .tc main_call0_call0_v1) = (broadcastInDim S256 ![] bcast_S_S256 : (⟨S_, .f32⟩ : BufTy).Contents (Elt F) → (⟨S256, .f32⟩ : BufTy).Contents (Elt F)) (final m c (Proc.devRef .tc main_call0_call0_v0)) := by
  have h := Sage.after_unary (x := main_call0_call0_v0) (y := main_call0_call0_v1) (ops_Writes (F := F)) 281 (launchContents m c) (by rfl) (by decide +kernel) (by decide +kernel)
  unfold final
  generalize after ops (launchContents m c) = G at h ⊢
  exact h
theorem final_main_v216 (m : (ℓ : Loc nD τ sig) → Buf (Elt F) ℓ) (c : Dev nD) :
    final m c (Proc.devRef .tc main_v216) = (select (broadcastInDim S256 ![] bcast_S_S256 (final m c (Proc.devRef .tc main_call0_v12))) (final m c (Proc.devRef .tc main_call0_v11)) (final m c (Proc.devRef .tc main_call0_call0_v1)) : (⟨S256, .f32⟩ : BufTy).Contents (Elt F)) := by
  have h := Sage.after_ternary (c := main_call0_v12) (a := main_call0_v11) (b := main_call0_call0_v1) (y := main_v216) (ops_Writes (F := F)) 282 (launchContents m c) (by rfl) (by decide +kernel) (by decide +kernel) (by decide +kernel) (by decide +kernel)
  unfold final
  generalize after ops (launchContents m c) = G at h ⊢
  exact h
theorem final_main_v217 (m : (ℓ : Loc nD τ sig) → Buf (Elt F) ℓ) (c : Dev nD) :
    final m c (Proc.devRef .tc main_v217) = (broadcastInDim S1x256 ![1] bcast_S256_S1x256_1 : (⟨S256, .f32⟩ : BufTy).Contents (Elt F) → (⟨S1x256, .f32⟩ : BufTy).Contents (Elt F)) (final m c (Proc.devRef .tc main_v215)) := by
  have h := Sage.after_unary (x := main_v215) (y := main_v217) (ops_Writes (F := F)) 283 (launchContents m c) (by rfl) (by decide +kernel) (by decide +kernel)
  unfold final
  generalize after ops (launchContents m c) = G at h ⊢
  exact h
theorem final_main_v218 (m : (ℓ : Loc nD τ sig) → Buf (Elt F) ℓ) (c : Dev nD) :
    final m c (Proc.devRef .tc main_v218) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v217)) := by
  have h := Sage.after_unary (x := main_v217) (y := main_v218) (ops_Writes (F := F)) 284 (launchContents m c) (by rfl) (by decide +kernel) (by decide +kernel)
  unfold final
  generalize after ops (launchContents m c) = G at h ⊢
  exact h
theorem final_main_v219 (m : (ℓ : Loc nD τ sig) → Buf (Elt F) ℓ) (c : Dev nD) :
    final m c (Proc.devRef .tc main_v219) = (subf : (⟨S20000x256, .f32⟩ : BufTy).Contents (Elt F) → (⟨S20000x256, .f32⟩ : BufTy).Contents (Elt F) → (⟨S20000x256, .f32⟩ : BufTy).Contents (Elt F)) (final m c (Proc.devRef .tc main_v181)) (final m c (Proc.devRef .tc main_v218)) := by
  have h := Sage.after_binary (a := main_v181) (b := main_v218) (y := main_v219) (ops_Writes (F := F)) 285 (launchContents m c) (by rfl) (by decide +kernel) (by decide +kernel) (by decide +kernel)
  unfold final
  generalize after ops (launchContents m c) = G at h ⊢
  exact h
theorem final_main_cst_43 (m : (ℓ : Loc nD τ sig) → Buf (Elt F) ℓ) (c : Dev nD) :
    final m c (Proc.devRef .tc main_cst_43) = (constant S_ .f32 0x3727C5AC#32) := by
  have h := Sage.after_nullary (y := main_cst_43) (ops_Writes (F := F)) 286 (launchContents m c) (by rfl) (by decide +kernel)
  unfold final
  generalize after ops (launchContents m c) = G at h ⊢
  exact h
theorem final_main_v220 (m : (ℓ : Loc nD τ sig) → Buf (Elt F) ℓ) (c : Dev nD) :
    final m c (Proc.devRef .tc main_v220) = (broadcastInDim S256 ![] bcast_S_S256 : (⟨S_, .f32⟩ : BufTy).Contents (Elt F) → (⟨S256, .f32⟩ : BufTy).Contents (Elt F)) (final m c (Proc.devRef .tc main_cst_43)) := by
  have h := Sage.after_unary (x := main_cst_43) (y := main_v220) (ops_Writes (F := F)) 287 (launchContents m c) (by rfl) (by decide +kernel) (by decide +kernel)
  unfold final
  generalize after ops (launchContents m c) = G at h ⊢
  exact h
theorem final_main_v221 (m : (ℓ : Loc nD τ sig) → Buf (Elt F) ℓ) (c : Dev nD) :
    final m c (Proc.devRef .tc main_v221) = (addf : (⟨S256, .f32⟩ : BufTy).Contents (Elt F) → (⟨S256, .f32⟩ : BufTy).Contents (Elt F) → (⟨S256, .f32⟩ : BufTy).Contents (Elt F)) (final m c (Proc.devRef .tc main_v216)) (final m c (Proc.devRef .tc main_v220)) := by
  have h := Sage.after_binary (a := main_v216) (b := main_v220) (y := main_v221) (ops_Writes (F := F)) 288 (launchContents m c) (by rfl) (by decide +kernel) (by decide +kernel) (by decide +kernel)
  unfold final
  generalize after ops (launchContents m c) = G at h ⊢
  exact h
theorem final_main_v222 (m : (ℓ : Loc nD τ sig) → Buf (Elt F) ℓ) (c : Dev nD) :
    final m c (Proc.devRef .tc main_v222) = (Host.rsqrt : (⟨S256, .f32⟩ : BufTy).Contents (Elt F) → (⟨S256, .f32⟩ : BufTy).Contents (Elt F)) (final m c (Proc.devRef .tc main_v221)) := by
  have h := Sage.after_unary (x := main_v221) (y := main_v222) (ops_Writes (F := F)) 289 (launchContents m c) (by rfl) (by decide +kernel) (by decide +kernel)
  unfold final
  generalize after ops (launchContents m c) = G at h ⊢
  exact h
theorem final_main_v223 (m : (ℓ : Loc nD τ sig) → Buf (Elt F) ℓ) (c : Dev nD) :
    final m c (Proc.devRef .tc main_v223) = (broadcastInDim S1x256 ![1] bcast_S256_S1x256_1 : (⟨S256, .f32⟩ : BufTy).Contents (Elt F) → (⟨S1x256, .f32⟩ : BufTy).Contents (Elt F)) (final m c (Proc.devRef .tc main_v222)) := by
  have h := Sage.after_unary (x := main_v222) (y := main_v223) (ops_Writes (F := F)) 290 (launchContents m c) (by rfl) (by decide +kernel) (by decide +kernel)
  unfold final
  generalize after ops (launchContents m c) = G at h ⊢
  exact h
theorem final_main_v224 (m : (ℓ : Loc nD τ sig) → Buf (Elt F) ℓ) (c : Dev nD) :
    final m c (Proc.devRef .tc main_v224) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v223)) := by
  have h := Sage.after_unary (x := main_v223) (y := main_v224) (ops_Writes (F := F)) 291 (launchContents m c) (by rfl) (by decide +kernel) (by decide +kernel)
  unfold final
  generalize after ops (launchContents m c) = G at h ⊢
  exact h
theorem final_main_v225 (m : (ℓ : Loc nD τ sig) → Buf (Elt F) ℓ) (c : Dev nD) :
    final m c (Proc.devRef .tc main_v225) = (mulf : (⟨S20000x256, .f32⟩ : BufTy).Contents (Elt F) → (⟨S20000x256, .f32⟩ : BufTy).Contents (Elt F) → (⟨S20000x256, .f32⟩ : BufTy).Contents (Elt F)) (final m c (Proc.devRef .tc main_v219)) (final m c (Proc.devRef .tc main_v224)) := by
  have h := Sage.after_binary (a := main_v219) (b := main_v224) (y := main_v225) (ops_Writes (F := F)) 292 (launchContents m c) (by rfl) (by decide +kernel) (by decide +kernel) (by decide +kernel)
  unfold final
  generalize after ops (launchContents m c) = G at h ⊢
  exact h
theorem final_main_v226 (m : (ℓ : Loc nD τ sig) → Buf (Elt F) ℓ) (c : Dev nD) :
    final m c (Proc.devRef .tc main_v226) = (broadcastInDim S1x256 ![1] bcast_S256_S1x256_1 : (⟨S256, .f32⟩ : BufTy).Contents (Elt F) → (⟨S1x256, .f32⟩ : BufTy).Contents (Elt F)) (final m c (Proc.devRef .tc main_arg10)) := by
  have h := Sage.after_unary (x := main_arg10) (y := main_v226) (ops_Writes (F := F)) 293 (launchContents m c) (by rfl) (by decide +kernel) (by decide +kernel)
  unfold final
  generalize after ops (launchContents m c) = G at h ⊢
  exact h
theorem final_main_v227 (m : (ℓ : Loc nD τ sig) → Buf (Elt F) ℓ) (c : Dev nD) :
    final m c (Proc.devRef .tc main_v227) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v226)) := by
  have h := Sage.after_unary (x := main_v226) (y := main_v227) (ops_Writes (F := F)) 294 (launchContents m c) (by rfl) (by decide +kernel) (by decide +kernel)
  unfold final
  generalize after ops (launchContents m c) = G at h ⊢
  exact h
theorem final_main_v228 (m : (ℓ : Loc nD τ sig) → Buf (Elt F) ℓ) (c : Dev nD) :
    final m c (Proc.devRef .tc main_v228) = (mulf : (⟨S20000x256, .f32⟩ : BufTy).Contents (Elt F) → (⟨S20000x256, .f32⟩ : BufTy).Contents (Elt F) → (⟨S20000x256, .f32⟩ : BufTy).Contents (Elt F)) (final m c (Proc.devRef .tc main_v225)) (final m c (Proc.devRef .tc main_v227)) := by
  have h := Sage.after_binary (a := main_v225) (b := main_v227) (y := main_v228) (ops_Writes (F := F)) 295 (launchContents m c) (by rfl) (by decide +kernel) (by decide +kernel) (by decide +kernel)
  unfold final
  generalize after ops (launchContents m c) = G at h ⊢
  exact h
theorem final_main_v229 (m : (ℓ : Loc nD τ sig) → Buf (Elt F) ℓ) (c : Dev nD) :
    final m c (Proc.devRef .tc main_v229) = (broadcastInDim S1x256 ![1] bcast_S256_S1x256_1 : (⟨S256, .f32⟩ : BufTy).Contents (Elt F) → (⟨S1x256, .f32⟩ : BufTy).Contents (Elt F)) (final m c (Proc.devRef .tc main_arg11)) := by
  have h := Sage.after_unary (x := main_arg11) (y := main_v229) (ops_Writes (F := F)) 296 (launchContents m c) (by rfl) (by decide +kernel) (by decide +kernel)
  unfold final
  generalize after ops (launchContents m c) = G at h ⊢
  exact h
theorem final_main_v230 (m : (ℓ : Loc nD τ sig) → Buf (Elt F) ℓ) (c : Dev nD) :
    final m c (Proc.devRef .tc main_v230) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v229)) := by
  have h := Sage.after_unary (x := main_v229) (y := main_v230) (ops_Writes (F := F)) 297 (launchContents m c) (by rfl) (by decide +kernel) (by decide +kernel)
  unfold final
  generalize after ops (launchContents m c) = G at h ⊢
  exact h
theorem final_main_v231 (m : (ℓ : Loc nD τ sig) → Buf (Elt F) ℓ) (c : Dev nD) :
    final m c (Proc.devRef .tc main_v231) = (addf : (⟨S20000x256, .f32⟩ : BufTy).Contents (Elt F) → (⟨S20000x256, .f32⟩ : BufTy).Contents (Elt F) → (⟨S20000x256, .f32⟩ : BufTy).Contents (Elt F)) (final m c (Proc.devRef .tc main_v228)) (final m c (Proc.devRef .tc main_v230)) := by
  have h := Sage.after_binary (a := main_v228) (b := main_v230) (y := main_v231) (ops_Writes (F := F)) 298 (launchContents m c) (by rfl) (by decide +kernel) (by decide +kernel) (by decide +kernel)
  unfold final
  generalize after ops (launchContents m c) = G at h ⊢
  exact h
theorem final_main_call1_cst (m : (ℓ : Loc nD τ sig) → Buf (Elt F) ℓ) (c : Dev nD) :
    final m c (Proc.devRef .tc main_call1_cst) = (constant S_ .f32 0x00000000#32 : (⟨S_, .f32⟩ : BufTy).Contents (Elt F)) := by
  have h := Sage.after_nullary (y := main_call1_cst) (ops_Writes (F := F)) 299 (launchContents m c) (by rfl) (by decide +kernel)
  unfold final
  generalize after ops (launchContents m c) = G at h ⊢
  exact h
theorem final_main_call1_v0 (m : (ℓ : Loc nD τ sig) → Buf (Elt F) ℓ) (c : Dev nD) :
    final m c (Proc.devRef .tc main_call1_v0) = (broadcastInDim S20000x256 ![] bcast_S_S20000x256 : (⟨S_, .f32⟩ : BufTy).Contents (Elt F) → (⟨S20000x256, .f32⟩ : BufTy).Contents (Elt F)) (final m c (Proc.devRef .tc main_call1_cst)) := by
  have h := Sage.after_unary (x := main_call1_cst) (y := main_call1_v0) (ops_Writes (F := F)) 300 (launchContents m c) (by rfl) (by decide +kernel) (by decide +kernel)
  unfold final
  generalize after ops (launchContents m c) = G at h ⊢
  exact h
theorem final_main_v232 (m : (ℓ : Loc nD τ sig) → Buf (Elt F) ℓ) (c : Dev nD) :
    final m c (Proc.devRef .tc main_v232) = (maximumf : (⟨S20000x256, .f32⟩ : BufTy).Contents (Elt F) → (⟨S20000x256, .f32⟩ : BufTy).Contents (Elt F) → (⟨S20000x256, .f32⟩ : BufTy).Contents (Elt F)) (final m c (Proc.devRef .tc main_v231)) (final m c (Proc.devRef .tc main_call1_v0)) := by
  have h := Sage.after_binary (a := main_v231) (b := main_call1_v0) (y := main_v232) (ops_Writes (F := F)) 301 (launchContents m c) (by rfl) (by decide +kernel) (by decide +kernel) (by decide +kernel)
  unfold final
  generalize after ops (launchContents m c) = G at h ⊢
  exact h
theorem final_main_cst_44 (m : (ℓ : Loc nD τ sig) → Buf (Elt F) ℓ) (c : Dev nD) :
    final m c (Proc.devRef .tc main_cst_44) = (constant S_ .f32 0x00000000#32) := by
  have h := Sage.after_nullary (y := main_cst_44) (ops_Writes (F := F)) 302 (launchContents m c) (by rfl) (by decide +kernel)
  unfold final
  generalize after ops (launchContents m c) = G at h ⊢
  exact h
theorem final_main_v233 (m : (ℓ : Loc nD τ sig) → Buf (Elt F) ℓ) (c : Dev nD) :
    final m c (Proc.devRef .tc main_v233) = (Host.reduceAdd (final m c (Proc.devRef .tc main_v212)) (final m c (Proc.devRef .tc main_cst_44)) reducesTo_S50000x256_S256_d0 h_S_ : (⟨S256, .f32⟩ : BufTy).Contents (Elt F)) := by
  have h := Sage.after_binary (a := main_v212) (b := main_cst_44) (y := main_v233) (ops_Writes (F := F)) 303 (launchContents m c) (by rfl) (by decide +kernel) (by decide +kernel) (by decide +kernel)
  unfold final
  generalize after ops (launchContents m c) = G at h ⊢
  exact h
theorem final_main_cst_45 (m : (ℓ : Loc nD τ sig) → Buf (Elt F) ℓ) (c : Dev nD) :
    final m c (Proc.devRef .tc main_cst_45) = (constant S_ .f32 0x47435000#32) := by
  have h := Sage.after_nullary (y := main_cst_45) (ops_Writes (F := F)) 304 (launchContents m c) (by rfl) (by decide +kernel)
  unfold final
  generalize after ops (launchContents m c) = G at h ⊢
  exact h
theorem final_main_v234 (m : (ℓ : Loc nD τ sig) → Buf (Elt F) ℓ) (c : Dev nD) :
    final m c (Proc.devRef .tc main_v234) = (broadcastInDim S256 ![] bcast_S_S256 : (⟨S_, .f32⟩ : BufTy).Contents (Elt F) → (⟨S256, .f32⟩ : BufTy).Contents (Elt F)) (final m c (Proc.devRef .tc main_cst_45)) := by
  have h := Sage.after_unary (x := main_cst_45) (y := main_v234) (ops_Writes (F := F)) 305 (launchContents m c) (by rfl) (by decide +kernel) (by decide +kernel)
  unfold final
  generalize after ops (launchContents m c) = G at h ⊢
  exact h
theorem final_main_v235 (m : (ℓ : Loc nD τ sig) → Buf (Elt F) ℓ) (c : Dev nD) :
    final m c (Proc.devRef .tc main_v235) = (Host.divf : (⟨S256, .f32⟩ : BufTy).Contents (Elt F) → (⟨S256, .f32⟩ : BufTy).Contents (Elt F) → (⟨S256, .f32⟩ : BufTy).Contents (Elt F)) (final m c (Proc.devRef .tc main_v233)) (final m c (Proc.devRef .tc main_v234)) := by
  have h := Sage.after_binary (a := main_v233) (b := main_v234) (y := main_v235) (ops_Writes (F := F)) 306 (launchContents m c) (by rfl) (by decide +kernel) (by decide +kernel) (by decide +kernel)
  unfold final
  generalize after ops (launchContents m c) = G at h ⊢
  exact h
theorem final_main_c_46 (m : (ℓ : Loc nD τ sig) → Buf (Elt F) ℓ) (c : Dev nD) :
    final m c (Proc.devRef .tc main_c_46) = (constantI S_ 32 0#32) := by
  have h := Sage.after_nullary (y := main_c_46) (ops_Writes (F := F)) 307 (launchContents m c) (by rfl) (by decide +kernel)
  unfold final
  generalize after ops (launchContents m c) = G at h ⊢
  exact h
theorem final_main_call2_cst (m : (ℓ : Loc nD τ sig) → Buf (Elt F) ℓ) (c : Dev nD) :
    final m c (Proc.devRef .tc main_call2_cst) = (constant S_ .f32 0x00000000#32 : (⟨S_, .f32⟩ : BufTy).Contents (Elt F)) := by
  have h := Sage.after_nullary (y := main_call2_cst) (ops_Writes (F := F)) 308 (launchContents m c) (by rfl) (by decide +kernel)
  unfold final
  generalize after ops (launchContents m c) = G at h ⊢
  exact h
theorem final_main_call2_v0 (m : (ℓ : Loc nD τ sig) → Buf (Elt F) ℓ) (c : Dev nD) :
    final m c (Proc.devRef .tc main_call2_v0) = (Host.reduceAdd (final m c (Proc.devRef .tc main_v212)) (final m c (Proc.devRef .tc main_call2_cst)) reducesTo_S50000x256_S256_d0 h_S_ : (⟨S256, .f32⟩ : BufTy).Contents (Elt F)) := by
  have h := Sage.after_binary (a := main_v212) (b := main_call2_cst) (y := main_call2_v0) (ops_Writes (F := F)) 309 (launchContents m c) (by rfl) (by decide +kernel) (by decide +kernel) (by decide +kernel)
  unfold final
  generalize after ops (launchContents m c) = G at h ⊢
  exact h
theorem final_main_call2_v1 (m : (ℓ : Loc nD τ sig) → Buf (Elt F) ℓ) (c : Dev nD) :
    final m c (Proc.devRef .tc main_call2_v1) = (broadcastInDim S1x256 ![1] bcast_S256_S1x256_1 : (⟨S256, .f32⟩ : BufTy).Contents (Elt F) → (⟨S1x256, .f32⟩ : BufTy).Contents (Elt F)) (final m c (Proc.devRef .tc main_call2_v0)) := by
  have h := Sage.after_unary (x := main_call2_v0) (y := main_call2_v1) (ops_Writes (F := F)) 310 (launchContents m c) (by rfl) (by decide +kernel) (by decide +kernel)
  unfold final
  generalize after ops (launchContents m c) = G at h ⊢
  exact h
theorem final_main_call2_cst_0 (m : (ℓ : Loc nD τ sig) → Buf (Elt F) ℓ) (c : Dev nD) :
    final m c (Proc.devRef .tc main_call2_cst_0) = (constant S_ .f32 0x47435000#32 : (⟨S_, .f32⟩ : BufTy).Contents (Elt F)) := by
  have h := Sage.after_nullary (y := main_call2_cst_0) (ops_Writes (F := F)) 311 (launchContents m c) (by rfl) (by decide +kernel)
  unfold final
  generalize after ops (launchContents m c) = G at h ⊢
  exact h
theorem final_main_call2_v2 (m : (ℓ : Loc nD τ sig) → Buf (Elt F) ℓ) (c : Dev nD) :
    final m c (Proc.devRef .tc main_call2_v2) = (broadcastInDim S1x256 ![] bcast_S_S1x256 : (⟨S_, .f32⟩ : BufTy).Contents (Elt F) → (⟨S1x256, .f32⟩ : BufTy).Contents (Elt F)) (final m c (Proc.devRef .tc main_call2_cst_0)) := by
  have h := Sage.after_unary (x := main_call2_cst_0) (y := main_call2_v2) (ops_Writes (F := F)) 312 (launchContents m c) (by rfl) (by decide +kernel) (by decide +kernel)
  unfold final
  generalize after ops (launchContents m c) = G at h ⊢
  exact h
theorem final_main_call2_v3 (m : (ℓ : Loc nD τ sig) → Buf (Elt F) ℓ) (c : Dev nD) :
    final m c (Proc.devRef .tc main_call2_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call2_v1)) (final m c (Proc.devRef .tc main_call2_v2)) := by
  have h := Sage.after_binary (a := main_call2_v1) (b := main_call2_v2) (y := main_call2_v3) (ops_Writes (F := F)) 313 (launchContents m c) (by rfl) (by decide +kernel) (by decide +kernel) (by decide +kernel)
  unfold final
  generalize after ops (launchContents m c) = G at h ⊢
  exact h
theorem final_main_call2_v4 (m : (ℓ : Loc nD τ sig) → Buf (Elt F) ℓ) (c : Dev nD) :
    final m c (Proc.devRef .tc main_call2_v4) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_call2_v3)) := by
  have h := Sage.after_unary (x := main_call2_v3) (y := main_call2_v4) (ops_Writes (F := F)) 314 (launchContents m c) (by rfl) (by decide +kernel) (by decide +kernel)
  unfold final
  generalize after ops (launchContents m c) = G at h ⊢
  exact h
theorem final_main_call2_v5 (m : (ℓ : Loc nD τ sig) → Buf (Elt F) ℓ) (c : Dev nD) :
    final m c (Proc.devRef .tc main_call2_v5) = (subf : (⟨S50000x256, .f32⟩ : BufTy).Contents (Elt F) → (⟨S50000x256, .f32⟩ : BufTy).Contents (Elt F) → (⟨S50000x256, .f32⟩ : BufTy).Contents (Elt F)) (final m c (Proc.devRef .tc main_v212)) (final m c (Proc.devRef .tc main_call2_v4)) := by
  have h := Sage.after_binary (a := main_v212) (b := main_call2_v4) (y := main_call2_v5) (ops_Writes (F := F)) 315 (launchContents m c) (by rfl) (by decide +kernel) (by decide +kernel) (by decide +kernel)
  unfold final
  generalize after ops (launchContents m c) = G at h ⊢
  exact h
theorem final_main_call2_v6 (m : (ℓ : Loc nD τ sig) → Buf (Elt F) ℓ) (c : Dev nD) :
    final m c (Proc.devRef .tc main_call2_v6) = (mulf : (⟨S50000x256, .f32⟩ : BufTy).Contents (Elt F) → (⟨S50000x256, .f32⟩ : BufTy).Contents (Elt F) → (⟨S50000x256, .f32⟩ : BufTy).Contents (Elt F)) (final m c (Proc.devRef .tc main_call2_v5)) (final m c (Proc.devRef .tc main_call2_v5)) := by
  have h := Sage.after_binary (a := main_call2_v5) (b := main_call2_v5) (y := main_call2_v6) (ops_Writes (F := F)) 316 (launchContents m c) (by rfl) (by decide +kernel) (by decide +kernel) (by decide +kernel)
  unfold final
  generalize after ops (launchContents m c) = G at h ⊢
  exact h
theorem final_main_call2_v7 (m : (ℓ : Loc nD τ sig) → Buf (Elt F) ℓ) (c : Dev nD) :
    final m c (Proc.devRef .tc main_call2_v7) = (sitofp .f32 : (⟨S_, .i32⟩ : BufTy).Contents (Elt F) → (⟨S_, .f32⟩ : BufTy).Contents (Elt F)) (final m c (Proc.devRef .tc main_c_46)) := by
  have h := Sage.after_unary (x := main_c_46) (y := main_call2_v7) (ops_Writes (F := F)) 317 (launchContents m c) (by rfl) (by decide +kernel) (by decide +kernel)
  unfold final
  generalize after ops (launchContents m c) = G at h ⊢
  exact h
theorem final_main_call2_cst_1 (m : (ℓ : Loc nD τ sig) → Buf (Elt F) ℓ) (c : Dev nD) :
    final m c (Proc.devRef .tc main_call2_cst_1) = (constant S_ .f32 0x47435000#32 : (⟨S_, .f32⟩ : BufTy).Contents (Elt F)) := by
  have h := Sage.after_nullary (y := main_call2_cst_1) (ops_Writes (F := F)) 318 (launchContents m c) (by rfl) (by decide +kernel)
  unfold final
  generalize after ops (launchContents m c) = G at h ⊢
  exact h
theorem final_main_call2_v8 (m : (ℓ : Loc nD τ sig) → Buf (Elt F) ℓ) (c : Dev nD) :
    final m c (Proc.devRef .tc main_call2_v8) = (subf : (⟨S_, .f32⟩ : BufTy).Contents (Elt F) → (⟨S_, .f32⟩ : BufTy).Contents (Elt F) → (⟨S_, .f32⟩ : BufTy).Contents (Elt F)) (final m c (Proc.devRef .tc main_call2_cst_1)) (final m c (Proc.devRef .tc main_call2_v7)) := by
  have h := Sage.after_binary (a := main_call2_cst_1) (b := main_call2_v7) (y := main_call2_v8) (ops_Writes (F := F)) 319 (launchContents m c) (by rfl) (by decide +kernel) (by decide +kernel) (by decide +kernel)
  unfold final
  generalize after ops (launchContents m c) = G at h ⊢
  exact h
theorem final_main_call2_cst_2 (m : (ℓ : Loc nD τ sig) → Buf (Elt F) ℓ) (c : Dev nD) :
    final m c (Proc.devRef .tc main_call2_cst_2) = (constant S_ .f32 0x00000000#32 : (⟨S_, .f32⟩ : BufTy).Contents (Elt F)) := by
  have h := Sage.after_nullary (y := main_call2_cst_2) (ops_Writes (F := F)) 320 (launchContents m c) (by rfl) (by decide +kernel)
  unfold final
  generalize after ops (launchContents m c) = G at h ⊢
  exact h
theorem final_main_call2_v9 (m : (ℓ : Loc nD τ sig) → Buf (Elt F) ℓ) (c : Dev nD) :
    final m c (Proc.devRef .tc main_call2_v9) = (Host.reduceAdd (final m c (Proc.devRef .tc main_call2_v6)) (final m c (Proc.devRef .tc main_call2_cst_2)) reducesTo_S50000x256_S256_d0 h_S_ : (⟨S256, .f32⟩ : BufTy).Contents (Elt F)) := by
  have h := Sage.after_binary (a := main_call2_v6) (b := main_call2_cst_2) (y := main_call2_v9) (ops_Writes (F := F)) 321 (launchContents m c) (by rfl) (by decide +kernel) (by decide +kernel) (by decide +kernel)
  unfold final
  generalize after ops (launchContents m c) = G at h ⊢
  exact h
theorem final_main_call2_v10 (m : (ℓ : Loc nD τ sig) → Buf (Elt F) ℓ) (c : Dev nD) :
    final m c (Proc.devRef .tc main_call2_v10) = (broadcastInDim S256 ![] bcast_S_S256 : (⟨S_, .f32⟩ : BufTy).Contents (Elt F) → (⟨S256, .f32⟩ : BufTy).Contents (Elt F)) (final m c (Proc.devRef .tc main_call2_v8)) := by
  have h := Sage.after_unary (x := main_call2_v8) (y := main_call2_v10) (ops_Writes (F := F)) 322 (launchContents m c) (by rfl) (by decide +kernel) (by decide +kernel)
  unfold final
  generalize after ops (launchContents m c) = G at h ⊢
  exact h
theorem final_main_call2_v11 (m : (ℓ : Loc nD τ sig) → Buf (Elt F) ℓ) (c : Dev nD) :
    final m c (Proc.devRef .tc main_call2_v11) = (Host.divf : (⟨S256, .f32⟩ : BufTy).Contents (Elt F) → (⟨S256, .f32⟩ : BufTy).Contents (Elt F) → (⟨S256, .f32⟩ : BufTy).Contents (Elt F)) (final m c (Proc.devRef .tc main_call2_v9)) (final m c (Proc.devRef .tc main_call2_v10)) := by
  have h := Sage.after_binary (a := main_call2_v9) (b := main_call2_v10) (y := main_call2_v11) (ops_Writes (F := F)) 323 (launchContents m c) (by rfl) (by decide +kernel) (by decide +kernel) (by decide +kernel)
  unfold final
  generalize after ops (launchContents m c) = G at h ⊢
  exact h
theorem final_main_call2_cst_3 (m : (ℓ : Loc nD τ sig) → Buf (Elt F) ℓ) (c : Dev nD) :
    final m c (Proc.devRef .tc main_call2_cst_3) = (constant S_ .f32 0x00000000#32 : (⟨S_, .f32⟩ : BufTy).Contents (Elt F)) := by
  have h := Sage.after_nullary (y := main_call2_cst_3) (ops_Writes (F := F)) 324 (launchContents m c) (by rfl) (by decide +kernel)
  unfold final
  generalize after ops (launchContents m c) = G at h ⊢
  exact h
theorem final_main_call2_v12 (m : (ℓ : Loc nD τ sig) → Buf (Elt F) ℓ) (c : Dev nD) :
    final m c (Proc.devRef .tc main_call2_v12) = (cmpf .ogt : (⟨S_, .f32⟩ : BufTy).Contents (Elt F) → (⟨S_, .f32⟩ : BufTy).Contents (Elt F) → (⟨S_, .i1⟩ : BufTy).Contents (Elt F)) (final m c (Proc.devRef .tc main_call2_v8)) (final m c (Proc.devRef .tc main_call2_cst_3)) := by
  have h := Sage.after_binary (a := main_call2_v8) (b := main_call2_cst_3) (y := main_call2_v12) (ops_Writes (F := F)) 325 (launchContents m c) (by rfl) (by decide +kernel) (by decide +kernel) (by decide +kernel)
  unfold final
  generalize after ops (launchContents m c) = G at h ⊢
  exact h
theorem final_main_call2_cst_4 (m : (ℓ : Loc nD τ sig) → Buf (Elt F) ℓ) (c : Dev nD) :
    final m c (Proc.devRef .tc main_call2_cst_4) = (constant S_ .f32 0x7FC00000#32 : (⟨S_, .f32⟩ : BufTy).Contents (Elt F)) := by
  have h := Sage.after_nullary (y := main_call2_cst_4) (ops_Writes (F := F)) 326 (launchContents m c) (by rfl) (by decide +kernel)
  unfold final
  generalize after ops (launchContents m c) = G at h ⊢
  exact h
theorem final_main_call2_call0_v0 (m : (ℓ : Loc nD τ sig) → Buf (Elt F) ℓ) (c : Dev nD) :
    final m c (Proc.devRef .tc main_call2_call0_v0) = (id : (⟨S_, .f32⟩ : BufTy).Contents (Elt F) → (⟨S_, .f32⟩ : BufTy).Contents (Elt F)) (final m c (Proc.devRef .tc main_call2_cst_4)) := by
  have h := Sage.after_unary (x := main_call2_cst_4) (y := main_call2_call0_v0) (ops_Writes (F := F)) 327 (launchContents m c) (by rfl) (by decide +kernel) (by decide +kernel)
  unfold final
  generalize after ops (launchContents m c) = G at h ⊢
  exact h
theorem final_main_call2_call0_v1 (m : (ℓ : Loc nD τ sig) → Buf (Elt F) ℓ) (c : Dev nD) :
    final m c (Proc.devRef .tc main_call2_call0_v1) = (broadcastInDim S256 ![] bcast_S_S256 : (⟨S_, .f32⟩ : BufTy).Contents (Elt F) → (⟨S256, .f32⟩ : BufTy).Contents (Elt F)) (final m c (Proc.devRef .tc main_call2_call0_v0)) := by
  have h := Sage.after_unary (x := main_call2_call0_v0) (y := main_call2_call0_v1) (ops_Writes (F := F)) 328 (launchContents m c) (by rfl) (by decide +kernel) (by decide +kernel)
  unfold final
  generalize after ops (launchContents m c) = G at h ⊢
  exact h
theorem final_main_v236 (m : (ℓ : Loc nD τ sig) → Buf (Elt F) ℓ) (c : Dev nD) :
    final m c (Proc.devRef .tc main_v236) = (select (broadcastInDim S256 ![] bcast_S_S256 (final m c (Proc.devRef .tc main_call2_v12))) (final m c (Proc.devRef .tc main_call2_v11)) (final m c (Proc.devRef .tc main_call2_call0_v1)) : (⟨S256, .f32⟩ : BufTy).Contents (Elt F)) := by
  have h := Sage.after_ternary (c := main_call2_v12) (a := main_call2_v11) (b := main_call2_call0_v1) (y := main_v236) (ops_Writes (F := F)) 329 (launchContents m c) (by rfl) (by decide +kernel) (by decide +kernel) (by decide +kernel) (by decide +kernel)
  unfold final
  generalize after ops (launchContents m c) = G at h ⊢
  exact h
theorem final_main_v237 (m : (ℓ : Loc nD τ sig) → Buf (Elt F) ℓ) (c : Dev nD) :
    final m c (Proc.devRef .tc main_v237) = (broadcastInDim S1x256 ![1] bcast_S256_S1x256_1 : (⟨S256, .f32⟩ : BufTy).Contents (Elt F) → (⟨S1x256, .f32⟩ : BufTy).Contents (Elt F)) (final m c (Proc.devRef .tc main_v235)) := by
  have h := Sage.after_unary (x := main_v235) (y := main_v237) (ops_Writes (F := F)) 330 (launchContents m c) (by rfl) (by decide +kernel) (by decide +kernel)
  unfold final
  generalize after ops (launchContents m c) = G at h ⊢
  exact h
theorem final_main_v238 (m : (ℓ : Loc nD τ sig) → Buf (Elt F) ℓ) (c : Dev nD) :
    final m c (Proc.devRef .tc main_v238) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v237)) := by
  have h := Sage.after_unary (x := main_v237) (y := main_v238) (ops_Writes (F := F)) 331 (launchContents m c) (by rfl) (by decide +kernel) (by decide +kernel)
  unfold final
  generalize after ops (launchContents m c) = G at h ⊢
  exact h
theorem final_main_v239 (m : (ℓ : Loc nD τ sig) → Buf (Elt F) ℓ) (c : Dev nD) :
    final m c (Proc.devRef .tc main_v239) = (subf : (⟨S50000x256, .f32⟩ : BufTy).Contents (Elt F) → (⟨S50000x256, .f32⟩ : BufTy).Contents (Elt F) → (⟨S50000x256, .f32⟩ : BufTy).Contents (Elt F)) (final m c (Proc.devRef .tc main_v212)) (final m c (Proc.devRef .tc main_v238)) := by
  have h := Sage.after_binary (a := main_v212) (b := main_v238) (y := main_v239) (ops_Writes (F := F)) 332 (launchContents m c) (by rfl) (by decide +kernel) (by decide +kernel) (by decide +kernel)
  unfold final
  generalize after ops (launchContents m c) = G at h ⊢
  exact h
theorem final_main_cst_47 (m : (ℓ : Loc nD τ sig) → Buf (Elt F) ℓ) (c : Dev nD) :
    final m c (Proc.devRef .tc main_cst_47) = (constant S_ .f32 0x3727C5AC#32) := by
  have h := Sage.after_nullary (y := main_cst_47) (ops_Writes (F := F)) 333 (launchContents m c) (by rfl) (by decide +kernel)
  unfold final
  generalize after ops (launchContents m c) = G at h ⊢
  exact h
theorem final_main_v240 (m : (ℓ : Loc nD τ sig) → Buf (Elt F) ℓ) (c : Dev nD) :
    final m c (Proc.devRef .tc main_v240) = (broadcastInDim S256 ![] bcast_S_S256 : (⟨S_, .f32⟩ : BufTy).Contents (Elt F) → (⟨S256, .f32⟩ : BufTy).Contents (Elt F)) (final m c (Proc.devRef .tc main_cst_47)) := by
  have h := Sage.after_unary (x := main_cst_47) (y := main_v240) (ops_Writes (F := F)) 334 (launchContents m c) (by rfl) (by decide +kernel) (by decide +kernel)
  unfold final
  generalize after ops (launchContents m c) = G at h ⊢
  exact h
theorem final_main_v241 (m : (ℓ : Loc nD τ sig) → Buf (Elt F) ℓ) (c : Dev nD) :
    final m c (Proc.devRef .tc main_v241) = (addf : (⟨S256, .f32⟩ : BufTy).Contents (Elt F) → (⟨S256, .f32⟩ : BufTy).Contents (Elt F) → (⟨S256, .f32⟩ : BufTy).Contents (Elt F)) (final m c (Proc.devRef .tc main_v236)) (final m c (Proc.devRef .tc main_v240)) := by
  have h := Sage.after_binary (a := main_v236) (b := main_v240) (y := main_v241) (ops_Writes (F := F)) 335 (launchContents m c) (by rfl) (by decide +kernel) (by decide +kernel) (by decide +kernel)
  unfold final
  generalize after ops (launchContents m c) = G at h ⊢
  exact h
theorem final_main_v242 (m : (ℓ : Loc nD τ sig) → Buf (Elt F) ℓ) (c : Dev nD) :
    final m c (Proc.devRef .tc main_v242) = (Host.rsqrt : (⟨S256, .f32⟩ : BufTy).Contents (Elt F) → (⟨S256, .f32⟩ : BufTy).Contents (Elt F)) (final m c (Proc.devRef .tc main_v241)) := by
  have h := Sage.after_unary (x := main_v241) (y := main_v242) (ops_Writes (F := F)) 336 (launchContents m c) (by rfl) (by decide +kernel) (by decide +kernel)
  unfold final
  generalize after ops (launchContents m c) = G at h ⊢
  exact h
theorem final_main_v243 (m : (ℓ : Loc nD τ sig) → Buf (Elt F) ℓ) (c : Dev nD) :
    final m c (Proc.devRef .tc main_v243) = (broadcastInDim S1x256 ![1] bcast_S256_S1x256_1 : (⟨S256, .f32⟩ : BufTy).Contents (Elt F) → (⟨S1x256, .f32⟩ : BufTy).Contents (Elt F)) (final m c (Proc.devRef .tc main_v242)) := by
  have h := Sage.after_unary (x := main_v242) (y := main_v243) (ops_Writes (F := F)) 337 (launchContents m c) (by rfl) (by decide +kernel) (by decide +kernel)
  unfold final
  generalize after ops (launchContents m c) = G at h ⊢
  exact h
theorem final_main_v244 (m : (ℓ : Loc nD τ sig) → Buf (Elt F) ℓ) (c : Dev nD) :
    final m c (Proc.devRef .tc main_v244) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v243)) := by
  have h := Sage.after_unary (x := main_v243) (y := main_v244) (ops_Writes (F := F)) 338 (launchContents m c) (by rfl) (by decide +kernel) (by decide +kernel)
  unfold final
  generalize after ops (launchContents m c) = G at h ⊢
  exact h
theorem final_main_v245 (m : (ℓ : Loc nD τ sig) → Buf (Elt F) ℓ) (c : Dev nD) :
    final m c (Proc.devRef .tc main_v245) = (mulf : (⟨S50000x256, .f32⟩ : BufTy).Contents (Elt F) → (⟨S50000x256, .f32⟩ : BufTy).Contents (Elt F) → (⟨S50000x256, .f32⟩ : BufTy).Contents (Elt F)) (final m c (Proc.devRef .tc main_v239)) (final m c (Proc.devRef .tc main_v244)) := by
  have h := Sage.after_binary (a := main_v239) (b := main_v244) (y := main_v245) (ops_Writes (F := F)) 339 (launchContents m c) (by rfl) (by decide +kernel) (by decide +kernel) (by decide +kernel)
  unfold final
  generalize after ops (launchContents m c) = G at h ⊢
  exact h
theorem final_main_v246 (m : (ℓ : Loc nD τ sig) → Buf (Elt F) ℓ) (c : Dev nD) :
    final m c (Proc.devRef .tc main_v246) = (broadcastInDim S1x256 ![1] bcast_S256_S1x256_1 : (⟨S256, .f32⟩ : BufTy).Contents (Elt F) → (⟨S1x256, .f32⟩ : BufTy).Contents (Elt F)) (final m c (Proc.devRef .tc main_arg10)) := by
  have h := Sage.after_unary (x := main_arg10) (y := main_v246) (ops_Writes (F := F)) 340 (launchContents m c) (by rfl) (by decide +kernel) (by decide +kernel)
  unfold final
  generalize after ops (launchContents m c) = G at h ⊢
  exact h
theorem final_main_v247 (m : (ℓ : Loc nD τ sig) → Buf (Elt F) ℓ) (c : Dev nD) :
    final m c (Proc.devRef .tc main_v247) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v246)) := by
  have h := Sage.after_unary (x := main_v246) (y := main_v247) (ops_Writes (F := F)) 341 (launchContents m c) (by rfl) (by decide +kernel) (by decide +kernel)
  unfold final
  generalize after ops (launchContents m c) = G at h ⊢
  exact h
theorem final_main_v248 (m : (ℓ : Loc nD τ sig) → Buf (Elt F) ℓ) (c : Dev nD) :
    final m c (Proc.devRef .tc main_v248) = (mulf : (⟨S50000x256, .f32⟩ : BufTy).Contents (Elt F) → (⟨S50000x256, .f32⟩ : BufTy).Contents (Elt F) → (⟨S50000x256, .f32⟩ : BufTy).Contents (Elt F)) (final m c (Proc.devRef .tc main_v245)) (final m c (Proc.devRef .tc main_v247)) := by
  have h := Sage.after_binary (a := main_v245) (b := main_v247) (y := main_v248) (ops_Writes (F := F)) 342 (launchContents m c) (by rfl) (by decide +kernel) (by decide +kernel) (by decide +kernel)
  unfold final
  generalize after ops (launchContents m c) = G at h ⊢
  exact h
theorem final_main_v249 (m : (ℓ : Loc nD τ sig) → Buf (Elt F) ℓ) (c : Dev nD) :
    final m c (Proc.devRef .tc main_v249) = (broadcastInDim S1x256 ![1] bcast_S256_S1x256_1 : (⟨S256, .f32⟩ : BufTy).Contents (Elt F) → (⟨S1x256, .f32⟩ : BufTy).Contents (Elt F)) (final m c (Proc.devRef .tc main_arg11)) := by
  have h := Sage.after_unary (x := main_arg11) (y := main_v249) (ops_Writes (F := F)) 343 (launchContents m c) (by rfl) (by decide +kernel) (by decide +kernel)
  unfold final
  generalize after ops (launchContents m c) = G at h ⊢
  exact h

end Cert.ReferenceIdeal.Hand

end
-- ==== Proof.Ref.StageAgg1.lean ====
/-
  The reference's layer-1 aggregations, relation by relation. The buffer that holds a relation's aggregated rows at
  the end of the run is the pure aggregation (`refAgg1_<i>`) of three buffers' final contents: the source node type's rows
  and the edges' source and destination indices. Each equation is read off the run one operation at a time, from
  the result back to those buffers; what remains is the printed composition (the index wrap, the gather, the two
  scatter-additions, the maximum with one, the division), which is the pure function by unfolding.
-/
import proofs.«126569_j1468878815453_1_alg».proof.Proof.Ref.Final0
import proofs.«126569_j1468878815453_1_alg».proof.Proof.Ref.Final1
import proofs.«126569_j1468878815453_1_alg».proof.Proof.Ref.Final2
import proofs.«126569_j1468878815453_1_alg».proof.Proof.Ref.Final3
import proofs.«126569_j1468878815453_1_alg».proof.Proof.Ref.Final4
import proofs.«126569_j1468878815453_1_alg».proof.Proof.Ref.PureNet

noncomputable section

namespace Cert.ReferenceIdeal.Hand

open Cert.ReferenceIdeal Cert.ReferenceIdeal.Gen Idealize.ShloMosaic Idealize.ShloMosaic.TcCoe Idealize.SL.Sem Idealize.ShloMosaic.StableHlo

/-- Layer 1, relation 0: the aggregated rows `%17` are the first node type's rows `%arg0` averaged, along the
    edges (sources `%arg14`, destinations `%arg15`), into the third node type's 10000 rows. -/
theorem agg1_0 (m : (ℓ : Loc nD τ sig) → Buf (Elt Ideal) ℓ) (c : Dev nD) :
    final m c (Proc.devRef .tc main_v17)
      = refAgg1_0 (F := Ideal) (final m c (Proc.devRef .tc main_arg0)) (final m c (Proc.devRef .tc main_arg14)) (final m c (Proc.devRef .tc main_arg15)) := by
  rw [final_main_v17, final_main_v16, final_main_v15, final_main_v14, final_main_cst_3, final_main_v13,
    final_main_v10, final_main_cst_1, final_main_v12, final_main_v11, final_main_cst_2, final_main_v9,
    final_main_v6, final_main_v5, final_main_v4, final_main_v3, final_main_v2, final_main_c_0, final_main_v1,
    final_main_v0, final_main_c, final_main_v8, final_main_v7, final_main_cst]
  rfl

/-- Layer 1, relation 1: the aggregated rows `%47` are the first node type's rows `%arg0` averaged, along the
    edges (sources `%arg16`, destinations `%arg17`), into the second node type's 50000 rows. -/
theorem agg1_1 (m : (ℓ : Loc nD τ sig) → Buf (Elt Ideal) ℓ) (c : Dev nD) :
    final m c (Proc.devRef .tc main_v47)
      = refAgg1_1 (F := Ideal) (final m c (Proc.devRef .tc main_arg0)) (final m c (Proc.devRef .tc main_arg16)) (final m c (Proc.devRef .tc main_arg17)) := by
  rw [final_main_v47, final_main_v46, final_main_v45, final_main_v44, final_main_cst_9, final_main_v43,
    final_main_v40, final_main_cst_7, final_main_v42, final_main_v41, final_main_cst_8, final_main_v39,
    final_main_v36, final_main_v35, final_main_v34, final_main_v33, final_main_v32, final_main_c_5,
    final_main_v31, final_main_v30, final_main_c_4, final_main_v38, final_main_v37, final_main_cst_6]
  rfl

/-- Layer 1, relation 2: the aggregated rows `%77` are the second node type's rows `%arg1` averaged, along the
    edges (sources `%arg18`, destinations `%arg19`), into the fourth node type's 3000 rows. -/
theorem agg1_2 (m : (ℓ : Loc nD τ sig) → Buf (Elt Ideal) ℓ) (c : Dev nD) :
    final m c (Proc.devRef .tc main_v77)
      = refAgg1_2 (F := Ideal) (final m c (Proc.devRef .tc main_arg1)) (final m c (Proc.devRef .tc main_arg18)) (final m c (Proc.devRef .tc main_arg19)) := by
  rw [final_main_v77, final_main_v76, final_main_v75, final_main_v74, final_main_cst_15, final_main_v73,
    final_main_v70, final_main_cst_13, final_main_v72, final_main_v71, final_main_cst_14, final_main_v69,
    final_main_v66, final_main_v65, final_main_v64, final_main_v63, final_main_v62, final_main_c_11,
    final_main_v61, final_main_v60, final_main_c_10, final_main_v68, final_main_v67, final_main_cst_12]
  rfl

/-- Layer 1, relation 3: the aggregated rows `%107` are the second node type's rows `%arg1` averaged, along the
    edges (sources `%arg20`, destinations `%arg21`), into the third node type's 10000 rows. -/
theorem agg1_3 (m : (ℓ : Loc nD τ sig) → Buf (Elt Ideal) ℓ) (c : Dev nD) :
    final m c (Proc.devRef .tc main_v107)
      = refAgg1_3 (F := Ideal) (final m c (Proc.devRef .tc main_arg1)) (final m c (Proc.devRef .tc main_arg20)) (final m c (Proc.devRef .tc main_arg21)) := by
  rw [final_main_v107, final_main_v106, final_main_v105, final_main_v104, final_main_cst_21, final_main_v103,
    final_main_v100, final_main_cst_19, final_main_v102, final_main_v101, final_main_cst_20, final_main_v99,
    final_main_v96, final_main_v95, final_main_v94, final_main_v93, final_main_v92, final_main_c_17,
    final_main_v91, final_main_v90, final_main_c_16, final_main_v98, final_main_v97, final_main_cst_18]
  rfl

/-- Layer 1, relation 4: the aggregated rows `%138` are the third node type's rows `%arg2` averaged, along the
    edges (sources `%arg22`, destinations `%arg23`), into the first node type's 20000 rows. -/
theorem agg1_4 (m : (ℓ : Loc nD τ sig) → Buf (Elt Ideal) ℓ) (c : Dev nD) :
    final m c (Proc.devRef .tc main_v138)
      = refAgg1_4 (F := Ideal) (final m c (Proc.devRef .tc main_arg2)) (final m c (Proc.devRef .tc main_arg22)) (final m c (Proc.devRef .tc main_arg23)) := by
  rw [final_main_v138, final_main_v137, final_main_v136, final_main_v135, final_main_cst_27, final_main_v134,
    final_main_v131, final_main_cst_25, final_main_v133, final_main_v132, final_main_cst_26, final_main_v130,
    final_main_v127, final_main_v126, final_main_v125, final_main_v124, final_main_v123, final_main_c_23,
    final_main_v122, final_main_v121, final_main_c_22, final_main_v129, final_main_v128, final_main_cst_24]
  rfl

/-- Layer 1, relation 5: the aggregated rows `%168` are the second node type's rows `%arg1` averaged, along the
    edges (sources `%arg24`, destinations `%arg25`), into the first node type's 20000 rows. -/
theorem agg1_5 (m : (ℓ : Loc nD τ sig) → Buf (Elt Ideal) ℓ) (c : Dev nD) :
    final m c (Proc.devRef .tc main_v168)
      = refAgg1_5 (F := Ideal) (final m c (Proc.devRef .tc main_arg1)) (final m c (Proc.devRef .tc main_arg24)) (final m c (Proc.devRef .tc main_arg25)) := by
  rw [final_main_v168, final_main_v167, final_main_v166, final_main_v165, final_main_cst_33, final_main_v164,
    final_main_v161, final_main_cst_31, final_main_v163, final_main_v162, final_main_cst_32, final_main_v160,
    final_main_v157, final_main_v156, final_main_v155, final_main_v154, final_main_v153, final_main_c_29,
    final_main_v152, final_main_v151, final_main_c_28, final_main_v159, final_main_v158, final_main_cst_30]
  rfl

/-- Layer 1, relation 6: the aggregated rows `%199` are the fourth node type's rows `%arg3` averaged, along the
    edges (sources `%arg26`, destinations `%arg27`), into the second node type's 50000 rows. -/
theorem agg1_6 (m : (ℓ : Loc nD τ sig) → Buf (Elt Ideal) ℓ) (c : Dev nD) :
    final m c (Proc.devRef .tc main_v199)
      = refAgg1_6 (F := Ideal) (final m c (Proc.devRef .tc main_arg3)) (final m c (Proc.devRef .tc main_arg26)) (final m c (Proc.devRef .tc main_arg27)) := by
  rw [final_main_v199, final_main_v198, final_main_v197, final_main_v196, final_main_cst_39, final_main_v195,
    final_main_v192, final_main_cst_37, final_main_v194, final_main_v193, final_main_cst_38, final_main_v191,
    final_main_v188, final_main_v187, final_main_v186, final_main_v185, final_main_v184, final_main_c_35,
    final_main_v183, final_main_v182, final_main_c_34, final_main_v190, final_main_v189, final_main_cst_36]
  rfl

end Cert.ReferenceIdeal.Hand

end
-- ==== Proof.Ref.StageRel1.lean ====
/-
  The reference's layer-1 relation stages, relation by relation. The buffer that holds a relation's contribution at the
  end of the run is the pure relation stage (`refRel1_<i>`) of five buffers' final contents: the relation's aggregated
  rows, the destination node type's own rows, the two weight stacks and the biases. Each equation is read off the run
  one operation at a time, from the result back to those buffers; what remains is the printed composition (two slices
  and reshapes of the weights, the bias row laid along the rows, two products and two additions), which is the pure
  function by unfolding.
-/
import proofs.«126569_j1468878815453_1_alg».proof.Proof.Ref.Final0
import proofs.«126569_j1468878815453_1_alg».proof.Proof.Ref.Final1
import proofs.«126569_j1468878815453_1_alg».proof.Proof.Ref.Final2
import proofs.«126569_j1468878815453_1_alg».proof.Proof.Ref.Final3
import proofs.«126569_j1468878815453_1_alg».proof.Proof.Ref.Final4
import proofs.«126569_j1468878815453_1_alg».proof.Proof.Ref.PureNet

noncomputable section

namespace Cert.ReferenceIdeal.Hand

open Cert.ReferenceIdeal Cert.ReferenceIdeal.Gen Idealize.ShloMosaic Idealize.ShloMosaic.TcCoe Idealize.SL.Sem Idealize.ShloMosaic.StableHlo

/-- Layer 1, relation 0: the contribution `%29` is the aggregated rows `%17` against the relation's left weights
    (matrix 0 of `%arg4`), plus its bias (row 0 of `%arg6`), plus the third node type's own rows `%arg2` against its right
    weights (matrix 0 of `%arg5`). -/
theorem rel1_0 (m : (ℓ : Loc nD τ sig) → Buf (Elt Ideal) ℓ) (c : Dev nD) :
    final m c (Proc.devRef .tc main_v29)
      = refRel1_0 (F := Ideal) (final m c (Proc.devRef .tc main_v17)) (final m c (Proc.devRef .tc main_arg2)) (final m c (Proc.devRef .tc main_arg4)) (final m c (Proc.devRef .tc main_arg5)) (final m c (Proc.devRef .tc main_arg6)) := by
  rw [final_main_v29, final_main_v28, final_main_v27, final_main_v26, final_main_v25, final_main_v24,
    final_main_v23, final_main_v22, final_main_v21, final_main_v20, final_main_v19, final_main_v18]
  rfl

/-- Layer 1, relation 1: the contribution `%59` is the aggregated rows `%47` against the relation's left weights
    (matrix 1 of `%arg4`), plus its bias (row 1 of `%arg6`), plus the second node type's own rows `%arg1` against its right
    weights (matrix 1 of `%arg5`). -/
theorem rel1_1 (m : (ℓ : Loc nD τ sig) → Buf (Elt Ideal) ℓ) (c : Dev nD) :
    final m c (Proc.devRef .tc main_v59)
      = refRel1_1 (F := Ideal) (final m c (Proc.devRef .tc main_v47)) (final m c (Proc.devRef .tc main_arg1)) (final m c (Proc.devRef .tc main_arg4)) (final m c (Proc.devRef .tc main_arg5)) (final m c (Proc.devRef .tc main_arg6)) := by
  rw [final_main_v59, final_main_v58, final_main_v57, final_main_v56, final_main_v55, final_main_v54,
    final_main_v53, final_main_v52, final_main_v51, final_main_v50, final_main_v49, final_main_v48]
  rfl

/-- Layer 1, relation 2: the contribution `%89` is the aggregated rows `%77` against the relation's left weights
    (matrix 2 of `%arg4`), plus its bias (row 2 of `%arg6`), plus the fourth node type's own rows `%arg3` against its right
    weights (matrix 2 of `%arg5`). -/
theorem rel1_2 (m : (ℓ : Loc nD τ sig) → Buf (Elt Ideal) ℓ) (c : Dev nD) :
    final m c (Proc.devRef .tc main_v89)
      = refRel1_2 (F := Ideal) (final m c (Proc.devRef .tc main_v77)) (final m c (Proc.devRef .tc main_arg3)) (final m c (Proc.devRef .tc main_arg4)) (final m c (Proc.devRef .tc main_arg5)) (final m c (Proc.devRef .tc main_arg6)) := by
  rw [final_main_v89, final_main_v88, final_main_v87, final_main_v86, final_main_v85, final_main_v84,
    final_main_v83, final_main_v82, final_main_v81, final_main_v80, final_main_v79, final_main_v78]
  rfl

/-- Layer 1, relation 3: the contribution `%119` is the aggregated rows `%107` against the relation's left weights
    (matrix 3 of `%arg4`), plus its bias (row 3 of `%arg6`), plus the third node type's own rows `%arg2` against its right
    weights (matrix 3 of `%arg5`). -/
theorem rel1_3 (m : (ℓ : Loc nD τ sig) → Buf (Elt Ideal) ℓ) (c : Dev nD) :
    final m c (Proc.devRef .tc main_v119)
      = refRel1_3 (F := Ideal) (final m c (Proc.devRef .tc main_v107)) (final m c (Proc.devRef .tc main_arg2)) (final m c (Proc.devRef .tc main_arg4)) (final m c (Proc.devRef .tc main_arg5)) (final m c (Proc.devRef .tc main_arg6)) := by
  rw [final_main_v119, final_main_v118, final_main_v117, final_main_v116, final_main_v115, final_main_v114,
    final_main_v113, final_main_v112, final_main_v111, final_main_v110, final_main_v109, final_main_v108]
  rfl

/-- Layer 1, relation 4: the contribution `%150` is the aggregated rows `%138` against the relation's left weights
    (matrix 4 of `%arg4`), plus its bias (row 4 of `%arg6`), plus the first node type's own rows `%arg0` against its right
    weights (matrix 4 of `%arg5`). -/
theorem rel1_4 (m : (ℓ : Loc nD τ sig) → Buf (Elt Ideal) ℓ) (c : Dev nD) :
    final m c (Proc.devRef .tc main_v150)
      = refRel1_4 (F := Ideal) (final m c (Proc.devRef .tc main_v138)) (final m c (Proc.devRef .tc main_arg0)) (final m c (Proc.devRef .tc main_arg4)) (final m c (Proc.devRef .tc main_arg5)) (final m c (Proc.devRef .tc main_arg6)) := by
  rw [final_main_v150, final_main_v149, final_main_v148, final_main_v147, final_main_v146, final_main_v145,
    final_main_v144, final_main_v143, final_main_v142, final_main_v141, final_main_v140, final_main_v139]
  rfl

/-- Layer 1, relation 5: the contribution `%180` is the aggregated rows `%168` against the relation's left weights
    (matrix 5 of `%arg4`), plus its bias (row 5 of `%arg6`), plus the first node type's own rows `%arg0` against its right
    weights (matrix 5 of `%arg5`). -/
theorem rel1_5 (m : (ℓ : Loc nD τ sig) → Buf (Elt Ideal) ℓ) (c : Dev nD) :
    final m c (Proc.devRef .tc main_v180)
      = refRel1_5 (F := Ideal) (final m c (Proc.devRef .tc main_v168)) (final m c (Proc.devRef .tc main_arg0)) (final m c (Proc.devRef .tc main_arg4)) (final m c (Proc.devRef .tc main_arg5)) (final m c (Proc.devRef .tc main_arg6)) := by
  rw [final_main_v180, final_main_v179, final_main_v178, final_main_v177, final_main_v176, final_main_v175,
    final_main_v174, final_main_v173, final_main_v172, final_main_v171, final_main_v170, final_main_v169]
  rfl

/-- Layer 1, relation 6: the contribution `%211` is the aggregated rows `%199` against the relation's left weights
    (matrix 6 of `%arg4`), plus its bias (row 6 of `%arg6`), plus the second node type's own rows `%arg1` against its right
    weights (matrix 6 of `%arg5`). -/
theorem rel1_6 (m : (ℓ : Loc nD τ sig) → Buf (Elt Ideal) ℓ) (c : Dev nD) :
    final m c (Proc.devRef .tc main_v211)
      = refRel1_6 (F := Ideal) (final m c (Proc.devRef .tc main_v199)) (final m c (Proc.devRef .tc main_arg1)) (final m c (Proc.devRef .tc main_arg4)) (final m c (Proc.devRef .tc main_arg5)) (final m c (Proc.devRef .tc main_arg6)) := by
  rw [final_main_v211, final_main_v210, final_main_v209, final_main_v208, final_main_v207, final_main_v206,
    final_main_v205, final_main_v204, final_main_v203, final_main_v202, final_main_v201, final_main_v200]
  rfl

end Cert.ReferenceIdeal.Hand

end
-- ==== Proof.Ref.Final5.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 5 (operations 345 … 452 of 886): what each result buffer holds when @main has run, one operation back. -/

theorem final_main_v250 (m : (ℓ : Loc nD τ sig) → Buf (Elt F) ℓ) (c : Dev nD) :
    final m c (Proc.devRef .tc main_v250) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v249)) := by
  have h := Sage.after_unary (x := main_v249) (y := main_v250) (ops_Writes (F := F)) 344 (launchContents m c) (by rfl) (by decide +kernel) (by decide +kernel)
  unfold final
  generalize after ops (launchContents m c) = G at h ⊢
  exact h
theorem final_main_v251 (m : (ℓ : Loc nD τ sig) → Buf (Elt F) ℓ) (c : Dev nD) :
    final m c (Proc.devRef .tc main_v251) = (addf : (⟨S50000x256, .f32⟩ : BufTy).Contents (Elt F) → (⟨S50000x256, .f32⟩ : BufTy).Contents (Elt F) → (⟨S50000x256, .f32⟩ : BufTy).Contents (Elt F)) (final m c (Proc.devRef .tc main_v248)) (final m c (Proc.devRef .tc main_v250)) := by
  have h := Sage.after_binary (a := main_v248) (b := main_v250) (y := main_v251) (ops_Writes (F := F)) 345 (launchContents m c) (by rfl) (by decide +kernel) (by decide +kernel) (by decide +kernel)
  unfold final
  generalize after ops (launchContents m c) = G at h ⊢
  exact h
theorem final_main_call3_cst (m : (ℓ : Loc nD τ sig) → Buf (Elt F) ℓ) (c : Dev nD) :
    final m c (Proc.devRef .tc main_call3_cst) = (constant S_ .f32 0x00000000#32 : (⟨S_, .f32⟩ : BufTy).Contents (Elt F)) := by
  have h := Sage.after_nullary (y := main_call3_cst) (ops_Writes (F := F)) 346 (launchContents m c) (by rfl) (by decide +kernel)
  unfold final
  generalize after ops (launchContents m c) = G at h ⊢
  exact h
theorem final_main_call3_v0 (m : (ℓ : Loc nD τ sig) → Buf (Elt F) ℓ) (c : Dev nD) :
    final m c (Proc.devRef .tc main_call3_v0) = (broadcastInDim S50000x256 ![] bcast_S_S50000x256 : (⟨S_, .f32⟩ : BufTy).Contents (Elt F) → (⟨S50000x256, .f32⟩ : BufTy).Contents (Elt F)) (final m c (Proc.devRef .tc main_call3_cst)) := by
  have h := Sage.after_unary (x := main_call3_cst) (y := main_call3_v0) (ops_Writes (F := F)) 347 (launchContents m c) (by rfl) (by decide +kernel) (by decide +kernel)
  unfold final
  generalize after ops (launchContents m c) = G at h ⊢
  exact h
theorem final_main_v252 (m : (ℓ : Loc nD τ sig) → Buf (Elt F) ℓ) (c : Dev nD) :
    final m c (Proc.devRef .tc main_v252) = (maximumf : (⟨S50000x256, .f32⟩ : BufTy).Contents (Elt F) → (⟨S50000x256, .f32⟩ : BufTy).Contents (Elt F) → (⟨S50000x256, .f32⟩ : BufTy).Contents (Elt F)) (final m c (Proc.devRef .tc main_v251)) (final m c (Proc.devRef .tc main_call3_v0)) := by
  have h := Sage.after_binary (a := main_v251) (b := main_call3_v0) (y := main_v252) (ops_Writes (F := F)) 348 (launchContents m c) (by rfl) (by decide +kernel) (by decide +kernel) (by decide +kernel)
  unfold final
  generalize after ops (launchContents m c) = G at h ⊢
  exact h
theorem final_main_cst_48 (m : (ℓ : Loc nD τ sig) → Buf (Elt F) ℓ) (c : Dev nD) :
    final m c (Proc.devRef .tc main_cst_48) = (constant S_ .f32 0x00000000#32) := by
  have h := Sage.after_nullary (y := main_cst_48) (ops_Writes (F := F)) 349 (launchContents m c) (by rfl) (by decide +kernel)
  unfold final
  generalize after ops (launchContents m c) = G at h ⊢
  exact h
theorem final_main_v253 (m : (ℓ : Loc nD τ sig) → Buf (Elt F) ℓ) (c : Dev nD) :
    final m c (Proc.devRef .tc main_v253) = (Host.reduceAdd (final m c (Proc.devRef .tc main_v120)) (final m c (Proc.devRef .tc main_cst_48)) reducesTo_S10000x256_S256_d0 h_S_ : (⟨S256, .f32⟩ : BufTy).Contents (Elt F)) := by
  have h := Sage.after_binary (a := main_v120) (b := main_cst_48) (y := main_v253) (ops_Writes (F := F)) 350 (launchContents m c) (by rfl) (by decide +kernel) (by decide +kernel) (by decide +kernel)
  unfold final
  generalize after ops (launchContents m c) = G at h ⊢
  exact h
theorem final_main_cst_49 (m : (ℓ : Loc nD τ sig) → Buf (Elt F) ℓ) (c : Dev nD) :
    final m c (Proc.devRef .tc main_cst_49) = (constant S_ .f32 0x461C4000#32) := by
  have h := Sage.after_nullary (y := main_cst_49) (ops_Writes (F := F)) 351 (launchContents m c) (by rfl) (by decide +kernel)
  unfold final
  generalize after ops (launchContents m c) = G at h ⊢
  exact h
theorem final_main_v254 (m : (ℓ : Loc nD τ sig) → Buf (Elt F) ℓ) (c : Dev nD) :
    final m c (Proc.devRef .tc main_v254) = (broadcastInDim S256 ![] bcast_S_S256 : (⟨S_, .f32⟩ : BufTy).Contents (Elt F) → (⟨S256, .f32⟩ : BufTy).Contents (Elt F)) (final m c (Proc.devRef .tc main_cst_49)) := by
  have h := Sage.after_unary (x := main_cst_49) (y := main_v254) (ops_Writes (F := F)) 352 (launchContents m c) (by rfl) (by decide +kernel) (by decide +kernel)
  unfold final
  generalize after ops (launchContents m c) = G at h ⊢
  exact h
theorem final_main_v255 (m : (ℓ : Loc nD τ sig) → Buf (Elt F) ℓ) (c : Dev nD) :
    final m c (Proc.devRef .tc main_v255) = (Host.divf : (⟨S256, .f32⟩ : BufTy).Contents (Elt F) → (⟨S256, .f32⟩ : BufTy).Contents (Elt F) → (⟨S256, .f32⟩ : BufTy).Contents (Elt F)) (final m c (Proc.devRef .tc main_v253)) (final m c (Proc.devRef .tc main_v254)) := by
  have h := Sage.after_binary (a := main_v253) (b := main_v254) (y := main_v255) (ops_Writes (F := F)) 353 (launchContents m c) (by rfl) (by decide +kernel) (by decide +kernel) (by decide +kernel)
  unfold final
  generalize after ops (launchContents m c) = G at h ⊢
  exact h
theorem final_main_c_50 (m : (ℓ : Loc nD τ sig) → Buf (Elt F) ℓ) (c : Dev nD) :
    final m c (Proc.devRef .tc main_c_50) = (constantI S_ 32 0#32) := by
  have h := Sage.after_nullary (y := main_c_50) (ops_Writes (F := F)) 354 (launchContents m c) (by rfl) (by decide +kernel)
  unfold final
  generalize after ops (launchContents m c) = G at h ⊢
  exact h
theorem final_main_call4_cst (m : (ℓ : Loc nD τ sig) → Buf (Elt F) ℓ) (c : Dev nD) :
    final m c (Proc.devRef .tc main_call4_cst) = (constant S_ .f32 0x00000000#32 : (⟨S_, .f32⟩ : BufTy).Contents (Elt F)) := by
  have h := Sage.after_nullary (y := main_call4_cst) (ops_Writes (F := F)) 355 (launchContents m c) (by rfl) (by decide +kernel)
  unfold final
  generalize after ops (launchContents m c) = G at h ⊢
  exact h
theorem final_main_call4_v0 (m : (ℓ : Loc nD τ sig) → Buf (Elt F) ℓ) (c : Dev nD) :
    final m c (Proc.devRef .tc main_call4_v0) = (Host.reduceAdd (final m c (Proc.devRef .tc main_v120)) (final m c (Proc.devRef .tc main_call4_cst)) reducesTo_S10000x256_S256_d0 h_S_ : (⟨S256, .f32⟩ : BufTy).Contents (Elt F)) := by
  have h := Sage.after_binary (a := main_v120) (b := main_call4_cst) (y := main_call4_v0) (ops_Writes (F := F)) 356 (launchContents m c) (by rfl) (by decide +kernel) (by decide +kernel) (by decide +kernel)
  unfold final
  generalize after ops (launchContents m c) = G at h ⊢
  exact h
theorem final_main_call4_v1 (m : (ℓ : Loc nD τ sig) → Buf (Elt F) ℓ) (c : Dev nD) :
    final m c (Proc.devRef .tc main_call4_v1) = (broadcastInDim S1x256 ![1] bcast_S256_S1x256_1 : (⟨S256, .f32⟩ : BufTy).Contents (Elt F) → (⟨S1x256, .f32⟩ : BufTy).Contents (Elt F)) (final m c (Proc.devRef .tc main_call4_v0)) := by
  have h := Sage.after_unary (x := main_call4_v0) (y := main_call4_v1) (ops_Writes (F := F)) 357 (launchContents m c) (by rfl) (by decide +kernel) (by decide +kernel)
  unfold final
  generalize after ops (launchContents m c) = G at h ⊢
  exact h
theorem final_main_call4_cst_0 (m : (ℓ : Loc nD τ sig) → Buf (Elt F) ℓ) (c : Dev nD) :
    final m c (Proc.devRef .tc main_call4_cst_0) = (constant S_ .f32 0x461C4000#32 : (⟨S_, .f32⟩ : BufTy).Contents (Elt F)) := by
  have h := Sage.after_nullary (y := main_call4_cst_0) (ops_Writes (F := F)) 358 (launchContents m c) (by rfl) (by decide +kernel)
  unfold final
  generalize after ops (launchContents m c) = G at h ⊢
  exact h
theorem final_main_call4_v2 (m : (ℓ : Loc nD τ sig) → Buf (Elt F) ℓ) (c : Dev nD) :
    final m c (Proc.devRef .tc main_call4_v2) = (broadcastInDim S1x256 ![] bcast_S_S1x256 : (⟨S_, .f32⟩ : BufTy).Contents (Elt F) → (⟨S1x256, .f32⟩ : BufTy).Contents (Elt F)) (final m c (Proc.devRef .tc main_call4_cst_0)) := by
  have h := Sage.after_unary (x := main_call4_cst_0) (y := main_call4_v2) (ops_Writes (F := F)) 359 (launchContents m c) (by rfl) (by decide +kernel) (by decide +kernel)
  unfold final
  generalize after ops (launchContents m c) = G at h ⊢
  exact h
theorem final_main_call4_v3 (m : (ℓ : Loc nD τ sig) → Buf (Elt F) ℓ) (c : Dev nD) :
    final m c (Proc.devRef .tc main_call4_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call4_v1)) (final m c (Proc.devRef .tc main_call4_v2)) := by
  have h := Sage.after_binary (a := main_call4_v1) (b := main_call4_v2) (y := main_call4_v3) (ops_Writes (F := F)) 360 (launchContents m c) (by rfl) (by decide +kernel) (by decide +kernel) (by decide +kernel)
  unfold final
  generalize after ops (launchContents m c) = G at h ⊢
  exact h
theorem final_main_call4_v4 (m : (ℓ : Loc nD τ sig) → Buf (Elt F) ℓ) (c : Dev nD) :
    final m c (Proc.devRef .tc main_call4_v4) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_call4_v3)) := by
  have h := Sage.after_unary (x := main_call4_v3) (y := main_call4_v4) (ops_Writes (F := F)) 361 (launchContents m c) (by rfl) (by decide +kernel) (by decide +kernel)
  unfold final
  generalize after ops (launchContents m c) = G at h ⊢
  exact h
theorem final_main_call4_v5 (m : (ℓ : Loc nD τ sig) → Buf (Elt F) ℓ) (c : Dev nD) :
    final m c (Proc.devRef .tc main_call4_v5) = (subf : (⟨S10000x256, .f32⟩ : BufTy).Contents (Elt F) → (⟨S10000x256, .f32⟩ : BufTy).Contents (Elt F) → (⟨S10000x256, .f32⟩ : BufTy).Contents (Elt F)) (final m c (Proc.devRef .tc main_v120)) (final m c (Proc.devRef .tc main_call4_v4)) := by
  have h := Sage.after_binary (a := main_v120) (b := main_call4_v4) (y := main_call4_v5) (ops_Writes (F := F)) 362 (launchContents m c) (by rfl) (by decide +kernel) (by decide +kernel) (by decide +kernel)
  unfold final
  generalize after ops (launchContents m c) = G at h ⊢
  exact h
theorem final_main_call4_v6 (m : (ℓ : Loc nD τ sig) → Buf (Elt F) ℓ) (c : Dev nD) :
    final m c (Proc.devRef .tc main_call4_v6) = (mulf : (⟨S10000x256, .f32⟩ : BufTy).Contents (Elt F) → (⟨S10000x256, .f32⟩ : BufTy).Contents (Elt F) → (⟨S10000x256, .f32⟩ : BufTy).Contents (Elt F)) (final m c (Proc.devRef .tc main_call4_v5)) (final m c (Proc.devRef .tc main_call4_v5)) := by
  have h := Sage.after_binary (a := main_call4_v5) (b := main_call4_v5) (y := main_call4_v6) (ops_Writes (F := F)) 363 (launchContents m c) (by rfl) (by decide +kernel) (by decide +kernel) (by decide +kernel)
  unfold final
  generalize after ops (launchContents m c) = G at h ⊢
  exact h
theorem final_main_call4_v7 (m : (ℓ : Loc nD τ sig) → Buf (Elt F) ℓ) (c : Dev nD) :
    final m c (Proc.devRef .tc main_call4_v7) = (sitofp .f32 : (⟨S_, .i32⟩ : BufTy).Contents (Elt F) → (⟨S_, .f32⟩ : BufTy).Contents (Elt F)) (final m c (Proc.devRef .tc main_c_50)) := by
  have h := Sage.after_unary (x := main_c_50) (y := main_call4_v7) (ops_Writes (F := F)) 364 (launchContents m c) (by rfl) (by decide +kernel) (by decide +kernel)
  unfold final
  generalize after ops (launchContents m c) = G at h ⊢
  exact h
theorem final_main_call4_cst_1 (m : (ℓ : Loc nD τ sig) → Buf (Elt F) ℓ) (c : Dev nD) :
    final m c (Proc.devRef .tc main_call4_cst_1) = (constant S_ .f32 0x461C4000#32 : (⟨S_, .f32⟩ : BufTy).Contents (Elt F)) := by
  have h := Sage.after_nullary (y := main_call4_cst_1) (ops_Writes (F := F)) 365 (launchContents m c) (by rfl) (by decide +kernel)
  unfold final
  generalize after ops (launchContents m c) = G at h ⊢
  exact h
theorem final_main_call4_v8 (m : (ℓ : Loc nD τ sig) → Buf (Elt F) ℓ) (c : Dev nD) :
    final m c (Proc.devRef .tc main_call4_v8) = (subf : (⟨S_, .f32⟩ : BufTy).Contents (Elt F) → (⟨S_, .f32⟩ : BufTy).Contents (Elt F) → (⟨S_, .f32⟩ : BufTy).Contents (Elt F)) (final m c (Proc.devRef .tc main_call4_cst_1)) (final m c (Proc.devRef .tc main_call4_v7)) := by
  have h := Sage.after_binary (a := main_call4_cst_1) (b := main_call4_v7) (y := main_call4_v8) (ops_Writes (F := F)) 366 (launchContents m c) (by rfl) (by decide +kernel) (by decide +kernel) (by decide +kernel)
  unfold final
  generalize after ops (launchContents m c) = G at h ⊢
  exact h
theorem final_main_call4_cst_2 (m : (ℓ : Loc nD τ sig) → Buf (Elt F) ℓ) (c : Dev nD) :
    final m c (Proc.devRef .tc main_call4_cst_2) = (constant S_ .f32 0x00000000#32 : (⟨S_, .f32⟩ : BufTy).Contents (Elt F)) := by
  have h := Sage.after_nullary (y := main_call4_cst_2) (ops_Writes (F := F)) 367 (launchContents m c) (by rfl) (by decide +kernel)
  unfold final
  generalize after ops (launchContents m c) = G at h ⊢
  exact h
theorem final_main_call4_v9 (m : (ℓ : Loc nD τ sig) → Buf (Elt F) ℓ) (c : Dev nD) :
    final m c (Proc.devRef .tc main_call4_v9) = (Host.reduceAdd (final m c (Proc.devRef .tc main_call4_v6)) (final m c (Proc.devRef .tc main_call4_cst_2)) reducesTo_S10000x256_S256_d0 h_S_ : (⟨S256, .f32⟩ : BufTy).Contents (Elt F)) := by
  have h := Sage.after_binary (a := main_call4_v6) (b := main_call4_cst_2) (y := main_call4_v9) (ops_Writes (F := F)) 368 (launchContents m c) (by rfl) (by decide +kernel) (by decide +kernel) (by decide +kernel)
  unfold final
  generalize after ops (launchContents m c) = G at h ⊢
  exact h
theorem final_main_call4_v10 (m : (ℓ : Loc nD τ sig) → Buf (Elt F) ℓ) (c : Dev nD) :
    final m c (Proc.devRef .tc main_call4_v10) = (broadcastInDim S256 ![] bcast_S_S256 : (⟨S_, .f32⟩ : BufTy).Contents (Elt F) → (⟨S256, .f32⟩ : BufTy).Contents (Elt F)) (final m c (Proc.devRef .tc main_call4_v8)) := by
  have h := Sage.after_unary (x := main_call4_v8) (y := main_call4_v10) (ops_Writes (F := F)) 369 (launchContents m c) (by rfl) (by decide +kernel) (by decide +kernel)
  unfold final
  generalize after ops (launchContents m c) = G at h ⊢
  exact h
theorem final_main_call4_v11 (m : (ℓ : Loc nD τ sig) → Buf (Elt F) ℓ) (c : Dev nD) :
    final m c (Proc.devRef .tc main_call4_v11) = (Host.divf : (⟨S256, .f32⟩ : BufTy).Contents (Elt F) → (⟨S256, .f32⟩ : BufTy).Contents (Elt F) → (⟨S256, .f32⟩ : BufTy).Contents (Elt F)) (final m c (Proc.devRef .tc main_call4_v9)) (final m c (Proc.devRef .tc main_call4_v10)) := by
  have h := Sage.after_binary (a := main_call4_v9) (b := main_call4_v10) (y := main_call4_v11) (ops_Writes (F := F)) 370 (launchContents m c) (by rfl) (by decide +kernel) (by decide +kernel) (by decide +kernel)
  unfold final
  generalize after ops (launchContents m c) = G at h ⊢
  exact h
theorem final_main_call4_cst_3 (m : (ℓ : Loc nD τ sig) → Buf (Elt F) ℓ) (c : Dev nD) :
    final m c (Proc.devRef .tc main_call4_cst_3) = (constant S_ .f32 0x00000000#32 : (⟨S_, .f32⟩ : BufTy).Contents (Elt F)) := by
  have h := Sage.after_nullary (y := main_call4_cst_3) (ops_Writes (F := F)) 371 (launchContents m c) (by rfl) (by decide +kernel)
  unfold final
  generalize after ops (launchContents m c) = G at h ⊢
  exact h
theorem final_main_call4_v12 (m : (ℓ : Loc nD τ sig) → Buf (Elt F) ℓ) (c : Dev nD) :
    final m c (Proc.devRef .tc main_call4_v12) = (cmpf .ogt : (⟨S_, .f32⟩ : BufTy).Contents (Elt F) → (⟨S_, .f32⟩ : BufTy).Contents (Elt F) → (⟨S_, .i1⟩ : BufTy).Contents (Elt F)) (final m c (Proc.devRef .tc main_call4_v8)) (final m c (Proc.devRef .tc main_call4_cst_3)) := by
  have h := Sage.after_binary (a := main_call4_v8) (b := main_call4_cst_3) (y := main_call4_v12) (ops_Writes (F := F)) 372 (launchContents m c) (by rfl) (by decide +kernel) (by decide +kernel) (by decide +kernel)
  unfold final
  generalize after ops (launchContents m c) = G at h ⊢
  exact h
theorem final_main_call4_cst_4 (m : (ℓ : Loc nD τ sig) → Buf (Elt F) ℓ) (c : Dev nD) :
    final m c (Proc.devRef .tc main_call4_cst_4) = (constant S_ .f32 0x7FC00000#32 : (⟨S_, .f32⟩ : BufTy).Contents (Elt F)) := by
  have h := Sage.after_nullary (y := main_call4_cst_4) (ops_Writes (F := F)) 373 (launchContents m c) (by rfl) (by decide +kernel)
  unfold final
  generalize after ops (launchContents m c) = G at h ⊢
  exact h
theorem final_main_call4_call0_v0 (m : (ℓ : Loc nD τ sig) → Buf (Elt F) ℓ) (c : Dev nD) :
    final m c (Proc.devRef .tc main_call4_call0_v0) = (id : (⟨S_, .f32⟩ : BufTy).Contents (Elt F) → (⟨S_, .f32⟩ : BufTy).Contents (Elt F)) (final m c (Proc.devRef .tc main_call4_cst_4)) := by
  have h := Sage.after_unary (x := main_call4_cst_4) (y := main_call4_call0_v0) (ops_Writes (F := F)) 374 (launchContents m c) (by rfl) (by decide +kernel) (by decide +kernel)
  unfold final
  generalize after ops (launchContents m c) = G at h ⊢
  exact h
theorem final_main_call4_call0_v1 (m : (ℓ : Loc nD τ sig) → Buf (Elt F) ℓ) (c : Dev nD) :
    final m c (Proc.devRef .tc main_call4_call0_v1) = (broadcastInDim S256 ![] bcast_S_S256 : (⟨S_, .f32⟩ : BufTy).Contents (Elt F) → (⟨S256, .f32⟩ : BufTy).Contents (Elt F)) (final m c (Proc.devRef .tc main_call4_call0_v0)) := by
  have h := Sage.after_unary (x := main_call4_call0_v0) (y := main_call4_call0_v1) (ops_Writes (F := F)) 375 (launchContents m c) (by rfl) (by decide +kernel) (by decide +kernel)
  unfold final
  generalize after ops (launchContents m c) = G at h ⊢
  exact h
theorem final_main_v256 (m : (ℓ : Loc nD τ sig) → Buf (Elt F) ℓ) (c : Dev nD) :
    final m c (Proc.devRef .tc main_v256) = (select (broadcastInDim S256 ![] bcast_S_S256 (final m c (Proc.devRef .tc main_call4_v12))) (final m c (Proc.devRef .tc main_call4_v11)) (final m c (Proc.devRef .tc main_call4_call0_v1)) : (⟨S256, .f32⟩ : BufTy).Contents (Elt F)) := by
  have h := Sage.after_ternary (c := main_call4_v12) (a := main_call4_v11) (b := main_call4_call0_v1) (y := main_v256) (ops_Writes (F := F)) 376 (launchContents m c) (by rfl) (by decide +kernel) (by decide +kernel) (by decide +kernel) (by decide +kernel)
  unfold final
  generalize after ops (launchContents m c) = G at h ⊢
  exact h
theorem final_main_v257 (m : (ℓ : Loc nD τ sig) → Buf (Elt F) ℓ) (c : Dev nD) :
    final m c (Proc.devRef .tc main_v257) = (broadcastInDim S1x256 ![1] bcast_S256_S1x256_1 : (⟨S256, .f32⟩ : BufTy).Contents (Elt F) → (⟨S1x256, .f32⟩ : BufTy).Contents (Elt F)) (final m c (Proc.devRef .tc main_v255)) := by
  have h := Sage.after_unary (x := main_v255) (y := main_v257) (ops_Writes (F := F)) 377 (launchContents m c) (by rfl) (by decide +kernel) (by decide +kernel)
  unfold final
  generalize after ops (launchContents m c) = G at h ⊢
  exact h
theorem final_main_v258 (m : (ℓ : Loc nD τ sig) → Buf (Elt F) ℓ) (c : Dev nD) :
    final m c (Proc.devRef .tc main_v258) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v257)) := by
  have h := Sage.after_unary (x := main_v257) (y := main_v258) (ops_Writes (F := F)) 378 (launchContents m c) (by rfl) (by decide +kernel) (by decide +kernel)
  unfold final
  generalize after ops (launchContents m c) = G at h ⊢
  exact h
theorem final_main_v259 (m : (ℓ : Loc nD τ sig) → Buf (Elt F) ℓ) (c : Dev nD) :
    final m c (Proc.devRef .tc main_v259) = (subf : (⟨S10000x256, .f32⟩ : BufTy).Contents (Elt F) → (⟨S10000x256, .f32⟩ : BufTy).Contents (Elt F) → (⟨S10000x256, .f32⟩ : BufTy).Contents (Elt F)) (final m c (Proc.devRef .tc main_v120)) (final m c (Proc.devRef .tc main_v258)) := by
  have h := Sage.after_binary (a := main_v120) (b := main_v258) (y := main_v259) (ops_Writes (F := F)) 379 (launchContents m c) (by rfl) (by decide +kernel) (by decide +kernel) (by decide +kernel)
  unfold final
  generalize after ops (launchContents m c) = G at h ⊢
  exact h
theorem final_main_cst_51 (m : (ℓ : Loc nD τ sig) → Buf (Elt F) ℓ) (c : Dev nD) :
    final m c (Proc.devRef .tc main_cst_51) = (constant S_ .f32 0x3727C5AC#32) := by
  have h := Sage.after_nullary (y := main_cst_51) (ops_Writes (F := F)) 380 (launchContents m c) (by rfl) (by decide +kernel)
  unfold final
  generalize after ops (launchContents m c) = G at h ⊢
  exact h
theorem final_main_v260 (m : (ℓ : Loc nD τ sig) → Buf (Elt F) ℓ) (c : Dev nD) :
    final m c (Proc.devRef .tc main_v260) = (broadcastInDim S256 ![] bcast_S_S256 : (⟨S_, .f32⟩ : BufTy).Contents (Elt F) → (⟨S256, .f32⟩ : BufTy).Contents (Elt F)) (final m c (Proc.devRef .tc main_cst_51)) := by
  have h := Sage.after_unary (x := main_cst_51) (y := main_v260) (ops_Writes (F := F)) 381 (launchContents m c) (by rfl) (by decide +kernel) (by decide +kernel)
  unfold final
  generalize after ops (launchContents m c) = G at h ⊢
  exact h
theorem final_main_v261 (m : (ℓ : Loc nD τ sig) → Buf (Elt F) ℓ) (c : Dev nD) :
    final m c (Proc.devRef .tc main_v261) = (addf : (⟨S256, .f32⟩ : BufTy).Contents (Elt F) → (⟨S256, .f32⟩ : BufTy).Contents (Elt F) → (⟨S256, .f32⟩ : BufTy).Contents (Elt F)) (final m c (Proc.devRef .tc main_v256)) (final m c (Proc.devRef .tc main_v260)) := by
  have h := Sage.after_binary (a := main_v256) (b := main_v260) (y := main_v261) (ops_Writes (F := F)) 382 (launchContents m c) (by rfl) (by decide +kernel) (by decide +kernel) (by decide +kernel)
  unfold final
  generalize after ops (launchContents m c) = G at h ⊢
  exact h
theorem final_main_v262 (m : (ℓ : Loc nD τ sig) → Buf (Elt F) ℓ) (c : Dev nD) :
    final m c (Proc.devRef .tc main_v262) = (Host.rsqrt : (⟨S256, .f32⟩ : BufTy).Contents (Elt F) → (⟨S256, .f32⟩ : BufTy).Contents (Elt F)) (final m c (Proc.devRef .tc main_v261)) := by
  have h := Sage.after_unary (x := main_v261) (y := main_v262) (ops_Writes (F := F)) 383 (launchContents m c) (by rfl) (by decide +kernel) (by decide +kernel)
  unfold final
  generalize after ops (launchContents m c) = G at h ⊢
  exact h
theorem final_main_v263 (m : (ℓ : Loc nD τ sig) → Buf (Elt F) ℓ) (c : Dev nD) :
    final m c (Proc.devRef .tc main_v263) = (broadcastInDim S1x256 ![1] bcast_S256_S1x256_1 : (⟨S256, .f32⟩ : BufTy).Contents (Elt F) → (⟨S1x256, .f32⟩ : BufTy).Contents (Elt F)) (final m c (Proc.devRef .tc main_v262)) := by
  have h := Sage.after_unary (x := main_v262) (y := main_v263) (ops_Writes (F := F)) 384 (launchContents m c) (by rfl) (by decide +kernel) (by decide +kernel)
  unfold final
  generalize after ops (launchContents m c) = G at h ⊢
  exact h
theorem final_main_v264 (m : (ℓ : Loc nD τ sig) → Buf (Elt F) ℓ) (c : Dev nD) :
    final m c (Proc.devRef .tc main_v264) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v263)) := by
  have h := Sage.after_unary (x := main_v263) (y := main_v264) (ops_Writes (F := F)) 385 (launchContents m c) (by rfl) (by decide +kernel) (by decide +kernel)
  unfold final
  generalize after ops (launchContents m c) = G at h ⊢
  exact h
theorem final_main_v265 (m : (ℓ : Loc nD τ sig) → Buf (Elt F) ℓ) (c : Dev nD) :
    final m c (Proc.devRef .tc main_v265) = (mulf : (⟨S10000x256, .f32⟩ : BufTy).Contents (Elt F) → (⟨S10000x256, .f32⟩ : BufTy).Contents (Elt F) → (⟨S10000x256, .f32⟩ : BufTy).Contents (Elt F)) (final m c (Proc.devRef .tc main_v259)) (final m c (Proc.devRef .tc main_v264)) := by
  have h := Sage.after_binary (a := main_v259) (b := main_v264) (y := main_v265) (ops_Writes (F := F)) 386 (launchContents m c) (by rfl) (by decide +kernel) (by decide +kernel) (by decide +kernel)
  unfold final
  generalize after ops (launchContents m c) = G at h ⊢
  exact h
theorem final_main_v266 (m : (ℓ : Loc nD τ sig) → Buf (Elt F) ℓ) (c : Dev nD) :
    final m c (Proc.devRef .tc main_v266) = (broadcastInDim S1x256 ![1] bcast_S256_S1x256_1 : (⟨S256, .f32⟩ : BufTy).Contents (Elt F) → (⟨S1x256, .f32⟩ : BufTy).Contents (Elt F)) (final m c (Proc.devRef .tc main_arg10)) := by
  have h := Sage.after_unary (x := main_arg10) (y := main_v266) (ops_Writes (F := F)) 387 (launchContents m c) (by rfl) (by decide +kernel) (by decide +kernel)
  unfold final
  generalize after ops (launchContents m c) = G at h ⊢
  exact h
theorem final_main_v267 (m : (ℓ : Loc nD τ sig) → Buf (Elt F) ℓ) (c : Dev nD) :
    final m c (Proc.devRef .tc main_v267) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v266)) := by
  have h := Sage.after_unary (x := main_v266) (y := main_v267) (ops_Writes (F := F)) 388 (launchContents m c) (by rfl) (by decide +kernel) (by decide +kernel)
  unfold final
  generalize after ops (launchContents m c) = G at h ⊢
  exact h
theorem final_main_v268 (m : (ℓ : Loc nD τ sig) → Buf (Elt F) ℓ) (c : Dev nD) :
    final m c (Proc.devRef .tc main_v268) = (mulf : (⟨S10000x256, .f32⟩ : BufTy).Contents (Elt F) → (⟨S10000x256, .f32⟩ : BufTy).Contents (Elt F) → (⟨S10000x256, .f32⟩ : BufTy).Contents (Elt F)) (final m c (Proc.devRef .tc main_v265)) (final m c (Proc.devRef .tc main_v267)) := by
  have h := Sage.after_binary (a := main_v265) (b := main_v267) (y := main_v268) (ops_Writes (F := F)) 389 (launchContents m c) (by rfl) (by decide +kernel) (by decide +kernel) (by decide +kernel)
  unfold final
  generalize after ops (launchContents m c) = G at h ⊢
  exact h
theorem final_main_v269 (m : (ℓ : Loc nD τ sig) → Buf (Elt F) ℓ) (c : Dev nD) :
    final m c (Proc.devRef .tc main_v269) = (broadcastInDim S1x256 ![1] bcast_S256_S1x256_1 : (⟨S256, .f32⟩ : BufTy).Contents (Elt F) → (⟨S1x256, .f32⟩ : BufTy).Contents (Elt F)) (final m c (Proc.devRef .tc main_arg11)) := by
  have h := Sage.after_unary (x := main_arg11) (y := main_v269) (ops_Writes (F := F)) 390 (launchContents m c) (by rfl) (by decide +kernel) (by decide +kernel)
  unfold final
  generalize after ops (launchContents m c) = G at h ⊢
  exact h
theorem final_main_v270 (m : (ℓ : Loc nD τ sig) → Buf (Elt F) ℓ) (c : Dev nD) :
    final m c (Proc.devRef .tc main_v270) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v269)) := by
  have h := Sage.after_unary (x := main_v269) (y := main_v270) (ops_Writes (F := F)) 391 (launchContents m c) (by rfl) (by decide +kernel) (by decide +kernel)
  unfold final
  generalize after ops (launchContents m c) = G at h ⊢
  exact h
theorem final_main_v271 (m : (ℓ : Loc nD τ sig) → Buf (Elt F) ℓ) (c : Dev nD) :
    final m c (Proc.devRef .tc main_v271) = (addf : (⟨S10000x256, .f32⟩ : BufTy).Contents (Elt F) → (⟨S10000x256, .f32⟩ : BufTy).Contents (Elt F) → (⟨S10000x256, .f32⟩ : BufTy).Contents (Elt F)) (final m c (Proc.devRef .tc main_v268)) (final m c (Proc.devRef .tc main_v270)) := by
  have h := Sage.after_binary (a := main_v268) (b := main_v270) (y := main_v271) (ops_Writes (F := F)) 392 (launchContents m c) (by rfl) (by decide +kernel) (by decide +kernel) (by decide +kernel)
  unfold final
  generalize after ops (launchContents m c) = G at h ⊢
  exact h
theorem final_main_call5_cst (m : (ℓ : Loc nD τ sig) → Buf (Elt F) ℓ) (c : Dev nD) :
    final m c (Proc.devRef .tc main_call5_cst) = (constant S_ .f32 0x00000000#32 : (⟨S_, .f32⟩ : BufTy).Contents (Elt F)) := by
  have h := Sage.after_nullary (y := main_call5_cst) (ops_Writes (F := F)) 393 (launchContents m c) (by rfl) (by decide +kernel)
  unfold final
  generalize after ops (launchContents m c) = G at h ⊢
  exact h
theorem final_main_call5_v0 (m : (ℓ : Loc nD τ sig) → Buf (Elt F) ℓ) (c : Dev nD) :
    final m c (Proc.devRef .tc main_call5_v0) = (broadcastInDim S10000x256 ![] bcast_S_S10000x256 : (⟨S_, .f32⟩ : BufTy).Contents (Elt F) → (⟨S10000x256, .f32⟩ : BufTy).Contents (Elt F)) (final m c (Proc.devRef .tc main_call5_cst)) := by
  have h := Sage.after_unary (x := main_call5_cst) (y := main_call5_v0) (ops_Writes (F := F)) 394 (launchContents m c) (by rfl) (by decide +kernel) (by decide +kernel)
  unfold final
  generalize after ops (launchContents m c) = G at h ⊢
  exact h
theorem final_main_v272 (m : (ℓ : Loc nD τ sig) → Buf (Elt F) ℓ) (c : Dev nD) :
    final m c (Proc.devRef .tc main_v272) = (maximumf : (⟨S10000x256, .f32⟩ : BufTy).Contents (Elt F) → (⟨S10000x256, .f32⟩ : BufTy).Contents (Elt F) → (⟨S10000x256, .f32⟩ : BufTy).Contents (Elt F)) (final m c (Proc.devRef .tc main_v271)) (final m c (Proc.devRef .tc main_call5_v0)) := by
  have h := Sage.after_binary (a := main_v271) (b := main_call5_v0) (y := main_v272) (ops_Writes (F := F)) 395 (launchContents m c) (by rfl) (by decide +kernel) (by decide +kernel) (by decide +kernel)
  unfold final
  generalize after ops (launchContents m c) = G at h ⊢
  exact h
theorem final_main_cst_52 (m : (ℓ : Loc nD τ sig) → Buf (Elt F) ℓ) (c : Dev nD) :
    final m c (Proc.devRef .tc main_cst_52) = (constant S_ .f32 0x00000000#32) := by
  have h := Sage.after_nullary (y := main_cst_52) (ops_Writes (F := F)) 396 (launchContents m c) (by rfl) (by decide +kernel)
  unfold final
  generalize after ops (launchContents m c) = G at h ⊢
  exact h
theorem final_main_v273 (m : (ℓ : Loc nD τ sig) → Buf (Elt F) ℓ) (c : Dev nD) :
    final m c (Proc.devRef .tc main_v273) = (Host.reduceAdd (final m c (Proc.devRef .tc main_v89)) (final m c (Proc.devRef .tc main_cst_52)) reducesTo_S3000x256_S256_d0 h_S_ : (⟨S256, .f32⟩ : BufTy).Contents (Elt F)) := by
  have h := Sage.after_binary (a := main_v89) (b := main_cst_52) (y := main_v273) (ops_Writes (F := F)) 397 (launchContents m c) (by rfl) (by decide +kernel) (by decide +kernel) (by decide +kernel)
  unfold final
  generalize after ops (launchContents m c) = G at h ⊢
  exact h
theorem final_main_cst_53 (m : (ℓ : Loc nD τ sig) → Buf (Elt F) ℓ) (c : Dev nD) :
    final m c (Proc.devRef .tc main_cst_53) = (constant S_ .f32 0x453B8000#32) := by
  have h := Sage.after_nullary (y := main_cst_53) (ops_Writes (F := F)) 398 (launchContents m c) (by rfl) (by decide +kernel)
  unfold final
  generalize after ops (launchContents m c) = G at h ⊢
  exact h
theorem final_main_v274 (m : (ℓ : Loc nD τ sig) → Buf (Elt F) ℓ) (c : Dev nD) :
    final m c (Proc.devRef .tc main_v274) = (broadcastInDim S256 ![] bcast_S_S256 : (⟨S_, .f32⟩ : BufTy).Contents (Elt F) → (⟨S256, .f32⟩ : BufTy).Contents (Elt F)) (final m c (Proc.devRef .tc main_cst_53)) := by
  have h := Sage.after_unary (x := main_cst_53) (y := main_v274) (ops_Writes (F := F)) 399 (launchContents m c) (by rfl) (by decide +kernel) (by decide +kernel)
  unfold final
  generalize after ops (launchContents m c) = G at h ⊢
  exact h
theorem final_main_v275 (m : (ℓ : Loc nD τ sig) → Buf (Elt F) ℓ) (c : Dev nD) :
    final m c (Proc.devRef .tc main_v275) = (Host.divf : (⟨S256, .f32⟩ : BufTy).Contents (Elt F) → (⟨S256, .f32⟩ : BufTy).Contents (Elt F) → (⟨S256, .f32⟩ : BufTy).Contents (Elt F)) (final m c (Proc.devRef .tc main_v273)) (final m c (Proc.devRef .tc main_v274)) := by
  have h := Sage.after_binary (a := main_v273) (b := main_v274) (y := main_v275) (ops_Writes (F := F)) 400 (launchContents m c) (by rfl) (by decide +kernel) (by decide +kernel) (by decide +kernel)
  unfold final
  generalize after ops (launchContents m c) = G at h ⊢
  exact h
theorem final_main_c_54 (m : (ℓ : Loc nD τ sig) → Buf (Elt F) ℓ) (c : Dev nD) :
    final m c (Proc.devRef .tc main_c_54) = (constantI S_ 32 0#32) := by
  have h := Sage.after_nullary (y := main_c_54) (ops_Writes (F := F)) 401 (launchContents m c) (by rfl) (by decide +kernel)
  unfold final
  generalize after ops (launchContents m c) = G at h ⊢
  exact h
theorem final_main_call6_cst (m : (ℓ : Loc nD τ sig) → Buf (Elt F) ℓ) (c : Dev nD) :
    final m c (Proc.devRef .tc main_call6_cst) = (constant S_ .f32 0x00000000#32 : (⟨S_, .f32⟩ : BufTy).Contents (Elt F)) := by
  have h := Sage.after_nullary (y := main_call6_cst) (ops_Writes (F := F)) 402 (launchContents m c) (by rfl) (by decide +kernel)
  unfold final
  generalize after ops (launchContents m c) = G at h ⊢
  exact h
theorem final_main_call6_v0 (m : (ℓ : Loc nD τ sig) → Buf (Elt F) ℓ) (c : Dev nD) :
    final m c (Proc.devRef .tc main_call6_v0) = (Host.reduceAdd (final m c (Proc.devRef .tc main_v89)) (final m c (Proc.devRef .tc main_call6_cst)) reducesTo_S3000x256_S256_d0 h_S_ : (⟨S256, .f32⟩ : BufTy).Contents (Elt F)) := by
  have h := Sage.after_binary (a := main_v89) (b := main_call6_cst) (y := main_call6_v0) (ops_Writes (F := F)) 403 (launchContents m c) (by rfl) (by decide +kernel) (by decide +kernel) (by decide +kernel)
  unfold final
  generalize after ops (launchContents m c) = G at h ⊢
  exact h
theorem final_main_call6_v1 (m : (ℓ : Loc nD τ sig) → Buf (Elt F) ℓ) (c : Dev nD) :
    final m c (Proc.devRef .tc main_call6_v1) = (broadcastInDim S1x256 ![1] bcast_S256_S1x256_1 : (⟨S256, .f32⟩ : BufTy).Contents (Elt F) → (⟨S1x256, .f32⟩ : BufTy).Contents (Elt F)) (final m c (Proc.devRef .tc main_call6_v0)) := by
  have h := Sage.after_unary (x := main_call6_v0) (y := main_call6_v1) (ops_Writes (F := F)) 404 (launchContents m c) (by rfl) (by decide +kernel) (by decide +kernel)
  unfold final
  generalize after ops (launchContents m c) = G at h ⊢
  exact h
theorem final_main_call6_cst_0 (m : (ℓ : Loc nD τ sig) → Buf (Elt F) ℓ) (c : Dev nD) :
    final m c (Proc.devRef .tc main_call6_cst_0) = (constant S_ .f32 0x453B8000#32 : (⟨S_, .f32⟩ : BufTy).Contents (Elt F)) := by
  have h := Sage.after_nullary (y := main_call6_cst_0) (ops_Writes (F := F)) 405 (launchContents m c) (by rfl) (by decide +kernel)
  unfold final
  generalize after ops (launchContents m c) = G at h ⊢
  exact h
theorem final_main_call6_v2 (m : (ℓ : Loc nD τ sig) → Buf (Elt F) ℓ) (c : Dev nD) :
    final m c (Proc.devRef .tc main_call6_v2) = (broadcastInDim S1x256 ![] bcast_S_S1x256 : (⟨S_, .f32⟩ : BufTy).Contents (Elt F) → (⟨S1x256, .f32⟩ : BufTy).Contents (Elt F)) (final m c (Proc.devRef .tc main_call6_cst_0)) := by
  have h := Sage.after_unary (x := main_call6_cst_0) (y := main_call6_v2) (ops_Writes (F := F)) 406 (launchContents m c) (by rfl) (by decide +kernel) (by decide +kernel)
  unfold final
  generalize after ops (launchContents m c) = G at h ⊢
  exact h
theorem final_main_call6_v3 (m : (ℓ : Loc nD τ sig) → Buf (Elt F) ℓ) (c : Dev nD) :
    final m c (Proc.devRef .tc main_call6_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call6_v1)) (final m c (Proc.devRef .tc main_call6_v2)) := by
  have h := Sage.after_binary (a := main_call6_v1) (b := main_call6_v2) (y := main_call6_v3) (ops_Writes (F := F)) 407 (launchContents m c) (by rfl) (by decide +kernel) (by decide +kernel) (by decide +kernel)
  unfold final
  generalize after ops (launchContents m c) = G at h ⊢
  exact h
theorem final_main_call6_v4 (m : (ℓ : Loc nD τ sig) → Buf (Elt F) ℓ) (c : Dev nD) :
    final m c (Proc.devRef .tc main_call6_v4) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_call6_v3)) := by
  have h := Sage.after_unary (x := main_call6_v3) (y := main_call6_v4) (ops_Writes (F := F)) 408 (launchContents m c) (by rfl) (by decide +kernel) (by decide +kernel)
  unfold final
  generalize after ops (launchContents m c) = G at h ⊢
  exact h
theorem final_main_call6_v5 (m : (ℓ : Loc nD τ sig) → Buf (Elt F) ℓ) (c : Dev nD) :
    final m c (Proc.devRef .tc main_call6_v5) = (subf : (⟨S3000x256, .f32⟩ : BufTy).Contents (Elt F) → (⟨S3000x256, .f32⟩ : BufTy).Contents (Elt F) → (⟨S3000x256, .f32⟩ : BufTy).Contents (Elt F)) (final m c (Proc.devRef .tc main_v89)) (final m c (Proc.devRef .tc main_call6_v4)) := by
  have h := Sage.after_binary (a := main_v89) (b := main_call6_v4) (y := main_call6_v5) (ops_Writes (F := F)) 409 (launchContents m c) (by rfl) (by decide +kernel) (by decide +kernel) (by decide +kernel)
  unfold final
  generalize after ops (launchContents m c) = G at h ⊢
  exact h
theorem final_main_call6_v6 (m : (ℓ : Loc nD τ sig) → Buf (Elt F) ℓ) (c : Dev nD) :
    final m c (Proc.devRef .tc main_call6_v6) = (mulf : (⟨S3000x256, .f32⟩ : BufTy).Contents (Elt F) → (⟨S3000x256, .f32⟩ : BufTy).Contents (Elt F) → (⟨S3000x256, .f32⟩ : BufTy).Contents (Elt F)) (final m c (Proc.devRef .tc main_call6_v5)) (final m c (Proc.devRef .tc main_call6_v5)) := by
  have h := Sage.after_binary (a := main_call6_v5) (b := main_call6_v5) (y := main_call6_v6) (ops_Writes (F := F)) 410 (launchContents m c) (by rfl) (by decide +kernel) (by decide +kernel) (by decide +kernel)
  unfold final
  generalize after ops (launchContents m c) = G at h ⊢
  exact h
theorem final_main_call6_v7 (m : (ℓ : Loc nD τ sig) → Buf (Elt F) ℓ) (c : Dev nD) :
    final m c (Proc.devRef .tc main_call6_v7) = (sitofp .f32 : (⟨S_, .i32⟩ : BufTy).Contents (Elt F) → (⟨S_, .f32⟩ : BufTy).Contents (Elt F)) (final m c (Proc.devRef .tc main_c_54)) := by
  have h := Sage.after_unary (x := main_c_54) (y := main_call6_v7) (ops_Writes (F := F)) 411 (launchContents m c) (by rfl) (by decide +kernel) (by decide +kernel)
  unfold final
  generalize after ops (launchContents m c) = G at h ⊢
  exact h
theorem final_main_call6_cst_1 (m : (ℓ : Loc nD τ sig) → Buf (Elt F) ℓ) (c : Dev nD) :
    final m c (Proc.devRef .tc main_call6_cst_1) = (constant S_ .f32 0x453B8000#32 : (⟨S_, .f32⟩ : BufTy).Contents (Elt F)) := by
  have h := Sage.after_nullary (y := main_call6_cst_1) (ops_Writes (F := F)) 412 (launchContents m c) (by rfl) (by decide +kernel)
  unfold final
  generalize after ops (launchContents m c) = G at h ⊢
  exact h
theorem final_main_call6_v8 (m : (ℓ : Loc nD τ sig) → Buf (Elt F) ℓ) (c : Dev nD) :
    final m c (Proc.devRef .tc main_call6_v8) = (subf : (⟨S_, .f32⟩ : BufTy).Contents (Elt F) → (⟨S_, .f32⟩ : BufTy).Contents (Elt F) → (⟨S_, .f32⟩ : BufTy).Contents (Elt F)) (final m c (Proc.devRef .tc main_call6_cst_1)) (final m c (Proc.devRef .tc main_call6_v7)) := by
  have h := Sage.after_binary (a := main_call6_cst_1) (b := main_call6_v7) (y := main_call6_v8) (ops_Writes (F := F)) 413 (launchContents m c) (by rfl) (by decide +kernel) (by decide +kernel) (by decide +kernel)
  unfold final
  generalize after ops (launchContents m c) = G at h ⊢
  exact h
theorem final_main_call6_cst_2 (m : (ℓ : Loc nD τ sig) → Buf (Elt F) ℓ) (c : Dev nD) :
    final m c (Proc.devRef .tc main_call6_cst_2) = (constant S_ .f32 0x00000000#32 : (⟨S_, .f32⟩ : BufTy).Contents (Elt F)) := by
  have h := Sage.after_nullary (y := main_call6_cst_2) (ops_Writes (F := F)) 414 (launchContents m c) (by rfl) (by decide +kernel)
  unfold final
  generalize after ops (launchContents m c) = G at h ⊢
  exact h
theorem final_main_call6_v9 (m : (ℓ : Loc nD τ sig) → Buf (Elt F) ℓ) (c : Dev nD) :
    final m c (Proc.devRef .tc main_call6_v9) = (Host.reduceAdd (final m c (Proc.devRef .tc main_call6_v6)) (final m c (Proc.devRef .tc main_call6_cst_2)) reducesTo_S3000x256_S256_d0 h_S_ : (⟨S256, .f32⟩ : BufTy).Contents (Elt F)) := by
  have h := Sage.after_binary (a := main_call6_v6) (b := main_call6_cst_2) (y := main_call6_v9) (ops_Writes (F := F)) 415 (launchContents m c) (by rfl) (by decide +kernel) (by decide +kernel) (by decide +kernel)
  unfold final
  generalize after ops (launchContents m c) = G at h ⊢
  exact h
theorem final_main_call6_v10 (m : (ℓ : Loc nD τ sig) → Buf (Elt F) ℓ) (c : Dev nD) :
    final m c (Proc.devRef .tc main_call6_v10) = (broadcastInDim S256 ![] bcast_S_S256 : (⟨S_, .f32⟩ : BufTy).Contents (Elt F) → (⟨S256, .f32⟩ : BufTy).Contents (Elt F)) (final m c (Proc.devRef .tc main_call6_v8)) := by
  have h := Sage.after_unary (x := main_call6_v8) (y := main_call6_v10) (ops_Writes (F := F)) 416 (launchContents m c) (by rfl) (by decide +kernel) (by decide +kernel)
  unfold final
  generalize after ops (launchContents m c) = G at h ⊢
  exact h
theorem final_main_call6_v11 (m : (ℓ : Loc nD τ sig) → Buf (Elt F) ℓ) (c : Dev nD) :
    final m c (Proc.devRef .tc main_call6_v11) = (Host.divf : (⟨S256, .f32⟩ : BufTy).Contents (Elt F) → (⟨S256, .f32⟩ : BufTy).Contents (Elt F) → (⟨S256, .f32⟩ : BufTy).Contents (Elt F)) (final m c (Proc.devRef .tc main_call6_v9)) (final m c (Proc.devRef .tc main_call6_v10)) := by
  have h := Sage.after_binary (a := main_call6_v9) (b := main_call6_v10) (y := main_call6_v11) (ops_Writes (F := F)) 417 (launchContents m c) (by rfl) (by decide +kernel) (by decide +kernel) (by decide +kernel)
  unfold final
  generalize after ops (launchContents m c) = G at h ⊢
  exact h
theorem final_main_call6_cst_3 (m : (ℓ : Loc nD τ sig) → Buf (Elt F) ℓ) (c : Dev nD) :
    final m c (Proc.devRef .tc main_call6_cst_3) = (constant S_ .f32 0x00000000#32 : (⟨S_, .f32⟩ : BufTy).Contents (Elt F)) := by
  have h := Sage.after_nullary (y := main_call6_cst_3) (ops_Writes (F := F)) 418 (launchContents m c) (by rfl) (by decide +kernel)
  unfold final
  generalize after ops (launchContents m c) = G at h ⊢
  exact h
theorem final_main_call6_v12 (m : (ℓ : Loc nD τ sig) → Buf (Elt F) ℓ) (c : Dev nD) :
    final m c (Proc.devRef .tc main_call6_v12) = (cmpf .ogt : (⟨S_, .f32⟩ : BufTy).Contents (Elt F) → (⟨S_, .f32⟩ : BufTy).Contents (Elt F) → (⟨S_, .i1⟩ : BufTy).Contents (Elt F)) (final m c (Proc.devRef .tc main_call6_v8)) (final m c (Proc.devRef .tc main_call6_cst_3)) := by
  have h := Sage.after_binary (a := main_call6_v8) (b := main_call6_cst_3) (y := main_call6_v12) (ops_Writes (F := F)) 419 (launchContents m c) (by rfl) (by decide +kernel) (by decide +kernel) (by decide +kernel)
  unfold final
  generalize after ops (launchContents m c) = G at h ⊢
  exact h
theorem final_main_call6_cst_4 (m : (ℓ : Loc nD τ sig) → Buf (Elt F) ℓ) (c : Dev nD) :
    final m c (Proc.devRef .tc main_call6_cst_4) = (constant S_ .f32 0x7FC00000#32 : (⟨S_, .f32⟩ : BufTy).Contents (Elt F)) := by
  have h := Sage.after_nullary (y := main_call6_cst_4) (ops_Writes (F := F)) 420 (launchContents m c) (by rfl) (by decide +kernel)
  unfold final
  generalize after ops (launchContents m c) = G at h ⊢
  exact h
theorem final_main_call6_call0_v0 (m : (ℓ : Loc nD τ sig) → Buf (Elt F) ℓ) (c : Dev nD) :
    final m c (Proc.devRef .tc main_call6_call0_v0) = (id : (⟨S_, .f32⟩ : BufTy).Contents (Elt F) → (⟨S_, .f32⟩ : BufTy).Contents (Elt F)) (final m c (Proc.devRef .tc main_call6_cst_4)) := by
  have h := Sage.after_unary (x := main_call6_cst_4) (y := main_call6_call0_v0) (ops_Writes (F := F)) 421 (launchContents m c) (by rfl) (by decide +kernel) (by decide +kernel)
  unfold final
  generalize after ops (launchContents m c) = G at h ⊢
  exact h
theorem final_main_call6_call0_v1 (m : (ℓ : Loc nD τ sig) → Buf (Elt F) ℓ) (c : Dev nD) :
    final m c (Proc.devRef .tc main_call6_call0_v1) = (broadcastInDim S256 ![] bcast_S_S256 : (⟨S_, .f32⟩ : BufTy).Contents (Elt F) → (⟨S256, .f32⟩ : BufTy).Contents (Elt F)) (final m c (Proc.devRef .tc main_call6_call0_v0)) := by
  have h := Sage.after_unary (x := main_call6_call0_v0) (y := main_call6_call0_v1) (ops_Writes (F := F)) 422 (launchContents m c) (by rfl) (by decide +kernel) (by decide +kernel)
  unfold final
  generalize after ops (launchContents m c) = G at h ⊢
  exact h
theorem final_main_v276 (m : (ℓ : Loc nD τ sig) → Buf (Elt F) ℓ) (c : Dev nD) :
    final m c (Proc.devRef .tc main_v276) = (select (broadcastInDim S256 ![] bcast_S_S256 (final m c (Proc.devRef .tc main_call6_v12))) (final m c (Proc.devRef .tc main_call6_v11)) (final m c (Proc.devRef .tc main_call6_call0_v1)) : (⟨S256, .f32⟩ : BufTy).Contents (Elt F)) := by
  have h := Sage.after_ternary (c := main_call6_v12) (a := main_call6_v11) (b := main_call6_call0_v1) (y := main_v276) (ops_Writes (F := F)) 423 (launchContents m c) (by rfl) (by decide +kernel) (by decide +kernel) (by decide +kernel) (by decide +kernel)
  unfold final
  generalize after ops (launchContents m c) = G at h ⊢
  exact h
theorem final_main_v277 (m : (ℓ : Loc nD τ sig) → Buf (Elt F) ℓ) (c : Dev nD) :
    final m c (Proc.devRef .tc main_v277) = (broadcastInDim S1x256 ![1] bcast_S256_S1x256_1 : (⟨S256, .f32⟩ : BufTy).Contents (Elt F) → (⟨S1x256, .f32⟩ : BufTy).Contents (Elt F)) (final m c (Proc.devRef .tc main_v275)) := by
  have h := Sage.after_unary (x := main_v275) (y := main_v277) (ops_Writes (F := F)) 424 (launchContents m c) (by rfl) (by decide +kernel) (by decide +kernel)
  unfold final
  generalize after ops (launchContents m c) = G at h ⊢
  exact h
theorem final_main_v278 (m : (ℓ : Loc nD τ sig) → Buf (Elt F) ℓ) (c : Dev nD) :
    final m c (Proc.devRef .tc main_v278) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v277)) := by
  have h := Sage.after_unary (x := main_v277) (y := main_v278) (ops_Writes (F := F)) 425 (launchContents m c) (by rfl) (by decide +kernel) (by decide +kernel)
  unfold final
  generalize after ops (launchContents m c) = G at h ⊢
  exact h
theorem final_main_v279 (m : (ℓ : Loc nD τ sig) → Buf (Elt F) ℓ) (c : Dev nD) :
    final m c (Proc.devRef .tc main_v279) = (subf : (⟨S3000x256, .f32⟩ : BufTy).Contents (Elt F) → (⟨S3000x256, .f32⟩ : BufTy).Contents (Elt F) → (⟨S3000x256, .f32⟩ : BufTy).Contents (Elt F)) (final m c (Proc.devRef .tc main_v89)) (final m c (Proc.devRef .tc main_v278)) := by
  have h := Sage.after_binary (a := main_v89) (b := main_v278) (y := main_v279) (ops_Writes (F := F)) 426 (launchContents m c) (by rfl) (by decide +kernel) (by decide +kernel) (by decide +kernel)
  unfold final
  generalize after ops (launchContents m c) = G at h ⊢
  exact h
theorem final_main_cst_55 (m : (ℓ : Loc nD τ sig) → Buf (Elt F) ℓ) (c : Dev nD) :
    final m c (Proc.devRef .tc main_cst_55) = (constant S_ .f32 0x3727C5AC#32) := by
  have h := Sage.after_nullary (y := main_cst_55) (ops_Writes (F := F)) 427 (launchContents m c) (by rfl) (by decide +kernel)
  unfold final
  generalize after ops (launchContents m c) = G at h ⊢
  exact h
theorem final_main_v280 (m : (ℓ : Loc nD τ sig) → Buf (Elt F) ℓ) (c : Dev nD) :
    final m c (Proc.devRef .tc main_v280) = (broadcastInDim S256 ![] bcast_S_S256 : (⟨S_, .f32⟩ : BufTy).Contents (Elt F) → (⟨S256, .f32⟩ : BufTy).Contents (Elt F)) (final m c (Proc.devRef .tc main_cst_55)) := by
  have h := Sage.after_unary (x := main_cst_55) (y := main_v280) (ops_Writes (F := F)) 428 (launchContents m c) (by rfl) (by decide +kernel) (by decide +kernel)
  unfold final
  generalize after ops (launchContents m c) = G at h ⊢
  exact h
theorem final_main_v281 (m : (ℓ : Loc nD τ sig) → Buf (Elt F) ℓ) (c : Dev nD) :
    final m c (Proc.devRef .tc main_v281) = (addf : (⟨S256, .f32⟩ : BufTy).Contents (Elt F) → (⟨S256, .f32⟩ : BufTy).Contents (Elt F) → (⟨S256, .f32⟩ : BufTy).Contents (Elt F)) (final m c (Proc.devRef .tc main_v276)) (final m c (Proc.devRef .tc main_v280)) := by
  have h := Sage.after_binary (a := main_v276) (b := main_v280) (y := main_v281) (ops_Writes (F := F)) 429 (launchContents m c) (by rfl) (by decide +kernel) (by decide +kernel) (by decide +kernel)
  unfold final
  generalize after ops (launchContents m c) = G at h ⊢
  exact h
theorem final_main_v282 (m : (ℓ : Loc nD τ sig) → Buf (Elt F) ℓ) (c : Dev nD) :
    final m c (Proc.devRef .tc main_v282) = (Host.rsqrt : (⟨S256, .f32⟩ : BufTy).Contents (Elt F) → (⟨S256, .f32⟩ : BufTy).Contents (Elt F)) (final m c (Proc.devRef .tc main_v281)) := by
  have h := Sage.after_unary (x := main_v281) (y := main_v282) (ops_Writes (F := F)) 430 (launchContents m c) (by rfl) (by decide +kernel) (by decide +kernel)
  unfold final
  generalize after ops (launchContents m c) = G at h ⊢
  exact h
theorem final_main_v283 (m : (ℓ : Loc nD τ sig) → Buf (Elt F) ℓ) (c : Dev nD) :
    final m c (Proc.devRef .tc main_v283) = (broadcastInDim S1x256 ![1] bcast_S256_S1x256_1 : (⟨S256, .f32⟩ : BufTy).Contents (Elt F) → (⟨S1x256, .f32⟩ : BufTy).Contents (Elt F)) (final m c (Proc.devRef .tc main_v282)) := by
  have h := Sage.after_unary (x := main_v282) (y := main_v283) (ops_Writes (F := F)) 431 (launchContents m c) (by rfl) (by decide +kernel) (by decide +kernel)
  unfold final
  generalize after ops (launchContents m c) = G at h ⊢
  exact h
theorem final_main_v284 (m : (ℓ : Loc nD τ sig) → Buf (Elt F) ℓ) (c : Dev nD) :
    final m c (Proc.devRef .tc main_v284) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v283)) := by
  have h := Sage.after_unary (x := main_v283) (y := main_v284) (ops_Writes (F := F)) 432 (launchContents m c) (by rfl) (by decide +kernel) (by decide +kernel)
  unfold final
  generalize after ops (launchContents m c) = G at h ⊢
  exact h
theorem final_main_v285 (m : (ℓ : Loc nD τ sig) → Buf (Elt F) ℓ) (c : Dev nD) :
    final m c (Proc.devRef .tc main_v285) = (mulf : (⟨S3000x256, .f32⟩ : BufTy).Contents (Elt F) → (⟨S3000x256, .f32⟩ : BufTy).Contents (Elt F) → (⟨S3000x256, .f32⟩ : BufTy).Contents (Elt F)) (final m c (Proc.devRef .tc main_v279)) (final m c (Proc.devRef .tc main_v284)) := by
  have h := Sage.after_binary (a := main_v279) (b := main_v284) (y := main_v285) (ops_Writes (F := F)) 433 (launchContents m c) (by rfl) (by decide +kernel) (by decide +kernel) (by decide +kernel)
  unfold final
  generalize after ops (launchContents m c) = G at h ⊢
  exact h
theorem final_main_v286 (m : (ℓ : Loc nD τ sig) → Buf (Elt F) ℓ) (c : Dev nD) :
    final m c (Proc.devRef .tc main_v286) = (broadcastInDim S1x256 ![1] bcast_S256_S1x256_1 : (⟨S256, .f32⟩ : BufTy).Contents (Elt F) → (⟨S1x256, .f32⟩ : BufTy).Contents (Elt F)) (final m c (Proc.devRef .tc main_arg10)) := by
  have h := Sage.after_unary (x := main_arg10) (y := main_v286) (ops_Writes (F := F)) 434 (launchContents m c) (by rfl) (by decide +kernel) (by decide +kernel)
  unfold final
  generalize after ops (launchContents m c) = G at h ⊢
  exact h
theorem final_main_v287 (m : (ℓ : Loc nD τ sig) → Buf (Elt F) ℓ) (c : Dev nD) :
    final m c (Proc.devRef .tc main_v287) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v286)) := by
  have h := Sage.after_unary (x := main_v286) (y := main_v287) (ops_Writes (F := F)) 435 (launchContents m c) (by rfl) (by decide +kernel) (by decide +kernel)
  unfold final
  generalize after ops (launchContents m c) = G at h ⊢
  exact h
theorem final_main_v288 (m : (ℓ : Loc nD τ sig) → Buf (Elt F) ℓ) (c : Dev nD) :
    final m c (Proc.devRef .tc main_v288) = (mulf : (⟨S3000x256, .f32⟩ : BufTy).Contents (Elt F) → (⟨S3000x256, .f32⟩ : BufTy).Contents (Elt F) → (⟨S3000x256, .f32⟩ : BufTy).Contents (Elt F)) (final m c (Proc.devRef .tc main_v285)) (final m c (Proc.devRef .tc main_v287)) := by
  have h := Sage.after_binary (a := main_v285) (b := main_v287) (y := main_v288) (ops_Writes (F := F)) 436 (launchContents m c) (by rfl) (by decide +kernel) (by decide +kernel) (by decide +kernel)
  unfold final
  generalize after ops (launchContents m c) = G at h ⊢
  exact h
theorem final_main_v289 (m : (ℓ : Loc nD τ sig) → Buf (Elt F) ℓ) (c : Dev nD) :
    final m c (Proc.devRef .tc main_v289) = (broadcastInDim S1x256 ![1] bcast_S256_S1x256_1 : (⟨S256, .f32⟩ : BufTy).Contents (Elt F) → (⟨S1x256, .f32⟩ : BufTy).Contents (Elt F)) (final m c (Proc.devRef .tc main_arg11)) := by
  have h := Sage.after_unary (x := main_arg11) (y := main_v289) (ops_Writes (F := F)) 437 (launchContents m c) (by rfl) (by decide +kernel) (by decide +kernel)
  unfold final
  generalize after ops (launchContents m c) = G at h ⊢
  exact h
theorem final_main_v290 (m : (ℓ : Loc nD τ sig) → Buf (Elt F) ℓ) (c : Dev nD) :
    final m c (Proc.devRef .tc main_v290) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v289)) := by
  have h := Sage.after_unary (x := main_v289) (y := main_v290) (ops_Writes (F := F)) 438 (launchContents m c) (by rfl) (by decide +kernel) (by decide +kernel)
  unfold final
  generalize after ops (launchContents m c) = G at h ⊢
  exact h
theorem final_main_v291 (m : (ℓ : Loc nD τ sig) → Buf (Elt F) ℓ) (c : Dev nD) :
    final m c (Proc.devRef .tc main_v291) = (addf : (⟨S3000x256, .f32⟩ : BufTy).Contents (Elt F) → (⟨S3000x256, .f32⟩ : BufTy).Contents (Elt F) → (⟨S3000x256, .f32⟩ : BufTy).Contents (Elt F)) (final m c (Proc.devRef .tc main_v288)) (final m c (Proc.devRef .tc main_v290)) := by
  have h := Sage.after_binary (a := main_v288) (b := main_v290) (y := main_v291) (ops_Writes (F := F)) 439 (launchContents m c) (by rfl) (by decide +kernel) (by decide +kernel) (by decide +kernel)
  unfold final
  generalize after ops (launchContents m c) = G at h ⊢
  exact h
theorem final_main_call7_cst (m : (ℓ : Loc nD τ sig) → Buf (Elt F) ℓ) (c : Dev nD) :
    final m c (Proc.devRef .tc main_call7_cst) = (constant S_ .f32 0x00000000#32 : (⟨S_, .f32⟩ : BufTy).Contents (Elt F)) := by
  have h := Sage.after_nullary (y := main_call7_cst) (ops_Writes (F := F)) 440 (launchContents m c) (by rfl) (by decide +kernel)
  unfold final
  generalize after ops (launchContents m c) = G at h ⊢
  exact h
theorem final_main_call7_v0 (m : (ℓ : Loc nD τ sig) → Buf (Elt F) ℓ) (c : Dev nD) :
    final m c (Proc.devRef .tc main_call7_v0) = (broadcastInDim S3000x256 ![] bcast_S_S3000x256 : (⟨S_, .f32⟩ : BufTy).Contents (Elt F) → (⟨S3000x256, .f32⟩ : BufTy).Contents (Elt F)) (final m c (Proc.devRef .tc main_call7_cst)) := by
  have h := Sage.after_unary (x := main_call7_cst) (y := main_call7_v0) (ops_Writes (F := F)) 441 (launchContents m c) (by rfl) (by decide +kernel) (by decide +kernel)
  unfold final
  generalize after ops (launchContents m c) = G at h ⊢
  exact h
theorem final_main_v292 (m : (ℓ : Loc nD τ sig) → Buf (Elt F) ℓ) (c : Dev nD) :
    final m c (Proc.devRef .tc main_v292) = (maximumf : (⟨S3000x256, .f32⟩ : BufTy).Contents (Elt F) → (⟨S3000x256, .f32⟩ : BufTy).Contents (Elt F) → (⟨S3000x256, .f32⟩ : BufTy).Contents (Elt F)) (final m c (Proc.devRef .tc main_v291)) (final m c (Proc.devRef .tc main_call7_v0)) := by
  have h := Sage.after_binary (a := main_v291) (b := main_call7_v0) (y := main_v292) (ops_Writes (F := F)) 442 (launchContents m c) (by rfl) (by decide +kernel) (by decide +kernel) (by decide +kernel)
  unfold final
  generalize after ops (launchContents m c) = G at h ⊢
  exact h
theorem final_main_c_56 (m : (ℓ : Loc nD τ sig) → Buf (Elt F) ℓ) (c : Dev nD) :
    final m c (Proc.devRef .tc main_c_56) = (constantI S_ 32 0#32) := by
  have h := Sage.after_nullary (y := main_c_56) (ops_Writes (F := F)) 443 (launchContents m c) (by rfl) (by decide +kernel)
  unfold final
  generalize after ops (launchContents m c) = G at h ⊢
  exact h
theorem final_main_v293 (m : (ℓ : Loc nD τ sig) → Buf (Elt F) ℓ) (c : Dev nD) :
    final m c (Proc.devRef .tc main_v293) = (broadcastInDim S500000 ![] bcast_S_S500000 : (⟨S_, .i32⟩ : BufTy).Contents (Elt F) → (⟨S500000, .i32⟩ : BufTy).Contents (Elt F)) (final m c (Proc.devRef .tc main_c_56)) := by
  have h := Sage.after_unary (x := main_c_56) (y := main_v293) (ops_Writes (F := F)) 444 (launchContents m c) (by rfl) (by decide +kernel) (by decide +kernel)
  unfold final
  generalize after ops (launchContents m c) = G at h ⊢
  exact h
theorem final_main_v294 (m : (ℓ : Loc nD τ sig) → Buf (Elt F) ℓ) (c : Dev nD) :
    final m c (Proc.devRef .tc main_v294) = (cmpi .slt : (⟨S500000, .i32⟩ : BufTy).Contents (Elt F) → (⟨S500000, .i32⟩ : BufTy).Contents (Elt F) → (⟨S500000, .i1⟩ : BufTy).Contents (Elt F)) (final m c (Proc.devRef .tc main_arg14)) (final m c (Proc.devRef .tc main_v293)) := by
  have h := Sage.after_binary (a := main_arg14) (b := main_v293) (y := main_v294) (ops_Writes (F := F)) 445 (launchContents m c) (by rfl) (by decide +kernel) (by decide +kernel) (by decide +kernel)
  unfold final
  generalize after ops (launchContents m c) = G at h ⊢
  exact h
theorem final_main_c_57 (m : (ℓ : Loc nD τ sig) → Buf (Elt F) ℓ) (c : Dev nD) :
    final m c (Proc.devRef .tc main_c_57) = (constantI S_ 32 20000#32) := by
  have h := Sage.after_nullary (y := main_c_57) (ops_Writes (F := F)) 446 (launchContents m c) (by rfl) (by decide +kernel)
  unfold final
  generalize after ops (launchContents m c) = G at h ⊢
  exact h
theorem final_main_v295 (m : (ℓ : Loc nD τ sig) → Buf (Elt F) ℓ) (c : Dev nD) :
    final m c (Proc.devRef .tc main_v295) = (broadcastInDim S500000 ![] bcast_S_S500000 : (⟨S_, .i32⟩ : BufTy).Contents (Elt F) → (⟨S500000, .i32⟩ : BufTy).Contents (Elt F)) (final m c (Proc.devRef .tc main_c_57)) := by
  have h := Sage.after_unary (x := main_c_57) (y := main_v295) (ops_Writes (F := F)) 447 (launchContents m c) (by rfl) (by decide +kernel) (by decide +kernel)
  unfold final
  generalize after ops (launchContents m c) = G at h ⊢
  exact h
theorem final_main_v296 (m : (ℓ : Loc nD τ sig) → Buf (Elt F) ℓ) (c : Dev nD) :
    final m c (Proc.devRef .tc main_v296) = (addi : (⟨S500000, .i32⟩ : BufTy).Contents (Elt F) → (⟨S500000, .i32⟩ : BufTy).Contents (Elt F) → (⟨S500000, .i32⟩ : BufTy).Contents (Elt F)) (final m c (Proc.devRef .tc main_arg14)) (final m c (Proc.devRef .tc main_v295)) := by
  have h := Sage.after_binary (a := main_arg14) (b := main_v295) (y := main_v296) (ops_Writes (F := F)) 448 (launchContents m c) (by rfl) (by decide +kernel) (by decide +kernel) (by decide +kernel)
  unfold final
  generalize after ops (launchContents m c) = G at h ⊢
  exact h
theorem final_main_v297 (m : (ℓ : Loc nD τ sig) → Buf (Elt F) ℓ) (c : Dev nD) :
    final m c (Proc.devRef .tc main_v297) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (final m c (Proc.devRef .tc main_v294)) (final m c (Proc.devRef .tc main_v296)) (final m c (Proc.devRef .tc main_arg14)) := by
  have h := Sage.after_ternary (c := main_v294) (a := main_v296) (b := main_arg14) (y := main_v297) (ops_Writes (F := F)) 449 (launchContents m c) (by rfl) (by decide +kernel) (by decide +kernel) (by decide +kernel) (by decide +kernel)
  unfold final
  generalize after ops (launchContents m c) = G at h ⊢
  exact h
theorem final_main_v298 (m : (ℓ : Loc nD τ sig) → Buf (Elt F) ℓ) (c : Dev nD) :
    final m c (Proc.devRef .tc main_v298) = (broadcastInDim S500000x1 ![0] bcast_S500000_S500000x1_0 : (⟨S500000, .i32⟩ : BufTy).Contents (Elt F) → (⟨S500000x1, .i32⟩ : BufTy).Contents (Elt F)) (final m c (Proc.devRef .tc main_v297)) := by
  have h := Sage.after_unary (x := main_v297) (y := main_v298) (ops_Writes (F := F)) 450 (launchContents m c) (by rfl) (by decide +kernel) (by decide +kernel)
  unfold final
  generalize after ops (launchContents m c) = G at h ⊢
  exact h
theorem final_main_v299 (m : (ℓ : Loc nD τ sig) → Buf (Elt F) ℓ) (c : Dev nD) :
    final m c (Proc.devRef .tc main_v299) = (Host.gather gather_S20000x256_S500000x1_S500000x256_1_0_n_n_0_1_1256 (final m c (Proc.devRef .tc main_v232)) (final m c (Proc.devRef .tc main_v298)) : (⟨S500000x256, .f32⟩ : BufTy).Contents (Elt F)) := by
  have h := Sage.after_binary (a := main_v232) (b := main_v298) (y := main_v299) (ops_Writes (F := F)) 451 (launchContents m c) (by rfl) (by decide +kernel) (by decide +kernel) (by decide +kernel)
  unfold final
  generalize after ops (launchContents m c) = G at h ⊢
  exact h

end Cert.ReferenceIdeal.Hand

end
-- ==== Proof.Ref.StageBn1.lean ====
/-
  The reference's first batch normalisation, stage by stage. For each node type, the buffer that holds the layer's
  result at the end of the run is the pure batch normalisation and rectifier (`refBn<rows>`) of three buffers' final
  contents: the layer's summed array, the scale and the shift. Each equation is read off the run one operation at
  a time, from the result back to those three buffers; what remains is the printed composition, which is the pure
  function by unfolding.
-/
import proofs.«126569_j1468878815453_1_alg».proof.Proof.Ref.Final4
import proofs.«126569_j1468878815453_1_alg».proof.Proof.Ref.Final5
import proofs.«126569_j1468878815453_1_alg».proof.Proof.Ref.PureBn

noncomputable section

namespace Cert.ReferenceIdeal.Hand

open Cert.ReferenceIdeal Cert.ReferenceIdeal.Gen Idealize.ShloMosaic Idealize.ShloMosaic.TcCoe Idealize.SL.Sem Idealize.ShloMosaic.StableHlo

/-- Layer 1, first node type (20000 rows): the normalised and rectified array is the batch normalisation of the layer's
    summed array `%181` by the scale `%arg10` and the shift `%arg11`. Read back from `%232` through the mean, the
    variance's operations, the normalisation and the rectifier, down to those three buffers. -/
theorem bn1_drug (m : (ℓ : Loc nD τ sig) → Buf (Elt Ideal) ℓ) (c : Dev nD) :
    final m c (Proc.devRef .tc main_v232)
      = refBn20000 (final m c (Proc.devRef .tc main_v181)) (final m c (Proc.devRef .tc main_arg10)) (final m c (Proc.devRef .tc main_arg11)) := by
  rw [final_main_v232, final_main_call1_v0, final_main_call1_cst, final_main_v231, final_main_v230,
    final_main_v229, final_main_v228, final_main_v227, final_main_v226, final_main_v225, final_main_v224,
    final_main_v223, final_main_v222, final_main_v221, final_main_v220, final_main_cst_43, final_main_v216,
    final_main_call0_call0_v1, final_main_call0_call0_v0, final_main_call0_cst_4, final_main_call0_v11,
    final_main_call0_v10, final_main_call0_v9, final_main_call0_cst_2, final_main_call0_v6,
    final_main_call0_v5, final_main_call0_v4, final_main_call0_v3, final_main_call0_v2,
    final_main_call0_cst_0, final_main_call0_v1, final_main_call0_v0, final_main_call0_cst,
    final_main_call0_v12, final_main_call0_cst_3, final_main_call0_v8, final_main_call0_v7, final_main_c_42,
    final_main_call0_cst_1, final_main_v219, final_main_v218, final_main_v217, final_main_v215,
    final_main_v214, final_main_cst_41, final_main_v213, final_main_cst_40]
  rfl

/-- Layer 1, second node type (50000 rows): the normalised and rectified array is the batch normalisation of the layer's
    summed array `%212` by the scale `%arg10` and the shift `%arg11`. Read back from `%252` through the mean, the
    variance's operations, the normalisation and the rectifier, down to those three buffers. -/
theorem bn1_protein (m : (ℓ : Loc nD τ sig) → Buf (Elt Ideal) ℓ) (c : Dev nD) :
    final m c (Proc.devRef .tc main_v252)
      = refBn50000 (final m c (Proc.devRef .tc main_v212)) (final m c (Proc.devRef .tc main_arg10)) (final m c (Proc.devRef .tc main_arg11)) := by
  rw [final_main_v252, final_main_call3_v0, final_main_call3_cst, final_main_v251, final_main_v250,
    final_main_v249, final_main_v248, final_main_v247, final_main_v246, final_main_v245, final_main_v244,
    final_main_v243, final_main_v242, final_main_v241, final_main_v240, final_main_cst_47, final_main_v236,
    final_main_call2_call0_v1, final_main_call2_call0_v0, final_main_call2_cst_4, final_main_call2_v11,
    final_main_call2_v10, final_main_call2_v9, final_main_call2_cst_2, final_main_call2_v6,
    final_main_call2_v5, final_main_call2_v4, final_main_call2_v3, final_main_call2_v2,
    final_main_call2_cst_0, final_main_call2_v1, final_main_call2_v0, final_main_call2_cst,
    final_main_call2_v12, final_main_call2_cst_3, final_main_call2_v8, final_main_call2_v7, final_main_c_46,
    final_main_call2_cst_1, final_main_v239, final_main_v238, final_main_v237, final_main_v235,
    final_main_v234, final_main_cst_45, final_main_v233, final_main_cst_44]
  rfl

/-- Layer 1, third node type (10000 rows): the normalised and rectified array is the batch normalisation of the layer's
    summed array `%120` by the scale `%arg10` and the shift `%arg11`. Read back from `%272` through the mean, the
    variance's operations, the normalisation and the rectifier, down to those three buffers. -/
theorem bn1_side (m : (ℓ : Loc nD τ sig) → Buf (Elt Ideal) ℓ) (c : Dev nD) :
    final m c (Proc.devRef .tc main_v272)
      = refBn10000 (final m c (Proc.devRef .tc main_v120)) (final m c (Proc.devRef .tc main_arg10)) (final m c (Proc.devRef .tc main_arg11)) := by
  rw [final_main_v272, final_main_call5_v0, final_main_call5_cst, final_main_v271, final_main_v270,
    final_main_v269, final_main_v268, final_main_v267, final_main_v266, final_main_v265, final_main_v264,
    final_main_v263, final_main_v262, final_main_v261, final_main_v260, final_main_cst_51, final_main_v256,
    final_main_call4_call0_v1, final_main_call4_call0_v0, final_main_call4_cst_4, final_main_call4_v11,
    final_main_call4_v10, final_main_call4_v9, final_main_call4_cst_2, final_main_call4_v6,
    final_main_call4_v5, final_main_call4_v4, final_main_call4_v3, final_main_call4_v2,
    final_main_call4_cst_0, final_main_call4_v1, final_main_call4_v0, final_main_call4_cst,
    final_main_call4_v12, final_main_call4_cst_3, final_main_call4_v8, final_main_call4_v7, final_main_c_50,
    final_main_call4_cst_1, final_main_v259, final_main_v258, final_main_v257, final_main_v255,
    final_main_v254, final_main_cst_49, final_main_v253, final_main_cst_48]
  rfl

/-- Layer 1, fourth node type (3000 rows): the normalised and rectified array is the batch normalisation of the layer's
    summed array `%89` by the scale `%arg10` and the shift `%arg11`. Read back from `%292` through the mean, the
    variance's operations, the normalisation and the rectifier, down to those three buffers. -/
theorem bn1_path (m : (ℓ : Loc nD τ sig) → Buf (Elt Ideal) ℓ) (c : Dev nD) :
    final m c (Proc.devRef .tc main_v292)
      = refBn3000 (final m c (Proc.devRef .tc main_v89)) (final m c (Proc.devRef .tc main_arg10)) (final m c (Proc.devRef .tc main_arg11)) := by
  rw [final_main_v292, final_main_call7_v0, final_main_call7_cst, final_main_v291, final_main_v290,
    final_main_v289, final_main_v288, final_main_v287, final_main_v286, final_main_v285, final_main_v284,
    final_main_v283, final_main_v282, final_main_v281, final_main_v280, final_main_cst_55, final_main_v276,
    final_main_call6_call0_v1, final_main_call6_call0_v0, final_main_call6_cst_4, final_main_call6_v11,
    final_main_call6_v10, final_main_call6_v9, final_main_call6_cst_2, final_main_call6_v6,
    final_main_call6_v5, final_main_call6_v4, final_main_call6_v3, final_main_call6_v2,
    final_main_call6_cst_0, final_main_call6_v1, final_main_call6_v0, final_main_call6_cst,
    final_main_call6_v12, final_main_call6_cst_3, final_main_call6_v8, final_main_call6_v7, final_main_c_54,
    final_main_call6_cst_1, final_main_v279, final_main_v278, final_main_v277, final_main_v275,
    final_main_v274, final_main_cst_53, final_main_v273, final_main_cst_52]
  rfl

end Cert.ReferenceIdeal.Hand

end
-- ==== Proof.Ref.Final6.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 6 (operations 453 … 512 of 886): what each result buffer holds when @main has run, one operation back. -/

theorem final_main_cst_58 (m : (ℓ : Loc nD τ sig) → Buf (Elt F) ℓ) (c : Dev nD) :
    final m c (Proc.devRef .tc main_cst_58) = (constant S_ .f32 0x00000000#32) := by
  have h := Sage.after_nullary (y := main_cst_58) (ops_Writes (F := F)) 452 (launchContents m c) (by rfl) (by decide +kernel)
  unfold final
  generalize after ops (launchContents m c) = G at h ⊢
  exact h
theorem final_main_v300 (m : (ℓ : Loc nD τ sig) → Buf (Elt F) ℓ) (c : Dev nD) :
    final m c (Proc.devRef .tc main_v300) = (broadcastInDim S10000x256 ![] bcast_S_S10000x256 : (⟨S_, .f32⟩ : BufTy).Contents (Elt F) → (⟨S10000x256, .f32⟩ : BufTy).Contents (Elt F)) (final m c (Proc.devRef .tc main_cst_58)) := by
  have h := Sage.after_unary (x := main_cst_58) (y := main_v300) (ops_Writes (F := F)) 453 (launchContents m c) (by rfl) (by decide +kernel) (by decide +kernel)
  unfold final
  generalize after ops (launchContents m c) = G at h ⊢
  exact h
theorem final_main_v301 (m : (ℓ : Loc nD τ sig) → Buf (Elt F) ℓ) (c : Dev nD) :
    final m c (Proc.devRef .tc main_v301) = (broadcastInDim S500000x1 ![0] bcast_S500000_S500000x1_0 : (⟨S500000, .i32⟩ : BufTy).Contents (Elt F) → (⟨S500000x1, .i32⟩ : BufTy).Contents (Elt F)) (final m c (Proc.devRef .tc main_arg15)) := by
  have h := Sage.after_unary (x := main_arg15) (y := main_v301) (ops_Writes (F := F)) 454 (launchContents m c) (by rfl) (by decide +kernel) (by decide +kernel)
  unfold final
  generalize after ops (launchContents m c) = G at h ⊢
  exact h
theorem final_main_v302 (m : (ℓ : Loc nD τ sig) → Buf (Elt F) ℓ) (c : Dev nD) :
    final m c (Proc.devRef .tc main_v302) = (Host.scatterAdd scatter_S10000x256_S500000x1_S500000x256_1_0_0_1 (final m c (Proc.devRef .tc main_v300)) (final m c (Proc.devRef .tc main_v301)) (final m c (Proc.devRef .tc main_v299)) : (⟨S10000x256, .f32⟩ : BufTy).Contents (Elt F)) := by
  have h := Sage.after_ternary (c := main_v300) (a := main_v301) (b := main_v299) (y := main_v302) (ops_Writes (F := F)) 455 (launchContents m c) (by rfl) (by decide +kernel) (by decide +kernel) (by decide +kernel) (by decide +kernel)
  unfold final
  generalize after ops (launchContents m c) = G at h ⊢
  exact h
theorem final_main_cst_59 (m : (ℓ : Loc nD τ sig) → Buf (Elt F) ℓ) (c : Dev nD) :
    final m c (Proc.devRef .tc main_cst_59) = (constant S_ .f32 0x3F800000#32) := by
  have h := Sage.after_nullary (y := main_cst_59) (ops_Writes (F := F)) 456 (launchContents m c) (by rfl) (by decide +kernel)
  unfold final
  generalize after ops (launchContents m c) = G at h ⊢
  exact h
theorem final_main_v303 (m : (ℓ : Loc nD τ sig) → Buf (Elt F) ℓ) (c : Dev nD) :
    final m c (Proc.devRef .tc main_v303) = (broadcastInDim S500000x1 ![] bcast_S_S500000x1 : (⟨S_, .f32⟩ : BufTy).Contents (Elt F) → (⟨S500000x1, .f32⟩ : BufTy).Contents (Elt F)) (final m c (Proc.devRef .tc main_cst_59)) := by
  have h := Sage.after_unary (x := main_cst_59) (y := main_v303) (ops_Writes (F := F)) 457 (launchContents m c) (by rfl) (by decide +kernel) (by decide +kernel)
  unfold final
  generalize after ops (launchContents m c) = G at h ⊢
  exact h
theorem final_main_cst_60 (m : (ℓ : Loc nD τ sig) → Buf (Elt F) ℓ) (c : Dev nD) :
    final m c (Proc.devRef .tc main_cst_60) = (constant S_ .f32 0x00000000#32) := by
  have h := Sage.after_nullary (y := main_cst_60) (ops_Writes (F := F)) 458 (launchContents m c) (by rfl) (by decide +kernel)
  unfold final
  generalize after ops (launchContents m c) = G at h ⊢
  exact h
theorem final_main_v304 (m : (ℓ : Loc nD τ sig) → Buf (Elt F) ℓ) (c : Dev nD) :
    final m c (Proc.devRef .tc main_v304) = (broadcastInDim S10000x1 ![] bcast_S_S10000x1 : (⟨S_, .f32⟩ : BufTy).Contents (Elt F) → (⟨S10000x1, .f32⟩ : BufTy).Contents (Elt F)) (final m c (Proc.devRef .tc main_cst_60)) := by
  have h := Sage.after_unary (x := main_cst_60) (y := main_v304) (ops_Writes (F := F)) 459 (launchContents m c) (by rfl) (by decide +kernel) (by decide +kernel)
  unfold final
  generalize after ops (launchContents m c) = G at h ⊢
  exact h
theorem final_main_v305 (m : (ℓ : Loc nD τ sig) → Buf (Elt F) ℓ) (c : Dev nD) :
    final m c (Proc.devRef .tc main_v305) = (broadcastInDim S500000x1 ![0] bcast_S500000_S500000x1_0 : (⟨S500000, .i32⟩ : BufTy).Contents (Elt F) → (⟨S500000x1, .i32⟩ : BufTy).Contents (Elt F)) (final m c (Proc.devRef .tc main_arg15)) := by
  have h := Sage.after_unary (x := main_arg15) (y := main_v305) (ops_Writes (F := F)) 460 (launchContents m c) (by rfl) (by decide +kernel) (by decide +kernel)
  unfold final
  generalize after ops (launchContents m c) = G at h ⊢
  exact h
theorem final_main_v306 (m : (ℓ : Loc nD τ sig) → Buf (Elt F) ℓ) (c : Dev nD) :
    final m c (Proc.devRef .tc main_v306) = (Host.scatterAdd scatter_S10000x1_S500000x1_S500000x1_1_0_0_1 (final m c (Proc.devRef .tc main_v304)) (final m c (Proc.devRef .tc main_v305)) (final m c (Proc.devRef .tc main_v303)) : (⟨S10000x1, .f32⟩ : BufTy).Contents (Elt F)) := by
  have h := Sage.after_ternary (c := main_v304) (a := main_v305) (b := main_v303) (y := main_v306) (ops_Writes (F := F)) 461 (launchContents m c) (by rfl) (by decide +kernel) (by decide +kernel) (by decide +kernel) (by decide +kernel)
  unfold final
  generalize after ops (launchContents m c) = G at h ⊢
  exact h
theorem final_main_cst_61 (m : (ℓ : Loc nD τ sig) → Buf (Elt F) ℓ) (c : Dev nD) :
    final m c (Proc.devRef .tc main_cst_61) = (constant S_ .f32 0x3F800000#32) := by
  have h := Sage.after_nullary (y := main_cst_61) (ops_Writes (F := F)) 462 (launchContents m c) (by rfl) (by decide +kernel)
  unfold final
  generalize after ops (launchContents m c) = G at h ⊢
  exact h
theorem final_main_v307 (m : (ℓ : Loc nD τ sig) → Buf (Elt F) ℓ) (c : Dev nD) :
    final m c (Proc.devRef .tc main_v307) = (broadcastInDim S10000x1 ![] bcast_S_S10000x1 : (⟨S_, .f32⟩ : BufTy).Contents (Elt F) → (⟨S10000x1, .f32⟩ : BufTy).Contents (Elt F)) (final m c (Proc.devRef .tc main_cst_61)) := by
  have h := Sage.after_unary (x := main_cst_61) (y := main_v307) (ops_Writes (F := F)) 463 (launchContents m c) (by rfl) (by decide +kernel) (by decide +kernel)
  unfold final
  generalize after ops (launchContents m c) = G at h ⊢
  exact h
theorem final_main_v308 (m : (ℓ : Loc nD τ sig) → Buf (Elt F) ℓ) (c : Dev nD) :
    final m c (Proc.devRef .tc main_v308) = (maximumf : (⟨S10000x1, .f32⟩ : BufTy).Contents (Elt F) → (⟨S10000x1, .f32⟩ : BufTy).Contents (Elt F) → (⟨S10000x1, .f32⟩ : BufTy).Contents (Elt F)) (final m c (Proc.devRef .tc main_v306)) (final m c (Proc.devRef .tc main_v307)) := by
  have h := Sage.after_binary (a := main_v306) (b := main_v307) (y := main_v308) (ops_Writes (F := F)) 464 (launchContents m c) (by rfl) (by decide +kernel) (by decide +kernel) (by decide +kernel)
  unfold final
  generalize after ops (launchContents m c) = G at h ⊢
  exact h
theorem final_main_v309 (m : (ℓ : Loc nD τ sig) → Buf (Elt F) ℓ) (c : Dev nD) :
    final m c (Proc.devRef .tc main_v309) = (broadcastInDim S10000x256 ![0, 1] bcast_S10000x1_S10000x256_0_1 : (⟨S10000x1, .f32⟩ : BufTy).Contents (Elt F) → (⟨S10000x256, .f32⟩ : BufTy).Contents (Elt F)) (final m c (Proc.devRef .tc main_v308)) := by
  have h := Sage.after_unary (x := main_v308) (y := main_v309) (ops_Writes (F := F)) 465 (launchContents m c) (by rfl) (by decide +kernel) (by decide +kernel)
  unfold final
  generalize after ops (launchContents m c) = G at h ⊢
  exact h
theorem final_main_v310 (m : (ℓ : Loc nD τ sig) → Buf (Elt F) ℓ) (c : Dev nD) :
    final m c (Proc.devRef .tc main_v310) = (Host.divf : (⟨S10000x256, .f32⟩ : BufTy).Contents (Elt F) → (⟨S10000x256, .f32⟩ : BufTy).Contents (Elt F) → (⟨S10000x256, .f32⟩ : BufTy).Contents (Elt F)) (final m c (Proc.devRef .tc main_v302)) (final m c (Proc.devRef .tc main_v309)) := by
  have h := Sage.after_binary (a := main_v302) (b := main_v309) (y := main_v310) (ops_Writes (F := F)) 466 (launchContents m c) (by rfl) (by decide +kernel) (by decide +kernel) (by decide +kernel)
  unfold final
  generalize after ops (launchContents m c) = G at h ⊢
  exact h
theorem final_main_v311 (m : (ℓ : Loc nD τ sig) → Buf (Elt F) ℓ) (c : Dev nD) :
    final m c (Proc.devRef .tc main_v311) = (extractStridedSlice S1x256x256 ![0, 0, 0] (final m c (Proc.devRef .tc main_arg7)) slices_S7x256x256_S1x256x256_0_0_0 : (⟨S1x256x256, .f32⟩ : BufTy).Contents (Elt F)) := by
  have h := Sage.after_unary (x := main_arg7) (y := main_v311) (ops_Writes (F := F)) 467 (launchContents m c) (by rfl) (by decide +kernel) (by decide +kernel)
  unfold final
  generalize after ops (launchContents m c) = G at h ⊢
  exact h
theorem final_main_v312 (m : (ℓ : Loc nD τ sig) → Buf (Elt F) ℓ) (c : Dev nD) :
    final m c (Proc.devRef .tc main_v312) = shapeCast S256x256 (final m c (Proc.devRef .tc main_v311)) shapeCasts_S1x256x256_S256x256 := by
  have h := Sage.after_reshape (x := main_v311) (y := main_v312) (ops_Writes (F := F)) 468 (launchContents m c) (by rfl) (by decide +kernel) (by decide +kernel)
  unfold final
  generalize after ops (launchContents m c) = G at h ⊢
  exact h
theorem final_main_v313 (m : (ℓ : Loc nD τ sig) → Buf (Elt F) ℓ) (c : Dev nD) :
    final m c (Proc.devRef .tc main_v313) = (Host.dotGeneral dot_S10000x256_S256x256_S10000x256_1_0_0_1_n_n none (final m c (Proc.devRef .tc main_v310)) (final m c (Proc.devRef .tc main_v312)) : (⟨S10000x256, .f32⟩ : BufTy).Contents (Elt F)) := by
  have h := Sage.after_binary (a := main_v310) (b := main_v312) (y := main_v313) (ops_Writes (F := F)) 469 (launchContents m c) (by rfl) (by decide +kernel) (by decide +kernel) (by decide +kernel)
  unfold final
  generalize after ops (launchContents m c) = G at h ⊢
  exact h
theorem final_main_v314 (m : (ℓ : Loc nD τ sig) → Buf (Elt F) ℓ) (c : Dev nD) :
    final m c (Proc.devRef .tc main_v314) = (extractStridedSlice S1x256 ![0, 0] (final m c (Proc.devRef .tc main_arg9)) slices_S7x256_S1x256_0_0 : (⟨S1x256, .f32⟩ : BufTy).Contents (Elt F)) := by
  have h := Sage.after_unary (x := main_arg9) (y := main_v314) (ops_Writes (F := F)) 470 (launchContents m c) (by rfl) (by decide +kernel) (by decide +kernel)
  unfold final
  generalize after ops (launchContents m c) = G at h ⊢
  exact h
theorem final_main_v315 (m : (ℓ : Loc nD τ sig) → Buf (Elt F) ℓ) (c : Dev nD) :
    final m c (Proc.devRef .tc main_v315) = shapeCast S256 (final m c (Proc.devRef .tc main_v314)) shapeCasts_S1x256_S256 := by
  have h := Sage.after_reshape (x := main_v314) (y := main_v315) (ops_Writes (F := F)) 471 (launchContents m c) (by rfl) (by decide +kernel) (by decide +kernel)
  unfold final
  generalize after ops (launchContents m c) = G at h ⊢
  exact h
theorem final_main_v316 (m : (ℓ : Loc nD τ sig) → Buf (Elt F) ℓ) (c : Dev nD) :
    final m c (Proc.devRef .tc main_v316) = (broadcastInDim S1x256 ![1] bcast_S256_S1x256_1 : (⟨S256, .f32⟩ : BufTy).Contents (Elt F) → (⟨S1x256, .f32⟩ : BufTy).Contents (Elt F)) (final m c (Proc.devRef .tc main_v315)) := by
  have h := Sage.after_unary (x := main_v315) (y := main_v316) (ops_Writes (F := F)) 472 (launchContents m c) (by rfl) (by decide +kernel) (by decide +kernel)
  unfold final
  generalize after ops (launchContents m c) = G at h ⊢
  exact h
theorem final_main_v317 (m : (ℓ : Loc nD τ sig) → Buf (Elt F) ℓ) (c : Dev nD) :
    final m c (Proc.devRef .tc main_v317) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v316)) := by
  have h := Sage.after_unary (x := main_v316) (y := main_v317) (ops_Writes (F := F)) 473 (launchContents m c) (by rfl) (by decide +kernel) (by decide +kernel)
  unfold final
  generalize after ops (launchContents m c) = G at h ⊢
  exact h
theorem final_main_v318 (m : (ℓ : Loc nD τ sig) → Buf (Elt F) ℓ) (c : Dev nD) :
    final m c (Proc.devRef .tc main_v318) = (addf : (⟨S10000x256, .f32⟩ : BufTy).Contents (Elt F) → (⟨S10000x256, .f32⟩ : BufTy).Contents (Elt F) → (⟨S10000x256, .f32⟩ : BufTy).Contents (Elt F)) (final m c (Proc.devRef .tc main_v313)) (final m c (Proc.devRef .tc main_v317)) := by
  have h := Sage.after_binary (a := main_v313) (b := main_v317) (y := main_v318) (ops_Writes (F := F)) 474 (launchContents m c) (by rfl) (by decide +kernel) (by decide +kernel) (by decide +kernel)
  unfold final
  generalize after ops (launchContents m c) = G at h ⊢
  exact h
theorem final_main_v319 (m : (ℓ : Loc nD τ sig) → Buf (Elt F) ℓ) (c : Dev nD) :
    final m c (Proc.devRef .tc main_v319) = (extractStridedSlice S1x256x256 ![0, 0, 0] (final m c (Proc.devRef .tc main_arg8)) slices_S7x256x256_S1x256x256_0_0_0 : (⟨S1x256x256, .f32⟩ : BufTy).Contents (Elt F)) := by
  have h := Sage.after_unary (x := main_arg8) (y := main_v319) (ops_Writes (F := F)) 475 (launchContents m c) (by rfl) (by decide +kernel) (by decide +kernel)
  unfold final
  generalize after ops (launchContents m c) = G at h ⊢
  exact h
theorem final_main_v320 (m : (ℓ : Loc nD τ sig) → Buf (Elt F) ℓ) (c : Dev nD) :
    final m c (Proc.devRef .tc main_v320) = shapeCast S256x256 (final m c (Proc.devRef .tc main_v319)) shapeCasts_S1x256x256_S256x256 := by
  have h := Sage.after_reshape (x := main_v319) (y := main_v320) (ops_Writes (F := F)) 476 (launchContents m c) (by rfl) (by decide +kernel) (by decide +kernel)
  unfold final
  generalize after ops (launchContents m c) = G at h ⊢
  exact h
theorem final_main_v321 (m : (ℓ : Loc nD τ sig) → Buf (Elt F) ℓ) (c : Dev nD) :
    final m c (Proc.devRef .tc main_v321) = (Host.dotGeneral dot_S10000x256_S256x256_S10000x256_1_0_0_1_n_n none (final m c (Proc.devRef .tc main_v272)) (final m c (Proc.devRef .tc main_v320)) : (⟨S10000x256, .f32⟩ : BufTy).Contents (Elt F)) := by
  have h := Sage.after_binary (a := main_v272) (b := main_v320) (y := main_v321) (ops_Writes (F := F)) 477 (launchContents m c) (by rfl) (by decide +kernel) (by decide +kernel) (by decide +kernel)
  unfold final
  generalize after ops (launchContents m c) = G at h ⊢
  exact h
theorem final_main_v322 (m : (ℓ : Loc nD τ sig) → Buf (Elt F) ℓ) (c : Dev nD) :
    final m c (Proc.devRef .tc main_v322) = (addf : (⟨S10000x256, .f32⟩ : BufTy).Contents (Elt F) → (⟨S10000x256, .f32⟩ : BufTy).Contents (Elt F) → (⟨S10000x256, .f32⟩ : BufTy).Contents (Elt F)) (final m c (Proc.devRef .tc main_v318)) (final m c (Proc.devRef .tc main_v321)) := by
  have h := Sage.after_binary (a := main_v318) (b := main_v321) (y := main_v322) (ops_Writes (F := F)) 478 (launchContents m c) (by rfl) (by decide +kernel) (by decide +kernel) (by decide +kernel)
  unfold final
  generalize after ops (launchContents m c) = G at h ⊢
  exact h
theorem final_main_c_62 (m : (ℓ : Loc nD τ sig) → Buf (Elt F) ℓ) (c : Dev nD) :
    final m c (Proc.devRef .tc main_c_62) = (constantI S_ 32 0#32) := by
  have h := Sage.after_nullary (y := main_c_62) (ops_Writes (F := F)) 479 (launchContents m c) (by rfl) (by decide +kernel)
  unfold final
  generalize after ops (launchContents m c) = G at h ⊢
  exact h
theorem final_main_v323 (m : (ℓ : Loc nD τ sig) → Buf (Elt F) ℓ) (c : Dev nD) :
    final m c (Proc.devRef .tc main_v323) = (broadcastInDim S400000 ![] bcast_S_S400000 : (⟨S_, .i32⟩ : BufTy).Contents (Elt F) → (⟨S400000, .i32⟩ : BufTy).Contents (Elt F)) (final m c (Proc.devRef .tc main_c_62)) := by
  have h := Sage.after_unary (x := main_c_62) (y := main_v323) (ops_Writes (F := F)) 480 (launchContents m c) (by rfl) (by decide +kernel) (by decide +kernel)
  unfold final
  generalize after ops (launchContents m c) = G at h ⊢
  exact h
theorem final_main_v324 (m : (ℓ : Loc nD τ sig) → Buf (Elt F) ℓ) (c : Dev nD) :
    final m c (Proc.devRef .tc main_v324) = (cmpi .slt : (⟨S400000, .i32⟩ : BufTy).Contents (Elt F) → (⟨S400000, .i32⟩ : BufTy).Contents (Elt F) → (⟨S400000, .i1⟩ : BufTy).Contents (Elt F)) (final m c (Proc.devRef .tc main_arg16)) (final m c (Proc.devRef .tc main_v323)) := by
  have h := Sage.after_binary (a := main_arg16) (b := main_v323) (y := main_v324) (ops_Writes (F := F)) 481 (launchContents m c) (by rfl) (by decide +kernel) (by decide +kernel) (by decide +kernel)
  unfold final
  generalize after ops (launchContents m c) = G at h ⊢
  exact h
theorem final_main_c_63 (m : (ℓ : Loc nD τ sig) → Buf (Elt F) ℓ) (c : Dev nD) :
    final m c (Proc.devRef .tc main_c_63) = (constantI S_ 32 20000#32) := by
  have h := Sage.after_nullary (y := main_c_63) (ops_Writes (F := F)) 482 (launchContents m c) (by rfl) (by decide +kernel)
  unfold final
  generalize after ops (launchContents m c) = G at h ⊢
  exact h
theorem final_main_v325 (m : (ℓ : Loc nD τ sig) → Buf (Elt F) ℓ) (c : Dev nD) :
    final m c (Proc.devRef .tc main_v325) = (broadcastInDim S400000 ![] bcast_S_S400000 : (⟨S_, .i32⟩ : BufTy).Contents (Elt F) → (⟨S400000, .i32⟩ : BufTy).Contents (Elt F)) (final m c (Proc.devRef .tc main_c_63)) := by
  have h := Sage.after_unary (x := main_c_63) (y := main_v325) (ops_Writes (F := F)) 483 (launchContents m c) (by rfl) (by decide +kernel) (by decide +kernel)
  unfold final
  generalize after ops (launchContents m c) = G at h ⊢
  exact h
theorem final_main_v326 (m : (ℓ : Loc nD τ sig) → Buf (Elt F) ℓ) (c : Dev nD) :
    final m c (Proc.devRef .tc main_v326) = (addi : (⟨S400000, .i32⟩ : BufTy).Contents (Elt F) → (⟨S400000, .i32⟩ : BufTy).Contents (Elt F) → (⟨S400000, .i32⟩ : BufTy).Contents (Elt F)) (final m c (Proc.devRef .tc main_arg16)) (final m c (Proc.devRef .tc main_v325)) := by
  have h := Sage.after_binary (a := main_arg16) (b := main_v325) (y := main_v326) (ops_Writes (F := F)) 484 (launchContents m c) (by rfl) (by decide +kernel) (by decide +kernel) (by decide +kernel)
  unfold final
  generalize after ops (launchContents m c) = G at h ⊢
  exact h
theorem final_main_v327 (m : (ℓ : Loc nD τ sig) → Buf (Elt F) ℓ) (c : Dev nD) :
    final m c (Proc.devRef .tc main_v327) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (final m c (Proc.devRef .tc main_v324)) (final m c (Proc.devRef .tc main_v326)) (final m c (Proc.devRef .tc main_arg16)) := by
  have h := Sage.after_ternary (c := main_v324) (a := main_v326) (b := main_arg16) (y := main_v327) (ops_Writes (F := F)) 485 (launchContents m c) (by rfl) (by decide +kernel) (by decide +kernel) (by decide +kernel) (by decide +kernel)
  unfold final
  generalize after ops (launchContents m c) = G at h ⊢
  exact h
theorem final_main_v328 (m : (ℓ : Loc nD τ sig) → Buf (Elt F) ℓ) (c : Dev nD) :
    final m c (Proc.devRef .tc main_v328) = (broadcastInDim S400000x1 ![0] bcast_S400000_S400000x1_0 : (⟨S400000, .i32⟩ : BufTy).Contents (Elt F) → (⟨S400000x1, .i32⟩ : BufTy).Contents (Elt F)) (final m c (Proc.devRef .tc main_v327)) := by
  have h := Sage.after_unary (x := main_v327) (y := main_v328) (ops_Writes (F := F)) 486 (launchContents m c) (by rfl) (by decide +kernel) (by decide +kernel)
  unfold final
  generalize after ops (launchContents m c) = G at h ⊢
  exact h
theorem final_main_v329 (m : (ℓ : Loc nD τ sig) → Buf (Elt F) ℓ) (c : Dev nD) :
    final m c (Proc.devRef .tc main_v329) = (Host.gather gather_S20000x256_S400000x1_S400000x256_1_0_n_n_0_1_1256 (final m c (Proc.devRef .tc main_v232)) (final m c (Proc.devRef .tc main_v328)) : (⟨S400000x256, .f32⟩ : BufTy).Contents (Elt F)) := by
  have h := Sage.after_binary (a := main_v232) (b := main_v328) (y := main_v329) (ops_Writes (F := F)) 487 (launchContents m c) (by rfl) (by decide +kernel) (by decide +kernel) (by decide +kernel)
  unfold final
  generalize after ops (launchContents m c) = G at h ⊢
  exact h
theorem final_main_cst_64 (m : (ℓ : Loc nD τ sig) → Buf (Elt F) ℓ) (c : Dev nD) :
    final m c (Proc.devRef .tc main_cst_64) = (constant S_ .f32 0x00000000#32) := by
  have h := Sage.after_nullary (y := main_cst_64) (ops_Writes (F := F)) 488 (launchContents m c) (by rfl) (by decide +kernel)
  unfold final
  generalize after ops (launchContents m c) = G at h ⊢
  exact h
theorem final_main_v330 (m : (ℓ : Loc nD τ sig) → Buf (Elt F) ℓ) (c : Dev nD) :
    final m c (Proc.devRef .tc main_v330) = (broadcastInDim S50000x256 ![] bcast_S_S50000x256 : (⟨S_, .f32⟩ : BufTy).Contents (Elt F) → (⟨S50000x256, .f32⟩ : BufTy).Contents (Elt F)) (final m c (Proc.devRef .tc main_cst_64)) := by
  have h := Sage.after_unary (x := main_cst_64) (y := main_v330) (ops_Writes (F := F)) 489 (launchContents m c) (by rfl) (by decide +kernel) (by decide +kernel)
  unfold final
  generalize after ops (launchContents m c) = G at h ⊢
  exact h
theorem final_main_v331 (m : (ℓ : Loc nD τ sig) → Buf (Elt F) ℓ) (c : Dev nD) :
    final m c (Proc.devRef .tc main_v331) = (broadcastInDim S400000x1 ![0] bcast_S400000_S400000x1_0 : (⟨S400000, .i32⟩ : BufTy).Contents (Elt F) → (⟨S400000x1, .i32⟩ : BufTy).Contents (Elt F)) (final m c (Proc.devRef .tc main_arg17)) := by
  have h := Sage.after_unary (x := main_arg17) (y := main_v331) (ops_Writes (F := F)) 490 (launchContents m c) (by rfl) (by decide +kernel) (by decide +kernel)
  unfold final
  generalize after ops (launchContents m c) = G at h ⊢
  exact h
theorem final_main_v332 (m : (ℓ : Loc nD τ sig) → Buf (Elt F) ℓ) (c : Dev nD) :
    final m c (Proc.devRef .tc main_v332) = (Host.scatterAdd scatter_S50000x256_S400000x1_S400000x256_1_0_0_1 (final m c (Proc.devRef .tc main_v330)) (final m c (Proc.devRef .tc main_v331)) (final m c (Proc.devRef .tc main_v329)) : (⟨S50000x256, .f32⟩ : BufTy).Contents (Elt F)) := by
  have h := Sage.after_ternary (c := main_v330) (a := main_v331) (b := main_v329) (y := main_v332) (ops_Writes (F := F)) 491 (launchContents m c) (by rfl) (by decide +kernel) (by decide +kernel) (by decide +kernel) (by decide +kernel)
  unfold final
  generalize after ops (launchContents m c) = G at h ⊢
  exact h
theorem final_main_cst_65 (m : (ℓ : Loc nD τ sig) → Buf (Elt F) ℓ) (c : Dev nD) :
    final m c (Proc.devRef .tc main_cst_65) = (constant S_ .f32 0x3F800000#32) := by
  have h := Sage.after_nullary (y := main_cst_65) (ops_Writes (F := F)) 492 (launchContents m c) (by rfl) (by decide +kernel)
  unfold final
  generalize after ops (launchContents m c) = G at h ⊢
  exact h
theorem final_main_v333 (m : (ℓ : Loc nD τ sig) → Buf (Elt F) ℓ) (c : Dev nD) :
    final m c (Proc.devRef .tc main_v333) = (broadcastInDim S400000x1 ![] bcast_S_S400000x1 : (⟨S_, .f32⟩ : BufTy).Contents (Elt F) → (⟨S400000x1, .f32⟩ : BufTy).Contents (Elt F)) (final m c (Proc.devRef .tc main_cst_65)) := by
  have h := Sage.after_unary (x := main_cst_65) (y := main_v333) (ops_Writes (F := F)) 493 (launchContents m c) (by rfl) (by decide +kernel) (by decide +kernel)
  unfold final
  generalize after ops (launchContents m c) = G at h ⊢
  exact h
theorem final_main_cst_66 (m : (ℓ : Loc nD τ sig) → Buf (Elt F) ℓ) (c : Dev nD) :
    final m c (Proc.devRef .tc main_cst_66) = (constant S_ .f32 0x00000000#32) := by
  have h := Sage.after_nullary (y := main_cst_66) (ops_Writes (F := F)) 494 (launchContents m c) (by rfl) (by decide +kernel)
  unfold final
  generalize after ops (launchContents m c) = G at h ⊢
  exact h
theorem final_main_v334 (m : (ℓ : Loc nD τ sig) → Buf (Elt F) ℓ) (c : Dev nD) :
    final m c (Proc.devRef .tc main_v334) = (broadcastInDim S50000x1 ![] bcast_S_S50000x1 : (⟨S_, .f32⟩ : BufTy).Contents (Elt F) → (⟨S50000x1, .f32⟩ : BufTy).Contents (Elt F)) (final m c (Proc.devRef .tc main_cst_66)) := by
  have h := Sage.after_unary (x := main_cst_66) (y := main_v334) (ops_Writes (F := F)) 495 (launchContents m c) (by rfl) (by decide +kernel) (by decide +kernel)
  unfold final
  generalize after ops (launchContents m c) = G at h ⊢
  exact h
theorem final_main_v335 (m : (ℓ : Loc nD τ sig) → Buf (Elt F) ℓ) (c : Dev nD) :
    final m c (Proc.devRef .tc main_v335) = (broadcastInDim S400000x1 ![0] bcast_S400000_S400000x1_0 : (⟨S400000, .i32⟩ : BufTy).Contents (Elt F) → (⟨S400000x1, .i32⟩ : BufTy).Contents (Elt F)) (final m c (Proc.devRef .tc main_arg17)) := by
  have h := Sage.after_unary (x := main_arg17) (y := main_v335) (ops_Writes (F := F)) 496 (launchContents m c) (by rfl) (by decide +kernel) (by decide +kernel)
  unfold final
  generalize after ops (launchContents m c) = G at h ⊢
  exact h
theorem final_main_v336 (m : (ℓ : Loc nD τ sig) → Buf (Elt F) ℓ) (c : Dev nD) :
    final m c (Proc.devRef .tc main_v336) = (Host.scatterAdd scatter_S50000x1_S400000x1_S400000x1_1_0_0_1 (final m c (Proc.devRef .tc main_v334)) (final m c (Proc.devRef .tc main_v335)) (final m c (Proc.devRef .tc main_v333)) : (⟨S50000x1, .f32⟩ : BufTy).Contents (Elt F)) := by
  have h := Sage.after_ternary (c := main_v334) (a := main_v335) (b := main_v333) (y := main_v336) (ops_Writes (F := F)) 497 (launchContents m c) (by rfl) (by decide +kernel) (by decide +kernel) (by decide +kernel) (by decide +kernel)
  unfold final
  generalize after ops (launchContents m c) = G at h ⊢
  exact h
theorem final_main_cst_67 (m : (ℓ : Loc nD τ sig) → Buf (Elt F) ℓ) (c : Dev nD) :
    final m c (Proc.devRef .tc main_cst_67) = (constant S_ .f32 0x3F800000#32) := by
  have h := Sage.after_nullary (y := main_cst_67) (ops_Writes (F := F)) 498 (launchContents m c) (by rfl) (by decide +kernel)
  unfold final
  generalize after ops (launchContents m c) = G at h ⊢
  exact h
theorem final_main_v337 (m : (ℓ : Loc nD τ sig) → Buf (Elt F) ℓ) (c : Dev nD) :
    final m c (Proc.devRef .tc main_v337) = (broadcastInDim S50000x1 ![] bcast_S_S50000x1 : (⟨S_, .f32⟩ : BufTy).Contents (Elt F) → (⟨S50000x1, .f32⟩ : BufTy).Contents (Elt F)) (final m c (Proc.devRef .tc main_cst_67)) := by
  have h := Sage.after_unary (x := main_cst_67) (y := main_v337) (ops_Writes (F := F)) 499 (launchContents m c) (by rfl) (by decide +kernel) (by decide +kernel)
  unfold final
  generalize after ops (launchContents m c) = G at h ⊢
  exact h
theorem final_main_v338 (m : (ℓ : Loc nD τ sig) → Buf (Elt F) ℓ) (c : Dev nD) :
    final m c (Proc.devRef .tc main_v338) = (maximumf : (⟨S50000x1, .f32⟩ : BufTy).Contents (Elt F) → (⟨S50000x1, .f32⟩ : BufTy).Contents (Elt F) → (⟨S50000x1, .f32⟩ : BufTy).Contents (Elt F)) (final m c (Proc.devRef .tc main_v336)) (final m c (Proc.devRef .tc main_v337)) := by
  have h := Sage.after_binary (a := main_v336) (b := main_v337) (y := main_v338) (ops_Writes (F := F)) 500 (launchContents m c) (by rfl) (by decide +kernel) (by decide +kernel) (by decide +kernel)
  unfold final
  generalize after ops (launchContents m c) = G at h ⊢
  exact h
theorem final_main_v339 (m : (ℓ : Loc nD τ sig) → Buf (Elt F) ℓ) (c : Dev nD) :
    final m c (Proc.devRef .tc main_v339) = (broadcastInDim S50000x256 ![0, 1] bcast_S50000x1_S50000x256_0_1 : (⟨S50000x1, .f32⟩ : BufTy).Contents (Elt F) → (⟨S50000x256, .f32⟩ : BufTy).Contents (Elt F)) (final m c (Proc.devRef .tc main_v338)) := by
  have h := Sage.after_unary (x := main_v338) (y := main_v339) (ops_Writes (F := F)) 501 (launchContents m c) (by rfl) (by decide +kernel) (by decide +kernel)
  unfold final
  generalize after ops (launchContents m c) = G at h ⊢
  exact h
theorem final_main_v340 (m : (ℓ : Loc nD τ sig) → Buf (Elt F) ℓ) (c : Dev nD) :
    final m c (Proc.devRef .tc main_v340) = (Host.divf : (⟨S50000x256, .f32⟩ : BufTy).Contents (Elt F) → (⟨S50000x256, .f32⟩ : BufTy).Contents (Elt F) → (⟨S50000x256, .f32⟩ : BufTy).Contents (Elt F)) (final m c (Proc.devRef .tc main_v332)) (final m c (Proc.devRef .tc main_v339)) := by
  have h := Sage.after_binary (a := main_v332) (b := main_v339) (y := main_v340) (ops_Writes (F := F)) 502 (launchContents m c) (by rfl) (by decide +kernel) (by decide +kernel) (by decide +kernel)
  unfold final
  generalize after ops (launchContents m c) = G at h ⊢
  exact h
theorem final_main_v341 (m : (ℓ : Loc nD τ sig) → Buf (Elt F) ℓ) (c : Dev nD) :
    final m c (Proc.devRef .tc main_v341) = (extractStridedSlice S1x256x256 ![1, 0, 0] (final m c (Proc.devRef .tc main_arg7)) slices_S7x256x256_S1x256x256_1_0_0 : (⟨S1x256x256, .f32⟩ : BufTy).Contents (Elt F)) := by
  have h := Sage.after_unary (x := main_arg7) (y := main_v341) (ops_Writes (F := F)) 503 (launchContents m c) (by rfl) (by decide +kernel) (by decide +kernel)
  unfold final
  generalize after ops (launchContents m c) = G at h ⊢
  exact h
theorem final_main_v342 (m : (ℓ : Loc nD τ sig) → Buf (Elt F) ℓ) (c : Dev nD) :
    final m c (Proc.devRef .tc main_v342) = shapeCast S256x256 (final m c (Proc.devRef .tc main_v341)) shapeCasts_S1x256x256_S256x256 := by
  have h := Sage.after_reshape (x := main_v341) (y := main_v342) (ops_Writes (F := F)) 504 (launchContents m c) (by rfl) (by decide +kernel) (by decide +kernel)
  unfold final
  generalize after ops (launchContents m c) = G at h ⊢
  exact h
theorem final_main_v343 (m : (ℓ : Loc nD τ sig) → Buf (Elt F) ℓ) (c : Dev nD) :
    final m c (Proc.devRef .tc main_v343) = (Host.dotGeneral dot_S50000x256_S256x256_S50000x256_1_0_0_1_n_n none (final m c (Proc.devRef .tc main_v340)) (final m c (Proc.devRef .tc main_v342)) : (⟨S50000x256, .f32⟩ : BufTy).Contents (Elt F)) := by
  have h := Sage.after_binary (a := main_v340) (b := main_v342) (y := main_v343) (ops_Writes (F := F)) 505 (launchContents m c) (by rfl) (by decide +kernel) (by decide +kernel) (by decide +kernel)
  unfold final
  generalize after ops (launchContents m c) = G at h ⊢
  exact h
theorem final_main_v344 (m : (ℓ : Loc nD τ sig) → Buf (Elt F) ℓ) (c : Dev nD) :
    final m c (Proc.devRef .tc main_v344) = (extractStridedSlice S1x256 ![1, 0] (final m c (Proc.devRef .tc main_arg9)) slices_S7x256_S1x256_1_0 : (⟨S1x256, .f32⟩ : BufTy).Contents (Elt F)) := by
  have h := Sage.after_unary (x := main_arg9) (y := main_v344) (ops_Writes (F := F)) 506 (launchContents m c) (by rfl) (by decide +kernel) (by decide +kernel)
  unfold final
  generalize after ops (launchContents m c) = G at h ⊢
  exact h
theorem final_main_v345 (m : (ℓ : Loc nD τ sig) → Buf (Elt F) ℓ) (c : Dev nD) :
    final m c (Proc.devRef .tc main_v345) = shapeCast S256 (final m c (Proc.devRef .tc main_v344)) shapeCasts_S1x256_S256 := by
  have h := Sage.after_reshape (x := main_v344) (y := main_v345) (ops_Writes (F := F)) 507 (launchContents m c) (by rfl) (by decide +kernel) (by decide +kernel)
  unfold final
  generalize after ops (launchContents m c) = G at h ⊢
  exact h
theorem final_main_v346 (m : (ℓ : Loc nD τ sig) → Buf (Elt F) ℓ) (c : Dev nD) :
    final m c (Proc.devRef .tc main_v346) = (broadcastInDim S1x256 ![1] bcast_S256_S1x256_1 : (⟨S256, .f32⟩ : BufTy).Contents (Elt F) → (⟨S1x256, .f32⟩ : BufTy).Contents (Elt F)) (final m c (Proc.devRef .tc main_v345)) := by
  have h := Sage.after_unary (x := main_v345) (y := main_v346) (ops_Writes (F := F)) 508 (launchContents m c) (by rfl) (by decide +kernel) (by decide +kernel)
  unfold final
  generalize after ops (launchContents m c) = G at h ⊢
  exact h
theorem final_main_v347 (m : (ℓ : Loc nD τ sig) → Buf (Elt F) ℓ) (c : Dev nD) :
    final m c (Proc.devRef .tc main_v347) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v346)) := by
  have h := Sage.after_unary (x := main_v346) (y := main_v347) (ops_Writes (F := F)) 509 (launchContents m c) (by rfl) (by decide +kernel) (by decide +kernel)
  unfold final
  generalize after ops (launchContents m c) = G at h ⊢
  exact h
theorem final_main_v348 (m : (ℓ : Loc nD τ sig) → Buf (Elt F) ℓ) (c : Dev nD) :
    final m c (Proc.devRef .tc main_v348) = (addf : (⟨S50000x256, .f32⟩ : BufTy).Contents (Elt F) → (⟨S50000x256, .f32⟩ : BufTy).Contents (Elt F) → (⟨S50000x256, .f32⟩ : BufTy).Contents (Elt F)) (final m c (Proc.devRef .tc main_v343)) (final m c (Proc.devRef .tc main_v347)) := by
  have h := Sage.after_binary (a := main_v343) (b := main_v347) (y := main_v348) (ops_Writes (F := F)) 510 (launchContents m c) (by rfl) (by decide +kernel) (by decide +kernel) (by decide +kernel)
  unfold final
  generalize after ops (launchContents m c) = G at h ⊢
  exact h
theorem final_main_v349 (m : (ℓ : Loc nD τ sig) → Buf (Elt F) ℓ) (c : Dev nD) :
    final m c (Proc.devRef .tc main_v349) = (extractStridedSlice S1x256x256 ![1, 0, 0] (final m c (Proc.devRef .tc main_arg8)) slices_S7x256x256_S1x256x256_1_0_0 : (⟨S1x256x256, .f32⟩ : BufTy).Contents (Elt F)) := by
  have h := Sage.after_unary (x := main_arg8) (y := main_v349) (ops_Writes (F := F)) 511 (launchContents m c) (by rfl) (by decide +kernel) (by decide +kernel)
  unfold final
  generalize after ops (launchContents m c) = G at h ⊢
  exact h

end Cert.ReferenceIdeal.Hand

end
-- ==== Proof.Ref.Final7.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 7 (operations 513 … 572 of 886): what each result buffer holds when @main has run, one operation back. -/

theorem final_main_v350 (m : (ℓ : Loc nD τ sig) → Buf (Elt F) ℓ) (c : Dev nD) :
    final m c (Proc.devRef .tc main_v350) = shapeCast S256x256 (final m c (Proc.devRef .tc main_v349)) shapeCasts_S1x256x256_S256x256 := by
  have h := Sage.after_reshape (x := main_v349) (y := main_v350) (ops_Writes (F := F)) 512 (launchContents m c) (by rfl) (by decide +kernel) (by decide +kernel)
  unfold final
  generalize after ops (launchContents m c) = G at h ⊢
  exact h
theorem final_main_v351 (m : (ℓ : Loc nD τ sig) → Buf (Elt F) ℓ) (c : Dev nD) :
    final m c (Proc.devRef .tc main_v351) = (Host.dotGeneral dot_S50000x256_S256x256_S50000x256_1_0_0_1_n_n none (final m c (Proc.devRef .tc main_v252)) (final m c (Proc.devRef .tc main_v350)) : (⟨S50000x256, .f32⟩ : BufTy).Contents (Elt F)) := by
  have h := Sage.after_binary (a := main_v252) (b := main_v350) (y := main_v351) (ops_Writes (F := F)) 513 (launchContents m c) (by rfl) (by decide +kernel) (by decide +kernel) (by decide +kernel)
  unfold final
  generalize after ops (launchContents m c) = G at h ⊢
  exact h
theorem final_main_v352 (m : (ℓ : Loc nD τ sig) → Buf (Elt F) ℓ) (c : Dev nD) :
    final m c (Proc.devRef .tc main_v352) = (addf : (⟨S50000x256, .f32⟩ : BufTy).Contents (Elt F) → (⟨S50000x256, .f32⟩ : BufTy).Contents (Elt F) → (⟨S50000x256, .f32⟩ : BufTy).Contents (Elt F)) (final m c (Proc.devRef .tc main_v348)) (final m c (Proc.devRef .tc main_v351)) := by
  have h := Sage.after_binary (a := main_v348) (b := main_v351) (y := main_v352) (ops_Writes (F := F)) 514 (launchContents m c) (by rfl) (by decide +kernel) (by decide +kernel) (by decide +kernel)
  unfold final
  generalize after ops (launchContents m c) = G at h ⊢
  exact h
theorem final_main_c_68 (m : (ℓ : Loc nD τ sig) → Buf (Elt F) ℓ) (c : Dev nD) :
    final m c (Proc.devRef .tc main_c_68) = (constantI S_ 32 0#32) := by
  have h := Sage.after_nullary (y := main_c_68) (ops_Writes (F := F)) 515 (launchContents m c) (by rfl) (by decide +kernel)
  unfold final
  generalize after ops (launchContents m c) = G at h ⊢
  exact h
theorem final_main_v353 (m : (ℓ : Loc nD τ sig) → Buf (Elt F) ℓ) (c : Dev nD) :
    final m c (Proc.devRef .tc main_v353) = (broadcastInDim S150000 ![] bcast_S_S150000 : (⟨S_, .i32⟩ : BufTy).Contents (Elt F) → (⟨S150000, .i32⟩ : BufTy).Contents (Elt F)) (final m c (Proc.devRef .tc main_c_68)) := by
  have h := Sage.after_unary (x := main_c_68) (y := main_v353) (ops_Writes (F := F)) 516 (launchContents m c) (by rfl) (by decide +kernel) (by decide +kernel)
  unfold final
  generalize after ops (launchContents m c) = G at h ⊢
  exact h
theorem final_main_v354 (m : (ℓ : Loc nD τ sig) → Buf (Elt F) ℓ) (c : Dev nD) :
    final m c (Proc.devRef .tc main_v354) = (cmpi .slt : (⟨S150000, .i32⟩ : BufTy).Contents (Elt F) → (⟨S150000, .i32⟩ : BufTy).Contents (Elt F) → (⟨S150000, .i1⟩ : BufTy).Contents (Elt F)) (final m c (Proc.devRef .tc main_arg18)) (final m c (Proc.devRef .tc main_v353)) := by
  have h := Sage.after_binary (a := main_arg18) (b := main_v353) (y := main_v354) (ops_Writes (F := F)) 517 (launchContents m c) (by rfl) (by decide +kernel) (by decide +kernel) (by decide +kernel)
  unfold final
  generalize after ops (launchContents m c) = G at h ⊢
  exact h
theorem final_main_c_69 (m : (ℓ : Loc nD τ sig) → Buf (Elt F) ℓ) (c : Dev nD) :
    final m c (Proc.devRef .tc main_c_69) = (constantI S_ 32 50000#32) := by
  have h := Sage.after_nullary (y := main_c_69) (ops_Writes (F := F)) 518 (launchContents m c) (by rfl) (by decide +kernel)
  unfold final
  generalize after ops (launchContents m c) = G at h ⊢
  exact h
theorem final_main_v355 (m : (ℓ : Loc nD τ sig) → Buf (Elt F) ℓ) (c : Dev nD) :
    final m c (Proc.devRef .tc main_v355) = (broadcastInDim S150000 ![] bcast_S_S150000 : (⟨S_, .i32⟩ : BufTy).Contents (Elt F) → (⟨S150000, .i32⟩ : BufTy).Contents (Elt F)) (final m c (Proc.devRef .tc main_c_69)) := by
  have h := Sage.after_unary (x := main_c_69) (y := main_v355) (ops_Writes (F := F)) 519 (launchContents m c) (by rfl) (by decide +kernel) (by decide +kernel)
  unfold final
  generalize after ops (launchContents m c) = G at h ⊢
  exact h
theorem final_main_v356 (m : (ℓ : Loc nD τ sig) → Buf (Elt F) ℓ) (c : Dev nD) :
    final m c (Proc.devRef .tc main_v356) = (addi : (⟨S150000, .i32⟩ : BufTy).Contents (Elt F) → (⟨S150000, .i32⟩ : BufTy).Contents (Elt F) → (⟨S150000, .i32⟩ : BufTy).Contents (Elt F)) (final m c (Proc.devRef .tc main_arg18)) (final m c (Proc.devRef .tc main_v355)) := by
  have h := Sage.after_binary (a := main_arg18) (b := main_v355) (y := main_v356) (ops_Writes (F := F)) 520 (launchContents m c) (by rfl) (by decide +kernel) (by decide +kernel) (by decide +kernel)
  unfold final
  generalize after ops (launchContents m c) = G at h ⊢
  exact h
theorem final_main_v357 (m : (ℓ : Loc nD τ sig) → Buf (Elt F) ℓ) (c : Dev nD) :
    final m c (Proc.devRef .tc main_v357) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (final m c (Proc.devRef .tc main_v354)) (final m c (Proc.devRef .tc main_v356)) (final m c (Proc.devRef .tc main_arg18)) := by
  have h := Sage.after_ternary (c := main_v354) (a := main_v356) (b := main_arg18) (y := main_v357) (ops_Writes (F := F)) 521 (launchContents m c) (by rfl) (by decide +kernel) (by decide +kernel) (by decide +kernel) (by decide +kernel)
  unfold final
  generalize after ops (launchContents m c) = G at h ⊢
  exact h
theorem final_main_v358 (m : (ℓ : Loc nD τ sig) → Buf (Elt F) ℓ) (c : Dev nD) :
    final m c (Proc.devRef .tc main_v358) = (broadcastInDim S150000x1 ![0] bcast_S150000_S150000x1_0 : (⟨S150000, .i32⟩ : BufTy).Contents (Elt F) → (⟨S150000x1, .i32⟩ : BufTy).Contents (Elt F)) (final m c (Proc.devRef .tc main_v357)) := by
  have h := Sage.after_unary (x := main_v357) (y := main_v358) (ops_Writes (F := F)) 522 (launchContents m c) (by rfl) (by decide +kernel) (by decide +kernel)
  unfold final
  generalize after ops (launchContents m c) = G at h ⊢
  exact h
theorem final_main_v359 (m : (ℓ : Loc nD τ sig) → Buf (Elt F) ℓ) (c : Dev nD) :
    final m c (Proc.devRef .tc main_v359) = (Host.gather gather_S50000x256_S150000x1_S150000x256_1_0_n_n_0_1_1256 (final m c (Proc.devRef .tc main_v252)) (final m c (Proc.devRef .tc main_v358)) : (⟨S150000x256, .f32⟩ : BufTy).Contents (Elt F)) := by
  have h := Sage.after_binary (a := main_v252) (b := main_v358) (y := main_v359) (ops_Writes (F := F)) 523 (launchContents m c) (by rfl) (by decide +kernel) (by decide +kernel) (by decide +kernel)
  unfold final
  generalize after ops (launchContents m c) = G at h ⊢
  exact h
theorem final_main_cst_70 (m : (ℓ : Loc nD τ sig) → Buf (Elt F) ℓ) (c : Dev nD) :
    final m c (Proc.devRef .tc main_cst_70) = (constant S_ .f32 0x00000000#32) := by
  have h := Sage.after_nullary (y := main_cst_70) (ops_Writes (F := F)) 524 (launchContents m c) (by rfl) (by decide +kernel)
  unfold final
  generalize after ops (launchContents m c) = G at h ⊢
  exact h
theorem final_main_v360 (m : (ℓ : Loc nD τ sig) → Buf (Elt F) ℓ) (c : Dev nD) :
    final m c (Proc.devRef .tc main_v360) = (broadcastInDim S3000x256 ![] bcast_S_S3000x256 : (⟨S_, .f32⟩ : BufTy).Contents (Elt F) → (⟨S3000x256, .f32⟩ : BufTy).Contents (Elt F)) (final m c (Proc.devRef .tc main_cst_70)) := by
  have h := Sage.after_unary (x := main_cst_70) (y := main_v360) (ops_Writes (F := F)) 525 (launchContents m c) (by rfl) (by decide +kernel) (by decide +kernel)
  unfold final
  generalize after ops (launchContents m c) = G at h ⊢
  exact h
theorem final_main_v361 (m : (ℓ : Loc nD τ sig) → Buf (Elt F) ℓ) (c : Dev nD) :
    final m c (Proc.devRef .tc main_v361) = (broadcastInDim S150000x1 ![0] bcast_S150000_S150000x1_0 : (⟨S150000, .i32⟩ : BufTy).Contents (Elt F) → (⟨S150000x1, .i32⟩ : BufTy).Contents (Elt F)) (final m c (Proc.devRef .tc main_arg19)) := by
  have h := Sage.after_unary (x := main_arg19) (y := main_v361) (ops_Writes (F := F)) 526 (launchContents m c) (by rfl) (by decide +kernel) (by decide +kernel)
  unfold final
  generalize after ops (launchContents m c) = G at h ⊢
  exact h
theorem final_main_v362 (m : (ℓ : Loc nD τ sig) → Buf (Elt F) ℓ) (c : Dev nD) :
    final m c (Proc.devRef .tc main_v362) = (Host.scatterAdd scatter_S3000x256_S150000x1_S150000x256_1_0_0_1 (final m c (Proc.devRef .tc main_v360)) (final m c (Proc.devRef .tc main_v361)) (final m c (Proc.devRef .tc main_v359)) : (⟨S3000x256, .f32⟩ : BufTy).Contents (Elt F)) := by
  have h := Sage.after_ternary (c := main_v360) (a := main_v361) (b := main_v359) (y := main_v362) (ops_Writes (F := F)) 527 (launchContents m c) (by rfl) (by decide +kernel) (by decide +kernel) (by decide +kernel) (by decide +kernel)
  unfold final
  generalize after ops (launchContents m c) = G at h ⊢
  exact h
theorem final_main_cst_71 (m : (ℓ : Loc nD τ sig) → Buf (Elt F) ℓ) (c : Dev nD) :
    final m c (Proc.devRef .tc main_cst_71) = (constant S_ .f32 0x3F800000#32) := by
  have h := Sage.after_nullary (y := main_cst_71) (ops_Writes (F := F)) 528 (launchContents m c) (by rfl) (by decide +kernel)
  unfold final
  generalize after ops (launchContents m c) = G at h ⊢
  exact h
theorem final_main_v363 (m : (ℓ : Loc nD τ sig) → Buf (Elt F) ℓ) (c : Dev nD) :
    final m c (Proc.devRef .tc main_v363) = (broadcastInDim S150000x1 ![] bcast_S_S150000x1 : (⟨S_, .f32⟩ : BufTy).Contents (Elt F) → (⟨S150000x1, .f32⟩ : BufTy).Contents (Elt F)) (final m c (Proc.devRef .tc main_cst_71)) := by
  have h := Sage.after_unary (x := main_cst_71) (y := main_v363) (ops_Writes (F := F)) 529 (launchContents m c) (by rfl) (by decide +kernel) (by decide +kernel)
  unfold final
  generalize after ops (launchContents m c) = G at h ⊢
  exact h
theorem final_main_cst_72 (m : (ℓ : Loc nD τ sig) → Buf (Elt F) ℓ) (c : Dev nD) :
    final m c (Proc.devRef .tc main_cst_72) = (constant S_ .f32 0x00000000#32) := by
  have h := Sage.after_nullary (y := main_cst_72) (ops_Writes (F := F)) 530 (launchContents m c) (by rfl) (by decide +kernel)
  unfold final
  generalize after ops (launchContents m c) = G at h ⊢
  exact h
theorem final_main_v364 (m : (ℓ : Loc nD τ sig) → Buf (Elt F) ℓ) (c : Dev nD) :
    final m c (Proc.devRef .tc main_v364) = (broadcastInDim S3000x1 ![] bcast_S_S3000x1 : (⟨S_, .f32⟩ : BufTy).Contents (Elt F) → (⟨S3000x1, .f32⟩ : BufTy).Contents (Elt F)) (final m c (Proc.devRef .tc main_cst_72)) := by
  have h := Sage.after_unary (x := main_cst_72) (y := main_v364) (ops_Writes (F := F)) 531 (launchContents m c) (by rfl) (by decide +kernel) (by decide +kernel)
  unfold final
  generalize after ops (launchContents m c) = G at h ⊢
  exact h
theorem final_main_v365 (m : (ℓ : Loc nD τ sig) → Buf (Elt F) ℓ) (c : Dev nD) :
    final m c (Proc.devRef .tc main_v365) = (broadcastInDim S150000x1 ![0] bcast_S150000_S150000x1_0 : (⟨S150000, .i32⟩ : BufTy).Contents (Elt F) → (⟨S150000x1, .i32⟩ : BufTy).Contents (Elt F)) (final m c (Proc.devRef .tc main_arg19)) := by
  have h := Sage.after_unary (x := main_arg19) (y := main_v365) (ops_Writes (F := F)) 532 (launchContents m c) (by rfl) (by decide +kernel) (by decide +kernel)
  unfold final
  generalize after ops (launchContents m c) = G at h ⊢
  exact h
theorem final_main_v366 (m : (ℓ : Loc nD τ sig) → Buf (Elt F) ℓ) (c : Dev nD) :
    final m c (Proc.devRef .tc main_v366) = (Host.scatterAdd scatter_S3000x1_S150000x1_S150000x1_1_0_0_1 (final m c (Proc.devRef .tc main_v364)) (final m c (Proc.devRef .tc main_v365)) (final m c (Proc.devRef .tc main_v363)) : (⟨S3000x1, .f32⟩ : BufTy).Contents (Elt F)) := by
  have h := Sage.after_ternary (c := main_v364) (a := main_v365) (b := main_v363) (y := main_v366) (ops_Writes (F := F)) 533 (launchContents m c) (by rfl) (by decide +kernel) (by decide +kernel) (by decide +kernel) (by decide +kernel)
  unfold final
  generalize after ops (launchContents m c) = G at h ⊢
  exact h
theorem final_main_cst_73 (m : (ℓ : Loc nD τ sig) → Buf (Elt F) ℓ) (c : Dev nD) :
    final m c (Proc.devRef .tc main_cst_73) = (constant S_ .f32 0x3F800000#32) := by
  have h := Sage.after_nullary (y := main_cst_73) (ops_Writes (F := F)) 534 (launchContents m c) (by rfl) (by decide +kernel)
  unfold final
  generalize after ops (launchContents m c) = G at h ⊢
  exact h
theorem final_main_v367 (m : (ℓ : Loc nD τ sig) → Buf (Elt F) ℓ) (c : Dev nD) :
    final m c (Proc.devRef .tc main_v367) = (broadcastInDim S3000x1 ![] bcast_S_S3000x1 : (⟨S_, .f32⟩ : BufTy).Contents (Elt F) → (⟨S3000x1, .f32⟩ : BufTy).Contents (Elt F)) (final m c (Proc.devRef .tc main_cst_73)) := by
  have h := Sage.after_unary (x := main_cst_73) (y := main_v367) (ops_Writes (F := F)) 535 (launchContents m c) (by rfl) (by decide +kernel) (by decide +kernel)
  unfold final
  generalize after ops (launchContents m c) = G at h ⊢
  exact h
theorem final_main_v368 (m : (ℓ : Loc nD τ sig) → Buf (Elt F) ℓ) (c : Dev nD) :
    final m c (Proc.devRef .tc main_v368) = (maximumf : (⟨S3000x1, .f32⟩ : BufTy).Contents (Elt F) → (⟨S3000x1, .f32⟩ : BufTy).Contents (Elt F) → (⟨S3000x1, .f32⟩ : BufTy).Contents (Elt F)) (final m c (Proc.devRef .tc main_v366)) (final m c (Proc.devRef .tc main_v367)) := by
  have h := Sage.after_binary (a := main_v366) (b := main_v367) (y := main_v368) (ops_Writes (F := F)) 536 (launchContents m c) (by rfl) (by decide +kernel) (by decide +kernel) (by decide +kernel)
  unfold final
  generalize after ops (launchContents m c) = G at h ⊢
  exact h
theorem final_main_v369 (m : (ℓ : Loc nD τ sig) → Buf (Elt F) ℓ) (c : Dev nD) :
    final m c (Proc.devRef .tc main_v369) = (broadcastInDim S3000x256 ![0, 1] bcast_S3000x1_S3000x256_0_1 : (⟨S3000x1, .f32⟩ : BufTy).Contents (Elt F) → (⟨S3000x256, .f32⟩ : BufTy).Contents (Elt F)) (final m c (Proc.devRef .tc main_v368)) := by
  have h := Sage.after_unary (x := main_v368) (y := main_v369) (ops_Writes (F := F)) 537 (launchContents m c) (by rfl) (by decide +kernel) (by decide +kernel)
  unfold final
  generalize after ops (launchContents m c) = G at h ⊢
  exact h
theorem final_main_v370 (m : (ℓ : Loc nD τ sig) → Buf (Elt F) ℓ) (c : Dev nD) :
    final m c (Proc.devRef .tc main_v370) = (Host.divf : (⟨S3000x256, .f32⟩ : BufTy).Contents (Elt F) → (⟨S3000x256, .f32⟩ : BufTy).Contents (Elt F) → (⟨S3000x256, .f32⟩ : BufTy).Contents (Elt F)) (final m c (Proc.devRef .tc main_v362)) (final m c (Proc.devRef .tc main_v369)) := by
  have h := Sage.after_binary (a := main_v362) (b := main_v369) (y := main_v370) (ops_Writes (F := F)) 538 (launchContents m c) (by rfl) (by decide +kernel) (by decide +kernel) (by decide +kernel)
  unfold final
  generalize after ops (launchContents m c) = G at h ⊢
  exact h
theorem final_main_v371 (m : (ℓ : Loc nD τ sig) → Buf (Elt F) ℓ) (c : Dev nD) :
    final m c (Proc.devRef .tc main_v371) = (extractStridedSlice S1x256x256 ![2, 0, 0] (final m c (Proc.devRef .tc main_arg7)) slices_S7x256x256_S1x256x256_2_0_0 : (⟨S1x256x256, .f32⟩ : BufTy).Contents (Elt F)) := by
  have h := Sage.after_unary (x := main_arg7) (y := main_v371) (ops_Writes (F := F)) 539 (launchContents m c) (by rfl) (by decide +kernel) (by decide +kernel)
  unfold final
  generalize after ops (launchContents m c) = G at h ⊢
  exact h
theorem final_main_v372 (m : (ℓ : Loc nD τ sig) → Buf (Elt F) ℓ) (c : Dev nD) :
    final m c (Proc.devRef .tc main_v372) = shapeCast S256x256 (final m c (Proc.devRef .tc main_v371)) shapeCasts_S1x256x256_S256x256 := by
  have h := Sage.after_reshape (x := main_v371) (y := main_v372) (ops_Writes (F := F)) 540 (launchContents m c) (by rfl) (by decide +kernel) (by decide +kernel)
  unfold final
  generalize after ops (launchContents m c) = G at h ⊢
  exact h
theorem final_main_v373 (m : (ℓ : Loc nD τ sig) → Buf (Elt F) ℓ) (c : Dev nD) :
    final m c (Proc.devRef .tc main_v373) = (Host.dotGeneral dot_S3000x256_S256x256_S3000x256_1_0_0_1_n_n none (final m c (Proc.devRef .tc main_v370)) (final m c (Proc.devRef .tc main_v372)) : (⟨S3000x256, .f32⟩ : BufTy).Contents (Elt F)) := by
  have h := Sage.after_binary (a := main_v370) (b := main_v372) (y := main_v373) (ops_Writes (F := F)) 541 (launchContents m c) (by rfl) (by decide +kernel) (by decide +kernel) (by decide +kernel)
  unfold final
  generalize after ops (launchContents m c) = G at h ⊢
  exact h
theorem final_main_v374 (m : (ℓ : Loc nD τ sig) → Buf (Elt F) ℓ) (c : Dev nD) :
    final m c (Proc.devRef .tc main_v374) = (extractStridedSlice S1x256 ![2, 0] (final m c (Proc.devRef .tc main_arg9)) slices_S7x256_S1x256_2_0 : (⟨S1x256, .f32⟩ : BufTy).Contents (Elt F)) := by
  have h := Sage.after_unary (x := main_arg9) (y := main_v374) (ops_Writes (F := F)) 542 (launchContents m c) (by rfl) (by decide +kernel) (by decide +kernel)
  unfold final
  generalize after ops (launchContents m c) = G at h ⊢
  exact h
theorem final_main_v375 (m : (ℓ : Loc nD τ sig) → Buf (Elt F) ℓ) (c : Dev nD) :
    final m c (Proc.devRef .tc main_v375) = shapeCast S256 (final m c (Proc.devRef .tc main_v374)) shapeCasts_S1x256_S256 := by
  have h := Sage.after_reshape (x := main_v374) (y := main_v375) (ops_Writes (F := F)) 543 (launchContents m c) (by rfl) (by decide +kernel) (by decide +kernel)
  unfold final
  generalize after ops (launchContents m c) = G at h ⊢
  exact h
theorem final_main_v376 (m : (ℓ : Loc nD τ sig) → Buf (Elt F) ℓ) (c : Dev nD) :
    final m c (Proc.devRef .tc main_v376) = (broadcastInDim S1x256 ![1] bcast_S256_S1x256_1 : (⟨S256, .f32⟩ : BufTy).Contents (Elt F) → (⟨S1x256, .f32⟩ : BufTy).Contents (Elt F)) (final m c (Proc.devRef .tc main_v375)) := by
  have h := Sage.after_unary (x := main_v375) (y := main_v376) (ops_Writes (F := F)) 544 (launchContents m c) (by rfl) (by decide +kernel) (by decide +kernel)
  unfold final
  generalize after ops (launchContents m c) = G at h ⊢
  exact h
theorem final_main_v377 (m : (ℓ : Loc nD τ sig) → Buf (Elt F) ℓ) (c : Dev nD) :
    final m c (Proc.devRef .tc main_v377) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v376)) := by
  have h := Sage.after_unary (x := main_v376) (y := main_v377) (ops_Writes (F := F)) 545 (launchContents m c) (by rfl) (by decide +kernel) (by decide +kernel)
  unfold final
  generalize after ops (launchContents m c) = G at h ⊢
  exact h
theorem final_main_v378 (m : (ℓ : Loc nD τ sig) → Buf (Elt F) ℓ) (c : Dev nD) :
    final m c (Proc.devRef .tc main_v378) = (addf : (⟨S3000x256, .f32⟩ : BufTy).Contents (Elt F) → (⟨S3000x256, .f32⟩ : BufTy).Contents (Elt F) → (⟨S3000x256, .f32⟩ : BufTy).Contents (Elt F)) (final m c (Proc.devRef .tc main_v373)) (final m c (Proc.devRef .tc main_v377)) := by
  have h := Sage.after_binary (a := main_v373) (b := main_v377) (y := main_v378) (ops_Writes (F := F)) 546 (launchContents m c) (by rfl) (by decide +kernel) (by decide +kernel) (by decide +kernel)
  unfold final
  generalize after ops (launchContents m c) = G at h ⊢
  exact h
theorem final_main_v379 (m : (ℓ : Loc nD τ sig) → Buf (Elt F) ℓ) (c : Dev nD) :
    final m c (Proc.devRef .tc main_v379) = (extractStridedSlice S1x256x256 ![2, 0, 0] (final m c (Proc.devRef .tc main_arg8)) slices_S7x256x256_S1x256x256_2_0_0 : (⟨S1x256x256, .f32⟩ : BufTy).Contents (Elt F)) := by
  have h := Sage.after_unary (x := main_arg8) (y := main_v379) (ops_Writes (F := F)) 547 (launchContents m c) (by rfl) (by decide +kernel) (by decide +kernel)
  unfold final
  generalize after ops (launchContents m c) = G at h ⊢
  exact h
theorem final_main_v380 (m : (ℓ : Loc nD τ sig) → Buf (Elt F) ℓ) (c : Dev nD) :
    final m c (Proc.devRef .tc main_v380) = shapeCast S256x256 (final m c (Proc.devRef .tc main_v379)) shapeCasts_S1x256x256_S256x256 := by
  have h := Sage.after_reshape (x := main_v379) (y := main_v380) (ops_Writes (F := F)) 548 (launchContents m c) (by rfl) (by decide +kernel) (by decide +kernel)
  unfold final
  generalize after ops (launchContents m c) = G at h ⊢
  exact h
theorem final_main_v381 (m : (ℓ : Loc nD τ sig) → Buf (Elt F) ℓ) (c : Dev nD) :
    final m c (Proc.devRef .tc main_v381) = (Host.dotGeneral dot_S3000x256_S256x256_S3000x256_1_0_0_1_n_n none (final m c (Proc.devRef .tc main_v292)) (final m c (Proc.devRef .tc main_v380)) : (⟨S3000x256, .f32⟩ : BufTy).Contents (Elt F)) := by
  have h := Sage.after_binary (a := main_v292) (b := main_v380) (y := main_v381) (ops_Writes (F := F)) 549 (launchContents m c) (by rfl) (by decide +kernel) (by decide +kernel) (by decide +kernel)
  unfold final
  generalize after ops (launchContents m c) = G at h ⊢
  exact h
theorem final_main_v382 (m : (ℓ : Loc nD τ sig) → Buf (Elt F) ℓ) (c : Dev nD) :
    final m c (Proc.devRef .tc main_v382) = (addf : (⟨S3000x256, .f32⟩ : BufTy).Contents (Elt F) → (⟨S3000x256, .f32⟩ : BufTy).Contents (Elt F) → (⟨S3000x256, .f32⟩ : BufTy).Contents (Elt F)) (final m c (Proc.devRef .tc main_v378)) (final m c (Proc.devRef .tc main_v381)) := by
  have h := Sage.after_binary (a := main_v378) (b := main_v381) (y := main_v382) (ops_Writes (F := F)) 550 (launchContents m c) (by rfl) (by decide +kernel) (by decide +kernel) (by decide +kernel)
  unfold final
  generalize after ops (launchContents m c) = G at h ⊢
  exact h
theorem final_main_c_74 (m : (ℓ : Loc nD τ sig) → Buf (Elt F) ℓ) (c : Dev nD) :
    final m c (Proc.devRef .tc main_c_74) = (constantI S_ 32 0#32) := by
  have h := Sage.after_nullary (y := main_c_74) (ops_Writes (F := F)) 551 (launchContents m c) (by rfl) (by decide +kernel)
  unfold final
  generalize after ops (launchContents m c) = G at h ⊢
  exact h
theorem final_main_v383 (m : (ℓ : Loc nD τ sig) → Buf (Elt F) ℓ) (c : Dev nD) :
    final m c (Proc.devRef .tc main_v383) = (broadcastInDim S400000 ![] bcast_S_S400000 : (⟨S_, .i32⟩ : BufTy).Contents (Elt F) → (⟨S400000, .i32⟩ : BufTy).Contents (Elt F)) (final m c (Proc.devRef .tc main_c_74)) := by
  have h := Sage.after_unary (x := main_c_74) (y := main_v383) (ops_Writes (F := F)) 552 (launchContents m c) (by rfl) (by decide +kernel) (by decide +kernel)
  unfold final
  generalize after ops (launchContents m c) = G at h ⊢
  exact h
theorem final_main_v384 (m : (ℓ : Loc nD τ sig) → Buf (Elt F) ℓ) (c : Dev nD) :
    final m c (Proc.devRef .tc main_v384) = (cmpi .slt : (⟨S400000, .i32⟩ : BufTy).Contents (Elt F) → (⟨S400000, .i32⟩ : BufTy).Contents (Elt F) → (⟨S400000, .i1⟩ : BufTy).Contents (Elt F)) (final m c (Proc.devRef .tc main_arg20)) (final m c (Proc.devRef .tc main_v383)) := by
  have h := Sage.after_binary (a := main_arg20) (b := main_v383) (y := main_v384) (ops_Writes (F := F)) 553 (launchContents m c) (by rfl) (by decide +kernel) (by decide +kernel) (by decide +kernel)
  unfold final
  generalize after ops (launchContents m c) = G at h ⊢
  exact h
theorem final_main_c_75 (m : (ℓ : Loc nD τ sig) → Buf (Elt F) ℓ) (c : Dev nD) :
    final m c (Proc.devRef .tc main_c_75) = (constantI S_ 32 50000#32) := by
  have h := Sage.after_nullary (y := main_c_75) (ops_Writes (F := F)) 554 (launchContents m c) (by rfl) (by decide +kernel)
  unfold final
  generalize after ops (launchContents m c) = G at h ⊢
  exact h
theorem final_main_v385 (m : (ℓ : Loc nD τ sig) → Buf (Elt F) ℓ) (c : Dev nD) :
    final m c (Proc.devRef .tc main_v385) = (broadcastInDim S400000 ![] bcast_S_S400000 : (⟨S_, .i32⟩ : BufTy).Contents (Elt F) → (⟨S400000, .i32⟩ : BufTy).Contents (Elt F)) (final m c (Proc.devRef .tc main_c_75)) := by
  have h := Sage.after_unary (x := main_c_75) (y := main_v385) (ops_Writes (F := F)) 555 (launchContents m c) (by rfl) (by decide +kernel) (by decide +kernel)
  unfold final
  generalize after ops (launchContents m c) = G at h ⊢
  exact h
theorem final_main_v386 (m : (ℓ : Loc nD τ sig) → Buf (Elt F) ℓ) (c : Dev nD) :
    final m c (Proc.devRef .tc main_v386) = (addi : (⟨S400000, .i32⟩ : BufTy).Contents (Elt F) → (⟨S400000, .i32⟩ : BufTy).Contents (Elt F) → (⟨S400000, .i32⟩ : BufTy).Contents (Elt F)) (final m c (Proc.devRef .tc main_arg20)) (final m c (Proc.devRef .tc main_v385)) := by
  have h := Sage.after_binary (a := main_arg20) (b := main_v385) (y := main_v386) (ops_Writes (F := F)) 556 (launchContents m c) (by rfl) (by decide +kernel) (by decide +kernel) (by decide +kernel)
  unfold final
  generalize after ops (launchContents m c) = G at h ⊢
  exact h
theorem final_main_v387 (m : (ℓ : Loc nD τ sig) → Buf (Elt F) ℓ) (c : Dev nD) :
    final m c (Proc.devRef .tc main_v387) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (final m c (Proc.devRef .tc main_v384)) (final m c (Proc.devRef .tc main_v386)) (final m c (Proc.devRef .tc main_arg20)) := by
  have h := Sage.after_ternary (c := main_v384) (a := main_v386) (b := main_arg20) (y := main_v387) (ops_Writes (F := F)) 557 (launchContents m c) (by rfl) (by decide +kernel) (by decide +kernel) (by decide +kernel) (by decide +kernel)
  unfold final
  generalize after ops (launchContents m c) = G at h ⊢
  exact h
theorem final_main_v388 (m : (ℓ : Loc nD τ sig) → Buf (Elt F) ℓ) (c : Dev nD) :
    final m c (Proc.devRef .tc main_v388) = (broadcastInDim S400000x1 ![0] bcast_S400000_S400000x1_0 : (⟨S400000, .i32⟩ : BufTy).Contents (Elt F) → (⟨S400000x1, .i32⟩ : BufTy).Contents (Elt F)) (final m c (Proc.devRef .tc main_v387)) := by
  have h := Sage.after_unary (x := main_v387) (y := main_v388) (ops_Writes (F := F)) 558 (launchContents m c) (by rfl) (by decide +kernel) (by decide +kernel)
  unfold final
  generalize after ops (launchContents m c) = G at h ⊢
  exact h
theorem final_main_v389 (m : (ℓ : Loc nD τ sig) → Buf (Elt F) ℓ) (c : Dev nD) :
    final m c (Proc.devRef .tc main_v389) = (Host.gather gather_S50000x256_S400000x1_S400000x256_1_0_n_n_0_1_1256 (final m c (Proc.devRef .tc main_v252)) (final m c (Proc.devRef .tc main_v388)) : (⟨S400000x256, .f32⟩ : BufTy).Contents (Elt F)) := by
  have h := Sage.after_binary (a := main_v252) (b := main_v388) (y := main_v389) (ops_Writes (F := F)) 559 (launchContents m c) (by rfl) (by decide +kernel) (by decide +kernel) (by decide +kernel)
  unfold final
  generalize after ops (launchContents m c) = G at h ⊢
  exact h
theorem final_main_cst_76 (m : (ℓ : Loc nD τ sig) → Buf (Elt F) ℓ) (c : Dev nD) :
    final m c (Proc.devRef .tc main_cst_76) = (constant S_ .f32 0x00000000#32) := by
  have h := Sage.after_nullary (y := main_cst_76) (ops_Writes (F := F)) 560 (launchContents m c) (by rfl) (by decide +kernel)
  unfold final
  generalize after ops (launchContents m c) = G at h ⊢
  exact h
theorem final_main_v390 (m : (ℓ : Loc nD τ sig) → Buf (Elt F) ℓ) (c : Dev nD) :
    final m c (Proc.devRef .tc main_v390) = (broadcastInDim S10000x256 ![] bcast_S_S10000x256 : (⟨S_, .f32⟩ : BufTy).Contents (Elt F) → (⟨S10000x256, .f32⟩ : BufTy).Contents (Elt F)) (final m c (Proc.devRef .tc main_cst_76)) := by
  have h := Sage.after_unary (x := main_cst_76) (y := main_v390) (ops_Writes (F := F)) 561 (launchContents m c) (by rfl) (by decide +kernel) (by decide +kernel)
  unfold final
  generalize after ops (launchContents m c) = G at h ⊢
  exact h
theorem final_main_v391 (m : (ℓ : Loc nD τ sig) → Buf (Elt F) ℓ) (c : Dev nD) :
    final m c (Proc.devRef .tc main_v391) = (broadcastInDim S400000x1 ![0] bcast_S400000_S400000x1_0 : (⟨S400000, .i32⟩ : BufTy).Contents (Elt F) → (⟨S400000x1, .i32⟩ : BufTy).Contents (Elt F)) (final m c (Proc.devRef .tc main_arg21)) := by
  have h := Sage.after_unary (x := main_arg21) (y := main_v391) (ops_Writes (F := F)) 562 (launchContents m c) (by rfl) (by decide +kernel) (by decide +kernel)
  unfold final
  generalize after ops (launchContents m c) = G at h ⊢
  exact h
theorem final_main_v392 (m : (ℓ : Loc nD τ sig) → Buf (Elt F) ℓ) (c : Dev nD) :
    final m c (Proc.devRef .tc main_v392) = (Host.scatterAdd scatter_S10000x256_S400000x1_S400000x256_1_0_0_1 (final m c (Proc.devRef .tc main_v390)) (final m c (Proc.devRef .tc main_v391)) (final m c (Proc.devRef .tc main_v389)) : (⟨S10000x256, .f32⟩ : BufTy).Contents (Elt F)) := by
  have h := Sage.after_ternary (c := main_v390) (a := main_v391) (b := main_v389) (y := main_v392) (ops_Writes (F := F)) 563 (launchContents m c) (by rfl) (by decide +kernel) (by decide +kernel) (by decide +kernel) (by decide +kernel)
  unfold final
  generalize after ops (launchContents m c) = G at h ⊢
  exact h
theorem final_main_cst_77 (m : (ℓ : Loc nD τ sig) → Buf (Elt F) ℓ) (c : Dev nD) :
    final m c (Proc.devRef .tc main_cst_77) = (constant S_ .f32 0x3F800000#32) := by
  have h := Sage.after_nullary (y := main_cst_77) (ops_Writes (F := F)) 564 (launchContents m c) (by rfl) (by decide +kernel)
  unfold final
  generalize after ops (launchContents m c) = G at h ⊢
  exact h
theorem final_main_v393 (m : (ℓ : Loc nD τ sig) → Buf (Elt F) ℓ) (c : Dev nD) :
    final m c (Proc.devRef .tc main_v393) = (broadcastInDim S400000x1 ![] bcast_S_S400000x1 : (⟨S_, .f32⟩ : BufTy).Contents (Elt F) → (⟨S400000x1, .f32⟩ : BufTy).Contents (Elt F)) (final m c (Proc.devRef .tc main_cst_77)) := by
  have h := Sage.after_unary (x := main_cst_77) (y := main_v393) (ops_Writes (F := F)) 565 (launchContents m c) (by rfl) (by decide +kernel) (by decide +kernel)
  unfold final
  generalize after ops (launchContents m c) = G at h ⊢
  exact h
theorem final_main_cst_78 (m : (ℓ : Loc nD τ sig) → Buf (Elt F) ℓ) (c : Dev nD) :
    final m c (Proc.devRef .tc main_cst_78) = (constant S_ .f32 0x00000000#32) := by
  have h := Sage.after_nullary (y := main_cst_78) (ops_Writes (F := F)) 566 (launchContents m c) (by rfl) (by decide +kernel)
  unfold final
  generalize after ops (launchContents m c) = G at h ⊢
  exact h
theorem final_main_v394 (m : (ℓ : Loc nD τ sig) → Buf (Elt F) ℓ) (c : Dev nD) :
    final m c (Proc.devRef .tc main_v394) = (broadcastInDim S10000x1 ![] bcast_S_S10000x1 : (⟨S_, .f32⟩ : BufTy).Contents (Elt F) → (⟨S10000x1, .f32⟩ : BufTy).Contents (Elt F)) (final m c (Proc.devRef .tc main_cst_78)) := by
  have h := Sage.after_unary (x := main_cst_78) (y := main_v394) (ops_Writes (F := F)) 567 (launchContents m c) (by rfl) (by decide +kernel) (by decide +kernel)
  unfold final
  generalize after ops (launchContents m c) = G at h ⊢
  exact h
theorem final_main_v395 (m : (ℓ : Loc nD τ sig) → Buf (Elt F) ℓ) (c : Dev nD) :
    final m c (Proc.devRef .tc main_v395) = (broadcastInDim S400000x1 ![0] bcast_S400000_S400000x1_0 : (⟨S400000, .i32⟩ : BufTy).Contents (Elt F) → (⟨S400000x1, .i32⟩ : BufTy).Contents (Elt F)) (final m c (Proc.devRef .tc main_arg21)) := by
  have h := Sage.after_unary (x := main_arg21) (y := main_v395) (ops_Writes (F := F)) 568 (launchContents m c) (by rfl) (by decide +kernel) (by decide +kernel)
  unfold final
  generalize after ops (launchContents m c) = G at h ⊢
  exact h
theorem final_main_v396 (m : (ℓ : Loc nD τ sig) → Buf (Elt F) ℓ) (c : Dev nD) :
    final m c (Proc.devRef .tc main_v396) = (Host.scatterAdd scatter_S10000x1_S400000x1_S400000x1_1_0_0_1 (final m c (Proc.devRef .tc main_v394)) (final m c (Proc.devRef .tc main_v395)) (final m c (Proc.devRef .tc main_v393)) : (⟨S10000x1, .f32⟩ : BufTy).Contents (Elt F)) := by
  have h := Sage.after_ternary (c := main_v394) (a := main_v395) (b := main_v393) (y := main_v396) (ops_Writes (F := F)) 569 (launchContents m c) (by rfl) (by decide +kernel) (by decide +kernel) (by decide +kernel) (by decide +kernel)
  unfold final
  generalize after ops (launchContents m c) = G at h ⊢
  exact h
theorem final_main_cst_79 (m : (ℓ : Loc nD τ sig) → Buf (Elt F) ℓ) (c : Dev nD) :
    final m c (Proc.devRef .tc main_cst_79) = (constant S_ .f32 0x3F800000#32) := by
  have h := Sage.after_nullary (y := main_cst_79) (ops_Writes (F := F)) 570 (launchContents m c) (by rfl) (by decide +kernel)
  unfold final
  generalize after ops (launchContents m c) = G at h ⊢
  exact h
theorem final_main_v397 (m : (ℓ : Loc nD τ sig) → Buf (Elt F) ℓ) (c : Dev nD) :
    final m c (Proc.devRef .tc main_v397) = (broadcastInDim S10000x1 ![] bcast_S_S10000x1 : (⟨S_, .f32⟩ : BufTy).Contents (Elt F) → (⟨S10000x1, .f32⟩ : BufTy).Contents (Elt F)) (final m c (Proc.devRef .tc main_cst_79)) := by
  have h := Sage.after_unary (x := main_cst_79) (y := main_v397) (ops_Writes (F := F)) 571 (launchContents m c) (by rfl) (by decide +kernel) (by decide +kernel)
  unfold final
  generalize after ops (launchContents m c) = G at h ⊢
  exact h

end Cert.ReferenceIdeal.Hand

end
-- ==== Proof.Ref.Final8.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 8 (operations 573 … 632 of 886): what each result buffer holds when @main has run, one operation back. -/

theorem final_main_v398 (m : (ℓ : Loc nD τ sig) → Buf (Elt F) ℓ) (c : Dev nD) :
    final m c (Proc.devRef .tc main_v398) = (maximumf : (⟨S10000x1, .f32⟩ : BufTy).Contents (Elt F) → (⟨S10000x1, .f32⟩ : BufTy).Contents (Elt F) → (⟨S10000x1, .f32⟩ : BufTy).Contents (Elt F)) (final m c (Proc.devRef .tc main_v396)) (final m c (Proc.devRef .tc main_v397)) := by
  have h := Sage.after_binary (a := main_v396) (b := main_v397) (y := main_v398) (ops_Writes (F := F)) 572 (launchContents m c) (by rfl) (by decide +kernel) (by decide +kernel) (by decide +kernel)
  unfold final
  generalize after ops (launchContents m c) = G at h ⊢
  exact h
theorem final_main_v399 (m : (ℓ : Loc nD τ sig) → Buf (Elt F) ℓ) (c : Dev nD) :
    final m c (Proc.devRef .tc main_v399) = (broadcastInDim S10000x256 ![0, 1] bcast_S10000x1_S10000x256_0_1 : (⟨S10000x1, .f32⟩ : BufTy).Contents (Elt F) → (⟨S10000x256, .f32⟩ : BufTy).Contents (Elt F)) (final m c (Proc.devRef .tc main_v398)) := by
  have h := Sage.after_unary (x := main_v398) (y := main_v399) (ops_Writes (F := F)) 573 (launchContents m c) (by rfl) (by decide +kernel) (by decide +kernel)
  unfold final
  generalize after ops (launchContents m c) = G at h ⊢
  exact h
theorem final_main_v400 (m : (ℓ : Loc nD τ sig) → Buf (Elt F) ℓ) (c : Dev nD) :
    final m c (Proc.devRef .tc main_v400) = (Host.divf : (⟨S10000x256, .f32⟩ : BufTy).Contents (Elt F) → (⟨S10000x256, .f32⟩ : BufTy).Contents (Elt F) → (⟨S10000x256, .f32⟩ : BufTy).Contents (Elt F)) (final m c (Proc.devRef .tc main_v392)) (final m c (Proc.devRef .tc main_v399)) := by
  have h := Sage.after_binary (a := main_v392) (b := main_v399) (y := main_v400) (ops_Writes (F := F)) 574 (launchContents m c) (by rfl) (by decide +kernel) (by decide +kernel) (by decide +kernel)
  unfold final
  generalize after ops (launchContents m c) = G at h ⊢
  exact h
theorem final_main_v401 (m : (ℓ : Loc nD τ sig) → Buf (Elt F) ℓ) (c : Dev nD) :
    final m c (Proc.devRef .tc main_v401) = (extractStridedSlice S1x256x256 ![3, 0, 0] (final m c (Proc.devRef .tc main_arg7)) slices_S7x256x256_S1x256x256_3_0_0 : (⟨S1x256x256, .f32⟩ : BufTy).Contents (Elt F)) := by
  have h := Sage.after_unary (x := main_arg7) (y := main_v401) (ops_Writes (F := F)) 575 (launchContents m c) (by rfl) (by decide +kernel) (by decide +kernel)
  unfold final
  generalize after ops (launchContents m c) = G at h ⊢
  exact h
theorem final_main_v402 (m : (ℓ : Loc nD τ sig) → Buf (Elt F) ℓ) (c : Dev nD) :
    final m c (Proc.devRef .tc main_v402) = shapeCast S256x256 (final m c (Proc.devRef .tc main_v401)) shapeCasts_S1x256x256_S256x256 := by
  have h := Sage.after_reshape (x := main_v401) (y := main_v402) (ops_Writes (F := F)) 576 (launchContents m c) (by rfl) (by decide +kernel) (by decide +kernel)
  unfold final
  generalize after ops (launchContents m c) = G at h ⊢
  exact h
theorem final_main_v403 (m : (ℓ : Loc nD τ sig) → Buf (Elt F) ℓ) (c : Dev nD) :
    final m c (Proc.devRef .tc main_v403) = (Host.dotGeneral dot_S10000x256_S256x256_S10000x256_1_0_0_1_n_n none (final m c (Proc.devRef .tc main_v400)) (final m c (Proc.devRef .tc main_v402)) : (⟨S10000x256, .f32⟩ : BufTy).Contents (Elt F)) := by
  have h := Sage.after_binary (a := main_v400) (b := main_v402) (y := main_v403) (ops_Writes (F := F)) 577 (launchContents m c) (by rfl) (by decide +kernel) (by decide +kernel) (by decide +kernel)
  unfold final
  generalize after ops (launchContents m c) = G at h ⊢
  exact h
theorem final_main_v404 (m : (ℓ : Loc nD τ sig) → Buf (Elt F) ℓ) (c : Dev nD) :
    final m c (Proc.devRef .tc main_v404) = (extractStridedSlice S1x256 ![3, 0] (final m c (Proc.devRef .tc main_arg9)) slices_S7x256_S1x256_3_0 : (⟨S1x256, .f32⟩ : BufTy).Contents (Elt F)) := by
  have h := Sage.after_unary (x := main_arg9) (y := main_v404) (ops_Writes (F := F)) 578 (launchContents m c) (by rfl) (by decide +kernel) (by decide +kernel)
  unfold final
  generalize after ops (launchContents m c) = G at h ⊢
  exact h
theorem final_main_v405 (m : (ℓ : Loc nD τ sig) → Buf (Elt F) ℓ) (c : Dev nD) :
    final m c (Proc.devRef .tc main_v405) = shapeCast S256 (final m c (Proc.devRef .tc main_v404)) shapeCasts_S1x256_S256 := by
  have h := Sage.after_reshape (x := main_v404) (y := main_v405) (ops_Writes (F := F)) 579 (launchContents m c) (by rfl) (by decide +kernel) (by decide +kernel)
  unfold final
  generalize after ops (launchContents m c) = G at h ⊢
  exact h
theorem final_main_v406 (m : (ℓ : Loc nD τ sig) → Buf (Elt F) ℓ) (c : Dev nD) :
    final m c (Proc.devRef .tc main_v406) = (broadcastInDim S1x256 ![1] bcast_S256_S1x256_1 : (⟨S256, .f32⟩ : BufTy).Contents (Elt F) → (⟨S1x256, .f32⟩ : BufTy).Contents (Elt F)) (final m c (Proc.devRef .tc main_v405)) := by
  have h := Sage.after_unary (x := main_v405) (y := main_v406) (ops_Writes (F := F)) 580 (launchContents m c) (by rfl) (by decide +kernel) (by decide +kernel)
  unfold final
  generalize after ops (launchContents m c) = G at h ⊢
  exact h
theorem final_main_v407 (m : (ℓ : Loc nD τ sig) → Buf (Elt F) ℓ) (c : Dev nD) :
    final m c (Proc.devRef .tc main_v407) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v406)) := by
  have h := Sage.after_unary (x := main_v406) (y := main_v407) (ops_Writes (F := F)) 581 (launchContents m c) (by rfl) (by decide +kernel) (by decide +kernel)
  unfold final
  generalize after ops (launchContents m c) = G at h ⊢
  exact h
theorem final_main_v408 (m : (ℓ : Loc nD τ sig) → Buf (Elt F) ℓ) (c : Dev nD) :
    final m c (Proc.devRef .tc main_v408) = (addf : (⟨S10000x256, .f32⟩ : BufTy).Contents (Elt F) → (⟨S10000x256, .f32⟩ : BufTy).Contents (Elt F) → (⟨S10000x256, .f32⟩ : BufTy).Contents (Elt F)) (final m c (Proc.devRef .tc main_v403)) (final m c (Proc.devRef .tc main_v407)) := by
  have h := Sage.after_binary (a := main_v403) (b := main_v407) (y := main_v408) (ops_Writes (F := F)) 582 (launchContents m c) (by rfl) (by decide +kernel) (by decide +kernel) (by decide +kernel)
  unfold final
  generalize after ops (launchContents m c) = G at h ⊢
  exact h
theorem final_main_v409 (m : (ℓ : Loc nD τ sig) → Buf (Elt F) ℓ) (c : Dev nD) :
    final m c (Proc.devRef .tc main_v409) = (extractStridedSlice S1x256x256 ![3, 0, 0] (final m c (Proc.devRef .tc main_arg8)) slices_S7x256x256_S1x256x256_3_0_0 : (⟨S1x256x256, .f32⟩ : BufTy).Contents (Elt F)) := by
  have h := Sage.after_unary (x := main_arg8) (y := main_v409) (ops_Writes (F := F)) 583 (launchContents m c) (by rfl) (by decide +kernel) (by decide +kernel)
  unfold final
  generalize after ops (launchContents m c) = G at h ⊢
  exact h
theorem final_main_v410 (m : (ℓ : Loc nD τ sig) → Buf (Elt F) ℓ) (c : Dev nD) :
    final m c (Proc.devRef .tc main_v410) = shapeCast S256x256 (final m c (Proc.devRef .tc main_v409)) shapeCasts_S1x256x256_S256x256 := by
  have h := Sage.after_reshape (x := main_v409) (y := main_v410) (ops_Writes (F := F)) 584 (launchContents m c) (by rfl) (by decide +kernel) (by decide +kernel)
  unfold final
  generalize after ops (launchContents m c) = G at h ⊢
  exact h
theorem final_main_v411 (m : (ℓ : Loc nD τ sig) → Buf (Elt F) ℓ) (c : Dev nD) :
    final m c (Proc.devRef .tc main_v411) = (Host.dotGeneral dot_S10000x256_S256x256_S10000x256_1_0_0_1_n_n none (final m c (Proc.devRef .tc main_v272)) (final m c (Proc.devRef .tc main_v410)) : (⟨S10000x256, .f32⟩ : BufTy).Contents (Elt F)) := by
  have h := Sage.after_binary (a := main_v272) (b := main_v410) (y := main_v411) (ops_Writes (F := F)) 585 (launchContents m c) (by rfl) (by decide +kernel) (by decide +kernel) (by decide +kernel)
  unfold final
  generalize after ops (launchContents m c) = G at h ⊢
  exact h
theorem final_main_v412 (m : (ℓ : Loc nD τ sig) → Buf (Elt F) ℓ) (c : Dev nD) :
    final m c (Proc.devRef .tc main_v412) = (addf : (⟨S10000x256, .f32⟩ : BufTy).Contents (Elt F) → (⟨S10000x256, .f32⟩ : BufTy).Contents (Elt F) → (⟨S10000x256, .f32⟩ : BufTy).Contents (Elt F)) (final m c (Proc.devRef .tc main_v408)) (final m c (Proc.devRef .tc main_v411)) := by
  have h := Sage.after_binary (a := main_v408) (b := main_v411) (y := main_v412) (ops_Writes (F := F)) 586 (launchContents m c) (by rfl) (by decide +kernel) (by decide +kernel) (by decide +kernel)
  unfold final
  generalize after ops (launchContents m c) = G at h ⊢
  exact h
theorem final_main_v413 (m : (ℓ : Loc nD τ sig) → Buf (Elt F) ℓ) (c : Dev nD) :
    final m c (Proc.devRef .tc main_v413) = (addf : (⟨S10000x256, .f32⟩ : BufTy).Contents (Elt F) → (⟨S10000x256, .f32⟩ : BufTy).Contents (Elt F) → (⟨S10000x256, .f32⟩ : BufTy).Contents (Elt F)) (final m c (Proc.devRef .tc main_v322)) (final m c (Proc.devRef .tc main_v412)) := by
  have h := Sage.after_binary (a := main_v322) (b := main_v412) (y := main_v413) (ops_Writes (F := F)) 587 (launchContents m c) (by rfl) (by decide +kernel) (by decide +kernel) (by decide +kernel)
  unfold final
  generalize after ops (launchContents m c) = G at h ⊢
  exact h
theorem final_main_c_80 (m : (ℓ : Loc nD τ sig) → Buf (Elt F) ℓ) (c : Dev nD) :
    final m c (Proc.devRef .tc main_c_80) = (constantI S_ 32 0#32) := by
  have h := Sage.after_nullary (y := main_c_80) (ops_Writes (F := F)) 588 (launchContents m c) (by rfl) (by decide +kernel)
  unfold final
  generalize after ops (launchContents m c) = G at h ⊢
  exact h
theorem final_main_v414 (m : (ℓ : Loc nD τ sig) → Buf (Elt F) ℓ) (c : Dev nD) :
    final m c (Proc.devRef .tc main_v414) = (broadcastInDim S500000 ![] bcast_S_S500000 : (⟨S_, .i32⟩ : BufTy).Contents (Elt F) → (⟨S500000, .i32⟩ : BufTy).Contents (Elt F)) (final m c (Proc.devRef .tc main_c_80)) := by
  have h := Sage.after_unary (x := main_c_80) (y := main_v414) (ops_Writes (F := F)) 589 (launchContents m c) (by rfl) (by decide +kernel) (by decide +kernel)
  unfold final
  generalize after ops (launchContents m c) = G at h ⊢
  exact h
theorem final_main_v415 (m : (ℓ : Loc nD τ sig) → Buf (Elt F) ℓ) (c : Dev nD) :
    final m c (Proc.devRef .tc main_v415) = (cmpi .slt : (⟨S500000, .i32⟩ : BufTy).Contents (Elt F) → (⟨S500000, .i32⟩ : BufTy).Contents (Elt F) → (⟨S500000, .i1⟩ : BufTy).Contents (Elt F)) (final m c (Proc.devRef .tc main_arg22)) (final m c (Proc.devRef .tc main_v414)) := by
  have h := Sage.after_binary (a := main_arg22) (b := main_v414) (y := main_v415) (ops_Writes (F := F)) 590 (launchContents m c) (by rfl) (by decide +kernel) (by decide +kernel) (by decide +kernel)
  unfold final
  generalize after ops (launchContents m c) = G at h ⊢
  exact h
theorem final_main_c_81 (m : (ℓ : Loc nD τ sig) → Buf (Elt F) ℓ) (c : Dev nD) :
    final m c (Proc.devRef .tc main_c_81) = (constantI S_ 32 10000#32) := by
  have h := Sage.after_nullary (y := main_c_81) (ops_Writes (F := F)) 591 (launchContents m c) (by rfl) (by decide +kernel)
  unfold final
  generalize after ops (launchContents m c) = G at h ⊢
  exact h
theorem final_main_v416 (m : (ℓ : Loc nD τ sig) → Buf (Elt F) ℓ) (c : Dev nD) :
    final m c (Proc.devRef .tc main_v416) = (broadcastInDim S500000 ![] bcast_S_S500000 : (⟨S_, .i32⟩ : BufTy).Contents (Elt F) → (⟨S500000, .i32⟩ : BufTy).Contents (Elt F)) (final m c (Proc.devRef .tc main_c_81)) := by
  have h := Sage.after_unary (x := main_c_81) (y := main_v416) (ops_Writes (F := F)) 592 (launchContents m c) (by rfl) (by decide +kernel) (by decide +kernel)
  unfold final
  generalize after ops (launchContents m c) = G at h ⊢
  exact h
theorem final_main_v417 (m : (ℓ : Loc nD τ sig) → Buf (Elt F) ℓ) (c : Dev nD) :
    final m c (Proc.devRef .tc main_v417) = (addi : (⟨S500000, .i32⟩ : BufTy).Contents (Elt F) → (⟨S500000, .i32⟩ : BufTy).Contents (Elt F) → (⟨S500000, .i32⟩ : BufTy).Contents (Elt F)) (final m c (Proc.devRef .tc main_arg22)) (final m c (Proc.devRef .tc main_v416)) := by
  have h := Sage.after_binary (a := main_arg22) (b := main_v416) (y := main_v417) (ops_Writes (F := F)) 593 (launchContents m c) (by rfl) (by decide +kernel) (by decide +kernel) (by decide +kernel)
  unfold final
  generalize after ops (launchContents m c) = G at h ⊢
  exact h
theorem final_main_v418 (m : (ℓ : Loc nD τ sig) → Buf (Elt F) ℓ) (c : Dev nD) :
    final m c (Proc.devRef .tc main_v418) = (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) (final m c (Proc.devRef .tc main_v415)) (final m c (Proc.devRef .tc main_v417)) (final m c (Proc.devRef .tc main_arg22)) := by
  have h := Sage.after_ternary (c := main_v415) (a := main_v417) (b := main_arg22) (y := main_v418) (ops_Writes (F := F)) 594 (launchContents m c) (by rfl) (by decide +kernel) (by decide +kernel) (by decide +kernel) (by decide +kernel)
  unfold final
  generalize after ops (launchContents m c) = G at h ⊢
  exact h
theorem final_main_v419 (m : (ℓ : Loc nD τ sig) → Buf (Elt F) ℓ) (c : Dev nD) :
    final m c (Proc.devRef .tc main_v419) = (broadcastInDim S500000x1 ![0] bcast_S500000_S500000x1_0 : (⟨S500000, .i32⟩ : BufTy).Contents (Elt F) → (⟨S500000x1, .i32⟩ : BufTy).Contents (Elt F)) (final m c (Proc.devRef .tc main_v418)) := by
  have h := Sage.after_unary (x := main_v418) (y := main_v419) (ops_Writes (F := F)) 595 (launchContents m c) (by rfl) (by decide +kernel) (by decide +kernel)
  unfold final
  generalize after ops (launchContents m c) = G at h ⊢
  exact h
theorem final_main_v420 (m : (ℓ : Loc nD τ sig) → Buf (Elt F) ℓ) (c : Dev nD) :
    final m c (Proc.devRef .tc main_v420) = (Host.gather gather_S10000x256_S500000x1_S500000x256_1_0_n_n_0_1_1256 (final m c (Proc.devRef .tc main_v272)) (final m c (Proc.devRef .tc main_v419)) : (⟨S500000x256, .f32⟩ : BufTy).Contents (Elt F)) := by
  have h := Sage.after_binary (a := main_v272) (b := main_v419) (y := main_v420) (ops_Writes (F := F)) 596 (launchContents m c) (by rfl) (by decide +kernel) (by decide +kernel) (by decide +kernel)
  unfold final
  generalize after ops (launchContents m c) = G at h ⊢
  exact h
theorem final_main_cst_82 (m : (ℓ : Loc nD τ sig) → Buf (Elt F) ℓ) (c : Dev nD) :
    final m c (Proc.devRef .tc main_cst_82) = (constant S_ .f32 0x00000000#32) := by
  have h := Sage.after_nullary (y := main_cst_82) (ops_Writes (F := F)) 597 (launchContents m c) (by rfl) (by decide +kernel)
  unfold final
  generalize after ops (launchContents m c) = G at h ⊢
  exact h
theorem final_main_v421 (m : (ℓ : Loc nD τ sig) → Buf (Elt F) ℓ) (c : Dev nD) :
    final m c (Proc.devRef .tc main_v421) = (broadcastInDim S20000x256 ![] bcast_S_S20000x256 : (⟨S_, .f32⟩ : BufTy).Contents (Elt F) → (⟨S20000x256, .f32⟩ : BufTy).Contents (Elt F)) (final m c (Proc.devRef .tc main_cst_82)) := by
  have h := Sage.after_unary (x := main_cst_82) (y := main_v421) (ops_Writes (F := F)) 598 (launchContents m c) (by rfl) (by decide +kernel) (by decide +kernel)
  unfold final
  generalize after ops (launchContents m c) = G at h ⊢
  exact h
theorem final_main_v422 (m : (ℓ : Loc nD τ sig) → Buf (Elt F) ℓ) (c : Dev nD) :
    final m c (Proc.devRef .tc main_v422) = (broadcastInDim S500000x1 ![0] bcast_S500000_S500000x1_0 : (⟨S500000, .i32⟩ : BufTy).Contents (Elt F) → (⟨S500000x1, .i32⟩ : BufTy).Contents (Elt F)) (final m c (Proc.devRef .tc main_arg23)) := by
  have h := Sage.after_unary (x := main_arg23) (y := main_v422) (ops_Writes (F := F)) 599 (launchContents m c) (by rfl) (by decide +kernel) (by decide +kernel)
  unfold final
  generalize after ops (launchContents m c) = G at h ⊢
  exact h
theorem final_main_v423 (m : (ℓ : Loc nD τ sig) → Buf (Elt F) ℓ) (c : Dev nD) :
    final m c (Proc.devRef .tc main_v423) = (Host.scatterAdd scatter_S20000x256_S500000x1_S500000x256_1_0_0_1 (final m c (Proc.devRef .tc main_v421)) (final m c (Proc.devRef .tc main_v422)) (final m c (Proc.devRef .tc main_v420)) : (⟨S20000x256, .f32⟩ : BufTy).Contents (Elt F)) := by
  have h := Sage.after_ternary (c := main_v421) (a := main_v422) (b := main_v420) (y := main_v423) (ops_Writes (F := F)) 600 (launchContents m c) (by rfl) (by decide +kernel) (by decide +kernel) (by decide +kernel) (by decide +kernel)
  unfold final
  generalize after ops (launchContents m c) = G at h ⊢
  exact h
theorem final_main_cst_83 (m : (ℓ : Loc nD τ sig) → Buf (Elt F) ℓ) (c : Dev nD) :
    final m c (Proc.devRef .tc main_cst_83) = (constant S_ .f32 0x3F800000#32) := by
  have h := Sage.after_nullary (y := main_cst_83) (ops_Writes (F := F)) 601 (launchContents m c) (by rfl) (by decide +kernel)
  unfold final
  generalize after ops (launchContents m c) = G at h ⊢
  exact h
theorem final_main_v424 (m : (ℓ : Loc nD τ sig) → Buf (Elt F) ℓ) (c : Dev nD) :
    final m c (Proc.devRef .tc main_v424) = (broadcastInDim S500000x1 ![] bcast_S_S500000x1 : (⟨S_, .f32⟩ : BufTy).Contents (Elt F) → (⟨S500000x1, .f32⟩ : BufTy).Contents (Elt F)) (final m c (Proc.devRef .tc main_cst_83)) := by
  have h := Sage.after_unary (x := main_cst_83) (y := main_v424) (ops_Writes (F := F)) 602 (launchContents m c) (by rfl) (by decide +kernel) (by decide +kernel)
  unfold final
  generalize after ops (launchContents m c) = G at h ⊢
  exact h
theorem final_main_cst_84 (m : (ℓ : Loc nD τ sig) → Buf (Elt F) ℓ) (c : Dev nD) :
    final m c (Proc.devRef .tc main_cst_84) = (constant S_ .f32 0x00000000#32) := by
  have h := Sage.after_nullary (y := main_cst_84) (ops_Writes (F := F)) 603 (launchContents m c) (by rfl) (by decide +kernel)
  unfold final
  generalize after ops (launchContents m c) = G at h ⊢
  exact h
theorem final_main_v425 (m : (ℓ : Loc nD τ sig) → Buf (Elt F) ℓ) (c : Dev nD) :
    final m c (Proc.devRef .tc main_v425) = (broadcastInDim S20000x1 ![] bcast_S_S20000x1 : (⟨S_, .f32⟩ : BufTy).Contents (Elt F) → (⟨S20000x1, .f32⟩ : BufTy).Contents (Elt F)) (final m c (Proc.devRef .tc main_cst_84)) := by
  have h := Sage.after_unary (x := main_cst_84) (y := main_v425) (ops_Writes (F := F)) 604 (launchContents m c) (by rfl) (by decide +kernel) (by decide +kernel)
  unfold final
  generalize after ops (launchContents m c) = G at h ⊢
  exact h
theorem final_main_v426 (m : (ℓ : Loc nD τ sig) → Buf (Elt F) ℓ) (c : Dev nD) :
    final m c (Proc.devRef .tc main_v426) = (broadcastInDim S500000x1 ![0] bcast_S500000_S500000x1_0 : (⟨S500000, .i32⟩ : BufTy).Contents (Elt F) → (⟨S500000x1, .i32⟩ : BufTy).Contents (Elt F)) (final m c (Proc.devRef .tc main_arg23)) := by
  have h := Sage.after_unary (x := main_arg23) (y := main_v426) (ops_Writes (F := F)) 605 (launchContents m c) (by rfl) (by decide +kernel) (by decide +kernel)
  unfold final
  generalize after ops (launchContents m c) = G at h ⊢
  exact h
theorem final_main_v427 (m : (ℓ : Loc nD τ sig) → Buf (Elt F) ℓ) (c : Dev nD) :
    final m c (Proc.devRef .tc main_v427) = (Host.scatterAdd scatter_S20000x1_S500000x1_S500000x1_1_0_0_1 (final m c (Proc.devRef .tc main_v425)) (final m c (Proc.devRef .tc main_v426)) (final m c (Proc.devRef .tc main_v424)) : (⟨S20000x1, .f32⟩ : BufTy).Contents (Elt F)) := by
  have h := Sage.after_ternary (c := main_v425) (a := main_v426) (b := main_v424) (y := main_v427) (ops_Writes (F := F)) 606 (launchContents m c) (by rfl) (by decide +kernel) (by decide +kernel) (by decide +kernel) (by decide +kernel)
  unfold final
  generalize after ops (launchContents m c) = G at h ⊢
  exact h
theorem final_main_cst_85 (m : (ℓ : Loc nD τ sig) → Buf (Elt F) ℓ) (c : Dev nD) :
    final m c (Proc.devRef .tc main_cst_85) = (constant S_ .f32 0x3F800000#32) := by
  have h := Sage.after_nullary (y := main_cst_85) (ops_Writes (F := F)) 607 (launchContents m c) (by rfl) (by decide +kernel)
  unfold final
  generalize after ops (launchContents m c) = G at h ⊢
  exact h
theorem final_main_v428 (m : (ℓ : Loc nD τ sig) → Buf (Elt F) ℓ) (c : Dev nD) :
    final m c (Proc.devRef .tc main_v428) = (broadcastInDim S20000x1 ![] bcast_S_S20000x1 : (⟨S_, .f32⟩ : BufTy).Contents (Elt F) → (⟨S20000x1, .f32⟩ : BufTy).Contents (Elt F)) (final m c (Proc.devRef .tc main_cst_85)) := by
  have h := Sage.after_unary (x := main_cst_85) (y := main_v428) (ops_Writes (F := F)) 608 (launchContents m c) (by rfl) (by decide +kernel) (by decide +kernel)
  unfold final
  generalize after ops (launchContents m c) = G at h ⊢
  exact h
theorem final_main_v429 (m : (ℓ : Loc nD τ sig) → Buf (Elt F) ℓ) (c : Dev nD) :
    final m c (Proc.devRef .tc main_v429) = (maximumf : (⟨S20000x1, .f32⟩ : BufTy).Contents (Elt F) → (⟨S20000x1, .f32⟩ : BufTy).Contents (Elt F) → (⟨S20000x1, .f32⟩ : BufTy).Contents (Elt F)) (final m c (Proc.devRef .tc main_v427)) (final m c (Proc.devRef .tc main_v428)) := by
  have h := Sage.after_binary (a := main_v427) (b := main_v428) (y := main_v429) (ops_Writes (F := F)) 609 (launchContents m c) (by rfl) (by decide +kernel) (by decide +kernel) (by decide +kernel)
  unfold final
  generalize after ops (launchContents m c) = G at h ⊢
  exact h
theorem final_main_v430 (m : (ℓ : Loc nD τ sig) → Buf (Elt F) ℓ) (c : Dev nD) :
    final m c (Proc.devRef .tc main_v430) = (broadcastInDim S20000x256 ![0, 1] bcast_S20000x1_S20000x256_0_1 : (⟨S20000x1, .f32⟩ : BufTy).Contents (Elt F) → (⟨S20000x256, .f32⟩ : BufTy).Contents (Elt F)) (final m c (Proc.devRef .tc main_v429)) := by
  have h := Sage.after_unary (x := main_v429) (y := main_v430) (ops_Writes (F := F)) 610 (launchContents m c) (by rfl) (by decide +kernel) (by decide +kernel)
  unfold final
  generalize after ops (launchContents m c) = G at h ⊢
  exact h
theorem final_main_v431 (m : (ℓ : Loc nD τ sig) → Buf (Elt F) ℓ) (c : Dev nD) :
    final m c (Proc.devRef .tc main_v431) = (Host.divf : (⟨S20000x256, .f32⟩ : BufTy).Contents (Elt F) → (⟨S20000x256, .f32⟩ : BufTy).Contents (Elt F) → (⟨S20000x256, .f32⟩ : BufTy).Contents (Elt F)) (final m c (Proc.devRef .tc main_v423)) (final m c (Proc.devRef .tc main_v430)) := by
  have h := Sage.after_binary (a := main_v423) (b := main_v430) (y := main_v431) (ops_Writes (F := F)) 611 (launchContents m c) (by rfl) (by decide +kernel) (by decide +kernel) (by decide +kernel)
  unfold final
  generalize after ops (launchContents m c) = G at h ⊢
  exact h
theorem final_main_v432 (m : (ℓ : Loc nD τ sig) → Buf (Elt F) ℓ) (c : Dev nD) :
    final m c (Proc.devRef .tc main_v432) = (extractStridedSlice S1x256x256 ![4, 0, 0] (final m c (Proc.devRef .tc main_arg7)) slices_S7x256x256_S1x256x256_4_0_0 : (⟨S1x256x256, .f32⟩ : BufTy).Contents (Elt F)) := by
  have h := Sage.after_unary (x := main_arg7) (y := main_v432) (ops_Writes (F := F)) 612 (launchContents m c) (by rfl) (by decide +kernel) (by decide +kernel)
  unfold final
  generalize after ops (launchContents m c) = G at h ⊢
  exact h
theorem final_main_v433 (m : (ℓ : Loc nD τ sig) → Buf (Elt F) ℓ) (c : Dev nD) :
    final m c (Proc.devRef .tc main_v433) = shapeCast S256x256 (final m c (Proc.devRef .tc main_v432)) shapeCasts_S1x256x256_S256x256 := by
  have h := Sage.after_reshape (x := main_v432) (y := main_v433) (ops_Writes (F := F)) 613 (launchContents m c) (by rfl) (by decide +kernel) (by decide +kernel)
  unfold final
  generalize after ops (launchContents m c) = G at h ⊢
  exact h
theorem final_main_v434 (m : (ℓ : Loc nD τ sig) → Buf (Elt F) ℓ) (c : Dev nD) :
    final m c (Proc.devRef .tc main_v434) = (Host.dotGeneral dot_S20000x256_S256x256_S20000x256_1_0_0_1_n_n none (final m c (Proc.devRef .tc main_v431)) (final m c (Proc.devRef .tc main_v433)) : (⟨S20000x256, .f32⟩ : BufTy).Contents (Elt F)) := by
  have h := Sage.after_binary (a := main_v431) (b := main_v433) (y := main_v434) (ops_Writes (F := F)) 614 (launchContents m c) (by rfl) (by decide +kernel) (by decide +kernel) (by decide +kernel)
  unfold final
  generalize after ops (launchContents m c) = G at h ⊢
  exact h
theorem final_main_v435 (m : (ℓ : Loc nD τ sig) → Buf (Elt F) ℓ) (c : Dev nD) :
    final m c (Proc.devRef .tc main_v435) = (extractStridedSlice S1x256 ![4, 0] (final m c (Proc.devRef .tc main_arg9)) slices_S7x256_S1x256_4_0 : (⟨S1x256, .f32⟩ : BufTy).Contents (Elt F)) := by
  have h := Sage.after_unary (x := main_arg9) (y := main_v435) (ops_Writes (F := F)) 615 (launchContents m c) (by rfl) (by decide +kernel) (by decide +kernel)
  unfold final
  generalize after ops (launchContents m c) = G at h ⊢
  exact h
theorem final_main_v436 (m : (ℓ : Loc nD τ sig) → Buf (Elt F) ℓ) (c : Dev nD) :
    final m c (Proc.devRef .tc main_v436) = shapeCast S256 (final m c (Proc.devRef .tc main_v435)) shapeCasts_S1x256_S256 := by
  have h := Sage.after_reshape (x := main_v435) (y := main_v436) (ops_Writes (F := F)) 616 (launchContents m c) (by rfl) (by decide +kernel) (by decide +kernel)
  unfold final
  generalize after ops (launchContents m c) = G at h ⊢
  exact h
theorem final_main_v437 (m : (ℓ : Loc nD τ sig) → Buf (Elt F) ℓ) (c : Dev nD) :
    final m c (Proc.devRef .tc main_v437) = (broadcastInDim S1x256 ![1] bcast_S256_S1x256_1 : (⟨S256, .f32⟩ : BufTy).Contents (Elt F) → (⟨S1x256, .f32⟩ : BufTy).Contents (Elt F)) (final m c (Proc.devRef .tc main_v436)) := by
  have h := Sage.after_unary (x := main_v436) (y := main_v437) (ops_Writes (F := F)) 617 (launchContents m c) (by rfl) (by decide +kernel) (by decide +kernel)
  unfold final
  generalize after ops (launchContents m c) = G at h ⊢
  exact h
theorem final_main_v438 (m : (ℓ : Loc nD τ sig) → Buf (Elt F) ℓ) (c : Dev nD) :
    final m c (Proc.devRef .tc main_v438) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v437)) := by
  have h := Sage.after_unary (x := main_v437) (y := main_v438) (ops_Writes (F := F)) 618 (launchContents m c) (by rfl) (by decide +kernel) (by decide +kernel)
  unfold final
  generalize after ops (launchContents m c) = G at h ⊢
  exact h
theorem final_main_v439 (m : (ℓ : Loc nD τ sig) → Buf (Elt F) ℓ) (c : Dev nD) :
    final m c (Proc.devRef .tc main_v439) = (addf : (⟨S20000x256, .f32⟩ : BufTy).Contents (Elt F) → (⟨S20000x256, .f32⟩ : BufTy).Contents (Elt F) → (⟨S20000x256, .f32⟩ : BufTy).Contents (Elt F)) (final m c (Proc.devRef .tc main_v434)) (final m c (Proc.devRef .tc main_v438)) := by
  have h := Sage.after_binary (a := main_v434) (b := main_v438) (y := main_v439) (ops_Writes (F := F)) 619 (launchContents m c) (by rfl) (by decide +kernel) (by decide +kernel) (by decide +kernel)
  unfold final
  generalize after ops (launchContents m c) = G at h ⊢
  exact h
theorem final_main_v440 (m : (ℓ : Loc nD τ sig) → Buf (Elt F) ℓ) (c : Dev nD) :
    final m c (Proc.devRef .tc main_v440) = (extractStridedSlice S1x256x256 ![4, 0, 0] (final m c (Proc.devRef .tc main_arg8)) slices_S7x256x256_S1x256x256_4_0_0 : (⟨S1x256x256, .f32⟩ : BufTy).Contents (Elt F)) := by
  have h := Sage.after_unary (x := main_arg8) (y := main_v440) (ops_Writes (F := F)) 620 (launchContents m c) (by rfl) (by decide +kernel) (by decide +kernel)
  unfold final
  generalize after ops (launchContents m c) = G at h ⊢
  exact h
theorem final_main_v441 (m : (ℓ : Loc nD τ sig) → Buf (Elt F) ℓ) (c : Dev nD) :
    final m c (Proc.devRef .tc main_v441) = shapeCast S256x256 (final m c (Proc.devRef .tc main_v440)) shapeCasts_S1x256x256_S256x256 := by
  have h := Sage.after_reshape (x := main_v440) (y := main_v441) (ops_Writes (F := F)) 621 (launchContents m c) (by rfl) (by decide +kernel) (by decide +kernel)
  unfold final
  generalize after ops (launchContents m c) = G at h ⊢
  exact h
theorem final_main_v442 (m : (ℓ : Loc nD τ sig) → Buf (Elt F) ℓ) (c : Dev nD) :
    final m c (Proc.devRef .tc main_v442) = (Host.dotGeneral dot_S20000x256_S256x256_S20000x256_1_0_0_1_n_n none (final m c (Proc.devRef .tc main_v232)) (final m c (Proc.devRef .tc main_v441)) : (⟨S20000x256, .f32⟩ : BufTy).Contents (Elt F)) := by
  have h := Sage.after_binary (a := main_v232) (b := main_v441) (y := main_v442) (ops_Writes (F := F)) 622 (launchContents m c) (by rfl) (by decide +kernel) (by decide +kernel) (by decide +kernel)
  unfold final
  generalize after ops (launchContents m c) = G at h ⊢
  exact h
theorem final_main_v443 (m : (ℓ : Loc nD τ sig) → Buf (Elt F) ℓ) (c : Dev nD) :
    final m c (Proc.devRef .tc main_v443) = (addf : (⟨S20000x256, .f32⟩ : BufTy).Contents (Elt F) → (⟨S20000x256, .f32⟩ : BufTy).Contents (Elt F) → (⟨S20000x256, .f32⟩ : BufTy).Contents (Elt F)) (final m c (Proc.devRef .tc main_v439)) (final m c (Proc.devRef .tc main_v442)) := by
  have h := Sage.after_binary (a := main_v439) (b := main_v442) (y := main_v443) (ops_Writes (F := F)) 623 (launchContents m c) (by rfl) (by decide +kernel) (by decide +kernel) (by decide +kernel)
  unfold final
  generalize after ops (launchContents m c) = G at h ⊢
  exact h
theorem final_main_c_86 (m : (ℓ : Loc nD τ sig) → Buf (Elt F) ℓ) (c : Dev nD) :
    final m c (Proc.devRef .tc main_c_86) = (constantI S_ 32 0#32) := by
  have h := Sage.after_nullary (y := main_c_86) (ops_Writes (F := F)) 624 (launchContents m c) (by rfl) (by decide +kernel)
  unfold final
  generalize after ops (launchContents m c) = G at h ⊢
  exact h
theorem final_main_v444 (m : (ℓ : Loc nD τ sig) → Buf (Elt F) ℓ) (c : Dev nD) :
    final m c (Proc.devRef .tc main_v444) = (broadcastInDim S400000 ![] bcast_S_S400000 : (⟨S_, .i32⟩ : BufTy).Contents (Elt F) → (⟨S400000, .i32⟩ : BufTy).Contents (Elt F)) (final m c (Proc.devRef .tc main_c_86)) := by
  have h := Sage.after_unary (x := main_c_86) (y := main_v444) (ops_Writes (F := F)) 625 (launchContents m c) (by rfl) (by decide +kernel) (by decide +kernel)
  unfold final
  generalize after ops (launchContents m c) = G at h ⊢
  exact h
theorem final_main_v445 (m : (ℓ : Loc nD τ sig) → Buf (Elt F) ℓ) (c : Dev nD) :
    final m c (Proc.devRef .tc main_v445) = (cmpi .slt : (⟨S400000, .i32⟩ : BufTy).Contents (Elt F) → (⟨S400000, .i32⟩ : BufTy).Contents (Elt F) → (⟨S400000, .i1⟩ : BufTy).Contents (Elt F)) (final m c (Proc.devRef .tc main_arg24)) (final m c (Proc.devRef .tc main_v444)) := by
  have h := Sage.after_binary (a := main_arg24) (b := main_v444) (y := main_v445) (ops_Writes (F := F)) 626 (launchContents m c) (by rfl) (by decide +kernel) (by decide +kernel) (by decide +kernel)
  unfold final
  generalize after ops (launchContents m c) = G at h ⊢
  exact h
theorem final_main_c_87 (m : (ℓ : Loc nD τ sig) → Buf (Elt F) ℓ) (c : Dev nD) :
    final m c (Proc.devRef .tc main_c_87) = (constantI S_ 32 50000#32) := by
  have h := Sage.after_nullary (y := main_c_87) (ops_Writes (F := F)) 627 (launchContents m c) (by rfl) (by decide +kernel)
  unfold final
  generalize after ops (launchContents m c) = G at h ⊢
  exact h
theorem final_main_v446 (m : (ℓ : Loc nD τ sig) → Buf (Elt F) ℓ) (c : Dev nD) :
    final m c (Proc.devRef .tc main_v446) = (broadcastInDim S400000 ![] bcast_S_S400000 : (⟨S_, .i32⟩ : BufTy).Contents (Elt F) → (⟨S400000, .i32⟩ : BufTy).Contents (Elt F)) (final m c (Proc.devRef .tc main_c_87)) := by
  have h := Sage.after_unary (x := main_c_87) (y := main_v446) (ops_Writes (F := F)) 628 (launchContents m c) (by rfl) (by decide +kernel) (by decide +kernel)
  unfold final
  generalize after ops (launchContents m c) = G at h ⊢
  exact h
theorem final_main_v447 (m : (ℓ : Loc nD τ sig) → Buf (Elt F) ℓ) (c : Dev nD) :
    final m c (Proc.devRef .tc main_v447) = (addi : (⟨S400000, .i32⟩ : BufTy).Contents (Elt F) → (⟨S400000, .i32⟩ : BufTy).Contents (Elt F) → (⟨S400000, .i32⟩ : BufTy).Contents (Elt F)) (final m c (Proc.devRef .tc main_arg24)) (final m c (Proc.devRef .tc main_v446)) := by
  have h := Sage.after_binary (a := main_arg24) (b := main_v446) (y := main_v447) (ops_Writes (F := F)) 629 (launchContents m c) (by rfl) (by decide +kernel) (by decide +kernel) (by decide +kernel)
  unfold final
  generalize after ops (launchContents m c) = G at h ⊢
  exact h
theorem final_main_v448 (m : (ℓ : Loc nD τ sig) → Buf (Elt F) ℓ) (c : Dev nD) :
    final m c (Proc.devRef .tc main_v448) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (final m c (Proc.devRef .tc main_v445)) (final m c (Proc.devRef .tc main_v447)) (final m c (Proc.devRef .tc main_arg24)) := by
  have h := Sage.after_ternary (c := main_v445) (a := main_v447) (b := main_arg24) (y := main_v448) (ops_Writes (F := F)) 630 (launchContents m c) (by rfl) (by decide +kernel) (by decide +kernel) (by decide +kernel) (by decide +kernel)
  unfold final
  generalize after ops (launchContents m c) = G at h ⊢
  exact h
theorem final_main_v449 (m : (ℓ : Loc nD τ sig) → Buf (Elt F) ℓ) (c : Dev nD) :
    final m c (Proc.devRef .tc main_v449) = (broadcastInDim S400000x1 ![0] bcast_S400000_S400000x1_0 : (⟨S400000, .i32⟩ : BufTy).Contents (Elt F) → (⟨S400000x1, .i32⟩ : BufTy).Contents (Elt F)) (final m c (Proc.devRef .tc main_v448)) := by
  have h := Sage.after_unary (x := main_v448) (y := main_v449) (ops_Writes (F := F)) 631 (launchContents m c) (by rfl) (by decide +kernel) (by decide +kernel)
  unfold final
  generalize after ops (launchContents m c) = G at h ⊢
  exact h

end Cert.ReferenceIdeal.Hand

end
-- ==== Proof.Ref.Final9.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 9 (operations 633 … 692 of 886): what each result buffer holds when @main has run, one operation back. -/

theorem final_main_v450 (m : (ℓ : Loc nD τ sig) → Buf (Elt F) ℓ) (c : Dev nD) :
    final m c (Proc.devRef .tc main_v450) = (Host.gather gather_S50000x256_S400000x1_S400000x256_1_0_n_n_0_1_1256 (final m c (Proc.devRef .tc main_v252)) (final m c (Proc.devRef .tc main_v449)) : (⟨S400000x256, .f32⟩ : BufTy).Contents (Elt F)) := by
  have h := Sage.after_binary (a := main_v252) (b := main_v449) (y := main_v450) (ops_Writes (F := F)) 632 (launchContents m c) (by rfl) (by decide +kernel) (by decide +kernel) (by decide +kernel)
  unfold final
  generalize after ops (launchContents m c) = G at h ⊢
  exact h
theorem final_main_cst_88 (m : (ℓ : Loc nD τ sig) → Buf (Elt F) ℓ) (c : Dev nD) :
    final m c (Proc.devRef .tc main_cst_88) = (constant S_ .f32 0x00000000#32) := by
  have h := Sage.after_nullary (y := main_cst_88) (ops_Writes (F := F)) 633 (launchContents m c) (by rfl) (by decide +kernel)
  unfold final
  generalize after ops (launchContents m c) = G at h ⊢
  exact h
theorem final_main_v451 (m : (ℓ : Loc nD τ sig) → Buf (Elt F) ℓ) (c : Dev nD) :
    final m c (Proc.devRef .tc main_v451) = (broadcastInDim S20000x256 ![] bcast_S_S20000x256 : (⟨S_, .f32⟩ : BufTy).Contents (Elt F) → (⟨S20000x256, .f32⟩ : BufTy).Contents (Elt F)) (final m c (Proc.devRef .tc main_cst_88)) := by
  have h := Sage.after_unary (x := main_cst_88) (y := main_v451) (ops_Writes (F := F)) 634 (launchContents m c) (by rfl) (by decide +kernel) (by decide +kernel)
  unfold final
  generalize after ops (launchContents m c) = G at h ⊢
  exact h
theorem final_main_v452 (m : (ℓ : Loc nD τ sig) → Buf (Elt F) ℓ) (c : Dev nD) :
    final m c (Proc.devRef .tc main_v452) = (broadcastInDim S400000x1 ![0] bcast_S400000_S400000x1_0 : (⟨S400000, .i32⟩ : BufTy).Contents (Elt F) → (⟨S400000x1, .i32⟩ : BufTy).Contents (Elt F)) (final m c (Proc.devRef .tc main_arg25)) := by
  have h := Sage.after_unary (x := main_arg25) (y := main_v452) (ops_Writes (F := F)) 635 (launchContents m c) (by rfl) (by decide +kernel) (by decide +kernel)
  unfold final
  generalize after ops (launchContents m c) = G at h ⊢
  exact h
theorem final_main_v453 (m : (ℓ : Loc nD τ sig) → Buf (Elt F) ℓ) (c : Dev nD) :
    final m c (Proc.devRef .tc main_v453) = (Host.scatterAdd scatter_S20000x256_S400000x1_S400000x256_1_0_0_1 (final m c (Proc.devRef .tc main_v451)) (final m c (Proc.devRef .tc main_v452)) (final m c (Proc.devRef .tc main_v450)) : (⟨S20000x256, .f32⟩ : BufTy).Contents (Elt F)) := by
  have h := Sage.after_ternary (c := main_v451) (a := main_v452) (b := main_v450) (y := main_v453) (ops_Writes (F := F)) 636 (launchContents m c) (by rfl) (by decide +kernel) (by decide +kernel) (by decide +kernel) (by decide +kernel)
  unfold final
  generalize after ops (launchContents m c) = G at h ⊢
  exact h
theorem final_main_cst_89 (m : (ℓ : Loc nD τ sig) → Buf (Elt F) ℓ) (c : Dev nD) :
    final m c (Proc.devRef .tc main_cst_89) = (constant S_ .f32 0x3F800000#32) := by
  have h := Sage.after_nullary (y := main_cst_89) (ops_Writes (F := F)) 637 (launchContents m c) (by rfl) (by decide +kernel)
  unfold final
  generalize after ops (launchContents m c) = G at h ⊢
  exact h
theorem final_main_v454 (m : (ℓ : Loc nD τ sig) → Buf (Elt F) ℓ) (c : Dev nD) :
    final m c (Proc.devRef .tc main_v454) = (broadcastInDim S400000x1 ![] bcast_S_S400000x1 : (⟨S_, .f32⟩ : BufTy).Contents (Elt F) → (⟨S400000x1, .f32⟩ : BufTy).Contents (Elt F)) (final m c (Proc.devRef .tc main_cst_89)) := by
  have h := Sage.after_unary (x := main_cst_89) (y := main_v454) (ops_Writes (F := F)) 638 (launchContents m c) (by rfl) (by decide +kernel) (by decide +kernel)
  unfold final
  generalize after ops (launchContents m c) = G at h ⊢
  exact h
theorem final_main_cst_90 (m : (ℓ : Loc nD τ sig) → Buf (Elt F) ℓ) (c : Dev nD) :
    final m c (Proc.devRef .tc main_cst_90) = (constant S_ .f32 0x00000000#32) := by
  have h := Sage.after_nullary (y := main_cst_90) (ops_Writes (F := F)) 639 (launchContents m c) (by rfl) (by decide +kernel)
  unfold final
  generalize after ops (launchContents m c) = G at h ⊢
  exact h
theorem final_main_v455 (m : (ℓ : Loc nD τ sig) → Buf (Elt F) ℓ) (c : Dev nD) :
    final m c (Proc.devRef .tc main_v455) = (broadcastInDim S20000x1 ![] bcast_S_S20000x1 : (⟨S_, .f32⟩ : BufTy).Contents (Elt F) → (⟨S20000x1, .f32⟩ : BufTy).Contents (Elt F)) (final m c (Proc.devRef .tc main_cst_90)) := by
  have h := Sage.after_unary (x := main_cst_90) (y := main_v455) (ops_Writes (F := F)) 640 (launchContents m c) (by rfl) (by decide +kernel) (by decide +kernel)
  unfold final
  generalize after ops (launchContents m c) = G at h ⊢
  exact h
theorem final_main_v456 (m : (ℓ : Loc nD τ sig) → Buf (Elt F) ℓ) (c : Dev nD) :
    final m c (Proc.devRef .tc main_v456) = (broadcastInDim S400000x1 ![0] bcast_S400000_S400000x1_0 : (⟨S400000, .i32⟩ : BufTy).Contents (Elt F) → (⟨S400000x1, .i32⟩ : BufTy).Contents (Elt F)) (final m c (Proc.devRef .tc main_arg25)) := by
  have h := Sage.after_unary (x := main_arg25) (y := main_v456) (ops_Writes (F := F)) 641 (launchContents m c) (by rfl) (by decide +kernel) (by decide +kernel)
  unfold final
  generalize after ops (launchContents m c) = G at h ⊢
  exact h
theorem final_main_v457 (m : (ℓ : Loc nD τ sig) → Buf (Elt F) ℓ) (c : Dev nD) :
    final m c (Proc.devRef .tc main_v457) = (Host.scatterAdd scatter_S20000x1_S400000x1_S400000x1_1_0_0_1 (final m c (Proc.devRef .tc main_v455)) (final m c (Proc.devRef .tc main_v456)) (final m c (Proc.devRef .tc main_v454)) : (⟨S20000x1, .f32⟩ : BufTy).Contents (Elt F)) := by
  have h := Sage.after_ternary (c := main_v455) (a := main_v456) (b := main_v454) (y := main_v457) (ops_Writes (F := F)) 642 (launchContents m c) (by rfl) (by decide +kernel) (by decide +kernel) (by decide +kernel) (by decide +kernel)
  unfold final
  generalize after ops (launchContents m c) = G at h ⊢
  exact h
theorem final_main_cst_91 (m : (ℓ : Loc nD τ sig) → Buf (Elt F) ℓ) (c : Dev nD) :
    final m c (Proc.devRef .tc main_cst_91) = (constant S_ .f32 0x3F800000#32) := by
  have h := Sage.after_nullary (y := main_cst_91) (ops_Writes (F := F)) 643 (launchContents m c) (by rfl) (by decide +kernel)
  unfold final
  generalize after ops (launchContents m c) = G at h ⊢
  exact h
theorem final_main_v458 (m : (ℓ : Loc nD τ sig) → Buf (Elt F) ℓ) (c : Dev nD) :
    final m c (Proc.devRef .tc main_v458) = (broadcastInDim S20000x1 ![] bcast_S_S20000x1 : (⟨S_, .f32⟩ : BufTy).Contents (Elt F) → (⟨S20000x1, .f32⟩ : BufTy).Contents (Elt F)) (final m c (Proc.devRef .tc main_cst_91)) := by
  have h := Sage.after_unary (x := main_cst_91) (y := main_v458) (ops_Writes (F := F)) 644 (launchContents m c) (by rfl) (by decide +kernel) (by decide +kernel)
  unfold final
  generalize after ops (launchContents m c) = G at h ⊢
  exact h
theorem final_main_v459 (m : (ℓ : Loc nD τ sig) → Buf (Elt F) ℓ) (c : Dev nD) :
    final m c (Proc.devRef .tc main_v459) = (maximumf : (⟨S20000x1, .f32⟩ : BufTy).Contents (Elt F) → (⟨S20000x1, .f32⟩ : BufTy).Contents (Elt F) → (⟨S20000x1, .f32⟩ : BufTy).Contents (Elt F)) (final m c (Proc.devRef .tc main_v457)) (final m c (Proc.devRef .tc main_v458)) := by
  have h := Sage.after_binary (a := main_v457) (b := main_v458) (y := main_v459) (ops_Writes (F := F)) 645 (launchContents m c) (by rfl) (by decide +kernel) (by decide +kernel) (by decide +kernel)
  unfold final
  generalize after ops (launchContents m c) = G at h ⊢
  exact h
theorem final_main_v460 (m : (ℓ : Loc nD τ sig) → Buf (Elt F) ℓ) (c : Dev nD) :
    final m c (Proc.devRef .tc main_v460) = (broadcastInDim S20000x256 ![0, 1] bcast_S20000x1_S20000x256_0_1 : (⟨S20000x1, .f32⟩ : BufTy).Contents (Elt F) → (⟨S20000x256, .f32⟩ : BufTy).Contents (Elt F)) (final m c (Proc.devRef .tc main_v459)) := by
  have h := Sage.after_unary (x := main_v459) (y := main_v460) (ops_Writes (F := F)) 646 (launchContents m c) (by rfl) (by decide +kernel) (by decide +kernel)
  unfold final
  generalize after ops (launchContents m c) = G at h ⊢
  exact h
theorem final_main_v461 (m : (ℓ : Loc nD τ sig) → Buf (Elt F) ℓ) (c : Dev nD) :
    final m c (Proc.devRef .tc main_v461) = (Host.divf : (⟨S20000x256, .f32⟩ : BufTy).Contents (Elt F) → (⟨S20000x256, .f32⟩ : BufTy).Contents (Elt F) → (⟨S20000x256, .f32⟩ : BufTy).Contents (Elt F)) (final m c (Proc.devRef .tc main_v453)) (final m c (Proc.devRef .tc main_v460)) := by
  have h := Sage.after_binary (a := main_v453) (b := main_v460) (y := main_v461) (ops_Writes (F := F)) 647 (launchContents m c) (by rfl) (by decide +kernel) (by decide +kernel) (by decide +kernel)
  unfold final
  generalize after ops (launchContents m c) = G at h ⊢
  exact h
theorem final_main_v462 (m : (ℓ : Loc nD τ sig) → Buf (Elt F) ℓ) (c : Dev nD) :
    final m c (Proc.devRef .tc main_v462) = (extractStridedSlice S1x256x256 ![5, 0, 0] (final m c (Proc.devRef .tc main_arg7)) slices_S7x256x256_S1x256x256_5_0_0 : (⟨S1x256x256, .f32⟩ : BufTy).Contents (Elt F)) := by
  have h := Sage.after_unary (x := main_arg7) (y := main_v462) (ops_Writes (F := F)) 648 (launchContents m c) (by rfl) (by decide +kernel) (by decide +kernel)
  unfold final
  generalize after ops (launchContents m c) = G at h ⊢
  exact h
theorem final_main_v463 (m : (ℓ : Loc nD τ sig) → Buf (Elt F) ℓ) (c : Dev nD) :
    final m c (Proc.devRef .tc main_v463) = shapeCast S256x256 (final m c (Proc.devRef .tc main_v462)) shapeCasts_S1x256x256_S256x256 := by
  have h := Sage.after_reshape (x := main_v462) (y := main_v463) (ops_Writes (F := F)) 649 (launchContents m c) (by rfl) (by decide +kernel) (by decide +kernel)
  unfold final
  generalize after ops (launchContents m c) = G at h ⊢
  exact h
theorem final_main_v464 (m : (ℓ : Loc nD τ sig) → Buf (Elt F) ℓ) (c : Dev nD) :
    final m c (Proc.devRef .tc main_v464) = (Host.dotGeneral dot_S20000x256_S256x256_S20000x256_1_0_0_1_n_n none (final m c (Proc.devRef .tc main_v461)) (final m c (Proc.devRef .tc main_v463)) : (⟨S20000x256, .f32⟩ : BufTy).Contents (Elt F)) := by
  have h := Sage.after_binary (a := main_v461) (b := main_v463) (y := main_v464) (ops_Writes (F := F)) 650 (launchContents m c) (by rfl) (by decide +kernel) (by decide +kernel) (by decide +kernel)
  unfold final
  generalize after ops (launchContents m c) = G at h ⊢
  exact h
theorem final_main_v465 (m : (ℓ : Loc nD τ sig) → Buf (Elt F) ℓ) (c : Dev nD) :
    final m c (Proc.devRef .tc main_v465) = (extractStridedSlice S1x256 ![5, 0] (final m c (Proc.devRef .tc main_arg9)) slices_S7x256_S1x256_5_0 : (⟨S1x256, .f32⟩ : BufTy).Contents (Elt F)) := by
  have h := Sage.after_unary (x := main_arg9) (y := main_v465) (ops_Writes (F := F)) 651 (launchContents m c) (by rfl) (by decide +kernel) (by decide +kernel)
  unfold final
  generalize after ops (launchContents m c) = G at h ⊢
  exact h
theorem final_main_v466 (m : (ℓ : Loc nD τ sig) → Buf (Elt F) ℓ) (c : Dev nD) :
    final m c (Proc.devRef .tc main_v466) = shapeCast S256 (final m c (Proc.devRef .tc main_v465)) shapeCasts_S1x256_S256 := by
  have h := Sage.after_reshape (x := main_v465) (y := main_v466) (ops_Writes (F := F)) 652 (launchContents m c) (by rfl) (by decide +kernel) (by decide +kernel)
  unfold final
  generalize after ops (launchContents m c) = G at h ⊢
  exact h
theorem final_main_v467 (m : (ℓ : Loc nD τ sig) → Buf (Elt F) ℓ) (c : Dev nD) :
    final m c (Proc.devRef .tc main_v467) = (broadcastInDim S1x256 ![1] bcast_S256_S1x256_1 : (⟨S256, .f32⟩ : BufTy).Contents (Elt F) → (⟨S1x256, .f32⟩ : BufTy).Contents (Elt F)) (final m c (Proc.devRef .tc main_v466)) := by
  have h := Sage.after_unary (x := main_v466) (y := main_v467) (ops_Writes (F := F)) 653 (launchContents m c) (by rfl) (by decide +kernel) (by decide +kernel)
  unfold final
  generalize after ops (launchContents m c) = G at h ⊢
  exact h
theorem final_main_v468 (m : (ℓ : Loc nD τ sig) → Buf (Elt F) ℓ) (c : Dev nD) :
    final m c (Proc.devRef .tc main_v468) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v467)) := by
  have h := Sage.after_unary (x := main_v467) (y := main_v468) (ops_Writes (F := F)) 654 (launchContents m c) (by rfl) (by decide +kernel) (by decide +kernel)
  unfold final
  generalize after ops (launchContents m c) = G at h ⊢
  exact h
theorem final_main_v469 (m : (ℓ : Loc nD τ sig) → Buf (Elt F) ℓ) (c : Dev nD) :
    final m c (Proc.devRef .tc main_v469) = (addf : (⟨S20000x256, .f32⟩ : BufTy).Contents (Elt F) → (⟨S20000x256, .f32⟩ : BufTy).Contents (Elt F) → (⟨S20000x256, .f32⟩ : BufTy).Contents (Elt F)) (final m c (Proc.devRef .tc main_v464)) (final m c (Proc.devRef .tc main_v468)) := by
  have h := Sage.after_binary (a := main_v464) (b := main_v468) (y := main_v469) (ops_Writes (F := F)) 655 (launchContents m c) (by rfl) (by decide +kernel) (by decide +kernel) (by decide +kernel)
  unfold final
  generalize after ops (launchContents m c) = G at h ⊢
  exact h
theorem final_main_v470 (m : (ℓ : Loc nD τ sig) → Buf (Elt F) ℓ) (c : Dev nD) :
    final m c (Proc.devRef .tc main_v470) = (extractStridedSlice S1x256x256 ![5, 0, 0] (final m c (Proc.devRef .tc main_arg8)) slices_S7x256x256_S1x256x256_5_0_0 : (⟨S1x256x256, .f32⟩ : BufTy).Contents (Elt F)) := by
  have h := Sage.after_unary (x := main_arg8) (y := main_v470) (ops_Writes (F := F)) 656 (launchContents m c) (by rfl) (by decide +kernel) (by decide +kernel)
  unfold final
  generalize after ops (launchContents m c) = G at h ⊢
  exact h
theorem final_main_v471 (m : (ℓ : Loc nD τ sig) → Buf (Elt F) ℓ) (c : Dev nD) :
    final m c (Proc.devRef .tc main_v471) = shapeCast S256x256 (final m c (Proc.devRef .tc main_v470)) shapeCasts_S1x256x256_S256x256 := by
  have h := Sage.after_reshape (x := main_v470) (y := main_v471) (ops_Writes (F := F)) 657 (launchContents m c) (by rfl) (by decide +kernel) (by decide +kernel)
  unfold final
  generalize after ops (launchContents m c) = G at h ⊢
  exact h
theorem final_main_v472 (m : (ℓ : Loc nD τ sig) → Buf (Elt F) ℓ) (c : Dev nD) :
    final m c (Proc.devRef .tc main_v472) = (Host.dotGeneral dot_S20000x256_S256x256_S20000x256_1_0_0_1_n_n none (final m c (Proc.devRef .tc main_v232)) (final m c (Proc.devRef .tc main_v471)) : (⟨S20000x256, .f32⟩ : BufTy).Contents (Elt F)) := by
  have h := Sage.after_binary (a := main_v232) (b := main_v471) (y := main_v472) (ops_Writes (F := F)) 658 (launchContents m c) (by rfl) (by decide +kernel) (by decide +kernel) (by decide +kernel)
  unfold final
  generalize after ops (launchContents m c) = G at h ⊢
  exact h
theorem final_main_v473 (m : (ℓ : Loc nD τ sig) → Buf (Elt F) ℓ) (c : Dev nD) :
    final m c (Proc.devRef .tc main_v473) = (addf : (⟨S20000x256, .f32⟩ : BufTy).Contents (Elt F) → (⟨S20000x256, .f32⟩ : BufTy).Contents (Elt F) → (⟨S20000x256, .f32⟩ : BufTy).Contents (Elt F)) (final m c (Proc.devRef .tc main_v469)) (final m c (Proc.devRef .tc main_v472)) := by
  have h := Sage.after_binary (a := main_v469) (b := main_v472) (y := main_v473) (ops_Writes (F := F)) 659 (launchContents m c) (by rfl) (by decide +kernel) (by decide +kernel) (by decide +kernel)
  unfold final
  generalize after ops (launchContents m c) = G at h ⊢
  exact h
theorem final_main_v474 (m : (ℓ : Loc nD τ sig) → Buf (Elt F) ℓ) (c : Dev nD) :
    final m c (Proc.devRef .tc main_v474) = (addf : (⟨S20000x256, .f32⟩ : BufTy).Contents (Elt F) → (⟨S20000x256, .f32⟩ : BufTy).Contents (Elt F) → (⟨S20000x256, .f32⟩ : BufTy).Contents (Elt F)) (final m c (Proc.devRef .tc main_v443)) (final m c (Proc.devRef .tc main_v473)) := by
  have h := Sage.after_binary (a := main_v443) (b := main_v473) (y := main_v474) (ops_Writes (F := F)) 660 (launchContents m c) (by rfl) (by decide +kernel) (by decide +kernel) (by decide +kernel)
  unfold final
  generalize after ops (launchContents m c) = G at h ⊢
  exact h
theorem final_main_c_92 (m : (ℓ : Loc nD τ sig) → Buf (Elt F) ℓ) (c : Dev nD) :
    final m c (Proc.devRef .tc main_c_92) = (constantI S_ 32 0#32) := by
  have h := Sage.after_nullary (y := main_c_92) (ops_Writes (F := F)) 661 (launchContents m c) (by rfl) (by decide +kernel)
  unfold final
  generalize after ops (launchContents m c) = G at h ⊢
  exact h
theorem final_main_v475 (m : (ℓ : Loc nD τ sig) → Buf (Elt F) ℓ) (c : Dev nD) :
    final m c (Proc.devRef .tc main_v475) = (broadcastInDim S150000 ![] bcast_S_S150000 : (⟨S_, .i32⟩ : BufTy).Contents (Elt F) → (⟨S150000, .i32⟩ : BufTy).Contents (Elt F)) (final m c (Proc.devRef .tc main_c_92)) := by
  have h := Sage.after_unary (x := main_c_92) (y := main_v475) (ops_Writes (F := F)) 662 (launchContents m c) (by rfl) (by decide +kernel) (by decide +kernel)
  unfold final
  generalize after ops (launchContents m c) = G at h ⊢
  exact h
theorem final_main_v476 (m : (ℓ : Loc nD τ sig) → Buf (Elt F) ℓ) (c : Dev nD) :
    final m c (Proc.devRef .tc main_v476) = (cmpi .slt : (⟨S150000, .i32⟩ : BufTy).Contents (Elt F) → (⟨S150000, .i32⟩ : BufTy).Contents (Elt F) → (⟨S150000, .i1⟩ : BufTy).Contents (Elt F)) (final m c (Proc.devRef .tc main_arg26)) (final m c (Proc.devRef .tc main_v475)) := by
  have h := Sage.after_binary (a := main_arg26) (b := main_v475) (y := main_v476) (ops_Writes (F := F)) 663 (launchContents m c) (by rfl) (by decide +kernel) (by decide +kernel) (by decide +kernel)
  unfold final
  generalize after ops (launchContents m c) = G at h ⊢
  exact h
theorem final_main_c_93 (m : (ℓ : Loc nD τ sig) → Buf (Elt F) ℓ) (c : Dev nD) :
    final m c (Proc.devRef .tc main_c_93) = (constantI S_ 32 3000#32) := by
  have h := Sage.after_nullary (y := main_c_93) (ops_Writes (F := F)) 664 (launchContents m c) (by rfl) (by decide +kernel)
  unfold final
  generalize after ops (launchContents m c) = G at h ⊢
  exact h
theorem final_main_v477 (m : (ℓ : Loc nD τ sig) → Buf (Elt F) ℓ) (c : Dev nD) :
    final m c (Proc.devRef .tc main_v477) = (broadcastInDim S150000 ![] bcast_S_S150000 : (⟨S_, .i32⟩ : BufTy).Contents (Elt F) → (⟨S150000, .i32⟩ : BufTy).Contents (Elt F)) (final m c (Proc.devRef .tc main_c_93)) := by
  have h := Sage.after_unary (x := main_c_93) (y := main_v477) (ops_Writes (F := F)) 665 (launchContents m c) (by rfl) (by decide +kernel) (by decide +kernel)
  unfold final
  generalize after ops (launchContents m c) = G at h ⊢
  exact h
theorem final_main_v478 (m : (ℓ : Loc nD τ sig) → Buf (Elt F) ℓ) (c : Dev nD) :
    final m c (Proc.devRef .tc main_v478) = (addi : (⟨S150000, .i32⟩ : BufTy).Contents (Elt F) → (⟨S150000, .i32⟩ : BufTy).Contents (Elt F) → (⟨S150000, .i32⟩ : BufTy).Contents (Elt F)) (final m c (Proc.devRef .tc main_arg26)) (final m c (Proc.devRef .tc main_v477)) := by
  have h := Sage.after_binary (a := main_arg26) (b := main_v477) (y := main_v478) (ops_Writes (F := F)) 666 (launchContents m c) (by rfl) (by decide +kernel) (by decide +kernel) (by decide +kernel)
  unfold final
  generalize after ops (launchContents m c) = G at h ⊢
  exact h
theorem final_main_v479 (m : (ℓ : Loc nD τ sig) → Buf (Elt F) ℓ) (c : Dev nD) :
    final m c (Proc.devRef .tc main_v479) = (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) (final m c (Proc.devRef .tc main_v476)) (final m c (Proc.devRef .tc main_v478)) (final m c (Proc.devRef .tc main_arg26)) := by
  have h := Sage.after_ternary (c := main_v476) (a := main_v478) (b := main_arg26) (y := main_v479) (ops_Writes (F := F)) 667 (launchContents m c) (by rfl) (by decide +kernel) (by decide +kernel) (by decide +kernel) (by decide +kernel)
  unfold final
  generalize after ops (launchContents m c) = G at h ⊢
  exact h
theorem final_main_v480 (m : (ℓ : Loc nD τ sig) → Buf (Elt F) ℓ) (c : Dev nD) :
    final m c (Proc.devRef .tc main_v480) = (broadcastInDim S150000x1 ![0] bcast_S150000_S150000x1_0 : (⟨S150000, .i32⟩ : BufTy).Contents (Elt F) → (⟨S150000x1, .i32⟩ : BufTy).Contents (Elt F)) (final m c (Proc.devRef .tc main_v479)) := by
  have h := Sage.after_unary (x := main_v479) (y := main_v480) (ops_Writes (F := F)) 668 (launchContents m c) (by rfl) (by decide +kernel) (by decide +kernel)
  unfold final
  generalize after ops (launchContents m c) = G at h ⊢
  exact h
theorem final_main_v481 (m : (ℓ : Loc nD τ sig) → Buf (Elt F) ℓ) (c : Dev nD) :
    final m c (Proc.devRef .tc main_v481) = (Host.gather gather_S3000x256_S150000x1_S150000x256_1_0_n_n_0_1_1256 (final m c (Proc.devRef .tc main_v292)) (final m c (Proc.devRef .tc main_v480)) : (⟨S150000x256, .f32⟩ : BufTy).Contents (Elt F)) := by
  have h := Sage.after_binary (a := main_v292) (b := main_v480) (y := main_v481) (ops_Writes (F := F)) 669 (launchContents m c) (by rfl) (by decide +kernel) (by decide +kernel) (by decide +kernel)
  unfold final
  generalize after ops (launchContents m c) = G at h ⊢
  exact h
theorem final_main_cst_94 (m : (ℓ : Loc nD τ sig) → Buf (Elt F) ℓ) (c : Dev nD) :
    final m c (Proc.devRef .tc main_cst_94) = (constant S_ .f32 0x00000000#32) := by
  have h := Sage.after_nullary (y := main_cst_94) (ops_Writes (F := F)) 670 (launchContents m c) (by rfl) (by decide +kernel)
  unfold final
  generalize after ops (launchContents m c) = G at h ⊢
  exact h
theorem final_main_v482 (m : (ℓ : Loc nD τ sig) → Buf (Elt F) ℓ) (c : Dev nD) :
    final m c (Proc.devRef .tc main_v482) = (broadcastInDim S50000x256 ![] bcast_S_S50000x256 : (⟨S_, .f32⟩ : BufTy).Contents (Elt F) → (⟨S50000x256, .f32⟩ : BufTy).Contents (Elt F)) (final m c (Proc.devRef .tc main_cst_94)) := by
  have h := Sage.after_unary (x := main_cst_94) (y := main_v482) (ops_Writes (F := F)) 671 (launchContents m c) (by rfl) (by decide +kernel) (by decide +kernel)
  unfold final
  generalize after ops (launchContents m c) = G at h ⊢
  exact h
theorem final_main_v483 (m : (ℓ : Loc nD τ sig) → Buf (Elt F) ℓ) (c : Dev nD) :
    final m c (Proc.devRef .tc main_v483) = (broadcastInDim S150000x1 ![0] bcast_S150000_S150000x1_0 : (⟨S150000, .i32⟩ : BufTy).Contents (Elt F) → (⟨S150000x1, .i32⟩ : BufTy).Contents (Elt F)) (final m c (Proc.devRef .tc main_arg27)) := by
  have h := Sage.after_unary (x := main_arg27) (y := main_v483) (ops_Writes (F := F)) 672 (launchContents m c) (by rfl) (by decide +kernel) (by decide +kernel)
  unfold final
  generalize after ops (launchContents m c) = G at h ⊢
  exact h
theorem final_main_v484 (m : (ℓ : Loc nD τ sig) → Buf (Elt F) ℓ) (c : Dev nD) :
    final m c (Proc.devRef .tc main_v484) = (Host.scatterAdd scatter_S50000x256_S150000x1_S150000x256_1_0_0_1 (final m c (Proc.devRef .tc main_v482)) (final m c (Proc.devRef .tc main_v483)) (final m c (Proc.devRef .tc main_v481)) : (⟨S50000x256, .f32⟩ : BufTy).Contents (Elt F)) := by
  have h := Sage.after_ternary (c := main_v482) (a := main_v483) (b := main_v481) (y := main_v484) (ops_Writes (F := F)) 673 (launchContents m c) (by rfl) (by decide +kernel) (by decide +kernel) (by decide +kernel) (by decide +kernel)
  unfold final
  generalize after ops (launchContents m c) = G at h ⊢
  exact h
theorem final_main_cst_95 (m : (ℓ : Loc nD τ sig) → Buf (Elt F) ℓ) (c : Dev nD) :
    final m c (Proc.devRef .tc main_cst_95) = (constant S_ .f32 0x3F800000#32) := by
  have h := Sage.after_nullary (y := main_cst_95) (ops_Writes (F := F)) 674 (launchContents m c) (by rfl) (by decide +kernel)
  unfold final
  generalize after ops (launchContents m c) = G at h ⊢
  exact h
theorem final_main_v485 (m : (ℓ : Loc nD τ sig) → Buf (Elt F) ℓ) (c : Dev nD) :
    final m c (Proc.devRef .tc main_v485) = (broadcastInDim S150000x1 ![] bcast_S_S150000x1 : (⟨S_, .f32⟩ : BufTy).Contents (Elt F) → (⟨S150000x1, .f32⟩ : BufTy).Contents (Elt F)) (final m c (Proc.devRef .tc main_cst_95)) := by
  have h := Sage.after_unary (x := main_cst_95) (y := main_v485) (ops_Writes (F := F)) 675 (launchContents m c) (by rfl) (by decide +kernel) (by decide +kernel)
  unfold final
  generalize after ops (launchContents m c) = G at h ⊢
  exact h
theorem final_main_cst_96 (m : (ℓ : Loc nD τ sig) → Buf (Elt F) ℓ) (c : Dev nD) :
    final m c (Proc.devRef .tc main_cst_96) = (constant S_ .f32 0x00000000#32) := by
  have h := Sage.after_nullary (y := main_cst_96) (ops_Writes (F := F)) 676 (launchContents m c) (by rfl) (by decide +kernel)
  unfold final
  generalize after ops (launchContents m c) = G at h ⊢
  exact h
theorem final_main_v486 (m : (ℓ : Loc nD τ sig) → Buf (Elt F) ℓ) (c : Dev nD) :
    final m c (Proc.devRef .tc main_v486) = (broadcastInDim S50000x1 ![] bcast_S_S50000x1 : (⟨S_, .f32⟩ : BufTy).Contents (Elt F) → (⟨S50000x1, .f32⟩ : BufTy).Contents (Elt F)) (final m c (Proc.devRef .tc main_cst_96)) := by
  have h := Sage.after_unary (x := main_cst_96) (y := main_v486) (ops_Writes (F := F)) 677 (launchContents m c) (by rfl) (by decide +kernel) (by decide +kernel)
  unfold final
  generalize after ops (launchContents m c) = G at h ⊢
  exact h
theorem final_main_v487 (m : (ℓ : Loc nD τ sig) → Buf (Elt F) ℓ) (c : Dev nD) :
    final m c (Proc.devRef .tc main_v487) = (broadcastInDim S150000x1 ![0] bcast_S150000_S150000x1_0 : (⟨S150000, .i32⟩ : BufTy).Contents (Elt F) → (⟨S150000x1, .i32⟩ : BufTy).Contents (Elt F)) (final m c (Proc.devRef .tc main_arg27)) := by
  have h := Sage.after_unary (x := main_arg27) (y := main_v487) (ops_Writes (F := F)) 678 (launchContents m c) (by rfl) (by decide +kernel) (by decide +kernel)
  unfold final
  generalize after ops (launchContents m c) = G at h ⊢
  exact h
theorem final_main_v488 (m : (ℓ : Loc nD τ sig) → Buf (Elt F) ℓ) (c : Dev nD) :
    final m c (Proc.devRef .tc main_v488) = (Host.scatterAdd scatter_S50000x1_S150000x1_S150000x1_1_0_0_1 (final m c (Proc.devRef .tc main_v486)) (final m c (Proc.devRef .tc main_v487)) (final m c (Proc.devRef .tc main_v485)) : (⟨S50000x1, .f32⟩ : BufTy).Contents (Elt F)) := by
  have h := Sage.after_ternary (c := main_v486) (a := main_v487) (b := main_v485) (y := main_v488) (ops_Writes (F := F)) 679 (launchContents m c) (by rfl) (by decide +kernel) (by decide +kernel) (by decide +kernel) (by decide +kernel)
  unfold final
  generalize after ops (launchContents m c) = G at h ⊢
  exact h
theorem final_main_cst_97 (m : (ℓ : Loc nD τ sig) → Buf (Elt F) ℓ) (c : Dev nD) :
    final m c (Proc.devRef .tc main_cst_97) = (constant S_ .f32 0x3F800000#32) := by
  have h := Sage.after_nullary (y := main_cst_97) (ops_Writes (F := F)) 680 (launchContents m c) (by rfl) (by decide +kernel)
  unfold final
  generalize after ops (launchContents m c) = G at h ⊢
  exact h
theorem final_main_v489 (m : (ℓ : Loc nD τ sig) → Buf (Elt F) ℓ) (c : Dev nD) :
    final m c (Proc.devRef .tc main_v489) = (broadcastInDim S50000x1 ![] bcast_S_S50000x1 : (⟨S_, .f32⟩ : BufTy).Contents (Elt F) → (⟨S50000x1, .f32⟩ : BufTy).Contents (Elt F)) (final m c (Proc.devRef .tc main_cst_97)) := by
  have h := Sage.after_unary (x := main_cst_97) (y := main_v489) (ops_Writes (F := F)) 681 (launchContents m c) (by rfl) (by decide +kernel) (by decide +kernel)
  unfold final
  generalize after ops (launchContents m c) = G at h ⊢
  exact h
theorem final_main_v490 (m : (ℓ : Loc nD τ sig) → Buf (Elt F) ℓ) (c : Dev nD) :
    final m c (Proc.devRef .tc main_v490) = (maximumf : (⟨S50000x1, .f32⟩ : BufTy).Contents (Elt F) → (⟨S50000x1, .f32⟩ : BufTy).Contents (Elt F) → (⟨S50000x1, .f32⟩ : BufTy).Contents (Elt F)) (final m c (Proc.devRef .tc main_v488)) (final m c (Proc.devRef .tc main_v489)) := by
  have h := Sage.after_binary (a := main_v488) (b := main_v489) (y := main_v490) (ops_Writes (F := F)) 682 (launchContents m c) (by rfl) (by decide +kernel) (by decide +kernel) (by decide +kernel)
  unfold final
  generalize after ops (launchContents m c) = G at h ⊢
  exact h
theorem final_main_v491 (m : (ℓ : Loc nD τ sig) → Buf (Elt F) ℓ) (c : Dev nD) :
    final m c (Proc.devRef .tc main_v491) = (broadcastInDim S50000x256 ![0, 1] bcast_S50000x1_S50000x256_0_1 : (⟨S50000x1, .f32⟩ : BufTy).Contents (Elt F) → (⟨S50000x256, .f32⟩ : BufTy).Contents (Elt F)) (final m c (Proc.devRef .tc main_v490)) := by
  have h := Sage.after_unary (x := main_v490) (y := main_v491) (ops_Writes (F := F)) 683 (launchContents m c) (by rfl) (by decide +kernel) (by decide +kernel)
  unfold final
  generalize after ops (launchContents m c) = G at h ⊢
  exact h
theorem final_main_v492 (m : (ℓ : Loc nD τ sig) → Buf (Elt F) ℓ) (c : Dev nD) :
    final m c (Proc.devRef .tc main_v492) = (Host.divf : (⟨S50000x256, .f32⟩ : BufTy).Contents (Elt F) → (⟨S50000x256, .f32⟩ : BufTy).Contents (Elt F) → (⟨S50000x256, .f32⟩ : BufTy).Contents (Elt F)) (final m c (Proc.devRef .tc main_v484)) (final m c (Proc.devRef .tc main_v491)) := by
  have h := Sage.after_binary (a := main_v484) (b := main_v491) (y := main_v492) (ops_Writes (F := F)) 684 (launchContents m c) (by rfl) (by decide +kernel) (by decide +kernel) (by decide +kernel)
  unfold final
  generalize after ops (launchContents m c) = G at h ⊢
  exact h
theorem final_main_v493 (m : (ℓ : Loc nD τ sig) → Buf (Elt F) ℓ) (c : Dev nD) :
    final m c (Proc.devRef .tc main_v493) = (extractStridedSlice S1x256x256 ![6, 0, 0] (final m c (Proc.devRef .tc main_arg7)) slices_S7x256x256_S1x256x256_6_0_0 : (⟨S1x256x256, .f32⟩ : BufTy).Contents (Elt F)) := by
  have h := Sage.after_unary (x := main_arg7) (y := main_v493) (ops_Writes (F := F)) 685 (launchContents m c) (by rfl) (by decide +kernel) (by decide +kernel)
  unfold final
  generalize after ops (launchContents m c) = G at h ⊢
  exact h
theorem final_main_v494 (m : (ℓ : Loc nD τ sig) → Buf (Elt F) ℓ) (c : Dev nD) :
    final m c (Proc.devRef .tc main_v494) = shapeCast S256x256 (final m c (Proc.devRef .tc main_v493)) shapeCasts_S1x256x256_S256x256 := by
  have h := Sage.after_reshape (x := main_v493) (y := main_v494) (ops_Writes (F := F)) 686 (launchContents m c) (by rfl) (by decide +kernel) (by decide +kernel)
  unfold final
  generalize after ops (launchContents m c) = G at h ⊢
  exact h
theorem final_main_v495 (m : (ℓ : Loc nD τ sig) → Buf (Elt F) ℓ) (c : Dev nD) :
    final m c (Proc.devRef .tc main_v495) = (Host.dotGeneral dot_S50000x256_S256x256_S50000x256_1_0_0_1_n_n none (final m c (Proc.devRef .tc main_v492)) (final m c (Proc.devRef .tc main_v494)) : (⟨S50000x256, .f32⟩ : BufTy).Contents (Elt F)) := by
  have h := Sage.after_binary (a := main_v492) (b := main_v494) (y := main_v495) (ops_Writes (F := F)) 687 (launchContents m c) (by rfl) (by decide +kernel) (by decide +kernel) (by decide +kernel)
  unfold final
  generalize after ops (launchContents m c) = G at h ⊢
  exact h
theorem final_main_v496 (m : (ℓ : Loc nD τ sig) → Buf (Elt F) ℓ) (c : Dev nD) :
    final m c (Proc.devRef .tc main_v496) = (extractStridedSlice S1x256 ![6, 0] (final m c (Proc.devRef .tc main_arg9)) slices_S7x256_S1x256_6_0 : (⟨S1x256, .f32⟩ : BufTy).Contents (Elt F)) := by
  have h := Sage.after_unary (x := main_arg9) (y := main_v496) (ops_Writes (F := F)) 688 (launchContents m c) (by rfl) (by decide +kernel) (by decide +kernel)
  unfold final
  generalize after ops (launchContents m c) = G at h ⊢
  exact h
theorem final_main_v497 (m : (ℓ : Loc nD τ sig) → Buf (Elt F) ℓ) (c : Dev nD) :
    final m c (Proc.devRef .tc main_v497) = shapeCast S256 (final m c (Proc.devRef .tc main_v496)) shapeCasts_S1x256_S256 := by
  have h := Sage.after_reshape (x := main_v496) (y := main_v497) (ops_Writes (F := F)) 689 (launchContents m c) (by rfl) (by decide +kernel) (by decide +kernel)
  unfold final
  generalize after ops (launchContents m c) = G at h ⊢
  exact h
theorem final_main_v498 (m : (ℓ : Loc nD τ sig) → Buf (Elt F) ℓ) (c : Dev nD) :
    final m c (Proc.devRef .tc main_v498) = (broadcastInDim S1x256 ![1] bcast_S256_S1x256_1 : (⟨S256, .f32⟩ : BufTy).Contents (Elt F) → (⟨S1x256, .f32⟩ : BufTy).Contents (Elt F)) (final m c (Proc.devRef .tc main_v497)) := by
  have h := Sage.after_unary (x := main_v497) (y := main_v498) (ops_Writes (F := F)) 690 (launchContents m c) (by rfl) (by decide +kernel) (by decide +kernel)
  unfold final
  generalize after ops (launchContents m c) = G at h ⊢
  exact h
theorem final_main_v499 (m : (ℓ : Loc nD τ sig) → Buf (Elt F) ℓ) (c : Dev nD) :
    final m c (Proc.devRef .tc main_v499) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v498)) := by
  have h := Sage.after_unary (x := main_v498) (y := main_v499) (ops_Writes (F := F)) 691 (launchContents m c) (by rfl) (by decide +kernel) (by decide +kernel)
  unfold final
  generalize after ops (launchContents m c) = G at h ⊢
  exact h

end Cert.ReferenceIdeal.Hand

end
-- ==== Proof.Ref.StageAgg2.lean ====
/-
  The reference's layer-2 aggregations, relation by relation. The buffer that holds a relation's aggregated rows at
  the end of the run is the pure aggregation (`refAgg2_<i>`) of three buffers' final contents: the source node type's rows
  and the edges' source and destination indices. Each equation is read off the run one operation at a time, from
  the result back to those buffers; what remains is the printed composition (the index wrap, the gather, the two
  scatter-additions, the maximum with one, the division), which is the pure function by unfolding.
-/
import proofs.«126569_j1468878815453_1_alg».proof.Proof.Ref.Final5
import proofs.«126569_j1468878815453_1_alg».proof.Proof.Ref.Final6
import proofs.«126569_j1468878815453_1_alg».proof.Proof.Ref.Final7
import proofs.«126569_j1468878815453_1_alg».proof.Proof.Ref.Final8
import proofs.«126569_j1468878815453_1_alg».proof.Proof.Ref.Final9
import proofs.«126569_j1468878815453_1_alg».proof.Proof.Ref.PureNet

noncomputable section

namespace Cert.ReferenceIdeal.Hand

open Cert.ReferenceIdeal Cert.ReferenceIdeal.Gen Idealize.ShloMosaic Idealize.ShloMosaic.TcCoe Idealize.SL.Sem Idealize.ShloMosaic.StableHlo

/-- Layer 2, relation 0: the aggregated rows `%310` are the first node type's rows `%232` averaged, along the
    edges (sources `%arg14`, destinations `%arg15`), into the third node type's 10000 rows. -/
theorem agg2_0 (m : (ℓ : Loc nD τ sig) → Buf (Elt Ideal) ℓ) (c : Dev nD) :
    final m c (Proc.devRef .tc main_v310)
      = refAgg2_0 (F := Ideal) (final m c (Proc.devRef .tc main_v232)) (final m c (Proc.devRef .tc main_arg14)) (final m c (Proc.devRef .tc main_arg15)) := by
  rw [final_main_v310, final_main_v309, final_main_v308, final_main_v307, final_main_cst_61, final_main_v306,
    final_main_v303, final_main_cst_59, final_main_v305, final_main_v304, final_main_cst_60, final_main_v302,
    final_main_v299, final_main_v298, final_main_v297, final_main_v296, final_main_v295, final_main_c_57,
    final_main_v294, final_main_v293, final_main_c_56, final_main_v301, final_main_v300, final_main_cst_58]
  rfl

/-- Layer 2, relation 1: the aggregated rows `%340` are the first node type's rows `%232` averaged, along the
    edges (sources `%arg16`, destinations `%arg17`), into the second node type's 50000 rows. -/
theorem agg2_1 (m : (ℓ : Loc nD τ sig) → Buf (Elt Ideal) ℓ) (c : Dev nD) :
    final m c (Proc.devRef .tc main_v340)
      = refAgg2_1 (F := Ideal) (final m c (Proc.devRef .tc main_v232)) (final m c (Proc.devRef .tc main_arg16)) (final m c (Proc.devRef .tc main_arg17)) := by
  rw [final_main_v340, final_main_v339, final_main_v338, final_main_v337, final_main_cst_67, final_main_v336,
    final_main_v333, final_main_cst_65, final_main_v335, final_main_v334, final_main_cst_66, final_main_v332,
    final_main_v329, final_main_v328, final_main_v327, final_main_v326, final_main_v325, final_main_c_63,
    final_main_v324, final_main_v323, final_main_c_62, final_main_v331, final_main_v330, final_main_cst_64]
  rfl

/-- Layer 2, relation 2: the aggregated rows `%370` are the second node type's rows `%252` averaged, along the
    edges (sources `%arg18`, destinations `%arg19`), into the fourth node type's 3000 rows. -/
theorem agg2_2 (m : (ℓ : Loc nD τ sig) → Buf (Elt Ideal) ℓ) (c : Dev nD) :
    final m c (Proc.devRef .tc main_v370)
      = refAgg2_2 (F := Ideal) (final m c (Proc.devRef .tc main_v252)) (final m c (Proc.devRef .tc main_arg18)) (final m c (Proc.devRef .tc main_arg19)) := by
  rw [final_main_v370, final_main_v369, final_main_v368, final_main_v367, final_main_cst_73, final_main_v366,
    final_main_v363, final_main_cst_71, final_main_v365, final_main_v364, final_main_cst_72, final_main_v362,
    final_main_v359, final_main_v358, final_main_v357, final_main_v356, final_main_v355, final_main_c_69,
    final_main_v354, final_main_v353, final_main_c_68, final_main_v361, final_main_v360, final_main_cst_70]
  rfl

/-- Layer 2, relation 3: the aggregated rows `%400` are the second node type's rows `%252` averaged, along the
    edges (sources `%arg20`, destinations `%arg21`), into the third node type's 10000 rows. -/
theorem agg2_3 (m : (ℓ : Loc nD τ sig) → Buf (Elt Ideal) ℓ) (c : Dev nD) :
    final m c (Proc.devRef .tc main_v400)
      = refAgg2_3 (F := Ideal) (final m c (Proc.devRef .tc main_v252)) (final m c (Proc.devRef .tc main_arg20)) (final m c (Proc.devRef .tc main_arg21)) := by
  rw [final_main_v400, final_main_v399, final_main_v398, final_main_v397, final_main_cst_79, final_main_v396,
    final_main_v393, final_main_cst_77, final_main_v395, final_main_v394, final_main_cst_78, final_main_v392,
    final_main_v389, final_main_v388, final_main_v387, final_main_v386, final_main_v385, final_main_c_75,
    final_main_v384, final_main_v383, final_main_c_74, final_main_v391, final_main_v390, final_main_cst_76]
  rfl

/-- Layer 2, relation 4: the aggregated rows `%431` are the third node type's rows `%272` averaged, along the
    edges (sources `%arg22`, destinations `%arg23`), into the first node type's 20000 rows. -/
theorem agg2_4 (m : (ℓ : Loc nD τ sig) → Buf (Elt Ideal) ℓ) (c : Dev nD) :
    final m c (Proc.devRef .tc main_v431)
      = refAgg2_4 (F := Ideal) (final m c (Proc.devRef .tc main_v272)) (final m c (Proc.devRef .tc main_arg22)) (final m c (Proc.devRef .tc main_arg23)) := by
  rw [final_main_v431, final_main_v430, final_main_v429, final_main_v428, final_main_cst_85, final_main_v427,
    final_main_v424, final_main_cst_83, final_main_v426, final_main_v425, final_main_cst_84, final_main_v423,
    final_main_v420, final_main_v419, final_main_v418, final_main_v417, final_main_v416, final_main_c_81,
    final_main_v415, final_main_v414, final_main_c_80, final_main_v422, final_main_v421, final_main_cst_82]
  rfl

/-- Layer 2, relation 5: the aggregated rows `%461` are the second node type's rows `%252` averaged, along the
    edges (sources `%arg24`, destinations `%arg25`), into the first node type's 20000 rows. -/
theorem agg2_5 (m : (ℓ : Loc nD τ sig) → Buf (Elt Ideal) ℓ) (c : Dev nD) :
    final m c (Proc.devRef .tc main_v461)
      = refAgg2_5 (F := Ideal) (final m c (Proc.devRef .tc main_v252)) (final m c (Proc.devRef .tc main_arg24)) (final m c (Proc.devRef .tc main_arg25)) := by
  rw [final_main_v461, final_main_v460, final_main_v459, final_main_v458, final_main_cst_91, final_main_v457,
    final_main_v454, final_main_cst_89, final_main_v456, final_main_v455, final_main_cst_90, final_main_v453,
    final_main_v450, final_main_v449, final_main_v448, final_main_v447, final_main_v446, final_main_c_87,
    final_main_v445, final_main_v444, final_main_c_86, final_main_v452, final_main_v451, final_main_cst_88]
  rfl

/-- Layer 2, relation 6: the aggregated rows `%492` are the fourth node type's rows `%292` averaged, along the
    edges (sources `%arg26`, destinations `%arg27`), into the second node type's 50000 rows. -/
theorem agg2_6 (m : (ℓ : Loc nD τ sig) → Buf (Elt Ideal) ℓ) (c : Dev nD) :
    final m c (Proc.devRef .tc main_v492)
      = refAgg2_6 (F := Ideal) (final m c (Proc.devRef .tc main_v292)) (final m c (Proc.devRef .tc main_arg26)) (final m c (Proc.devRef .tc main_arg27)) := by
  rw [final_main_v492, final_main_v491, final_main_v490, final_main_v489, final_main_cst_97, final_main_v488,
    final_main_v485, final_main_cst_95, final_main_v487, final_main_v486, final_main_cst_96, final_main_v484,
    final_main_v481, final_main_v480, final_main_v479, final_main_v478, final_main_v477, final_main_c_93,
    final_main_v476, final_main_v475, final_main_c_92, final_main_v483, final_main_v482, final_main_cst_94]
  rfl

end Cert.ReferenceIdeal.Hand

end
-- ==== Proof.Ref.Final10.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 10 (operations 693 … 798 of 886): what each result buffer holds when @main has run, one operation back. -/

theorem final_main_v500 (m : (ℓ : Loc nD τ sig) → Buf (Elt F) ℓ) (c : Dev nD) :
    final m c (Proc.devRef .tc main_v500) = (addf : (⟨S50000x256, .f32⟩ : BufTy).Contents (Elt F) → (⟨S50000x256, .f32⟩ : BufTy).Contents (Elt F) → (⟨S50000x256, .f32⟩ : BufTy).Contents (Elt F)) (final m c (Proc.devRef .tc main_v495)) (final m c (Proc.devRef .tc main_v499)) := by
  have h := Sage.after_binary (a := main_v495) (b := main_v499) (y := main_v500) (ops_Writes (F := F)) 692 (launchContents m c) (by rfl) (by decide +kernel) (by decide +kernel) (by decide +kernel)
  unfold final
  generalize after ops (launchContents m c) = G at h ⊢
  exact h
theorem final_main_v501 (m : (ℓ : Loc nD τ sig) → Buf (Elt F) ℓ) (c : Dev nD) :
    final m c (Proc.devRef .tc main_v501) = (extractStridedSlice S1x256x256 ![6, 0, 0] (final m c (Proc.devRef .tc main_arg8)) slices_S7x256x256_S1x256x256_6_0_0 : (⟨S1x256x256, .f32⟩ : BufTy).Contents (Elt F)) := by
  have h := Sage.after_unary (x := main_arg8) (y := main_v501) (ops_Writes (F := F)) 693 (launchContents m c) (by rfl) (by decide +kernel) (by decide +kernel)
  unfold final
  generalize after ops (launchContents m c) = G at h ⊢
  exact h
theorem final_main_v502 (m : (ℓ : Loc nD τ sig) → Buf (Elt F) ℓ) (c : Dev nD) :
    final m c (Proc.devRef .tc main_v502) = shapeCast S256x256 (final m c (Proc.devRef .tc main_v501)) shapeCasts_S1x256x256_S256x256 := by
  have h := Sage.after_reshape (x := main_v501) (y := main_v502) (ops_Writes (F := F)) 694 (launchContents m c) (by rfl) (by decide +kernel) (by decide +kernel)
  unfold final
  generalize after ops (launchContents m c) = G at h ⊢
  exact h
theorem final_main_v503 (m : (ℓ : Loc nD τ sig) → Buf (Elt F) ℓ) (c : Dev nD) :
    final m c (Proc.devRef .tc main_v503) = (Host.dotGeneral dot_S50000x256_S256x256_S50000x256_1_0_0_1_n_n none (final m c (Proc.devRef .tc main_v252)) (final m c (Proc.devRef .tc main_v502)) : (⟨S50000x256, .f32⟩ : BufTy).Contents (Elt F)) := by
  have h := Sage.after_binary (a := main_v252) (b := main_v502) (y := main_v503) (ops_Writes (F := F)) 695 (launchContents m c) (by rfl) (by decide +kernel) (by decide +kernel) (by decide +kernel)
  unfold final
  generalize after ops (launchContents m c) = G at h ⊢
  exact h
theorem final_main_v504 (m : (ℓ : Loc nD τ sig) → Buf (Elt F) ℓ) (c : Dev nD) :
    final m c (Proc.devRef .tc main_v504) = (addf : (⟨S50000x256, .f32⟩ : BufTy).Contents (Elt F) → (⟨S50000x256, .f32⟩ : BufTy).Contents (Elt F) → (⟨S50000x256, .f32⟩ : BufTy).Contents (Elt F)) (final m c (Proc.devRef .tc main_v500)) (final m c (Proc.devRef .tc main_v503)) := by
  have h := Sage.after_binary (a := main_v500) (b := main_v503) (y := main_v504) (ops_Writes (F := F)) 696 (launchContents m c) (by rfl) (by decide +kernel) (by decide +kernel) (by decide +kernel)
  unfold final
  generalize after ops (launchContents m c) = G at h ⊢
  exact h
theorem final_main_v505 (m : (ℓ : Loc nD τ sig) → Buf (Elt F) ℓ) (c : Dev nD) :
    final m c (Proc.devRef .tc main_v505) = (addf : (⟨S50000x256, .f32⟩ : BufTy).Contents (Elt F) → (⟨S50000x256, .f32⟩ : BufTy).Contents (Elt F) → (⟨S50000x256, .f32⟩ : BufTy).Contents (Elt F)) (final m c (Proc.devRef .tc main_v352)) (final m c (Proc.devRef .tc main_v504)) := by
  have h := Sage.after_binary (a := main_v352) (b := main_v504) (y := main_v505) (ops_Writes (F := F)) 697 (launchContents m c) (by rfl) (by decide +kernel) (by decide +kernel) (by decide +kernel)
  unfold final
  generalize after ops (launchContents m c) = G at h ⊢
  exact h
theorem final_main_cst_98 (m : (ℓ : Loc nD τ sig) → Buf (Elt F) ℓ) (c : Dev nD) :
    final m c (Proc.devRef .tc main_cst_98) = (constant S_ .f32 0x00000000#32) := by
  have h := Sage.after_nullary (y := main_cst_98) (ops_Writes (F := F)) 698 (launchContents m c) (by rfl) (by decide +kernel)
  unfold final
  generalize after ops (launchContents m c) = G at h ⊢
  exact h
theorem final_main_v506 (m : (ℓ : Loc nD τ sig) → Buf (Elt F) ℓ) (c : Dev nD) :
    final m c (Proc.devRef .tc main_v506) = (Host.reduceAdd (final m c (Proc.devRef .tc main_v474)) (final m c (Proc.devRef .tc main_cst_98)) reducesTo_S20000x256_S256_d0 h_S_ : (⟨S256, .f32⟩ : BufTy).Contents (Elt F)) := by
  have h := Sage.after_binary (a := main_v474) (b := main_cst_98) (y := main_v506) (ops_Writes (F := F)) 699 (launchContents m c) (by rfl) (by decide +kernel) (by decide +kernel) (by decide +kernel)
  unfold final
  generalize after ops (launchContents m c) = G at h ⊢
  exact h
theorem final_main_cst_99 (m : (ℓ : Loc nD τ sig) → Buf (Elt F) ℓ) (c : Dev nD) :
    final m c (Proc.devRef .tc main_cst_99) = (constant S_ .f32 0x469C4000#32) := by
  have h := Sage.after_nullary (y := main_cst_99) (ops_Writes (F := F)) 700 (launchContents m c) (by rfl) (by decide +kernel)
  unfold final
  generalize after ops (launchContents m c) = G at h ⊢
  exact h
theorem final_main_v507 (m : (ℓ : Loc nD τ sig) → Buf (Elt F) ℓ) (c : Dev nD) :
    final m c (Proc.devRef .tc main_v507) = (broadcastInDim S256 ![] bcast_S_S256 : (⟨S_, .f32⟩ : BufTy).Contents (Elt F) → (⟨S256, .f32⟩ : BufTy).Contents (Elt F)) (final m c (Proc.devRef .tc main_cst_99)) := by
  have h := Sage.after_unary (x := main_cst_99) (y := main_v507) (ops_Writes (F := F)) 701 (launchContents m c) (by rfl) (by decide +kernel) (by decide +kernel)
  unfold final
  generalize after ops (launchContents m c) = G at h ⊢
  exact h
theorem final_main_v508 (m : (ℓ : Loc nD τ sig) → Buf (Elt F) ℓ) (c : Dev nD) :
    final m c (Proc.devRef .tc main_v508) = (Host.divf : (⟨S256, .f32⟩ : BufTy).Contents (Elt F) → (⟨S256, .f32⟩ : BufTy).Contents (Elt F) → (⟨S256, .f32⟩ : BufTy).Contents (Elt F)) (final m c (Proc.devRef .tc main_v506)) (final m c (Proc.devRef .tc main_v507)) := by
  have h := Sage.after_binary (a := main_v506) (b := main_v507) (y := main_v508) (ops_Writes (F := F)) 702 (launchContents m c) (by rfl) (by decide +kernel) (by decide +kernel) (by decide +kernel)
  unfold final
  generalize after ops (launchContents m c) = G at h ⊢
  exact h
theorem final_main_c_100 (m : (ℓ : Loc nD τ sig) → Buf (Elt F) ℓ) (c : Dev nD) :
    final m c (Proc.devRef .tc main_c_100) = (constantI S_ 32 0#32) := by
  have h := Sage.after_nullary (y := main_c_100) (ops_Writes (F := F)) 703 (launchContents m c) (by rfl) (by decide +kernel)
  unfold final
  generalize after ops (launchContents m c) = G at h ⊢
  exact h
theorem final_main_call8_cst (m : (ℓ : Loc nD τ sig) → Buf (Elt F) ℓ) (c : Dev nD) :
    final m c (Proc.devRef .tc main_call8_cst) = (constant S_ .f32 0x00000000#32 : (⟨S_, .f32⟩ : BufTy).Contents (Elt F)) := by
  have h := Sage.after_nullary (y := main_call8_cst) (ops_Writes (F := F)) 704 (launchContents m c) (by rfl) (by decide +kernel)
  unfold final
  generalize after ops (launchContents m c) = G at h ⊢
  exact h
theorem final_main_call8_v0 (m : (ℓ : Loc nD τ sig) → Buf (Elt F) ℓ) (c : Dev nD) :
    final m c (Proc.devRef .tc main_call8_v0) = (Host.reduceAdd (final m c (Proc.devRef .tc main_v474)) (final m c (Proc.devRef .tc main_call8_cst)) reducesTo_S20000x256_S256_d0 h_S_ : (⟨S256, .f32⟩ : BufTy).Contents (Elt F)) := by
  have h := Sage.after_binary (a := main_v474) (b := main_call8_cst) (y := main_call8_v0) (ops_Writes (F := F)) 705 (launchContents m c) (by rfl) (by decide +kernel) (by decide +kernel) (by decide +kernel)
  unfold final
  generalize after ops (launchContents m c) = G at h ⊢
  exact h
theorem final_main_call8_v1 (m : (ℓ : Loc nD τ sig) → Buf (Elt F) ℓ) (c : Dev nD) :
    final m c (Proc.devRef .tc main_call8_v1) = (broadcastInDim S1x256 ![1] bcast_S256_S1x256_1 : (⟨S256, .f32⟩ : BufTy).Contents (Elt F) → (⟨S1x256, .f32⟩ : BufTy).Contents (Elt F)) (final m c (Proc.devRef .tc main_call8_v0)) := by
  have h := Sage.after_unary (x := main_call8_v0) (y := main_call8_v1) (ops_Writes (F := F)) 706 (launchContents m c) (by rfl) (by decide +kernel) (by decide +kernel)
  unfold final
  generalize after ops (launchContents m c) = G at h ⊢
  exact h
theorem final_main_call8_cst_0 (m : (ℓ : Loc nD τ sig) → Buf (Elt F) ℓ) (c : Dev nD) :
    final m c (Proc.devRef .tc main_call8_cst_0) = (constant S_ .f32 0x469C4000#32 : (⟨S_, .f32⟩ : BufTy).Contents (Elt F)) := by
  have h := Sage.after_nullary (y := main_call8_cst_0) (ops_Writes (F := F)) 707 (launchContents m c) (by rfl) (by decide +kernel)
  unfold final
  generalize after ops (launchContents m c) = G at h ⊢
  exact h
theorem final_main_call8_v2 (m : (ℓ : Loc nD τ sig) → Buf (Elt F) ℓ) (c : Dev nD) :
    final m c (Proc.devRef .tc main_call8_v2) = (broadcastInDim S1x256 ![] bcast_S_S1x256 : (⟨S_, .f32⟩ : BufTy).Contents (Elt F) → (⟨S1x256, .f32⟩ : BufTy).Contents (Elt F)) (final m c (Proc.devRef .tc main_call8_cst_0)) := by
  have h := Sage.after_unary (x := main_call8_cst_0) (y := main_call8_v2) (ops_Writes (F := F)) 708 (launchContents m c) (by rfl) (by decide +kernel) (by decide +kernel)
  unfold final
  generalize after ops (launchContents m c) = G at h ⊢
  exact h
theorem final_main_call8_v3 (m : (ℓ : Loc nD τ sig) → Buf (Elt F) ℓ) (c : Dev nD) :
    final m c (Proc.devRef .tc main_call8_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call8_v1)) (final m c (Proc.devRef .tc main_call8_v2)) := by
  have h := Sage.after_binary (a := main_call8_v1) (b := main_call8_v2) (y := main_call8_v3) (ops_Writes (F := F)) 709 (launchContents m c) (by rfl) (by decide +kernel) (by decide +kernel) (by decide +kernel)
  unfold final
  generalize after ops (launchContents m c) = G at h ⊢
  exact h
theorem final_main_call8_v4 (m : (ℓ : Loc nD τ sig) → Buf (Elt F) ℓ) (c : Dev nD) :
    final m c (Proc.devRef .tc main_call8_v4) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_call8_v3)) := by
  have h := Sage.after_unary (x := main_call8_v3) (y := main_call8_v4) (ops_Writes (F := F)) 710 (launchContents m c) (by rfl) (by decide +kernel) (by decide +kernel)
  unfold final
  generalize after ops (launchContents m c) = G at h ⊢
  exact h
theorem final_main_call8_v5 (m : (ℓ : Loc nD τ sig) → Buf (Elt F) ℓ) (c : Dev nD) :
    final m c (Proc.devRef .tc main_call8_v5) = (subf : (⟨S20000x256, .f32⟩ : BufTy).Contents (Elt F) → (⟨S20000x256, .f32⟩ : BufTy).Contents (Elt F) → (⟨S20000x256, .f32⟩ : BufTy).Contents (Elt F)) (final m c (Proc.devRef .tc main_v474)) (final m c (Proc.devRef .tc main_call8_v4)) := by
  have h := Sage.after_binary (a := main_v474) (b := main_call8_v4) (y := main_call8_v5) (ops_Writes (F := F)) 711 (launchContents m c) (by rfl) (by decide +kernel) (by decide +kernel) (by decide +kernel)
  unfold final
  generalize after ops (launchContents m c) = G at h ⊢
  exact h
theorem final_main_call8_v6 (m : (ℓ : Loc nD τ sig) → Buf (Elt F) ℓ) (c : Dev nD) :
    final m c (Proc.devRef .tc main_call8_v6) = (mulf : (⟨S20000x256, .f32⟩ : BufTy).Contents (Elt F) → (⟨S20000x256, .f32⟩ : BufTy).Contents (Elt F) → (⟨S20000x256, .f32⟩ : BufTy).Contents (Elt F)) (final m c (Proc.devRef .tc main_call8_v5)) (final m c (Proc.devRef .tc main_call8_v5)) := by
  have h := Sage.after_binary (a := main_call8_v5) (b := main_call8_v5) (y := main_call8_v6) (ops_Writes (F := F)) 712 (launchContents m c) (by rfl) (by decide +kernel) (by decide +kernel) (by decide +kernel)
  unfold final
  generalize after ops (launchContents m c) = G at h ⊢
  exact h
theorem final_main_call8_v7 (m : (ℓ : Loc nD τ sig) → Buf (Elt F) ℓ) (c : Dev nD) :
    final m c (Proc.devRef .tc main_call8_v7) = (sitofp .f32 : (⟨S_, .i32⟩ : BufTy).Contents (Elt F) → (⟨S_, .f32⟩ : BufTy).Contents (Elt F)) (final m c (Proc.devRef .tc main_c_100)) := by
  have h := Sage.after_unary (x := main_c_100) (y := main_call8_v7) (ops_Writes (F := F)) 713 (launchContents m c) (by rfl) (by decide +kernel) (by decide +kernel)
  unfold final
  generalize after ops (launchContents m c) = G at h ⊢
  exact h
theorem final_main_call8_cst_1 (m : (ℓ : Loc nD τ sig) → Buf (Elt F) ℓ) (c : Dev nD) :
    final m c (Proc.devRef .tc main_call8_cst_1) = (constant S_ .f32 0x469C4000#32 : (⟨S_, .f32⟩ : BufTy).Contents (Elt F)) := by
  have h := Sage.after_nullary (y := main_call8_cst_1) (ops_Writes (F := F)) 714 (launchContents m c) (by rfl) (by decide +kernel)
  unfold final
  generalize after ops (launchContents m c) = G at h ⊢
  exact h
theorem final_main_call8_v8 (m : (ℓ : Loc nD τ sig) → Buf (Elt F) ℓ) (c : Dev nD) :
    final m c (Proc.devRef .tc main_call8_v8) = (subf : (⟨S_, .f32⟩ : BufTy).Contents (Elt F) → (⟨S_, .f32⟩ : BufTy).Contents (Elt F) → (⟨S_, .f32⟩ : BufTy).Contents (Elt F)) (final m c (Proc.devRef .tc main_call8_cst_1)) (final m c (Proc.devRef .tc main_call8_v7)) := by
  have h := Sage.after_binary (a := main_call8_cst_1) (b := main_call8_v7) (y := main_call8_v8) (ops_Writes (F := F)) 715 (launchContents m c) (by rfl) (by decide +kernel) (by decide +kernel) (by decide +kernel)
  unfold final
  generalize after ops (launchContents m c) = G at h ⊢
  exact h
theorem final_main_call8_cst_2 (m : (ℓ : Loc nD τ sig) → Buf (Elt F) ℓ) (c : Dev nD) :
    final m c (Proc.devRef .tc main_call8_cst_2) = (constant S_ .f32 0x00000000#32 : (⟨S_, .f32⟩ : BufTy).Contents (Elt F)) := by
  have h := Sage.after_nullary (y := main_call8_cst_2) (ops_Writes (F := F)) 716 (launchContents m c) (by rfl) (by decide +kernel)
  unfold final
  generalize after ops (launchContents m c) = G at h ⊢
  exact h
theorem final_main_call8_v9 (m : (ℓ : Loc nD τ sig) → Buf (Elt F) ℓ) (c : Dev nD) :
    final m c (Proc.devRef .tc main_call8_v9) = (Host.reduceAdd (final m c (Proc.devRef .tc main_call8_v6)) (final m c (Proc.devRef .tc main_call8_cst_2)) reducesTo_S20000x256_S256_d0 h_S_ : (⟨S256, .f32⟩ : BufTy).Contents (Elt F)) := by
  have h := Sage.after_binary (a := main_call8_v6) (b := main_call8_cst_2) (y := main_call8_v9) (ops_Writes (F := F)) 717 (launchContents m c) (by rfl) (by decide +kernel) (by decide +kernel) (by decide +kernel)
  unfold final
  generalize after ops (launchContents m c) = G at h ⊢
  exact h
theorem final_main_call8_v10 (m : (ℓ : Loc nD τ sig) → Buf (Elt F) ℓ) (c : Dev nD) :
    final m c (Proc.devRef .tc main_call8_v10) = (broadcastInDim S256 ![] bcast_S_S256 : (⟨S_, .f32⟩ : BufTy).Contents (Elt F) → (⟨S256, .f32⟩ : BufTy).Contents (Elt F)) (final m c (Proc.devRef .tc main_call8_v8)) := by
  have h := Sage.after_unary (x := main_call8_v8) (y := main_call8_v10) (ops_Writes (F := F)) 718 (launchContents m c) (by rfl) (by decide +kernel) (by decide +kernel)
  unfold final
  generalize after ops (launchContents m c) = G at h ⊢
  exact h
theorem final_main_call8_v11 (m : (ℓ : Loc nD τ sig) → Buf (Elt F) ℓ) (c : Dev nD) :
    final m c (Proc.devRef .tc main_call8_v11) = (Host.divf : (⟨S256, .f32⟩ : BufTy).Contents (Elt F) → (⟨S256, .f32⟩ : BufTy).Contents (Elt F) → (⟨S256, .f32⟩ : BufTy).Contents (Elt F)) (final m c (Proc.devRef .tc main_call8_v9)) (final m c (Proc.devRef .tc main_call8_v10)) := by
  have h := Sage.after_binary (a := main_call8_v9) (b := main_call8_v10) (y := main_call8_v11) (ops_Writes (F := F)) 719 (launchContents m c) (by rfl) (by decide +kernel) (by decide +kernel) (by decide +kernel)
  unfold final
  generalize after ops (launchContents m c) = G at h ⊢
  exact h
theorem final_main_call8_cst_3 (m : (ℓ : Loc nD τ sig) → Buf (Elt F) ℓ) (c : Dev nD) :
    final m c (Proc.devRef .tc main_call8_cst_3) = (constant S_ .f32 0x00000000#32 : (⟨S_, .f32⟩ : BufTy).Contents (Elt F)) := by
  have h := Sage.after_nullary (y := main_call8_cst_3) (ops_Writes (F := F)) 720 (launchContents m c) (by rfl) (by decide +kernel)
  unfold final
  generalize after ops (launchContents m c) = G at h ⊢
  exact h
theorem final_main_call8_v12 (m : (ℓ : Loc nD τ sig) → Buf (Elt F) ℓ) (c : Dev nD) :
    final m c (Proc.devRef .tc main_call8_v12) = (cmpf .ogt : (⟨S_, .f32⟩ : BufTy).Contents (Elt F) → (⟨S_, .f32⟩ : BufTy).Contents (Elt F) → (⟨S_, .i1⟩ : BufTy).Contents (Elt F)) (final m c (Proc.devRef .tc main_call8_v8)) (final m c (Proc.devRef .tc main_call8_cst_3)) := by
  have h := Sage.after_binary (a := main_call8_v8) (b := main_call8_cst_3) (y := main_call8_v12) (ops_Writes (F := F)) 721 (launchContents m c) (by rfl) (by decide +kernel) (by decide +kernel) (by decide +kernel)
  unfold final
  generalize after ops (launchContents m c) = G at h ⊢
  exact h
theorem final_main_call8_cst_4 (m : (ℓ : Loc nD τ sig) → Buf (Elt F) ℓ) (c : Dev nD) :
    final m c (Proc.devRef .tc main_call8_cst_4) = (constant S_ .f32 0x7FC00000#32 : (⟨S_, .f32⟩ : BufTy).Contents (Elt F)) := by
  have h := Sage.after_nullary (y := main_call8_cst_4) (ops_Writes (F := F)) 722 (launchContents m c) (by rfl) (by decide +kernel)
  unfold final
  generalize after ops (launchContents m c) = G at h ⊢
  exact h
theorem final_main_call8_call0_v0 (m : (ℓ : Loc nD τ sig) → Buf (Elt F) ℓ) (c : Dev nD) :
    final m c (Proc.devRef .tc main_call8_call0_v0) = (id : (⟨S_, .f32⟩ : BufTy).Contents (Elt F) → (⟨S_, .f32⟩ : BufTy).Contents (Elt F)) (final m c (Proc.devRef .tc main_call8_cst_4)) := by
  have h := Sage.after_unary (x := main_call8_cst_4) (y := main_call8_call0_v0) (ops_Writes (F := F)) 723 (launchContents m c) (by rfl) (by decide +kernel) (by decide +kernel)
  unfold final
  generalize after ops (launchContents m c) = G at h ⊢
  exact h
theorem final_main_call8_call0_v1 (m : (ℓ : Loc nD τ sig) → Buf (Elt F) ℓ) (c : Dev nD) :
    final m c (Proc.devRef .tc main_call8_call0_v1) = (broadcastInDim S256 ![] bcast_S_S256 : (⟨S_, .f32⟩ : BufTy).Contents (Elt F) → (⟨S256, .f32⟩ : BufTy).Contents (Elt F)) (final m c (Proc.devRef .tc main_call8_call0_v0)) := by
  have h := Sage.after_unary (x := main_call8_call0_v0) (y := main_call8_call0_v1) (ops_Writes (F := F)) 724 (launchContents m c) (by rfl) (by decide +kernel) (by decide +kernel)
  unfold final
  generalize after ops (launchContents m c) = G at h ⊢
  exact h
theorem final_main_v509 (m : (ℓ : Loc nD τ sig) → Buf (Elt F) ℓ) (c : Dev nD) :
    final m c (Proc.devRef .tc main_v509) = (select (broadcastInDim S256 ![] bcast_S_S256 (final m c (Proc.devRef .tc main_call8_v12))) (final m c (Proc.devRef .tc main_call8_v11)) (final m c (Proc.devRef .tc main_call8_call0_v1)) : (⟨S256, .f32⟩ : BufTy).Contents (Elt F)) := by
  have h := Sage.after_ternary (c := main_call8_v12) (a := main_call8_v11) (b := main_call8_call0_v1) (y := main_v509) (ops_Writes (F := F)) 725 (launchContents m c) (by rfl) (by decide +kernel) (by decide +kernel) (by decide +kernel) (by decide +kernel)
  unfold final
  generalize after ops (launchContents m c) = G at h ⊢
  exact h
theorem final_main_v510 (m : (ℓ : Loc nD τ sig) → Buf (Elt F) ℓ) (c : Dev nD) :
    final m c (Proc.devRef .tc main_v510) = (broadcastInDim S1x256 ![1] bcast_S256_S1x256_1 : (⟨S256, .f32⟩ : BufTy).Contents (Elt F) → (⟨S1x256, .f32⟩ : BufTy).Contents (Elt F)) (final m c (Proc.devRef .tc main_v508)) := by
  have h := Sage.after_unary (x := main_v508) (y := main_v510) (ops_Writes (F := F)) 726 (launchContents m c) (by rfl) (by decide +kernel) (by decide +kernel)
  unfold final
  generalize after ops (launchContents m c) = G at h ⊢
  exact h
theorem final_main_v511 (m : (ℓ : Loc nD τ sig) → Buf (Elt F) ℓ) (c : Dev nD) :
    final m c (Proc.devRef .tc main_v511) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v510)) := by
  have h := Sage.after_unary (x := main_v510) (y := main_v511) (ops_Writes (F := F)) 727 (launchContents m c) (by rfl) (by decide +kernel) (by decide +kernel)
  unfold final
  generalize after ops (launchContents m c) = G at h ⊢
  exact h
theorem final_main_v512 (m : (ℓ : Loc nD τ sig) → Buf (Elt F) ℓ) (c : Dev nD) :
    final m c (Proc.devRef .tc main_v512) = (subf : (⟨S20000x256, .f32⟩ : BufTy).Contents (Elt F) → (⟨S20000x256, .f32⟩ : BufTy).Contents (Elt F) → (⟨S20000x256, .f32⟩ : BufTy).Contents (Elt F)) (final m c (Proc.devRef .tc main_v474)) (final m c (Proc.devRef .tc main_v511)) := by
  have h := Sage.after_binary (a := main_v474) (b := main_v511) (y := main_v512) (ops_Writes (F := F)) 728 (launchContents m c) (by rfl) (by decide +kernel) (by decide +kernel) (by decide +kernel)
  unfold final
  generalize after ops (launchContents m c) = G at h ⊢
  exact h
theorem final_main_cst_101 (m : (ℓ : Loc nD τ sig) → Buf (Elt F) ℓ) (c : Dev nD) :
    final m c (Proc.devRef .tc main_cst_101) = (constant S_ .f32 0x3727C5AC#32) := by
  have h := Sage.after_nullary (y := main_cst_101) (ops_Writes (F := F)) 729 (launchContents m c) (by rfl) (by decide +kernel)
  unfold final
  generalize after ops (launchContents m c) = G at h ⊢
  exact h
theorem final_main_v513 (m : (ℓ : Loc nD τ sig) → Buf (Elt F) ℓ) (c : Dev nD) :
    final m c (Proc.devRef .tc main_v513) = (broadcastInDim S256 ![] bcast_S_S256 : (⟨S_, .f32⟩ : BufTy).Contents (Elt F) → (⟨S256, .f32⟩ : BufTy).Contents (Elt F)) (final m c (Proc.devRef .tc main_cst_101)) := by
  have h := Sage.after_unary (x := main_cst_101) (y := main_v513) (ops_Writes (F := F)) 730 (launchContents m c) (by rfl) (by decide +kernel) (by decide +kernel)
  unfold final
  generalize after ops (launchContents m c) = G at h ⊢
  exact h
theorem final_main_v514 (m : (ℓ : Loc nD τ sig) → Buf (Elt F) ℓ) (c : Dev nD) :
    final m c (Proc.devRef .tc main_v514) = (addf : (⟨S256, .f32⟩ : BufTy).Contents (Elt F) → (⟨S256, .f32⟩ : BufTy).Contents (Elt F) → (⟨S256, .f32⟩ : BufTy).Contents (Elt F)) (final m c (Proc.devRef .tc main_v509)) (final m c (Proc.devRef .tc main_v513)) := by
  have h := Sage.after_binary (a := main_v509) (b := main_v513) (y := main_v514) (ops_Writes (F := F)) 731 (launchContents m c) (by rfl) (by decide +kernel) (by decide +kernel) (by decide +kernel)
  unfold final
  generalize after ops (launchContents m c) = G at h ⊢
  exact h
theorem final_main_v515 (m : (ℓ : Loc nD τ sig) → Buf (Elt F) ℓ) (c : Dev nD) :
    final m c (Proc.devRef .tc main_v515) = (Host.rsqrt : (⟨S256, .f32⟩ : BufTy).Contents (Elt F) → (⟨S256, .f32⟩ : BufTy).Contents (Elt F)) (final m c (Proc.devRef .tc main_v514)) := by
  have h := Sage.after_unary (x := main_v514) (y := main_v515) (ops_Writes (F := F)) 732 (launchContents m c) (by rfl) (by decide +kernel) (by decide +kernel)
  unfold final
  generalize after ops (launchContents m c) = G at h ⊢
  exact h
theorem final_main_v516 (m : (ℓ : Loc nD τ sig) → Buf (Elt F) ℓ) (c : Dev nD) :
    final m c (Proc.devRef .tc main_v516) = (broadcastInDim S1x256 ![1] bcast_S256_S1x256_1 : (⟨S256, .f32⟩ : BufTy).Contents (Elt F) → (⟨S1x256, .f32⟩ : BufTy).Contents (Elt F)) (final m c (Proc.devRef .tc main_v515)) := by
  have h := Sage.after_unary (x := main_v515) (y := main_v516) (ops_Writes (F := F)) 733 (launchContents m c) (by rfl) (by decide +kernel) (by decide +kernel)
  unfold final
  generalize after ops (launchContents m c) = G at h ⊢
  exact h
theorem final_main_v517 (m : (ℓ : Loc nD τ sig) → Buf (Elt F) ℓ) (c : Dev nD) :
    final m c (Proc.devRef .tc main_v517) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v516)) := by
  have h := Sage.after_unary (x := main_v516) (y := main_v517) (ops_Writes (F := F)) 734 (launchContents m c) (by rfl) (by decide +kernel) (by decide +kernel)
  unfold final
  generalize after ops (launchContents m c) = G at h ⊢
  exact h
theorem final_main_v518 (m : (ℓ : Loc nD τ sig) → Buf (Elt F) ℓ) (c : Dev nD) :
    final m c (Proc.devRef .tc main_v518) = (mulf : (⟨S20000x256, .f32⟩ : BufTy).Contents (Elt F) → (⟨S20000x256, .f32⟩ : BufTy).Contents (Elt F) → (⟨S20000x256, .f32⟩ : BufTy).Contents (Elt F)) (final m c (Proc.devRef .tc main_v512)) (final m c (Proc.devRef .tc main_v517)) := by
  have h := Sage.after_binary (a := main_v512) (b := main_v517) (y := main_v518) (ops_Writes (F := F)) 735 (launchContents m c) (by rfl) (by decide +kernel) (by decide +kernel) (by decide +kernel)
  unfold final
  generalize after ops (launchContents m c) = G at h ⊢
  exact h
theorem final_main_v519 (m : (ℓ : Loc nD τ sig) → Buf (Elt F) ℓ) (c : Dev nD) :
    final m c (Proc.devRef .tc main_v519) = (broadcastInDim S1x256 ![1] bcast_S256_S1x256_1 : (⟨S256, .f32⟩ : BufTy).Contents (Elt F) → (⟨S1x256, .f32⟩ : BufTy).Contents (Elt F)) (final m c (Proc.devRef .tc main_arg12)) := by
  have h := Sage.after_unary (x := main_arg12) (y := main_v519) (ops_Writes (F := F)) 736 (launchContents m c) (by rfl) (by decide +kernel) (by decide +kernel)
  unfold final
  generalize after ops (launchContents m c) = G at h ⊢
  exact h
theorem final_main_v520 (m : (ℓ : Loc nD τ sig) → Buf (Elt F) ℓ) (c : Dev nD) :
    final m c (Proc.devRef .tc main_v520) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v519)) := by
  have h := Sage.after_unary (x := main_v519) (y := main_v520) (ops_Writes (F := F)) 737 (launchContents m c) (by rfl) (by decide +kernel) (by decide +kernel)
  unfold final
  generalize after ops (launchContents m c) = G at h ⊢
  exact h
theorem final_main_v521 (m : (ℓ : Loc nD τ sig) → Buf (Elt F) ℓ) (c : Dev nD) :
    final m c (Proc.devRef .tc main_v521) = (mulf : (⟨S20000x256, .f32⟩ : BufTy).Contents (Elt F) → (⟨S20000x256, .f32⟩ : BufTy).Contents (Elt F) → (⟨S20000x256, .f32⟩ : BufTy).Contents (Elt F)) (final m c (Proc.devRef .tc main_v518)) (final m c (Proc.devRef .tc main_v520)) := by
  have h := Sage.after_binary (a := main_v518) (b := main_v520) (y := main_v521) (ops_Writes (F := F)) 738 (launchContents m c) (by rfl) (by decide +kernel) (by decide +kernel) (by decide +kernel)
  unfold final
  generalize after ops (launchContents m c) = G at h ⊢
  exact h
theorem final_main_v522 (m : (ℓ : Loc nD τ sig) → Buf (Elt F) ℓ) (c : Dev nD) :
    final m c (Proc.devRef .tc main_v522) = (broadcastInDim S1x256 ![1] bcast_S256_S1x256_1 : (⟨S256, .f32⟩ : BufTy).Contents (Elt F) → (⟨S1x256, .f32⟩ : BufTy).Contents (Elt F)) (final m c (Proc.devRef .tc main_arg13)) := by
  have h := Sage.after_unary (x := main_arg13) (y := main_v522) (ops_Writes (F := F)) 739 (launchContents m c) (by rfl) (by decide +kernel) (by decide +kernel)
  unfold final
  generalize after ops (launchContents m c) = G at h ⊢
  exact h
theorem final_main_v523 (m : (ℓ : Loc nD τ sig) → Buf (Elt F) ℓ) (c : Dev nD) :
    final m c (Proc.devRef .tc main_v523) = (broadcastInDim S20000x256 ![0, 1] bcast_S1x256_S20000x256_0_1 : (⟨S1x256, .f32⟩ : BufTy).Contents (Elt F) → (⟨S20000x256, .f32⟩ : BufTy).Contents (Elt F)) (final m c (Proc.devRef .tc main_v522)) := by
  have h := Sage.after_unary (x := main_v522) (y := main_v523) (ops_Writes (F := F)) 740 (launchContents m c) (by rfl) (by decide +kernel) (by decide +kernel)
  unfold final
  generalize after ops (launchContents m c) = G at h ⊢
  exact h
theorem final_main_v524 (m : (ℓ : Loc nD τ sig) → Buf (Elt F) ℓ) (c : Dev nD) :
    final m c (Proc.devRef .tc main_v524) = (addf : (⟨S20000x256, .f32⟩ : BufTy).Contents (Elt F) → (⟨S20000x256, .f32⟩ : BufTy).Contents (Elt F) → (⟨S20000x256, .f32⟩ : BufTy).Contents (Elt F)) (final m c (Proc.devRef .tc main_v521)) (final m c (Proc.devRef .tc main_v523)) := by
  have h := Sage.after_binary (a := main_v521) (b := main_v523) (y := main_v524) (ops_Writes (F := F)) 741 (launchContents m c) (by rfl) (by decide +kernel) (by decide +kernel) (by decide +kernel)
  unfold final
  generalize after ops (launchContents m c) = G at h ⊢
  exact h
theorem final_main_call9_cst (m : (ℓ : Loc nD τ sig) → Buf (Elt F) ℓ) (c : Dev nD) :
    final m c (Proc.devRef .tc main_call9_cst) = (constant S_ .f32 0x00000000#32 : (⟨S_, .f32⟩ : BufTy).Contents (Elt F)) := by
  have h := Sage.after_nullary (y := main_call9_cst) (ops_Writes (F := F)) 742 (launchContents m c) (by rfl) (by decide +kernel)
  unfold final
  generalize after ops (launchContents m c) = G at h ⊢
  exact h
theorem final_main_call9_v0 (m : (ℓ : Loc nD τ sig) → Buf (Elt F) ℓ) (c : Dev nD) :
    final m c (Proc.devRef .tc main_call9_v0) = (broadcastInDim S20000x256 ![] bcast_S_S20000x256 : (⟨S_, .f32⟩ : BufTy).Contents (Elt F) → (⟨S20000x256, .f32⟩ : BufTy).Contents (Elt F)) (final m c (Proc.devRef .tc main_call9_cst)) := by
  have h := Sage.after_unary (x := main_call9_cst) (y := main_call9_v0) (ops_Writes (F := F)) 743 (launchContents m c) (by rfl) (by decide +kernel) (by decide +kernel)
  unfold final
  generalize after ops (launchContents m c) = G at h ⊢
  exact h
theorem final_main_v525 (m : (ℓ : Loc nD τ sig) → Buf (Elt F) ℓ) (c : Dev nD) :
    final m c (Proc.devRef .tc main_v525) = (maximumf : (⟨S20000x256, .f32⟩ : BufTy).Contents (Elt F) → (⟨S20000x256, .f32⟩ : BufTy).Contents (Elt F) → (⟨S20000x256, .f32⟩ : BufTy).Contents (Elt F)) (final m c (Proc.devRef .tc main_v524)) (final m c (Proc.devRef .tc main_call9_v0)) := by
  have h := Sage.after_binary (a := main_v524) (b := main_call9_v0) (y := main_v525) (ops_Writes (F := F)) 744 (launchContents m c) (by rfl) (by decide +kernel) (by decide +kernel) (by decide +kernel)
  unfold final
  generalize after ops (launchContents m c) = G at h ⊢
  exact h
theorem final_main_cst_102 (m : (ℓ : Loc nD τ sig) → Buf (Elt F) ℓ) (c : Dev nD) :
    final m c (Proc.devRef .tc main_cst_102) = (constant S_ .f32 0x00000000#32) := by
  have h := Sage.after_nullary (y := main_cst_102) (ops_Writes (F := F)) 745 (launchContents m c) (by rfl) (by decide +kernel)
  unfold final
  generalize after ops (launchContents m c) = G at h ⊢
  exact h
theorem final_main_v526 (m : (ℓ : Loc nD τ sig) → Buf (Elt F) ℓ) (c : Dev nD) :
    final m c (Proc.devRef .tc main_v526) = (Host.reduceAdd (final m c (Proc.devRef .tc main_v505)) (final m c (Proc.devRef .tc main_cst_102)) reducesTo_S50000x256_S256_d0 h_S_ : (⟨S256, .f32⟩ : BufTy).Contents (Elt F)) := by
  have h := Sage.after_binary (a := main_v505) (b := main_cst_102) (y := main_v526) (ops_Writes (F := F)) 746 (launchContents m c) (by rfl) (by decide +kernel) (by decide +kernel) (by decide +kernel)
  unfold final
  generalize after ops (launchContents m c) = G at h ⊢
  exact h
theorem final_main_cst_103 (m : (ℓ : Loc nD τ sig) → Buf (Elt F) ℓ) (c : Dev nD) :
    final m c (Proc.devRef .tc main_cst_103) = (constant S_ .f32 0x47435000#32) := by
  have h := Sage.after_nullary (y := main_cst_103) (ops_Writes (F := F)) 747 (launchContents m c) (by rfl) (by decide +kernel)
  unfold final
  generalize after ops (launchContents m c) = G at h ⊢
  exact h
theorem final_main_v527 (m : (ℓ : Loc nD τ sig) → Buf (Elt F) ℓ) (c : Dev nD) :
    final m c (Proc.devRef .tc main_v527) = (broadcastInDim S256 ![] bcast_S_S256 : (⟨S_, .f32⟩ : BufTy).Contents (Elt F) → (⟨S256, .f32⟩ : BufTy).Contents (Elt F)) (final m c (Proc.devRef .tc main_cst_103)) := by
  have h := Sage.after_unary (x := main_cst_103) (y := main_v527) (ops_Writes (F := F)) 748 (launchContents m c) (by rfl) (by decide +kernel) (by decide +kernel)
  unfold final
  generalize after ops (launchContents m c) = G at h ⊢
  exact h
theorem final_main_v528 (m : (ℓ : Loc nD τ sig) → Buf (Elt F) ℓ) (c : Dev nD) :
    final m c (Proc.devRef .tc main_v528) = (Host.divf : (⟨S256, .f32⟩ : BufTy).Contents (Elt F) → (⟨S256, .f32⟩ : BufTy).Contents (Elt F) → (⟨S256, .f32⟩ : BufTy).Contents (Elt F)) (final m c (Proc.devRef .tc main_v526)) (final m c (Proc.devRef .tc main_v527)) := by
  have h := Sage.after_binary (a := main_v526) (b := main_v527) (y := main_v528) (ops_Writes (F := F)) 749 (launchContents m c) (by rfl) (by decide +kernel) (by decide +kernel) (by decide +kernel)
  unfold final
  generalize after ops (launchContents m c) = G at h ⊢
  exact h
theorem final_main_c_104 (m : (ℓ : Loc nD τ sig) → Buf (Elt F) ℓ) (c : Dev nD) :
    final m c (Proc.devRef .tc main_c_104) = (constantI S_ 32 0#32) := by
  have h := Sage.after_nullary (y := main_c_104) (ops_Writes (F := F)) 750 (launchContents m c) (by rfl) (by decide +kernel)
  unfold final
  generalize after ops (launchContents m c) = G at h ⊢
  exact h
theorem final_main_call10_cst (m : (ℓ : Loc nD τ sig) → Buf (Elt F) ℓ) (c : Dev nD) :
    final m c (Proc.devRef .tc main_call10_cst) = (constant S_ .f32 0x00000000#32 : (⟨S_, .f32⟩ : BufTy).Contents (Elt F)) := by
  have h := Sage.after_nullary (y := main_call10_cst) (ops_Writes (F := F)) 751 (launchContents m c) (by rfl) (by decide +kernel)
  unfold final
  generalize after ops (launchContents m c) = G at h ⊢
  exact h
theorem final_main_call10_v0 (m : (ℓ : Loc nD τ sig) → Buf (Elt F) ℓ) (c : Dev nD) :
    final m c (Proc.devRef .tc main_call10_v0) = (Host.reduceAdd (final m c (Proc.devRef .tc main_v505)) (final m c (Proc.devRef .tc main_call10_cst)) reducesTo_S50000x256_S256_d0 h_S_ : (⟨S256, .f32⟩ : BufTy).Contents (Elt F)) := by
  have h := Sage.after_binary (a := main_v505) (b := main_call10_cst) (y := main_call10_v0) (ops_Writes (F := F)) 752 (launchContents m c) (by rfl) (by decide +kernel) (by decide +kernel) (by decide +kernel)
  unfold final
  generalize after ops (launchContents m c) = G at h ⊢
  exact h
theorem final_main_call10_v1 (m : (ℓ : Loc nD τ sig) → Buf (Elt F) ℓ) (c : Dev nD) :
    final m c (Proc.devRef .tc main_call10_v1) = (broadcastInDim S1x256 ![1] bcast_S256_S1x256_1 : (⟨S256, .f32⟩ : BufTy).Contents (Elt F) → (⟨S1x256, .f32⟩ : BufTy).Contents (Elt F)) (final m c (Proc.devRef .tc main_call10_v0)) := by
  have h := Sage.after_unary (x := main_call10_v0) (y := main_call10_v1) (ops_Writes (F := F)) 753 (launchContents m c) (by rfl) (by decide +kernel) (by decide +kernel)
  unfold final
  generalize after ops (launchContents m c) = G at h ⊢
  exact h
theorem final_main_call10_cst_0 (m : (ℓ : Loc nD τ sig) → Buf (Elt F) ℓ) (c : Dev nD) :
    final m c (Proc.devRef .tc main_call10_cst_0) = (constant S_ .f32 0x47435000#32 : (⟨S_, .f32⟩ : BufTy).Contents (Elt F)) := by
  have h := Sage.after_nullary (y := main_call10_cst_0) (ops_Writes (F := F)) 754 (launchContents m c) (by rfl) (by decide +kernel)
  unfold final
  generalize after ops (launchContents m c) = G at h ⊢
  exact h
theorem final_main_call10_v2 (m : (ℓ : Loc nD τ sig) → Buf (Elt F) ℓ) (c : Dev nD) :
    final m c (Proc.devRef .tc main_call10_v2) = (broadcastInDim S1x256 ![] bcast_S_S1x256 : (⟨S_, .f32⟩ : BufTy).Contents (Elt F) → (⟨S1x256, .f32⟩ : BufTy).Contents (Elt F)) (final m c (Proc.devRef .tc main_call10_cst_0)) := by
  have h := Sage.after_unary (x := main_call10_cst_0) (y := main_call10_v2) (ops_Writes (F := F)) 755 (launchContents m c) (by rfl) (by decide +kernel) (by decide +kernel)
  unfold final
  generalize after ops (launchContents m c) = G at h ⊢
  exact h
theorem final_main_call10_v3 (m : (ℓ : Loc nD τ sig) → Buf (Elt F) ℓ) (c : Dev nD) :
    final m c (Proc.devRef .tc main_call10_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call10_v1)) (final m c (Proc.devRef .tc main_call10_v2)) := by
  have h := Sage.after_binary (a := main_call10_v1) (b := main_call10_v2) (y := main_call10_v3) (ops_Writes (F := F)) 756 (launchContents m c) (by rfl) (by decide +kernel) (by decide +kernel) (by decide +kernel)
  unfold final
  generalize after ops (launchContents m c) = G at h ⊢
  exact h
theorem final_main_call10_v4 (m : (ℓ : Loc nD τ sig) → Buf (Elt F) ℓ) (c : Dev nD) :
    final m c (Proc.devRef .tc main_call10_v4) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_call10_v3)) := by
  have h := Sage.after_unary (x := main_call10_v3) (y := main_call10_v4) (ops_Writes (F := F)) 757 (launchContents m c) (by rfl) (by decide +kernel) (by decide +kernel)
  unfold final
  generalize after ops (launchContents m c) = G at h ⊢
  exact h
theorem final_main_call10_v5 (m : (ℓ : Loc nD τ sig) → Buf (Elt F) ℓ) (c : Dev nD) :
    final m c (Proc.devRef .tc main_call10_v5) = (subf : (⟨S50000x256, .f32⟩ : BufTy).Contents (Elt F) → (⟨S50000x256, .f32⟩ : BufTy).Contents (Elt F) → (⟨S50000x256, .f32⟩ : BufTy).Contents (Elt F)) (final m c (Proc.devRef .tc main_v505)) (final m c (Proc.devRef .tc main_call10_v4)) := by
  have h := Sage.after_binary (a := main_v505) (b := main_call10_v4) (y := main_call10_v5) (ops_Writes (F := F)) 758 (launchContents m c) (by rfl) (by decide +kernel) (by decide +kernel) (by decide +kernel)
  unfold final
  generalize after ops (launchContents m c) = G at h ⊢
  exact h
theorem final_main_call10_v6 (m : (ℓ : Loc nD τ sig) → Buf (Elt F) ℓ) (c : Dev nD) :
    final m c (Proc.devRef .tc main_call10_v6) = (mulf : (⟨S50000x256, .f32⟩ : BufTy).Contents (Elt F) → (⟨S50000x256, .f32⟩ : BufTy).Contents (Elt F) → (⟨S50000x256, .f32⟩ : BufTy).Contents (Elt F)) (final m c (Proc.devRef .tc main_call10_v5)) (final m c (Proc.devRef .tc main_call10_v5)) := by
  have h := Sage.after_binary (a := main_call10_v5) (b := main_call10_v5) (y := main_call10_v6) (ops_Writes (F := F)) 759 (launchContents m c) (by rfl) (by decide +kernel) (by decide +kernel) (by decide +kernel)
  unfold final
  generalize after ops (launchContents m c) = G at h ⊢
  exact h
theorem final_main_call10_v7 (m : (ℓ : Loc nD τ sig) → Buf (Elt F) ℓ) (c : Dev nD) :
    final m c (Proc.devRef .tc main_call10_v7) = (sitofp .f32 : (⟨S_, .i32⟩ : BufTy).Contents (Elt F) → (⟨S_, .f32⟩ : BufTy).Contents (Elt F)) (final m c (Proc.devRef .tc main_c_104)) := by
  have h := Sage.after_unary (x := main_c_104) (y := main_call10_v7) (ops_Writes (F := F)) 760 (launchContents m c) (by rfl) (by decide +kernel) (by decide +kernel)
  unfold final
  generalize after ops (launchContents m c) = G at h ⊢
  exact h
theorem final_main_call10_cst_1 (m : (ℓ : Loc nD τ sig) → Buf (Elt F) ℓ) (c : Dev nD) :
    final m c (Proc.devRef .tc main_call10_cst_1) = (constant S_ .f32 0x47435000#32 : (⟨S_, .f32⟩ : BufTy).Contents (Elt F)) := by
  have h := Sage.after_nullary (y := main_call10_cst_1) (ops_Writes (F := F)) 761 (launchContents m c) (by rfl) (by decide +kernel)
  unfold final
  generalize after ops (launchContents m c) = G at h ⊢
  exact h
theorem final_main_call10_v8 (m : (ℓ : Loc nD τ sig) → Buf (Elt F) ℓ) (c : Dev nD) :
    final m c (Proc.devRef .tc main_call10_v8) = (subf : (⟨S_, .f32⟩ : BufTy).Contents (Elt F) → (⟨S_, .f32⟩ : BufTy).Contents (Elt F) → (⟨S_, .f32⟩ : BufTy).Contents (Elt F)) (final m c (Proc.devRef .tc main_call10_cst_1)) (final m c (Proc.devRef .tc main_call10_v7)) := by
  have h := Sage.after_binary (a := main_call10_cst_1) (b := main_call10_v7) (y := main_call10_v8) (ops_Writes (F := F)) 762 (launchContents m c) (by rfl) (by decide +kernel) (by decide +kernel) (by decide +kernel)
  unfold final
  generalize after ops (launchContents m c) = G at h ⊢
  exact h
theorem final_main_call10_cst_2 (m : (ℓ : Loc nD τ sig) → Buf (Elt F) ℓ) (c : Dev nD) :
    final m c (Proc.devRef .tc main_call10_cst_2) = (constant S_ .f32 0x00000000#32 : (⟨S_, .f32⟩ : BufTy).Contents (Elt F)) := by
  have h := Sage.after_nullary (y := main_call10_cst_2) (ops_Writes (F := F)) 763 (launchContents m c) (by rfl) (by decide +kernel)
  unfold final
  generalize after ops (launchContents m c) = G at h ⊢
  exact h
theorem final_main_call10_v9 (m : (ℓ : Loc nD τ sig) → Buf (Elt F) ℓ) (c : Dev nD) :
    final m c (Proc.devRef .tc main_call10_v9) = (Host.reduceAdd (final m c (Proc.devRef .tc main_call10_v6)) (final m c (Proc.devRef .tc main_call10_cst_2)) reducesTo_S50000x256_S256_d0 h_S_ : (⟨S256, .f32⟩ : BufTy).Contents (Elt F)) := by
  have h := Sage.after_binary (a := main_call10_v6) (b := main_call10_cst_2) (y := main_call10_v9) (ops_Writes (F := F)) 764 (launchContents m c) (by rfl) (by decide +kernel) (by decide +kernel) (by decide +kernel)
  unfold final
  generalize after ops (launchContents m c) = G at h ⊢
  exact h
theorem final_main_call10_v10 (m : (ℓ : Loc nD τ sig) → Buf (Elt F) ℓ) (c : Dev nD) :
    final m c (Proc.devRef .tc main_call10_v10) = (broadcastInDim S256 ![] bcast_S_S256 : (⟨S_, .f32⟩ : BufTy).Contents (Elt F) → (⟨S256, .f32⟩ : BufTy).Contents (Elt F)) (final m c (Proc.devRef .tc main_call10_v8)) := by
  have h := Sage.after_unary (x := main_call10_v8) (y := main_call10_v10) (ops_Writes (F := F)) 765 (launchContents m c) (by rfl) (by decide +kernel) (by decide +kernel)
  unfold final
  generalize after ops (launchContents m c) = G at h ⊢
  exact h
theorem final_main_call10_v11 (m : (ℓ : Loc nD τ sig) → Buf (Elt F) ℓ) (c : Dev nD) :
    final m c (Proc.devRef .tc main_call10_v11) = (Host.divf : (⟨S256, .f32⟩ : BufTy).Contents (Elt F) → (⟨S256, .f32⟩ : BufTy).Contents (Elt F) → (⟨S256, .f32⟩ : BufTy).Contents (Elt F)) (final m c (Proc.devRef .tc main_call10_v9)) (final m c (Proc.devRef .tc main_call10_v10)) := by
  have h := Sage.after_binary (a := main_call10_v9) (b := main_call10_v10) (y := main_call10_v11) (ops_Writes (F := F)) 766 (launchContents m c) (by rfl) (by decide +kernel) (by decide +kernel) (by decide +kernel)
  unfold final
  generalize after ops (launchContents m c) = G at h ⊢
  exact h
theorem final_main_call10_cst_3 (m : (ℓ : Loc nD τ sig) → Buf (Elt F) ℓ) (c : Dev nD) :
    final m c (Proc.devRef .tc main_call10_cst_3) = (constant S_ .f32 0x00000000#32 : (⟨S_, .f32⟩ : BufTy).Contents (Elt F)) := by
  have h := Sage.after_nullary (y := main_call10_cst_3) (ops_Writes (F := F)) 767 (launchContents m c) (by rfl) (by decide +kernel)
  unfold final
  generalize after ops (launchContents m c) = G at h ⊢
  exact h
theorem final_main_call10_v12 (m : (ℓ : Loc nD τ sig) → Buf (Elt F) ℓ) (c : Dev nD) :
    final m c (Proc.devRef .tc main_call10_v12) = (cmpf .ogt : (⟨S_, .f32⟩ : BufTy).Contents (Elt F) → (⟨S_, .f32⟩ : BufTy).Contents (Elt F) → (⟨S_, .i1⟩ : BufTy).Contents (Elt F)) (final m c (Proc.devRef .tc main_call10_v8)) (final m c (Proc.devRef .tc main_call10_cst_3)) := by
  have h := Sage.after_binary (a := main_call10_v8) (b := main_call10_cst_3) (y := main_call10_v12) (ops_Writes (F := F)) 768 (launchContents m c) (by rfl) (by decide +kernel) (by decide +kernel) (by decide +kernel)
  unfold final
  generalize after ops (launchContents m c) = G at h ⊢
  exact h
theorem final_main_call10_cst_4 (m : (ℓ : Loc nD τ sig) → Buf (Elt F) ℓ) (c : Dev nD) :
    final m c (Proc.devRef .tc main_call10_cst_4) = (constant S_ .f32 0x7FC00000#32 : (⟨S_, .f32⟩ : BufTy).Contents (Elt F)) := by
  have h := Sage.after_nullary (y := main_call10_cst_4) (ops_Writes (F := F)) 769 (launchContents m c) (by rfl) (by decide +kernel)
  unfold final
  generalize after ops (launchContents m c) = G at h ⊢
  exact h
theorem final_main_call10_call0_v0 (m : (ℓ : Loc nD τ sig) → Buf (Elt F) ℓ) (c : Dev nD) :
    final m c (Proc.devRef .tc main_call10_call0_v0) = (id : (⟨S_, .f32⟩ : BufTy).Contents (Elt F) → (⟨S_, .f32⟩ : BufTy).Contents (Elt F)) (final m c (Proc.devRef .tc main_call10_cst_4)) := by
  have h := Sage.after_unary (x := main_call10_cst_4) (y := main_call10_call0_v0) (ops_Writes (F := F)) 770 (launchContents m c) (by rfl) (by decide +kernel) (by decide +kernel)
  unfold final
  generalize after ops (launchContents m c) = G at h ⊢
  exact h
theorem final_main_call10_call0_v1 (m : (ℓ : Loc nD τ sig) → Buf (Elt F) ℓ) (c : Dev nD) :
    final m c (Proc.devRef .tc main_call10_call0_v1) = (broadcastInDim S256 ![] bcast_S_S256 : (⟨S_, .f32⟩ : BufTy).Contents (Elt F) → (⟨S256, .f32⟩ : BufTy).Contents (Elt F)) (final m c (Proc.devRef .tc main_call10_call0_v0)) := by
  have h := Sage.after_unary (x := main_call10_call0_v0) (y := main_call10_call0_v1) (ops_Writes (F := F)) 771 (launchContents m c) (by rfl) (by decide +kernel) (by decide +kernel)
  unfold final
  generalize after ops (launchContents m c) = G at h ⊢
  exact h
theorem final_main_v529 (m : (ℓ : Loc nD τ sig) → Buf (Elt F) ℓ) (c : Dev nD) :
    final m c (Proc.devRef .tc main_v529) = (select (broadcastInDim S256 ![] bcast_S_S256 (final m c (Proc.devRef .tc main_call10_v12))) (final m c (Proc.devRef .tc main_call10_v11)) (final m c (Proc.devRef .tc main_call10_call0_v1)) : (⟨S256, .f32⟩ : BufTy).Contents (Elt F)) := by
  have h := Sage.after_ternary (c := main_call10_v12) (a := main_call10_v11) (b := main_call10_call0_v1) (y := main_v529) (ops_Writes (F := F)) 772 (launchContents m c) (by rfl) (by decide +kernel) (by decide +kernel) (by decide +kernel) (by decide +kernel)
  unfold final
  generalize after ops (launchContents m c) = G at h ⊢
  exact h
theorem final_main_v530 (m : (ℓ : Loc nD τ sig) → Buf (Elt F) ℓ) (c : Dev nD) :
    final m c (Proc.devRef .tc main_v530) = (broadcastInDim S1x256 ![1] bcast_S256_S1x256_1 : (⟨S256, .f32⟩ : BufTy).Contents (Elt F) → (⟨S1x256, .f32⟩ : BufTy).Contents (Elt F)) (final m c (Proc.devRef .tc main_v528)) := by
  have h := Sage.after_unary (x := main_v528) (y := main_v530) (ops_Writes (F := F)) 773 (launchContents m c) (by rfl) (by decide +kernel) (by decide +kernel)
  unfold final
  generalize after ops (launchContents m c) = G at h ⊢
  exact h
theorem final_main_v531 (m : (ℓ : Loc nD τ sig) → Buf (Elt F) ℓ) (c : Dev nD) :
    final m c (Proc.devRef .tc main_v531) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v530)) := by
  have h := Sage.after_unary (x := main_v530) (y := main_v531) (ops_Writes (F := F)) 774 (launchContents m c) (by rfl) (by decide +kernel) (by decide +kernel)
  unfold final
  generalize after ops (launchContents m c) = G at h ⊢
  exact h
theorem final_main_v532 (m : (ℓ : Loc nD τ sig) → Buf (Elt F) ℓ) (c : Dev nD) :
    final m c (Proc.devRef .tc main_v532) = (subf : (⟨S50000x256, .f32⟩ : BufTy).Contents (Elt F) → (⟨S50000x256, .f32⟩ : BufTy).Contents (Elt F) → (⟨S50000x256, .f32⟩ : BufTy).Contents (Elt F)) (final m c (Proc.devRef .tc main_v505)) (final m c (Proc.devRef .tc main_v531)) := by
  have h := Sage.after_binary (a := main_v505) (b := main_v531) (y := main_v532) (ops_Writes (F := F)) 775 (launchContents m c) (by rfl) (by decide +kernel) (by decide +kernel) (by decide +kernel)
  unfold final
  generalize after ops (launchContents m c) = G at h ⊢
  exact h
theorem final_main_cst_105 (m : (ℓ : Loc nD τ sig) → Buf (Elt F) ℓ) (c : Dev nD) :
    final m c (Proc.devRef .tc main_cst_105) = (constant S_ .f32 0x3727C5AC#32) := by
  have h := Sage.after_nullary (y := main_cst_105) (ops_Writes (F := F)) 776 (launchContents m c) (by rfl) (by decide +kernel)
  unfold final
  generalize after ops (launchContents m c) = G at h ⊢
  exact h
theorem final_main_v533 (m : (ℓ : Loc nD τ sig) → Buf (Elt F) ℓ) (c : Dev nD) :
    final m c (Proc.devRef .tc main_v533) = (broadcastInDim S256 ![] bcast_S_S256 : (⟨S_, .f32⟩ : BufTy).Contents (Elt F) → (⟨S256, .f32⟩ : BufTy).Contents (Elt F)) (final m c (Proc.devRef .tc main_cst_105)) := by
  have h := Sage.after_unary (x := main_cst_105) (y := main_v533) (ops_Writes (F := F)) 777 (launchContents m c) (by rfl) (by decide +kernel) (by decide +kernel)
  unfold final
  generalize after ops (launchContents m c) = G at h ⊢
  exact h
theorem final_main_v534 (m : (ℓ : Loc nD τ sig) → Buf (Elt F) ℓ) (c : Dev nD) :
    final m c (Proc.devRef .tc main_v534) = (addf : (⟨S256, .f32⟩ : BufTy).Contents (Elt F) → (⟨S256, .f32⟩ : BufTy).Contents (Elt F) → (⟨S256, .f32⟩ : BufTy).Contents (Elt F)) (final m c (Proc.devRef .tc main_v529)) (final m c (Proc.devRef .tc main_v533)) := by
  have h := Sage.after_binary (a := main_v529) (b := main_v533) (y := main_v534) (ops_Writes (F := F)) 778 (launchContents m c) (by rfl) (by decide +kernel) (by decide +kernel) (by decide +kernel)
  unfold final
  generalize after ops (launchContents m c) = G at h ⊢
  exact h
theorem final_main_v535 (m : (ℓ : Loc nD τ sig) → Buf (Elt F) ℓ) (c : Dev nD) :
    final m c (Proc.devRef .tc main_v535) = (Host.rsqrt : (⟨S256, .f32⟩ : BufTy).Contents (Elt F) → (⟨S256, .f32⟩ : BufTy).Contents (Elt F)) (final m c (Proc.devRef .tc main_v534)) := by
  have h := Sage.after_unary (x := main_v534) (y := main_v535) (ops_Writes (F := F)) 779 (launchContents m c) (by rfl) (by decide +kernel) (by decide +kernel)
  unfold final
  generalize after ops (launchContents m c) = G at h ⊢
  exact h
theorem final_main_v536 (m : (ℓ : Loc nD τ sig) → Buf (Elt F) ℓ) (c : Dev nD) :
    final m c (Proc.devRef .tc main_v536) = (broadcastInDim S1x256 ![1] bcast_S256_S1x256_1 : (⟨S256, .f32⟩ : BufTy).Contents (Elt F) → (⟨S1x256, .f32⟩ : BufTy).Contents (Elt F)) (final m c (Proc.devRef .tc main_v535)) := by
  have h := Sage.after_unary (x := main_v535) (y := main_v536) (ops_Writes (F := F)) 780 (launchContents m c) (by rfl) (by decide +kernel) (by decide +kernel)
  unfold final
  generalize after ops (launchContents m c) = G at h ⊢
  exact h
theorem final_main_v537 (m : (ℓ : Loc nD τ sig) → Buf (Elt F) ℓ) (c : Dev nD) :
    final m c (Proc.devRef .tc main_v537) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v536)) := by
  have h := Sage.after_unary (x := main_v536) (y := main_v537) (ops_Writes (F := F)) 781 (launchContents m c) (by rfl) (by decide +kernel) (by decide +kernel)
  unfold final
  generalize after ops (launchContents m c) = G at h ⊢
  exact h
theorem final_main_v538 (m : (ℓ : Loc nD τ sig) → Buf (Elt F) ℓ) (c : Dev nD) :
    final m c (Proc.devRef .tc main_v538) = (mulf : (⟨S50000x256, .f32⟩ : BufTy).Contents (Elt F) → (⟨S50000x256, .f32⟩ : BufTy).Contents (Elt F) → (⟨S50000x256, .f32⟩ : BufTy).Contents (Elt F)) (final m c (Proc.devRef .tc main_v532)) (final m c (Proc.devRef .tc main_v537)) := by
  have h := Sage.after_binary (a := main_v532) (b := main_v537) (y := main_v538) (ops_Writes (F := F)) 782 (launchContents m c) (by rfl) (by decide +kernel) (by decide +kernel) (by decide +kernel)
  unfold final
  generalize after ops (launchContents m c) = G at h ⊢
  exact h
theorem final_main_v539 (m : (ℓ : Loc nD τ sig) → Buf (Elt F) ℓ) (c : Dev nD) :
    final m c (Proc.devRef .tc main_v539) = (broadcastInDim S1x256 ![1] bcast_S256_S1x256_1 : (⟨S256, .f32⟩ : BufTy).Contents (Elt F) → (⟨S1x256, .f32⟩ : BufTy).Contents (Elt F)) (final m c (Proc.devRef .tc main_arg12)) := by
  have h := Sage.after_unary (x := main_arg12) (y := main_v539) (ops_Writes (F := F)) 783 (launchContents m c) (by rfl) (by decide +kernel) (by decide +kernel)
  unfold final
  generalize after ops (launchContents m c) = G at h ⊢
  exact h
theorem final_main_v540 (m : (ℓ : Loc nD τ sig) → Buf (Elt F) ℓ) (c : Dev nD) :
    final m c (Proc.devRef .tc main_v540) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v539)) := by
  have h := Sage.after_unary (x := main_v539) (y := main_v540) (ops_Writes (F := F)) 784 (launchContents m c) (by rfl) (by decide +kernel) (by decide +kernel)
  unfold final
  generalize after ops (launchContents m c) = G at h ⊢
  exact h
theorem final_main_v541 (m : (ℓ : Loc nD τ sig) → Buf (Elt F) ℓ) (c : Dev nD) :
    final m c (Proc.devRef .tc main_v541) = (mulf : (⟨S50000x256, .f32⟩ : BufTy).Contents (Elt F) → (⟨S50000x256, .f32⟩ : BufTy).Contents (Elt F) → (⟨S50000x256, .f32⟩ : BufTy).Contents (Elt F)) (final m c (Proc.devRef .tc main_v538)) (final m c (Proc.devRef .tc main_v540)) := by
  have h := Sage.after_binary (a := main_v538) (b := main_v540) (y := main_v541) (ops_Writes (F := F)) 785 (launchContents m c) (by rfl) (by decide +kernel) (by decide +kernel) (by decide +kernel)
  unfold final
  generalize after ops (launchContents m c) = G at h ⊢
  exact h
theorem final_main_v542 (m : (ℓ : Loc nD τ sig) → Buf (Elt F) ℓ) (c : Dev nD) :
    final m c (Proc.devRef .tc main_v542) = (broadcastInDim S1x256 ![1] bcast_S256_S1x256_1 : (⟨S256, .f32⟩ : BufTy).Contents (Elt F) → (⟨S1x256, .f32⟩ : BufTy).Contents (Elt F)) (final m c (Proc.devRef .tc main_arg13)) := by
  have h := Sage.after_unary (x := main_arg13) (y := main_v542) (ops_Writes (F := F)) 786 (launchContents m c) (by rfl) (by decide +kernel) (by decide +kernel)
  unfold final
  generalize after ops (launchContents m c) = G at h ⊢
  exact h
theorem final_main_v543 (m : (ℓ : Loc nD τ sig) → Buf (Elt F) ℓ) (c : Dev nD) :
    final m c (Proc.devRef .tc main_v543) = (broadcastInDim S50000x256 ![0, 1] bcast_S1x256_S50000x256_0_1 : (⟨S1x256, .f32⟩ : BufTy).Contents (Elt F) → (⟨S50000x256, .f32⟩ : BufTy).Contents (Elt F)) (final m c (Proc.devRef .tc main_v542)) := by
  have h := Sage.after_unary (x := main_v542) (y := main_v543) (ops_Writes (F := F)) 787 (launchContents m c) (by rfl) (by decide +kernel) (by decide +kernel)
  unfold final
  generalize after ops (launchContents m c) = G at h ⊢
  exact h
theorem final_main_v544 (m : (ℓ : Loc nD τ sig) → Buf (Elt F) ℓ) (c : Dev nD) :
    final m c (Proc.devRef .tc main_v544) = (addf : (⟨S50000x256, .f32⟩ : BufTy).Contents (Elt F) → (⟨S50000x256, .f32⟩ : BufTy).Contents (Elt F) → (⟨S50000x256, .f32⟩ : BufTy).Contents (Elt F)) (final m c (Proc.devRef .tc main_v541)) (final m c (Proc.devRef .tc main_v543)) := by
  have h := Sage.after_binary (a := main_v541) (b := main_v543) (y := main_v544) (ops_Writes (F := F)) 788 (launchContents m c) (by rfl) (by decide +kernel) (by decide +kernel) (by decide +kernel)
  unfold final
  generalize after ops (launchContents m c) = G at h ⊢
  exact h
theorem final_main_call11_cst (m : (ℓ : Loc nD τ sig) → Buf (Elt F) ℓ) (c : Dev nD) :
    final m c (Proc.devRef .tc main_call11_cst) = (constant S_ .f32 0x00000000#32 : (⟨S_, .f32⟩ : BufTy).Contents (Elt F)) := by
  have h := Sage.after_nullary (y := main_call11_cst) (ops_Writes (F := F)) 789 (launchContents m c) (by rfl) (by decide +kernel)
  unfold final
  generalize after ops (launchContents m c) = G at h ⊢
  exact h
theorem final_main_call11_v0 (m : (ℓ : Loc nD τ sig) → Buf (Elt F) ℓ) (c : Dev nD) :
    final m c (Proc.devRef .tc main_call11_v0) = (broadcastInDim S50000x256 ![] bcast_S_S50000x256 : (⟨S_, .f32⟩ : BufTy).Contents (Elt F) → (⟨S50000x256, .f32⟩ : BufTy).Contents (Elt F)) (final m c (Proc.devRef .tc main_call11_cst)) := by
  have h := Sage.after_unary (x := main_call11_cst) (y := main_call11_v0) (ops_Writes (F := F)) 790 (launchContents m c) (by rfl) (by decide +kernel) (by decide +kernel)
  unfold final
  generalize after ops (launchContents m c) = G at h ⊢
  exact h
theorem final_main_v545 (m : (ℓ : Loc nD τ sig) → Buf (Elt F) ℓ) (c : Dev nD) :
    final m c (Proc.devRef .tc main_v545) = (maximumf : (⟨S50000x256, .f32⟩ : BufTy).Contents (Elt F) → (⟨S50000x256, .f32⟩ : BufTy).Contents (Elt F) → (⟨S50000x256, .f32⟩ : BufTy).Contents (Elt F)) (final m c (Proc.devRef .tc main_v544)) (final m c (Proc.devRef .tc main_call11_v0)) := by
  have h := Sage.after_binary (a := main_v544) (b := main_call11_v0) (y := main_v545) (ops_Writes (F := F)) 791 (launchContents m c) (by rfl) (by decide +kernel) (by decide +kernel) (by decide +kernel)
  unfold final
  generalize after ops (launchContents m c) = G at h ⊢
  exact h
theorem final_main_cst_106 (m : (ℓ : Loc nD τ sig) → Buf (Elt F) ℓ) (c : Dev nD) :
    final m c (Proc.devRef .tc main_cst_106) = (constant S_ .f32 0x00000000#32) := by
  have h := Sage.after_nullary (y := main_cst_106) (ops_Writes (F := F)) 792 (launchContents m c) (by rfl) (by decide +kernel)
  unfold final
  generalize after ops (launchContents m c) = G at h ⊢
  exact h
theorem final_main_v546 (m : (ℓ : Loc nD τ sig) → Buf (Elt F) ℓ) (c : Dev nD) :
    final m c (Proc.devRef .tc main_v546) = (Host.reduceAdd (final m c (Proc.devRef .tc main_v413)) (final m c (Proc.devRef .tc main_cst_106)) reducesTo_S10000x256_S256_d0 h_S_ : (⟨S256, .f32⟩ : BufTy).Contents (Elt F)) := by
  have h := Sage.after_binary (a := main_v413) (b := main_cst_106) (y := main_v546) (ops_Writes (F := F)) 793 (launchContents m c) (by rfl) (by decide +kernel) (by decide +kernel) (by decide +kernel)
  unfold final
  generalize after ops (launchContents m c) = G at h ⊢
  exact h
theorem final_main_cst_107 (m : (ℓ : Loc nD τ sig) → Buf (Elt F) ℓ) (c : Dev nD) :
    final m c (Proc.devRef .tc main_cst_107) = (constant S_ .f32 0x461C4000#32) := by
  have h := Sage.after_nullary (y := main_cst_107) (ops_Writes (F := F)) 794 (launchContents m c) (by rfl) (by decide +kernel)
  unfold final
  generalize after ops (launchContents m c) = G at h ⊢
  exact h
theorem final_main_v547 (m : (ℓ : Loc nD τ sig) → Buf (Elt F) ℓ) (c : Dev nD) :
    final m c (Proc.devRef .tc main_v547) = (broadcastInDim S256 ![] bcast_S_S256 : (⟨S_, .f32⟩ : BufTy).Contents (Elt F) → (⟨S256, .f32⟩ : BufTy).Contents (Elt F)) (final m c (Proc.devRef .tc main_cst_107)) := by
  have h := Sage.after_unary (x := main_cst_107) (y := main_v547) (ops_Writes (F := F)) 795 (launchContents m c) (by rfl) (by decide +kernel) (by decide +kernel)
  unfold final
  generalize after ops (launchContents m c) = G at h ⊢
  exact h
theorem final_main_v548 (m : (ℓ : Loc nD τ sig) → Buf (Elt F) ℓ) (c : Dev nD) :
    final m c (Proc.devRef .tc main_v548) = (Host.divf : (⟨S256, .f32⟩ : BufTy).Contents (Elt F) → (⟨S256, .f32⟩ : BufTy).Contents (Elt F) → (⟨S256, .f32⟩ : BufTy).Contents (Elt F)) (final m c (Proc.devRef .tc main_v546)) (final m c (Proc.devRef .tc main_v547)) := by
  have h := Sage.after_binary (a := main_v546) (b := main_v547) (y := main_v548) (ops_Writes (F := F)) 796 (launchContents m c) (by rfl) (by decide +kernel) (by decide +kernel) (by decide +kernel)
  unfold final
  generalize after ops (launchContents m c) = G at h ⊢
  exact h
theorem final_main_c_108 (m : (ℓ : Loc nD τ sig) → Buf (Elt F) ℓ) (c : Dev nD) :
    final m c (Proc.devRef .tc main_c_108) = (constantI S_ 32 0#32) := by
  have h := Sage.after_nullary (y := main_c_108) (ops_Writes (F := F)) 797 (launchContents m c) (by rfl) (by decide +kernel)
  unfold final
  generalize after ops (launchContents m c) = G at h ⊢
  exact h

end Cert.ReferenceIdeal.Hand

end
-- ==== Proof.Ref.StageRel2.lean ====
/-
  The reference's layer-2 relation stages, relation by relation. The buffer that holds a relation's contribution at the
  end of the run is the pure relation stage (`refRel2_<i>`) of five buffers' final contents: the relation's aggregated
  rows, the destination node type's own rows, the two weight stacks and the biases. Each equation is read off the run
  one operation at a time, from the result back to those buffers; what remains is the printed composition (two slices
  and reshapes of the weights, the bias row laid along the rows, two products and two additions), which is the pure
  function by unfolding.
-/
import proofs.«126569_j1468878815453_1_alg».proof.Proof.Ref.Final6
import proofs.«126569_j1468878815453_1_alg».proof.Proof.Ref.Final7
import proofs.«126569_j1468878815453_1_alg».proof.Proof.Ref.Final8
import proofs.«126569_j1468878815453_1_alg».proof.Proof.Ref.Final9
import proofs.«126569_j1468878815453_1_alg».proof.Proof.Ref.Final10
import proofs.«126569_j1468878815453_1_alg».proof.Proof.Ref.PureNet

noncomputable section

namespace Cert.ReferenceIdeal.Hand

open Cert.ReferenceIdeal Cert.ReferenceIdeal.Gen Idealize.ShloMosaic Idealize.ShloMosaic.TcCoe Idealize.SL.Sem Idealize.ShloMosaic.StableHlo

/-- Layer 2, relation 0: the contribution `%322` is the aggregated rows `%310` against the relation's left weights
    (matrix 0 of `%arg7`), plus its bias (row 0 of `%arg9`), plus the third node type's own rows `%272` against its right
    weights (matrix 0 of `%arg8`). -/
theorem rel2_0 (m : (ℓ : Loc nD τ sig) → Buf (Elt Ideal) ℓ) (c : Dev nD) :
    final m c (Proc.devRef .tc main_v322)
      = refRel2_0 (F := Ideal) (final m c (Proc.devRef .tc main_v310)) (final m c (Proc.devRef .tc main_v272)) (final m c (Proc.devRef .tc main_arg7)) (final m c (Proc.devRef .tc main_arg8)) (final m c (Proc.devRef .tc main_arg9)) := by
  rw [final_main_v322, final_main_v321, final_main_v320, final_main_v319, final_main_v318, final_main_v317,
    final_main_v316, final_main_v315, final_main_v314, final_main_v313, final_main_v312, final_main_v311]
  rfl

/-- Layer 2, relation 1: the contribution `%352` is the aggregated rows `%340` against the relation's left weights
    (matrix 1 of `%arg7`), plus its bias (row 1 of `%arg9`), plus the second node type's own rows `%252` against its right
    weights (matrix 1 of `%arg8`). -/
theorem rel2_1 (m : (ℓ : Loc nD τ sig) → Buf (Elt Ideal) ℓ) (c : Dev nD) :
    final m c (Proc.devRef .tc main_v352)
      = refRel2_1 (F := Ideal) (final m c (Proc.devRef .tc main_v340)) (final m c (Proc.devRef .tc main_v252)) (final m c (Proc.devRef .tc main_arg7)) (final m c (Proc.devRef .tc main_arg8)) (final m c (Proc.devRef .tc main_arg9)) := by
  rw [final_main_v352, final_main_v351, final_main_v350, final_main_v349, final_main_v348, final_main_v347,
    final_main_v346, final_main_v345, final_main_v344, final_main_v343, final_main_v342, final_main_v341]
  rfl

/-- Layer 2, relation 2: the contribution `%382` is the aggregated rows `%370` against the relation's left weights
    (matrix 2 of `%arg7`), plus its bias (row 2 of `%arg9`), plus the fourth node type's own rows `%292` against its right
    weights (matrix 2 of `%arg8`). -/
theorem rel2_2 (m : (ℓ : Loc nD τ sig) → Buf (Elt Ideal) ℓ) (c : Dev nD) :
    final m c (Proc.devRef .tc main_v382)
      = refRel2_2 (F := Ideal) (final m c (Proc.devRef .tc main_v370)) (final m c (Proc.devRef .tc main_v292)) (final m c (Proc.devRef .tc main_arg7)) (final m c (Proc.devRef .tc main_arg8)) (final m c (Proc.devRef .tc main_arg9)) := by
  rw [final_main_v382, final_main_v381, final_main_v380, final_main_v379, final_main_v378, final_main_v377,
    final_main_v376, final_main_v375, final_main_v374, final_main_v373, final_main_v372, final_main_v371]
  rfl

/-- Layer 2, relation 3: the contribution `%412` is the aggregated rows `%400` against the relation's left weights
    (matrix 3 of `%arg7`), plus its bias (row 3 of `%arg9`), plus the third node type's own rows `%272` against its right
    weights (matrix 3 of `%arg8`). -/
theorem rel2_3 (m : (ℓ : Loc nD τ sig) → Buf (Elt Ideal) ℓ) (c : Dev nD) :
    final m c (Proc.devRef .tc main_v412)
      = refRel2_3 (F := Ideal) (final m c (Proc.devRef .tc main_v400)) (final m c (Proc.devRef .tc main_v272)) (final m c (Proc.devRef .tc main_arg7)) (final m c (Proc.devRef .tc main_arg8)) (final m c (Proc.devRef .tc main_arg9)) := by
  rw [final_main_v412, final_main_v411, final_main_v410, final_main_v409, final_main_v408, final_main_v407,
    final_main_v406, final_main_v405, final_main_v404, final_main_v403, final_main_v402, final_main_v401]
  rfl

/-- Layer 2, relation 4: the contribution `%443` is the aggregated rows `%431` against the relation's left weights
    (matrix 4 of `%arg7`), plus its bias (row 4 of `%arg9`), plus the first node type's own rows `%232` against its right
    weights (matrix 4 of `%arg8`). -/
theorem rel2_4 (m : (ℓ : Loc nD τ sig) → Buf (Elt Ideal) ℓ) (c : Dev nD) :
    final m c (Proc.devRef .tc main_v443)
      = refRel2_4 (F := Ideal) (final m c (Proc.devRef .tc main_v431)) (final m c (Proc.devRef .tc main_v232)) (final m c (Proc.devRef .tc main_arg7)) (final m c (Proc.devRef .tc main_arg8)) (final m c (Proc.devRef .tc main_arg9)) := by
  rw [final_main_v443, final_main_v442, final_main_v441, final_main_v440, final_main_v439, final_main_v438,
    final_main_v437, final_main_v436, final_main_v435, final_main_v434, final_main_v433, final_main_v432]
  rfl

/-- Layer 2, relation 5: the contribution `%473` is the aggregated rows `%461` against the relation's left weights
    (matrix 5 of `%arg7`), plus its bias (row 5 of `%arg9`), plus the first node type's own rows `%232` against its right
    weights (matrix 5 of `%arg8`). -/
theorem rel2_5 (m : (ℓ : Loc nD τ sig) → Buf (Elt Ideal) ℓ) (c : Dev nD) :
    final m c (Proc.devRef .tc main_v473)
      = refRel2_5 (F := Ideal) (final m c (Proc.devRef .tc main_v461)) (final m c (Proc.devRef .tc main_v232)) (final m c (Proc.devRef .tc main_arg7)) (final m c (Proc.devRef .tc main_arg8)) (final m c (Proc.devRef .tc main_arg9)) := by
  rw [final_main_v473, final_main_v472, final_main_v471, final_main_v470, final_main_v469, final_main_v468,
    final_main_v467, final_main_v466, final_main_v465, final_main_v464, final_main_v463, final_main_v462]
  rfl

/-- Layer 2, relation 6: the contribution `%504` is the aggregated rows `%492` against the relation's left weights
    (matrix 6 of `%arg7`), plus its bias (row 6 of `%arg9`), plus the second node type's own rows `%252` against its right
    weights (matrix 6 of `%arg8`). -/
theorem rel2_6 (m : (ℓ : Loc nD τ sig) → Buf (Elt Ideal) ℓ) (c : Dev nD) :
    final m c (Proc.devRef .tc main_v504)
      = refRel2_6 (F := Ideal) (final m c (Proc.devRef .tc main_v492)) (final m c (Proc.devRef .tc main_v252)) (final m c (Proc.devRef .tc main_arg7)) (final m c (Proc.devRef .tc main_arg8)) (final m c (Proc.devRef .tc main_arg9)) := by
  rw [final_main_v504, final_main_v503, final_main_v502, final_main_v501, final_main_v500, final_main_v499,
    final_main_v498, final_main_v497, final_main_v496, final_main_v495, final_main_v494, final_main_v493]
  rfl

end Cert.ReferenceIdeal.Hand

end
-- ==== Proof.Ref.Final11.lean ====
import proofs.«126569_j1468878815453_1_alg».proof.Proof.Ref.Run
import proofs.«126569_j1468878815453_1_alg».proof.Proof.Ref.Writes

-- the operation at a position of the line, and a reference's absence from the rest of the written list, are computations over up to 886 steps
set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Window 11 (operations 799 … 886 of 886): what each result buffer holds when @main has run, one operation back. -/

theorem final_main_call12_cst (m : (ℓ : Loc nD τ sig) → Buf (Elt F) ℓ) (c : Dev nD) :
    final m c (Proc.devRef .tc main_call12_cst) = (constant S_ .f32 0x00000000#32 : (⟨S_, .f32⟩ : BufTy).Contents (Elt F)) := by
  have h := Sage.after_nullary (y := main_call12_cst) (ops_Writes (F := F)) 798 (launchContents m c) (by rfl) (by decide +kernel)
  unfold final
  generalize after ops (launchContents m c) = G at h ⊢
  exact h
theorem final_main_call12_v0 (m : (ℓ : Loc nD τ sig) → Buf (Elt F) ℓ) (c : Dev nD) :
    final m c (Proc.devRef .tc main_call12_v0) = (Host.reduceAdd (final m c (Proc.devRef .tc main_v413)) (final m c (Proc.devRef .tc main_call12_cst)) reducesTo_S10000x256_S256_d0 h_S_ : (⟨S256, .f32⟩ : BufTy).Contents (Elt F)) := by
  have h := Sage.after_binary (a := main_v413) (b := main_call12_cst) (y := main_call12_v0) (ops_Writes (F := F)) 799 (launchContents m c) (by rfl) (by decide +kernel) (by decide +kernel) (by decide +kernel)
  unfold final
  generalize after ops (launchContents m c) = G at h ⊢
  exact h
theorem final_main_call12_v1 (m : (ℓ : Loc nD τ sig) → Buf (Elt F) ℓ) (c : Dev nD) :
    final m c (Proc.devRef .tc main_call12_v1) = (broadcastInDim S1x256 ![1] bcast_S256_S1x256_1 : (⟨S256, .f32⟩ : BufTy).Contents (Elt F) → (⟨S1x256, .f32⟩ : BufTy).Contents (Elt F)) (final m c (Proc.devRef .tc main_call12_v0)) := by
  have h := Sage.after_unary (x := main_call12_v0) (y := main_call12_v1) (ops_Writes (F := F)) 800 (launchContents m c) (by rfl) (by decide +kernel) (by decide +kernel)
  unfold final
  generalize after ops (launchContents m c) = G at h ⊢
  exact h
theorem final_main_call12_cst_0 (m : (ℓ : Loc nD τ sig) → Buf (Elt F) ℓ) (c : Dev nD) :
    final m c (Proc.devRef .tc main_call12_cst_0) = (constant S_ .f32 0x461C4000#32 : (⟨S_, .f32⟩ : BufTy).Contents (Elt F)) := by
  have h := Sage.after_nullary (y := main_call12_cst_0) (ops_Writes (F := F)) 801 (launchContents m c) (by rfl) (by decide +kernel)
  unfold final
  generalize after ops (launchContents m c) = G at h ⊢
  exact h
theorem final_main_call12_v2 (m : (ℓ : Loc nD τ sig) → Buf (Elt F) ℓ) (c : Dev nD) :
    final m c (Proc.devRef .tc main_call12_v2) = (broadcastInDim S1x256 ![] bcast_S_S1x256 : (⟨S_, .f32⟩ : BufTy).Contents (Elt F) → (⟨S1x256, .f32⟩ : BufTy).Contents (Elt F)) (final m c (Proc.devRef .tc main_call12_cst_0)) := by
  have h := Sage.after_unary (x := main_call12_cst_0) (y := main_call12_v2) (ops_Writes (F := F)) 802 (launchContents m c) (by rfl) (by decide +kernel) (by decide +kernel)
  unfold final
  generalize after ops (launchContents m c) = G at h ⊢
  exact h
theorem final_main_call12_v3 (m : (ℓ : Loc nD τ sig) → Buf (Elt F) ℓ) (c : Dev nD) :
    final m c (Proc.devRef .tc main_call12_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call12_v1)) (final m c (Proc.devRef .tc main_call12_v2)) := by
  have h := Sage.after_binary (a := main_call12_v1) (b := main_call12_v2) (y := main_call12_v3) (ops_Writes (F := F)) 803 (launchContents m c) (by rfl) (by decide +kernel) (by decide +kernel) (by decide +kernel)
  unfold final
  generalize after ops (launchContents m c) = G at h ⊢
  exact h
theorem final_main_call12_v4 (m : (ℓ : Loc nD τ sig) → Buf (Elt F) ℓ) (c : Dev nD) :
    final m c (Proc.devRef .tc main_call12_v4) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_call12_v3)) := by
  have h := Sage.after_unary (x := main_call12_v3) (y := main_call12_v4) (ops_Writes (F := F)) 804 (launchContents m c) (by rfl) (by decide +kernel) (by decide +kernel)
  unfold final
  generalize after ops (launchContents m c) = G at h ⊢
  exact h
theorem final_main_call12_v5 (m : (ℓ : Loc nD τ sig) → Buf (Elt F) ℓ) (c : Dev nD) :
    final m c (Proc.devRef .tc main_call12_v5) = (subf : (⟨S10000x256, .f32⟩ : BufTy).Contents (Elt F) → (⟨S10000x256, .f32⟩ : BufTy).Contents (Elt F) → (⟨S10000x256, .f32⟩ : BufTy).Contents (Elt F)) (final m c (Proc.devRef .tc main_v413)) (final m c (Proc.devRef .tc main_call12_v4)) := by
  have h := Sage.after_binary (a := main_v413) (b := main_call12_v4) (y := main_call12_v5) (ops_Writes (F := F)) 805 (launchContents m c) (by rfl) (by decide +kernel) (by decide +kernel) (by decide +kernel)
  unfold final
  generalize after ops (launchContents m c) = G at h ⊢
  exact h
theorem final_main_call12_v6 (m : (ℓ : Loc nD τ sig) → Buf (Elt F) ℓ) (c : Dev nD) :
    final m c (Proc.devRef .tc main_call12_v6) = (mulf : (⟨S10000x256, .f32⟩ : BufTy).Contents (Elt F) → (⟨S10000x256, .f32⟩ : BufTy).Contents (Elt F) → (⟨S10000x256, .f32⟩ : BufTy).Contents (Elt F)) (final m c (Proc.devRef .tc main_call12_v5)) (final m c (Proc.devRef .tc main_call12_v5)) := by
  have h := Sage.after_binary (a := main_call12_v5) (b := main_call12_v5) (y := main_call12_v6) (ops_Writes (F := F)) 806 (launchContents m c) (by rfl) (by decide +kernel) (by decide +kernel) (by decide +kernel)
  unfold final
  generalize after ops (launchContents m c) = G at h ⊢
  exact h
theorem final_main_call12_v7 (m : (ℓ : Loc nD τ sig) → Buf (Elt F) ℓ) (c : Dev nD) :
    final m c (Proc.devRef .tc main_call12_v7) = (sitofp .f32 : (⟨S_, .i32⟩ : BufTy).Contents (Elt F) → (⟨S_, .f32⟩ : BufTy).Contents (Elt F)) (final m c (Proc.devRef .tc main_c_108)) := by
  have h := Sage.after_unary (x := main_c_108) (y := main_call12_v7) (ops_Writes (F := F)) 807 (launchContents m c) (by rfl) (by decide +kernel) (by decide +kernel)
  unfold final
  generalize after ops (launchContents m c) = G at h ⊢
  exact h
theorem final_main_call12_cst_1 (m : (ℓ : Loc nD τ sig) → Buf (Elt F) ℓ) (c : Dev nD) :
    final m c (Proc.devRef .tc main_call12_cst_1) = (constant S_ .f32 0x461C4000#32 : (⟨S_, .f32⟩ : BufTy).Contents (Elt F)) := by
  have h := Sage.after_nullary (y := main_call12_cst_1) (ops_Writes (F := F)) 808 (launchContents m c) (by rfl) (by decide +kernel)
  unfold final
  generalize after ops (launchContents m c) = G at h ⊢
  exact h
theorem final_main_call12_v8 (m : (ℓ : Loc nD τ sig) → Buf (Elt F) ℓ) (c : Dev nD) :
    final m c (Proc.devRef .tc main_call12_v8) = (subf : (⟨S_, .f32⟩ : BufTy).Contents (Elt F) → (⟨S_, .f32⟩ : BufTy).Contents (Elt F) → (⟨S_, .f32⟩ : BufTy).Contents (Elt F)) (final m c (Proc.devRef .tc main_call12_cst_1)) (final m c (Proc.devRef .tc main_call12_v7)) := by
  have h := Sage.after_binary (a := main_call12_cst_1) (b := main_call12_v7) (y := main_call12_v8) (ops_Writes (F := F)) 809 (launchContents m c) (by rfl) (by decide +kernel) (by decide +kernel) (by decide +kernel)
  unfold final
  generalize after ops (launchContents m c) = G at h ⊢
  exact h
theorem final_main_call12_cst_2 (m : (ℓ : Loc nD τ sig) → Buf (Elt F) ℓ) (c : Dev nD) :
    final m c (Proc.devRef .tc main_call12_cst_2) = (constant S_ .f32 0x00000000#32 : (⟨S_, .f32⟩ : BufTy).Contents (Elt F)) := by
  have h := Sage.after_nullary (y := main_call12_cst_2) (ops_Writes (F := F)) 810 (launchContents m c) (by rfl) (by decide +kernel)
  unfold final
  generalize after ops (launchContents m c) = G at h ⊢
  exact h
theorem final_main_call12_v9 (m : (ℓ : Loc nD τ sig) → Buf (Elt F) ℓ) (c : Dev nD) :
    final m c (Proc.devRef .tc main_call12_v9) = (Host.reduceAdd (final m c (Proc.devRef .tc main_call12_v6)) (final m c (Proc.devRef .tc main_call12_cst_2)) reducesTo_S10000x256_S256_d0 h_S_ : (⟨S256, .f32⟩ : BufTy).Contents (Elt F)) := by
  have h := Sage.after_binary (a := main_call12_v6) (b := main_call12_cst_2) (y := main_call12_v9) (ops_Writes (F := F)) 811 (launchContents m c) (by rfl) (by decide +kernel) (by decide +kernel) (by decide +kernel)
  unfold final
  generalize after ops (launchContents m c) = G at h ⊢
  exact h
theorem final_main_call12_v10 (m : (ℓ : Loc nD τ sig) → Buf (Elt F) ℓ) (c : Dev nD) :
    final m c (Proc.devRef .tc main_call12_v10) = (broadcastInDim S256 ![] bcast_S_S256 : (⟨S_, .f32⟩ : BufTy).Contents (Elt F) → (⟨S256, .f32⟩ : BufTy).Contents (Elt F)) (final m c (Proc.devRef .tc main_call12_v8)) := by
  have h := Sage.after_unary (x := main_call12_v8) (y := main_call12_v10) (ops_Writes (F := F)) 812 (launchContents m c) (by rfl) (by decide +kernel) (by decide +kernel)
  unfold final
  generalize after ops (launchContents m c) = G at h ⊢
  exact h
theorem final_main_call12_v11 (m : (ℓ : Loc nD τ sig) → Buf (Elt F) ℓ) (c : Dev nD) :
    final m c (Proc.devRef .tc main_call12_v11) = (Host.divf : (⟨S256, .f32⟩ : BufTy).Contents (Elt F) → (⟨S256, .f32⟩ : BufTy).Contents (Elt F) → (⟨S256, .f32⟩ : BufTy).Contents (Elt F)) (final m c (Proc.devRef .tc main_call12_v9)) (final m c (Proc.devRef .tc main_call12_v10)) := by
  have h := Sage.after_binary (a := main_call12_v9) (b := main_call12_v10) (y := main_call12_v11) (ops_Writes (F := F)) 813 (launchContents m c) (by rfl) (by decide +kernel) (by decide +kernel) (by decide +kernel)
  unfold final
  generalize after ops (launchContents m c) = G at h ⊢
  exact h
theorem final_main_call12_cst_3 (m : (ℓ : Loc nD τ sig) → Buf (Elt F) ℓ) (c : Dev nD) :
    final m c (Proc.devRef .tc main_call12_cst_3) = (constant S_ .f32 0x00000000#32 : (⟨S_, .f32⟩ : BufTy).Contents (Elt F)) := by
  have h := Sage.after_nullary (y := main_call12_cst_3) (ops_Writes (F := F)) 814 (launchContents m c) (by rfl) (by decide +kernel)
  unfold final
  generalize after ops (launchContents m c) = G at h ⊢
  exact h
theorem final_main_call12_v12 (m : (ℓ : Loc nD τ sig) → Buf (Elt F) ℓ) (c : Dev nD) :
    final m c (Proc.devRef .tc main_call12_v12) = (cmpf .ogt : (⟨S_, .f32⟩ : BufTy).Contents (Elt F) → (⟨S_, .f32⟩ : BufTy).Contents (Elt F) → (⟨S_, .i1⟩ : BufTy).Contents (Elt F)) (final m c (Proc.devRef .tc main_call12_v8)) (final m c (Proc.devRef .tc main_call12_cst_3)) := by
  have h := Sage.after_binary (a := main_call12_v8) (b := main_call12_cst_3) (y := main_call12_v12) (ops_Writes (F := F)) 815 (launchContents m c) (by rfl) (by decide +kernel) (by decide +kernel) (by decide +kernel)
  unfold final
  generalize after ops (launchContents m c) = G at h ⊢
  exact h
theorem final_main_call12_cst_4 (m : (ℓ : Loc nD τ sig) → Buf (Elt F) ℓ) (c : Dev nD) :
    final m c (Proc.devRef .tc main_call12_cst_4) = (constant S_ .f32 0x7FC00000#32 : (⟨S_, .f32⟩ : BufTy).Contents (Elt F)) := by
  have h := Sage.after_nullary (y := main_call12_cst_4) (ops_Writes (F := F)) 816 (launchContents m c) (by rfl) (by decide +kernel)
  unfold final
  generalize after ops (launchContents m c) = G at h ⊢
  exact h
theorem final_main_call12_call0_v0 (m : (ℓ : Loc nD τ sig) → Buf (Elt F) ℓ) (c : Dev nD) :
    final m c (Proc.devRef .tc main_call12_call0_v0) = (id : (⟨S_, .f32⟩ : BufTy).Contents (Elt F) → (⟨S_, .f32⟩ : BufTy).Contents (Elt F)) (final m c (Proc.devRef .tc main_call12_cst_4)) := by
  have h := Sage.after_unary (x := main_call12_cst_4) (y := main_call12_call0_v0) (ops_Writes (F := F)) 817 (launchContents m c) (by rfl) (by decide +kernel) (by decide +kernel)
  unfold final
  generalize after ops (launchContents m c) = G at h ⊢
  exact h
theorem final_main_call12_call0_v1 (m : (ℓ : Loc nD τ sig) → Buf (Elt F) ℓ) (c : Dev nD) :
    final m c (Proc.devRef .tc main_call12_call0_v1) = (broadcastInDim S256 ![] bcast_S_S256 : (⟨S_, .f32⟩ : BufTy).Contents (Elt F) → (⟨S256, .f32⟩ : BufTy).Contents (Elt F)) (final m c (Proc.devRef .tc main_call12_call0_v0)) := by
  have h := Sage.after_unary (x := main_call12_call0_v0) (y := main_call12_call0_v1) (ops_Writes (F := F)) 818 (launchContents m c) (by rfl) (by decide +kernel) (by decide +kernel)
  unfold final
  generalize after ops (launchContents m c) = G at h ⊢
  exact h
theorem final_main_v549 (m : (ℓ : Loc nD τ sig) → Buf (Elt F) ℓ) (c : Dev nD) :
    final m c (Proc.devRef .tc main_v549) = (select (broadcastInDim S256 ![] bcast_S_S256 (final m c (Proc.devRef .tc main_call12_v12))) (final m c (Proc.devRef .tc main_call12_v11)) (final m c (Proc.devRef .tc main_call12_call0_v1)) : (⟨S256, .f32⟩ : BufTy).Contents (Elt F)) := by
  have h := Sage.after_ternary (c := main_call12_v12) (a := main_call12_v11) (b := main_call12_call0_v1) (y := main_v549) (ops_Writes (F := F)) 819 (launchContents m c) (by rfl) (by decide +kernel) (by decide +kernel) (by decide +kernel) (by decide +kernel)
  unfold final
  generalize after ops (launchContents m c) = G at h ⊢
  exact h
theorem final_main_v550 (m : (ℓ : Loc nD τ sig) → Buf (Elt F) ℓ) (c : Dev nD) :
    final m c (Proc.devRef .tc main_v550) = (broadcastInDim S1x256 ![1] bcast_S256_S1x256_1 : (⟨S256, .f32⟩ : BufTy).Contents (Elt F) → (⟨S1x256, .f32⟩ : BufTy).Contents (Elt F)) (final m c (Proc.devRef .tc main_v548)) := by
  have h := Sage.after_unary (x := main_v548) (y := main_v550) (ops_Writes (F := F)) 820 (launchContents m c) (by rfl) (by decide +kernel) (by decide +kernel)
  unfold final
  generalize after ops (launchContents m c) = G at h ⊢
  exact h
theorem final_main_v551 (m : (ℓ : Loc nD τ sig) → Buf (Elt F) ℓ) (c : Dev nD) :
    final m c (Proc.devRef .tc main_v551) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v550)) := by
  have h := Sage.after_unary (x := main_v550) (y := main_v551) (ops_Writes (F := F)) 821 (launchContents m c) (by rfl) (by decide +kernel) (by decide +kernel)
  unfold final
  generalize after ops (launchContents m c) = G at h ⊢
  exact h
theorem final_main_v552 (m : (ℓ : Loc nD τ sig) → Buf (Elt F) ℓ) (c : Dev nD) :
    final m c (Proc.devRef .tc main_v552) = (subf : (⟨S10000x256, .f32⟩ : BufTy).Contents (Elt F) → (⟨S10000x256, .f32⟩ : BufTy).Contents (Elt F) → (⟨S10000x256, .f32⟩ : BufTy).Contents (Elt F)) (final m c (Proc.devRef .tc main_v413)) (final m c (Proc.devRef .tc main_v551)) := by
  have h := Sage.after_binary (a := main_v413) (b := main_v551) (y := main_v552) (ops_Writes (F := F)) 822 (launchContents m c) (by rfl) (by decide +kernel) (by decide +kernel) (by decide +kernel)
  unfold final
  generalize after ops (launchContents m c) = G at h ⊢
  exact h
theorem final_main_cst_109 (m : (ℓ : Loc nD τ sig) → Buf (Elt F) ℓ) (c : Dev nD) :
    final m c (Proc.devRef .tc main_cst_109) = (constant S_ .f32 0x3727C5AC#32) := by
  have h := Sage.after_nullary (y := main_cst_109) (ops_Writes (F := F)) 823 (launchContents m c) (by rfl) (by decide +kernel)
  unfold final
  generalize after ops (launchContents m c) = G at h ⊢
  exact h
theorem final_main_v553 (m : (ℓ : Loc nD τ sig) → Buf (Elt F) ℓ) (c : Dev nD) :
    final m c (Proc.devRef .tc main_v553) = (broadcastInDim S256 ![] bcast_S_S256 : (⟨S_, .f32⟩ : BufTy).Contents (Elt F) → (⟨S256, .f32⟩ : BufTy).Contents (Elt F)) (final m c (Proc.devRef .tc main_cst_109)) := by
  have h := Sage.after_unary (x := main_cst_109) (y := main_v553) (ops_Writes (F := F)) 824 (launchContents m c) (by rfl) (by decide +kernel) (by decide +kernel)
  unfold final
  generalize after ops (launchContents m c) = G at h ⊢
  exact h
theorem final_main_v554 (m : (ℓ : Loc nD τ sig) → Buf (Elt F) ℓ) (c : Dev nD) :
    final m c (Proc.devRef .tc main_v554) = (addf : (⟨S256, .f32⟩ : BufTy).Contents (Elt F) → (⟨S256, .f32⟩ : BufTy).Contents (Elt F) → (⟨S256, .f32⟩ : BufTy).Contents (Elt F)) (final m c (Proc.devRef .tc main_v549)) (final m c (Proc.devRef .tc main_v553)) := by
  have h := Sage.after_binary (a := main_v549) (b := main_v553) (y := main_v554) (ops_Writes (F := F)) 825 (launchContents m c) (by rfl) (by decide +kernel) (by decide +kernel) (by decide +kernel)
  unfold final
  generalize after ops (launchContents m c) = G at h ⊢
  exact h
theorem final_main_v555 (m : (ℓ : Loc nD τ sig) → Buf (Elt F) ℓ) (c : Dev nD) :
    final m c (Proc.devRef .tc main_v555) = (Host.rsqrt : (⟨S256, .f32⟩ : BufTy).Contents (Elt F) → (⟨S256, .f32⟩ : BufTy).Contents (Elt F)) (final m c (Proc.devRef .tc main_v554)) := by
  have h := Sage.after_unary (x := main_v554) (y := main_v555) (ops_Writes (F := F)) 826 (launchContents m c) (by rfl) (by decide +kernel) (by decide +kernel)
  unfold final
  generalize after ops (launchContents m c) = G at h ⊢
  exact h
theorem final_main_v556 (m : (ℓ : Loc nD τ sig) → Buf (Elt F) ℓ) (c : Dev nD) :
    final m c (Proc.devRef .tc main_v556) = (broadcastInDim S1x256 ![1] bcast_S256_S1x256_1 : (⟨S256, .f32⟩ : BufTy).Contents (Elt F) → (⟨S1x256, .f32⟩ : BufTy).Contents (Elt F)) (final m c (Proc.devRef .tc main_v555)) := by
  have h := Sage.after_unary (x := main_v555) (y := main_v556) (ops_Writes (F := F)) 827 (launchContents m c) (by rfl) (by decide +kernel) (by decide +kernel)
  unfold final
  generalize after ops (launchContents m c) = G at h ⊢
  exact h
theorem final_main_v557 (m : (ℓ : Loc nD τ sig) → Buf (Elt F) ℓ) (c : Dev nD) :
    final m c (Proc.devRef .tc main_v557) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v556)) := by
  have h := Sage.after_unary (x := main_v556) (y := main_v557) (ops_Writes (F := F)) 828 (launchContents m c) (by rfl) (by decide +kernel) (by decide +kernel)
  unfold final
  generalize after ops (launchContents m c) = G at h ⊢
  exact h
theorem final_main_v558 (m : (ℓ : Loc nD τ sig) → Buf (Elt F) ℓ) (c : Dev nD) :
    final m c (Proc.devRef .tc main_v558) = (mulf : (⟨S10000x256, .f32⟩ : BufTy).Contents (Elt F) → (⟨S10000x256, .f32⟩ : BufTy).Contents (Elt F) → (⟨S10000x256, .f32⟩ : BufTy).Contents (Elt F)) (final m c (Proc.devRef .tc main_v552)) (final m c (Proc.devRef .tc main_v557)) := by
  have h := Sage.after_binary (a := main_v552) (b := main_v557) (y := main_v558) (ops_Writes (F := F)) 829 (launchContents m c) (by rfl) (by decide +kernel) (by decide +kernel) (by decide +kernel)
  unfold final
  generalize after ops (launchContents m c) = G at h ⊢
  exact h
theorem final_main_v559 (m : (ℓ : Loc nD τ sig) → Buf (Elt F) ℓ) (c : Dev nD) :
    final m c (Proc.devRef .tc main_v559) = (broadcastInDim S1x256 ![1] bcast_S256_S1x256_1 : (⟨S256, .f32⟩ : BufTy).Contents (Elt F) → (⟨S1x256, .f32⟩ : BufTy).Contents (Elt F)) (final m c (Proc.devRef .tc main_arg12)) := by
  have h := Sage.after_unary (x := main_arg12) (y := main_v559) (ops_Writes (F := F)) 830 (launchContents m c) (by rfl) (by decide +kernel) (by decide +kernel)
  unfold final
  generalize after ops (launchContents m c) = G at h ⊢
  exact h
theorem final_main_v560 (m : (ℓ : Loc nD τ sig) → Buf (Elt F) ℓ) (c : Dev nD) :
    final m c (Proc.devRef .tc main_v560) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v559)) := by
  have h := Sage.after_unary (x := main_v559) (y := main_v560) (ops_Writes (F := F)) 831 (launchContents m c) (by rfl) (by decide +kernel) (by decide +kernel)
  unfold final
  generalize after ops (launchContents m c) = G at h ⊢
  exact h
theorem final_main_v561 (m : (ℓ : Loc nD τ sig) → Buf (Elt F) ℓ) (c : Dev nD) :
    final m c (Proc.devRef .tc main_v561) = (mulf : (⟨S10000x256, .f32⟩ : BufTy).Contents (Elt F) → (⟨S10000x256, .f32⟩ : BufTy).Contents (Elt F) → (⟨S10000x256, .f32⟩ : BufTy).Contents (Elt F)) (final m c (Proc.devRef .tc main_v558)) (final m c (Proc.devRef .tc main_v560)) := by
  have h := Sage.after_binary (a := main_v558) (b := main_v560) (y := main_v561) (ops_Writes (F := F)) 832 (launchContents m c) (by rfl) (by decide +kernel) (by decide +kernel) (by decide +kernel)
  unfold final
  generalize after ops (launchContents m c) = G at h ⊢
  exact h
theorem final_main_v562 (m : (ℓ : Loc nD τ sig) → Buf (Elt F) ℓ) (c : Dev nD) :
    final m c (Proc.devRef .tc main_v562) = (broadcastInDim S1x256 ![1] bcast_S256_S1x256_1 : (⟨S256, .f32⟩ : BufTy).Contents (Elt F) → (⟨S1x256, .f32⟩ : BufTy).Contents (Elt F)) (final m c (Proc.devRef .tc main_arg13)) := by
  have h := Sage.after_unary (x := main_arg13) (y := main_v562) (ops_Writes (F := F)) 833 (launchContents m c) (by rfl) (by decide +kernel) (by decide +kernel)
  unfold final
  generalize after ops (launchContents m c) = G at h ⊢
  exact h
theorem final_main_v563 (m : (ℓ : Loc nD τ sig) → Buf (Elt F) ℓ) (c : Dev nD) :
    final m c (Proc.devRef .tc main_v563) = (broadcastInDim S10000x256 ![0, 1] bcast_S1x256_S10000x256_0_1 : (⟨S1x256, .f32⟩ : BufTy).Contents (Elt F) → (⟨S10000x256, .f32⟩ : BufTy).Contents (Elt F)) (final m c (Proc.devRef .tc main_v562)) := by
  have h := Sage.after_unary (x := main_v562) (y := main_v563) (ops_Writes (F := F)) 834 (launchContents m c) (by rfl) (by decide +kernel) (by decide +kernel)
  unfold final
  generalize after ops (launchContents m c) = G at h ⊢
  exact h
theorem final_main_v564 (m : (ℓ : Loc nD τ sig) → Buf (Elt F) ℓ) (c : Dev nD) :
    final m c (Proc.devRef .tc main_v564) = (addf : (⟨S10000x256, .f32⟩ : BufTy).Contents (Elt F) → (⟨S10000x256, .f32⟩ : BufTy).Contents (Elt F) → (⟨S10000x256, .f32⟩ : BufTy).Contents (Elt F)) (final m c (Proc.devRef .tc main_v561)) (final m c (Proc.devRef .tc main_v563)) := by
  have h := Sage.after_binary (a := main_v561) (b := main_v563) (y := main_v564) (ops_Writes (F := F)) 835 (launchContents m c) (by rfl) (by decide +kernel) (by decide +kernel) (by decide +kernel)
  unfold final
  generalize after ops (launchContents m c) = G at h ⊢
  exact h
theorem final_main_call13_cst (m : (ℓ : Loc nD τ sig) → Buf (Elt F) ℓ) (c : Dev nD) :
    final m c (Proc.devRef .tc main_call13_cst) = (constant S_ .f32 0x00000000#32 : (⟨S_, .f32⟩ : BufTy).Contents (Elt F)) := by
  have h := Sage.after_nullary (y := main_call13_cst) (ops_Writes (F := F)) 836 (launchContents m c) (by rfl) (by decide +kernel)
  unfold final
  generalize after ops (launchContents m c) = G at h ⊢
  exact h
theorem final_main_call13_v0 (m : (ℓ : Loc nD τ sig) → Buf (Elt F) ℓ) (c : Dev nD) :
    final m c (Proc.devRef .tc main_call13_v0) = (broadcastInDim S10000x256 ![] bcast_S_S10000x256 : (⟨S_, .f32⟩ : BufTy).Contents (Elt F) → (⟨S10000x256, .f32⟩ : BufTy).Contents (Elt F)) (final m c (Proc.devRef .tc main_call13_cst)) := by
  have h := Sage.after_unary (x := main_call13_cst) (y := main_call13_v0) (ops_Writes (F := F)) 837 (launchContents m c) (by rfl) (by decide +kernel) (by decide +kernel)
  unfold final
  generalize after ops (launchContents m c) = G at h ⊢
  exact h
theorem final_main_v565 (m : (ℓ : Loc nD τ sig) → Buf (Elt F) ℓ) (c : Dev nD) :
    final m c (Proc.devRef .tc main_v565) = (maximumf : (⟨S10000x256, .f32⟩ : BufTy).Contents (Elt F) → (⟨S10000x256, .f32⟩ : BufTy).Contents (Elt F) → (⟨S10000x256, .f32⟩ : BufTy).Contents (Elt F)) (final m c (Proc.devRef .tc main_v564)) (final m c (Proc.devRef .tc main_call13_v0)) := by
  have h := Sage.after_binary (a := main_v564) (b := main_call13_v0) (y := main_v565) (ops_Writes (F := F)) 838 (launchContents m c) (by rfl) (by decide +kernel) (by decide +kernel) (by decide +kernel)
  unfold final
  generalize after ops (launchContents m c) = G at h ⊢
  exact h
theorem final_main_cst_110 (m : (ℓ : Loc nD τ sig) → Buf (Elt F) ℓ) (c : Dev nD) :
    final m c (Proc.devRef .tc main_cst_110) = (constant S_ .f32 0x00000000#32) := by
  have h := Sage.after_nullary (y := main_cst_110) (ops_Writes (F := F)) 839 (launchContents m c) (by rfl) (by decide +kernel)
  unfold final
  generalize after ops (launchContents m c) = G at h ⊢
  exact h
theorem final_main_v566 (m : (ℓ : Loc nD τ sig) → Buf (Elt F) ℓ) (c : Dev nD) :
    final m c (Proc.devRef .tc main_v566) = (Host.reduceAdd (final m c (Proc.devRef .tc main_v382)) (final m c (Proc.devRef .tc main_cst_110)) reducesTo_S3000x256_S256_d0 h_S_ : (⟨S256, .f32⟩ : BufTy).Contents (Elt F)) := by
  have h := Sage.after_binary (a := main_v382) (b := main_cst_110) (y := main_v566) (ops_Writes (F := F)) 840 (launchContents m c) (by rfl) (by decide +kernel) (by decide +kernel) (by decide +kernel)
  unfold final
  generalize after ops (launchContents m c) = G at h ⊢
  exact h
theorem final_main_cst_111 (m : (ℓ : Loc nD τ sig) → Buf (Elt F) ℓ) (c : Dev nD) :
    final m c (Proc.devRef .tc main_cst_111) = (constant S_ .f32 0x453B8000#32) := by
  have h := Sage.after_nullary (y := main_cst_111) (ops_Writes (F := F)) 841 (launchContents m c) (by rfl) (by decide +kernel)
  unfold final
  generalize after ops (launchContents m c) = G at h ⊢
  exact h
theorem final_main_v567 (m : (ℓ : Loc nD τ sig) → Buf (Elt F) ℓ) (c : Dev nD) :
    final m c (Proc.devRef .tc main_v567) = (broadcastInDim S256 ![] bcast_S_S256 : (⟨S_, .f32⟩ : BufTy).Contents (Elt F) → (⟨S256, .f32⟩ : BufTy).Contents (Elt F)) (final m c (Proc.devRef .tc main_cst_111)) := by
  have h := Sage.after_unary (x := main_cst_111) (y := main_v567) (ops_Writes (F := F)) 842 (launchContents m c) (by rfl) (by decide +kernel) (by decide +kernel)
  unfold final
  generalize after ops (launchContents m c) = G at h ⊢
  exact h
theorem final_main_v568 (m : (ℓ : Loc nD τ sig) → Buf (Elt F) ℓ) (c : Dev nD) :
    final m c (Proc.devRef .tc main_v568) = (Host.divf : (⟨S256, .f32⟩ : BufTy).Contents (Elt F) → (⟨S256, .f32⟩ : BufTy).Contents (Elt F) → (⟨S256, .f32⟩ : BufTy).Contents (Elt F)) (final m c (Proc.devRef .tc main_v566)) (final m c (Proc.devRef .tc main_v567)) := by
  have h := Sage.after_binary (a := main_v566) (b := main_v567) (y := main_v568) (ops_Writes (F := F)) 843 (launchContents m c) (by rfl) (by decide +kernel) (by decide +kernel) (by decide +kernel)
  unfold final
  generalize after ops (launchContents m c) = G at h ⊢
  exact h
theorem final_main_c_112 (m : (ℓ : Loc nD τ sig) → Buf (Elt F) ℓ) (c : Dev nD) :
    final m c (Proc.devRef .tc main_c_112) = (constantI S_ 32 0#32) := by
  have h := Sage.after_nullary (y := main_c_112) (ops_Writes (F := F)) 844 (launchContents m c) (by rfl) (by decide +kernel)
  unfold final
  generalize after ops (launchContents m c) = G at h ⊢
  exact h
theorem final_main_call14_cst (m : (ℓ : Loc nD τ sig) → Buf (Elt F) ℓ) (c : Dev nD) :
    final m c (Proc.devRef .tc main_call14_cst) = (constant S_ .f32 0x00000000#32 : (⟨S_, .f32⟩ : BufTy).Contents (Elt F)) := by
  have h := Sage.after_nullary (y := main_call14_cst) (ops_Writes (F := F)) 845 (launchContents m c) (by rfl) (by decide +kernel)
  unfold final
  generalize after ops (launchContents m c) = G at h ⊢
  exact h
theorem final_main_call14_v0 (m : (ℓ : Loc nD τ sig) → Buf (Elt F) ℓ) (c : Dev nD) :
    final m c (Proc.devRef .tc main_call14_v0) = (Host.reduceAdd (final m c (Proc.devRef .tc main_v382)) (final m c (Proc.devRef .tc main_call14_cst)) reducesTo_S3000x256_S256_d0 h_S_ : (⟨S256, .f32⟩ : BufTy).Contents (Elt F)) := by
  have h := Sage.after_binary (a := main_v382) (b := main_call14_cst) (y := main_call14_v0) (ops_Writes (F := F)) 846 (launchContents m c) (by rfl) (by decide +kernel) (by decide +kernel) (by decide +kernel)
  unfold final
  generalize after ops (launchContents m c) = G at h ⊢
  exact h
theorem final_main_call14_v1 (m : (ℓ : Loc nD τ sig) → Buf (Elt F) ℓ) (c : Dev nD) :
    final m c (Proc.devRef .tc main_call14_v1) = (broadcastInDim S1x256 ![1] bcast_S256_S1x256_1 : (⟨S256, .f32⟩ : BufTy).Contents (Elt F) → (⟨S1x256, .f32⟩ : BufTy).Contents (Elt F)) (final m c (Proc.devRef .tc main_call14_v0)) := by
  have h := Sage.after_unary (x := main_call14_v0) (y := main_call14_v1) (ops_Writes (F := F)) 847 (launchContents m c) (by rfl) (by decide +kernel) (by decide +kernel)
  unfold final
  generalize after ops (launchContents m c) = G at h ⊢
  exact h
theorem final_main_call14_cst_0 (m : (ℓ : Loc nD τ sig) → Buf (Elt F) ℓ) (c : Dev nD) :
    final m c (Proc.devRef .tc main_call14_cst_0) = (constant S_ .f32 0x453B8000#32 : (⟨S_, .f32⟩ : BufTy).Contents (Elt F)) := by
  have h := Sage.after_nullary (y := main_call14_cst_0) (ops_Writes (F := F)) 848 (launchContents m c) (by rfl) (by decide +kernel)
  unfold final
  generalize after ops (launchContents m c) = G at h ⊢
  exact h
theorem final_main_call14_v2 (m : (ℓ : Loc nD τ sig) → Buf (Elt F) ℓ) (c : Dev nD) :
    final m c (Proc.devRef .tc main_call14_v2) = (broadcastInDim S1x256 ![] bcast_S_S1x256 : (⟨S_, .f32⟩ : BufTy).Contents (Elt F) → (⟨S1x256, .f32⟩ : BufTy).Contents (Elt F)) (final m c (Proc.devRef .tc main_call14_cst_0)) := by
  have h := Sage.after_unary (x := main_call14_cst_0) (y := main_call14_v2) (ops_Writes (F := F)) 849 (launchContents m c) (by rfl) (by decide +kernel) (by decide +kernel)
  unfold final
  generalize after ops (launchContents m c) = G at h ⊢
  exact h
theorem final_main_call14_v3 (m : (ℓ : Loc nD τ sig) → Buf (Elt F) ℓ) (c : Dev nD) :
    final m c (Proc.devRef .tc main_call14_v3) = (Host.divf : (⟨S1x256, .f32⟩ : BufTy).Contents (Elt F) → (⟨S1x256, .f32⟩ : BufTy).Contents (Elt F) → (⟨S1x256, .f32⟩ : BufTy).Contents (Elt F)) (final m c (Proc.devRef .tc main_call14_v1)) (final m c (Proc.devRef .tc main_call14_v2)) := by
  have h := Sage.after_binary (a := main_call14_v1) (b := main_call14_v2) (y := main_call14_v3) (ops_Writes (F := F)) 850 (launchContents m c) (by rfl) (by decide +kernel) (by decide +kernel) (by decide +kernel)
  unfold final
  generalize after ops (launchContents m c) = G at h ⊢
  exact h
theorem final_main_call14_v4 (m : (ℓ : Loc nD τ sig) → Buf (Elt F) ℓ) (c : Dev nD) :
    final m c (Proc.devRef .tc main_call14_v4) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_call14_v3)) := by
  have h := Sage.after_unary (x := main_call14_v3) (y := main_call14_v4) (ops_Writes (F := F)) 851 (launchContents m c) (by rfl) (by decide +kernel) (by decide +kernel)
  unfold final
  generalize after ops (launchContents m c) = G at h ⊢
  exact h
theorem final_main_call14_v5 (m : (ℓ : Loc nD τ sig) → Buf (Elt F) ℓ) (c : Dev nD) :
    final m c (Proc.devRef .tc main_call14_v5) = (subf : (⟨S3000x256, .f32⟩ : BufTy).Contents (Elt F) → (⟨S3000x256, .f32⟩ : BufTy).Contents (Elt F) → (⟨S3000x256, .f32⟩ : BufTy).Contents (Elt F)) (final m c (Proc.devRef .tc main_v382)) (final m c (Proc.devRef .tc main_call14_v4)) := by
  have h := Sage.after_binary (a := main_v382) (b := main_call14_v4) (y := main_call14_v5) (ops_Writes (F := F)) 852 (launchContents m c) (by rfl) (by decide +kernel) (by decide +kernel) (by decide +kernel)
  unfold final
  generalize after ops (launchContents m c) = G at h ⊢
  exact h
theorem final_main_call14_v6 (m : (ℓ : Loc nD τ sig) → Buf (Elt F) ℓ) (c : Dev nD) :
    final m c (Proc.devRef .tc main_call14_v6) = (mulf : (⟨S3000x256, .f32⟩ : BufTy).Contents (Elt F) → (⟨S3000x256, .f32⟩ : BufTy).Contents (Elt F) → (⟨S3000x256, .f32⟩ : BufTy).Contents (Elt F)) (final m c (Proc.devRef .tc main_call14_v5)) (final m c (Proc.devRef .tc main_call14_v5)) := by
  have h := Sage.after_binary (a := main_call14_v5) (b := main_call14_v5) (y := main_call14_v6) (ops_Writes (F := F)) 853 (launchContents m c) (by rfl) (by decide +kernel) (by decide +kernel) (by decide +kernel)
  unfold final
  generalize after ops (launchContents m c) = G at h ⊢
  exact h
theorem final_main_call14_v7 (m : (ℓ : Loc nD τ sig) → Buf (Elt F) ℓ) (c : Dev nD) :
    final m c (Proc.devRef .tc main_call14_v7) = (sitofp .f32 : (⟨S_, .i32⟩ : BufTy).Contents (Elt F) → (⟨S_, .f32⟩ : BufTy).Contents (Elt F)) (final m c (Proc.devRef .tc main_c_112)) := by
  have h := Sage.after_unary (x := main_c_112) (y := main_call14_v7) (ops_Writes (F := F)) 854 (launchContents m c) (by rfl) (by decide +kernel) (by decide +kernel)
  unfold final
  generalize after ops (launchContents m c) = G at h ⊢
  exact h
theorem final_main_call14_cst_1 (m : (ℓ : Loc nD τ sig) → Buf (Elt F) ℓ) (c : Dev nD) :
    final m c (Proc.devRef .tc main_call14_cst_1) = (constant S_ .f32 0x453B8000#32 : (⟨S_, .f32⟩ : BufTy).Contents (Elt F)) := by
  have h := Sage.after_nullary (y := main_call14_cst_1) (ops_Writes (F := F)) 855 (launchContents m c) (by rfl) (by decide +kernel)
  unfold final
  generalize after ops (launchContents m c) = G at h ⊢
  exact h
theorem final_main_call14_v8 (m : (ℓ : Loc nD τ sig) → Buf (Elt F) ℓ) (c : Dev nD) :
    final m c (Proc.devRef .tc main_call14_v8) = (subf : (⟨S_, .f32⟩ : BufTy).Contents (Elt F) → (⟨S_, .f32⟩ : BufTy).Contents (Elt F) → (⟨S_, .f32⟩ : BufTy).Contents (Elt F)) (final m c (Proc.devRef .tc main_call14_cst_1)) (final m c (Proc.devRef .tc main_call14_v7)) := by
  have h := Sage.after_binary (a := main_call14_cst_1) (b := main_call14_v7) (y := main_call14_v8) (ops_Writes (F := F)) 856 (launchContents m c) (by rfl) (by decide +kernel) (by decide +kernel) (by decide +kernel)
  unfold final
  generalize after ops (launchContents m c) = G at h ⊢
  exact h
theorem final_main_call14_cst_2 (m : (ℓ : Loc nD τ sig) → Buf (Elt F) ℓ) (c : Dev nD) :
    final m c (Proc.devRef .tc main_call14_cst_2) = (constant S_ .f32 0x00000000#32 : (⟨S_, .f32⟩ : BufTy).Contents (Elt F)) := by
  have h := Sage.after_nullary (y := main_call14_cst_2) (ops_Writes (F := F)) 857 (launchContents m c) (by rfl) (by decide +kernel)
  unfold final
  generalize after ops (launchContents m c) = G at h ⊢
  exact h
theorem final_main_call14_v9 (m : (ℓ : Loc nD τ sig) → Buf (Elt F) ℓ) (c : Dev nD) :
    final m c (Proc.devRef .tc main_call14_v9) = (Host.reduceAdd (final m c (Proc.devRef .tc main_call14_v6)) (final m c (Proc.devRef .tc main_call14_cst_2)) reducesTo_S3000x256_S256_d0 h_S_ : (⟨S256, .f32⟩ : BufTy).Contents (Elt F)) := by
  have h := Sage.after_binary (a := main_call14_v6) (b := main_call14_cst_2) (y := main_call14_v9) (ops_Writes (F := F)) 858 (launchContents m c) (by rfl) (by decide +kernel) (by decide +kernel) (by decide +kernel)
  unfold final
  generalize after ops (launchContents m c) = G at h ⊢
  exact h
theorem final_main_call14_v10 (m : (ℓ : Loc nD τ sig) → Buf (Elt F) ℓ) (c : Dev nD) :
    final m c (Proc.devRef .tc main_call14_v10) = (broadcastInDim S256 ![] bcast_S_S256 : (⟨S_, .f32⟩ : BufTy).Contents (Elt F) → (⟨S256, .f32⟩ : BufTy).Contents (Elt F)) (final m c (Proc.devRef .tc main_call14_v8)) := by
  have h := Sage.after_unary (x := main_call14_v8) (y := main_call14_v10) (ops_Writes (F := F)) 859 (launchContents m c) (by rfl) (by decide +kernel) (by decide +kernel)
  unfold final
  generalize after ops (launchContents m c) = G at h ⊢
  exact h
theorem final_main_call14_v11 (m : (ℓ : Loc nD τ sig) → Buf (Elt F) ℓ) (c : Dev nD) :
    final m c (Proc.devRef .tc main_call14_v11) = (Host.divf : (⟨S256, .f32⟩ : BufTy).Contents (Elt F) → (⟨S256, .f32⟩ : BufTy).Contents (Elt F) → (⟨S256, .f32⟩ : BufTy).Contents (Elt F)) (final m c (Proc.devRef .tc main_call14_v9)) (final m c (Proc.devRef .tc main_call14_v10)) := by
  have h := Sage.after_binary (a := main_call14_v9) (b := main_call14_v10) (y := main_call14_v11) (ops_Writes (F := F)) 860 (launchContents m c) (by rfl) (by decide +kernel) (by decide +kernel) (by decide +kernel)
  unfold final
  generalize after ops (launchContents m c) = G at h ⊢
  exact h
theorem final_main_call14_cst_3 (m : (ℓ : Loc nD τ sig) → Buf (Elt F) ℓ) (c : Dev nD) :
    final m c (Proc.devRef .tc main_call14_cst_3) = (constant S_ .f32 0x00000000#32 : (⟨S_, .f32⟩ : BufTy).Contents (Elt F)) := by
  have h := Sage.after_nullary (y := main_call14_cst_3) (ops_Writes (F := F)) 861 (launchContents m c) (by rfl) (by decide +kernel)
  unfold final
  generalize after ops (launchContents m c) = G at h ⊢
  exact h
theorem final_main_call14_v12 (m : (ℓ : Loc nD τ sig) → Buf (Elt F) ℓ) (c : Dev nD) :
    final m c (Proc.devRef .tc main_call14_v12) = (cmpf .ogt : (⟨S_, .f32⟩ : BufTy).Contents (Elt F) → (⟨S_, .f32⟩ : BufTy).Contents (Elt F) → (⟨S_, .i1⟩ : BufTy).Contents (Elt F)) (final m c (Proc.devRef .tc main_call14_v8)) (final m c (Proc.devRef .tc main_call14_cst_3)) := by
  have h := Sage.after_binary (a := main_call14_v8) (b := main_call14_cst_3) (y := main_call14_v12) (ops_Writes (F := F)) 862 (launchContents m c) (by rfl) (by decide +kernel) (by decide +kernel) (by decide +kernel)
  unfold final
  generalize after ops (launchContents m c) = G at h ⊢
  exact h
theorem final_main_call14_cst_4 (m : (ℓ : Loc nD τ sig) → Buf (Elt F) ℓ) (c : Dev nD) :
    final m c (Proc.devRef .tc main_call14_cst_4) = (constant S_ .f32 0x7FC00000#32 : (⟨S_, .f32⟩ : BufTy).Contents (Elt F)) := by
  have h := Sage.after_nullary (y := main_call14_cst_4) (ops_Writes (F := F)) 863 (launchContents m c) (by rfl) (by decide +kernel)
  unfold final
  generalize after ops (launchContents m c) = G at h ⊢
  exact h
theorem final_main_call14_call0_v0 (m : (ℓ : Loc nD τ sig) → Buf (Elt F) ℓ) (c : Dev nD) :
    final m c (Proc.devRef .tc main_call14_call0_v0) = (id : (⟨S_, .f32⟩ : BufTy).Contents (Elt F) → (⟨S_, .f32⟩ : BufTy).Contents (Elt F)) (final m c (Proc.devRef .tc main_call14_cst_4)) := by
  have h := Sage.after_unary (x := main_call14_cst_4) (y := main_call14_call0_v0) (ops_Writes (F := F)) 864 (launchContents m c) (by rfl) (by decide +kernel) (by decide +kernel)
  unfold final
  generalize after ops (launchContents m c) = G at h ⊢
  exact h
theorem final_main_call14_call0_v1 (m : (ℓ : Loc nD τ sig) → Buf (Elt F) ℓ) (c : Dev nD) :
    final m c (Proc.devRef .tc main_call14_call0_v1) = (broadcastInDim S256 ![] bcast_S_S256 : (⟨S_, .f32⟩ : BufTy).Contents (Elt F) → (⟨S256, .f32⟩ : BufTy).Contents (Elt F)) (final m c (Proc.devRef .tc main_call14_call0_v0)) := by
  have h := Sage.after_unary (x := main_call14_call0_v0) (y := main_call14_call0_v1) (ops_Writes (F := F)) 865 (launchContents m c) (by rfl) (by decide +kernel) (by decide +kernel)
  unfold final
  generalize after ops (launchContents m c) = G at h ⊢
  exact h
theorem final_main_v569 (m : (ℓ : Loc nD τ sig) → Buf (Elt F) ℓ) (c : Dev nD) :
    final m c (Proc.devRef .tc main_v569) = (select (broadcastInDim S256 ![] bcast_S_S256 (final m c (Proc.devRef .tc main_call14_v12))) (final m c (Proc.devRef .tc main_call14_v11)) (final m c (Proc.devRef .tc main_call14_call0_v1)) : (⟨S256, .f32⟩ : BufTy).Contents (Elt F)) := by
  have h := Sage.after_ternary (c := main_call14_v12) (a := main_call14_v11) (b := main_call14_call0_v1) (y := main_v569) (ops_Writes (F := F)) 866 (launchContents m c) (by rfl) (by decide +kernel) (by decide +kernel) (by decide +kernel) (by decide +kernel)
  unfold final
  generalize after ops (launchContents m c) = G at h ⊢
  exact h
theorem final_main_v570 (m : (ℓ : Loc nD τ sig) → Buf (Elt F) ℓ) (c : Dev nD) :
    final m c (Proc.devRef .tc main_v570) = (broadcastInDim S1x256 ![1] bcast_S256_S1x256_1 : (⟨S256, .f32⟩ : BufTy).Contents (Elt F) → (⟨S1x256, .f32⟩ : BufTy).Contents (Elt F)) (final m c (Proc.devRef .tc main_v568)) := by
  have h := Sage.after_unary (x := main_v568) (y := main_v570) (ops_Writes (F := F)) 867 (launchContents m c) (by rfl) (by decide +kernel) (by decide +kernel)
  unfold final
  generalize after ops (launchContents m c) = G at h ⊢
  exact h
theorem final_main_v571 (m : (ℓ : Loc nD τ sig) → Buf (Elt F) ℓ) (c : Dev nD) :
    final m c (Proc.devRef .tc main_v571) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v570)) := by
  have h := Sage.after_unary (x := main_v570) (y := main_v571) (ops_Writes (F := F)) 868 (launchContents m c) (by rfl) (by decide +kernel) (by decide +kernel)
  unfold final
  generalize after ops (launchContents m c) = G at h ⊢
  exact h
theorem final_main_v572 (m : (ℓ : Loc nD τ sig) → Buf (Elt F) ℓ) (c : Dev nD) :
    final m c (Proc.devRef .tc main_v572) = (subf : (⟨S3000x256, .f32⟩ : BufTy).Contents (Elt F) → (⟨S3000x256, .f32⟩ : BufTy).Contents (Elt F) → (⟨S3000x256, .f32⟩ : BufTy).Contents (Elt F)) (final m c (Proc.devRef .tc main_v382)) (final m c (Proc.devRef .tc main_v571)) := by
  have h := Sage.after_binary (a := main_v382) (b := main_v571) (y := main_v572) (ops_Writes (F := F)) 869 (launchContents m c) (by rfl) (by decide +kernel) (by decide +kernel) (by decide +kernel)
  unfold final
  generalize after ops (launchContents m c) = G at h ⊢
  exact h
theorem final_main_cst_113 (m : (ℓ : Loc nD τ sig) → Buf (Elt F) ℓ) (c : Dev nD) :
    final m c (Proc.devRef .tc main_cst_113) = (constant S_ .f32 0x3727C5AC#32) := by
  have h := Sage.after_nullary (y := main_cst_113) (ops_Writes (F := F)) 870 (launchContents m c) (by rfl) (by decide +kernel)
  unfold final
  generalize after ops (launchContents m c) = G at h ⊢
  exact h
theorem final_main_v573 (m : (ℓ : Loc nD τ sig) → Buf (Elt F) ℓ) (c : Dev nD) :
    final m c (Proc.devRef .tc main_v573) = (broadcastInDim S256 ![] bcast_S_S256 : (⟨S_, .f32⟩ : BufTy).Contents (Elt F) → (⟨S256, .f32⟩ : BufTy).Contents (Elt F)) (final m c (Proc.devRef .tc main_cst_113)) := by
  have h := Sage.after_unary (x := main_cst_113) (y := main_v573) (ops_Writes (F := F)) 871 (launchContents m c) (by rfl) (by decide +kernel) (by decide +kernel)
  unfold final
  generalize after ops (launchContents m c) = G at h ⊢
  exact h
theorem final_main_v574 (m : (ℓ : Loc nD τ sig) → Buf (Elt F) ℓ) (c : Dev nD) :
    final m c (Proc.devRef .tc main_v574) = (addf : (⟨S256, .f32⟩ : BufTy).Contents (Elt F) → (⟨S256, .f32⟩ : BufTy).Contents (Elt F) → (⟨S256, .f32⟩ : BufTy).Contents (Elt F)) (final m c (Proc.devRef .tc main_v569)) (final m c (Proc.devRef .tc main_v573)) := by
  have h := Sage.after_binary (a := main_v569) (b := main_v573) (y := main_v574) (ops_Writes (F := F)) 872 (launchContents m c) (by rfl) (by decide +kernel) (by decide +kernel) (by decide +kernel)
  unfold final
  generalize after ops (launchContents m c) = G at h ⊢
  exact h
theorem final_main_v575 (m : (ℓ : Loc nD τ sig) → Buf (Elt F) ℓ) (c : Dev nD) :
    final m c (Proc.devRef .tc main_v575) = (Host.rsqrt : (⟨S256, .f32⟩ : BufTy).Contents (Elt F) → (⟨S256, .f32⟩ : BufTy).Contents (Elt F)) (final m c (Proc.devRef .tc main_v574)) := by
  have h := Sage.after_unary (x := main_v574) (y := main_v575) (ops_Writes (F := F)) 873 (launchContents m c) (by rfl) (by decide +kernel) (by decide +kernel)
  unfold final
  generalize after ops (launchContents m c) = G at h ⊢
  exact h
theorem final_main_v576 (m : (ℓ : Loc nD τ sig) → Buf (Elt F) ℓ) (c : Dev nD) :
    final m c (Proc.devRef .tc main_v576) = (broadcastInDim S1x256 ![1] bcast_S256_S1x256_1 : (⟨S256, .f32⟩ : BufTy).Contents (Elt F) → (⟨S1x256, .f32⟩ : BufTy).Contents (Elt F)) (final m c (Proc.devRef .tc main_v575)) := by
  have h := Sage.after_unary (x := main_v575) (y := main_v576) (ops_Writes (F := F)) 874 (launchContents m c) (by rfl) (by decide +kernel) (by decide +kernel)
  unfold final
  generalize after ops (launchContents m c) = G at h ⊢
  exact h
theorem final_main_v577 (m : (ℓ : Loc nD τ sig) → Buf (Elt F) ℓ) (c : Dev nD) :
    final m c (Proc.devRef .tc main_v577) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v576)) := by
  have h := Sage.after_unary (x := main_v576) (y := main_v577) (ops_Writes (F := F)) 875 (launchContents m c) (by rfl) (by decide +kernel) (by decide +kernel)
  unfold final
  generalize after ops (launchContents m c) = G at h ⊢
  exact h
theorem final_main_v578 (m : (ℓ : Loc nD τ sig) → Buf (Elt F) ℓ) (c : Dev nD) :
    final m c (Proc.devRef .tc main_v578) = (mulf : (⟨S3000x256, .f32⟩ : BufTy).Contents (Elt F) → (⟨S3000x256, .f32⟩ : BufTy).Contents (Elt F) → (⟨S3000x256, .f32⟩ : BufTy).Contents (Elt F)) (final m c (Proc.devRef .tc main_v572)) (final m c (Proc.devRef .tc main_v577)) := by
  have h := Sage.after_binary (a := main_v572) (b := main_v577) (y := main_v578) (ops_Writes (F := F)) 876 (launchContents m c) (by rfl) (by decide +kernel) (by decide +kernel) (by decide +kernel)
  unfold final
  generalize after ops (launchContents m c) = G at h ⊢
  exact h
theorem final_main_v579 (m : (ℓ : Loc nD τ sig) → Buf (Elt F) ℓ) (c : Dev nD) :
    final m c (Proc.devRef .tc main_v579) = (broadcastInDim S1x256 ![1] bcast_S256_S1x256_1 : (⟨S256, .f32⟩ : BufTy).Contents (Elt F) → (⟨S1x256, .f32⟩ : BufTy).Contents (Elt F)) (final m c (Proc.devRef .tc main_arg12)) := by
  have h := Sage.after_unary (x := main_arg12) (y := main_v579) (ops_Writes (F := F)) 877 (launchContents m c) (by rfl) (by decide +kernel) (by decide +kernel)
  unfold final
  generalize after ops (launchContents m c) = G at h ⊢
  exact h
theorem final_main_v580 (m : (ℓ : Loc nD τ sig) → Buf (Elt F) ℓ) (c : Dev nD) :
    final m c (Proc.devRef .tc main_v580) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v579)) := by
  have h := Sage.after_unary (x := main_v579) (y := main_v580) (ops_Writes (F := F)) 878 (launchContents m c) (by rfl) (by decide +kernel) (by decide +kernel)
  unfold final
  generalize after ops (launchContents m c) = G at h ⊢
  exact h
theorem final_main_v581 (m : (ℓ : Loc nD τ sig) → Buf (Elt F) ℓ) (c : Dev nD) :
    final m c (Proc.devRef .tc main_v581) = (mulf : (⟨S3000x256, .f32⟩ : BufTy).Contents (Elt F) → (⟨S3000x256, .f32⟩ : BufTy).Contents (Elt F) → (⟨S3000x256, .f32⟩ : BufTy).Contents (Elt F)) (final m c (Proc.devRef .tc main_v578)) (final m c (Proc.devRef .tc main_v580)) := by
  have h := Sage.after_binary (a := main_v578) (b := main_v580) (y := main_v581) (ops_Writes (F := F)) 879 (launchContents m c) (by rfl) (by decide +kernel) (by decide +kernel) (by decide +kernel)
  unfold final
  generalize after ops (launchContents m c) = G at h ⊢
  exact h
theorem final_main_v582 (m : (ℓ : Loc nD τ sig) → Buf (Elt F) ℓ) (c : Dev nD) :
    final m c (Proc.devRef .tc main_v582) = (broadcastInDim S1x256 ![1] bcast_S256_S1x256_1 : (⟨S256, .f32⟩ : BufTy).Contents (Elt F) → (⟨S1x256, .f32⟩ : BufTy).Contents (Elt F)) (final m c (Proc.devRef .tc main_arg13)) := by
  have h := Sage.after_unary (x := main_arg13) (y := main_v582) (ops_Writes (F := F)) 880 (launchContents m c) (by rfl) (by decide +kernel) (by decide +kernel)
  unfold final
  generalize after ops (launchContents m c) = G at h ⊢
  exact h
theorem final_main_v583 (m : (ℓ : Loc nD τ sig) → Buf (Elt F) ℓ) (c : Dev nD) :
    final m c (Proc.devRef .tc main_v583) = (broadcastInDim S3000x256 ![0, 1] bcast_S1x256_S3000x256_0_1 : (⟨S1x256, .f32⟩ : BufTy).Contents (Elt F) → (⟨S3000x256, .f32⟩ : BufTy).Contents (Elt F)) (final m c (Proc.devRef .tc main_v582)) := by
  have h := Sage.after_unary (x := main_v582) (y := main_v583) (ops_Writes (F := F)) 881 (launchContents m c) (by rfl) (by decide +kernel) (by decide +kernel)
  unfold final
  generalize after ops (launchContents m c) = G at h ⊢
  exact h
theorem final_main_v584 (m : (ℓ : Loc nD τ sig) → Buf (Elt F) ℓ) (c : Dev nD) :
    final m c (Proc.devRef .tc main_v584) = (addf : (⟨S3000x256, .f32⟩ : BufTy).Contents (Elt F) → (⟨S3000x256, .f32⟩ : BufTy).Contents (Elt F) → (⟨S3000x256, .f32⟩ : BufTy).Contents (Elt F)) (final m c (Proc.devRef .tc main_v581)) (final m c (Proc.devRef .tc main_v583)) := by
  have h := Sage.after_binary (a := main_v581) (b := main_v583) (y := main_v584) (ops_Writes (F := F)) 882 (launchContents m c) (by rfl) (by decide +kernel) (by decide +kernel) (by decide +kernel)
  unfold final
  generalize after ops (launchContents m c) = G at h ⊢
  exact h
theorem final_main_call15_cst (m : (ℓ : Loc nD τ sig) → Buf (Elt F) ℓ) (c : Dev nD) :
    final m c (Proc.devRef .tc main_call15_cst) = (constant S_ .f32 0x00000000#32 : (⟨S_, .f32⟩ : BufTy).Contents (Elt F)) := by
  have h := Sage.after_nullary (y := main_call15_cst) (ops_Writes (F := F)) 883 (launchContents m c) (by rfl) (by decide +kernel)
  unfold final
  generalize after ops (launchContents m c) = G at h ⊢
  exact h
theorem final_main_call15_v0 (m : (ℓ : Loc nD τ sig) → Buf (Elt F) ℓ) (c : Dev nD) :
    final m c (Proc.devRef .tc main_call15_v0) = (broadcastInDim S3000x256 ![] bcast_S_S3000x256 : (⟨S_, .f32⟩ : BufTy).Contents (Elt F) → (⟨S3000x256, .f32⟩ : BufTy).Contents (Elt F)) (final m c (Proc.devRef .tc main_call15_cst)) := by
  have h := Sage.after_unary (x := main_call15_cst) (y := main_call15_v0) (ops_Writes (F := F)) 884 (launchContents m c) (by rfl) (by decide +kernel) (by decide +kernel)
  unfold final
  generalize after ops (launchContents m c) = G at h ⊢
  exact h
theorem final_main_v585 (m : (ℓ : Loc nD τ sig) → Buf (Elt F) ℓ) (c : Dev nD) :
    final m c (Proc.devRef .tc main_v585) = (maximumf : (⟨S3000x256, .f32⟩ : BufTy).Contents (Elt F) → (⟨S3000x256, .f32⟩ : BufTy).Contents (Elt F) → (⟨S3000x256, .f32⟩ : BufTy).Contents (Elt F)) (final m c (Proc.devRef .tc main_v584)) (final m c (Proc.devRef .tc main_call15_v0)) := by
  have h := Sage.after_binary (a := main_v584) (b := main_call15_v0) (y := main_v585) (ops_Writes (F := F)) 885 (launchContents m c) (by rfl) (by decide +kernel) (by decide +kernel) (by decide +kernel)
  unfold final
  generalize after ops (launchContents m c) = G at h ⊢
  exact h

end Cert.ReferenceIdeal.Hand

end
-- ==== Proof.Ref.StageBn2.lean ====
/-
  The reference's second batch normalisation, stage by stage. For each node type, the buffer that holds the layer's
  result at the end of the run is the pure batch normalisation and rectifier (`refBn<rows>`) of three buffers' final
  contents: the layer's summed array, the scale and the shift. Each equation is read off the run one operation at
  a time, from the result back to those three buffers; what remains is the printed composition, which is the pure
  function by unfolding.
-/
import proofs.«126569_j1468878815453_1_alg».proof.Proof.Ref.Final10
import proofs.«126569_j1468878815453_1_alg».proof.Proof.Ref.Final11
import proofs.«126569_j1468878815453_1_alg».proof.Proof.Ref.PureBn

noncomputable section

namespace Cert.ReferenceIdeal.Hand

open Cert.ReferenceIdeal Cert.ReferenceIdeal.Gen Idealize.ShloMosaic Idealize.ShloMosaic.TcCoe Idealize.SL.Sem Idealize.ShloMosaic.StableHlo

/-- Layer 2, first node type (20000 rows): the normalised and rectified array is the batch normalisation of the layer's
    summed array `%474` by the scale `%arg12` and the shift `%arg13`. Read back from `%525` through the mean, the
    variance's operations, the normalisation and the rectifier, down to those three buffers. -/
theorem bn2_drug (m : (ℓ : Loc nD τ sig) → Buf (Elt Ideal) ℓ) (c : Dev nD) :
    final m c (Proc.devRef .tc main_v525)
      = refBn20000 (final m c (Proc.devRef .tc main_v474)) (final m c (Proc.devRef .tc main_arg12)) (final m c (Proc.devRef .tc main_arg13)) := by
  rw [final_main_v525, final_main_call9_v0, final_main_call9_cst, final_main_v524, final_main_v523,
    final_main_v522, final_main_v521, final_main_v520, final_main_v519, final_main_v518, final_main_v517,
    final_main_v516, final_main_v515, final_main_v514, final_main_v513, final_main_cst_101, final_main_v509,
    final_main_call8_call0_v1, final_main_call8_call0_v0, final_main_call8_cst_4, final_main_call8_v11,
    final_main_call8_v10, final_main_call8_v9, final_main_call8_cst_2, final_main_call8_v6,
    final_main_call8_v5, final_main_call8_v4, final_main_call8_v3, final_main_call8_v2,
    final_main_call8_cst_0, final_main_call8_v1, final_main_call8_v0, final_main_call8_cst,
    final_main_call8_v12, final_main_call8_cst_3, final_main_call8_v8, final_main_call8_v7, final_main_c_100,
    final_main_call8_cst_1, final_main_v512, final_main_v511, final_main_v510, final_main_v508,
    final_main_v507, final_main_cst_99, final_main_v506, final_main_cst_98]
  rfl

/-- Layer 2, second node type (50000 rows): the normalised and rectified array is the batch normalisation of the layer's
    summed array `%505` by the scale `%arg12` and the shift `%arg13`. Read back from `%545` through the mean, the
    variance's operations, the normalisation and the rectifier, down to those three buffers. -/
theorem bn2_protein (m : (ℓ : Loc nD τ sig) → Buf (Elt Ideal) ℓ) (c : Dev nD) :
    final m c (Proc.devRef .tc main_v545)
      = refBn50000 (final m c (Proc.devRef .tc main_v505)) (final m c (Proc.devRef .tc main_arg12)) (final m c (Proc.devRef .tc main_arg13)) := by
  rw [final_main_v545, final_main_call11_v0, final_main_call11_cst, final_main_v544, final_main_v543,
    final_main_v542, final_main_v541, final_main_v540, final_main_v539, final_main_v538, final_main_v537,
    final_main_v536, final_main_v535, final_main_v534, final_main_v533, final_main_cst_105, final_main_v529,
    final_main_call10_call0_v1, final_main_call10_call0_v0, final_main_call10_cst_4, final_main_call10_v11,
    final_main_call10_v10, final_main_call10_v9, final_main_call10_cst_2, final_main_call10_v6,
    final_main_call10_v5, final_main_call10_v4, final_main_call10_v3, final_main_call10_v2,
    final_main_call10_cst_0, final_main_call10_v1, final_main_call10_v0, final_main_call10_cst,
    final_main_call10_v12, final_main_call10_cst_3, final_main_call10_v8, final_main_call10_v7,
    final_main_c_104, final_main_call10_cst_1, final_main_v532, final_main_v531, final_main_v530,
    final_main_v528, final_main_v527, final_main_cst_103, final_main_v526, final_main_cst_102]
  rfl

/-- Layer 2, third node type (10000 rows): the normalised and rectified array is the batch normalisation of the layer's
    summed array `%413` by the scale `%arg12` and the shift `%arg13`. Read back from `%565` through the mean, the
    variance's operations, the normalisation and the rectifier, down to those three buffers. -/
theorem bn2_side (m : (ℓ : Loc nD τ sig) → Buf (Elt Ideal) ℓ) (c : Dev nD) :
    final m c (Proc.devRef .tc main_v565)
      = refBn10000 (final m c (Proc.devRef .tc main_v413)) (final m c (Proc.devRef .tc main_arg12)) (final m c (Proc.devRef .tc main_arg13)) := by
  rw [final_main_v565, final_main_call13_v0, final_main_call13_cst, final_main_v564, final_main_v563,
    final_main_v562, final_main_v561, final_main_v560, final_main_v559, final_main_v558, final_main_v557,
    final_main_v556, final_main_v555, final_main_v554, final_main_v553, final_main_cst_109, final_main_v549,
    final_main_call12_call0_v1, final_main_call12_call0_v0, final_main_call12_cst_4, final_main_call12_v11,
    final_main_call12_v10, final_main_call12_v9, final_main_call12_cst_2, final_main_call12_v6,
    final_main_call12_v5, final_main_call12_v4, final_main_call12_v3, final_main_call12_v2,
    final_main_call12_cst_0, final_main_call12_v1, final_main_call12_v0, final_main_call12_cst,
    final_main_call12_v12, final_main_call12_cst_3, final_main_call12_v8, final_main_call12_v7,
    final_main_c_108, final_main_call12_cst_1, final_main_v552, final_main_v551, final_main_v550,
    final_main_v548, final_main_v547, final_main_cst_107, final_main_v546, final_main_cst_106]
  rfl

/-- Layer 2, fourth node type (3000 rows): the normalised and rectified array is the batch normalisation of the layer's
    summed array `%382` by the scale `%arg12` and the shift `%arg13`. Read back from `%585` through the mean, the
    variance's operations, the normalisation and the rectifier, down to those three buffers. -/
theorem bn2_path (m : (ℓ : Loc nD τ sig) → Buf (Elt Ideal) ℓ) (c : Dev nD) :
    final m c (Proc.devRef .tc main_v585)
      = refBn3000 (final m c (Proc.devRef .tc main_v382)) (final m c (Proc.devRef .tc main_arg12)) (final m c (Proc.devRef .tc main_arg13)) := by
  rw [final_main_v585, final_main_call15_v0, final_main_call15_cst, final_main_v584, final_main_v583,
    final_main_v582, final_main_v581, final_main_v580, final_main_v579, final_main_v578, final_main_v577,
    final_main_v576, final_main_v575, final_main_v574, final_main_v573, final_main_cst_113, final_main_v569,
    final_main_call14_call0_v1, final_main_call14_call0_v0, final_main_call14_cst_4, final_main_call14_v11,
    final_main_call14_v10, final_main_call14_v9, final_main_call14_cst_2, final_main_call14_v6,
    final_main_call14_v5, final_main_call14_v4, final_main_call14_v3, final_main_call14_v2,
    final_main_call14_cst_0, final_main_call14_v1, final_main_call14_v0, final_main_call14_cst,
    final_main_call14_v12, final_main_call14_cst_3, final_main_call14_v8, final_main_call14_v7,
    final_main_c_112, final_main_call14_cst_1, final_main_v572, final_main_v571, final_main_v570,
    final_main_v568, final_main_v567, final_main_cst_111, final_main_v566, final_main_cst_110]
  rfl

end Cert.ReferenceIdeal.Hand

end
-- ==== Proof.Ref.Stages.lean ====
/-
  At the end of the reference's run every stage's buffer holds the named stage: an argument's buffer what the launch
  gave it (no operation writes it), and each later buffer its stage's pure function of the buffers before it, which
  hold their stages. So the four results are layer 2's results for the four node types, as functions of the launch
  memory alone.
-/
import proofs.«126569_j1468878815453_1_alg».proof.Proof.Ref.StageDefs
import proofs.«126569_j1468878815453_1_alg».proof.Proof.Ref.StageAgg1
import proofs.«126569_j1468878815453_1_alg».proof.Proof.Ref.StageRel1
import proofs.«126569_j1468878815453_1_alg».proof.Proof.Ref.StageBn1
import proofs.«126569_j1468878815453_1_alg».proof.Proof.Ref.StageAgg2
import proofs.«126569_j1468878815453_1_alg».proof.Proof.Ref.StageRel2
import proofs.«126569_j1468878815453_1_alg».proof.Proof.Ref.StageBn2
import proofs.«126569_j1468878815453_1_alg».proof.Proof.Ref.Final2
import proofs.«126569_j1468878815453_1_alg».proof.Proof.Ref.Final3
import proofs.«126569_j1468878815453_1_alg».proof.Proof.Ref.Final4
import proofs.«126569_j1468878815453_1_alg».proof.Proof.Ref.Final8
import proofs.«126569_j1468878815453_1_alg».proof.Proof.Ref.Final9
import proofs.«126569_j1468878815453_1_alg».proof.Proof.Ref.Final10

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ### The arguments: no operation writes them -/

theorem final_arg0 : final m c (Proc.devRef .tc main_arg0) = inX_drug m c := final_keep m c main_arg0 (by decide)

theorem final_arg1 : final m c (Proc.devRef .tc main_arg1) = inX_protein m c := final_keep m c main_arg1 (by decide)

theorem final_arg2 : final m c (Proc.devRef .tc main_arg2) = inX_side m c := final_keep m c main_arg2 (by decide)

theorem final_arg3 : final m c (Proc.devRef .tc main_arg3) = inX_path m c := final_keep m c main_arg3 (by decide)

theorem final_arg4 : final m c (Proc.devRef .tc main_arg4) = inW1l m c := final_keep m c main_arg4 (by decide)

theorem final_arg5 : final m c (Proc.devRef .tc main_arg5) = inW1r m c := final_keep m c main_arg5 (by decide)

theorem final_arg6 : final m c (Proc.devRef .tc main_arg6) = inB1 m c := final_keep m c main_arg6 (by decide)

theorem final_arg7 : final m c (Proc.devRef .tc main_arg7) = inW2l m c := final_keep m c main_arg7 (by decide)

theorem final_arg8 : final m c (Proc.devRef .tc main_arg8) = inW2r m c := final_keep m c main_arg8 (by decide)

theorem final_arg9 : final m c (Proc.devRef .tc main_arg9) = inB2 m c := final_keep m c main_arg9 (by decide)

theorem final_arg10 : final m c (Proc.devRef .tc main_arg10) = inG1 m c := final_keep m c main_arg10 (by decide)

theorem final_arg11 : final m c (Proc.devRef .tc main_arg11) = inBeta1 m c := final_keep m c main_arg11 (by decide)

theorem final_arg12 : final m c (Proc.devRef .tc main_arg12) = inG2 m c := final_keep m c main_arg12 (by decide)

theorem final_arg13 : final m c (Proc.devRef .tc main_arg13) = inBeta2 m c := final_keep m c main_arg13 (by decide)

theorem final_arg14 : final m c (Proc.devRef .tc main_arg14) = inSrc_0 m c := final_keep m c main_arg14 (by decide)

theorem final_arg15 : final m c (Proc.devRef .tc main_arg15) = inDst_0 m c := final_keep m c main_arg15 (by decide)

theorem final_arg16 : final m c (Proc.devRef .tc main_arg16) = inSrc_1 m c := final_keep m c main_arg16 (by decide)

theorem final_arg17 : final m c (Proc.devRef .tc main_arg17) = inDst_1 m c := final_keep m c main_arg17 (by decide)

theorem final_arg18 : final m c (Proc.devRef .tc main_arg18) = inSrc_2 m c := final_keep m c main_arg18 (by decide)

theorem final_arg19 : final m c (Proc.devRef .tc main_arg19) = inDst_2 m c := final_keep m c main_arg19 (by decide)

theorem final_arg20 : final m c (Proc.devRef .tc main_arg20) = inSrc_3 m c := final_keep m c main_arg20 (by decide)

theorem final_arg21 : final m c (Proc.devRef .tc main_arg21) = inDst_3 m c := final_keep m c main_arg21 (by decide)

theorem final_arg22 : final m c (Proc.devRef .tc main_arg22) = inSrc_4 m c := final_keep m c main_arg22 (by decide)

theorem final_arg23 : final m c (Proc.devRef .tc main_arg23) = inDst_4 m c := final_keep m c main_arg23 (by decide)

theorem final_arg24 : final m c (Proc.devRef .tc main_arg24) = inSrc_5 m c := final_keep m c main_arg24 (by decide)

theorem final_arg25 : final m c (Proc.devRef .tc main_arg25) = inDst_5 m c := final_keep m c main_arg25 (by decide)

theorem final_arg26 : final m c (Proc.devRef .tc main_arg26) = inSrc_6 m c := final_keep m c main_arg26 (by decide)

theorem final_arg27 : final m c (Proc.devRef .tc main_arg27) = inDst_6 m c := final_keep m c main_arg27 (by decide)

/-! ### Layer 1 -/

theorem final_rAgg1_0 : final m c (Proc.devRef .tc main_v17) = rAgg1_0 m c := by
  rw [rAgg1_0, agg1_0, final_arg0, final_arg14, final_arg15]

theorem final_rRel1_0 : final m c (Proc.devRef .tc main_v29) = rRel1_0 m c := by
  rw [rRel1_0, rel1_0, final_rAgg1_0, final_arg2, final_arg4, final_arg5, final_arg6]

theorem final_rAgg1_1 : final m c (Proc.devRef .tc main_v47) = rAgg1_1 m c := by
  rw [rAgg1_1, agg1_1, final_arg0, final_arg16, final_arg17]

theorem final_rRel1_1 : final m c (Proc.devRef .tc main_v59) = rRel1_1 m c := by
  rw [rRel1_1, rel1_1, final_rAgg1_1, final_arg1, final_arg4, final_arg5, final_arg6]

theorem final_rAgg1_2 : final m c (Proc.devRef .tc main_v77) = rAgg1_2 m c := by
  rw [rAgg1_2, agg1_2, final_arg1, final_arg18, final_arg19]

theorem final_rRel1_2 : final m c (Proc.devRef .tc main_v89) = rRel1_2 m c := by
  rw [rRel1_2, rel1_2, final_rAgg1_2, final_arg3, final_arg4, final_arg5, final_arg6]

theorem final_rAgg1_3 : final m c (Proc.devRef .tc main_v107) = rAgg1_3 m c := by
  rw [rAgg1_3, agg1_3, final_arg1, final_arg20, final_arg21]

theorem final_rRel1_3 : final m c (Proc.devRef .tc main_v119) = rRel1_3 m c := by
  rw [rRel1_3, rel1_3, final_rAgg1_3, final_arg2, final_arg4, final_arg5, final_arg6]

theorem final_rAgg1_4 : final m c (Proc.devRef .tc main_v138) = rAgg1_4 m c := by
  rw [rAgg1_4, agg1_4, final_arg2, final_arg22, final_arg23]

theorem final_rRel1_4 : final m c (Proc.devRef .tc main_v150) = rRel1_4 m c := by
  rw [rRel1_4, rel1_4, final_rAgg1_4, final_arg0, final_arg4, final_arg5, final_arg6]

theorem final_rAgg1_5 : final m c (Proc.devRef .tc main_v168) = rAgg1_5 m c := by
  rw [rAgg1_5, agg1_5, final_arg1, final_arg24, final_arg25]

theorem final_rRel1_5 : final m c (Proc.devRef .tc main_v180) = rRel1_5 m c := by
  rw [rRel1_5, rel1_5, final_rAgg1_5, final_arg0, final_arg4, final_arg5, final_arg6]

theorem final_rAgg1_6 : final m c (Proc.devRef .tc main_v199) = rAgg1_6 m c := by
  rw [rAgg1_6, agg1_6, final_arg3, final_arg26, final_arg27]

theorem final_rRel1_6 : final m c (Proc.devRef .tc main_v211) = rRel1_6 m c := by
  rw [rRel1_6, rel1_6, final_rAgg1_6, final_arg1, final_arg4, final_arg5, final_arg6]

theorem final_rH1_drug : final m c (Proc.devRef .tc main_v181) = rH1_drug m c := by
  rw [rH1_drug, final_main_v181, final_rRel1_4, final_rRel1_5]

theorem final_rH1_protein : final m c (Proc.devRef .tc main_v212) = rH1_protein m c := by
  rw [rH1_protein, final_main_v212, final_rRel1_1, final_rRel1_6]

theorem final_rH1_side : final m c (Proc.devRef .tc main_v120) = rH1_side m c := by
  rw [rH1_side, final_main_v120, final_rRel1_0, final_rRel1_3]

theorem final_rH1_path : final m c (Proc.devRef .tc main_v89) = rH1_path m c := final_rRel1_2 m c

theorem final_rOut1_drug : final m c (Proc.devRef .tc main_v232) = rOut1_drug m c := by
  rw [rOut1_drug, bn1_drug, final_rH1_drug, final_arg10, final_arg11]

theorem final_rOut1_protein : final m c (Proc.devRef .tc main_v252) = rOut1_protein m c := by
  rw [rOut1_protein, bn1_protein, final_rH1_protein, final_arg10, final_arg11]

theorem final_rOut1_side : final m c (Proc.devRef .tc main_v272) = rOut1_side m c := by
  rw [rOut1_side, bn1_side, final_rH1_side, final_arg10, final_arg11]

theorem final_rOut1_path : final m c (Proc.devRef .tc main_v292) = rOut1_path m c := by
  rw [rOut1_path, bn1_path, final_rH1_path, final_arg10, final_arg11]

/-! ### Layer 2 -/

theorem final_rAgg2_0 : final m c (Proc.devRef .tc main_v310) = rAgg2_0 m c := by
  rw [rAgg2_0, agg2_0, final_rOut1_drug, final_arg14, final_arg15]

theorem final_rRel2_0 : final m c (Proc.devRef .tc main_v322) = rRel2_0 m c := by
  rw [rRel2_0, rel2_0, final_rAgg2_0, final_rOut1_side, final_arg7, final_arg8, final_arg9]

theorem final_rAgg2_1 : final m c (Proc.devRef .tc main_v340) = rAgg2_1 m c := by
  rw [rAgg2_1, agg2_1, final_rOut1_drug, final_arg16, final_arg17]

theorem final_rRel2_1 : final m c (Proc.devRef .tc main_v352) = rRel2_1 m c := by
  rw [rRel2_1, rel2_1, final_rAgg2_1, final_rOut1_protein, final_arg7, final_arg8, final_arg9]

theorem final_rAgg2_2 : final m c (Proc.devRef .tc main_v370) = rAgg2_2 m c := by
  rw [rAgg2_2, agg2_2, final_rOut1_protein, final_arg18, final_arg19]

theorem final_rRel2_2 : final m c (Proc.devRef .tc main_v382) = rRel2_2 m c := by
  rw [rRel2_2, rel2_2, final_rAgg2_2, final_rOut1_path, final_arg7, final_arg8, final_arg9]

theorem final_rAgg2_3 : final m c (Proc.devRef .tc main_v400) = rAgg2_3 m c := by
  rw [rAgg2_3, agg2_3, final_rOut1_protein, final_arg20, final_arg21]

theorem final_rRel2_3 : final m c (Proc.devRef .tc main_v412) = rRel2_3 m c := by
  rw [rRel2_3, rel2_3, final_rAgg2_3, final_rOut1_side, final_arg7, final_arg8, final_arg9]

theorem final_rAgg2_4 : final m c (Proc.devRef .tc main_v431) = rAgg2_4 m c := by
  rw [rAgg2_4, agg2_4, final_rOut1_side, final_arg22, final_arg23]

theorem final_rRel2_4 : final m c (Proc.devRef .tc main_v443) = rRel2_4 m c := by
  rw [rRel2_4, rel2_4, final_rAgg2_4, final_rOut1_drug, final_arg7, final_arg8, final_arg9]

theorem final_rAgg2_5 : final m c (Proc.devRef .tc main_v461) = rAgg2_5 m c := by
  rw [rAgg2_5, agg2_5, final_rOut1_protein, final_arg24, final_arg25]

theorem final_rRel2_5 : final m c (Proc.devRef .tc main_v473) = rRel2_5 m c := by
  rw [rRel2_5, rel2_5, final_rAgg2_5, final_rOut1_drug, final_arg7, final_arg8, final_arg9]

theorem final_rAgg2_6 : final m c (Proc.devRef .tc main_v492) = rAgg2_6 m c := by
  rw [rAgg2_6, agg2_6, final_rOut1_path, final_arg26, final_arg27]

theorem final_rRel2_6 : final m c (Proc.devRef .tc main_v504) = rRel2_6 m c := by
  rw [rRel2_6, rel2_6, final_rAgg2_6, final_rOut1_protein, final_arg7, final_arg8, final_arg9]

theorem final_rH2_drug : final m c (Proc.devRef .tc main_v474) = rH2_drug m c := by
  rw [rH2_drug, final_main_v474, final_rRel2_4, final_rRel2_5]

theorem final_rH2_protein : final m c (Proc.devRef .tc main_v505) = rH2_protein m c := by
  rw [rH2_protein, final_main_v505, final_rRel2_1, final_rRel2_6]

theorem final_rH2_side : final m c (Proc.devRef .tc main_v413) = rH2_side m c := by
  rw [rH2_side, final_main_v413, final_rRel2_0, final_rRel2_3]

theorem final_rH2_path : final m c (Proc.devRef .tc main_v382) = rH2_path m c := final_rRel2_2 m c

theorem final_rOut2_drug : final m c (Proc.devRef .tc main_v525) = rOut2_drug m c := by
  rw [rOut2_drug, bn2_drug, final_rH2_drug, final_arg12, final_arg13]

theorem final_rOut2_protein : final m c (Proc.devRef .tc main_v545) = rOut2_protein m c := by
  rw [rOut2_protein, bn2_protein, final_rH2_protein, final_arg12, final_arg13]

theorem final_rOut2_side : final m c (Proc.devRef .tc main_v565) = rOut2_side m c := by
  rw [rOut2_side, bn2_side, final_rH2_side, final_arg12, final_arg13]

theorem final_rOut2_path : final m c (Proc.devRef .tc main_v585) = rOut2_path m c := by
  rw [rOut2_path, bn2_path, final_rH2_path, final_arg12, final_arg13]

/-! ### The four results -/

/-- @main's result `%525` on device `c` is layer 2's result for the first node type. -/
theorem res525_eq : res525 m c = rOut2_drug m c := final_rOut2_drug m c

/-- @main's result `%545` on device `c` is layer 2's result for the second node type. -/
theorem res545_eq : res545 m c = rOut2_protein m c := final_rOut2_protein m c

/-- @main's result `%565` on device `c` is layer 2's result for the third node type. -/
theorem res565_eq : res565 m c = rOut2_side m c := final_rOut2_side m c

/-- @main's result `%585` on device `c` is layer 2's result for the fourth node type. -/
theorem res585_eq : res585 m c = rOut2_path m c := final_rOut2_path m c

end Cert.ReferenceIdeal.Hand

end
-- ==== Proof.PreDecode.lean ====
import proofs.«126569_j1468878815453_1_alg».proof.Pre_finite_inputs
import proofs.«126569_j1468878815453_1_alg».proof.Proof.Gen.Pre_finite_inputs
import proofs.«126569_j1468878815453_1_alg».proof.Proof.Sage.Real
import proofs.«126569_j1468878815453_1_alg».proof.Proof.Sage.Finite
import Idealize.ShloMosaic.Lib.ReduceAll
import Idealize.ShloMosaic.Lib.StableHlo.Predicate
import Idealize.ShloMosaic.Lib.ValueIdx
import Idealize.ShloMosaic.PureOps.Ideal.Laws

/-! # The printed precondition, decoded

The precondition is the conjunction, over the fourteen float arguments, of "every entry's absolute value is below
the infinity": at the ideal instance each entry of each float argument is a real number. -/

noncomputable section

namespace Cert.Proof.Pre

open Idealize.ShloMosaic Cert.Pre_finite_inputs

/-- The scalar shape has one index. -/
instance : Subsingleton S_.Idx := ⟨fun a b => funext fun d => d.elim0⟩

/-- The word the entries are compared with encodes the infinity. -/
theorem inf_word : Ideal.ofBits .f32 0x7F800000#32 = ⊤ := by simp [Ideal.ofBits, Ideal.ieee]

/-- An extended real whose absolute value is below the infinity is a real number. -/
theorem isReal_of_abs_lt_top (a : EReal) (h : max a (-a) < ⊤) : Sage.IsReal a := by
  induction a using EReal.rec with
  | bot => simp at h
  | coe r => exact ⟨r, rfl⟩
  | top => simp at h

/-- One conjunct, at any shape: if the conjunction over all entries of "the absolute value is below the infinity" is
    one, every entry is a real number. -/
theorem allReal_of_block {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi (cmpf .olt (Host.absf x) (broadcastInDim S ![] hb (constant (F := Ideal) S_ .f32 0x7F800000#32)))
        (constantI S_ 1 1#1) hr hu ValueIdx.ix0 = 1#1) :
    Sage.AllReal x := by
  intro i
  have e := Host.reduce_andi_all _ _ hr hu ValueIdx.ix0 h i
  have e' : Ideal.cmp .olt (max (x i) (-(x i))) (Ideal.ofBits .f32 0x7F800000#32) = 1#1 := e
  rw [inf_word] at e'
  simp only [Ideal.cmp, StableHlo.Predicate.ofBool_eq_one_iff, decide_eq_true_eq] at e'
  exact isReal_of_abs_lt_top _ e'

variable [Cert.Pre_finite_inputs.Facts]

/-- The precondition at the ideal instance: every entry of each of the fourteen float arguments is a real number
    (the fourteen integer arguments are not constrained). -/
theorem allReal_of_pre (x0 : FVec Ideal S20000x128 .f32) (x1 : FVec Ideal S50000x128 .f32) (x2 : FVec Ideal S10000x128 .f32) (x3 : FVec Ideal S3000x128 .f32) (x4 : FVec Ideal S7x128x256 .f32) (x5 : FVec Ideal S7x128x256 .f32) (x6 : FVec Ideal S7x256 .f32) (x7 : FVec Ideal S7x256x256 .f32) (x8 : FVec Ideal S7x256x256 .f32) (x9 : FVec Ideal S7x256 .f32) (x10 : FVec Ideal S256 .f32) (x11 : FVec Ideal S256 .f32) (x12 : FVec Ideal S256 .f32) (x13 : FVec Ideal S256 .f32)
    (x14 : IVec S500000 32) (x15 : IVec S500000 32) (x16 : IVec S400000 32) (x17 : IVec S400000 32) (x18 : IVec S150000 32) (x19 : IVec S150000 32) (x20 : IVec S400000 32) (x21 : IVec S400000 32) (x22 : IVec S500000 32) (x23 : IVec S500000 32) (x24 : IVec S400000 32) (x25 : IVec S400000 32) (x26 : IVec S150000 32) (x27 : IVec S150000 32)
    (h : fn (F := Ideal) x0 x1 x2 x3 x4 x5 x6 x7 x8 x9 x10 x11 x12 x13 x14 x15 x16 x17 x18 x19 x20 x21 x22 x23 x24 x25 x26 x27 = fun _ => 1#1) :
    Sage.AllReal x0 ∧ Sage.AllReal x1 ∧ Sage.AllReal x2 ∧ Sage.AllReal x3 ∧ Sage.AllReal x4 ∧ Sage.AllReal x5 ∧ Sage.AllReal x6 ∧ Sage.AllReal x7 ∧ Sage.AllReal x8 ∧ Sage.AllReal x9 ∧ Sage.AllReal x10 ∧ Sage.AllReal x11 ∧ Sage.AllReal x12 ∧ Sage.AllReal x13 := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨allReal_of_block x0 _ _ _ e0,
    allReal_of_block x1 _ _ _ e1,
    allReal_of_block x2 _ _ _ e2,
    allReal_of_block x3 _ _ _ e3,
    allReal_of_block x4 _ _ _ e4,
    allReal_of_block x5 _ _ _ e5,
    allReal_of_block x6 _ _ _ e6,
    allReal_of_block x7 _ _ _ e7,
    allReal_of_block x8 _ _ _ e8,
    allReal_of_block x9 _ _ _ e9,
    allReal_of_block x10 _ _ _ e10,
    allReal_of_block x11 _ _ _ e11,
    allReal_of_block x12 _ _ _ e12,
    allReal_of_block x13 _ _ _ e13⟩

end Cert.Proof.Pre

end
-- ==== Proof.CmpDefs.lean ====
import proofs.«126569_j1468878815453_1_alg».proof.KernelIdeal
import proofs.«126569_j1468878815453_1_alg».proof.ReferenceIdeal
import Idealize.ShloMosaic.PureOps.Ideal

/-! # Two launch memories that agree on the arguments

The idealized kernel program and the idealized reference are run from memories of their own; the comparison of their
results is made on a core where the twenty-eight argument arrays hold the same contents in both. -/

noncomputable section

namespace Cert.Proof

open Idealize.ShloMosaic Idealize.SL.Sem

/-- A launch memory of the idealized kernel program, floats read as extended reals. -/
abbrev KMem : Type := (ℓ : Loc Cert.KernelIdeal.nD Cert.KernelIdeal.τ Cert.KernelIdeal.sig) → Buf (Elt Ideal) ℓ
/-- A launch memory of the idealized reference. -/
abbrev RMem : Type := (ℓ : Loc Cert.ReferenceIdeal.nD Cert.ReferenceIdeal.τ Cert.ReferenceIdeal.sig) → Buf (Elt Ideal) ℓ

/-- On core `c` the reference's memory holds, at each of its twenty-eight arguments, what the kernel program's memory
    holds at the argument of the same position. -/
def Agree (m : KMem) (m' : RMem) (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)

end Cert.Proof

end
-- ==== Proof.Sage.Bridge.lean ====
/-
  The two comparisons between what a kernel's regions leave and what the reference composes. THE COMBINE STAGE: an
  array whose every entry is the sum of two relations' contributions (each `Sage.rel` over the aggregated rows, the
  destination's own rows, one matrix of each weight stack and one bias row, the weights and bias cut out of their
  stacks as a kernel's host operations cut them) is the sum of the reference's two relation stages. THE NORMALISATION
  STAGE: an array whose every entry is `Sage.bnrelu` of the entry of `H` with its column's mean, variance, scale and
  shift read out of `1 × m` rows is any array `B` with those entries over the columns' means and variances — the
  reference's composed normalisation among them.
-/
import proofs.«126569_j1468878815453_1_alg».proof.Proof.Sage.Net
import proofs.«126569_j1468878815453_1_alg».proof.Proof.Sage.Var
import proofs.«126569_j1468878815453_1_alg».proof.Proof.Sage.Finite
import proofs.«126569_j1468878815453_1_alg».proof.Proof.Sage.Spec
import Idealize.ShloMosaic.Lib.ValueIdx
import Idealize.ShloMosaic.Lib.ValueLayout

noncomputable section

namespace Sage

open Idealize.ShloMosaic Idealize.ShloMosaic.ValueIdx
open scoped BigOperators

/-! ### The combine stage -/

section Combine

variable {F : FTy → Type} [FloatOps F]

variable (m R i : ℕ)
  (hslb : (⟨2, ![R, m]⟩ : Shape).Slices ![i, 0] ⟨2, ![1, m]⟩)
  (hscb : (⟨2, ![1, m]⟩ : Shape).ShapeCasts ⟨1, ![m]⟩)
  (hsc1 : (⟨1, ![m]⟩ : Shape).ShapeCasts ⟨2, ![1, m]⟩)

/-- Row `i` of the biases as a `1 × m` row: cut out, flattened to a vector, and given its unit axis back. -/
noncomputable def bRow (b : FVec F ⟨2, ![R, m]⟩ .f32) : FVec F ⟨2, ![1, m]⟩ .f32 :=
  shapeCast ⟨2, ![1, m]⟩ (shapeCast ⟨1, ![m]⟩ (extractStridedSlice ⟨2, ![1, m]⟩ ![i, 0] b hslb) hscb) hsc1

variable {m R i}

theorem bRow_apply (hi : i < R) (b : FVec Ideal ⟨2, ![R, m]⟩ .f32) (q : Fin m) :
    bRow (F := Ideal) m R i hslb hscb hsc1 b (ix2 (0 : Fin 1) q) = b (ix2 (⟨i, hi⟩ : Fin R) q) :=
  (shapeCast_a_1a_apply _ hsc1 0 q).trans ((shapeCast_1a_a_apply _ hscb q).trans (slice2_row_apply i hi b hslb q))

theorem bRow_allReal (b : FVec Ideal ⟨2, ![R, m]⟩ .f32) (hb : AllReal b) :
    AllReal (bRow (F := Ideal) m R i hslb hscb hsc1 b) :=
  allReal_shapeCast hsc1 (allReal_shapeCast hscb (allReal_extractStridedSlice _ hslb hb))

end Combine

section Combine2

variable {n k m R i0 i1 : ℕ}
  (d : DotDims ⟨2, ![n, k]⟩ ⟨2, ![k, m]⟩ ⟨2, ![n, m]⟩)
  (hsl0 : (⟨3, ![R, k, m]⟩ : Shape).Slices ![i0, 0, 0] ⟨3, ![1, k, m]⟩)
  (hsl1 : (⟨3, ![R, k, m]⟩ : Shape).Slices ![i1, 0, 0] ⟨3, ![1, k, m]⟩)
  (hsc : (⟨3, ![1, k, m]⟩ : Shape).ShapeCasts ⟨2, ![k, m]⟩)
  (hslb0 : (⟨2, ![R, m]⟩ : Shape).Slices ![i0, 0] ⟨2, ![1, m]⟩)
  (hslb1 : (⟨2, ![R, m]⟩ : Shape).Slices ![i1, 0] ⟨2, ![1, m]⟩)
  (hscb : (⟨2, ![1, m]⟩ : Shape).ShapeCasts ⟨1, ![m]⟩)
  (hsc1 : (⟨1, ![m]⟩ : Shape).ShapeCasts ⟨2, ![1, m]⟩)
  (hb1 : (⟨1, ![m]⟩ : Shape).BroadcastsInDim ⟨2, ![1, m]⟩ ![1])
  (hb3 : (⟨2, ![1, m]⟩ : Shape).BroadcastsInDim ⟨2, ![n, m]⟩ ![0, 1])

/-- An array whose entries are one relation's contribution over the cut-out weights and bias row is the reference's
    relation stage. -/
theorem combine1_eq (hd : d = DotDims.plain n k m) (hi0 : i0 < R) (H : FVec Ideal ⟨2, ![n, m]⟩ .f32)
    (agg0 x : FVec Ideal ⟨2, ![n, k]⟩ .f32) (Wl Wr : FVec Ideal ⟨3, ![R, k, m]⟩ .f32) (b : FVec Ideal ⟨2, ![R, m]⟩ .f32)
    (hH : ∀ (r : Fin n) (q : Fin m), H (ix2 r q)
      = Sage.rel (fun a : Fin k => agg0 (ix2 r a)) (fun a : Fin k => x (ix2 r a))
          (fun a : Fin k => wSlice (F := Ideal) k m R i0 hsl0 hsc Wl (ix2 a q))
          (fun a : Fin k => wSlice (F := Ideal) k m R i0 hsl0 hsc Wr (ix2 a q))
          (bRow (F := Ideal) m R i0 hslb0 hscb hsc1 b (ix2 (0 : Fin 1) q))) :
    H = relFn (F := Ideal) n k m R i0 d hsl0 hsc hslb0 hscb hb1 hb3 agg0 x Wl Wr b := by
  funext j
  obtain ⟨r, q, rfl⟩ : ∃ (r : Fin n) (q : Fin m), j = ix2 r q := ⟨j 0, j 1, eq_ix2 j⟩
  rw [hH r q, relFn_apply d hsl0 hsc hslb0 hscb hb1 hb3 hd hi0, bRow_apply hslb0 hscb hsc1 hi0]
  simp only [wSlice_apply hsl0 hsc hi0]

/-- An array whose entries are the sum of two relations' contributions over the cut-out weights and bias rows is the
    sum of the reference's two relation stages, in that order. -/
theorem combine2_eq (hd : d = DotDims.plain n k m) (hi0 : i0 < R) (hi1 : i1 < R) (H : FVec Ideal ⟨2, ![n, m]⟩ .f32)
    (agg0 agg1 x : FVec Ideal ⟨2, ![n, k]⟩ .f32) (Wl Wr : FVec Ideal ⟨3, ![R, k, m]⟩ .f32)
    (b : FVec Ideal ⟨2, ![R, m]⟩ .f32)
    (hH : ∀ (r : Fin n) (q : Fin m), H (ix2 r q)
      = Sage.rel (fun a : Fin k => agg0 (ix2 r a)) (fun a : Fin k => x (ix2 r a))
          (fun a : Fin k => wSlice (F := Ideal) k m R i0 hsl0 hsc Wl (ix2 a q))
          (fun a : Fin k => wSlice (F := Ideal) k m R i0 hsl0 hsc Wr (ix2 a q))
          (bRow (F := Ideal) m R i0 hslb0 hscb hsc1 b (ix2 (0 : Fin 1) q))
        + Sage.rel (fun a : Fin k => agg1 (ix2 r a)) (fun a : Fin k => x (ix2 r a))
          (fun a : Fin k => wSlice (F := Ideal) k m R i1 hsl1 hsc Wl (ix2 a q))
          (fun a : Fin k => wSlice (F := Ideal) k m R i1 hsl1 hsc Wr (ix2 a q))
          (bRow (F := Ideal) m R i1 hslb1 hscb hsc1 b (ix2 (0 : Fin 1) q))) :
    H = addf (relFn (F := Ideal) n k m R i0 d hsl0 hsc hslb0 hscb hb1 hb3 agg0 x Wl Wr b)
          (relFn (F := Ideal) n k m R i1 d hsl1 hsc hslb1 hscb hb1 hb3 agg1 x Wl Wr b) := by
  funext j
  obtain ⟨r, q, rfl⟩ : ∃ (r : Fin n) (q : Fin m), j = ix2 r q := ⟨j 0, j 1, eq_ix2 j⟩
  rw [hH r q]
  show _ = relFn (F := Ideal) n k m R i0 d hsl0 hsc hslb0 hscb hb1 hb3 agg0 x Wl Wr b (ix2 r q)
    + relFn (F := Ideal) n k m R i1 d hsl1 hsc hslb1 hscb hb1 hb3 agg1 x Wl Wr b (ix2 r q)
  rw [relFn_apply d hsl0 hsc hslb0 hscb hb1 hb3 hd hi0, relFn_apply d hsl1 hsc hslb1 hscb hb1 hb3 hd hi1,
    bRow_apply hslb0 hscb hsc1 hi0, bRow_apply hslb1 hscb hsc1 hi1]
  simp only [wSlice_apply hsl0 hsc hi0, wSlice_apply hsl1 hsc hi1]

end Combine2

/-! ### The normalisation stage -/

section Norm

variable {n m : ℕ}

/-- An array given entrywise by `bnrelu` over `1 × m` rows of means, variances, scales and shifts is any array with
    those entries over the columns' means and variances and the scale and shift vectors. -/
theorem bn_bridge_entries (eps : EReal) (N : ℝ) (H K B : (⟨2, ![n, m]⟩ : Shape).Idx → EReal)
    (meanRow varRow gRow betaRow : (⟨2, ![1, m]⟩ : Shape).Idx → EReal) (g beta : (⟨1, ![m]⟩ : Shape).Idx → EReal)
    (hB : ∀ (r : Fin n) (q : Fin m), B (ix2 r q)
      = bnrelu eps (H (ix2 r q)) (colMean (N : EReal) fun r : Fin n => H (ix2 r q))
          (colVarSq (N : EReal) fun r : Fin n => H (ix2 r q)) (g (ix1 q)) (beta (ix1 q)))
    (hK : ∀ (r : Fin n) (q : Fin m), K (ix2 r q)
      = bnrelu eps (H (ix2 r q)) (meanRow (ix2 (0 : Fin 1) q)) (varRow (ix2 (0 : Fin 1) q))
          (gRow (ix2 (0 : Fin 1) q)) (betaRow (ix2 (0 : Fin 1) q)))
    (hmean : ∀ q : Fin m, meanRow (ix2 (0 : Fin 1) q) = colMean (N : EReal) fun r : Fin n => H (ix2 r q))
    (hvar : ∀ q : Fin m, varRow (ix2 (0 : Fin 1) q) = colVarSq (N : EReal) fun r : Fin n => H (ix2 r q))
    (hg : ∀ q : Fin m, gRow (ix2 (0 : Fin 1) q) = g (ix1 q))
    (hbeta : ∀ q : Fin m, betaRow (ix2 (0 : Fin 1) q) = beta (ix1 q)) : K = B := by
  funext j
  obtain ⟨r, q, rfl⟩ : ∃ (r : Fin n) (q : Fin m), j = ix2 r q := ⟨j 0, j 1, eq_ix2 j⟩
  rw [hK r q, hB r q, hmean q, hvar q, hg q, hbeta q]

/-- The same with the array written as the function of its index. -/
theorem bn_bridge (eps : EReal) (N : ℝ) (H B : (⟨2, ![n, m]⟩ : Shape).Idx → EReal)
    (meanRow varRow gRow betaRow : (⟨2, ![1, m]⟩ : Shape).Idx → EReal) (g beta : (⟨1, ![m]⟩ : Shape).Idx → EReal)
    (hB : ∀ (r : Fin n) (q : Fin m), B (ix2 r q)
      = bnrelu eps (H (ix2 r q)) (colMean (N : EReal) fun r : Fin n => H (ix2 r q))
          (colVarSq (N : EReal) fun r : Fin n => H (ix2 r q)) (g (ix1 q)) (beta (ix1 q)))
    (hmean : ∀ q : Fin m, meanRow (ix2 (0 : Fin 1) q) = colMean (N : EReal) fun r : Fin n => H (ix2 r q))
    (hvar : ∀ q : Fin m, varRow (ix2 (0 : Fin 1) q) = colVarSq (N : EReal) fun r : Fin n => H (ix2 r q))
    (hg : ∀ q : Fin m, gRow (ix2 (0 : Fin 1) q) = g (ix1 q))
    (hbeta : ∀ q : Fin m, betaRow (ix2 (0 : Fin 1) q) = beta (ix1 q)) :
    (fun j : (⟨2, ![n, m]⟩ : Shape).Idx => bnrelu eps (H j) (meanRow (ix2 (0 : Fin 1) (j 1 : Fin m)))
        (varRow (ix2 (0 : Fin 1) (j 1 : Fin m))) (gRow (ix2 (0 : Fin 1) (j 1 : Fin m)))
        (betaRow (ix2 (0 : Fin 1) (j 1 : Fin m)))) = B :=
  bn_bridge_entries eps N H _ B meanRow varRow gRow betaRow g beta hB (fun _ _ => rfl) hmean hvar hg hbeta

/-- A vector given its unit axis reads, at `(0, q)`, the vector at `q`. -/
theorem row_of_vec_apply {α : Type} (x : (⟨1, ![m]⟩ : Shape).Idx → α) (h : (⟨1, ![m]⟩ : Shape).ShapeCasts ⟨2, ![1, m]⟩)
    (q : Fin m) : shapeCast ⟨2, ![1, m]⟩ x h (ix2 (0 : Fin 1) q) = x (ix1 q) :=
  shapeCast_a_1a_apply x h 0 q

end Norm

end Sage

end
-- ==== Proof.Sage.Layer.lean ====
/-
  One node type of one layer, compared. On one side a kernel leaves four arrays: the relation sums `Hk` (every entry
  the sum of its relations' contributions over the aggregated rows, the destination's own rows and the cut-out weights
  and bias rows), the rows of their column means and variances, and the result `Out` (every entry the normalised,
  scaled, shifted and rectified entry of `Hk`). On the other side the reference composes the relation stages, adds
  them, and normalises the sum. When the operands agree and are real, `Hk` is the reference's sum and `Out` the
  reference's result — for a node type fed by two relations, and for one fed by one.
-/
import proofs.«126569_j1468878815453_1_alg».proof.Proof.Sage.Bridge

noncomputable section

namespace Sage

open Idealize.ShloMosaic Idealize.ShloMosaic.ValueIdx
open scoped BigOperators

section Node

variable {n k m R i0 i1 : ℕ}
  (d : DotDims ⟨2, ![n, k]⟩ ⟨2, ![k, m]⟩ ⟨2, ![n, m]⟩)
  (hsl0 : (⟨3, ![R, k, m]⟩ : Shape).Slices ![i0, 0, 0] ⟨3, ![1, k, m]⟩)
  (hsl1 : (⟨3, ![R, k, m]⟩ : Shape).Slices ![i1, 0, 0] ⟨3, ![1, k, m]⟩)
  (hsc : (⟨3, ![1, k, m]⟩ : Shape).ShapeCasts ⟨2, ![k, m]⟩)
  (hslb0 : (⟨2, ![R, m]⟩ : Shape).Slices ![i0, 0] ⟨2, ![1, m]⟩)
  (hslb1 : (⟨2, ![R, m]⟩ : Shape).Slices ![i1, 0] ⟨2, ![1, m]⟩)
  (hscb : (⟨2, ![1, m]⟩ : Shape).ShapeCasts ⟨1, ![m]⟩)
  (hsc1 : (⟨1, ![m]⟩ : Shape).ShapeCasts ⟨2, ![1, m]⟩)
  (hb1 : (⟨1, ![m]⟩ : Shape).BroadcastsInDim ⟨2, ![1, m]⟩ ![1])
  (hb3 : (⟨2, ![1, m]⟩ : Shape).BroadcastsInDim ⟨2, ![n, m]⟩ ![0, 1])
  (eps : EReal) (N : ℝ)
  (B : FVec Ideal ⟨2, ![n, m]⟩ .f32 → FVec Ideal ⟨1, ![m]⟩ .f32 → FVec Ideal ⟨1, ![m]⟩ .f32 → FVec Ideal ⟨2, ![n, m]⟩ .f32)

/-- A node type fed by two relations. -/
theorem node2_eq (hd : d = DotDims.plain n k m) (hi0 : i0 < R) (hi1 : i1 < R)
    (hB : ∀ (H : FVec Ideal ⟨2, ![n, m]⟩ .f32), AllReal H → ∀ (g beta : FVec Ideal ⟨1, ![m]⟩ .f32) (r : Fin n) (q : Fin m),
      B H g beta (ix2 r q) = bnrelu eps (H (ix2 r q)) (colMean (N : EReal) fun r : Fin n => H (ix2 r q))
        (colVarSq (N : EReal) fun r : Fin n => H (ix2 r q)) (g (ix1 q)) (beta (ix1 q)))
    -- what the kernel's side reads, and the reference's operands they equal
    (agg0 agg1 x agg0' agg1' x' : FVec Ideal ⟨2, ![n, k]⟩ .f32) (Wl Wr Wl' Wr' : FVec Ideal ⟨3, ![R, k, m]⟩ .f32)
    (b b' : FVec Ideal ⟨2, ![R, m]⟩ .f32) (g beta g' beta' : FVec Ideal ⟨1, ![m]⟩ .f32)
    (eagg0 : agg0 = agg0') (eagg1 : agg1 = agg1') (ex : x = x') (eWl : Wl = Wl') (eWr : Wr = Wr') (eb : b = b')
    (eg : g = g') (ebeta : beta = beta')
    (hagg0 : AllReal agg0') (hagg1 : AllReal agg1') (hx : AllReal x') (hWl : AllReal Wl') (hWr : AllReal Wr')
    (hb : AllReal b')
    -- the kernel's four arrays
    (Hk Out : FVec Ideal ⟨2, ![n, m]⟩ .f32) (meanRow varRow gRow betaRow : FVec Ideal ⟨2, ![1, m]⟩ .f32)
    (hH : ∀ (r : Fin n) (q : Fin m), Hk (ix2 r q)
      = Sage.rel (fun a : Fin k => agg0 (ix2 r a)) (fun a : Fin k => x (ix2 r a))
          (fun a : Fin k => wSlice (F := Ideal) k m R i0 hsl0 hsc Wl (ix2 a q))
          (fun a : Fin k => wSlice (F := Ideal) k m R i0 hsl0 hsc Wr (ix2 a q))
          (bRow (F := Ideal) m R i0 hslb0 hscb hsc1 b (ix2 (0 : Fin 1) q))
        + Sage.rel (fun a : Fin k => agg1 (ix2 r a)) (fun a : Fin k => x (ix2 r a))
          (fun a : Fin k => wSlice (F := Ideal) k m R i1 hsl1 hsc Wl (ix2 a q))
          (fun a : Fin k => wSlice (F := Ideal) k m R i1 hsl1 hsc Wr (ix2 a q))
          (bRow (F := Ideal) m R i1 hslb1 hscb hsc1 b (ix2 (0 : Fin 1) q)))
    (hmean : ∀ q : Fin m, meanRow (ix2 (0 : Fin 1) q) = colMean (N : EReal) fun r : Fin n => Hk (ix2 r q))
    (hvar : ∀ q : Fin m, varRow (ix2 (0 : Fin 1) q) = colVarSq (N : EReal) fun r : Fin n => Hk (ix2 r q))
    (hg : ∀ q : Fin m, gRow (ix2 (0 : Fin 1) q) = g (ix1 q))
    (hbeta : ∀ q : Fin m, betaRow (ix2 (0 : Fin 1) q) = beta (ix1 q))
    (hOut : ∀ (r : Fin n) (q : Fin m), Out (ix2 r q)
      = bnrelu eps (Hk (ix2 r q)) (meanRow (ix2 (0 : Fin 1) q)) (varRow (ix2 (0 : Fin 1) q))
          (gRow (ix2 (0 : Fin 1) q)) (betaRow (ix2 (0 : Fin 1) q))) :
    Hk = addf (relFn (F := Ideal) n k m R i0 d hsl0 hsc hslb0 hscb hb1 hb3 agg0' x' Wl' Wr' b')
            (relFn (F := Ideal) n k m R i1 d hsl1 hsc hslb1 hscb hb1 hb3 agg1' x' Wl' Wr' b')
      ∧ Out = B (addf (relFn (F := Ideal) n k m R i0 d hsl0 hsc hslb0 hscb hb1 hb3 agg0' x' Wl' Wr' b')
            (relFn (F := Ideal) n k m R i1 d hsl1 hsc hslb1 hscb hb1 hb3 agg1' x' Wl' Wr' b')) g' beta' := by
  subst eagg0 eagg1 ex eWl eWr eb eg ebeta
  have e : Hk = addf (relFn (F := Ideal) n k m R i0 d hsl0 hsc hslb0 hscb hb1 hb3 agg0 x Wl Wr b)
      (relFn (F := Ideal) n k m R i1 d hsl1 hsc hslb1 hscb hb1 hb3 agg1 x Wl Wr b) :=
    combine2_eq d hsl0 hsl1 hsc hslb0 hslb1 hscb hsc1 hb1 hb3 hd hi0 hi1 Hk agg0 agg1 x Wl Wr b hH
  have hreal : AllReal Hk := by
    rw [e]
    exact allReal_addf (relFn_allReal d hsl0 hsc hslb0 hscb hb1 hb3 agg0 x Wl Wr b hagg0 hx hWl hWr hb)
      (relFn_allReal d hsl1 hsc hslb1 hscb hb1 hb3 agg1 x Wl Wr b hagg1 hx hWl hWr hb)
  refine ⟨e, ?_⟩
  rw [← e]
  exact bn_bridge_entries eps N Hk Out (B Hk g beta) meanRow varRow gRow betaRow g beta (hB Hk hreal g beta) hOut
    hmean hvar hg hbeta

/-- A node type fed by one relation. -/
theorem node1_eq (hd : d = DotDims.plain n k m) (hi0 : i0 < R)
    (hB : ∀ (H : FVec Ideal ⟨2, ![n, m]⟩ .f32), AllReal H → ∀ (g beta : FVec Ideal ⟨1, ![m]⟩ .f32) (r : Fin n) (q : Fin m),
      B H g beta (ix2 r q) = bnrelu eps (H (ix2 r q)) (colMean (N : EReal) fun r : Fin n => H (ix2 r q))
        (colVarSq (N : EReal) fun r : Fin n => H (ix2 r q)) (g (ix1 q)) (beta (ix1 q)))
    (agg0 x agg0' x' : FVec Ideal ⟨2, ![n, k]⟩ .f32) (Wl Wr Wl' Wr' : FVec Ideal ⟨3, ![R, k, m]⟩ .f32)
    (b b' : FVec Ideal ⟨2, ![R, m]⟩ .f32) (g beta g' beta' : FVec Ideal ⟨1, ![m]⟩ .f32)
    (eagg0 : agg0 = agg0') (ex : x = x') (eWl : Wl = Wl') (eWr : Wr = Wr') (eb : b = b')
    (eg : g = g') (ebeta : beta = beta')
    (hagg0 : AllReal agg0') (hx : AllReal x') (hWl : AllReal Wl') (hWr : AllReal Wr') (hb : AllReal b')
    (Hk Out : FVec Ideal ⟨2, ![n, m]⟩ .f32) (meanRow varRow gRow betaRow : FVec Ideal ⟨2, ![1, m]⟩ .f32)
    (hH : ∀ (r : Fin n) (q : Fin m), Hk (ix2 r q)
      = Sage.rel (fun a : Fin k => agg0 (ix2 r a)) (fun a : Fin k => x (ix2 r a))
          (fun a : Fin k => wSlice (F := Ideal) k m R i0 hsl0 hsc Wl (ix2 a q))
          (fun a : Fin k => wSlice (F := Ideal) k m R i0 hsl0 hsc Wr (ix2 a q))
          (bRow (F := Ideal) m R i0 hslb0 hscb hsc1 b (ix2 (0 : Fin 1) q)))
    (hmean : ∀ q : Fin m, meanRow (ix2 (0 : Fin 1) q) = colMean (N : EReal) fun r : Fin n => Hk (ix2 r q))
    (hvar : ∀ q : Fin m, varRow (ix2 (0 : Fin 1) q) = colVarSq (N : EReal) fun r : Fin n => Hk (ix2 r q))
    (hg : ∀ q : Fin m, gRow (ix2 (0 : Fin 1) q) = g (ix1 q))
    (hbeta : ∀ q : Fin m, betaRow (ix2 (0 : Fin 1) q) = beta (ix1 q))
    (hOut : ∀ (r : Fin n) (q : Fin m), Out (ix2 r q)
      = bnrelu eps (Hk (ix2 r q)) (meanRow (ix2 (0 : Fin 1) q)) (varRow (ix2 (0 : Fin 1) q))
          (gRow (ix2 (0 : Fin 1) q)) (betaRow (ix2 (0 : Fin 1) q))) :
    Hk = relFn (F := Ideal) n k m R i0 d hsl0 hsc hslb0 hscb hb1 hb3 agg0' x' Wl' Wr' b'
      ∧ Out = B (relFn (F := Ideal) n k m R i0 d hsl0 hsc hslb0 hscb hb1 hb3 agg0' x' Wl' Wr' b') g' beta' := by
  subst eagg0 ex eWl eWr eb eg ebeta
  have e : Hk = relFn (F := Ideal) n k m R i0 d hsl0 hsc hslb0 hscb hb1 hb3 agg0 x Wl Wr b :=
    combine1_eq d hsl0 hsc hslb0 hscb hsc1 hb1 hb3 hd hi0 Hk agg0 x Wl Wr b hH
  have hreal : AllReal Hk := by
    rw [e]; exact relFn_allReal d hsl0 hsc hslb0 hscb hb1 hb3 agg0 x Wl Wr b hagg0 hx hWl hWr hb
  refine ⟨e, ?_⟩
  rw [← e]
  exact bn_bridge_entries eps N Hk Out (B Hk g beta) meanRow varRow gRow betaRow g beta (hB Hk hreal g beta) hOut
    hmean hvar hg hbeta

end Node

/-- Two aggregations of equal operands are equal. -/
theorem cmp3 {α β γ δ : Type} (f : α → β → γ → δ) {a a' : α} {b b' : β} {c c' : γ} (ha : a = a') (hb : b = b')
    (hc : c = c') : f a b c = f a' b' c' := by subst ha hb hc; rfl

/-- Equal operands, five of them, give equal results. -/
theorem cmp5 {α₁ α₂ α₃ α₄ α₅ β : Type} (f : α₁ → α₂ → α₃ → α₄ → α₅ → β) {a₁ b₁ : α₁} {a₂ b₂ : α₂} {a₃ b₃ : α₃}
    {a₄ b₄ : α₄} {a₅ b₅ : α₅} (h₁ : a₁ = b₁) (h₂ : a₂ = b₂) (h₃ : a₃ = b₃) (h₄ : a₄ = b₄) (h₅ : a₅ = b₅) :
    f a₁ a₂ a₃ a₄ a₅ = f b₁ b₂ b₃ b₄ b₅ := by subst h₁ h₂ h₃ h₄ h₅; rfl

/-- Equal operands, nine of them, give equal results. -/
theorem cmp9 {α₁ α₂ α₃ α₄ α₅ α₆ α₇ α₈ α₉ β : Type} (f : α₁ → α₂ → α₃ → α₄ → α₅ → α₆ → α₇ → α₈ → α₉ → β)
    {a₁ b₁ : α₁} {a₂ b₂ : α₂} {a₃ b₃ : α₃} {a₄ b₄ : α₄} {a₅ b₅ : α₅} {a₆ b₆ : α₆} {a₇ b₇ : α₇} {a₈ b₈ : α₈} {a₉ b₉ : α₉}
    (h₁ : a₁ = b₁) (h₂ : a₂ = b₂) (h₃ : a₃ = b₃) (h₄ : a₄ = b₄) (h₅ : a₅ = b₅) (h₆ : a₆ = b₆) (h₇ : a₇ = b₇)
    (h₈ : a₈ = b₈) (h₉ : a₉ = b₉) : f a₁ a₂ a₃ a₄ a₅ a₆ a₇ a₈ a₉ = f b₁ b₂ b₃ b₄ b₅ b₆ b₇ b₈ b₉ := by
  subst h₁ h₂ h₃ h₄ h₅ h₆ h₇ h₈ h₉; rfl

end Sage

end
-- ==== Proof.CmpA1.lean ====
/-
  Layer 1's aggregations compared: on a core where the two launch memories agree on the arguments, each relation's
  aggregation is the same function of the same operands in both programs.
-/
import proofs.«126569_j1468878815453_1_alg».proof.Proof.CmpDefs
import proofs.«126569_j1468878815453_1_alg».proof.Proof.KI.ReadL1a
import proofs.«126569_j1468878815453_1_alg».proof.Proof.Ref.StageDefs
import proofs.«126569_j1468878815453_1_alg».proof.Proof.Sage.Layer

set_option maxRecDepth 16384

noncomputable section

namespace Cert.Proof

open Idealize.ShloMosaic Idealize.ShloMosaic.ValueIdx Idealize.SL.Sem

/-- Layer 1, relation 0: the two aggregations are one function of operands that agree. -/
theorem agg1_0 (m : KMem) (ρ : Dev Cert.KernelIdeal.nD → PrngReg) (m' : RMem) (c : Dev Cert.KernelIdeal.nD) (hag : Agree m m' c) :
    Cert.KernelIdeal.Hand.kAgg1_0 m ρ c = Cert.ReferenceIdeal.Hand.rAgg1_0 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_0 (F := Ideal)) h0.symm h14.symm h15.symm

/-- Layer 1, relation 1: the two aggregations are one function of operands that agree. -/
theorem agg1_1 (m : KMem) (ρ : Dev Cert.KernelIdeal.nD → PrngReg) (m' : RMem) (c : Dev Cert.KernelIdeal.nD) (hag : Agree m m' c) :
    Cert.KernelIdeal.Hand.kAgg1_1 m ρ c = Cert.ReferenceIdeal.Hand.rAgg1_1 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_1 (F := Ideal)) h0.symm h16.symm h17.symm

/-- Layer 1, relation 2: the two aggregations are one function of operands that agree. -/
theorem agg1_2 (m : KMem) (ρ : Dev Cert.KernelIdeal.nD → PrngReg) (m' : RMem) (c : Dev Cert.KernelIdeal.nD) (hag : Agree m m' c) :
    Cert.KernelIdeal.Hand.kAgg1_2 m ρ c = Cert.ReferenceIdeal.Hand.rAgg1_2 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_2 (F := Ideal)) h1.symm h18.symm h19.symm

/-- Layer 1, relation 3: the two aggregations are one function of operands that agree. -/
theorem agg1_3 (m : KMem) (ρ : Dev Cert.KernelIdeal.nD → PrngReg) (m' : RMem) (c : Dev Cert.KernelIdeal.nD) (hag : Agree m m' c) :
    Cert.KernelIdeal.Hand.kAgg1_3 m ρ c = Cert.ReferenceIdeal.Hand.rAgg1_3 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_3 (F := Ideal)) h1.symm h20.symm h21.symm

/-- Layer 1, relation 4: the two aggregations are one function of operands that agree. -/
theorem agg1_4 (m : KMem) (ρ : Dev Cert.KernelIdeal.nD → PrngReg) (m' : RMem) (c : Dev Cert.KernelIdeal.nD) (hag : Agree m m' c) :
    Cert.KernelIdeal.Hand.kAgg1_4 m ρ c = Cert.ReferenceIdeal.Hand.rAgg1_4 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_4 (F := Ideal)) h2.symm h22.symm h23.symm

/-- Layer 1, relation 5: the two aggregations are one function of operands that agree. -/
theorem agg1_5 (m : KMem) (ρ : Dev Cert.KernelIdeal.nD → PrngReg) (m' : RMem) (c : Dev Cert.KernelIdeal.nD) (hag : Agree m m' c) :
    Cert.KernelIdeal.Hand.kAgg1_5 m ρ c = Cert.ReferenceIdeal.Hand.rAgg1_5 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_5 (F := Ideal)) h1.symm h24.symm h25.symm

/-- Layer 1, relation 6: the two aggregations are one function of operands that agree. -/
theorem agg1_6 (m : KMem) (ρ : Dev Cert.KernelIdeal.nD → PrngReg) (m' : RMem) (c : Dev Cert.KernelIdeal.nD) (hag : Agree m m' c) :
    Cert.KernelIdeal.Hand.kAgg1_6 m ρ c = Cert.ReferenceIdeal.Hand.rAgg1_6 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg1_6 (F := Ideal)) h3.symm h26.symm h27.symm

end Cert.Proof

end
-- ==== Proof.KI.Val0Pay.lean ====
import proofs.«126569_j1468878815453_1_alg».proof.Proof.KI.Reg0Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 0 (the layer-1 combine of a 20000-row node type in 20 row blocks): the payloads at an index

At the ideal instance: the nine input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x128 block with a 128x256 matrix -/

/-- The dot's dimension numbers: rows by the shared axis, the shared axis by columns. -/
noncomputable abbrev D0 : DotDims S1000x128 S128x256 S1000x256 := dot_S1000x128_S128x256_S1000x256_1_0_0_1_n_n

theorem D0_rank : D0.contr.rank = 1 := rfl
theorem D0_size : D0.contr.size ⟨0, by rw [D0_rank]; exact Nat.one_pos⟩ = 128 := rfl

/-- The left operand's index at output `j` and contraction index `k`: row `j 0`, column `k`; -/
theorem lhs_D0_0 (j : S1000x256.Idx) (k : D0.contr.Idx) : ((D0.lhsIdx j k 0 : Fin 1000) : ℕ) = (j 0 : Fin 1000) := rfl
theorem lhs_D0_1 (j : S1000x256.Idx) (k : D0.contr.Idx) : ((D0.lhsIdx j k 1 : Fin 128) : ℕ) = (k ⟨0, by rw [D0_rank]; exact Nat.one_pos⟩).val :=
  DotDims.lhsIdx_val_of_single D0 rfl j k
/-- the right operand's: row `k`, column `j 1`. -/
theorem rhs_D0_0 (j : S1000x256.Idx) (k : D0.contr.Idx) : ((D0.rhsIdx j k 0 : Fin 128) : ℕ) = (k ⟨0, by rw [D0_rank]; exact Nat.one_pos⟩).val :=
  DotDims.rhsIdx_val_of_single D0 rfl j k
theorem rhs_D0_1 (j : S1000x256.Idx) (k : D0.contr.Idx) : ((D0.rhsIdx j k 1 : Fin 256) : ℕ) = (j 1 : Fin 256) := rfl

/-- The product into a zero accumulator, at row `p` and column `q`: the row of the left operand against the column
    of the right one. -/
theorem matmul0_at (L : S1000x128.Idx → EReal) (R : S128x256.Idx → EReal) (p : Fin 1000) (q : Fin 256) :
    matmul (F := Ideal) (φ₁ := .f32) (φ₂ := .f32) D0 none L R (constant S1000x256 .f32 0x00000000#32) (ix2 p q)
      = ∑ k : Fin 128, L (ix2 p k) * R (ix2 k q) := by
  show FloatOps.matmul (F := Ideal) (φ₁ := .f32) (φ₂ := .f32) D0 none L R (constant S1000x256 .f32 0x00000000#32) (ix2 p q) = _
  rw [Ideal.matmul_constant_zero_apply, ← Equiv.sum_comp (contrEquiv1 D0 128 D0_rank D0_size).symm]
  refine Finset.sum_congr rfl fun k _ => ?_
  have hk := contrEquiv1_symm_val D0 128 D0_rank D0_size k
  have eL : D0.lhsIdx (ix2 p q) ((contrEquiv1 D0 128 D0_rank D0_size).symm k) = ix2 p k :=
    Shape.idx_ext₂ (lhs_D0_0 _ _) ((lhs_D0_1 _ _).trans hk)
  have eR : D0.rhsIdx (ix2 p q) ((contrEquiv1 D0 128 D0_rank D0_size).symm k) = ix2 k q :=
    Shape.idx_ext₂ ((rhs_D0_0 _ _).trans hk) (rhs_D0_1 _ _)
  rw [eL, eR]

/-! ## The payloads at an index -/

/-- The block output's payload at row `p`, column `q`: the two relations' contributions to that entry, added. The
    operands are the first aggregate's block, the first left weights, the first bias row, the destination's block, the
    first right weights, then the second relation's five in the same order. -/
theorem pay0_7_at (a0 a1 x : S1000x128.Idx → EReal) (wl0 wl1 wr0 wr1 : S128x256.Idx → EReal) (b0 b1 : S1x256.Idx → EReal)
    (p : Fin 1000) (q : Fin 256) :
    k0_pay7 (F := Ideal) a0 wl0 b0 x wr0 a1 wl1 b1 x wr1 (ix2 p q)
      = Sage.rel (fun k : Fin 128 => a0 (ix2 p k)) (fun k : Fin 128 => x (ix2 p k)) (fun k : Fin 128 => wl0 (ix2 k q)) (fun k : Fin 128 => wr0 (ix2 k q)) (b0 (ix2 (0 : Fin 1) q))
        + Sage.rel (fun k : Fin 128 => a1 (ix2 p k)) (fun k : Fin 128 => x (ix2 p k)) (fun k : Fin 128 => wl1 (ix2 k q)) (fun k : Fin 128 => wr1 (ix2 k q)) (b1 (ix2 (0 : Fin 1) q)) := by
  unfold k0_pay7
  simp only [addf_apply, shapeCast_self, broadcastTo_1b_ab_apply, matmul0_at]
  rfl

/-- A 1000x256 block's column sums, as a row: at column `q` the sum over the block's rows. -/
theorem colsum0_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the block's column sum. -/
theorem pay0_1_at (acc : S1000x256.Idx → EReal) (s : S1x256.Idx → EReal) (q : Fin 256) :
    k0_pay1 (F := Ideal) acc s (ix2 (0 : Fin 1) q) = s (ix2 (0 : Fin 1) q) + ∑ r : Fin 1000, acc (ix2 r q) := by
  unfold k0_pay1
  simp only [shapeCast_self, addf_apply]
  exact congrArg (s (ix2 (0 : Fin 1) q) + ·) (colsum0_at acc q)

/-- The second accumulator's payload at column `q`: what it held plus the column sum of the block's squares. -/
theorem pay0_2_at (acc : S1000x256.Idx → EReal) (s : S1x256.Idx → EReal) (q : Fin 256) :
    k0_pay2 (F := Ideal) acc s (ix2 (0 : Fin 1) q) = s (ix2 (0 : Fin 1) q) + ∑ r : Fin 1000, acc (ix2 r q) * acc (ix2 r q) := by
  unfold k0_pay2
  simp only [shapeCast_self, addf_apply]
  exact congrArg (s (ix2 (0 : Fin 1) q) + ·) ((colsum0_at (mulf (F := Ideal) (s := S1000x256) (φ := .f32) acc acc) q).trans rfl)

/-- The two resets store zeros. -/
theorem pay0_5_at (i : S1x256.Idx) : k0_pay5 (F := Ideal) i = 0 := by
  unfold k0_pay5
  simp only [shapeCast_self, broadcast_apply]
  exact Ideal.ofBits_zero_f32
theorem pay0_6_at (i : S1x256.Idx) : k0_pay6 (F := Ideal) i = 0 := by
  unfold k0_pay6
  simp only [shapeCast_self, broadcast_apply]
  exact Ideal.ofBits_zero_f32

/-- The row count the statistics divide by, as the body writes it. -/
noncomputable abbrev rows0 : EReal := Ideal.ofBits .f32 0x469C4000#32

/-- The mean output's payload at an index: the first accumulator's entry over the row count. -/
theorem pay0_3_at (s0 : S1x256.Idx → EReal) (i : S1x256.Idx) : k0_pay3 (F := Ideal) s0 i = Ideal.div (s0 i) rows0 := by
  unfold k0_pay3
  simp only [divf_apply, broadcast_apply]
  rfl

/-- The variance output's payload at an index: the second accumulator's entry over the row count, less the squared mean. -/
theorem pay0_4_at (s0 s1 : S1x256.Idx → EReal) (i : S1x256.Idx) :
    k0_pay4 (F := Ideal) s0 s1 i = Ideal.div (s1 i) rows0 - Ideal.div (s0 i) rows0 * Ideal.div (s0 i) rows0 := by
  unfold k0_pay4
  simp only [subf_apply, mulf_apply, divf_apply, broadcast_apply, pay0_3_at]
  rfl

/-! ## The arrays as the region finds them -/

-- the TensorCore's buffer contents when the region is entered
variable (V : (c : Dev nD) → (b : Ref sig .tc) → Buf (Elt Ideal) ((c : Thread nD τ).loc b))

/-- The first relation's aggregated sources, -/
noncomputable abbrev agga0 (c : Dev nD) : S20000x128.Idx → EReal := V c (Pipeline.arrRef spec0 0)
/-- the second relation's, -/
noncomputable abbrev aggb0 (c : Dev nD) : S20000x128.Idx → EReal := V c (Pipeline.arrRef spec0 1)
/-- the destination's own features, -/
noncomputable abbrev xdst0 (c : Dev nD) : S20000x128.Idx → EReal := V c (Pipeline.arrRef spec0 2)
/-- the two relations' left weights, -/
noncomputable abbrev wla0 (c : Dev nD) : S128x256.Idx → EReal := V c (Pipeline.arrRef spec0 3)
noncomputable abbrev wlb0 (c : Dev nD) : S128x256.Idx → EReal := V c (Pipeline.arrRef spec0 4)
/-- their right weights, -/
noncomputable abbrev wra0 (c : Dev nD) : S128x256.Idx → EReal := V c (Pipeline.arrRef spec0 5)
noncomputable abbrev wrb0 (c : Dev nD) : S128x256.Idx → EReal := V c (Pipeline.arrRef spec0 6)
/-- and their bias rows. -/
noncomputable abbrev bia0 (c : Dev nD) : S1x256.Idx → EReal := V c (Pipeline.arrRef spec0 7)
noncomputable abbrev bib0 (c : Dev nD) : S1x256.Idx → EReal := V c (Pipeline.arrRef spec0 8)

/-- The input windows' blocks at a point, by their literal types. -/
noncomputable abbrev blk0_0 (c : Dev nD) (t : Fin cfg0.N) : S1000x128.Idx → EReal := iblk0 V c 0 t
noncomputable abbrev blk0_1 (c : Dev nD) (t : Fin cfg0.N) : S1000x128.Idx → EReal := iblk0 V c 1 t
noncomputable abbrev blk0_2 (c : Dev nD) (t : Fin cfg0.N) : S1000x128.Idx → EReal := iblk0 V c 2 t
noncomputable abbrev blk0_3 (c : Dev nD) (t : Fin cfg0.N) : S128x256.Idx → EReal := iblk0 V c 3 t
noncomputable abbrev blk0_4 (c : Dev nD) (t : Fin cfg0.N) : S128x256.Idx → EReal := iblk0 V c 4 t
noncomputable abbrev blk0_5 (c : Dev nD) (t : Fin cfg0.N) : S128x256.Idx → EReal := iblk0 V c 5 t
noncomputable abbrev blk0_6 (c : Dev nD) (t : Fin cfg0.N) : S128x256.Idx → EReal := iblk0 V c 6 t
noncomputable abbrev blk0_7 (c : Dev nD) (t : Fin cfg0.N) : S1x256.Idx → EReal := iblk0 V c 7 t
noncomputable abbrev blk0_8 (c : Dev nD) (t : Fin cfg0.N) : S1x256.Idx → EReal := iblk0 V c 8 t

/-! ## The blocks' places in their arrays -/

theorem hz0 : (![0, 0] : Fin 2 → Nat) = fun _ => 0 := funext fun a => by fin_cases a <;> rfl

/-- The printed index maps, decided over the grid: the three row-blocked inputs' and the block output's block at point
    `t` is row block `t`; every other window's one block is its whole array. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Row `p`, column `k` of the first aggregate's block at point `t` is the array's entry at row `1000 t + p`. -/
theorem blk0_0_at (c : Dev nD) (t : Fin cfg0.N) (p : Fin 1000) (k : Fin 128) (hr : t.val * 1000 + p.val < 20000) :
    blk0_0 V c t (ix2 p k) = agga0 V c (ix2 (⟨t.val * 1000 + p.val, hr⟩ : Fin 20000) k) := by
  obtain ⟨e0, e1⟩ := (idx_facts0 t).1
  show iblk0 V c 0 t (ix2 p k) = _
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 128 + 1 * k.val = k.val; rw [e1]; omega

/-- Row `p`, column `k` of the second aggregate's block at point `t` is the array's entry at row `1000 t + p`. -/
theorem blk0_1_at (c : Dev nD) (t : Fin cfg0.N) (p : Fin 1000) (k : Fin 128) (hr : t.val * 1000 + p.val < 20000) :
    blk0_1 V c t (ix2 p k) = aggb0 V c (ix2 (⟨t.val * 1000 + p.val, hr⟩ : Fin 20000) k) := by
  obtain ⟨e0, e1⟩ := (idx_facts0 t).2.1
  show iblk0 V c 1 t (ix2 p k) = _
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1000 + 1 * p.val = t.val * 1000 + p.val; rw [e0]; omega
  | ⟨1, _⟩ => show win0_1.index t (1 : Fin 2) * 128 + 1 * k.val = k.val; rw [e1]; omega

/-- Row `p`, column `k` of the destination's block at point `t` is the array's entry at row `1000 t + p`. -/
theorem blk0_2_at (c : Dev nD) (t : Fin cfg0.N) (p : Fin 1000) (k : Fin 128) (hr : t.val * 1000 + p.val < 20000) :
    blk0_2 V c t (ix2 p k) = xdst0 V c (ix2 (⟨t.val * 1000 + p.val, hr⟩ : Fin 20000) k) := by
  obtain ⟨e0, e1⟩ := (idx_facts0 t).2.2.1
  show iblk0 V c 2 t (ix2 p k) = _
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1000 + 1 * p.val = t.val * 1000 + p.val; rw [e0]; omega
  | ⟨1, _⟩ => show win0_2.index t (1 : Fin 2) * 128 + 1 * k.val = k.val; rw [e1]; omega

/-- Window 3's one block, at any point, is its whole array. -/
theorem blk0_3_eq (c : Dev nD) (t : Fin cfg0.N) : blk0_3 V c t = wla0 V c := by
  obtain ⟨e0, e1⟩ := (idx_facts0 t).2.2.2.1
  funext j
  obtain ⟨k, q, rfl⟩ : ∃ (k : Fin 128) (q : Fin 256), j = ix2 k q := ⟨j 0, j 1, eq_ix2 j⟩
  show iblk0 V c 3 t (ix2 k q) = _
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- Window 4's one block, at any point, is its whole array. -/
theorem blk0_4_eq (c : Dev nD) (t : Fin cfg0.N) : blk0_4 V c t = wlb0 V c := by
  obtain ⟨e0, e1⟩ := (idx_facts0 t).2.2.2.2.1
  funext j
  obtain ⟨k, q, rfl⟩ : ∃ (k : Fin 128) (q : Fin 256), j = ix2 k q := ⟨j 0, j 1, eq_ix2 j⟩
  show iblk0 V c 4 t (ix2 k q) = _
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- Window 5's one block, at any point, is its whole array. -/
theorem blk0_5_eq (c : Dev nD) (t : Fin cfg0.N) : blk0_5 V c t = wra0 V c := by
  obtain ⟨e0, e1⟩ := (idx_facts0 t).2.2.2.2.2.1
  funext j
  obtain ⟨k, q, rfl⟩ : ∃ (k : Fin 128) (q : Fin 256), j = ix2 k q := ⟨j 0, j 1, eq_ix2 j⟩
  show iblk0 V c 5 t (ix2 k q) = _
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 128 + 1 * k.val = k.val; rw [e0]; omega
  | ⟨1, _⟩ => show win0_5.index t (1 : Fin 2) * 256 + 1 * q.val = q.val; rw [e1]; omega

/-- Window 6's one block, at any point, is its whole array. -/
theorem blk0_6_eq (c : Dev nD) (t : Fin cfg0.N) : blk0_6 V c t = wrb0 V c := by
  obtain ⟨e0, e1⟩ := (idx_facts0 t).2.2.2.2.2.2.1
  funext j
  obtain ⟨k, q, rfl⟩ : ∃ (k : Fin 128) (q : Fin 256), j = ix2 k q := ⟨j 0, j 1, eq_ix2 j⟩
  show iblk0 V c 6 t (ix2 k q) = _
  unfold iblk0
  rw [View.read_apply]
  show V c (Pipeline.arrRef spec0 6) _ = V c (Pipeline.arrRef spec0 6) _
  congr 1
  funext a
  apply Fin.ext
  match a with
  | ⟨0, _⟩ => show win0_6.index t (0 : Fin 2) * 128 + 1 * k.val = k.val; rw [e0]; omega
  | ⟨1, _⟩ => show win0_6.index t (1 : Fin 2) * 256 + 1 * q.val = q.val; rw [e1]; omega

/-- Window 7's one block, at any point, is its whole row. -/
theorem blk0_7_eq (c : Dev nD) (t : Fin cfg0.N) : blk0_7 V c t = bia0 V c := by
  obtain ⟨e0, e1⟩ := (idx_facts0 t).2.2.2.2.2.2.2.1
  funext j
  obtain ⟨u, q, rfl⟩ : ∃ (u : Fin 1) (q : Fin 256), j = ix2 u q := ⟨j 0, j 1, eq_ix2 j⟩
  show iblk0 V c 7 t (ix2 u q) = _
  unfold iblk0
  rw [View.read_apply]
  show V c (Pipeline.arrRef spec0 7) _ = V c (Pipeline.arrRef spec0 7) _
  congr 1
  funext a
  apply Fin.ext
  match a with
  | ⟨0, _⟩ => show win0_7.index t (0 : Fin 2) * 1 + 1 * u.val = u.val; rw [e0]; omega
  | ⟨1, _⟩ => show win0_7.index t (1 : Fin 2) * 256 + 1 * q.val = q.val; rw [e1]; omega

/-- Window 8's one block, at any point, is its whole row. -/
theorem blk0_8_eq (c : Dev nD) (t : Fin cfg0.N) : blk0_8 V c t = bib0 V c := by
  obtain ⟨e0, e1⟩ := (idx_facts0 t).2.2.2.2.2.2.2.2.1
  funext j
  obtain ⟨u, q, rfl⟩ : ∃ (u : Fin 1) (q : Fin 256), j = ix2 u q := ⟨j 0, j 1, eq_ix2 j⟩
  show iblk0 V c 8 t (ix2 u q) = _
  unfold iblk0
  rw [View.read_apply]
  show V c (Pipeline.arrRef spec0 8) _ = V c (Pipeline.arrRef spec0 8) _
  congr 1
  funext a
  apply Fin.ext
  match a with
  | ⟨0, _⟩ => show win0_8.index t (0 : Fin 2) * 1 + 1 * u.val = u.val; rw [e0]; omega
  | ⟨1, _⟩ => show win0_8.index t (1 : Fin 2) * 256 + 1 * q.val = q.val; rw [e1]; omega

end Cert.KernelIdeal.Hand

end
-- ==== Proof.Sage.Tiles.lean ====
/-
  Regrouping a tiled accumulation. A column sum over `T * B` rows taken tile by tile — `T` tiles of `B` rows,
  the partial sum starting at zero and each tile adding the sum of its own rows — is the sum over all the rows.
  Addition of extended reals is a commutative monoid, so nothing here needs the summands to be finite.
-/
import Idealize.ShloMosaic.PureOps.Ideal
import Mathlib.Algebra.BigOperators.Group.Finset.Basic
import Mathlib.Algebra.BigOperators.Fin
import Mathlib.Data.Fintype.BigOperators
import Mathlib.Logic.Equiv.Fin.Basic

noncomputable section

namespace Sage

open scoped BigOperators
open Finset

/-! ### Rows numbered by natural numbers -/

/-- The sum of tile `t`'s rows: rows `t * B, …, t * B + (B - 1)`. -/
def tileSum (B : ℕ) (f : ℕ → EReal) (t : ℕ) : EReal := ∑ r ∈ range B, f (t * B + r)

/-- The accumulator after `t` tiles, from zero. -/
def acc (B : ℕ) (f : ℕ → EReal) : ℕ → EReal
  | 0 => 0
  | t + 1 => acc B f t + tileSum B f t

@[simp] theorem acc_zero (B : ℕ) (f : ℕ → EReal) : acc B f 0 = 0 := rfl

theorem acc_succ (B : ℕ) (f : ℕ → EReal) (t : ℕ) : acc B f (t + 1) = acc B f t + tileSum B f t := rfl

/-- The tiles' sums, added up, are the sum over all rows. -/
theorem sum_tileSum (B : ℕ) (f : ℕ → EReal) (T : ℕ) :
    ∑ t ∈ range T, tileSum B f t = ∑ i ∈ range (T * B), f i := by
  induction T with
  | zero => simp
  | succ t ih => rw [sum_range_succ, ih, Nat.succ_mul, sum_range_add]; rfl

/-- After `T` tiles the accumulator holds the sum over all `T * B` rows. -/
theorem acc_eq_sum (B : ℕ) (f : ℕ → EReal) (T : ℕ) : acc B f T = ∑ i ∈ range (T * B), f i := by
  induction T with
  | zero => simp
  | succ t ih => rw [acc_succ, ih, Nat.succ_mul, sum_range_add]; rfl

/-- The accumulator is the sum of the tiles' sums so far. -/
theorem acc_eq_sum_tileSum (B : ℕ) (f : ℕ → EReal) (T : ℕ) : acc B f T = ∑ t ∈ range T, tileSum B f t := by
  rw [acc_eq_sum, sum_tileSum]

/-! ### The recurrence as a kernel writes it

The first grid point stores a zero `z` and adds its tile to it, `S 0 = z + s 0`; every later one adds its tile to what
the one before left, `S (t + 1) = S t + s (t + 1)`. -/

/-- A recurrence that starts `z + s 0` with `z = 0` and adds `s (t + 1)` at each step holds `∑ k ≤ t, s k`. -/
theorem rec_eq_sum (s S : ℕ → EReal) (z : EReal) (hz : z = 0) (h0 : S 0 = z + s 0)
    (hstep : ∀ t, S (t + 1) = S t + s (t + 1)) (t : ℕ) : S t = ∑ k ∈ range (t + 1), s k := by
  induction t with
  | zero => rw [h0, hz, zero_add, sum_range_one]
  | succ t ih => rw [hstep, ih, sum_range_succ _ (t + 1)]

/-- The same recurrence over tile sums: after the tile numbered `t` it holds the sum of the first `(t + 1) * B` rows. -/
theorem rec_tiles_eq_sum (B : ℕ) (f : ℕ → EReal) (S : ℕ → EReal) (z : EReal) (hz : z = 0)
    (h0 : S 0 = z + tileSum B f 0) (hstep : ∀ t, S (t + 1) = S t + tileSum B f (t + 1)) (t : ℕ) :
    S t = ∑ i ∈ range ((t + 1) * B), f i := by
  rw [rec_eq_sum (tileSum B f) S z hz h0 hstep t, sum_tileSum]

/-! ### Rows numbered by `Fin (T * B)` -/

/-- Row `r` of tile `t` is one of the `T * B` rows. -/
theorem tile_lt {T B t r : ℕ} (ht : t < T) (hr : r < B) : t * B + r < T * B :=
  calc t * B + r < t * B + B := Nat.add_lt_add_left hr _
    _ = (t + 1) * B := (Nat.succ_mul t B).symm
    _ ≤ T * B := Nat.mul_le_mul_right B ht

/-- The sum over all `T * B` rows, tile by tile. -/
theorem sum_fin_tiles (T B : ℕ) (f : Fin (T * B) → EReal) :
    ∑ i, f i = ∑ t : Fin T, ∑ r : Fin B, f ⟨t * B + r, tile_lt t.2 r.2⟩ := by
  rw [← (finProdFinEquiv (m := T) (n := B)).sum_comp f, Fintype.sum_prod_type]
  refine Finset.sum_congr rfl fun t _ => Finset.sum_congr rfl fun r _ => ?_
  congr 1
  ext
  simp only [finProdFinEquiv_apply_val]
  rw [Nat.add_comm, Nat.mul_comm]

/-- The accumulator over `Fin`-numbered tiles and rows, from zero. -/
def accFin {T B : ℕ} (g : Fin T → Fin B → EReal) : (t : ℕ) → t ≤ T → EReal
  | 0, _ => 0
  | t + 1, h => accFin g t (Nat.le_of_succ_le h) + ∑ r : Fin B, g ⟨t, h⟩ r

/-- After `t` tiles the accumulator holds the sum of the first `t` tiles' rows. -/
theorem accFin_eq_sum {T B : ℕ} (g : Fin T → Fin B → EReal) (t : ℕ) (h : t ≤ T) :
    accFin g t h = ∑ k : Fin t, ∑ r : Fin B, g (Fin.castLE h k) r := by
  induction t with
  | zero => simp [accFin]
  | succ t ih =>
    rw [accFin, ih, Fin.sum_univ_castSucc]
    rfl

/-- After all `T` tiles the accumulator holds the sum over every tile and row. -/
theorem accFin_full {T B : ℕ} (g : Fin T → Fin B → EReal) :
    accFin g T le_rfl = ∑ t : Fin T, ∑ r : Fin B, g t r := by
  rw [accFin_eq_sum]; rfl

end Sage

end
-- ==== Proof.KI.Val0.lean ====
import proofs.«126569_j1468878815453_1_alg».proof.Proof.KI.Reg0
import proofs.«126569_j1468878815453_1_alg».proof.Proof.KI.Val0Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 0 (the layer-1 combine of a 20000-row node type in 20 row blocks), the value

What each control case's stores leave, as the body's payloads of the input blocks and of what the accumulators held;
the accumulators after a point as running column sums; at the ideal instance, the three output arrays after the
region as functions of the nine input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

theorem hzP0 : (![0, 0] : Fin 2 → Nat) = fun _ => 0 := funext fun a => by fin_cases a <;> rfl

theorem out0_A_9_eq (c : Dev nD) (t : Fin cfg0.N) (hc0 : cond0_0 (grid0.coords t)) (hc1 : ¬cond0_1 (grid0.coords t)) (x0 x1 x2 : Vec F S1000x128 .f32) (x3 x4 x5 x6 : Vec F S128x256 .f32) (x7 x8 : Vec F S1x256 .f32)  :
    out0_A_9 c t hc0 hc1 x0 x1 x2 x3 x4 x5 x6 x7 x8  = (k0_pay7 x0 x3 x7 x2 x5 x1 x4 x8 x2 x6) := by
  unfold out0_A_9
  rw [View.read_writes_eq_canon _ _ _ (cover0_A_9 c t hc0 hc1 x0 x1 x2 x3 x4 x5 x6 x7 x8 )]
  unfold runAt0_A kernelRun0_A
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]

theorem sout0_A_0_eq (c : Dev nD) (t : Fin cfg0.N) (hc0 : cond0_0 (grid0.coords t)) (hc1 : ¬cond0_1 (grid0.coords t)) (x0 x1 x2 : Vec F S1000x128 .f32) (x3 x4 x5 x6 : Vec F S128x256 .f32) (x7 x8 : Vec F S1x256 .f32)  :
    sout0_A_0 c t hc0 hc1 x0 x1 x2 x3 x4 x5 x6 x7 x8  = k0_pay1 (k0_pay7 x0 x3 x7 x2 x5 x1 x4 x8 x2 x6) (k0_pay5 (F := F)) := by
  unfold sout0_A_0
  rw [View.read_writes_eq_canon _ _ _ (scover0_A_0 c t hc0 hc1 x0 x1 x2 x3 x4 x5 x6 x7 x8 )]
  unfold runAt0_A kernelRun0_A
  dsimp only
  try sl_unfold_words
  rw [View.canon_cons_unit_zero (S := S1x256) hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]

theorem sout0_A_1_eq (c : Dev nD) (t : Fin cfg0.N) (hc0 : cond0_0 (grid0.coords t)) (hc1 : ¬cond0_1 (grid0.coords t)) (x0 x1 x2 : Vec F S1000x128 .f32) (x3 x4 x5 x6 : Vec F S128x256 .f32) (x7 x8 : Vec F S1x256 .f32)  :
    sout0_A_1 c t hc0 hc1 x0 x1 x2 x3 x4 x5 x6 x7 x8  = k0_pay2 (k0_pay7 x0 x3 x7 x2 x5 x1 x4 x8 x2 x6) (k0_pay6 (F := F)) := by
  unfold sout0_A_1
  rw [View.read_writes_eq_canon _ _ _ (scover0_A_1 c t hc0 hc1 x0 x1 x2 x3 x4 x5 x6 x7 x8 )]
  unfold runAt0_A kernelRun0_A
  dsimp only
  try sl_unfold_words
  rw [View.canon_cons_unit_zero (S := S1x256) hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]

theorem out0_B_9_eq (c : Dev nD) (t : Fin cfg0.N) (hc0 : ¬cond0_0 (grid0.coords t)) (hc1 : ¬cond0_1 (grid0.coords t)) (x0 x1 x2 : Vec F S1000x128 .f32) (x3 x4 x5 x6 : Vec F S128x256 .f32) (x7 x8 : Vec F S1x256 .f32) (xs0 xs1 : Vec F S1x256 .f32) :
    out0_B_9 c t hc0 hc1 x0 x1 x2 x3 x4 x5 x6 x7 x8 xs0 xs1 = (k0_pay7 x0 x3 x7 x2 x5 x1 x4 x8 x2 x6) := by
  unfold out0_B_9
  rw [View.read_writes_eq_canon _ _ _ (cover0_B_9 c t hc0 hc1 x0 x1 x2 x3 x4 x5 x6 x7 x8 xs0 xs1)]
  unfold runAt0_B kernelRun0_B
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]

theorem sout0_B_0_eq (c : Dev nD) (t : Fin cfg0.N) (hc0 : ¬cond0_0 (grid0.coords t)) (hc1 : ¬cond0_1 (grid0.coords t)) (x0 x1 x2 : Vec F S1000x128 .f32) (x3 x4 x5 x6 : Vec F S128x256 .f32) (x7 x8 : Vec F S1x256 .f32) (xs0 xs1 : Vec F S1x256 .f32) :
    sout0_B_0 c t hc0 hc1 x0 x1 x2 x3 x4 x5 x6 x7 x8 xs0 xs1 = k0_pay1 (k0_pay7 x0 x3 x7 x2 x5 x1 x4 x8 x2 x6) xs0 := by
  unfold sout0_B_0
  rw [View.read_writes_eq_canon _ _ _ (scover0_B_0 c t hc0 hc1 x0 x1 x2 x3 x4 x5 x6 x7 x8 xs0 xs1)]
  unfold runAt0_B kernelRun0_B
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]
  simp only [show View.read (Elt F) (View.whole cc0_scratch0) ((Memref.isWhole_whole cc0_scratch0).unread xs0) = xs0 from (Memref.isWhole_whole cc0_scratch0).read_unread xs0]

theorem sout0_B_1_eq (c : Dev nD) (t : Fin cfg0.N) (hc0 : ¬cond0_0 (grid0.coords t)) (hc1 : ¬cond0_1 (grid0.coords t)) (x0 x1 x2 : Vec F S1000x128 .f32) (x3 x4 x5 x6 : Vec F S128x256 .f32) (x7 x8 : Vec F S1x256 .f32) (xs0 xs1 : Vec F S1x256 .f32) :
    sout0_B_1 c t hc0 hc1 x0 x1 x2 x3 x4 x5 x6 x7 x8 xs0 xs1 = k0_pay2 (k0_pay7 x0 x3 x7 x2 x5 x1 x4 x8 x2 x6) xs1 := by
  unfold sout0_B_1
  rw [View.read_writes_eq_canon _ _ _ (scover0_B_1 c t hc0 hc1 x0 x1 x2 x3 x4 x5 x6 x7 x8 xs0 xs1)]
  unfold runAt0_B kernelRun0_B
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]
  simp only [show View.read (Elt F) (View.whole cc0_scratch1) ((Memref.isWhole_whole cc0_scratch1).unread xs1) = xs1 from (Memref.isWhole_whole cc0_scratch1).read_unread xs1]

theorem out0_C_9_eq (c : Dev nD) (t : Fin cfg0.N) (hc0 : ¬cond0_0 (grid0.coords t)) (hc1 : cond0_1 (grid0.coords t)) (x0 x1 x2 : Vec F S1000x128 .f32) (x3 x4 x5 x6 : Vec F S128x256 .f32) (x7 x8 : Vec F S1x256 .f32) (xs0 xs1 : Vec F S1x256 .f32) :
    out0_C_9 c t hc0 hc1 x0 x1 x2 x3 x4 x5 x6 x7 x8 xs0 xs1 = (k0_pay7 x0 x3 x7 x2 x5 x1 x4 x8 x2 x6) := by
  unfold out0_C_9
  rw [View.read_writes_eq_canon _ _ _ (cover0_C_9 c t hc0 hc1 x0 x1 x2 x3 x4 x5 x6 x7 x8 xs0 xs1)]
  unfold runAt0_C kernelRun0_C
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]

theorem out0_C_10_eq (c : Dev nD) (t : Fin cfg0.N) (hc0 : ¬cond0_0 (grid0.coords t)) (hc1 : cond0_1 (grid0.coords t)) (x0 x1 x2 : Vec F S1000x128 .f32) (x3 x4 x5 x6 : Vec F S128x256 .f32) (x7 x8 : Vec F S1x256 .f32) (xs0 xs1 : Vec F S1x256 .f32) :
    out0_C_10 c t hc0 hc1 x0 x1 x2 x3 x4 x5 x6 x7 x8 xs0 xs1 = k0_pay3 (k0_pay1 (k0_pay7 x0 x3 x7 x2 x5 x1 x4 x8 x2 x6) xs0) := by
  unfold out0_C_10
  rw [View.read_writes_eq_canon _ _ _ (cover0_C_10 c t hc0 hc1 x0 x1 x2 x3 x4 x5 x6 x7 x8 xs0 xs1)]
  unfold runAt0_C kernelRun0_C
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]
  simp only [show View.read (Elt F) (View.whole cc0_scratch0) ((Memref.isWhole_whole cc0_scratch0).unread xs0) = xs0 from (Memref.isWhole_whole cc0_scratch0).read_unread xs0]

theorem out0_C_11_eq (c : Dev nD) (t : Fin cfg0.N) (hc0 : ¬cond0_0 (grid0.coords t)) (hc1 : cond0_1 (grid0.coords t)) (x0 x1 x2 : Vec F S1000x128 .f32) (x3 x4 x5 x6 : Vec F S128x256 .f32) (x7 x8 : Vec F S1x256 .f32) (xs0 xs1 : Vec F S1x256 .f32) :
    out0_C_11 c t hc0 hc1 x0 x1 x2 x3 x4 x5 x6 x7 x8 xs0 xs1 = k0_pay4 (k0_pay1 (k0_pay7 x0 x3 x7 x2 x5 x1 x4 x8 x2 x6) xs0) (k0_pay2 (k0_pay7 x0 x3 x7 x2 x5 x1 x4 x8 x2 x6) xs1) := by
  unfold out0_C_11
  rw [View.read_writes_eq_canon _ _ _ (cover0_C_11 c t hc0 hc1 x0 x1 x2 x3 x4 x5 x6 x7 x8 xs0 xs1)]
  unfold runAt0_C kernelRun0_C
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]
  simp only [show View.read (Elt F) (View.whole cc0_scratch0) ((Memref.isWhole_whole cc0_scratch0).unread xs0) = xs0 from (Memref.isWhole_whole cc0_scratch0).read_unread xs0]
  simp only [show View.read (Elt F) (View.whole cc0_scratch1) ((Memref.isWhole_whole cc0_scratch1).unread xs1) = xs1 from (Memref.isWhole_whole cc0_scratch1).read_unread xs1]

theorem sout0_C_0_eq (c : Dev nD) (t : Fin cfg0.N) (hc0 : ¬cond0_0 (grid0.coords t)) (hc1 : cond0_1 (grid0.coords t)) (x0 x1 x2 : Vec F S1000x128 .f32) (x3 x4 x5 x6 : Vec F S128x256 .f32) (x7 x8 : Vec F S1x256 .f32) (xs0 xs1 : Vec F S1x256 .f32) :
    sout0_C_0 c t hc0 hc1 x0 x1 x2 x3 x4 x5 x6 x7 x8 xs0 xs1 = k0_pay1 (k0_pay7 x0 x3 x7 x2 x5 x1 x4 x8 x2 x6) xs0 := by
  unfold sout0_C_0
  rw [View.read_writes_eq_canon _ _ _ (scover0_C_0 c t hc0 hc1 x0 x1 x2 x3 x4 x5 x6 x7 x8 xs0 xs1)]
  unfold runAt0_C kernelRun0_C
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]
  simp only [show View.read (Elt F) (View.whole cc0_scratch0) ((Memref.isWhole_whole cc0_scratch0).unread xs0) = xs0 from (Memref.isWhole_whole cc0_scratch0).read_unread xs0]

theorem sout0_C_1_eq (c : Dev nD) (t : Fin cfg0.N) (hc0 : ¬cond0_0 (grid0.coords t)) (hc1 : cond0_1 (grid0.coords t)) (x0 x1 x2 : Vec F S1000x128 .f32) (x3 x4 x5 x6 : Vec F S128x256 .f32) (x7 x8 : Vec F S1x256 .f32) (xs0 xs1 : Vec F S1x256 .f32) :
    sout0_C_1 c t hc0 hc1 x0 x1 x2 x3 x4 x5 x6 x7 x8 xs0 xs1 = k0_pay2 (k0_pay7 x0 x3 x7 x2 x5 x1 x4 x8 x2 x6) xs1 := by
  unfold sout0_C_1
  rw [View.read_writes_eq_canon _ _ _ (scover0_C_1 c t hc0 hc1 x0 x1 x2 x3 x4 x5 x6 x7 x8 xs0 xs1)]
  unfold runAt0_C kernelRun0_C
  dsimp only
  try sl_unfold_words
  rw [View.canon_unit_zero hzP0]
  simp only [View.readAt_eq_ld, Memref.IsWhole.read_unread, View.ld_unit_zero (S := S1000x128) hzP0, View.ld_unit_zero (S := S128x256) hzP0, View.ld_unit_zero (S := S1x256) hzP0, View.readCov_unit_zero (S := S1x256) _ hzP0]
  simp only [show View.read (Elt F) (View.whole cc0_scratch1) ((Memref.isWhole_whole cc0_scratch1).unread xs1) = xs1 from (Memref.isWhole_whole cc0_scratch1).read_unread xs1]

end Pieces

/-! ## The result, index by index -/

-- the TensorCore's buffer contents when the region is entered
variable (V : (c : Dev nD) → (b : Ref sig .tc) → Buf (Elt Ideal) ((c : Thread nD τ).loc b))

/-- Every entry of the combined layer: the two relations' contributions to a destination row and an output column, added. -/
noncomputable def hArr0 (a0 a1 x : S20000x128.Idx → EReal) (wl0 wl1 wr0 wr1 : S128x256.Idx → EReal) (b0 b1 : S1x256.Idx → EReal) :
    S20000x256.Idx → EReal :=
  fun i => Sage.rel (fun k : Fin 128 => a0 (ix2 (i 0) k)) (fun k : Fin 128 => x (ix2 (i 0) k)) (fun k : Fin 128 => wl0 (ix2 k (i 1))) (fun k : Fin 128 => wr0 (ix2 k (i 1))) (b0 (ix2 (0 : Fin 1) (i 1)))
    + Sage.rel (fun k : Fin 128 => a1 (ix2 (i 0) k)) (fun k : Fin 128 => x (ix2 (i 0) k)) (fun k : Fin 128 => wl1 (ix2 k (i 1))) (fun k : Fin 128 => wr1 (ix2 k (i 1))) (b1 (ix2 (0 : Fin 1) (i 1)))

/-- The combined layer of the arrays as the region finds them. -/
noncomputable abbrev hOut0 (c : Dev nD) : S20000x256.Idx → EReal :=
  hArr0 (agga0 V c) (aggb0 V c) (xdst0 V c) (wla0 V c) (wlb0 V c) (wra0 V c) (wrb0 V c) (bia0 V c) (bib0 V c)

/-- The block the body computes at point `t`, from the input windows' blocks there. -/
noncomputable abbrev hblk0 (c : Dev nD) (t : Fin cfg0.N) : S1000x256.Idx → EReal :=
  k0_pay7 (F := Ideal) (blk0_0 V c t) (blk0_3 V c t) (blk0_7 V c t) (blk0_2 V c t) (blk0_5 V c t) (blk0_1 V c t) (blk0_4 V c t) (blk0_8 V c t) (blk0_2 V c t) (blk0_6 V c t)

/-- Row `p`, column `q` of that block is the combined layer's entry at row `1000 t + p`. -/
theorem hblk0_at (c : Dev nD) (t : Fin cfg0.N) (p : Fin 1000) (q : Fin 256) (hr : t.val * 1000 + p.val < 20000) :
    hblk0 V c t (ix2 p q) = hOut0 V c (ix2 (⟨t.val * 1000 + p.val, hr⟩ : Fin 20000) q) := by
  refine (pay0_7_at (blk0_0 V c t) (blk0_1 V c t) (blk0_2 V c t) (blk0_3 V c t) (blk0_4 V c t) (blk0_5 V c t) (blk0_6 V c t) (blk0_7 V c t) (blk0_8 V c t) p q).trans ?_
  simp only [blk0_0_at V c t p _ hr, blk0_1_at V c t p _ hr, blk0_2_at V c t p _ hr, blk0_3_eq V c t, blk0_4_eq V c t, blk0_5_eq V c t, blk0_6_eq V c t, blk0_7_eq V c t, blk0_8_eq V c t]
  rfl

/-! ## What the outputs and the accumulators hold after a point -/

theorem N0_lt (t : Fin cfg0.N) : t.val < 20 := lt_of_lt_of_eq t.isLt (show cfg0.N = 20 from N_0)

/-- After the first point: the block, and the accumulators at zero plus the block's column sums. -/
theorem outs0_first (c : Dev nD) (t : Fin cfg0.N) (h0 : t.val = 0) :
    (outsAt0 V c t.val t.isLt).1 = hblk0 V c t
    ∧ (outsAt0 V c t.val t.isLt).2.2.2.1 = k0_pay1 (F := Ideal) (hblk0 V c t) (k0_pay5 (F := Ideal))
    ∧ (outsAt0 V c t.val t.isLt).2.2.2.2 = k0_pay2 (F := Ideal) (hblk0 V c t) (k0_pay6 (F := Ideal)) := by
  have hN := N0_lt t
  have hc0 : cond0_0 (grid0.coords t) := (hcond0_0 t).mpr (by rw [h0])
  have hc1 : ¬cond0_1 (grid0.coords t) := fun h => by have h' := (hcond0_1 t).mp h; omega
  rw [outsAt0_A V c t h0 hc0 hc1]
  dsimp only
  exact ⟨out0_A_9_eq (F := Ideal) c t hc0 hc1 (blk0_0 V c t) (blk0_1 V c t) (blk0_2 V c t) (blk0_3 V c t) (blk0_4 V c t) (blk0_5 V c t) (blk0_6 V c t) (blk0_7 V c t) (blk0_8 V c t),
    sout0_A_0_eq (F := Ideal) c t hc0 hc1 (blk0_0 V c t) (blk0_1 V c t) (blk0_2 V c t) (blk0_3 V c t) (blk0_4 V c t) (blk0_5 V c t) (blk0_6 V c t) (blk0_7 V c t) (blk0_8 V c t),
    sout0_A_1_eq (F := Ideal) c t hc0 hc1 (blk0_0 V c t) (blk0_1 V c t) (blk0_2 V c t) (blk0_3 V c t) (blk0_4 V c t) (blk0_5 V c t) (blk0_6 V c t) (blk0_7 V c t) (blk0_8 V c t)⟩

/-- After a middle point: the block, and each accumulator at what the point before left plus the block's column sums. -/
theorem outs0_mid (c : Dev nD) (t : Fin cfg0.N) (h0 : t.val ≠ 0) (h1 : ¬t.val % 20 = 19) :
    (outsAt0 V c t.val t.isLt).1 = hblk0 V c t
    ∧ (outsAt0 V c t.val t.isLt).2.2.2.1 = k0_pay1 (F := Ideal) (hblk0 V c t) (outsAt0 V c (t.val - 1) (Nat.lt_of_le_of_lt (Nat.sub_le _ _) t.isLt)).2.2.2.1
    ∧ (outsAt0 V c t.val t.isLt).2.2.2.2 = k0_pay2 (F := Ideal) (hblk0 V c t) (outsAt0 V c (t.val - 1) (Nat.lt_of_le_of_lt (Nat.sub_le _ _) t.isLt)).2.2.2.2 := by
  have hc0 : ¬cond0_0 (grid0.coords t) := later0_c0 t h0
  have hc1 : ¬cond0_1 (grid0.coords t) := fun h => h1 ((hcond0_1 t).mp h)
  rw [outsAt0_B V c t h0 h1 hc0 hc1]
  dsimp only
  exact ⟨out0_B_9_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_B_0_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_B_1_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2⟩

/-- After the last point: the block, the accumulators as at a middle point, and the two statistics rows from them. -/
theorem outs0_last (c : Dev nD) (t : Fin cfg0.N) (h0 : t.val ≠ 0) (h1 : t.val % 20 = 19) :
    (outsAt0 V c t.val t.isLt).1 = hblk0 V c t
    ∧ (outsAt0 V c t.val t.isLt).2.1 = k0_pay3 (F := Ideal) (outsAt0 V c t.val t.isLt).2.2.2.1
    ∧ (outsAt0 V c t.val t.isLt).2.2.1 = k0_pay4 (F := Ideal) (outsAt0 V c t.val t.isLt).2.2.2.1 (outsAt0 V c t.val t.isLt).2.2.2.2
    ∧ (outsAt0 V c t.val t.isLt).2.2.2.1 = k0_pay1 (F := Ideal) (hblk0 V c t) (outsAt0 V c (t.val - 1) (Nat.lt_of_le_of_lt (Nat.sub_le _ _) t.isLt)).2.2.2.1
    ∧ (outsAt0 V c t.val t.isLt).2.2.2.2 = k0_pay2 (F := Ideal) (hblk0 V c t) (outsAt0 V c (t.val - 1) (Nat.lt_of_le_of_lt (Nat.sub_le _ _) t.isLt)).2.2.2.2 := by
  have hc0 : ¬cond0_0 (grid0.coords t) := later0_c0 t h0
  have hc1 : cond0_1 (grid0.coords t) := (hcond0_1 t).mpr h1
  rw [outsAt0_C V c t h0 h1 hc0 hc1]
  dsimp only
  rw [sout0_C_0_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout0_C_1_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
  exact ⟨out0_C_9_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    out0_C_10_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    out0_C_11_eq (F := Ideal) c t hc0 hc1 (blk0_0 V c t) (blk0_1 V c t) (blk0_2 V c t) (blk0_3 V c t) (blk0_4 V c t) (blk0_5 V c t) (blk0_6 V c t) (blk0_7 V c t) (blk0_8 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, rfl, rfl⟩

/-- The block output's staging buffer after any point holds the block computed there. -/
theorem outs0_blk (c : Dev nD) (t : Fin cfg0.N) : (outsAt0 V c t.val t.isLt).1 = hblk0 V c t := by
  by_cases h0 : t.val = 0
  · exact (outs0_first V c t h0).1
  · by_cases h1 : t.val % 20 = 19
    · exact (outs0_last V c t h0 h1).1
    · exact (outs0_mid V c t h0 h1).1

/-! ## The accumulators are the running column sums -/

/-- Column `q` of the combined layer, its rows numbered by natural numbers (zero past the last row), -/
noncomputable def colN0 (c : Dev nD) (q : Fin 256) : ℕ → EReal :=
  fun i => if h : i < 20000 then hOut0 V c (ix2 (⟨i, h⟩ : Fin 20000) q) else 0
/-- and the column of its squares. -/
noncomputable def colSq0 (c : Dev nD) (q : Fin 256) : ℕ → EReal :=
  fun i => if h : i < 20000 then hOut0 V c (ix2 (⟨i, h⟩ : Fin 20000) q) * hOut0 V c (ix2 (⟨i, h⟩ : Fin 20000) q) else 0

/-- The column sum of the block at point `t` is tile `t`'s sum. -/
theorem tile0 (c : Dev nD) (t : Fin cfg0.N) (q : Fin 256) :
    ∑ r : Fin 1000, hblk0 V c t (ix2 r q) = Sage.tileSum 1000 (colN0 V c q) t.val := by
  have hN := N0_lt t
  unfold Sage.tileSum
  rw [Finset.sum_range]
  refine Finset.sum_congr rfl fun r _ => ?_
  have hr : t.val * 1000 + r.val < 20000 := by have := r.isLt; omega
  rw [hblk0_at V c t r q hr]
  unfold colN0
  rw [dif_pos hr]
theorem tileSq0 (c : Dev nD) (t : Fin cfg0.N) (q : Fin 256) :
    ∑ r : Fin 1000, hblk0 V c t (ix2 r q) * hblk0 V c t (ix2 r q) = Sage.tileSum 1000 (colSq0 V c q) t.val := by
  have hN := N0_lt t
  unfold Sage.tileSum
  rw [Finset.sum_range]
  refine Finset.sum_congr rfl fun r _ => ?_
  have hr : t.val * 1000 + r.val < 20000 := by have := r.isLt; omega
  rw [hblk0_at V c t r q hr]
  unfold colSq0
  rw [dif_pos hr]

/-- After point `n` the two accumulators hold, at column `q`, the sums over the first `n + 1` tiles of the column and
    of its squares. -/
theorem accs0_eq (c : Dev nD) (q : Fin 256) : ∀ (n : ℕ) (hn : n < cfg0.N),
    (outsAt0 V c n hn).2.2.2.1 (ix2 (0 : Fin 1) q) = Sage.acc 1000 (colN0 V c q) (n + 1)
    ∧ (outsAt0 V c n hn).2.2.2.2 (ix2 (0 : Fin 1) q) = Sage.acc 1000 (colSq0 V c q) (n + 1)
  | 0, hn => by
    obtain ⟨-, e1, e2⟩ := outs0_first V c ⟨0, hn⟩ rfl
    have e1' : (outsAt0 V c 0 hn).2.2.2.1 = _ := e1
    have e2' : (outsAt0 V c 0 hn).2.2.2.2 = _ := e2
    rw [e1', e2']
    constructor
    · refine (pay0_1_at _ _ q).trans ?_
      rw [pay0_5_at, Sage.acc_succ, Sage.acc_zero, tile0 V c ⟨0, hn⟩ q]
    · refine (pay0_2_at _ _ q).trans ?_
      rw [pay0_6_at, Sage.acc_succ, Sage.acc_zero, tileSq0 V c ⟨0, hn⟩ q]
  | n + 1, hn => by
    obtain ⟨ih1, ih2⟩ := accs0_eq c q n (Nat.lt_of_succ_lt hn)
    have hs : (outsAt0 V c (n + 1) hn).2.2.2.1 = k0_pay1 (F := Ideal) (hblk0 V c ⟨n + 1, hn⟩) (outsAt0 V c n (Nat.lt_of_succ_lt hn)).2.2.2.1
        ∧ (outsAt0 V c (n + 1) hn).2.2.2.2 = k0_pay2 (F := Ideal) (hblk0 V c ⟨n + 1, hn⟩) (outsAt0 V c n (Nat.lt_of_succ_lt hn)).2.2.2.2 := by
      by_cases h1 : (n + 1) % 20 = 19
      · exact ⟨(outs0_last V c ⟨n + 1, hn⟩ (Nat.succ_ne_zero n) h1).2.2.2.1, (outs0_last V c ⟨n + 1, hn⟩ (Nat.succ_ne_zero n) h1).2.2.2.2⟩
      · exact ⟨(outs0_mid V c ⟨n + 1, hn⟩ (Nat.succ_ne_zero n) h1).2.1, (outs0_mid V c ⟨n + 1, hn⟩ (Nat.succ_ne_zero n) h1).2.2⟩
    rw [hs.1, hs.2]
    constructor
    · refine (pay0_1_at _ _ q).trans ?_
      rw [ih1, Sage.acc_succ _ _ (n + 1), tile0 V c ⟨n + 1, hn⟩ q]
    · refine (pay0_2_at _ _ q).trans ?_
      rw [ih2, Sage.acc_succ _ _ (n + 1), tileSq0 V c ⟨n + 1, hn⟩ q]

/-- All twenty tiles: the column's sum over all rows. -/
theorem acc_full0 (c : Dev nD) (q : Fin 256) :
    Sage.acc 1000 (colN0 V c q) 20 = ∑ r : Fin 20000, hOut0 V c (ix2 r q) := by
  rw [Sage.acc_eq_sum, show (20 * 1000 : ℕ) = 20000 from rfl, Finset.sum_range]
  refine Finset.sum_congr rfl fun r _ => ?_
  unfold colN0
  rw [dif_pos r.isLt]
theorem accSq_full0 (c : Dev nD) (q : Fin 256) :
    Sage.acc 1000 (colSq0 V c q) 20 = ∑ r : Fin 20000, hOut0 V c (ix2 r q) * hOut0 V c (ix2 r q) := by
  rw [Sage.acc_eq_sum, show (20 * 1000 : ℕ) = 20000 from rfl, Finset.sum_range]
  refine Finset.sum_congr rfl fun r _ => ?_
  unfold colSq0
  rw [dif_pos r.isLt]

/-! ## What a point writes back -/

/-- What point `t` writes back to the block output's array is block `t` of the combined layer. -/
theorem flushed0_9_eq (c : Dev nD) (t : Fin cfg0.N) :
    (dat0 (F := Ideal) V c).flushed 9 t = ((cfg0.win 9).blk t).view.read (Elt Ideal) (hOut0 V c) := by
  show (cfg0.win 9).cut (grid0.coords t) ((dat0 V c).after 9 t) = _
  rw [after0_9, outs0_blk V c t]
  have hN := N0_lt t
  obtain ⟨e0, e1⟩ := (idx_facts0 t).2.2.2.2.2.2.2.2.2.1
  funext j
  obtain ⟨p, q, rfl⟩ : ∃ (p : Fin 1000) (q : Fin 256), j = ix2 p q := ⟨j 0, j 1, eq_ix2 j⟩
  show hblk0 V c t (ix2 p q) = hOut0 V c (((cfg0.win 9).blk t).view.emb (ix2 p q))
  have hr : t.val * 1000 + p.val < 20000 := by have := p.isLt; omega
  rw [hblk0_at V c t p q hr]
  refine congrArg (hOut0 V c) (Shape.idx_ext₂ ?_ ?_)
  · show t.val * 1000 + p.val = win0_9.index t (0 : Fin 2) * 1000 + 1 * p.val; rw [e0]; omega
  · show q.val = win0_9.index t (1 : Fin 2) * 256 + 1 * q.val; rw [e1]; omega

/-- The mean row: each column's mean over the 20000 rows of the combined layer, -/
noncomputable def meanRow0 (h : S20000x256.Idx → EReal) : S1x256.Idx → EReal :=
  fun i => Sage.colMean (((20000 : ℝ) : EReal)) (fun r : Fin 20000 => h (ix2 r (i 1)))
/-- and the variance row: each column's mean of squares less its squared mean. -/
noncomputable def varRow0 (h : S20000x256.Idx → EReal) : S1x256.Idx → EReal :=
  fun i => Sage.colVarSq (((20000 : ℝ) : EReal)) (fun r : Fin 20000 => h (ix2 r (i 1)))

/-- A point that writes a statistics row back is the last one. -/
theorem last_of_flush0 (t : Fin cfg0.N) (h : t.val % 20 = 19) : t.val = 19 := by have := N0_lt t; omega

/-- What the last point writes back to the mean output's array is the mean row. -/
theorem flushed0_10_eq (c : Dev nD) (t : Fin cfg0.N) (hf : (cfg0.win 10).flush t = true) :
    (dat0 (F := Ideal) V c).flushed 10 t = ((cfg0.win 10).blk t).view.read (Elt Ideal) (meanRow0 (hOut0 V c)) := by
  have h1 : t.val % 20 = 19 := (flush0_10 t).mp hf
  have h19 : t.val = 19 := last_of_flush0 t h1
  show (cfg0.win 10).cut (grid0.coords t) ((dat0 V c).after 10 t) = _
  rw [after0_10, (outs0_last V c t (by omega) h1).2.1]
  obtain ⟨e0, e1⟩ := (idx_facts0 t).2.2.2.2.2.2.2.2.2.2.1
  funext j
  obtain ⟨u, q, rfl⟩ : ∃ (u : Fin 1) (q : Fin 256), j = ix2 u q := ⟨j 0, j 1, eq_ix2 j⟩
  obtain rfl : u = 0 := Subsingleton.elim _ _
  show k0_pay3 (F := Ideal) (outsAt0 V c t.val t.isLt).2.2.2.1 (ix2 (0 : Fin 1) q) = meanRow0 (hOut0 V c) (((cfg0.win 10).blk t).view.emb (ix2 (0 : Fin 1) q))
  have hq : ((((cfg0.win 10).blk t).view.emb (ix2 (0 : Fin 1) q) : S1x256.Idx) 1) = q :=
    Fin.ext (by show win0_10.index t (1 : Fin 2) * 256 + 1 * q.val = q.val; rw [e1]; omega)
  refine (pay0_3_at _ _).trans ?_
  unfold meanRow0 Sage.colMean
  rw [hq, (accs0_eq V c q t.val t.isLt).1, h19, acc_full0]
  simp only [rows0, Sage.ofBits_20000]

/-- What the last point writes back to the variance output's array is the variance row. -/
theorem flushed0_11_eq (c : Dev nD) (t : Fin cfg0.N) (hf : (cfg0.win 11).flush t = true) :
    (dat0 (F := Ideal) V c).flushed 11 t = ((cfg0.win 11).blk t).view.read (Elt Ideal) (varRow0 (hOut0 V c)) := by
  have h1 : t.val % 20 = 19 := (flush0_11 t).mp hf
  have h19 : t.val = 19 := last_of_flush0 t h1
  show (cfg0.win 11).cut (grid0.coords t) ((dat0 V c).after 11 t) = _
  rw [after0_11, (outs0_last V c t (by omega) h1).2.2.1]
  obtain ⟨e0, e1⟩ := (idx_facts0 t).2.2.2.2.2.2.2.2.2.2.2
  funext j
  obtain ⟨u, q, rfl⟩ : ∃ (u : Fin 1) (q : Fin 256), j = ix2 u q := ⟨j 0, j 1, eq_ix2 j⟩
  obtain rfl : u = 0 := Subsingleton.elim _ _
  show k0_pay4 (F := Ideal) (outsAt0 V c t.val t.isLt).2.2.2.1 (outsAt0 V c t.val t.isLt).2.2.2.2 (ix2 (0 : Fin 1) q) = varRow0 (hOut0 V c) (((cfg0.win 11).blk t).view.emb (ix2 (0 : Fin 1) q))
  have hq : ((((cfg0.win 11).blk t).view.emb (ix2 (0 : Fin 1) q) : S1x256.Idx) 1) = q :=
    Fin.ext (by show win0_11.index t (1 : Fin 2) * 256 + 1 * q.val = q.val; rw [e1]; omega)
  refine (pay0_4_at _ _ _).trans ?_
  unfold varRow0 Sage.colVarSq Sage.colMean
  rw [hq, (accs0_eq V c q t.val t.isLt).1, (accs0_eq V c q t.val t.isLt).2, h19, acc_full0, accSq_full0]
  simp only [rows0, Sage.ofBits_20000]

/-! ## From the blocks to the arrays -/

/-- An index of the block output's array is in point `t`'s block iff each coordinate is in the block's range on its axis. -/
theorem mem_blk0_9 (t : Fin cfg0.N) (i : S20000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole (Pipeline.arrRef spec0 9)).slice (win0_9.rect t)).set ↔ _
  rw [View.set_slice_whole, Rect.mem_set_unit]
  exact Iff.rfl
theorem mem_blk0_10 (t : Fin cfg0.N) (i : S1x256.Idx) :
    i ∈ ((cfg0.win 10).blk t).view.set ↔ ∀ a : Fin 2, win0_10.index t a * S1x256.size a ≤ (i a).val ∧ (i a).val < win0_10.index t a * S1x256.size a + S1x256.size a := by
  show i ∈ ((View.whole (Pipeline.arrRef spec0 10)).slice (win0_10.rect t)).set ↔ _
  rw [View.set_slice_whole, Rect.mem_set_unit]
  exact Iff.rfl
theorem mem_blk0_11 (t : Fin cfg0.N) (i : S1x256.Idx) :
    i ∈ ((cfg0.win 11).blk t).view.set ↔ ∀ a : Fin 2, win0_11.index t a * S1x256.size a ≤ (i a).val ∧ (i a).val < win0_11.index t a * S1x256.size a + S1x256.size a := by
  show i ∈ ((View.whole (Pipeline.arrRef spec0 11)).slice (win0_11.rect t)).set ↔ _
  rw [View.set_slice_whole, Rect.mem_set_unit]
  exact Iff.rfl

/-- Row `r` of the block output's array is in the block of point `r / 1000`, which writes it back. -/
theorem covered0_9 (i : S20000x256.Idx) : ∃ t : Fin cfg0.N, (cfg0.win 9).flush t = true ∧ i ∈ ((cfg0.win 9).blk t).view.set := by
  have hi0 : (i 0).val < 20000 := (i 0).isLt
  have hi1 : (i 1).val < 256 := (i 1).isLt
  have hN : cfg0.N = 20 := N_0
  let t : Fin cfg0.N := ⟨(i 0).val / 1000, by rw [hN]; omega⟩
  obtain ⟨e0, e1⟩ := (idx_facts0 t).2.2.2.2.2.2.2.2.2.1
  have ht : t.val = (i 0).val / 1000 := rfl
  refine ⟨t, flush0_9 t, ?_⟩
  rw [mem_blk0_9]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 256 ≤ (i 1).val ∧ (i 1).val < win0_9.index t (1 : Fin 2) * 256 + 256; omega

/-- The last point's block of a statistics output is its whole row. -/
theorem covered0_10 (i : S1x256.Idx) : ∃ t : Fin cfg0.N, (cfg0.win 10).flush t = true ∧ i ∈ ((cfg0.win 10).blk t).view.set := by
  have hi0 : (i 0).val < 1 := (i 0).isLt
  have hi1 : (i 1).val < 256 := (i 1).isLt
  have hN : cfg0.N = 20 := N_0
  let t : Fin cfg0.N := ⟨19, by rw [hN]; omega⟩
  obtain ⟨e0, e1⟩ := (idx_facts0 t).2.2.2.2.2.2.2.2.2.2.1
  refine ⟨t, (flush0_10 t).mpr rfl, ?_⟩
  rw [mem_blk0_10]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 256 ≤ (i 1).val ∧ (i 1).val < win0_10.index t (1 : Fin 2) * 256 + 256; omega
theorem covered0_11 (i : S1x256.Idx) : ∃ t : Fin cfg0.N, (cfg0.win 11).flush t = true ∧ i ∈ ((cfg0.win 11).blk t).view.set := by
  have hi0 : (i 0).val < 1 := (i 0).isLt
  have hi1 : (i 1).val < 256 := (i 1).isLt
  have hN : cfg0.N = 20 := N_0
  let t : Fin cfg0.N := ⟨19, by rw [hN]; omega⟩
  obtain ⟨e0, e1⟩ := (idx_facts0 t).2.2.2.2.2.2.2.2.2.2.2
  refine ⟨t, (flush0_11 t).mpr rfl, ?_⟩
  rw [mem_blk0_11]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 256 ≤ (i 1).val ∧ (i 1).val < win0_11.index t (1 : Fin 2) * 256 + 256; omega

/-- The block output's array after the region: the combined layer of the arrays as the region finds them. -/
theorem final0_9 (c : Dev nD) : (dat0 (F := Ideal) V c).arrAt 9 cfg0.N = hOut0 V c :=
  (dat0 (F := Ideal) V c).arrAt_eq_of_cover 9 _ (fun t _ => flushed0_9_eq V c t) covered0_9

/-- The mean output's array after the region: the combined layer's column means. -/
theorem final0_10 (c : Dev nD) : (dat0 (F := Ideal) V c).arrAt 10 cfg0.N = meanRow0 (hOut0 V c) :=
  (dat0 (F := Ideal) V c).arrAt_eq_of_cover 10 _ (fun t hf => flushed0_10_eq V c t hf) covered0_10

/-- The variance output's array after the region: the combined layer's column variances. -/
theorem final0_11 (c : Dev nD) : (dat0 (F := Ideal) V c).arrAt 11 cfg0.N = varRow0 (hOut0 V c) :=
  (dat0 (F := Ideal) V c).arrAt_eq_of_cover 11 _ (fun t hf => flushed0_11_eq V c t hf) covered0_11

/-- The same, entry by entry. -/
theorem final0_9_apply (c : Dev nD) (r : Fin 20000) (q : Fin 256) :
    ((dat0 (F := Ideal) V c).arrAt 9 cfg0.N : S20000x256.Idx → EReal) (ix2 r q)
      = Sage.rel (fun k : Fin 128 => agga0 V c (ix2 r k)) (fun k : Fin 128 => xdst0 V c (ix2 r k)) (fun k : Fin 128 => wla0 V c (ix2 k q)) (fun k : Fin 128 => wra0 V c (ix2 k q)) (bia0 V c (ix2 (0 : Fin 1) q))
        + Sage.rel (fun k : Fin 128 => aggb0 V c (ix2 r k)) (fun k : Fin 128 => xdst0 V c (ix2 r k)) (fun k : Fin 128 => wlb0 V c (ix2 k q)) (fun k : Fin 128 => wrb0 V c (ix2 k q)) (bib0 V c (ix2 (0 : Fin 1) q)) :=
  congrFun (final0_9 V c) (ix2 r q)
theorem final0_10_apply (c : Dev nD) (q : Fin 256) :
    ((dat0 (F := Ideal) V c).arrAt 10 cfg0.N : S1x256.Idx → EReal) (ix2 (0 : Fin 1) q)
      = Sage.colMean (((20000 : ℝ) : EReal)) (fun r : Fin 20000 => hOut0 V c (ix2 r q)) :=
  congrFun (final0_10 V c) (ix2 (0 : Fin 1) q)
theorem final0_11_apply (c : Dev nD) (q : Fin 256) :
    ((dat0 (F := Ideal) V c).arrAt 11 cfg0.N : S1x256.Idx → EReal) (ix2 (0 : Fin 1) q)
      = Sage.colVarSq (((20000 : ℝ) : EReal)) (fun r : Fin 20000 => hOut0 V c (ix2 r q)) :=
  congrFun (final0_11 V c) (ix2 (0 : Fin 1) q)

/-! ## The input arrays are kept -/

theorem kept0_0 (c : Dev nD) : (dat0 (F := Ideal) V c).arrAt 0 cfg0.N = V c (Pipeline.arrRef spec0 0) :=
  ((dat0 V c).arrAt_in 0 rfl _).trans (A_eq0 V c 0)
theorem kept0_1 (c : Dev nD) : (dat0 (F := Ideal) V c).arrAt 1 cfg0.N = V c (Pipeline.arrRef spec0 1) :=
  ((dat0 V c).arrAt_in 1 rfl _).trans (A_eq0 V c 1)
theorem kept0_2 (c : Dev nD) : (dat0 (F := Ideal) V c).arrAt 2 cfg0.N = V c (Pipeline.arrRef spec0 2) :=
  ((dat0 V c).arrAt_in 2 rfl _).trans (A_eq0 V c 2)
theorem kept0_3 (c : Dev nD) : (dat0 (F := Ideal) V c).arrAt 3 cfg0.N = V c (Pipeline.arrRef spec0 3) :=
  ((dat0 V c).arrAt_in 3 rfl _).trans (A_eq0 V c 3)
theorem kept0_4 (c : Dev nD) : (dat0 (F := Ideal) V c).arrAt 4 cfg0.N = V c (Pipeline.arrRef spec0 4) :=
  ((dat0 V c).arrAt_in 4 rfl _).trans (A_eq0 V c 4)
theorem kept0_5 (c : Dev nD) : (dat0 (F := Ideal) V c).arrAt 5 cfg0.N = V c (Pipeline.arrRef spec0 5) :=
  ((dat0 V c).arrAt_in 5 rfl _).trans (A_eq0 V c 5)
theorem kept0_6 (c : Dev nD) : (dat0 (F := Ideal) V c).arrAt 6 cfg0.N = V c (Pipeline.arrRef spec0 6) :=
  ((dat0 V c).arrAt_in 6 rfl _).trans (A_eq0 V c 6)
theorem kept0_7 (c : Dev nD) : (dat0 (F := Ideal) V c).arrAt 7 cfg0.N = V c (Pipeline.arrRef spec0 7) :=
  ((dat0 V c).arrAt_in 7 rfl _).trans (A_eq0 V c 7)
theorem kept0_8 (c : Dev nD) : (dat0 (F := Ideal) V c).arrAt 8 cfg0.N = V c (Pipeline.arrRef spec0 8) :=
  ((dat0 V c).arrAt_in 8 rfl _).trans (A_eq0 V c 8)

end Cert.KernelIdeal.Hand

end
-- ==== Proof.Ref.StageReal.lean ====
/-
  Every stage of the reference is real when the fourteen float arguments are, whatever the edges' indices: an
  aggregation divides real sums by counts that are at least one, a relation stage adds products of reals, and a batch
  normalisation divides by the row count and takes the reciprocal square root of a variance plus a positive constant.
  Stage by stage, each from the stages before it.
-/
import proofs.«126569_j1468878815453_1_alg».proof.Proof.Ref.StageDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- Every entry of each of the fourteen float arguments is real. -/
structure ArgsReal : Prop where
  x_drug : Sage.AllReal (inX_drug m c)
  x_protein : Sage.AllReal (inX_protein m c)
  x_side : Sage.AllReal (inX_side m c)
  x_path : Sage.AllReal (inX_path m c)
  w1l : Sage.AllReal (inW1l m c)
  w1r : Sage.AllReal (inW1r m c)
  b1 : Sage.AllReal (inB1 m c)
  w2l : Sage.AllReal (inW2l m c)
  w2r : Sage.AllReal (inW2r m c)
  b2 : Sage.AllReal (inB2 m c)
  g1 : Sage.AllReal (inG1 m c)
  beta1 : Sage.AllReal (inBeta1 m c)
  g2 : Sage.AllReal (inG2 m c)
  beta2 : Sage.AllReal (inBeta2 m c)

variable {m c} (h : ArgsReal m c)
include h

/-! ### Layer 1 -/

theorem rAgg1_0_allReal : Sage.AllReal (rAgg1_0 m c) :=
  refAgg1_0_allReal _ h.x_drug _ _

theorem rRel1_0_allReal : Sage.AllReal (rRel1_0 m c) :=
  refRel1_0_allReal _ _ _ _ _ (rAgg1_0_allReal h) h.x_side h.w1l h.w1r h.b1

theorem rAgg1_1_allReal : Sage.AllReal (rAgg1_1 m c) :=
  refAgg1_1_allReal _ h.x_drug _ _

theorem rRel1_1_allReal : Sage.AllReal (rRel1_1 m c) :=
  refRel1_1_allReal _ _ _ _ _ (rAgg1_1_allReal h) h.x_protein h.w1l h.w1r h.b1

theorem rAgg1_2_allReal : Sage.AllReal (rAgg1_2 m c) :=
  refAgg1_2_allReal _ h.x_protein _ _

theorem rRel1_2_allReal : Sage.AllReal (rRel1_2 m c) :=
  refRel1_2_allReal _ _ _ _ _ (rAgg1_2_allReal h) h.x_path h.w1l h.w1r h.b1

theorem rAgg1_3_allReal : Sage.AllReal (rAgg1_3 m c) :=
  refAgg1_3_allReal _ h.x_protein _ _

theorem rRel1_3_allReal : Sage.AllReal (rRel1_3 m c) :=
  refRel1_3_allReal _ _ _ _ _ (rAgg1_3_allReal h) h.x_side h.w1l h.w1r h.b1

theorem rAgg1_4_allReal : Sage.AllReal (rAgg1_4 m c) :=
  refAgg1_4_allReal _ h.x_side _ _

theorem rRel1_4_allReal : Sage.AllReal (rRel1_4 m c) :=
  refRel1_4_allReal _ _ _ _ _ (rAgg1_4_allReal h) h.x_drug h.w1l h.w1r h.b1

theorem rAgg1_5_allReal : Sage.AllReal (rAgg1_5 m c) :=
  refAgg1_5_allReal _ h.x_protein _ _

theorem rRel1_5_allReal : Sage.AllReal (rRel1_5 m c) :=
  refRel1_5_allReal _ _ _ _ _ (rAgg1_5_allReal h) h.x_drug h.w1l h.w1r h.b1

theorem rAgg1_6_allReal : Sage.AllReal (rAgg1_6 m c) :=
  refAgg1_6_allReal _ h.x_path _ _

theorem rRel1_6_allReal : Sage.AllReal (rRel1_6 m c) :=
  refRel1_6_allReal _ _ _ _ _ (rAgg1_6_allReal h) h.x_protein h.w1l h.w1r h.b1

theorem rH1_drug_allReal : Sage.AllReal (rH1_drug m c) :=
  Sage.allReal_addf (rRel1_4_allReal h) (rRel1_5_allReal h)

theorem rH1_protein_allReal : Sage.AllReal (rH1_protein m c) :=
  Sage.allReal_addf (rRel1_1_allReal h) (rRel1_6_allReal h)

theorem rH1_side_allReal : Sage.AllReal (rH1_side m c) :=
  Sage.allReal_addf (rRel1_0_allReal h) (rRel1_3_allReal h)

theorem rH1_path_allReal : Sage.AllReal (rH1_path m c) := rRel1_2_allReal h

theorem rOut1_drug_allReal : Sage.AllReal (rOut1_drug m c) :=
  refBn20000_allReal _ (rH1_drug_allReal h) _ _ h.g1 h.beta1

theorem rOut1_protein_allReal : Sage.AllReal (rOut1_protein m c) :=
  refBn50000_allReal _ (rH1_protein_allReal h) _ _ h.g1 h.beta1

theorem rOut1_side_allReal : Sage.AllReal (rOut1_side m c) :=
  refBn10000_allReal _ (rH1_side_allReal h) _ _ h.g1 h.beta1

theorem rOut1_path_allReal : Sage.AllReal (rOut1_path m c) :=
  refBn3000_allReal _ (rH1_path_allReal h) _ _ h.g1 h.beta1

/-! ### Layer 2 -/

theorem rAgg2_0_allReal : Sage.AllReal (rAgg2_0 m c) :=
  refAgg2_0_allReal _ (rOut1_drug_allReal h) _ _

theorem rRel2_0_allReal : Sage.AllReal (rRel2_0 m c) :=
  refRel2_0_allReal _ _ _ _ _ (rAgg2_0_allReal h) (rOut1_side_allReal h) h.w2l h.w2r h.b2

theorem rAgg2_1_allReal : Sage.AllReal (rAgg2_1 m c) :=
  refAgg2_1_allReal _ (rOut1_drug_allReal h) _ _

theorem rRel2_1_allReal : Sage.AllReal (rRel2_1 m c) :=
  refRel2_1_allReal _ _ _ _ _ (rAgg2_1_allReal h) (rOut1_protein_allReal h) h.w2l h.w2r h.b2

theorem rAgg2_2_allReal : Sage.AllReal (rAgg2_2 m c) :=
  refAgg2_2_allReal _ (rOut1_protein_allReal h) _ _

theorem rRel2_2_allReal : Sage.AllReal (rRel2_2 m c) :=
  refRel2_2_allReal _ _ _ _ _ (rAgg2_2_allReal h) (rOut1_path_allReal h) h.w2l h.w2r h.b2

theorem rAgg2_3_allReal : Sage.AllReal (rAgg2_3 m c) :=
  refAgg2_3_allReal _ (rOut1_protein_allReal h) _ _

theorem rRel2_3_allReal : Sage.AllReal (rRel2_3 m c) :=
  refRel2_3_allReal _ _ _ _ _ (rAgg2_3_allReal h) (rOut1_side_allReal h) h.w2l h.w2r h.b2

theorem rAgg2_4_allReal : Sage.AllReal (rAgg2_4 m c) :=
  refAgg2_4_allReal _ (rOut1_side_allReal h) _ _

theorem rRel2_4_allReal : Sage.AllReal (rRel2_4 m c) :=
  refRel2_4_allReal _ _ _ _ _ (rAgg2_4_allReal h) (rOut1_drug_allReal h) h.w2l h.w2r h.b2

theorem rAgg2_5_allReal : Sage.AllReal (rAgg2_5 m c) :=
  refAgg2_5_allReal _ (rOut1_protein_allReal h) _ _

theorem rRel2_5_allReal : Sage.AllReal (rRel2_5 m c) :=
  refRel2_5_allReal _ _ _ _ _ (rAgg2_5_allReal h) (rOut1_drug_allReal h) h.w2l h.w2r h.b2

theorem rAgg2_6_allReal : Sage.AllReal (rAgg2_6 m c) :=
  refAgg2_6_allReal _ (rOut1_path_allReal h) _ _

theorem rRel2_6_allReal : Sage.AllReal (rRel2_6 m c) :=
  refRel2_6_allReal _ _ _ _ _ (rAgg2_6_allReal h) (rOut1_protein_allReal h) h.w2l h.w2r h.b2

theorem rH2_drug_allReal : Sage.AllReal (rH2_drug m c) :=
  Sage.allReal_addf (rRel2_4_allReal h) (rRel2_5_allReal h)

theorem rH2_protein_allReal : Sage.AllReal (rH2_protein m c) :=
  Sage.allReal_addf (rRel2_1_allReal h) (rRel2_6_allReal h)

theorem rH2_side_allReal : Sage.AllReal (rH2_side m c) :=
  Sage.allReal_addf (rRel2_0_allReal h) (rRel2_3_allReal h)

theorem rH2_path_allReal : Sage.AllReal (rH2_path m c) := rRel2_2_allReal h

theorem rOut2_drug_allReal : Sage.AllReal (rOut2_drug m c) :=
  refBn20000_allReal _ (rH2_drug_allReal h) _ _ h.g2 h.beta2

theorem rOut2_protein_allReal : Sage.AllReal (rOut2_protein m c) :=
  refBn50000_allReal _ (rH2_protein_allReal h) _ _ h.g2 h.beta2

theorem rOut2_side_allReal : Sage.AllReal (rOut2_side m c) :=
  refBn10000_allReal _ (rH2_side_allReal h) _ _ h.g2 h.beta2

theorem rOut2_path_allReal : Sage.AllReal (rOut2_path m c) :=
  refBn3000_allReal _ (rH2_path_allReal h) _ _ h.g2 h.beta2

end Cert.ReferenceIdeal.Hand

end
-- ==== Proof.Ref.BridgeBn.lean ====
/-
  The normalisation comparison at the four row counts of this program: an array given entrywise by `Sage.bnrelu` over
  `1 × 256` rows of the columns' means, variances (mean of squares less squared mean), scales and shifts is the
  reference's composed normalisation of the array of reals `H`.
-/
import proofs.«126569_j1468878815453_1_alg».proof.Proof.Ref.PureBn
import proofs.«126569_j1468878815453_1_alg».proof.Proof.Sage.Bridge

noncomputable section

namespace Cert.ReferenceIdeal.Hand

open Cert.ReferenceIdeal Cert.ReferenceIdeal.Gen Idealize.ShloMosaic Idealize.ShloMosaic.ValueIdx

/-- 20000 rows: an array with the normalised, scaled, shifted and rectified entries is the reference's composed stage. -/
theorem refBn20000_bridge_entries (H : FVec Ideal S20000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((20000 : ℝ) : EReal) fun r : Fin 20000 => H (ix2 r q))
    (hvar : ∀ q : Fin 256, varRow (ix2 (0 : Fin 1) q) = Sage.colVarSq ((20000 : ℝ) : EReal) fun r : Fin 20000 => H (ix2 r q))
    (hg : ∀ q : Fin 256, gRow (ix2 (0 : Fin 1) q) = g (ix1 q))
    (hbeta : ∀ q : Fin 256, betaRow (ix2 (0 : Fin 1) q) = beta (ix1 q))
    (K : FVec Ideal S20000x256 .f32)
    (hK : ∀ (r : Fin 20000) (q : Fin 256), K (ix2 r q)
      = Sage.bnrelu (Ideal.ofBits .f32 0x3727C5AC#32) (H (ix2 r q)) (meanRow (ix2 (0 : Fin 1) q))
          (varRow (ix2 (0 : Fin 1) q)) (gRow (ix2 (0 : Fin 1) q)) (betaRow (ix2 (0 : Fin 1) q))) :
    K = refBn20000 H g beta :=
  Sage.bn_bridge_entries _ 20000 H K _ meanRow varRow gRow betaRow g beta (refBn20000_eq_sq H hH g beta) hK hmean hvar hg hbeta

theorem refBn20000_bridge (H : FVec Ideal S20000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((20000 : ℝ) : EReal) fun r : Fin 20000 => H (ix2 r q))
    (hvar : ∀ q : Fin 256, varRow (ix2 (0 : Fin 1) q) = Sage.colVarSq ((20000 : ℝ) : EReal) fun r : Fin 20000 => H (ix2 r q))
    (hg : ∀ q : Fin 256, gRow (ix2 (0 : Fin 1) q) = g (ix1 q))
    (hbeta : ∀ q : Fin 256, betaRow (ix2 (0 : Fin 1) q) = beta (ix1 q)) :
    (fun j : S20000x256.Idx => Sage.bnrelu (Ideal.ofBits .f32 0x3727C5AC#32) (H j) (meanRow (ix2 (0 : Fin 1) (j 1 : Fin 256)))
        (varRow (ix2 (0 : Fin 1) (j 1 : Fin 256))) (gRow (ix2 (0 : Fin 1) (j 1 : Fin 256)))
        (betaRow (ix2 (0 : Fin 1) (j 1 : Fin 256)))) = refBn20000 H g beta :=
  Sage.bn_bridge _ 20000 H _ meanRow varRow gRow betaRow g beta (refBn20000_eq_sq H hH g beta) hmean hvar hg hbeta

/-- 50000 rows: an array with the normalised, scaled, shifted and rectified entries is the reference's composed stage. -/
theorem refBn50000_bridge_entries (H : FVec Ideal S50000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((50000 : ℝ) : EReal) fun r : Fin 50000 => H (ix2 r q))
    (hvar : ∀ q : Fin 256, varRow (ix2 (0 : Fin 1) q) = Sage.colVarSq ((50000 : ℝ) : EReal) fun r : Fin 50000 => H (ix2 r q))
    (hg : ∀ q : Fin 256, gRow (ix2 (0 : Fin 1) q) = g (ix1 q))
    (hbeta : ∀ q : Fin 256, betaRow (ix2 (0 : Fin 1) q) = beta (ix1 q))
    (K : FVec Ideal S50000x256 .f32)
    (hK : ∀ (r : Fin 50000) (q : Fin 256), K (ix2 r q)
      = Sage.bnrelu (Ideal.ofBits .f32 0x3727C5AC#32) (H (ix2 r q)) (meanRow (ix2 (0 : Fin 1) q))
          (varRow (ix2 (0 : Fin 1) q)) (gRow (ix2 (0 : Fin 1) q)) (betaRow (ix2 (0 : Fin 1) q))) :
    K = refBn50000 H g beta :=
  Sage.bn_bridge_entries _ 50000 H K _ meanRow varRow gRow betaRow g beta (refBn50000_eq_sq H hH g beta) hK hmean hvar hg hbeta

theorem refBn50000_bridge (H : FVec Ideal S50000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((50000 : ℝ) : EReal) fun r : Fin 50000 => H (ix2 r q))
    (hvar : ∀ q : Fin 256, varRow (ix2 (0 : Fin 1) q) = Sage.colVarSq ((50000 : ℝ) : EReal) fun r : Fin 50000 => H (ix2 r q))
    (hg : ∀ q : Fin 256, gRow (ix2 (0 : Fin 1) q) = g (ix1 q))
    (hbeta : ∀ q : Fin 256, betaRow (ix2 (0 : Fin 1) q) = beta (ix1 q)) :
    (fun j : S50000x256.Idx => Sage.bnrelu (Ideal.ofBits .f32 0x3727C5AC#32) (H j) (meanRow (ix2 (0 : Fin 1) (j 1 : Fin 256)))
        (varRow (ix2 (0 : Fin 1) (j 1 : Fin 256))) (gRow (ix2 (0 : Fin 1) (j 1 : Fin 256)))
        (betaRow (ix2 (0 : Fin 1) (j 1 : Fin 256)))) = refBn50000 H g beta :=
  Sage.bn_bridge _ 50000 H _ meanRow varRow gRow betaRow g beta (refBn50000_eq_sq H hH g beta) hmean hvar hg hbeta

/-- 10000 rows: an array with the normalised, scaled, shifted and rectified entries is the reference's composed stage. -/
theorem refBn10000_bridge_entries (H : FVec Ideal S10000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((10000 : ℝ) : EReal) fun r : Fin 10000 => H (ix2 r q))
    (hvar : ∀ q : Fin 256, varRow (ix2 (0 : Fin 1) q) = Sage.colVarSq ((10000 : ℝ) : EReal) fun r : Fin 10000 => H (ix2 r q))
    (hg : ∀ q : Fin 256, gRow (ix2 (0 : Fin 1) q) = g (ix1 q))
    (hbeta : ∀ q : Fin 256, betaRow (ix2 (0 : Fin 1) q) = beta (ix1 q))
    (K : FVec Ideal S10000x256 .f32)
    (hK : ∀ (r : Fin 10000) (q : Fin 256), K (ix2 r q)
      = Sage.bnrelu (Ideal.ofBits .f32 0x3727C5AC#32) (H (ix2 r q)) (meanRow (ix2 (0 : Fin 1) q))
          (varRow (ix2 (0 : Fin 1) q)) (gRow (ix2 (0 : Fin 1) q)) (betaRow (ix2 (0 : Fin 1) q))) :
    K = refBn10000 H g beta :=
  Sage.bn_bridge_entries _ 10000 H K _ meanRow varRow gRow betaRow g beta (refBn10000_eq_sq H hH g beta) hK hmean hvar hg hbeta

theorem refBn10000_bridge (H : FVec Ideal S10000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((10000 : ℝ) : EReal) fun r : Fin 10000 => H (ix2 r q))
    (hvar : ∀ q : Fin 256, varRow (ix2 (0 : Fin 1) q) = Sage.colVarSq ((10000 : ℝ) : EReal) fun r : Fin 10000 => H (ix2 r q))
    (hg : ∀ q : Fin 256, gRow (ix2 (0 : Fin 1) q) = g (ix1 q))
    (hbeta : ∀ q : Fin 256, betaRow (ix2 (0 : Fin 1) q) = beta (ix1 q)) :
    (fun j : S10000x256.Idx => Sage.bnrelu (Ideal.ofBits .f32 0x3727C5AC#32) (H j) (meanRow (ix2 (0 : Fin 1) (j 1 : Fin 256)))
        (varRow (ix2 (0 : Fin 1) (j 1 : Fin 256))) (gRow (ix2 (0 : Fin 1) (j 1 : Fin 256)))
        (betaRow (ix2 (0 : Fin 1) (j 1 : Fin 256)))) = refBn10000 H g beta :=
  Sage.bn_bridge _ 10000 H _ meanRow varRow gRow betaRow g beta (refBn10000_eq_sq H hH g beta) hmean hvar hg hbeta

/-- 3000 rows: an array with the normalised, scaled, shifted and rectified entries is the reference's composed stage. -/
theorem refBn3000_bridge_entries (H : FVec Ideal S3000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((3000 : ℝ) : EReal) fun r : Fin 3000 => H (ix2 r q))
    (hvar : ∀ q : Fin 256, varRow (ix2 (0 : Fin 1) q) = Sage.colVarSq ((3000 : ℝ) : EReal) fun r : Fin 3000 => H (ix2 r q))
    (hg : ∀ q : Fin 256, gRow (ix2 (0 : Fin 1) q) = g (ix1 q))
    (hbeta : ∀ q : Fin 256, betaRow (ix2 (0 : Fin 1) q) = beta (ix1 q))
    (K : FVec Ideal S3000x256 .f32)
    (hK : ∀ (r : Fin 3000) (q : Fin 256), K (ix2 r q)
      = Sage.bnrelu (Ideal.ofBits .f32 0x3727C5AC#32) (H (ix2 r q)) (meanRow (ix2 (0 : Fin 1) q))
          (varRow (ix2 (0 : Fin 1) q)) (gRow (ix2 (0 : Fin 1) q)) (betaRow (ix2 (0 : Fin 1) q))) :
    K = refBn3000 H g beta :=
  Sage.bn_bridge_entries _ 3000 H K _ meanRow varRow gRow betaRow g beta (refBn3000_eq_sq H hH g beta) hK hmean hvar hg hbeta

theorem refBn3000_bridge (H : FVec Ideal S3000x256 .f32) (hH : Sage.AllReal H)
    (meanRow varRow gRow betaRow : FVec Ideal S1x256 .f32) (g beta : FVec Ideal S256 .f32)
    (hmean : ∀ q : Fin 256, meanRow (ix2 (0 : Fin 1) q) = Sage.colMean ((3000 : ℝ) : EReal) fun r : Fin 3000 => H (ix2 r q))
    (hvar : ∀ q : Fin 256, varRow (ix2 (0 : Fin 1) q) = Sage.colVarSq ((3000 : ℝ) : EReal) fun r : Fin 3000 => H (ix2 r q))
    (hg : ∀ q : Fin 256, gRow (ix2 (0 : Fin 1) q) = g (ix1 q))
    (hbeta : ∀ q : Fin 256, betaRow (ix2 (0 : Fin 1) q) = beta (ix1 q)) :
    (fun j : S3000x256.Idx => Sage.bnrelu (Ideal.ofBits .f32 0x3727C5AC#32) (H j) (meanRow (ix2 (0 : Fin 1) (j 1 : Fin 256)))
        (varRow (ix2 (0 : Fin 1) (j 1 : Fin 256))) (gRow (ix2 (0 : Fin 1) (j 1 : Fin 256)))
        (betaRow (ix2 (0 : Fin 1) (j 1 : Fin 256)))) = refBn3000 H g beta :=
  Sage.bn_bridge _ 3000 H _ meanRow varRow gRow betaRow g beta (refBn3000_eq_sq H hH g beta) hmean hvar hg hbeta

end Cert.ReferenceIdeal.Hand

end
-- ==== Proof.CmpL1T0.lean ====
/-
  Layer 1 compared: on a core where the two launch memories agree on the arguments, each relation's aggregation is
  the same function of the same operands in both programs, and for each node type the array the kernel's combine region
  leaves is the reference's sum of relation stages and the array its normalisation region leaves the reference's result.
-/
import proofs.«126569_j1468878815453_1_alg».proof.Proof.CmpA1
import proofs.«126569_j1468878815453_1_alg».proof.Proof.KI.ReadL1b
import proofs.«126569_j1468878815453_1_alg».proof.Proof.KI.Val0
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 1, the node type of 20000 rows: the kernel's relation sums are the reference's, and its normalised result the reference's. -/
theorem l1_0 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kH1_0 m ρ c = Cert.ReferenceIdeal.Hand.rH1_drug m' c ∧ Cert.KernelIdeal.Hand.kOut1_0 m ρ c = Cert.ReferenceIdeal.Hand.rOut1_drug m' c := by
  have ea0 := agg1_4 m ρ m' c hag
  have ea1 := agg1_5 m ρ m' c hag
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH1_0 m ρ c = Cert.KernelIdeal.Hand.hArr0 (Cert.KernelIdeal.Hand.kAgg1_4 m ρ c) (Cert.KernelIdeal.Hand.kAgg1_5 m ρ c) (m ((c.tc : Thread Cert.KernelIdeal.nD Cert.KernelIdeal.τ).loc Cert.KernelIdeal.main_arg0)) (Cert.KernelIdeal.Hand.kWl1_4 m ρ c) (Cert.KernelIdeal.Hand.kWl1_5 m ρ c) (Cert.KernelIdeal.Hand.kWr1_4 m ρ c) (Cert.KernelIdeal.Hand.kWr1_5 m ρ c) (Cert.KernelIdeal.Hand.kB1_4 m ρ c) (Cert.KernelIdeal.Hand.kB1_5 m ρ c) :=
    (Cert.KernelIdeal.Hand.final0_9 (Cert.KernelIdeal.Hand.V1 m ρ) c).trans (Sage.cmp9 Cert.KernelIdeal.Hand.hArr0 (Cert.KernelIdeal.Hand.ent0_0 m ρ c) (Cert.KernelIdeal.Hand.ent0_1 m ρ c) (Cert.KernelIdeal.Hand.ent0_2 m ρ c) (Cert.KernelIdeal.Hand.ent0_3 m ρ c) (Cert.KernelIdeal.Hand.ent0_4 m ρ c) (Cert.KernelIdeal.Hand.ent0_5 m ρ c) (Cert.KernelIdeal.Hand.ent0_6 m ρ c) (Cert.KernelIdeal.Hand.ent0_7 m ρ c) (Cert.KernelIdeal.Hand.ent0_8 m ρ c))
  exact Sage.node2_eq (n := 20000) (k := 128) (m := 256) (R := 7) (i0 := 4) (i1 := 5)
    Cert.ReferenceIdeal.dot_S20000x128_S128x256_S20000x256_1_0_0_1_n_n Cert.ReferenceIdeal.Gen.slices_S7x128x256_S1x128x256_4_0_0 Cert.ReferenceIdeal.Gen.slices_S7x128x256_S1x128x256_5_0_0 Cert.ReferenceIdeal.Gen.shapeCasts_S1x128x256_S128x256
    Cert.ReferenceIdeal.Gen.slices_S7x256_S1x256_4_0 Cert.ReferenceIdeal.Gen.slices_S7x256_S1x256_5_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S20000x256_0_1
    (Ideal.ofBits .f32 0x3727C5AC#32) 20000 Cert.ReferenceIdeal.Hand.refBn20000 rfl (by decide) (by decide)
    (fun H hH g beta r q => Cert.ReferenceIdeal.Hand.refBn20000_eq_sq H hH g beta r q)
    (Cert.KernelIdeal.Hand.kAgg1_4 m ρ c) (Cert.KernelIdeal.Hand.kAgg1_5 m ρ c) (m ((c.tc : Thread Cert.KernelIdeal.nD Cert.KernelIdeal.τ).loc Cert.KernelIdeal.main_arg0)) (Cert.ReferenceIdeal.Hand.rAgg1_4 m' c) (Cert.ReferenceIdeal.Hand.rAgg1_5 m' c) (Cert.ReferenceIdeal.Hand.inX_drug m' c)
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.Hand.inW1l m' c) (Cert.ReferenceIdeal.Hand.inW1r m' c) (m ((c.tc : Thread Cert.KernelIdeal.nD Cert.KernelIdeal.τ).loc Cert.KernelIdeal.main_arg6)) (Cert.ReferenceIdeal.Hand.inB1 m' c)
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (Cert.ReferenceIdeal.Hand.inG1 m' c) (Cert.ReferenceIdeal.Hand.inBeta1 m' c)
    ea0 ea1 h0.symm h4.symm h5.symm h6.symm h10.symm h11.symm
    (Cert.ReferenceIdeal.Hand.rAgg1_4_allReal hreal) (Cert.ReferenceIdeal.Hand.rAgg1_5_allReal hreal) hreal.x_drug hreal.w1l hreal.w1r hreal.b1
    (Cert.KernelIdeal.Hand.kH1_0 m ρ c) (Cert.KernelIdeal.Hand.kOut1_0 m ρ c) (Cert.KernelIdeal.Hand.kMean1_0 m ρ c) (Cert.KernelIdeal.Hand.kVar1_0 m ρ c) (Cert.KernelIdeal.Hand.kG1_0 m ρ c) (Cert.KernelIdeal.Hand.kBeta1_0 m ρ c)
    (fun r q => congrFun hHk (ix2 r q))
    (fun q => (Cert.KernelIdeal.Hand.final0_10_apply (Cert.KernelIdeal.Hand.V1 m ρ) c q).trans
      (congrArg (fun H : Cert.ReferenceIdeal.S20000x256.Idx → EReal => Sage.colMean ((20000 : ℝ) : EReal) fun r : Fin 20000 => H (ix2 r q)) (Cert.KernelIdeal.Hand.final0_9 (Cert.KernelIdeal.Hand.V1 m ρ) c).symm))
    (fun q => (Cert.KernelIdeal.Hand.final0_11_apply (Cert.KernelIdeal.Hand.V1 m ρ) c q).trans
      (congrArg (fun H : Cert.ReferenceIdeal.S20000x256.Idx → EReal => Sage.colVarSq ((20000 : ℝ) : EReal) fun r : Fin 20000 => H (ix2 r q)) (Cert.KernelIdeal.Hand.final0_9 (Cert.KernelIdeal.Hand.V1 m ρ) c).symm))
    (fun q => Sage.row_of_vec_apply (m ((c.tc : Thread Cert.KernelIdeal.nD Cert.KernelIdeal.τ).loc Cert.KernelIdeal.main_arg10)) Cert.KernelIdeal.Gen.shapeCasts_S256_S1x256 q)
    (fun q => Sage.row_of_vec_apply (m ((c.tc : Thread Cert.KernelIdeal.nD Cert.KernelIdeal.τ).loc Cert.KernelIdeal.main_arg11)) Cert.KernelIdeal.Gen.shapeCasts_S256_S1x256 q)
    (fun _ _ => rfl)

end Cert.Proof

end
-- ==== Proof.KI.Val1Pay.lean ====
import proofs.«126569_j1468878815453_1_alg».proof.Proof.KI.Reg1Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 1 (the layer-1 combine of a 50000-row node type in 50 row blocks): the payloads at an index

At the ideal instance: the nine input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x128 block with a 128x256 matrix -/

/-- The dot's dimension numbers: rows by the shared axis, the shared axis by columns. -/
noncomputable abbrev D1 : DotDims S1000x128 S128x256 S1000x256 := dot_S1000x128_S128x256_S1000x256_1_0_0_1_n_n

theorem D1_rank : D1.contr.rank = 1 := rfl
theorem D1_size : D1.contr.size ⟨0, by rw [D1_rank]; exact Nat.one_pos⟩ = 128 := rfl

/-- The left operand's index at output `j` and contraction index `k`: row `j 0`, column `k`; -/
theorem lhs_D1_0 (j : S1000x256.Idx) (k : D1.contr.Idx) : ((D1.lhsIdx j k 0 : Fin 1000) : ℕ) = (j 0 : Fin 1000) := rfl
theorem lhs_D1_1 (j : S1000x256.Idx) (k : D1.contr.Idx) : ((D1.lhsIdx j k 1 : Fin 128) : ℕ) = (k ⟨0, by rw [D1_rank]; exact Nat.one_pos⟩).val :=
  DotDims.lhsIdx_val_of_single D1 rfl j k
/-- the right operand's: row `k`, column `j 1`. -/
theorem rhs_D1_0 (j : S1000x256.Idx) (k : D1.contr.Idx) : ((D1.rhsIdx j k 0 : Fin 128) : ℕ) = (k ⟨0, by rw [D1_rank]; exact Nat.one_pos⟩).val :=
  DotDims.rhsIdx_val_of_single D1 rfl j k
theorem rhs_D1_1 (j : S1000x256.Idx) (k : D1.contr.Idx) : ((D1.rhsIdx j k 1 : Fin 256) : ℕ) = (j 1 : Fin 256) := rfl

/-- The product into a zero accumulator, at row `p` and column `q`: the row of the left operand against the column
    of the right one. -/
theorem matmul1_at (L : S1000x128.Idx → EReal) (R : S128x256.Idx → EReal) (p : Fin 1000) (q : Fin 256) :
    matmul (F := Ideal) (φ₁ := .f32) (φ₂ := .f32) D1 none L R (constant S1000x256 .f32 0x00000000#32) (ix2 p q)
      = ∑ k : Fin 128, L (ix2 p k) * R (ix2 k q) := by
  show FloatOps.matmul (F := Ideal) (φ₁ := .f32) (φ₂ := .f32) D1 none L R (constant S1000x256 .f32 0x00000000#32) (ix2 p q) = _
  rw [Ideal.matmul_constant_zero_apply, ← Equiv.sum_comp (contrEquiv1 D1 128 D1_rank D1_size).symm]
  refine Finset.sum_congr rfl fun k _ => ?_
  have hk := contrEquiv1_symm_val D1 128 D1_rank D1_size k
  have eL : D1.lhsIdx (ix2 p q) ((contrEquiv1 D1 128 D1_rank D1_size).symm k) = ix2 p k :=
    Shape.idx_ext₂ (lhs_D1_0 _ _) ((lhs_D1_1 _ _).trans hk)
  have eR : D1.rhsIdx (ix2 p q) ((contrEquiv1 D1 128 D1_rank D1_size).symm k) = ix2 k q :=
    Shape.idx_ext₂ ((rhs_D1_0 _ _).trans hk) (rhs_D1_1 _ _)
  rw [eL, eR]

/-! ## The payloads at an index -/

/-- The block output's payload at row `p`, column `q`: the two relations' contributions to that entry, added. The
    operands are the first aggregate's block, the first left weights, the first bias row, the destination's block, the
    first right weights, then the second relation's five in the same order. -/
theorem pay1_7_at (a0 a1 x : S1000x128.Idx → EReal) (wl0 wl1 wr0 wr1 : S128x256.Idx → EReal) (b0 b1 : S1x256.Idx → EReal)
    (p : Fin 1000) (q : Fin 256) :
    k1_pay7 (F := Ideal) a0 wl0 b0 x wr0 a1 wl1 b1 x wr1 (ix2 p q)
      = Sage.rel (fun k : Fin 128 => a0 (ix2 p k)) (fun k : Fin 128 => x (ix2 p k)) (fun k : Fin 128 => wl0 (ix2 k q)) (fun k : Fin 128 => wr0 (ix2 k q)) (b0 (ix2 (0 : Fin 1) q))
        + Sage.rel (fun k : Fin 128 => a1 (ix2 p k)) (fun k : Fin 128 => x (ix2 p k)) (fun k : Fin 128 => wl1 (ix2 k q)) (fun k : Fin 128 => wr1 (ix2 k q)) (b1 (ix2 (0 : Fin 1) q)) := by
  unfold k1_pay7
  simp only [addf_apply, shapeCast_self, broadcastTo_1b_ab_apply, matmul1_at]
  rfl

/-- A 1000x256 block's column sums, as a row: at column `q` the sum over the block's rows. -/
theorem colsum1_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the block's column sum. -/
theorem pay1_1_at (acc : S1000x256.Idx → EReal) (s : S1x256.Idx → EReal) (q : Fin 256) :
    k1_pay1 (F := Ideal) acc s (ix2 (0 : Fin 1) q) = s (ix2 (0 : Fin 1) q) + ∑ r : Fin 1000, acc (ix2 r q) := by
  unfold k1_pay1
  simp only [shapeCast_self, addf_apply]
  exact congrArg (s (ix2 (0 : Fin 1) q) + ·) (colsum1_at acc q)

/-- The second accumulator's payload at column `q`: what it held plus the column sum of the block's squares. -/
theorem pay1_2_at (acc : S1000x256.Idx → EReal) (s : S1x256.Idx → EReal) (q : Fin 256) :
    k1_pay2 (F := Ideal) acc s (ix2 (0 : Fin 1) q) = s (ix2 (0 : Fin 1) q) + ∑ r : Fin 1000, acc (ix2 r q) * acc (ix2 r q) := by
  unfold k1_pay2
  simp only [shapeCast_self, addf_apply]
  exact congrArg (s (ix2 (0 : Fin 1) q) + ·) ((colsum1_at (mulf (F := Ideal) (s := S1000x256) (φ := .f32) acc acc) q).trans rfl)

/-- The two resets store zeros. -/
theorem pay1_5_at (i : S1x256.Idx) : k1_pay5 (F := Ideal) i = 0 := by
  unfold k1_pay5
  simp only [shapeCast_self, broadcast_apply]
  exact Ideal.ofBits_zero_f32
theorem pay1_6_at (i : S1x256.Idx) : k1_pay6 (F := Ideal) i = 0 := by
  unfold k1_pay6
  simp only [shapeCast_self, broadcast_apply]
  exact Ideal.ofBits_zero_f32

/-- The row count the statistics divide by, as the body writes it. -/
noncomputable abbrev rows1 : EReal := Ideal.ofBits .f32 0x47435000#32

/-- The mean output's payload at an index: the first accumulator's entry over the row count. -/
theorem pay1_3_at (s0 : S1x256.Idx → EReal) (i : S1x256.Idx) : k1_pay3 (F := Ideal) s0 i = Ideal.div (s0 i) rows1 := by
  unfold k1_pay3
  simp only [divf_apply, broadcast_apply]
  rfl

/-- The variance output's payload at an index: the second accumulator's entry over the row count, less the squared mean. -/
theorem pay1_4_at (s0 s1 : S1x256.Idx → EReal) (i : S1x256.Idx) :
    k1_pay4 (F := Ideal) s0 s1 i = Ideal.div (s1 i) rows1 - Ideal.div (s0 i) rows1 * Ideal.div (s0 i) rows1 := by
  unfold k1_pay4
  simp only [subf_apply, mulf_apply, divf_apply, broadcast_apply, pay1_3_at]
  rfl

/-! ## The arrays as the region finds them -/

-- the TensorCore's buffer contents when the region is entered
variable (V : (c : Dev nD) → (b : Ref sig .tc) → Buf (Elt Ideal) ((c : Thread nD τ).loc b))

/-- The first relation's aggregated sources, -/
noncomputable abbrev agga1 (c : Dev nD) : S50000x128.Idx → EReal := V c (Pipeline.arrRef spec1 0)
/-- the second relation's, -/
noncomputable abbrev aggb1 (c : Dev nD) : S50000x128.Idx → EReal := V c (Pipeline.arrRef spec1 1)
/-- the destination's own features, -/
noncomputable abbrev xdst1 (c : Dev nD) : S50000x128.Idx → EReal := V c (Pipeline.arrRef spec1 2)
/-- the two relations' left weights, -/
noncomputable abbrev wla1 (c : Dev nD) : S128x256.Idx → EReal := V c (Pipeline.arrRef spec1 3)
noncomputable abbrev wlb1 (c : Dev nD) : S128x256.Idx → EReal := V c (Pipeline.arrRef spec1 4)
/-- their right weights, -/
noncomputable abbrev wra1 (c : Dev nD) : S128x256.Idx → EReal := V c (Pipeline.arrRef spec1 5)
noncomputable abbrev wrb1 (c : Dev nD) : S128x256.Idx → EReal := V c (Pipeline.arrRef spec1 6)
/-- and their bias rows. -/
noncomputable abbrev bia1 (c : Dev nD) : S1x256.Idx → EReal := V c (Pipeline.arrRef spec1 7)
noncomputable abbrev bib1 (c : Dev nD) : S1x256.Idx → EReal := V c (Pipeline.arrRef spec1 8)

/-- The input windows' blocks at a point, by their literal types. -/
noncomputable abbrev blk1_0 (c : Dev nD) (t : Fin cfg1.N) : S1000x128.Idx → EReal := iblk1 V c 0 t
noncomputable abbrev blk1_1 (c : Dev nD) (t : Fin cfg1.N) : S1000x128.Idx → EReal := iblk1 V c 1 t
noncomputable abbrev blk1_2 (c : Dev nD) (t : Fin cfg1.N) : S1000x128.Idx → EReal := iblk1 V c 2 t
noncomputable abbrev blk1_3 (c : Dev nD) (t : Fin cfg1.N) : S128x256.Idx → EReal := iblk1 V c 3 t
noncomputable abbrev blk1_4 (c : Dev nD) (t : Fin cfg1.N) : S128x256.Idx → EReal := iblk1 V c 4 t
noncomputable abbrev blk1_5 (c : Dev nD) (t : Fin cfg1.N) : S128x256.Idx → EReal := iblk1 V c 5 t
noncomputable abbrev blk1_6 (c : Dev nD) (t : Fin cfg1.N) : S128x256.Idx → EReal := iblk1 V c 6 t
noncomputable abbrev blk1_7 (c : Dev nD) (t : Fin cfg1.N) : S1x256.Idx → EReal := iblk1 V c 7 t
noncomputable abbrev blk1_8 (c : Dev nD) (t : Fin cfg1.N) : S1x256.Idx → EReal := iblk1 V c 8 t

/-! ## The blocks' places in their arrays -/

theorem hz1 : (![0, 0] : Fin 2 → Nat) = fun _ => 0 := funext fun a => by fin_cases a <;> rfl

/-- The printed index maps, decided over the grid: the three row-blocked inputs' and the block output's block at point
    `t` is row block `t`; every other window's one block is its whole array. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- Row `p`, column `k` of the first aggregate's block at point `t` is the array's entry at row `1000 t + p`. -/
theorem blk1_0_at (c : Dev nD) (t : Fin cfg1.N) (p : Fin 1000) (k : Fin 128) (hr : t.val * 1000 + p.val < 50000) :
    blk1_0 V c t (ix2 p k) = agga1 V c (ix2 (⟨t.val * 1000 + p.val, hr⟩ : Fin 50000) k) := by
  obtain ⟨e0, e1⟩ := (idx_facts1 t).1
  show iblk1 V c 0 t (ix2 p k) = _
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 1000 + 1 * p.val = t.val * 1000 + p.val; rw [e0]; omega
  | ⟨1, _⟩ => show win1_0.index t (1 : Fin 2) * 128 + 1 * k.val = k.val; rw [e1]; omega

/-- Row `p`, column `k` of the second aggregate's block at point `t` is the array's entry at row `1000 t + p`. -/
theorem blk1_1_at (c : Dev nD) (t : Fin cfg1.N) (p : Fin 1000) (k : Fin 128) (hr : t.val * 1000 + p.val < 50000) :
    blk1_1 V c t (ix2 p k) = aggb1 V c (ix2 (⟨t.val * 1000 + p.val, hr⟩ : Fin 50000) k) := by
  obtain ⟨e0, e1⟩ := (idx_facts1 t).2.1
  show iblk1 V c 1 t (ix2 p k) = _
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1000 + 1 * p.val = t.val * 1000 + p.val; rw [e0]; omega
  | ⟨1, _⟩ => show win1_1.index t (1 : Fin 2) * 128 + 1 * k.val = k.val; rw [e1]; omega

/-- Row `p`, column `k` of the destination's block at point `t` is the array's entry at row `1000 t + p`. -/
theorem blk1_2_at (c : Dev nD) (t : Fin cfg1.N) (p : Fin 1000) (k : Fin 128) (hr : t.val * 1000 + p.val < 50000) :
    blk1_2 V c t (ix2 p k) = xdst1 V c (ix2 (⟨t.val * 1000 + p.val, hr⟩ : Fin 50000) k) := by
  obtain ⟨e0, e1⟩ := (idx_facts1 t).2.2.1
  show iblk1 V c 2 t (ix2 p k) = _
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1000 + 1 * p.val = t.val * 1000 + p.val; rw [e0]; omega
  | ⟨1, _⟩ => show win1_2.index t (1 : Fin 2) * 128 + 1 * k.val = k.val; rw [e1]; omega

/-- Window 3's one block, at any point, is its whole array. -/
theorem blk1_3_eq (c : Dev nD) (t : Fin cfg1.N) : blk1_3 V c t = wla1 V c := by
  obtain ⟨e0, e1⟩ := (idx_facts1 t).2.2.2.1
  funext j
  obtain ⟨k, q, rfl⟩ : ∃ (k : Fin 128) (q : Fin 256), j = ix2 k q := ⟨j 0, j 1, eq_ix2 j⟩
  show iblk1 V c 3 t (ix2 k q) = _
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * k.val = k.val; rw [e0]; omega
  | ⟨1, _⟩ => show win1_3.index t (1 : Fin 2) * 256 + 1 * q.val = q.val; rw [e1]; omega

/-- Window 4's one block, at any point, is its whole array. -/
theorem blk1_4_eq (c : Dev nD) (t : Fin cfg1.N) : blk1_4 V c t = wlb1 V c := by
  obtain ⟨e0, e1⟩ := (idx_facts1 t).2.2.2.2.1
  funext j
  obtain ⟨k, q, rfl⟩ : ∃ (k : Fin 128) (q : Fin 256), j = ix2 k q := ⟨j 0, j 1, eq_ix2 j⟩
  show iblk1 V c 4 t (ix2 k q) = _
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 128 + 1 * k.val = k.val; rw [e0]; omega
  | ⟨1, _⟩ => show win1_4.index t (1 : Fin 2) * 256 + 1 * q.val = q.val; rw [e1]; omega

/-- Window 5's one block, at any point, is its whole array. -/
theorem blk1_5_eq (c : Dev nD) (t : Fin cfg1.N) : blk1_5 V c t = wra1 V c := by
  obtain ⟨e0, e1⟩ := (idx_facts1 t).2.2.2.2.2.1
  funext j
  obtain ⟨k, q, rfl⟩ : ∃ (k : Fin 128) (q : Fin 256), j = ix2 k q := ⟨j 0, j 1, eq_ix2 j⟩
  show iblk1 V c 5 t (ix2 k q) = _
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * k.val = k.val; rw [e0]; omega
  | ⟨1, _⟩ => show win1_5.index t (1 : Fin 2) * 256 + 1 * q.val = q.val; rw [e1]; omega

/-- Window 6's one block, at any point, is its whole array. -/
theorem blk1_6_eq (c : Dev nD) (t : Fin cfg1.N) : blk1_6 V c t = wrb1 V c := by
  obtain ⟨e0, e1⟩ := (idx_facts1 t).2.2.2.2.2.2.1
  funext j
  obtain ⟨k, q, rfl⟩ : ∃ (k : Fin 128) (q : Fin 256), j = ix2 k q := ⟨j 0, j 1, eq_ix2 j⟩
  show iblk1 V c 6 t (ix2 k q) = _
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 128 + 1 * k.val = k.val; rw [e0]; omega
  | ⟨1, _⟩ => show win1_6.index t (1 : Fin 2) * 256 + 1 * q.val = q.val; rw [e1]; omega

/-- Window 7's one block, at any point, is its whole row. -/
theorem blk1_7_eq (c : Dev nD) (t : Fin cfg1.N) : blk1_7 V c t = bia1 V c := by
  obtain ⟨e0, e1⟩ := (idx_facts1 t).2.2.2.2.2.2.2.1
  funext j
  obtain ⟨u, q, rfl⟩ : ∃ (u : Fin 1) (q : Fin 256), j = ix2 u q := ⟨j 0, j 1, eq_ix2 j⟩
  show iblk1 V c 7 t (ix2 u q) = _
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * u.val = u.val; rw [e0]; omega
  | ⟨1, _⟩ => show win1_7.index t (1 : Fin 2) * 256 + 1 * q.val = q.val; rw [e1]; omega

/-- Window 8's one block, at any point, is its whole row. -/
theorem blk1_8_eq (c : Dev nD) (t : Fin cfg1.N) : blk1_8 V c t = bib1 V c := by
  obtain ⟨e0, e1⟩ := (idx_facts1 t).2.2.2.2.2.2.2.2.1
  funext j
  obtain ⟨u, q, rfl⟩ : ∃ (u : Fin 1) (q : Fin 256), j = ix2 u q := ⟨j 0, j 1, eq_ix2 j⟩
  show iblk1 V c 8 t (ix2 u q) = _
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * u.val = u.val; rw [e0]; omega
  | ⟨1, _⟩ => show win1_8.index t (1 : Fin 2) * 256 + 1 * q.val = q.val; rw [e1]; omega

end Cert.KernelIdeal.Hand

end
-- ==== Proof.KI.Val1.lean ====
import proofs.«126569_j1468878815453_1_alg».proof.Proof.KI.Reg1
import proofs.«126569_j1468878815453_1_alg».proof.Proof.KI.Val1Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 1 (the layer-1 combine of a 50000-row node type in 50 row blocks), the value

What each control case's stores leave, as the body's payloads of the input blocks and of what the accumulators held;
the accumulators after a point as running column sums; at the ideal instance, the three output arrays after the
region as functions of the nine input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

theorem hzP1 : (![0, 0] : Fin 2 → Nat) = fun _ => 0 := funext fun a => by fin_cases a <;> rfl

theorem out1_A_9_eq (c : Dev nD) (t : Fin cfg1.N) (hc0 : cond1_0 (grid1.coords t)) (hc1 : ¬cond1_1 (grid1.coords t)) (x0 x1 x2 : Vec F S1000x128 .f32) (x3 x4 x5 x6 : Vec F S128x256 .f32) (x7 x8 : Vec F S1x256 .f32)  :
    out1_A_9 c t hc0 hc1 x0 x1 x2 x3 x4 x5 x6 x7 x8  = (k1_pay7 x0 x3 x7 x2 x5 x1 x4 x8 x2 x6) := by
  unfold out1_A_9
  rw [View.read_writes_eq_canon _ _ _ (cover1_A_9 c t hc0 hc1 x0 x1 x2 x3 x4 x5 x6 x7 x8 )]
  unfold runAt1_A kernelRun1_A
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]

theorem sout1_A_0_eq (c : Dev nD) (t : Fin cfg1.N) (hc0 : cond1_0 (grid1.coords t)) (hc1 : ¬cond1_1 (grid1.coords t)) (x0 x1 x2 : Vec F S1000x128 .f32) (x3 x4 x5 x6 : Vec F S128x256 .f32) (x7 x8 : Vec F S1x256 .f32)  :
    sout1_A_0 c t hc0 hc1 x0 x1 x2 x3 x4 x5 x6 x7 x8  = k1_pay1 (k1_pay7 x0 x3 x7 x2 x5 x1 x4 x8 x2 x6) (k1_pay5 (F := F)) := by
  unfold sout1_A_0
  rw [View.read_writes_eq_canon _ _ _ (scover1_A_0 c t hc0 hc1 x0 x1 x2 x3 x4 x5 x6 x7 x8 )]
  unfold runAt1_A kernelRun1_A
  dsimp only
  try sl_unfold_words
  rw [View.canon_cons_unit_zero (S := S1x256) hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]

theorem sout1_A_1_eq (c : Dev nD) (t : Fin cfg1.N) (hc0 : cond1_0 (grid1.coords t)) (hc1 : ¬cond1_1 (grid1.coords t)) (x0 x1 x2 : Vec F S1000x128 .f32) (x3 x4 x5 x6 : Vec F S128x256 .f32) (x7 x8 : Vec F S1x256 .f32)  :
    sout1_A_1 c t hc0 hc1 x0 x1 x2 x3 x4 x5 x6 x7 x8  = k1_pay2 (k1_pay7 x0 x3 x7 x2 x5 x1 x4 x8 x2 x6) (k1_pay6 (F := F)) := by
  unfold sout1_A_1
  rw [View.read_writes_eq_canon _ _ _ (scover1_A_1 c t hc0 hc1 x0 x1 x2 x3 x4 x5 x6 x7 x8 )]
  unfold runAt1_A kernelRun1_A
  dsimp only
  try sl_unfold_words
  rw [View.canon_cons_unit_zero (S := S1x256) hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]

theorem out1_B_9_eq (c : Dev nD) (t : Fin cfg1.N) (hc0 : ¬cond1_0 (grid1.coords t)) (hc1 : ¬cond1_1 (grid1.coords t)) (x0 x1 x2 : Vec F S1000x128 .f32) (x3 x4 x5 x6 : Vec F S128x256 .f32) (x7 x8 : Vec F S1x256 .f32) (xs0 xs1 : Vec F S1x256 .f32) :
    out1_B_9 c t hc0 hc1 x0 x1 x2 x3 x4 x5 x6 x7 x8 xs0 xs1 = (k1_pay7 x0 x3 x7 x2 x5 x1 x4 x8 x2 x6) := by
  unfold out1_B_9
  rw [View.read_writes_eq_canon _ _ _ (cover1_B_9 c t hc0 hc1 x0 x1 x2 x3 x4 x5 x6 x7 x8 xs0 xs1)]
  unfold runAt1_B kernelRun1_B
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]

theorem sout1_B_0_eq (c : Dev nD) (t : Fin cfg1.N) (hc0 : ¬cond1_0 (grid1.coords t)) (hc1 : ¬cond1_1 (grid1.coords t)) (x0 x1 x2 : Vec F S1000x128 .f32) (x3 x4 x5 x6 : Vec F S128x256 .f32) (x7 x8 : Vec F S1x256 .f32) (xs0 xs1 : Vec F S1x256 .f32) :
    sout1_B_0 c t hc0 hc1 x0 x1 x2 x3 x4 x5 x6 x7 x8 xs0 xs1 = k1_pay1 (k1_pay7 x0 x3 x7 x2 x5 x1 x4 x8 x2 x6) xs0 := by
  unfold sout1_B_0
  rw [View.read_writes_eq_canon _ _ _ (scover1_B_0 c t hc0 hc1 x0 x1 x2 x3 x4 x5 x6 x7 x8 xs0 xs1)]
  unfold runAt1_B kernelRun1_B
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]
  simp only [show View.read (Elt F) (View.whole cc1_scratch0) ((Memref.isWhole_whole cc1_scratch0).unread xs0) = xs0 from (Memref.isWhole_whole cc1_scratch0).read_unread xs0]

theorem sout1_B_1_eq (c : Dev nD) (t : Fin cfg1.N) (hc0 : ¬cond1_0 (grid1.coords t)) (hc1 : ¬cond1_1 (grid1.coords t)) (x0 x1 x2 : Vec F S1000x128 .f32) (x3 x4 x5 x6 : Vec F S128x256 .f32) (x7 x8 : Vec F S1x256 .f32) (xs0 xs1 : Vec F S1x256 .f32) :
    sout1_B_1 c t hc0 hc1 x0 x1 x2 x3 x4 x5 x6 x7 x8 xs0 xs1 = k1_pay2 (k1_pay7 x0 x3 x7 x2 x5 x1 x4 x8 x2 x6) xs1 := by
  unfold sout1_B_1
  rw [View.read_writes_eq_canon _ _ _ (scover1_B_1 c t hc0 hc1 x0 x1 x2 x3 x4 x5 x6 x7 x8 xs0 xs1)]
  unfold runAt1_B kernelRun1_B
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]
  simp only [show View.read (Elt F) (View.whole cc1_scratch1) ((Memref.isWhole_whole cc1_scratch1).unread xs1) = xs1 from (Memref.isWhole_whole cc1_scratch1).read_unread xs1]

theorem out1_C_9_eq (c : Dev nD) (t : Fin cfg1.N) (hc0 : ¬cond1_0 (grid1.coords t)) (hc1 : cond1_1 (grid1.coords t)) (x0 x1 x2 : Vec F S1000x128 .f32) (x3 x4 x5 x6 : Vec F S128x256 .f32) (x7 x8 : Vec F S1x256 .f32) (xs0 xs1 : Vec F S1x256 .f32) :
    out1_C_9 c t hc0 hc1 x0 x1 x2 x3 x4 x5 x6 x7 x8 xs0 xs1 = (k1_pay7 x0 x3 x7 x2 x5 x1 x4 x8 x2 x6) := by
  unfold out1_C_9
  rw [View.read_writes_eq_canon _ _ _ (cover1_C_9 c t hc0 hc1 x0 x1 x2 x3 x4 x5 x6 x7 x8 xs0 xs1)]
  unfold runAt1_C kernelRun1_C
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]

theorem out1_C_10_eq (c : Dev nD) (t : Fin cfg1.N) (hc0 : ¬cond1_0 (grid1.coords t)) (hc1 : cond1_1 (grid1.coords t)) (x0 x1 x2 : Vec F S1000x128 .f32) (x3 x4 x5 x6 : Vec F S128x256 .f32) (x7 x8 : Vec F S1x256 .f32) (xs0 xs1 : Vec F S1x256 .f32) :
    out1_C_10 c t hc0 hc1 x0 x1 x2 x3 x4 x5 x6 x7 x8 xs0 xs1 = k1_pay3 (k1_pay1 (k1_pay7 x0 x3 x7 x2 x5 x1 x4 x8 x2 x6) xs0) := by
  unfold out1_C_10
  rw [View.read_writes_eq_canon _ _ _ (cover1_C_10 c t hc0 hc1 x0 x1 x2 x3 x4 x5 x6 x7 x8 xs0 xs1)]
  unfold runAt1_C kernelRun1_C
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]
  simp only [show View.read (Elt F) (View.whole cc1_scratch0) ((Memref.isWhole_whole cc1_scratch0).unread xs0) = xs0 from (Memref.isWhole_whole cc1_scratch0).read_unread xs0]

theorem out1_C_11_eq (c : Dev nD) (t : Fin cfg1.N) (hc0 : ¬cond1_0 (grid1.coords t)) (hc1 : cond1_1 (grid1.coords t)) (x0 x1 x2 : Vec F S1000x128 .f32) (x3 x4 x5 x6 : Vec F S128x256 .f32) (x7 x8 : Vec F S1x256 .f32) (xs0 xs1 : Vec F S1x256 .f32) :
    out1_C_11 c t hc0 hc1 x0 x1 x2 x3 x4 x5 x6 x7 x8 xs0 xs1 = k1_pay4 (k1_pay1 (k1_pay7 x0 x3 x7 x2 x5 x1 x4 x8 x2 x6) xs0) (k1_pay2 (k1_pay7 x0 x3 x7 x2 x5 x1 x4 x8 x2 x6) xs1) := by
  unfold out1_C_11
  rw [View.read_writes_eq_canon _ _ _ (cover1_C_11 c t hc0 hc1 x0 x1 x2 x3 x4 x5 x6 x7 x8 xs0 xs1)]
  unfold runAt1_C kernelRun1_C
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]
  simp only [show View.read (Elt F) (View.whole cc1_scratch0) ((Memref.isWhole_whole cc1_scratch0).unread xs0) = xs0 from (Memref.isWhole_whole cc1_scratch0).read_unread xs0]
  simp only [show View.read (Elt F) (View.whole cc1_scratch1) ((Memref.isWhole_whole cc1_scratch1).unread xs1) = xs1 from (Memref.isWhole_whole cc1_scratch1).read_unread xs1]

theorem sout1_C_0_eq (c : Dev nD) (t : Fin cfg1.N) (hc0 : ¬cond1_0 (grid1.coords t)) (hc1 : cond1_1 (grid1.coords t)) (x0 x1 x2 : Vec F S1000x128 .f32) (x3 x4 x5 x6 : Vec F S128x256 .f32) (x7 x8 : Vec F S1x256 .f32) (xs0 xs1 : Vec F S1x256 .f32) :
    sout1_C_0 c t hc0 hc1 x0 x1 x2 x3 x4 x5 x6 x7 x8 xs0 xs1 = k1_pay1 (k1_pay7 x0 x3 x7 x2 x5 x1 x4 x8 x2 x6) xs0 := by
  unfold sout1_C_0
  rw [View.read_writes_eq_canon _ _ _ (scover1_C_0 c t hc0 hc1 x0 x1 x2 x3 x4 x5 x6 x7 x8 xs0 xs1)]
  unfold runAt1_C kernelRun1_C
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]
  simp only [show View.read (Elt F) (View.whole cc1_scratch0) ((Memref.isWhole_whole cc1_scratch0).unread xs0) = xs0 from (Memref.isWhole_whole cc1_scratch0).read_unread xs0]

theorem sout1_C_1_eq (c : Dev nD) (t : Fin cfg1.N) (hc0 : ¬cond1_0 (grid1.coords t)) (hc1 : cond1_1 (grid1.coords t)) (x0 x1 x2 : Vec F S1000x128 .f32) (x3 x4 x5 x6 : Vec F S128x256 .f32) (x7 x8 : Vec F S1x256 .f32) (xs0 xs1 : Vec F S1x256 .f32) :
    sout1_C_1 c t hc0 hc1 x0 x1 x2 x3 x4 x5 x6 x7 x8 xs0 xs1 = k1_pay2 (k1_pay7 x0 x3 x7 x2 x5 x1 x4 x8 x2 x6) xs1 := by
  unfold sout1_C_1
  rw [View.read_writes_eq_canon _ _ _ (scover1_C_1 c t hc0 hc1 x0 x1 x2 x3 x4 x5 x6 x7 x8 xs0 xs1)]
  unfold runAt1_C kernelRun1_C
  dsimp only
  try sl_unfold_words
  rw [View.canon_unit_zero hzP1]
  simp only [View.readAt_eq_ld, Memref.IsWhole.read_unread, View.ld_unit_zero (S := S1000x128) hzP1, View.ld_unit_zero (S := S128x256) hzP1, View.ld_unit_zero (S := S1x256) hzP1, View.readCov_unit_zero (S := S1x256) _ hzP1]
  simp only [show View.read (Elt F) (View.whole cc1_scratch1) ((Memref.isWhole_whole cc1_scratch1).unread xs1) = xs1 from (Memref.isWhole_whole cc1_scratch1).read_unread xs1]

end Pieces

/-! ## The result, index by index -/

-- the TensorCore's buffer contents when the region is entered
variable (V : (c : Dev nD) → (b : Ref sig .tc) → Buf (Elt Ideal) ((c : Thread nD τ).loc b))

/-- Every entry of the combined layer: the two relations' contributions to a destination row and an output column, added. -/
noncomputable def hArr1 (a0 a1 x : S50000x128.Idx → EReal) (wl0 wl1 wr0 wr1 : S128x256.Idx → EReal) (b0 b1 : S1x256.Idx → EReal) :
    S50000x256.Idx → EReal :=
  fun i => Sage.rel (fun k : Fin 128 => a0 (ix2 (i 0) k)) (fun k : Fin 128 => x (ix2 (i 0) k)) (fun k : Fin 128 => wl0 (ix2 k (i 1))) (fun k : Fin 128 => wr0 (ix2 k (i 1))) (b0 (ix2 (0 : Fin 1) (i 1)))
    + Sage.rel (fun k : Fin 128 => a1 (ix2 (i 0) k)) (fun k : Fin 128 => x (ix2 (i 0) k)) (fun k : Fin 128 => wl1 (ix2 k (i 1))) (fun k : Fin 128 => wr1 (ix2 k (i 1))) (b1 (ix2 (0 : Fin 1) (i 1)))

/-- The combined layer of the arrays as the region finds them. -/
noncomputable abbrev hOut1 (c : Dev nD) : S50000x256.Idx → EReal :=
  hArr1 (agga1 V c) (aggb1 V c) (xdst1 V c) (wla1 V c) (wlb1 V c) (wra1 V c) (wrb1 V c) (bia1 V c) (bib1 V c)

/-- The block the body computes at point `t`, from the input windows' blocks there. -/
noncomputable abbrev hblk1 (c : Dev nD) (t : Fin cfg1.N) : S1000x256.Idx → EReal :=
  k1_pay7 (F := Ideal) (blk1_0 V c t) (blk1_3 V c t) (blk1_7 V c t) (blk1_2 V c t) (blk1_5 V c t) (blk1_1 V c t) (blk1_4 V c t) (blk1_8 V c t) (blk1_2 V c t) (blk1_6 V c t)

/-- Row `p`, column `q` of that block is the combined layer's entry at row `1000 t + p`. -/
theorem hblk1_at (c : Dev nD) (t : Fin cfg1.N) (p : Fin 1000) (q : Fin 256) (hr : t.val * 1000 + p.val < 50000) :
    hblk1 V c t (ix2 p q) = hOut1 V c (ix2 (⟨t.val * 1000 + p.val, hr⟩ : Fin 50000) q) := by
  refine (pay1_7_at (blk1_0 V c t) (blk1_1 V c t) (blk1_2 V c t) (blk1_3 V c t) (blk1_4 V c t) (blk1_5 V c t) (blk1_6 V c t) (blk1_7 V c t) (blk1_8 V c t) p q).trans ?_
  simp only [blk1_0_at V c t p _ hr, blk1_1_at V c t p _ hr, blk1_2_at V c t p _ hr, blk1_3_eq V c t, blk1_4_eq V c t, blk1_5_eq V c t, blk1_6_eq V c t, blk1_7_eq V c t, blk1_8_eq V c t]
  rfl

/-! ## What the outputs and the accumulators hold after a point -/

theorem N1_lt (t : Fin cfg1.N) : t.val < 50 := lt_of_lt_of_eq t.isLt (show cfg1.N = 50 from N_1)

/-- After the first point: the block, and the accumulators at zero plus the block's column sums. -/
theorem outs1_first (c : Dev nD) (t : Fin cfg1.N) (h0 : t.val = 0) :
    (outsAt1 V c t.val t.isLt).1 = hblk1 V c t
    ∧ (outsAt1 V c t.val t.isLt).2.2.2.1 = k1_pay1 (F := Ideal) (hblk1 V c t) (k1_pay5 (F := Ideal))
    ∧ (outsAt1 V c t.val t.isLt).2.2.2.2 = k1_pay2 (F := Ideal) (hblk1 V c t) (k1_pay6 (F := Ideal)) := by
  have hN := N1_lt t
  have hc0 : cond1_0 (grid1.coords t) := (hcond1_0 t).mpr (by rw [h0])
  have hc1 : ¬cond1_1 (grid1.coords t) := fun h => by have h' := (hcond1_1 t).mp h; omega
  rw [outsAt1_A V c t h0 hc0 hc1]
  dsimp only
  exact ⟨out1_A_9_eq (F := Ideal) c t hc0 hc1 (blk1_0 V c t) (blk1_1 V c t) (blk1_2 V c t) (blk1_3 V c t) (blk1_4 V c t) (blk1_5 V c t) (blk1_6 V c t) (blk1_7 V c t) (blk1_8 V c t),
    sout1_A_0_eq (F := Ideal) c t hc0 hc1 (blk1_0 V c t) (blk1_1 V c t) (blk1_2 V c t) (blk1_3 V c t) (blk1_4 V c t) (blk1_5 V c t) (blk1_6 V c t) (blk1_7 V c t) (blk1_8 V c t),
    sout1_A_1_eq (F := Ideal) c t hc0 hc1 (blk1_0 V c t) (blk1_1 V c t) (blk1_2 V c t) (blk1_3 V c t) (blk1_4 V c t) (blk1_5 V c t) (blk1_6 V c t) (blk1_7 V c t) (blk1_8 V c t)⟩

/-- After a middle point: the block, and each accumulator at what the point before left plus the block's column sums. -/
theorem outs1_mid (c : Dev nD) (t : Fin cfg1.N) (h0 : t.val ≠ 0) (h1 : ¬t.val % 50 = 49) :
    (outsAt1 V c t.val t.isLt).1 = hblk1 V c t
    ∧ (outsAt1 V c t.val t.isLt).2.2.2.1 = k1_pay1 (F := Ideal) (hblk1 V c t) (outsAt1 V c (t.val - 1) (Nat.lt_of_le_of_lt (Nat.sub_le _ _) t.isLt)).2.2.2.1
    ∧ (outsAt1 V c t.val t.isLt).2.2.2.2 = k1_pay2 (F := Ideal) (hblk1 V c t) (outsAt1 V c (t.val - 1) (Nat.lt_of_le_of_lt (Nat.sub_le _ _) t.isLt)).2.2.2.2 := by
  have hc0 : ¬cond1_0 (grid1.coords t) := later1_c0 t h0
  have hc1 : ¬cond1_1 (grid1.coords t) := fun h => h1 ((hcond1_1 t).mp h)
  rw [outsAt1_B V c t h0 h1 hc0 hc1]
  dsimp only
  exact ⟨out1_B_9_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_B_0_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_B_1_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2⟩

/-- After the last point: the block, the accumulators as at a middle point, and the two statistics rows from them. -/
theorem outs1_last (c : Dev nD) (t : Fin cfg1.N) (h0 : t.val ≠ 0) (h1 : t.val % 50 = 49) :
    (outsAt1 V c t.val t.isLt).1 = hblk1 V c t
    ∧ (outsAt1 V c t.val t.isLt).2.1 = k1_pay3 (F := Ideal) (outsAt1 V c t.val t.isLt).2.2.2.1
    ∧ (outsAt1 V c t.val t.isLt).2.2.1 = k1_pay4 (F := Ideal) (outsAt1 V c t.val t.isLt).2.2.2.1 (outsAt1 V c t.val t.isLt).2.2.2.2
    ∧ (outsAt1 V c t.val t.isLt).2.2.2.1 = k1_pay1 (F := Ideal) (hblk1 V c t) (outsAt1 V c (t.val - 1) (Nat.lt_of_le_of_lt (Nat.sub_le _ _) t.isLt)).2.2.2.1
    ∧ (outsAt1 V c t.val t.isLt).2.2.2.2 = k1_pay2 (F := Ideal) (hblk1 V c t) (outsAt1 V c (t.val - 1) (Nat.lt_of_le_of_lt (Nat.sub_le _ _) t.isLt)).2.2.2.2 := by
  have hc0 : ¬cond1_0 (grid1.coords t) := later1_c0 t h0
  have hc1 : cond1_1 (grid1.coords t) := (hcond1_1 t).mpr h1
  rw [outsAt1_C V c t h0 h1 hc0 hc1]
  dsimp only
  rw [sout1_C_0_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    sout1_C_1_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2]
  exact ⟨out1_C_9_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    out1_C_10_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2,
    out1_C_11_eq (F := Ideal) c t hc0 hc1 (blk1_0 V c t) (blk1_1 V c t) (blk1_2 V c t) (blk1_3 V c t) (blk1_4 V c t) (blk1_5 V c t) (blk1_6 V c t) (blk1_7 V c t) (blk1_8 V c t) (outsAt1 V c (t.val - 1) (Nat.lt_of_le_of_lt (Nat.sub_le _ _) t.isLt)).2.2.2.1 (outsAt1 V c (t.val - 1) (Nat.lt_of_le_of_lt (Nat.sub_le _ _) t.isLt)).2.2.2.2, rfl, rfl⟩

/-- The block output's staging buffer after any point holds the block computed there. -/
theorem outs1_blk (c : Dev nD) (t : Fin cfg1.N) : (outsAt1 V c t.val t.isLt).1 = hblk1 V c t := by
  by_cases h0 : t.val = 0
  · exact (outs1_first V c t h0).1
  · by_cases h1 : t.val % 50 = 49
    · exact (outs1_last V c t h0 h1).1
    · exact (outs1_mid V c t h0 h1).1

/-! ## The accumulators are the running column sums -/

/-- Column `q` of the combined layer, its rows numbered by natural numbers (zero past the last row), -/
noncomputable def colN1 (c : Dev nD) (q : Fin 256) : ℕ → EReal :=
  fun i => if h : i < 50000 then hOut1 V c (ix2 (⟨i, h⟩ : Fin 50000) q) else 0
/-- and the column of its squares. -/
noncomputable def colSq1 (c : Dev nD) (q : Fin 256) : ℕ → EReal :=
  fun i => if h : i < 50000 then hOut1 V c (ix2 (⟨i, h⟩ : Fin 50000) q) * hOut1 V c (ix2 (⟨i, h⟩ : Fin 50000) q) else 0

/-- The column sum of the block at point `t` is tile `t`'s sum. -/
theorem tile1 (c : Dev nD) (t : Fin cfg1.N) (q : Fin 256) :
    ∑ r : Fin 1000, hblk1 V c t (ix2 r q) = Sage.tileSum 1000 (colN1 V c q) t.val := by
  have hN := N1_lt t
  unfold Sage.tileSum
  rw [Finset.sum_range]
  refine Finset.sum_congr rfl fun r _ => ?_
  have hr : t.val * 1000 + r.val < 50000 := by have := r.isLt; omega
  rw [hblk1_at V c t r q hr]
  unfold colN1
  rw [dif_pos hr]
theorem tileSq1 (c : Dev nD) (t : Fin cfg1.N) (q : Fin 256) :
    ∑ r : Fin 1000, hblk1 V c t (ix2 r q) * hblk1 V c t (ix2 r q) = Sage.tileSum 1000 (colSq1 V c q) t.val := by
  have hN := N1_lt t
  unfold Sage.tileSum
  rw [Finset.sum_range]
  refine Finset.sum_congr rfl fun r _ => ?_
  have hr : t.val * 1000 + r.val < 50000 := by have := r.isLt; omega
  rw [hblk1_at V c t r q hr]
  unfold colSq1
  rw [dif_pos hr]

/-- After point `n` the two accumulators hold, at column `q`, the sums over the first `n + 1` tiles of the column and
    of its squares. -/
theorem accs1_eq (c : Dev nD) (q : Fin 256) : ∀ (n : ℕ) (hn : n < cfg1.N),
    (outsAt1 V c n hn).2.2.2.1 (ix2 (0 : Fin 1) q) = Sage.acc 1000 (colN1 V c q) (n + 1)
    ∧ (outsAt1 V c n hn).2.2.2.2 (ix2 (0 : Fin 1) q) = Sage.acc 1000 (colSq1 V c q) (n + 1)
  | 0, hn => by
    obtain ⟨-, e1, e2⟩ := outs1_first V c ⟨0, hn⟩ rfl
    have e1' : (outsAt1 V c 0 hn).2.2.2.1 = _ := e1
    have e2' : (outsAt1 V c 0 hn).2.2.2.2 = _ := e2
    rw [e1', e2']
    constructor
    · refine (pay1_1_at _ _ q).trans ?_
      rw [pay1_5_at, Sage.acc_succ, Sage.acc_zero, tile1 V c ⟨0, hn⟩ q]
    · refine (pay1_2_at _ _ q).trans ?_
      rw [pay1_6_at, Sage.acc_succ, Sage.acc_zero, tileSq1 V c ⟨0, hn⟩ q]
  | n + 1, hn => by
    obtain ⟨ih1, ih2⟩ := accs1_eq c q n (Nat.lt_of_succ_lt hn)
    have hs : (outsAt1 V c (n + 1) hn).2.2.2.1 = k1_pay1 (F := Ideal) (hblk1 V c ⟨n + 1, hn⟩) (outsAt1 V c n (Nat.lt_of_succ_lt hn)).2.2.2.1
        ∧ (outsAt1 V c (n + 1) hn).2.2.2.2 = k1_pay2 (F := Ideal) (hblk1 V c ⟨n + 1, hn⟩) (outsAt1 V c n (Nat.lt_of_succ_lt hn)).2.2.2.2 := by
      by_cases h1 : (n + 1) % 50 = 49
      · exact ⟨(outs1_last V c ⟨n + 1, hn⟩ (Nat.succ_ne_zero n) h1).2.2.2.1, (outs1_last V c ⟨n + 1, hn⟩ (Nat.succ_ne_zero n) h1).2.2.2.2⟩
      · exact ⟨(outs1_mid V c ⟨n + 1, hn⟩ (Nat.succ_ne_zero n) h1).2.1, (outs1_mid V c ⟨n + 1, hn⟩ (Nat.succ_ne_zero n) h1).2.2⟩
    rw [hs.1, hs.2]
    constructor
    · refine (pay1_1_at _ _ q).trans ?_
      rw [ih1, Sage.acc_succ _ _ (n + 1), tile1 V c ⟨n + 1, hn⟩ q]
    · refine (pay1_2_at _ _ q).trans ?_
      rw [ih2, Sage.acc_succ _ _ (n + 1), tileSq1 V c ⟨n + 1, hn⟩ q]

/-- All twenty tiles: the column's sum over all rows. -/
theorem acc_full1 (c : Dev nD) (q : Fin 256) :
    Sage.acc 1000 (colN1 V c q) 50 = ∑ r : Fin 50000, hOut1 V c (ix2 r q) := by
  rw [Sage.acc_eq_sum, show (50 * 1000 : ℕ) = 50000 from rfl, Finset.sum_range]
  refine Finset.sum_congr rfl fun r _ => ?_
  unfold colN1
  rw [dif_pos r.isLt]
theorem accSq_full1 (c : Dev nD) (q : Fin 256) :
    Sage.acc 1000 (colSq1 V c q) 50 = ∑ r : Fin 50000, hOut1 V c (ix2 r q) * hOut1 V c (ix2 r q) := by
  rw [Sage.acc_eq_sum, show (50 * 1000 : ℕ) = 50000 from rfl, Finset.sum_range]
  refine Finset.sum_congr rfl fun r _ => ?_
  unfold colSq1
  rw [dif_pos r.isLt]

/-! ## What a point writes back -/

/-- What point `t` writes back to the block output's array is block `t` of the combined layer. -/
theorem flushed1_9_eq (c : Dev nD) (t : Fin cfg1.N) :
    (dat1 (F := Ideal) V c).flushed 9 t = ((cfg1.win 9).blk t).view.read (Elt Ideal) (hOut1 V c) := by
  show (cfg1.win 9).cut (grid1.coords t) ((dat1 V c).after 9 t) = _
  rw [after1_9, outs1_blk V c t]
  have hN := N1_lt t
  obtain ⟨e0, e1⟩ := (idx_facts1 t).2.2.2.2.2.2.2.2.2.1
  funext j
  obtain ⟨p, q, rfl⟩ : ∃ (p : Fin 1000) (q : Fin 256), j = ix2 p q := ⟨j 0, j 1, eq_ix2 j⟩
  show hblk1 V c t (ix2 p q) = hOut1 V c (((cfg1.win 9).blk t).view.emb (ix2 p q))
  have hr : t.val * 1000 + p.val < 50000 := by have := p.isLt; omega
  rw [hblk1_at V c t p q hr]
  refine congrArg (hOut1 V c) (Shape.idx_ext₂ ?_ ?_)
  · show t.val * 1000 + p.val = win1_9.index t (0 : Fin 2) * 1000 + 1 * p.val; rw [e0]; omega
  · show q.val = win1_9.index t (1 : Fin 2) * 256 + 1 * q.val; rw [e1]; omega

/-- The mean row: each column's mean over the 50000 rows of the combined layer, -/
noncomputable def meanRow1 (h : S50000x256.Idx → EReal) : S1x256.Idx → EReal :=
  fun i => Sage.colMean (((50000 : ℝ) : EReal)) (fun r : Fin 50000 => h (ix2 r (i 1)))
/-- and the variance row: each column's mean of squares less its squared mean. -/
noncomputable def varRow1 (h : S50000x256.Idx → EReal) : S1x256.Idx → EReal :=
  fun i => Sage.colVarSq (((50000 : ℝ) : EReal)) (fun r : Fin 50000 => h (ix2 r (i 1)))

/-- A point that writes a statistics row back is the last one. -/
theorem last_of_flush1 (t : Fin cfg1.N) (h : t.val % 50 = 49) : t.val = 49 := by have := N1_lt t; omega

/-- What the last point writes back to the mean output's array is the mean row. -/
theorem flushed1_10_eq (c : Dev nD) (t : Fin cfg1.N) (hf : (cfg1.win 10).flush t = true) :
    (dat1 (F := Ideal) V c).flushed 10 t = ((cfg1.win 10).blk t).view.read (Elt Ideal) (meanRow1 (hOut1 V c)) := by
  have h1 : t.val % 50 = 49 := (flush1_10 t).mp hf
  have h19 : t.val = 49 := last_of_flush1 t h1
  show (cfg1.win 10).cut (grid1.coords t) ((dat1 V c).after 10 t) = _
  rw [after1_10, (outs1_last V c t (by omega) h1).2.1]
  obtain ⟨e0, e1⟩ := (idx_facts1 t).2.2.2.2.2.2.2.2.2.2.1
  funext j
  obtain ⟨u, q, rfl⟩ : ∃ (u : Fin 1) (q : Fin 256), j = ix2 u q := ⟨j 0, j 1, eq_ix2 j⟩
  obtain rfl : u = 0 := Subsingleton.elim _ _
  show k1_pay3 (F := Ideal) (outsAt1 V c t.val t.isLt).2.2.2.1 (ix2 (0 : Fin 1) q) = meanRow1 (hOut1 V c) (((cfg1.win 10).blk t).view.emb (ix2 (0 : Fin 1) q))
  have hq : ((((cfg1.win 10).blk t).view.emb (ix2 (0 : Fin 1) q) : S1x256.Idx) 1) = q :=
    Fin.ext (by show win1_10.index t (1 : Fin 2) * 256 + 1 * q.val = q.val; rw [e1]; omega)
  refine (pay1_3_at _ _).trans ?_
  unfold meanRow1 Sage.colMean
  rw [hq, (accs1_eq V c q t.val t.isLt).1, h19, acc_full1]
  simp only [rows1, Sage.ofBits_50000]

/-- What the last point writes back to the variance output's array is the variance row. -/
theorem flushed1_11_eq (c : Dev nD) (t : Fin cfg1.N) (hf : (cfg1.win 11).flush t = true) :
    (dat1 (F := Ideal) V c).flushed 11 t = ((cfg1.win 11).blk t).view.read (Elt Ideal) (varRow1 (hOut1 V c)) := by
  have h1 : t.val % 50 = 49 := (flush1_11 t).mp hf
  have h19 : t.val = 49 := last_of_flush1 t h1
  show (cfg1.win 11).cut (grid1.coords t) ((dat1 V c).after 11 t) = _
  rw [after1_11, (outs1_last V c t (by omega) h1).2.2.1]
  obtain ⟨e0, e1⟩ := (idx_facts1 t).2.2.2.2.2.2.2.2.2.2.2
  funext j
  obtain ⟨u, q, rfl⟩ : ∃ (u : Fin 1) (q : Fin 256), j = ix2 u q := ⟨j 0, j 1, eq_ix2 j⟩
  obtain rfl : u = 0 := Subsingleton.elim _ _
  show k1_pay4 (F := Ideal) (outsAt1 V c t.val t.isLt).2.2.2.1 (outsAt1 V c t.val t.isLt).2.2.2.2 (ix2 (0 : Fin 1) q) = varRow1 (hOut1 V c) (((cfg1.win 11).blk t).view.emb (ix2 (0 : Fin 1) q))
  have hq : ((((cfg1.win 11).blk t).view.emb (ix2 (0 : Fin 1) q) : S1x256.Idx) 1) = q :=
    Fin.ext (by show win1_11.index t (1 : Fin 2) * 256 + 1 * q.val = q.val; rw [e1]; omega)
  refine (pay1_4_at _ _ _).trans ?_
  unfold varRow1 Sage.colVarSq Sage.colMean
  rw [hq, (accs1_eq V c q t.val t.isLt).1, (accs1_eq V c q t.val t.isLt).2, h19, acc_full1, accSq_full1]
  simp only [rows1, Sage.ofBits_50000]

/-! ## From the blocks to the arrays -/

/-- An index of the block output's array is in point `t`'s block iff each coordinate is in the block's range on its axis. -/
theorem mem_blk1_9 (t : Fin cfg1.N) (i : S50000x256.Idx) :
    i ∈ ((cfg1.win 9).blk t).view.set ↔ ∀ a : Fin 2, win1_9.index t a * S1000x256.size a ≤ (i a).val ∧ (i a).val < win1_9.index t a * S1000x256.size a + S1000x256.size a := by
  show i ∈ ((View.whole (Pipeline.arrRef spec1 9)).slice (win1_9.rect t)).set ↔ _
  rw [View.set_slice_whole, Rect.mem_set_unit]
  exact Iff.rfl
theorem mem_blk1_10 (t : Fin cfg1.N) (i : S1x256.Idx) :
    i ∈ ((cfg1.win 10).blk t).view.set ↔ ∀ a : Fin 2, win1_10.index t a * S1x256.size a ≤ (i a).val ∧ (i a).val < win1_10.index t a * S1x256.size a + S1x256.size a := by
  show i ∈ ((View.whole (Pipeline.arrRef spec1 10)).slice (win1_10.rect t)).set ↔ _
  rw [View.set_slice_whole, Rect.mem_set_unit]
  exact Iff.rfl
theorem mem_blk1_11 (t : Fin cfg1.N) (i : S1x256.Idx) :
    i ∈ ((cfg1.win 11).blk t).view.set ↔ ∀ a : Fin 2, win1_11.index t a * S1x256.size a ≤ (i a).val ∧ (i a).val < win1_11.index t a * S1x256.size a + S1x256.size a := by
  show i ∈ ((View.whole (Pipeline.arrRef spec1 11)).slice (win1_11.rect t)).set ↔ _
  rw [View.set_slice_whole, Rect.mem_set_unit]
  exact Iff.rfl

/-- Row `r` of the block output's array is in the block of point `r / 1000`, which writes it back. -/
theorem covered1_9 (i : S50000x256.Idx) : ∃ t : Fin cfg1.N, (cfg1.win 9).flush t = true ∧ i ∈ ((cfg1.win 9).blk t).view.set := by
  have hi0 : (i 0).val < 50000 := (i 0).isLt
  have hi1 : (i 1).val < 256 := (i 1).isLt
  have hN : cfg1.N = 50 := N_1
  let t : Fin cfg1.N := ⟨(i 0).val / 1000, by rw [hN]; omega⟩
  obtain ⟨e0, e1⟩ := (idx_facts1 t).2.2.2.2.2.2.2.2.2.1
  have ht : t.val = (i 0).val / 1000 := rfl
  refine ⟨t, flush1_9 t, ?_⟩
  rw [mem_blk1_9]
  intro a
  match a with
  | ⟨0, _⟩ => show win1_9.index t (0 : Fin 2) * 1000 ≤ (i 0).val ∧ (i 0).val < win1_9.index t (0 : Fin 2) * 1000 + 1000; omega
  | ⟨1, _⟩ => show win1_9.index t (1 : Fin 2) * 256 ≤ (i 1).val ∧ (i 1).val < win1_9.index t (1 : Fin 2) * 256 + 256; omega

/-- The last point's block of a statistics output is its whole row. -/
theorem covered1_10 (i : S1x256.Idx) : ∃ t : Fin cfg1.N, (cfg1.win 10).flush t = true ∧ i ∈ ((cfg1.win 10).blk t).view.set := by
  have hi0 : (i 0).val < 1 := (i 0).isLt
  have hi1 : (i 1).val < 256 := (i 1).isLt
  have hN : cfg1.N = 50 := N_1
  let t : Fin cfg1.N := ⟨49, by rw [hN]; omega⟩
  obtain ⟨e0, e1⟩ := (idx_facts1 t).2.2.2.2.2.2.2.2.2.2.1
  refine ⟨t, (flush1_10 t).mpr rfl, ?_⟩
  rw [mem_blk1_10]
  intro a
  match a with
  | ⟨0, _⟩ => show win1_10.index t (0 : Fin 2) * 1 ≤ (i 0).val ∧ (i 0).val < win1_10.index t (0 : Fin 2) * 1 + 1; omega
  | ⟨1, _⟩ => show win1_10.index t (1 : Fin 2) * 256 ≤ (i 1).val ∧ (i 1).val < win1_10.index t (1 : Fin 2) * 256 + 256; omega
theorem covered1_11 (i : S1x256.Idx) : ∃ t : Fin cfg1.N, (cfg1.win 11).flush t = true ∧ i ∈ ((cfg1.win 11).blk t).view.set := by
  have hi0 : (i 0).val < 1 := (i 0).isLt
  have hi1 : (i 1).val < 256 := (i 1).isLt
  have hN : cfg1.N = 50 := N_1
  let t : Fin cfg1.N := ⟨49, by rw [hN]; omega⟩
  obtain ⟨e0, e1⟩ := (idx_facts1 t).2.2.2.2.2.2.2.2.2.2.2
  refine ⟨t, (flush1_11 t).mpr rfl, ?_⟩
  rw [mem_blk1_11]
  intro a
  match a with
  | ⟨0, _⟩ => show win1_11.index t (0 : Fin 2) * 1 ≤ (i 0).val ∧ (i 0).val < win1_11.index t (0 : Fin 2) * 1 + 1; omega
  | ⟨1, _⟩ => show win1_11.index t (1 : Fin 2) * 256 ≤ (i 1).val ∧ (i 1).val < win1_11.index t (1 : Fin 2) * 256 + 256; omega

/-- The block output's array after the region: the combined layer of the arrays as the region finds them. -/
theorem final1_9 (c : Dev nD) : (dat1 (F := Ideal) V c).arrAt 9 cfg1.N = hOut1 V c :=
  (dat1 (F := Ideal) V c).arrAt_eq_of_cover 9 _ (fun t _ => flushed1_9_eq V c t) covered1_9

/-- The mean output's array after the region: the combined layer's column means. -/
theorem final1_10 (c : Dev nD) : (dat1 (F := Ideal) V c).arrAt 10 cfg1.N = meanRow1 (hOut1 V c) :=
  (dat1 (F := Ideal) V c).arrAt_eq_of_cover 10 _ (fun t hf => flushed1_10_eq V c t hf) covered1_10

/-- The variance output's array after the region: the combined layer's column variances. -/
theorem final1_11 (c : Dev nD) : (dat1 (F := Ideal) V c).arrAt 11 cfg1.N = varRow1 (hOut1 V c) :=
  (dat1 (F := Ideal) V c).arrAt_eq_of_cover 11 _ (fun t hf => flushed1_11_eq V c t hf) covered1_11

/-- The same, entry by entry. -/
theorem final1_9_apply (c : Dev nD) (r : Fin 50000) (q : Fin 256) :
    ((dat1 (F := Ideal) V c).arrAt 9 cfg1.N : S50000x256.Idx → EReal) (ix2 r q)
      = Sage.rel (fun k : Fin 128 => agga1 V c (ix2 r k)) (fun k : Fin 128 => xdst1 V c (ix2 r k)) (fun k : Fin 128 => wla1 V c (ix2 k q)) (fun k : Fin 128 => wra1 V c (ix2 k q)) (bia1 V c (ix2 (0 : Fin 1) q))
        + Sage.rel (fun k : Fin 128 => aggb1 V c (ix2 r k)) (fun k : Fin 128 => xdst1 V c (ix2 r k)) (fun k : Fin 128 => wlb1 V c (ix2 k q)) (fun k : Fin 128 => wrb1 V c (ix2 k q)) (bib1 V c (ix2 (0 : Fin 1) q)) :=
  congrFun (final1_9 V c) (ix2 r q)
theorem final1_10_apply (c : Dev nD) (q : Fin 256) :
    ((dat1 (F := Ideal) V c).arrAt 10 cfg1.N : S1x256.Idx → EReal) (ix2 (0 : Fin 1) q)
      = Sage.colMean (((50000 : ℝ) : EReal)) (fun r : Fin 50000 => hOut1 V c (ix2 r q)) :=
  congrFun (final1_10 V c) (ix2 (0 : Fin 1) q)
theorem final1_11_apply (c : Dev nD) (q : Fin 256) :
    ((dat1 (F := Ideal) V c).arrAt 11 cfg1.N : S1x256.Idx → EReal) (ix2 (0 : Fin 1) q)
      = Sage.colVarSq (((50000 : ℝ) : EReal)) (fun r : Fin 50000 => hOut1 V c (ix2 r q)) :=
  congrFun (final1_11 V c) (ix2 (0 : Fin 1) q)

/-! ## The input arrays are kept -/

theorem kept1_0 (c : Dev nD) : (dat1 (F := Ideal) V c).arrAt 0 cfg1.N = V c (Pipeline.arrRef spec1 0) :=
  ((dat1 V c).arrAt_in 0 rfl _).trans (A_eq1 V c 0)
theorem kept1_1 (c : Dev nD) : (dat1 (F := Ideal) V c).arrAt 1 cfg1.N = V c (Pipeline.arrRef spec1 1) :=
  ((dat1 V c).arrAt_in 1 rfl _).trans (A_eq1 V c 1)
theorem kept1_2 (c : Dev nD) : (dat1 (F := Ideal) V c).arrAt 2 cfg1.N = V c (Pipeline.arrRef spec1 2) :=
  ((dat1 V c).arrAt_in 2 rfl _).trans (A_eq1 V c 2)
theorem kept1_3 (c : Dev nD) : (dat1 (F := Ideal) V c).arrAt 3 cfg1.N = V c (Pipeline.arrRef spec1 3) :=
  ((dat1 V c).arrAt_in 3 rfl _).trans (A_eq1 V c 3)
theorem kept1_4 (c : Dev nD) : (dat1 (F := Ideal) V c).arrAt 4 cfg1.N = V c (Pipeline.arrRef spec1 4) :=
  ((dat1 V c).arrAt_in 4 rfl _).trans (A_eq1 V c 4)
theorem kept1_5 (c : Dev nD) : (dat1 (F := Ideal) V c).arrAt 5 cfg1.N = V c (Pipeline.arrRef spec1 5) :=
  ((dat1 V c).arrAt_in 5 rfl _).trans (A_eq1 V c 5)
theorem kept1_6 (c : Dev nD) : (dat1 (F := Ideal) V c).arrAt 6 cfg1.N = V c (Pipeline.arrRef spec1 6) :=
  ((dat1 V c).arrAt_in 6 rfl _).trans (A_eq1 V c 6)
theorem kept1_7 (c : Dev nD) : (dat1 (F := Ideal) V c).arrAt 7 cfg1.N = V c (Pipeline.arrRef spec1 7) :=
  ((dat1 V c).arrAt_in 7 rfl _).trans (A_eq1 V c 7)
theorem kept1_8 (c : Dev nD) : (dat1 (F := Ideal) V c).arrAt 8 cfg1.N = V c (Pipeline.arrRef spec1 8) :=
  ((dat1 V c).arrAt_in 8 rfl _).trans (A_eq1 V c 8)

end Cert.KernelIdeal.Hand

end
-- ==== Proof.CmpL1T1.lean ====
/-
  Layer 1 compared: on a core where the two launch memories agree on the arguments, each relation's aggregation is
  the same function of the same operands in both programs, and for each node type the array the kernel's combine region
  leaves is the reference's sum of relation stages and the array its normalisation region leaves the reference's result.
-/
import proofs.«126569_j1468878815453_1_alg».proof.Proof.CmpA1
import proofs.«126569_j1468878815453_1_alg».proof.Proof.KI.ReadL1b
import proofs.«126569_j1468878815453_1_alg».proof.Proof.KI.Val1
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 1, the node type of 50000 rows: the kernel's relation sums are the reference's, and its normalised result the reference's. -/
theorem l1_1 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kH1_1 m ρ c = Cert.ReferenceIdeal.Hand.rH1_protein m' c ∧ Cert.KernelIdeal.Hand.kOut1_1 m ρ c = Cert.ReferenceIdeal.Hand.rOut1_protein m' c := by
  have ea0 := agg1_1 m ρ m' c hag
  have ea1 := agg1_6 m ρ m' c hag
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH1_1 m ρ c = Cert.KernelIdeal.Hand.hArr1 (Cert.KernelIdeal.Hand.kAgg1_1 m ρ c) (Cert.KernelIdeal.Hand.kAgg1_6 m ρ c) (m ((c.tc : Thread Cert.KernelIdeal.nD Cert.KernelIdeal.τ).loc Cert.KernelIdeal.main_arg1)) (Cert.KernelIdeal.Hand.kWl1_1 m ρ c) (Cert.KernelIdeal.Hand.kWl1_6 m ρ c) (Cert.KernelIdeal.Hand.kWr1_1 m ρ c) (Cert.KernelIdeal.Hand.kWr1_6 m ρ c) (Cert.KernelIdeal.Hand.kB1_1 m ρ c) (Cert.KernelIdeal.Hand.kB1_6 m ρ c) :=
    (Cert.KernelIdeal.Hand.final1_9 (Cert.KernelIdeal.Hand.V3 m ρ) c).trans (Sage.cmp9 Cert.KernelIdeal.Hand.hArr1 (Cert.KernelIdeal.Hand.ent1_0 m ρ c) (Cert.KernelIdeal.Hand.ent1_1 m ρ c) (Cert.KernelIdeal.Hand.ent1_2 m ρ c) (Cert.KernelIdeal.Hand.ent1_3 m ρ c) (Cert.KernelIdeal.Hand.ent1_4 m ρ c) (Cert.KernelIdeal.Hand.ent1_5 m ρ c) (Cert.KernelIdeal.Hand.ent1_6 m ρ c) (Cert.KernelIdeal.Hand.ent1_7 m ρ c) (Cert.KernelIdeal.Hand.ent1_8 m ρ c))
  exact Sage.node2_eq (n := 50000) (k := 128) (m := 256) (R := 7) (i0 := 1) (i1 := 6)
    Cert.ReferenceIdeal.dot_S50000x128_S128x256_S50000x256_1_0_0_1_n_n Cert.ReferenceIdeal.Gen.slices_S7x128x256_S1x128x256_1_0_0 Cert.ReferenceIdeal.Gen.slices_S7x128x256_S1x128x256_6_0_0 Cert.ReferenceIdeal.Gen.shapeCasts_S1x128x256_S128x256
    Cert.ReferenceIdeal.Gen.slices_S7x256_S1x256_1_0 Cert.ReferenceIdeal.Gen.slices_S7x256_S1x256_6_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S50000x256_0_1
    (Ideal.ofBits .f32 0x3727C5AC#32) 50000 Cert.ReferenceIdeal.Hand.refBn50000 rfl (by decide) (by decide)
    (fun H hH g beta r q => Cert.ReferenceIdeal.Hand.refBn50000_eq_sq H hH g beta r q)
    (Cert.KernelIdeal.Hand.kAgg1_1 m ρ c) (Cert.KernelIdeal.Hand.kAgg1_6 m ρ c) (m ((c.tc : Thread Cert.KernelIdeal.nD Cert.KernelIdeal.τ).loc Cert.KernelIdeal.main_arg1)) (Cert.ReferenceIdeal.Hand.rAgg1_1 m' c) (Cert.ReferenceIdeal.Hand.rAgg1_6 m' c) (Cert.ReferenceIdeal.Hand.inX_protein m' c)
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.Hand.inW1l m' c) (Cert.ReferenceIdeal.Hand.inW1r m' c) (m ((c.tc : Thread Cert.KernelIdeal.nD Cert.KernelIdeal.τ).loc Cert.KernelIdeal.main_arg6)) (Cert.ReferenceIdeal.Hand.inB1 m' c)
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (Cert.ReferenceIdeal.Hand.inG1 m' c) (Cert.ReferenceIdeal.Hand.inBeta1 m' c)
    ea0 ea1 h1.symm h4.symm h5.symm h6.symm h10.symm h11.symm
    (Cert.ReferenceIdeal.Hand.rAgg1_1_allReal hreal) (Cert.ReferenceIdeal.Hand.rAgg1_6_allReal hreal) hreal.x_protein hreal.w1l hreal.w1r hreal.b1
    (Cert.KernelIdeal.Hand.kH1_1 m ρ c) (Cert.KernelIdeal.Hand.kOut1_1 m ρ c) (Cert.KernelIdeal.Hand.kMean1_1 m ρ c) (Cert.KernelIdeal.Hand.kVar1_1 m ρ c) (Cert.KernelIdeal.Hand.kG1_1 m ρ c) (Cert.KernelIdeal.Hand.kBeta1_1 m ρ c)
    (fun r q => congrFun hHk (ix2 r q))
    (fun q => (Cert.KernelIdeal.Hand.final1_10_apply (Cert.KernelIdeal.Hand.V3 m ρ) c q).trans
      (congrArg (fun H : Cert.ReferenceIdeal.S50000x256.Idx → EReal => Sage.colMean ((50000 : ℝ) : EReal) fun r : Fin 50000 => H (ix2 r q)) (Cert.KernelIdeal.Hand.final1_9 (Cert.KernelIdeal.Hand.V3 m ρ) c).symm))
    (fun q => (Cert.KernelIdeal.Hand.final1_11_apply (Cert.KernelIdeal.Hand.V3 m ρ) c q).trans
      (congrArg (fun H : Cert.ReferenceIdeal.S50000x256.Idx → EReal => Sage.colVarSq ((50000 : ℝ) : EReal) fun r : Fin 50000 => H (ix2 r q)) (Cert.KernelIdeal.Hand.final1_9 (Cert.KernelIdeal.Hand.V3 m ρ) c).symm))
    (fun q => Sage.row_of_vec_apply (m ((c.tc : Thread Cert.KernelIdeal.nD Cert.KernelIdeal.τ).loc Cert.KernelIdeal.main_arg10)) Cert.KernelIdeal.Gen.shapeCasts_S256_S1x256 q)
    (fun q => Sage.row_of_vec_apply (m ((c.tc : Thread Cert.KernelIdeal.nD Cert.KernelIdeal.τ).loc Cert.KernelIdeal.main_arg11)) Cert.KernelIdeal.Gen.shapeCasts_S256_S1x256 q)
    (fun _ _ => rfl)

end Cert.Proof

end
-- ==== Proof.KI.Val2Pay.lean ====
import proofs.«126569_j1468878815453_1_alg».proof.Proof.KI.Reg2Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 2 (the layer-1 combine of a 10000-row node type in 10 row blocks): the payloads at an index

At the ideal instance: the nine input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x128 block with a 128x256 matrix -/

/-- The dot's dimension numbers: rows by the shared axis, the shared axis by columns. -/
noncomputable abbrev D2 : DotDims S1000x128 S128x256 S1000x256 := dot_S1000x128_S128x256_S1000x256_1_0_0_1_n_n

theorem D2_rank : D2.contr.rank = 1 := rfl
theorem D2_size : D2.contr.size ⟨0, by rw [D2_rank]; exact Nat.one_pos⟩ = 128 := rfl

/-- The left operand's index at output `j` and contraction index `k`: row `j 0`, column `k`; -/
theorem lhs_D2_0 (j : S1000x256.Idx) (k : D2.contr.Idx) : ((D2.lhsIdx j k 0 : Fin 1000) : ℕ) = (j 0 : Fin 1000) := rfl
theorem lhs_D2_1 (j : S1000x256.Idx) (k : D2.contr.Idx) : ((D2.lhsIdx j k 1 : Fin 128) : ℕ) = (k ⟨0, by rw [D2_rank]; exact Nat.one_pos⟩).val :=
  DotDims.lhsIdx_val_of_single D2 rfl j k
/-- the right operand's: row `k`, column `j 1`. -/
theorem rhs_D2_0 (j : S1000x256.Idx) (k : D2.contr.Idx) : ((D2.rhsIdx j k 0 : Fin 128) : ℕ) = (k ⟨0, by rw [D2_rank]; exact Nat.one_pos⟩).val :=
  DotDims.rhsIdx_val_of_single D2 rfl j k
theorem rhs_D2_1 (j : S1000x256.Idx) (k : D2.contr.Idx) : ((D2.rhsIdx j k 1 : Fin 256) : ℕ) = (j 1 : Fin 256) := rfl

/-- The product into a zero accumulator, at row `p` and column `q`: the row of the left operand against the column
    of the right one. -/
theorem matmul2_at (L : S1000x128.Idx → EReal) (R : S128x256.Idx → EReal) (p : Fin 1000) (q : Fin 256) :
    matmul (F := Ideal) (φ₁ := .f32) (φ₂ := .f32) D2 none L R (constant S1000x256 .f32 0x00000000#32) (ix2 p q)
      = ∑ k : Fin 128, L (ix2 p k) * R (ix2 k q) := by
  show FloatOps.matmul (F := Ideal) (φ₁ := .f32) (φ₂ := .f32) D2 none L R (constant S1000x256 .f32 0x00000000#32) (ix2 p q) = _
  rw [Ideal.matmul_constant_zero_apply, ← Equiv.sum_comp (contrEquiv1 D2 128 D2_rank D2_size).symm]
  refine Finset.sum_congr rfl fun k _ => ?_
  have hk := contrEquiv1_symm_val D2 128 D2_rank D2_size k
  have eL : D2.lhsIdx (ix2 p q) ((contrEquiv1 D2 128 D2_rank D2_size).symm k) = ix2 p k :=
    Shape.idx_ext₂ (lhs_D2_0 _ _) ((lhs_D2_1 _ _).trans hk)
  have eR : D2.rhsIdx (ix2 p q) ((contrEquiv1 D2 128 D2_rank D2_size).symm k) = ix2 k q :=
    Shape.idx_ext₂ ((rhs_D2_0 _ _).trans hk) (rhs_D2_1 _ _)
  rw [eL, eR]

/-! ## The payloads at an index -/

/-- The block output's payload at row `p`, column `q`: the two relations' contributions to that entry, added. The
    operands are the first aggregate's block, the first left weights, the first bias row, the destination's block, the
    first right weights, then the second relation's five in the same order. -/
theorem pay2_7_at (a0 a1 x : S1000x128.Idx → EReal) (wl0 wl1 wr0 wr1 : S128x256.Idx → EReal) (b0 b1 : S1x256.Idx → EReal)
    (p : Fin 1000) (q : Fin 256) :
    k2_pay7 (F := Ideal) a0 wl0 b0 x wr0 a1 wl1 b1 x wr1 (ix2 p q)
      = Sage.rel (fun k : Fin 128 => a0 (ix2 p k)) (fun k : Fin 128 => x (ix2 p k)) (fun k : Fin 128 => wl0 (ix2 k q)) (fun k : Fin 128 => wr0 (ix2 k q)) (b0 (ix2 (0 : Fin 1) q))
        + Sage.rel (fun k : Fin 128 => a1 (ix2 p k)) (fun k : Fin 128 => x (ix2 p k)) (fun k : Fin 128 => wl1 (ix2 k q)) (fun k : Fin 128 => wr1 (ix2 k q)) (b1 (ix2 (0 : Fin 1) q)) := by
  unfold k2_pay7
  simp only [addf_apply, shapeCast_self, broadcastTo_1b_ab_apply, matmul2_at]
  rfl

/-- A 1000x256 block's column sums, as a row: at column `q` the sum over the block's rows. -/
theorem colsum2_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the block's column sum. -/
theorem pay2_1_at (acc : S1000x256.Idx → EReal) (s : S1x256.Idx → EReal) (q : Fin 256) :
    k2_pay1 (F := Ideal) acc s (ix2 (0 : Fin 1) q) = s (ix2 (0 : Fin 1) q) + ∑ r : Fin 1000, acc (ix2 r q) := by
  unfold k2_pay1
  simp only [shapeCast_self, addf_apply]
  exact congrArg (s (ix2 (0 : Fin 1) q) + ·) (colsum2_at acc q)

/-- The second accumulator's payload at column `q`: what it held plus the column sum of the block's squares. -/
theorem pay2_2_at (acc : S1000x256.Idx → EReal) (s : S1x256.Idx → EReal) (q : Fin 256) :
    k2_pay2 (F := Ideal) acc s (ix2 (0 : Fin 1) q) = s (ix2 (0 : Fin 1) q) + ∑ r : Fin 1000, acc (ix2 r q) * acc (ix2 r q) := by
  unfold k2_pay2
  simp only [shapeCast_self, addf_apply]
  exact congrArg (s (ix2 (0 : Fin 1) q) + ·) ((colsum2_at (mulf (F := Ideal) (s := S1000x256) (φ := .f32) acc acc) q).trans rfl)

/-- The two resets store zeros. -/
theorem pay2_5_at (i : S1x256.Idx) : k2_pay5 (F := Ideal) i = 0 := by
  unfold k2_pay5
  simp only [shapeCast_self, broadcast_apply]
  exact Ideal.ofBits_zero_f32
theorem pay2_6_at (i : S1x256.Idx) : k2_pay6 (F := Ideal) i = 0 := by
  unfold k2_pay6
  simp only [shapeCast_self, broadcast_apply]
  exact Ideal.ofBits_zero_f32

/-- The row count the statistics divide by, as the body writes it. -/
noncomputable abbrev rows2 : EReal := Ideal.ofBits .f32 0x461C4000#32

/-- The mean output's payload at an index: the first accumulator's entry over the row count. -/
theorem pay2_3_at (s0 : S1x256.Idx → EReal) (i : S1x256.Idx) : k2_pay3 (F := Ideal) s0 i = Ideal.div (s0 i) rows2 := by
  unfold k2_pay3
  simp only [divf_apply, broadcast_apply]
  rfl

/-- The variance output's payload at an index: the second accumulator's entry over the row count, less the squared mean. -/
theorem pay2_4_at (s0 s1 : S1x256.Idx → EReal) (i : S1x256.Idx) :
    k2_pay4 (F := Ideal) s0 s1 i = Ideal.div (s1 i) rows2 - Ideal.div (s0 i) rows2 * Ideal.div (s0 i) rows2 := by
  unfold k2_pay4
  simp only [subf_apply, mulf_apply, divf_apply, broadcast_apply, pay2_3_at]
  rfl

/-! ## The arrays as the region finds them -/

-- the TensorCore's buffer contents when the region is entered
variable (V : (c : Dev nD) → (b : Ref sig .tc) → Buf (Elt Ideal) ((c : Thread nD τ).loc b))

/-- The first relation's aggregated sources, -/
noncomputable abbrev agga2 (c : Dev nD) : S10000x128.Idx → EReal := V c (Pipeline.arrRef spec2 0)
/-- the second relation's, -/
noncomputable abbrev aggb2 (c : Dev nD) : S10000x128.Idx → EReal := V c (Pipeline.arrRef spec2 1)
/-- the destination's own features, -/
noncomputable abbrev xdst2 (c : Dev nD) : S10000x128.Idx → EReal := V c (Pipeline.arrRef spec2 2)
/-- the two relations' left weights, -/
noncomputable abbrev wla2 (c : Dev nD) : S128x256.Idx → EReal := V c (Pipeline.arrRef spec2 3)
noncomputable abbrev wlb2 (c : Dev nD) : S128x256.Idx → EReal := V c (Pipeline.arrRef spec2 4)
/-- their right weights, -/
noncomputable abbrev wra2 (c : Dev nD) : S128x256.Idx → EReal := V c (Pipeline.arrRef spec2 5)
noncomputable abbrev wrb2 (c : Dev nD) : S128x256.Idx → EReal := V c (Pipeline.arrRef spec2 6)
/-- and their bias rows. -/
noncomputable abbrev bia2 (c : Dev nD) : S1x256.Idx → EReal := V c (Pipeline.arrRef spec2 7)
noncomputable abbrev bib2 (c : Dev nD) : S1x256.Idx → EReal := V c (Pipeline.arrRef spec2 8)

/-- The input windows' blocks at a point, by their literal types. -/
noncomputable abbrev blk2_0 (c : Dev nD) (t : Fin cfg2.N) : S1000x128.Idx → EReal := iblk2 V c 0 t
noncomputable abbrev blk2_1 (c : Dev nD) (t : Fin cfg2.N) : S1000x128.Idx → EReal := iblk2 V c 1 t
noncomputable abbrev blk2_2 (c : Dev nD) (t : Fin cfg2.N) : S1000x128.Idx → EReal := iblk2 V c 2 t
noncomputable abbrev blk2_3 (c : Dev nD) (t : Fin cfg2.N) : S128x256.Idx → EReal := iblk2 V c 3 t
noncomputable abbrev blk2_4 (c : Dev nD) (t : Fin cfg2.N) : S128x256.Idx → EReal := iblk2 V c 4 t
noncomputable abbrev blk2_5 (c : Dev nD) (t : Fin cfg2.N) : S128x256.Idx → EReal := iblk2 V c 5 t
noncomputable abbrev blk2_6 (c : Dev nD) (t : Fin cfg2.N) : S128x256.Idx → EReal := iblk2 V c 6 t
noncomputable abbrev blk2_7 (c : Dev nD) (t : Fin cfg2.N) : S1x256.Idx → EReal := iblk2 V c 7 t
noncomputable abbrev blk2_8 (c : Dev nD) (t : Fin cfg2.N) : S1x256.Idx → EReal := iblk2 V c 8 t

/-! ## The blocks' places in their arrays -/

theorem hz2 : (![0, 0] : Fin 2 → Nat) = fun _ => 0 := funext fun a => by fin_cases a <;> rfl

/-- The printed index maps, decided over the grid: the three row-blocked inputs' and the block output's block at point
    `t` is row block `t`; every other window's one block is its whole array. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-- Row `p`, column `k` of the first aggregate's block at point `t` is the array's entry at row `1000 t + p`. -/
theorem blk2_0_at (c : Dev nD) (t : Fin cfg2.N) (p : Fin 1000) (k : Fin 128) (hr : t.val * 1000 + p.val < 10000) :
    blk2_0 V c t (ix2 p k) = agga2 V c (ix2 (⟨t.val * 1000 + p.val, hr⟩ : Fin 10000) k) := by
  obtain ⟨e0, e1⟩ := (idx_facts2 t).1
  show iblk2 V c 0 t (ix2 p k) = _
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1000 + 1 * p.val = t.val * 1000 + p.val; rw [e0]; omega
  | ⟨1, _⟩ => show win2_0.index t (1 : Fin 2) * 128 + 1 * k.val = k.val; rw [e1]; omega

/-- Row `p`, column `k` of the second aggregate's block at point `t` is the array's entry at row `1000 t + p`. -/
theorem blk2_1_at (c : Dev nD) (t : Fin cfg2.N) (p : Fin 1000) (k : Fin 128) (hr : t.val * 1000 + p.val < 10000) :
    blk2_1 V c t (ix2 p k) = aggb2 V c (ix2 (⟨t.val * 1000 + p.val, hr⟩ : Fin 10000) k) := by
  obtain ⟨e0, e1⟩ := (idx_facts2 t).2.1
  show iblk2 V c 1 t (ix2 p k) = _
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1000 + 1 * p.val = t.val * 1000 + p.val; rw [e0]; omega
  | ⟨1, _⟩ => show win2_1.index t (1 : Fin 2) * 128 + 1 * k.val = k.val; rw [e1]; omega

/-- Row `p`, column `k` of the destination's block at point `t` is the array's entry at row `1000 t + p`. -/
theorem blk2_2_at (c : Dev nD) (t : Fin cfg2.N) (p : Fin 1000) (k : Fin 128) (hr : t.val * 1000 + p.val < 10000) :
    blk2_2 V c t (ix2 p k) = xdst2 V c (ix2 (⟨t.val * 1000 + p.val, hr⟩ : Fin 10000) k) := by
  obtain ⟨e0, e1⟩ := (idx_facts2 t).2.2.1
  show iblk2 V c 2 t (ix2 p k) = _
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1000 + 1 * p.val = t.val * 1000 + p.val; rw [e0]; omega
  | ⟨1, _⟩ => show win2_2.index t (1 : Fin 2) * 128 + 1 * k.val = k.val; rw [e1]; omega

/-- Window 3's one block, at any point, is its whole array. -/
theorem blk2_3_eq (c : Dev nD) (t : Fin cfg2.N) : blk2_3 V c t = wla2 V c := by
  obtain ⟨e0, e1⟩ := (idx_facts2 t).2.2.2.1
  funext j
  obtain ⟨k, q, rfl⟩ : ∃ (k : Fin 128) (q : Fin 256), j = ix2 k q := ⟨j 0, j 1, eq_ix2 j⟩
  show iblk2 V c 3 t (ix2 k q) = _
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 128 + 1 * k.val = k.val; rw [e0]; omega
  | ⟨1, _⟩ => show win2_3.index t (1 : Fin 2) * 256 + 1 * q.val = q.val; rw [e1]; omega

/-- Window 4's one block, at any point, is its whole array. -/
theorem blk2_4_eq (c : Dev nD) (t : Fin cfg2.N) : blk2_4 V c t = wlb2 V c := by
  obtain ⟨e0, e1⟩ := (idx_facts2 t).2.2.2.2.1
  funext j
  obtain ⟨k, q, rfl⟩ : ∃ (k : Fin 128) (q : Fin 256), j = ix2 k q := ⟨j 0, j 1, eq_ix2 j⟩
  show iblk2 V c 4 t (ix2 k q) = _
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 128 + 1 * k.val = k.val; rw [e0]; omega
  | ⟨1, _⟩ => show win2_4.index t (1 : Fin 2) * 256 + 1 * q.val = q.val; rw [e1]; omega

/-- Window 5's one block, at any point, is its whole array. -/
theorem blk2_5_eq (c : Dev nD) (t : Fin cfg2.N) : blk2_5 V c t = wra2 V c := by
  obtain ⟨e0, e1⟩ := (idx_facts2 t).2.2.2.2.2.1
  funext j
  obtain ⟨k, q, rfl⟩ : ∃ (k : Fin 128) (q : Fin 256), j = ix2 k q := ⟨j 0, j 1, eq_ix2 j⟩
  show iblk2 V c 5 t (ix2 k q) = _
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 128 + 1 * k.val = k.val; rw [e0]; omega
  | ⟨1, _⟩ => show win2_5.index t (1 : Fin 2) * 256 + 1 * q.val = q.val; rw [e1]; omega

/-- Window 6's one block, at any point, is its whole array. -/
theorem blk2_6_eq (c : Dev nD) (t : Fin cfg2.N) : blk2_6 V c t = wrb2 V c := by
  obtain ⟨e0, e1⟩ := (idx_facts2 t).2.2.2.2.2.2.1
  funext j
  obtain ⟨k, q, rfl⟩ : ∃ (k : Fin 128) (q : Fin 256), j = ix2 k q := ⟨j 0, j 1, eq_ix2 j⟩
  show iblk2 V c 6 t (ix2 k q) = _
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 128 + 1 * k.val = k.val; rw [e0]; omega
  | ⟨1, _⟩ => show win2_6.index t (1 : Fin 2) * 256 + 1 * q.val = q.val; rw [e1]; omega

/-- Window 7's one block, at any point, is its whole row. -/
theorem blk2_7_eq (c : Dev nD) (t : Fin cfg2.N) : blk2_7 V c t = bia2 V c := by
  obtain ⟨e0, e1⟩ := (idx_facts2 t).2.2.2.2.2.2.2.1
  funext j
  obtain ⟨u, q, rfl⟩ : ∃ (u : Fin 1) (q : Fin 256), j = ix2 u q := ⟨j 0, j 1, eq_ix2 j⟩
  show iblk2 V c 7 t (ix2 u q) = _
  unfold iblk2
  rw [View.read_apply]
  show V c (Pipeline.arrRef spec2 7) _ = V c (Pipeline.arrRef spec2 7) _
  congr 1
  funext a
  apply Fin.ext
  match a with
  | ⟨0, _⟩ => show win2_7.index t (0 : Fin 2) * 1 + 1 * u.val = u.val; rw [e0]; omega
  | ⟨1, _⟩ => show win2_7.index t (1 : Fin 2) * 256 + 1 * q.val = q.val; rw [e1]; omega

/-- Window 8's one block, at any point, is its whole row. -/
theorem blk2_8_eq (c : Dev nD) (t : Fin cfg2.N) : blk2_8 V c t = bib2 V c := by
  obtain ⟨e0, e1⟩ := (idx_facts2 t).2.2.2.2.2.2.2.2.1
  funext j
  obtain ⟨u, q, rfl⟩ : ∃ (u : Fin 1) (q : Fin 256), j = ix2 u q := ⟨j 0, j 1, eq_ix2 j⟩
  show iblk2 V c 8 t (ix2 u q) = _
  unfold iblk2
  rw [View.read_apply]
  show V c (Pipeline.arrRef spec2 8) _ = V c (Pipeline.arrRef spec2 8) _
  congr 1
  funext a
  apply Fin.ext
  match a with
  | ⟨0, _⟩ => show win2_8.index t (0 : Fin 2) * 1 + 1 * u.val = u.val; rw [e0]; omega
  | ⟨1, _⟩ => show win2_8.index t (1 : Fin 2) * 256 + 1 * q.val = q.val; rw [e1]; omega

end Cert.KernelIdeal.Hand

end
-- ==== Proof.KI.Val2.lean ====
import proofs.«126569_j1468878815453_1_alg».proof.Proof.KI.Reg2
import proofs.«126569_j1468878815453_1_alg».proof.Proof.KI.Val2Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 2 (the layer-1 combine of a 10000-row node type in 10 row blocks), the value

What each control case's stores leave, as the body's payloads of the input blocks and of what the accumulators held;
the accumulators after a point as running column sums; at the ideal instance, the three output arrays after the
region as functions of the nine input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

theorem hzP2 : (![0, 0] : Fin 2 → Nat) = fun _ => 0 := funext fun a => by fin_cases a <;> rfl

theorem out2_A_9_eq (c : Dev nD) (t : Fin cfg2.N) (hc0 : cond2_0 (grid2.coords t)) (hc1 : ¬cond2_1 (grid2.coords t)) (x0 x1 x2 : Vec F S1000x128 .f32) (x3 x4 x5 x6 : Vec F S128x256 .f32) (x7 x8 : Vec F S1x256 .f32)  :
    out2_A_9 c t hc0 hc1 x0 x1 x2 x3 x4 x5 x6 x7 x8  = (k2_pay7 x0 x3 x7 x2 x5 x1 x4 x8 x2 x6) := by
  unfold out2_A_9
  rw [View.read_writes_eq_canon _ _ _ (cover2_A_9 c t hc0 hc1 x0 x1 x2 x3 x4 x5 x6 x7 x8 )]
  unfold runAt2_A kernelRun2_A
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]

theorem sout2_A_0_eq (c : Dev nD) (t : Fin cfg2.N) (hc0 : cond2_0 (grid2.coords t)) (hc1 : ¬cond2_1 (grid2.coords t)) (x0 x1 x2 : Vec F S1000x128 .f32) (x3 x4 x5 x6 : Vec F S128x256 .f32) (x7 x8 : Vec F S1x256 .f32)  :
    sout2_A_0 c t hc0 hc1 x0 x1 x2 x3 x4 x5 x6 x7 x8  = k2_pay1 (k2_pay7 x0 x3 x7 x2 x5 x1 x4 x8 x2 x6) (k2_pay5 (F := F)) := by
  unfold sout2_A_0
  rw [View.read_writes_eq_canon _ _ _ (scover2_A_0 c t hc0 hc1 x0 x1 x2 x3 x4 x5 x6 x7 x8 )]
  unfold runAt2_A kernelRun2_A
  dsimp only
  try sl_unfold_words
  rw [View.canon_cons_unit_zero (S := S1x256) hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]

theorem sout2_A_1_eq (c : Dev nD) (t : Fin cfg2.N) (hc0 : cond2_0 (grid2.coords t)) (hc1 : ¬cond2_1 (grid2.coords t)) (x0 x1 x2 : Vec F S1000x128 .f32) (x3 x4 x5 x6 : Vec F S128x256 .f32) (x7 x8 : Vec F S1x256 .f32)  :
    sout2_A_1 c t hc0 hc1 x0 x1 x2 x3 x4 x5 x6 x7 x8  = k2_pay2 (k2_pay7 x0 x3 x7 x2 x5 x1 x4 x8 x2 x6) (k2_pay6 (F := F)) := by
  unfold sout2_A_1
  rw [View.read_writes_eq_canon _ _ _ (scover2_A_1 c t hc0 hc1 x0 x1 x2 x3 x4 x5 x6 x7 x8 )]
  unfold runAt2_A kernelRun2_A
  dsimp only
  try sl_unfold_words
  rw [View.canon_cons_unit_zero (S := S1x256) hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]

theorem out2_B_9_eq (c : Dev nD) (t : Fin cfg2.N) (hc0 : ¬cond2_0 (grid2.coords t)) (hc1 : ¬cond2_1 (grid2.coords t)) (x0 x1 x2 : Vec F S1000x128 .f32) (x3 x4 x5 x6 : Vec F S128x256 .f32) (x7 x8 : Vec F S1x256 .f32) (xs0 xs1 : Vec F S1x256 .f32) :
    out2_B_9 c t hc0 hc1 x0 x1 x2 x3 x4 x5 x6 x7 x8 xs0 xs1 = (k2_pay7 x0 x3 x7 x2 x5 x1 x4 x8 x2 x6) := by
  unfold out2_B_9
  rw [View.read_writes_eq_canon _ _ _ (cover2_B_9 c t hc0 hc1 x0 x1 x2 x3 x4 x5 x6 x7 x8 xs0 xs1)]
  unfold runAt2_B kernelRun2_B
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]

theorem sout2_B_0_eq (c : Dev nD) (t : Fin cfg2.N) (hc0 : ¬cond2_0 (grid2.coords t)) (hc1 : ¬cond2_1 (grid2.coords t)) (x0 x1 x2 : Vec F S1000x128 .f32) (x3 x4 x5 x6 : Vec F S128x256 .f32) (x7 x8 : Vec F S1x256 .f32) (xs0 xs1 : Vec F S1x256 .f32) :
    sout2_B_0 c t hc0 hc1 x0 x1 x2 x3 x4 x5 x6 x7 x8 xs0 xs1 = k2_pay1 (k2_pay7 x0 x3 x7 x2 x5 x1 x4 x8 x2 x6) xs0 := by
  unfold sout2_B_0
  rw [View.read_writes_eq_canon _ _ _ (scover2_B_0 c t hc0 hc1 x0 x1 x2 x3 x4 x5 x6 x7 x8 xs0 xs1)]
  unfold runAt2_B kernelRun2_B
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]
  simp only [show View.read (Elt F) (View.whole cc2_scratch0) ((Memref.isWhole_whole cc2_scratch0).unread xs0) = xs0 from (Memref.isWhole_whole cc2_scratch0).read_unread xs0]

theorem sout2_B_1_eq (c : Dev nD) (t : Fin cfg2.N) (hc0 : ¬cond2_0 (grid2.coords t)) (hc1 : ¬cond2_1 (grid2.coords t)) (x0 x1 x2 : Vec F S1000x128 .f32) (x3 x4 x5 x6 : Vec F S128x256 .f32) (x7 x8 : Vec F S1x256 .f32) (xs0 xs1 : Vec F S1x256 .f32) :
    sout2_B_1 c t hc0 hc1 x0 x1 x2 x3 x4 x5 x6 x7 x8 xs0 xs1 = k2_pay2 (k2_pay7 x0 x3 x7 x2 x5 x1 x4 x8 x2 x6) xs1 := by
  unfold sout2_B_1
  rw [View.read_writes_eq_canon _ _ _ (scover2_B_1 c t hc0 hc1 x0 x1 x2 x3 x4 x5 x6 x7 x8 xs0 xs1)]
  unfold runAt2_B kernelRun2_B
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]
  simp only [show View.read (Elt F) (View.whole cc2_scratch1) ((Memref.isWhole_whole cc2_scratch1).unread xs1) = xs1 from (Memref.isWhole_whole cc2_scratch1).read_unread xs1]

theorem out2_C_9_eq (c : Dev nD) (t : Fin cfg2.N) (hc0 : ¬cond2_0 (grid2.coords t)) (hc1 : cond2_1 (grid2.coords t)) (x0 x1 x2 : Vec F S1000x128 .f32) (x3 x4 x5 x6 : Vec F S128x256 .f32) (x7 x8 : Vec F S1x256 .f32) (xs0 xs1 : Vec F S1x256 .f32) :
    out2_C_9 c t hc0 hc1 x0 x1 x2 x3 x4 x5 x6 x7 x8 xs0 xs1 = (k2_pay7 x0 x3 x7 x2 x5 x1 x4 x8 x2 x6) := by
  unfold out2_C_9
  rw [View.read_writes_eq_canon _ _ _ (cover2_C_9 c t hc0 hc1 x0 x1 x2 x3 x4 x5 x6 x7 x8 xs0 xs1)]
  unfold runAt2_C kernelRun2_C
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]

theorem out2_C_10_eq (c : Dev nD) (t : Fin cfg2.N) (hc0 : ¬cond2_0 (grid2.coords t)) (hc1 : cond2_1 (grid2.coords t)) (x0 x1 x2 : Vec F S1000x128 .f32) (x3 x4 x5 x6 : Vec F S128x256 .f32) (x7 x8 : Vec F S1x256 .f32) (xs0 xs1 : Vec F S1x256 .f32) :
    out2_C_10 c t hc0 hc1 x0 x1 x2 x3 x4 x5 x6 x7 x8 xs0 xs1 = k2_pay3 (k2_pay1 (k2_pay7 x0 x3 x7 x2 x5 x1 x4 x8 x2 x6) xs0) := by
  unfold out2_C_10
  rw [View.read_writes_eq_canon _ _ _ (cover2_C_10 c t hc0 hc1 x0 x1 x2 x3 x4 x5 x6 x7 x8 xs0 xs1)]
  unfold runAt2_C kernelRun2_C
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]
  simp only [show View.read (Elt F) (View.whole cc2_scratch0) ((Memref.isWhole_whole cc2_scratch0).unread xs0) = xs0 from (Memref.isWhole_whole cc2_scratch0).read_unread xs0]

theorem out2_C_11_eq (c : Dev nD) (t : Fin cfg2.N) (hc0 : ¬cond2_0 (grid2.coords t)) (hc1 : cond2_1 (grid2.coords t)) (x0 x1 x2 : Vec F S1000x128 .f32) (x3 x4 x5 x6 : Vec F S128x256 .f32) (x7 x8 : Vec F S1x256 .f32) (xs0 xs1 : Vec F S1x256 .f32) :
    out2_C_11 c t hc0 hc1 x0 x1 x2 x3 x4 x5 x6 x7 x8 xs0 xs1 = k2_pay4 (k2_pay1 (k2_pay7 x0 x3 x7 x2 x5 x1 x4 x8 x2 x6) xs0) (k2_pay2 (k2_pay7 x0 x3 x7 x2 x5 x1 x4 x8 x2 x6) xs1) := by
  unfold out2_C_11
  rw [View.read_writes_eq_canon _ _ _ (cover2_C_11 c t hc0 hc1 x0 x1 x2 x3 x4 x5 x6 x7 x8 xs0 xs1)]
  unfold runAt2_C kernelRun2_C
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]
  simp only [show View.read (Elt F) (View.whole cc2_scratch0) ((Memref.isWhole_whole cc2_scratch0).unread xs0) = xs0 from (Memref.isWhole_whole cc2_scratch0).read_unread xs0]
  simp only [show View.read (Elt F) (View.whole cc2_scratch1) ((Memref.isWhole_whole cc2_scratch1).unread xs1) = xs1 from (Memref.isWhole_whole cc2_scratch1).read_unread xs1]

theorem sout2_C_0_eq (c : Dev nD) (t : Fin cfg2.N) (hc0 : ¬cond2_0 (grid2.coords t)) (hc1 : cond2_1 (grid2.coords t)) (x0 x1 x2 : Vec F S1000x128 .f32) (x3 x4 x5 x6 : Vec F S128x256 .f32) (x7 x8 : Vec F S1x256 .f32) (xs0 xs1 : Vec F S1x256 .f32) :
    sout2_C_0 c t hc0 hc1 x0 x1 x2 x3 x4 x5 x6 x7 x8 xs0 xs1 = k2_pay1 (k2_pay7 x0 x3 x7 x2 x5 x1 x4 x8 x2 x6) xs0 := by
  unfold sout2_C_0
  rw [View.read_writes_eq_canon _ _ _ (scover2_C_0 c t hc0 hc1 x0 x1 x2 x3 x4 x5 x6 x7 x8 xs0 xs1)]
  unfold runAt2_C kernelRun2_C
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]
  simp only [show View.read (Elt F) (View.whole cc2_scratch0) ((Memref.isWhole_whole cc2_scratch0).unread xs0) = xs0 from (Memref.isWhole_whole cc2_scratch0).read_unread xs0]

theorem sout2_C_1_eq (c : Dev nD) (t : Fin cfg2.N) (hc0 : ¬cond2_0 (grid2.coords t)) (hc1 : cond2_1 (grid2.coords t)) (x0 x1 x2 : Vec F S1000x128 .f32) (x3 x4 x5 x6 : Vec F S128x256 .f32) (x7 x8 : Vec F S1x256 .f32) (xs0 xs1 : Vec F S1x256 .f32) :
    sout2_C_1 c t hc0 hc1 x0 x1 x2 x3 x4 x5 x6 x7 x8 xs0 xs1 = k2_pay2 (k2_pay7 x0 x3 x7 x2 x5 x1 x4 x8 x2 x6) xs1 := by
  unfold sout2_C_1
  rw [View.read_writes_eq_canon _ _ _ (scover2_C_1 c t hc0 hc1 x0 x1 x2 x3 x4 x5 x6 x7 x8 xs0 xs1)]
  unfold runAt2_C kernelRun2_C
  dsimp only
  try sl_unfold_words
  rw [View.canon_unit_zero hzP2]
  simp only [View.readAt_eq_ld, Memref.IsWhole.read_unread, View.ld_unit_zero (S := S1000x128) hzP2, View.ld_unit_zero (S := S128x256) hzP2, View.ld_unit_zero (S := S1x256) hzP2, View.readCov_unit_zero (S := S1x256) _ hzP2]
  simp only [show View.read (Elt F) (View.whole cc2_scratch1) ((Memref.isWhole_whole cc2_scratch1).unread xs1) = xs1 from (Memref.isWhole_whole cc2_scratch1).read_unread xs1]

end Pieces

/-! ## The result, index by index -/

-- the TensorCore's buffer contents when the region is entered
variable (V : (c : Dev nD) → (b : Ref sig .tc) → Buf (Elt Ideal) ((c : Thread nD τ).loc b))

/-- Every entry of the combined layer: the two relations' contributions to a destination row and an output column, added. -/
noncomputable def hArr2 (a0 a1 x : S10000x128.Idx → EReal) (wl0 wl1 wr0 wr1 : S128x256.Idx → EReal) (b0 b1 : S1x256.Idx → EReal) :
    S10000x256.Idx → EReal :=
  fun i => Sage.rel (fun k : Fin 128 => a0 (ix2 (i 0) k)) (fun k : Fin 128 => x (ix2 (i 0) k)) (fun k : Fin 128 => wl0 (ix2 k (i 1))) (fun k : Fin 128 => wr0 (ix2 k (i 1))) (b0 (ix2 (0 : Fin 1) (i 1)))
    + Sage.rel (fun k : Fin 128 => a1 (ix2 (i 0) k)) (fun k : Fin 128 => x (ix2 (i 0) k)) (fun k : Fin 128 => wl1 (ix2 k (i 1))) (fun k : Fin 128 => wr1 (ix2 k (i 1))) (b1 (ix2 (0 : Fin 1) (i 1)))

/-- The combined layer of the arrays as the region finds them. -/
noncomputable abbrev hOut2 (c : Dev nD) : S10000x256.Idx → EReal :=
  hArr2 (agga2 V c) (aggb2 V c) (xdst2 V c) (wla2 V c) (wlb2 V c) (wra2 V c) (wrb2 V c) (bia2 V c) (bib2 V c)

/-- The block the body computes at point `t`, from the input windows' blocks there. -/
noncomputable abbrev hblk2 (c : Dev nD) (t : Fin cfg2.N) : S1000x256.Idx → EReal :=
  k2_pay7 (F := Ideal) (blk2_0 V c t) (blk2_3 V c t) (blk2_7 V c t) (blk2_2 V c t) (blk2_5 V c t) (blk2_1 V c t) (blk2_4 V c t) (blk2_8 V c t) (blk2_2 V c t) (blk2_6 V c t)

/-- Row `p`, column `q` of that block is the combined layer's entry at row `1000 t + p`. -/
theorem hblk2_at (c : Dev nD) (t : Fin cfg2.N) (p : Fin 1000) (q : Fin 256) (hr : t.val * 1000 + p.val < 10000) :
    hblk2 V c t (ix2 p q) = hOut2 V c (ix2 (⟨t.val * 1000 + p.val, hr⟩ : Fin 10000) q) := by
  refine (pay2_7_at (blk2_0 V c t) (blk2_1 V c t) (blk2_2 V c t) (blk2_3 V c t) (blk2_4 V c t) (blk2_5 V c t) (blk2_6 V c t) (blk2_7 V c t) (blk2_8 V c t) p q).trans ?_
  simp only [blk2_0_at V c t p _ hr, blk2_1_at V c t p _ hr, blk2_2_at V c t p _ hr, blk2_3_eq V c t, blk2_4_eq V c t, blk2_5_eq V c t, blk2_6_eq V c t, blk2_7_eq V c t, blk2_8_eq V c t]
  rfl

/-! ## What the outputs and the accumulators hold after a point -/

theorem N2_lt (t : Fin cfg2.N) : t.val < 10 := lt_of_lt_of_eq t.isLt (show cfg2.N = 10 from N_2)

/-- After the first point: the block, and the accumulators at zero plus the block's column sums. -/
theorem outs2_first (c : Dev nD) (t : Fin cfg2.N) (h0 : t.val = 0) :
    (outsAt2 V c t.val t.isLt).1 = hblk2 V c t
    ∧ (outsAt2 V c t.val t.isLt).2.2.2.1 = k2_pay1 (F := Ideal) (hblk2 V c t) (k2_pay5 (F := Ideal))
    ∧ (outsAt2 V c t.val t.isLt).2.2.2.2 = k2_pay2 (F := Ideal) (hblk2 V c t) (k2_pay6 (F := Ideal)) := by
  have hN := N2_lt t
  have hc0 : cond2_0 (grid2.coords t) := (hcond2_0 t).mpr (by rw [h0])
  have hc1 : ¬cond2_1 (grid2.coords t) := fun h => by have h' := (hcond2_1 t).mp h; omega
  rw [outsAt2_A V c t h0 hc0 hc1]
  dsimp only
  exact ⟨out2_A_9_eq (F := Ideal) c t hc0 hc1 (blk2_0 V c t) (blk2_1 V c t) (blk2_2 V c t) (blk2_3 V c t) (blk2_4 V c t) (blk2_5 V c t) (blk2_6 V c t) (blk2_7 V c t) (blk2_8 V c t),
    sout2_A_0_eq (F := Ideal) c t hc0 hc1 (blk2_0 V c t) (blk2_1 V c t) (blk2_2 V c t) (blk2_3 V c t) (blk2_4 V c t) (blk2_5 V c t) (blk2_6 V c t) (blk2_7 V c t) (blk2_8 V c t),
    sout2_A_1_eq (F := Ideal) c t hc0 hc1 (blk2_0 V c t) (blk2_1 V c t) (blk2_2 V c t) (blk2_3 V c t) (blk2_4 V c t) (blk2_5 V c t) (blk2_6 V c t) (blk2_7 V c t) (blk2_8 V c t)⟩

/-- After a middle point: the block, and each accumulator at what the point before left plus the block's column sums. -/
theorem outs2_mid (c : Dev nD) (t : Fin cfg2.N) (h0 : t.val ≠ 0) (h1 : ¬t.val % 10 = 9) :
    (outsAt2 V c t.val t.isLt).1 = hblk2 V c t
    ∧ (outsAt2 V c t.val t.isLt).2.2.2.1 = k2_pay1 (F := Ideal) (hblk2 V c t) (outsAt2 V c (t.val - 1) (Nat.lt_of_le_of_lt (Nat.sub_le _ _) t.isLt)).2.2.2.1
    ∧ (outsAt2 V c t.val t.isLt).2.2.2.2 = k2_pay2 (F := Ideal) (hblk2 V c t) (outsAt2 V c (t.val - 1) (Nat.lt_of_le_of_lt (Nat.sub_le _ _) t.isLt)).2.2.2.2 := by
  have hc0 : ¬cond2_0 (grid2.coords t) := later2_c0 t h0
  have hc1 : ¬cond2_1 (grid2.coords t) := fun h => h1 ((hcond2_1 t).mp h)
  rw [outsAt2_B V c t h0 h1 hc0 hc1]
  dsimp only
  exact ⟨out2_B_9_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
    sout2_B_0_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
    sout2_B_1_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2⟩

/-- After the last point: the block, the accumulators as at a middle point, and the two statistics rows from them. -/
theorem outs2_last (c : Dev nD) (t : Fin cfg2.N) (h0 : t.val ≠ 0) (h1 : t.val % 10 = 9) :
    (outsAt2 V c t.val t.isLt).1 = hblk2 V c t
    ∧ (outsAt2 V c t.val t.isLt).2.1 = k2_pay3 (F := Ideal) (outsAt2 V c t.val t.isLt).2.2.2.1
    ∧ (outsAt2 V c t.val t.isLt).2.2.1 = k2_pay4 (F := Ideal) (outsAt2 V c t.val t.isLt).2.2.2.1 (outsAt2 V c t.val t.isLt).2.2.2.2
    ∧ (outsAt2 V c t.val t.isLt).2.2.2.1 = k2_pay1 (F := Ideal) (hblk2 V c t) (outsAt2 V c (t.val - 1) (Nat.lt_of_le_of_lt (Nat.sub_le _ _) t.isLt)).2.2.2.1
    ∧ (outsAt2 V c t.val t.isLt).2.2.2.2 = k2_pay2 (F := Ideal) (hblk2 V c t) (outsAt2 V c (t.val - 1) (Nat.lt_of_le_of_lt (Nat.sub_le _ _) t.isLt)).2.2.2.2 := by
  have hc0 : ¬cond2_0 (grid2.coords t) := later2_c0 t h0
  have hc1 : cond2_1 (grid2.coords t) := (hcond2_1 t).mpr h1
  rw [outsAt2_C V c t h0 h1 hc0 hc1]
  dsimp only
  rw [sout2_C_0_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
    sout2_C_1_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2]
  exact ⟨out2_C_9_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
    out2_C_10_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
    out2_C_11_eq (F := Ideal) c t hc0 hc1 (blk2_0 V c t) (blk2_1 V c t) (blk2_2 V c t) (blk2_3 V c t) (blk2_4 V c t) (blk2_5 V c t) (blk2_6 V c t) (blk2_7 V c t) (blk2_8 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.2, rfl, rfl⟩

/-- The block output's staging buffer after any point holds the block computed there. -/
theorem outs2_blk (c : Dev nD) (t : Fin cfg2.N) : (outsAt2 V c t.val t.isLt).1 = hblk2 V c t := by
  by_cases h0 : t.val = 0
  · exact (outs2_first V c t h0).1
  · by_cases h1 : t.val % 10 = 9
    · exact (outs2_last V c t h0 h1).1
    · exact (outs2_mid V c t h0 h1).1

/-! ## The accumulators are the running column sums -/

/-- Column `q` of the combined layer, its rows numbered by natural numbers (zero past the last row), -/
noncomputable def colN2 (c : Dev nD) (q : Fin 256) : ℕ → EReal :=
  fun i => if h : i < 10000 then hOut2 V c (ix2 (⟨i, h⟩ : Fin 10000) q) else 0
/-- and the column of its squares. -/
noncomputable def colSq2 (c : Dev nD) (q : Fin 256) : ℕ → EReal :=
  fun i => if h : i < 10000 then hOut2 V c (ix2 (⟨i, h⟩ : Fin 10000) q) * hOut2 V c (ix2 (⟨i, h⟩ : Fin 10000) q) else 0

/-- The column sum of the block at point `t` is tile `t`'s sum. -/
theorem tile2 (c : Dev nD) (t : Fin cfg2.N) (q : Fin 256) :
    ∑ r : Fin 1000, hblk2 V c t (ix2 r q) = Sage.tileSum 1000 (colN2 V c q) t.val := by
  have hN := N2_lt t
  unfold Sage.tileSum
  rw [Finset.sum_range]
  refine Finset.sum_congr rfl fun r _ => ?_
  have hr : t.val * 1000 + r.val < 10000 := by have := r.isLt; omega
  rw [hblk2_at V c t r q hr]
  unfold colN2
  rw [dif_pos hr]
theorem tileSq2 (c : Dev nD) (t : Fin cfg2.N) (q : Fin 256) :
    ∑ r : Fin 1000, hblk2 V c t (ix2 r q) * hblk2 V c t (ix2 r q) = Sage.tileSum 1000 (colSq2 V c q) t.val := by
  have hN := N2_lt t
  unfold Sage.tileSum
  rw [Finset.sum_range]
  refine Finset.sum_congr rfl fun r _ => ?_
  have hr : t.val * 1000 + r.val < 10000 := by have := r.isLt; omega
  rw [hblk2_at V c t r q hr]
  unfold colSq2
  rw [dif_pos hr]

/-- After point `n` the two accumulators hold, at column `q`, the sums over the first `n + 1` tiles of the column and
    of its squares. -/
theorem accs2_eq (c : Dev nD) (q : Fin 256) : ∀ (n : ℕ) (hn : n < cfg2.N),
    (outsAt2 V c n hn).2.2.2.1 (ix2 (0 : Fin 1) q) = Sage.acc 1000 (colN2 V c q) (n + 1)
    ∧ (outsAt2 V c n hn).2.2.2.2 (ix2 (0 : Fin 1) q) = Sage.acc 1000 (colSq2 V c q) (n + 1)
  | 0, hn => by
    obtain ⟨-, e1, e2⟩ := outs2_first V c ⟨0, hn⟩ rfl
    have e1' : (outsAt2 V c 0 hn).2.2.2.1 = _ := e1
    have e2' : (outsAt2 V c 0 hn).2.2.2.2 = _ := e2
    rw [e1', e2']
    constructor
    · refine (pay2_1_at _ _ q).trans ?_
      rw [pay2_5_at, Sage.acc_succ, Sage.acc_zero, tile2 V c ⟨0, hn⟩ q]
    · refine (pay2_2_at _ _ q).trans ?_
      rw [pay2_6_at, Sage.acc_succ, Sage.acc_zero, tileSq2 V c ⟨0, hn⟩ q]
  | n + 1, hn => by
    obtain ⟨ih1, ih2⟩ := accs2_eq c q n (Nat.lt_of_succ_lt hn)
    have hs : (outsAt2 V c (n + 1) hn).2.2.2.1 = k2_pay1 (F := Ideal) (hblk2 V c ⟨n + 1, hn⟩) (outsAt2 V c n (Nat.lt_of_succ_lt hn)).2.2.2.1
        ∧ (outsAt2 V c (n + 1) hn).2.2.2.2 = k2_pay2 (F := Ideal) (hblk2 V c ⟨n + 1, hn⟩) (outsAt2 V c n (Nat.lt_of_succ_lt hn)).2.2.2.2 := by
      by_cases h1 : (n + 1) % 10 = 9
      · exact ⟨(outs2_last V c ⟨n + 1, hn⟩ (Nat.succ_ne_zero n) h1).2.2.2.1, (outs2_last V c ⟨n + 1, hn⟩ (Nat.succ_ne_zero n) h1).2.2.2.2⟩
      · exact ⟨(outs2_mid V c ⟨n + 1, hn⟩ (Nat.succ_ne_zero n) h1).2.1, (outs2_mid V c ⟨n + 1, hn⟩ (Nat.succ_ne_zero n) h1).2.2⟩
    rw [hs.1, hs.2]
    constructor
    · refine (pay2_1_at _ _ q).trans ?_
      rw [ih1, Sage.acc_succ _ _ (n + 1), tile2 V c ⟨n + 1, hn⟩ q]
    · refine (pay2_2_at _ _ q).trans ?_
      rw [ih2, Sage.acc_succ _ _ (n + 1), tileSq2 V c ⟨n + 1, hn⟩ q]

/-- All twenty tiles: the column's sum over all rows. -/
theorem acc_full2 (c : Dev nD) (q : Fin 256) :
    Sage.acc 1000 (colN2 V c q) 10 = ∑ r : Fin 10000, hOut2 V c (ix2 r q) := by
  rw [Sage.acc_eq_sum, show (10 * 1000 : ℕ) = 10000 from rfl, Finset.sum_range]
  refine Finset.sum_congr rfl fun r _ => ?_
  unfold colN2
  rw [dif_pos r.isLt]
theorem accSq_full2 (c : Dev nD) (q : Fin 256) :
    Sage.acc 1000 (colSq2 V c q) 10 = ∑ r : Fin 10000, hOut2 V c (ix2 r q) * hOut2 V c (ix2 r q) := by
  rw [Sage.acc_eq_sum, show (10 * 1000 : ℕ) = 10000 from rfl, Finset.sum_range]
  refine Finset.sum_congr rfl fun r _ => ?_
  unfold colSq2
  rw [dif_pos r.isLt]

/-! ## What a point writes back -/

/-- What point `t` writes back to the block output's array is block `t` of the combined layer. -/
theorem flushed2_9_eq (c : Dev nD) (t : Fin cfg2.N) :
    (dat2 (F := Ideal) V c).flushed 9 t = ((cfg2.win 9).blk t).view.read (Elt Ideal) (hOut2 V c) := by
  show (cfg2.win 9).cut (grid2.coords t) ((dat2 V c).after 9 t) = _
  rw [after2_9, outs2_blk V c t]
  have hN := N2_lt t
  obtain ⟨e0, e1⟩ := (idx_facts2 t).2.2.2.2.2.2.2.2.2.1
  funext j
  obtain ⟨p, q, rfl⟩ : ∃ (p : Fin 1000) (q : Fin 256), j = ix2 p q := ⟨j 0, j 1, eq_ix2 j⟩
  show hblk2 V c t (ix2 p q) = hOut2 V c (((cfg2.win 9).blk t).view.emb (ix2 p q))
  have hr : t.val * 1000 + p.val < 10000 := by have := p.isLt; omega
  rw [hblk2_at V c t p q hr]
  refine congrArg (hOut2 V c) (Shape.idx_ext₂ ?_ ?_)
  · show t.val * 1000 + p.val = win2_9.index t (0 : Fin 2) * 1000 + 1 * p.val; rw [e0]; omega
  · show q.val = win2_9.index t (1 : Fin 2) * 256 + 1 * q.val; rw [e1]; omega

/-- The mean row: each column's mean over the 10000 rows of the combined layer, -/
noncomputable def meanRow2 (h : S10000x256.Idx → EReal) : S1x256.Idx → EReal :=
  fun i => Sage.colMean (((10000 : ℝ) : EReal)) (fun r : Fin 10000 => h (ix2 r (i 1)))
/-- and the variance row: each column's mean of squares less its squared mean. -/
noncomputable def varRow2 (h : S10000x256.Idx → EReal) : S1x256.Idx → EReal :=
  fun i => Sage.colVarSq (((10000 : ℝ) : EReal)) (fun r : Fin 10000 => h (ix2 r (i 1)))

/-- A point that writes a statistics row back is the last one. -/
theorem last_of_flush2 (t : Fin cfg2.N) (h : t.val % 10 = 9) : t.val = 9 := by have := N2_lt t; omega

/-- What the last point writes back to the mean output's array is the mean row. -/
theorem flushed2_10_eq (c : Dev nD) (t : Fin cfg2.N) (hf : (cfg2.win 10).flush t = true) :
    (dat2 (F := Ideal) V c).flushed 10 t = ((cfg2.win 10).blk t).view.read (Elt Ideal) (meanRow2 (hOut2 V c)) := by
  have h1 : t.val % 10 = 9 := (flush2_10 t).mp hf
  have h19 : t.val = 9 := last_of_flush2 t h1
  show (cfg2.win 10).cut (grid2.coords t) ((dat2 V c).after 10 t) = _
  rw [after2_10, (outs2_last V c t (by omega) h1).2.1]
  obtain ⟨e0, e1⟩ := (idx_facts2 t).2.2.2.2.2.2.2.2.2.2.1
  funext j
  obtain ⟨u, q, rfl⟩ : ∃ (u : Fin 1) (q : Fin 256), j = ix2 u q := ⟨j 0, j 1, eq_ix2 j⟩
  obtain rfl : u = 0 := Subsingleton.elim _ _
  show k2_pay3 (F := Ideal) (outsAt2 V c t.val t.isLt).2.2.2.1 (ix2 (0 : Fin 1) q) = meanRow2 (hOut2 V c) (((cfg2.win 10).blk t).view.emb (ix2 (0 : Fin 1) q))
  have hq : ((((cfg2.win 10).blk t).view.emb (ix2 (0 : Fin 1) q) : S1x256.Idx) 1) = q :=
    Fin.ext (by show win2_10.index t (1 : Fin 2) * 256 + 1 * q.val = q.val; rw [e1]; omega)
  refine (pay2_3_at _ _).trans ?_
  unfold meanRow2 Sage.colMean
  rw [hq, (accs2_eq V c q t.val t.isLt).1, h19, acc_full2]
  simp only [rows2, Sage.ofBits_10000]

/-- What the last point writes back to the variance output's array is the variance row. -/
theorem flushed2_11_eq (c : Dev nD) (t : Fin cfg2.N) (hf : (cfg2.win 11).flush t = true) :
    (dat2 (F := Ideal) V c).flushed 11 t = ((cfg2.win 11).blk t).view.read (Elt Ideal) (varRow2 (hOut2 V c)) := by
  have h1 : t.val % 10 = 9 := (flush2_11 t).mp hf
  have h19 : t.val = 9 := last_of_flush2 t h1
  show (cfg2.win 11).cut (grid2.coords t) ((dat2 V c).after 11 t) = _
  rw [after2_11, (outs2_last V c t (by omega) h1).2.2.1]
  obtain ⟨e0, e1⟩ := (idx_facts2 t).2.2.2.2.2.2.2.2.2.2.2
  funext j
  obtain ⟨u, q, rfl⟩ : ∃ (u : Fin 1) (q : Fin 256), j = ix2 u q := ⟨j 0, j 1, eq_ix2 j⟩
  obtain rfl : u = 0 := Subsingleton.elim _ _
  show k2_pay4 (F := Ideal) (outsAt2 V c t.val t.isLt).2.2.2.1 (outsAt2 V c t.val t.isLt).2.2.2.2 (ix2 (0 : Fin 1) q) = varRow2 (hOut2 V c) (((cfg2.win 11).blk t).view.emb (ix2 (0 : Fin 1) q))
  have hq : ((((cfg2.win 11).blk t).view.emb (ix2 (0 : Fin 1) q) : S1x256.Idx) 1) = q :=
    Fin.ext (by show win2_11.index t (1 : Fin 2) * 256 + 1 * q.val = q.val; rw [e1]; omega)
  refine (pay2_4_at _ _ _).trans ?_
  unfold varRow2 Sage.colVarSq Sage.colMean
  rw [hq, (accs2_eq V c q t.val t.isLt).1, (accs2_eq V c q t.val t.isLt).2, h19, acc_full2, accSq_full2]
  simp only [rows2, Sage.ofBits_10000]

/-! ## From the blocks to the arrays -/

/-- An index of the block output's array is in point `t`'s block iff each coordinate is in the block's range on its axis. -/
theorem mem_blk2_9 (t : Fin cfg2.N) (i : S10000x256.Idx) :
    i ∈ ((cfg2.win 9).blk t).view.set ↔ ∀ a : Fin 2, win2_9.index t a * S1000x256.size a ≤ (i a).val ∧ (i a).val < win2_9.index t a * S1000x256.size a + S1000x256.size a := by
  show i ∈ ((View.whole (Pipeline.arrRef spec2 9)).slice (win2_9.rect t)).set ↔ _
  rw [View.set_slice_whole, Rect.mem_set_unit]
  exact Iff.rfl
theorem mem_blk2_10 (t : Fin cfg2.N) (i : S1x256.Idx) :
    i ∈ ((cfg2.win 10).blk t).view.set ↔ ∀ a : Fin 2, win2_10.index t a * S1x256.size a ≤ (i a).val ∧ (i a).val < win2_10.index t a * S1x256.size a + S1x256.size a := by
  show i ∈ ((View.whole (Pipeline.arrRef spec2 10)).slice (win2_10.rect t)).set ↔ _
  rw [View.set_slice_whole, Rect.mem_set_unit]
  exact Iff.rfl
theorem mem_blk2_11 (t : Fin cfg2.N) (i : S1x256.Idx) :
    i ∈ ((cfg2.win 11).blk t).view.set ↔ ∀ a : Fin 2, win2_11.index t a * S1x256.size a ≤ (i a).val ∧ (i a).val < win2_11.index t a * S1x256.size a + S1x256.size a := by
  show i ∈ ((View.whole (Pipeline.arrRef spec2 11)).slice (win2_11.rect t)).set ↔ _
  rw [View.set_slice_whole, Rect.mem_set_unit]
  exact Iff.rfl

/-- Row `r` of the block output's array is in the block of point `r / 1000`, which writes it back. -/
theorem covered2_9 (i : S10000x256.Idx) : ∃ t : Fin cfg2.N, (cfg2.win 9).flush t = true ∧ i ∈ ((cfg2.win 9).blk t).view.set := by
  have hi0 : (i 0).val < 10000 := (i 0).isLt
  have hi1 : (i 1).val < 256 := (i 1).isLt
  have hN : cfg2.N = 10 := N_2
  let t : Fin cfg2.N := ⟨(i 0).val / 1000, by rw [hN]; omega⟩
  obtain ⟨e0, e1⟩ := (idx_facts2 t).2.2.2.2.2.2.2.2.2.1
  have ht : t.val = (i 0).val / 1000 := rfl
  refine ⟨t, flush2_9 t, ?_⟩
  rw [mem_blk2_9]
  intro a
  match a with
  | ⟨0, _⟩ => show win2_9.index t (0 : Fin 2) * 1000 ≤ (i 0).val ∧ (i 0).val < win2_9.index t (0 : Fin 2) * 1000 + 1000; omega
  | ⟨1, _⟩ => show win2_9.index t (1 : Fin 2) * 256 ≤ (i 1).val ∧ (i 1).val < win2_9.index t (1 : Fin 2) * 256 + 256; omega

/-- The last point's block of a statistics output is its whole row. -/
theorem covered2_10 (i : S1x256.Idx) : ∃ t : Fin cfg2.N, (cfg2.win 10).flush t = true ∧ i ∈ ((cfg2.win 10).blk t).view.set := by
  have hi0 : (i 0).val < 1 := (i 0).isLt
  have hi1 : (i 1).val < 256 := (i 1).isLt
  have hN : cfg2.N = 10 := N_2
  let t : Fin cfg2.N := ⟨9, by rw [hN]; omega⟩
  obtain ⟨e0, e1⟩ := (idx_facts2 t).2.2.2.2.2.2.2.2.2.2.1
  refine ⟨t, (flush2_10 t).mpr rfl, ?_⟩
  rw [mem_blk2_10]
  intro a
  match a with
  | ⟨0, _⟩ => show win2_10.index t (0 : Fin 2) * 1 ≤ (i 0).val ∧ (i 0).val < win2_10.index t (0 : Fin 2) * 1 + 1; omega
  | ⟨1, _⟩ => show win2_10.index t (1 : Fin 2) * 256 ≤ (i 1).val ∧ (i 1).val < win2_10.index t (1 : Fin 2) * 256 + 256; omega
theorem covered2_11 (i : S1x256.Idx) : ∃ t : Fin cfg2.N, (cfg2.win 11).flush t = true ∧ i ∈ ((cfg2.win 11).blk t).view.set := by
  have hi0 : (i 0).val < 1 := (i 0).isLt
  have hi1 : (i 1).val < 256 := (i 1).isLt
  have hN : cfg2.N = 10 := N_2
  let t : Fin cfg2.N := ⟨9, by rw [hN]; omega⟩
  obtain ⟨e0, e1⟩ := (idx_facts2 t).2.2.2.2.2.2.2.2.2.2.2
  refine ⟨t, (flush2_11 t).mpr rfl, ?_⟩
  rw [mem_blk2_11]
  intro a
  match a with
  | ⟨0, _⟩ => show win2_11.index t (0 : Fin 2) * 1 ≤ (i 0).val ∧ (i 0).val < win2_11.index t (0 : Fin 2) * 1 + 1; omega
  | ⟨1, _⟩ => show win2_11.index t (1 : Fin 2) * 256 ≤ (i 1).val ∧ (i 1).val < win2_11.index t (1 : Fin 2) * 256 + 256; omega

/-- The block output's array after the region: the combined layer of the arrays as the region finds them. -/
theorem final2_9 (c : Dev nD) : (dat2 (F := Ideal) V c).arrAt 9 cfg2.N = hOut2 V c :=
  (dat2 (F := Ideal) V c).arrAt_eq_of_cover 9 _ (fun t _ => flushed2_9_eq V c t) covered2_9

/-- The mean output's array after the region: the combined layer's column means. -/
theorem final2_10 (c : Dev nD) : (dat2 (F := Ideal) V c).arrAt 10 cfg2.N = meanRow2 (hOut2 V c) :=
  (dat2 (F := Ideal) V c).arrAt_eq_of_cover 10 _ (fun t hf => flushed2_10_eq V c t hf) covered2_10

/-- The variance output's array after the region: the combined layer's column variances. -/
theorem final2_11 (c : Dev nD) : (dat2 (F := Ideal) V c).arrAt 11 cfg2.N = varRow2 (hOut2 V c) :=
  (dat2 (F := Ideal) V c).arrAt_eq_of_cover 11 _ (fun t hf => flushed2_11_eq V c t hf) covered2_11

/-- The same, entry by entry. -/
theorem final2_9_apply (c : Dev nD) (r : Fin 10000) (q : Fin 256) :
    ((dat2 (F := Ideal) V c).arrAt 9 cfg2.N : S10000x256.Idx → EReal) (ix2 r q)
      = Sage.rel (fun k : Fin 128 => agga2 V c (ix2 r k)) (fun k : Fin 128 => xdst2 V c (ix2 r k)) (fun k : Fin 128 => wla2 V c (ix2 k q)) (fun k : Fin 128 => wra2 V c (ix2 k q)) (bia2 V c (ix2 (0 : Fin 1) q))
        + Sage.rel (fun k : Fin 128 => aggb2 V c (ix2 r k)) (fun k : Fin 128 => xdst2 V c (ix2 r k)) (fun k : Fin 128 => wlb2 V c (ix2 k q)) (fun k : Fin 128 => wrb2 V c (ix2 k q)) (bib2 V c (ix2 (0 : Fin 1) q)) :=
  congrFun (final2_9 V c) (ix2 r q)
theorem final2_10_apply (c : Dev nD) (q : Fin 256) :
    ((dat2 (F := Ideal) V c).arrAt 10 cfg2.N : S1x256.Idx → EReal) (ix2 (0 : Fin 1) q)
      = Sage.colMean (((10000 : ℝ) : EReal)) (fun r : Fin 10000 => hOut2 V c (ix2 r q)) :=
  congrFun (final2_10 V c) (ix2 (0 : Fin 1) q)
theorem final2_11_apply (c : Dev nD) (q : Fin 256) :
    ((dat2 (F := Ideal) V c).arrAt 11 cfg2.N : S1x256.Idx → EReal) (ix2 (0 : Fin 1) q)
      = Sage.colVarSq (((10000 : ℝ) : EReal)) (fun r : Fin 10000 => hOut2 V c (ix2 r q)) :=
  congrFun (final2_11 V c) (ix2 (0 : Fin 1) q)

/-! ## The input arrays are kept -/

theorem kept2_0 (c : Dev nD) : (dat2 (F := Ideal) V c).arrAt 0 cfg2.N = V c (Pipeline.arrRef spec2 0) :=
  ((dat2 V c).arrAt_in 0 rfl _).trans (A_eq2 V c 0)
theorem kept2_1 (c : Dev nD) : (dat2 (F := Ideal) V c).arrAt 1 cfg2.N = V c (Pipeline.arrRef spec2 1) :=
  ((dat2 V c).arrAt_in 1 rfl _).trans (A_eq2 V c 1)
theorem kept2_2 (c : Dev nD) : (dat2 (F := Ideal) V c).arrAt 2 cfg2.N = V c (Pipeline.arrRef spec2 2) :=
  ((dat2 V c).arrAt_in 2 rfl _).trans (A_eq2 V c 2)
theorem kept2_3 (c : Dev nD) : (dat2 (F := Ideal) V c).arrAt 3 cfg2.N = V c (Pipeline.arrRef spec2 3) :=
  ((dat2 V c).arrAt_in 3 rfl _).trans (A_eq2 V c 3)
theorem kept2_4 (c : Dev nD) : (dat2 (F := Ideal) V c).arrAt 4 cfg2.N = V c (Pipeline.arrRef spec2 4) :=
  ((dat2 V c).arrAt_in 4 rfl _).trans (A_eq2 V c 4)
theorem kept2_5 (c : Dev nD) : (dat2 (F := Ideal) V c).arrAt 5 cfg2.N = V c (Pipeline.arrRef spec2 5) :=
  ((dat2 V c).arrAt_in 5 rfl _).trans (A_eq2 V c 5)
theorem kept2_6 (c : Dev nD) : (dat2 (F := Ideal) V c).arrAt 6 cfg2.N = V c (Pipeline.arrRef spec2 6) :=
  ((dat2 V c).arrAt_in 6 rfl _).trans (A_eq2 V c 6)
theorem kept2_7 (c : Dev nD) : (dat2 (F := Ideal) V c).arrAt 7 cfg2.N = V c (Pipeline.arrRef spec2 7) :=
  ((dat2 V c).arrAt_in 7 rfl _).trans (A_eq2 V c 7)
theorem kept2_8 (c : Dev nD) : (dat2 (F := Ideal) V c).arrAt 8 cfg2.N = V c (Pipeline.arrRef spec2 8) :=
  ((dat2 V c).arrAt_in 8 rfl _).trans (A_eq2 V c 8)

end Cert.KernelIdeal.Hand

end
-- ==== Proof.CmpL1T2.lean ====
/-
  Layer 1 compared: on a core where the two launch memories agree on the arguments, each relation's aggregation is
  the same function of the same operands in both programs, and for each node type the array the kernel's combine region
  leaves is the reference's sum of relation stages and the array its normalisation region leaves the reference's result.
-/
import proofs.«126569_j1468878815453_1_alg».proof.Proof.CmpA1
import proofs.«126569_j1468878815453_1_alg».proof.Proof.KI.ReadL1b
import proofs.«126569_j1468878815453_1_alg».proof.Proof.KI.Val2
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 1, the node type of 10000 rows: the kernel's relation sums are the reference's, and its normalised result the reference's. -/
theorem l1_2 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kH1_2 m ρ c = Cert.ReferenceIdeal.Hand.rH1_side m' c ∧ Cert.KernelIdeal.Hand.kOut1_2 m ρ c = Cert.ReferenceIdeal.Hand.rOut1_side m' c := by
  have ea0 := agg1_0 m ρ m' c hag
  have ea1 := agg1_3 m ρ m' c hag
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH1_2 m ρ c = Cert.KernelIdeal.Hand.hArr2 (Cert.KernelIdeal.Hand.kAgg1_0 m ρ c) (Cert.KernelIdeal.Hand.kAgg1_3 m ρ c) (m ((c.tc : Thread Cert.KernelIdeal.nD Cert.KernelIdeal.τ).loc Cert.KernelIdeal.main_arg2)) (Cert.KernelIdeal.Hand.kWl1_0 m ρ c) (Cert.KernelIdeal.Hand.kWl1_3 m ρ c) (Cert.KernelIdeal.Hand.kWr1_0 m ρ c) (Cert.KernelIdeal.Hand.kWr1_3 m ρ c) (Cert.KernelIdeal.Hand.kB1_0 m ρ c) (Cert.KernelIdeal.Hand.kB1_3 m ρ c) :=
    (Cert.KernelIdeal.Hand.final2_9 (Cert.KernelIdeal.Hand.V5 m ρ) c).trans (Sage.cmp9 Cert.KernelIdeal.Hand.hArr2 (Cert.KernelIdeal.Hand.ent2_0 m ρ c) (Cert.KernelIdeal.Hand.ent2_1 m ρ c) (Cert.KernelIdeal.Hand.ent2_2 m ρ c) (Cert.KernelIdeal.Hand.ent2_3 m ρ c) (Cert.KernelIdeal.Hand.ent2_4 m ρ c) (Cert.KernelIdeal.Hand.ent2_5 m ρ c) (Cert.KernelIdeal.Hand.ent2_6 m ρ c) (Cert.KernelIdeal.Hand.ent2_7 m ρ c) (Cert.KernelIdeal.Hand.ent2_8 m ρ c))
  exact Sage.node2_eq (n := 10000) (k := 128) (m := 256) (R := 7) (i0 := 0) (i1 := 3)
    Cert.ReferenceIdeal.dot_S10000x128_S128x256_S10000x256_1_0_0_1_n_n Cert.ReferenceIdeal.Gen.slices_S7x128x256_S1x128x256_0_0_0 Cert.ReferenceIdeal.Gen.slices_S7x128x256_S1x128x256_3_0_0 Cert.ReferenceIdeal.Gen.shapeCasts_S1x128x256_S128x256
    Cert.ReferenceIdeal.Gen.slices_S7x256_S1x256_0_0 Cert.ReferenceIdeal.Gen.slices_S7x256_S1x256_3_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S10000x256_0_1
    (Ideal.ofBits .f32 0x3727C5AC#32) 10000 Cert.ReferenceIdeal.Hand.refBn10000 rfl (by decide) (by decide)
    (fun H hH g beta r q => Cert.ReferenceIdeal.Hand.refBn10000_eq_sq H hH g beta r q)
    (Cert.KernelIdeal.Hand.kAgg1_0 m ρ c) (Cert.KernelIdeal.Hand.kAgg1_3 m ρ c) (m ((c.tc : Thread Cert.KernelIdeal.nD Cert.KernelIdeal.τ).loc Cert.KernelIdeal.main_arg2)) (Cert.ReferenceIdeal.Hand.rAgg1_0 m' c) (Cert.ReferenceIdeal.Hand.rAgg1_3 m' c) (Cert.ReferenceIdeal.Hand.inX_side m' c)
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.Hand.inW1l m' c) (Cert.ReferenceIdeal.Hand.inW1r m' c) (m ((c.tc : Thread Cert.KernelIdeal.nD Cert.KernelIdeal.τ).loc Cert.KernelIdeal.main_arg6)) (Cert.ReferenceIdeal.Hand.inB1 m' c)
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (Cert.ReferenceIdeal.Hand.inG1 m' c) (Cert.ReferenceIdeal.Hand.inBeta1 m' c)
    ea0 ea1 h2.symm h4.symm h5.symm h6.symm h10.symm h11.symm
    (Cert.ReferenceIdeal.Hand.rAgg1_0_allReal hreal) (Cert.ReferenceIdeal.Hand.rAgg1_3_allReal hreal) hreal.x_side hreal.w1l hreal.w1r hreal.b1
    (Cert.KernelIdeal.Hand.kH1_2 m ρ c) (Cert.KernelIdeal.Hand.kOut1_2 m ρ c) (Cert.KernelIdeal.Hand.kMean1_2 m ρ c) (Cert.KernelIdeal.Hand.kVar1_2 m ρ c) (Cert.KernelIdeal.Hand.kG1_2 m ρ c) (Cert.KernelIdeal.Hand.kBeta1_2 m ρ c)
    (fun r q => congrFun hHk (ix2 r q))
    (fun q => (Cert.KernelIdeal.Hand.final2_10_apply (Cert.KernelIdeal.Hand.V5 m ρ) c q).trans
      (congrArg (fun H : Cert.ReferenceIdeal.S10000x256.Idx → EReal => Sage.colMean ((10000 : ℝ) : EReal) fun r : Fin 10000 => H (ix2 r q)) (Cert.KernelIdeal.Hand.final2_9 (Cert.KernelIdeal.Hand.V5 m ρ) c).symm))
    (fun q => (Cert.KernelIdeal.Hand.final2_11_apply (Cert.KernelIdeal.Hand.V5 m ρ) c q).trans
      (congrArg (fun H : Cert.ReferenceIdeal.S10000x256.Idx → EReal => Sage.colVarSq ((10000 : ℝ) : EReal) fun r : Fin 10000 => H (ix2 r q)) (Cert.KernelIdeal.Hand.final2_9 (Cert.KernelIdeal.Hand.V5 m ρ) c).symm))
    (fun q => Sage.row_of_vec_apply (m ((c.tc : Thread Cert.KernelIdeal.nD Cert.KernelIdeal.τ).loc Cert.KernelIdeal.main_arg10)) Cert.KernelIdeal.Gen.shapeCasts_S256_S1x256 q)
    (fun q => Sage.row_of_vec_apply (m ((c.tc : Thread Cert.KernelIdeal.nD Cert.KernelIdeal.τ).loc Cert.KernelIdeal.main_arg11)) Cert.KernelIdeal.Gen.shapeCasts_S256_S1x256 q)
    (fun _ _ => rfl)

end Cert.Proof

end
-- ==== Proof.KI.Val3Pay.lean ====
import proofs.«126569_j1468878815453_1_alg».proof.Proof.KI.Reg3Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 3 (the one-relation combine of a 3000-row node type in 3 row blocks): the payloads at an index

At the ideal instance: the five input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x128 block with a 128x256 matrix -/

/-- The dot's dimension numbers: rows by the shared axis, the shared axis by columns. -/
noncomputable abbrev D3 : DotDims S1000x128 S128x256 S1000x256 := dot_S1000x128_S128x256_S1000x256_1_0_0_1_n_n

theorem D3_rank : D3.contr.rank = 1 := rfl
theorem D3_size : D3.contr.size ⟨0, by rw [D3_rank]; exact Nat.one_pos⟩ = 128 := rfl

/-- The left operand's index at output `j` and contraction index `k`: row `j 0`, column `k`; -/
theorem lhs_D3_0 (j : S1000x256.Idx) (k : D3.contr.Idx) : ((D3.lhsIdx j k 0 : Fin 1000) : ℕ) = (j 0 : Fin 1000) := rfl
theorem lhs_D3_1 (j : S1000x256.Idx) (k : D3.contr.Idx) : ((D3.lhsIdx j k 1 : Fin 128) : ℕ) = (k ⟨0, by rw [D3_rank]; exact Nat.one_pos⟩).val :=
  DotDims.lhsIdx_val_of_single D3 rfl j k
/-- the right operand's: row `k`, column `j 1`. -/
theorem rhs_D3_0 (j : S1000x256.Idx) (k : D3.contr.Idx) : ((D3.rhsIdx j k 0 : Fin 128) : ℕ) = (k ⟨0, by rw [D3_rank]; exact Nat.one_pos⟩).val :=
  DotDims.rhsIdx_val_of_single D3 rfl j k
theorem rhs_D3_1 (j : S1000x256.Idx) (k : D3.contr.Idx) : ((D3.rhsIdx j k 1 : Fin 256) : ℕ) = (j 1 : Fin 256) := rfl

/-- The product into a zero accumulator, at row `p` and column `q`: the row of the left operand against the column
    of the right one. -/
theorem matmul3_at (L : S1000x128.Idx → EReal) (R : S128x256.Idx → EReal) (p : Fin 1000) (q : Fin 256) :
    matmul (F := Ideal) (φ₁ := .f32) (φ₂ := .f32) D3 none L R (constant S1000x256 .f32 0x00000000#32) (ix2 p q)
      = ∑ k : Fin 128, L (ix2 p k) * R (ix2 k q) := by
  show FloatOps.matmul (F := Ideal) (φ₁ := .f32) (φ₂ := .f32) D3 none L R (constant S1000x256 .f32 0x00000000#32) (ix2 p q) = _
  rw [Ideal.matmul_constant_zero_apply, ← Equiv.sum_comp (contrEquiv1 D3 128 D3_rank D3_size).symm]
  refine Finset.sum_congr rfl fun k _ => ?_
  have hk := contrEquiv1_symm_val D3 128 D3_rank D3_size k
  have eL : D3.lhsIdx (ix2 p q) ((contrEquiv1 D3 128 D3_rank D3_size).symm k) = ix2 p k :=
    Shape.idx_ext₂ (lhs_D3_0 _ _) ((lhs_D3_1 _ _).trans hk)
  have eR : D3.rhsIdx (ix2 p q) ((contrEquiv1 D3 128 D3_rank D3_size).symm k) = ix2 k q :=
    Shape.idx_ext₂ ((rhs_D3_0 _ _).trans hk) (rhs_D3_1 _ _)
  rw [eL, eR]

/-! ## The payloads at an index -/

/-- The block output's payload at row `p`, column `q`: the relation's contribution to that entry. The operands are the
    aggregate's block, the left weights, the bias row, the node's own block, the right weights. -/
theorem pay3_6_at (a x : S1000x128.Idx → EReal) (wl wr : S128x256.Idx → EReal) (b : S1x256.Idx → EReal)
    (p : Fin 1000) (q : Fin 256) :
    k3_pay6 (F := Ideal) a wl b x wr (ix2 p q)
      = Sage.rel (fun k : Fin 128 => a (ix2 p k)) (fun k : Fin 128 => x (ix2 p k)) (fun k : Fin 128 => wl (ix2 k q)) (fun k : Fin 128 => wr (ix2 k q)) (b (ix2 (0 : Fin 1) q)) := by
  unfold k3_pay6
  simp only [addf_apply, shapeCast_self, broadcastTo_1b_ab_apply, matmul3_at]
  rfl

/-- A 1000x256 block's column sums, as a row: at column `q` the sum over the block's rows. -/
theorem colsum3_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the block's column sum. -/
theorem pay3_7_at (a x : S1000x128.Idx → EReal) (wl wr : S128x256.Idx → EReal) (b : S1x256.Idx → EReal) (s : S1x256.Idx → EReal) (q : Fin 256) :
    k3_pay7 (F := Ideal) a wl b x wr s (ix2 (0 : Fin 1) q)
      = s (ix2 (0 : Fin 1) q) + ∑ r : Fin 1000, k3_pay6 (F := Ideal) a wl b x wr (ix2 r q) := by
  unfold k3_pay7
  simp only [shapeCast_self, addf_apply]
  exact congrArg (s (ix2 (0 : Fin 1) q) + ·) (colsum3_at (k3_pay6 (F := Ideal) a wl b x wr) q)

/-- The second accumulator's payload at column `q`: what it held plus the column sum of the block's squares. -/
theorem pay3_8_at (a x : S1000x128.Idx → EReal) (wl wr : S128x256.Idx → EReal) (b : S1x256.Idx → EReal) (s : S1x256.Idx → EReal) (q : Fin 256) :
    k3_pay1 (F := Ideal) (k3_pay8 (F := Ideal) a wl b x wr s) (ix2 (0 : Fin 1) q)
      = s (ix2 (0 : Fin 1) q) + ∑ r : Fin 1000, k3_pay6 (F := Ideal) a wl b x wr (ix2 r q) * k3_pay6 (F := Ideal) a wl b x wr (ix2 r q) := by
  unfold k3_pay1 k3_pay8
  simp only [shapeCast_self, addf_apply]
  exact congrArg (s (ix2 (0 : Fin 1) q) + ·) ((colsum3_at (mulf (F := Ideal) (s := S1000x256) (φ := .f32) (k3_pay6 (F := Ideal) a wl b x wr) (k3_pay6 (F := Ideal) a wl b x wr)) q).trans rfl)

/-- The two resets store zeros. -/
theorem pay3_4_at (i : S1x256.Idx) : k3_pay4 (F := Ideal) i = 0 := by
  unfold k3_pay4
  simp only [shapeCast_self, broadcast_apply]
  exact Ideal.ofBits_zero_f32
theorem pay3_5_at (i : S1x256.Idx) : k3_pay5 (F := Ideal) i = 0 := by
  unfold k3_pay5
  simp only [shapeCast_self, broadcast_apply]
  exact Ideal.ofBits_zero_f32

/-- The row count the statistics divide by, as the body writes it. -/
noncomputable abbrev rows3 : EReal := Ideal.ofBits .f32 0x453B8000#32

/-- The mean output's payload at an index: the first accumulator's entry over the row count. -/
theorem pay3_2_at (s0 : S1x256.Idx → EReal) (i : S1x256.Idx) : k3_pay2 (F := Ideal) s0 i = Ideal.div (s0 i) rows3 := by
  unfold k3_pay2
  simp only [divf_apply, broadcast_apply]
  rfl

/-- The variance output's payload at an index: the second accumulator's entry over the row count, less the squared mean. -/
theorem pay3_3_at (s0 s1 : S1x256.Idx → EReal) (i : S1x256.Idx) :
    k3_pay3 (F := Ideal) s0 s1 i = Ideal.div (s1 i) rows3 - Ideal.div (s0 i) rows3 * Ideal.div (s0 i) rows3 := by
  unfold k3_pay3
  simp only [subf_apply, mulf_apply, divf_apply, broadcast_apply, pay3_2_at]
  rfl

/-! ## The arrays as the region finds them -/

-- the TensorCore's buffer contents when the region is entered
variable (V : (c : Dev nD) → (b : Ref sig .tc) → Buf (Elt Ideal) ((c : Thread nD τ).loc b))

/-- The relation's aggregated sources (the neighbours' mean rows), -/
noncomputable abbrev agg3 (c : Dev nD) : S3000x128.Idx → EReal := V c (Pipeline.arrRef spec3 0)
/-- the node type's own features, -/
noncomputable abbrev x3 (c : Dev nD) : S3000x128.Idx → EReal := V c (Pipeline.arrRef spec3 1)
/-- the left and the right weights, -/
noncomputable abbrev wll3 (c : Dev nD) : S128x256.Idx → EReal := V c (Pipeline.arrRef spec3 2)
noncomputable abbrev wrr3 (c : Dev nD) : S128x256.Idx → EReal := V c (Pipeline.arrRef spec3 3)
/-- and the bias row. -/
noncomputable abbrev b3 (c : Dev nD) : S1x256.Idx → EReal := V c (Pipeline.arrRef spec3 4)

/-- The input windows' blocks at a point, by their literal types. -/
noncomputable abbrev blk3_0 (c : Dev nD) (t : Fin cfg3.N) : S1000x128.Idx → EReal := iblk3 V c 0 t
noncomputable abbrev blk3_1 (c : Dev nD) (t : Fin cfg3.N) : S1000x128.Idx → EReal := iblk3 V c 1 t
noncomputable abbrev blk3_2 (c : Dev nD) (t : Fin cfg3.N) : S128x256.Idx → EReal := iblk3 V c 2 t
noncomputable abbrev blk3_3 (c : Dev nD) (t : Fin cfg3.N) : S128x256.Idx → EReal := iblk3 V c 3 t
noncomputable abbrev blk3_4 (c : Dev nD) (t : Fin cfg3.N) : S1x256.Idx → EReal := iblk3 V c 4 t

/-! ## The blocks' places in their arrays -/

theorem hz3 : (![0, 0] : Fin 2 → Nat) = fun _ => 0 := funext fun a => by fin_cases a <;> rfl

/-- The printed index maps, decided over the grid: the two row-blocked inputs' and the block output's block at point
    `t` is row block `t`; every other window's one block is its whole array. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0) :=
  (by decide +kernel : ∀ t : Fin grid3.N, _)

/-- Row `p`, column `k` of the aggregate's block at point `t` is the array's entry at row `1000 t + p`. -/
theorem blk3_0_at (c : Dev nD) (t : Fin cfg3.N) (p : Fin 1000) (k : Fin 128) (hr : t.val * 1000 + p.val < 3000) :
    blk3_0 V c t (ix2 p k) = agg3 V c (ix2 (⟨t.val * 1000 + p.val, hr⟩ : Fin 3000) k) := by
  obtain ⟨e0, e1⟩ := (idx_facts3 t).1
  show iblk3 V c 0 t (ix2 p k) = _
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 1000 + 1 * p.val = t.val * 1000 + p.val; rw [e0]; omega
  | ⟨1, _⟩ => show win3_0.index t (1 : Fin 2) * 128 + 1 * k.val = k.val; rw [e1]; omega

/-- Row `p`, column `k` of the node's own block at point `t` is the array's entry at row `1000 t + p`. -/
theorem blk3_1_at (c : Dev nD) (t : Fin cfg3.N) (p : Fin 1000) (k : Fin 128) (hr : t.val * 1000 + p.val < 3000) :
    blk3_1 V c t (ix2 p k) = x3 V c (ix2 (⟨t.val * 1000 + p.val, hr⟩ : Fin 3000) k) := by
  obtain ⟨e0, e1⟩ := (idx_facts3 t).2.1
  show iblk3 V c 1 t (ix2 p k) = _
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1000 + 1 * p.val = t.val * 1000 + p.val; rw [e0]; omega
  | ⟨1, _⟩ => show win3_1.index t (1 : Fin 2) * 128 + 1 * k.val = k.val; rw [e1]; omega

/-- Window 2's one block, at any point, is its whole array. -/
theorem blk3_2_eq (c : Dev nD) (t : Fin cfg3.N) : blk3_2 V c t = wll3 V c := by
  obtain ⟨e0, e1⟩ := (idx_facts3 t).2.2.1
  funext j
  obtain ⟨k, q, rfl⟩ : ∃ (k : Fin 128) (q : Fin 256), j = ix2 k q := ⟨j 0, j 1, eq_ix2 j⟩
  show iblk3 V c 2 t (ix2 k q) = _
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * k.val = k.val; rw [e0]; omega
  | ⟨1, _⟩ => show win3_2.index t (1 : Fin 2) * 256 + 1 * q.val = q.val; rw [e1]; omega

/-- Window 3's one block, at any point, is its whole array. -/
theorem blk3_3_eq (c : Dev nD) (t : Fin cfg3.N) : blk3_3 V c t = wrr3 V c := by
  obtain ⟨e0, e1⟩ := (idx_facts3 t).2.2.2.1
  funext j
  obtain ⟨k, q, rfl⟩ : ∃ (k : Fin 128) (q : Fin 256), j = ix2 k q := ⟨j 0, j 1, eq_ix2 j⟩
  show iblk3 V c 3 t (ix2 k q) = _
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 128 + 1 * k.val = k.val; rw [e0]; omega
  | ⟨1, _⟩ => show win3_3.index t (1 : Fin 2) * 256 + 1 * q.val = q.val; rw [e1]; omega

/-- Window 4's one block, at any point, is its whole row. -/
theorem blk3_4_eq (c : Dev nD) (t : Fin cfg3.N) : blk3_4 V c t = b3 V c := by
  obtain ⟨e0, e1⟩ := (idx_facts3 t).2.2.2.2.1
  funext j
  obtain ⟨u, q, rfl⟩ : ∃ (u : Fin 1) (q : Fin 256), j = ix2 u q := ⟨j 0, j 1, eq_ix2 j⟩
  show iblk3 V c 4 t (ix2 u q) = _
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * u.val = u.val; rw [e0]; omega
  | ⟨1, _⟩ => show win3_4.index t (1 : Fin 2) * 256 + 1 * q.val = q.val; rw [e1]; omega

end Cert.KernelIdeal.Hand

end
-- ==== Proof.KI.Val3.lean ====
import proofs.«126569_j1468878815453_1_alg».proof.Proof.KI.Reg3
import proofs.«126569_j1468878815453_1_alg».proof.Proof.KI.Val3Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 3 (the one-relation combine of a 3000-row node type in 3 row blocks), the value

What each control case's stores leave, as the body's payloads of the input blocks and of what the accumulators held;
the accumulators after a point as running column sums; at the ideal instance, the three output arrays after the
region as functions of the five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

/-- The first point's store into the row-block output leaves the relation's block of the input blocks. -/
theorem run3_A_5_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) :
    VO3_5.read (Elt F) (VO3_5.writes (Elt F) VO3_5.junk (kernelRun3_A c i arg1 harg1 arg2 harg2 arg3 harg3 arg4 harg4 arg5 harg5 arg6 harg6 arg7 harg7 arg8 harg8 arg9 harg9 arg10 harg10 hc0 hc1 x0 x1 x2 x3 x4).1) = k3_pay6 x0 x2 x4 x1 x3 := by
  rw [View.read_writes_eq_canon _ _ _ (cover3_A_5 c i arg1 harg1 arg2 harg2 arg3 harg3 arg4 harg4 arg5 harg5 arg6 harg6 arg7 harg7 arg8 harg8 arg9 harg9 arg10 harg10 hc0 hc1 x0 x1 x2 x3 x4)]
  unfold kernelRun3_A
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The first point leaves the first accumulator at the block's column sums over the reset's zeros. -/
theorem run3_A_s0_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) :
    VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 hc0 hc1 x0 x1 x2 x3 x4).2.1) = k3_pay7 x0 x2 x4 x1 x3 (k3_pay4 (F := F)) := by
  rw [View.read_writes_eq_canon _ _ _ (scover3_A_0 c i arg1 harg1 arg2 harg2 arg3 harg3 arg4 harg4 arg5 harg5 arg6 harg6 arg7 harg7 arg8 harg8 arg9 harg9 arg10 harg10 hc0 hc1 x0 x1 x2 x3 x4)]
  unfold kernelRun3_A
  dsimp only
  try sl_unfold_words
  rw [View.canon_cons_unit_zero (S := S1x256) hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The first point leaves the second accumulator at the column sums of the block's squares over the reset's zeros. -/
theorem run3_A_s1_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond3_0 i) (hc1 : ¬cond3_1 i)
    (x0 : Vec F S1000x128 .f32) (x1 : Vec F S1000x128 .f32) (x2 : Vec F S128x256 .f32) (x3 : Vec F S128x256 .f32) (x4 : Vec F S1x256 .f32) :
    VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 hc0 hc1 x0 x1 x2 x3 x4).2.2.1) = k3_pay1 (k3_pay8 x0 x2 x4 x1 x3 (k3_pay5 (F := F))) := by
  rw [View.read_writes_eq_canon _ _ _ (scover3_A_1 c i arg1 harg1 arg2 harg2 arg3 harg3 arg4 harg4 arg5 harg5 arg6 harg6 arg7 harg7 arg8 harg8 arg9 harg9 arg10 harg10 hc0 hc1 x0 x1 x2 x3 x4)]
  unfold kernelRun3_A
  dsimp only
  try sl_unfold_words
  rw [View.canon_cons_unit_zero (S := S1x256) hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The middle point's store into the row-block output leaves the relation's block. -/
theorem run3_B_5_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VO3_5.read (Elt F) (VO3_5.writes (Elt F) VO3_5.junk (kernelRun3_B c i arg1 harg1 arg2 harg2 arg3 harg3 arg4 harg4 arg5 harg5 arg6 harg6 arg7 harg7 arg8 harg8 arg9 harg9 arg10 harg10 hc0 hc1 x0 x1 x2 x3 x4 xs0 xs1).1) = k3_pay6 x0 x2 x4 x1 x3 := by
  rw [View.read_writes_eq_canon _ _ _ (cover3_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_B
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The middle point leaves the first accumulator at what it held plus the block's column sums. -/
theorem run3_B_s0_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 hc0 hc1 x0 x1 x2 x3 x4 xs0 xs1).2.1) = k3_pay7 x0 x2 x4 x1 x3 xs0 := by
  rw [View.read_writes_eq_canon _ _ _ (scover3_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_B
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The middle point leaves the second accumulator at what it held plus the column sums of the block's squares. -/
theorem run3_B_s1_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : ¬cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 hc0 hc1 x0 x1 x2 x3 x4 xs0 xs1).2.2.1) = k3_pay1 (k3_pay8 x0 x2 x4 x1 x3 xs1) := by
  rw [View.read_writes_eq_canon _ _ _ (scover3_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_B
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The last point's store into the row-block output leaves the relation's block. -/
theorem run3_C_5_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VO3_5.read (Elt F) (VO3_5.writes (Elt F) VO3_5.junk (kernelRun3_C c i arg1 harg1 arg2 harg2 arg3 harg3 arg4 harg4 arg5 harg5 arg6 harg6 arg7 harg7 arg8 harg8 arg9 harg9 arg10 harg10 hc0 hc1 x0 x1 x2 x3 x4 xs0 xs1).1) = k3_pay6 x0 x2 x4 x1 x3 := by
  rw [View.read_writes_eq_canon _ _ _ (cover3_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_C
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The last point's store into the mean output: the first accumulator, as this point leaves it, over the row count. -/
theorem run3_C_6_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VO3_6.read (Elt F) (VO3_6.writes (Elt F) VO3_6.junk (kernelRun3_C c i arg1 harg1 arg2 harg2 arg3 harg3 arg4 harg4 arg5 harg5 arg6 harg6 arg7 harg7 arg8 harg8 arg9 harg9 arg10 harg10 hc0 hc1 x0 x1 x2 x3 x4 xs0 xs1).2.1) = k3_pay2 (k3_pay7 x0 x2 x4 x1 x3 xs0) := by
  rw [View.read_writes_eq_canon _ _ _ (cover3_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_C
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The last point's store into the variance output, from the two accumulators as this point leaves them. -/
theorem run3_C_7_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.1) = k3_pay3 (k3_pay7 x0 x2 x4 x1 x3 xs0) (k3_pay1 (k3_pay8 x0 x2 x4 x1 x3 xs1)) := by
  rw [View.read_writes_eq_canon _ _ _ (cover3_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_C
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The last point leaves the first accumulator at what it held plus the block's column sums. -/
theorem run3_C_s0_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.1) = k3_pay7 x0 x2 x4 x1 x3 xs0 := by
  rw [View.read_writes_eq_canon _ _ _ (scover3_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_C
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

/-- The last point leaves the second accumulator at what it held plus the column sums of the block's squares. -/
theorem run3_C_s1_eq (c : Dev nD) (i : grid3.Coords) (arg1 : Memref sig .tc .vmem S1000x128 .f32) (harg1 : arg1.IsWhole) (arg2 : Memref sig .tc .vmem S1000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond3_0 i) (hc1 : cond3_1 i)
    (x0 : Vec F S1000x128 .f32) (x1 : Vec F S1000x128 .f32) (x2 : Vec F S128x256 .f32) (x3 : Vec F S128x256 .f32) (x4 : Vec F S1x256 .f32) (xs0 : Vec F S1x256 .f32) (xs1 : Vec F S1x256 .f32) :
    VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 hc0 hc1 x0 x1 x2 x3 x4 xs0 xs1).2.2.2.2.1) = k3_pay1 (k3_pay8 x0 x2 x4 x1 x3 xs1) := by
  rw [View.read_writes_eq_canon _ _ _ (scover3_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun3_C
  dsimp only
  try sl_unfold_words
  rw [View.canon_unit_zero hz3]
  simp only [View.readAt_eq_ld, Memref.IsWhole.read_unread, View.ld_unit_zero (S := S1000x128) hz3, View.ld_unit_zero (S := S128x256) hz3, View.ld_unit_zero (S := S1x256) hz3, View.ld_unit_zero (S := S1000x256) hz3, View.readCov_unit_zero (S := S1x256) _ hz3]

end Pieces

/-! ## The result, index by index -/

-- the TensorCore's buffer contents when the region is entered
variable (V : (c : Dev nD) → (b : Ref sig .tc) → Buf (Elt Ideal) ((c : Thread nD τ).loc b))

/-- Every entry of the layer: the relation's contribution to a row and an output column. -/
noncomputable def hArr3 (a x : S3000x128.Idx → EReal) (wl wr : S128x256.Idx → EReal) (b : S1x256.Idx → EReal) :
    S3000x256.Idx → EReal :=
  fun i => Sage.rel (fun k : Fin 128 => a (ix2 (i 0) k)) (fun k : Fin 128 => x (ix2 (i 0) k)) (fun k : Fin 128 => wl (ix2 k (i 1))) (fun k : Fin 128 => wr (ix2 k (i 1))) (b (ix2 (0 : Fin 1) (i 1)))

/-- The layer of the arrays as the region finds them. -/
noncomputable abbrev hOut3 (c : Dev nD) : S3000x256.Idx → EReal :=
  hArr3 (agg3 V c) (x3 V c) (wll3 V c) (wrr3 V c) (b3 V c)

/-- The block the body computes at point `t`, from the input windows' blocks there. -/
noncomputable abbrev hblk3 (c : Dev nD) (t : Fin cfg3.N) : S1000x256.Idx → EReal :=
  k3_pay6 (F := Ideal) (blk3_0 V c t) (blk3_2 V c t) (blk3_4 V c t) (blk3_1 V c t) (blk3_3 V c t)

/-- Row `p`, column `q` of that block is the layer's entry at row `1000 t + p`. -/
theorem hblk3_at (c : Dev nD) (t : Fin cfg3.N) (p : Fin 1000) (q : Fin 256) (hr : t.val * 1000 + p.val < 3000) :
    hblk3 V c t (ix2 p q) = hOut3 V c (ix2 (⟨t.val * 1000 + p.val, hr⟩ : Fin 3000) q) := by
  refine (pay3_6_at (blk3_0 V c t) (blk3_1 V c t) (blk3_2 V c t) (blk3_3 V c t) (blk3_4 V c t) p q).trans ?_
  simp only [blk3_0_at V c t p _ hr, blk3_1_at V c t p _ hr, blk3_2_eq V c t, blk3_3_eq V c t, blk3_4_eq V c t]
  rfl

/-! ## What the outputs and the accumulators hold after a point -/

theorem N3_lt (t : Fin cfg3.N) : t.val < 3 := lt_of_lt_of_eq t.isLt (show cfg3.N = 3 from N_3)

/-- After the first point: the block, and the accumulators at zero plus the block's column sums. -/
theorem outs3_first (c : Dev nD) (t : Fin cfg3.N) (h0 : t.val = 0) :
    (outsAt3 V c t.val t.isLt).1 = hblk3 V c t
    ∧ (outsAt3 V c t.val t.isLt).2.2.2.1 = k3_pay7 (F := Ideal) (blk3_0 V c t) (blk3_2 V c t) (blk3_4 V c t) (blk3_1 V c t) (blk3_3 V c t) (k3_pay4 (F := Ideal))
    ∧ (outsAt3 V c t.val t.isLt).2.2.2.2 = k3_pay1 (F := Ideal) (k3_pay8 (F := Ideal) (blk3_0 V c t) (blk3_2 V c t) (blk3_4 V c t) (blk3_1 V c t) (blk3_3 V c t) (k3_pay5 (F := Ideal))) := by
  have h0' : t.val % 3 = 0 := by rw [h0]
  have h1' : ¬t.val % 3 = 2 := by omega
  rw [outsAt3_A V c t h0' h1']
  unfold outA3
  dsimp only
  exact ⟨run3_A_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0') (fun h => h1' ((hcond3_1 t).mp h)) (iblk3 V c 0 t) (iblk3 V c 1 t) (iblk3 V c 2 t) (iblk3 V c 3 t) (iblk3 V c 4 t),
    run3_A_s0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0') (fun h => h1' ((hcond3_1 t).mp h)) (iblk3 V c 0 t) (iblk3 V c 1 t) (iblk3 V c 2 t) (iblk3 V c 3 t) (iblk3 V c 4 t),
    run3_A_s1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0') (fun h => h1' ((hcond3_1 t).mp h)) (iblk3 V c 0 t) (iblk3 V c 1 t) (iblk3 V c 2 t) (iblk3 V c 3 t) (iblk3 V c 4 t)⟩

/-- After the middle point: the block, and each accumulator at what the point before left plus the block's column sums. -/
theorem outs3_mid (c : Dev nD) (t : Fin cfg3.N) (h0 : t.val ≠ 0) (h1 : ¬t.val % 3 = 2) :
    (outsAt3 V c t.val t.isLt).1 = hblk3 V c t
    ∧ (outsAt3 V c t.val t.isLt).2.2.2.1 = k3_pay7 (F := Ideal) (blk3_0 V c t) (blk3_2 V c t) (blk3_4 V c t) (blk3_1 V c t) (blk3_3 V c t) (outsAt3 V c (t.val - 1) (Nat.lt_of_le_of_lt (Nat.sub_le _ _) t.isLt)).2.2.2.1
    ∧ (outsAt3 V c t.val t.isLt).2.2.2.2 = k3_pay1 (F := Ideal) (k3_pay8 (F := Ideal) (blk3_0 V c t) (blk3_2 V c t) (blk3_4 V c t) (blk3_1 V c t) (blk3_3 V c t) (outsAt3 V c (t.val - 1) (Nat.lt_of_le_of_lt (Nat.sub_le _ _) t.isLt)).2.2.2.2) := by
  have hN := N3_lt t
  have h0' : ¬t.val % 3 = 0 := by omega
  have h1' : ¬t.val % 3 = 2 := h1
  rw [outsAt3_B V c t h0' h1']
  unfold outB3
  dsimp only
  exact ⟨run3_B_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) (fun h => h1' ((hcond3_1 t).mp h)) (iblk3 V c 0 t) (iblk3 V c 1 t) (iblk3 V c 2 t) (iblk3 V c 3 t) (iblk3 V c 4 t) _ _,
    run3_B_s0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) (fun h => h1' ((hcond3_1 t).mp h)) (iblk3 V c 0 t) (iblk3 V c 1 t) (iblk3 V c 2 t) (iblk3 V c 3 t) (iblk3 V c 4 t) _ _,
    run3_B_s1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) (fun h => h1' ((hcond3_1 t).mp h)) (iblk3 V c 0 t) (iblk3 V c 1 t) (iblk3 V c 2 t) (iblk3 V c 3 t) (iblk3 V c 4 t) _ _⟩

set_option maxHeartbeats 1000000 in
/-- After the last point: the block, the two statistics rows from the accumulators as this point leaves them, and the
    accumulators as at a middle point. -/
theorem outs3_last (c : Dev nD) (t : Fin cfg3.N) (h0 : t.val ≠ 0) (h1 : t.val % 3 = 2) :
    (outsAt3 V c t.val t.isLt).1 = hblk3 V c t
    ∧ (outsAt3 V c t.val t.isLt).2.1 = k3_pay2 (F := Ideal) (outsAt3 V c t.val t.isLt).2.2.2.1
    ∧ (outsAt3 V c t.val t.isLt).2.2.1 = k3_pay3 (F := Ideal) (outsAt3 V c t.val t.isLt).2.2.2.1 (outsAt3 V c t.val t.isLt).2.2.2.2
    ∧ (outsAt3 V c t.val t.isLt).2.2.2.1 = k3_pay7 (F := Ideal) (blk3_0 V c t) (blk3_2 V c t) (blk3_4 V c t) (blk3_1 V c t) (blk3_3 V c t) (outsAt3 V c (t.val - 1) (Nat.lt_of_le_of_lt (Nat.sub_le _ _) t.isLt)).2.2.2.1
    ∧ (outsAt3 V c t.val t.isLt).2.2.2.2 = k3_pay1 (F := Ideal) (k3_pay8 (F := Ideal) (blk3_0 V c t) (blk3_2 V c t) (blk3_4 V c t) (blk3_1 V c t) (blk3_3 V c t) (outsAt3 V c (t.val - 1) (Nat.lt_of_le_of_lt (Nat.sub_le _ _) t.isLt)).2.2.2.2) := by
  have hN := N3_lt t
  have h0' : ¬t.val % 3 = 0 := by omega
  have h1' : t.val % 3 = 2 := h1
  rw [outsAt3_C V c t h0' h1']
  unfold outC3
  dsimp only
  have e0 := run3_C_s0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) ((hcond3_1 t).mpr h1') (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2
  have e1 := run3_C_s1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) ((hcond3_1 t).mpr h1') (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2
  exact ⟨run3_C_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) ((hcond3_1 t).mpr h1') (iblk3 V c 0 t) (iblk3 V c 1 t) (iblk3 V c 2 t) (iblk3 V c 3 t) (iblk3 V c 4 t) _ _,
    (run3_C_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) ((hcond3_1 t).mpr h1') (iblk3 V c 0 t) (iblk3 V c 1 t) (iblk3 V c 2 t) (iblk3 V c 3 t) (iblk3 V c 4 t) _ _).trans (congrArg (k3_pay2 (F := Ideal)) e0.symm),
    (run3_C_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0' ((hcond3_0 t).mp h)) ((hcond3_1 t).mpr h1') (iblk3 V c 0 t) (iblk3 V c 1 t) (iblk3 V c 2 t) (iblk3 V c 3 t) (iblk3 V c 4 t) _ _).trans (congrArg₂ (k3_pay3 (F := Ideal)) e0.symm e1.symm),
    e0, e1⟩

/-- The block output's staging buffer after any point holds the block computed there. -/
theorem outs3_blk (c : Dev nD) (t : Fin cfg3.N) : (outsAt3 V c t.val t.isLt).1 = hblk3 V c t := by
  by_cases h0 : t.val = 0
  · exact (outs3_first V c t h0).1
  · by_cases h1 : t.val % 3 = 2
    · exact (outs3_last V c t h0 h1).1
    · exact (outs3_mid V c t h0 h1).1

/-! ## The accumulators are the running column sums -/

/-- Column `q` of the layer, its rows numbered by natural numbers (zero past the last row), -/
noncomputable def colN3 (c : Dev nD) (q : Fin 256) : ℕ → EReal :=
  fun i => if h : i < 3000 then hOut3 V c (ix2 (⟨i, h⟩ : Fin 3000) q) else 0
/-- and the column of its squares. -/
noncomputable def colSq3 (c : Dev nD) (q : Fin 256) : ℕ → EReal :=
  fun i => if h : i < 3000 then hOut3 V c (ix2 (⟨i, h⟩ : Fin 3000) q) * hOut3 V c (ix2 (⟨i, h⟩ : Fin 3000) q) else 0

/-- The column sum of the block at point `t` is tile `t`'s sum. -/
theorem tile3 (c : Dev nD) (t : Fin cfg3.N) (q : Fin 256) :
    ∑ r : Fin 1000, hblk3 V c t (ix2 r q) = Sage.tileSum 1000 (colN3 V c q) t.val := by
  have hN := N3_lt t
  unfold Sage.tileSum
  rw [Finset.sum_range]
  refine Finset.sum_congr rfl fun r _ => ?_
  have hr : t.val * 1000 + r.val < 3000 := by have := r.isLt; omega
  rw [hblk3_at V c t r q hr]
  unfold colN3
  rw [dif_pos hr]
theorem tileSq3 (c : Dev nD) (t : Fin cfg3.N) (q : Fin 256) :
    ∑ r : Fin 1000, hblk3 V c t (ix2 r q) * hblk3 V c t (ix2 r q) = Sage.tileSum 1000 (colSq3 V c q) t.val := by
  have hN := N3_lt t
  unfold Sage.tileSum
  rw [Finset.sum_range]
  refine Finset.sum_congr rfl fun r _ => ?_
  have hr : t.val * 1000 + r.val < 3000 := by have := r.isLt; omega
  rw [hblk3_at V c t r q hr]
  unfold colSq3
  rw [dif_pos hr]

/-- After point `n` the two accumulators hold, at column `q`, the sums over the first `n + 1` tiles of the column and
    of its squares. -/
theorem accs3_eq (c : Dev nD) (q : Fin 256) : ∀ (n : ℕ) (hn : n < cfg3.N),
    (outsAt3 V c n hn).2.2.2.1 (ix2 (0 : Fin 1) q) = Sage.acc 1000 (colN3 V c q) (n + 1)
    ∧ (outsAt3 V c n hn).2.2.2.2 (ix2 (0 : Fin 1) q) = Sage.acc 1000 (colSq3 V c q) (n + 1)
  | 0, hn => by
    obtain ⟨-, e1, e2⟩ := outs3_first V c ⟨0, hn⟩ rfl
    have e1' : (outsAt3 V c 0 hn).2.2.2.1 = _ := e1
    have e2' : (outsAt3 V c 0 hn).2.2.2.2 = _ := e2
    rw [e1', e2']
    constructor
    · refine (pay3_7_at _ _ _ _ _ _ q).trans ?_
      rw [pay3_4_at, Sage.acc_succ, Sage.acc_zero, tile3 V c ⟨0, hn⟩ q]
    · refine (pay3_8_at _ _ _ _ _ _ q).trans ?_
      rw [pay3_5_at, Sage.acc_succ, Sage.acc_zero, tileSq3 V c ⟨0, hn⟩ q]
  | n + 1, hn => by
    obtain ⟨ih1, ih2⟩ := accs3_eq c q n (Nat.lt_of_succ_lt hn)
    have hs : (outsAt3 V c (n + 1) hn).2.2.2.1 = k3_pay7 (F := Ideal) (blk3_0 V c ⟨n + 1, hn⟩) (blk3_2 V c ⟨n + 1, hn⟩) (blk3_4 V c ⟨n + 1, hn⟩) (blk3_1 V c ⟨n + 1, hn⟩) (blk3_3 V c ⟨n + 1, hn⟩) (outsAt3 V c n (Nat.lt_of_succ_lt hn)).2.2.2.1
        ∧ (outsAt3 V c (n + 1) hn).2.2.2.2 = k3_pay1 (F := Ideal) (k3_pay8 (F := Ideal) (blk3_0 V c ⟨n + 1, hn⟩) (blk3_2 V c ⟨n + 1, hn⟩) (blk3_4 V c ⟨n + 1, hn⟩) (blk3_1 V c ⟨n + 1, hn⟩) (blk3_3 V c ⟨n + 1, hn⟩) (outsAt3 V c n (Nat.lt_of_succ_lt hn)).2.2.2.2) := by
      by_cases h1 : (n + 1) % 3 = 2
      · exact ⟨(outs3_last V c ⟨n + 1, hn⟩ (Nat.succ_ne_zero n) h1).2.2.2.1, (outs3_last V c ⟨n + 1, hn⟩ (Nat.succ_ne_zero n) h1).2.2.2.2⟩
      · exact ⟨(outs3_mid V c ⟨n + 1, hn⟩ (Nat.succ_ne_zero n) h1).2.1, (outs3_mid V c ⟨n + 1, hn⟩ (Nat.succ_ne_zero n) h1).2.2⟩
    rw [hs.1, hs.2]
    constructor
    · refine (pay3_7_at _ _ _ _ _ _ q).trans ?_
      rw [ih1, Sage.acc_succ _ _ (n + 1)]
      exact congrArg (Sage.acc 1000 (colN3 V c q) (n + 1) + ·) (tile3 V c ⟨n + 1, hn⟩ q)
    · refine (pay3_8_at _ _ _ _ _ _ q).trans ?_
      rw [ih2, Sage.acc_succ _ _ (n + 1)]
      exact congrArg (Sage.acc 1000 (colSq3 V c q) (n + 1) + ·) (tileSq3 V c ⟨n + 1, hn⟩ q)

/-- All three tiles: the column's sum over all rows. -/
theorem acc_full3 (c : Dev nD) (q : Fin 256) :
    Sage.acc 1000 (colN3 V c q) 3 = ∑ r : Fin 3000, hOut3 V c (ix2 r q) := by
  rw [Sage.acc_eq_sum, show (3 * 1000 : ℕ) = 3000 from rfl, Finset.sum_range]
  refine Finset.sum_congr rfl fun r _ => ?_
  unfold colN3
  rw [dif_pos r.isLt]
theorem accSq_full3 (c : Dev nD) (q : Fin 256) :
    Sage.acc 1000 (colSq3 V c q) 3 = ∑ r : Fin 3000, hOut3 V c (ix2 r q) * hOut3 V c (ix2 r q) := by
  rw [Sage.acc_eq_sum, show (3 * 1000 : ℕ) = 3000 from rfl, Finset.sum_range]
  refine Finset.sum_congr rfl fun r _ => ?_
  unfold colSq3
  rw [dif_pos r.isLt]

/-! ## What a point writes back -/

/-- What point `t` writes back to the block output's array is block `t` of the layer. -/
theorem flushed3_5_eq (c : Dev nD) (t : Fin cfg3.N) :
    (dat3 (F := Ideal) V c).flushed 5 t = ((cfg3.win 5).blk t).view.read (Elt Ideal) (hOut3 V c) := by
  show (cfg3.win 5).cut (grid3.coords t) ((dat3 V c).after 5 t) = _
  rw [after3_5, outs3_blk V c t]
  have hN := N3_lt t
  obtain ⟨e0, e1⟩ := (idx_facts3 t).2.2.2.2.2.1
  funext j
  obtain ⟨p, q, rfl⟩ : ∃ (p : Fin 1000) (q : Fin 256), j = ix2 p q := ⟨j 0, j 1, eq_ix2 j⟩
  show hblk3 V c t (ix2 p q) = hOut3 V c (((cfg3.win 5).blk t).view.emb (ix2 p q))
  have hr : t.val * 1000 + p.val < 3000 := by have := p.isLt; omega
  rw [hblk3_at V c t p q hr]
  refine congrArg (hOut3 V c) (Shape.idx_ext₂ ?_ ?_)
  · show t.val * 1000 + p.val = win3_5.index t (0 : Fin 2) * 1000 + 1 * p.val; rw [e0]; omega
  · show q.val = win3_5.index t (1 : Fin 2) * 256 + 1 * q.val; rw [e1]; omega

/-- The mean row: each column's mean over the 3000 rows of the layer, -/
noncomputable def meanRow3 (h : S3000x256.Idx → EReal) : S1x256.Idx → EReal :=
  fun i => Sage.colMean (((3000 : ℝ) : EReal)) (fun r : Fin 3000 => h (ix2 r (i 1)))
/-- and the variance row: each column's mean of squares less its squared mean. -/
noncomputable def varRow3 (h : S3000x256.Idx → EReal) : S1x256.Idx → EReal :=
  fun i => Sage.colVarSq (((3000 : ℝ) : EReal)) (fun r : Fin 3000 => h (ix2 r (i 1)))

/-- A point that writes a statistics row back is the last one. -/
theorem last_of_flush3 (t : Fin cfg3.N) (h : t.val % 3 = 2) : t.val = 2 := by have := N3_lt t; omega

/-- What the last point writes back to the mean output's array is the mean row. -/
theorem flushed3_6_eq (c : Dev nD) (t : Fin cfg3.N) (hf : (cfg3.win 6).flush t = true) :
    (dat3 (F := Ideal) V c).flushed 6 t = ((cfg3.win 6).blk t).view.read (Elt Ideal) (meanRow3 (hOut3 V c)) := by
  have h1 : t.val % 3 = 2 := (flush3_6 t).mp hf
  have h2 : t.val = 2 := last_of_flush3 t h1
  show (cfg3.win 6).cut (grid3.coords t) ((dat3 V c).after 6 t) = _
  rw [after3_6, (outs3_last V c t (by omega) h1).2.1]
  obtain ⟨e0, e1⟩ := (idx_facts3 t).2.2.2.2.2.2.1
  funext j
  obtain ⟨u, q, rfl⟩ : ∃ (u : Fin 1) (q : Fin 256), j = ix2 u q := ⟨j 0, j 1, eq_ix2 j⟩
  obtain rfl : u = 0 := Subsingleton.elim _ _
  show k3_pay2 (F := Ideal) (outsAt3 V c t.val t.isLt).2.2.2.1 (ix2 (0 : Fin 1) q) = meanRow3 (hOut3 V c) (((cfg3.win 6).blk t).view.emb (ix2 (0 : Fin 1) q))
  have hq : ((((cfg3.win 6).blk t).view.emb (ix2 (0 : Fin 1) q) : S1x256.Idx) 1) = q :=
    Fin.ext (by show win3_6.index t (1 : Fin 2) * 256 + 1 * q.val = q.val; rw [e1]; omega)
  refine (pay3_2_at _ _).trans ?_
  unfold meanRow3 Sage.colMean
  have hrows : rows3 = (((3000 : ℝ) : EReal)) := Sage.ofBits_3000
  rw [hq, (accs3_eq V c q t.val t.isLt).1, h2, acc_full3, hrows]

/-- What the last point writes back to the variance output's array is the variance row. -/
theorem flushed3_7_eq (c : Dev nD) (t : Fin cfg3.N) (hf : (cfg3.win 7).flush t = true) :
    (dat3 (F := Ideal) V c).flushed 7 t = ((cfg3.win 7).blk t).view.read (Elt Ideal) (varRow3 (hOut3 V c)) := by
  have h1 : t.val % 3 = 2 := (flush3_7 t).mp hf
  have h2 : t.val = 2 := last_of_flush3 t h1
  show (cfg3.win 7).cut (grid3.coords t) ((dat3 V c).after 7 t) = _
  rw [after3_7, (outs3_last V c t (by omega) h1).2.2.1]
  obtain ⟨e0, e1⟩ := (idx_facts3 t).2.2.2.2.2.2.2
  funext j
  obtain ⟨u, q, rfl⟩ : ∃ (u : Fin 1) (q : Fin 256), j = ix2 u q := ⟨j 0, j 1, eq_ix2 j⟩
  obtain rfl : u = 0 := Subsingleton.elim _ _
  show k3_pay3 (F := Ideal) (outsAt3 V c t.val t.isLt).2.2.2.1 (outsAt3 V c t.val t.isLt).2.2.2.2 (ix2 (0 : Fin 1) q) = varRow3 (hOut3 V c) (((cfg3.win 7).blk t).view.emb (ix2 (0 : Fin 1) q))
  have hq : ((((cfg3.win 7).blk t).view.emb (ix2 (0 : Fin 1) q) : S1x256.Idx) 1) = q :=
    Fin.ext (by show win3_7.index t (1 : Fin 2) * 256 + 1 * q.val = q.val; rw [e1]; omega)
  refine (pay3_3_at _ _ _).trans ?_
  unfold varRow3 Sage.colVarSq Sage.colMean
  have hrows : rows3 = (((3000 : ℝ) : EReal)) := Sage.ofBits_3000
  rw [hq, (accs3_eq V c q t.val t.isLt).1, (accs3_eq V c q t.val t.isLt).2, h2, acc_full3, accSq_full3, hrows]

/-! ## From the blocks to the arrays -/

/-- An index of an output's array is in point `t`'s block iff each coordinate is in the block's range on its axis. -/
theorem mem_blk3_5 (t : Fin cfg3.N) (i : S3000x256.Idx) :
    i ∈ ((cfg3.win 5).blk t).view.set ↔ ∀ a : Fin 2, win3_5.index t a * S1000x256.size a ≤ (i a).val ∧ (i a).val < win3_5.index t a * S1000x256.size a + S1000x256.size a := by
  show i ∈ ((View.whole (Pipeline.arrRef spec3 5)).slice (win3_5.rect t)).set ↔ _
  rw [View.set_slice_whole, Rect.mem_set_unit]
  exact Iff.rfl
theorem mem_blk3_6 (t : Fin cfg3.N) (i : S1x256.Idx) :
    i ∈ ((cfg3.win 6).blk t).view.set ↔ ∀ a : Fin 2, win3_6.index t a * S1x256.size a ≤ (i a).val ∧ (i a).val < win3_6.index t a * S1x256.size a + S1x256.size a := by
  show i ∈ ((View.whole (Pipeline.arrRef spec3 6)).slice (win3_6.rect t)).set ↔ _
  rw [View.set_slice_whole, Rect.mem_set_unit]
  exact Iff.rfl
theorem mem_blk3_7 (t : Fin cfg3.N) (i : S1x256.Idx) :
    i ∈ ((cfg3.win 7).blk t).view.set ↔ ∀ a : Fin 2, win3_7.index t a * S1x256.size a ≤ (i a).val ∧ (i a).val < win3_7.index t a * S1x256.size a + S1x256.size a := by
  show i ∈ ((View.whole (Pipeline.arrRef spec3 7)).slice (win3_7.rect t)).set ↔ _
  rw [View.set_slice_whole, Rect.mem_set_unit]
  exact Iff.rfl

/-- Row `r` of the block output's array is in the block of point `r / 1000`, which writes it back. -/
theorem covered3_5 (i : S3000x256.Idx) : ∃ t : Fin cfg3.N, (cfg3.win 5).flush t = true ∧ i ∈ ((cfg3.win 5).blk t).view.set := by
  have hi0 : (i 0).val < 3000 := (i 0).isLt
  have hi1 : (i 1).val < 256 := (i 1).isLt
  have hN : cfg3.N = 3 := N_3
  let t : Fin cfg3.N := ⟨(i 0).val / 1000, by rw [hN]; omega⟩
  obtain ⟨e0, e1⟩ := (idx_facts3 t).2.2.2.2.2.1
  have ht : t.val = (i 0).val / 1000 := rfl
  refine ⟨t, flush3_5 t, ?_⟩
  rw [mem_blk3_5]
  intro a
  match a with
  | ⟨0, _⟩ => show win3_5.index t (0 : Fin 2) * 1000 ≤ (i 0).val ∧ (i 0).val < win3_5.index t (0 : Fin 2) * 1000 + 1000; omega
  | ⟨1, _⟩ => show win3_5.index t (1 : Fin 2) * 256 ≤ (i 1).val ∧ (i 1).val < win3_5.index t (1 : Fin 2) * 256 + 256; omega

/-- The last point's block of a statistics output is its whole row. -/
theorem covered3_6 (i : S1x256.Idx) : ∃ t : Fin cfg3.N, (cfg3.win 6).flush t = true ∧ i ∈ ((cfg3.win 6).blk t).view.set := by
  have hi0 : (i 0).val < 1 := (i 0).isLt
  have hi1 : (i 1).val < 256 := (i 1).isLt
  have hN : cfg3.N = 3 := N_3
  let t : Fin cfg3.N := ⟨2, by rw [hN]; omega⟩
  obtain ⟨e0, e1⟩ := (idx_facts3 t).2.2.2.2.2.2.1
  refine ⟨t, (flush3_6 t).mpr rfl, ?_⟩
  rw [mem_blk3_6]
  intro a
  match a with
  | ⟨0, _⟩ => show win3_6.index t (0 : Fin 2) * 1 ≤ (i 0).val ∧ (i 0).val < win3_6.index t (0 : Fin 2) * 1 + 1; omega
  | ⟨1, _⟩ => show win3_6.index t (1 : Fin 2) * 256 ≤ (i 1).val ∧ (i 1).val < win3_6.index t (1 : Fin 2) * 256 + 256; omega
theorem covered3_7 (i : S1x256.Idx) : ∃ t : Fin cfg3.N, (cfg3.win 7).flush t = true ∧ i ∈ ((cfg3.win 7).blk t).view.set := by
  have hi0 : (i 0).val < 1 := (i 0).isLt
  have hi1 : (i 1).val < 256 := (i 1).isLt
  have hN : cfg3.N = 3 := N_3
  let t : Fin cfg3.N := ⟨2, by rw [hN]; omega⟩
  obtain ⟨e0, e1⟩ := (idx_facts3 t).2.2.2.2.2.2.2
  refine ⟨t, (flush3_7 t).mpr rfl, ?_⟩
  rw [mem_blk3_7]
  intro a
  match a with
  | ⟨0, _⟩ => show win3_7.index t (0 : Fin 2) * 1 ≤ (i 0).val ∧ (i 0).val < win3_7.index t (0 : Fin 2) * 1 + 1; omega
  | ⟨1, _⟩ => show win3_7.index t (1 : Fin 2) * 256 ≤ (i 1).val ∧ (i 1).val < win3_7.index t (1 : Fin 2) * 256 + 256; omega

/-- The block output's array after the region: the layer of the arrays as the region finds them. -/
theorem final3_5 (c : Dev nD) : (dat3 (F := Ideal) V c).arrAt 5 cfg3.N = hOut3 V c :=
  (dat3 (F := Ideal) V c).arrAt_eq_of_cover 5 _ (fun t _ => flushed3_5_eq V c t) covered3_5

/-- The mean output's array after the region: the layer's column means. -/
theorem final3_6 (c : Dev nD) : (dat3 (F := Ideal) V c).arrAt 6 cfg3.N = meanRow3 (hOut3 V c) :=
  (dat3 (F := Ideal) V c).arrAt_eq_of_cover 6 _ (fun t hf => flushed3_6_eq V c t hf) covered3_6

/-- The variance output's array after the region: the layer's column variances. -/
theorem final3_7 (c : Dev nD) : (dat3 (F := Ideal) V c).arrAt 7 cfg3.N = varRow3 (hOut3 V c) :=
  (dat3 (F := Ideal) V c).arrAt_eq_of_cover 7 _ (fun t hf => flushed3_7_eq V c t hf) covered3_7

/-- The same, entry by entry. -/
theorem final3_5_apply (c : Dev nD) (r : Fin 3000) (q : Fin 256) :
    ((dat3 (F := Ideal) V c).arrAt 5 cfg3.N : S3000x256.Idx → EReal) (ix2 r q)
      = Sage.rel (fun k : Fin 128 => agg3 V c (ix2 r k)) (fun k : Fin 128 => x3 V c (ix2 r k)) (fun k : Fin 128 => wll3 V c (ix2 k q)) (fun k : Fin 128 => wrr3 V c (ix2 k q)) (b3 V c (ix2 (0 : Fin 1) q)) :=
  congrFun (final3_5 V c) (ix2 r q)
theorem final3_6_apply (c : Dev nD) (q : Fin 256) :
    ((dat3 (F := Ideal) V c).arrAt 6 cfg3.N : S1x256.Idx → EReal) (ix2 (0 : Fin 1) q)
      = Sage.colMean (((3000 : ℝ) : EReal)) (fun r : Fin 3000 => hOut3 V c (ix2 r q)) :=
  congrFun (final3_6 V c) (ix2 (0 : Fin 1) q)
theorem final3_7_apply (c : Dev nD) (q : Fin 256) :
    ((dat3 (F := Ideal) V c).arrAt 7 cfg3.N : S1x256.Idx → EReal) (ix2 (0 : Fin 1) q)
      = Sage.colVarSq (((3000 : ℝ) : EReal)) (fun r : Fin 3000 => hOut3 V c (ix2 r q)) :=
  congrFun (final3_7 V c) (ix2 (0 : Fin 1) q)

/-! ## The input arrays are kept -/

theorem kept3_0 (c : Dev nD) : (dat3 (F := Ideal) V c).arrAt 0 cfg3.N = V c (Pipeline.arrRef spec3 0) :=
  ((dat3 V c).arrAt_in 0 rfl _).trans (A_eq3 V c 0)
theorem kept3_1 (c : Dev nD) : (dat3 (F := Ideal) V c).arrAt 1 cfg3.N = V c (Pipeline.arrRef spec3 1) :=
  ((dat3 V c).arrAt_in 1 rfl _).trans (A_eq3 V c 1)
theorem kept3_2 (c : Dev nD) : (dat3 (F := Ideal) V c).arrAt 2 cfg3.N = V c (Pipeline.arrRef spec3 2) :=
  ((dat3 V c).arrAt_in 2 rfl _).trans (A_eq3 V c 2)
theorem kept3_3 (c : Dev nD) : (dat3 (F := Ideal) V c).arrAt 3 cfg3.N = V c (Pipeline.arrRef spec3 3) :=
  ((dat3 V c).arrAt_in 3 rfl _).trans (A_eq3 V c 3)
theorem kept3_4 (c : Dev nD) : (dat3 (F := Ideal) V c).arrAt 4 cfg3.N = V c (Pipeline.arrRef spec3 4) :=
  ((dat3 V c).arrAt_in 4 rfl _).trans (A_eq3 V c 4)

end Cert.KernelIdeal.Hand

end
-- ==== Proof.CmpL1T3.lean ====
/-
  Layer 1 compared: on a core where the two launch memories agree on the arguments, each relation's aggregation is
  the same function of the same operands in both programs, and for each node type the array the kernel's combine region
  leaves is the reference's sum of relation stages and the array its normalisation region leaves the reference's result.
-/
import proofs.«126569_j1468878815453_1_alg».proof.Proof.CmpA1
import proofs.«126569_j1468878815453_1_alg».proof.Proof.KI.ReadL1b
import proofs.«126569_j1468878815453_1_alg».proof.Proof.KI.Val3
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 1, the node type of 3000 rows: the kernel's relation sums are the reference's, and its normalised result the reference's. -/
theorem l1_3 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kH1_3 m ρ c = Cert.ReferenceIdeal.Hand.rH1_path m' c ∧ Cert.KernelIdeal.Hand.kOut1_3 m ρ c = Cert.ReferenceIdeal.Hand.rOut1_path m' c := by
  have ea0 := agg1_2 m ρ m' c hag
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH1_3 m ρ c = Cert.KernelIdeal.Hand.hArr3 (Cert.KernelIdeal.Hand.kAgg1_2 m ρ c) (m ((c.tc : Thread Cert.KernelIdeal.nD Cert.KernelIdeal.τ).loc Cert.KernelIdeal.main_arg3)) (Cert.KernelIdeal.Hand.kWl1_2 m ρ c) (Cert.KernelIdeal.Hand.kWr1_2 m ρ c) (Cert.KernelIdeal.Hand.kB1_2 m ρ c) :=
    (Cert.KernelIdeal.Hand.final3_5 (Cert.KernelIdeal.Hand.V7 m ρ) c).trans (Sage.cmp5 Cert.KernelIdeal.Hand.hArr3 (Cert.KernelIdeal.Hand.ent3_0 m ρ c) (Cert.KernelIdeal.Hand.ent3_1 m ρ c) (Cert.KernelIdeal.Hand.ent3_2 m ρ c) (Cert.KernelIdeal.Hand.ent3_3 m ρ c) (Cert.KernelIdeal.Hand.ent3_4 m ρ c))
  exact Sage.node1_eq (n := 3000) (k := 128) (m := 256) (R := 7) (i0 := 2)
    Cert.ReferenceIdeal.dot_S3000x128_S128x256_S3000x256_1_0_0_1_n_n Cert.ReferenceIdeal.Gen.slices_S7x128x256_S1x128x256_2_0_0 Cert.ReferenceIdeal.Gen.shapeCasts_S1x128x256_S128x256
    Cert.ReferenceIdeal.Gen.slices_S7x256_S1x256_2_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S3000x256_0_1
    (Ideal.ofBits .f32 0x3727C5AC#32) 3000 Cert.ReferenceIdeal.Hand.refBn3000 rfl (by decide)
    (fun H hH g beta r q => Cert.ReferenceIdeal.Hand.refBn3000_eq_sq H hH g beta r q)
    (Cert.KernelIdeal.Hand.kAgg1_2 m ρ c) (m ((c.tc : Thread Cert.KernelIdeal.nD Cert.KernelIdeal.τ).loc Cert.KernelIdeal.main_arg3)) (Cert.ReferenceIdeal.Hand.rAgg1_2 m' c) (Cert.ReferenceIdeal.Hand.inX_path m' c)
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.Hand.inW1l m' c) (Cert.ReferenceIdeal.Hand.inW1r m' c) (m ((c.tc : Thread Cert.KernelIdeal.nD Cert.KernelIdeal.τ).loc Cert.KernelIdeal.main_arg6)) (Cert.ReferenceIdeal.Hand.inB1 m' c)
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (Cert.ReferenceIdeal.Hand.inG1 m' c) (Cert.ReferenceIdeal.Hand.inBeta1 m' c)
    ea0 h3.symm h4.symm h5.symm h6.symm h10.symm h11.symm
    (Cert.ReferenceIdeal.Hand.rAgg1_2_allReal hreal) hreal.x_path hreal.w1l hreal.w1r hreal.b1
    (Cert.KernelIdeal.Hand.kH1_3 m ρ c) (Cert.KernelIdeal.Hand.kOut1_3 m ρ c) (Cert.KernelIdeal.Hand.kMean1_3 m ρ c) (Cert.KernelIdeal.Hand.kVar1_3 m ρ c) (Cert.KernelIdeal.Hand.kG1_3 m ρ c) (Cert.KernelIdeal.Hand.kBeta1_3 m ρ c)
    (fun r q => congrFun hHk (ix2 r q))
    (fun q => (Cert.KernelIdeal.Hand.final3_6_apply (Cert.KernelIdeal.Hand.V7 m ρ) c q).trans
      (congrArg (fun H : Cert.ReferenceIdeal.S3000x256.Idx → EReal => Sage.colMean ((3000 : ℝ) : EReal) fun r : Fin 3000 => H (ix2 r q)) (Cert.KernelIdeal.Hand.final3_5 (Cert.KernelIdeal.Hand.V7 m ρ) c).symm))
    (fun q => (Cert.KernelIdeal.Hand.final3_7_apply (Cert.KernelIdeal.Hand.V7 m ρ) c q).trans
      (congrArg (fun H : Cert.ReferenceIdeal.S3000x256.Idx → EReal => Sage.colVarSq ((3000 : ℝ) : EReal) fun r : Fin 3000 => H (ix2 r q)) (Cert.KernelIdeal.Hand.final3_5 (Cert.KernelIdeal.Hand.V7 m ρ) c).symm))
    (fun q => Sage.row_of_vec_apply (m ((c.tc : Thread Cert.KernelIdeal.nD Cert.KernelIdeal.τ).loc Cert.KernelIdeal.main_arg10)) Cert.KernelIdeal.Gen.shapeCasts_S256_S1x256 q)
    (fun q => Sage.row_of_vec_apply (m ((c.tc : Thread Cert.KernelIdeal.nD Cert.KernelIdeal.τ).loc Cert.KernelIdeal.main_arg11)) Cert.KernelIdeal.Gen.shapeCasts_S256_S1x256 q)
    (fun _ _ => rfl)

end Cert.Proof

end
-- ==== Proof.CmpA2.lean ====
/-
  Layer 2's aggregations compared: on a core where the two launch memories agree on the arguments, each relation's
  aggregation is the same function of the same operands in both programs, the features being layer 1's results.
-/
import proofs.«126569_j1468878815453_1_alg».proof.Proof.CmpDefs
import proofs.«126569_j1468878815453_1_alg».proof.Proof.KI.ReadL2a
import proofs.«126569_j1468878815453_1_alg».proof.Proof.Ref.StageDefs
import proofs.«126569_j1468878815453_1_alg».proof.Proof.Sage.Layer

set_option maxRecDepth 16384

noncomputable section

namespace Cert.Proof

open Idealize.ShloMosaic Idealize.ShloMosaic.ValueIdx Idealize.SL.Sem

/-- Layer 2, relation 0: the two aggregations are one function of operands that agree, the features being layer 1's results. -/
theorem agg2_0 (m : KMem) (ρ : Dev Cert.KernelIdeal.nD → PrngReg) (m' : RMem) (c : Dev Cert.KernelIdeal.nD) (hag : Agree m m' c)
    (hx : Cert.KernelIdeal.Hand.kOut1_0 m ρ c = Cert.ReferenceIdeal.Hand.rOut1_drug m' c) :
    Cert.KernelIdeal.Hand.kAgg2_0 m ρ c = Cert.ReferenceIdeal.Hand.rAgg2_0 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_0 (F := Ideal)) hx h14.symm h15.symm

/-- Layer 2, relation 1: the two aggregations are one function of operands that agree, the features being layer 1's results. -/
theorem agg2_1 (m : KMem) (ρ : Dev Cert.KernelIdeal.nD → PrngReg) (m' : RMem) (c : Dev Cert.KernelIdeal.nD) (hag : Agree m m' c)
    (hx : Cert.KernelIdeal.Hand.kOut1_0 m ρ c = Cert.ReferenceIdeal.Hand.rOut1_drug m' c) :
    Cert.KernelIdeal.Hand.kAgg2_1 m ρ c = Cert.ReferenceIdeal.Hand.rAgg2_1 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_1 (F := Ideal)) hx h16.symm h17.symm

/-- Layer 2, relation 2: the two aggregations are one function of operands that agree, the features being layer 1's results. -/
theorem agg2_2 (m : KMem) (ρ : Dev Cert.KernelIdeal.nD → PrngReg) (m' : RMem) (c : Dev Cert.KernelIdeal.nD) (hag : Agree m m' c)
    (hx : Cert.KernelIdeal.Hand.kOut1_1 m ρ c = Cert.ReferenceIdeal.Hand.rOut1_protein m' c) :
    Cert.KernelIdeal.Hand.kAgg2_2 m ρ c = Cert.ReferenceIdeal.Hand.rAgg2_2 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_2 (F := Ideal)) hx h18.symm h19.symm

/-- Layer 2, relation 3: the two aggregations are one function of operands that agree, the features being layer 1's results. -/
theorem agg2_3 (m : KMem) (ρ : Dev Cert.KernelIdeal.nD → PrngReg) (m' : RMem) (c : Dev Cert.KernelIdeal.nD) (hag : Agree m m' c)
    (hx : Cert.KernelIdeal.Hand.kOut1_1 m ρ c = Cert.ReferenceIdeal.Hand.rOut1_protein m' c) :
    Cert.KernelIdeal.Hand.kAgg2_3 m ρ c = Cert.ReferenceIdeal.Hand.rAgg2_3 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_3 (F := Ideal)) hx h20.symm h21.symm

/-- Layer 2, relation 4: the two aggregations are one function of operands that agree, the features being layer 1's results. -/
theorem agg2_4 (m : KMem) (ρ : Dev Cert.KernelIdeal.nD → PrngReg) (m' : RMem) (c : Dev Cert.KernelIdeal.nD) (hag : Agree m m' c)
    (hx : Cert.KernelIdeal.Hand.kOut1_2 m ρ c = Cert.ReferenceIdeal.Hand.rOut1_side m' c) :
    Cert.KernelIdeal.Hand.kAgg2_4 m ρ c = Cert.ReferenceIdeal.Hand.rAgg2_4 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_4 (F := Ideal)) hx h22.symm h23.symm

/-- Layer 2, relation 5: the two aggregations are one function of operands that agree, the features being layer 1's results. -/
theorem agg2_5 (m : KMem) (ρ : Dev Cert.KernelIdeal.nD → PrngReg) (m' : RMem) (c : Dev Cert.KernelIdeal.nD) (hag : Agree m m' c)
    (hx : Cert.KernelIdeal.Hand.kOut1_1 m ρ c = Cert.ReferenceIdeal.Hand.rOut1_protein m' c) :
    Cert.KernelIdeal.Hand.kAgg2_5 m ρ c = Cert.ReferenceIdeal.Hand.rAgg2_5 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_5 (F := Ideal)) hx h24.symm h25.symm

/-- Layer 2, relation 6: the two aggregations are one function of operands that agree, the features being layer 1's results. -/
theorem agg2_6 (m : KMem) (ρ : Dev Cert.KernelIdeal.nD → PrngReg) (m' : RMem) (c : Dev Cert.KernelIdeal.nD) (hag : Agree m m' c)
    (hx : Cert.KernelIdeal.Hand.kOut1_3 m ρ c = Cert.ReferenceIdeal.Hand.rOut1_path m' c) :
    Cert.KernelIdeal.Hand.kAgg2_6 m ρ c = Cert.ReferenceIdeal.Hand.rAgg2_6 m' c := by
  unfold Agree at hag
  obtain ⟨h0, h1, h2, h3, h4, h5, h6, h7, h8, h9, h10, h11, h12, h13, h14, h15, h16, h17, h18, h19, h20, h21, h22, h23, h24, h25, h26, h27⟩ := hag
  exact Sage.cmp3 (Cert.ReferenceIdeal.Hand.refAgg2_6 (F := Ideal)) hx h26.symm h27.symm

end Cert.Proof

end
-- ==== Proof.KI.Val8Pay.lean ====
import proofs.«126569_j1468878815453_1_alg».proof.Proof.KI.Reg8Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 8 (the layer-2 combine of a 20000-row node type in 20 row blocks): the payloads at an index

At the ideal instance: the nine input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x256 block with a 256x256 matrix -/

/-- The dot's dimension numbers: rows by the shared axis, the shared axis by columns. -/
noncomputable abbrev D8 : DotDims S1000x256 S256x256 S1000x256 := dot_S1000x256_S256x256_S1000x256_1_0_0_1_n_n

theorem D8_rank : D8.contr.rank = 1 := rfl
theorem D8_size : D8.contr.size ⟨0, by rw [D8_rank]; exact Nat.one_pos⟩ = 256 := rfl

/-- The left operand's index at output `j` and contraction index `k`: row `j 0`, column `k`; -/
theorem lhs_D8_0 (j : S1000x256.Idx) (k : D8.contr.Idx) : ((D8.lhsIdx j k 0 : Fin 1000) : ℕ) = (j 0 : Fin 1000) := rfl
theorem lhs_D8_1 (j : S1000x256.Idx) (k : D8.contr.Idx) : ((D8.lhsIdx j k 1 : Fin 256) : ℕ) = (k ⟨0, by rw [D8_rank]; exact Nat.one_pos⟩).val :=
  DotDims.lhsIdx_val_of_single D8 rfl j k
/-- the right operand's: row `k`, column `j 1`. -/
theorem rhs_D8_0 (j : S1000x256.Idx) (k : D8.contr.Idx) : ((D8.rhsIdx j k 0 : Fin 256) : ℕ) = (k ⟨0, by rw [D8_rank]; exact Nat.one_pos⟩).val :=
  DotDims.rhsIdx_val_of_single D8 rfl j k
theorem rhs_D8_1 (j : S1000x256.Idx) (k : D8.contr.Idx) : ((D8.rhsIdx j k 1 : Fin 256) : ℕ) = (j 1 : Fin 256) := rfl

/-- The product into a zero accumulator, at row `p` and column `q`: the row of the left operand against the column
    of the right one. -/
theorem matmul8_at (L : S1000x256.Idx → EReal) (R : S256x256.Idx → EReal) (p : Fin 1000) (q : Fin 256) :
    matmul (F := Ideal) (φ₁ := .f32) (φ₂ := .f32) D8 none L R (constant S1000x256 .f32 0x00000000#32) (ix2 p q)
      = ∑ k : Fin 256, L (ix2 p k) * R (ix2 k q) := by
  show FloatOps.matmul (F := Ideal) (φ₁ := .f32) (φ₂ := .f32) D8 none L R (constant S1000x256 .f32 0x00000000#32) (ix2 p q) = _
  rw [Ideal.matmul_constant_zero_apply, ← Equiv.sum_comp (contrEquiv1 D8 256 D8_rank D8_size).symm]
  refine Finset.sum_congr rfl fun k _ => ?_
  have hk := contrEquiv1_symm_val D8 256 D8_rank D8_size k
  have eL : D8.lhsIdx (ix2 p q) ((contrEquiv1 D8 256 D8_rank D8_size).symm k) = ix2 p k :=
    Shape.idx_ext₂ (lhs_D8_0 _ _) ((lhs_D8_1 _ _).trans hk)
  have eR : D8.rhsIdx (ix2 p q) ((contrEquiv1 D8 256 D8_rank D8_size).symm k) = ix2 k q :=
    Shape.idx_ext₂ ((rhs_D8_0 _ _).trans hk) (rhs_D8_1 _ _)
  rw [eL, eR]

/-! ## The payloads at an index -/

/-- The block output's payload at row `p`, column `q`: the two relations' contributions to that entry, added. The
    three partial results are: the first relation's whole contribution (the first aggregate's block against the first
    left weights, plus the first bias row, plus the destination's block against the first right weights); the second
    aggregate's block against the second left weights plus the second bias row; the destination's block against the
    second right weights. -/
theorem pay8_blk_at (a0 a1 x : S1000x256.Idx → EReal) (wl0 wl1 wr0 wr1 : S256x256.Idx → EReal) (b0 b1 : S1x256.Idx → EReal)
    (p : Fin 1000) (q : Fin 256) :
    k8_pay1 (F := Ideal) (k8_pay8 (F := Ideal) a0 wl0 b0 x wr0) (k8_pay9 (F := Ideal) a1 wl1 b1) (k8_pay10 (F := Ideal) x wr1) (ix2 p q)
      = Sage.rel (fun k : Fin 256 => a0 (ix2 p k)) (fun k : Fin 256 => x (ix2 p k)) (fun k : Fin 256 => wl0 (ix2 k q)) (fun k : Fin 256 => wr0 (ix2 k q)) (b0 (ix2 (0 : Fin 1) q))
        + Sage.rel (fun k : Fin 256 => a1 (ix2 p k)) (fun k : Fin 256 => x (ix2 p k)) (fun k : Fin 256 => wl1 (ix2 k q)) (fun k : Fin 256 => wr1 (ix2 k q)) (b1 (ix2 (0 : Fin 1) q)) := by
  unfold k8_pay1 k8_pay8 k8_pay9 k8_pay10
  simp only [addf_apply, shapeCast_self, broadcastTo_1b_ab_apply, matmul8_at]
  rfl

/-- A 1000x256 block's column sums, as a row: at column `q` the sum over the block's rows. -/
theorem colsum8_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the column sum of the block (the three partial
    results added). -/
theorem pay8_2_at (u v w : S1000x256.Idx → EReal) (s : S1x256.Idx → EReal) (q : Fin 256) :
    k8_pay2 (F := Ideal) u v w s (ix2 (0 : Fin 1) q) = s (ix2 (0 : Fin 1) q) + ∑ r : Fin 1000, k8_pay1 (F := Ideal) u v w (ix2 r q) := by
  unfold k8_pay2
  simp only [shapeCast_self, addf_apply]
  exact congrArg (s (ix2 (0 : Fin 1) q) + ·) (colsum8_at (k8_pay1 (F := Ideal) u v w) q)

/-- The second accumulator's payload at column `q`: what it held plus the column sum of the block's squares. -/
theorem pay8_3_at (u v w : S1000x256.Idx → EReal) (s : S1x256.Idx → EReal) (q : Fin 256) :
    k8_pay3 (F := Ideal) u v w s (ix2 (0 : Fin 1) q)
      = s (ix2 (0 : Fin 1) q) + ∑ r : Fin 1000, k8_pay1 (F := Ideal) u v w (ix2 r q) * k8_pay1 (F := Ideal) u v w (ix2 r q) := by
  unfold k8_pay3
  simp only [shapeCast_self, addf_apply]
  exact congrArg (s (ix2 (0 : Fin 1) q) + ·) ((colsum8_at (mulf (F := Ideal) (s := S1000x256) (φ := .f32) (k8_pay1 (F := Ideal) u v w) (k8_pay1 (F := Ideal) u v w)) q).trans rfl)

/-- The two resets store zeros. -/
theorem pay8_6_at (i : S1x256.Idx) : k8_pay6 (F := Ideal) i = 0 := by
  unfold k8_pay6
  simp only [shapeCast_self, broadcast_apply]
  exact Ideal.ofBits_zero_f32
theorem pay8_7_at (i : S1x256.Idx) : k8_pay7 (F := Ideal) i = 0 := by
  unfold k8_pay7
  simp only [shapeCast_self, broadcast_apply]
  exact Ideal.ofBits_zero_f32

/-- The row count the statistics divide by, as the body writes it. -/
noncomputable abbrev rows8 : EReal := Ideal.ofBits .f32 0x469C4000#32

/-- The mean output's payload at an index: the first accumulator's entry over the row count. -/
theorem pay8_4_at (s0 : S1x256.Idx → EReal) (i : S1x256.Idx) : k8_pay4 (F := Ideal) s0 i = Ideal.div (s0 i) rows8 := by
  unfold k8_pay4
  simp only [divf_apply, broadcast_apply]
  rfl

/-- The variance output's payload at an index: the second accumulator's entry over the row count, less the squared mean. -/
theorem pay8_5_at (s0 s1 : S1x256.Idx → EReal) (i : S1x256.Idx) :
    k8_pay5 (F := Ideal) s0 s1 i = Ideal.div (s1 i) rows8 - Ideal.div (s0 i) rows8 * Ideal.div (s0 i) rows8 := by
  unfold k8_pay5
  simp only [subf_apply, mulf_apply, divf_apply, broadcast_apply, pay8_4_at]
  rfl

/-! ## The arrays as the region finds them -/

-- the TensorCore's buffer contents when the region is entered
variable (V : (c : Dev nD) → (b : Ref sig .tc) → Buf (Elt Ideal) ((c : Thread nD τ).loc b))

/-- The first relation's aggregated sources, -/
noncomputable abbrev agga8 (c : Dev nD) : S20000x256.Idx → EReal := V c (Pipeline.arrRef spec8 0)
/-- the second relation's, -/
noncomputable abbrev aggb8 (c : Dev nD) : S20000x256.Idx → EReal := V c (Pipeline.arrRef spec8 1)
/-- the destination's own features, -/
noncomputable abbrev xdst8 (c : Dev nD) : S20000x256.Idx → EReal := V c (Pipeline.arrRef spec8 2)
/-- the two relations' left weights, -/
noncomputable abbrev wla8 (c : Dev nD) : S256x256.Idx → EReal := V c (Pipeline.arrRef spec8 3)
noncomputable abbrev wlb8 (c : Dev nD) : S256x256.Idx → EReal := V c (Pipeline.arrRef spec8 4)
/-- their right weights, -/
noncomputable abbrev wra8 (c : Dev nD) : S256x256.Idx → EReal := V c (Pipeline.arrRef spec8 5)
noncomputable abbrev wrb8 (c : Dev nD) : S256x256.Idx → EReal := V c (Pipeline.arrRef spec8 6)
/-- and their bias rows. -/
noncomputable abbrev bia8 (c : Dev nD) : S1x256.Idx → EReal := V c (Pipeline.arrRef spec8 7)
noncomputable abbrev bib8 (c : Dev nD) : S1x256.Idx → EReal := V c (Pipeline.arrRef spec8 8)

/-- The input windows' blocks at a point, by their literal types. -/
noncomputable abbrev blk8_0 (c : Dev nD) (t : Fin cfg8.N) : S1000x256.Idx → EReal := iblk8 V c 0 t
noncomputable abbrev blk8_1 (c : Dev nD) (t : Fin cfg8.N) : S1000x256.Idx → EReal := iblk8 V c 1 t
noncomputable abbrev blk8_2 (c : Dev nD) (t : Fin cfg8.N) : S1000x256.Idx → EReal := iblk8 V c 2 t
noncomputable abbrev blk8_3 (c : Dev nD) (t : Fin cfg8.N) : S256x256.Idx → EReal := iblk8 V c 3 t
noncomputable abbrev blk8_4 (c : Dev nD) (t : Fin cfg8.N) : S256x256.Idx → EReal := iblk8 V c 4 t
noncomputable abbrev blk8_5 (c : Dev nD) (t : Fin cfg8.N) : S256x256.Idx → EReal := iblk8 V c 5 t
noncomputable abbrev blk8_6 (c : Dev nD) (t : Fin cfg8.N) : S256x256.Idx → EReal := iblk8 V c 6 t
noncomputable abbrev blk8_7 (c : Dev nD) (t : Fin cfg8.N) : S1x256.Idx → EReal := iblk8 V c 7 t
noncomputable abbrev blk8_8 (c : Dev nD) (t : Fin cfg8.N) : S1x256.Idx → EReal := iblk8 V c 8 t

/-! ## The blocks' places in their arrays -/

theorem hz8 : (![0, 0] : Fin 2 → Nat) = fun _ => 0 := funext fun a => by fin_cases a <;> rfl

/-- The printed index maps, decided over the grid: the three row-blocked inputs' and the block output's block at point
    `t` is row block `t`; every other window's one block is its whole array. -/
theorem idx_facts8 : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0)
    ∧ (win8_9.index t (0 : Fin 2) = t.val ∧ win8_9.index t (1 : Fin 2) = 0)
    ∧ (win8_10.index t (0 : Fin 2) = 0 ∧ win8_10.index t (1 : Fin 2) = 0)
    ∧ (win8_11.index t (0 : Fin 2) = 0 ∧ win8_11.index t (1 : Fin 2) = 0) :=
  (by decide +kernel : ∀ t : Fin grid8.N, _)

/-- Row `p`, column `k` of the first aggregate's block at point `t` is the array's entry at row `1000 t + p`. -/
theorem blk8_0_at (c : Dev nD) (t : Fin cfg8.N) (p : Fin 1000) (k : Fin 256) (hr : t.val * 1000 + p.val < 20000) :
    blk8_0 V c t (ix2 p k) = agga8 V c (ix2 (⟨t.val * 1000 + p.val, hr⟩ : Fin 20000) k) := by
  obtain ⟨e0, e1⟩ := (idx_facts8 t).1
  show iblk8 V c 0 t (ix2 p k) = _
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 1000 + 1 * p.val = t.val * 1000 + p.val; rw [e0]; omega
  | ⟨1, _⟩ => show win8_0.index t (1 : Fin 2) * 256 + 1 * k.val = k.val; rw [e1]; omega

/-- Row `p`, column `k` of the second aggregate's block at point `t` is the array's entry at row `1000 t + p`. -/
theorem blk8_1_at (c : Dev nD) (t : Fin cfg8.N) (p : Fin 1000) (k : Fin 256) (hr : t.val * 1000 + p.val < 20000) :
    blk8_1 V c t (ix2 p k) = aggb8 V c (ix2 (⟨t.val * 1000 + p.val, hr⟩ : Fin 20000) k) := by
  obtain ⟨e0, e1⟩ := (idx_facts8 t).2.1
  show iblk8 V c 1 t (ix2 p k) = _
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 1000 + 1 * p.val = t.val * 1000 + p.val; rw [e0]; omega
  | ⟨1, _⟩ => show win8_1.index t (1 : Fin 2) * 256 + 1 * k.val = k.val; rw [e1]; omega

/-- Row `p`, column `k` of the destination's block at point `t` is the array's entry at row `1000 t + p`. -/
theorem blk8_2_at (c : Dev nD) (t : Fin cfg8.N) (p : Fin 1000) (k : Fin 256) (hr : t.val * 1000 + p.val < 20000) :
    blk8_2 V c t (ix2 p k) = xdst8 V c (ix2 (⟨t.val * 1000 + p.val, hr⟩ : Fin 20000) k) := by
  obtain ⟨e0, e1⟩ := (idx_facts8 t).2.2.1
  show iblk8 V c 2 t (ix2 p k) = _
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 1000 + 1 * p.val = t.val * 1000 + p.val; rw [e0]; omega
  | ⟨1, _⟩ => show win8_2.index t (1 : Fin 2) * 256 + 1 * k.val = k.val; rw [e1]; omega

/-- Window 3's one block, at any point, is its whole array. -/
theorem blk8_3_eq (c : Dev nD) (t : Fin cfg8.N) : blk8_3 V c t = wla8 V c := by
  obtain ⟨e0, e1⟩ := (idx_facts8 t).2.2.2.1
  funext j
  obtain ⟨k, q, rfl⟩ : ∃ (k : Fin 256) (q : Fin 256), j = ix2 k q := ⟨j 0, j 1, eq_ix2 j⟩
  show iblk8 V c 3 t (ix2 k q) = _
  unfold iblk8
  rw [View.read_apply]
  show V c (Pipeline.arrRef spec8 3) _ = V c (Pipeline.arrRef spec8 3) _
  congr 1
  funext a
  apply Fin.ext
  match a with
  | ⟨0, _⟩ => show win8_3.index t (0 : Fin 2) * 256 + 1 * k.val = k.val; rw [e0]; omega
  | ⟨1, _⟩ => show win8_3.index t (1 : Fin 2) * 256 + 1 * q.val = q.val; rw [e1]; omega

/-- Window 4's one block, at any point, is its whole array. -/
theorem blk8_4_eq (c : Dev nD) (t : Fin cfg8.N) : blk8_4 V c t = wlb8 V c := by
  obtain ⟨e0, e1⟩ := (idx_facts8 t).2.2.2.2.1
  funext j
  obtain ⟨k, q, rfl⟩ : ∃ (k : Fin 256) (q : Fin 256), j = ix2 k q := ⟨j 0, j 1, eq_ix2 j⟩
  show iblk8 V c 4 t (ix2 k q) = _
  unfold iblk8
  rw [View.read_apply]
  show V c (Pipeline.arrRef spec8 4) _ = V c (Pipeline.arrRef spec8 4) _
  congr 1
  funext a
  apply Fin.ext
  match a with
  | ⟨0, _⟩ => show win8_4.index t (0 : Fin 2) * 256 + 1 * k.val = k.val; rw [e0]; omega
  | ⟨1, _⟩ => show win8_4.index t (1 : Fin 2) * 256 + 1 * q.val = q.val; rw [e1]; omega

/-- Window 5's one block, at any point, is its whole array. -/
theorem blk8_5_eq (c : Dev nD) (t : Fin cfg8.N) : blk8_5 V c t = wra8 V c := by
  obtain ⟨e0, e1⟩ := (idx_facts8 t).2.2.2.2.2.1
  funext j
  obtain ⟨k, q, rfl⟩ : ∃ (k : Fin 256) (q : Fin 256), j = ix2 k q := ⟨j 0, j 1, eq_ix2 j⟩
  show iblk8 V c 5 t (ix2 k q) = _
  unfold iblk8
  rw [View.read_apply]
  show V c (Pipeline.arrRef spec8 5) _ = V c (Pipeline.arrRef spec8 5) _
  congr 1
  funext a
  apply Fin.ext
  match a with
  | ⟨0, _⟩ => show win8_5.index t (0 : Fin 2) * 256 + 1 * k.val = k.val; rw [e0]; omega
  | ⟨1, _⟩ => show win8_5.index t (1 : Fin 2) * 256 + 1 * q.val = q.val; rw [e1]; omega

/-- Window 6's one block, at any point, is its whole array. -/
theorem blk8_6_eq (c : Dev nD) (t : Fin cfg8.N) : blk8_6 V c t = wrb8 V c := by
  obtain ⟨e0, e1⟩ := (idx_facts8 t).2.2.2.2.2.2.1
  funext j
  obtain ⟨k, q, rfl⟩ : ∃ (k : Fin 256) (q : Fin 256), j = ix2 k q := ⟨j 0, j 1, eq_ix2 j⟩
  show iblk8 V c 6 t (ix2 k q) = _
  unfold iblk8
  rw [View.read_apply]
  show V c (Pipeline.arrRef spec8 6) _ = V c (Pipeline.arrRef spec8 6) _
  congr 1
  funext a
  apply Fin.ext
  match a with
  | ⟨0, _⟩ => show win8_6.index t (0 : Fin 2) * 256 + 1 * k.val = k.val; rw [e0]; omega
  | ⟨1, _⟩ => show win8_6.index t (1 : Fin 2) * 256 + 1 * q.val = q.val; rw [e1]; omega

/-- Window 7's one block, at any point, is its whole row. -/
theorem blk8_7_eq (c : Dev nD) (t : Fin cfg8.N) : blk8_7 V c t = bia8 V c := by
  obtain ⟨e0, e1⟩ := (idx_facts8 t).2.2.2.2.2.2.2.1
  funext j
  obtain ⟨u, q, rfl⟩ : ∃ (u : Fin 1) (q : Fin 256), j = ix2 u q := ⟨j 0, j 1, eq_ix2 j⟩
  show iblk8 V c 7 t (ix2 u q) = _
  unfold iblk8
  rw [View.read_apply]
  show V c (Pipeline.arrRef spec8 7) _ = V c (Pipeline.arrRef spec8 7) _
  congr 1
  funext a
  apply Fin.ext
  match a with
  | ⟨0, _⟩ => show win8_7.index t (0 : Fin 2) * 1 + 1 * u.val = u.val; rw [e0]; omega
  | ⟨1, _⟩ => show win8_7.index t (1 : Fin 2) * 256 + 1 * q.val = q.val; rw [e1]; omega

/-- Window 8's one block, at any point, is its whole row. -/
theorem blk8_8_eq (c : Dev nD) (t : Fin cfg8.N) : blk8_8 V c t = bib8 V c := by
  obtain ⟨e0, e1⟩ := (idx_facts8 t).2.2.2.2.2.2.2.2.1
  funext j
  obtain ⟨u, q, rfl⟩ : ∃ (u : Fin 1) (q : Fin 256), j = ix2 u q := ⟨j 0, j 1, eq_ix2 j⟩
  show iblk8 V c 8 t (ix2 u q) = _
  unfold iblk8
  rw [View.read_apply]
  show V c (Pipeline.arrRef spec8 8) _ = V c (Pipeline.arrRef spec8 8) _
  congr 1
  funext a
  apply Fin.ext
  match a with
  | ⟨0, _⟩ => show win8_8.index t (0 : Fin 2) * 1 + 1 * u.val = u.val; rw [e0]; omega
  | ⟨1, _⟩ => show win8_8.index t (1 : Fin 2) * 256 + 1 * q.val = q.val; rw [e1]; omega

end Cert.KernelIdeal.Hand

end
-- ==== Proof.KI.Val8.lean ====
import proofs.«126569_j1468878815453_1_alg».proof.Proof.KI.Reg8
import proofs.«126569_j1468878815453_1_alg».proof.Proof.KI.Val8Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 8 (the layer-2 combine of a 20000-row node type in 20 row blocks), the value

What each control case's stores leave, as the body's payloads of the input blocks and of what the accumulators held;
the accumulators after a point as running column sums; at the ideal instance, the three output arrays after the
region as functions of the nine input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

theorem hzP8 : (![0, 0] : Fin 2 → Nat) = fun _ => 0 := funext fun a => by fin_cases a <;> rfl

theorem out8_A_9_eq (c : Dev nD) (t : Fin cfg8.N) (hc0 : cond8_0 (grid8.coords t)) (hc1 : ¬cond8_1 (grid8.coords t)) (x0 x1 x2 : Vec F S1000x256 .f32) (x3 x4 x5 x6 : Vec F S256x256 .f32) (x7 x8 : Vec F S1x256 .f32)  :
    out8_A_9 c t hc0 hc1 x0 x1 x2 x3 x4 x5 x6 x7 x8  = k8_pay1 (k8_pay8 x0 x3 x7 x2 x5) (k8_pay9 x1 x4 x8) (k8_pay10 x2 x6) := by
  unfold out8_A_9
  rw [View.read_writes_eq_canon _ _ _ (cover8_A_9 c t hc0 hc1 x0 x1 x2 x3 x4 x5 x6 x7 x8 )]
  unfold runAt8_A kernelRun8_A
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]

theorem sout8_A_0_eq (c : Dev nD) (t : Fin cfg8.N) (hc0 : cond8_0 (grid8.coords t)) (hc1 : ¬cond8_1 (grid8.coords t)) (x0 x1 x2 : Vec F S1000x256 .f32) (x3 x4 x5 x6 : Vec F S256x256 .f32) (x7 x8 : Vec F S1x256 .f32)  :
    sout8_A_0 c t hc0 hc1 x0 x1 x2 x3 x4 x5 x6 x7 x8  = k8_pay2 (k8_pay8 x0 x3 x7 x2 x5) (k8_pay9 x1 x4 x8) (k8_pay10 x2 x6) (k8_pay6 (F := F)) := by
  unfold sout8_A_0
  rw [View.read_writes_eq_canon _ _ _ (scover8_A_0 c t hc0 hc1 x0 x1 x2 x3 x4 x5 x6 x7 x8 )]
  unfold runAt8_A kernelRun8_A
  dsimp only
  try sl_unfold_words
  rw [View.canon_cons_unit_zero (S := S1x256) hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]

theorem sout8_A_1_eq (c : Dev nD) (t : Fin cfg8.N) (hc0 : cond8_0 (grid8.coords t)) (hc1 : ¬cond8_1 (grid8.coords t)) (x0 x1 x2 : Vec F S1000x256 .f32) (x3 x4 x5 x6 : Vec F S256x256 .f32) (x7 x8 : Vec F S1x256 .f32)  :
    sout8_A_1 c t hc0 hc1 x0 x1 x2 x3 x4 x5 x6 x7 x8  = k8_pay3 (k8_pay8 x0 x3 x7 x2 x5) (k8_pay9 x1 x4 x8) (k8_pay10 x2 x6) (k8_pay7 (F := F)) := by
  unfold sout8_A_1
  rw [View.read_writes_eq_canon _ _ _ (scover8_A_1 c t hc0 hc1 x0 x1 x2 x3 x4 x5 x6 x7 x8 )]
  unfold runAt8_A kernelRun8_A
  dsimp only
  try sl_unfold_words
  rw [View.canon_cons_unit_zero (S := S1x256) hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]

theorem out8_B_9_eq (c : Dev nD) (t : Fin cfg8.N) (hc0 : ¬cond8_0 (grid8.coords t)) (hc1 : ¬cond8_1 (grid8.coords t)) (x0 x1 x2 : Vec F S1000x256 .f32) (x3 x4 x5 x6 : Vec F S256x256 .f32) (x7 x8 : Vec F S1x256 .f32) (xs0 xs1 : Vec F S1x256 .f32) :
    out8_B_9 c t hc0 hc1 x0 x1 x2 x3 x4 x5 x6 x7 x8 xs0 xs1 = k8_pay1 (k8_pay8 x0 x3 x7 x2 x5) (k8_pay9 x1 x4 x8) (k8_pay10 x2 x6) := by
  unfold out8_B_9
  rw [View.read_writes_eq_canon _ _ _ (cover8_B_9 c t hc0 hc1 x0 x1 x2 x3 x4 x5 x6 x7 x8 xs0 xs1)]
  unfold runAt8_B kernelRun8_B
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]

theorem sout8_B_0_eq (c : Dev nD) (t : Fin cfg8.N) (hc0 : ¬cond8_0 (grid8.coords t)) (hc1 : ¬cond8_1 (grid8.coords t)) (x0 x1 x2 : Vec F S1000x256 .f32) (x3 x4 x5 x6 : Vec F S256x256 .f32) (x7 x8 : Vec F S1x256 .f32) (xs0 xs1 : Vec F S1x256 .f32) :
    sout8_B_0 c t hc0 hc1 x0 x1 x2 x3 x4 x5 x6 x7 x8 xs0 xs1 = k8_pay2 (k8_pay8 x0 x3 x7 x2 x5) (k8_pay9 x1 x4 x8) (k8_pay10 x2 x6) xs0 := by
  unfold sout8_B_0
  rw [View.read_writes_eq_canon _ _ _ (scover8_B_0 c t hc0 hc1 x0 x1 x2 x3 x4 x5 x6 x7 x8 xs0 xs1)]
  unfold runAt8_B kernelRun8_B
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]
  simp only [show View.read (Elt F) (View.whole cc8_scratch0) ((Memref.isWhole_whole cc8_scratch0).unread xs0) = xs0 from (Memref.isWhole_whole cc8_scratch0).read_unread xs0]

theorem sout8_B_1_eq (c : Dev nD) (t : Fin cfg8.N) (hc0 : ¬cond8_0 (grid8.coords t)) (hc1 : ¬cond8_1 (grid8.coords t)) (x0 x1 x2 : Vec F S1000x256 .f32) (x3 x4 x5 x6 : Vec F S256x256 .f32) (x7 x8 : Vec F S1x256 .f32) (xs0 xs1 : Vec F S1x256 .f32) :
    sout8_B_1 c t hc0 hc1 x0 x1 x2 x3 x4 x5 x6 x7 x8 xs0 xs1 = k8_pay3 (k8_pay8 x0 x3 x7 x2 x5) (k8_pay9 x1 x4 x8) (k8_pay10 x2 x6) xs1 := by
  unfold sout8_B_1
  rw [View.read_writes_eq_canon _ _ _ (scover8_B_1 c t hc0 hc1 x0 x1 x2 x3 x4 x5 x6 x7 x8 xs0 xs1)]
  unfold runAt8_B kernelRun8_B
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]
  simp only [show View.read (Elt F) (View.whole cc8_scratch1) ((Memref.isWhole_whole cc8_scratch1).unread xs1) = xs1 from (Memref.isWhole_whole cc8_scratch1).read_unread xs1]

theorem out8_C_9_eq (c : Dev nD) (t : Fin cfg8.N) (hc0 : ¬cond8_0 (grid8.coords t)) (hc1 : cond8_1 (grid8.coords t)) (x0 x1 x2 : Vec F S1000x256 .f32) (x3 x4 x5 x6 : Vec F S256x256 .f32) (x7 x8 : Vec F S1x256 .f32) (xs0 xs1 : Vec F S1x256 .f32) :
    out8_C_9 c t hc0 hc1 x0 x1 x2 x3 x4 x5 x6 x7 x8 xs0 xs1 = k8_pay1 (k8_pay8 x0 x3 x7 x2 x5) (k8_pay9 x1 x4 x8) (k8_pay10 x2 x6) := by
  unfold out8_C_9
  rw [View.read_writes_eq_canon _ _ _ (cover8_C_9 c t hc0 hc1 x0 x1 x2 x3 x4 x5 x6 x7 x8 xs0 xs1)]
  unfold runAt8_C kernelRun8_C
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]

theorem out8_C_10_eq (c : Dev nD) (t : Fin cfg8.N) (hc0 : ¬cond8_0 (grid8.coords t)) (hc1 : cond8_1 (grid8.coords t)) (x0 x1 x2 : Vec F S1000x256 .f32) (x3 x4 x5 x6 : Vec F S256x256 .f32) (x7 x8 : Vec F S1x256 .f32) (xs0 xs1 : Vec F S1x256 .f32) :
    out8_C_10 c t hc0 hc1 x0 x1 x2 x3 x4 x5 x6 x7 x8 xs0 xs1 = k8_pay4 (k8_pay2 (k8_pay8 x0 x3 x7 x2 x5) (k8_pay9 x1 x4 x8) (k8_pay10 x2 x6) xs0) := by
  unfold out8_C_10
  rw [View.read_writes_eq_canon _ _ _ (cover8_C_10 c t hc0 hc1 x0 x1 x2 x3 x4 x5 x6 x7 x8 xs0 xs1)]
  unfold runAt8_C kernelRun8_C
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]
  simp only [show View.read (Elt F) (View.whole cc8_scratch0) ((Memref.isWhole_whole cc8_scratch0).unread xs0) = xs0 from (Memref.isWhole_whole cc8_scratch0).read_unread xs0]

theorem out8_C_11_eq (c : Dev nD) (t : Fin cfg8.N) (hc0 : ¬cond8_0 (grid8.coords t)) (hc1 : cond8_1 (grid8.coords t)) (x0 x1 x2 : Vec F S1000x256 .f32) (x3 x4 x5 x6 : Vec F S256x256 .f32) (x7 x8 : Vec F S1x256 .f32) (xs0 xs1 : Vec F S1x256 .f32) :
    out8_C_11 c t hc0 hc1 x0 x1 x2 x3 x4 x5 x6 x7 x8 xs0 xs1 = k8_pay5 (k8_pay2 (k8_pay8 x0 x3 x7 x2 x5) (k8_pay9 x1 x4 x8) (k8_pay10 x2 x6) xs0) (k8_pay3 (k8_pay8 x0 x3 x7 x2 x5) (k8_pay9 x1 x4 x8) (k8_pay10 x2 x6) xs1) := by
  unfold out8_C_11
  rw [View.read_writes_eq_canon _ _ _ (cover8_C_11 c t hc0 hc1 x0 x1 x2 x3 x4 x5 x6 x7 x8 xs0 xs1)]
  unfold runAt8_C kernelRun8_C
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]
  simp only [show View.read (Elt F) (View.whole cc8_scratch0) ((Memref.isWhole_whole cc8_scratch0).unread xs0) = xs0 from (Memref.isWhole_whole cc8_scratch0).read_unread xs0]
  simp only [show View.read (Elt F) (View.whole cc8_scratch1) ((Memref.isWhole_whole cc8_scratch1).unread xs1) = xs1 from (Memref.isWhole_whole cc8_scratch1).read_unread xs1]

theorem sout8_C_0_eq (c : Dev nD) (t : Fin cfg8.N) (hc0 : ¬cond8_0 (grid8.coords t)) (hc1 : cond8_1 (grid8.coords t)) (x0 x1 x2 : Vec F S1000x256 .f32) (x3 x4 x5 x6 : Vec F S256x256 .f32) (x7 x8 : Vec F S1x256 .f32) (xs0 xs1 : Vec F S1x256 .f32) :
    sout8_C_0 c t hc0 hc1 x0 x1 x2 x3 x4 x5 x6 x7 x8 xs0 xs1 = k8_pay2 (k8_pay8 x0 x3 x7 x2 x5) (k8_pay9 x1 x4 x8) (k8_pay10 x2 x6) xs0 := by
  unfold sout8_C_0
  rw [View.read_writes_eq_canon _ _ _ (scover8_C_0 c t hc0 hc1 x0 x1 x2 x3 x4 x5 x6 x7 x8 xs0 xs1)]
  unfold runAt8_C kernelRun8_C
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]
  simp only [show View.read (Elt F) (View.whole cc8_scratch0) ((Memref.isWhole_whole cc8_scratch0).unread xs0) = xs0 from (Memref.isWhole_whole cc8_scratch0).read_unread xs0]

theorem sout8_C_1_eq (c : Dev nD) (t : Fin cfg8.N) (hc0 : ¬cond8_0 (grid8.coords t)) (hc1 : cond8_1 (grid8.coords t)) (x0 x1 x2 : Vec F S1000x256 .f32) (x3 x4 x5 x6 : Vec F S256x256 .f32) (x7 x8 : Vec F S1x256 .f32) (xs0 xs1 : Vec F S1x256 .f32) :
    sout8_C_1 c t hc0 hc1 x0 x1 x2 x3 x4 x5 x6 x7 x8 xs0 xs1 = k8_pay3 (k8_pay8 x0 x3 x7 x2 x5) (k8_pay9 x1 x4 x8) (k8_pay10 x2 x6) xs1 := by
  unfold sout8_C_1
  rw [View.read_writes_eq_canon _ _ _ (scover8_C_1 c t hc0 hc1 x0 x1 x2 x3 x4 x5 x6 x7 x8 xs0 xs1)]
  unfold runAt8_C kernelRun8_C
  dsimp only
  try sl_unfold_words
  rw [View.canon_unit_zero hzP8]
  simp only [View.readAt_eq_ld, Memref.IsWhole.read_unread, View.ld_unit_zero (S := S1000x256) hzP8, View.ld_unit_zero (S := S256x256) hzP8, View.ld_unit_zero (S := S1x256) hzP8, View.readCov_unit_zero (S := S1x256) _ hzP8]
  simp only [show View.read (Elt F) (View.whole cc8_scratch1) ((Memref.isWhole_whole cc8_scratch1).unread xs1) = xs1 from (Memref.isWhole_whole cc8_scratch1).read_unread xs1]

end Pieces

/-! ## The result, index by index -/

-- the TensorCore's buffer contents when the region is entered
variable (V : (c : Dev nD) → (b : Ref sig .tc) → Buf (Elt Ideal) ((c : Thread nD τ).loc b))

/-- Every entry of the combined layer: the two relations' contributions to a destination row and an output column, added. -/
noncomputable def hArr8 (a0 a1 x : S20000x256.Idx → EReal) (wl0 wl1 wr0 wr1 : S256x256.Idx → EReal) (b0 b1 : S1x256.Idx → EReal) :
    S20000x256.Idx → EReal :=
  fun i => Sage.rel (fun k : Fin 256 => a0 (ix2 (i 0) k)) (fun k : Fin 256 => x (ix2 (i 0) k)) (fun k : Fin 256 => wl0 (ix2 k (i 1))) (fun k : Fin 256 => wr0 (ix2 k (i 1))) (b0 (ix2 (0 : Fin 1) (i 1)))
    + Sage.rel (fun k : Fin 256 => a1 (ix2 (i 0) k)) (fun k : Fin 256 => x (ix2 (i 0) k)) (fun k : Fin 256 => wl1 (ix2 k (i 1))) (fun k : Fin 256 => wr1 (ix2 k (i 1))) (b1 (ix2 (0 : Fin 1) (i 1)))

/-- The combined layer of the arrays as the region finds them. -/
noncomputable abbrev hOut8 (c : Dev nD) : S20000x256.Idx → EReal :=
  hArr8 (agga8 V c) (aggb8 V c) (xdst8 V c) (wla8 V c) (wlb8 V c) (wra8 V c) (wrb8 V c) (bia8 V c) (bib8 V c)

/-- The body's three partial results at point `t`, from the input windows' blocks there, and the block they add up to. -/
noncomputable abbrev hpa8 (c : Dev nD) (t : Fin cfg8.N) : S1000x256.Idx → EReal :=
  k8_pay8 (F := Ideal) (blk8_0 V c t) (blk8_3 V c t) (blk8_7 V c t) (blk8_2 V c t) (blk8_5 V c t)
noncomputable abbrev hpb8 (c : Dev nD) (t : Fin cfg8.N) : S1000x256.Idx → EReal :=
  k8_pay9 (F := Ideal) (blk8_1 V c t) (blk8_4 V c t) (blk8_8 V c t)
noncomputable abbrev hpc8 (c : Dev nD) (t : Fin cfg8.N) : S1000x256.Idx → EReal :=
  k8_pay10 (F := Ideal) (blk8_2 V c t) (blk8_6 V c t)
noncomputable abbrev hblk8 (c : Dev nD) (t : Fin cfg8.N) : S1000x256.Idx → EReal :=
  k8_pay1 (F := Ideal) (hpa8 V c t) (hpb8 V c t) (hpc8 V c t)

/-- Row `p`, column `q` of that block is the combined layer's entry at row `1000 t + p`. -/
theorem hblk8_at (c : Dev nD) (t : Fin cfg8.N) (p : Fin 1000) (q : Fin 256) (hr : t.val * 1000 + p.val < 20000) :
    hblk8 V c t (ix2 p q) = hOut8 V c (ix2 (⟨t.val * 1000 + p.val, hr⟩ : Fin 20000) q) := by
  refine (pay8_blk_at (blk8_0 V c t) (blk8_1 V c t) (blk8_2 V c t) (blk8_3 V c t) (blk8_4 V c t) (blk8_5 V c t) (blk8_6 V c t) (blk8_7 V c t) (blk8_8 V c t) p q).trans ?_
  simp only [blk8_0_at V c t p _ hr, blk8_1_at V c t p _ hr, blk8_2_at V c t p _ hr, blk8_3_eq V c t, blk8_4_eq V c t, blk8_5_eq V c t, blk8_6_eq V c t, blk8_7_eq V c t, blk8_8_eq V c t]
  rfl

/-! ## What the outputs and the accumulators hold after a point -/

theorem N8_lt (t : Fin cfg8.N) : t.val < 20 := lt_of_lt_of_eq t.isLt (show cfg8.N = 20 from N_8)

/-- After the first point: the block, and the accumulators at zero plus the block's column sums. -/
theorem outs8_first (c : Dev nD) (t : Fin cfg8.N) (h0 : t.val = 0) :
    (outsAt8 V c t.val t.isLt).1 = hblk8 V c t
    ∧ (outsAt8 V c t.val t.isLt).2.2.2.1 = k8_pay2 (F := Ideal) (hpa8 V c t) (hpb8 V c t) (hpc8 V c t) (k8_pay6 (F := Ideal))
    ∧ (outsAt8 V c t.val t.isLt).2.2.2.2 = k8_pay3 (F := Ideal) (hpa8 V c t) (hpb8 V c t) (hpc8 V c t) (k8_pay7 (F := Ideal)) := by
  have hN := N8_lt t
  have hc0 : cond8_0 (grid8.coords t) := (hcond8_0 t).mpr (by rw [h0])
  have hc1 : ¬cond8_1 (grid8.coords t) := fun h => by have h' := (hcond8_1 t).mp h; omega
  rw [outsAt8_A V c t h0 hc0 hc1]
  dsimp only
  exact ⟨out8_A_9_eq (F := Ideal) c t hc0 hc1 (blk8_0 V c t) (blk8_1 V c t) (blk8_2 V c t) (blk8_3 V c t) (blk8_4 V c t) (blk8_5 V c t) (blk8_6 V c t) (blk8_7 V c t) (blk8_8 V c t),
    sout8_A_0_eq (F := Ideal) c t hc0 hc1 (blk8_0 V c t) (blk8_1 V c t) (blk8_2 V c t) (blk8_3 V c t) (blk8_4 V c t) (blk8_5 V c t) (blk8_6 V c t) (blk8_7 V c t) (blk8_8 V c t),
    sout8_A_1_eq (F := Ideal) c t hc0 hc1 (blk8_0 V c t) (blk8_1 V c t) (blk8_2 V c t) (blk8_3 V c t) (blk8_4 V c t) (blk8_5 V c t) (blk8_6 V c t) (blk8_7 V c t) (blk8_8 V c t)⟩

/-- After a middle point: the block, and each accumulator at what the point before left plus the block's column sums. -/
theorem outs8_mid (c : Dev nD) (t : Fin cfg8.N) (h0 : t.val ≠ 0) (h1 : ¬t.val % 20 = 19) :
    (outsAt8 V c t.val t.isLt).1 = hblk8 V c t
    ∧ (outsAt8 V c t.val t.isLt).2.2.2.1 = k8_pay2 (F := Ideal) (hpa8 V c t) (hpb8 V c t) (hpc8 V c t) (outsAt8 V c (t.val - 1) (Nat.lt_of_le_of_lt (Nat.sub_le _ _) t.isLt)).2.2.2.1
    ∧ (outsAt8 V c t.val t.isLt).2.2.2.2 = k8_pay3 (F := Ideal) (hpa8 V c t) (hpb8 V c t) (hpc8 V c t) (outsAt8 V c (t.val - 1) (Nat.lt_of_le_of_lt (Nat.sub_le _ _) t.isLt)).2.2.2.2 := by
  have hc0 : ¬cond8_0 (grid8.coords t) := later8_c0 t h0
  have hc1 : ¬cond8_1 (grid8.coords t) := fun h => h1 ((hcond8_1 t).mp h)
  rw [outsAt8_B V c t h0 h1 hc0 hc1]
  dsimp only
  exact ⟨out8_B_9_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
    sout8_B_0_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
    sout8_B_1_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2⟩

/-- After the last point: the block, the accumulators as at a middle point, and the two statistics rows from them. -/
theorem outs8_last (c : Dev nD) (t : Fin cfg8.N) (h0 : t.val ≠ 0) (h1 : t.val % 20 = 19) :
    (outsAt8 V c t.val t.isLt).1 = hblk8 V c t
    ∧ (outsAt8 V c t.val t.isLt).2.1 = k8_pay4 (F := Ideal) (outsAt8 V c t.val t.isLt).2.2.2.1
    ∧ (outsAt8 V c t.val t.isLt).2.2.1 = k8_pay5 (F := Ideal) (outsAt8 V c t.val t.isLt).2.2.2.1 (outsAt8 V c t.val t.isLt).2.2.2.2
    ∧ (outsAt8 V c t.val t.isLt).2.2.2.1 = k8_pay2 (F := Ideal) (hpa8 V c t) (hpb8 V c t) (hpc8 V c t) (outsAt8 V c (t.val - 1) (Nat.lt_of_le_of_lt (Nat.sub_le _ _) t.isLt)).2.2.2.1
    ∧ (outsAt8 V c t.val t.isLt).2.2.2.2 = k8_pay3 (F := Ideal) (hpa8 V c t) (hpb8 V c t) (hpc8 V c t) (outsAt8 V c (t.val - 1) (Nat.lt_of_le_of_lt (Nat.sub_le _ _) t.isLt)).2.2.2.2 := by
  have hc0 : ¬cond8_0 (grid8.coords t) := later8_c0 t h0
  have hc1 : cond8_1 (grid8.coords t) := (hcond8_1 t).mpr h1
  rw [outsAt8_C V c t h0 h1 hc0 hc1]
  dsimp only
  rw [sout8_C_0_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
    sout8_C_1_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2]
  exact ⟨out8_C_9_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
    out8_C_10_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
    out8_C_11_eq (F := Ideal) c t hc0 hc1 (blk8_0 V c t) (blk8_1 V c t) (blk8_2 V c t) (blk8_3 V c t) (blk8_4 V c t) (blk8_5 V c t) (blk8_6 V c t) (blk8_7 V c t) (blk8_8 V c t) (outsAt8 V c (t.val - 1) (Nat.lt_of_le_of_lt (Nat.sub_le _ _) t.isLt)).2.2.2.1 (outsAt8 V c (t.val - 1) (Nat.lt_of_le_of_lt (Nat.sub_le _ _) t.isLt)).2.2.2.2, rfl, rfl⟩

/-- The block output's staging buffer after any point holds the block computed there. -/
theorem outs8_blk (c : Dev nD) (t : Fin cfg8.N) : (outsAt8 V c t.val t.isLt).1 = hblk8 V c t := by
  by_cases h0 : t.val = 0
  · exact (outs8_first V c t h0).1
  · by_cases h1 : t.val % 20 = 19
    · exact (outs8_last V c t h0 h1).1
    · exact (outs8_mid V c t h0 h1).1

/-! ## The accumulators are the running column sums -/

/-- Column `q` of the combined layer, its rows numbered by natural numbers (zero past the last row), -/
noncomputable def colN8 (c : Dev nD) (q : Fin 256) : ℕ → EReal :=
  fun i => if h : i < 20000 then hOut8 V c (ix2 (⟨i, h⟩ : Fin 20000) q) else 0
/-- and the column of its squares. -/
noncomputable def colSq8 (c : Dev nD) (q : Fin 256) : ℕ → EReal :=
  fun i => if h : i < 20000 then hOut8 V c (ix2 (⟨i, h⟩ : Fin 20000) q) * hOut8 V c (ix2 (⟨i, h⟩ : Fin 20000) q) else 0

/-- The column sum of the block at point `t` is tile `t`'s sum. -/
theorem tile8 (c : Dev nD) (t : Fin cfg8.N) (q : Fin 256) :
    ∑ r : Fin 1000, hblk8 V c t (ix2 r q) = Sage.tileSum 1000 (colN8 V c q) t.val := by
  have hN := N8_lt t
  unfold Sage.tileSum
  rw [Finset.sum_range]
  refine Finset.sum_congr rfl fun r _ => ?_
  have hr : t.val * 1000 + r.val < 20000 := by have := r.isLt; omega
  rw [hblk8_at V c t r q hr]
  unfold colN8
  rw [dif_pos hr]
theorem tileSq8 (c : Dev nD) (t : Fin cfg8.N) (q : Fin 256) :
    ∑ r : Fin 1000, hblk8 V c t (ix2 r q) * hblk8 V c t (ix2 r q) = Sage.tileSum 1000 (colSq8 V c q) t.val := by
  have hN := N8_lt t
  unfold Sage.tileSum
  rw [Finset.sum_range]
  refine Finset.sum_congr rfl fun r _ => ?_
  have hr : t.val * 1000 + r.val < 20000 := by have := r.isLt; omega
  rw [hblk8_at V c t r q hr]
  unfold colSq8
  rw [dif_pos hr]

/-- After point `n` the two accumulators hold, at column `q`, the sums over the first `n + 1` tiles of the column and
    of its squares. -/
theorem accs8_eq (c : Dev nD) (q : Fin 256) : ∀ (n : ℕ) (hn : n < cfg8.N),
    (outsAt8 V c n hn).2.2.2.1 (ix2 (0 : Fin 1) q) = Sage.acc 1000 (colN8 V c q) (n + 1)
    ∧ (outsAt8 V c n hn).2.2.2.2 (ix2 (0 : Fin 1) q) = Sage.acc 1000 (colSq8 V c q) (n + 1)
  | 0, hn => by
    obtain ⟨-, e1, e2⟩ := outs8_first V c ⟨0, hn⟩ rfl
    have e1' : (outsAt8 V c 0 hn).2.2.2.1 = _ := e1
    have e2' : (outsAt8 V c 0 hn).2.2.2.2 = _ := e2
    rw [e1', e2']
    constructor
    · refine (pay8_2_at _ _ _ _ q).trans ?_
      rw [pay8_6_at, Sage.acc_succ, Sage.acc_zero, tile8 V c ⟨0, hn⟩ q]
    · refine (pay8_3_at _ _ _ _ q).trans ?_
      rw [pay8_7_at, Sage.acc_succ, Sage.acc_zero, tileSq8 V c ⟨0, hn⟩ q]
  | n + 1, hn => by
    obtain ⟨ih1, ih2⟩ := accs8_eq c q n (Nat.lt_of_succ_lt hn)
    have hs : (outsAt8 V c (n + 1) hn).2.2.2.1 = k8_pay2 (F := Ideal) (hpa8 V c ⟨n + 1, hn⟩) (hpb8 V c ⟨n + 1, hn⟩) (hpc8 V c ⟨n + 1, hn⟩) (outsAt8 V c n (Nat.lt_of_succ_lt hn)).2.2.2.1
        ∧ (outsAt8 V c (n + 1) hn).2.2.2.2 = k8_pay3 (F := Ideal) (hpa8 V c ⟨n + 1, hn⟩) (hpb8 V c ⟨n + 1, hn⟩) (hpc8 V c ⟨n + 1, hn⟩) (outsAt8 V c n (Nat.lt_of_succ_lt hn)).2.2.2.2 := by
      by_cases h1 : (n + 1) % 20 = 19
      · exact ⟨(outs8_last V c ⟨n + 1, hn⟩ (Nat.succ_ne_zero n) h1).2.2.2.1, (outs8_last V c ⟨n + 1, hn⟩ (Nat.succ_ne_zero n) h1).2.2.2.2⟩
      · exact ⟨(outs8_mid V c ⟨n + 1, hn⟩ (Nat.succ_ne_zero n) h1).2.1, (outs8_mid V c ⟨n + 1, hn⟩ (Nat.succ_ne_zero n) h1).2.2⟩
    rw [hs.1, hs.2]
    constructor
    · refine (pay8_2_at _ _ _ _ q).trans ?_
      rw [ih1, Sage.acc_succ _ _ (n + 1), tile8 V c ⟨n + 1, hn⟩ q]
    · refine (pay8_3_at _ _ _ _ q).trans ?_
      rw [ih2, Sage.acc_succ _ _ (n + 1), tileSq8 V c ⟨n + 1, hn⟩ q]

/-- All twenty tiles: the column's sum over all rows. -/
theorem acc_full8 (c : Dev nD) (q : Fin 256) :
    Sage.acc 1000 (colN8 V c q) 20 = ∑ r : Fin 20000, hOut8 V c (ix2 r q) := by
  rw [Sage.acc_eq_sum, show (20 * 1000 : ℕ) = 20000 from rfl, Finset.sum_range]
  refine Finset.sum_congr rfl fun r _ => ?_
  unfold colN8
  rw [dif_pos r.isLt]
theorem accSq_full8 (c : Dev nD) (q : Fin 256) :
    Sage.acc 1000 (colSq8 V c q) 20 = ∑ r : Fin 20000, hOut8 V c (ix2 r q) * hOut8 V c (ix2 r q) := by
  rw [Sage.acc_eq_sum, show (20 * 1000 : ℕ) = 20000 from rfl, Finset.sum_range]
  refine Finset.sum_congr rfl fun r _ => ?_
  unfold colSq8
  rw [dif_pos r.isLt]

/-! ## What a point writes back -/

/-- What point `t` writes back to the block output's array is block `t` of the combined layer. -/
theorem flushed8_9_eq (c : Dev nD) (t : Fin cfg8.N) :
    (dat8 (F := Ideal) V c).flushed 9 t = ((cfg8.win 9).blk t).view.read (Elt Ideal) (hOut8 V c) := by
  show (cfg8.win 9).cut (grid8.coords t) ((dat8 V c).after 9 t) = _
  rw [after8_9, outs8_blk V c t]
  have hN := N8_lt t
  obtain ⟨e0, e1⟩ := (idx_facts8 t).2.2.2.2.2.2.2.2.2.1
  funext j
  obtain ⟨p, q, rfl⟩ : ∃ (p : Fin 1000) (q : Fin 256), j = ix2 p q := ⟨j 0, j 1, eq_ix2 j⟩
  show hblk8 V c t (ix2 p q) = hOut8 V c (((cfg8.win 9).blk t).view.emb (ix2 p q))
  have hr : t.val * 1000 + p.val < 20000 := by have := p.isLt; omega
  rw [hblk8_at V c t p q hr]
  refine congrArg (hOut8 V c) (Shape.idx_ext₂ ?_ ?_)
  · show t.val * 1000 + p.val = win8_9.index t (0 : Fin 2) * 1000 + 1 * p.val; rw [e0]; omega
  · show q.val = win8_9.index t (1 : Fin 2) * 256 + 1 * q.val; rw [e1]; omega

/-- The mean row: each column's mean over the 20000 rows of the combined layer, -/
noncomputable def meanRow8 (h : S20000x256.Idx → EReal) : S1x256.Idx → EReal :=
  fun i => Sage.colMean (((20000 : ℝ) : EReal)) (fun r : Fin 20000 => h (ix2 r (i 1)))
/-- and the variance row: each column's mean of squares less its squared mean. -/
noncomputable def varRow8 (h : S20000x256.Idx → EReal) : S1x256.Idx → EReal :=
  fun i => Sage.colVarSq (((20000 : ℝ) : EReal)) (fun r : Fin 20000 => h (ix2 r (i 1)))

/-- A point that writes a statistics row back is the last one. -/
theorem last_of_flush8 (t : Fin cfg8.N) (h : t.val % 20 = 19) : t.val = 19 := by have := N8_lt t; omega

/-- What the last point writes back to the mean output's array is the mean row. -/
theorem flushed8_10_eq (c : Dev nD) (t : Fin cfg8.N) (hf : (cfg8.win 10).flush t = true) :
    (dat8 (F := Ideal) V c).flushed 10 t = ((cfg8.win 10).blk t).view.read (Elt Ideal) (meanRow8 (hOut8 V c)) := by
  have h1 : t.val % 20 = 19 := (flush8_10 t).mp hf
  have h19 : t.val = 19 := last_of_flush8 t h1
  show (cfg8.win 10).cut (grid8.coords t) ((dat8 V c).after 10 t) = _
  rw [after8_10, (outs8_last V c t (by omega) h1).2.1]
  obtain ⟨e0, e1⟩ := (idx_facts8 t).2.2.2.2.2.2.2.2.2.2.1
  funext j
  obtain ⟨u, q, rfl⟩ : ∃ (u : Fin 1) (q : Fin 256), j = ix2 u q := ⟨j 0, j 1, eq_ix2 j⟩
  obtain rfl : u = 0 := Subsingleton.elim _ _
  show k8_pay4 (F := Ideal) (outsAt8 V c t.val t.isLt).2.2.2.1 (ix2 (0 : Fin 1) q) = meanRow8 (hOut8 V c) (((cfg8.win 10).blk t).view.emb (ix2 (0 : Fin 1) q))
  have hq : ((((cfg8.win 10).blk t).view.emb (ix2 (0 : Fin 1) q) : S1x256.Idx) 1) = q :=
    Fin.ext (by show win8_10.index t (1 : Fin 2) * 256 + 1 * q.val = q.val; rw [e1]; omega)
  refine (pay8_4_at _ _).trans ?_
  unfold meanRow8 Sage.colMean
  rw [hq, (accs8_eq V c q t.val t.isLt).1, h19, acc_full8]
  simp only [rows8, Sage.ofBits_20000]

/-- What the last point writes back to the variance output's array is the variance row. -/
theorem flushed8_11_eq (c : Dev nD) (t : Fin cfg8.N) (hf : (cfg8.win 11).flush t = true) :
    (dat8 (F := Ideal) V c).flushed 11 t = ((cfg8.win 11).blk t).view.read (Elt Ideal) (varRow8 (hOut8 V c)) := by
  have h1 : t.val % 20 = 19 := (flush8_11 t).mp hf
  have h19 : t.val = 19 := last_of_flush8 t h1
  show (cfg8.win 11).cut (grid8.coords t) ((dat8 V c).after 11 t) = _
  rw [after8_11, (outs8_last V c t (by omega) h1).2.2.1]
  obtain ⟨e0, e1⟩ := (idx_facts8 t).2.2.2.2.2.2.2.2.2.2.2
  funext j
  obtain ⟨u, q, rfl⟩ : ∃ (u : Fin 1) (q : Fin 256), j = ix2 u q := ⟨j 0, j 1, eq_ix2 j⟩
  obtain rfl : u = 0 := Subsingleton.elim _ _
  show k8_pay5 (F := Ideal) (outsAt8 V c t.val t.isLt).2.2.2.1 (outsAt8 V c t.val t.isLt).2.2.2.2 (ix2 (0 : Fin 1) q) = varRow8 (hOut8 V c) (((cfg8.win 11).blk t).view.emb (ix2 (0 : Fin 1) q))
  have hq : ((((cfg8.win 11).blk t).view.emb (ix2 (0 : Fin 1) q) : S1x256.Idx) 1) = q :=
    Fin.ext (by show win8_11.index t (1 : Fin 2) * 256 + 1 * q.val = q.val; rw [e1]; omega)
  refine (pay8_5_at _ _ _).trans ?_
  unfold varRow8 Sage.colVarSq Sage.colMean
  rw [hq, (accs8_eq V c q t.val t.isLt).1, (accs8_eq V c q t.val t.isLt).2, h19, acc_full8, accSq_full8]
  simp only [rows8, Sage.ofBits_20000]

/-! ## From the blocks to the arrays -/

/-- An index of the block output's array is in point `t`'s block iff each coordinate is in the block's range on its axis. -/
theorem mem_blk8_9 (t : Fin cfg8.N) (i : S20000x256.Idx) :
    i ∈ ((cfg8.win 9).blk t).view.set ↔ ∀ a : Fin 2, win8_9.index t a * S1000x256.size a ≤ (i a).val ∧ (i a).val < win8_9.index t a * S1000x256.size a + S1000x256.size a := by
  show i ∈ ((View.whole (Pipeline.arrRef spec8 9)).slice (win8_9.rect t)).set ↔ _
  rw [View.set_slice_whole, Rect.mem_set_unit]
  exact Iff.rfl
theorem mem_blk8_10 (t : Fin cfg8.N) (i : S1x256.Idx) :
    i ∈ ((cfg8.win 10).blk t).view.set ↔ ∀ a : Fin 2, win8_10.index t a * S1x256.size a ≤ (i a).val ∧ (i a).val < win8_10.index t a * S1x256.size a + S1x256.size a := by
  show i ∈ ((View.whole (Pipeline.arrRef spec8 10)).slice (win8_10.rect t)).set ↔ _
  rw [View.set_slice_whole, Rect.mem_set_unit]
  exact Iff.rfl
theorem mem_blk8_11 (t : Fin cfg8.N) (i : S1x256.Idx) :
    i ∈ ((cfg8.win 11).blk t).view.set ↔ ∀ a : Fin 2, win8_11.index t a * S1x256.size a ≤ (i a).val ∧ (i a).val < win8_11.index t a * S1x256.size a + S1x256.size a := by
  show i ∈ ((View.whole (Pipeline.arrRef spec8 11)).slice (win8_11.rect t)).set ↔ _
  rw [View.set_slice_whole, Rect.mem_set_unit]
  exact Iff.rfl

/-- Row `r` of the block output's array is in the block of point `r / 1000`, which writes it back. -/
theorem covered8_9 (i : S20000x256.Idx) : ∃ t : Fin cfg8.N, (cfg8.win 9).flush t = true ∧ i ∈ ((cfg8.win 9).blk t).view.set := by
  have hi0 : (i 0).val < 20000 := (i 0).isLt
  have hi1 : (i 1).val < 256 := (i 1).isLt
  have hN : cfg8.N = 20 := N_8
  let t : Fin cfg8.N := ⟨(i 0).val / 1000, by rw [hN]; omega⟩
  obtain ⟨e0, e1⟩ := (idx_facts8 t).2.2.2.2.2.2.2.2.2.1
  have ht : t.val = (i 0).val / 1000 := rfl
  refine ⟨t, flush8_9 t, ?_⟩
  rw [mem_blk8_9]
  intro a
  match a with
  | ⟨0, _⟩ => show win8_9.index t (0 : Fin 2) * 1000 ≤ (i 0).val ∧ (i 0).val < win8_9.index t (0 : Fin 2) * 1000 + 1000; omega
  | ⟨1, _⟩ => show win8_9.index t (1 : Fin 2) * 256 ≤ (i 1).val ∧ (i 1).val < win8_9.index t (1 : Fin 2) * 256 + 256; omega

/-- The last point's block of a statistics output is its whole row. -/
theorem covered8_10 (i : S1x256.Idx) : ∃ t : Fin cfg8.N, (cfg8.win 10).flush t = true ∧ i ∈ ((cfg8.win 10).blk t).view.set := by
  have hi0 : (i 0).val < 1 := (i 0).isLt
  have hi1 : (i 1).val < 256 := (i 1).isLt
  have hN : cfg8.N = 20 := N_8
  let t : Fin cfg8.N := ⟨19, by rw [hN]; omega⟩
  obtain ⟨e0, e1⟩ := (idx_facts8 t).2.2.2.2.2.2.2.2.2.2.1
  refine ⟨t, (flush8_10 t).mpr rfl, ?_⟩
  rw [mem_blk8_10]
  intro a
  match a with
  | ⟨0, _⟩ => show win8_10.index t (0 : Fin 2) * 1 ≤ (i 0).val ∧ (i 0).val < win8_10.index t (0 : Fin 2) * 1 + 1; omega
  | ⟨1, _⟩ => show win8_10.index t (1 : Fin 2) * 256 ≤ (i 1).val ∧ (i 1).val < win8_10.index t (1 : Fin 2) * 256 + 256; omega
theorem covered8_11 (i : S1x256.Idx) : ∃ t : Fin cfg8.N, (cfg8.win 11).flush t = true ∧ i ∈ ((cfg8.win 11).blk t).view.set := by
  have hi0 : (i 0).val < 1 := (i 0).isLt
  have hi1 : (i 1).val < 256 := (i 1).isLt
  have hN : cfg8.N = 20 := N_8
  let t : Fin cfg8.N := ⟨19, by rw [hN]; omega⟩
  obtain ⟨e0, e1⟩ := (idx_facts8 t).2.2.2.2.2.2.2.2.2.2.2
  refine ⟨t, (flush8_11 t).mpr rfl, ?_⟩
  rw [mem_blk8_11]
  intro a
  match a with
  | ⟨0, _⟩ => show win8_11.index t (0 : Fin 2) * 1 ≤ (i 0).val ∧ (i 0).val < win8_11.index t (0 : Fin 2) * 1 + 1; omega
  | ⟨1, _⟩ => show win8_11.index t (1 : Fin 2) * 256 ≤ (i 1).val ∧ (i 1).val < win8_11.index t (1 : Fin 2) * 256 + 256; omega

/-- The block output's array after the region: the combined layer of the arrays as the region finds them. -/
theorem final8_9 (c : Dev nD) : (dat8 (F := Ideal) V c).arrAt 9 cfg8.N = hOut8 V c :=
  (dat8 (F := Ideal) V c).arrAt_eq_of_cover 9 _ (fun t _ => flushed8_9_eq V c t) covered8_9

/-- The mean output's array after the region: the combined layer's column means. -/
theorem final8_10 (c : Dev nD) : (dat8 (F := Ideal) V c).arrAt 10 cfg8.N = meanRow8 (hOut8 V c) :=
  (dat8 (F := Ideal) V c).arrAt_eq_of_cover 10 _ (fun t hf => flushed8_10_eq V c t hf) covered8_10

/-- The variance output's array after the region: the combined layer's column variances. -/
theorem final8_11 (c : Dev nD) : (dat8 (F := Ideal) V c).arrAt 11 cfg8.N = varRow8 (hOut8 V c) :=
  (dat8 (F := Ideal) V c).arrAt_eq_of_cover 11 _ (fun t hf => flushed8_11_eq V c t hf) covered8_11

/-- The same, entry by entry. -/
theorem final8_9_apply (c : Dev nD) (r : Fin 20000) (q : Fin 256) :
    ((dat8 (F := Ideal) V c).arrAt 9 cfg8.N : S20000x256.Idx → EReal) (ix2 r q)
      = Sage.rel (fun k : Fin 256 => agga8 V c (ix2 r k)) (fun k : Fin 256 => xdst8 V c (ix2 r k)) (fun k : Fin 256 => wla8 V c (ix2 k q)) (fun k : Fin 256 => wra8 V c (ix2 k q)) (bia8 V c (ix2 (0 : Fin 1) q))
        + Sage.rel (fun k : Fin 256 => aggb8 V c (ix2 r k)) (fun k : Fin 256 => xdst8 V c (ix2 r k)) (fun k : Fin 256 => wlb8 V c (ix2 k q)) (fun k : Fin 256 => wrb8 V c (ix2 k q)) (bib8 V c (ix2 (0 : Fin 1) q)) :=
  congrFun (final8_9 V c) (ix2 r q)
theorem final8_10_apply (c : Dev nD) (q : Fin 256) :
    ((dat8 (F := Ideal) V c).arrAt 10 cfg8.N : S1x256.Idx → EReal) (ix2 (0 : Fin 1) q)
      = Sage.colMean (((20000 : ℝ) : EReal)) (fun r : Fin 20000 => hOut8 V c (ix2 r q)) :=
  congrFun (final8_10 V c) (ix2 (0 : Fin 1) q)
theorem final8_11_apply (c : Dev nD) (q : Fin 256) :
    ((dat8 (F := Ideal) V c).arrAt 11 cfg8.N : S1x256.Idx → EReal) (ix2 (0 : Fin 1) q)
      = Sage.colVarSq (((20000 : ℝ) : EReal)) (fun r : Fin 20000 => hOut8 V c (ix2 r q)) :=
  congrFun (final8_11 V c) (ix2 (0 : Fin 1) q)

/-! ## The input arrays are kept -/

theorem kept8_0 (c : Dev nD) : (dat8 (F := Ideal) V c).arrAt 0 cfg8.N = V c (Pipeline.arrRef spec8 0) :=
  ((dat8 V c).arrAt_in 0 rfl _).trans (A_eq8 V c 0)
theorem kept8_1 (c : Dev nD) : (dat8 (F := Ideal) V c).arrAt 1 cfg8.N = V c (Pipeline.arrRef spec8 1) :=
  ((dat8 V c).arrAt_in 1 rfl _).trans (A_eq8 V c 1)
theorem kept8_2 (c : Dev nD) : (dat8 (F := Ideal) V c).arrAt 2 cfg8.N = V c (Pipeline.arrRef spec8 2) :=
  ((dat8 V c).arrAt_in 2 rfl _).trans (A_eq8 V c 2)
theorem kept8_3 (c : Dev nD) : (dat8 (F := Ideal) V c).arrAt 3 cfg8.N = V c (Pipeline.arrRef spec8 3) :=
  ((dat8 V c).arrAt_in 3 rfl _).trans (A_eq8 V c 3)
theorem kept8_4 (c : Dev nD) : (dat8 (F := Ideal) V c).arrAt 4 cfg8.N = V c (Pipeline.arrRef spec8 4) :=
  ((dat8 V c).arrAt_in 4 rfl _).trans (A_eq8 V c 4)
theorem kept8_5 (c : Dev nD) : (dat8 (F := Ideal) V c).arrAt 5 cfg8.N = V c (Pipeline.arrRef spec8 5) :=
  ((dat8 V c).arrAt_in 5 rfl _).trans (A_eq8 V c 5)
theorem kept8_6 (c : Dev nD) : (dat8 (F := Ideal) V c).arrAt 6 cfg8.N = V c (Pipeline.arrRef spec8 6) :=
  ((dat8 V c).arrAt_in 6 rfl _).trans (A_eq8 V c 6)
theorem kept8_7 (c : Dev nD) : (dat8 (F := Ideal) V c).arrAt 7 cfg8.N = V c (Pipeline.arrRef spec8 7) :=
  ((dat8 V c).arrAt_in 7 rfl _).trans (A_eq8 V c 7)
theorem kept8_8 (c : Dev nD) : (dat8 (F := Ideal) V c).arrAt 8 cfg8.N = V c (Pipeline.arrRef spec8 8) :=
  ((dat8 V c).arrAt_in 8 rfl _).trans (A_eq8 V c 8)

end Cert.KernelIdeal.Hand

end
-- ==== Proof.CmpL2T0.lean ====
/-
  Layer 2 compared, over layer 1's results: the same statements as layer 1's, each given that the kernel's layer-1
  results it reads are the reference's.
-/
import proofs.«126569_j1468878815453_1_alg».proof.Proof.CmpA2
import proofs.«126569_j1468878815453_1_alg».proof.Proof.KI.ReadL2b
import proofs.«126569_j1468878815453_1_alg».proof.Proof.KI.Val8
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 2, the node type of 20000 rows: the kernel's relation sums are the reference's, and its normalised result the reference's. -/
theorem l2_0 (m : KMem) (ρ : Dev Cert.KernelIdeal.nD → PrngReg) (m' : RMem) (c : Dev Cert.KernelIdeal.nD) (hag : Agree m m' c)
    (hreal : Cert.ReferenceIdeal.Hand.ArgsReal m' c) (hx0 : Cert.KernelIdeal.Hand.kOut1_0 m ρ c = Cert.ReferenceIdeal.Hand.rOut1_drug m' c) (hx2 : Cert.KernelIdeal.Hand.kOut1_2 m ρ c = Cert.ReferenceIdeal.Hand.rOut1_side m' c) (hx1 : Cert.KernelIdeal.Hand.kOut1_1 m ρ c = Cert.ReferenceIdeal.Hand.rOut1_protein m' c) :
    Cert.KernelIdeal.Hand.kH2_0 m ρ c = Cert.ReferenceIdeal.Hand.rH2_drug m' c ∧ Cert.KernelIdeal.Hand.kOut2_0 m ρ c = Cert.ReferenceIdeal.Hand.rOut2_drug m' c := by
  have ea0 := agg2_4 m ρ m' c hag hx2
  have ea1 := agg2_5 m ρ m' c hag hx1
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH2_0 m ρ c = Cert.KernelIdeal.Hand.hArr8 (Cert.KernelIdeal.Hand.kAgg2_4 m ρ c) (Cert.KernelIdeal.Hand.kAgg2_5 m ρ c) (Cert.KernelIdeal.Hand.kOut1_0 m ρ c) (Cert.KernelIdeal.Hand.kWl2_4 m ρ c) (Cert.KernelIdeal.Hand.kWl2_5 m ρ c) (Cert.KernelIdeal.Hand.kWr2_4 m ρ c) (Cert.KernelIdeal.Hand.kWr2_5 m ρ c) (Cert.KernelIdeal.Hand.kB2_4 m ρ c) (Cert.KernelIdeal.Hand.kB2_5 m ρ c) :=
    (Cert.KernelIdeal.Hand.final8_9 (Cert.KernelIdeal.Hand.V17 m ρ) c).trans (Sage.cmp9 Cert.KernelIdeal.Hand.hArr8 (Cert.KernelIdeal.Hand.ent8_0 m ρ c) (Cert.KernelIdeal.Hand.ent8_1 m ρ c) (Cert.KernelIdeal.Hand.ent8_2 m ρ c) (Cert.KernelIdeal.Hand.ent8_3 m ρ c) (Cert.KernelIdeal.Hand.ent8_4 m ρ c) (Cert.KernelIdeal.Hand.ent8_5 m ρ c) (Cert.KernelIdeal.Hand.ent8_6 m ρ c) (Cert.KernelIdeal.Hand.ent8_7 m ρ c) (Cert.KernelIdeal.Hand.ent8_8 m ρ c))
  exact Sage.node2_eq (n := 20000) (k := 256) (m := 256) (R := 7) (i0 := 4) (i1 := 5)
    Cert.ReferenceIdeal.dot_S20000x256_S256x256_S20000x256_1_0_0_1_n_n Cert.ReferenceIdeal.Gen.slices_S7x256x256_S1x256x256_4_0_0 Cert.ReferenceIdeal.Gen.slices_S7x256x256_S1x256x256_5_0_0 Cert.ReferenceIdeal.Gen.shapeCasts_S1x256x256_S256x256
    Cert.ReferenceIdeal.Gen.slices_S7x256_S1x256_4_0 Cert.ReferenceIdeal.Gen.slices_S7x256_S1x256_5_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S20000x256_0_1
    (Ideal.ofBits .f32 0x3727C5AC#32) 20000 Cert.ReferenceIdeal.Hand.refBn20000 rfl (by decide) (by decide)
    (fun H hH g beta r q => Cert.ReferenceIdeal.Hand.refBn20000_eq_sq H hH g beta r q)
    (Cert.KernelIdeal.Hand.kAgg2_4 m ρ c) (Cert.KernelIdeal.Hand.kAgg2_5 m ρ c) (Cert.KernelIdeal.Hand.kOut1_0 m ρ c) (Cert.ReferenceIdeal.Hand.rAgg2_4 m' c) (Cert.ReferenceIdeal.Hand.rAgg2_5 m' c) (Cert.ReferenceIdeal.Hand.rOut1_drug m' c)
    (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.ReferenceIdeal.Hand.inW2l m' c) (Cert.ReferenceIdeal.Hand.inW2r m' c) (m ((c.tc : Thread Cert.KernelIdeal.nD Cert.KernelIdeal.τ).loc Cert.KernelIdeal.main_arg9)) (Cert.ReferenceIdeal.Hand.inB2 m' c)
    (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.ReferenceIdeal.Hand.inG2 m' c) (Cert.ReferenceIdeal.Hand.inBeta2 m' c)
    ea0 ea1 hx0 h7.symm h8.symm h9.symm h12.symm h13.symm
    (Cert.ReferenceIdeal.Hand.rAgg2_4_allReal hreal) (Cert.ReferenceIdeal.Hand.rAgg2_5_allReal hreal) (Cert.ReferenceIdeal.Hand.rOut1_drug_allReal hreal) hreal.w2l hreal.w2r hreal.b2
    (Cert.KernelIdeal.Hand.kH2_0 m ρ c) (Cert.KernelIdeal.Hand.kOut2_0 m ρ c) (Cert.KernelIdeal.Hand.kMean2_0 m ρ c) (Cert.KernelIdeal.Hand.kVar2_0 m ρ c) (Cert.KernelIdeal.Hand.kG2_0 m ρ c) (Cert.KernelIdeal.Hand.kBeta2_0 m ρ c)
    (fun r q => congrFun hHk (ix2 r q))
    (fun q => (Cert.KernelIdeal.Hand.final8_10_apply (Cert.KernelIdeal.Hand.V17 m ρ) c q).trans
      (congrArg (fun H : Cert.ReferenceIdeal.S20000x256.Idx → EReal => Sage.colMean ((20000 : ℝ) : EReal) fun r : Fin 20000 => H (ix2 r q)) (Cert.KernelIdeal.Hand.final8_9 (Cert.KernelIdeal.Hand.V17 m ρ) c).symm))
    (fun q => (Cert.KernelIdeal.Hand.final8_11_apply (Cert.KernelIdeal.Hand.V17 m ρ) c q).trans
      (congrArg (fun H : Cert.ReferenceIdeal.S20000x256.Idx → EReal => Sage.colVarSq ((20000 : ℝ) : EReal) fun r : Fin 20000 => H (ix2 r q)) (Cert.KernelIdeal.Hand.final8_9 (Cert.KernelIdeal.Hand.V17 m ρ) c).symm))
    (fun q => Sage.row_of_vec_apply (m ((c.tc : Thread Cert.KernelIdeal.nD Cert.KernelIdeal.τ).loc Cert.KernelIdeal.main_arg12)) Cert.KernelIdeal.Gen.shapeCasts_S256_S1x256 q)
    (fun q => Sage.row_of_vec_apply (m ((c.tc : Thread Cert.KernelIdeal.nD Cert.KernelIdeal.τ).loc Cert.KernelIdeal.main_arg13)) Cert.KernelIdeal.Gen.shapeCasts_S256_S1x256 q)
    (fun _ _ => rfl)

end Cert.Proof

end
-- ==== Proof.KI.Val9Pay.lean ====
import proofs.«126569_j1468878815453_1_alg».proof.Proof.KI.Reg9Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 9 (the layer-2 combine of a 50000-row node type in 50 row blocks): the payloads at an index

At the ideal instance: the nine input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x256 block with a 256x256 matrix -/

/-- The dot's dimension numbers: rows by the shared axis, the shared axis by columns. -/
noncomputable abbrev D9 : DotDims S1000x256 S256x256 S1000x256 := dot_S1000x256_S256x256_S1000x256_1_0_0_1_n_n

theorem D9_rank : D9.contr.rank = 1 := rfl
theorem D9_size : D9.contr.size ⟨0, by rw [D9_rank]; exact Nat.one_pos⟩ = 256 := rfl

/-- The left operand's index at output `j` and contraction index `k`: row `j 0`, column `k`; -/
theorem lhs_D9_0 (j : S1000x256.Idx) (k : D9.contr.Idx) : ((D9.lhsIdx j k 0 : Fin 1000) : ℕ) = (j 0 : Fin 1000) := rfl
theorem lhs_D9_1 (j : S1000x256.Idx) (k : D9.contr.Idx) : ((D9.lhsIdx j k 1 : Fin 256) : ℕ) = (k ⟨0, by rw [D9_rank]; exact Nat.one_pos⟩).val :=
  DotDims.lhsIdx_val_of_single D9 rfl j k
/-- the right operand's: row `k`, column `j 1`. -/
theorem rhs_D9_0 (j : S1000x256.Idx) (k : D9.contr.Idx) : ((D9.rhsIdx j k 0 : Fin 256) : ℕ) = (k ⟨0, by rw [D9_rank]; exact Nat.one_pos⟩).val :=
  DotDims.rhsIdx_val_of_single D9 rfl j k
theorem rhs_D9_1 (j : S1000x256.Idx) (k : D9.contr.Idx) : ((D9.rhsIdx j k 1 : Fin 256) : ℕ) = (j 1 : Fin 256) := rfl

/-- The product into a zero accumulator, at row `p` and column `q`: the row of the left operand against the column
    of the right one. -/
theorem matmul9_at (L : S1000x256.Idx → EReal) (R : S256x256.Idx → EReal) (p : Fin 1000) (q : Fin 256) :
    matmul (F := Ideal) (φ₁ := .f32) (φ₂ := .f32) D9 none L R (constant S1000x256 .f32 0x00000000#32) (ix2 p q)
      = ∑ k : Fin 256, L (ix2 p k) * R (ix2 k q) := by
  show FloatOps.matmul (F := Ideal) (φ₁ := .f32) (φ₂ := .f32) D9 none L R (constant S1000x256 .f32 0x00000000#32) (ix2 p q) = _
  rw [Ideal.matmul_constant_zero_apply, ← Equiv.sum_comp (contrEquiv1 D9 256 D9_rank D9_size).symm]
  refine Finset.sum_congr rfl fun k _ => ?_
  have hk := contrEquiv1_symm_val D9 256 D9_rank D9_size k
  have eL : D9.lhsIdx (ix2 p q) ((contrEquiv1 D9 256 D9_rank D9_size).symm k) = ix2 p k :=
    Shape.idx_ext₂ (lhs_D9_0 _ _) ((lhs_D9_1 _ _).trans hk)
  have eR : D9.rhsIdx (ix2 p q) ((contrEquiv1 D9 256 D9_rank D9_size).symm k) = ix2 k q :=
    Shape.idx_ext₂ ((rhs_D9_0 _ _).trans hk) (rhs_D9_1 _ _)
  rw [eL, eR]

/-! ## The payloads at an index -/

/-- The block output's payload at row `p`, column `q`: the two relations' contributions to that entry, added. The
    three partial results are: the first relation's whole contribution (the first aggregate's block against the first
    left weights, plus the first bias row, plus the destination's block against the first right weights); the second
    aggregate's block against the second left weights plus the second bias row; the destination's block against the
    second right weights. -/
theorem pay9_blk_at (a0 a1 x : S1000x256.Idx → EReal) (wl0 wl1 wr0 wr1 : S256x256.Idx → EReal) (b0 b1 : S1x256.Idx → EReal)
    (p : Fin 1000) (q : Fin 256) :
    k9_pay1 (F := Ideal) (k9_pay8 (F := Ideal) a0 wl0 b0 x wr0) (k9_pay9 (F := Ideal) a1 wl1 b1) (k9_pay10 (F := Ideal) x wr1) (ix2 p q)
      = Sage.rel (fun k : Fin 256 => a0 (ix2 p k)) (fun k : Fin 256 => x (ix2 p k)) (fun k : Fin 256 => wl0 (ix2 k q)) (fun k : Fin 256 => wr0 (ix2 k q)) (b0 (ix2 (0 : Fin 1) q))
        + Sage.rel (fun k : Fin 256 => a1 (ix2 p k)) (fun k : Fin 256 => x (ix2 p k)) (fun k : Fin 256 => wl1 (ix2 k q)) (fun k : Fin 256 => wr1 (ix2 k q)) (b1 (ix2 (0 : Fin 1) q)) := by
  unfold k9_pay1 k9_pay8 k9_pay9 k9_pay10
  simp only [addf_apply, shapeCast_self, broadcastTo_1b_ab_apply, matmul9_at]
  rfl

/-- A 1000x256 block's column sums, as a row: at column `q` the sum over the block's rows. -/
theorem colsum9_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the column sum of the block (the three partial
    results added). -/
theorem pay9_2_at (u v w : S1000x256.Idx → EReal) (s : S1x256.Idx → EReal) (q : Fin 256) :
    k9_pay2 (F := Ideal) u v w s (ix2 (0 : Fin 1) q) = s (ix2 (0 : Fin 1) q) + ∑ r : Fin 1000, k9_pay1 (F := Ideal) u v w (ix2 r q) := by
  unfold k9_pay2
  simp only [shapeCast_self, addf_apply]
  exact congrArg (s (ix2 (0 : Fin 1) q) + ·) (colsum9_at (k9_pay1 (F := Ideal) u v w) q)

/-- The second accumulator's payload at column `q`: what it held plus the column sum of the block's squares. -/
theorem pay9_3_at (u v w : S1000x256.Idx → EReal) (s : S1x256.Idx → EReal) (q : Fin 256) :
    k9_pay3 (F := Ideal) u v w s (ix2 (0 : Fin 1) q)
      = s (ix2 (0 : Fin 1) q) + ∑ r : Fin 1000, k9_pay1 (F := Ideal) u v w (ix2 r q) * k9_pay1 (F := Ideal) u v w (ix2 r q) := by
  unfold k9_pay3
  simp only [shapeCast_self, addf_apply]
  exact congrArg (s (ix2 (0 : Fin 1) q) + ·) ((colsum9_at (mulf (F := Ideal) (s := S1000x256) (φ := .f32) (k9_pay1 (F := Ideal) u v w) (k9_pay1 (F := Ideal) u v w)) q).trans rfl)

/-- The two resets store zeros. -/
theorem pay9_6_at (i : S1x256.Idx) : k9_pay6 (F := Ideal) i = 0 := by
  unfold k9_pay6
  simp only [shapeCast_self, broadcast_apply]
  exact Ideal.ofBits_zero_f32
theorem pay9_7_at (i : S1x256.Idx) : k9_pay7 (F := Ideal) i = 0 := by
  unfold k9_pay7
  simp only [shapeCast_self, broadcast_apply]
  exact Ideal.ofBits_zero_f32

/-- The row count the statistics divide by, as the body writes it. -/
noncomputable abbrev rows9 : EReal := Ideal.ofBits .f32 0x47435000#32

/-- The mean output's payload at an index: the first accumulator's entry over the row count. -/
theorem pay9_4_at (s0 : S1x256.Idx → EReal) (i : S1x256.Idx) : k9_pay4 (F := Ideal) s0 i = Ideal.div (s0 i) rows9 := by
  unfold k9_pay4
  simp only [divf_apply, broadcast_apply]
  rfl

/-- The variance output's payload at an index: the second accumulator's entry over the row count, less the squared mean. -/
theorem pay9_5_at (s0 s1 : S1x256.Idx → EReal) (i : S1x256.Idx) :
    k9_pay5 (F := Ideal) s0 s1 i = Ideal.div (s1 i) rows9 - Ideal.div (s0 i) rows9 * Ideal.div (s0 i) rows9 := by
  unfold k9_pay5
  simp only [subf_apply, mulf_apply, divf_apply, broadcast_apply, pay9_4_at]
  rfl

/-! ## The arrays as the region finds them -/

-- the TensorCore's buffer contents when the region is entered
variable (V : (c : Dev nD) → (b : Ref sig .tc) → Buf (Elt Ideal) ((c : Thread nD τ).loc b))

/-- The first relation's aggregated sources, -/
noncomputable abbrev agga9 (c : Dev nD) : S50000x256.Idx → EReal := V c (Pipeline.arrRef spec9 0)
/-- the second relation's, -/
noncomputable abbrev aggb9 (c : Dev nD) : S50000x256.Idx → EReal := V c (Pipeline.arrRef spec9 1)
/-- the destination's own features, -/
noncomputable abbrev xdst9 (c : Dev nD) : S50000x256.Idx → EReal := V c (Pipeline.arrRef spec9 2)
/-- the two relations' left weights, -/
noncomputable abbrev wla9 (c : Dev nD) : S256x256.Idx → EReal := V c (Pipeline.arrRef spec9 3)
noncomputable abbrev wlb9 (c : Dev nD) : S256x256.Idx → EReal := V c (Pipeline.arrRef spec9 4)
/-- their right weights, -/
noncomputable abbrev wra9 (c : Dev nD) : S256x256.Idx → EReal := V c (Pipeline.arrRef spec9 5)
noncomputable abbrev wrb9 (c : Dev nD) : S256x256.Idx → EReal := V c (Pipeline.arrRef spec9 6)
/-- and their bias rows. -/
noncomputable abbrev bia9 (c : Dev nD) : S1x256.Idx → EReal := V c (Pipeline.arrRef spec9 7)
noncomputable abbrev bib9 (c : Dev nD) : S1x256.Idx → EReal := V c (Pipeline.arrRef spec9 8)

/-- The input windows' blocks at a point, by their literal types. -/
noncomputable abbrev blk9_0 (c : Dev nD) (t : Fin cfg9.N) : S1000x256.Idx → EReal := iblk9 V c 0 t
noncomputable abbrev blk9_1 (c : Dev nD) (t : Fin cfg9.N) : S1000x256.Idx → EReal := iblk9 V c 1 t
noncomputable abbrev blk9_2 (c : Dev nD) (t : Fin cfg9.N) : S1000x256.Idx → EReal := iblk9 V c 2 t
noncomputable abbrev blk9_3 (c : Dev nD) (t : Fin cfg9.N) : S256x256.Idx → EReal := iblk9 V c 3 t
noncomputable abbrev blk9_4 (c : Dev nD) (t : Fin cfg9.N) : S256x256.Idx → EReal := iblk9 V c 4 t
noncomputable abbrev blk9_5 (c : Dev nD) (t : Fin cfg9.N) : S256x256.Idx → EReal := iblk9 V c 5 t
noncomputable abbrev blk9_6 (c : Dev nD) (t : Fin cfg9.N) : S256x256.Idx → EReal := iblk9 V c 6 t
noncomputable abbrev blk9_7 (c : Dev nD) (t : Fin cfg9.N) : S1x256.Idx → EReal := iblk9 V c 7 t
noncomputable abbrev blk9_8 (c : Dev nD) (t : Fin cfg9.N) : S1x256.Idx → EReal := iblk9 V c 8 t

/-! ## The blocks' places in their arrays -/

theorem hz9 : (![0, 0] : Fin 2 → Nat) = fun _ => 0 := funext fun a => by fin_cases a <;> rfl

/-- The printed index maps, decided over the grid: the three row-blocked inputs' and the block output's block at point
    `t` is row block `t`; every other window's one block is its whole array. -/
theorem idx_facts9 : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = t.val ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = 0 ∧ win9_5.index t (1 : Fin 2) = 0)
    ∧ (win9_6.index t (0 : Fin 2) = 0 ∧ win9_6.index t (1 : Fin 2) = 0)
    ∧ (win9_7.index t (0 : Fin 2) = 0 ∧ win9_7.index t (1 : Fin 2) = 0)
    ∧ (win9_8.index t (0 : Fin 2) = 0 ∧ win9_8.index t (1 : Fin 2) = 0)
    ∧ (win9_9.index t (0 : Fin 2) = t.val ∧ win9_9.index t (1 : Fin 2) = 0)
    ∧ (win9_10.index t (0 : Fin 2) = 0 ∧ win9_10.index t (1 : Fin 2) = 0)
    ∧ (win9_11.index t (0 : Fin 2) = 0 ∧ win9_11.index t (1 : Fin 2) = 0) :=
  (by decide +kernel : ∀ t : Fin grid9.N, _)

/-- Row `p`, column `k` of the first aggregate's block at point `t` is the array's entry at row `1000 t + p`. -/
theorem blk9_0_at (c : Dev nD) (t : Fin cfg9.N) (p : Fin 1000) (k : Fin 256) (hr : t.val * 1000 + p.val < 50000) :
    blk9_0 V c t (ix2 p k) = agga9 V c (ix2 (⟨t.val * 1000 + p.val, hr⟩ : Fin 50000) k) := by
  obtain ⟨e0, e1⟩ := (idx_facts9 t).1
  show iblk9 V c 0 t (ix2 p k) = _
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 1000 + 1 * p.val = t.val * 1000 + p.val; rw [e0]; omega
  | ⟨1, _⟩ => show win9_0.index t (1 : Fin 2) * 256 + 1 * k.val = k.val; rw [e1]; omega

/-- Row `p`, column `k` of the second aggregate's block at point `t` is the array's entry at row `1000 t + p`. -/
theorem blk9_1_at (c : Dev nD) (t : Fin cfg9.N) (p : Fin 1000) (k : Fin 256) (hr : t.val * 1000 + p.val < 50000) :
    blk9_1 V c t (ix2 p k) = aggb9 V c (ix2 (⟨t.val * 1000 + p.val, hr⟩ : Fin 50000) k) := by
  obtain ⟨e0, e1⟩ := (idx_facts9 t).2.1
  show iblk9 V c 1 t (ix2 p k) = _
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 1000 + 1 * p.val = t.val * 1000 + p.val; rw [e0]; omega
  | ⟨1, _⟩ => show win9_1.index t (1 : Fin 2) * 256 + 1 * k.val = k.val; rw [e1]; omega

/-- Row `p`, column `k` of the destination's block at point `t` is the array's entry at row `1000 t + p`. -/
theorem blk9_2_at (c : Dev nD) (t : Fin cfg9.N) (p : Fin 1000) (k : Fin 256) (hr : t.val * 1000 + p.val < 50000) :
    blk9_2 V c t (ix2 p k) = xdst9 V c (ix2 (⟨t.val * 1000 + p.val, hr⟩ : Fin 50000) k) := by
  obtain ⟨e0, e1⟩ := (idx_facts9 t).2.2.1
  show iblk9 V c 2 t (ix2 p k) = _
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 1000 + 1 * p.val = t.val * 1000 + p.val; rw [e0]; omega
  | ⟨1, _⟩ => show win9_2.index t (1 : Fin 2) * 256 + 1 * k.val = k.val; rw [e1]; omega

/-- Window 3's one block, at any point, is its whole array. -/
theorem blk9_3_eq (c : Dev nD) (t : Fin cfg9.N) : blk9_3 V c t = wla9 V c := by
  obtain ⟨e0, e1⟩ := (idx_facts9 t).2.2.2.1
  funext j
  obtain ⟨k, q, rfl⟩ : ∃ (k : Fin 256) (q : Fin 256), j = ix2 k q := ⟨j 0, j 1, eq_ix2 j⟩
  show iblk9 V c 3 t (ix2 k q) = _
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 256 + 1 * k.val = k.val; rw [e0]; omega
  | ⟨1, _⟩ => show win9_3.index t (1 : Fin 2) * 256 + 1 * q.val = q.val; rw [e1]; omega

/-- Window 4's one block, at any point, is its whole array. -/
theorem blk9_4_eq (c : Dev nD) (t : Fin cfg9.N) : blk9_4 V c t = wlb9 V c := by
  obtain ⟨e0, e1⟩ := (idx_facts9 t).2.2.2.2.1
  funext j
  obtain ⟨k, q, rfl⟩ : ∃ (k : Fin 256) (q : Fin 256), j = ix2 k q := ⟨j 0, j 1, eq_ix2 j⟩
  show iblk9 V c 4 t (ix2 k q) = _
  unfold iblk9
  rw [View.read_apply]
  show V c (Pipeline.arrRef spec9 4) _ = V c (Pipeline.arrRef spec9 4) _
  congr 1
  funext a
  apply Fin.ext
  match a with
  | ⟨0, _⟩ => show win9_4.index t (0 : Fin 2) * 256 + 1 * k.val = k.val; rw [e0]; omega
  | ⟨1, _⟩ => show win9_4.index t (1 : Fin 2) * 256 + 1 * q.val = q.val; rw [e1]; omega

/-- Window 5's one block, at any point, is its whole array. -/
theorem blk9_5_eq (c : Dev nD) (t : Fin cfg9.N) : blk9_5 V c t = wra9 V c := by
  obtain ⟨e0, e1⟩ := (idx_facts9 t).2.2.2.2.2.1
  funext j
  obtain ⟨k, q, rfl⟩ : ∃ (k : Fin 256) (q : Fin 256), j = ix2 k q := ⟨j 0, j 1, eq_ix2 j⟩
  show iblk9 V c 5 t (ix2 k q) = _
  unfold iblk9
  rw [View.read_apply]
  show V c (Pipeline.arrRef spec9 5) _ = V c (Pipeline.arrRef spec9 5) _
  congr 1
  funext a
  apply Fin.ext
  match a with
  | ⟨0, _⟩ => show win9_5.index t (0 : Fin 2) * 256 + 1 * k.val = k.val; rw [e0]; omega
  | ⟨1, _⟩ => show win9_5.index t (1 : Fin 2) * 256 + 1 * q.val = q.val; rw [e1]; omega

/-- Window 6's one block, at any point, is its whole array. -/
theorem blk9_6_eq (c : Dev nD) (t : Fin cfg9.N) : blk9_6 V c t = wrb9 V c := by
  obtain ⟨e0, e1⟩ := (idx_facts9 t).2.2.2.2.2.2.1
  funext j
  obtain ⟨k, q, rfl⟩ : ∃ (k : Fin 256) (q : Fin 256), j = ix2 k q := ⟨j 0, j 1, eq_ix2 j⟩
  show iblk9 V c 6 t (ix2 k q) = _
  unfold iblk9
  rw [View.read_apply]
  show V c (Pipeline.arrRef spec9 6) _ = V c (Pipeline.arrRef spec9 6) _
  congr 1
  funext a
  apply Fin.ext
  match a with
  | ⟨0, _⟩ => show win9_6.index t (0 : Fin 2) * 256 + 1 * k.val = k.val; rw [e0]; omega
  | ⟨1, _⟩ => show win9_6.index t (1 : Fin 2) * 256 + 1 * q.val = q.val; rw [e1]; omega

/-- Window 7's one block, at any point, is its whole row. -/
theorem blk9_7_eq (c : Dev nD) (t : Fin cfg9.N) : blk9_7 V c t = bia9 V c := by
  obtain ⟨e0, e1⟩ := (idx_facts9 t).2.2.2.2.2.2.2.1
  funext j
  obtain ⟨u, q, rfl⟩ : ∃ (u : Fin 1) (q : Fin 256), j = ix2 u q := ⟨j 0, j 1, eq_ix2 j⟩
  show iblk9 V c 7 t (ix2 u q) = _
  unfold iblk9
  rw [View.read_apply]
  show V c (Pipeline.arrRef spec9 7) _ = V c (Pipeline.arrRef spec9 7) _
  congr 1
  funext a
  apply Fin.ext
  match a with
  | ⟨0, _⟩ => show win9_7.index t (0 : Fin 2) * 1 + 1 * u.val = u.val; rw [e0]; omega
  | ⟨1, _⟩ => show win9_7.index t (1 : Fin 2) * 256 + 1 * q.val = q.val; rw [e1]; omega

/-- Window 8's one block, at any point, is its whole row. -/
theorem blk9_8_eq (c : Dev nD) (t : Fin cfg9.N) : blk9_8 V c t = bib9 V c := by
  obtain ⟨e0, e1⟩ := (idx_facts9 t).2.2.2.2.2.2.2.2.1
  funext j
  obtain ⟨u, q, rfl⟩ : ∃ (u : Fin 1) (q : Fin 256), j = ix2 u q := ⟨j 0, j 1, eq_ix2 j⟩
  show iblk9 V c 8 t (ix2 u q) = _
  unfold iblk9
  rw [View.read_apply]
  show V c (Pipeline.arrRef spec9 8) _ = V c (Pipeline.arrRef spec9 8) _
  congr 1
  funext a
  apply Fin.ext
  match a with
  | ⟨0, _⟩ => show win9_8.index t (0 : Fin 2) * 1 + 1 * u.val = u.val; rw [e0]; omega
  | ⟨1, _⟩ => show win9_8.index t (1 : Fin 2) * 256 + 1 * q.val = q.val; rw [e1]; omega

end Cert.KernelIdeal.Hand

end
-- ==== Proof.KI.Val9.lean ====
import proofs.«126569_j1468878815453_1_alg».proof.Proof.KI.Reg9
import proofs.«126569_j1468878815453_1_alg».proof.Proof.KI.Val9Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 9 (the layer-2 combine of a 50000-row node type in 50 row blocks), the value

What each control case's stores leave, as the body's payloads of the input blocks and of what the accumulators held;
the accumulators after a point as running column sums; at the ideal instance, the three output arrays after the
region as functions of the nine input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

theorem hzP9 : (![0, 0] : Fin 2 → Nat) = fun _ => 0 := funext fun a => by fin_cases a <;> rfl

theorem out9_A_9_eq (c : Dev nD) (t : Fin cfg9.N) (hc0 : cond9_0 (grid9.coords t)) (hc1 : ¬cond9_1 (grid9.coords t)) (x0 x1 x2 : Vec F S1000x256 .f32) (x3 x4 x5 x6 : Vec F S256x256 .f32) (x7 x8 : Vec F S1x256 .f32)  :
    out9_A_9 c t hc0 hc1 x0 x1 x2 x3 x4 x5 x6 x7 x8  = k9_pay1 (k9_pay8 x0 x3 x7 x2 x5) (k9_pay9 x1 x4 x8) (k9_pay10 x2 x6) := by
  unfold out9_A_9
  rw [View.read_writes_eq_canon _ _ _ (cover9_A_9 c t hc0 hc1 x0 x1 x2 x3 x4 x5 x6 x7 x8 )]
  unfold runAt9_A kernelRun9_A
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]

theorem sout9_A_0_eq (c : Dev nD) (t : Fin cfg9.N) (hc0 : cond9_0 (grid9.coords t)) (hc1 : ¬cond9_1 (grid9.coords t)) (x0 x1 x2 : Vec F S1000x256 .f32) (x3 x4 x5 x6 : Vec F S256x256 .f32) (x7 x8 : Vec F S1x256 .f32)  :
    sout9_A_0 c t hc0 hc1 x0 x1 x2 x3 x4 x5 x6 x7 x8  = k9_pay2 (k9_pay8 x0 x3 x7 x2 x5) (k9_pay9 x1 x4 x8) (k9_pay10 x2 x6) (k9_pay6 (F := F)) := by
  unfold sout9_A_0
  rw [View.read_writes_eq_canon _ _ _ (scover9_A_0 c t hc0 hc1 x0 x1 x2 x3 x4 x5 x6 x7 x8 )]
  unfold runAt9_A kernelRun9_A
  dsimp only
  try sl_unfold_words
  rw [View.canon_cons_unit_zero (S := S1x256) hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]

theorem sout9_A_1_eq (c : Dev nD) (t : Fin cfg9.N) (hc0 : cond9_0 (grid9.coords t)) (hc1 : ¬cond9_1 (grid9.coords t)) (x0 x1 x2 : Vec F S1000x256 .f32) (x3 x4 x5 x6 : Vec F S256x256 .f32) (x7 x8 : Vec F S1x256 .f32)  :
    sout9_A_1 c t hc0 hc1 x0 x1 x2 x3 x4 x5 x6 x7 x8  = k9_pay3 (k9_pay8 x0 x3 x7 x2 x5) (k9_pay9 x1 x4 x8) (k9_pay10 x2 x6) (k9_pay7 (F := F)) := by
  unfold sout9_A_1
  rw [View.read_writes_eq_canon _ _ _ (scover9_A_1 c t hc0 hc1 x0 x1 x2 x3 x4 x5 x6 x7 x8 )]
  unfold runAt9_A kernelRun9_A
  dsimp only
  try sl_unfold_words
  rw [View.canon_cons_unit_zero (S := S1x256) hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]

theorem out9_B_9_eq (c : Dev nD) (t : Fin cfg9.N) (hc0 : ¬cond9_0 (grid9.coords t)) (hc1 : ¬cond9_1 (grid9.coords t)) (x0 x1 x2 : Vec F S1000x256 .f32) (x3 x4 x5 x6 : Vec F S256x256 .f32) (x7 x8 : Vec F S1x256 .f32) (xs0 xs1 : Vec F S1x256 .f32) :
    out9_B_9 c t hc0 hc1 x0 x1 x2 x3 x4 x5 x6 x7 x8 xs0 xs1 = k9_pay1 (k9_pay8 x0 x3 x7 x2 x5) (k9_pay9 x1 x4 x8) (k9_pay10 x2 x6) := by
  unfold out9_B_9
  rw [View.read_writes_eq_canon _ _ _ (cover9_B_9 c t hc0 hc1 x0 x1 x2 x3 x4 x5 x6 x7 x8 xs0 xs1)]
  unfold runAt9_B kernelRun9_B
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]

theorem sout9_B_0_eq (c : Dev nD) (t : Fin cfg9.N) (hc0 : ¬cond9_0 (grid9.coords t)) (hc1 : ¬cond9_1 (grid9.coords t)) (x0 x1 x2 : Vec F S1000x256 .f32) (x3 x4 x5 x6 : Vec F S256x256 .f32) (x7 x8 : Vec F S1x256 .f32) (xs0 xs1 : Vec F S1x256 .f32) :
    sout9_B_0 c t hc0 hc1 x0 x1 x2 x3 x4 x5 x6 x7 x8 xs0 xs1 = k9_pay2 (k9_pay8 x0 x3 x7 x2 x5) (k9_pay9 x1 x4 x8) (k9_pay10 x2 x6) xs0 := by
  unfold sout9_B_0
  rw [View.read_writes_eq_canon _ _ _ (scover9_B_0 c t hc0 hc1 x0 x1 x2 x3 x4 x5 x6 x7 x8 xs0 xs1)]
  unfold runAt9_B kernelRun9_B
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]
  simp only [show View.read (Elt F) (View.whole cc9_scratch0) ((Memref.isWhole_whole cc9_scratch0).unread xs0) = xs0 from (Memref.isWhole_whole cc9_scratch0).read_unread xs0]

theorem sout9_B_1_eq (c : Dev nD) (t : Fin cfg9.N) (hc0 : ¬cond9_0 (grid9.coords t)) (hc1 : ¬cond9_1 (grid9.coords t)) (x0 x1 x2 : Vec F S1000x256 .f32) (x3 x4 x5 x6 : Vec F S256x256 .f32) (x7 x8 : Vec F S1x256 .f32) (xs0 xs1 : Vec F S1x256 .f32) :
    sout9_B_1 c t hc0 hc1 x0 x1 x2 x3 x4 x5 x6 x7 x8 xs0 xs1 = k9_pay3 (k9_pay8 x0 x3 x7 x2 x5) (k9_pay9 x1 x4 x8) (k9_pay10 x2 x6) xs1 := by
  unfold sout9_B_1
  rw [View.read_writes_eq_canon _ _ _ (scover9_B_1 c t hc0 hc1 x0 x1 x2 x3 x4 x5 x6 x7 x8 xs0 xs1)]
  unfold runAt9_B kernelRun9_B
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]
  simp only [show View.read (Elt F) (View.whole cc9_scratch1) ((Memref.isWhole_whole cc9_scratch1).unread xs1) = xs1 from (Memref.isWhole_whole cc9_scratch1).read_unread xs1]

theorem out9_C_9_eq (c : Dev nD) (t : Fin cfg9.N) (hc0 : ¬cond9_0 (grid9.coords t)) (hc1 : cond9_1 (grid9.coords t)) (x0 x1 x2 : Vec F S1000x256 .f32) (x3 x4 x5 x6 : Vec F S256x256 .f32) (x7 x8 : Vec F S1x256 .f32) (xs0 xs1 : Vec F S1x256 .f32) :
    out9_C_9 c t hc0 hc1 x0 x1 x2 x3 x4 x5 x6 x7 x8 xs0 xs1 = k9_pay1 (k9_pay8 x0 x3 x7 x2 x5) (k9_pay9 x1 x4 x8) (k9_pay10 x2 x6) := by
  unfold out9_C_9
  rw [View.read_writes_eq_canon _ _ _ (cover9_C_9 c t hc0 hc1 x0 x1 x2 x3 x4 x5 x6 x7 x8 xs0 xs1)]
  unfold runAt9_C kernelRun9_C
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]

theorem out9_C_10_eq (c : Dev nD) (t : Fin cfg9.N) (hc0 : ¬cond9_0 (grid9.coords t)) (hc1 : cond9_1 (grid9.coords t)) (x0 x1 x2 : Vec F S1000x256 .f32) (x3 x4 x5 x6 : Vec F S256x256 .f32) (x7 x8 : Vec F S1x256 .f32) (xs0 xs1 : Vec F S1x256 .f32) :
    out9_C_10 c t hc0 hc1 x0 x1 x2 x3 x4 x5 x6 x7 x8 xs0 xs1 = k9_pay4 (k9_pay2 (k9_pay8 x0 x3 x7 x2 x5) (k9_pay9 x1 x4 x8) (k9_pay10 x2 x6) xs0) := by
  unfold out9_C_10
  rw [View.read_writes_eq_canon _ _ _ (cover9_C_10 c t hc0 hc1 x0 x1 x2 x3 x4 x5 x6 x7 x8 xs0 xs1)]
  unfold runAt9_C kernelRun9_C
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]
  simp only [show View.read (Elt F) (View.whole cc9_scratch0) ((Memref.isWhole_whole cc9_scratch0).unread xs0) = xs0 from (Memref.isWhole_whole cc9_scratch0).read_unread xs0]

theorem out9_C_11_eq (c : Dev nD) (t : Fin cfg9.N) (hc0 : ¬cond9_0 (grid9.coords t)) (hc1 : cond9_1 (grid9.coords t)) (x0 x1 x2 : Vec F S1000x256 .f32) (x3 x4 x5 x6 : Vec F S256x256 .f32) (x7 x8 : Vec F S1x256 .f32) (xs0 xs1 : Vec F S1x256 .f32) :
    out9_C_11 c t hc0 hc1 x0 x1 x2 x3 x4 x5 x6 x7 x8 xs0 xs1 = k9_pay5 (k9_pay2 (k9_pay8 x0 x3 x7 x2 x5) (k9_pay9 x1 x4 x8) (k9_pay10 x2 x6) xs0) (k9_pay3 (k9_pay8 x0 x3 x7 x2 x5) (k9_pay9 x1 x4 x8) (k9_pay10 x2 x6) xs1) := by
  unfold out9_C_11
  rw [View.read_writes_eq_canon _ _ _ (cover9_C_11 c t hc0 hc1 x0 x1 x2 x3 x4 x5 x6 x7 x8 xs0 xs1)]
  unfold runAt9_C kernelRun9_C
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]
  simp only [show View.read (Elt F) (View.whole cc9_scratch0) ((Memref.isWhole_whole cc9_scratch0).unread xs0) = xs0 from (Memref.isWhole_whole cc9_scratch0).read_unread xs0]
  simp only [show View.read (Elt F) (View.whole cc9_scratch1) ((Memref.isWhole_whole cc9_scratch1).unread xs1) = xs1 from (Memref.isWhole_whole cc9_scratch1).read_unread xs1]

theorem sout9_C_0_eq (c : Dev nD) (t : Fin cfg9.N) (hc0 : ¬cond9_0 (grid9.coords t)) (hc1 : cond9_1 (grid9.coords t)) (x0 x1 x2 : Vec F S1000x256 .f32) (x3 x4 x5 x6 : Vec F S256x256 .f32) (x7 x8 : Vec F S1x256 .f32) (xs0 xs1 : Vec F S1x256 .f32) :
    sout9_C_0 c t hc0 hc1 x0 x1 x2 x3 x4 x5 x6 x7 x8 xs0 xs1 = k9_pay2 (k9_pay8 x0 x3 x7 x2 x5) (k9_pay9 x1 x4 x8) (k9_pay10 x2 x6) xs0 := by
  unfold sout9_C_0
  rw [View.read_writes_eq_canon _ _ _ (scover9_C_0 c t hc0 hc1 x0 x1 x2 x3 x4 x5 x6 x7 x8 xs0 xs1)]
  unfold runAt9_C kernelRun9_C
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]
  simp only [show View.read (Elt F) (View.whole cc9_scratch0) ((Memref.isWhole_whole cc9_scratch0).unread xs0) = xs0 from (Memref.isWhole_whole cc9_scratch0).read_unread xs0]

theorem sout9_C_1_eq (c : Dev nD) (t : Fin cfg9.N) (hc0 : ¬cond9_0 (grid9.coords t)) (hc1 : cond9_1 (grid9.coords t)) (x0 x1 x2 : Vec F S1000x256 .f32) (x3 x4 x5 x6 : Vec F S256x256 .f32) (x7 x8 : Vec F S1x256 .f32) (xs0 xs1 : Vec F S1x256 .f32) :
    sout9_C_1 c t hc0 hc1 x0 x1 x2 x3 x4 x5 x6 x7 x8 xs0 xs1 = k9_pay3 (k9_pay8 x0 x3 x7 x2 x5) (k9_pay9 x1 x4 x8) (k9_pay10 x2 x6) xs1 := by
  unfold sout9_C_1
  rw [View.read_writes_eq_canon _ _ _ (scover9_C_1 c t hc0 hc1 x0 x1 x2 x3 x4 x5 x6 x7 x8 xs0 xs1)]
  unfold runAt9_C kernelRun9_C
  dsimp only
  try sl_unfold_words
  rw [View.canon_unit_zero hzP9]
  simp only [View.readAt_eq_ld, Memref.IsWhole.read_unread, View.ld_unit_zero (S := S1000x256) hzP9, View.ld_unit_zero (S := S256x256) hzP9, View.ld_unit_zero (S := S1x256) hzP9, View.readCov_unit_zero (S := S1x256) _ hzP9]
  simp only [show View.read (Elt F) (View.whole cc9_scratch1) ((Memref.isWhole_whole cc9_scratch1).unread xs1) = xs1 from (Memref.isWhole_whole cc9_scratch1).read_unread xs1]

end Pieces

/-! ## The result, index by index -/

-- the TensorCore's buffer contents when the region is entered
variable (V : (c : Dev nD) → (b : Ref sig .tc) → Buf (Elt Ideal) ((c : Thread nD τ).loc b))

/-- Every entry of the combined layer: the two relations' contributions to a destination row and an output column, added. -/
noncomputable def hArr9 (a0 a1 x : S50000x256.Idx → EReal) (wl0 wl1 wr0 wr1 : S256x256.Idx → EReal) (b0 b1 : S1x256.Idx → EReal) :
    S50000x256.Idx → EReal :=
  fun i => Sage.rel (fun k : Fin 256 => a0 (ix2 (i 0) k)) (fun k : Fin 256 => x (ix2 (i 0) k)) (fun k : Fin 256 => wl0 (ix2 k (i 1))) (fun k : Fin 256 => wr0 (ix2 k (i 1))) (b0 (ix2 (0 : Fin 1) (i 1)))
    + Sage.rel (fun k : Fin 256 => a1 (ix2 (i 0) k)) (fun k : Fin 256 => x (ix2 (i 0) k)) (fun k : Fin 256 => wl1 (ix2 k (i 1))) (fun k : Fin 256 => wr1 (ix2 k (i 1))) (b1 (ix2 (0 : Fin 1) (i 1)))

/-- The combined layer of the arrays as the region finds them. -/
noncomputable abbrev hOut9 (c : Dev nD) : S50000x256.Idx → EReal :=
  hArr9 (agga9 V c) (aggb9 V c) (xdst9 V c) (wla9 V c) (wlb9 V c) (wra9 V c) (wrb9 V c) (bia9 V c) (bib9 V c)

/-- The body's three partial results at point `t`, from the input windows' blocks there, and the block they add up to. -/
noncomputable abbrev hpa9 (c : Dev nD) (t : Fin cfg9.N) : S1000x256.Idx → EReal :=
  k9_pay8 (F := Ideal) (blk9_0 V c t) (blk9_3 V c t) (blk9_7 V c t) (blk9_2 V c t) (blk9_5 V c t)
noncomputable abbrev hpb9 (c : Dev nD) (t : Fin cfg9.N) : S1000x256.Idx → EReal :=
  k9_pay9 (F := Ideal) (blk9_1 V c t) (blk9_4 V c t) (blk9_8 V c t)
noncomputable abbrev hpc9 (c : Dev nD) (t : Fin cfg9.N) : S1000x256.Idx → EReal :=
  k9_pay10 (F := Ideal) (blk9_2 V c t) (blk9_6 V c t)
noncomputable abbrev hblk9 (c : Dev nD) (t : Fin cfg9.N) : S1000x256.Idx → EReal :=
  k9_pay1 (F := Ideal) (hpa9 V c t) (hpb9 V c t) (hpc9 V c t)

/-- Row `p`, column `q` of that block is the combined layer's entry at row `1000 t + p`. -/
theorem hblk9_at (c : Dev nD) (t : Fin cfg9.N) (p : Fin 1000) (q : Fin 256) (hr : t.val * 1000 + p.val < 50000) :
    hblk9 V c t (ix2 p q) = hOut9 V c (ix2 (⟨t.val * 1000 + p.val, hr⟩ : Fin 50000) q) := by
  refine (pay9_blk_at (blk9_0 V c t) (blk9_1 V c t) (blk9_2 V c t) (blk9_3 V c t) (blk9_4 V c t) (blk9_5 V c t) (blk9_6 V c t) (blk9_7 V c t) (blk9_8 V c t) p q).trans ?_
  simp only [blk9_0_at V c t p _ hr, blk9_1_at V c t p _ hr, blk9_2_at V c t p _ hr, blk9_3_eq V c t, blk9_4_eq V c t, blk9_5_eq V c t, blk9_6_eq V c t, blk9_7_eq V c t, blk9_8_eq V c t]
  rfl

/-! ## What the outputs and the accumulators hold after a point -/

theorem N9_lt (t : Fin cfg9.N) : t.val < 50 := lt_of_lt_of_eq t.isLt (show cfg9.N = 50 from N_9)

/-- After the first point: the block, and the accumulators at zero plus the block's column sums. -/
theorem outs9_first (c : Dev nD) (t : Fin cfg9.N) (h0 : t.val = 0) :
    (outsAt9 V c t.val t.isLt).1 = hblk9 V c t
    ∧ (outsAt9 V c t.val t.isLt).2.2.2.1 = k9_pay2 (F := Ideal) (hpa9 V c t) (hpb9 V c t) (hpc9 V c t) (k9_pay6 (F := Ideal))
    ∧ (outsAt9 V c t.val t.isLt).2.2.2.2 = k9_pay3 (F := Ideal) (hpa9 V c t) (hpb9 V c t) (hpc9 V c t) (k9_pay7 (F := Ideal)) := by
  have hN := N9_lt t
  have hc0 : cond9_0 (grid9.coords t) := (hcond9_0 t).mpr (by rw [h0])
  have hc1 : ¬cond9_1 (grid9.coords t) := fun h => by have h' := (hcond9_1 t).mp h; omega
  rw [outsAt9_A V c t h0 hc0 hc1]
  dsimp only
  exact ⟨out9_A_9_eq (F := Ideal) c t hc0 hc1 (blk9_0 V c t) (blk9_1 V c t) (blk9_2 V c t) (blk9_3 V c t) (blk9_4 V c t) (blk9_5 V c t) (blk9_6 V c t) (blk9_7 V c t) (blk9_8 V c t),
    sout9_A_0_eq (F := Ideal) c t hc0 hc1 (blk9_0 V c t) (blk9_1 V c t) (blk9_2 V c t) (blk9_3 V c t) (blk9_4 V c t) (blk9_5 V c t) (blk9_6 V c t) (blk9_7 V c t) (blk9_8 V c t),
    sout9_A_1_eq (F := Ideal) c t hc0 hc1 (blk9_0 V c t) (blk9_1 V c t) (blk9_2 V c t) (blk9_3 V c t) (blk9_4 V c t) (blk9_5 V c t) (blk9_6 V c t) (blk9_7 V c t) (blk9_8 V c t)⟩

/-- After a middle point: the block, and each accumulator at what the point before left plus the block's column sums. -/
theorem outs9_mid (c : Dev nD) (t : Fin cfg9.N) (h0 : t.val ≠ 0) (h1 : ¬t.val % 50 = 49) :
    (outsAt9 V c t.val t.isLt).1 = hblk9 V c t
    ∧ (outsAt9 V c t.val t.isLt).2.2.2.1 = k9_pay2 (F := Ideal) (hpa9 V c t) (hpb9 V c t) (hpc9 V c t) (outsAt9 V c (t.val - 1) (Nat.lt_of_le_of_lt (Nat.sub_le _ _) t.isLt)).2.2.2.1
    ∧ (outsAt9 V c t.val t.isLt).2.2.2.2 = k9_pay3 (F := Ideal) (hpa9 V c t) (hpb9 V c t) (hpc9 V c t) (outsAt9 V c (t.val - 1) (Nat.lt_of_le_of_lt (Nat.sub_le _ _) t.isLt)).2.2.2.2 := by
  have hc0 : ¬cond9_0 (grid9.coords t) := later9_c0 t h0
  have hc1 : ¬cond9_1 (grid9.coords t) := fun h => h1 ((hcond9_1 t).mp h)
  rw [outsAt9_B V c t h0 h1 hc0 hc1]
  dsimp only
  exact ⟨out9_B_9_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
    sout9_B_0_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
    sout9_B_1_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2⟩

/-- After the last point: the block, the accumulators as at a middle point, and the two statistics rows from them. -/
theorem outs9_last (c : Dev nD) (t : Fin cfg9.N) (h0 : t.val ≠ 0) (h1 : t.val % 50 = 49) :
    (outsAt9 V c t.val t.isLt).1 = hblk9 V c t
    ∧ (outsAt9 V c t.val t.isLt).2.1 = k9_pay4 (F := Ideal) (outsAt9 V c t.val t.isLt).2.2.2.1
    ∧ (outsAt9 V c t.val t.isLt).2.2.1 = k9_pay5 (F := Ideal) (outsAt9 V c t.val t.isLt).2.2.2.1 (outsAt9 V c t.val t.isLt).2.2.2.2
    ∧ (outsAt9 V c t.val t.isLt).2.2.2.1 = k9_pay2 (F := Ideal) (hpa9 V c t) (hpb9 V c t) (hpc9 V c t) (outsAt9 V c (t.val - 1) (Nat.lt_of_le_of_lt (Nat.sub_le _ _) t.isLt)).2.2.2.1
    ∧ (outsAt9 V c t.val t.isLt).2.2.2.2 = k9_pay3 (F := Ideal) (hpa9 V c t) (hpb9 V c t) (hpc9 V c t) (outsAt9 V c (t.val - 1) (Nat.lt_of_le_of_lt (Nat.sub_le _ _) t.isLt)).2.2.2.2 := by
  have hc0 : ¬cond9_0 (grid9.coords t) := later9_c0 t h0
  have hc1 : cond9_1 (grid9.coords t) := (hcond9_1 t).mpr h1
  rw [outsAt9_C V c t h0 h1 hc0 hc1]
  dsimp only
  rw [sout9_C_0_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
    sout9_C_1_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2]
  exact ⟨out9_C_9_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
    out9_C_10_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
    out9_C_11_eq (F := Ideal) c t hc0 hc1 (blk9_0 V c t) (blk9_1 V c t) (blk9_2 V c t) (blk9_3 V c t) (blk9_4 V c t) (blk9_5 V c t) (blk9_6 V c t) (blk9_7 V c t) (blk9_8 V c t) (outsAt9 V c (t.val - 1) (Nat.lt_of_le_of_lt (Nat.sub_le _ _) t.isLt)).2.2.2.1 (outsAt9 V c (t.val - 1) (Nat.lt_of_le_of_lt (Nat.sub_le _ _) t.isLt)).2.2.2.2, rfl, rfl⟩

/-- The block output's staging buffer after any point holds the block computed there. -/
theorem outs9_blk (c : Dev nD) (t : Fin cfg9.N) : (outsAt9 V c t.val t.isLt).1 = hblk9 V c t := by
  by_cases h0 : t.val = 0
  · exact (outs9_first V c t h0).1
  · by_cases h1 : t.val % 50 = 49
    · exact (outs9_last V c t h0 h1).1
    · exact (outs9_mid V c t h0 h1).1

/-! ## The accumulators are the running column sums -/

/-- Column `q` of the combined layer, its rows numbered by natural numbers (zero past the last row), -/
noncomputable def colN9 (c : Dev nD) (q : Fin 256) : ℕ → EReal :=
  fun i => if h : i < 50000 then hOut9 V c (ix2 (⟨i, h⟩ : Fin 50000) q) else 0
/-- and the column of its squares. -/
noncomputable def colSq9 (c : Dev nD) (q : Fin 256) : ℕ → EReal :=
  fun i => if h : i < 50000 then hOut9 V c (ix2 (⟨i, h⟩ : Fin 50000) q) * hOut9 V c (ix2 (⟨i, h⟩ : Fin 50000) q) else 0

/-- The column sum of the block at point `t` is tile `t`'s sum. -/
theorem tile9 (c : Dev nD) (t : Fin cfg9.N) (q : Fin 256) :
    ∑ r : Fin 1000, hblk9 V c t (ix2 r q) = Sage.tileSum 1000 (colN9 V c q) t.val := by
  have hN := N9_lt t
  unfold Sage.tileSum
  rw [Finset.sum_range]
  refine Finset.sum_congr rfl fun r _ => ?_
  have hr : t.val * 1000 + r.val < 50000 := by have := r.isLt; omega
  rw [hblk9_at V c t r q hr]
  unfold colN9
  rw [dif_pos hr]
theorem tileSq9 (c : Dev nD) (t : Fin cfg9.N) (q : Fin 256) :
    ∑ r : Fin 1000, hblk9 V c t (ix2 r q) * hblk9 V c t (ix2 r q) = Sage.tileSum 1000 (colSq9 V c q) t.val := by
  have hN := N9_lt t
  unfold Sage.tileSum
  rw [Finset.sum_range]
  refine Finset.sum_congr rfl fun r _ => ?_
  have hr : t.val * 1000 + r.val < 50000 := by have := r.isLt; omega
  rw [hblk9_at V c t r q hr]
  unfold colSq9
  rw [dif_pos hr]

/-- After point `n` the two accumulators hold, at column `q`, the sums over the first `n + 1` tiles of the column and
    of its squares. -/
theorem accs9_eq (c : Dev nD) (q : Fin 256) : ∀ (n : ℕ) (hn : n < cfg9.N),
    (outsAt9 V c n hn).2.2.2.1 (ix2 (0 : Fin 1) q) = Sage.acc 1000 (colN9 V c q) (n + 1)
    ∧ (outsAt9 V c n hn).2.2.2.2 (ix2 (0 : Fin 1) q) = Sage.acc 1000 (colSq9 V c q) (n + 1)
  | 0, hn => by
    obtain ⟨-, e1, e2⟩ := outs9_first V c ⟨0, hn⟩ rfl
    have e1' : (outsAt9 V c 0 hn).2.2.2.1 = _ := e1
    have e2' : (outsAt9 V c 0 hn).2.2.2.2 = _ := e2
    rw [e1', e2']
    constructor
    · refine (pay9_2_at _ _ _ _ q).trans ?_
      rw [pay9_6_at, Sage.acc_succ, Sage.acc_zero, tile9 V c ⟨0, hn⟩ q]
    · refine (pay9_3_at _ _ _ _ q).trans ?_
      rw [pay9_7_at, Sage.acc_succ, Sage.acc_zero, tileSq9 V c ⟨0, hn⟩ q]
  | n + 1, hn => by
    obtain ⟨ih1, ih2⟩ := accs9_eq c q n (Nat.lt_of_succ_lt hn)
    have hs : (outsAt9 V c (n + 1) hn).2.2.2.1 = k9_pay2 (F := Ideal) (hpa9 V c ⟨n + 1, hn⟩) (hpb9 V c ⟨n + 1, hn⟩) (hpc9 V c ⟨n + 1, hn⟩) (outsAt9 V c n (Nat.lt_of_succ_lt hn)).2.2.2.1
        ∧ (outsAt9 V c (n + 1) hn).2.2.2.2 = k9_pay3 (F := Ideal) (hpa9 V c ⟨n + 1, hn⟩) (hpb9 V c ⟨n + 1, hn⟩) (hpc9 V c ⟨n + 1, hn⟩) (outsAt9 V c n (Nat.lt_of_succ_lt hn)).2.2.2.2 := by
      by_cases h1 : (n + 1) % 50 = 49
      · exact ⟨(outs9_last V c ⟨n + 1, hn⟩ (Nat.succ_ne_zero n) h1).2.2.2.1, (outs9_last V c ⟨n + 1, hn⟩ (Nat.succ_ne_zero n) h1).2.2.2.2⟩
      · exact ⟨(outs9_mid V c ⟨n + 1, hn⟩ (Nat.succ_ne_zero n) h1).2.1, (outs9_mid V c ⟨n + 1, hn⟩ (Nat.succ_ne_zero n) h1).2.2⟩
    rw [hs.1, hs.2]
    constructor
    · refine (pay9_2_at _ _ _ _ q).trans ?_
      rw [ih1, Sage.acc_succ _ _ (n + 1), tile9 V c ⟨n + 1, hn⟩ q]
    · refine (pay9_3_at _ _ _ _ q).trans ?_
      rw [ih2, Sage.acc_succ _ _ (n + 1), tileSq9 V c ⟨n + 1, hn⟩ q]

/-- All twenty tiles: the column's sum over all rows. -/
theorem acc_full9 (c : Dev nD) (q : Fin 256) :
    Sage.acc 1000 (colN9 V c q) 50 = ∑ r : Fin 50000, hOut9 V c (ix2 r q) := by
  rw [Sage.acc_eq_sum, show (50 * 1000 : ℕ) = 50000 from rfl, Finset.sum_range]
  refine Finset.sum_congr rfl fun r _ => ?_
  unfold colN9
  rw [dif_pos r.isLt]
theorem accSq_full9 (c : Dev nD) (q : Fin 256) :
    Sage.acc 1000 (colSq9 V c q) 50 = ∑ r : Fin 50000, hOut9 V c (ix2 r q) * hOut9 V c (ix2 r q) := by
  rw [Sage.acc_eq_sum, show (50 * 1000 : ℕ) = 50000 from rfl, Finset.sum_range]
  refine Finset.sum_congr rfl fun r _ => ?_
  unfold colSq9
  rw [dif_pos r.isLt]

/-! ## What a point writes back -/

/-- What point `t` writes back to the block output's array is block `t` of the combined layer. -/
theorem flushed9_9_eq (c : Dev nD) (t : Fin cfg9.N) :
    (dat9 (F := Ideal) V c).flushed 9 t = ((cfg9.win 9).blk t).view.read (Elt Ideal) (hOut9 V c) := by
  show (cfg9.win 9).cut (grid9.coords t) ((dat9 V c).after 9 t) = _
  rw [after9_9, outs9_blk V c t]
  have hN := N9_lt t
  obtain ⟨e0, e1⟩ := (idx_facts9 t).2.2.2.2.2.2.2.2.2.1
  funext j
  obtain ⟨p, q, rfl⟩ : ∃ (p : Fin 1000) (q : Fin 256), j = ix2 p q := ⟨j 0, j 1, eq_ix2 j⟩
  show hblk9 V c t (ix2 p q) = hOut9 V c (((cfg9.win 9).blk t).view.emb (ix2 p q))
  have hr : t.val * 1000 + p.val < 50000 := by have := p.isLt; omega
  rw [hblk9_at V c t p q hr]
  refine congrArg (hOut9 V c) (Shape.idx_ext₂ ?_ ?_)
  · show t.val * 1000 + p.val = win9_9.index t (0 : Fin 2) * 1000 + 1 * p.val; rw [e0]; omega
  · show q.val = win9_9.index t (1 : Fin 2) * 256 + 1 * q.val; rw [e1]; omega

/-- The mean row: each column's mean over the 50000 rows of the combined layer, -/
noncomputable def meanRow9 (h : S50000x256.Idx → EReal) : S1x256.Idx → EReal :=
  fun i => Sage.colMean (((50000 : ℝ) : EReal)) (fun r : Fin 50000 => h (ix2 r (i 1)))
/-- and the variance row: each column's mean of squares less its squared mean. -/
noncomputable def varRow9 (h : S50000x256.Idx → EReal) : S1x256.Idx → EReal :=
  fun i => Sage.colVarSq (((50000 : ℝ) : EReal)) (fun r : Fin 50000 => h (ix2 r (i 1)))

/-- A point that writes a statistics row back is the last one. -/
theorem last_of_flush9 (t : Fin cfg9.N) (h : t.val % 50 = 49) : t.val = 49 := by have := N9_lt t; omega

/-- What the last point writes back to the mean output's array is the mean row. -/
theorem flushed9_10_eq (c : Dev nD) (t : Fin cfg9.N) (hf : (cfg9.win 10).flush t = true) :
    (dat9 (F := Ideal) V c).flushed 10 t = ((cfg9.win 10).blk t).view.read (Elt Ideal) (meanRow9 (hOut9 V c)) := by
  have h1 : t.val % 50 = 49 := (flush9_10 t).mp hf
  have h19 : t.val = 49 := last_of_flush9 t h1
  show (cfg9.win 10).cut (grid9.coords t) ((dat9 V c).after 10 t) = _
  rw [after9_10, (outs9_last V c t (by omega) h1).2.1]
  obtain ⟨e0, e1⟩ := (idx_facts9 t).2.2.2.2.2.2.2.2.2.2.1
  funext j
  obtain ⟨u, q, rfl⟩ : ∃ (u : Fin 1) (q : Fin 256), j = ix2 u q := ⟨j 0, j 1, eq_ix2 j⟩
  obtain rfl : u = 0 := Subsingleton.elim _ _
  show k9_pay4 (F := Ideal) (outsAt9 V c t.val t.isLt).2.2.2.1 (ix2 (0 : Fin 1) q) = meanRow9 (hOut9 V c) (((cfg9.win 10).blk t).view.emb (ix2 (0 : Fin 1) q))
  have hq : ((((cfg9.win 10).blk t).view.emb (ix2 (0 : Fin 1) q) : S1x256.Idx) 1) = q :=
    Fin.ext (by show win9_10.index t (1 : Fin 2) * 256 + 1 * q.val = q.val; rw [e1]; omega)
  refine (pay9_4_at _ _).trans ?_
  unfold meanRow9 Sage.colMean
  rw [hq, (accs9_eq V c q t.val t.isLt).1, h19, acc_full9]
  simp only [rows9, Sage.ofBits_50000]

/-- What the last point writes back to the variance output's array is the variance row. -/
theorem flushed9_11_eq (c : Dev nD) (t : Fin cfg9.N) (hf : (cfg9.win 11).flush t = true) :
    (dat9 (F := Ideal) V c).flushed 11 t = ((cfg9.win 11).blk t).view.read (Elt Ideal) (varRow9 (hOut9 V c)) := by
  have h1 : t.val % 50 = 49 := (flush9_11 t).mp hf
  have h19 : t.val = 49 := last_of_flush9 t h1
  show (cfg9.win 11).cut (grid9.coords t) ((dat9 V c).after 11 t) = _
  rw [after9_11, (outs9_last V c t (by omega) h1).2.2.1]
  obtain ⟨e0, e1⟩ := (idx_facts9 t).2.2.2.2.2.2.2.2.2.2.2
  funext j
  obtain ⟨u, q, rfl⟩ : ∃ (u : Fin 1) (q : Fin 256), j = ix2 u q := ⟨j 0, j 1, eq_ix2 j⟩
  obtain rfl : u = 0 := Subsingleton.elim _ _
  show k9_pay5 (F := Ideal) (outsAt9 V c t.val t.isLt).2.2.2.1 (outsAt9 V c t.val t.isLt).2.2.2.2 (ix2 (0 : Fin 1) q) = varRow9 (hOut9 V c) (((cfg9.win 11).blk t).view.emb (ix2 (0 : Fin 1) q))
  have hq : ((((cfg9.win 11).blk t).view.emb (ix2 (0 : Fin 1) q) : S1x256.Idx) 1) = q :=
    Fin.ext (by show win9_11.index t (1 : Fin 2) * 256 + 1 * q.val = q.val; rw [e1]; omega)
  refine (pay9_5_at _ _ _).trans ?_
  unfold varRow9 Sage.colVarSq Sage.colMean
  rw [hq, (accs9_eq V c q t.val t.isLt).1, (accs9_eq V c q t.val t.isLt).2, h19, acc_full9, accSq_full9]
  simp only [rows9, Sage.ofBits_50000]

/-! ## From the blocks to the arrays -/

/-- An index of the block output's array is in point `t`'s block iff each coordinate is in the block's range on its axis. -/
theorem mem_blk9_9 (t : Fin cfg9.N) (i : S50000x256.Idx) :
    i ∈ ((cfg9.win 9).blk t).view.set ↔ ∀ a : Fin 2, win9_9.index t a * S1000x256.size a ≤ (i a).val ∧ (i a).val < win9_9.index t a * S1000x256.size a + S1000x256.size a := by
  show i ∈ ((View.whole (Pipeline.arrRef spec9 9)).slice (win9_9.rect t)).set ↔ _
  rw [View.set_slice_whole, Rect.mem_set_unit]
  exact Iff.rfl
theorem mem_blk9_10 (t : Fin cfg9.N) (i : S1x256.Idx) :
    i ∈ ((cfg9.win 10).blk t).view.set ↔ ∀ a : Fin 2, win9_10.index t a * S1x256.size a ≤ (i a).val ∧ (i a).val < win9_10.index t a * S1x256.size a + S1x256.size a := by
  show i ∈ ((View.whole (Pipeline.arrRef spec9 10)).slice (win9_10.rect t)).set ↔ _
  rw [View.set_slice_whole, Rect.mem_set_unit]
  exact Iff.rfl
theorem mem_blk9_11 (t : Fin cfg9.N) (i : S1x256.Idx) :
    i ∈ ((cfg9.win 11).blk t).view.set ↔ ∀ a : Fin 2, win9_11.index t a * S1x256.size a ≤ (i a).val ∧ (i a).val < win9_11.index t a * S1x256.size a + S1x256.size a := by
  show i ∈ ((View.whole (Pipeline.arrRef spec9 11)).slice (win9_11.rect t)).set ↔ _
  rw [View.set_slice_whole, Rect.mem_set_unit]
  exact Iff.rfl

/-- Row `r` of the block output's array is in the block of point `r / 1000`, which writes it back. -/
theorem covered9_9 (i : S50000x256.Idx) : ∃ t : Fin cfg9.N, (cfg9.win 9).flush t = true ∧ i ∈ ((cfg9.win 9).blk t).view.set := by
  have hi0 : (i 0).val < 50000 := (i 0).isLt
  have hi1 : (i 1).val < 256 := (i 1).isLt
  have hN : cfg9.N = 50 := N_9
  let t : Fin cfg9.N := ⟨(i 0).val / 1000, by rw [hN]; omega⟩
  obtain ⟨e0, e1⟩ := (idx_facts9 t).2.2.2.2.2.2.2.2.2.1
  have ht : t.val = (i 0).val / 1000 := rfl
  refine ⟨t, flush9_9 t, ?_⟩
  rw [mem_blk9_9]
  intro a
  match a with
  | ⟨0, _⟩ => show win9_9.index t (0 : Fin 2) * 1000 ≤ (i 0).val ∧ (i 0).val < win9_9.index t (0 : Fin 2) * 1000 + 1000; omega
  | ⟨1, _⟩ => show win9_9.index t (1 : Fin 2) * 256 ≤ (i 1).val ∧ (i 1).val < win9_9.index t (1 : Fin 2) * 256 + 256; omega

/-- The last point's block of a statistics output is its whole row. -/
theorem covered9_10 (i : S1x256.Idx) : ∃ t : Fin cfg9.N, (cfg9.win 10).flush t = true ∧ i ∈ ((cfg9.win 10).blk t).view.set := by
  have hi0 : (i 0).val < 1 := (i 0).isLt
  have hi1 : (i 1).val < 256 := (i 1).isLt
  have hN : cfg9.N = 50 := N_9
  let t : Fin cfg9.N := ⟨49, by rw [hN]; omega⟩
  obtain ⟨e0, e1⟩ := (idx_facts9 t).2.2.2.2.2.2.2.2.2.2.1
  refine ⟨t, (flush9_10 t).mpr rfl, ?_⟩
  rw [mem_blk9_10]
  intro a
  match a with
  | ⟨0, _⟩ => show win9_10.index t (0 : Fin 2) * 1 ≤ (i 0).val ∧ (i 0).val < win9_10.index t (0 : Fin 2) * 1 + 1; omega
  | ⟨1, _⟩ => show win9_10.index t (1 : Fin 2) * 256 ≤ (i 1).val ∧ (i 1).val < win9_10.index t (1 : Fin 2) * 256 + 256; omega
theorem covered9_11 (i : S1x256.Idx) : ∃ t : Fin cfg9.N, (cfg9.win 11).flush t = true ∧ i ∈ ((cfg9.win 11).blk t).view.set := by
  have hi0 : (i 0).val < 1 := (i 0).isLt
  have hi1 : (i 1).val < 256 := (i 1).isLt
  have hN : cfg9.N = 50 := N_9
  let t : Fin cfg9.N := ⟨49, by rw [hN]; omega⟩
  obtain ⟨e0, e1⟩ := (idx_facts9 t).2.2.2.2.2.2.2.2.2.2.2
  refine ⟨t, (flush9_11 t).mpr rfl, ?_⟩
  rw [mem_blk9_11]
  intro a
  match a with
  | ⟨0, _⟩ => show win9_11.index t (0 : Fin 2) * 1 ≤ (i 0).val ∧ (i 0).val < win9_11.index t (0 : Fin 2) * 1 + 1; omega
  | ⟨1, _⟩ => show win9_11.index t (1 : Fin 2) * 256 ≤ (i 1).val ∧ (i 1).val < win9_11.index t (1 : Fin 2) * 256 + 256; omega

/-- The block output's array after the region: the combined layer of the arrays as the region finds them. -/
theorem final9_9 (c : Dev nD) : (dat9 (F := Ideal) V c).arrAt 9 cfg9.N = hOut9 V c :=
  (dat9 (F := Ideal) V c).arrAt_eq_of_cover 9 _ (fun t _ => flushed9_9_eq V c t) covered9_9

/-- The mean output's array after the region: the combined layer's column means. -/
theorem final9_10 (c : Dev nD) : (dat9 (F := Ideal) V c).arrAt 10 cfg9.N = meanRow9 (hOut9 V c) :=
  (dat9 (F := Ideal) V c).arrAt_eq_of_cover 10 _ (fun t hf => flushed9_10_eq V c t hf) covered9_10

/-- The variance output's array after the region: the combined layer's column variances. -/
theorem final9_11 (c : Dev nD) : (dat9 (F := Ideal) V c).arrAt 11 cfg9.N = varRow9 (hOut9 V c) :=
  (dat9 (F := Ideal) V c).arrAt_eq_of_cover 11 _ (fun t hf => flushed9_11_eq V c t hf) covered9_11

/-- The same, entry by entry. -/
theorem final9_9_apply (c : Dev nD) (r : Fin 50000) (q : Fin 256) :
    ((dat9 (F := Ideal) V c).arrAt 9 cfg9.N : S50000x256.Idx → EReal) (ix2 r q)
      = Sage.rel (fun k : Fin 256 => agga9 V c (ix2 r k)) (fun k : Fin 256 => xdst9 V c (ix2 r k)) (fun k : Fin 256 => wla9 V c (ix2 k q)) (fun k : Fin 256 => wra9 V c (ix2 k q)) (bia9 V c (ix2 (0 : Fin 1) q))
        + Sage.rel (fun k : Fin 256 => aggb9 V c (ix2 r k)) (fun k : Fin 256 => xdst9 V c (ix2 r k)) (fun k : Fin 256 => wlb9 V c (ix2 k q)) (fun k : Fin 256 => wrb9 V c (ix2 k q)) (bib9 V c (ix2 (0 : Fin 1) q)) :=
  congrFun (final9_9 V c) (ix2 r q)
theorem final9_10_apply (c : Dev nD) (q : Fin 256) :
    ((dat9 (F := Ideal) V c).arrAt 10 cfg9.N : S1x256.Idx → EReal) (ix2 (0 : Fin 1) q)
      = Sage.colMean (((50000 : ℝ) : EReal)) (fun r : Fin 50000 => hOut9 V c (ix2 r q)) :=
  congrFun (final9_10 V c) (ix2 (0 : Fin 1) q)
theorem final9_11_apply (c : Dev nD) (q : Fin 256) :
    ((dat9 (F := Ideal) V c).arrAt 11 cfg9.N : S1x256.Idx → EReal) (ix2 (0 : Fin 1) q)
      = Sage.colVarSq (((50000 : ℝ) : EReal)) (fun r : Fin 50000 => hOut9 V c (ix2 r q)) :=
  congrFun (final9_11 V c) (ix2 (0 : Fin 1) q)

/-! ## The input arrays are kept -/

theorem kept9_0 (c : Dev nD) : (dat9 (F := Ideal) V c).arrAt 0 cfg9.N = V c (Pipeline.arrRef spec9 0) :=
  ((dat9 V c).arrAt_in 0 rfl _).trans (A_eq9 V c 0)
theorem kept9_1 (c : Dev nD) : (dat9 (F := Ideal) V c).arrAt 1 cfg9.N = V c (Pipeline.arrRef spec9 1) :=
  ((dat9 V c).arrAt_in 1 rfl _).trans (A_eq9 V c 1)
theorem kept9_2 (c : Dev nD) : (dat9 (F := Ideal) V c).arrAt 2 cfg9.N = V c (Pipeline.arrRef spec9 2) :=
  ((dat9 V c).arrAt_in 2 rfl _).trans (A_eq9 V c 2)
theorem kept9_3 (c : Dev nD) : (dat9 (F := Ideal) V c).arrAt 3 cfg9.N = V c (Pipeline.arrRef spec9 3) :=
  ((dat9 V c).arrAt_in 3 rfl _).trans (A_eq9 V c 3)
theorem kept9_4 (c : Dev nD) : (dat9 (F := Ideal) V c).arrAt 4 cfg9.N = V c (Pipeline.arrRef spec9 4) :=
  ((dat9 V c).arrAt_in 4 rfl _).trans (A_eq9 V c 4)
theorem kept9_5 (c : Dev nD) : (dat9 (F := Ideal) V c).arrAt 5 cfg9.N = V c (Pipeline.arrRef spec9 5) :=
  ((dat9 V c).arrAt_in 5 rfl _).trans (A_eq9 V c 5)
theorem kept9_6 (c : Dev nD) : (dat9 (F := Ideal) V c).arrAt 6 cfg9.N = V c (Pipeline.arrRef spec9 6) :=
  ((dat9 V c).arrAt_in 6 rfl _).trans (A_eq9 V c 6)
theorem kept9_7 (c : Dev nD) : (dat9 (F := Ideal) V c).arrAt 7 cfg9.N = V c (Pipeline.arrRef spec9 7) :=
  ((dat9 V c).arrAt_in 7 rfl _).trans (A_eq9 V c 7)
theorem kept9_8 (c : Dev nD) : (dat9 (F := Ideal) V c).arrAt 8 cfg9.N = V c (Pipeline.arrRef spec9 8) :=
  ((dat9 V c).arrAt_in 8 rfl _).trans (A_eq9 V c 8)

end Cert.KernelIdeal.Hand

end
-- ==== Proof.CmpL2T1.lean ====
/-
  Layer 2 compared, over layer 1's results: the same statements as layer 1's, each given that the kernel's layer-1
  results it reads are the reference's.
-/
import proofs.«126569_j1468878815453_1_alg».proof.Proof.CmpA2
import proofs.«126569_j1468878815453_1_alg».proof.Proof.KI.ReadL2b
import proofs.«126569_j1468878815453_1_alg».proof.Proof.KI.Val9
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 2, the node type of 50000 rows: the kernel's relation sums are the reference's, and its normalised result the reference's. -/
theorem l2_1 (m : KMem) (ρ : Dev Cert.KernelIdeal.nD → PrngReg) (m' : RMem) (c : Dev Cert.KernelIdeal.nD) (hag : Agree m m' c)
    (hreal : Cert.ReferenceIdeal.Hand.ArgsReal m' c) (hx1 : Cert.KernelIdeal.Hand.kOut1_1 m ρ c = Cert.ReferenceIdeal.Hand.rOut1_protein m' c) (hx0 : Cert.KernelIdeal.Hand.kOut1_0 m ρ c = Cert.ReferenceIdeal.Hand.rOut1_drug m' c) (hx3 : Cert.KernelIdeal.Hand.kOut1_3 m ρ c = Cert.ReferenceIdeal.Hand.rOut1_path m' c) :
    Cert.KernelIdeal.Hand.kH2_1 m ρ c = Cert.ReferenceIdeal.Hand.rH2_protein m' c ∧ Cert.KernelIdeal.Hand.kOut2_1 m ρ c = Cert.ReferenceIdeal.Hand.rOut2_protein m' c := by
  have ea0 := agg2_1 m ρ m' c hag hx0
  have ea1 := agg2_6 m ρ m' c hag hx3
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH2_1 m ρ c = Cert.KernelIdeal.Hand.hArr9 (Cert.KernelIdeal.Hand.kAgg2_1 m ρ c) (Cert.KernelIdeal.Hand.kAgg2_6 m ρ c) (Cert.KernelIdeal.Hand.kOut1_1 m ρ c) (Cert.KernelIdeal.Hand.kWl2_1 m ρ c) (Cert.KernelIdeal.Hand.kWl2_6 m ρ c) (Cert.KernelIdeal.Hand.kWr2_1 m ρ c) (Cert.KernelIdeal.Hand.kWr2_6 m ρ c) (Cert.KernelIdeal.Hand.kB2_1 m ρ c) (Cert.KernelIdeal.Hand.kB2_6 m ρ c) :=
    (Cert.KernelIdeal.Hand.final9_9 (Cert.KernelIdeal.Hand.V19 m ρ) c).trans (Sage.cmp9 Cert.KernelIdeal.Hand.hArr9 (Cert.KernelIdeal.Hand.ent9_0 m ρ c) (Cert.KernelIdeal.Hand.ent9_1 m ρ c) (Cert.KernelIdeal.Hand.ent9_2 m ρ c) (Cert.KernelIdeal.Hand.ent9_3 m ρ c) (Cert.KernelIdeal.Hand.ent9_4 m ρ c) (Cert.KernelIdeal.Hand.ent9_5 m ρ c) (Cert.KernelIdeal.Hand.ent9_6 m ρ c) (Cert.KernelIdeal.Hand.ent9_7 m ρ c) (Cert.KernelIdeal.Hand.ent9_8 m ρ c))
  exact Sage.node2_eq (n := 50000) (k := 256) (m := 256) (R := 7) (i0 := 1) (i1 := 6)
    Cert.ReferenceIdeal.dot_S50000x256_S256x256_S50000x256_1_0_0_1_n_n Cert.ReferenceIdeal.Gen.slices_S7x256x256_S1x256x256_1_0_0 Cert.ReferenceIdeal.Gen.slices_S7x256x256_S1x256x256_6_0_0 Cert.ReferenceIdeal.Gen.shapeCasts_S1x256x256_S256x256
    Cert.ReferenceIdeal.Gen.slices_S7x256_S1x256_1_0 Cert.ReferenceIdeal.Gen.slices_S7x256_S1x256_6_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S50000x256_0_1
    (Ideal.ofBits .f32 0x3727C5AC#32) 50000 Cert.ReferenceIdeal.Hand.refBn50000 rfl (by decide) (by decide)
    (fun H hH g beta r q => Cert.ReferenceIdeal.Hand.refBn50000_eq_sq H hH g beta r q)
    (Cert.KernelIdeal.Hand.kAgg2_1 m ρ c) (Cert.KernelIdeal.Hand.kAgg2_6 m ρ c) (Cert.KernelIdeal.Hand.kOut1_1 m ρ c) (Cert.ReferenceIdeal.Hand.rAgg2_1 m' c) (Cert.ReferenceIdeal.Hand.rAgg2_6 m' c) (Cert.ReferenceIdeal.Hand.rOut1_protein m' c)
    (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.ReferenceIdeal.Hand.inW2l m' c) (Cert.ReferenceIdeal.Hand.inW2r m' c) (m ((c.tc : Thread Cert.KernelIdeal.nD Cert.KernelIdeal.τ).loc Cert.KernelIdeal.main_arg9)) (Cert.ReferenceIdeal.Hand.inB2 m' c)
    (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.ReferenceIdeal.Hand.inG2 m' c) (Cert.ReferenceIdeal.Hand.inBeta2 m' c)
    ea0 ea1 hx1 h7.symm h8.symm h9.symm h12.symm h13.symm
    (Cert.ReferenceIdeal.Hand.rAgg2_1_allReal hreal) (Cert.ReferenceIdeal.Hand.rAgg2_6_allReal hreal) (Cert.ReferenceIdeal.Hand.rOut1_protein_allReal hreal) hreal.w2l hreal.w2r hreal.b2
    (Cert.KernelIdeal.Hand.kH2_1 m ρ c) (Cert.KernelIdeal.Hand.kOut2_1 m ρ c) (Cert.KernelIdeal.Hand.kMean2_1 m ρ c) (Cert.KernelIdeal.Hand.kVar2_1 m ρ c) (Cert.KernelIdeal.Hand.kG2_1 m ρ c) (Cert.KernelIdeal.Hand.kBeta2_1 m ρ c)
    (fun r q => congrFun hHk (ix2 r q))
    (fun q => (Cert.KernelIdeal.Hand.final9_10_apply (Cert.KernelIdeal.Hand.V19 m ρ) c q).trans
      (congrArg (fun H : Cert.ReferenceIdeal.S50000x256.Idx → EReal => Sage.colMean ((50000 : ℝ) : EReal) fun r : Fin 50000 => H (ix2 r q)) (Cert.KernelIdeal.Hand.final9_9 (Cert.KernelIdeal.Hand.V19 m ρ) c).symm))
    (fun q => (Cert.KernelIdeal.Hand.final9_11_apply (Cert.KernelIdeal.Hand.V19 m ρ) c q).trans
      (congrArg (fun H : Cert.ReferenceIdeal.S50000x256.Idx → EReal => Sage.colVarSq ((50000 : ℝ) : EReal) fun r : Fin 50000 => H (ix2 r q)) (Cert.KernelIdeal.Hand.final9_9 (Cert.KernelIdeal.Hand.V19 m ρ) c).symm))
    (fun q => Sage.row_of_vec_apply (m ((c.tc : Thread Cert.KernelIdeal.nD Cert.KernelIdeal.τ).loc Cert.KernelIdeal.main_arg12)) Cert.KernelIdeal.Gen.shapeCasts_S256_S1x256 q)
    (fun q => Sage.row_of_vec_apply (m ((c.tc : Thread Cert.KernelIdeal.nD Cert.KernelIdeal.τ).loc Cert.KernelIdeal.main_arg13)) Cert.KernelIdeal.Gen.shapeCasts_S256_S1x256 q)
    (fun _ _ => rfl)

end Cert.Proof

end
-- ==== Proof.KI.Val10Pay.lean ====
import proofs.«126569_j1468878815453_1_alg».proof.Proof.KI.Reg10Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 10 (the layer-2 combine of a 10000-row node type in 10 row blocks): the payloads at an index

At the ideal instance: the nine input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x256 block with a 256x256 matrix -/

/-- The dot's dimension numbers: rows by the shared axis, the shared axis by columns. -/
noncomputable abbrev D10 : DotDims S1000x256 S256x256 S1000x256 := dot_S1000x256_S256x256_S1000x256_1_0_0_1_n_n

theorem D10_rank : D10.contr.rank = 1 := rfl
theorem D10_size : D10.contr.size ⟨0, by rw [D10_rank]; exact Nat.one_pos⟩ = 256 := rfl

/-- The left operand's index at output `j` and contraction index `k`: row `j 0`, column `k`; -/
theorem lhs_D10_0 (j : S1000x256.Idx) (k : D10.contr.Idx) : ((D10.lhsIdx j k 0 : Fin 1000) : ℕ) = (j 0 : Fin 1000) := rfl
theorem lhs_D10_1 (j : S1000x256.Idx) (k : D10.contr.Idx) : ((D10.lhsIdx j k 1 : Fin 256) : ℕ) = (k ⟨0, by rw [D10_rank]; exact Nat.one_pos⟩).val :=
  DotDims.lhsIdx_val_of_single D10 rfl j k
/-- the right operand's: row `k`, column `j 1`. -/
theorem rhs_D10_0 (j : S1000x256.Idx) (k : D10.contr.Idx) : ((D10.rhsIdx j k 0 : Fin 256) : ℕ) = (k ⟨0, by rw [D10_rank]; exact Nat.one_pos⟩).val :=
  DotDims.rhsIdx_val_of_single D10 rfl j k
theorem rhs_D10_1 (j : S1000x256.Idx) (k : D10.contr.Idx) : ((D10.rhsIdx j k 1 : Fin 256) : ℕ) = (j 1 : Fin 256) := rfl

/-- The product into a zero accumulator, at row `p` and column `q`: the row of the left operand against the column
    of the right one. -/
theorem matmul10_at (L : S1000x256.Idx → EReal) (R : S256x256.Idx → EReal) (p : Fin 1000) (q : Fin 256) :
    matmul (F := Ideal) (φ₁ := .f32) (φ₂ := .f32) D10 none L R (constant S1000x256 .f32 0x00000000#32) (ix2 p q)
      = ∑ k : Fin 256, L (ix2 p k) * R (ix2 k q) := by
  show FloatOps.matmul (F := Ideal) (φ₁ := .f32) (φ₂ := .f32) D10 none L R (constant S1000x256 .f32 0x00000000#32) (ix2 p q) = _
  rw [Ideal.matmul_constant_zero_apply, ← Equiv.sum_comp (contrEquiv1 D10 256 D10_rank D10_size).symm]
  refine Finset.sum_congr rfl fun k _ => ?_
  have hk := contrEquiv1_symm_val D10 256 D10_rank D10_size k
  have eL : D10.lhsIdx (ix2 p q) ((contrEquiv1 D10 256 D10_rank D10_size).symm k) = ix2 p k :=
    Shape.idx_ext₂ (lhs_D10_0 _ _) ((lhs_D10_1 _ _).trans hk)
  have eR : D10.rhsIdx (ix2 p q) ((contrEquiv1 D10 256 D10_rank D10_size).symm k) = ix2 k q :=
    Shape.idx_ext₂ ((rhs_D10_0 _ _).trans hk) (rhs_D10_1 _ _)
  rw [eL, eR]

/-! ## The payloads at an index -/

/-- The block output's payload at row `p`, column `q`: the two relations' contributions to that entry, added. The
    three partial results are: the first relation's whole contribution (the first aggregate's block against the first
    left weights, plus the first bias row, plus the destination's block against the first right weights); the second
    aggregate's block against the second left weights plus the second bias row; the destination's block against the
    second right weights. -/
theorem pay10_blk_at (a0 a1 x : S1000x256.Idx → EReal) (wl0 wl1 wr0 wr1 : S256x256.Idx → EReal) (b0 b1 : S1x256.Idx → EReal)
    (p : Fin 1000) (q : Fin 256) :
    k10_pay1 (F := Ideal) (k10_pay8 (F := Ideal) a0 wl0 b0 x wr0) (k10_pay9 (F := Ideal) a1 wl1 b1) (k10_pay10 (F := Ideal) x wr1) (ix2 p q)
      = Sage.rel (fun k : Fin 256 => a0 (ix2 p k)) (fun k : Fin 256 => x (ix2 p k)) (fun k : Fin 256 => wl0 (ix2 k q)) (fun k : Fin 256 => wr0 (ix2 k q)) (b0 (ix2 (0 : Fin 1) q))
        + Sage.rel (fun k : Fin 256 => a1 (ix2 p k)) (fun k : Fin 256 => x (ix2 p k)) (fun k : Fin 256 => wl1 (ix2 k q)) (fun k : Fin 256 => wr1 (ix2 k q)) (b1 (ix2 (0 : Fin 1) q)) := by
  unfold k10_pay1 k10_pay8 k10_pay9 k10_pay10
  simp only [addf_apply, shapeCast_self, broadcastTo_1b_ab_apply, matmul10_at]
  rfl

/-- A 1000x256 block's column sums, as a row: at column `q` the sum over the block's rows. -/
theorem colsum10_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the column sum of the block (the three partial
    results added). -/
theorem pay10_2_at (u v w : S1000x256.Idx → EReal) (s : S1x256.Idx → EReal) (q : Fin 256) :
    k10_pay2 (F := Ideal) u v w s (ix2 (0 : Fin 1) q) = s (ix2 (0 : Fin 1) q) + ∑ r : Fin 1000, k10_pay1 (F := Ideal) u v w (ix2 r q) := by
  unfold k10_pay2
  simp only [shapeCast_self, addf_apply]
  exact congrArg (s (ix2 (0 : Fin 1) q) + ·) (colsum10_at (k10_pay1 (F := Ideal) u v w) q)

/-- The second accumulator's payload at column `q`: what it held plus the column sum of the block's squares. -/
theorem pay10_3_at (u v w : S1000x256.Idx → EReal) (s : S1x256.Idx → EReal) (q : Fin 256) :
    k10_pay3 (F := Ideal) u v w s (ix2 (0 : Fin 1) q)
      = s (ix2 (0 : Fin 1) q) + ∑ r : Fin 1000, k10_pay1 (F := Ideal) u v w (ix2 r q) * k10_pay1 (F := Ideal) u v w (ix2 r q) := by
  unfold k10_pay3
  simp only [shapeCast_self, addf_apply]
  exact congrArg (s (ix2 (0 : Fin 1) q) + ·) ((colsum10_at (mulf (F := Ideal) (s := S1000x256) (φ := .f32) (k10_pay1 (F := Ideal) u v w) (k10_pay1 (F := Ideal) u v w)) q).trans rfl)

/-- The two resets store zeros. -/
theorem pay10_6_at (i : S1x256.Idx) : k10_pay6 (F := Ideal) i = 0 := by
  unfold k10_pay6
  simp only [shapeCast_self, broadcast_apply]
  exact Ideal.ofBits_zero_f32
theorem pay10_7_at (i : S1x256.Idx) : k10_pay7 (F := Ideal) i = 0 := by
  unfold k10_pay7
  simp only [shapeCast_self, broadcast_apply]
  exact Ideal.ofBits_zero_f32

/-- The row count the statistics divide by, as the body writes it. -/
noncomputable abbrev rows10 : EReal := Ideal.ofBits .f32 0x461C4000#32

/-- The mean output's payload at an index: the first accumulator's entry over the row count. -/
theorem pay10_4_at (s0 : S1x256.Idx → EReal) (i : S1x256.Idx) : k10_pay4 (F := Ideal) s0 i = Ideal.div (s0 i) rows10 := by
  unfold k10_pay4
  simp only [divf_apply, broadcast_apply]
  rfl

/-- The variance output's payload at an index: the second accumulator's entry over the row count, less the squared mean. -/
theorem pay10_5_at (s0 s1 : S1x256.Idx → EReal) (i : S1x256.Idx) :
    k10_pay5 (F := Ideal) s0 s1 i = Ideal.div (s1 i) rows10 - Ideal.div (s0 i) rows10 * Ideal.div (s0 i) rows10 := by
  unfold k10_pay5
  simp only [subf_apply, mulf_apply, divf_apply, broadcast_apply, pay10_4_at]
  rfl

/-! ## The arrays as the region finds them -/

-- the TensorCore's buffer contents when the region is entered
variable (V : (c : Dev nD) → (b : Ref sig .tc) → Buf (Elt Ideal) ((c : Thread nD τ).loc b))

/-- The first relation's aggregated sources, -/
noncomputable abbrev agga10 (c : Dev nD) : S10000x256.Idx → EReal := V c (Pipeline.arrRef spec10 0)
/-- the second relation's, -/
noncomputable abbrev aggb10 (c : Dev nD) : S10000x256.Idx → EReal := V c (Pipeline.arrRef spec10 1)
/-- the destination's own features, -/
noncomputable abbrev xdst10 (c : Dev nD) : S10000x256.Idx → EReal := V c (Pipeline.arrRef spec10 2)
/-- the two relations' left weights, -/
noncomputable abbrev wla10 (c : Dev nD) : S256x256.Idx → EReal := V c (Pipeline.arrRef spec10 3)
noncomputable abbrev wlb10 (c : Dev nD) : S256x256.Idx → EReal := V c (Pipeline.arrRef spec10 4)
/-- their right weights, -/
noncomputable abbrev wra10 (c : Dev nD) : S256x256.Idx → EReal := V c (Pipeline.arrRef spec10 5)
noncomputable abbrev wrb10 (c : Dev nD) : S256x256.Idx → EReal := V c (Pipeline.arrRef spec10 6)
/-- and their bias rows. -/
noncomputable abbrev bia10 (c : Dev nD) : S1x256.Idx → EReal := V c (Pipeline.arrRef spec10 7)
noncomputable abbrev bib10 (c : Dev nD) : S1x256.Idx → EReal := V c (Pipeline.arrRef spec10 8)

/-- The input windows' blocks at a point, by their literal types. -/
noncomputable abbrev blk10_0 (c : Dev nD) (t : Fin cfg10.N) : S1000x256.Idx → EReal := iblk10 V c 0 t
noncomputable abbrev blk10_1 (c : Dev nD) (t : Fin cfg10.N) : S1000x256.Idx → EReal := iblk10 V c 1 t
noncomputable abbrev blk10_2 (c : Dev nD) (t : Fin cfg10.N) : S1000x256.Idx → EReal := iblk10 V c 2 t
noncomputable abbrev blk10_3 (c : Dev nD) (t : Fin cfg10.N) : S256x256.Idx → EReal := iblk10 V c 3 t
noncomputable abbrev blk10_4 (c : Dev nD) (t : Fin cfg10.N) : S256x256.Idx → EReal := iblk10 V c 4 t
noncomputable abbrev blk10_5 (c : Dev nD) (t : Fin cfg10.N) : S256x256.Idx → EReal := iblk10 V c 5 t
noncomputable abbrev blk10_6 (c : Dev nD) (t : Fin cfg10.N) : S256x256.Idx → EReal := iblk10 V c 6 t
noncomputable abbrev blk10_7 (c : Dev nD) (t : Fin cfg10.N) : S1x256.Idx → EReal := iblk10 V c 7 t
noncomputable abbrev blk10_8 (c : Dev nD) (t : Fin cfg10.N) : S1x256.Idx → EReal := iblk10 V c 8 t

/-! ## The blocks' places in their arrays -/

theorem hz10 : (![0, 0] : Fin 2 → Nat) = fun _ => 0 := funext fun a => by fin_cases a <;> rfl

/-- The printed index maps, decided over the grid: the three row-blocked inputs' and the block output's block at point
    `t` is row block `t`; every other window's one block is its whole array. -/
theorem idx_facts10 : ∀ t : Fin cfg10.N,
    (win10_0.index t (0 : Fin 2) = t.val ∧ win10_0.index t (1 : Fin 2) = 0)
    ∧ (win10_1.index t (0 : Fin 2) = t.val ∧ win10_1.index t (1 : Fin 2) = 0)
    ∧ (win10_2.index t (0 : Fin 2) = t.val ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = 0 ∧ win10_5.index t (1 : Fin 2) = 0)
    ∧ (win10_6.index t (0 : Fin 2) = 0 ∧ win10_6.index t (1 : Fin 2) = 0)
    ∧ (win10_7.index t (0 : Fin 2) = 0 ∧ win10_7.index t (1 : Fin 2) = 0)
    ∧ (win10_8.index t (0 : Fin 2) = 0 ∧ win10_8.index t (1 : Fin 2) = 0)
    ∧ (win10_9.index t (0 : Fin 2) = t.val ∧ win10_9.index t (1 : Fin 2) = 0)
    ∧ (win10_10.index t (0 : Fin 2) = 0 ∧ win10_10.index t (1 : Fin 2) = 0)
    ∧ (win10_11.index t (0 : Fin 2) = 0 ∧ win10_11.index t (1 : Fin 2) = 0) :=
  (by decide +kernel : ∀ t : Fin grid10.N, _)

/-- Row `p`, column `k` of the first aggregate's block at point `t` is the array's entry at row `1000 t + p`. -/
theorem blk10_0_at (c : Dev nD) (t : Fin cfg10.N) (p : Fin 1000) (k : Fin 256) (hr : t.val * 1000 + p.val < 10000) :
    blk10_0 V c t (ix2 p k) = agga10 V c (ix2 (⟨t.val * 1000 + p.val, hr⟩ : Fin 10000) k) := by
  obtain ⟨e0, e1⟩ := (idx_facts10 t).1
  show iblk10 V c 0 t (ix2 p k) = _
  unfold iblk10
  rw [View.read_apply]
  show V c (Pipeline.arrRef spec10 0) _ = V c (Pipeline.arrRef spec10 0) _
  congr 1
  funext a
  apply Fin.ext
  match a with
  | ⟨0, _⟩ => show win10_0.index t (0 : Fin 2) * 1000 + 1 * p.val = t.val * 1000 + p.val; rw [e0]; omega
  | ⟨1, _⟩ => show win10_0.index t (1 : Fin 2) * 256 + 1 * k.val = k.val; rw [e1]; omega

/-- Row `p`, column `k` of the second aggregate's block at point `t` is the array's entry at row `1000 t + p`. -/
theorem blk10_1_at (c : Dev nD) (t : Fin cfg10.N) (p : Fin 1000) (k : Fin 256) (hr : t.val * 1000 + p.val < 10000) :
    blk10_1 V c t (ix2 p k) = aggb10 V c (ix2 (⟨t.val * 1000 + p.val, hr⟩ : Fin 10000) k) := by
  obtain ⟨e0, e1⟩ := (idx_facts10 t).2.1
  show iblk10 V c 1 t (ix2 p k) = _
  unfold iblk10
  rw [View.read_apply]
  show V c (Pipeline.arrRef spec10 1) _ = V c (Pipeline.arrRef spec10 1) _
  congr 1
  funext a
  apply Fin.ext
  match a with
  | ⟨0, _⟩ => show win10_1.index t (0 : Fin 2) * 1000 + 1 * p.val = t.val * 1000 + p.val; rw [e0]; omega
  | ⟨1, _⟩ => show win10_1.index t (1 : Fin 2) * 256 + 1 * k.val = k.val; rw [e1]; omega

/-- Row `p`, column `k` of the destination's block at point `t` is the array's entry at row `1000 t + p`. -/
theorem blk10_2_at (c : Dev nD) (t : Fin cfg10.N) (p : Fin 1000) (k : Fin 256) (hr : t.val * 1000 + p.val < 10000) :
    blk10_2 V c t (ix2 p k) = xdst10 V c (ix2 (⟨t.val * 1000 + p.val, hr⟩ : Fin 10000) k) := by
  obtain ⟨e0, e1⟩ := (idx_facts10 t).2.2.1
  show iblk10 V c 2 t (ix2 p k) = _
  unfold iblk10
  rw [View.read_apply]
  show V c (Pipeline.arrRef spec10 2) _ = V c (Pipeline.arrRef spec10 2) _
  congr 1
  funext a
  apply Fin.ext
  match a with
  | ⟨0, _⟩ => show win10_2.index t (0 : Fin 2) * 1000 + 1 * p.val = t.val * 1000 + p.val; rw [e0]; omega
  | ⟨1, _⟩ => show win10_2.index t (1 : Fin 2) * 256 + 1 * k.val = k.val; rw [e1]; omega

/-- Window 3's one block, at any point, is its whole array. -/
theorem blk10_3_eq (c : Dev nD) (t : Fin cfg10.N) : blk10_3 V c t = wla10 V c := by
  obtain ⟨e0, e1⟩ := (idx_facts10 t).2.2.2.1
  funext j
  obtain ⟨k, q, rfl⟩ : ∃ (k : Fin 256) (q : Fin 256), j = ix2 k q := ⟨j 0, j 1, eq_ix2 j⟩
  show iblk10 V c 3 t (ix2 k q) = _
  unfold iblk10
  rw [View.read_apply]
  show V c (Pipeline.arrRef spec10 3) _ = V c (Pipeline.arrRef spec10 3) _
  congr 1
  funext a
  apply Fin.ext
  match a with
  | ⟨0, _⟩ => show win10_3.index t (0 : Fin 2) * 256 + 1 * k.val = k.val; rw [e0]; omega
  | ⟨1, _⟩ => show win10_3.index t (1 : Fin 2) * 256 + 1 * q.val = q.val; rw [e1]; omega

/-- Window 4's one block, at any point, is its whole array. -/
theorem blk10_4_eq (c : Dev nD) (t : Fin cfg10.N) : blk10_4 V c t = wlb10 V c := by
  obtain ⟨e0, e1⟩ := (idx_facts10 t).2.2.2.2.1
  funext j
  obtain ⟨k, q, rfl⟩ : ∃ (k : Fin 256) (q : Fin 256), j = ix2 k q := ⟨j 0, j 1, eq_ix2 j⟩
  show iblk10 V c 4 t (ix2 k q) = _
  unfold iblk10
  rw [View.read_apply]
  show V c (Pipeline.arrRef spec10 4) _ = V c (Pipeline.arrRef spec10 4) _
  congr 1
  funext a
  apply Fin.ext
  match a with
  | ⟨0, _⟩ => show win10_4.index t (0 : Fin 2) * 256 + 1 * k.val = k.val; rw [e0]; omega
  | ⟨1, _⟩ => show win10_4.index t (1 : Fin 2) * 256 + 1 * q.val = q.val; rw [e1]; omega

/-- Window 5's one block, at any point, is its whole array. -/
theorem blk10_5_eq (c : Dev nD) (t : Fin cfg10.N) : blk10_5 V c t = wra10 V c := by
  obtain ⟨e0, e1⟩ := (idx_facts10 t).2.2.2.2.2.1
  funext j
  obtain ⟨k, q, rfl⟩ : ∃ (k : Fin 256) (q : Fin 256), j = ix2 k q := ⟨j 0, j 1, eq_ix2 j⟩
  show iblk10 V c 5 t (ix2 k q) = _
  unfold iblk10
  rw [View.read_apply]
  show V c (Pipeline.arrRef spec10 5) _ = V c (Pipeline.arrRef spec10 5) _
  congr 1
  funext a
  apply Fin.ext
  match a with
  | ⟨0, _⟩ => show win10_5.index t (0 : Fin 2) * 256 + 1 * k.val = k.val; rw [e0]; omega
  | ⟨1, _⟩ => show win10_5.index t (1 : Fin 2) * 256 + 1 * q.val = q.val; rw [e1]; omega

/-- Window 6's one block, at any point, is its whole array. -/
theorem blk10_6_eq (c : Dev nD) (t : Fin cfg10.N) : blk10_6 V c t = wrb10 V c := by
  obtain ⟨e0, e1⟩ := (idx_facts10 t).2.2.2.2.2.2.1
  funext j
  obtain ⟨k, q, rfl⟩ : ∃ (k : Fin 256) (q : Fin 256), j = ix2 k q := ⟨j 0, j 1, eq_ix2 j⟩
  show iblk10 V c 6 t (ix2 k q) = _
  unfold iblk10
  rw [View.read_apply]
  show V c (Pipeline.arrRef spec10 6) _ = V c (Pipeline.arrRef spec10 6) _
  congr 1
  funext a
  apply Fin.ext
  match a with
  | ⟨0, _⟩ => show win10_6.index t (0 : Fin 2) * 256 + 1 * k.val = k.val; rw [e0]; omega
  | ⟨1, _⟩ => show win10_6.index t (1 : Fin 2) * 256 + 1 * q.val = q.val; rw [e1]; omega

/-- Window 7's one block, at any point, is its whole row. -/
theorem blk10_7_eq (c : Dev nD) (t : Fin cfg10.N) : blk10_7 V c t = bia10 V c := by
  obtain ⟨e0, e1⟩ := (idx_facts10 t).2.2.2.2.2.2.2.1
  funext j
  obtain ⟨u, q, rfl⟩ : ∃ (u : Fin 1) (q : Fin 256), j = ix2 u q := ⟨j 0, j 1, eq_ix2 j⟩
  show iblk10 V c 7 t (ix2 u q) = _
  unfold iblk10
  rw [View.read_apply]
  show V c (Pipeline.arrRef spec10 7) _ = V c (Pipeline.arrRef spec10 7) _
  congr 1
  funext a
  apply Fin.ext
  match a with
  | ⟨0, _⟩ => show win10_7.index t (0 : Fin 2) * 1 + 1 * u.val = u.val; rw [e0]; omega
  | ⟨1, _⟩ => show win10_7.index t (1 : Fin 2) * 256 + 1 * q.val = q.val; rw [e1]; omega

/-- Window 8's one block, at any point, is its whole row. -/
theorem blk10_8_eq (c : Dev nD) (t : Fin cfg10.N) : blk10_8 V c t = bib10 V c := by
  obtain ⟨e0, e1⟩ := (idx_facts10 t).2.2.2.2.2.2.2.2.1
  funext j
  obtain ⟨u, q, rfl⟩ : ∃ (u : Fin 1) (q : Fin 256), j = ix2 u q := ⟨j 0, j 1, eq_ix2 j⟩
  show iblk10 V c 8 t (ix2 u q) = _
  unfold iblk10
  rw [View.read_apply]
  show V c (Pipeline.arrRef spec10 8) _ = V c (Pipeline.arrRef spec10 8) _
  congr 1
  funext a
  apply Fin.ext
  match a with
  | ⟨0, _⟩ => show win10_8.index t (0 : Fin 2) * 1 + 1 * u.val = u.val; rw [e0]; omega
  | ⟨1, _⟩ => show win10_8.index t (1 : Fin 2) * 256 + 1 * q.val = q.val; rw [e1]; omega

end Cert.KernelIdeal.Hand

end
-- ==== Proof.KI.Val10.lean ====
import proofs.«126569_j1468878815453_1_alg».proof.Proof.KI.Reg10
import proofs.«126569_j1468878815453_1_alg».proof.Proof.KI.Val10Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 10 (the layer-2 combine of a 10000-row node type in 10 row blocks), the value

What each control case's stores leave, as the body's payloads of the input blocks and of what the accumulators held;
the accumulators after a point as running column sums; at the ideal instance, the three output arrays after the
region as functions of the nine input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

theorem hzP10 : (![0, 0] : Fin 2 → Nat) = fun _ => 0 := funext fun a => by fin_cases a <;> rfl

theorem out10_A_9_eq (c : Dev nD) (t : Fin cfg10.N) (hc0 : cond10_0 (grid10.coords t)) (hc1 : ¬cond10_1 (grid10.coords t)) (x0 x1 x2 : Vec F S1000x256 .f32) (x3 x4 x5 x6 : Vec F S256x256 .f32) (x7 x8 : Vec F S1x256 .f32)  :
    out10_A_9 c t hc0 hc1 x0 x1 x2 x3 x4 x5 x6 x7 x8  = k10_pay1 (k10_pay8 x0 x3 x7 x2 x5) (k10_pay9 x1 x4 x8) (k10_pay10 x2 x6) := by
  unfold out10_A_9
  rw [View.read_writes_eq_canon _ _ _ (cover10_A_9 c t hc0 hc1 x0 x1 x2 x3 x4 x5 x6 x7 x8 )]
  unfold runAt10_A kernelRun10_A
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]

theorem sout10_A_0_eq (c : Dev nD) (t : Fin cfg10.N) (hc0 : cond10_0 (grid10.coords t)) (hc1 : ¬cond10_1 (grid10.coords t)) (x0 x1 x2 : Vec F S1000x256 .f32) (x3 x4 x5 x6 : Vec F S256x256 .f32) (x7 x8 : Vec F S1x256 .f32)  :
    sout10_A_0 c t hc0 hc1 x0 x1 x2 x3 x4 x5 x6 x7 x8  = k10_pay2 (k10_pay8 x0 x3 x7 x2 x5) (k10_pay9 x1 x4 x8) (k10_pay10 x2 x6) (k10_pay6 (F := F)) := by
  unfold sout10_A_0
  rw [View.read_writes_eq_canon _ _ _ (scover10_A_0 c t hc0 hc1 x0 x1 x2 x3 x4 x5 x6 x7 x8 )]
  unfold runAt10_A kernelRun10_A
  dsimp only
  try sl_unfold_words
  rw [View.canon_cons_unit_zero (S := S1x256) hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]

theorem sout10_A_1_eq (c : Dev nD) (t : Fin cfg10.N) (hc0 : cond10_0 (grid10.coords t)) (hc1 : ¬cond10_1 (grid10.coords t)) (x0 x1 x2 : Vec F S1000x256 .f32) (x3 x4 x5 x6 : Vec F S256x256 .f32) (x7 x8 : Vec F S1x256 .f32)  :
    sout10_A_1 c t hc0 hc1 x0 x1 x2 x3 x4 x5 x6 x7 x8  = k10_pay3 (k10_pay8 x0 x3 x7 x2 x5) (k10_pay9 x1 x4 x8) (k10_pay10 x2 x6) (k10_pay7 (F := F)) := by
  unfold sout10_A_1
  rw [View.read_writes_eq_canon _ _ _ (scover10_A_1 c t hc0 hc1 x0 x1 x2 x3 x4 x5 x6 x7 x8 )]
  unfold runAt10_A kernelRun10_A
  dsimp only
  try sl_unfold_words
  rw [View.canon_cons_unit_zero (S := S1x256) hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]

theorem out10_B_9_eq (c : Dev nD) (t : Fin cfg10.N) (hc0 : ¬cond10_0 (grid10.coords t)) (hc1 : ¬cond10_1 (grid10.coords t)) (x0 x1 x2 : Vec F S1000x256 .f32) (x3 x4 x5 x6 : Vec F S256x256 .f32) (x7 x8 : Vec F S1x256 .f32) (xs0 xs1 : Vec F S1x256 .f32) :
    out10_B_9 c t hc0 hc1 x0 x1 x2 x3 x4 x5 x6 x7 x8 xs0 xs1 = k10_pay1 (k10_pay8 x0 x3 x7 x2 x5) (k10_pay9 x1 x4 x8) (k10_pay10 x2 x6) := by
  unfold out10_B_9
  rw [View.read_writes_eq_canon _ _ _ (cover10_B_9 c t hc0 hc1 x0 x1 x2 x3 x4 x5 x6 x7 x8 xs0 xs1)]
  unfold runAt10_B kernelRun10_B
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]

theorem sout10_B_0_eq (c : Dev nD) (t : Fin cfg10.N) (hc0 : ¬cond10_0 (grid10.coords t)) (hc1 : ¬cond10_1 (grid10.coords t)) (x0 x1 x2 : Vec F S1000x256 .f32) (x3 x4 x5 x6 : Vec F S256x256 .f32) (x7 x8 : Vec F S1x256 .f32) (xs0 xs1 : Vec F S1x256 .f32) :
    sout10_B_0 c t hc0 hc1 x0 x1 x2 x3 x4 x5 x6 x7 x8 xs0 xs1 = k10_pay2 (k10_pay8 x0 x3 x7 x2 x5) (k10_pay9 x1 x4 x8) (k10_pay10 x2 x6) xs0 := by
  unfold sout10_B_0
  rw [View.read_writes_eq_canon _ _ _ (scover10_B_0 c t hc0 hc1 x0 x1 x2 x3 x4 x5 x6 x7 x8 xs0 xs1)]
  unfold runAt10_B kernelRun10_B
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]
  simp only [show View.read (Elt F) (View.whole cc10_scratch0) ((Memref.isWhole_whole cc10_scratch0).unread xs0) = xs0 from (Memref.isWhole_whole cc10_scratch0).read_unread xs0]

theorem sout10_B_1_eq (c : Dev nD) (t : Fin cfg10.N) (hc0 : ¬cond10_0 (grid10.coords t)) (hc1 : ¬cond10_1 (grid10.coords t)) (x0 x1 x2 : Vec F S1000x256 .f32) (x3 x4 x5 x6 : Vec F S256x256 .f32) (x7 x8 : Vec F S1x256 .f32) (xs0 xs1 : Vec F S1x256 .f32) :
    sout10_B_1 c t hc0 hc1 x0 x1 x2 x3 x4 x5 x6 x7 x8 xs0 xs1 = k10_pay3 (k10_pay8 x0 x3 x7 x2 x5) (k10_pay9 x1 x4 x8) (k10_pay10 x2 x6) xs1 := by
  unfold sout10_B_1
  rw [View.read_writes_eq_canon _ _ _ (scover10_B_1 c t hc0 hc1 x0 x1 x2 x3 x4 x5 x6 x7 x8 xs0 xs1)]
  unfold runAt10_B kernelRun10_B
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]
  simp only [show View.read (Elt F) (View.whole cc10_scratch1) ((Memref.isWhole_whole cc10_scratch1).unread xs1) = xs1 from (Memref.isWhole_whole cc10_scratch1).read_unread xs1]

theorem out10_C_9_eq (c : Dev nD) (t : Fin cfg10.N) (hc0 : ¬cond10_0 (grid10.coords t)) (hc1 : cond10_1 (grid10.coords t)) (x0 x1 x2 : Vec F S1000x256 .f32) (x3 x4 x5 x6 : Vec F S256x256 .f32) (x7 x8 : Vec F S1x256 .f32) (xs0 xs1 : Vec F S1x256 .f32) :
    out10_C_9 c t hc0 hc1 x0 x1 x2 x3 x4 x5 x6 x7 x8 xs0 xs1 = k10_pay1 (k10_pay8 x0 x3 x7 x2 x5) (k10_pay9 x1 x4 x8) (k10_pay10 x2 x6) := by
  unfold out10_C_9
  rw [View.read_writes_eq_canon _ _ _ (cover10_C_9 c t hc0 hc1 x0 x1 x2 x3 x4 x5 x6 x7 x8 xs0 xs1)]
  unfold runAt10_C kernelRun10_C
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]

theorem out10_C_10_eq (c : Dev nD) (t : Fin cfg10.N) (hc0 : ¬cond10_0 (grid10.coords t)) (hc1 : cond10_1 (grid10.coords t)) (x0 x1 x2 : Vec F S1000x256 .f32) (x3 x4 x5 x6 : Vec F S256x256 .f32) (x7 x8 : Vec F S1x256 .f32) (xs0 xs1 : Vec F S1x256 .f32) :
    out10_C_10 c t hc0 hc1 x0 x1 x2 x3 x4 x5 x6 x7 x8 xs0 xs1 = k10_pay4 (k10_pay2 (k10_pay8 x0 x3 x7 x2 x5) (k10_pay9 x1 x4 x8) (k10_pay10 x2 x6) xs0) := by
  unfold out10_C_10
  rw [View.read_writes_eq_canon _ _ _ (cover10_C_10 c t hc0 hc1 x0 x1 x2 x3 x4 x5 x6 x7 x8 xs0 xs1)]
  unfold runAt10_C kernelRun10_C
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]
  simp only [show View.read (Elt F) (View.whole cc10_scratch0) ((Memref.isWhole_whole cc10_scratch0).unread xs0) = xs0 from (Memref.isWhole_whole cc10_scratch0).read_unread xs0]

theorem out10_C_11_eq (c : Dev nD) (t : Fin cfg10.N) (hc0 : ¬cond10_0 (grid10.coords t)) (hc1 : cond10_1 (grid10.coords t)) (x0 x1 x2 : Vec F S1000x256 .f32) (x3 x4 x5 x6 : Vec F S256x256 .f32) (x7 x8 : Vec F S1x256 .f32) (xs0 xs1 : Vec F S1x256 .f32) :
    out10_C_11 c t hc0 hc1 x0 x1 x2 x3 x4 x5 x6 x7 x8 xs0 xs1 = k10_pay5 (k10_pay2 (k10_pay8 x0 x3 x7 x2 x5) (k10_pay9 x1 x4 x8) (k10_pay10 x2 x6) xs0) (k10_pay3 (k10_pay8 x0 x3 x7 x2 x5) (k10_pay9 x1 x4 x8) (k10_pay10 x2 x6) xs1) := by
  unfold out10_C_11
  rw [View.read_writes_eq_canon _ _ _ (cover10_C_11 c t hc0 hc1 x0 x1 x2 x3 x4 x5 x6 x7 x8 xs0 xs1)]
  unfold runAt10_C kernelRun10_C
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]
  simp only [show View.read (Elt F) (View.whole cc10_scratch0) ((Memref.isWhole_whole cc10_scratch0).unread xs0) = xs0 from (Memref.isWhole_whole cc10_scratch0).read_unread xs0]
  simp only [show View.read (Elt F) (View.whole cc10_scratch1) ((Memref.isWhole_whole cc10_scratch1).unread xs1) = xs1 from (Memref.isWhole_whole cc10_scratch1).read_unread xs1]

theorem sout10_C_0_eq (c : Dev nD) (t : Fin cfg10.N) (hc0 : ¬cond10_0 (grid10.coords t)) (hc1 : cond10_1 (grid10.coords t)) (x0 x1 x2 : Vec F S1000x256 .f32) (x3 x4 x5 x6 : Vec F S256x256 .f32) (x7 x8 : Vec F S1x256 .f32) (xs0 xs1 : Vec F S1x256 .f32) :
    sout10_C_0 c t hc0 hc1 x0 x1 x2 x3 x4 x5 x6 x7 x8 xs0 xs1 = k10_pay2 (k10_pay8 x0 x3 x7 x2 x5) (k10_pay9 x1 x4 x8) (k10_pay10 x2 x6) xs0 := by
  unfold sout10_C_0
  rw [View.read_writes_eq_canon _ _ _ (scover10_C_0 c t hc0 hc1 x0 x1 x2 x3 x4 x5 x6 x7 x8 xs0 xs1)]
  unfold runAt10_C kernelRun10_C
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]
  simp only [show View.read (Elt F) (View.whole cc10_scratch0) ((Memref.isWhole_whole cc10_scratch0).unread xs0) = xs0 from (Memref.isWhole_whole cc10_scratch0).read_unread xs0]

theorem sout10_C_1_eq (c : Dev nD) (t : Fin cfg10.N) (hc0 : ¬cond10_0 (grid10.coords t)) (hc1 : cond10_1 (grid10.coords t)) (x0 x1 x2 : Vec F S1000x256 .f32) (x3 x4 x5 x6 : Vec F S256x256 .f32) (x7 x8 : Vec F S1x256 .f32) (xs0 xs1 : Vec F S1x256 .f32) :
    sout10_C_1 c t hc0 hc1 x0 x1 x2 x3 x4 x5 x6 x7 x8 xs0 xs1 = k10_pay3 (k10_pay8 x0 x3 x7 x2 x5) (k10_pay9 x1 x4 x8) (k10_pay10 x2 x6) xs1 := by
  unfold sout10_C_1
  rw [View.read_writes_eq_canon _ _ _ (scover10_C_1 c t hc0 hc1 x0 x1 x2 x3 x4 x5 x6 x7 x8 xs0 xs1)]
  unfold runAt10_C kernelRun10_C
  dsimp only
  try sl_unfold_words
  rw [View.canon_unit_zero hzP10]
  simp only [View.readAt_eq_ld, Memref.IsWhole.read_unread, View.ld_unit_zero (S := S1000x256) hzP10, View.ld_unit_zero (S := S256x256) hzP10, View.ld_unit_zero (S := S1x256) hzP10, View.readCov_unit_zero (S := S1x256) _ hzP10]
  simp only [show View.read (Elt F) (View.whole cc10_scratch1) ((Memref.isWhole_whole cc10_scratch1).unread xs1) = xs1 from (Memref.isWhole_whole cc10_scratch1).read_unread xs1]

end Pieces

/-! ## The result, index by index -/

-- the TensorCore's buffer contents when the region is entered
variable (V : (c : Dev nD) → (b : Ref sig .tc) → Buf (Elt Ideal) ((c : Thread nD τ).loc b))

/-- Every entry of the combined layer: the two relations' contributions to a destination row and an output column, added. -/
noncomputable def hArr10 (a0 a1 x : S10000x256.Idx → EReal) (wl0 wl1 wr0 wr1 : S256x256.Idx → EReal) (b0 b1 : S1x256.Idx → EReal) :
    S10000x256.Idx → EReal :=
  fun i => Sage.rel (fun k : Fin 256 => a0 (ix2 (i 0) k)) (fun k : Fin 256 => x (ix2 (i 0) k)) (fun k : Fin 256 => wl0 (ix2 k (i 1))) (fun k : Fin 256 => wr0 (ix2 k (i 1))) (b0 (ix2 (0 : Fin 1) (i 1)))
    + Sage.rel (fun k : Fin 256 => a1 (ix2 (i 0) k)) (fun k : Fin 256 => x (ix2 (i 0) k)) (fun k : Fin 256 => wl1 (ix2 k (i 1))) (fun k : Fin 256 => wr1 (ix2 k (i 1))) (b1 (ix2 (0 : Fin 1) (i 1)))

/-- The combined layer of the arrays as the region finds them. -/
noncomputable abbrev hOut10 (c : Dev nD) : S10000x256.Idx → EReal :=
  hArr10 (agga10 V c) (aggb10 V c) (xdst10 V c) (wla10 V c) (wlb10 V c) (wra10 V c) (wrb10 V c) (bia10 V c) (bib10 V c)

/-- The body's three partial results at point `t`, from the input windows' blocks there, and the block they add up to. -/
noncomputable abbrev hpa10 (c : Dev nD) (t : Fin cfg10.N) : S1000x256.Idx → EReal :=
  k10_pay8 (F := Ideal) (blk10_0 V c t) (blk10_3 V c t) (blk10_7 V c t) (blk10_2 V c t) (blk10_5 V c t)
noncomputable abbrev hpb10 (c : Dev nD) (t : Fin cfg10.N) : S1000x256.Idx → EReal :=
  k10_pay9 (F := Ideal) (blk10_1 V c t) (blk10_4 V c t) (blk10_8 V c t)
noncomputable abbrev hpc10 (c : Dev nD) (t : Fin cfg10.N) : S1000x256.Idx → EReal :=
  k10_pay10 (F := Ideal) (blk10_2 V c t) (blk10_6 V c t)
noncomputable abbrev hblk10 (c : Dev nD) (t : Fin cfg10.N) : S1000x256.Idx → EReal :=
  k10_pay1 (F := Ideal) (hpa10 V c t) (hpb10 V c t) (hpc10 V c t)

/-- Row `p`, column `q` of that block is the combined layer's entry at row `1000 t + p`. -/
theorem hblk10_at (c : Dev nD) (t : Fin cfg10.N) (p : Fin 1000) (q : Fin 256) (hr : t.val * 1000 + p.val < 10000) :
    hblk10 V c t (ix2 p q) = hOut10 V c (ix2 (⟨t.val * 1000 + p.val, hr⟩ : Fin 10000) q) := by
  refine (pay10_blk_at (blk10_0 V c t) (blk10_1 V c t) (blk10_2 V c t) (blk10_3 V c t) (blk10_4 V c t) (blk10_5 V c t) (blk10_6 V c t) (blk10_7 V c t) (blk10_8 V c t) p q).trans ?_
  simp only [blk10_0_at V c t p _ hr, blk10_1_at V c t p _ hr, blk10_2_at V c t p _ hr, blk10_3_eq V c t, blk10_4_eq V c t, blk10_5_eq V c t, blk10_6_eq V c t, blk10_7_eq V c t, blk10_8_eq V c t]
  rfl

/-! ## What the outputs and the accumulators hold after a point -/

theorem N10_lt (t : Fin cfg10.N) : t.val < 10 := lt_of_lt_of_eq t.isLt (show cfg10.N = 10 from N_10)

/-- After the first point: the block, and the accumulators at zero plus the block's column sums. -/
theorem outs10_first (c : Dev nD) (t : Fin cfg10.N) (h0 : t.val = 0) :
    (outsAt10 V c t.val t.isLt).1 = hblk10 V c t
    ∧ (outsAt10 V c t.val t.isLt).2.2.2.1 = k10_pay2 (F := Ideal) (hpa10 V c t) (hpb10 V c t) (hpc10 V c t) (k10_pay6 (F := Ideal))
    ∧ (outsAt10 V c t.val t.isLt).2.2.2.2 = k10_pay3 (F := Ideal) (hpa10 V c t) (hpb10 V c t) (hpc10 V c t) (k10_pay7 (F := Ideal)) := by
  have hN := N10_lt t
  have hc0 : cond10_0 (grid10.coords t) := (hcond10_0 t).mpr (by rw [h0])
  have hc1 : ¬cond10_1 (grid10.coords t) := fun h => by have h' := (hcond10_1 t).mp h; omega
  rw [outsAt10_A V c t h0 hc0 hc1]
  dsimp only
  exact ⟨out10_A_9_eq (F := Ideal) c t hc0 hc1 (blk10_0 V c t) (blk10_1 V c t) (blk10_2 V c t) (blk10_3 V c t) (blk10_4 V c t) (blk10_5 V c t) (blk10_6 V c t) (blk10_7 V c t) (blk10_8 V c t),
    sout10_A_0_eq (F := Ideal) c t hc0 hc1 (blk10_0 V c t) (blk10_1 V c t) (blk10_2 V c t) (blk10_3 V c t) (blk10_4 V c t) (blk10_5 V c t) (blk10_6 V c t) (blk10_7 V c t) (blk10_8 V c t),
    sout10_A_1_eq (F := Ideal) c t hc0 hc1 (blk10_0 V c t) (blk10_1 V c t) (blk10_2 V c t) (blk10_3 V c t) (blk10_4 V c t) (blk10_5 V c t) (blk10_6 V c t) (blk10_7 V c t) (blk10_8 V c t)⟩

/-- After a middle point: the block, and each accumulator at what the point before left plus the block's column sums. -/
theorem outs10_mid (c : Dev nD) (t : Fin cfg10.N) (h0 : t.val ≠ 0) (h1 : ¬t.val % 10 = 9) :
    (outsAt10 V c t.val t.isLt).1 = hblk10 V c t
    ∧ (outsAt10 V c t.val t.isLt).2.2.2.1 = k10_pay2 (F := Ideal) (hpa10 V c t) (hpb10 V c t) (hpc10 V c t) (outsAt10 V c (t.val - 1) (Nat.lt_of_le_of_lt (Nat.sub_le _ _) t.isLt)).2.2.2.1
    ∧ (outsAt10 V c t.val t.isLt).2.2.2.2 = k10_pay3 (F := Ideal) (hpa10 V c t) (hpb10 V c t) (hpc10 V c t) (outsAt10 V c (t.val - 1) (Nat.lt_of_le_of_lt (Nat.sub_le _ _) t.isLt)).2.2.2.2 := by
  have hc0 : ¬cond10_0 (grid10.coords t) := later10_c0 t h0
  have hc1 : ¬cond10_1 (grid10.coords t) := fun h => h1 ((hcond10_1 t).mp h)
  rw [outsAt10_B V c t h0 h1 hc0 hc1]
  dsimp only
  exact ⟨out10_B_9_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2,
    sout10_B_0_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2,
    sout10_B_1_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2⟩

/-- After the last point: the block, the accumulators as at a middle point, and the two statistics rows from them. -/
theorem outs10_last (c : Dev nD) (t : Fin cfg10.N) (h0 : t.val ≠ 0) (h1 : t.val % 10 = 9) :
    (outsAt10 V c t.val t.isLt).1 = hblk10 V c t
    ∧ (outsAt10 V c t.val t.isLt).2.1 = k10_pay4 (F := Ideal) (outsAt10 V c t.val t.isLt).2.2.2.1
    ∧ (outsAt10 V c t.val t.isLt).2.2.1 = k10_pay5 (F := Ideal) (outsAt10 V c t.val t.isLt).2.2.2.1 (outsAt10 V c t.val t.isLt).2.2.2.2
    ∧ (outsAt10 V c t.val t.isLt).2.2.2.1 = k10_pay2 (F := Ideal) (hpa10 V c t) (hpb10 V c t) (hpc10 V c t) (outsAt10 V c (t.val - 1) (Nat.lt_of_le_of_lt (Nat.sub_le _ _) t.isLt)).2.2.2.1
    ∧ (outsAt10 V c t.val t.isLt).2.2.2.2 = k10_pay3 (F := Ideal) (hpa10 V c t) (hpb10 V c t) (hpc10 V c t) (outsAt10 V c (t.val - 1) (Nat.lt_of_le_of_lt (Nat.sub_le _ _) t.isLt)).2.2.2.2 := by
  have hc0 : ¬cond10_0 (grid10.coords t) := later10_c0 t h0
  have hc1 : cond10_1 (grid10.coords t) := (hcond10_1 t).mpr h1
  rw [outsAt10_C V c t h0 h1 hc0 hc1]
  dsimp only
  rw [sout10_C_0_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2,
    sout10_C_1_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2]
  exact ⟨out10_C_9_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2,
    out10_C_10_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2,
    out10_C_11_eq (F := Ideal) c t hc0 hc1 (blk10_0 V c t) (blk10_1 V c t) (blk10_2 V c t) (blk10_3 V c t) (blk10_4 V c t) (blk10_5 V c t) (blk10_6 V c t) (blk10_7 V c t) (blk10_8 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.2, rfl, rfl⟩

/-- The block output's staging buffer after any point holds the block computed there. -/
theorem outs10_blk (c : Dev nD) (t : Fin cfg10.N) : (outsAt10 V c t.val t.isLt).1 = hblk10 V c t := by
  by_cases h0 : t.val = 0
  · exact (outs10_first V c t h0).1
  · by_cases h1 : t.val % 10 = 9
    · exact (outs10_last V c t h0 h1).1
    · exact (outs10_mid V c t h0 h1).1

/-! ## The accumulators are the running column sums -/

/-- Column `q` of the combined layer, its rows numbered by natural numbers (zero past the last row), -/
noncomputable def colN10 (c : Dev nD) (q : Fin 256) : ℕ → EReal :=
  fun i => if h : i < 10000 then hOut10 V c (ix2 (⟨i, h⟩ : Fin 10000) q) else 0
/-- and the column of its squares. -/
noncomputable def colSq10 (c : Dev nD) (q : Fin 256) : ℕ → EReal :=
  fun i => if h : i < 10000 then hOut10 V c (ix2 (⟨i, h⟩ : Fin 10000) q) * hOut10 V c (ix2 (⟨i, h⟩ : Fin 10000) q) else 0

/-- The column sum of the block at point `t` is tile `t`'s sum. -/
theorem tile10 (c : Dev nD) (t : Fin cfg10.N) (q : Fin 256) :
    ∑ r : Fin 1000, hblk10 V c t (ix2 r q) = Sage.tileSum 1000 (colN10 V c q) t.val := by
  have hN := N10_lt t
  unfold Sage.tileSum
  rw [Finset.sum_range]
  refine Finset.sum_congr rfl fun r _ => ?_
  have hr : t.val * 1000 + r.val < 10000 := by have := r.isLt; omega
  rw [hblk10_at V c t r q hr]
  unfold colN10
  rw [dif_pos hr]
theorem tileSq10 (c : Dev nD) (t : Fin cfg10.N) (q : Fin 256) :
    ∑ r : Fin 1000, hblk10 V c t (ix2 r q) * hblk10 V c t (ix2 r q) = Sage.tileSum 1000 (colSq10 V c q) t.val := by
  have hN := N10_lt t
  unfold Sage.tileSum
  rw [Finset.sum_range]
  refine Finset.sum_congr rfl fun r _ => ?_
  have hr : t.val * 1000 + r.val < 10000 := by have := r.isLt; omega
  rw [hblk10_at V c t r q hr]
  unfold colSq10
  rw [dif_pos hr]

/-- After point `n` the two accumulators hold, at column `q`, the sums over the first `n + 1` tiles of the column and
    of its squares. -/
theorem accs10_eq (c : Dev nD) (q : Fin 256) : ∀ (n : ℕ) (hn : n < cfg10.N),
    (outsAt10 V c n hn).2.2.2.1 (ix2 (0 : Fin 1) q) = Sage.acc 1000 (colN10 V c q) (n + 1)
    ∧ (outsAt10 V c n hn).2.2.2.2 (ix2 (0 : Fin 1) q) = Sage.acc 1000 (colSq10 V c q) (n + 1)
  | 0, hn => by
    obtain ⟨-, e1, e2⟩ := outs10_first V c ⟨0, hn⟩ rfl
    have e1' : (outsAt10 V c 0 hn).2.2.2.1 = _ := e1
    have e2' : (outsAt10 V c 0 hn).2.2.2.2 = _ := e2
    rw [e1', e2']
    constructor
    · refine (pay10_2_at _ _ _ _ q).trans ?_
      rw [pay10_6_at, Sage.acc_succ, Sage.acc_zero, tile10 V c ⟨0, hn⟩ q]
    · refine (pay10_3_at _ _ _ _ q).trans ?_
      rw [pay10_7_at, Sage.acc_succ, Sage.acc_zero, tileSq10 V c ⟨0, hn⟩ q]
  | n + 1, hn => by
    obtain ⟨ih1, ih2⟩ := accs10_eq c q n (Nat.lt_of_succ_lt hn)
    have hs : (outsAt10 V c (n + 1) hn).2.2.2.1 = k10_pay2 (F := Ideal) (hpa10 V c ⟨n + 1, hn⟩) (hpb10 V c ⟨n + 1, hn⟩) (hpc10 V c ⟨n + 1, hn⟩) (outsAt10 V c n (Nat.lt_of_succ_lt hn)).2.2.2.1
        ∧ (outsAt10 V c (n + 1) hn).2.2.2.2 = k10_pay3 (F := Ideal) (hpa10 V c ⟨n + 1, hn⟩) (hpb10 V c ⟨n + 1, hn⟩) (hpc10 V c ⟨n + 1, hn⟩) (outsAt10 V c n (Nat.lt_of_succ_lt hn)).2.2.2.2 := by
      by_cases h1 : (n + 1) % 10 = 9
      · exact ⟨(outs10_last V c ⟨n + 1, hn⟩ (Nat.succ_ne_zero n) h1).2.2.2.1, (outs10_last V c ⟨n + 1, hn⟩ (Nat.succ_ne_zero n) h1).2.2.2.2⟩
      · exact ⟨(outs10_mid V c ⟨n + 1, hn⟩ (Nat.succ_ne_zero n) h1).2.1, (outs10_mid V c ⟨n + 1, hn⟩ (Nat.succ_ne_zero n) h1).2.2⟩
    rw [hs.1, hs.2]
    constructor
    · refine (pay10_2_at _ _ _ _ q).trans ?_
      rw [ih1, Sage.acc_succ _ _ (n + 1), tile10 V c ⟨n + 1, hn⟩ q]
    · refine (pay10_3_at _ _ _ _ q).trans ?_
      rw [ih2, Sage.acc_succ _ _ (n + 1), tileSq10 V c ⟨n + 1, hn⟩ q]

/-- All twenty tiles: the column's sum over all rows. -/
theorem acc_full10 (c : Dev nD) (q : Fin 256) :
    Sage.acc 1000 (colN10 V c q) 10 = ∑ r : Fin 10000, hOut10 V c (ix2 r q) := by
  rw [Sage.acc_eq_sum, show (10 * 1000 : ℕ) = 10000 from rfl, Finset.sum_range]
  refine Finset.sum_congr rfl fun r _ => ?_
  unfold colN10
  rw [dif_pos r.isLt]
theorem accSq_full10 (c : Dev nD) (q : Fin 256) :
    Sage.acc 1000 (colSq10 V c q) 10 = ∑ r : Fin 10000, hOut10 V c (ix2 r q) * hOut10 V c (ix2 r q) := by
  rw [Sage.acc_eq_sum, show (10 * 1000 : ℕ) = 10000 from rfl, Finset.sum_range]
  refine Finset.sum_congr rfl fun r _ => ?_
  unfold colSq10
  rw [dif_pos r.isLt]

/-! ## What a point writes back -/

/-- What point `t` writes back to the block output's array is block `t` of the combined layer. -/
theorem flushed10_9_eq (c : Dev nD) (t : Fin cfg10.N) :
    (dat10 (F := Ideal) V c).flushed 9 t = ((cfg10.win 9).blk t).view.read (Elt Ideal) (hOut10 V c) := by
  show (cfg10.win 9).cut (grid10.coords t) ((dat10 V c).after 9 t) = _
  rw [after10_9, outs10_blk V c t]
  have hN := N10_lt t
  obtain ⟨e0, e1⟩ := (idx_facts10 t).2.2.2.2.2.2.2.2.2.1
  funext j
  obtain ⟨p, q, rfl⟩ : ∃ (p : Fin 1000) (q : Fin 256), j = ix2 p q := ⟨j 0, j 1, eq_ix2 j⟩
  show hblk10 V c t (ix2 p q) = hOut10 V c (((cfg10.win 9).blk t).view.emb (ix2 p q))
  have hr : t.val * 1000 + p.val < 10000 := by have := p.isLt; omega
  rw [hblk10_at V c t p q hr]
  refine congrArg (hOut10 V c) (Shape.idx_ext₂ ?_ ?_)
  · show t.val * 1000 + p.val = win10_9.index t (0 : Fin 2) * 1000 + 1 * p.val; rw [e0]; omega
  · show q.val = win10_9.index t (1 : Fin 2) * 256 + 1 * q.val; rw [e1]; omega

/-- The mean row: each column's mean over the 10000 rows of the combined layer, -/
noncomputable def meanRow10 (h : S10000x256.Idx → EReal) : S1x256.Idx → EReal :=
  fun i => Sage.colMean (((10000 : ℝ) : EReal)) (fun r : Fin 10000 => h (ix2 r (i 1)))
/-- and the variance row: each column's mean of squares less its squared mean. -/
noncomputable def varRow10 (h : S10000x256.Idx → EReal) : S1x256.Idx → EReal :=
  fun i => Sage.colVarSq (((10000 : ℝ) : EReal)) (fun r : Fin 10000 => h (ix2 r (i 1)))

/-- A point that writes a statistics row back is the last one. -/
theorem last_of_flush10 (t : Fin cfg10.N) (h : t.val % 10 = 9) : t.val = 9 := by have := N10_lt t; omega

/-- What the last point writes back to the mean output's array is the mean row. -/
theorem flushed10_10_eq (c : Dev nD) (t : Fin cfg10.N) (hf : (cfg10.win 10).flush t = true) :
    (dat10 (F := Ideal) V c).flushed 10 t = ((cfg10.win 10).blk t).view.read (Elt Ideal) (meanRow10 (hOut10 V c)) := by
  have h1 : t.val % 10 = 9 := (flush10_10 t).mp hf
  have h19 : t.val = 9 := last_of_flush10 t h1
  show (cfg10.win 10).cut (grid10.coords t) ((dat10 V c).after 10 t) = _
  rw [after10_10, (outs10_last V c t (by omega) h1).2.1]
  obtain ⟨e0, e1⟩ := (idx_facts10 t).2.2.2.2.2.2.2.2.2.2.1
  funext j
  obtain ⟨u, q, rfl⟩ : ∃ (u : Fin 1) (q : Fin 256), j = ix2 u q := ⟨j 0, j 1, eq_ix2 j⟩
  obtain rfl : u = 0 := Subsingleton.elim _ _
  show k10_pay4 (F := Ideal) (outsAt10 V c t.val t.isLt).2.2.2.1 (ix2 (0 : Fin 1) q) = meanRow10 (hOut10 V c) (((cfg10.win 10).blk t).view.emb (ix2 (0 : Fin 1) q))
  have hq : ((((cfg10.win 10).blk t).view.emb (ix2 (0 : Fin 1) q) : S1x256.Idx) 1) = q :=
    Fin.ext (by show win10_10.index t (1 : Fin 2) * 256 + 1 * q.val = q.val; rw [e1]; omega)
  refine (pay10_4_at _ _).trans ?_
  unfold meanRow10 Sage.colMean
  rw [hq, (accs10_eq V c q t.val t.isLt).1, h19, acc_full10]
  simp only [rows10, Sage.ofBits_10000]

/-- What the last point writes back to the variance output's array is the variance row. -/
theorem flushed10_11_eq (c : Dev nD) (t : Fin cfg10.N) (hf : (cfg10.win 11).flush t = true) :
    (dat10 (F := Ideal) V c).flushed 11 t = ((cfg10.win 11).blk t).view.read (Elt Ideal) (varRow10 (hOut10 V c)) := by
  have h1 : t.val % 10 = 9 := (flush10_11 t).mp hf
  have h19 : t.val = 9 := last_of_flush10 t h1
  show (cfg10.win 11).cut (grid10.coords t) ((dat10 V c).after 11 t) = _
  rw [after10_11, (outs10_last V c t (by omega) h1).2.2.1]
  obtain ⟨e0, e1⟩ := (idx_facts10 t).2.2.2.2.2.2.2.2.2.2.2
  funext j
  obtain ⟨u, q, rfl⟩ : ∃ (u : Fin 1) (q : Fin 256), j = ix2 u q := ⟨j 0, j 1, eq_ix2 j⟩
  obtain rfl : u = 0 := Subsingleton.elim _ _
  show k10_pay5 (F := Ideal) (outsAt10 V c t.val t.isLt).2.2.2.1 (outsAt10 V c t.val t.isLt).2.2.2.2 (ix2 (0 : Fin 1) q) = varRow10 (hOut10 V c) (((cfg10.win 11).blk t).view.emb (ix2 (0 : Fin 1) q))
  have hq : ((((cfg10.win 11).blk t).view.emb (ix2 (0 : Fin 1) q) : S1x256.Idx) 1) = q :=
    Fin.ext (by show win10_11.index t (1 : Fin 2) * 256 + 1 * q.val = q.val; rw [e1]; omega)
  refine (pay10_5_at _ _ _).trans ?_
  unfold varRow10 Sage.colVarSq Sage.colMean
  rw [hq, (accs10_eq V c q t.val t.isLt).1, (accs10_eq V c q t.val t.isLt).2, h19, acc_full10, accSq_full10]
  simp only [rows10, Sage.ofBits_10000]

/-! ## From the blocks to the arrays -/

/-- An index of the block output's array is in point `t`'s block iff each coordinate is in the block's range on its axis. -/
theorem mem_blk10_9 (t : Fin cfg10.N) (i : S10000x256.Idx) :
    i ∈ ((cfg10.win 9).blk t).view.set ↔ ∀ a : Fin 2, win10_9.index t a * S1000x256.size a ≤ (i a).val ∧ (i a).val < win10_9.index t a * S1000x256.size a + S1000x256.size a := by
  show i ∈ ((View.whole (Pipeline.arrRef spec10 9)).slice (win10_9.rect t)).set ↔ _
  rw [View.set_slice_whole, Rect.mem_set_unit]
  exact Iff.rfl
theorem mem_blk10_10 (t : Fin cfg10.N) (i : S1x256.Idx) :
    i ∈ ((cfg10.win 10).blk t).view.set ↔ ∀ a : Fin 2, win10_10.index t a * S1x256.size a ≤ (i a).val ∧ (i a).val < win10_10.index t a * S1x256.size a + S1x256.size a := by
  show i ∈ ((View.whole (Pipeline.arrRef spec10 10)).slice (win10_10.rect t)).set ↔ _
  rw [View.set_slice_whole, Rect.mem_set_unit]
  exact Iff.rfl
theorem mem_blk10_11 (t : Fin cfg10.N) (i : S1x256.Idx) :
    i ∈ ((cfg10.win 11).blk t).view.set ↔ ∀ a : Fin 2, win10_11.index t a * S1x256.size a ≤ (i a).val ∧ (i a).val < win10_11.index t a * S1x256.size a + S1x256.size a := by
  show i ∈ ((View.whole (Pipeline.arrRef spec10 11)).slice (win10_11.rect t)).set ↔ _
  rw [View.set_slice_whole, Rect.mem_set_unit]
  exact Iff.rfl

/-- Row `r` of the block output's array is in the block of point `r / 1000`, which writes it back. -/
theorem covered10_9 (i : S10000x256.Idx) : ∃ t : Fin cfg10.N, (cfg10.win 9).flush t = true ∧ i ∈ ((cfg10.win 9).blk t).view.set := by
  have hi0 : (i 0).val < 10000 := (i 0).isLt
  have hi1 : (i 1).val < 256 := (i 1).isLt
  have hN : cfg10.N = 10 := N_10
  let t : Fin cfg10.N := ⟨(i 0).val / 1000, by rw [hN]; omega⟩
  obtain ⟨e0, e1⟩ := (idx_facts10 t).2.2.2.2.2.2.2.2.2.1
  have ht : t.val = (i 0).val / 1000 := rfl
  refine ⟨t, flush10_9 t, ?_⟩
  rw [mem_blk10_9]
  intro a
  match a with
  | ⟨0, _⟩ => show win10_9.index t (0 : Fin 2) * 1000 ≤ (i 0).val ∧ (i 0).val < win10_9.index t (0 : Fin 2) * 1000 + 1000; omega
  | ⟨1, _⟩ => show win10_9.index t (1 : Fin 2) * 256 ≤ (i 1).val ∧ (i 1).val < win10_9.index t (1 : Fin 2) * 256 + 256; omega

/-- The last point's block of a statistics output is its whole row. -/
theorem covered10_10 (i : S1x256.Idx) : ∃ t : Fin cfg10.N, (cfg10.win 10).flush t = true ∧ i ∈ ((cfg10.win 10).blk t).view.set := by
  have hi0 : (i 0).val < 1 := (i 0).isLt
  have hi1 : (i 1).val < 256 := (i 1).isLt
  have hN : cfg10.N = 10 := N_10
  let t : Fin cfg10.N := ⟨9, by rw [hN]; omega⟩
  obtain ⟨e0, e1⟩ := (idx_facts10 t).2.2.2.2.2.2.2.2.2.2.1
  refine ⟨t, (flush10_10 t).mpr rfl, ?_⟩
  rw [mem_blk10_10]
  intro a
  match a with
  | ⟨0, _⟩ => show win10_10.index t (0 : Fin 2) * 1 ≤ (i 0).val ∧ (i 0).val < win10_10.index t (0 : Fin 2) * 1 + 1; omega
  | ⟨1, _⟩ => show win10_10.index t (1 : Fin 2) * 256 ≤ (i 1).val ∧ (i 1).val < win10_10.index t (1 : Fin 2) * 256 + 256; omega
theorem covered10_11 (i : S1x256.Idx) : ∃ t : Fin cfg10.N, (cfg10.win 11).flush t = true ∧ i ∈ ((cfg10.win 11).blk t).view.set := by
  have hi0 : (i 0).val < 1 := (i 0).isLt
  have hi1 : (i 1).val < 256 := (i 1).isLt
  have hN : cfg10.N = 10 := N_10
  let t : Fin cfg10.N := ⟨9, by rw [hN]; omega⟩
  obtain ⟨e0, e1⟩ := (idx_facts10 t).2.2.2.2.2.2.2.2.2.2.2
  refine ⟨t, (flush10_11 t).mpr rfl, ?_⟩
  rw [mem_blk10_11]
  intro a
  match a with
  | ⟨0, _⟩ => show win10_11.index t (0 : Fin 2) * 1 ≤ (i 0).val ∧ (i 0).val < win10_11.index t (0 : Fin 2) * 1 + 1; omega
  | ⟨1, _⟩ => show win10_11.index t (1 : Fin 2) * 256 ≤ (i 1).val ∧ (i 1).val < win10_11.index t (1 : Fin 2) * 256 + 256; omega

/-- The block output's array after the region: the combined layer of the arrays as the region finds them. -/
theorem final10_9 (c : Dev nD) : (dat10 (F := Ideal) V c).arrAt 9 cfg10.N = hOut10 V c :=
  (dat10 (F := Ideal) V c).arrAt_eq_of_cover 9 _ (fun t _ => flushed10_9_eq V c t) covered10_9

/-- The mean output's array after the region: the combined layer's column means. -/
theorem final10_10 (c : Dev nD) : (dat10 (F := Ideal) V c).arrAt 10 cfg10.N = meanRow10 (hOut10 V c) :=
  (dat10 (F := Ideal) V c).arrAt_eq_of_cover 10 _ (fun t hf => flushed10_10_eq V c t hf) covered10_10

/-- The variance output's array after the region: the combined layer's column variances. -/
theorem final10_11 (c : Dev nD) : (dat10 (F := Ideal) V c).arrAt 11 cfg10.N = varRow10 (hOut10 V c) :=
  (dat10 (F := Ideal) V c).arrAt_eq_of_cover 11 _ (fun t hf => flushed10_11_eq V c t hf) covered10_11

/-- The same, entry by entry. -/
theorem final10_9_apply (c : Dev nD) (r : Fin 10000) (q : Fin 256) :
    ((dat10 (F := Ideal) V c).arrAt 9 cfg10.N : S10000x256.Idx → EReal) (ix2 r q)
      = Sage.rel (fun k : Fin 256 => agga10 V c (ix2 r k)) (fun k : Fin 256 => xdst10 V c (ix2 r k)) (fun k : Fin 256 => wla10 V c (ix2 k q)) (fun k : Fin 256 => wra10 V c (ix2 k q)) (bia10 V c (ix2 (0 : Fin 1) q))
        + Sage.rel (fun k : Fin 256 => aggb10 V c (ix2 r k)) (fun k : Fin 256 => xdst10 V c (ix2 r k)) (fun k : Fin 256 => wlb10 V c (ix2 k q)) (fun k : Fin 256 => wrb10 V c (ix2 k q)) (bib10 V c (ix2 (0 : Fin 1) q)) :=
  congrFun (final10_9 V c) (ix2 r q)
theorem final10_10_apply (c : Dev nD) (q : Fin 256) :
    ((dat10 (F := Ideal) V c).arrAt 10 cfg10.N : S1x256.Idx → EReal) (ix2 (0 : Fin 1) q)
      = Sage.colMean (((10000 : ℝ) : EReal)) (fun r : Fin 10000 => hOut10 V c (ix2 r q)) :=
  congrFun (final10_10 V c) (ix2 (0 : Fin 1) q)
theorem final10_11_apply (c : Dev nD) (q : Fin 256) :
    ((dat10 (F := Ideal) V c).arrAt 11 cfg10.N : S1x256.Idx → EReal) (ix2 (0 : Fin 1) q)
      = Sage.colVarSq (((10000 : ℝ) : EReal)) (fun r : Fin 10000 => hOut10 V c (ix2 r q)) :=
  congrFun (final10_11 V c) (ix2 (0 : Fin 1) q)

/-! ## The input arrays are kept -/

theorem kept10_0 (c : Dev nD) : (dat10 (F := Ideal) V c).arrAt 0 cfg10.N = V c (Pipeline.arrRef spec10 0) :=
  ((dat10 V c).arrAt_in 0 rfl _).trans (A_eq10 V c 0)
theorem kept10_1 (c : Dev nD) : (dat10 (F := Ideal) V c).arrAt 1 cfg10.N = V c (Pipeline.arrRef spec10 1) :=
  ((dat10 V c).arrAt_in 1 rfl _).trans (A_eq10 V c 1)
theorem kept10_2 (c : Dev nD) : (dat10 (F := Ideal) V c).arrAt 2 cfg10.N = V c (Pipeline.arrRef spec10 2) :=
  ((dat10 V c).arrAt_in 2 rfl _).trans (A_eq10 V c 2)
theorem kept10_3 (c : Dev nD) : (dat10 (F := Ideal) V c).arrAt 3 cfg10.N = V c (Pipeline.arrRef spec10 3) :=
  ((dat10 V c).arrAt_in 3 rfl _).trans (A_eq10 V c 3)
theorem kept10_4 (c : Dev nD) : (dat10 (F := Ideal) V c).arrAt 4 cfg10.N = V c (Pipeline.arrRef spec10 4) :=
  ((dat10 V c).arrAt_in 4 rfl _).trans (A_eq10 V c 4)
theorem kept10_5 (c : Dev nD) : (dat10 (F := Ideal) V c).arrAt 5 cfg10.N = V c (Pipeline.arrRef spec10 5) :=
  ((dat10 V c).arrAt_in 5 rfl _).trans (A_eq10 V c 5)
theorem kept10_6 (c : Dev nD) : (dat10 (F := Ideal) V c).arrAt 6 cfg10.N = V c (Pipeline.arrRef spec10 6) :=
  ((dat10 V c).arrAt_in 6 rfl _).trans (A_eq10 V c 6)
theorem kept10_7 (c : Dev nD) : (dat10 (F := Ideal) V c).arrAt 7 cfg10.N = V c (Pipeline.arrRef spec10 7) :=
  ((dat10 V c).arrAt_in 7 rfl _).trans (A_eq10 V c 7)
theorem kept10_8 (c : Dev nD) : (dat10 (F := Ideal) V c).arrAt 8 cfg10.N = V c (Pipeline.arrRef spec10 8) :=
  ((dat10 V c).arrAt_in 8 rfl _).trans (A_eq10 V c 8)

end Cert.KernelIdeal.Hand

end
-- ==== Proof.CmpL2T2.lean ====
/-
  Layer 2 compared, over layer 1's results: the same statements as layer 1's, each given that the kernel's layer-1
  results it reads are the reference's.
-/
import proofs.«126569_j1468878815453_1_alg».proof.Proof.CmpA2
import proofs.«126569_j1468878815453_1_alg».proof.Proof.KI.ReadL2b
import proofs.«126569_j1468878815453_1_alg».proof.Proof.KI.Val10
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 2, the node type of 10000 rows: the kernel's relation sums are the reference's, and its normalised result the reference's. -/
theorem l2_2 (m : KMem) (ρ : Dev Cert.KernelIdeal.nD → PrngReg) (m' : RMem) (c : Dev Cert.KernelIdeal.nD) (hag : Agree m m' c)
    (hreal : Cert.ReferenceIdeal.Hand.ArgsReal m' c) (hx2 : Cert.KernelIdeal.Hand.kOut1_2 m ρ c = Cert.ReferenceIdeal.Hand.rOut1_side m' c) (hx0 : Cert.KernelIdeal.Hand.kOut1_0 m ρ c = Cert.ReferenceIdeal.Hand.rOut1_drug m' c) (hx1 : Cert.KernelIdeal.Hand.kOut1_1 m ρ c = Cert.ReferenceIdeal.Hand.rOut1_protein m' c) :
    Cert.KernelIdeal.Hand.kH2_2 m ρ c = Cert.ReferenceIdeal.Hand.rH2_side m' c ∧ Cert.KernelIdeal.Hand.kOut2_2 m ρ c = Cert.ReferenceIdeal.Hand.rOut2_side m' c := by
  have ea0 := agg2_0 m ρ m' c hag hx0
  have ea1 := agg2_3 m ρ m' c hag hx1
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH2_2 m ρ c = Cert.KernelIdeal.Hand.hArr10 (Cert.KernelIdeal.Hand.kAgg2_0 m ρ c) (Cert.KernelIdeal.Hand.kAgg2_3 m ρ c) (Cert.KernelIdeal.Hand.kOut1_2 m ρ c) (Cert.KernelIdeal.Hand.kWl2_0 m ρ c) (Cert.KernelIdeal.Hand.kWl2_3 m ρ c) (Cert.KernelIdeal.Hand.kWr2_0 m ρ c) (Cert.KernelIdeal.Hand.kWr2_3 m ρ c) (Cert.KernelIdeal.Hand.kB2_0 m ρ c) (Cert.KernelIdeal.Hand.kB2_3 m ρ c) :=
    (Cert.KernelIdeal.Hand.final10_9 (Cert.KernelIdeal.Hand.V21 m ρ) c).trans (Sage.cmp9 Cert.KernelIdeal.Hand.hArr10 (Cert.KernelIdeal.Hand.ent10_0 m ρ c) (Cert.KernelIdeal.Hand.ent10_1 m ρ c) (Cert.KernelIdeal.Hand.ent10_2 m ρ c) (Cert.KernelIdeal.Hand.ent10_3 m ρ c) (Cert.KernelIdeal.Hand.ent10_4 m ρ c) (Cert.KernelIdeal.Hand.ent10_5 m ρ c) (Cert.KernelIdeal.Hand.ent10_6 m ρ c) (Cert.KernelIdeal.Hand.ent10_7 m ρ c) (Cert.KernelIdeal.Hand.ent10_8 m ρ c))
  exact Sage.node2_eq (n := 10000) (k := 256) (m := 256) (R := 7) (i0 := 0) (i1 := 3)
    Cert.ReferenceIdeal.dot_S10000x256_S256x256_S10000x256_1_0_0_1_n_n Cert.ReferenceIdeal.Gen.slices_S7x256x256_S1x256x256_0_0_0 Cert.ReferenceIdeal.Gen.slices_S7x256x256_S1x256x256_3_0_0 Cert.ReferenceIdeal.Gen.shapeCasts_S1x256x256_S256x256
    Cert.ReferenceIdeal.Gen.slices_S7x256_S1x256_0_0 Cert.ReferenceIdeal.Gen.slices_S7x256_S1x256_3_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S10000x256_0_1
    (Ideal.ofBits .f32 0x3727C5AC#32) 10000 Cert.ReferenceIdeal.Hand.refBn10000 rfl (by decide) (by decide)
    (fun H hH g beta r q => Cert.ReferenceIdeal.Hand.refBn10000_eq_sq H hH g beta r q)
    (Cert.KernelIdeal.Hand.kAgg2_0 m ρ c) (Cert.KernelIdeal.Hand.kAgg2_3 m ρ c) (Cert.KernelIdeal.Hand.kOut1_2 m ρ c) (Cert.ReferenceIdeal.Hand.rAgg2_0 m' c) (Cert.ReferenceIdeal.Hand.rAgg2_3 m' c) (Cert.ReferenceIdeal.Hand.rOut1_side m' c)
    (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.ReferenceIdeal.Hand.inW2l m' c) (Cert.ReferenceIdeal.Hand.inW2r m' c) (m ((c.tc : Thread Cert.KernelIdeal.nD Cert.KernelIdeal.τ).loc Cert.KernelIdeal.main_arg9)) (Cert.ReferenceIdeal.Hand.inB2 m' c)
    (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.ReferenceIdeal.Hand.inG2 m' c) (Cert.ReferenceIdeal.Hand.inBeta2 m' c)
    ea0 ea1 hx2 h7.symm h8.symm h9.symm h12.symm h13.symm
    (Cert.ReferenceIdeal.Hand.rAgg2_0_allReal hreal) (Cert.ReferenceIdeal.Hand.rAgg2_3_allReal hreal) (Cert.ReferenceIdeal.Hand.rOut1_side_allReal hreal) hreal.w2l hreal.w2r hreal.b2
    (Cert.KernelIdeal.Hand.kH2_2 m ρ c) (Cert.KernelIdeal.Hand.kOut2_2 m ρ c) (Cert.KernelIdeal.Hand.kMean2_2 m ρ c) (Cert.KernelIdeal.Hand.kVar2_2 m ρ c) (Cert.KernelIdeal.Hand.kG2_2 m ρ c) (Cert.KernelIdeal.Hand.kBeta2_2 m ρ c)
    (fun r q => congrFun hHk (ix2 r q))
    (fun q => (Cert.KernelIdeal.Hand.final10_10_apply (Cert.KernelIdeal.Hand.V21 m ρ) c q).trans
      (congrArg (fun H : Cert.ReferenceIdeal.S10000x256.Idx → EReal => Sage.colMean ((10000 : ℝ) : EReal) fun r : Fin 10000 => H (ix2 r q)) (Cert.KernelIdeal.Hand.final10_9 (Cert.KernelIdeal.Hand.V21 m ρ) c).symm))
    (fun q => (Cert.KernelIdeal.Hand.final10_11_apply (Cert.KernelIdeal.Hand.V21 m ρ) c q).trans
      (congrArg (fun H : Cert.ReferenceIdeal.S10000x256.Idx → EReal => Sage.colVarSq ((10000 : ℝ) : EReal) fun r : Fin 10000 => H (ix2 r q)) (Cert.KernelIdeal.Hand.final10_9 (Cert.KernelIdeal.Hand.V21 m ρ) c).symm))
    (fun q => Sage.row_of_vec_apply (m ((c.tc : Thread Cert.KernelIdeal.nD Cert.KernelIdeal.τ).loc Cert.KernelIdeal.main_arg12)) Cert.KernelIdeal.Gen.shapeCasts_S256_S1x256 q)
    (fun q => Sage.row_of_vec_apply (m ((c.tc : Thread Cert.KernelIdeal.nD Cert.KernelIdeal.τ).loc Cert.KernelIdeal.main_arg13)) Cert.KernelIdeal.Gen.shapeCasts_S256_S1x256 q)
    (fun _ _ => rfl)

end Cert.Proof

end
-- ==== Proof.KI.Val11Pay.lean ====
import proofs.«126569_j1468878815453_1_alg».proof.Proof.KI.Reg11Runs
import proofs.«126569_j1468878815453_1_alg».proof.Proof.Sage.Spec
import Idealize.ShloMosaic.Lib.ValueIdx
import Idealize.ShloMosaic.Lib.Pipeline.Value
import Idealize.ShloMosaic.Lib.ValueLayout
import Idealize.ShloMosaic.PureOps.Ideal.Laws

/-! # Custom call 11 (the one-relation combine of a 3000-row node type in 3 row blocks): the payloads at an index

At the ideal instance: the five input arrays as the region finds them, named by their literal types; each of the
body's payloads read at an index of its block; the windows' blocks' places in their arrays. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The contraction of a 1000x256 block with a 256x256 matrix -/

/-- The dot's dimension numbers: rows by the shared axis, the shared axis by columns. -/
noncomputable abbrev D11 : DotDims S1000x256 S256x256 S1000x256 := dot_S1000x256_S256x256_S1000x256_1_0_0_1_n_n

theorem D11_rank : D11.contr.rank = 1 := rfl
theorem D11_size : D11.contr.size ⟨0, by rw [D11_rank]; exact Nat.one_pos⟩ = 256 := rfl

/-- The left operand's index at output `j` and contraction index `k`: row `j 0`, column `k`; -/
theorem lhs_D11_0 (j : S1000x256.Idx) (k : D11.contr.Idx) : ((D11.lhsIdx j k 0 : Fin 1000) : ℕ) = (j 0 : Fin 1000) := rfl
theorem lhs_D11_1 (j : S1000x256.Idx) (k : D11.contr.Idx) : ((D11.lhsIdx j k 1 : Fin 256) : ℕ) = (k ⟨0, by rw [D11_rank]; exact Nat.one_pos⟩).val :=
  DotDims.lhsIdx_val_of_single D11 rfl j k
/-- the right operand's: row `k`, column `j 1`. -/
theorem rhs_D11_0 (j : S1000x256.Idx) (k : D11.contr.Idx) : ((D11.rhsIdx j k 0 : Fin 256) : ℕ) = (k ⟨0, by rw [D11_rank]; exact Nat.one_pos⟩).val :=
  DotDims.rhsIdx_val_of_single D11 rfl j k
theorem rhs_D11_1 (j : S1000x256.Idx) (k : D11.contr.Idx) : ((D11.rhsIdx j k 1 : Fin 256) : ℕ) = (j 1 : Fin 256) := rfl

/-- The product into a zero accumulator, at row `p` and column `q`: the row of the left operand against the column
    of the right one. -/
theorem matmul11_at (L : S1000x256.Idx → EReal) (R : S256x256.Idx → EReal) (p : Fin 1000) (q : Fin 256) :
    matmul (F := Ideal) (φ₁ := .f32) (φ₂ := .f32) D11 none L R (constant S1000x256 .f32 0x00000000#32) (ix2 p q)
      = ∑ k : Fin 256, L (ix2 p k) * R (ix2 k q) := by
  show FloatOps.matmul (F := Ideal) (φ₁ := .f32) (φ₂ := .f32) D11 none L R (constant S1000x256 .f32 0x00000000#32) (ix2 p q) = _
  rw [Ideal.matmul_constant_zero_apply, ← Equiv.sum_comp (contrEquiv1 D11 256 D11_rank D11_size).symm]
  refine Finset.sum_congr rfl fun k _ => ?_
  have hk := contrEquiv1_symm_val D11 256 D11_rank D11_size k
  have eL : D11.lhsIdx (ix2 p q) ((contrEquiv1 D11 256 D11_rank D11_size).symm k) = ix2 p k :=
    Shape.idx_ext₂ (lhs_D11_0 _ _) ((lhs_D11_1 _ _).trans hk)
  have eR : D11.rhsIdx (ix2 p q) ((contrEquiv1 D11 256 D11_rank D11_size).symm k) = ix2 k q :=
    Shape.idx_ext₂ ((rhs_D11_0 _ _).trans hk) (rhs_D11_1 _ _)
  rw [eL, eR]

/-! ## The payloads at an index -/

/-- The block output's payload at row `p`, column `q`: the relation's contribution to that entry. The operands are the
    aggregate's block, the left weights, the bias row, the node's own block, the right weights. -/
theorem pay11_6_at (a x : S1000x256.Idx → EReal) (wl wr : S256x256.Idx → EReal) (b : S1x256.Idx → EReal)
    (p : Fin 1000) (q : Fin 256) :
    k11_pay6 (F := Ideal) a wl b x wr (ix2 p q)
      = Sage.rel (fun k : Fin 256 => a (ix2 p k)) (fun k : Fin 256 => x (ix2 p k)) (fun k : Fin 256 => wl (ix2 k q)) (fun k : Fin 256 => wr (ix2 k q)) (b (ix2 (0 : Fin 1) q)) := by
  unfold k11_pay6
  simp only [addf_apply, shapeCast_self, broadcastTo_1b_ab_apply, matmul11_at]
  rfl

/-- A 1000x256 block's column sums, as a row: at column `q` the sum over the block's rows. -/
theorem colsum11_at (acc : S1000x256.Idx → EReal) (q : Fin 256) :
    shapeCast S1x256 (multiReduction (F := Ideal) .add [0] S256 acc 0x00000000#32 reduces_S1000x256_S256 (.inl rfl) rfl) shapeCasts_S256_S1x256 (ix2 (0 : Fin 1) q)
      = ∑ r : Fin 1000, acc (ix2 r q) := by
  refine (shapeCast_a_1a_apply _ shapeCasts_S256_S1x256 (0 : Fin 1) q).trans ?_
  refine (Ideal.multiReduction_add_single acc _ reduces_S1000x256_S256 (.inl rfl) rfl (ix1 q)).trans ?_
  refine Finset.sum_congr rfl fun r _ => congrArg acc ?_
  funext a
  match a with
  | ⟨0, _⟩ => rfl
  | ⟨1, _⟩ => rfl

/-- The first accumulator's payload at column `q`: what it held plus the block's column sum. -/
theorem pay11_7_at (a x : S1000x256.Idx → EReal) (wl wr : S256x256.Idx → EReal) (b : S1x256.Idx → EReal) (s : S1x256.Idx → EReal) (q : Fin 256) :
    k11_pay7 (F := Ideal) a wl b x wr s (ix2 (0 : Fin 1) q)
      = s (ix2 (0 : Fin 1) q) + ∑ r : Fin 1000, k11_pay6 (F := Ideal) a wl b x wr (ix2 r q) := by
  unfold k11_pay7
  simp only [shapeCast_self, addf_apply]
  exact congrArg (s (ix2 (0 : Fin 1) q) + ·) (colsum11_at (k11_pay6 (F := Ideal) a wl b x wr) q)

/-- The second accumulator's payload at column `q`: what it held plus the column sum of the block's squares. -/
theorem pay11_8_at (a x : S1000x256.Idx → EReal) (wl wr : S256x256.Idx → EReal) (b : S1x256.Idx → EReal) (s : S1x256.Idx → EReal) (q : Fin 256) :
    k11_pay1 (F := Ideal) (k11_pay8 (F := Ideal) a wl b x wr s) (ix2 (0 : Fin 1) q)
      = s (ix2 (0 : Fin 1) q) + ∑ r : Fin 1000, k11_pay6 (F := Ideal) a wl b x wr (ix2 r q) * k11_pay6 (F := Ideal) a wl b x wr (ix2 r q) := by
  unfold k11_pay1 k11_pay8
  simp only [shapeCast_self, addf_apply]
  exact congrArg (s (ix2 (0 : Fin 1) q) + ·) ((colsum11_at (mulf (F := Ideal) (s := S1000x256) (φ := .f32) (k11_pay6 (F := Ideal) a wl b x wr) (k11_pay6 (F := Ideal) a wl b x wr)) q).trans rfl)

/-- The two resets store zeros. -/
theorem pay11_4_at (i : S1x256.Idx) : k11_pay4 (F := Ideal) i = 0 := by
  unfold k11_pay4
  simp only [shapeCast_self, broadcast_apply]
  exact Ideal.ofBits_zero_f32
theorem pay11_5_at (i : S1x256.Idx) : k11_pay5 (F := Ideal) i = 0 := by
  unfold k11_pay5
  simp only [shapeCast_self, broadcast_apply]
  exact Ideal.ofBits_zero_f32

/-- The row count the statistics divide by, as the body writes it. -/
noncomputable abbrev rows11 : EReal := Ideal.ofBits .f32 0x453B8000#32

/-- The mean output's payload at an index: the first accumulator's entry over the row count. -/
theorem pay11_2_at (s0 : S1x256.Idx → EReal) (i : S1x256.Idx) : k11_pay2 (F := Ideal) s0 i = Ideal.div (s0 i) rows11 := by
  unfold k11_pay2
  simp only [divf_apply, broadcast_apply]
  rfl

/-- The variance output's payload at an index: the second accumulator's entry over the row count, less the squared mean. -/
theorem pay11_3_at (s0 s1 : S1x256.Idx → EReal) (i : S1x256.Idx) :
    k11_pay3 (F := Ideal) s0 s1 i = Ideal.div (s1 i) rows11 - Ideal.div (s0 i) rows11 * Ideal.div (s0 i) rows11 := by
  unfold k11_pay3
  simp only [subf_apply, mulf_apply, divf_apply, broadcast_apply, pay11_2_at]
  rfl

/-! ## The arrays as the region finds them -/

-- the TensorCore's buffer contents when the region is entered
variable (V : (c : Dev nD) → (b : Ref sig .tc) → Buf (Elt Ideal) ((c : Thread nD τ).loc b))

/-- The relation's aggregated sources (the neighbours' mean rows), -/
noncomputable abbrev agg11 (c : Dev nD) : S3000x256.Idx → EReal := V c (Pipeline.arrRef spec11 0)
/-- the node type's own features, -/
noncomputable abbrev x11 (c : Dev nD) : S3000x256.Idx → EReal := V c (Pipeline.arrRef spec11 1)
/-- the left and the right weights, -/
noncomputable abbrev wll11 (c : Dev nD) : S256x256.Idx → EReal := V c (Pipeline.arrRef spec11 2)
noncomputable abbrev wrr11 (c : Dev nD) : S256x256.Idx → EReal := V c (Pipeline.arrRef spec11 3)
/-- and the bias row. -/
noncomputable abbrev b11 (c : Dev nD) : S1x256.Idx → EReal := V c (Pipeline.arrRef spec11 4)

/-- The input windows' blocks at a point, by their literal types. -/
noncomputable abbrev blk11_0 (c : Dev nD) (t : Fin cfg11.N) : S1000x256.Idx → EReal := iblk11 V c 0 t
noncomputable abbrev blk11_1 (c : Dev nD) (t : Fin cfg11.N) : S1000x256.Idx → EReal := iblk11 V c 1 t
noncomputable abbrev blk11_2 (c : Dev nD) (t : Fin cfg11.N) : S256x256.Idx → EReal := iblk11 V c 2 t
noncomputable abbrev blk11_3 (c : Dev nD) (t : Fin cfg11.N) : S256x256.Idx → EReal := iblk11 V c 3 t
noncomputable abbrev blk11_4 (c : Dev nD) (t : Fin cfg11.N) : S1x256.Idx → EReal := iblk11 V c 4 t

/-! ## The blocks' places in their arrays -/

theorem hz11 : (![0, 0] : Fin 2 → Nat) = fun _ => 0 := funext fun a => by fin_cases a <;> rfl

/-- The printed index maps, decided over the grid: the two row-blocked inputs' and the block output's block at point
    `t` is row block `t`; every other window's one block is its whole array. -/
theorem idx_facts11 : ∀ t : Fin cfg11.N,
    (win11_0.index t (0 : Fin 2) = t.val ∧ win11_0.index t (1 : Fin 2) = 0)
    ∧ (win11_1.index t (0 : Fin 2) = t.val ∧ win11_1.index t (1 : Fin 2) = 0)
    ∧ (win11_2.index t (0 : Fin 2) = 0 ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = t.val ∧ win11_5.index t (1 : Fin 2) = 0)
    ∧ (win11_6.index t (0 : Fin 2) = 0 ∧ win11_6.index t (1 : Fin 2) = 0)
    ∧ (win11_7.index t (0 : Fin 2) = 0 ∧ win11_7.index t (1 : Fin 2) = 0) :=
  (by decide +kernel : ∀ t : Fin grid11.N, _)

/-- Row `p`, column `k` of the aggregate's block at point `t` is the array's entry at row `1000 t + p`. -/
theorem blk11_0_at (c : Dev nD) (t : Fin cfg11.N) (p : Fin 1000) (k : Fin 256) (hr : t.val * 1000 + p.val < 3000) :
    blk11_0 V c t (ix2 p k) = agg11 V c (ix2 (⟨t.val * 1000 + p.val, hr⟩ : Fin 3000) k) := by
  obtain ⟨e0, e1⟩ := (idx_facts11 t).1
  show iblk11 V c 0 t (ix2 p k) = _
  unfold iblk11
  rw [View.read_apply]
  show V c (Pipeline.arrRef spec11 0) _ = V c (Pipeline.arrRef spec11 0) _
  congr 1
  funext a
  apply Fin.ext
  match a with
  | ⟨0, _⟩ => show win11_0.index t (0 : Fin 2) * 1000 + 1 * p.val = t.val * 1000 + p.val; rw [e0]; omega
  | ⟨1, _⟩ => show win11_0.index t (1 : Fin 2) * 256 + 1 * k.val = k.val; rw [e1]; omega

/-- Row `p`, column `k` of the node's own block at point `t` is the array's entry at row `1000 t + p`. -/
theorem blk11_1_at (c : Dev nD) (t : Fin cfg11.N) (p : Fin 1000) (k : Fin 256) (hr : t.val * 1000 + p.val < 3000) :
    blk11_1 V c t (ix2 p k) = x11 V c (ix2 (⟨t.val * 1000 + p.val, hr⟩ : Fin 3000) k) := by
  obtain ⟨e0, e1⟩ := (idx_facts11 t).2.1
  show iblk11 V c 1 t (ix2 p k) = _
  unfold iblk11
  rw [View.read_apply]
  show V c (Pipeline.arrRef spec11 1) _ = V c (Pipeline.arrRef spec11 1) _
  congr 1
  funext a
  apply Fin.ext
  match a with
  | ⟨0, _⟩ => show win11_1.index t (0 : Fin 2) * 1000 + 1 * p.val = t.val * 1000 + p.val; rw [e0]; omega
  | ⟨1, _⟩ => show win11_1.index t (1 : Fin 2) * 256 + 1 * k.val = k.val; rw [e1]; omega

/-- Window 2's one block, at any point, is its whole array. -/
theorem blk11_2_eq (c : Dev nD) (t : Fin cfg11.N) : blk11_2 V c t = wll11 V c := by
  obtain ⟨e0, e1⟩ := (idx_facts11 t).2.2.1
  funext j
  obtain ⟨k, q, rfl⟩ : ∃ (k : Fin 256) (q : Fin 256), j = ix2 k q := ⟨j 0, j 1, eq_ix2 j⟩
  show iblk11 V c 2 t (ix2 k q) = _
  unfold iblk11
  rw [View.read_apply]
  show V c (Pipeline.arrRef spec11 2) _ = V c (Pipeline.arrRef spec11 2) _
  congr 1
  funext a
  apply Fin.ext
  match a with
  | ⟨0, _⟩ => show win11_2.index t (0 : Fin 2) * 256 + 1 * k.val = k.val; rw [e0]; omega
  | ⟨1, _⟩ => show win11_2.index t (1 : Fin 2) * 256 + 1 * q.val = q.val; rw [e1]; omega

/-- Window 3's one block, at any point, is its whole array. -/
theorem blk11_3_eq (c : Dev nD) (t : Fin cfg11.N) : blk11_3 V c t = wrr11 V c := by
  obtain ⟨e0, e1⟩ := (idx_facts11 t).2.2.2.1
  funext j
  obtain ⟨k, q, rfl⟩ : ∃ (k : Fin 256) (q : Fin 256), j = ix2 k q := ⟨j 0, j 1, eq_ix2 j⟩
  show iblk11 V c 3 t (ix2 k q) = _
  unfold iblk11
  rw [View.read_apply]
  show V c (Pipeline.arrRef spec11 3) _ = V c (Pipeline.arrRef spec11 3) _
  congr 1
  funext a
  apply Fin.ext
  match a with
  | ⟨0, _⟩ => show win11_3.index t (0 : Fin 2) * 256 + 1 * k.val = k.val; rw [e0]; omega
  | ⟨1, _⟩ => show win11_3.index t (1 : Fin 2) * 256 + 1 * q.val = q.val; rw [e1]; omega

/-- Window 4's one block, at any point, is its whole row. -/
theorem blk11_4_eq (c : Dev nD) (t : Fin cfg11.N) : blk11_4 V c t = b11 V c := by
  obtain ⟨e0, e1⟩ := (idx_facts11 t).2.2.2.2.1
  funext j
  obtain ⟨u, q, rfl⟩ : ∃ (u : Fin 1) (q : Fin 256), j = ix2 u q := ⟨j 0, j 1, eq_ix2 j⟩
  show iblk11 V c 4 t (ix2 u q) = _
  unfold iblk11
  rw [View.read_apply]
  show V c (Pipeline.arrRef spec11 4) _ = V c (Pipeline.arrRef spec11 4) _
  congr 1
  funext a
  apply Fin.ext
  match a with
  | ⟨0, _⟩ => show win11_4.index t (0 : Fin 2) * 1 + 1 * u.val = u.val; rw [e0]; omega
  | ⟨1, _⟩ => show win11_4.index t (1 : Fin 2) * 256 + 1 * q.val = q.val; rw [e1]; omega

end Cert.KernelIdeal.Hand

end
-- ==== Proof.KI.Val11.lean ====
import proofs.«126569_j1468878815453_1_alg».proof.Proof.KI.Reg11
import proofs.«126569_j1468878815453_1_alg».proof.Proof.KI.Val11Pay
import proofs.«126569_j1468878815453_1_alg».proof.Proof.Sage.Spec
import proofs.«126569_j1468878815453_1_alg».proof.Proof.Sage.Tiles
import proofs.«126569_j1468878815453_1_alg».proof.Proof.Sage.Real
import Idealize.ShloMosaic.Lib.ValueIdx
import Idealize.ShloMosaic.Lib.Pipeline.Value
import Idealize.ShloMosaic.Lib.Tactic
import Idealize.ShloMosaic.PureOps.Ideal.Laws

/-! # Custom call 11 (the one-relation combine of a 3000-row node type in 3 row blocks), the value

What each control case's stores leave, as the body's payloads of the input blocks and of what the accumulators held;
the accumulators after a point as running column sums; at the ideal instance, the three output arrays after the
region as functions of the five input arrays as the region finds them; and the input arrays kept. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

/-! ## What each case's stores leave, as values -/

/-- The first point's store into the row-block output leaves the relation's block of the input blocks. -/
theorem run11_A_5_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x11 : Vec F S256x256 .f32) (x4 : Vec F S1x256 .f32) :
    VO11_5.read (Elt F) (VO11_5.writes (Elt F) VO11_5.junk (kernelRun11_A c i arg1 harg1 arg2 harg2 arg3 harg3 arg4 harg4 arg5 harg5 arg6 harg6 arg7 harg7 arg8 harg8 arg9 harg9 arg10 harg10 hc0 hc1 x0 x1 x2 x11 x4).1) = k11_pay6 x0 x2 x4 x1 x11 := by
  rw [View.read_writes_eq_canon _ _ _ (cover11_A_5 c i arg1 harg1 arg2 harg2 arg3 harg3 arg4 harg4 arg5 harg5 arg6 harg6 arg7 harg7 arg8 harg8 arg9 harg9 arg10 harg10 hc0 hc1 x0 x1 x2 x11 x4)]
  unfold kernelRun11_A
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The first point leaves the first accumulator at the block's column sums over the reset's zeros. -/
theorem run11_A_s0_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x11 : Vec F S256x256 .f32) (x4 : Vec F S1x256 .f32) :
    VS11_0.read (Elt F) (VS11_0.writes (Elt F) VS11_0.junk (kernelRun11_A c i arg1 harg1 arg2 harg2 arg3 harg3 arg4 harg4 arg5 harg5 arg6 harg6 arg7 harg7 arg8 harg8 arg9 harg9 arg10 harg10 hc0 hc1 x0 x1 x2 x11 x4).2.1) = k11_pay7 x0 x2 x4 x1 x11 (k11_pay4 (F := F)) := by
  rw [View.read_writes_eq_canon _ _ _ (scover11_A_0 c i arg1 harg1 arg2 harg2 arg3 harg3 arg4 harg4 arg5 harg5 arg6 harg6 arg7 harg7 arg8 harg8 arg9 harg9 arg10 harg10 hc0 hc1 x0 x1 x2 x11 x4)]
  unfold kernelRun11_A
  dsimp only
  try sl_unfold_words
  rw [View.canon_cons_unit_zero (S := S1x256) hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The first point leaves the second accumulator at the column sums of the block's squares over the reset's zeros. -/
theorem run11_A_s1_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond11_0 i) (hc1 : ¬cond11_1 i)
    (x0 : Vec F S1000x256 .f32) (x1 : Vec F S1000x256 .f32) (x2 : Vec F S256x256 .f32) (x11 : Vec F S256x256 .f32) (x4 : Vec F S1x256 .f32) :
    VS11_1.read (Elt F) (VS11_1.writes (Elt F) VS11_1.junk (kernelRun11_A c i arg1 harg1 arg2 harg2 arg3 harg3 arg4 harg4 arg5 harg5 arg6 harg6 arg7 harg7 arg8 harg8 arg9 harg9 arg10 harg10 hc0 hc1 x0 x1 x2 x11 x4).2.2.1) = k11_pay1 (k11_pay8 x0 x2 x4 x1 x11 (k11_pay5 (F := F))) := by
  rw [View.read_writes_eq_canon _ _ _ (scover11_A_1 c i arg1 harg1 arg2 harg2 arg3 harg3 arg4 harg4 arg5 harg5 arg6 harg6 arg7 harg7 arg8 harg8 arg9 harg9 arg10 harg10 hc0 hc1 x0 x1 x2 x11 x4)]
  unfold kernelRun11_A
  dsimp only
  try sl_unfold_words
  rw [View.canon_cons_unit_zero (S := S1x256) hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The middle point's store into the row-block output leaves the relation's block. -/
theorem run11_B_5_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VO11_5.read (Elt F) (VO11_5.writes (Elt F) VO11_5.junk (kernelRun11_B c i arg1 harg1 arg2 harg2 arg3 harg3 arg4 harg4 arg5 harg5 arg6 harg6 arg7 harg7 arg8 harg8 arg9 harg9 arg10 harg10 hc0 hc1 x0 x1 x2 x11 x4 xs0 xs1).1) = k11_pay6 x0 x2 x4 x1 x11 := by
  rw [View.read_writes_eq_canon _ _ _ (cover11_B_5 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_B
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The middle point leaves the first accumulator at what it held plus the block's column sums. -/
theorem run11_B_s0_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VS11_0.read (Elt F) (VS11_0.writes (Elt F) VS11_0.junk (kernelRun11_B c i arg1 harg1 arg2 harg2 arg3 harg3 arg4 harg4 arg5 harg5 arg6 harg6 arg7 harg7 arg8 harg8 arg9 harg9 arg10 harg10 hc0 hc1 x0 x1 x2 x11 x4 xs0 xs1).2.1) = k11_pay7 x0 x2 x4 x1 x11 xs0 := by
  rw [View.read_writes_eq_canon _ _ _ (scover11_B_0 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_B
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The middle point leaves the second accumulator at what it held plus the column sums of the block's squares. -/
theorem run11_B_s1_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : ¬cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VS11_1.read (Elt F) (VS11_1.writes (Elt F) VS11_1.junk (kernelRun11_B c i arg1 harg1 arg2 harg2 arg3 harg3 arg4 harg4 arg5 harg5 arg6 harg6 arg7 harg7 arg8 harg8 arg9 harg9 arg10 harg10 hc0 hc1 x0 x1 x2 x11 x4 xs0 xs1).2.2.1) = k11_pay1 (k11_pay8 x0 x2 x4 x1 x11 xs1) := by
  rw [View.read_writes_eq_canon _ _ _ (scover11_B_1 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_B
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The last point's store into the row-block output leaves the relation's block. -/
theorem run11_C_5_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VO11_5.read (Elt F) (VO11_5.writes (Elt F) VO11_5.junk (kernelRun11_C c i arg1 harg1 arg2 harg2 arg3 harg3 arg4 harg4 arg5 harg5 arg6 harg6 arg7 harg7 arg8 harg8 arg9 harg9 arg10 harg10 hc0 hc1 x0 x1 x2 x11 x4 xs0 xs1).1) = k11_pay6 x0 x2 x4 x1 x11 := by
  rw [View.read_writes_eq_canon _ _ _ (cover11_C_5 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_C
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The last point's store into the mean output: the first accumulator, as this point leaves it, over the row count. -/
theorem run11_C_6_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VO11_6.read (Elt F) (VO11_6.writes (Elt F) VO11_6.junk (kernelRun11_C c i arg1 harg1 arg2 harg2 arg3 harg3 arg4 harg4 arg5 harg5 arg6 harg6 arg7 harg7 arg8 harg8 arg9 harg9 arg10 harg10 hc0 hc1 x0 x1 x2 x11 x4 xs0 xs1).2.1) = k11_pay2 (k11_pay7 x0 x2 x4 x1 x11 xs0) := by
  rw [View.read_writes_eq_canon _ _ _ (cover11_C_6 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_C
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The last point's store into the variance output, from the two accumulators as this point leaves them. -/
theorem run11_C_7_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VO11_7.read (Elt F) (VO11_7.writes (Elt F) VO11_7.junk (kernelRun11_C c i arg1 harg1 arg2 harg2 arg3 harg3 arg4 harg4 arg5 harg5 arg6 harg6 arg7 harg7 arg8 harg8 arg9 harg9 arg10 harg10 hc0 hc1 x0 x1 x2 x11 x4 xs0 xs1).2.2.1) = k11_pay3 (k11_pay7 x0 x2 x4 x1 x11 xs0) (k11_pay1 (k11_pay8 x0 x2 x4 x1 x11 xs1)) := by
  rw [View.read_writes_eq_canon _ _ _ (cover11_C_7 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_C
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The last point leaves the first accumulator at what it held plus the block's column sums. -/
theorem run11_C_s0_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VS11_0.read (Elt F) (VS11_0.writes (Elt F) VS11_0.junk (kernelRun11_C c i arg1 harg1 arg2 harg2 arg3 harg3 arg4 harg4 arg5 harg5 arg6 harg6 arg7 harg7 arg8 harg8 arg9 harg9 arg10 harg10 hc0 hc1 x0 x1 x2 x11 x4 xs0 xs1).2.2.2.1) = k11_pay7 x0 x2 x4 x1 x11 xs0 := by
  rw [View.read_writes_eq_canon _ _ _ (scover11_C_0 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_C
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

/-- The last point leaves the second accumulator at what it held plus the column sums of the block's squares. -/
theorem run11_C_s1_eq (c : Dev nD) (i : grid11.Coords) (arg1 : Memref sig .tc .vmem S1000x256 .f32) (harg1 : arg1.IsWhole) (arg2 : Memref sig .tc .vmem S1000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond11_0 i) (hc1 : cond11_1 i)
    (x0 : Vec F S1000x256 .f32) (x1 : Vec F S1000x256 .f32) (x2 : Vec F S256x256 .f32) (x11 : Vec F S256x256 .f32) (x4 : Vec F S1x256 .f32) (xs0 : Vec F S1x256 .f32) (xs1 : Vec F S1x256 .f32) :
    VS11_1.read (Elt F) (VS11_1.writes (Elt F) VS11_1.junk (kernelRun11_C c i arg1 harg1 arg2 harg2 arg3 harg3 arg4 harg4 arg5 harg5 arg6 harg6 arg7 harg7 arg8 harg8 arg9 harg9 arg10 harg10 hc0 hc1 x0 x1 x2 x11 x4 xs0 xs1).2.2.2.2.1) = k11_pay1 (k11_pay8 x0 x2 x4 x1 x11 xs1) := by
  rw [View.read_writes_eq_canon _ _ _ (scover11_C_1 c i arg1 harg1 arg2 harg2 arg3 harg3 arg4 harg4 arg5 harg5 arg6 harg6 arg7 harg7 arg8 harg8 arg9 harg9 arg10 harg10 hc0 hc1 x0 x1 x2 x11 x4 xs0 xs1)]
  unfold kernelRun11_C
  dsimp only
  try sl_unfold_words
  rw [View.canon_unit_zero hz11]
  simp only [View.readAt_eq_ld, Memref.IsWhole.read_unread, View.ld_unit_zero (S := S1000x256) hz11, View.ld_unit_zero (S := S256x256) hz11, View.ld_unit_zero (S := S1x256) hz11, View.ld_unit_zero (S := S1000x256) hz11, View.readCov_unit_zero (S := S1x256) _ hz11]

end Pieces

/-! ## The result, index by index -/

-- the TensorCore's buffer contents when the region is entered
variable (V : (c : Dev nD) → (b : Ref sig .tc) → Buf (Elt Ideal) ((c : Thread nD τ).loc b))

/-- Every entry of the layer: the relation's contribution to a row and an output column. -/
noncomputable def hArr11 (a x : S3000x256.Idx → EReal) (wl wr : S256x256.Idx → EReal) (b : S1x256.Idx → EReal) :
    S3000x256.Idx → EReal :=
  fun i => Sage.rel (fun k : Fin 256 => a (ix2 (i 0) k)) (fun k : Fin 256 => x (ix2 (i 0) k)) (fun k : Fin 256 => wl (ix2 k (i 1))) (fun k : Fin 256 => wr (ix2 k (i 1))) (b (ix2 (0 : Fin 1) (i 1)))

/-- The layer of the arrays as the region finds them. -/
noncomputable abbrev hOut11 (c : Dev nD) : S3000x256.Idx → EReal :=
  hArr11 (agg11 V c) (x11 V c) (wll11 V c) (wrr11 V c) (b11 V c)

/-- The block the body computes at point `t`, from the input windows' blocks there. -/
noncomputable abbrev hblk11 (c : Dev nD) (t : Fin cfg11.N) : S1000x256.Idx → EReal :=
  k11_pay6 (F := Ideal) (blk11_0 V c t) (blk11_2 V c t) (blk11_4 V c t) (blk11_1 V c t) (blk11_3 V c t)

/-- Row `p`, column `q` of that block is the layer's entry at row `1000 t + p`. -/
theorem hblk11_at (c : Dev nD) (t : Fin cfg11.N) (p : Fin 1000) (q : Fin 256) (hr : t.val * 1000 + p.val < 3000) :
    hblk11 V c t (ix2 p q) = hOut11 V c (ix2 (⟨t.val * 1000 + p.val, hr⟩ : Fin 3000) q) := by
  refine (pay11_6_at (blk11_0 V c t) (blk11_1 V c t) (blk11_2 V c t) (blk11_3 V c t) (blk11_4 V c t) p q).trans ?_
  simp only [blk11_0_at V c t p _ hr, blk11_1_at V c t p _ hr, blk11_2_eq V c t, blk11_3_eq V c t, blk11_4_eq V c t]
  rfl

/-! ## What the outputs and the accumulators hold after a point -/

theorem N11_lt (t : Fin cfg11.N) : t.val < 3 := lt_of_lt_of_eq t.isLt (show cfg11.N = 3 from N_11)

/-- After the first point: the block, and the accumulators at zero plus the block's column sums. -/
theorem outs11_first (c : Dev nD) (t : Fin cfg11.N) (h0 : t.val = 0) :
    (outsAt11 V c t.val t.isLt).1 = hblk11 V c t
    ∧ (outsAt11 V c t.val t.isLt).2.2.2.1 = k11_pay7 (F := Ideal) (blk11_0 V c t) (blk11_2 V c t) (blk11_4 V c t) (blk11_1 V c t) (blk11_3 V c t) (k11_pay4 (F := Ideal))
    ∧ (outsAt11 V c t.val t.isLt).2.2.2.2 = k11_pay1 (F := Ideal) (k11_pay8 (F := Ideal) (blk11_0 V c t) (blk11_2 V c t) (blk11_4 V c t) (blk11_1 V c t) (blk11_3 V c t) (k11_pay5 (F := Ideal))) := by
  have h0' : t.val % 3 = 0 := by rw [h0]
  have h1' : ¬t.val % 3 = 2 := by omega
  rw [outsAt11_A V c t h0' h1']
  unfold outA11
  dsimp only
  exact ⟨run11_A_5_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0') (fun h => h1' ((hcond11_1 t).mp h)) (iblk11 V c 0 t) (iblk11 V c 1 t) (iblk11 V c 2 t) (iblk11 V c 3 t) (iblk11 V c 4 t),
    run11_A_s0_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0') (fun h => h1' ((hcond11_1 t).mp h)) (iblk11 V c 0 t) (iblk11 V c 1 t) (iblk11 V c 2 t) (iblk11 V c 3 t) (iblk11 V c 4 t),
    run11_A_s1_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) ((hcond11_0 t).mpr h0') (fun h => h1' ((hcond11_1 t).mp h)) (iblk11 V c 0 t) (iblk11 V c 1 t) (iblk11 V c 2 t) (iblk11 V c 3 t) (iblk11 V c 4 t)⟩

/-- After the middle point: the block, and each accumulator at what the point before left plus the block's column sums. -/
theorem outs11_mid (c : Dev nD) (t : Fin cfg11.N) (h0 : t.val ≠ 0) (h1 : ¬t.val % 3 = 2) :
    (outsAt11 V c t.val t.isLt).1 = hblk11 V c t
    ∧ (outsAt11 V c t.val t.isLt).2.2.2.1 = k11_pay7 (F := Ideal) (blk11_0 V c t) (blk11_2 V c t) (blk11_4 V c t) (blk11_1 V c t) (blk11_3 V c t) (outsAt11 V c (t.val - 1) (Nat.lt_of_le_of_lt (Nat.sub_le _ _) t.isLt)).2.2.2.1
    ∧ (outsAt11 V c t.val t.isLt).2.2.2.2 = k11_pay1 (F := Ideal) (k11_pay8 (F := Ideal) (blk11_0 V c t) (blk11_2 V c t) (blk11_4 V c t) (blk11_1 V c t) (blk11_3 V c t) (outsAt11 V c (t.val - 1) (Nat.lt_of_le_of_lt (Nat.sub_le _ _) t.isLt)).2.2.2.2) := by
  have hN := N11_lt t
  have h0' : ¬t.val % 3 = 0 := by omega
  have h1' : ¬t.val % 3 = 2 := h1
  rw [outsAt11_B V c t h0' h1']
  unfold outB11
  dsimp only
  exact ⟨run11_B_5_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) (fun h => h1' ((hcond11_1 t).mp h)) (iblk11 V c 0 t) (iblk11 V c 1 t) (iblk11 V c 2 t) (iblk11 V c 3 t) (iblk11 V c 4 t) _ _,
    run11_B_s0_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) (fun h => h1' ((hcond11_1 t).mp h)) (iblk11 V c 0 t) (iblk11 V c 1 t) (iblk11 V c 2 t) (iblk11 V c 3 t) (iblk11 V c 4 t) _ _,
    run11_B_s1_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) (fun h => h1' ((hcond11_1 t).mp h)) (iblk11 V c 0 t) (iblk11 V c 1 t) (iblk11 V c 2 t) (iblk11 V c 3 t) (iblk11 V c 4 t) _ _⟩

set_option maxHeartbeats 1000000 in
/-- After the last point: the block, the two statistics rows from the accumulators as this point leaves them, and the
    accumulators as at a middle point. -/
theorem outs11_last (c : Dev nD) (t : Fin cfg11.N) (h0 : t.val ≠ 0) (h1 : t.val % 3 = 2) :
    (outsAt11 V c t.val t.isLt).1 = hblk11 V c t
    ∧ (outsAt11 V c t.val t.isLt).2.1 = k11_pay2 (F := Ideal) (outsAt11 V c t.val t.isLt).2.2.2.1
    ∧ (outsAt11 V c t.val t.isLt).2.2.1 = k11_pay3 (F := Ideal) (outsAt11 V c t.val t.isLt).2.2.2.1 (outsAt11 V c t.val t.isLt).2.2.2.2
    ∧ (outsAt11 V c t.val t.isLt).2.2.2.1 = k11_pay7 (F := Ideal) (blk11_0 V c t) (blk11_2 V c t) (blk11_4 V c t) (blk11_1 V c t) (blk11_3 V c t) (outsAt11 V c (t.val - 1) (Nat.lt_of_le_of_lt (Nat.sub_le _ _) t.isLt)).2.2.2.1
    ∧ (outsAt11 V c t.val t.isLt).2.2.2.2 = k11_pay1 (F := Ideal) (k11_pay8 (F := Ideal) (blk11_0 V c t) (blk11_2 V c t) (blk11_4 V c t) (blk11_1 V c t) (blk11_3 V c t) (outsAt11 V c (t.val - 1) (Nat.lt_of_le_of_lt (Nat.sub_le _ _) t.isLt)).2.2.2.2) := by
  have hN := N11_lt t
  have h0' : ¬t.val % 3 = 0 := by omega
  have h1' : t.val % 3 = 2 := h1
  rw [outsAt11_C V c t h0' h1']
  unfold outC11
  dsimp only
  have e0 := run11_C_s0_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) ((hcond11_1 t).mpr h1') (iblk11 V c 0 t) (iblk11 V c 1 t) (iblk11 V c 2 t) (iblk11 V c 3 t) (iblk11 V c 4 t) (outsAt11 V c (t.val - 1) (Nat.lt_of_le_of_lt (Nat.sub_le _ _) t.isLt)).2.2.2.1 (outsAt11 V c (t.val - 1) (Nat.lt_of_le_of_lt (Nat.sub_le _ _) t.isLt)).2.2.2.2
  have e1 := run11_C_s1_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) ((hcond11_1 t).mpr h1') (iblk11 V c 0 t) (iblk11 V c 1 t) (iblk11 V c 2 t) (iblk11 V c 3 t) (iblk11 V c 4 t) (outsAt11 V c (t.val - 1) (Nat.lt_of_le_of_lt (Nat.sub_le _ _) t.isLt)).2.2.2.1 (outsAt11 V c (t.val - 1) (Nat.lt_of_le_of_lt (Nat.sub_le _ _) t.isLt)).2.2.2.2
  exact ⟨run11_C_5_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) ((hcond11_1 t).mpr h1') (iblk11 V c 0 t) (iblk11 V c 1 t) (iblk11 V c 2 t) (iblk11 V c 3 t) (iblk11 V c 4 t) _ _,
    (run11_C_6_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) ((hcond11_1 t).mpr h1') (iblk11 V c 0 t) (iblk11 V c 1 t) (iblk11 V c 2 t) (iblk11 V c 3 t) (iblk11 V c 4 t) _ _).trans (congrArg (k11_pay2 (F := Ideal)) e0.symm),
    (run11_C_7_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) scM11_0 (Memref.isWhole_whole _) scM11_1 (Memref.isWhole_whole _) (fun h => h0' ((hcond11_0 t).mp h)) ((hcond11_1 t).mpr h1') (iblk11 V c 0 t) (iblk11 V c 1 t) (iblk11 V c 2 t) (iblk11 V c 3 t) (iblk11 V c 4 t) _ _).trans (congrArg₂ (k11_pay3 (F := Ideal)) e0.symm e1.symm),
    e0, e1⟩

/-- The block output's staging buffer after any point holds the block computed there. -/
theorem outs11_blk (c : Dev nD) (t : Fin cfg11.N) : (outsAt11 V c t.val t.isLt).1 = hblk11 V c t := by
  by_cases h0 : t.val = 0
  · exact (outs11_first V c t h0).1
  · by_cases h1 : t.val % 3 = 2
    · exact (outs11_last V c t h0 h1).1
    · exact (outs11_mid V c t h0 h1).1

/-! ## The accumulators are the running column sums -/

/-- Column `q` of the layer, its rows numbered by natural numbers (zero past the last row), -/
noncomputable def colN11 (c : Dev nD) (q : Fin 256) : ℕ → EReal :=
  fun i => if h : i < 3000 then hOut11 V c (ix2 (⟨i, h⟩ : Fin 3000) q) else 0
/-- and the column of its squares. -/
noncomputable def colSq11 (c : Dev nD) (q : Fin 256) : ℕ → EReal :=
  fun i => if h : i < 3000 then hOut11 V c (ix2 (⟨i, h⟩ : Fin 3000) q) * hOut11 V c (ix2 (⟨i, h⟩ : Fin 3000) q) else 0

/-- The column sum of the block at point `t` is tile `t`'s sum. -/
theorem tile11 (c : Dev nD) (t : Fin cfg11.N) (q : Fin 256) :
    ∑ r : Fin 1000, hblk11 V c t (ix2 r q) = Sage.tileSum 1000 (colN11 V c q) t.val := by
  have hN := N11_lt t
  unfold Sage.tileSum
  rw [Finset.sum_range]
  refine Finset.sum_congr rfl fun r _ => ?_
  have hr : t.val * 1000 + r.val < 3000 := by have := r.isLt; omega
  rw [hblk11_at V c t r q hr]
  unfold colN11
  rw [dif_pos hr]
theorem tileSq11 (c : Dev nD) (t : Fin cfg11.N) (q : Fin 256) :
    ∑ r : Fin 1000, hblk11 V c t (ix2 r q) * hblk11 V c t (ix2 r q) = Sage.tileSum 1000 (colSq11 V c q) t.val := by
  have hN := N11_lt t
  unfold Sage.tileSum
  rw [Finset.sum_range]
  refine Finset.sum_congr rfl fun r _ => ?_
  have hr : t.val * 1000 + r.val < 3000 := by have := r.isLt; omega
  rw [hblk11_at V c t r q hr]
  unfold colSq11
  rw [dif_pos hr]

/-- After point `n` the two accumulators hold, at column `q`, the sums over the first `n + 1` tiles of the column and
    of its squares. -/
theorem accs11_eq (c : Dev nD) (q : Fin 256) : ∀ (n : ℕ) (hn : n < cfg11.N),
    (outsAt11 V c n hn).2.2.2.1 (ix2 (0 : Fin 1) q) = Sage.acc 1000 (colN11 V c q) (n + 1)
    ∧ (outsAt11 V c n hn).2.2.2.2 (ix2 (0 : Fin 1) q) = Sage.acc 1000 (colSq11 V c q) (n + 1)
  | 0, hn => by
    obtain ⟨-, e1, e2⟩ := outs11_first V c ⟨0, hn⟩ rfl
    have e1' : (outsAt11 V c 0 hn).2.2.2.1 = _ := e1
    have e2' : (outsAt11 V c 0 hn).2.2.2.2 = _ := e2
    rw [e1', e2']
    constructor
    · refine (pay11_7_at _ _ _ _ _ _ q).trans ?_
      rw [pay11_4_at, Sage.acc_succ, Sage.acc_zero, tile11 V c ⟨0, hn⟩ q]
    · refine (pay11_8_at _ _ _ _ _ _ q).trans ?_
      rw [pay11_5_at, Sage.acc_succ, Sage.acc_zero, tileSq11 V c ⟨0, hn⟩ q]
  | n + 1, hn => by
    obtain ⟨ih1, ih2⟩ := accs11_eq c q n (Nat.lt_of_succ_lt hn)
    have hs : (outsAt11 V c (n + 1) hn).2.2.2.1 = k11_pay7 (F := Ideal) (blk11_0 V c ⟨n + 1, hn⟩) (blk11_2 V c ⟨n + 1, hn⟩) (blk11_4 V c ⟨n + 1, hn⟩) (blk11_1 V c ⟨n + 1, hn⟩) (blk11_3 V c ⟨n + 1, hn⟩) (outsAt11 V c n (Nat.lt_of_succ_lt hn)).2.2.2.1
        ∧ (outsAt11 V c (n + 1) hn).2.2.2.2 = k11_pay1 (F := Ideal) (k11_pay8 (F := Ideal) (blk11_0 V c ⟨n + 1, hn⟩) (blk11_2 V c ⟨n + 1, hn⟩) (blk11_4 V c ⟨n + 1, hn⟩) (blk11_1 V c ⟨n + 1, hn⟩) (blk11_3 V c ⟨n + 1, hn⟩) (outsAt11 V c n (Nat.lt_of_succ_lt hn)).2.2.2.2) := by
      by_cases h1 : (n + 1) % 3 = 2
      · exact ⟨(outs11_last V c ⟨n + 1, hn⟩ (Nat.succ_ne_zero n) h1).2.2.2.1, (outs11_last V c ⟨n + 1, hn⟩ (Nat.succ_ne_zero n) h1).2.2.2.2⟩
      · exact ⟨(outs11_mid V c ⟨n + 1, hn⟩ (Nat.succ_ne_zero n) h1).2.1, (outs11_mid V c ⟨n + 1, hn⟩ (Nat.succ_ne_zero n) h1).2.2⟩
    rw [hs.1, hs.2]
    constructor
    · refine (pay11_7_at _ _ _ _ _ _ q).trans ?_
      rw [ih1, Sage.acc_succ _ _ (n + 1)]
      exact congrArg (Sage.acc 1000 (colN11 V c q) (n + 1) + ·) (tile11 V c ⟨n + 1, hn⟩ q)
    · refine (pay11_8_at _ _ _ _ _ _ q).trans ?_
      rw [ih2, Sage.acc_succ _ _ (n + 1)]
      exact congrArg (Sage.acc 1000 (colSq11 V c q) (n + 1) + ·) (tileSq11 V c ⟨n + 1, hn⟩ q)

/-- All three tiles: the column's sum over all rows. -/
theorem acc_full11 (c : Dev nD) (q : Fin 256) :
    Sage.acc 1000 (colN11 V c q) 3 = ∑ r : Fin 3000, hOut11 V c (ix2 r q) := by
  rw [Sage.acc_eq_sum, show (3 * 1000 : ℕ) = 3000 from rfl, Finset.sum_range]
  refine Finset.sum_congr rfl fun r _ => ?_
  unfold colN11
  rw [dif_pos r.isLt]
theorem accSq_full11 (c : Dev nD) (q : Fin 256) :
    Sage.acc 1000 (colSq11 V c q) 3 = ∑ r : Fin 3000, hOut11 V c (ix2 r q) * hOut11 V c (ix2 r q) := by
  rw [Sage.acc_eq_sum, show (3 * 1000 : ℕ) = 3000 from rfl, Finset.sum_range]
  refine Finset.sum_congr rfl fun r _ => ?_
  unfold colSq11
  rw [dif_pos r.isLt]

/-! ## What a point writes back -/

/-- What point `t` writes back to the block output's array is block `t` of the layer. -/
theorem flushed11_5_eq (c : Dev nD) (t : Fin cfg11.N) :
    (dat11 (F := Ideal) V c).flushed 5 t = ((cfg11.win 5).blk t).view.read (Elt Ideal) (hOut11 V c) := by
  show (cfg11.win 5).cut (grid11.coords t) ((dat11 V c).after 5 t) = _
  rw [after11_5, outs11_blk V c t]
  have hN := N11_lt t
  obtain ⟨e0, e1⟩ := (idx_facts11 t).2.2.2.2.2.1
  funext j
  obtain ⟨p, q, rfl⟩ : ∃ (p : Fin 1000) (q : Fin 256), j = ix2 p q := ⟨j 0, j 1, eq_ix2 j⟩
  show hblk11 V c t (ix2 p q) = hOut11 V c (((cfg11.win 5).blk t).view.emb (ix2 p q))
  have hr : t.val * 1000 + p.val < 3000 := by have := p.isLt; omega
  rw [hblk11_at V c t p q hr]
  refine congrArg (hOut11 V c) (Shape.idx_ext₂ ?_ ?_)
  · show t.val * 1000 + p.val = win11_5.index t (0 : Fin 2) * 1000 + 1 * p.val; rw [e0]; omega
  · show q.val = win11_5.index t (1 : Fin 2) * 256 + 1 * q.val; rw [e1]; omega

/-- The mean row: each column's mean over the 3000 rows of the layer, -/
noncomputable def meanRow11 (h : S3000x256.Idx → EReal) : S1x256.Idx → EReal :=
  fun i => Sage.colMean (((3000 : ℝ) : EReal)) (fun r : Fin 3000 => h (ix2 r (i 1)))
/-- and the variance row: each column's mean of squares less its squared mean. -/
noncomputable def varRow11 (h : S3000x256.Idx → EReal) : S1x256.Idx → EReal :=
  fun i => Sage.colVarSq (((3000 : ℝ) : EReal)) (fun r : Fin 3000 => h (ix2 r (i 1)))

/-- A point that writes a statistics row back is the last one. -/
theorem last_of_flush11 (t : Fin cfg11.N) (h : t.val % 3 = 2) : t.val = 2 := by have := N11_lt t; omega

/-- What the last point writes back to the mean output's array is the mean row. -/
theorem flushed11_6_eq (c : Dev nD) (t : Fin cfg11.N) (hf : (cfg11.win 6).flush t = true) :
    (dat11 (F := Ideal) V c).flushed 6 t = ((cfg11.win 6).blk t).view.read (Elt Ideal) (meanRow11 (hOut11 V c)) := by
  have h1 : t.val % 3 = 2 := (flush11_6 t).mp hf
  have h2 : t.val = 2 := last_of_flush11 t h1
  show (cfg11.win 6).cut (grid11.coords t) ((dat11 V c).after 6 t) = _
  rw [after11_6, (outs11_last V c t (by omega) h1).2.1]
  obtain ⟨e0, e1⟩ := (idx_facts11 t).2.2.2.2.2.2.1
  funext j
  obtain ⟨u, q, rfl⟩ : ∃ (u : Fin 1) (q : Fin 256), j = ix2 u q := ⟨j 0, j 1, eq_ix2 j⟩
  obtain rfl : u = 0 := Subsingleton.elim _ _
  show k11_pay2 (F := Ideal) (outsAt11 V c t.val t.isLt).2.2.2.1 (ix2 (0 : Fin 1) q) = meanRow11 (hOut11 V c) (((cfg11.win 6).blk t).view.emb (ix2 (0 : Fin 1) q))
  have hq : ((((cfg11.win 6).blk t).view.emb (ix2 (0 : Fin 1) q) : S1x256.Idx) 1) = q :=
    Fin.ext (by show win11_6.index t (1 : Fin 2) * 256 + 1 * q.val = q.val; rw [e1]; omega)
  refine (pay11_2_at _ _).trans ?_
  unfold meanRow11 Sage.colMean
  have hrows : rows11 = (((3000 : ℝ) : EReal)) := Sage.ofBits_3000
  rw [hq, (accs11_eq V c q t.val t.isLt).1, h2, acc_full11, hrows]

/-- What the last point writes back to the variance output's array is the variance row. -/
theorem flushed11_7_eq (c : Dev nD) (t : Fin cfg11.N) (hf : (cfg11.win 7).flush t = true) :
    (dat11 (F := Ideal) V c).flushed 7 t = ((cfg11.win 7).blk t).view.read (Elt Ideal) (varRow11 (hOut11 V c)) := by
  have h1 : t.val % 3 = 2 := (flush11_7 t).mp hf
  have h2 : t.val = 2 := last_of_flush11 t h1
  show (cfg11.win 7).cut (grid11.coords t) ((dat11 V c).after 7 t) = _
  rw [after11_7, (outs11_last V c t (by omega) h1).2.2.1]
  obtain ⟨e0, e1⟩ := (idx_facts11 t).2.2.2.2.2.2.2
  funext j
  obtain ⟨u, q, rfl⟩ : ∃ (u : Fin 1) (q : Fin 256), j = ix2 u q := ⟨j 0, j 1, eq_ix2 j⟩
  obtain rfl : u = 0 := Subsingleton.elim _ _
  show k11_pay3 (F := Ideal) (outsAt11 V c t.val t.isLt).2.2.2.1 (outsAt11 V c t.val t.isLt).2.2.2.2 (ix2 (0 : Fin 1) q) = varRow11 (hOut11 V c) (((cfg11.win 7).blk t).view.emb (ix2 (0 : Fin 1) q))
  have hq : ((((cfg11.win 7).blk t).view.emb (ix2 (0 : Fin 1) q) : S1x256.Idx) 1) = q :=
    Fin.ext (by show win11_7.index t (1 : Fin 2) * 256 + 1 * q.val = q.val; rw [e1]; omega)
  refine (pay11_3_at _ _ _).trans ?_
  unfold varRow11 Sage.colVarSq Sage.colMean
  have hrows : rows11 = (((3000 : ℝ) : EReal)) := Sage.ofBits_3000
  rw [hq, (accs11_eq V c q t.val t.isLt).1, (accs11_eq V c q t.val t.isLt).2, h2, acc_full11, accSq_full11, hrows]

/-! ## From the blocks to the arrays -/

/-- An index of an output's array is in point `t`'s block iff each coordinate is in the block's range on its axis. -/
theorem mem_blk11_5 (t : Fin cfg11.N) (i : S3000x256.Idx) :
    i ∈ ((cfg11.win 5).blk t).view.set ↔ ∀ a : Fin 2, win11_5.index t a * S1000x256.size a ≤ (i a).val ∧ (i a).val < win11_5.index t a * S1000x256.size a + S1000x256.size a := by
  show i ∈ ((View.whole (Pipeline.arrRef spec11 5)).slice (win11_5.rect t)).set ↔ _
  rw [View.set_slice_whole, Rect.mem_set_unit]
  exact Iff.rfl
theorem mem_blk11_6 (t : Fin cfg11.N) (i : S1x256.Idx) :
    i ∈ ((cfg11.win 6).blk t).view.set ↔ ∀ a : Fin 2, win11_6.index t a * S1x256.size a ≤ (i a).val ∧ (i a).val < win11_6.index t a * S1x256.size a + S1x256.size a := by
  show i ∈ ((View.whole (Pipeline.arrRef spec11 6)).slice (win11_6.rect t)).set ↔ _
  rw [View.set_slice_whole, Rect.mem_set_unit]
  exact Iff.rfl
theorem mem_blk11_7 (t : Fin cfg11.N) (i : S1x256.Idx) :
    i ∈ ((cfg11.win 7).blk t).view.set ↔ ∀ a : Fin 2, win11_7.index t a * S1x256.size a ≤ (i a).val ∧ (i a).val < win11_7.index t a * S1x256.size a + S1x256.size a := by
  show i ∈ ((View.whole (Pipeline.arrRef spec11 7)).slice (win11_7.rect t)).set ↔ _
  rw [View.set_slice_whole, Rect.mem_set_unit]
  exact Iff.rfl

/-- Row `r` of the block output's array is in the block of point `r / 1000`, which writes it back. -/
theorem covered11_5 (i : S3000x256.Idx) : ∃ t : Fin cfg11.N, (cfg11.win 5).flush t = true ∧ i ∈ ((cfg11.win 5).blk t).view.set := by
  have hi0 : (i 0).val < 3000 := (i 0).isLt
  have hi1 : (i 1).val < 256 := (i 1).isLt
  have hN : cfg11.N = 3 := N_11
  let t : Fin cfg11.N := ⟨(i 0).val / 1000, by rw [hN]; omega⟩
  obtain ⟨e0, e1⟩ := (idx_facts11 t).2.2.2.2.2.1
  have ht : t.val = (i 0).val / 1000 := rfl
  refine ⟨t, flush11_5 t, ?_⟩
  rw [mem_blk11_5]
  intro a
  match a with
  | ⟨0, _⟩ => show win11_5.index t (0 : Fin 2) * 1000 ≤ (i 0).val ∧ (i 0).val < win11_5.index t (0 : Fin 2) * 1000 + 1000; omega
  | ⟨1, _⟩ => show win11_5.index t (1 : Fin 2) * 256 ≤ (i 1).val ∧ (i 1).val < win11_5.index t (1 : Fin 2) * 256 + 256; omega

/-- The last point's block of a statistics output is its whole row. -/
theorem covered11_6 (i : S1x256.Idx) : ∃ t : Fin cfg11.N, (cfg11.win 6).flush t = true ∧ i ∈ ((cfg11.win 6).blk t).view.set := by
  have hi0 : (i 0).val < 1 := (i 0).isLt
  have hi1 : (i 1).val < 256 := (i 1).isLt
  have hN : cfg11.N = 3 := N_11
  let t : Fin cfg11.N := ⟨2, by rw [hN]; omega⟩
  obtain ⟨e0, e1⟩ := (idx_facts11 t).2.2.2.2.2.2.1
  refine ⟨t, (flush11_6 t).mpr rfl, ?_⟩
  rw [mem_blk11_6]
  intro a
  match a with
  | ⟨0, _⟩ => show win11_6.index t (0 : Fin 2) * 1 ≤ (i 0).val ∧ (i 0).val < win11_6.index t (0 : Fin 2) * 1 + 1; omega
  | ⟨1, _⟩ => show win11_6.index t (1 : Fin 2) * 256 ≤ (i 1).val ∧ (i 1).val < win11_6.index t (1 : Fin 2) * 256 + 256; omega
theorem covered11_7 (i : S1x256.Idx) : ∃ t : Fin cfg11.N, (cfg11.win 7).flush t = true ∧ i ∈ ((cfg11.win 7).blk t).view.set := by
  have hi0 : (i 0).val < 1 := (i 0).isLt
  have hi1 : (i 1).val < 256 := (i 1).isLt
  have hN : cfg11.N = 3 := N_11
  let t : Fin cfg11.N := ⟨2, by rw [hN]; omega⟩
  obtain ⟨e0, e1⟩ := (idx_facts11 t).2.2.2.2.2.2.2
  refine ⟨t, (flush11_7 t).mpr rfl, ?_⟩
  rw [mem_blk11_7]
  intro a
  match a with
  | ⟨0, _⟩ => show win11_7.index t (0 : Fin 2) * 1 ≤ (i 0).val ∧ (i 0).val < win11_7.index t (0 : Fin 2) * 1 + 1; omega
  | ⟨1, _⟩ => show win11_7.index t (1 : Fin 2) * 256 ≤ (i 1).val ∧ (i 1).val < win11_7.index t (1 : Fin 2) * 256 + 256; omega

/-- The block output's array after the region: the layer of the arrays as the region finds them. -/
theorem final11_5 (c : Dev nD) : (dat11 (F := Ideal) V c).arrAt 5 cfg11.N = hOut11 V c :=
  (dat11 (F := Ideal) V c).arrAt_eq_of_cover 5 _ (fun t _ => flushed11_5_eq V c t) covered11_5

/-- The mean output's array after the region: the layer's column means. -/
theorem final11_6 (c : Dev nD) : (dat11 (F := Ideal) V c).arrAt 6 cfg11.N = meanRow11 (hOut11 V c) :=
  (dat11 (F := Ideal) V c).arrAt_eq_of_cover 6 _ (fun t hf => flushed11_6_eq V c t hf) covered11_6

/-- The variance output's array after the region: the layer's column variances. -/
theorem final11_7 (c : Dev nD) : (dat11 (F := Ideal) V c).arrAt 7 cfg11.N = varRow11 (hOut11 V c) :=
  (dat11 (F := Ideal) V c).arrAt_eq_of_cover 7 _ (fun t hf => flushed11_7_eq V c t hf) covered11_7

/-- The same, entry by entry. -/
theorem final11_5_apply (c : Dev nD) (r : Fin 3000) (q : Fin 256) :
    ((dat11 (F := Ideal) V c).arrAt 5 cfg11.N : S3000x256.Idx → EReal) (ix2 r q)
      = Sage.rel (fun k : Fin 256 => agg11 V c (ix2 r k)) (fun k : Fin 256 => x11 V c (ix2 r k)) (fun k : Fin 256 => wll11 V c (ix2 k q)) (fun k : Fin 256 => wrr11 V c (ix2 k q)) (b11 V c (ix2 (0 : Fin 1) q)) :=
  congrFun (final11_5 V c) (ix2 r q)
theorem final11_6_apply (c : Dev nD) (q : Fin 256) :
    ((dat11 (F := Ideal) V c).arrAt 6 cfg11.N : S1x256.Idx → EReal) (ix2 (0 : Fin 1) q)
      = Sage.colMean (((3000 : ℝ) : EReal)) (fun r : Fin 3000 => hOut11 V c (ix2 r q)) :=
  congrFun (final11_6 V c) (ix2 (0 : Fin 1) q)
theorem final11_7_apply (c : Dev nD) (q : Fin 256) :
    ((dat11 (F := Ideal) V c).arrAt 7 cfg11.N : S1x256.Idx → EReal) (ix2 (0 : Fin 1) q)
      = Sage.colVarSq (((3000 : ℝ) : EReal)) (fun r : Fin 3000 => hOut11 V c (ix2 r q)) :=
  congrFun (final11_7 V c) (ix2 (0 : Fin 1) q)

/-! ## The input arrays are kept -/

theorem kept11_0 (c : Dev nD) : (dat11 (F := Ideal) V c).arrAt 0 cfg11.N = V c (Pipeline.arrRef spec11 0) :=
  ((dat11 V c).arrAt_in 0 rfl _).trans (A_eq11 V c 0)
theorem kept11_1 (c : Dev nD) : (dat11 (F := Ideal) V c).arrAt 1 cfg11.N = V c (Pipeline.arrRef spec11 1) :=
  ((dat11 V c).arrAt_in 1 rfl _).trans (A_eq11 V c 1)
theorem kept11_2 (c : Dev nD) : (dat11 (F := Ideal) V c).arrAt 2 cfg11.N = V c (Pipeline.arrRef spec11 2) :=
  ((dat11 V c).arrAt_in 2 rfl _).trans (A_eq11 V c 2)
theorem kept11_3 (c : Dev nD) : (dat11 (F := Ideal) V c).arrAt 3 cfg11.N = V c (Pipeline.arrRef spec11 3) :=
  ((dat11 V c).arrAt_in 3 rfl _).trans (A_eq11 V c 3)
theorem kept11_4 (c : Dev nD) : (dat11 (F := Ideal) V c).arrAt 4 cfg11.N = V c (Pipeline.arrRef spec11 4) :=
  ((dat11 V c).arrAt_in 4 rfl _).trans (A_eq11 V c 4)

end Cert.KernelIdeal.Hand

end
-- ==== Proof.CmpL2T3.lean ====
/-
  Layer 2 compared, over layer 1's results: the same statements as layer 1's, each given that the kernel's layer-1
  results it reads are the reference's.
-/
import proofs.«126569_j1468878815453_1_alg».proof.Proof.CmpA2
import proofs.«126569_j1468878815453_1_alg».proof.Proof.KI.ReadL2b
import proofs.«126569_j1468878815453_1_alg».proof.Proof.KI.Val11
import proofs.«126569_j1468878815453_1_alg».proof.Proof.Ref.StageReal
import proofs.«126569_j1468878815453_1_alg».proof.Proof.Ref.BridgeBn

set_option maxRecDepth 16384

noncomputable section

namespace Cert.Proof

open Idealize.ShloMosaic Idealize.ShloMosaic.ValueIdx Idealize.SL.Sem

/-- Layer 2, the node type of 3000 rows: the kernel's relation sums are the reference's, and its normalised result the reference's. -/
theorem l2_3 (m : KMem) (ρ : Dev Cert.KernelIdeal.nD → PrngReg) (m' : RMem) (c : Dev Cert.KernelIdeal.nD) (hag : Agree m m' c)
    (hreal : Cert.ReferenceIdeal.Hand.ArgsReal m' c) (hx3 : Cert.KernelIdeal.Hand.kOut1_3 m ρ c = Cert.ReferenceIdeal.Hand.rOut1_path m' c) (hx1 : Cert.KernelIdeal.Hand.kOut1_1 m ρ c = Cert.ReferenceIdeal.Hand.rOut1_protein m' c) :
    Cert.KernelIdeal.Hand.kH2_3 m ρ c = Cert.ReferenceIdeal.Hand.rH2_path m' c ∧ Cert.KernelIdeal.Hand.kOut2_3 m ρ c = Cert.ReferenceIdeal.Hand.rOut2_path m' c := by
  have ea0 := agg2_2 m ρ m' c hag hx1
  unfold Agree at hag
  obtain ⟨h0, h1, h2, h3, h4, h5, h6, h7, h8, h9, h10, h11, h12, h13, h14, h15, h16, h17, h18, h19, h20, h21, h22, h23, h24, h25, h26, h27⟩ := hag
  have hHk : Cert.KernelIdeal.Hand.kH2_3 m ρ c = Cert.KernelIdeal.Hand.hArr11 (Cert.KernelIdeal.Hand.kAgg2_2 m ρ c) (Cert.KernelIdeal.Hand.kOut1_3 m ρ c) (Cert.KernelIdeal.Hand.kWl2_2 m ρ c) (Cert.KernelIdeal.Hand.kWr2_2 m ρ c) (Cert.KernelIdeal.Hand.kB2_2 m ρ c) :=
    (Cert.KernelIdeal.Hand.final11_5 (Cert.KernelIdeal.Hand.V23 m ρ) c).trans (Sage.cmp5 Cert.KernelIdeal.Hand.hArr11 (Cert.KernelIdeal.Hand.ent11_0 m ρ c) (Cert.KernelIdeal.Hand.ent11_1 m ρ c) (Cert.KernelIdeal.Hand.ent11_2 m ρ c) (Cert.KernelIdeal.Hand.ent11_3 m ρ c) (Cert.KernelIdeal.Hand.ent11_4 m ρ c))
  exact Sage.node1_eq (n := 3000) (k := 256) (m := 256) (R := 7) (i0 := 2)
    Cert.ReferenceIdeal.dot_S3000x256_S256x256_S3000x256_1_0_0_1_n_n Cert.ReferenceIdeal.Gen.slices_S7x256x256_S1x256x256_2_0_0 Cert.ReferenceIdeal.Gen.shapeCasts_S1x256x256_S256x256
    Cert.ReferenceIdeal.Gen.slices_S7x256_S1x256_2_0 Cert.ReferenceIdeal.Gen.shapeCasts_S1x256_S256 Cert.KernelIdeal.Gen.shapeCasts_S256_S1x256 Cert.ReferenceIdeal.Gen.bcast_S256_S1x256_1 Cert.ReferenceIdeal.Gen.bcast_S1x256_S3000x256_0_1
    (Ideal.ofBits .f32 0x3727C5AC#32) 3000 Cert.ReferenceIdeal.Hand.refBn3000 rfl (by decide)
    (fun H hH g beta r q => Cert.ReferenceIdeal.Hand.refBn3000_eq_sq H hH g beta r q)
    (Cert.KernelIdeal.Hand.kAgg2_2 m ρ c) (Cert.KernelIdeal.Hand.kOut1_3 m ρ c) (Cert.ReferenceIdeal.Hand.rAgg2_2 m' c) (Cert.ReferenceIdeal.Hand.rOut1_path m' c)
    (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.ReferenceIdeal.Hand.inW2l m' c) (Cert.ReferenceIdeal.Hand.inW2r m' c) (m ((c.tc : Thread Cert.KernelIdeal.nD Cert.KernelIdeal.τ).loc Cert.KernelIdeal.main_arg9)) (Cert.ReferenceIdeal.Hand.inB2 m' c)
    (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.ReferenceIdeal.Hand.inG2 m' c) (Cert.ReferenceIdeal.Hand.inBeta2 m' c)
    ea0 hx3 h7.symm h8.symm h9.symm h12.symm h13.symm
    (Cert.ReferenceIdeal.Hand.rAgg2_2_allReal hreal) (Cert.ReferenceIdeal.Hand.rOut1_path_allReal hreal) hreal.w2l hreal.w2r hreal.b2
    (Cert.KernelIdeal.Hand.kH2_3 m ρ c) (Cert.KernelIdeal.Hand.kOut2_3 m ρ c) (Cert.KernelIdeal.Hand.kMean2_3 m ρ c) (Cert.KernelIdeal.Hand.kVar2_3 m ρ c) (Cert.KernelIdeal.Hand.kG2_3 m ρ c) (Cert.KernelIdeal.Hand.kBeta2_3 m ρ c)
    (fun r q => congrFun hHk (ix2 r q))
    (fun q => (Cert.KernelIdeal.Hand.final11_6_apply (Cert.KernelIdeal.Hand.V23 m ρ) c q).trans
      (congrArg (fun H : Cert.ReferenceIdeal.S3000x256.Idx → EReal => Sage.colMean ((3000 : ℝ) : EReal) fun r : Fin 3000 => H (ix2 r q)) (Cert.KernelIdeal.Hand.final11_5 (Cert.KernelIdeal.Hand.V23 m ρ) c).symm))
    (fun q => (Cert.KernelIdeal.Hand.final11_7_apply (Cert.KernelIdeal.Hand.V23 m ρ) c q).trans
      (congrArg (fun H : Cert.ReferenceIdeal.S3000x256.Idx → EReal => Sage.colVarSq ((3000 : ℝ) : EReal) fun r : Fin 3000 => H (ix2 r q)) (Cert.KernelIdeal.Hand.final11_5 (Cert.KernelIdeal.Hand.V23 m ρ) c).symm))
    (fun q => Sage.row_of_vec_apply (m ((c.tc : Thread Cert.KernelIdeal.nD Cert.KernelIdeal.τ).loc Cert.KernelIdeal.main_arg12)) Cert.KernelIdeal.Gen.shapeCasts_S256_S1x256 q)
    (fun q => Sage.row_of_vec_apply (m ((c.tc : Thread Cert.KernelIdeal.nD Cert.KernelIdeal.τ).loc Cert.KernelIdeal.main_arg13)) Cert.KernelIdeal.Gen.shapeCasts_S256_S1x256 q)
    (fun _ _ => rfl)

end Cert.Proof

end
-- ==== Proof.Cmp.lean ====
/-
  The four results compared: on a core where the two launch memories agree on the twenty-eight arguments and the
  reference's fourteen float arguments are real, each node type's final array of the kernel program is the reference's.
-/
import proofs.«126569_j1468878815453_1_alg».proof.Proof.CmpL1T0
import proofs.«126569_j1468878815453_1_alg».proof.Proof.CmpL1T1
import proofs.«126569_j1468878815453_1_alg».proof.Proof.CmpL1T2
import proofs.«126569_j1468878815453_1_alg».proof.Proof.CmpL1T3
import proofs.«126569_j1468878815453_1_alg».proof.Proof.CmpL2T0
import proofs.«126569_j1468878815453_1_alg».proof.Proof.CmpL2T1
import proofs.«126569_j1468878815453_1_alg».proof.Proof.CmpL2T2
import proofs.«126569_j1468878815453_1_alg».proof.Proof.CmpL2T3

set_option maxRecDepth 16384

noncomputable section

namespace Cert.Proof

open Idealize.ShloMosaic Idealize.ShloMosaic.ValueIdx Idealize.SL.Sem

/-- The node type of 20000 rows. -/
theorem out_0 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kOut2_0 m ρ c = Cert.ReferenceIdeal.Hand.rOut2_drug m' c :=
  (l2_0 m ρ m' c hag hreal (l1_0 m ρ m' c hag hreal).2 (l1_2 m ρ m' c hag hreal).2 (l1_1 m ρ m' c hag hreal).2).2

/-- The node type of 50000 rows. -/
theorem out_1 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kOut2_1 m ρ c = Cert.ReferenceIdeal.Hand.rOut2_protein m' c :=
  (l2_1 m ρ m' c hag hreal (l1_1 m ρ m' c hag hreal).2 (l1_0 m ρ m' c hag hreal).2 (l1_3 m ρ m' c hag hreal).2).2

/-- The node type of 10000 rows. -/
theorem out_2 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kOut2_2 m ρ c = Cert.ReferenceIdeal.Hand.rOut2_side m' c :=
  (l2_2 m ρ m' c hag hreal (l1_2 m ρ m' c hag hreal).2 (l1_0 m ρ m' c hag hreal).2 (l1_1 m ρ m' c hag hreal).2).2

/-- The node type of 3000 rows. -/
theorem out_3 (m : KMem) (ρ : Dev Cert.KernelIdeal.nD → PrngReg) (m' : RMem) (c : Dev Cert.KernelIdeal.nD) (hag : Agree m m' c)
    (hreal : Cert.ReferenceIdeal.Hand.ArgsReal m' c) :
    Cert.KernelIdeal.Hand.kOut2_3 m ρ c = Cert.ReferenceIdeal.Hand.rOut2_path m' c :=
  (l2_3 m ρ m' c hag hreal (l1_3 m ρ m' c hag hreal).2 (l1_1 m ρ m' c hag hreal).2).2

end Cert.Proof

end
-- ==== Proof.ArgsReal.lean ====
import proofs.«126569_j1468878815453_1_alg».proof.Defs
import proofs.«126569_j1468878815453_1_alg».proof.Proof.Gen.Pre_finite_inputs
import proofs.«126569_j1468878815453_1_alg».proof.Proof.Ref.StageReal
import proofs.«126569_j1468878815453_1_alg».proof.Proof.PreDecode
import proofs.«126569_j1468878815453_1_alg».proof.Proof.CmpDefs

/-! # Finite inputs are real entries

The precondition says every float argument of the kernel program's memory is finite; an extended real that is finite in
absolute value is a real. Read at a reference memory that agrees on the arguments, the reference's fourteen float
arguments have real entries. -/

noncomputable section

namespace Cert.Proof

open Idealize.ShloMosaic Idealize.ShloMosaic.TcCoe Idealize.SL.Sem

variable [hPre_finite_inputs : Cert.Pre_finite_inputs.Facts] [hKernelIdeal : Cert.KernelIdeal.Facts] [hReferenceIdeal : Cert.ReferenceIdeal.Facts]

/-- Finite float arguments of the kernel program's memory, read at the reference's memory that agrees with it: every
    entry of the reference's fourteen float arguments is real. -/
theorem argsReal_of_pre (m : KMem) (m' : RMem) (hpre : Cert.Pre_KernelIdeal m) (c : Dev Cert.KernelIdeal.nD) (hag : Agree m m' c) :
    Cert.ReferenceIdeal.Hand.ArgsReal m' c := by
  have hr := Cert.Proof.Pre.allReal_of_pre _ _ _ _ _ _ _ _ _ _ _ _ _ _ _ _ _ _ _ _ _ _ _ _ _ _ _ _ (hpre c)
  unfold Agree at hag
  obtain ⟨h0, h1, h2, h3, h4, h5, h6, h7, h8, h9, h10, h11, h12, h13, -⟩ := hag
  obtain ⟨r0, r1, r2, r3, r4, r5, r6, r7, r8, r9, r10, r11, r12, r13⟩ := hr
  exact {
    x_drug := by unfold Cert.ReferenceIdeal.Hand.inX_drug; rw [h0]; exact r0
    x_protein := by unfold Cert.ReferenceIdeal.Hand.inX_protein; rw [h1]; exact r1
    x_side := by unfold Cert.ReferenceIdeal.Hand.inX_side; rw [h2]; exact r2
    x_path := by unfold Cert.ReferenceIdeal.Hand.inX_path; rw [h3]; exact r3
    w1l := by unfold Cert.ReferenceIdeal.Hand.inW1l; rw [h4]; exact r4
    w1r := by unfold Cert.ReferenceIdeal.Hand.inW1r; rw [h5]; exact r5
    b1 := by unfold Cert.ReferenceIdeal.Hand.inB1; rw [h6]; exact r6
    w2l := by unfold Cert.ReferenceIdeal.Hand.inW2l; rw [h7]; exact r7
    w2r := by unfold Cert.ReferenceIdeal.Hand.inW2r; rw [h8]; exact r8
    b2 := by unfold Cert.ReferenceIdeal.Hand.inB2; rw [h9]; exact r9
    g1 := by unfold Cert.ReferenceIdeal.Hand.inG1; rw [h10]; exact r10
    beta1 := by unfold Cert.ReferenceIdeal.Hand.inBeta1; rw [h11]; exact r11
    g2 := by unfold Cert.ReferenceIdeal.Hand.inG2; rw [h12]; exact r12
    beta2 := by unfold Cert.ReferenceIdeal.Hand.inBeta2; rw [h13]; exact r13 }

end Cert.Proof

end
-- ==== Proof.Bridge.lean ====
import proofs.«126569_j1468878815453_1_alg».proof.Defs
import proofs.«126569_j1468878815453_1_alg».proof.Proof.Gen.Kernel
import proofs.«126569_j1468878815453_1_alg».proof.Proof.Gen.KernelIdeal
import proofs.«126569_j1468878815453_1_alg».proof.Proof.Gen.ReferenceIdeal
import proofs.«126569_j1468878815453_1_alg».proof.Proof.Gen.Pre_finite_inputs
import proofs.«126569_j1468878815453_1_alg».proof.Proof.KI.Frame
import proofs.«126569_j1468878815453_1_alg».proof.Proof.KI.ReadL2b
import proofs.«126569_j1468878815453_1_alg».proof.Proof.Ref.Run
import proofs.«126569_j1468878815453_1_alg».proof.Proof.Ref.Stages
import proofs.«126569_j1468878815453_1_alg».proof.Proof.PreDecode
import proofs.«126569_j1468878815453_1_alg».proof.Proof.CmpDefs
import proofs.«126569_j1468878815453_1_alg».proof.Proof.Cmp
import proofs.«126569_j1468878815453_1_alg».proof.Proof.ArgsReal

/-! # The two idealized programs end with equal results

From memories that agree on the arguments, the idealized kernel program ends with each result array at the last stage
of its own reading of @main, and the idealized reference with each result at the last stage of its reading; stage by
stage the two readings are the same functions of the arguments, the variance taken as the mean of squares less the
squared mean on one side and as the mean of squared deviations on the other, which agree because finite inputs keep
every entry real. -/

noncomputable section

namespace Cert.Proof

open Idealize.ShloMosaic Idealize.ShloMosaic.TcCoe Idealize.SL.Sem

variable [hPre_finite_inputs : Cert.Pre_finite_inputs.Facts] [hKernelIdeal : Cert.KernelIdeal.Facts] [hReferenceIdeal : Cert.ReferenceIdeal.Facts]

/-- THE VALUE CLAIM: from memories agreeing on the arguments, both idealized programs run, and end with the same four
    result arrays and unchanged arguments. -/
theorem algebraic : Cert.algebraic_KernelIdeal_ReferenceIdeal := by
  intro m g m' g' hpre hag
  refine ⟨fun c => Cert.KernelIdeal.Hand.kOut2_0 m g c, fun c => Cert.KernelIdeal.Hand.kOut2_1 m g c,
    fun c => Cert.KernelIdeal.Hand.kOut2_2 m g c, fun c => Cert.KernelIdeal.Hand.kOut2_3 m g c, ?_, ?_⟩
  · refine (θ_run (Cert.KernelIdeal.defs (F := Ideal)) _ _).mono (fun r h c => ?_) (Cert.KernelIdeal.Hand.run_all (F := Ideal) m g)
    exact ⟨(h c _ (Cert.KernelIdeal.Hand.mem_uc Cert.KernelIdeal.main_v330 (by decide))).trans (Cert.KernelIdeal.Hand.result_0 m g c),
      (h c _ (Cert.KernelIdeal.Hand.mem_uc Cert.KernelIdeal.main_v333 (by decide))).trans (Cert.KernelIdeal.Hand.result_1 m g c),
      (h c _ (Cert.KernelIdeal.Hand.mem_uc Cert.KernelIdeal.main_v336 (by decide))).trans (Cert.KernelIdeal.Hand.result_2 m g c),
      (h c _ (Cert.KernelIdeal.Hand.mem_uc Cert.KernelIdeal.main_v339 (by decide))).trans (Cert.KernelIdeal.Hand.result_3 m g c),
      (h c _ (Cert.KernelIdeal.Hand.mem_uc Cert.KernelIdeal.main_arg0 (by decide))).trans (Cert.KernelIdeal.Hand.kept0 m g c),
      (h c _ (Cert.KernelIdeal.Hand.mem_uc Cert.KernelIdeal.main_arg1 (by decide))).trans (Cert.KernelIdeal.Hand.kept1 m g c),
      (h c _ (Cert.KernelIdeal.Hand.mem_uc Cert.KernelIdeal.main_arg2 (by decide))).trans (Cert.KernelIdeal.Hand.kept2 m g c),
      (h c _ (Cert.KernelIdeal.Hand.mem_uc Cert.KernelIdeal.main_arg3 (by decide))).trans (Cert.KernelIdeal.Hand.kept3 m g c),
      (h c _ (Cert.KernelIdeal.Hand.mem_uc Cert.KernelIdeal.main_arg4 (by decide))).trans (Cert.KernelIdeal.Hand.kept4 m g c),
      (h c _ (Cert.KernelIdeal.Hand.mem_uc Cert.KernelIdeal.main_arg5 (by decide))).trans (Cert.KernelIdeal.Hand.kept5 m g c),
      (h c _ (Cert.KernelIdeal.Hand.mem_uc Cert.KernelIdeal.main_arg6 (by decide))).trans (Cert.KernelIdeal.Hand.kept6 m g c),
      (h c _ (Cert.KernelIdeal.Hand.mem_uc Cert.KernelIdeal.main_arg7 (by decide))).trans (Cert.KernelIdeal.Hand.kept7 m g c),
      (h c _ (Cert.KernelIdeal.Hand.mem_uc Cert.KernelIdeal.main_arg8 (by decide))).trans (Cert.KernelIdeal.Hand.kept8 m g c),
      (h c _ (Cert.KernelIdeal.Hand.mem_uc Cert.KernelIdeal.main_arg9 (by decide))).trans (Cert.KernelIdeal.Hand.kept9 m g c),
      (h c _ (Cert.KernelIdeal.Hand.mem_uc Cert.KernelIdeal.main_arg10 (by decide))).trans (Cert.KernelIdeal.Hand.kept10 m g c),
      (h c _ (Cert.KernelIdeal.Hand.mem_uc Cert.KernelIdeal.main_arg11 (by decide))).trans (Cert.KernelIdeal.Hand.kept11 m g c),
      (h c _ (Cert.KernelIdeal.Hand.mem_uc Cert.KernelIdeal.main_arg12 (by decide))).trans (Cert.KernelIdeal.Hand.kept12 m g c),
      (h c _ (Cert.KernelIdeal.Hand.mem_uc Cert.KernelIdeal.main_arg13 (by decide))).trans (Cert.KernelIdeal.Hand.kept13 m g c),
      (h c _ (Cert.KernelIdeal.Hand.mem_uc Cert.KernelIdeal.main_arg14 (by decide))).trans (Cert.KernelIdeal.Hand.kept14 m g c),
      (h c _ (Cert.KernelIdeal.Hand.mem_uc Cert.KernelIdeal.main_arg15 (by decide))).trans (Cert.KernelIdeal.Hand.kept15 m g c),
      (h c _ (Cert.KernelIdeal.Hand.mem_uc Cert.KernelIdeal.main_arg16 (by decide))).trans (Cert.KernelIdeal.Hand.kept16 m g c),
      (h c _ (Cert.KernelIdeal.Hand.mem_uc Cert.KernelIdeal.main_arg17 (by decide))).trans (Cert.KernelIdeal.Hand.kept17 m g c),
      (h c _ (Cert.KernelIdeal.Hand.mem_uc Cert.KernelIdeal.main_arg18 (by decide))).trans (Cert.KernelIdeal.Hand.kept18 m g c),
      (h c _ (Cert.KernelIdeal.Hand.mem_uc Cert.KernelIdeal.main_arg19 (by decide))).trans (Cert.KernelIdeal.Hand.kept19 m g c),
      (h c _ (Cert.KernelIdeal.Hand.mem_uc Cert.KernelIdeal.main_arg20 (by decide))).trans (Cert.KernelIdeal.Hand.kept20 m g c),
      (h c _ (Cert.KernelIdeal.Hand.mem_uc Cert.KernelIdeal.main_arg21 (by decide))).trans (Cert.KernelIdeal.Hand.kept21 m g c),
      (h c _ (Cert.KernelIdeal.Hand.mem_uc Cert.KernelIdeal.main_arg22 (by decide))).trans (Cert.KernelIdeal.Hand.kept22 m g c),
      (h c _ (Cert.KernelIdeal.Hand.mem_uc Cert.KernelIdeal.main_arg23 (by decide))).trans (Cert.KernelIdeal.Hand.kept23 m g c),
      (h c _ (Cert.KernelIdeal.Hand.mem_uc Cert.KernelIdeal.main_arg24 (by decide))).trans (Cert.KernelIdeal.Hand.kept24 m g c),
      (h c _ (Cert.KernelIdeal.Hand.mem_uc Cert.KernelIdeal.main_arg25 (by decide))).trans (Cert.KernelIdeal.Hand.kept25 m g c),
      (h c _ (Cert.KernelIdeal.Hand.mem_uc Cert.KernelIdeal.main_arg26 (by decide))).trans (Cert.KernelIdeal.Hand.kept26 m g c),
      (h c _ (Cert.KernelIdeal.Hand.mem_uc Cert.KernelIdeal.main_arg27 (by decide))).trans (Cert.KernelIdeal.Hand.kept27 m g c)⟩
  · refine (θ_run (Cert.ReferenceIdeal.defs (F := Ideal)) _ _).mono (fun r h c => ?_) (Cert.ReferenceIdeal.Hand.run (F := Ideal) m' g')
    have hreal := argsReal_of_pre m m' hpre c (hag c)
    obtain ⟨e0, e1, e2, e3, hargs⟩ := h c
    exact ⟨e0.trans ((Cert.ReferenceIdeal.Hand.res525_eq m' c).trans (out_0 m g m' c (hag c) hreal).symm),
      e1.trans ((Cert.ReferenceIdeal.Hand.res545_eq m' c).trans (out_1 m g m' c (hag c) hreal).symm),
      e2.trans ((Cert.ReferenceIdeal.Hand.res565_eq m' c).trans (out_2 m g m' c (hag c) hreal).symm),
      e3.trans ((Cert.ReferenceIdeal.Hand.res585_eq m' c).trans (out_3 m g m' c (hag c) hreal).symm),
      hargs⟩

end Cert.Proof

end
-- ==== Proof.lean ====
/- The proof of `Cert.Claim`: a two-layer heterogeneous SAGE convolution with batch normalisation and a rectifier, computed by
   sixteen kernel launches among host operations, against the plain array program.

   Frames: the word-level and the idealized kernel programs run as the list of their sixteen regions and sixteen host
   stretches; every argument is written by no host operation and is no region's output, so it ends as launched. The
   reference is a host-only program; its run is its list of operations.

   Value: at the ideal instance both programs compute, per layer and node type, the same pre-normalisation array (each entry
   a sum over relations of the aggregated row against the left weights, plus the bias, plus the node's own row against the
   right weights: a matrix product tiled over row blocks is the same sum), and then normalise it by its column means and
   variances. The kernel accumulates column sums and sums of squares block by block and takes the variance as the mean of
   squares less the squared mean; the reference takes the mean of squared deviations. The two agree on real entries, and
   finite inputs keep every entry real through both layers (the gathers read input entries, the scatter-adds are finite
   sums, the counts are clamped below by one, the variance is non-negative and the added constant positive). -/
import proofs.«126569_j1468878815453_1_alg».proof.Defs
import proofs.«126569_j1468878815453_1_alg».proof.Proof.Gen.Kernel
import proofs.«126569_j1468878815453_1_alg».proof.Proof.Gen.KernelIdeal
import proofs.«126569_j1468878815453_1_alg».proof.Proof.Gen.ReferenceIdeal
import proofs.«126569_j1468878815453_1_alg».proof.Proof.Gen.Pre_finite_inputs
import proofs.«126569_j1468878815453_1_alg».proof.Proof.K.Frame
import proofs.«126569_j1468878815453_1_alg».proof.Proof.KI.Frame
import proofs.«126569_j1468878815453_1_alg».proof.Proof.Ref.Frame
import proofs.«126569_j1468878815453_1_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.Hand.frame_ref,
  trivial,
  Cert.Proof.algebraic⟩

end Cert.Proof

end
